-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x224x224 : Shape := ⟨4, ![16, 3, 224, 224]⟩
abbrev S3x3x3x64 : Shape := ⟨4, ![3, 3, 3, 64]⟩
abbrev S1x64 : Shape := ⟨2, ![1, 64]⟩
abbrev S3x3x64x64 : Shape := ⟨4, ![3, 3, 64, 64]⟩
abbrev S3x3x64x128 : Shape := ⟨4, ![3, 3, 64, 128]⟩
abbrev S1x128 : Shape := ⟨2, ![1, 128]⟩
abbrev S3x3x128x128 : Shape := ⟨4, ![3, 3, 128, 128]⟩
abbrev S3x3x128x256 : Shape := ⟨4, ![3, 3, 128, 256]⟩
abbrev S1x256 : Shape := ⟨2, ![1, 256]⟩
abbrev S3x3x256x256 : Shape := ⟨4, ![3, 3, 256, 256]⟩
abbrev S3x3x256x512 : Shape := ⟨4, ![3, 3, 256, 512]⟩
abbrev S1x512 : Shape := ⟨2, ![1, 512]⟩
abbrev S3x3x512x512 : Shape := ⟨4, ![3, 3, 512, 512]⟩
abbrev S_ : Shape := ⟨0, ![]⟩

class Facts : Prop where
  bcast_S_S16x3x224x224 : S_.BroadcastsInDim S16x3x224x224 (![] : Fin 0 → Fin S16x3x224x224.rank)
  reducesTo_S16x3x224x224_S_d0_1_2_3 : S16x3x224x224.ReducesTo [0, 1, 2, 3] S_
  h_S_ : 0 < S_.numel
  bcast_S_S3x3x3x64 : S_.BroadcastsInDim S3x3x3x64 (![] : Fin 0 → Fin S3x3x3x64.rank)
  reducesTo_S3x3x3x64_S_d0_1_2_3 : S3x3x3x64.ReducesTo [0, 1, 2, 3] S_
  bcast_S_S1x64 : S_.BroadcastsInDim S1x64 (![] : Fin 0 → Fin S1x64.rank)
  reducesTo_S1x64_S_d0_1 : S1x64.ReducesTo [0, 1] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S1x128 : S_.BroadcastsInDim S1x128 (![] : Fin 0 → Fin S1x128.rank)
  reducesTo_S1x128_S_d0_1 : S1x128.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128x256 : S_.BroadcastsInDim S3x3x128x256 (![] : Fin 0 → Fin S3x3x128x256.rank)
  reducesTo_S3x3x128x256_S_d0_1_2_3 : S3x3x128x256.ReducesTo [0, 1, 2, 3] S_
  bcast_S_S1x256 : S_.BroadcastsInDim S1x256 (![] : Fin 0 → Fin S1x256.rank)
  reducesTo_S1x256_S_d0_1 : S1x256.ReducesTo [0, 1] S_
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S3x3x256x512 : S_.BroadcastsInDim S3x3x256x512 (![] : Fin 0 → Fin S3x3x256x512.rank)
  reducesTo_S3x3x256x512_S_d0_1_2_3 : S3x3x256x512.ReducesTo [0, 1, 2, 3] S_
  bcast_S_S1x512 : S_.BroadcastsInDim S1x512 (![] : Fin 0 → Fin S1x512.rank)
  reducesTo_S1x512_S_d0_1 : S1x512.ReducesTo [0, 1] S_
  bcast_S_S3x3x512x512 : S_.BroadcastsInDim S3x3x512x512 (![] : Fin 0 → Fin S3x3x512x512.rank)
  reducesTo_S3x3x512x512_S_d0_1_2_3 : S3x3x512x512.ReducesTo [0, 1, 2, 3] S_

variable [Facts]

def fn_part6 {F : FTy → Type} [FloatOps F] (main_arg21 : FVec F S1x512 .f32) (main_v98 : IVec S_ 1) (main_v101 : IVec S3x3x512x512 1) (main_c_39 : IVec S_ 1) : IVec S_ 1 :=
  let main_v102 : IVec S_ 1 := (fun x v => Host.reduce IntOp.andi x v reducesTo_S3x3x512x512_S_d0_1_2_3 h_S_) main_v101 main_c_39
  let main_v103 : IVec S_ 1 := andi main_v98 main_v102
  let main_v104 : FVec F S1x512 .f32 := Host.absf main_arg21
  let main_cst_40 : FVec F S_ .f32 := constant S_ .f32 0x7F800000#32
  let main_v105 : FVec F S1x512 .f32 := broadcastInDim S1x512 ![] bcast_S_S1x512 main_cst_40
  let main_v106 : IVec S1x512 1 := cmpf .olt main_v104 main_v105
  let main_c_41 : IVec S_ 1 := constantI S_ 1 1#1
  let main_v107 : IVec S_ 1 := (fun x v => Host.reduce IntOp.andi x v reducesTo_S1x512_S_d0_1 h_S_) main_v106 main_c_41
  let main_v108 : IVec S_ 1 := andi main_v103 main_v107
  main_v108

def fn_part5 {F : FTy → Type} [FloatOps F] (main_arg18 : FVec F S3x3x512x512 .f32) (main_arg19 : FVec F S1x512 .f32) (main_arg20 : FVec F S3x3x512x512 .f32) (main_arg21 : FVec F S1x512 .f32) (main_v83 : IVec S_ 1) (main_v84 : FVec F S1x512 .f32) (main_cst_32 : FVec F S_ .f32) : IVec S_ 1 :=
  let main_v85 : FVec F S1x512 .f32 := broadcastInDim S1x512 ![] bcast_S_S1x512 main_cst_32
  let main_v86 : IVec S1x512 1 := cmpf .olt main_v84 main_v85
  let main_c_33 : IVec S_ 1 := constantI S_ 1 1#1
  let main_v87 : IVec S_ 1 := (fun x v => Host.reduce IntOp.andi x v reducesTo_S1x512_S_d0_1 h_S_) main_v86 main_c_33
  let main_v88 : IVec S_ 1 := andi main_v83 main_v87
  let main_v89 : FVec F S3x3x512x512 .f32 := Host.absf main_arg18
  let main_cst_34 : FVec F S_ .f32 := constant S_ .f32 0x7F800000#32
  let main_v90 : FVec F S3x3x512x512 .f32 := broadcastInDim S3x3x512x512 ![] bcast_S_S3x3x512x512 main_cst_34
  let main_v91 : IVec S3x3x512x512 1 := cmpf .olt main_v89 main_v90
  let main_c_35 : IVec S_ 1 := constantI S_ 1 1#1
  let main_v92 : IVec S_ 1 := (fun x v => Host.reduce IntOp.andi x v reducesTo_S3x3x512x512_S_d0_1_2_3 h_S_) main_v91 main_c_35
  let main_v93 : IVec S_ 1 := andi main_v88 main_v92
  let main_v94 : FVec F S1x512 .f32 := Host.absf main_arg19
  let main_cst_36 : FVec F S_ .f32 := constant S_ .f32 0x7F800000#32
  let main_v95 : FVec F S1x512 .f32 := broadcastInDim S1x512 ![] bcast_S_S1x512 main_cst_36
  let main_v96 : IVec S1x512 1 := cmpf .olt main_v94 main_v95
  let main_c_37 : IVec S_ 1 := constantI S_ 1 1#1
  let main_v97 : IVec S_ 1 := (fun x v => Host.reduce IntOp.andi x v reducesTo_S1x512_S_d0_1 h_S_) main_v96 main_c_37
  let main_v98 : IVec S_ 1 := andi main_v93 main_v97
  let main_v99 : FVec F S3x3x512x512 .f32 := Host.absf main_arg20
  let main_cst_38 : FVec F S_ .f32 := constant S_ .f32 0x7F800000#32
  let main_v100 : FVec F S3x3x512x512 .f32 := broadcastInDim S3x3x512x512 ![] bcast_S_S3x3x512x512 main_cst_38
  let main_v101 : IVec S3x3x512x512 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S3x3x256x256 .f32) (main_arg15 : FVec F S1x256 .f32) (main_arg16 : FVec F S3x3x256x512 .f32) (main_arg17 : FVec F S1x512 .f32) (main_arg18 : FVec F S3x3x512x512 .f32) (main_arg19 : FVec F S1x512 .f32) (main_arg20 : FVec F S3x3x512x512 .f32) (main_arg21 : FVec F S1x512 .f32) (main_v63 : IVec S_ 1) (main_v67 : IVec S_ 1) : IVec S_ 1 :=
  let main_v68 : IVec S_ 1 := andi main_v63 main_v67
  let main_v69 : FVec F S3x3x256x256 .f32 := Host.absf main_arg14
  let main_cst_26 : FVec F S_ .f32 := constant S_ .f32 0x7F800000#32
  let main_v70 : FVec F S3x3x256x256 .f32 := broadcastInDim S3x3x256x256 ![] bcast_S_S3x3x256x256 main_cst_26
  let main_v71 : IVec S3x3x256x256 1 := cmpf .olt main_v69 main_v70
  let main_c_27 : IVec S_ 1 := constantI S_ 1 1#1
  let main_v72 : IVec S_ 1 := (fun x v => Host.reduce IntOp.andi x v reducesTo_S3x3x256x256_S_d0_1_2_3 h_S_) main_v71 main_c_27
  let main_v73 : IVec S_ 1 := andi main_v68 main_v72
  let main_v74 : FVec F S1x256 .f32 := Host.absf main_arg15
  let main_cst_28 : FVec F S_ .f32 := constant S_ .f32 0x7F800000#32
  let main_v75 : FVec F S1x256 .f32 := broadcastInDim S1x256 ![] bcast_S_S1x256 main_cst_28
  let main_v76 : IVec S1x256 1 := cmpf .olt main_v74 main_v75
  let main_c_29 : IVec S_ 1 := constantI S_ 1 1#1
  let main_v77 : IVec S_ 1 := (fun x v => Host.reduce IntOp.andi x v reducesTo_S1x256_S_d0_1 h_S_) main_v76 main_c_29
  let main_v78 : IVec S_ 1 := andi main_v73 main_v77
  let main_v79 : FVec F S3x3x256x512 .f32 := Host.absf main_arg16
  let main_cst_30 : FVec F S_ .f32 := constant S_ .f32 0x7F800000#32
  let main_v80 : FVec F S3x3x256x512 .f32 := broadcastInDim S3x3x256x512 ![] bcast_S_S3x3x256x512 main_cst_30
  let main_v81 : IVec S3x3x256x512 1 := cmpf .olt main_v79 main_v80
  let main_c_31 : IVec S_ 1 := constantI S_ 1 1#1
  let main_v82 : IVec S_ 1 := (fun x v => Host.reduce IntOp.andi x v reducesTo_S3x3x256x512_S_d0_1_2_3 h_S_) main_v81 main_c_31
  let main_v83 : IVec S_ 1 := andi main_v78 main_v82
  let main_v84 : FVec F S1x512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1x256 .f32) (main_arg12 : FVec F S3x3x256x256 .f32) (main_arg13 : FVec F S1x256 .f32) (main_arg14 : FVec F S3x3x256x256 .f32) (main_arg15 : FVec F S1x256 .f32) (main_arg16 : FVec F S3x3x256x512 .f32) (main_arg17 : FVec F S1x512 .f32) (main_arg18 : FVec F S3x3x512x512 .f32) (main_arg19 : FVec F S1x512 .f32) (main_arg20 : FVec F S3x3x512x512 .f32) (main_arg21 : FVec F S1x512 .f32) (main_v48 : IVec S_ 1) (main_v49 : FVec F S3x3x128x256 .f32) (main_v50 : FVec F S3x3x128x256 .f32) : IVec S_ 1 :=
  let main_v51 : IVec S3x3x128x256 1 := cmpf .olt main_v49 main_v50
  let main_c_19 : IVec S_ 1 := constantI S_ 1 1#1
  let main_v52 : IVec S_ 1 := (fun x v => Host.reduce IntOp.andi x v reducesTo_S3x3x128x256_S_d0_1_2_3 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S3x3x256x256 .f32 := Host.absf main_arg12
  let main_cst_22 : FVec F S_ .f32 := constant S_ .f32 0x7F800000#32
  let main_v60 : FVec F S3x3x256x256 .f32 := broadcastInDim S3x3x256x256 ![] bcast_S_S3x3x256x256 main_cst_22
  let main_v61 : IVec S3x3x256x256 1 := cmpf .olt main_v59 main_v60
  let main_c_23 : IVec S_ 1 := constantI S_ 1 1#1
  let main_v62 : IVec S_ 1 := (fun x v => Host.reduce IntOp.andi x v reducesTo_S3x3x256x256_S_d0_1_2_3 h_S_) main_v61 main_c_23
  let main_v63 : IVec S_ 1 := andi main_v58 main_v62
  let main_v64 : FVec F S1x256 .f32 := Host.absf main_arg13
  let main_cst_24 : FVec F S_ .f32 := constant S_ .f32 0x7F800000#32
  let main_v65 : FVec F S1x256 .f32 := broadcastInDim S1x256 ![] bcast_S_S1x256 main_cst_24
  let main_v66 : IVec S1x256 1 := cmpf .olt main_v64 main_v65
  let main_c_25 : IVec S_ 1 := constantI S_ 1 1#1
  let main_v67 : IVec S_ 1 := (fun x v => Host.reduce IntOp.andi x v reducesTo_S1x256_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1x128 .f32) (main_arg8 : FVec F S3x3x128x128 .f32) (main_arg9 : FVec F S1x128 .f32) (main_arg10 : FVec F S3x3x128x256 .f32) (main_arg11 : FVec F S1x256 .f32) (main_arg12 : FVec F S3x3x256x256 .f32) (main_arg13 : FVec F S1x256 .f32) (main_arg14 : FVec F S3x3x256x256 .f32) (main_arg15 : FVec F S1x256 .f32) (main_arg16 : FVec F S3x3x256x512 .f32) (main_arg17 : FVec F S1x512 .f32) (main_arg18 : FVec F S3x3x512x512 .f32) (main_arg19 : FVec F S1x512 .f32) (main_arg20 : FVec F S3x3x512x512 .f32) (main_arg21 : FVec F S1x512 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S3x3x128x128 .f32 := Host.absf main_arg8
  let main_cst_14 : FVec F S_ .f32 := constant S_ .f32 0x7F800000#32
  let main_v40 : FVec F S3x3x128x128 .f32 := broadcastInDim S3x3x128x128 ![] bcast_S_S3x3x128x128 main_cst_14
  let main_v41 : IVec S3x3x128x128 1 := cmpf .olt main_v39 main_v40
  let main_c_15 : IVec S_ 1 := constantI S_ 1 1#1
  let main_v42 : IVec S_ 1 := (fun x v => Host.reduce IntOp.andi x v reducesTo_S3x3x128x128_S_d0_1_2_3 h_S_) main_v41 main_c_15
  let main_v43 : IVec S_ 1 := andi main_v38 main_v42
  let main_v44 : FVec F S1x128 .f32 := Host.absf main_arg9
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S3x3x128x256 .f32 := Host.absf main_arg10
  let main_cst_18 : FVec F S_ .f32 := constant S_ .f32 0x7F800000#32
  let main_v50 : FVec F S3x3x128x256 .f32 := broadcastInDim S3x3x128x256 ![] bcast_S_S3x3x128x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S3x3x64x64 .f32) (main_arg5 : FVec F S1x64 .f32) (main_arg6 : FVec F S3x3x64x128 .f32) (main_arg7 : FVec F S1x128 .f32) (main_arg8 : FVec F S3x3x128x128 .f32) (main_arg9 : FVec F S1x128 .f32) (main_arg10 : FVec F S3x3x128x256 .f32) (main_arg11 : FVec F S1x256 .f32) (main_arg12 : FVec F S3x3x256x256 .f32) (main_arg13 : FVec F S1x256 .f32) (main_arg14 : FVec F S3x3x256x256 .f32) (main_arg15 : FVec F S1x256 .f32) (main_arg16 : FVec F S3x3x256x512 .f32) (main_arg17 : FVec F S1x512 .f32) (main_arg18 : FVec F S3x3x512x512 .f32) (main_arg19 : FVec F S1x512 .f32) (main_arg20 : FVec F S3x3x512x512 .f32) (main_arg21 : FVec F S1x512 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S3x3x64x64 .f32 := Host.absf main_arg4
  let main_cst_6 : FVec F S_ .f32 := constant S_ .f32 0x7F800000#32
  let main_v20 : FVec F S3x3x64x64 .f32 := broadcastInDim S3x3x64x64 ![] bcast_S_S3x3x64x64 main_cst_6
  let main_v21 : IVec S3x3x64x64 1 := cmpf .olt main_v19 main_v20
  let main_c_7 : IVec S_ 1 := constantI S_ 1 1#1
  let main_v22 : IVec S_ 1 := (fun x v => Host.reduce IntOp.andi x v reducesTo_S3x3x64x64_S_d0_1_2_3 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S3x3x64x128 .f32 := Host.absf main_arg6
  let main_cst_10 : FVec F S_ .f32 := constant S_ .f32 0x7F800000#32
  let main_v30 : FVec F S3x3x64x128 .f32 := broadcastInDim S3x3x64x128 ![] bcast_S_S3x3x64x128 main_cst_10
  let main_v31 : IVec S3x3x64x128 1 := cmpf .olt main_v29 main_v30
  let main_c_11 : IVec S_ 1 := constantI S_ 1 1#1
  let main_v32 : IVec S_ 1 := (fun x v => Host.reduce IntOp.andi x v reducesTo_S3x3x64x128_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16x3x224x224 .f32) (main_arg1 : FVec F S16x3x224x224 .f32) (main_arg2 : FVec F S3x3x3x64 .f32) (main_arg3 : FVec F S1x64 .f32) (main_arg4 : FVec F S3x3x64x64 .f32) (main_arg5 : FVec F S1x64 .f32) (main_arg6 : FVec F S3x3x64x128 .f32) (main_arg7 : FVec F S1x128 .f32) (main_arg8 : FVec F S3x3x128x128 .f32) (main_arg9 : FVec F S1x128 .f32) (main_arg10 : FVec F S3x3x128x256 .f32) (main_arg11 : FVec F S1x256 .f32) (main_arg12 : FVec F S3x3x256x256 .f32) (main_arg13 : FVec F S1x256 .f32) (main_arg14 : FVec F S3x3x256x256 .f32) (main_arg15 : FVec F S1x256 .f32) (main_arg16 : FVec F S3x3x256x512 .f32) (main_arg17 : FVec F S1x512 .f32) (main_arg18 : FVec F S3x3x512x512 .f32) (main_arg19 : FVec F S1x512 .f32) (main_arg20 : FVec F S3x3x512x512 .f32) (main_arg21 : FVec F S1x512 .f32) : IVec S_ 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_c : IVec S_ 1 := constantI S_ 1 1#1
  let main_v3 : IVec S_ 1 := (fun x v => Host.reduce IntOp.andi x v reducesTo_S16x3x224x224_S_d0_1_2_3 h_S_) main_v2 main_c
  let main_v4 : FVec F S16x3x224x224 .f32 := Host.absf main_arg1
  let main_cst_0 : FVec F S_ .f32 := constant S_ .f32 0x7F800000#32
  let main_v5 : FVec F S16x3x224x224 .f32 := broadcastInDim S16x3x224x224 ![] bcast_S_S16x3x224x224 main_cst_0
  let main_v6 : IVec S16x3x224x224 1 := cmpf .olt main_v4 main_v5
  let main_c_1 : IVec S_ 1 := constantI S_ 1 1#1
  let main_v7 : IVec S_ 1 := (fun x v => Host.reduce IntOp.andi x v reducesTo_S16x3x224x224_S_d0_1_2_3 h_S_) main_v6 main_c_1
  let main_v8 : IVec S_ 1 := andi main_v3 main_v7
  let main_v9 : FVec F S3x3x3x64 .f32 := Host.absf main_arg2
  let main_cst_2 : FVec F S_ .f32 := constant S_ .f32 0x7F800000#32
  let main_v10 : FVec F S3x3x3x64 .f32 := broadcastInDim S3x3x3x64 ![] bcast_S_S3x3x3x64 main_cst_2
  let main_v11 : IVec S3x3x3x64 1 := cmpf .olt main_v9 main_v10
  let main_c_3 : IVec S_ 1 := constantI S_ 1 1#1
  let main_v12 : IVec S_ 1 := (fun x v => Host.reduce IntOp.andi x v reducesTo_S3x3x3x64_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16x3x224x224 : Shape := ⟨4, ![16, 3, 224, 224]⟩
abbrev S3x3x3x64 : Shape := ⟨4, ![3, 3, 3, 64]⟩
abbrev S1x64 : Shape := ⟨2, ![1, 64]⟩
abbrev S3x3x64x64 : Shape := ⟨4, ![3, 3, 64, 64]⟩
abbrev S3x3x64x128 : Shape := ⟨4, ![3, 3, 64, 128]⟩
abbrev S1x128 : Shape := ⟨2, ![1, 128]⟩
abbrev S3x3x128x128 : Shape := ⟨4, ![3, 3, 128, 128]⟩
abbrev S3x3x128x256 : Shape := ⟨4, ![3, 3, 128, 256]⟩
abbrev S1x256 : Shape := ⟨2, ![1, 256]⟩
abbrev S3x3x256x256 : Shape := ⟨4, ![3, 3, 256, 256]⟩
abbrev S3x3x256x512 : Shape := ⟨4, ![3, 3, 256, 512]⟩
abbrev S1x512 : Shape := ⟨2, ![1, 512]⟩
abbrev S3x3x512x512 : Shape := ⟨4, ![3, 3, 512, 512]⟩
abbrev S3 : Shape := ⟨1, ![3]⟩
abbrev S32x3x224x224 : Shape := ⟨4, ![32, 3, 224, 224]⟩
abbrev S32x224x224x3 : Shape := ⟨4, ![32, 224, 224, 3]⟩
abbrev S1x1x1x3 : Shape := ⟨4, ![1, 1, 1, 3]⟩
abbrev S_ : Shape := ⟨0, ![]⟩
abbrev S32x240x240x3 : Shape := ⟨4, ![32, 240, 240, 3]⟩
abbrev S32x224x224x64 : Shape := ⟨4, ![32, 224, 224, 64]⟩
abbrev S1x16x240x3 : Shape := ⟨4, ![1, 16, 240, 3]⟩
abbrev S1x16x224x64 : Shape := ⟨4, ![1, 16, 224, 64]⟩
abbrev S16x240x3 : Shape := ⟨3, ![16, 240, 3]⟩
abbrev S3840x3 : Shape := ⟨2, ![3840, 3]⟩
abbrev S240x3 : Shape := ⟨2, ![240, 3]⟩
abbrev S7920x3 : Shape := ⟨2, ![7920, 3]⟩
abbrev S3840x64 : Shape := ⟨2, ![3840, 64]⟩
abbrev S7919x3 : Shape := ⟨2, ![7919, 3]⟩
abbrev S7918x3 : Shape := ⟨2, ![7918, 3]⟩
abbrev S1x1x3x64 : Shape := ⟨4, ![1, 1, 3, 64]⟩
abbrev S3x64 : Shape := ⟨2, ![3, 64]⟩
abbrev S16x240x64 : Shape := ⟨3, ![16, 240, 64]⟩
abbrev S16x224x64 : Shape := ⟨3, ![16, 224, 64]⟩
abbrev S32x240x240x64 : Shape := ⟨4, ![32, 240, 240, 64]⟩
abbrev S1x16x240x64 : Shape := ⟨4, ![1, 16, 240, 64]⟩
abbrev S240x64 : Shape := ⟨2, ![240, 64]⟩
abbrev S7920x64 : Shape := ⟨2, ![7920, 64]⟩
abbrev S7919x64 : Shape := ⟨2, ![7919, 64]⟩
abbrev S7918x64 : Shape := ⟨2, ![7918, 64]⟩
abbrev S1x1x64x64 : Shape := ⟨4, ![1, 1, 64, 64]⟩
abbrev S64x64 : Shape := ⟨2, ![64, 64]⟩
abbrev S32x6272x512 : Shape := ⟨3, ![32, 6272, 512]⟩
abbrev S16x8x128 : Shape := ⟨3, ![16, 8, 128]⟩
abbrev S1x128x512 : Shape := ⟨3, ![1, 128, 512]⟩
abbrev S1x8x128 : Shape := ⟨3, ![1, 8, 128]⟩
abbrev S1x1x128x512 : Shape := ⟨4, ![1, 1, 128, 512]⟩
abbrev S1 : Shape := ⟨1, ![1]⟩
abbrev S1x1x1x1 : Shape := ⟨4, ![1, 1, 1, 1]⟩
abbrev S16x1x1 : Shape := ⟨3, ![16, 1, 1]⟩
abbrev S16 : Shape := ⟨1, ![16]⟩
abbrev S32x224x112x2x64 : Shape := ⟨5, ![32, 224, 112, 2, 64]⟩
abbrev S32x112x112x64 : Shape := ⟨4, ![32, 112, 112, 64]⟩
abbrev S1x16x112x2x64 : Shape := ⟨5, ![1, 16, 112, 2, 64]⟩
abbrev S1x8x112x64 : Shape := ⟨4, ![1, 8, 112, 64]⟩
abbrev S16x112x2x64 : Shape := ⟨4, ![16, 112, 2, 64]⟩
abbrev S16x112x64 : Shape := ⟨3, ![16, 112, 64]⟩
abbrev S8x2x112x64 : Shape := ⟨4, ![8, 2, 112, 64]⟩
abbrev S8x112x64 : Shape := ⟨3, ![8, 112, 64]⟩
abbrev S32x128x128x64 : Shape := ⟨4, ![32, 128, 128, 64]⟩
abbrev S32x112x112x128 : Shape := ⟨4, ![32, 112, 112, 128]⟩
abbrev S1x16x128x64 : Shape := ⟨4, ![1, 16, 128, 64]⟩
abbrev S1x16x112x128 : Shape := ⟨4, ![1, 16, 112, 128]⟩
abbrev S16x128x64 : Shape := ⟨3, ![16, 128, 64]⟩
abbrev S2048x64 : Shape := ⟨2, ![2048, 64]⟩
abbrev S128x64 : Shape := ⟨2, ![128, 64]⟩
abbrev S4224x64 : Shape := ⟨2, ![4224, 64]⟩
abbrev S2048x128 : Shape := ⟨2, ![2048, 128]⟩
abbrev S4223x64 : Shape := ⟨2, ![4223, 64]⟩
abbrev S4222x64 : Shape := ⟨2, ![4222, 64]⟩
abbrev S1x1x64x128 : Shape := ⟨4, ![1, 1, 64, 128]⟩
abbrev S64x128 : Shape := ⟨2, ![64, 128]⟩
abbrev S16x128x128 : Shape := ⟨3, ![16, 128, 128]⟩
abbrev S16x112x128 : Shape := ⟨3, ![16, 112, 128]⟩
abbrev S32x128x128x128 : Shape := ⟨4, ![32, 128, 128, 128]⟩
abbrev S3x384x128 : Shape := ⟨3, ![3, 384, 128]⟩
abbrev S1x16x128x128 : Shape := ⟨4, ![1, 16, 128, 128]⟩
abbrev S128x128 : Shape := ⟨2, ![128, 128]⟩
abbrev S4224x128 : Shape := ⟨2, ![4224, 128]⟩
abbrev S2048x384 : Shape := ⟨2, ![2048, 384]⟩
abbrev S1x384x128 : Shape := ⟨3, ![1, 384, 128]⟩
abbrev S384x128 : Shape := ⟨2, ![384, 128]⟩
abbrev S4223x128 : Shape := ⟨2, ![4223, 128]⟩
abbrev S4222x128 : Shape := ⟨2, ![4222, 128]⟩
abbrev S32x3136x512 : Shape := ⟨3, ![32, 3136, 512]⟩
abbrev S1x112x512 : Shape := ⟨3, ![1, 112, 512]⟩
abbrev S1x1x112x512 : Shape := ⟨4, ![1, 1, 112, 512]⟩
abbrev S32x112x56x2x128 : Shape := ⟨5, ![32, 112, 56, 2, 128]⟩
abbrev S32x56x56x128 : Shape := ⟨4, ![32, 56, 56, 128]⟩
abbrev S1x16x56x2x128 : Shape := ⟨5, ![1, 16, 56, 2, 128]⟩
abbrev S1x8x56x128 : Shape := ⟨4, ![1, 8, 56, 128]⟩
abbrev S16x56x2x128 : Shape := ⟨4, ![16, 56, 2, 128]⟩
abbrev S16x56x128 : Shape := ⟨3, ![16, 56, 128]⟩
abbrev S8x2x56x128 : Shape := ⟨4, ![8, 2, 56, 128]⟩
abbrev S8x56x128 : Shape := ⟨3, ![8, 56, 128]⟩
abbrev S32x84x64x128 : Shape := ⟨4, ![32, 84, 64, 128]⟩
abbrev S3x384x256 : Shape := ⟨3, ![3, 384, 256]⟩
abbrev S32x56x56x256 : Shape := ⟨4, ![32, 56, 56, 256]⟩
abbrev S1x28x64x128 : Shape := ⟨4, ![1, 28, 64, 128]⟩
abbrev S1x28x56x256 : Shape := ⟨4, ![1, 28, 56, 256]⟩
abbrev S28x64x128 : Shape := ⟨3, ![28, 64, 128]⟩
abbrev S1792x128 : Shape := ⟨2, ![1792, 128]⟩
abbrev S3648x128 : Shape := ⟨2, ![3648, 128]⟩
abbrev S1792x256 : Shape := ⟨2, ![1792, 256]⟩
abbrev S1792x384 : Shape := ⟨2, ![1792, 384]⟩
abbrev S1x384x256 : Shape := ⟨3, ![1, 384, 256]⟩
abbrev S384x256 : Shape := ⟨2, ![384, 256]⟩
abbrev S3647x128 : Shape := ⟨2, ![3647, 128]⟩
abbrev S3646x128 : Shape := ⟨2, ![3646, 128]⟩
abbrev S28x64x256 : Shape := ⟨3, ![28, 64, 256]⟩
abbrev S28x56x256 : Shape := ⟨3, ![28, 56, 256]⟩
abbrev S32x84x64x256 : Shape := ⟨4, ![32, 84, 64, 256]⟩
abbrev S3x768x256 : Shape := ⟨3, ![3, 768, 256]⟩
abbrev S1x28x64x256 : Shape := ⟨4, ![1, 28, 64, 256]⟩
abbrev S64x256 : Shape := ⟨2, ![64, 256]⟩
abbrev S3648x256 : Shape := ⟨2, ![3648, 256]⟩
abbrev S1792x768 : Shape := ⟨2, ![1792, 768]⟩
abbrev S1x768x256 : Shape := ⟨3, ![1, 768, 256]⟩
abbrev S768x256 : Shape := ⟨2, ![768, 256]⟩
abbrev S3647x256 : Shape := ⟨2, ![3647, 256]⟩
abbrev S3646x256 : Shape := ⟨2, ![3646, 256]⟩
abbrev S32x1568x512 : Shape := ⟨3, ![32, 1568, 512]⟩
abbrev S32x56x28x2x256 : Shape := ⟨5, ![32, 56, 28, 2, 256]⟩
abbrev S32x28x28x256 : Shape := ⟨4, ![32, 28, 28, 256]⟩
abbrev S1x14x28x2x256 : Shape := ⟨5, ![1, 14, 28, 2, 256]⟩
abbrev S1x7x28x256 : Shape := ⟨4, ![1, 7, 28, 256]⟩
abbrev S14x28x2x256 : Shape := ⟨4, ![14, 28, 2, 256]⟩
abbrev S14x28x256 : Shape := ⟨3, ![14, 28, 256]⟩
abbrev S7x2x28x256 : Shape := ⟨4, ![7, 2, 28, 256]⟩
abbrev S7x28x256 : Shape := ⟨3, ![7, 28, 256]⟩
abbrev S32x56x32x256 : Shape := ⟨4, ![32, 56, 32, 256]⟩
abbrev S3x768x512 : Shape := ⟨3, ![3, 768, 512]⟩
abbrev S32x28x28x512 : Shape := ⟨4, ![32, 28, 28, 512]⟩
abbrev S1x28x32x256 : Shape := ⟨4, ![1, 28, 32, 256]⟩
abbrev S1x28x28x512 : Shape := ⟨4, ![1, 28, 28, 512]⟩
abbrev S28x32x256 : Shape := ⟨3, ![28, 32, 256]⟩
abbrev S896x256 : Shape := ⟨2, ![896, 256]⟩
abbrev S32x256 : Shape := ⟨2, ![32, 256]⟩
abbrev S1824x256 : Shape := ⟨2, ![1824, 256]⟩
abbrev S896x512 : Shape := ⟨2, ![896, 512]⟩
abbrev S896x768 : Shape := ⟨2, ![896, 768]⟩
abbrev S1x768x512 : Shape := ⟨3, ![1, 768, 512]⟩
abbrev S768x512 : Shape := ⟨2, ![768, 512]⟩
abbrev S1823x256 : Shape := ⟨2, ![1823, 256]⟩
abbrev S1822x256 : Shape := ⟨2, ![1822, 256]⟩
abbrev S28x32x512 : Shape := ⟨3, ![28, 32, 512]⟩
abbrev S28x28x512 : Shape := ⟨3, ![28, 28, 512]⟩
abbrev S32x56x32x512 : Shape := ⟨4, ![32, 56, 32, 512]⟩
abbrev S3x1536x512 : Shape := ⟨3, ![3, 1536, 512]⟩
abbrev S1x28x32x512 : Shape := ⟨4, ![1, 28, 32, 512]⟩
abbrev S32x512 : Shape := ⟨2, ![32, 512]⟩
abbrev S1824x512 : Shape := ⟨2, ![1824, 512]⟩
abbrev S896x1536 : Shape := ⟨2, ![896, 1536]⟩
abbrev S1x1536x512 : Shape := ⟨3, ![1, 1536, 512]⟩
abbrev S1536x512 : Shape := ⟨2, ![1536, 512]⟩
abbrev S1823x512 : Shape := ⟨2, ![1823, 512]⟩
abbrev S1822x512 : Shape := ⟨2, ![1822, 512]⟩
abbrev S32x784x512 : Shape := ⟨3, ![32, 784, 512]⟩

abbrev nBuf : Space → Nat
  | .hbm => 140
  | .vmem => 116
  | .smem => 0
  | _ => 0

abbrev hbmTy0_0 (i : Nat) : BufTy := match i % 128 with
  | 0 => ⟨S16x3x224x224, .f32⟩
  | 1 => ⟨S16x3x224x224, .f32⟩
  | 2 => ⟨S3x3x3x64, .f32⟩
  | 3 => ⟨S1x64, .f32⟩
  | 4 => ⟨S3x3x64x64, .f32⟩
  | 5 => ⟨S1x64, .f32⟩
  | 6 => ⟨S3x3x64x128, .f32⟩
  | 7 => ⟨S1x128, .f32⟩
  | 8 => ⟨S3x3x128x128, .f32⟩
  | 9 => ⟨S1x128, .f32⟩
  | 10 => ⟨S3x3x128x256, .f32⟩
  | 11 => ⟨S1x256, .f32⟩
  | 12 => ⟨S3x3x256x256, .f32⟩
  | 13 => ⟨S1x256, .f32⟩
  | 14 => ⟨S3x3x256x256, .f32⟩
  | 15 => ⟨S1x256, .f32⟩
  | 16 => ⟨S3x3x256x512, .f32⟩
  | 17 => ⟨S1x512, .f32⟩
  | 18 => ⟨S3x3x512x512, .f32⟩
  | 19 => ⟨S1x512, .f32⟩
  | 20 => ⟨S3x3x512x512, .f32⟩
  | 21 => ⟨S1x512, .f32⟩
  | 22 => ⟨S3, .f32⟩
  | 23 => ⟨S3, .f32⟩
  | 24 => ⟨S32x3x224x224, .f32⟩
  | 25 => ⟨S32x224x224x3, .f32⟩
  | 26 => ⟨S1x1x1x3, .f32⟩
  | 27 => ⟨S32x224x224x3, .f32⟩
  | 28 => ⟨S32x224x224x3, .f32⟩
  | 29 => ⟨S1x1x1x3, .f32⟩
  | 30 => ⟨S32x224x224x3, .f32⟩
  | 31 => ⟨S32x224x224x3, .f32⟩
  | 32 => ⟨S32x224x224x3, .bf16⟩
  | 33 => ⟨S_, .i32⟩
  | 34 => ⟨S_, .bf16⟩
  | 35 => ⟨S32x240x240x3, .bf16⟩
  | 36 => ⟨S3x3x3x64, .bf16⟩
  | 37 => ⟨S32x224x224x64, .bf16⟩
  | 38 => ⟨S_, .i32⟩
  | 39 => ⟨S_, .bf16⟩
  | 40 => ⟨S32x240x240x64, .bf16⟩
  | 41 => ⟨S3x3x64x64, .bf16⟩
  | 42 => ⟨S32x224x224x64, .bf16⟩
  | 43 => ⟨S32x6272x512, .bf16⟩
  | 44 => ⟨S16x8x128, .f32⟩
  | 45 => ⟨S16x1x1, .f32⟩
  | 46 => ⟨S16, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S32x224x112x2x64, .bf16⟩
  | 54 => ⟨S32x112x112x64, .bf16⟩
  | 55 => ⟨S_, .i32⟩
  | 56 => ⟨S_, .bf16⟩
  | 57 => ⟨S32x128x128x64, .bf16⟩
  | 58 => ⟨S3x3x64x128, .bf16⟩
  | 59 => ⟨S32x112x112x128, .bf16⟩
  | 60 => ⟨S_, .i32⟩
  | 61 => ⟨S_, .bf16⟩
  | 62 => ⟨S32x128x128x128, .bf16⟩
  | 63 => ⟨S3x3x128x128, .f32⟩
  | 64 => ⟨S3x384x128, .f32⟩
  | 65 => ⟨S3x384x128, .bf16⟩
  | 66 => ⟨S32x112x112x128, .bf16⟩
  | 67 => ⟨S32x3136x512, .bf16⟩
  | 68 => ⟨S16x8x128, .f32⟩
  | 69 => ⟨S16x1x1, .f32⟩
  | 70 => ⟨S16, .f32⟩
  | 71 => ⟨S_, .f32⟩
  | 72 => ⟨S_, .f32⟩
  | 73 => ⟨S_, .f32⟩
  | 74 => ⟨S_, .f32⟩
  | 75 => ⟨S_, .f32⟩
  | 76 => ⟨S32x112x56x2x128, .bf16⟩
  | 77 => ⟨S32x56x56x128, .bf16⟩
  | 78 => ⟨S_, .i32⟩
  | 79 => ⟨S_, .bf16⟩
  | 80 => ⟨S32x84x64x128, .bf16⟩
  | 81 => ⟨S3x3x128x256, .f32⟩
  | 82 => ⟨S3x384x256, .f32⟩
  | 83 => ⟨S3x384x256, .bf16⟩
  | 84 => ⟨S32x56x56x256, .bf16⟩
  | 85 => ⟨S_, .i32⟩
  | 86 => ⟨S_, .bf16⟩
  | 87 => ⟨S32x84x64x256, .bf16⟩
  | 88 => ⟨S3x3x256x256, .f32⟩
  | 89 => ⟨S3x768x256, .f32⟩
  | 90 => ⟨S3x768x256, .bf16⟩
  | 91 => ⟨S32x56x56x256, .bf16⟩
  | 92 => ⟨S_, .i32⟩
  | 93 => ⟨S_, .bf16⟩
  | 94 => ⟨S32x84x64x256, .bf16⟩
  | 95 => ⟨S3x3x256x256, .f32⟩
  | 96 => ⟨S3x768x256, .f32⟩
  | 97 => ⟨S3x768x256, .bf16⟩
  | 98 => ⟨S32x56x56x256, .bf16⟩
  | 99 => ⟨S32x1568x512, .bf16⟩
  | 100 => ⟨S16x8x128, .f32⟩
  | 101 => ⟨S16x1x1, .f32⟩
  | 102 => ⟨S16, .f32⟩
  | 103 => ⟨S_, .f32⟩
  | 104 => ⟨S_, .f32⟩
  | 105 => ⟨S_, .f32⟩
  | 106 => ⟨S_, .f32⟩
  | 107 => ⟨S_, .f32⟩
  | 108 => ⟨S32x56x28x2x256, .bf16⟩
  | 109 => ⟨S32x28x28x256, .bf16⟩
  | 110 => ⟨S_, .i32⟩
  | 111 => ⟨S_, .bf16⟩
  | 112 => ⟨S32x56x32x256, .bf16⟩
  | 113 => ⟨S3x3x256x512, .f32⟩
  | 114 => ⟨S3x768x512, .f32⟩
  | 115 => ⟨S3x768x512, .bf16⟩
  | 116 => ⟨S32x28x28x512, .bf16⟩
  | 117 => ⟨S_, .i32⟩
  | 118 => ⟨S_, .bf16⟩
  | 119 => ⟨S32x56x32x512, .bf16⟩
  | 120 => ⟨S3x3x512x512, .f32⟩
  | 121 => ⟨S3x1536x512, .f32⟩
  | 122 => ⟨S3x1536x512, .bf16⟩
  | 123 => ⟨S32x28x28x512, .bf16⟩
  | 124 => ⟨S_, .i32⟩
  | 125 => ⟨S_, .bf16⟩
  | 126 => ⟨S32x56x32x512, .bf16⟩
  | 127 => ⟨S3x3x512x512, .f32⟩
  | _ => ⟨S16x3x224x224, .f32⟩

abbrev hbmTy0_1 (i : Nat) : BufTy := match i % 128 with
  | 0 => ⟨S3x1536x512, .f32⟩
  | 1 => ⟨S3x1536x512, .bf16⟩
  | 2 => ⟨S32x28x28x512, .bf16⟩
  | 3 => ⟨S32x784x512, .bf16⟩
  | 4 => ⟨S16x8x128, .f32⟩
  | 5 => ⟨S16x1x1, .f32⟩
  | 6 => ⟨S16, .f32⟩
  | 7 => ⟨S_, .f32⟩
  | 8 => ⟨S_, .f32⟩
  | 9 => ⟨S_, .f32⟩
  | 10 => ⟨S_, .f32⟩
  | 11 => ⟨S_, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | .local _ .vmem, ⟨0, _⟩ => ⟨S1x16x240x3, .bf16⟩
  | .local _ .vmem, ⟨1, _⟩ => ⟨S1x16x240x3, .bf16⟩
  | .local _ .vmem, ⟨2, _⟩ => ⟨S1x16x240x3, .bf16⟩
  | .local _ .vmem, ⟨3, _⟩ => ⟨S1x16x240x3, .bf16⟩
  | .local _ .vmem, ⟨4, _⟩ => ⟨S3x3x3x64, .bf16⟩
  | .local _ .vmem, ⟨5, _⟩ => ⟨S1x64, .f32⟩
  | .local _ .vmem, ⟨6, _⟩ => ⟨S1x16x224x64, .bf16⟩
  | .local _ .vmem, ⟨7, _⟩ => ⟨S1x16x224x64, .bf16⟩
  | .local _ .vmem, ⟨8, _⟩ => ⟨S1x16x240x64, .bf16⟩
  | .local _ .vmem, ⟨9, _⟩ => ⟨S1x16x240x64, .bf16⟩
  | .local _ .vmem, ⟨10, _⟩ => ⟨S1x16x240x64, .bf16⟩
  | .local _ .vmem, ⟨11, _⟩ => ⟨S1x16x240x64, .bf16⟩
  | .local _ .vmem, ⟨12, _⟩ => ⟨S3x3x64x64, .bf16⟩
  | .local _ .vmem, ⟨13, _⟩ => ⟨S1x64, .f32⟩
  | .local _ .vmem, ⟨14, _⟩ => ⟨S1x16x224x64, .bf16⟩
  | .local _ .vmem, ⟨15, _⟩ => ⟨S1x16x224x64, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S1x8x128, .f32⟩
  | .local _ .vmem, ⟨21, _⟩ => ⟨S1x8x128, .f32⟩
  | .local _ .vmem, ⟨22, _⟩ => ⟨S1x16x112x2x64, .bf16⟩
  | .local _ .vmem, ⟨23, _⟩ => ⟨S1x16x112x2x64, .bf16⟩
  | .local _ .vmem, ⟨24, _⟩ => ⟨S1x8x112x64, .bf16⟩
  | .local _ .vmem, ⟨25, _⟩ => ⟨S1x8x112x64, .bf16⟩
  | .local _ .vmem, ⟨26, _⟩ => ⟨S1x16x128x64, .bf16⟩
  | .local _ .vmem, ⟨27, _⟩ => ⟨S1x16x128x64, .bf16⟩
  | .local _ .vmem, ⟨28, _⟩ => ⟨S1x16x128x64, .bf16⟩
  | .local _ .vmem, ⟨29, _⟩ => ⟨S1x16x128x64, .bf16⟩
  | .local _ .vmem, ⟨30, _⟩ => ⟨S3x3x64x128, .bf16⟩
  | .local _ .vmem, ⟨31, _⟩ => ⟨S1x128, .f32⟩
  | .local _ .vmem, ⟨32, _⟩ => ⟨S1x16x112x128, .bf16⟩
  | .local _ .vmem, ⟨33, _⟩ => ⟨S1x16x112x128, .bf16⟩
  | .local _ .vmem, ⟨34, _⟩ => ⟨S1x16x128x128, .bf16⟩
  | .local _ .vmem, ⟨35, _⟩ => ⟨S1x16x128x128, .bf16⟩
  | .local _ .vmem, ⟨36, _⟩ => ⟨S1x16x128x128, .bf16⟩
  | .local _ .vmem, ⟨37, _⟩ => ⟨S1x16x128x128, .bf16⟩
  | .local _ .vmem, ⟨38, _⟩ => ⟨S3x384x128, .bf16⟩
  | .local _ .vmem, ⟨39, _⟩ => ⟨S1x128, .f32⟩
  | .local _ .vmem, ⟨40, _⟩ => ⟨S1x16x112x128, .bf16⟩
  | .local _ .vmem, ⟨41, _⟩ => ⟨S1x16x112x128, .bf16⟩
  | .local _ .vmem, ⟨42, _⟩ => ⟨S1x112x512, .bf16⟩
  | .local _ .vmem, ⟨43, _⟩ => ⟨S1x112x512, .bf16⟩
  | .local _ .vmem, ⟨44, _⟩ => ⟨S1x112x512, .bf16⟩
  | .local _ .vmem, ⟨45, _⟩ => ⟨S1x112x512, .bf16⟩
  | .local _ .vmem, ⟨46, _⟩ => ⟨S1x8x128, .f32⟩
  | .local _ .vmem, ⟨47, _⟩ => ⟨S1x8x128, .f32⟩
  | .local _ .vmem, ⟨48, _⟩ => ⟨S1x16x56x2x128, .bf16⟩
  | .local _ .vmem, ⟨49, _⟩ => ⟨S1x16x56x2x128, .bf16⟩
  | .local _ .vmem, ⟨50, _⟩ => ⟨S1x8x56x128, .bf16⟩
  | .local _ .vmem, ⟨51, _⟩ => ⟨S1x8x56x128, .bf16⟩
  | .local _ .vmem, ⟨52, _⟩ => ⟨S1x28x64x128, .bf16⟩
  | .local _ .vmem, ⟨53, _⟩ => ⟨S1x28x64x128, .bf16⟩
  | .local _ .vmem, ⟨54, _⟩ => ⟨S1x28x64x128, .bf16⟩
  | .local _ .vmem, ⟨55, _⟩ => ⟨S1x28x64x128, .bf16⟩
  | .local _ .vmem, ⟨56, _⟩ => ⟨S3x384x256, .bf16⟩
  | .local _ .vmem, ⟨57, _⟩ => ⟨S1x256, .f32⟩
  | .local _ .vmem, ⟨58, _⟩ => ⟨S1x28x56x256, .bf16⟩
  | .local _ .vmem, ⟨59, _⟩ => ⟨S1x28x56x256, .bf16⟩
  | .local _ .vmem, ⟨60, _⟩ => ⟨S1x28x64x256, .bf16⟩
  | .local _ .vmem, ⟨61, _⟩ => ⟨S1x28x64x256, .bf16⟩
  | .local _ .vmem, ⟨62, _⟩ => ⟨S1x28x64x256, .bf16⟩
  | .local _ .vmem, ⟨63, _⟩ => ⟨S1x28x64x256, .bf16⟩
  | .local _ .vmem, ⟨64, _⟩ => ⟨S3x768x256, .bf16⟩
  | .local _ .vmem, ⟨65, _⟩ => ⟨S1x256, .f32⟩
  | .local _ .vmem, ⟨66, _⟩ => ⟨S1x28x56x256, .bf16⟩
  | .local _ .vmem, ⟨67, _⟩ => ⟨S1x28x56x256, .bf16⟩
  | .local _ .vmem, ⟨68, _⟩ => ⟨S1x28x64x256, .bf16⟩
  | .local _ .vmem, ⟨69, _⟩ => ⟨S1x28x64x256, .bf16⟩
  | .local _ .vmem, ⟨70, _⟩ => ⟨S1x28x64x256, .bf16⟩
  | .local _ .vmem, ⟨71, _⟩ => ⟨S1x28x64x256, .bf16⟩
  | .local _ .vmem, ⟨72, _⟩ => ⟨S3x768x256, .bf16⟩
  | .local _ .vmem, ⟨73, _⟩ => ⟨S1x256, .f32⟩
  | .local _ .vmem, ⟨74, _⟩ => ⟨S1x28x56x256, .bf16⟩
  | .local _ .vmem, ⟨75, _⟩ => ⟨S1x28x56x256, .bf16⟩
  | .local _ .vmem, ⟨76, _⟩ => ⟨S1x112x512, .bf16⟩
  | .local _ .vmem, ⟨77, _⟩ => ⟨S1x112x512, .bf16⟩
  | .local _ .vmem, ⟨78, _⟩ => ⟨S1x112x512, .bf16⟩
  | .local _ .vmem, ⟨79, _⟩ => ⟨S1x112x512, .bf16⟩
  | .local _ .vmem, ⟨80, _⟩ => ⟨S1x8x128, .f32⟩
  | .local _ .vmem, ⟨81, _⟩ => ⟨S1x8x128, .f32⟩
  | .local _ .vmem, ⟨82, _⟩ => ⟨S1x14x28x2x256, .bf16⟩
  | .local _ .vmem, ⟨83, _⟩ => ⟨S1x14x28x2x256, .bf16⟩
  | .local _ .vmem, ⟨84, _⟩ => ⟨S1x7x28x256, .bf16⟩
  | .local _ .vmem, ⟨85, _⟩ => ⟨S1x7x28x256, .bf16⟩
  | .local _ .vmem, ⟨86, _⟩ => ⟨S1x28x32x256, .bf16⟩
  | .local _ .vmem, ⟨87, _⟩ => ⟨S1x28x32x256, .bf16⟩
  | .local _ .vmem, ⟨88, _⟩ => ⟨S1x28x32x256, .bf16⟩
  | .local _ .vmem, ⟨89, _⟩ => ⟨S1x28x32x256, .bf16⟩
  | .local _ .vmem, ⟨90, _⟩ => ⟨S3x768x512, .bf16⟩
  | .local _ .vmem, ⟨91, _⟩ => ⟨S1x512, .f32⟩
  | .local _ .vmem, ⟨92, _⟩ => ⟨S1x28x28x512, .bf16⟩
  | .local _ .vmem, ⟨93, _⟩ => ⟨S1x28x28x512, .bf16⟩
  | .local _ .vmem, ⟨94, _⟩ => ⟨S1x28x32x512, .bf16⟩
  | .local _ .vmem, ⟨95, _⟩ => ⟨S1x28x32x512, .bf16⟩
  | .local _ .vmem, ⟨96, _⟩ => ⟨S1x28x32x512, .bf16⟩
  | .local _ .vmem, ⟨97, _⟩ => ⟨S1x28x32x512, .bf16⟩
  | .local _ .vmem, ⟨98, _⟩ => ⟨S3x1536x512, .bf16⟩
  | .local _ .vmem, ⟨99, _⟩ => ⟨S1x512, .f32⟩
  | .local _ .vmem, ⟨100, _⟩ => ⟨S1x28x28x512, .bf16⟩
  | .local _ .vmem, ⟨101, _⟩ => ⟨S1x28x28x512, .bf16⟩
  | .local _ .vmem, ⟨102, _⟩ => ⟨S1x28x32x512, .bf16⟩
  | .local _ .vmem, ⟨103, _⟩ => ⟨S1x28x32x512, .bf16⟩
  | .local _ .vmem, ⟨104, _⟩ => ⟨S1x28x32x512, .bf16⟩
  | .local _ .vmem, ⟨105, _⟩ => ⟨S1x28x32x512, .bf16⟩
  | .local _ .vmem, ⟨106, _⟩ => ⟨S3x1536x512, .bf16⟩
  | .local _ .vmem, ⟨107, _⟩ => ⟨S1x512, .f32⟩
  | .local _ .vmem, ⟨108, _⟩ => ⟨S1x28x28x512, .bf16⟩
  | .local _ .vmem, ⟨109, _⟩ => ⟨S1x28x28x512, .bf16⟩
  | .local _ .vmem, ⟨110, _⟩ => ⟨S1x112x512, .bf16⟩
  | .local _ .vmem, ⟨111, _⟩ => ⟨S1x112x512, .bf16⟩
  | .local _ .vmem, ⟨112, _⟩ => ⟨S1x112x512, .bf16⟩
  | .local _ .vmem, ⟨113, _⟩ => ⟨S1x112x512, .bf16⟩
  | .local _ .vmem, ⟨114, _⟩ => ⟨S1x8x128, .f32⟩
  | .local _ .vmem, ⟨115, _⟩ => ⟨S1x8x128, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c : Ref sig .tc := ⟨.hbm, 33, rfl⟩
abbrev main_call0_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_call1_v0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_call2_v0 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_6 : Ref sig .tc := ⟨.hbm, 60, rfl⟩
abbrev main_call3_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_cst_8 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_call4_v0 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_10 : Ref sig .tc := ⟨.hbm, 85, rfl⟩
abbrev main_call5_v0 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_11 : Ref sig .tc := ⟨.hbm, 92, rfl⟩
abbrev main_call6_v0 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_12 : Ref sig .tc := ⟨.hbm, 103, rfl⟩
abbrev main_v60 : Ref sig .tc := ⟨.hbm, 104, rfl⟩
abbrev main_cst_13 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_14 : Ref sig .tc := ⟨.hbm, 110, rfl⟩
abbrev main_call7_v0 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_15 : Ref sig .tc := ⟨.hbm, 117, rfl⟩
abbrev main_call8_v0 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_16 : Ref sig .tc := ⟨.hbm, 124, rfl⟩
abbrev main_call9_v0 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_17 : Ref sig .tc := ⟨.hbm, 135, rfl⟩
abbrev main_v84 : Ref sig .tc := ⟨.hbm, 136, rfl⟩
abbrev main_cst_18 : Ref sig .tc := ⟨.hbm, 137, rfl⟩
abbrev main_v85 : Ref sig .tc := ⟨.hbm, 138, rfl⟩
abbrev main_v86 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg4_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg4_0 : Ref sig .tc := ⟨.vmem, 66, rfl⟩
abbrev cc9_stg4_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg1_1 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg4_0 : Ref sig .tc := ⟨.vmem, 74, rfl⟩
abbrev cc10_stg4_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg1_1 : Ref sig .tc := ⟨.vmem, 79, rfl⟩
abbrev cc11_stg2_0 : Ref sig .tc := ⟨.vmem, 80, rfl⟩
abbrev cc11_stg2_1 : Ref sig .tc := ⟨.vmem, 81, rfl⟩
abbrev cc12_stg0_0 : Ref sig .tc := ⟨.vmem, 82, rfl⟩
abbrev cc12_stg0_1 : Ref sig .tc := ⟨.vmem, 83, rfl⟩
abbrev cc12_stg1_0 : Ref sig .tc := ⟨.vmem, 84, rfl⟩
abbrev cc12_stg1_1 : Ref sig .tc := ⟨.vmem, 85, rfl⟩
abbrev cc13_stg0_0 : Ref sig .tc := ⟨.vmem, 86, rfl⟩
abbrev cc13_stg0_1 : Ref sig .tc := ⟨.vmem, 87, rfl⟩
abbrev cc13_stg1_0 : Ref sig .tc := ⟨.vmem, 88, rfl⟩
abbrev cc13_stg1_1 : Ref sig .tc := ⟨.vmem, 89, rfl⟩
abbrev cc13_stg2_0 : Ref sig .tc := ⟨.vmem, 90, rfl⟩
abbrev cc13_stg3_0 : Ref sig .tc := ⟨.vmem, 91, rfl⟩
abbrev cc13_stg4_0 : Ref sig .tc := ⟨.vmem, 92, rfl⟩
abbrev cc13_stg4_1 : Ref sig .tc := ⟨.vmem, 93, rfl⟩
abbrev cc14_stg0_0 : Ref sig .tc := ⟨.vmem, 94, rfl⟩
abbrev cc14_stg0_1 : Ref sig .tc := ⟨.vmem, 95, rfl⟩
abbrev cc14_stg1_0 : Ref sig .tc := ⟨.vmem, 96, rfl⟩
abbrev cc14_stg1_1 : Ref sig .tc := ⟨.vmem, 97, rfl⟩
abbrev cc14_stg2_0 : Ref sig .tc := ⟨.vmem, 98, rfl⟩
abbrev cc14_stg3_0 : Ref sig .tc := ⟨.vmem, 99, rfl⟩
abbrev cc14_stg4_0 : Ref sig .tc := ⟨.vmem, 100, rfl⟩
abbrev cc14_stg4_1 : Ref sig .tc := ⟨.vmem, 101, rfl⟩
abbrev cc15_stg0_0 : Ref sig .tc := ⟨.vmem, 102, rfl⟩
abbrev cc15_stg0_1 : Ref sig .tc := ⟨.vmem, 103, rfl⟩
abbrev cc15_stg1_0 : Ref sig .tc := ⟨.vmem, 104, rfl⟩
abbrev cc15_stg1_1 : Ref sig .tc := ⟨.vmem, 105, rfl⟩
abbrev cc15_stg2_0 : Ref sig .tc := ⟨.vmem, 106, rfl⟩
abbrev cc15_stg3_0 : Ref sig .tc := ⟨.vmem, 107, rfl⟩
abbrev cc15_stg4_0 : Ref sig .tc := ⟨.vmem, 108, rfl⟩
abbrev cc15_stg4_1 : Ref sig .tc := ⟨.vmem, 109, rfl⟩
abbrev cc16_stg0_0 : Ref sig .tc := ⟨.vmem, 110, rfl⟩
abbrev cc16_stg0_1 : Ref sig .tc := ⟨.vmem, 111, rfl⟩
abbrev cc16_stg1_0 : Ref sig .tc := ⟨.vmem, 112, rfl⟩
abbrev cc16_stg1_1 : Ref sig .tc := ⟨.vmem, 113, rfl⟩
abbrev cc16_stg2_0 : Ref sig .tc := ⟨.vmem, 114, rfl⟩
abbrev cc16_stg2_1 : Ref sig .tc := ⟨.vmem, 115, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem3_0 : DmaSem sig := 57
abbrev cc8_sem4_0 : DmaSem sig := 58
abbrev cc8_sem4_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem3_0 : DmaSem sig := 65
abbrev cc9_sem4_0 : DmaSem sig := 66
abbrev cc9_sem4_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem3_0 : DmaSem sig := 73
abbrev cc10_sem4_0 : DmaSem sig := 74
abbrev cc10_sem4_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc11_sem2_0 : DmaSem sig := 80
abbrev cc11_sem2_1 : DmaSem sig := 81
abbrev cc12_sem0_0 : DmaSem sig := 82
abbrev cc12_sem0_1 : DmaSem sig := 83
abbrev cc12_sem1_0 : DmaSem sig := 84
abbrev cc12_sem1_1 : DmaSem sig := 85
abbrev cc13_sem0_0 : DmaSem sig := 86
abbrev cc13_sem0_1 : DmaSem sig := 87
abbrev cc13_sem1_0 : DmaSem sig := 88
abbrev cc13_sem1_1 : DmaSem sig := 89
abbrev cc13_sem2_0 : DmaSem sig := 90
abbrev cc13_sem3_0 : DmaSem sig := 91
abbrev cc13_sem4_0 : DmaSem sig := 92
abbrev cc13_sem4_1 : DmaSem sig := 93
abbrev cc14_sem0_0 : DmaSem sig := 94
abbrev cc14_sem0_1 : DmaSem sig := 95
abbrev cc14_sem1_0 : DmaSem sig := 96
abbrev cc14_sem1_1 : DmaSem sig := 97
abbrev cc14_sem2_0 : DmaSem sig := 98
abbrev cc14_sem3_0 : DmaSem sig := 99
abbrev cc14_sem4_0 : DmaSem sig := 100
abbrev cc14_sem4_1 : DmaSem sig := 101
abbrev cc15_sem0_0 : DmaSem sig := 102
abbrev cc15_sem0_1 : DmaSem sig := 103
abbrev cc15_sem1_0 : DmaSem sig := 104
abbrev cc15_sem1_1 : DmaSem sig := 105
abbrev cc15_sem2_0 : DmaSem sig := 106
abbrev cc15_sem3_0 : DmaSem sig := 107
abbrev cc15_sem4_0 : DmaSem sig := 108
abbrev cc15_sem4_1 : DmaSem sig := 109
abbrev cc16_sem0_0 : DmaSem sig := 110
abbrev cc16_sem0_1 : DmaSem sig := 111
abbrev cc16_sem1_0 : DmaSem sig := 112
abbrev cc16_sem1_1 : DmaSem sig := 113
abbrev cc16_sem2_0 : DmaSem sig := 114
abbrev cc16_sem2_1 : DmaSem sig := 115

abbrev nD : Nat := 1
abbrev τ : Topo := Topo.v7x

variable {F : FTy → Type} [FloatOps F]

abbrev grid0 : Pipeline.Grid := ⟨2, ![32, 14], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x240x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x240x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3x3x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x224x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 14], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x240x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x240x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S3x3x64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x16x224x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![16, 49], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![32, 14], ![false, false]⟩

def cc3_transform_0 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x16x112x2x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x112x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨2, ![32, 7], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x16x128x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x16x128x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S3x3x64x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x16x112x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![32, 7], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x16x128x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x16x128x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S3x384x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x16x112x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![16, 28], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x112x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x112x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x8x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![32, 7], ![false, false]⟩

def cc7_transform_0 (i : grid7.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc7_transform_1 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x16x56x2x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x8x56x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev grid8 : Pipeline.Grid := ⟨2, ![32, 2], ![false, false]⟩

def cc8_transform_0 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_1 (i : grid8.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x28x64x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x28x64x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S3x384x256 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x28x56x256 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨2, ![32, 2], ![false, false]⟩

def cc9_transform_0 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc9_transform_1 (i : grid9.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage9_0 : Fin 2 → Memref sig .tc .vmem S1x28x64x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x28x64x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S3x768x256 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S1x28x56x256 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev grid10 : Pipeline.Grid := ⟨2, ![32, 2], ![false, false]⟩

def cc10_transform_0 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc10_transform_1 (i : grid10.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage10_0 : Fin 2 → Memref sig .tc .vmem S1x28x64x256 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x28x64x256 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 1 → Memref sig .tc .vmem S3x768x256 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false, false]

abbrev stage10_4 : Fin 2 → Memref sig .tc .vmem S1x28x56x256 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev grid11 : Pipeline.Grid := ⟨2, ![16, 14], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, arg1.toNat, c0_i32.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x112x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1x112x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, true]

abbrev stage11_2 : Fin 2 → Memref sig .tc .vmem S1x8x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev grid12 : Pipeline.Grid := ⟨2, ![32, 4], ![false, false]⟩

def cc12_transform_0 (i : grid12.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc12_transform_1 (i : grid12.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage12_0 : Fin 2 → Memref sig .tc .vmem S1x14x28x2x256 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1x7x28x256 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev grid13 : Pipeline.Grid := ⟨2, ![32, 1], ![false, false]⟩

def cc13_transform_0 (i : grid13.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc13_transform_1 (i : grid13.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc13_transform_2 (i : grid13.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage13_0 : Fin 2 → Memref sig .tc .vmem S1x28x32x256 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S1x28x32x256 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, true]

abbrev stage13_2 : Fin 1 → Memref sig .tc .vmem S3x768x512 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false, false]

abbrev stage13_3 : Fin 1 → Memref sig .tc .vmem S1x512 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false, false]

abbrev stage13_4 : Fin 2 → Memref sig .tc .vmem S1x28x28x512 .bf16 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true, true]

abbrev grid14 : Pipeline.Grid := ⟨2, ![32, 1], ![false, false]⟩

def cc14_transform_0 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc14_transform_1 (i : grid14.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc14_transform_2 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage14_0 : Fin 2 → Memref sig .tc .vmem S1x28x32x512 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S1x28x32x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, true]

abbrev stage14_2 : Fin 1 → Memref sig .tc .vmem S3x1536x512 .bf16 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, false]

abbrev stage14_3 : Fin 1 → Memref sig .tc .vmem S1x512 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false, false]

abbrev stage14_4 : Fin 2 → Memref sig .tc .vmem S1x28x28x512 .bf16 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true, true]

abbrev grid15 : Pipeline.Grid := ⟨2, ![32, 1], ![false, false]⟩

def cc15_transform_0 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc15_transform_1 (i : grid15.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc15_transform_2 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage15_0 : Fin 2 → Memref sig .tc .vmem S1x28x32x512 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S1x28x32x512 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, true]

abbrev stage15_2 : Fin 1 → Memref sig .tc .vmem S3x1536x512 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false, false]

abbrev stage15_3 : Fin 1 → Memref sig .tc .vmem S1x512 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false, false]

abbrev stage15_4 : Fin 2 → Memref sig .tc .vmem S1x28x28x512 .bf16 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true, true]

abbrev grid16 : Pipeline.Grid := ⟨2, ![16, 7], ![false, false]⟩

def cc16_transform_0 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc16_transform_1 (i : grid16.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, arg1.toNat, c0_i32.toNat]

def cc16_transform_2 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x112x512 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S1x112x512 .bf16 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true, true]

abbrev stage16_2 : Fin 2 → Memref sig .tc .vmem S1x8x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, false]

class Facts₀ : Prop where
  concatenates_S16x3x224x224_S16x3x224x224_S32x3x224x224_d0 : Shape.Concatenates [S16x3x224x224, S16x3x224x224] S32x3x224x224 0
  transposes_S32x3x224x224_S32x224x224x3_0_2_3_1 : S32x3x224x224.Transposes [0, 2, 3, 1] S32x224x224x3
  bcast_S3_S1x1x1x3_3 : S3.BroadcastsInDim S1x1x1x3 (![3] : Fin 1 → Fin S1x1x1x3.rank)
  bcast_S1x1x1x3_S32x224x224x3_0_1_2_3 : S1x1x1x3.BroadcastsInDim S32x224x224x3 (![0, 1, 2, 3] : Fin 4 → Fin S32x224x224x3.rank)
  bitsLt_bf16_f32 : FTy.bits .bf16 < FTy.bits .f32
  pads_S32x224x224x3_S32x240x240x3_000_1150_1150_000 : S32x224x224x3.Pads (![0, 1, 1, 0] : Fin 4 → Nat) ![0, 15, 15, 0] ![0, 0, 0, 0] S32x240x240x3
  h_S_ : 0 < S_.numel
  inb_S1x16x240x3_S1x16x240x3_0_0_0_0 : ∀ a, (![0, 0, 0, 0] : Fin 4 → Nat) a + S1x16x240x3.size a ≤ S1x16x240x3.size a
  h_S1x16x240x3 : 0 < S1x16x240x3.numel
  shapeCasts_S1x16x240x3_S16x240x3 : S1x16x240x3.ShapeCasts S16x240x3
  shapeCasts_S16x240x3_S3840x3 : S16x240x3.ShapeCasts S3840x3
  concatenates_S3840x3_S3840x3_S240x3_S7920x3_d0 : Shape.Concatenates [S3840x3, S3840x3, S240x3] S7920x3 0
  slices_S7920x3_o1_0_S7919x3 : S7920x3.Slices ![1, 0] S7919x3
  slices_S7920x3_o2_0_S7918x3 : S7920x3.Slices ![2, 0] S7918x3
  slices_S7920x3_o0_0_S3840x3 : S7920x3.Slices ![0, 0] S3840x3
  inb_S3x3x3x64_S1x1x3x64_0_0_0_0 : ∀ a, (![0, 0, 0, 0] : Fin 4 → Nat) a + S1x1x3x64.size a ≤ S3x3x3x64.size a
  h_S1x1x3x64 : 0 < S1x1x3x64.numel
  shapeCasts_S1x1x3x64_S3x64 : S1x1x3x64.ShapeCasts S3x64
  slices_S7919x3_o0_0_S3840x3 : S7919x3.Slices ![0, 0] S3840x3
  inb_S3x3x3x64_S1x1x3x64_0_1_0_0 : ∀ a, (![0, 1, 0, 0] : Fin 4 → Nat) a + S1x1x3x64.size a ≤ S3x3x3x64.size a
  slices_S7918x3_o0_0_S3840x3 : S7918x3.Slices ![0, 0] S3840x3
  inb_S3x3x3x64_S1x1x3x64_0_2_0_0 : ∀ a, (![0, 2, 0, 0] : Fin 4 → Nat) a + S1x1x3x64.size a ≤ S3x3x3x64.size a
  slices_S7920x3_o240_0_S3840x3 : S7920x3.Slices ![240, 0] S3840x3
  inb_S3x3x3x64_S1x1x3x64_1_0_0_0 : ∀ a, (![1, 0, 0, 0] : Fin 4 → Nat) a + S1x1x3x64.size a ≤ S3x3x3x64.size a
  slices_S7919x3_o240_0_S3840x3 : S7919x3.Slices ![240, 0] S3840x3
  inb_S3x3x3x64_S1x1x3x64_1_1_0_0 : ∀ a, (![1, 1, 0, 0] : Fin 4 → Nat) a + S1x1x3x64.size a ≤ S3x3x3x64.size a
  slices_S7918x3_o240_0_S3840x3 : S7918x3.Slices ![240, 0] S3840x3
  inb_S3x3x3x64_S1x1x3x64_1_2_0_0 : ∀ a, (![1, 2, 0, 0] : Fin 4 → Nat) a + S1x1x3x64.size a ≤ S3x3x3x64.size a
  slices_S7920x3_o480_0_S3840x3 : S7920x3.Slices ![480, 0] S3840x3
  inb_S3x3x3x64_S1x1x3x64_2_0_0_0 : ∀ a, (![2, 0, 0, 0] : Fin 4 → Nat) a + S1x1x3x64.size a ≤ S3x3x3x64.size a
  slices_S7919x3_o480_0_S3840x3 : S7919x3.Slices ![480, 0] S3840x3
  inb_S3x3x3x64_S1x1x3x64_2_1_0_0 : ∀ a, (![2, 1, 0, 0] : Fin 4 → Nat) a + S1x1x3x64.size a ≤ S3x3x3x64.size a
  slices_S7918x3_o480_0_S3840x3 : S7918x3.Slices ![480, 0] S3840x3
  inb_S3x3x3x64_S1x1x3x64_2_2_0_0 : ∀ a, (![2, 2, 0, 0] : Fin 4 → Nat) a + S1x1x3x64.size a ≤ S3x3x3x64.size a
  inb_S1x64_S1x64_0_0 : ∀ a, (![0, 0] : Fin 2 → Nat) a + S1x64.size a ≤ S1x64.size a
  h_S1x64 : 0 < S1x64.numel
  broadcasts_S1x64_S3840x64 : S1x64.Broadcasts S3840x64
  shapeCasts_S3840x64_S16x240x64 : S3840x64.ShapeCasts S16x240x64
  slices_S16x240x64_o0_0_0_S16x224x64 : S16x240x64.Slices ![0, 0, 0] S16x224x64
  inb_S1x16x224x64_S1x16x224x64_0_0_0_0 : ∀ a, (![0, 0, 0, 0] : Fin 4 → Nat) a + S1x16x224x64.size a ≤ S1x16x224x64.size a
  h_S1x16x224x64 : 0 < S1x16x224x64.numel
  shapeCasts_S1x16x224x64_S16x224x64 : S1x16x224x64.ShapeCasts S16x224x64
  shapeCasts_S16x224x64_S1x16x224x64 : S16x224x64.ShapeCasts S1x16x224x64
  packedbf16_S1x16x224x64_S1x16x224x64_0_0_0_0 : (Rect.unit (s := S1x16x224x64) ![0, 0, 0, 0] S1x16x224x64.size inb_S1x16x224x64_S1x16x224x64_0_0_0_0).PackedRows (EltTy.packing .bf16)
  pads_S32x224x224x64_S32x240x240x64_000_1150_1150_000 : S32x224x224x64.Pads (![0, 1, 1, 0] : Fin 4 → Nat) ![0, 15, 15, 0] ![0, 0, 0, 0] S32x240x240x64
  inb_S1x16x240x64_S1x16x240x64_0_0_0_0 : ∀ a, (![0, 0, 0, 0] : Fin 4 → Nat) a + S1x16x240x64.size a ≤ S1x16x240x64.size a
  h_S1x16x240x64 : 0 < S1x16x240x64.numel
  shapeCasts_S1x16x240x64_S16x240x64 : S1x16x240x64.ShapeCasts S16x240x64
  shapeCasts_S16x240x64_S3840x64 : S16x240x64.ShapeCasts S3840x64
  concatenates_S3840x64_S3840x64_S240x64_S7920x64_d0 : Shape.Concatenates [S3840x64, S3840x64, S240x64] S7920x64 0
  slices_S7920x64_o1_0_S7919x64 : S7920x64.Slices ![1, 0] S7919x64
  slices_S7920x64_o2_0_S7918x64 : S7920x64.Slices ![2, 0] S7918x64
  slices_S7920x64_o0_0_S3840x64 : S7920x64.Slices ![0, 0] S3840x64
  inb_S3x3x64x64_S1x1x64x64_0_0_0_0 : ∀ a, (![0, 0, 0, 0] : Fin 4 → Nat) a + S1x1x64x64.size a ≤ S3x3x64x64.size a
  h_S1x1x64x64 : 0 < S1x1x64x64.numel
  shapeCasts_S1x1x64x64_S64x64 : S1x1x64x64.ShapeCasts S64x64
  slices_S7919x64_o0_0_S3840x64 : S7919x64.Slices ![0, 0] S3840x64
  inb_S3x3x64x64_S1x1x64x64_0_1_0_0 : ∀ a, (![0, 1, 0, 0] : Fin 4 → Nat) a + S1x1x64x64.size a ≤ S3x3x64x64.size a
  slices_S7918x64_o0_0_S3840x64 : S7918x64.Slices ![0, 0] S3840x64
  inb_S3x3x64x64_S1x1x64x64_0_2_0_0 : ∀ a, (![0, 2, 0, 0] : Fin 4 → Nat) a + S1x1x64x64.size a ≤ S3x3x64x64.size a
  slices_S7920x64_o240_0_S3840x64 : S7920x64.Slices ![240, 0] S3840x64
  inb_S3x3x64x64_S1x1x64x64_1_0_0_0 : ∀ a, (![1, 0, 0, 0] : Fin 4 → Nat) a + S1x1x64x64.size a ≤ S3x3x64x64.size a
  slices_S7919x64_o240_0_S3840x64 : S7919x64.Slices ![240, 0] S3840x64
  inb_S3x3x64x64_S1x1x64x64_1_1_0_0 : ∀ a, (![1, 1, 0, 0] : Fin 4 → Nat) a + S1x1x64x64.size a ≤ S3x3x64x64.size a
  slices_S7918x64_o240_0_S3840x64 : S7918x64.Slices ![240, 0] S3840x64
  inb_S3x3x64x64_S1x1x64x64_1_2_0_0 : ∀ a, (![1, 2, 0, 0] : Fin 4 → Nat) a + S1x1x64x64.size a ≤ S3x3x64x64.size a
  slices_S7920x64_o480_0_S3840x64 : S7920x64.Slices ![480, 0] S3840x64
  inb_S3x3x64x64_S1x1x64x64_2_0_0_0 : ∀ a, (![2, 0, 0, 0] : Fin 4 → Nat) a + S1x1x64x64.size a ≤ S3x3x64x64.size a
  slices_S7919x64_o480_0_S3840x64 : S7919x64.Slices ![480, 0] S3840x64
  inb_S3x3x64x64_S1x1x64x64_2_1_0_0 : ∀ a, (![2, 1, 0, 0] : Fin 4 → Nat) a + S1x1x64x64.size a ≤ S3x3x64x64.size a
  slices_S7918x64_o480_0_S3840x64 : S7918x64.Slices ![480, 0] S3840x64
  inb_S3x3x64x64_S1x1x64x64_2_2_0_0 : ∀ a, (![2, 2, 0, 0] : Fin 4 → Nat) a + S1x1x64x64.size a ≤ S3x3x64x64.size a
  shapeCasts_S32x224x224x64_S32x6272x512 : S32x224x224x64.ShapeCasts S32x6272x512
  inb_S1x8x128_S1x8x128_0_0_0 : ∀ a, (![0, 0, 0] : Fin 3 → Nat) a + S1x8x128.size a ≤ S1x8x128.size a
  h_S1x8x128 : 0 < S1x8x128.numel
  inb_S1x128x512_S1x128x512_0_0_0 : ∀ a, (![0, 0, 0] : Fin 3 → Nat) a + S1x128x512.size a ≤ S1x128x512.size a
  h_S1x128x512 : 0 < S1x128x512.numel
  shapeCasts_S1x128x512_S1x128x512 : S1x128x512.ShapeCasts S1x128x512
  shapeCasts_S1x8x128_S1x8x128 : S1x8x128.ShapeCasts S1x8x128
  shapeCasts_S1x128x512_S1x1x128x512 : S1x128x512.ShapeCasts S1x1x128x512
  reduces_S1x1x128x512_S1 : S1x1x128x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S16x8x128_S16x1x1_0_0_0 : S16x8x128.Slices ![0, 0, 0] S16x1x1
  shapeCasts_S16x1x1_S16 : S16x1x1.ShapeCasts S16
  reducesTo_S16_S_d0 : S16.ReducesTo [0] S_
  shapeCasts_S32x224x224x64_S32x224x112x2x64 : S32x224x224x64.ShapeCasts S32x224x112x2x64
  inb_S1x16x112x2x64_S1x16x112x2x64_0_0_0_0_0 : ∀ a, (![0, 0, 0, 0, 0] : Fin 5 → Nat) a + S1x16x112x2x64.size a ≤ S1x16x112x2x64.size a
  h_S1x16x112x2x64 : 0 < S1x16x112x2x64.numel
  shapeCasts_S1x16x112x2x64_S16x112x2x64 : S1x16x112x2x64.ShapeCasts S16x112x2x64
  reduces_S16x112x2x64_S16x112x64 : S16x112x2x64.Reduces [2] S16x112x64
  shapeCasts_S16x112x64_S8x2x112x64 : S16x112x64.ShapeCasts S8x2x112x64
  reduces_S8x2x112x64_S8x112x64 : S8x2x112x64.Reduces [1] S8x112x64
  inb_S1x8x112x64_S1x8x112x64_0_0_0_0 : ∀ a, (![0, 0, 0, 0] : Fin 4 → Nat) a + S1x8x112x64.size a ≤ S1x8x112x64.size a
  h_S1x8x112x64 : 0 < S1x8x112x64.numel
  shapeCasts_S1x8x112x64_S8x112x64 : S1x8x112x64.ShapeCasts S8x112x64
  shapeCasts_S8x112x64_S1x8x112x64 : S8x112x64.ShapeCasts S1x8x112x64
  packedbf16_S1x8x112x64_S1x8x112x64_0_0_0_0 : (Rect.unit (s := S1x8x112x64) ![0, 0, 0, 0] S1x8x112x64.size inb_S1x8x112x64_S1x8x112x64_0_0_0_0).PackedRows (EltTy.packing .bf16)
  pads_S32x112x112x64_S32x128x128x64_000_1150_1150_000 : S32x112x112x64.Pads (![0, 1, 1, 0] : Fin 4 → Nat) ![0, 15, 15, 0] ![0, 0, 0, 0] S32x128x128x64
  inb_S1x16x128x64_S1x16x128x64_0_0_0_0 : ∀ a, (![0, 0, 0, 0] : Fin 4 → Nat) a + S1x16x128x64.size a ≤ S1x16x128x64.size a
  h_S1x16x128x64 : 0 < S1x16x128x64.numel
  shapeCasts_S1x16x128x64_S16x128x64 : S1x16x128x64.ShapeCasts S16x128x64
  shapeCasts_S16x128x64_S2048x64 : S16x128x64.ShapeCasts S2048x64
  concatenates_S2048x64_S2048x64_S128x64_S4224x64_d0 : Shape.Concatenates [S2048x64, S2048x64, S128x64] S4224x64 0
  slices_S4224x64_o1_0_S4223x64 : S4224x64.Slices ![1, 0] S4223x64
  slices_S4224x64_o2_0_S4222x64 : S4224x64.Slices ![2, 0] S4222x64
  slices_S4224x64_o0_0_S2048x64 : S4224x64.Slices ![0, 0] S2048x64
  inb_S3x3x64x128_S1x1x64x128_0_0_0_0 : ∀ a, (![0, 0, 0, 0] : Fin 4 → Nat) a + S1x1x64x128.size a ≤ S3x3x64x128.size a
  h_S1x1x64x128 : 0 < S1x1x64x128.numel
  shapeCasts_S1x1x64x128_S64x128 : S1x1x64x128.ShapeCasts S64x128
  slices_S4223x64_o0_0_S2048x64 : S4223x64.Slices ![0, 0] S2048x64
  inb_S3x3x64x128_S1x1x64x128_0_1_0_0 : ∀ a, (![0, 1, 0, 0] : Fin 4 → Nat) a + S1x1x64x128.size a ≤ S3x3x64x128.size a
  slices_S4222x64_o0_0_S2048x64 : S4222x64.Slices ![0, 0] S2048x64
  inb_S3x3x64x128_S1x1x64x128_0_2_0_0 : ∀ a, (![0, 2, 0, 0] : Fin 4 → Nat) a + S1x1x64x128.size a ≤ S3x3x64x128.size a
  slices_S4224x64_o128_0_S2048x64 : S4224x64.Slices ![128, 0] S2048x64
  inb_S3x3x64x128_S1x1x64x128_1_0_0_0 : ∀ a, (![1, 0, 0, 0] : Fin 4 → Nat) a + S1x1x64x128.size a ≤ S3x3x64x128.size a
  slices_S4223x64_o128_0_S2048x64 : S4223x64.Slices ![128, 0] S2048x64
  inb_S3x3x64x128_S1x1x64x128_1_1_0_0 : ∀ a, (![1, 1, 0, 0] : Fin 4 → Nat) a + S1x1x64x128.size a ≤ S3x3x64x128.size a
  slices_S4222x64_o128_0_S2048x64 : S4222x64.Slices ![128, 0] S2048x64
  inb_S3x3x64x128_S1x1x64x128_1_2_0_0 : ∀ a, (![1, 2, 0, 0] : Fin 4 → Nat) a + S1x1x64x128.size a ≤ S3x3x64x128.size a
  slices_S4224x64_o256_0_S2048x64 : S4224x64.Slices ![256, 0] S2048x64
  inb_S3x3x64x128_S1x1x64x128_2_0_0_0 : ∀ a, (![2, 0, 0, 0] : Fin 4 → Nat) a + S1x1x64x128.size a ≤ S3x3x64x128.size a
  slices_S4223x64_o256_0_S2048x64 : S4223x64.Slices ![256, 0] S2048x64
  inb_S3x3x64x128_S1x1x64x128_2_1_0_0 : ∀ a, (![2, 1, 0, 0] : Fin 4 → Nat) a + S1x1x64x128.size a ≤ S3x3x64x128.size a
  slices_S4222x64_o256_0_S2048x64 : S4222x64.Slices ![256, 0] S2048x64
  inb_S3x3x64x128_S1x1x64x128_2_2_0_0 : ∀ a, (![2, 2, 0, 0] : Fin 4 → Nat) a + S1x1x64x128.size a ≤ S3x3x64x128.size a
  inb_S1x128_S1x128_0_0 : ∀ a, (![0, 0] : Fin 2 → Nat) a + S1x128.size a ≤ S1x128.size a
  h_S1x128 : 0 < S1x128.numel
  broadcasts_S1x128_S2048x128 : S1x128.Broadcasts S2048x128
  shapeCasts_S2048x128_S16x128x128 : S2048x128.ShapeCasts S16x128x128
  slices_S16x128x128_o0_0_0_S16x112x128 : S16x128x128.Slices ![0, 0, 0] S16x112x128
  inb_S1x16x112x128_S1x16x112x128_0_0_0_0 : ∀ a, (![0, 0, 0, 0] : Fin 4 → Nat) a + S1x16x112x128.size a ≤ S1x16x112x128.size a
  h_S1x16x112x128 : 0 < S1x16x112x128.numel
  shapeCasts_S1x16x112x128_S16x112x128 : S1x16x112x128.ShapeCasts S16x112x128
  shapeCasts_S16x112x128_S1x16x112x128 : S16x112x128.ShapeCasts S1x16x112x128
  packedbf16_S1x16x112x128_S1x16x112x128_0_0_0_0 : (Rect.unit (s := S1x16x112x128) ![0, 0, 0, 0] S1x16x112x128.size inb_S1x16x112x128_S1x16x112x128_0_0_0_0).PackedRows (EltTy.packing .bf16)
  pads_S32x112x112x128_S32x128x128x128_000_1150_1150_000 : S32x112x112x128.Pads (![0, 1, 1, 0] : Fin 4 → Nat) ![0, 15, 15, 0] ![0, 0, 0, 0] S32x128x128x128
  transposes_S3x3x128x128_S3x3x128x128_1_0_2_3 : S3x3x128x128.Transposes [1, 0, 2, 3] S3x3x128x128
  shapeCasts_S3x3x128x128_S3x384x128 : S3x3x128x128.ShapeCasts S3x384x128
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S2048x128 : S16x128x128.ShapeCasts S2048x128
  concatenates_S2048x128_S2048x128_S128x128_S4224x128_d0 : Shape.Concatenates [S2048x128, S2048x128, S128x128] S4224x128 0
  slices_S4224x128_o0_0_S2048x128 : S4224x128.Slices ![0, 0] S2048x128
  slices_S4224x128_o128_0_S2048x128 : S4224x128.Slices ![128, 0] S2048x128
  slices_S4224x128_o256_0_S2048x128 : S4224x128.Slices ![256, 0] S2048x128
  concatenates_S2048x128_S2048x128_S2048x128_S2048x384_d1 : Shape.Concatenates [S2048x128, S2048x128, S2048x128] S2048x384 1
  inb_S3x384x128_S1x384x128_0_0_0 : ∀ a, (![0, 0, 0] : Fin 3 → Nat) a + S1x384x128.size a ≤ S3x384x128.size a
  h_S1x384x128 : 0 < S1x384x128.numel
  shapeCasts_S1x384x128_S384x128 : S1x384x128.ShapeCasts S384x128
  slices_S4224x128_o1_0_S4223x128 : S4224x128.Slices ![1, 0] S4223x128
  slices_S4223x128_o0_0_S2048x128 : S4223x128.Slices ![0, 0] S2048x128
  slices_S4223x128_o128_0_S2048x128 : S4223x128.Slices ![128, 0] S2048x128
  slices_S4223x128_o256_0_S2048x128 : S4223x128.Slices ![256, 0] S2048x128
  inb_S3x384x128_S1x384x128_1_0_0 : ∀ a, (![1, 0, 0] : Fin 3 → Nat) a + S1x384x128.size a ≤ S3x384x128.size a
  slices_S4224x128_o2_0_S4222x128 : S4224x128.Slices ![2, 0] S4222x128
  slices_S4222x128_o0_0_S2048x128 : S4222x128.Slices ![0, 0] S2048x128
  slices_S4222x128_o128_0_S2048x128 : S4222x128.Slices ![128, 0] S2048x128
  slices_S4222x128_o256_0_S2048x128 : S4222x128.Slices ![256, 0] S2048x128
  inb_S3x384x128_S1x384x128_2_0_0 : ∀ a, (![2, 0, 0] : Fin 3 → Nat) a + S1x384x128.size a ≤ S3x384x128.size a
  shapeCasts_S32x112x112x128_S32x3136x512 : S32x112x112x128.ShapeCasts S32x3136x512
  inb_S1x112x512_S1x112x512_0_0_0 : ∀ a, (![0, 0, 0] : Fin 3 → Nat) a + S1x112x512.size a ≤ S1x112x512.size a
  h_S1x112x512 : 0 < S1x112x512.numel
  shapeCasts_S1x112x512_S1x112x512 : S1x112x512.ShapeCasts S1x112x512
  shapeCasts_S1x112x512_S1x1x112x512 : S1x112x512.ShapeCasts S1x1x112x512
  reduces_S1x1x112x512_S1 : S1x1x112x512.Reduces [1, 2, 3] S1
  shapeCasts_S32x112x112x128_S32x112x56x2x128 : S32x112x112x128.ShapeCasts S32x112x56x2x128
  inb_S1x16x56x2x128_S1x16x56x2x128_0_0_0_0_0 : ∀ a, (![0, 0, 0, 0, 0] : Fin 5 → Nat) a + S1x16x56x2x128.size a ≤ S1x16x56x2x128.size a
  h_S1x16x56x2x128 : 0 < S1x16x56x2x128.numel
  shapeCasts_S1x16x56x2x128_S16x56x2x128 : S1x16x56x2x128.ShapeCasts S16x56x2x128
  reduces_S16x56x2x128_S16x56x128 : S16x56x2x128.Reduces [2] S16x56x128
  shapeCasts_S16x56x128_S8x2x56x128 : S16x56x128.ShapeCasts S8x2x56x128
  reduces_S8x2x56x128_S8x56x128 : S8x2x56x128.Reduces [1] S8x56x128
  inb_S1x8x56x128_S1x8x56x128_0_0_0_0 : ∀ a, (![0, 0, 0, 0] : Fin 4 → Nat) a + S1x8x56x128.size a ≤ S1x8x56x128.size a
  h_S1x8x56x128 : 0 < S1x8x56x128.numel
  shapeCasts_S1x8x56x128_S8x56x128 : S1x8x56x128.ShapeCasts S8x56x128
  shapeCasts_S8x56x128_S1x8x56x128 : S8x56x128.ShapeCasts S1x8x56x128
  packedbf16_S1x8x56x128_S1x8x56x128_0_0_0_0 : (Rect.unit (s := S1x8x56x128) ![0, 0, 0, 0] S1x8x56x128.size inb_S1x8x56x128_S1x8x56x128_0_0_0_0).PackedRows (EltTy.packing .bf16)
  pads_S32x56x56x128_S32x84x64x128_000_1270_170_000 : S32x56x56x128.Pads (![0, 1, 1, 0] : Fin 4 → Nat) ![0, 27, 7, 0] ![0, 0, 0, 0] S32x84x64x128
  transposes_S3x3x128x256_S3x3x128x256_1_0_2_3 : S3x3x128x256.Transposes [1, 0, 2, 3] S3x3x128x256
  shapeCasts_S3x3x128x256_S3x384x256 : S3x3x128x256.ShapeCasts S3x384x256
  inb_S1x28x64x128_S1x28x64x128_0_0_0_0 : ∀ a, (![0, 0, 0, 0] : Fin 4 → Nat) a + S1x28x64x128.size a ≤ S1x28x64x128.size a
  h_S1x28x64x128 : 0 < S1x28x64x128.numel
  shapeCasts_S1x28x64x128_S28x64x128 : S1x28x64x128.ShapeCasts S28x64x128
  shapeCasts_S28x64x128_S1792x128 : S28x64x128.ShapeCasts S1792x128
  concatenates_S1792x128_S1792x128_S64x128_S3648x128_d0 : Shape.Concatenates [S1792x128, S1792x128, S64x128] S3648x128 0
  slices_S3648x128_o0_0_S1792x128 : S3648x128.Slices ![0, 0] S1792x128
  slices_S3648x128_o64_0_S1792x128 : S3648x128.Slices ![64, 0] S1792x128
  slices_S3648x128_o128_0_S1792x128 : S3648x128.Slices ![128, 0] S1792x128
  concatenates_S1792x128_S1792x128_S1792x128_S1792x384_d1 : Shape.Concatenates [S1792x128, S1792x128, S1792x128] S1792x384 1
  inb_S3x384x256_S1x384x256_0_0_0 : ∀ a, (![0, 0, 0] : Fin 3 → Nat) a + S1x384x256.size a ≤ S3x384x256.size a
  h_S1x384x256 : 0 < S1x384x256.numel
  shapeCasts_S1x384x256_S384x256 : S1x384x256.ShapeCasts S384x256
  slices_S3648x128_o1_0_S3647x128 : S3648x128.Slices ![1, 0] S3647x128
  slices_S3647x128_o0_0_S1792x128 : S3647x128.Slices ![0, 0] S1792x128
  slices_S3647x128_o64_0_S1792x128 : S3647x128.Slices ![64, 0] S1792x128
  slices_S3647x128_o128_0_S1792x128 : S3647x128.Slices ![128, 0] S1792x128
  inb_S3x384x256_S1x384x256_1_0_0 : ∀ a, (![1, 0, 0] : Fin 3 → Nat) a + S1x384x256.size a ≤ S3x384x256.size a
  slices_S3648x128_o2_0_S3646x128 : S3648x128.Slices ![2, 0] S3646x128
  slices_S3646x128_o0_0_S1792x128 : S3646x128.Slices ![0, 0] S1792x128
  slices_S3646x128_o64_0_S1792x128 : S3646x128.Slices ![64, 0] S1792x128
  slices_S3646x128_o128_0_S1792x128 : S3646x128.Slices ![128, 0] S1792x128
  inb_S3x384x256_S1x384x256_2_0_0 : ∀ a, (![2, 0, 0] : Fin 3 → Nat) a + S1x384x256.size a ≤ S3x384x256.size a
  inb_S1x256_S1x256_0_0 : ∀ a, (![0, 0] : Fin 2 → Nat) a + S1x256.size a ≤ S1x256.size a
  h_S1x256 : 0 < S1x256.numel
  broadcasts_S1x256_S1792x256 : S1x256.Broadcasts S1792x256
  shapeCasts_S1792x256_S28x64x256 : S1792x256.ShapeCasts S28x64x256
  slices_S28x64x256_o0_0_0_S28x56x256 : S28x64x256.Slices ![0, 0, 0] S28x56x256
  inb_S1x28x56x256_S1x28x56x256_0_0_0_0 : ∀ a, (![0, 0, 0, 0] : Fin 4 → Nat) a + S1x28x56x256.size a ≤ S1x28x56x256.size a
  h_S1x28x56x256 : 0 < S1x28x56x256.numel
  shapeCasts_S1x28x56x256_S28x56x256 : S1x28x56x256.ShapeCasts S28x56x256
  shapeCasts_S28x56x256_S1x28x56x256 : S28x56x256.ShapeCasts S1x28x56x256
  packedbf16_S1x28x56x256_S1x28x56x256_0_0_0_0 : (Rect.unit (s := S1x28x56x256) ![0, 0, 0, 0] S1x28x56x256.size inb_S1x28x56x256_S1x28x56x256_0_0_0_0).PackedRows (EltTy.packing .bf16)
  pads_S32x56x56x256_S32x84x64x256_000_1270_170_000 : S32x56x56x256.Pads (![0, 1, 1, 0] : Fin 4 → Nat) ![0, 27, 7, 0] ![0, 0, 0, 0] S32x84x64x256
  transposes_S3x3x256x256_S3x3x256x256_1_0_2_3 : S3x3x256x256.Transposes [1, 0, 2, 3] S3x3x256x256
  shapeCasts_S3x3x256x256_S3x768x256 : S3x3x256x256.ShapeCasts S3x768x256
  inb_S1x28x64x256_S1x28x64x256_0_0_0_0 : ∀ a, (![0, 0, 0, 0] : Fin 4 → Nat) a + S1x28x64x256.size a ≤ S1x28x64x256.size a
  h_S1x28x64x256 : 0 < S1x28x64x256.numel
  shapeCasts_S1x28x64x256_S28x64x256 : S1x28x64x256.ShapeCasts S28x64x256
  shapeCasts_S28x64x256_S1792x256 : S28x64x256.ShapeCasts S1792x256
  concatenates_S1792x256_S1792x256_S64x256_S3648x256_d0 : Shape.Concatenates [S1792x256, S1792x256, S64x256] S3648x256 0
  slices_S3648x256_o0_0_S1792x256 : S3648x256.Slices ![0, 0] S1792x256
  slices_S3648x256_o64_0_S1792x256 : S3648x256.Slices ![64, 0] S1792x256
  slices_S3648x256_o128_0_S1792x256 : S3648x256.Slices ![128, 0] S1792x256
  concatenates_S1792x256_S1792x256_S1792x256_S1792x768_d1 : Shape.Concatenates [S1792x256, S1792x256, S1792x256] S1792x768 1
  inb_S3x768x256_S1x768x256_0_0_0 : ∀ a, (![0, 0, 0] : Fin 3 → Nat) a + S1x768x256.size a ≤ S3x768x256.size a
  h_S1x768x256 : 0 < S1x768x256.numel
  shapeCasts_S1x768x256_S768x256 : S1x768x256.ShapeCasts S768x256
  slices_S3648x256_o1_0_S3647x256 : S3648x256.Slices ![1, 0] S3647x256
  slices_S3647x256_o0_0_S1792x256 : S3647x256.Slices ![0, 0] S1792x256
  slices_S3647x256_o64_0_S1792x256 : S3647x256.Slices ![64, 0] S1792x256
  slices_S3647x256_o128_0_S1792x256 : S3647x256.Slices ![128, 0] S1792x256
  inb_S3x768x256_S1x768x256_1_0_0 : ∀ a, (![1, 0, 0] : Fin 3 → Nat) a + S1x768x256.size a ≤ S3x768x256.size a
  slices_S3648x256_o2_0_S3646x256 : S3648x256.Slices ![2, 0] S3646x256
  slices_S3646x256_o0_0_S1792x256 : S3646x256.Slices ![0, 0] S1792x256
  slices_S3646x256_o64_0_S1792x256 : S3646x256.Slices ![64, 0] S1792x256
  slices_S3646x256_o128_0_S1792x256 : S3646x256.Slices ![128, 0] S1792x256
  inb_S3x768x256_S1x768x256_2_0_0 : ∀ a, (![2, 0, 0] : Fin 3 → Nat) a + S1x768x256.size a ≤ S3x768x256.size a
  shapeCasts_S32x56x56x256_S32x1568x512 : S32x56x56x256.ShapeCasts S32x1568x512
  shapeCasts_S32x56x56x256_S32x56x28x2x256 : S32x56x56x256.ShapeCasts S32x56x28x2x256
  inb_S1x14x28x2x256_S1x14x28x2x256_0_0_0_0_0 : ∀ a, (![0, 0, 0, 0, 0] : Fin 5 → Nat) a + S1x14x28x2x256.size a ≤ S1x14x28x2x256.size a
  h_S1x14x28x2x256 : 0 < S1x14x28x2x256.numel
  shapeCasts_S1x14x28x2x256_S14x28x2x256 : S1x14x28x2x256.ShapeCasts S14x28x2x256
  reduces_S14x28x2x256_S14x28x256 : S14x28x2x256.Reduces [2] S14x28x256
  shapeCasts_S14x28x256_S7x2x28x256 : S14x28x256.ShapeCasts S7x2x28x256
  reduces_S7x2x28x256_S7x28x256 : S7x2x28x256.Reduces [1] S7x28x256
  inb_S1x7x28x256_S1x7x28x256_0_0_0_0 : ∀ a, (![0, 0, 0, 0] : Fin 4 → Nat) a + S1x7x28x256.size a ≤ S1x7x28x256.size a
  h_S1x7x28x256 : 0 < S1x7x28x256.numel
  shapeCasts_S1x7x28x256_S7x28x256 : S1x7x28x256.ShapeCasts S7x28x256
  shapeCasts_S7x28x256_S1x7x28x256 : S7x28x256.ShapeCasts S1x7x28x256
  packedbf16_S1x7x28x256_S1x7x28x256_0_0_0_0 : (Rect.unit (s := S1x7x28x256) ![0, 0, 0, 0] S1x7x28x256.size inb_S1x7x28x256_S1x7x28x256_0_0_0_0).PackedRows (EltTy.packing .bf16)
  pads_S32x28x28x256_S32x56x32x256_000_1270_130_000 : S32x28x28x256.Pads (![0, 1, 1, 0] : Fin 4 → Nat) ![0, 27, 3, 0] ![0, 0, 0, 0] S32x56x32x256
  transposes_S3x3x256x512_S3x3x256x512_1_0_2_3 : S3x3x256x512.Transposes [1, 0, 2, 3] S3x3x256x512
  shapeCasts_S3x3x256x512_S3x768x512 : S3x3x256x512.ShapeCasts S3x768x512
  inb_S1x28x32x256_S1x28x32x256_0_0_0_0 : ∀ a, (![0, 0, 0, 0] : Fin 4 → Nat) a + S1x28x32x256.size a ≤ S1x28x32x256.size a
  h_S1x28x32x256 : 0 < S1x28x32x256.numel
  shapeCasts_S1x28x32x256_S28x32x256 : S1x28x32x256.ShapeCasts S28x32x256
  shapeCasts_S28x32x256_S896x256 : S28x32x256.ShapeCasts S896x256
  concatenates_S896x256_S896x256_S32x256_S1824x256_d0 : Shape.Concatenates [S896x256, S896x256, S32x256] S1824x256 0
  slices_S1824x256_o0_0_S896x256 : S1824x256.Slices ![0, 0] S896x256
  slices_S1824x256_o32_0_S896x256 : S1824x256.Slices ![32, 0] S896x256
  slices_S1824x256_o64_0_S896x256 : S1824x256.Slices ![64, 0] S896x256
  concatenates_S896x256_S896x256_S896x256_S896x768_d1 : Shape.Concatenates [S896x256, S896x256, S896x256] S896x768 1
  inb_S3x768x512_S1x768x512_0_0_0 : ∀ a, (![0, 0, 0] : Fin 3 → Nat) a + S1x768x512.size a ≤ S3x768x512.size a
  h_S1x768x512 : 0 < S1x768x512.numel
  shapeCasts_S1x768x512_S768x512 : S1x768x512.ShapeCasts S768x512
  slices_S1824x256_o1_0_S1823x256 : S1824x256.Slices ![1, 0] S1823x256
  slices_S1823x256_o0_0_S896x256 : S1823x256.Slices ![0, 0] S896x256
  slices_S1823x256_o32_0_S896x256 : S1823x256.Slices ![32, 0] S896x256
  slices_S1823x256_o64_0_S896x256 : S1823x256.Slices ![64, 0] S896x256
  inb_S3x768x512_S1x768x512_1_0_0 : ∀ a, (![1, 0, 0] : Fin 3 → Nat) a + S1x768x512.size a ≤ S3x768x512.size a
  slices_S1824x256_o2_0_S1822x256 : S1824x256.Slices ![2, 0] S1822x256
  slices_S1822x256_o0_0_S896x256 : S1822x256.Slices ![0, 0] S896x256
  slices_S1822x256_o32_0_S896x256 : S1822x256.Slices ![32, 0] S896x256
  slices_S1822x256_o64_0_S896x256 : S1822x256.Slices ![64, 0] S896x256
  inb_S3x768x512_S1x768x512_2_0_0 : ∀ a, (![2, 0, 0] : Fin 3 → Nat) a + S1x768x512.size a ≤ S3x768x512.size a
  inb_S1x512_S1x512_0_0 : ∀ a, (![0, 0] : Fin 2 → Nat) a + S1x512.size a ≤ S1x512.size a
  h_S1x512 : 0 < S1x512.numel
  broadcasts_S1x512_S896x512 : S1x512.Broadcasts S896x512
  shapeCasts_S896x512_S28x32x512 : S896x512.ShapeCasts S28x32x512
  slices_S28x32x512_o0_0_0_S28x28x512 : S28x32x512.Slices ![0, 0, 0] S28x28x512
  inb_S1x28x28x512_S1x28x28x512_0_0_0_0 : ∀ a, (![0, 0, 0, 0] : Fin 4 → Nat) a + S1x28x28x512.size a ≤ S1x28x28x512.size a
  h_S1x28x28x512 : 0 < S1x28x28x512.numel
  shapeCasts_S1x28x28x512_S28x28x512 : S1x28x28x512.ShapeCasts S28x28x512
  shapeCasts_S28x28x512_S1x28x28x512 : S28x28x512.ShapeCasts S1x28x28x512
  packedbf16_S1x28x28x512_S1x28x28x512_0_0_0_0 : (Rect.unit (s := S1x28x28x512) ![0, 0, 0, 0] S1x28x28x512.size inb_S1x28x28x512_S1x28x28x512_0_0_0_0).PackedRows (EltTy.packing .bf16)
  pads_S32x28x28x512_S32x56x32x512_000_1270_130_000 : S32x28x28x512.Pads (![0, 1, 1, 0] : Fin 4 → Nat) ![0, 27, 3, 0] ![0, 0, 0, 0] S32x56x32x512
  transposes_S3x3x512x512_S3x3x512x512_1_0_2_3 : S3x3x512x512.Transposes [1, 0, 2, 3] S3x3x512x512
  shapeCasts_S3x3x512x512_S3x1536x512 : S3x3x512x512.ShapeCasts S3x1536x512
  inb_S1x28x32x512_S1x28x32x512_0_0_0_0 : ∀ a, (![0, 0, 0, 0] : Fin 4 → Nat) a + S1x28x32x512.size a ≤ S1x28x32x512.size a
  h_S1x28x32x512 : 0 < S1x28x32x512.numel
  shapeCasts_S1x28x32x512_S28x32x512 : S1x28x32x512.ShapeCasts S28x32x512
  shapeCasts_S28x32x512_S896x512 : S28x32x512.ShapeCasts S896x512
  concatenates_S896x512_S896x512_S32x512_S1824x512_d0 : Shape.Concatenates [S896x512, S896x512, S32x512] S1824x512 0
  slices_S1824x512_o0_0_S896x512 : S1824x512.Slices ![0, 0] S896x512
  slices_S1824x512_o32_0_S896x512 : S1824x512.Slices ![32, 0] S896x512
  slices_S1824x512_o64_0_S896x512 : S1824x512.Slices ![64, 0] S896x512
  concatenates_S896x512_S896x512_S896x512_S896x1536_d1 : Shape.Concatenates [S896x512, S896x512, S896x512] S896x1536 1
  inb_S3x1536x512_S1x1536x512_0_0_0 : ∀ a, (![0, 0, 0] : Fin 3 → Nat) a + S1x1536x512.size a ≤ S3x1536x512.size a
  h_S1x1536x512 : 0 < S1x1536x512.numel
  shapeCasts_S1x1536x512_S1536x512 : S1x1536x512.ShapeCasts S1536x512
  slices_S1824x512_o1_0_S1823x512 : S1824x512.Slices ![1, 0] S1823x512
  slices_S1823x512_o0_0_S896x512 : S1823x512.Slices ![0, 0] S896x512
  slices_S1823x512_o32_0_S896x512 : S1823x512.Slices ![32, 0] S896x512
  slices_S1823x512_o64_0_S896x512 : S1823x512.Slices ![64, 0] S896x512
  inb_S3x1536x512_S1x1536x512_1_0_0 : ∀ a, (![1, 0, 0] : Fin 3 → Nat) a + S1x1536x512.size a ≤ S3x1536x512.size a
  slices_S1824x512_o2_0_S1822x512 : S1824x512.Slices ![2, 0] S1822x512
  slices_S1822x512_o0_0_S896x512 : S1822x512.Slices ![0, 0] S896x512
  slices_S1822x512_o32_0_S896x512 : S1822x512.Slices ![32, 0] S896x512
  slices_S1822x512_o64_0_S896x512 : S1822x512.Slices ![64, 0] S896x512
  inb_S3x1536x512_S1x1536x512_2_0_0 : ∀ a, (![2, 0, 0] : Fin 3 → Nat) a + S1x1536x512.size a ≤ S3x1536x512.size a
  shapeCasts_S32x28x28x512_S32x784x512 : S32x28x28x512.ShapeCasts S32x784x512
  dot_S3840x3_S3x64_S3840x64_1_0_0_1_n_n_wf : DotDims.WF S3840x3 S3x64 S3840x64 [1] [0] [0] [1] [] []
  dot_S3840x64_S64x64_S3840x64_1_0_0_1_n_n_wf : DotDims.WF S3840x64 S64x64 S3840x64 [1] [0] [0] [1] [] []
  dot_S2048x64_S64x128_S2048x128_1_0_0_1_n_n_wf : DotDims.WF S2048x64 S64x128 S2048x128 [1] [0] [0] [1] [] []
  dot_S2048x384_S384x128_S2048x128_1_0_0_1_n_n_wf : DotDims.WF S2048x384 S384x128 S2048x128 [1] [0] [0] [1] [] []
  dot_S1792x384_S384x256_S1792x256_1_0_0_1_n_n_wf : DotDims.WF S1792x384 S384x256 S1792x256 [1] [0] [0] [1] [] []
  dot_S1792x768_S768x256_S1792x256_1_0_0_1_n_n_wf : DotDims.WF S1792x768 S768x256 S1792x256 [1] [0] [0] [1] [] []
  dot_S896x768_S768x512_S896x512_1_0_0_1_n_n_wf : DotDims.WF S896x768 S768x512 S896x512 [1] [0] [0] [1] [] []
  dot_S896x1536_S1536x512_S896x512_1_0_0_1_n_n_wf : DotDims.WF S896x1536 S1536x512 S896x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x240x3.size a ≤ S32x240x240x3.size a
  hwx0_0 : ∀ i : grid0.Coords, EltTy.bits .bf16 = 32 ∨ (Rect.block (s := S32x240x240x3) S1x16x240x3.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x240x3.size a ≤ S32x240x240x3.size a
  hwx0_1 : ∀ i : grid0.Coords, EltTy.bits .bf16 = 32 ∨ (Rect.block (s := S32x240x240x3) S1x16x240x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3x3x64.size a ≤ S3x3x3x64.size a
  hwx0_2 : ∀ i : grid0.Coords, EltTy.bits .bf16 = 32 ∨ (Rect.block (s := S3x3x3x64) S3x3x3x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x224x64.size a ≤ S32x224x224x64.size a
  hwx0_4 : ∀ i : grid0.Coords, EltTy.bits .bf16 = 32 ∨ (Rect.block (s := S32x224x224x64) S1x16x224x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x240x64.size a ≤ S32x240x240x64.size a
  hwx1_0 : ∀ i : grid1.Coords, EltTy.bits .bf16 = 32 ∨ (Rect.block (s := S32x240x240x64) S1x16x240x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x240x64.size a ≤ S32x240x240x64.size a
  hwx1_1 : ∀ i : grid1.Coords, EltTy.bits .bf16 = 32 ∨ (Rect.block (s := S32x240x240x64) S1x16x240x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x3x64x64.size a ≤ S3x3x64x64.size a
  hwx1_2 : ∀ i : grid1.Coords, EltTy.bits .bf16 = 32 ∨ (Rect.block (s := S3x3x64x64) S3x3x64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x224x64.size a ≤ S32x224x224x64.size a
  hwx1_4 : ∀ i : grid1.Coords, EltTy.bits .bf16 = 32 ∨ (Rect.block (s := S32x224x224x64) S1x16x224x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x512.size a ≤ S32x6272x512.size a
  hwx2_0 : ∀ i : grid2.Coords, EltTy.bits .bf16 = 32 ∨ (Rect.block (s := S32x6272x512) S1x128x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x512.size a ≤ S32x6272x512.size a
  hwx2_1 : ∀ i : grid2.Coords, EltTy.bits .bf16 = 32 ∨ (Rect.block (s := S32x6272x512) S1x128x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x128.size a ≤ S16x8x128.size a
  hwx2_2 : ∀ i : grid2.Coords, EltTy.bits .f32 = 32 ∨ (Rect.block (s := S16x8x128) S1x8x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x112x2x64.size a ≤ S32x224x112x2x64.size a
  hwx3_0 : ∀ i : grid3.Coords, EltTy.bits .bf16 = 32 ∨ (Rect.block (s := S32x224x112x2x64) S1x16x112x2x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8x112x64.size a ≤ S32x112x112x64.size a
  hwx3_1 : ∀ i : grid3.Coords, EltTy.bits .bf16 = 32 ∨ (Rect.block (s := S32x112x112x64) S1x8x112x64.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x16x128x64.size a ≤ S32x128x128x64.size a
  hwx4_0 : ∀ i : grid4.Coords, EltTy.bits .bf16 = 32 ∨ (Rect.block (s := S32x128x128x64) S1x16x128x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x16x128x64.size a ≤ S32x128x128x64.size a
  hwx4_1 : ∀ i : grid4.Coords, EltTy.bits .bf16 = 32 ∨ (Rect.block (s := S32x128x128x64) S1x16x128x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x3x64x128.size a ≤ S3x3x64x128.size a
  hwx4_2 : ∀ i : grid4.Coords, EltTy.bits .bf16 = 32 ∨ (Rect.block (s := S3x3x64x128) S3x3x64x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x16x112x128.size a ≤ S32x112x112x128.size a
  hwx4_4 : ∀ i : grid4.Coords, EltTy.bits .bf16 = 32 ∨ (Rect.block (s := S32x112x112x128) S1x16x112x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x16x128x128.size a ≤ S32x128x128x128.size a
  hwx5_0 : ∀ i : grid5.Coords, EltTy.bits .bf16 = 32 ∨ (Rect.block (s := S32x128x128x128) S1x16x128x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x16x128x128.size a ≤ S32x128x128x128.size a
  hwx5_1 : ∀ i : grid5.Coords, EltTy.bits .bf16 = 32 ∨ (Rect.block (s := S32x128x128x128) S1x16x128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x384x128.size a ≤ S3x384x128.size a
  hwx5_2 : ∀ i : grid5.Coords, EltTy.bits .bf16 = 32 ∨ (Rect.block (s := S3x384x128) S3x384x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x16x112x128.size a ≤ S32x112x112x128.size a
  hwx5_4 : ∀ i : grid5.Coords, EltTy.bits .bf16 = 32 ∨ (Rect.block (s := S32x112x112x128) S1x16x112x128.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x112x512.size a ≤ S32x3136x512.size a
  hwx6_0 : ∀ i : grid6.Coords, EltTy.bits .bf16 = 32 ∨ (Rect.block (s := S32x3136x512) S1x112x512.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x112x512.size a ≤ S32x3136x512.size a
  hwx6_1 : ∀ i : grid6.Coords, EltTy.bits .bf16 = 32 ∨ (Rect.block (s := S32x3136x512) S1x112x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x8x128.size a ≤ S16x8x128.size a
  hwx6_2 : ∀ i : grid6.Coords, EltTy.bits .f32 = 32 ∨ (Rect.block (s := S16x8x128) S1x8x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x16x56x2x128.size a ≤ S32x112x56x2x128.size a
  hwx7_0 : ∀ i : grid7.Coords, EltTy.bits .bf16 = 32 ∨ (Rect.block (s := S32x112x56x2x128) S1x16x56x2x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x8x56x128.size a ≤ S32x56x56x128.size a
  hwx7_1 : ∀ i : grid7.Coords, EltTy.bits .bf16 = 32 ∨ (Rect.block (s := S32x56x56x128) S1x8x56x128.size (cc7_transform_1 i) (hinb7_1 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x28x64x128.size a ≤ S32x84x64x128.size a
  hwx8_0 : ∀ i : grid8.Coords, EltTy.bits .bf16 = 32 ∨ (Rect.block (s := S32x84x64x128) S1x28x64x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x28x64x128.size a ≤ S32x84x64x128.size a
  hwx8_1 : ∀ i : grid8.Coords, EltTy.bits .bf16 = 32 ∨ (Rect.block (s := S32x84x64x128) S1x28x64x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S3x384x256.size a ≤ S3x384x256.size a
  hwx8_2 : ∀ i : grid8.Coords, EltTy.bits .bf16 = 32 ∨ (Rect.block (s := S3x384x256) S3x384x256.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x28x56x256.size a ≤ S32x56x56x256.size a
  hwx8_4 : ∀ i : grid8.Coords, EltTy.bits .bf16 = 32 ∨ (Rect.block (s := S32x56x56x256) S1x28x56x256.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x28x64x256.size a ≤ S32x84x64x256.size a
  hwx9_0 : ∀ i : grid9.Coords, EltTy.bits .bf16 = 32 ∨ (Rect.block (s := S32x84x64x256) S1x28x64x256.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x28x64x256.size a ≤ S32x84x64x256.size a
  hwx9_1 : ∀ i : grid9.Coords, EltTy.bits .bf16 = 32 ∨ (Rect.block (s := S32x84x64x256) S1x28x64x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S3x768x256.size a ≤ S3x768x256.size a
  hwx9_2 : ∀ i : grid9.Coords, EltTy.bits .bf16 = 32 ∨ (Rect.block (s := S3x768x256) S3x768x256.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x28x56x256.size a ≤ S32x56x56x256.size a
  hwx9_4 : ∀ i : grid9.Coords, EltTy.bits .bf16 = 32 ∨ (Rect.block (s := S32x56x56x256) S1x28x56x256.size (cc9_transform_4 i) (hinb9_4 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x28x64x256.size a ≤ S32x84x64x256.size a
  hwx10_0 : ∀ i : grid10.Coords, EltTy.bits .bf16 = 32 ∨ (Rect.block (s := S32x84x64x256) S1x28x64x256.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x28x64x256.size a ≤ S32x84x64x256.size a
  hwx10_1 : ∀ i : grid10.Coords, EltTy.bits .bf16 = 32 ∨ (Rect.block (s := S32x84x64x256) S1x28x64x256.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S3x768x256.size a ≤ S3x768x256.size a
  hwx10_2 : ∀ i : grid10.Coords, EltTy.bits .bf16 = 32 ∨ (Rect.block (s := S3x768x256) S3x768x256.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x28x56x256.size a ≤ S32x56x56x256.size a
  hwx10_4 : ∀ i : grid10.Coords, EltTy.bits .bf16 = 32 ∨ (Rect.block (s := S32x56x56x256) S1x28x56x256.size (cc10_transform_4 i) (hinb10_4 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x112x512.size a ≤ S32x1568x512.size a
  hwx11_0 : ∀ i : grid11.Coords, EltTy.bits .bf16 = 32 ∨ (Rect.block (s := S32x1568x512) S1x112x512.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x112x512.size a ≤ S32x1568x512.size a
  hwx11_1 : ∀ i : grid11.Coords, EltTy.bits .bf16 = 32 ∨ (Rect.block (s := S32x1568x512) S1x112x512.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x8x128.size a ≤ S16x8x128.size a
  hwx11_2 : ∀ i : grid11.Coords, EltTy.bits .f32 = 32 ∨ (Rect.block (s := S16x8x128) S1x8x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x14x28x2x256.size a ≤ S32x56x28x2x256.size a
  hwx12_0 : ∀ i : grid12.Coords, EltTy.bits .bf16 = 32 ∨ (Rect.block (s := S32x56x28x2x256) S1x14x28x2x256.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x7x28x256.size a ≤ S32x28x28x256.size a
  hwx12_1 : ∀ i : grid12.Coords, EltTy.bits .bf16 = 32 ∨ (Rect.block (s := S32x28x28x256) S1x7x28x256.size (cc12_transform_1 i) (hinb12_1 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1x28x32x256.size a ≤ S32x56x32x256.size a
  hwx13_0 : ∀ i : grid13.Coords, EltTy.bits .bf16 = 32 ∨ (Rect.block (s := S32x56x32x256) S1x28x32x256.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x28x32x256.size a ≤ S32x56x32x256.size a
  hwx13_1 : ∀ i : grid13.Coords, EltTy.bits .bf16 = 32 ∨ (Rect.block (s := S32x56x32x256) S1x28x32x256.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S3x768x512.size a ≤ S3x768x512.size a
  hwx13_2 : ∀ i : grid13.Coords, EltTy.bits .bf16 = 32 ∨ (Rect.block (s := S3x768x512) S3x768x512.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x512.size a ≤ S1x512.size a
  hwx13_3 : ∀ i : grid13.Coords, EltTy.bits .f32 = 32 ∨ (Rect.block (s := S1x512) S1x512.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S1x28x28x512.size a ≤ S32x28x28x512.size a
  hwx13_4 : ∀ i : grid13.Coords, EltTy.bits .bf16 = 32 ∨ (Rect.block (s := S32x28x28x512) S1x28x28x512.size (cc13_transform_4 i) (hinb13_4 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1x28x32x512.size a ≤ S32x56x32x512.size a
  hwx14_0 : ∀ i : grid14.Coords, EltTy.bits .bf16 = 32 ∨ (Rect.block (s := S32x56x32x512) S1x28x32x512.size (cc14_transform_0 i) (hinb14_0 i)).WholeWords (EltTy.packing .bf16)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1x28x32x512.size a ≤ S32x56x32x512.size a
  hwx14_1 : ∀ i : grid14.Coords, EltTy.bits .bf16 = 32 ∨ (Rect.block (s := S32x56x32x512) S1x28x32x512.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S3x1536x512.size a ≤ S3x1536x512.size a
  hwx14_2 : ∀ i : grid14.Coords, EltTy.bits .bf16 = 32 ∨ (Rect.block (s := S3x1536x512) S3x1536x512.size (cc14_transform_2 i) (hinb14_2 i)).WholeWords (EltTy.packing .bf16)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x512.size a ≤ S1x512.size a
  hwx14_3 : ∀ i : grid14.Coords, EltTy.bits .f32 = 32 ∨ (Rect.block (s := S1x512) S1x512.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1x28x28x512.size a ≤ S32x28x28x512.size a
  hwx14_4 : ∀ i : grid14.Coords, EltTy.bits .bf16 = 32 ∨ (Rect.block (s := S32x28x28x512) S1x28x28x512.size (cc14_transform_4 i) (hinb14_4 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x28x32x512.size a ≤ S32x56x32x512.size a
  hwx15_0 : ∀ i : grid15.Coords, EltTy.bits .bf16 = 32 ∨ (Rect.block (s := S32x56x32x512) S1x28x32x512.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x28x32x512.size a ≤ S32x56x32x512.size a
  hwx15_1 : ∀ i : grid15.Coords, EltTy.bits .bf16 = 32 ∨ (Rect.block (s := S32x56x32x512) S1x28x32x512.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S3x1536x512.size a ≤ S3x1536x512.size a
  hwx15_2 : ∀ i : grid15.Coords, EltTy.bits .bf16 = 32 ∨ (Rect.block (s := S3x1536x512) S3x1536x512.size (cc15_transform_2 i) (hinb15_2 i)).WholeWords (EltTy.packing .bf16)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x512.size a ≤ S1x512.size a
  hwx15_3 : ∀ i : grid15.Coords, EltTy.bits .f32 = 32 ∨ (Rect.block (s := S1x512) S1x512.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1x28x28x512.size a ≤ S32x28x28x512.size a
  hwx15_4 : ∀ i : grid15.Coords, EltTy.bits .bf16 = 32 ∨ (Rect.block (s := S32x28x28x512) S1x28x28x512.size (cc15_transform_4 i) (hinb15_4 i)).WholeWords (EltTy.packing .bf16)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x112x512.size a ≤ S32x784x512.size a
  hwx16_0 : ∀ i : grid16.Coords, EltTy.bits .bf16 = 32 ∨ (Rect.block (s := S32x784x512) S1x112x512.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x112x512.size a ≤ S32x784x512.size a
  hwx16_1 : ∀ i : grid16.Coords, EltTy.bits .bf16 = 32 ∨ (Rect.block (s := S32x784x512) S1x112x512.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1x8x128.size a ≤ S16x8x128.size a
  hwx16_2 : ∀ i : grid16.Coords, EltTy.bits .f32 = 32 ∨ (Rect.block (s := S16x8x128) S1x8x128.size (cc16_transform_2 i) (hinb16_2 i)).WholeWords (EltTy.packing .f32)

variable [Facts₀]

def dot_S3840x3_S3x64_S3840x64_1_0_0_1_n_n : DotDims S3840x3 S3x64 S3840x64 where
  lhsContracting := [1]
  rhsContracting := [0]
  lhsNonContracting := [0]
  rhsNonContracting := [1]
  lhsBatch := []
  rhsBatch := []
  wf := dot_S3840x3_S3x64_S3840x64_1_0_0_1_n_n_wf
def dot_S3840x64_S64x64_S3840x64_1_0_0_1_n_n : DotDims S3840x64 S64x64 S3840x64 where
  lhsContracting := [1]
  rhsContracting := [0]
  lhsNonContracting := [0]
  rhsNonContracting := [1]
  lhsBatch := []
  rhsBatch := []
  wf := dot_S3840x64_S64x64_S3840x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf
def dot_S1792x384_S384x256_S1792x256_1_0_0_1_n_n : DotDims S1792x384 S384x256 S1792x256 where
  lhsContracting := [1]
  rhsContracting := [0]
  lhsNonContracting := [0]
  rhsNonContracting := [1]
  lhsBatch := []
  rhsBatch := []
  wf := dot_S1792x384_S384x256_S1792x256_1_0_0_1_n_n_wf
def dot_S1792x768_S768x256_S1792x256_1_0_0_1_n_n : DotDims S1792x768 S768x256 S1792x256 where
  lhsContracting := [1]
  rhsContracting := [0]
  lhsNonContracting := [0]
  rhsNonContracting := [1]
  lhsBatch := []
  rhsBatch := []
  wf := dot_S1792x768_S768x256_S1792x256_1_0_0_1_n_n_wf
def dot_S896x768_S768x512_S896x512_1_0_0_1_n_n : DotDims S896x768 S768x512 S896x512 where
  lhsContracting := [1]
  rhsContracting := [0]
  lhsNonContracting := [0]
  rhsNonContracting := [1]
  lhsBatch := []
  rhsBatch := []
  wf := dot_S896x768_S768x512_S896x512_1_0_0_1_n_n_wf
def dot_S896x1536_S1536x512_S896x512_1_0_0_1_n_n : DotDims S896x1536 S1536x512 S896x512 where
  lhsContracting := [1]
  rhsContracting := [0]
  lhsNonContracting := [0]
  rhsNonContracting := [1]
  lhsBatch := []
  rhsBatch := []
  wf := dot_S896x1536_S1536x512_S896x512_1_0_0_1_n_n_wf

abbrev win0_0 : Pipeline.Window sig grid0 :=
  Pipeline.Window.ofSpec (Memref.whole main_v9) S1x16x240x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x16x240x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S3x3x3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x16x224x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S1x16x240x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x16x240x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S3x3x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x16x224x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S1x128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S1x16x112x2x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x8x112x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v24) S1x16x128x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S1x16x128x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S3x3x64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26) S1x16x112x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v27) S1x16x128x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S1x16x128x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S3x384x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v31) S1x16x112x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v32) S1x112x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v32) S1x112x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v33) S1x8x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v39) S1x16x56x2x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S1x8x56x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v41) S1x28x64x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v41) S1x28x64x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v44) S3x384x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg11) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v45) S1x28x56x256.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v46) S1x28x64x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v46) S1x28x64x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v49) S3x768x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg13) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v50) S1x28x56x256.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v51) S1x28x64x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v51) S1x28x64x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v54) S3x768x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v55) S1x28x56x256.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v56) S1x112x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v56) S1x112x512.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v57) S1x8x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v63) S1x14x28x2x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v64) S1x7x28x256.size cc12_transform_1 reads12_1 true false 2 stage12_1 sem12_1
    hrank12 hreads12_1 hinb12_1 nbuf12_1 (Memref.isWhole_whole _) hwx12_1 hstage12_1

abbrev win12 : Fin 2 → Pipeline.Window sig grid12 := fun | 0 => win12_0 | 1 => win12_1 | ⟨_ + 2, h⟩ => absurd h (Nat.not_lt.2 (Nat.le_add_left _ _))
abbrev spec12 : Fin 2 → Pipeline.WinSpec sig grid12.rank := fun w => (win12 w).toWinSpec

abbrev win13_0 : Pipeline.Window sig grid13 :=
  Pipeline.Window.ofSpec (Memref.whole main_v65) S1x28x32x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v65) S1x28x32x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v68) S3x768x512.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg17) S1x512.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v69) S1x28x28x512.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v70) S1x28x32x512.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v70) S1x28x32x512.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v73) S3x1536x512.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_arg19) S1x512.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v74) S1x28x28x512.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v75) S1x28x32x512.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v75) S1x28x32x512.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v78) S3x1536x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_arg21) S1x512.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v79) S1x28x28x512.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v80) S1x112x512.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v80) S1x112x512.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v81) S1x8x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

class Facts : Prop extends Facts₀ where

variable [Facts]
-- ==== ReferenceIdeal.lean ====
abbrev S16x3x224x224 : Shape := ⟨4, ![16, 3, 224, 224]⟩
abbrev S3x3x3x64 : Shape := ⟨4, ![3, 3, 3, 64]⟩
abbrev S1x64 : Shape := ⟨2, ![1, 64]⟩
abbrev S3x3x64x64 : Shape := ⟨4, ![3, 3, 64, 64]⟩
abbrev S3x3x64x128 : Shape := ⟨4, ![3, 3, 64, 128]⟩
abbrev S1x128 : Shape := ⟨2, ![1, 128]⟩
abbrev S3x3x128x128 : Shape := ⟨4, ![3, 3, 128, 128]⟩
abbrev S3x3x128x256 : Shape := ⟨4, ![3, 3, 128, 256]⟩
abbrev S1x256 : Shape := ⟨2, ![1, 256]⟩
abbrev S3x3x256x256 : Shape := ⟨4, ![3, 3, 256, 256]⟩
abbrev S3x3x256x512 : Shape := ⟨4, ![3, 3, 256, 512]⟩
abbrev S1x512 : Shape := ⟨2, ![1, 512]⟩
abbrev S3x3x512x512 : Shape := ⟨4, ![3, 3, 512, 512]⟩
abbrev S3 : Shape := ⟨1, ![3]⟩
abbrev S16x224x224x3 : Shape := ⟨4, ![16, 224, 224, 3]⟩
abbrev S1x1x1x3 : Shape := ⟨4, ![1, 1, 1, 3]⟩
abbrev S_ : Shape := ⟨0, ![]⟩
abbrev S16x240x232x3 : Shape := ⟨4, ![16, 240, 232, 3]⟩
abbrev S16x224x224x64 : Shape := ⟨4, ![16, 224, 224, 64]⟩
abbrev S1x16x232x3 : Shape := ⟨4, ![1, 16, 232, 3]⟩
abbrev S1x16x224x64 : Shape := ⟨4, ![1, 16, 224, 64]⟩
abbrev S16x232x3 : Shape := ⟨3, ![16, 232, 3]⟩
abbrev S3712x3 : Shape := ⟨2, ![3712, 3]⟩
abbrev S232x3 : Shape := ⟨2, ![232, 3]⟩
abbrev S7656x3 : Shape := ⟨2, ![7656, 3]⟩
abbrev S7655x3 : Shape := ⟨2, ![7655, 3]⟩
abbrev S7654x3 : Shape := ⟨2, ![7654, 3]⟩
abbrev S3712x64 : Shape := ⟨2, ![3712, 64]⟩
abbrev S1x1x3x64 : Shape := ⟨4, ![1, 1, 3, 64]⟩
abbrev S3x64 : Shape := ⟨2, ![3, 64]⟩
abbrev S16x232x64 : Shape := ⟨3, ![16, 232, 64]⟩
abbrev S16x224x64 : Shape := ⟨3, ![16, 224, 64]⟩
abbrev S16x240x232x64 : Shape := ⟨4, ![16, 240, 232, 64]⟩
abbrev S1x16x232x64 : Shape := ⟨4, ![1, 16, 232, 64]⟩
abbrev S232x64 : Shape := ⟨2, ![232, 64]⟩
abbrev S7656x64 : Shape := ⟨2, ![7656, 64]⟩
abbrev S7655x64 : Shape := ⟨2, ![7655, 64]⟩
abbrev S7654x64 : Shape := ⟨2, ![7654, 64]⟩
abbrev S1x1x64x64 : Shape := ⟨4, ![1, 1, 64, 64]⟩
abbrev S64x64 : Shape := ⟨2, ![64, 64]⟩
abbrev S100352x512 : Shape := ⟨2, ![100352, 512]⟩
abbrev S1x1 : Shape := ⟨2, ![1, 1]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩
abbrev S16x224x112x2x64 : Shape := ⟨5, ![16, 224, 112, 2, 64]⟩
abbrev S16x112x112x64 : Shape := ⟨4, ![16, 112, 112, 64]⟩
abbrev S1x16x112x2x64 : Shape := ⟨5, ![1, 16, 112, 2, 64]⟩
abbrev S1x8x112x64 : Shape := ⟨4, ![1, 8, 112, 64]⟩
abbrev S16x112x2x64 : Shape := ⟨4, ![16, 112, 2, 64]⟩
abbrev S16x112x64 : Shape := ⟨3, ![16, 112, 64]⟩
abbrev S8x2x112x64 : Shape := ⟨4, ![8, 2, 112, 64]⟩
abbrev S8x112x64 : Shape := ⟨3, ![8, 112, 64]⟩
abbrev S16x128x120x64 : Shape := ⟨4, ![16, 128, 120, 64]⟩
abbrev S16x112x112x128 : Shape := ⟨4, ![16, 112, 112, 128]⟩
abbrev S1x16x120x64 : Shape := ⟨4, ![1, 16, 120, 64]⟩
abbrev S1x16x112x128 : Shape := ⟨4, ![1, 16, 112, 128]⟩
abbrev S16x120x64 : Shape := ⟨3, ![16, 120, 64]⟩
abbrev S1920x64 : Shape := ⟨2, ![1920, 64]⟩
abbrev S120x64 : Shape := ⟨2, ![120, 64]⟩
abbrev S3960x64 : Shape := ⟨2, ![3960, 64]⟩
abbrev S3959x64 : Shape := ⟨2, ![3959, 64]⟩
abbrev S3958x64 : Shape := ⟨2, ![3958, 64]⟩
abbrev S1920x128 : Shape := ⟨2, ![1920, 128]⟩
abbrev S1x1x64x128 : Shape := ⟨4, ![1, 1, 64, 128]⟩
abbrev S64x128 : Shape := ⟨2, ![64, 128]⟩
abbrev S16x120x128 : Shape := ⟨3, ![16, 120, 128]⟩
abbrev S16x112x128 : Shape := ⟨3, ![16, 112, 128]⟩
abbrev S16x128x120x128 : Shape := ⟨4, ![16, 128, 120, 128]⟩
abbrev S1x16x120x128 : Shape := ⟨4, ![1, 16, 120, 128]⟩
abbrev S120x128 : Shape := ⟨2, ![120, 128]⟩
abbrev S3960x128 : Shape := ⟨2, ![3960, 128]⟩
abbrev S3959x128 : Shape := ⟨2, ![3959, 128]⟩
abbrev S3958x128 : Shape := ⟨2, ![3958, 128]⟩
abbrev S1x1x128x128 : Shape := ⟨4, ![1, 1, 128, 128]⟩
abbrev S128x128 : Shape := ⟨2, ![128, 128]⟩
abbrev S50176x512 : Shape := ⟨2, ![50176, 512]⟩
abbrev S16x112x56x2x128 : Shape := ⟨5, ![16, 112, 56, 2, 128]⟩
abbrev S16x56x56x128 : Shape := ⟨4, ![16, 56, 56, 128]⟩
abbrev S1x16x56x2x128 : Shape := ⟨5, ![1, 16, 56, 2, 128]⟩
abbrev S1x8x56x128 : Shape := ⟨4, ![1, 8, 56, 128]⟩
abbrev S16x56x2x128 : Shape := ⟨4, ![16, 56, 2, 128]⟩
abbrev S16x56x128 : Shape := ⟨3, ![16, 56, 128]⟩
abbrev S8x2x56x128 : Shape := ⟨4, ![8, 2, 56, 128]⟩
abbrev S8x56x128 : Shape := ⟨3, ![8, 56, 128]⟩
abbrev S16x70x64x128 : Shape := ⟨4, ![16, 70, 64, 128]⟩
abbrev S16x56x56x256 : Shape := ⟨4, ![16, 56, 56, 256]⟩
abbrev S1x14x64x128 : Shape := ⟨4, ![1, 14, 64, 128]⟩
abbrev S1x14x56x256 : Shape := ⟨4, ![1, 14, 56, 256]⟩
abbrev S14x64x128 : Shape := ⟨3, ![14, 64, 128]⟩
abbrev S896x128 : Shape := ⟨2, ![896, 128]⟩
abbrev S1856x128 : Shape := ⟨2, ![1856, 128]⟩
abbrev S1855x128 : Shape := ⟨2, ![1855, 128]⟩
abbrev S1854x128 : Shape := ⟨2, ![1854, 128]⟩
abbrev S896x256 : Shape := ⟨2, ![896, 256]⟩
abbrev S1x1x128x256 : Shape := ⟨4, ![1, 1, 128, 256]⟩
abbrev S128x256 : Shape := ⟨2, ![128, 256]⟩
abbrev S14x64x256 : Shape := ⟨3, ![14, 64, 256]⟩
abbrev S14x56x256 : Shape := ⟨3, ![14, 56, 256]⟩
abbrev S16x70x64x256 : Shape := ⟨4, ![16, 70, 64, 256]⟩
abbrev S1x14x64x256 : Shape := ⟨4, ![1, 14, 64, 256]⟩
abbrev S64x256 : Shape := ⟨2, ![64, 256]⟩
abbrev S1856x256 : Shape := ⟨2, ![1856, 256]⟩
abbrev S1855x256 : Shape := ⟨2, ![1855, 256]⟩
abbrev S1854x256 : Shape := ⟨2, ![1854, 256]⟩
abbrev S1x1x256x256 : Shape := ⟨4, ![1, 1, 256, 256]⟩
abbrev S256x256 : Shape := ⟨2, ![256, 256]⟩
abbrev S25088x512 : Shape := ⟨2, ![25088, 512]⟩
abbrev S896x512 : Shape := ⟨2, ![896, 512]⟩
abbrev S1x896x512 : Shape := ⟨3, ![1, 896, 512]⟩
abbrev S16x56x28x2x256 : Shape := ⟨5, ![16, 56, 28, 2, 256]⟩
abbrev S16x28x28x256 : Shape := ⟨4, ![16, 28, 28, 256]⟩
abbrev S1x14x28x2x256 : Shape := ⟨5, ![1, 14, 28, 2, 256]⟩
abbrev S1x7x28x256 : Shape := ⟨4, ![1, 7, 28, 256]⟩
abbrev S14x28x2x256 : Shape := ⟨4, ![14, 28, 2, 256]⟩
abbrev S14x28x256 : Shape := ⟨3, ![14, 28, 256]⟩
abbrev S7x2x28x256 : Shape := ⟨4, ![7, 2, 28, 256]⟩
abbrev S7x28x256 : Shape := ⟨3, ![7, 28, 256]⟩
abbrev S16x35x32x256 : Shape := ⟨4, ![16, 35, 32, 256]⟩
abbrev S16x28x28x512 : Shape := ⟨4, ![16, 28, 28, 512]⟩
abbrev S1x7x32x256 : Shape := ⟨4, ![1, 7, 32, 256]⟩
abbrev S1x7x28x512 : Shape := ⟨4, ![1, 7, 28, 512]⟩
abbrev S7x32x256 : Shape := ⟨3, ![7, 32, 256]⟩
abbrev S224x256 : Shape := ⟨2, ![224, 256]⟩
abbrev S32x256 : Shape := ⟨2, ![32, 256]⟩
abbrev S480x256 : Shape := ⟨2, ![480, 256]⟩
abbrev S479x256 : Shape := ⟨2, ![479, 256]⟩
abbrev S478x256 : Shape := ⟨2, ![478, 256]⟩
abbrev S224x512 : Shape := ⟨2, ![224, 512]⟩
abbrev S1x1x256x512 : Shape := ⟨4, ![1, 1, 256, 512]⟩
abbrev S256x512 : Shape := ⟨2, ![256, 512]⟩
abbrev S7x32x512 : Shape := ⟨3, ![7, 32, 512]⟩
abbrev S7x28x512 : Shape := ⟨3, ![7, 28, 512]⟩
abbrev S16x35x32x512 : Shape := ⟨4, ![16, 35, 32, 512]⟩
abbrev S1x7x32x512 : Shape := ⟨4, ![1, 7, 32, 512]⟩
abbrev S32x512 : Shape := ⟨2, ![32, 512]⟩
abbrev S480x512 : Shape := ⟨2, ![480, 512]⟩
abbrev S479x512 : Shape := ⟨2, ![479, 512]⟩
abbrev S478x512 : Shape := ⟨2, ![478, 512]⟩
abbrev S1x1x512x512 : Shape := ⟨4, ![1, 1, 512, 512]⟩
abbrev S512x512 : Shape := ⟨2, ![512, 512]⟩
abbrev S12544x512 : Shape := ⟨2, ![12544, 512]⟩

abbrev nBuf : Space → Nat
  | .hbm => 159
  | .vmem => 204
  | .smem => 0
  | _ => 0

abbrev hbmTy0_0 (i : Nat) : BufTy := match i % 128 with
  | 0 => ⟨S16x3x224x224, .f32⟩
  | 1 => ⟨S16x3x224x224, .f32⟩
  | 2 => ⟨S3x3x3x64, .f32⟩
  | 3 => ⟨S1x64, .f32⟩
  | 4 => ⟨S3x3x64x64, .f32⟩
  | 5 => ⟨S1x64, .f32⟩
  | 6 => ⟨S3x3x64x128, .f32⟩
  | 7 => ⟨S1x128, .f32⟩
  | 8 => ⟨S3x3x128x128, .f32⟩
  | 9 => ⟨S1x128, .f32⟩
  | 10 => ⟨S3x3x128x256, .f32⟩
  | 11 => ⟨S1x256, .f32⟩
  | 12 => ⟨S3x3x256x256, .f32⟩
  | 13 => ⟨S1x256, .f32⟩
  | 14 => ⟨S3x3x256x256, .f32⟩
  | 15 => ⟨S1x256, .f32⟩
  | 16 => ⟨S3x3x256x512, .f32⟩
  | 17 => ⟨S1x512, .f32⟩
  | 18 => ⟨S3x3x512x512, .f32⟩
  | 19 => ⟨S1x512, .f32⟩
  | 20 => ⟨S3x3x512x512, .f32⟩
  | 21 => ⟨S1x512, .f32⟩
  | 22 => ⟨S3, .f32⟩
  | 23 => ⟨S3, .f32⟩
  | 24 => ⟨S16x224x224x3, .f32⟩
  | 25 => ⟨S16x224x224x3, .f32⟩
  | 26 => ⟨S1x1x1x3, .f32⟩
  | 27 => ⟨S16x224x224x3, .f32⟩
  | 28 => ⟨S16x224x224x3, .f32⟩
  | 29 => ⟨S1x1x1x3, .f32⟩
  | 30 => ⟨S16x224x224x3, .f32⟩
  | 31 => ⟨S16x224x224x3, .f32⟩
  | 32 => ⟨S1x1x1x3, .f32⟩
  | 33 => ⟨S16x224x224x3, .f32⟩
  | 34 => ⟨S16x224x224x3, .f32⟩
  | 35 => ⟨S1x1x1x3, .f32⟩
  | 36 => ⟨S16x224x224x3, .f32⟩
  | 37 => ⟨S16x224x224x3, .f32⟩
  | 38 => ⟨S_, .i32⟩
  | 39 => ⟨S_, .f32⟩
  | 40 => ⟨S16x240x232x3, .f32⟩
  | 41 => ⟨S16x224x224x64, .f32⟩
  | 42 => ⟨S_, .i32⟩
  | 43 => ⟨S_, .f32⟩
  | 44 => ⟨S16x240x232x3, .f32⟩
  | 45 => ⟨S16x224x224x64, .f32⟩
  | 46 => ⟨S_, .i32⟩
  | 47 => ⟨S_, .f32⟩
  | 48 => ⟨S16x240x232x64, .f32⟩
  | 49 => ⟨S16x224x224x64, .f32⟩
  | 50 => ⟨S_, .i32⟩
  | 51 => ⟨S_, .f32⟩
  | 52 => ⟨S16x240x232x64, .f32⟩
  | 53 => ⟨S16x224x224x64, .f32⟩
  | 54 => ⟨S100352x512, .f32⟩
  | 55 => ⟨S100352x512, .f32⟩
  | 56 => ⟨S1x1, .f32⟩
  | 57 => ⟨S_, .f32⟩
  | 58 => ⟨S_, .f32⟩
  | 59 => ⟨S_, .f32⟩
  | 60 => ⟨S_, .f32⟩
  | 61 => ⟨S_, .f32⟩
  | 62 => ⟨S16x224x112x2x64, .f32⟩
  | 63 => ⟨S16x112x112x64, .f32⟩
  | 64 => ⟨S16x224x112x2x64, .f32⟩
  | 65 => ⟨S16x112x112x64, .f32⟩
  | 66 => ⟨S_, .i32⟩
  | 67 => ⟨S_, .f32⟩
  | 68 => ⟨S16x128x120x64, .f32⟩
  | 69 => ⟨S16x112x112x128, .f32⟩
  | 70 => ⟨S_, .i32⟩
  | 71 => ⟨S_, .f32⟩
  | 72 => ⟨S16x128x120x64, .f32⟩
  | 73 => ⟨S16x112x112x128, .f32⟩
  | 74 => ⟨S_, .i32⟩
  | 75 => ⟨S_, .f32⟩
  | 76 => ⟨S16x128x120x128, .f32⟩
  | 77 => ⟨S16x112x112x128, .f32⟩
  | 78 => ⟨S_, .i32⟩
  | 79 => ⟨S_, .f32⟩
  | 80 => ⟨S16x128x120x128, .f32⟩
  | 81 => ⟨S16x112x112x128, .f32⟩
  | 82 => ⟨S50176x512, .f32⟩
  | 83 => ⟨S50176x512, .f32⟩
  | 84 => ⟨S1x1, .f32⟩
  | 85 => ⟨S_, .f32⟩
  | 86 => ⟨S_, .f32⟩
  | 87 => ⟨S_, .f32⟩
  | 88 => ⟨S_, .f32⟩
  | 89 => ⟨S16x112x56x2x128, .f32⟩
  | 90 => ⟨S16x56x56x128, .f32⟩
  | 91 => ⟨S16x112x56x2x128, .f32⟩
  | 92 => ⟨S16x56x56x128, .f32⟩
  | 93 => ⟨S_, .i32⟩
  | 94 => ⟨S_, .f32⟩
  | 95 => ⟨S16x70x64x128, .f32⟩
  | 96 => ⟨S16x56x56x256, .f32⟩
  | 97 => ⟨S_, .i32⟩
  | 98 => ⟨S_, .f32⟩
  | 99 => ⟨S16x70x64x128, .f32⟩
  | 100 => ⟨S16x56x56x256, .f32⟩
  | 101 => ⟨S_, .i32⟩
  | 102 => ⟨S_, .f32⟩
  | 103 => ⟨S16x70x64x256, .f32⟩
  | 104 => ⟨S16x56x56x256, .f32⟩
  | 105 => ⟨S_, .i32⟩
  | 106 => ⟨S_, .f32⟩
  | 107 => ⟨S16x70x64x256, .f32⟩
  | 108 => ⟨S16x56x56x256, .f32⟩
  | 109 => ⟨S_, .i32⟩
  | 110 => ⟨S_, .f32⟩
  | 111 => ⟨S16x70x64x256, .f32⟩
  | 112 => ⟨S16x56x56x256, .f32⟩
  | 113 => ⟨S_, .i32⟩
  | 114 => ⟨S_, .f32⟩
  | 115 => ⟨S16x70x64x256, .f32⟩
  | 116 => ⟨S16x56x56x256, .f32⟩
  | 117 => ⟨S25088x512, .f32⟩
  | 118 => ⟨S25088x512, .f32⟩
  | 119 => ⟨S1x1, .f32⟩
  | 120 => ⟨S_, .f32⟩
  | 121 => ⟨S_, .f32⟩
  | 122 => ⟨S_, .f32⟩
  | 123 => ⟨S_, .f32⟩
  | 124 => ⟨S16x56x28x2x256, .f32⟩
  | 125 => ⟨S16x28x28x256, .f32⟩
  | 126 => ⟨S16x56x28x2x256, .f32⟩
  | 127 => ⟨S16x28x28x256, .f32⟩
  | _ => ⟨S16x3x224x224, .f32⟩

abbrev hbmTy0_1 (i : Nat) : BufTy := match i % 128 with
  | 0 => ⟨S_, .i32⟩
  | 1 => ⟨S_, .f32⟩
  | 2 => ⟨S16x35x32x256, .f32⟩
  | 3 => ⟨S16x28x28x512, .f32⟩
  | 4 => ⟨S_, .i32⟩
  | 5 => ⟨S_, .f32⟩
  | 6 => ⟨S16x35x32x256, .f32⟩
  | 7 => ⟨S16x28x28x512, .f32⟩
  | 8 => ⟨S_, .i32⟩
  | 9 => ⟨S_, .f32⟩
  | 10 => ⟨S16x35x32x512, .f32⟩
  | 11 => ⟨S16x28x28x512, .f32⟩
  | 12 => ⟨S_, .i32⟩
  | 13 => ⟨S_, .f32⟩
  | 14 => ⟨S16x35x32x512, .f32⟩
  | 15 => ⟨S16x28x28x512, .f32⟩
  | 16 => ⟨S_, .i32⟩
  | 17 => ⟨S_, .f32⟩
  | 18 => ⟨S16x35x32x512, .f32⟩
  | 19 => ⟨S16x28x28x512, .f32⟩
  | 20 => ⟨S_, .i32⟩
  | 21 => ⟨S_, .f32⟩
  | 22 => ⟨S16x35x32x512, .f32⟩
  | 23 => ⟨S16x28x28x512, .f32⟩
  | 24 => ⟨S12544x512, .f32⟩
  | 25 => ⟨S12544x512, .f32⟩
  | 26 => ⟨S1x1, .f32⟩
  | 27 => ⟨S_, .f32⟩
  | 28 => ⟨S_, .f32⟩
  | 29 => ⟨S_, .f32⟩
  | 30 => ⟨S_, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev vmemTy0_0 (i : Nat) : BufTy := match i % 128 with
  | 0 => ⟨S1x16x232x3, .f32⟩
  | 1 => ⟨S1x16x232x3, .f32⟩
  | 2 => ⟨S1x16x232x3, .f32⟩
  | 3 => ⟨S1x16x232x3, .f32⟩
  | 4 => ⟨S3x3x3x64, .f32⟩
  | 5 => ⟨S1x64, .f32⟩
  | 6 => ⟨S1x16x224x64, .f32⟩
  | 7 => ⟨S1x16x224x64, .f32⟩
  | 8 => ⟨S1x16x232x3, .f32⟩
  | 9 => ⟨S1x16x232x3, .f32⟩
  | 10 => ⟨S1x16x232x3, .f32⟩
  | 11 => ⟨S1x16x232x3, .f32⟩
  | 12 => ⟨S3x3x3x64, .f32⟩
  | 13 => ⟨S1x64, .f32⟩
  | 14 => ⟨S1x16x224x64, .f32⟩
  | 15 => ⟨S1x16x224x64, .f32⟩
  | 16 => ⟨S1x16x232x64, .f32⟩
  | 17 => ⟨S1x16x232x64, .f32⟩
  | 18 => ⟨S1x16x232x64, .f32⟩
  | 19 => ⟨S1x16x232x64, .f32⟩
  | 20 => ⟨S3x3x64x64, .f32⟩
  | 21 => ⟨S1x64, .f32⟩
  | 22 => ⟨S1x16x224x64, .f32⟩
  | 23 => ⟨S1x16x224x64, .f32⟩
  | 24 => ⟨S1x16x232x64, .f32⟩
  | 25 => ⟨S1x16x232x64, .f32⟩
  | 26 => ⟨S1x16x232x64, .f32⟩
  | 27 => ⟨S1x16x232x64, .f32⟩
  | 28 => ⟨S3x3x64x64, .f32⟩
  | 29 => ⟨S1x64, .f32⟩
  | 30 => ⟨S1x16x224x64, .f32⟩
  | 31 => ⟨S1x16x224x64, .f32⟩
  | 32 => ⟨S1024x512, .f32⟩
  | 33 => ⟨S1024x512, .f32⟩
  | 34 => ⟨S1024x512, .f32⟩
  | 35 => ⟨S1024x512, .f32⟩
  | 36 => ⟨S1x1, .f32⟩
  | 37 => ⟨S1x16x112x2x64, .f32⟩
  | 38 => ⟨S1x16x112x2x64, .f32⟩
  | 39 => ⟨S1x8x112x64, .f32⟩
  | 40 => ⟨S1x8x112x64, .f32⟩
  | 41 => ⟨S1x16x112x2x64, .f32⟩
  | 42 => ⟨S1x16x112x2x64, .f32⟩
  | 43 => ⟨S1x8x112x64, .f32⟩
  | 44 => ⟨S1x8x112x64, .f32⟩
  | 45 => ⟨S1x16x120x64, .f32⟩
  | 46 => ⟨S1x16x120x64, .f32⟩
  | 47 => ⟨S1x16x120x64, .f32⟩
  | 48 => ⟨S1x16x120x64, .f32⟩
  | 49 => ⟨S3x3x64x128, .f32⟩
  | 50 => ⟨S1x128, .f32⟩
  | 51 => ⟨S1x16x112x128, .f32⟩
  | 52 => ⟨S1x16x112x128, .f32⟩
  | 53 => ⟨S1x16x120x64, .f32⟩
  | 54 => ⟨S1x16x120x64, .f32⟩
  | 55 => ⟨S1x16x120x64, .f32⟩
  | 56 => ⟨S1x16x120x64, .f32⟩
  | 57 => ⟨S3x3x64x128, .f32⟩
  | 58 => ⟨S1x128, .f32⟩
  | 59 => ⟨S1x16x112x128, .f32⟩
  | 60 => ⟨S1x16x112x128, .f32⟩
  | 61 => ⟨S1x16x120x128, .f32⟩
  | 62 => ⟨S1x16x120x128, .f32⟩
  | 63 => ⟨S1x16x120x128, .f32⟩
  | 64 => ⟨S1x16x120x128, .f32⟩
  | 65 => ⟨S3x3x128x128, .f32⟩
  | 66 => ⟨S1x128, .f32⟩
  | 67 => ⟨S1x16x112x128, .f32⟩
  | 68 => ⟨S1x16x112x128, .f32⟩
  | 69 => ⟨S1x16x120x128, .f32⟩
  | 70 => ⟨S1x16x120x128, .f32⟩
  | 71 => ⟨S1x16x120x128, .f32⟩
  | 72 => ⟨S1x16x120x128, .f32⟩
  | 73 => ⟨S3x3x128x128, .f32⟩
  | 74 => ⟨S1x128, .f32⟩
  | 75 => ⟨S1x16x112x128, .f32⟩
  | 76 => ⟨S1x16x112x128, .f32⟩
  | 77 => ⟨S1024x512, .f32⟩
  | 78 => ⟨S1024x512, .f32⟩
  | 79 => ⟨S1024x512, .f32⟩
  | 80 => ⟨S1024x512, .f32⟩
  | 81 => ⟨S1x1, .f32⟩
  | 82 => ⟨S1x16x56x2x128, .f32⟩
  | 83 => ⟨S1x16x56x2x128, .f32⟩
  | 84 => ⟨S1x8x56x128, .f32⟩
  | 85 => ⟨S1x8x56x128, .f32⟩
  | 86 => ⟨S1x16x56x2x128, .f32⟩
  | 87 => ⟨S1x16x56x2x128, .f32⟩
  | 88 => ⟨S1x8x56x128, .f32⟩
  | 89 => ⟨S1x8x56x128, .f32⟩
  | 90 => ⟨S1x14x64x128, .f32⟩
  | 91 => ⟨S1x14x64x128, .f32⟩
  | 92 => ⟨S1x14x64x128, .f32⟩
  | 93 => ⟨S1x14x64x128, .f32⟩
  | 94 => ⟨S3x3x128x256, .f32⟩
  | 95 => ⟨S1x256, .f32⟩
  | 96 => ⟨S1x14x56x256, .f32⟩
  | 97 => ⟨S1x14x56x256, .f32⟩
  | 98 => ⟨S1x14x64x128, .f32⟩
  | 99 => ⟨S1x14x64x128, .f32⟩
  | 100 => ⟨S1x14x64x128, .f32⟩
  | 101 => ⟨S1x14x64x128, .f32⟩
  | 102 => ⟨S3x3x128x256, .f32⟩
  | 103 => ⟨S1x256, .f32⟩
  | 104 => ⟨S1x14x56x256, .f32⟩
  | 105 => ⟨S1x14x56x256, .f32⟩
  | 106 => ⟨S1x14x64x256, .f32⟩
  | 107 => ⟨S1x14x64x256, .f32⟩
  | 108 => ⟨S1x14x64x256, .f32⟩
  | 109 => ⟨S1x14x64x256, .f32⟩
  | 110 => ⟨S3x3x256x256, .f32⟩
  | 111 => ⟨S1x256, .f32⟩
  | 112 => ⟨S1x14x56x256, .f32⟩
  | 113 => ⟨S1x14x56x256, .f32⟩
  | 114 => ⟨S1x14x64x256, .f32⟩
  | 115 => ⟨S1x14x64x256, .f32⟩
  | 116 => ⟨S1x14x64x256, .f32⟩
  | 117 => ⟨S1x14x64x256, .f32⟩
  | 118 => ⟨S3x3x256x256, .f32⟩
  | 119 => ⟨S1x256, .f32⟩
  | 120 => ⟨S1x14x56x256, .f32⟩
  | 121 => ⟨S1x14x56x256, .f32⟩
  | 122 => ⟨S1x14x64x256, .f32⟩
  | 123 => ⟨S1x14x64x256, .f32⟩
  | 124 => ⟨S1x14x64x256, .f32⟩
  | 125 => ⟨S1x14x64x256, .f32⟩
  | 126 => ⟨S3x3x256x256, .f32⟩
  | 127 => ⟨S1x256, .f32⟩
  | _ => ⟨S16x3x224x224, .f32⟩

abbrev vmemTy0_1 (i : Nat) : BufTy := match i % 128 with
  | 0 => ⟨S1x14x56x256, .f32⟩
  | 1 => ⟨S1x14x56x256, .f32⟩
  | 2 => ⟨S1x14x64x256, .f32⟩
  | 3 => ⟨S1x14x64x256, .f32⟩
  | 4 => ⟨S1x14x64x256, .f32⟩
  | 5 => ⟨S1x14x64x256, .f32⟩
  | 6 => ⟨S3x3x256x256, .f32⟩
  | 7 => ⟨S1x256, .f32⟩
  | 8 => ⟨S1x14x56x256, .f32⟩
  | 9 => ⟨S1x14x56x256, .f32⟩
  | 10 => ⟨S896x512, .f32⟩
  | 11 => ⟨S896x512, .f32⟩
  | 12 => ⟨S896x512, .f32⟩
  | 13 => ⟨S896x512, .f32⟩
  | 14 => ⟨S1x1, .f32⟩
  | 15 => ⟨S1x14x28x2x256, .f32⟩
  | 16 => ⟨S1x14x28x2x256, .f32⟩
  | 17 => ⟨S1x7x28x256, .f32⟩
  | 18 => ⟨S1x7x28x256, .f32⟩
  | 19 => ⟨S1x14x28x2x256, .f32⟩
  | 20 => ⟨S1x14x28x2x256, .f32⟩
  | 21 => ⟨S1x7x28x256, .f32⟩
  | 22 => ⟨S1x7x28x256, .f32⟩
  | 23 => ⟨S1x7x32x256, .f32⟩
  | 24 => ⟨S1x7x32x256, .f32⟩
  | 25 => ⟨S1x7x32x256, .f32⟩
  | 26 => ⟨S1x7x32x256, .f32⟩
  | 27 => ⟨S3x3x256x512, .f32⟩
  | 28 => ⟨S1x512, .f32⟩
  | 29 => ⟨S1x7x28x512, .f32⟩
  | 30 => ⟨S1x7x28x512, .f32⟩
  | 31 => ⟨S1x7x32x256, .f32⟩
  | 32 => ⟨S1x7x32x256, .f32⟩
  | 33 => ⟨S1x7x32x256, .f32⟩
  | 34 => ⟨S1x7x32x256, .f32⟩
  | 35 => ⟨S3x3x256x512, .f32⟩
  | 36 => ⟨S1x512, .f32⟩
  | 37 => ⟨S1x7x28x512, .f32⟩
  | 38 => ⟨S1x7x28x512, .f32⟩
  | 39 => ⟨S1x7x32x512, .f32⟩
  | 40 => ⟨S1x7x32x512, .f32⟩
  | 41 => ⟨S1x7x32x512, .f32⟩
  | 42 => ⟨S1x7x32x512, .f32⟩
  | 43 => ⟨S3x3x512x512, .f32⟩
  | 44 => ⟨S1x512, .f32⟩
  | 45 => ⟨S1x7x28x512, .f32⟩
  | 46 => ⟨S1x7x28x512, .f32⟩
  | 47 => ⟨S1x7x32x512, .f32⟩
  | 48 => ⟨S1x7x32x512, .f32⟩
  | 49 => ⟨S1x7x32x512, .f32⟩
  | 50 => ⟨S1x7x32x512, .f32⟩
  | 51 => ⟨S3x3x512x512, .f32⟩
  | 52 => ⟨S1x512, .f32⟩
  | 53 => ⟨S1x7x28x512, .f32⟩
  | 54 => ⟨S1x7x28x512, .f32⟩
  | 55 => ⟨S1x7x32x512, .f32⟩
  | 56 => ⟨S1x7x32x512, .f32⟩
  | 57 => ⟨S1x7x32x512, .f32⟩
  | 58 => ⟨S1x7x32x512, .f32⟩
  | 59 => ⟨S3x3x512x512, .f32⟩
  | 60 => ⟨S1x512, .f32⟩
  | 61 => ⟨S1x7x28x512, .f32⟩
  | 62 => ⟨S1x7x28x512, .f32⟩
  | 63 => ⟨S1x7x32x512, .f32⟩
  | 64 => ⟨S1x7x32x512, .f32⟩
  | 65 => ⟨S1x7x32x512, .f32⟩
  | 66 => ⟨S1x7x32x512, .f32⟩
  | 67 => ⟨S3x3x512x512, .f32⟩
  | 68 => ⟨S1x512, .f32⟩
  | 69 => ⟨S1x7x28x512, .f32⟩
  | 70 => ⟨S1x7x28x512, .f32⟩
  | 71 => ⟨S896x512, .f32⟩
  | 72 => ⟨S896x512, .f32⟩
  | 73 => ⟨S896x512, .f32⟩
  | 74 => ⟨S896x512, .f32⟩
  | 75 => ⟨S1x1, .f32⟩
  | _ => ⟨S16x3x224x224, .f32⟩

abbrev vmemTy (i : Nat) : BufTy := match i / 128 with
  | 0 => vmemTy0_0 i
  | 1 => vmemTy0_1 i
  | _ => ⟨S16x3x224x224, .f32⟩

abbrev bufTy : (tb : Table) → Fin (tcTables nBuf tb) → BufTy
  | .hbm, ⟨i, _⟩ => hbmTy i
  | .local _ .vmem, ⟨i, _⟩ => vmemTy i
  | _, _ => ⟨S16x3x224x224, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 204 → Bool
  | ⟨i, _⟩ => dmaSemScopedAt i

abbrev sig : RefSig :=
  ofTc nBuf bufTy 0 204 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_call0_v0 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_call1_v0 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_call2_v0 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_call3_v0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_4 : Ref sig .tc := ⟨.hbm, 58, rfl⟩
abbrev main_v26 : Ref sig .tc := ⟨.hbm, 59, rfl⟩
abbrev main_cst_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_call4_v0 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_call5_v0 : Ref sig .tc := ⟨.hbm, 71, rfl⟩
abbrev main_v34 : Ref sig .tc := ⟨.hbm, 72, rfl⟩
abbrev main_v35 : Ref sig .tc := ⟨.hbm, 73, rfl⟩
abbrev main_c_8 : Ref sig .tc := ⟨.hbm, 74, rfl⟩
abbrev main_call6_v0 : Ref sig .tc := ⟨.hbm, 75, rfl⟩
abbrev main_v36 : Ref sig .tc := ⟨.hbm, 76, rfl⟩
abbrev main_v37 : Ref sig .tc := ⟨.hbm, 77, rfl⟩
abbrev main_c_9 : Ref sig .tc := ⟨.hbm, 78, rfl⟩
abbrev main_call7_v0 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_11 : Ref sig .tc := ⟨.hbm, 93, rfl⟩
abbrev main_call8_v0 : Ref sig .tc := ⟨.hbm, 94, rfl⟩
abbrev main_v50 : Ref sig .tc := ⟨.hbm, 95, rfl⟩
abbrev main_v51 : Ref sig .tc := ⟨.hbm, 96, rfl⟩
abbrev main_c_12 : Ref sig .tc := ⟨.hbm, 97, rfl⟩
abbrev main_call9_v0 : Ref sig .tc := ⟨.hbm, 98, rfl⟩
abbrev main_v52 : Ref sig .tc := ⟨.hbm, 99, rfl⟩
abbrev main_v53 : Ref sig .tc := ⟨.hbm, 100, rfl⟩
abbrev main_c_13 : Ref sig .tc := ⟨.hbm, 101, rfl⟩
abbrev main_call10_v0 : Ref sig .tc := ⟨.hbm, 102, rfl⟩
abbrev main_v54 : Ref sig .tc := ⟨.hbm, 103, rfl⟩
abbrev main_v55 : Ref sig .tc := ⟨.hbm, 104, rfl⟩
abbrev main_c_14 : Ref sig .tc := ⟨.hbm, 105, rfl⟩
abbrev main_call11_v0 : Ref sig .tc := ⟨.hbm, 106, rfl⟩
abbrev main_v56 : Ref sig .tc := ⟨.hbm, 107, rfl⟩
abbrev main_v57 : Ref sig .tc := ⟨.hbm, 108, rfl⟩
abbrev main_c_15 : Ref sig .tc := ⟨.hbm, 109, rfl⟩
abbrev main_call12_v0 : Ref sig .tc := ⟨.hbm, 110, rfl⟩
abbrev main_v58 : Ref sig .tc := ⟨.hbm, 111, rfl⟩
abbrev main_v59 : Ref sig .tc := ⟨.hbm, 112, rfl⟩
abbrev main_c_16 : Ref sig .tc := ⟨.hbm, 113, rfl⟩
abbrev main_call13_v0 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_17 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_18 : Ref sig .tc := ⟨.hbm, 128, rfl⟩
abbrev main_call14_v0 : Ref sig .tc := ⟨.hbm, 129, rfl⟩
abbrev main_v72 : Ref sig .tc := ⟨.hbm, 130, rfl⟩
abbrev main_v73 : Ref sig .tc := ⟨.hbm, 131, rfl⟩
abbrev main_c_19 : Ref sig .tc := ⟨.hbm, 132, rfl⟩
abbrev main_call15_v0 : Ref sig .tc := ⟨.hbm, 133, rfl⟩
abbrev main_v74 : Ref sig .tc := ⟨.hbm, 134, rfl⟩
abbrev main_v75 : Ref sig .tc := ⟨.hbm, 135, rfl⟩
abbrev main_c_20 : Ref sig .tc := ⟨.hbm, 136, rfl⟩
abbrev main_call16_v0 : Ref sig .tc := ⟨.hbm, 137, rfl⟩
abbrev main_v76 : Ref sig .tc := ⟨.hbm, 138, rfl⟩
abbrev main_v77 : Ref sig .tc := ⟨.hbm, 139, rfl⟩
abbrev main_c_21 : Ref sig .tc := ⟨.hbm, 140, rfl⟩
abbrev main_call17_v0 : Ref sig .tc := ⟨.hbm, 141, rfl⟩
abbrev main_v78 : Ref sig .tc := ⟨.hbm, 142, rfl⟩
abbrev main_v79 : Ref sig .tc := ⟨.hbm, 143, rfl⟩
abbrev main_c_22 : Ref sig .tc := ⟨.hbm, 144, rfl⟩
abbrev main_call18_v0 : Ref sig .tc := ⟨.hbm, 145, rfl⟩
abbrev main_v80 : Ref sig .tc := ⟨.hbm, 146, rfl⟩
abbrev main_v81 : Ref sig .tc := ⟨.hbm, 147, rfl⟩
abbrev main_c_23 : Ref sig .tc := ⟨.hbm, 148, rfl⟩
abbrev main_call19_v0 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_24 : Ref sig .tc := ⟨.hbm, 156, rfl⟩
abbrev main_v88 : Ref sig .tc := ⟨.hbm, 157, rfl⟩
abbrev main_v89 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg4_0 : Ref sig .tc := ⟨.vmem, 51, rfl⟩
abbrev cc7_stg4_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg4_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg4_0 : Ref sig .tc := ⟨.vmem, 67, rfl⟩
abbrev cc9_stg4_1 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg1_1 : Ref sig .tc := ⟨.vmem, 72, rfl⟩
abbrev cc10_stg2_0 : Ref sig .tc := ⟨.vmem, 73, rfl⟩
abbrev cc10_stg3_0 : Ref sig .tc := ⟨.vmem, 74, rfl⟩
abbrev cc10_stg4_0 : Ref sig .tc := ⟨.vmem, 75, rfl⟩
abbrev cc10_stg4_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc12_stg0_0 : Ref sig .tc := ⟨.vmem, 82, rfl⟩
abbrev cc12_stg0_1 : Ref sig .tc := ⟨.vmem, 83, rfl⟩
abbrev cc12_stg1_0 : Ref sig .tc := ⟨.vmem, 84, rfl⟩
abbrev cc12_stg1_1 : Ref sig .tc := ⟨.vmem, 85, rfl⟩
abbrev cc13_stg0_0 : Ref sig .tc := ⟨.vmem, 86, rfl⟩
abbrev cc13_stg0_1 : Ref sig .tc := ⟨.vmem, 87, rfl⟩
abbrev cc13_stg1_0 : Ref sig .tc := ⟨.vmem, 88, rfl⟩
abbrev cc13_stg1_1 : Ref sig .tc := ⟨.vmem, 89, rfl⟩
abbrev cc14_stg0_0 : Ref sig .tc := ⟨.vmem, 90, rfl⟩
abbrev cc14_stg0_1 : Ref sig .tc := ⟨.vmem, 91, rfl⟩
abbrev cc14_stg1_0 : Ref sig .tc := ⟨.vmem, 92, rfl⟩
abbrev cc14_stg1_1 : Ref sig .tc := ⟨.vmem, 93, rfl⟩
abbrev cc14_stg2_0 : Ref sig .tc := ⟨.vmem, 94, rfl⟩
abbrev cc14_stg3_0 : Ref sig .tc := ⟨.vmem, 95, rfl⟩
abbrev cc14_stg4_0 : Ref sig .tc := ⟨.vmem, 96, rfl⟩
abbrev cc14_stg4_1 : Ref sig .tc := ⟨.vmem, 97, rfl⟩
abbrev cc15_stg0_0 : Ref sig .tc := ⟨.vmem, 98, rfl⟩
abbrev cc15_stg0_1 : Ref sig .tc := ⟨.vmem, 99, rfl⟩
abbrev cc15_stg1_0 : Ref sig .tc := ⟨.vmem, 100, rfl⟩
abbrev cc15_stg1_1 : Ref sig .tc := ⟨.vmem, 101, rfl⟩
abbrev cc15_stg2_0 : Ref sig .tc := ⟨.vmem, 102, rfl⟩
abbrev cc15_stg3_0 : Ref sig .tc := ⟨.vmem, 103, rfl⟩
abbrev cc15_stg4_0 : Ref sig .tc := ⟨.vmem, 104, rfl⟩
abbrev cc15_stg4_1 : Ref sig .tc := ⟨.vmem, 105, rfl⟩
abbrev cc16_stg0_0 : Ref sig .tc := ⟨.vmem, 106, rfl⟩
abbrev cc16_stg0_1 : Ref sig .tc := ⟨.vmem, 107, rfl⟩
abbrev cc16_stg1_0 : Ref sig .tc := ⟨.vmem, 108, rfl⟩
abbrev cc16_stg1_1 : Ref sig .tc := ⟨.vmem, 109, rfl⟩
abbrev cc16_stg2_0 : Ref sig .tc := ⟨.vmem, 110, rfl⟩
abbrev cc16_stg3_0 : Ref sig .tc := ⟨.vmem, 111, rfl⟩
abbrev cc16_stg4_0 : Ref sig .tc := ⟨.vmem, 112, rfl⟩
abbrev cc16_stg4_1 : Ref sig .tc := ⟨.vmem, 113, rfl⟩
abbrev cc17_stg0_0 : Ref sig .tc := ⟨.vmem, 114, rfl⟩
abbrev cc17_stg0_1 : Ref sig .tc := ⟨.vmem, 115, rfl⟩
abbrev cc17_stg1_0 : Ref sig .tc := ⟨.vmem, 116, rfl⟩
abbrev cc17_stg1_1 : Ref sig .tc := ⟨.vmem, 117, rfl⟩
abbrev cc17_stg2_0 : Ref sig .tc := ⟨.vmem, 118, rfl⟩
abbrev cc17_stg3_0 : Ref sig .tc := ⟨.vmem, 119, rfl⟩
abbrev cc17_stg4_0 : Ref sig .tc := ⟨.vmem, 120, rfl⟩
abbrev cc17_stg4_1 : Ref sig .tc := ⟨.vmem, 121, rfl⟩
abbrev cc18_stg0_0 : Ref sig .tc := ⟨.vmem, 122, rfl⟩
abbrev cc18_stg0_1 : Ref sig .tc := ⟨.vmem, 123, rfl⟩
abbrev cc18_stg1_0 : Ref sig .tc := ⟨.vmem, 124, rfl⟩
abbrev cc18_stg1_1 : Ref sig .tc := ⟨.vmem, 125, rfl⟩
abbrev cc18_stg2_0 : Ref sig .tc := ⟨.vmem, 126, rfl⟩
abbrev cc18_stg3_0 : Ref sig .tc := ⟨.vmem, 127, rfl⟩
abbrev cc18_stg4_0 : Ref sig .tc := ⟨.vmem, 128, rfl⟩
abbrev cc18_stg4_1 : Ref sig .tc := ⟨.vmem, 129, rfl⟩
abbrev cc19_stg0_0 : Ref sig .tc := ⟨.vmem, 130, rfl⟩
abbrev cc19_stg0_1 : Ref sig .tc := ⟨.vmem, 131, rfl⟩
abbrev cc19_stg1_0 : Ref sig .tc := ⟨.vmem, 132, rfl⟩
abbrev cc19_stg1_1 : Ref sig .tc := ⟨.vmem, 133, rfl⟩
abbrev cc19_stg2_0 : Ref sig .tc := ⟨.vmem, 134, rfl⟩
abbrev cc19_stg3_0 : Ref sig .tc := ⟨.vmem, 135, rfl⟩
abbrev cc19_stg4_0 : Ref sig .tc := ⟨.vmem, 136, rfl⟩
abbrev cc19_stg4_1 : Ref sig .tc := ⟨.vmem, 137, rfl⟩
abbrev cc20_stg0_0 : Ref sig .tc := ⟨.vmem, 138, rfl⟩
abbrev cc20_stg0_1 : Ref sig .tc := ⟨.vmem, 139, rfl⟩
abbrev cc20_stg1_0 : Ref sig .tc := ⟨.vmem, 140, rfl⟩
abbrev cc20_stg1_1 : Ref sig .tc := ⟨.vmem, 141, rfl⟩
abbrev cc20_stg2_0 : Ref sig .tc := ⟨.vmem, 142, rfl⟩
abbrev cc21_stg0_0 : Ref sig .tc := ⟨.vmem, 143, rfl⟩
abbrev cc21_stg0_1 : Ref sig .tc := ⟨.vmem, 144, rfl⟩
abbrev cc21_stg1_0 : Ref sig .tc := ⟨.vmem, 145, rfl⟩
abbrev cc21_stg1_1 : Ref sig .tc := ⟨.vmem, 146, rfl⟩
abbrev cc22_stg0_0 : Ref sig .tc := ⟨.vmem, 147, rfl⟩
abbrev cc22_stg0_1 : Ref sig .tc := ⟨.vmem, 148, rfl⟩
abbrev cc22_stg1_0 : Ref sig .tc := ⟨.vmem, 149, rfl⟩
abbrev cc22_stg1_1 : Ref sig .tc := ⟨.vmem, 150, rfl⟩
abbrev cc23_stg0_0 : Ref sig .tc := ⟨.vmem, 151, rfl⟩
abbrev cc23_stg0_1 : Ref sig .tc := ⟨.vmem, 152, rfl⟩
abbrev cc23_stg1_0 : Ref sig .tc := ⟨.vmem, 153, rfl⟩
abbrev cc23_stg1_1 : Ref sig .tc := ⟨.vmem, 154, rfl⟩
abbrev cc23_stg2_0 : Ref sig .tc := ⟨.vmem, 155, rfl⟩
abbrev cc23_stg3_0 : Ref sig .tc := ⟨.vmem, 156, rfl⟩
abbrev cc23_stg4_0 : Ref sig .tc := ⟨.vmem, 157, rfl⟩
abbrev cc23_stg4_1 : Ref sig .tc := ⟨.vmem, 158, rfl⟩
abbrev cc24_stg0_0 : Ref sig .tc := ⟨.vmem, 159, rfl⟩
abbrev cc24_stg0_1 : Ref sig .tc := ⟨.vmem, 160, rfl⟩
abbrev cc24_stg1_0 : Ref sig .tc := ⟨.vmem, 161, rfl⟩
abbrev cc24_stg1_1 : Ref sig .tc := ⟨.vmem, 162, rfl⟩
abbrev cc24_stg2_0 : Ref sig .tc := ⟨.vmem, 163, rfl⟩
abbrev cc24_stg3_0 : Ref sig .tc := ⟨.vmem, 164, rfl⟩
abbrev cc24_stg4_0 : Ref sig .tc := ⟨.vmem, 165, rfl⟩
abbrev cc24_stg4_1 : Ref sig .tc := ⟨.vmem, 166, rfl⟩
abbrev cc25_stg0_0 : Ref sig .tc := ⟨.vmem, 167, rfl⟩
abbrev cc25_stg0_1 : Ref sig .tc := ⟨.vmem, 168, rfl⟩
abbrev cc25_stg1_0 : Ref sig .tc := ⟨.vmem, 169, rfl⟩
abbrev cc25_stg1_1 : Ref sig .tc := ⟨.vmem, 170, rfl⟩
abbrev cc25_stg2_0 : Ref sig .tc := ⟨.vmem, 171, rfl⟩
abbrev cc25_stg3_0 : Ref sig .tc := ⟨.vmem, 172, rfl⟩
abbrev cc25_stg4_0 : Ref sig .tc := ⟨.vmem, 173, rfl⟩
abbrev cc25_stg4_1 : Ref sig .tc := ⟨.vmem, 174, rfl⟩
abbrev cc26_stg0_0 : Ref sig .tc := ⟨.vmem, 175, rfl⟩
abbrev cc26_stg0_1 : Ref sig .tc := ⟨.vmem, 176, rfl⟩
abbrev cc26_stg1_0 : Ref sig .tc := ⟨.vmem, 177, rfl⟩
abbrev cc26_stg1_1 : Ref sig .tc := ⟨.vmem, 178, rfl⟩
abbrev cc26_stg2_0 : Ref sig .tc := ⟨.vmem, 179, rfl⟩
abbrev cc26_stg3_0 : Ref sig .tc := ⟨.vmem, 180, rfl⟩
abbrev cc26_stg4_0 : Ref sig .tc := ⟨.vmem, 181, rfl⟩
abbrev cc26_stg4_1 : Ref sig .tc := ⟨.vmem, 182, rfl⟩
abbrev cc27_stg0_0 : Ref sig .tc := ⟨.vmem, 183, rfl⟩
abbrev cc27_stg0_1 : Ref sig .tc := ⟨.vmem, 184, rfl⟩
abbrev cc27_stg1_0 : Ref sig .tc := ⟨.vmem, 185, rfl⟩
abbrev cc27_stg1_1 : Ref sig .tc := ⟨.vmem, 186, rfl⟩
abbrev cc27_stg2_0 : Ref sig .tc := ⟨.vmem, 187, rfl⟩
abbrev cc27_stg3_0 : Ref sig .tc := ⟨.vmem, 188, rfl⟩
abbrev cc27_stg4_0 : Ref sig .tc := ⟨.vmem, 189, rfl⟩
abbrev cc27_stg4_1 : Ref sig .tc := ⟨.vmem, 190, rfl⟩
abbrev cc28_stg0_0 : Ref sig .tc := ⟨.vmem, 191, rfl⟩
abbrev cc28_stg0_1 : Ref sig .tc := ⟨.vmem, 192, rfl⟩
abbrev cc28_stg1_0 : Ref sig .tc := ⟨.vmem, 193, rfl⟩
abbrev cc28_stg1_1 : Ref sig .tc := ⟨.vmem, 194, rfl⟩
abbrev cc28_stg2_0 : Ref sig .tc := ⟨.vmem, 195, rfl⟩
abbrev cc28_stg3_0 : Ref sig .tc := ⟨.vmem, 196, rfl⟩
abbrev cc28_stg4_0 : Ref sig .tc := ⟨.vmem, 197, rfl⟩
abbrev cc28_stg4_1 : Ref sig .tc := ⟨.vmem, 198, rfl⟩
abbrev cc29_stg0_0 : Ref sig .tc := ⟨.vmem, 199, rfl⟩
abbrev cc29_stg0_1 : Ref sig .tc := ⟨.vmem, 200, rfl⟩
abbrev cc29_stg1_0 : Ref sig .tc := ⟨.vmem, 201, rfl⟩
abbrev cc29_stg1_1 : Ref sig .tc := ⟨.vmem, 202, rfl⟩
abbrev cc29_stg2_0 : Ref sig .tc := ⟨.vmem, 203, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc5_sem0_0 : DmaSem sig := 37
abbrev cc5_sem0_1 : DmaSem sig := 38
abbrev cc5_sem1_0 : DmaSem sig := 39
abbrev cc5_sem1_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem4_0 : DmaSem sig := 51
abbrev cc7_sem4_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem3_0 : DmaSem sig := 58
abbrev cc8_sem4_0 : DmaSem sig := 59
abbrev cc8_sem4_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem3_0 : DmaSem sig := 66
abbrev cc9_sem4_0 : DmaSem sig := 67
abbrev cc9_sem4_1 : DmaSem sig := 68
abbrev cc10_sem0_0 : DmaSem sig := 69
abbrev cc10_sem0_1 : DmaSem sig := 70
abbrev cc10_sem1_0 : DmaSem sig := 71
abbrev cc10_sem1_1 : DmaSem sig := 72
abbrev cc10_sem2_0 : DmaSem sig := 73
abbrev cc10_sem3_0 : DmaSem sig := 74
abbrev cc10_sem4_0 : DmaSem sig := 75
abbrev cc10_sem4_1 : DmaSem sig := 76
abbrev cc11_sem0_0 : DmaSem sig := 77
abbrev cc11_sem0_1 : DmaSem sig := 78
abbrev cc11_sem1_0 : DmaSem sig := 79
abbrev cc11_sem1_1 : DmaSem sig := 80
abbrev cc11_sem2_0 : DmaSem sig := 81
abbrev cc12_sem0_0 : DmaSem sig := 82
abbrev cc12_sem0_1 : DmaSem sig := 83
abbrev cc12_sem1_0 : DmaSem sig := 84
abbrev cc12_sem1_1 : DmaSem sig := 85
abbrev cc13_sem0_0 : DmaSem sig := 86
abbrev cc13_sem0_1 : DmaSem sig := 87
abbrev cc13_sem1_0 : DmaSem sig := 88
abbrev cc13_sem1_1 : DmaSem sig := 89
abbrev cc14_sem0_0 : DmaSem sig := 90
abbrev cc14_sem0_1 : DmaSem sig := 91
abbrev cc14_sem1_0 : DmaSem sig := 92
abbrev cc14_sem1_1 : DmaSem sig := 93
abbrev cc14_sem2_0 : DmaSem sig := 94
abbrev cc14_sem3_0 : DmaSem sig := 95
abbrev cc14_sem4_0 : DmaSem sig := 96
abbrev cc14_sem4_1 : DmaSem sig := 97
abbrev cc15_sem0_0 : DmaSem sig := 98
abbrev cc15_sem0_1 : DmaSem sig := 99
abbrev cc15_sem1_0 : DmaSem sig := 100
abbrev cc15_sem1_1 : DmaSem sig := 101
abbrev cc15_sem2_0 : DmaSem sig := 102
abbrev cc15_sem3_0 : DmaSem sig := 103
abbrev cc15_sem4_0 : DmaSem sig := 104
abbrev cc15_sem4_1 : DmaSem sig := 105
abbrev cc16_sem0_0 : DmaSem sig := 106
abbrev cc16_sem0_1 : DmaSem sig := 107
abbrev cc16_sem1_0 : DmaSem sig := 108
abbrev cc16_sem1_1 : DmaSem sig := 109
abbrev cc16_sem2_0 : DmaSem sig := 110
abbrev cc16_sem3_0 : DmaSem sig := 111
abbrev cc16_sem4_0 : DmaSem sig := 112
abbrev cc16_sem4_1 : DmaSem sig := 113
abbrev cc17_sem0_0 : DmaSem sig := 114
abbrev cc17_sem0_1 : DmaSem sig := 115
abbrev cc17_sem1_0 : DmaSem sig := 116
abbrev cc17_sem1_1 : DmaSem sig := 117
abbrev cc17_sem2_0 : DmaSem sig := 118
abbrev cc17_sem3_0 : DmaSem sig := 119
abbrev cc17_sem4_0 : DmaSem sig := 120
abbrev cc17_sem4_1 : DmaSem sig := 121
abbrev cc18_sem0_0 : DmaSem sig := 122
abbrev cc18_sem0_1 : DmaSem sig := 123
abbrev cc18_sem1_0 : DmaSem sig := 124
abbrev cc18_sem1_1 : DmaSem sig := 125
abbrev cc18_sem2_0 : DmaSem sig := 126
abbrev cc18_sem3_0 : DmaSem sig := 127
abbrev cc18_sem4_0 : DmaSem sig := 128
abbrev cc18_sem4_1 : DmaSem sig := 129
abbrev cc19_sem0_0 : DmaSem sig := 130
abbrev cc19_sem0_1 : DmaSem sig := 131
abbrev cc19_sem1_0 : DmaSem sig := 132
abbrev cc19_sem1_1 : DmaSem sig := 133
abbrev cc19_sem2_0 : DmaSem sig := 134
abbrev cc19_sem3_0 : DmaSem sig := 135
abbrev cc19_sem4_0 : DmaSem sig := 136
abbrev cc19_sem4_1 : DmaSem sig := 137
abbrev cc20_sem0_0 : DmaSem sig := 138
abbrev cc20_sem0_1 : DmaSem sig := 139
abbrev cc20_sem1_0 : DmaSem sig := 140
abbrev cc20_sem1_1 : DmaSem sig := 141
abbrev cc20_sem2_0 : DmaSem sig := 142
abbrev cc21_sem0_0 : DmaSem sig := 143
abbrev cc21_sem0_1 : DmaSem sig := 144
abbrev cc21_sem1_0 : DmaSem sig := 145
abbrev cc21_sem1_1 : DmaSem sig := 146
abbrev cc22_sem0_0 : DmaSem sig := 147
abbrev cc22_sem0_1 : DmaSem sig := 148
abbrev cc22_sem1_0 : DmaSem sig := 149
abbrev cc22_sem1_1 : DmaSem sig := 150
abbrev cc23_sem0_0 : DmaSem sig := 151
abbrev cc23_sem0_1 : DmaSem sig := 152
abbrev cc23_sem1_0 : DmaSem sig := 153
abbrev cc23_sem1_1 : DmaSem sig := 154
abbrev cc23_sem2_0 : DmaSem sig := 155
abbrev cc23_sem3_0 : DmaSem sig := 156
abbrev cc23_sem4_0 : DmaSem sig := 157
abbrev cc23_sem4_1 : DmaSem sig := 158
abbrev cc24_sem0_0 : DmaSem sig := 159
abbrev cc24_sem0_1 : DmaSem sig := 160
abbrev cc24_sem1_0 : DmaSem sig := 161
abbrev cc24_sem1_1 : DmaSem sig := 162
abbrev cc24_sem2_0 : DmaSem sig := 163
abbrev cc24_sem3_0 : DmaSem sig := 164
abbrev cc24_sem4_0 : DmaSem sig := 165
abbrev cc24_sem4_1 : DmaSem sig := 166
abbrev cc25_sem0_0 : DmaSem sig := 167
abbrev cc25_sem0_1 : DmaSem sig := 168
abbrev cc25_sem1_0 : DmaSem sig := 169
abbrev cc25_sem1_1 : DmaSem sig := 170
abbrev cc25_sem2_0 : DmaSem sig := 171
abbrev cc25_sem3_0 : DmaSem sig := 172
abbrev cc25_sem4_0 : DmaSem sig := 173
abbrev cc25_sem4_1 : DmaSem sig := 174
abbrev cc26_sem0_0 : DmaSem sig := 175
abbrev cc26_sem0_1 : DmaSem sig := 176
abbrev cc26_sem1_0 : DmaSem sig := 177
abbrev cc26_sem1_1 : DmaSem sig := 178
abbrev cc26_sem2_0 : DmaSem sig := 179
abbrev cc26_sem3_0 : DmaSem sig := 180
abbrev cc26_sem4_0 : DmaSem sig := 181
abbrev cc26_sem4_1 : DmaSem sig := 182
abbrev cc27_sem0_0 : DmaSem sig := 183
abbrev cc27_sem0_1 : DmaSem sig := 184
abbrev cc27_sem1_0 : DmaSem sig := 185
abbrev cc27_sem1_1 : DmaSem sig := 186
abbrev cc27_sem2_0 : DmaSem sig := 187
abbrev cc27_sem3_0 : DmaSem sig := 188
abbrev cc27_sem4_0 : DmaSem sig := 189
abbrev cc27_sem4_1 : DmaSem sig := 190
abbrev cc28_sem0_0 : DmaSem sig := 191
abbrev cc28_sem0_1 : DmaSem sig := 192
abbrev cc28_sem1_0 : DmaSem sig := 193
abbrev cc28_sem1_1 : DmaSem sig := 194
abbrev cc28_sem2_0 : DmaSem sig := 195
abbrev cc28_sem3_0 : DmaSem sig := 196
abbrev cc28_sem4_0 : DmaSem sig := 197
abbrev cc28_sem4_1 : DmaSem sig := 198
abbrev cc29_sem0_0 : DmaSem sig := 199
abbrev cc29_sem0_1 : DmaSem sig := 200
abbrev cc29_sem1_0 : DmaSem sig := 201
abbrev cc29_sem1_1 : DmaSem sig := 202
abbrev cc29_sem2_0 : DmaSem sig := 203

abbrev nD : Nat := 1
abbrev τ : Topo := Topo.v7x

variable {F : FTy → Type} [FloatOps F]

abbrev grid0 : Pipeline.Grid := ⟨2, ![16, 14], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x232x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x232x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3x3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x224x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 14], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x232x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x232x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S3x3x3x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x16x224x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![16, 14], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x16x232x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x232x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S3x3x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x16x224x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![16, 14], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x16x232x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x16x232x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S3x3x64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x16x224x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![98], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨2, ![16, 14], ![false, false]⟩

def cc5_transform_0 (i : grid5.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x16x112x2x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x8x112x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev grid6 : Pipeline.Grid := ⟨2, ![16, 14], ![false, false]⟩

def cc6_transform_0 (i : grid6.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc6_transform_1 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x16x112x2x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x8x112x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev grid7 : Pipeline.Grid := ⟨2, ![16, 7], ![false, false]⟩

def cc7_transform_0 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_1 (i : grid7.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc7_transform_2 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x16x120x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x16x120x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S3x3x64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x16x112x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨2, ![16, 7], ![false, false]⟩

def cc8_transform_0 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_1 (i : grid8.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc8_transform_2 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x16x120x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x16x120x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S3x3x64x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x16x112x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨2, ![16, 7], ![false, false]⟩

def cc9_transform_0 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc9_transform_1 (i : grid9.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc9_transform_2 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage9_0 : Fin 2 → Memref sig .tc .vmem S1x16x120x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x16x120x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S3x3x128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S1x16x112x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev grid10 : Pipeline.Grid := ⟨2, ![16, 7], ![false, false]⟩

def cc10_transform_0 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc10_transform_1 (i : grid10.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc10_transform_2 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage10_0 : Fin 2 → Memref sig .tc .vmem S1x16x120x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x16x120x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 1 → Memref sig .tc .vmem S3x3x128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false, false]

abbrev stage10_4 : Fin 2 → Memref sig .tc .vmem S1x16x112x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev grid11 : Pipeline.Grid := ⟨1, ![49], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1024x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x512 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨2, ![16, 7], ![false, false]⟩

def cc12_transform_0 (i : grid12.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc12_transform_1 (i : grid12.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage12_0 : Fin 2 → Memref sig .tc .vmem S1x16x56x2x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1x8x56x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev grid13 : Pipeline.Grid := ⟨2, ![16, 7], ![false, false]⟩

def cc13_transform_0 (i : grid13.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc13_transform_1 (i : grid13.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage13_0 : Fin 2 → Memref sig .tc .vmem S1x16x56x2x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S1x8x56x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, true]

abbrev grid14 : Pipeline.Grid := ⟨2, ![16, 4], ![false, false]⟩

def cc14_transform_0 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc14_transform_1 (i : grid14.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc14_transform_2 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage14_0 : Fin 2 → Memref sig .tc .vmem S1x14x64x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S1x14x64x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, true]

abbrev stage14_2 : Fin 1 → Memref sig .tc .vmem S3x3x128x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false, false]

abbrev stage14_4 : Fin 2 → Memref sig .tc .vmem S1x14x56x256 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true, true]

abbrev grid15 : Pipeline.Grid := ⟨2, ![16, 4], ![false, false]⟩

def cc15_transform_0 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc15_transform_1 (i : grid15.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc15_transform_2 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage15_0 : Fin 2 → Memref sig .tc .vmem S1x14x64x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S1x14x64x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, true]

abbrev stage15_2 : Fin 1 → Memref sig .tc .vmem S3x3x128x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false, false]

abbrev stage15_3 : Fin 1 → Memref sig .tc .vmem S1x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false, false]

abbrev stage15_4 : Fin 2 → Memref sig .tc .vmem S1x14x56x256 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true, true]

abbrev grid16 : Pipeline.Grid := ⟨2, ![16, 4], ![false, false]⟩

def cc16_transform_0 (i : grid16.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc16_transform_1 (i : grid16.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc16_transform_2 (i : grid16.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc16_transform_3 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage16_0 : Fin 2 → Memref sig .tc .vmem S1x14x64x256 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S1x14x64x256 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true, true]

abbrev stage16_2 : Fin 1 → Memref sig .tc .vmem S3x3x256x256 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false, false]

abbrev stage16_3 : Fin 1 → Memref sig .tc .vmem S1x256 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false, false]

abbrev stage16_4 : Fin 2 → Memref sig .tc .vmem S1x14x56x256 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true, true]

abbrev grid17 : Pipeline.Grid := ⟨2, ![16, 4], ![false, false]⟩

def cc17_transform_0 (i : grid17.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc17_transform_1 (i : grid17.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc17_transform_2 (i : grid17.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage17_0 : Fin 2 → Memref sig .tc .vmem S1x14x64x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, true]

abbrev stage17_1 : Fin 2 → Memref sig .tc .vmem S1x14x64x256 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, true]

abbrev stage17_2 : Fin 1 → Memref sig .tc .vmem S3x3x256x256 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false, false]

abbrev stage17_3 : Fin 1 → Memref sig .tc .vmem S1x256 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false, false]

abbrev stage17_4 : Fin 2 → Memref sig .tc .vmem S1x14x56x256 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true, true]

abbrev grid18 : Pipeline.Grid := ⟨2, ![16, 4], ![false, false]⟩

def cc18_transform_0 (i : grid18.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc18_transform_1 (i : grid18.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc18_transform_2 (i : grid18.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc18_transform_3 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage18_0 : Fin 2 → Memref sig .tc .vmem S1x14x64x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, true]

abbrev stage18_1 : Fin 2 → Memref sig .tc .vmem S1x14x64x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true, true]

abbrev stage18_2 : Fin 1 → Memref sig .tc .vmem S3x3x256x256 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false, false]

abbrev stage18_3 : Fin 1 → Memref sig .tc .vmem S1x256 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false, false]

abbrev stage18_4 : Fin 2 → Memref sig .tc .vmem S1x14x56x256 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true, true]

abbrev grid19 : Pipeline.Grid := ⟨2, ![16, 4], ![false, false]⟩

def cc19_transform_0 (i : grid19.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc19_transform_1 (i : grid19.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc19_transform_2 (i : grid19.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc19_transform_3 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage19_0 : Fin 2 → Memref sig .tc .vmem S1x14x64x256 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, true]

abbrev stage19_1 : Fin 2 → Memref sig .tc .vmem S1x14x64x256 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true, true]

abbrev stage19_2 : Fin 1 → Memref sig .tc .vmem S3x3x256x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false, false]

abbrev stage19_3 : Fin 1 → Memref sig .tc .vmem S1x256 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false, false]

abbrev stage19_4 : Fin 2 → Memref sig .tc .vmem S1x14x56x256 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true, true]

abbrev grid20 : Pipeline.Grid := ⟨1, ![28], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S896x512 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S896x512 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x1 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev grid21 : Pipeline.Grid := ⟨2, ![16, 4], ![false, false]⟩

def cc21_transform_0 (i : grid21.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc21_transform_1 (i : grid21.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage21_0 : Fin 2 → Memref sig .tc .vmem S1x14x28x2x256 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, true]

abbrev stage21_1 : Fin 2 → Memref sig .tc .vmem S1x7x28x256 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true, true]

abbrev grid22 : Pipeline.Grid := ⟨2, ![16, 4], ![false, false]⟩

def cc22_transform_0 (i : grid22.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc22_transform_1 (i : grid22.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage22_0 : Fin 2 → Memref sig .tc .vmem S1x14x28x2x256 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, true]

abbrev stage22_1 : Fin 2 → Memref sig .tc .vmem S1x7x28x256 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true, true]

abbrev grid23 : Pipeline.Grid := ⟨2, ![16, 4], ![false, false]⟩

def cc23_transform_0 (i : grid23.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc23_transform_1 (i : grid23.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc23_transform_2 (i : grid23.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc23_transform_3 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage23_0 : Fin 2 → Memref sig .tc .vmem S1x7x32x256 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, true]

abbrev stage23_1 : Fin 2 → Memref sig .tc .vmem S1x7x32x256 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true, true]

abbrev stage23_2 : Fin 1 → Memref sig .tc .vmem S3x3x256x512 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false, false]

abbrev stage23_3 : Fin 1 → Memref sig .tc .vmem S1x512 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false, false]

abbrev stage23_4 : Fin 2 → Memref sig .tc .vmem S1x7x28x512 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true, true]

abbrev grid24 : Pipeline.Grid := ⟨2, ![16, 4], ![false, false]⟩

def cc24_transform_0 (i : grid24.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc24_transform_1 (i : grid24.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc24_transform_2 (i : grid24.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc24_transform_3 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage24_0 : Fin 2 → Memref sig .tc .vmem S1x7x32x256 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true, true]

abbrev stage24_1 : Fin 2 → Memref sig .tc .vmem S1x7x32x256 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true, true]

abbrev stage24_2 : Fin 1 → Memref sig .tc .vmem S3x3x256x512 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false, false]

abbrev stage24_3 : Fin 1 → Memref sig .tc .vmem S1x512 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false, false]

abbrev stage24_4 : Fin 2 → Memref sig .tc .vmem S1x7x28x512 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true, true]

abbrev grid25 : Pipeline.Grid := ⟨2, ![16, 4], ![false, false]⟩

def cc25_transform_0 (i : grid25.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc25_transform_1 (i : grid25.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc25_transform_2 (i : grid25.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc25_transform_3 (i : grid25.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc25_transform_4 (i : grid25.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage25_0 : Fin 2 → Memref sig .tc .vmem S1x7x32x512 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true, true]

abbrev stage25_1 : Fin 2 → Memref sig .tc .vmem S1x7x32x512 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true, true]

abbrev stage25_2 : Fin 1 → Memref sig .tc .vmem S3x3x512x512 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false, false]

abbrev stage25_3 : Fin 1 → Memref sig .tc .vmem S1x512 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![false, false]

abbrev stage25_4 : Fin 2 → Memref sig .tc .vmem S1x7x28x512 .f32 := fun | 0 => Memref.whole cc25_stg4_0 | 1 => Memref.whole cc25_stg4_1 | ⟨_ + 2, h⟩ => absurd h (Nat.not_lt.2 (Nat.le_add_left _ _))
abbrev sem25_4 : Fin 2 → DmaSem sig := fun | 0 => cc25_sem4_0 | 1 => cc25_sem4_1 | ⟨_ + 2, h⟩ => absurd h (Nat.not_lt.2 (Nat.le_add_left _ _))
abbrev reads25_4 : Fin grid25.rank → Bool := ![true, true]

abbrev grid26 : Pipeline.Grid := ⟨2, ![16, 4], ![false, false]⟩

def cc26_transform_0 (i : grid26.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc26_transform_1 (i : grid26.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc26_transform_2 (i : grid26.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc26_transform_3 (i : grid26.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc26_transform_4 (i : grid26.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage26_0 : Fin 2 → Memref sig .tc .vmem S1x7x32x512 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true, true]

abbrev stage26_1 : Fin 2 → Memref sig .tc .vmem S1x7x32x512 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true, true]

abbrev stage26_2 : Fin 1 → Memref sig .tc .vmem S3x3x512x512 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false, false]

abbrev stage26_3 : Fin 1 → Memref sig .tc .vmem S1x512 .f32 := fun | 0 => Memref.whole cc26_stg3_0 | ⟨_ + 1, h⟩ => absurd h (Nat.not_lt.2 (Nat.le_add_left _ _))
abbrev sem26_3 : Fin 1 → DmaSem sig := fun | 0 => cc26_sem3_0 | ⟨_ + 1, h⟩ => absurd h (Nat.not_lt.2 (Nat.le_add_left _ _))
abbrev reads26_3 : Fin grid26.rank → Bool := ![false, false]

abbrev stage26_4 : Fin 2 → Memref sig .tc .vmem S1x7x28x512 .f32 := fun | 0 => Memref.whole cc26_stg4_0 | 1 => Memref.whole cc26_stg4_1 | ⟨_ + 2, h⟩ => absurd h (Nat.not_lt.2 (Nat.le_add_left _ _))
abbrev sem26_4 : Fin 2 → DmaSem sig := fun | 0 => cc26_sem4_0 | 1 => cc26_sem4_1 | ⟨_ + 2, h⟩ => absurd h (Nat.not_lt.2 (Nat.le_add_left _ _))
abbrev reads26_4 : Fin grid26.rank → Bool := ![true, true]

abbrev grid27 : Pipeline.Grid := ⟨2, ![16, 4], ![false, false]⟩

def cc27_transform_0 (i : grid27.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc27_transform_1 (i : grid27.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc27_transform_2 (i : grid27.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc27_transform_3 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc27_transform_4 (i : grid27.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage27_0 : Fin 2 → Memref sig .tc .vmem S1x7x32x512 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true, true]

abbrev stage27_1 : Fin 2 → Memref sig .tc .vmem S1x7x32x512 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true, true]

abbrev stage27_2 : Fin 1 → Memref sig .tc .vmem S3x3x512x512 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false, false]

abbrev stage27_3 : Fin 1 → Memref sig .tc .vmem S1x512 .f32 := fun | 0 => Memref.whole cc27_stg3_0 | ⟨_ + 1, h⟩ => absurd h (Nat.not_lt.2 (Nat.le_add_left _ _))
abbrev sem27_3 : Fin 1 → DmaSem sig := fun | 0 => cc27_sem3_0 | ⟨_ + 1, h⟩ => absurd h (Nat.not_lt.2 (Nat.le_add_left _ _))
abbrev reads27_3 : Fin grid27.rank → Bool := ![false, false]

abbrev stage27_4 : Fin 2 → Memref sig .tc .vmem S1x7x28x512 .f32 := fun | 0 => Memref.whole cc27_stg4_0 | 1 => Memref.whole cc27_stg4_1 | ⟨_ + 2, h⟩ => absurd h (Nat.not_lt.2 (Nat.le_add_left _ _))
abbrev sem27_4 : Fin 2 → DmaSem sig := fun | 0 => cc27_sem4_0 | 1 => cc27_sem4_1 | ⟨_ + 2, h⟩ => absurd h (Nat.not_lt.2 (Nat.le_add_left _ _))
abbrev reads27_4 : Fin grid27.rank → Bool := ![true, true]

abbrev grid28 : Pipeline.Grid := ⟨2, ![16, 4], ![false, false]⟩

def cc28_transform_0 (i : grid28.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc28_transform_1 (i : grid28.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc28_transform_2 (i : grid28.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc28_transform_3 (i : grid28.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc28_transform_4 (i : grid28.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage28_0 : Fin 2 → Memref sig .tc .vmem S1x7x32x512 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true, true]

abbrev stage28_1 : Fin 2 → Memref sig .tc .vmem S1x7x32x512 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true, true]

abbrev stage28_2 : Fin 1 → Memref sig .tc .vmem S3x3x512x512 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false, false]

abbrev stage28_3 : Fin 1 → Memref sig .tc .vmem S1x512 .f32 := fun | 0 => Memref.whole cc28_stg3_0 | ⟨_ + 1, h⟩ => absurd h (Nat.not_lt.2 (Nat.le_add_left _ _))
abbrev sem28_3 : Fin 1 → DmaSem sig := fun | 0 => cc28_sem3_0 | ⟨_ + 1, h⟩ => absurd h (Nat.not_lt.2 (Nat.le_add_left _ _))
abbrev reads28_3 : Fin grid28.rank → Bool := ![false, false]

abbrev stage28_4 : Fin 2 → Memref sig .tc .vmem S1x7x28x512 .f32 := fun | 0 => Memref.whole cc28_stg4_0 | 1 => Memref.whole cc28_stg4_1 | ⟨_ + 2, h⟩ => absurd h (Nat.not_lt.2 (Nat.le_add_left _ _))
abbrev sem28_4 : Fin 2 → DmaSem sig := fun | 0 => cc28_sem4_0 | 1 => cc28_sem4_1 | ⟨_ + 2, h⟩ => absurd h (Nat.not_lt.2 (Nat.le_add_left _ _))
abbrev reads28_4 : Fin grid28.rank → Bool := ![true, true]

abbrev grid29 : Pipeline.Grid := ⟨1, ![14], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage29_0 : Fin 2 → Memref sig .tc .vmem S896x512 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S896x512 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev stage29_2 : Fin 1 → Memref sig .tc .vmem S1x1 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

class Facts₀ : Prop where
  transposes_S16x3x224x224_S16x224x224x3_0_2_3_1 : S16x3x224x224.Transposes [0, 2, 3, 1] S16x224x224x3
  bcast_S3_S1x1x1x3_3 : S3.BroadcastsInDim S1x1x1x3 (![3] : Fin 1 → Fin S1x1x1x3.rank)
  bcast_S1x1x1x3_S16x224x224x3_0_1_2_3 : S1x1x1x3.BroadcastsInDim S16x224x224x3 (![0, 1, 2, 3] : Fin 4 → Fin S16x224x224x3.rank)
  pads_S16x224x224x3_S16x240x232x3_000_1150_170_000 : S16x224x224x3.Pads (![0, 1, 1, 0] : Fin 4 → Nat) ![0, 15, 7, 0] ![0, 0, 0, 0] S16x240x232x3
  h_S_ : 0 < S_.numel
  inb_S1x16x232x3_S1x16x232x3_0_0_0_0 : ∀ a, (![0, 0, 0, 0] : Fin 4 → Nat) a + S1x16x232x3.size a ≤ S1x16x232x3.size a
  h_S1x16x232x3 : 0 < S1x16x232x3.numel
  shapeCasts_S1x16x232x3_S16x232x3 : S1x16x232x3.ShapeCasts S16x232x3
  shapeCasts_S16x232x3_S3712x3 : S16x232x3.ShapeCasts S3712x3
  concatenates_S3712x3_S3712x3_S232x3_S7656x3_d0 : Shape.Concatenates [S3712x3, S3712x3, S232x3] S7656x3 0
  slices_S7656x3_o1_0_S7655x3 : S7656x3.Slices ![1, 0] S7655x3
  slices_S7656x3_o2_0_S7654x3 : S7656x3.Slices ![2, 0] S7654x3
  slices_S7656x3_o0_0_S3712x3 : S7656x3.Slices ![0, 0] S3712x3
  inb_S3x3x3x64_S1x1x3x64_0_0_0_0 : ∀ a, (![0, 0, 0, 0] : Fin 4 → Nat) a + S1x1x3x64.size a ≤ S3x3x3x64.size a
  h_S1x1x3x64 : 0 < S1x1x3x64.numel
  shapeCasts_S1x1x3x64_S3x64 : S1x1x3x64.ShapeCasts S3x64
  slices_S7655x3_o0_0_S3712x3 : S7655x3.Slices ![0, 0] S3712x3
  inb_S3x3x3x64_S1x1x3x64_0_1_0_0 : ∀ a, (![0, 1, 0, 0] : Fin 4 → Nat) a + S1x1x3x64.size a ≤ S3x3x3x64.size a
  slices_S7654x3_o0_0_S3712x3 : S7654x3.Slices ![0, 0] S3712x3
  inb_S3x3x3x64_S1x1x3x64_0_2_0_0 : ∀ a, (![0, 2, 0, 0] : Fin 4 → Nat) a + S1x1x3x64.size a ≤ S3x3x3x64.size a
  slices_S7656x3_o232_0_S3712x3 : S7656x3.Slices ![232, 0] S3712x3
  inb_S3x3x3x64_S1x1x3x64_1_0_0_0 : ∀ a, (![1, 0, 0, 0] : Fin 4 → Nat) a + S1x1x3x64.size a ≤ S3x3x3x64.size a
  slices_S7655x3_o232_0_S3712x3 : S7655x3.Slices ![232, 0] S3712x3
  inb_S3x3x3x64_S1x1x3x64_1_1_0_0 : ∀ a, (![1, 1, 0, 0] : Fin 4 → Nat) a + S1x1x3x64.size a ≤ S3x3x3x64.size a
  slices_S7654x3_o232_0_S3712x3 : S7654x3.Slices ![232, 0] S3712x3
  inb_S3x3x3x64_S1x1x3x64_1_2_0_0 : ∀ a, (![1, 2, 0, 0] : Fin 4 → Nat) a + S1x1x3x64.size a ≤ S3x3x3x64.size a
  slices_S7656x3_o464_0_S3712x3 : S7656x3.Slices ![464, 0] S3712x3
  inb_S3x3x3x64_S1x1x3x64_2_0_0_0 : ∀ a, (![2, 0, 0, 0] : Fin 4 → Nat) a + S1x1x3x64.size a ≤ S3x3x3x64.size a
  slices_S7655x3_o464_0_S3712x3 : S7655x3.Slices ![464, 0] S3712x3
  inb_S3x3x3x64_S1x1x3x64_2_1_0_0 : ∀ a, (![2, 1, 0, 0] : Fin 4 → Nat) a + S1x1x3x64.size a ≤ S3x3x3x64.size a
  slices_S7654x3_o464_0_S3712x3 : S7654x3.Slices ![464, 0] S3712x3
  inb_S3x3x3x64_S1x1x3x64_2_2_0_0 : ∀ a, (![2, 2, 0, 0] : Fin 4 → Nat) a + S1x1x3x64.size a ≤ S3x3x3x64.size a
  inb_S1x64_S1x64_0_0 : ∀ a, (![0, 0] : Fin 2 → Nat) a + S1x64.size a ≤ S1x64.size a
  h_S1x64 : 0 < S1x64.numel
  broadcasts_S1x64_S3712x64 : S1x64.Broadcasts S3712x64
  shapeCasts_S3712x64_S16x232x64 : S3712x64.ShapeCasts S16x232x64
  slices_S16x232x64_o0_0_0_S16x224x64 : S16x232x64.Slices ![0, 0, 0] S16x224x64
  inb_S1x16x224x64_S1x16x224x64_0_0_0_0 : ∀ a, (![0, 0, 0, 0] : Fin 4 → Nat) a + S1x16x224x64.size a ≤ S1x16x224x64.size a
  h_S1x16x224x64 : 0 < S1x16x224x64.numel
  shapeCasts_S1x16x224x64_S16x224x64 : S1x16x224x64.ShapeCasts S16x224x64
  shapeCasts_S16x224x64_S1x16x224x64 : S16x224x64.ShapeCasts S1x16x224x64
  pads_S16x224x224x64_S16x240x232x64_000_1150_170_000 : S16x224x224x64.Pads (![0, 1, 1, 0] : Fin 4 → Nat) ![0, 15, 7, 0] ![0, 0, 0, 0] S16x240x232x64
  inb_S1x16x232x64_S1x16x232x64_0_0_0_0 : ∀ a, (![0, 0, 0, 0] : Fin 4 → Nat) a + S1x16x232x64.size a ≤ S1x16x232x64.size a
  h_S1x16x232x64 : 0 < S1x16x232x64.numel
  shapeCasts_S1x16x232x64_S16x232x64 : S1x16x232x64.ShapeCasts S16x232x64
  shapeCasts_S16x232x64_S3712x64 : S16x232x64.ShapeCasts S3712x64
  concatenates_S3712x64_S3712x64_S232x64_S7656x64_d0 : Shape.Concatenates [S3712x64, S3712x64, S232x64] S7656x64 0
  slices_S7656x64_o1_0_S7655x64 : S7656x64.Slices ![1, 0] S7655x64
  slices_S7656x64_o2_0_S7654x64 : S7656x64.Slices ![2, 0] S7654x64
  slices_S7656x64_o0_0_S3712x64 : S7656x64.Slices ![0, 0] S3712x64
  inb_S3x3x64x64_S1x1x64x64_0_0_0_0 : ∀ a, (![0, 0, 0, 0] : Fin 4 → Nat) a + S1x1x64x64.size a ≤ S3x3x64x64.size a
  h_S1x1x64x64 : 0 < S1x1x64x64.numel
  shapeCasts_S1x1x64x64_S64x64 : S1x1x64x64.ShapeCasts S64x64
  slices_S7655x64_o0_0_S3712x64 : S7655x64.Slices ![0, 0] S3712x64
  inb_S3x3x64x64_S1x1x64x64_0_1_0_0 : ∀ a, (![0, 1, 0, 0] : Fin 4 → Nat) a + S1x1x64x64.size a ≤ S3x3x64x64.size a
  slices_S7654x64_o0_0_S3712x64 : S7654x64.Slices ![0, 0] S3712x64
  inb_S3x3x64x64_S1x1x64x64_0_2_0_0 : ∀ a, (![0, 2, 0, 0] : Fin 4 → Nat) a + S1x1x64x64.size a ≤ S3x3x64x64.size a
  slices_S7656x64_o232_0_S3712x64 : S7656x64.Slices ![232, 0] S3712x64
  inb_S3x3x64x64_S1x1x64x64_1_0_0_0 : ∀ a, (![1, 0, 0, 0] : Fin 4 → Nat) a + S1x1x64x64.size a ≤ S3x3x64x64.size a
  slices_S7655x64_o232_0_S3712x64 : S7655x64.Slices ![232, 0] S3712x64
  inb_S3x3x64x64_S1x1x64x64_1_1_0_0 : ∀ a, (![1, 1, 0, 0] : Fin 4 → Nat) a + S1x1x64x64.size a ≤ S3x3x64x64.size a
  slices_S7654x64_o232_0_S3712x64 : S7654x64.Slices ![232, 0] S3712x64
  inb_S3x3x64x64_S1x1x64x64_1_2_0_0 : ∀ a, (![1, 2, 0, 0] : Fin 4 → Nat) a + S1x1x64x64.size a ≤ S3x3x64x64.size a
  slices_S7656x64_o464_0_S3712x64 : S7656x64.Slices ![464, 0] S3712x64
  inb_S3x3x64x64_S1x1x64x64_2_0_0_0 : ∀ a, (![2, 0, 0, 0] : Fin 4 → Nat) a + S1x1x64x64.size a ≤ S3x3x64x64.size a
  slices_S7655x64_o464_0_S3712x64 : S7655x64.Slices ![464, 0] S3712x64
  inb_S3x3x64x64_S1x1x64x64_2_1_0_0 : ∀ a, (![2, 1, 0, 0] : Fin 4 → Nat) a + S1x1x64x64.size a ≤ S3x3x64x64.size a
  slices_S7654x64_o464_0_S3712x64 : S7654x64.Slices ![464, 0] S3712x64
  inb_S3x3x64x64_S1x1x64x64_2_2_0_0 : ∀ a, (![2, 2, 0, 0] : Fin 4 → Nat) a + S1x1x64x64.size a ≤ S3x3x64x64.size a
  shapeCasts_S16x224x224x64_S100352x512 : S16x224x224x64.ShapeCasts S100352x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S1x1024x512 : S1024x512.ShapeCasts S1x1024x512
  reduces_S1x1024x512_S1 : S1x1024x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S16x224x224x64_S16x224x112x2x64 : S16x224x224x64.ShapeCasts S16x224x112x2x64
  inb_S1x16x112x2x64_S1x16x112x2x64_0_0_0_0_0 : ∀ a, (![0, 0, 0, 0, 0] : Fin 5 → Nat) a + S1x16x112x2x64.size a ≤ S1x16x112x2x64.size a
  h_S1x16x112x2x64 : 0 < S1x16x112x2x64.numel
  shapeCasts_S1x16x112x2x64_S16x112x2x64 : S1x16x112x2x64.ShapeCasts S16x112x2x64
  reduces_S16x112x2x64_S16x112x64 : S16x112x2x64.Reduces [2] S16x112x64
  shapeCasts_S16x112x64_S8x2x112x64 : S16x112x64.ShapeCasts S8x2x112x64
  reduces_S8x2x112x64_S8x112x64 : S8x2x112x64.Reduces [1] S8x112x64
  inb_S1x8x112x64_S1x8x112x64_0_0_0_0 : ∀ a, (![0, 0, 0, 0] : Fin 4 → Nat) a + S1x8x112x64.size a ≤ S1x8x112x64.size a
  h_S1x8x112x64 : 0 < S1x8x112x64.numel
  shapeCasts_S1x8x112x64_S8x112x64 : S1x8x112x64.ShapeCasts S8x112x64
  shapeCasts_S8x112x64_S1x8x112x64 : S8x112x64.ShapeCasts S1x8x112x64
  pads_S16x112x112x64_S16x128x120x64_000_1150_170_000 : S16x112x112x64.Pads (![0, 1, 1, 0] : Fin 4 → Nat) ![0, 15, 7, 0] ![0, 0, 0, 0] S16x128x120x64
  inb_S1x16x120x64_S1x16x120x64_0_0_0_0 : ∀ a, (![0, 0, 0, 0] : Fin 4 → Nat) a + S1x16x120x64.size a ≤ S1x16x120x64.size a
  h_S1x16x120x64 : 0 < S1x16x120x64.numel
  shapeCasts_S1x16x120x64_S16x120x64 : S1x16x120x64.ShapeCasts S16x120x64
  shapeCasts_S16x120x64_S1920x64 : S16x120x64.ShapeCasts S1920x64
  concatenates_S1920x64_S1920x64_S120x64_S3960x64_d0 : Shape.Concatenates [S1920x64, S1920x64, S120x64] S3960x64 0
  slices_S3960x64_o1_0_S3959x64 : S3960x64.Slices ![1, 0] S3959x64
  slices_S3960x64_o2_0_S3958x64 : S3960x64.Slices ![2, 0] S3958x64
  slices_S3960x64_o0_0_S1920x64 : S3960x64.Slices ![0, 0] S1920x64
  inb_S3x3x64x128_S1x1x64x128_0_0_0_0 : ∀ a, (![0, 0, 0, 0] : Fin 4 → Nat) a + S1x1x64x128.size a ≤ S3x3x64x128.size a
  h_S1x1x64x128 : 0 < S1x1x64x128.numel
  shapeCasts_S1x1x64x128_S64x128 : S1x1x64x128.ShapeCasts S64x128
  slices_S3959x64_o0_0_S1920x64 : S3959x64.Slices ![0, 0] S1920x64
  inb_S3x3x64x128_S1x1x64x128_0_1_0_0 : ∀ a, (![0, 1, 0, 0] : Fin 4 → Nat) a + S1x1x64x128.size a ≤ S3x3x64x128.size a
  slices_S3958x64_o0_0_S1920x64 : S3958x64.Slices ![0, 0] S1920x64
  inb_S3x3x64x128_S1x1x64x128_0_2_0_0 : ∀ a, (![0, 2, 0, 0] : Fin 4 → Nat) a + S1x1x64x128.size a ≤ S3x3x64x128.size a
  slices_S3960x64_o120_0_S1920x64 : S3960x64.Slices ![120, 0] S1920x64
  inb_S3x3x64x128_S1x1x64x128_1_0_0_0 : ∀ a, (![1, 0, 0, 0] : Fin 4 → Nat) a + S1x1x64x128.size a ≤ S3x3x64x128.size a
  slices_S3959x64_o120_0_S1920x64 : S3959x64.Slices ![120, 0] S1920x64
  inb_S3x3x64x128_S1x1x64x128_1_1_0_0 : ∀ a, (![1, 1, 0, 0] : Fin 4 → Nat) a + S1x1x64x128.size a ≤ S3x3x64x128.size a
  slices_S3958x64_o120_0_S1920x64 : S3958x64.Slices ![120, 0] S1920x64
  inb_S3x3x64x128_S1x1x64x128_1_2_0_0 : ∀ a, (![1, 2, 0, 0] : Fin 4 → Nat) a + S1x1x64x128.size a ≤ S3x3x64x128.size a
  slices_S3960x64_o240_0_S1920x64 : S3960x64.Slices ![240, 0] S1920x64
  inb_S3x3x64x128_S1x1x64x128_2_0_0_0 : ∀ a, (![2, 0, 0, 0] : Fin 4 → Nat) a + S1x1x64x128.size a ≤ S3x3x64x128.size a
  slices_S3959x64_o240_0_S1920x64 : S3959x64.Slices ![240, 0] S1920x64
  inb_S3x3x64x128_S1x1x64x128_2_1_0_0 : ∀ a, (![2, 1, 0, 0] : Fin 4 → Nat) a + S1x1x64x128.size a ≤ S3x3x64x128.size a
  slices_S3958x64_o240_0_S1920x64 : S3958x64.Slices ![240, 0] S1920x64
  inb_S3x3x64x128_S1x1x64x128_2_2_0_0 : ∀ a, (![2, 2, 0, 0] : Fin 4 → Nat) a + S1x1x64x128.size a ≤ S3x3x64x128.size a
  inb_S1x128_S1x128_0_0 : ∀ a, (![0, 0] : Fin 2 → Nat) a + S1x128.size a ≤ S1x128.size a
  h_S1x128 : 0 < S1x128.numel
  broadcasts_S1x128_S1920x128 : S1x128.Broadcasts S1920x128
  shapeCasts_S1920x128_S16x120x128 : S1920x128.ShapeCasts S16x120x128
  slices_S16x120x128_o0_0_0_S16x112x128 : S16x120x128.Slices ![0, 0, 0] S16x112x128
  inb_S1x16x112x128_S1x16x112x128_0_0_0_0 : ∀ a, (![0, 0, 0, 0] : Fin 4 → Nat) a + S1x16x112x128.size a ≤ S1x16x112x128.size a
  h_S1x16x112x128 : 0 < S1x16x112x128.numel
  shapeCasts_S1x16x112x128_S16x112x128 : S1x16x112x128.ShapeCasts S16x112x128
  shapeCasts_S16x112x128_S1x16x112x128 : S16x112x128.ShapeCasts S1x16x112x128
  pads_S16x112x112x128_S16x128x120x128_000_1150_170_000 : S16x112x112x128.Pads (![0, 1, 1, 0] : Fin 4 → Nat) ![0, 15, 7, 0] ![0, 0, 0, 0] S16x128x120x128
  inb_S1x16x120x128_S1x16x120x128_0_0_0_0 : ∀ a, (![0, 0, 0, 0] : Fin 4 → Nat) a + S1x16x120x128.size a ≤ S1x16x120x128.size a
  h_S1x16x120x128 : 0 < S1x16x120x128.numel
  shapeCasts_S1x16x120x128_S16x120x128 : S1x16x120x128.ShapeCasts S16x120x128
  shapeCasts_S16x120x128_S1920x128 : S16x120x128.ShapeCasts S1920x128
  concatenates_S1920x128_S1920x128_S120x128_S3960x128_d0 : Shape.Concatenates [S1920x128, S1920x128, S120x128] S3960x128 0
  slices_S3960x128_o1_0_S3959x128 : S3960x128.Slices ![1, 0] S3959x128
  slices_S3960x128_o2_0_S3958x128 : S3960x128.Slices ![2, 0] S3958x128
  slices_S3960x128_o0_0_S1920x128 : S3960x128.Slices ![0, 0] S1920x128
  inb_S3x3x128x128_S1x1x128x128_0_0_0_0 : ∀ a, (![0, 0, 0, 0] : Fin 4 → Nat) a + S1x1x128x128.size a ≤ S3x3x128x128.size a
  h_S1x1x128x128 : 0 < S1x1x128x128.numel
  shapeCasts_S1x1x128x128_S128x128 : S1x1x128x128.ShapeCasts S128x128
  slices_S3959x128_o0_0_S1920x128 : S3959x128.Slices ![0, 0] S1920x128
  inb_S3x3x128x128_S1x1x128x128_0_1_0_0 : ∀ a, (![0, 1, 0, 0] : Fin 4 → Nat) a + S1x1x128x128.size a ≤ S3x3x128x128.size a
  slices_S3958x128_o0_0_S1920x128 : S3958x128.Slices ![0, 0] S1920x128
  inb_S3x3x128x128_S1x1x128x128_0_2_0_0 : ∀ a, (![0, 2, 0, 0] : Fin 4 → Nat) a + S1x1x128x128.size a ≤ S3x3x128x128.size a
  slices_S3960x128_o120_0_S1920x128 : S3960x128.Slices ![120, 0] S1920x128
  inb_S3x3x128x128_S1x1x128x128_1_0_0_0 : ∀ a, (![1, 0, 0, 0] : Fin 4 → Nat) a + S1x1x128x128.size a ≤ S3x3x128x128.size a
  slices_S3959x128_o120_0_S1920x128 : S3959x128.Slices ![120, 0] S1920x128
  inb_S3x3x128x128_S1x1x128x128_1_1_0_0 : ∀ a, (![1, 1, 0, 0] : Fin 4 → Nat) a + S1x1x128x128.size a ≤ S3x3x128x128.size a
  slices_S3958x128_o120_0_S1920x128 : S3958x128.Slices ![120, 0] S1920x128
  inb_S3x3x128x128_S1x1x128x128_1_2_0_0 : ∀ a, (![1, 2, 0, 0] : Fin 4 → Nat) a + S1x1x128x128.size a ≤ S3x3x128x128.size a
  slices_S3960x128_o240_0_S1920x128 : S3960x128.Slices ![240, 0] S1920x128
  inb_S3x3x128x128_S1x1x128x128_2_0_0_0 : ∀ a, (![2, 0, 0, 0] : Fin 4 → Nat) a + S1x1x128x128.size a ≤ S3x3x128x128.size a
  slices_S3959x128_o240_0_S1920x128 : S3959x128.Slices ![240, 0] S1920x128
  inb_S3x3x128x128_S1x1x128x128_2_1_0_0 : ∀ a, (![2, 1, 0, 0] : Fin 4 → Nat) a + S1x1x128x128.size a ≤ S3x3x128x128.size a
  slices_S3958x128_o240_0_S1920x128 : S3958x128.Slices ![240, 0] S1920x128
  inb_S3x3x128x128_S1x1x128x128_2_2_0_0 : ∀ a, (![2, 2, 0, 0] : Fin 4 → Nat) a + S1x1x128x128.size a ≤ S3x3x128x128.size a
  shapeCasts_S16x112x112x128_S50176x512 : S16x112x112x128.ShapeCasts S50176x512
  shapeCasts_S16x112x112x128_S16x112x56x2x128 : S16x112x112x128.ShapeCasts S16x112x56x2x128
  inb_S1x16x56x2x128_S1x16x56x2x128_0_0_0_0_0 : ∀ a, (![0, 0, 0, 0, 0] : Fin 5 → Nat) a + S1x16x56x2x128.size a ≤ S1x16x56x2x128.size a
  h_S1x16x56x2x128 : 0 < S1x16x56x2x128.numel
  shapeCasts_S1x16x56x2x128_S16x56x2x128 : S1x16x56x2x128.ShapeCasts S16x56x2x128
  reduces_S16x56x2x128_S16x56x128 : S16x56x2x128.Reduces [2] S16x56x128
  shapeCasts_S16x56x128_S8x2x56x128 : S16x56x128.ShapeCasts S8x2x56x128
  reduces_S8x2x56x128_S8x56x128 : S8x2x56x128.Reduces [1] S8x56x128
  inb_S1x8x56x128_S1x8x56x128_0_0_0_0 : ∀ a, (![0, 0, 0, 0] : Fin 4 → Nat) a + S1x8x56x128.size a ≤ S1x8x56x128.size a
  h_S1x8x56x128 : 0 < S1x8x56x128.numel
  shapeCasts_S1x8x56x128_S8x56x128 : S1x8x56x128.ShapeCasts S8x56x128
  shapeCasts_S8x56x128_S1x8x56x128 : S8x56x128.ShapeCasts S1x8x56x128
  pads_S16x56x56x128_S16x70x64x128_000_1130_170_000 : S16x56x56x128.Pads (![0, 1, 1, 0] : Fin 4 → Nat) ![0, 13, 7, 0] ![0, 0, 0, 0] S16x70x64x128
  inb_S1x14x64x128_S1x14x64x128_0_0_0_0 : ∀ a, (![0, 0, 0, 0] : Fin 4 → Nat) a + S1x14x64x128.size a ≤ S1x14x64x128.size a
  h_S1x14x64x128 : 0 < S1x14x64x128.numel
  shapeCasts_S1x14x64x128_S14x64x128 : S1x14x64x128.ShapeCasts S14x64x128
  shapeCasts_S14x64x128_S896x128 : S14x64x128.ShapeCasts S896x128
  concatenates_S896x128_S896x128_S64x128_S1856x128_d0 : Shape.Concatenates [S896x128, S896x128, S64x128] S1856x128 0
  slices_S1856x128_o1_0_S1855x128 : S1856x128.Slices ![1, 0] S1855x128
  slices_S1856x128_o2_0_S1854x128 : S1856x128.Slices ![2, 0] S1854x128
  slices_S1856x128_o0_0_S896x128 : S1856x128.Slices ![0, 0] S896x128
  inb_S3x3x128x256_S1x1x128x256_0_0_0_0 : ∀ a, (![0, 0, 0, 0] : Fin 4 → Nat) a + S1x1x128x256.size a ≤ S3x3x128x256.size a
  h_S1x1x128x256 : 0 < S1x1x128x256.numel
  shapeCasts_S1x1x128x256_S128x256 : S1x1x128x256.ShapeCasts S128x256
  slices_S1855x128_o0_0_S896x128 : S1855x128.Slices ![0, 0] S896x128
  inb_S3x3x128x256_S1x1x128x256_0_1_0_0 : ∀ a, (![0, 1, 0, 0] : Fin 4 → Nat) a + S1x1x128x256.size a ≤ S3x3x128x256.size a
  slices_S1854x128_o0_0_S896x128 : S1854x128.Slices ![0, 0] S896x128
  inb_S3x3x128x256_S1x1x128x256_0_2_0_0 : ∀ a, (![0, 2, 0, 0] : Fin 4 → Nat) a + S1x1x128x256.size a ≤ S3x3x128x256.size a
  slices_S1856x128_o64_0_S896x128 : S1856x128.Slices ![64, 0] S896x128
  inb_S3x3x128x256_S1x1x128x256_1_0_0_0 : ∀ a, (![1, 0, 0, 0] : Fin 4 → Nat) a + S1x1x128x256.size a ≤ S3x3x128x256.size a
  slices_S1855x128_o64_0_S896x128 : S1855x128.Slices ![64, 0] S896x128
  inb_S3x3x128x256_S1x1x128x256_1_1_0_0 : ∀ a, (![1, 1, 0, 0] : Fin 4 → Nat) a + S1x1x128x256.size a ≤ S3x3x128x256.size a
  slices_S1854x128_o64_0_S896x128 : S1854x128.Slices ![64, 0] S896x128
  inb_S3x3x128x256_S1x1x128x256_1_2_0_0 : ∀ a, (![1, 2, 0, 0] : Fin 4 → Nat) a + S1x1x128x256.size a ≤ S3x3x128x256.size a
  slices_S1856x128_o128_0_S896x128 : S1856x128.Slices ![128, 0] S896x128
  inb_S3x3x128x256_S1x1x128x256_2_0_0_0 : ∀ a, (![2, 0, 0, 0] : Fin 4 → Nat) a + S1x1x128x256.size a ≤ S3x3x128x256.size a
  slices_S1855x128_o128_0_S896x128 : S1855x128.Slices ![128, 0] S896x128
  inb_S3x3x128x256_S1x1x128x256_2_1_0_0 : ∀ a, (![2, 1, 0, 0] : Fin 4 → Nat) a + S1x1x128x256.size a ≤ S3x3x128x256.size a
  slices_S1854x128_o128_0_S896x128 : S1854x128.Slices ![128, 0] S896x128
  inb_S3x3x128x256_S1x1x128x256_2_2_0_0 : ∀ a, (![2, 2, 0, 0] : Fin 4 → Nat) a + S1x1x128x256.size a ≤ S3x3x128x256.size a
  inb_S1x256_S1x256_0_0 : ∀ a, (![0, 0] : Fin 2 → Nat) a + S1x256.size a ≤ S1x256.size a
  h_S1x256 : 0 < S1x256.numel
  broadcasts_S1x256_S896x256 : S1x256.Broadcasts S896x256
  shapeCasts_S896x256_S14x64x256 : S896x256.ShapeCasts S14x64x256
  slices_S14x64x256_o0_0_0_S14x56x256 : S14x64x256.Slices ![0, 0, 0] S14x56x256
  inb_S1x14x56x256_S1x14x56x256_0_0_0_0 : ∀ a, (![0, 0, 0, 0] : Fin 4 → Nat) a + S1x14x56x256.size a ≤ S1x14x56x256.size a
  h_S1x14x56x256 : 0 < S1x14x56x256.numel
  shapeCasts_S1x14x56x256_S14x56x256 : S1x14x56x256.ShapeCasts S14x56x256
  shapeCasts_S14x56x256_S1x14x56x256 : S14x56x256.ShapeCasts S1x14x56x256
  pads_S16x56x56x256_S16x70x64x256_000_1130_170_000 : S16x56x56x256.Pads (![0, 1, 1, 0] : Fin 4 → Nat) ![0, 13, 7, 0] ![0, 0, 0, 0] S16x70x64x256
  inb_S1x14x64x256_S1x14x64x256_0_0_0_0 : ∀ a, (![0, 0, 0, 0] : Fin 4 → Nat) a + S1x14x64x256.size a ≤ S1x14x64x256.size a
  h_S1x14x64x256 : 0 < S1x14x64x256.numel
  shapeCasts_S1x14x64x256_S14x64x256 : S1x14x64x256.ShapeCasts S14x64x256
  shapeCasts_S14x64x256_S896x256 : S14x64x256.ShapeCasts S896x256
  concatenates_S896x256_S896x256_S64x256_S1856x256_d0 : Shape.Concatenates [S896x256, S896x256, S64x256] S1856x256 0
  slices_S1856x256_o1_0_S1855x256 : S1856x256.Slices ![1, 0] S1855x256
  slices_S1856x256_o2_0_S1854x256 : S1856x256.Slices ![2, 0] S1854x256
  slices_S1856x256_o0_0_S896x256 : S1856x256.Slices ![0, 0] S896x256
  inb_S3x3x256x256_S1x1x256x256_0_0_0_0 : ∀ a, (![0, 0, 0, 0] : Fin 4 → Nat) a + S1x1x256x256.size a ≤ S3x3x256x256.size a
  h_S1x1x256x256 : 0 < S1x1x256x256.numel
  shapeCasts_S1x1x256x256_S256x256 : S1x1x256x256.ShapeCasts S256x256
  slices_S1855x256_o0_0_S896x256 : S1855x256.Slices ![0, 0] S896x256
  inb_S3x3x256x256_S1x1x256x256_0_1_0_0 : ∀ a, (![0, 1, 0, 0] : Fin 4 → Nat) a + S1x1x256x256.size a ≤ S3x3x256x256.size a
  slices_S1854x256_o0_0_S896x256 : S1854x256.Slices ![0, 0] S896x256
  inb_S3x3x256x256_S1x1x256x256_0_2_0_0 : ∀ a, (![0, 2, 0, 0] : Fin 4 → Nat) a + S1x1x256x256.size a ≤ S3x3x256x256.size a
  slices_S1856x256_o64_0_S896x256 : S1856x256.Slices ![64, 0] S896x256
  inb_S3x3x256x256_S1x1x256x256_1_0_0_0 : ∀ a, (![1, 0, 0, 0] : Fin 4 → Nat) a + S1x1x256x256.size a ≤ S3x3x256x256.size a
  slices_S1855x256_o64_0_S896x256 : S1855x256.Slices ![64, 0] S896x256
  inb_S3x3x256x256_S1x1x256x256_1_1_0_0 : ∀ a, (![1, 1, 0, 0] : Fin 4 → Nat) a + S1x1x256x256.size a ≤ S3x3x256x256.size a
  slices_S1854x256_o64_0_S896x256 : S1854x256.Slices ![64, 0] S896x256
  inb_S3x3x256x256_S1x1x256x256_1_2_0_0 : ∀ a, (![1, 2, 0, 0] : Fin 4 → Nat) a + S1x1x256x256.size a ≤ S3x3x256x256.size a
  slices_S1856x256_o128_0_S896x256 : S1856x256.Slices ![128, 0] S896x256
  inb_S3x3x256x256_S1x1x256x256_2_0_0_0 : ∀ a, (![2, 0, 0, 0] : Fin 4 → Nat) a + S1x1x256x256.size a ≤ S3x3x256x256.size a
  slices_S1855x256_o128_0_S896x256 : S1855x256.Slices ![128, 0] S896x256
  inb_S3x3x256x256_S1x1x256x256_2_1_0_0 : ∀ a, (![2, 1, 0, 0] : Fin 4 → Nat) a + S1x1x256x256.size a ≤ S3x3x256x256.size a
  slices_S1854x256_o128_0_S896x256 : S1854x256.Slices ![128, 0] S896x256
  inb_S3x3x256x256_S1x1x256x256_2_2_0_0 : ∀ a, (![2, 2, 0, 0] : Fin 4 → Nat) a + S1x1x256x256.size a ≤ S3x3x256x256.size a
  shapeCasts_S16x56x56x256_S25088x512 : S16x56x56x256.ShapeCasts S25088x512
  inb_S896x512_S896x512_0_0 : ∀ a, (![0, 0] : Fin 2 → Nat) a + S896x512.size a ≤ S896x512.size a
  h_S896x512 : 0 < S896x512.numel
  shapeCasts_S896x512_S896x512 : S896x512.ShapeCasts S896x512
  shapeCasts_S896x512_S1x896x512 : S896x512.ShapeCasts S1x896x512
  reduces_S1x896x512_S1 : S1x896x512.Reduces [1, 2] S1
  shapeCasts_S16x56x56x256_S16x56x28x2x256 : S16x56x56x256.ShapeCasts S16x56x28x2x256
  inb_S1x14x28x2x256_S1x14x28x2x256_0_0_0_0_0 : ∀ a, (![0, 0, 0, 0, 0] : Fin 5 → Nat) a + S1x14x28x2x256.size a ≤ S1x14x28x2x256.size a
  h_S1x14x28x2x256 : 0 < S1x14x28x2x256.numel
  shapeCasts_S1x14x28x2x256_S14x28x2x256 : S1x14x28x2x256.ShapeCasts S14x28x2x256
  reduces_S14x28x2x256_S14x28x256 : S14x28x2x256.Reduces [2] S14x28x256
  shapeCasts_S14x28x256_S7x2x28x256 : S14x28x256.ShapeCasts S7x2x28x256
  reduces_S7x2x28x256_S7x28x256 : S7x2x28x256.Reduces [1] S7x28x256
  inb_S1x7x28x256_S1x7x28x256_0_0_0_0 : ∀ a, (![0, 0, 0, 0] : Fin 4 → Nat) a + S1x7x28x256.size a ≤ S1x7x28x256.size a
  h_S1x7x28x256 : 0 < S1x7x28x256.numel
  shapeCasts_S1x7x28x256_S7x28x256 : S1x7x28x256.ShapeCasts S7x28x256
  shapeCasts_S7x28x256_S1x7x28x256 : S7x28x256.ShapeCasts S1x7x28x256
  pads_S16x28x28x256_S16x35x32x256_000_160_130_000 : S16x28x28x256.Pads (![0, 1, 1, 0] : Fin 4 → Nat) ![0, 6, 3, 0] ![0, 0, 0, 0] S16x35x32x256
  inb_S1x7x32x256_S1x7x32x256_0_0_0_0 : ∀ a, (![0, 0, 0, 0] : Fin 4 → Nat) a + S1x7x32x256.size a ≤ S1x7x32x256.size a
  h_S1x7x32x256 : 0 < S1x7x32x256.numel
  shapeCasts_S1x7x32x256_S7x32x256 : S1x7x32x256.ShapeCasts S7x32x256
  shapeCasts_S7x32x256_S224x256 : S7x32x256.ShapeCasts S224x256
  concatenates_S224x256_S224x256_S32x256_S480x256_d0 : Shape.Concatenates [S224x256, S224x256, S32x256] S480x256 0
  slices_S480x256_o1_0_S479x256 : S480x256.Slices ![1, 0] S479x256
  slices_S480x256_o2_0_S478x256 : S480x256.Slices ![2, 0] S478x256
  slices_S480x256_o0_0_S224x256 : S480x256.Slices ![0, 0] S224x256
  inb_S3x3x256x512_S1x1x256x512_0_0_0_0 : ∀ a, (![0, 0, 0, 0] : Fin 4 → Nat) a + S1x1x256x512.size a ≤ S3x3x256x512.size a
  h_S1x1x256x512 : 0 < S1x1x256x512.numel
  shapeCasts_S1x1x256x512_S256x512 : S1x1x256x512.ShapeCasts S256x512
  slices_S479x256_o0_0_S224x256 : S479x256.Slices ![0, 0] S224x256
  inb_S3x3x256x512_S1x1x256x512_0_1_0_0 : ∀ a, (![0, 1, 0, 0] : Fin 4 → Nat) a + S1x1x256x512.size a ≤ S3x3x256x512.size a
  slices_S478x256_o0_0_S224x256 : S478x256.Slices ![0, 0] S224x256
  inb_S3x3x256x512_S1x1x256x512_0_2_0_0 : ∀ a, (![0, 2, 0, 0] : Fin 4 → Nat) a + S1x1x256x512.size a ≤ S3x3x256x512.size a
  slices_S480x256_o32_0_S224x256 : S480x256.Slices ![32, 0] S224x256
  inb_S3x3x256x512_S1x1x256x512_1_0_0_0 : ∀ a, (![1, 0, 0, 0] : Fin 4 → Nat) a + S1x1x256x512.size a ≤ S3x3x256x512.size a
  slices_S479x256_o32_0_S224x256 : S479x256.Slices ![32, 0] S224x256
  inb_S3x3x256x512_S1x1x256x512_1_1_0_0 : ∀ a, (![1, 1, 0, 0] : Fin 4 → Nat) a + S1x1x256x512.size a ≤ S3x3x256x512.size a
  slices_S478x256_o32_0_S224x256 : S478x256.Slices ![32, 0] S224x256
  inb_S3x3x256x512_S1x1x256x512_1_2_0_0 : ∀ a, (![1, 2, 0, 0] : Fin 4 → Nat) a + S1x1x256x512.size a ≤ S3x3x256x512.size a
  slices_S480x256_o64_0_S224x256 : S480x256.Slices ![64, 0] S224x256
  inb_S3x3x256x512_S1x1x256x512_2_0_0_0 : ∀ a, (![2, 0, 0, 0] : Fin 4 → Nat) a + S1x1x256x512.size a ≤ S3x3x256x512.size a
  slices_S479x256_o64_0_S224x256 : S479x256.Slices ![64, 0] S224x256
  inb_S3x3x256x512_S1x1x256x512_2_1_0_0 : ∀ a, (![2, 1, 0, 0] : Fin 4 → Nat) a + S1x1x256x512.size a ≤ S3x3x256x512.size a
  slices_S478x256_o64_0_S224x256 : S478x256.Slices ![64, 0] S224x256
  inb_S3x3x256x512_S1x1x256x512_2_2_0_0 : ∀ a, (![2, 2, 0, 0] : Fin 4 → Nat) a + S1x1x256x512.size a ≤ S3x3x256x512.size a
  inb_S1x512_S1x512_0_0 : ∀ a, (![0, 0] : Fin 2 → Nat) a + S1x512.size a ≤ S1x512.size a
  h_S1x512 : 0 < S1x512.numel
  broadcasts_S1x512_S224x512 : S1x512.Broadcasts S224x512
  shapeCasts_S224x512_S7x32x512 : S224x512.ShapeCasts S7x32x512
  slices_S7x32x512_o0_0_0_S7x28x512 : S7x32x512.Slices ![0, 0, 0] S7x28x512
  inb_S1x7x28x512_S1x7x28x512_0_0_0_0 : ∀ a, (![0, 0, 0, 0] : Fin 4 → Nat) a + S1x7x28x512.size a ≤ S1x7x28x512.size a
  h_S1x7x28x512 : 0 < S1x7x28x512.numel
  shapeCasts_S1x7x28x512_S7x28x512 : S1x7x28x512.ShapeCasts S7x28x512
  shapeCasts_S7x28x512_S1x7x28x512 : S7x28x512.ShapeCasts S1x7x28x512
  pads_S16x28x28x512_S16x35x32x512_000_160_130_000 : S16x28x28x512.Pads (![0, 1, 1, 0] : Fin 4 → Nat) ![0, 6, 3, 0] ![0, 0, 0, 0] S16x35x32x512
  inb_S1x7x32x512_S1x7x32x512_0_0_0_0 : ∀ a, (![0, 0, 0, 0] : Fin 4 → Nat) a + S1x7x32x512.size a ≤ S1x7x32x512.size a
  h_S1x7x32x512 : 0 < S1x7x32x512.numel
  shapeCasts_S1x7x32x512_S7x32x512 : S1x7x32x512.ShapeCasts S7x32x512
  shapeCasts_S7x32x512_S224x512 : S7x32x512.ShapeCasts S224x512
  concatenates_S224x512_S224x512_S32x512_S480x512_d0 : Shape.Concatenates [S224x512, S224x512, S32x512] S480x512 0
  slices_S480x512_o1_0_S479x512 : S480x512.Slices ![1, 0] S479x512
  slices_S480x512_o2_0_S478x512 : S480x512.Slices ![2, 0] S478x512
  slices_S480x512_o0_0_S224x512 : S480x512.Slices ![0, 0] S224x512
  inb_S3x3x512x512_S1x1x512x512_0_0_0_0 : ∀ a, (![0, 0, 0, 0] : Fin 4 → Nat) a + S1x1x512x512.size a ≤ S3x3x512x512.size a
  h_S1x1x512x512 : 0 < S1x1x512x512.numel
  shapeCasts_S1x1x512x512_S512x512 : S1x1x512x512.ShapeCasts S512x512
  slices_S479x512_o0_0_S224x512 : S479x512.Slices ![0, 0] S224x512
  inb_S3x3x512x512_S1x1x512x512_0_1_0_0 : ∀ a, (![0, 1, 0, 0] : Fin 4 → Nat) a + S1x1x512x512.size a ≤ S3x3x512x512.size a
  slices_S478x512_o0_0_S224x512 : S478x512.Slices ![0, 0] S224x512
  inb_S3x3x512x512_S1x1x512x512_0_2_0_0 : ∀ a, (![0, 2, 0, 0] : Fin 4 → Nat) a + S1x1x512x512.size a ≤ S3x3x512x512.size a
  slices_S480x512_o32_0_S224x512 : S480x512.Slices ![32, 0] S224x512
  inb_S3x3x512x512_S1x1x512x512_1_0_0_0 : ∀ a, (![1, 0, 0, 0] : Fin 4 → Nat) a + S1x1x512x512.size a ≤ S3x3x512x512.size a
  slices_S479x512_o32_0_S224x512 : S479x512.Slices ![32, 0] S224x512
  inb_S3x3x512x512_S1x1x512x512_1_1_0_0 : ∀ a, (![1, 1, 0, 0] : Fin 4 → Nat) a + S1x1x512x512.size a ≤ S3x3x512x512.size a
  slices_S478x512_o32_0_S224x512 : S478x512.Slices ![32, 0] S224x512
  inb_S3x3x512x512_S1x1x512x512_1_2_0_0 : ∀ a, (![1, 2, 0, 0] : Fin 4 → Nat) a + S1x1x512x512.size a ≤ S3x3x512x512.size a
  slices_S480x512_o64_0_S224x512 : S480x512.Slices ![64, 0] S224x512
  inb_S3x3x512x512_S1x1x512x512_2_0_0_0 : ∀ a, (![2, 0, 0, 0] : Fin 4 → Nat) a + S1x1x512x512.size a ≤ S3x3x512x512.size a
  slices_S479x512_o64_0_S224x512 : S479x512.Slices ![64, 0] S224x512
  inb_S3x3x512x512_S1x1x512x512_2_1_0_0 : ∀ a, (![2, 1, 0, 0] : Fin 4 → Nat) a + S1x1x512x512.size a ≤ S3x3x512x512.size a
  slices_S478x512_o64_0_S224x512 : S478x512.Slices ![64, 0] S224x512
  inb_S3x3x512x512_S1x1x512x512_2_2_0_0 : ∀ a, (![2, 2, 0, 0] : Fin 4 → Nat) a + S1x1x512x512.size a ≤ S3x3x512x512.size a
  shapeCasts_S16x28x28x512_S12544x512 : S16x28x28x512.ShapeCasts S12544x512
  dot_S3712x3_S3x64_S3712x64_1_0_0_1_n_n_wf : DotDims.WF S3712x3 S3x64 S3712x64 [1] [0] [0] [1] [] []
  dot_S3712x64_S64x64_S3712x64_1_0_0_1_n_n_wf : DotDims.WF S3712x64 S64x64 S3712x64 [1] [0] [0] [1] [] []
  dot_S1920x64_S64x128_S1920x128_1_0_0_1_n_n_wf : DotDims.WF S1920x64 S64x128 S1920x128 [1] [0] [0] [1] [] []
  dot_S1920x128_S128x128_S1920x128_1_0_0_1_n_n_wf : DotDims.WF S1920x128 S128x128 S1920x128 [1] [0] [0] [1] [] []
  dot_S896x128_S128x256_S896x256_1_0_0_1_n_n_wf : DotDims.WF S896x128 S128x256 S896x256 [1] [0] [0] [1] [] []
  dot_S896x256_S256x256_S896x256_1_0_0_1_n_n_wf : DotDims.WF S896x256 S256x256 S896x256 [1] [0] [0] [1] [] []
  dot_S224x256_S256x512_S224x512_1_0_0_1_n_n_wf : DotDims.WF S224x256 S256x512 S224x512 [1] [0] [0] [1] [] []
  dot_S224x512_S512x512_S224x512_1_0_0_1_n_n_wf : DotDims.WF S224x512 S512x512 S224x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x232x3.size a ≤ S16x240x232x3.size a
  hwx0_0 : ∀ i : grid0.Coords, EltTy.bits .f32 = 32 ∨ (Rect.block (s := S16x240x232x3) S1x16x232x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x232x3.size a ≤ S16x240x232x3.size a
  hwx0_1 : ∀ i : grid0.Coords, EltTy.bits .f32 = 32 ∨ (Rect.block (s := S16x240x232x3) S1x16x232x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3x3x64.size a ≤ S3x3x3x64.size a
  hwx0_2 : ∀ i : grid0.Coords, EltTy.bits .f32 = 32 ∨ (Rect.block (s := S3x3x3x64) S3x3x3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x224x64.size a ≤ S16x224x224x64.size a
  hwx0_4 : ∀ i : grid0.Coords, EltTy.bits .f32 = 32 ∨ (Rect.block (s := S16x224x224x64) S1x16x224x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x232x3.size a ≤ S16x240x232x3.size a
  hwx1_0 : ∀ i : grid1.Coords, EltTy.bits .f32 = 32 ∨ (Rect.block (s := S16x240x232x3) S1x16x232x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x232x3.size a ≤ S16x240x232x3.size a
  hwx1_1 : ∀ i : grid1.Coords, EltTy.bits .f32 = 32 ∨ (Rect.block (s := S16x240x232x3) S1x16x232x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x3x3x64.size a ≤ S3x3x3x64.size a
  hwx1_2 : ∀ i : grid1.Coords, EltTy.bits .f32 = 32 ∨ (Rect.block (s := S3x3x3x64) S3x3x3x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x224x64.size a ≤ S16x224x224x64.size a
  hwx1_4 : ∀ i : grid1.Coords, EltTy.bits .f32 = 32 ∨ (Rect.block (s := S16x224x224x64) S1x16x224x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x232x64.size a ≤ S16x240x232x64.size a
  hwx2_0 : ∀ i : grid2.Coords, EltTy.bits .f32 = 32 ∨ (Rect.block (s := S16x240x232x64) S1x16x232x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x232x64.size a ≤ S16x240x232x64.size a
  hwx2_1 : ∀ i : grid2.Coords, EltTy.bits .f32 = 32 ∨ (Rect.block (s := S16x240x232x64) S1x16x232x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x3x64x64.size a ≤ S3x3x64x64.size a
  hwx2_2 : ∀ i : grid2.Coords, EltTy.bits .f32 = 32 ∨ (Rect.block (s := S3x3x64x64) S3x3x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x16x224x64.size a ≤ S16x224x224x64.size a
  hwx2_4 : ∀ i : grid2.Coords, EltTy.bits .f32 = 32 ∨ (Rect.block (s := S16x224x224x64) S1x16x224x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x232x64.size a ≤ S16x240x232x64.size a
  hwx3_0 : ∀ i : grid3.Coords, EltTy.bits .f32 = 32 ∨ (Rect.block (s := S16x240x232x64) S1x16x232x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x16x232x64.size a ≤ S16x240x232x64.size a
  hwx3_1 : ∀ i : grid3.Coords, EltTy.bits .f32 = 32 ∨ (Rect.block (s := S16x240x232x64) S1x16x232x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x3x64x64.size a ≤ S3x3x64x64.size a
  hwx3_2 : ∀ i : grid3.Coords, EltTy.bits .f32 = 32 ∨ (Rect.block (s := S3x3x64x64) S3x3x64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x16x224x64.size a ≤ S16x224x224x64.size a
  hwx3_4 : ∀ i : grid3.Coords, EltTy.bits .f32 = 32 ∨ (Rect.block (s := S16x224x224x64) S1x16x224x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S100352x512.size a
  hwx4_0 : ∀ i : grid4.Coords, EltTy.bits .f32 = 32 ∨ (Rect.block (s := S100352x512) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S100352x512.size a
  hwx4_1 : ∀ i : grid4.Coords, EltTy.bits .f32 = 32 ∨ (Rect.block (s := S100352x512) S1024x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x16x112x2x64.size a ≤ S16x224x112x2x64.size a
  hwx5_0 : ∀ i : grid5.Coords, EltTy.bits .f32 = 32 ∨ (Rect.block (s := S16x224x112x2x64) S1x16x112x2x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x8x112x64.size a ≤ S16x112x112x64.size a
  hwx5_1 : ∀ i : grid5.Coords, EltTy.bits .f32 = 32 ∨ (Rect.block (s := S16x112x112x64) S1x8x112x64.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x16x112x2x64.size a ≤ S16x224x112x2x64.size a
  hwx6_0 : ∀ i : grid6.Coords, EltTy.bits .f32 = 32 ∨ (Rect.block (s := S16x224x112x2x64) S1x16x112x2x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x8x112x64.size a ≤ S16x112x112x64.size a
  hwx6_1 : ∀ i : grid6.Coords, EltTy.bits .f32 = 32 ∨ (Rect.block (s := S16x112x112x64) S1x8x112x64.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x16x120x64.size a ≤ S16x128x120x64.size a
  hwx7_0 : ∀ i : grid7.Coords, EltTy.bits .f32 = 32 ∨ (Rect.block (s := S16x128x120x64) S1x16x120x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x16x120x64.size a ≤ S16x128x120x64.size a
  hwx7_1 : ∀ i : grid7.Coords, EltTy.bits .f32 = 32 ∨ (Rect.block (s := S16x128x120x64) S1x16x120x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S3x3x64x128.size a ≤ S3x3x64x128.size a
  hwx7_2 : ∀ i : grid7.Coords, EltTy.bits .f32 = 32 ∨ (Rect.block (s := S3x3x64x128) S3x3x64x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x16x112x128.size a ≤ S16x112x112x128.size a
  hwx7_4 : ∀ i : grid7.Coords, EltTy.bits .f32 = 32 ∨ (Rect.block (s := S16x112x112x128) S1x16x112x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x16x120x64.size a ≤ S16x128x120x64.size a
  hwx8_0 : ∀ i : grid8.Coords, EltTy.bits .f32 = 32 ∨ (Rect.block (s := S16x128x120x64) S1x16x120x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x16x120x64.size a ≤ S16x128x120x64.size a
  hwx8_1 : ∀ i : grid8.Coords, EltTy.bits .f32 = 32 ∨ (Rect.block (s := S16x128x120x64) S1x16x120x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S3x3x64x128.size a ≤ S3x3x64x128.size a
  hwx8_2 : ∀ i : grid8.Coords, EltTy.bits .f32 = 32 ∨ (Rect.block (s := S3x3x64x128) S3x3x64x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x16x112x128.size a ≤ S16x112x112x128.size a
  hwx8_4 : ∀ i : grid8.Coords, EltTy.bits .f32 = 32 ∨ (Rect.block (s := S16x112x112x128) S1x16x112x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x16x120x128.size a ≤ S16x128x120x128.size a
  hwx9_0 : ∀ i : grid9.Coords, EltTy.bits .f32 = 32 ∨ (Rect.block (s := S16x128x120x128) S1x16x120x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x16x120x128.size a ≤ S16x128x120x128.size a
  hwx9_1 : ∀ i : grid9.Coords, EltTy.bits .f32 = 32 ∨ (Rect.block (s := S16x128x120x128) S1x16x120x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S3x3x128x128.size a ≤ S3x3x128x128.size a
  hwx9_2 : ∀ i : grid9.Coords, EltTy.bits .f32 = 32 ∨ (Rect.block (s := S3x3x128x128) S3x3x128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x16x112x128.size a ≤ S16x112x112x128.size a
  hwx9_4 : ∀ i : grid9.Coords, EltTy.bits .f32 = 32 ∨ (Rect.block (s := S16x112x112x128) S1x16x112x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x16x120x128.size a ≤ S16x128x120x128.size a
  hwx10_0 : ∀ i : grid10.Coords, EltTy.bits .f32 = 32 ∨ (Rect.block (s := S16x128x120x128) S1x16x120x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x16x120x128.size a ≤ S16x128x120x128.size a
  hwx10_1 : ∀ i : grid10.Coords, EltTy.bits .f32 = 32 ∨ (Rect.block (s := S16x128x120x128) S1x16x120x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S3x3x128x128.size a ≤ S3x3x128x128.size a
  hwx10_2 : ∀ i : grid10.Coords, EltTy.bits .f32 = 32 ∨ (Rect.block (s := S3x3x128x128) S3x3x128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x16x112x128.size a ≤ S16x112x112x128.size a
  hwx10_4 : ∀ i : grid10.Coords, EltTy.bits .f32 = 32 ∨ (Rect.block (s := S16x112x112x128) S1x16x112x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x512.size a ≤ S50176x512.size a
  hwx11_0 : ∀ i : grid11.Coords, EltTy.bits .f32 = 32 ∨ (Rect.block (s := S50176x512) S1024x512.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x512.size a ≤ S50176x512.size a
  hwx11_1 : ∀ i : grid11.Coords, EltTy.bits .f32 = 32 ∨ (Rect.block (s := S50176x512) S1024x512.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x16x56x2x128.size a ≤ S16x112x56x2x128.size a
  hwx12_0 : ∀ i : grid12.Coords, EltTy.bits .f32 = 32 ∨ (Rect.block (s := S16x112x56x2x128) S1x16x56x2x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x8x56x128.size a ≤ S16x56x56x128.size a
  hwx12_1 : ∀ i : grid12.Coords, EltTy.bits .f32 = 32 ∨ (Rect.block (s := S16x56x56x128) S1x8x56x128.size (cc12_transform_1 i) (hinb12_1 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1x16x56x2x128.size a ≤ S16x112x56x2x128.size a
  hwx13_0 : ∀ i : grid13.Coords, EltTy.bits .f32 = 32 ∨ (Rect.block (s := S16x112x56x2x128) S1x16x56x2x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x8x56x128.size a ≤ S16x56x56x128.size a
  hwx13_1 : ∀ i : grid13.Coords, EltTy.bits .f32 = 32 ∨ (Rect.block (s := S16x56x56x128) S1x8x56x128.size (cc13_transform_1 i) (hinb13_1 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1x14x64x128.size a ≤ S16x70x64x128.size a
  hwx14_0 : ∀ i : grid14.Coords, EltTy.bits .f32 = 32 ∨ (Rect.block (s := S16x70x64x128) S1x14x64x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1x14x64x128.size a ≤ S16x70x64x128.size a
  hwx14_1 : ∀ i : grid14.Coords, EltTy.bits .f32 = 32 ∨ (Rect.block (s := S16x70x64x128) S1x14x64x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S3x3x128x256.size a ≤ S3x3x128x256.size a
  hwx14_2 : ∀ i : grid14.Coords, EltTy.bits .f32 = 32 ∨ (Rect.block (s := S3x3x128x256) S3x3x128x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1x14x56x256.size a ≤ S16x56x56x256.size a
  hwx14_4 : ∀ i : grid14.Coords, EltTy.bits .f32 = 32 ∨ (Rect.block (s := S16x56x56x256) S1x14x56x256.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x14x64x128.size a ≤ S16x70x64x128.size a
  hwx15_0 : ∀ i : grid15.Coords, EltTy.bits .f32 = 32 ∨ (Rect.block (s := S16x70x64x128) S1x14x64x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x14x64x128.size a ≤ S16x70x64x128.size a
  hwx15_1 : ∀ i : grid15.Coords, EltTy.bits .f32 = 32 ∨ (Rect.block (s := S16x70x64x128) S1x14x64x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S3x3x128x256.size a ≤ S3x3x128x256.size a
  hwx15_2 : ∀ i : grid15.Coords, EltTy.bits .f32 = 32 ∨ (Rect.block (s := S3x3x128x256) S3x3x128x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x256.size a ≤ S1x256.size a
  hwx15_3 : ∀ i : grid15.Coords, EltTy.bits .f32 = 32 ∨ (Rect.block (s := S1x256) S1x256.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1x14x56x256.size a ≤ S16x56x56x256.size a
  hwx15_4 : ∀ i : grid15.Coords, EltTy.bits .f32 = 32 ∨ (Rect.block (s := S16x56x56x256) S1x14x56x256.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x14x64x256.size a ≤ S16x70x64x256.size a
  hwx16_0 : ∀ i : grid16.Coords, EltTy.bits .f32 = 32 ∨ (Rect.block (s := S16x70x64x256) S1x14x64x256.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x14x64x256.size a ≤ S16x70x64x256.size a
  hwx16_1 : ∀ i : grid16.Coords, EltTy.bits .f32 = 32 ∨ (Rect.block (s := S16x70x64x256) S1x14x64x256.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S3x3x256x256.size a ≤ S3x3x256x256.size a
  hwx16_2 : ∀ i : grid16.Coords, EltTy.bits .f32 = 32 ∨ (Rect.block (s := S3x3x256x256) S3x3x256x256.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x256.size a ≤ S1x256.size a
  hwx16_3 : ∀ i : grid16.Coords, EltTy.bits .f32 = 32 ∨ (Rect.block (s := S1x256) S1x256.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S1x14x56x256.size a ≤ S16x56x56x256.size a
  hwx16_4 : ∀ i : grid16.Coords, EltTy.bits .f32 = 32 ∨ (Rect.block (s := S16x56x56x256) S1x14x56x256.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1x14x64x256.size a ≤ S16x70x64x256.size a
  hwx17_0 : ∀ i : grid17.Coords, EltTy.bits .f32 = 32 ∨ (Rect.block (s := S16x70x64x256) S1x14x64x256.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S1x14x64x256.size a ≤ S16x70x64x256.size a
  hwx17_1 : ∀ i : grid17.Coords, EltTy.bits .f32 = 32 ∨ (Rect.block (s := S16x70x64x256) S1x14x64x256.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S3x3x256x256.size a ≤ S3x3x256x256.size a
  hwx17_2 : ∀ i : grid17.Coords, EltTy.bits .f32 = 32 ∨ (Rect.block (s := S3x3x256x256) S3x3x256x256.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x256.size a ≤ S1x256.size a
  hwx17_3 : ∀ i : grid17.Coords, EltTy.bits .f32 = 32 ∨ (Rect.block (s := S1x256) S1x256.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S1x14x56x256.size a ≤ S16x56x56x256.size a
  hwx17_4 : ∀ i : grid17.Coords, EltTy.bits .f32 = 32 ∨ (Rect.block (s := S16x56x56x256) S1x14x56x256.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1x14x64x256.size a ≤ S16x70x64x256.size a
  hwx18_0 : ∀ i : grid18.Coords, EltTy.bits .f32 = 32 ∨ (Rect.block (s := S16x70x64x256) S1x14x64x256.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1x14x64x256.size a ≤ S16x70x64x256.size a
  hwx18_1 : ∀ i : grid18.Coords, EltTy.bits .f32 = 32 ∨ (Rect.block (s := S16x70x64x256) S1x14x64x256.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S3x3x256x256.size a ≤ S3x3x256x256.size a
  hwx18_2 : ∀ i : grid18.Coords, EltTy.bits .f32 = 32 ∨ (Rect.block (s := S3x3x256x256) S3x3x256x256.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x256.size a ≤ S1x256.size a
  hwx18_3 : ∀ i : grid18.Coords, EltTy.bits .f32 = 32 ∨ (Rect.block (s := S1x256) S1x256.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S1x14x56x256.size a ≤ S16x56x56x256.size a
  hwx18_4 : ∀ i : grid18.Coords, EltTy.bits .f32 = 32 ∨ (Rect.block (s := S16x56x56x256) S1x14x56x256.size (cc18_transform_4 i) (hinb18_4 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1x14x64x256.size a ≤ S16x70x64x256.size a
  hwx19_0 : ∀ i : grid19.Coords, EltTy.bits .f32 = 32 ∨ (Rect.block (s := S16x70x64x256) S1x14x64x256.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S1x14x64x256.size a ≤ S16x70x64x256.size a
  hwx19_1 : ∀ i : grid19.Coords, EltTy.bits .f32 = 32 ∨ (Rect.block (s := S16x70x64x256) S1x14x64x256.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S3x3x256x256.size a ≤ S3x3x256x256.size a
  hwx19_2 : ∀ i : grid19.Coords, EltTy.bits .f32 = 32 ∨ (Rect.block (s := S3x3x256x256) S3x3x256x256.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x256.size a ≤ S1x256.size a
  hwx19_3 : ∀ i : grid19.Coords, EltTy.bits .f32 = 32 ∨ (Rect.block (s := S1x256) S1x256.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S1x14x56x256.size a ≤ S16x56x56x256.size a
  hwx19_4 : ∀ i : grid19.Coords, EltTy.bits .f32 = 32 ∨ (Rect.block (s := S16x56x56x256) S1x14x56x256.size (cc19_transform_4 i) (hinb19_4 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S896x512.size a ≤ S25088x512.size a
  hwx20_0 : ∀ i : grid20.Coords, EltTy.bits .f32 = 32 ∨ (Rect.block (s := S25088x512) S896x512.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S896x512.size a ≤ S25088x512.size a
  hwx20_1 : ∀ i : grid20.Coords, EltTy.bits .f32 = 32 ∨ (Rect.block (s := S25088x512) S896x512.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x1.size a ≤ S1x1.size a
  hwx20_2 : ∀ i : grid20.Coords, EltTy.bits .f32 = 32 ∨ (Rect.block (s := S1x1) S1x1.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1x14x28x2x256.size a ≤ S16x56x28x2x256.size a
  hwx21_0 : ∀ i : grid21.Coords, EltTy.bits .f32 = 32 ∨ (Rect.block (s := S16x56x28x2x256) S1x14x28x2x256.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1x7x28x256.size a ≤ S16x28x28x256.size a
  hwx21_1 : ∀ i : grid21.Coords, EltTy.bits .f32 = 32 ∨ (Rect.block (s := S16x28x28x256) S1x7x28x256.size (cc21_transform_1 i) (hinb21_1 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1x14x28x2x256.size a ≤ S16x56x28x2x256.size a
  hwx22_0 : ∀ i : grid22.Coords, EltTy.bits .f32 = 32 ∨ (Rect.block (s := S16x56x28x2x256) S1x14x28x2x256.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S1x7x28x256.size a ≤ S16x28x28x256.size a
  hwx22_1 : ∀ i : grid22.Coords, EltTy.bits .f32 = 32 ∨ (Rect.block (s := S16x28x28x256) S1x7x28x256.size (cc22_transform_1 i) (hinb22_1 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S1x7x32x256.size a ≤ S16x35x32x256.size a
  hwx23_0 : ∀ i : grid23.Coords, EltTy.bits .f32 = 32 ∨ (Rect.block (s := S16x35x32x256) S1x7x32x256.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S1x7x32x256.size a ≤ S16x35x32x256.size a
  hwx23_1 : ∀ i : grid23.Coords, EltTy.bits .f32 = 32 ∨ (Rect.block (s := S16x35x32x256) S1x7x32x256.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S3x3x256x512.size a ≤ S3x3x256x512.size a
  hwx23_2 : ∀ i : grid23.Coords, EltTy.bits .f32 = 32 ∨ (Rect.block (s := S3x3x256x512) S3x3x256x512.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x512.size a ≤ S1x512.size a
  hwx23_3 : ∀ i : grid23.Coords, EltTy.bits .f32 = 32 ∨ (Rect.block (s := S1x512) S1x512.size (cc23_transform_3 i) (hinb23_3 i)).WholeWords (EltTy.packing .f32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S1x7x28x512.size a ≤ S16x28x28x512.size a
  hwx23_4 : ∀ i : grid23.Coords, EltTy.bits .f32 = 32 ∨ (Rect.block (s := S16x28x28x512) S1x7x28x512.size (cc23_transform_4 i) (hinb23_4 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1x7x32x256.size a ≤ S16x35x32x256.size a
  hwx24_0 : ∀ i : grid24.Coords, EltTy.bits .f32 = 32 ∨ (Rect.block (s := S16x35x32x256) S1x7x32x256.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S1x7x32x256.size a ≤ S16x35x32x256.size a
  hwx24_1 : ∀ i : grid24.Coords, EltTy.bits .f32 = 32 ∨ (Rect.block (s := S16x35x32x256) S1x7x32x256.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S3x3x256x512.size a ≤ S3x3x256x512.size a
  hwx24_2 : ∀ i : grid24.Coords, EltTy.bits .f32 = 32 ∨ (Rect.block (s := S3x3x256x512) S3x3x256x512.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S1x512.size a ≤ S1x512.size a
  hwx24_3 : ∀ i : grid24.Coords, EltTy.bits .f32 = 32 ∨ (Rect.block (s := S1x512) S1x512.size (cc24_transform_3 i) (hinb24_3 i)).WholeWords (EltTy.packing .f32)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S1x7x28x512.size a ≤ S16x28x28x512.size a
  hwx24_4 : ∀ i : grid24.Coords, EltTy.bits .f32 = 32 ∨ (Rect.block (s := S16x28x28x512) S1x7x28x512.size (cc24_transform_4 i) (hinb24_4 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S1x7x32x512.size a ≤ S16x35x32x512.size a
  hwx25_0 : ∀ i : grid25.Coords, EltTy.bits .f32 = 32 ∨ (Rect.block (s := S16x35x32x512) S1x7x32x512.size (cc25_transform_0 i) (hinb25_0 i)).WholeWords (EltTy.packing .f32)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S1x7x32x512.size a ≤ S16x35x32x512.size a
  hwx25_1 : ∀ i : grid25.Coords, EltTy.bits .f32 = 32 ∨ (Rect.block (s := S16x35x32x512) S1x7x32x512.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S3x3x512x512.size a ≤ S3x3x512x512.size a
  hwx25_2 : ∀ i : grid25.Coords, EltTy.bits .f32 = 32 ∨ (Rect.block (s := S3x3x512x512) S3x3x512x512.size (cc25_transform_2 i) (hinb25_2 i)).WholeWords (EltTy.packing .f32)
  hstage25_3 : ∀ j, (stage25_3 j).IsWhole
  nbuf25_3 : grid25.bufCount reads25_3 true = 1
  hreads25_3 : ∀ i i' : grid25.Coords, (∀ a, reads25_3 a = true → i a = i' a) → cc25_transform_3 i = cc25_transform_3 i'
  hinb25_3 : ∀ (i : grid25.Coords) a, (cc25_transform_3 i a + 1) * S1x512.size a ≤ S1x512.size a
  hwx25_3 : ∀ i : grid25.Coords, EltTy.bits .f32 = 32 ∨ (Rect.block (s := S1x512) S1x512.size (cc25_transform_3 i) (hinb25_3 i)).WholeWords (EltTy.packing .f32)
  hstage25_4 : ∀ j, (stage25_4 j).IsWhole
  nbuf25_4 : grid25.bufCount reads25_4 false = 2
  hreads25_4 : ∀ i i' : grid25.Coords, (∀ a, reads25_4 a = true → i a = i' a) → cc25_transform_4 i = cc25_transform_4 i'
  hinb25_4 : ∀ (i : grid25.Coords) a, (cc25_transform_4 i a + 1) * S1x7x28x512.size a ≤ S16x28x28x512.size a
  hwx25_4 : ∀ i : grid25.Coords, EltTy.bits .f32 = 32 ∨ (Rect.block (s := S16x28x28x512) S1x7x28x512.size (cc25_transform_4 i) (hinb25_4 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1x7x32x512.size a ≤ S16x35x32x512.size a
  hwx26_0 : ∀ i : grid26.Coords, EltTy.bits .f32 = 32 ∨ (Rect.block (s := S16x35x32x512) S1x7x32x512.size (cc26_transform_0 i) (hinb26_0 i)).WholeWords (EltTy.packing .f32)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S1x7x32x512.size a ≤ S16x35x32x512.size a
  hwx26_1 : ∀ i : grid26.Coords, EltTy.bits .f32 = 32 ∨ (Rect.block (s := S16x35x32x512) S1x7x32x512.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S3x3x512x512.size a ≤ S3x3x512x512.size a
  hwx26_2 : ∀ i : grid26.Coords, EltTy.bits .f32 = 32 ∨ (Rect.block (s := S3x3x512x512) S3x3x512x512.size (cc26_transform_2 i) (hinb26_2 i)).WholeWords (EltTy.packing .f32)
  hstage26_3 : ∀ j, (stage26_3 j).IsWhole
  nbuf26_3 : grid26.bufCount reads26_3 true = 1
  hreads26_3 : ∀ i i' : grid26.Coords, (∀ a, reads26_3 a = true → i a = i' a) → cc26_transform_3 i = cc26_transform_3 i'
  hinb26_3 : ∀ (i : grid26.Coords) a, (cc26_transform_3 i a + 1) * S1x512.size a ≤ S1x512.size a
  hwx26_3 : ∀ i : grid26.Coords, EltTy.bits .f32 = 32 ∨ (Rect.block (s := S1x512) S1x512.size (cc26_transform_3 i) (hinb26_3 i)).WholeWords (EltTy.packing .f32)
  hstage26_4 : ∀ j, (stage26_4 j).IsWhole
  nbuf26_4 : grid26.bufCount reads26_4 false = 2
  hreads26_4 : ∀ i i' : grid26.Coords, (∀ a, reads26_4 a = true → i a = i' a) → cc26_transform_4 i = cc26_transform_4 i'
  hinb26_4 : ∀ (i : grid26.Coords) a, (cc26_transform_4 i a + 1) * S1x7x28x512.size a ≤ S16x28x28x512.size a
  hwx26_4 : ∀ i : grid26.Coords, EltTy.bits .f32 = 32 ∨ (Rect.block (s := S16x28x28x512) S1x7x28x512.size (cc26_transform_4 i) (hinb26_4 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S1x7x32x512.size a ≤ S16x35x32x512.size a
  hwx27_0 : ∀ i : grid27.Coords, EltTy.bits .f32 = 32 ∨ (Rect.block (s := S16x35x32x512) S1x7x32x512.size (cc27_transform_0 i) (hinb27_0 i)).WholeWords (EltTy.packing .f32)
  hstage27_1 : ∀ j, (stage27_1 j).IsWhole
  nbuf27_1 : grid27.bufCount reads27_1 false = 2
  hreads27_1 : ∀ i i' : grid27.Coords, (∀ a, reads27_1 a = true → i a = i' a) → cc27_transform_1 i = cc27_transform_1 i'
  hinb27_1 : ∀ (i : grid27.Coords) a, (cc27_transform_1 i a + 1) * S1x7x32x512.size a ≤ S16x35x32x512.size a
  hwx27_1 : ∀ i : grid27.Coords, EltTy.bits .f32 = 32 ∨ (Rect.block (s := S16x35x32x512) S1x7x32x512.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S3x3x512x512.size a ≤ S3x3x512x512.size a
  hwx27_2 : ∀ i : grid27.Coords, EltTy.bits .f32 = 32 ∨ (Rect.block (s := S3x3x512x512) S3x3x512x512.size (cc27_transform_2 i) (hinb27_2 i)).WholeWords (EltTy.packing .f32)
  hstage27_3 : ∀ j, (stage27_3 j).IsWhole
  nbuf27_3 : grid27.bufCount reads27_3 true = 1
  hreads27_3 : ∀ i i' : grid27.Coords, (∀ a, reads27_3 a = true → i a = i' a) → cc27_transform_3 i = cc27_transform_3 i'
  hinb27_3 : ∀ (i : grid27.Coords) a, (cc27_transform_3 i a + 1) * S1x512.size a ≤ S1x512.size a
  hwx27_3 : ∀ i : grid27.Coords, EltTy.bits .f32 = 32 ∨ (Rect.block (s := S1x512) S1x512.size (cc27_transform_3 i) (hinb27_3 i)).WholeWords (EltTy.packing .f32)
  hstage27_4 : ∀ j, (stage27_4 j).IsWhole
  nbuf27_4 : grid27.bufCount reads27_4 false = 2
  hreads27_4 : ∀ i i' : grid27.Coords, (∀ a, reads27_4 a = true → i a = i' a) → cc27_transform_4 i = cc27_transform_4 i'
  hinb27_4 : ∀ (i : grid27.Coords) a, (cc27_transform_4 i a + 1) * S1x7x28x512.size a ≤ S16x28x28x512.size a
  hwx27_4 : ∀ i : grid27.Coords, EltTy.bits .f32 = 32 ∨ (Rect.block (s := S16x28x28x512) S1x7x28x512.size (cc27_transform_4 i) (hinb27_4 i)).WholeWords (EltTy.packing .f32)
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S1x7x32x512.size a ≤ S16x35x32x512.size a
  hwx28_0 : ∀ i : grid28.Coords, EltTy.bits .f32 = 32 ∨ (Rect.block (s := S16x35x32x512) S1x7x32x512.size (cc28_transform_0 i) (hinb28_0 i)).WholeWords (EltTy.packing .f32)
  hstage28_1 : ∀ j, (stage28_1 j).IsWhole
  nbuf28_1 : grid28.bufCount reads28_1 false = 2
  hreads28_1 : ∀ i i' : grid28.Coords, (∀ a, reads28_1 a = true → i a = i' a) → cc28_transform_1 i = cc28_transform_1 i'
  hinb28_1 : ∀ (i : grid28.Coords) a, (cc28_transform_1 i a + 1) * S1x7x32x512.size a ≤ S16x35x32x512.size a
  hwx28_1 : ∀ i : grid28.Coords, EltTy.bits .f32 = 32 ∨ (Rect.block (s := S16x35x32x512) S1x7x32x512.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S3x3x512x512.size a ≤ S3x3x512x512.size a
  hwx28_2 : ∀ i : grid28.Coords, EltTy.bits .f32 = 32 ∨ (Rect.block (s := S3x3x512x512) S3x3x512x512.size (cc28_transform_2 i) (hinb28_2 i)).WholeWords (EltTy.packing .f32)
  hstage28_3 : ∀ j, (stage28_3 j).IsWhole
  nbuf28_3 : grid28.bufCount reads28_3 true = 1
  hreads28_3 : ∀ i i' : grid28.Coords, (∀ a, reads28_3 a = true → i a = i' a) → cc28_transform_3 i = cc28_transform_3 i'
  hinb28_3 : ∀ (i : grid28.Coords) a, (cc28_transform_3 i a + 1) * S1x512.size a ≤ S1x512.size a
  hwx28_3 : ∀ i : grid28.Coords, EltTy.bits .f32 = 32 ∨ (Rect.block (s := S1x512) S1x512.size (cc28_transform_3 i) (hinb28_3 i)).WholeWords (EltTy.packing .f32)
  hstage28_4 : ∀ j, (stage28_4 j).IsWhole
  nbuf28_4 : grid28.bufCount reads28_4 false = 2
  hreads28_4 : ∀ i i' : grid28.Coords, (∀ a, reads28_4 a = true → i a = i' a) → cc28_transform_4 i = cc28_transform_4 i'
  hinb28_4 : ∀ (i : grid28.Coords) a, (cc28_transform_4 i a + 1) * S1x7x28x512.size a ≤ S16x28x28x512.size a
  hwx28_4 : ∀ i : grid28.Coords, EltTy.bits .f32 = 32 ∨ (Rect.block (s := S16x28x28x512) S1x7x28x512.size (cc28_transform_4 i) (hinb28_4 i)).WholeWords (EltTy.packing .f32)
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S896x512.size a ≤ S12544x512.size a
  hwx29_0 : ∀ i : grid29.Coords, EltTy.bits .f32 = 32 ∨ (Rect.block (s := S12544x512) S896x512.size (cc29_transform_0 i) (hinb29_0 i)).WholeWords (EltTy.packing .f32)
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S896x512.size a ≤ S12544x512.size a
  hwx29_1 : ∀ i : grid29.Coords, EltTy.bits .f32 = 32 ∨ (Rect.block (s := S12544x512) S896x512.size (cc29_transform_1 i) (hinb29_1 i)).WholeWords (EltTy.packing .f32)
  hstage29_2 : ∀ j, (stage29_2 j).IsWhole
  nbuf29_2 : grid29.bufCount reads29_2 true = 1
  hreads29_2 : ∀ i i' : grid29.Coords, (∀ a, reads29_2 a = true → i a = i' a) → cc29_transform_2 i = cc29_transform_2 i'
  hinb29_2 : ∀ (i : grid29.Coords) a, (cc29_transform_2 i a + 1) * S1x1.size a ≤ S1x1.size a
  hwx29_2 : ∀ i : grid29.Coords, EltTy.bits .f32 = 32 ∨ (Rect.block (s := S1x1) S1x1.size (cc29_transform_2 i) (hinb29_2 i)).WholeWords (EltTy.packing .f32)

variable [Facts₀]

def dot_S3712x3_S3x64_S3712x64_1_0_0_1_n_n : DotDims S3712x3 S3x64 S3712x64 where
  lhsContracting := [1]
  rhsContracting := [0]
  lhsNonContracting := [0]
  rhsNonContracting := [1]
  lhsBatch := []
  rhsBatch := []
  wf := dot_S3712x3_S3x64_S3712x64_1_0_0_1_n_n_wf
def dot_S3712x64_S64x64_S3712x64_1_0_0_1_n_n : DotDims S3712x64 S64x64 S3712x64 where
  lhsContracting := [1]
  rhsContracting := [0]
  lhsNonContracting := [0]
  rhsNonContracting := [1]
  lhsBatch := []
  rhsBatch := []
  wf := dot_S3712x64_S64x64_S3712x64_1_0_0_1_n_n_wf
def dot_S1920x64_S64x128_S1920x128_1_0_0_1_n_n : DotDims S1920x64 S64x128 S1920x128 where
  lhsContracting := [1]
  rhsContracting := [0]
  lhsNonContracting := [0]
  rhsNonContracting := [1]
  lhsBatch := []
  rhsBatch := []
  wf := dot_S1920x64_S64x128_S1920x128_1_0_0_1_n_n_wf
def dot_S1920x128_S128x128_S1920x128_1_0_0_1_n_n : DotDims S1920x128 S128x128 S1920x128 where
  lhsContracting := [1]
  rhsContracting := [0]
  lhsNonContracting := [0]
  rhsNonContracting := [1]
  lhsBatch := []
  rhsBatch := []
  wf := dot_S1920x128_S128x128_S1920x128_1_0_0_1_n_n_wf
def dot_S896x128_S128x256_S896x256_1_0_0_1_n_n : DotDims S896x128 S128x256 S896x256 where
  lhsContracting := [1]
  rhsContracting := [0]
  lhsNonContracting := [0]
  rhsNonContracting := [1]
  lhsBatch := []
  rhsBatch := []
  wf := dot_S896x128_S128x256_S896x256_1_0_0_1_n_n_wf
def dot_S896x256_S256x256_S896x256_1_0_0_1_n_n : DotDims S896x256 S256x256 S896x256 where
  lhsContracting := [1]
  rhsContracting := [0]
  lhsNonContracting := [0]
  rhsNonContracting := [1]
  lhsBatch := []
  rhsBatch := []
  wf := dot_S896x256_S256x256_S896x256_1_0_0_1_n_n_wf
def dot_S224x256_S256x512_S224x512_1_0_0_1_n_n : DotDims S224x256 S256x512 S224x512 where
  lhsContracting := [1]
  rhsContracting := [0]
  lhsNonContracting := [0]
  rhsNonContracting := [1]
  lhsBatch := []
  rhsBatch := []
  wf := dot_S224x256_S256x512_S224x512_1_0_0_1_n_n_wf
def dot_S224x512_S512x512_S224x512_1_0_0_1_n_n : DotDims S224x512 S512x512 S224x512 where
  lhsContracting := [1]
  rhsContracting := [0]
  lhsNonContracting := [0]
  rhsNonContracting := [1]
  lhsBatch := []
  rhsBatch := []
  wf := dot_S224x512_S512x512_S224x512_1_0_0_1_n_n_wf

abbrev win0_0 : Pipeline.Window sig grid0 :=
  Pipeline.Window.ofSpec (Memref.whole main_v14) S1x16x232x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x16x232x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x3x3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x16x224x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S1x16x232x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x16x232x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3x3x3x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x16x224x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v18) S1x16x232x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x16x232x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S3x3x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x16x224x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S1x16x232x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1x16x232x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S3x3x64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x16x224x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v28) S1x16x112x2x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S1x8x112x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v30) S1x16x112x2x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S1x8x112x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v32) S1x16x120x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S1x16x120x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg6) S3x3x64x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg7) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v33) S1x16x112x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v34) S1x16x120x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v34) S1x16x120x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg6) S3x3x64x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg7) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v35) S1x16x112x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v36) S1x16x120x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v36) S1x16x120x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg8) S3x3x128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg9) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v37) S1x16x112x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v38) S1x16x120x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v38) S1x16x120x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg8) S3x3x128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v39) S1x16x112x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v40) S1024x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v41) S1024x512.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v42) S1x1.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v46) S1x16x56x2x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v47) S1x8x56x128.size cc12_transform_1 reads12_1 true false 2 stage12_1 sem12_1
    hrank12 hreads12_1 hinb12_1 nbuf12_1 (Memref.isWhole_whole _) hwx12_1 hstage12_1

abbrev win12 : Fin 2 → Pipeline.Window sig grid12 := fun | 0 => win12_0 | 1 => win12_1 | ⟨_ + 2, h⟩ => absurd h (Nat.not_lt.2 (Nat.le_add_left _ _))
abbrev spec12 : Fin 2 → Pipeline.WinSpec sig grid12.rank := fun w => (win12 w).toWinSpec

abbrev win13_0 : Pipeline.Window sig grid13 :=
  Pipeline.Window.ofSpec (Memref.whole main_v48) S1x16x56x2x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v49) S1x8x56x128.size cc13_transform_1 reads13_1 true false 2 stage13_1 sem13_1
    hrank13 hreads13_1 hinb13_1 nbuf13_1 (Memref.isWhole_whole _) hwx13_1 hstage13_1

abbrev win13 : Fin 2 → Pipeline.Window sig grid13 := fun | 0 => win13_0 | 1 => win13_1 | ⟨_ + 2, h⟩ => absurd h (Nat.not_lt.2 (Nat.le_add_left _ _))
abbrev spec13 : Fin 2 → Pipeline.WinSpec sig grid13.rank := fun w => (win13 w).toWinSpec

abbrev win14_0 : Pipeline.Window sig grid14 :=
  Pipeline.Window.ofSpec (Memref.whole main_v50) S1x14x64x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v50) S1x14x64x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_arg10) S3x3x128x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_arg11) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v51) S1x14x56x256.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v52) S1x14x64x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v52) S1x14x64x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_arg10) S3x3x128x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_arg11) S1x256.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v53) S1x14x56x256.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v54) S1x14x64x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v54) S1x14x64x256.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_arg12) S3x3x256x256.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg13) S1x256.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v55) S1x14x56x256.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v56) S1x14x64x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v56) S1x14x64x256.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_arg12) S3x3x256x256.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_arg13) S1x256.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v57) S1x14x56x256.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v58) S1x14x64x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v58) S1x14x64x256.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_arg14) S3x3x256x256.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_arg15) S1x256.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v59) S1x14x56x256.size cc18_transform_4 reads18_4 true false 2 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

abbrev win19_0 : Pipeline.Window sig grid19 :=
  Pipeline.Window.ofSpec (Memref.whole main_v60) S1x14x64x256.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v60) S1x14x64x256.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_arg14) S3x3x256x256.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_arg15) S1x256.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v61) S1x14x56x256.size cc19_transform_4 reads19_4 true false 2 stage19_4 sem19_4
    hrank19 hreads19_4 hinb19_4 nbuf19_4 (Memref.isWhole_whole _) hwx19_4 hstage19_4

abbrev win19 : Fin 5 → Pipeline.Window sig grid19 := fun | 0 => win19_0 | 1 => win19_1 | 2 => win19_2 | 3 => win19_3 | 4 => win19_4 | ⟨_ + 5, h⟩ => absurd h (Nat.not_lt.2 (Nat.le_add_left _ _))
abbrev spec19 : Fin 5 → Pipeline.WinSpec sig grid19.rank := fun w => (win19 w).toWinSpec

abbrev win20_0 : Pipeline.Window sig grid20 :=
  Pipeline.Window.ofSpec (Memref.whole main_v62) S896x512.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v63) S896x512.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v64) S1x1.size cc20_transform_2 reads20_2 true true 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v68) S1x14x28x2x256.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v69) S1x7x28x256.size cc21_transform_1 reads21_1 true false 2 stage21_1 sem21_1
    hrank21 hreads21_1 hinb21_1 nbuf21_1 (Memref.isWhole_whole _) hwx21_1 hstage21_1

abbrev win21 : Fin 2 → Pipeline.Window sig grid21 := fun | 0 => win21_0 | 1 => win21_1 | ⟨_ + 2, h⟩ => absurd h (Nat.not_lt.2 (Nat.le_add_left _ _))
abbrev spec21 : Fin 2 → Pipeline.WinSpec sig grid21.rank := fun w => (win21 w).toWinSpec

abbrev win22_0 : Pipeline.Window sig grid22 :=
  Pipeline.Window.ofSpec (Memref.whole main_v70) S1x14x28x2x256.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v71) S1x7x28x256.size cc22_transform_1 reads22_1 true false 2 stage22_1 sem22_1
    hrank22 hreads22_1 hinb22_1 nbuf22_1 (Memref.isWhole_whole _) hwx22_1 hstage22_1

abbrev win22 : Fin 2 → Pipeline.Window sig grid22 := fun | 0 => win22_0 | 1 => win22_1 | ⟨_ + 2, h⟩ => absurd h (Nat.not_lt.2 (Nat.le_add_left _ _))
abbrev spec22 : Fin 2 → Pipeline.WinSpec sig grid22.rank := fun w => (win22 w).toWinSpec

abbrev win23_0 : Pipeline.Window sig grid23 :=
  Pipeline.Window.ofSpec (Memref.whole main_v72) S1x7x32x256.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v72) S1x7x32x256.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_arg16) S3x3x256x512.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_arg17) S1x512.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v73) S1x7x28x512.size cc23_transform_4 reads23_4 true false 2 stage23_4 sem23_4
    hrank23 hreads23_4 hinb23_4 nbuf23_4 (Memref.isWhole_whole _) hwx23_4 hstage23_4

abbrev win23 : Fin 5 → Pipeline.Window sig grid23 := fun | 0 => win23_0 | 1 => win23_1 | 2 => win23_2 | 3 => win23_3 | 4 => win23_4 | ⟨_ + 5, h⟩ => absurd h (Nat.not_lt.2 (Nat.le_add_left _ _))
abbrev spec23 : Fin 5 → Pipeline.WinSpec sig grid23.rank := fun w => (win23 w).toWinSpec

abbrev win24_0 : Pipeline.Window sig grid24 :=
  Pipeline.Window.ofSpec (Memref.whole main_v74) S1x7x32x256.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v74) S1x7x32x256.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_arg16) S3x3x256x512.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_arg17) S1x512.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v75) S1x7x28x512.size cc24_transform_4 reads24_4 true false 2 stage24_4 sem24_4
    hrank24 hreads24_4 hinb24_4 nbuf24_4 (Memref.isWhole_whole _) hwx24_4 hstage24_4

abbrev win24 : Fin 5 → Pipeline.Window sig grid24 := fun | 0 => win24_0 | 1 => win24_1 | 2 => win24_2 | 3 => win24_3 | 4 => win24_4 | ⟨_ + 5, h⟩ => absurd h (Nat.not_lt.2 (Nat.le_add_left _ _))
abbrev spec24 : Fin 5 → Pipeline.WinSpec sig grid24.rank := fun w => (win24 w).toWinSpec

abbrev win25_0 : Pipeline.Window sig grid25 :=
  Pipeline.Window.ofSpec (Memref.whole main_v76) S1x7x32x512.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v76) S1x7x32x512.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_arg18) S3x3x512x512.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_arg19) S1x512.size cc25_transform_3 reads25_3 false true 1 stage25_3 sem25_3
    hrank25 hreads25_3 hinb25_3 nbuf25_3 (Memref.isWhole_whole _) hwx25_3 hstage25_3

abbrev win25_4 : Pipeline.Window sig grid25 :=
  Pipeline.Window.ofSpec (Memref.whole main_v77) S1x7x28x512.size cc25_transform_4 reads25_4 true false 2 stage25_4 sem25_4
    hrank25 hreads25_4 hinb25_4 nbuf25_4 (Memref.isWhole_whole _) hwx25_4 hstage25_4

abbrev win25 : Fin 5 → Pipeline.Window sig grid25 := fun | 0 => win25_0 | 1 => win25_1 | 2 => win25_2 | 3 => win25_3 | 4 => win25_4 | ⟨_ + 5, h⟩ => absurd h (Nat.not_lt.2 (Nat.le_add_left _ _))
abbrev spec25 : Fin 5 → Pipeline.WinSpec sig grid25.rank := fun w => (win25 w).toWinSpec

abbrev win26_0 : Pipeline.Window sig grid26 :=
  Pipeline.Window.ofSpec (Memref.whole main_v78) S1x7x32x512.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v78) S1x7x32x512.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_arg18) S3x3x512x512.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_arg19) S1x512.size cc26_transform_3 reads26_3 false true 1 stage26_3 sem26_3
    hrank26 hreads26_3 hinb26_3 nbuf26_3 (Memref.isWhole_whole _) hwx26_3 hstage26_3

abbrev win26_4 : Pipeline.Window sig grid26 :=
  Pipeline.Window.ofSpec (Memref.whole main_v79) S1x7x28x512.size cc26_transform_4 reads26_4 true false 2 stage26_4 sem26_4
    hrank26 hreads26_4 hinb26_4 nbuf26_4 (Memref.isWhole_whole _) hwx26_4 hstage26_4

abbrev win26 : Fin 5 → Pipeline.Window sig grid26 := fun | 0 => win26_0 | 1 => win26_1 | 2 => win26_2 | 3 => win26_3 | 4 => win26_4 | ⟨_ + 5, h⟩ => absurd h (Nat.not_lt.2 (Nat.le_add_left _ _))
abbrev spec26 : Fin 5 → Pipeline.WinSpec sig grid26.rank := fun w => (win26 w).toWinSpec

abbrev win27_0 : Pipeline.Window sig grid27 :=
  Pipeline.Window.ofSpec (Memref.whole main_v80) S1x7x32x512.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v80) S1x7x32x512.size cc27_transform_1 reads27_1 false false 2 stage27_1 sem27_1
    hrank27 hreads27_1 hinb27_1 nbuf27_1 (Memref.isWhole_whole _) hwx27_1 hstage27_1

abbrev win27_2 : Pipeline.Window sig grid27 :=
  Pipeline.Window.ofSpec (Memref.whole main_arg20) S3x3x512x512.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_arg21) S1x512.size cc27_transform_3 reads27_3 false true 1 stage27_3 sem27_3
    hrank27 hreads27_3 hinb27_3 nbuf27_3 (Memref.isWhole_whole _) hwx27_3 hstage27_3

abbrev win27_4 : Pipeline.Window sig grid27 :=
  Pipeline.Window.ofSpec (Memref.whole main_v81) S1x7x28x512.size cc27_transform_4 reads27_4 true false 2 stage27_4 sem27_4
    hrank27 hreads27_4 hinb27_4 nbuf27_4 (Memref.isWhole_whole _) hwx27_4 hstage27_4

abbrev win27 : Fin 5 → Pipeline.Window sig grid27 := fun | 0 => win27_0 | 1 => win27_1 | 2 => win27_2 | 3 => win27_3 | 4 => win27_4 | ⟨_ + 5, h⟩ => absurd h (Nat.not_lt.2 (Nat.le_add_left _ _))
abbrev spec27 : Fin 5 → Pipeline.WinSpec sig grid27.rank := fun w => (win27 w).toWinSpec

abbrev win28_0 : Pipeline.Window sig grid28 :=
  Pipeline.Window.ofSpec (Memref.whole main_v82) S1x7x32x512.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v82) S1x7x32x512.size cc28_transform_1 reads28_1 false false 2 stage28_1 sem28_1
    hrank28 hreads28_1 hinb28_1 nbuf28_1 (Memref.isWhole_whole _) hwx28_1 hstage28_1

abbrev win28_2 : Pipeline.Window sig grid28 :=
  Pipeline.Window.ofSpec (Memref.whole main_arg20) S3x3x512x512.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_arg21) S1x512.size cc28_transform_3 reads28_3 false true 1 stage28_3 sem28_3
    hrank28 hreads28_3 hinb28_3 nbuf28_3 (Memref.isWhole_whole _) hwx28_3 hstage28_3

abbrev win28_4 : Pipeline.Window sig grid28 :=
  Pipeline.Window.ofSpec (Memref.whole main_v83) S1x7x28x512.size cc28_transform_4 reads28_4 true false 2 stage28_4 sem28_4
    hrank28 hreads28_4 hinb28_4 nbuf28_4 (Memref.isWhole_whole _) hwx28_4 hstage28_4

abbrev win28 : Fin 5 → Pipeline.Window sig grid28 := fun | 0 => win28_0 | 1 => win28_1 | 2 => win28_2 | 3 => win28_3 | 4 => win28_4 | ⟨_ + 5, h⟩ => absurd h (Nat.not_lt.2 (Nat.le_add_left _ _))
abbrev spec28 : Fin 5 → Pipeline.WinSpec sig grid28.rank := fun w => (win28 w).toWinSpec

abbrev win29_0 : Pipeline.Window sig grid29 :=
  Pipeline.Window.ofSpec (Memref.whole main_v84) S896x512.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v85) S896x512.size cc29_transform_1 reads29_1 false false 2 stage29_1 sem29_1
    hrank29 hreads29_1 hinb29_1 nbuf29_1 (Memref.isWhole_whole _) hwx29_1 hstage29_1

abbrev win29_2 : Pipeline.Window sig grid29 :=
  Pipeline.Window.ofSpec (Memref.whole main_v86) S1x1.size cc29_transform_2 reads29_2 true true 1 stage29_2 sem29_2
    hrank29 hreads29_2 hinb29_2 nbuf29_2 (Memref.isWhole_whole _) hwx29_2 hstage29_2

abbrev win29 : Fin 3 → Pipeline.Window sig grid29 := fun | 0 => win29_0 | 1 => win29_1 | 2 => win29_2 | ⟨_ + 3, h⟩ => absurd h (Nat.not_lt.2 (Nat.le_add_left _ _))
abbrev spec29 : Fin 3 → Pipeline.WinSpec sig grid29.rank := fun w => (win29 w).toWinSpec

class Facts : Prop extends Facts₀ where

variable [Facts]
-- ==== Proof.K.Reg0.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles of the two row tiles, the bias row and the output tile, and the nine taps of the filter. -/
abbrev rx : Rect S1x16x240x3 := Rect.unit (s := S1x16x240x3) ![0, 0, 0, 0] S1x16x240x3.size inb_S1x16x240x3_S1x16x240x3_0_0_0_0
abbrev rb : Rect S1x64 := Rect.unit (s := S1x64) ![0, 0] S1x64.size inb_S1x64_S1x64_0_0
abbrev ro : Rect S1x16x224x64 := Rect.unit (s := S1x16x224x64) ![0, 0, 0, 0] S1x16x224x64.size inb_S1x16x224x64_S1x16x224x64_0_0_0_0
abbrev rw00 : Rect S3x3x3x64 := Rect.unit (s := S3x3x3x64) ![0, 0, 0, 0] S1x1x3x64.size inb_S3x3x3x64_S1x1x3x64_0_0_0_0
abbrev rw01 : Rect S3x3x3x64 := Rect.unit (s := S3x3x3x64) ![0, 1, 0, 0] S1x1x3x64.size inb_S3x3x3x64_S1x1x3x64_0_1_0_0
abbrev rw02 : Rect S3x3x3x64 := Rect.unit (s := S3x3x3x64) ![0, 2, 0, 0] S1x1x3x64.size inb_S3x3x3x64_S1x1x3x64_0_2_0_0
abbrev rw10 : Rect S3x3x3x64 := Rect.unit (s := S3x3x3x64) ![1, 0, 0, 0] S1x1x3x64.size inb_S3x3x3x64_S1x1x3x64_1_0_0_0
abbrev rw11 : Rect S3x3x3x64 := Rect.unit (s := S3x3x3x64) ![1, 1, 0, 0] S1x1x3x64.size inb_S3x3x3x64_S1x1x3x64_1_1_0_0
abbrev rw12 : Rect S3x3x3x64 := Rect.unit (s := S3x3x3x64) ![1, 2, 0, 0] S1x1x3x64.size inb_S3x3x3x64_S1x1x3x64_1_2_0_0
abbrev rw20 : Rect S3x3x3x64 := Rect.unit (s := S3x3x3x64) ![2, 0, 0, 0] S1x1x3x64.size inb_S3x3x3x64_S1x1x3x64_2_0_0_0
abbrev rw21 : Rect S3x3x3x64 := Rect.unit (s := S3x3x3x64) ![2, 1, 0, 0] S1x1x3x64.size inb_S3x3x3x64_S1x1x3x64_2_1_0_0
abbrev rw22 : Rect S3x3x3x64 := Rect.unit (s := S3x3x3x64) ![2, 2, 0, 0] S1x1x3x64.size inb_S3x3x3x64_S1x1x3x64_2_2_0_0

/-- The accumulator before the ReLU: nine tap products added in the order (dy, dx) = (0,0), (0,1), …, (2,2), then the bias row,
    as a function of the two row tiles, the filter and the bias. -/
def acc (xa xb : Vec F S1x16x240x3 .bf16) (wk : Vec F S3x3x3x64 .bf16) (b : Vec F S1x64 .f32) : FVec F S3840x64 .f32 :=
  k0_pay8 (k0_pay2 (View.ld xa rx) (View.ld xb rx)) (k0_pay3 (View.ld xa rx) (View.ld xb rx)) (k0_pay4 (View.ld xa rx) (View.ld xb rx))
    (k0_pay5 (View.ld xa rx) (View.ld xb rx) (View.ld wk rw00) (View.ld wk rw01) (View.ld wk rw02))
    (k0_pay6 (View.ld xa rx) (View.ld xb rx)) (k0_pay7 (View.ld wk rw10))
    (View.ld wk rw11) (View.ld wk rw12) (View.ld wk rw20) (View.ld wk rw21) (View.ld wk rw22) (View.ld b rb)

/-- What the body leaves in the output tile's buffer: one covering store of the rectified, cropped accumulator. -/
def out (xa xb : Vec F S1x16x240x3 .bf16) (wk : Vec F S3x3x3x64 .bf16) (b : Vec F S1x64 .f32) : Vec F S1x16x224x64 .bf16 :=
  View.canon [⟨ro, k0_pay1 (acc xa xb wk b) (k0_pay9 (F := F))⟩]

/-- The proof data of the region on core `c`: arrays as found; inputs left at their blocks, the output tile at `out` of them;
    the invariant the scoped rest and the generator register (`Pipeline.ΦA`); nothing owed; the image array's share halved between the two row-tile windows that read it, full shares elsewhere. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

/-- The invariant, the tallies owed and each window's share of its array, projected. -/
theorem Φ_eq (c : Dev nD) (t : Fin (cfg0.N + 1)) : (dat V c).Φ t = Pipeline.ΦA spec0 c := rfl
theorem owed_eq (c : Dev nD) (t : Fin (cfg0.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out (iblk V c 0 t) (iblk V c 1 t) (iblk V c 2 t) (iblk V c 3 t) := by dsimp only [dat]

/-- The store tiles the output buffer, so it covers it. -/
theorem cover_out (p0 : Vec F S1x16x224x64 .bf16) (y : S1x16x224x64.Idx) :
    ∃ pc ∈ ([⟨ro, p0⟩] : List (View.Piece (Elt F) S1x16x224x64 .bf16)), y ∈ pc.1.set :=
  View.cover_of_tiled [⟨ro, p0⟩] S1x16x224x64.size (by rfl) y

set_option maxHeartbeats 2000000 in
/-- The body on whole staging memrefs: the four inputs at read contents, the output at anything, runs to the
    continuation holding the inputs as they were and the output tile at `out` of them. -/
theorem sound_kernel (c : Dev nD) (E : Set ℕ) (i : grid0.Coords)
    (arg2 : Memref sig .tc .vmem S1x16x240x3 .bf16) (harg2 : arg2.IsWhole) (arg3 : Memref sig .tc .vmem S1x16x240x3 .bf16) (harg3 : arg3.IsWhole)
    (arg4 : Memref sig .tc .vmem S3x3x3x64 .bf16) (harg4 : arg4.IsWhole) (arg5 : Memref sig .tc .vmem S1x64 .f32) (harg5 : arg5.IsWhole)
    (arg6 : Memref sig .tc .vmem S1x16x224x64 .bf16) (harg6 : arg6.IsWhole)
    (x0 x1 : Vec F S1x16x240x3 .bf16) (x2 : Vec F S3x3x3x64 .bf16) (x3 : Vec F S1x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE (defs₀ (F := F)) Variants.none c none) E
          (cc0__conv_kernel i arg2 harg2 arg3 harg3 arg4 harg4 arg5 harg5 arg6 harg6) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _)]
  unfold out acc
  sl_unfold_words
  rfl

/-! ## The input windows' buffers before the body

An input window's buffer holds the window's block of its array at every point, fetched there or not: at a point that
does not fetch it the block index has not moved since the last fetch, and the body leaves the buffer as it found it.
(The filter and the bias are fetched once, at the first point; the two row tiles at every point.) -/

theorem before_0 (c : Dev nD) (t : Fin cfg0.N) (d) : (dat V c).before 0 t d = iblk V c 0 t := by
  have hk : ∀ t, (cfg0.win 0).cut (cfg0.grid.coords t) ((dat V c).after 0 t) = (dat V c).blockOf 0 t := fun t => by
    rw [after_0]; unfold Dat.blockOf iblk; rw [A_eq]
  rw [(dat V c).before_in_eq_fetched 0 rfl (fun _ => rfl) (fun _ _ _ => rfl) hk t d]
  unfold Dat.fetched Dat.blockOf iblk; rw [A_eq]; rfl

theorem before_1 (c : Dev nD) (t : Fin cfg0.N) (d) : (dat V c).before 1 t d = iblk V c 1 t := by
  have hk : ∀ t, (cfg0.win 1).cut (cfg0.grid.coords t) ((dat V c).after 1 t) = (dat V c).blockOf 1 t := fun t => by
    rw [after_1]; unfold Dat.blockOf iblk; rw [A_eq]
  rw [(dat V c).before_in_eq_fetched 1 rfl (fun _ => rfl) (fun _ _ _ => rfl) hk t d]
  unfold Dat.fetched Dat.blockOf iblk; rw [A_eq]; rfl

theorem before_2 (c : Dev nD) (t : Fin cfg0.N) (d) : (dat V c).before 2 t d = iblk V c 2 t := by
  have hk : ∀ t, (cfg0.win 2).cut (cfg0.grid.coords t) ((dat V c).after 2 t) = (dat V c).blockOf 2 t := fun t => by
    rw [after_2]; unfold Dat.blockOf iblk; rw [A_eq]
  rw [(dat V c).before_in_eq_fetched 2 rfl (fun _ => rfl) (fun _ _ _ => rfl) hk t d]
  unfold Dat.fetched Dat.blockOf iblk; rw [A_eq]; rfl

theorem before_3 (c : Dev nD) (t : Fin cfg0.N) (d) : (dat V c).before 3 t d = iblk V c 3 t := by
  have hk : ∀ t, (cfg0.win 3).cut (cfg0.grid.coords t) ((dat V c).after 3 t) = (dat V c).blockOf 3 t := fun t => by
    rw [after_3]; unfold Dat.blockOf iblk; rw [A_eq]
  rw [(dat V c).before_in_eq_fetched 3 rfl (fun _ => rfl) (fun _ _ _ => rfl) hk t d]
  unfold Dat.fetched Dat.blockOf iblk; rw [A_eq]; rfl

/-! ## The body at a point of the grid -/

/-- The body at point `t`, called on the windows' current buffers — the inputs' at their blocks, the output's at
    anything — leaves the inputs' as they were and the output's at `out` of the four blocks; the invariant and the
    core's tallies pass through unread. -/
theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d))
        ∗ (∃ d, owns (c : Thread nD τ) (st0_4 t) fullShare ((dat V c).before 4 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t)
            ∗ owns (c : Thread nD τ) (st0_4 t) fullShare ((dat V c).after 4 t))) := by
  unfold bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the five windows conjoined one by one. -/
theorem body_obligation (c : Dev nD) : BodyObligation (dat (F := F) V c) (defs₀ (F := F)) Variants.none () Set.univ := fun t => by
  rw [bigSep_W0, bigSep_W0]
  exact sound_body V c t

end Cert.Kernel.Reg0
-- ==== Proof.K.Reg1.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles of the two row tiles, the bias row and the output tile, and the nine taps of the filter. -/
abbrev rx : Rect S1x16x240x64 := Rect.unit (s := S1x16x240x64) ![0, 0, 0, 0] S1x16x240x64.size inb_S1x16x240x64_S1x16x240x64_0_0_0_0
abbrev rb : Rect S1x64 := Rect.unit (s := S1x64) ![0, 0] S1x64.size inb_S1x64_S1x64_0_0
abbrev ro : Rect S1x16x224x64 := Rect.unit (s := S1x16x224x64) ![0, 0, 0, 0] S1x16x224x64.size inb_S1x16x224x64_S1x16x224x64_0_0_0_0
abbrev rw00 : Rect S3x3x64x64 := Rect.unit (s := S3x3x64x64) ![0, 0, 0, 0] S1x1x64x64.size inb_S3x3x64x64_S1x1x64x64_0_0_0_0
abbrev rw01 : Rect S3x3x64x64 := Rect.unit (s := S3x3x64x64) ![0, 1, 0, 0] S1x1x64x64.size inb_S3x3x64x64_S1x1x64x64_0_1_0_0
abbrev rw02 : Rect S3x3x64x64 := Rect.unit (s := S3x3x64x64) ![0, 2, 0, 0] S1x1x64x64.size inb_S3x3x64x64_S1x1x64x64_0_2_0_0
abbrev rw10 : Rect S3x3x64x64 := Rect.unit (s := S3x3x64x64) ![1, 0, 0, 0] S1x1x64x64.size inb_S3x3x64x64_S1x1x64x64_1_0_0_0
abbrev rw11 : Rect S3x3x64x64 := Rect.unit (s := S3x3x64x64) ![1, 1, 0, 0] S1x1x64x64.size inb_S3x3x64x64_S1x1x64x64_1_1_0_0
abbrev rw12 : Rect S3x3x64x64 := Rect.unit (s := S3x3x64x64) ![1, 2, 0, 0] S1x1x64x64.size inb_S3x3x64x64_S1x1x64x64_1_2_0_0
abbrev rw20 : Rect S3x3x64x64 := Rect.unit (s := S3x3x64x64) ![2, 0, 0, 0] S1x1x64x64.size inb_S3x3x64x64_S1x1x64x64_2_0_0_0
abbrev rw21 : Rect S3x3x64x64 := Rect.unit (s := S3x3x64x64) ![2, 1, 0, 0] S1x1x64x64.size inb_S3x3x64x64_S1x1x64x64_2_1_0_0
abbrev rw22 : Rect S3x3x64x64 := Rect.unit (s := S3x3x64x64) ![2, 2, 0, 0] S1x1x64x64.size inb_S3x3x64x64_S1x1x64x64_2_2_0_0

/-- The accumulator before the ReLU: nine tap products added in the order (dy, dx) = (0,0), (0,1), …, (2,2), then the bias row,
    as a function of the two row tiles, the filter and the bias. -/
def acc (xa xb : Vec F S1x16x240x64 .bf16) (wk : Vec F S3x3x64x64 .bf16) (b : Vec F S1x64 .f32) : FVec F S3840x64 .f32 :=
  k1_pay8 (k1_pay2 (View.ld xa rx) (View.ld xb rx)) (k1_pay3 (View.ld xa rx) (View.ld xb rx)) (k1_pay4 (View.ld xa rx) (View.ld xb rx))
    (k1_pay5 (View.ld xa rx) (View.ld xb rx) (View.ld wk rw00) (View.ld wk rw01) (View.ld wk rw02))
    (k1_pay6 (View.ld xa rx) (View.ld xb rx)) (k1_pay7 (View.ld wk rw10))
    (View.ld wk rw11) (View.ld wk rw12) (View.ld wk rw20) (View.ld wk rw21) (View.ld wk rw22) (View.ld b rb)

/-- What the body leaves in the output tile's buffer: one covering store of the rectified, cropped accumulator. -/
def out (xa xb : Vec F S1x16x240x64 .bf16) (wk : Vec F S3x3x64x64 .bf16) (b : Vec F S1x64 .f32) : Vec F S1x16x224x64 .bf16 :=
  View.canon [⟨ro, k1_pay1 (acc xa xb wk b) (k1_pay9 (F := F))⟩]

/-- The proof data of the region on core `c`: arrays as found; inputs left at their blocks, the output tile at `out` of them;
    the invariant the scoped rest and the generator register (`Pipeline.ΦA`); nothing owed; the image array's share halved between the two row-tile windows that read it, full shares elsewhere. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by
  dsimp only [dat]

/-- The invariant, the tallies owed and each window's share of its array, projected. -/
theorem Φ_eq (c : Dev nD) (t : Fin (cfg1.N + 1)) : (dat V c).Φ t = Pipeline.ΦA spec1 c := rfl
theorem owed_eq (c : Dev nD) (t : Fin (cfg1.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

/-- The store tiles the output buffer, so it covers it. -/
theorem cover_out (p0 : Vec F S1x16x224x64 .bf16) (y : S1x16x224x64.Idx) :
    ∃ pc ∈ ([⟨ro, p0⟩] : List (View.Piece (Elt F) S1x16x224x64 .bf16)), y ∈ pc.1.set :=
  View.cover_of_tiled [⟨ro, p0⟩] S1x16x224x64.size (by rfl) y

set_option maxHeartbeats 2000000 in
/-- The body on whole staging memrefs: the four inputs at read contents, the output at anything, runs to the
    continuation holding the inputs as they were and the output tile at `out` of them. -/
theorem sound_kernel (c : Dev nD) (E : Set ℕ) (i : grid1.Coords)
    (arg2 : Memref sig .tc .vmem S1x16x240x64 .bf16) (harg2 : arg2.IsWhole) (arg3 : Memref sig .tc .vmem S1x16x240x64 .bf16) (harg3 : arg3.IsWhole)
    (arg4 : Memref sig .tc .vmem S3x3x64x64 .bf16) (harg4 : arg4.IsWhole) (arg5 : Memref sig .tc .vmem S1x64 .f32) (harg5 : arg5.IsWhole)
    (arg6 : Memref sig .tc .vmem S1x16x224x64 .bf16) (harg6 : arg6.IsWhole)
    (x0 x1 : Vec F S1x16x240x64 .bf16) (x2 : Vec F S3x3x64x64 .bf16) (x3 : Vec F S1x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE (defs₀ (F := F)) Variants.none c none) E
          (cc1__conv_kernel i arg2 harg2 arg3 harg3 arg4 harg4 arg5 harg5 arg6 harg6) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _)]
  unfold out acc
  sl_unfold_words
  rfl

/-! ## The input windows' buffers before the body

An input window's buffer holds the window's block of its array at every point, fetched there or not: at a point that
does not fetch it the block index has not moved since the last fetch, and the body leaves the buffer as it found it.
(The filter and the bias are fetched once, at the first point; the two row tiles at every point.) -/

theorem before_0 (c : Dev nD) (t : Fin cfg1.N) (d) : (dat V c).before 0 t d = iblk V c 0 t := by
  have hk : ∀ t, (cfg1.win 0).cut (cfg1.grid.coords t) ((dat V c).after 0 t) = (dat V c).blockOf 0 t := fun t => by
    rw [after_0]; unfold Dat.blockOf iblk; rw [A_eq]
  rw [(dat V c).before_in_eq_fetched 0 rfl (fun _ => rfl) (fun _ _ _ => rfl) hk t d]
  unfold Dat.fetched Dat.blockOf iblk; rw [A_eq]; rfl

theorem before_1 (c : Dev nD) (t : Fin cfg1.N) (d) : (dat V c).before 1 t d = iblk V c 1 t := by
  have hk : ∀ t, (cfg1.win 1).cut (cfg1.grid.coords t) ((dat V c).after 1 t) = (dat V c).blockOf 1 t := fun t => by
    rw [after_1]; unfold Dat.blockOf iblk; rw [A_eq]
  rw [(dat V c).before_in_eq_fetched 1 rfl (fun _ => rfl) (fun _ _ _ => rfl) hk t d]
  unfold Dat.fetched Dat.blockOf iblk; rw [A_eq]; rfl

theorem before_2 (c : Dev nD) (t : Fin cfg1.N) (d) : (dat V c).before 2 t d = iblk V c 2 t := by
  have hk : ∀ t, (cfg1.win 2).cut (cfg1.grid.coords t) ((dat V c).after 2 t) = (dat V c).blockOf 2 t := fun t => by
    rw [after_2]; unfold Dat.blockOf iblk; rw [A_eq]
  rw [(dat V c).before_in_eq_fetched 2 rfl (fun _ => rfl) (fun _ _ _ => rfl) hk t d]
  unfold Dat.fetched Dat.blockOf iblk; rw [A_eq]; rfl

theorem before_3 (c : Dev nD) (t : Fin cfg1.N) (d) : (dat V c).before 3 t d = iblk V c 3 t := by
  have hk : ∀ t, (cfg1.win 3).cut (cfg1.grid.coords t) ((dat V c).after 3 t) = (dat V c).blockOf 3 t := fun t => by
    rw [after_3]; unfold Dat.blockOf iblk; rw [A_eq]
  rw [(dat V c).before_in_eq_fetched 3 rfl (fun _ => rfl) (fun _ _ _ => rfl) hk t d]
  unfold Dat.fetched Dat.blockOf iblk; rw [A_eq]; rfl

/-! ## The body at a point of the grid -/

/-- The body at point `t`, called on the windows' current buffers — the inputs' at their blocks, the output's at
    anything — leaves the inputs' as they were and the output's at `out` of the four blocks; the invariant and the
    core's tallies pass through unread. -/
theorem sound_body (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t)
            ∗ owns (c : Thread nD τ) (st1_3 t) fullShare ((dat V c).after 3 t)
            ∗ owns (c : Thread nD τ) (st1_4 t) fullShare ((dat V c).after 4 t))) := by
  unfold bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the five windows conjoined one by one. -/
theorem body_obligation (c : Dev nD) : BodyObligation (dat (F := F) V c) (defs₀ (F := F)) Variants.none () Set.univ := fun t => by
  rw [bigSep_W1, bigSep_W1]
  exact sound_body V c t

end Cert.Kernel.Reg1
-- ==== Proof.K.Reg2.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

/-! # Region 2: the per-image L1 distance of one of the earlier feature levels

The grid is 16 images by 49 row tiles.  At point (n, q) the body adds, to every entry of the (1, 8, 128) result tile of
image n, the sum over the 128 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 128 × 512 row tile of image n,
    resp. n + 16; for the result the (1, 8, 128) tile of image n. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The result tile set to zero: what the body stores first at q = 0. -/
abbrev zeroTile : Vec F S1x8x128 .f32 := k2_pay1 (F := F)

/-- One point's work: the tile-wide sum of |x − y| added to every entry of the carried tile `acc`. -/
abbrev addDist (c : Dev nD) (t : Fin cfg2.N) (acc : Vec F S1x8x128 .f32) : Vec F S1x8x128 .f32 :=
  k2_pay2 (tile V c 0 t) (tile V c 1 t) acc

/-- THE RUNNING SUM: the result tile after the body at grid position `n` — started from zero where the row tile is the
    first of its image (n ≡ 0 mod 49), else continued from the position before. -/
def running (c : Dev nD) : (n : ℕ) → n < cfg2.N → Vec F S1x8x128 .f32
  | 0, hn => addDist V c ⟨0, hn⟩ zeroTile
  | n + 1, hn => addDist V c ⟨n + 1, hn⟩ (if (n + 1) % 49 = 0 then zeroTile else running c n (Nat.lt_of_succ_lt hn))

theorem running_first (c : Dev nD) (t : Fin cfg2.N) (h0 : t.val % 49 = 0) :
    running V c t.val t.isLt = addDist V c t zeroTile := by
  obtain ⟨n, hn⟩ := t
  cases n with
  | zero => show running V c 0 hn = _; rw [running]
  | succ n =>
    have h0' : (n + 1) % 49 = 0 := h0
    show running V c (n + 1) hn = _
    rw [running, if_pos h0']

theorem running_next (c : Dev nD) (t : Fin cfg2.N) (h0 : ¬ t.val % 49 = 0) :
    running V c t.val t.isLt = addDist V c t (running V c (t.val - 1) (Nat.lt_of_le_of_lt (Nat.sub_le _ _) t.isLt)) := by
  obtain ⟨n, hn⟩ := t
  cases n with
  | zero => exact absurd (Nat.zero_mod 49) h0
  | succ n =>
    have h0' : ¬ (n + 1) % 49 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => running V c t.val t.isLt
  Φ _ := Pipeline.ΦA spec2 c
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]

theorem after_x (c : Dev nD) (t : Fin cfg2.N) : (dat V c).after 0 t = tile V c 0 t := by dsimp only [dat]
theorem after_y (c : Dev nD) (t : Fin cfg2.N) : (dat V c).after 1 t = tile V c 1 t := by dsimp only [dat]
theorem after_sum (c : Dev nD) (t : Fin cfg2.N) : (dat V c).after 2 t = running V c t.val t.isLt := by dsimp only [dat]

/-- Each input's current buffer holds its tile when the body runs. -/
theorem before_x (c : Dev nD) (t : Fin cfg2.N) (d) : (dat V c).before 0 t d = tile V c 0 t := by
  rw [Dat.before_fetched _ 0 t (fetch2_0 t) d]
  unfold Dat.fetched Dat.blockOf tile
  rw [A_eq]; try rfl
theorem before_y (c : Dev nD) (t : Fin cfg2.N) (d) : (dat V c).before 1 t d = tile V c 1 t := by
  rw [Dat.before_fetched _ 1 t (fetch2_1 t) d]
  unfold Dat.fetched Dat.blockOf tile
  rw [A_eq]; try rfl
/-- Within an image (q ≠ 0) the result's buffer holds the running sum of the position before. -/
theorem before_sum (c : Dev nD) (t : Fin cfg2.N) (h0 : ¬ t.val % 49 = 0) (d) :
    (dat V c).before 2 t d = running V c (t.val - 1) (Nat.lt_of_le_of_lt (Nat.sub_le _ _) t.isLt) := by
  have hN : t.val < 16 * 49 := lt_of_lt_of_eq t.isLt (show cfg2.N = 16 * 49 from N_2)
  rw [Dat.before_out_kept _ 2 rfl t (by omega)
    (Bool.eq_false_iff.mpr fun h => by have := (flush2_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid2.Coords) : Prop :=
  (Scalar.cmpi .ne (Scalar.extui (Scalar.cmpi .eq (BitVec.ofNat 32 (i 1).val) 0#32)) 0#32) = 1#1

/-- Along the grid's row-major order it holds at the positions ≡ 0 (mod 49). -/
theorem firstTile_iff : ∀ t : Fin cfg2.N, firstTile (grid2.coords t) ↔ t.val % 49 = 0 :=
  (by decide +kernel : ∀ t : Fin grid2.N, firstTile (grid2.coords t) ↔ t.val % 49 = 0)

set_option maxHeartbeats 1000000 in
/-- At the first row tile of an image (q = 0): whatever the result's buffer held, it is set to zero, and the tile's sum
    of |x − y| is added to that. -/
theorem kernel_first (c : Dev nD) (E : Set ℕ) (i : grid2.Coords)
    (ax : Memref sig .tc .vmem S1x128x512 .bf16) (hax : ax.IsWhole) (ay : Memref sig .tc .vmem S1x128x512 .bf16) (hay : ay.IsWhole)
    (ao : Memref sig .tc .vmem S1x8x128 .f32) (hao : ao.IsWhole) (hq : firstTile i)
    (x y : Vec F S1x128x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k2_pay2 x y (k2_pay1 (F := F)))) -∗ K ⟨⟩))
      ⊢ wp frame (wpE (defs₀ (F := F)) Variants.none c none) E (cc2__l1_kernel i ax hax ay hay ao hao) K := by
  simp only [cc2__l1_kernel_eq_skeleton]; unfold cc2__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid2.Coords)
    (ax : Memref sig .tc .vmem S1x128x512 .bf16) (hax : ax.IsWhole) (ay : Memref sig .tc .vmem S1x128x512 .bf16) (hay : ay.IsWhole)
    (ao : Memref sig .tc .vmem S1x8x128 .f32) (hao : ao.IsWhole) (hq : ¬ firstTile i)
    (x y : Vec F S1x128x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k2_pay2 x y acc)) -∗ K ⟨⟩))
      ⊢ wp frame (wpE (defs₀ (F := F)) Variants.none c none) E (cc2__l1_kernel i ax hax ay hay ao hao) K := by
  simp only [cc2__l1_kernel_eq_skeleton]; unfold cc2__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg2.N) :
    bodyPre V c t ⊢ wp frame (wpE (defs₀ (F := F)) Variants.none c none) Set.univ (bodyAt2 (F := F) t) (fun _ => bodyPost V c t) := by
  unfold bodyPre bodyPost bodyAt2
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 49 = 0
  · rw [running_first V c t h0]
    iintro ⟨HΦ, Ho, ⟨%d0, H0⟩, ⟨%d1, H1⟩, ⟨%d2, H2⟩⟩
    iapply (kernel_first c Set.univ (grid2.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid2.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.K.Reg3.lean ====
/-
  REGION 3 of the network: 2×2 max pooling of the first stage, [32, 224, 112, 2, 64] → [32, 112, 112, 64].
  A grid of 32 × 14 points; at point (n, r) the input window is rows 16r … 16r+15 of image n, each row as
  112 column pairs of 64 channels, and the output window is the 8 pooled rows 8r … 8r+7. The body reads the
  whole input block, takes the maximum over each column pair and then over each pair of rows, and stores
  the whole output block. This module holds, for any float model: the blocks, what the body leaves, the
  body's triple, the proof data and the body obligation.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Reg3

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers as the region finds them.
variable (V : (c : Dev nD) → (b : Ref sig .tc) → Buf (Elt F) ((c : Thread nD τ).loc b))

/-! ## The blocks -/

/-- Window \`w\`'s block at point \`t\`: its array, as the region finds it, read through the block's view. -/
def blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## What the body leaves -/

/-- The pooled block of an input block \`x\` (16 rows × 112 column pairs × 64 channels): the maximum over each
    column pair, then over each pair of rows — 8 rows × 112 columns × 64 channels. -/
def pooled (x : Vec F S1x16x112x2x64 .bf16) : Vec F S1x8x112x64 .bf16 := k3_pay1 x

/-! ## The body's triple -/

/-- The body on whole staging memrefs, the input's at contents \`x\` and the output's at anything, runs to the
    continuation holding the input's as it was and the output's at \`pooled x\`. -/
theorem kernel_triple (c : Dev nD) (E : Set ℕ) (i : grid3.Coords)
    (arg2 : Memref sig .tc .vmem S1x16x112x2x64 .bf16) (harg2 : arg2.IsWhole)
    (arg3 : Memref sig .tc .vmem S1x8x112x64 .bf16) (harg3 : arg3.IsWhole)
    (x : Vec F S1x16x112x2x64 .bf16) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (pooled x)) -∗ K ⟨⟩))
      ⊢ wp frame (wpE (defs₀ (F := F)) Variants.none c none) E (cc3__pool_kernel i arg2 harg2 arg3 harg3) K := by
  rw [cc3__pool_kernel_eq_skeleton]
  unfold cc3__pool_kernel_skel owns
  iintro ⟨⟨%fx, %hx, Hx⟩, ⟨%d, %fy, -, Hy⟩, Hk⟩
  subst hx
  sl_exec
  sl_step
  iapply Hk
  isplitl [Hx]
  · iexists fx; isplitr
    · ipureintro; rfl
    · iexact Hx
  iexists _; isplitr
  swap
  · iexact Hy
  ipureintro
  have z4 : (![0, 0, 0, 0] : Fin S1x8x112x64.rank → Nat) = fun _ => 0 := by
    funext a; fin_cases a <;> rfl
  have z5 : (![0, 0, 0, 0, 0] : Fin S1x16x112x2x64.rank → Nat) = fun _ => 0 := by
    funext a; fin_cases a <;> rfl
  refine (View.read_writes_eq_canon _ _ _ ?_).trans ?_
  · intro y
    exact ⟨_, List.mem_singleton_self _, View.mem_set_unit_zero z4 inb_S1x8x112x64_S1x8x112x64_0_0_0_0 y⟩
  · rw [View.canon_unit_zero z4, View.readAt_eq_ld, View.ld_unit_zero z5]
    rfl

/-! ## The proof data -/

/-- The proof data of the region on core \`c\`: the two arrays as the region finds them; after the body at point
    \`t\` the input's buffer at its block and the output's at the pooled block; the invariant the scoped rest and
    the generator register, untouched; nothing owed; full shares. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => pooled (blk V c 0 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = pooled (blk V c 0 t) := by dsimp only [dat]

/-- The input's current staging buffer holds its block when the body runs: it is fetched at every point. -/
theorem before_0 (c : Dev nD) (t : Fin cfg3.N) (d) : (dat V c).before 0 t d = blk V c 0 t := by
  unfold Dat.before
  rw [if_pos (fetch3_0 t)]
  unfold Dat.fetched Dat.blockOf blk
  rw [A_eq]
  rfl

/-! ## The body obligation -/

theorem body_obligation (c : Dev nD) :
    BodyObligation (dat (F := F) V c) (defs₀ (F := F)) Variants.none () Set.univ := fun t => by
  rw [bigSep_W3, bigSep_W3]
  show iprop(Pipeline.ΦA spec3 c ∗ (dat V c).owesAt () t.castSucc
        ∗ (∃ d, owns (c : Thread nD τ) (st3_0 t) fullShare ((dat V c).before 0 t d))
        ∗ (∃ d, owns (c : Thread nD τ) (st3_1 t) fullShare ((dat V c).before 1 t d)))
      ⊢ wp frame (wpE (defs₀ (F := F)) Variants.none c none) Set.univ (bodyAt3 t) (fun _ =>
          iprop(Pipeline.ΦA spec3 c ∗ (dat V c).owesAt () t.castSucc
            ∗ owns (c : Thread nD τ) (st3_0 t) fullShare ((dat V c).after 0 t)
            ∗ owns (c : Thread nD τ) (st3_1 t) fullShare ((dat V c).after 1 t)))
  simp only [before_0, after_0, after_1]
  iintro ⟨HΦ, Ho, ⟨%d0, Hin⟩, ⟨%d1, Hout⟩⟩
  iapply (kernel_triple c Set.univ _ _ _ _ _ (blk V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

end Cert.Kernel.Reg3
-- ==== Proof.K.Reg4.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-block rectangles of the two row tiles, the bias row and the output tile, and the nine taps of the filter. -/
abbrev rx : Rect S1x16x128x64 := Rect.unit (s := S1x16x128x64) ![0, 0, 0, 0] S1x16x128x64.size inb_S1x16x128x64_S1x16x128x64_0_0_0_0
abbrev rb : Rect S1x128 := Rect.unit (s := S1x128) ![0, 0] S1x128.size inb_S1x128_S1x128_0_0
abbrev ro : Rect S1x16x112x128 := Rect.unit (s := S1x16x112x128) ![0, 0, 0, 0] S1x16x112x128.size inb_S1x16x112x128_S1x16x112x128_0_0_0_0
abbrev rw00 : Rect S3x3x64x128 := Rect.unit (s := S3x3x64x128) ![0, 0, 0, 0] S1x1x64x128.size inb_S3x3x64x128_S1x1x64x128_0_0_0_0
abbrev rw01 : Rect S3x3x64x128 := Rect.unit (s := S3x3x64x128) ![0, 1, 0, 0] S1x1x64x128.size inb_S3x3x64x128_S1x1x64x128_0_1_0_0
abbrev rw02 : Rect S3x3x64x128 := Rect.unit (s := S3x3x64x128) ![0, 2, 0, 0] S1x1x64x128.size inb_S3x3x64x128_S1x1x64x128_0_2_0_0
abbrev rw10 : Rect S3x3x64x128 := Rect.unit (s := S3x3x64x128) ![1, 0, 0, 0] S1x1x64x128.size inb_S3x3x64x128_S1x1x64x128_1_0_0_0
abbrev rw11 : Rect S3x3x64x128 := Rect.unit (s := S3x3x64x128) ![1, 1, 0, 0] S1x1x64x128.size inb_S3x3x64x128_S1x1x64x128_1_1_0_0
abbrev rw12 : Rect S3x3x64x128 := Rect.unit (s := S3x3x64x128) ![1, 2, 0, 0] S1x1x64x128.size inb_S3x3x64x128_S1x1x64x128_1_2_0_0
abbrev rw20 : Rect S3x3x64x128 := Rect.unit (s := S3x3x64x128) ![2, 0, 0, 0] S1x1x64x128.size inb_S3x3x64x128_S1x1x64x128_2_0_0_0
abbrev rw21 : Rect S3x3x64x128 := Rect.unit (s := S3x3x64x128) ![2, 1, 0, 0] S1x1x64x128.size inb_S3x3x64x128_S1x1x64x128_2_1_0_0
abbrev rw22 : Rect S3x3x64x128 := Rect.unit (s := S3x3x64x128) ![2, 2, 0, 0] S1x1x64x128.size inb_S3x3x64x128_S1x1x64x128_2_2_0_0

/-- The accumulator before the ReLU: nine tap products added in the order (dy, dx) = (0,0), (0,1), …, (2,2), then the bias row,
    as a function of the two row tiles, the filter and the bias. -/
def acc (xa xb : Vec F S1x16x128x64 .bf16) (wk : Vec F S3x3x64x128 .bf16) (b : Vec F S1x128 .f32) : FVec F S2048x128 .f32 :=
  k4_pay8 (k4_pay2 (View.ld xa rx) (View.ld xb rx)) (k4_pay3 (View.ld xa rx) (View.ld xb rx)) (k4_pay4 (View.ld xa rx) (View.ld xb rx))
    (k4_pay5 (View.ld xa rx) (View.ld xb rx) (View.ld wk rw00) (View.ld wk rw01) (View.ld wk rw02))
    (k4_pay6 (View.ld xa rx) (View.ld xb rx)) (k4_pay7 (View.ld wk rw10))
    (View.ld wk rw11) (View.ld wk rw12) (View.ld wk rw20) (View.ld wk rw21) (View.ld wk rw22) (View.ld b rb)

/-- What the body leaves in the output tile's buffer: one covering store of the rectified, cropped accumulator. -/
def out (xa xb : Vec F S1x16x128x64 .bf16) (wk : Vec F S3x3x64x128 .bf16) (b : Vec F S1x128 .f32) : Vec F S1x16x112x128 .bf16 :=
  View.canon [⟨ro, k4_pay1 (acc xa xb wk b) (k4_pay9 (F := F))⟩]

/-- The proof data of the region on core `c`: arrays as found; inputs left at their blocks, the output tile at `out` of them;
    the invariant the scoped rest and the generator register (`Pipeline.ΦA`); nothing owed; the image array's share halved between the two row-tile windows that read it, full shares elsewhere. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec4 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg4.W) : (dat V c).A w = V c (Pipeline.arrRef spec4 w) := by
  dsimp only [dat]

/-- The invariant, the tallies owed and each window's share of its array, projected. -/
theorem Φ_eq (c : Dev nD) (t : Fin (cfg4.N + 1)) : (dat V c).Φ t = Pipeline.ΦA spec4 c := rfl
theorem owed_eq (c : Dev nD) (t : Fin (cfg4.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) :
    (dat V c).after 4 t = out (iblk V c 0 t) (iblk V c 1 t) (iblk V c 2 t) (iblk V c 3 t) := by dsimp only [dat]

/-- The store tiles the output buffer, so it covers it. -/
theorem cover_out (p0 : Vec F S1x16x112x128 .bf16) (y : S1x16x112x128.Idx) :
    ∃ pc ∈ ([⟨ro, p0⟩] : List (View.Piece (Elt F) S1x16x112x128 .bf16)), y ∈ pc.1.set :=
  View.cover_of_tiled [⟨ro, p0⟩] S1x16x112x128.size (by rfl) y

set_option maxHeartbeats 2000000 in
/-- The body on whole staging memrefs: the four inputs at read contents, the output at anything, runs to the
    continuation holding the inputs as they were and the output tile at `out` of them. -/
theorem sound_kernel (c : Dev nD) (E : Set ℕ) (i : grid4.Coords)
    (arg2 : Memref sig .tc .vmem S1x16x128x64 .bf16) (harg2 : arg2.IsWhole) (arg3 : Memref sig .tc .vmem S1x16x128x64 .bf16) (harg3 : arg3.IsWhole)
    (arg4 : Memref sig .tc .vmem S3x3x64x128 .bf16) (harg4 : arg4.IsWhole) (arg5 : Memref sig .tc .vmem S1x128 .f32) (harg5 : arg5.IsWhole)
    (arg6 : Memref sig .tc .vmem S1x16x112x128 .bf16) (harg6 : arg6.IsWhole)
    (x0 x1 : Vec F S1x16x128x64 .bf16) (x2 : Vec F S3x3x64x128 .bf16) (x3 : Vec F S1x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE (defs₀ (F := F)) Variants.none c none) E
          (cc4__conv_kernel i arg2 harg2 arg3 harg3 arg4 harg4 arg5 harg5 arg6 harg6) K := by
  simp only [cc4__conv_kernel_eq_skeleton]; unfold cc4__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _)]
  unfold out acc
  sl_unfold_words
  rfl

/-! ## The input windows' buffers before the body

An input window's buffer holds the window's block of its array at every point, fetched there or not: at a point that
does not fetch it the block index has not moved since the last fetch, and the body leaves the buffer as it found it.
(The filter and the bias are fetched once, at the first point; the two row tiles at every point.) -/

theorem before_0 (c : Dev nD) (t : Fin cfg4.N) (d) : (dat V c).before 0 t d = iblk V c 0 t := by
  have hk : ∀ t, (cfg4.win 0).cut (cfg4.grid.coords t) ((dat V c).after 0 t) = (dat V c).blockOf 0 t := fun t => by
    rw [after_0]; unfold Dat.blockOf iblk; rw [A_eq]
  rw [(dat V c).before_in_eq_fetched 0 rfl (fun _ => rfl) (fun _ _ _ => rfl) hk t d]
  unfold Dat.fetched Dat.blockOf iblk; rw [A_eq]; rfl

theorem before_1 (c : Dev nD) (t : Fin cfg4.N) (d) : (dat V c).before 1 t d = iblk V c 1 t := by
  have hk : ∀ t, (cfg4.win 1).cut (cfg4.grid.coords t) ((dat V c).after 1 t) = (dat V c).blockOf 1 t := fun t => by
    rw [after_1]; unfold Dat.blockOf iblk; rw [A_eq]
  rw [(dat V c).before_in_eq_fetched 1 rfl (fun _ => rfl) (fun _ _ _ => rfl) hk t d]
  unfold Dat.fetched Dat.blockOf iblk; rw [A_eq]; rfl

theorem before_2 (c : Dev nD) (t : Fin cfg4.N) (d) : (dat V c).before 2 t d = iblk V c 2 t := by
  have hk : ∀ t, (cfg4.win 2).cut (cfg4.grid.coords t) ((dat V c).after 2 t) = (dat V c).blockOf 2 t := fun t => by
    rw [after_2]; unfold Dat.blockOf iblk; rw [A_eq]
  rw [(dat V c).before_in_eq_fetched 2 rfl (fun _ => rfl) (fun _ _ _ => rfl) hk t d]
  unfold Dat.fetched Dat.blockOf iblk; rw [A_eq]; rfl

theorem before_3 (c : Dev nD) (t : Fin cfg4.N) (d) : (dat V c).before 3 t d = iblk V c 3 t := by
  have hk : ∀ t, (cfg4.win 3).cut (cfg4.grid.coords t) ((dat V c).after 3 t) = (dat V c).blockOf 3 t := fun t => by
    rw [after_3]; unfold Dat.blockOf iblk; rw [A_eq]
  rw [(dat V c).before_in_eq_fetched 3 rfl (fun _ => rfl) (fun _ _ _ => rfl) hk t d]
  unfold Dat.fetched Dat.blockOf iblk; rw [A_eq]; rfl

/-! ## The body at a point of the grid -/

/-- The body at point `t`, called on the windows' current buffers — the inputs' at their blocks, the output's at
    anything — leaves the inputs' as they were and the output's at `out` of the four blocks; the invariant and the
    core's tallies pass through unread. -/
theorem sound_body (c : Dev nD) (t : Fin cfg4.N) :
    iprop((dat V c).Φ t.castSucc ∗ (dat V c).owesAt () t.castSucc
        ∗ (∃ d, owns (c : Thread nD τ) (st4_0 t) fullShare ((dat V c).before 0 t d))
        ∗ (∃ d, owns (c : Thread nD τ) (st4_1 t) fullShare ((dat V c).before 1 t d))
        ∗ (∃ d, owns (c : Thread nD τ) (st4_2 t) fullShare ((dat V c).before 2 t d))
        ∗ (∃ d, owns (c : Thread nD τ) (st4_3 t) fullShare ((dat V c).before 3 t d))
        ∗ (∃ d, owns (c : Thread nD τ) (st4_4 t) fullShare ((dat V c).before 4 t d)))
      ⊢ wp frame (wpE (defs₀ (F := F)) Variants.none c none) Set.univ (bodyAt4 t) (fun _ =>
          iprop((dat V c).Φ t.succ ∗ (dat V c).owesAt () t.succ
            ∗ owns (c : Thread nD τ) (st4_0 t) fullShare ((dat V c).after 0 t)
            ∗ owns (c : Thread nD τ) (st4_1 t) fullShare ((dat V c).after 1 t)
            ∗ owns (c : Thread nD τ) (st4_2 t) fullShare ((dat V c).after 2 t)
            ∗ owns (c : Thread nD τ) (st4_3 t) fullShare ((dat V c).after 3 t)
            ∗ owns (c : Thread nD τ) (st4_4 t) fullShare ((dat V c).after 4 t))) := by
  unfold bodyAt4
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the five windows conjoined one by one. -/
theorem body_obligation (c : Dev nD) : BodyObligation (dat (F := F) V c) (defs₀ (F := F)) Variants.none () Set.univ := fun t => by
  rw [bigSep_W4, bigSep_W4]
  exact sound_body V c t

end Cert.Kernel.Reg4
-- ==== Proof.K.Reg5.lean ====
/-
  The 3×3 convolution 128 → 128 with bias and ReLU on a batch of 32 images of 112×112 (kernel-side program, pallas
  region 5), 7 row tile(s) of 16 rows per image.  The padded input (128 rows of 128 columns per image) is handed
  to TWO windows of one array: row tile r and row tile r + 1.  The body stacks both row blocks and a zero tail into one slab of
  4224 pixel rows, and for each horizontal tap dx lane-concatenates the three vertically shifted slab windows (row offsets
  dx, dx+128, dx+256) into one operand of depth 3·128, multiplied with plane dx of the [3, 384, 128] weight array:
  three products of contraction depth 384 summed, then bias, max with 0, and the 112 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The rectangles the body reads and writes -/

/-- A whole row block of the padded input (either window). -/
abbrev rX : Rect S1x16x128x128 := Rect.unit (s := S1x16x128x128) ![0, 0, 0, 0] S1x16x128x128.size Gen.inb_S1x16x128x128_S1x16x128x128_0_0_0_0
/-- Plane `dx = 0, 1, 2` of the weights. -/
abbrev rK0 : Rect S3x384x128 := Rect.unit (s := S3x384x128) ![0, 0, 0] S1x384x128.size Gen.inb_S3x384x128_S1x384x128_0_0_0
abbrev rK1 : Rect S3x384x128 := Rect.unit (s := S3x384x128) ![1, 0, 0] S1x384x128.size Gen.inb_S3x384x128_S1x384x128_1_0_0
abbrev rK2 : Rect S3x384x128 := Rect.unit (s := S3x384x128) ![2, 0, 0] S1x384x128.size Gen.inb_S3x384x128_S1x384x128_2_0_0
/-- The bias row. -/
abbrev rB : Rect S1x128 := Rect.unit (s := S1x128) ![0, 0] S1x128.size Gen.inb_S1x128_S1x128_0_0
/-- The whole output tile. -/
abbrev rY : Rect S1x16x112x128 := Rect.unit (s := S1x16x112x128) ![0, 0, 0, 0] S1x16x112x128.size Gen.inb_S1x16x112x128_S1x16x112x128_0_0_0_0

/-! ## What the body computes -/

/-- The three depth-768 products summed, one row per padded pixel position (28 · 32) and one column per output
    channel: from the upper row block `xa`, the lower row block `xb` and the weights `wk`. -/
def acc (xa xb : Vec F S1x16x128x128 .bf16) (wk : Vec F S3x384x128 .bf16) : FVec F S2048x128 .f32 :=
  k5_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x16x128x128 .bf16) (wk : Vec F S3x384x128 .bf16) (b : Vec F S1x128 .f32) : Vec F S1x16x112x128 .bf16 :=
  View.canon [⟨rY, k5_pay1 (acc xa xb wk) (View.ld b rB)⟩]

/-- The one store covers the tile. -/
theorem tile_cover (p : Vec F S1x16x112x128 .bf16) (y : S1x16x112x128.Idx) :
    ∃ pc ∈ ([⟨rY, p⟩] : List (View.Piece (Elt F) S1x16x112x128 .bf16)), y ∈ pc.1.set :=
  View.cover_of_tiled [⟨rY, p⟩] S1x16x112x128.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid5.Coords)
    (a0 : Memref sig .tc .vmem S1x16x128x128 .bf16) (h0 : a0.IsWhole) (a1 : Memref sig .tc .vmem S1x16x128x128 .bf16) (h1 : a1.IsWhole)
    (a2 : Memref sig .tc .vmem S3x384x128 .bf16) (h2 : a2.IsWhole) (a3 : Memref sig .tc .vmem S1x128 .f32) (h3 : a3.IsWhole)
    (a4 : Memref sig .tc .vmem S1x16x112x128 .bf16) (h4 : a4.IsWhole)
    (xa xb : Vec F S1x16x128x128 .bf16) (wk : Vec F S3x384x128 .bf16) (b : Vec F S1x128 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc5__conv_kernel i a0 h0 a1 h1 a2 h2 a3 h3 a4 h4) K := by
  simp only [cc5__conv_kernel_eq_skeleton]; unfold cc5__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec5 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg5.W) : (dat V c).A w = V c (Pipeline.arrRef spec5 w) := by
  dsimp only [dat]

/-- The invariant, the tallies and the shares, by name. -/
theorem Φ_eq (c : Dev nD) (t : Fin (cfg5.N + 1)) : (dat V c).Φ t = Pipeline.ΦA spec5 c := rfl
theorem owed_eq (c : Dev nD) (t : Fin (cfg5.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = blk V c 3 t := by dsimp only [dat]
/-- What the body leaves in the output window's buffer at point `t`. -/
theorem after_4 (c : Dev nD) (t : Fin cfg5.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg5.N) (d) : (dat V c).before 0 t d = blk V c 0 t := by
  have hkeep : ∀ t, (cfg5.win 0).cut (cfg5.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg5.N) (d) : (dat V c).before 1 t d = blk V c 1 t := by
  have hkeep : ∀ t, (cfg5.win 1).cut (cfg5.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg5.N) (d) : (dat V c).before 2 t d = blk V c 2 t := by
  have hkeep : ∀ t, (cfg5.win 2).cut (cfg5.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg5.N) (d) : (dat V c).before 3 t d = blk V c 3 t := by
  have hkeep : ∀ t, (cfg5.win 3).cut (cfg5.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg5.N) :
    iprop((dat V c).Φ t.castSucc ∗ (dat V c).owesAt () t.castSucc
        ∗ (∃ d, owns (c : Thread nD τ) (st5_0 t) fullShare ((dat V c).before 0 t d))
        ∗ (∃ d, owns (c : Thread nD τ) (st5_1 t) fullShare ((dat V c).before 1 t d))
        ∗ (∃ d, owns (c : Thread nD τ) (st5_2 t) fullShare ((dat V c).before 2 t d))
        ∗ (∃ d, owns (c : Thread nD τ) (st5_3 t) fullShare ((dat V c).before 3 t d))
        ∗ (∃ d, owns (c : Thread nD τ) (st5_4 t) fullShare ((dat V c).before 4 t d)))
      ⊢ wp frame (wpE (defs₀ (F := F)) Variants.none c none) Set.univ (bodyAt5 t) (fun _ =>
          iprop((dat V c).Φ t.succ ∗ (dat V c).owesAt () t.succ
            ∗ owns (c : Thread nD τ) (st5_0 t) fullShare ((dat V c).after 0 t)
            ∗ owns (c : Thread nD τ) (st5_1 t) fullShare ((dat V c).after 1 t)
            ∗ owns (c : Thread nD τ) (st5_2 t) fullShare ((dat V c).after 2 t)
            ∗ owns (c : Thread nD τ) (st5_3 t) fullShare ((dat V c).after 3 t)
            ∗ owns (c : Thread nD τ) (st5_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W5, bigSep_W5]
  exact body_at V c t

end Cert.Kernel.Reg5
-- ==== Proof.K.Reg6.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

/-! # Region 6: the per-image L1 distance of one of the earlier feature levels

The grid is 16 images by 28 row tiles.  At point (n, q) the body adds, to every entry of the (1, 8, 128) result tile of
image n, the sum over the 112 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.Kernel.Reg6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 112 × 512 row tile of image n,
    resp. n + 16; for the result the (1, 8, 128) tile of image n. -/
def tile (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The result tile set to zero: what the body stores first at q = 0. -/
abbrev zeroTile : Vec F S1x8x128 .f32 := k6_pay1 (F := F)

/-- One point's work: the tile-wide sum of |x − y| added to every entry of the carried tile `acc`. -/
abbrev addDist (c : Dev nD) (t : Fin cfg6.N) (acc : Vec F S1x8x128 .f32) : Vec F S1x8x128 .f32 :=
  k6_pay2 (tile V c 0 t) (tile V c 1 t) acc

/-- THE RUNNING SUM: the result tile after the body at grid position `n` — started from zero where the row tile is the
    first of its image (n ≡ 0 mod 28), else continued from the position before. -/
def running (c : Dev nD) : (n : ℕ) → n < cfg6.N → Vec F S1x8x128 .f32
  | 0, hn => addDist V c ⟨0, hn⟩ zeroTile
  | n + 1, hn => addDist V c ⟨n + 1, hn⟩ (if (n + 1) % 28 = 0 then zeroTile else running c n (Nat.lt_of_succ_lt hn))

theorem running_first (c : Dev nD) (t : Fin cfg6.N) (h0 : t.val % 28 = 0) :
    running V c t.val t.isLt = addDist V c t zeroTile := by
  obtain ⟨n, hn⟩ := t
  cases n with
  | zero => show running V c 0 hn = _; rw [running]
  | succ n =>
    have h0' : (n + 1) % 28 = 0 := h0
    show running V c (n + 1) hn = _
    rw [running, if_pos h0']

theorem running_next (c : Dev nD) (t : Fin cfg6.N) (h0 : ¬ t.val % 28 = 0) :
    running V c t.val t.isLt = addDist V c t (running V c (t.val - 1) (Nat.lt_of_le_of_lt (Nat.sub_le _ _) t.isLt)) := by
  obtain ⟨n, hn⟩ := t
  cases n with
  | zero => exact absurd (Nat.zero_mod 28) h0
  | succ n =>
    have h0' : ¬ (n + 1) % 28 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg6 c where
  A w := V c (Pipeline.arrRef spec6 w)
  after w t := match w with
    | ⟨0, _⟩ => tile V c 0 t
    | ⟨1, _⟩ => tile V c 1 t
    | ⟨2, _⟩ => running V c t.val t.isLt
  Φ _ := Pipeline.ΦA spec6 c
  q w := match w with
    | ⟨0, _⟩ => fullShare.left
    | ⟨1, _⟩ => fullShare.right
    | ⟨2, _⟩ => fullShare
  owed _ := 0

theorem A_eq (c : Dev nD) (w : Fin cfg6.W) : (dat V c).A w = V c (Pipeline.arrRef spec6 w) := by
  dsimp only [dat]

theorem after_x (c : Dev nD) (t : Fin cfg6.N) : (dat V c).after 0 t = tile V c 0 t := by dsimp only [dat]
theorem after_y (c : Dev nD) (t : Fin cfg6.N) : (dat V c).after 1 t = tile V c 1 t := by dsimp only [dat]
theorem after_sum (c : Dev nD) (t : Fin cfg6.N) : (dat V c).after 2 t = running V c t.val t.isLt := by dsimp only [dat]

/-- Each input's current buffer holds its tile when the body runs. -/
theorem before_x (c : Dev nD) (t : Fin cfg6.N) (d) : (dat V c).before 0 t d = tile V c 0 t := by
  rw [Dat.before_fetched _ 0 t (fetch6_0 t) d]
  unfold Dat.fetched Dat.blockOf tile
  rw [A_eq]; try rfl
theorem before_y (c : Dev nD) (t : Fin cfg6.N) (d) : (dat V c).before 1 t d = tile V c 1 t := by
  rw [Dat.before_fetched _ 1 t (fetch6_1 t) d]
  unfold Dat.fetched Dat.blockOf tile
  rw [A_eq]; try rfl
/-- Within an image (q ≠ 0) the result's buffer holds the running sum of the position before. -/
theorem before_sum (c : Dev nD) (t : Fin cfg6.N) (h0 : ¬ t.val % 28 = 0) (d) :
    (dat V c).before 2 t d = running V c (t.val - 1) (Nat.lt_of_le_of_lt (Nat.sub_le _ _) t.isLt) := by
  have hN : t.val < 16 * 28 := lt_of_lt_of_eq t.isLt (show cfg6.N = 16 * 28 from N_6)
  rw [Dat.before_out_kept _ 2 rfl t (by omega)
    (Bool.eq_false_iff.mpr fun h => by have := (flush6_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid6.Coords) : Prop :=
  (Scalar.cmpi .ne (Scalar.extui (Scalar.cmpi .eq (BitVec.ofNat 32 (i 1).val) 0#32)) 0#32) = 1#1

/-- Along the grid's row-major order it holds at the positions ≡ 0 (mod 28). -/
theorem firstTile_iff : ∀ t : Fin cfg6.N, firstTile (grid6.coords t) ↔ t.val % 28 = 0 :=
  (by decide +kernel : ∀ t : Fin grid6.N, firstTile (grid6.coords t) ↔ t.val % 28 = 0)

set_option maxHeartbeats 1000000 in
/-- At the first row tile of an image (q = 0): whatever the result's buffer held, it is set to zero, and the tile's sum
    of |x − y| is added to that. -/
theorem kernel_first (c : Dev nD) (E : Set ℕ) (i : grid6.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : firstTile i)
    (x y : Vec F S1x112x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k6_pay2 x y (k6_pay1 (F := F)))) -∗ K ⟨⟩))
      ⊢ wp frame (wpE (defs₀ (F := F)) Variants.none c none) E (cc6__l1_kernel i ax hax ay hay ao hao) K := by
  simp only [cc6__l1_kernel_eq_skeleton]; unfold cc6__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid6.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : ¬ firstTile i)
    (x y : Vec F S1x112x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k6_pay2 x y acc)) -∗ K ⟨⟩))
      ⊢ wp frame (wpE (defs₀ (F := F)) Variants.none c none) E (cc6__l1_kernel i ax hax ay hay ao hao) K := by
  simp only [cc6__l1_kernel_eq_skeleton]; unfold cc6__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))

/-- and what it returns. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg6.N) :
    bodyPre V c t ⊢ wp frame (wpE (defs₀ (F := F)) Variants.none c none) Set.univ (bodyAt6 (F := F) t) (fun _ => bodyPost V c t) := by
  unfold bodyPre bodyPost bodyAt6
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 28 = 0
  · rw [running_first V c t h0]
    iintro ⟨HΦ, Ho, ⟨%d0, H0⟩, ⟨%d1, H1⟩, ⟨%d2, H2⟩⟩
    iapply (kernel_first c Set.univ (grid6.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid6.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W6, bigSep_W6]
  exact sound_body V c t

end Cert.Kernel.Reg6

end
-- ==== Proof.K.Reg7.lean ====
/-
  REGION 7 of the network: 2×2 max pooling of the second stage, [32, 112, 56, 2, 128] → [32, 56, 56, 128].
  A grid of 32 × 7 points; at point (n, r) the input window is rows 16r … 16r+15 of image n, each row as
  56 column pairs of 128 channels, and the output window is the 8 pooled rows 8r … 8r+7. The body reads the
  whole input block, takes the maximum over each column pair and then over each pair of rows, and stores
  the whole output block. This module holds, for any float model: the blocks, what the body leaves, the
  body's triple, the proof data and the body obligation.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Reg7

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers as the region finds them.
variable (V : (c : Dev nD) → (b : Ref sig .tc) → Buf (Elt F) ((c : Thread nD τ).loc b))

/-! ## The blocks -/

/-- Window \`w\`'s block at point \`t\`: its array, as the region finds it, read through the block's view. -/
def blk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## What the body leaves -/

/-- The pooled block of an input block \`x\` (16 rows × 56 column pairs × 128 channels): the maximum over each
    column pair, then over each pair of rows — 8 rows × 56 columns × 128 channels. -/
def pooled (x : Vec F S1x16x56x2x128 .bf16) : Vec F S1x8x56x128 .bf16 := k7_pay1 x

/-! ## The body's triple -/

/-- The body on whole staging memrefs, the input's at contents \`x\` and the output's at anything, runs to the
    continuation holding the input's as it was and the output's at \`pooled x\`. -/
theorem kernel_triple (c : Dev nD) (E : Set ℕ) (i : grid7.Coords)
    (arg2 : Memref sig .tc .vmem S1x16x56x2x128 .bf16) (harg2 : arg2.IsWhole)
    (arg3 : Memref sig .tc .vmem S1x8x56x128 .bf16) (harg3 : arg3.IsWhole)
    (x : Vec F S1x16x56x2x128 .bf16) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (pooled x)) -∗ K ⟨⟩))
      ⊢ wp frame (wpE (defs₀ (F := F)) Variants.none c none) E (cc7__pool_kernel i arg2 harg2 arg3 harg3) K := by
  rw [cc7__pool_kernel_eq_skeleton]
  unfold cc7__pool_kernel_skel owns
  iintro ⟨⟨%fx, %hx, Hx⟩, ⟨%d, %fy, -, Hy⟩, Hk⟩
  subst hx
  sl_exec
  sl_step
  iapply Hk
  isplitl [Hx]
  · iexists fx; isplitr
    · ipureintro; rfl
    · iexact Hx
  iexists _; isplitr
  swap
  · iexact Hy
  ipureintro
  have z4 : (![0, 0, 0, 0] : Fin S1x8x56x128.rank → Nat) = fun _ => 0 := by
    funext a; fin_cases a <;> rfl
  have z5 : (![0, 0, 0, 0, 0] : Fin S1x16x56x2x128.rank → Nat) = fun _ => 0 := by
    funext a; fin_cases a <;> rfl
  refine (View.read_writes_eq_canon _ _ _ ?_).trans ?_
  · intro y
    exact ⟨_, List.mem_singleton_self _, View.mem_set_unit_zero z4 inb_S1x8x56x128_S1x8x56x128_0_0_0_0 y⟩
  · rw [View.canon_unit_zero z4, View.readAt_eq_ld, View.ld_unit_zero z5]
    rfl

/-! ## The proof data -/

/-- The proof data of the region on core \`c\`: the two arrays as the region finds them; after the body at point
    \`t\` the input's buffer at its block and the output's at the pooled block; the invariant the scoped rest and
    the generator register, untouched; nothing owed; full shares. -/
def dat (c : Dev nD) : Dat τ (Elt F) Unit ℕ (UR sig nD τ) ℕ cfg7 c where
  A w := V c (Pipeline.arrRef spec7 w)
  after w t := match w with
    | ⟨0, _⟩ => blk V c 0 t
    | ⟨1, _⟩ => pooled (blk V c 0 t)
  Φ _ := Pipeline.ΦA spec7 c
  q _ := fullShare
  owed _ := 0

theorem A_eq (c : Dev nD) (w : Fin cfg7.W) : (dat V c).A w = V c (Pipeline.arrRef spec7 w) := by
  dsimp only [dat]

theorem after_0 (c : Dev nD) (t : Fin cfg7.N) : (dat V c).after 0 t = blk V c 0 t := by dsimp only [dat]
theorem after_1 (c : Dev nD) (t : Fin cfg7.N) : (dat V c).after 1 t = pooled (blk V c 0 t) := by dsimp only [dat]

/-- The input's current staging buffer holds its block when the body runs: it is fetched at every point. -/
theorem before_0 (c : Dev nD) (t : Fin cfg7.N) (d) : (dat V c).before 0 t d = blk V c 0 t := by
  unfold Dat.before
  rw [if_pos (fetch7_0 t)]
  unfold Dat.fetched Dat.blockOf blk
  rw [A_eq]
  rfl

/-! ## The body obligation -/

theorem body_obligation (c : Dev nD) :
    BodyObligation (dat (F := F) V c) (defs₀ (F := F)) Variants.none () Set.univ := fun t => by
  rw [bigSep_W7, bigSep_W7]
  show iprop(Pipeline.ΦA spec7 c ∗ (dat V c).owesAt () t.castSucc
        ∗ (∃ d, owns (c : Thread nD τ) (st7_0 t) fullShare ((dat V c).before 0 t d))
        ∗ (∃ d, owns (c : Thread nD τ) (st7_1 t) fullShare ((dat V c).before 1 t d)))
      ⊢ wp frame (wpE (defs₀ (F := F)) Variants.none c none) Set.univ (bodyAt7 t) (fun _ =>
          iprop(Pipeline.ΦA spec7 c ∗ (dat V c).owesAt () t.castSucc
            ∗ owns (c : Thread nD τ) (st7_0 t) fullShare ((dat V c).after 0 t)
            ∗ owns (c : Thread nD τ) (st7_1 t) fullShare ((dat V c).after 1 t)))
  simp only [before_0, after_0, after_1]
  iintro ⟨HΦ, Ho, ⟨%d0, Hin⟩, ⟨%d1, Hout⟩⟩
  iapply (kernel_triple c Set.univ _ _ _ _ _ (blk V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

end Cert.Kernel.Reg7
-- ==== Proof.K.Reg8.lean ====
/-
  The 3×3 convolution 128 → 256 with bias and ReLU on a batch of 32 images of 56×56 (kernel-side program, pallas
  region 8), 2 row tile(s) of 28 rows per image.  The padded input (84 rows of 64 columns per image) is handed
  to TWO windows of one array: row tile r and row tile r + 1.  The body stacks both row blocks and a zero tail into one slab of
  3648 pixel rows, and for each horizontal tap dx lane-concatenates the three vertically shifted slab windows (row offsets
  dx, dx+64, dx+128) into one operand of depth 3·128, multiplied with plane dx of the [3, 384, 256] weight array:
  three products of contraction depth 384 summed, then bias, max with 0, and the 56 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The rectangles the body reads and writes -/

/-- A whole row block of the padded input (either window). -/
abbrev rX : Rect S1x28x64x128 := Rect.unit (s := S1x28x64x128) ![0, 0, 0, 0] S1x28x64x128.size Gen.inb_S1x28x64x128_S1x28x64x128_0_0_0_0
/-- Plane `dx = 0, 1, 2` of the weights. -/
abbrev rK0 : Rect S3x384x256 := Rect.unit (s := S3x384x256) ![0, 0, 0] S1x384x256.size Gen.inb_S3x384x256_S1x384x256_0_0_0
abbrev rK1 : Rect S3x384x256 := Rect.unit (s := S3x384x256) ![1, 0, 0] S1x384x256.size Gen.inb_S3x384x256_S1x384x256_1_0_0
abbrev rK2 : Rect S3x384x256 := Rect.unit (s := S3x384x256) ![2, 0, 0] S1x384x256.size Gen.inb_S3x384x256_S1x384x256_2_0_0
/-- The bias row. -/
abbrev rB : Rect S1x256 := Rect.unit (s := S1x256) ![0, 0] S1x256.size Gen.inb_S1x256_S1x256_0_0
/-- The whole output tile. -/
abbrev rY : Rect S1x28x56x256 := Rect.unit (s := S1x28x56x256) ![0, 0, 0, 0] S1x28x56x256.size Gen.inb_S1x28x56x256_S1x28x56x256_0_0_0_0

/-! ## What the body computes -/

/-- The three depth-768 products summed, one row per padded pixel position (28 · 32) and one column per output
    channel: from the upper row block `xa`, the lower row block `xb` and the weights `wk`. -/
def acc (xa xb : Vec F S1x28x64x128 .bf16) (wk : Vec F S3x384x256 .bf16) : FVec F S1792x256 .f32 :=
  k8_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x64x128 .bf16) (wk : Vec F S3x384x256 .bf16) (b : Vec F S1x256 .f32) : Vec F S1x28x56x256 .bf16 :=
  View.canon [⟨rY, k8_pay1 (acc xa xb wk) (View.ld b rB)⟩]

/-- The one store covers the tile. -/
theorem tile_cover (p : Vec F S1x28x56x256 .bf16) (y : S1x28x56x256.Idx) :
    ∃ pc ∈ ([⟨rY, p⟩] : List (View.Piece (Elt F) S1x28x56x256 .bf16)), y ∈ pc.1.set :=
  View.cover_of_tiled [⟨rY, p⟩] S1x28x56x256.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid8.Coords)
    (a0 : Memref sig .tc .vmem S1x28x64x128 .bf16) (h0 : a0.IsWhole) (a1 : Memref sig .tc .vmem S1x28x64x128 .bf16) (h1 : a1.IsWhole)
    (a2 : Memref sig .tc .vmem S3x384x256 .bf16) (h2 : a2.IsWhole) (a3 : Memref sig .tc .vmem S1x256 .f32) (h3 : a3.IsWhole)
    (a4 : Memref sig .tc .vmem S1x28x56x256 .bf16) (h4 : a4.IsWhole)
    (xa xb : Vec F S1x28x64x128 .bf16) (wk : Vec F S3x384x256 .bf16) (b : Vec F S1x256 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc8__conv_kernel i a0 h0 a1 h1 a2 h2 a3 h3 a4 h4) K := by
  simp only [cc8__conv_kernel_eq_skeleton]; unfold cc8__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec8 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg8.W) : (dat V c).A w = V c (Pipeline.arrRef spec8 w) := by
  dsimp only [dat]

/-- The invariant, the tallies and the shares, by name. -/
theorem Φ_eq (c : Dev nD) (t : Fin (cfg8.N + 1)) : (dat V c).Φ t = Pipeline.ΦA spec8 c := rfl
theorem owed_eq (c : Dev nD) (t : Fin (cfg8.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg8.N) : (dat V c).after 0 t = blk V c 0 t := by dsimp only [dat]
theorem after_1 (c : Dev nD) (t : Fin cfg8.N) : (dat V c).after 1 t = blk V c 1 t := by dsimp only [dat]
theorem after_2 (c : Dev nD) (t : Fin cfg8.N) : (dat V c).after 2 t = blk V c 2 t := by dsimp only [dat]
theorem after_3 (c : Dev nD) (t : Fin cfg8.N) : (dat V c).after 3 t = blk V c 3 t := by dsimp only [dat]
/-- What the body leaves in the output window's buffer at point `t`. -/
theorem after_4 (c : Dev nD) (t : Fin cfg8.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg8.N) (d) : (dat V c).before 0 t d = blk V c 0 t := by
  have hkeep : ∀ t, (cfg8.win 0).cut (cfg8.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg8.N) (d) : (dat V c).before 1 t d = blk V c 1 t := by
  have hkeep : ∀ t, (cfg8.win 1).cut (cfg8.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg8.N) (d) : (dat V c).before 2 t d = blk V c 2 t := by
  have hkeep : ∀ t, (cfg8.win 2).cut (cfg8.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg8.N) (d) : (dat V c).before 3 t d = blk V c 3 t := by
  have hkeep : ∀ t, (cfg8.win 3).cut (cfg8.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg8.N) :
    iprop((dat V c).Φ t.castSucc ∗ (dat V c).owesAt () t.castSucc
        ∗ (∃ d, owns (c : Thread nD τ) (st8_0 t) fullShare ((dat V c).before 0 t d))
        ∗ (∃ d, owns (c : Thread nD τ) (st8_1 t) fullShare ((dat V c).before 1 t d))
        ∗ (∃ d, owns (c : Thread nD τ) (st8_2 t) fullShare ((dat V c).before 2 t d))
        ∗ (∃ d, owns (c : Thread nD τ) (st8_3 t) fullShare ((dat V c).before 3 t d))
        ∗ (∃ d, owns (c : Thread nD τ) (st8_4 t) fullShare ((dat V c).before 4 t d)))
      ⊢ wp frame (wpE (defs₀ (F := F)) Variants.none c none) Set.univ (bodyAt8 t) (fun _ =>
          iprop((dat V c).Φ t.succ ∗ (dat V c).owesAt () t.succ
            ∗ owns (c : Thread nD τ) (st8_0 t) fullShare ((dat V c).after 0 t)
            ∗ owns (c : Thread nD τ) (st8_1 t) fullShare ((dat V c).after 1 t)
            ∗ owns (c : Thread nD τ) (st8_2 t) fullShare ((dat V c).after 2 t)
            ∗ owns (c : Thread nD τ) (st8_3 t) fullShare ((dat V c).after 3 t)
            ∗ owns (c : Thread nD τ) (st8_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W8, bigSep_W8]
  exact body_at V c t

end Cert.Kernel.Reg8
-- ==== Proof.K.Reg9.lean ====
/-
  The 3×3 convolution 256 → 256 with bias and ReLU on a batch of 32 images of 56×56 (kernel-side program, pallas
  region 9), 2 row tile(s) of 28 rows per image.  The padded input (84 rows of 64 columns per image) is handed
  to TWO windows of one array: row tile r and row tile r + 1.  The body stacks both row blocks and a zero tail into one slab of
  3648 pixel rows, and for each horizontal tap dx lane-concatenates the three vertically shifted slab windows (row offsets
  dx, dx+64, dx+128) into one operand of depth 3·256, multiplied with plane dx of the [3, 768, 256] weight array:
  three products of contraction depth 768 summed, then bias, max with 0, and the 56 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The rectangles the body reads and writes -/

/-- A whole row block of the padded input (either window). -/
abbrev rX : Rect S1x28x64x256 := Rect.unit (s := S1x28x64x256) ![0, 0, 0, 0] S1x28x64x256.size Gen.inb_S1x28x64x256_S1x28x64x256_0_0_0_0
/-- Plane `dx = 0, 1, 2` of the weights. -/
abbrev rK0 : Rect S3x768x256 := Rect.unit (s := S3x768x256) ![0, 0, 0] S1x768x256.size Gen.inb_S3x768x256_S1x768x256_0_0_0
abbrev rK1 : Rect S3x768x256 := Rect.unit (s := S3x768x256) ![1, 0, 0] S1x768x256.size Gen.inb_S3x768x256_S1x768x256_1_0_0
abbrev rK2 : Rect S3x768x256 := Rect.unit (s := S3x768x256) ![2, 0, 0] S1x768x256.size Gen.inb_S3x768x256_S1x768x256_2_0_0
/-- The bias row. -/
abbrev rB : Rect S1x256 := Rect.unit (s := S1x256) ![0, 0] S1x256.size Gen.inb_S1x256_S1x256_0_0
/-- The whole output tile. -/
abbrev rY : Rect S1x28x56x256 := Rect.unit (s := S1x28x56x256) ![0, 0, 0, 0] S1x28x56x256.size Gen.inb_S1x28x56x256_S1x28x56x256_0_0_0_0

/-! ## What the body computes -/

/-- The three depth-768 products summed, one row per padded pixel position (28 · 32) and one column per output
    channel: from the upper row block `xa`, the lower row block `xb` and the weights `wk`. -/
def acc (xa xb : Vec F S1x28x64x256 .bf16) (wk : Vec F S3x768x256 .bf16) : FVec F S1792x256 .f32 :=
  k9_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x64x256 .bf16) (wk : Vec F S3x768x256 .bf16) (b : Vec F S1x256 .f32) : Vec F S1x28x56x256 .bf16 :=
  View.canon [⟨rY, k9_pay1 (acc xa xb wk) (View.ld b rB)⟩]

/-- The one store covers the tile. -/
theorem tile_cover (p : Vec F S1x28x56x256 .bf16) (y : S1x28x56x256.Idx) :
    ∃ pc ∈ ([⟨rY, p⟩] : List (View.Piece (Elt F) S1x28x56x256 .bf16)), y ∈ pc.1.set :=
  View.cover_of_tiled [⟨rY, p⟩] S1x28x56x256.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid9.Coords)
    (a0 : Memref sig .tc .vmem S1x28x64x256 .bf16) (h0 : a0.IsWhole) (a1 : Memref sig .tc .vmem S1x28x64x256 .bf16) (h1 : a1.IsWhole)
    (a2 : Memref sig .tc .vmem S3x768x256 .bf16) (h2 : a2.IsWhole) (a3 : Memref sig .tc .vmem S1x256 .f32) (h3 : a3.IsWhole)
    (a4 : Memref sig .tc .vmem S1x28x56x256 .bf16) (h4 : a4.IsWhole)
    (xa xb : Vec F S1x28x64x256 .bf16) (wk : Vec F S3x768x256 .bf16) (b : Vec F S1x256 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc9__conv_kernel i a0 h0 a1 h1 a2 h2 a3 h3 a4 h4) K := by
  simp only [cc9__conv_kernel_eq_skeleton]; unfold cc9__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec9 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg9.W) : (dat V c).A w = V c (Pipeline.arrRef spec9 w) := by
  dsimp only [dat]

/-- The invariant, the tallies and the shares, by name. -/
theorem Φ_eq (c : Dev nD) (t : Fin (cfg9.N + 1)) : (dat V c).Φ t = Pipeline.ΦA spec9 c := rfl
theorem owed_eq (c : Dev nD) (t : Fin (cfg9.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg9.N) : (dat V c).after 0 t = blk V c 0 t := by dsimp only [dat]
theorem after_1 (c : Dev nD) (t : Fin cfg9.N) : (dat V c).after 1 t = blk V c 1 t := by dsimp only [dat]
theorem after_2 (c : Dev nD) (t : Fin cfg9.N) : (dat V c).after 2 t = blk V c 2 t := by dsimp only [dat]
theorem after_3 (c : Dev nD) (t : Fin cfg9.N) : (dat V c).after 3 t = blk V c 3 t := by dsimp only [dat]
/-- What the body leaves in the output window's buffer at point `t`. -/
theorem after_4 (c : Dev nD) (t : Fin cfg9.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg9.N) (d) : (dat V c).before 0 t d = blk V c 0 t := by
  have hkeep : ∀ t, (cfg9.win 0).cut (cfg9.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg9.N) (d) : (dat V c).before 1 t d = blk V c 1 t := by
  have hkeep : ∀ t, (cfg9.win 1).cut (cfg9.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg9.N) (d) : (dat V c).before 2 t d = blk V c 2 t := by
  have hkeep : ∀ t, (cfg9.win 2).cut (cfg9.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg9.N) (d) : (dat V c).before 3 t d = blk V c 3 t := by
  have hkeep : ∀ t, (cfg9.win 3).cut (cfg9.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg9.N) :
    iprop((dat V c).Φ t.castSucc ∗ (dat V c).owesAt () t.castSucc
        ∗ (∃ d, owns (c : Thread nD τ) (st9_0 t) fullShare ((dat V c).before 0 t d))
        ∗ (∃ d, owns (c : Thread nD τ) (st9_1 t) fullShare ((dat V c).before 1 t d))
        ∗ (∃ d, owns (c : Thread nD τ) (st9_2 t) fullShare ((dat V c).before 2 t d))
        ∗ (∃ d, owns (c : Thread nD τ) (st9_3 t) fullShare ((dat V c).before 3 t d))
        ∗ (∃ d, owns (c : Thread nD τ) (st9_4 t) fullShare ((dat V c).before 4 t d)))
      ⊢ wp frame (wpE (defs₀ (F := F)) Variants.none c none) Set.univ (bodyAt9 t) (fun _ =>
          iprop((dat V c).Φ t.succ ∗ (dat V c).owesAt () t.succ
            ∗ owns (c : Thread nD τ) (st9_0 t) fullShare ((dat V c).after 0 t)
            ∗ owns (c : Thread nD τ) (st9_1 t) fullShare ((dat V c).after 1 t)
            ∗ owns (c : Thread nD τ) (st9_2 t) fullShare ((dat V c).after 2 t)
            ∗ owns (c : Thread nD τ) (st9_3 t) fullShare ((dat V c).after 3 t)
            ∗ owns (c : Thread nD τ) (st9_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W9, bigSep_W9]
  exact body_at V c t

end Cert.Kernel.Reg9
-- ==== Proof.K.Reg10.lean ====
/-
  The 3×3 convolution 256 → 256 with bias and ReLU on a batch of 32 images of 56×56 (kernel-side program, pallas
  region 10), 2 row tile(s) of 28 rows per image.  The padded input (84 rows of 64 columns per image) is handed
  to TWO windows of one array: row tile r and row tile r + 1.  The body stacks both row blocks and a zero tail into one slab of
  3648 pixel rows, and for each horizontal tap dx lane-concatenates the three vertically shifted slab windows (row offsets
  dx, dx+64, dx+128) into one operand of depth 3·256, multiplied with plane dx of the [3, 768, 256] weight array:
  three products of contraction depth 768 summed, then bias, max with 0, and the 56 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The rectangles the body reads and writes -/

/-- A whole row block of the padded input (either window). -/
abbrev rX : Rect S1x28x64x256 := Rect.unit (s := S1x28x64x256) ![0, 0, 0, 0] S1x28x64x256.size Gen.inb_S1x28x64x256_S1x28x64x256_0_0_0_0
/-- Plane `dx = 0, 1, 2` of the weights. -/
abbrev rK0 : Rect S3x768x256 := Rect.unit (s := S3x768x256) ![0, 0, 0] S1x768x256.size Gen.inb_S3x768x256_S1x768x256_0_0_0
abbrev rK1 : Rect S3x768x256 := Rect.unit (s := S3x768x256) ![1, 0, 0] S1x768x256.size Gen.inb_S3x768x256_S1x768x256_1_0_0
abbrev rK2 : Rect S3x768x256 := Rect.unit (s := S3x768x256) ![2, 0, 0] S1x768x256.size Gen.inb_S3x768x256_S1x768x256_2_0_0
/-- The bias row. -/
abbrev rB : Rect S1x256 := Rect.unit (s := S1x256) ![0, 0] S1x256.size Gen.inb_S1x256_S1x256_0_0
/-- The whole output tile. -/
abbrev rY : Rect S1x28x56x256 := Rect.unit (s := S1x28x56x256) ![0, 0, 0, 0] S1x28x56x256.size Gen.inb_S1x28x56x256_S1x28x56x256_0_0_0_0

/-! ## What the body computes -/

/-- The three depth-768 products summed, one row per padded pixel position (28 · 32) and one column per output
    channel: from the upper row block `xa`, the lower row block `xb` and the weights `wk`. -/
def acc (xa xb : Vec F S1x28x64x256 .bf16) (wk : Vec F S3x768x256 .bf16) : FVec F S1792x256 .f32 :=
  k10_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x64x256 .bf16) (wk : Vec F S3x768x256 .bf16) (b : Vec F S1x256 .f32) : Vec F S1x28x56x256 .bf16 :=
  View.canon [⟨rY, k10_pay1 (acc xa xb wk) (View.ld b rB)⟩]

/-- The one store covers the tile. -/
theorem tile_cover (p : Vec F S1x28x56x256 .bf16) (y : S1x28x56x256.Idx) :
    ∃ pc ∈ ([⟨rY, p⟩] : List (View.Piece (Elt F) S1x28x56x256 .bf16)), y ∈ pc.1.set :=
  View.cover_of_tiled [⟨rY, p⟩] S1x28x56x256.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid10.Coords)
    (a0 : Memref sig .tc .vmem S1x28x64x256 .bf16) (h0 : a0.IsWhole) (a1 : Memref sig .tc .vmem S1x28x64x256 .bf16) (h1 : a1.IsWhole)
    (a2 : Memref sig .tc .vmem S3x768x256 .bf16) (h2 : a2.IsWhole) (a3 : Memref sig .tc .vmem S1x256 .f32) (h3 : a3.IsWhole)
    (a4 : Memref sig .tc .vmem S1x28x56x256 .bf16) (h4 : a4.IsWhole)
    (xa xb : Vec F S1x28x64x256 .bf16) (wk : Vec F S3x768x256 .bf16) (b : Vec F S1x256 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc10__conv_kernel i a0 h0 a1 h1 a2 h2 a3 h3 a4 h4) K := by
  simp only [cc10__conv_kernel_eq_skeleton]; unfold cc10__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg10 c where
  A w := V c (Pipeline.arrRef spec10 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec10 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg10.W) : (dat V c).A w = V c (Pipeline.arrRef spec10 w) := by
  dsimp only [dat]

/-- The invariant, the tallies and the shares, by name. -/
theorem Φ_eq (c : Dev nD) (t : Fin (cfg10.N + 1)) : (dat V c).Φ t = Pipeline.ΦA spec10 c := rfl
theorem owed_eq (c : Dev nD) (t : Fin (cfg10.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg10.N) : (dat V c).after 0 t = blk V c 0 t := by dsimp only [dat]
theorem after_1 (c : Dev nD) (t : Fin cfg10.N) : (dat V c).after 1 t = blk V c 1 t := by dsimp only [dat]
theorem after_2 (c : Dev nD) (t : Fin cfg10.N) : (dat V c).after 2 t = blk V c 2 t := by dsimp only [dat]
theorem after_3 (c : Dev nD) (t : Fin cfg10.N) : (dat V c).after 3 t = blk V c 3 t := by dsimp only [dat]
/-- What the body leaves in the output window's buffer at point `t`. -/
theorem after_4 (c : Dev nD) (t : Fin cfg10.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg10.N) (d) : (dat V c).before 0 t d = blk V c 0 t := by
  have hkeep : ∀ t, (cfg10.win 0).cut (cfg10.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg10.N) (d) : (dat V c).before 1 t d = blk V c 1 t := by
  have hkeep : ∀ t, (cfg10.win 1).cut (cfg10.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg10.N) (d) : (dat V c).before 2 t d = blk V c 2 t := by
  have hkeep : ∀ t, (cfg10.win 2).cut (cfg10.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg10.N) (d) : (dat V c).before 3 t d = blk V c 3 t := by
  have hkeep : ∀ t, (cfg10.win 3).cut (cfg10.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg10.N) :
    iprop((dat V c).Φ t.castSucc ∗ (dat V c).owesAt () t.castSucc
        ∗ (∃ d, owns (c : Thread nD τ) (st10_0 t) fullShare ((dat V c).before 0 t d))
        ∗ (∃ d, owns (c : Thread nD τ) (st10_1 t) fullShare ((dat V c).before 1 t d))
        ∗ (∃ d, owns (c : Thread nD τ) (st10_2 t) fullShare ((dat V c).before 2 t d))
        ∗ (∃ d, owns (c : Thread nD τ) (st10_3 t) fullShare ((dat V c).before 3 t d))
        ∗ (∃ d, owns (c : Thread nD τ) (st10_4 t) fullShare ((dat V c).before 4 t d)))
      ⊢ wp frame (wpE (defs₀ (F := F)) Variants.none c none) Set.univ (bodyAt10 t) (fun _ =>
          iprop((dat V c).Φ t.succ ∗ (dat V c).owesAt () t.succ
            ∗ owns (c : Thread nD τ) (st10_0 t) fullShare ((dat V c).after 0 t)
            ∗ owns (c : Thread nD τ) (st10_1 t) fullShare ((dat V c).after 1 t)
            ∗ owns (c : Thread nD τ) (st10_2 t) fullShare ((dat V c).after 2 t)
            ∗ owns (c : Thread nD τ) (st10_3 t) fullShare ((dat V c).after 3 t)
            ∗ owns (c : Thread nD τ) (st10_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W10, bigSep_W10]
  exact body_at V c t

end Cert.Kernel.Reg10
-- ==== Proof.K.Reg11.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

/-! # Region 11: the per-image L1 distance of one of the earlier feature levels

The grid is 16 images by 14 row tiles.  At point (n, q) the body adds, to every entry of the (1, 8, 128) result tile of
image n, the sum over the 112 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.Kernel.Reg11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 112 × 512 row tile of image n,
    resp. n + 16; for the result the (1, 8, 128) tile of image n. -/
def tile (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The result tile set to zero: what the body stores first at q = 0. -/
abbrev zeroTile : Vec F S1x8x128 .f32 := k11_pay1 (F := F)

/-- One point's work: the tile-wide sum of |x − y| added to every entry of the carried tile `acc`. -/
abbrev addDist (c : Dev nD) (t : Fin cfg11.N) (acc : Vec F S1x8x128 .f32) : Vec F S1x8x128 .f32 :=
  k11_pay2 (tile V c 0 t) (tile V c 1 t) acc

/-- THE RUNNING SUM: the result tile after the body at grid position `n` — started from zero where the row tile is the
    first of its image (n ≡ 0 mod 14), else continued from the position before. -/
def running (c : Dev nD) : (n : ℕ) → n < cfg11.N → Vec F S1x8x128 .f32
  | 0, hn => addDist V c ⟨0, hn⟩ zeroTile
  | n + 1, hn => addDist V c ⟨n + 1, hn⟩ (if (n + 1) % 14 = 0 then zeroTile else running c n (Nat.lt_of_succ_lt hn))

theorem running_first (c : Dev nD) (t : Fin cfg11.N) (h0 : t.val % 14 = 0) :
    running V c t.val t.isLt = addDist V c t zeroTile := by
  obtain ⟨n, hn⟩ := t
  cases n with
  | zero => show running V c 0 hn = _; rw [running]
  | succ n =>
    have h0' : (n + 1) % 14 = 0 := h0
    show running V c (n + 1) hn = _
    rw [running, if_pos h0']

theorem running_next (c : Dev nD) (t : Fin cfg11.N) (h0 : ¬ t.val % 14 = 0) :
    running V c t.val t.isLt = addDist V c t (running V c (t.val - 1) (Nat.lt_of_le_of_lt (Nat.sub_le _ _) t.isLt)) := by
  obtain ⟨n, hn⟩ := t
  cases n with
  | zero => exact absurd (Nat.zero_mod 14) h0
  | succ n =>
    have h0' : ¬ (n + 1) % 14 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg11 c where
  A w := V c (Pipeline.arrRef spec11 w)
  after w t := match w with
    | ⟨0, _⟩ => tile V c 0 t
    | ⟨1, _⟩ => tile V c 1 t
    | ⟨2, _⟩ => running V c t.val t.isLt
  Φ _ := Pipeline.ΦA spec11 c
  q w := match w with
    | ⟨0, _⟩ => fullShare.left
    | ⟨1, _⟩ => fullShare.right
    | ⟨2, _⟩ => fullShare
  owed _ := 0

theorem A_eq (c : Dev nD) (w : Fin cfg11.W) : (dat V c).A w = V c (Pipeline.arrRef spec11 w) := by
  dsimp only [dat]

theorem after_x (c : Dev nD) (t : Fin cfg11.N) : (dat V c).after 0 t = tile V c 0 t := by dsimp only [dat]
theorem after_y (c : Dev nD) (t : Fin cfg11.N) : (dat V c).after 1 t = tile V c 1 t := by dsimp only [dat]
theorem after_sum (c : Dev nD) (t : Fin cfg11.N) : (dat V c).after 2 t = running V c t.val t.isLt := by dsimp only [dat]

/-- Each input's current buffer holds its tile when the body runs. -/
theorem before_x (c : Dev nD) (t : Fin cfg11.N) (d) : (dat V c).before 0 t d = tile V c 0 t := by
  rw [Dat.before_fetched _ 0 t (fetch11_0 t) d]
  unfold Dat.fetched Dat.blockOf tile
  rw [A_eq]; try rfl
theorem before_y (c : Dev nD) (t : Fin cfg11.N) (d) : (dat V c).before 1 t d = tile V c 1 t := by
  rw [Dat.before_fetched _ 1 t (fetch11_1 t) d]
  unfold Dat.fetched Dat.blockOf tile
  rw [A_eq]; try rfl
/-- Within an image (q ≠ 0) the result's buffer holds the running sum of the position before. -/
theorem before_sum (c : Dev nD) (t : Fin cfg11.N) (h0 : ¬ t.val % 14 = 0) (d) :
    (dat V c).before 2 t d = running V c (t.val - 1) (Nat.lt_of_le_of_lt (Nat.sub_le _ _) t.isLt) := by
  have hN : t.val < 16 * 14 := lt_of_lt_of_eq t.isLt (show cfg11.N = 16 * 14 from N_11)
  rw [Dat.before_out_kept _ 2 rfl t (by omega)
    (Bool.eq_false_iff.mpr fun h => by have := (flush11_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid11.Coords) : Prop :=
  (Scalar.cmpi .ne (Scalar.extui (Scalar.cmpi .eq (BitVec.ofNat 32 (i 1).val) 0#32)) 0#32) = 1#1

/-- Along the grid's row-major order it holds at the positions ≡ 0 (mod 14). -/
theorem firstTile_iff : ∀ t : Fin cfg11.N, firstTile (grid11.coords t) ↔ t.val % 14 = 0 :=
  (by decide +kernel : ∀ t : Fin grid11.N, firstTile (grid11.coords t) ↔ t.val % 14 = 0)

set_option maxHeartbeats 1000000 in
/-- At the first row tile of an image (q = 0): whatever the result's buffer held, it is set to zero, and the tile's sum
    of |x − y| is added to that. -/
theorem kernel_first (c : Dev nD) (E : Set ℕ) (i : grid11.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : firstTile i)
    (x y : Vec F S1x112x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k11_pay2 x y (k11_pay1 (F := F)))) -∗ K ⟨⟩))
      ⊢ wp frame (wpE (defs₀ (F := F)) Variants.none c none) E (cc11__l1_kernel i ax hax ay hay ao hao) K := by
  simp only [cc11__l1_kernel_eq_skeleton]; unfold cc11__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid11.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : ¬ firstTile i)
    (x y : Vec F S1x112x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k11_pay2 x y acc)) -∗ K ⟨⟩))
      ⊢ wp frame (wpE (defs₀ (F := F)) Variants.none c none) E (cc11__l1_kernel i ax hax ay hay ao hao) K := by
  simp only [cc11__l1_kernel_eq_skeleton]; unfold cc11__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg11.N) : sProp 𝕄 :=
  iprop((dat V c).Φ t.castSucc ∗ (dat V c).owesAt () t.castSucc
    ∗ (∃ d, owns (c : Thread nD τ) (st11_0 t) fullShare ((dat V c).before 0 t d))
    ∗ (∃ d, owns (c : Thread nD τ) (st11_1 t) fullShare ((dat V c).before 1 t d))
    ∗ (∃ d, owns (c : Thread nD τ) (st11_2 t) fullShare ((dat V c).before 2 t d)))

/-- and what it returns. -/
def bodyPost (c : Dev nD) (t : Fin cfg11.N) : sProp 𝕄 :=
  iprop((dat V c).Φ t.succ ∗ (dat V c).owesAt () t.succ
    ∗ owns (c : Thread nD τ) (st11_0 t) fullShare ((dat V c).after 0 t)
    ∗ owns (c : Thread nD τ) (st11_1 t) fullShare ((dat V c).after 1 t)
    ∗ owns (c : Thread nD τ) (st11_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg11.N) :
    bodyPre V c t ⊢ wp frame (wpE (defs₀ (F := F)) Variants.none c none) Set.univ (bodyAt11 (F := F) t) (fun _ => bodyPost V c t) := by
  unfold bodyPre bodyPost bodyAt11
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 14 = 0
  · rw [running_first V c t h0]
    iintro ⟨HΦ, Ho, ⟨%d0, H0⟩, ⟨%d1, H1⟩, ⟨%d2, H2⟩⟩
    iapply (kernel_first c Set.univ (grid11.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid11.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W11, bigSep_W11]
  exact sound_body V c t

end Cert.Kernel.Reg11

end
-- ==== Proof.K.Reg12.lean ====
/-
  REGION 12 of the network: 2×2 max pooling of the third stage, [32, 56, 28, 2, 256] → [32, 28, 28, 256].
  A grid of 32 × 4 points; at point (n, r) the input window is rows 14r … 14r+13 of image n, each row as
  28 column pairs of 256 channels, and the output window is the 7 pooled rows 7r … 7r+6. The body reads the
  whole input block, takes the maximum over each column pair and then over each pair of rows, and stores
  the whole output block. This module holds, for any float model: the blocks, what the body leaves, the
  body's triple, the proof data and the body obligation.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Reg12

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers as the region finds them.
variable (V : (c : Dev nD) → (b : Ref sig .tc) → Buf (Elt F) ((c : Thread nD τ).loc b))

/-! ## The blocks -/

/-- Window \`w\`'s block at point \`t\`: its array, as the region finds it, read through the block's view. -/
def blk (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-! ## What the body leaves -/

/-- The pooled block of an input block \`x\` (14 rows × 28 column pairs × 256 channels): the maximum over each
    column pair, then over each pair of rows — 7 rows × 28 columns × 256 channels. -/
def pooled (x : Vec F S1x14x28x2x256 .bf16) : Vec F S1x7x28x256 .bf16 := k12_pay1 x

/-! ## The body's triple -/

/-- The body on whole staging memrefs, the input's at contents \`x\` and the output's at anything, runs to the
    continuation holding the input's as it was and the output's at \`pooled x\`. -/
theorem kernel_triple (c : Dev nD) (E : Set ℕ) (i : grid12.Coords)
    (arg2 : Memref sig .tc .vmem S1x14x28x2x256 .bf16) (harg2 : arg2.IsWhole)
    (arg3 : Memref sig .tc .vmem S1x7x28x256 .bf16) (harg3 : arg3.IsWhole)
    (x : Vec F S1x14x28x2x256 .bf16) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (pooled x)) -∗ K ⟨⟩))
      ⊢ wp frame (wpE (defs₀ (F := F)) Variants.none c none) E (cc12__pool_kernel i arg2 harg2 arg3 harg3) K := by
  rw [cc12__pool_kernel_eq_skeleton]
  unfold cc12__pool_kernel_skel owns
  iintro ⟨⟨%fx, %hx, Hx⟩, ⟨%d, %fy, -, Hy⟩, Hk⟩
  subst hx
  sl_exec
  sl_step
  iapply Hk
  isplitl [Hx]
  · iexists fx; isplitr
    · ipureintro; rfl
    · iexact Hx
  iexists _; isplitr
  swap
  · iexact Hy
  ipureintro
  have z4 : (![0, 0, 0, 0] : Fin S1x7x28x256.rank → Nat) = fun _ => 0 := by
    funext a; fin_cases a <;> rfl
  have z5 : (![0, 0, 0, 0, 0] : Fin S1x14x28x2x256.rank → Nat) = fun _ => 0 := by
    funext a; fin_cases a <;> rfl
  refine (View.read_writes_eq_canon _ _ _ ?_).trans ?_
  · intro y
    exact ⟨_, List.mem_singleton_self _, View.mem_set_unit_zero z4 inb_S1x7x28x256_S1x7x28x256_0_0_0_0 y⟩
  · rw [View.canon_unit_zero z4, View.readAt_eq_ld, View.ld_unit_zero z5]
    rfl

/-! ## The proof data -/

/-- The proof data of the region on core \`c\`: the two arrays as the region finds them; after the body at point
    \`t\` the input's buffer at its block and the output's at the pooled block; the invariant the scoped rest and
    the generator register, untouched; nothing owed; full shares. -/
def dat (c : Dev nD) : Dat τ (Elt F) Unit ℕ (UR sig nD τ) ℕ cfg12 c where
  A w := V c (Pipeline.arrRef spec12 w)
  after w t := match w with
    | ⟨0, _⟩ => blk V c 0 t
    | ⟨1, _⟩ => pooled (blk V c 0 t)
  Φ _ := Pipeline.ΦA spec12 c
  q _ := fullShare
  owed _ := 0

theorem A_eq (c : Dev nD) (w : Fin cfg12.W) : (dat V c).A w = V c (Pipeline.arrRef spec12 w) := by
  dsimp only [dat]

theorem after_0 (c : Dev nD) (t : Fin cfg12.N) : (dat V c).after 0 t = blk V c 0 t := by dsimp only [dat]
theorem after_1 (c : Dev nD) (t : Fin cfg12.N) : (dat V c).after 1 t = pooled (blk V c 0 t) := by dsimp only [dat]

/-- The input's current staging buffer holds its block when the body runs: it is fetched at every point. -/
theorem before_0 (c : Dev nD) (t : Fin cfg12.N) (d) : (dat V c).before 0 t d = blk V c 0 t := by
  unfold Dat.before
  rw [if_pos (fetch12_0 t)]
  unfold Dat.fetched Dat.blockOf blk
  rw [A_eq]
  rfl

/-! ## The body obligation -/

theorem body_obligation (c : Dev nD) :
    BodyObligation (dat (F := F) V c) (defs₀ (F := F)) Variants.none () Set.univ := fun t => by
  rw [bigSep_W12, bigSep_W12]
  show iprop(Pipeline.ΦA spec12 c ∗ (dat V c).owesAt () t.castSucc
        ∗ (∃ d, owns (c : Thread nD τ) (st12_0 t) fullShare ((dat V c).before 0 t d))
        ∗ (∃ d, owns (c : Thread nD τ) (st12_1 t) fullShare ((dat V c).before 1 t d)))
      ⊢ wp frame (wpE (defs₀ (F := F)) Variants.none c none) Set.univ (bodyAt12 t) (fun _ =>
          iprop(Pipeline.ΦA spec12 c ∗ (dat V c).owesAt () t.castSucc
            ∗ owns (c : Thread nD τ) (st12_0 t) fullShare ((dat V c).after 0 t)
            ∗ owns (c : Thread nD τ) (st12_1 t) fullShare ((dat V c).after 1 t)))
  simp only [before_0, after_0, after_1]
  iintro ⟨HΦ, Ho, ⟨%d0, Hin⟩, ⟨%d1, Hout⟩⟩
  iapply (kernel_triple c Set.univ _ _ _ _ _ (blk V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

end Cert.Kernel.Reg12
-- ==== Proof.K.Reg13.lean ====
/-
  The 3×3 convolution 256 → 512 with bias and ReLU on a batch of 32 images of 28×28 (kernel-side program, pallas
  region 13), one grid point per image.  The padded input (56 rows of 32 columns per image) is handed to TWO windows
  of one array: rows 0‥27 and rows 28‥55 of the image.  The body stacks both row blocks and a zero tail into one
  slab of 1824 pixel rows, and for each horizontal tap dx lane-concatenates the three vertically shifted slab
  windows (row offsets dx, dx+32, dx+64) into one operand of depth 3·256, multiplied with plane dx of the
  [3, 768, 512] weight array: three products of contraction depth 768 summed, then bias, max with 0, and the
  28 valid columns of each of the 28 rows stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The rectangles the body reads and writes -/

/-- A whole row block of the padded input (either window). -/
abbrev rX : Rect S1x28x32x256 := Rect.unit (s := S1x28x32x256) ![0, 0, 0, 0] S1x28x32x256.size Gen.inb_S1x28x32x256_S1x28x32x256_0_0_0_0
/-- Plane `dx = 0, 1, 2` of the weights. -/
abbrev rK0 : Rect S3x768x512 := Rect.unit (s := S3x768x512) ![0, 0, 0] S1x768x512.size Gen.inb_S3x768x512_S1x768x512_0_0_0
abbrev rK1 : Rect S3x768x512 := Rect.unit (s := S3x768x512) ![1, 0, 0] S1x768x512.size Gen.inb_S3x768x512_S1x768x512_1_0_0
abbrev rK2 : Rect S3x768x512 := Rect.unit (s := S3x768x512) ![2, 0, 0] S1x768x512.size Gen.inb_S3x768x512_S1x768x512_2_0_0
/-- The bias row. -/
abbrev rB : Rect S1x512 := Rect.unit (s := S1x512) ![0, 0] S1x512.size Gen.inb_S1x512_S1x512_0_0
/-- The whole output tile. -/
abbrev rY : Rect S1x28x28x512 := Rect.unit (s := S1x28x28x512) ![0, 0, 0, 0] S1x28x28x512.size Gen.inb_S1x28x28x512_S1x28x28x512_0_0_0_0

/-! ## What the body computes -/

/-- The three depth-768 products summed, one row per padded pixel position (28 · 32) and one column per output
    channel: from the upper row block `xa`, the lower row block `xb` and the weights `wk`. -/
def acc (xa xb : Vec F S1x28x32x256 .bf16) (wk : Vec F S3x768x512 .bf16) : FVec F S896x512 .f32 :=
  k13_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x32x256 .bf16) (wk : Vec F S3x768x512 .bf16) (b : Vec F S1x512 .f32) : Vec F S1x28x28x512 .bf16 :=
  View.canon [⟨rY, k13_pay1 (acc xa xb wk) (View.ld b rB)⟩]

/-- The one store covers the tile. -/
theorem tile_cover (p : Vec F S1x28x28x512 .bf16) (y : S1x28x28x512.Idx) :
    ∃ pc ∈ ([⟨rY, p⟩] : List (View.Piece (Elt F) S1x28x28x512 .bf16)), y ∈ pc.1.set :=
  View.cover_of_tiled [⟨rY, p⟩] S1x28x28x512.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid13.Coords)
    (a0 : Memref sig .tc .vmem S1x28x32x256 .bf16) (h0 : a0.IsWhole) (a1 : Memref sig .tc .vmem S1x28x32x256 .bf16) (h1 : a1.IsWhole)
    (a2 : Memref sig .tc .vmem S3x768x512 .bf16) (h2 : a2.IsWhole) (a3 : Memref sig .tc .vmem S1x512 .f32) (h3 : a3.IsWhole)
    (a4 : Memref sig .tc .vmem S1x28x28x512 .bf16) (h4 : a4.IsWhole)
    (xa xb : Vec F S1x28x32x256 .bf16) (wk : Vec F S3x768x512 .bf16) (b : Vec F S1x512 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc13__conv_kernel i a0 h0 a1 h1 a2 h2 a3 h3 a4 h4) K := by
  simp only [cc13__conv_kernel_eq_skeleton]; unfold cc13__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg13 c where
  A w := V c (Pipeline.arrRef spec13 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec13 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg13.W) : (dat V c).A w = V c (Pipeline.arrRef spec13 w) := by
  dsimp only [dat]

/-- The invariant, the tallies and the shares, by name. -/
theorem Φ_eq (c : Dev nD) (t : Fin (cfg13.N + 1)) : (dat V c).Φ t = Pipeline.ΦA spec13 c := rfl
theorem owed_eq (c : Dev nD) (t : Fin (cfg13.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg13.N) : (dat V c).after 0 t = blk V c 0 t := by dsimp only [dat]
theorem after_1 (c : Dev nD) (t : Fin cfg13.N) : (dat V c).after 1 t = blk V c 1 t := by dsimp only [dat]
theorem after_2 (c : Dev nD) (t : Fin cfg13.N) : (dat V c).after 2 t = blk V c 2 t := by dsimp only [dat]
theorem after_3 (c : Dev nD) (t : Fin cfg13.N) : (dat V c).after 3 t = blk V c 3 t := by dsimp only [dat]
/-- What the body leaves in the output window's buffer at point `t`. -/
theorem after_4 (c : Dev nD) (t : Fin cfg13.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg13.N) (d) : (dat V c).before 0 t d = blk V c 0 t := by
  have hkeep : ∀ t, (cfg13.win 0).cut (cfg13.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg13.N) (d) : (dat V c).before 1 t d = blk V c 1 t := by
  have hkeep : ∀ t, (cfg13.win 1).cut (cfg13.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg13.N) (d) : (dat V c).before 2 t d = blk V c 2 t := by
  have hkeep : ∀ t, (cfg13.win 2).cut (cfg13.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg13.N) (d) : (dat V c).before 3 t d = blk V c 3 t := by
  have hkeep : ∀ t, (cfg13.win 3).cut (cfg13.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg13.N) :
    iprop((dat V c).Φ t.castSucc ∗ (dat V c).owesAt () t.castSucc
        ∗ (∃ d, owns (c : Thread nD τ) (st13_0 t) fullShare ((dat V c).before 0 t d))
        ∗ (∃ d, owns (c : Thread nD τ) (st13_1 t) fullShare ((dat V c).before 1 t d))
        ∗ (∃ d, owns (c : Thread nD τ) (st13_2 t) fullShare ((dat V c).before 2 t d))
        ∗ (∃ d, owns (c : Thread nD τ) (st13_3 t) fullShare ((dat V c).before 3 t d))
        ∗ (∃ d, owns (c : Thread nD τ) (st13_4 t) fullShare ((dat V c).before 4 t d)))
      ⊢ wp frame (wpE (defs₀ (F := F)) Variants.none c none) Set.univ (bodyAt13 t) (fun _ =>
          iprop((dat V c).Φ t.succ ∗ (dat V c).owesAt () t.succ
            ∗ owns (c : Thread nD τ) (st13_0 t) fullShare ((dat V c).after 0 t)
            ∗ owns (c : Thread nD τ) (st13_1 t) fullShare ((dat V c).after 1 t)
            ∗ owns (c : Thread nD τ) (st13_2 t) fullShare ((dat V c).after 2 t)
            ∗ owns (c : Thread nD τ) (st13_3 t) fullShare ((dat V c).after 3 t)
            ∗ owns (c : Thread nD τ) (st13_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W13, bigSep_W13]
  exact body_at V c t

end Cert.Kernel.Reg13
-- ==== Proof.K.Reg14.lean ====
/-
  The 3×3 convolution 512 → 512 with bias and ReLU on a batch of 32 images of 28×28 (kernel-side program, pallas
  region 14), 1 row tile(s) of 28 rows per image.  The padded input (56 rows of 32 columns per image) is handed
  to TWO windows of one array: row tile r and row tile r + 1.  The body stacks both row blocks and a zero tail into one slab of
  1824 pixel rows, and for each horizontal tap dx lane-concatenates the three vertically shifted slab windows (row offsets
  dx, dx+32, dx+64) into one operand of depth 3·512, multiplied with plane dx of the [3, 1536, 512] weight array:
  three products of contraction depth 1536 summed, then bias, max with 0, and the 28 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The rectangles the body reads and writes -/

/-- A whole row block of the padded input (either window). -/
abbrev rX : Rect S1x28x32x512 := Rect.unit (s := S1x28x32x512) ![0, 0, 0, 0] S1x28x32x512.size Gen.inb_S1x28x32x512_S1x28x32x512_0_0_0_0
/-- Plane `dx = 0, 1, 2` of the weights. -/
abbrev rK0 : Rect S3x1536x512 := Rect.unit (s := S3x1536x512) ![0, 0, 0] S1x1536x512.size Gen.inb_S3x1536x512_S1x1536x512_0_0_0
abbrev rK1 : Rect S3x1536x512 := Rect.unit (s := S3x1536x512) ![1, 0, 0] S1x1536x512.size Gen.inb_S3x1536x512_S1x1536x512_1_0_0
abbrev rK2 : Rect S3x1536x512 := Rect.unit (s := S3x1536x512) ![2, 0, 0] S1x1536x512.size Gen.inb_S3x1536x512_S1x1536x512_2_0_0
/-- The bias row. -/
abbrev rB : Rect S1x512 := Rect.unit (s := S1x512) ![0, 0] S1x512.size Gen.inb_S1x512_S1x512_0_0
/-- The whole output tile. -/
abbrev rY : Rect S1x28x28x512 := Rect.unit (s := S1x28x28x512) ![0, 0, 0, 0] S1x28x28x512.size Gen.inb_S1x28x28x512_S1x28x28x512_0_0_0_0

/-! ## What the body computes -/

/-- The three depth-768 products summed, one row per padded pixel position (28 · 32) and one column per output
    channel: from the upper row block `xa`, the lower row block `xb` and the weights `wk`. -/
def acc (xa xb : Vec F S1x28x32x512 .bf16) (wk : Vec F S3x1536x512 .bf16) : FVec F S896x512 .f32 :=
  k14_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x32x512 .bf16) (wk : Vec F S3x1536x512 .bf16) (b : Vec F S1x512 .f32) : Vec F S1x28x28x512 .bf16 :=
  View.canon [⟨rY, k14_pay1 (acc xa xb wk) (View.ld b rB)⟩]

/-- The one store covers the tile. -/
theorem tile_cover (p : Vec F S1x28x28x512 .bf16) (y : S1x28x28x512.Idx) :
    ∃ pc ∈ ([⟨rY, p⟩] : List (View.Piece (Elt F) S1x28x28x512 .bf16)), y ∈ pc.1.set :=
  View.cover_of_tiled [⟨rY, p⟩] S1x28x28x512.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid14.Coords)
    (a0 : Memref sig .tc .vmem S1x28x32x512 .bf16) (h0 : a0.IsWhole) (a1 : Memref sig .tc .vmem S1x28x32x512 .bf16) (h1 : a1.IsWhole)
    (a2 : Memref sig .tc .vmem S3x1536x512 .bf16) (h2 : a2.IsWhole) (a3 : Memref sig .tc .vmem S1x512 .f32) (h3 : a3.IsWhole)
    (a4 : Memref sig .tc .vmem S1x28x28x512 .bf16) (h4 : a4.IsWhole)
    (xa xb : Vec F S1x28x32x512 .bf16) (wk : Vec F S3x1536x512 .bf16) (b : Vec F S1x512 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc14__conv_kernel i a0 h0 a1 h1 a2 h2 a3 h3 a4 h4) K := by
  simp only [cc14__conv_kernel_eq_skeleton]; unfold cc14__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg14 c where
  A w := V c (Pipeline.arrRef spec14 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec14 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg14.W) : (dat V c).A w = V c (Pipeline.arrRef spec14 w) := by
  dsimp only [dat]

/-- The invariant, the tallies and the shares, by name. -/
theorem Φ_eq (c : Dev nD) (t : Fin (cfg14.N + 1)) : (dat V c).Φ t = Pipeline.ΦA spec14 c := rfl
theorem owed_eq (c : Dev nD) (t : Fin (cfg14.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg14.N) : (dat V c).after 0 t = blk V c 0 t := by dsimp only [dat]
theorem after_1 (c : Dev nD) (t : Fin cfg14.N) : (dat V c).after 1 t = blk V c 1 t := by dsimp only [dat]
theorem after_2 (c : Dev nD) (t : Fin cfg14.N) : (dat V c).after 2 t = blk V c 2 t := by dsimp only [dat]
theorem after_3 (c : Dev nD) (t : Fin cfg14.N) : (dat V c).after 3 t = blk V c 3 t := by dsimp only [dat]
/-- What the body leaves in the output window's buffer at point `t`. -/
theorem after_4 (c : Dev nD) (t : Fin cfg14.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg14.N) (d) : (dat V c).before 0 t d = blk V c 0 t := by
  have hkeep : ∀ t, (cfg14.win 0).cut (cfg14.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg14.N) (d) : (dat V c).before 1 t d = blk V c 1 t := by
  have hkeep : ∀ t, (cfg14.win 1).cut (cfg14.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg14.N) (d) : (dat V c).before 2 t d = blk V c 2 t := by
  have hkeep : ∀ t, (cfg14.win 2).cut (cfg14.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg14.N) (d) : (dat V c).before 3 t d = blk V c 3 t := by
  have hkeep : ∀ t, (cfg14.win 3).cut (cfg14.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg14.N) :
    iprop((dat V c).Φ t.castSucc ∗ (dat V c).owesAt () t.castSucc
        ∗ (∃ d, owns (c : Thread nD τ) (st14_0 t) fullShare ((dat V c).before 0 t d))
        ∗ (∃ d, owns (c : Thread nD τ) (st14_1 t) fullShare ((dat V c).before 1 t d))
        ∗ (∃ d, owns (c : Thread nD τ) (st14_2 t) fullShare ((dat V c).before 2 t d))
        ∗ (∃ d, owns (c : Thread nD τ) (st14_3 t) fullShare ((dat V c).before 3 t d))
        ∗ (∃ d, owns (c : Thread nD τ) (st14_4 t) fullShare ((dat V c).before 4 t d)))
      ⊢ wp frame (wpE (defs₀ (F := F)) Variants.none c none) Set.univ (bodyAt14 t) (fun _ =>
          iprop((dat V c).Φ t.succ ∗ (dat V c).owesAt () t.succ
            ∗ owns (c : Thread nD τ) (st14_0 t) fullShare ((dat V c).after 0 t)
            ∗ owns (c : Thread nD τ) (st14_1 t) fullShare ((dat V c).after 1 t)
            ∗ owns (c : Thread nD τ) (st14_2 t) fullShare ((dat V c).after 2 t)
            ∗ owns (c : Thread nD τ) (st14_3 t) fullShare ((dat V c).after 3 t)
            ∗ owns (c : Thread nD τ) (st14_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W14, bigSep_W14]
  exact body_at V c t

end Cert.Kernel.Reg14
-- ==== Proof.K.Reg15.lean ====
/-
  The 3×3 convolution 512 → 512 with bias and ReLU on a batch of 32 images of 28×28 (kernel-side program, pallas
  region 15), 1 row tile(s) of 28 rows per image.  The padded input (56 rows of 32 columns per image) is handed
  to TWO windows of one array: row tile r and row tile r + 1.  The body stacks both row blocks and a zero tail into one slab of
  1824 pixel rows, and for each horizontal tap dx lane-concatenates the three vertically shifted slab windows (row offsets
  dx, dx+32, dx+64) into one operand of depth 3·512, multiplied with plane dx of the [3, 1536, 512] weight array:
  three products of contraction depth 1536 summed, then bias, max with 0, and the 28 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Tactic

noncomputable section

namespace Cert.Kernel.Reg15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The rectangles the body reads and writes -/

/-- A whole row block of the padded input (either window). -/
abbrev rX : Rect S1x28x32x512 := Rect.unit (s := S1x28x32x512) ![0, 0, 0, 0] S1x28x32x512.size Gen.inb_S1x28x32x512_S1x28x32x512_0_0_0_0
/-- Plane `dx = 0, 1, 2` of the weights. -/
abbrev rK0 : Rect S3x1536x512 := Rect.unit (s := S3x1536x512) ![0, 0, 0] S1x1536x512.size Gen.inb_S3x1536x512_S1x1536x512_0_0_0
abbrev rK1 : Rect S3x1536x512 := Rect.unit (s := S3x1536x512) ![1, 0, 0] S1x1536x512.size Gen.inb_S3x1536x512_S1x1536x512_1_0_0
abbrev rK2 : Rect S3x1536x512 := Rect.unit (s := S3x1536x512) ![2, 0, 0] S1x1536x512.size Gen.inb_S3x1536x512_S1x1536x512_2_0_0
/-- The bias row. -/
abbrev rB : Rect S1x512 := Rect.unit (s := S1x512) ![0, 0] S1x512.size Gen.inb_S1x512_S1x512_0_0
/-- The whole output tile. -/
abbrev rY : Rect S1x28x28x512 := Rect.unit (s := S1x28x28x512) ![0, 0, 0, 0] S1x28x28x512.size Gen.inb_S1x28x28x512_S1x28x28x512_0_0_0_0

/-! ## What the body computes -/

/-- The three depth-768 products summed, one row per padded pixel position (28 · 32) and one column per output
    channel: from the upper row block `xa`, the lower row block `xb` and the weights `wk`. -/
def acc (xa xb : Vec F S1x28x32x512 .bf16) (wk : Vec F S3x1536x512 .bf16) : FVec F S896x512 .f32 :=
  k15_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x32x512 .bf16) (wk : Vec F S3x1536x512 .bf16) (b : Vec F S1x512 .f32) : Vec F S1x28x28x512 .bf16 :=
  View.canon [⟨rY, k15_pay1 (acc xa xb wk) (View.ld b rB)⟩]

/-- The one store covers the tile. -/
theorem tile_cover (p : Vec F S1x28x28x512 .bf16) (y : S1x28x28x512.Idx) :
    ∃ pc ∈ ([⟨rY, p⟩] : List (View.Piece (Elt F) S1x28x28x512 .bf16)), y ∈ pc.1.set :=
  View.cover_of_tiled [⟨rY, p⟩] S1x28x28x512.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid15.Coords)
    (a0 : Memref sig .tc .vmem S1x28x32x512 .bf16) (h0 : a0.IsWhole) (a1 : Memref sig .tc .vmem S1x28x32x512 .bf16) (h1 : a1.IsWhole)
    (a2 : Memref sig .tc .vmem S3x1536x512 .bf16) (h2 : a2.IsWhole) (a3 : Memref sig .tc .vmem S1x512 .f32) (h3 : a3.IsWhole)
    (a4 : Memref sig .tc .vmem S1x28x28x512 .bf16) (h4 : a4.IsWhole)
    (xa xb : Vec F S1x28x32x512 .bf16) (wk : Vec F S3x1536x512 .bf16) (b : Vec F S1x512 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc15__conv_kernel i a0 h0 a1 h1 a2 h2 a3 h3 a4 h4) K := by
  simp only [cc15__conv_kernel_eq_skeleton]; unfold cc15__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg15 c where
  A w := V c (Pipeline.arrRef spec15 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec15 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg15.W) : (dat V c).A w = V c (Pipeline.arrRef spec15 w) := by
  dsimp only [dat]

/-- The invariant, the tallies and the shares, by name. -/
theorem Φ_eq (c : Dev nD) (t : Fin (cfg15.N + 1)) : (dat V c).Φ t = Pipeline.ΦA spec15 c := rfl
theorem owed_eq (c : Dev nD) (t : Fin (cfg15.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg15.N) : (dat V c).after 0 t = blk V c 0 t := by dsimp only [dat]
theorem after_1 (c : Dev nD) (t : Fin cfg15.N) : (dat V c).after 1 t = blk V c 1 t := by dsimp only [dat]
theorem after_2 (c : Dev nD) (t : Fin cfg15.N) : (dat V c).after 2 t = blk V c 2 t := by dsimp only [dat]
theorem after_3 (c : Dev nD) (t : Fin cfg15.N) : (dat V c).after 3 t = blk V c 3 t := by dsimp only [dat]
/-- What the body leaves in the output window's buffer at point `t`. -/
theorem after_4 (c : Dev nD) (t : Fin cfg15.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg15.N) (d) : (dat V c).before 0 t d = blk V c 0 t := by
  have hkeep : ∀ t, (cfg15.win 0).cut (cfg15.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg15.N) (d) : (dat V c).before 1 t d = blk V c 1 t := by
  have hkeep : ∀ t, (cfg15.win 1).cut (cfg15.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg15.N) (d) : (dat V c).before 2 t d = blk V c 2 t := by
  have hkeep : ∀ t, (cfg15.win 2).cut (cfg15.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg15.N) (d) : (dat V c).before 3 t d = blk V c 3 t := by
  have hkeep : ∀ t, (cfg15.win 3).cut (cfg15.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg15.N) :
    iprop((dat V c).Φ t.castSucc ∗ (dat V c).owesAt () t.castSucc
        ∗ (∃ d, owns (c : Thread nD τ) (st15_0 t) fullShare ((dat V c).before 0 t d))
        ∗ (∃ d, owns (c : Thread nD τ) (st15_1 t) fullShare ((dat V c).before 1 t d))
        ∗ (∃ d, owns (c : Thread nD τ) (st15_2 t) fullShare ((dat V c).before 2 t d))
        ∗ (∃ d, owns (c : Thread nD τ) (st15_3 t) fullShare ((dat V c).before 3 t d))
        ∗ (∃ d, owns (c : Thread nD τ) (st15_4 t) fullShare ((dat V c).before 4 t d)))
      ⊢ wp frame (wpE (defs₀ (F := F)) Variants.none c none) Set.univ (bodyAt15 t) (fun _ =>
          iprop((dat V c).Φ t.succ ∗ (dat V c).owesAt () t.succ
            ∗ owns (c : Thread nD τ) (st15_0 t) fullShare ((dat V c).after 0 t)
            ∗ owns (c : Thread nD τ) (st15_1 t) fullShare ((dat V c).after 1 t)
            ∗ owns (c : Thread nD τ) (st15_2 t) fullShare ((dat V c).after 2 t)
            ∗ owns (c : Thread nD τ) (st15_3 t) fullShare ((dat V c).after 3 t)
            ∗ owns (c : Thread nD τ) (st15_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W15, bigSep_W15]
  exact body_at V c t

end Cert.Kernel.Reg15
-- ==== Proof.K.Reg16.lean ====
import proofs.«143011_g2000502688546152_pallasbulk_1201_3_alg».proof.Proof.Gen.Kernel.Launch
import proofs.«143011_g2000502688546152_pallasbulk_1201_3_alg».proof.Proof.Gen.Kernel.Skeleton
import proofs.«143011_g2000502688546152_pallasbulk_1201_3_alg».proof.Proof.Gen.Kernel.Points
import Idealize.ShloMosaic.Lib.Pipeline.FrameBody
import Idealize.ShloMosaic.Lib.Pipeline.Value
import Idealize.ShloMosaic.Lib.Tactic

/-! # Region 16: the per-image L1 distance of the last feature level

The grid is 16 images by 7 row tiles.  At point (n, q) the body adds, to every entry of the (1, 8, 128) result tile of
image n, the sum over the 112 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.Kernel.Reg16

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 112 × 512 row tile of image n,
    resp. n + 16; for the result the (1, 8, 128) tile of image n. -/
def tile (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The result tile set to zero: what the body stores first at q = 0. -/
abbrev zeroTile : Vec F S1x8x128 .f32 := k16_pay1 (F := F)

/-- One point's work: the tile-wide sum of |x − y| added to every entry of the carried tile `acc`. -/
abbrev addDist (c : Dev nD) (t : Fin cfg16.N) (acc : Vec F S1x8x128 .f32) : Vec F S1x8x128 .f32 :=
  k16_pay2 (tile V c 0 t) (tile V c 1 t) acc

/-- THE RUNNING SUM: the result tile after the body at grid position `n` — started from zero where the row tile is the
    first of its image (n ≡ 0 mod 7), else continued from the position before. -/
def running (c : Dev nD) : (n : ℕ) → n < cfg16.N → Vec F S1x8x128 .f32
  | 0, hn => addDist V c ⟨0, hn⟩ zeroTile
  | n + 1, hn => addDist V c ⟨n + 1, hn⟩ (if (n + 1) % 7 = 0 then zeroTile else running c n (Nat.lt_of_succ_lt hn))

theorem running_first (c : Dev nD) (t : Fin cfg16.N) (h0 : t.val % 7 = 0) :
    running V c t.val t.isLt = addDist V c t zeroTile := by
  obtain ⟨n, hn⟩ := t
  cases n with
  | zero => show running V c 0 hn = _; rw [running]
  | succ n =>
    have h0' : (n + 1) % 7 = 0 := h0
    show running V c (n + 1) hn = _
    rw [running, if_pos h0']

theorem running_next (c : Dev nD) (t : Fin cfg16.N) (h0 : ¬ t.val % 7 = 0) :
    running V c t.val t.isLt = addDist V c t (running V c (t.val - 1) (Nat.lt_of_le_of_lt (Nat.sub_le _ _) t.isLt)) := by
  obtain ⟨n, hn⟩ := t
  cases n with
  | zero => exact absurd (Nat.zero_mod 7) h0
  | succ n =>
    have h0' : ¬ (n + 1) % 7 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg16 c where
  A w := V c (Pipeline.arrRef spec16 w)
  after w t := match w with
    | ⟨0, _⟩ => tile V c 0 t
    | ⟨1, _⟩ => tile V c 1 t
    | ⟨2, _⟩ => running V c t.val t.isLt
  Φ _ := Pipeline.ΦA spec16 c
  q w := match w with
    | ⟨0, _⟩ => fullShare.left
    | ⟨1, _⟩ => fullShare.right
    | ⟨2, _⟩ => fullShare
  owed _ := 0

theorem A_eq (c : Dev nD) (w : Fin cfg16.W) : (dat V c).A w = V c (Pipeline.arrRef spec16 w) := by
  dsimp only [dat]

theorem after_x (c : Dev nD) (t : Fin cfg16.N) : (dat V c).after 0 t = tile V c 0 t := by dsimp only [dat]
theorem after_y (c : Dev nD) (t : Fin cfg16.N) : (dat V c).after 1 t = tile V c 1 t := by dsimp only [dat]
theorem after_sum (c : Dev nD) (t : Fin cfg16.N) : (dat V c).after 2 t = running V c t.val t.isLt := by dsimp only [dat]

/-- Each input's current buffer holds its tile when the body runs. -/
theorem before_x (c : Dev nD) (t : Fin cfg16.N) (d) : (dat V c).before 0 t d = tile V c 0 t := by
  rw [Dat.before_fetched _ 0 t (fetch16_0 t) d]
  unfold Dat.fetched Dat.blockOf tile
  rw [A_eq]; try rfl
theorem before_y (c : Dev nD) (t : Fin cfg16.N) (d) : (dat V c).before 1 t d = tile V c 1 t := by
  rw [Dat.before_fetched _ 1 t (fetch16_1 t) d]
  unfold Dat.fetched Dat.blockOf tile
  rw [A_eq]; try rfl
/-- Within an image (q ≠ 0) the result's buffer holds the running sum of the position before. -/
theorem before_sum (c : Dev nD) (t : Fin cfg16.N) (h0 : ¬ t.val % 7 = 0) (d) :
    (dat V c).before 2 t d = running V c (t.val - 1) (Nat.lt_of_le_of_lt (Nat.sub_le _ _) t.isLt) := by
  have hN : t.val < 16 * 7 := lt_of_lt_of_eq t.isLt (show cfg16.N = 16 * 7 from N_16)
  rw [Dat.before_out_kept _ 2 rfl t (by omega)
    (Bool.eq_false_iff.mpr fun h => by have := (flush16_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid16.Coords) : Prop :=
  (Scalar.cmpi .ne (Scalar.extui (Scalar.cmpi .eq (BitVec.ofNat 32 (i 1).val) 0#32)) 0#32) = 1#1

/-- Along the grid's row-major order it holds at the positions ≡ 0 (mod 7). -/
theorem firstTile_iff : ∀ t : Fin cfg16.N, firstTile (grid16.coords t) ↔ t.val % 7 = 0 :=
  (by decide +kernel : ∀ t : Fin grid16.N, firstTile (grid16.coords t) ↔ t.val % 7 = 0)

set_option maxHeartbeats 1000000 in
/-- At the first row tile of an image (q = 0): whatever the result's buffer held, it is set to zero, and the tile's sum
    of |x − y| is added to that. -/
theorem kernel_first (c : Dev nD) (E : Set ℕ) (i : grid16.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : firstTile i)
    (x y : Vec F S1x112x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k16_pay2 x y (k16_pay1 (F := F)))) -∗ K ⟨⟩))
      ⊢ wp frame (wpE (defs₀ (F := F)) Variants.none c none) E (cc16__l1_kernel i ax hax ay hay ao hao) K := by
  simp only [cc16__l1_kernel_eq_skeleton]; unfold cc16__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid16.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : ¬ firstTile i)
    (x y : Vec F S1x112x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k16_pay2 x y acc)) -∗ K ⟨⟩))
      ⊢ wp frame (wpE (defs₀ (F := F)) Variants.none c none) E (cc16__l1_kernel i ax hax ay hay ao hao) K := by
  simp only [cc16__l1_kernel_eq_skeleton]; unfold cc16__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg16.N) : sProp 𝕄 :=
  iprop((dat V c).Φ t.castSucc ∗ (dat V c).owesAt () t.castSucc
    ∗ (∃ d, owns (c : Thread nD τ) (st16_0 t) fullShare ((dat V c).before 0 t d))
    ∗ (∃ d, owns (c : Thread nD τ) (st16_1 t) fullShare ((dat V c).before 1 t d))
    ∗ (∃ d, owns (c : Thread nD τ) (st16_2 t) fullShare ((dat V c).before 2 t d)))

/-- and what it returns. -/
def bodyPost (c : Dev nD) (t : Fin cfg16.N) : sProp 𝕄 :=
  iprop((dat V c).Φ t.succ ∗ (dat V c).owesAt () t.succ
    ∗ owns (c : Thread nD τ) (st16_0 t) fullShare ((dat V c).after 0 t)
    ∗ owns (c : Thread nD τ) (st16_1 t) fullShare ((dat V c).after 1 t)
    ∗ owns (c : Thread nD τ) (st16_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg16.N) :
    bodyPre V c t ⊢ wp frame (wpE (defs₀ (F := F)) Variants.none c none) Set.univ (bodyAt16 (F := F) t) (fun _ => bodyPost V c t) := by
  unfold bodyPre bodyPost bodyAt16
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 7 = 0
  · rw [running_first V c t h0]
    iintro ⟨HΦ, Ho, ⟨%d0, H0⟩, ⟨%d1, H1⟩, ⟨%d2, H2⟩⟩
    iapply (kernel_first c Set.univ (grid16.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid16.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W16, bigSep_W16]
  exact sound_body V c t

end Cert.Kernel.Reg16

end
-- ==== Proof.K.RunChain.lean ====
/-
  The contents of every unscoped buffer between two items of the network, from the launch memory on: after a
  stretch of host operations, what the stretch computes from the contents before it; after a kernel region, the
  contents before it with the region's output array at what the pipeline's write-backs leave after its last point.
  The proof data of all seventeen regions, each over the contents its region is entered at.
-/
import proofs.«143011_g2000502688546152_pallasbulk_1201_3_alg».proof.Proof.K.GenRegions
import proofs.«143011_g2000502688546152_pallasbulk_1201_3_alg».proof.Proof.K.Reg0
import proofs.«143011_g2000502688546152_pallasbulk_1201_3_alg».proof.Proof.K.Reg1
import proofs.«143011_g2000502688546152_pallasbulk_1201_3_alg».proof.Proof.K.Reg2
import proofs.«143011_g2000502688546152_pallasbulk_1201_3_alg».proof.Proof.K.Reg3
import proofs.«143011_g2000502688546152_pallasbulk_1201_3_alg».proof.Proof.K.Reg4
import proofs.«143011_g2000502688546152_pallasbulk_1201_3_alg».proof.Proof.K.Reg5
import proofs.«143011_g2000502688546152_pallasbulk_1201_3_alg».proof.Proof.K.Reg6
import proofs.«143011_g2000502688546152_pallasbulk_1201_3_alg».proof.Proof.K.Reg7
import proofs.«143011_g2000502688546152_pallasbulk_1201_3_alg».proof.Proof.K.Reg8
import proofs.«143011_g2000502688546152_pallasbulk_1201_3_alg».proof.Proof.K.Reg9
import proofs.«143011_g2000502688546152_pallasbulk_1201_3_alg».proof.Proof.K.Reg10
import proofs.«143011_g2000502688546152_pallasbulk_1201_3_alg».proof.Proof.K.Reg11
import proofs.«143011_g2000502688546152_pallasbulk_1201_3_alg».proof.Proof.K.Reg12
import proofs.«143011_g2000502688546152_pallasbulk_1201_3_alg».proof.Proof.K.Reg13
import proofs.«143011_g2000502688546152_pallasbulk_1201_3_alg».proof.Proof.K.Reg14
import proofs.«143011_g2000502688546152_pallasbulk_1201_3_alg».proof.Proof.K.Reg15
import proofs.«143011_g2000502688546152_pallasbulk_1201_3_alg».proof.Proof.K.Reg16

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-! ## The contents between items -/

/-- The launch memory. -/
def W0 (c : Dev nD) : Valuation τ sig (Elt F) := fun b => m (c, b)
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)

/-- The buffers as region 0 finds them. -/
abbrev U3 : (c : Dev nD) → (b : Ref sig .tc) → Buf (Elt F) ((c : Thread nD τ).loc b) := fun c b => W3 m c b
/-- Region 0's output array after its last point. -/
def out0 (c : Dev nD) : Buf (Elt F) ((c : Thread nD τ).loc main_v11) := (Reg0.dat (U3 m) c).arrAt (4 : Fin 5) cfg0.N
def W4 (c : Dev nD) : Valuation τ sig (Elt F) := Function.update (W3 m c) main_v11 (out0 m c)
def W5 (c : Dev nD) : Valuation τ sig (Elt F) := StableHlo.after hostOps1 (W4 m c)
def W6 (c : Dev nD) : Valuation τ sig (Elt F) := StableHlo.after hostOps1_1 (W5 m c)
def W7 (c : Dev nD) : Valuation τ sig (Elt F) := StableHlo.after hostOps1_2 (W6 m c)

/-- The buffers as region 1 finds them. -/
abbrev U7 : (c : Dev nD) → (b : Ref sig .tc) → Buf (Elt F) ((c : Thread nD τ).loc b) := fun c b => W7 m c b
/-- Region 1's output array after its last point. -/
def out1 (c : Dev nD) : Buf (Elt F) ((c : Thread nD τ).loc main_v14) := (Reg1.dat (U7 m) c).arrAt (4 : Fin 5) cfg1.N
def W8 (c : Dev nD) : Valuation τ sig (Elt F) := Function.update (W7 m c) main_v14 (out1 m c)
def W9 (c : Dev nD) : Valuation τ sig (Elt F) := StableHlo.after hostOps2 (W8 m c)

/-- The buffers as region 2 finds them. -/
abbrev U9 : (c : Dev nD) → (b : Ref sig .tc) → Buf (Elt F) ((c : Thread nD τ).loc b) := fun c b => W9 m c b
/-- Region 2's output array after its last point. -/
def out2 (c : Dev nD) : Buf (Elt F) ((c : Thread nD τ).loc main_v16) := (Reg2.dat (U9 m) c).arrAt (2 : Fin 3) cfg2.N
def W10 (c : Dev nD) : Valuation τ sig (Elt F) := Function.update (W9 m c) main_v16 (out2 m c)
def W11 (c : Dev nD) : Valuation τ sig (Elt F) := StableHlo.after hostOps3 (W10 m c)

/-- The buffers as region 3 finds them. -/
abbrev U11 : (c : Dev nD) → (b : Ref sig .tc) → Buf (Elt F) ((c : Thread nD τ).loc b) := fun c b => W11 m c b
/-- Region 3's output array after its last point. -/
def out3 (c : Dev nD) : Buf (Elt F) ((c : Thread nD τ).loc main_v23) := (Reg3.dat (U11 m) c).arrAt (1 : Fin 2) cfg3.N
def W12 (c : Dev nD) : Valuation τ sig (Elt F) := Function.update (W11 m c) main_v23 (out3 m c)
def W13 (c : Dev nD) : Valuation τ sig (Elt F) := StableHlo.after hostOps4 (W12 m c)
def W14 (c : Dev nD) : Valuation τ sig (Elt F) := StableHlo.after hostOps4_1 (W13 m c)
def W15 (c : Dev nD) : Valuation τ sig (Elt F) := StableHlo.after hostOps4_2 (W14 m c)

/-- The buffers as region 4 finds them. -/
abbrev U15 : (c : Dev nD) → (b : Ref sig .tc) → Buf (Elt F) ((c : Thread nD τ).loc b) := fun c b => W15 m c b
/-- Region 4's output array after its last point. -/
def out4 (c : Dev nD) : Buf (Elt F) ((c : Thread nD τ).loc main_v26) := (Reg4.dat (U15 m) c).arrAt (4 : Fin 5) cfg4.N
def W16 (c : Dev nD) : Valuation τ sig (Elt F) := Function.update (W15 m c) main_v26 (out4 m c)
def W17 (c : Dev nD) : Valuation τ sig (Elt F) := StableHlo.after hostOps5 (W16 m c)
def W18 (c : Dev nD) : Valuation τ sig (Elt F) := StableHlo.after hostOps5_1 (W17 m c)
def W19 (c : Dev nD) : Valuation τ sig (Elt F) := StableHlo.after hostOps5_2 (W18 m c)

/-- The buffers as region 5 finds them. -/
abbrev U19 : (c : Dev nD) → (b : Ref sig .tc) → Buf (Elt F) ((c : Thread nD τ).loc b) := fun c b => W19 m c b
/-- Region 5's output array after its last point. -/
def out5 (c : Dev nD) : Buf (Elt F) ((c : Thread nD τ).loc main_v31) := (Reg5.dat (U19 m) c).arrAt (4 : Fin 5) cfg5.N
def W20 (c : Dev nD) : Valuation τ sig (Elt F) := Function.update (W19 m c) main_v31 (out5 m c)
def W21 (c : Dev nD) : Valuation τ sig (Elt F) := StableHlo.after hostOps6 (W20 m c)

/-- The buffers as region 6 finds them. -/
abbrev U21 : (c : Dev nD) → (b : Ref sig .tc) → Buf (Elt F) ((c : Thread nD τ).loc b) := fun c b => W21 m c b
/-- Region 6's output array after its last point. -/
def out6 (c : Dev nD) : Buf (Elt F) ((c : Thread nD τ).loc main_v33) := (Reg6.dat (U21 m) c).arrAt (2 : Fin 3) cfg6.N
def W22 (c : Dev nD) : Valuation τ sig (Elt F) := Function.update (W21 m c) main_v33 (out6 m c)
def W23 (c : Dev nD) : Valuation τ sig (Elt F) := StableHlo.after hostOps7 (W22 m c)

/-- The buffers as region 7 finds them. -/
abbrev U23 : (c : Dev nD) → (b : Ref sig .tc) → Buf (Elt F) ((c : Thread nD τ).loc b) := fun c b => W23 m c b
/-- Region 7's output array after its last point. -/
def out7 (c : Dev nD) : Buf (Elt F) ((c : Thread nD τ).loc main_v40) := (Reg7.dat (U23 m) c).arrAt (1 : Fin 2) cfg7.N
def W24 (c : Dev nD) : Valuation τ sig (Elt F) := Function.update (W23 m c) main_v40 (out7 m c)
def W25 (c : Dev nD) : Valuation τ sig (Elt F) := StableHlo.after hostOps8 (W24 m c)
def W26 (c : Dev nD) : Valuation τ sig (Elt F) := StableHlo.after hostOps8_1 (W25 m c)
def W27 (c : Dev nD) : Valuation τ sig (Elt F) := StableHlo.after hostOps8_2 (W26 m c)

/-- The buffers as region 8 finds them. -/
abbrev U27 : (c : Dev nD) → (b : Ref sig .tc) → Buf (Elt F) ((c : Thread nD τ).loc b) := fun c b => W27 m c b
/-- Region 8's output array after its last point. -/
def out8 (c : Dev nD) : Buf (Elt F) ((c : Thread nD τ).loc main_v45) := (Reg8.dat (U27 m) c).arrAt (4 : Fin 5) cfg8.N
def W28 (c : Dev nD) : Valuation τ sig (Elt F) := Function.update (W27 m c) main_v45 (out8 m c)
def W29 (c : Dev nD) : Valuation τ sig (Elt F) := StableHlo.after hostOps9 (W28 m c)
def W30 (c : Dev nD) : Valuation τ sig (Elt F) := StableHlo.after hostOps9_1 (W29 m c)
def W31 (c : Dev nD) : Valuation τ sig (Elt F) := StableHlo.after hostOps9_2 (W30 m c)

/-- The buffers as region 9 finds them. -/
abbrev U31 : (c : Dev nD) → (b : Ref sig .tc) → Buf (Elt F) ((c : Thread nD τ).loc b) := fun c b => W31 m c b
/-- Region 9's output array after its last point. -/
def out9 (c : Dev nD) : Buf (Elt F) ((c : Thread nD τ).loc main_v50) := (Reg9.dat (U31 m) c).arrAt (4 : Fin 5) cfg9.N
def W32 (c : Dev nD) : Valuation τ sig (Elt F) := Function.update (W31 m c) main_v50 (out9 m c)
def W33 (c : Dev nD) : Valuation τ sig (Elt F) := StableHlo.after hostOps10 (W32 m c)
def W34 (c : Dev nD) : Valuation τ sig (Elt F) := StableHlo.after hostOps10_1 (W33 m c)
def W35 (c : Dev nD) : Valuation τ sig (Elt F) := StableHlo.after hostOps10_2 (W34 m c)

/-- The buffers as region 10 finds them. -/
abbrev U35 : (c : Dev nD) → (b : Ref sig .tc) → Buf (Elt F) ((c : Thread nD τ).loc b) := fun c b => W35 m c b
/-- Region 10's output array after its last point. -/
def out10 (c : Dev nD) : Buf (Elt F) ((c : Thread nD τ).loc main_v55) := (Reg10.dat (U35 m) c).arrAt (4 : Fin 5) cfg10.N
def W36 (c : Dev nD) : Valuation τ sig (Elt F) := Function.update (W35 m c) main_v55 (out10 m c)
def W37 (c : Dev nD) : Valuation τ sig (Elt F) := StableHlo.after hostOps11 (W36 m c)

/-- The buffers as region 11 finds them. -/
abbrev U37 : (c : Dev nD) → (b : Ref sig .tc) → Buf (Elt F) ((c : Thread nD τ).loc b) := fun c b => W37 m c b
/-- Region 11's output array after its last point. -/
def out11 (c : Dev nD) : Buf (Elt F) ((c : Thread nD τ).loc main_v57) := (Reg11.dat (U37 m) c).arrAt (2 : Fin 3) cfg11.N
def W38 (c : Dev nD) : Valuation τ sig (Elt F) := Function.update (W37 m c) main_v57 (out11 m c)
def W39 (c : Dev nD) : Valuation τ sig (Elt F) := StableHlo.after hostOps12 (W38 m c)

/-- The buffers as region 12 finds them. -/
abbrev U39 : (c : Dev nD) → (b : Ref sig .tc) → Buf (Elt F) ((c : Thread nD τ).loc b) := fun c b => W39 m c b
/-- Region 12's output array after its last point. -/
def out12 (c : Dev nD) : Buf (Elt F) ((c : Thread nD τ).loc main_v64) := (Reg12.dat (U39 m) c).arrAt (1 : Fin 2) cfg12.N
def W40 (c : Dev nD) : Valuation τ sig (Elt F) := Function.update (W39 m c) main_v64 (out12 m c)
def W41 (c : Dev nD) : Valuation τ sig (Elt F) := StableHlo.after hostOps13 (W40 m c)
def W42 (c : Dev nD) : Valuation τ sig (Elt F) := StableHlo.after hostOps13_1 (W41 m c)
def W43 (c : Dev nD) : Valuation τ sig (Elt F) := StableHlo.after hostOps13_2 (W42 m c)

/-- The buffers as region 13 finds them. -/
abbrev U43 : (c : Dev nD) → (b : Ref sig .tc) → Buf (Elt F) ((c : Thread nD τ).loc b) := fun c b => W43 m c b
/-- Region 13's output array after its last point. -/
def out13 (c : Dev nD) : Buf (Elt F) ((c : Thread nD τ).loc main_v69) := (Reg13.dat (U43 m) c).arrAt (4 : Fin 5) cfg13.N
def W44 (c : Dev nD) : Valuation τ sig (Elt F) := Function.update (W43 m c) main_v69 (out13 m c)
def W45 (c : Dev nD) : Valuation τ sig (Elt F) := StableHlo.after hostOps14 (W44 m c)
def W46 (c : Dev nD) : Valuation τ sig (Elt F) := StableHlo.after hostOps14_1 (W45 m c)
def W47 (c : Dev nD) : Valuation τ sig (Elt F) := StableHlo.after hostOps14_2 (W46 m c)

/-- The buffers as region 14 finds them. -/
abbrev U47 : (c : Dev nD) → (b : Ref sig .tc) → Buf (Elt F) ((c : Thread nD τ).loc b) := fun c b => W47 m c b
/-- Region 14's output array after its last point. -/
def out14 (c : Dev nD) : Buf (Elt F) ((c : Thread nD τ).loc main_v74) := (Reg14.dat (U47 m) c).arrAt (4 : Fin 5) cfg14.N
def W48 (c : Dev nD) : Valuation τ sig (Elt F) := Function.update (W47 m c) main_v74 (out14 m c)
def W49 (c : Dev nD) : Valuation τ sig (Elt F) := StableHlo.after hostOps15 (W48 m c)
def W50 (c : Dev nD) : Valuation τ sig (Elt F) := StableHlo.after hostOps15_1 (W49 m c)
def W51 (c : Dev nD) : Valuation τ sig (Elt F) := StableHlo.after hostOps15_2 (W50 m c)

/-- The buffers as region 15 finds them. -/
abbrev U51 : (c : Dev nD) → (b : Ref sig .tc) → Buf (Elt F) ((c : Thread nD τ).loc b) := fun c b => W51 m c b
/-- Region 15's output array after its last point. -/
def out15 (c : Dev nD) : Buf (Elt F) ((c : Thread nD τ).loc main_v79) := (Reg15.dat (U51 m) c).arrAt (4 : Fin 5) cfg15.N
def W52 (c : Dev nD) : Valuation τ sig (Elt F) := Function.update (W51 m c) main_v79 (out15 m c)
def W53 (c : Dev nD) : Valuation τ sig (Elt F) := StableHlo.after hostOps16 (W52 m c)

/-- The buffers as region 16 finds them. -/
abbrev U53 : (c : Dev nD) → (b : Ref sig .tc) → Buf (Elt F) ((c : Thread nD τ).loc b) := fun c b => W53 m c b
/-- Region 16's output array after its last point. -/
def out16 (c : Dev nD) : Buf (Elt F) ((c : Thread nD τ).loc main_v81) := (Reg16.dat (U53 m) c).arrAt (2 : Fin 3) cfg16.N
def W54 (c : Dev nD) : Valuation τ sig (Elt F) := Function.update (W53 m c) main_v81 (out16 m c)
def W55 (c : Dev nD) : Valuation τ sig (Elt F) := StableHlo.after hostOps17 (W54 m c)

/-! ## What the regions leave, as one family -/

/-- After item `k − 1` buffer `r` holds `W k c r`: read only at the seventeen region exits. -/
def outs : Outs (F := F) := fun k r c => match k with
  | 4 => W4 m c r
  | 8 => W8 m c r
  | 10 => W10 m c r
  | 12 => W12 m c r
  | 16 => W16 m c r
  | 20 => W20 m c r
  | 22 => W22 m c r
  | 24 => W24 m c r
  | 28 => W28 m c r
  | 32 => W32 m c r
  | 36 => W36 m c r
  | 38 => W38 m c r
  | 40 => W40 m c r
  | 44 => W44 m c r
  | 48 => W48 m c r
  | 52 => W52 m c r
  | 54 => W54 m c r
  | _ => W0 m c r

/-! ## The generated boundary contents at these unknowns are the chain -/

theorem V0_eq (c : Dev nD) : V0 m c = W0 m c := rfl
theorem V1_eq (c : Dev nD) : V1 m c = W1 m c := by
  show StableHlo.after hostOps0 (V0 m c) = StableHlo.after hostOps0 (W0 m c)
  rw [V0_eq]
theorem V2_eq (c : Dev nD) : V2 m c = W2 m c := by
  show StableHlo.after hostOps0_1 (V1 m c) = StableHlo.after hostOps0_1 (W1 m c)
  rw [V1_eq]
theorem V3_eq (c : Dev nD) : V3 m c = W3 m c := by
  show StableHlo.after hostOps0_2 (V2 m c) = StableHlo.after hostOps0_2 (W2 m c)
  rw [V2_eq]
theorem V4_eq (c : Dev nD) : V4 m (outs m) c = W4 m c := by
  show Function.update (V3 m c) main_v11 (W4 m c main_v11) = Function.update (W3 m c) main_v11 (out0 m c)
  rw [V3_eq]
  exact congrArg _ (Function.update_self ..)
theorem V5_eq (c : Dev nD) : V5 m (outs m) c = W5 m c := by
  show StableHlo.after hostOps1 (V4 m (outs m) c) = StableHlo.after hostOps1 (W4 m c)
  rw [V4_eq]
theorem V6_eq (c : Dev nD) : V6 m (outs m) c = W6 m c := by
  show StableHlo.after hostOps1_1 (V5 m (outs m) c) = StableHlo.after hostOps1_1 (W5 m c)
  rw [V5_eq]
theorem V7_eq (c : Dev nD) : V7 m (outs m) c = W7 m c := by
  show StableHlo.after hostOps1_2 (V6 m (outs m) c) = StableHlo.after hostOps1_2 (W6 m c)
  rw [V6_eq]
theorem V8_eq (c : Dev nD) : V8 m (outs m) c = W8 m c := by
  show Function.update (V7 m (outs m) c) main_v14 (W8 m c main_v14) = Function.update (W7 m c) main_v14 (out1 m c)
  rw [V7_eq]
  exact congrArg _ (Function.update_self ..)
theorem V9_eq (c : Dev nD) : V9 m (outs m) c = W9 m c := by
  show StableHlo.after hostOps2 (V8 m (outs m) c) = StableHlo.after hostOps2 (W8 m c)
  rw [V8_eq]
theorem V10_eq (c : Dev nD) : V10 m (outs m) c = W10 m c := by
  show Function.update (V9 m (outs m) c) main_v16 (W10 m c main_v16) = Function.update (W9 m c) main_v16 (out2 m c)
  rw [V9_eq]
  exact congrArg _ (Function.update_self ..)
theorem V11_eq (c : Dev nD) : V11 m (outs m) c = W11 m c := by
  show StableHlo.after hostOps3 (V10 m (outs m) c) = StableHlo.after hostOps3 (W10 m c)
  rw [V10_eq]
theorem V12_eq (c : Dev nD) : V12 m (outs m) c = W12 m c := by
  show Function.update (V11 m (outs m) c) main_v23 (W12 m c main_v23) = Function.update (W11 m c) main_v23 (out3 m c)
  rw [V11_eq]
  exact congrArg _ (Function.update_self ..)
theorem V13_eq (c : Dev nD) : V13 m (outs m) c = W13 m c := by
  show StableHlo.after hostOps4 (V12 m (outs m) c) = StableHlo.after hostOps4 (W12 m c)
  rw [V12_eq]
theorem V14_eq (c : Dev nD) : V14 m (outs m) c = W14 m c := by
  show StableHlo.after hostOps4_1 (V13 m (outs m) c) = StableHlo.after hostOps4_1 (W13 m c)
  rw [V13_eq]
theorem V15_eq (c : Dev nD) : V15 m (outs m) c = W15 m c := by
  show StableHlo.after hostOps4_2 (V14 m (outs m) c) = StableHlo.after hostOps4_2 (W14 m c)
  rw [V14_eq]
theorem V16_eq (c : Dev nD) : V16 m (outs m) c = W16 m c := by
  show Function.update (V15 m (outs m) c) main_v26 (W16 m c main_v26) = Function.update (W15 m c) main_v26 (out4 m c)
  rw [V15_eq]
  exact congrArg _ (Function.update_self ..)
theorem V17_eq (c : Dev nD) : V17 m (outs m) c = W17 m c := by
  show StableHlo.after hostOps5 (V16 m (outs m) c) = StableHlo.after hostOps5 (W16 m c)
  rw [V16_eq]
theorem V18_eq (c : Dev nD) : V18 m (outs m) c = W18 m c := by
  show StableHlo.after hostOps5_1 (V17 m (outs m) c) = StableHlo.after hostOps5_1 (W17 m c)
  rw [V17_eq]
theorem V19_eq (c : Dev nD) : V19 m (outs m) c = W19 m c := by
  show StableHlo.after hostOps5_2 (V18 m (outs m) c) = StableHlo.after hostOps5_2 (W18 m c)
  rw [V18_eq]
theorem V20_eq (c : Dev nD) : V20 m (outs m) c = W20 m c := by
  show Function.update (V19 m (outs m) c) main_v31 (W20 m c main_v31) = Function.update (W19 m c) main_v31 (out5 m c)
  rw [V19_eq]
  exact congrArg _ (Function.update_self ..)
theorem V21_eq (c : Dev nD) : V21 m (outs m) c = W21 m c := by
  show StableHlo.after hostOps6 (V20 m (outs m) c) = StableHlo.after hostOps6 (W20 m c)
  rw [V20_eq]
theorem V22_eq (c : Dev nD) : V22 m (outs m) c = W22 m c := by
  show Function.update (V21 m (outs m) c) main_v33 (W22 m c main_v33) = Function.update (W21 m c) main_v33 (out6 m c)
  rw [V21_eq]
  exact congrArg _ (Function.update_self ..)
theorem V23_eq (c : Dev nD) : V23 m (outs m) c = W23 m c := by
  show StableHlo.after hostOps7 (V22 m (outs m) c) = StableHlo.after hostOps7 (W22 m c)
  rw [V22_eq]
theorem V24_eq (c : Dev nD) : V24 m (outs m) c = W24 m c := by
  show Function.update (V23 m (outs m) c) main_v40 (W24 m c main_v40) = Function.update (W23 m c) main_v40 (out7 m c)
  rw [V23_eq]
  exact congrArg _ (Function.update_self ..)
theorem V25_eq (c : Dev nD) : V25 m (outs m) c = W25 m c := by
  show StableHlo.after hostOps8 (V24 m (outs m) c) = StableHlo.after hostOps8 (W24 m c)
  rw [V24_eq]
theorem V26_eq (c : Dev nD) : V26 m (outs m) c = W26 m c := by
  show StableHlo.after hostOps8_1 (V25 m (outs m) c) = StableHlo.after hostOps8_1 (W25 m c)
  rw [V25_eq]
theorem V27_eq (c : Dev nD) : V27 m (outs m) c = W27 m c := by
  show StableHlo.after hostOps8_2 (V26 m (outs m) c) = StableHlo.after hostOps8_2 (W26 m c)
  rw [V26_eq]
theorem V28_eq (c : Dev nD) : V28 m (outs m) c = W28 m c := by
  show Function.update (V27 m (outs m) c) main_v45 (W28 m c main_v45) = Function.update (W27 m c) main_v45 (out8 m c)
  rw [V27_eq]
  exact congrArg _ (Function.update_self ..)
theorem V29_eq (c : Dev nD) : V29 m (outs m) c = W29 m c := by
  show StableHlo.after hostOps9 (V28 m (outs m) c) = StableHlo.after hostOps9 (W28 m c)
  rw [V28_eq]
theorem V30_eq (c : Dev nD) : V30 m (outs m) c = W30 m c := by
  show StableHlo.after hostOps9_1 (V29 m (outs m) c) = StableHlo.after hostOps9_1 (W29 m c)
  rw [V29_eq]
theorem V31_eq (c : Dev nD) : V31 m (outs m) c = W31 m c := by
  show StableHlo.after hostOps9_2 (V30 m (outs m) c) = StableHlo.after hostOps9_2 (W30 m c)
  rw [V30_eq]
theorem V32_eq (c : Dev nD) : V32 m (outs m) c = W32 m c := by
  show Function.update (V31 m (outs m) c) main_v50 (W32 m c main_v50) = Function.update (W31 m c) main_v50 (out9 m c)
  rw [V31_eq]
  exact congrArg _ (Function.update_self ..)
theorem V33_eq (c : Dev nD) : V33 m (outs m) c = W33 m c := by
  show StableHlo.after hostOps10 (V32 m (outs m) c) = StableHlo.after hostOps10 (W32 m c)
  rw [V32_eq]
theorem V34_eq (c : Dev nD) : V34 m (outs m) c = W34 m c := by
  show StableHlo.after hostOps10_1 (V33 m (outs m) c) = StableHlo.after hostOps10_1 (W33 m c)
  rw [V33_eq]
theorem V35_eq (c : Dev nD) : V35 m (outs m) c = W35 m c := by
  show StableHlo.after hostOps10_2 (V34 m (outs m) c) = StableHlo.after hostOps10_2 (W34 m c)
  rw [V34_eq]
theorem V36_eq (c : Dev nD) : V36 m (outs m) c = W36 m c := by
  show Function.update (V35 m (outs m) c) main_v55 (W36 m c main_v55) = Function.update (W35 m c) main_v55 (out10 m c)
  rw [V35_eq]
  exact congrArg _ (Function.update_self ..)
theorem V37_eq (c : Dev nD) : V37 m (outs m) c = W37 m c := by
  show StableHlo.after hostOps11 (V36 m (outs m) c) = StableHlo.after hostOps11 (W36 m c)
  rw [V36_eq]
theorem V38_eq (c : Dev nD) : V38 m (outs m) c = W38 m c := by
  show Function.update (V37 m (outs m) c) main_v57 (W38 m c main_v57) = Function.update (W37 m c) main_v57 (out11 m c)
  rw [V37_eq]
  exact congrArg _ (Function.update_self ..)
theorem V39_eq (c : Dev nD) : V39 m (outs m) c = W39 m c := by
  show StableHlo.after hostOps12 (V38 m (outs m) c) = StableHlo.after hostOps12 (W38 m c)
  rw [V38_eq]
theorem V40_eq (c : Dev nD) : V40 m (outs m) c = W40 m c := by
  show Function.update (V39 m (outs m) c) main_v64 (W40 m c main_v64) = Function.update (W39 m c) main_v64 (out12 m c)
  rw [V39_eq]
  exact congrArg _ (Function.update_self ..)
theorem V41_eq (c : Dev nD) : V41 m (outs m) c = W41 m c := by
  show StableHlo.after hostOps13 (V40 m (outs m) c) = StableHlo.after hostOps13 (W40 m c)
  rw [V40_eq]
theorem V42_eq (c : Dev nD) : V42 m (outs m) c = W42 m c := by
  show StableHlo.after hostOps13_1 (V41 m (outs m) c) = StableHlo.after hostOps13_1 (W41 m c)
  rw [V41_eq]
theorem V43_eq (c : Dev nD) : V43 m (outs m) c = W43 m c := by
  show StableHlo.after hostOps13_2 (V42 m (outs m) c) = StableHlo.after hostOps13_2 (W42 m c)
  rw [V42_eq]
theorem V44_eq (c : Dev nD) : V44 m (outs m) c = W44 m c := by
  show Function.update (V43 m (outs m) c) main_v69 (W44 m c main_v69) = Function.update (W43 m c) main_v69 (out13 m c)
  rw [V43_eq]
  exact congrArg _ (Function.update_self ..)
theorem V45_eq (c : Dev nD) : V45 m (outs m) c = W45 m c := by
  show StableHlo.after hostOps14 (V44 m (outs m) c) = StableHlo.after hostOps14 (W44 m c)
  rw [V44_eq]
theorem V46_eq (c : Dev nD) : V46 m (outs m) c = W46 m c := by
  show StableHlo.after hostOps14_1 (V45 m (outs m) c) = StableHlo.after hostOps14_1 (W45 m c)
  rw [V45_eq]
theorem V47_eq (c : Dev nD) : V47 m (outs m) c = W47 m c := by
  show StableHlo.after hostOps14_2 (V46 m (outs m) c) = StableHlo.after hostOps14_2 (W46 m c)
  rw [V46_eq]
theorem V48_eq (c : Dev nD) : V48 m (outs m) c = W48 m c := by
  show Function.update (V47 m (outs m) c) main_v74 (W48 m c main_v74) = Function.update (W47 m c) main_v74 (out14 m c)
  rw [V47_eq]
  exact congrArg _ (Function.update_self ..)
theorem V49_eq (c : Dev nD) : V49 m (outs m) c = W49 m c := by
  show StableHlo.after hostOps15 (V48 m (outs m) c) = StableHlo.after hostOps15 (W48 m c)
  rw [V48_eq]
theorem V50_eq (c : Dev nD) : V50 m (outs m) c = W50 m c := by
  show StableHlo.after hostOps15_1 (V49 m (outs m) c) = StableHlo.after hostOps15_1 (W49 m c)
  rw [V49_eq]
theorem V51_eq (c : Dev nD) : V51 m (outs m) c = W51 m c := by
  show StableHlo.after hostOps15_2 (V50 m (outs m) c) = StableHlo.after hostOps15_2 (W50 m c)
  rw [V50_eq]
theorem V52_eq (c : Dev nD) : V52 m (outs m) c = W52 m c := by
  show Function.update (V51 m (outs m) c) main_v79 (W52 m c main_v79) = Function.update (W51 m c) main_v79 (out15 m c)
  rw [V51_eq]
  exact congrArg _ (Function.update_self ..)
theorem V53_eq (c : Dev nD) : V53 m (outs m) c = W53 m c := by
  show StableHlo.after hostOps16 (V52 m (outs m) c) = StableHlo.after hostOps16 (W52 m c)
  rw [V52_eq]
theorem V54_eq (c : Dev nD) : V54 m (outs m) c = W54 m c := by
  show Function.update (V53 m (outs m) c) main_v81 (W54 m c main_v81) = Function.update (W53 m c) main_v81 (out16 m c)
  rw [V53_eq]
  exact congrArg _ (Function.update_self ..)
theorem V55_eq (c : Dev nD) : V55 m (outs m) c = W55 m c := by
  show StableHlo.after hostOps17 (V54 m (outs m) c) = StableHlo.after hostOps17 (W54 m c)
  rw [V54_eq]

/-! ## The proof data -/

/-- Every region's proof data, each at the contents its region is entered at. -/
def pdats : (p : Fin 17) → (c : Dev nD) → Dat τ (Elt F) Unit ℕ (UR sig nD τ) ℕ (cfgs p) c
  | ⟨0, _⟩ => fun c => Reg0.dat (U3 m) c
  | ⟨1, _⟩ => fun c => Reg1.dat (U7 m) c
  | ⟨2, _⟩ => fun c => Reg2.dat (U9 m) c
  | ⟨3, _⟩ => fun c => Reg3.dat (U11 m) c
  | ⟨4, _⟩ => fun c => Reg4.dat (U15 m) c
  | ⟨5, _⟩ => fun c => Reg5.dat (U19 m) c
  | ⟨6, _⟩ => fun c => Reg6.dat (U21 m) c
  | ⟨7, _⟩ => fun c => Reg7.dat (U23 m) c
  | ⟨8, _⟩ => fun c => Reg8.dat (U27 m) c
  | ⟨9, _⟩ => fun c => Reg9.dat (U31 m) c
  | ⟨10, _⟩ => fun c => Reg10.dat (U35 m) c
  | ⟨11, _⟩ => fun c => Reg11.dat (U37 m) c
  | ⟨12, _⟩ => fun c => Reg12.dat (U39 m) c
  | ⟨13, _⟩ => fun c => Reg13.dat (U43 m) c
  | ⟨14, _⟩ => fun c => Reg14.dat (U47 m) c
  | ⟨15, _⟩ => fun c => Reg15.dat (U51 m) c
  | ⟨16, _⟩ => fun c => Reg16.dat (U53 m) c
  | ⟨_ + 17, h⟩ => absurd h (Nat.not_lt.2 (Nat.le_add_left _ _))

end Cert.Kernel.Run

end
-- ==== Proof.K.RunChainAt.lean ====
/-
  Reading the chain of contents at a buffer: a region's exit changes its output array's buffer and no other; a host
  stretch changes the buffers it writes and no other; no item ever writes an argument array.
-/
import proofs.«143011_g2000502688546152_pallasbulk_1201_3_alg».proof.Proof.K.RunChain

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-! ## Reading the chain at a buffer -/
theorem W4_self (c : Dev nD) : W4 m c main_v11 = out0 m c := Function.update_self ..
theorem W4_of (c : Dev nD) (r : Ref sig .tc) (h : r ≠ main_v11) : W4 m c r = W3 m c r :=
  Function.update_of_ne (StableHlo.devRef_ne_of_ne h) ..
theorem W8_self (c : Dev nD) : W8 m c main_v14 = out1 m c := Function.update_self ..
theorem W8_of (c : Dev nD) (r : Ref sig .tc) (h : r ≠ main_v14) : W8 m c r = W7 m c r :=
  Function.update_of_ne (StableHlo.devRef_ne_of_ne h) ..
theorem W10_self (c : Dev nD) : W10 m c main_v16 = out2 m c := Function.update_self ..
theorem W10_of (c : Dev nD) (r : Ref sig .tc) (h : r ≠ main_v16) : W10 m c r = W9 m c r :=
  Function.update_of_ne (StableHlo.devRef_ne_of_ne h) ..
theorem W12_self (c : Dev nD) : W12 m c main_v23 = out3 m c := Function.update_self ..
theorem W12_of (c : Dev nD) (r : Ref sig .tc) (h : r ≠ main_v23) : W12 m c r = W11 m c r :=
  Function.update_of_ne (StableHlo.devRef_ne_of_ne h) ..
theorem W16_self (c : Dev nD) : W16 m c main_v26 = out4 m c := Function.update_self ..
theorem W16_of (c : Dev nD) (r : Ref sig .tc) (h : r ≠ main_v26) : W16 m c r = W15 m c r :=
  Function.update_of_ne (StableHlo.devRef_ne_of_ne h) ..
theorem W20_self (c : Dev nD) : W20 m c main_v31 = out5 m c := Function.update_self ..
theorem W20_of (c : Dev nD) (r : Ref sig .tc) (h : r ≠ main_v31) : W20 m c r = W19 m c r :=
  Function.update_of_ne (StableHlo.devRef_ne_of_ne h) ..
theorem W22_self (c : Dev nD) : W22 m c main_v33 = out6 m c := Function.update_self ..
theorem W22_of (c : Dev nD) (r : Ref sig .tc) (h : r ≠ main_v33) : W22 m c r = W21 m c r :=
  Function.update_of_ne (StableHlo.devRef_ne_of_ne h) ..
theorem W24_self (c : Dev nD) : W24 m c main_v40 = out7 m c := Function.update_self ..
theorem W24_of (c : Dev nD) (r : Ref sig .tc) (h : r ≠ main_v40) : W24 m c r = W23 m c r :=
  Function.update_of_ne (StableHlo.devRef_ne_of_ne h) ..
theorem W28_self (c : Dev nD) : W28 m c main_v45 = out8 m c := Function.update_self ..
theorem W28_of (c : Dev nD) (r : Ref sig .tc) (h : r ≠ main_v45) : W28 m c r = W27 m c r :=
  Function.update_of_ne (StableHlo.devRef_ne_of_ne h) ..
theorem W32_self (c : Dev nD) : W32 m c main_v50 = out9 m c := Function.update_self ..
theorem W32_of (c : Dev nD) (r : Ref sig .tc) (h : r ≠ main_v50) : W32 m c r = W31 m c r :=
  Function.update_of_ne (StableHlo.devRef_ne_of_ne h) ..
theorem W36_self (c : Dev nD) : W36 m c main_v55 = out10 m c := Function.update_self ..
theorem W36_of (c : Dev nD) (r : Ref sig .tc) (h : r ≠ main_v55) : W36 m c r = W35 m c r :=
  Function.update_of_ne (StableHlo.devRef_ne_of_ne h) ..
theorem W38_self (c : Dev nD) : W38 m c main_v57 = out11 m c := Function.update_self ..
theorem W38_of (c : Dev nD) (r : Ref sig .tc) (h : r ≠ main_v57) : W38 m c r = W37 m c r :=
  Function.update_of_ne (StableHlo.devRef_ne_of_ne h) ..
theorem W40_self (c : Dev nD) : W40 m c main_v64 = out12 m c := Function.update_self ..
theorem W40_of (c : Dev nD) (r : Ref sig .tc) (h : r ≠ main_v64) : W40 m c r = W39 m c r :=
  Function.update_of_ne (StableHlo.devRef_ne_of_ne h) ..
theorem W44_self (c : Dev nD) : W44 m c main_v69 = out13 m c := Function.update_self ..
theorem W44_of (c : Dev nD) (r : Ref sig .tc) (h : r ≠ main_v69) : W44 m c r = W43 m c r :=
  Function.update_of_ne (StableHlo.devRef_ne_of_ne h) ..
theorem W48_self (c : Dev nD) : W48 m c main_v74 = out14 m c := Function.update_self ..
theorem W48_of (c : Dev nD) (r : Ref sig .tc) (h : r ≠ main_v74) : W48 m c r = W47 m c r :=
  Function.update_of_ne (StableHlo.devRef_ne_of_ne h) ..
theorem W52_self (c : Dev nD) : W52 m c main_v79 = out15 m c := Function.update_self ..
theorem W52_of (c : Dev nD) (r : Ref sig .tc) (h : r ≠ main_v79) : W52 m c r = W51 m c r :=
  Function.update_of_ne (StableHlo.devRef_ne_of_ne h) ..
theorem W54_self (c : Dev nD) : W54 m c main_v81 = out16 m c := Function.update_self ..
theorem W54_of (c : Dev nD) (r : Ref sig .tc) (h : r ≠ main_v81) : W54 m c r = W53 m c r :=
  Function.update_of_ne (StableHlo.devRef_ne_of_ne h) ..
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W7_of (c : Dev nD) (r : Ref sig .tc) (h : r ∉ hostOps1_2_W) : W7 m c r = W6 m c r :=
  StableHlo.after_of_writes_sub hostOps1_2 _ hostOps1_2_writes h
theorem W9_of (c : Dev nD) (r : Ref sig .tc) (h : r ∉ hostOps2_W) : W9 m c r = W8 m c r :=
  StableHlo.after_of_writes_sub hostOps2 _ hostOps2_writes h
theorem W11_of (c : Dev nD) (r : Ref sig .tc) (h : r ∉ hostOps3_W) : W11 m c r = W10 m c r :=
  StableHlo.after_of_writes_sub hostOps3 _ hostOps3_writes h
theorem W13_of (c : Dev nD) (r : Ref sig .tc) (h : r ∉ hostOps4_W) : W13 m c r = W12 m c r :=
  StableHlo.after_of_writes_sub hostOps4 _ hostOps4_writes h
theorem W14_of (c : Dev nD) (r : Ref sig .tc) (h : r ∉ hostOps4_1_W) : W14 m c r = W13 m c r :=
  StableHlo.after_of_writes_sub hostOps4_1 _ hostOps4_1_writes h
theorem W15_of (c : Dev nD) (r : Ref sig .tc) (h : r ∉ hostOps4_2_W) : W15 m c r = W14 m c r :=
  StableHlo.after_of_writes_sub hostOps4_2 _ hostOps4_2_writes h
theorem W17_of (c : Dev nD) (r : Ref sig .tc) (h : r ∉ hostOps5_W) : W17 m c r = W16 m c r :=
  StableHlo.after_of_writes_sub hostOps5 _ hostOps5_writes h
theorem W18_of (c : Dev nD) (r : Ref sig .tc) (h : r ∉ hostOps5_1_W) : W18 m c r = W17 m c r :=
  StableHlo.after_of_writes_sub hostOps5_1 _ hostOps5_1_writes h
theorem W19_of (c : Dev nD) (r : Ref sig .tc) (h : r ∉ hostOps5_2_W) : W19 m c r = W18 m c r :=
  StableHlo.after_of_writes_sub hostOps5_2 _ hostOps5_2_writes h
theorem W21_of (c : Dev nD) (r : Ref sig .tc) (h : r ∉ hostOps6_W) : W21 m c r = W20 m c r :=
  StableHlo.after_of_writes_sub hostOps6 _ hostOps6_writes h
theorem W23_of (c : Dev nD) (r : Ref sig .tc) (h : r ∉ hostOps7_W) : W23 m c r = W22 m c r :=
  StableHlo.after_of_writes_sub hostOps7 _ hostOps7_writes h
theorem W25_of (c : Dev nD) (r : Ref sig .tc) (h : r ∉ hostOps8_W) : W25 m c r = W24 m c r :=
  StableHlo.after_of_writes_sub hostOps8 _ hostOps8_writes h
theorem W26_of (c : Dev nD) (r : Ref sig .tc) (h : r ∉ hostOps8_1_W) : W26 m c r = W25 m c r :=
  StableHlo.after_of_writes_sub hostOps8_1 _ hostOps8_1_writes h
theorem W27_of (c : Dev nD) (r : Ref sig .tc) (h : r ∉ hostOps8_2_W) : W27 m c r = W26 m c r :=
  StableHlo.after_of_writes_sub hostOps8_2 _ hostOps8_2_writes h
theorem W29_of (c : Dev nD) (r : Ref sig .tc) (h : r ∉ hostOps9_W) : W29 m c r = W28 m c r :=
  StableHlo.after_of_writes_sub hostOps9 _ hostOps9_writes h
theorem W30_of (c : Dev nD) (r : Ref sig .tc) (h : r ∉ hostOps9_1_W) : W30 m c r = W29 m c r :=
  StableHlo.after_of_writes_sub hostOps9_1 _ hostOps9_1_writes h
theorem W31_of (c : Dev nD) (r : Ref sig .tc) (h : r ∉ hostOps9_2_W) : W31 m c r = W30 m c r :=
  StableHlo.after_of_writes_sub hostOps9_2 _ hostOps9_2_writes h
theorem W33_of (c : Dev nD) (r : Ref sig .tc) (h : r ∉ hostOps10_W) : W33 m c r = W32 m c r :=
  StableHlo.after_of_writes_sub hostOps10 _ hostOps10_writes h
theorem W34_of (c : Dev nD) (r : Ref sig .tc) (h : r ∉ hostOps10_1_W) : W34 m c r = W33 m c r :=
  StableHlo.after_of_writes_sub hostOps10_1 _ hostOps10_1_writes h
theorem W35_of (c : Dev nD) (r : Ref sig .tc) (h : r ∉ hostOps10_2_W) : W35 m c r = W34 m c r :=
  StableHlo.after_of_writes_sub hostOps10_2 _ hostOps10_2_writes h
theorem W37_of (c : Dev nD) (r : Ref sig .tc) (h : r ∉ hostOps11_W) : W37 m c r = W36 m c r :=
  StableHlo.after_of_writes_sub hostOps11 _ hostOps11_writes h
theorem W39_of (c : Dev nD) (r : Ref sig .tc) (h : r ∉ hostOps12_W) : W39 m c r = W38 m c r :=
  StableHlo.after_of_writes_sub hostOps12 _ hostOps12_writes h
theorem W41_of (c : Dev nD) (r : Ref sig .tc) (h : r ∉ hostOps13_W) : W41 m c r = W40 m c r :=
  StableHlo.after_of_writes_sub hostOps13 _ hostOps13_writes h
theorem W42_of (c : Dev nD) (r : Ref sig .tc) (h : r ∉ hostOps13_1_W) : W42 m c r = W41 m c r :=
  StableHlo.after_of_writes_sub hostOps13_1 _ hostOps13_1_writes h
theorem W43_of (c : Dev nD) (r : Ref sig .tc) (h : r ∉ hostOps13_2_W) : W43 m c r = W42 m c r :=
  StableHlo.after_of_writes_sub hostOps13_2 _ hostOps13_2_writes h
theorem W45_of (c : Dev nD) (r : Ref sig .tc) (h : r ∉ hostOps14_W) : W45 m c r = W44 m c r :=
  StableHlo.after_of_writes_sub hostOps14 _ hostOps14_writes h
theorem W46_of (c : Dev nD) (r : Ref sig .tc) (h : r ∉ hostOps14_1_W) : W46 m c r = W45 m c r :=
  StableHlo.after_of_writes_sub hostOps14_1 _ hostOps14_1_writes h
theorem W47_of (c : Dev nD) (r : Ref sig .tc) (h : r ∉ hostOps14_2_W) : W47 m c r = W46 m c r :=
  StableHlo.after_of_writes_sub hostOps14_2 _ hostOps14_2_writes h
theorem W49_of (c : Dev nD) (r : Ref sig .tc) (h : r ∉ hostOps15_W) : W49 m c r = W48 m c r :=
  StableHlo.after_of_writes_sub hostOps15 _ hostOps15_writes h
theorem W50_of (c : Dev nD) (r : Ref sig .tc) (h : r ∉ hostOps15_1_W) : W50 m c r = W49 m c r :=
  StableHlo.after_of_writes_sub hostOps15_1 _ hostOps15_1_writes h
theorem W51_of (c : Dev nD) (r : Ref sig .tc) (h : r ∉ hostOps15_2_W) : W51 m c r = W50 m c r :=
  StableHlo.after_of_writes_sub hostOps15_2 _ hostOps15_2_writes h
theorem W53_of (c : Dev nD) (r : Ref sig .tc) (h : r ∉ hostOps16_W) : W53 m c r = W52 m c r :=
  StableHlo.after_of_writes_sub hostOps16 _ hostOps16_writes h
theorem W55_of (c : Dev nD) (r : Ref sig .tc) (h : r ∉ hostOps17_W) : W55 m c r = W54 m c r :=
  StableHlo.after_of_writes_sub hostOps17 _ hostOps17_writes h

/-! ## The arguments are never written -/

/-- The twenty-two argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem W0_arg (c : Dev nD) (r : Ref sig .tc) (hr : r ∈ argRefs) : W0 m c r = m ((c : Thread nD τ).loc r) := rfl
theorem W1_arg (c : Dev nD) (r : Ref sig .tc) (hr : r ∈ argRefs) : W1 m c r = m ((c : Thread nD τ).loc r) :=
  (W1_of m c r (by revert r; decide)).trans (W0_arg m c r hr)
theorem W2_arg (c : Dev nD) (r : Ref sig .tc) (hr : r ∈ argRefs) : W2 m c r = m ((c : Thread nD τ).loc r) :=
  (W2_of m c r (by revert r; decide)).trans (W1_arg m c r hr)
theorem W3_arg (c : Dev nD) (r : Ref sig .tc) (hr : r ∈ argRefs) : W3 m c r = m ((c : Thread nD τ).loc r) :=
  (W3_of m c r (by revert r; decide)).trans (W2_arg m c r hr)
theorem W4_arg (c : Dev nD) (r : Ref sig .tc) (hr : r ∈ argRefs) : W4 m c r = m ((c : Thread nD τ).loc r) :=
  (W4_of m c r (by revert r; decide)).trans (W3_arg m c r hr)
theorem W5_arg (c : Dev nD) (r : Ref sig .tc) (hr : r ∈ argRefs) : W5 m c r = m ((c : Thread nD τ).loc r) :=
  (W5_of m c r (by revert r; decide)).trans (W4_arg m c r hr)
theorem W6_arg (c : Dev nD) (r : Ref sig .tc) (hr : r ∈ argRefs) : W6 m c r = m ((c : Thread nD τ).loc r) :=
  (W6_of m c r (by revert r; decide)).trans (W5_arg m c r hr)
theorem W7_arg (c : Dev nD) (r : Ref sig .tc) (hr : r ∈ argRefs) : W7 m c r = m ((c : Thread nD τ).loc r) :=
  (W7_of m c r (by revert r; decide)).trans (W6_arg m c r hr)
theorem W8_arg (c : Dev nD) (r : Ref sig .tc) (hr : r ∈ argRefs) : W8 m c r = m ((c : Thread nD τ).loc r) :=
  (W8_of m c r (by revert r; decide)).trans (W7_arg m c r hr)
theorem W9_arg (c : Dev nD) (r : Ref sig .tc) (hr : r ∈ argRefs) : W9 m c r = m ((c : Thread nD τ).loc r) :=
  (W9_of m c r (by revert r; decide)).trans (W8_arg m c r hr)
theorem W10_arg (c : Dev nD) (r : Ref sig .tc) (hr : r ∈ argRefs) : W10 m c r = m ((c : Thread nD τ).loc r) :=
  (W10_of m c r (by revert r; decide)).trans (W9_arg m c r hr)
theorem W11_arg (c : Dev nD) (r : Ref sig .tc) (hr : r ∈ argRefs) : W11 m c r = m ((c : Thread nD τ).loc r) :=
  (W11_of m c r (by revert r; decide)).trans (W10_arg m c r hr)
theorem W12_arg (c : Dev nD) (r : Ref sig .tc) (hr : r ∈ argRefs) : W12 m c r = m ((c : Thread nD τ).loc r) :=
  (W12_of m c r (by revert r; decide)).trans (W11_arg m c r hr)
theorem W13_arg (c : Dev nD) (r : Ref sig .tc) (hr : r ∈ argRefs) : W13 m c r = m ((c : Thread nD τ).loc r) :=
  (W13_of m c r (by revert r; decide)).trans (W12_arg m c r hr)
theorem W14_arg (c : Dev nD) (r : Ref sig .tc) (hr : r ∈ argRefs) : W14 m c r = m ((c : Thread nD τ).loc r) :=
  (W14_of m c r (by revert r; decide)).trans (W13_arg m c r hr)
theorem W15_arg (c : Dev nD) (r : Ref sig .tc) (hr : r ∈ argRefs) : W15 m c r = m ((c : Thread nD τ).loc r) :=
  (W15_of m c r (by revert r; decide)).trans (W14_arg m c r hr)
theorem W16_arg (c : Dev nD) (r : Ref sig .tc) (hr : r ∈ argRefs) : W16 m c r = m ((c : Thread nD τ).loc r) :=
  (W16_of m c r (by revert r; decide)).trans (W15_arg m c r hr)
theorem W17_arg (c : Dev nD) (r : Ref sig .tc) (hr : r ∈ argRefs) : W17 m c r = m ((c : Thread nD τ).loc r) :=
  (W17_of m c r (by revert r; decide)).trans (W16_arg m c r hr)
theorem W18_arg (c : Dev nD) (r : Ref sig .tc) (hr : r ∈ argRefs) : W18 m c r = m ((c : Thread nD τ).loc r) :=
  (W18_of m c r (by revert r; decide)).trans (W17_arg m c r hr)
theorem W19_arg (c : Dev nD) (r : Ref sig .tc) (hr : r ∈ argRefs) : W19 m c r = m ((c : Thread nD τ).loc r) :=
  (W19_of m c r (by revert r; decide)).trans (W18_arg m c r hr)
theorem W20_arg (c : Dev nD) (r : Ref sig .tc) (hr : r ∈ argRefs) : W20 m c r = m ((c : Thread nD τ).loc r) :=
  (W20_of m c r (by revert r; decide)).trans (W19_arg m c r hr)
theorem W21_arg (c : Dev nD) (r : Ref sig .tc) (hr : r ∈ argRefs) : W21 m c r = m ((c : Thread nD τ).loc r) :=
  (W21_of m c r (by revert r; decide)).trans (W20_arg m c r hr)
theorem W22_arg (c : Dev nD) (r : Ref sig .tc) (hr : r ∈ argRefs) : W22 m c r = m ((c : Thread nD τ).loc r) :=
  (W22_of m c r (by revert r; decide)).trans (W21_arg m c r hr)
theorem W23_arg (c : Dev nD) (r : Ref sig .tc) (hr : r ∈ argRefs) : W23 m c r = m ((c : Thread nD τ).loc r) :=
  (W23_of m c r (by revert r; decide)).trans (W22_arg m c r hr)
theorem W24_arg (c : Dev nD) (r : Ref sig .tc) (hr : r ∈ argRefs) : W24 m c r = m ((c : Thread nD τ).loc r) :=
  (W24_of m c r (by revert r; decide)).trans (W23_arg m c r hr)
theorem W25_arg (c : Dev nD) (r : Ref sig .tc) (hr : r ∈ argRefs) : W25 m c r = m ((c : Thread nD τ).loc r) :=
  (W25_of m c r (by revert r; decide)).trans (W24_arg m c r hr)
theorem W26_arg (c : Dev nD) (r : Ref sig .tc) (hr : r ∈ argRefs) : W26 m c r = m ((c : Thread nD τ).loc r) :=
  (W26_of m c r (by revert r; decide)).trans (W25_arg m c r hr)
theorem W27_arg (c : Dev nD) (r : Ref sig .tc) (hr : r ∈ argRefs) : W27 m c r = m ((c : Thread nD τ).loc r) :=
  (W27_of m c r (by revert r; decide)).trans (W26_arg m c r hr)
theorem W28_arg (c : Dev nD) (r : Ref sig .tc) (hr : r ∈ argRefs) : W28 m c r = m ((c : Thread nD τ).loc r) :=
  (W28_of m c r (by revert r; decide)).trans (W27_arg m c r hr)
theorem W29_arg (c : Dev nD) (r : Ref sig .tc) (hr : r ∈ argRefs) : W29 m c r = m ((c : Thread nD τ).loc r) :=
  (W29_of m c r (by revert r; decide)).trans (W28_arg m c r hr)
theorem W30_arg (c : Dev nD) (r : Ref sig .tc) (hr : r ∈ argRefs) : W30 m c r = m ((c : Thread nD τ).loc r) :=
  (W30_of m c r (by revert r; decide)).trans (W29_arg m c r hr)
theorem W31_arg (c : Dev nD) (r : Ref sig .tc) (hr : r ∈ argRefs) : W31 m c r = m ((c : Thread nD τ).loc r) :=
  (W31_of m c r (by revert r; decide)).trans (W30_arg m c r hr)
theorem W32_arg (c : Dev nD) (r : Ref sig .tc) (hr : r ∈ argRefs) : W32 m c r = m ((c : Thread nD τ).loc r) :=
  (W32_of m c r (by revert r; decide)).trans (W31_arg m c r hr)
theorem W33_arg (c : Dev nD) (r : Ref sig .tc) (hr : r ∈ argRefs) : W33 m c r = m ((c : Thread nD τ).loc r) :=
  (W33_of m c r (by revert r; decide)).trans (W32_arg m c r hr)
theorem W34_arg (c : Dev nD) (r : Ref sig .tc) (hr : r ∈ argRefs) : W34 m c r = m ((c : Thread nD τ).loc r) :=
  (W34_of m c r (by revert r; decide)).trans (W33_arg m c r hr)
theorem W35_arg (c : Dev nD) (r : Ref sig .tc) (hr : r ∈ argRefs) : W35 m c r = m ((c : Thread nD τ).loc r) :=
  (W35_of m c r (by revert r; decide)).trans (W34_arg m c r hr)
theorem W36_arg (c : Dev nD) (r : Ref sig .tc) (hr : r ∈ argRefs) : W36 m c r = m ((c : Thread nD τ).loc r) :=
  (W36_of m c r (by revert r; decide)).trans (W35_arg m c r hr)
theorem W37_arg (c : Dev nD) (r : Ref sig .tc) (hr : r ∈ argRefs) : W37 m c r = m ((c : Thread nD τ).loc r) :=
  (W37_of m c r (by revert r; decide)).trans (W36_arg m c r hr)
theorem W38_arg (c : Dev nD) (r : Ref sig .tc) (hr : r ∈ argRefs) : W38 m c r = m ((c : Thread nD τ).loc r) :=
  (W38_of m c r (by revert r; decide)).trans (W37_arg m c r hr)
theorem W39_arg (c : Dev nD) (r : Ref sig .tc) (hr : r ∈ argRefs) : W39 m c r = m ((c : Thread nD τ).loc r) :=
  (W39_of m c r (by revert r; decide)).trans (W38_arg m c r hr)
theorem W40_arg (c : Dev nD) (r : Ref sig .tc) (hr : r ∈ argRefs) : W40 m c r = m ((c : Thread nD τ).loc r) :=
  (W40_of m c r (by revert r; decide)).trans (W39_arg m c r hr)
theorem W41_arg (c : Dev nD) (r : Ref sig .tc) (hr : r ∈ argRefs) : W41 m c r = m ((c : Thread nD τ).loc r) :=
  (W41_of m c r (by revert r; decide)).trans (W40_arg m c r hr)
theorem W42_arg (c : Dev nD) (r : Ref sig .tc) (hr : r ∈ argRefs) : W42 m c r = m ((c : Thread nD τ).loc r) :=
  (W42_of m c r (by revert r; decide)).trans (W41_arg m c r hr)
theorem W43_arg (c : Dev nD) (r : Ref sig .tc) (hr : r ∈ argRefs) : W43 m c r = m ((c : Thread nD τ).loc r) :=
  (W43_of m c r (by revert r; decide)).trans (W42_arg m c r hr)
theorem W44_arg (c : Dev nD) (r : Ref sig .tc) (hr : r ∈ argRefs) : W44 m c r = m ((c : Thread nD τ).loc r) :=
  (W44_of m c r (by revert r; decide)).trans (W43_arg m c r hr)
theorem W45_arg (c : Dev nD) (r : Ref sig .tc) (hr : r ∈ argRefs) : W45 m c r = m ((c : Thread nD τ).loc r) :=
  (W45_of m c r (by revert r; decide)).trans (W44_arg m c r hr)
theorem W46_arg (c : Dev nD) (r : Ref sig .tc) (hr : r ∈ argRefs) : W46 m c r = m ((c : Thread nD τ).loc r) :=
  (W46_of m c r (by revert r; decide)).trans (W45_arg m c r hr)
theorem W47_arg (c : Dev nD) (r : Ref sig .tc) (hr : r ∈ argRefs) : W47 m c r = m ((c : Thread nD τ).loc r) :=
  (W47_of m c r (by revert r; decide)).trans (W46_arg m c r hr)
theorem W48_arg (c : Dev nD) (r : Ref sig .tc) (hr : r ∈ argRefs) : W48 m c r = m ((c : Thread nD τ).loc r) :=
  (W48_of m c r (by revert r; decide)).trans (W47_arg m c r hr)
theorem W49_arg (c : Dev nD) (r : Ref sig .tc) (hr : r ∈ argRefs) : W49 m c r = m ((c : Thread nD τ).loc r) :=
  (W49_of m c r (by revert r; decide)).trans (W48_arg m c r hr)
theorem W50_arg (c : Dev nD) (r : Ref sig .tc) (hr : r ∈ argRefs) : W50 m c r = m ((c : Thread nD τ).loc r) :=
  (W50_of m c r (by revert r; decide)).trans (W49_arg m c r hr)
theorem W51_arg (c : Dev nD) (r : Ref sig .tc) (hr : r ∈ argRefs) : W51 m c r = m ((c : Thread nD τ).loc r) :=
  (W51_of m c r (by revert r; decide)).trans (W50_arg m c r hr)
theorem W52_arg (c : Dev nD) (r : Ref sig .tc) (hr : r ∈ argRefs) : W52 m c r = m ((c : Thread nD τ).loc r) :=
  (W52_of m c r (by revert r; decide)).trans (W51_arg m c r hr)
theorem W53_arg (c : Dev nD) (r : Ref sig .tc) (hr : r ∈ argRefs) : W53 m c r = m ((c : Thread nD τ).loc r) :=
  (W53_of m c r (by revert r; decide)).trans (W52_arg m c r hr)
theorem W54_arg (c : Dev nD) (r : Ref sig .tc) (hr : r ∈ argRefs) : W54 m c r = m ((c : Thread nD τ).loc r) :=
  (W54_of m c r (by revert r; decide)).trans (W53_arg m c r hr)
theorem W55_arg (c : Dev nD) (r : Ref sig .tc) (hr : r ∈ argRefs) : W55 m c r = m ((c : Thread nD τ).loc r) :=
  (W55_of m c r (by revert r; decide)).trans (W54_arg m c r hr)

end Cert.Kernel.Run

end
-- ==== Proof.K.RunBase.lean ====
/-
  The thread state between two items of the network, and a kernel region as a segment of the run.
  Between two items a core holds every unscoped buffer whole at a valuation, its generator register at some
  state, and owes nothing. A region is entered from that state at the valuation before it and left at the one
  after it: the buffers behind its windows' arrays are taken out of the unscoped buffers (two windows may read
  one array, each at its share of it), the pipeline runs, and the arrays are put back at what the pipeline left,
  every other unscoped buffer untouched.
-/
import proofs.«143011_g2000502688546152_pallasbulk_1201_3_alg».proof.Proof.K.GenRegions
import Idealize.ShloMosaic.Lib.Pipeline.FrameBody
import Idealize.ShloMosaic.Lib.Pipeline.Kit

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-- No conditional of a body is decided ahead of time. -/
abbrev 𝒱₀ : Variants := Variants.none
/-- No core owes another anything: no level is assigned. -/
abbrev L : GSem nD τ sig → Finset Unit := fun _ => ∅
abbrev lv : GSem nD τ sig → Unit → ℕ := fun _ _ => 0

/-- A separating product over two distinct indices, and over four, written out. -/
theorem bigSep_two {I : Type} [DecidableEq I] {a b : I} (hab : a ∉ ({b} : Finset I)) (Φ : I → sProp 𝕄) :
    bigSep ({a, b} : Finset I) Φ = iprop(Φ a ∗ Φ b) := by
  rw [bigSep_insert hab, bigSep_singleton]; rfl
theorem bigSep_four {I : Type} [DecidableEq I] {a b c d : I} (ha : a ∉ ({b, c, d} : Finset I)) (hb : b ∉ ({c, d} : Finset I))
    (hc : c ∉ ({d} : Finset I)) (Φ : I → sProp 𝕄) :
    bigSep ({a, b, c, d} : Finset I) Φ = iprop(Φ a ∗ Φ b ∗ Φ c ∗ Φ d) := by
  rw [bigSep_insert ha, bigSep_insert hb, bigSep_insert hc, bigSep_singleton]; rfl

/-- A pipeline's arrays, every one a whole buffer, as the buffers behind them each at its window's share. -/
theorem arrays_eq_shares {cfg : Pipeline.Cfg sig Λ₀} {c : Dev nD} (dat : Dat τ (Elt F) Unit ℕ (UR sig nD τ) ℕ cfg c)
    (harr : ∀ w, (cfg.spec w).arr.IsWhole)
    (G : (w : Fin cfg.W) → Buf (Elt F) ((cfg.spec w).arr.view.loc (c.tc : Thread nD τ))) :
    dat.arrays G = bigSep Finset.univ fun w =>
      (((c.tc : Thread nD τ).loc (Pipeline.arrRef cfg.spec w)) ↦{dat.share w} G w : sProp 𝕄) := by
  unfold Pipeline.Dat.arrays
  exact bigSep_congr fun w _ => by rw [(harr w).set_eq_univ]

/-- What rides beside the buffers through every item: the core's generator register at some state, and the core
    owing nothing. -/
abbrev Rest (c : Dev nD) : sProp 𝕄 :=
  iprop((∃ r, prngReg c r) ∗ ∃ W, owes (c : Thread nD τ) (0 : CellTallies nD τ sig Unit) W)

/-- The state between two items: every unscoped buffer whole at `V`, and the rest. -/
abbrev Between (V : Valuation τ sig (Elt F)) (c : Dev nD) : sProp 𝕄 :=
  iprop(StableHlo.held (c : Thread nD τ) (Pipeline.ucRefs τ sig) V ∗ Rest c)

-- the library's lemmas are stated over the pinned configuration, which unifies with `cfgs p` only when unification
-- may unfold plain definitions in a metavariable's type
set_option backward.isDefEq.respectTransparency.types false in
/-- REGION `p` AS A SEGMENT, entered at the valuation `V` and left at `V'`. Given: the windows' layout; the body
    obligation; nothing owed, no bound on the recorded waits; the invariant at the first and the last point the scoped rest beside the generator
    register; the buffers behind the arrays at `V` make the pipeline's arrays at entry (`hsplit`) and the arrays after
    the last point make those buffers at `V'` (`hjoin`); `V'` is `V` off the arrays (`hrest`). -/
def region (p : Fin 17)
    (pdats : (p : Fin 17) → (c : Dev nD) → Dat τ (Elt F) Unit ℕ (UR sig nD τ) ℕ (cfgs p) c)
    (hw : Pipeline.WinFacts₀ (pcfgs (F := F) p).spec)
    (hpos : ∀ w : Fin (cfgs p).W, 0 < ((cfgs p).spec w).block.numel)
    (hstage : ∀ (w : Fin (cfgs p).W) (s : Fin ((cfgs p).spec w).nbuf), (((cfgs p).spec w).stage s).IsWhole)
    (hbody : ∀ c, BodyObligation (pdats p c) (defs₀ (F := F)) Variants.none () Set.univ)
    (howed : ∀ c t, (pdats p c).owed t = 0)
    (hrec : ∀ c t, (pdats p c).recorded t = Set.univ)
    (hΦ0 : ∀ c, (pdats p c).Φ 0 = Pipeline.ΦA (cfgs p).spec c)
    (hΦN : ∀ c, (pdats p c).Φ (Fin.last (cfgs p).N) = Pipeline.ΦA (cfgs p).spec c)
    (V V' : Dev nD → Valuation τ sig (Elt F))
    (hsplit : ∀ c, (Pipeline.arrBufs (cfgs p).spec c (fun b => V c b) : sProp 𝕄) ⊢ (pdats p c).arrays ((pdats p c).arrAt · 0))
    (hjoin : ∀ c, (pdats p c).arrays ((pdats p c).arrAt · (cfgs p).N) ⊢ (Pipeline.arrBufs (cfgs p).spec c (fun b => V' c b) : sProp 𝕄))
    (hrest : ∀ c (b : Ref sig .tc), b ∉ Finset.univ.image (Pipeline.arrRef (cfgs p).spec) → V' c b = V c b) :
    RegionSeg (pcfgs (F := F)) adm pdats () defs₀ 𝒱₀ L lv p where
  win := hw
  block_pos := hpos
  stage_whole := hstage
  K := PEmpty
  osem k := k.elim
  ho := Pipeline.OwnSemFacts.none _
  hbody c := (hbody c).loose
  hwaits := Pipeline.hwaits_of_owed_zero _ _ _ _ L lv p howed
  pre c := Between (V c) c
  post c := Between (V' c) c
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hub : (unscopedBufs c (fun b => V c b) : sProp 𝕄)
        = iprop(Pipeline.arrBufs (cfgs p).spec c (fun b => V c b) ∗ Pipeline.unscopedRest (cfgs p).spec c (fun b => V c b)) :=
      Pipeline.unscopedBufs_split₀ cfgs p hw.arr_unscoped c (fun b => V c b)
    rw [Pipeline.unscopedBufs_held] at hub
    iintro ⟨⟨Hub, Hp, HO⟩, -, -⟩
    ihave H := (Entails.of_eq hub) $$ Hub
    icases H with ⟨Ha, Hrest⟩
    imodintro
    isplitl [Ha]; · iapply (hsplit c); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hub : (unscopedBufs c (fun b => V' c b) : sProp 𝕄)
        = iprop(Pipeline.arrBufs (cfgs p).spec c (fun b => V' c b) ∗ Pipeline.unscopedRest (cfgs p).spec c (fun b => V' c b)) :=
      Pipeline.unscopedBufs_split₀ cfgs p hw.arr_unscoped c (fun b => V' c b)
    rw [Pipeline.unscopedBufs_held] at hub
    have hr : (Pipeline.unscopedRest (cfgs p).spec c (fun b => V c b) : sProp 𝕄) = Pipeline.unscopedRest (cfgs p).spec c (fun b => V' c b) := by
      unfold Pipeline.unscopedRest
      exact bigSep_congr fun b hb => by simp only [hrest c b (Finset.mem_sdiff.mp hb).2]
    iintro ⟨Ha, HO, HY, Hrest⟩
    imodintro
    isplitl [Ha Hrest]
    · iapply (Entails.of_eq hub.symm)
      isplitl [Ha]; · iapply (hjoin c); iexact Ha
      rw [← hr]; iexact Hrest
    isplitl [HY]; · iexact HY
    unfold Pipeline.Dat.owesAt Pipeline.owesWithin
    rw [howed c (Fin.last _)]
    icases HO with ⟨%W, -, HO⟩; iexists W; iexact HO

end Cert.Kernel.Run

end
-- ==== Proof.K.RunArr0.lean ====
/-
  Region 0 (the first convolution): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg0
import proofs.«143011_g2000502688546152_pallasbulk_1201_3_alg».proof.Proof.K.RunBase

set_option maxRecDepth 1536

noncomputable section

namespace Cert.Kernel.Reg0

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec0) = ({main_v9, main_v10, main_arg3, main_v11} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v9 := ((dat V c).arrAt_in 0 rfl n).trans (A_eq V c 0)
theorem arrAt_1 (c : Dev nD) (n : ℕ) : (dat V c).arrAt 1 n = V c main_v9 := ((dat V c).arrAt_in 1 rfl n).trans (A_eq V c 1)
theorem arrAt_2 (c : Dev nD) (n : ℕ) : (dat V c).arrAt 2 n = V c main_v10 := ((dat V c).arrAt_in 2 rfl n).trans (A_eq V c 2)
theorem arrAt_3 (c : Dev nD) (n : ℕ) : (dat V c).arrAt 3 n = V c main_arg3 := ((dat V c).arrAt_in 3 rfl n).trans (A_eq V c 3)
/-- At entry the output's array holds what the region found. -/
theorem arrAt_4_zero (c : Dev nD) : (dat V c).arrAt 4 0 = V c main_v11 := A_eq V c 4

set_option maxHeartbeats 1000000 in
/-- ENTRY: the four buffers at what the region finds make the pipeline's arrays at their entry contents. -/
theorem hsplit (c : Dev nD) :
    (Pipeline.arrBufs spec0 c (V c) : sProp 𝕄) ⊢ (dat V c).arrays ((dat V c).arrAt · 0) := by
  rw [Run.arrays_eq_shares (dat V c) arr_whole0, bigSep_W0]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v9 = V c main_v9) (hw : V' main_v10 = V c main_v10) (hb : V' main_arg3 = V c main_arg3)
    (ho : V' main_v11 = (dat V c).arrAt (4 : Fin 5) cfg0.N) :
    (dat V c).arrays ((dat V c).arrAt · cfg0.N) ⊢ (Pipeline.arrBufs spec0 c V' : sProp 𝕄) := by
  rw [Run.arrays_eq_shares (dat V c) arr_whole0, bigSep_W0]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg0

end
-- ==== Proof.K.RunArr1.lean ====
/-
  Region 1 (the second convolution, 64 to 64 channels at 224 × 224): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg1
import proofs.«143011_g2000502688546152_pallasbulk_1201_3_alg».proof.Proof.K.RunBase

set_option maxRecDepth 1536

noncomputable section

namespace Cert.Kernel.Reg1

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec1) = ({main_v12, main_v13, main_arg5, main_v14} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v12 := ((dat V c).arrAt_in 0 rfl n).trans (A_eq V c 0)
theorem arrAt_1 (c : Dev nD) (n : ℕ) : (dat V c).arrAt 1 n = V c main_v12 := ((dat V c).arrAt_in 1 rfl n).trans (A_eq V c 1)
theorem arrAt_2 (c : Dev nD) (n : ℕ) : (dat V c).arrAt 2 n = V c main_v13 := ((dat V c).arrAt_in 2 rfl n).trans (A_eq V c 2)
theorem arrAt_3 (c : Dev nD) (n : ℕ) : (dat V c).arrAt 3 n = V c main_arg5 := ((dat V c).arrAt_in 3 rfl n).trans (A_eq V c 3)
/-- At entry the output's array holds what the region found. -/
theorem arrAt_4_zero (c : Dev nD) : (dat V c).arrAt 4 0 = V c main_v14 := A_eq V c 4

set_option maxHeartbeats 1000000 in
/-- ENTRY: the four buffers at what the region finds make the pipeline's arrays at their entry contents. -/
theorem hsplit (c : Dev nD) :
    (Pipeline.arrBufs spec1 c (V c) : sProp 𝕄) ⊢ (dat V c).arrays ((dat V c).arrAt · 0) := by
  rw [Run.arrays_eq_shares (dat V c) arr_whole1, bigSep_W1]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v12 = V c main_v12) (hw : V' main_v13 = V c main_v13) (hb : V' main_arg5 = V c main_arg5)
    (ho : V' main_v14 = (dat V c).arrAt (4 : Fin 5) cfg1.N) :
    (dat V c).arrays ((dat V c).arrAt · cfg1.N) ⊢ (Pipeline.arrBufs spec1 c V' : sProp 𝕄) := by
  rw [Run.arrays_eq_shares (dat V c) arr_whole1, bigSep_W1]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg1

end
-- ==== Proof.K.RunArr2.lean ====
/-
  Region 2 (the sums of absolute differences at the first feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.K.Reg2
import proofs.«143011_g2000502688546152_pallasbulk_1201_3_alg».proof.Proof.K.RunBase

set_option maxRecDepth 1536

noncomputable section

namespace Cert.Kernel.Reg2

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec2) = ({main_v15, main_v16} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v15 := ((dat V c).arrAt_in 0 rfl n).trans (A_eq V c 0)
theorem arrAt_1 (c : Dev nD) (n : ℕ) : (dat V c).arrAt 1 n = V c main_v15 := ((dat V c).arrAt_in 1 rfl n).trans (A_eq V c 1)
/-- At entry the sums' array holds what the region found. -/
theorem arrAt_2_zero (c : Dev nD) : (dat V c).arrAt 2 0 = V c main_v16 := A_eq V c 2

set_option maxHeartbeats 1000000 in
/-- ENTRY: the two buffers at what the region finds make the pipeline's arrays at their entry contents. -/
theorem hsplit (c : Dev nD) :
    (Pipeline.arrBufs spec2 c (V c) : sProp 𝕄) ⊢ (dat V c).arrays ((dat V c).arrAt · 0) := by
  rw [Run.arrays_eq_shares (dat V c) arr_whole2, bigSep_W2]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v15 = V c main_v15) (ho : V' main_v16 = (dat V c).arrAt (2 : Fin 3) cfg2.N) :
    (dat V c).arrays ((dat V c).arrAt · cfg2.N) ⊢ (Pipeline.arrBufs spec2 c V' : sProp 𝕄) := by
  rw [Run.arrays_eq_shares (dat V c) arr_whole2, bigSep_W2]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.Kernel.Reg2

end
-- ==== Proof.K.RunArr3.lean ====
/-
  Region 3 (the first 2×2 max pooling): its arrays in and out of the core's unscoped buffers. Two windows on two
  buffers, each held whole: the features read, and the pooled features written. After the last point the features
  are as they were found (an input array is never written) and the pooled buffer holds what the write-backs left.
-/
import proofs.«143011_g2000502688546152_pallasbulk_1201_3_alg».proof.Proof.K.Reg3
import proofs.«143011_g2000502688546152_pallasbulk_1201_3_alg».proof.Proof.K.RunBase

set_option maxRecDepth 1536

noncomputable section

namespace Cert.Kernel.Reg3

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the two windows. -/
theorem arrRefs : Finset.univ.image (Pipeline.arrRef spec3) = ({main_v22, main_v23} : Finset (Ref sig .tc)) := by
  decide

/-- Both arrays are held whole. -/
theorem share_0 (c : Dev nD) : (dat V c).share 0 = fullShare := rfl
theorem share_1 (c : Dev nD) : (dat V c).share 1 = fullShare := rfl

/-- The input's array is never written: after any number of points it holds what the region found. -/
theorem arrAt_0 (c : Dev nD) (n : ℕ) : (dat V c).arrAt 0 n = V c main_v22 := ((dat V c).arrAt_in 0 rfl n).trans (A_eq V c 0)
/-- At entry the pooled array holds what the region found. -/
theorem arrAt_1_zero (c : Dev nD) : (dat V c).arrAt 1 0 = V c main_v23 := A_eq V c 1

set_option maxHeartbeats 1000000 in
/-- ENTRY: the two buffers at what the region finds make the pipeline's arrays at their entry contents. -/
theorem hsplit (c : Dev nD) :
    (Pipeline.arrBufs spec3 c (V c) : sProp 𝕄) ⊢ (dat V c).arrays ((dat V c).arrAt · 0) := by
  rw [Run.arrays_eq_shares (dat V c) arr_whole3, bigSep_W3]
  unfold Pipeline.arrBufs
  rw [arrRefs, Run.bigSep_two (by decide)]
  simp only [share_0, share_1, arrAt_0, arrAt_1_zero]
  iintro ⟨Hx, Ho⟩
  isplitl [Hx]; · iexact Hx
  iexact Ho

set_option maxHeartbeats 1000000 in
/-- EXIT: the pipeline's arrays after the last point make the two buffers at any contents `V'` that has the features
    as the region found them and the pooled buffer at what the write-backs left. -/
theorem hjoin (c : Dev nD) (V' : (b : Ref sig .tc) → Buf (Elt F) ((c : Thread nD τ).loc b))
    (hx : V' main_v22 = V c main_v22) (ho : V' main_v23 = (dat V c).arrAt (1 : Fin 2) cfg3.N) :
    (dat V c).arrays ((dat V c).arrAt · cfg3.N) ⊢ (Pipeline.arrBufs spec3 c V' : sProp 𝕄) := by
  rw [Run.arrays_eq_shares (dat V c) arr_whole3, bigSep_W3]
  unfold Pipeline.arrBufs
  rw [arrRefs, Run.bigSep_two (by decide)]
  simp only [share_0, share_1, arrAt_0, hx, ho]
  iintro ⟨Hx, Ho⟩
  isplitl [Hx]; · iexact Hx
  iexact Ho

end Cert.Kernel.Reg3

end
-- ==== Proof.K.RunArr4.lean ====
/-
  Region 4 (the third convolution, 64 to 128 channels at 112 × 112): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg4
import proofs.«143011_g2000502688546152_pallasbulk_1201_3_alg».proof.Proof.K.RunBase

set_option maxRecDepth 1536

noncomputable section

namespace Cert.Kernel.Reg4

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec4) = ({main_v24, main_v25, main_arg7, main_v26} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v24 := ((dat V c).arrAt_in 0 rfl n).trans (A_eq V c 0)
theorem arrAt_1 (c : Dev nD) (n : ℕ) : (dat V c).arrAt 1 n = V c main_v24 := ((dat V c).arrAt_in 1 rfl n).trans (A_eq V c 1)
theorem arrAt_2 (c : Dev nD) (n : ℕ) : (dat V c).arrAt 2 n = V c main_v25 := ((dat V c).arrAt_in 2 rfl n).trans (A_eq V c 2)
theorem arrAt_3 (c : Dev nD) (n : ℕ) : (dat V c).arrAt 3 n = V c main_arg7 := ((dat V c).arrAt_in 3 rfl n).trans (A_eq V c 3)
/-- At entry the output's array holds what the region found. -/
theorem arrAt_4_zero (c : Dev nD) : (dat V c).arrAt 4 0 = V c main_v26 := A_eq V c 4

set_option maxHeartbeats 1000000 in
/-- ENTRY: the four buffers at what the region finds make the pipeline's arrays at their entry contents. -/
theorem hsplit (c : Dev nD) :
    (Pipeline.arrBufs spec4 c (V c) : sProp 𝕄) ⊢ (dat V c).arrays ((dat V c).arrAt · 0) := by
  rw [Run.arrays_eq_shares (dat V c) arr_whole4, bigSep_W4]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v24 = V c main_v24) (hw : V' main_v25 = V c main_v25) (hb : V' main_arg7 = V c main_arg7)
    (ho : V' main_v26 = (dat V c).arrAt (4 : Fin 5) cfg4.N) :
    (dat V c).arrays ((dat V c).arrAt · cfg4.N) ⊢ (Pipeline.arrBufs spec4 c V' : sProp 𝕄) := by
  rw [Run.arrays_eq_shares (dat V c) arr_whole4, bigSep_W4]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg4

end
-- ==== Proof.K.RunArr5.lean ====
/-
  Region 5 (the fourth convolution, 128 to 128 channels at 112 × 112): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg5
import proofs.«143011_g2000502688546152_pallasbulk_1201_3_alg».proof.Proof.K.RunBase

set_option maxRecDepth 1536

noncomputable section

namespace Cert.Kernel.Reg5

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec5) = ({main_v27, main_v30, main_arg9, main_v31} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v27 := ((dat V c).arrAt_in 0 rfl n).trans (A_eq V c 0)
theorem arrAt_1 (c : Dev nD) (n : ℕ) : (dat V c).arrAt 1 n = V c main_v27 := ((dat V c).arrAt_in 1 rfl n).trans (A_eq V c 1)
theorem arrAt_2 (c : Dev nD) (n : ℕ) : (dat V c).arrAt 2 n = V c main_v30 := ((dat V c).arrAt_in 2 rfl n).trans (A_eq V c 2)
theorem arrAt_3 (c : Dev nD) (n : ℕ) : (dat V c).arrAt 3 n = V c main_arg9 := ((dat V c).arrAt_in 3 rfl n).trans (A_eq V c 3)
/-- At entry the output's array holds what the region found. -/
theorem arrAt_4_zero (c : Dev nD) : (dat V c).arrAt 4 0 = V c main_v31 := A_eq V c 4

set_option maxHeartbeats 1000000 in
/-- ENTRY: the four buffers at what the region finds make the pipeline's arrays at their entry contents. -/
theorem hsplit (c : Dev nD) :
    (Pipeline.arrBufs spec5 c (V c) : sProp 𝕄) ⊢ (dat V c).arrays ((dat V c).arrAt · 0) := by
  rw [Run.arrays_eq_shares (dat V c) arr_whole5, bigSep_W5]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v27 = V c main_v27) (hw : V' main_v30 = V c main_v30) (hb : V' main_arg9 = V c main_arg9)
    (ho : V' main_v31 = (dat V c).arrAt (4 : Fin 5) cfg5.N) :
    (dat V c).arrays ((dat V c).arrAt · cfg5.N) ⊢ (Pipeline.arrBufs spec5 c V' : sProp 𝕄) := by
  rw [Run.arrays_eq_shares (dat V c) arr_whole5, bigSep_W5]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg5

end
-- ==== Proof.K.RunSegsA.lean ====
/-
  Regions 0 to 5 of the network as segments of its run: each entered at the contents before it and left at those
  contents with its output array at what the pipeline's write-backs leave, the rest riding along unchanged.
-/
import proofs.«143011_g2000502688546152_pallasbulk_1201_3_alg».proof.Proof.K.RunChainAt
import proofs.«143011_g2000502688546152_pallasbulk_1201_3_alg».proof.Proof.K.RunBase
import proofs.«143011_g2000502688546152_pallasbulk_1201_3_alg».proof.Proof.K.RunArr0
import proofs.«143011_g2000502688546152_pallasbulk_1201_3_alg».proof.Proof.K.RunArr1
import proofs.«143011_g2000502688546152_pallasbulk_1201_3_alg».proof.Proof.K.RunArr2
import proofs.«143011_g2000502688546152_pallasbulk_1201_3_alg».proof.Proof.K.RunArr3
import proofs.«143011_g2000502688546152_pallasbulk_1201_3_alg».proof.Proof.K.RunArr4
import proofs.«143011_g2000502688546152_pallasbulk_1201_3_alg».proof.Proof.K.RunArr5

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Region 0 (the first convolution), entered at the contents before it and left at those with its output array
    at what the write-backs leave. -/
def reg0 : RegionSeg (pcfgs (F := F)) adm (pdats m) () defs₀ 𝒱₀ L lv 0 :=
  region 0 (pdats m) winFacts₀0 block_pos0 stage_whole0
    (fun c => Reg0.body_obligation (U3 m) c) (fun _ _ => rfl) (fun _ _ => rfl) (fun _ => rfl) (fun _ => rfl)
    (W3 m) (W4 m)
    (fun c => Reg0.hsplit (U3 m) c)
    (fun c => Reg0.hjoin (U3 m) c (fun r => W4 m c r)
      (W4_of m c main_v9 (by decide)) (W4_of m c main_v10 (by decide)) (W4_of m c main_arg3 (by decide)) (W4_self m c))
    (fun c r hr => W4_of m c r (by rintro rfl; exact hr (by decide)))

/-- Region 1 (the second convolution, 64 to 64 channels at 224 × 224), entered at the contents before it and left at those with its output array
    at what the write-backs leave. -/
def reg1 : RegionSeg (pcfgs (F := F)) adm (pdats m) () defs₀ 𝒱₀ L lv 1 :=
  region 1 (pdats m) winFacts₀1 block_pos1 stage_whole1
    (fun c => Reg1.body_obligation (U7 m) c) (fun _ _ => rfl) (fun _ _ => rfl) (fun _ => rfl) (fun _ => rfl)
    (W7 m) (W8 m)
    (fun c => Reg1.hsplit (U7 m) c)
    (fun c => Reg1.hjoin (U7 m) c (fun r => W8 m c r)
      (W8_of m c main_v12 (by decide)) (W8_of m c main_v13 (by decide)) (W8_of m c main_arg5 (by decide)) (W8_self m c))
    (fun c r hr => W8_of m c r (by rintro rfl; exact hr (by decide)))

/-- Region 2 (the sums of absolute differences at the first feature level), entered at the contents before it and left at those with its output array
    at what the write-backs leave. -/
def reg2 : RegionSeg (pcfgs (F := F)) adm (pdats m) () defs₀ 𝒱₀ L lv 2 :=
  region 2 (pdats m) winFacts₀2 block_pos2 stage_whole2
    (fun c => Reg2.body_obligation (U9 m) c) (fun _ _ => rfl) (fun _ _ => rfl) (fun _ => rfl) (fun _ => rfl)
    (W9 m) (W10 m)
    (fun c => Reg2.hsplit (U9 m) c)
    (fun c => Reg2.hjoin (U9 m) c (fun r => W10 m c r)
      (W10_of m c main_v15 (by decide)) (W10_self m c))
    (fun c r hr => W10_of m c r (by rintro rfl; exact hr (by decide)))

/-- Region 3 (the first 2×2 max pooling), entered at the contents before it and left at those with its output array
    at what the write-backs leave. -/
def reg3 : RegionSeg (pcfgs (F := F)) adm (pdats m) () defs₀ 𝒱₀ L lv 3 :=
  region 3 (pdats m) winFacts3.to₀ block_pos3 stage_whole3
    (fun c => Reg3.body_obligation (U11 m) c) (fun _ _ => rfl) (fun _ _ => rfl) (fun _ => rfl) (fun _ => rfl)
    (W11 m) (W12 m)
    (fun c => Reg3.hsplit (U11 m) c)
    (fun c => Reg3.hjoin (U11 m) c (fun r => W12 m c r)
      (W12_of m c main_v22 (by decide)) (W12_self m c))
    (fun c r hr => W12_of m c r (by rintro rfl; exact hr (by decide)))

/-- Region 4 (the third convolution, 64 to 128 channels at 112 × 112), entered at the contents before it and left at those with its output array
    at what the write-backs leave. -/
def reg4 : RegionSeg (pcfgs (F := F)) adm (pdats m) () defs₀ 𝒱₀ L lv 4 :=
  region 4 (pdats m) winFacts₀4 block_pos4 stage_whole4
    (fun c => Reg4.body_obligation (U15 m) c) (fun _ _ => rfl) (fun _ _ => rfl) (fun _ => rfl) (fun _ => rfl)
    (W15 m) (W16 m)
    (fun c => Reg4.hsplit (U15 m) c)
    (fun c => Reg4.hjoin (U15 m) c (fun r => W16 m c r)
      (W16_of m c main_v24 (by decide)) (W16_of m c main_v25 (by decide)) (W16_of m c main_arg7 (by decide)) (W16_self m c))
    (fun c r hr => W16_of m c r (by rintro rfl; exact hr (by decide)))

/-- Region 5 (the fourth convolution, 128 to 128 channels at 112 × 112), entered at the contents before it and left at those with its output array
    at what the write-backs leave. -/
def reg5 : RegionSeg (pcfgs (F := F)) adm (pdats m) () defs₀ 𝒱₀ L lv 5 :=
  region 5 (pdats m) winFacts₀5 block_pos5 stage_whole5
    (fun c => Reg5.body_obligation (U19 m) c) (fun _ _ => rfl) (fun _ _ => rfl) (fun _ => rfl) (fun _ => rfl)
    (W19 m) (W20 m)
    (fun c => Reg5.hsplit (U19 m) c)
    (fun c => Reg5.hjoin (U19 m) c (fun r => W20 m c r)
      (W20_of m c main_v27 (by decide)) (W20_of m c main_v30 (by decide)) (W20_of m c main_arg9 (by decide)) (W20_self m c))
    (fun c r hr => W20_of m c r (by rintro rfl; exact hr (by decide)))

end Cert.Kernel.Run

end
-- ==== Proof.K.RunArr6.lean ====
/-
  Region 6 (the sums of absolute differences at the second feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.K.Reg6
import proofs.«143011_g2000502688546152_pallasbulk_1201_3_alg».proof.Proof.K.RunBase

set_option maxRecDepth 1536

noncomputable section

namespace Cert.Kernel.Reg6

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec6) = ({main_v32, main_v33} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v32 := ((dat V c).arrAt_in 0 rfl n).trans (A_eq V c 0)
theorem arrAt_1 (c : Dev nD) (n : ℕ) : (dat V c).arrAt 1 n = V c main_v32 := ((dat V c).arrAt_in 1 rfl n).trans (A_eq V c 1)
/-- At entry the sums' array holds what the region found. -/
theorem arrAt_2_zero (c : Dev nD) : (dat V c).arrAt 2 0 = V c main_v33 := A_eq V c 2

set_option maxHeartbeats 1000000 in
/-- ENTRY: the two buffers at what the region finds make the pipeline's arrays at their entry contents. -/
theorem hsplit (c : Dev nD) :
    (Pipeline.arrBufs spec6 c (V c) : sProp 𝕄) ⊢ (dat V c).arrays ((dat V c).arrAt · 0) := by
  rw [Run.arrays_eq_shares (dat V c) arr_whole6, bigSep_W6]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v32 = V c main_v32) (ho : V' main_v33 = (dat V c).arrAt (2 : Fin 3) cfg6.N) :
    (dat V c).arrays ((dat V c).arrAt · cfg6.N) ⊢ (Pipeline.arrBufs spec6 c V' : sProp 𝕄) := by
  rw [Run.arrays_eq_shares (dat V c) arr_whole6, bigSep_W6]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.Kernel.Reg6

end
-- ==== Proof.K.RunArr7.lean ====
/-
  Region 7 (the second 2×2 max pooling): its arrays in and out of the core's unscoped buffers. Two windows on two
  buffers, each held whole: the features read, and the pooled features written. After the last point the features
  are as they were found (an input array is never written) and the pooled buffer holds what the write-backs left.
-/
import proofs.«143011_g2000502688546152_pallasbulk_1201_3_alg».proof.Proof.K.Reg7
import proofs.«143011_g2000502688546152_pallasbulk_1201_3_alg».proof.Proof.K.RunBase

set_option maxRecDepth 1536

noncomputable section

namespace Cert.Kernel.Reg7

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the two windows. -/
theorem arrRefs : Finset.univ.image (Pipeline.arrRef spec7) = ({main_v39, main_v40} : Finset (Ref sig .tc)) := by
  decide

/-- Both arrays are held whole. -/
theorem share_0 (c : Dev nD) : (dat V c).share 0 = fullShare := rfl
theorem share_1 (c : Dev nD) : (dat V c).share 1 = fullShare := rfl

/-- The input's array is never written: after any number of points it holds what the region found. -/
theorem arrAt_0 (c : Dev nD) (n : ℕ) : (dat V c).arrAt 0 n = V c main_v39 := ((dat V c).arrAt_in 0 rfl n).trans (A_eq V c 0)
/-- At entry the pooled array holds what the region found. -/
theorem arrAt_1_zero (c : Dev nD) : (dat V c).arrAt 1 0 = V c main_v40 := A_eq V c 1

set_option maxHeartbeats 1000000 in
/-- ENTRY: the two buffers at what the region finds make the pipeline's arrays at their entry contents. -/
theorem hsplit (c : Dev nD) :
    (Pipeline.arrBufs spec7 c (V c) : sProp 𝕄) ⊢ (dat V c).arrays ((dat V c).arrAt · 0) := by
  rw [Run.arrays_eq_shares (dat V c) arr_whole7, bigSep_W7]
  unfold Pipeline.arrBufs
  rw [arrRefs, Run.bigSep_two (by decide)]
  simp only [share_0, share_1, arrAt_0, arrAt_1_zero]
  iintro ⟨Hx, Ho⟩
  isplitl [Hx]; · iexact Hx
  iexact Ho

set_option maxHeartbeats 1000000 in
/-- EXIT: the pipeline's arrays after the last point make the two buffers at any contents `V'` that has the features
    as the region found them and the pooled buffer at what the write-backs left. -/
theorem hjoin (c : Dev nD) (V' : (b : Ref sig .tc) → Buf (Elt F) ((c : Thread nD τ).loc b))
    (hx : V' main_v39 = V c main_v39) (ho : V' main_v40 = (dat V c).arrAt (1 : Fin 2) cfg7.N) :
    (dat V c).arrays ((dat V c).arrAt · cfg7.N) ⊢ (Pipeline.arrBufs spec7 c V' : sProp 𝕄) := by
  rw [Run.arrays_eq_shares (dat V c) arr_whole7, bigSep_W7]
  unfold Pipeline.arrBufs
  rw [arrRefs, Run.bigSep_two (by decide)]
  simp only [share_0, share_1, arrAt_0, hx, ho]
  iintro ⟨Hx, Ho⟩
  isplitl [Hx]; · iexact Hx
  iexact Ho

end Cert.Kernel.Reg7

end
-- ==== Proof.K.RunArr8.lean ====
/-
  Region 8 (the fifth convolution, 128 to 256 channels at 56 × 56): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg8
import proofs.«143011_g2000502688546152_pallasbulk_1201_3_alg».proof.Proof.K.RunBase

set_option maxRecDepth 1536

noncomputable section

namespace Cert.Kernel.Reg8

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec8) = ({main_v41, main_v44, main_arg11, main_v45} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v41 := ((dat V c).arrAt_in 0 rfl n).trans (A_eq V c 0)
theorem arrAt_1 (c : Dev nD) (n : ℕ) : (dat V c).arrAt 1 n = V c main_v41 := ((dat V c).arrAt_in 1 rfl n).trans (A_eq V c 1)
theorem arrAt_2 (c : Dev nD) (n : ℕ) : (dat V c).arrAt 2 n = V c main_v44 := ((dat V c).arrAt_in 2 rfl n).trans (A_eq V c 2)
theorem arrAt_3 (c : Dev nD) (n : ℕ) : (dat V c).arrAt 3 n = V c main_arg11 := ((dat V c).arrAt_in 3 rfl n).trans (A_eq V c 3)
/-- At entry the output's array holds what the region found. -/
theorem arrAt_4_zero (c : Dev nD) : (dat V c).arrAt 4 0 = V c main_v45 := A_eq V c 4

set_option maxHeartbeats 1000000 in
/-- ENTRY: the four buffers at what the region finds make the pipeline's arrays at their entry contents. -/
theorem hsplit (c : Dev nD) :
    (Pipeline.arrBufs spec8 c (V c) : sProp 𝕄) ⊢ (dat V c).arrays ((dat V c).arrAt · 0) := by
  rw [Run.arrays_eq_shares (dat V c) arr_whole8, bigSep_W8]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v41 = V c main_v41) (hw : V' main_v44 = V c main_v44) (hb : V' main_arg11 = V c main_arg11)
    (ho : V' main_v45 = (dat V c).arrAt (4 : Fin 5) cfg8.N) :
    (dat V c).arrays ((dat V c).arrAt · cfg8.N) ⊢ (Pipeline.arrBufs spec8 c V' : sProp 𝕄) := by
  rw [Run.arrays_eq_shares (dat V c) arr_whole8, bigSep_W8]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg8

end
-- ==== Proof.K.RunArr9.lean ====
/-
  Region 9 (the sixth convolution, 256 to 256 channels at 56 × 56): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg9
import proofs.«143011_g2000502688546152_pallasbulk_1201_3_alg».proof.Proof.K.RunBase

set_option maxRecDepth 1536

noncomputable section

namespace Cert.Kernel.Reg9

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec9) = ({main_v46, main_v49, main_arg13, main_v50} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v46 := ((dat V c).arrAt_in 0 rfl n).trans (A_eq V c 0)
theorem arrAt_1 (c : Dev nD) (n : ℕ) : (dat V c).arrAt 1 n = V c main_v46 := ((dat V c).arrAt_in 1 rfl n).trans (A_eq V c 1)
theorem arrAt_2 (c : Dev nD) (n : ℕ) : (dat V c).arrAt 2 n = V c main_v49 := ((dat V c).arrAt_in 2 rfl n).trans (A_eq V c 2)
theorem arrAt_3 (c : Dev nD) (n : ℕ) : (dat V c).arrAt 3 n = V c main_arg13 := ((dat V c).arrAt_in 3 rfl n).trans (A_eq V c 3)
/-- At entry the output's array holds what the region found. -/
theorem arrAt_4_zero (c : Dev nD) : (dat V c).arrAt 4 0 = V c main_v50 := A_eq V c 4

set_option maxHeartbeats 1000000 in
/-- ENTRY: the four buffers at what the region finds make the pipeline's arrays at their entry contents. -/
theorem hsplit (c : Dev nD) :
    (Pipeline.arrBufs spec9 c (V c) : sProp 𝕄) ⊢ (dat V c).arrays ((dat V c).arrAt · 0) := by
  rw [Run.arrays_eq_shares (dat V c) arr_whole9, bigSep_W9]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v46 = V c main_v46) (hw : V' main_v49 = V c main_v49) (hb : V' main_arg13 = V c main_arg13)
    (ho : V' main_v50 = (dat V c).arrAt (4 : Fin 5) cfg9.N) :
    (dat V c).arrays ((dat V c).arrAt · cfg9.N) ⊢ (Pipeline.arrBufs spec9 c V' : sProp 𝕄) := by
  rw [Run.arrays_eq_shares (dat V c) arr_whole9, bigSep_W9]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg9

end
-- ==== Proof.K.RunArr10.lean ====
/-
  Region 10 (the seventh convolution, 256 to 256 channels at 56 × 56): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg10
import proofs.«143011_g2000502688546152_pallasbulk_1201_3_alg».proof.Proof.K.RunBase

set_option maxRecDepth 1536

noncomputable section

namespace Cert.Kernel.Reg10

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec10) = ({main_v51, main_v54, main_arg15, main_v55} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v51 := ((dat V c).arrAt_in 0 rfl n).trans (A_eq V c 0)
theorem arrAt_1 (c : Dev nD) (n : ℕ) : (dat V c).arrAt 1 n = V c main_v51 := ((dat V c).arrAt_in 1 rfl n).trans (A_eq V c 1)
theorem arrAt_2 (c : Dev nD) (n : ℕ) : (dat V c).arrAt 2 n = V c main_v54 := ((dat V c).arrAt_in 2 rfl n).trans (A_eq V c 2)
theorem arrAt_3 (c : Dev nD) (n : ℕ) : (dat V c).arrAt 3 n = V c main_arg15 := ((dat V c).arrAt_in 3 rfl n).trans (A_eq V c 3)
/-- At entry the output's array holds what the region found. -/
theorem arrAt_4_zero (c : Dev nD) : (dat V c).arrAt 4 0 = V c main_v55 := A_eq V c 4

set_option maxHeartbeats 1000000 in
/-- ENTRY: the four buffers at what the region finds make the pipeline's arrays at their entry contents. -/
theorem hsplit (c : Dev nD) :
    (Pipeline.arrBufs spec10 c (V c) : sProp 𝕄) ⊢ (dat V c).arrays ((dat V c).arrAt · 0) := by
  rw [Run.arrays_eq_shares (dat V c) arr_whole10, bigSep_W10]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v51 = V c main_v51) (hw : V' main_v54 = V c main_v54) (hb : V' main_arg15 = V c main_arg15)
    (ho : V' main_v55 = (dat V c).arrAt (4 : Fin 5) cfg10.N) :
    (dat V c).arrays ((dat V c).arrAt · cfg10.N) ⊢ (Pipeline.arrBufs spec10 c V' : sProp 𝕄) := by
  rw [Run.arrays_eq_shares (dat V c) arr_whole10, bigSep_W10]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg10

end
-- ==== Proof.K.RunArr11.lean ====
/-
  Region 11 (the sums of absolute differences at the third feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.K.Reg11
import proofs.«143011_g2000502688546152_pallasbulk_1201_3_alg».proof.Proof.K.RunBase

set_option maxRecDepth 1536

noncomputable section

namespace Cert.Kernel.Reg11

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec11) = ({main_v56, main_v57} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v56 := ((dat V c).arrAt_in 0 rfl n).trans (A_eq V c 0)
theorem arrAt_1 (c : Dev nD) (n : ℕ) : (dat V c).arrAt 1 n = V c main_v56 := ((dat V c).arrAt_in 1 rfl n).trans (A_eq V c 1)
/-- At entry the sums' array holds what the region found. -/
theorem arrAt_2_zero (c : Dev nD) : (dat V c).arrAt 2 0 = V c main_v57 := A_eq V c 2

set_option maxHeartbeats 1000000 in
/-- ENTRY: the two buffers at what the region finds make the pipeline's arrays at their entry contents. -/
theorem hsplit (c : Dev nD) :
    (Pipeline.arrBufs spec11 c (V c) : sProp 𝕄) ⊢ (dat V c).arrays ((dat V c).arrAt · 0) := by
  rw [Run.arrays_eq_shares (dat V c) arr_whole11, bigSep_W11]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v56 = V c main_v56) (ho : V' main_v57 = (dat V c).arrAt (2 : Fin 3) cfg11.N) :
    (dat V c).arrays ((dat V c).arrAt · cfg11.N) ⊢ (Pipeline.arrBufs spec11 c V' : sProp 𝕄) := by
  rw [Run.arrays_eq_shares (dat V c) arr_whole11, bigSep_W11]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.Kernel.Reg11

end
-- ==== Proof.K.RunSegsB.lean ====
/-
  Regions 6 to 11 of the network as segments of its run: each entered at the contents before it and left at those
  contents with its output array at what the pipeline's write-backs leave, the rest riding along unchanged.
-/
import proofs.«143011_g2000502688546152_pallasbulk_1201_3_alg».proof.Proof.K.RunChainAt
import proofs.«143011_g2000502688546152_pallasbulk_1201_3_alg».proof.Proof.K.RunBase
import proofs.«143011_g2000502688546152_pallasbulk_1201_3_alg».proof.Proof.K.RunArr6
import proofs.«143011_g2000502688546152_pallasbulk_1201_3_alg».proof.Proof.K.RunArr7
import proofs.«143011_g2000502688546152_pallasbulk_1201_3_alg».proof.Proof.K.RunArr8
import proofs.«143011_g2000502688546152_pallasbulk_1201_3_alg».proof.Proof.K.RunArr9
import proofs.«143011_g2000502688546152_pallasbulk_1201_3_alg».proof.Proof.K.RunArr10
import proofs.«143011_g2000502688546152_pallasbulk_1201_3_alg».proof.Proof.K.RunArr11

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Region 6 (the sums of absolute differences at the second feature level), entered at the contents before it and left at those with its output array
    at what the write-backs leave. -/
def reg6 : RegionSeg (pcfgs (F := F)) adm (pdats m) () defs₀ 𝒱₀ L lv 6 :=
  region 6 (pdats m) winFacts₀6 block_pos6 stage_whole6
    (fun c => Reg6.body_obligation (U21 m) c) (fun _ _ => rfl) (fun _ _ => rfl) (fun _ => rfl) (fun _ => rfl)
    (W21 m) (W22 m)
    (fun c => Reg6.hsplit (U21 m) c)
    (fun c => Reg6.hjoin (U21 m) c (fun r => W22 m c r)
      (W22_of m c main_v32 (by decide)) (W22_self m c))
    (fun c r hr => W22_of m c r (by rintro rfl; exact hr (by decide)))

/-- Region 7 (the second 2×2 max pooling), entered at the contents before it and left at those with its output array
    at what the write-backs leave. -/
def reg7 : RegionSeg (pcfgs (F := F)) adm (pdats m) () defs₀ 𝒱₀ L lv 7 :=
  region 7 (pdats m) winFacts7.to₀ block_pos7 stage_whole7
    (fun c => Reg7.body_obligation (U23 m) c) (fun _ _ => rfl) (fun _ _ => rfl) (fun _ => rfl) (fun _ => rfl)
    (W23 m) (W24 m)
    (fun c => Reg7.hsplit (U23 m) c)
    (fun c => Reg7.hjoin (U23 m) c (fun r => W24 m c r)
      (W24_of m c main_v39 (by decide)) (W24_self m c))
    (fun c r hr => W24_of m c r (by rintro rfl; exact hr (by decide)))

/-- Region 8 (the fifth convolution, 128 to 256 channels at 56 × 56), entered at the contents before it and left at those with its output array
    at what the write-backs leave. -/
def reg8 : RegionSeg (pcfgs (F := F)) adm (pdats m) () defs₀ 𝒱₀ L lv 8 :=
  region 8 (pdats m) winFacts₀8 block_pos8 stage_whole8
    (fun c => Reg8.body_obligation (U27 m) c) (fun _ _ => rfl) (fun _ _ => rfl) (fun _ => rfl) (fun _ => rfl)
    (W27 m) (W28 m)
    (fun c => Reg8.hsplit (U27 m) c)
    (fun c => Reg8.hjoin (U27 m) c (fun r => W28 m c r)
      (W28_of m c main_v41 (by decide)) (W28_of m c main_v44 (by decide)) (W28_of m c main_arg11 (by decide)) (W28_self m c))
    (fun c r hr => W28_of m c r (by rintro rfl; exact hr (by decide)))

/-- Region 9 (the sixth convolution, 256 to 256 channels at 56 × 56), entered at the contents before it and left at those with its output array
    at what the write-backs leave. -/
def reg9 : RegionSeg (pcfgs (F := F)) adm (pdats m) () defs₀ 𝒱₀ L lv 9 :=
  region 9 (pdats m) winFacts₀9 block_pos9 stage_whole9
    (fun c => Reg9.body_obligation (U31 m) c) (fun _ _ => rfl) (fun _ _ => rfl) (fun _ => rfl) (fun _ => rfl)
    (W31 m) (W32 m)
    (fun c => Reg9.hsplit (U31 m) c)
    (fun c => Reg9.hjoin (U31 m) c (fun r => W32 m c r)
      (W32_of m c main_v46 (by decide)) (W32_of m c main_v49 (by decide)) (W32_of m c main_arg13 (by decide)) (W32_self m c))
    (fun c r hr => W32_of m c r (by rintro rfl; exact hr (by decide)))

/-- Region 10 (the seventh convolution, 256 to 256 channels at 56 × 56), entered at the contents before it and left at those with its output array
    at what the write-backs leave. -/
def reg10 : RegionSeg (pcfgs (F := F)) adm (pdats m) () defs₀ 𝒱₀ L lv 10 :=
  region 10 (pdats m) winFacts₀10 block_pos10 stage_whole10
    (fun c => Reg10.body_obligation (U35 m) c) (fun _ _ => rfl) (fun _ _ => rfl) (fun _ => rfl) (fun _ => rfl)
    (W35 m) (W36 m)
    (fun c => Reg10.hsplit (U35 m) c)
    (fun c => Reg10.hjoin (U35 m) c (fun r => W36 m c r)
      (W36_of m c main_v51 (by decide)) (W36_of m c main_v54 (by decide)) (W36_of m c main_arg15 (by decide)) (W36_self m c))
    (fun c r hr => W36_of m c r (by rintro rfl; exact hr (by decide)))

/-- Region 11 (the sums of absolute differences at the third feature level), entered at the contents before it and left at those with its output array
    at what the write-backs leave. -/
def reg11 : RegionSeg (pcfgs (F := F)) adm (pdats m) () defs₀ 𝒱₀ L lv 11 :=
  region 11 (pdats m) winFacts₀11 block_pos11 stage_whole11
    (fun c => Reg11.body_obligation (U37 m) c) (fun _ _ => rfl) (fun _ _ => rfl) (fun _ => rfl) (fun _ => rfl)
    (W37 m) (W38 m)
    (fun c => Reg11.hsplit (U37 m) c)
    (fun c => Reg11.hjoin (U37 m) c (fun r => W38 m c r)
      (W38_of m c main_v56 (by decide)) (W38_self m c))
    (fun c r hr => W38_of m c r (by rintro rfl; exact hr (by decide)))

end Cert.Kernel.Run

end
-- ==== Proof.K.RunArr12.lean ====
/-
  Region 12 (the third 2×2 max pooling): its arrays in and out of the core's unscoped buffers. Two windows on two
  buffers, each held whole: the features read, and the pooled features written. After the last point the features
  are as they were found (an input array is never written) and the pooled buffer holds what the write-backs left.
-/
import proofs.«143011_g2000502688546152_pallasbulk_1201_3_alg».proof.Proof.K.Reg12
import proofs.«143011_g2000502688546152_pallasbulk_1201_3_alg».proof.Proof.K.RunBase

set_option maxRecDepth 1536

noncomputable section

namespace Cert.Kernel.Reg12

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the two windows. -/
theorem arrRefs : Finset.univ.image (Pipeline.arrRef spec12) = ({main_v63, main_v64} : Finset (Ref sig .tc)) := by
  decide

/-- Both arrays are held whole. -/
theorem share_0 (c : Dev nD) : (dat V c).share 0 = fullShare := rfl
theorem share_1 (c : Dev nD) : (dat V c).share 1 = fullShare := rfl

/-- The input's array is never written: after any number of points it holds what the region found. -/
theorem arrAt_0 (c : Dev nD) (n : ℕ) : (dat V c).arrAt 0 n = V c main_v63 := ((dat V c).arrAt_in 0 rfl n).trans (A_eq V c 0)
/-- At entry the pooled array holds what the region found. -/
theorem arrAt_1_zero (c : Dev nD) : (dat V c).arrAt 1 0 = V c main_v64 := A_eq V c 1

set_option maxHeartbeats 1000000 in
/-- ENTRY: the two buffers at what the region finds make the pipeline's arrays at their entry contents. -/
theorem hsplit (c : Dev nD) :
    (Pipeline.arrBufs spec12 c (V c) : sProp 𝕄) ⊢ (dat V c).arrays ((dat V c).arrAt · 0) := by
  rw [Run.arrays_eq_shares (dat V c) arr_whole12, bigSep_W12]
  unfold Pipeline.arrBufs
  rw [arrRefs, Run.bigSep_two (by decide)]
  simp only [share_0, share_1, arrAt_0, arrAt_1_zero]
  iintro ⟨Hx, Ho⟩
  isplitl [Hx]; · iexact Hx
  iexact Ho

set_option maxHeartbeats 1000000 in
/-- EXIT: the pipeline's arrays after the last point make the two buffers at any contents `V'` that has the features
    as the region found them and the pooled buffer at what the write-backs left. -/
theorem hjoin (c : Dev nD) (V' : (b : Ref sig .tc) → Buf (Elt F) ((c : Thread nD τ).loc b))
    (hx : V' main_v63 = V c main_v63) (ho : V' main_v64 = (dat V c).arrAt (1 : Fin 2) cfg12.N) :
    (dat V c).arrays ((dat V c).arrAt · cfg12.N) ⊢ (Pipeline.arrBufs spec12 c V' : sProp 𝕄) := by
  rw [Run.arrays_eq_shares (dat V c) arr_whole12, bigSep_W12]
  unfold Pipeline.arrBufs
  rw [arrRefs, Run.bigSep_two (by decide)]
  simp only [share_0, share_1, arrAt_0, hx, ho]
  iintro ⟨Hx, Ho⟩
  isplitl [Hx]; · iexact Hx
  iexact Ho

end Cert.Kernel.Reg12

end
-- ==== Proof.K.RunArr13.lean ====
/-
  Region 13 (the eighth convolution, 256 to 512 channels at 28 × 28): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg13
import proofs.«143011_g2000502688546152_pallasbulk_1201_3_alg».proof.Proof.K.RunBase

set_option maxRecDepth 1536

noncomputable section

namespace Cert.Kernel.Reg13

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec13) = ({main_v65, main_v68, main_arg17, main_v69} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v65 := ((dat V c).arrAt_in 0 rfl n).trans (A_eq V c 0)
theorem arrAt_1 (c : Dev nD) (n : ℕ) : (dat V c).arrAt 1 n = V c main_v65 := ((dat V c).arrAt_in 1 rfl n).trans (A_eq V c 1)
theorem arrAt_2 (c : Dev nD) (n : ℕ) : (dat V c).arrAt 2 n = V c main_v68 := ((dat V c).arrAt_in 2 rfl n).trans (A_eq V c 2)
theorem arrAt_3 (c : Dev nD) (n : ℕ) : (dat V c).arrAt 3 n = V c main_arg17 := ((dat V c).arrAt_in 3 rfl n).trans (A_eq V c 3)
/-- At entry the output's array holds what the region found. -/
theorem arrAt_4_zero (c : Dev nD) : (dat V c).arrAt 4 0 = V c main_v69 := A_eq V c 4

set_option maxHeartbeats 1000000 in
/-- ENTRY: the four buffers at what the region finds make the pipeline's arrays at their entry contents. -/
theorem hsplit (c : Dev nD) :
    (Pipeline.arrBufs spec13 c (V c) : sProp 𝕄) ⊢ (dat V c).arrays ((dat V c).arrAt · 0) := by
  rw [Run.arrays_eq_shares (dat V c) arr_whole13, bigSep_W13]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v65 = V c main_v65) (hw : V' main_v68 = V c main_v68) (hb : V' main_arg17 = V c main_arg17)
    (ho : V' main_v69 = (dat V c).arrAt (4 : Fin 5) cfg13.N) :
    (dat V c).arrays ((dat V c).arrAt · cfg13.N) ⊢ (Pipeline.arrBufs spec13 c V' : sProp 𝕄) := by
  rw [Run.arrays_eq_shares (dat V c) arr_whole13, bigSep_W13]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg13

end
-- ==== Proof.K.RunArr14.lean ====
/-
  Region 14 (the ninth convolution, 512 to 512 channels at 28 × 28): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg14
import proofs.«143011_g2000502688546152_pallasbulk_1201_3_alg».proof.Proof.K.RunBase

set_option maxRecDepth 1536

noncomputable section

namespace Cert.Kernel.Reg14

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec14) = ({main_v70, main_v73, main_arg19, main_v74} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v70 := ((dat V c).arrAt_in 0 rfl n).trans (A_eq V c 0)
theorem arrAt_1 (c : Dev nD) (n : ℕ) : (dat V c).arrAt 1 n = V c main_v70 := ((dat V c).arrAt_in 1 rfl n).trans (A_eq V c 1)
theorem arrAt_2 (c : Dev nD) (n : ℕ) : (dat V c).arrAt 2 n = V c main_v73 := ((dat V c).arrAt_in 2 rfl n).trans (A_eq V c 2)
theorem arrAt_3 (c : Dev nD) (n : ℕ) : (dat V c).arrAt 3 n = V c main_arg19 := ((dat V c).arrAt_in 3 rfl n).trans (A_eq V c 3)
/-- At entry the output's array holds what the region found. -/
theorem arrAt_4_zero (c : Dev nD) : (dat V c).arrAt 4 0 = V c main_v74 := A_eq V c 4

set_option maxHeartbeats 1000000 in
/-- ENTRY: the four buffers at what the region finds make the pipeline's arrays at their entry contents. -/
theorem hsplit (c : Dev nD) :
    (Pipeline.arrBufs spec14 c (V c) : sProp 𝕄) ⊢ (dat V c).arrays ((dat V c).arrAt · 0) := by
  rw [Run.arrays_eq_shares (dat V c) arr_whole14, bigSep_W14]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v70 = V c main_v70) (hw : V' main_v73 = V c main_v73) (hb : V' main_arg19 = V c main_arg19)
    (ho : V' main_v74 = (dat V c).arrAt (4 : Fin 5) cfg14.N) :
    (dat V c).arrays ((dat V c).arrAt · cfg14.N) ⊢ (Pipeline.arrBufs spec14 c V' : sProp 𝕄) := by
  rw [Run.arrays_eq_shares (dat V c) arr_whole14, bigSep_W14]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg14

end
-- ==== Proof.K.RunArr15.lean ====
/-
  Region 15 (the tenth convolution, 512 to 512 channels at 28 × 28): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.K.Reg15
import proofs.«143011_g2000502688546152_pallasbulk_1201_3_alg».proof.Proof.K.RunBase

set_option maxRecDepth 1536

noncomputable section

namespace Cert.Kernel.Reg15

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec15) = ({main_v75, main_v78, main_arg21, main_v79} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v75 := ((dat V c).arrAt_in 0 rfl n).trans (A_eq V c 0)
theorem arrAt_1 (c : Dev nD) (n : ℕ) : (dat V c).arrAt 1 n = V c main_v75 := ((dat V c).arrAt_in 1 rfl n).trans (A_eq V c 1)
theorem arrAt_2 (c : Dev nD) (n : ℕ) : (dat V c).arrAt 2 n = V c main_v78 := ((dat V c).arrAt_in 2 rfl n).trans (A_eq V c 2)
theorem arrAt_3 (c : Dev nD) (n : ℕ) : (dat V c).arrAt 3 n = V c main_arg21 := ((dat V c).arrAt_in 3 rfl n).trans (A_eq V c 3)
/-- At entry the output's array holds what the region found. -/
theorem arrAt_4_zero (c : Dev nD) : (dat V c).arrAt 4 0 = V c main_v79 := A_eq V c 4

set_option maxHeartbeats 1000000 in
/-- ENTRY: the four buffers at what the region finds make the pipeline's arrays at their entry contents. -/
theorem hsplit (c : Dev nD) :
    (Pipeline.arrBufs spec15 c (V c) : sProp 𝕄) ⊢ (dat V c).arrays ((dat V c).arrAt · 0) := by
  rw [Run.arrays_eq_shares (dat V c) arr_whole15, bigSep_W15]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v75 = V c main_v75) (hw : V' main_v78 = V c main_v78) (hb : V' main_arg21 = V c main_arg21)
    (ho : V' main_v79 = (dat V c).arrAt (4 : Fin 5) cfg15.N) :
    (dat V c).arrays ((dat V c).arrAt · cfg15.N) ⊢ (Pipeline.arrBufs spec15 c V' : sProp 𝕄) := by
  rw [Run.arrays_eq_shares (dat V c) arr_whole15, bigSep_W15]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.Kernel.Reg15

end
-- ==== Proof.K.RunArr16.lean ====
/-
  Region 16 (the sums of absolute differences at the fourth feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.K.Reg16
import proofs.«143011_g2000502688546152_pallasbulk_1201_3_alg».proof.Proof.K.RunBase

set_option maxRecDepth 1536

noncomputable section

namespace Cert.Kernel.Reg16

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec16) = ({main_v80, main_v81} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v80 := ((dat V c).arrAt_in 0 rfl n).trans (A_eq V c 0)
theorem arrAt_1 (c : Dev nD) (n : ℕ) : (dat V c).arrAt 1 n = V c main_v80 := ((dat V c).arrAt_in 1 rfl n).trans (A_eq V c 1)
/-- At entry the sums' array holds what the region found. -/
theorem arrAt_2_zero (c : Dev nD) : (dat V c).arrAt 2 0 = V c main_v81 := A_eq V c 2

set_option maxHeartbeats 1000000 in
/-- ENTRY: the two buffers at what the region finds make the pipeline's arrays at their entry contents. -/
theorem hsplit (c : Dev nD) :
    (Pipeline.arrBufs spec16 c (V c) : sProp 𝕄) ⊢ (dat V c).arrays ((dat V c).arrAt · 0) := by
  rw [Run.arrays_eq_shares (dat V c) arr_whole16, bigSep_W16]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v80 = V c main_v80) (ho : V' main_v81 = (dat V c).arrAt (2 : Fin 3) cfg16.N) :
    (dat V c).arrays ((dat V c).arrAt · cfg16.N) ⊢ (Pipeline.arrBufs spec16 c V' : sProp 𝕄) := by
  rw [Run.arrays_eq_shares (dat V c) arr_whole16, bigSep_W16]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.Kernel.Reg16

end
-- ==== Proof.K.RunSegsC.lean ====
/-
  Regions 12 to 16 of the network as segments of its run: each entered at the contents before it and left at those
  contents with its output array at what the pipeline's write-backs leave, the rest riding along unchanged.
-/
import proofs.«143011_g2000502688546152_pallasbulk_1201_3_alg».proof.Proof.K.RunChainAt
import proofs.«143011_g2000502688546152_pallasbulk_1201_3_alg».proof.Proof.K.RunBase
import proofs.«143011_g2000502688546152_pallasbulk_1201_3_alg».proof.Proof.K.RunArr12
import proofs.«143011_g2000502688546152_pallasbulk_1201_3_alg».proof.Proof.K.RunArr13
import proofs.«143011_g2000502688546152_pallasbulk_1201_3_alg».proof.Proof.K.RunArr14
import proofs.«143011_g2000502688546152_pallasbulk_1201_3_alg».proof.Proof.K.RunArr15
import proofs.«143011_g2000502688546152_pallasbulk_1201_3_alg».proof.Proof.K.RunArr16

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Region 12 (the third 2×2 max pooling), entered at the contents before it and left at those with its output array
    at what the write-backs leave. -/
def reg12 : RegionSeg (pcfgs (F := F)) adm (pdats m) () defs₀ 𝒱₀ L lv 12 :=
  region 12 (pdats m) winFacts12.to₀ block_pos12 stage_whole12
    (fun c => Reg12.body_obligation (U39 m) c) (fun _ _ => rfl) (fun _ _ => rfl) (fun _ => rfl) (fun _ => rfl)
    (W39 m) (W40 m)
    (fun c => Reg12.hsplit (U39 m) c)
    (fun c => Reg12.hjoin (U39 m) c (fun r => W40 m c r)
      (W40_of m c main_v63 (by decide)) (W40_self m c))
    (fun c r hr => W40_of m c r (by rintro rfl; exact hr (by decide)))

/-- Region 13 (the eighth convolution, 256 to 512 channels at 28 × 28), entered at the contents before it and left at those with its output array
    at what the write-backs leave. -/
def reg13 : RegionSeg (pcfgs (F := F)) adm (pdats m) () defs₀ 𝒱₀ L lv 13 :=
  region 13 (pdats m) winFacts₀13 block_pos13 stage_whole13
    (fun c => Reg13.body_obligation (U43 m) c) (fun _ _ => rfl) (fun _ _ => rfl) (fun _ => rfl) (fun _ => rfl)
    (W43 m) (W44 m)
    (fun c => Reg13.hsplit (U43 m) c)
    (fun c => Reg13.hjoin (U43 m) c (fun r => W44 m c r)
      (W44_of m c main_v65 (by decide)) (W44_of m c main_v68 (by decide)) (W44_of m c main_arg17 (by decide)) (W44_self m c))
    (fun c r hr => W44_of m c r (by rintro rfl; exact hr (by decide)))

/-- Region 14 (the ninth convolution, 512 to 512 channels at 28 × 28), entered at the contents before it and left at those with its output array
    at what the write-backs leave. -/
def reg14 : RegionSeg (pcfgs (F := F)) adm (pdats m) () defs₀ 𝒱₀ L lv 14 :=
  region 14 (pdats m) winFacts₀14 block_pos14 stage_whole14
    (fun c => Reg14.body_obligation (U47 m) c) (fun _ _ => rfl) (fun _ _ => rfl) (fun _ => rfl) (fun _ => rfl)
    (W47 m) (W48 m)
    (fun c => Reg14.hsplit (U47 m) c)
    (fun c => Reg14.hjoin (U47 m) c (fun r => W48 m c r)
      (W48_of m c main_v70 (by decide)) (W48_of m c main_v73 (by decide)) (W48_of m c main_arg19 (by decide)) (W48_self m c))
    (fun c r hr => W48_of m c r (by rintro rfl; exact hr (by decide)))

/-- Region 15 (the tenth convolution, 512 to 512 channels at 28 × 28), entered at the contents before it and left at those with its output array
    at what the write-backs leave. -/
def reg15 : RegionSeg (pcfgs (F := F)) adm (pdats m) () defs₀ 𝒱₀ L lv 15 :=
  region 15 (pdats m) winFacts₀15 block_pos15 stage_whole15
    (fun c => Reg15.body_obligation (U51 m) c) (fun _ _ => rfl) (fun _ _ => rfl) (fun _ => rfl) (fun _ => rfl)
    (W51 m) (W52 m)
    (fun c => Reg15.hsplit (U51 m) c)
    (fun c => Reg15.hjoin (U51 m) c (fun r => W52 m c r)
      (W52_of m c main_v75 (by decide)) (W52_of m c main_v78 (by decide)) (W52_of m c main_arg21 (by decide)) (W52_self m c))
    (fun c r hr => W52_of m c r (by rintro rfl; exact hr (by decide)))

/-- Region 16 (the sums of absolute differences at the fourth feature level), entered at the contents before it and left at those with its output array
    at what the write-backs leave. -/
def reg16 : RegionSeg (pcfgs (F := F)) adm (pdats m) () defs₀ 𝒱₀ L lv 16 :=
  region 16 (pdats m) winFacts₀16 block_pos16 stage_whole16
    (fun c => Reg16.body_obligation (U53 m) c) (fun _ _ => rfl) (fun _ _ => rfl) (fun _ => rfl) (fun _ => rfl)
    (W53 m) (W54 m)
    (fun c => Reg16.hsplit (U53 m) c)
    (fun c => Reg16.hjoin (U53 m) c (fun r => W54 m c r)
      (W54_of m c main_v80 (by decide)) (W54_self m c))
    (fun c r hr => W54_of m c r (by rintro rfl; exact hr (by decide)))

end Cert.Kernel.Run

end
-- ==== Proof.K.RunCond.lean ====
/-
  The run of the network with its result, GIVEN the regions: for any contents the regions leave and any proof data,
  given per region a segment record entered from the buffers' contents before it and left at the contents after it,
  every weakly fair execution from memory `m` with zero counters terminates, and every final memory holds, besides
  each argument as launched, the contents the last host stretch leaves in the result's buffer.
-/
import proofs.«143011_g2000502688546152_pallasbulk_1201_3_alg».proof.Proof.K.GenRegions

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN: the launch over the segments (the host stretches' and the given regions'), the last thread
    state read against the final state — the result's buffer and each argument's off the last contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V21 m outs c) ∗ E 6 c) ⊢ R6.pre c)
    (hpost6 : ∀ c : Dev nD, R6.post c ⊢ iprop(StableHlo.held (c : Thread nD τ) (Pipeline.ucRefs τ sig) (V22 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V23 m outs c) ∗ E 7 c) ⊢ R7.pre c)
    (hpost7 : ∀ c : Dev nD, R7.post c ⊢ iprop(StableHlo.held (c : Thread nD τ) (Pipeline.ucRefs τ sig) (V24 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V27 m outs c) ∗ E 8 c) ⊢ R8.pre c)
    (hpost8 : ∀ c : Dev nD, R8.post c ⊢ iprop(StableHlo.held (c : Thread nD τ) (Pipeline.ucRefs τ sig) (V28 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V31 m outs c) ∗ E 9 c) ⊢ R9.pre c)
    (hpost9 : ∀ c : Dev nD, R9.post c ⊢ iprop(StableHlo.held (c : Thread nD τ) (Pipeline.ucRefs τ sig) (V32 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V35 m outs c) ∗ E 10 c) ⊢ R10.pre c)
    (hpost10 : ∀ c : Dev nD, R10.post c ⊢ iprop(StableHlo.held (c : Thread nD τ) (Pipeline.ucRefs τ sig) (V36 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V37 m outs c) ∗ E 11 c) ⊢ R11.pre c)
    (hpost11 : ∀ c : Dev nD, R11.post c ⊢ iprop(StableHlo.held (c : Thread nD τ) (Pipeline.ucRefs τ sig) (V38 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V39 m outs c) ∗ E 12 c) ⊢ R12.pre c)
    (hpost12 : ∀ c : Dev nD, R12.post c ⊢ iprop(StableHlo.held (c : Thread nD τ) (Pipeline.ucRefs τ sig) (V40 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V43 m outs c) ∗ E 13 c) ⊢ R13.pre c)
    (hpost13 : ∀ c : Dev nD, R13.post c ⊢ iprop(StableHlo.held (c : Thread nD τ) (Pipeline.ucRefs τ sig) (V44 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V47 m outs c) ∗ E 14 c) ⊢ R14.pre c)
    (hpost14 : ∀ c : Dev nD, R14.post c ⊢ iprop(StableHlo.held (c : Thread nD τ) (Pipeline.ucRefs τ sig) (V48 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V51 m outs c) ∗ E 15 c) ⊢ R15.pre c)
    (hpost15 : ∀ c : Dev nD, R15.post c ⊢ iprop(StableHlo.held (c : Thread nD τ) (Pipeline.ucRefs τ sig) (V52 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V53 m outs c) ∗ E 16 c) ⊢ R16.pre c)
    (hpost16 : ∀ c : Dev nD, R16.post c ⊢ iprop(StableHlo.held (c : Thread nD τ) (Pipeline.ucRefs τ sig) (V54 m outs c) ∗ E 17 c)) :
    θ_run defs (onTc (τ := τ) (main (F := F))) ⟨m, fun _ => 0, ρ⟩ (fun r => ∀ c : Dev nD,
      r.2.mem ((c.tc : Thread nD τ).loc main_v86) = V55 m outs c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_chain c, Seg.run_eq_chain,
        show (segs m outs 𝒱₀ L lv E ι pdats R0 R1 R2 R3 R4 R5 R6 R7 R8 R9 R10 R11 R12 R13 R14 R15 R16 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          StableHlo.seq hostOps9,
          StableHlo.seq hostOps9_1,
          StableHlo.seq hostOps9_2,
          Prog.lift (.customCall (Pipeline.entry 9) ()),
          StableHlo.seq hostOps10,
          StableHlo.seq hostOps10_1,
          StableHlo.seq hostOps10_2,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          StableHlo.seq hostOps13_2,
          Prog.lift (.customCall (Pipeline.entry 13) ()),
          StableHlo.seq hostOps14,
          StableHlo.seq hostOps14_1,
          StableHlo.seq hostOps14_2,
          Prog.lift (.customCall (Pipeline.entry 14) ()),
          StableHlo.seq hostOps15,
          StableHlo.seq hostOps15_1,
          StableHlo.seq hostOps15_2,
          Prog.lift (.customCall (Pipeline.entry 15) ()),
          StableHlo.seq hostOps16,
          Prog.lift (.customCall (Pipeline.entry 16) ()),
          StableHlo.seq hostOps17 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V55 m outs c))
    (hch := fun c => ⟨.rfl, .rfl, .rfl, hpre0 c, hpost0 c, .rfl, .rfl, hpre1 c, hpost1 c, hpre2 c, hpost2 c, hpre3 c, hpost3 c, .rfl, .rfl, hpre4 c, hpost4 c, .rfl, .rfl, hpre5 c, hpost5 c, hpre6 c, hpost6 c, hpre7 c, hpost7 c, .rfl, .rfl, hpre8 c, hpost8 c, .rfl, .rfl, hpre9 c, hpost9 c, .rfl, .rfl, hpre10 c, hpost10 c, hpre11 c, hpost11 c, hpre12 c, hpost12 c, .rfl, .rfl, hpre13 c, hpost13 c, .rfl, .rfl, hpre14 c, hpost14 c, .rfl, .rfl, hpre15 c, hpost15 c, hpre16 c, hpost16 c, sep_mono .rfl (hE17 c)⟩)
    (hinit := ?_) (QY := fun c s => s.mem ((c.tc : Thread nD τ).loc main_v86) = V55 m outs c main_v86 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V55 m outs c) s') $$ [Hh HSI]
    · isplitl [Hh] <;> iassumption
    icases Hr with ⟨%h, HSI⟩
    imodintro
    isplitr
    · ipureintro
      exact ⟨h (Proc.devRef .tc main_v86) (Finset.mem_filter.mpr ⟨StableHlo.devRef_mem_tcRefs main_v86, by decide⟩),
        (h (Proc.devRef .tc main_arg0) (Finset.mem_filter.mpr ⟨StableHlo.devRef_mem_tcRefs main_arg0, by decide⟩)).trans (V55_main_arg0 m outs c),
        (h (Proc.devRef .tc main_arg1) (Finset.mem_filter.mpr ⟨StableHlo.devRef_mem_tcRefs main_arg1, by decide⟩)).trans (V55_main_arg1 m outs c),
        (h (Proc.devRef .tc main_arg2) (Finset.mem_filter.mpr ⟨StableHlo.devRef_mem_tcRefs main_arg2, by decide⟩)).trans (V55_main_arg2 m outs c),
        (h (Proc.devRef .tc main_arg3) (Finset.mem_filter.mpr ⟨StableHlo.devRef_mem_tcRefs main_arg3, by decide⟩)).trans (V55_main_arg3 m outs c),
        (h (Proc.devRef .tc main_arg4) (Finset.mem_filter.mpr ⟨StableHlo.devRef_mem_tcRefs main_arg4, by decide⟩)).trans (V55_main_arg4 m outs c),
        (h (Proc.devRef .tc main_arg5) (Finset.mem_filter.mpr ⟨StableHlo.devRef_mem_tcRefs main_arg5, by decide⟩)).trans (V55_main_arg5 m outs c),
        (h (Proc.devRef .tc main_arg6) (Finset.mem_filter.mpr ⟨StableHlo.devRef_mem_tcRefs main_arg6, by decide⟩)).trans (V55_main_arg6 m outs c),
        (h (Proc.devRef .tc main_arg7) (Finset.mem_filter.mpr ⟨StableHlo.devRef_mem_tcRefs main_arg7, by decide⟩)).trans (V55_main_arg7 m outs c),
        (h (Proc.devRef .tc main_arg8) (Finset.mem_filter.mpr ⟨StableHlo.devRef_mem_tcRefs main_arg8, by decide⟩)).trans (V55_main_arg8 m outs c),
        (h (Proc.devRef .tc main_arg9) (Finset.mem_filter.mpr ⟨StableHlo.devRef_mem_tcRefs main_arg9, by decide⟩)).trans (V55_main_arg9 m outs c),
        (h (Proc.devRef .tc main_arg10) (Finset.mem_filter.mpr ⟨StableHlo.devRef_mem_tcRefs main_arg10, by decide⟩)).trans (V55_main_arg10 m outs c),
        (h (Proc.devRef .tc main_arg11) (Finset.mem_filter.mpr ⟨StableHlo.devRef_mem_tcRefs main_arg11, by decide⟩)).trans (V55_main_arg11 m outs c),
        (h (Proc.devRef .tc main_arg12) (Finset.mem_filter.mpr ⟨StableHlo.devRef_mem_tcRefs main_arg12, by decide⟩)).trans (V55_main_arg12 m outs c),
        (h (Proc.devRef .tc main_arg13) (Finset.mem_filter.mpr ⟨StableHlo.devRef_mem_tcRefs main_arg13, by decide⟩)).trans (V55_main_arg13 m outs c),
        (h (Proc.devRef .tc main_arg14) (Finset.mem_filter.mpr ⟨StableHlo.devRef_mem_tcRefs main_arg14, by decide⟩)).trans (V55_main_arg14 m outs c),
        (h (Proc.devRef .tc main_arg15) (Finset.mem_filter.mpr ⟨StableHlo.devRef_mem_tcRefs main_arg15, by decide⟩)).trans (V55_main_arg15 m outs c),
        (h (Proc.devRef .tc main_arg16) (Finset.mem_filter.mpr ⟨StableHlo.devRef_mem_tcRefs main_arg16, by decide⟩)).trans (V55_main_arg16 m outs c),
        (h (Proc.devRef .tc main_arg17) (Finset.mem_filter.mpr ⟨StableHlo.devRef_mem_tcRefs main_arg17, by decide⟩)).trans (V55_main_arg17 m outs c),
        (h (Proc.devRef .tc main_arg18) (Finset.mem_filter.mpr ⟨StableHlo.devRef_mem_tcRefs main_arg18, by decide⟩)).trans (V55_main_arg18 m outs c),
        (h (Proc.devRef .tc main_arg19) (Finset.mem_filter.mpr ⟨StableHlo.devRef_mem_tcRefs main_arg19, by decide⟩)).trans (V55_main_arg19 m outs c),
        (h (Proc.devRef .tc main_arg20) (Finset.mem_filter.mpr ⟨StableHlo.devRef_mem_tcRefs main_arg20, by decide⟩)).trans (V55_main_arg20 m outs c),
        (h (Proc.devRef .tc main_arg21) (Finset.mem_filter.mpr ⟨StableHlo.devRef_mem_tcRefs main_arg21, by decide⟩)).trans (V55_main_arg21 m outs c)⟩
    · iexact HSI

end Cert.Kernel.Run

end
-- ==== Proof.K.Run.lean ====
/-
  The run of the whole network on the TensorCores: seventeen kernel regions (ten 3×3 convolutions with bias and
  rectifier, three 2×2 max poolings, four sums of absolute differences) between stretches of host operations
  (padding, reshapes, transposes, a concatenation, slices, reductions, divisions, additions).
  For any float model: the scalar the last host stretch leaves; every weakly fair execution terminates, the final
  memory holds that scalar and every argument as launched.
-/
import proofs.«143011_g2000502688546152_pallasbulk_1201_3_alg».proof.Proof.K.RunSegsA
import proofs.«143011_g2000502688546152_pallasbulk_1201_3_alg».proof.Proof.K.RunSegsB
import proofs.«143011_g2000502688546152_pallasbulk_1201_3_alg».proof.Proof.K.RunSegsC
import proofs.«143011_g2000502688546152_pallasbulk_1201_3_alg».proof.Proof.K.RunCond

set_option maxRecDepth 1536

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The scalar the network leaves on core `c` from launch memory `m`: the perceptual loss, read off the contents
    of the last host stretch's result. -/
def result (m : (ℓ : Loc nD τ sig) → Buf (Elt F) ℓ) (c : Dev nD) : Buf (Elt F) ((c.tc : Thread nD τ).loc main_v86) :=
  W55 m c main_v86

set_option backward.isDefEq.respectTransparency.types false in
/-- THE RUN WITH ITS RESULT: from any memory with zero counters every weakly fair execution of the network
    terminates, nothing faulting; the final memory holds `result m c` in the result's buffer and every argument
    as launched. The conditional run at the chain of contents, the seventeen regions' records, the rest riding along
    unchanged, no ghost resource beyond the pipelines' own. -/
theorem run : θ_run defs (onTc (τ := τ) (main (F := F))) ⟨m, fun _ => 0, ρ⟩ (fun r => ∀ c : Dev nD,
      r.2.mem ((c.tc : Thread nD τ).loc main_v86) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  have h := run_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V3_eq m c]; exact .rfl) (fun c => by rw [V4_eq m c]; exact .rfl)
    (reg1 m) (fun c => by rw [V7_eq m c]; exact .rfl) (fun c => by rw [V8_eq m c]; exact .rfl)
    (reg2 m) (fun c => by rw [V9_eq m c]; exact .rfl) (fun c => by rw [V10_eq m c]; exact .rfl)
    (reg3 m) (fun c => by rw [V11_eq m c]; exact .rfl) (fun c => by rw [V12_eq m c]; exact .rfl)
    (reg4 m) (fun c => by rw [V15_eq m c]; exact .rfl) (fun c => by rw [V16_eq m c]; exact .rfl)
    (reg5 m) (fun c => by rw [V19_eq m c]; exact .rfl) (fun c => by rw [V20_eq m c]; exact .rfl)
    (reg6 m) (fun c => by rw [V21_eq m c]; exact .rfl) (fun c => by rw [V22_eq m c]; exact .rfl)
    (reg7 m) (fun c => by rw [V23_eq m c]; exact .rfl) (fun c => by rw [V24_eq m c]; exact .rfl)
    (reg8 m) (fun c => by rw [V27_eq m c]; exact .rfl) (fun c => by rw [V28_eq m c]; exact .rfl)
    (reg9 m) (fun c => by rw [V31_eq m c]; exact .rfl) (fun c => by rw [V32_eq m c]; exact .rfl)
    (reg10 m) (fun c => by rw [V35_eq m c]; exact .rfl) (fun c => by rw [V36_eq m c]; exact .rfl)
    (reg11 m) (fun c => by rw [V37_eq m c]; exact .rfl) (fun c => by rw [V38_eq m c]; exact .rfl)
    (reg12 m) (fun c => by rw [V39_eq m c]; exact .rfl) (fun c => by rw [V40_eq m c]; exact .rfl)
    (reg13 m) (fun c => by rw [V43_eq m c]; exact .rfl) (fun c => by rw [V44_eq m c]; exact .rfl)
    (reg14 m) (fun c => by rw [V47_eq m c]; exact .rfl) (fun c => by rw [V48_eq m c]; exact .rfl)
    (reg15 m) (fun c => by rw [V51_eq m c]; exact .rfl) (fun c => by rw [V52_eq m c]; exact .rfl)
    (reg16 m) (fun c => by rw [V53_eq m c]; exact .rfl) (fun c => by rw [V54_eq m c]; exact .rfl)
  refine (θ_run defs _ _).mono (fun r hr c => ?_) h
  refine ⟨?_, (hr c).2⟩
  rw [(hr c).1, V55_eq m c]; rfl

/-- THE FRAME: the run, forgetting the result. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r hr c => (hr c).2) (run m ρ)

end Cert.Kernel.Run

end
-- ==== Proof.KI.Reg0.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles of the two row tiles, the bias row and the output tile, and the nine taps of the filter. -/
abbrev rx : Rect S1x16x240x3 := Rect.unit (s := S1x16x240x3) ![0, 0, 0, 0] S1x16x240x3.size inb_S1x16x240x3_S1x16x240x3_0_0_0_0
abbrev rb : Rect S1x64 := Rect.unit (s := S1x64) ![0, 0] S1x64.size inb_S1x64_S1x64_0_0
abbrev ro : Rect S1x16x224x64 := Rect.unit (s := S1x16x224x64) ![0, 0, 0, 0] S1x16x224x64.size inb_S1x16x224x64_S1x16x224x64_0_0_0_0
abbrev rw00 : Rect S3x3x3x64 := Rect.unit (s := S3x3x3x64) ![0, 0, 0, 0] S1x1x3x64.size inb_S3x3x3x64_S1x1x3x64_0_0_0_0
abbrev rw01 : Rect S3x3x3x64 := Rect.unit (s := S3x3x3x64) ![0, 1, 0, 0] S1x1x3x64.size inb_S3x3x3x64_S1x1x3x64_0_1_0_0
abbrev rw02 : Rect S3x3x3x64 := Rect.unit (s := S3x3x3x64) ![0, 2, 0, 0] S1x1x3x64.size inb_S3x3x3x64_S1x1x3x64_0_2_0_0
abbrev rw10 : Rect S3x3x3x64 := Rect.unit (s := S3x3x3x64) ![1, 0, 0, 0] S1x1x3x64.size inb_S3x3x3x64_S1x1x3x64_1_0_0_0
abbrev rw11 : Rect S3x3x3x64 := Rect.unit (s := S3x3x3x64) ![1, 1, 0, 0] S1x1x3x64.size inb_S3x3x3x64_S1x1x3x64_1_1_0_0
abbrev rw12 : Rect S3x3x3x64 := Rect.unit (s := S3x3x3x64) ![1, 2, 0, 0] S1x1x3x64.size inb_S3x3x3x64_S1x1x3x64_1_2_0_0
abbrev rw20 : Rect S3x3x3x64 := Rect.unit (s := S3x3x3x64) ![2, 0, 0, 0] S1x1x3x64.size inb_S3x3x3x64_S1x1x3x64_2_0_0_0
abbrev rw21 : Rect S3x3x3x64 := Rect.unit (s := S3x3x3x64) ![2, 1, 0, 0] S1x1x3x64.size inb_S3x3x3x64_S1x1x3x64_2_1_0_0
abbrev rw22 : Rect S3x3x3x64 := Rect.unit (s := S3x3x3x64) ![2, 2, 0, 0] S1x1x3x64.size inb_S3x3x3x64_S1x1x3x64_2_2_0_0

/-- The accumulator before the ReLU: nine tap products added in the order (dy, dx) = (0,0), (0,1), …, (2,2), then the bias row,
    as a function of the two row tiles, the filter and the bias. -/
def acc (xa xb : Vec F S1x16x240x3 .bf16) (wk : Vec F S3x3x3x64 .bf16) (b : Vec F S1x64 .f32) : FVec F S3840x64 .f32 :=
  k0_pay8 (k0_pay2 (View.ld xa rx) (View.ld xb rx)) (k0_pay3 (View.ld xa rx) (View.ld xb rx)) (k0_pay4 (View.ld xa rx) (View.ld xb rx))
    (k0_pay5 (View.ld xa rx) (View.ld xb rx) (View.ld wk rw00) (View.ld wk rw01) (View.ld wk rw02))
    (k0_pay6 (View.ld xa rx) (View.ld xb rx)) (k0_pay7 (View.ld wk rw10))
    (View.ld wk rw11) (View.ld wk rw12) (View.ld wk rw20) (View.ld wk rw21) (View.ld wk rw22) (View.ld b rb)

/-- What the body leaves in the output tile's buffer: one covering store of the rectified, cropped accumulator. -/
def out (xa xb : Vec F S1x16x240x3 .bf16) (wk : Vec F S3x3x3x64 .bf16) (b : Vec F S1x64 .f32) : Vec F S1x16x224x64 .bf16 :=
  View.canon [⟨ro, k0_pay1 (acc xa xb wk b) (k0_pay9 (F := F))⟩]

/-- The proof data of the region on core `c`: arrays as found; inputs left at their blocks, the output tile at `out` of them;
    the invariant the scoped rest and the generator register (`Pipeline.ΦA`); nothing owed; the image array's share halved between the two row-tile windows that read it, full shares elsewhere. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

/-- The invariant, the tallies owed and each window's share of its array, projected. -/
theorem Φ_eq (c : Dev nD) (t : Fin (cfg0.N + 1)) : (dat V c).Φ t = Pipeline.ΦA spec0 c := rfl
theorem owed_eq (c : Dev nD) (t : Fin (cfg0.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out (iblk V c 0 t) (iblk V c 1 t) (iblk V c 2 t) (iblk V c 3 t) := by dsimp only [dat]

/-- The store tiles the output buffer, so it covers it. -/
theorem cover_out (p0 : Vec F S1x16x224x64 .bf16) (y : S1x16x224x64.Idx) :
    ∃ pc ∈ ([⟨ro, p0⟩] : List (View.Piece (Elt F) S1x16x224x64 .bf16)), y ∈ pc.1.set :=
  View.cover_of_tiled [⟨ro, p0⟩] S1x16x224x64.size (by rfl) y

set_option maxHeartbeats 2000000 in
/-- The body on whole staging memrefs: the four inputs at read contents, the output at anything, runs to the
    continuation holding the inputs as they were and the output tile at `out` of them. -/
theorem sound_kernel (c : Dev nD) (E : Set ℕ) (i : grid0.Coords)
    (arg2 : Memref sig .tc .vmem S1x16x240x3 .bf16) (harg2 : arg2.IsWhole) (arg3 : Memref sig .tc .vmem S1x16x240x3 .bf16) (harg3 : arg3.IsWhole)
    (arg4 : Memref sig .tc .vmem S3x3x3x64 .bf16) (harg4 : arg4.IsWhole) (arg5 : Memref sig .tc .vmem S1x64 .f32) (harg5 : arg5.IsWhole)
    (arg6 : Memref sig .tc .vmem S1x16x224x64 .bf16) (harg6 : arg6.IsWhole)
    (x0 x1 : Vec F S1x16x240x3 .bf16) (x2 : Vec F S3x3x3x64 .bf16) (x3 : Vec F S1x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE (defs₀ (F := F)) Variants.none c none) E
          (cc0__conv_kernel i arg2 harg2 arg3 harg3 arg4 harg4 arg5 harg5 arg6 harg6) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _)]
  unfold out acc
  sl_unfold_words
  rfl

/-! ## The input windows' buffers before the body

An input window's buffer holds the window's block of its array at every point, fetched there or not: at a point that
does not fetch it the block index has not moved since the last fetch, and the body leaves the buffer as it found it.
(The filter and the bias are fetched once, at the first point; the two row tiles at every point.) -/

theorem before_0 (c : Dev nD) (t : Fin cfg0.N) (d) : (dat V c).before 0 t d = iblk V c 0 t := by
  have hk : ∀ t, (cfg0.win 0).cut (cfg0.grid.coords t) ((dat V c).after 0 t) = (dat V c).blockOf 0 t := fun t => by
    rw [after_0]; unfold Dat.blockOf iblk; rw [A_eq]
  rw [(dat V c).before_in_eq_fetched 0 rfl (fun _ => rfl) (fun _ _ _ => rfl) hk t d]
  unfold Dat.fetched Dat.blockOf iblk; rw [A_eq]; rfl

theorem before_1 (c : Dev nD) (t : Fin cfg0.N) (d) : (dat V c).before 1 t d = iblk V c 1 t := by
  have hk : ∀ t, (cfg0.win 1).cut (cfg0.grid.coords t) ((dat V c).after 1 t) = (dat V c).blockOf 1 t := fun t => by
    rw [after_1]; unfold Dat.blockOf iblk; rw [A_eq]
  rw [(dat V c).before_in_eq_fetched 1 rfl (fun _ => rfl) (fun _ _ _ => rfl) hk t d]
  unfold Dat.fetched Dat.blockOf iblk; rw [A_eq]; rfl

theorem before_2 (c : Dev nD) (t : Fin cfg0.N) (d) : (dat V c).before 2 t d = iblk V c 2 t := by
  have hk : ∀ t, (cfg0.win 2).cut (cfg0.grid.coords t) ((dat V c).after 2 t) = (dat V c).blockOf 2 t := fun t => by
    rw [after_2]; unfold Dat.blockOf iblk; rw [A_eq]
  rw [(dat V c).before_in_eq_fetched 2 rfl (fun _ => rfl) (fun _ _ _ => rfl) hk t d]
  unfold Dat.fetched Dat.blockOf iblk; rw [A_eq]; rfl

theorem before_3 (c : Dev nD) (t : Fin cfg0.N) (d) : (dat V c).before 3 t d = iblk V c 3 t := by
  have hk : ∀ t, (cfg0.win 3).cut (cfg0.grid.coords t) ((dat V c).after 3 t) = (dat V c).blockOf 3 t := fun t => by
    rw [after_3]; unfold Dat.blockOf iblk; rw [A_eq]
  rw [(dat V c).before_in_eq_fetched 3 rfl (fun _ => rfl) (fun _ _ _ => rfl) hk t d]
  unfold Dat.fetched Dat.blockOf iblk; rw [A_eq]; rfl

/-! ## The body at a point of the grid -/

/-- The body at point `t`, called on the windows' current buffers — the inputs' at their blocks, the output's at
    anything — leaves the inputs' as they were and the output's at `out` of the four blocks; the invariant and the
    core's tallies pass through unread. -/
theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d))
        ∗ (∃ d, owns (c : Thread nD τ) (st0_4 t) fullShare ((dat V c).before 4 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t)
            ∗ owns (c : Thread nD τ) (st0_4 t) fullShare ((dat V c).after 4 t))) := by
  unfold bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the five windows conjoined one by one. -/
theorem body_obligation (c : Dev nD) : BodyObligation (dat (F := F) V c) (defs₀ (F := F)) Variants.none () Set.univ := fun t => by
  rw [bigSep_W0, bigSep_W0]
  exact sound_body V c t

end Cert.KernelIdeal.Reg0
-- ==== Proof.KI.Reg1.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles of the two row tiles, the bias row and the output tile, and the nine taps of the filter. -/
abbrev rx : Rect S1x16x240x64 := Rect.unit (s := S1x16x240x64) ![0, 0, 0, 0] S1x16x240x64.size inb_S1x16x240x64_S1x16x240x64_0_0_0_0
abbrev rb : Rect S1x64 := Rect.unit (s := S1x64) ![0, 0] S1x64.size inb_S1x64_S1x64_0_0
abbrev ro : Rect S1x16x224x64 := Rect.unit (s := S1x16x224x64) ![0, 0, 0, 0] S1x16x224x64.size inb_S1x16x224x64_S1x16x224x64_0_0_0_0
abbrev rw00 : Rect S3x3x64x64 := Rect.unit (s := S3x3x64x64) ![0, 0, 0, 0] S1x1x64x64.size inb_S3x3x64x64_S1x1x64x64_0_0_0_0
abbrev rw01 : Rect S3x3x64x64 := Rect.unit (s := S3x3x64x64) ![0, 1, 0, 0] S1x1x64x64.size inb_S3x3x64x64_S1x1x64x64_0_1_0_0
abbrev rw02 : Rect S3x3x64x64 := Rect.unit (s := S3x3x64x64) ![0, 2, 0, 0] S1x1x64x64.size inb_S3x3x64x64_S1x1x64x64_0_2_0_0
abbrev rw10 : Rect S3x3x64x64 := Rect.unit (s := S3x3x64x64) ![1, 0, 0, 0] S1x1x64x64.size inb_S3x3x64x64_S1x1x64x64_1_0_0_0
abbrev rw11 : Rect S3x3x64x64 := Rect.unit (s := S3x3x64x64) ![1, 1, 0, 0] S1x1x64x64.size inb_S3x3x64x64_S1x1x64x64_1_1_0_0
abbrev rw12 : Rect S3x3x64x64 := Rect.unit (s := S3x3x64x64) ![1, 2, 0, 0] S1x1x64x64.size inb_S3x3x64x64_S1x1x64x64_1_2_0_0
abbrev rw20 : Rect S3x3x64x64 := Rect.unit (s := S3x3x64x64) ![2, 0, 0, 0] S1x1x64x64.size inb_S3x3x64x64_S1x1x64x64_2_0_0_0
abbrev rw21 : Rect S3x3x64x64 := Rect.unit (s := S3x3x64x64) ![2, 1, 0, 0] S1x1x64x64.size inb_S3x3x64x64_S1x1x64x64_2_1_0_0
abbrev rw22 : Rect S3x3x64x64 := Rect.unit (s := S3x3x64x64) ![2, 2, 0, 0] S1x1x64x64.size inb_S3x3x64x64_S1x1x64x64_2_2_0_0

/-- The accumulator before the ReLU: nine tap products added in the order (dy, dx) = (0,0), (0,1), …, (2,2), then the bias row,
    as a function of the two row tiles, the filter and the bias. -/
def acc (xa xb : Vec F S1x16x240x64 .bf16) (wk : Vec F S3x3x64x64 .bf16) (b : Vec F S1x64 .f32) : FVec F S3840x64 .f32 :=
  k1_pay8 (k1_pay2 (View.ld xa rx) (View.ld xb rx)) (k1_pay3 (View.ld xa rx) (View.ld xb rx)) (k1_pay4 (View.ld xa rx) (View.ld xb rx))
    (k1_pay5 (View.ld xa rx) (View.ld xb rx) (View.ld wk rw00) (View.ld wk rw01) (View.ld wk rw02))
    (k1_pay6 (View.ld xa rx) (View.ld xb rx)) (k1_pay7 (View.ld wk rw10))
    (View.ld wk rw11) (View.ld wk rw12) (View.ld wk rw20) (View.ld wk rw21) (View.ld wk rw22) (View.ld b rb)

/-- What the body leaves in the output tile's buffer: one covering store of the rectified, cropped accumulator. -/
def out (xa xb : Vec F S1x16x240x64 .bf16) (wk : Vec F S3x3x64x64 .bf16) (b : Vec F S1x64 .f32) : Vec F S1x16x224x64 .bf16 :=
  View.canon [⟨ro, k1_pay1 (acc xa xb wk b) (k1_pay9 (F := F))⟩]

/-- The proof data of the region on core `c`: arrays as found; inputs left at their blocks, the output tile at `out` of them;
    the invariant the scoped rest and the generator register (`Pipeline.ΦA`); nothing owed; the image array's share halved between the two row-tile windows that read it, full shares elsewhere. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by
  dsimp only [dat]

/-- The invariant, the tallies owed and each window's share of its array, projected. -/
theorem Φ_eq (c : Dev nD) (t : Fin (cfg1.N + 1)) : (dat V c).Φ t = Pipeline.ΦA spec1 c := rfl
theorem owed_eq (c : Dev nD) (t : Fin (cfg1.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

/-- The store tiles the output buffer, so it covers it. -/
theorem cover_out (p0 : Vec F S1x16x224x64 .bf16) (y : S1x16x224x64.Idx) :
    ∃ pc ∈ ([⟨ro, p0⟩] : List (View.Piece (Elt F) S1x16x224x64 .bf16)), y ∈ pc.1.set :=
  View.cover_of_tiled [⟨ro, p0⟩] S1x16x224x64.size (by rfl) y

set_option maxHeartbeats 2000000 in
/-- The body on whole staging memrefs: the four inputs at read contents, the output at anything, runs to the
    continuation holding the inputs as they were and the output tile at `out` of them. -/
theorem sound_kernel (c : Dev nD) (E : Set ℕ) (i : grid1.Coords)
    (arg2 : Memref sig .tc .vmem S1x16x240x64 .bf16) (harg2 : arg2.IsWhole) (arg3 : Memref sig .tc .vmem S1x16x240x64 .bf16) (harg3 : arg3.IsWhole)
    (arg4 : Memref sig .tc .vmem S3x3x64x64 .bf16) (harg4 : arg4.IsWhole) (arg5 : Memref sig .tc .vmem S1x64 .f32) (harg5 : arg5.IsWhole)
    (arg6 : Memref sig .tc .vmem S1x16x224x64 .bf16) (harg6 : arg6.IsWhole)
    (x0 x1 : Vec F S1x16x240x64 .bf16) (x2 : Vec F S3x3x64x64 .bf16) (x3 : Vec F S1x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE (defs₀ (F := F)) Variants.none c none) E
          (cc1__conv_kernel i arg2 harg2 arg3 harg3 arg4 harg4 arg5 harg5 arg6 harg6) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _)]
  unfold out acc
  sl_unfold_words
  rfl

/-! ## The input windows' buffers before the body

An input window's buffer holds the window's block of its array at every point, fetched there or not: at a point that
does not fetch it the block index has not moved since the last fetch, and the body leaves the buffer as it found it.
(The filter and the bias are fetched once, at the first point; the two row tiles at every point.) -/

theorem before_0 (c : Dev nD) (t : Fin cfg1.N) (d) : (dat V c).before 0 t d = iblk V c 0 t := by
  have hk : ∀ t, (cfg1.win 0).cut (cfg1.grid.coords t) ((dat V c).after 0 t) = (dat V c).blockOf 0 t := fun t => by
    rw [after_0]; unfold Dat.blockOf iblk; rw [A_eq]
  rw [(dat V c).before_in_eq_fetched 0 rfl (fun _ => rfl) (fun _ _ _ => rfl) hk t d]
  unfold Dat.fetched Dat.blockOf iblk; rw [A_eq]; rfl

theorem before_1 (c : Dev nD) (t : Fin cfg1.N) (d) : (dat V c).before 1 t d = iblk V c 1 t := by
  have hk : ∀ t, (cfg1.win 1).cut (cfg1.grid.coords t) ((dat V c).after 1 t) = (dat V c).blockOf 1 t := fun t => by
    rw [after_1]; unfold Dat.blockOf iblk; rw [A_eq]
  rw [(dat V c).before_in_eq_fetched 1 rfl (fun _ => rfl) (fun _ _ _ => rfl) hk t d]
  unfold Dat.fetched Dat.blockOf iblk; rw [A_eq]; rfl

theorem before_2 (c : Dev nD) (t : Fin cfg1.N) (d) : (dat V c).before 2 t d = iblk V c 2 t := by
  have hk : ∀ t, (cfg1.win 2).cut (cfg1.grid.coords t) ((dat V c).after 2 t) = (dat V c).blockOf 2 t := fun t => by
    rw [after_2]; unfold Dat.blockOf iblk; rw [A_eq]
  rw [(dat V c).before_in_eq_fetched 2 rfl (fun _ => rfl) (fun _ _ _ => rfl) hk t d]
  unfold Dat.fetched Dat.blockOf iblk; rw [A_eq]; rfl

theorem before_3 (c : Dev nD) (t : Fin cfg1.N) (d) : (dat V c).before 3 t d = iblk V c 3 t := by
  have hk : ∀ t, (cfg1.win 3).cut (cfg1.grid.coords t) ((dat V c).after 3 t) = (dat V c).blockOf 3 t := fun t => by
    rw [after_3]; unfold Dat.blockOf iblk; rw [A_eq]
  rw [(dat V c).before_in_eq_fetched 3 rfl (fun _ => rfl) (fun _ _ _ => rfl) hk t d]
  unfold Dat.fetched Dat.blockOf iblk; rw [A_eq]; rfl

/-! ## The body at a point of the grid -/

/-- The body at point `t`, called on the windows' current buffers — the inputs' at their blocks, the output's at
    anything — leaves the inputs' as they were and the output's at `out` of the four blocks; the invariant and the
    core's tallies pass through unread. -/
theorem sound_body (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t)
            ∗ owns (c : Thread nD τ) (st1_3 t) fullShare ((dat V c).after 3 t)
            ∗ owns (c : Thread nD τ) (st1_4 t) fullShare ((dat V c).after 4 t))) := by
  unfold bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the five windows conjoined one by one. -/
theorem body_obligation (c : Dev nD) : BodyObligation (dat (F := F) V c) (defs₀ (F := F)) Variants.none () Set.univ := fun t => by
  rw [bigSep_W1, bigSep_W1]
  exact sound_body V c t

end Cert.KernelIdeal.Reg1
-- ==== Proof.KI.Reg2.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

/-! # Region 2: the per-image L1 distance of one of the earlier feature levels

The grid is 16 images by 49 row tiles.  At point (n, q) the body adds, to every entry of the (1, 8, 128) result tile of
image n, the sum over the 128 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 128 × 512 row tile of image n,
    resp. n + 16; for the result the (1, 8, 128) tile of image n. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The result tile set to zero: what the body stores first at q = 0. -/
abbrev zeroTile : Vec F S1x8x128 .f32 := k2_pay1 (F := F)

/-- One point's work: the tile-wide sum of |x − y| added to every entry of the carried tile `acc`. -/
abbrev addDist (c : Dev nD) (t : Fin cfg2.N) (acc : Vec F S1x8x128 .f32) : Vec F S1x8x128 .f32 :=
  k2_pay2 (tile V c 0 t) (tile V c 1 t) acc

/-- THE RUNNING SUM: the result tile after the body at grid position `n` — started from zero where the row tile is the
    first of its image (n ≡ 0 mod 49), else continued from the position before. -/
def running (c : Dev nD) : (n : ℕ) → n < cfg2.N → Vec F S1x8x128 .f32
  | 0, hn => addDist V c ⟨0, hn⟩ zeroTile
  | n + 1, hn => addDist V c ⟨n + 1, hn⟩ (if (n + 1) % 49 = 0 then zeroTile else running c n (Nat.lt_of_succ_lt hn))

theorem running_first (c : Dev nD) (t : Fin cfg2.N) (h0 : t.val % 49 = 0) :
    running V c t.val t.isLt = addDist V c t zeroTile := by
  obtain ⟨n, hn⟩ := t
  cases n with
  | zero => show running V c 0 hn = _; rw [running]
  | succ n =>
    have h0' : (n + 1) % 49 = 0 := h0
    show running V c (n + 1) hn = _
    rw [running, if_pos h0']

theorem running_next (c : Dev nD) (t : Fin cfg2.N) (h0 : ¬ t.val % 49 = 0) :
    running V c t.val t.isLt = addDist V c t (running V c (t.val - 1) (Nat.lt_of_le_of_lt (Nat.sub_le _ _) t.isLt)) := by
  obtain ⟨n, hn⟩ := t
  cases n with
  | zero => exact absurd (Nat.zero_mod 49) h0
  | succ n =>
    have h0' : ¬ (n + 1) % 49 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => running V c t.val t.isLt
  Φ _ := Pipeline.ΦA spec2 c
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]

theorem after_x (c : Dev nD) (t : Fin cfg2.N) : (dat V c).after 0 t = tile V c 0 t := by dsimp only [dat]
theorem after_y (c : Dev nD) (t : Fin cfg2.N) : (dat V c).after 1 t = tile V c 1 t := by dsimp only [dat]
theorem after_sum (c : Dev nD) (t : Fin cfg2.N) : (dat V c).after 2 t = running V c t.val t.isLt := by dsimp only [dat]

/-- Each input's current buffer holds its tile when the body runs. -/
theorem before_x (c : Dev nD) (t : Fin cfg2.N) (d) : (dat V c).before 0 t d = tile V c 0 t := by
  rw [Dat.before_fetched _ 0 t (fetch2_0 t) d]
  unfold Dat.fetched Dat.blockOf tile
  rw [A_eq]; try rfl
theorem before_y (c : Dev nD) (t : Fin cfg2.N) (d) : (dat V c).before 1 t d = tile V c 1 t := by
  rw [Dat.before_fetched _ 1 t (fetch2_1 t) d]
  unfold Dat.fetched Dat.blockOf tile
  rw [A_eq]; try rfl
/-- Within an image (q ≠ 0) the result's buffer holds the running sum of the position before. -/
theorem before_sum (c : Dev nD) (t : Fin cfg2.N) (h0 : ¬ t.val % 49 = 0) (d) :
    (dat V c).before 2 t d = running V c (t.val - 1) (Nat.lt_of_le_of_lt (Nat.sub_le _ _) t.isLt) := by
  have hN : t.val < 16 * 49 := lt_of_lt_of_eq t.isLt (show cfg2.N = 16 * 49 from N_2)
  rw [Dat.before_out_kept _ 2 rfl t (by omega)
    (Bool.eq_false_iff.mpr fun h => by have := (flush2_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid2.Coords) : Prop :=
  (Scalar.cmpi .ne (Scalar.extui (Scalar.cmpi .eq (BitVec.ofNat 32 (i 1).val) 0#32)) 0#32) = 1#1

/-- Along the grid's row-major order it holds at the positions ≡ 0 (mod 49). -/
theorem firstTile_iff : ∀ t : Fin cfg2.N, firstTile (grid2.coords t) ↔ t.val % 49 = 0 :=
  (by decide +kernel : ∀ t : Fin grid2.N, firstTile (grid2.coords t) ↔ t.val % 49 = 0)

set_option maxHeartbeats 1000000 in
/-- At the first row tile of an image (q = 0): whatever the result's buffer held, it is set to zero, and the tile's sum
    of |x − y| is added to that. -/
theorem kernel_first (c : Dev nD) (E : Set ℕ) (i : grid2.Coords)
    (ax : Memref sig .tc .vmem S1x128x512 .bf16) (hax : ax.IsWhole) (ay : Memref sig .tc .vmem S1x128x512 .bf16) (hay : ay.IsWhole)
    (ao : Memref sig .tc .vmem S1x8x128 .f32) (hao : ao.IsWhole) (hq : firstTile i)
    (x y : Vec F S1x128x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k2_pay2 x y (k2_pay1 (F := F)))) -∗ K ⟨⟩))
      ⊢ wp frame (wpE (defs₀ (F := F)) Variants.none c none) E (cc2__l1_kernel i ax hax ay hay ao hao) K := by
  simp only [cc2__l1_kernel_eq_skeleton]; unfold cc2__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid2.Coords)
    (ax : Memref sig .tc .vmem S1x128x512 .bf16) (hax : ax.IsWhole) (ay : Memref sig .tc .vmem S1x128x512 .bf16) (hay : ay.IsWhole)
    (ao : Memref sig .tc .vmem S1x8x128 .f32) (hao : ao.IsWhole) (hq : ¬ firstTile i)
    (x y : Vec F S1x128x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k2_pay2 x y acc)) -∗ K ⟨⟩))
      ⊢ wp frame (wpE (defs₀ (F := F)) Variants.none c none) E (cc2__l1_kernel i ax hax ay hay ao hao) K := by
  simp only [cc2__l1_kernel_eq_skeleton]; unfold cc2__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg2.N) :
    bodyPre V c t ⊢ wp frame (wpE (defs₀ (F := F)) Variants.none c none) Set.univ (bodyAt2 (F := F) t) (fun _ => bodyPost V c t) := by
  unfold bodyPre bodyPost bodyAt2
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 49 = 0
  · rw [running_first V c t h0]
    iintro ⟨HΦ, Ho, ⟨%d0, H0⟩, ⟨%d1, H1⟩, ⟨%d2, H2⟩⟩
    iapply (kernel_first c Set.univ (grid2.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid2.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.KI.Reg3.lean ====
/-
  REGION 3 of the network: 2×2 max pooling of the first stage, [32, 224, 112, 2, 64] → [32, 112, 112, 64].
  A grid of 32 × 14 points; at point (n, r) the input window is rows 16r … 16r+15 of image n, each row as
  112 column pairs of 64 channels, and the output window is the 8 pooled rows 8r … 8r+7. The body reads the
  whole input block, takes the maximum over each column pair and then over each pair of rows, and stores
  the whole output block. This module holds, for any float model: the blocks, what the body leaves, the
  body's triple, the proof data and the body obligation.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Reg3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers as the region finds them.
variable (V : (c : Dev nD) → (b : Ref sig .tc) → Buf (Elt F) ((c : Thread nD τ).loc b))

/-! ## The blocks -/

/-- Window \`w\`'s block at point \`t\`: its array, as the region finds it, read through the block's view. -/
def blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## What the body leaves -/

/-- The pooled block of an input block \`x\` (16 rows × 112 column pairs × 64 channels): the maximum over each
    column pair, then over each pair of rows — 8 rows × 112 columns × 64 channels. -/
def pooled (x : Vec F S1x16x112x2x64 .bf16) : Vec F S1x8x112x64 .bf16 := k3_pay1 x

/-! ## The body's triple -/

/-- The body on whole staging memrefs, the input's at contents \`x\` and the output's at anything, runs to the
    continuation holding the input's as it was and the output's at \`pooled x\`. -/
theorem kernel_triple (c : Dev nD) (E : Set ℕ) (i : grid3.Coords)
    (arg2 : Memref sig .tc .vmem S1x16x112x2x64 .bf16) (harg2 : arg2.IsWhole)
    (arg3 : Memref sig .tc .vmem S1x8x112x64 .bf16) (harg3 : arg3.IsWhole)
    (x : Vec F S1x16x112x2x64 .bf16) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (pooled x)) -∗ K ⟨⟩))
      ⊢ wp frame (wpE (defs₀ (F := F)) Variants.none c none) E (cc3__pool_kernel i arg2 harg2 arg3 harg3) K := by
  rw [cc3__pool_kernel_eq_skeleton]
  unfold cc3__pool_kernel_skel owns
  iintro ⟨⟨%fx, %hx, Hx⟩, ⟨%d, %fy, -, Hy⟩, Hk⟩
  subst hx
  sl_exec
  sl_step
  iapply Hk
  isplitl [Hx]
  · iexists fx; isplitr
    · ipureintro; rfl
    · iexact Hx
  iexists _; isplitr
  swap
  · iexact Hy
  ipureintro
  have z4 : (![0, 0, 0, 0] : Fin S1x8x112x64.rank → Nat) = fun _ => 0 := by
    funext a; fin_cases a <;> rfl
  have z5 : (![0, 0, 0, 0, 0] : Fin S1x16x112x2x64.rank → Nat) = fun _ => 0 := by
    funext a; fin_cases a <;> rfl
  refine (View.read_writes_eq_canon _ _ _ ?_).trans ?_
  · intro y
    exact ⟨_, List.mem_singleton_self _, View.mem_set_unit_zero z4 inb_S1x8x112x64_S1x8x112x64_0_0_0_0 y⟩
  · rw [View.canon_unit_zero z4, View.readAt_eq_ld, View.ld_unit_zero z5]
    rfl

/-! ## The proof data -/

/-- The proof data of the region on core \`c\`: the two arrays as the region finds them; after the body at point
    \`t\` the input's buffer at its block and the output's at the pooled block; the invariant the scoped rest and
    the generator register, untouched; nothing owed; full shares. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => pooled (blk V c 0 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = pooled (blk V c 0 t) := by dsimp only [dat]

/-- The input's current staging buffer holds its block when the body runs: it is fetched at every point. -/
theorem before_0 (c : Dev nD) (t : Fin cfg3.N) (d) : (dat V c).before 0 t d = blk V c 0 t := by
  unfold Dat.before
  rw [if_pos (fetch3_0 t)]
  unfold Dat.fetched Dat.blockOf blk
  rw [A_eq]
  rfl

/-! ## The body obligation -/

theorem body_obligation (c : Dev nD) :
    BodyObligation (dat (F := F) V c) (defs₀ (F := F)) Variants.none () Set.univ := fun t => by
  rw [bigSep_W3, bigSep_W3]
  show iprop(Pipeline.ΦA spec3 c ∗ (dat V c).owesAt () t.castSucc
        ∗ (∃ d, owns (c : Thread nD τ) (st3_0 t) fullShare ((dat V c).before 0 t d))
        ∗ (∃ d, owns (c : Thread nD τ) (st3_1 t) fullShare ((dat V c).before 1 t d)))
      ⊢ wp frame (wpE (defs₀ (F := F)) Variants.none c none) Set.univ (bodyAt3 t) (fun _ =>
          iprop(Pipeline.ΦA spec3 c ∗ (dat V c).owesAt () t.castSucc
            ∗ owns (c : Thread nD τ) (st3_0 t) fullShare ((dat V c).after 0 t)
            ∗ owns (c : Thread nD τ) (st3_1 t) fullShare ((dat V c).after 1 t)))
  simp only [before_0, after_0, after_1]
  iintro ⟨HΦ, Ho, ⟨%d0, Hin⟩, ⟨%d1, Hout⟩⟩
  iapply (kernel_triple c Set.univ _ _ _ _ _ (blk V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

end Cert.KernelIdeal.Reg3
-- ==== Proof.KI.Reg4.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-block rectangles of the two row tiles, the bias row and the output tile, and the nine taps of the filter. -/
abbrev rx : Rect S1x16x128x64 := Rect.unit (s := S1x16x128x64) ![0, 0, 0, 0] S1x16x128x64.size inb_S1x16x128x64_S1x16x128x64_0_0_0_0
abbrev rb : Rect S1x128 := Rect.unit (s := S1x128) ![0, 0] S1x128.size inb_S1x128_S1x128_0_0
abbrev ro : Rect S1x16x112x128 := Rect.unit (s := S1x16x112x128) ![0, 0, 0, 0] S1x16x112x128.size inb_S1x16x112x128_S1x16x112x128_0_0_0_0
abbrev rw00 : Rect S3x3x64x128 := Rect.unit (s := S3x3x64x128) ![0, 0, 0, 0] S1x1x64x128.size inb_S3x3x64x128_S1x1x64x128_0_0_0_0
abbrev rw01 : Rect S3x3x64x128 := Rect.unit (s := S3x3x64x128) ![0, 1, 0, 0] S1x1x64x128.size inb_S3x3x64x128_S1x1x64x128_0_1_0_0
abbrev rw02 : Rect S3x3x64x128 := Rect.unit (s := S3x3x64x128) ![0, 2, 0, 0] S1x1x64x128.size inb_S3x3x64x128_S1x1x64x128_0_2_0_0
abbrev rw10 : Rect S3x3x64x128 := Rect.unit (s := S3x3x64x128) ![1, 0, 0, 0] S1x1x64x128.size inb_S3x3x64x128_S1x1x64x128_1_0_0_0
abbrev rw11 : Rect S3x3x64x128 := Rect.unit (s := S3x3x64x128) ![1, 1, 0, 0] S1x1x64x128.size inb_S3x3x64x128_S1x1x64x128_1_1_0_0
abbrev rw12 : Rect S3x3x64x128 := Rect.unit (s := S3x3x64x128) ![1, 2, 0, 0] S1x1x64x128.size inb_S3x3x64x128_S1x1x64x128_1_2_0_0
abbrev rw20 : Rect S3x3x64x128 := Rect.unit (s := S3x3x64x128) ![2, 0, 0, 0] S1x1x64x128.size inb_S3x3x64x128_S1x1x64x128_2_0_0_0
abbrev rw21 : Rect S3x3x64x128 := Rect.unit (s := S3x3x64x128) ![2, 1, 0, 0] S1x1x64x128.size inb_S3x3x64x128_S1x1x64x128_2_1_0_0
abbrev rw22 : Rect S3x3x64x128 := Rect.unit (s := S3x3x64x128) ![2, 2, 0, 0] S1x1x64x128.size inb_S3x3x64x128_S1x1x64x128_2_2_0_0

/-- The accumulator before the ReLU: nine tap products added in the order (dy, dx) = (0,0), (0,1), …, (2,2), then the bias row,
    as a function of the two row tiles, the filter and the bias. -/
def acc (xa xb : Vec F S1x16x128x64 .bf16) (wk : Vec F S3x3x64x128 .bf16) (b : Vec F S1x128 .f32) : FVec F S2048x128 .f32 :=
  k4_pay8 (k4_pay2 (View.ld xa rx) (View.ld xb rx)) (k4_pay3 (View.ld xa rx) (View.ld xb rx)) (k4_pay4 (View.ld xa rx) (View.ld xb rx))
    (k4_pay5 (View.ld xa rx) (View.ld xb rx) (View.ld wk rw00) (View.ld wk rw01) (View.ld wk rw02))
    (k4_pay6 (View.ld xa rx) (View.ld xb rx)) (k4_pay7 (View.ld wk rw10))
    (View.ld wk rw11) (View.ld wk rw12) (View.ld wk rw20) (View.ld wk rw21) (View.ld wk rw22) (View.ld b rb)

/-- What the body leaves in the output tile's buffer: one covering store of the rectified, cropped accumulator. -/
def out (xa xb : Vec F S1x16x128x64 .bf16) (wk : Vec F S3x3x64x128 .bf16) (b : Vec F S1x128 .f32) : Vec F S1x16x112x128 .bf16 :=
  View.canon [⟨ro, k4_pay1 (acc xa xb wk b) (k4_pay9 (F := F))⟩]

/-- The proof data of the region on core `c`: arrays as found; inputs left at their blocks, the output tile at `out` of them;
    the invariant the scoped rest and the generator register (`Pipeline.ΦA`); nothing owed; the image array's share halved between the two row-tile windows that read it, full shares elsewhere. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec4 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg4.W) : (dat V c).A w = V c (Pipeline.arrRef spec4 w) := by
  dsimp only [dat]

/-- The invariant, the tallies owed and each window's share of its array, projected. -/
theorem Φ_eq (c : Dev nD) (t : Fin (cfg4.N + 1)) : (dat V c).Φ t = Pipeline.ΦA spec4 c := rfl
theorem owed_eq (c : Dev nD) (t : Fin (cfg4.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) :
    (dat V c).after 4 t = out (iblk V c 0 t) (iblk V c 1 t) (iblk V c 2 t) (iblk V c 3 t) := by dsimp only [dat]

/-- The store tiles the output buffer, so it covers it. -/
theorem cover_out (p0 : Vec F S1x16x112x128 .bf16) (y : S1x16x112x128.Idx) :
    ∃ pc ∈ ([⟨ro, p0⟩] : List (View.Piece (Elt F) S1x16x112x128 .bf16)), y ∈ pc.1.set :=
  View.cover_of_tiled [⟨ro, p0⟩] S1x16x112x128.size (by rfl) y

set_option maxHeartbeats 2000000 in
/-- The body on whole staging memrefs: the four inputs at read contents, the output at anything, runs to the
    continuation holding the inputs as they were and the output tile at `out` of them. -/
theorem sound_kernel (c : Dev nD) (E : Set ℕ) (i : grid4.Coords)
    (arg2 : Memref sig .tc .vmem S1x16x128x64 .bf16) (harg2 : arg2.IsWhole) (arg3 : Memref sig .tc .vmem S1x16x128x64 .bf16) (harg3 : arg3.IsWhole)
    (arg4 : Memref sig .tc .vmem S3x3x64x128 .bf16) (harg4 : arg4.IsWhole) (arg5 : Memref sig .tc .vmem S1x128 .f32) (harg5 : arg5.IsWhole)
    (arg6 : Memref sig .tc .vmem S1x16x112x128 .bf16) (harg6 : arg6.IsWhole)
    (x0 x1 : Vec F S1x16x128x64 .bf16) (x2 : Vec F S3x3x64x128 .bf16) (x3 : Vec F S1x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE (defs₀ (F := F)) Variants.none c none) E
          (cc4__conv_kernel i arg2 harg2 arg3 harg3 arg4 harg4 arg5 harg5 arg6 harg6) K := by
  simp only [cc4__conv_kernel_eq_skeleton]; unfold cc4__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _)]
  unfold out acc
  sl_unfold_words
  rfl

/-! ## The input windows' buffers before the body

An input window's buffer holds the window's block of its array at every point, fetched there or not: at a point that
does not fetch it the block index has not moved since the last fetch, and the body leaves the buffer as it found it.
(The filter and the bias are fetched once, at the first point; the two row tiles at every point.) -/

theorem before_0 (c : Dev nD) (t : Fin cfg4.N) (d) : (dat V c).before 0 t d = iblk V c 0 t := by
  have hk : ∀ t, (cfg4.win 0).cut (cfg4.grid.coords t) ((dat V c).after 0 t) = (dat V c).blockOf 0 t := fun t => by
    rw [after_0]; unfold Dat.blockOf iblk; rw [A_eq]
  rw [(dat V c).before_in_eq_fetched 0 rfl (fun _ => rfl) (fun _ _ _ => rfl) hk t d]
  unfold Dat.fetched Dat.blockOf iblk; rw [A_eq]; rfl

theorem before_1 (c : Dev nD) (t : Fin cfg4.N) (d) : (dat V c).before 1 t d = iblk V c 1 t := by
  have hk : ∀ t, (cfg4.win 1).cut (cfg4.grid.coords t) ((dat V c).after 1 t) = (dat V c).blockOf 1 t := fun t => by
    rw [after_1]; unfold Dat.blockOf iblk; rw [A_eq]
  rw [(dat V c).before_in_eq_fetched 1 rfl (fun _ => rfl) (fun _ _ _ => rfl) hk t d]
  unfold Dat.fetched Dat.blockOf iblk; rw [A_eq]; rfl

theorem before_2 (c : Dev nD) (t : Fin cfg4.N) (d) : (dat V c).before 2 t d = iblk V c 2 t := by
  have hk : ∀ t, (cfg4.win 2).cut (cfg4.grid.coords t) ((dat V c).after 2 t) = (dat V c).blockOf 2 t := fun t => by
    rw [after_2]; unfold Dat.blockOf iblk; rw [A_eq]
  rw [(dat V c).before_in_eq_fetched 2 rfl (fun _ => rfl) (fun _ _ _ => rfl) hk t d]
  unfold Dat.fetched Dat.blockOf iblk; rw [A_eq]; rfl

theorem before_3 (c : Dev nD) (t : Fin cfg4.N) (d) : (dat V c).before 3 t d = iblk V c 3 t := by
  have hk : ∀ t, (cfg4.win 3).cut (cfg4.grid.coords t) ((dat V c).after 3 t) = (dat V c).blockOf 3 t := fun t => by
    rw [after_3]; unfold Dat.blockOf iblk; rw [A_eq]
  rw [(dat V c).before_in_eq_fetched 3 rfl (fun _ => rfl) (fun _ _ _ => rfl) hk t d]
  unfold Dat.fetched Dat.blockOf iblk; rw [A_eq]; rfl

/-! ## The body at a point of the grid -/

/-- The body at point `t`, called on the windows' current buffers — the inputs' at their blocks, the output's at
    anything — leaves the inputs' as they were and the output's at `out` of the four blocks; the invariant and the
    core's tallies pass through unread. -/
theorem sound_body (c : Dev nD) (t : Fin cfg4.N) :
    iprop((dat V c).Φ t.castSucc ∗ (dat V c).owesAt () t.castSucc
        ∗ (∃ d, owns (c : Thread nD τ) (st4_0 t) fullShare ((dat V c).before 0 t d))
        ∗ (∃ d, owns (c : Thread nD τ) (st4_1 t) fullShare ((dat V c).before 1 t d))
        ∗ (∃ d, owns (c : Thread nD τ) (st4_2 t) fullShare ((dat V c).before 2 t d))
        ∗ (∃ d, owns (c : Thread nD τ) (st4_3 t) fullShare ((dat V c).before 3 t d))
        ∗ (∃ d, owns (c : Thread nD τ) (st4_4 t) fullShare ((dat V c).before 4 t d)))
      ⊢ wp frame (wpE (defs₀ (F := F)) Variants.none c none) Set.univ (bodyAt4 t) (fun _ =>
          iprop((dat V c).Φ t.succ ∗ (dat V c).owesAt () t.succ
            ∗ owns (c : Thread nD τ) (st4_0 t) fullShare ((dat V c).after 0 t)
            ∗ owns (c : Thread nD τ) (st4_1 t) fullShare ((dat V c).after 1 t)
            ∗ owns (c : Thread nD τ) (st4_2 t) fullShare ((dat V c).after 2 t)
            ∗ owns (c : Thread nD τ) (st4_3 t) fullShare ((dat V c).after 3 t)
            ∗ owns (c : Thread nD τ) (st4_4 t) fullShare ((dat V c).after 4 t))) := by
  unfold bodyAt4
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the five windows conjoined one by one. -/
theorem body_obligation (c : Dev nD) : BodyObligation (dat (F := F) V c) (defs₀ (F := F)) Variants.none () Set.univ := fun t => by
  rw [bigSep_W4, bigSep_W4]
  exact sound_body V c t

end Cert.KernelIdeal.Reg4
-- ==== Proof.KI.Reg5.lean ====
/-
  The 3×3 convolution 128 → 128 with bias and ReLU on a batch of 32 images of 112×112 (kernel-side program, pallas
  region 5), 7 row tile(s) of 16 rows per image.  The padded input (128 rows of 128 columns per image) is handed
  to TWO windows of one array: row tile r and row tile r + 1.  The body stacks both row blocks and a zero tail into one slab of
  4224 pixel rows, and for each horizontal tap dx lane-concatenates the three vertically shifted slab windows (row offsets
  dx, dx+128, dx+256) into one operand of depth 3·128, multiplied with plane dx of the [3, 384, 128] weight array:
  three products of contraction depth 384 summed, then bias, max with 0, and the 112 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The rectangles the body reads and writes -/

/-- A whole row block of the padded input (either window). -/
abbrev rX : Rect S1x16x128x128 := Rect.unit (s := S1x16x128x128) ![0, 0, 0, 0] S1x16x128x128.size Gen.inb_S1x16x128x128_S1x16x128x128_0_0_0_0
/-- Plane `dx = 0, 1, 2` of the weights. -/
abbrev rK0 : Rect S3x384x128 := Rect.unit (s := S3x384x128) ![0, 0, 0] S1x384x128.size Gen.inb_S3x384x128_S1x384x128_0_0_0
abbrev rK1 : Rect S3x384x128 := Rect.unit (s := S3x384x128) ![1, 0, 0] S1x384x128.size Gen.inb_S3x384x128_S1x384x128_1_0_0
abbrev rK2 : Rect S3x384x128 := Rect.unit (s := S3x384x128) ![2, 0, 0] S1x384x128.size Gen.inb_S3x384x128_S1x384x128_2_0_0
/-- The bias row. -/
abbrev rB : Rect S1x128 := Rect.unit (s := S1x128) ![0, 0] S1x128.size Gen.inb_S1x128_S1x128_0_0
/-- The whole output tile. -/
abbrev rY : Rect S1x16x112x128 := Rect.unit (s := S1x16x112x128) ![0, 0, 0, 0] S1x16x112x128.size Gen.inb_S1x16x112x128_S1x16x112x128_0_0_0_0

/-! ## What the body computes -/

/-- The three depth-768 products summed, one row per padded pixel position (28 · 32) and one column per output
    channel: from the upper row block `xa`, the lower row block `xb` and the weights `wk`. -/
def acc (xa xb : Vec F S1x16x128x128 .bf16) (wk : Vec F S3x384x128 .bf16) : FVec F S2048x128 .f32 :=
  k5_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x16x128x128 .bf16) (wk : Vec F S3x384x128 .bf16) (b : Vec F S1x128 .f32) : Vec F S1x16x112x128 .bf16 :=
  View.canon [⟨rY, k5_pay1 (acc xa xb wk) (View.ld b rB)⟩]

/-- The one store covers the tile. -/
theorem tile_cover (p : Vec F S1x16x112x128 .bf16) (y : S1x16x112x128.Idx) :
    ∃ pc ∈ ([⟨rY, p⟩] : List (View.Piece (Elt F) S1x16x112x128 .bf16)), y ∈ pc.1.set :=
  View.cover_of_tiled [⟨rY, p⟩] S1x16x112x128.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid5.Coords)
    (a0 : Memref sig .tc .vmem S1x16x128x128 .bf16) (h0 : a0.IsWhole) (a1 : Memref sig .tc .vmem S1x16x128x128 .bf16) (h1 : a1.IsWhole)
    (a2 : Memref sig .tc .vmem S3x384x128 .bf16) (h2 : a2.IsWhole) (a3 : Memref sig .tc .vmem S1x128 .f32) (h3 : a3.IsWhole)
    (a4 : Memref sig .tc .vmem S1x16x112x128 .bf16) (h4 : a4.IsWhole)
    (xa xb : Vec F S1x16x128x128 .bf16) (wk : Vec F S3x384x128 .bf16) (b : Vec F S1x128 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc5__conv_kernel i a0 h0 a1 h1 a2 h2 a3 h3 a4 h4) K := by
  simp only [cc5__conv_kernel_eq_skeleton]; unfold cc5__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec5 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg5.W) : (dat V c).A w = V c (Pipeline.arrRef spec5 w) := by
  dsimp only [dat]

/-- The invariant, the tallies and the shares, by name. -/
theorem Φ_eq (c : Dev nD) (t : Fin (cfg5.N + 1)) : (dat V c).Φ t = Pipeline.ΦA spec5 c := rfl
theorem owed_eq (c : Dev nD) (t : Fin (cfg5.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = blk V c 3 t := by dsimp only [dat]
/-- What the body leaves in the output window's buffer at point `t`. -/
theorem after_4 (c : Dev nD) (t : Fin cfg5.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg5.N) (d) : (dat V c).before 0 t d = blk V c 0 t := by
  have hkeep : ∀ t, (cfg5.win 0).cut (cfg5.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg5.N) (d) : (dat V c).before 1 t d = blk V c 1 t := by
  have hkeep : ∀ t, (cfg5.win 1).cut (cfg5.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg5.N) (d) : (dat V c).before 2 t d = blk V c 2 t := by
  have hkeep : ∀ t, (cfg5.win 2).cut (cfg5.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg5.N) (d) : (dat V c).before 3 t d = blk V c 3 t := by
  have hkeep : ∀ t, (cfg5.win 3).cut (cfg5.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg5.N) :
    iprop((dat V c).Φ t.castSucc ∗ (dat V c).owesAt () t.castSucc
        ∗ (∃ d, owns (c : Thread nD τ) (st5_0 t) fullShare ((dat V c).before 0 t d))
        ∗ (∃ d, owns (c : Thread nD τ) (st5_1 t) fullShare ((dat V c).before 1 t d))
        ∗ (∃ d, owns (c : Thread nD τ) (st5_2 t) fullShare ((dat V c).before 2 t d))
        ∗ (∃ d, owns (c : Thread nD τ) (st5_3 t) fullShare ((dat V c).before 3 t d))
        ∗ (∃ d, owns (c : Thread nD τ) (st5_4 t) fullShare ((dat V c).before 4 t d)))
      ⊢ wp frame (wpE (defs₀ (F := F)) Variants.none c none) Set.univ (bodyAt5 t) (fun _ =>
          iprop((dat V c).Φ t.succ ∗ (dat V c).owesAt () t.succ
            ∗ owns (c : Thread nD τ) (st5_0 t) fullShare ((dat V c).after 0 t)
            ∗ owns (c : Thread nD τ) (st5_1 t) fullShare ((dat V c).after 1 t)
            ∗ owns (c : Thread nD τ) (st5_2 t) fullShare ((dat V c).after 2 t)
            ∗ owns (c : Thread nD τ) (st5_3 t) fullShare ((dat V c).after 3 t)
            ∗ owns (c : Thread nD τ) (st5_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W5, bigSep_W5]
  exact body_at V c t

end Cert.KernelIdeal.Reg5
-- ==== Proof.KI.Reg6.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

/-! # Region 6: the per-image L1 distance of one of the earlier feature levels

The grid is 16 images by 28 row tiles.  At point (n, q) the body adds, to every entry of the (1, 8, 128) result tile of
image n, the sum over the 112 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.KernelIdeal.Reg6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 112 × 512 row tile of image n,
    resp. n + 16; for the result the (1, 8, 128) tile of image n. -/
def tile (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The result tile set to zero: what the body stores first at q = 0. -/
abbrev zeroTile : Vec F S1x8x128 .f32 := k6_pay1 (F := F)

/-- One point's work: the tile-wide sum of |x − y| added to every entry of the carried tile `acc`. -/
abbrev addDist (c : Dev nD) (t : Fin cfg6.N) (acc : Vec F S1x8x128 .f32) : Vec F S1x8x128 .f32 :=
  k6_pay2 (tile V c 0 t) (tile V c 1 t) acc

/-- THE RUNNING SUM: the result tile after the body at grid position `n` — started from zero where the row tile is the
    first of its image (n ≡ 0 mod 28), else continued from the position before. -/
def running (c : Dev nD) : (n : ℕ) → n < cfg6.N → Vec F S1x8x128 .f32
  | 0, hn => addDist V c ⟨0, hn⟩ zeroTile
  | n + 1, hn => addDist V c ⟨n + 1, hn⟩ (if (n + 1) % 28 = 0 then zeroTile else running c n (Nat.lt_of_succ_lt hn))

theorem running_first (c : Dev nD) (t : Fin cfg6.N) (h0 : t.val % 28 = 0) :
    running V c t.val t.isLt = addDist V c t zeroTile := by
  obtain ⟨n, hn⟩ := t
  cases n with
  | zero => show running V c 0 hn = _; rw [running]
  | succ n =>
    have h0' : (n + 1) % 28 = 0 := h0
    show running V c (n + 1) hn = _
    rw [running, if_pos h0']

theorem running_next (c : Dev nD) (t : Fin cfg6.N) (h0 : ¬ t.val % 28 = 0) :
    running V c t.val t.isLt = addDist V c t (running V c (t.val - 1) (Nat.lt_of_le_of_lt (Nat.sub_le _ _) t.isLt)) := by
  obtain ⟨n, hn⟩ := t
  cases n with
  | zero => exact absurd (Nat.zero_mod 28) h0
  | succ n =>
    have h0' : ¬ (n + 1) % 28 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg6 c where
  A w := V c (Pipeline.arrRef spec6 w)
  after w t := match w with
    | ⟨0, _⟩ => tile V c 0 t
    | ⟨1, _⟩ => tile V c 1 t
    | ⟨2, _⟩ => running V c t.val t.isLt
  Φ _ := Pipeline.ΦA spec6 c
  q w := match w with
    | ⟨0, _⟩ => fullShare.left
    | ⟨1, _⟩ => fullShare.right
    | ⟨2, _⟩ => fullShare
  owed _ := 0

theorem A_eq (c : Dev nD) (w : Fin cfg6.W) : (dat V c).A w = V c (Pipeline.arrRef spec6 w) := by
  dsimp only [dat]

theorem after_x (c : Dev nD) (t : Fin cfg6.N) : (dat V c).after 0 t = tile V c 0 t := by dsimp only [dat]
theorem after_y (c : Dev nD) (t : Fin cfg6.N) : (dat V c).after 1 t = tile V c 1 t := by dsimp only [dat]
theorem after_sum (c : Dev nD) (t : Fin cfg6.N) : (dat V c).after 2 t = running V c t.val t.isLt := by dsimp only [dat]

/-- Each input's current buffer holds its tile when the body runs. -/
theorem before_x (c : Dev nD) (t : Fin cfg6.N) (d) : (dat V c).before 0 t d = tile V c 0 t := by
  rw [Dat.before_fetched _ 0 t (fetch6_0 t) d]
  unfold Dat.fetched Dat.blockOf tile
  rw [A_eq]; try rfl
theorem before_y (c : Dev nD) (t : Fin cfg6.N) (d) : (dat V c).before 1 t d = tile V c 1 t := by
  rw [Dat.before_fetched _ 1 t (fetch6_1 t) d]
  unfold Dat.fetched Dat.blockOf tile
  rw [A_eq]; try rfl
/-- Within an image (q ≠ 0) the result's buffer holds the running sum of the position before. -/
theorem before_sum (c : Dev nD) (t : Fin cfg6.N) (h0 : ¬ t.val % 28 = 0) (d) :
    (dat V c).before 2 t d = running V c (t.val - 1) (Nat.lt_of_le_of_lt (Nat.sub_le _ _) t.isLt) := by
  have hN : t.val < 16 * 28 := lt_of_lt_of_eq t.isLt (show cfg6.N = 16 * 28 from N_6)
  rw [Dat.before_out_kept _ 2 rfl t (by omega)
    (Bool.eq_false_iff.mpr fun h => by have := (flush6_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid6.Coords) : Prop :=
  (Scalar.cmpi .ne (Scalar.extui (Scalar.cmpi .eq (BitVec.ofNat 32 (i 1).val) 0#32)) 0#32) = 1#1

/-- Along the grid's row-major order it holds at the positions ≡ 0 (mod 28). -/
theorem firstTile_iff : ∀ t : Fin cfg6.N, firstTile (grid6.coords t) ↔ t.val % 28 = 0 :=
  (by decide +kernel : ∀ t : Fin grid6.N, firstTile (grid6.coords t) ↔ t.val % 28 = 0)

set_option maxHeartbeats 1000000 in
/-- At the first row tile of an image (q = 0): whatever the result's buffer held, it is set to zero, and the tile's sum
    of |x − y| is added to that. -/
theorem kernel_first (c : Dev nD) (E : Set ℕ) (i : grid6.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : firstTile i)
    (x y : Vec F S1x112x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k6_pay2 x y (k6_pay1 (F := F)))) -∗ K ⟨⟩))
      ⊢ wp frame (wpE (defs₀ (F := F)) Variants.none c none) E (cc6__l1_kernel i ax hax ay hay ao hao) K := by
  simp only [cc6__l1_kernel_eq_skeleton]; unfold cc6__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid6.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : ¬ firstTile i)
    (x y : Vec F S1x112x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k6_pay2 x y acc)) -∗ K ⟨⟩))
      ⊢ wp frame (wpE (defs₀ (F := F)) Variants.none c none) E (cc6__l1_kernel i ax hax ay hay ao hao) K := by
  simp only [cc6__l1_kernel_eq_skeleton]; unfold cc6__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))

/-- and what it returns. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg6.N) :
    bodyPre V c t ⊢ wp frame (wpE (defs₀ (F := F)) Variants.none c none) Set.univ (bodyAt6 (F := F) t) (fun _ => bodyPost V c t) := by
  unfold bodyPre bodyPost bodyAt6
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 28 = 0
  · rw [running_first V c t h0]
    iintro ⟨HΦ, Ho, ⟨%d0, H0⟩, ⟨%d1, H1⟩, ⟨%d2, H2⟩⟩
    iapply (kernel_first c Set.univ (grid6.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid6.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W6, bigSep_W6]
  exact sound_body V c t

end Cert.KernelIdeal.Reg6

end
-- ==== Proof.KI.Reg7.lean ====
/-
  REGION 7 of the network: 2×2 max pooling of the second stage, [32, 112, 56, 2, 128] → [32, 56, 56, 128].
  A grid of 32 × 7 points; at point (n, r) the input window is rows 16r … 16r+15 of image n, each row as
  56 column pairs of 128 channels, and the output window is the 8 pooled rows 8r … 8r+7. The body reads the
  whole input block, takes the maximum over each column pair and then over each pair of rows, and stores
  the whole output block. This module holds, for any float model: the blocks, what the body leaves, the
  body's triple, the proof data and the body obligation.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Reg7

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers as the region finds them.
variable (V : (c : Dev nD) → (b : Ref sig .tc) → Buf (Elt F) ((c : Thread nD τ).loc b))

/-! ## The blocks -/

/-- Window \`w\`'s block at point \`t\`: its array, as the region finds it, read through the block's view. -/
def blk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## What the body leaves -/

/-- The pooled block of an input block \`x\` (16 rows × 56 column pairs × 128 channels): the maximum over each
    column pair, then over each pair of rows — 8 rows × 56 columns × 128 channels. -/
def pooled (x : Vec F S1x16x56x2x128 .bf16) : Vec F S1x8x56x128 .bf16 := k7_pay1 x

/-! ## The body's triple -/

/-- The body on whole staging memrefs, the input's at contents \`x\` and the output's at anything, runs to the
    continuation holding the input's as it was and the output's at \`pooled x\`. -/
theorem kernel_triple (c : Dev nD) (E : Set ℕ) (i : grid7.Coords)
    (arg2 : Memref sig .tc .vmem S1x16x56x2x128 .bf16) (harg2 : arg2.IsWhole)
    (arg3 : Memref sig .tc .vmem S1x8x56x128 .bf16) (harg3 : arg3.IsWhole)
    (x : Vec F S1x16x56x2x128 .bf16) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (pooled x)) -∗ K ⟨⟩))
      ⊢ wp frame (wpE (defs₀ (F := F)) Variants.none c none) E (cc7__pool_kernel i arg2 harg2 arg3 harg3) K := by
  rw [cc7__pool_kernel_eq_skeleton]
  unfold cc7__pool_kernel_skel owns
  iintro ⟨⟨%fx, %hx, Hx⟩, ⟨%d, %fy, -, Hy⟩, Hk⟩
  subst hx
  sl_exec
  sl_step
  iapply Hk
  isplitl [Hx]
  · iexists fx; isplitr
    · ipureintro; rfl
    · iexact Hx
  iexists _; isplitr
  swap
  · iexact Hy
  ipureintro
  have z4 : (![0, 0, 0, 0] : Fin S1x8x56x128.rank → Nat) = fun _ => 0 := by
    funext a; fin_cases a <;> rfl
  have z5 : (![0, 0, 0, 0, 0] : Fin S1x16x56x2x128.rank → Nat) = fun _ => 0 := by
    funext a; fin_cases a <;> rfl
  refine (View.read_writes_eq_canon _ _ _ ?_).trans ?_
  · intro y
    exact ⟨_, List.mem_singleton_self _, View.mem_set_unit_zero z4 inb_S1x8x56x128_S1x8x56x128_0_0_0_0 y⟩
  · rw [View.canon_unit_zero z4, View.readAt_eq_ld, View.ld_unit_zero z5]
    rfl

/-! ## The proof data -/

/-- The proof data of the region on core \`c\`: the two arrays as the region finds them; after the body at point
    \`t\` the input's buffer at its block and the output's at the pooled block; the invariant the scoped rest and
    the generator register, untouched; nothing owed; full shares. -/
def dat (c : Dev nD) : Dat τ (Elt F) Unit ℕ (UR sig nD τ) ℕ cfg7 c where
  A w := V c (Pipeline.arrRef spec7 w)
  after w t := match w with
    | ⟨0, _⟩ => blk V c 0 t
    | ⟨1, _⟩ => pooled (blk V c 0 t)
  Φ _ := Pipeline.ΦA spec7 c
  q _ := fullShare
  owed _ := 0

theorem A_eq (c : Dev nD) (w : Fin cfg7.W) : (dat V c).A w = V c (Pipeline.arrRef spec7 w) := by
  dsimp only [dat]

theorem after_0 (c : Dev nD) (t : Fin cfg7.N) : (dat V c).after 0 t = blk V c 0 t := by dsimp only [dat]
theorem after_1 (c : Dev nD) (t : Fin cfg7.N) : (dat V c).after 1 t = pooled (blk V c 0 t) := by dsimp only [dat]

/-- The input's current staging buffer holds its block when the body runs: it is fetched at every point. -/
theorem before_0 (c : Dev nD) (t : Fin cfg7.N) (d) : (dat V c).before 0 t d = blk V c 0 t := by
  unfold Dat.before
  rw [if_pos (fetch7_0 t)]
  unfold Dat.fetched Dat.blockOf blk
  rw [A_eq]
  rfl

/-! ## The body obligation -/

theorem body_obligation (c : Dev nD) :
    BodyObligation (dat (F := F) V c) (defs₀ (F := F)) Variants.none () Set.univ := fun t => by
  rw [bigSep_W7, bigSep_W7]
  show iprop(Pipeline.ΦA spec7 c ∗ (dat V c).owesAt () t.castSucc
        ∗ (∃ d, owns (c : Thread nD τ) (st7_0 t) fullShare ((dat V c).before 0 t d))
        ∗ (∃ d, owns (c : Thread nD τ) (st7_1 t) fullShare ((dat V c).before 1 t d)))
      ⊢ wp frame (wpE (defs₀ (F := F)) Variants.none c none) Set.univ (bodyAt7 t) (fun _ =>
          iprop(Pipeline.ΦA spec7 c ∗ (dat V c).owesAt () t.castSucc
            ∗ owns (c : Thread nD τ) (st7_0 t) fullShare ((dat V c).after 0 t)
            ∗ owns (c : Thread nD τ) (st7_1 t) fullShare ((dat V c).after 1 t)))
  simp only [before_0, after_0, after_1]
  iintro ⟨HΦ, Ho, ⟨%d0, Hin⟩, ⟨%d1, Hout⟩⟩
  iapply (kernel_triple c Set.univ _ _ _ _ _ (blk V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

end Cert.KernelIdeal.Reg7
-- ==== Proof.KI.Reg8.lean ====
/-
  The 3×3 convolution 128 → 256 with bias and ReLU on a batch of 32 images of 56×56 (kernel-side program, pallas
  region 8), 2 row tile(s) of 28 rows per image.  The padded input (84 rows of 64 columns per image) is handed
  to TWO windows of one array: row tile r and row tile r + 1.  The body stacks both row blocks and a zero tail into one slab of
  3648 pixel rows, and for each horizontal tap dx lane-concatenates the three vertically shifted slab windows (row offsets
  dx, dx+64, dx+128) into one operand of depth 3·128, multiplied with plane dx of the [3, 384, 256] weight array:
  three products of contraction depth 384 summed, then bias, max with 0, and the 56 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The rectangles the body reads and writes -/

/-- A whole row block of the padded input (either window). -/
abbrev rX : Rect S1x28x64x128 := Rect.unit (s := S1x28x64x128) ![0, 0, 0, 0] S1x28x64x128.size Gen.inb_S1x28x64x128_S1x28x64x128_0_0_0_0
/-- Plane `dx = 0, 1, 2` of the weights. -/
abbrev rK0 : Rect S3x384x256 := Rect.unit (s := S3x384x256) ![0, 0, 0] S1x384x256.size Gen.inb_S3x384x256_S1x384x256_0_0_0
abbrev rK1 : Rect S3x384x256 := Rect.unit (s := S3x384x256) ![1, 0, 0] S1x384x256.size Gen.inb_S3x384x256_S1x384x256_1_0_0
abbrev rK2 : Rect S3x384x256 := Rect.unit (s := S3x384x256) ![2, 0, 0] S1x384x256.size Gen.inb_S3x384x256_S1x384x256_2_0_0
/-- The bias row. -/
abbrev rB : Rect S1x256 := Rect.unit (s := S1x256) ![0, 0] S1x256.size Gen.inb_S1x256_S1x256_0_0
/-- The whole output tile. -/
abbrev rY : Rect S1x28x56x256 := Rect.unit (s := S1x28x56x256) ![0, 0, 0, 0] S1x28x56x256.size Gen.inb_S1x28x56x256_S1x28x56x256_0_0_0_0

/-! ## What the body computes -/

/-- The three depth-768 products summed, one row per padded pixel position (28 · 32) and one column per output
    channel: from the upper row block `xa`, the lower row block `xb` and the weights `wk`. -/
def acc (xa xb : Vec F S1x28x64x128 .bf16) (wk : Vec F S3x384x256 .bf16) : FVec F S1792x256 .f32 :=
  k8_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x64x128 .bf16) (wk : Vec F S3x384x256 .bf16) (b : Vec F S1x256 .f32) : Vec F S1x28x56x256 .bf16 :=
  View.canon [⟨rY, k8_pay1 (acc xa xb wk) (View.ld b rB)⟩]

/-- The one store covers the tile. -/
theorem tile_cover (p : Vec F S1x28x56x256 .bf16) (y : S1x28x56x256.Idx) :
    ∃ pc ∈ ([⟨rY, p⟩] : List (View.Piece (Elt F) S1x28x56x256 .bf16)), y ∈ pc.1.set :=
  View.cover_of_tiled [⟨rY, p⟩] S1x28x56x256.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid8.Coords)
    (a0 : Memref sig .tc .vmem S1x28x64x128 .bf16) (h0 : a0.IsWhole) (a1 : Memref sig .tc .vmem S1x28x64x128 .bf16) (h1 : a1.IsWhole)
    (a2 : Memref sig .tc .vmem S3x384x256 .bf16) (h2 : a2.IsWhole) (a3 : Memref sig .tc .vmem S1x256 .f32) (h3 : a3.IsWhole)
    (a4 : Memref sig .tc .vmem S1x28x56x256 .bf16) (h4 : a4.IsWhole)
    (xa xb : Vec F S1x28x64x128 .bf16) (wk : Vec F S3x384x256 .bf16) (b : Vec F S1x256 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc8__conv_kernel i a0 h0 a1 h1 a2 h2 a3 h3 a4 h4) K := by
  simp only [cc8__conv_kernel_eq_skeleton]; unfold cc8__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec8 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg8.W) : (dat V c).A w = V c (Pipeline.arrRef spec8 w) := by
  dsimp only [dat]

/-- The invariant, the tallies and the shares, by name. -/
theorem Φ_eq (c : Dev nD) (t : Fin (cfg8.N + 1)) : (dat V c).Φ t = Pipeline.ΦA spec8 c := rfl
theorem owed_eq (c : Dev nD) (t : Fin (cfg8.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg8.N) : (dat V c).after 0 t = blk V c 0 t := by dsimp only [dat]
theorem after_1 (c : Dev nD) (t : Fin cfg8.N) : (dat V c).after 1 t = blk V c 1 t := by dsimp only [dat]
theorem after_2 (c : Dev nD) (t : Fin cfg8.N) : (dat V c).after 2 t = blk V c 2 t := by dsimp only [dat]
theorem after_3 (c : Dev nD) (t : Fin cfg8.N) : (dat V c).after 3 t = blk V c 3 t := by dsimp only [dat]
/-- What the body leaves in the output window's buffer at point `t`. -/
theorem after_4 (c : Dev nD) (t : Fin cfg8.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg8.N) (d) : (dat V c).before 0 t d = blk V c 0 t := by
  have hkeep : ∀ t, (cfg8.win 0).cut (cfg8.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg8.N) (d) : (dat V c).before 1 t d = blk V c 1 t := by
  have hkeep : ∀ t, (cfg8.win 1).cut (cfg8.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg8.N) (d) : (dat V c).before 2 t d = blk V c 2 t := by
  have hkeep : ∀ t, (cfg8.win 2).cut (cfg8.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg8.N) (d) : (dat V c).before 3 t d = blk V c 3 t := by
  have hkeep : ∀ t, (cfg8.win 3).cut (cfg8.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg8.N) :
    iprop((dat V c).Φ t.castSucc ∗ (dat V c).owesAt () t.castSucc
        ∗ (∃ d, owns (c : Thread nD τ) (st8_0 t) fullShare ((dat V c).before 0 t d))
        ∗ (∃ d, owns (c : Thread nD τ) (st8_1 t) fullShare ((dat V c).before 1 t d))
        ∗ (∃ d, owns (c : Thread nD τ) (st8_2 t) fullShare ((dat V c).before 2 t d))
        ∗ (∃ d, owns (c : Thread nD τ) (st8_3 t) fullShare ((dat V c).before 3 t d))
        ∗ (∃ d, owns (c : Thread nD τ) (st8_4 t) fullShare ((dat V c).before 4 t d)))
      ⊢ wp frame (wpE (defs₀ (F := F)) Variants.none c none) Set.univ (bodyAt8 t) (fun _ =>
          iprop((dat V c).Φ t.succ ∗ (dat V c).owesAt () t.succ
            ∗ owns (c : Thread nD τ) (st8_0 t) fullShare ((dat V c).after 0 t)
            ∗ owns (c : Thread nD τ) (st8_1 t) fullShare ((dat V c).after 1 t)
            ∗ owns (c : Thread nD τ) (st8_2 t) fullShare ((dat V c).after 2 t)
            ∗ owns (c : Thread nD τ) (st8_3 t) fullShare ((dat V c).after 3 t)
            ∗ owns (c : Thread nD τ) (st8_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W8, bigSep_W8]
  exact body_at V c t

end Cert.KernelIdeal.Reg8
-- ==== Proof.KI.Reg9.lean ====
/-
  The 3×3 convolution 256 → 256 with bias and ReLU on a batch of 32 images of 56×56 (kernel-side program, pallas
  region 9), 2 row tile(s) of 28 rows per image.  The padded input (84 rows of 64 columns per image) is handed
  to TWO windows of one array: row tile r and row tile r + 1.  The body stacks both row blocks and a zero tail into one slab of
  3648 pixel rows, and for each horizontal tap dx lane-concatenates the three vertically shifted slab windows (row offsets
  dx, dx+64, dx+128) into one operand of depth 3·256, multiplied with plane dx of the [3, 768, 256] weight array:
  three products of contraction depth 768 summed, then bias, max with 0, and the 56 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The rectangles the body reads and writes -/

/-- A whole row block of the padded input (either window). -/
abbrev rX : Rect S1x28x64x256 := Rect.unit (s := S1x28x64x256) ![0, 0, 0, 0] S1x28x64x256.size Gen.inb_S1x28x64x256_S1x28x64x256_0_0_0_0
/-- Plane `dx = 0, 1, 2` of the weights. -/
abbrev rK0 : Rect S3x768x256 := Rect.unit (s := S3x768x256) ![0, 0, 0] S1x768x256.size Gen.inb_S3x768x256_S1x768x256_0_0_0
abbrev rK1 : Rect S3x768x256 := Rect.unit (s := S3x768x256) ![1, 0, 0] S1x768x256.size Gen.inb_S3x768x256_S1x768x256_1_0_0
abbrev rK2 : Rect S3x768x256 := Rect.unit (s := S3x768x256) ![2, 0, 0] S1x768x256.size Gen.inb_S3x768x256_S1x768x256_2_0_0
/-- The bias row. -/
abbrev rB : Rect S1x256 := Rect.unit (s := S1x256) ![0, 0] S1x256.size Gen.inb_S1x256_S1x256_0_0
/-- The whole output tile. -/
abbrev rY : Rect S1x28x56x256 := Rect.unit (s := S1x28x56x256) ![0, 0, 0, 0] S1x28x56x256.size Gen.inb_S1x28x56x256_S1x28x56x256_0_0_0_0

/-! ## What the body computes -/

/-- The three depth-768 products summed, one row per padded pixel position (28 · 32) and one column per output
    channel: from the upper row block `xa`, the lower row block `xb` and the weights `wk`. -/
def acc (xa xb : Vec F S1x28x64x256 .bf16) (wk : Vec F S3x768x256 .bf16) : FVec F S1792x256 .f32 :=
  k9_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x64x256 .bf16) (wk : Vec F S3x768x256 .bf16) (b : Vec F S1x256 .f32) : Vec F S1x28x56x256 .bf16 :=
  View.canon [⟨rY, k9_pay1 (acc xa xb wk) (View.ld b rB)⟩]

/-- The one store covers the tile. -/
theorem tile_cover (p : Vec F S1x28x56x256 .bf16) (y : S1x28x56x256.Idx) :
    ∃ pc ∈ ([⟨rY, p⟩] : List (View.Piece (Elt F) S1x28x56x256 .bf16)), y ∈ pc.1.set :=
  View.cover_of_tiled [⟨rY, p⟩] S1x28x56x256.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid9.Coords)
    (a0 : Memref sig .tc .vmem S1x28x64x256 .bf16) (h0 : a0.IsWhole) (a1 : Memref sig .tc .vmem S1x28x64x256 .bf16) (h1 : a1.IsWhole)
    (a2 : Memref sig .tc .vmem S3x768x256 .bf16) (h2 : a2.IsWhole) (a3 : Memref sig .tc .vmem S1x256 .f32) (h3 : a3.IsWhole)
    (a4 : Memref sig .tc .vmem S1x28x56x256 .bf16) (h4 : a4.IsWhole)
    (xa xb : Vec F S1x28x64x256 .bf16) (wk : Vec F S3x768x256 .bf16) (b : Vec F S1x256 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc9__conv_kernel i a0 h0 a1 h1 a2 h2 a3 h3 a4 h4) K := by
  simp only [cc9__conv_kernel_eq_skeleton]; unfold cc9__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec9 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg9.W) : (dat V c).A w = V c (Pipeline.arrRef spec9 w) := by
  dsimp only [dat]

/-- The invariant, the tallies and the shares, by name. -/
theorem Φ_eq (c : Dev nD) (t : Fin (cfg9.N + 1)) : (dat V c).Φ t = Pipeline.ΦA spec9 c := rfl
theorem owed_eq (c : Dev nD) (t : Fin (cfg9.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg9.N) : (dat V c).after 0 t = blk V c 0 t := by dsimp only [dat]
theorem after_1 (c : Dev nD) (t : Fin cfg9.N) : (dat V c).after 1 t = blk V c 1 t := by dsimp only [dat]
theorem after_2 (c : Dev nD) (t : Fin cfg9.N) : (dat V c).after 2 t = blk V c 2 t := by dsimp only [dat]
theorem after_3 (c : Dev nD) (t : Fin cfg9.N) : (dat V c).after 3 t = blk V c 3 t := by dsimp only [dat]
/-- What the body leaves in the output window's buffer at point `t`. -/
theorem after_4 (c : Dev nD) (t : Fin cfg9.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg9.N) (d) : (dat V c).before 0 t d = blk V c 0 t := by
  have hkeep : ∀ t, (cfg9.win 0).cut (cfg9.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg9.N) (d) : (dat V c).before 1 t d = blk V c 1 t := by
  have hkeep : ∀ t, (cfg9.win 1).cut (cfg9.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg9.N) (d) : (dat V c).before 2 t d = blk V c 2 t := by
  have hkeep : ∀ t, (cfg9.win 2).cut (cfg9.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg9.N) (d) : (dat V c).before 3 t d = blk V c 3 t := by
  have hkeep : ∀ t, (cfg9.win 3).cut (cfg9.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg9.N) :
    iprop((dat V c).Φ t.castSucc ∗ (dat V c).owesAt () t.castSucc
        ∗ (∃ d, owns (c : Thread nD τ) (st9_0 t) fullShare ((dat V c).before 0 t d))
        ∗ (∃ d, owns (c : Thread nD τ) (st9_1 t) fullShare ((dat V c).before 1 t d))
        ∗ (∃ d, owns (c : Thread nD τ) (st9_2 t) fullShare ((dat V c).before 2 t d))
        ∗ (∃ d, owns (c : Thread nD τ) (st9_3 t) fullShare ((dat V c).before 3 t d))
        ∗ (∃ d, owns (c : Thread nD τ) (st9_4 t) fullShare ((dat V c).before 4 t d)))
      ⊢ wp frame (wpE (defs₀ (F := F)) Variants.none c none) Set.univ (bodyAt9 t) (fun _ =>
          iprop((dat V c).Φ t.succ ∗ (dat V c).owesAt () t.succ
            ∗ owns (c : Thread nD τ) (st9_0 t) fullShare ((dat V c).after 0 t)
            ∗ owns (c : Thread nD τ) (st9_1 t) fullShare ((dat V c).after 1 t)
            ∗ owns (c : Thread nD τ) (st9_2 t) fullShare ((dat V c).after 2 t)
            ∗ owns (c : Thread nD τ) (st9_3 t) fullShare ((dat V c).after 3 t)
            ∗ owns (c : Thread nD τ) (st9_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W9, bigSep_W9]
  exact body_at V c t

end Cert.KernelIdeal.Reg9
-- ==== Proof.KI.Reg10.lean ====
/-
  The 3×3 convolution 256 → 256 with bias and ReLU on a batch of 32 images of 56×56 (kernel-side program, pallas
  region 10), 2 row tile(s) of 28 rows per image.  The padded input (84 rows of 64 columns per image) is handed
  to TWO windows of one array: row tile r and row tile r + 1.  The body stacks both row blocks and a zero tail into one slab of
  3648 pixel rows, and for each horizontal tap dx lane-concatenates the three vertically shifted slab windows (row offsets
  dx, dx+64, dx+128) into one operand of depth 3·256, multiplied with plane dx of the [3, 768, 256] weight array:
  three products of contraction depth 768 summed, then bias, max with 0, and the 56 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The rectangles the body reads and writes -/

/-- A whole row block of the padded input (either window). -/
abbrev rX : Rect S1x28x64x256 := Rect.unit (s := S1x28x64x256) ![0, 0, 0, 0] S1x28x64x256.size Gen.inb_S1x28x64x256_S1x28x64x256_0_0_0_0
/-- Plane `dx = 0, 1, 2` of the weights. -/
abbrev rK0 : Rect S3x768x256 := Rect.unit (s := S3x768x256) ![0, 0, 0] S1x768x256.size Gen.inb_S3x768x256_S1x768x256_0_0_0
abbrev rK1 : Rect S3x768x256 := Rect.unit (s := S3x768x256) ![1, 0, 0] S1x768x256.size Gen.inb_S3x768x256_S1x768x256_1_0_0
abbrev rK2 : Rect S3x768x256 := Rect.unit (s := S3x768x256) ![2, 0, 0] S1x768x256.size Gen.inb_S3x768x256_S1x768x256_2_0_0
/-- The bias row. -/
abbrev rB : Rect S1x256 := Rect.unit (s := S1x256) ![0, 0] S1x256.size Gen.inb_S1x256_S1x256_0_0
/-- The whole output tile. -/
abbrev rY : Rect S1x28x56x256 := Rect.unit (s := S1x28x56x256) ![0, 0, 0, 0] S1x28x56x256.size Gen.inb_S1x28x56x256_S1x28x56x256_0_0_0_0

/-! ## What the body computes -/

/-- The three depth-768 products summed, one row per padded pixel position (28 · 32) and one column per output
    channel: from the upper row block `xa`, the lower row block `xb` and the weights `wk`. -/
def acc (xa xb : Vec F S1x28x64x256 .bf16) (wk : Vec F S3x768x256 .bf16) : FVec F S1792x256 .f32 :=
  k10_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x64x256 .bf16) (wk : Vec F S3x768x256 .bf16) (b : Vec F S1x256 .f32) : Vec F S1x28x56x256 .bf16 :=
  View.canon [⟨rY, k10_pay1 (acc xa xb wk) (View.ld b rB)⟩]

/-- The one store covers the tile. -/
theorem tile_cover (p : Vec F S1x28x56x256 .bf16) (y : S1x28x56x256.Idx) :
    ∃ pc ∈ ([⟨rY, p⟩] : List (View.Piece (Elt F) S1x28x56x256 .bf16)), y ∈ pc.1.set :=
  View.cover_of_tiled [⟨rY, p⟩] S1x28x56x256.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid10.Coords)
    (a0 : Memref sig .tc .vmem S1x28x64x256 .bf16) (h0 : a0.IsWhole) (a1 : Memref sig .tc .vmem S1x28x64x256 .bf16) (h1 : a1.IsWhole)
    (a2 : Memref sig .tc .vmem S3x768x256 .bf16) (h2 : a2.IsWhole) (a3 : Memref sig .tc .vmem S1x256 .f32) (h3 : a3.IsWhole)
    (a4 : Memref sig .tc .vmem S1x28x56x256 .bf16) (h4 : a4.IsWhole)
    (xa xb : Vec F S1x28x64x256 .bf16) (wk : Vec F S3x768x256 .bf16) (b : Vec F S1x256 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc10__conv_kernel i a0 h0 a1 h1 a2 h2 a3 h3 a4 h4) K := by
  simp only [cc10__conv_kernel_eq_skeleton]; unfold cc10__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg10 c where
  A w := V c (Pipeline.arrRef spec10 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec10 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg10.W) : (dat V c).A w = V c (Pipeline.arrRef spec10 w) := by
  dsimp only [dat]

/-- The invariant, the tallies and the shares, by name. -/
theorem Φ_eq (c : Dev nD) (t : Fin (cfg10.N + 1)) : (dat V c).Φ t = Pipeline.ΦA spec10 c := rfl
theorem owed_eq (c : Dev nD) (t : Fin (cfg10.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg10.N) : (dat V c).after 0 t = blk V c 0 t := by dsimp only [dat]
theorem after_1 (c : Dev nD) (t : Fin cfg10.N) : (dat V c).after 1 t = blk V c 1 t := by dsimp only [dat]
theorem after_2 (c : Dev nD) (t : Fin cfg10.N) : (dat V c).after 2 t = blk V c 2 t := by dsimp only [dat]
theorem after_3 (c : Dev nD) (t : Fin cfg10.N) : (dat V c).after 3 t = blk V c 3 t := by dsimp only [dat]
/-- What the body leaves in the output window's buffer at point `t`. -/
theorem after_4 (c : Dev nD) (t : Fin cfg10.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg10.N) (d) : (dat V c).before 0 t d = blk V c 0 t := by
  have hkeep : ∀ t, (cfg10.win 0).cut (cfg10.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg10.N) (d) : (dat V c).before 1 t d = blk V c 1 t := by
  have hkeep : ∀ t, (cfg10.win 1).cut (cfg10.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg10.N) (d) : (dat V c).before 2 t d = blk V c 2 t := by
  have hkeep : ∀ t, (cfg10.win 2).cut (cfg10.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg10.N) (d) : (dat V c).before 3 t d = blk V c 3 t := by
  have hkeep : ∀ t, (cfg10.win 3).cut (cfg10.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg10.N) :
    iprop((dat V c).Φ t.castSucc ∗ (dat V c).owesAt () t.castSucc
        ∗ (∃ d, owns (c : Thread nD τ) (st10_0 t) fullShare ((dat V c).before 0 t d))
        ∗ (∃ d, owns (c : Thread nD τ) (st10_1 t) fullShare ((dat V c).before 1 t d))
        ∗ (∃ d, owns (c : Thread nD τ) (st10_2 t) fullShare ((dat V c).before 2 t d))
        ∗ (∃ d, owns (c : Thread nD τ) (st10_3 t) fullShare ((dat V c).before 3 t d))
        ∗ (∃ d, owns (c : Thread nD τ) (st10_4 t) fullShare ((dat V c).before 4 t d)))
      ⊢ wp frame (wpE (defs₀ (F := F)) Variants.none c none) Set.univ (bodyAt10 t) (fun _ =>
          iprop((dat V c).Φ t.succ ∗ (dat V c).owesAt () t.succ
            ∗ owns (c : Thread nD τ) (st10_0 t) fullShare ((dat V c).after 0 t)
            ∗ owns (c : Thread nD τ) (st10_1 t) fullShare ((dat V c).after 1 t)
            ∗ owns (c : Thread nD τ) (st10_2 t) fullShare ((dat V c).after 2 t)
            ∗ owns (c : Thread nD τ) (st10_3 t) fullShare ((dat V c).after 3 t)
            ∗ owns (c : Thread nD τ) (st10_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W10, bigSep_W10]
  exact body_at V c t

end Cert.KernelIdeal.Reg10
-- ==== Proof.KI.Reg11.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

/-! # Region 11: the per-image L1 distance of one of the earlier feature levels

The grid is 16 images by 14 row tiles.  At point (n, q) the body adds, to every entry of the (1, 8, 128) result tile of
image n, the sum over the 112 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.KernelIdeal.Reg11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 112 × 512 row tile of image n,
    resp. n + 16; for the result the (1, 8, 128) tile of image n. -/
def tile (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The result tile set to zero: what the body stores first at q = 0. -/
abbrev zeroTile : Vec F S1x8x128 .f32 := k11_pay1 (F := F)

/-- One point's work: the tile-wide sum of |x − y| added to every entry of the carried tile `acc`. -/
abbrev addDist (c : Dev nD) (t : Fin cfg11.N) (acc : Vec F S1x8x128 .f32) : Vec F S1x8x128 .f32 :=
  k11_pay2 (tile V c 0 t) (tile V c 1 t) acc

/-- THE RUNNING SUM: the result tile after the body at grid position `n` — started from zero where the row tile is the
    first of its image (n ≡ 0 mod 14), else continued from the position before. -/
def running (c : Dev nD) : (n : ℕ) → n < cfg11.N → Vec F S1x8x128 .f32
  | 0, hn => addDist V c ⟨0, hn⟩ zeroTile
  | n + 1, hn => addDist V c ⟨n + 1, hn⟩ (if (n + 1) % 14 = 0 then zeroTile else running c n (Nat.lt_of_succ_lt hn))

theorem running_first (c : Dev nD) (t : Fin cfg11.N) (h0 : t.val % 14 = 0) :
    running V c t.val t.isLt = addDist V c t zeroTile := by
  obtain ⟨n, hn⟩ := t
  cases n with
  | zero => show running V c 0 hn = _; rw [running]
  | succ n =>
    have h0' : (n + 1) % 14 = 0 := h0
    show running V c (n + 1) hn = _
    rw [running, if_pos h0']

theorem running_next (c : Dev nD) (t : Fin cfg11.N) (h0 : ¬ t.val % 14 = 0) :
    running V c t.val t.isLt = addDist V c t (running V c (t.val - 1) (Nat.lt_of_le_of_lt (Nat.sub_le _ _) t.isLt)) := by
  obtain ⟨n, hn⟩ := t
  cases n with
  | zero => exact absurd (Nat.zero_mod 14) h0
  | succ n =>
    have h0' : ¬ (n + 1) % 14 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg11 c where
  A w := V c (Pipeline.arrRef spec11 w)
  after w t := match w with
    | ⟨0, _⟩ => tile V c 0 t
    | ⟨1, _⟩ => tile V c 1 t
    | ⟨2, _⟩ => running V c t.val t.isLt
  Φ _ := Pipeline.ΦA spec11 c
  q w := match w with
    | ⟨0, _⟩ => fullShare.left
    | ⟨1, _⟩ => fullShare.right
    | ⟨2, _⟩ => fullShare
  owed _ := 0

theorem A_eq (c : Dev nD) (w : Fin cfg11.W) : (dat V c).A w = V c (Pipeline.arrRef spec11 w) := by
  dsimp only [dat]

theorem after_x (c : Dev nD) (t : Fin cfg11.N) : (dat V c).after 0 t = tile V c 0 t := by dsimp only [dat]
theorem after_y (c : Dev nD) (t : Fin cfg11.N) : (dat V c).after 1 t = tile V c 1 t := by dsimp only [dat]
theorem after_sum (c : Dev nD) (t : Fin cfg11.N) : (dat V c).after 2 t = running V c t.val t.isLt := by dsimp only [dat]

/-- Each input's current buffer holds its tile when the body runs. -/
theorem before_x (c : Dev nD) (t : Fin cfg11.N) (d) : (dat V c).before 0 t d = tile V c 0 t := by
  rw [Dat.before_fetched _ 0 t (fetch11_0 t) d]
  unfold Dat.fetched Dat.blockOf tile
  rw [A_eq]; try rfl
theorem before_y (c : Dev nD) (t : Fin cfg11.N) (d) : (dat V c).before 1 t d = tile V c 1 t := by
  rw [Dat.before_fetched _ 1 t (fetch11_1 t) d]
  unfold Dat.fetched Dat.blockOf tile
  rw [A_eq]; try rfl
/-- Within an image (q ≠ 0) the result's buffer holds the running sum of the position before. -/
theorem before_sum (c : Dev nD) (t : Fin cfg11.N) (h0 : ¬ t.val % 14 = 0) (d) :
    (dat V c).before 2 t d = running V c (t.val - 1) (Nat.lt_of_le_of_lt (Nat.sub_le _ _) t.isLt) := by
  have hN : t.val < 16 * 14 := lt_of_lt_of_eq t.isLt (show cfg11.N = 16 * 14 from N_11)
  rw [Dat.before_out_kept _ 2 rfl t (by omega)
    (Bool.eq_false_iff.mpr fun h => by have := (flush11_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid11.Coords) : Prop :=
  (Scalar.cmpi .ne (Scalar.extui (Scalar.cmpi .eq (BitVec.ofNat 32 (i 1).val) 0#32)) 0#32) = 1#1

/-- Along the grid's row-major order it holds at the positions ≡ 0 (mod 14). -/
theorem firstTile_iff : ∀ t : Fin cfg11.N, firstTile (grid11.coords t) ↔ t.val % 14 = 0 :=
  (by decide +kernel : ∀ t : Fin grid11.N, firstTile (grid11.coords t) ↔ t.val % 14 = 0)

set_option maxHeartbeats 1000000 in
/-- At the first row tile of an image (q = 0): whatever the result's buffer held, it is set to zero, and the tile's sum
    of |x − y| is added to that. -/
theorem kernel_first (c : Dev nD) (E : Set ℕ) (i : grid11.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : firstTile i)
    (x y : Vec F S1x112x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k11_pay2 x y (k11_pay1 (F := F)))) -∗ K ⟨⟩))
      ⊢ wp frame (wpE (defs₀ (F := F)) Variants.none c none) E (cc11__l1_kernel i ax hax ay hay ao hao) K := by
  simp only [cc11__l1_kernel_eq_skeleton]; unfold cc11__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid11.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : ¬ firstTile i)
    (x y : Vec F S1x112x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k11_pay2 x y acc)) -∗ K ⟨⟩))
      ⊢ wp frame (wpE (defs₀ (F := F)) Variants.none c none) E (cc11__l1_kernel i ax hax ay hay ao hao) K := by
  simp only [cc11__l1_kernel_eq_skeleton]; unfold cc11__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg11.N) : sProp 𝕄 :=
  iprop((dat V c).Φ t.castSucc ∗ (dat V c).owesAt () t.castSucc
    ∗ (∃ d, owns (c : Thread nD τ) (st11_0 t) fullShare ((dat V c).before 0 t d))
    ∗ (∃ d, owns (c : Thread nD τ) (st11_1 t) fullShare ((dat V c).before 1 t d))
    ∗ (∃ d, owns (c : Thread nD τ) (st11_2 t) fullShare ((dat V c).before 2 t d)))

/-- and what it returns. -/
def bodyPost (c : Dev nD) (t : Fin cfg11.N) : sProp 𝕄 :=
  iprop((dat V c).Φ t.succ ∗ (dat V c).owesAt () t.succ
    ∗ owns (c : Thread nD τ) (st11_0 t) fullShare ((dat V c).after 0 t)
    ∗ owns (c : Thread nD τ) (st11_1 t) fullShare ((dat V c).after 1 t)
    ∗ owns (c : Thread nD τ) (st11_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg11.N) :
    bodyPre V c t ⊢ wp frame (wpE (defs₀ (F := F)) Variants.none c none) Set.univ (bodyAt11 (F := F) t) (fun _ => bodyPost V c t) := by
  unfold bodyPre bodyPost bodyAt11
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 14 = 0
  · rw [running_first V c t h0]
    iintro ⟨HΦ, Ho, ⟨%d0, H0⟩, ⟨%d1, H1⟩, ⟨%d2, H2⟩⟩
    iapply (kernel_first c Set.univ (grid11.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid11.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W11, bigSep_W11]
  exact sound_body V c t

end Cert.KernelIdeal.Reg11

end
-- ==== Proof.KI.Reg12.lean ====
/-
  REGION 12 of the network: 2×2 max pooling of the third stage, [32, 56, 28, 2, 256] → [32, 28, 28, 256].
  A grid of 32 × 4 points; at point (n, r) the input window is rows 14r … 14r+13 of image n, each row as
  28 column pairs of 256 channels, and the output window is the 7 pooled rows 7r … 7r+6. The body reads the
  whole input block, takes the maximum over each column pair and then over each pair of rows, and stores
  the whole output block. This module holds, for any float model: the blocks, what the body leaves, the
  body's triple, the proof data and the body obligation.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Reg12

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers as the region finds them.
variable (V : (c : Dev nD) → (b : Ref sig .tc) → Buf (Elt F) ((c : Thread nD τ).loc b))

/-! ## The blocks -/

/-- Window \`w\`'s block at point \`t\`: its array, as the region finds it, read through the block's view. -/
def blk (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-! ## What the body leaves -/

/-- The pooled block of an input block \`x\` (14 rows × 28 column pairs × 256 channels): the maximum over each
    column pair, then over each pair of rows — 7 rows × 28 columns × 256 channels. -/
def pooled (x : Vec F S1x14x28x2x256 .bf16) : Vec F S1x7x28x256 .bf16 := k12_pay1 x

/-! ## The body's triple -/

/-- The body on whole staging memrefs, the input's at contents \`x\` and the output's at anything, runs to the
    continuation holding the input's as it was and the output's at \`pooled x\`. -/
theorem kernel_triple (c : Dev nD) (E : Set ℕ) (i : grid12.Coords)
    (arg2 : Memref sig .tc .vmem S1x14x28x2x256 .bf16) (harg2 : arg2.IsWhole)
    (arg3 : Memref sig .tc .vmem S1x7x28x256 .bf16) (harg3 : arg3.IsWhole)
    (x : Vec F S1x14x28x2x256 .bf16) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (pooled x)) -∗ K ⟨⟩))
      ⊢ wp frame (wpE (defs₀ (F := F)) Variants.none c none) E (cc12__pool_kernel i arg2 harg2 arg3 harg3) K := by
  rw [cc12__pool_kernel_eq_skeleton]
  unfold cc12__pool_kernel_skel owns
  iintro ⟨⟨%fx, %hx, Hx⟩, ⟨%d, %fy, -, Hy⟩, Hk⟩
  subst hx
  sl_exec
  sl_step
  iapply Hk
  isplitl [Hx]
  · iexists fx; isplitr
    · ipureintro; rfl
    · iexact Hx
  iexists _; isplitr
  swap
  · iexact Hy
  ipureintro
  have z4 : (![0, 0, 0, 0] : Fin S1x7x28x256.rank → Nat) = fun _ => 0 := by
    funext a; fin_cases a <;> rfl
  have z5 : (![0, 0, 0, 0, 0] : Fin S1x14x28x2x256.rank → Nat) = fun _ => 0 := by
    funext a; fin_cases a <;> rfl
  refine (View.read_writes_eq_canon _ _ _ ?_).trans ?_
  · intro y
    exact ⟨_, List.mem_singleton_self _, View.mem_set_unit_zero z4 inb_S1x7x28x256_S1x7x28x256_0_0_0_0 y⟩
  · rw [View.canon_unit_zero z4, View.readAt_eq_ld, View.ld_unit_zero z5]
    rfl

/-! ## The proof data -/

/-- The proof data of the region on core \`c\`: the two arrays as the region finds them; after the body at point
    \`t\` the input's buffer at its block and the output's at the pooled block; the invariant the scoped rest and
    the generator register, untouched; nothing owed; full shares. -/
def dat (c : Dev nD) : Dat τ (Elt F) Unit ℕ (UR sig nD τ) ℕ cfg12 c where
  A w := V c (Pipeline.arrRef spec12 w)
  after w t := match w with
    | ⟨0, _⟩ => blk V c 0 t
    | ⟨1, _⟩ => pooled (blk V c 0 t)
  Φ _ := Pipeline.ΦA spec12 c
  q _ := fullShare
  owed _ := 0

theorem A_eq (c : Dev nD) (w : Fin cfg12.W) : (dat V c).A w = V c (Pipeline.arrRef spec12 w) := by
  dsimp only [dat]

theorem after_0 (c : Dev nD) (t : Fin cfg12.N) : (dat V c).after 0 t = blk V c 0 t := by dsimp only [dat]
theorem after_1 (c : Dev nD) (t : Fin cfg12.N) : (dat V c).after 1 t = pooled (blk V c 0 t) := by dsimp only [dat]

/-- The input's current staging buffer holds its block when the body runs: it is fetched at every point. -/
theorem before_0 (c : Dev nD) (t : Fin cfg12.N) (d) : (dat V c).before 0 t d = blk V c 0 t := by
  unfold Dat.before
  rw [if_pos (fetch12_0 t)]
  unfold Dat.fetched Dat.blockOf blk
  rw [A_eq]
  rfl

/-! ## The body obligation -/

theorem body_obligation (c : Dev nD) :
    BodyObligation (dat (F := F) V c) (defs₀ (F := F)) Variants.none () Set.univ := fun t => by
  rw [bigSep_W12, bigSep_W12]
  show iprop(Pipeline.ΦA spec12 c ∗ (dat V c).owesAt () t.castSucc
        ∗ (∃ d, owns (c : Thread nD τ) (st12_0 t) fullShare ((dat V c).before 0 t d))
        ∗ (∃ d, owns (c : Thread nD τ) (st12_1 t) fullShare ((dat V c).before 1 t d)))
      ⊢ wp frame (wpE (defs₀ (F := F)) Variants.none c none) Set.univ (bodyAt12 t) (fun _ =>
          iprop(Pipeline.ΦA spec12 c ∗ (dat V c).owesAt () t.castSucc
            ∗ owns (c : Thread nD τ) (st12_0 t) fullShare ((dat V c).after 0 t)
            ∗ owns (c : Thread nD τ) (st12_1 t) fullShare ((dat V c).after 1 t)))
  simp only [before_0, after_0, after_1]
  iintro ⟨HΦ, Ho, ⟨%d0, Hin⟩, ⟨%d1, Hout⟩⟩
  iapply (kernel_triple c Set.univ _ _ _ _ _ (blk V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

end Cert.KernelIdeal.Reg12
-- ==== Proof.KI.Reg13.lean ====
/-
  The 3×3 convolution 256 → 512 with bias and ReLU on a batch of 32 images of 28×28 (kernel-side program, pallas
  region 13), one grid point per image.  The padded input (56 rows of 32 columns per image) is handed to TWO windows
  of one array: rows 0‥27 and rows 28‥55 of the image.  The body stacks both row blocks and a zero tail into one
  slab of 1824 pixel rows, and for each horizontal tap dx lane-concatenates the three vertically shifted slab
  windows (row offsets dx, dx+32, dx+64) into one operand of depth 3·256, multiplied with plane dx of the
  [3, 768, 512] weight array: three products of contraction depth 768 summed, then bias, max with 0, and the
  28 valid columns of each of the 28 rows stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The rectangles the body reads and writes -/

/-- A whole row block of the padded input (either window). -/
abbrev rX : Rect S1x28x32x256 := Rect.unit (s := S1x28x32x256) ![0, 0, 0, 0] S1x28x32x256.size Gen.inb_S1x28x32x256_S1x28x32x256_0_0_0_0
/-- Plane `dx = 0, 1, 2` of the weights. -/
abbrev rK0 : Rect S3x768x512 := Rect.unit (s := S3x768x512) ![0, 0, 0] S1x768x512.size Gen.inb_S3x768x512_S1x768x512_0_0_0
abbrev rK1 : Rect S3x768x512 := Rect.unit (s := S3x768x512) ![1, 0, 0] S1x768x512.size Gen.inb_S3x768x512_S1x768x512_1_0_0
abbrev rK2 : Rect S3x768x512 := Rect.unit (s := S3x768x512) ![2, 0, 0] S1x768x512.size Gen.inb_S3x768x512_S1x768x512_2_0_0
/-- The bias row. -/
abbrev rB : Rect S1x512 := Rect.unit (s := S1x512) ![0, 0] S1x512.size Gen.inb_S1x512_S1x512_0_0
/-- The whole output tile. -/
abbrev rY : Rect S1x28x28x512 := Rect.unit (s := S1x28x28x512) ![0, 0, 0, 0] S1x28x28x512.size Gen.inb_S1x28x28x512_S1x28x28x512_0_0_0_0

/-! ## What the body computes -/

/-- The three depth-768 products summed, one row per padded pixel position (28 · 32) and one column per output
    channel: from the upper row block `xa`, the lower row block `xb` and the weights `wk`. -/
def acc (xa xb : Vec F S1x28x32x256 .bf16) (wk : Vec F S3x768x512 .bf16) : FVec F S896x512 .f32 :=
  k13_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x32x256 .bf16) (wk : Vec F S3x768x512 .bf16) (b : Vec F S1x512 .f32) : Vec F S1x28x28x512 .bf16 :=
  View.canon [⟨rY, k13_pay1 (acc xa xb wk) (View.ld b rB)⟩]

/-- The one store covers the tile. -/
theorem tile_cover (p : Vec F S1x28x28x512 .bf16) (y : S1x28x28x512.Idx) :
    ∃ pc ∈ ([⟨rY, p⟩] : List (View.Piece (Elt F) S1x28x28x512 .bf16)), y ∈ pc.1.set :=
  View.cover_of_tiled [⟨rY, p⟩] S1x28x28x512.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid13.Coords)
    (a0 : Memref sig .tc .vmem S1x28x32x256 .bf16) (h0 : a0.IsWhole) (a1 : Memref sig .tc .vmem S1x28x32x256 .bf16) (h1 : a1.IsWhole)
    (a2 : Memref sig .tc .vmem S3x768x512 .bf16) (h2 : a2.IsWhole) (a3 : Memref sig .tc .vmem S1x512 .f32) (h3 : a3.IsWhole)
    (a4 : Memref sig .tc .vmem S1x28x28x512 .bf16) (h4 : a4.IsWhole)
    (xa xb : Vec F S1x28x32x256 .bf16) (wk : Vec F S3x768x512 .bf16) (b : Vec F S1x512 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc13__conv_kernel i a0 h0 a1 h1 a2 h2 a3 h3 a4 h4) K := by
  simp only [cc13__conv_kernel_eq_skeleton]; unfold cc13__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg13 c where
  A w := V c (Pipeline.arrRef spec13 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec13 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg13.W) : (dat V c).A w = V c (Pipeline.arrRef spec13 w) := by
  dsimp only [dat]

/-- The invariant, the tallies and the shares, by name. -/
theorem Φ_eq (c : Dev nD) (t : Fin (cfg13.N + 1)) : (dat V c).Φ t = Pipeline.ΦA spec13 c := rfl
theorem owed_eq (c : Dev nD) (t : Fin (cfg13.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg13.N) : (dat V c).after 0 t = blk V c 0 t := by dsimp only [dat]
theorem after_1 (c : Dev nD) (t : Fin cfg13.N) : (dat V c).after 1 t = blk V c 1 t := by dsimp only [dat]
theorem after_2 (c : Dev nD) (t : Fin cfg13.N) : (dat V c).after 2 t = blk V c 2 t := by dsimp only [dat]
theorem after_3 (c : Dev nD) (t : Fin cfg13.N) : (dat V c).after 3 t = blk V c 3 t := by dsimp only [dat]
/-- What the body leaves in the output window's buffer at point `t`. -/
theorem after_4 (c : Dev nD) (t : Fin cfg13.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg13.N) (d) : (dat V c).before 0 t d = blk V c 0 t := by
  have hkeep : ∀ t, (cfg13.win 0).cut (cfg13.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg13.N) (d) : (dat V c).before 1 t d = blk V c 1 t := by
  have hkeep : ∀ t, (cfg13.win 1).cut (cfg13.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg13.N) (d) : (dat V c).before 2 t d = blk V c 2 t := by
  have hkeep : ∀ t, (cfg13.win 2).cut (cfg13.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg13.N) (d) : (dat V c).before 3 t d = blk V c 3 t := by
  have hkeep : ∀ t, (cfg13.win 3).cut (cfg13.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg13.N) :
    iprop((dat V c).Φ t.castSucc ∗ (dat V c).owesAt () t.castSucc
        ∗ (∃ d, owns (c : Thread nD τ) (st13_0 t) fullShare ((dat V c).before 0 t d))
        ∗ (∃ d, owns (c : Thread nD τ) (st13_1 t) fullShare ((dat V c).before 1 t d))
        ∗ (∃ d, owns (c : Thread nD τ) (st13_2 t) fullShare ((dat V c).before 2 t d))
        ∗ (∃ d, owns (c : Thread nD τ) (st13_3 t) fullShare ((dat V c).before 3 t d))
        ∗ (∃ d, owns (c : Thread nD τ) (st13_4 t) fullShare ((dat V c).before 4 t d)))
      ⊢ wp frame (wpE (defs₀ (F := F)) Variants.none c none) Set.univ (bodyAt13 t) (fun _ =>
          iprop((dat V c).Φ t.succ ∗ (dat V c).owesAt () t.succ
            ∗ owns (c : Thread nD τ) (st13_0 t) fullShare ((dat V c).after 0 t)
            ∗ owns (c : Thread nD τ) (st13_1 t) fullShare ((dat V c).after 1 t)
            ∗ owns (c : Thread nD τ) (st13_2 t) fullShare ((dat V c).after 2 t)
            ∗ owns (c : Thread nD τ) (st13_3 t) fullShare ((dat V c).after 3 t)
            ∗ owns (c : Thread nD τ) (st13_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W13, bigSep_W13]
  exact body_at V c t

end Cert.KernelIdeal.Reg13
-- ==== Proof.KI.Reg14.lean ====
/-
  The 3×3 convolution 512 → 512 with bias and ReLU on a batch of 32 images of 28×28 (kernel-side program, pallas
  region 14), 1 row tile(s) of 28 rows per image.  The padded input (56 rows of 32 columns per image) is handed
  to TWO windows of one array: row tile r and row tile r + 1.  The body stacks both row blocks and a zero tail into one slab of
  1824 pixel rows, and for each horizontal tap dx lane-concatenates the three vertically shifted slab windows (row offsets
  dx, dx+32, dx+64) into one operand of depth 3·512, multiplied with plane dx of the [3, 1536, 512] weight array:
  three products of contraction depth 1536 summed, then bias, max with 0, and the 28 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The rectangles the body reads and writes -/

/-- A whole row block of the padded input (either window). -/
abbrev rX : Rect S1x28x32x512 := Rect.unit (s := S1x28x32x512) ![0, 0, 0, 0] S1x28x32x512.size Gen.inb_S1x28x32x512_S1x28x32x512_0_0_0_0
/-- Plane `dx = 0, 1, 2` of the weights. -/
abbrev rK0 : Rect S3x1536x512 := Rect.unit (s := S3x1536x512) ![0, 0, 0] S1x1536x512.size Gen.inb_S3x1536x512_S1x1536x512_0_0_0
abbrev rK1 : Rect S3x1536x512 := Rect.unit (s := S3x1536x512) ![1, 0, 0] S1x1536x512.size Gen.inb_S3x1536x512_S1x1536x512_1_0_0
abbrev rK2 : Rect S3x1536x512 := Rect.unit (s := S3x1536x512) ![2, 0, 0] S1x1536x512.size Gen.inb_S3x1536x512_S1x1536x512_2_0_0
/-- The bias row. -/
abbrev rB : Rect S1x512 := Rect.unit (s := S1x512) ![0, 0] S1x512.size Gen.inb_S1x512_S1x512_0_0
/-- The whole output tile. -/
abbrev rY : Rect S1x28x28x512 := Rect.unit (s := S1x28x28x512) ![0, 0, 0, 0] S1x28x28x512.size Gen.inb_S1x28x28x512_S1x28x28x512_0_0_0_0

/-! ## What the body computes -/

/-- The three depth-768 products summed, one row per padded pixel position (28 · 32) and one column per output
    channel: from the upper row block `xa`, the lower row block `xb` and the weights `wk`. -/
def acc (xa xb : Vec F S1x28x32x512 .bf16) (wk : Vec F S3x1536x512 .bf16) : FVec F S896x512 .f32 :=
  k14_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x32x512 .bf16) (wk : Vec F S3x1536x512 .bf16) (b : Vec F S1x512 .f32) : Vec F S1x28x28x512 .bf16 :=
  View.canon [⟨rY, k14_pay1 (acc xa xb wk) (View.ld b rB)⟩]

/-- The one store covers the tile. -/
theorem tile_cover (p : Vec F S1x28x28x512 .bf16) (y : S1x28x28x512.Idx) :
    ∃ pc ∈ ([⟨rY, p⟩] : List (View.Piece (Elt F) S1x28x28x512 .bf16)), y ∈ pc.1.set :=
  View.cover_of_tiled [⟨rY, p⟩] S1x28x28x512.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid14.Coords)
    (a0 : Memref sig .tc .vmem S1x28x32x512 .bf16) (h0 : a0.IsWhole) (a1 : Memref sig .tc .vmem S1x28x32x512 .bf16) (h1 : a1.IsWhole)
    (a2 : Memref sig .tc .vmem S3x1536x512 .bf16) (h2 : a2.IsWhole) (a3 : Memref sig .tc .vmem S1x512 .f32) (h3 : a3.IsWhole)
    (a4 : Memref sig .tc .vmem S1x28x28x512 .bf16) (h4 : a4.IsWhole)
    (xa xb : Vec F S1x28x32x512 .bf16) (wk : Vec F S3x1536x512 .bf16) (b : Vec F S1x512 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc14__conv_kernel i a0 h0 a1 h1 a2 h2 a3 h3 a4 h4) K := by
  simp only [cc14__conv_kernel_eq_skeleton]; unfold cc14__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg14 c where
  A w := V c (Pipeline.arrRef spec14 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec14 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg14.W) : (dat V c).A w = V c (Pipeline.arrRef spec14 w) := by
  dsimp only [dat]

/-- The invariant, the tallies and the shares, by name. -/
theorem Φ_eq (c : Dev nD) (t : Fin (cfg14.N + 1)) : (dat V c).Φ t = Pipeline.ΦA spec14 c := rfl
theorem owed_eq (c : Dev nD) (t : Fin (cfg14.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg14.N) : (dat V c).after 0 t = blk V c 0 t := by dsimp only [dat]
theorem after_1 (c : Dev nD) (t : Fin cfg14.N) : (dat V c).after 1 t = blk V c 1 t := by dsimp only [dat]
theorem after_2 (c : Dev nD) (t : Fin cfg14.N) : (dat V c).after 2 t = blk V c 2 t := by dsimp only [dat]
theorem after_3 (c : Dev nD) (t : Fin cfg14.N) : (dat V c).after 3 t = blk V c 3 t := by dsimp only [dat]
/-- What the body leaves in the output window's buffer at point `t`. -/
theorem after_4 (c : Dev nD) (t : Fin cfg14.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg14.N) (d) : (dat V c).before 0 t d = blk V c 0 t := by
  have hkeep : ∀ t, (cfg14.win 0).cut (cfg14.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg14.N) (d) : (dat V c).before 1 t d = blk V c 1 t := by
  have hkeep : ∀ t, (cfg14.win 1).cut (cfg14.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg14.N) (d) : (dat V c).before 2 t d = blk V c 2 t := by
  have hkeep : ∀ t, (cfg14.win 2).cut (cfg14.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg14.N) (d) : (dat V c).before 3 t d = blk V c 3 t := by
  have hkeep : ∀ t, (cfg14.win 3).cut (cfg14.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg14.N) :
    iprop((dat V c).Φ t.castSucc ∗ (dat V c).owesAt () t.castSucc
        ∗ (∃ d, owns (c : Thread nD τ) (st14_0 t) fullShare ((dat V c).before 0 t d))
        ∗ (∃ d, owns (c : Thread nD τ) (st14_1 t) fullShare ((dat V c).before 1 t d))
        ∗ (∃ d, owns (c : Thread nD τ) (st14_2 t) fullShare ((dat V c).before 2 t d))
        ∗ (∃ d, owns (c : Thread nD τ) (st14_3 t) fullShare ((dat V c).before 3 t d))
        ∗ (∃ d, owns (c : Thread nD τ) (st14_4 t) fullShare ((dat V c).before 4 t d)))
      ⊢ wp frame (wpE (defs₀ (F := F)) Variants.none c none) Set.univ (bodyAt14 t) (fun _ =>
          iprop((dat V c).Φ t.succ ∗ (dat V c).owesAt () t.succ
            ∗ owns (c : Thread nD τ) (st14_0 t) fullShare ((dat V c).after 0 t)
            ∗ owns (c : Thread nD τ) (st14_1 t) fullShare ((dat V c).after 1 t)
            ∗ owns (c : Thread nD τ) (st14_2 t) fullShare ((dat V c).after 2 t)
            ∗ owns (c : Thread nD τ) (st14_3 t) fullShare ((dat V c).after 3 t)
            ∗ owns (c : Thread nD τ) (st14_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W14, bigSep_W14]
  exact body_at V c t

end Cert.KernelIdeal.Reg14
-- ==== Proof.KI.Reg15.lean ====
/-
  The 3×3 convolution 512 → 512 with bias and ReLU on a batch of 32 images of 28×28 (kernel-side program, pallas
  region 15), 1 row tile(s) of 28 rows per image.  The padded input (56 rows of 32 columns per image) is handed
  to TWO windows of one array: row tile r and row tile r + 1.  The body stacks both row blocks and a zero tail into one slab of
  1824 pixel rows, and for each horizontal tap dx lane-concatenates the three vertically shifted slab windows (row offsets
  dx, dx+32, dx+64) into one operand of depth 3·512, multiplied with plane dx of the [3, 1536, 512] weight array:
  three products of contraction depth 1536 summed, then bias, max with 0, and the 28 valid columns of each row stored.

  This module: each window's block, what the body leaves in the output window's buffer as a pure function of
  the four input blocks, the body's triple, the region's proof data and its body obligation; generic in the float
  model.
-/
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Tactic

noncomputable section

namespace Cert.KernelIdeal.Reg15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def blk (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The rectangles the body reads and writes -/

/-- A whole row block of the padded input (either window). -/
abbrev rX : Rect S1x28x32x512 := Rect.unit (s := S1x28x32x512) ![0, 0, 0, 0] S1x28x32x512.size Gen.inb_S1x28x32x512_S1x28x32x512_0_0_0_0
/-- Plane `dx = 0, 1, 2` of the weights. -/
abbrev rK0 : Rect S3x1536x512 := Rect.unit (s := S3x1536x512) ![0, 0, 0] S1x1536x512.size Gen.inb_S3x1536x512_S1x1536x512_0_0_0
abbrev rK1 : Rect S3x1536x512 := Rect.unit (s := S3x1536x512) ![1, 0, 0] S1x1536x512.size Gen.inb_S3x1536x512_S1x1536x512_1_0_0
abbrev rK2 : Rect S3x1536x512 := Rect.unit (s := S3x1536x512) ![2, 0, 0] S1x1536x512.size Gen.inb_S3x1536x512_S1x1536x512_2_0_0
/-- The bias row. -/
abbrev rB : Rect S1x512 := Rect.unit (s := S1x512) ![0, 0] S1x512.size Gen.inb_S1x512_S1x512_0_0
/-- The whole output tile. -/
abbrev rY : Rect S1x28x28x512 := Rect.unit (s := S1x28x28x512) ![0, 0, 0, 0] S1x28x28x512.size Gen.inb_S1x28x28x512_S1x28x28x512_0_0_0_0

/-! ## What the body computes -/

/-- The three depth-768 products summed, one row per padded pixel position (28 · 32) and one column per output
    channel: from the upper row block `xa`, the lower row block `xb` and the weights `wk`. -/
def acc (xa xb : Vec F S1x28x32x512 .bf16) (wk : Vec F S3x1536x512 .bf16) : FVec F S896x512 .f32 :=
  k15_pay2 (View.ld xa rX) (View.ld xb rX) (View.ld wk rK0) (View.ld wk rK1) (View.ld wk rK2)

/-- The output window's buffer after the body: its one store, covering the tile, of bias-added, rectified `acc`
    cut to the 28 valid columns. -/
def tile (xa xb : Vec F S1x28x32x512 .bf16) (wk : Vec F S3x1536x512 .bf16) (b : Vec F S1x512 .f32) : Vec F S1x28x28x512 .bf16 :=
  View.canon [⟨rY, k15_pay1 (acc xa xb wk) (View.ld b rB)⟩]

/-- The one store covers the tile. -/
theorem tile_cover (p : Vec F S1x28x28x512 .bf16) (y : S1x28x28x512.Idx) :
    ∃ pc ∈ ([⟨rY, p⟩] : List (View.Piece (Elt F) S1x28x28x512 .bf16)), y ∈ pc.1.set :=
  View.cover_of_tiled [⟨rY, p⟩] S1x28x28x512.size (by rfl) y

/-! ## The body's triple -/

set_option maxHeartbeats 1000000 in
/-- The body on whole staging memrefs — the four inputs' at given contents, the output's at anything — runs to the
    continuation holding the inputs' as they were and the output's at `tile` of the inputs'. -/
theorem conv_triple (c : Dev nD) (E : Set ℕ) (i : grid15.Coords)
    (a0 : Memref sig .tc .vmem S1x28x32x512 .bf16) (h0 : a0.IsWhole) (a1 : Memref sig .tc .vmem S1x28x32x512 .bf16) (h1 : a1.IsWhole)
    (a2 : Memref sig .tc .vmem S3x1536x512 .bf16) (h2 : a2.IsWhole) (a3 : Memref sig .tc .vmem S1x512 .f32) (h3 : a3.IsWhole)
    (a4 : Memref sig .tc .vmem S1x28x28x512 .bf16) (h4 : a4.IsWhole)
    (xa xb : Vec F S1x28x32x512 .bf16) (wk : Vec F S3x1536x512 .bf16) (b : Vec F S1x512 .f32) (K : PUnit → sProp 𝕄) :
    iprop(owns (c : Thread nD τ) a0 fullShare xa ∗ owns (c : Thread nD τ) a1 fullShare xb ∗ owns (c : Thread nD τ) a2 fullShare wk
        ∗ owns (c : Thread nD τ) a3 fullShare b ∗ (∃ d, owns (c : Thread nD τ) a4 fullShare d)
        ∗ (iprop(owns (c : Thread nD τ) a0 fullShare xa ∗ owns (c : Thread nD τ) a1 fullShare xb ∗ owns (c : Thread nD τ) a2 fullShare wk
            ∗ owns (c : Thread nD τ) a3 fullShare b ∗ owns (c : Thread nD τ) a4 fullShare (tile xa xb wk b)) -∗ K ⟨⟩))
      ⊢ wp frame (wpE (defs₀ (F := F)) Variants.none c none) E (cc15__conv_kernel i a0 h0 a1 h1 a2 h2 a3 h3 a4 h4) K := by
  simp only [cc15__conv_kernel_eq_skeleton]; unfold cc15__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The region's proof data -/

/-- The proof data on core `c`: the arrays as the region finds them; after the body at point `t` each input's buffer
    at its block and the output's at `tile` of the four input blocks; the invariant the scoped rest and the generator
    register, untouched; nothing owed; the padded input's array, which two windows share, held in two halves. -/
def dat (c : Dev nD) : Dat τ (Elt F) Unit ℕ (UR sig nD τ) ℕ cfg15 c where
  A w := V c (Pipeline.arrRef spec15 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec15 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg15.W) : (dat V c).A w = V c (Pipeline.arrRef spec15 w) := by
  dsimp only [dat]

/-- The invariant, the tallies and the shares, by name. -/
theorem Φ_eq (c : Dev nD) (t : Fin (cfg15.N + 1)) : (dat V c).Φ t = Pipeline.ΦA spec15 c := rfl
theorem owed_eq (c : Dev nD) (t : Fin (cfg15.N + 1)) : (dat V c).owed t = 0 := rfl
theorem q_0 (c : Dev nD) : (dat V c).q 0 = fullShare.left := rfl
theorem q_1 (c : Dev nD) : (dat V c).q 1 = fullShare.right := rfl
theorem q_2 (c : Dev nD) : (dat V c).q 2 = fullShare := rfl
theorem q_3 (c : Dev nD) : (dat V c).q 3 = fullShare := rfl
theorem q_4 (c : Dev nD) : (dat V c).q 4 = fullShare := rfl

theorem after_0 (c : Dev nD) (t : Fin cfg15.N) : (dat V c).after 0 t = blk V c 0 t := by dsimp only [dat]
theorem after_1 (c : Dev nD) (t : Fin cfg15.N) : (dat V c).after 1 t = blk V c 1 t := by dsimp only [dat]
theorem after_2 (c : Dev nD) (t : Fin cfg15.N) : (dat V c).after 2 t = blk V c 2 t := by dsimp only [dat]
theorem after_3 (c : Dev nD) (t : Fin cfg15.N) : (dat V c).after 3 t = blk V c 3 t := by dsimp only [dat]
/-- What the body leaves in the output window's buffer at point `t`. -/
theorem after_4 (c : Dev nD) (t : Fin cfg15.N) :
    (dat V c).after 4 t = tile (blk V c 0 t) (blk V c 1 t) (blk V c 2 t) (blk V c 3 t) := by dsimp only [dat]

/-- Each input window's current buffer holds its block when the body runs, fetched at that point or not (the weights
    and the bias are fetched once: their block index never moves). -/
theorem before_0 (c : Dev nD) (t : Fin cfg15.N) (d) : (dat V c).before 0 t d = blk V c 0 t := by
  have hkeep : ∀ t, (cfg15.win 0).cut (cfg15.grid.coords t) ((dat V c).after 0 t) = (dat V c).blockOf 0 t := fun t => by
    rw [after_0]; unfold Dat.blockOf blk; rw [A_eq]
  rw [(dat V c).before_in_eq_fetched 0 rfl (fun _ => rfl) (fun _ _ _ => rfl) hkeep t d]
  unfold Dat.fetched Dat.blockOf blk; rw [A_eq]; rfl
theorem before_1 (c : Dev nD) (t : Fin cfg15.N) (d) : (dat V c).before 1 t d = blk V c 1 t := by
  have hkeep : ∀ t, (cfg15.win 1).cut (cfg15.grid.coords t) ((dat V c).after 1 t) = (dat V c).blockOf 1 t := fun t => by
    rw [after_1]; unfold Dat.blockOf blk; rw [A_eq]
  rw [(dat V c).before_in_eq_fetched 1 rfl (fun _ => rfl) (fun _ _ _ => rfl) hkeep t d]
  unfold Dat.fetched Dat.blockOf blk; rw [A_eq]; rfl
theorem before_2 (c : Dev nD) (t : Fin cfg15.N) (d) : (dat V c).before 2 t d = blk V c 2 t := by
  have hkeep : ∀ t, (cfg15.win 2).cut (cfg15.grid.coords t) ((dat V c).after 2 t) = (dat V c).blockOf 2 t := fun t => by
    rw [after_2]; unfold Dat.blockOf blk; rw [A_eq]
  rw [(dat V c).before_in_eq_fetched 2 rfl (fun _ => rfl) (fun _ _ _ => rfl) hkeep t d]
  unfold Dat.fetched Dat.blockOf blk; rw [A_eq]; rfl
theorem before_3 (c : Dev nD) (t : Fin cfg15.N) (d) : (dat V c).before 3 t d = blk V c 3 t := by
  have hkeep : ∀ t, (cfg15.win 3).cut (cfg15.grid.coords t) ((dat V c).after 3 t) = (dat V c).blockOf 3 t := fun t => by
    rw [after_3]; unfold Dat.blockOf blk; rw [A_eq]
  rw [(dat V c).before_in_eq_fetched 3 rfl (fun _ => rfl) (fun _ _ _ => rfl) hkeep t d]
  unfold Dat.fetched Dat.blockOf blk; rw [A_eq]; rfl

/-! ## The body obligation -/

/-- The body at a grid point, on what the pipeline hands it: the inputs' buffers hold their blocks, so the triple applies;
    the invariant and the core's tallies pass through unread. -/
theorem body_at (c : Dev nD) (t : Fin cfg15.N) :
    iprop((dat V c).Φ t.castSucc ∗ (dat V c).owesAt () t.castSucc
        ∗ (∃ d, owns (c : Thread nD τ) (st15_0 t) fullShare ((dat V c).before 0 t d))
        ∗ (∃ d, owns (c : Thread nD τ) (st15_1 t) fullShare ((dat V c).before 1 t d))
        ∗ (∃ d, owns (c : Thread nD τ) (st15_2 t) fullShare ((dat V c).before 2 t d))
        ∗ (∃ d, owns (c : Thread nD τ) (st15_3 t) fullShare ((dat V c).before 3 t d))
        ∗ (∃ d, owns (c : Thread nD τ) (st15_4 t) fullShare ((dat V c).before 4 t d)))
      ⊢ wp frame (wpE (defs₀ (F := F)) Variants.none c none) Set.univ (bodyAt15 t) (fun _ =>
          iprop((dat V c).Φ t.succ ∗ (dat V c).owesAt () t.succ
            ∗ owns (c : Thread nD τ) (st15_0 t) fullShare ((dat V c).after 0 t)
            ∗ owns (c : Thread nD τ) (st15_1 t) fullShare ((dat V c).after 1 t)
            ∗ owns (c : Thread nD τ) (st15_2 t) fullShare ((dat V c).after 2 t)
            ∗ owns (c : Thread nD τ) (st15_3 t) fullShare ((dat V c).after 3 t)
            ∗ owns (c : Thread nD τ) (st15_4 t) fullShare ((dat V c).after 4 t))) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (conv_triple c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 8192 in
/-- The library's body obligation, at every point. -/
theorem body_obligation (c : Dev nD) : BodyObligation (dat (F := F) V c) (defs₀ (F := F)) Variants.none () Set.univ := fun t => by
  rw [bigSep_W15, bigSep_W15]
  exact body_at V c t

end Cert.KernelIdeal.Reg15
-- ==== Proof.KI.Reg16.lean ====
import proofs.«143011_g2000502688546152_pallasbulk_1201_3_alg».proof.Proof.Gen.KernelIdeal.Launch
import proofs.«143011_g2000502688546152_pallasbulk_1201_3_alg».proof.Proof.Gen.KernelIdeal.Skeleton
import proofs.«143011_g2000502688546152_pallasbulk_1201_3_alg».proof.Proof.Gen.KernelIdeal.Points
import Idealize.ShloMosaic.Lib.Pipeline.FrameBody
import Idealize.ShloMosaic.Lib.Pipeline.Value
import Idealize.ShloMosaic.Lib.Tactic

/-! # Region 16: the per-image L1 distance of the last feature level

The grid is 16 images by 7 row tiles.  At point (n, q) the body adds, to every entry of the (1, 8, 128) result tile of
image n, the sum over the 112 × 512 tile q of |x[n] − x[n + 16]|, both tiles read from ONE array; at q = 0 it first
sets the result tile to zero.  The result tile is carried from one row tile to the next and written back after the last
of its image.  This module: the region's proof data and the body obligation, at any float semantics. -/

set_option maxRecDepth 16384

noncomputable section

namespace Cert.KernelIdeal.Reg16

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The tiles -/

/-- Window `w`'s tile at grid point `t`, read off its array: for the two inputs the 112 × 512 row tile of image n,
    resp. n + 16; for the result the (1, 8, 128) tile of image n. -/
def tile (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The result tile set to zero: what the body stores first at q = 0. -/
abbrev zeroTile : Vec F S1x8x128 .f32 := k16_pay1 (F := F)

/-- One point's work: the tile-wide sum of |x − y| added to every entry of the carried tile `acc`. -/
abbrev addDist (c : Dev nD) (t : Fin cfg16.N) (acc : Vec F S1x8x128 .f32) : Vec F S1x8x128 .f32 :=
  k16_pay2 (tile V c 0 t) (tile V c 1 t) acc

/-- THE RUNNING SUM: the result tile after the body at grid position `n` — started from zero where the row tile is the
    first of its image (n ≡ 0 mod 7), else continued from the position before. -/
def running (c : Dev nD) : (n : ℕ) → n < cfg16.N → Vec F S1x8x128 .f32
  | 0, hn => addDist V c ⟨0, hn⟩ zeroTile
  | n + 1, hn => addDist V c ⟨n + 1, hn⟩ (if (n + 1) % 7 = 0 then zeroTile else running c n (Nat.lt_of_succ_lt hn))

theorem running_first (c : Dev nD) (t : Fin cfg16.N) (h0 : t.val % 7 = 0) :
    running V c t.val t.isLt = addDist V c t zeroTile := by
  obtain ⟨n, hn⟩ := t
  cases n with
  | zero => show running V c 0 hn = _; rw [running]
  | succ n =>
    have h0' : (n + 1) % 7 = 0 := h0
    show running V c (n + 1) hn = _
    rw [running, if_pos h0']

theorem running_next (c : Dev nD) (t : Fin cfg16.N) (h0 : ¬ t.val % 7 = 0) :
    running V c t.val t.isLt = addDist V c t (running V c (t.val - 1) (Nat.lt_of_le_of_lt (Nat.sub_le _ _) t.isLt)) := by
  obtain ⟨n, hn⟩ := t
  cases n with
  | zero => exact absurd (Nat.zero_mod 7) h0
  | succ n =>
    have h0' : ¬ (n + 1) % 7 = 0 := h0
    show running V c (n + 1) hn = addDist V c ⟨n + 1, hn⟩ (running V c n (Nat.lt_of_succ_lt hn))
    rw [running, if_neg h0']

/-! ## The proof data -/

/-- The region's proof data on core `c`: the arrays as found; after the body each input's buffer at its tile, the
    result's at the running sum; the untouched rest as invariant; nothing owed; the two inputs, which read ONE array,
    each hold a half of it, the result is held whole. -/
def dat (c : Dev nD) : Dat τ (Elt F) Unit ℕ (UR sig nD τ) ℕ cfg16 c where
  A w := V c (Pipeline.arrRef spec16 w)
  after w t := match w with
    | ⟨0, _⟩ => tile V c 0 t
    | ⟨1, _⟩ => tile V c 1 t
    | ⟨2, _⟩ => running V c t.val t.isLt
  Φ _ := Pipeline.ΦA spec16 c
  q w := match w with
    | ⟨0, _⟩ => fullShare.left
    | ⟨1, _⟩ => fullShare.right
    | ⟨2, _⟩ => fullShare
  owed _ := 0

theorem A_eq (c : Dev nD) (w : Fin cfg16.W) : (dat V c).A w = V c (Pipeline.arrRef spec16 w) := by
  dsimp only [dat]

theorem after_x (c : Dev nD) (t : Fin cfg16.N) : (dat V c).after 0 t = tile V c 0 t := by dsimp only [dat]
theorem after_y (c : Dev nD) (t : Fin cfg16.N) : (dat V c).after 1 t = tile V c 1 t := by dsimp only [dat]
theorem after_sum (c : Dev nD) (t : Fin cfg16.N) : (dat V c).after 2 t = running V c t.val t.isLt := by dsimp only [dat]

/-- Each input's current buffer holds its tile when the body runs. -/
theorem before_x (c : Dev nD) (t : Fin cfg16.N) (d) : (dat V c).before 0 t d = tile V c 0 t := by
  rw [Dat.before_fetched _ 0 t (fetch16_0 t) d]
  unfold Dat.fetched Dat.blockOf tile
  rw [A_eq]; try rfl
theorem before_y (c : Dev nD) (t : Fin cfg16.N) (d) : (dat V c).before 1 t d = tile V c 1 t := by
  rw [Dat.before_fetched _ 1 t (fetch16_1 t) d]
  unfold Dat.fetched Dat.blockOf tile
  rw [A_eq]; try rfl
/-- Within an image (q ≠ 0) the result's buffer holds the running sum of the position before. -/
theorem before_sum (c : Dev nD) (t : Fin cfg16.N) (h0 : ¬ t.val % 7 = 0) (d) :
    (dat V c).before 2 t d = running V c (t.val - 1) (Nat.lt_of_le_of_lt (Nat.sub_le _ _) t.isLt) := by
  have hN : t.val < 16 * 7 := lt_of_lt_of_eq t.isLt (show cfg16.N = 16 * 7 from N_16)
  rw [Dat.before_out_kept _ 2 rfl t (by omega)
    (Bool.eq_false_iff.mpr fun h => by have := (flush16_2 _).mp h; dsimp only at this; omega)
    (fun _ => rfl) (fun _ _ => rfl)]
  dsimp only [dat]

/-! ## The body's triple, in its two control cases -/

/-- The stores and loads of the body go through each buffer's whole rectangle, at the origin. -/
theorem origin3 : (![0, 0, 0] : Fin 3 → Nat) = fun _ => 0 := funext fun a => by fin_cases a <;> rfl

/-- The body's test "this is the first row tile of its image" (q = 0), as the body computes it from the grid coordinates. -/
abbrev firstTile (i : grid16.Coords) : Prop :=
  (Scalar.cmpi .ne (Scalar.extui (Scalar.cmpi .eq (BitVec.ofNat 32 (i 1).val) 0#32)) 0#32) = 1#1

/-- Along the grid's row-major order it holds at the positions ≡ 0 (mod 7). -/
theorem firstTile_iff : ∀ t : Fin cfg16.N, firstTile (grid16.coords t) ↔ t.val % 7 = 0 :=
  (by decide +kernel : ∀ t : Fin grid16.N, firstTile (grid16.coords t) ↔ t.val % 7 = 0)

set_option maxHeartbeats 1000000 in
/-- At the first row tile of an image (q = 0): whatever the result's buffer held, it is set to zero, and the tile's sum
    of |x − y| is added to that. -/
theorem kernel_first (c : Dev nD) (E : Set ℕ) (i : grid16.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : firstTile i)
    (x y : Vec F S1x112x512 .bf16) (K : PUnit → sProp 𝕄) :
    iprop(owns (c : Thread nD τ) ax fullShare x ∗ owns (c : Thread nD τ) ay fullShare y ∗ (∃ d, owns (c : Thread nD τ) ao fullShare d)
        ∗ (iprop(owns (c : Thread nD τ) ax fullShare x ∗ owns (c : Thread nD τ) ay fullShare y
            ∗ owns (c : Thread nD τ) ao fullShare (k16_pay2 x y (k16_pay1 (F := F)))) -∗ K ⟨⟩))
      ⊢ wp frame (wpE (defs₀ (F := F)) Variants.none c none) E (cc16__l1_kernel i ax hax ay hay ao hao) K := by
  simp only [cc16__l1_kernel_eq_skeleton]; unfold cc16__l1_kernel_skel
  unfold owns
  iintro ⟨⟨%fx, %hfx, Hx⟩, ⟨%fy, %hfy, Hy⟩, ⟨%d, %fo, -, Ho⟩, Hk⟩
  subst hfx; subst hfy
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_cons_unit_zero origin3, View.readCov_unit_zero _ origin3, View.readAt_eq_ld, View.readAt_eq_ld,
    View.ld_unit_zero origin3, View.ld_unit_zero origin3]

set_option maxHeartbeats 1000000 in
/-- At a later row tile (q ≠ 0): nothing is reset; the tile found in the result's buffer is carried. -/
theorem kernel_next (c : Dev nD) (E : Set ℕ) (i : grid16.Coords)
    (ax : Memref sig .tc .vmem S1x112x512 .bf16) (hax : ax.IsWhole) (ay : Memref sig .tc .vmem S1x112x512 .bf16) (hay : ay.IsWhole)
    (ao : Memref sig .tc .vmem S1x8x128 .f32) (hao : ao.IsWhole) (hq : ¬ firstTile i)
    (x y : Vec F S1x112x512 .bf16) (acc : Vec F S1x8x128 .f32) (K : PUnit → sProp 𝕄) :
    iprop(owns (c : Thread nD τ) ax fullShare x ∗ owns (c : Thread nD τ) ay fullShare y ∗ owns (c : Thread nD τ) ao fullShare acc
        ∗ (iprop(owns (c : Thread nD τ) ax fullShare x ∗ owns (c : Thread nD τ) ay fullShare y
            ∗ owns (c : Thread nD τ) ao fullShare (k16_pay2 x y acc)) -∗ K ⟨⟩))
      ⊢ wp frame (wpE (defs₀ (F := F)) Variants.none c none) E (cc16__l1_kernel i ax hax ay hay ao hao) K := by
  simp only [cc16__l1_kernel_eq_skeleton]; unfold cc16__l1_kernel_skel
  unfold owns
  iintro ⟨⟨%fx, %hfx, Hx⟩, ⟨%fy, %hfy, Hy⟩, ⟨%fo, %hfo, Ho⟩, Hk⟩
  subst hfx; subst hfy; subst hfo
  sl_exec (disch := first | exact hq)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_run_names
  rw [View.read_writes_eq_canon _ _ _ (fun y => ⟨_, List.mem_cons_self, View.mem_set_unit_zero origin3 inb_S1x8x128_S1x8x128_0_0_0 y⟩),
    View.canon_unit_zero origin3, View.readAt_eq_ld, View.readAt_eq_ld, View.readAt_eq_ld,
    View.ld_unit_zero origin3, View.ld_unit_zero origin3, View.ld_unit_zero origin3]

/-! ## The body obligation -/

/-- What the body is called with at point `t`, the windows one by one, -/
def bodyPre (c : Dev nD) (t : Fin cfg16.N) : sProp 𝕄 :=
  iprop((dat V c).Φ t.castSucc ∗ (dat V c).owesAt () t.castSucc
    ∗ (∃ d, owns (c : Thread nD τ) (st16_0 t) fullShare ((dat V c).before 0 t d))
    ∗ (∃ d, owns (c : Thread nD τ) (st16_1 t) fullShare ((dat V c).before 1 t d))
    ∗ (∃ d, owns (c : Thread nD τ) (st16_2 t) fullShare ((dat V c).before 2 t d)))

/-- and what it returns. -/
def bodyPost (c : Dev nD) (t : Fin cfg16.N) : sProp 𝕄 :=
  iprop((dat V c).Φ t.succ ∗ (dat V c).owesAt () t.succ
    ∗ owns (c : Thread nD τ) (st16_0 t) fullShare ((dat V c).after 0 t)
    ∗ owns (c : Thread nD τ) (st16_1 t) fullShare ((dat V c).after 1 t)
    ∗ owns (c : Thread nD τ) (st16_2 t) fullShare ((dat V c).after 2 t))

set_option maxHeartbeats 800000 in
/-- The body at any point: the inputs' buffers hold their tiles; at q = 0 the result's buffer is reset and holds the
    first tile's sum, at q ≠ 0 it held the running sum of the position before and holds it with this tile's added. -/
theorem sound_body (c : Dev nD) (t : Fin cfg16.N) :
    bodyPre V c t ⊢ wp frame (wpE (defs₀ (F := F)) Variants.none c none) Set.univ (bodyAt16 (F := F) t) (fun _ => bodyPost V c t) := by
  unfold bodyPre bodyPost bodyAt16
  simp only [before_x, before_y]
  rw [show (dat V c).Φ t.succ = (dat V c).Φ t.castSucc from rfl,
    show (dat V c).owesAt () t.succ = (dat V c).owesAt () t.castSucc from rfl,
    after_x, after_y, after_sum]
  by_cases h0 : t.val % 7 = 0
  · rw [running_first V c t h0]
    iintro ⟨HΦ, Ho, ⟨%d0, H0⟩, ⟨%d1, H1⟩, ⟨%d2, H2⟩⟩
    iapply (kernel_first c Set.univ (grid16.coords t) _ _ _ _ _ _ ((firstTile_iff t).mpr h0) (tile V c 0 t) (tile V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [running_next V c t h0]
    simp only [before_sum V c t h0]
    iintro ⟨HΦ, Ho, ⟨%d0, H0⟩, ⟨%d1, H1⟩, ⟨%d2, H2⟩⟩
    iapply (kernel_next c Set.univ (grid16.coords t) _ _ _ _ _ _ (fun h => h0 ((firstTile_iff t).mp h)) (tile V c 0 t) (tile V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W16, bigSep_W16]
  exact sound_body V c t

end Cert.KernelIdeal.Reg16

end
-- ==== Proof.KI.RunChain.lean ====
/-
  The contents of every unscoped buffer between two items of the network, from the launch memory on: after a
  stretch of host operations, what the stretch computes from the contents before it; after a kernel region, the
  contents before it with the region's output array at what the pipeline's write-backs leave after its last point.
  The proof data of all seventeen regions, each over the contents its region is entered at.
-/
import proofs.«143011_g2000502688546152_pallasbulk_1201_3_alg».proof.Proof.KI.GenRegions
import proofs.«143011_g2000502688546152_pallasbulk_1201_3_alg».proof.Proof.KI.Reg0
import proofs.«143011_g2000502688546152_pallasbulk_1201_3_alg».proof.Proof.KI.Reg1
import proofs.«143011_g2000502688546152_pallasbulk_1201_3_alg».proof.Proof.KI.Reg2
import proofs.«143011_g2000502688546152_pallasbulk_1201_3_alg».proof.Proof.KI.Reg3
import proofs.«143011_g2000502688546152_pallasbulk_1201_3_alg».proof.Proof.KI.Reg4
import proofs.«143011_g2000502688546152_pallasbulk_1201_3_alg».proof.Proof.KI.Reg5
import proofs.«143011_g2000502688546152_pallasbulk_1201_3_alg».proof.Proof.KI.Reg6
import proofs.«143011_g2000502688546152_pallasbulk_1201_3_alg».proof.Proof.KI.Reg7
import proofs.«143011_g2000502688546152_pallasbulk_1201_3_alg».proof.Proof.KI.Reg8
import proofs.«143011_g2000502688546152_pallasbulk_1201_3_alg».proof.Proof.KI.Reg9
import proofs.«143011_g2000502688546152_pallasbulk_1201_3_alg».proof.Proof.KI.Reg10
import proofs.«143011_g2000502688546152_pallasbulk_1201_3_alg».proof.Proof.KI.Reg11
import proofs.«143011_g2000502688546152_pallasbulk_1201_3_alg».proof.Proof.KI.Reg12
import proofs.«143011_g2000502688546152_pallasbulk_1201_3_alg».proof.Proof.KI.Reg13
import proofs.«143011_g2000502688546152_pallasbulk_1201_3_alg».proof.Proof.KI.Reg14
import proofs.«143011_g2000502688546152_pallasbulk_1201_3_alg».proof.Proof.KI.Reg15
import proofs.«143011_g2000502688546152_pallasbulk_1201_3_alg».proof.Proof.KI.Reg16

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-! ## The contents between items -/

/-- The launch memory. -/
def W0 (c : Dev nD) : Valuation τ sig (Elt F) := fun b => m (c, b)
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)

/-- The buffers as region 0 finds them. -/
abbrev U3 : (c : Dev nD) → (b : Ref sig .tc) → Buf (Elt F) ((c : Thread nD τ).loc b) := fun c b => W3 m c b
/-- Region 0's output array after its last point. -/
def out0 (c : Dev nD) : Buf (Elt F) ((c : Thread nD τ).loc main_v11) := (Reg0.dat (U3 m) c).arrAt (4 : Fin 5) cfg0.N
def W4 (c : Dev nD) : Valuation τ sig (Elt F) := Function.update (W3 m c) main_v11 (out0 m c)
def W5 (c : Dev nD) : Valuation τ sig (Elt F) := StableHlo.after hostOps1 (W4 m c)
def W6 (c : Dev nD) : Valuation τ sig (Elt F) := StableHlo.after hostOps1_1 (W5 m c)
def W7 (c : Dev nD) : Valuation τ sig (Elt F) := StableHlo.after hostOps1_2 (W6 m c)

/-- The buffers as region 1 finds them. -/
abbrev U7 : (c : Dev nD) → (b : Ref sig .tc) → Buf (Elt F) ((c : Thread nD τ).loc b) := fun c b => W7 m c b
/-- Region 1's output array after its last point. -/
def out1 (c : Dev nD) : Buf (Elt F) ((c : Thread nD τ).loc main_v14) := (Reg1.dat (U7 m) c).arrAt (4 : Fin 5) cfg1.N
def W8 (c : Dev nD) : Valuation τ sig (Elt F) := Function.update (W7 m c) main_v14 (out1 m c)
def W9 (c : Dev nD) : Valuation τ sig (Elt F) := StableHlo.after hostOps2 (W8 m c)

/-- The buffers as region 2 finds them. -/
abbrev U9 : (c : Dev nD) → (b : Ref sig .tc) → Buf (Elt F) ((c : Thread nD τ).loc b) := fun c b => W9 m c b
/-- Region 2's output array after its last point. -/
def out2 (c : Dev nD) : Buf (Elt F) ((c : Thread nD τ).loc main_v16) := (Reg2.dat (U9 m) c).arrAt (2 : Fin 3) cfg2.N
def W10 (c : Dev nD) : Valuation τ sig (Elt F) := Function.update (W9 m c) main_v16 (out2 m c)
def W11 (c : Dev nD) : Valuation τ sig (Elt F) := StableHlo.after hostOps3 (W10 m c)

/-- The buffers as region 3 finds them. -/
abbrev U11 : (c : Dev nD) → (b : Ref sig .tc) → Buf (Elt F) ((c : Thread nD τ).loc b) := fun c b => W11 m c b
/-- Region 3's output array after its last point. -/
def out3 (c : Dev nD) : Buf (Elt F) ((c : Thread nD τ).loc main_v23) := (Reg3.dat (U11 m) c).arrAt (1 : Fin 2) cfg3.N
def W12 (c : Dev nD) : Valuation τ sig (Elt F) := Function.update (W11 m c) main_v23 (out3 m c)
def W13 (c : Dev nD) : Valuation τ sig (Elt F) := StableHlo.after hostOps4 (W12 m c)
def W14 (c : Dev nD) : Valuation τ sig (Elt F) := StableHlo.after hostOps4_1 (W13 m c)
def W15 (c : Dev nD) : Valuation τ sig (Elt F) := StableHlo.after hostOps4_2 (W14 m c)

/-- The buffers as region 4 finds them. -/
abbrev U15 : (c : Dev nD) → (b : Ref sig .tc) → Buf (Elt F) ((c : Thread nD τ).loc b) := fun c b => W15 m c b
/-- Region 4's output array after its last point. -/
def out4 (c : Dev nD) : Buf (Elt F) ((c : Thread nD τ).loc main_v26) := (Reg4.dat (U15 m) c).arrAt (4 : Fin 5) cfg4.N
def W16 (c : Dev nD) : Valuation τ sig (Elt F) := Function.update (W15 m c) main_v26 (out4 m c)
def W17 (c : Dev nD) : Valuation τ sig (Elt F) := StableHlo.after hostOps5 (W16 m c)
def W18 (c : Dev nD) : Valuation τ sig (Elt F) := StableHlo.after hostOps5_1 (W17 m c)
def W19 (c : Dev nD) : Valuation τ sig (Elt F) := StableHlo.after hostOps5_2 (W18 m c)

/-- The buffers as region 5 finds them. -/
abbrev U19 : (c : Dev nD) → (b : Ref sig .tc) → Buf (Elt F) ((c : Thread nD τ).loc b) := fun c b => W19 m c b
/-- Region 5's output array after its last point. -/
def out5 (c : Dev nD) : Buf (Elt F) ((c : Thread nD τ).loc main_v31) := (Reg5.dat (U19 m) c).arrAt (4 : Fin 5) cfg5.N
def W20 (c : Dev nD) : Valuation τ sig (Elt F) := Function.update (W19 m c) main_v31 (out5 m c)
def W21 (c : Dev nD) : Valuation τ sig (Elt F) := StableHlo.after hostOps6 (W20 m c)

/-- The buffers as region 6 finds them. -/
abbrev U21 : (c : Dev nD) → (b : Ref sig .tc) → Buf (Elt F) ((c : Thread nD τ).loc b) := fun c b => W21 m c b
/-- Region 6's output array after its last point. -/
def out6 (c : Dev nD) : Buf (Elt F) ((c : Thread nD τ).loc main_v33) := (Reg6.dat (U21 m) c).arrAt (2 : Fin 3) cfg6.N
def W22 (c : Dev nD) : Valuation τ sig (Elt F) := Function.update (W21 m c) main_v33 (out6 m c)
def W23 (c : Dev nD) : Valuation τ sig (Elt F) := StableHlo.after hostOps7 (W22 m c)

/-- The buffers as region 7 finds them. -/
abbrev U23 : (c : Dev nD) → (b : Ref sig .tc) → Buf (Elt F) ((c : Thread nD τ).loc b) := fun c b => W23 m c b
/-- Region 7's output array after its last point. -/
def out7 (c : Dev nD) : Buf (Elt F) ((c : Thread nD τ).loc main_v40) := (Reg7.dat (U23 m) c).arrAt (1 : Fin 2) cfg7.N
def W24 (c : Dev nD) : Valuation τ sig (Elt F) := Function.update (W23 m c) main_v40 (out7 m c)
def W25 (c : Dev nD) : Valuation τ sig (Elt F) := StableHlo.after hostOps8 (W24 m c)
def W26 (c : Dev nD) : Valuation τ sig (Elt F) := StableHlo.after hostOps8_1 (W25 m c)
def W27 (c : Dev nD) : Valuation τ sig (Elt F) := StableHlo.after hostOps8_2 (W26 m c)

/-- The buffers as region 8 finds them. -/
abbrev U27 : (c : Dev nD) → (b : Ref sig .tc) → Buf (Elt F) ((c : Thread nD τ).loc b) := fun c b => W27 m c b
/-- Region 8's output array after its last point. -/
def out8 (c : Dev nD) : Buf (Elt F) ((c : Thread nD τ).loc main_v45) := (Reg8.dat (U27 m) c).arrAt (4 : Fin 5) cfg8.N
def W28 (c : Dev nD) : Valuation τ sig (Elt F) := Function.update (W27 m c) main_v45 (out8 m c)
def W29 (c : Dev nD) : Valuation τ sig (Elt F) := StableHlo.after hostOps9 (W28 m c)
def W30 (c : Dev nD) : Valuation τ sig (Elt F) := StableHlo.after hostOps9_1 (W29 m c)
def W31 (c : Dev nD) : Valuation τ sig (Elt F) := StableHlo.after hostOps9_2 (W30 m c)

/-- The buffers as region 9 finds them. -/
abbrev U31 : (c : Dev nD) → (b : Ref sig .tc) → Buf (Elt F) ((c : Thread nD τ).loc b) := fun c b => W31 m c b
/-- Region 9's output array after its last point. -/
def out9 (c : Dev nD) : Buf (Elt F) ((c : Thread nD τ).loc main_v50) := (Reg9.dat (U31 m) c).arrAt (4 : Fin 5) cfg9.N
def W32 (c : Dev nD) : Valuation τ sig (Elt F) := Function.update (W31 m c) main_v50 (out9 m c)
def W33 (c : Dev nD) : Valuation τ sig (Elt F) := StableHlo.after hostOps10 (W32 m c)
def W34 (c : Dev nD) : Valuation τ sig (Elt F) := StableHlo.after hostOps10_1 (W33 m c)
def W35 (c : Dev nD) : Valuation τ sig (Elt F) := StableHlo.after hostOps10_2 (W34 m c)

/-- The buffers as region 10 finds them. -/
abbrev U35 : (c : Dev nD) → (b : Ref sig .tc) → Buf (Elt F) ((c : Thread nD τ).loc b) := fun c b => W35 m c b
/-- Region 10's output array after its last point. -/
def out10 (c : Dev nD) : Buf (Elt F) ((c : Thread nD τ).loc main_v55) := (Reg10.dat (U35 m) c).arrAt (4 : Fin 5) cfg10.N
def W36 (c : Dev nD) : Valuation τ sig (Elt F) := Function.update (W35 m c) main_v55 (out10 m c)
def W37 (c : Dev nD) : Valuation τ sig (Elt F) := StableHlo.after hostOps11 (W36 m c)

/-- The buffers as region 11 finds them. -/
abbrev U37 : (c : Dev nD) → (b : Ref sig .tc) → Buf (Elt F) ((c : Thread nD τ).loc b) := fun c b => W37 m c b
/-- Region 11's output array after its last point. -/
def out11 (c : Dev nD) : Buf (Elt F) ((c : Thread nD τ).loc main_v57) := (Reg11.dat (U37 m) c).arrAt (2 : Fin 3) cfg11.N
def W38 (c : Dev nD) : Valuation τ sig (Elt F) := Function.update (W37 m c) main_v57 (out11 m c)
def W39 (c : Dev nD) : Valuation τ sig (Elt F) := StableHlo.after hostOps12 (W38 m c)

/-- The buffers as region 12 finds them. -/
abbrev U39 : (c : Dev nD) → (b : Ref sig .tc) → Buf (Elt F) ((c : Thread nD τ).loc b) := fun c b => W39 m c b
/-- Region 12's output array after its last point. -/
def out12 (c : Dev nD) : Buf (Elt F) ((c : Thread nD τ).loc main_v64) := (Reg12.dat (U39 m) c).arrAt (1 : Fin 2) cfg12.N
def W40 (c : Dev nD) : Valuation τ sig (Elt F) := Function.update (W39 m c) main_v64 (out12 m c)
def W41 (c : Dev nD) : Valuation τ sig (Elt F) := StableHlo.after hostOps13 (W40 m c)
def W42 (c : Dev nD) : Valuation τ sig (Elt F) := StableHlo.after hostOps13_1 (W41 m c)
def W43 (c : Dev nD) : Valuation τ sig (Elt F) := StableHlo.after hostOps13_2 (W42 m c)

/-- The buffers as region 13 finds them. -/
abbrev U43 : (c : Dev nD) → (b : Ref sig .tc) → Buf (Elt F) ((c : Thread nD τ).loc b) := fun c b => W43 m c b
/-- Region 13's output array after its last point. -/
def out13 (c : Dev nD) : Buf (Elt F) ((c : Thread nD τ).loc main_v69) := (Reg13.dat (U43 m) c).arrAt (4 : Fin 5) cfg13.N
def W44 (c : Dev nD) : Valuation τ sig (Elt F) := Function.update (W43 m c) main_v69 (out13 m c)
def W45 (c : Dev nD) : Valuation τ sig (Elt F) := StableHlo.after hostOps14 (W44 m c)
def W46 (c : Dev nD) : Valuation τ sig (Elt F) := StableHlo.after hostOps14_1 (W45 m c)
def W47 (c : Dev nD) : Valuation τ sig (Elt F) := StableHlo.after hostOps14_2 (W46 m c)

/-- The buffers as region 14 finds them. -/
abbrev U47 : (c : Dev nD) → (b : Ref sig .tc) → Buf (Elt F) ((c : Thread nD τ).loc b) := fun c b => W47 m c b
/-- Region 14's output array after its last point. -/
def out14 (c : Dev nD) : Buf (Elt F) ((c : Thread nD τ).loc main_v74) := (Reg14.dat (U47 m) c).arrAt (4 : Fin 5) cfg14.N
def W48 (c : Dev nD) : Valuation τ sig (Elt F) := Function.update (W47 m c) main_v74 (out14 m c)
def W49 (c : Dev nD) : Valuation τ sig (Elt F) := StableHlo.after hostOps15 (W48 m c)
def W50 (c : Dev nD) : Valuation τ sig (Elt F) := StableHlo.after hostOps15_1 (W49 m c)
def W51 (c : Dev nD) : Valuation τ sig (Elt F) := StableHlo.after hostOps15_2 (W50 m c)

/-- The buffers as region 15 finds them. -/
abbrev U51 : (c : Dev nD) → (b : Ref sig .tc) → Buf (Elt F) ((c : Thread nD τ).loc b) := fun c b => W51 m c b
/-- Region 15's output array after its last point. -/
def out15 (c : Dev nD) : Buf (Elt F) ((c : Thread nD τ).loc main_v79) := (Reg15.dat (U51 m) c).arrAt (4 : Fin 5) cfg15.N
def W52 (c : Dev nD) : Valuation τ sig (Elt F) := Function.update (W51 m c) main_v79 (out15 m c)
def W53 (c : Dev nD) : Valuation τ sig (Elt F) := StableHlo.after hostOps16 (W52 m c)

/-- The buffers as region 16 finds them. -/
abbrev U53 : (c : Dev nD) → (b : Ref sig .tc) → Buf (Elt F) ((c : Thread nD τ).loc b) := fun c b => W53 m c b
/-- Region 16's output array after its last point. -/
def out16 (c : Dev nD) : Buf (Elt F) ((c : Thread nD τ).loc main_v81) := (Reg16.dat (U53 m) c).arrAt (2 : Fin 3) cfg16.N
def W54 (c : Dev nD) : Valuation τ sig (Elt F) := Function.update (W53 m c) main_v81 (out16 m c)
def W55 (c : Dev nD) : Valuation τ sig (Elt F) := StableHlo.after hostOps17 (W54 m c)

/-! ## What the regions leave, as one family -/

/-- After item `k − 1` buffer `r` holds `W k c r`: read only at the seventeen region exits. -/
def outs : Outs (F := F) := fun k r c => match k with
  | 4 => W4 m c r
  | 8 => W8 m c r
  | 10 => W10 m c r
  | 12 => W12 m c r
  | 16 => W16 m c r
  | 20 => W20 m c r
  | 22 => W22 m c r
  | 24 => W24 m c r
  | 28 => W28 m c r
  | 32 => W32 m c r
  | 36 => W36 m c r
  | 38 => W38 m c r
  | 40 => W40 m c r
  | 44 => W44 m c r
  | 48 => W48 m c r
  | 52 => W52 m c r
  | 54 => W54 m c r
  | _ => W0 m c r

/-! ## The generated boundary contents at these unknowns are the chain -/

theorem V0_eq (c : Dev nD) : V0 m c = W0 m c := rfl
theorem V1_eq (c : Dev nD) : V1 m c = W1 m c := by
  show StableHlo.after hostOps0 (V0 m c) = StableHlo.after hostOps0 (W0 m c)
  rw [V0_eq]
theorem V2_eq (c : Dev nD) : V2 m c = W2 m c := by
  show StableHlo.after hostOps0_1 (V1 m c) = StableHlo.after hostOps0_1 (W1 m c)
  rw [V1_eq]
theorem V3_eq (c : Dev nD) : V3 m c = W3 m c := by
  show StableHlo.after hostOps0_2 (V2 m c) = StableHlo.after hostOps0_2 (W2 m c)
  rw [V2_eq]
theorem V4_eq (c : Dev nD) : V4 m (outs m) c = W4 m c := by
  show Function.update (V3 m c) main_v11 (W4 m c main_v11) = Function.update (W3 m c) main_v11 (out0 m c)
  rw [V3_eq]
  exact congrArg _ (Function.update_self ..)
theorem V5_eq (c : Dev nD) : V5 m (outs m) c = W5 m c := by
  show StableHlo.after hostOps1 (V4 m (outs m) c) = StableHlo.after hostOps1 (W4 m c)
  rw [V4_eq]
theorem V6_eq (c : Dev nD) : V6 m (outs m) c = W6 m c := by
  show StableHlo.after hostOps1_1 (V5 m (outs m) c) = StableHlo.after hostOps1_1 (W5 m c)
  rw [V5_eq]
theorem V7_eq (c : Dev nD) : V7 m (outs m) c = W7 m c := by
  show StableHlo.after hostOps1_2 (V6 m (outs m) c) = StableHlo.after hostOps1_2 (W6 m c)
  rw [V6_eq]
theorem V8_eq (c : Dev nD) : V8 m (outs m) c = W8 m c := by
  show Function.update (V7 m (outs m) c) main_v14 (W8 m c main_v14) = Function.update (W7 m c) main_v14 (out1 m c)
  rw [V7_eq]
  exact congrArg _ (Function.update_self ..)
theorem V9_eq (c : Dev nD) : V9 m (outs m) c = W9 m c := by
  show StableHlo.after hostOps2 (V8 m (outs m) c) = StableHlo.after hostOps2 (W8 m c)
  rw [V8_eq]
theorem V10_eq (c : Dev nD) : V10 m (outs m) c = W10 m c := by
  show Function.update (V9 m (outs m) c) main_v16 (W10 m c main_v16) = Function.update (W9 m c) main_v16 (out2 m c)
  rw [V9_eq]
  exact congrArg _ (Function.update_self ..)
theorem V11_eq (c : Dev nD) : V11 m (outs m) c = W11 m c := by
  show StableHlo.after hostOps3 (V10 m (outs m) c) = StableHlo.after hostOps3 (W10 m c)
  rw [V10_eq]
theorem V12_eq (c : Dev nD) : V12 m (outs m) c = W12 m c := by
  show Function.update (V11 m (outs m) c) main_v23 (W12 m c main_v23) = Function.update (W11 m c) main_v23 (out3 m c)
  rw [V11_eq]
  exact congrArg _ (Function.update_self ..)
theorem V13_eq (c : Dev nD) : V13 m (outs m) c = W13 m c := by
  show StableHlo.after hostOps4 (V12 m (outs m) c) = StableHlo.after hostOps4 (W12 m c)
  rw [V12_eq]
theorem V14_eq (c : Dev nD) : V14 m (outs m) c = W14 m c := by
  show StableHlo.after hostOps4_1 (V13 m (outs m) c) = StableHlo.after hostOps4_1 (W13 m c)
  rw [V13_eq]
theorem V15_eq (c : Dev nD) : V15 m (outs m) c = W15 m c := by
  show StableHlo.after hostOps4_2 (V14 m (outs m) c) = StableHlo.after hostOps4_2 (W14 m c)
  rw [V14_eq]
theorem V16_eq (c : Dev nD) : V16 m (outs m) c = W16 m c := by
  show Function.update (V15 m (outs m) c) main_v26 (W16 m c main_v26) = Function.update (W15 m c) main_v26 (out4 m c)
  rw [V15_eq]
  exact congrArg _ (Function.update_self ..)
theorem V17_eq (c : Dev nD) : V17 m (outs m) c = W17 m c := by
  show StableHlo.after hostOps5 (V16 m (outs m) c) = StableHlo.after hostOps5 (W16 m c)
  rw [V16_eq]
theorem V18_eq (c : Dev nD) : V18 m (outs m) c = W18 m c := by
  show StableHlo.after hostOps5_1 (V17 m (outs m) c) = StableHlo.after hostOps5_1 (W17 m c)
  rw [V17_eq]
theorem V19_eq (c : Dev nD) : V19 m (outs m) c = W19 m c := by
  show StableHlo.after hostOps5_2 (V18 m (outs m) c) = StableHlo.after hostOps5_2 (W18 m c)
  rw [V18_eq]
theorem V20_eq (c : Dev nD) : V20 m (outs m) c = W20 m c := by
  show Function.update (V19 m (outs m) c) main_v31 (W20 m c main_v31) = Function.update (W19 m c) main_v31 (out5 m c)
  rw [V19_eq]
  exact congrArg _ (Function.update_self ..)
theorem V21_eq (c : Dev nD) : V21 m (outs m) c = W21 m c := by
  show StableHlo.after hostOps6 (V20 m (outs m) c) = StableHlo.after hostOps6 (W20 m c)
  rw [V20_eq]
theorem V22_eq (c : Dev nD) : V22 m (outs m) c = W22 m c := by
  show Function.update (V21 m (outs m) c) main_v33 (W22 m c main_v33) = Function.update (W21 m c) main_v33 (out6 m c)
  rw [V21_eq]
  exact congrArg _ (Function.update_self ..)
theorem V23_eq (c : Dev nD) : V23 m (outs m) c = W23 m c := by
  show StableHlo.after hostOps7 (V22 m (outs m) c) = StableHlo.after hostOps7 (W22 m c)
  rw [V22_eq]
theorem V24_eq (c : Dev nD) : V24 m (outs m) c = W24 m c := by
  show Function.update (V23 m (outs m) c) main_v40 (W24 m c main_v40) = Function.update (W23 m c) main_v40 (out7 m c)
  rw [V23_eq]
  exact congrArg _ (Function.update_self ..)
theorem V25_eq (c : Dev nD) : V25 m (outs m) c = W25 m c := by
  show StableHlo.after hostOps8 (V24 m (outs m) c) = StableHlo.after hostOps8 (W24 m c)
  rw [V24_eq]
theorem V26_eq (c : Dev nD) : V26 m (outs m) c = W26 m c := by
  show StableHlo.after hostOps8_1 (V25 m (outs m) c) = StableHlo.after hostOps8_1 (W25 m c)
  rw [V25_eq]
theorem V27_eq (c : Dev nD) : V27 m (outs m) c = W27 m c := by
  show StableHlo.after hostOps8_2 (V26 m (outs m) c) = StableHlo.after hostOps8_2 (W26 m c)
  rw [V26_eq]
theorem V28_eq (c : Dev nD) : V28 m (outs m) c = W28 m c := by
  show Function.update (V27 m (outs m) c) main_v45 (W28 m c main_v45) = Function.update (W27 m c) main_v45 (out8 m c)
  rw [V27_eq]
  exact congrArg _ (Function.update_self ..)
theorem V29_eq (c : Dev nD) : V29 m (outs m) c = W29 m c := by
  show StableHlo.after hostOps9 (V28 m (outs m) c) = StableHlo.after hostOps9 (W28 m c)
  rw [V28_eq]
theorem V30_eq (c : Dev nD) : V30 m (outs m) c = W30 m c := by
  show StableHlo.after hostOps9_1 (V29 m (outs m) c) = StableHlo.after hostOps9_1 (W29 m c)
  rw [V29_eq]
theorem V31_eq (c : Dev nD) : V31 m (outs m) c = W31 m c := by
  show StableHlo.after hostOps9_2 (V30 m (outs m) c) = StableHlo.after hostOps9_2 (W30 m c)
  rw [V30_eq]
theorem V32_eq (c : Dev nD) : V32 m (outs m) c = W32 m c := by
  show Function.update (V31 m (outs m) c) main_v50 (W32 m c main_v50) = Function.update (W31 m c) main_v50 (out9 m c)
  rw [V31_eq]
  exact congrArg _ (Function.update_self ..)
theorem V33_eq (c : Dev nD) : V33 m (outs m) c = W33 m c := by
  show StableHlo.after hostOps10 (V32 m (outs m) c) = StableHlo.after hostOps10 (W32 m c)
  rw [V32_eq]
theorem V34_eq (c : Dev nD) : V34 m (outs m) c = W34 m c := by
  show StableHlo.after hostOps10_1 (V33 m (outs m) c) = StableHlo.after hostOps10_1 (W33 m c)
  rw [V33_eq]
theorem V35_eq (c : Dev nD) : V35 m (outs m) c = W35 m c := by
  show StableHlo.after hostOps10_2 (V34 m (outs m) c) = StableHlo.after hostOps10_2 (W34 m c)
  rw [V34_eq]
theorem V36_eq (c : Dev nD) : V36 m (outs m) c = W36 m c := by
  show Function.update (V35 m (outs m) c) main_v55 (W36 m c main_v55) = Function.update (W35 m c) main_v55 (out10 m c)
  rw [V35_eq]
  exact congrArg _ (Function.update_self ..)
theorem V37_eq (c : Dev nD) : V37 m (outs m) c = W37 m c := by
  show StableHlo.after hostOps11 (V36 m (outs m) c) = StableHlo.after hostOps11 (W36 m c)
  rw [V36_eq]
theorem V38_eq (c : Dev nD) : V38 m (outs m) c = W38 m c := by
  show Function.update (V37 m (outs m) c) main_v57 (W38 m c main_v57) = Function.update (W37 m c) main_v57 (out11 m c)
  rw [V37_eq]
  exact congrArg _ (Function.update_self ..)
theorem V39_eq (c : Dev nD) : V39 m (outs m) c = W39 m c := by
  show StableHlo.after hostOps12 (V38 m (outs m) c) = StableHlo.after hostOps12 (W38 m c)
  rw [V38_eq]
theorem V40_eq (c : Dev nD) : V40 m (outs m) c = W40 m c := by
  show Function.update (V39 m (outs m) c) main_v64 (W40 m c main_v64) = Function.update (W39 m c) main_v64 (out12 m c)
  rw [V39_eq]
  exact congrArg _ (Function.update_self ..)
theorem V41_eq (c : Dev nD) : V41 m (outs m) c = W41 m c := by
  show StableHlo.after hostOps13 (V40 m (outs m) c) = StableHlo.after hostOps13 (W40 m c)
  rw [V40_eq]
theorem V42_eq (c : Dev nD) : V42 m (outs m) c = W42 m c := by
  show StableHlo.after hostOps13_1 (V41 m (outs m) c) = StableHlo.after hostOps13_1 (W41 m c)
  rw [V41_eq]
theorem V43_eq (c : Dev nD) : V43 m (outs m) c = W43 m c := by
  show StableHlo.after hostOps13_2 (V42 m (outs m) c) = StableHlo.after hostOps13_2 (W42 m c)
  rw [V42_eq]
theorem V44_eq (c : Dev nD) : V44 m (outs m) c = W44 m c := by
  show Function.update (V43 m (outs m) c) main_v69 (W44 m c main_v69) = Function.update (W43 m c) main_v69 (out13 m c)
  rw [V43_eq]
  exact congrArg _ (Function.update_self ..)
theorem V45_eq (c : Dev nD) : V45 m (outs m) c = W45 m c := by
  show StableHlo.after hostOps14 (V44 m (outs m) c) = StableHlo.after hostOps14 (W44 m c)
  rw [V44_eq]
theorem V46_eq (c : Dev nD) : V46 m (outs m) c = W46 m c := by
  show StableHlo.after hostOps14_1 (V45 m (outs m) c) = StableHlo.after hostOps14_1 (W45 m c)
  rw [V45_eq]
theorem V47_eq (c : Dev nD) : V47 m (outs m) c = W47 m c := by
  show StableHlo.after hostOps14_2 (V46 m (outs m) c) = StableHlo.after hostOps14_2 (W46 m c)
  rw [V46_eq]
theorem V48_eq (c : Dev nD) : V48 m (outs m) c = W48 m c := by
  show Function.update (V47 m (outs m) c) main_v74 (W48 m c main_v74) = Function.update (W47 m c) main_v74 (out14 m c)
  rw [V47_eq]
  exact congrArg _ (Function.update_self ..)
theorem V49_eq (c : Dev nD) : V49 m (outs m) c = W49 m c := by
  show StableHlo.after hostOps15 (V48 m (outs m) c) = StableHlo.after hostOps15 (W48 m c)
  rw [V48_eq]
theorem V50_eq (c : Dev nD) : V50 m (outs m) c = W50 m c := by
  show StableHlo.after hostOps15_1 (V49 m (outs m) c) = StableHlo.after hostOps15_1 (W49 m c)
  rw [V49_eq]
theorem V51_eq (c : Dev nD) : V51 m (outs m) c = W51 m c := by
  show StableHlo.after hostOps15_2 (V50 m (outs m) c) = StableHlo.after hostOps15_2 (W50 m c)
  rw [V50_eq]
theorem V52_eq (c : Dev nD) : V52 m (outs m) c = W52 m c := by
  show Function.update (V51 m (outs m) c) main_v79 (W52 m c main_v79) = Function.update (W51 m c) main_v79 (out15 m c)
  rw [V51_eq]
  exact congrArg _ (Function.update_self ..)
theorem V53_eq (c : Dev nD) : V53 m (outs m) c = W53 m c := by
  show StableHlo.after hostOps16 (V52 m (outs m) c) = StableHlo.after hostOps16 (W52 m c)
  rw [V52_eq]
theorem V54_eq (c : Dev nD) : V54 m (outs m) c = W54 m c := by
  show Function.update (V53 m (outs m) c) main_v81 (W54 m c main_v81) = Function.update (W53 m c) main_v81 (out16 m c)
  rw [V53_eq]
  exact congrArg _ (Function.update_self ..)
theorem V55_eq (c : Dev nD) : V55 m (outs m) c = W55 m c := by
  show StableHlo.after hostOps17 (V54 m (outs m) c) = StableHlo.after hostOps17 (W54 m c)
  rw [V54_eq]

/-! ## The proof data -/

/-- Every region's proof data, each at the contents its region is entered at. -/
def pdats : (p : Fin 17) → (c : Dev nD) → Dat τ (Elt F) Unit ℕ (UR sig nD τ) ℕ (cfgs p) c
  | ⟨0, _⟩ => fun c => Reg0.dat (U3 m) c
  | ⟨1, _⟩ => fun c => Reg1.dat (U7 m) c
  | ⟨2, _⟩ => fun c => Reg2.dat (U9 m) c
  | ⟨3, _⟩ => fun c => Reg3.dat (U11 m) c
  | ⟨4, _⟩ => fun c => Reg4.dat (U15 m) c
  | ⟨5, _⟩ => fun c => Reg5.dat (U19 m) c
  | ⟨6, _⟩ => fun c => Reg6.dat (U21 m) c
  | ⟨7, _⟩ => fun c => Reg7.dat (U23 m) c
  | ⟨8, _⟩ => fun c => Reg8.dat (U27 m) c
  | ⟨9, _⟩ => fun c => Reg9.dat (U31 m) c
  | ⟨10, _⟩ => fun c => Reg10.dat (U35 m) c
  | ⟨11, _⟩ => fun c => Reg11.dat (U37 m) c
  | ⟨12, _⟩ => fun c => Reg12.dat (U39 m) c
  | ⟨13, _⟩ => fun c => Reg13.dat (U43 m) c
  | ⟨14, _⟩ => fun c => Reg14.dat (U47 m) c
  | ⟨15, _⟩ => fun c => Reg15.dat (U51 m) c
  | ⟨16, _⟩ => fun c => Reg16.dat (U53 m) c
  | ⟨_ + 17, h⟩ => absurd h (Nat.not_lt.2 (Nat.le_add_left _ _))

end Cert.KernelIdeal.Run

end
-- ==== Proof.KI.RunChainAt.lean ====
/-
  Reading the chain of contents at a buffer: a region's exit changes its output array's buffer and no other; a host
  stretch changes the buffers it writes and no other; no item ever writes an argument array.
-/
import proofs.«143011_g2000502688546152_pallasbulk_1201_3_alg».proof.Proof.KI.RunChain

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-! ## Reading the chain at a buffer -/
theorem W4_self (c : Dev nD) : W4 m c main_v11 = out0 m c := Function.update_self ..
theorem W4_of (c : Dev nD) (r : Ref sig .tc) (h : r ≠ main_v11) : W4 m c r = W3 m c r :=
  Function.update_of_ne (StableHlo.devRef_ne_of_ne h) ..
theorem W8_self (c : Dev nD) : W8 m c main_v14 = out1 m c := Function.update_self ..
theorem W8_of (c : Dev nD) (r : Ref sig .tc) (h : r ≠ main_v14) : W8 m c r = W7 m c r :=
  Function.update_of_ne (StableHlo.devRef_ne_of_ne h) ..
theorem W10_self (c : Dev nD) : W10 m c main_v16 = out2 m c := Function.update_self ..
theorem W10_of (c : Dev nD) (r : Ref sig .tc) (h : r ≠ main_v16) : W10 m c r = W9 m c r :=
  Function.update_of_ne (StableHlo.devRef_ne_of_ne h) ..
theorem W12_self (c : Dev nD) : W12 m c main_v23 = out3 m c := Function.update_self ..
theorem W12_of (c : Dev nD) (r : Ref sig .tc) (h : r ≠ main_v23) : W12 m c r = W11 m c r :=
  Function.update_of_ne (StableHlo.devRef_ne_of_ne h) ..
theorem W16_self (c : Dev nD) : W16 m c main_v26 = out4 m c := Function.update_self ..
theorem W16_of (c : Dev nD) (r : Ref sig .tc) (h : r ≠ main_v26) : W16 m c r = W15 m c r :=
  Function.update_of_ne (StableHlo.devRef_ne_of_ne h) ..
theorem W20_self (c : Dev nD) : W20 m c main_v31 = out5 m c := Function.update_self ..
theorem W20_of (c : Dev nD) (r : Ref sig .tc) (h : r ≠ main_v31) : W20 m c r = W19 m c r :=
  Function.update_of_ne (StableHlo.devRef_ne_of_ne h) ..
theorem W22_self (c : Dev nD) : W22 m c main_v33 = out6 m c := Function.update_self ..
theorem W22_of (c : Dev nD) (r : Ref sig .tc) (h : r ≠ main_v33) : W22 m c r = W21 m c r :=
  Function.update_of_ne (StableHlo.devRef_ne_of_ne h) ..
theorem W24_self (c : Dev nD) : W24 m c main_v40 = out7 m c := Function.update_self ..
theorem W24_of (c : Dev nD) (r : Ref sig .tc) (h : r ≠ main_v40) : W24 m c r = W23 m c r :=
  Function.update_of_ne (StableHlo.devRef_ne_of_ne h) ..
theorem W28_self (c : Dev nD) : W28 m c main_v45 = out8 m c := Function.update_self ..
theorem W28_of (c : Dev nD) (r : Ref sig .tc) (h : r ≠ main_v45) : W28 m c r = W27 m c r :=
  Function.update_of_ne (StableHlo.devRef_ne_of_ne h) ..
theorem W32_self (c : Dev nD) : W32 m c main_v50 = out9 m c := Function.update_self ..
theorem W32_of (c : Dev nD) (r : Ref sig .tc) (h : r ≠ main_v50) : W32 m c r = W31 m c r :=
  Function.update_of_ne (StableHlo.devRef_ne_of_ne h) ..
theorem W36_self (c : Dev nD) : W36 m c main_v55 = out10 m c := Function.update_self ..
theorem W36_of (c : Dev nD) (r : Ref sig .tc) (h : r ≠ main_v55) : W36 m c r = W35 m c r :=
  Function.update_of_ne (StableHlo.devRef_ne_of_ne h) ..
theorem W38_self (c : Dev nD) : W38 m c main_v57 = out11 m c := Function.update_self ..
theorem W38_of (c : Dev nD) (r : Ref sig .tc) (h : r ≠ main_v57) : W38 m c r = W37 m c r :=
  Function.update_of_ne (StableHlo.devRef_ne_of_ne h) ..
theorem W40_self (c : Dev nD) : W40 m c main_v64 = out12 m c := Function.update_self ..
theorem W40_of (c : Dev nD) (r : Ref sig .tc) (h : r ≠ main_v64) : W40 m c r = W39 m c r :=
  Function.update_of_ne (StableHlo.devRef_ne_of_ne h) ..
theorem W44_self (c : Dev nD) : W44 m c main_v69 = out13 m c := Function.update_self ..
theorem W44_of (c : Dev nD) (r : Ref sig .tc) (h : r ≠ main_v69) : W44 m c r = W43 m c r :=
  Function.update_of_ne (StableHlo.devRef_ne_of_ne h) ..
theorem W48_self (c : Dev nD) : W48 m c main_v74 = out14 m c := Function.update_self ..
theorem W48_of (c : Dev nD) (r : Ref sig .tc) (h : r ≠ main_v74) : W48 m c r = W47 m c r :=
  Function.update_of_ne (StableHlo.devRef_ne_of_ne h) ..
theorem W52_self (c : Dev nD) : W52 m c main_v79 = out15 m c := Function.update_self ..
theorem W52_of (c : Dev nD) (r : Ref sig .tc) (h : r ≠ main_v79) : W52 m c r = W51 m c r :=
  Function.update_of_ne (StableHlo.devRef_ne_of_ne h) ..
theorem W54_self (c : Dev nD) : W54 m c main_v81 = out16 m c := Function.update_self ..
theorem W54_of (c : Dev nD) (r : Ref sig .tc) (h : r ≠ main_v81) : W54 m c r = W53 m c r :=
  Function.update_of_ne (StableHlo.devRef_ne_of_ne h) ..
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W7_of (c : Dev nD) (r : Ref sig .tc) (h : r ∉ hostOps1_2_W) : W7 m c r = W6 m c r :=
  StableHlo.after_of_writes_sub hostOps1_2 _ hostOps1_2_writes h
theorem W9_of (c : Dev nD) (r : Ref sig .tc) (h : r ∉ hostOps2_W) : W9 m c r = W8 m c r :=
  StableHlo.after_of_writes_sub hostOps2 _ hostOps2_writes h
theorem W11_of (c : Dev nD) (r : Ref sig .tc) (h : r ∉ hostOps3_W) : W11 m c r = W10 m c r :=
  StableHlo.after_of_writes_sub hostOps3 _ hostOps3_writes h
theorem W13_of (c : Dev nD) (r : Ref sig .tc) (h : r ∉ hostOps4_W) : W13 m c r = W12 m c r :=
  StableHlo.after_of_writes_sub hostOps4 _ hostOps4_writes h
theorem W14_of (c : Dev nD) (r : Ref sig .tc) (h : r ∉ hostOps4_1_W) : W14 m c r = W13 m c r :=
  StableHlo.after_of_writes_sub hostOps4_1 _ hostOps4_1_writes h
theorem W15_of (c : Dev nD) (r : Ref sig .tc) (h : r ∉ hostOps4_2_W) : W15 m c r = W14 m c r :=
  StableHlo.after_of_writes_sub hostOps4_2 _ hostOps4_2_writes h
theorem W17_of (c : Dev nD) (r : Ref sig .tc) (h : r ∉ hostOps5_W) : W17 m c r = W16 m c r :=
  StableHlo.after_of_writes_sub hostOps5 _ hostOps5_writes h
theorem W18_of (c : Dev nD) (r : Ref sig .tc) (h : r ∉ hostOps5_1_W) : W18 m c r = W17 m c r :=
  StableHlo.after_of_writes_sub hostOps5_1 _ hostOps5_1_writes h
theorem W19_of (c : Dev nD) (r : Ref sig .tc) (h : r ∉ hostOps5_2_W) : W19 m c r = W18 m c r :=
  StableHlo.after_of_writes_sub hostOps5_2 _ hostOps5_2_writes h
theorem W21_of (c : Dev nD) (r : Ref sig .tc) (h : r ∉ hostOps6_W) : W21 m c r = W20 m c r :=
  StableHlo.after_of_writes_sub hostOps6 _ hostOps6_writes h
theorem W23_of (c : Dev nD) (r : Ref sig .tc) (h : r ∉ hostOps7_W) : W23 m c r = W22 m c r :=
  StableHlo.after_of_writes_sub hostOps7 _ hostOps7_writes h
theorem W25_of (c : Dev nD) (r : Ref sig .tc) (h : r ∉ hostOps8_W) : W25 m c r = W24 m c r :=
  StableHlo.after_of_writes_sub hostOps8 _ hostOps8_writes h
theorem W26_of (c : Dev nD) (r : Ref sig .tc) (h : r ∉ hostOps8_1_W) : W26 m c r = W25 m c r :=
  StableHlo.after_of_writes_sub hostOps8_1 _ hostOps8_1_writes h
theorem W27_of (c : Dev nD) (r : Ref sig .tc) (h : r ∉ hostOps8_2_W) : W27 m c r = W26 m c r :=
  StableHlo.after_of_writes_sub hostOps8_2 _ hostOps8_2_writes h
theorem W29_of (c : Dev nD) (r : Ref sig .tc) (h : r ∉ hostOps9_W) : W29 m c r = W28 m c r :=
  StableHlo.after_of_writes_sub hostOps9 _ hostOps9_writes h
theorem W30_of (c : Dev nD) (r : Ref sig .tc) (h : r ∉ hostOps9_1_W) : W30 m c r = W29 m c r :=
  StableHlo.after_of_writes_sub hostOps9_1 _ hostOps9_1_writes h
theorem W31_of (c : Dev nD) (r : Ref sig .tc) (h : r ∉ hostOps9_2_W) : W31 m c r = W30 m c r :=
  StableHlo.after_of_writes_sub hostOps9_2 _ hostOps9_2_writes h
theorem W33_of (c : Dev nD) (r : Ref sig .tc) (h : r ∉ hostOps10_W) : W33 m c r = W32 m c r :=
  StableHlo.after_of_writes_sub hostOps10 _ hostOps10_writes h
theorem W34_of (c : Dev nD) (r : Ref sig .tc) (h : r ∉ hostOps10_1_W) : W34 m c r = W33 m c r :=
  StableHlo.after_of_writes_sub hostOps10_1 _ hostOps10_1_writes h
theorem W35_of (c : Dev nD) (r : Ref sig .tc) (h : r ∉ hostOps10_2_W) : W35 m c r = W34 m c r :=
  StableHlo.after_of_writes_sub hostOps10_2 _ hostOps10_2_writes h
theorem W37_of (c : Dev nD) (r : Ref sig .tc) (h : r ∉ hostOps11_W) : W37 m c r = W36 m c r :=
  StableHlo.after_of_writes_sub hostOps11 _ hostOps11_writes h
theorem W39_of (c : Dev nD) (r : Ref sig .tc) (h : r ∉ hostOps12_W) : W39 m c r = W38 m c r :=
  StableHlo.after_of_writes_sub hostOps12 _ hostOps12_writes h
theorem W41_of (c : Dev nD) (r : Ref sig .tc) (h : r ∉ hostOps13_W) : W41 m c r = W40 m c r :=
  StableHlo.after_of_writes_sub hostOps13 _ hostOps13_writes h
theorem W42_of (c : Dev nD) (r : Ref sig .tc) (h : r ∉ hostOps13_1_W) : W42 m c r = W41 m c r :=
  StableHlo.after_of_writes_sub hostOps13_1 _ hostOps13_1_writes h
theorem W43_of (c : Dev nD) (r : Ref sig .tc) (h : r ∉ hostOps13_2_W) : W43 m c r = W42 m c r :=
  StableHlo.after_of_writes_sub hostOps13_2 _ hostOps13_2_writes h
theorem W45_of (c : Dev nD) (r : Ref sig .tc) (h : r ∉ hostOps14_W) : W45 m c r = W44 m c r :=
  StableHlo.after_of_writes_sub hostOps14 _ hostOps14_writes h
theorem W46_of (c : Dev nD) (r : Ref sig .tc) (h : r ∉ hostOps14_1_W) : W46 m c r = W45 m c r :=
  StableHlo.after_of_writes_sub hostOps14_1 _ hostOps14_1_writes h
theorem W47_of (c : Dev nD) (r : Ref sig .tc) (h : r ∉ hostOps14_2_W) : W47 m c r = W46 m c r :=
  StableHlo.after_of_writes_sub hostOps14_2 _ hostOps14_2_writes h
theorem W49_of (c : Dev nD) (r : Ref sig .tc) (h : r ∉ hostOps15_W) : W49 m c r = W48 m c r :=
  StableHlo.after_of_writes_sub hostOps15 _ hostOps15_writes h
theorem W50_of (c : Dev nD) (r : Ref sig .tc) (h : r ∉ hostOps15_1_W) : W50 m c r = W49 m c r :=
  StableHlo.after_of_writes_sub hostOps15_1 _ hostOps15_1_writes h
theorem W51_of (c : Dev nD) (r : Ref sig .tc) (h : r ∉ hostOps15_2_W) : W51 m c r = W50 m c r :=
  StableHlo.after_of_writes_sub hostOps15_2 _ hostOps15_2_writes h
theorem W53_of (c : Dev nD) (r : Ref sig .tc) (h : r ∉ hostOps16_W) : W53 m c r = W52 m c r :=
  StableHlo.after_of_writes_sub hostOps16 _ hostOps16_writes h
theorem W55_of (c : Dev nD) (r : Ref sig .tc) (h : r ∉ hostOps17_W) : W55 m c r = W54 m c r :=
  StableHlo.after_of_writes_sub hostOps17 _ hostOps17_writes h

/-! ## The arguments are never written -/

/-- The twenty-two argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem W0_arg (c : Dev nD) (r : Ref sig .tc) (hr : r ∈ argRefs) : W0 m c r = m ((c : Thread nD τ).loc r) := rfl
theorem W1_arg (c : Dev nD) (r : Ref sig .tc) (hr : r ∈ argRefs) : W1 m c r = m ((c : Thread nD τ).loc r) :=
  (W1_of m c r (by revert r; decide)).trans (W0_arg m c r hr)
theorem W2_arg (c : Dev nD) (r : Ref sig .tc) (hr : r ∈ argRefs) : W2 m c r = m ((c : Thread nD τ).loc r) :=
  (W2_of m c r (by revert r; decide)).trans (W1_arg m c r hr)
theorem W3_arg (c : Dev nD) (r : Ref sig .tc) (hr : r ∈ argRefs) : W3 m c r = m ((c : Thread nD τ).loc r) :=
  (W3_of m c r (by revert r; decide)).trans (W2_arg m c r hr)
theorem W4_arg (c : Dev nD) (r : Ref sig .tc) (hr : r ∈ argRefs) : W4 m c r = m ((c : Thread nD τ).loc r) :=
  (W4_of m c r (by revert r; decide)).trans (W3_arg m c r hr)
theorem W5_arg (c : Dev nD) (r : Ref sig .tc) (hr : r ∈ argRefs) : W5 m c r = m ((c : Thread nD τ).loc r) :=
  (W5_of m c r (by revert r; decide)).trans (W4_arg m c r hr)
theorem W6_arg (c : Dev nD) (r : Ref sig .tc) (hr : r ∈ argRefs) : W6 m c r = m ((c : Thread nD τ).loc r) :=
  (W6_of m c r (by revert r; decide)).trans (W5_arg m c r hr)
theorem W7_arg (c : Dev nD) (r : Ref sig .tc) (hr : r ∈ argRefs) : W7 m c r = m ((c : Thread nD τ).loc r) :=
  (W7_of m c r (by revert r; decide)).trans (W6_arg m c r hr)
theorem W8_arg (c : Dev nD) (r : Ref sig .tc) (hr : r ∈ argRefs) : W8 m c r = m ((c : Thread nD τ).loc r) :=
  (W8_of m c r (by revert r; decide)).trans (W7_arg m c r hr)
theorem W9_arg (c : Dev nD) (r : Ref sig .tc) (hr : r ∈ argRefs) : W9 m c r = m ((c : Thread nD τ).loc r) :=
  (W9_of m c r (by revert r; decide)).trans (W8_arg m c r hr)
theorem W10_arg (c : Dev nD) (r : Ref sig .tc) (hr : r ∈ argRefs) : W10 m c r = m ((c : Thread nD τ).loc r) :=
  (W10_of m c r (by revert r; decide)).trans (W9_arg m c r hr)
theorem W11_arg (c : Dev nD) (r : Ref sig .tc) (hr : r ∈ argRefs) : W11 m c r = m ((c : Thread nD τ).loc r) :=
  (W11_of m c r (by revert r; decide)).trans (W10_arg m c r hr)
theorem W12_arg (c : Dev nD) (r : Ref sig .tc) (hr : r ∈ argRefs) : W12 m c r = m ((c : Thread nD τ).loc r) :=
  (W12_of m c r (by revert r; decide)).trans (W11_arg m c r hr)
theorem W13_arg (c : Dev nD) (r : Ref sig .tc) (hr : r ∈ argRefs) : W13 m c r = m ((c : Thread nD τ).loc r) :=
  (W13_of m c r (by revert r; decide)).trans (W12_arg m c r hr)
theorem W14_arg (c : Dev nD) (r : Ref sig .tc) (hr : r ∈ argRefs) : W14 m c r = m ((c : Thread nD τ).loc r) :=
  (W14_of m c r (by revert r; decide)).trans (W13_arg m c r hr)
theorem W15_arg (c : Dev nD) (r : Ref sig .tc) (hr : r ∈ argRefs) : W15 m c r = m ((c : Thread nD τ).loc r) :=
  (W15_of m c r (by revert r; decide)).trans (W14_arg m c r hr)
theorem W16_arg (c : Dev nD) (r : Ref sig .tc) (hr : r ∈ argRefs) : W16 m c r = m ((c : Thread nD τ).loc r) :=
  (W16_of m c r (by revert r; decide)).trans (W15_arg m c r hr)
theorem W17_arg (c : Dev nD) (r : Ref sig .tc) (hr : r ∈ argRefs) : W17 m c r = m ((c : Thread nD τ).loc r) :=
  (W17_of m c r (by revert r; decide)).trans (W16_arg m c r hr)
theorem W18_arg (c : Dev nD) (r : Ref sig .tc) (hr : r ∈ argRefs) : W18 m c r = m ((c : Thread nD τ).loc r) :=
  (W18_of m c r (by revert r; decide)).trans (W17_arg m c r hr)
theorem W19_arg (c : Dev nD) (r : Ref sig .tc) (hr : r ∈ argRefs) : W19 m c r = m ((c : Thread nD τ).loc r) :=
  (W19_of m c r (by revert r; decide)).trans (W18_arg m c r hr)
theorem W20_arg (c : Dev nD) (r : Ref sig .tc) (hr : r ∈ argRefs) : W20 m c r = m ((c : Thread nD τ).loc r) :=
  (W20_of m c r (by revert r; decide)).trans (W19_arg m c r hr)
theorem W21_arg (c : Dev nD) (r : Ref sig .tc) (hr : r ∈ argRefs) : W21 m c r = m ((c : Thread nD τ).loc r) :=
  (W21_of m c r (by revert r; decide)).trans (W20_arg m c r hr)
theorem W22_arg (c : Dev nD) (r : Ref sig .tc) (hr : r ∈ argRefs) : W22 m c r = m ((c : Thread nD τ).loc r) :=
  (W22_of m c r (by revert r; decide)).trans (W21_arg m c r hr)
theorem W23_arg (c : Dev nD) (r : Ref sig .tc) (hr : r ∈ argRefs) : W23 m c r = m ((c : Thread nD τ).loc r) :=
  (W23_of m c r (by revert r; decide)).trans (W22_arg m c r hr)
theorem W24_arg (c : Dev nD) (r : Ref sig .tc) (hr : r ∈ argRefs) : W24 m c r = m ((c : Thread nD τ).loc r) :=
  (W24_of m c r (by revert r; decide)).trans (W23_arg m c r hr)
theorem W25_arg (c : Dev nD) (r : Ref sig .tc) (hr : r ∈ argRefs) : W25 m c r = m ((c : Thread nD τ).loc r) :=
  (W25_of m c r (by revert r; decide)).trans (W24_arg m c r hr)
theorem W26_arg (c : Dev nD) (r : Ref sig .tc) (hr : r ∈ argRefs) : W26 m c r = m ((c : Thread nD τ).loc r) :=
  (W26_of m c r (by revert r; decide)).trans (W25_arg m c r hr)
theorem W27_arg (c : Dev nD) (r : Ref sig .tc) (hr : r ∈ argRefs) : W27 m c r = m ((c : Thread nD τ).loc r) :=
  (W27_of m c r (by revert r; decide)).trans (W26_arg m c r hr)
theorem W28_arg (c : Dev nD) (r : Ref sig .tc) (hr : r ∈ argRefs) : W28 m c r = m ((c : Thread nD τ).loc r) :=
  (W28_of m c r (by revert r; decide)).trans (W27_arg m c r hr)
theorem W29_arg (c : Dev nD) (r : Ref sig .tc) (hr : r ∈ argRefs) : W29 m c r = m ((c : Thread nD τ).loc r) :=
  (W29_of m c r (by revert r; decide)).trans (W28_arg m c r hr)
theorem W30_arg (c : Dev nD) (r : Ref sig .tc) (hr : r ∈ argRefs) : W30 m c r = m ((c : Thread nD τ).loc r) :=
  (W30_of m c r (by revert r; decide)).trans (W29_arg m c r hr)
theorem W31_arg (c : Dev nD) (r : Ref sig .tc) (hr : r ∈ argRefs) : W31 m c r = m ((c : Thread nD τ).loc r) :=
  (W31_of m c r (by revert r; decide)).trans (W30_arg m c r hr)
theorem W32_arg (c : Dev nD) (r : Ref sig .tc) (hr : r ∈ argRefs) : W32 m c r = m ((c : Thread nD τ).loc r) :=
  (W32_of m c r (by revert r; decide)).trans (W31_arg m c r hr)
theorem W33_arg (c : Dev nD) (r : Ref sig .tc) (hr : r ∈ argRefs) : W33 m c r = m ((c : Thread nD τ).loc r) :=
  (W33_of m c r (by revert r; decide)).trans (W32_arg m c r hr)
theorem W34_arg (c : Dev nD) (r : Ref sig .tc) (hr : r ∈ argRefs) : W34 m c r = m ((c : Thread nD τ).loc r) :=
  (W34_of m c r (by revert r; decide)).trans (W33_arg m c r hr)
theorem W35_arg (c : Dev nD) (r : Ref sig .tc) (hr : r ∈ argRefs) : W35 m c r = m ((c : Thread nD τ).loc r) :=
  (W35_of m c r (by revert r; decide)).trans (W34_arg m c r hr)
theorem W36_arg (c : Dev nD) (r : Ref sig .tc) (hr : r ∈ argRefs) : W36 m c r = m ((c : Thread nD τ).loc r) :=
  (W36_of m c r (by revert r; decide)).trans (W35_arg m c r hr)
theorem W37_arg (c : Dev nD) (r : Ref sig .tc) (hr : r ∈ argRefs) : W37 m c r = m ((c : Thread nD τ).loc r) :=
  (W37_of m c r (by revert r; decide)).trans (W36_arg m c r hr)
theorem W38_arg (c : Dev nD) (r : Ref sig .tc) (hr : r ∈ argRefs) : W38 m c r = m ((c : Thread nD τ).loc r) :=
  (W38_of m c r (by revert r; decide)).trans (W37_arg m c r hr)
theorem W39_arg (c : Dev nD) (r : Ref sig .tc) (hr : r ∈ argRefs) : W39 m c r = m ((c : Thread nD τ).loc r) :=
  (W39_of m c r (by revert r; decide)).trans (W38_arg m c r hr)
theorem W40_arg (c : Dev nD) (r : Ref sig .tc) (hr : r ∈ argRefs) : W40 m c r = m ((c : Thread nD τ).loc r) :=
  (W40_of m c r (by revert r; decide)).trans (W39_arg m c r hr)
theorem W41_arg (c : Dev nD) (r : Ref sig .tc) (hr : r ∈ argRefs) : W41 m c r = m ((c : Thread nD τ).loc r) :=
  (W41_of m c r (by revert r; decide)).trans (W40_arg m c r hr)
theorem W42_arg (c : Dev nD) (r : Ref sig .tc) (hr : r ∈ argRefs) : W42 m c r = m ((c : Thread nD τ).loc r) :=
  (W42_of m c r (by revert r; decide)).trans (W41_arg m c r hr)
theorem W43_arg (c : Dev nD) (r : Ref sig .tc) (hr : r ∈ argRefs) : W43 m c r = m ((c : Thread nD τ).loc r) :=
  (W43_of m c r (by revert r; decide)).trans (W42_arg m c r hr)
theorem W44_arg (c : Dev nD) (r : Ref sig .tc) (hr : r ∈ argRefs) : W44 m c r = m ((c : Thread nD τ).loc r) :=
  (W44_of m c r (by revert r; decide)).trans (W43_arg m c r hr)
theorem W45_arg (c : Dev nD) (r : Ref sig .tc) (hr : r ∈ argRefs) : W45 m c r = m ((c : Thread nD τ).loc r) :=
  (W45_of m c r (by revert r; decide)).trans (W44_arg m c r hr)
theorem W46_arg (c : Dev nD) (r : Ref sig .tc) (hr : r ∈ argRefs) : W46 m c r = m ((c : Thread nD τ).loc r) :=
  (W46_of m c r (by revert r; decide)).trans (W45_arg m c r hr)
theorem W47_arg (c : Dev nD) (r : Ref sig .tc) (hr : r ∈ argRefs) : W47 m c r = m ((c : Thread nD τ).loc r) :=
  (W47_of m c r (by revert r; decide)).trans (W46_arg m c r hr)
theorem W48_arg (c : Dev nD) (r : Ref sig .tc) (hr : r ∈ argRefs) : W48 m c r = m ((c : Thread nD τ).loc r) :=
  (W48_of m c r (by revert r; decide)).trans (W47_arg m c r hr)
theorem W49_arg (c : Dev nD) (r : Ref sig .tc) (hr : r ∈ argRefs) : W49 m c r = m ((c : Thread nD τ).loc r) :=
  (W49_of m c r (by revert r; decide)).trans (W48_arg m c r hr)
theorem W50_arg (c : Dev nD) (r : Ref sig .tc) (hr : r ∈ argRefs) : W50 m c r = m ((c : Thread nD τ).loc r) :=
  (W50_of m c r (by revert r; decide)).trans (W49_arg m c r hr)
theorem W51_arg (c : Dev nD) (r : Ref sig .tc) (hr : r ∈ argRefs) : W51 m c r = m ((c : Thread nD τ).loc r) :=
  (W51_of m c r (by revert r; decide)).trans (W50_arg m c r hr)
theorem W52_arg (c : Dev nD) (r : Ref sig .tc) (hr : r ∈ argRefs) : W52 m c r = m ((c : Thread nD τ).loc r) :=
  (W52_of m c r (by revert r; decide)).trans (W51_arg m c r hr)
theorem W53_arg (c : Dev nD) (r : Ref sig .tc) (hr : r ∈ argRefs) : W53 m c r = m ((c : Thread nD τ).loc r) :=
  (W53_of m c r (by revert r; decide)).trans (W52_arg m c r hr)
theorem W54_arg (c : Dev nD) (r : Ref sig .tc) (hr : r ∈ argRefs) : W54 m c r = m ((c : Thread nD τ).loc r) :=
  (W54_of m c r (by revert r; decide)).trans (W53_arg m c r hr)
theorem W55_arg (c : Dev nD) (r : Ref sig .tc) (hr : r ∈ argRefs) : W55 m c r = m ((c : Thread nD τ).loc r) :=
  (W55_of m c r (by revert r; decide)).trans (W54_arg m c r hr)

end Cert.KernelIdeal.Run

end
-- ==== Proof.KI.RunBase.lean ====
/-
  The thread state between two items of the network, and a kernel region as a segment of the run.
  Between two items a core holds every unscoped buffer whole at a valuation, its generator register at some
  state, and owes nothing. A region is entered from that state at the valuation before it and left at the one
  after it: the buffers behind its windows' arrays are taken out of the unscoped buffers (two windows may read
  one array, each at its share of it), the pipeline runs, and the arrays are put back at what the pipeline left,
  every other unscoped buffer untouched.
-/
import proofs.«143011_g2000502688546152_pallasbulk_1201_3_alg».proof.Proof.KI.GenRegions
import Idealize.ShloMosaic.Lib.Pipeline.FrameBody
import Idealize.ShloMosaic.Lib.Pipeline.Kit

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-- No conditional of a body is decided ahead of time. -/
abbrev 𝒱₀ : Variants := Variants.none
/-- No core owes another anything: no level is assigned. -/
abbrev L : GSem nD τ sig → Finset Unit := fun _ => ∅
abbrev lv : GSem nD τ sig → Unit → ℕ := fun _ _ => 0

/-- A separating product over two distinct indices, and over four, written out. -/
theorem bigSep_two {I : Type} [DecidableEq I] {a b : I} (hab : a ∉ ({b} : Finset I)) (Φ : I → sProp 𝕄) :
    bigSep ({a, b} : Finset I) Φ = iprop(Φ a ∗ Φ b) := by
  rw [bigSep_insert hab, bigSep_singleton]; rfl
theorem bigSep_four {I : Type} [DecidableEq I] {a b c d : I} (ha : a ∉ ({b, c, d} : Finset I)) (hb : b ∉ ({c, d} : Finset I))
    (hc : c ∉ ({d} : Finset I)) (Φ : I → sProp 𝕄) :
    bigSep ({a, b, c, d} : Finset I) Φ = iprop(Φ a ∗ Φ b ∗ Φ c ∗ Φ d) := by
  rw [bigSep_insert ha, bigSep_insert hb, bigSep_insert hc, bigSep_singleton]; rfl

/-- A pipeline's arrays, every one a whole buffer, as the buffers behind them each at its window's share. -/
theorem arrays_eq_shares {cfg : Pipeline.Cfg sig Λ₀} {c : Dev nD} (dat : Dat τ (Elt F) Unit ℕ (UR sig nD τ) ℕ cfg c)
    (harr : ∀ w, (cfg.spec w).arr.IsWhole)
    (G : (w : Fin cfg.W) → Buf (Elt F) ((cfg.spec w).arr.view.loc (c.tc : Thread nD τ))) :
    dat.arrays G = bigSep Finset.univ fun w =>
      (((c.tc : Thread nD τ).loc (Pipeline.arrRef cfg.spec w)) ↦{dat.share w} G w : sProp 𝕄) := by
  unfold Pipeline.Dat.arrays
  exact bigSep_congr fun w _ => by rw [(harr w).set_eq_univ]

/-- What rides beside the buffers through every item: the core's generator register at some state, and the core
    owing nothing. -/
abbrev Rest (c : Dev nD) : sProp 𝕄 :=
  iprop((∃ r, prngReg c r) ∗ ∃ W, owes (c : Thread nD τ) (0 : CellTallies nD τ sig Unit) W)

/-- The state between two items: every unscoped buffer whole at `V`, and the rest. -/
abbrev Between (V : Valuation τ sig (Elt F)) (c : Dev nD) : sProp 𝕄 :=
  iprop(StableHlo.held (c : Thread nD τ) (Pipeline.ucRefs τ sig) V ∗ Rest c)

-- the library's lemmas are stated over the pinned configuration, which unifies with `cfgs p` only when unification
-- may unfold plain definitions in a metavariable's type
set_option backward.isDefEq.respectTransparency.types false in
/-- REGION `p` AS A SEGMENT, entered at the valuation `V` and left at `V'`. Given: the windows' layout; the body
    obligation; nothing owed, no bound on the recorded waits; the invariant at the first and the last point the scoped rest beside the generator
    register; the buffers behind the arrays at `V` make the pipeline's arrays at entry (`hsplit`) and the arrays after
    the last point make those buffers at `V'` (`hjoin`); `V'` is `V` off the arrays (`hrest`). -/
def region (p : Fin 17)
    (pdats : (p : Fin 17) → (c : Dev nD) → Dat τ (Elt F) Unit ℕ (UR sig nD τ) ℕ (cfgs p) c)
    (hw : Pipeline.WinFacts₀ (pcfgs (F := F) p).spec)
    (hpos : ∀ w : Fin (cfgs p).W, 0 < ((cfgs p).spec w).block.numel)
    (hstage : ∀ (w : Fin (cfgs p).W) (s : Fin ((cfgs p).spec w).nbuf), (((cfgs p).spec w).stage s).IsWhole)
    (hbody : ∀ c, BodyObligation (pdats p c) (defs₀ (F := F)) Variants.none () Set.univ)
    (howed : ∀ c t, (pdats p c).owed t = 0)
    (hrec : ∀ c t, (pdats p c).recorded t = Set.univ)
    (hΦ0 : ∀ c, (pdats p c).Φ 0 = Pipeline.ΦA (cfgs p).spec c)
    (hΦN : ∀ c, (pdats p c).Φ (Fin.last (cfgs p).N) = Pipeline.ΦA (cfgs p).spec c)
    (V V' : Dev nD → Valuation τ sig (Elt F))
    (hsplit : ∀ c, (Pipeline.arrBufs (cfgs p).spec c (fun b => V c b) : sProp 𝕄) ⊢ (pdats p c).arrays ((pdats p c).arrAt · 0))
    (hjoin : ∀ c, (pdats p c).arrays ((pdats p c).arrAt · (cfgs p).N) ⊢ (Pipeline.arrBufs (cfgs p).spec c (fun b => V' c b) : sProp 𝕄))
    (hrest : ∀ c (b : Ref sig .tc), b ∉ Finset.univ.image (Pipeline.arrRef (cfgs p).spec) → V' c b = V c b) :
    RegionSeg (pcfgs (F := F)) adm pdats () defs₀ 𝒱₀ L lv p where
  win := hw
  block_pos := hpos
  stage_whole := hstage
  K := PEmpty
  osem k := k.elim
  ho := Pipeline.OwnSemFacts.none _
  hbody c := (hbody c).loose
  hwaits := Pipeline.hwaits_of_owed_zero _ _ _ _ L lv p howed
  pre c := Between (V c) c
  post c := Between (V' c) c
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hub : (unscopedBufs c (fun b => V c b) : sProp 𝕄)
        = iprop(Pipeline.arrBufs (cfgs p).spec c (fun b => V c b) ∗ Pipeline.unscopedRest (cfgs p).spec c (fun b => V c b)) :=
      Pipeline.unscopedBufs_split₀ cfgs p hw.arr_unscoped c (fun b => V c b)
    rw [Pipeline.unscopedBufs_held] at hub
    iintro ⟨⟨Hub, Hp, HO⟩, -, -⟩
    ihave H := (Entails.of_eq hub) $$ Hub
    icases H with ⟨Ha, Hrest⟩
    imodintro
    isplitl [Ha]; · iapply (hsplit c); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hub : (unscopedBufs c (fun b => V' c b) : sProp 𝕄)
        = iprop(Pipeline.arrBufs (cfgs p).spec c (fun b => V' c b) ∗ Pipeline.unscopedRest (cfgs p).spec c (fun b => V' c b)) :=
      Pipeline.unscopedBufs_split₀ cfgs p hw.arr_unscoped c (fun b => V' c b)
    rw [Pipeline.unscopedBufs_held] at hub
    have hr : (Pipeline.unscopedRest (cfgs p).spec c (fun b => V c b) : sProp 𝕄) = Pipeline.unscopedRest (cfgs p).spec c (fun b => V' c b) := by
      unfold Pipeline.unscopedRest
      exact bigSep_congr fun b hb => by simp only [hrest c b (Finset.mem_sdiff.mp hb).2]
    iintro ⟨Ha, HO, HY, Hrest⟩
    imodintro
    isplitl [Ha Hrest]
    · iapply (Entails.of_eq hub.symm)
      isplitl [Ha]; · iapply (hjoin c); iexact Ha
      rw [← hr]; iexact Hrest
    isplitl [HY]; · iexact HY
    unfold Pipeline.Dat.owesAt Pipeline.owesWithin
    rw [howed c (Fin.last _)]
    icases HO with ⟨%W, -, HO⟩; iexists W; iexact HO

end Cert.KernelIdeal.Run

end
-- ==== Proof.KI.RunArr0.lean ====
/-
  Region 0 (the first convolution): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg0
import proofs.«143011_g2000502688546152_pallasbulk_1201_3_alg».proof.Proof.KI.RunBase

set_option maxRecDepth 1536

noncomputable section

namespace Cert.KernelIdeal.Reg0

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec0) = ({main_v9, main_v10, main_arg3, main_v11} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v9 := ((dat V c).arrAt_in 0 rfl n).trans (A_eq V c 0)
theorem arrAt_1 (c : Dev nD) (n : ℕ) : (dat V c).arrAt 1 n = V c main_v9 := ((dat V c).arrAt_in 1 rfl n).trans (A_eq V c 1)
theorem arrAt_2 (c : Dev nD) (n : ℕ) : (dat V c).arrAt 2 n = V c main_v10 := ((dat V c).arrAt_in 2 rfl n).trans (A_eq V c 2)
theorem arrAt_3 (c : Dev nD) (n : ℕ) : (dat V c).arrAt 3 n = V c main_arg3 := ((dat V c).arrAt_in 3 rfl n).trans (A_eq V c 3)
/-- At entry the output's array holds what the region found. -/
theorem arrAt_4_zero (c : Dev nD) : (dat V c).arrAt 4 0 = V c main_v11 := A_eq V c 4

set_option maxHeartbeats 1000000 in
/-- ENTRY: the four buffers at what the region finds make the pipeline's arrays at their entry contents. -/
theorem hsplit (c : Dev nD) :
    (Pipeline.arrBufs spec0 c (V c) : sProp 𝕄) ⊢ (dat V c).arrays ((dat V c).arrAt · 0) := by
  rw [Run.arrays_eq_shares (dat V c) arr_whole0, bigSep_W0]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v9 = V c main_v9) (hw : V' main_v10 = V c main_v10) (hb : V' main_arg3 = V c main_arg3)
    (ho : V' main_v11 = (dat V c).arrAt (4 : Fin 5) cfg0.N) :
    (dat V c).arrays ((dat V c).arrAt · cfg0.N) ⊢ (Pipeline.arrBufs spec0 c V' : sProp 𝕄) := by
  rw [Run.arrays_eq_shares (dat V c) arr_whole0, bigSep_W0]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg0

end
-- ==== Proof.KI.RunArr1.lean ====
/-
  Region 1 (the second convolution, 64 to 64 channels at 224 × 224): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg1
import proofs.«143011_g2000502688546152_pallasbulk_1201_3_alg».proof.Proof.KI.RunBase

set_option maxRecDepth 1536

noncomputable section

namespace Cert.KernelIdeal.Reg1

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec1) = ({main_v12, main_v13, main_arg5, main_v14} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v12 := ((dat V c).arrAt_in 0 rfl n).trans (A_eq V c 0)
theorem arrAt_1 (c : Dev nD) (n : ℕ) : (dat V c).arrAt 1 n = V c main_v12 := ((dat V c).arrAt_in 1 rfl n).trans (A_eq V c 1)
theorem arrAt_2 (c : Dev nD) (n : ℕ) : (dat V c).arrAt 2 n = V c main_v13 := ((dat V c).arrAt_in 2 rfl n).trans (A_eq V c 2)
theorem arrAt_3 (c : Dev nD) (n : ℕ) : (dat V c).arrAt 3 n = V c main_arg5 := ((dat V c).arrAt_in 3 rfl n).trans (A_eq V c 3)
/-- At entry the output's array holds what the region found. -/
theorem arrAt_4_zero (c : Dev nD) : (dat V c).arrAt 4 0 = V c main_v14 := A_eq V c 4

set_option maxHeartbeats 1000000 in
/-- ENTRY: the four buffers at what the region finds make the pipeline's arrays at their entry contents. -/
theorem hsplit (c : Dev nD) :
    (Pipeline.arrBufs spec1 c (V c) : sProp 𝕄) ⊢ (dat V c).arrays ((dat V c).arrAt · 0) := by
  rw [Run.arrays_eq_shares (dat V c) arr_whole1, bigSep_W1]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v12 = V c main_v12) (hw : V' main_v13 = V c main_v13) (hb : V' main_arg5 = V c main_arg5)
    (ho : V' main_v14 = (dat V c).arrAt (4 : Fin 5) cfg1.N) :
    (dat V c).arrays ((dat V c).arrAt · cfg1.N) ⊢ (Pipeline.arrBufs spec1 c V' : sProp 𝕄) := by
  rw [Run.arrays_eq_shares (dat V c) arr_whole1, bigSep_W1]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg1

end
-- ==== Proof.KI.RunArr2.lean ====
/-
  Region 2 (the sums of absolute differences at the first feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.KI.Reg2
import proofs.«143011_g2000502688546152_pallasbulk_1201_3_alg».proof.Proof.KI.RunBase

set_option maxRecDepth 1536

noncomputable section

namespace Cert.KernelIdeal.Reg2

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec2) = ({main_v15, main_v16} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v15 := ((dat V c).arrAt_in 0 rfl n).trans (A_eq V c 0)
theorem arrAt_1 (c : Dev nD) (n : ℕ) : (dat V c).arrAt 1 n = V c main_v15 := ((dat V c).arrAt_in 1 rfl n).trans (A_eq V c 1)
/-- At entry the sums' array holds what the region found. -/
theorem arrAt_2_zero (c : Dev nD) : (dat V c).arrAt 2 0 = V c main_v16 := A_eq V c 2

set_option maxHeartbeats 1000000 in
/-- ENTRY: the two buffers at what the region finds make the pipeline's arrays at their entry contents. -/
theorem hsplit (c : Dev nD) :
    (Pipeline.arrBufs spec2 c (V c) : sProp 𝕄) ⊢ (dat V c).arrays ((dat V c).arrAt · 0) := by
  rw [Run.arrays_eq_shares (dat V c) arr_whole2, bigSep_W2]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v15 = V c main_v15) (ho : V' main_v16 = (dat V c).arrAt (2 : Fin 3) cfg2.N) :
    (dat V c).arrays ((dat V c).arrAt · cfg2.N) ⊢ (Pipeline.arrBufs spec2 c V' : sProp 𝕄) := by
  rw [Run.arrays_eq_shares (dat V c) arr_whole2, bigSep_W2]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.KernelIdeal.Reg2

end
-- ==== Proof.KI.RunArr3.lean ====
/-
  Region 3 (the first 2×2 max pooling): its arrays in and out of the core's unscoped buffers. Two windows on two
  buffers, each held whole: the features read, and the pooled features written. After the last point the features
  are as they were found (an input array is never written) and the pooled buffer holds what the write-backs left.
-/
import proofs.«143011_g2000502688546152_pallasbulk_1201_3_alg».proof.Proof.KI.Reg3
import proofs.«143011_g2000502688546152_pallasbulk_1201_3_alg».proof.Proof.KI.RunBase

set_option maxRecDepth 1536

noncomputable section

namespace Cert.KernelIdeal.Reg3

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the two windows. -/
theorem arrRefs : Finset.univ.image (Pipeline.arrRef spec3) = ({main_v22, main_v23} : Finset (Ref sig .tc)) := by
  decide

/-- Both arrays are held whole. -/
theorem share_0 (c : Dev nD) : (dat V c).share 0 = fullShare := rfl
theorem share_1 (c : Dev nD) : (dat V c).share 1 = fullShare := rfl

/-- The input's array is never written: after any number of points it holds what the region found. -/
theorem arrAt_0 (c : Dev nD) (n : ℕ) : (dat V c).arrAt 0 n = V c main_v22 := ((dat V c).arrAt_in 0 rfl n).trans (A_eq V c 0)
/-- At entry the pooled array holds what the region found. -/
theorem arrAt_1_zero (c : Dev nD) : (dat V c).arrAt 1 0 = V c main_v23 := A_eq V c 1

set_option maxHeartbeats 1000000 in
/-- ENTRY: the two buffers at what the region finds make the pipeline's arrays at their entry contents. -/
theorem hsplit (c : Dev nD) :
    (Pipeline.arrBufs spec3 c (V c) : sProp 𝕄) ⊢ (dat V c).arrays ((dat V c).arrAt · 0) := by
  rw [Run.arrays_eq_shares (dat V c) arr_whole3, bigSep_W3]
  unfold Pipeline.arrBufs
  rw [arrRefs, Run.bigSep_two (by decide)]
  simp only [share_0, share_1, arrAt_0, arrAt_1_zero]
  iintro ⟨Hx, Ho⟩
  isplitl [Hx]; · iexact Hx
  iexact Ho

set_option maxHeartbeats 1000000 in
/-- EXIT: the pipeline's arrays after the last point make the two buffers at any contents `V'` that has the features
    as the region found them and the pooled buffer at what the write-backs left. -/
theorem hjoin (c : Dev nD) (V' : (b : Ref sig .tc) → Buf (Elt F) ((c : Thread nD τ).loc b))
    (hx : V' main_v22 = V c main_v22) (ho : V' main_v23 = (dat V c).arrAt (1 : Fin 2) cfg3.N) :
    (dat V c).arrays ((dat V c).arrAt · cfg3.N) ⊢ (Pipeline.arrBufs spec3 c V' : sProp 𝕄) := by
  rw [Run.arrays_eq_shares (dat V c) arr_whole3, bigSep_W3]
  unfold Pipeline.arrBufs
  rw [arrRefs, Run.bigSep_two (by decide)]
  simp only [share_0, share_1, arrAt_0, hx, ho]
  iintro ⟨Hx, Ho⟩
  isplitl [Hx]; · iexact Hx
  iexact Ho

end Cert.KernelIdeal.Reg3

end
-- ==== Proof.KI.RunArr4.lean ====
/-
  Region 4 (the third convolution, 64 to 128 channels at 112 × 112): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg4
import proofs.«143011_g2000502688546152_pallasbulk_1201_3_alg».proof.Proof.KI.RunBase

set_option maxRecDepth 1536

noncomputable section

namespace Cert.KernelIdeal.Reg4

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec4) = ({main_v24, main_v25, main_arg7, main_v26} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v24 := ((dat V c).arrAt_in 0 rfl n).trans (A_eq V c 0)
theorem arrAt_1 (c : Dev nD) (n : ℕ) : (dat V c).arrAt 1 n = V c main_v24 := ((dat V c).arrAt_in 1 rfl n).trans (A_eq V c 1)
theorem arrAt_2 (c : Dev nD) (n : ℕ) : (dat V c).arrAt 2 n = V c main_v25 := ((dat V c).arrAt_in 2 rfl n).trans (A_eq V c 2)
theorem arrAt_3 (c : Dev nD) (n : ℕ) : (dat V c).arrAt 3 n = V c main_arg7 := ((dat V c).arrAt_in 3 rfl n).trans (A_eq V c 3)
/-- At entry the output's array holds what the region found. -/
theorem arrAt_4_zero (c : Dev nD) : (dat V c).arrAt 4 0 = V c main_v26 := A_eq V c 4

set_option maxHeartbeats 1000000 in
/-- ENTRY: the four buffers at what the region finds make the pipeline's arrays at their entry contents. -/
theorem hsplit (c : Dev nD) :
    (Pipeline.arrBufs spec4 c (V c) : sProp 𝕄) ⊢ (dat V c).arrays ((dat V c).arrAt · 0) := by
  rw [Run.arrays_eq_shares (dat V c) arr_whole4, bigSep_W4]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v24 = V c main_v24) (hw : V' main_v25 = V c main_v25) (hb : V' main_arg7 = V c main_arg7)
    (ho : V' main_v26 = (dat V c).arrAt (4 : Fin 5) cfg4.N) :
    (dat V c).arrays ((dat V c).arrAt · cfg4.N) ⊢ (Pipeline.arrBufs spec4 c V' : sProp 𝕄) := by
  rw [Run.arrays_eq_shares (dat V c) arr_whole4, bigSep_W4]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg4

end
-- ==== Proof.KI.RunArr5.lean ====
/-
  Region 5 (the fourth convolution, 128 to 128 channels at 112 × 112): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg5
import proofs.«143011_g2000502688546152_pallasbulk_1201_3_alg».proof.Proof.KI.RunBase

set_option maxRecDepth 1536

noncomputable section

namespace Cert.KernelIdeal.Reg5

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec5) = ({main_v27, main_v30, main_arg9, main_v31} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v27 := ((dat V c).arrAt_in 0 rfl n).trans (A_eq V c 0)
theorem arrAt_1 (c : Dev nD) (n : ℕ) : (dat V c).arrAt 1 n = V c main_v27 := ((dat V c).arrAt_in 1 rfl n).trans (A_eq V c 1)
theorem arrAt_2 (c : Dev nD) (n : ℕ) : (dat V c).arrAt 2 n = V c main_v30 := ((dat V c).arrAt_in 2 rfl n).trans (A_eq V c 2)
theorem arrAt_3 (c : Dev nD) (n : ℕ) : (dat V c).arrAt 3 n = V c main_arg9 := ((dat V c).arrAt_in 3 rfl n).trans (A_eq V c 3)
/-- At entry the output's array holds what the region found. -/
theorem arrAt_4_zero (c : Dev nD) : (dat V c).arrAt 4 0 = V c main_v31 := A_eq V c 4

set_option maxHeartbeats 1000000 in
/-- ENTRY: the four buffers at what the region finds make the pipeline's arrays at their entry contents. -/
theorem hsplit (c : Dev nD) :
    (Pipeline.arrBufs spec5 c (V c) : sProp 𝕄) ⊢ (dat V c).arrays ((dat V c).arrAt · 0) := by
  rw [Run.arrays_eq_shares (dat V c) arr_whole5, bigSep_W5]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v27 = V c main_v27) (hw : V' main_v30 = V c main_v30) (hb : V' main_arg9 = V c main_arg9)
    (ho : V' main_v31 = (dat V c).arrAt (4 : Fin 5) cfg5.N) :
    (dat V c).arrays ((dat V c).arrAt · cfg5.N) ⊢ (Pipeline.arrBufs spec5 c V' : sProp 𝕄) := by
  rw [Run.arrays_eq_shares (dat V c) arr_whole5, bigSep_W5]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg5

end
-- ==== Proof.KI.RunSegsA.lean ====
/-
  Regions 0 to 5 of the network as segments of its run: each entered at the contents before it and left at those
  contents with its output array at what the pipeline's write-backs leave, the rest riding along unchanged.
-/
import proofs.«143011_g2000502688546152_pallasbulk_1201_3_alg».proof.Proof.KI.RunChainAt
import proofs.«143011_g2000502688546152_pallasbulk_1201_3_alg».proof.Proof.KI.RunBase
import proofs.«143011_g2000502688546152_pallasbulk_1201_3_alg».proof.Proof.KI.RunArr0
import proofs.«143011_g2000502688546152_pallasbulk_1201_3_alg».proof.Proof.KI.RunArr1
import proofs.«143011_g2000502688546152_pallasbulk_1201_3_alg».proof.Proof.KI.RunArr2
import proofs.«143011_g2000502688546152_pallasbulk_1201_3_alg».proof.Proof.KI.RunArr3
import proofs.«143011_g2000502688546152_pallasbulk_1201_3_alg».proof.Proof.KI.RunArr4
import proofs.«143011_g2000502688546152_pallasbulk_1201_3_alg».proof.Proof.KI.RunArr5

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Region 0 (the first convolution), entered at the contents before it and left at those with its output array
    at what the write-backs leave. -/
def reg0 : RegionSeg (pcfgs (F := F)) adm (pdats m) () defs₀ 𝒱₀ L lv 0 :=
  region 0 (pdats m) winFacts₀0 block_pos0 stage_whole0
    (fun c => Reg0.body_obligation (U3 m) c) (fun _ _ => rfl) (fun _ _ => rfl) (fun _ => rfl) (fun _ => rfl)
    (W3 m) (W4 m)
    (fun c => Reg0.hsplit (U3 m) c)
    (fun c => Reg0.hjoin (U3 m) c (fun r => W4 m c r)
      (W4_of m c main_v9 (by decide)) (W4_of m c main_v10 (by decide)) (W4_of m c main_arg3 (by decide)) (W4_self m c))
    (fun c r hr => W4_of m c r (by rintro rfl; exact hr (by decide)))

/-- Region 1 (the second convolution, 64 to 64 channels at 224 × 224), entered at the contents before it and left at those with its output array
    at what the write-backs leave. -/
def reg1 : RegionSeg (pcfgs (F := F)) adm (pdats m) () defs₀ 𝒱₀ L lv 1 :=
  region 1 (pdats m) winFacts₀1 block_pos1 stage_whole1
    (fun c => Reg1.body_obligation (U7 m) c) (fun _ _ => rfl) (fun _ _ => rfl) (fun _ => rfl) (fun _ => rfl)
    (W7 m) (W8 m)
    (fun c => Reg1.hsplit (U7 m) c)
    (fun c => Reg1.hjoin (U7 m) c (fun r => W8 m c r)
      (W8_of m c main_v12 (by decide)) (W8_of m c main_v13 (by decide)) (W8_of m c main_arg5 (by decide)) (W8_self m c))
    (fun c r hr => W8_of m c r (by rintro rfl; exact hr (by decide)))

/-- Region 2 (the sums of absolute differences at the first feature level), entered at the contents before it and left at those with its output array
    at what the write-backs leave. -/
def reg2 : RegionSeg (pcfgs (F := F)) adm (pdats m) () defs₀ 𝒱₀ L lv 2 :=
  region 2 (pdats m) winFacts₀2 block_pos2 stage_whole2
    (fun c => Reg2.body_obligation (U9 m) c) (fun _ _ => rfl) (fun _ _ => rfl) (fun _ => rfl) (fun _ => rfl)
    (W9 m) (W10 m)
    (fun c => Reg2.hsplit (U9 m) c)
    (fun c => Reg2.hjoin (U9 m) c (fun r => W10 m c r)
      (W10_of m c main_v15 (by decide)) (W10_self m c))
    (fun c r hr => W10_of m c r (by rintro rfl; exact hr (by decide)))

/-- Region 3 (the first 2×2 max pooling), entered at the contents before it and left at those with its output array
    at what the write-backs leave. -/
def reg3 : RegionSeg (pcfgs (F := F)) adm (pdats m) () defs₀ 𝒱₀ L lv 3 :=
  region 3 (pdats m) winFacts3.to₀ block_pos3 stage_whole3
    (fun c => Reg3.body_obligation (U11 m) c) (fun _ _ => rfl) (fun _ _ => rfl) (fun _ => rfl) (fun _ => rfl)
    (W11 m) (W12 m)
    (fun c => Reg3.hsplit (U11 m) c)
    (fun c => Reg3.hjoin (U11 m) c (fun r => W12 m c r)
      (W12_of m c main_v22 (by decide)) (W12_self m c))
    (fun c r hr => W12_of m c r (by rintro rfl; exact hr (by decide)))

/-- Region 4 (the third convolution, 64 to 128 channels at 112 × 112), entered at the contents before it and left at those with its output array
    at what the write-backs leave. -/
def reg4 : RegionSeg (pcfgs (F := F)) adm (pdats m) () defs₀ 𝒱₀ L lv 4 :=
  region 4 (pdats m) winFacts₀4 block_pos4 stage_whole4
    (fun c => Reg4.body_obligation (U15 m) c) (fun _ _ => rfl) (fun _ _ => rfl) (fun _ => rfl) (fun _ => rfl)
    (W15 m) (W16 m)
    (fun c => Reg4.hsplit (U15 m) c)
    (fun c => Reg4.hjoin (U15 m) c (fun r => W16 m c r)
      (W16_of m c main_v24 (by decide)) (W16_of m c main_v25 (by decide)) (W16_of m c main_arg7 (by decide)) (W16_self m c))
    (fun c r hr => W16_of m c r (by rintro rfl; exact hr (by decide)))

/-- Region 5 (the fourth convolution, 128 to 128 channels at 112 × 112), entered at the contents before it and left at those with its output array
    at what the write-backs leave. -/
def reg5 : RegionSeg (pcfgs (F := F)) adm (pdats m) () defs₀ 𝒱₀ L lv 5 :=
  region 5 (pdats m) winFacts₀5 block_pos5 stage_whole5
    (fun c => Reg5.body_obligation (U19 m) c) (fun _ _ => rfl) (fun _ _ => rfl) (fun _ => rfl) (fun _ => rfl)
    (W19 m) (W20 m)
    (fun c => Reg5.hsplit (U19 m) c)
    (fun c => Reg5.hjoin (U19 m) c (fun r => W20 m c r)
      (W20_of m c main_v27 (by decide)) (W20_of m c main_v30 (by decide)) (W20_of m c main_arg9 (by decide)) (W20_self m c))
    (fun c r hr => W20_of m c r (by rintro rfl; exact hr (by decide)))

end Cert.KernelIdeal.Run

end
-- ==== Proof.KI.RunArr6.lean ====
/-
  Region 6 (the sums of absolute differences at the second feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.KI.Reg6
import proofs.«143011_g2000502688546152_pallasbulk_1201_3_alg».proof.Proof.KI.RunBase

set_option maxRecDepth 1536

noncomputable section

namespace Cert.KernelIdeal.Reg6

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec6) = ({main_v32, main_v33} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v32 := ((dat V c).arrAt_in 0 rfl n).trans (A_eq V c 0)
theorem arrAt_1 (c : Dev nD) (n : ℕ) : (dat V c).arrAt 1 n = V c main_v32 := ((dat V c).arrAt_in 1 rfl n).trans (A_eq V c 1)
/-- At entry the sums' array holds what the region found. -/
theorem arrAt_2_zero (c : Dev nD) : (dat V c).arrAt 2 0 = V c main_v33 := A_eq V c 2

set_option maxHeartbeats 1000000 in
/-- ENTRY: the two buffers at what the region finds make the pipeline's arrays at their entry contents. -/
theorem hsplit (c : Dev nD) :
    (Pipeline.arrBufs spec6 c (V c) : sProp 𝕄) ⊢ (dat V c).arrays ((dat V c).arrAt · 0) := by
  rw [Run.arrays_eq_shares (dat V c) arr_whole6, bigSep_W6]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v32 = V c main_v32) (ho : V' main_v33 = (dat V c).arrAt (2 : Fin 3) cfg6.N) :
    (dat V c).arrays ((dat V c).arrAt · cfg6.N) ⊢ (Pipeline.arrBufs spec6 c V' : sProp 𝕄) := by
  rw [Run.arrays_eq_shares (dat V c) arr_whole6, bigSep_W6]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.KernelIdeal.Reg6

end
-- ==== Proof.KI.RunArr7.lean ====
/-
  Region 7 (the second 2×2 max pooling): its arrays in and out of the core's unscoped buffers. Two windows on two
  buffers, each held whole: the features read, and the pooled features written. After the last point the features
  are as they were found (an input array is never written) and the pooled buffer holds what the write-backs left.
-/
import proofs.«143011_g2000502688546152_pallasbulk_1201_3_alg».proof.Proof.KI.Reg7
import proofs.«143011_g2000502688546152_pallasbulk_1201_3_alg».proof.Proof.KI.RunBase

set_option maxRecDepth 1536

noncomputable section

namespace Cert.KernelIdeal.Reg7

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the two windows. -/
theorem arrRefs : Finset.univ.image (Pipeline.arrRef spec7) = ({main_v39, main_v40} : Finset (Ref sig .tc)) := by
  decide

/-- Both arrays are held whole. -/
theorem share_0 (c : Dev nD) : (dat V c).share 0 = fullShare := rfl
theorem share_1 (c : Dev nD) : (dat V c).share 1 = fullShare := rfl

/-- The input's array is never written: after any number of points it holds what the region found. -/
theorem arrAt_0 (c : Dev nD) (n : ℕ) : (dat V c).arrAt 0 n = V c main_v39 := ((dat V c).arrAt_in 0 rfl n).trans (A_eq V c 0)
/-- At entry the pooled array holds what the region found. -/
theorem arrAt_1_zero (c : Dev nD) : (dat V c).arrAt 1 0 = V c main_v40 := A_eq V c 1

set_option maxHeartbeats 1000000 in
/-- ENTRY: the two buffers at what the region finds make the pipeline's arrays at their entry contents. -/
theorem hsplit (c : Dev nD) :
    (Pipeline.arrBufs spec7 c (V c) : sProp 𝕄) ⊢ (dat V c).arrays ((dat V c).arrAt · 0) := by
  rw [Run.arrays_eq_shares (dat V c) arr_whole7, bigSep_W7]
  unfold Pipeline.arrBufs
  rw [arrRefs, Run.bigSep_two (by decide)]
  simp only [share_0, share_1, arrAt_0, arrAt_1_zero]
  iintro ⟨Hx, Ho⟩
  isplitl [Hx]; · iexact Hx
  iexact Ho

set_option maxHeartbeats 1000000 in
/-- EXIT: the pipeline's arrays after the last point make the two buffers at any contents `V'` that has the features
    as the region found them and the pooled buffer at what the write-backs left. -/
theorem hjoin (c : Dev nD) (V' : (b : Ref sig .tc) → Buf (Elt F) ((c : Thread nD τ).loc b))
    (hx : V' main_v39 = V c main_v39) (ho : V' main_v40 = (dat V c).arrAt (1 : Fin 2) cfg7.N) :
    (dat V c).arrays ((dat V c).arrAt · cfg7.N) ⊢ (Pipeline.arrBufs spec7 c V' : sProp 𝕄) := by
  rw [Run.arrays_eq_shares (dat V c) arr_whole7, bigSep_W7]
  unfold Pipeline.arrBufs
  rw [arrRefs, Run.bigSep_two (by decide)]
  simp only [share_0, share_1, arrAt_0, hx, ho]
  iintro ⟨Hx, Ho⟩
  isplitl [Hx]; · iexact Hx
  iexact Ho

end Cert.KernelIdeal.Reg7

end
-- ==== Proof.KI.RunArr8.lean ====
/-
  Region 8 (the fifth convolution, 128 to 256 channels at 56 × 56): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg8
import proofs.«143011_g2000502688546152_pallasbulk_1201_3_alg».proof.Proof.KI.RunBase

set_option maxRecDepth 1536

noncomputable section

namespace Cert.KernelIdeal.Reg8

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec8) = ({main_v41, main_v44, main_arg11, main_v45} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v41 := ((dat V c).arrAt_in 0 rfl n).trans (A_eq V c 0)
theorem arrAt_1 (c : Dev nD) (n : ℕ) : (dat V c).arrAt 1 n = V c main_v41 := ((dat V c).arrAt_in 1 rfl n).trans (A_eq V c 1)
theorem arrAt_2 (c : Dev nD) (n : ℕ) : (dat V c).arrAt 2 n = V c main_v44 := ((dat V c).arrAt_in 2 rfl n).trans (A_eq V c 2)
theorem arrAt_3 (c : Dev nD) (n : ℕ) : (dat V c).arrAt 3 n = V c main_arg11 := ((dat V c).arrAt_in 3 rfl n).trans (A_eq V c 3)
/-- At entry the output's array holds what the region found. -/
theorem arrAt_4_zero (c : Dev nD) : (dat V c).arrAt 4 0 = V c main_v45 := A_eq V c 4

set_option maxHeartbeats 1000000 in
/-- ENTRY: the four buffers at what the region finds make the pipeline's arrays at their entry contents. -/
theorem hsplit (c : Dev nD) :
    (Pipeline.arrBufs spec8 c (V c) : sProp 𝕄) ⊢ (dat V c).arrays ((dat V c).arrAt · 0) := by
  rw [Run.arrays_eq_shares (dat V c) arr_whole8, bigSep_W8]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v41 = V c main_v41) (hw : V' main_v44 = V c main_v44) (hb : V' main_arg11 = V c main_arg11)
    (ho : V' main_v45 = (dat V c).arrAt (4 : Fin 5) cfg8.N) :
    (dat V c).arrays ((dat V c).arrAt · cfg8.N) ⊢ (Pipeline.arrBufs spec8 c V' : sProp 𝕄) := by
  rw [Run.arrays_eq_shares (dat V c) arr_whole8, bigSep_W8]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg8

end
-- ==== Proof.KI.RunArr9.lean ====
/-
  Region 9 (the sixth convolution, 256 to 256 channels at 56 × 56): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg9
import proofs.«143011_g2000502688546152_pallasbulk_1201_3_alg».proof.Proof.KI.RunBase

set_option maxRecDepth 1536

noncomputable section

namespace Cert.KernelIdeal.Reg9

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec9) = ({main_v46, main_v49, main_arg13, main_v50} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v46 := ((dat V c).arrAt_in 0 rfl n).trans (A_eq V c 0)
theorem arrAt_1 (c : Dev nD) (n : ℕ) : (dat V c).arrAt 1 n = V c main_v46 := ((dat V c).arrAt_in 1 rfl n).trans (A_eq V c 1)
theorem arrAt_2 (c : Dev nD) (n : ℕ) : (dat V c).arrAt 2 n = V c main_v49 := ((dat V c).arrAt_in 2 rfl n).trans (A_eq V c 2)
theorem arrAt_3 (c : Dev nD) (n : ℕ) : (dat V c).arrAt 3 n = V c main_arg13 := ((dat V c).arrAt_in 3 rfl n).trans (A_eq V c 3)
/-- At entry the output's array holds what the region found. -/
theorem arrAt_4_zero (c : Dev nD) : (dat V c).arrAt 4 0 = V c main_v50 := A_eq V c 4

set_option maxHeartbeats 1000000 in
/-- ENTRY: the four buffers at what the region finds make the pipeline's arrays at their entry contents. -/
theorem hsplit (c : Dev nD) :
    (Pipeline.arrBufs spec9 c (V c) : sProp 𝕄) ⊢ (dat V c).arrays ((dat V c).arrAt · 0) := by
  rw [Run.arrays_eq_shares (dat V c) arr_whole9, bigSep_W9]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v46 = V c main_v46) (hw : V' main_v49 = V c main_v49) (hb : V' main_arg13 = V c main_arg13)
    (ho : V' main_v50 = (dat V c).arrAt (4 : Fin 5) cfg9.N) :
    (dat V c).arrays ((dat V c).arrAt · cfg9.N) ⊢ (Pipeline.arrBufs spec9 c V' : sProp 𝕄) := by
  rw [Run.arrays_eq_shares (dat V c) arr_whole9, bigSep_W9]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg9

end
-- ==== Proof.KI.RunArr10.lean ====
/-
  Region 10 (the seventh convolution, 256 to 256 channels at 56 × 56): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg10
import proofs.«143011_g2000502688546152_pallasbulk_1201_3_alg».proof.Proof.KI.RunBase

set_option maxRecDepth 1536

noncomputable section

namespace Cert.KernelIdeal.Reg10

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec10) = ({main_v51, main_v54, main_arg15, main_v55} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v51 := ((dat V c).arrAt_in 0 rfl n).trans (A_eq V c 0)
theorem arrAt_1 (c : Dev nD) (n : ℕ) : (dat V c).arrAt 1 n = V c main_v51 := ((dat V c).arrAt_in 1 rfl n).trans (A_eq V c 1)
theorem arrAt_2 (c : Dev nD) (n : ℕ) : (dat V c).arrAt 2 n = V c main_v54 := ((dat V c).arrAt_in 2 rfl n).trans (A_eq V c 2)
theorem arrAt_3 (c : Dev nD) (n : ℕ) : (dat V c).arrAt 3 n = V c main_arg15 := ((dat V c).arrAt_in 3 rfl n).trans (A_eq V c 3)
/-- At entry the output's array holds what the region found. -/
theorem arrAt_4_zero (c : Dev nD) : (dat V c).arrAt 4 0 = V c main_v55 := A_eq V c 4

set_option maxHeartbeats 1000000 in
/-- ENTRY: the four buffers at what the region finds make the pipeline's arrays at their entry contents. -/
theorem hsplit (c : Dev nD) :
    (Pipeline.arrBufs spec10 c (V c) : sProp 𝕄) ⊢ (dat V c).arrays ((dat V c).arrAt · 0) := by
  rw [Run.arrays_eq_shares (dat V c) arr_whole10, bigSep_W10]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v51 = V c main_v51) (hw : V' main_v54 = V c main_v54) (hb : V' main_arg15 = V c main_arg15)
    (ho : V' main_v55 = (dat V c).arrAt (4 : Fin 5) cfg10.N) :
    (dat V c).arrays ((dat V c).arrAt · cfg10.N) ⊢ (Pipeline.arrBufs spec10 c V' : sProp 𝕄) := by
  rw [Run.arrays_eq_shares (dat V c) arr_whole10, bigSep_W10]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg10

end
-- ==== Proof.KI.RunArr11.lean ====
/-
  Region 11 (the sums of absolute differences at the third feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.KI.Reg11
import proofs.«143011_g2000502688546152_pallasbulk_1201_3_alg».proof.Proof.KI.RunBase

set_option maxRecDepth 1536

noncomputable section

namespace Cert.KernelIdeal.Reg11

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec11) = ({main_v56, main_v57} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v56 := ((dat V c).arrAt_in 0 rfl n).trans (A_eq V c 0)
theorem arrAt_1 (c : Dev nD) (n : ℕ) : (dat V c).arrAt 1 n = V c main_v56 := ((dat V c).arrAt_in 1 rfl n).trans (A_eq V c 1)
/-- At entry the sums' array holds what the region found. -/
theorem arrAt_2_zero (c : Dev nD) : (dat V c).arrAt 2 0 = V c main_v57 := A_eq V c 2

set_option maxHeartbeats 1000000 in
/-- ENTRY: the two buffers at what the region finds make the pipeline's arrays at their entry contents. -/
theorem hsplit (c : Dev nD) :
    (Pipeline.arrBufs spec11 c (V c) : sProp 𝕄) ⊢ (dat V c).arrays ((dat V c).arrAt · 0) := by
  rw [Run.arrays_eq_shares (dat V c) arr_whole11, bigSep_W11]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v56 = V c main_v56) (ho : V' main_v57 = (dat V c).arrAt (2 : Fin 3) cfg11.N) :
    (dat V c).arrays ((dat V c).arrAt · cfg11.N) ⊢ (Pipeline.arrBufs spec11 c V' : sProp 𝕄) := by
  rw [Run.arrays_eq_shares (dat V c) arr_whole11, bigSep_W11]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.KernelIdeal.Reg11

end
-- ==== Proof.KI.RunSegsB.lean ====
/-
  Regions 6 to 11 of the network as segments of its run: each entered at the contents before it and left at those
  contents with its output array at what the pipeline's write-backs leave, the rest riding along unchanged.
-/
import proofs.«143011_g2000502688546152_pallasbulk_1201_3_alg».proof.Proof.KI.RunChainAt
import proofs.«143011_g2000502688546152_pallasbulk_1201_3_alg».proof.Proof.KI.RunBase
import proofs.«143011_g2000502688546152_pallasbulk_1201_3_alg».proof.Proof.KI.RunArr6
import proofs.«143011_g2000502688546152_pallasbulk_1201_3_alg».proof.Proof.KI.RunArr7
import proofs.«143011_g2000502688546152_pallasbulk_1201_3_alg».proof.Proof.KI.RunArr8
import proofs.«143011_g2000502688546152_pallasbulk_1201_3_alg».proof.Proof.KI.RunArr9
import proofs.«143011_g2000502688546152_pallasbulk_1201_3_alg».proof.Proof.KI.RunArr10
import proofs.«143011_g2000502688546152_pallasbulk_1201_3_alg».proof.Proof.KI.RunArr11

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Region 6 (the sums of absolute differences at the second feature level), entered at the contents before it and left at those with its output array
    at what the write-backs leave. -/
def reg6 : RegionSeg (pcfgs (F := F)) adm (pdats m) () defs₀ 𝒱₀ L lv 6 :=
  region 6 (pdats m) winFacts₀6 block_pos6 stage_whole6
    (fun c => Reg6.body_obligation (U21 m) c) (fun _ _ => rfl) (fun _ _ => rfl) (fun _ => rfl) (fun _ => rfl)
    (W21 m) (W22 m)
    (fun c => Reg6.hsplit (U21 m) c)
    (fun c => Reg6.hjoin (U21 m) c (fun r => W22 m c r)
      (W22_of m c main_v32 (by decide)) (W22_self m c))
    (fun c r hr => W22_of m c r (by rintro rfl; exact hr (by decide)))

/-- Region 7 (the second 2×2 max pooling), entered at the contents before it and left at those with its output array
    at what the write-backs leave. -/
def reg7 : RegionSeg (pcfgs (F := F)) adm (pdats m) () defs₀ 𝒱₀ L lv 7 :=
  region 7 (pdats m) winFacts7.to₀ block_pos7 stage_whole7
    (fun c => Reg7.body_obligation (U23 m) c) (fun _ _ => rfl) (fun _ _ => rfl) (fun _ => rfl) (fun _ => rfl)
    (W23 m) (W24 m)
    (fun c => Reg7.hsplit (U23 m) c)
    (fun c => Reg7.hjoin (U23 m) c (fun r => W24 m c r)
      (W24_of m c main_v39 (by decide)) (W24_self m c))
    (fun c r hr => W24_of m c r (by rintro rfl; exact hr (by decide)))

/-- Region 8 (the fifth convolution, 128 to 256 channels at 56 × 56), entered at the contents before it and left at those with its output array
    at what the write-backs leave. -/
def reg8 : RegionSeg (pcfgs (F := F)) adm (pdats m) () defs₀ 𝒱₀ L lv 8 :=
  region 8 (pdats m) winFacts₀8 block_pos8 stage_whole8
    (fun c => Reg8.body_obligation (U27 m) c) (fun _ _ => rfl) (fun _ _ => rfl) (fun _ => rfl) (fun _ => rfl)
    (W27 m) (W28 m)
    (fun c => Reg8.hsplit (U27 m) c)
    (fun c => Reg8.hjoin (U27 m) c (fun r => W28 m c r)
      (W28_of m c main_v41 (by decide)) (W28_of m c main_v44 (by decide)) (W28_of m c main_arg11 (by decide)) (W28_self m c))
    (fun c r hr => W28_of m c r (by rintro rfl; exact hr (by decide)))

/-- Region 9 (the sixth convolution, 256 to 256 channels at 56 × 56), entered at the contents before it and left at those with its output array
    at what the write-backs leave. -/
def reg9 : RegionSeg (pcfgs (F := F)) adm (pdats m) () defs₀ 𝒱₀ L lv 9 :=
  region 9 (pdats m) winFacts₀9 block_pos9 stage_whole9
    (fun c => Reg9.body_obligation (U31 m) c) (fun _ _ => rfl) (fun _ _ => rfl) (fun _ => rfl) (fun _ => rfl)
    (W31 m) (W32 m)
    (fun c => Reg9.hsplit (U31 m) c)
    (fun c => Reg9.hjoin (U31 m) c (fun r => W32 m c r)
      (W32_of m c main_v46 (by decide)) (W32_of m c main_v49 (by decide)) (W32_of m c main_arg13 (by decide)) (W32_self m c))
    (fun c r hr => W32_of m c r (by rintro rfl; exact hr (by decide)))

/-- Region 10 (the seventh convolution, 256 to 256 channels at 56 × 56), entered at the contents before it and left at those with its output array
    at what the write-backs leave. -/
def reg10 : RegionSeg (pcfgs (F := F)) adm (pdats m) () defs₀ 𝒱₀ L lv 10 :=
  region 10 (pdats m) winFacts₀10 block_pos10 stage_whole10
    (fun c => Reg10.body_obligation (U35 m) c) (fun _ _ => rfl) (fun _ _ => rfl) (fun _ => rfl) (fun _ => rfl)
    (W35 m) (W36 m)
    (fun c => Reg10.hsplit (U35 m) c)
    (fun c => Reg10.hjoin (U35 m) c (fun r => W36 m c r)
      (W36_of m c main_v51 (by decide)) (W36_of m c main_v54 (by decide)) (W36_of m c main_arg15 (by decide)) (W36_self m c))
    (fun c r hr => W36_of m c r (by rintro rfl; exact hr (by decide)))

/-- Region 11 (the sums of absolute differences at the third feature level), entered at the contents before it and left at those with its output array
    at what the write-backs leave. -/
def reg11 : RegionSeg (pcfgs (F := F)) adm (pdats m) () defs₀ 𝒱₀ L lv 11 :=
  region 11 (pdats m) winFacts₀11 block_pos11 stage_whole11
    (fun c => Reg11.body_obligation (U37 m) c) (fun _ _ => rfl) (fun _ _ => rfl) (fun _ => rfl) (fun _ => rfl)
    (W37 m) (W38 m)
    (fun c => Reg11.hsplit (U37 m) c)
    (fun c => Reg11.hjoin (U37 m) c (fun r => W38 m c r)
      (W38_of m c main_v56 (by decide)) (W38_self m c))
    (fun c r hr => W38_of m c r (by rintro rfl; exact hr (by decide)))

end Cert.KernelIdeal.Run

end
-- ==== Proof.KI.RunArr12.lean ====
/-
  Region 12 (the third 2×2 max pooling): its arrays in and out of the core's unscoped buffers. Two windows on two
  buffers, each held whole: the features read, and the pooled features written. After the last point the features
  are as they were found (an input array is never written) and the pooled buffer holds what the write-backs left.
-/
import proofs.«143011_g2000502688546152_pallasbulk_1201_3_alg».proof.Proof.KI.Reg12
import proofs.«143011_g2000502688546152_pallasbulk_1201_3_alg».proof.Proof.KI.RunBase

set_option maxRecDepth 1536

noncomputable section

namespace Cert.KernelIdeal.Reg12

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the two windows. -/
theorem arrRefs : Finset.univ.image (Pipeline.arrRef spec12) = ({main_v63, main_v64} : Finset (Ref sig .tc)) := by
  decide

/-- Both arrays are held whole. -/
theorem share_0 (c : Dev nD) : (dat V c).share 0 = fullShare := rfl
theorem share_1 (c : Dev nD) : (dat V c).share 1 = fullShare := rfl

/-- The input's array is never written: after any number of points it holds what the region found. -/
theorem arrAt_0 (c : Dev nD) (n : ℕ) : (dat V c).arrAt 0 n = V c main_v63 := ((dat V c).arrAt_in 0 rfl n).trans (A_eq V c 0)
/-- At entry the pooled array holds what the region found. -/
theorem arrAt_1_zero (c : Dev nD) : (dat V c).arrAt 1 0 = V c main_v64 := A_eq V c 1

set_option maxHeartbeats 1000000 in
/-- ENTRY: the two buffers at what the region finds make the pipeline's arrays at their entry contents. -/
theorem hsplit (c : Dev nD) :
    (Pipeline.arrBufs spec12 c (V c) : sProp 𝕄) ⊢ (dat V c).arrays ((dat V c).arrAt · 0) := by
  rw [Run.arrays_eq_shares (dat V c) arr_whole12, bigSep_W12]
  unfold Pipeline.arrBufs
  rw [arrRefs, Run.bigSep_two (by decide)]
  simp only [share_0, share_1, arrAt_0, arrAt_1_zero]
  iintro ⟨Hx, Ho⟩
  isplitl [Hx]; · iexact Hx
  iexact Ho

set_option maxHeartbeats 1000000 in
/-- EXIT: the pipeline's arrays after the last point make the two buffers at any contents `V'` that has the features
    as the region found them and the pooled buffer at what the write-backs left. -/
theorem hjoin (c : Dev nD) (V' : (b : Ref sig .tc) → Buf (Elt F) ((c : Thread nD τ).loc b))
    (hx : V' main_v63 = V c main_v63) (ho : V' main_v64 = (dat V c).arrAt (1 : Fin 2) cfg12.N) :
    (dat V c).arrays ((dat V c).arrAt · cfg12.N) ⊢ (Pipeline.arrBufs spec12 c V' : sProp 𝕄) := by
  rw [Run.arrays_eq_shares (dat V c) arr_whole12, bigSep_W12]
  unfold Pipeline.arrBufs
  rw [arrRefs, Run.bigSep_two (by decide)]
  simp only [share_0, share_1, arrAt_0, hx, ho]
  iintro ⟨Hx, Ho⟩
  isplitl [Hx]; · iexact Hx
  iexact Ho

end Cert.KernelIdeal.Reg12

end
-- ==== Proof.KI.RunArr13.lean ====
/-
  Region 13 (the eighth convolution, 256 to 512 channels at 28 × 28): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg13
import proofs.«143011_g2000502688546152_pallasbulk_1201_3_alg».proof.Proof.KI.RunBase

set_option maxRecDepth 1536

noncomputable section

namespace Cert.KernelIdeal.Reg13

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec13) = ({main_v65, main_v68, main_arg17, main_v69} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v65 := ((dat V c).arrAt_in 0 rfl n).trans (A_eq V c 0)
theorem arrAt_1 (c : Dev nD) (n : ℕ) : (dat V c).arrAt 1 n = V c main_v65 := ((dat V c).arrAt_in 1 rfl n).trans (A_eq V c 1)
theorem arrAt_2 (c : Dev nD) (n : ℕ) : (dat V c).arrAt 2 n = V c main_v68 := ((dat V c).arrAt_in 2 rfl n).trans (A_eq V c 2)
theorem arrAt_3 (c : Dev nD) (n : ℕ) : (dat V c).arrAt 3 n = V c main_arg17 := ((dat V c).arrAt_in 3 rfl n).trans (A_eq V c 3)
/-- At entry the output's array holds what the region found. -/
theorem arrAt_4_zero (c : Dev nD) : (dat V c).arrAt 4 0 = V c main_v69 := A_eq V c 4

set_option maxHeartbeats 1000000 in
/-- ENTRY: the four buffers at what the region finds make the pipeline's arrays at their entry contents. -/
theorem hsplit (c : Dev nD) :
    (Pipeline.arrBufs spec13 c (V c) : sProp 𝕄) ⊢ (dat V c).arrays ((dat V c).arrAt · 0) := by
  rw [Run.arrays_eq_shares (dat V c) arr_whole13, bigSep_W13]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v65 = V c main_v65) (hw : V' main_v68 = V c main_v68) (hb : V' main_arg17 = V c main_arg17)
    (ho : V' main_v69 = (dat V c).arrAt (4 : Fin 5) cfg13.N) :
    (dat V c).arrays ((dat V c).arrAt · cfg13.N) ⊢ (Pipeline.arrBufs spec13 c V' : sProp 𝕄) := by
  rw [Run.arrays_eq_shares (dat V c) arr_whole13, bigSep_W13]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg13

end
-- ==== Proof.KI.RunArr14.lean ====
/-
  Region 14 (the ninth convolution, 512 to 512 channels at 28 × 28): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg14
import proofs.«143011_g2000502688546152_pallasbulk_1201_3_alg».proof.Proof.KI.RunBase

set_option maxRecDepth 1536

noncomputable section

namespace Cert.KernelIdeal.Reg14

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec14) = ({main_v70, main_v73, main_arg19, main_v74} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v70 := ((dat V c).arrAt_in 0 rfl n).trans (A_eq V c 0)
theorem arrAt_1 (c : Dev nD) (n : ℕ) : (dat V c).arrAt 1 n = V c main_v70 := ((dat V c).arrAt_in 1 rfl n).trans (A_eq V c 1)
theorem arrAt_2 (c : Dev nD) (n : ℕ) : (dat V c).arrAt 2 n = V c main_v73 := ((dat V c).arrAt_in 2 rfl n).trans (A_eq V c 2)
theorem arrAt_3 (c : Dev nD) (n : ℕ) : (dat V c).arrAt 3 n = V c main_arg19 := ((dat V c).arrAt_in 3 rfl n).trans (A_eq V c 3)
/-- At entry the output's array holds what the region found. -/
theorem arrAt_4_zero (c : Dev nD) : (dat V c).arrAt 4 0 = V c main_v74 := A_eq V c 4

set_option maxHeartbeats 1000000 in
/-- ENTRY: the four buffers at what the region finds make the pipeline's arrays at their entry contents. -/
theorem hsplit (c : Dev nD) :
    (Pipeline.arrBufs spec14 c (V c) : sProp 𝕄) ⊢ (dat V c).arrays ((dat V c).arrAt · 0) := by
  rw [Run.arrays_eq_shares (dat V c) arr_whole14, bigSep_W14]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v70 = V c main_v70) (hw : V' main_v73 = V c main_v73) (hb : V' main_arg19 = V c main_arg19)
    (ho : V' main_v74 = (dat V c).arrAt (4 : Fin 5) cfg14.N) :
    (dat V c).arrays ((dat V c).arrAt · cfg14.N) ⊢ (Pipeline.arrBufs spec14 c V' : sProp 𝕄) := by
  rw [Run.arrays_eq_shares (dat V c) arr_whole14, bigSep_W14]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg14

end
-- ==== Proof.KI.RunArr15.lean ====
/-
  Region 15 (the tenth convolution, 512 to 512 channels at 28 × 28): its arrays in and out of the core's unscoped buffers.
  Five windows sit on four buffers: the bordered image is read through two windows (a tile of rows, and the rows
  just below them), each holding half of it; the weights, the bias row and the output are held whole.
  At entry the image's buffer is split into the two halves; after the last point the halves are joined again,
  the three input buffers are as they were found (an input array is never written), and the output's buffer
  holds what the write-backs left.
-/
import proofs.«143011_g2000502688546152_pallasbulk_1201_3_alg».proof.Proof.KI.Reg15
import proofs.«143011_g2000502688546152_pallasbulk_1201_3_alg».proof.Proof.KI.RunBase

set_option maxRecDepth 1536

noncomputable section

namespace Cert.KernelIdeal.Reg15

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the five windows. -/
theorem arrRefs : Finset.univ.image (Pipeline.arrRef spec15) = ({main_v75, main_v78, main_arg21, main_v79} : Finset (Ref sig .tc)) := by
  decide

/-- The two image windows hold the left and the right half of the image's buffer; the others are held whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- An input window's array is never written: after any number of points it holds what the region found. -/
theorem arrAt_0 (c : Dev nD) (n : ℕ) : (dat V c).arrAt 0 n = V c main_v75 := ((dat V c).arrAt_in 0 rfl n).trans (A_eq V c 0)
theorem arrAt_1 (c : Dev nD) (n : ℕ) : (dat V c).arrAt 1 n = V c main_v75 := ((dat V c).arrAt_in 1 rfl n).trans (A_eq V c 1)
theorem arrAt_2 (c : Dev nD) (n : ℕ) : (dat V c).arrAt 2 n = V c main_v78 := ((dat V c).arrAt_in 2 rfl n).trans (A_eq V c 2)
theorem arrAt_3 (c : Dev nD) (n : ℕ) : (dat V c).arrAt 3 n = V c main_arg21 := ((dat V c).arrAt_in 3 rfl n).trans (A_eq V c 3)
/-- At entry the output's array holds what the region found. -/
theorem arrAt_4_zero (c : Dev nD) : (dat V c).arrAt 4 0 = V c main_v79 := A_eq V c 4

set_option maxHeartbeats 1000000 in
/-- ENTRY: the four buffers at what the region finds make the pipeline's arrays at their entry contents. -/
theorem hsplit (c : Dev nD) :
    (Pipeline.arrBufs spec15 c (V c) : sProp 𝕄) ⊢ (dat V c).arrays ((dat V c).arrAt · 0) := by
  rw [Run.arrays_eq_shares (dat V c) arr_whole15, bigSep_W15]
  unfold Pipeline.arrBufs
  rw [arrRefs, Run.bigSep_four (by decide) (by decide) (by decide)]
  simp only [share_0, share_1, share_2, share_3, share_4, arrAt_0, arrAt_1, arrAt_2, arrAt_3, arrAt_4_zero]
  iintro ⟨Hx, Hw, Hb, Ho⟩
  ihave Hx' := (pointsTo_share (PosShare.mem_left_op_right fullShare)).1 $$ Hx
  icases Hx' with ⟨Hxa, Hxb⟩
  isplitl [Hxa]; · iexact Hxa
  isplitl [Hxb]; · iexact Hxb
  isplitl [Hw]; · iexact Hw
  isplitl [Hb]; · iexact Hb
  iexact Ho

set_option maxHeartbeats 1000000 in
/-- EXIT: the pipeline's arrays after the last point make the four buffers at any contents `V'` that has the three
    input buffers as the region found them and the output's at what the write-backs left. -/
theorem hjoin (c : Dev nD) (V' : (b : Ref sig .tc) → Buf (Elt F) ((c : Thread nD τ).loc b))
    (hx : V' main_v75 = V c main_v75) (hw : V' main_v78 = V c main_v78) (hb : V' main_arg21 = V c main_arg21)
    (ho : V' main_v79 = (dat V c).arrAt (4 : Fin 5) cfg15.N) :
    (dat V c).arrays ((dat V c).arrAt · cfg15.N) ⊢ (Pipeline.arrBufs spec15 c V' : sProp 𝕄) := by
  rw [Run.arrays_eq_shares (dat V c) arr_whole15, bigSep_W15]
  unfold Pipeline.arrBufs
  rw [arrRefs, Run.bigSep_four (by decide) (by decide) (by decide)]
  simp only [share_0, share_1, share_2, share_3, share_4, arrAt_0, arrAt_1, arrAt_2, arrAt_3, hx, hw, hb, ho]
  iintro ⟨Hxa, Hxb, Hw, Hb, Ho⟩
  isplitl [Hxa Hxb]
  · iapply (pointsTo_share (PosShare.mem_left_op_right fullShare)).2
    isplitl [Hxa]; · iexact Hxa
    iexact Hxb
  isplitl [Hw]; · iexact Hw
  isplitl [Hb]; · iexact Hb
  iexact Ho

end Cert.KernelIdeal.Reg15

end
-- ==== Proof.KI.RunArr16.lean ====
/-
  Region 16 (the sums of absolute differences at the fourth feature level): its arrays in and out of the core's
  unscoped buffers. Three windows sit on two buffers: the features are read through two windows (an image of the
  first half of the batch, and the image sixteen further on), each holding half of the buffer; the sums' buffer is
  held whole. At entry the features' buffer is split into the two halves; after the last point the halves are joined
  again, the features are as they were found (an input array is never written), and the sums' buffer holds what the
  write-backs left.
-/
import proofs.«143011_g2000502688546152_pallasbulk_1201_3_alg».proof.Proof.KI.Reg16
import proofs.«143011_g2000502688546152_pallasbulk_1201_3_alg».proof.Proof.KI.RunBase

set_option maxRecDepth 1536

noncomputable section

namespace Cert.KernelIdeal.Reg16

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows. -/
theorem arrRefs : Finset.univ.image (Pipeline.arrRef spec16) = ({main_v80, main_v81} : Finset (Ref sig .tc)) := by
  decide

/-- The two feature windows hold the left and the right half of the features' buffer; the sums are held whole. -/
theorem share_0 (c : Dev nD) : (dat V c).share 0 = fullShare.left := rfl
theorem share_1 (c : Dev nD) : (dat V c).share 1 = fullShare.right := rfl
theorem share_2 (c : Dev nD) : (dat V c).share 2 = fullShare := rfl

/-- An input window's array is never written: after any number of points it holds what the region found. -/
theorem arrAt_0 (c : Dev nD) (n : ℕ) : (dat V c).arrAt 0 n = V c main_v80 := ((dat V c).arrAt_in 0 rfl n).trans (A_eq V c 0)
theorem arrAt_1 (c : Dev nD) (n : ℕ) : (dat V c).arrAt 1 n = V c main_v80 := ((dat V c).arrAt_in 1 rfl n).trans (A_eq V c 1)
/-- At entry the sums' array holds what the region found. -/
theorem arrAt_2_zero (c : Dev nD) : (dat V c).arrAt 2 0 = V c main_v81 := A_eq V c 2

set_option maxHeartbeats 1000000 in
/-- ENTRY: the two buffers at what the region finds make the pipeline's arrays at their entry contents. -/
theorem hsplit (c : Dev nD) :
    (Pipeline.arrBufs spec16 c (V c) : sProp 𝕄) ⊢ (dat V c).arrays ((dat V c).arrAt · 0) := by
  rw [Run.arrays_eq_shares (dat V c) arr_whole16, bigSep_W16]
  unfold Pipeline.arrBufs
  rw [arrRefs, Run.bigSep_two (by decide)]
  simp only [share_0, share_1, share_2, arrAt_0, arrAt_1, arrAt_2_zero]
  iintro ⟨Hx, Ho⟩
  ihave Hx' := (pointsTo_share (PosShare.mem_left_op_right fullShare)).1 $$ Hx
  icases Hx' with ⟨Hxa, Hxb⟩
  isplitl [Hxa]; · iexact Hxa
  isplitl [Hxb]; · iexact Hxb
  iexact Ho

set_option maxHeartbeats 1000000 in
/-- EXIT: the pipeline's arrays after the last point make the two buffers at any contents `V'` that has the features
    as the region found them and the sums' buffer at what the write-backs left. -/
theorem hjoin (c : Dev nD) (V' : (b : Ref sig .tc) → Buf (Elt F) ((c : Thread nD τ).loc b))
    (hx : V' main_v80 = V c main_v80) (ho : V' main_v81 = (dat V c).arrAt (2 : Fin 3) cfg16.N) :
    (dat V c).arrays ((dat V c).arrAt · cfg16.N) ⊢ (Pipeline.arrBufs spec16 c V' : sProp 𝕄) := by
  rw [Run.arrays_eq_shares (dat V c) arr_whole16, bigSep_W16]
  unfold Pipeline.arrBufs
  rw [arrRefs, Run.bigSep_two (by decide)]
  simp only [share_0, share_1, share_2, arrAt_0, arrAt_1, hx, ho]
  iintro ⟨Hxa, Hxb, Ho⟩
  isplitl [Hxa Hxb]
  · iapply (pointsTo_share (PosShare.mem_left_op_right fullShare)).2
    isplitl [Hxa]; · iexact Hxa
    iexact Hxb
  iexact Ho

end Cert.KernelIdeal.Reg16

end
-- ==== Proof.KI.RunSegsC.lean ====
/-
  Regions 12 to 16 of the network as segments of its run: each entered at the contents before it and left at those
  contents with its output array at what the pipeline's write-backs leave, the rest riding along unchanged.
-/
import proofs.«143011_g2000502688546152_pallasbulk_1201_3_alg».proof.Proof.KI.RunChainAt
import proofs.«143011_g2000502688546152_pallasbulk_1201_3_alg».proof.Proof.KI.RunBase
import proofs.«143011_g2000502688546152_pallasbulk_1201_3_alg».proof.Proof.KI.RunArr12
import proofs.«143011_g2000502688546152_pallasbulk_1201_3_alg».proof.Proof.KI.RunArr13
import proofs.«143011_g2000502688546152_pallasbulk_1201_3_alg».proof.Proof.KI.RunArr14
import proofs.«143011_g2000502688546152_pallasbulk_1201_3_alg».proof.Proof.KI.RunArr15
import proofs.«143011_g2000502688546152_pallasbulk_1201_3_alg».proof.Proof.KI.RunArr16

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Region 12 (the third 2×2 max pooling), entered at the contents before it and left at those with its output array
    at what the write-backs leave. -/
def reg12 : RegionSeg (pcfgs (F := F)) adm (pdats m) () defs₀ 𝒱₀ L lv 12 :=
  region 12 (pdats m) winFacts12.to₀ block_pos12 stage_whole12
    (fun c => Reg12.body_obligation (U39 m) c) (fun _ _ => rfl) (fun _ _ => rfl) (fun _ => rfl) (fun _ => rfl)
    (W39 m) (W40 m)
    (fun c => Reg12.hsplit (U39 m) c)
    (fun c => Reg12.hjoin (U39 m) c (fun r => W40 m c r)
      (W40_of m c main_v63 (by decide)) (W40_self m c))
    (fun c r hr => W40_of m c r (by rintro rfl; exact hr (by decide)))

/-- Region 13 (the eighth convolution, 256 to 512 channels at 28 × 28), entered at the contents before it and left at those with its output array
    at what the write-backs leave. -/
def reg13 : RegionSeg (pcfgs (F := F)) adm (pdats m) () defs₀ 𝒱₀ L lv 13 :=
  region 13 (pdats m) winFacts₀13 block_pos13 stage_whole13
    (fun c => Reg13.body_obligation (U43 m) c) (fun _ _ => rfl) (fun _ _ => rfl) (fun _ => rfl) (fun _ => rfl)
    (W43 m) (W44 m)
    (fun c => Reg13.hsplit (U43 m) c)
    (fun c => Reg13.hjoin (U43 m) c (fun r => W44 m c r)
      (W44_of m c main_v65 (by decide)) (W44_of m c main_v68 (by decide)) (W44_of m c main_arg17 (by decide)) (W44_self m c))
    (fun c r hr => W44_of m c r (by rintro rfl; exact hr (by decide)))

/-- Region 14 (the ninth convolution, 512 to 512 channels at 28 × 28), entered at the contents before it and left at those with its output array
    at what the write-backs leave. -/
def reg14 : RegionSeg (pcfgs (F := F)) adm (pdats m) () defs₀ 𝒱₀ L lv 14 :=
  region 14 (pdats m) winFacts₀14 block_pos14 stage_whole14
    (fun c => Reg14.body_obligation (U47 m) c) (fun _ _ => rfl) (fun _ _ => rfl) (fun _ => rfl) (fun _ => rfl)
    (W47 m) (W48 m)
    (fun c => Reg14.hsplit (U47 m) c)
    (fun c => Reg14.hjoin (U47 m) c (fun r => W48 m c r)
      (W48_of m c main_v70 (by decide)) (W48_of m c main_v73 (by decide)) (W48_of m c main_arg19 (by decide)) (W48_self m c))
    (fun c r hr => W48_of m c r (by rintro rfl; exact hr (by decide)))

/-- Region 15 (the tenth convolution, 512 to 512 channels at 28 × 28), entered at the contents before it and left at those with its output array
    at what the write-backs leave. -/
def reg15 : RegionSeg (pcfgs (F := F)) adm (pdats m) () defs₀ 𝒱₀ L lv 15 :=
  region 15 (pdats m) winFacts₀15 block_pos15 stage_whole15
    (fun c => Reg15.body_obligation (U51 m) c) (fun _ _ => rfl) (fun _ _ => rfl) (fun _ => rfl) (fun _ => rfl)
    (W51 m) (W52 m)
    (fun c => Reg15.hsplit (U51 m) c)
    (fun c => Reg15.hjoin (U51 m) c (fun r => W52 m c r)
      (W52_of m c main_v75 (by decide)) (W52_of m c main_v78 (by decide)) (W52_of m c main_arg21 (by decide)) (W52_self m c))
    (fun c r hr => W52_of m c r (by rintro rfl; exact hr (by decide)))

/-- Region 16 (the sums of absolute differences at the fourth feature level), entered at the contents before it and left at those with its output array
    at what the write-backs leave. -/
def reg16 : RegionSeg (pcfgs (F := F)) adm (pdats m) () defs₀ 𝒱₀ L lv 16 :=
  region 16 (pdats m) winFacts₀16 block_pos16 stage_whole16
    (fun c => Reg16.body_obligation (U53 m) c) (fun _ _ => rfl) (fun _ _ => rfl) (fun _ => rfl) (fun _ => rfl)
    (W53 m) (W54 m)
    (fun c => Reg16.hsplit (U53 m) c)
    (fun c => Reg16.hjoin (U53 m) c (fun r => W54 m c r)
      (W54_of m c main_v80 (by decide)) (W54_self m c))
    (fun c r hr => W54_of m c r (by rintro rfl; exact hr (by decide)))

end Cert.KernelIdeal.Run

end
-- ==== Proof.KI.RunCond.lean ====
/-
  The run of the network with its result, GIVEN the regions: for any contents the regions leave and any proof data,
  given per region a segment record entered from the buffers' contents before it and left at the contents after it,
  every weakly fair execution from memory `m` with zero counters terminates, and every final memory holds, besides
  each argument as launched, the contents the last host stretch leaves in the result's buffer.
-/
import proofs.«143011_g2000502688546152_pallasbulk_1201_3_alg».proof.Proof.KI.GenRegions

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN: the launch over the segments (the host stretches' and the given regions'), the last thread
    state read against the final state — the result's buffer and each argument's off the last contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V21 m outs c) ∗ E 6 c) ⊢ R6.pre c)
    (hpost6 : ∀ c : Dev nD, R6.post c ⊢ iprop(StableHlo.held (c : Thread nD τ) (Pipeline.ucRefs τ sig) (V22 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V23 m outs c) ∗ E 7 c) ⊢ R7.pre c)
    (hpost7 : ∀ c : Dev nD, R7.post c ⊢ iprop(StableHlo.held (c : Thread nD τ) (Pipeline.ucRefs τ sig) (V24 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V27 m outs c) ∗ E 8 c) ⊢ R8.pre c)
    (hpost8 : ∀ c : Dev nD, R8.post c ⊢ iprop(StableHlo.held (c : Thread nD τ) (Pipeline.ucRefs τ sig) (V28 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V31 m outs c) ∗ E 9 c) ⊢ R9.pre c)
    (hpost9 : ∀ c : Dev nD, R9.post c ⊢ iprop(StableHlo.held (c : Thread nD τ) (Pipeline.ucRefs τ sig) (V32 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V35 m outs c) ∗ E 10 c) ⊢ R10.pre c)
    (hpost10 : ∀ c : Dev nD, R10.post c ⊢ iprop(StableHlo.held (c : Thread nD τ) (Pipeline.ucRefs τ sig) (V36 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V37 m outs c) ∗ E 11 c) ⊢ R11.pre c)
    (hpost11 : ∀ c : Dev nD, R11.post c ⊢ iprop(StableHlo.held (c : Thread nD τ) (Pipeline.ucRefs τ sig) (V38 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V39 m outs c) ∗ E 12 c) ⊢ R12.pre c)
    (hpost12 : ∀ c : Dev nD, R12.post c ⊢ iprop(StableHlo.held (c : Thread nD τ) (Pipeline.ucRefs τ sig) (V40 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V43 m outs c) ∗ E 13 c) ⊢ R13.pre c)
    (hpost13 : ∀ c : Dev nD, R13.post c ⊢ iprop(StableHlo.held (c : Thread nD τ) (Pipeline.ucRefs τ sig) (V44 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V47 m outs c) ∗ E 14 c) ⊢ R14.pre c)
    (hpost14 : ∀ c : Dev nD, R14.post c ⊢ iprop(StableHlo.held (c : Thread nD τ) (Pipeline.ucRefs τ sig) (V48 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V51 m outs c) ∗ E 15 c) ⊢ R15.pre c)
    (hpost15 : ∀ c : Dev nD, R15.post c ⊢ iprop(StableHlo.held (c : Thread nD τ) (Pipeline.ucRefs τ sig) (V52 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V53 m outs c) ∗ E 16 c) ⊢ R16.pre c)
    (hpost16 : ∀ c : Dev nD, R16.post c ⊢ iprop(StableHlo.held (c : Thread nD τ) (Pipeline.ucRefs τ sig) (V54 m outs c) ∗ E 17 c)) :
    θ_run defs (onTc (τ := τ) (main (F := F))) ⟨m, fun _ => 0, ρ⟩ (fun r => ∀ c : Dev nD,
      r.2.mem ((c.tc : Thread nD τ).loc main_v86) = V55 m outs c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_chain c, Seg.run_eq_chain,
        show (segs m outs 𝒱₀ L lv E ι pdats R0 R1 R2 R3 R4 R5 R6 R7 R8 R9 R10 R11 R12 R13 R14 R15 R16 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          StableHlo.seq hostOps9,
          StableHlo.seq hostOps9_1,
          StableHlo.seq hostOps9_2,
          Prog.lift (.customCall (Pipeline.entry 9) ()),
          StableHlo.seq hostOps10,
          StableHlo.seq hostOps10_1,
          StableHlo.seq hostOps10_2,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          StableHlo.seq hostOps13_2,
          Prog.lift (.customCall (Pipeline.entry 13) ()),
          StableHlo.seq hostOps14,
          StableHlo.seq hostOps14_1,
          StableHlo.seq hostOps14_2,
          Prog.lift (.customCall (Pipeline.entry 14) ()),
          StableHlo.seq hostOps15,
          StableHlo.seq hostOps15_1,
          StableHlo.seq hostOps15_2,
          Prog.lift (.customCall (Pipeline.entry 15) ()),
          StableHlo.seq hostOps16,
          Prog.lift (.customCall (Pipeline.entry 16) ()),
          StableHlo.seq hostOps17 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V55 m outs c))
    (hch := fun c => ⟨.rfl, .rfl, .rfl, hpre0 c, hpost0 c, .rfl, .rfl, hpre1 c, hpost1 c, hpre2 c, hpost2 c, hpre3 c, hpost3 c, .rfl, .rfl, hpre4 c, hpost4 c, .rfl, .rfl, hpre5 c, hpost5 c, hpre6 c, hpost6 c, hpre7 c, hpost7 c, .rfl, .rfl, hpre8 c, hpost8 c, .rfl, .rfl, hpre9 c, hpost9 c, .rfl, .rfl, hpre10 c, hpost10 c, hpre11 c, hpost11 c, hpre12 c, hpost12 c, .rfl, .rfl, hpre13 c, hpost13 c, .rfl, .rfl, hpre14 c, hpost14 c, .rfl, .rfl, hpre15 c, hpost15 c, hpre16 c, hpost16 c, sep_mono .rfl (hE17 c)⟩)
    (hinit := ?_) (QY := fun c s => s.mem ((c.tc : Thread nD τ).loc main_v86) = V55 m outs c main_v86 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V55 m outs c) s') $$ [Hh HSI]
    · isplitl [Hh] <;> iassumption
    icases Hr with ⟨%h, HSI⟩
    imodintro
    isplitr
    · ipureintro
      exact ⟨h (Proc.devRef .tc main_v86) (Finset.mem_filter.mpr ⟨StableHlo.devRef_mem_tcRefs main_v86, by decide⟩),
        (h (Proc.devRef .tc main_arg0) (Finset.mem_filter.mpr ⟨StableHlo.devRef_mem_tcRefs main_arg0, by decide⟩)).trans (V55_main_arg0 m outs c),
        (h (Proc.devRef .tc main_arg1) (Finset.mem_filter.mpr ⟨StableHlo.devRef_mem_tcRefs main_arg1, by decide⟩)).trans (V55_main_arg1 m outs c),
        (h (Proc.devRef .tc main_arg2) (Finset.mem_filter.mpr ⟨StableHlo.devRef_mem_tcRefs main_arg2, by decide⟩)).trans (V55_main_arg2 m outs c),
        (h (Proc.devRef .tc main_arg3) (Finset.mem_filter.mpr ⟨StableHlo.devRef_mem_tcRefs main_arg3, by decide⟩)).trans (V55_main_arg3 m outs c),
        (h (Proc.devRef .tc main_arg4) (Finset.mem_filter.mpr ⟨StableHlo.devRef_mem_tcRefs main_arg4, by decide⟩)).trans (V55_main_arg4 m outs c),
        (h (Proc.devRef .tc main_arg5) (Finset.mem_filter.mpr ⟨StableHlo.devRef_mem_tcRefs main_arg5, by decide⟩)).trans (V55_main_arg5 m outs c),
        (h (Proc.devRef .tc main_arg6) (Finset.mem_filter.mpr ⟨StableHlo.devRef_mem_tcRefs main_arg6, by decide⟩)).trans (V55_main_arg6 m outs c),
        (h (Proc.devRef .tc main_arg7) (Finset.mem_filter.mpr ⟨StableHlo.devRef_mem_tcRefs main_arg7, by decide⟩)).trans (V55_main_arg7 m outs c),
        (h (Proc.devRef .tc main_arg8) (Finset.mem_filter.mpr ⟨StableHlo.devRef_mem_tcRefs main_arg8, by decide⟩)).trans (V55_main_arg8 m outs c),
        (h (Proc.devRef .tc main_arg9) (Finset.mem_filter.mpr ⟨StableHlo.devRef_mem_tcRefs main_arg9, by decide⟩)).trans (V55_main_arg9 m outs c),
        (h (Proc.devRef .tc main_arg10) (Finset.mem_filter.mpr ⟨StableHlo.devRef_mem_tcRefs main_arg10, by decide⟩)).trans (V55_main_arg10 m outs c),
        (h (Proc.devRef .tc main_arg11) (Finset.mem_filter.mpr ⟨StableHlo.devRef_mem_tcRefs main_arg11, by decide⟩)).trans (V55_main_arg11 m outs c),
        (h (Proc.devRef .tc main_arg12) (Finset.mem_filter.mpr ⟨StableHlo.devRef_mem_tcRefs main_arg12, by decide⟩)).trans (V55_main_arg12 m outs c),
        (h (Proc.devRef .tc main_arg13) (Finset.mem_filter.mpr ⟨StableHlo.devRef_mem_tcRefs main_arg13, by decide⟩)).trans (V55_main_arg13 m outs c),
        (h (Proc.devRef .tc main_arg14) (Finset.mem_filter.mpr ⟨StableHlo.devRef_mem_tcRefs main_arg14, by decide⟩)).trans (V55_main_arg14 m outs c),
        (h (Proc.devRef .tc main_arg15) (Finset.mem_filter.mpr ⟨StableHlo.devRef_mem_tcRefs main_arg15, by decide⟩)).trans (V55_main_arg15 m outs c),
        (h (Proc.devRef .tc main_arg16) (Finset.mem_filter.mpr ⟨StableHlo.devRef_mem_tcRefs main_arg16, by decide⟩)).trans (V55_main_arg16 m outs c),
        (h (Proc.devRef .tc main_arg17) (Finset.mem_filter.mpr ⟨StableHlo.devRef_mem_tcRefs main_arg17, by decide⟩)).trans (V55_main_arg17 m outs c),
        (h (Proc.devRef .tc main_arg18) (Finset.mem_filter.mpr ⟨StableHlo.devRef_mem_tcRefs main_arg18, by decide⟩)).trans (V55_main_arg18 m outs c),
        (h (Proc.devRef .tc main_arg19) (Finset.mem_filter.mpr ⟨StableHlo.devRef_mem_tcRefs main_arg19, by decide⟩)).trans (V55_main_arg19 m outs c),
        (h (Proc.devRef .tc main_arg20) (Finset.mem_filter.mpr ⟨StableHlo.devRef_mem_tcRefs main_arg20, by decide⟩)).trans (V55_main_arg20 m outs c),
        (h (Proc.devRef .tc main_arg21) (Finset.mem_filter.mpr ⟨StableHlo.devRef_mem_tcRefs main_arg21, by decide⟩)).trans (V55_main_arg21 m outs c)⟩
    · iexact HSI

end Cert.KernelIdeal.Run

end
-- ==== Proof.KI.Run.lean ====
/-
  The run of the whole network on the TensorCores: seventeen kernel regions (ten 3×3 convolutions with bias and
  rectifier, three 2×2 max poolings, four sums of absolute differences) between stretches of host operations
  (padding, reshapes, transposes, a concatenation, slices, reductions, divisions, additions).
  For any float model: the scalar the last host stretch leaves; every weakly fair execution terminates, the final
  memory holds that scalar and every argument as launched.
-/
import proofs.«143011_g2000502688546152_pallasbulk_1201_3_alg».proof.Proof.KI.RunSegsA
import proofs.«143011_g2000502688546152_pallasbulk_1201_3_alg».proof.Proof.KI.RunSegsB
import proofs.«143011_g2000502688546152_pallasbulk_1201_3_alg».proof.Proof.KI.RunSegsC
import proofs.«143011_g2000502688546152_pallasbulk_1201_3_alg».proof.Proof.KI.RunCond

set_option maxRecDepth 1536

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The scalar the network leaves on core `c` from launch memory `m`: the perceptual loss, read off the contents
    of the last host stretch's result. -/
def result (m : (ℓ : Loc nD τ sig) → Buf (Elt F) ℓ) (c : Dev nD) : Buf (Elt F) ((c.tc : Thread nD τ).loc main_v86) :=
  W55 m c main_v86

set_option backward.isDefEq.respectTransparency.types false in
/-- THE RUN WITH ITS RESULT: from any memory with zero counters every weakly fair execution of the network
    terminates, nothing faulting; the final memory holds `result m c` in the result's buffer and every argument
    as launched. The conditional run at the chain of contents, the seventeen regions' records, the rest riding along
    unchanged, no ghost resource beyond the pipelines' own. -/
theorem run : θ_run defs (onTc (τ := τ) (main (F := F))) ⟨m, fun _ => 0, ρ⟩ (fun r => ∀ c : Dev nD,
      r.2.mem ((c.tc : Thread nD τ).loc main_v86) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  have h := run_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V3_eq m c]; exact .rfl) (fun c => by rw [V4_eq m c]; exact .rfl)
    (reg1 m) (fun c => by rw [V7_eq m c]; exact .rfl) (fun c => by rw [V8_eq m c]; exact .rfl)
    (reg2 m) (fun c => by rw [V9_eq m c]; exact .rfl) (fun c => by rw [V10_eq m c]; exact .rfl)
    (reg3 m) (fun c => by rw [V11_eq m c]; exact .rfl) (fun c => by rw [V12_eq m c]; exact .rfl)
    (reg4 m) (fun c => by rw [V15_eq m c]; exact .rfl) (fun c => by rw [V16_eq m c]; exact .rfl)
    (reg5 m) (fun c => by rw [V19_eq m c]; exact .rfl) (fun c => by rw [V20_eq m c]; exact .rfl)
    (reg6 m) (fun c => by rw [V21_eq m c]; exact .rfl) (fun c => by rw [V22_eq m c]; exact .rfl)
    (reg7 m) (fun c => by rw [V23_eq m c]; exact .rfl) (fun c => by rw [V24_eq m c]; exact .rfl)
    (reg8 m) (fun c => by rw [V27_eq m c]; exact .rfl) (fun c => by rw [V28_eq m c]; exact .rfl)
    (reg9 m) (fun c => by rw [V31_eq m c]; exact .rfl) (fun c => by rw [V32_eq m c]; exact .rfl)
    (reg10 m) (fun c => by rw [V35_eq m c]; exact .rfl) (fun c => by rw [V36_eq m c]; exact .rfl)
    (reg11 m) (fun c => by rw [V37_eq m c]; exact .rfl) (fun c => by rw [V38_eq m c]; exact .rfl)
    (reg12 m) (fun c => by rw [V39_eq m c]; exact .rfl) (fun c => by rw [V40_eq m c]; exact .rfl)
    (reg13 m) (fun c => by rw [V43_eq m c]; exact .rfl) (fun c => by rw [V44_eq m c]; exact .rfl)
    (reg14 m) (fun c => by rw [V47_eq m c]; exact .rfl) (fun c => by rw [V48_eq m c]; exact .rfl)
    (reg15 m) (fun c => by rw [V51_eq m c]; exact .rfl) (fun c => by rw [V52_eq m c]; exact .rfl)
    (reg16 m) (fun c => by rw [V53_eq m c]; exact .rfl) (fun c => by rw [V54_eq m c]; exact .rfl)
  refine (θ_run defs _ _).mono (fun r hr c => ?_) h
  refine ⟨?_, (hr c).2⟩
  rw [(hr c).1, V55_eq m c]; rfl

/-- THE FRAME: the run, forgetting the result. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r hr c => (hr c).2) (run m ρ)

end Cert.KernelIdeal.Run

end
-- ==== Proof.Spec.Defs.lean ====
/-
  The network both programs compute, as pure functions over the extended reals on curried index functions:
  VGG16 features[:23] (ten 3×3 convolutions with ReLU, three 2×2 max pools) applied to a normalised input and target,
  and the sum of the four mean absolute feature differences, in the two arrangements of the sums:
  lossK — one batch of 32 images (input then target), a partial sum per image, their sum, divided by the count;
  lossR — two streams of 16 images, one sum per feature level, divided by the count.
-/
import Idealize.ShloMosaic.PureOps.Ideal
import Idealize.ShloMosaic.Lib.ValueIdx

noncomputable section

open scoped BigOperators

namespace Cert.Spec

open Idealize.ShloMosaic

/-- Activations: image, row, column, channel. -/
abbrev Act (N H W C : ℕ) : Type := Fin N → Fin H → Fin W → Fin C → EReal

/-- 3×3 convolution weights: row tap, column tap, input channel, output channel. -/
abbrev Wt (Cin Cout : ℕ) : Type := Fin 3 → Fin 3 → Fin Cin → Fin Cout → EReal

/-- Absolute value on the extended reals, as the larger of a number and its negation. -/
def eabs (d : EReal) : EReal := max d (-d)

/-! ## Normalisation -/

/-- The three channel means 0.485, 0.456, 0.406 as single-precision words. -/
abbrev meanBits : Fin 3 → BitVec 32 := fun
  | 0 => 0x3EF851EC#32 | 1 => 0x3EE978D5#32 | 2 => 0x3ECFDF3B#32
  | _ => 0#32

/-- The three channel deviations 0.229, 0.224, 0.225 as single-precision words. -/
abbrev stdBits : Fin 3 → BitVec 32 := fun
  | 0 => 0x3E6A7EFA#32 | 1 => 0x3E656042#32 | 2 => 0x3E666666#32
  | _ => 0#32

/-- Channel-first images to channel-last activations, each channel centred and scaled: (x − mean) / std. -/
def normalise {N H W : ℕ} (x : Fin N → Fin 3 → Fin H → Fin W → EReal) : Act N H W 3 :=
  fun n h w c => Ideal.div (x n c h w - Ideal.ofBits .f32 (meanBits c)) (Ideal.ofBits .f32 (stdBits c))

/-- Two stacks of 16 images as one stack of 32: the first stack, then the second. -/
def cat {α : Type} (x y : Fin 16 → α) : Fin 32 → α :=
  fun n => if h : n.val < 16 then x ⟨n.val, h⟩ else y ⟨n.val - 16, by omega⟩

/-! ## Convolution and pooling -/

/-- An image with a border of zeros: position (i, j) of the bordered image is position (i − 1, j − 1) of the image when
    that lies inside it, and 0 otherwise (every position beyond the one-wide border is 0 as well). -/
def padAt {N H W C : ℕ} (z : Act N H W C) (n : Fin N) (i j : ℕ) (c : Fin C) : EReal :=
  if h : (1 ≤ i ∧ i ≤ H) ∧ (1 ≤ j ∧ j ≤ W) then z n ⟨i - 1, by omega⟩ ⟨j - 1, by omega⟩ c else 0

/-- 3×3 convolution over the zero-bordered image, plus bias, then ReLU. The sum runs over the row tap, then the column
    tap, then the input channel. -/
def convRelu {N H W Cin Cout : ℕ} (z : Act N H W Cin) (w : Wt Cin Cout) (b : Fin Cout → EReal) : Act N H W Cout :=
  fun n h x co =>
    max ((∑ dy : Fin 3, ∑ dx : Fin 3, ∑ ci : Fin Cin,
            padAt z n (h.val + dy.val) (x.val + dx.val) ci * w dy dx ci co) + b co) 0

/-- 2×2 max pooling with stride 2: first the larger of each horizontal pair, then the larger of the two rows. -/
def pool2x2 {N H W C : ℕ} (z : Act N H W C) : Act N (H / 2) (W / 2) C :=
  fun n i j c =>
    max (max (z n ⟨2 * i.val, by omega⟩ ⟨2 * j.val, by omega⟩ c) (z n ⟨2 * i.val, by omega⟩ ⟨2 * j.val + 1, by omega⟩ c))
        (max (z n ⟨2 * i.val + 1, by omega⟩ ⟨2 * j.val, by omega⟩ c)
             (z n ⟨2 * i.val + 1, by omega⟩ ⟨2 * j.val + 1, by omega⟩ c))

/-! ## The weights and the four feature levels -/

/-- The twenty parameter arrays: ten weight tensors and ten bias rows. -/
structure Weights where
  w00 : Wt 3 64
  b00 : Fin 64 → EReal
  w01 : Wt 64 64
  b01 : Fin 64 → EReal
  w10 : Wt 64 128
  b10 : Fin 128 → EReal
  w11 : Wt 128 128
  b11 : Fin 128 → EReal
  w20 : Wt 128 256
  b20 : Fin 256 → EReal
  w21 : Wt 256 256
  b21 : Fin 256 → EReal
  w22 : Wt 256 256
  b22 : Fin 256 → EReal
  w30 : Wt 256 512
  b30 : Fin 512 → EReal
  w31 : Wt 512 512
  b31 : Fin 512 → EReal
  w32 : Wt 512 512
  b32 : Fin 512 → EReal

/-- Level 0: two convolutions at 224 × 224. -/
def feat0 (P : Weights) {N : ℕ} (z : Act N 224 224 3) : Act N 224 224 64 :=
  convRelu (convRelu z P.w00 P.b00) P.w01 P.b01

/-- Level 1: pool to 112 × 112, two convolutions. -/
def feat1 (P : Weights) {N : ℕ} (a : Act N 224 224 64) : Act N 112 112 128 :=
  convRelu (convRelu (pool2x2 a : Act N 112 112 64) P.w10 P.b10) P.w11 P.b11

/-- Level 2: pool to 56 × 56, three convolutions. -/
def feat2 (P : Weights) {N : ℕ} (a : Act N 112 112 128) : Act N 56 56 256 :=
  convRelu (convRelu (convRelu (pool2x2 a : Act N 56 56 128) P.w20 P.b20) P.w21 P.b21) P.w22 P.b22

/-- Level 3: pool to 28 × 28, three convolutions. -/
def feat3 (P : Weights) {N : ℕ} (a : Act N 56 56 256) : Act N 28 28 512 :=
  convRelu (convRelu (convRelu (pool2x2 a : Act N 28 28 256) P.w30 P.b30) P.w31 P.b31) P.w32 P.b32

/-! ## Reading activations by position in the row-major order -/

/-- The entry of a stack of activations at position p of the row-major order (image, row, column, channel):
    p = ((n·H + h)·W + w)·C + c. Beyond the last entry, 0. -/
def flat {N H W C : ℕ} (z : Act N H W C) (p : ℕ) : EReal :=
  if h : p < C * (W * (H * N)) then
    z ⟨p / C / W / H, Nat.div_lt_of_lt_mul (Nat.div_lt_of_lt_mul (Nat.div_lt_of_lt_mul h))⟩
      ⟨p / C / W % H, Nat.mod_lt _ (Nat.pos_of_ne_zero (by rintro rfl; simp at h))⟩
      ⟨p / C % W, Nat.mod_lt _ (Nat.pos_of_ne_zero (by rintro rfl; simp at h))⟩
      ⟨p % C, Nat.mod_lt _ (Nat.pos_of_ne_zero (by rintro rfl; simp at h))⟩
  else 0

/-! ## The mean absolute difference of one feature level, in the two arrangements -/

/-- One image's partial sum in the batch of 32: the features of image n against those of image n + 16, both read in
    rows of 512 consecutive entries of the row-major order, Q rows to an image. -/
def l1PartK {H W C : ℕ} (Q : ℕ) (f : Act 32 H W C) (n : Fin 16) : EReal :=
  ∑ q : Fin Q, ∑ k : Fin 512,
    eabs (flat f ((n.val * Q + q.val) * 512 + k.val) - flat f (((n.val + 16) * Q + q.val) * 512 + k.val))

/-- The batch arrangement: the sixteen partial sums added to 0, divided by the count (a single-precision word). -/
def l1K {H W C : ℕ} (Q : ℕ) (f : Act 32 H W C) (total : BitVec 32) : EReal :=
  Ideal.div (0 + ∑ n : Fin 16, l1PartK Q f n) (Ideal.ofBits .f32 total)

/-- The two-stream arrangement: one sum over all M rows of 512 consecutive entries, divided by the count. -/
def l1R {H W C : ℕ} (M : ℕ) (x y : Act 16 H W C) (total : BitVec 32) : EReal :=
  Ideal.div (∑ r : Fin M, ∑ k : Fin 512, eabs (flat x (r.val * 512 + k.val) - flat y (r.val * 512 + k.val)))
    (Ideal.ofBits .f32 total)

/-! ## The two losses -/

/-- The arguments: input and target images (channel-first) and the parameters. -/
structure Args where
  inp : Fin 16 → Fin 3 → Fin 224 → Fin 224 → EReal
  tgt : Fin 16 → Fin 3 → Fin 224 → Fin 224 → EReal
  P : Weights

/-- The four feature levels of a stack of normalised images. -/
def lvl0 (P : Weights) {N : ℕ} (z : Act N 224 224 3) : Act N 224 224 64 := feat0 P z
def lvl1 (P : Weights) {N : ℕ} (z : Act N 224 224 3) : Act N 112 112 128 := feat1 P (lvl0 P z)
def lvl2 (P : Weights) {N : ℕ} (z : Act N 224 224 3) : Act N 56 56 256 := feat2 P (lvl1 P z)
def lvl3 (P : Weights) {N : ℕ} (z : Act N 224 224 3) : Act N 28 28 512 := feat3 P (lvl2 P z)

/-- The counts 16·224·224·64, 16·112·112·128, 16·56·56·256, 16·28·28·512 as single-precision words. -/
abbrev total0 : BitVec 32 := 0x4C440000#32
abbrev total1 : BitVec 32 := 0x4BC40000#32
abbrev total2 : BitVec 32 := 0x4B440000#32
abbrev total3 : BitVec 32 := 0x4AC40000#32

/-- The loss in the batch arrangement: input and target stacked into 32 images, normalised, the four levels computed
    once on the stack; each level's mean absolute difference from per-image partial sums; the four added to 0 in order. -/
def lossK (A : Args) : EReal :=
  let z : Act 32 224 224 3 := normalise (cat A.inp A.tgt)
  0 + l1K 6272 (lvl0 A.P z) total0 + l1K 3136 (lvl1 A.P z) total1
    + l1K 1568 (lvl2 A.P z) total2 + l1K 784 (lvl3 A.P z) total3

/-- The loss in the two-stream arrangement: input and target normalised and carried through the four levels separately;
    each level's mean absolute difference from one sum over all rows; the four added to 0 in order. -/
def lossR (A : Args) : EReal :=
  let x : Act 16 224 224 3 := normalise A.inp
  let y : Act 16 224 224 3 := normalise A.tgt
  0 + l1R 100352 (lvl0 A.P x) (lvl0 A.P y) total0 + l1R 50176 (lvl1 A.P x) (lvl1 A.P y) total1
    + l1R 25088 (lvl2 A.P x) (lvl2 A.P y) total2 + l1R 12544 (lvl3 A.P x) (lvl3 A.P y) total3

end Cert.Spec

end
-- ==== Proof.Spec.ArgsOf.lean ====
/-
  The arguments of the network read off twenty-two arrays: the two image stacks, and for each of the ten convolutions its
  weight tensor [3, 3, Cin, Cout] and its bias row [1, Cout].
-/
import proofs.«143011_g2000502688546152_pallasbulk_1201_3_alg».proof.Proof.Spec.Defs

noncomputable section

namespace Cert.Spec

open Idealize.ShloMosaic Idealize.ShloMosaic.ValueIdx

/-- A weight array as a function of row tap, column tap, input channel, output channel. -/
def curryW {Cin Cout : ℕ} (w : (⟨4, ![3, 3, Cin, Cout]⟩ : Shape).Idx → EReal) : Wt Cin Cout :=
  fun dy dx ci co => w (ix4 dy dx ci co)

/-- A bias row as a function of the output channel. -/
def curryB {Cout : ℕ} (b : (⟨2, ![1, Cout]⟩ : Shape).Idx → EReal) : Fin Cout → EReal :=
  fun co => b (ix2 (0 : Fin 1) co)

/-- A stack of channel-first images as a function of image, channel, row, column. -/
def curryImg {N C H W : ℕ} (x : (⟨4, ![N, C, H, W]⟩ : Shape).Idx → EReal) : Fin N → Fin C → Fin H → Fin W → EReal :=
  fun n c h w => x (ix4 n c h w)

@[simp] theorem curryW_apply {Cin Cout : ℕ} (w : (⟨4, ![3, 3, Cin, Cout]⟩ : Shape).Idx → EReal)
    (dy dx : Fin 3) (ci : Fin Cin) (co : Fin Cout) : curryW w dy dx ci co = w (ix4 dy dx ci co) := rfl

@[simp] theorem curryB_apply {Cout : ℕ} (b : (⟨2, ![1, Cout]⟩ : Shape).Idx → EReal) (co : Fin Cout) :
    curryB b co = b (ix2 (0 : Fin 1) co) := rfl

@[simp] theorem curryImg_apply {N C H W : ℕ} (x : (⟨4, ![N, C, H, W]⟩ : Shape).Idx → EReal)
    (n : Fin N) (c : Fin C) (h : Fin H) (w : Fin W) : curryImg x n c h w = x (ix4 n c h w) := rfl

/-- The network's arguments from the twenty-two arrays, in the programs' argument order. -/
def Args.ofArrays
    (a0 a1 : (⟨4, ![16, 3, 224, 224]⟩ : Shape).Idx → EReal)
    (a2 : (⟨4, ![3, 3, 3, 64]⟩ : Shape).Idx → EReal) (a3 : (⟨2, ![1, 64]⟩ : Shape).Idx → EReal)
    (a4 : (⟨4, ![3, 3, 64, 64]⟩ : Shape).Idx → EReal) (a5 : (⟨2, ![1, 64]⟩ : Shape).Idx → EReal)
    (a6 : (⟨4, ![3, 3, 64, 128]⟩ : Shape).Idx → EReal) (a7 : (⟨2, ![1, 128]⟩ : Shape).Idx → EReal)
    (a8 : (⟨4, ![3, 3, 128, 128]⟩ : Shape).Idx → EReal) (a9 : (⟨2, ![1, 128]⟩ : Shape).Idx → EReal)
    (a10 : (⟨4, ![3, 3, 128, 256]⟩ : Shape).Idx → EReal) (a11 : (⟨2, ![1, 256]⟩ : Shape).Idx → EReal)
    (a12 : (⟨4, ![3, 3, 256, 256]⟩ : Shape).Idx → EReal) (a13 : (⟨2, ![1, 256]⟩ : Shape).Idx → EReal)
    (a14 : (⟨4, ![3, 3, 256, 256]⟩ : Shape).Idx → EReal) (a15 : (⟨2, ![1, 256]⟩ : Shape).Idx → EReal)
    (a16 : (⟨4, ![3, 3, 256, 512]⟩ : Shape).Idx → EReal) (a17 : (⟨2, ![1, 512]⟩ : Shape).Idx → EReal)
    (a18 : (⟨4, ![3, 3, 512, 512]⟩ : Shape).Idx → EReal) (a19 : (⟨2, ![1, 512]⟩ : Shape).Idx → EReal)
    (a20 : (⟨4, ![3, 3, 512, 512]⟩ : Shape).Idx → EReal) (a21 : (⟨2, ![1, 512]⟩ : Shape).Idx → EReal) : Args where
  inp := curryImg a0
  tgt := curryImg a1
  P :=
    { w00 := curryW a2, b00 := curryB a3, w01 := curryW a4, b01 := curryB a5
      w10 := curryW a6, b10 := curryB a7, w11 := curryW a8, b11 := curryB a9
      w20 := curryW a10, b20 := curryB a11, w21 := curryW a12, b21 := curryB a13, w22 := curryW a14, b22 := curryB a15
      w30 := curryW a16, b30 := curryB a17, w31 := curryW a18, b31 := curryB a19, w32 := curryW a20, b32 := curryB a21 }

end Cert.Spec

end
-- ==== Proof.KI.RunArgs.lean ====
/-
  The arguments of the network as index functions: the two image stacks (channel-first) and the twenty parameter
  arrays, read off the launch memory.
-/
import proofs.«143011_g2000502688546152_pallasbulk_1201_3_alg».proof.Proof.KI.GenRegions
import proofs.«143011_g2000502688546152_pallasbulk_1201_3_alg».proof.Proof.Spec.ArgsOf
import Idealize.ShloMosaic.PureOps.Ideal

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The arguments as index functions. -/
def args : Cert.Spec.Args :=
  Cert.Spec.Args.ofArrays
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))

end Cert.KernelIdeal.Run

end
-- ==== Proof.Spec.Flat.lean ====
/-
  Arithmetic of the row-major reader: the entry at position ((n·H + h)·W + w)·C + c is the entry (n, h, w, c); a stack of
  32 images read below the half-way position is the first stack of 16, and above it the second.
-/
import proofs.«143011_g2000502688546152_pallasbulk_1201_3_alg».proof.Proof.Spec.Defs

noncomputable section

open scoped BigOperators

namespace Cert.Spec

open Idealize.ShloMosaic

/-- Quotient and remainder of a·C + c by C, for c below C. -/
theorem divmod (a c C : ℕ) (h : c < C) : (a * C + c) / C = a ∧ (a * C + c) % C = c := by
  constructor
  · rw [Nat.mul_comm, Nat.mul_add_div (by omega), Nat.div_eq_of_lt h, Nat.add_zero]
  · rw [Nat.mul_comm, Nat.mul_add_mod, Nat.mod_eq_of_lt h]

/-- A two-digit number in mixed radix is below the product of the radices. -/
theorem lt_mul_of {a b A B : ℕ} (ha : a < A) (hb : b < B) : a * B + b < B * A := by
  calc a * B + b < a * B + B := by omega
    _ = (a + 1) * B := by ring
    _ ≤ A * B := Nat.mul_le_mul_right _ ha
    _ = B * A := Nat.mul_comm _ _

/-- Equal coordinates, equal entries. -/
theorem act_ext4 {N H W C : ℕ} (z : Act N H W C) {n n' : Fin N} {h h' : Fin H} {w w' : Fin W} {c c' : Fin C}
    (e1 : n.val = n'.val) (e2 : h.val = h'.val) (e3 : w.val = w'.val) (e4 : c.val = c'.val) :
    z n h w c = z n' h' w' c' := by
  rw [Fin.ext e1, Fin.ext e2, Fin.ext e3, Fin.ext e4]

/-- The row-major reader at the position of (n, h, w, c) is the entry (n, h, w, c). -/
theorem flat_ix {N H W C : ℕ} (z : Act N H W C) (n : Fin N) (h : Fin H) (w : Fin W) (c : Fin C) :
    flat z (((n.val * H + h.val) * W + w.val) * C + c.val) = z n h w c := by
  have d3 := divmod ((n.val * H + h.val) * W + w.val) c.val C c.isLt
  have d2 := divmod (n.val * H + h.val) w.val W w.isLt
  have d1 := divmod n.val h.val H h.isLt
  have b1 : n.val * H + h.val < H * N := lt_mul_of n.isLt h.isLt
  have b2 : (n.val * H + h.val) * W + w.val < W * (H * N) := lt_mul_of b1 w.isLt
  have b3 : ((n.val * H + h.val) * W + w.val) * C + c.val < C * (W * (H * N)) := lt_mul_of b2 c.isLt
  unfold flat
  rw [dif_pos b3]
  apply act_ext4
  · simp only [d3.1, d2.1, d1.1]
  · simp only [d3.1, d2.1, d1.2]
  · simp only [d3.1, d2.2]
  · simp only [d3.2]

/-- The first half of a stack of 32. -/
theorem cat_lo {α : Type} (x y : Fin 16 → α) (n : Fin 32) (m : Fin 16) (h : n.val = m.val) : cat x y n = x m := by
  unfold cat
  rw [dif_pos (by omega)]
  congr 1
  exact Fin.ext h

/-- The second half of a stack of 32. -/
theorem cat_hi {α : Type} (x y : Fin 16 → α) (n : Fin 32) (m : Fin 16) (h : n.val = m.val + 16) : cat x y n = y m := by
  unfold cat
  rw [dif_neg (by omega)]
  congr 1
  exact Fin.ext (by simp only; omega)

/-- Below the half-way position the stack of 32 reads as the first stack of 16. -/
theorem flat_cat_lo {H W C : ℕ} (x y : Act 16 H W C) (p : ℕ) (hp : p < C * (W * (H * 16))) :
    flat (cat x y : Act 32 H W C) p = flat x p := by
  have h32 : p < C * (W * (H * 32)) :=
    lt_of_lt_of_le hp (Nat.mul_le_mul_left _ (Nat.mul_le_mul_left _ (Nat.mul_le_mul_left _ (by norm_num))))
  unfold flat
  rw [dif_pos h32, dif_pos hp]
  rw [cat_lo x y _ ⟨p / C / W / H, Nat.div_lt_of_lt_mul (Nat.div_lt_of_lt_mul (Nat.div_lt_of_lt_mul hp))⟩ rfl]

/-- From the half-way position on the stack of 32 reads as the second stack of 16. -/
theorem flat_cat_hi {H W C : ℕ} (x y : Act 16 H W C) (p : ℕ) (hp : p < C * (W * (H * 16))) :
    flat (cat x y : Act 32 H W C) (p + C * (W * (H * 16))) = flat y p := by
  have hC : 0 < C := Nat.pos_of_ne_zero (by rintro rfl; simp at hp)
  have hW : 0 < W := Nat.pos_of_ne_zero (by rintro rfl; simp at hp)
  have hH : 0 < H := Nat.pos_of_ne_zero (by rintro rfl; simp at hp)
  have h32 : p + C * (W * (H * 16)) < C * (W * (H * 32)) := by
    have : C * (W * (H * 32)) = C * (W * (H * 16)) + C * (W * (H * 16)) := by ring
    omega
  have q1 : (p + C * (W * (H * 16))) / C = p / C + W * (H * 16) := Nat.add_mul_div_left _ _ hC
  have q2 : (p / C + W * (H * 16)) / W = p / C / W + H * 16 := Nat.add_mul_div_left _ _ hW
  have q3 : (p / C / W + H * 16) / H = p / C / W / H + 16 := Nat.add_mul_div_left _ _ hH
  have r1 : (p + C * (W * (H * 16))) % C = p % C := Nat.add_mul_mod_self_left _ _ _
  have r2 : (p / C + W * (H * 16)) % W = p / C % W := Nat.add_mul_mod_self_left _ _ _
  have r3 : (p / C / W + H * 16) % H = p / C / W % H := Nat.add_mul_mod_self_left _ _ _
  unfold flat
  rw [dif_pos h32, dif_pos hp]
  rw [cat_hi x y _ ⟨p / C / W / H, Nat.div_lt_of_lt_mul (Nat.div_lt_of_lt_mul (Nat.div_lt_of_lt_mul hp))⟩
    (by simp only [q1, q2, q3])]
  apply act_ext4
  · rfl
  · simp only [q1, q2, r3]
  · simp only [q1, r2]
  · simp only [r1]

/-- A sum over 16·Q rows is the sum over 16 images of the sum over each image's Q rows. -/
theorem sum_rows (Q : ℕ) (G : ℕ → EReal) :
    ∑ r : Fin (16 * Q), G r.val = ∑ n : Fin 16, ∑ q : Fin Q, G (n.val * Q + q.val) := by
  rw [← finProdFinEquiv.sum_comp, Fintype.sum_prod_type]
  refine Finset.sum_congr rfl fun n _ => Finset.sum_congr rfl fun q _ => ?_
  congr 1
  simp only [finProdFinEquiv_apply_val]
  ring

end Cert.Spec

end
-- ==== Proof.Spec.Glue.lean ====
/-
  Array operations read at an index, in the coordinates of the network: the channel-first to channel-last transpose, the
  exchange of the two tap axes of a weight tensor, a channel vector broadcast over images, rows and columns, two stacks of
  16 concatenated into 32, and the sum of sixteen numbers from an initial value.
-/
import Idealize.ShloMosaic.Lib.ValueLayout
import Idealize.ShloMosaic.PureOps.Ideal.Laws
import proofs.«143011_g2000502688546152_pallasbulk_1201_3_alg».proof.Proof.Spec.Flat

noncomputable section

open scoped BigOperators

namespace Cert.Spec

open Idealize.ShloMosaic Idealize.ShloMosaic.ValueIdx

variable {α : Type}

/-- Channel-first to channel-last: entry (n, i, j, c) of the transposed array is entry (n, c, i, j). -/
theorem transpose_0231_apply {N C H W : ℕ} (x : (⟨4, ![N, C, H, W]⟩ : Shape).Idx → α)
    (h : (⟨4, ![N, C, H, W]⟩ : Shape).Transposes [0, 2, 3, 1] ⟨4, ![N, H, W, C]⟩)
    (n : Fin N) (i : Fin H) (j : Fin W) (c : Fin C) :
    transpose ⟨4, ![N, H, W, C]⟩ [0, 2, 3, 1] x h (ix4 n i j c) = x (ix4 n c i j) :=
  transpose_apply _ x h _ _ fun b =>
    match b with | ⟨0, _⟩ => rfl | ⟨1, _⟩ => rfl | ⟨2, _⟩ => rfl | ⟨3, _⟩ => rfl

/-- The two leading axes exchanged: entry (a, b, ci, co) of the transposed array is entry (b, a, ci, co). -/
theorem transpose_1023_apply {A B Cin Cout : ℕ} (x : (⟨4, ![A, B, Cin, Cout]⟩ : Shape).Idx → α)
    (h : (⟨4, ![A, B, Cin, Cout]⟩ : Shape).Transposes [1, 0, 2, 3] ⟨4, ![B, A, Cin, Cout]⟩)
    (b : Fin B) (a : Fin A) (ci : Fin Cin) (co : Fin Cout) :
    transpose ⟨4, ![B, A, Cin, Cout]⟩ [1, 0, 2, 3] x h (ix4 b a ci co) = x (ix4 a b ci co) :=
  transpose_apply _ x h _ _ fun d =>
    match d with | ⟨0, _⟩ => rfl | ⟨1, _⟩ => rfl | ⟨2, _⟩ => rfl | ⟨3, _⟩ => rfl

/-- A vector of K channel values placed on the last axis of a [1, 1, 1, K] array. -/
theorem bcast_last_apply {K : ℕ} (hK : K ≠ 1) (v : (⟨1, ![K]⟩ : Shape).Idx → α)
    (h : (⟨1, ![K]⟩ : Shape).BroadcastsInDim ⟨4, ![1, 1, 1, K]⟩ ![3])
    (a b c : Fin 1) (k : Fin K) :
    broadcastInDim ⟨4, ![1, 1, 1, K]⟩ ![3] h v (ix4 a b c k) = v (ix1 k) :=
  broadcastInDim_apply _ h v _ _ fun d =>
    match d with
    | ⟨0, _⟩ => by
      show k.val = if K = 1 then 0 else k.val
      rw [if_neg hK]

/-- A [1, 1, 1, K] array spread over images, rows and columns. -/
theorem bcast_nhw_apply {N H W K : ℕ} (hK : K ≠ 1) (v : (⟨4, ![1, 1, 1, K]⟩ : Shape).Idx → α)
    (h : (⟨4, ![1, 1, 1, K]⟩ : Shape).BroadcastsInDim ⟨4, ![N, H, W, K]⟩ ![0, 1, 2, 3])
    (n : Fin N) (i : Fin H) (j : Fin W) (k : Fin K) :
    broadcastInDim ⟨4, ![N, H, W, K]⟩ ![0, 1, 2, 3] h v (ix4 n i j k) = v (ix4 (0 : Fin 1) (0 : Fin 1) (0 : Fin 1) k) :=
  broadcastInDim_apply _ h v _ _ fun d =>
    match d with
    | ⟨0, _⟩ => rfl
    | ⟨1, _⟩ => rfl
    | ⟨2, _⟩ => rfl
    | ⟨3, _⟩ => by
      show k.val = if K = 1 then 0 else k.val
      rw [if_neg hK]

/-- Both broadcasts of the normalisation together: the channel vector read at the entry's channel. -/
theorem bcast_channel_apply {N H W K : ℕ} (hK : K ≠ 1) (v : (⟨1, ![K]⟩ : Shape).Idx → α)
    (h1 : (⟨1, ![K]⟩ : Shape).BroadcastsInDim ⟨4, ![1, 1, 1, K]⟩ ![3])
    (h2 : (⟨4, ![1, 1, 1, K]⟩ : Shape).BroadcastsInDim ⟨4, ![N, H, W, K]⟩ ![0, 1, 2, 3])
    (n : Fin N) (i : Fin H) (j : Fin W) (k : Fin K) :
    broadcastInDim ⟨4, ![N, H, W, K]⟩ ![0, 1, 2, 3] h2 (broadcastInDim ⟨4, ![1, 1, 1, K]⟩ ![3] h1 v) (ix4 n i j k)
      = v (ix1 k) := by
  rw [bcast_nhw_apply hK, bcast_last_apply hK]

/-- Two stacks of 16 concatenated along the image axis are the stack of 32 of the network. -/
theorem concat_cat {C H W : ℕ} (a b : (⟨4, ![16, C, H, W]⟩ : Shape).Idx → α)
    (h : Shape.Concatenates [(⟨4, ![16, C, H, W]⟩ : Shape), ⟨4, ![16, C, H, W]⟩] ⟨4, ![32, C, H, W]⟩ 0)
    (n : Fin 32) (c : Fin C) (i : Fin H) (j : Fin W) :
    concatenate ⟨4, ![32, C, H, W]⟩ 0 [⟨⟨4, ![16, C, H, W]⟩, a⟩, ⟨⟨4, ![16, C, H, W]⟩, b⟩] h (ix4 n c i j)
      = cat (fun m c i j => a (ix4 m c i j)) (fun m c i j => b (ix4 m c i j)) n c i j := by
  have hn32 := n.isLt
  by_cases hn : n.val < 16
  · rw [cat_lo _ _ n ⟨n.val, hn⟩ rfl]
    exact concatenate_pair_apply_left 0 a b h _ rfl (ix4 (⟨n.val, hn⟩ : Fin 16) c i j) fun d =>
      match d with | ⟨0, _⟩ => rfl | ⟨1, _⟩ => rfl | ⟨2, _⟩ => rfl | ⟨3, _⟩ => rfl
  · rw [cat_hi _ _ n ⟨n.val - 16, by omega⟩ (by simp only; omega)]
    exact concatenate_pair_apply_right 0 a b h _ rfl rfl (ix4 (⟨n.val - 16, by omega⟩ : Fin 16) c i j)
      (fun d hd => match d, hd with
        | ⟨0, _⟩, hd => absurd rfl hd
        | ⟨1, _⟩, _ => rfl | ⟨2, _⟩, _ => rfl | ⟨3, _⟩, _ => rfl)
      (by show n.val - 16 + 16 = n.val; omega)

/-- A [1, 1] array has one index. -/
theorem idx11_eq (i : (⟨2, ![1, 1]⟩ : Shape).Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-- A [1, 1] array re-indexed to a scalar reads its one entry. -/
theorem reshape_11_scalar (A : (⟨2, ![1, 1]⟩ : Shape).Idx → α)
    (h : (⟨0, ![]⟩ : Shape).numel = (⟨2, ![1, 1]⟩ : Shape).numel) (j : (⟨0, ![]⟩ : Shape).Idx) :
    A (Shape.reshapeEquiv h j) = A (ix2 (0 : Fin 1) (0 : Fin 1)) :=
  congrArg A (idx11_eq _)

/-- The indices of a one-axis array are its coordinates. -/
def idxEquiv1 (n : ℕ) : Fin n ≃ (⟨1, ![n]⟩ : Shape).Idx where
  toFun := ix1
  invFun j := j 0
  left_inv _ := rfl
  right_inv j := (eq_ix1 j).symm

/-- A sum over a one-axis array's indices is the sum over its coordinates. -/
theorem sum_idx1 {M : Type} [AddCommMonoid M] {n : ℕ} (f : (⟨1, ![n]⟩ : Shape).Idx → M) :
    ∑ j : (⟨1, ![n]⟩ : Shape).Idx, f j = ∑ k : Fin n, f (ix1 k) :=
  ((idxEquiv1 n).sum_comp f).symm

/-- The host's sum of a one-axis array into a scalar: the initial value plus the sum of the entries in order. -/
theorem hostReduceAdd_all {n : ℕ} {axes : List (Fin (⟨1, ![n]⟩ : Shape).rank)}
    (h : (⟨1, ![n]⟩ : Shape).ReducesTo axes ⟨0, ![]⟩) (x : (⟨1, ![n]⟩ : Shape).Idx → EReal) (init : EReal)
    (j : (⟨0, ![]⟩ : Shape).Idx) :
    Ideal.hostReduceAdd h x init j = init + ∑ k : Fin n, x (ix1 k) := by
  rw [Ideal.hostReduceAdd_total h (fun b => b.elim0), sum_idx1]

end Cert.Spec

end
-- ==== Proof.Spec.FlatIdx.lean ====
/-
  Arrays indexed by a shape's multi-indices, read through the curried functions of the network: an entry of a rank-4 array
  is the row-major reader at the index's row-major position, so an array re-indexed to another shape with as many entries
  reads, at an index of that shape, as the row-major reader at that index's own row-major position.
-/
import proofs.«143011_g2000502688546152_pallasbulk_1201_3_alg».proof.Proof.Spec.Flat

noncomputable section

open scoped BigOperators

namespace Cert.Spec

open Idealize.ShloMosaic Idealize.ShloMosaic.ValueIdx

/-- A rank-4 array as a curried function of its four coordinates. -/
def curry4 {N H W C : ℕ} (A : (⟨4, ![N, H, W, C]⟩ : Shape).Idx → EReal) : Act N H W C :=
  fun n h w c => A (ix4 n h w c)

@[simp] theorem curry4_apply {N H W C : ℕ} (A : (⟨4, ![N, H, W, C]⟩ : Shape).Idx → EReal)
    (n : Fin N) (h : Fin H) (w : Fin W) (c : Fin C) : curry4 A n h w c = A (ix4 n h w c) := rfl

/-- An entry of a rank-4 array is the row-major reader at the index's row-major position. -/
theorem flat_rowMajor {N H W C : ℕ} (A : (⟨4, ![N, H, W, C]⟩ : Shape).Idx → EReal)
    (j : (⟨4, ![N, H, W, C]⟩ : Shape).Idx) :
    A j = flat (curry4 A) ((⟨4, ![N, H, W, C]⟩ : Shape).rowMajor j).val := by
  rw [Shape.rowMajor_val_four]
  conv_lhs => rw [eq_ix4 j]
  exact (flat_ix (curry4 A) (j 0) (j 1) (j 2) (j 3)).symm

/-- A rank-4 array re-indexed to another shape reads, at an index of that shape, as the row-major reader at that
    index's row-major position. -/
theorem flat_reshape {s' : Shape} {N H W C : ℕ} (A : (⟨4, ![N, H, W, C]⟩ : Shape).Idx → EReal)
    (h : s'.numel = (⟨4, ![N, H, W, C]⟩ : Shape).numel) (x : s'.Idx) :
    A (Shape.reshapeEquiv h x) = flat (curry4 A) (s'.rowMajor x).val := by
  rw [flat_rowMajor A, Shape.rowMajor_reshapeEquiv]

/-- Re-indexed to rank 3, [M, Q, K]: entry (n, q, k) is at position (n·Q + q)·K + k. -/
theorem flat_reshape3 {N H W C M Q K : ℕ} (A : (⟨4, ![N, H, W, C]⟩ : Shape).Idx → EReal)
    (h : (⟨3, ![M, Q, K]⟩ : Shape).numel = (⟨4, ![N, H, W, C]⟩ : Shape).numel)
    (n : Fin M) (q : Fin Q) (k : Fin K) :
    A (Shape.reshapeEquiv h (ix3 n q k)) = flat (curry4 A) ((n.val * Q + q.val) * K + k.val) := by
  rw [flat_reshape A h, Shape.rowMajor_val_three]
  rfl

/-- Re-indexed to rank 2, [M, K]: entry (r, k) is at position r·K + k. -/
theorem flat_reshape2 {N H W C M K : ℕ} (A : (⟨4, ![N, H, W, C]⟩ : Shape).Idx → EReal)
    (h : (⟨2, ![M, K]⟩ : Shape).numel = (⟨4, ![N, H, W, C]⟩ : Shape).numel)
    (r : Fin M) (k : Fin K) :
    A (Shape.reshapeEquiv h (ix2 r k)) = flat (curry4 A) (r.val * K + k.val) := by
  rw [flat_reshape A h, Shape.rowMajor_val_two]
  rfl

/-- Columns split in pairs: re-indexed to [N, H, Wo, 2, C], entry (n, h, j, t, c) is entry (n, h, 2·j + t, c). -/
theorem reshape_pairs {α : Type} {N H W Wo C : ℕ} (A : (⟨4, ![N, H, W, C]⟩ : Shape).Idx → α)
    (h : (⟨5, ![N, H, Wo, 2, C]⟩ : Shape).numel = (⟨4, ![N, H, W, C]⟩ : Shape).numel) (hW : W = Wo * 2)
    (n : Fin N) (i : Fin H) (j : Fin Wo) (t : Fin 2) (c : Fin C) :
    A (Shape.reshapeEquiv h (ix5 n i j t c)) = A (ix4 n i ⟨2 * j.val + t.val, by omega⟩ c) := by
  congr 1
  apply Shape.reshapeEquiv_eq_of_rowMajor
  rw [Shape.rowMajor_val_four, Shape.rowMajor_val_five]
  show ((n.val * H + i.val) * W + (2 * j.val + t.val)) * C + c.val
    = (((n.val * H + i.val) * Wo + j.val) * 2 + t.val) * C + c.val
  subst hW
  ring

/-- Row taps folded into the contraction: a [3, 3, Cin, Cout] array re-indexed to [3, 3·Cin, Cout] reads, at
    (a, b·Cin + ci, co), as entry (a, b, ci, co). -/
theorem reshape_taps {α : Type} {Cin Cout K : ℕ} (A : (⟨4, ![3, 3, Cin, Cout]⟩ : Shape).Idx → α)
    (h : (⟨3, ![3, K, Cout]⟩ : Shape).numel = (⟨4, ![3, 3, Cin, Cout]⟩ : Shape).numel)
    (a b : Fin 3) (ci : Fin Cin) (co : Fin Cout) (hk : b.val * Cin + ci.val < K) (hK : K = 3 * Cin) :
    A (Shape.reshapeEquiv h (ix3 a ⟨b.val * Cin + ci.val, hk⟩ co)) = A (ix4 a b ci co) := by
  congr 1
  apply Shape.reshapeEquiv_eq_of_rowMajor
  rw [Shape.rowMajor_val_four, Shape.rowMajor_val_three]
  show ((a.val * 3 + b.val) * Cin + ci.val) * Cout + co.val
    = (a.val * K + (b.val * Cin + ci.val)) * Cout + co.val
  subst hK
  ring

end Cert.Spec

end
-- ==== Proof.KI.GlueNorm.lean ====
/-
  The normalised stack the first convolution's padding starts from: input and target stacked into 32 images,
  channels moved last, each channel centred by its mean and divided by its deviation, narrowed to the shorter float
  format (which at the extended reals changes nothing). Entry (n, h, w, c) is (x n c h w − mean c) / std c of the stack x.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost
import proofs.«143011_g2000502688546152_pallasbulk_1201_3_alg».proof.Proof.Spec.ArgsOf

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- The two literal tables of the program are the channel means and deviations. -/
theorem lit0_eq (ch : Fin 3) : lit0 (S3.rowMajor (ix1 ch)) = Cert.Spec.meanBits ch := by fin_cases ch <;> rfl
theorem lit1_eq (ch : Fin 3) : lit1 (S3.rowMajor (ix1 ch)) = Cert.Spec.stdBits ch := by fin_cases ch <;> rfl

theorem norm_0 (V : Valuation τ sig (Elt Ideal)) (n : Fin 32) (h : Fin 224) (w : Fin 224) (ch : Fin 3) :
    (StableHlo.after hostOps0 V main_v8 : FVec Ideal S32x224x224x3 .bf16) (ix4 n h w ch)
      = Cert.Spec.normalise (Cert.Spec.cat (Cert.Spec.curryImg (V main_arg0 : FVec Ideal S16x3x224x224 .f32))
          (Cert.Spec.curryImg (V main_arg1 : FVec Ideal S16x3x224x224 .f32))) n h w ch := by
  have e : StableHlo.after hostOps0 V main_v8
      = truncf (F := Ideal) .bf16
          (Host.divf
            (subf
              (transpose S32x224x224x3 [0, 2, 3, 1]
                (concatenate S32x3x224x224 0 [⟨S16x3x224x224, V main_arg0⟩, ⟨S16x3x224x224, V main_arg1⟩]
                  concatenates_S16x3x224x224_S16x3x224x224_S32x3x224x224_d0)
                transposes_S32x3x224x224_S32x224x224x3_0_2_3_1)
              (broadcastInDim S32x224x224x3 ![0, 1, 2, 3] bcast_S1x1x1x3_S32x224x224x3_0_1_2_3
                (broadcastInDim S1x1x1x3 ![3] bcast_S3_S1x1x1x3_3 fun i => FloatOps.ofBits (F := Ideal) .f32 (lit0 (S3.rowMajor i)))))
            (broadcastInDim S32x224x224x3 ![0, 1, 2, 3] bcast_S1x1x1x3_S32x224x224x3_0_1_2_3
              (broadcastInDim S1x1x1x3 ![3] bcast_S3_S1x1x1x3_3 fun i => FloatOps.ofBits (F := Ideal) .f32 (lit1 (S3.rowMajor i)))))
          bitsLt_bf16_f32 := by
    after_results <;> rfl
  rw [e, truncf_apply, hostDivf_apply, subf_apply, Cert.Spec.transpose_0231_apply, Cert.Spec.concat_cat,
    Cert.Spec.bcast_channel_apply (by decide), Cert.Spec.bcast_channel_apply (by decide), lit0_eq, lit1_eq]
  rfl

end Cert.KernelIdeal.Glue

end
-- ==== Proof.KI.Reg0Value.lean ====
import proofs.«143011_g2000502688546152_pallasbulk_1201_3_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe
open Idealize.SL Idealize.SL.Sem
open Idealize.ShloMosaic.Pipeline (Dat Cfg Window)
open Idealize.ShloMosaic.ValueIdx
open Cert.KernelIdeal.Gen
open scoped BigOperators

theorem off4_zero : (![0, 0, 0, 0] : Fin 4 → ℕ) = fun _ => 0 := by funext a; fin_cases a <;> rfl
theorem off2_zero : (![0, 0] : Fin 2 → ℕ) = fun _ => 0 := by funext a; fin_cases a <;> rfl

/-- A row tile flattened to rows: flat row `r·240 + col` is the tile's (r, col). -/
theorem rows_apply (x : Vec Ideal S1x16x240x3 .bf16) (r : Fin 16) (col : Fin 240) (ci : Fin 3) :
    shapeCast S3840x3 (shapeCast S16x240x3 x shapeCasts_S1x16x240x3_S16x240x3) shapeCasts_S16x240x3_S3840x3
        (ix2 ⟨r.val * 240 + col.val, by omega⟩ ci)
      = x (ix4 0 r col ci) := by
  refine (shapeCast_apply _ _ _ (ix3 r col ci) (by
    rw [Shape.rowMajor_val_three, Shape.rowMajor_val_two]
    show (r.val * 240 + col.val) * 3 + ci.val = (r.val * 240 + col.val) * 3 + ci.val
    rfl)).trans ?_
  exact shapeCast_apply _ _ _ (ix4 0 r col ci) (by
    rw [Shape.rowMajor_val_four, Shape.rowMajor_val_three]
    show ((0 * 16 + r.val) * 240 + col.val) * 3 + ci.val = (r.val * 240 + col.val) * 3 + ci.val
    omega)

theorem slab_apply (x0 x1 : Vec Ideal S1x16x240x3 .bf16) (r col : ℕ) (hr : r < 32) (hc : col < 240) (ci : Fin 3) :
    k0_pay2 (View.ld x0 rx) (View.ld x1 rx) (ix2 ⟨r * 240 + col, by omega⟩ ci)
      = if h : r < 16 then x0 (ix4 0 ⟨r, h⟩ ⟨col, hc⟩ ci) else x1 (ix4 0 ⟨r - 16, by omega⟩ ⟨col, hc⟩ ci) := by
  unfold k0_pay2
  rw [View.ld_unit_zero off4_zero, View.ld_unit_zero off4_zero]
  by_cases h : r < 16
  · rw [dif_pos h]
    refine (concatenate_apply_piece (t := S7920x3) 0 _ _ _ 0 ?_ S3840x3 _ ?_ ?_ 0 ?_
      (ix2 ⟨r * 240 + col, by omega⟩ ci) (fun b hb => ?_) ?_).trans (rows_apply x0 ⟨r, h⟩ ⟨col, hc⟩ ci)
    · exact Nat.zero_lt_succ _
    · rfl
    · rfl
    · rfl
    · match b with
      | ⟨0, _⟩ => exact absurd rfl hb
      | ⟨1, _⟩ => rfl
    · show 0 + (r * 240 + col) = r * 240 + col
      omega
  · rw [dif_neg h]
    refine (concatenate_apply_piece (t := S7920x3) 0 _ _ _ 1 ?_ S3840x3 _ ?_ ?_ 3840 ?_
      (ix2 ⟨(r - 16) * 240 + col, by omega⟩ ci) (fun b hb => ?_) ?_).trans (rows_apply x1 ⟨r - 16, by omega⟩ ⟨col, hc⟩ ci)
    · exact Nat.succ_lt_succ (Nat.zero_lt_succ _)
    · rfl
    · rfl
    · rfl
    · match b with
      | ⟨0, _⟩ => exact absurd rfl hb
      | ⟨1, _⟩ => rfl
    · show 3840 + ((r - 16) * 240 + col) = r * 240 + col
      omega

/-- A band of rows cut out of a matrix of rows. -/
theorem rslice_apply {N M C : ℕ} (o : ℕ) (x : (⟨2, ![N, C]⟩ : Shape).Idx → EReal)
    (h : (⟨2, ![N, C]⟩ : Shape).Slices ![o, 0] ⟨2, ![M, C]⟩) (m : Fin M) (ci : Fin C) (hb : o + m.val < N) :
    extractStridedSlice ⟨2, ![M, C]⟩ ![o, 0] x h (ix2 m ci) = x (ix2 ⟨o + m.val, hb⟩ ci) :=
  extractStridedSlice_apply _ _ _ _ _ fun a => match a with
    | ⟨0, _⟩ => rfl
    | ⟨1, _⟩ => by show ci.val = 0 + ci.val; omega

abbrev D0 : DotDims S3840x3 S3x64 S3840x64 := dot_S3840x3_S3x64_S3840x64_1_0_0_1_n_n

theorem mm_apply (L : FVec Ideal S3840x3 .bf16) (R : FVec Ideal S3x64 .bf16) (m : Fin 3840) (co : Fin 64) :
    matmul D0 none L R (constant S3840x64 .f32 0x00000000#32) (ix2 m co)
      = ∑ ci : Fin 3, L (ix2 m ci) * R (ix2 ci co) := by
  simp only [matmul]
  rw [Ideal.matmul_constant_zero_apply]
  rw [← Equiv.sum_comp (contrEquiv1 D0 3 rfl rfl).symm]
  refine Finset.sum_congr rfl fun ci _ => ?_
  have hl : D0.lhsIdx (ix2 m co) ((contrEquiv1 D0 3 rfl rfl).symm ci) = ix2 m ci := by
    funext a
    match a with
    | ⟨0, _⟩ =>
      apply Fin.ext
      simp [DotDims.lhsIdx, D0, dot_S3840x3_S3x64_S3840x64_1_0_0_1_n_n]
      rfl
    | ⟨1, _⟩ =>
      apply Fin.ext
      simp [DotDims.lhsIdx, D0, dot_S3840x3_S3x64_S3840x64_1_0_0_1_n_n]
      rfl
  have hr : D0.rhsIdx (ix2 m co) ((contrEquiv1 D0 3 rfl rfl).symm ci) = ix2 ci co := by
    funext a
    match a with
    | ⟨0, _⟩ =>
      apply Fin.ext
      simp [DotDims.rhsIdx, D0, dot_S3840x3_S3x64_S3840x64_1_0_0_1_n_n]
      rfl
    | ⟨1, _⟩ =>
      apply Fin.ext
      simp [DotDims.rhsIdx, D0, dot_S3840x3_S3x64_S3840x64_1_0_0_1_n_n]
      rfl
  rw [hl, hr]

/-- One tap of the filter as a matrix: the 3×64 block at (a, b). -/
theorem wtap_apply (x2 : Vec Ideal S3x3x3x64 .bf16) (a b : ℕ) (ha : a < 3) (hb : b < 3)
    (inb : ∀ d, (![a, b, 0, 0] : Fin 4 → ℕ) d + S1x1x3x64.size d ≤ S3x3x3x64.size d) (ci : Fin 3) (co : Fin 64) :
    shapeCast S3x64 (View.ld x2 (Rect.unit (s := S3x3x3x64) ![a, b, 0, 0] S1x1x3x64.size inb)) shapeCasts_S1x1x3x64_S3x64 (ix2 ci co)
      = x2 (ix4 ⟨a, ha⟩ ⟨b, hb⟩ ci co) := by
  refine (shapeCast_apply _ _ _ (ix4 0 0 ci co) (by
    rw [Shape.rowMajor_val_four, Shape.rowMajor_val_two]
    show ((0 * 1 + 0) * 3 + ci.val) * 64 + co.val = ci.val * 64 + co.val
    omega)).trans ?_
  refine congrArg x2 (funext fun d => Fin.ext ?_)
  match d with
  | ⟨0, _⟩ => show a + 1 * 0 = a; omega
  | ⟨1, _⟩ => show b + 1 * 0 = b; omega
  | ⟨2, _⟩ => show 0 + 1 * ci.val = ci.val; omega
  | ⟨3, _⟩ => show 0 + 1 * co.val = co.val; omega

/-- The bias row spread over the rows. -/
theorem bias_apply (x3 : Vec Ideal S1x64 .f32) (m : Fin 3840) (co : Fin 64) :
    broadcastTo S3840x64 (View.ld x3 rb) broadcasts_S1x64_S3840x64 (ix2 m co) = x3 (ix2 0 co) := by
  rw [View.ld_unit_zero off2_zero]
  exact broadcastTo_apply _ _ _ (ix2 0 co) fun a => match a with
    | ⟨0, _⟩ => rfl
    | ⟨1, _⟩ => rfl

/-- A tap's product read at a row: the band of the stacked rows starting `o` rows down, times the tap. -/
theorem tap1_apply (SL : FVec Ideal S7920x3 .bf16) (o : ℕ) (h : S7920x3.Slices ![o, 0] S3840x3) (R : FVec Ideal S3x64 .bf16)
    (m : Fin 3840) (co : Fin 64) (hb : o + m.val < 7920) :
    matmul D0 none (extractStridedSlice S3840x3 ![o, 0] SL h) R (constant S3840x64 .f32 0x00000000#32) (ix2 m co)
      = ∑ ci : Fin 3, SL (ix2 ⟨o + m.val, hb⟩ ci) * R (ix2 ci co) := by
  rw [mm_apply]
  exact Finset.sum_congr rfl fun ci _ => by rw [rslice_apply o SL h m ci hb]

theorem tap2_apply (SL : FVec Ideal S7920x3 .bf16) (N1 o1 o2 : ℕ) (h1 : S7920x3.Slices ![o1, 0] ⟨2, ![N1, 3]⟩)
    (h2 : (⟨2, ![N1, 3]⟩ : Shape).Slices ![o2, 0] S3840x3) (R : FVec Ideal S3x64 .bf16)
    (m : Fin 3840) (co : Fin 64) (hb1 : o2 + m.val < N1) (hb : o1 + (o2 + m.val) < 7920) :
    matmul D0 none (extractStridedSlice S3840x3 ![o2, 0] (extractStridedSlice ⟨2, ![N1, 3]⟩ ![o1, 0] SL h1) h2) R
        (constant S3840x64 .f32 0x00000000#32) (ix2 m co)
      = ∑ ci : Fin 3, SL (ix2 ⟨o1 + (o2 + m.val), hb⟩ ci) * R (ix2 ci co) := by
  rw [mm_apply]
  exact Finset.sum_congr rfl fun ci _ => by
    rw [rslice_apply o2 _ h2 m ci hb1, rslice_apply o1 SL h1 ⟨o2 + m.val, hb1⟩ ci hb]

section AccRead
variable (x0 x1 : Vec Ideal S1x16x240x3 .bf16) (x2 : Vec Ideal S3x3x3x64 .bf16) (x3 : Vec Ideal S1x64 .f32)

/-- One tap's contribution at flat row `m` and output channel `co`: the stacked rows `a` rows and `b` columns on, times tap (a, b). -/
def T (m : Fin 3840) (co : Fin 64) (a b : ℕ) (ha : a < 3) (hb : b < 3) : EReal :=
  ∑ ci : Fin 3, k0_pay2 (View.ld x0 rx) (View.ld x1 rx) (ix2 ⟨a * 240 + (b + m.val), by omega⟩ ci) * x2 (ix4 ⟨a, ha⟩ ⟨b, hb⟩ ci co)

/-- A tap in the first column (no column shift): one band of the stacked rows. -/
theorem tapA (a : ℕ) (ha : a < 3) (o : ℕ) (ho : o = a * 240) (h : S7920x3.Slices ![o, 0] S3840x3)
    (inb : ∀ d, (![a, 0, 0, 0] : Fin 4 → ℕ) d + S1x1x3x64.size d ≤ S3x3x3x64.size d) (m : Fin 3840) (co : Fin 64) :
    matmul (φ₁ := .bf16) (φ₂ := .bf16) D0 none (extractStridedSlice S3840x3 ![o, 0] (k0_pay2 (View.ld x0 rx) (View.ld x1 rx)) h)
        (shapeCast (α := Ideal .bf16) S3x64 (View.ld x2 (Rect.unit (s := S3x3x3x64) ![a, 0, 0, 0] S1x1x3x64.size inb)) shapeCasts_S1x1x3x64_S3x64)
        (constant S3840x64 .f32 0x00000000#32) (ix2 m co)
      = T x0 x1 x2 m co a 0 ha (by omega) := by
  subst ho
  rw [tap1_apply _ _ h _ m co (by omega)]
  unfold T
  refine Finset.sum_congr rfl fun ci _ => ?_
  rw [wtap_apply x2 a 0 ha (by omega) inb ci co]
  have e : (⟨a * 240 + m.val, by omega⟩ : Fin 7920) = ⟨a * 240 + (0 + m.val), by omega⟩ := Fin.ext (by show a * 240 + m.val = a * 240 + (0 + m.val); omega)
  rw [e]

/-- A tap in a shifted column: a band of the stacked rows with their first `b` rows dropped. -/
theorem tapB (a b : ℕ) (ha : a < 3) (hb : b < 3) (o : ℕ) (ho : o = a * 240) (N1 : ℕ) (hN : 4320 ≤ N1)
    (h1 : S7920x3.Slices ![b, 0] ⟨2, ![N1, 3]⟩) (h2 : (⟨2, ![N1, 3]⟩ : Shape).Slices ![o, 0] S3840x3)
    (inb : ∀ d, (![a, b, 0, 0] : Fin 4 → ℕ) d + S1x1x3x64.size d ≤ S3x3x3x64.size d) (m : Fin 3840) (co : Fin 64) :
    matmul (φ₁ := .bf16) (φ₂ := .bf16) D0 none (extractStridedSlice S3840x3 ![o, 0]
          (extractStridedSlice ⟨2, ![N1, 3]⟩ ![b, 0] (k0_pay2 (View.ld x0 rx) (View.ld x1 rx)) h1) h2)
        (shapeCast (α := Ideal .bf16) S3x64 (View.ld x2 (Rect.unit (s := S3x3x3x64) ![a, b, 0, 0] S1x1x3x64.size inb)) shapeCasts_S1x1x3x64_S3x64)
        (constant S3840x64 .f32 0x00000000#32) (ix2 m co)
      = T x0 x1 x2 m co a b ha hb := by
  subst ho
  rw [tap2_apply _ N1 b _ h1 h2 _ m co (by omega) (by omega)]
  unfold T
  refine Finset.sum_congr rfl fun ci _ => ?_
  rw [wtap_apply x2 a b ha hb inb ci co]
  have e : (⟨b + (a * 240 + m.val), by omega⟩ : Fin 7920) = ⟨a * 240 + (b + m.val), by omega⟩ :=
    Fin.ext (by show b + (a * 240 + m.val) = a * 240 + (b + m.val); omega)
  rw [e]

theorem acc_apply9 (m : Fin 3840) (co : Fin 64) :
    acc x0 x1 x2 x3 (ix2 m co)
      = T x0 x1 x2 m co 0 0 (by omega) (by omega) + T x0 x1 x2 m co 0 1 (by omega) (by omega) + T x0 x1 x2 m co 0 2 (by omega) (by omega)
        + T x0 x1 x2 m co 1 0 (by omega) (by omega) + T x0 x1 x2 m co 1 1 (by omega) (by omega) + T x0 x1 x2 m co 1 2 (by omega) (by omega)
        + T x0 x1 x2 m co 2 0 (by omega) (by omega) + T x0 x1 x2 m co 2 1 (by omega) (by omega) + T x0 x1 x2 m co 2 2 (by omega) (by omega)
        + x3 (ix2 0 co) := by
  unfold acc k0_pay8 k0_pay5 k0_pay6 k0_pay7 k0_pay3 k0_pay4
  simp only [addf_apply, bias_apply]
  rw [
    tapA x0 x1 x2 0 (by omega) 0 rfl slices_S7920x3_o0_0_S3840x3 inb_S3x3x3x64_S1x1x3x64_0_0_0_0 m co,
    tapB x0 x1 x2 0 1 (by omega) (by omega) 0 rfl 7919 (by omega) slices_S7920x3_o1_0_S7919x3 slices_S7919x3_o0_0_S3840x3 inb_S3x3x3x64_S1x1x3x64_0_1_0_0 m co,
    tapB x0 x1 x2 0 2 (by omega) (by omega) 0 rfl 7918 (by omega) slices_S7920x3_o2_0_S7918x3 slices_S7918x3_o0_0_S3840x3 inb_S3x3x3x64_S1x1x3x64_0_2_0_0 m co,
    tapA x0 x1 x2 1 (by omega) 240 rfl slices_S7920x3_o240_0_S3840x3 inb_S3x3x3x64_S1x1x3x64_1_0_0_0 m co,
    tapB x0 x1 x2 1 1 (by omega) (by omega) 240 rfl 7919 (by omega) slices_S7920x3_o1_0_S7919x3 slices_S7919x3_o240_0_S3840x3 inb_S3x3x3x64_S1x1x3x64_1_1_0_0 m co,
    tapB x0 x1 x2 1 2 (by omega) (by omega) 240 rfl 7918 (by omega) slices_S7920x3_o2_0_S7918x3 slices_S7918x3_o240_0_S3840x3 inb_S3x3x3x64_S1x1x3x64_1_2_0_0 m co,
    tapA x0 x1 x2 2 (by omega) 480 rfl slices_S7920x3_o480_0_S3840x3 inb_S3x3x3x64_S1x1x3x64_2_0_0_0 m co,
    tapB x0 x1 x2 2 1 (by omega) (by omega) 480 rfl 7919 (by omega) slices_S7920x3_o1_0_S7919x3 slices_S7919x3_o480_0_S3840x3 inb_S3x3x3x64_S1x1x3x64_2_1_0_0 m co,
    tapB x0 x1 x2 2 2 (by omega) (by omega) 480 rfl 7918 (by omega) slices_S7920x3_o2_0_S7918x3 slices_S7918x3_o480_0_S3840x3 inb_S3x3x3x64_S1x1x3x64_2_2_0_0 m co]
  have z : broadcast S3840x64 (FloatOps.ofBits (F := Ideal) FTy.f32 0#32) (ix2 m co) = (0 : EReal) := Ideal.ofBits_zero_f32
  rw [z, zero_add, bias_apply]

/-- The accumulator at a flat row and output channel, as the nested sum over the taps and the input channels. -/
theorem acc_apply (m : Fin 3840) (co : Fin 64) :
    acc x0 x1 x2 x3 (ix2 m co)
      = (∑ dy : Fin 3, ∑ dx : Fin 3, ∑ ci : Fin 3,
            k0_pay2 (View.ld x0 rx) (View.ld x1 rx) (ix2 ⟨dy.val * 240 + (dx.val + m.val), by omega⟩ ci) * x2 (ix4 dy dx ci co))
          + x3 (ix2 0 co) := by
  rw [acc_apply9]
  have hU : ∀ dy dx : Fin 3,
      (∑ ci : Fin 3, k0_pay2 (View.ld x0 rx) (View.ld x1 rx) (ix2 ⟨dy.val * 240 + (dx.val + m.val), by omega⟩ ci) * x2 (ix4 dy dx ci co))
        = T x0 x1 x2 m co dy.val dx.val dy.isLt dx.isLt := fun _ _ => rfl
  simp only [hU]
  simp only [Fin.sum_univ_three, add_assoc]
  rfl

end AccRead

section OutRead
variable (x0 x1 : Vec Ideal S1x16x240x3 .bf16) (x2 : Vec Ideal S3x3x3x64 .bf16) (x3 : Vec Ideal S1x64 .f32)

/-- What the body leaves in the output tile, element by element: the accumulator at flat row `i·240 + j`, rectified
    (the columns past 224 are cropped away; at the ideal values the narrowing to bf16 is the identity). -/
theorem out_block_apply (i : Fin 16) (j : Fin 224) (co : Fin 64) :
    out x0 x1 x2 x3 (ix4 0 i j co)
      = max ((∑ dy : Fin 3, ∑ dx : Fin 3, ∑ ci : Fin 3,
                k0_pay2 (View.ld x0 rx) (View.ld x1 rx)
                    (ix2 ⟨dy.val * 240 + (dx.val + (i.val * 240 + j.val)), by omega⟩ ci) * x2 (ix4 dy dx ci co))
              + x3 (ix2 0 co)) 0 := by
  unfold out
  rw [View.canon_unit_zero off4_zero]
  unfold k0_pay1 k0_pay9
  refine (shapeCast_apply _ _ _ (ix3 i j co) (by
    rw [Shape.rowMajor_val_three, Shape.rowMajor_val_four]
    show (i.val * 224 + j.val) * 64 + co.val = (((0 : ℕ) * 16 + i.val) * 224 + j.val) * 64 + co.val
    omega)).trans ?_
  rw [truncf_apply]
  refine (extractStridedSlice_apply (s := S16x240x64) (t := S16x224x64) ![0, 0, 0] _ _ (ix3 i j co) (ix3 i (⟨j.val, by omega⟩ : Fin 240) co) (fun a => match a with
    | ⟨0, _⟩ => by show i.val = 0 + i.val; omega
    | ⟨1, _⟩ => by show j.val = 0 + j.val; omega
    | ⟨2, _⟩ => by show co.val = 0 + co.val; omega)).trans ?_
  refine (shapeCast_apply _ _ _ (ix2 ⟨i.val * 240 + j.val, by omega⟩ co) (by
    rw [Shape.rowMajor_val_two, Shape.rowMajor_val_three]
    show (i.val * 240 + j.val) * 64 + co.val = (i.val * 240 + j.val) * 64 + co.val
    rfl)).trans ?_
  rw [maximumf_apply, acc_apply]
  exact congrArg (max _) Ideal.ofBits_zero_f32

end OutRead

section Blocks
variable (V : (c : Dev nD) → (b : Ref sig .tc) → Buf (Elt Ideal) ((c : Thread nD τ).loc b))

/-- The region's own arrays as it finds them: the padded image batch (both row-tile windows read this one array),
    the 3×3 filter and the bias row. -/
abbrev xp (c : Dev nD) : FVec Ideal S32x240x240x3 .bf16 := V c (Pipeline.arrRef spec0 0)
abbrev wk (c : Dev nD) : FVec Ideal S3x3x3x64 .bf16 := V c (Pipeline.arrRef spec0 2)
abbrev bias (c : Dev nD) : FVec Ideal S1x64 .f32 := V c (Pipeline.arrRef spec0 3)

/-- The two row-tile windows read one array. -/
theorem arr_1_eq_0 : Pipeline.arrRef spec0 1 = Pipeline.arrRef spec0 0 := rfl

theorem t_lt (t : Fin cfg0.N) : t.val < 448 := t.isLt

/-- The windows' block indices at a point, in closed form: point `t` is image `t / 14`, row tile `t % 14`; the second
    row-tile window is one tile further down; filter and bias are whole. -/
theorem idx_facts : ∀ t : Fin cfg0.N,
    win0_0.index t = ![t.val / 14, t.val % 14, 0, 0] ∧ win0_1.index t = ![t.val / 14, t.val % 14 + 1, 0, 0]
      ∧ win0_2.index t = ![0, 0, 0, 0] ∧ win0_3.index t = ![0, 0] ∧ win0_4.index t = ![t.val / 14, t.val % 14, 0, 0] :=
  (by decide +kernel : ∀ t : Fin grid0.N, _)

/-- A window's block at a point reads its array at the block's offset. -/
theorem iblk0_apply (c : Dev nD) (t : Fin cfg0.N) (y : S1x16x240x3.Idx) (j : S32x240x240x3.Idx)
    (hj : ∀ a, (j a).val = win0_0.index t a * S1x16x240x3.size a + (y a).val) :
    iblk V c 0 t y = xp V c j := by
  unfold iblk
  rw [View.read_apply]
  show V c (Pipeline.arrRef spec0 0) (((cfg0.win 0).blk t).view.emb y) = V c (Pipeline.arrRef spec0 0) j
  refine congrArg (V c (Pipeline.arrRef spec0 0)) (funext fun a => Fin.ext ?_)
  rw [hj a]
  exact Pipeline.Window.rect_emb_val win0_0 t y a

theorem iblk1_apply (c : Dev nD) (t : Fin cfg0.N) (y : S1x16x240x3.Idx) (j : S32x240x240x3.Idx)
    (hj : ∀ a, (j a).val = win0_1.index t a * S1x16x240x3.size a + (y a).val) :
    iblk V c 1 t y = xp V c j := by
  unfold iblk
  rw [View.read_apply]
  show V c (Pipeline.arrRef spec0 1) (((cfg0.win 1).blk t).view.emb y) = V c (Pipeline.arrRef spec0 0) j
  refine congrArg (V c (Pipeline.arrRef spec0 0)) (funext fun a => Fin.ext ?_)
  rw [hj a]
  exact Pipeline.Window.rect_emb_val win0_1 t y a

theorem iblk2_apply (c : Dev nD) (t : Fin cfg0.N) (y : S3x3x3x64.Idx) : iblk V c 2 t y = wk V c y := by
  unfold iblk
  rw [View.read_apply]
  show V c (Pipeline.arrRef spec0 2) (((cfg0.win 2).blk t).view.emb y) = V c (Pipeline.arrRef spec0 2) y
  refine congrArg (V c (Pipeline.arrRef spec0 2)) (funext fun a => Fin.ext ?_)
  have e := Pipeline.Window.rect_emb_val win0_2 t y a
  rw [(idx_facts t).2.2.1] at e
  refine e.trans ?_
  match a with
  | ⟨0, _⟩ => show 0 * 3 + (y 0).val = (y 0).val; omega
  | ⟨1, _⟩ => show 0 * 3 + (y 1).val = (y 1).val; omega
  | ⟨2, _⟩ => show 0 * 3 + (y 2).val = (y 2).val; omega
  | ⟨3, _⟩ => show 0 * 64 + (y 3).val = (y 3).val; omega

theorem iblk3_apply (c : Dev nD) (t : Fin cfg0.N) (y : S1x64.Idx) : iblk V c 3 t y = bias V c y := by
  unfold iblk
  rw [View.read_apply]
  show V c (Pipeline.arrRef spec0 3) (((cfg0.win 3).blk t).view.emb y) = V c (Pipeline.arrRef spec0 3) y
  refine congrArg (V c (Pipeline.arrRef spec0 3)) (funext fun a => Fin.ext ?_)
  have e := Pipeline.Window.rect_emb_val win0_3 t y a
  rw [(idx_facts t).2.2.2.1] at e
  refine e.trans ?_
  match a with
  | ⟨0, _⟩ => show 0 * 1 + (y 0).val = (y 0).val; omega
  | ⟨1, _⟩ => show 0 * 64 + (y 1).val = (y 1).val; omega
end Blocks

section Final
variable (V : (c : Dev nD) → (b : Ref sig .tc) → Buf (Elt Ideal) ((c : Thread nD τ).loc b))

/-- What point `t` leaves in the output tile, element by element, over the region's own arrays: both row tiles read the one
    padded image, the second sixteen rows further down, so the stacked rows are the image's rows `16·(t % 14) + …`. -/
theorem tile_apply (c : Dev nD) (t : Fin cfg0.N) (i : Fin 16) (j : Fin 224) (co : Fin 64) :
    out (iblk V c 0 t) (iblk V c 1 t) (iblk V c 2 t) (iblk V c 3 t) (ix4 0 i j co)
      = max ((∑ dy : Fin 3, ∑ dx : Fin 3, ∑ ci : Fin 3,
                xp V c (ix4 ⟨t.val / 14, by have := t_lt t; omega⟩ ⟨t.val % 14 * 16 + i.val + dy.val, by omega⟩
                    ⟨j.val + dx.val, by omega⟩ ci) * wk V c (ix4 dy dx ci co))
              + bias V c (ix2 0 co)) 0 := by
  obtain ⟨h0, h1, -, -, -⟩ := idx_facts t
  rw [out_block_apply, iblk3_apply]
  refine congrArg (fun s => max (s + bias V c (ix2 0 co)) 0) ?_
  refine Finset.sum_congr rfl fun dy _ => Finset.sum_congr rfl fun dx _ => Finset.sum_congr rfl fun ci _ => ?_
  rw [iblk2_apply]
  refine congrArg (· * wk V c (ix4 dy dx ci co)) ?_
  have e : (⟨dy.val * 240 + (dx.val + (i.val * 240 + j.val)), by omega⟩ : Fin 7920)
      = ⟨(i.val + dy.val) * 240 + (j.val + dx.val), by omega⟩ :=
    Fin.ext (by show dy.val * 240 + (dx.val + (i.val * 240 + j.val)) = (i.val + dy.val) * 240 + (j.val + dx.val); omega)
  rw [e, slab_apply _ _ (i.val + dy.val) (j.val + dx.val) (by omega) (by omega) ci]
  by_cases h : i.val + dy.val < 16
  · rw [dif_pos h]
    refine iblk0_apply V c t _ _ fun a => ?_
    rw [h0]
    match a with
    | ⟨0, _⟩ => show t.val / 14 = t.val / 14 * 1 + 0; omega
    | ⟨1, _⟩ => show t.val % 14 * 16 + i.val + dy.val = t.val % 14 * 16 + (i.val + dy.val); omega
    | ⟨2, _⟩ => show j.val + dx.val = 0 * 240 + (j.val + dx.val); omega
    | ⟨3, _⟩ => show ci.val = 0 * 3 + ci.val; omega
  · rw [dif_neg h]
    refine iblk1_apply V c t _ _ fun a => ?_
    rw [h1]
    match a with
    | ⟨0, _⟩ => show t.val / 14 = t.val / 14 * 1 + 0; omega
    | ⟨1, _⟩ => show t.val % 14 * 16 + i.val + dy.val = (t.val % 14 + 1) * 16 + (i.val + dy.val - 16); omega
    | ⟨2, _⟩ => show j.val + dx.val = 0 * 240 + (j.val + dx.val); omega
    | ⟨3, _⟩ => show ci.val = 0 * 3 + ci.val; omega

/-- The whole output array as one function of the region's arrays: the 3×3 correlation of the padded image with the
    filter over the input channels, plus the bias, rectified. -/
def G (c : Dev nD) : S32x224x224x64.Idx → EReal := fun i =>
  max ((∑ dy : Fin 3, ∑ dx : Fin 3, ∑ ci : Fin 3,
          xp V c (ix4 (i 0) ⟨(i 1).val + dy.val, by have h1 : (i 1).val < 224 := (i 1).isLt; omega⟩
              ⟨(i 2).val + dx.val, by have h2 : (i 2).val < 224 := (i 2).isLt; omega⟩ ci)
            * wk V c (ix4 dy dx ci (i 3)))
        + bias V c (ix2 0 (i 3))) 0

theorem out_apply (c : Dev nD) (n : Fin 32) (h : Fin 224) (w : Fin 224) (co : Fin 64) :
    (dat (F := Ideal) V c).arrAt 4 cfg0.N (ix4 n h w co)
      = max ((∑ dy : Fin 3, ∑ dx : Fin 3, ∑ ci : Fin 3,
                xp V c (ix4 n ⟨h.val + dy.val, by omega⟩ ⟨w.val + dx.val, by omega⟩ ci) * wk V c (ix4 dy dx ci co))
              + bias V c (ix2 0 co)) 0 := by
  have key := (dat (F := Ideal) V c).arrAt_forall_of_cover 4 (fun i v => v = G V c i) ?hP ?hcover (ix4 n h w co)
  · exact key
  case hP =>
    intro t hf y
    have h0 : (y 0).val < 1 := (y 0).isLt
    have h1 : (y 1).val < 16 := (y 1).isLt
    have h2 : (y 2).val < 224 := (y 2).isLt
    have h3 : (y 3).val < 64 := (y 3).isLt
    have ht := t_lt t
    have ey : (dat (F := Ideal) V c).flushed 4 t y
        = out (iblk V c 0 t) (iblk V c 1 t) (iblk V c 2 t) (iblk V c 3 t)
            (ix4 0 ⟨(y 1).val, h1⟩ ⟨(y 2).val, h2⟩ ⟨(y 3).val, h3⟩) := by
      show (dat (F := Ideal) V c).after 4 t _ = _
      rw [after_4]
      refine congrArg _ (funext fun a => Fin.ext ?_)
      match a with
      | ⟨0, _⟩ => show (y 0).val = 0; omega
      | ⟨1, _⟩ => rfl
      | ⟨2, _⟩ => rfl
      | ⟨3, _⟩ => rfl
    have hemb : ∀ a, ((((cfg0.win 4).blk t).view.emb y) a).val = win0_4.index t a * S1x16x224x64.size a + (y a).val :=
      fun a => Pipeline.Window.rect_emb_val win0_4 t y a
    rw [(idx_facts t).2.2.2.2] at hemb
    have hE : ((cfg0.win 4).blk t).view.emb y
        = ix4 (⟨t.val / 14, by omega⟩ : Fin 32) (⟨t.val % 14 * 16 + (y 1).val, by omega⟩ : Fin 224)
            (⟨(y 2).val, h2⟩ : Fin 224) (⟨(y 3).val, h3⟩ : Fin 64) := by
      refine funext fun a => Fin.ext ?_
      rw [hemb a]
      match a with
      | ⟨0, _⟩ => show t.val / 14 * 1 + (y 0).val = t.val / 14; omega
      | ⟨1, _⟩ => show t.val % 14 * 16 + (y 1).val = t.val % 14 * 16 + (y 1).val; rfl
      | ⟨2, _⟩ => show 0 * 224 + (y 2).val = (y 2).val; omega
      | ⟨3, _⟩ => show 0 * 64 + (y 3).val = (y 3).val; omega
    show (dat (F := Ideal) V c).flushed 4 t y = G V c _
    rw [ey, tile_apply, hE]
    rfl
  case hcover =>
    intro i
    have i0 : (i 0).val < 32 := (i 0).isLt
    have i1 : (i 1).val < 224 := (i 1).isLt
    have i2 : (i 2).val < 224 := (i 2).isLt
    have i3 : (i 3).val < 64 := (i 3).isLt
    have hm : ∀ t : Fin cfg0.N, ((cfg0.win 4).blk t).view.set = (win0_4.rect t).set := fun t => View.set_slice_whole _ _
    refine ⟨⟨(i 0).val * 14 + (i 1).val / 16, by show _ < 448; omega⟩, flush0_4 _, ?_⟩
    rw [hm, Rect.mem_set_unit]
    intro a
    rw [(idx_facts _).2.2.2.2]
    match a with
    | ⟨0, _⟩ =>
      show ((i 0).val * 14 + (i 1).val / 16) / 14 * 1 ≤ (i 0).val ∧ (i 0).val < ((i 0).val * 14 + (i 1).val / 16) / 14 * 1 + 1
      omega
    | ⟨1, _⟩ =>
      show ((i 0).val * 14 + (i 1).val / 16) % 14 * 16 ≤ (i 1).val ∧ (i 1).val < ((i 0).val * 14 + (i 1).val / 16) % 14 * 16 + 16
      omega
    | ⟨2, _⟩ => show 0 * 224 ≤ (i 2).val ∧ (i 2).val < 0 * 224 + 224; omega
    | ⟨3, _⟩ => show 0 * 64 ≤ (i 3).val ∧ (i 3).val < 0 * 64 + 64; omega
end Final

end Cert.KernelIdeal.Reg0
-- ==== Proof.Spec.PadIdx.lean ====
/-
  The zero border as an array operation: a rank-4 array padded by one position before and any number after on its row and
  column axes, with padding value 0, reads at (n, i, j, c) as the bordered image of the network at position (i, j).
-/
import proofs.«143011_g2000502688546152_pallasbulk_1201_3_alg».proof.Proof.Spec.FlatIdx

noncomputable section

open scoped BigOperators

namespace Cert.Spec

open Idealize.ShloMosaic Idealize.ShloMosaic.ValueIdx

/-- Padding by (1, hiH) on rows and (1, hiW) on columns with value 0 is the zero-bordered image. -/
theorem pad_border {N H W C Hp Wp hiH hiW : ℕ} (x : (⟨4, ![N, H, W, C]⟩ : Shape).Idx → EReal) {u : Shape}
    (v : u.Idx → EReal)
    (hp : (⟨4, ![N, H, W, C]⟩ : Shape).Pads ![0, 1, 1, 0] ![0, hiH, hiW, 0] ![0, 0, 0, 0] ⟨4, ![N, Hp, Wp, C]⟩)
    (hu : 0 < u.numel) (hv : v (Shape.Idx.first hu) = 0)
    (n : Fin N) (i : Fin Hp) (j : Fin Wp) (c : Fin C) :
    pad ⟨4, ![N, Hp, Wp, C]⟩ ![0, 1, 1, 0] ![0, hiH, hiW, 0] ![0, 0, 0, 0] x v hp hu (ix4 n i j c)
      = padAt (curry4 x) n i.val j.val c := by
  unfold pad padAt
  by_cases hin : (1 ≤ i.val ∧ i.val ≤ H) ∧ (1 ≤ j.val ∧ j.val ≤ W)
  · rw [dif_pos hin, dif_pos (by
      intro a
      fin_cases a
      · exact ⟨Nat.zero_le _, Nat.mod_one _, by simpa using n.isLt⟩
      · refine ⟨hin.1.1, Nat.mod_one _, ?_⟩
        show (i.val - 1) / 1 < H
        rw [Nat.div_one]; omega
      · refine ⟨hin.2.1, Nat.mod_one _, ?_⟩
        show (j.val - 1) / 1 < W
        rw [Nat.div_one]; omega
      · exact ⟨Nat.zero_le _, Nat.mod_one _, by simpa using c.isLt⟩)]
    rw [curry4_apply]
    congr 1
    funext a
    fin_cases a <;> apply Fin.ext <;> simp
  · rw [dif_neg hin, dif_neg (by
      intro hall
      apply hin
      have h1 := hall 1
      have h2 := hall 2
      refine ⟨⟨h1.1, ?_⟩, ⟨h2.1, ?_⟩⟩
      · have : (i.val - 1) / 1 < H := h1.2.2
        rw [Nat.div_one] at this; omega
      · have : (j.val - 1) / 1 < W := h2.2.2
        rw [Nat.div_one] at this; omega)]
    exact hv

end Cert.Spec

end
-- ==== Proof.KI.GluePad0.lean ====
/-
  The border of zeros put around the stack of 3 channels at 224 × 224 before region 0: the stretch converts
  the integer 0 to a float and pads the stack, one position in front of rows and columns and the rest behind, to
  240 rows and 240 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_0 (V : Valuation τ sig (Elt Ideal)) (hc : V main_c = constantI S_ 32 0#32)
    (n : Fin 32) (i : Fin 240) (j : Fin 240) (ci : Fin 3) :
    (StableHlo.after hostOps0_1 V main_v9 : FVec Ideal S32x240x240x3 .bf16) (ix4 n i j ci)
      = Cert.Spec.padAt (Cert.Spec.curry4 (V main_v8 : FVec Ideal S32x224x224x3 .bf16)) n i.val j.val ci := by
  have h : StableHlo.after hostOps0_1 V main_v9
      = pad S32x240x240x3 ![0, 1, 1, 0] ![0, 15, 15, 0] ![0, 0, 0, 0] (V main_v8) (sitofp (F := Ideal) .bf16 (V main_c))
          pads_S32x224x224x3_S32x240x240x3_000_1150_1150_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW0.lean ====
/-
  The weights of region 0 as the region finds them: the [3, 3, 3, 64] parameter array narrowed to the shorter
  float format, which at the extended reals changes nothing.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_0 (V : Valuation τ sig (Elt Ideal)) (dy dx : Fin 3) (ci : Fin 3) (co : Fin 64) :
    (StableHlo.after hostOps0_2 V main_v10 : FVec Ideal S3x3x3x64 .bf16) (ix4 dy dx ci co)
      = (V main_arg2 : FVec Ideal S3x3x3x64 .f32) (ix4 dy dx ci co) := by
  have h : StableHlo.after hostOps0_2 V main_v10 = truncf (F := Ideal) .bf16 (V main_arg2) bitsLt_bf16_f32 := by
    after_results <;> rfl
  rw [h]; rfl

end Cert.KernelIdeal.Glue

end
-- ==== Proof.KI.RunValCore0.lean ====
import proofs.«143011_g2000502688546152_pallasbulk_1201_3_alg».proof.Proof.KI.Reg0Value
import proofs.«143011_g2000502688546152_pallasbulk_1201_3_alg».proof.Proof.KI.GluePad0
import proofs.«143011_g2000502688546152_pallasbulk_1201_3_alg».proof.Proof.KI.GlueW0
import proofs.«143011_g2000502688546152_pallasbulk_1201_3_alg».proof.Proof.Spec.ArgsOf
import proofs.«143011_g2000502688546152_pallasbulk_1201_3_alg».proof.Proof.Spec.FlatIdx

/-! # Region 0 between its neighbours: a convolution layer of the network

If the stack of images the zero border is put around is `aPrev`, the region leaves the 3×3 convolution of `aPrev` with
the [3, 3, 3, 64] parameter array, plus the bias row, clamped below at zero. The two stretches of host operations in
front of the region put the zero border around the stack and narrow the parameter array's float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_0 (V : Valuation τ sig (Elt Ideal)) : StableHlo.after hostOps0 V main_c = constantI S_ 32 0#32 := by
  after_results <;> rfl

/-- From ANY contents `Wp` in front of the border stretch that hold the integer 0 in the stretch's constant and the
    stack `aPrev` in the array the border is put around: the region's output array, entry by entry. -/
theorem core_0 (Wp : Dev nD → Valuation τ sig (Elt Ideal)) (c : Dev nD)
    (hc : Wp c main_c = constantI S_ 32 0#32)
    (aPrev : Cert.Spec.Act 32 224 224 3)
    (hprev : ∀ (n : Fin 32) (h : Fin 224) (w : Fin 224) (ci : Fin 3),
      (Wp c main_v8 : FVec Ideal S32x224x224x3 .bf16) (ix4 n h w ci) = aPrev n h w ci)
    (n : Fin 32) (h : Fin 224) (w : Fin 224) (co : Fin 64) :
    (Reg0.dat (F := Ideal) (fun c b => StableHlo.after hostOps0_2 (StableHlo.after hostOps0_1 (Wp c)) b) c).arrAt 4 cfg0.N
        (ix4 n h w co)
      = Cert.Spec.convRelu aPrev (Cert.Spec.curryW (Wp c main_arg2 : FVec Ideal S3x3x3x64 .f32))
          (Cert.Spec.curryB (Wp c main_arg3 : FVec Ideal S1x64 .f32)) n h w co := by
  refine (Reg0.out_apply _ c n h w co).trans ?_
  have e9 : StableHlo.after hostOps0_2 (StableHlo.after hostOps0_1 (Wp c)) main_v9
      = StableHlo.after hostOps0_1 (Wp c) main_v9 :=
    StableHlo.after_of_writes_sub hostOps0_2 _ hostOps0_2_writes (by decide)
  have eW : StableHlo.after hostOps0_1 (Wp c) main_arg2 = Wp c main_arg2 :=
    StableHlo.after_of_writes_sub hostOps0_1 _ hostOps0_1_writes (by decide)
  have eB : StableHlo.after hostOps0_2 (StableHlo.after hostOps0_1 (Wp c)) main_arg3 = Wp c main_arg3 :=
    (StableHlo.after_of_writes_sub hostOps0_2 _ hostOps0_2_writes (by decide)).trans
      (StableHlo.after_of_writes_sub hostOps0_1 _ hostOps0_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps0_2 (StableHlo.after hostOps0_1 (Wp c)) main_v9 : FVec Ideal S32x240x240x3 .bf16) _ = _
      rw [e9, Glue.pad_0 (Wp c) hc]
      refine congrArg (fun z : Cert.Spec.Act 32 224 224 3 => Cert.Spec.padAt z n _ _ ci) ?_
      funext n' h' w' ci'
      exact hprev n' h' w' ci'
    · show (StableHlo.after hostOps0_2 (StableHlo.after hostOps0_1 (Wp c)) main_v10 : FVec Ideal S3x3x3x64 .bf16) _ = _
      rw [Glue.wk_0, eW]
  · show (StableHlo.after hostOps0_2 (StableHlo.after hostOps0_1 (Wp c)) main_arg3 : FVec Ideal S1x64 .f32) _ = _
    rw [eB]

end Cert.KernelIdeal.RunVal
-- ==== Proof.KI.RunVal0.lean ====
import proofs.«143011_g2000502688546152_pallasbulk_1201_3_alg».proof.Proof.KI.RunChainAt
import proofs.«143011_g2000502688546152_pallasbulk_1201_3_alg».proof.Proof.KI.RunValCore0

/-! # Region 0 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_0 (c : Dev nD) (aPrev : Cert.Spec.Act 32 224 224 3)
    (hprev : ∀ (n : Fin 32) (h : Fin 224) (w : Fin 224) (ci : Fin 3),
      (W1 m c main_v8 : FVec Ideal S32x224x224x3 .bf16) (ix4 n h w ci) = aPrev n h w ci) :
    ∀ (n : Fin 32) (h : Fin 224) (w : Fin 224) (co : Fin 64),
      (W4 m c main_v11 : FVec Ideal S32x224x224x64 .bf16) (ix4 n h w co)
        = Cert.Spec.convRelu aPrev
            (Cert.Spec.curryW (m ((c : Thread nD τ).loc main_arg2) : FVec Ideal S3x3x3x64 .f32))
            (Cert.Spec.curryB (m ((c : Thread nD τ).loc main_arg3) : FVec Ideal S1x64 .f32)) n h w co := by
  intro n h w co
  have hW : W1 m c main_arg2 = m ((c : Thread nD τ).loc main_arg2) := W1_arg m c _ (by decide)
  have hB : W1 m c main_arg3 = m ((c : Thread nD τ).loc main_arg3) := W1_arg m c _ (by decide)
  rw [W4_self, ← hW, ← hB]
  have hc : W1 m c main_c = constantI S_ 32 0#32 := RunVal.cst_0 (W0 m c)
  exact RunVal.core_0 (W1 m) c hc aPrev hprev n h w co

end Cert.KernelIdeal.Run
-- ==== Proof.KI.Reg1Value.lean ====
import proofs.«143011_g2000502688546152_pallasbulk_1201_3_alg».proof.Proof.KI.Reg1
import Idealize.ShloMosaic.Lib.Pipeline.Value
import Idealize.ShloMosaic.Lib.ValueIdx
import Idealize.ShloMosaic.PureOps.Ideal.Laws

set_option maxRecDepth 16384

noncomputable section

namespace Cert.KernelIdeal.Reg1

open Idealize.ShloMosaic Idealize.ShloMosaic.TcCoe
open Idealize.SL Idealize.SL.Sem
open Idealize.ShloMosaic.Pipeline (Dat Cfg Window)
open Idealize.ShloMosaic.ValueIdx
open Cert.KernelIdeal.Gen
open scoped BigOperators

theorem off4_zero : (![0, 0, 0, 0] : Fin 4 → ℕ) = fun _ => 0 := by funext a; fin_cases a <;> rfl
theorem off2_zero : (![0, 0] : Fin 2 → ℕ) = fun _ => 0 := by funext a; fin_cases a <;> rfl

/-- A row tile flattened to rows: flat row `r·240 + col` is the tile's (r, col). -/
theorem rows_apply (x : Vec Ideal S1x16x240x64 .bf16) (r : Fin 16) (col : Fin 240) (ci : Fin 64) :
    shapeCast S3840x64 (shapeCast S16x240x64 x shapeCasts_S1x16x240x64_S16x240x64) shapeCasts_S16x240x64_S3840x64
        (ix2 ⟨r.val * 240 + col.val, by omega⟩ ci)
      = x (ix4 0 r col ci) := by
  refine (shapeCast_apply _ _ _ (ix3 r col ci) (by
    rw [Shape.rowMajor_val_three, Shape.rowMajor_val_two]
    show (r.val * 240 + col.val) * 64 + ci.val = (r.val * 240 + col.val) * 64 + ci.val
    rfl)).trans ?_
  exact shapeCast_apply _ _ _ (ix4 0 r col ci) (by
    rw [Shape.rowMajor_val_four, Shape.rowMajor_val_three]
    show ((0 * 16 + r.val) * 240 + col.val) * 64 + ci.val = (r.val * 240 + col.val) * 64 + ci.val
    omega)

theorem slab_apply (x0 x1 : Vec Ideal S1x16x240x64 .bf16) (r col : ℕ) (hr : r < 32) (hc : col < 240) (ci : Fin 64) :
    k1_pay2 (View.ld x0 rx) (View.ld x1 rx) (ix2 ⟨r * 240 + col, by omega⟩ ci)
      = if h : r < 16 then x0 (ix4 0 ⟨r, h⟩ ⟨col, hc⟩ ci) else x1 (ix4 0 ⟨r - 16, by omega⟩ ⟨col, hc⟩ ci) := by
  unfold k1_pay2
  rw [View.ld_unit_zero off4_zero, View.ld_unit_zero off4_zero]
  by_cases h : r < 16
  · rw [dif_pos h]
    refine (concatenate_apply_piece (t := S7920x64) 0 _ _ _ 0 ?_ S3840x64 _ ?_ ?_ 0 ?_
      (ix2 ⟨r * 240 + col, by omega⟩ ci) (fun b hb => ?_) ?_).trans (rows_apply x0 ⟨r, h⟩ ⟨col, hc⟩ ci)
    · exact Nat.zero_lt_succ _
    · rfl
    · rfl
    · rfl
    · match b with
      | ⟨0, _⟩ => exact absurd rfl hb
      | ⟨1, _⟩ => rfl
    · show 0 + (r * 240 + col) = r * 240 + col
      omega
  · rw [dif_neg h]
    refine (concatenate_apply_piece (t := S7920x64) 0 _ _ _ 1 ?_ S3840x64 _ ?_ ?_ 3840 ?_
      (ix2 ⟨(r - 16) * 240 + col, by omega⟩ ci) (fun b hb => ?_) ?_).trans (rows_apply x1 ⟨r - 16, by omega⟩ ⟨col, hc⟩ ci)
    · exact Nat.succ_lt_succ (Nat.zero_lt_succ _)
    · rfl
    · rfl
    · rfl
    · match b with
      | ⟨0, _⟩ => exact absurd rfl hb
      | ⟨1, _⟩ => rfl
    · show 3840 + ((r - 16) * 240 + col) = r * 240 + col
      omega

/-- A band of rows cut out of a matrix of rows. -/
theorem rslice_apply {N M C : ℕ} (o : ℕ) (x : (⟨2, ![N, C]⟩ : Shape).Idx → EReal)
    (h : (⟨2, ![N, C]⟩ : Shape).Slices ![o, 0] ⟨2, ![M, C]⟩) (m : Fin M) (ci : Fin C) (hb : o + m.val < N) :
    extractStridedSlice ⟨2, ![M, C]⟩ ![o, 0] x h (ix2 m ci) = x (ix2 ⟨o + m.val, hb⟩ ci) :=
  extractStridedSlice_apply _ _ _ _ _ fun a => match a with
    | ⟨0, _⟩ => rfl
    | ⟨1, _⟩ => by show ci.val = 0 + ci.val; omega

abbrev D0 : DotDims S3840x64 S64x64 S3840x64 := dot_S3840x64_S64x64_S3840x64_1_0_0_1_n_n

theorem mm_apply (L : FVec Ideal S3840x64 .bf16) (R : FVec Ideal S64x64 .bf16) (m : Fin 3840) (co : Fin 64) :
    matmul D0 none L R (constant S3840x64 .f32 0x00000000#32) (ix2 m co)
      = ∑ ci : Fin 64, L (ix2 m ci) * R (ix2 ci co) := by
  simp only [matmul]
  rw [Ideal.matmul_constant_zero_apply]
  rw [← Equiv.sum_comp (contrEquiv1 D0 64 rfl rfl).symm]
  refine Finset.sum_congr rfl fun ci _ => ?_
  have hl : D0.lhsIdx (ix2 m co) ((contrEquiv1 D0 64 rfl rfl).symm ci) = ix2 m ci := by
    funext a
    match a with
    | ⟨0, _⟩ =>
      apply Fin.ext
      simp [DotDims.lhsIdx, D0, dot_S3840x64_S64x64_S3840x64_1_0_0_1_n_n]
      rfl
    | ⟨1, _⟩ =>
      apply Fin.ext
      simp [DotDims.lhsIdx, D0, dot_S3840x64_S64x64_S3840x64_1_0_0_1_n_n]
      rfl
  have hr : D0.rhsIdx (ix2 m co) ((contrEquiv1 D0 64 rfl rfl).symm ci) = ix2 ci co := by
    funext a
    match a with
    | ⟨0, _⟩ =>
      apply Fin.ext
      simp [DotDims.rhsIdx, D0, dot_S3840x64_S64x64_S3840x64_1_0_0_1_n_n]
      rfl
    | ⟨1, _⟩ =>
      apply Fin.ext
      simp [DotDims.rhsIdx, D0, dot_S3840x64_S64x64_S3840x64_1_0_0_1_n_n]
      rfl
  rw [hl, hr]

/-- One tap of the filter as a matrix: the 64×64 block at (a, b). -/
theorem wtap_apply (x2 : Vec Ideal S3x3x64x64 .bf16) (a b : ℕ) (ha : a < 3) (hb : b < 3)
    (inb : ∀ d, (![a, b, 0, 0] : Fin 4 → ℕ) d + S1x1x64x64.size d ≤ S3x3x64x64.size d) (ci : Fin 64) (co : Fin 64) :
    shapeCast S64x64 (View.ld x2 (Rect.unit (s := S3x3x64x64) ![a, b, 0, 0] S1x1x64x64.size inb)) shapeCasts_S1x1x64x64_S64x64 (ix2 ci co)
      = x2 (ix4 ⟨a, ha⟩ ⟨b, hb⟩ ci co) := by
  refine (shapeCast_apply _ _ _ (ix4 0 0 ci co) (by
    rw [Shape.rowMajor_val_four, Shape.rowMajor_val_two]
    show ((0 * 1 + 0) * 64 + ci.val) * 64 + co.val = ci.val * 64 + co.val
    omega)).trans ?_
  refine congrArg x2 (funext fun d => Fin.ext ?_)
  match d with
  | ⟨0, _⟩ => show a + 1 * 0 = a; omega
  | ⟨1, _⟩ => show b + 1 * 0 = b; omega
  | ⟨2, _⟩ => show 0 + 1 * ci.val = ci.val; omega
  | ⟨3, _⟩ => show 0 + 1 * co.val = co.val; omega

/-- The bias row spread over the rows. -/
theorem bias_apply (x3 : Vec Ideal S1x64 .f32) (m : Fin 3840) (co : Fin 64) :
    broadcastTo S3840x64 (View.ld x3 rb) broadcasts_S1x64_S3840x64 (ix2 m co) = x3 (ix2 0 co) := by
  rw [View.ld_unit_zero off2_zero]
  exact broadcastTo_apply _ _ _ (ix2 0 co) fun a => match a with
    | ⟨0, _⟩ => rfl
    | ⟨1, _⟩ => rfl

/-- A tap's product read at a row: the band of the stacked rows starting `o` rows down, times the tap. -/
theorem tap1_apply (SL : FVec Ideal S7920x64 .bf16) (o : ℕ) (h : S7920x64.Slices ![o, 0] S3840x64) (R : FVec Ideal S64x64 .bf16)
    (m : Fin 3840) (co : Fin 64) (hb : o + m.val < 7920) :
    matmul D0 none (extractStridedSlice S3840x64 ![o, 0] SL h) R (constant S3840x64 .f32 0x00000000#32) (ix2 m co)
      = ∑ ci : Fin 64, SL (ix2 ⟨o + m.val, hb⟩ ci) * R (ix2 ci co) := by
  rw [mm_apply]
  exact Finset.sum_congr rfl fun ci _ => by rw [rslice_apply o SL h m ci hb]

theorem tap2_apply (SL : FVec Ideal S7920x64 .bf16) (N1 o1 o2 : ℕ) (h1 : S7920x64.Slices ![o1, 0] ⟨2, ![N1, 64]⟩)
    (h2 : (⟨2, ![N1, 64]⟩ : Shape).Slices ![o2, 0] S3840x64) (R : FVec Ideal S64x64 .bf16)
    (m : Fin 3840) (co : Fin 64) (hb1 : o2 + m.val < N1) (hb : o1 + (o2 + m.val) < 7920) :
    matmul D0 none (extractStridedSlice S3840x64 ![o2, 0] (extractStridedSlice ⟨2, ![N1, 64]⟩ ![o1, 0] SL h1) h2) R
        (constant S3840x64 .f32 0x00000000#32) (ix2 m co)
      = ∑ ci : Fin 64, SL (ix2 ⟨o1 + (o2 + m.val), hb⟩ ci) * R (ix2 ci co) := by
  rw [mm_apply]
  exact Finset.sum_congr rfl fun ci _ => by
    rw [rslice_apply o2 _ h2 m ci hb1, rslice_apply o1 SL h1 ⟨o2 + m.val, hb1⟩ ci hb]

section AccRead
variable (x0 x1 : Vec Ideal S1x16x240x64 .bf16) (x2 : Vec Ideal S3x3x64x64 .bf16) (x3 : Vec Ideal S1x64 .f32)

/-- One tap's contribution at flat row `m` and output channel `co`: the stacked rows `a` rows and `b` columns on, times tap (a, b). -/
def T (m : Fin 3840) (co : Fin 64) (a b : ℕ) (ha : a < 3) (hb : b < 3) : EReal :=
  ∑ ci : Fin 64, k1_pay2 (View.ld x0 rx) (View.ld x1 rx) (ix2 ⟨a * 240 + (b + m.val), by omega⟩ ci) * x2 (ix4 ⟨a, ha⟩ ⟨b, hb⟩ ci co)

/-- A tap in the first column (no column shift): one band of the stacked rows. -/
theorem tapA (a : ℕ) (ha : a < 3) (o : ℕ) (ho : o = a * 240) (h : S7920x64.Slices ![o, 0] S3840x64)
    (inb : ∀ d, (![a, 0, 0, 0] : Fin 4 → ℕ) d + S1x1x64x64.size d ≤ S3x3x64x64.size d) (m : Fin 3840) (co : Fin 64) :
    matmul (φ₁ := .bf16) (φ₂ := .bf16) D0 none (extractStridedSlice S3840x64 ![o, 0] (k1_pay2 (View.ld x0 rx) (View.ld x1 rx)) h)
        (shapeCast (α := Ideal .bf16) S64x64 (View.ld x2 (Rect.unit (s := S3x3x64x64) ![a, 0, 0, 0] S1x1x64x64.size inb)) shapeCasts_S1x1x64x64_S64x64)
        (constant S3840x64 .f32 0x00000000#32) (ix2 m co)
      = T x0 x1 x2 m co a 0 ha (by omega) := by
  subst ho
  rw [tap1_apply _ _ h _ m co (by omega)]
  unfold T
  refine Finset.sum_congr rfl fun ci _ => ?_
  rw [wtap_apply x2 a 0 ha (by omega) inb ci co]
  have e : (⟨a * 240 + m.val, by omega⟩ : Fin 7920) = ⟨a * 240 + (0 + m.val), by omega⟩ := Fin.ext (by show a * 240 + m.val = a * 240 + (0 + m.val); omega)
  rw [e]

/-- A tap in a shifted column: a band of the stacked rows with their first `b` rows dropped. -/
theorem tapB (a b : ℕ) (ha : a < 3) (hb : b < 3) (o : ℕ) (ho : o = a * 240) (N1 : ℕ) (hN : 4320 ≤ N1)
    (h1 : S7920x64.Slices ![b, 0] ⟨2, ![N1, 64]⟩) (h2 : (⟨2, ![N1, 64]⟩ : Shape).Slices ![o, 0] S3840x64)
    (inb : ∀ d, (![a, b, 0, 0] : Fin 4 → ℕ) d + S1x1x64x64.size d ≤ S3x3x64x64.size d) (m : Fin 3840) (co : Fin 64) :
    matmul (φ₁ := .bf16) (φ₂ := .bf16) D0 none (extractStridedSlice S3840x64 ![o, 0]
          (extractStridedSlice ⟨2, ![N1, 64]⟩ ![b, 0] (k1_pay2 (View.ld x0 rx) (View.ld x1 rx)) h1) h2)
        (shapeCast (α := Ideal .bf16) S64x64 (View.ld x2 (Rect.unit (s := S3x3x64x64) ![a, b, 0, 0] S1x1x64x64.size inb)) shapeCasts_S1x1x64x64_S64x64)
        (constant S3840x64 .f32 0x00000000#32) (ix2 m co)
      = T x0 x1 x2 m co a b ha hb := by
  subst ho
  rw [tap2_apply _ N1 b _ h1 h2 _ m co (by omega) (by omega)]
  unfold T
  refine Finset.sum_congr rfl fun ci _ => ?_
  rw [wtap_apply x2 a b ha hb inb ci co]
  have e : (⟨b + (a * 240 + m.val), by omega⟩ : Fin 7920) = ⟨a * 240 + (b + m.val), by omega⟩ :=
    Fin.ext (by show b + (a * 240 + m.val) = a * 240 + (b + m.val); omega)
  rw [e]

theorem acc_apply9 (m : Fin 3840) (co : Fin 64) :
    acc x0 x1 x2 x3 (ix2 m co)
      = T x0 x1 x2 m co 0 0 (by omega) (by omega) + T x0 x1 x2 m co 0 1 (by omega) (by omega) + T x0 x1 x2 m co 0 2 (by omega) (by omega)
        + T x0 x1 x2 m co 1 0 (by omega) (by omega) + T x0 x1 x2 m co 1 1 (by omega) (by omega) + T x0 x1 x2 m co 1 2 (by omega) (by omega)
        + T x0 x1 x2 m co 2 0 (by omega) (by omega) + T x0 x1 x2 m co 2 1 (by omega) (by omega) + T x0 x1 x2 m co 2 2 (by omega) (by omega)
        + x3 (ix2 0 co) := by
  unfold acc k1_pay8 k1_pay5 k1_pay6 k1_pay7 k1_pay3 k1_pay4
  simp only [addf_apply, bias_apply]
  rw [
    tapA x0 x1 x2 0 (by omega) 0 rfl slices_S7920x64_o0_0_S3840x64 inb_S3x3x64x64_S1x1x64x64_0_0_0_0 m co,
    tapB x0 x1 x2 0 1 (by omega) (by omega) 0 rfl 7919 (by omega) slices_S7920x64_o1_0_S7919x64 slices_S7919x64_o0_0_S3840x64 inb_S3x3x64x64_S1x1x64x64_0_1_0_0 m co,
    tapB x0 x1 x2 0 2 (by omega) (by omega) 0 rfl 7918 (by omega) slices_S7920x64_o2_0_S7918x64 slices_S7918x64_o0_0_S3840x64 inb_S3x3x64x64_S1x1x64x64_0_2_0_0 m co,
    tapA x0 x1 x2 1 (by omega) 240 rfl slices_S7920x64_o240_0_S3840x64 inb_S3x3x64x64_S1x1x64x64_1_0_0_0 m co,
    tapB x0 x1 x2 1 1 (by omega) (by omega) 240 rfl 7919 (by omega) slices_S7920x64_o1_0_S7919x64 slices_S7919x64_o240_0_S3840x64 inb_S3x3x64x64_S1x1x64x64_1_1_0_0 m co,
    tapB x0 x1 x2 1 2 (by omega) (by omega) 240 rfl 7918 (by omega) slices_S7920x64_o2_0_S7918x64 slices_S7918x64_o240_0_S3840x64 inb_S3x3x64x64_S1x1x64x64_1_2_0_0 m co,
    tapA x0 x1 x2 2 (by omega) 480 rfl slices_S7920x64_o480_0_S3840x64 inb_S3x3x64x64_S1x1x64x64_2_0_0_0 m co,
    tapB x0 x1 x2 2 1 (by omega) (by omega) 480 rfl 7919 (by omega) slices_S7920x64_o1_0_S7919x64 slices_S7919x64_o480_0_S3840x64 inb_S3x3x64x64_S1x1x64x64_2_1_0_0 m co,
    tapB x0 x1 x2 2 2 (by omega) (by omega) 480 rfl 7918 (by omega) slices_S7920x64_o2_0_S7918x64 slices_S7918x64_o480_0_S3840x64 inb_S3x3x64x64_S1x1x64x64_2_2_0_0 m co]
  have z : broadcast S3840x64 (FloatOps.ofBits (F := Ideal) FTy.f32 0#32) (ix2 m co) = (0 : EReal) := Ideal.ofBits_zero_f32
  rw [z, zero_add, bias_apply]

/-- The accumulator at a flat row and output channel, as the nested sum over the taps and the input channels. -/
theorem acc_apply (m : Fin 3840) (co : Fin 64) :
    acc x0 x1 x2 x3 (ix2 m co)
      = (∑ dy : Fin 3, ∑ dx : Fin 3, ∑ ci : Fin 64,
            k1_pay2 (View.ld x0 rx) (View.ld x1 rx) (ix2 ⟨dy.val * 240 + (dx.val + m.val), by omega⟩ ci) * x2 (ix4 dy dx ci co))
          + x3 (ix2 0 co) := by
  rw [acc_apply9]
  have hU : ∀ dy dx : Fin 3,
      (∑ ci : Fin 64, k1_pay2 (View.ld x0 rx) (View.ld x1 rx) (ix2 ⟨dy.val * 240 + (dx.val + m.val), by omega⟩ ci) * x2 (ix4 dy dx ci co))
        = T x0 x1 x2 m co dy.val dx.val dy.isLt dx.isLt := fun _ _ => rfl
  simp only [hU]
  simp only [Fin.sum_univ_three, add_assoc]
  rfl

end AccRead

section OutRead
variable (x0 x1 : Vec Ideal S1x16x240x64 .bf16) (x2 : Vec Ideal S3x3x64x64 .bf16) (x3 : Vec Ideal S1x64 .f32)

/-- What the body leaves in the output tile, element by element: the accumulator at flat row `i·240 + j`, rectified
    (the columns past 224 are cropped away; at the ideal values the narrowing to bf16 is the identity). -/
theorem out_block_apply (i : Fin 16) (j : Fin 224) (co : Fin 64) :
    out x0 x1 x2 x3 (ix4 0 i j co)
      = max ((∑ dy : Fin 3, ∑ dx : Fin 3, ∑ ci : Fin 64,
                k1_pay2 (View.ld x0 rx) (View.ld x1 rx)
                    (ix2 ⟨dy.val * 240 + (dx.val + (i.val * 240 + j.val)), by omega⟩ ci) * x2 (ix4 dy dx ci co))
              + x3 (ix2 0 co)) 0 := by
  unfold out
  rw [View.canon_unit_zero off4_zero]
  unfold k1_pay1 k1_pay9
  refine (shapeCast_apply _ _ _ (ix3 i j co) (by
    rw [Shape.rowMajor_val_three, Shape.rowMajor_val_four]
    show (i.val * 224 + j.val) * 64 + co.val = (((0 : ℕ) * 16 + i.val) * 224 + j.val) * 64 + co.val
    omega)).trans ?_
  rw [truncf_apply]
  refine (extractStridedSlice_apply (s := S16x240x64) (t := S16x224x64) ![0, 0, 0] _ _ (ix3 i j co) (ix3 i (⟨j.val, by omega⟩ : Fin 240) co) (fun a => match a with
    | ⟨0, _⟩ => by show i.val = 0 + i.val; omega
    | ⟨1, _⟩ => by show j.val = 0 + j.val; omega
    | ⟨2, _⟩ => by show co.val = 0 + co.val; omega)).trans ?_
  refine (shapeCast_apply _ _ _ (ix2 ⟨i.val * 240 + j.val, by omega⟩ co) (by
    rw [Shape.rowMajor_val_two, Shape.rowMajor_val_three]
    show (i.val * 240 + j.val) * 64 + co.val = (i.val * 240 + j.val) * 64 + co.val
    rfl)).trans ?_
  rw [maximumf_apply, acc_apply]
  exact congrArg (max _) Ideal.ofBits_zero_f32

end OutRead

section Blocks
variable (V : (c : Dev nD) → (b : Ref sig .tc) → Buf (Elt Ideal) ((c : Thread nD τ).loc b))

/-- The region's own arrays as it finds them: the padded image batch (both row-tile windows read this one array),
    the 3×3 filter and the bias row. -/
abbrev xp (c : Dev nD) : FVec Ideal S32x240x240x64 .bf16 := V c (Pipeline.arrRef spec1 0)
abbrev wk (c : Dev nD) : FVec Ideal S3x3x64x64 .bf16 := V c (Pipeline.arrRef spec1 2)
abbrev bias (c : Dev nD) : FVec Ideal S1x64 .f32 := V c (Pipeline.arrRef spec1 3)

/-- The two row-tile windows read one array. -/
theorem arr_1_eq_0 : Pipeline.arrRef spec1 1 = Pipeline.arrRef spec1 0 := rfl

theorem t_lt (t : Fin cfg1.N) : t.val < 448 := t.isLt

/-- The windows' block indices at a point, in closed form: point `t` is image `t / 14`, row tile `t % 14`; the second
    row-tile window is one tile further down; filter and bias are whole. -/
theorem idx_facts : ∀ t : Fin cfg1.N,
    win1_0.index t = ![t.val / 14, t.val % 14, 0, 0] ∧ win1_1.index t = ![t.val / 14, t.val % 14 + 1, 0, 0]
      ∧ win1_2.index t = ![0, 0, 0, 0] ∧ win1_3.index t = ![0, 0] ∧ win1_4.index t = ![t.val / 14, t.val % 14, 0, 0] :=
  (by decide +kernel : ∀ t : Fin grid1.N, _)

/-- A window's block at a point reads its array at the block's offset. -/
theorem iblk0_apply (c : Dev nD) (t : Fin cfg1.N) (y : S1x16x240x64.Idx) (j : S32x240x240x64.Idx)
    (hj : ∀ a, (j a).val = win1_0.index t a * S1x16x240x64.size a + (y a).val) :
    iblk V c 0 t y = xp V c j := by
  unfold iblk
  rw [View.read_apply]
  show V c (Pipeline.arrRef spec1 0) (((cfg1.win 0).blk t).view.emb y) = V c (Pipeline.arrRef spec1 0) j
  refine congrArg (V c (Pipeline.arrRef spec1 0)) (funext fun a => Fin.ext ?_)
  rw [hj a]
  exact Pipeline.Window.rect_emb_val win1_0 t y a

theorem iblk1_apply (c : Dev nD) (t : Fin cfg1.N) (y : S1x16x240x64.Idx) (j : S32x240x240x64.Idx)
    (hj : ∀ a, (j a).val = win1_1.index t a * S1x16x240x64.size a + (y a).val) :
    iblk V c 1 t y = xp V c j := by
  unfold iblk
  rw [View.read_apply]
  show V c (Pipeline.arrRef spec1 1) (((cfg1.win 1).blk t).view.emb y) = V c (Pipeline.arrRef spec1 0) j
  refine congrArg (V c (Pipeline.arrRef spec1 0)) (funext fun a => Fin.ext ?_)
  rw [hj a]
  exact Pipeline.Window.rect_emb_val win1_1 t y a

theorem iblk2_apply (c : Dev nD) (t : Fin cfg1.N) (y : S3x3x64x64.Idx) : iblk V c 2 t y = wk V c y := by
  unfold iblk
  rw [View.read_apply]
  show V c (Pipeline.arrRef spec1 2) (((cfg1.win 2).blk t).view.emb y) = V c (Pipeline.arrRef spec1 2) y
  refine congrArg (V c (Pipeline.arrRef spec1 2)) (funext fun a => Fin.ext ?_)
  have e := Pipeline.Window.rect_emb_val win1_2 t y a
  rw [(idx_facts t).2.2.1] at e
  refine e.trans ?_
  match a with
  | ⟨0, _⟩ => show 0 * 3 + (y 0).val = (y 0).val; omega
  | ⟨1, _⟩ => show 0 * 3 + (y 1).val = (y 1).val; omega
  | ⟨2, _⟩ => show 0 * 64 + (y 2).val = (y 2).val; omega
  | ⟨3, _⟩ => show 0 * 64 + (y 3).val = (y 3).val; omega

theorem iblk3_apply (c : Dev nD) (t : Fin cfg1.N) (y : S1x64.Idx) : iblk V c 3 t y = bias V c y := by
  unfold iblk
  rw [View.read_apply]
  show V c (Pipeline.arrRef spec1 3) (((cfg1.win 3).blk t).view.emb y) = V c (Pipeline.arrRef spec1 3) y
  refine congrArg (V c (Pipeline.arrRef spec1 3)) (funext fun a => Fin.ext ?_)
  have e := Pipeline.Window.rect_emb_val win1_3 t y a
  rw [(idx_facts t).2.2.2.1] at e
  refine e.trans ?_
  match a with
  | ⟨0, _⟩ => show 0 * 1 + (y 0).val = (y 0).val; omega
  | ⟨1, _⟩ => show 0 * 64 + (y 1).val = (y 1).val; omega
end Blocks

section Final
variable (V : (c : Dev nD) → (b : Ref sig .tc) → Buf (Elt Ideal) ((c : Thread nD τ).loc b))

/-- What point `t` leaves in the output tile, element by element, over the region's own arrays: both row tiles read the one
    padded image, the second sixteen rows further down, so the stacked rows are the image's rows `16·(t % 14) + …`. -/
theorem tile_apply (c : Dev nD) (t : Fin cfg1.N) (i : Fin 16) (j : Fin 224) (co : Fin 64) :
    out (iblk V c 0 t) (iblk V c 1 t) (iblk V c 2 t) (iblk V c 3 t) (ix4 0 i j co)
      = max ((∑ dy : Fin 3, ∑ dx : Fin 3, ∑ ci : Fin 64,
                xp V c (ix4 ⟨t.val / 14, by have := t_lt t; omega⟩ ⟨t.val % 14 * 16 + i.val + dy.val, by omega⟩
                    ⟨j.val + dx.val, by omega⟩ ci) * wk V c (ix4 dy dx ci co))
              + bias V c (ix2 0 co)) 0 := by
  obtain ⟨h0, h1, -, -, -⟩ := idx_facts t
  rw [out_block_apply, iblk3_apply]
  refine congrArg (fun s => max (s + bias V c (ix2 0 co)) 0) ?_
  refine Finset.sum_congr rfl fun dy _ => Finset.sum_congr rfl fun dx _ => Finset.sum_congr rfl fun ci _ => ?_
  rw [iblk2_apply]
  refine congrArg (· * wk V c (ix4 dy dx ci co)) ?_
  have e : (⟨dy.val * 240 + (dx.val + (i.val * 240 + j.val)), by omega⟩ : Fin 7920)
      = ⟨(i.val + dy.val) * 240 + (j.val + dx.val), by omega⟩ :=
    Fin.ext (by show dy.val * 240 + (dx.val + (i.val * 240 + j.val)) = (i.val + dy.val) * 240 + (j.val + dx.val); omega)
  rw [e, slab_apply _ _ (i.val + dy.val) (j.val + dx.val) (by omega) (by omega) ci]
  by_cases h : i.val + dy.val < 16
  · rw [dif_pos h]
    refine iblk0_apply V c t _ _ fun a => ?_
    rw [h0]
    match a with
    | ⟨0, _⟩ => show t.val / 14 = t.val / 14 * 1 + 0; omega
    | ⟨1, _⟩ => show t.val % 14 * 16 + i.val + dy.val = t.val % 14 * 16 + (i.val + dy.val); omega
    | ⟨2, _⟩ => show j.val + dx.val = 0 * 240 + (j.val + dx.val); omega
    | ⟨3, _⟩ => show ci.val = 0 * 64 + ci.val; omega
  · rw [dif_neg h]
    refine iblk1_apply V c t _ _ fun a => ?_
    rw [h1]
    match a with
    | ⟨0, _⟩ => show t.val / 14 = t.val / 14 * 1 + 0; omega
    | ⟨1, _⟩ => show t.val % 14 * 16 + i.val + dy.val = (t.val % 14 + 1) * 16 + (i.val + dy.val - 16); omega
    | ⟨2, _⟩ => show j.val + dx.val = 0 * 240 + (j.val + dx.val); omega
    | ⟨3, _⟩ => show ci.val = 0 * 64 + ci.val; omega

/-- The whole output array as one function of the region's arrays: the 3×3 correlation of the padded image with the
    filter over the input channels, plus the bias, rectified. -/
def G (c : Dev nD) : S32x224x224x64.Idx → EReal := fun i =>
  max ((∑ dy : Fin 3, ∑ dx : Fin 3, ∑ ci : Fin 64,
          xp V c (ix4 (i 0) ⟨(i 1).val + dy.val, by have h1 : (i 1).val < 224 := (i 1).isLt; omega⟩
              ⟨(i 2).val + dx.val, by have h2 : (i 2).val < 224 := (i 2).isLt; omega⟩ ci)
            * wk V c (ix4 dy dx ci (i 3)))
        + bias V c (ix2 0 (i 3))) 0

theorem out_apply (c : Dev nD) (n : Fin 32) (h : Fin 224) (w : Fin 224) (co : Fin 64) :
    (dat (F := Ideal) V c).arrAt 4 cfg1.N (ix4 n h w co)
      = max ((∑ dy : Fin 3, ∑ dx : Fin 3, ∑ ci : Fin 64,
                xp V c (ix4 n ⟨h.val + dy.val, by omega⟩ ⟨w.val + dx.val, by omega⟩ ci) * wk V c (ix4 dy dx ci co))
              + bias V c (ix2 0 co)) 0 := by
  have key := (dat (F := Ideal) V c).arrAt_forall_of_cover 4 (fun i v => v = G V c i) ?hP ?hcover (ix4 n h w co)
  · exact key
  case hP =>
    intro t hf y
    have h0 : (y 0).val < 1 := (y 0).isLt
    have h1 : (y 1).val < 16 := (y 1).isLt
    have h2 : (y 2).val < 224 := (y 2).isLt
    have h3 : (y 3).val < 64 := (y 3).isLt
    have ht := t_lt t
    have ey : (dat (F := Ideal) V c).flushed 4 t y
        = out (iblk V c 0 t) (iblk V c 1 t) (iblk V c 2 t) (iblk V c 3 t)
            (ix4 0 ⟨(y 1).val, h1⟩ ⟨(y 2).val, h2⟩ ⟨(y 3).val, h3⟩) := by
      show (dat (F := Ideal) V c).after 4 t _ = _
      rw [after_4]
      refine congrArg _ (funext fun a => Fin.ext ?_)
      match a with
      | ⟨0, _⟩ => show (y 0).val = 0; omega
      | ⟨1, _⟩ => rfl
      | ⟨2, _⟩ => rfl
      | ⟨3, _⟩ => rfl
    have hemb : ∀ a, ((((cfg1.win 4).blk t).view.emb y) a).val = win1_4.index t a * S1x16x224x64.size a + (y a).val :=
      fun a => Pipeline.Window.rect_emb_val win1_4 t y a
    rw [(idx_facts t).2.2.2.2] at hemb
    have hE : ((cfg1.win 4).blk t).view.emb y
        = ix4 (⟨t.val / 14, by omega⟩ : Fin 32) (⟨t.val % 14 * 16 + (y 1).val, by omega⟩ : Fin 224)
            (⟨(y 2).val, h2⟩ : Fin 224) (⟨(y 3).val, h3⟩ : Fin 64) := by
      refine funext fun a => Fin.ext ?_
      rw [hemb a]
      match a with
      | ⟨0, _⟩ => show t.val / 14 * 1 + (y 0).val = t.val / 14; omega
      | ⟨1, _⟩ => show t.val % 14 * 16 + (y 1).val = t.val % 14 * 16 + (y 1).val; rfl
      | ⟨2, _⟩ => show 0 * 224 + (y 2).val = (y 2).val; omega
      | ⟨3, _⟩ => show 0 * 64 + (y 3).val = (y 3).val; omega
    show (dat (F := Ideal) V c).flushed 4 t y = G V c _
    rw [ey, tile_apply, hE]
    rfl
  case hcover =>
    intro i
    have i0 : (i 0).val < 32 := (i 0).isLt
    have i1 : (i 1).val < 224 := (i 1).isLt
    have i2 : (i 2).val < 224 := (i 2).isLt
    have i3 : (i 3).val < 64 := (i 3).isLt
    have hm : ∀ t : Fin cfg1.N, ((cfg1.win 4).blk t).view.set = (win1_4.rect t).set := fun t => View.set_slice_whole _ _
    refine ⟨⟨(i 0).val * 14 + (i 1).val / 16, by show _ < 448; omega⟩, flush1_4 _, ?_⟩
    rw [hm, Rect.mem_set_unit]
    intro a
    rw [(idx_facts _).2.2.2.2]
    match a with
    | ⟨0, _⟩ =>
      show ((i 0).val * 14 + (i 1).val / 16) / 14 * 1 ≤ (i 0).val ∧ (i 0).val < ((i 0).val * 14 + (i 1).val / 16) / 14 * 1 + 1
      omega
    | ⟨1, _⟩ =>
      show ((i 0).val * 14 + (i 1).val / 16) % 14 * 16 ≤ (i 1).val ∧ (i 1).val < ((i 0).val * 14 + (i 1).val / 16) % 14 * 16 + 16
      omega
    | ⟨2, _⟩ => show 0 * 224 ≤ (i 2).val ∧ (i 2).val < 0 * 224 + 224; omega
    | ⟨3, _⟩ => show 0 * 64 ≤ (i 3).val ∧ (i 3).val < 0 * 64 + 64; omega
end Final

end Cert.KernelIdeal.Reg1
-- ==== Proof.KI.GluePad1.lean ====
/-
  The border of zeros put around the stack of 64 channels at 224 × 224 before region 1: the stretch converts
  the integer 0 to a float and pads the stack, one position in front of rows and columns and the rest behind, to
  240 rows and 240 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_1 (V : Valuation τ sig (Elt Ideal)) (hc : V main_c_1 = constantI S_ 32 0#32)
    (n : Fin 32) (i : Fin 240) (j : Fin 240) (ci : Fin 64) :
    (StableHlo.after hostOps1_1 V main_v12 : FVec Ideal S32x240x240x64 .bf16) (ix4 n i j ci)
      = Cert.Spec.padAt (Cert.Spec.curry4 (V main_v11 : FVec Ideal S32x224x224x64 .bf16)) n i.val j.val ci := by
  have h : StableHlo.after hostOps1_1 V main_v12
      = pad S32x240x240x64 ![0, 1, 1, 0] ![0, 15, 15, 0] ![0, 0, 0, 0] (V main_v11) (sitofp (F := Ideal) .bf16 (V main_c_1))
          pads_S32x224x224x64_S32x240x240x64_000_1150_1150_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW1.lean ====
/-
  The weights of region 1 as the region finds them: the [3, 3, 64, 64] parameter array narrowed to the shorter
  float format, which at the extended reals changes nothing.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_1 (V : Valuation τ sig (Elt Ideal)) (dy dx : Fin 3) (ci : Fin 64) (co : Fin 64) :
    (StableHlo.after hostOps1_2 V main_v13 : FVec Ideal S3x3x64x64 .bf16) (ix4 dy dx ci co)
      = (V main_arg4 : FVec Ideal S3x3x64x64 .f32) (ix4 dy dx ci co) := by
  have h : StableHlo.after hostOps1_2 V main_v13 = truncf (F := Ideal) .bf16 (V main_arg4) bitsLt_bf16_f32 := by
    after_results <;> rfl
  rw [h]; rfl

end Cert.KernelIdeal.Glue

end
-- ==== Proof.KI.RunValCore1.lean ====
import proofs.«143011_g2000502688546152_pallasbulk_1201_3_alg».proof.Proof.KI.Reg1Value
import proofs.«143011_g2000502688546152_pallasbulk_1201_3_alg».proof.Proof.KI.GluePad1
import proofs.«143011_g2000502688546152_pallasbulk_1201_3_alg».proof.Proof.KI.GlueW1
import proofs.«143011_g2000502688546152_pallasbulk_1201_3_alg».proof.Proof.Spec.ArgsOf
import proofs.«143011_g2000502688546152_pallasbulk_1201_3_alg».proof.Proof.Spec.FlatIdx

/-! # Region 1 between its neighbours: a convolution layer of the network

If the stack of images the zero border is put around is `aPrev`, the region leaves the 3×3 convolution of `aPrev` with
the [3, 3, 64, 64] parameter array, plus the bias row, clamped below at zero. The two stretches of host operations in
front of the region put the zero border around the stack and narrow the parameter array's float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_1 (V : Valuation τ sig (Elt Ideal)) : StableHlo.after hostOps1 V main_c_1 = constantI S_ 32 0#32 := by
  after_results <;> rfl

/-- From ANY contents `Wp` in front of the border stretch that hold the integer 0 in the stretch's constant and the
    stack `aPrev` in the array the border is put around: the region's output array, entry by entry. -/
theorem core_1 (Wp : Dev nD → Valuation τ sig (Elt Ideal)) (c : Dev nD)
    (hc : Wp c main_c_1 = constantI S_ 32 0#32)
    (aPrev : Cert.Spec.Act 32 224 224 64)
    (hprev : ∀ (n : Fin 32) (h : Fin 224) (w : Fin 224) (ci : Fin 64),
      (Wp c main_v11 : FVec Ideal S32x224x224x64 .bf16) (ix4 n h w ci) = aPrev n h w ci)
    (n : Fin 32) (h : Fin 224) (w : Fin 224) (co : Fin 64) :
    (Reg1.dat (F := Ideal) (fun c b => StableHlo.after hostOps1_2 (StableHlo.after hostOps1_1 (Wp c)) b) c).arrAt 4 cfg1.N
        (ix4 n h w co)
      = Cert.Spec.convRelu aPrev (Cert.Spec.curryW (Wp c main_arg4 : FVec Ideal S3x3x64x64 .f32))
          (Cert.Spec.curryB (Wp c main_arg5 : FVec Ideal S1x64 .f32)) n h w co := by
  refine (Reg1.out_apply _ c n h w co).trans ?_
  have e9 : StableHlo.after hostOps1_2 (StableHlo.after hostOps1_1 (Wp c)) main_v12
      = StableHlo.after hostOps1_1 (Wp c) main_v12 :=
    StableHlo.after_of_writes_sub hostOps1_2 _ hostOps1_2_writes (by decide)
  have eW : StableHlo.after hostOps1_1 (Wp c) main_arg4 = Wp c main_arg4 :=
    StableHlo.after_of_writes_sub hostOps1_1 _ hostOps1_1_writes (by decide)
  have eB : StableHlo.after hostOps1_2 (StableHlo.after hostOps1_1 (Wp c)) main_arg5 = Wp c main_arg5 :=
    (StableHlo.after_of_writes_sub hostOps1_2 _ hostOps1_2_writes (by decide)).trans
      (StableHlo.after_of_writes_sub hostOps1_1 _ hostOps1_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps1_2 (StableHlo.after hostOps1_1 (Wp c)) main_v12 : FVec Ideal S32x240x240x64 .bf16) _ = _
      rw [e9, Glue.pad_1 (Wp c) hc]
      refine congrArg (fun z : Cert.Spec.Act 32 224 224 64 => Cert.Spec.padAt z n _ _ ci) ?_
      funext n' h' w' ci'
      exact hprev n' h' w' ci'
    · show (StableHlo.after hostOps1_2 (StableHlo.after hostOps1_1 (Wp c)) main_v13 : FVec Ideal S3x3x64x64 .bf16) _ = _
      rw [Glue.wk_1, eW]
  · show (StableHlo.after hostOps1_2 (StableHlo.after hostOps1_1 (Wp c)) main_arg5 : FVec Ideal S1x64 .f32) _ = _
    rw [eB]

end Cert.KernelIdeal.RunVal
-- ==== Proof.KI.RunVal1.lean ====
import proofs.«143011_g2000502688546152_pallasbulk_1201_3_alg».proof.Proof.KI.RunChainAt
import proofs.«143011_g2000502688546152_pallasbulk_1201_3_alg».proof.Proof.KI.RunValCore1

/-! # Region 1 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_1 (c : Dev nD) (aPrev : Cert.Spec.Act 32 224 224 64)
    (hprev : ∀ (n : Fin 32) (h : Fin 224) (w : Fin 224) (ci : Fin 64),
      (W5 m c main_v11 : FVec Ideal S32x224x224x64 .bf16) (ix4 n h w ci) = aPrev n h w ci) :
    ∀ (n : Fin 32) (h : Fin 224) (w : Fin 224) (co : Fin 64),
      (W8 m c main_v14 : FVec Ideal S32x224x224x64 .bf16) (ix4 n h w co)
        = Cert.Spec.convRelu aPrev
            (Cert.Spec.curryW (m ((c : Thread nD τ).loc main_arg4) : FVec Ideal S3x3x64x64 .f32))
            (Cert.Spec.curryB (m ((c : Thread nD τ).loc main_arg5) : FVec Ideal S1x64 .f32)) n h w co := by
  intro n h w co
  have hW : W5 m c main_arg4 = m ((c : Thread nD τ).loc main_arg4) := W5_arg m c _ (by decide)
  have hB : W5 m c main_arg5 = m ((c : Thread nD τ).loc main_arg5) := W5_arg m c _ (by decide)
  rw [W8_self, ← hW, ← hB]
  have hc : W5 m c main_c_1 = constantI S_ 32 0#32 := RunVal.cst_1 (W4 m c)
  exact RunVal.core_1 (W5 m) c hc aPrev hprev n h w co

/-- The same from the contents one stretch earlier: the stretch in between writes only the border's constant. -/
theorem val_1_from (c : Dev nD) (aPrev : Cert.Spec.Act 32 224 224 64)
    (hprev : ∀ (n : Fin 32) (h : Fin 224) (w : Fin 224) (ci : Fin 64),
      (W4 m c main_v11 : FVec Ideal S32x224x224x64 .bf16) (ix4 n h w ci) = aPrev n h w ci) :
    ∀ (n : Fin 32) (h : Fin 224) (w : Fin 224) (co : Fin 64),
      (W8 m c main_v14 : FVec Ideal S32x224x224x64 .bf16) (ix4 n h w co)
        = Cert.Spec.convRelu aPrev
            (Cert.Spec.curryW (m ((c : Thread nD τ).loc main_arg4) : FVec Ideal S3x3x64x64 .f32))
            (Cert.Spec.curryB (m ((c : Thread nD τ).loc main_arg5) : FVec Ideal S1x64 .f32)) n h w co :=
  val_1 m c aPrev fun n h w ci => by
    rw [W5_of m c main_v11 (by decide)]
    exact hprev n h w ci

end Cert.KernelIdeal.Run
-- ==== Proof.KI.Reg3Value.lean ====
/-
  REGION 3, at the ideal values: the output array after the last point, index by index — the 2×2 max pooling
  of the region's own input array.
-/
import proofs.«143011_g2000502688546152_pallasbulk_1201_3_alg».proof.Proof.KI.Reg3
import Idealize.ShloMosaic.Lib.ValueIdx
import Idealize.ShloMosaic.Lib.Pipeline.Value
import Idealize.ShloMosaic.PureOps.Ideal.Laws

noncomputable section

namespace Cert.KernelIdeal.Reg3

open Cert.KernelIdeal Cert.KernelIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .bf16 0xFF80#16 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S16x112x2x64 .bf16) (r : Fin 16) (j : Fin 112) (ch : Fin 64) :
    multiReduction .maximumf [2] S16x112x64 Y 0xFF80#16 reduces_S16x112x2x64_S16x112x64 (.inr rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S8x2x112x64 .bf16) (i : Fin 8) (j : Fin 112) (ch : Fin 64) :
    multiReduction .maximumf [1] S8x112x64 Z 0xFF80#16 reduces_S8x2x112x64_S8x112x64 (.inr rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x16x112x2x64.Idx → α) (r : Fin 16) (j : Fin 112) (q : Fin 2) (ch : Fin 64) :
    shapeCast S16x112x2x64 X shapeCasts_S1x16x112x2x64_S16x112x2x64 (ix4 r j q ch) = X (ix5 (0 : Fin 1) r j q ch) := by
  refine shapeCast_apply _ _ _ _ ?_
  rw [Shape.rowMajor_val_five, Shape.rowMajor_val_four]
  show ((((0 * 16 + r.val) * 112 + j.val) * 2 + q.val) * 64 + ch.val) = (((r.val * 112 + j.val) * 2 + q.val) * 64 + ch.val)
  omega

/-- The 16 rows regrouped as 8 pairs: the even row of pair i is row 2i, -/
theorem pairRows_apply0 (W : S16x112x64.Idx → α) (i : Fin 8) (j : Fin 112) (ch : Fin 64) :
    shapeCast S8x2x112x64 W shapeCasts_S16x112x64_S8x2x112x64 (ix4 i (0 : Fin 2) j ch)
      = W (ix3 (⟨2 * i.val, by omega⟩ : Fin 16) j ch) := by
  refine shapeCast_apply _ _ _ _ ?_
  rw [Shape.rowMajor_val_three, Shape.rowMajor_val_four]
  show ((2 * i.val) * 112 + j.val) * 64 + ch.val = (((i.val * 2 + 0) * 112 + j.val) * 64 + ch.val)
  omega

/-- and the odd one row 2i + 1. -/
theorem pairRows_apply1 (W : S16x112x64.Idx → α) (i : Fin 8) (j : Fin 112) (ch : Fin 64) :
    shapeCast S8x2x112x64 W shapeCasts_S16x112x64_S8x2x112x64 (ix4 i (1 : Fin 2) j ch)
      = W (ix3 (⟨2 * i.val + 1, by omega⟩ : Fin 16) j ch) := by
  refine shapeCast_apply _ _ _ _ ?_
  rw [Shape.rowMajor_val_three, Shape.rowMajor_val_four]
  show ((2 * i.val + 1) * 112 + j.val) * 64 + ch.val = (((i.val * 2 + 1) * 112 + j.val) * 64 + ch.val)
  omega

/-- The pooled rows with the leading unit axis back. -/
theorem addLead_apply (W : S8x112x64.Idx → α) (i : Fin 8) (j : Fin 112) (ch : Fin 64) :
    shapeCast S1x8x112x64 W shapeCasts_S8x112x64_S1x8x112x64 (ix4 (0 : Fin 1) i j ch) = W (ix3 i j ch) := by
  refine shapeCast_apply _ _ _ _ ?_
  rw [Shape.rowMajor_val_three, Shape.rowMajor_val_four]
  show ((i.val * 112 + j.val) * 64 + ch.val) = (((0 * 8 + i.val) * 112 + j.val) * 64 + ch.val)
  omega

/-- The body's value at an index of the output block: the maximum over the two rows 2i, 2i+1 of the maximum
    over the column pair j. -/
theorem pay_apply (X : Vec Ideal S1x16x112x2x64 .bf16) (i : Fin 8) (j : Fin 112) (ch : Fin 64) :
    k3_pay1 X (ix4 (0 : Fin 1) i j ch)
      = max (max (X (ix5 (0 : Fin 1) (⟨2 * i.val, by omega⟩ : Fin 16) j (0 : Fin 2) ch))
                 (X (ix5 (0 : Fin 1) (⟨2 * i.val, by omega⟩ : Fin 16) j (1 : Fin 2) ch)))
            (max (X (ix5 (0 : Fin 1) (⟨2 * i.val + 1, by omega⟩ : Fin 16) j (0 : Fin 2) ch))
                 (X (ix5 (0 : Fin 1) (⟨2 * i.val + 1, by omega⟩ : Fin 16) j (1 : Fin 2) ch))) := by
  unfold k3_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 32 images × 224 rows × 112 column pairs × 2 × 64 channels. -/
abbrev xin (c : Dev nD) : (⟨5, ![32, 224, 112, 2, 64]⟩ : Shape).Idx → EReal := V c (Pipeline.arrRef spec3 0)

/-- The 2×2 max pooling of an input array at (n, i, j, ch): over the rows 2i, 2i+1 the maximum of the maximum
    over the column pair j. -/
def poolAt (x : (⟨5, ![32, 224, 112, 2, 64]⟩ : Shape).Idx → EReal) (n : Fin 32) (i : Fin 112) (j : Fin 112) (ch : Fin 64) : EReal :=
  max (max (x (ix5 n (⟨2 * i.val, by omega⟩ : Fin 224) j (0 : Fin 2) ch))
           (x (ix5 n (⟨2 * i.val, by omega⟩ : Fin 224) j (1 : Fin 2) ch)))
      (max (x (ix5 n (⟨2 * i.val + 1, by omega⟩ : Fin 224) j (0 : Fin 2) ch))
           (x (ix5 n (⟨2 * i.val + 1, by omega⟩ : Fin 224) j (1 : Fin 2) ch)))

/-- The pooled array. -/
def poolArr (x : (⟨5, ![32, 224, 112, 2, 64]⟩ : Shape).Idx → EReal) : (⟨4, ![32, 112, 112, 64]⟩ : Shape).Idx → EReal :=
  fun k => poolAt x (k 0) (k 1) (k 2) (k 3)

/-- The index maps over the grid in closed form: point t is (n, r) = (t / 14, t % 14); there the input block is
    block (n, r, 0, 0, 0) of its array and the output block is block (n, r, 0, 0) of its own. -/
theorem idx_facts : ∀ t : Fin cfg3.N,
    win3_1.index t (0 : Fin 4) = t.val / 14 ∧ win3_1.index t (1 : Fin 4) = t.val % 14
    ∧ win3_1.index t (2 : Fin 4) = 0 ∧ win3_1.index t (3 : Fin 4) = 0
    ∧ win3_0.index t (0 : Fin 5) = t.val / 14 ∧ win3_0.index t (1 : Fin 5) = t.val % 14
    ∧ win3_0.index t (2 : Fin 5) = 0 ∧ win3_0.index t (3 : Fin 5) = 0 ∧ win3_0.index t (4 : Fin 5) = 0 :=
  (by decide +kernel : ∀ t : Fin grid3.N, _)

/-- The grid has 448 points. -/
theorem t_lt (t : Fin cfg3.N) : t.val < 448 := lt_of_lt_of_eq t.isLt N_3

/-- An element of the input block at point t = (n, r) sits in the input array at image n, row 16r + (its row). -/
theorem blk_in_apply (c : Dev nD) (t : Fin cfg3.N) (r : Fin 16) (R : Fin 224) (hR : R.val = 16 * (t.val % 14) + r.val)
    (j : Fin 112) (q : Fin 2) (ch : Fin 64) :
    blk V c 0 t (ix5 (0 : Fin 1) r j q ch)
      = xin V c (ix5 (⟨t.val / 14, by have := t_lt t; omega⟩ : Fin 32) R j q ch) := by
  obtain ⟨o0, o1, o2, o3, i0, i1, i2, i3, i4⟩ := idx_facts t
  show xin V c (((cfg3.win 0).blk t).view.emb (ix5 (0 : Fin 1) r j q ch)) = _
  congr 1
  funext a
  apply Fin.ext
  match a with
  | ⟨0, _⟩ => show win3_0.index t (0 : Fin 5) * 1 + 1 * 0 = t.val / 14; omega
  | ⟨1, _⟩ => show win3_0.index t (1 : Fin 5) * 16 + 1 * r.val = R.val; omega
  | ⟨2, _⟩ => show win3_0.index t (2 : Fin 5) * 112 + 1 * j.val = j.val; omega
  | ⟨3, _⟩ => show win3_0.index t (3 : Fin 5) * 2 + 1 * q.val = q.val; omega
  | ⟨4, _⟩ => show win3_0.index t (4 : Fin 5) * 64 + 1 * ch.val = ch.val; omega

/-- An element of the output block at point t = (n, r) sits in the output array at image n, row 8r + (its row). -/
theorem emb_out (t : Fin cfg3.N) (i : Fin 8) (j : Fin 112) (ch : Fin 64) :
    ((cfg3.win 1).blk t).view.emb (ix4 (0 : Fin 1) i j ch)
      = ix4 (⟨t.val / 14, by have := t_lt t; omega⟩ : Fin 32) (⟨8 * (t.val % 14) + i.val, by omega⟩ : Fin 112) j ch := by
  obtain ⟨o0, o1, o2, o3, i0, i1, i2, i3, i4⟩ := idx_facts t
  funext a
  apply Fin.ext
  match a with
  | ⟨0, _⟩ => show win3_1.index t (0 : Fin 4) * 1 + 1 * 0 = t.val / 14; omega
  | ⟨1, _⟩ => show win3_1.index t (1 : Fin 4) * 8 + 1 * i.val = 8 * (t.val % 14) + i.val; omega
  | ⟨2, _⟩ => show win3_1.index t (2 : Fin 4) * 112 + 1 * j.val = j.val; omega
  | ⟨3, _⟩ => show win3_1.index t (3 : Fin 4) * 64 + 1 * ch.val = ch.val; omega

/-- What point t writes back is its block of the pooled array. -/
theorem flushed_eq (c : Dev nD) (t : Fin cfg3.N) :
    (dat (F := Ideal) V c).flushed 1 t = ((cfg3.win 1).blk t).view.read (Elt Ideal) (poolArr (xin V c)) := by
  show (cfg3.win 1).cut (grid3.coords t) ((dat V c).after 1 t) = _
  rw [after_1]
  funext y
  obtain ⟨y0, i, j, ch, rfl⟩ : ∃ (y0 : Fin 1) (i : Fin 8) (j : Fin 112) (ch : Fin 64), y = ix4 y0 i j ch :=
    ⟨y 0, y 1, y 2, y 3, eq_ix4 y⟩
  obtain rfl : y0 = 0 := Subsingleton.elim _ _
  show k3_pay1 (blk V c 0 t) (ix4 (0 : Fin 1) i j ch)
    = poolArr (xin V c) (((cfg3.win 1).blk t).view.emb (ix4 (0 : Fin 1) i j ch))
  rw [pay_apply, emb_out,
    blk_in_apply V c t _ (⟨2 * (8 * (t.val % 14) + i.val), by omega⟩ : Fin 224) (by show 2 * (8 * (t.val % 14) + i.val) = 16 * (t.val % 14) + 2 * i.val; omega),
    blk_in_apply V c t _ (⟨2 * (8 * (t.val % 14) + i.val), by omega⟩ : Fin 224) (by show 2 * (8 * (t.val % 14) + i.val) = 16 * (t.val % 14) + 2 * i.val; omega),
    blk_in_apply V c t _ (⟨2 * (8 * (t.val % 14) + i.val) + 1, by omega⟩ : Fin 224) (by show 2 * (8 * (t.val % 14) + i.val) + 1 = 16 * (t.val % 14) + (2 * i.val + 1); omega),
    blk_in_apply V c t _ (⟨2 * (8 * (t.val % 14) + i.val) + 1, by omega⟩ : Fin 224) (by show 2 * (8 * (t.val % 14) + i.val) + 1 = 16 * (t.val % 14) + (2 * i.val + 1); omega)]
  rfl

/-- An index of the output array is in point t's block iff on each axis it lies in the block's range. -/
theorem mem_blk (t : Fin cfg3.N) (k : (⟨4, ![32, 112, 112, 64]⟩ : Shape).Idx) :
    k ∈ ((cfg3.win 1).blk t).view.set ↔ ∀ a : Fin 4, win3_1.index t a * S1x8x112x64.size a ≤ (k a).val
      ∧ (k a).val < win3_1.index t a * S1x8x112x64.size a + S1x8x112x64.size a := by
  show k ∈ ((View.whole main_v23).slice (win3_1.rect t)).set ↔ _
  rw [View.set_slice_whole, Rect.mem_set_unit]
  exact Iff.rfl

/-- The output blocks tile the output array: index (n, h, j, ch) is in the block of point (n, h / 8). -/
theorem cover (k : (⟨4, ![32, 112, 112, 64]⟩ : Shape).Idx) :
    ∃ t : Fin cfg3.N, (cfg3.win 1).flush t = true ∧ k ∈ ((cfg3.win 1).blk t).view.set := by
  have h0 : (k 0).val < 32 := (k 0).isLt
  have h1 : (k 1).val < 112 := (k 1).isLt
  have h2 : (k 2).val < 112 := (k 2).isLt
  have h3 : (k 3).val < 64 := (k 3).isLt
  have hN : cfg3.N = 448 := N_3
  obtain ⟨t, tv⟩ : ∃ t : Fin cfg3.N, t.val = (k 0).val * 14 + (k 1).val / 8 := ⟨⟨_, by omega⟩, rfl⟩
  obtain ⟨o0, o1, o2, o3, -⟩ := idx_facts t
  refine ⟨t, flush3_1 t, ?_⟩
  rw [mem_blk]
  intro a
  match a with
  | ⟨0, _⟩ => show win3_1.index t (0 : Fin 4) * 1 ≤ (k 0).val ∧ (k 0).val < win3_1.index t (0 : Fin 4) * 1 + 1; omega
  | ⟨1, _⟩ => show win3_1.index t (1 : Fin 4) * 8 ≤ (k 1).val ∧ (k 1).val < win3_1.index t (1 : Fin 4) * 8 + 8; omega
  | ⟨2, _⟩ => show win3_1.index t (2 : Fin 4) * 112 ≤ (k 2).val ∧ (k 2).val < win3_1.index t (2 : Fin 4) * 112 + 112; omega
  | ⟨3, _⟩ => show win3_1.index t (3 : Fin 4) * 64 ≤ (k 3).val ∧ (k 3).val < win3_1.index t (3 : Fin 4) * 64 + 64; omega

/-- So after the last point the output array is the pooled input array. -/
theorem final (c : Dev nD) : (dat (F := Ideal) V c).arrAt 1 cfg3.N = poolArr (xin V c) :=
  (dat V c).arrAt_eq_of_cover 1 (poolArr (xin V c)) (fun t _ => flushed_eq V c t) cover

/-- After the last point the output array [32, 112, 112, 64] is the 2×2 max pooling of the input array
    [32, 224, 112, 2, 64]: at (n, i, j, ch) the maximum over the two rows 2i, 2i+1 of the maximum over the
    column pair j. The nesting is the body's: the inner maximum is over the column pair (the first
    reduction), the outer over the row pair (the second). -/
theorem out_apply (c : Dev nD) (n : Fin 32) (i : Fin 112) (j : Fin 112) (ch : Fin 64) :
    (dat (F := Ideal) V c).arrAt 1 cfg3.N (ix4 n i j ch)
      = max (max (xin V c (ix5 n (⟨2 * i.val, by omega⟩ : Fin 224) j (0 : Fin 2) ch))
                 (xin V c (ix5 n (⟨2 * i.val, by omega⟩ : Fin 224) j (1 : Fin 2) ch)))
            (max (xin V c (ix5 n (⟨2 * i.val + 1, by omega⟩ : Fin 224) j (0 : Fin 2) ch))
                 (xin V c (ix5 n (⟨2 * i.val + 1, by omega⟩ : Fin 224) j (1 : Fin 2) ch))) := by
  rw [final]
  rfl

end Cert.KernelIdeal.Reg3
-- ==== Proof.KI.GluePairs0.lean ====
/-
  The features of the first level as the pooling region finds them: the stack's columns read in pairs. Entry
  (n, i, j, t, c) is the stack's entry (n, i, 2 j + t, c).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem pairs_0 (V : Valuation τ sig (Elt Ideal)) (n : Fin 32) (i : Fin 224) (j : Fin 112) (t : Fin 2) (c : Fin 64) :
    (StableHlo.after hostOps3 V main_v22 : FVec Ideal S32x224x112x2x64 .bf16) (ix5 n i j t c)
      = (V main_v14 : FVec Ideal S32x224x224x64 .bf16) (ix4 n i ⟨2 * j.val + t.val, by omega⟩ c) := by
  have h : StableHlo.after hostOps3 V main_v22 = shapeCast S32x224x112x2x64 (V main_v14) shapeCasts_S32x224x224x64_S32x224x112x2x64 := by
    after_results <;> rfl
  rw [h]
  exact Cert.Spec.reshape_pairs _ _ rfl n i j t c

end Cert.KernelIdeal.Glue

end
-- ==== Proof.KI.RunValCore3.lean ====
import proofs.«143011_g2000502688546152_pallasbulk_1201_3_alg».proof.Proof.KI.Reg3Value
import proofs.«143011_g2000502688546152_pallasbulk_1201_3_alg».proof.Proof.KI.GluePairs0
import proofs.«143011_g2000502688546152_pallasbulk_1201_3_alg».proof.Proof.Spec.Defs

/-! # Region 3 between its neighbours: a 2×2 max pooling of the network

If the stack of images the pooling reads is `aPrev` ([32, 224, 224, 64]), the region leaves its 2×2 max pooling
([32, 112, 112, 64]). The stretch of host operations in front of the region only regroups each row's columns into pairs. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- From ANY contents `Wp` in front of the regrouping stretch that hold the stack `aPrev` in the array it regroups: the
    region's output array, entry by entry. -/
theorem core_3 (Wp : Dev nD → Valuation τ sig (Elt Ideal)) (c : Dev nD)
    (aPrev : Cert.Spec.Act 32 224 224 64)
    (hprev : ∀ (n : Fin 32) (h : Fin 224) (w : Fin 224) (ch : Fin 64),
      (Wp c main_v14 : FVec Ideal S32x224x224x64 .bf16) (ix4 n h w ch) = aPrev n h w ch)
    (n : Fin 32) (i : Fin 112) (j : Fin 112) (ch : Fin 64) :
    (Reg3.dat (F := Ideal) (fun c b => StableHlo.after hostOps3 (Wp c) b) c).arrAt 1 cfg3.N (ix4 n i j ch)
      = Cert.Spec.pool2x2 aPrev n i j ch := by
  refine (Reg3.out_apply _ c n i j ch).trans ?_
  have e : ∀ (r : Fin 224) (t : Fin 2) (q : Fin 224) (hq : q.val = 2 * j.val + t.val),
      (StableHlo.after hostOps3 (Wp c) main_v22 : FVec Ideal S32x224x112x2x64 .bf16) (ix5 n r j t ch) = aPrev n r q ch :=
    fun r t q hq => (Glue.pairs_0 (Wp c) n r j t ch).trans
      ((hprev n r _ ch).trans (congrArg (fun x => aPrev n r x ch) (Fin.ext hq.symm)))
  show @Eq EReal _ _
  unfold Cert.Spec.pool2x2
  exact congrArg₂ (fun a b : EReal => max a b)
    (congrArg₂ (fun a b : EReal => max a b) (e _ 0 _ rfl) (e _ 1 _ rfl))
    (congrArg₂ (fun a b : EReal => max a b) (e _ 0 _ rfl) (e _ 1 _ rfl))

end Cert.KernelIdeal.RunVal
-- ==== Proof.KI.RunVal3.lean ====
import proofs.«143011_g2000502688546152_pallasbulk_1201_3_alg».proof.Proof.KI.RunChainAt
import proofs.«143011_g2000502688546152_pallasbulk_1201_3_alg».proof.Proof.KI.RunValCore3

/-! # Region 3 in the chain of contents: a 2×2 max pooling, from the stack in front of its regrouping stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the regrouping stretch hold the stack `aPrev` in the array it regroups, the contents
    after the region hold, in the region's output array, the 2×2 max pooling of `aPrev`. -/
theorem val_3 (c : Dev nD) (aPrev : Cert.Spec.Act 32 224 224 64)
    (hprev : ∀ (n : Fin 32) (h : Fin 224) (w : Fin 224) (ch : Fin 64),
      (W10 m c main_v14 : FVec Ideal S32x224x224x64 .bf16) (ix4 n h w ch) = aPrev n h w ch) :
    ∀ (n : Fin 32) (i : Fin 112) (j : Fin 112) (ch : Fin 64),
      (W12 m c main_v23 : FVec Ideal S32x112x112x64 .bf16) (ix4 n i j ch) = Cert.Spec.pool2x2 aPrev n i j ch := by
  intro n i j ch
  rw [W12_self]
  exact RunVal.core_3 (W10 m) c aPrev hprev n i j ch

end Cert.KernelIdeal.Run
-- ==== Proof.KI.Reg4Value.lean ====
import proofs.«143011_g2000502688546152_pallasbulk_1201_3_alg».proof.Proof.KI.Reg4
import Idealize.ShloMosaic.Lib.Pipeline.Value
import Idealize.ShloMosaic.Lib.ValueIdx
import Idealize.ShloMosaic.PureOps.Ideal.Laws

set_option maxRecDepth 16384

noncomputable section

namespace Cert.KernelIdeal.Reg4

open Idealize.ShloMosaic Idealize.ShloMosaic.TcCoe
open Idealize.SL Idealize.SL.Sem
open Idealize.ShloMosaic.Pipeline (Dat Cfg Window)
open Idealize.ShloMosaic.ValueIdx
open Cert.KernelIdeal.Gen
open scoped BigOperators

theorem off4_zero : (![0, 0, 0, 0] : Fin 4 → ℕ) = fun _ => 0 := by funext a; fin_cases a <;> rfl
theorem off2_zero : (![0, 0] : Fin 2 → ℕ) = fun _ => 0 := by funext a; fin_cases a <;> rfl

/-- A row tile flattened to rows: flat row `r·128 + col` is the tile's (r, col). -/
theorem rows_apply (x : Vec Ideal S1x16x128x64 .bf16) (r : Fin 16) (col : Fin 128) (ci : Fin 64) :
    shapeCast S2048x64 (shapeCast S16x128x64 x shapeCasts_S1x16x128x64_S16x128x64) shapeCasts_S16x128x64_S2048x64
        (ix2 ⟨r.val * 128 + col.val, by omega⟩ ci)
      = x (ix4 0 r col ci) := by
  refine (shapeCast_apply _ _ _ (ix3 r col ci) (by
    rw [Shape.rowMajor_val_three, Shape.rowMajor_val_two]
    show (r.val * 128 + col.val) * 64 + ci.val = (r.val * 128 + col.val) * 64 + ci.val
    rfl)).trans ?_
  exact shapeCast_apply _ _ _ (ix4 0 r col ci) (by
    rw [Shape.rowMajor_val_four, Shape.rowMajor_val_three]
    show ((0 * 16 + r.val) * 128 + col.val) * 64 + ci.val = (r.val * 128 + col.val) * 64 + ci.val
    omega)

theorem slab_apply (x0 x1 : Vec Ideal S1x16x128x64 .bf16) (r col : ℕ) (hr : r < 32) (hc : col < 128) (ci : Fin 64) :
    k4_pay2 (View.ld x0 rx) (View.ld x1 rx) (ix2 ⟨r * 128 + col, by omega⟩ ci)
      = if h : r < 16 then x0 (ix4 0 ⟨r, h⟩ ⟨col, hc⟩ ci) else x1 (ix4 0 ⟨r - 16, by omega⟩ ⟨col, hc⟩ ci) := by
  unfold k4_pay2
  rw [View.ld_unit_zero off4_zero, View.ld_unit_zero off4_zero]
  by_cases h : r < 16
  · rw [dif_pos h]
    refine (concatenate_apply_piece (t := S4224x64) 0 _ _ _ 0 ?_ S2048x64 _ ?_ ?_ 0 ?_
      (ix2 ⟨r * 128 + col, by omega⟩ ci) (fun b hb => ?_) ?_).trans (rows_apply x0 ⟨r, h⟩ ⟨col, hc⟩ ci)
    · exact Nat.zero_lt_succ _
    · rfl
    · rfl
    · rfl
    · match b with
      | ⟨0, _⟩ => exact absurd rfl hb
      | ⟨1, _⟩ => rfl
    · show 0 + (r * 128 + col) = r * 128 + col
      omega
  · rw [dif_neg h]
    refine (concatenate_apply_piece (t := S4224x64) 0 _ _ _ 1 ?_ S2048x64 _ ?_ ?_ 2048 ?_
      (ix2 ⟨(r - 16) * 128 + col, by omega⟩ ci) (fun b hb => ?_) ?_).trans (rows_apply x1 ⟨r - 16, by omega⟩ ⟨col, hc⟩ ci)
    · exact Nat.succ_lt_succ (Nat.zero_lt_succ _)
    · rfl
    · rfl
    · rfl
    · match b with
      | ⟨0, _⟩ => exact absurd rfl hb
      | ⟨1, _⟩ => rfl
    · show 2048 + ((r - 16) * 128 + col) = r * 128 + col
      omega

/-- A band of rows cut out of a matrix of rows. -/
theorem rslice_apply {N M C : ℕ} (o : ℕ) (x : (⟨2, ![N, C]⟩ : Shape).Idx → EReal)
    (h : (⟨2, ![N, C]⟩ : Shape).Slices ![o, 0] ⟨2, ![M, C]⟩) (m : Fin M) (ci : Fin C) (hb : o + m.val < N) :
    extractStridedSlice ⟨2, ![M, C]⟩ ![o, 0] x h (ix2 m ci) = x (ix2 ⟨o + m.val, hb⟩ ci) :=
  extractStridedSlice_apply _ _ _ _ _ fun a => match a with
    | ⟨0, _⟩ => rfl
    | ⟨1, _⟩ => by show ci.val = 0 + ci.val; omega

abbrev D0 : DotDims S2048x64 S64x128 S2048x128 := dot_S2048x64_S64x128_S2048x128_1_0_0_1_n_n

theorem mm_apply (L : FVec Ideal S2048x64 .bf16) (R : FVec Ideal S64x128 .bf16) (m : Fin 2048) (co : Fin 128) :
    matmul D0 none L R (constant S2048x128 .f32 0x00000000#32) (ix2 m co)
      = ∑ ci : Fin 64, L (ix2 m ci) * R (ix2 ci co) := by
  simp only [matmul]
  rw [Ideal.matmul_constant_zero_apply]
  rw [← Equiv.sum_comp (contrEquiv1 D0 64 rfl rfl).symm]
  refine Finset.sum_congr rfl fun ci _ => ?_
  have hl : D0.lhsIdx (ix2 m co) ((contrEquiv1 D0 64 rfl rfl).symm ci) = ix2 m ci := by
    funext a
    match a with
    | ⟨0, _⟩ =>
      apply Fin.ext
      simp [DotDims.lhsIdx, D0, dot_S2048x64_S64x128_S2048x128_1_0_0_1_n_n]
      rfl
    | ⟨1, _⟩ =>
      apply Fin.ext
      simp [DotDims.lhsIdx, D0, dot_S2048x64_S64x128_S2048x128_1_0_0_1_n_n]
      rfl
  have hr : D0.rhsIdx (ix2 m co) ((contrEquiv1 D0 64 rfl rfl).symm ci) = ix2 ci co := by
    funext a
    match a with
    | ⟨0, _⟩ =>
      apply Fin.ext
      simp [DotDims.rhsIdx, D0, dot_S2048x64_S64x128_S2048x128_1_0_0_1_n_n]
      rfl
    | ⟨1, _⟩ =>
      apply Fin.ext
      simp [DotDims.rhsIdx, D0, dot_S2048x64_S64x128_S2048x128_1_0_0_1_n_n]
      rfl
  rw [hl, hr]

/-- One tap of the filter as a matrix: the 64×128 block at (a, b). -/
theorem wtap_apply (x2 : Vec Ideal S3x3x64x128 .bf16) (a b : ℕ) (ha : a < 3) (hb : b < 3)
    (inb : ∀ d, (![a, b, 0, 0] : Fin 4 → ℕ) d + S1x1x64x128.size d ≤ S3x3x64x128.size d) (ci : Fin 64) (co : Fin 128) :
    shapeCast S64x128 (View.ld x2 (Rect.unit (s := S3x3x64x128) ![a, b, 0, 0] S1x1x64x128.size inb)) shapeCasts_S1x1x64x128_S64x128 (ix2 ci co)
      = x2 (ix4 ⟨a, ha⟩ ⟨b, hb⟩ ci co) := by
  refine (shapeCast_apply _ _ _ (ix4 0 0 ci co) (by
    rw [Shape.rowMajor_val_four, Shape.rowMajor_val_two]
    show ((0 * 1 + 0) * 64 + ci.val) * 128 + co.val = ci.val * 128 + co.val
    omega)).trans ?_
  refine congrArg x2 (funext fun d => Fin.ext ?_)
  match d with
  | ⟨0, _⟩ => show a + 1 * 0 = a; omega
  | ⟨1, _⟩ => show b + 1 * 0 = b; omega
  | ⟨2, _⟩ => show 0 + 1 * ci.val = ci.val; omega
  | ⟨3, _⟩ => show 0 + 1 * co.val = co.val; omega

/-- The bias row spread over the rows. -/
theorem bias_apply (x3 : Vec Ideal S1x128 .f32) (m : Fin 2048) (co : Fin 128) :
    broadcastTo S2048x128 (View.ld x3 rb) broadcasts_S1x128_S2048x128 (ix2 m co) = x3 (ix2 0 co) := by
  rw [View.ld_unit_zero off2_zero]
  exact broadcastTo_apply _ _ _ (ix2 0 co) fun a => match a with
    | ⟨0, _⟩ => rfl
    | ⟨1, _⟩ => rfl

/-- A tap's product read at a row: the band of the stacked rows starting `o` rows down, times the tap. -/
theorem tap1_apply (SL : FVec Ideal S4224x64 .bf16) (o : ℕ) (h : S4224x64.Slices ![o, 0] S2048x64) (R : FVec Ideal S64x128 .bf16)
    (m : Fin 2048) (co : Fin 128) (hb : o + m.val < 4224) :
    matmul D0 none (extractStridedSlice S2048x64 ![o, 0] SL h) R (constant S2048x128 .f32 0x00000000#32) (ix2 m co)
      = ∑ ci : Fin 64, SL (ix2 ⟨o + m.val, hb⟩ ci) * R (ix2 ci co) := by
  rw [mm_apply]
  exact Finset.sum_congr rfl fun ci _ => by rw [rslice_apply o SL h m ci hb]

theorem tap2_apply (SL : FVec Ideal S4224x64 .bf16) (N1 o1 o2 : ℕ) (h1 : S4224x64.Slices ![o1, 0] ⟨2, ![N1, 64]⟩)
    (h2 : (⟨2, ![N1, 64]⟩ : Shape).Slices ![o2, 0] S2048x64) (R : FVec Ideal S64x128 .bf16)
    (m : Fin 2048) (co : Fin 128) (hb1 : o2 + m.val < N1) (hb : o1 + (o2 + m.val) < 4224) :
    matmul D0 none (extractStridedSlice S2048x64 ![o2, 0] (extractStridedSlice ⟨2, ![N1, 64]⟩ ![o1, 0] SL h1) h2) R
        (constant S2048x128 .f32 0x00000000#32) (ix2 m co)
      = ∑ ci : Fin 64, SL (ix2 ⟨o1 + (o2 + m.val), hb⟩ ci) * R (ix2 ci co) := by
  rw [mm_apply]
  exact Finset.sum_congr rfl fun ci _ => by
    rw [rslice_apply o2 _ h2 m ci hb1, rslice_apply o1 SL h1 ⟨o2 + m.val, hb1⟩ ci hb]

section AccRead
variable (x0 x1 : Vec Ideal S1x16x128x64 .bf16) (x2 : Vec Ideal S3x3x64x128 .bf16) (x3 : Vec Ideal S1x128 .f32)

/-- One tap's contribution at flat row `m` and output channel `co`: the stacked rows `a` rows and `b` columns on, times tap (a, b). -/
def T (m : Fin 2048) (co : Fin 128) (a b : ℕ) (ha : a < 3) (hb : b < 3) : EReal :=
  ∑ ci : Fin 64, k4_pay2 (View.ld x0 rx) (View.ld x1 rx) (ix2 ⟨a * 128 + (b + m.val), by omega⟩ ci) * x2 (ix4 ⟨a, ha⟩ ⟨b, hb⟩ ci co)

/-- A tap in the first column (no column shift): one band of the stacked rows. -/
theorem tapA (a : ℕ) (ha : a < 3) (o : ℕ) (ho : o = a * 128) (h : S4224x64.Slices ![o, 0] S2048x64)
    (inb : ∀ d, (![a, 0, 0, 0] : Fin 4 → ℕ) d + S1x1x64x128.size d ≤ S3x3x64x128.size d) (m : Fin 2048) (co : Fin 128) :
    matmul (φ₁ := .bf16) (φ₂ := .bf16) D0 none (extractStridedSlice S2048x64 ![o, 0] (k4_pay2 (View.ld x0 rx) (View.ld x1 rx)) h)
        (shapeCast (α := Ideal .bf16) S64x128 (View.ld x2 (Rect.unit (s := S3x3x64x128) ![a, 0, 0, 0] S1x1x64x128.size inb)) shapeCasts_S1x1x64x128_S64x128)
        (constant S2048x128 .f32 0x00000000#32) (ix2 m co)
      = T x0 x1 x2 m co a 0 ha (by omega) := by
  subst ho
  rw [tap1_apply _ _ h _ m co (by omega)]
  unfold T
  refine Finset.sum_congr rfl fun ci _ => ?_
  rw [wtap_apply x2 a 0 ha (by omega) inb ci co]
  have e : (⟨a * 128 + m.val, by omega⟩ : Fin 4224) = ⟨a * 128 + (0 + m.val), by omega⟩ := Fin.ext (by show a * 128 + m.val = a * 128 + (0 + m.val); omega)
  rw [e]

/-- A tap in a shifted column: a band of the stacked rows with their first `b` rows dropped. -/
theorem tapB (a b : ℕ) (ha : a < 3) (hb : b < 3) (o : ℕ) (ho : o = a * 128) (N1 : ℕ) (hN : 2304 ≤ N1)
    (h1 : S4224x64.Slices ![b, 0] ⟨2, ![N1, 64]⟩) (h2 : (⟨2, ![N1, 64]⟩ : Shape).Slices ![o, 0] S2048x64)
    (inb : ∀ d, (![a, b, 0, 0] : Fin 4 → ℕ) d + S1x1x64x128.size d ≤ S3x3x64x128.size d) (m : Fin 2048) (co : Fin 128) :
    matmul (φ₁ := .bf16) (φ₂ := .bf16) D0 none (extractStridedSlice S2048x64 ![o, 0]
          (extractStridedSlice ⟨2, ![N1, 64]⟩ ![b, 0] (k4_pay2 (View.ld x0 rx) (View.ld x1 rx)) h1) h2)
        (shapeCast (α := Ideal .bf16) S64x128 (View.ld x2 (Rect.unit (s := S3x3x64x128) ![a, b, 0, 0] S1x1x64x128.size inb)) shapeCasts_S1x1x64x128_S64x128)
        (constant S2048x128 .f32 0x00000000#32) (ix2 m co)
      = T x0 x1 x2 m co a b ha hb := by
  subst ho
  rw [tap2_apply _ N1 b _ h1 h2 _ m co (by omega) (by omega)]
  unfold T
  refine Finset.sum_congr rfl fun ci _ => ?_
  rw [wtap_apply x2 a b ha hb inb ci co]
  have e : (⟨b + (a * 128 + m.val), by omega⟩ : Fin 4224) = ⟨a * 128 + (b + m.val), by omega⟩ :=
    Fin.ext (by show b + (a * 128 + m.val) = a * 128 + (b + m.val); omega)
  rw [e]

theorem acc_apply9 (m : Fin 2048) (co : Fin 128) :
    acc x0 x1 x2 x3 (ix2 m co)
      = T x0 x1 x2 m co 0 0 (by omega) (by omega) + T x0 x1 x2 m co 0 1 (by omega) (by omega) + T x0 x1 x2 m co 0 2 (by omega) (by omega)
        + T x0 x1 x2 m co 1 0 (by omega) (by omega) + T x0 x1 x2 m co 1 1 (by omega) (by omega) + T x0 x1 x2 m co 1 2 (by omega) (by omega)
        + T x0 x1 x2 m co 2 0 (by omega) (by omega) + T x0 x1 x2 m co 2 1 (by omega) (by omega) + T x0 x1 x2 m co 2 2 (by omega) (by omega)
        + x3 (ix2 0 co) := by
  unfold acc k4_pay8 k4_pay5 k4_pay6 k4_pay7 k4_pay3 k4_pay4
  simp only [addf_apply, bias_apply]
  rw [
    tapA x0 x1 x2 0 (by omega) 0 rfl slices_S4224x64_o0_0_S2048x64 inb_S3x3x64x128_S1x1x64x128_0_0_0_0 m co,
    tapB x0 x1 x2 0 1 (by omega) (by omega) 0 rfl 4223 (by omega) slices_S4224x64_o1_0_S4223x64 slices_S4223x64_o0_0_S2048x64 inb_S3x3x64x128_S1x1x64x128_0_1_0_0 m co,
    tapB x0 x1 x2 0 2 (by omega) (by omega) 0 rfl 4222 (by omega) slices_S4224x64_o2_0_S4222x64 slices_S4222x64_o0_0_S2048x64 inb_S3x3x64x128_S1x1x64x128_0_2_0_0 m co,
    tapA x0 x1 x2 1 (by omega) 128 rfl slices_S4224x64_o128_0_S2048x64 inb_S3x3x64x128_S1x1x64x128_1_0_0_0 m co,
    tapB x0 x1 x2 1 1 (by omega) (by omega) 128 rfl 4223 (by omega) slices_S4224x64_o1_0_S4223x64 slices_S4223x64_o128_0_S2048x64 inb_S3x3x64x128_S1x1x64x128_1_1_0_0 m co,
    tapB x0 x1 x2 1 2 (by omega) (by omega) 128 rfl 4222 (by omega) slices_S4224x64_o2_0_S4222x64 slices_S4222x64_o128_0_S2048x64 inb_S3x3x64x128_S1x1x64x128_1_2_0_0 m co,
    tapA x0 x1 x2 2 (by omega) 256 rfl slices_S4224x64_o256_0_S2048x64 inb_S3x3x64x128_S1x1x64x128_2_0_0_0 m co,
    tapB x0 x1 x2 2 1 (by omega) (by omega) 256 rfl 4223 (by omega) slices_S4224x64_o1_0_S4223x64 slices_S4223x64_o256_0_S2048x64 inb_S3x3x64x128_S1x1x64x128_2_1_0_0 m co,
    tapB x0 x1 x2 2 2 (by omega) (by omega) 256 rfl 4222 (by omega) slices_S4224x64_o2_0_S4222x64 slices_S4222x64_o256_0_S2048x64 inb_S3x3x64x128_S1x1x64x128_2_2_0_0 m co]
  have z : broadcast S2048x128 (FloatOps.ofBits (F := Ideal) FTy.f32 0#32) (ix2 m co) = (0 : EReal) := Ideal.ofBits_zero_f32
  rw [z, zero_add, bias_apply]

/-- The accumulator at a flat row and output channel, as the nested sum over the taps and the input channels. -/
theorem acc_apply (m : Fin 2048) (co : Fin 128) :
    acc x0 x1 x2 x3 (ix2 m co)
      = (∑ dy : Fin 3, ∑ dx : Fin 3, ∑ ci : Fin 64,
            k4_pay2 (View.ld x0 rx) (View.ld x1 rx) (ix2 ⟨dy.val * 128 + (dx.val + m.val), by omega⟩ ci) * x2 (ix4 dy dx ci co))
          + x3 (ix2 0 co) := by
  rw [acc_apply9]
  have hU : ∀ dy dx : Fin 3,
      (∑ ci : Fin 64, k4_pay2 (View.ld x0 rx) (View.ld x1 rx) (ix2 ⟨dy.val * 128 + (dx.val + m.val), by omega⟩ ci) * x2 (ix4 dy dx ci co))
        = T x0 x1 x2 m co dy.val dx.val dy.isLt dx.isLt := fun _ _ => rfl
  simp only [hU]
  simp only [Fin.sum_univ_three, add_assoc]
  rfl

end AccRead

section OutRead
variable (x0 x1 : Vec Ideal S1x16x128x64 .bf16) (x2 : Vec Ideal S3x3x64x128 .bf16) (x3 : Vec Ideal S1x128 .f32)

/-- What the body leaves in the output tile, element by element: the accumulator at flat row `i·128 + j`, rectified
    (the columns past 112 are cropped away; at the ideal values the narrowing to bf16 is the identity). -/
theorem out_block_apply (i : Fin 16) (j : Fin 112) (co : Fin 128) :
    out x0 x1 x2 x3 (ix4 0 i j co)
      = max ((∑ dy : Fin 3, ∑ dx : Fin 3, ∑ ci : Fin 64,
                k4_pay2 (View.ld x0 rx) (View.ld x1 rx)
                    (ix2 ⟨dy.val * 128 + (dx.val + (i.val * 128 + j.val)), by omega⟩ ci) * x2 (ix4 dy dx ci co))
              + x3 (ix2 0 co)) 0 := by
  unfold out
  rw [View.canon_unit_zero off4_zero]
  unfold k4_pay1 k4_pay9
  refine (shapeCast_apply _ _ _ (ix3 i j co) (by
    rw [Shape.rowMajor_val_three, Shape.rowMajor_val_four]
    show (i.val * 112 + j.val) * 128 + co.val = (((0 : ℕ) * 16 + i.val) * 112 + j.val) * 128 + co.val
    omega)).trans ?_
  rw [truncf_apply]
  refine (extractStridedSlice_apply (s := S16x128x128) (t := S16x112x128) ![0, 0, 0] _ _ (ix3 i j co) (ix3 i (⟨j.val, by omega⟩ : Fin 128) co) (fun a => match a with
    | ⟨0, _⟩ => by show i.val = 0 + i.val; omega
    | ⟨1, _⟩ => by show j.val = 0 + j.val; omega
    | ⟨2, _⟩ => by show co.val = 0 + co.val; omega)).trans ?_
  refine (shapeCast_apply _ _ _ (ix2 ⟨i.val * 128 + j.val, by omega⟩ co) (by
    rw [Shape.rowMajor_val_two, Shape.rowMajor_val_three]
    show (i.val * 128 + j.val) * 128 + co.val = (i.val * 128 + j.val) * 128 + co.val
    rfl)).trans ?_
  rw [maximumf_apply, acc_apply]
  exact congrArg (max _) Ideal.ofBits_zero_f32

end OutRead

section Blocks
variable (V : (c : Dev nD) → (b : Ref sig .tc) → Buf (Elt Ideal) ((c : Thread nD τ).loc b))

/-- The region's own arrays as it finds them: the padded image batch (both row-tile windows read this one array),
    the 3×3 filter and the bias row. -/
abbrev xp (c : Dev nD) : FVec Ideal S32x128x128x64 .bf16 := V c (Pipeline.arrRef spec4 0)
abbrev wk (c : Dev nD) : FVec Ideal S3x3x64x128 .bf16 := V c (Pipeline.arrRef spec4 2)
abbrev bias (c : Dev nD) : FVec Ideal S1x128 .f32 := V c (Pipeline.arrRef spec4 3)

/-- The two row-tile windows read one array. -/
theorem arr_1_eq_0 : Pipeline.arrRef spec4 1 = Pipeline.arrRef spec4 0 := rfl

theorem t_lt (t : Fin cfg4.N) : t.val < 224 := t.isLt

/-- The windows' block indices at a point, in closed form: point `t` is image `t / 7`, row tile `t % 7`; the second
    row-tile window is one tile further down; filter and bias are whole. -/
theorem idx_facts : ∀ t : Fin cfg4.N,
    win4_0.index t = ![t.val / 7, t.val % 7, 0, 0] ∧ win4_1.index t = ![t.val / 7, t.val % 7 + 1, 0, 0]
      ∧ win4_2.index t = ![0, 0, 0, 0] ∧ win4_3.index t = ![0, 0] ∧ win4_4.index t = ![t.val / 7, t.val % 7, 0, 0] :=
  (by decide +kernel : ∀ t : Fin grid4.N, _)

/-- A window's block at a point reads its array at the block's offset. -/
theorem iblk0_apply (c : Dev nD) (t : Fin cfg4.N) (y : S1x16x128x64.Idx) (j : S32x128x128x64.Idx)
    (hj : ∀ a, (j a).val = win4_0.index t a * S1x16x128x64.size a + (y a).val) :
    iblk V c 0 t y = xp V c j := by
  unfold iblk
  rw [View.read_apply]
  show V c (Pipeline.arrRef spec4 0) (((cfg4.win 0).blk t).view.emb y) = V c (Pipeline.arrRef spec4 0) j
  refine congrArg (V c (Pipeline.arrRef spec4 0)) (funext fun a => Fin.ext ?_)
  rw [hj a]
  exact Pipeline.Window.rect_emb_val win4_0 t y a

theorem iblk1_apply (c : Dev nD) (t : Fin cfg4.N) (y : S1x16x128x64.Idx) (j : S32x128x128x64.Idx)
    (hj : ∀ a, (j a).val = win4_1.index t a * S1x16x128x64.size a + (y a).val) :
    iblk V c 1 t y = xp V c j := by
  unfold iblk
  rw [View.read_apply]
  show V c (Pipeline.arrRef spec4 1) (((cfg4.win 1).blk t).view.emb y) = V c (Pipeline.arrRef spec4 0) j
  refine congrArg (V c (Pipeline.arrRef spec4 0)) (funext fun a => Fin.ext ?_)
  rw [hj a]
  exact Pipeline.Window.rect_emb_val win4_1 t y a

theorem iblk2_apply (c : Dev nD) (t : Fin cfg4.N) (y : S3x3x64x128.Idx) : iblk V c 2 t y = wk V c y := by
  unfold iblk
  rw [View.read_apply]
  show V c (Pipeline.arrRef spec4 2) (((cfg4.win 2).blk t).view.emb y) = V c (Pipeline.arrRef spec4 2) y
  refine congrArg (V c (Pipeline.arrRef spec4 2)) (funext fun a => Fin.ext ?_)
  have e := Pipeline.Window.rect_emb_val win4_2 t y a
  rw [(idx_facts t).2.2.1] at e
  refine e.trans ?_
  match a with
  | ⟨0, _⟩ => show 0 * 3 + (y 0).val = (y 0).val; omega
  | ⟨1, _⟩ => show 0 * 3 + (y 1).val = (y 1).val; omega
  | ⟨2, _⟩ => show 0 * 64 + (y 2).val = (y 2).val; omega
  | ⟨3, _⟩ => show 0 * 128 + (y 3).val = (y 3).val; omega

theorem iblk3_apply (c : Dev nD) (t : Fin cfg4.N) (y : S1x128.Idx) : iblk V c 3 t y = bias V c y := by
  unfold iblk
  rw [View.read_apply]
  show V c (Pipeline.arrRef spec4 3) (((cfg4.win 3).blk t).view.emb y) = V c (Pipeline.arrRef spec4 3) y
  refine congrArg (V c (Pipeline.arrRef spec4 3)) (funext fun a => Fin.ext ?_)
  have e := Pipeline.Window.rect_emb_val win4_3 t y a
  rw [(idx_facts t).2.2.2.1] at e
  refine e.trans ?_
  match a with
  | ⟨0, _⟩ => show 0 * 1 + (y 0).val = (y 0).val; omega
  | ⟨1, _⟩ => show 0 * 128 + (y 1).val = (y 1).val; omega
end Blocks

section Final
variable (V : (c : Dev nD) → (b : Ref sig .tc) → Buf (Elt Ideal) ((c : Thread nD τ).loc b))

/-- What point `t` leaves in the output tile, element by element, over the region's own arrays: both row tiles read the one
    padded image, the second sixteen rows further down, so the stacked rows are the image's rows `16·(t % 7) + …`. -/
theorem tile_apply (c : Dev nD) (t : Fin cfg4.N) (i : Fin 16) (j : Fin 112) (co : Fin 128) :
    out (iblk V c 0 t) (iblk V c 1 t) (iblk V c 2 t) (iblk V c 3 t) (ix4 0 i j co)
      = max ((∑ dy : Fin 3, ∑ dx : Fin 3, ∑ ci : Fin 64,
                xp V c (ix4 ⟨t.val / 7, by have := t_lt t; omega⟩ ⟨t.val % 7 * 16 + i.val + dy.val, by omega⟩
                    ⟨j.val + dx.val, by omega⟩ ci) * wk V c (ix4 dy dx ci co))
              + bias V c (ix2 0 co)) 0 := by
  obtain ⟨h0, h1, -, -, -⟩ := idx_facts t
  rw [out_block_apply, iblk3_apply]
  refine congrArg (fun s => max (s + bias V c (ix2 0 co)) 0) ?_
  refine Finset.sum_congr rfl fun dy _ => Finset.sum_congr rfl fun dx _ => Finset.sum_congr rfl fun ci _ => ?_
  rw [iblk2_apply]
  refine congrArg (· * wk V c (ix4 dy dx ci co)) ?_
  have e : (⟨dy.val * 128 + (dx.val + (i.val * 128 + j.val)), by omega⟩ : Fin 4224)
      = ⟨(i.val + dy.val) * 128 + (j.val + dx.val), by omega⟩ :=
    Fin.ext (by show dy.val * 128 + (dx.val + (i.val * 128 + j.val)) = (i.val + dy.val) * 128 + (j.val + dx.val); omega)
  rw [e, slab_apply _ _ (i.val + dy.val) (j.val + dx.val) (by omega) (by omega) ci]
  by_cases h : i.val + dy.val < 16
  · rw [dif_pos h]
    refine iblk0_apply V c t _ _ fun a => ?_
    rw [h0]
    match a with
    | ⟨0, _⟩ => show t.val / 7 = t.val / 7 * 1 + 0; omega
    | ⟨1, _⟩ => show t.val % 7 * 16 + i.val + dy.val = t.val % 7 * 16 + (i.val + dy.val); omega
    | ⟨2, _⟩ => show j.val + dx.val = 0 * 128 + (j.val + dx.val); omega
    | ⟨3, _⟩ => show ci.val = 0 * 64 + ci.val; omega
  · rw [dif_neg h]
    refine iblk1_apply V c t _ _ fun a => ?_
    rw [h1]
    match a with
    | ⟨0, _⟩ => show t.val / 7 = t.val / 7 * 1 + 0; omega
    | ⟨1, _⟩ => show t.val % 7 * 16 + i.val + dy.val = (t.val % 7 + 1) * 16 + (i.val + dy.val - 16); omega
    | ⟨2, _⟩ => show j.val + dx.val = 0 * 128 + (j.val + dx.val); omega
    | ⟨3, _⟩ => show ci.val = 0 * 64 + ci.val; omega

/-- The whole output array as one function of the region's arrays: the 3×3 correlation of the padded image with the
    filter over the input channels, plus the bias, rectified. -/
def G (c : Dev nD) : S32x112x112x128.Idx → EReal := fun i =>
  max ((∑ dy : Fin 3, ∑ dx : Fin 3, ∑ ci : Fin 64,
          xp V c (ix4 (i 0) ⟨(i 1).val + dy.val, by have h1 : (i 1).val < 112 := (i 1).isLt; omega⟩
              ⟨(i 2).val + dx.val, by have h2 : (i 2).val < 112 := (i 2).isLt; omega⟩ ci)
            * wk V c (ix4 dy dx ci (i 3)))
        + bias V c (ix2 0 (i 3))) 0

theorem out_apply (c : Dev nD) (n : Fin 32) (h : Fin 112) (w : Fin 112) (co : Fin 128) :
    (dat (F := Ideal) V c).arrAt 4 cfg4.N (ix4 n h w co)
      = max ((∑ dy : Fin 3, ∑ dx : Fin 3, ∑ ci : Fin 64,
                xp V c (ix4 n ⟨h.val + dy.val, by omega⟩ ⟨w.val + dx.val, by omega⟩ ci) * wk V c (ix4 dy dx ci co))
              + bias V c (ix2 0 co)) 0 := by
  have key := (dat (F := Ideal) V c).arrAt_forall_of_cover 4 (fun i v => v = G V c i) ?hP ?hcover (ix4 n h w co)
  · exact key
  case hP =>
    intro t hf y
    have h0 : (y 0).val < 1 := (y 0).isLt
    have h1 : (y 1).val < 16 := (y 1).isLt
    have h2 : (y 2).val < 112 := (y 2).isLt
    have h3 : (y 3).val < 128 := (y 3).isLt
    have ht := t_lt t
    have ey : (dat (F := Ideal) V c).flushed 4 t y
        = out (iblk V c 0 t) (iblk V c 1 t) (iblk V c 2 t) (iblk V c 3 t)
            (ix4 0 ⟨(y 1).val, h1⟩ ⟨(y 2).val, h2⟩ ⟨(y 3).val, h3⟩) := by
      show (dat (F := Ideal) V c).after 4 t _ = _
      rw [after_4]
      refine congrArg _ (funext fun a => Fin.ext ?_)
      match a with
      | ⟨0, _⟩ => show (y 0).val = 0; omega
      | ⟨1, _⟩ => rfl
      | ⟨2, _⟩ => rfl
      | ⟨3, _⟩ => rfl
    have hemb : ∀ a, ((((cfg4.win 4).blk t).view.emb y) a).val = win4_4.index t a * S1x16x112x128.size a + (y a).val :=
      fun a => Pipeline.Window.rect_emb_val win4_4 t y a
    rw [(idx_facts t).2.2.2.2] at hemb
    have hE : ((cfg4.win 4).blk t).view.emb y
        = ix4 (⟨t.val / 7, by omega⟩ : Fin 32) (⟨t.val % 7 * 16 + (y 1).val, by omega⟩ : Fin 112)
            (⟨(y 2).val, h2⟩ : Fin 112) (⟨(y 3).val, h3⟩ : Fin 128) := by
      refine funext fun a => Fin.ext ?_
      rw [hemb a]
      match a with
      | ⟨0, _⟩ => show t.val / 7 * 1 + (y 0).val = t.val / 7; omega
      | ⟨1, _⟩ => show t.val % 7 * 16 + (y 1).val = t.val % 7 * 16 + (y 1).val; rfl
      | ⟨2, _⟩ => show 0 * 112 + (y 2).val = (y 2).val; omega
      | ⟨3, _⟩ => show 0 * 128 + (y 3).val = (y 3).val; omega
    show (dat (F := Ideal) V c).flushed 4 t y = G V c _
    rw [ey, tile_apply, hE]
    rfl
  case hcover =>
    intro i
    have i0 : (i 0).val < 32 := (i 0).isLt
    have i1 : (i 1).val < 112 := (i 1).isLt
    have i2 : (i 2).val < 112 := (i 2).isLt
    have i3 : (i 3).val < 128 := (i 3).isLt
    have hm : ∀ t : Fin cfg4.N, ((cfg4.win 4).blk t).view.set = (win4_4.rect t).set := fun t => View.set_slice_whole _ _
    refine ⟨⟨(i 0).val * 7 + (i 1).val / 16, by show _ < 224; omega⟩, flush4_4 _, ?_⟩
    rw [hm, Rect.mem_set_unit]
    intro a
    rw [(idx_facts _).2.2.2.2]
    match a with
    | ⟨0, _⟩ =>
      show ((i 0).val * 7 + (i 1).val / 16) / 7 * 1 ≤ (i 0).val ∧ (i 0).val < ((i 0).val * 7 + (i 1).val / 16) / 7 * 1 + 1
      omega
    | ⟨1, _⟩ =>
      show ((i 0).val * 7 + (i 1).val / 16) % 7 * 16 ≤ (i 1).val ∧ (i 1).val < ((i 0).val * 7 + (i 1).val / 16) % 7 * 16 + 16
      omega
    | ⟨2, _⟩ => show 0 * 112 ≤ (i 2).val ∧ (i 2).val < 0 * 112 + 112; omega
    | ⟨3, _⟩ => show 0 * 128 ≤ (i 3).val ∧ (i 3).val < 0 * 128 + 128; omega
end Final

end Cert.KernelIdeal.Reg4
-- ==== Proof.KI.GluePad4.lean ====
/-
  The border of zeros put around the stack of 64 channels at 112 × 112 before region 4: the stretch converts
  the integer 0 to a float and pads the stack, one position in front of rows and columns and the rest behind, to
  128 rows and 128 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_4 (V : Valuation τ sig (Elt Ideal)) (hc : V main_c_5 = constantI S_ 32 0#32)
    (n : Fin 32) (i : Fin 128) (j : Fin 128) (ci : Fin 64) :
    (StableHlo.after hostOps4_1 V main_v24 : FVec Ideal S32x128x128x64 .bf16) (ix4 n i j ci)
      = Cert.Spec.padAt (Cert.Spec.curry4 (V main_v23 : FVec Ideal S32x112x112x64 .bf16)) n i.val j.val ci := by
  have h : StableHlo.after hostOps4_1 V main_v24
      = pad S32x128x128x64 ![0, 1, 1, 0] ![0, 15, 15, 0] ![0, 0, 0, 0] (V main_v23) (sitofp (F := Ideal) .bf16 (V main_c_5))
          pads_S32x112x112x64_S32x128x128x64_000_1150_1150_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW4.lean ====
/-
  The weights of region 4 as the region finds them: the [3, 3, 64, 128] parameter array narrowed to the shorter
  float format, which at the extended reals changes nothing.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_4 (V : Valuation τ sig (Elt Ideal)) (dy dx : Fin 3) (ci : Fin 64) (co : Fin 128) :
    (StableHlo.after hostOps4_2 V main_v25 : FVec Ideal S3x3x64x128 .bf16) (ix4 dy dx ci co)
      = (V main_arg6 : FVec Ideal S3x3x64x128 .f32) (ix4 dy dx ci co) := by
  have h : StableHlo.after hostOps4_2 V main_v25 = truncf (F := Ideal) .bf16 (V main_arg6) bitsLt_bf16_f32 := by
    after_results <;> rfl
  rw [h]; rfl

end Cert.KernelIdeal.Glue

end
-- ==== Proof.KI.RunValCore4.lean ====
import proofs.«143011_g2000502688546152_pallasbulk_1201_3_alg».proof.Proof.KI.Reg4Value
import proofs.«143011_g2000502688546152_pallasbulk_1201_3_alg».proof.Proof.KI.GluePad4
import proofs.«143011_g2000502688546152_pallasbulk_1201_3_alg».proof.Proof.KI.GlueW4
import proofs.«143011_g2000502688546152_pallasbulk_1201_3_alg».proof.Proof.Spec.ArgsOf
import proofs.«143011_g2000502688546152_pallasbulk_1201_3_alg».proof.Proof.Spec.FlatIdx

/-! # Region 4 between its neighbours: a convolution layer of the network

If the stack of images the zero border is put around is `aPrev`, the region leaves the 3×3 convolution of `aPrev` with
the [3, 3, 64, 128] parameter array, plus the bias row, clamped below at zero. The two stretches of host operations in
front of the region put the zero border around the stack and narrow the parameter array's float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_4 (V : Valuation τ sig (Elt Ideal)) : StableHlo.after hostOps4 V main_c_5 = constantI S_ 32 0#32 := by
  after_results <;> rfl

/-- From ANY contents `Wp` in front of the border stretch that hold the integer 0 in the stretch's constant and the
    stack `aPrev` in the array the border is put around: the region's output array, entry by entry. -/
theorem core_4 (Wp : Dev nD → Valuation τ sig (Elt Ideal)) (c : Dev nD)
    (hc : Wp c main_c_5 = constantI S_ 32 0#32)
    (aPrev : Cert.Spec.Act 32 112 112 64)
    (hprev : ∀ (n : Fin 32) (h : Fin 112) (w : Fin 112) (ci : Fin 64),
      (Wp c main_v23 : FVec Ideal S32x112x112x64 .bf16) (ix4 n h w ci) = aPrev n h w ci)
    (n : Fin 32) (h : Fin 112) (w : Fin 112) (co : Fin 128) :
    (Reg4.dat (F := Ideal) (fun c b => StableHlo.after hostOps4_2 (StableHlo.after hostOps4_1 (Wp c)) b) c).arrAt 4 cfg4.N
        (ix4 n h w co)
      = Cert.Spec.convRelu aPrev (Cert.Spec.curryW (Wp c main_arg6 : FVec Ideal S3x3x64x128 .f32))
          (Cert.Spec.curryB (Wp c main_arg7 : FVec Ideal S1x128 .f32)) n h w co := by
  refine (Reg4.out_apply _ c n h w co).trans ?_
  have e9 : StableHlo.after hostOps4_2 (StableHlo.after hostOps4_1 (Wp c)) main_v24
      = StableHlo.after hostOps4_1 (Wp c) main_v24 :=
    StableHlo.after_of_writes_sub hostOps4_2 _ hostOps4_2_writes (by decide)
  have eW : StableHlo.after hostOps4_1 (Wp c) main_arg6 = Wp c main_arg6 :=
    StableHlo.after_of_writes_sub hostOps4_1 _ hostOps4_1_writes (by decide)
  have eB : StableHlo.after hostOps4_2 (StableHlo.after hostOps4_1 (Wp c)) main_arg7 = Wp c main_arg7 :=
    (StableHlo.after_of_writes_sub hostOps4_2 _ hostOps4_2_writes (by decide)).trans
      (StableHlo.after_of_writes_sub hostOps4_1 _ hostOps4_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps4_2 (StableHlo.after hostOps4_1 (Wp c)) main_v24 : FVec Ideal S32x128x128x64 .bf16) _ = _
      rw [e9, Glue.pad_4 (Wp c) hc]
      refine congrArg (fun z : Cert.Spec.Act 32 112 112 64 => Cert.Spec.padAt z n _ _ ci) ?_
      funext n' h' w' ci'
      exact hprev n' h' w' ci'
    · show (StableHlo.after hostOps4_2 (StableHlo.after hostOps4_1 (Wp c)) main_v25 : FVec Ideal S3x3x64x128 .bf16) _ = _
      rw [Glue.wk_4, eW]
  · show (StableHlo.after hostOps4_2 (StableHlo.after hostOps4_1 (Wp c)) main_arg7 : FVec Ideal S1x128 .f32) _ = _
    rw [eB]

end Cert.KernelIdeal.RunVal
-- ==== Proof.KI.RunVal4.lean ====
import proofs.«143011_g2000502688546152_pallasbulk_1201_3_alg».proof.Proof.KI.RunChainAt
import proofs.«143011_g2000502688546152_pallasbulk_1201_3_alg».proof.Proof.KI.RunValCore4

/-! # Region 4 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_4 (c : Dev nD) (aPrev : Cert.Spec.Act 32 112 112 64)
    (hprev : ∀ (n : Fin 32) (h : Fin 112) (w : Fin 112) (ci : Fin 64),
      (W13 m c main_v23 : FVec Ideal S32x112x112x64 .bf16) (ix4 n h w ci) = aPrev n h w ci) :
    ∀ (n : Fin 32) (h : Fin 112) (w : Fin 112) (co : Fin 128),
      (W16 m c main_v26 : FVec Ideal S32x112x112x128 .bf16) (ix4 n h w co)
        = Cert.Spec.convRelu aPrev
            (Cert.Spec.curryW (m ((c : Thread nD τ).loc main_arg6) : FVec Ideal S3x3x64x128 .f32))
            (Cert.Spec.curryB (m ((c : Thread nD τ).loc main_arg7) : FVec Ideal S1x128 .f32)) n h w co := by
  intro n h w co
  have hW : W13 m c main_arg6 = m ((c : Thread nD τ).loc main_arg6) := W13_arg m c _ (by decide)
  have hB : W13 m c main_arg7 = m ((c : Thread nD τ).loc main_arg7) := W13_arg m c _ (by decide)
  rw [W16_self, ← hW, ← hB]
  have hc : W13 m c main_c_5 = constantI S_ 32 0#32 := RunVal.cst_4 (W12 m c)
  exact RunVal.core_4 (W13 m) c hc aPrev hprev n h w co

/-- The same from the contents one stretch earlier: the stretch in between writes only the border's constant. -/
theorem val_4_from (c : Dev nD) (aPrev : Cert.Spec.Act 32 112 112 64)
    (hprev : ∀ (n : Fin 32) (h : Fin 112) (w : Fin 112) (ci : Fin 64),
      (W12 m c main_v23 : FVec Ideal S32x112x112x64 .bf16) (ix4 n h w ci) = aPrev n h w ci) :
    ∀ (n : Fin 32) (h : Fin 112) (w : Fin 112) (co : Fin 128),
      (W16 m c main_v26 : FVec Ideal S32x112x112x128 .bf16) (ix4 n h w co)
        = Cert.Spec.convRelu aPrev
            (Cert.Spec.curryW (m ((c : Thread nD τ).loc main_arg6) : FVec Ideal S3x3x64x128 .f32))
            (Cert.Spec.curryB (m ((c : Thread nD τ).loc main_arg7) : FVec Ideal S1x128 .f32)) n h w co :=
  val_4 m c aPrev fun n h w ci => by
    rw [W13_of m c main_v23 (by decide)]
    exact hprev n h w ci

end Cert.KernelIdeal.Run
-- ==== Proof.KI.Reg5Pipe.lean ====
import proofs.«143011_g2000502688546152_pallasbulk_1201_3_alg».proof.Proof.KI.Reg5
import Idealize.ShloMosaic.Lib.Pipeline.Value
import Idealize.ShloMosaic.Lib.ValueIdx
import Idealize.ShloMosaic.PureOps.Ideal

/-!
  The 3×3 convolution 128 → 128 on 112×112 images (pallas region 5) at the ideal float model, from the tile to the array:
  where each window's block sits in its array (the two row blocks are consecutive 16-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg5

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 128, 128, 128] (the array of windows 0 and 1), the weights [3, 384, 128] and the bias [1, 128]
    as the region finds them. -/
abbrev xp (c : Dev nD) : Vec Ideal S32x128x128x128 .bf16 := V c (Pipeline.arrRef spec5 0)
abbrev wk (c : Dev nD) : Vec Ideal S3x384x128 .bf16 := V c (Pipeline.arrRef spec5 2)
abbrev bias (c : Dev nD) : Vec Ideal S1x128 .f32 := V c (Pipeline.arrRef spec5 3)

/-- The output array [32, 112, 112, 128] after the region. -/
abbrev yOut (c : Dev nD) : Vec Ideal S32x112x112x128 .bf16 := (dat (F := Ideal) V c).arrAt 4 cfg5.N

/-- Pixel `(hh, ww)`, channel `ci` of the 32-row padded image the two row blocks make up. -/
def pix (xa xb : Vec Ideal S1x16x128x128 .bf16) (hh : Fin 32) (ww : Fin 128) (ci : Fin 128) : EReal :=
  if h : hh.val < 16 then xa (ix4 0 ⟨hh.val, h⟩ ww ci) else xb (ix4 0 ⟨hh.val - 16, by omega⟩ ww ci)

/-! ## Where the windows' blocks sit -/

/-- The block indices along the grid's row-major order, decided over the grid: position t is image t / 7, row tile
    t % 7; the second row window is one tile further down; weights and bias do not move; the output tile is the first
    row window's. -/
theorem index_upper : ∀ t : Fin cfg5.N, win5_0.index t (0 : Fin 4) = t.val / 7 ∧ win5_0.index t (1 : Fin 4) = t.val % 7
    ∧ win5_0.index t (2 : Fin 4) = 0 ∧ win5_0.index t (3 : Fin 4) = 0 :=
  (by decide +kernel : ∀ t : Fin grid5.N, win5_0.index t (0 : Fin 4) = t.val / 7 ∧ win5_0.index t (1 : Fin 4) = t.val % 7
    ∧ win5_0.index t (2 : Fin 4) = 0 ∧ win5_0.index t (3 : Fin 4) = 0)
theorem index_lower : ∀ t : Fin cfg5.N, win5_1.index t (0 : Fin 4) = t.val / 7 ∧ win5_1.index t (1 : Fin 4) = t.val % 7 + 1
    ∧ win5_1.index t (2 : Fin 4) = 0 ∧ win5_1.index t (3 : Fin 4) = 0 :=
  (by decide +kernel : ∀ t : Fin grid5.N, win5_1.index t (0 : Fin 4) = t.val / 7 ∧ win5_1.index t (1 : Fin 4) = t.val % 7 + 1
    ∧ win5_1.index t (2 : Fin 4) = 0 ∧ win5_1.index t (3 : Fin 4) = 0)
theorem index_weights : ∀ t : Fin cfg5.N, win5_2.index t (0 : Fin 3) = 0 ∧ win5_2.index t (1 : Fin 3) = 0 ∧ win5_2.index t (2 : Fin 3) = 0 :=
  (by decide +kernel : ∀ t : Fin grid5.N, win5_2.index t (0 : Fin 3) = 0 ∧ win5_2.index t (1 : Fin 3) = 0 ∧ win5_2.index t (2 : Fin 3) = 0)
theorem index_bias : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)
theorem index_out : ∀ t : Fin cfg5.N, win5_4.index t (0 : Fin 4) = t.val / 7 ∧ win5_4.index t (1 : Fin 4) = t.val % 7
    ∧ win5_4.index t (2 : Fin 4) = 0 ∧ win5_4.index t (3 : Fin 4) = 0 :=
  (by decide +kernel : ∀ t : Fin grid5.N, win5_4.index t (0 : Fin 4) = t.val / 7 ∧ win5_4.index t (1 : Fin 4) = t.val % 7
    ∧ win5_4.index t (2 : Fin 4) = 0 ∧ win5_4.index t (3 : Fin 4) = 0)

/-- Row hh of the upper row block is row 16 · (row tile) + hh of the padded image. -/
theorem upper_at (c : Dev nD) (t : Fin cfg5.N) (hh : Fin 16) (ww : Fin 128) (ci : Fin 128) (n : Fin 32) (row : Fin 128)
    (hn : n.val = t.val / 7) (hrow : row.val = t.val % 7 * 16 + hh.val) :
    blk V c 0 t (ix4 (0 : Fin 1) hh ww ci) = xp V c (ix4 n row ww ci) := by
  obtain ⟨e0, e1, e2, e3⟩ := index_upper t
  show V c (Pipeline.arrRef spec5 0) (((cfg5.win 0).blk t).view.emb (ix4 (0 : Fin 1) hh ww ci)) = V c (Pipeline.arrRef spec5 0) (ix4 n row ww ci)
  refine congrArg _ (funext fun a => Fin.ext ?_)
  match a with
  | ⟨0, _⟩ => show win5_0.index t (0 : Fin 4) * 1 + 1 * 0 = n.val; omega
  | ⟨1, _⟩ => show win5_0.index t (1 : Fin 4) * 16 + 1 * hh.val = row.val; omega
  | ⟨2, _⟩ => show win5_0.index t (2 : Fin 4) * 128 + 1 * ww.val = ww.val; omega
  | ⟨3, _⟩ => show win5_0.index t (3 : Fin 4) * 128 + 1 * ci.val = ci.val; omega

/-- Row hh of the lower row block is row 16 · (row tile + 1) + hh of the same image: the halo. -/
theorem lower_at (c : Dev nD) (t : Fin cfg5.N) (hh : Fin 16) (ww : Fin 128) (ci : Fin 128) (n : Fin 32) (row : Fin 128)
    (hn : n.val = t.val / 7) (hrow : row.val = (t.val % 7 + 1) * 16 + hh.val) :
    blk V c 1 t (ix4 (0 : Fin 1) hh ww ci) = xp V c (ix4 n row ww ci) := by
  obtain ⟨e0, e1, e2, e3⟩ := index_lower t
  show V c (Pipeline.arrRef spec5 1) (((cfg5.win 1).blk t).view.emb (ix4 (0 : Fin 1) hh ww ci)) = V c (Pipeline.arrRef spec5 0) (ix4 n row ww ci)
  refine congrArg _ (funext fun a => Fin.ext ?_)
  match a with
  | ⟨0, _⟩ => show win5_1.index t (0 : Fin 4) * 1 + 1 * 0 = n.val; omega
  | ⟨1, _⟩ => show win5_1.index t (1 : Fin 4) * 16 + 1 * hh.val = row.val; omega
  | ⟨2, _⟩ => show win5_1.index t (2 : Fin 4) * 128 + 1 * ww.val = ww.val; omega
  | ⟨3, _⟩ => show win5_1.index t (3 : Fin 4) * 128 + 1 * ci.val = ci.val; omega

/-- So the 32 rows the two blocks make up are rows 16 · (row tile) … of the padded image. -/
theorem pix_at (c : Dev nD) (t : Fin cfg5.N) (hh : Fin 32) (ww : Fin 128) (ci : Fin 128) (n : Fin 32) (row : Fin 128)
    (hn : n.val = t.val / 7) (hrow : row.val = t.val % 7 * 16 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 32 := hh.isLt
    exact lower_at V c t ⟨hh.val - 16, by omega⟩ ww ci n row hn (by show row.val = (t.val % 7 + 1) * 16 + (hh.val - 16); omega)

/-- The weights' block is the whole weight array, -/
theorem weights_at (c : Dev nD) (t : Fin cfg5.N) (y : S3x384x128.Idx) : blk V c 2 t y = wk V c y := by
  obtain ⟨e0, e1, e2⟩ := index_weights t
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 3) * 3 + 1 * (y 0).val = (y 0).val; omega
  | ⟨1, _⟩ => show win5_2.index t (1 : Fin 3) * 384 + 1 * (y 1).val = (y 1).val; omega
  | ⟨2, _⟩ => show win5_2.index t (2 : Fin 3) * 128 + 1 * (y 2).val = (y 2).val; omega

/-- and the bias's the whole bias row. -/
theorem bias_at (c : Dev nD) (t : Fin cfg5.N) (y : S1x128.Idx) : blk V c 3 t y = bias V c y := by
  obtain ⟨e0, e1⟩ := index_bias t
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x112x112x128.Idx → EReal := fun i =>
  max ((∑ dy : Fin 3, ∑ dx : Fin 3, ∑ ci : Fin 128,
          xp V c (ix4 (⟨(i 0).val, (i 0).isLt⟩ : Fin 32) ⟨(i 1).val + dy.val, by have h1 : (i 1).val < 112 := (i 1).isLt; omega⟩
              ⟨(i 2).val + dx.val, by have h2 : (i 2).val < 112 := (i 2).isLt; omega⟩ ci)
            * wk V c (ix3 dx ⟨dy.val * 128 + ci.val, by omega⟩ (⟨(i 3).val, (i 3).isLt⟩ : Fin 128)))
        + bias V c (ix2 0 (⟨(i 3).val, (i 3).isLt⟩ : Fin 128))) 0

/-- An index of the output array is in position t's tile iff each coordinate is in the tile's range on its axis. -/
theorem mem_tile (t : Fin cfg5.N) (i : S32x112x112x128.Idx) :
    i ∈ ((cfg5.win 4).blk t).view.set ↔ ∀ a : Fin 4, win5_4.index t a * S1x16x112x128.size a ≤ (i a).val ∧ (i a).val < win5_4.index t a * S1x16x112x128.size a + S1x16x112x128.size a := by
  show i ∈ ((View.whole (Pipeline.arrRef spec5 4)).slice (win5_4.rect t)).set ↔ _
  rw [View.set_slice_whole, Rect.mem_set_unit]
  exact Iff.rfl

section FromTheTile

-- what the body leaves in the tile, index by index over its four blocks: the hypothesis this section is stated under
variable (htile : ∀ (xa xb : Vec Ideal S1x16x128x128 .bf16) (wk : Vec Ideal S3x384x128 .bf16) (b : Vec Ideal S1x128 .f32)
    (h : Fin 16) (w : Fin 112) (co : Fin 128),
    tile (F := Ideal) xa xb wk b (ix4 0 h w co)
      = max ((∑ dy : Fin 3, ∑ dx : Fin 3, ∑ ci : Fin 128,
                pix xa xb ⟨h.val + dy.val, by omega⟩ ⟨w.val + dx.val, by omega⟩ ci
                  * wk (ix3 dx ⟨dy.val * 128 + ci.val, by omega⟩ co))
              + b (ix2 0 co)) 0)

include htile

/-- The tile at grid position t, index by index over the region's arrays. -/
theorem tile_at (c : Dev nD) (t : Fin cfg5.N) (h : Fin 16) (w : Fin 112) (co : Fin 128) (n : Fin 32) (row : Fin 112)
    (hn : n.val = t.val / 7) (hrow : row.val = t.val % 7 * 16 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 16 := h.isLt
  rw [weights_at, pix_at V c t _ _ ci n ⟨row.val + dy.val, by omega⟩ hn (by show row.val + dy.val = t.val % 7 * 16 + (h.val + dy.val); omega)]

/-- What grid position t writes back is its tile of `conv`. -/
theorem flushed_eq (c : Dev nD) (t : Fin cfg5.N) (hf : (cfg5.win 4).flush t = true) :
    (dat (F := Ideal) V c).flushed 4 t = ((cfg5.win 4).blk t).view.read (Elt Ideal) (conv V c) := by
  have hN : cfg5.N = 32 * 7 := N_5
  have ht : t.val < 32 * 7 := lt_of_lt_of_eq t.isLt hN
  obtain ⟨e0, e1, e2, e3⟩ := index_out t
  show (cfg5.win 4).cut (grid5.coords t) ((dat (F := Ideal) V c).after 4 t) = _
  rw [after_4]
  funext y
  have y0 : (y 0).val < 1 := (y 0).isLt
  have y1 : (y 1).val < 16 := (y 1).isLt
  have y2 : (y 2).val < 112 := (y 2).isLt
  have y3 : (y 3).val < 128 := (y 3).isLt
  have ey : y = ix4 (0 : Fin 1) (⟨(y 1).val, y1⟩ : Fin 16) (⟨(y 2).val, y2⟩ : Fin 112) (⟨(y 3).val, y3⟩ : Fin 128) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg5.win 4).blk t).view.emb y)
  have hE : ((cfg5.win 4).blk t).view.emb y
      = ix4 (⟨t.val / 7, by omega⟩ : Fin 32) (⟨t.val % 7 * 16 + (y 1).val, by omega⟩ : Fin 112) (⟨(y 2).val, y2⟩ : Fin 112) (⟨(y 3).val, y3⟩ : Fin 128) := by
    refine funext fun a => Fin.ext ?_
    match a with
    | ⟨0, _⟩ => show win5_4.index t (0 : Fin 4) * 1 + 1 * (y 0).val = t.val / 7; omega
    | ⟨1, _⟩ => show win5_4.index t (1 : Fin 4) * 16 + 1 * (y 1).val = t.val % 7 * 16 + (y 1).val; omega
    | ⟨2, _⟩ => show win5_4.index t (2 : Fin 4) * 112 + 1 * (y 2).val = (y 2).val; omega
    | ⟨3, _⟩ => show win5_4.index t (3 : Fin 4) * 128 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 112 := (i 1).isLt
    have i2 : (i 2).val < 112 := (i 2).isLt
    have i3 : (i 3).val < 128 := (i 3).isLt
    have hN : cfg5.N = 32 * 7 := N_5
    refine ⟨⟨(i 0).val * 7 + (i 1).val / 16, by rw [hN]; omega⟩, flush5_4 _, ?_⟩
    rw [mem_tile]
    obtain ⟨e0, e1, e2, e3⟩ := index_out ⟨(i 0).val * 7 + (i 1).val / 16, by rw [hN]; omega⟩
    intro a
    match a with
    | ⟨0, _⟩ => show win5_4.index _ (0 : Fin 4) * 1 ≤ (i 0).val ∧ (i 0).val < win5_4.index _ (0 : Fin 4) * 1 + 1; rw [e0]; dsimp only; omega
    | ⟨1, _⟩ => show win5_4.index _ (1 : Fin 4) * 16 ≤ (i 1).val ∧ (i 1).val < win5_4.index _ (1 : Fin 4) * 16 + 16; rw [e1]; dsimp only; omega
    | ⟨2, _⟩ => show win5_4.index _ (2 : Fin 4) * 112 ≤ (i 2).val ∧ (i 2).val < win5_4.index _ (2 : Fin 4) * 112 + 112; rw [e2]; omega
    | ⟨3, _⟩ => show win5_4.index _ (3 : Fin 4) * 128 ≤ (i 3).val ∧ (i 3).val < win5_4.index _ (3 : Fin 4) * 128 + 128; rw [e3]; omega

/-- THE REGION'S OUTPUT, element by element: sum over the vertical tap `dy`, the horizontal tap `dx` and the input
    channel `ci`. -/
theorem out_of_tile (c : Dev nD) (n : Fin 32) (h : Fin 112) (w : Fin 112) (co : Fin 128) :
    yOut V c (ix4 n h w co)
      = max ((∑ dy : Fin 3, ∑ dx : Fin 3, ∑ ci : Fin 128,
                xp V c (ix4 n ⟨h.val + dy.val, by omega⟩ ⟨w.val + dx.val, by omega⟩ ci)
                  * wk V c (ix3 dx ⟨dy.val * 128 + ci.val, by omega⟩ co))
              + bias V c (ix2 0 co)) 0 := by
  rw [final V htile c]
  rfl

end FromTheTile

end Cert.KernelIdeal.Reg5

end
-- ==== Proof.KI.Reg5Value.lean ====
/-
  The 3×3 convolution 128 → 128 on 112×112 images (kernel-side program, pallas region 5) at the ideal float model.
  The arithmetic of one grid point read index by index — the slab of stacked row blocks, the three lane-concatenated
  operands (one per horizontal tap), the three products of contraction depth 384, the bias-added, rectified tile —
  regrouped as the triple sum over the vertical tap, the horizontal tap and the input channel; and with the blocks
  read off the region's arrays, the output array after the last grid point, element by element, the weight array
  [3, 384, 128] read at (dx, dy·128 + ci, co).
-/
import proofs.«143011_g2000502688546152_pallasbulk_1201_3_alg».proof.Proof.KI.Reg5Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg5

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 16, 128, 128] laid out as 16 · 128 pixel rows of 128 channels. -/
def rows (x : Vec F S1x16x128x128 .bf16) : FVec F S2048x128 .bf16 :=
  shapeCast S2048x128 (shapeCast S16x128x128 x Gen.shapeCasts_S1x16x128x128_S16x128x128) Gen.shapeCasts_S16x128x128_S2048x128

/-- Both row blocks stacked, then 128 zero rows: 4224 pixel rows. -/
def slab (xa xb : Vec F S1x16x128x128 .bf16) : FVec F S4224x128 .bf16 :=
  concatenate S4224x128 0 [⟨S2048x128, rows xa⟩, ⟨S2048x128, rows xb⟩, ⟨S128x128, broadcast S128x128 (Scalar.ofBits .bf16 0x0000#16)⟩]
    Gen.concatenates_S2048x128_S2048x128_S128x128_S4224x128_d0

/-- Three windows of 2048 rows of a pixel-row matrix, at row offsets 0, 128, 256 (one image row apart), side by side:
    depth 3 · 128. -/
def lanes {M : Nat} (T : (⟨2, ![M, 128]⟩ : Shape).Idx → F .bf16)
    (h0 : (⟨2, ![M, 128]⟩ : Shape).Slices ![0, 0] S2048x128) (h1 : (⟨2, ![M, 128]⟩ : Shape).Slices ![128, 0] S2048x128)
    (h2 : (⟨2, ![M, 128]⟩ : Shape).Slices ![256, 0] S2048x128) : FVec F S2048x384 .bf16 :=
  concatenate S2048x384 1 [⟨S2048x128, extractStridedSlice S2048x128 ![0, 0] T h0⟩, ⟨S2048x128, extractStridedSlice S2048x128 ![128, 0] T h1⟩,
    ⟨S2048x128, extractStridedSlice S2048x128 ![256, 0] T h2⟩] Gen.concatenates_S2048x128_S2048x128_S2048x128_S2048x384_d1

/-- The operand of horizontal tap 0, 1, 2: the slab shifted by that many pixel rows, then `lanes`. -/
def lhs0 (S : FVec F S4224x128 .bf16) : FVec F S2048x384 .bf16 :=
  lanes (M := 4224) S Gen.slices_S4224x128_o0_0_S2048x128 Gen.slices_S4224x128_o128_0_S2048x128 Gen.slices_S4224x128_o256_0_S2048x128
def lhs1 (S : FVec F S4224x128 .bf16) : FVec F S2048x384 .bf16 :=
  lanes (M := 4223) (extractStridedSlice S4223x128 ![1, 0] S Gen.slices_S4224x128_o1_0_S4223x128)
    Gen.slices_S4223x128_o0_0_S2048x128 Gen.slices_S4223x128_o128_0_S2048x128 Gen.slices_S4223x128_o256_0_S2048x128
def lhs2 (S : FVec F S4224x128 .bf16) : FVec F S2048x384 .bf16 :=
  lanes (M := 4222) (extractStridedSlice S4222x128 ![2, 0] S Gen.slices_S4224x128_o2_0_S4222x128)
    Gen.slices_S4222x128_o0_0_S2048x128 Gen.slices_S4222x128_o128_0_S2048x128 Gen.slices_S4222x128_o256_0_S2048x128

/-- One product: an operand times a weight plane [1, 384, 128], into zero. -/
def prod (L : FVec F S2048x384 .bf16) (w : Vec F S1x384x128 .bf16) : FVec F S2048x128 .f32 :=
  matmul dot_S2048x384_S384x128_S2048x128_1_0_0_1_n_n none L (shapeCast S384x128 w Gen.shapeCasts_S1x384x128_S384x128)
    (constant S2048x128 .f32 0x00000000#32)

/-- The printed accumulation is zero plus the three products, in tap order. -/
theorem pay2_eq (v0 v3 : Vec F S1x16x128x128 .bf16) (w0 w1 w2 : Vec F S1x384x128 .bf16) :
    k5_pay2 v0 v3 w0 w1 w2
      = addf (addf (addf (broadcast S2048x128 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 128 + ci` is the matrix at row `r + 128 · dy`, channel `ci`. -/
theorem lanes_apply {M : Nat} (hM : 2304 ≤ M) (T : (⟨2, ![M, 128]⟩ : Shape).Idx → Ideal .bf16)
    (h0 : (⟨2, ![M, 128]⟩ : Shape).Slices ![0, 0] S2048x128) (h1 : (⟨2, ![M, 128]⟩ : Shape).Slices ![128, 0] S2048x128)
    (h2 : (⟨2, ![M, 128]⟩ : Shape).Slices ![256, 0] S2048x128) (r : Fin 2048) (dy : Fin 3) (ci : Fin 128) :
    lanes (F := Ideal) T h0 h1 h2 (ix2 r ⟨dy.val * 128 + ci.val, by omega⟩) = T (ix2 ⟨r.val + 128 * dy.val, by omega⟩ ci) := by
  unfold lanes
  match dy with
  | ⟨0, _⟩ =>
    refine Eq.trans (concatenate_apply_piece (t := S2048x384) 1 _ _ _ 0 ?_ S2048x128 (extractStridedSlice S2048x128 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 128 + ci.val; omega
    · exact extractStridedSlice_apply _ _ _ _ _ (fun a => by
        match a with
        | ⟨0, _⟩ => show r.val + 128 * 0 = 0 + r.val; omega
        | ⟨1, _⟩ => show ci.val = 0 + ci.val; omega)
  | ⟨1, _⟩ =>
    refine Eq.trans (concatenate_apply_piece (t := S2048x384) 1 _ _ _ 1 ?_ S2048x128 (extractStridedSlice S2048x128 ![128, 0] T h1) ?_ ?_ 128 ?_ (ix2 r ci) ?_ ?_) ?_
    · show _ < 3; omega
    · rfl
    · rfl
    · rfl
    · intro b hb
      match b with
      | ⟨0, _⟩ => rfl
      | ⟨1, _⟩ => exact absurd rfl hb
    · show 128 + ci.val = 1 * 128 + ci.val; omega
    · exact extractStridedSlice_apply _ _ _ _ _ (fun a => by
        match a with
        | ⟨0, _⟩ => show r.val + 128 * 1 = 128 + r.val; omega
        | ⟨1, _⟩ => show ci.val = 0 + ci.val; omega)
  | ⟨2, _⟩ =>
    refine Eq.trans (concatenate_apply_piece (t := S2048x384) 1 _ _ _ 2 ?_ S2048x128 (extractStridedSlice S2048x128 ![256, 0] T h2) ?_ ?_ 256 ?_ (ix2 r ci) ?_ ?_) ?_
    · show _ < 3; omega
    · rfl
    · rfl
    · rfl
    · intro b hb
      match b with
      | ⟨0, _⟩ => rfl
      | ⟨1, _⟩ => exact absurd rfl hb
    · show 256 + ci.val = 2 * 128 + ci.val; omega
    · exact extractStridedSlice_apply _ _ _ _ _ (fun a => by
        match a with
        | ⟨0, _⟩ => show r.val + 128 * 2 = 256 + r.val; omega
        | ⟨1, _⟩ => show ci.val = 0 + ci.val; omega)

/-- A row block as pixel rows: row `hh · 128 + ww` is pixel `(hh, ww)`. -/
theorem rows_apply (x : Vec Ideal S1x16x128x128 .bf16) (hh : Fin 16) (ww : Fin 128) (ci : Fin 128) :
    rows (F := Ideal) x (ix2 ⟨hh.val * 128 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 16 + hh.val) * 128 + ww.val) * 128 + ci.val = (hh.val * 128 + ww.val) * 128 + ci.val
    omega

/-- The slab at pixel `(hh, ww)` of the 32-row padded image: the upper block for the first 16 rows, else the lower block. -/
theorem slab_upper (xa xb : Vec Ideal S1x16x128x128 .bf16) (hh : Fin 16) (ww : Fin 128) (ci : Fin 128) :
    slab (F := Ideal) xa xb (ix2 ⟨hh.val * 128 + ww.val, by omega⟩ ci) = xa (ix4 0 hh ww ci) := by
  unfold slab
  refine Eq.trans (concatenate_apply_piece (t := S4224x128) 0 _ _ _ 0 ?_ S2048x128 (rows xa) ?_ ?_ 0 ?_ (ix2 ⟨hh.val * 128 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 128 + ww.val) = hh.val * 128 + ww.val; omega
  · exact rows_apply xa hh ww ci

theorem slab_lower (xa xb : Vec Ideal S1x16x128x128 .bf16) (hh : Fin 16) (ww : Fin 128) (ci : Fin 128) :
    slab (F := Ideal) xa xb (ix2 ⟨(16 + hh.val) * 128 + ww.val, by omega⟩ ci) = xb (ix4 0 hh ww ci) := by
  unfold slab
  refine Eq.trans (concatenate_apply_piece (t := S4224x128) 0 _ _ _ 1 ?_ S2048x128 (rows xb) ?_ ?_ 2048 ?_ (ix2 ⟨hh.val * 128 + ww.val, by omega⟩ ci) ?_ ?_) ?_
  · show _ < 3; omega
  · rfl
  · rfl
  · rfl
  · intro b hb
    match b with
    | ⟨0, _⟩ => exact absurd rfl hb
    | ⟨1, _⟩ => rfl
  · show 2048 + (hh.val * 128 + ww.val) = (16 + hh.val) * 128 + ww.val; omega
  · exact rows_apply xb hh ww ci

/-- The three operands at pixel row `r`, depth `dy · 128 + ci`: the slab `dx` pixel rows and `dy` image rows further on. -/
theorem lhs0_apply (S : FVec Ideal S4224x128 .bf16) (r : Fin 2048) (dy : Fin 3) (ci : Fin 128) :
    lhs0 (F := Ideal) S (ix2 r ⟨dy.val * 128 + ci.val, by omega⟩) = S (ix2 ⟨r.val + 128 * dy.val, by omega⟩ ci) := by
  unfold lhs0; exact lanes_apply (by decide) _ _ _ _ r dy ci

theorem lhs1_apply (S : FVec Ideal S4224x128 .bf16) (r : Fin 2048) (dy : Fin 3) (ci : Fin 128) :
    lhs1 (F := Ideal) S (ix2 r ⟨dy.val * 128 + ci.val, by omega⟩) = S (ix2 ⟨1 + (r.val + 128 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S4224x128 .bf16) (r : Fin 2048) (dy : Fin 3) (ci : Fin 128) :
    lhs2 (F := Ideal) S (ix2 r ⟨dy.val * 128 + ci.val, by omega⟩) = S (ix2 ⟨2 + (r.val + 128 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S2048x384_S384x128_S2048x128_1_0_0_1_n_n

theorem DD_lhs0 (j : S2048x128.Idx) (k : DD.contr.Idx) : (DD.lhsIdx j k 0 : ℕ) = j 0 := by
  simp [DotDims.lhsIdx, DD, dot_S2048x384_S384x128_S2048x128_1_0_0_1_n_n]; rfl
theorem DD_lhs1 (j : S2048x128.Idx) (k : DD.contr.Idx) : (DD.lhsIdx j k 1 : ℕ) = k ⟨0, by decide⟩ := by
  simp [DotDims.lhsIdx, DD, dot_S2048x384_S384x128_S2048x128_1_0_0_1_n_n]; rfl
theorem DD_rhs0 (j : S2048x128.Idx) (k : DD.contr.Idx) : (DD.rhsIdx j k 0 : ℕ) = k ⟨0, by decide⟩ := by
  simp [DotDims.rhsIdx, DD, dot_S2048x384_S384x128_S2048x128_1_0_0_1_n_n]; rfl
theorem DD_rhs1 (j : S2048x128.Idx) (k : DD.contr.Idx) : (DD.rhsIdx j k 1 : ℕ) = j 1 := by
  simp [DotDims.rhsIdx, DD, dot_S2048x384_S384x128_S2048x128_1_0_0_1_n_n]; rfl

/-- The contraction index is its one coordinate, below 384. -/
def cEq : DD.contr.Idx ≃ Fin 384 := contrEquiv1 DD 384 rfl rfl

/-- One product at pixel row `r`, output channel `co`: the sum over the depth of operand times weight plane. -/
theorem prod_apply (L : FVec Ideal S2048x384 .bf16) (w : Vec Ideal S1x384x128 .bf16) (r : Fin 2048) (co : Fin 128) :
    prod (F := Ideal) L w (ix2 r co) = ∑ k : Fin 384, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S384x128.rowMajor (DD.rhsIdx (ix2 r co) k)).val = (S1x384x128.rowMajor (ix3 0 (cEq k) co)).val := by
    rw [Shape.rowMajor_val_two, Shape.rowMajor_val_three, DD_rhs0, DD_rhs1]
    show (k ⟨0, by decide⟩).val * 128 + co.val = ((0 : ℕ) * 384 + (k ⟨0, by decide⟩).val) * 128 + co.val
    omega
  rw [hl, shapeCast_apply _ _ _ (ix3 0 (cEq k) co) hr.symm]

/-! ## The accumulation and the tile at an index -/

theorem slab_pix (xa xb : Vec Ideal S1x16x128x128 .bf16) (hh : Fin 32) (ww : Fin 128) (ci : Fin 128) :
    slab (F := Ideal) xa xb (ix2 ⟨hh.val * 128 + ww.val, by omega⟩ ci) = pix xa xb hh ww ci := by
  unfold pix
  split
  · rename_i h
    exact slab_upper xa xb ⟨hh.val, h⟩ ww ci
  · rename_i h
    have e : (⟨hh.val * 128 + ww.val, by omega⟩ : Fin 4224) = ⟨(16 + (hh.val - 16)) * 128 + ww.val, by omega⟩ :=
      Fin.ext (by show hh.val * 128 + ww.val = (16 + (hh.val - 16)) * 128 + ww.val; omega)
    rw [e]
    exact slab_lower xa xb ⟨hh.val - 16, by omega⟩ ww ci

/-- The operand of horizontal tap `dx`. -/
def lhs (S : FVec Ideal S4224x128 .bf16) (dx : Fin 3) : FVec Ideal S2048x384 .bf16 :=
  match dx with
  | ⟨0, _⟩ => lhs0 S
  | ⟨1, _⟩ => lhs1 S
  | ⟨2, _⟩ => lhs2 S

/-- At valid pixel `(h, w)`, depth `dy · 128 + ci`, tap `dx`'s operand is the padded image at `(h + dy, w + dx)`. -/
theorem tap_apply (xa xb : Vec Ideal S1x16x128x128 .bf16) (dx : Fin 3) (h : Fin 16) (w : Fin 112) (dy : Fin 3) (ci : Fin 128) :
    lhs (slab xa xb) dx (ix2 ⟨h.val * 128 + w.val, by omega⟩ ⟨dy.val * 128 + ci.val, by omega⟩)
      = pix xa xb ⟨h.val + dy.val, by omega⟩ ⟨w.val + dx.val, by omega⟩ ci := by
  match dx with
  | ⟨0, _⟩ =>
    refine (lhs0_apply _ ⟨h.val * 128 + w.val, by omega⟩ dy ci).trans ?_
    have e : (⟨h.val * 128 + w.val + 128 * dy.val, by omega⟩ : Fin 4224) = ⟨(h.val + dy.val) * 128 + (w.val + 0), by omega⟩ :=
      Fin.ext (by show h.val * 128 + w.val + 128 * dy.val = (h.val + dy.val) * 128 + (w.val + 0); omega)
    rw [e]
    exact slab_pix xa xb ⟨h.val + dy.val, by omega⟩ ⟨w.val + 0, by omega⟩ ci
  | ⟨1, _⟩ =>
    refine (lhs1_apply _ ⟨h.val * 128 + w.val, by omega⟩ dy ci).trans ?_
    have e : (⟨1 + (h.val * 128 + w.val + 128 * dy.val), by omega⟩ : Fin 4224) = ⟨(h.val + dy.val) * 128 + (w.val + 1), by omega⟩ :=
      Fin.ext (by show 1 + (h.val * 128 + w.val + 128 * dy.val) = (h.val + dy.val) * 128 + (w.val + 1); omega)
    rw [e]
    exact slab_pix xa xb ⟨h.val + dy.val, by omega⟩ ⟨w.val + 1, by omega⟩ ci
  | ⟨2, _⟩ =>
    refine (lhs2_apply _ ⟨h.val * 128 + w.val, by omega⟩ dy ci).trans ?_
    have e : (⟨2 + (h.val * 128 + w.val + 128 * dy.val), by omega⟩ : Fin 4224) = ⟨(h.val + dy.val) * 128 + (w.val + 2), by omega⟩ :=
      Fin.ext (by show 2 + (h.val * 128 + w.val + 128 * dy.val) = (h.val + dy.val) * 128 + (w.val + 2); omega)
    rw [e]
    exact slab_pix xa xb ⟨h.val + dy.val, by omega⟩ ⟨w.val + 2, by omega⟩ ci

/-- A sum over the depth 384 is a sum over the vertical tap and the channel. -/
theorem sum_depth (f : Fin 384 → EReal) :
    ∑ k : Fin 384, f k = ∑ dy : Fin 3, ∑ ci : Fin 128, f ⟨dy.val * 128 + ci.val, by omega⟩ := by
  rw [← Finset.sum_product', Finset.univ_product_univ]
  exact (Fintype.sum_equiv (finProdFinEquiv (m := 3) (n := 128)) (fun p => f ⟨p.1.val * 128 + p.2.val, by omega⟩) f (fun p =>
    congrArg f (Fin.ext (by show p.1.val * 128 + p.2.val = p.2.val + 128 * p.1.val; omega)))).symm

/-- A weight plane read through its rectangle is that plane of the array. -/
theorem ldK0 (wk : Vec Ideal S3x384x128 .bf16) (k : Fin 384) (co : Fin 128) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x384x128 .bf16) (k : Fin 384) (co : Fin 128) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x384x128 .bf16) (k : Fin 384) (co : Fin 128) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S2048x384 .bf16) (wk : Vec Ideal S3x384x128 .bf16) (r : Fin 2048) (co : Fin 128) :
    prod (F := Ideal) L (View.ld wk rK0) (ix2 r co) = ∑ k : Fin 384, L (ix2 r k) * wk (ix3 0 k co) :=
  (prod_apply L _ r co).trans (Finset.sum_congr rfl fun k _ => congrArg (fun z => L (ix2 r k) * z) (ldK0 wk k co))
theorem prodK1 (L : FVec Ideal S2048x384 .bf16) (wk : Vec Ideal S3x384x128 .bf16) (r : Fin 2048) (co : Fin 128) :
    prod (F := Ideal) L (View.ld wk rK1) (ix2 r co) = ∑ k : Fin 384, L (ix2 r k) * wk (ix3 1 k co) :=
  (prod_apply L _ r co).trans (Finset.sum_congr rfl fun k _ => congrArg (fun z => L (ix2 r k) * z) (ldK1 wk k co))
theorem prodK2 (L : FVec Ideal S2048x384 .bf16) (wk : Vec Ideal S3x384x128 .bf16) (r : Fin 2048) (co : Fin 128) :
    prod (F := Ideal) L (View.ld wk rK2) (ix2 r co) = ∑ k : Fin 384, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x16x128x128 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 128 + ci, co)`. -/
theorem acc_apply (xa xb : Vec Ideal S1x16x128x128 .bf16) (wk : Vec Ideal S3x384x128 .bf16) (h : Fin 16) (w : Fin 112) (co : Fin 128) :
    acc (F := Ideal) xa xb wk (ix2 ⟨h.val * 128 + w.val, by omega⟩ co)
      = ∑ dy : Fin 3, ∑ dx : Fin 3, ∑ ci : Fin 128,
          pix xa xb ⟨h.val + dy.val, by omega⟩ ⟨w.val + dx.val, by omega⟩ ci * wk (ix3 dx ⟨dy.val * 128 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 16 rows of 128 columns,
    the 112 valid columns kept. -/
theorem pay1_eq {F : FTy → Type} [FloatOps F] (A : FVec F S2048x128 .f32) (b : Vec F S1x128 .f32) :
    k5_pay1 A b
      = shapeCast S1x16x112x128
          (truncf .bf16
            (extractStridedSlice S16x112x128 ![0, 0, 0]
              (shapeCast S16x128x128
                (maximumf (addf A (broadcastTo S2048x128 b Gen.broadcasts_S1x128_S2048x128))
                  (broadcast S2048x128 (Scalar.ofBits .f32 0x00000000#32)))
                Gen.shapeCasts_S2048x128_S16x128x128)
              Gen.slices_S16x128x128_o0_0_0_S16x112x128)
            bitsLt_bf16_f32)
          Gen.shapeCasts_S16x112x128_S1x16x112x128 := rfl

/-- The bias row read through its rectangle is the bias. -/
theorem ldB (b : Vec Ideal S1x128 .f32) : View.ld b rB = b :=
  View.ld_unit_zero (funext fun a => by
    match a with
    | ⟨0, _⟩ => rfl
    | ⟨1, _⟩ => rfl) _ b

/-- The output tile at `(h, w, co)`: the accumulation at pixel row `h · 128 + w` plus the bias, rectified. -/
theorem tile_apply (xa xb : Vec Ideal S1x16x128x128 .bf16) (wk : Vec Ideal S3x384x128 .bf16) (b : Vec Ideal S1x128 .f32)
    (h : Fin 16) (w : Fin 112) (co : Fin 128) :
    tile (F := Ideal) xa xb wk b (ix4 0 h w co) = max (acc xa xb wk (ix2 ⟨h.val * 128 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 112 + w.val) * 128 + co.val = (((0 : ℕ) * 16 + h.val) * 112 + w.val) * 128 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 128 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 128 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x16x128x128 .bf16) (wk : Vec Ideal S3x384x128 .bf16) (b : Vec Ideal S1x128 .f32)
    (h : Fin 16) (w : Fin 112) (co : Fin 128) :
    tile (F := Ideal) xa xb wk b (ix4 0 h w co)
      = max ((∑ dy : Fin 3, ∑ dx : Fin 3, ∑ ci : Fin 128,
                pix xa xb ⟨h.val + dy.val, by omega⟩ ⟨w.val + dx.val, by omega⟩ ci
                  * wk (ix3 dx ⟨dy.val * 128 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 112) (w : Fin 112) (co : Fin 128) :
    yOut V c (ix4 n h w co)
      = max ((∑ dy : Fin 3, ∑ dx : Fin 3, ∑ ci : Fin 128,
                xp V c (ix4 n ⟨h.val + dy.val, by omega⟩ ⟨w.val + dx.val, by omega⟩ ci)
                  * wk V c (ix3 dx ⟨dy.val * 128 + ci.val, by omega⟩ co))
              + bias V c (ix2 0 co)) 0 :=
  out_of_tile V tile_value c n h w co

end Cert.KernelIdeal.Reg5
-- ==== Proof.KI.GluePad5.lean ====
/-
  The border of zeros put around the stack of 128 channels at 112 × 112 before region 5: the stretch converts
  the integer 0 to a float and pads the stack, one position in front of rows and columns and the rest behind, to
  128 rows and 128 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_5 (V : Valuation τ sig (Elt Ideal)) (hc : V main_c_6 = constantI S_ 32 0#32)
    (n : Fin 32) (i : Fin 128) (j : Fin 128) (ci : Fin 128) :
    (StableHlo.after hostOps5_1 V main_v27 : FVec Ideal S32x128x128x128 .bf16) (ix4 n i j ci)
      = Cert.Spec.padAt (Cert.Spec.curry4 (V main_v26 : FVec Ideal S32x112x112x128 .bf16)) n i.val j.val ci := by
  have h : StableHlo.after hostOps5_1 V main_v27
      = pad S32x128x128x128 ![0, 1, 1, 0] ![0, 15, 15, 0] ![0, 0, 0, 0] (V main_v26) (sitofp (F := Ideal) .bf16 (V main_c_6))
          pads_S32x112x112x128_S32x128x128x128_000_1150_1150_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW5.lean ====
/-
  The weights of region 5 as the region finds them: the [3, 3, 128, 128] parameter array with its two tap axes
  exchanged, the row tap and the input channel then read as one axis of 384 (row tap major), narrowed to the shorter
  float format. Entry (column tap, row tap · 128 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_5 (V : Valuation τ sig (Elt Ideal)) (dy dx : Fin 3) (ci : Fin 128) (co : Fin 128)
    (hk : dy.val * 128 + ci.val < 384) :
    (StableHlo.after hostOps5_2 V main_v30 : FVec Ideal S3x384x128 .bf16) (ix3 dx ⟨dy.val * 128 + ci.val, hk⟩ co)
      = (V main_arg8 : FVec Ideal S3x3x128x128 .f32) (ix4 dy dx ci co) := by
  have h : StableHlo.after hostOps5_2 V main_v30
      = truncf (F := Ideal) .bf16 (shapeCast S3x384x128 (transpose S3x3x128x128 [1, 0, 2, 3] (V main_arg8) transposes_S3x3x128x128_S3x3x128x128_1_0_2_3) shapeCasts_S3x3x128x128_S3x384x128) bitsLt_bf16_f32 := by
    after_results; rfl
  rw [h]
  exact (Cert.Spec.reshape_taps (transpose S3x3x128x128 [1, 0, 2, 3] (V main_arg8) transposes_S3x3x128x128_S3x3x128x128_1_0_2_3) _ dx dy ci co hk rfl).trans
    (Cert.Spec.transpose_1023_apply (V main_arg8) transposes_S3x3x128x128_S3x3x128x128_1_0_2_3 dx dy ci co)

end Cert.KernelIdeal.Glue

end
-- ==== Proof.KI.RunValCore5.lean ====
import proofs.«143011_g2000502688546152_pallasbulk_1201_3_alg».proof.Proof.KI.Reg5Value
import proofs.«143011_g2000502688546152_pallasbulk_1201_3_alg».proof.Proof.KI.GluePad5
import proofs.«143011_g2000502688546152_pallasbulk_1201_3_alg».proof.Proof.KI.GlueW5
import proofs.«143011_g2000502688546152_pallasbulk_1201_3_alg».proof.Proof.Spec.ArgsOf
import proofs.«143011_g2000502688546152_pallasbulk_1201_3_alg».proof.Proof.Spec.FlatIdx

/-! # Region 5 between its neighbours: a convolution layer of the network

If the stack of images the zero border is put around is `aPrev`, the region leaves the 3×3 convolution of `aPrev` with
the [3, 3, 128, 128] parameter array, plus the bias row, clamped below at zero. The two stretches of host operations in
front of the region put the zero border around the stack and lay the parameter array out as [3, 3·128, 128] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_5 (V : Valuation τ sig (Elt Ideal)) : StableHlo.after hostOps5 V main_c_6 = constantI S_ 32 0#32 := by
  after_results <;> rfl

/-- From ANY contents `Wp` in front of the border stretch that hold the integer 0 in the stretch's constant and the
    stack `aPrev` in the array the border is put around: the region's output array, entry by entry. -/
theorem core_5 (Wp : Dev nD → Valuation τ sig (Elt Ideal)) (c : Dev nD)
    (hc : Wp c main_c_6 = constantI S_ 32 0#32)
    (aPrev : Cert.Spec.Act 32 112 112 128)
    (hprev : ∀ (n : Fin 32) (h : Fin 112) (w : Fin 112) (ci : Fin 128),
      (Wp c main_v26 : FVec Ideal S32x112x112x128 .bf16) (ix4 n h w ci) = aPrev n h w ci)
    (n : Fin 32) (h : Fin 112) (w : Fin 112) (co : Fin 128) :
    (Reg5.dat (F := Ideal) (fun c b => StableHlo.after hostOps5_2 (StableHlo.after hostOps5_1 (Wp c)) b) c).arrAt 4 cfg5.N
        (ix4 n h w co)
      = Cert.Spec.convRelu aPrev (Cert.Spec.curryW (Wp c main_arg8 : FVec Ideal S3x3x128x128 .f32))
          (Cert.Spec.curryB (Wp c main_arg9 : FVec Ideal S1x128 .f32)) n h w co := by
  refine (Reg5.out_value _ c n h w co).trans ?_
  have e9 : StableHlo.after hostOps5_2 (StableHlo.after hostOps5_1 (Wp c)) main_v27
      = StableHlo.after hostOps5_1 (Wp c) main_v27 :=
    StableHlo.after_of_writes_sub hostOps5_2 _ hostOps5_2_writes (by decide)
  have eW : StableHlo.after hostOps5_1 (Wp c) main_arg8 = Wp c main_arg8 :=
    StableHlo.after_of_writes_sub hostOps5_1 _ hostOps5_1_writes (by decide)
  have eB : StableHlo.after hostOps5_2 (StableHlo.after hostOps5_1 (Wp c)) main_arg9 = Wp c main_arg9 :=
    (StableHlo.after_of_writes_sub hostOps5_2 _ hostOps5_2_writes (by decide)).trans
      (StableHlo.after_of_writes_sub hostOps5_1 _ hostOps5_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps5_2 (StableHlo.after hostOps5_1 (Wp c)) main_v27 : FVec Ideal S32x128x128x128 .bf16) _ = _
      rw [e9, Glue.pad_5 (Wp c) hc]
      refine congrArg (fun z : Cert.Spec.Act 32 112 112 128 => Cert.Spec.padAt z n _ _ ci) ?_
      funext n' h' w' ci'
      exact hprev n' h' w' ci'
    · show (StableHlo.after hostOps5_2 (StableHlo.after hostOps5_1 (Wp c)) main_v30 : FVec Ideal S3x384x128 .bf16) _ = _
      rw [Glue.wk_5 _ dy dx ci co _, eW]
  · show (StableHlo.after hostOps5_2 (StableHlo.after hostOps5_1 (Wp c)) main_arg9 : FVec Ideal S1x128 .f32) _ = _
    rw [eB]

end Cert.KernelIdeal.RunVal
-- ==== Proof.KI.RunVal5.lean ====
import proofs.«143011_g2000502688546152_pallasbulk_1201_3_alg».proof.Proof.KI.RunChainAt
import proofs.«143011_g2000502688546152_pallasbulk_1201_3_alg».proof.Proof.KI.RunValCore5

/-! # Region 5 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_5 (c : Dev nD) (aPrev : Cert.Spec.Act 32 112 112 128)
    (hprev : ∀ (n : Fin 32) (h : Fin 112) (w : Fin 112) (ci : Fin 128),
      (W17 m c main_v26 : FVec Ideal S32x112x112x128 .bf16) (ix4 n h w ci) = aPrev n h w ci) :
    ∀ (n : Fin 32) (h : Fin 112) (w : Fin 112) (co : Fin 128),
      (W20 m c main_v31 : FVec Ideal S32x112x112x128 .bf16) (ix4 n h w co)
        = Cert.Spec.convRelu aPrev
            (Cert.Spec.curryW (m ((c : Thread nD τ).loc main_arg8) : FVec Ideal S3x3x128x128 .f32))
            (Cert.Spec.curryB (m ((c : Thread nD τ).loc main_arg9) : FVec Ideal S1x128 .f32)) n h w co := by
  intro n h w co
  have hW : W17 m c main_arg8 = m ((c : Thread nD τ).loc main_arg8) := W17_arg m c _ (by decide)
  have hB : W17 m c main_arg9 = m ((c : Thread nD τ).loc main_arg9) := W17_arg m c _ (by decide)
  rw [W20_self, ← hW, ← hB]
  have hc : W17 m c main_c_6 = constantI S_ 32 0#32 := RunVal.cst_5 (W16 m c)
  exact RunVal.core_5 (W17 m) c hc aPrev hprev n h w co

/-- The same from the contents one stretch earlier: the stretch in between writes only the border's constant. -/
theorem val_5_from (c : Dev nD) (aPrev : Cert.Spec.Act 32 112 112 128)
    (hprev : ∀ (n : Fin 32) (h : Fin 112) (w : Fin 112) (ci : Fin 128),
      (W16 m c main_v26 : FVec Ideal S32x112x112x128 .bf16) (ix4 n h w ci) = aPrev n h w ci) :
    ∀ (n : Fin 32) (h : Fin 112) (w : Fin 112) (co : Fin 128),
      (W20 m c main_v31 : FVec Ideal S32x112x112x128 .bf16) (ix4 n h w co)
        = Cert.Spec.convRelu aPrev
            (Cert.Spec.curryW (m ((c : Thread nD τ).loc main_arg8) : FVec Ideal S3x3x128x128 .f32))
            (Cert.Spec.curryB (m ((c : Thread nD τ).loc main_arg9) : FVec Ideal S1x128 .f32)) n h w co :=
  val_5 m c aPrev fun n h w ci => by
    rw [W17_of m c main_v26 (by decide)]
    exact hprev n h w ci

end Cert.KernelIdeal.Run
-- ==== Proof.KI.Reg7Value.lean ====
/-
  REGION 7, at the ideal values: the output array after the last point, index by index — the 2×2 max pooling
  of the region's own input array.
-/
import proofs.«143011_g2000502688546152_pallasbulk_1201_3_alg».proof.Proof.KI.Reg7
import Idealize.ShloMosaic.Lib.ValueIdx
import Idealize.ShloMosaic.Lib.Pipeline.Value
import Idealize.ShloMosaic.PureOps.Ideal.Laws

noncomputable section

namespace Cert.KernelIdeal.Reg7

open Cert.KernelIdeal Cert.KernelIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .bf16 0xFF80#16 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S16x56x2x128 .bf16) (r : Fin 16) (j : Fin 56) (ch : Fin 128) :
    multiReduction .maximumf [2] S16x56x128 Y 0xFF80#16 reduces_S16x56x2x128_S16x56x128 (.inr rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S8x2x56x128 .bf16) (i : Fin 8) (j : Fin 56) (ch : Fin 128) :
    multiReduction .maximumf [1] S8x56x128 Z 0xFF80#16 reduces_S8x2x56x128_S8x56x128 (.inr rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x16x56x2x128.Idx → α) (r : Fin 16) (j : Fin 56) (q : Fin 2) (ch : Fin 128) :
    shapeCast S16x56x2x128 X shapeCasts_S1x16x56x2x128_S16x56x2x128 (ix4 r j q ch) = X (ix5 (0 : Fin 1) r j q ch) := by
  refine shapeCast_apply _ _ _ _ ?_
  rw [Shape.rowMajor_val_five, Shape.rowMajor_val_four]
  show ((((0 * 16 + r.val) * 56 + j.val) * 2 + q.val) * 128 + ch.val) = (((r.val * 56 + j.val) * 2 + q.val) * 128 + ch.val)
  omega

/-- The 16 rows regrouped as 8 pairs: the even row of pair i is row 2i, -/
theorem pairRows_apply0 (W : S16x56x128.Idx → α) (i : Fin 8) (j : Fin 56) (ch : Fin 128) :
    shapeCast S8x2x56x128 W shapeCasts_S16x56x128_S8x2x56x128 (ix4 i (0 : Fin 2) j ch)
      = W (ix3 (⟨2 * i.val, by omega⟩ : Fin 16) j ch) := by
  refine shapeCast_apply _ _ _ _ ?_
  rw [Shape.rowMajor_val_three, Shape.rowMajor_val_four]
  show ((2 * i.val) * 56 + j.val) * 128 + ch.val = (((i.val * 2 + 0) * 56 + j.val) * 128 + ch.val)
  omega

/-- and the odd one row 2i + 1. -/
theorem pairRows_apply1 (W : S16x56x128.Idx → α) (i : Fin 8) (j : Fin 56) (ch : Fin 128) :
    shapeCast S8x2x56x128 W shapeCasts_S16x56x128_S8x2x56x128 (ix4 i (1 : Fin 2) j ch)
      = W (ix3 (⟨2 * i.val + 1, by omega⟩ : Fin 16) j ch) := by
  refine shapeCast_apply _ _ _ _ ?_
  rw [Shape.rowMajor_val_three, Shape.rowMajor_val_four]
  show ((2 * i.val + 1) * 56 + j.val) * 128 + ch.val = (((i.val * 2 + 1) * 56 + j.val) * 128 + ch.val)
  omega

/-- The pooled rows with the leading unit axis back. -/
theorem addLead_apply (W : S8x56x128.Idx → α) (i : Fin 8) (j : Fin 56) (ch : Fin 128) :
    shapeCast S1x8x56x128 W shapeCasts_S8x56x128_S1x8x56x128 (ix4 (0 : Fin 1) i j ch) = W (ix3 i j ch) := by
  refine shapeCast_apply _ _ _ _ ?_
  rw [Shape.rowMajor_val_three, Shape.rowMajor_val_four]
  show ((i.val * 56 + j.val) * 128 + ch.val) = (((0 * 8 + i.val) * 56 + j.val) * 128 + ch.val)
  omega

/-- The body's value at an index of the output block: the maximum over the two rows 2i, 2i+1 of the maximum
    over the column pair j. -/
theorem pay_apply (X : Vec Ideal S1x16x56x2x128 .bf16) (i : Fin 8) (j : Fin 56) (ch : Fin 128) :
    k7_pay1 X (ix4 (0 : Fin 1) i j ch)
      = max (max (X (ix5 (0 : Fin 1) (⟨2 * i.val, by omega⟩ : Fin 16) j (0 : Fin 2) ch))
                 (X (ix5 (0 : Fin 1) (⟨2 * i.val, by omega⟩ : Fin 16) j (1 : Fin 2) ch)))
            (max (X (ix5 (0 : Fin 1) (⟨2 * i.val + 1, by omega⟩ : Fin 16) j (0 : Fin 2) ch))
                 (X (ix5 (0 : Fin 1) (⟨2 * i.val + 1, by omega⟩ : Fin 16) j (1 : Fin 2) ch))) := by
  unfold k7_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 32 images × 112 rows × 56 column pairs × 2 × 128 channels. -/
abbrev xin (c : Dev nD) : (⟨5, ![32, 112, 56, 2, 128]⟩ : Shape).Idx → EReal := V c (Pipeline.arrRef spec7 0)

/-- The 2×2 max pooling of an input array at (n, i, j, ch): over the rows 2i, 2i+1 the maximum of the maximum
    over the column pair j. -/
def poolAt (x : (⟨5, ![32, 112, 56, 2, 128]⟩ : Shape).Idx → EReal) (n : Fin 32) (i : Fin 56) (j : Fin 56) (ch : Fin 128) : EReal :=
  max (max (x (ix5 n (⟨2 * i.val, by omega⟩ : Fin 112) j (0 : Fin 2) ch))
           (x (ix5 n (⟨2 * i.val, by omega⟩ : Fin 112) j (1 : Fin 2) ch)))
      (max (x (ix5 n (⟨2 * i.val + 1, by omega⟩ : Fin 112) j (0 : Fin 2) ch))
           (x (ix5 n (⟨2 * i.val + 1, by omega⟩ : Fin 112) j (1 : Fin 2) ch)))

/-- The pooled array. -/
def poolArr (x : (⟨5, ![32, 112, 56, 2, 128]⟩ : Shape).Idx → EReal) : (⟨4, ![32, 56, 56, 128]⟩ : Shape).Idx → EReal :=
  fun k => poolAt x (k 0) (k 1) (k 2) (k 3)

/-- The index maps over the grid in closed form: point t is (n, r) = (t / 7, t % 7); there the input block is
    block (n, r, 0, 0, 0) of its array and the output block is block (n, r, 0, 0) of its own. -/
theorem idx_facts : ∀ t : Fin cfg7.N,
    win7_1.index t (0 : Fin 4) = t.val / 7 ∧ win7_1.index t (1 : Fin 4) = t.val % 7
    ∧ win7_1.index t (2 : Fin 4) = 0 ∧ win7_1.index t (3 : Fin 4) = 0
    ∧ win7_0.index t (0 : Fin 5) = t.val / 7 ∧ win7_0.index t (1 : Fin 5) = t.val % 7
    ∧ win7_0.index t (2 : Fin 5) = 0 ∧ win7_0.index t (3 : Fin 5) = 0 ∧ win7_0.index t (4 : Fin 5) = 0 :=
  (by decide +kernel : ∀ t : Fin grid7.N, _)

/-- The grid has 224 points. -/
theorem t_lt (t : Fin cfg7.N) : t.val < 224 := lt_of_lt_of_eq t.isLt N_7

/-- An element of the input block at point t = (n, r) sits in the input array at image n, row 16r + (its row). -/
theorem blk_in_apply (c : Dev nD) (t : Fin cfg7.N) (r : Fin 16) (R : Fin 112) (hR : R.val = 16 * (t.val % 7) + r.val)
    (j : Fin 56) (q : Fin 2) (ch : Fin 128) :
    blk V c 0 t (ix5 (0 : Fin 1) r j q ch)
      = xin V c (ix5 (⟨t.val / 7, by have := t_lt t; omega⟩ : Fin 32) R j q ch) := by
  obtain ⟨o0, o1, o2, o3, i0, i1, i2, i3, i4⟩ := idx_facts t
  show xin V c (((cfg7.win 0).blk t).view.emb (ix5 (0 : Fin 1) r j q ch)) = _
  congr 1
  funext a
  apply Fin.ext
  match a with
  | ⟨0, _⟩ => show win7_0.index t (0 : Fin 5) * 1 + 1 * 0 = t.val / 7; omega
  | ⟨1, _⟩ => show win7_0.index t (1 : Fin 5) * 16 + 1 * r.val = R.val; omega
  | ⟨2, _⟩ => show win7_0.index t (2 : Fin 5) * 56 + 1 * j.val = j.val; omega
  | ⟨3, _⟩ => show win7_0.index t (3 : Fin 5) * 2 + 1 * q.val = q.val; omega
  | ⟨4, _⟩ => show win7_0.index t (4 : Fin 5) * 128 + 1 * ch.val = ch.val; omega

/-- An element of the output block at point t = (n, r) sits in the output array at image n, row 8r + (its row). -/
theorem emb_out (t : Fin cfg7.N) (i : Fin 8) (j : Fin 56) (ch : Fin 128) :
    ((cfg7.win 1).blk t).view.emb (ix4 (0 : Fin 1) i j ch)
      = ix4 (⟨t.val / 7, by have := t_lt t; omega⟩ : Fin 32) (⟨8 * (t.val % 7) + i.val, by omega⟩ : Fin 56) j ch := by
  obtain ⟨o0, o1, o2, o3, i0, i1, i2, i3, i4⟩ := idx_facts t
  funext a
  apply Fin.ext
  match a with
  | ⟨0, _⟩ => show win7_1.index t (0 : Fin 4) * 1 + 1 * 0 = t.val / 7; omega
  | ⟨1, _⟩ => show win7_1.index t (1 : Fin 4) * 8 + 1 * i.val = 8 * (t.val % 7) + i.val; omega
  | ⟨2, _⟩ => show win7_1.index t (2 : Fin 4) * 56 + 1 * j.val = j.val; omega
  | ⟨3, _⟩ => show win7_1.index t (3 : Fin 4) * 128 + 1 * ch.val = ch.val; omega

/-- What point t writes back is its block of the pooled array. -/
theorem flushed_eq (c : Dev nD) (t : Fin cfg7.N) :
    (dat (F := Ideal) V c).flushed 1 t = ((cfg7.win 1).blk t).view.read (Elt Ideal) (poolArr (xin V c)) := by
  show (cfg7.win 1).cut (grid7.coords t) ((dat V c).after 1 t) = _
  rw [after_1]
  funext y
  obtain ⟨y0, i, j, ch, rfl⟩ : ∃ (y0 : Fin 1) (i : Fin 8) (j : Fin 56) (ch : Fin 128), y = ix4 y0 i j ch :=
    ⟨y 0, y 1, y 2, y 3, eq_ix4 y⟩
  obtain rfl : y0 = 0 := Subsingleton.elim _ _
  show k7_pay1 (blk V c 0 t) (ix4 (0 : Fin 1) i j ch)
    = poolArr (xin V c) (((cfg7.win 1).blk t).view.emb (ix4 (0 : Fin 1) i j ch))
  rw [pay_apply, emb_out,
    blk_in_apply V c t _ (⟨2 * (8 * (t.val % 7) + i.val), by omega⟩ : Fin 112) (by show 2 * (8 * (t.val % 7) + i.val) = 16 * (t.val % 7) + 2 * i.val; omega),
    blk_in_apply V c t _ (⟨2 * (8 * (t.val % 7) + i.val), by omega⟩ : Fin 112) (by show 2 * (8 * (t.val % 7) + i.val) = 16 * (t.val % 7) + 2 * i.val; omega),
    blk_in_apply V c t _ (⟨2 * (8 * (t.val % 7) + i.val) + 1, by omega⟩ : Fin 112) (by show 2 * (8 * (t.val % 7) + i.val) + 1 = 16 * (t.val % 7) + (2 * i.val + 1); omega),
    blk_in_apply V c t _ (⟨2 * (8 * (t.val % 7) + i.val) + 1, by omega⟩ : Fin 112) (by show 2 * (8 * (t.val % 7) + i.val) + 1 = 16 * (t.val % 7) + (2 * i.val + 1); omega)]
  rfl

/-- An index of the output array is in point t's block iff on each axis it lies in the block's range. -/
theorem mem_blk (t : Fin cfg7.N) (k : (⟨4, ![32, 56, 56, 128]⟩ : Shape).Idx) :
    k ∈ ((cfg7.win 1).blk t).view.set ↔ ∀ a : Fin 4, win7_1.index t a * S1x8x56x128.size a ≤ (k a).val
      ∧ (k a).val < win7_1.index t a * S1x8x56x128.size a + S1x8x56x128.size a := by
  show k ∈ ((View.whole main_v40).slice (win7_1.rect t)).set ↔ _
  rw [View.set_slice_whole, Rect.mem_set_unit]
  exact Iff.rfl

/-- The output blocks tile the output array: index (n, h, j, ch) is in the block of point (n, h / 8). -/
theorem cover (k : (⟨4, ![32, 56, 56, 128]⟩ : Shape).Idx) :
    ∃ t : Fin cfg7.N, (cfg7.win 1).flush t = true ∧ k ∈ ((cfg7.win 1).blk t).view.set := by
  have h0 : (k 0).val < 32 := (k 0).isLt
  have h1 : (k 1).val < 56 := (k 1).isLt
  have h2 : (k 2).val < 56 := (k 2).isLt
  have h3 : (k 3).val < 128 := (k 3).isLt
  have hN : cfg7.N = 224 := N_7
  obtain ⟨t, tv⟩ : ∃ t : Fin cfg7.N, t.val = (k 0).val * 7 + (k 1).val / 8 := ⟨⟨_, by omega⟩, rfl⟩
  obtain ⟨o0, o1, o2, o3, -⟩ := idx_facts t
  refine ⟨t, flush7_1 t, ?_⟩
  rw [mem_blk]
  intro a
  match a with
  | ⟨0, _⟩ => show win7_1.index t (0 : Fin 4) * 1 ≤ (k 0).val ∧ (k 0).val < win7_1.index t (0 : Fin 4) * 1 + 1; omega
  | ⟨1, _⟩ => show win7_1.index t (1 : Fin 4) * 8 ≤ (k 1).val ∧ (k 1).val < win7_1.index t (1 : Fin 4) * 8 + 8; omega
  | ⟨2, _⟩ => show win7_1.index t (2 : Fin 4) * 56 ≤ (k 2).val ∧ (k 2).val < win7_1.index t (2 : Fin 4) * 56 + 56; omega
  | ⟨3, _⟩ => show win7_1.index t (3 : Fin 4) * 128 ≤ (k 3).val ∧ (k 3).val < win7_1.index t (3 : Fin 4) * 128 + 128; omega

/-- So after the last point the output array is the pooled input array. -/
theorem final (c : Dev nD) : (dat (F := Ideal) V c).arrAt 1 cfg7.N = poolArr (xin V c) :=
  (dat V c).arrAt_eq_of_cover 1 (poolArr (xin V c)) (fun t _ => flushed_eq V c t) cover

/-- After the last point the output array [32, 56, 56, 128] is the 2×2 max pooling of the input array
    [32, 112, 56, 2, 128]: at (n, i, j, ch) the maximum over the two rows 2i, 2i+1 of the maximum over the
    column pair j. The nesting is the body's: the inner maximum is over the column pair (the first
    reduction), the outer over the row pair (the second). -/
theorem out_apply (c : Dev nD) (n : Fin 32) (i : Fin 56) (j : Fin 56) (ch : Fin 128) :
    (dat (F := Ideal) V c).arrAt 1 cfg7.N (ix4 n i j ch)
      = max (max (xin V c (ix5 n (⟨2 * i.val, by omega⟩ : Fin 112) j (0 : Fin 2) ch))
                 (xin V c (ix5 n (⟨2 * i.val, by omega⟩ : Fin 112) j (1 : Fin 2) ch)))
            (max (xin V c (ix5 n (⟨2 * i.val + 1, by omega⟩ : Fin 112) j (0 : Fin 2) ch))
                 (xin V c (ix5 n (⟨2 * i.val + 1, by omega⟩ : Fin 112) j (1 : Fin 2) ch))) := by
  rw [final]
  rfl

end Cert.KernelIdeal.Reg7
-- ==== Proof.KI.GluePairs1.lean ====
/-
  The features of the second level as the pooling region finds them: the stack's columns read in pairs. Entry
  (n, i, j, t, c) is the stack's entry (n, i, 2 j + t, c).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem pairs_1 (V : Valuation τ sig (Elt Ideal)) (n : Fin 32) (i : Fin 112) (j : Fin 56) (t : Fin 2) (c : Fin 128) :
    (StableHlo.after hostOps7 V main_v39 : FVec Ideal S32x112x56x2x128 .bf16) (ix5 n i j t c)
      = (V main_v31 : FVec Ideal S32x112x112x128 .bf16) (ix4 n i ⟨2 * j.val + t.val, by omega⟩ c) := by
  have h : StableHlo.after hostOps7 V main_v39 = shapeCast S32x112x56x2x128 (V main_v31) shapeCasts_S32x112x112x128_S32x112x56x2x128 := by
    after_results <;> rfl
  rw [h]
  exact Cert.Spec.reshape_pairs _ _ rfl n i j t c

end Cert.KernelIdeal.Glue

end
-- ==== Proof.KI.RunValCore7.lean ====
import proofs.«143011_g2000502688546152_pallasbulk_1201_3_alg».proof.Proof.KI.Reg7Value
import proofs.«143011_g2000502688546152_pallasbulk_1201_3_alg».proof.Proof.KI.GluePairs1
import proofs.«143011_g2000502688546152_pallasbulk_1201_3_alg».proof.Proof.Spec.Defs

/-! # Region 7 between its neighbours: a 2×2 max pooling of the network

If the stack of images the pooling reads is `aPrev` ([32, 112, 112, 128]), the region leaves its 2×2 max pooling
([32, 56, 56, 128]). The stretch of host operations in front of the region only regroups each row's columns into pairs. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- From ANY contents `Wp` in front of the regrouping stretch that hold the stack `aPrev` in the array it regroups: the
    region's output array, entry by entry. -/
theorem core_7 (Wp : Dev nD → Valuation τ sig (Elt Ideal)) (c : Dev nD)
    (aPrev : Cert.Spec.Act 32 112 112 128)
    (hprev : ∀ (n : Fin 32) (h : Fin 112) (w : Fin 112) (ch : Fin 128),
      (Wp c main_v31 : FVec Ideal S32x112x112x128 .bf16) (ix4 n h w ch) = aPrev n h w ch)
    (n : Fin 32) (i : Fin 56) (j : Fin 56) (ch : Fin 128) :
    (Reg7.dat (F := Ideal) (fun c b => StableHlo.after hostOps7 (Wp c) b) c).arrAt 1 cfg7.N (ix4 n i j ch)
      = Cert.Spec.pool2x2 aPrev n i j ch := by
  refine (Reg7.out_apply _ c n i j ch).trans ?_
  have e : ∀ (r : Fin 112) (t : Fin 2) (q : Fin 112) (hq : q.val = 2 * j.val + t.val),
      (StableHlo.after hostOps7 (Wp c) main_v39 : FVec Ideal S32x112x56x2x128 .bf16) (ix5 n r j t ch) = aPrev n r q ch :=
    fun r t q hq => (Glue.pairs_1 (Wp c) n r j t ch).trans
      ((hprev n r _ ch).trans (congrArg (fun x => aPrev n r x ch) (Fin.ext hq.symm)))
  show @Eq EReal _ _
  unfold Cert.Spec.pool2x2
  exact congrArg₂ (fun a b : EReal => max a b)
    (congrArg₂ (fun a b : EReal => max a b) (e _ 0 _ rfl) (e _ 1 _ rfl))
    (congrArg₂ (fun a b : EReal => max a b) (e _ 0 _ rfl) (e _ 1 _ rfl))

end Cert.KernelIdeal.RunVal
-- ==== Proof.KI.RunVal7.lean ====
import proofs.«143011_g2000502688546152_pallasbulk_1201_3_alg».proof.Proof.KI.RunChainAt
import proofs.«143011_g2000502688546152_pallasbulk_1201_3_alg».proof.Proof.KI.RunValCore7

/-! # Region 7 in the chain of contents: a 2×2 max pooling, from the stack in front of its regrouping stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the regrouping stretch hold the stack `aPrev` in the array it regroups, the contents
    after the region hold, in the region's output array, the 2×2 max pooling of `aPrev`. -/
theorem val_7 (c : Dev nD) (aPrev : Cert.Spec.Act 32 112 112 128)
    (hprev : ∀ (n : Fin 32) (h : Fin 112) (w : Fin 112) (ch : Fin 128),
      (W22 m c main_v31 : FVec Ideal S32x112x112x128 .bf16) (ix4 n h w ch) = aPrev n h w ch) :
    ∀ (n : Fin 32) (i : Fin 56) (j : Fin 56) (ch : Fin 128),
      (W24 m c main_v40 : FVec Ideal S32x56x56x128 .bf16) (ix4 n i j ch) = Cert.Spec.pool2x2 aPrev n i j ch := by
  intro n i j ch
  rw [W24_self]
  exact RunVal.core_7 (W22 m) c aPrev hprev n i j ch

end Cert.KernelIdeal.Run
-- ==== Proof.KI.Reg8Pipe.lean ====
import proofs.«143011_g2000502688546152_pallasbulk_1201_3_alg».proof.Proof.KI.Reg8
import Idealize.ShloMosaic.Lib.Pipeline.Value
import Idealize.ShloMosaic.Lib.ValueIdx
import Idealize.ShloMosaic.PureOps.Ideal

/-!
  The 3×3 convolution 128 → 256 on 56×56 images (pallas region 8) at the ideal float model, from the tile to the array:
  where each window's block sits in its array (the two row blocks are consecutive 28-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg8

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 84, 64, 128] (the array of windows 0 and 1), the weights [3, 384, 256] and the bias [1, 256]
    as the region finds them. -/
abbrev xp (c : Dev nD) : Vec Ideal S32x84x64x128 .bf16 := V c (Pipeline.arrRef spec8 0)
abbrev wk (c : Dev nD) : Vec Ideal S3x384x256 .bf16 := V c (Pipeline.arrRef spec8 2)
abbrev bias (c : Dev nD) : Vec Ideal S1x256 .f32 := V c (Pipeline.arrRef spec8 3)

/-- The output array [32, 56, 56, 256] after the region. -/
abbrev yOut (c : Dev nD) : Vec Ideal S32x56x56x256 .bf16 := (dat (F := Ideal) V c).arrAt 4 cfg8.N

/-- Pixel `(hh, ww)`, channel `ci` of the 56-row padded image the two row blocks make up. -/
def pix (xa xb : Vec Ideal S1x28x64x128 .bf16) (hh : Fin 56) (ww : Fin 64) (ci : Fin 128) : EReal :=
  if h : hh.val < 28 then xa (ix4 0 ⟨hh.val, h⟩ ww ci) else xb (ix4 0 ⟨hh.val - 28, by omega⟩ ww ci)

/-! ## Where the windows' blocks sit -/

/-- The block indices along the grid's row-major order, decided over the grid: position t is image t / 2, row tile
    t % 2; the second row window is one tile further down; weights and bias do not move; the output tile is the first
    row window's. -/
theorem index_upper : ∀ t : Fin cfg8.N, win8_0.index t (0 : Fin 4) = t.val / 2 ∧ win8_0.index t (1 : Fin 4) = t.val % 2
    ∧ win8_0.index t (2 : Fin 4) = 0 ∧ win8_0.index t (3 : Fin 4) = 0 :=
  (by decide +kernel : ∀ t : Fin grid8.N, win8_0.index t (0 : Fin 4) = t.val / 2 ∧ win8_0.index t (1 : Fin 4) = t.val % 2
    ∧ win8_0.index t (2 : Fin 4) = 0 ∧ win8_0.index t (3 : Fin 4) = 0)
theorem index_lower : ∀ t : Fin cfg8.N, win8_1.index t (0 : Fin 4) = t.val / 2 ∧ win8_1.index t (1 : Fin 4) = t.val % 2 + 1
    ∧ win8_1.index t (2 : Fin 4) = 0 ∧ win8_1.index t (3 : Fin 4) = 0 :=
  (by decide +kernel : ∀ t : Fin grid8.N, win8_1.index t (0 : Fin 4) = t.val / 2 ∧ win8_1.index t (1 : Fin 4) = t.val % 2 + 1
    ∧ win8_1.index t (2 : Fin 4) = 0 ∧ win8_1.index t (3 : Fin 4) = 0)
theorem index_weights : ∀ t : Fin cfg8.N, win8_2.index t (0 : Fin 3) = 0 ∧ win8_2.index t (1 : Fin 3) = 0 ∧ win8_2.index t (2 : Fin 3) = 0 :=
  (by decide +kernel : ∀ t : Fin grid8.N, win8_2.index t (0 : Fin 3) = 0 ∧ win8_2.index t (1 : Fin 3) = 0 ∧ win8_2.index t (2 : Fin 3) = 0)
theorem index_bias : ∀ t : Fin cfg8.N, win8_3.index t (0 : Fin 2) = 0 ∧ win8_3.index t (1 : Fin 2) = 0 :=
  (by decide +kernel : ∀ t : Fin grid8.N, win8_3.index t (0 : Fin 2) = 0 ∧ win8_3.index t (1 : Fin 2) = 0)
theorem index_out : ∀ t : Fin cfg8.N, win8_4.index t (0 : Fin 4) = t.val / 2 ∧ win8_4.index t (1 : Fin 4) = t.val % 2
    ∧ win8_4.index t (2 : Fin 4) = 0 ∧ win8_4.index t (3 : Fin 4) = 0 :=
  (by decide +kernel : ∀ t : Fin grid8.N, win8_4.index t (0 : Fin 4) = t.val / 2 ∧ win8_4.index t (1 : Fin 4) = t.val % 2
    ∧ win8_4.index t (2 : Fin 4) = 0 ∧ win8_4.index t (3 : Fin 4) = 0)

/-- Row hh of the upper row block is row 28 · (row tile) + hh of the padded image. -/
theorem upper_at (c : Dev nD) (t : Fin cfg8.N) (hh : Fin 28) (ww : Fin 64) (ci : Fin 128) (n : Fin 32) (row : Fin 84)
    (hn : n.val = t.val / 2) (hrow : row.val = t.val % 2 * 28 + hh.val) :
    blk V c 0 t (ix4 (0 : Fin 1) hh ww ci) = xp V c (ix4 n row ww ci) := by
  obtain ⟨e0, e1, e2, e3⟩ := index_upper t
  show V c (Pipeline.arrRef spec8 0) (((cfg8.win 0).blk t).view.emb (ix4 (0 : Fin 1) hh ww ci)) = V c (Pipeline.arrRef spec8 0) (ix4 n row ww ci)
  refine congrArg _ (funext fun a => Fin.ext ?_)
  match a with
  | ⟨0, _⟩ => show win8_0.index t (0 : Fin 4) * 1 + 1 * 0 = n.val; omega
  | ⟨1, _⟩ => show win8_0.index t (1 : Fin 4) * 28 + 1 * hh.val = row.val; omega
  | ⟨2, _⟩ => show win8_0.index t (2 : Fin 4) * 64 + 1 * ww.val = ww.val; omega
  | ⟨3, _⟩ => show win8_0.index t (3 : Fin 4) * 128 + 1 * ci.val = ci.val; omega

/-- Row hh of the lower row block is row 28 · (row tile + 1) + hh of the same image: the halo. -/
theorem lower_at (c : Dev nD) (t : Fin cfg8.N) (hh : Fin 28) (ww : Fin 64) (ci : Fin 128) (n : Fin 32) (row : Fin 84)
    (hn : n.val = t.val / 2) (hrow : row.val = (t.val % 2 + 1) * 28 + hh.val) :
    blk V c 1 t (ix4 (0 : Fin 1) hh ww ci) = xp V c (ix4 n row ww ci) := by
  obtain ⟨e0, e1, e2, e3⟩ := index_lower t
  show V c (Pipeline.arrRef spec8 1) (((cfg8.win 1).blk t).view.emb (ix4 (0 : Fin 1) hh ww ci)) = V c (Pipeline.arrRef spec8 0) (ix4 n row ww ci)
  refine congrArg _ (funext fun a => Fin.ext ?_)
  match a with
  | ⟨0, _⟩ => show win8_1.index t (0 : Fin 4) * 1 + 1 * 0 = n.val; omega
  | ⟨1, _⟩ => show win8_1.index t (1 : Fin 4) * 28 + 1 * hh.val = row.val; omega
  | ⟨2, _⟩ => show win8_1.index t (2 : Fin 4) * 64 + 1 * ww.val = ww.val; omega
  | ⟨3, _⟩ => show win8_1.index t (3 : Fin 4) * 128 + 1 * ci.val = ci.val; omega

/-- So the 56 rows the two blocks make up are rows 28 · (row tile) … of the padded image. -/
theorem pix_at (c : Dev nD) (t : Fin cfg8.N) (hh : Fin 56) (ww : Fin 64) (ci : Fin 128) (n : Fin 32) (row : Fin 84)
    (hn : n.val = t.val / 2) (hrow : row.val = t.val % 2 * 28 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 56 := hh.isLt
    exact lower_at V c t ⟨hh.val - 28, by omega⟩ ww ci n row hn (by show row.val = (t.val % 2 + 1) * 28 + (hh.val - 28); omega)

/-- The weights' block is the whole weight array, -/
theorem weights_at (c : Dev nD) (t : Fin cfg8.N) (y : S3x384x256.Idx) : blk V c 2 t y = wk V c y := by
  obtain ⟨e0, e1, e2⟩ := index_weights t
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 3) * 3 + 1 * (y 0).val = (y 0).val; omega
  | ⟨1, _⟩ => show win8_2.index t (1 : Fin 3) * 384 + 1 * (y 1).val = (y 1).val; omega
  | ⟨2, _⟩ => show win8_2.index t (2 : Fin 3) * 256 + 1 * (y 2).val = (y 2).val; omega

/-- and the bias's the whole bias row. -/
theorem bias_at (c : Dev nD) (t : Fin cfg8.N) (y : S1x256.Idx) : blk V c 3 t y = bias V c y := by
  obtain ⟨e0, e1⟩ := index_bias t
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 256 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x56x56x256.Idx → EReal := fun i =>
  max ((∑ dy : Fin 3, ∑ dx : Fin 3, ∑ ci : Fin 128,
          xp V c (ix4 (⟨(i 0).val, (i 0).isLt⟩ : Fin 32) ⟨(i 1).val + dy.val, by have h1 : (i 1).val < 56 := (i 1).isLt; omega⟩
              ⟨(i 2).val + dx.val, by have h2 : (i 2).val < 56 := (i 2).isLt; omega⟩ ci)
            * wk V c (ix3 dx ⟨dy.val * 128 + ci.val, by omega⟩ (⟨(i 3).val, (i 3).isLt⟩ : Fin 256)))
        + bias V c (ix2 0 (⟨(i 3).val, (i 3).isLt⟩ : Fin 256))) 0

/-- An index of the output array is in position t's tile iff each coordinate is in the tile's range on its axis. -/
theorem mem_tile (t : Fin cfg8.N) (i : S32x56x56x256.Idx) :
    i ∈ ((cfg8.win 4).blk t).view.set ↔ ∀ a : Fin 4, win8_4.index t a * S1x28x56x256.size a ≤ (i a).val ∧ (i a).val < win8_4.index t a * S1x28x56x256.size a + S1x28x56x256.size a := by
  show i ∈ ((View.whole (Pipeline.arrRef spec8 4)).slice (win8_4.rect t)).set ↔ _
  rw [View.set_slice_whole, Rect.mem_set_unit]
  exact Iff.rfl

section FromTheTile

-- what the body leaves in the tile, index by index over its four blocks: the hypothesis this section is stated under
variable (htile : ∀ (xa xb : Vec Ideal S1x28x64x128 .bf16) (wk : Vec Ideal S3x384x256 .bf16) (b : Vec Ideal S1x256 .f32)
    (h : Fin 28) (w : Fin 56) (co : Fin 256),
    tile (F := Ideal) xa xb wk b (ix4 0 h w co)
      = max ((∑ dy : Fin 3, ∑ dx : Fin 3, ∑ ci : Fin 128,
                pix xa xb ⟨h.val + dy.val, by omega⟩ ⟨w.val + dx.val, by omega⟩ ci
                  * wk (ix3 dx ⟨dy.val * 128 + ci.val, by omega⟩ co))
              + b (ix2 0 co)) 0)

include htile

/-- The tile at grid position t, index by index over the region's arrays. -/
theorem tile_at (c : Dev nD) (t : Fin cfg8.N) (h : Fin 28) (w : Fin 56) (co : Fin 256) (n : Fin 32) (row : Fin 56)
    (hn : n.val = t.val / 2) (hrow : row.val = t.val % 2 * 28 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 28 := h.isLt
  rw [weights_at, pix_at V c t _ _ ci n ⟨row.val + dy.val, by omega⟩ hn (by show row.val + dy.val = t.val % 2 * 28 + (h.val + dy.val); omega)]

/-- What grid position t writes back is its tile of `conv`. -/
theorem flushed_eq (c : Dev nD) (t : Fin cfg8.N) (hf : (cfg8.win 4).flush t = true) :
    (dat (F := Ideal) V c).flushed 4 t = ((cfg8.win 4).blk t).view.read (Elt Ideal) (conv V c) := by
  have hN : cfg8.N = 32 * 2 := N_8
  have ht : t.val < 32 * 2 := lt_of_lt_of_eq t.isLt hN
  obtain ⟨e0, e1, e2, e3⟩ := index_out t
  show (cfg8.win 4).cut (grid8.coords t) ((dat (F := Ideal) V c).after 4 t) = _
  rw [after_4]
  funext y
  have y0 : (y 0).val < 1 := (y 0).isLt
  have y1 : (y 1).val < 28 := (y 1).isLt
  have y2 : (y 2).val < 56 := (y 2).isLt
  have y3 : (y 3).val < 256 := (y 3).isLt
  have ey : y = ix4 (0 : Fin 1) (⟨(y 1).val, y1⟩ : Fin 28) (⟨(y 2).val, y2⟩ : Fin 56) (⟨(y 3).val, y3⟩ : Fin 256) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg8.win 4).blk t).view.emb y)
  have hE : ((cfg8.win 4).blk t).view.emb y
      = ix4 (⟨t.val / 2, by omega⟩ : Fin 32) (⟨t.val % 2 * 28 + (y 1).val, by omega⟩ : Fin 56) (⟨(y 2).val, y2⟩ : Fin 56) (⟨(y 3).val, y3⟩ : Fin 256) := by
    refine funext fun a => Fin.ext ?_
    match a with
    | ⟨0, _⟩ => show win8_4.index t (0 : Fin 4) * 1 + 1 * (y 0).val = t.val / 2; omega
    | ⟨1, _⟩ => show win8_4.index t (1 : Fin 4) * 28 + 1 * (y 1).val = t.val % 2 * 28 + (y 1).val; omega
    | ⟨2, _⟩ => show win8_4.index t (2 : Fin 4) * 56 + 1 * (y 2).val = (y 2).val; omega
    | ⟨3, _⟩ => show win8_4.index t (3 : Fin 4) * 256 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 56 := (i 1).isLt
    have i2 : (i 2).val < 56 := (i 2).isLt
    have i3 : (i 3).val < 256 := (i 3).isLt
    have hN : cfg8.N = 32 * 2 := N_8
    refine ⟨⟨(i 0).val * 2 + (i 1).val / 28, by rw [hN]; omega⟩, flush8_4 _, ?_⟩
    rw [mem_tile]
    obtain ⟨e0, e1, e2, e3⟩ := index_out ⟨(i 0).val * 2 + (i 1).val / 28, by rw [hN]; omega⟩
    intro a
    match a with
    | ⟨0, _⟩ => show win8_4.index _ (0 : Fin 4) * 1 ≤ (i 0).val ∧ (i 0).val < win8_4.index _ (0 : Fin 4) * 1 + 1; rw [e0]; dsimp only; omega
    | ⟨1, _⟩ => show win8_4.index _ (1 : Fin 4) * 28 ≤ (i 1).val ∧ (i 1).val < win8_4.index _ (1 : Fin 4) * 28 + 28; rw [e1]; dsimp only; omega
    | ⟨2, _⟩ => show win8_4.index _ (2 : Fin 4) * 56 ≤ (i 2).val ∧ (i 2).val < win8_4.index _ (2 : Fin 4) * 56 + 56; rw [e2]; omega
    | ⟨3, _⟩ => show win8_4.index _ (3 : Fin 4) * 256 ≤ (i 3).val ∧ (i 3).val < win8_4.index _ (3 : Fin 4) * 256 + 256; rw [e3]; omega

/-- THE REGION'S OUTPUT, element by element: sum over the vertical tap `dy`, the horizontal tap `dx` and the input
    channel `ci`. -/
theorem out_of_tile (c : Dev nD) (n : Fin 32) (h : Fin 56) (w : Fin 56) (co : Fin 256) :
    yOut V c (ix4 n h w co)
      = max ((∑ dy : Fin 3, ∑ dx : Fin 3, ∑ ci : Fin 128,
                xp V c (ix4 n ⟨h.val + dy.val, by omega⟩ ⟨w.val + dx.val, by omega⟩ ci)
                  * wk V c (ix3 dx ⟨dy.val * 128 + ci.val, by omega⟩ co))
              + bias V c (ix2 0 co)) 0 := by
  rw [final V htile c]
  rfl

end FromTheTile

end Cert.KernelIdeal.Reg8

end
-- ==== Proof.KI.Reg8Value.lean ====
/-
  The 3×3 convolution 128 → 256 on 56×56 images (kernel-side program, pallas region 8) at the ideal float model.
  The arithmetic of one grid point read index by index — the slab of stacked row blocks, the three lane-concatenated
  operands (one per horizontal tap), the three products of contraction depth 384, the bias-added, rectified tile —
  regrouped as the triple sum over the vertical tap, the horizontal tap and the input channel; and with the blocks
  read off the region's arrays, the output array after the last grid point, element by element, the weight array
  [3, 384, 256] read at (dx, dy·128 + ci, co).
-/
import proofs.«143011_g2000502688546152_pallasbulk_1201_3_alg».proof.Proof.KI.Reg8Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg8

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 28, 64, 128] laid out as 28 · 64 pixel rows of 128 channels. -/
def rows (x : Vec F S1x28x64x128 .bf16) : FVec F S1792x128 .bf16 :=
  shapeCast S1792x128 (shapeCast S28x64x128 x Gen.shapeCasts_S1x28x64x128_S28x64x128) Gen.shapeCasts_S28x64x128_S1792x128

/-- Both row blocks stacked, then 64 zero rows: 3648 pixel rows. -/
def slab (xa xb : Vec F S1x28x64x128 .bf16) : FVec F S3648x128 .bf16 :=
  concatenate S3648x128 0 [⟨S1792x128, rows xa⟩, ⟨S1792x128, rows xb⟩, ⟨S64x128, broadcast S64x128 (Scalar.ofBits .bf16 0x0000#16)⟩]
    Gen.concatenates_S1792x128_S1792x128_S64x128_S3648x128_d0

/-- Three windows of 1792 rows of a pixel-row matrix, at row offsets 0, 64, 128 (one image row apart), side by side:
    depth 3 · 128. -/
def lanes {M : Nat} (T : (⟨2, ![M, 128]⟩ : Shape).Idx → F .bf16)
    (h0 : (⟨2, ![M, 128]⟩ : Shape).Slices ![0, 0] S1792x128) (h1 : (⟨2, ![M, 128]⟩ : Shape).Slices ![64, 0] S1792x128)
    (h2 : (⟨2, ![M, 128]⟩ : Shape).Slices ![128, 0] S1792x128) : FVec F S1792x384 .bf16 :=
  concatenate S1792x384 1 [⟨S1792x128, extractStridedSlice S1792x128 ![0, 0] T h0⟩, ⟨S1792x128, extractStridedSlice S1792x128 ![64, 0] T h1⟩,
    ⟨S1792x128, extractStridedSlice S1792x128 ![128, 0] T h2⟩] Gen.concatenates_S1792x128_S1792x128_S1792x128_S1792x384_d1

/-- The operand of horizontal tap 0, 1, 2: the slab shifted by that many pixel rows, then `lanes`. -/
def lhs0 (S : FVec F S3648x128 .bf16) : FVec F S1792x384 .bf16 :=
  lanes (M := 3648) S Gen.slices_S3648x128_o0_0_S1792x128 Gen.slices_S3648x128_o64_0_S1792x128 Gen.slices_S3648x128_o128_0_S1792x128
def lhs1 (S : FVec F S3648x128 .bf16) : FVec F S1792x384 .bf16 :=
  lanes (M := 3647) (extractStridedSlice S3647x128 ![1, 0] S Gen.slices_S3648x128_o1_0_S3647x128)
    Gen.slices_S3647x128_o0_0_S1792x128 Gen.slices_S3647x128_o64_0_S1792x128 Gen.slices_S3647x128_o128_0_S1792x128
def lhs2 (S : FVec F S3648x128 .bf16) : FVec F S1792x384 .bf16 :=
  lanes (M := 3646) (extractStridedSlice S3646x128 ![2, 0] S Gen.slices_S3648x128_o2_0_S3646x128)
    Gen.slices_S3646x128_o0_0_S1792x128 Gen.slices_S3646x128_o64_0_S1792x128 Gen.slices_S3646x128_o128_0_S1792x128

/-- One product: an operand times a weight plane [1, 384, 256], into zero. -/
def prod (L : FVec F S1792x384 .bf16) (w : Vec F S1x384x256 .bf16) : FVec F S1792x256 .f32 :=
  matmul dot_S1792x384_S384x256_S1792x256_1_0_0_1_n_n none L (shapeCast S384x256 w Gen.shapeCasts_S1x384x256_S384x256)
    (constant S1792x256 .f32 0x00000000#32)

/-- The printed accumulation is zero plus the three products, in tap order. -/
theorem pay2_eq (v0 v3 : Vec F S1x28x64x128 .bf16) (w0 w1 w2 : Vec F S1x384x256 .bf16) :
    k8_pay2 v0 v3 w0 w1 w2
      = addf (addf (addf (broadcast S1792x256 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 128 + ci` is the matrix at row `r + 64 · dy`, channel `ci`. -/
theorem lanes_apply {M : Nat} (hM : 1920 ≤ M) (T : (⟨2, ![M, 128]⟩ : Shape).Idx → Ideal .bf16)
    (h0 : (⟨2, ![M, 128]⟩ : Shape).Slices ![0, 0] S1792x128) (h1 : (⟨2, ![M, 128]⟩ : Shape).Slices ![64, 0] S1792x128)
    (h2 : (⟨2, ![M, 128]⟩ : Shape).Slices ![128, 0] S1792x128) (r : Fin 1792) (dy : Fin 3) (ci : Fin 128) :
    lanes (F := Ideal) T h0 h1 h2 (ix2 r ⟨dy.val * 128 + ci.val, by omega⟩) = T (ix2 ⟨r.val + 64 * dy.val, by omega⟩ ci) := by
  unfold lanes
  match dy with
  | ⟨0, _⟩ =>
    refine Eq.trans (concatenate_apply_piece (t := S1792x384) 1 _ _ _ 0 ?_ S1792x128 (extractStridedSlice S1792x128 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 128 + ci.val; omega
    · exact extractStridedSlice_apply _ _ _ _ _ (fun a => by
        match a with
        | ⟨0, _⟩ => show r.val + 64 * 0 = 0 + r.val; omega
        | ⟨1, _⟩ => show ci.val = 0 + ci.val; omega)
  | ⟨1, _⟩ =>
    refine Eq.trans (concatenate_apply_piece (t := S1792x384) 1 _ _ _ 1 ?_ S1792x128 (extractStridedSlice S1792x128 ![64, 0] T h1) ?_ ?_ 128 ?_ (ix2 r ci) ?_ ?_) ?_
    · show _ < 3; omega
    · rfl
    · rfl
    · rfl
    · intro b hb
      match b with
      | ⟨0, _⟩ => rfl
      | ⟨1, _⟩ => exact absurd rfl hb
    · show 128 + ci.val = 1 * 128 + ci.val; omega
    · exact extractStridedSlice_apply _ _ _ _ _ (fun a => by
        match a with
        | ⟨0, _⟩ => show r.val + 64 * 1 = 64 + r.val; omega
        | ⟨1, _⟩ => show ci.val = 0 + ci.val; omega)
  | ⟨2, _⟩ =>
    refine Eq.trans (concatenate_apply_piece (t := S1792x384) 1 _ _ _ 2 ?_ S1792x128 (extractStridedSlice S1792x128 ![128, 0] T h2) ?_ ?_ 256 ?_ (ix2 r ci) ?_ ?_) ?_
    · show _ < 3; omega
    · rfl
    · rfl
    · rfl
    · intro b hb
      match b with
      | ⟨0, _⟩ => rfl
      | ⟨1, _⟩ => exact absurd rfl hb
    · show 256 + ci.val = 2 * 128 + ci.val; omega
    · exact extractStridedSlice_apply _ _ _ _ _ (fun a => by
        match a with
        | ⟨0, _⟩ => show r.val + 64 * 2 = 128 + r.val; omega
        | ⟨1, _⟩ => show ci.val = 0 + ci.val; omega)

/-- A row block as pixel rows: row `hh · 64 + ww` is pixel `(hh, ww)`. -/
theorem rows_apply (x : Vec Ideal S1x28x64x128 .bf16) (hh : Fin 28) (ww : Fin 64) (ci : Fin 128) :
    rows (F := Ideal) x (ix2 ⟨hh.val * 64 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 28 + hh.val) * 64 + ww.val) * 128 + ci.val = (hh.val * 64 + ww.val) * 128 + ci.val
    omega

/-- The slab at pixel `(hh, ww)` of the 56-row padded image: the upper block for the first 28 rows, else the lower block. -/
theorem slab_upper (xa xb : Vec Ideal S1x28x64x128 .bf16) (hh : Fin 28) (ww : Fin 64) (ci : Fin 128) :
    slab (F := Ideal) xa xb (ix2 ⟨hh.val * 64 + ww.val, by omega⟩ ci) = xa (ix4 0 hh ww ci) := by
  unfold slab
  refine Eq.trans (concatenate_apply_piece (t := S3648x128) 0 _ _ _ 0 ?_ S1792x128 (rows xa) ?_ ?_ 0 ?_ (ix2 ⟨hh.val * 64 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 64 + ww.val) = hh.val * 64 + ww.val; omega
  · exact rows_apply xa hh ww ci

theorem slab_lower (xa xb : Vec Ideal S1x28x64x128 .bf16) (hh : Fin 28) (ww : Fin 64) (ci : Fin 128) :
    slab (F := Ideal) xa xb (ix2 ⟨(28 + hh.val) * 64 + ww.val, by omega⟩ ci) = xb (ix4 0 hh ww ci) := by
  unfold slab
  refine Eq.trans (concatenate_apply_piece (t := S3648x128) 0 _ _ _ 1 ?_ S1792x128 (rows xb) ?_ ?_ 1792 ?_ (ix2 ⟨hh.val * 64 + ww.val, by omega⟩ ci) ?_ ?_) ?_
  · show _ < 3; omega
  · rfl
  · rfl
  · rfl
  · intro b hb
    match b with
    | ⟨0, _⟩ => exact absurd rfl hb
    | ⟨1, _⟩ => rfl
  · show 1792 + (hh.val * 64 + ww.val) = (28 + hh.val) * 64 + ww.val; omega
  · exact rows_apply xb hh ww ci

/-- The three operands at pixel row `r`, depth `dy · 128 + ci`: the slab `dx` pixel rows and `dy` image rows further on. -/
theorem lhs0_apply (S : FVec Ideal S3648x128 .bf16) (r : Fin 1792) (dy : Fin 3) (ci : Fin 128) :
    lhs0 (F := Ideal) S (ix2 r ⟨dy.val * 128 + ci.val, by omega⟩) = S (ix2 ⟨r.val + 64 * dy.val, by omega⟩ ci) := by
  unfold lhs0; exact lanes_apply (by decide) _ _ _ _ r dy ci

theorem lhs1_apply (S : FVec Ideal S3648x128 .bf16) (r : Fin 1792) (dy : Fin 3) (ci : Fin 128) :
    lhs1 (F := Ideal) S (ix2 r ⟨dy.val * 128 + ci.val, by omega⟩) = S (ix2 ⟨1 + (r.val + 64 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S3648x128 .bf16) (r : Fin 1792) (dy : Fin 3) (ci : Fin 128) :
    lhs2 (F := Ideal) S (ix2 r ⟨dy.val * 128 + ci.val, by omega⟩) = S (ix2 ⟨2 + (r.val + 64 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S1792x384_S384x256_S1792x256_1_0_0_1_n_n

theorem DD_lhs0 (j : S1792x256.Idx) (k : DD.contr.Idx) : (DD.lhsIdx j k 0 : ℕ) = j 0 := by
  simp [DotDims.lhsIdx, DD, dot_S1792x384_S384x256_S1792x256_1_0_0_1_n_n]; rfl
theorem DD_lhs1 (j : S1792x256.Idx) (k : DD.contr.Idx) : (DD.lhsIdx j k 1 : ℕ) = k ⟨0, by decide⟩ := by
  simp [DotDims.lhsIdx, DD, dot_S1792x384_S384x256_S1792x256_1_0_0_1_n_n]; rfl
theorem DD_rhs0 (j : S1792x256.Idx) (k : DD.contr.Idx) : (DD.rhsIdx j k 0 : ℕ) = k ⟨0, by decide⟩ := by
  simp [DotDims.rhsIdx, DD, dot_S1792x384_S384x256_S1792x256_1_0_0_1_n_n]; rfl
theorem DD_rhs1 (j : S1792x256.Idx) (k : DD.contr.Idx) : (DD.rhsIdx j k 1 : ℕ) = j 1 := by
  simp [DotDims.rhsIdx, DD, dot_S1792x384_S384x256_S1792x256_1_0_0_1_n_n]; rfl

/-- The contraction index is its one coordinate, below 384. -/
def cEq : DD.contr.Idx ≃ Fin 384 := contrEquiv1 DD 384 rfl rfl

/-- One product at pixel row `r`, output channel `co`: the sum over the depth of operand times weight plane. -/
theorem prod_apply (L : FVec Ideal S1792x384 .bf16) (w : Vec Ideal S1x384x256 .bf16) (r : Fin 1792) (co : Fin 256) :
    prod (F := Ideal) L w (ix2 r co) = ∑ k : Fin 384, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S384x256.rowMajor (DD.rhsIdx (ix2 r co) k)).val = (S1x384x256.rowMajor (ix3 0 (cEq k) co)).val := by
    rw [Shape.rowMajor_val_two, Shape.rowMajor_val_three, DD_rhs0, DD_rhs1]
    show (k ⟨0, by decide⟩).val * 256 + co.val = ((0 : ℕ) * 384 + (k ⟨0, by decide⟩).val) * 256 + co.val
    omega
  rw [hl, shapeCast_apply _ _ _ (ix3 0 (cEq k) co) hr.symm]

/-! ## The accumulation and the tile at an index -/

theorem slab_pix (xa xb : Vec Ideal S1x28x64x128 .bf16) (hh : Fin 56) (ww : Fin 64) (ci : Fin 128) :
    slab (F := Ideal) xa xb (ix2 ⟨hh.val * 64 + ww.val, by omega⟩ ci) = pix xa xb hh ww ci := by
  unfold pix
  split
  · rename_i h
    exact slab_upper xa xb ⟨hh.val, h⟩ ww ci
  · rename_i h
    have e : (⟨hh.val * 64 + ww.val, by omega⟩ : Fin 3648) = ⟨(28 + (hh.val - 28)) * 64 + ww.val, by omega⟩ :=
      Fin.ext (by show hh.val * 64 + ww.val = (28 + (hh.val - 28)) * 64 + ww.val; omega)
    rw [e]
    exact slab_lower xa xb ⟨hh.val - 28, by omega⟩ ww ci

/-- The operand of horizontal tap `dx`. -/
def lhs (S : FVec Ideal S3648x128 .bf16) (dx : Fin 3) : FVec Ideal S1792x384 .bf16 :=
  match dx with
  | ⟨0, _⟩ => lhs0 S
  | ⟨1, _⟩ => lhs1 S
  | ⟨2, _⟩ => lhs2 S

/-- At valid pixel `(h, w)`, depth `dy · 128 + ci`, tap `dx`'s operand is the padded image at `(h + dy, w + dx)`. -/
theorem tap_apply (xa xb : Vec Ideal S1x28x64x128 .bf16) (dx : Fin 3) (h : Fin 28) (w : Fin 56) (dy : Fin 3) (ci : Fin 128) :
    lhs (slab xa xb) dx (ix2 ⟨h.val * 64 + w.val, by omega⟩ ⟨dy.val * 128 + ci.val, by omega⟩)
      = pix xa xb ⟨h.val + dy.val, by omega⟩ ⟨w.val + dx.val, by omega⟩ ci := by
  match dx with
  | ⟨0, _⟩ =>
    refine (lhs0_apply _ ⟨h.val * 64 + w.val, by omega⟩ dy ci).trans ?_
    have e : (⟨h.val * 64 + w.val + 64 * dy.val, by omega⟩ : Fin 3648) = ⟨(h.val + dy.val) * 64 + (w.val + 0), by omega⟩ :=
      Fin.ext (by show h.val * 64 + w.val + 64 * dy.val = (h.val + dy.val) * 64 + (w.val + 0); omega)
    rw [e]
    exact slab_pix xa xb ⟨h.val + dy.val, by omega⟩ ⟨w.val + 0, by omega⟩ ci
  | ⟨1, _⟩ =>
    refine (lhs1_apply _ ⟨h.val * 64 + w.val, by omega⟩ dy ci).trans ?_
    have e : (⟨1 + (h.val * 64 + w.val + 64 * dy.val), by omega⟩ : Fin 3648) = ⟨(h.val + dy.val) * 64 + (w.val + 1), by omega⟩ :=
      Fin.ext (by show 1 + (h.val * 64 + w.val + 64 * dy.val) = (h.val + dy.val) * 64 + (w.val + 1); omega)
    rw [e]
    exact slab_pix xa xb ⟨h.val + dy.val, by omega⟩ ⟨w.val + 1, by omega⟩ ci
  | ⟨2, _⟩ =>
    refine (lhs2_apply _ ⟨h.val * 64 + w.val, by omega⟩ dy ci).trans ?_
    have e : (⟨2 + (h.val * 64 + w.val + 64 * dy.val), by omega⟩ : Fin 3648) = ⟨(h.val + dy.val) * 64 + (w.val + 2), by omega⟩ :=
      Fin.ext (by show 2 + (h.val * 64 + w.val + 64 * dy.val) = (h.val + dy.val) * 64 + (w.val + 2); omega)
    rw [e]
    exact slab_pix xa xb ⟨h.val + dy.val, by omega⟩ ⟨w.val + 2, by omega⟩ ci

/-- A sum over the depth 384 is a sum over the vertical tap and the channel. -/
theorem sum_depth (f : Fin 384 → EReal) :
    ∑ k : Fin 384, f k = ∑ dy : Fin 3, ∑ ci : Fin 128, f ⟨dy.val * 128 + ci.val, by omega⟩ := by
  rw [← Finset.sum_product', Finset.univ_product_univ]
  exact (Fintype.sum_equiv (finProdFinEquiv (m := 3) (n := 128)) (fun p => f ⟨p.1.val * 128 + p.2.val, by omega⟩) f (fun p =>
    congrArg f (Fin.ext (by show p.1.val * 128 + p.2.val = p.2.val + 128 * p.1.val; omega)))).symm

/-- A weight plane read through its rectangle is that plane of the array. -/
theorem ldK0 (wk : Vec Ideal S3x384x256 .bf16) (k : Fin 384) (co : Fin 256) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x384x256 .bf16) (k : Fin 384) (co : Fin 256) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x384x256 .bf16) (k : Fin 384) (co : Fin 256) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S1792x384 .bf16) (wk : Vec Ideal S3x384x256 .bf16) (r : Fin 1792) (co : Fin 256) :
    prod (F := Ideal) L (View.ld wk rK0) (ix2 r co) = ∑ k : Fin 384, L (ix2 r k) * wk (ix3 0 k co) :=
  (prod_apply L _ r co).trans (Finset.sum_congr rfl fun k _ => congrArg (fun z => L (ix2 r k) * z) (ldK0 wk k co))
theorem prodK1 (L : FVec Ideal S1792x384 .bf16) (wk : Vec Ideal S3x384x256 .bf16) (r : Fin 1792) (co : Fin 256) :
    prod (F := Ideal) L (View.ld wk rK1) (ix2 r co) = ∑ k : Fin 384, L (ix2 r k) * wk (ix3 1 k co) :=
  (prod_apply L _ r co).trans (Finset.sum_congr rfl fun k _ => congrArg (fun z => L (ix2 r k) * z) (ldK1 wk k co))
theorem prodK2 (L : FVec Ideal S1792x384 .bf16) (wk : Vec Ideal S3x384x256 .bf16) (r : Fin 1792) (co : Fin 256) :
    prod (F := Ideal) L (View.ld wk rK2) (ix2 r co) = ∑ k : Fin 384, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x28x64x128 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 128 + ci, co)`. -/
theorem acc_apply (xa xb : Vec Ideal S1x28x64x128 .bf16) (wk : Vec Ideal S3x384x256 .bf16) (h : Fin 28) (w : Fin 56) (co : Fin 256) :
    acc (F := Ideal) xa xb wk (ix2 ⟨h.val * 64 + w.val, by omega⟩ co)
      = ∑ dy : Fin 3, ∑ dx : Fin 3, ∑ ci : Fin 128,
          pix xa xb ⟨h.val + dy.val, by omega⟩ ⟨w.val + dx.val, by omega⟩ ci * wk (ix3 dx ⟨dy.val * 128 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 28 rows of 64 columns,
    the 56 valid columns kept. -/
theorem pay1_eq {F : FTy → Type} [FloatOps F] (A : FVec F S1792x256 .f32) (b : Vec F S1x256 .f32) :
    k8_pay1 A b
      = shapeCast S1x28x56x256
          (truncf .bf16
            (extractStridedSlice S28x56x256 ![0, 0, 0]
              (shapeCast S28x64x256
                (maximumf (addf A (broadcastTo S1792x256 b Gen.broadcasts_S1x256_S1792x256))
                  (broadcast S1792x256 (Scalar.ofBits .f32 0x00000000#32)))
                Gen.shapeCasts_S1792x256_S28x64x256)
              Gen.slices_S28x64x256_o0_0_0_S28x56x256)
            bitsLt_bf16_f32)
          Gen.shapeCasts_S28x56x256_S1x28x56x256 := rfl

/-- The bias row read through its rectangle is the bias. -/
theorem ldB (b : Vec Ideal S1x256 .f32) : View.ld b rB = b :=
  View.ld_unit_zero (funext fun a => by
    match a with
    | ⟨0, _⟩ => rfl
    | ⟨1, _⟩ => rfl) _ b

/-- The output tile at `(h, w, co)`: the accumulation at pixel row `h · 64 + w` plus the bias, rectified. -/
theorem tile_apply (xa xb : Vec Ideal S1x28x64x128 .bf16) (wk : Vec Ideal S3x384x256 .bf16) (b : Vec Ideal S1x256 .f32)
    (h : Fin 28) (w : Fin 56) (co : Fin 256) :
    tile (F := Ideal) xa xb wk b (ix4 0 h w co) = max (acc xa xb wk (ix2 ⟨h.val * 64 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 56 + w.val) * 256 + co.val = (((0 : ℕ) * 28 + h.val) * 56 + w.val) * 256 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 64 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 64 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x28x64x128 .bf16) (wk : Vec Ideal S3x384x256 .bf16) (b : Vec Ideal S1x256 .f32)
    (h : Fin 28) (w : Fin 56) (co : Fin 256) :
    tile (F := Ideal) xa xb wk b (ix4 0 h w co)
      = max ((∑ dy : Fin 3, ∑ dx : Fin 3, ∑ ci : Fin 128,
                pix xa xb ⟨h.val + dy.val, by omega⟩ ⟨w.val + dx.val, by omega⟩ ci
                  * wk (ix3 dx ⟨dy.val * 128 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 56) (w : Fin 56) (co : Fin 256) :
    yOut V c (ix4 n h w co)
      = max ((∑ dy : Fin 3, ∑ dx : Fin 3, ∑ ci : Fin 128,
                xp V c (ix4 n ⟨h.val + dy.val, by omega⟩ ⟨w.val + dx.val, by omega⟩ ci)
                  * wk V c (ix3 dx ⟨dy.val * 128 + ci.val, by omega⟩ co))
              + bias V c (ix2 0 co)) 0 :=
  out_of_tile V tile_value c n h w co

end Cert.KernelIdeal.Reg8
-- ==== Proof.KI.GluePad8.lean ====
/-
  The border of zeros put around the stack of 128 channels at 56 × 56 before region 8: the stretch converts
  the integer 0 to a float and pads the stack, one position in front of rows and columns and the rest behind, to
  84 rows and 64 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_8 (V : Valuation τ sig (Elt Ideal)) (hc : V main_c_9 = constantI S_ 32 0#32)
    (n : Fin 32) (i : Fin 84) (j : Fin 64) (ci : Fin 128) :
    (StableHlo.after hostOps8_1 V main_v41 : FVec Ideal S32x84x64x128 .bf16) (ix4 n i j ci)
      = Cert.Spec.padAt (Cert.Spec.curry4 (V main_v40 : FVec Ideal S32x56x56x128 .bf16)) n i.val j.val ci := by
  have h : StableHlo.after hostOps8_1 V main_v41
      = pad S32x84x64x128 ![0, 1, 1, 0] ![0, 27, 7, 0] ![0, 0, 0, 0] (V main_v40) (sitofp (F := Ideal) .bf16 (V main_c_9))
          pads_S32x56x56x128_S32x84x64x128_000_1270_170_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW8.lean ====
/-
  The weights of region 8 as the region finds them: the [3, 3, 128, 256] parameter array with its two tap axes
  exchanged, the row tap and the input channel then read as one axis of 384 (row tap major), narrowed to the shorter
  float format. Entry (column tap, row tap · 128 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_8 (V : Valuation τ sig (Elt Ideal)) (dy dx : Fin 3) (ci : Fin 128) (co : Fin 256)
    (hk : dy.val * 128 + ci.val < 384) :
    (StableHlo.after hostOps8_2 V main_v44 : FVec Ideal S3x384x256 .bf16) (ix3 dx ⟨dy.val * 128 + ci.val, hk⟩ co)
      = (V main_arg10 : FVec Ideal S3x3x128x256 .f32) (ix4 dy dx ci co) := by
  have h : StableHlo.after hostOps8_2 V main_v44
      = truncf (F := Ideal) .bf16 (shapeCast S3x384x256 (transpose S3x3x128x256 [1, 0, 2, 3] (V main_arg10) transposes_S3x3x128x256_S3x3x128x256_1_0_2_3) shapeCasts_S3x3x128x256_S3x384x256) bitsLt_bf16_f32 := by
    after_results; rfl
  rw [h]
  exact (Cert.Spec.reshape_taps (transpose S3x3x128x256 [1, 0, 2, 3] (V main_arg10) transposes_S3x3x128x256_S3x3x128x256_1_0_2_3) _ dx dy ci co hk rfl).trans
    (Cert.Spec.transpose_1023_apply (V main_arg10) transposes_S3x3x128x256_S3x3x128x256_1_0_2_3 dx dy ci co)

end Cert.KernelIdeal.Glue

end
-- ==== Proof.KI.RunValCore8.lean ====
import proofs.«143011_g2000502688546152_pallasbulk_1201_3_alg».proof.Proof.KI.Reg8Value
import proofs.«143011_g2000502688546152_pallasbulk_1201_3_alg».proof.Proof.KI.GluePad8
import proofs.«143011_g2000502688546152_pallasbulk_1201_3_alg».proof.Proof.KI.GlueW8
import proofs.«143011_g2000502688546152_pallasbulk_1201_3_alg».proof.Proof.Spec.ArgsOf
import proofs.«143011_g2000502688546152_pallasbulk_1201_3_alg».proof.Proof.Spec.FlatIdx

/-! # Region 8 between its neighbours: a convolution layer of the network

If the stack of images the zero border is put around is `aPrev`, the region leaves the 3×3 convolution of `aPrev` with
the [3, 3, 128, 256] parameter array, plus the bias row, clamped below at zero. The two stretches of host operations in
front of the region put the zero border around the stack and lay the parameter array out as [3, 3·128, 256] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_8 (V : Valuation τ sig (Elt Ideal)) : StableHlo.after hostOps8 V main_c_9 = constantI S_ 32 0#32 := by
  after_results <;> rfl

/-- From ANY contents `Wp` in front of the border stretch that hold the integer 0 in the stretch's constant and the
    stack `aPrev` in the array the border is put around: the region's output array, entry by entry. -/
theorem core_8 (Wp : Dev nD → Valuation τ sig (Elt Ideal)) (c : Dev nD)
    (hc : Wp c main_c_9 = constantI S_ 32 0#32)
    (aPrev : Cert.Spec.Act 32 56 56 128)
    (hprev : ∀ (n : Fin 32) (h : Fin 56) (w : Fin 56) (ci : Fin 128),
      (Wp c main_v40 : FVec Ideal S32x56x56x128 .bf16) (ix4 n h w ci) = aPrev n h w ci)
    (n : Fin 32) (h : Fin 56) (w : Fin 56) (co : Fin 256) :
    (Reg8.dat (F := Ideal) (fun c b => StableHlo.after hostOps8_2 (StableHlo.after hostOps8_1 (Wp c)) b) c).arrAt 4 cfg8.N
        (ix4 n h w co)
      = Cert.Spec.convRelu aPrev (Cert.Spec.curryW (Wp c main_arg10 : FVec Ideal S3x3x128x256 .f32))
          (Cert.Spec.curryB (Wp c main_arg11 : FVec Ideal S1x256 .f32)) n h w co := by
  refine (Reg8.out_value _ c n h w co).trans ?_
  have e9 : StableHlo.after hostOps8_2 (StableHlo.after hostOps8_1 (Wp c)) main_v41
      = StableHlo.after hostOps8_1 (Wp c) main_v41 :=
    StableHlo.after_of_writes_sub hostOps8_2 _ hostOps8_2_writes (by decide)
  have eW : StableHlo.after hostOps8_1 (Wp c) main_arg10 = Wp c main_arg10 :=
    StableHlo.after_of_writes_sub hostOps8_1 _ hostOps8_1_writes (by decide)
  have eB : StableHlo.after hostOps8_2 (StableHlo.after hostOps8_1 (Wp c)) main_arg11 = Wp c main_arg11 :=
    (StableHlo.after_of_writes_sub hostOps8_2 _ hostOps8_2_writes (by decide)).trans
      (StableHlo.after_of_writes_sub hostOps8_1 _ hostOps8_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps8_2 (StableHlo.after hostOps8_1 (Wp c)) main_v41 : FVec Ideal S32x84x64x128 .bf16) _ = _
      rw [e9, Glue.pad_8 (Wp c) hc]
      refine congrArg (fun z : Cert.Spec.Act 32 56 56 128 => Cert.Spec.padAt z n _ _ ci) ?_
      funext n' h' w' ci'
      exact hprev n' h' w' ci'
    · show (StableHlo.after hostOps8_2 (StableHlo.after hostOps8_1 (Wp c)) main_v44 : FVec Ideal S3x384x256 .bf16) _ = _
      rw [Glue.wk_8 _ dy dx ci co _, eW]
  · show (StableHlo.after hostOps8_2 (StableHlo.after hostOps8_1 (Wp c)) main_arg11 : FVec Ideal S1x256 .f32) _ = _
    rw [eB]

end Cert.KernelIdeal.RunVal
-- ==== Proof.KI.RunVal8.lean ====
import proofs.«143011_g2000502688546152_pallasbulk_1201_3_alg».proof.Proof.KI.RunChainAt
import proofs.«143011_g2000502688546152_pallasbulk_1201_3_alg».proof.Proof.KI.RunValCore8

/-! # Region 8 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_8 (c : Dev nD) (aPrev : Cert.Spec.Act 32 56 56 128)
    (hprev : ∀ (n : Fin 32) (h : Fin 56) (w : Fin 56) (ci : Fin 128),
      (W25 m c main_v40 : FVec Ideal S32x56x56x128 .bf16) (ix4 n h w ci) = aPrev n h w ci) :
    ∀ (n : Fin 32) (h : Fin 56) (w : Fin 56) (co : Fin 256),
      (W28 m c main_v45 : FVec Ideal S32x56x56x256 .bf16) (ix4 n h w co)
        = Cert.Spec.convRelu aPrev
            (Cert.Spec.curryW (m ((c : Thread nD τ).loc main_arg10) : FVec Ideal S3x3x128x256 .f32))
            (Cert.Spec.curryB (m ((c : Thread nD τ).loc main_arg11) : FVec Ideal S1x256 .f32)) n h w co := by
  intro n h w co
  have hW : W25 m c main_arg10 = m ((c : Thread nD τ).loc main_arg10) := W25_arg m c _ (by decide)
  have hB : W25 m c main_arg11 = m ((c : Thread nD τ).loc main_arg11) := W25_arg m c _ (by decide)
  rw [W28_self, ← hW, ← hB]
  have hc : W25 m c main_c_9 = constantI S_ 32 0#32 := RunVal.cst_8 (W24 m c)
  exact RunVal.core_8 (W25 m) c hc aPrev hprev n h w co

/-- The same from the contents one stretch earlier: the stretch in between writes only the border's constant. -/
theorem val_8_from (c : Dev nD) (aPrev : Cert.Spec.Act 32 56 56 128)
    (hprev : ∀ (n : Fin 32) (h : Fin 56) (w : Fin 56) (ci : Fin 128),
      (W24 m c main_v40 : FVec Ideal S32x56x56x128 .bf16) (ix4 n h w ci) = aPrev n h w ci) :
    ∀ (n : Fin 32) (h : Fin 56) (w : Fin 56) (co : Fin 256),
      (W28 m c main_v45 : FVec Ideal S32x56x56x256 .bf16) (ix4 n h w co)
        = Cert.Spec.convRelu aPrev
            (Cert.Spec.curryW (m ((c : Thread nD τ).loc main_arg10) : FVec Ideal S3x3x128x256 .f32))
            (Cert.Spec.curryB (m ((c : Thread nD τ).loc main_arg11) : FVec Ideal S1x256 .f32)) n h w co :=
  val_8 m c aPrev fun n h w ci => by
    rw [W25_of m c main_v40 (by decide)]
    exact hprev n h w ci

end Cert.KernelIdeal.Run
-- ==== Proof.KI.Reg9Pipe.lean ====
import proofs.«143011_g2000502688546152_pallasbulk_1201_3_alg».proof.Proof.KI.Reg9
import Idealize.ShloMosaic.Lib.Pipeline.Value
import Idealize.ShloMosaic.Lib.ValueIdx
import Idealize.ShloMosaic.PureOps.Ideal

/-!
  The 3×3 convolution 256 → 256 on 56×56 images (pallas region 9) at the ideal float model, from the tile to the array:
  where each window's block sits in its array (the two row blocks are consecutive 28-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg9

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 84, 64, 256] (the array of windows 0 and 1), the weights [3, 768, 256] and the bias [1, 256]
    as the region finds them. -/
abbrev xp (c : Dev nD) : Vec Ideal S32x84x64x256 .bf16 := V c (Pipeline.arrRef spec9 0)
abbrev wk (c : Dev nD) : Vec Ideal S3x768x256 .bf16 := V c (Pipeline.arrRef spec9 2)
abbrev bias (c : Dev nD) : Vec Ideal S1x256 .f32 := V c (Pipeline.arrRef spec9 3)

/-- The output array [32, 56, 56, 256] after the region. -/
abbrev yOut (c : Dev nD) : Vec Ideal S32x56x56x256 .bf16 := (dat (F := Ideal) V c).arrAt 4 cfg9.N

/-- Pixel `(hh, ww)`, channel `ci` of the 56-row padded image the two row blocks make up. -/
def pix (xa xb : Vec Ideal S1x28x64x256 .bf16) (hh : Fin 56) (ww : Fin 64) (ci : Fin 256) : EReal :=
  if h : hh.val < 28 then xa (ix4 0 ⟨hh.val, h⟩ ww ci) else xb (ix4 0 ⟨hh.val - 28, by omega⟩ ww ci)

/-! ## Where the windows' blocks sit -/

/-- The block indices along the grid's row-major order, decided over the grid: position t is image t / 2, row tile
    t % 2; the second row window is one tile further down; weights and bias do not move; the output tile is the first
    row window's. -/
theorem index_upper : ∀ t : Fin cfg9.N, win9_0.index t (0 : Fin 4) = t.val / 2 ∧ win9_0.index t (1 : Fin 4) = t.val % 2
    ∧ win9_0.index t (2 : Fin 4) = 0 ∧ win9_0.index t (3 : Fin 4) = 0 :=
  (by decide +kernel : ∀ t : Fin grid9.N, win9_0.index t (0 : Fin 4) = t.val / 2 ∧ win9_0.index t (1 : Fin 4) = t.val % 2
    ∧ win9_0.index t (2 : Fin 4) = 0 ∧ win9_0.index t (3 : Fin 4) = 0)
theorem index_lower : ∀ t : Fin cfg9.N, win9_1.index t (0 : Fin 4) = t.val / 2 ∧ win9_1.index t (1 : Fin 4) = t.val % 2 + 1
    ∧ win9_1.index t (2 : Fin 4) = 0 ∧ win9_1.index t (3 : Fin 4) = 0 :=
  (by decide +kernel : ∀ t : Fin grid9.N, win9_1.index t (0 : Fin 4) = t.val / 2 ∧ win9_1.index t (1 : Fin 4) = t.val % 2 + 1
    ∧ win9_1.index t (2 : Fin 4) = 0 ∧ win9_1.index t (3 : Fin 4) = 0)
theorem index_weights : ∀ t : Fin cfg9.N, win9_2.index t (0 : Fin 3) = 0 ∧ win9_2.index t (1 : Fin 3) = 0 ∧ win9_2.index t (2 : Fin 3) = 0 :=
  (by decide +kernel : ∀ t : Fin grid9.N, win9_2.index t (0 : Fin 3) = 0 ∧ win9_2.index t (1 : Fin 3) = 0 ∧ win9_2.index t (2 : Fin 3) = 0)
theorem index_bias : ∀ t : Fin cfg9.N, win9_3.index t (0 : Fin 2) = 0 ∧ win9_3.index t (1 : Fin 2) = 0 :=
  (by decide +kernel : ∀ t : Fin grid9.N, win9_3.index t (0 : Fin 2) = 0 ∧ win9_3.index t (1 : Fin 2) = 0)
theorem index_out : ∀ t : Fin cfg9.N, win9_4.index t (0 : Fin 4) = t.val / 2 ∧ win9_4.index t (1 : Fin 4) = t.val % 2
    ∧ win9_4.index t (2 : Fin 4) = 0 ∧ win9_4.index t (3 : Fin 4) = 0 :=
  (by decide +kernel : ∀ t : Fin grid9.N, win9_4.index t (0 : Fin 4) = t.val / 2 ∧ win9_4.index t (1 : Fin 4) = t.val % 2
    ∧ win9_4.index t (2 : Fin 4) = 0 ∧ win9_4.index t (3 : Fin 4) = 0)

/-- Row hh of the upper row block is row 28 · (row tile) + hh of the padded image. -/
theorem upper_at (c : Dev nD) (t : Fin cfg9.N) (hh : Fin 28) (ww : Fin 64) (ci : Fin 256) (n : Fin 32) (row : Fin 84)
    (hn : n.val = t.val / 2) (hrow : row.val = t.val % 2 * 28 + hh.val) :
    blk V c 0 t (ix4 (0 : Fin 1) hh ww ci) = xp V c (ix4 n row ww ci) := by
  obtain ⟨e0, e1, e2, e3⟩ := index_upper t
  show V c (Pipeline.arrRef spec9 0) (((cfg9.win 0).blk t).view.emb (ix4 (0 : Fin 1) hh ww ci)) = V c (Pipeline.arrRef spec9 0) (ix4 n row ww ci)
  refine congrArg _ (funext fun a => Fin.ext ?_)
  match a with
  | ⟨0, _⟩ => show win9_0.index t (0 : Fin 4) * 1 + 1 * 0 = n.val; omega
  | ⟨1, _⟩ => show win9_0.index t (1 : Fin 4) * 28 + 1 * hh.val = row.val; omega
  | ⟨2, _⟩ => show win9_0.index t (2 : Fin 4) * 64 + 1 * ww.val = ww.val; omega
  | ⟨3, _⟩ => show win9_0.index t (3 : Fin 4) * 256 + 1 * ci.val = ci.val; omega

/-- Row hh of the lower row block is row 28 · (row tile + 1) + hh of the same image: the halo. -/
theorem lower_at (c : Dev nD) (t : Fin cfg9.N) (hh : Fin 28) (ww : Fin 64) (ci : Fin 256) (n : Fin 32) (row : Fin 84)
    (hn : n.val = t.val / 2) (hrow : row.val = (t.val % 2 + 1) * 28 + hh.val) :
    blk V c 1 t (ix4 (0 : Fin 1) hh ww ci) = xp V c (ix4 n row ww ci) := by
  obtain ⟨e0, e1, e2, e3⟩ := index_lower t
  show V c (Pipeline.arrRef spec9 1) (((cfg9.win 1).blk t).view.emb (ix4 (0 : Fin 1) hh ww ci)) = V c (Pipeline.arrRef spec9 0) (ix4 n row ww ci)
  refine congrArg _ (funext fun a => Fin.ext ?_)
  match a with
  | ⟨0, _⟩ => show win9_1.index t (0 : Fin 4) * 1 + 1 * 0 = n.val; omega
  | ⟨1, _⟩ => show win9_1.index t (1 : Fin 4) * 28 + 1 * hh.val = row.val; omega
  | ⟨2, _⟩ => show win9_1.index t (2 : Fin 4) * 64 + 1 * ww.val = ww.val; omega
  | ⟨3, _⟩ => show win9_1.index t (3 : Fin 4) * 256 + 1 * ci.val = ci.val; omega

/-- So the 56 rows the two blocks make up are rows 28 · (row tile) … of the padded image. -/
theorem pix_at (c : Dev nD) (t : Fin cfg9.N) (hh : Fin 56) (ww : Fin 64) (ci : Fin 256) (n : Fin 32) (row : Fin 84)
    (hn : n.val = t.val / 2) (hrow : row.val = t.val % 2 * 28 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 56 := hh.isLt
    exact lower_at V c t ⟨hh.val - 28, by omega⟩ ww ci n row hn (by show row.val = (t.val % 2 + 1) * 28 + (hh.val - 28); omega)

/-- The weights' block is the whole weight array, -/
theorem weights_at (c : Dev nD) (t : Fin cfg9.N) (y : S3x768x256.Idx) : blk V c 2 t y = wk V c y := by
  obtain ⟨e0, e1, e2⟩ := index_weights t
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 3) * 3 + 1 * (y 0).val = (y 0).val; omega
  | ⟨1, _⟩ => show win9_2.index t (1 : Fin 3) * 768 + 1 * (y 1).val = (y 1).val; omega
  | ⟨2, _⟩ => show win9_2.index t (2 : Fin 3) * 256 + 1 * (y 2).val = (y 2).val; omega

/-- and the bias's the whole bias row. -/
theorem bias_at (c : Dev nD) (t : Fin cfg9.N) (y : S1x256.Idx) : blk V c 3 t y = bias V c y := by
  obtain ⟨e0, e1⟩ := index_bias t
  show V c (Pipeline.arrRef spec9 3) (((cfg9.win 3).blk t).view.emb y) = V c (Pipeline.arrRef spec9 3) y
  refine congrArg _ (funext fun a => Fin.ext ?_)
  match a with
  | ⟨0, _⟩ => show win9_3.index t (0 : Fin 2) * 1 + 1 * (y 0).val = (y 0).val; omega
  | ⟨1, _⟩ => show win9_3.index t (1 : Fin 2) * 256 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x56x56x256.Idx → EReal := fun i =>
  max ((∑ dy : Fin 3, ∑ dx : Fin 3, ∑ ci : Fin 256,
          xp V c (ix4 (⟨(i 0).val, (i 0).isLt⟩ : Fin 32) ⟨(i 1).val + dy.val, by have h1 : (i 1).val < 56 := (i 1).isLt; omega⟩
              ⟨(i 2).val + dx.val, by have h2 : (i 2).val < 56 := (i 2).isLt; omega⟩ ci)
            * wk V c (ix3 dx ⟨dy.val * 256 + ci.val, by omega⟩ (⟨(i 3).val, (i 3).isLt⟩ : Fin 256)))
        + bias V c (ix2 0 (⟨(i 3).val, (i 3).isLt⟩ : Fin 256))) 0

/-- An index of the output array is in position t's tile iff each coordinate is in the tile's range on its axis. -/
theorem mem_tile (t : Fin cfg9.N) (i : S32x56x56x256.Idx) :
    i ∈ ((cfg9.win 4).blk t).view.set ↔ ∀ a : Fin 4, win9_4.index t a * S1x28x56x256.size a ≤ (i a).val ∧ (i a).val < win9_4.index t a * S1x28x56x256.size a + S1x28x56x256.size a := by
  show i ∈ ((View.whole (Pipeline.arrRef spec9 4)).slice (win9_4.rect t)).set ↔ _
  rw [View.set_slice_whole, Rect.mem_set_unit]
  exact Iff.rfl

section FromTheTile

-- what the body leaves in the tile, index by index over its four blocks: the hypothesis this section is stated under
variable (htile : ∀ (xa xb : Vec Ideal S1x28x64x256 .bf16) (wk : Vec Ideal S3x768x256 .bf16) (b : Vec Ideal S1x256 .f32)
    (h : Fin 28) (w : Fin 56) (co : Fin 256),
    tile (F := Ideal) xa xb wk b (ix4 0 h w co)
      = max ((∑ dy : Fin 3, ∑ dx : Fin 3, ∑ ci : Fin 256,
                pix xa xb ⟨h.val + dy.val, by omega⟩ ⟨w.val + dx.val, by omega⟩ ci
                  * wk (ix3 dx ⟨dy.val * 256 + ci.val, by omega⟩ co))
              + b (ix2 0 co)) 0)

include htile

/-- The tile at grid position t, index by index over the region's arrays. -/
theorem tile_at (c : Dev nD) (t : Fin cfg9.N) (h : Fin 28) (w : Fin 56) (co : Fin 256) (n : Fin 32) (row : Fin 56)
    (hn : n.val = t.val / 2) (hrow : row.val = t.val % 2 * 28 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 28 := h.isLt
  rw [weights_at, pix_at V c t _ _ ci n ⟨row.val + dy.val, by omega⟩ hn (by show row.val + dy.val = t.val % 2 * 28 + (h.val + dy.val); omega)]

/-- What grid position t writes back is its tile of `conv`. -/
theorem flushed_eq (c : Dev nD) (t : Fin cfg9.N) (hf : (cfg9.win 4).flush t = true) :
    (dat (F := Ideal) V c).flushed 4 t = ((cfg9.win 4).blk t).view.read (Elt Ideal) (conv V c) := by
  have hN : cfg9.N = 32 * 2 := N_9
  have ht : t.val < 32 * 2 := lt_of_lt_of_eq t.isLt hN
  obtain ⟨e0, e1, e2, e3⟩ := index_out t
  show (cfg9.win 4).cut (grid9.coords t) ((dat (F := Ideal) V c).after 4 t) = _
  rw [after_4]
  funext y
  have y0 : (y 0).val < 1 := (y 0).isLt
  have y1 : (y 1).val < 28 := (y 1).isLt
  have y2 : (y 2).val < 56 := (y 2).isLt
  have y3 : (y 3).val < 256 := (y 3).isLt
  have ey : y = ix4 (0 : Fin 1) (⟨(y 1).val, y1⟩ : Fin 28) (⟨(y 2).val, y2⟩ : Fin 56) (⟨(y 3).val, y3⟩ : Fin 256) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg9.win 4).blk t).view.emb y)
  have hE : ((cfg9.win 4).blk t).view.emb y
      = ix4 (⟨t.val / 2, by omega⟩ : Fin 32) (⟨t.val % 2 * 28 + (y 1).val, by omega⟩ : Fin 56) (⟨(y 2).val, y2⟩ : Fin 56) (⟨(y 3).val, y3⟩ : Fin 256) := by
    refine funext fun a => Fin.ext ?_
    match a with
    | ⟨0, _⟩ => show win9_4.index t (0 : Fin 4) * 1 + 1 * (y 0).val = t.val / 2; omega
    | ⟨1, _⟩ => show win9_4.index t (1 : Fin 4) * 28 + 1 * (y 1).val = t.val % 2 * 28 + (y 1).val; omega
    | ⟨2, _⟩ => show win9_4.index t (2 : Fin 4) * 56 + 1 * (y 2).val = (y 2).val; omega
    | ⟨3, _⟩ => show win9_4.index t (3 : Fin 4) * 256 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 56 := (i 1).isLt
    have i2 : (i 2).val < 56 := (i 2).isLt
    have i3 : (i 3).val < 256 := (i 3).isLt
    have hN : cfg9.N = 32 * 2 := N_9
    refine ⟨⟨(i 0).val * 2 + (i 1).val / 28, by rw [hN]; omega⟩, flush9_4 _, ?_⟩
    rw [mem_tile]
    obtain ⟨e0, e1, e2, e3⟩ := index_out ⟨(i 0).val * 2 + (i 1).val / 28, by rw [hN]; omega⟩
    intro a
    match a with
    | ⟨0, _⟩ => show win9_4.index _ (0 : Fin 4) * 1 ≤ (i 0).val ∧ (i 0).val < win9_4.index _ (0 : Fin 4) * 1 + 1; rw [e0]; dsimp only; omega
    | ⟨1, _⟩ => show win9_4.index _ (1 : Fin 4) * 28 ≤ (i 1).val ∧ (i 1).val < win9_4.index _ (1 : Fin 4) * 28 + 28; rw [e1]; dsimp only; omega
    | ⟨2, _⟩ => show win9_4.index _ (2 : Fin 4) * 56 ≤ (i 2).val ∧ (i 2).val < win9_4.index _ (2 : Fin 4) * 56 + 56; rw [e2]; omega
    | ⟨3, _⟩ => show win9_4.index _ (3 : Fin 4) * 256 ≤ (i 3).val ∧ (i 3).val < win9_4.index _ (3 : Fin 4) * 256 + 256; rw [e3]; omega

/-- THE REGION'S OUTPUT, element by element: sum over the vertical tap `dy`, the horizontal tap `dx` and the input
    channel `ci`. -/
theorem out_of_tile (c : Dev nD) (n : Fin 32) (h : Fin 56) (w : Fin 56) (co : Fin 256) :
    yOut V c (ix4 n h w co)
      = max ((∑ dy : Fin 3, ∑ dx : Fin 3, ∑ ci : Fin 256,
                xp V c (ix4 n ⟨h.val + dy.val, by omega⟩ ⟨w.val + dx.val, by omega⟩ ci)
                  * wk V c (ix3 dx ⟨dy.val * 256 + ci.val, by omega⟩ co))
              + bias V c (ix2 0 co)) 0 := by
  rw [final V htile c]
  rfl

end FromTheTile

end Cert.KernelIdeal.Reg9

end
-- ==== Proof.KI.Reg9Value.lean ====
/-
  The 3×3 convolution 256 → 256 on 56×56 images (kernel-side program, pallas region 9) at the ideal float model.
  The arithmetic of one grid point read index by index — the slab of stacked row blocks, the three lane-concatenated
  operands (one per horizontal tap), the three products of contraction depth 768, the bias-added, rectified tile —
  regrouped as the triple sum over the vertical tap, the horizontal tap and the input channel; and with the blocks
  read off the region's arrays, the output array after the last grid point, element by element, the weight array
  [3, 768, 256] read at (dx, dy·256 + ci, co).
-/
import proofs.«143011_g2000502688546152_pallasbulk_1201_3_alg».proof.Proof.KI.Reg9Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg9

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 28, 64, 256] laid out as 28 · 64 pixel rows of 256 channels. -/
def rows (x : Vec F S1x28x64x256 .bf16) : FVec F S1792x256 .bf16 :=
  shapeCast S1792x256 (shapeCast S28x64x256 x Gen.shapeCasts_S1x28x64x256_S28x64x256) Gen.shapeCasts_S28x64x256_S1792x256

/-- Both row blocks stacked, then 64 zero rows: 3648 pixel rows. -/
def slab (xa xb : Vec F S1x28x64x256 .bf16) : FVec F S3648x256 .bf16 :=
  concatenate S3648x256 0 [⟨S1792x256, rows xa⟩, ⟨S1792x256, rows xb⟩, ⟨S64x256, broadcast S64x256 (Scalar.ofBits .bf16 0x0000#16)⟩]
    Gen.concatenates_S1792x256_S1792x256_S64x256_S3648x256_d0

/-- Three windows of 1792 rows of a pixel-row matrix, at row offsets 0, 64, 128 (one image row apart), side by side:
    depth 3 · 256. -/
def lanes {M : Nat} (T : (⟨2, ![M, 256]⟩ : Shape).Idx → F .bf16)
    (h0 : (⟨2, ![M, 256]⟩ : Shape).Slices ![0, 0] S1792x256) (h1 : (⟨2, ![M, 256]⟩ : Shape).Slices ![64, 0] S1792x256)
    (h2 : (⟨2, ![M, 256]⟩ : Shape).Slices ![128, 0] S1792x256) : FVec F S1792x768 .bf16 :=
  concatenate S1792x768 1 [⟨S1792x256, extractStridedSlice S1792x256 ![0, 0] T h0⟩, ⟨S1792x256, extractStridedSlice S1792x256 ![64, 0] T h1⟩,
    ⟨S1792x256, extractStridedSlice S1792x256 ![128, 0] T h2⟩] Gen.concatenates_S1792x256_S1792x256_S1792x256_S1792x768_d1

/-- The operand of horizontal tap 0, 1, 2: the slab shifted by that many pixel rows, then `lanes`. -/
def lhs0 (S : FVec F S3648x256 .bf16) : FVec F S1792x768 .bf16 :=
  lanes (M := 3648) S Gen.slices_S3648x256_o0_0_S1792x256 Gen.slices_S3648x256_o64_0_S1792x256 Gen.slices_S3648x256_o128_0_S1792x256
def lhs1 (S : FVec F S3648x256 .bf16) : FVec F S1792x768 .bf16 :=
  lanes (M := 3647) (extractStridedSlice S3647x256 ![1, 0] S Gen.slices_S3648x256_o1_0_S3647x256)
    Gen.slices_S3647x256_o0_0_S1792x256 Gen.slices_S3647x256_o64_0_S1792x256 Gen.slices_S3647x256_o128_0_S1792x256
def lhs2 (S : FVec F S3648x256 .bf16) : FVec F S1792x768 .bf16 :=
  lanes (M := 3646) (extractStridedSlice S3646x256 ![2, 0] S Gen.slices_S3648x256_o2_0_S3646x256)
    Gen.slices_S3646x256_o0_0_S1792x256 Gen.slices_S3646x256_o64_0_S1792x256 Gen.slices_S3646x256_o128_0_S1792x256

/-- One product: an operand times a weight plane [1, 768, 256], into zero. -/
def prod (L : FVec F S1792x768 .bf16) (w : Vec F S1x768x256 .bf16) : FVec F S1792x256 .f32 :=
  matmul dot_S1792x768_S768x256_S1792x256_1_0_0_1_n_n none L (shapeCast S768x256 w Gen.shapeCasts_S1x768x256_S768x256)
    (constant S1792x256 .f32 0x00000000#32)

/-- The printed accumulation is zero plus the three products, in tap order. -/
theorem pay2_eq (v0 v3 : Vec F S1x28x64x256 .bf16) (w0 w1 w2 : Vec F S1x768x256 .bf16) :
    k9_pay2 v0 v3 w0 w1 w2
      = addf (addf (addf (broadcast S1792x256 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 256 + ci` is the matrix at row `r + 64 · dy`, channel `ci`. -/
theorem lanes_apply {M : Nat} (hM : 1920 ≤ M) (T : (⟨2, ![M, 256]⟩ : Shape).Idx → Ideal .bf16)
    (h0 : (⟨2, ![M, 256]⟩ : Shape).Slices ![0, 0] S1792x256) (h1 : (⟨2, ![M, 256]⟩ : Shape).Slices ![64, 0] S1792x256)
    (h2 : (⟨2, ![M, 256]⟩ : Shape).Slices ![128, 0] S1792x256) (r : Fin 1792) (dy : Fin 3) (ci : Fin 256) :
    lanes (F := Ideal) T h0 h1 h2 (ix2 r ⟨dy.val * 256 + ci.val, by omega⟩) = T (ix2 ⟨r.val + 64 * dy.val, by omega⟩ ci) := by
  unfold lanes
  match dy with
  | ⟨0, _⟩ =>
    refine Eq.trans (concatenate_apply_piece (t := S1792x768) 1 _ _ _ 0 ?_ S1792x256 (extractStridedSlice S1792x256 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 256 + ci.val; omega
    · exact extractStridedSlice_apply _ _ _ _ _ (fun a => by
        match a with
        | ⟨0, _⟩ => show r.val + 64 * 0 = 0 + r.val; omega
        | ⟨1, _⟩ => show ci.val = 0 + ci.val; omega)
  | ⟨1, _⟩ =>
    refine Eq.trans (concatenate_apply_piece (t := S1792x768) 1 _ _ _ 1 ?_ S1792x256 (extractStridedSlice S1792x256 ![64, 0] T h1) ?_ ?_ 256 ?_ (ix2 r ci) ?_ ?_) ?_
    · show _ < 3; omega
    · rfl
    · rfl
    · rfl
    · intro b hb
      match b with
      | ⟨0, _⟩ => rfl
      | ⟨1, _⟩ => exact absurd rfl hb
    · show 256 + ci.val = 1 * 256 + ci.val; omega
    · exact extractStridedSlice_apply _ _ _ _ _ (fun a => by
        match a with
        | ⟨0, _⟩ => show r.val + 64 * 1 = 64 + r.val; omega
        | ⟨1, _⟩ => show ci.val = 0 + ci.val; omega)
  | ⟨2, _⟩ =>
    refine Eq.trans (concatenate_apply_piece (t := S1792x768) 1 _ _ _ 2 ?_ S1792x256 (extractStridedSlice S1792x256 ![128, 0] T h2) ?_ ?_ 512 ?_ (ix2 r ci) ?_ ?_) ?_
    · show _ < 3; omega
    · rfl
    · rfl
    · rfl
    · intro b hb
      match b with
      | ⟨0, _⟩ => rfl
      | ⟨1, _⟩ => exact absurd rfl hb
    · show 512 + ci.val = 2 * 256 + ci.val; omega
    · exact extractStridedSlice_apply _ _ _ _ _ (fun a => by
        match a with
        | ⟨0, _⟩ => show r.val + 64 * 2 = 128 + r.val; omega
        | ⟨1, _⟩ => show ci.val = 0 + ci.val; omega)

/-- A row block as pixel rows: row `hh · 64 + ww` is pixel `(hh, ww)`. -/
theorem rows_apply (x : Vec Ideal S1x28x64x256 .bf16) (hh : Fin 28) (ww : Fin 64) (ci : Fin 256) :
    rows (F := Ideal) x (ix2 ⟨hh.val * 64 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 28 + hh.val) * 64 + ww.val) * 256 + ci.val = (hh.val * 64 + ww.val) * 256 + ci.val
    omega

/-- The slab at pixel `(hh, ww)` of the 56-row padded image: the upper block for the first 28 rows, else the lower block. -/
theorem slab_upper (xa xb : Vec Ideal S1x28x64x256 .bf16) (hh : Fin 28) (ww : Fin 64) (ci : Fin 256) :
    slab (F := Ideal) xa xb (ix2 ⟨hh.val * 64 + ww.val, by omega⟩ ci) = xa (ix4 0 hh ww ci) := by
  unfold slab
  refine Eq.trans (concatenate_apply_piece (t := S3648x256) 0 _ _ _ 0 ?_ S1792x256 (rows xa) ?_ ?_ 0 ?_ (ix2 ⟨hh.val * 64 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 64 + ww.val) = hh.val * 64 + ww.val; omega
  · exact rows_apply xa hh ww ci

theorem slab_lower (xa xb : Vec Ideal S1x28x64x256 .bf16) (hh : Fin 28) (ww : Fin 64) (ci : Fin 256) :
    slab (F := Ideal) xa xb (ix2 ⟨(28 + hh.val) * 64 + ww.val, by omega⟩ ci) = xb (ix4 0 hh ww ci) := by
  unfold slab
  refine Eq.trans (concatenate_apply_piece (t := S3648x256) 0 _ _ _ 1 ?_ S1792x256 (rows xb) ?_ ?_ 1792 ?_ (ix2 ⟨hh.val * 64 + ww.val, by omega⟩ ci) ?_ ?_) ?_
  · show _ < 3; omega
  · rfl
  · rfl
  · rfl
  · intro b hb
    match b with
    | ⟨0, _⟩ => exact absurd rfl hb
    | ⟨1, _⟩ => rfl
  · show 1792 + (hh.val * 64 + ww.val) = (28 + hh.val) * 64 + ww.val; omega
  · exact rows_apply xb hh ww ci

/-- The three operands at pixel row `r`, depth `dy · 256 + ci`: the slab `dx` pixel rows and `dy` image rows further on. -/
theorem lhs0_apply (S : FVec Ideal S3648x256 .bf16) (r : Fin 1792) (dy : Fin 3) (ci : Fin 256) :
    lhs0 (F := Ideal) S (ix2 r ⟨dy.val * 256 + ci.val, by omega⟩) = S (ix2 ⟨r.val + 64 * dy.val, by omega⟩ ci) := by
  unfold lhs0; exact lanes_apply (by decide) _ _ _ _ r dy ci

theorem lhs1_apply (S : FVec Ideal S3648x256 .bf16) (r : Fin 1792) (dy : Fin 3) (ci : Fin 256) :
    lhs1 (F := Ideal) S (ix2 r ⟨dy.val * 256 + ci.val, by omega⟩) = S (ix2 ⟨1 + (r.val + 64 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S3648x256 .bf16) (r : Fin 1792) (dy : Fin 3) (ci : Fin 256) :
    lhs2 (F := Ideal) S (ix2 r ⟨dy.val * 256 + ci.val, by omega⟩) = S (ix2 ⟨2 + (r.val + 64 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S1792x768_S768x256_S1792x256_1_0_0_1_n_n

theorem DD_lhs0 (j : S1792x256.Idx) (k : DD.contr.Idx) : (DD.lhsIdx j k 0 : ℕ) = j 0 := by
  simp [DotDims.lhsIdx, DD, dot_S1792x768_S768x256_S1792x256_1_0_0_1_n_n]; rfl
theorem DD_lhs1 (j : S1792x256.Idx) (k : DD.contr.Idx) : (DD.lhsIdx j k 1 : ℕ) = k ⟨0, by decide⟩ := by
  simp [DotDims.lhsIdx, DD, dot_S1792x768_S768x256_S1792x256_1_0_0_1_n_n]; rfl
theorem DD_rhs0 (j : S1792x256.Idx) (k : DD.contr.Idx) : (DD.rhsIdx j k 0 : ℕ) = k ⟨0, by decide⟩ := by
  simp [DotDims.rhsIdx, DD, dot_S1792x768_S768x256_S1792x256_1_0_0_1_n_n]; rfl
theorem DD_rhs1 (j : S1792x256.Idx) (k : DD.contr.Idx) : (DD.rhsIdx j k 1 : ℕ) = j 1 := by
  simp [DotDims.rhsIdx, DD, dot_S1792x768_S768x256_S1792x256_1_0_0_1_n_n]; rfl

/-- The contraction index is its one coordinate, below 768. -/
def cEq : DD.contr.Idx ≃ Fin 768 := contrEquiv1 DD 768 rfl rfl

/-- One product at pixel row `r`, output channel `co`: the sum over the depth of operand times weight plane. -/
theorem prod_apply (L : FVec Ideal S1792x768 .bf16) (w : Vec Ideal S1x768x256 .bf16) (r : Fin 1792) (co : Fin 256) :
    prod (F := Ideal) L w (ix2 r co) = ∑ k : Fin 768, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S768x256.rowMajor (DD.rhsIdx (ix2 r co) k)).val = (S1x768x256.rowMajor (ix3 0 (cEq k) co)).val := by
    rw [Shape.rowMajor_val_two, Shape.rowMajor_val_three, DD_rhs0, DD_rhs1]
    show (k ⟨0, by decide⟩).val * 256 + co.val = ((0 : ℕ) * 768 + (k ⟨0, by decide⟩).val) * 256 + co.val
    omega
  rw [hl, shapeCast_apply _ _ _ (ix3 0 (cEq k) co) hr.symm]

/-! ## The accumulation and the tile at an index -/

theorem slab_pix (xa xb : Vec Ideal S1x28x64x256 .bf16) (hh : Fin 56) (ww : Fin 64) (ci : Fin 256) :
    slab (F := Ideal) xa xb (ix2 ⟨hh.val * 64 + ww.val, by omega⟩ ci) = pix xa xb hh ww ci := by
  unfold pix
  split
  · rename_i h
    exact slab_upper xa xb ⟨hh.val, h⟩ ww ci
  · rename_i h
    have e : (⟨hh.val * 64 + ww.val, by omega⟩ : Fin 3648) = ⟨(28 + (hh.val - 28)) * 64 + ww.val, by omega⟩ :=
      Fin.ext (by show hh.val * 64 + ww.val = (28 + (hh.val - 28)) * 64 + ww.val; omega)
    rw [e]
    exact slab_lower xa xb ⟨hh.val - 28, by omega⟩ ww ci

/-- The operand of horizontal tap `dx`. -/
def lhs (S : FVec Ideal S3648x256 .bf16) (dx : Fin 3) : FVec Ideal S1792x768 .bf16 :=
  match dx with
  | ⟨0, _⟩ => lhs0 S
  | ⟨1, _⟩ => lhs1 S
  | ⟨2, _⟩ => lhs2 S

/-- At valid pixel `(h, w)`, depth `dy · 256 + ci`, tap `dx`'s operand is the padded image at `(h + dy, w + dx)`. -/
theorem tap_apply (xa xb : Vec Ideal S1x28x64x256 .bf16) (dx : Fin 3) (h : Fin 28) (w : Fin 56) (dy : Fin 3) (ci : Fin 256) :
    lhs (slab xa xb) dx (ix2 ⟨h.val * 64 + w.val, by omega⟩ ⟨dy.val * 256 + ci.val, by omega⟩)
      = pix xa xb ⟨h.val + dy.val, by omega⟩ ⟨w.val + dx.val, by omega⟩ ci := by
  match dx with
  | ⟨0, _⟩ =>
    refine (lhs0_apply _ ⟨h.val * 64 + w.val, by omega⟩ dy ci).trans ?_
    have e : (⟨h.val * 64 + w.val + 64 * dy.val, by omega⟩ : Fin 3648) = ⟨(h.val + dy.val) * 64 + (w.val + 0), by omega⟩ :=
      Fin.ext (by show h.val * 64 + w.val + 64 * dy.val = (h.val + dy.val) * 64 + (w.val + 0); omega)
    rw [e]
    exact slab_pix xa xb ⟨h.val + dy.val, by omega⟩ ⟨w.val + 0, by omega⟩ ci
  | ⟨1, _⟩ =>
    refine (lhs1_apply _ ⟨h.val * 64 + w.val, by omega⟩ dy ci).trans ?_
    have e : (⟨1 + (h.val * 64 + w.val + 64 * dy.val), by omega⟩ : Fin 3648) = ⟨(h.val + dy.val) * 64 + (w.val + 1), by omega⟩ :=
      Fin.ext (by show 1 + (h.val * 64 + w.val + 64 * dy.val) = (h.val + dy.val) * 64 + (w.val + 1); omega)
    rw [e]
    exact slab_pix xa xb ⟨h.val + dy.val, by omega⟩ ⟨w.val + 1, by omega⟩ ci
  | ⟨2, _⟩ =>
    refine (lhs2_apply _ ⟨h.val * 64 + w.val, by omega⟩ dy ci).trans ?_
    have e : (⟨2 + (h.val * 64 + w.val + 64 * dy.val), by omega⟩ : Fin 3648) = ⟨(h.val + dy.val) * 64 + (w.val + 2), by omega⟩ :=
      Fin.ext (by show 2 + (h.val * 64 + w.val + 64 * dy.val) = (h.val + dy.val) * 64 + (w.val + 2); omega)
    rw [e]
    exact slab_pix xa xb ⟨h.val + dy.val, by omega⟩ ⟨w.val + 2, by omega⟩ ci

/-- A sum over the depth 768 is a sum over the vertical tap and the channel. -/
theorem sum_depth (f : Fin 768 → EReal) :
    ∑ k : Fin 768, f k = ∑ dy : Fin 3, ∑ ci : Fin 256, f ⟨dy.val * 256 + ci.val, by omega⟩ := by
  rw [← Finset.sum_product', Finset.univ_product_univ]
  exact (Fintype.sum_equiv (finProdFinEquiv (m := 3) (n := 256)) (fun p => f ⟨p.1.val * 256 + p.2.val, by omega⟩) f (fun p =>
    congrArg f (Fin.ext (by show p.1.val * 256 + p.2.val = p.2.val + 256 * p.1.val; omega)))).symm

/-- A weight plane read through its rectangle is that plane of the array. -/
theorem ldK0 (wk : Vec Ideal S3x768x256 .bf16) (k : Fin 768) (co : Fin 256) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x768x256 .bf16) (k : Fin 768) (co : Fin 256) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x768x256 .bf16) (k : Fin 768) (co : Fin 256) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S1792x768 .bf16) (wk : Vec Ideal S3x768x256 .bf16) (r : Fin 1792) (co : Fin 256) :
    prod (F := Ideal) L (View.ld wk rK0) (ix2 r co) = ∑ k : Fin 768, L (ix2 r k) * wk (ix3 0 k co) :=
  (prod_apply L _ r co).trans (Finset.sum_congr rfl fun k _ => congrArg (fun z => L (ix2 r k) * z) (ldK0 wk k co))
theorem prodK1 (L : FVec Ideal S1792x768 .bf16) (wk : Vec Ideal S3x768x256 .bf16) (r : Fin 1792) (co : Fin 256) :
    prod (F := Ideal) L (View.ld wk rK1) (ix2 r co) = ∑ k : Fin 768, L (ix2 r k) * wk (ix3 1 k co) :=
  (prod_apply L _ r co).trans (Finset.sum_congr rfl fun k _ => congrArg (fun z => L (ix2 r k) * z) (ldK1 wk k co))
theorem prodK2 (L : FVec Ideal S1792x768 .bf16) (wk : Vec Ideal S3x768x256 .bf16) (r : Fin 1792) (co : Fin 256) :
    prod (F := Ideal) L (View.ld wk rK2) (ix2 r co) = ∑ k : Fin 768, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x28x64x256 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 256 + ci, co)`. -/
theorem acc_apply (xa xb : Vec Ideal S1x28x64x256 .bf16) (wk : Vec Ideal S3x768x256 .bf16) (h : Fin 28) (w : Fin 56) (co : Fin 256) :
    acc (F := Ideal) xa xb wk (ix2 ⟨h.val * 64 + w.val, by omega⟩ co)
      = ∑ dy : Fin 3, ∑ dx : Fin 3, ∑ ci : Fin 256,
          pix xa xb ⟨h.val + dy.val, by omega⟩ ⟨w.val + dx.val, by omega⟩ ci * wk (ix3 dx ⟨dy.val * 256 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 28 rows of 64 columns,
    the 56 valid columns kept. -/
theorem pay1_eq {F : FTy → Type} [FloatOps F] (A : FVec F S1792x256 .f32) (b : Vec F S1x256 .f32) :
    k9_pay1 A b
      = shapeCast S1x28x56x256
          (truncf .bf16
            (extractStridedSlice S28x56x256 ![0, 0, 0]
              (shapeCast S28x64x256
                (maximumf (addf A (broadcastTo S1792x256 b Gen.broadcasts_S1x256_S1792x256))
                  (broadcast S1792x256 (Scalar.ofBits .f32 0x00000000#32)))
                Gen.shapeCasts_S1792x256_S28x64x256)
              Gen.slices_S28x64x256_o0_0_0_S28x56x256)
            bitsLt_bf16_f32)
          Gen.shapeCasts_S28x56x256_S1x28x56x256 := rfl

/-- The bias row read through its rectangle is the bias. -/
theorem ldB (b : Vec Ideal S1x256 .f32) : View.ld b rB = b :=
  View.ld_unit_zero (funext fun a => by
    match a with
    | ⟨0, _⟩ => rfl
    | ⟨1, _⟩ => rfl) _ b

/-- The output tile at `(h, w, co)`: the accumulation at pixel row `h · 64 + w` plus the bias, rectified. -/
theorem tile_apply (xa xb : Vec Ideal S1x28x64x256 .bf16) (wk : Vec Ideal S3x768x256 .bf16) (b : Vec Ideal S1x256 .f32)
    (h : Fin 28) (w : Fin 56) (co : Fin 256) :
    tile (F := Ideal) xa xb wk b (ix4 0 h w co) = max (acc xa xb wk (ix2 ⟨h.val * 64 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 56 + w.val) * 256 + co.val = (((0 : ℕ) * 28 + h.val) * 56 + w.val) * 256 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 64 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 64 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x28x64x256 .bf16) (wk : Vec Ideal S3x768x256 .bf16) (b : Vec Ideal S1x256 .f32)
    (h : Fin 28) (w : Fin 56) (co : Fin 256) :
    tile (F := Ideal) xa xb wk b (ix4 0 h w co)
      = max ((∑ dy : Fin 3, ∑ dx : Fin 3, ∑ ci : Fin 256,
                pix xa xb ⟨h.val + dy.val, by omega⟩ ⟨w.val + dx.val, by omega⟩ ci
                  * wk (ix3 dx ⟨dy.val * 256 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 56) (w : Fin 56) (co : Fin 256) :
    yOut V c (ix4 n h w co)
      = max ((∑ dy : Fin 3, ∑ dx : Fin 3, ∑ ci : Fin 256,
                xp V c (ix4 n ⟨h.val + dy.val, by omega⟩ ⟨w.val + dx.val, by omega⟩ ci)
                  * wk V c (ix3 dx ⟨dy.val * 256 + ci.val, by omega⟩ co))
              + bias V c (ix2 0 co)) 0 :=
  out_of_tile V tile_value c n h w co

end Cert.KernelIdeal.Reg9
-- ==== Proof.KI.GluePad9.lean ====
/-
  The border of zeros put around the stack of 256 channels at 56 × 56 before region 9: the stretch converts
  the integer 0 to a float and pads the stack, one position in front of rows and columns and the rest behind, to
  84 rows and 64 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_9 (V : Valuation τ sig (Elt Ideal)) (hc : V main_c_10 = constantI S_ 32 0#32)
    (n : Fin 32) (i : Fin 84) (j : Fin 64) (ci : Fin 256) :
    (StableHlo.after hostOps9_1 V main_v46 : FVec Ideal S32x84x64x256 .bf16) (ix4 n i j ci)
      = Cert.Spec.padAt (Cert.Spec.curry4 (V main_v45 : FVec Ideal S32x56x56x256 .bf16)) n i.val j.val ci := by
  have h : StableHlo.after hostOps9_1 V main_v46
      = pad S32x84x64x256 ![0, 1, 1, 0] ![0, 27, 7, 0] ![0, 0, 0, 0] (V main_v45) (sitofp (F := Ideal) .bf16 (V main_c_10))
          pads_S32x56x56x256_S32x84x64x256_000_1270_170_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW9.lean ====
/-
  The weights of region 9 as the region finds them: the [3, 3, 256, 256] parameter array with its two tap axes
  exchanged, the row tap and the input channel then read as one axis of 768 (row tap major), narrowed to the shorter
  float format. Entry (column tap, row tap · 256 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_9 (V : Valuation τ sig (Elt Ideal)) (dy dx : Fin 3) (ci : Fin 256) (co : Fin 256)
    (hk : dy.val * 256 + ci.val < 768) :
    (StableHlo.after hostOps9_2 V main_v49 : FVec Ideal S3x768x256 .bf16) (ix3 dx ⟨dy.val * 256 + ci.val, hk⟩ co)
      = (V main_arg12 : FVec Ideal S3x3x256x256 .f32) (ix4 dy dx ci co) := by
  have h : StableHlo.after hostOps9_2 V main_v49
      = truncf (F := Ideal) .bf16 (shapeCast S3x768x256 (transpose S3x3x256x256 [1, 0, 2, 3] (V main_arg12) transposes_S3x3x256x256_S3x3x256x256_1_0_2_3) shapeCasts_S3x3x256x256_S3x768x256) bitsLt_bf16_f32 := by
    after_results; rfl
  rw [h]
  exact (Cert.Spec.reshape_taps (transpose S3x3x256x256 [1, 0, 2, 3] (V main_arg12) transposes_S3x3x256x256_S3x3x256x256_1_0_2_3) _ dx dy ci co hk rfl).trans
    (Cert.Spec.transpose_1023_apply (V main_arg12) transposes_S3x3x256x256_S3x3x256x256_1_0_2_3 dx dy ci co)

end Cert.KernelIdeal.Glue

end
-- ==== Proof.KI.RunValCore9.lean ====
import proofs.«143011_g2000502688546152_pallasbulk_1201_3_alg».proof.Proof.KI.Reg9Value
import proofs.«143011_g2000502688546152_pallasbulk_1201_3_alg».proof.Proof.KI.GluePad9
import proofs.«143011_g2000502688546152_pallasbulk_1201_3_alg».proof.Proof.KI.GlueW9
import proofs.«143011_g2000502688546152_pallasbulk_1201_3_alg».proof.Proof.Spec.ArgsOf
import proofs.«143011_g2000502688546152_pallasbulk_1201_3_alg».proof.Proof.Spec.FlatIdx

/-! # Region 9 between its neighbours: a convolution layer of the network

If the stack of images the zero border is put around is `aPrev`, the region leaves the 3×3 convolution of `aPrev` with
the [3, 3, 256, 256] parameter array, plus the bias row, clamped below at zero. The two stretches of host operations in
front of the region put the zero border around the stack and lay the parameter array out as [3, 3·256, 256] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_9 (V : Valuation τ sig (Elt Ideal)) : StableHlo.after hostOps9 V main_c_10 = constantI S_ 32 0#32 := by
  after_results <;> rfl

/-- From ANY contents `Wp` in front of the border stretch that hold the integer 0 in the stretch's constant and the
    stack `aPrev` in the array the border is put around: the region's output array, entry by entry. -/
theorem core_9 (Wp : Dev nD → Valuation τ sig (Elt Ideal)) (c : Dev nD)
    (hc : Wp c main_c_10 = constantI S_ 32 0#32)
    (aPrev : Cert.Spec.Act 32 56 56 256)
    (hprev : ∀ (n : Fin 32) (h : Fin 56) (w : Fin 56) (ci : Fin 256),
      (Wp c main_v45 : FVec Ideal S32x56x56x256 .bf16) (ix4 n h w ci) = aPrev n h w ci)
    (n : Fin 32) (h : Fin 56) (w : Fin 56) (co : Fin 256) :
    (Reg9.dat (F := Ideal) (fun c b => StableHlo.after hostOps9_2 (StableHlo.after hostOps9_1 (Wp c)) b) c).arrAt 4 cfg9.N
        (ix4 n h w co)
      = Cert.Spec.convRelu aPrev (Cert.Spec.curryW (Wp c main_arg12 : FVec Ideal S3x3x256x256 .f32))
          (Cert.Spec.curryB (Wp c main_arg13 : FVec Ideal S1x256 .f32)) n h w co := by
  refine (Reg9.out_value _ c n h w co).trans ?_
  have e9 : StableHlo.after hostOps9_2 (StableHlo.after hostOps9_1 (Wp c)) main_v46
      = StableHlo.after hostOps9_1 (Wp c) main_v46 :=
    StableHlo.after_of_writes_sub hostOps9_2 _ hostOps9_2_writes (by decide)
  have eW : StableHlo.after hostOps9_1 (Wp c) main_arg12 = Wp c main_arg12 :=
    StableHlo.after_of_writes_sub hostOps9_1 _ hostOps9_1_writes (by decide)
  have eB : StableHlo.after hostOps9_2 (StableHlo.after hostOps9_1 (Wp c)) main_arg13 = Wp c main_arg13 :=
    (StableHlo.after_of_writes_sub hostOps9_2 _ hostOps9_2_writes (by decide)).trans
      (StableHlo.after_of_writes_sub hostOps9_1 _ hostOps9_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps9_2 (StableHlo.after hostOps9_1 (Wp c)) main_v46 : FVec Ideal S32x84x64x256 .bf16) _ = _
      rw [e9, Glue.pad_9 (Wp c) hc]
      refine congrArg (fun z : Cert.Spec.Act 32 56 56 256 => Cert.Spec.padAt z n _ _ ci) ?_
      funext n' h' w' ci'
      exact hprev n' h' w' ci'
    · show (StableHlo.after hostOps9_2 (StableHlo.after hostOps9_1 (Wp c)) main_v49 : FVec Ideal S3x768x256 .bf16) _ = _
      rw [Glue.wk_9 _ dy dx ci co _, eW]
  · show (StableHlo.after hostOps9_2 (StableHlo.after hostOps9_1 (Wp c)) main_arg13 : FVec Ideal S1x256 .f32) _ = _
    rw [eB]

end Cert.KernelIdeal.RunVal
-- ==== Proof.KI.RunVal9.lean ====
import proofs.«143011_g2000502688546152_pallasbulk_1201_3_alg».proof.Proof.KI.RunChainAt
import proofs.«143011_g2000502688546152_pallasbulk_1201_3_alg».proof.Proof.KI.RunValCore9

/-! # Region 9 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_9 (c : Dev nD) (aPrev : Cert.Spec.Act 32 56 56 256)
    (hprev : ∀ (n : Fin 32) (h : Fin 56) (w : Fin 56) (ci : Fin 256),
      (W29 m c main_v45 : FVec Ideal S32x56x56x256 .bf16) (ix4 n h w ci) = aPrev n h w ci) :
    ∀ (n : Fin 32) (h : Fin 56) (w : Fin 56) (co : Fin 256),
      (W32 m c main_v50 : FVec Ideal S32x56x56x256 .bf16) (ix4 n h w co)
        = Cert.Spec.convRelu aPrev
            (Cert.Spec.curryW (m ((c : Thread nD τ).loc main_arg12) : FVec Ideal S3x3x256x256 .f32))
            (Cert.Spec.curryB (m ((c : Thread nD τ).loc main_arg13) : FVec Ideal S1x256 .f32)) n h w co := by
  intro n h w co
  have hW : W29 m c main_arg12 = m ((c : Thread nD τ).loc main_arg12) := W29_arg m c _ (by decide)
  have hB : W29 m c main_arg13 = m ((c : Thread nD τ).loc main_arg13) := W29_arg m c _ (by decide)
  rw [W32_self, ← hW, ← hB]
  have hc : W29 m c main_c_10 = constantI S_ 32 0#32 := RunVal.cst_9 (W28 m c)
  exact RunVal.core_9 (W29 m) c hc aPrev hprev n h w co

/-- The same from the contents one stretch earlier: the stretch in between writes only the border's constant. -/
theorem val_9_from (c : Dev nD) (aPrev : Cert.Spec.Act 32 56 56 256)
    (hprev : ∀ (n : Fin 32) (h : Fin 56) (w : Fin 56) (ci : Fin 256),
      (W28 m c main_v45 : FVec Ideal S32x56x56x256 .bf16) (ix4 n h w ci) = aPrev n h w ci) :
    ∀ (n : Fin 32) (h : Fin 56) (w : Fin 56) (co : Fin 256),
      (W32 m c main_v50 : FVec Ideal S32x56x56x256 .bf16) (ix4 n h w co)
        = Cert.Spec.convRelu aPrev
            (Cert.Spec.curryW (m ((c : Thread nD τ).loc main_arg12) : FVec Ideal S3x3x256x256 .f32))
            (Cert.Spec.curryB (m ((c : Thread nD τ).loc main_arg13) : FVec Ideal S1x256 .f32)) n h w co :=
  val_9 m c aPrev fun n h w ci => by
    rw [W29_of m c main_v45 (by decide)]
    exact hprev n h w ci

end Cert.KernelIdeal.Run
-- ==== Proof.KI.Reg10Pipe.lean ====
import proofs.«143011_g2000502688546152_pallasbulk_1201_3_alg».proof.Proof.KI.Reg10
import Idealize.ShloMosaic.Lib.Pipeline.Value
import Idealize.ShloMosaic.Lib.ValueIdx
import Idealize.ShloMosaic.PureOps.Ideal

/-!
  The 3×3 convolution 256 → 256 on 56×56 images (pallas region 10) at the ideal float model, from the tile to the array:
  where each window's block sits in its array (the two row blocks are consecutive 28-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg10

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 84, 64, 256] (the array of windows 0 and 1), the weights [3, 768, 256] and the bias [1, 256]
    as the region finds them. -/
abbrev xp (c : Dev nD) : Vec Ideal S32x84x64x256 .bf16 := V c (Pipeline.arrRef spec10 0)
abbrev wk (c : Dev nD) : Vec Ideal S3x768x256 .bf16 := V c (Pipeline.arrRef spec10 2)
abbrev bias (c : Dev nD) : Vec Ideal S1x256 .f32 := V c (Pipeline.arrRef spec10 3)

/-- The output array [32, 56, 56, 256] after the region. -/
abbrev yOut (c : Dev nD) : Vec Ideal S32x56x56x256 .bf16 := (dat (F := Ideal) V c).arrAt 4 cfg10.N

/-- Pixel `(hh, ww)`, channel `ci` of the 56-row padded image the two row blocks make up. -/
def pix (xa xb : Vec Ideal S1x28x64x256 .bf16) (hh : Fin 56) (ww : Fin 64) (ci : Fin 256) : EReal :=
  if h : hh.val < 28 then xa (ix4 0 ⟨hh.val, h⟩ ww ci) else xb (ix4 0 ⟨hh.val - 28, by omega⟩ ww ci)

/-! ## Where the windows' blocks sit -/

/-- The block indices along the grid's row-major order, decided over the grid: position t is image t / 2, row tile
    t % 2; the second row window is one tile further down; weights and bias do not move; the output tile is the first
    row window's. -/
theorem index_upper : ∀ t : Fin cfg10.N, win10_0.index t (0 : Fin 4) = t.val / 2 ∧ win10_0.index t (1 : Fin 4) = t.val % 2
    ∧ win10_0.index t (2 : Fin 4) = 0 ∧ win10_0.index t (3 : Fin 4) = 0 :=
  (by decide +kernel : ∀ t : Fin grid10.N, win10_0.index t (0 : Fin 4) = t.val / 2 ∧ win10_0.index t (1 : Fin 4) = t.val % 2
    ∧ win10_0.index t (2 : Fin 4) = 0 ∧ win10_0.index t (3 : Fin 4) = 0)
theorem index_lower : ∀ t : Fin cfg10.N, win10_1.index t (0 : Fin 4) = t.val / 2 ∧ win10_1.index t (1 : Fin 4) = t.val % 2 + 1
    ∧ win10_1.index t (2 : Fin 4) = 0 ∧ win10_1.index t (3 : Fin 4) = 0 :=
  (by decide +kernel : ∀ t : Fin grid10.N, win10_1.index t (0 : Fin 4) = t.val / 2 ∧ win10_1.index t (1 : Fin 4) = t.val % 2 + 1
    ∧ win10_1.index t (2 : Fin 4) = 0 ∧ win10_1.index t (3 : Fin 4) = 0)
theorem index_weights : ∀ t : Fin cfg10.N, win10_2.index t (0 : Fin 3) = 0 ∧ win10_2.index t (1 : Fin 3) = 0 ∧ win10_2.index t (2 : Fin 3) = 0 :=
  (by decide +kernel : ∀ t : Fin grid10.N, win10_2.index t (0 : Fin 3) = 0 ∧ win10_2.index t (1 : Fin 3) = 0 ∧ win10_2.index t (2 : Fin 3) = 0)
theorem index_bias : ∀ t : Fin cfg10.N, win10_3.index t (0 : Fin 2) = 0 ∧ win10_3.index t (1 : Fin 2) = 0 :=
  (by decide +kernel : ∀ t : Fin grid10.N, win10_3.index t (0 : Fin 2) = 0 ∧ win10_3.index t (1 : Fin 2) = 0)
theorem index_out : ∀ t : Fin cfg10.N, win10_4.index t (0 : Fin 4) = t.val / 2 ∧ win10_4.index t (1 : Fin 4) = t.val % 2
    ∧ win10_4.index t (2 : Fin 4) = 0 ∧ win10_4.index t (3 : Fin 4) = 0 :=
  (by decide +kernel : ∀ t : Fin grid10.N, win10_4.index t (0 : Fin 4) = t.val / 2 ∧ win10_4.index t (1 : Fin 4) = t.val % 2
    ∧ win10_4.index t (2 : Fin 4) = 0 ∧ win10_4.index t (3 : Fin 4) = 0)

/-- Row hh of the upper row block is row 28 · (row tile) + hh of the padded image. -/
theorem upper_at (c : Dev nD) (t : Fin cfg10.N) (hh : Fin 28) (ww : Fin 64) (ci : Fin 256) (n : Fin 32) (row : Fin 84)
    (hn : n.val = t.val / 2) (hrow : row.val = t.val % 2 * 28 + hh.val) :
    blk V c 0 t (ix4 (0 : Fin 1) hh ww ci) = xp V c (ix4 n row ww ci) := by
  obtain ⟨e0, e1, e2, e3⟩ := index_upper t
  show V c (Pipeline.arrRef spec10 0) (((cfg10.win 0).blk t).view.emb (ix4 (0 : Fin 1) hh ww ci)) = V c (Pipeline.arrRef spec10 0) (ix4 n row ww ci)
  refine congrArg _ (funext fun a => Fin.ext ?_)
  match a with
  | ⟨0, _⟩ => show win10_0.index t (0 : Fin 4) * 1 + 1 * 0 = n.val; omega
  | ⟨1, _⟩ => show win10_0.index t (1 : Fin 4) * 28 + 1 * hh.val = row.val; omega
  | ⟨2, _⟩ => show win10_0.index t (2 : Fin 4) * 64 + 1 * ww.val = ww.val; omega
  | ⟨3, _⟩ => show win10_0.index t (3 : Fin 4) * 256 + 1 * ci.val = ci.val; omega

/-- Row hh of the lower row block is row 28 · (row tile + 1) + hh of the same image: the halo. -/
theorem lower_at (c : Dev nD) (t : Fin cfg10.N) (hh : Fin 28) (ww : Fin 64) (ci : Fin 256) (n : Fin 32) (row : Fin 84)
    (hn : n.val = t.val / 2) (hrow : row.val = (t.val % 2 + 1) * 28 + hh.val) :
    blk V c 1 t (ix4 (0 : Fin 1) hh ww ci) = xp V c (ix4 n row ww ci) := by
  obtain ⟨e0, e1, e2, e3⟩ := index_lower t
  show V c (Pipeline.arrRef spec10 1) (((cfg10.win 1).blk t).view.emb (ix4 (0 : Fin 1) hh ww ci)) = V c (Pipeline.arrRef spec10 0) (ix4 n row ww ci)
  refine congrArg _ (funext fun a => Fin.ext ?_)
  match a with
  | ⟨0, _⟩ => show win10_1.index t (0 : Fin 4) * 1 + 1 * 0 = n.val; omega
  | ⟨1, _⟩ => show win10_1.index t (1 : Fin 4) * 28 + 1 * hh.val = row.val; omega
  | ⟨2, _⟩ => show win10_1.index t (2 : Fin 4) * 64 + 1 * ww.val = ww.val; omega
  | ⟨3, _⟩ => show win10_1.index t (3 : Fin 4) * 256 + 1 * ci.val = ci.val; omega

/-- So the 56 rows the two blocks make up are rows 28 · (row tile) … of the padded image. -/
theorem pix_at (c : Dev nD) (t : Fin cfg10.N) (hh : Fin 56) (ww : Fin 64) (ci : Fin 256) (n : Fin 32) (row : Fin 84)
    (hn : n.val = t.val / 2) (hrow : row.val = t.val % 2 * 28 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 56 := hh.isLt
    exact lower_at V c t ⟨hh.val - 28, by omega⟩ ww ci n row hn (by show row.val = (t.val % 2 + 1) * 28 + (hh.val - 28); omega)

/-- The weights' block is the whole weight array, -/
theorem weights_at (c : Dev nD) (t : Fin cfg10.N) (y : S3x768x256.Idx) : blk V c 2 t y = wk V c y := by
  obtain ⟨e0, e1, e2⟩ := index_weights t
  show V c (Pipeline.arrRef spec10 2) (((cfg10.win 2).blk t).view.emb y) = V c (Pipeline.arrRef spec10 2) y
  refine congrArg _ (funext fun a => Fin.ext ?_)
  match a with
  | ⟨0, _⟩ => show win10_2.index t (0 : Fin 3) * 3 + 1 * (y 0).val = (y 0).val; omega
  | ⟨1, _⟩ => show win10_2.index t (1 : Fin 3) * 768 + 1 * (y 1).val = (y 1).val; omega
  | ⟨2, _⟩ => show win10_2.index t (2 : Fin 3) * 256 + 1 * (y 2).val = (y 2).val; omega

/-- and the bias's the whole bias row. -/
theorem bias_at (c : Dev nD) (t : Fin cfg10.N) (y : S1x256.Idx) : blk V c 3 t y = bias V c y := by
  obtain ⟨e0, e1⟩ := index_bias t
  show V c (Pipeline.arrRef spec10 3) (((cfg10.win 3).blk t).view.emb y) = V c (Pipeline.arrRef spec10 3) y
  refine congrArg _ (funext fun a => Fin.ext ?_)
  match a with
  | ⟨0, _⟩ => show win10_3.index t (0 : Fin 2) * 1 + 1 * (y 0).val = (y 0).val; omega
  | ⟨1, _⟩ => show win10_3.index t (1 : Fin 2) * 256 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x56x56x256.Idx → EReal := fun i =>
  max ((∑ dy : Fin 3, ∑ dx : Fin 3, ∑ ci : Fin 256,
          xp V c (ix4 (⟨(i 0).val, (i 0).isLt⟩ : Fin 32) ⟨(i 1).val + dy.val, by have h1 : (i 1).val < 56 := (i 1).isLt; omega⟩
              ⟨(i 2).val + dx.val, by have h2 : (i 2).val < 56 := (i 2).isLt; omega⟩ ci)
            * wk V c (ix3 dx ⟨dy.val * 256 + ci.val, by omega⟩ (⟨(i 3).val, (i 3).isLt⟩ : Fin 256)))
        + bias V c (ix2 0 (⟨(i 3).val, (i 3).isLt⟩ : Fin 256))) 0

/-- An index of the output array is in position t's tile iff each coordinate is in the tile's range on its axis. -/
theorem mem_tile (t : Fin cfg10.N) (i : S32x56x56x256.Idx) :
    i ∈ ((cfg10.win 4).blk t).view.set ↔ ∀ a : Fin 4, win10_4.index t a * S1x28x56x256.size a ≤ (i a).val ∧ (i a).val < win10_4.index t a * S1x28x56x256.size a + S1x28x56x256.size a := by
  show i ∈ ((View.whole (Pipeline.arrRef spec10 4)).slice (win10_4.rect t)).set ↔ _
  rw [View.set_slice_whole, Rect.mem_set_unit]
  exact Iff.rfl

section FromTheTile

-- what the body leaves in the tile, index by index over its four blocks: the hypothesis this section is stated under
variable (htile : ∀ (xa xb : Vec Ideal S1x28x64x256 .bf16) (wk : Vec Ideal S3x768x256 .bf16) (b : Vec Ideal S1x256 .f32)
    (h : Fin 28) (w : Fin 56) (co : Fin 256),
    tile (F := Ideal) xa xb wk b (ix4 0 h w co)
      = max ((∑ dy : Fin 3, ∑ dx : Fin 3, ∑ ci : Fin 256,
                pix xa xb ⟨h.val + dy.val, by omega⟩ ⟨w.val + dx.val, by omega⟩ ci
                  * wk (ix3 dx ⟨dy.val * 256 + ci.val, by omega⟩ co))
              + b (ix2 0 co)) 0)

include htile

/-- The tile at grid position t, index by index over the region's arrays. -/
theorem tile_at (c : Dev nD) (t : Fin cfg10.N) (h : Fin 28) (w : Fin 56) (co : Fin 256) (n : Fin 32) (row : Fin 56)
    (hn : n.val = t.val / 2) (hrow : row.val = t.val % 2 * 28 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 28 := h.isLt
  rw [weights_at, pix_at V c t _ _ ci n ⟨row.val + dy.val, by omega⟩ hn (by show row.val + dy.val = t.val % 2 * 28 + (h.val + dy.val); omega)]

/-- What grid position t writes back is its tile of `conv`. -/
theorem flushed_eq (c : Dev nD) (t : Fin cfg10.N) (hf : (cfg10.win 4).flush t = true) :
    (dat (F := Ideal) V c).flushed 4 t = ((cfg10.win 4).blk t).view.read (Elt Ideal) (conv V c) := by
  have hN : cfg10.N = 32 * 2 := N_10
  have ht : t.val < 32 * 2 := lt_of_lt_of_eq t.isLt hN
  obtain ⟨e0, e1, e2, e3⟩ := index_out t
  show (cfg10.win 4).cut (grid10.coords t) ((dat (F := Ideal) V c).after 4 t) = _
  rw [after_4]
  funext y
  have y0 : (y 0).val < 1 := (y 0).isLt
  have y1 : (y 1).val < 28 := (y 1).isLt
  have y2 : (y 2).val < 56 := (y 2).isLt
  have y3 : (y 3).val < 256 := (y 3).isLt
  have ey : y = ix4 (0 : Fin 1) (⟨(y 1).val, y1⟩ : Fin 28) (⟨(y 2).val, y2⟩ : Fin 56) (⟨(y 3).val, y3⟩ : Fin 256) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg10.win 4).blk t).view.emb y)
  have hE : ((cfg10.win 4).blk t).view.emb y
      = ix4 (⟨t.val / 2, by omega⟩ : Fin 32) (⟨t.val % 2 * 28 + (y 1).val, by omega⟩ : Fin 56) (⟨(y 2).val, y2⟩ : Fin 56) (⟨(y 3).val, y3⟩ : Fin 256) := by
    refine funext fun a => Fin.ext ?_
    match a with
    | ⟨0, _⟩ => show win10_4.index t (0 : Fin 4) * 1 + 1 * (y 0).val = t.val / 2; omega
    | ⟨1, _⟩ => show win10_4.index t (1 : Fin 4) * 28 + 1 * (y 1).val = t.val % 2 * 28 + (y 1).val; omega
    | ⟨2, _⟩ => show win10_4.index t (2 : Fin 4) * 56 + 1 * (y 2).val = (y 2).val; omega
    | ⟨3, _⟩ => show win10_4.index t (3 : Fin 4) * 256 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 56 := (i 1).isLt
    have i2 : (i 2).val < 56 := (i 2).isLt
    have i3 : (i 3).val < 256 := (i 3).isLt
    have hN : cfg10.N = 32 * 2 := N_10
    refine ⟨⟨(i 0).val * 2 + (i 1).val / 28, by rw [hN]; omega⟩, flush10_4 _, ?_⟩
    rw [mem_tile]
    obtain ⟨e0, e1, e2, e3⟩ := index_out ⟨(i 0).val * 2 + (i 1).val / 28, by rw [hN]; omega⟩
    intro a
    match a with
    | ⟨0, _⟩ => show win10_4.index _ (0 : Fin 4) * 1 ≤ (i 0).val ∧ (i 0).val < win10_4.index _ (0 : Fin 4) * 1 + 1; rw [e0]; dsimp only; omega
    | ⟨1, _⟩ => show win10_4.index _ (1 : Fin 4) * 28 ≤ (i 1).val ∧ (i 1).val < win10_4.index _ (1 : Fin 4) * 28 + 28; rw [e1]; dsimp only; omega
    | ⟨2, _⟩ => show win10_4.index _ (2 : Fin 4) * 56 ≤ (i 2).val ∧ (i 2).val < win10_4.index _ (2 : Fin 4) * 56 + 56; rw [e2]; omega
    | ⟨3, _⟩ => show win10_4.index _ (3 : Fin 4) * 256 ≤ (i 3).val ∧ (i 3).val < win10_4.index _ (3 : Fin 4) * 256 + 256; rw [e3]; omega

/-- THE REGION'S OUTPUT, element by element: sum over the vertical tap `dy`, the horizontal tap `dx` and the input
    channel `ci`. -/
theorem out_of_tile (c : Dev nD) (n : Fin 32) (h : Fin 56) (w : Fin 56) (co : Fin 256) :
    yOut V c (ix4 n h w co)
      = max ((∑ dy : Fin 3, ∑ dx : Fin 3, ∑ ci : Fin 256,
                xp V c (ix4 n ⟨h.val + dy.val, by omega⟩ ⟨w.val + dx.val, by omega⟩ ci)
                  * wk V c (ix3 dx ⟨dy.val * 256 + ci.val, by omega⟩ co))
              + bias V c (ix2 0 co)) 0 := by
  rw [final V htile c]
  rfl

end FromTheTile

end Cert.KernelIdeal.Reg10

end
-- ==== Proof.KI.Reg10Value.lean ====
/-
  The 3×3 convolution 256 → 256 on 56×56 images (kernel-side program, pallas region 10) at the ideal float model.
  The arithmetic of one grid point read index by index — the slab of stacked row blocks, the three lane-concatenated
  operands (one per horizontal tap), the three products of contraction depth 768, the bias-added, rectified tile —
  regrouped as the triple sum over the vertical tap, the horizontal tap and the input channel; and with the blocks
  read off the region's arrays, the output array after the last grid point, element by element, the weight array
  [3, 768, 256] read at (dx, dy·256 + ci, co).
-/
import proofs.«143011_g2000502688546152_pallasbulk_1201_3_alg».proof.Proof.KI.Reg10Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg10

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 28, 64, 256] laid out as 28 · 64 pixel rows of 256 channels. -/
def rows (x : Vec F S1x28x64x256 .bf16) : FVec F S1792x256 .bf16 :=
  shapeCast S1792x256 (shapeCast S28x64x256 x Gen.shapeCasts_S1x28x64x256_S28x64x256) Gen.shapeCasts_S28x64x256_S1792x256

/-- Both row blocks stacked, then 64 zero rows: 3648 pixel rows. -/
def slab (xa xb : Vec F S1x28x64x256 .bf16) : FVec F S3648x256 .bf16 :=
  concatenate S3648x256 0 [⟨S1792x256, rows xa⟩, ⟨S1792x256, rows xb⟩, ⟨S64x256, broadcast S64x256 (Scalar.ofBits .bf16 0x0000#16)⟩]
    Gen.concatenates_S1792x256_S1792x256_S64x256_S3648x256_d0

/-- Three windows of 1792 rows of a pixel-row matrix, at row offsets 0, 64, 128 (one image row apart), side by side:
    depth 3 · 256. -/
def lanes {M : Nat} (T : (⟨2, ![M, 256]⟩ : Shape).Idx → F .bf16)
    (h0 : (⟨2, ![M, 256]⟩ : Shape).Slices ![0, 0] S1792x256) (h1 : (⟨2, ![M, 256]⟩ : Shape).Slices ![64, 0] S1792x256)
    (h2 : (⟨2, ![M, 256]⟩ : Shape).Slices ![128, 0] S1792x256) : FVec F S1792x768 .bf16 :=
  concatenate S1792x768 1 [⟨S1792x256, extractStridedSlice S1792x256 ![0, 0] T h0⟩, ⟨S1792x256, extractStridedSlice S1792x256 ![64, 0] T h1⟩,
    ⟨S1792x256, extractStridedSlice S1792x256 ![128, 0] T h2⟩] Gen.concatenates_S1792x256_S1792x256_S1792x256_S1792x768_d1

/-- The operand of horizontal tap 0, 1, 2: the slab shifted by that many pixel rows, then `lanes`. -/
def lhs0 (S : FVec F S3648x256 .bf16) : FVec F S1792x768 .bf16 :=
  lanes (M := 3648) S Gen.slices_S3648x256_o0_0_S1792x256 Gen.slices_S3648x256_o64_0_S1792x256 Gen.slices_S3648x256_o128_0_S1792x256
def lhs1 (S : FVec F S3648x256 .bf16) : FVec F S1792x768 .bf16 :=
  lanes (M := 3647) (extractStridedSlice S3647x256 ![1, 0] S Gen.slices_S3648x256_o1_0_S3647x256)
    Gen.slices_S3647x256_o0_0_S1792x256 Gen.slices_S3647x256_o64_0_S1792x256 Gen.slices_S3647x256_o128_0_S1792x256
def lhs2 (S : FVec F S3648x256 .bf16) : FVec F S1792x768 .bf16 :=
  lanes (M := 3646) (extractStridedSlice S3646x256 ![2, 0] S Gen.slices_S3648x256_o2_0_S3646x256)
    Gen.slices_S3646x256_o0_0_S1792x256 Gen.slices_S3646x256_o64_0_S1792x256 Gen.slices_S3646x256_o128_0_S1792x256

/-- One product: an operand times a weight plane [1, 768, 256], into zero. -/
def prod (L : FVec F S1792x768 .bf16) (w : Vec F S1x768x256 .bf16) : FVec F S1792x256 .f32 :=
  matmul dot_S1792x768_S768x256_S1792x256_1_0_0_1_n_n none L (shapeCast S768x256 w Gen.shapeCasts_S1x768x256_S768x256)
    (constant S1792x256 .f32 0x00000000#32)

/-- The printed accumulation is zero plus the three products, in tap order. -/
theorem pay2_eq (v0 v3 : Vec F S1x28x64x256 .bf16) (w0 w1 w2 : Vec F S1x768x256 .bf16) :
    k10_pay2 v0 v3 w0 w1 w2
      = addf (addf (addf (broadcast S1792x256 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 256 + ci` is the matrix at row `r + 64 · dy`, channel `ci`. -/
theorem lanes_apply {M : Nat} (hM : 1920 ≤ M) (T : (⟨2, ![M, 256]⟩ : Shape).Idx → Ideal .bf16)
    (h0 : (⟨2, ![M, 256]⟩ : Shape).Slices ![0, 0] S1792x256) (h1 : (⟨2, ![M, 256]⟩ : Shape).Slices ![64, 0] S1792x256)
    (h2 : (⟨2, ![M, 256]⟩ : Shape).Slices ![128, 0] S1792x256) (r : Fin 1792) (dy : Fin 3) (ci : Fin 256) :
    lanes (F := Ideal) T h0 h1 h2 (ix2 r ⟨dy.val * 256 + ci.val, by omega⟩) = T (ix2 ⟨r.val + 64 * dy.val, by omega⟩ ci) := by
  unfold lanes
  match dy with
  | ⟨0, _⟩ =>
    refine Eq.trans (concatenate_apply_piece (t := S1792x768) 1 _ _ _ 0 ?_ S1792x256 (extractStridedSlice S1792x256 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 256 + ci.val; omega
    · exact extractStridedSlice_apply _ _ _ _ _ (fun a => by
        match a with
        | ⟨0, _⟩ => show r.val + 64 * 0 = 0 + r.val; omega
        | ⟨1, _⟩ => show ci.val = 0 + ci.val; omega)
  | ⟨1, _⟩ =>
    refine Eq.trans (concatenate_apply_piece (t := S1792x768) 1 _ _ _ 1 ?_ S1792x256 (extractStridedSlice S1792x256 ![64, 0] T h1) ?_ ?_ 256 ?_ (ix2 r ci) ?_ ?_) ?_
    · show _ < 3; omega
    · rfl
    · rfl
    · rfl
    · intro b hb
      match b with
      | ⟨0, _⟩ => rfl
      | ⟨1, _⟩ => exact absurd rfl hb
    · show 256 + ci.val = 1 * 256 + ci.val; omega
    · exact extractStridedSlice_apply _ _ _ _ _ (fun a => by
        match a with
        | ⟨0, _⟩ => show r.val + 64 * 1 = 64 + r.val; omega
        | ⟨1, _⟩ => show ci.val = 0 + ci.val; omega)
  | ⟨2, _⟩ =>
    refine Eq.trans (concatenate_apply_piece (t := S1792x768) 1 _ _ _ 2 ?_ S1792x256 (extractStridedSlice S1792x256 ![128, 0] T h2) ?_ ?_ 512 ?_ (ix2 r ci) ?_ ?_) ?_
    · show _ < 3; omega
    · rfl
    · rfl
    · rfl
    · intro b hb
      match b with
      | ⟨0, _⟩ => rfl
      | ⟨1, _⟩ => exact absurd rfl hb
    · show 512 + ci.val = 2 * 256 + ci.val; omega
    · exact extractStridedSlice_apply _ _ _ _ _ (fun a => by
        match a with
        | ⟨0, _⟩ => show r.val + 64 * 2 = 128 + r.val; omega
        | ⟨1, _⟩ => show ci.val = 0 + ci.val; omega)

/-- A row block as pixel rows: row `hh · 64 + ww` is pixel `(hh, ww)`. -/
theorem rows_apply (x : Vec Ideal S1x28x64x256 .bf16) (hh : Fin 28) (ww : Fin 64) (ci : Fin 256) :
    rows (F := Ideal) x (ix2 ⟨hh.val * 64 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 28 + hh.val) * 64 + ww.val) * 256 + ci.val = (hh.val * 64 + ww.val) * 256 + ci.val
    omega

/-- The slab at pixel `(hh, ww)` of the 56-row padded image: the upper block for the first 28 rows, else the lower block. -/
theorem slab_upper (xa xb : Vec Ideal S1x28x64x256 .bf16) (hh : Fin 28) (ww : Fin 64) (ci : Fin 256) :
    slab (F := Ideal) xa xb (ix2 ⟨hh.val * 64 + ww.val, by omega⟩ ci) = xa (ix4 0 hh ww ci) := by
  unfold slab
  refine Eq.trans (concatenate_apply_piece (t := S3648x256) 0 _ _ _ 0 ?_ S1792x256 (rows xa) ?_ ?_ 0 ?_ (ix2 ⟨hh.val * 64 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 64 + ww.val) = hh.val * 64 + ww.val; omega
  · exact rows_apply xa hh ww ci

theorem slab_lower (xa xb : Vec Ideal S1x28x64x256 .bf16) (hh : Fin 28) (ww : Fin 64) (ci : Fin 256) :
    slab (F := Ideal) xa xb (ix2 ⟨(28 + hh.val) * 64 + ww.val, by omega⟩ ci) = xb (ix4 0 hh ww ci) := by
  unfold slab
  refine Eq.trans (concatenate_apply_piece (t := S3648x256) 0 _ _ _ 1 ?_ S1792x256 (rows xb) ?_ ?_ 1792 ?_ (ix2 ⟨hh.val * 64 + ww.val, by omega⟩ ci) ?_ ?_) ?_
  · show _ < 3; omega
  · rfl
  · rfl
  · rfl
  · intro b hb
    match b with
    | ⟨0, _⟩ => exact absurd rfl hb
    | ⟨1, _⟩ => rfl
  · show 1792 + (hh.val * 64 + ww.val) = (28 + hh.val) * 64 + ww.val; omega
  · exact rows_apply xb hh ww ci

/-- The three operands at pixel row `r`, depth `dy · 256 + ci`: the slab `dx` pixel rows and `dy` image rows further on. -/
theorem lhs0_apply (S : FVec Ideal S3648x256 .bf16) (r : Fin 1792) (dy : Fin 3) (ci : Fin 256) :
    lhs0 (F := Ideal) S (ix2 r ⟨dy.val * 256 + ci.val, by omega⟩) = S (ix2 ⟨r.val + 64 * dy.val, by omega⟩ ci) := by
  unfold lhs0; exact lanes_apply (by decide) _ _ _ _ r dy ci

theorem lhs1_apply (S : FVec Ideal S3648x256 .bf16) (r : Fin 1792) (dy : Fin 3) (ci : Fin 256) :
    lhs1 (F := Ideal) S (ix2 r ⟨dy.val * 256 + ci.val, by omega⟩) = S (ix2 ⟨1 + (r.val + 64 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S3648x256 .bf16) (r : Fin 1792) (dy : Fin 3) (ci : Fin 256) :
    lhs2 (F := Ideal) S (ix2 r ⟨dy.val * 256 + ci.val, by omega⟩) = S (ix2 ⟨2 + (r.val + 64 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S1792x768_S768x256_S1792x256_1_0_0_1_n_n

theorem DD_lhs0 (j : S1792x256.Idx) (k : DD.contr.Idx) : (DD.lhsIdx j k 0 : ℕ) = j 0 := by
  simp [DotDims.lhsIdx, DD, dot_S1792x768_S768x256_S1792x256_1_0_0_1_n_n]; rfl
theorem DD_lhs1 (j : S1792x256.Idx) (k : DD.contr.Idx) : (DD.lhsIdx j k 1 : ℕ) = k ⟨0, by decide⟩ := by
  simp [DotDims.lhsIdx, DD, dot_S1792x768_S768x256_S1792x256_1_0_0_1_n_n]; rfl
theorem DD_rhs0 (j : S1792x256.Idx) (k : DD.contr.Idx) : (DD.rhsIdx j k 0 : ℕ) = k ⟨0, by decide⟩ := by
  simp [DotDims.rhsIdx, DD, dot_S1792x768_S768x256_S1792x256_1_0_0_1_n_n]; rfl
theorem DD_rhs1 (j : S1792x256.Idx) (k : DD.contr.Idx) : (DD.rhsIdx j k 1 : ℕ) = j 1 := by
  simp [DotDims.rhsIdx, DD, dot_S1792x768_S768x256_S1792x256_1_0_0_1_n_n]; rfl

/-- The contraction index is its one coordinate, below 768. -/
def cEq : DD.contr.Idx ≃ Fin 768 := contrEquiv1 DD 768 rfl rfl

/-- One product at pixel row `r`, output channel `co`: the sum over the depth of operand times weight plane. -/
theorem prod_apply (L : FVec Ideal S1792x768 .bf16) (w : Vec Ideal S1x768x256 .bf16) (r : Fin 1792) (co : Fin 256) :
    prod (F := Ideal) L w (ix2 r co) = ∑ k : Fin 768, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S768x256.rowMajor (DD.rhsIdx (ix2 r co) k)).val = (S1x768x256.rowMajor (ix3 0 (cEq k) co)).val := by
    rw [Shape.rowMajor_val_two, Shape.rowMajor_val_three, DD_rhs0, DD_rhs1]
    show (k ⟨0, by decide⟩).val * 256 + co.val = ((0 : ℕ) * 768 + (k ⟨0, by decide⟩).val) * 256 + co.val
    omega
  rw [hl, shapeCast_apply _ _ _ (ix3 0 (cEq k) co) hr.symm]

/-! ## The accumulation and the tile at an index -/

theorem slab_pix (xa xb : Vec Ideal S1x28x64x256 .bf16) (hh : Fin 56) (ww : Fin 64) (ci : Fin 256) :
    slab (F := Ideal) xa xb (ix2 ⟨hh.val * 64 + ww.val, by omega⟩ ci) = pix xa xb hh ww ci := by
  unfold pix
  split
  · rename_i h
    exact slab_upper xa xb ⟨hh.val, h⟩ ww ci
  · rename_i h
    have e : (⟨hh.val * 64 + ww.val, by omega⟩ : Fin 3648) = ⟨(28 + (hh.val - 28)) * 64 + ww.val, by omega⟩ :=
      Fin.ext (by show hh.val * 64 + ww.val = (28 + (hh.val - 28)) * 64 + ww.val; omega)
    rw [e]
    exact slab_lower xa xb ⟨hh.val - 28, by omega⟩ ww ci

/-- The operand of horizontal tap `dx`. -/
def lhs (S : FVec Ideal S3648x256 .bf16) (dx : Fin 3) : FVec Ideal S1792x768 .bf16 :=
  match dx with
  | ⟨0, _⟩ => lhs0 S
  | ⟨1, _⟩ => lhs1 S
  | ⟨2, _⟩ => lhs2 S

/-- At valid pixel `(h, w)`, depth `dy · 256 + ci`, tap `dx`'s operand is the padded image at `(h + dy, w + dx)`. -/
theorem tap_apply (xa xb : Vec Ideal S1x28x64x256 .bf16) (dx : Fin 3) (h : Fin 28) (w : Fin 56) (dy : Fin 3) (ci : Fin 256) :
    lhs (slab xa xb) dx (ix2 ⟨h.val * 64 + w.val, by omega⟩ ⟨dy.val * 256 + ci.val, by omega⟩)
      = pix xa xb ⟨h.val + dy.val, by omega⟩ ⟨w.val + dx.val, by omega⟩ ci := by
  match dx with
  | ⟨0, _⟩ =>
    refine (lhs0_apply _ ⟨h.val * 64 + w.val, by omega⟩ dy ci).trans ?_
    have e : (⟨h.val * 64 + w.val + 64 * dy.val, by omega⟩ : Fin 3648) = ⟨(h.val + dy.val) * 64 + (w.val + 0), by omega⟩ :=
      Fin.ext (by show h.val * 64 + w.val + 64 * dy.val = (h.val + dy.val) * 64 + (w.val + 0); omega)
    rw [e]
    exact slab_pix xa xb ⟨h.val + dy.val, by omega⟩ ⟨w.val + 0, by omega⟩ ci
  | ⟨1, _⟩ =>
    refine (lhs1_apply _ ⟨h.val * 64 + w.val, by omega⟩ dy ci).trans ?_
    have e : (⟨1 + (h.val * 64 + w.val + 64 * dy.val), by omega⟩ : Fin 3648) = ⟨(h.val + dy.val) * 64 + (w.val + 1), by omega⟩ :=
      Fin.ext (by show 1 + (h.val * 64 + w.val + 64 * dy.val) = (h.val + dy.val) * 64 + (w.val + 1); omega)
    rw [e]
    exact slab_pix xa xb ⟨h.val + dy.val, by omega⟩ ⟨w.val + 1, by omega⟩ ci
  | ⟨2, _⟩ =>
    refine (lhs2_apply _ ⟨h.val * 64 + w.val, by omega⟩ dy ci).trans ?_
    have e : (⟨2 + (h.val * 64 + w.val + 64 * dy.val), by omega⟩ : Fin 3648) = ⟨(h.val + dy.val) * 64 + (w.val + 2), by omega⟩ :=
      Fin.ext (by show 2 + (h.val * 64 + w.val + 64 * dy.val) = (h.val + dy.val) * 64 + (w.val + 2); omega)
    rw [e]
    exact slab_pix xa xb ⟨h.val + dy.val, by omega⟩ ⟨w.val + 2, by omega⟩ ci

/-- A sum over the depth 768 is a sum over the vertical tap and the channel. -/
theorem sum_depth (f : Fin 768 → EReal) :
    ∑ k : Fin 768, f k = ∑ dy : Fin 3, ∑ ci : Fin 256, f ⟨dy.val * 256 + ci.val, by omega⟩ := by
  rw [← Finset.sum_product', Finset.univ_product_univ]
  exact (Fintype.sum_equiv (finProdFinEquiv (m := 3) (n := 256)) (fun p => f ⟨p.1.val * 256 + p.2.val, by omega⟩) f (fun p =>
    congrArg f (Fin.ext (by show p.1.val * 256 + p.2.val = p.2.val + 256 * p.1.val; omega)))).symm

/-- A weight plane read through its rectangle is that plane of the array. -/
theorem ldK0 (wk : Vec Ideal S3x768x256 .bf16) (k : Fin 768) (co : Fin 256) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x768x256 .bf16) (k : Fin 768) (co : Fin 256) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x768x256 .bf16) (k : Fin 768) (co : Fin 256) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S1792x768 .bf16) (wk : Vec Ideal S3x768x256 .bf16) (r : Fin 1792) (co : Fin 256) :
    prod (F := Ideal) L (View.ld wk rK0) (ix2 r co) = ∑ k : Fin 768, L (ix2 r k) * wk (ix3 0 k co) :=
  (prod_apply L _ r co).trans (Finset.sum_congr rfl fun k _ => congrArg (fun z => L (ix2 r k) * z) (ldK0 wk k co))
theorem prodK1 (L : FVec Ideal S1792x768 .bf16) (wk : Vec Ideal S3x768x256 .bf16) (r : Fin 1792) (co : Fin 256) :
    prod (F := Ideal) L (View.ld wk rK1) (ix2 r co) = ∑ k : Fin 768, L (ix2 r k) * wk (ix3 1 k co) :=
  (prod_apply L _ r co).trans (Finset.sum_congr rfl fun k _ => congrArg (fun z => L (ix2 r k) * z) (ldK1 wk k co))
theorem prodK2 (L : FVec Ideal S1792x768 .bf16) (wk : Vec Ideal S3x768x256 .bf16) (r : Fin 1792) (co : Fin 256) :
    prod (F := Ideal) L (View.ld wk rK2) (ix2 r co) = ∑ k : Fin 768, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x28x64x256 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 256 + ci, co)`. -/
theorem acc_apply (xa xb : Vec Ideal S1x28x64x256 .bf16) (wk : Vec Ideal S3x768x256 .bf16) (h : Fin 28) (w : Fin 56) (co : Fin 256) :
    acc (F := Ideal) xa xb wk (ix2 ⟨h.val * 64 + w.val, by omega⟩ co)
      = ∑ dy : Fin 3, ∑ dx : Fin 3, ∑ ci : Fin 256,
          pix xa xb ⟨h.val + dy.val, by omega⟩ ⟨w.val + dx.val, by omega⟩ ci * wk (ix3 dx ⟨dy.val * 256 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 28 rows of 64 columns,
    the 56 valid columns kept. -/
theorem pay1_eq {F : FTy → Type} [FloatOps F] (A : FVec F S1792x256 .f32) (b : Vec F S1x256 .f32) :
    k10_pay1 A b
      = shapeCast S1x28x56x256
          (truncf .bf16
            (extractStridedSlice S28x56x256 ![0, 0, 0]
              (shapeCast S28x64x256
                (maximumf (addf A (broadcastTo S1792x256 b Gen.broadcasts_S1x256_S1792x256))
                  (broadcast S1792x256 (Scalar.ofBits .f32 0x00000000#32)))
                Gen.shapeCasts_S1792x256_S28x64x256)
              Gen.slices_S28x64x256_o0_0_0_S28x56x256)
            bitsLt_bf16_f32)
          Gen.shapeCasts_S28x56x256_S1x28x56x256 := rfl

/-- The bias row read through its rectangle is the bias. -/
theorem ldB (b : Vec Ideal S1x256 .f32) : View.ld b rB = b :=
  View.ld_unit_zero (funext fun a => by
    match a with
    | ⟨0, _⟩ => rfl
    | ⟨1, _⟩ => rfl) _ b

/-- The output tile at `(h, w, co)`: the accumulation at pixel row `h · 64 + w` plus the bias, rectified. -/
theorem tile_apply (xa xb : Vec Ideal S1x28x64x256 .bf16) (wk : Vec Ideal S3x768x256 .bf16) (b : Vec Ideal S1x256 .f32)
    (h : Fin 28) (w : Fin 56) (co : Fin 256) :
    tile (F := Ideal) xa xb wk b (ix4 0 h w co) = max (acc xa xb wk (ix2 ⟨h.val * 64 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 56 + w.val) * 256 + co.val = (((0 : ℕ) * 28 + h.val) * 56 + w.val) * 256 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 64 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 64 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x28x64x256 .bf16) (wk : Vec Ideal S3x768x256 .bf16) (b : Vec Ideal S1x256 .f32)
    (h : Fin 28) (w : Fin 56) (co : Fin 256) :
    tile (F := Ideal) xa xb wk b (ix4 0 h w co)
      = max ((∑ dy : Fin 3, ∑ dx : Fin 3, ∑ ci : Fin 256,
                pix xa xb ⟨h.val + dy.val, by omega⟩ ⟨w.val + dx.val, by omega⟩ ci
                  * wk (ix3 dx ⟨dy.val * 256 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 56) (w : Fin 56) (co : Fin 256) :
    yOut V c (ix4 n h w co)
      = max ((∑ dy : Fin 3, ∑ dx : Fin 3, ∑ ci : Fin 256,
                xp V c (ix4 n ⟨h.val + dy.val, by omega⟩ ⟨w.val + dx.val, by omega⟩ ci)
                  * wk V c (ix3 dx ⟨dy.val * 256 + ci.val, by omega⟩ co))
              + bias V c (ix2 0 co)) 0 :=
  out_of_tile V tile_value c n h w co

end Cert.KernelIdeal.Reg10
-- ==== Proof.KI.GluePad10.lean ====
/-
  The border of zeros put around the stack of 256 channels at 56 × 56 before region 10: the stretch converts
  the integer 0 to a float and pads the stack, one position in front of rows and columns and the rest behind, to
  84 rows and 64 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_10 (V : Valuation τ sig (Elt Ideal)) (hc : V main_c_11 = constantI S_ 32 0#32)
    (n : Fin 32) (i : Fin 84) (j : Fin 64) (ci : Fin 256) :
    (StableHlo.after hostOps10_1 V main_v51 : FVec Ideal S32x84x64x256 .bf16) (ix4 n i j ci)
      = Cert.Spec.padAt (Cert.Spec.curry4 (V main_v50 : FVec Ideal S32x56x56x256 .bf16)) n i.val j.val ci := by
  have h : StableHlo.after hostOps10_1 V main_v51
      = pad S32x84x64x256 ![0, 1, 1, 0] ![0, 27, 7, 0] ![0, 0, 0, 0] (V main_v50) (sitofp (F := Ideal) .bf16 (V main_c_11))
          pads_S32x56x56x256_S32x84x64x256_000_1270_170_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW10.lean ====
/-
  The weights of region 10 as the region finds them: the [3, 3, 256, 256] parameter array with its two tap axes
  exchanged, the row tap and the input channel then read as one axis of 768 (row tap major), narrowed to the shorter
  float format. Entry (column tap, row tap · 256 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_10 (V : Valuation τ sig (Elt Ideal)) (dy dx : Fin 3) (ci : Fin 256) (co : Fin 256)
    (hk : dy.val * 256 + ci.val < 768) :
    (StableHlo.after hostOps10_2 V main_v54 : FVec Ideal S3x768x256 .bf16) (ix3 dx ⟨dy.val * 256 + ci.val, hk⟩ co)
      = (V main_arg14 : FVec Ideal S3x3x256x256 .f32) (ix4 dy dx ci co) := by
  have h : StableHlo.after hostOps10_2 V main_v54
      = truncf (F := Ideal) .bf16 (shapeCast S3x768x256 (transpose S3x3x256x256 [1, 0, 2, 3] (V main_arg14) transposes_S3x3x256x256_S3x3x256x256_1_0_2_3) shapeCasts_S3x3x256x256_S3x768x256) bitsLt_bf16_f32 := by
    after_results; rfl
  rw [h]
  exact (Cert.Spec.reshape_taps (transpose S3x3x256x256 [1, 0, 2, 3] (V main_arg14) transposes_S3x3x256x256_S3x3x256x256_1_0_2_3) _ dx dy ci co hk rfl).trans
    (Cert.Spec.transpose_1023_apply (V main_arg14) transposes_S3x3x256x256_S3x3x256x256_1_0_2_3 dx dy ci co)

end Cert.KernelIdeal.Glue

end
-- ==== Proof.KI.RunValCore10.lean ====
import proofs.«143011_g2000502688546152_pallasbulk_1201_3_alg».proof.Proof.KI.Reg10Value
import proofs.«143011_g2000502688546152_pallasbulk_1201_3_alg».proof.Proof.KI.GluePad10
import proofs.«143011_g2000502688546152_pallasbulk_1201_3_alg».proof.Proof.KI.GlueW10
import proofs.«143011_g2000502688546152_pallasbulk_1201_3_alg».proof.Proof.Spec.ArgsOf
import proofs.«143011_g2000502688546152_pallasbulk_1201_3_alg».proof.Proof.Spec.FlatIdx

/-! # Region 10 between its neighbours: a convolution layer of the network

If the stack of images the zero border is put around is `aPrev`, the region leaves the 3×3 convolution of `aPrev` with
the [3, 3, 256, 256] parameter array, plus the bias row, clamped below at zero. The two stretches of host operations in
front of the region put the zero border around the stack and lay the parameter array out as [3, 3·256, 256] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_10 (V : Valuation τ sig (Elt Ideal)) : StableHlo.after hostOps10 V main_c_11 = constantI S_ 32 0#32 := by
  after_results <;> rfl

/-- From ANY contents `Wp` in front of the border stretch that hold the integer 0 in the stretch's constant and the
    stack `aPrev` in the array the border is put around: the region's output array, entry by entry. -/
theorem core_10 (Wp : Dev nD → Valuation τ sig (Elt Ideal)) (c : Dev nD)
    (hc : Wp c main_c_11 = constantI S_ 32 0#32)
    (aPrev : Cert.Spec.Act 32 56 56 256)
    (hprev : ∀ (n : Fin 32) (h : Fin 56) (w : Fin 56) (ci : Fin 256),
      (Wp c main_v50 : FVec Ideal S32x56x56x256 .bf16) (ix4 n h w ci) = aPrev n h w ci)
    (n : Fin 32) (h : Fin 56) (w : Fin 56) (co : Fin 256) :
    (Reg10.dat (F := Ideal) (fun c b => StableHlo.after hostOps10_2 (StableHlo.after hostOps10_1 (Wp c)) b) c).arrAt 4 cfg10.N
        (ix4 n h w co)
      = Cert.Spec.convRelu aPrev (Cert.Spec.curryW (Wp c main_arg14 : FVec Ideal S3x3x256x256 .f32))
          (Cert.Spec.curryB (Wp c main_arg15 : FVec Ideal S1x256 .f32)) n h w co := by
  refine (Reg10.out_value _ c n h w co).trans ?_
  have e9 : StableHlo.after hostOps10_2 (StableHlo.after hostOps10_1 (Wp c)) main_v51
      = StableHlo.after hostOps10_1 (Wp c) main_v51 :=
    StableHlo.after_of_writes_sub hostOps10_2 _ hostOps10_2_writes (by decide)
  have eW : StableHlo.after hostOps10_1 (Wp c) main_arg14 = Wp c main_arg14 :=
    StableHlo.after_of_writes_sub hostOps10_1 _ hostOps10_1_writes (by decide)
  have eB : StableHlo.after hostOps10_2 (StableHlo.after hostOps10_1 (Wp c)) main_arg15 = Wp c main_arg15 :=
    (StableHlo.after_of_writes_sub hostOps10_2 _ hostOps10_2_writes (by decide)).trans
      (StableHlo.after_of_writes_sub hostOps10_1 _ hostOps10_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps10_2 (StableHlo.after hostOps10_1 (Wp c)) main_v51 : FVec Ideal S32x84x64x256 .bf16) _ = _
      rw [e9, Glue.pad_10 (Wp c) hc]
      refine congrArg (fun z : Cert.Spec.Act 32 56 56 256 => Cert.Spec.padAt z n _ _ ci) ?_
      funext n' h' w' ci'
      exact hprev n' h' w' ci'
    · show (StableHlo.after hostOps10_2 (StableHlo.after hostOps10_1 (Wp c)) main_v54 : FVec Ideal S3x768x256 .bf16) _ = _
      rw [Glue.wk_10 _ dy dx ci co _, eW]
  · show (StableHlo.after hostOps10_2 (StableHlo.after hostOps10_1 (Wp c)) main_arg15 : FVec Ideal S1x256 .f32) _ = _
    rw [eB]

end Cert.KernelIdeal.RunVal
-- ==== Proof.KI.RunVal10.lean ====
import proofs.«143011_g2000502688546152_pallasbulk_1201_3_alg».proof.Proof.KI.RunChainAt
import proofs.«143011_g2000502688546152_pallasbulk_1201_3_alg».proof.Proof.KI.RunValCore10

/-! # Region 10 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_10 (c : Dev nD) (aPrev : Cert.Spec.Act 32 56 56 256)
    (hprev : ∀ (n : Fin 32) (h : Fin 56) (w : Fin 56) (ci : Fin 256),
      (W33 m c main_v50 : FVec Ideal S32x56x56x256 .bf16) (ix4 n h w ci) = aPrev n h w ci) :
    ∀ (n : Fin 32) (h : Fin 56) (w : Fin 56) (co : Fin 256),
      (W36 m c main_v55 : FVec Ideal S32x56x56x256 .bf16) (ix4 n h w co)
        = Cert.Spec.convRelu aPrev
            (Cert.Spec.curryW (m ((c : Thread nD τ).loc main_arg14) : FVec Ideal S3x3x256x256 .f32))
            (Cert.Spec.curryB (m ((c : Thread nD τ).loc main_arg15) : FVec Ideal S1x256 .f32)) n h w co := by
  intro n h w co
  have hW : W33 m c main_arg14 = m ((c : Thread nD τ).loc main_arg14) := W33_arg m c _ (by decide)
  have hB : W33 m c main_arg15 = m ((c : Thread nD τ).loc main_arg15) := W33_arg m c _ (by decide)
  rw [W36_self, ← hW, ← hB]
  have hc : W33 m c main_c_11 = constantI S_ 32 0#32 := RunVal.cst_10 (W32 m c)
  exact RunVal.core_10 (W33 m) c hc aPrev hprev n h w co

/-- The same from the contents one stretch earlier: the stretch in between writes only the border's constant. -/
theorem val_10_from (c : Dev nD) (aPrev : Cert.Spec.Act 32 56 56 256)
    (hprev : ∀ (n : Fin 32) (h : Fin 56) (w : Fin 56) (ci : Fin 256),
      (W32 m c main_v50 : FVec Ideal S32x56x56x256 .bf16) (ix4 n h w ci) = aPrev n h w ci) :
    ∀ (n : Fin 32) (h : Fin 56) (w : Fin 56) (co : Fin 256),
      (W36 m c main_v55 : FVec Ideal S32x56x56x256 .bf16) (ix4 n h w co)
        = Cert.Spec.convRelu aPrev
            (Cert.Spec.curryW (m ((c : Thread nD τ).loc main_arg14) : FVec Ideal S3x3x256x256 .f32))
            (Cert.Spec.curryB (m ((c : Thread nD τ).loc main_arg15) : FVec Ideal S1x256 .f32)) n h w co :=
  val_10 m c aPrev fun n h w ci => by
    rw [W33_of m c main_v50 (by decide)]
    exact hprev n h w ci

end Cert.KernelIdeal.Run
-- ==== Proof.KI.Reg12Value.lean ====
/-
  REGION 12, at the ideal values: the output array after the last point, index by index — the 2×2 max pooling
  of the region's own input array.
-/
import proofs.«143011_g2000502688546152_pallasbulk_1201_3_alg».proof.Proof.KI.Reg12
import Idealize.ShloMosaic.Lib.ValueIdx
import Idealize.ShloMosaic.Lib.Pipeline.Value
import Idealize.ShloMosaic.PureOps.Ideal.Laws

noncomputable section

namespace Cert.KernelIdeal.Reg12

open Cert.KernelIdeal Cert.KernelIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .bf16 0xFF80#16 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S14x28x2x256 .bf16) (r : Fin 14) (j : Fin 28) (ch : Fin 256) :
    multiReduction .maximumf [2] S14x28x256 Y 0xFF80#16 reduces_S14x28x2x256_S14x28x256 (.inr rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S7x2x28x256 .bf16) (i : Fin 7) (j : Fin 28) (ch : Fin 256) :
    multiReduction .maximumf [1] S7x28x256 Z 0xFF80#16 reduces_S7x2x28x256_S7x28x256 (.inr rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x14x28x2x256.Idx → α) (r : Fin 14) (j : Fin 28) (q : Fin 2) (ch : Fin 256) :
    shapeCast S14x28x2x256 X shapeCasts_S1x14x28x2x256_S14x28x2x256 (ix4 r j q ch) = X (ix5 (0 : Fin 1) r j q ch) := by
  refine shapeCast_apply _ _ _ _ ?_
  rw [Shape.rowMajor_val_five, Shape.rowMajor_val_four]
  show ((((0 * 14 + r.val) * 28 + j.val) * 2 + q.val) * 256 + ch.val) = (((r.val * 28 + j.val) * 2 + q.val) * 256 + ch.val)
  omega

/-- The 14 rows regrouped as 7 pairs: the even row of pair i is row 2i, -/
theorem pairRows_apply0 (W : S14x28x256.Idx → α) (i : Fin 7) (j : Fin 28) (ch : Fin 256) :
    shapeCast S7x2x28x256 W shapeCasts_S14x28x256_S7x2x28x256 (ix4 i (0 : Fin 2) j ch)
      = W (ix3 (⟨2 * i.val, by omega⟩ : Fin 14) j ch) := by
  refine shapeCast_apply _ _ _ _ ?_
  rw [Shape.rowMajor_val_three, Shape.rowMajor_val_four]
  show ((2 * i.val) * 28 + j.val) * 256 + ch.val = (((i.val * 2 + 0) * 28 + j.val) * 256 + ch.val)
  omega

/-- and the odd one row 2i + 1. -/
theorem pairRows_apply1 (W : S14x28x256.Idx → α) (i : Fin 7) (j : Fin 28) (ch : Fin 256) :
    shapeCast S7x2x28x256 W shapeCasts_S14x28x256_S7x2x28x256 (ix4 i (1 : Fin 2) j ch)
      = W (ix3 (⟨2 * i.val + 1, by omega⟩ : Fin 14) j ch) := by
  refine shapeCast_apply _ _ _ _ ?_
  rw [Shape.rowMajor_val_three, Shape.rowMajor_val_four]
  show ((2 * i.val + 1) * 28 + j.val) * 256 + ch.val = (((i.val * 2 + 1) * 28 + j.val) * 256 + ch.val)
  omega

/-- The pooled rows with the leading unit axis back. -/
theorem addLead_apply (W : S7x28x256.Idx → α) (i : Fin 7) (j : Fin 28) (ch : Fin 256) :
    shapeCast S1x7x28x256 W shapeCasts_S7x28x256_S1x7x28x256 (ix4 (0 : Fin 1) i j ch) = W (ix3 i j ch) := by
  refine shapeCast_apply _ _ _ _ ?_
  rw [Shape.rowMajor_val_three, Shape.rowMajor_val_four]
  show ((i.val * 28 + j.val) * 256 + ch.val) = (((0 * 7 + i.val) * 28 + j.val) * 256 + ch.val)
  omega

/-- The body's value at an index of the output block: the maximum over the two rows 2i, 2i+1 of the maximum
    over the column pair j. -/
theorem pay_apply (X : Vec Ideal S1x14x28x2x256 .bf16) (i : Fin 7) (j : Fin 28) (ch : Fin 256) :
    k12_pay1 X (ix4 (0 : Fin 1) i j ch)
      = max (max (X (ix5 (0 : Fin 1) (⟨2 * i.val, by omega⟩ : Fin 14) j (0 : Fin 2) ch))
                 (X (ix5 (0 : Fin 1) (⟨2 * i.val, by omega⟩ : Fin 14) j (1 : Fin 2) ch)))
            (max (X (ix5 (0 : Fin 1) (⟨2 * i.val + 1, by omega⟩ : Fin 14) j (0 : Fin 2) ch))
                 (X (ix5 (0 : Fin 1) (⟨2 * i.val + 1, by omega⟩ : Fin 14) j (1 : Fin 2) ch))) := by
  unfold k12_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 32 images × 56 rows × 28 column pairs × 2 × 256 channels. -/
abbrev xin (c : Dev nD) : (⟨5, ![32, 56, 28, 2, 256]⟩ : Shape).Idx → EReal := V c (Pipeline.arrRef spec12 0)

/-- The 2×2 max pooling of an input array at (n, i, j, ch): over the rows 2i, 2i+1 the maximum of the maximum
    over the column pair j. -/
def poolAt (x : (⟨5, ![32, 56, 28, 2, 256]⟩ : Shape).Idx → EReal) (n : Fin 32) (i : Fin 28) (j : Fin 28) (ch : Fin 256) : EReal :=
  max (max (x (ix5 n (⟨2 * i.val, by omega⟩ : Fin 56) j (0 : Fin 2) ch))
           (x (ix5 n (⟨2 * i.val, by omega⟩ : Fin 56) j (1 : Fin 2) ch)))
      (max (x (ix5 n (⟨2 * i.val + 1, by omega⟩ : Fin 56) j (0 : Fin 2) ch))
           (x (ix5 n (⟨2 * i.val + 1, by omega⟩ : Fin 56) j (1 : Fin 2) ch)))

/-- The pooled array. -/
def poolArr (x : (⟨5, ![32, 56, 28, 2, 256]⟩ : Shape).Idx → EReal) : (⟨4, ![32, 28, 28, 256]⟩ : Shape).Idx → EReal :=
  fun k => poolAt x (k 0) (k 1) (k 2) (k 3)

/-- The index maps over the grid in closed form: point t is (n, r) = (t / 4, t % 4); there the input block is
    block (n, r, 0, 0, 0) of its array and the output block is block (n, r, 0, 0) of its own. -/
theorem idx_facts : ∀ t : Fin cfg12.N,
    win12_1.index t (0 : Fin 4) = t.val / 4 ∧ win12_1.index t (1 : Fin 4) = t.val % 4
    ∧ win12_1.index t (2 : Fin 4) = 0 ∧ win12_1.index t (3 : Fin 4) = 0
    ∧ win12_0.index t (0 : Fin 5) = t.val / 4 ∧ win12_0.index t (1 : Fin 5) = t.val % 4
    ∧ win12_0.index t (2 : Fin 5) = 0 ∧ win12_0.index t (3 : Fin 5) = 0 ∧ win12_0.index t (4 : Fin 5) = 0 :=
  (by decide +kernel : ∀ t : Fin grid12.N, _)

/-- The grid has 128 points. -/
theorem t_lt (t : Fin cfg12.N) : t.val < 128 := lt_of_lt_of_eq t.isLt N_12

/-- An element of the input block at point t = (n, r) sits in the input array at image n, row 16r + (its row). -/
theorem blk_in_apply (c : Dev nD) (t : Fin cfg12.N) (r : Fin 14) (R : Fin 56) (hR : R.val = 14 * (t.val % 4) + r.val)
    (j : Fin 28) (q : Fin 2) (ch : Fin 256) :
    blk V c 0 t (ix5 (0 : Fin 1) r j q ch)
      = xin V c (ix5 (⟨t.val / 4, by have := t_lt t; omega⟩ : Fin 32) R j q ch) := by
  obtain ⟨o0, o1, o2, o3, i0, i1, i2, i3, i4⟩ := idx_facts t
  show xin V c (((cfg12.win 0).blk t).view.emb (ix5 (0 : Fin 1) r j q ch)) = _
  congr 1
  funext a
  apply Fin.ext
  match a with
  | ⟨0, _⟩ => show win12_0.index t (0 : Fin 5) * 1 + 1 * 0 = t.val / 4; omega
  | ⟨1, _⟩ => show win12_0.index t (1 : Fin 5) * 14 + 1 * r.val = R.val; omega
  | ⟨2, _⟩ => show win12_0.index t (2 : Fin 5) * 28 + 1 * j.val = j.val; omega
  | ⟨3, _⟩ => show win12_0.index t (3 : Fin 5) * 2 + 1 * q.val = q.val; omega
  | ⟨4, _⟩ => show win12_0.index t (4 : Fin 5) * 256 + 1 * ch.val = ch.val; omega

/-- An element of the output block at point t = (n, r) sits in the output array at image n, row 8r + (its row). -/
theorem emb_out (t : Fin cfg12.N) (i : Fin 7) (j : Fin 28) (ch : Fin 256) :
    ((cfg12.win 1).blk t).view.emb (ix4 (0 : Fin 1) i j ch)
      = ix4 (⟨t.val / 4, by have := t_lt t; omega⟩ : Fin 32) (⟨7 * (t.val % 4) + i.val, by omega⟩ : Fin 28) j ch := by
  obtain ⟨o0, o1, o2, o3, i0, i1, i2, i3, i4⟩ := idx_facts t
  funext a
  apply Fin.ext
  match a with
  | ⟨0, _⟩ => show win12_1.index t (0 : Fin 4) * 1 + 1 * 0 = t.val / 4; omega
  | ⟨1, _⟩ => show win12_1.index t (1 : Fin 4) * 7 + 1 * i.val = 7 * (t.val % 4) + i.val; omega
  | ⟨2, _⟩ => show win12_1.index t (2 : Fin 4) * 28 + 1 * j.val = j.val; omega
  | ⟨3, _⟩ => show win12_1.index t (3 : Fin 4) * 256 + 1 * ch.val = ch.val; omega

/-- What point t writes back is its block of the pooled array. -/
theorem flushed_eq (c : Dev nD) (t : Fin cfg12.N) :
    (dat (F := Ideal) V c).flushed 1 t = ((cfg12.win 1).blk t).view.read (Elt Ideal) (poolArr (xin V c)) := by
  show (cfg12.win 1).cut (grid12.coords t) ((dat V c).after 1 t) = _
  rw [after_1]
  funext y
  obtain ⟨y0, i, j, ch, rfl⟩ : ∃ (y0 : Fin 1) (i : Fin 7) (j : Fin 28) (ch : Fin 256), y = ix4 y0 i j ch :=
    ⟨y 0, y 1, y 2, y 3, eq_ix4 y⟩
  obtain rfl : y0 = 0 := Subsingleton.elim _ _
  show k12_pay1 (blk V c 0 t) (ix4 (0 : Fin 1) i j ch)
    = poolArr (xin V c) (((cfg12.win 1).blk t).view.emb (ix4 (0 : Fin 1) i j ch))
  rw [pay_apply, emb_out,
    blk_in_apply V c t _ (⟨2 * (7 * (t.val % 4) + i.val), by omega⟩ : Fin 56) (by show 2 * (7 * (t.val % 4) + i.val) = 14 * (t.val % 4) + 2 * i.val; omega),
    blk_in_apply V c t _ (⟨2 * (7 * (t.val % 4) + i.val), by omega⟩ : Fin 56) (by show 2 * (7 * (t.val % 4) + i.val) = 14 * (t.val % 4) + 2 * i.val; omega),
    blk_in_apply V c t _ (⟨2 * (7 * (t.val % 4) + i.val) + 1, by omega⟩ : Fin 56) (by show 2 * (7 * (t.val % 4) + i.val) + 1 = 14 * (t.val % 4) + (2 * i.val + 1); omega),
    blk_in_apply V c t _ (⟨2 * (7 * (t.val % 4) + i.val) + 1, by omega⟩ : Fin 56) (by show 2 * (7 * (t.val % 4) + i.val) + 1 = 14 * (t.val % 4) + (2 * i.val + 1); omega)]
  rfl

/-- An index of the output array is in point t's block iff on each axis it lies in the block's range. -/
theorem mem_blk (t : Fin cfg12.N) (k : (⟨4, ![32, 28, 28, 256]⟩ : Shape).Idx) :
    k ∈ ((cfg12.win 1).blk t).view.set ↔ ∀ a : Fin 4, win12_1.index t a * S1x7x28x256.size a ≤ (k a).val
      ∧ (k a).val < win12_1.index t a * S1x7x28x256.size a + S1x7x28x256.size a := by
  show k ∈ ((View.whole main_v64).slice (win12_1.rect t)).set ↔ _
  rw [View.set_slice_whole, Rect.mem_set_unit]
  exact Iff.rfl

/-- The output blocks tile the output array: index (n, h, j, ch) is in the block of point (n, h / 7). -/
theorem cover (k : (⟨4, ![32, 28, 28, 256]⟩ : Shape).Idx) :
    ∃ t : Fin cfg12.N, (cfg12.win 1).flush t = true ∧ k ∈ ((cfg12.win 1).blk t).view.set := by
  have h0 : (k 0).val < 32 := (k 0).isLt
  have h1 : (k 1).val < 28 := (k 1).isLt
  have h2 : (k 2).val < 28 := (k 2).isLt
  have h3 : (k 3).val < 256 := (k 3).isLt
  have hN : cfg12.N = 128 := N_12
  obtain ⟨t, tv⟩ : ∃ t : Fin cfg12.N, t.val = (k 0).val * 4 + (k 1).val / 7 := ⟨⟨_, by omega⟩, rfl⟩
  obtain ⟨o0, o1, o2, o3, -⟩ := idx_facts t
  refine ⟨t, flush12_1 t, ?_⟩
  rw [mem_blk]
  intro a
  match a with
  | ⟨0, _⟩ => show win12_1.index t (0 : Fin 4) * 1 ≤ (k 0).val ∧ (k 0).val < win12_1.index t (0 : Fin 4) * 1 + 1; omega
  | ⟨1, _⟩ => show win12_1.index t (1 : Fin 4) * 7 ≤ (k 1).val ∧ (k 1).val < win12_1.index t (1 : Fin 4) * 7 + 7; omega
  | ⟨2, _⟩ => show win12_1.index t (2 : Fin 4) * 28 ≤ (k 2).val ∧ (k 2).val < win12_1.index t (2 : Fin 4) * 28 + 28; omega
  | ⟨3, _⟩ => show win12_1.index t (3 : Fin 4) * 256 ≤ (k 3).val ∧ (k 3).val < win12_1.index t (3 : Fin 4) * 256 + 256; omega

/-- So after the last point the output array is the pooled input array. -/
theorem final (c : Dev nD) : (dat (F := Ideal) V c).arrAt 1 cfg12.N = poolArr (xin V c) :=
  (dat V c).arrAt_eq_of_cover 1 (poolArr (xin V c)) (fun t _ => flushed_eq V c t) cover

/-- After the last point the output array [32, 28, 28, 256] is the 2×2 max pooling of the input array
    [32, 56, 28, 2, 256]: at (n, i, j, ch) the maximum over the two rows 2i, 2i+1 of the maximum over the
    column pair j. The nesting is the body's: the inner maximum is over the column pair (the first
    reduction), the outer over the row pair (the second). -/
theorem out_apply (c : Dev nD) (n : Fin 32) (i : Fin 28) (j : Fin 28) (ch : Fin 256) :
    (dat (F := Ideal) V c).arrAt 1 cfg12.N (ix4 n i j ch)
      = max (max (xin V c (ix5 n (⟨2 * i.val, by omega⟩ : Fin 56) j (0 : Fin 2) ch))
                 (xin V c (ix5 n (⟨2 * i.val, by omega⟩ : Fin 56) j (1 : Fin 2) ch)))
            (max (xin V c (ix5 n (⟨2 * i.val + 1, by omega⟩ : Fin 56) j (0 : Fin 2) ch))
                 (xin V c (ix5 n (⟨2 * i.val + 1, by omega⟩ : Fin 56) j (1 : Fin 2) ch))) := by
  rw [final]
  rfl

end Cert.KernelIdeal.Reg12
-- ==== Proof.KI.GluePairs2.lean ====
/-
  The features of the third level as the pooling region finds them: the stack's columns read in pairs. Entry
  (n, i, j, t, c) is the stack's entry (n, i, 2 j + t, c).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem pairs_2 (V : Valuation τ sig (Elt Ideal)) (n : Fin 32) (i : Fin 56) (j : Fin 28) (t : Fin 2) (c : Fin 256) :
    (StableHlo.after hostOps12 V main_v63 : FVec Ideal S32x56x28x2x256 .bf16) (ix5 n i j t c)
      = (V main_v55 : FVec Ideal S32x56x56x256 .bf16) (ix4 n i ⟨2 * j.val + t.val, by omega⟩ c) := by
  have h : StableHlo.after hostOps12 V main_v63 = shapeCast S32x56x28x2x256 (V main_v55) shapeCasts_S32x56x56x256_S32x56x28x2x256 := by
    after_results <;> rfl
  rw [h]
  exact Cert.Spec.reshape_pairs _ _ rfl n i j t c

end Cert.KernelIdeal.Glue

end
-- ==== Proof.KI.RunValCore12.lean ====
import proofs.«143011_g2000502688546152_pallasbulk_1201_3_alg».proof.Proof.KI.Reg12Value
import proofs.«143011_g2000502688546152_pallasbulk_1201_3_alg».proof.Proof.KI.GluePairs2
import proofs.«143011_g2000502688546152_pallasbulk_1201_3_alg».proof.Proof.Spec.Defs

/-! # Region 12 between its neighbours: a 2×2 max pooling of the network

If the stack of images the pooling reads is `aPrev` ([32, 56, 56, 256]), the region leaves its 2×2 max pooling
([32, 28, 28, 256]). The stretch of host operations in front of the region only regroups each row's columns into pairs. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- From ANY contents `Wp` in front of the regrouping stretch that hold the stack `aPrev` in the array it regroups: the
    region's output array, entry by entry. -/
theorem core_12 (Wp : Dev nD → Valuation τ sig (Elt Ideal)) (c : Dev nD)
    (aPrev : Cert.Spec.Act 32 56 56 256)
    (hprev : ∀ (n : Fin 32) (h : Fin 56) (w : Fin 56) (ch : Fin 256),
      (Wp c main_v55 : FVec Ideal S32x56x56x256 .bf16) (ix4 n h w ch) = aPrev n h w ch)
    (n : Fin 32) (i : Fin 28) (j : Fin 28) (ch : Fin 256) :
    (Reg12.dat (F := Ideal) (fun c b => StableHlo.after hostOps12 (Wp c) b) c).arrAt 1 cfg12.N (ix4 n i j ch)
      = Cert.Spec.pool2x2 aPrev n i j ch := by
  refine (Reg12.out_apply _ c n i j ch).trans ?_
  have e : ∀ (r : Fin 56) (t : Fin 2) (q : Fin 56) (hq : q.val = 2 * j.val + t.val),
      (StableHlo.after hostOps12 (Wp c) main_v63 : FVec Ideal S32x56x28x2x256 .bf16) (ix5 n r j t ch) = aPrev n r q ch :=
    fun r t q hq => (Glue.pairs_2 (Wp c) n r j t ch).trans
      ((hprev n r _ ch).trans (congrArg (fun x => aPrev n r x ch) (Fin.ext hq.symm)))
  show @Eq EReal _ _
  unfold Cert.Spec.pool2x2
  exact congrArg₂ (fun a b : EReal => max a b)
    (congrArg₂ (fun a b : EReal => max a b) (e _ 0 _ rfl) (e _ 1 _ rfl))
    (congrArg₂ (fun a b : EReal => max a b) (e _ 0 _ rfl) (e _ 1 _ rfl))

end Cert.KernelIdeal.RunVal
-- ==== Proof.KI.RunVal12.lean ====
import proofs.«143011_g2000502688546152_pallasbulk_1201_3_alg».proof.Proof.KI.RunChainAt
import proofs.«143011_g2000502688546152_pallasbulk_1201_3_alg».proof.Proof.KI.RunValCore12

/-! # Region 12 in the chain of contents: a 2×2 max pooling, from the stack in front of its regrouping stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the regrouping stretch hold the stack `aPrev` in the array it regroups, the contents
    after the region hold, in the region's output array, the 2×2 max pooling of `aPrev`. -/
theorem val_12 (c : Dev nD) (aPrev : Cert.Spec.Act 32 56 56 256)
    (hprev : ∀ (n : Fin 32) (h : Fin 56) (w : Fin 56) (ch : Fin 256),
      (W38 m c main_v55 : FVec Ideal S32x56x56x256 .bf16) (ix4 n h w ch) = aPrev n h w ch) :
    ∀ (n : Fin 32) (i : Fin 28) (j : Fin 28) (ch : Fin 256),
      (W40 m c main_v64 : FVec Ideal S32x28x28x256 .bf16) (ix4 n i j ch) = Cert.Spec.pool2x2 aPrev n i j ch := by
  intro n i j ch
  rw [W40_self]
  exact RunVal.core_12 (W38 m) c aPrev hprev n i j ch

end Cert.KernelIdeal.Run
-- ==== Proof.KI.Reg13Pipe.lean ====
import proofs.«143011_g2000502688546152_pallasbulk_1201_3_alg».proof.Proof.KI.Reg13
import Idealize.ShloMosaic.Lib.Pipeline.Value
import Idealize.ShloMosaic.Lib.ValueIdx
import Idealize.ShloMosaic.PureOps.Ideal

/-!
  The 3×3 convolution 256 → 512 on 28×28 images (pallas region 13) at the ideal float model, from the tile to the array:
  where each window's block sits in its array (the two row blocks are consecutive 28-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg13

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 56, 32, 256] (the array of windows 0 and 1), the weights [3, 768, 512] and the bias [1, 512]
    as the region finds them. -/
abbrev xp (c : Dev nD) : Vec Ideal S32x56x32x256 .bf16 := V c (Pipeline.arrRef spec13 0)
abbrev wk (c : Dev nD) : Vec Ideal S3x768x512 .bf16 := V c (Pipeline.arrRef spec13 2)
abbrev bias (c : Dev nD) : Vec Ideal S1x512 .f32 := V c (Pipeline.arrRef spec13 3)

/-- The output array [32, 28, 28, 512] after the region. -/
abbrev yOut (c : Dev nD) : Vec Ideal S32x28x28x512 .bf16 := (dat (F := Ideal) V c).arrAt 4 cfg13.N

/-- Pixel `(hh, ww)`, channel `ci` of the 56-row padded image the two row blocks make up. -/
def pix (xa xb : Vec Ideal S1x28x32x256 .bf16) (hh : Fin 56) (ww : Fin 32) (ci : Fin 256) : EReal :=
  if h : hh.val < 28 then xa (ix4 0 ⟨hh.val, h⟩ ww ci) else xb (ix4 0 ⟨hh.val - 28, by omega⟩ ww ci)

/-! ## Where the windows' blocks sit -/

/-- The block indices along the grid's row-major order, decided over the grid: position t is image t / 1, row tile
    t % 1; the second row window is one tile further down; weights and bias do not move; the output tile is the first
    row window's. -/
theorem index_upper : ∀ t : Fin cfg13.N, win13_0.index t (0 : Fin 4) = t.val / 1 ∧ win13_0.index t (1 : Fin 4) = t.val % 1
    ∧ win13_0.index t (2 : Fin 4) = 0 ∧ win13_0.index t (3 : Fin 4) = 0 :=
  (by decide +kernel : ∀ t : Fin grid13.N, win13_0.index t (0 : Fin 4) = t.val / 1 ∧ win13_0.index t (1 : Fin 4) = t.val % 1
    ∧ win13_0.index t (2 : Fin 4) = 0 ∧ win13_0.index t (3 : Fin 4) = 0)
theorem index_lower : ∀ t : Fin cfg13.N, win13_1.index t (0 : Fin 4) = t.val / 1 ∧ win13_1.index t (1 : Fin 4) = t.val % 1 + 1
    ∧ win13_1.index t (2 : Fin 4) = 0 ∧ win13_1.index t (3 : Fin 4) = 0 :=
  (by decide +kernel : ∀ t : Fin grid13.N, win13_1.index t (0 : Fin 4) = t.val / 1 ∧ win13_1.index t (1 : Fin 4) = t.val % 1 + 1
    ∧ win13_1.index t (2 : Fin 4) = 0 ∧ win13_1.index t (3 : Fin 4) = 0)
theorem index_weights : ∀ t : Fin cfg13.N, win13_2.index t (0 : Fin 3) = 0 ∧ win13_2.index t (1 : Fin 3) = 0 ∧ win13_2.index t (2 : Fin 3) = 0 :=
  (by decide +kernel : ∀ t : Fin grid13.N, win13_2.index t (0 : Fin 3) = 0 ∧ win13_2.index t (1 : Fin 3) = 0 ∧ win13_2.index t (2 : Fin 3) = 0)
theorem index_bias : ∀ t : Fin cfg13.N, win13_3.index t (0 : Fin 2) = 0 ∧ win13_3.index t (1 : Fin 2) = 0 :=
  (by decide +kernel : ∀ t : Fin grid13.N, win13_3.index t (0 : Fin 2) = 0 ∧ win13_3.index t (1 : Fin 2) = 0)
theorem index_out : ∀ t : Fin cfg13.N, win13_4.index t (0 : Fin 4) = t.val / 1 ∧ win13_4.index t (1 : Fin 4) = t.val % 1
    ∧ win13_4.index t (2 : Fin 4) = 0 ∧ win13_4.index t (3 : Fin 4) = 0 :=
  (by decide +kernel : ∀ t : Fin grid13.N, win13_4.index t (0 : Fin 4) = t.val / 1 ∧ win13_4.index t (1 : Fin 4) = t.val % 1
    ∧ win13_4.index t (2 : Fin 4) = 0 ∧ win13_4.index t (3 : Fin 4) = 0)

/-- Row hh of the upper row block is row 28 · (row tile) + hh of the padded image. -/
theorem upper_at (c : Dev nD) (t : Fin cfg13.N) (hh : Fin 28) (ww : Fin 32) (ci : Fin 256) (n : Fin 32) (row : Fin 56)
    (hn : n.val = t.val / 1) (hrow : row.val = t.val % 1 * 28 + hh.val) :
    blk V c 0 t (ix4 (0 : Fin 1) hh ww ci) = xp V c (ix4 n row ww ci) := by
  obtain ⟨e0, e1, e2, e3⟩ := index_upper t
  show V c (Pipeline.arrRef spec13 0) (((cfg13.win 0).blk t).view.emb (ix4 (0 : Fin 1) hh ww ci)) = V c (Pipeline.arrRef spec13 0) (ix4 n row ww ci)
  refine congrArg _ (funext fun a => Fin.ext ?_)
  match a with
  | ⟨0, _⟩ => show win13_0.index t (0 : Fin 4) * 1 + 1 * 0 = n.val; omega
  | ⟨1, _⟩ => show win13_0.index t (1 : Fin 4) * 28 + 1 * hh.val = row.val; omega
  | ⟨2, _⟩ => show win13_0.index t (2 : Fin 4) * 32 + 1 * ww.val = ww.val; omega
  | ⟨3, _⟩ => show win13_0.index t (3 : Fin 4) * 256 + 1 * ci.val = ci.val; omega

/-- Row hh of the lower row block is row 28 · (row tile + 1) + hh of the same image: the halo. -/
theorem lower_at (c : Dev nD) (t : Fin cfg13.N) (hh : Fin 28) (ww : Fin 32) (ci : Fin 256) (n : Fin 32) (row : Fin 56)
    (hn : n.val = t.val / 1) (hrow : row.val = (t.val % 1 + 1) * 28 + hh.val) :
    blk V c 1 t (ix4 (0 : Fin 1) hh ww ci) = xp V c (ix4 n row ww ci) := by
  obtain ⟨e0, e1, e2, e3⟩ := index_lower t
  show V c (Pipeline.arrRef spec13 1) (((cfg13.win 1).blk t).view.emb (ix4 (0 : Fin 1) hh ww ci)) = V c (Pipeline.arrRef spec13 0) (ix4 n row ww ci)
  refine congrArg _ (funext fun a => Fin.ext ?_)
  match a with
  | ⟨0, _⟩ => show win13_1.index t (0 : Fin 4) * 1 + 1 * 0 = n.val; omega
  | ⟨1, _⟩ => show win13_1.index t (1 : Fin 4) * 28 + 1 * hh.val = row.val; omega
  | ⟨2, _⟩ => show win13_1.index t (2 : Fin 4) * 32 + 1 * ww.val = ww.val; omega
  | ⟨3, _⟩ => show win13_1.index t (3 : Fin 4) * 256 + 1 * ci.val = ci.val; omega

/-- So the 56 rows the two blocks make up are rows 28 · (row tile) … of the padded image. -/
theorem pix_at (c : Dev nD) (t : Fin cfg13.N) (hh : Fin 56) (ww : Fin 32) (ci : Fin 256) (n : Fin 32) (row : Fin 56)
    (hn : n.val = t.val / 1) (hrow : row.val = t.val % 1 * 28 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 56 := hh.isLt
    exact lower_at V c t ⟨hh.val - 28, by omega⟩ ww ci n row hn (by show row.val = (t.val % 1 + 1) * 28 + (hh.val - 28); omega)

/-- The weights' block is the whole weight array, -/
theorem weights_at (c : Dev nD) (t : Fin cfg13.N) (y : S3x768x512.Idx) : blk V c 2 t y = wk V c y := by
  obtain ⟨e0, e1, e2⟩ := index_weights t
  show V c (Pipeline.arrRef spec13 2) (((cfg13.win 2).blk t).view.emb y) = V c (Pipeline.arrRef spec13 2) y
  refine congrArg _ (funext fun a => Fin.ext ?_)
  match a with
  | ⟨0, _⟩ => show win13_2.index t (0 : Fin 3) * 3 + 1 * (y 0).val = (y 0).val; omega
  | ⟨1, _⟩ => show win13_2.index t (1 : Fin 3) * 768 + 1 * (y 1).val = (y 1).val; omega
  | ⟨2, _⟩ => show win13_2.index t (2 : Fin 3) * 512 + 1 * (y 2).val = (y 2).val; omega

/-- and the bias's the whole bias row. -/
theorem bias_at (c : Dev nD) (t : Fin cfg13.N) (y : S1x512.Idx) : blk V c 3 t y = bias V c y := by
  obtain ⟨e0, e1⟩ := index_bias t
  show V c (Pipeline.arrRef spec13 3) (((cfg13.win 3).blk t).view.emb y) = V c (Pipeline.arrRef spec13 3) y
  refine congrArg _ (funext fun a => Fin.ext ?_)
  match a with
  | ⟨0, _⟩ => show win13_3.index t (0 : Fin 2) * 1 + 1 * (y 0).val = (y 0).val; omega
  | ⟨1, _⟩ => show win13_3.index t (1 : Fin 2) * 512 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x28x28x512.Idx → EReal := fun i =>
  max ((∑ dy : Fin 3, ∑ dx : Fin 3, ∑ ci : Fin 256,
          xp V c (ix4 (⟨(i 0).val, (i 0).isLt⟩ : Fin 32) ⟨(i 1).val + dy.val, by have h1 : (i 1).val < 28 := (i 1).isLt; omega⟩
              ⟨(i 2).val + dx.val, by have h2 : (i 2).val < 28 := (i 2).isLt; omega⟩ ci)
            * wk V c (ix3 dx ⟨dy.val * 256 + ci.val, by omega⟩ (⟨(i 3).val, (i 3).isLt⟩ : Fin 512)))
        + bias V c (ix2 0 (⟨(i 3).val, (i 3).isLt⟩ : Fin 512))) 0

/-- An index of the output array is in position t's tile iff each coordinate is in the tile's range on its axis. -/
theorem mem_tile (t : Fin cfg13.N) (i : S32x28x28x512.Idx) :
    i ∈ ((cfg13.win 4).blk t).view.set ↔ ∀ a : Fin 4, win13_4.index t a * S1x28x28x512.size a ≤ (i a).val ∧ (i a).val < win13_4.index t a * S1x28x28x512.size a + S1x28x28x512.size a := by
  show i ∈ ((View.whole (Pipeline.arrRef spec13 4)).slice (win13_4.rect t)).set ↔ _
  rw [View.set_slice_whole, Rect.mem_set_unit]
  exact Iff.rfl

section FromTheTile

-- what the body leaves in the tile, index by index over its four blocks: the hypothesis this section is stated under
variable (htile : ∀ (xa xb : Vec Ideal S1x28x32x256 .bf16) (wk : Vec Ideal S3x768x512 .bf16) (b : Vec Ideal S1x512 .f32)
    (h : Fin 28) (w : Fin 28) (co : Fin 512),
    tile (F := Ideal) xa xb wk b (ix4 0 h w co)
      = max ((∑ dy : Fin 3, ∑ dx : Fin 3, ∑ ci : Fin 256,
                pix xa xb ⟨h.val + dy.val, by omega⟩ ⟨w.val + dx.val, by omega⟩ ci
                  * wk (ix3 dx ⟨dy.val * 256 + ci.val, by omega⟩ co))
              + b (ix2 0 co)) 0)

include htile

/-- The tile at grid position t, index by index over the region's arrays. -/
theorem tile_at (c : Dev nD) (t : Fin cfg13.N) (h : Fin 28) (w : Fin 28) (co : Fin 512) (n : Fin 32) (row : Fin 28)
    (hn : n.val = t.val / 1) (hrow : row.val = t.val % 1 * 28 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 28 := h.isLt
  rw [weights_at, pix_at V c t _ _ ci n ⟨row.val + dy.val, by omega⟩ hn (by show row.val + dy.val = t.val % 1 * 28 + (h.val + dy.val); omega)]

/-- What grid position t writes back is its tile of `conv`. -/
theorem flushed_eq (c : Dev nD) (t : Fin cfg13.N) (hf : (cfg13.win 4).flush t = true) :
    (dat (F := Ideal) V c).flushed 4 t = ((cfg13.win 4).blk t).view.read (Elt Ideal) (conv V c) := by
  have hN : cfg13.N = 32 * 1 := N_13
  have ht : t.val < 32 * 1 := lt_of_lt_of_eq t.isLt hN
  obtain ⟨e0, e1, e2, e3⟩ := index_out t
  show (cfg13.win 4).cut (grid13.coords t) ((dat (F := Ideal) V c).after 4 t) = _
  rw [after_4]
  funext y
  have y0 : (y 0).val < 1 := (y 0).isLt
  have y1 : (y 1).val < 28 := (y 1).isLt
  have y2 : (y 2).val < 28 := (y 2).isLt
  have y3 : (y 3).val < 512 := (y 3).isLt
  have ey : y = ix4 (0 : Fin 1) (⟨(y 1).val, y1⟩ : Fin 28) (⟨(y 2).val, y2⟩ : Fin 28) (⟨(y 3).val, y3⟩ : Fin 512) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg13.win 4).blk t).view.emb y)
  have hE : ((cfg13.win 4).blk t).view.emb y
      = ix4 (⟨t.val / 1, by omega⟩ : Fin 32) (⟨t.val % 1 * 28 + (y 1).val, by omega⟩ : Fin 28) (⟨(y 2).val, y2⟩ : Fin 28) (⟨(y 3).val, y3⟩ : Fin 512) := by
    refine funext fun a => Fin.ext ?_
    match a with
    | ⟨0, _⟩ => show win13_4.index t (0 : Fin 4) * 1 + 1 * (y 0).val = t.val / 1; omega
    | ⟨1, _⟩ => show win13_4.index t (1 : Fin 4) * 28 + 1 * (y 1).val = t.val % 1 * 28 + (y 1).val; omega
    | ⟨2, _⟩ => show win13_4.index t (2 : Fin 4) * 28 + 1 * (y 2).val = (y 2).val; omega
    | ⟨3, _⟩ => show win13_4.index t (3 : Fin 4) * 512 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 28 := (i 1).isLt
    have i2 : (i 2).val < 28 := (i 2).isLt
    have i3 : (i 3).val < 512 := (i 3).isLt
    have hN : cfg13.N = 32 * 1 := N_13
    refine ⟨⟨(i 0).val * 1 + (i 1).val / 28, by rw [hN]; omega⟩, flush13_4 _, ?_⟩
    rw [mem_tile]
    obtain ⟨e0, e1, e2, e3⟩ := index_out ⟨(i 0).val * 1 + (i 1).val / 28, by rw [hN]; omega⟩
    intro a
    match a with
    | ⟨0, _⟩ => show win13_4.index _ (0 : Fin 4) * 1 ≤ (i 0).val ∧ (i 0).val < win13_4.index _ (0 : Fin 4) * 1 + 1; rw [e0]; dsimp only; omega
    | ⟨1, _⟩ => show win13_4.index _ (1 : Fin 4) * 28 ≤ (i 1).val ∧ (i 1).val < win13_4.index _ (1 : Fin 4) * 28 + 28; rw [e1]; dsimp only; omega
    | ⟨2, _⟩ => show win13_4.index _ (2 : Fin 4) * 28 ≤ (i 2).val ∧ (i 2).val < win13_4.index _ (2 : Fin 4) * 28 + 28; rw [e2]; omega
    | ⟨3, _⟩ => show win13_4.index _ (3 : Fin 4) * 512 ≤ (i 3).val ∧ (i 3).val < win13_4.index _ (3 : Fin 4) * 512 + 512; rw [e3]; omega

/-- THE REGION'S OUTPUT, element by element: sum over the vertical tap `dy`, the horizontal tap `dx` and the input
    channel `ci`. -/
theorem out_of_tile (c : Dev nD) (n : Fin 32) (h : Fin 28) (w : Fin 28) (co : Fin 512) :
    yOut V c (ix4 n h w co)
      = max ((∑ dy : Fin 3, ∑ dx : Fin 3, ∑ ci : Fin 256,
                xp V c (ix4 n ⟨h.val + dy.val, by omega⟩ ⟨w.val + dx.val, by omega⟩ ci)
                  * wk V c (ix3 dx ⟨dy.val * 256 + ci.val, by omega⟩ co))
              + bias V c (ix2 0 co)) 0 := by
  rw [final V htile c]
  rfl

end FromTheTile

end Cert.KernelIdeal.Reg13

end
-- ==== Proof.KI.Reg13Value.lean ====
/-
  The 3×3 convolution 256 → 512 on 28×28 images (kernel-side program, pallas region 13) at the ideal float model.
  The arithmetic of one grid point read index by index — the slab of stacked row blocks, the three lane-concatenated
  operands (one per horizontal tap), the three products of contraction depth 768, the bias-added, rectified tile —
  regrouped as the triple sum over the vertical tap, the horizontal tap and the input channel; and with the blocks
  read off the region's arrays, the output array after the last grid point, element by element, the weight array
  [3, 768, 512] read at (dx, dy·256 + ci, co).
-/
import proofs.«143011_g2000502688546152_pallasbulk_1201_3_alg».proof.Proof.KI.Reg13Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg13

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 28, 32, 256] laid out as 28 · 32 pixel rows of 256 channels. -/
def rows (x : Vec F S1x28x32x256 .bf16) : FVec F S896x256 .bf16 :=
  shapeCast S896x256 (shapeCast S28x32x256 x Gen.shapeCasts_S1x28x32x256_S28x32x256) Gen.shapeCasts_S28x32x256_S896x256

/-- Both row blocks stacked, then 32 zero rows: 1824 pixel rows. -/
def slab (xa xb : Vec F S1x28x32x256 .bf16) : FVec F S1824x256 .bf16 :=
  concatenate S1824x256 0 [⟨S896x256, rows xa⟩, ⟨S896x256, rows xb⟩, ⟨S32x256, broadcast S32x256 (Scalar.ofBits .bf16 0x0000#16)⟩]
    Gen.concatenates_S896x256_S896x256_S32x256_S1824x256_d0

/-- Three windows of 896 rows of a pixel-row matrix, at row offsets 0, 32, 64 (one image row apart), side by side:
    depth 3 · 256. -/
def lanes {M : Nat} (T : (⟨2, ![M, 256]⟩ : Shape).Idx → F .bf16)
    (h0 : (⟨2, ![M, 256]⟩ : Shape).Slices ![0, 0] S896x256) (h1 : (⟨2, ![M, 256]⟩ : Shape).Slices ![32, 0] S896x256)
    (h2 : (⟨2, ![M, 256]⟩ : Shape).Slices ![64, 0] S896x256) : FVec F S896x768 .bf16 :=
  concatenate S896x768 1 [⟨S896x256, extractStridedSlice S896x256 ![0, 0] T h0⟩, ⟨S896x256, extractStridedSlice S896x256 ![32, 0] T h1⟩,
    ⟨S896x256, extractStridedSlice S896x256 ![64, 0] T h2⟩] Gen.concatenates_S896x256_S896x256_S896x256_S896x768_d1

/-- The operand of horizontal tap 0, 1, 2: the slab shifted by that many pixel rows, then `lanes`. -/
def lhs0 (S : FVec F S1824x256 .bf16) : FVec F S896x768 .bf16 :=
  lanes (M := 1824) S Gen.slices_S1824x256_o0_0_S896x256 Gen.slices_S1824x256_o32_0_S896x256 Gen.slices_S1824x256_o64_0_S896x256
def lhs1 (S : FVec F S1824x256 .bf16) : FVec F S896x768 .bf16 :=
  lanes (M := 1823) (extractStridedSlice S1823x256 ![1, 0] S Gen.slices_S1824x256_o1_0_S1823x256)
    Gen.slices_S1823x256_o0_0_S896x256 Gen.slices_S1823x256_o32_0_S896x256 Gen.slices_S1823x256_o64_0_S896x256
def lhs2 (S : FVec F S1824x256 .bf16) : FVec F S896x768 .bf16 :=
  lanes (M := 1822) (extractStridedSlice S1822x256 ![2, 0] S Gen.slices_S1824x256_o2_0_S1822x256)
    Gen.slices_S1822x256_o0_0_S896x256 Gen.slices_S1822x256_o32_0_S896x256 Gen.slices_S1822x256_o64_0_S896x256

/-- One product: an operand times a weight plane [1, 768, 512], into zero. -/
def prod (L : FVec F S896x768 .bf16) (w : Vec F S1x768x512 .bf16) : FVec F S896x512 .f32 :=
  matmul dot_S896x768_S768x512_S896x512_1_0_0_1_n_n none L (shapeCast S768x512 w Gen.shapeCasts_S1x768x512_S768x512)
    (constant S896x512 .f32 0x00000000#32)

/-- The printed accumulation is zero plus the three products, in tap order. -/
theorem pay2_eq (v0 v3 : Vec F S1x28x32x256 .bf16) (w0 w1 w2 : Vec F S1x768x512 .bf16) :
    k13_pay2 v0 v3 w0 w1 w2
      = addf (addf (addf (broadcast S896x512 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 256 + ci` is the matrix at row `r + 32 · dy`, channel `ci`. -/
theorem lanes_apply {M : Nat} (hM : 960 ≤ M) (T : (⟨2, ![M, 256]⟩ : Shape).Idx → Ideal .bf16)
    (h0 : (⟨2, ![M, 256]⟩ : Shape).Slices ![0, 0] S896x256) (h1 : (⟨2, ![M, 256]⟩ : Shape).Slices ![32, 0] S896x256)
    (h2 : (⟨2, ![M, 256]⟩ : Shape).Slices ![64, 0] S896x256) (r : Fin 896) (dy : Fin 3) (ci : Fin 256) :
    lanes (F := Ideal) T h0 h1 h2 (ix2 r ⟨dy.val * 256 + ci.val, by omega⟩) = T (ix2 ⟨r.val + 32 * dy.val, by omega⟩ ci) := by
  unfold lanes
  match dy with
  | ⟨0, _⟩ =>
    refine Eq.trans (concatenate_apply_piece (t := S896x768) 1 _ _ _ 0 ?_ S896x256 (extractStridedSlice S896x256 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 256 + ci.val; omega
    · exact extractStridedSlice_apply _ _ _ _ _ (fun a => by
        match a with
        | ⟨0, _⟩ => show r.val + 32 * 0 = 0 + r.val; omega
        | ⟨1, _⟩ => show ci.val = 0 + ci.val; omega)
  | ⟨1, _⟩ =>
    refine Eq.trans (concatenate_apply_piece (t := S896x768) 1 _ _ _ 1 ?_ S896x256 (extractStridedSlice S896x256 ![32, 0] T h1) ?_ ?_ 256 ?_ (ix2 r ci) ?_ ?_) ?_
    · show _ < 3; omega
    · rfl
    · rfl
    · rfl
    · intro b hb
      match b with
      | ⟨0, _⟩ => rfl
      | ⟨1, _⟩ => exact absurd rfl hb
    · show 256 + ci.val = 1 * 256 + ci.val; omega
    · exact extractStridedSlice_apply _ _ _ _ _ (fun a => by
        match a with
        | ⟨0, _⟩ => show r.val + 32 * 1 = 32 + r.val; omega
        | ⟨1, _⟩ => show ci.val = 0 + ci.val; omega)
  | ⟨2, _⟩ =>
    refine Eq.trans (concatenate_apply_piece (t := S896x768) 1 _ _ _ 2 ?_ S896x256 (extractStridedSlice S896x256 ![64, 0] T h2) ?_ ?_ 512 ?_ (ix2 r ci) ?_ ?_) ?_
    · show _ < 3; omega
    · rfl
    · rfl
    · rfl
    · intro b hb
      match b with
      | ⟨0, _⟩ => rfl
      | ⟨1, _⟩ => exact absurd rfl hb
    · show 512 + ci.val = 2 * 256 + ci.val; omega
    · exact extractStridedSlice_apply _ _ _ _ _ (fun a => by
        match a with
        | ⟨0, _⟩ => show r.val + 32 * 2 = 64 + r.val; omega
        | ⟨1, _⟩ => show ci.val = 0 + ci.val; omega)

/-- A row block as pixel rows: row `hh · 32 + ww` is pixel `(hh, ww)`. -/
theorem rows_apply (x : Vec Ideal S1x28x32x256 .bf16) (hh : Fin 28) (ww : Fin 32) (ci : Fin 256) :
    rows (F := Ideal) x (ix2 ⟨hh.val * 32 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 28 + hh.val) * 32 + ww.val) * 256 + ci.val = (hh.val * 32 + ww.val) * 256 + ci.val
    omega

/-- The slab at pixel `(hh, ww)` of the 56-row padded image: the upper block for the first 28 rows, else the lower block. -/
theorem slab_upper (xa xb : Vec Ideal S1x28x32x256 .bf16) (hh : Fin 28) (ww : Fin 32) (ci : Fin 256) :
    slab (F := Ideal) xa xb (ix2 ⟨hh.val * 32 + ww.val, by omega⟩ ci) = xa (ix4 0 hh ww ci) := by
  unfold slab
  refine Eq.trans (concatenate_apply_piece (t := S1824x256) 0 _ _ _ 0 ?_ S896x256 (rows xa) ?_ ?_ 0 ?_ (ix2 ⟨hh.val * 32 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 32 + ww.val) = hh.val * 32 + ww.val; omega
  · exact rows_apply xa hh ww ci

theorem slab_lower (xa xb : Vec Ideal S1x28x32x256 .bf16) (hh : Fin 28) (ww : Fin 32) (ci : Fin 256) :
    slab (F := Ideal) xa xb (ix2 ⟨(28 + hh.val) * 32 + ww.val, by omega⟩ ci) = xb (ix4 0 hh ww ci) := by
  unfold slab
  refine Eq.trans (concatenate_apply_piece (t := S1824x256) 0 _ _ _ 1 ?_ S896x256 (rows xb) ?_ ?_ 896 ?_ (ix2 ⟨hh.val * 32 + ww.val, by omega⟩ ci) ?_ ?_) ?_
  · show _ < 3; omega
  · rfl
  · rfl
  · rfl
  · intro b hb
    match b with
    | ⟨0, _⟩ => exact absurd rfl hb
    | ⟨1, _⟩ => rfl
  · show 896 + (hh.val * 32 + ww.val) = (28 + hh.val) * 32 + ww.val; omega
  · exact rows_apply xb hh ww ci

/-- The three operands at pixel row `r`, depth `dy · 256 + ci`: the slab `dx` pixel rows and `dy` image rows further on. -/
theorem lhs0_apply (S : FVec Ideal S1824x256 .bf16) (r : Fin 896) (dy : Fin 3) (ci : Fin 256) :
    lhs0 (F := Ideal) S (ix2 r ⟨dy.val * 256 + ci.val, by omega⟩) = S (ix2 ⟨r.val + 32 * dy.val, by omega⟩ ci) := by
  unfold lhs0; exact lanes_apply (by decide) _ _ _ _ r dy ci

theorem lhs1_apply (S : FVec Ideal S1824x256 .bf16) (r : Fin 896) (dy : Fin 3) (ci : Fin 256) :
    lhs1 (F := Ideal) S (ix2 r ⟨dy.val * 256 + ci.val, by omega⟩) = S (ix2 ⟨1 + (r.val + 32 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S1824x256 .bf16) (r : Fin 896) (dy : Fin 3) (ci : Fin 256) :
    lhs2 (F := Ideal) S (ix2 r ⟨dy.val * 256 + ci.val, by omega⟩) = S (ix2 ⟨2 + (r.val + 32 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S896x768_S768x512_S896x512_1_0_0_1_n_n

theorem DD_lhs0 (j : S896x512.Idx) (k : DD.contr.Idx) : (DD.lhsIdx j k 0 : ℕ) = j 0 := by
  simp [DotDims.lhsIdx, DD, dot_S896x768_S768x512_S896x512_1_0_0_1_n_n]; rfl
theorem DD_lhs1 (j : S896x512.Idx) (k : DD.contr.Idx) : (DD.lhsIdx j k 1 : ℕ) = k ⟨0, by decide⟩ := by
  simp [DotDims.lhsIdx, DD, dot_S896x768_S768x512_S896x512_1_0_0_1_n_n]; rfl
theorem DD_rhs0 (j : S896x512.Idx) (k : DD.contr.Idx) : (DD.rhsIdx j k 0 : ℕ) = k ⟨0, by decide⟩ := by
  simp [DotDims.rhsIdx, DD, dot_S896x768_S768x512_S896x512_1_0_0_1_n_n]; rfl
theorem DD_rhs1 (j : S896x512.Idx) (k : DD.contr.Idx) : (DD.rhsIdx j k 1 : ℕ) = j 1 := by
  simp [DotDims.rhsIdx, DD, dot_S896x768_S768x512_S896x512_1_0_0_1_n_n]; rfl

/-- The contraction index is its one coordinate, below 768. -/
def cEq : DD.contr.Idx ≃ Fin 768 := contrEquiv1 DD 768 rfl rfl

/-- One product at pixel row `r`, output channel `co`: the sum over the depth of operand times weight plane. -/
theorem prod_apply (L : FVec Ideal S896x768 .bf16) (w : Vec Ideal S1x768x512 .bf16) (r : Fin 896) (co : Fin 512) :
    prod (F := Ideal) L w (ix2 r co) = ∑ k : Fin 768, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S768x512.rowMajor (DD.rhsIdx (ix2 r co) k)).val = (S1x768x512.rowMajor (ix3 0 (cEq k) co)).val := by
    rw [Shape.rowMajor_val_two, Shape.rowMajor_val_three, DD_rhs0, DD_rhs1]
    show (k ⟨0, by decide⟩).val * 512 + co.val = ((0 : ℕ) * 768 + (k ⟨0, by decide⟩).val) * 512 + co.val
    omega
  rw [hl, shapeCast_apply _ _ _ (ix3 0 (cEq k) co) hr.symm]

/-! ## The accumulation and the tile at an index -/

theorem slab_pix (xa xb : Vec Ideal S1x28x32x256 .bf16) (hh : Fin 56) (ww : Fin 32) (ci : Fin 256) :
    slab (F := Ideal) xa xb (ix2 ⟨hh.val * 32 + ww.val, by omega⟩ ci) = pix xa xb hh ww ci := by
  unfold pix
  split
  · rename_i h
    exact slab_upper xa xb ⟨hh.val, h⟩ ww ci
  · rename_i h
    have e : (⟨hh.val * 32 + ww.val, by omega⟩ : Fin 1824) = ⟨(28 + (hh.val - 28)) * 32 + ww.val, by omega⟩ :=
      Fin.ext (by show hh.val * 32 + ww.val = (28 + (hh.val - 28)) * 32 + ww.val; omega)
    rw [e]
    exact slab_lower xa xb ⟨hh.val - 28, by omega⟩ ww ci

/-- The operand of horizontal tap `dx`. -/
def lhs (S : FVec Ideal S1824x256 .bf16) (dx : Fin 3) : FVec Ideal S896x768 .bf16 :=
  match dx with
  | ⟨0, _⟩ => lhs0 S
  | ⟨1, _⟩ => lhs1 S
  | ⟨2, _⟩ => lhs2 S

/-- At valid pixel `(h, w)`, depth `dy · 256 + ci`, tap `dx`'s operand is the padded image at `(h + dy, w + dx)`. -/
theorem tap_apply (xa xb : Vec Ideal S1x28x32x256 .bf16) (dx : Fin 3) (h : Fin 28) (w : Fin 28) (dy : Fin 3) (ci : Fin 256) :
    lhs (slab xa xb) dx (ix2 ⟨h.val * 32 + w.val, by omega⟩ ⟨dy.val * 256 + ci.val, by omega⟩)
      = pix xa xb ⟨h.val + dy.val, by omega⟩ ⟨w.val + dx.val, by omega⟩ ci := by
  match dx with
  | ⟨0, _⟩ =>
    refine (lhs0_apply _ ⟨h.val * 32 + w.val, by omega⟩ dy ci).trans ?_
    have e : (⟨h.val * 32 + w.val + 32 * dy.val, by omega⟩ : Fin 1824) = ⟨(h.val + dy.val) * 32 + (w.val + 0), by omega⟩ :=
      Fin.ext (by show h.val * 32 + w.val + 32 * dy.val = (h.val + dy.val) * 32 + (w.val + 0); omega)
    rw [e]
    exact slab_pix xa xb ⟨h.val + dy.val, by omega⟩ ⟨w.val + 0, by omega⟩ ci
  | ⟨1, _⟩ =>
    refine (lhs1_apply _ ⟨h.val * 32 + w.val, by omega⟩ dy ci).trans ?_
    have e : (⟨1 + (h.val * 32 + w.val + 32 * dy.val), by omega⟩ : Fin 1824) = ⟨(h.val + dy.val) * 32 + (w.val + 1), by omega⟩ :=
      Fin.ext (by show 1 + (h.val * 32 + w.val + 32 * dy.val) = (h.val + dy.val) * 32 + (w.val + 1); omega)
    rw [e]
    exact slab_pix xa xb ⟨h.val + dy.val, by omega⟩ ⟨w.val + 1, by omega⟩ ci
  | ⟨2, _⟩ =>
    refine (lhs2_apply _ ⟨h.val * 32 + w.val, by omega⟩ dy ci).trans ?_
    have e : (⟨2 + (h.val * 32 + w.val + 32 * dy.val), by omega⟩ : Fin 1824) = ⟨(h.val + dy.val) * 32 + (w.val + 2), by omega⟩ :=
      Fin.ext (by show 2 + (h.val * 32 + w.val + 32 * dy.val) = (h.val + dy.val) * 32 + (w.val + 2); omega)
    rw [e]
    exact slab_pix xa xb ⟨h.val + dy.val, by omega⟩ ⟨w.val + 2, by omega⟩ ci

/-- A sum over the depth 768 is a sum over the vertical tap and the channel. -/
theorem sum_depth (f : Fin 768 → EReal) :
    ∑ k : Fin 768, f k = ∑ dy : Fin 3, ∑ ci : Fin 256, f ⟨dy.val * 256 + ci.val, by omega⟩ := by
  rw [← Finset.sum_product', Finset.univ_product_univ]
  exact (Fintype.sum_equiv (finProdFinEquiv (m := 3) (n := 256)) (fun p => f ⟨p.1.val * 256 + p.2.val, by omega⟩) f (fun p =>
    congrArg f (Fin.ext (by show p.1.val * 256 + p.2.val = p.2.val + 256 * p.1.val; omega)))).symm

/-- A weight plane read through its rectangle is that plane of the array. -/
theorem ldK0 (wk : Vec Ideal S3x768x512 .bf16) (k : Fin 768) (co : Fin 512) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x768x512 .bf16) (k : Fin 768) (co : Fin 512) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x768x512 .bf16) (k : Fin 768) (co : Fin 512) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S896x768 .bf16) (wk : Vec Ideal S3x768x512 .bf16) (r : Fin 896) (co : Fin 512) :
    prod (F := Ideal) L (View.ld wk rK0) (ix2 r co) = ∑ k : Fin 768, L (ix2 r k) * wk (ix3 0 k co) :=
  (prod_apply L _ r co).trans (Finset.sum_congr rfl fun k _ => congrArg (fun z => L (ix2 r k) * z) (ldK0 wk k co))
theorem prodK1 (L : FVec Ideal S896x768 .bf16) (wk : Vec Ideal S3x768x512 .bf16) (r : Fin 896) (co : Fin 512) :
    prod (F := Ideal) L (View.ld wk rK1) (ix2 r co) = ∑ k : Fin 768, L (ix2 r k) * wk (ix3 1 k co) :=
  (prod_apply L _ r co).trans (Finset.sum_congr rfl fun k _ => congrArg (fun z => L (ix2 r k) * z) (ldK1 wk k co))
theorem prodK2 (L : FVec Ideal S896x768 .bf16) (wk : Vec Ideal S3x768x512 .bf16) (r : Fin 896) (co : Fin 512) :
    prod (F := Ideal) L (View.ld wk rK2) (ix2 r co) = ∑ k : Fin 768, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x28x32x256 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 256 + ci, co)`. -/
theorem acc_apply (xa xb : Vec Ideal S1x28x32x256 .bf16) (wk : Vec Ideal S3x768x512 .bf16) (h : Fin 28) (w : Fin 28) (co : Fin 512) :
    acc (F := Ideal) xa xb wk (ix2 ⟨h.val * 32 + w.val, by omega⟩ co)
      = ∑ dy : Fin 3, ∑ dx : Fin 3, ∑ ci : Fin 256,
          pix xa xb ⟨h.val + dy.val, by omega⟩ ⟨w.val + dx.val, by omega⟩ ci * wk (ix3 dx ⟨dy.val * 256 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 28 rows of 32 columns,
    the 28 valid columns kept. -/
theorem pay1_eq {F : FTy → Type} [FloatOps F] (A : FVec F S896x512 .f32) (b : Vec F S1x512 .f32) :
    k13_pay1 A b
      = shapeCast S1x28x28x512
          (truncf .bf16
            (extractStridedSlice S28x28x512 ![0, 0, 0]
              (shapeCast S28x32x512
                (maximumf (addf A (broadcastTo S896x512 b Gen.broadcasts_S1x512_S896x512))
                  (broadcast S896x512 (Scalar.ofBits .f32 0x00000000#32)))
                Gen.shapeCasts_S896x512_S28x32x512)
              Gen.slices_S28x32x512_o0_0_0_S28x28x512)
            bitsLt_bf16_f32)
          Gen.shapeCasts_S28x28x512_S1x28x28x512 := rfl

/-- The bias row read through its rectangle is the bias. -/
theorem ldB (b : Vec Ideal S1x512 .f32) : View.ld b rB = b :=
  View.ld_unit_zero (funext fun a => by
    match a with
    | ⟨0, _⟩ => rfl
    | ⟨1, _⟩ => rfl) _ b

/-- The output tile at `(h, w, co)`: the accumulation at pixel row `h · 32 + w` plus the bias, rectified. -/
theorem tile_apply (xa xb : Vec Ideal S1x28x32x256 .bf16) (wk : Vec Ideal S3x768x512 .bf16) (b : Vec Ideal S1x512 .f32)
    (h : Fin 28) (w : Fin 28) (co : Fin 512) :
    tile (F := Ideal) xa xb wk b (ix4 0 h w co) = max (acc xa xb wk (ix2 ⟨h.val * 32 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 28 + w.val) * 512 + co.val = (((0 : ℕ) * 28 + h.val) * 28 + w.val) * 512 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 32 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 32 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x28x32x256 .bf16) (wk : Vec Ideal S3x768x512 .bf16) (b : Vec Ideal S1x512 .f32)
    (h : Fin 28) (w : Fin 28) (co : Fin 512) :
    tile (F := Ideal) xa xb wk b (ix4 0 h w co)
      = max ((∑ dy : Fin 3, ∑ dx : Fin 3, ∑ ci : Fin 256,
                pix xa xb ⟨h.val + dy.val, by omega⟩ ⟨w.val + dx.val, by omega⟩ ci
                  * wk (ix3 dx ⟨dy.val * 256 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 28) (w : Fin 28) (co : Fin 512) :
    yOut V c (ix4 n h w co)
      = max ((∑ dy : Fin 3, ∑ dx : Fin 3, ∑ ci : Fin 256,
                xp V c (ix4 n ⟨h.val + dy.val, by omega⟩ ⟨w.val + dx.val, by omega⟩ ci)
                  * wk V c (ix3 dx ⟨dy.val * 256 + ci.val, by omega⟩ co))
              + bias V c (ix2 0 co)) 0 :=
  out_of_tile V tile_value c n h w co

end Cert.KernelIdeal.Reg13
-- ==== Proof.KI.GluePad13.lean ====
/-
  The border of zeros put around the stack of 256 channels at 28 × 28 before region 13: the stretch converts
  the integer 0 to a float and pads the stack, one position in front of rows and columns and the rest behind, to
  56 rows and 32 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_13 (V : Valuation τ sig (Elt Ideal)) (hc : V main_c_14 = constantI S_ 32 0#32)
    (n : Fin 32) (i : Fin 56) (j : Fin 32) (ci : Fin 256) :
    (StableHlo.after hostOps13_1 V main_v65 : FVec Ideal S32x56x32x256 .bf16) (ix4 n i j ci)
      = Cert.Spec.padAt (Cert.Spec.curry4 (V main_v64 : FVec Ideal S32x28x28x256 .bf16)) n i.val j.val ci := by
  have h : StableHlo.after hostOps13_1 V main_v65
      = pad S32x56x32x256 ![0, 1, 1, 0] ![0, 27, 3, 0] ![0, 0, 0, 0] (V main_v64) (sitofp (F := Ideal) .bf16 (V main_c_14))
          pads_S32x28x28x256_S32x56x32x256_000_1270_130_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW13.lean ====
/-
  The weights of region 13 as the region finds them: the [3, 3, 256, 512] parameter array with its two tap axes
  exchanged, the row tap and the input channel then read as one axis of 768 (row tap major), narrowed to the shorter
  float format. Entry (column tap, row tap · 256 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_13 (V : Valuation τ sig (Elt Ideal)) (dy dx : Fin 3) (ci : Fin 256) (co : Fin 512)
    (hk : dy.val * 256 + ci.val < 768) :
    (StableHlo.after hostOps13_2 V main_v68 : FVec Ideal S3x768x512 .bf16) (ix3 dx ⟨dy.val * 256 + ci.val, hk⟩ co)
      = (V main_arg16 : FVec Ideal S3x3x256x512 .f32) (ix4 dy dx ci co) := by
  have h : StableHlo.after hostOps13_2 V main_v68
      = truncf (F := Ideal) .bf16 (shapeCast S3x768x512 (transpose S3x3x256x512 [1, 0, 2, 3] (V main_arg16) transposes_S3x3x256x512_S3x3x256x512_1_0_2_3) shapeCasts_S3x3x256x512_S3x768x512) bitsLt_bf16_f32 := by
    after_results; rfl
  rw [h]
  exact (Cert.Spec.reshape_taps (transpose S3x3x256x512 [1, 0, 2, 3] (V main_arg16) transposes_S3x3x256x512_S3x3x256x512_1_0_2_3) _ dx dy ci co hk rfl).trans
    (Cert.Spec.transpose_1023_apply (V main_arg16) transposes_S3x3x256x512_S3x3x256x512_1_0_2_3 dx dy ci co)

end Cert.KernelIdeal.Glue

end
-- ==== Proof.KI.RunValCore13.lean ====
import proofs.«143011_g2000502688546152_pallasbulk_1201_3_alg».proof.Proof.KI.Reg13Value
import proofs.«143011_g2000502688546152_pallasbulk_1201_3_alg».proof.Proof.KI.GluePad13
import proofs.«143011_g2000502688546152_pallasbulk_1201_3_alg».proof.Proof.KI.GlueW13
import proofs.«143011_g2000502688546152_pallasbulk_1201_3_alg».proof.Proof.Spec.ArgsOf
import proofs.«143011_g2000502688546152_pallasbulk_1201_3_alg».proof.Proof.Spec.FlatIdx

/-! # Region 13 between its neighbours: a convolution layer of the network

If the stack of images the zero border is put around is `aPrev`, the region leaves the 3×3 convolution of `aPrev` with
the [3, 3, 256, 512] parameter array, plus the bias row, clamped below at zero. The two stretches of host operations in
front of the region put the zero border around the stack and lay the parameter array out as [3, 3·256, 512] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_13 (V : Valuation τ sig (Elt Ideal)) : StableHlo.after hostOps13 V main_c_14 = constantI S_ 32 0#32 := by
  after_results <;> rfl

/-- From ANY contents `Wp` in front of the border stretch that hold the integer 0 in the stretch's constant and the
    stack `aPrev` in the array the border is put around: the region's output array, entry by entry. -/
theorem core_13 (Wp : Dev nD → Valuation τ sig (Elt Ideal)) (c : Dev nD)
    (hc : Wp c main_c_14 = constantI S_ 32 0#32)
    (aPrev : Cert.Spec.Act 32 28 28 256)
    (hprev : ∀ (n : Fin 32) (h : Fin 28) (w : Fin 28) (ci : Fin 256),
      (Wp c main_v64 : FVec Ideal S32x28x28x256 .bf16) (ix4 n h w ci) = aPrev n h w ci)
    (n : Fin 32) (h : Fin 28) (w : Fin 28) (co : Fin 512) :
    (Reg13.dat (F := Ideal) (fun c b => StableHlo.after hostOps13_2 (StableHlo.after hostOps13_1 (Wp c)) b) c).arrAt 4 cfg13.N
        (ix4 n h w co)
      = Cert.Spec.convRelu aPrev (Cert.Spec.curryW (Wp c main_arg16 : FVec Ideal S3x3x256x512 .f32))
          (Cert.Spec.curryB (Wp c main_arg17 : FVec Ideal S1x512 .f32)) n h w co := by
  refine (Reg13.out_value _ c n h w co).trans ?_
  have e9 : StableHlo.after hostOps13_2 (StableHlo.after hostOps13_1 (Wp c)) main_v65
      = StableHlo.after hostOps13_1 (Wp c) main_v65 :=
    StableHlo.after_of_writes_sub hostOps13_2 _ hostOps13_2_writes (by decide)
  have eW : StableHlo.after hostOps13_1 (Wp c) main_arg16 = Wp c main_arg16 :=
    StableHlo.after_of_writes_sub hostOps13_1 _ hostOps13_1_writes (by decide)
  have eB : StableHlo.after hostOps13_2 (StableHlo.after hostOps13_1 (Wp c)) main_arg17 = Wp c main_arg17 :=
    (StableHlo.after_of_writes_sub hostOps13_2 _ hostOps13_2_writes (by decide)).trans
      (StableHlo.after_of_writes_sub hostOps13_1 _ hostOps13_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps13_2 (StableHlo.after hostOps13_1 (Wp c)) main_v65 : FVec Ideal S32x56x32x256 .bf16) _ = _
      rw [e9, Glue.pad_13 (Wp c) hc]
      refine congrArg (fun z : Cert.Spec.Act 32 28 28 256 => Cert.Spec.padAt z n _ _ ci) ?_
      funext n' h' w' ci'
      exact hprev n' h' w' ci'
    · show (StableHlo.after hostOps13_2 (StableHlo.after hostOps13_1 (Wp c)) main_v68 : FVec Ideal S3x768x512 .bf16) _ = _
      rw [Glue.wk_13 _ dy dx ci co _, eW]
  · show (StableHlo.after hostOps13_2 (StableHlo.after hostOps13_1 (Wp c)) main_arg17 : FVec Ideal S1x512 .f32) _ = _
    rw [eB]

end Cert.KernelIdeal.RunVal
-- ==== Proof.KI.RunVal13.lean ====
import proofs.«143011_g2000502688546152_pallasbulk_1201_3_alg».proof.Proof.KI.RunChainAt
import proofs.«143011_g2000502688546152_pallasbulk_1201_3_alg».proof.Proof.KI.RunValCore13

/-! # Region 13 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_13 (c : Dev nD) (aPrev : Cert.Spec.Act 32 28 28 256)
    (hprev : ∀ (n : Fin 32) (h : Fin 28) (w : Fin 28) (ci : Fin 256),
      (W41 m c main_v64 : FVec Ideal S32x28x28x256 .bf16) (ix4 n h w ci) = aPrev n h w ci) :
    ∀ (n : Fin 32) (h : Fin 28) (w : Fin 28) (co : Fin 512),
      (W44 m c main_v69 : FVec Ideal S32x28x28x512 .bf16) (ix4 n h w co)
        = Cert.Spec.convRelu aPrev
            (Cert.Spec.curryW (m ((c : Thread nD τ).loc main_arg16) : FVec Ideal S3x3x256x512 .f32))
            (Cert.Spec.curryB (m ((c : Thread nD τ).loc main_arg17) : FVec Ideal S1x512 .f32)) n h w co := by
  intro n h w co
  have hW : W41 m c main_arg16 = m ((c : Thread nD τ).loc main_arg16) := W41_arg m c _ (by decide)
  have hB : W41 m c main_arg17 = m ((c : Thread nD τ).loc main_arg17) := W41_arg m c _ (by decide)
  rw [W44_self, ← hW, ← hB]
  have hc : W41 m c main_c_14 = constantI S_ 32 0#32 := RunVal.cst_13 (W40 m c)
  exact RunVal.core_13 (W41 m) c hc aPrev hprev n h w co

/-- The same from the contents one stretch earlier: the stretch in between writes only the border's constant. -/
theorem val_13_from (c : Dev nD) (aPrev : Cert.Spec.Act 32 28 28 256)
    (hprev : ∀ (n : Fin 32) (h : Fin 28) (w : Fin 28) (ci : Fin 256),
      (W40 m c main_v64 : FVec Ideal S32x28x28x256 .bf16) (ix4 n h w ci) = aPrev n h w ci) :
    ∀ (n : Fin 32) (h : Fin 28) (w : Fin 28) (co : Fin 512),
      (W44 m c main_v69 : FVec Ideal S32x28x28x512 .bf16) (ix4 n h w co)
        = Cert.Spec.convRelu aPrev
            (Cert.Spec.curryW (m ((c : Thread nD τ).loc main_arg16) : FVec Ideal S3x3x256x512 .f32))
            (Cert.Spec.curryB (m ((c : Thread nD τ).loc main_arg17) : FVec Ideal S1x512 .f32)) n h w co :=
  val_13 m c aPrev fun n h w ci => by
    rw [W41_of m c main_v64 (by decide)]
    exact hprev n h w ci

end Cert.KernelIdeal.Run
-- ==== Proof.KI.Reg14Pipe.lean ====
import proofs.«143011_g2000502688546152_pallasbulk_1201_3_alg».proof.Proof.KI.Reg14
import Idealize.ShloMosaic.Lib.Pipeline.Value
import Idealize.ShloMosaic.Lib.ValueIdx
import Idealize.ShloMosaic.PureOps.Ideal

/-!
  The 3×3 convolution 512 → 512 on 28×28 images (pallas region 14) at the ideal float model, from the tile to the array:
  where each window's block sits in its array (the two row blocks are consecutive 28-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg14

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 56, 32, 512] (the array of windows 0 and 1), the weights [3, 1536, 512] and the bias [1, 512]
    as the region finds them. -/
abbrev xp (c : Dev nD) : Vec Ideal S32x56x32x512 .bf16 := V c (Pipeline.arrRef spec14 0)
abbrev wk (c : Dev nD) : Vec Ideal S3x1536x512 .bf16 := V c (Pipeline.arrRef spec14 2)
abbrev bias (c : Dev nD) : Vec Ideal S1x512 .f32 := V c (Pipeline.arrRef spec14 3)

/-- The output array [32, 28, 28, 512] after the region. -/
abbrev yOut (c : Dev nD) : Vec Ideal S32x28x28x512 .bf16 := (dat (F := Ideal) V c).arrAt 4 cfg14.N

/-- Pixel `(hh, ww)`, channel `ci` of the 56-row padded image the two row blocks make up. -/
def pix (xa xb : Vec Ideal S1x28x32x512 .bf16) (hh : Fin 56) (ww : Fin 32) (ci : Fin 512) : EReal :=
  if h : hh.val < 28 then xa (ix4 0 ⟨hh.val, h⟩ ww ci) else xb (ix4 0 ⟨hh.val - 28, by omega⟩ ww ci)

/-! ## Where the windows' blocks sit -/

/-- The block indices along the grid's row-major order, decided over the grid: position t is image t / 1, row tile
    t % 1; the second row window is one tile further down; weights and bias do not move; the output tile is the first
    row window's. -/
theorem index_upper : ∀ t : Fin cfg14.N, win14_0.index t (0 : Fin 4) = t.val / 1 ∧ win14_0.index t (1 : Fin 4) = t.val % 1
    ∧ win14_0.index t (2 : Fin 4) = 0 ∧ win14_0.index t (3 : Fin 4) = 0 :=
  (by decide +kernel : ∀ t : Fin grid14.N, win14_0.index t (0 : Fin 4) = t.val / 1 ∧ win14_0.index t (1 : Fin 4) = t.val % 1
    ∧ win14_0.index t (2 : Fin 4) = 0 ∧ win14_0.index t (3 : Fin 4) = 0)
theorem index_lower : ∀ t : Fin cfg14.N, win14_1.index t (0 : Fin 4) = t.val / 1 ∧ win14_1.index t (1 : Fin 4) = t.val % 1 + 1
    ∧ win14_1.index t (2 : Fin 4) = 0 ∧ win14_1.index t (3 : Fin 4) = 0 :=
  (by decide +kernel : ∀ t : Fin grid14.N, win14_1.index t (0 : Fin 4) = t.val / 1 ∧ win14_1.index t (1 : Fin 4) = t.val % 1 + 1
    ∧ win14_1.index t (2 : Fin 4) = 0 ∧ win14_1.index t (3 : Fin 4) = 0)
theorem index_weights : ∀ t : Fin cfg14.N, win14_2.index t (0 : Fin 3) = 0 ∧ win14_2.index t (1 : Fin 3) = 0 ∧ win14_2.index t (2 : Fin 3) = 0 :=
  (by decide +kernel : ∀ t : Fin grid14.N, win14_2.index t (0 : Fin 3) = 0 ∧ win14_2.index t (1 : Fin 3) = 0 ∧ win14_2.index t (2 : Fin 3) = 0)
theorem index_bias : ∀ t : Fin cfg14.N, win14_3.index t (0 : Fin 2) = 0 ∧ win14_3.index t (1 : Fin 2) = 0 :=
  (by decide +kernel : ∀ t : Fin grid14.N, win14_3.index t (0 : Fin 2) = 0 ∧ win14_3.index t (1 : Fin 2) = 0)
theorem index_out : ∀ t : Fin cfg14.N, win14_4.index t (0 : Fin 4) = t.val / 1 ∧ win14_4.index t (1 : Fin 4) = t.val % 1
    ∧ win14_4.index t (2 : Fin 4) = 0 ∧ win14_4.index t (3 : Fin 4) = 0 :=
  (by decide +kernel : ∀ t : Fin grid14.N, win14_4.index t (0 : Fin 4) = t.val / 1 ∧ win14_4.index t (1 : Fin 4) = t.val % 1
    ∧ win14_4.index t (2 : Fin 4) = 0 ∧ win14_4.index t (3 : Fin 4) = 0)

/-- Row hh of the upper row block is row 28 · (row tile) + hh of the padded image. -/
theorem upper_at (c : Dev nD) (t : Fin cfg14.N) (hh : Fin 28) (ww : Fin 32) (ci : Fin 512) (n : Fin 32) (row : Fin 56)
    (hn : n.val = t.val / 1) (hrow : row.val = t.val % 1 * 28 + hh.val) :
    blk V c 0 t (ix4 (0 : Fin 1) hh ww ci) = xp V c (ix4 n row ww ci) := by
  obtain ⟨e0, e1, e2, e3⟩ := index_upper t
  show V c (Pipeline.arrRef spec14 0) (((cfg14.win 0).blk t).view.emb (ix4 (0 : Fin 1) hh ww ci)) = V c (Pipeline.arrRef spec14 0) (ix4 n row ww ci)
  refine congrArg _ (funext fun a => Fin.ext ?_)
  match a with
  | ⟨0, _⟩ => show win14_0.index t (0 : Fin 4) * 1 + 1 * 0 = n.val; omega
  | ⟨1, _⟩ => show win14_0.index t (1 : Fin 4) * 28 + 1 * hh.val = row.val; omega
  | ⟨2, _⟩ => show win14_0.index t (2 : Fin 4) * 32 + 1 * ww.val = ww.val; omega
  | ⟨3, _⟩ => show win14_0.index t (3 : Fin 4) * 512 + 1 * ci.val = ci.val; omega

/-- Row hh of the lower row block is row 28 · (row tile + 1) + hh of the same image: the halo. -/
theorem lower_at (c : Dev nD) (t : Fin cfg14.N) (hh : Fin 28) (ww : Fin 32) (ci : Fin 512) (n : Fin 32) (row : Fin 56)
    (hn : n.val = t.val / 1) (hrow : row.val = (t.val % 1 + 1) * 28 + hh.val) :
    blk V c 1 t (ix4 (0 : Fin 1) hh ww ci) = xp V c (ix4 n row ww ci) := by
  obtain ⟨e0, e1, e2, e3⟩ := index_lower t
  show V c (Pipeline.arrRef spec14 1) (((cfg14.win 1).blk t).view.emb (ix4 (0 : Fin 1) hh ww ci)) = V c (Pipeline.arrRef spec14 0) (ix4 n row ww ci)
  refine congrArg _ (funext fun a => Fin.ext ?_)
  match a with
  | ⟨0, _⟩ => show win14_1.index t (0 : Fin 4) * 1 + 1 * 0 = n.val; omega
  | ⟨1, _⟩ => show win14_1.index t (1 : Fin 4) * 28 + 1 * hh.val = row.val; omega
  | ⟨2, _⟩ => show win14_1.index t (2 : Fin 4) * 32 + 1 * ww.val = ww.val; omega
  | ⟨3, _⟩ => show win14_1.index t (3 : Fin 4) * 512 + 1 * ci.val = ci.val; omega

/-- So the 56 rows the two blocks make up are rows 28 · (row tile) … of the padded image. -/
theorem pix_at (c : Dev nD) (t : Fin cfg14.N) (hh : Fin 56) (ww : Fin 32) (ci : Fin 512) (n : Fin 32) (row : Fin 56)
    (hn : n.val = t.val / 1) (hrow : row.val = t.val % 1 * 28 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 56 := hh.isLt
    exact lower_at V c t ⟨hh.val - 28, by omega⟩ ww ci n row hn (by show row.val = (t.val % 1 + 1) * 28 + (hh.val - 28); omega)

/-- The weights' block is the whole weight array, -/
theorem weights_at (c : Dev nD) (t : Fin cfg14.N) (y : S3x1536x512.Idx) : blk V c 2 t y = wk V c y := by
  obtain ⟨e0, e1, e2⟩ := index_weights t
  show V c (Pipeline.arrRef spec14 2) (((cfg14.win 2).blk t).view.emb y) = V c (Pipeline.arrRef spec14 2) y
  refine congrArg _ (funext fun a => Fin.ext ?_)
  match a with
  | ⟨0, _⟩ => show win14_2.index t (0 : Fin 3) * 3 + 1 * (y 0).val = (y 0).val; omega
  | ⟨1, _⟩ => show win14_2.index t (1 : Fin 3) * 1536 + 1 * (y 1).val = (y 1).val; omega
  | ⟨2, _⟩ => show win14_2.index t (2 : Fin 3) * 512 + 1 * (y 2).val = (y 2).val; omega

/-- and the bias's the whole bias row. -/
theorem bias_at (c : Dev nD) (t : Fin cfg14.N) (y : S1x512.Idx) : blk V c 3 t y = bias V c y := by
  obtain ⟨e0, e1⟩ := index_bias t
  show V c (Pipeline.arrRef spec14 3) (((cfg14.win 3).blk t).view.emb y) = V c (Pipeline.arrRef spec14 3) y
  refine congrArg _ (funext fun a => Fin.ext ?_)
  match a with
  | ⟨0, _⟩ => show win14_3.index t (0 : Fin 2) * 1 + 1 * (y 0).val = (y 0).val; omega
  | ⟨1, _⟩ => show win14_3.index t (1 : Fin 2) * 512 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x28x28x512.Idx → EReal := fun i =>
  max ((∑ dy : Fin 3, ∑ dx : Fin 3, ∑ ci : Fin 512,
          xp V c (ix4 (⟨(i 0).val, (i 0).isLt⟩ : Fin 32) ⟨(i 1).val + dy.val, by have h1 : (i 1).val < 28 := (i 1).isLt; omega⟩
              ⟨(i 2).val + dx.val, by have h2 : (i 2).val < 28 := (i 2).isLt; omega⟩ ci)
            * wk V c (ix3 dx ⟨dy.val * 512 + ci.val, by omega⟩ (⟨(i 3).val, (i 3).isLt⟩ : Fin 512)))
        + bias V c (ix2 0 (⟨(i 3).val, (i 3).isLt⟩ : Fin 512))) 0

/-- An index of the output array is in position t's tile iff each coordinate is in the tile's range on its axis. -/
theorem mem_tile (t : Fin cfg14.N) (i : S32x28x28x512.Idx) :
    i ∈ ((cfg14.win 4).blk t).view.set ↔ ∀ a : Fin 4, win14_4.index t a * S1x28x28x512.size a ≤ (i a).val ∧ (i a).val < win14_4.index t a * S1x28x28x512.size a + S1x28x28x512.size a := by
  show i ∈ ((View.whole (Pipeline.arrRef spec14 4)).slice (win14_4.rect t)).set ↔ _
  rw [View.set_slice_whole, Rect.mem_set_unit]
  exact Iff.rfl

section FromTheTile

-- what the body leaves in the tile, index by index over its four blocks: the hypothesis this section is stated under
variable (htile : ∀ (xa xb : Vec Ideal S1x28x32x512 .bf16) (wk : Vec Ideal S3x1536x512 .bf16) (b : Vec Ideal S1x512 .f32)
    (h : Fin 28) (w : Fin 28) (co : Fin 512),
    tile (F := Ideal) xa xb wk b (ix4 0 h w co)
      = max ((∑ dy : Fin 3, ∑ dx : Fin 3, ∑ ci : Fin 512,
                pix xa xb ⟨h.val + dy.val, by omega⟩ ⟨w.val + dx.val, by omega⟩ ci
                  * wk (ix3 dx ⟨dy.val * 512 + ci.val, by omega⟩ co))
              + b (ix2 0 co)) 0)

include htile

/-- The tile at grid position t, index by index over the region's arrays. -/
theorem tile_at (c : Dev nD) (t : Fin cfg14.N) (h : Fin 28) (w : Fin 28) (co : Fin 512) (n : Fin 32) (row : Fin 28)
    (hn : n.val = t.val / 1) (hrow : row.val = t.val % 1 * 28 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 28 := h.isLt
  rw [weights_at, pix_at V c t _ _ ci n ⟨row.val + dy.val, by omega⟩ hn (by show row.val + dy.val = t.val % 1 * 28 + (h.val + dy.val); omega)]

/-- What grid position t writes back is its tile of `conv`. -/
theorem flushed_eq (c : Dev nD) (t : Fin cfg14.N) (hf : (cfg14.win 4).flush t = true) :
    (dat (F := Ideal) V c).flushed 4 t = ((cfg14.win 4).blk t).view.read (Elt Ideal) (conv V c) := by
  have hN : cfg14.N = 32 * 1 := N_14
  have ht : t.val < 32 * 1 := lt_of_lt_of_eq t.isLt hN
  obtain ⟨e0, e1, e2, e3⟩ := index_out t
  show (cfg14.win 4).cut (grid14.coords t) ((dat (F := Ideal) V c).after 4 t) = _
  rw [after_4]
  funext y
  have y0 : (y 0).val < 1 := (y 0).isLt
  have y1 : (y 1).val < 28 := (y 1).isLt
  have y2 : (y 2).val < 28 := (y 2).isLt
  have y3 : (y 3).val < 512 := (y 3).isLt
  have ey : y = ix4 (0 : Fin 1) (⟨(y 1).val, y1⟩ : Fin 28) (⟨(y 2).val, y2⟩ : Fin 28) (⟨(y 3).val, y3⟩ : Fin 512) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg14.win 4).blk t).view.emb y)
  have hE : ((cfg14.win 4).blk t).view.emb y
      = ix4 (⟨t.val / 1, by omega⟩ : Fin 32) (⟨t.val % 1 * 28 + (y 1).val, by omega⟩ : Fin 28) (⟨(y 2).val, y2⟩ : Fin 28) (⟨(y 3).val, y3⟩ : Fin 512) := by
    refine funext fun a => Fin.ext ?_
    match a with
    | ⟨0, _⟩ => show win14_4.index t (0 : Fin 4) * 1 + 1 * (y 0).val = t.val / 1; omega
    | ⟨1, _⟩ => show win14_4.index t (1 : Fin 4) * 28 + 1 * (y 1).val = t.val % 1 * 28 + (y 1).val; omega
    | ⟨2, _⟩ => show win14_4.index t (2 : Fin 4) * 28 + 1 * (y 2).val = (y 2).val; omega
    | ⟨3, _⟩ => show win14_4.index t (3 : Fin 4) * 512 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 28 := (i 1).isLt
    have i2 : (i 2).val < 28 := (i 2).isLt
    have i3 : (i 3).val < 512 := (i 3).isLt
    have hN : cfg14.N = 32 * 1 := N_14
    refine ⟨⟨(i 0).val * 1 + (i 1).val / 28, by rw [hN]; omega⟩, flush14_4 _, ?_⟩
    rw [mem_tile]
    obtain ⟨e0, e1, e2, e3⟩ := index_out ⟨(i 0).val * 1 + (i 1).val / 28, by rw [hN]; omega⟩
    intro a
    match a with
    | ⟨0, _⟩ => show win14_4.index _ (0 : Fin 4) * 1 ≤ (i 0).val ∧ (i 0).val < win14_4.index _ (0 : Fin 4) * 1 + 1; rw [e0]; dsimp only; omega
    | ⟨1, _⟩ => show win14_4.index _ (1 : Fin 4) * 28 ≤ (i 1).val ∧ (i 1).val < win14_4.index _ (1 : Fin 4) * 28 + 28; rw [e1]; dsimp only; omega
    | ⟨2, _⟩ => show win14_4.index _ (2 : Fin 4) * 28 ≤ (i 2).val ∧ (i 2).val < win14_4.index _ (2 : Fin 4) * 28 + 28; rw [e2]; omega
    | ⟨3, _⟩ => show win14_4.index _ (3 : Fin 4) * 512 ≤ (i 3).val ∧ (i 3).val < win14_4.index _ (3 : Fin 4) * 512 + 512; rw [e3]; omega

/-- THE REGION'S OUTPUT, element by element: sum over the vertical tap `dy`, the horizontal tap `dx` and the input
    channel `ci`. -/
theorem out_of_tile (c : Dev nD) (n : Fin 32) (h : Fin 28) (w : Fin 28) (co : Fin 512) :
    yOut V c (ix4 n h w co)
      = max ((∑ dy : Fin 3, ∑ dx : Fin 3, ∑ ci : Fin 512,
                xp V c (ix4 n ⟨h.val + dy.val, by omega⟩ ⟨w.val + dx.val, by omega⟩ ci)
                  * wk V c (ix3 dx ⟨dy.val * 512 + ci.val, by omega⟩ co))
              + bias V c (ix2 0 co)) 0 := by
  rw [final V htile c]
  rfl

end FromTheTile

end Cert.KernelIdeal.Reg14

end
-- ==== Proof.KI.Reg14Value.lean ====
/-
  The 3×3 convolution 512 → 512 on 28×28 images (kernel-side program, pallas region 14) at the ideal float model.
  The arithmetic of one grid point read index by index — the slab of stacked row blocks, the three lane-concatenated
  operands (one per horizontal tap), the three products of contraction depth 1536, the bias-added, rectified tile —
  regrouped as the triple sum over the vertical tap, the horizontal tap and the input channel; and with the blocks
  read off the region's arrays, the output array after the last grid point, element by element, the weight array
  [3, 1536, 512] read at (dx, dy·512 + ci, co).
-/
import proofs.«143011_g2000502688546152_pallasbulk_1201_3_alg».proof.Proof.KI.Reg14Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg14

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 28, 32, 512] laid out as 28 · 32 pixel rows of 512 channels. -/
def rows (x : Vec F S1x28x32x512 .bf16) : FVec F S896x512 .bf16 :=
  shapeCast S896x512 (shapeCast S28x32x512 x Gen.shapeCasts_S1x28x32x512_S28x32x512) Gen.shapeCasts_S28x32x512_S896x512

/-- Both row blocks stacked, then 32 zero rows: 1824 pixel rows. -/
def slab (xa xb : Vec F S1x28x32x512 .bf16) : FVec F S1824x512 .bf16 :=
  concatenate S1824x512 0 [⟨S896x512, rows xa⟩, ⟨S896x512, rows xb⟩, ⟨S32x512, broadcast S32x512 (Scalar.ofBits .bf16 0x0000#16)⟩]
    Gen.concatenates_S896x512_S896x512_S32x512_S1824x512_d0

/-- Three windows of 896 rows of a pixel-row matrix, at row offsets 0, 32, 64 (one image row apart), side by side:
    depth 3 · 512. -/
def lanes {M : Nat} (T : (⟨2, ![M, 512]⟩ : Shape).Idx → F .bf16)
    (h0 : (⟨2, ![M, 512]⟩ : Shape).Slices ![0, 0] S896x512) (h1 : (⟨2, ![M, 512]⟩ : Shape).Slices ![32, 0] S896x512)
    (h2 : (⟨2, ![M, 512]⟩ : Shape).Slices ![64, 0] S896x512) : FVec F S896x1536 .bf16 :=
  concatenate S896x1536 1 [⟨S896x512, extractStridedSlice S896x512 ![0, 0] T h0⟩, ⟨S896x512, extractStridedSlice S896x512 ![32, 0] T h1⟩,
    ⟨S896x512, extractStridedSlice S896x512 ![64, 0] T h2⟩] Gen.concatenates_S896x512_S896x512_S896x512_S896x1536_d1

/-- The operand of horizontal tap 0, 1, 2: the slab shifted by that many pixel rows, then `lanes`. -/
def lhs0 (S : FVec F S1824x512 .bf16) : FVec F S896x1536 .bf16 :=
  lanes (M := 1824) S Gen.slices_S1824x512_o0_0_S896x512 Gen.slices_S1824x512_o32_0_S896x512 Gen.slices_S1824x512_o64_0_S896x512
def lhs1 (S : FVec F S1824x512 .bf16) : FVec F S896x1536 .bf16 :=
  lanes (M := 1823) (extractStridedSlice S1823x512 ![1, 0] S Gen.slices_S1824x512_o1_0_S1823x512)
    Gen.slices_S1823x512_o0_0_S896x512 Gen.slices_S1823x512_o32_0_S896x512 Gen.slices_S1823x512_o64_0_S896x512
def lhs2 (S : FVec F S1824x512 .bf16) : FVec F S896x1536 .bf16 :=
  lanes (M := 1822) (extractStridedSlice S1822x512 ![2, 0] S Gen.slices_S1824x512_o2_0_S1822x512)
    Gen.slices_S1822x512_o0_0_S896x512 Gen.slices_S1822x512_o32_0_S896x512 Gen.slices_S1822x512_o64_0_S896x512

/-- One product: an operand times a weight plane [1, 1536, 512], into zero. -/
def prod (L : FVec F S896x1536 .bf16) (w : Vec F S1x1536x512 .bf16) : FVec F S896x512 .f32 :=
  matmul dot_S896x1536_S1536x512_S896x512_1_0_0_1_n_n none L (shapeCast S1536x512 w Gen.shapeCasts_S1x1536x512_S1536x512)
    (constant S896x512 .f32 0x00000000#32)

/-- The printed accumulation is zero plus the three products, in tap order. -/
theorem pay2_eq (v0 v3 : Vec F S1x28x32x512 .bf16) (w0 w1 w2 : Vec F S1x1536x512 .bf16) :
    k14_pay2 v0 v3 w0 w1 w2
      = addf (addf (addf (broadcast S896x512 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 512 + ci` is the matrix at row `r + 32 · dy`, channel `ci`. -/
theorem lanes_apply {M : Nat} (hM : 960 ≤ M) (T : (⟨2, ![M, 512]⟩ : Shape).Idx → Ideal .bf16)
    (h0 : (⟨2, ![M, 512]⟩ : Shape).Slices ![0, 0] S896x512) (h1 : (⟨2, ![M, 512]⟩ : Shape).Slices ![32, 0] S896x512)
    (h2 : (⟨2, ![M, 512]⟩ : Shape).Slices ![64, 0] S896x512) (r : Fin 896) (dy : Fin 3) (ci : Fin 512) :
    lanes (F := Ideal) T h0 h1 h2 (ix2 r ⟨dy.val * 512 + ci.val, by omega⟩) = T (ix2 ⟨r.val + 32 * dy.val, by omega⟩ ci) := by
  unfold lanes
  match dy with
  | ⟨0, _⟩ =>
    refine Eq.trans (concatenate_apply_piece (t := S896x1536) 1 _ _ _ 0 ?_ S896x512 (extractStridedSlice S896x512 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 512 + ci.val; omega
    · exact extractStridedSlice_apply _ _ _ _ _ (fun a => by
        match a with
        | ⟨0, _⟩ => show r.val + 32 * 0 = 0 + r.val; omega
        | ⟨1, _⟩ => show ci.val = 0 + ci.val; omega)
  | ⟨1, _⟩ =>
    refine Eq.trans (concatenate_apply_piece (t := S896x1536) 1 _ _ _ 1 ?_ S896x512 (extractStridedSlice S896x512 ![32, 0] T h1) ?_ ?_ 512 ?_ (ix2 r ci) ?_ ?_) ?_
    · show _ < 3; omega
    · rfl
    · rfl
    · rfl
    · intro b hb
      match b with
      | ⟨0, _⟩ => rfl
      | ⟨1, _⟩ => exact absurd rfl hb
    · show 512 + ci.val = 1 * 512 + ci.val; omega
    · exact extractStridedSlice_apply _ _ _ _ _ (fun a => by
        match a with
        | ⟨0, _⟩ => show r.val + 32 * 1 = 32 + r.val; omega
        | ⟨1, _⟩ => show ci.val = 0 + ci.val; omega)
  | ⟨2, _⟩ =>
    refine Eq.trans (concatenate_apply_piece (t := S896x1536) 1 _ _ _ 2 ?_ S896x512 (extractStridedSlice S896x512 ![64, 0] T h2) ?_ ?_ 1024 ?_ (ix2 r ci) ?_ ?_) ?_
    · show _ < 3; omega
    · rfl
    · rfl
    · rfl
    · intro b hb
      match b with
      | ⟨0, _⟩ => rfl
      | ⟨1, _⟩ => exact absurd rfl hb
    · show 1024 + ci.val = 2 * 512 + ci.val; omega
    · exact extractStridedSlice_apply _ _ _ _ _ (fun a => by
        match a with
        | ⟨0, _⟩ => show r.val + 32 * 2 = 64 + r.val; omega
        | ⟨1, _⟩ => show ci.val = 0 + ci.val; omega)

/-- A row block as pixel rows: row `hh · 32 + ww` is pixel `(hh, ww)`. -/
theorem rows_apply (x : Vec Ideal S1x28x32x512 .bf16) (hh : Fin 28) (ww : Fin 32) (ci : Fin 512) :
    rows (F := Ideal) x (ix2 ⟨hh.val * 32 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 28 + hh.val) * 32 + ww.val) * 512 + ci.val = (hh.val * 32 + ww.val) * 512 + ci.val
    omega

/-- The slab at pixel `(hh, ww)` of the 56-row padded image: the upper block for the first 28 rows, else the lower block. -/
theorem slab_upper (xa xb : Vec Ideal S1x28x32x512 .bf16) (hh : Fin 28) (ww : Fin 32) (ci : Fin 512) :
    slab (F := Ideal) xa xb (ix2 ⟨hh.val * 32 + ww.val, by omega⟩ ci) = xa (ix4 0 hh ww ci) := by
  unfold slab
  refine Eq.trans (concatenate_apply_piece (t := S1824x512) 0 _ _ _ 0 ?_ S896x512 (rows xa) ?_ ?_ 0 ?_ (ix2 ⟨hh.val * 32 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 32 + ww.val) = hh.val * 32 + ww.val; omega
  · exact rows_apply xa hh ww ci

theorem slab_lower (xa xb : Vec Ideal S1x28x32x512 .bf16) (hh : Fin 28) (ww : Fin 32) (ci : Fin 512) :
    slab (F := Ideal) xa xb (ix2 ⟨(28 + hh.val) * 32 + ww.val, by omega⟩ ci) = xb (ix4 0 hh ww ci) := by
  unfold slab
  refine Eq.trans (concatenate_apply_piece (t := S1824x512) 0 _ _ _ 1 ?_ S896x512 (rows xb) ?_ ?_ 896 ?_ (ix2 ⟨hh.val * 32 + ww.val, by omega⟩ ci) ?_ ?_) ?_
  · show _ < 3; omega
  · rfl
  · rfl
  · rfl
  · intro b hb
    match b with
    | ⟨0, _⟩ => exact absurd rfl hb
    | ⟨1, _⟩ => rfl
  · show 896 + (hh.val * 32 + ww.val) = (28 + hh.val) * 32 + ww.val; omega
  · exact rows_apply xb hh ww ci

/-- The three operands at pixel row `r`, depth `dy · 512 + ci`: the slab `dx` pixel rows and `dy` image rows further on. -/
theorem lhs0_apply (S : FVec Ideal S1824x512 .bf16) (r : Fin 896) (dy : Fin 3) (ci : Fin 512) :
    lhs0 (F := Ideal) S (ix2 r ⟨dy.val * 512 + ci.val, by omega⟩) = S (ix2 ⟨r.val + 32 * dy.val, by omega⟩ ci) := by
  unfold lhs0; exact lanes_apply (by decide) _ _ _ _ r dy ci

theorem lhs1_apply (S : FVec Ideal S1824x512 .bf16) (r : Fin 896) (dy : Fin 3) (ci : Fin 512) :
    lhs1 (F := Ideal) S (ix2 r ⟨dy.val * 512 + ci.val, by omega⟩) = S (ix2 ⟨1 + (r.val + 32 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S1824x512 .bf16) (r : Fin 896) (dy : Fin 3) (ci : Fin 512) :
    lhs2 (F := Ideal) S (ix2 r ⟨dy.val * 512 + ci.val, by omega⟩) = S (ix2 ⟨2 + (r.val + 32 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S896x1536_S1536x512_S896x512_1_0_0_1_n_n

theorem DD_lhs0 (j : S896x512.Idx) (k : DD.contr.Idx) : (DD.lhsIdx j k 0 : ℕ) = j 0 := by
  simp [DotDims.lhsIdx, DD, dot_S896x1536_S1536x512_S896x512_1_0_0_1_n_n]; rfl
theorem DD_lhs1 (j : S896x512.Idx) (k : DD.contr.Idx) : (DD.lhsIdx j k 1 : ℕ) = k ⟨0, by decide⟩ := by
  simp [DotDims.lhsIdx, DD, dot_S896x1536_S1536x512_S896x512_1_0_0_1_n_n]; rfl
theorem DD_rhs0 (j : S896x512.Idx) (k : DD.contr.Idx) : (DD.rhsIdx j k 0 : ℕ) = k ⟨0, by decide⟩ := by
  simp [DotDims.rhsIdx, DD, dot_S896x1536_S1536x512_S896x512_1_0_0_1_n_n]; rfl
theorem DD_rhs1 (j : S896x512.Idx) (k : DD.contr.Idx) : (DD.rhsIdx j k 1 : ℕ) = j 1 := by
  simp [DotDims.rhsIdx, DD, dot_S896x1536_S1536x512_S896x512_1_0_0_1_n_n]; rfl

/-- The contraction index is its one coordinate, below 1536. -/
def cEq : DD.contr.Idx ≃ Fin 1536 := contrEquiv1 DD 1536 rfl rfl

/-- One product at pixel row `r`, output channel `co`: the sum over the depth of operand times weight plane. -/
theorem prod_apply (L : FVec Ideal S896x1536 .bf16) (w : Vec Ideal S1x1536x512 .bf16) (r : Fin 896) (co : Fin 512) :
    prod (F := Ideal) L w (ix2 r co) = ∑ k : Fin 1536, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S1536x512.rowMajor (DD.rhsIdx (ix2 r co) k)).val = (S1x1536x512.rowMajor (ix3 0 (cEq k) co)).val := by
    rw [Shape.rowMajor_val_two, Shape.rowMajor_val_three, DD_rhs0, DD_rhs1]
    show (k ⟨0, by decide⟩).val * 512 + co.val = ((0 : ℕ) * 1536 + (k ⟨0, by decide⟩).val) * 512 + co.val
    omega
  rw [hl, shapeCast_apply _ _ _ (ix3 0 (cEq k) co) hr.symm]

/-! ## The accumulation and the tile at an index -/

theorem slab_pix (xa xb : Vec Ideal S1x28x32x512 .bf16) (hh : Fin 56) (ww : Fin 32) (ci : Fin 512) :
    slab (F := Ideal) xa xb (ix2 ⟨hh.val * 32 + ww.val, by omega⟩ ci) = pix xa xb hh ww ci := by
  unfold pix
  split
  · rename_i h
    exact slab_upper xa xb ⟨hh.val, h⟩ ww ci
  · rename_i h
    have e : (⟨hh.val * 32 + ww.val, by omega⟩ : Fin 1824) = ⟨(28 + (hh.val - 28)) * 32 + ww.val, by omega⟩ :=
      Fin.ext (by show hh.val * 32 + ww.val = (28 + (hh.val - 28)) * 32 + ww.val; omega)
    rw [e]
    exact slab_lower xa xb ⟨hh.val - 28, by omega⟩ ww ci

/-- The operand of horizontal tap `dx`. -/
def lhs (S : FVec Ideal S1824x512 .bf16) (dx : Fin 3) : FVec Ideal S896x1536 .bf16 :=
  match dx with
  | ⟨0, _⟩ => lhs0 S
  | ⟨1, _⟩ => lhs1 S
  | ⟨2, _⟩ => lhs2 S

/-- At valid pixel `(h, w)`, depth `dy · 512 + ci`, tap `dx`'s operand is the padded image at `(h + dy, w + dx)`. -/
theorem tap_apply (xa xb : Vec Ideal S1x28x32x512 .bf16) (dx : Fin 3) (h : Fin 28) (w : Fin 28) (dy : Fin 3) (ci : Fin 512) :
    lhs (slab xa xb) dx (ix2 ⟨h.val * 32 + w.val, by omega⟩ ⟨dy.val * 512 + ci.val, by omega⟩)
      = pix xa xb ⟨h.val + dy.val, by omega⟩ ⟨w.val + dx.val, by omega⟩ ci := by
  match dx with
  | ⟨0, _⟩ =>
    refine (lhs0_apply _ ⟨h.val * 32 + w.val, by omega⟩ dy ci).trans ?_
    have e : (⟨h.val * 32 + w.val + 32 * dy.val, by omega⟩ : Fin 1824) = ⟨(h.val + dy.val) * 32 + (w.val + 0), by omega⟩ :=
      Fin.ext (by show h.val * 32 + w.val + 32 * dy.val = (h.val + dy.val) * 32 + (w.val + 0); omega)
    rw [e]
    exact slab_pix xa xb ⟨h.val + dy.val, by omega⟩ ⟨w.val + 0, by omega⟩ ci
  | ⟨1, _⟩ =>
    refine (lhs1_apply _ ⟨h.val * 32 + w.val, by omega⟩ dy ci).trans ?_
    have e : (⟨1 + (h.val * 32 + w.val + 32 * dy.val), by omega⟩ : Fin 1824) = ⟨(h.val + dy.val) * 32 + (w.val + 1), by omega⟩ :=
      Fin.ext (by show 1 + (h.val * 32 + w.val + 32 * dy.val) = (h.val + dy.val) * 32 + (w.val + 1); omega)
    rw [e]
    exact slab_pix xa xb ⟨h.val + dy.val, by omega⟩ ⟨w.val + 1, by omega⟩ ci
  | ⟨2, _⟩ =>
    refine (lhs2_apply _ ⟨h.val * 32 + w.val, by omega⟩ dy ci).trans ?_
    have e : (⟨2 + (h.val * 32 + w.val + 32 * dy.val), by omega⟩ : Fin 1824) = ⟨(h.val + dy.val) * 32 + (w.val + 2), by omega⟩ :=
      Fin.ext (by show 2 + (h.val * 32 + w.val + 32 * dy.val) = (h.val + dy.val) * 32 + (w.val + 2); omega)
    rw [e]
    exact slab_pix xa xb ⟨h.val + dy.val, by omega⟩ ⟨w.val + 2, by omega⟩ ci

/-- A sum over the depth 1536 is a sum over the vertical tap and the channel. -/
theorem sum_depth (f : Fin 1536 → EReal) :
    ∑ k : Fin 1536, f k = ∑ dy : Fin 3, ∑ ci : Fin 512, f ⟨dy.val * 512 + ci.val, by omega⟩ := by
  rw [← Finset.sum_product', Finset.univ_product_univ]
  exact (Fintype.sum_equiv (finProdFinEquiv (m := 3) (n := 512)) (fun p => f ⟨p.1.val * 512 + p.2.val, by omega⟩) f (fun p =>
    congrArg f (Fin.ext (by show p.1.val * 512 + p.2.val = p.2.val + 512 * p.1.val; omega)))).symm

/-- A weight plane read through its rectangle is that plane of the array. -/
theorem ldK0 (wk : Vec Ideal S3x1536x512 .bf16) (k : Fin 1536) (co : Fin 512) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x1536x512 .bf16) (k : Fin 1536) (co : Fin 512) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x1536x512 .bf16) (k : Fin 1536) (co : Fin 512) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S896x1536 .bf16) (wk : Vec Ideal S3x1536x512 .bf16) (r : Fin 896) (co : Fin 512) :
    prod (F := Ideal) L (View.ld wk rK0) (ix2 r co) = ∑ k : Fin 1536, L (ix2 r k) * wk (ix3 0 k co) :=
  (prod_apply L _ r co).trans (Finset.sum_congr rfl fun k _ => congrArg (fun z => L (ix2 r k) * z) (ldK0 wk k co))
theorem prodK1 (L : FVec Ideal S896x1536 .bf16) (wk : Vec Ideal S3x1536x512 .bf16) (r : Fin 896) (co : Fin 512) :
    prod (F := Ideal) L (View.ld wk rK1) (ix2 r co) = ∑ k : Fin 1536, L (ix2 r k) * wk (ix3 1 k co) :=
  (prod_apply L _ r co).trans (Finset.sum_congr rfl fun k _ => congrArg (fun z => L (ix2 r k) * z) (ldK1 wk k co))
theorem prodK2 (L : FVec Ideal S896x1536 .bf16) (wk : Vec Ideal S3x1536x512 .bf16) (r : Fin 896) (co : Fin 512) :
    prod (F := Ideal) L (View.ld wk rK2) (ix2 r co) = ∑ k : Fin 1536, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x28x32x512 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 512 + ci, co)`. -/
theorem acc_apply (xa xb : Vec Ideal S1x28x32x512 .bf16) (wk : Vec Ideal S3x1536x512 .bf16) (h : Fin 28) (w : Fin 28) (co : Fin 512) :
    acc (F := Ideal) xa xb wk (ix2 ⟨h.val * 32 + w.val, by omega⟩ co)
      = ∑ dy : Fin 3, ∑ dx : Fin 3, ∑ ci : Fin 512,
          pix xa xb ⟨h.val + dy.val, by omega⟩ ⟨w.val + dx.val, by omega⟩ ci * wk (ix3 dx ⟨dy.val * 512 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 28 rows of 32 columns,
    the 28 valid columns kept. -/
theorem pay1_eq {F : FTy → Type} [FloatOps F] (A : FVec F S896x512 .f32) (b : Vec F S1x512 .f32) :
    k14_pay1 A b
      = shapeCast S1x28x28x512
          (truncf .bf16
            (extractStridedSlice S28x28x512 ![0, 0, 0]
              (shapeCast S28x32x512
                (maximumf (addf A (broadcastTo S896x512 b Gen.broadcasts_S1x512_S896x512))
                  (broadcast S896x512 (Scalar.ofBits .f32 0x00000000#32)))
                Gen.shapeCasts_S896x512_S28x32x512)
              Gen.slices_S28x32x512_o0_0_0_S28x28x512)
            bitsLt_bf16_f32)
          Gen.shapeCasts_S28x28x512_S1x28x28x512 := rfl

/-- The bias row read through its rectangle is the bias. -/
theorem ldB (b : Vec Ideal S1x512 .f32) : View.ld b rB = b :=
  View.ld_unit_zero (funext fun a => by
    match a with
    | ⟨0, _⟩ => rfl
    | ⟨1, _⟩ => rfl) _ b

/-- The output tile at `(h, w, co)`: the accumulation at pixel row `h · 32 + w` plus the bias, rectified. -/
theorem tile_apply (xa xb : Vec Ideal S1x28x32x512 .bf16) (wk : Vec Ideal S3x1536x512 .bf16) (b : Vec Ideal S1x512 .f32)
    (h : Fin 28) (w : Fin 28) (co : Fin 512) :
    tile (F := Ideal) xa xb wk b (ix4 0 h w co) = max (acc xa xb wk (ix2 ⟨h.val * 32 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 28 + w.val) * 512 + co.val = (((0 : ℕ) * 28 + h.val) * 28 + w.val) * 512 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 32 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 32 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x28x32x512 .bf16) (wk : Vec Ideal S3x1536x512 .bf16) (b : Vec Ideal S1x512 .f32)
    (h : Fin 28) (w : Fin 28) (co : Fin 512) :
    tile (F := Ideal) xa xb wk b (ix4 0 h w co)
      = max ((∑ dy : Fin 3, ∑ dx : Fin 3, ∑ ci : Fin 512,
                pix xa xb ⟨h.val + dy.val, by omega⟩ ⟨w.val + dx.val, by omega⟩ ci
                  * wk (ix3 dx ⟨dy.val * 512 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 28) (w : Fin 28) (co : Fin 512) :
    yOut V c (ix4 n h w co)
      = max ((∑ dy : Fin 3, ∑ dx : Fin 3, ∑ ci : Fin 512,
                xp V c (ix4 n ⟨h.val + dy.val, by omega⟩ ⟨w.val + dx.val, by omega⟩ ci)
                  * wk V c (ix3 dx ⟨dy.val * 512 + ci.val, by omega⟩ co))
              + bias V c (ix2 0 co)) 0 :=
  out_of_tile V tile_value c n h w co

end Cert.KernelIdeal.Reg14
-- ==== Proof.KI.GluePad14.lean ====
/-
  The border of zeros put around the stack of 512 channels at 28 × 28 before region 14: the stretch converts
  the integer 0 to a float and pads the stack, one position in front of rows and columns and the rest behind, to
  56 rows and 32 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_14 (V : Valuation τ sig (Elt Ideal)) (hc : V main_c_15 = constantI S_ 32 0#32)
    (n : Fin 32) (i : Fin 56) (j : Fin 32) (ci : Fin 512) :
    (StableHlo.after hostOps14_1 V main_v70 : FVec Ideal S32x56x32x512 .bf16) (ix4 n i j ci)
      = Cert.Spec.padAt (Cert.Spec.curry4 (V main_v69 : FVec Ideal S32x28x28x512 .bf16)) n i.val j.val ci := by
  have h : StableHlo.after hostOps14_1 V main_v70
      = pad S32x56x32x512 ![0, 1, 1, 0] ![0, 27, 3, 0] ![0, 0, 0, 0] (V main_v69) (sitofp (F := Ideal) .bf16 (V main_c_15))
          pads_S32x28x28x512_S32x56x32x512_000_1270_130_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW14.lean ====
/-
  The weights of region 14 as the region finds them: the [3, 3, 512, 512] parameter array with its two tap axes
  exchanged, the row tap and the input channel then read as one axis of 1536 (row tap major), narrowed to the shorter
  float format. Entry (column tap, row tap · 512 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_14 (V : Valuation τ sig (Elt Ideal)) (dy dx : Fin 3) (ci : Fin 512) (co : Fin 512)
    (hk : dy.val * 512 + ci.val < 1536) :
    (StableHlo.after hostOps14_2 V main_v73 : FVec Ideal S3x1536x512 .bf16) (ix3 dx ⟨dy.val * 512 + ci.val, hk⟩ co)
      = (V main_arg18 : FVec Ideal S3x3x512x512 .f32) (ix4 dy dx ci co) := by
  have h : StableHlo.after hostOps14_2 V main_v73
      = truncf (F := Ideal) .bf16 (shapeCast S3x1536x512 (transpose S3x3x512x512 [1, 0, 2, 3] (V main_arg18) transposes_S3x3x512x512_S3x3x512x512_1_0_2_3) shapeCasts_S3x3x512x512_S3x1536x512) bitsLt_bf16_f32 := by
    after_results; rfl
  rw [h]
  exact (Cert.Spec.reshape_taps (transpose S3x3x512x512 [1, 0, 2, 3] (V main_arg18) transposes_S3x3x512x512_S3x3x512x512_1_0_2_3) _ dx dy ci co hk rfl).trans
    (Cert.Spec.transpose_1023_apply (V main_arg18) transposes_S3x3x512x512_S3x3x512x512_1_0_2_3 dx dy ci co)

end Cert.KernelIdeal.Glue

end
-- ==== Proof.KI.RunValCore14.lean ====
import proofs.«143011_g2000502688546152_pallasbulk_1201_3_alg».proof.Proof.KI.Reg14Value
import proofs.«143011_g2000502688546152_pallasbulk_1201_3_alg».proof.Proof.KI.GluePad14
import proofs.«143011_g2000502688546152_pallasbulk_1201_3_alg».proof.Proof.KI.GlueW14
import proofs.«143011_g2000502688546152_pallasbulk_1201_3_alg».proof.Proof.Spec.ArgsOf
import proofs.«143011_g2000502688546152_pallasbulk_1201_3_alg».proof.Proof.Spec.FlatIdx

/-! # Region 14 between its neighbours: a convolution layer of the network

If the stack of images the zero border is put around is `aPrev`, the region leaves the 3×3 convolution of `aPrev` with
the [3, 3, 512, 512] parameter array, plus the bias row, clamped below at zero. The two stretches of host operations in
front of the region put the zero border around the stack and lay the parameter array out as [3, 3·512, 512] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_14 (V : Valuation τ sig (Elt Ideal)) : StableHlo.after hostOps14 V main_c_15 = constantI S_ 32 0#32 := by
  after_results <;> rfl

/-- From ANY contents `Wp` in front of the border stretch that hold the integer 0 in the stretch's constant and the
    stack `aPrev` in the array the border is put around: the region's output array, entry by entry. -/
theorem core_14 (Wp : Dev nD → Valuation τ sig (Elt Ideal)) (c : Dev nD)
    (hc : Wp c main_c_15 = constantI S_ 32 0#32)
    (aPrev : Cert.Spec.Act 32 28 28 512)
    (hprev : ∀ (n : Fin 32) (h : Fin 28) (w : Fin 28) (ci : Fin 512),
      (Wp c main_v69 : FVec Ideal S32x28x28x512 .bf16) (ix4 n h w ci) = aPrev n h w ci)
    (n : Fin 32) (h : Fin 28) (w : Fin 28) (co : Fin 512) :
    (Reg14.dat (F := Ideal) (fun c b => StableHlo.after hostOps14_2 (StableHlo.after hostOps14_1 (Wp c)) b) c).arrAt 4 cfg14.N
        (ix4 n h w co)
      = Cert.Spec.convRelu aPrev (Cert.Spec.curryW (Wp c main_arg18 : FVec Ideal S3x3x512x512 .f32))
          (Cert.Spec.curryB (Wp c main_arg19 : FVec Ideal S1x512 .f32)) n h w co := by
  refine (Reg14.out_value _ c n h w co).trans ?_
  have e9 : StableHlo.after hostOps14_2 (StableHlo.after hostOps14_1 (Wp c)) main_v70
      = StableHlo.after hostOps14_1 (Wp c) main_v70 :=
    StableHlo.after_of_writes_sub hostOps14_2 _ hostOps14_2_writes (by decide)
  have eW : StableHlo.after hostOps14_1 (Wp c) main_arg18 = Wp c main_arg18 :=
    StableHlo.after_of_writes_sub hostOps14_1 _ hostOps14_1_writes (by decide)
  have eB : StableHlo.after hostOps14_2 (StableHlo.after hostOps14_1 (Wp c)) main_arg19 = Wp c main_arg19 :=
    (StableHlo.after_of_writes_sub hostOps14_2 _ hostOps14_2_writes (by decide)).trans
      (StableHlo.after_of_writes_sub hostOps14_1 _ hostOps14_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps14_2 (StableHlo.after hostOps14_1 (Wp c)) main_v70 : FVec Ideal S32x56x32x512 .bf16) _ = _
      rw [e9, Glue.pad_14 (Wp c) hc]
      refine congrArg (fun z : Cert.Spec.Act 32 28 28 512 => Cert.Spec.padAt z n _ _ ci) ?_
      funext n' h' w' ci'
      exact hprev n' h' w' ci'
    · show (StableHlo.after hostOps14_2 (StableHlo.after hostOps14_1 (Wp c)) main_v73 : FVec Ideal S3x1536x512 .bf16) _ = _
      rw [Glue.wk_14 _ dy dx ci co _, eW]
  · show (StableHlo.after hostOps14_2 (StableHlo.after hostOps14_1 (Wp c)) main_arg19 : FVec Ideal S1x512 .f32) _ = _
    rw [eB]

end Cert.KernelIdeal.RunVal
-- ==== Proof.KI.RunVal14.lean ====
import proofs.«143011_g2000502688546152_pallasbulk_1201_3_alg».proof.Proof.KI.RunChainAt
import proofs.«143011_g2000502688546152_pallasbulk_1201_3_alg».proof.Proof.KI.RunValCore14

/-! # Region 14 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_14 (c : Dev nD) (aPrev : Cert.Spec.Act 32 28 28 512)
    (hprev : ∀ (n : Fin 32) (h : Fin 28) (w : Fin 28) (ci : Fin 512),
      (W45 m c main_v69 : FVec Ideal S32x28x28x512 .bf16) (ix4 n h w ci) = aPrev n h w ci) :
    ∀ (n : Fin 32) (h : Fin 28) (w : Fin 28) (co : Fin 512),
      (W48 m c main_v74 : FVec Ideal S32x28x28x512 .bf16) (ix4 n h w co)
        = Cert.Spec.convRelu aPrev
            (Cert.Spec.curryW (m ((c : Thread nD τ).loc main_arg18) : FVec Ideal S3x3x512x512 .f32))
            (Cert.Spec.curryB (m ((c : Thread nD τ).loc main_arg19) : FVec Ideal S1x512 .f32)) n h w co := by
  intro n h w co
  have hW : W45 m c main_arg18 = m ((c : Thread nD τ).loc main_arg18) := W45_arg m c _ (by decide)
  have hB : W45 m c main_arg19 = m ((c : Thread nD τ).loc main_arg19) := W45_arg m c _ (by decide)
  rw [W48_self, ← hW, ← hB]
  have hc : W45 m c main_c_15 = constantI S_ 32 0#32 := RunVal.cst_14 (W44 m c)
  exact RunVal.core_14 (W45 m) c hc aPrev hprev n h w co

/-- The same from the contents one stretch earlier: the stretch in between writes only the border's constant. -/
theorem val_14_from (c : Dev nD) (aPrev : Cert.Spec.Act 32 28 28 512)
    (hprev : ∀ (n : Fin 32) (h : Fin 28) (w : Fin 28) (ci : Fin 512),
      (W44 m c main_v69 : FVec Ideal S32x28x28x512 .bf16) (ix4 n h w ci) = aPrev n h w ci) :
    ∀ (n : Fin 32) (h : Fin 28) (w : Fin 28) (co : Fin 512),
      (W48 m c main_v74 : FVec Ideal S32x28x28x512 .bf16) (ix4 n h w co)
        = Cert.Spec.convRelu aPrev
            (Cert.Spec.curryW (m ((c : Thread nD τ).loc main_arg18) : FVec Ideal S3x3x512x512 .f32))
            (Cert.Spec.curryB (m ((c : Thread nD τ).loc main_arg19) : FVec Ideal S1x512 .f32)) n h w co :=
  val_14 m c aPrev fun n h w ci => by
    rw [W45_of m c main_v69 (by decide)]
    exact hprev n h w ci

end Cert.KernelIdeal.Run
-- ==== Proof.KI.Reg15Pipe.lean ====
import proofs.«143011_g2000502688546152_pallasbulk_1201_3_alg».proof.Proof.KI.Reg15
import Idealize.ShloMosaic.Lib.Pipeline.Value
import Idealize.ShloMosaic.Lib.ValueIdx
import Idealize.ShloMosaic.PureOps.Ideal

/-!
  The 3×3 convolution 512 → 512 on 28×28 images (pallas region 15) at the ideal float model, from the tile to the array:
  where each window's block sits in its array (the two row blocks are consecutive 28-row tiles of ONE padded image, the
  second the halo of the first; weights and bias are whole), hence what a grid point writes back as a function of the
  region's arrays; the tiles cover the output array, so the array after the last point is that function everywhere.
  What the body leaves in the tile, index by index over its four blocks, enters as a hypothesis.
-/

noncomputable section

namespace Cert.KernelIdeal.Reg15

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The padded input [32, 56, 32, 512] (the array of windows 0 and 1), the weights [3, 1536, 512] and the bias [1, 512]
    as the region finds them. -/
abbrev xp (c : Dev nD) : Vec Ideal S32x56x32x512 .bf16 := V c (Pipeline.arrRef spec15 0)
abbrev wk (c : Dev nD) : Vec Ideal S3x1536x512 .bf16 := V c (Pipeline.arrRef spec15 2)
abbrev bias (c : Dev nD) : Vec Ideal S1x512 .f32 := V c (Pipeline.arrRef spec15 3)

/-- The output array [32, 28, 28, 512] after the region. -/
abbrev yOut (c : Dev nD) : Vec Ideal S32x28x28x512 .bf16 := (dat (F := Ideal) V c).arrAt 4 cfg15.N

/-- Pixel `(hh, ww)`, channel `ci` of the 56-row padded image the two row blocks make up. -/
def pix (xa xb : Vec Ideal S1x28x32x512 .bf16) (hh : Fin 56) (ww : Fin 32) (ci : Fin 512) : EReal :=
  if h : hh.val < 28 then xa (ix4 0 ⟨hh.val, h⟩ ww ci) else xb (ix4 0 ⟨hh.val - 28, by omega⟩ ww ci)

/-! ## Where the windows' blocks sit -/

/-- The block indices along the grid's row-major order, decided over the grid: position t is image t / 1, row tile
    t % 1; the second row window is one tile further down; weights and bias do not move; the output tile is the first
    row window's. -/
theorem index_upper : ∀ t : Fin cfg15.N, win15_0.index t (0 : Fin 4) = t.val / 1 ∧ win15_0.index t (1 : Fin 4) = t.val % 1
    ∧ win15_0.index t (2 : Fin 4) = 0 ∧ win15_0.index t (3 : Fin 4) = 0 :=
  (by decide +kernel : ∀ t : Fin grid15.N, win15_0.index t (0 : Fin 4) = t.val / 1 ∧ win15_0.index t (1 : Fin 4) = t.val % 1
    ∧ win15_0.index t (2 : Fin 4) = 0 ∧ win15_0.index t (3 : Fin 4) = 0)
theorem index_lower : ∀ t : Fin cfg15.N, win15_1.index t (0 : Fin 4) = t.val / 1 ∧ win15_1.index t (1 : Fin 4) = t.val % 1 + 1
    ∧ win15_1.index t (2 : Fin 4) = 0 ∧ win15_1.index t (3 : Fin 4) = 0 :=
  (by decide +kernel : ∀ t : Fin grid15.N, win15_1.index t (0 : Fin 4) = t.val / 1 ∧ win15_1.index t (1 : Fin 4) = t.val % 1 + 1
    ∧ win15_1.index t (2 : Fin 4) = 0 ∧ win15_1.index t (3 : Fin 4) = 0)
theorem index_weights : ∀ t : Fin cfg15.N, win15_2.index t (0 : Fin 3) = 0 ∧ win15_2.index t (1 : Fin 3) = 0 ∧ win15_2.index t (2 : Fin 3) = 0 :=
  (by decide +kernel : ∀ t : Fin grid15.N, win15_2.index t (0 : Fin 3) = 0 ∧ win15_2.index t (1 : Fin 3) = 0 ∧ win15_2.index t (2 : Fin 3) = 0)
theorem index_bias : ∀ t : Fin cfg15.N, win15_3.index t (0 : Fin 2) = 0 ∧ win15_3.index t (1 : Fin 2) = 0 :=
  (by decide +kernel : ∀ t : Fin grid15.N, win15_3.index t (0 : Fin 2) = 0 ∧ win15_3.index t (1 : Fin 2) = 0)
theorem index_out : ∀ t : Fin cfg15.N, win15_4.index t (0 : Fin 4) = t.val / 1 ∧ win15_4.index t (1 : Fin 4) = t.val % 1
    ∧ win15_4.index t (2 : Fin 4) = 0 ∧ win15_4.index t (3 : Fin 4) = 0 :=
  (by decide +kernel : ∀ t : Fin grid15.N, win15_4.index t (0 : Fin 4) = t.val / 1 ∧ win15_4.index t (1 : Fin 4) = t.val % 1
    ∧ win15_4.index t (2 : Fin 4) = 0 ∧ win15_4.index t (3 : Fin 4) = 0)

/-- Row hh of the upper row block is row 28 · (row tile) + hh of the padded image. -/
theorem upper_at (c : Dev nD) (t : Fin cfg15.N) (hh : Fin 28) (ww : Fin 32) (ci : Fin 512) (n : Fin 32) (row : Fin 56)
    (hn : n.val = t.val / 1) (hrow : row.val = t.val % 1 * 28 + hh.val) :
    blk V c 0 t (ix4 (0 : Fin 1) hh ww ci) = xp V c (ix4 n row ww ci) := by
  obtain ⟨e0, e1, e2, e3⟩ := index_upper t
  show V c (Pipeline.arrRef spec15 0) (((cfg15.win 0).blk t).view.emb (ix4 (0 : Fin 1) hh ww ci)) = V c (Pipeline.arrRef spec15 0) (ix4 n row ww ci)
  refine congrArg _ (funext fun a => Fin.ext ?_)
  match a with
  | ⟨0, _⟩ => show win15_0.index t (0 : Fin 4) * 1 + 1 * 0 = n.val; omega
  | ⟨1, _⟩ => show win15_0.index t (1 : Fin 4) * 28 + 1 * hh.val = row.val; omega
  | ⟨2, _⟩ => show win15_0.index t (2 : Fin 4) * 32 + 1 * ww.val = ww.val; omega
  | ⟨3, _⟩ => show win15_0.index t (3 : Fin 4) * 512 + 1 * ci.val = ci.val; omega

/-- Row hh of the lower row block is row 28 · (row tile + 1) + hh of the same image: the halo. -/
theorem lower_at (c : Dev nD) (t : Fin cfg15.N) (hh : Fin 28) (ww : Fin 32) (ci : Fin 512) (n : Fin 32) (row : Fin 56)
    (hn : n.val = t.val / 1) (hrow : row.val = (t.val % 1 + 1) * 28 + hh.val) :
    blk V c 1 t (ix4 (0 : Fin 1) hh ww ci) = xp V c (ix4 n row ww ci) := by
  obtain ⟨e0, e1, e2, e3⟩ := index_lower t
  show V c (Pipeline.arrRef spec15 1) (((cfg15.win 1).blk t).view.emb (ix4 (0 : Fin 1) hh ww ci)) = V c (Pipeline.arrRef spec15 0) (ix4 n row ww ci)
  refine congrArg _ (funext fun a => Fin.ext ?_)
  match a with
  | ⟨0, _⟩ => show win15_1.index t (0 : Fin 4) * 1 + 1 * 0 = n.val; omega
  | ⟨1, _⟩ => show win15_1.index t (1 : Fin 4) * 28 + 1 * hh.val = row.val; omega
  | ⟨2, _⟩ => show win15_1.index t (2 : Fin 4) * 32 + 1 * ww.val = ww.val; omega
  | ⟨3, _⟩ => show win15_1.index t (3 : Fin 4) * 512 + 1 * ci.val = ci.val; omega

/-- So the 56 rows the two blocks make up are rows 28 · (row tile) … of the padded image. -/
theorem pix_at (c : Dev nD) (t : Fin cfg15.N) (hh : Fin 56) (ww : Fin 32) (ci : Fin 512) (n : Fin 32) (row : Fin 56)
    (hn : n.val = t.val / 1) (hrow : row.val = t.val % 1 * 28 + hh.val) :
    pix (blk V c 0 t) (blk V c 1 t) hh ww ci = xp V c (ix4 n row ww ci) := by
  unfold pix
  split
  · rename_i h
    exact upper_at V c t ⟨hh.val, h⟩ ww ci n row hn hrow
  · rename_i h
    have h56 : hh.val < 56 := hh.isLt
    exact lower_at V c t ⟨hh.val - 28, by omega⟩ ww ci n row hn (by show row.val = (t.val % 1 + 1) * 28 + (hh.val - 28); omega)

/-- The weights' block is the whole weight array, -/
theorem weights_at (c : Dev nD) (t : Fin cfg15.N) (y : S3x1536x512.Idx) : blk V c 2 t y = wk V c y := by
  obtain ⟨e0, e1, e2⟩ := index_weights t
  show V c (Pipeline.arrRef spec15 2) (((cfg15.win 2).blk t).view.emb y) = V c (Pipeline.arrRef spec15 2) y
  refine congrArg _ (funext fun a => Fin.ext ?_)
  match a with
  | ⟨0, _⟩ => show win15_2.index t (0 : Fin 3) * 3 + 1 * (y 0).val = (y 0).val; omega
  | ⟨1, _⟩ => show win15_2.index t (1 : Fin 3) * 1536 + 1 * (y 1).val = (y 1).val; omega
  | ⟨2, _⟩ => show win15_2.index t (2 : Fin 3) * 512 + 1 * (y 2).val = (y 2).val; omega

/-- and the bias's the whole bias row. -/
theorem bias_at (c : Dev nD) (t : Fin cfg15.N) (y : S1x512.Idx) : blk V c 3 t y = bias V c y := by
  obtain ⟨e0, e1⟩ := index_bias t
  show V c (Pipeline.arrRef spec15 3) (((cfg15.win 3).blk t).view.emb y) = V c (Pipeline.arrRef spec15 3) y
  refine congrArg _ (funext fun a => Fin.ext ?_)
  match a with
  | ⟨0, _⟩ => show win15_3.index t (0 : Fin 2) * 1 + 1 * (y 0).val = (y 0).val; omega
  | ⟨1, _⟩ => show win15_3.index t (1 : Fin 2) * 512 + 1 * (y 1).val = (y 1).val; omega

/-! ## What a grid point writes back, and the array after the last point -/

/-- The output array as one function of the region's arrays: at (n, h, w, co) the sum over the vertical tap, the
    horizontal tap and the input channel of padded input times weight, plus the bias, rectified. -/
def conv (c : Dev nD) : S32x28x28x512.Idx → EReal := fun i =>
  max ((∑ dy : Fin 3, ∑ dx : Fin 3, ∑ ci : Fin 512,
          xp V c (ix4 (⟨(i 0).val, (i 0).isLt⟩ : Fin 32) ⟨(i 1).val + dy.val, by have h1 : (i 1).val < 28 := (i 1).isLt; omega⟩
              ⟨(i 2).val + dx.val, by have h2 : (i 2).val < 28 := (i 2).isLt; omega⟩ ci)
            * wk V c (ix3 dx ⟨dy.val * 512 + ci.val, by omega⟩ (⟨(i 3).val, (i 3).isLt⟩ : Fin 512)))
        + bias V c (ix2 0 (⟨(i 3).val, (i 3).isLt⟩ : Fin 512))) 0

/-- An index of the output array is in position t's tile iff each coordinate is in the tile's range on its axis. -/
theorem mem_tile (t : Fin cfg15.N) (i : S32x28x28x512.Idx) :
    i ∈ ((cfg15.win 4).blk t).view.set ↔ ∀ a : Fin 4, win15_4.index t a * S1x28x28x512.size a ≤ (i a).val ∧ (i a).val < win15_4.index t a * S1x28x28x512.size a + S1x28x28x512.size a := by
  show i ∈ ((View.whole (Pipeline.arrRef spec15 4)).slice (win15_4.rect t)).set ↔ _
  rw [View.set_slice_whole, Rect.mem_set_unit]
  exact Iff.rfl

section FromTheTile

-- what the body leaves in the tile, index by index over its four blocks: the hypothesis this section is stated under
variable (htile : ∀ (xa xb : Vec Ideal S1x28x32x512 .bf16) (wk : Vec Ideal S3x1536x512 .bf16) (b : Vec Ideal S1x512 .f32)
    (h : Fin 28) (w : Fin 28) (co : Fin 512),
    tile (F := Ideal) xa xb wk b (ix4 0 h w co)
      = max ((∑ dy : Fin 3, ∑ dx : Fin 3, ∑ ci : Fin 512,
                pix xa xb ⟨h.val + dy.val, by omega⟩ ⟨w.val + dx.val, by omega⟩ ci
                  * wk (ix3 dx ⟨dy.val * 512 + ci.val, by omega⟩ co))
              + b (ix2 0 co)) 0)

include htile

/-- The tile at grid position t, index by index over the region's arrays. -/
theorem tile_at (c : Dev nD) (t : Fin cfg15.N) (h : Fin 28) (w : Fin 28) (co : Fin 512) (n : Fin 32) (row : Fin 28)
    (hn : n.val = t.val / 1) (hrow : row.val = t.val % 1 * 28 + h.val) :
    tile (F := Ideal) (blk V c 0 t) (blk V c 1 t) (blk V c 2 t) (blk V c 3 t) (ix4 0 h w co)
      = conv V c (ix4 n row w co) := by
  rw [htile]
  unfold conv
  refine congrArg (fun s => max s 0) ?_
  rw [bias_at]
  refine congrArg (fun s => s + bias V c (ix2 0 co)) ?_
  refine Finset.sum_congr rfl fun dy _ => Finset.sum_congr rfl fun dx _ => Finset.sum_congr rfl fun ci _ => ?_
  have hdy : dy.val < 3 := dy.isLt
  have hh : h.val < 28 := h.isLt
  rw [weights_at, pix_at V c t _ _ ci n ⟨row.val + dy.val, by omega⟩ hn (by show row.val + dy.val = t.val % 1 * 28 + (h.val + dy.val); omega)]

/-- What grid position t writes back is its tile of `conv`. -/
theorem flushed_eq (c : Dev nD) (t : Fin cfg15.N) (hf : (cfg15.win 4).flush t = true) :
    (dat (F := Ideal) V c).flushed 4 t = ((cfg15.win 4).blk t).view.read (Elt Ideal) (conv V c) := by
  have hN : cfg15.N = 32 * 1 := N_15
  have ht : t.val < 32 * 1 := lt_of_lt_of_eq t.isLt hN
  obtain ⟨e0, e1, e2, e3⟩ := index_out t
  show (cfg15.win 4).cut (grid15.coords t) ((dat (F := Ideal) V c).after 4 t) = _
  rw [after_4]
  funext y
  have y0 : (y 0).val < 1 := (y 0).isLt
  have y1 : (y 1).val < 28 := (y 1).isLt
  have y2 : (y 2).val < 28 := (y 2).isLt
  have y3 : (y 3).val < 512 := (y 3).isLt
  have ey : y = ix4 (0 : Fin 1) (⟨(y 1).val, y1⟩ : Fin 28) (⟨(y 2).val, y2⟩ : Fin 28) (⟨(y 3).val, y3⟩ : Fin 512) := by
    funext a
    match a with
    | ⟨0, _⟩ => exact Fin.ext (by show (y 0).val = 0; omega)
    | ⟨1, _⟩ => rfl
    | ⟨2, _⟩ => rfl
    | ⟨3, _⟩ => rfl
  show tile (F := Ideal) (blk V c 0 t) (blk V c 1 t) (blk V c 2 t) (blk V c 3 t) y = conv V c (((cfg15.win 4).blk t).view.emb y)
  have hE : ((cfg15.win 4).blk t).view.emb y
      = ix4 (⟨t.val / 1, by omega⟩ : Fin 32) (⟨t.val % 1 * 28 + (y 1).val, by omega⟩ : Fin 28) (⟨(y 2).val, y2⟩ : Fin 28) (⟨(y 3).val, y3⟩ : Fin 512) := by
    refine funext fun a => Fin.ext ?_
    match a with
    | ⟨0, _⟩ => show win15_4.index t (0 : Fin 4) * 1 + 1 * (y 0).val = t.val / 1; omega
    | ⟨1, _⟩ => show win15_4.index t (1 : Fin 4) * 28 + 1 * (y 1).val = t.val % 1 * 28 + (y 1).val; omega
    | ⟨2, _⟩ => show win15_4.index t (2 : Fin 4) * 28 + 1 * (y 2).val = (y 2).val; omega
    | ⟨3, _⟩ => show win15_4.index t (3 : Fin 4) * 512 + 1 * (y 3).val = (y 3).val; omega
  rw [hE]
  exact (congrArg (tile (F := Ideal) (blk V c 0 t) (blk V c 1 t) (blk V c 2 t) (blk V c 3 t)) ey).trans
    (tile_at V htile c t _ _ _ _ _ rfl rfl)

/-- The whole output array after the last point. -/
theorem final (c : Dev nD) : yOut V c = conv V c :=
  (dat (F := Ideal) V c).arrAt_eq_of_cover 4 (conv V c) (flushed_eq V htile c) fun i => by
    have i0 : (i 0).val < 32 := (i 0).isLt
    have i1 : (i 1).val < 28 := (i 1).isLt
    have i2 : (i 2).val < 28 := (i 2).isLt
    have i3 : (i 3).val < 512 := (i 3).isLt
    have hN : cfg15.N = 32 * 1 := N_15
    refine ⟨⟨(i 0).val * 1 + (i 1).val / 28, by rw [hN]; omega⟩, flush15_4 _, ?_⟩
    rw [mem_tile]
    obtain ⟨e0, e1, e2, e3⟩ := index_out ⟨(i 0).val * 1 + (i 1).val / 28, by rw [hN]; omega⟩
    intro a
    match a with
    | ⟨0, _⟩ => show win15_4.index _ (0 : Fin 4) * 1 ≤ (i 0).val ∧ (i 0).val < win15_4.index _ (0 : Fin 4) * 1 + 1; rw [e0]; dsimp only; omega
    | ⟨1, _⟩ => show win15_4.index _ (1 : Fin 4) * 28 ≤ (i 1).val ∧ (i 1).val < win15_4.index _ (1 : Fin 4) * 28 + 28; rw [e1]; dsimp only; omega
    | ⟨2, _⟩ => show win15_4.index _ (2 : Fin 4) * 28 ≤ (i 2).val ∧ (i 2).val < win15_4.index _ (2 : Fin 4) * 28 + 28; rw [e2]; omega
    | ⟨3, _⟩ => show win15_4.index _ (3 : Fin 4) * 512 ≤ (i 3).val ∧ (i 3).val < win15_4.index _ (3 : Fin 4) * 512 + 512; rw [e3]; omega

/-- THE REGION'S OUTPUT, element by element: sum over the vertical tap `dy`, the horizontal tap `dx` and the input
    channel `ci`. -/
theorem out_of_tile (c : Dev nD) (n : Fin 32) (h : Fin 28) (w : Fin 28) (co : Fin 512) :
    yOut V c (ix4 n h w co)
      = max ((∑ dy : Fin 3, ∑ dx : Fin 3, ∑ ci : Fin 512,
                xp V c (ix4 n ⟨h.val + dy.val, by omega⟩ ⟨w.val + dx.val, by omega⟩ ci)
                  * wk V c (ix3 dx ⟨dy.val * 512 + ci.val, by omega⟩ co))
              + bias V c (ix2 0 co)) 0 := by
  rw [final V htile c]
  rfl

end FromTheTile

end Cert.KernelIdeal.Reg15

end
-- ==== Proof.KI.Reg15Value.lean ====
/-
  The 3×3 convolution 512 → 512 on 28×28 images (kernel-side program, pallas region 15) at the ideal float model.
  The arithmetic of one grid point read index by index — the slab of stacked row blocks, the three lane-concatenated
  operands (one per horizontal tap), the three products of contraction depth 1536, the bias-added, rectified tile —
  regrouped as the triple sum over the vertical tap, the horizontal tap and the input channel; and with the blocks
  read off the region's arrays, the output array after the last grid point, element by element, the weight array
  [3, 1536, 512] read at (dx, dy·512 + ci, co).
-/
import proofs.«143011_g2000502688546152_pallasbulk_1201_3_alg».proof.Proof.KI.Reg15Pipe
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Reg15

open Cert.KernelIdeal Cert.KernelIdeal.Gen
open Idealize.ShloMosaic Idealize.ShloMosaic.TcCoe
open Idealize.SL Idealize.SL.Sem
open Idealize.ShloMosaic.ValueIdx
open scoped BigOperators

/-! ## The slab and the three operands, by name -/

section Names
variable {F : FTy → Type} [FloatOps F]

/-- A row block [1, 28, 32, 512] laid out as 28 · 32 pixel rows of 512 channels. -/
def rows (x : Vec F S1x28x32x512 .bf16) : FVec F S896x512 .bf16 :=
  shapeCast S896x512 (shapeCast S28x32x512 x Gen.shapeCasts_S1x28x32x512_S28x32x512) Gen.shapeCasts_S28x32x512_S896x512

/-- Both row blocks stacked, then 32 zero rows: 1824 pixel rows. -/
def slab (xa xb : Vec F S1x28x32x512 .bf16) : FVec F S1824x512 .bf16 :=
  concatenate S1824x512 0 [⟨S896x512, rows xa⟩, ⟨S896x512, rows xb⟩, ⟨S32x512, broadcast S32x512 (Scalar.ofBits .bf16 0x0000#16)⟩]
    Gen.concatenates_S896x512_S896x512_S32x512_S1824x512_d0

/-- Three windows of 896 rows of a pixel-row matrix, at row offsets 0, 32, 64 (one image row apart), side by side:
    depth 3 · 512. -/
def lanes {M : Nat} (T : (⟨2, ![M, 512]⟩ : Shape).Idx → F .bf16)
    (h0 : (⟨2, ![M, 512]⟩ : Shape).Slices ![0, 0] S896x512) (h1 : (⟨2, ![M, 512]⟩ : Shape).Slices ![32, 0] S896x512)
    (h2 : (⟨2, ![M, 512]⟩ : Shape).Slices ![64, 0] S896x512) : FVec F S896x1536 .bf16 :=
  concatenate S896x1536 1 [⟨S896x512, extractStridedSlice S896x512 ![0, 0] T h0⟩, ⟨S896x512, extractStridedSlice S896x512 ![32, 0] T h1⟩,
    ⟨S896x512, extractStridedSlice S896x512 ![64, 0] T h2⟩] Gen.concatenates_S896x512_S896x512_S896x512_S896x1536_d1

/-- The operand of horizontal tap 0, 1, 2: the slab shifted by that many pixel rows, then `lanes`. -/
def lhs0 (S : FVec F S1824x512 .bf16) : FVec F S896x1536 .bf16 :=
  lanes (M := 1824) S Gen.slices_S1824x512_o0_0_S896x512 Gen.slices_S1824x512_o32_0_S896x512 Gen.slices_S1824x512_o64_0_S896x512
def lhs1 (S : FVec F S1824x512 .bf16) : FVec F S896x1536 .bf16 :=
  lanes (M := 1823) (extractStridedSlice S1823x512 ![1, 0] S Gen.slices_S1824x512_o1_0_S1823x512)
    Gen.slices_S1823x512_o0_0_S896x512 Gen.slices_S1823x512_o32_0_S896x512 Gen.slices_S1823x512_o64_0_S896x512
def lhs2 (S : FVec F S1824x512 .bf16) : FVec F S896x1536 .bf16 :=
  lanes (M := 1822) (extractStridedSlice S1822x512 ![2, 0] S Gen.slices_S1824x512_o2_0_S1822x512)
    Gen.slices_S1822x512_o0_0_S896x512 Gen.slices_S1822x512_o32_0_S896x512 Gen.slices_S1822x512_o64_0_S896x512

/-- One product: an operand times a weight plane [1, 1536, 512], into zero. -/
def prod (L : FVec F S896x1536 .bf16) (w : Vec F S1x1536x512 .bf16) : FVec F S896x512 .f32 :=
  matmul dot_S896x1536_S1536x512_S896x512_1_0_0_1_n_n none L (shapeCast S1536x512 w Gen.shapeCasts_S1x1536x512_S1536x512)
    (constant S896x512 .f32 0x00000000#32)

/-- The printed accumulation is zero plus the three products, in tap order. -/
theorem pay2_eq (v0 v3 : Vec F S1x28x32x512 .bf16) (w0 w1 w2 : Vec F S1x1536x512 .bf16) :
    k15_pay2 v0 v3 w0 w1 w2
      = addf (addf (addf (broadcast S896x512 (Scalar.ofBits .f32 0x00000000#32)) (prod (lhs0 (slab v0 v3)) w0)) (prod (lhs1 (slab v0 v3)) w1))
          (prod (lhs2 (slab v0 v3)) w2) := rfl

end Names

/-! ## Reading the layout operations at an index (ideal model) -/

/-- The side-by-side operand at pixel row `r` and depth `dy · 512 + ci` is the matrix at row `r + 32 · dy`, channel `ci`. -/
theorem lanes_apply {M : Nat} (hM : 960 ≤ M) (T : (⟨2, ![M, 512]⟩ : Shape).Idx → Ideal .bf16)
    (h0 : (⟨2, ![M, 512]⟩ : Shape).Slices ![0, 0] S896x512) (h1 : (⟨2, ![M, 512]⟩ : Shape).Slices ![32, 0] S896x512)
    (h2 : (⟨2, ![M, 512]⟩ : Shape).Slices ![64, 0] S896x512) (r : Fin 896) (dy : Fin 3) (ci : Fin 512) :
    lanes (F := Ideal) T h0 h1 h2 (ix2 r ⟨dy.val * 512 + ci.val, by omega⟩) = T (ix2 ⟨r.val + 32 * dy.val, by omega⟩ ci) := by
  unfold lanes
  match dy with
  | ⟨0, _⟩ =>
    refine Eq.trans (concatenate_apply_piece (t := S896x1536) 1 _ _ _ 0 ?_ S896x512 (extractStridedSlice S896x512 ![0, 0] T h0) ?_ ?_ 0 ?_ (ix2 r ci) ?_ ?_) ?_
    · show _ < 3; omega
    · rfl
    · rfl
    · rfl
    · intro b hb
      match b with
      | ⟨0, _⟩ => rfl
      | ⟨1, _⟩ => exact absurd rfl hb
    · show 0 + ci.val = 0 * 512 + ci.val; omega
    · exact extractStridedSlice_apply _ _ _ _ _ (fun a => by
        match a with
        | ⟨0, _⟩ => show r.val + 32 * 0 = 0 + r.val; omega
        | ⟨1, _⟩ => show ci.val = 0 + ci.val; omega)
  | ⟨1, _⟩ =>
    refine Eq.trans (concatenate_apply_piece (t := S896x1536) 1 _ _ _ 1 ?_ S896x512 (extractStridedSlice S896x512 ![32, 0] T h1) ?_ ?_ 512 ?_ (ix2 r ci) ?_ ?_) ?_
    · show _ < 3; omega
    · rfl
    · rfl
    · rfl
    · intro b hb
      match b with
      | ⟨0, _⟩ => rfl
      | ⟨1, _⟩ => exact absurd rfl hb
    · show 512 + ci.val = 1 * 512 + ci.val; omega
    · exact extractStridedSlice_apply _ _ _ _ _ (fun a => by
        match a with
        | ⟨0, _⟩ => show r.val + 32 * 1 = 32 + r.val; omega
        | ⟨1, _⟩ => show ci.val = 0 + ci.val; omega)
  | ⟨2, _⟩ =>
    refine Eq.trans (concatenate_apply_piece (t := S896x1536) 1 _ _ _ 2 ?_ S896x512 (extractStridedSlice S896x512 ![64, 0] T h2) ?_ ?_ 1024 ?_ (ix2 r ci) ?_ ?_) ?_
    · show _ < 3; omega
    · rfl
    · rfl
    · rfl
    · intro b hb
      match b with
      | ⟨0, _⟩ => rfl
      | ⟨1, _⟩ => exact absurd rfl hb
    · show 1024 + ci.val = 2 * 512 + ci.val; omega
    · exact extractStridedSlice_apply _ _ _ _ _ (fun a => by
        match a with
        | ⟨0, _⟩ => show r.val + 32 * 2 = 64 + r.val; omega
        | ⟨1, _⟩ => show ci.val = 0 + ci.val; omega)

/-- A row block as pixel rows: row `hh · 32 + ww` is pixel `(hh, ww)`. -/
theorem rows_apply (x : Vec Ideal S1x28x32x512 .bf16) (hh : Fin 28) (ww : Fin 32) (ci : Fin 512) :
    rows (F := Ideal) x (ix2 ⟨hh.val * 32 + ww.val, by omega⟩ ci) = x (ix4 0 hh ww ci) := by
  unfold rows
  refine (shapeCast_apply _ _ _ (ix3 hh ww ci) ?_).trans (shapeCast_apply _ _ _ (ix4 0 hh ww ci) ?_)
  · rw [Shape.rowMajor_val_three, Shape.rowMajor_val_two]; rfl
  · rw [Shape.rowMajor_val_four, Shape.rowMajor_val_three]
    show (((0 : ℕ) * 28 + hh.val) * 32 + ww.val) * 512 + ci.val = (hh.val * 32 + ww.val) * 512 + ci.val
    omega

/-- The slab at pixel `(hh, ww)` of the 56-row padded image: the upper block for the first 28 rows, else the lower block. -/
theorem slab_upper (xa xb : Vec Ideal S1x28x32x512 .bf16) (hh : Fin 28) (ww : Fin 32) (ci : Fin 512) :
    slab (F := Ideal) xa xb (ix2 ⟨hh.val * 32 + ww.val, by omega⟩ ci) = xa (ix4 0 hh ww ci) := by
  unfold slab
  refine Eq.trans (concatenate_apply_piece (t := S1824x512) 0 _ _ _ 0 ?_ S896x512 (rows xa) ?_ ?_ 0 ?_ (ix2 ⟨hh.val * 32 + ww.val, by omega⟩ ci) ?_ ?_) ?_
  · show _ < 3; omega
  · rfl
  · rfl
  · rfl
  · intro b hb
    match b with
    | ⟨0, _⟩ => exact absurd rfl hb
    | ⟨1, _⟩ => rfl
  · show 0 + (hh.val * 32 + ww.val) = hh.val * 32 + ww.val; omega
  · exact rows_apply xa hh ww ci

theorem slab_lower (xa xb : Vec Ideal S1x28x32x512 .bf16) (hh : Fin 28) (ww : Fin 32) (ci : Fin 512) :
    slab (F := Ideal) xa xb (ix2 ⟨(28 + hh.val) * 32 + ww.val, by omega⟩ ci) = xb (ix4 0 hh ww ci) := by
  unfold slab
  refine Eq.trans (concatenate_apply_piece (t := S1824x512) 0 _ _ _ 1 ?_ S896x512 (rows xb) ?_ ?_ 896 ?_ (ix2 ⟨hh.val * 32 + ww.val, by omega⟩ ci) ?_ ?_) ?_
  · show _ < 3; omega
  · rfl
  · rfl
  · rfl
  · intro b hb
    match b with
    | ⟨0, _⟩ => exact absurd rfl hb
    | ⟨1, _⟩ => rfl
  · show 896 + (hh.val * 32 + ww.val) = (28 + hh.val) * 32 + ww.val; omega
  · exact rows_apply xb hh ww ci

/-- The three operands at pixel row `r`, depth `dy · 512 + ci`: the slab `dx` pixel rows and `dy` image rows further on. -/
theorem lhs0_apply (S : FVec Ideal S1824x512 .bf16) (r : Fin 896) (dy : Fin 3) (ci : Fin 512) :
    lhs0 (F := Ideal) S (ix2 r ⟨dy.val * 512 + ci.val, by omega⟩) = S (ix2 ⟨r.val + 32 * dy.val, by omega⟩ ci) := by
  unfold lhs0; exact lanes_apply (by decide) _ _ _ _ r dy ci

theorem lhs1_apply (S : FVec Ideal S1824x512 .bf16) (r : Fin 896) (dy : Fin 3) (ci : Fin 512) :
    lhs1 (F := Ideal) S (ix2 r ⟨dy.val * 512 + ci.val, by omega⟩) = S (ix2 ⟨1 + (r.val + 32 * dy.val), by omega⟩ ci) := by
  unfold lhs1
  refine (lanes_apply (by decide) _ _ _ _ r dy ci).trans ?_
  exact extractStridedSlice_apply _ _ _ _ _ (fun a => by
    match a with
    | ⟨0, _⟩ => rfl
    | ⟨1, _⟩ => show ci.val = 0 + ci.val; omega)

theorem lhs2_apply (S : FVec Ideal S1824x512 .bf16) (r : Fin 896) (dy : Fin 3) (ci : Fin 512) :
    lhs2 (F := Ideal) S (ix2 r ⟨dy.val * 512 + ci.val, by omega⟩) = S (ix2 ⟨2 + (r.val + 32 * dy.val), by omega⟩ ci) := by
  unfold lhs2
  refine (lanes_apply (by decide) _ _ _ _ r dy ci).trans ?_
  exact extractStridedSlice_apply _ _ _ _ _ (fun a => by
    match a with
    | ⟨0, _⟩ => rfl
    | ⟨1, _⟩ => show ci.val = 0 + ci.val; omega)

/-! ## The contraction -/

abbrev DD := dot_S896x1536_S1536x512_S896x512_1_0_0_1_n_n

theorem DD_lhs0 (j : S896x512.Idx) (k : DD.contr.Idx) : (DD.lhsIdx j k 0 : ℕ) = j 0 := by
  simp [DotDims.lhsIdx, DD, dot_S896x1536_S1536x512_S896x512_1_0_0_1_n_n]; rfl
theorem DD_lhs1 (j : S896x512.Idx) (k : DD.contr.Idx) : (DD.lhsIdx j k 1 : ℕ) = k ⟨0, by decide⟩ := by
  simp [DotDims.lhsIdx, DD, dot_S896x1536_S1536x512_S896x512_1_0_0_1_n_n]; rfl
theorem DD_rhs0 (j : S896x512.Idx) (k : DD.contr.Idx) : (DD.rhsIdx j k 0 : ℕ) = k ⟨0, by decide⟩ := by
  simp [DotDims.rhsIdx, DD, dot_S896x1536_S1536x512_S896x512_1_0_0_1_n_n]; rfl
theorem DD_rhs1 (j : S896x512.Idx) (k : DD.contr.Idx) : (DD.rhsIdx j k 1 : ℕ) = j 1 := by
  simp [DotDims.rhsIdx, DD, dot_S896x1536_S1536x512_S896x512_1_0_0_1_n_n]; rfl

/-- The contraction index is its one coordinate, below 1536. -/
def cEq : DD.contr.Idx ≃ Fin 1536 := contrEquiv1 DD 1536 rfl rfl

/-- One product at pixel row `r`, output channel `co`: the sum over the depth of operand times weight plane. -/
theorem prod_apply (L : FVec Ideal S896x1536 .bf16) (w : Vec Ideal S1x1536x512 .bf16) (r : Fin 896) (co : Fin 512) :
    prod (F := Ideal) L w (ix2 r co) = ∑ k : Fin 1536, L (ix2 r k) * w (ix3 0 k co) := by
  unfold prod
  simp only [matmul]
  rw [Ideal.matmul_constant_zero_apply]
  refine Fintype.sum_equiv cEq _ _ (fun k => ?_)
  have hl : DD.lhsIdx (ix2 r co) k = ix2 r (cEq k) :=
    Shape.idx_ext₂ (by rw [DD_lhs0]) (by rw [DD_lhs1]; rfl)
  have hr : (S1536x512.rowMajor (DD.rhsIdx (ix2 r co) k)).val = (S1x1536x512.rowMajor (ix3 0 (cEq k) co)).val := by
    rw [Shape.rowMajor_val_two, Shape.rowMajor_val_three, DD_rhs0, DD_rhs1]
    show (k ⟨0, by decide⟩).val * 512 + co.val = ((0 : ℕ) * 1536 + (k ⟨0, by decide⟩).val) * 512 + co.val
    omega
  rw [hl, shapeCast_apply _ _ _ (ix3 0 (cEq k) co) hr.symm]

/-! ## The accumulation and the tile at an index -/

theorem slab_pix (xa xb : Vec Ideal S1x28x32x512 .bf16) (hh : Fin 56) (ww : Fin 32) (ci : Fin 512) :
    slab (F := Ideal) xa xb (ix2 ⟨hh.val * 32 + ww.val, by omega⟩ ci) = pix xa xb hh ww ci := by
  unfold pix
  split
  · rename_i h
    exact slab_upper xa xb ⟨hh.val, h⟩ ww ci
  · rename_i h
    have e : (⟨hh.val * 32 + ww.val, by omega⟩ : Fin 1824) = ⟨(28 + (hh.val - 28)) * 32 + ww.val, by omega⟩ :=
      Fin.ext (by show hh.val * 32 + ww.val = (28 + (hh.val - 28)) * 32 + ww.val; omega)
    rw [e]
    exact slab_lower xa xb ⟨hh.val - 28, by omega⟩ ww ci

/-- The operand of horizontal tap `dx`. -/
def lhs (S : FVec Ideal S1824x512 .bf16) (dx : Fin 3) : FVec Ideal S896x1536 .bf16 :=
  match dx with
  | ⟨0, _⟩ => lhs0 S
  | ⟨1, _⟩ => lhs1 S
  | ⟨2, _⟩ => lhs2 S

/-- At valid pixel `(h, w)`, depth `dy · 512 + ci`, tap `dx`'s operand is the padded image at `(h + dy, w + dx)`. -/
theorem tap_apply (xa xb : Vec Ideal S1x28x32x512 .bf16) (dx : Fin 3) (h : Fin 28) (w : Fin 28) (dy : Fin 3) (ci : Fin 512) :
    lhs (slab xa xb) dx (ix2 ⟨h.val * 32 + w.val, by omega⟩ ⟨dy.val * 512 + ci.val, by omega⟩)
      = pix xa xb ⟨h.val + dy.val, by omega⟩ ⟨w.val + dx.val, by omega⟩ ci := by
  match dx with
  | ⟨0, _⟩ =>
    refine (lhs0_apply _ ⟨h.val * 32 + w.val, by omega⟩ dy ci).trans ?_
    have e : (⟨h.val * 32 + w.val + 32 * dy.val, by omega⟩ : Fin 1824) = ⟨(h.val + dy.val) * 32 + (w.val + 0), by omega⟩ :=
      Fin.ext (by show h.val * 32 + w.val + 32 * dy.val = (h.val + dy.val) * 32 + (w.val + 0); omega)
    rw [e]
    exact slab_pix xa xb ⟨h.val + dy.val, by omega⟩ ⟨w.val + 0, by omega⟩ ci
  | ⟨1, _⟩ =>
    refine (lhs1_apply _ ⟨h.val * 32 + w.val, by omega⟩ dy ci).trans ?_
    have e : (⟨1 + (h.val * 32 + w.val + 32 * dy.val), by omega⟩ : Fin 1824) = ⟨(h.val + dy.val) * 32 + (w.val + 1), by omega⟩ :=
      Fin.ext (by show 1 + (h.val * 32 + w.val + 32 * dy.val) = (h.val + dy.val) * 32 + (w.val + 1); omega)
    rw [e]
    exact slab_pix xa xb ⟨h.val + dy.val, by omega⟩ ⟨w.val + 1, by omega⟩ ci
  | ⟨2, _⟩ =>
    refine (lhs2_apply _ ⟨h.val * 32 + w.val, by omega⟩ dy ci).trans ?_
    have e : (⟨2 + (h.val * 32 + w.val + 32 * dy.val), by omega⟩ : Fin 1824) = ⟨(h.val + dy.val) * 32 + (w.val + 2), by omega⟩ :=
      Fin.ext (by show 2 + (h.val * 32 + w.val + 32 * dy.val) = (h.val + dy.val) * 32 + (w.val + 2); omega)
    rw [e]
    exact slab_pix xa xb ⟨h.val + dy.val, by omega⟩ ⟨w.val + 2, by omega⟩ ci

/-- A sum over the depth 1536 is a sum over the vertical tap and the channel. -/
theorem sum_depth (f : Fin 1536 → EReal) :
    ∑ k : Fin 1536, f k = ∑ dy : Fin 3, ∑ ci : Fin 512, f ⟨dy.val * 512 + ci.val, by omega⟩ := by
  rw [← Finset.sum_product', Finset.univ_product_univ]
  exact (Fintype.sum_equiv (finProdFinEquiv (m := 3) (n := 512)) (fun p => f ⟨p.1.val * 512 + p.2.val, by omega⟩) f (fun p =>
    congrArg f (Fin.ext (by show p.1.val * 512 + p.2.val = p.2.val + 512 * p.1.val; omega)))).symm

/-- A weight plane read through its rectangle is that plane of the array. -/
theorem ldK0 (wk : Vec Ideal S3x1536x512 .bf16) (k : Fin 1536) (co : Fin 512) : View.ld wk rK0 (ix3 0 k co) = wk (ix3 0 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK1 (wk : Vec Ideal S3x1536x512 .bf16) (k : Fin 1536) (co : Fin 512) : View.ld wk rK1 (ix3 0 k co) = wk (ix3 1 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))
theorem ldK2 (wk : Vec Ideal S3x1536x512 .bf16) (k : Fin 1536) (co : Fin 512) : View.ld wk rK2 (ix3 0 k co) = wk (ix3 2 k co) :=
  congrArg wk (funext fun a => by
    match a with
    | ⟨0, _⟩ => rfl
    | ⟨1, _⟩ => exact Fin.ext (by show 0 + 1 * k.val = k.val; omega)
    | ⟨2, _⟩ => exact Fin.ext (by show 0 + 1 * co.val = co.val; omega))

/-- One product against plane `dx` of the weight array. -/
theorem prodK0 (L : FVec Ideal S896x1536 .bf16) (wk : Vec Ideal S3x1536x512 .bf16) (r : Fin 896) (co : Fin 512) :
    prod (F := Ideal) L (View.ld wk rK0) (ix2 r co) = ∑ k : Fin 1536, L (ix2 r k) * wk (ix3 0 k co) :=
  (prod_apply L _ r co).trans (Finset.sum_congr rfl fun k _ => congrArg (fun z => L (ix2 r k) * z) (ldK0 wk k co))
theorem prodK1 (L : FVec Ideal S896x1536 .bf16) (wk : Vec Ideal S3x1536x512 .bf16) (r : Fin 896) (co : Fin 512) :
    prod (F := Ideal) L (View.ld wk rK1) (ix2 r co) = ∑ k : Fin 1536, L (ix2 r k) * wk (ix3 1 k co) :=
  (prod_apply L _ r co).trans (Finset.sum_congr rfl fun k _ => congrArg (fun z => L (ix2 r k) * z) (ldK1 wk k co))
theorem prodK2 (L : FVec Ideal S896x1536 .bf16) (wk : Vec Ideal S3x1536x512 .bf16) (r : Fin 896) (co : Fin 512) :
    prod (F := Ideal) L (View.ld wk rK2) (ix2 r co) = ∑ k : Fin 1536, L (ix2 r k) * wk (ix3 2 k co) :=
  (prod_apply L _ r co).trans (Finset.sum_congr rfl fun k _ => congrArg (fun z => L (ix2 r k) * z) (ldK2 wk k co))

/-- A row block read through its whole rectangle is the block. -/
theorem ldX (x : Vec Ideal S1x28x32x512 .bf16) : View.ld x rX = x :=
  View.ld_unit_zero (funext fun a => by
    match a with
    | ⟨0, _⟩ => rfl
    | ⟨1, _⟩ => rfl
    | ⟨2, _⟩ => rfl
    | ⟨3, _⟩ => rfl) _ x

/-- The accumulation at valid pixel `(h, w)`, output channel `co`: the triple sum over the vertical tap, the horizontal tap
    and the channel of padded image times weight, the weights read at `(dx, dy · 512 + ci, co)`. -/
theorem acc_apply (xa xb : Vec Ideal S1x28x32x512 .bf16) (wk : Vec Ideal S3x1536x512 .bf16) (h : Fin 28) (w : Fin 28) (co : Fin 512) :
    acc (F := Ideal) xa xb wk (ix2 ⟨h.val * 32 + w.val, by omega⟩ co)
      = ∑ dy : Fin 3, ∑ dx : Fin 3, ∑ ci : Fin 512,
          pix xa xb ⟨h.val + dy.val, by omega⟩ ⟨w.val + dx.val, by omega⟩ ci * wk (ix3 dx ⟨dy.val * 512 + ci.val, by omega⟩ co) := by
  unfold acc
  rw [pay2_eq, ldX, ldX]
  show Ideal.ofBits .f32 0x00000000#32 + prod (lhs0 (slab xa xb)) (View.ld wk rK0) (ix2 _ co)
      + prod (lhs1 (slab xa xb)) (View.ld wk rK1) (ix2 _ co) + prod (lhs2 (slab xa xb)) (View.ld wk rK2) (ix2 _ co) = _
  rw [Ideal.ofBits_zero_f32, zero_add, prodK0, prodK1, prodK2]
  rw [sum_depth, sum_depth, sum_depth]
  rw [← Finset.sum_add_distrib, ← Finset.sum_add_distrib]
  refine Finset.sum_congr rfl (fun dy _ => ?_)
  rw [← Finset.sum_add_distrib, ← Finset.sum_add_distrib, Finset.sum_comm]
  refine Finset.sum_congr rfl (fun ci _ => ?_)
  rw [Fin.sum_univ_three]
  rw [← tap_apply xa xb 0 h w dy ci, ← tap_apply xa xb 1 h w dy ci, ← tap_apply xa xb 2 h w dy ci]
  rfl

/-- The printed epilogue: bias added along the rows, max with zero, the pixel rows regrouped as 28 rows of 32 columns,
    the 28 valid columns kept. -/
theorem pay1_eq {F : FTy → Type} [FloatOps F] (A : FVec F S896x512 .f32) (b : Vec F S1x512 .f32) :
    k15_pay1 A b
      = shapeCast S1x28x28x512
          (truncf .bf16
            (extractStridedSlice S28x28x512 ![0, 0, 0]
              (shapeCast S28x32x512
                (maximumf (addf A (broadcastTo S896x512 b Gen.broadcasts_S1x512_S896x512))
                  (broadcast S896x512 (Scalar.ofBits .f32 0x00000000#32)))
                Gen.shapeCasts_S896x512_S28x32x512)
              Gen.slices_S28x32x512_o0_0_0_S28x28x512)
            bitsLt_bf16_f32)
          Gen.shapeCasts_S28x28x512_S1x28x28x512 := rfl

/-- The bias row read through its rectangle is the bias. -/
theorem ldB (b : Vec Ideal S1x512 .f32) : View.ld b rB = b :=
  View.ld_unit_zero (funext fun a => by
    match a with
    | ⟨0, _⟩ => rfl
    | ⟨1, _⟩ => rfl) _ b

/-- The output tile at `(h, w, co)`: the accumulation at pixel row `h · 32 + w` plus the bias, rectified. -/
theorem tile_apply (xa xb : Vec Ideal S1x28x32x512 .bf16) (wk : Vec Ideal S3x1536x512 .bf16) (b : Vec Ideal S1x512 .f32)
    (h : Fin 28) (w : Fin 28) (co : Fin 512) :
    tile (F := Ideal) xa xb wk b (ix4 0 h w co) = max (acc xa xb wk (ix2 ⟨h.val * 32 + w.val, by omega⟩ co) + b (ix2 0 co)) 0 := by
  unfold tile
  rw [View.canon_unit_zero (funext fun a => by
    match a with
    | ⟨0, _⟩ => rfl
    | ⟨1, _⟩ => rfl
    | ⟨2, _⟩ => rfl
    | ⟨3, _⟩ => rfl), pay1_eq, ldB]
  refine (shapeCast_apply _ _ _ (ix3 h w co) ?_).trans ?_
  · rw [Shape.rowMajor_val_three, Shape.rowMajor_val_four]
    show (h.val * 28 + w.val) * 512 + co.val = (((0 : ℕ) * 28 + h.val) * 28 + w.val) * 512 + co.val
    omega
  refine (truncf_apply (ψ := .bf16) _ bitsLt_bf16_f32 (ix3 h w co)).trans ?_
  refine (extractStridedSlice_apply _ _ _ _ (ix3 h ⟨w.val, by omega⟩ co) (fun a => by
    match a with
    | ⟨0, _⟩ => show h.val = 0 + h.val; omega
    | ⟨1, _⟩ => show w.val = 0 + w.val; omega
    | ⟨2, _⟩ => show co.val = 0 + co.val; omega)).trans ?_
  refine (shapeCast_apply _ _ _ (ix2 ⟨h.val * 32 + w.val, by omega⟩ co) ?_).trans ?_
  · rw [Shape.rowMajor_val_two, Shape.rowMajor_val_three]; rfl
  refine (maximumf_apply _ _ _).trans (congrArg₂ max ?_ ?_)
  · refine (addf_apply _ _ _).trans (congrArg (fun z => acc xa xb wk (ix2 ⟨h.val * 32 + w.val, by omega⟩ co) + z) ?_)
    exact broadcastTo_apply _ _ _ (ix2 0 co) (fun a => by
      match a with
      | ⟨0, _⟩ => rfl
      | ⟨1, _⟩ => rfl)
  · exact Ideal.ofBits_zero_f32

/-- The tile at `(h, w, co)` as the triple sum over the padded image the two row blocks make up. -/
theorem tile_value (xa xb : Vec Ideal S1x28x32x512 .bf16) (wk : Vec Ideal S3x1536x512 .bf16) (b : Vec Ideal S1x512 .f32)
    (h : Fin 28) (w : Fin 28) (co : Fin 512) :
    tile (F := Ideal) xa xb wk b (ix4 0 h w co)
      = max ((∑ dy : Fin 3, ∑ dx : Fin 3, ∑ ci : Fin 512,
                pix xa xb ⟨h.val + dy.val, by omega⟩ ⟨w.val + dx.val, by omega⟩ ci
                  * wk (ix3 dx ⟨dy.val * 512 + ci.val, by omega⟩ co))
              + b (ix2 0 co)) 0 := by
  rw [tile_apply, acc_apply]

variable (V : (c : Dev nD) → (b : Ref sig .tc) → Buf (Elt Ideal) ((c : Thread nD τ).loc b))

/-- THE REGION'S OUTPUT, element by element: sum over the vertical tap `dy`, the horizontal tap `dx` and the input
    channel `ci` of padded input times weight, plus the bias, rectified. -/
theorem out_value (c : Dev nD) (n : Fin 32) (h : Fin 28) (w : Fin 28) (co : Fin 512) :
    yOut V c (ix4 n h w co)
      = max ((∑ dy : Fin 3, ∑ dx : Fin 3, ∑ ci : Fin 512,
                xp V c (ix4 n ⟨h.val + dy.val, by omega⟩ ⟨w.val + dx.val, by omega⟩ ci)
                  * wk V c (ix3 dx ⟨dy.val * 512 + ci.val, by omega⟩ co))
              + bias V c (ix2 0 co)) 0 :=
  out_of_tile V tile_value c n h w co

end Cert.KernelIdeal.Reg15
-- ==== Proof.KI.GluePad15.lean ====
/-
  The border of zeros put around the stack of 512 channels at 28 × 28 before region 15: the stretch converts
  the integer 0 to a float and pads the stack, one position in front of rows and columns and the rest behind, to
  56 rows and 32 columns. Index by index the padded stack is the stack read one row up and one column left
  where that lies inside it, and 0 elsewhere.
-/
import proofs.«143011_g2000502688546152_pallasbulk_1201_3_alg».proof.Proof.KI.GenRegions
import proofs.«143011_g2000502688546152_pallasbulk_1201_3_alg».proof.Proof.Spec.PadIdx
import Idealize.ShloMosaic.Lib.StableHlo.Run

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

/-- What the stretch leaves in the padded stack, from any contents `V` that have the integer 0 in its constant. -/
theorem pad_15 (V : Valuation τ sig (Elt Ideal)) (hc : V main_c_16 = constantI S_ 32 0#32)
    (n : Fin 32) (i : Fin 56) (j : Fin 32) (ci : Fin 512) :
    (StableHlo.after hostOps15_1 V main_v75 : FVec Ideal S32x56x32x512 .bf16) (ix4 n i j ci)
      = Cert.Spec.padAt (Cert.Spec.curry4 (V main_v74 : FVec Ideal S32x28x28x512 .bf16)) n i.val j.val ci := by
  have h : StableHlo.after hostOps15_1 V main_v75
      = pad S32x56x32x512 ![0, 1, 1, 0] ![0, 27, 3, 0] ![0, 0, 0, 0] (V main_v74) (sitofp (F := Ideal) .bf16 (V main_c_16))
          pads_S32x28x28x512_S32x56x32x512_000_1270_130_000 h_S_ := by
    after_results; rfl
  rw [h, hc]
  exact Cert.Spec.pad_border _ _ _ h_S_ (by
    simp only [sitofp, constantI]
    show (((0#32 : BitVec 32).toInt : ℝ) : EReal) = 0
    simp) n i j ci

end Cert.KernelIdeal.Glue

end
-- ==== Proof.KI.GlueW15.lean ====
/-
  The weights of region 15 as the region finds them: the [3, 3, 512, 512] parameter array with its two tap axes
  exchanged, the row tap and the input channel then read as one axis of 1536 (row tap major), narrowed to the shorter
  float format. Entry (column tap, row tap · 512 + input channel, output channel) is the parameter array's entry
  (row tap, column tap, input channel, output channel).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem wk_15 (V : Valuation τ sig (Elt Ideal)) (dy dx : Fin 3) (ci : Fin 512) (co : Fin 512)
    (hk : dy.val * 512 + ci.val < 1536) :
    (StableHlo.after hostOps15_2 V main_v78 : FVec Ideal S3x1536x512 .bf16) (ix3 dx ⟨dy.val * 512 + ci.val, hk⟩ co)
      = (V main_arg20 : FVec Ideal S3x3x512x512 .f32) (ix4 dy dx ci co) := by
  have h : StableHlo.after hostOps15_2 V main_v78
      = truncf (F := Ideal) .bf16 (shapeCast S3x1536x512 (transpose S3x3x512x512 [1, 0, 2, 3] (V main_arg20) transposes_S3x3x512x512_S3x3x512x512_1_0_2_3) shapeCasts_S3x3x512x512_S3x1536x512) bitsLt_bf16_f32 := by
    after_results; rfl
  rw [h]
  exact (Cert.Spec.reshape_taps (transpose S3x3x512x512 [1, 0, 2, 3] (V main_arg20) transposes_S3x3x512x512_S3x3x512x512_1_0_2_3) _ dx dy ci co hk rfl).trans
    (Cert.Spec.transpose_1023_apply (V main_arg20) transposes_S3x3x512x512_S3x3x512x512_1_0_2_3 dx dy ci co)

end Cert.KernelIdeal.Glue

end
-- ==== Proof.KI.RunValCore15.lean ====
import proofs.«143011_g2000502688546152_pallasbulk_1201_3_alg».proof.Proof.KI.Reg15Value
import proofs.«143011_g2000502688546152_pallasbulk_1201_3_alg».proof.Proof.KI.GluePad15
import proofs.«143011_g2000502688546152_pallasbulk_1201_3_alg».proof.Proof.KI.GlueW15
import proofs.«143011_g2000502688546152_pallasbulk_1201_3_alg».proof.Proof.Spec.ArgsOf
import proofs.«143011_g2000502688546152_pallasbulk_1201_3_alg».proof.Proof.Spec.FlatIdx

/-! # Region 15 between its neighbours: a convolution layer of the network

If the stack of images the zero border is put around is `aPrev`, the region leaves the 3×3 convolution of `aPrev` with
the [3, 3, 512, 512] parameter array, plus the bias row, clamped below at zero. The two stretches of host operations in
front of the region put the zero border around the stack and lay the parameter array out as [3, 3·512, 512] — column tap first, then row tap and input channel together — in the narrower float format. -/

set_option maxRecDepth 16384

noncomputable section

namespace Cert.KernelIdeal.RunVal

open Cert.KernelIdeal Cert.KernelIdeal.Gen
open Idealize.ShloMosaic Idealize.ShloMosaic.TcCoe Idealize.ShloMosaic.StableHlo Idealize.ShloMosaic.ValueIdx
open Idealize.SL Idealize.SL.Sem

/-- The stretch in front of the border stretch leaves the integer 0 in the constant the border is filled from. -/
theorem cst_15 (V : Valuation τ sig (Elt Ideal)) : StableHlo.after hostOps15 V main_c_16 = constantI S_ 32 0#32 := by
  after_results <;> rfl

/-- From ANY contents `Wp` in front of the border stretch that hold the integer 0 in the stretch's constant and the
    stack `aPrev` in the array the border is put around: the region's output array, entry by entry. -/
theorem core_15 (Wp : Dev nD → Valuation τ sig (Elt Ideal)) (c : Dev nD)
    (hc : Wp c main_c_16 = constantI S_ 32 0#32)
    (aPrev : Cert.Spec.Act 32 28 28 512)
    (hprev : ∀ (n : Fin 32) (h : Fin 28) (w : Fin 28) (ci : Fin 512),
      (Wp c main_v74 : FVec Ideal S32x28x28x512 .bf16) (ix4 n h w ci) = aPrev n h w ci)
    (n : Fin 32) (h : Fin 28) (w : Fin 28) (co : Fin 512) :
    (Reg15.dat (F := Ideal) (fun c b => StableHlo.after hostOps15_2 (StableHlo.after hostOps15_1 (Wp c)) b) c).arrAt 4 cfg15.N
        (ix4 n h w co)
      = Cert.Spec.convRelu aPrev (Cert.Spec.curryW (Wp c main_arg20 : FVec Ideal S3x3x512x512 .f32))
          (Cert.Spec.curryB (Wp c main_arg21 : FVec Ideal S1x512 .f32)) n h w co := by
  refine (Reg15.out_value _ c n h w co).trans ?_
  have e9 : StableHlo.after hostOps15_2 (StableHlo.after hostOps15_1 (Wp c)) main_v75
      = StableHlo.after hostOps15_1 (Wp c) main_v75 :=
    StableHlo.after_of_writes_sub hostOps15_2 _ hostOps15_2_writes (by decide)
  have eW : StableHlo.after hostOps15_1 (Wp c) main_arg20 = Wp c main_arg20 :=
    StableHlo.after_of_writes_sub hostOps15_1 _ hostOps15_1_writes (by decide)
  have eB : StableHlo.after hostOps15_2 (StableHlo.after hostOps15_1 (Wp c)) main_arg21 = Wp c main_arg21 :=
    (StableHlo.after_of_writes_sub hostOps15_2 _ hostOps15_2_writes (by decide)).trans
      (StableHlo.after_of_writes_sub hostOps15_1 _ hostOps15_1_writes (by decide))
  unfold Cert.Spec.convRelu
  simp only [Cert.Spec.curryW_apply, Cert.Spec.curryB_apply]
  refine congrArg (fun s : EReal => max s 0) (congrArg₂ (fun a b : EReal => a + b) ?_ ?_)
  · refine Finset.sum_congr rfl fun dy _ => Finset.sum_congr rfl fun dx _ => Finset.sum_congr rfl fun ci _ => ?_
    refine congrArg₂ (fun a b : EReal => a * b) ?_ ?_
    · show (StableHlo.after hostOps15_2 (StableHlo.after hostOps15_1 (Wp c)) main_v75 : FVec Ideal S32x56x32x512 .bf16) _ = _
      rw [e9, Glue.pad_15 (Wp c) hc]
      refine congrArg (fun z : Cert.Spec.Act 32 28 28 512 => Cert.Spec.padAt z n _ _ ci) ?_
      funext n' h' w' ci'
      exact hprev n' h' w' ci'
    · show (StableHlo.after hostOps15_2 (StableHlo.after hostOps15_1 (Wp c)) main_v78 : FVec Ideal S3x1536x512 .bf16) _ = _
      rw [Glue.wk_15 _ dy dx ci co _, eW]
  · show (StableHlo.after hostOps15_2 (StableHlo.after hostOps15_1 (Wp c)) main_arg21 : FVec Ideal S1x512 .f32) _ = _
    rw [eB]

end Cert.KernelIdeal.RunVal
-- ==== Proof.KI.RunVal15.lean ====
import proofs.«143011_g2000502688546152_pallasbulk_1201_3_alg».proof.Proof.KI.RunChainAt
import proofs.«143011_g2000502688546152_pallasbulk_1201_3_alg».proof.Proof.KI.RunValCore15

/-! # Region 15 in the chain of contents: a convolution layer, from the stack in front of its border stretch to its output array -/

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- If the contents in front of the border stretch hold the stack `aPrev` in the array the border is put around, the
    contents after the region hold, in the region's output array, the convolution layer of `aPrev` with the launch's
    parameter array and bias row. -/
theorem val_15 (c : Dev nD) (aPrev : Cert.Spec.Act 32 28 28 512)
    (hprev : ∀ (n : Fin 32) (h : Fin 28) (w : Fin 28) (ci : Fin 512),
      (W49 m c main_v74 : FVec Ideal S32x28x28x512 .bf16) (ix4 n h w ci) = aPrev n h w ci) :
    ∀ (n : Fin 32) (h : Fin 28) (w : Fin 28) (co : Fin 512),
      (W52 m c main_v79 : FVec Ideal S32x28x28x512 .bf16) (ix4 n h w co)
        = Cert.Spec.convRelu aPrev
            (Cert.Spec.curryW (m ((c : Thread nD τ).loc main_arg20) : FVec Ideal S3x3x512x512 .f32))
            (Cert.Spec.curryB (m ((c : Thread nD τ).loc main_arg21) : FVec Ideal S1x512 .f32)) n h w co := by
  intro n h w co
  have hW : W49 m c main_arg20 = m ((c : Thread nD τ).loc main_arg20) := W49_arg m c _ (by decide)
  have hB : W49 m c main_arg21 = m ((c : Thread nD τ).loc main_arg21) := W49_arg m c _ (by decide)
  rw [W52_self, ← hW, ← hB]
  have hc : W49 m c main_c_16 = constantI S_ 32 0#32 := RunVal.cst_15 (W48 m c)
  exact RunVal.core_15 (W49 m) c hc aPrev hprev n h w co

/-- The same from the contents one stretch earlier: the stretch in between writes only the border's constant. -/
theorem val_15_from (c : Dev nD) (aPrev : Cert.Spec.Act 32 28 28 512)
    (hprev : ∀ (n : Fin 32) (h : Fin 28) (w : Fin 28) (ci : Fin 512),
      (W48 m c main_v74 : FVec Ideal S32x28x28x512 .bf16) (ix4 n h w ci) = aPrev n h w ci) :
    ∀ (n : Fin 32) (h : Fin 28) (w : Fin 28) (co : Fin 512),
      (W52 m c main_v79 : FVec Ideal S32x28x28x512 .bf16) (ix4 n h w co)
        = Cert.Spec.convRelu aPrev
            (Cert.Spec.curryW (m ((c : Thread nD τ).loc main_arg20) : FVec Ideal S3x3x512x512 .f32))
            (Cert.Spec.curryB (m ((c : Thread nD τ).loc main_arg21) : FVec Ideal S1x512 .f32)) n h w co :=
  val_15 m c aPrev fun n h w ci => by
    rw [W49_of m c main_v74 (by decide)]
    exact hprev n h w ci

end Cert.KernelIdeal.Run
-- ==== Proof.KI.RunActs.lean ====
/-
  The network's activations, region by region, as the pure functions of the arguments: the normalised stack of 32
  images; each convolution's output the convolution (bias, rectifier) of the activation before it; each pooling's
  output the 2×2 maximum of the activation before it. After each region the region's output array holds its
  activation, index by index; in particular after the second, fourth, seventh and tenth convolution the four
  feature levels.
-/
import proofs.«143011_g2000502688546152_pallasbulk_1201_3_alg».proof.Proof.KI.RunArgs
import proofs.«143011_g2000502688546152_pallasbulk_1201_3_alg».proof.Proof.KI.GlueNorm
import proofs.«143011_g2000502688546152_pallasbulk_1201_3_alg».proof.Proof.KI.RunVal0
import proofs.«143011_g2000502688546152_pallasbulk_1201_3_alg».proof.Proof.KI.RunVal1
import proofs.«143011_g2000502688546152_pallasbulk_1201_3_alg».proof.Proof.KI.RunVal3
import proofs.«143011_g2000502688546152_pallasbulk_1201_3_alg».proof.Proof.KI.RunVal4
import proofs.«143011_g2000502688546152_pallasbulk_1201_3_alg».proof.Proof.KI.RunVal5
import proofs.«143011_g2000502688546152_pallasbulk_1201_3_alg».proof.Proof.KI.RunVal7
import proofs.«143011_g2000502688546152_pallasbulk_1201_3_alg».proof.Proof.KI.RunVal8
import proofs.«143011_g2000502688546152_pallasbulk_1201_3_alg».proof.Proof.KI.RunVal9
import proofs.«143011_g2000502688546152_pallasbulk_1201_3_alg».proof.Proof.KI.RunVal10
import proofs.«143011_g2000502688546152_pallasbulk_1201_3_alg».proof.Proof.KI.RunVal12
import proofs.«143011_g2000502688546152_pallasbulk_1201_3_alg».proof.Proof.KI.RunVal13
import proofs.«143011_g2000502688546152_pallasbulk_1201_3_alg».proof.Proof.KI.RunVal14
import proofs.«143011_g2000502688546152_pallasbulk_1201_3_alg».proof.Proof.KI.RunVal15

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The normalised stack: input and target stacked, channels last, centred and scaled. -/
def act_in : Cert.Spec.Act 32 224 224 3 :=
  Cert.Spec.normalise (Cert.Spec.cat (args m c).inp (args m c).tgt)

/-- After the first host stretch the stack's buffer holds the normalised stack. -/
theorem in_eq (n : Fin 32) (h : Fin 224) (w : Fin 224) (ch : Fin 3) :
    (W1 m c main_v8 : FVec Ideal S32x224x224x3 .bf16) (ix4 n h w ch) = act_in m c n h w ch :=
  Cert.KernelIdeal.Glue.norm_0 (W0 m c) n h w ch

/-- Region 0's activation: the first convolution. -/
def act_0 : Cert.Spec.Act 32 224 224 64 :=
  Cert.Spec.convRelu (act_in m c) (args m c).P.w00 (args m c).P.b00
theorem act_0_eq (n : Fin 32) (h : Fin 224) (w : Fin 224) (ch : Fin 64) :
    (W4 m c main_v11 : FVec Ideal S32x224x224x64 .bf16) (ix4 n h w ch) = act_0 m c n h w ch :=
  val_0 m c (act_in m c) (in_eq m c) n h w ch

/-- Region 1's activation: the second convolution, 64 to 64 channels at 224 × 224. -/
def act_1 : Cert.Spec.Act 32 224 224 64 :=
  Cert.Spec.convRelu (act_0 m c) (args m c).P.w01 (args m c).P.b01
theorem act_1_eq (n : Fin 32) (h : Fin 224) (w : Fin 224) (ch : Fin 64) :
    (W8 m c main_v14 : FVec Ideal S32x224x224x64 .bf16) (ix4 n h w ch) = act_1 m c n h w ch :=
  val_1_from m c (act_0 m c) (act_0_eq m c) n h w ch

/-- Region 3's activation: the first 2×2 max pooling of the activation before it. -/
def act_3 : Cert.Spec.Act 32 112 112 64 := Cert.Spec.pool2x2 (act_1 m c)
theorem act_3_eq (n : Fin 32) (h : Fin 112) (w : Fin 112) (ch : Fin 64) :
    (W12 m c main_v23 : FVec Ideal S32x112x112x64 .bf16) (ix4 n h w ch) = act_3 m c n h w ch :=
  val_3 m c (act_1 m c) (fun n h w ch => by
    rw [W10_of m c main_v14 (by decide), W9_of m c main_v14 (by decide)]
    exact act_1_eq m c n h w ch) n h w ch

/-- Region 4's activation: the third convolution, 64 to 128 channels at 112 × 112. -/
def act_4 : Cert.Spec.Act 32 112 112 128 :=
  Cert.Spec.convRelu (act_3 m c) (args m c).P.w10 (args m c).P.b10
theorem act_4_eq (n : Fin 32) (h : Fin 112) (w : Fin 112) (ch : Fin 128) :
    (W16 m c main_v26 : FVec Ideal S32x112x112x128 .bf16) (ix4 n h w ch) = act_4 m c n h w ch :=
  val_4_from m c (act_3 m c) (act_3_eq m c) n h w ch

/-- Region 5's activation: the fourth convolution, 128 to 128 channels at 112 × 112. -/
def act_5 : Cert.Spec.Act 32 112 112 128 :=
  Cert.Spec.convRelu (act_4 m c) (args m c).P.w11 (args m c).P.b11
theorem act_5_eq (n : Fin 32) (h : Fin 112) (w : Fin 112) (ch : Fin 128) :
    (W20 m c main_v31 : FVec Ideal S32x112x112x128 .bf16) (ix4 n h w ch) = act_5 m c n h w ch :=
  val_5_from m c (act_4 m c) (act_4_eq m c) n h w ch

/-- Region 7's activation: the second 2×2 max pooling of the activation before it. -/
def act_7 : Cert.Spec.Act 32 56 56 128 := Cert.Spec.pool2x2 (act_5 m c)
theorem act_7_eq (n : Fin 32) (h : Fin 56) (w : Fin 56) (ch : Fin 128) :
    (W24 m c main_v40 : FVec Ideal S32x56x56x128 .bf16) (ix4 n h w ch) = act_7 m c n h w ch :=
  val_7 m c (act_5 m c) (fun n h w ch => by
    rw [W22_of m c main_v31 (by decide), W21_of m c main_v31 (by decide)]
    exact act_5_eq m c n h w ch) n h w ch

/-- Region 8's activation: the fifth convolution, 128 to 256 channels at 56 × 56. -/
def act_8 : Cert.Spec.Act 32 56 56 256 :=
  Cert.Spec.convRelu (act_7 m c) (args m c).P.w20 (args m c).P.b20
theorem act_8_eq (n : Fin 32) (h : Fin 56) (w : Fin 56) (ch : Fin 256) :
    (W28 m c main_v45 : FVec Ideal S32x56x56x256 .bf16) (ix4 n h w ch) = act_8 m c n h w ch :=
  val_8_from m c (act_7 m c) (act_7_eq m c) n h w ch

/-- Region 9's activation: the sixth convolution, 256 to 256 channels at 56 × 56. -/
def act_9 : Cert.Spec.Act 32 56 56 256 :=
  Cert.Spec.convRelu (act_8 m c) (args m c).P.w21 (args m c).P.b21
theorem act_9_eq (n : Fin 32) (h : Fin 56) (w : Fin 56) (ch : Fin 256) :
    (W32 m c main_v50 : FVec Ideal S32x56x56x256 .bf16) (ix4 n h w ch) = act_9 m c n h w ch :=
  val_9_from m c (act_8 m c) (act_8_eq m c) n h w ch

/-- Region 10's activation: the seventh convolution, 256 to 256 channels at 56 × 56. -/
def act_10 : Cert.Spec.Act 32 56 56 256 :=
  Cert.Spec.convRelu (act_9 m c) (args m c).P.w22 (args m c).P.b22
theorem act_10_eq (n : Fin 32) (h : Fin 56) (w : Fin 56) (ch : Fin 256) :
    (W36 m c main_v55 : FVec Ideal S32x56x56x256 .bf16) (ix4 n h w ch) = act_10 m c n h w ch :=
  val_10_from m c (act_9 m c) (act_9_eq m c) n h w ch

/-- Region 12's activation: the third 2×2 max pooling of the activation before it. -/
def act_12 : Cert.Spec.Act 32 28 28 256 := Cert.Spec.pool2x2 (act_10 m c)
theorem act_12_eq (n : Fin 32) (h : Fin 28) (w : Fin 28) (ch : Fin 256) :
    (W40 m c main_v64 : FVec Ideal S32x28x28x256 .bf16) (ix4 n h w ch) = act_12 m c n h w ch :=
  val_12 m c (act_10 m c) (fun n h w ch => by
    rw [W38_of m c main_v55 (by decide), W37_of m c main_v55 (by decide)]
    exact act_10_eq m c n h w ch) n h w ch

/-- Region 13's activation: the eighth convolution, 256 to 512 channels at 28 × 28. -/
def act_13 : Cert.Spec.Act 32 28 28 512 :=
  Cert.Spec.convRelu (act_12 m c) (args m c).P.w30 (args m c).P.b30
theorem act_13_eq (n : Fin 32) (h : Fin 28) (w : Fin 28) (ch : Fin 512) :
    (W44 m c main_v69 : FVec Ideal S32x28x28x512 .bf16) (ix4 n h w ch) = act_13 m c n h w ch :=
  val_13_from m c (act_12 m c) (act_12_eq m c) n h w ch

/-- Region 14's activation: the ninth convolution, 512 to 512 channels at 28 × 28. -/
def act_14 : Cert.Spec.Act 32 28 28 512 :=
  Cert.Spec.convRelu (act_13 m c) (args m c).P.w31 (args m c).P.b31
theorem act_14_eq (n : Fin 32) (h : Fin 28) (w : Fin 28) (ch : Fin 512) :
    (W48 m c main_v74 : FVec Ideal S32x28x28x512 .bf16) (ix4 n h w ch) = act_14 m c n h w ch :=
  val_14_from m c (act_13 m c) (act_13_eq m c) n h w ch

/-- Region 15's activation: the tenth convolution, 512 to 512 channels at 28 × 28. -/
def act_15 : Cert.Spec.Act 32 28 28 512 :=
  Cert.Spec.convRelu (act_14 m c) (args m c).P.w32 (args m c).P.b32
theorem act_15_eq (n : Fin 32) (h : Fin 28) (w : Fin 28) (ch : Fin 512) :
    (W52 m c main_v79 : FVec Ideal S32x28x28x512 .bf16) (ix4 n h w ch) = act_15 m c n h w ch :=
  val_15_from m c (act_14 m c) (act_14_eq m c) n h w ch

/-! ## The four feature levels -/
theorem act_1_lvl : act_1 m c = Cert.Spec.lvl0 (args m c).P (act_in m c) := rfl
theorem act_5_lvl : act_5 m c = Cert.Spec.lvl1 (args m c).P (act_in m c) := rfl
theorem act_10_lvl : act_10 m c = Cert.Spec.lvl2 (args m c).P (act_in m c) := rfl
theorem act_15_lvl : act_15 m c = Cert.Spec.lvl3 (args m c).P (act_in m c) := rfl

theorem feat_0 (n : Fin 32) (h : Fin 224) (w : Fin 224) (ch : Fin 64) :
    (W8 m c main_v14 : FVec Ideal S32x224x224x64 .bf16) (ix4 n h w ch)
      = Cert.Spec.lvl0 (args m c).P (act_in m c) n h w ch :=
  act_1_eq m c n h w ch
theorem feat_1 (n : Fin 32) (h : Fin 112) (w : Fin 112) (ch : Fin 128) :
    (W20 m c main_v31 : FVec Ideal S32x112x112x128 .bf16) (ix4 n h w ch)
      = Cert.Spec.lvl1 (args m c).P (act_in m c) n h w ch :=
  act_5_eq m c n h w ch
theorem feat_2 (n : Fin 32) (h : Fin 56) (w : Fin 56) (ch : Fin 256) :
    (W36 m c main_v55 : FVec Ideal S32x56x56x256 .bf16) (ix4 n h w ch)
      = Cert.Spec.lvl2 (args m c).P (act_in m c) n h w ch :=
  act_10_eq m c n h w ch
theorem feat_3 (n : Fin 32) (h : Fin 28) (w : Fin 28) (ch : Fin 512) :
    (W52 m c main_v79 : FVec Ideal S32x28x28x512 .bf16) (ix4 n h w ch)
      = Cert.Spec.lvl3 (args m c).P (act_in m c) n h w ch :=
  act_15_eq m c n h w ch

end Cert.KernelIdeal.Run

end
-- ==== Proof.KI.L1Sums.lean ====
import Idealize.ShloMosaic.Lib.ValueIdx
import Mathlib.Algebra.BigOperators.Fin
import Mathlib.Logic.Equiv.Fin.Basic

/-! # Finite sums re-indexed, for the L1-distance regions

Two facts about sums in a commutative monoid (the extended reals' addition is one): a sum over the index set of a
[1, 1, a, b] tile is the double sum over its rows and lanes; and the rows of nq consecutive tiles of tq rows each are
the nq · tq rows, so summing tile by tile is summing row by row. -/

noncomputable section

open scoped BigOperators

namespace Cert.KernelIdeal.L1Sums

open Idealize.ShloMosaic Idealize.ShloMosaic.ValueIdx

/-- The index set of a [1, 1, a, b] tile is the pairs (row, lane): the two unit coordinates carry nothing. -/
def tileEquiv {a b : Nat} : (⟨4, ![1, 1, a, b]⟩ : Shape).Idx ≃ Fin a × Fin b where
  toFun i := (i 2, i 3)
  invFun p := ix4 (0 : Fin 1) (0 : Fin 1) p.1 p.2
  left_inv i := by
    funext e
    match e with
    | ⟨0, _⟩ => exact (Fin.ext (Nat.lt_one_iff.mp (i 0).isLt)).symm
    | ⟨1, _⟩ => exact (Fin.ext (Nat.lt_one_iff.mp (i 1).isLt)).symm
    | ⟨2, _⟩ => rfl
    | ⟨3, _⟩ => rfl
  right_inv _ := rfl

/-- So a sum over the tile's indices is the double sum over rows and lanes. -/
theorem sum_tile {M : Type*} [AddCommMonoid M] {a b : Nat} (f : (⟨4, ![1, 1, a, b]⟩ : Shape).Idx → M) :
    ∑ i, f i = ∑ r : Fin a, ∑ k : Fin b, f (ix4 (0 : Fin 1) (0 : Fin 1) r k) := by
  rw [← Equiv.sum_comp (tileEquiv (a := a) (b := b)).symm f, Fintype.sum_prod_type]
  rfl

/-- Row `r` of tile `q` is row `r + tq · q` of the whole: summing tile by tile is summing over all the rows. -/
theorem sum_rowTiles {M : Type*} [AddCommMonoid M] (nq tq : Nat) (g : Fin (nq * tq) → M) :
    ∑ q : Fin nq, ∑ r : Fin tq, g (finProdFinEquiv (q, r)) = ∑ p : Fin (nq * tq), g p :=
  (Fintype.sum_prod_type fun x : Fin nq × Fin tq => g (finProdFinEquiv x)).symm.trans (Equiv.sum_comp finProdFinEquiv g)

/-- The position of row `r` of tile `q` among all the rows. -/
theorem rowTiles_val (nq tq : Nat) (q : Fin nq) (r : Fin tq) : (finProdFinEquiv (q, r) : Fin (nq * tq)).val = r.val + tq * q.val := rfl

end Cert.KernelIdeal.L1Sums

end
-- ==== Proof.KI.Reg2Value.lean ====
import proofs.«143011_g2000502688546152_pallasbulk_1201_3_alg».proof.Proof.KI.Reg2
import proofs.«143011_g2000502688546152_pallasbulk_1201_3_alg».proof.Proof.KI.L1Sums
import Idealize.ShloMosaic.Lib.Pipeline.Value
import Idealize.ShloMosaic.Lib.ValueIdx
import Idealize.ShloMosaic.Lib.ValueLayout
import Idealize.ShloMosaic.PureOps.Ideal.Laws

/-! # Region 2 at the ideal values: the result array, index by index

Every entry (a, b) of image n's (8, 128) result tile is the same number: the sum over the 6272 × 512 feature rows of
|x[n] − x[n + 16]|, where |d| on the extended reals is max d (−d).  The steps: the body's arithmetic at an index (the
carried tile plus the tile's sum); where a tile's element sits in the array; the carried tile after the last row tile
of an image, as the sum of its 49 tiles' sums; the rows of the 49 tiles regrouped as the 6272 rows. -/

set_option maxRecDepth 16384

noncomputable section

namespace Cert.KernelIdeal.Reg2

open Idealize.ShloMosaic Idealize.ShloMosaic.TcCoe Idealize.SL.Sem
open Idealize.ShloMosaic.Pipeline (Dat)
open Idealize.ShloMosaic.ValueIdx
open Cert.KernelIdeal.Gen

/-! ## The body's arithmetic at an index -/

/-- The zero tile reads 0. -/
theorem zero_apply (j : S1x8x128.Idx) : (k2_pay1 (F := Ideal)) j = 0 := by
  unfold k2_pay1
  show (broadcast S1x8x128 (Scalar.ofBits (F := Ideal) .f32 0x00000000#32)) j = 0
  rw [broadcast_apply]
  exact Ideal.ofBits_zero_f32

/-- The carried tile plus the sum, over the tile's 128 rows and 512 lanes, of |x − y|. -/
theorem addDist_apply (x y : Vec Ideal S1x128x512 .bf16) (acc : Vec Ideal S1x8x128 .f32) (j : S1x8x128.Idx) :
    k2_pay2 x y acc j = acc j + ∑ r : Fin 128, ∑ k : Fin 512,
      max (x (ix3 (0 : Fin 1) r k) - y (ix3 (0 : Fin 1) r k)) (-(x (ix3 (0 : Fin 1) r k) - y (ix3 (0 : Fin 1) r k))) := by
  unfold k2_pay2
  dsimp only
  rw [addf_apply, shapeCast_self, broadcast_apply]
  congr 1
  unfold extractAt
  refine (shapeCast_apply _ _ _ (ix1 (0 : Fin 1)) rfl).trans ?_
  refine (Ideal.multiReduction_add_total _ _ _ (fun b => by match b with | ⟨0, _⟩ => rfl) _ _ _).trans ?_
  rw [L1Sums.sum_tile]
  refine Finset.sum_congr rfl fun r _ => Finset.sum_congr rfl fun k _ => ?_
  have habs : ∀ (v : FVec Ideal S1x128x512 .f32) (i : S1x128x512.Idx), absf v i = max (v i) (-(v i)) := fun _ _ => rfl
  rw [shapeCast_abc_1abc_apply, habs, subf_apply, extf_apply, extf_apply, shapeCast_self, shapeCast_self]

variable (V : (c : Dev nD) → (b : Ref sig .tc) → Buf (Elt Ideal) ((c : Thread nD τ).loc b))

/-- The feature array both input windows read. -/
abbrev feat (c : Dev nD) : S32x6272x512.Idx → EReal := V c (Pipeline.arrRef spec2 0)

/-- The two inputs' tiles at a grid position, as functions into the extended reals. -/
abbrev tileX (c : Dev nD) (t : Fin cfg2.N) : S1x128x512.Idx → EReal := tile V c 0 t
abbrev tileY (c : Dev nD) (t : Fin cfg2.N) : S1x128x512.Idx → EReal := tile V c 1 t

/-! ## Where a tile's element sits in the array -/

/-- The tiles' positions along the grid's row-major order, decided over the grid: position t is image t / 49, row tile
    t % 49; the second input reads 16 images further; the result tile is image t / 49's. -/
theorem index_x : ∀ t : Fin cfg2.N, win2_0.index t (0 : Fin 3) = t.val / 49 ∧ win2_0.index t (1 : Fin 3) = t.val % 49 ∧ win2_0.index t (2 : Fin 3) = 0 :=
  (by decide +kernel : ∀ t : Fin grid2.N, win2_0.index t (0 : Fin 3) = t.val / 49 ∧ win2_0.index t (1 : Fin 3) = t.val % 49 ∧ win2_0.index t (2 : Fin 3) = 0)
theorem index_y : ∀ t : Fin cfg2.N, win2_1.index t (0 : Fin 3) = t.val / 49 + 16 ∧ win2_1.index t (1 : Fin 3) = t.val % 49 ∧ win2_1.index t (2 : Fin 3) = 0 :=
  (by decide +kernel : ∀ t : Fin grid2.N, win2_1.index t (0 : Fin 3) = t.val / 49 + 16 ∧ win2_1.index t (1 : Fin 3) = t.val % 49 ∧ win2_1.index t (2 : Fin 3) = 0)
theorem index_o : ∀ t : Fin cfg2.N, win2_2.index t (0 : Fin 3) = t.val / 49 ∧ win2_2.index t (1 : Fin 3) = 0 ∧ win2_2.index t (2 : Fin 3) = 0 :=
  (by decide +kernel : ∀ t : Fin grid2.N, win2_2.index t (0 : Fin 3) = t.val / 49 ∧ win2_2.index t (1 : Fin 3) = 0 ∧ win2_2.index t (2 : Fin 3) = 0)

/-- Row r, lane k of the first input's tile at position t is the array at (image, 128 · row tile + r, k). -/
theorem tile_x_apply (c : Dev nD) (t : Fin cfg2.N) (r : Fin 128) (k : Fin 512) (n : Fin 32) (p : Fin 6272)
    (hn : n.val = t.val / 49) (hp : p.val = t.val % 49 * 128 + r.val) :
    tileX V c t (ix3 (0 : Fin 1) r k) = feat V c (ix3 n p k) := by
  show V c (Pipeline.arrRef spec2 0) (((cfg2.win 0).blk t).view.emb (ix3 (0 : Fin 1) r k)) = V c (Pipeline.arrRef spec2 0) (ix3 n p k)
  obtain ⟨e0, e1, e2⟩ := index_x t
  refine congrArg _ (funext fun a => Fin.ext ?_)
  match a with
  | ⟨0, _⟩ => show win2_0.index t (0 : Fin 3) * 1 + 1 * 0 = n.val; omega
  | ⟨1, _⟩ => show win2_0.index t (1 : Fin 3) * 128 + 1 * r.val = p.val; omega
  | ⟨2, _⟩ => show win2_0.index t (2 : Fin 3) * 512 + 1 * k.val = k.val; omega

/-- The same of the second input's tile, 16 images further. -/
theorem tile_y_apply (c : Dev nD) (t : Fin cfg2.N) (r : Fin 128) (k : Fin 512) (n : Fin 32) (p : Fin 6272)
    (hn : n.val = t.val / 49 + 16) (hp : p.val = t.val % 49 * 128 + r.val) :
    tileY V c t (ix3 (0 : Fin 1) r k) = feat V c (ix3 n p k) := by
  show V c (Pipeline.arrRef spec2 1) (((cfg2.win 1).blk t).view.emb (ix3 (0 : Fin 1) r k)) = V c (Pipeline.arrRef spec2 0) (ix3 n p k)
  obtain ⟨e0, e1, e2⟩ := index_y t
  refine congrArg _ (funext fun a => Fin.ext ?_)
  match a with
  | ⟨0, _⟩ => show win2_1.index t (0 : Fin 3) * 1 + 1 * 0 = n.val; omega
  | ⟨1, _⟩ => show win2_1.index t (1 : Fin 3) * 128 + 1 * r.val = p.val; omega
  | ⟨2, _⟩ => show win2_1.index t (2 : Fin 3) * 512 + 1 * k.val = k.val; omega

/-! ## The carried tile after an image's last row tile -/

/-- The sum of |x[n] − x[n + 16]| over the tile at grid position `p` (zero past the grid). -/
def tileDist (c : Dev nD) (p : ℕ) : EReal :=
  if h : p < cfg2.N then
    ∑ r : Fin 128, ∑ k : Fin 512,
      max (tileX V c ⟨p, h⟩ (ix3 (0 : Fin 1) r k) - tileY V c ⟨p, h⟩ (ix3 (0 : Fin 1) r k))
        (-(tileX V c ⟨p, h⟩ (ix3 (0 : Fin 1) r k) - tileY V c ⟨p, h⟩ (ix3 (0 : Fin 1) r k)))
  else 0

/-- One point's work at an index: the carried entry plus the tile's sum. -/
theorem addDist_at (c : Dev nD) (t : Fin cfg2.N) (acc : Vec Ideal S1x8x128 .f32) (j : S1x8x128.Idx) :
    addDist V c t acc j = acc j + tileDist V c t.val := by
  unfold tileDist; rw [dif_pos t.isLt]
  exact addDist_apply _ _ acc j

/-- After the last row tile of image n, every entry of the carried tile is the sum of the image's 49 tiles' sums. -/
theorem running_last (c : Dev nD) (n : ℕ) (h : 49 * n + 48 < cfg2.N) (j : S1x8x128.Idx) :
    running V c (49 * n + 48) h j = ∑ s ∈ Finset.range 49, tileDist V c (49 * n + s) := by
  rw [Pipeline.eq_accAt (running V c) 49 (fun p hp => addDist V c ⟨p, hp⟩ zeroTile) (fun p hp acc => addDist V c ⟨p, hp⟩ acc)
    (fun p hp h0 => running_first V c ⟨p, hp⟩ h0) (fun p hp hs => running_next V c ⟨p + 1, hp⟩ hs) n 48 (by omega) h]
  rw [Pipeline.accAt_add_apply (fun p hp => addDist V c ⟨p, hp⟩ zeroTile) (fun p hp acc => addDist V c ⟨p, hp⟩ acc)
    (fun _ => (0 : EReal)) (fun p _ => tileDist V c p) (49 * n) 48
    (fun hb i => by show addDist V c ⟨49 * n, hb⟩ zeroTile i = 0 + tileDist V c (49 * n); rw [addDist_at]; exact congrArg (fun z => z + tileDist V c (49 * n)) (zero_apply i))
    (fun p hp acc i _ _ => addDist_at V c ⟨p, hp⟩ acc i) 48 le_rfl h j]
  exact zero_add _

/-! ## The result array -/

/-- The result array as one function of the index: at (n, a, b), the sum of image n's 49 tiles' sums. -/
def total (c : Dev nD) : S16x8x128.Idx → EReal := fun i => ∑ s ∈ Finset.range 49, tileDist V c (49 * (i 0).val + s)

/-- What the last row tile of an image writes back is that image's tile of `total`. -/
theorem flushed_eq (c : Dev nD) (t : Fin cfg2.N) (hf : (cfg2.win 2).flush t = true) :
    (dat V c).flushed 2 t = ((cfg2.win 2).blk t).view.read (Elt Ideal) (total V c) := by
  have h6 : t.val % 49 = 48 := (flush2_2 t).mp hf
  show (cfg2.win 2).cut (grid2.coords t) ((dat V c).after 2 t) = _
  rw [after_sum]
  funext y
  show running V c t.val t.isLt y = total V c (((cfg2.win 2).blk t).view.emb y)
  have e0 : ((((cfg2.win 2).blk t).view.emb y) 0).val = t.val / 49 := by
    show win2_2.index t (0 : Fin 3) * 1 + 1 * (y 0).val = t.val / 49
    have hy : (y 0).val < 1 := (y 0).isLt
    rw [(index_o t).1]; omega
  have same : ∀ (u : ℕ) (hu : u < cfg2.N), u = t.val → running V c t.val t.isLt y = running V c u hu y :=
    fun u hu e => by subst e; rfl
  have hlt : 49 * (t.val / 49) + 48 < cfg2.N := by have := t.isLt; omega
  rw [same (49 * (t.val / 49) + 48) hlt (by omega), running_last V c (t.val / 49) hlt y]
  unfold total; rw [e0]

/-- An index of the result array is in position t's tile iff each coordinate is in the tile's range on its axis. -/
theorem mem_tile_o (t : Fin cfg2.N) (i : S16x8x128.Idx) :
    i ∈ ((cfg2.win 2).blk t).view.set ↔ ∀ a : Fin 3, win2_2.index t a * S1x8x128.size a ≤ (i a).val ∧ (i a).val < win2_2.index t a * S1x8x128.size a + S1x8x128.size a := by
  show i ∈ ((View.whole (Pipeline.arrRef spec2 2)).slice (win2_2.rect t)).set ↔ _
  rw [View.set_slice_whole, Rect.mem_set_unit]
  exact Iff.rfl

/-- The whole result array after the last point. -/
theorem final (c : Dev nD) : (dat V c).arrAt 2 cfg2.N = total V c :=
  (dat V c).arrAt_eq_of_cover 2 (total V c) (flushed_eq V c) fun i => by
    have hi0 : (i 0).val < 16 := (i 0).isLt
    have hi1 : (i 1).val < 8 := (i 1).isLt
    have hi2 : (i 2).val < 128 := (i 2).isLt
    have hN : cfg2.N = 16 * 49 := N_2
    refine ⟨⟨49 * (i 0).val + 48, by rw [hN]; omega⟩, (flush2_2 _).mpr (by show (49 * (i 0).val + 48) % 49 = 48; omega), ?_⟩
    rw [mem_tile_o]
    obtain ⟨e0, e1, e2⟩ := index_o ⟨49 * (i 0).val + 48, by rw [hN]; omega⟩
    have d0 : (49 * (i 0).val + 48) / 49 = (i 0).val := by omega
    intro a
    match a with
    | ⟨0, _⟩ => show win2_2.index _ (0 : Fin 3) * 1 ≤ (i 0).val ∧ (i 0).val < win2_2.index _ (0 : Fin 3) * 1 + 1; rw [e0]; dsimp only; omega
    | ⟨1, _⟩ => show win2_2.index _ (1 : Fin 3) * 8 ≤ (i 1).val ∧ (i 1).val < win2_2.index _ (1 : Fin 3) * 8 + 8; rw [e1]; omega
    | ⟨2, _⟩ => show win2_2.index _ (2 : Fin 3) * 128 ≤ (i 2).val ∧ (i 2).val < win2_2.index _ (2 : Fin 3) * 128 + 128; rw [e2]; omega

/-- THE RESULT ARRAY after the last point: every entry of image n's tile is the sum over the 6272 × 512 feature rows of
    |x[n] − x[n + 16]| (the 49 tiles of 128 rows are the 6272 rows). -/
theorem value (c : Dev nD) (n : Fin 16) (a : Fin 8) (b : Fin 128) :
    ((dat (F := Ideal) V c).arrAt 2 cfg2.N : S16x8x128.Idx → EReal) (ix3 n a b)
      = ∑ q : Fin 6272, ∑ k : Fin 512,
          max (feat V c (ix3 (⟨n.val, by omega⟩ : Fin 32) q k) - feat V c (ix3 (⟨n.val + 16, by omega⟩ : Fin 32) q k))
            (-(feat V c (ix3 (⟨n.val, by omega⟩ : Fin 32) q k) - feat V c (ix3 (⟨n.val + 16, by omega⟩ : Fin 32) q k))) := by
  have hN : cfg2.N = 16 * 49 := N_2
  have hn : n.val < 16 := n.isLt
  rw [final]
  show ∑ s ∈ Finset.range 49, tileDist V c (49 * n.val + s) = _
  rw [Finset.sum_range]
  refine Eq.trans ?_ (L1Sums.sum_rowTiles 49 128 (fun p : Fin (49 * 128) => ∑ k : Fin 512,
    max (feat V c (ix3 (⟨n.val, by omega⟩ : Fin 32) p k) - feat V c (ix3 (⟨n.val + 16, by omega⟩ : Fin 32) p k))
      (-(feat V c (ix3 (⟨n.val, by omega⟩ : Fin 32) p k) - feat V c (ix3 (⟨n.val + 16, by omega⟩ : Fin 32) p k)))))
  refine Finset.sum_congr rfl fun s _ => ?_
  have hs : s.val < 49 := s.isLt
  have hlt : 49 * n.val + s.val < cfg2.N := by rw [hN]; omega
  unfold tileDist; rw [dif_pos hlt]
  refine Finset.sum_congr rfl fun r _ => ?_
  beta_reduce
  refine Finset.sum_congr rfl fun k _ => ?_
  have hr : r.val < 128 := r.isLt
  rw [tile_x_apply V c ⟨_, hlt⟩ r k ⟨n.val, by omega⟩ (finProdFinEquiv (s, r))
      (by show n.val = (49 * n.val + s.val) / 49; omega)
      (by show r.val + 128 * s.val = (49 * n.val + s.val) % 49 * 128 + r.val; omega),
    tile_y_apply V c ⟨_, hlt⟩ r k ⟨n.val + 16, by omega⟩ (finProdFinEquiv (s, r))
      (by show n.val + 16 = (49 * n.val + s.val) / 49 + 16; omega)
      (by show r.val + 128 * s.val = (49 * n.val + s.val) % 49 * 128 + r.val; omega)]

end Cert.KernelIdeal.Reg2

end
-- ==== Proof.KI.GlueFlat0.lean ====
/-
  The features of the first level as the sums' region finds them: the stack 32 × 224 × 224 × 64 read in rows of 512
  consecutive entries of its row-major order, 6272 rows to an image. Entry (n, q, k) is the stack's entry at position
  (n · 6272 + q) · 512 + k.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem flat_0 (V : Valuation τ sig (Elt Ideal)) (n : Fin 32) (q : Fin 6272) (k : Fin 512) :
    (StableHlo.after hostOps2 V main_v15 : FVec Ideal S32x6272x512 .bf16) (ix3 n q k)
      = Cert.Spec.flat (Cert.Spec.curry4 (V main_v14 : FVec Ideal S32x224x224x64 .bf16)) ((n.val * 6272 + q.val) * 512 + k.val) := by
  have h : StableHlo.after hostOps2 V main_v15 = shapeCast S32x6272x512 (V main_v14) shapeCasts_S32x224x224x64_S32x6272x512 := by
    after_results <;> rfl
  rw [h]
  exact Cert.Spec.flat_reshape3 _ _ n q k

end Cert.KernelIdeal.Glue

end
-- ==== Proof.KI.GlueSlice.lean ====
/-
  The first entry of each image's tile of sums: the [16, 8, 128] array of per-image sums (every entry of an image's
  tile holds the image's sum) cut to [16, 1, 1] at the origin and read as [16]. Entry n is the array's entry (n, 0, 0).
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem first_of_tile {α : Type} (x : S16x8x128.Idx → α) (n : Fin 16) :
    shapeCast S16 (extractStridedSlice S16x1x1 ![0, 0, 0] x slices_S16x8x128_S16x1x1_0_0_0) shapeCasts_S16x1x1_S16 (ix1 n)
      = x (ix3 n (0 : Fin 8) (0 : Fin 128)) := by
  rw [shapeCast_apply _ _ _ (ix3 n (0 : Fin 1) (0 : Fin 1)) (by
    rw [Shape.rowMajor_val_one, Shape.rowMajor_val_three]; simp [ix1, ix3])]
  exact extractStridedSlice_apply _ _ _ _ _ (fun a => by fin_cases a <;> simp [ix3])

end Cert.KernelIdeal.Glue

end
-- ==== Proof.KI.GlueMean0.lean ====
/-
  The mean absolute difference of the first feature level and the running total: the first entries of the sixteen
  images' tiles of sums added to 0, divided by the count, and added to 0.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost
import proofs.«143011_g2000502688546152_pallasbulk_1201_3_alg».proof.Proof.KI.GlueSlice

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem mean_0 (V : Valuation τ sig (Elt Ideal)) :
    (StableHlo.after hostOps3 V main_v21 : FVec Ideal S_ .f32) ix0
      = 0 + Ideal.div (0 + ∑ n : Fin 16, (show EReal from (V main_v16 : FVec Ideal S16x8x128 .f32) (ix3 n (0 : Fin 8) (0 : Fin 128))))
          (Ideal.ofBits .f32 0x4C440000#32) := by
  have h : StableHlo.after hostOps3 V main_v21
      = addf (constant (F := Ideal) S_ .f32 0x00000000#32)
          (Host.divf (Host.reduceAdd
              (shapeCast S16 (extractStridedSlice S16x1x1 ![0, 0, 0] (V main_v16) slices_S16x8x128_S16x1x1_0_0_0) shapeCasts_S16x1x1_S16)
              (constant (F := Ideal) S_ .f32 0x00000000#32) reducesTo_S16_S_d0 h_S_)
            (constant (F := Ideal) S_ .f32 0x4C440000#32)) := by
    after_results <;> rfl
  rw [h, addf_apply, hostDivf_apply, hostReduceAdd_apply, Cert.Spec.hostReduceAdd_all]
  simp only [constant_apply, Ideal.ofBits_zero_f32, first_of_tile]

end Cert.KernelIdeal.Glue

end
-- ==== Proof.KI.RunLvl0.lean ====
import proofs.«143011_g2000502688546152_pallasbulk_1201_3_alg».proof.Proof.KI.RunChainAt
import proofs.«143011_g2000502688546152_pallasbulk_1201_3_alg».proof.Proof.KI.Reg2Value
import proofs.«143011_g2000502688546152_pallasbulk_1201_3_alg».proof.Proof.KI.GlueFlat0
import proofs.«143011_g2000502688546152_pallasbulk_1201_3_alg».proof.Proof.KI.GlueMean0
import proofs.«143011_g2000502688546152_pallasbulk_1201_3_alg».proof.Proof.Spec.Defs
import proofs.«143011_g2000502688546152_pallasbulk_1201_3_alg».proof.Proof.Spec.FlatIdx

/-! # Feature level 0 of the batch arrangement: the mean absolute difference joins the running total

The level's features are a stack of 32 images [32, 224, 224, 64]. Read in rows of 512 consecutive entries of the row-major
order, 6272 rows to an image, they are the array the sums' region finds; the region leaves, for each of the first 16
images, the sum of |entry of image n − entry of image n + 16| in every entry of that image's tile; the host then adds
the sixteen first entries to 0, divides by the count and adds the quotient to the running total. -/

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The array the sums' region finds, entry (n, q, k): the feature stack's entry at position (n · 6272 + q) · 512 + k of
    its row-major order. -/
theorem rows_0 (f : Cert.Spec.Act 32 224 224 64)
    (hfeat : ∀ n h w ch, (W8 m c main_v14 : FVec Ideal S32x224x224x64 .bf16) (ix4 n h w ch) = f n h w ch)
    (n : Fin 32) (q : Fin 6272) (k : Fin 512) :
    Reg2.feat (U9 m) c (ix3 n q k) = Cert.Spec.flat f ((n.val * 6272 + q.val) * 512 + k.val) := by
  show (W9 m c main_v15 : FVec Ideal S32x6272x512 .bf16) (ix3 n q k) = _
  unfold W9
  rw [Glue.flat_0 (W8 m c) n q k]
  have hc : Cert.Spec.curry4 (W8 m c main_v14 : FVec Ideal S32x224x224x64 .bf16) = f :=
    funext fun n => funext fun h => funext fun w => funext fun ch => hfeat n h w ch
  rw [hc]

/-- THE LEVEL: the running total after this level's host stretch is the total before it plus the level's mean
    absolute difference in the batch arrangement. -/
theorem lvl_0 (f : Cert.Spec.Act 32 224 224 64)
    (hfeat : ∀ n h w ch, (W8 m c main_v14 : FVec Ideal S32x224x224x64 .bf16) (ix4 n h w ch) = f n h w ch) :
    (W11 m c main_v21 : FVec Ideal S_ .f32) ix0 = 0 + Cert.Spec.l1K 6272 f Cert.Spec.total0 := by
  unfold W11
  rw [Glue.mean_0 (W10 m c)]
  refine congrArg (fun s => 0 + s) ?_
  unfold Cert.Spec.l1K
  refine congrArg (fun s => Ideal.div (0 + s) (Ideal.ofBits .f32 0x4C440000#32)) ?_
  refine Finset.sum_congr rfl fun n _ => ?_
  rw [W10_self m c]
  unfold out2
  refine (Reg2.value (U9 m) c n (0 : Fin 8) (0 : Fin 128)).trans ?_
  show @Eq EReal _ _
  unfold Cert.Spec.l1PartK Cert.Spec.eabs
  refine Finset.sum_congr rfl fun q _ => Finset.sum_congr rfl fun k _ => ?_
  rw [rows_0 m c f hfeat, rows_0 m c f hfeat]

end Cert.KernelIdeal.Run

end
-- ==== Proof.KI.Reg6Value.lean ====
import proofs.«143011_g2000502688546152_pallasbulk_1201_3_alg».proof.Proof.KI.Reg6
import proofs.«143011_g2000502688546152_pallasbulk_1201_3_alg».proof.Proof.KI.L1Sums
import Idealize.ShloMosaic.Lib.Pipeline.Value
import Idealize.ShloMosaic.Lib.ValueIdx
import Idealize.ShloMosaic.Lib.ValueLayout
import Idealize.ShloMosaic.PureOps.Ideal.Laws

/-! # Region 6 at the ideal values: the result array, index by index

Every entry (a, b) of image n's (8, 128) result tile is the same number: the sum over the 3136 × 512 feature rows of
|x[n] − x[n + 16]|, where |d| on the extended reals is max d (−d).  The steps: the body's arithmetic at an index (the
carried tile plus the tile's sum); where a tile's element sits in the array; the carried tile after the last row tile
of an image, as the sum of its 28 tiles' sums; the rows of the 28 tiles regrouped as the 3136 rows. -/

set_option maxRecDepth 16384

noncomputable section

namespace Cert.KernelIdeal.Reg6

open Idealize.ShloMosaic Idealize.ShloMosaic.TcCoe Idealize.SL.Sem
open Idealize.ShloMosaic.Pipeline (Dat)
open Idealize.ShloMosaic.ValueIdx
open Cert.KernelIdeal.Gen

/-! ## The body's arithmetic at an index -/

/-- The zero tile reads 0. -/
theorem zero_apply (j : S1x8x128.Idx) : (k6_pay1 (F := Ideal)) j = 0 := by
  unfold k6_pay1
  show (broadcast S1x8x128 (Scalar.ofBits (F := Ideal) .f32 0x00000000#32)) j = 0
  rw [broadcast_apply]
  exact Ideal.ofBits_zero_f32

/-- The carried tile plus the sum, over the tile's 112 rows and 512 lanes, of |x − y|. -/
theorem addDist_apply (x y : Vec Ideal S1x112x512 .bf16) (acc : Vec Ideal S1x8x128 .f32) (j : S1x8x128.Idx) :
    k6_pay2 x y acc j = acc j + ∑ r : Fin 112, ∑ k : Fin 512,
      max (x (ix3 (0 : Fin 1) r k) - y (ix3 (0 : Fin 1) r k)) (-(x (ix3 (0 : Fin 1) r k) - y (ix3 (0 : Fin 1) r k))) := by
  unfold k6_pay2
  dsimp only
  rw [addf_apply, shapeCast_self, broadcast_apply]
  congr 1
  unfold extractAt
  refine (shapeCast_apply _ _ _ (ix1 (0 : Fin 1)) rfl).trans ?_
  refine (Ideal.multiReduction_add_total _ _ _ (fun b => by match b with | ⟨0, _⟩ => rfl) _ _ _).trans ?_
  rw [L1Sums.sum_tile]
  refine Finset.sum_congr rfl fun r _ => Finset.sum_congr rfl fun k _ => ?_
  have habs : ∀ (v : FVec Ideal S1x112x512 .f32) (i : S1x112x512.Idx), absf v i = max (v i) (-(v i)) := fun _ _ => rfl
  rw [shapeCast_abc_1abc_apply, habs, subf_apply, extf_apply, extf_apply, shapeCast_self, shapeCast_self]

variable (V : (c : Dev nD) → (b : Ref sig .tc) → Buf (Elt Ideal) ((c : Thread nD τ).loc b))

/-- The feature array both input windows read. -/
abbrev feat (c : Dev nD) : S32x3136x512.Idx → EReal := V c (Pipeline.arrRef spec6 0)

/-- The two inputs' tiles at a grid position, as functions into the extended reals. -/
abbrev tileX (c : Dev nD) (t : Fin cfg6.N) : S1x112x512.Idx → EReal := tile V c 0 t
abbrev tileY (c : Dev nD) (t : Fin cfg6.N) : S1x112x512.Idx → EReal := tile V c 1 t

/-! ## Where a tile's element sits in the array -/

/-- The tiles' positions along the grid's row-major order, decided over the grid: position t is image t / 28, row tile
    t % 28; the second input reads 16 images further; the result tile is image t / 28's. -/
theorem index_x : ∀ t : Fin cfg6.N, win6_0.index t (0 : Fin 3) = t.val / 28 ∧ win6_0.index t (1 : Fin 3) = t.val % 28 ∧ win6_0.index t (2 : Fin 3) = 0 :=
  (by decide +kernel : ∀ t : Fin grid6.N, win6_0.index t (0 : Fin 3) = t.val / 28 ∧ win6_0.index t (1 : Fin 3) = t.val % 28 ∧ win6_0.index t (2 : Fin 3) = 0)
theorem index_y : ∀ t : Fin cfg6.N, win6_1.index t (0 : Fin 3) = t.val / 28 + 16 ∧ win6_1.index t (1 : Fin 3) = t.val % 28 ∧ win6_1.index t (2 : Fin 3) = 0 :=
  (by decide +kernel : ∀ t : Fin grid6.N, win6_1.index t (0 : Fin 3) = t.val / 28 + 16 ∧ win6_1.index t (1 : Fin 3) = t.val % 28 ∧ win6_1.index t (2 : Fin 3) = 0)
theorem index_o : ∀ t : Fin cfg6.N, win6_2.index t (0 : Fin 3) = t.val / 28 ∧ win6_2.index t (1 : Fin 3) = 0 ∧ win6_2.index t (2 : Fin 3) = 0 :=
  (by decide +kernel : ∀ t : Fin grid6.N, win6_2.index t (0 : Fin 3) = t.val / 28 ∧ win6_2.index t (1 : Fin 3) = 0 ∧ win6_2.index t (2 : Fin 3) = 0)

/-- Row r, lane k of the first input's tile at position t is the array at (image, 112 · row tile + r, k). -/
theorem tile_x_apply (c : Dev nD) (t : Fin cfg6.N) (r : Fin 112) (k : Fin 512) (n : Fin 32) (p : Fin 3136)
    (hn : n.val = t.val / 28) (hp : p.val = t.val % 28 * 112 + r.val) :
    tileX V c t (ix3 (0 : Fin 1) r k) = feat V c (ix3 n p k) := by
  show V c (Pipeline.arrRef spec6 0) (((cfg6.win 0).blk t).view.emb (ix3 (0 : Fin 1) r k)) = V c (Pipeline.arrRef spec6 0) (ix3 n p k)
  obtain ⟨e0, e1, e2⟩ := index_x t
  refine congrArg _ (funext fun a => Fin.ext ?_)
  match a with
  | ⟨0, _⟩ => show win6_0.index t (0 : Fin 3) * 1 + 1 * 0 = n.val; omega
  | ⟨1, _⟩ => show win6_0.index t (1 : Fin 3) * 112 + 1 * r.val = p.val; omega
  | ⟨2, _⟩ => show win6_0.index t (2 : Fin 3) * 512 + 1 * k.val = k.val; omega

/-- The same of the second input's tile, 16 images further. -/
theorem tile_y_apply (c : Dev nD) (t : Fin cfg6.N) (r : Fin 112) (k : Fin 512) (n : Fin 32) (p : Fin 3136)
    (hn : n.val = t.val / 28 + 16) (hp : p.val = t.val % 28 * 112 + r.val) :
    tileY V c t (ix3 (0 : Fin 1) r k) = feat V c (ix3 n p k) := by
  show V c (Pipeline.arrRef spec6 1) (((cfg6.win 1).blk t).view.emb (ix3 (0 : Fin 1) r k)) = V c (Pipeline.arrRef spec6 0) (ix3 n p k)
  obtain ⟨e0, e1, e2⟩ := index_y t
  refine congrArg _ (funext fun a => Fin.ext ?_)
  match a with
  | ⟨0, _⟩ => show win6_1.index t (0 : Fin 3) * 1 + 1 * 0 = n.val; omega
  | ⟨1, _⟩ => show win6_1.index t (1 : Fin 3) * 112 + 1 * r.val = p.val; omega
  | ⟨2, _⟩ => show win6_1.index t (2 : Fin 3) * 512 + 1 * k.val = k.val; omega

/-! ## The carried tile after an image's last row tile -/

/-- The sum of |x[n] − x[n + 16]| over the tile at grid position `p` (zero past the grid). -/
def tileDist (c : Dev nD) (p : ℕ) : EReal :=
  if h : p < cfg6.N then
    ∑ r : Fin 112, ∑ k : Fin 512,
      max (tileX V c ⟨p, h⟩ (ix3 (0 : Fin 1) r k) - tileY V c ⟨p, h⟩ (ix3 (0 : Fin 1) r k))
        (-(tileX V c ⟨p, h⟩ (ix3 (0 : Fin 1) r k) - tileY V c ⟨p, h⟩ (ix3 (0 : Fin 1) r k)))
  else 0

/-- One point's work at an index: the carried entry plus the tile's sum. -/
theorem addDist_at (c : Dev nD) (t : Fin cfg6.N) (acc : Vec Ideal S1x8x128 .f32) (j : S1x8x128.Idx) :
    addDist V c t acc j = acc j + tileDist V c t.val := by
  unfold tileDist; rw [dif_pos t.isLt]
  exact addDist_apply _ _ acc j

/-- After the last row tile of image n, every entry of the carried tile is the sum of the image's 28 tiles' sums. -/
theorem running_last (c : Dev nD) (n : ℕ) (h : 28 * n + 27 < cfg6.N) (j : S1x8x128.Idx) :
    running V c (28 * n + 27) h j = ∑ s ∈ Finset.range 28, tileDist V c (28 * n + s) := by
  rw [Pipeline.eq_accAt (running V c) 28 (fun p hp => addDist V c ⟨p, hp⟩ zeroTile) (fun p hp acc => addDist V c ⟨p, hp⟩ acc)
    (fun p hp h0 => running_first V c ⟨p, hp⟩ h0) (fun p hp hs => running_next V c ⟨p + 1, hp⟩ hs) n 27 (by omega) h]
  rw [Pipeline.accAt_add_apply (fun p hp => addDist V c ⟨p, hp⟩ zeroTile) (fun p hp acc => addDist V c ⟨p, hp⟩ acc)
    (fun _ => (0 : EReal)) (fun p _ => tileDist V c p) (28 * n) 27
    (fun hb i => by show addDist V c ⟨28 * n, hb⟩ zeroTile i = 0 + tileDist V c (28 * n); rw [addDist_at]; exact congrArg (fun z => z + tileDist V c (28 * n)) (zero_apply i))
    (fun p hp acc i _ _ => addDist_at V c ⟨p, hp⟩ acc i) 27 le_rfl h j]
  exact zero_add _

/-! ## The result array -/

/-- The result array as one function of the index: at (n, a, b), the sum of image n's 28 tiles' sums. -/
def total (c : Dev nD) : S16x8x128.Idx → EReal := fun i => ∑ s ∈ Finset.range 28, tileDist V c (28 * (i 0).val + s)

/-- What the last row tile of an image writes back is that image's tile of `total`. -/
theorem flushed_eq (c : Dev nD) (t : Fin cfg6.N) (hf : (cfg6.win 2).flush t = true) :
    (dat V c).flushed 2 t = ((cfg6.win 2).blk t).view.read (Elt Ideal) (total V c) := by
  have h6 : t.val % 28 = 27 := (flush6_2 t).mp hf
  show (cfg6.win 2).cut (grid6.coords t) ((dat V c).after 2 t) = _
  rw [after_sum]
  funext y
  show running V c t.val t.isLt y = total V c (((cfg6.win 2).blk t).view.emb y)
  have e0 : ((((cfg6.win 2).blk t).view.emb y) 0).val = t.val / 28 := by
    show win6_2.index t (0 : Fin 3) * 1 + 1 * (y 0).val = t.val / 28
    have hy : (y 0).val < 1 := (y 0).isLt
    rw [(index_o t).1]; omega
  have same : ∀ (u : ℕ) (hu : u < cfg6.N), u = t.val → running V c t.val t.isLt y = running V c u hu y :=
    fun u hu e => by subst e; rfl
  have hlt : 28 * (t.val / 28) + 27 < cfg6.N := by have := t.isLt; omega
  rw [same (28 * (t.val / 28) + 27) hlt (by omega), running_last V c (t.val / 28) hlt y]
  unfold total; rw [e0]

/-- An index of the result array is in position t's tile iff each coordinate is in the tile's range on its axis. -/
theorem mem_tile_o (t : Fin cfg6.N) (i : S16x8x128.Idx) :
    i ∈ ((cfg6.win 2).blk t).view.set ↔ ∀ a : Fin 3, win6_2.index t a * S1x8x128.size a ≤ (i a).val ∧ (i a).val < win6_2.index t a * S1x8x128.size a + S1x8x128.size a := by
  show i ∈ ((View.whole (Pipeline.arrRef spec6 2)).slice (win6_2.rect t)).set ↔ _
  rw [View.set_slice_whole, Rect.mem_set_unit]
  exact Iff.rfl

/-- The whole result array after the last point. -/
theorem final (c : Dev nD) : (dat V c).arrAt 2 cfg6.N = total V c :=
  (dat V c).arrAt_eq_of_cover 2 (total V c) (flushed_eq V c) fun i => by
    have hi0 : (i 0).val < 16 := (i 0).isLt
    have hi1 : (i 1).val < 8 := (i 1).isLt
    have hi2 : (i 2).val < 128 := (i 2).isLt
    have hN : cfg6.N = 16 * 28 := N_6
    refine ⟨⟨28 * (i 0).val + 27, by rw [hN]; omega⟩, (flush6_2 _).mpr (by show (28 * (i 0).val + 27) % 28 = 27; omega), ?_⟩
    rw [mem_tile_o]
    obtain ⟨e0, e1, e2⟩ := index_o ⟨28 * (i 0).val + 27, by rw [hN]; omega⟩
    have d0 : (28 * (i 0).val + 27) / 28 = (i 0).val := by omega
    intro a
    match a with
    | ⟨0, _⟩ => show win6_2.index _ (0 : Fin 3) * 1 ≤ (i 0).val ∧ (i 0).val < win6_2.index _ (0 : Fin 3) * 1 + 1; rw [e0]; dsimp only; omega
    | ⟨1, _⟩ => show win6_2.index _ (1 : Fin 3) * 8 ≤ (i 1).val ∧ (i 1).val < win6_2.index _ (1 : Fin 3) * 8 + 8; rw [e1]; omega
    | ⟨2, _⟩ => show win6_2.index _ (2 : Fin 3) * 128 ≤ (i 2).val ∧ (i 2).val < win6_2.index _ (2 : Fin 3) * 128 + 128; rw [e2]; omega

/-- THE RESULT ARRAY after the last point: every entry of image n's tile is the sum over the 3136 × 512 feature rows of
    |x[n] − x[n + 16]| (the 28 tiles of 112 rows are the 3136 rows). -/
theorem value (c : Dev nD) (n : Fin 16) (a : Fin 8) (b : Fin 128) :
    ((dat (F := Ideal) V c).arrAt 2 cfg6.N : S16x8x128.Idx → EReal) (ix3 n a b)
      = ∑ q : Fin 3136, ∑ k : Fin 512,
          max (feat V c (ix3 (⟨n.val, by omega⟩ : Fin 32) q k) - feat V c (ix3 (⟨n.val + 16, by omega⟩ : Fin 32) q k))
            (-(feat V c (ix3 (⟨n.val, by omega⟩ : Fin 32) q k) - feat V c (ix3 (⟨n.val + 16, by omega⟩ : Fin 32) q k))) := by
  have hN : cfg6.N = 16 * 28 := N_6
  have hn : n.val < 16 := n.isLt
  rw [final]
  show ∑ s ∈ Finset.range 28, tileDist V c (28 * n.val + s) = _
  rw [Finset.sum_range]
  refine Eq.trans ?_ (L1Sums.sum_rowTiles 28 112 (fun p : Fin (28 * 112) => ∑ k : Fin 512,
    max (feat V c (ix3 (⟨n.val, by omega⟩ : Fin 32) p k) - feat V c (ix3 (⟨n.val + 16, by omega⟩ : Fin 32) p k))
      (-(feat V c (ix3 (⟨n.val, by omega⟩ : Fin 32) p k) - feat V c (ix3 (⟨n.val + 16, by omega⟩ : Fin 32) p k)))))
  refine Finset.sum_congr rfl fun s _ => ?_
  have hs : s.val < 28 := s.isLt
  have hlt : 28 * n.val + s.val < cfg6.N := by rw [hN]; omega
  unfold tileDist; rw [dif_pos hlt]
  refine Finset.sum_congr rfl fun r _ => ?_
  beta_reduce
  refine Finset.sum_congr rfl fun k _ => ?_
  have hr : r.val < 112 := r.isLt
  rw [tile_x_apply V c ⟨_, hlt⟩ r k ⟨n.val, by omega⟩ (finProdFinEquiv (s, r))
      (by show n.val = (28 * n.val + s.val) / 28; omega)
      (by show r.val + 112 * s.val = (28 * n.val + s.val) % 28 * 112 + r.val; omega),
    tile_y_apply V c ⟨_, hlt⟩ r k ⟨n.val + 16, by omega⟩ (finProdFinEquiv (s, r))
      (by show n.val + 16 = (28 * n.val + s.val) / 28 + 16; omega)
      (by show r.val + 112 * s.val = (28 * n.val + s.val) % 28 * 112 + r.val; omega)]

end Cert.KernelIdeal.Reg6

end
-- ==== Proof.KI.GlueFlat1.lean ====
/-
  The features of the second level as the sums' region finds them: the stack 32 × 112 × 112 × 128 read in rows of 512
  consecutive entries of its row-major order, 3136 rows to an image. Entry (n, q, k) is the stack's entry at position
  (n · 3136 + q) · 512 + k.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem flat_1 (V : Valuation τ sig (Elt Ideal)) (n : Fin 32) (q : Fin 3136) (k : Fin 512) :
    (StableHlo.after hostOps6 V main_v32 : FVec Ideal S32x3136x512 .bf16) (ix3 n q k)
      = Cert.Spec.flat (Cert.Spec.curry4 (V main_v31 : FVec Ideal S32x112x112x128 .bf16)) ((n.val * 3136 + q.val) * 512 + k.val) := by
  have h : StableHlo.after hostOps6 V main_v32 = shapeCast S32x3136x512 (V main_v31) shapeCasts_S32x112x112x128_S32x3136x512 := by
    after_results <;> rfl
  rw [h]
  exact Cert.Spec.flat_reshape3 _ _ n q k

end Cert.KernelIdeal.Glue

end
-- ==== Proof.KI.GlueMean1.lean ====
/-
  The mean absolute difference of the second feature level and the running total: the first entries of the sixteen
  images' tiles of sums added to 0, divided by the count, and added to the total so far.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost
import proofs.«143011_g2000502688546152_pallasbulk_1201_3_alg».proof.Proof.KI.GlueSlice

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem mean_1 (V : Valuation τ sig (Elt Ideal)) :
    (StableHlo.after hostOps7 V main_v38 : FVec Ideal S_ .f32) ix0
      = (show EReal from (V main_v21 : FVec Ideal S_ .f32) ix0) + Ideal.div (0 + ∑ n : Fin 16, (show EReal from (V main_v33 : FVec Ideal S16x8x128 .f32) (ix3 n (0 : Fin 8) (0 : Fin 128))))
          (Ideal.ofBits .f32 0x4BC40000#32) := by
  have h : StableHlo.after hostOps7 V main_v38
      = addf (V main_v21)
          (Host.divf (Host.reduceAdd
              (shapeCast S16 (extractStridedSlice S16x1x1 ![0, 0, 0] (V main_v33) slices_S16x8x128_S16x1x1_0_0_0) shapeCasts_S16x1x1_S16)
              (constant (F := Ideal) S_ .f32 0x00000000#32) reducesTo_S16_S_d0 h_S_)
            (constant (F := Ideal) S_ .f32 0x4BC40000#32)) := by
    after_results <;> rfl
  rw [h, addf_apply, hostDivf_apply, hostReduceAdd_apply, Cert.Spec.hostReduceAdd_all]
  simp only [constant_apply, Ideal.ofBits_zero_f32, first_of_tile]

end Cert.KernelIdeal.Glue

end
-- ==== Proof.KI.RunLvl1.lean ====
import proofs.«143011_g2000502688546152_pallasbulk_1201_3_alg».proof.Proof.KI.RunChainAt
import proofs.«143011_g2000502688546152_pallasbulk_1201_3_alg».proof.Proof.KI.Reg6Value
import proofs.«143011_g2000502688546152_pallasbulk_1201_3_alg».proof.Proof.KI.GlueFlat1
import proofs.«143011_g2000502688546152_pallasbulk_1201_3_alg».proof.Proof.KI.GlueMean1
import proofs.«143011_g2000502688546152_pallasbulk_1201_3_alg».proof.Proof.Spec.Defs
import proofs.«143011_g2000502688546152_pallasbulk_1201_3_alg».proof.Proof.Spec.FlatIdx

/-! # Feature level 1 of the batch arrangement: the mean absolute difference joins the running total

The level's features are a stack of 32 images [32, 112, 112, 128]. Read in rows of 512 consecutive entries of the row-major
order, 3136 rows to an image, they are the array the sums' region finds; the region leaves, for each of the first 16
images, the sum of |entry of image n − entry of image n + 16| in every entry of that image's tile; the host then adds
the sixteen first entries to 0, divides by the count and adds the quotient to the running total. -/

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The array the sums' region finds, entry (n, q, k): the feature stack's entry at position (n · 3136 + q) · 512 + k of
    its row-major order. -/
theorem rows_1 (f : Cert.Spec.Act 32 112 112 128)
    (hfeat : ∀ n h w ch, (W20 m c main_v31 : FVec Ideal S32x112x112x128 .bf16) (ix4 n h w ch) = f n h w ch)
    (n : Fin 32) (q : Fin 3136) (k : Fin 512) :
    Reg6.feat (U21 m) c (ix3 n q k) = Cert.Spec.flat f ((n.val * 3136 + q.val) * 512 + k.val) := by
  show (W21 m c main_v32 : FVec Ideal S32x3136x512 .bf16) (ix3 n q k) = _
  unfold W21
  rw [Glue.flat_1 (W20 m c) n q k]
  have hc : Cert.Spec.curry4 (W20 m c main_v31 : FVec Ideal S32x112x112x128 .bf16) = f :=
    funext fun n => funext fun h => funext fun w => funext fun ch => hfeat n h w ch
  rw [hc]

/-- THE LEVEL: the running total after this level's host stretch is the total before it plus the level's mean
    absolute difference in the batch arrangement. -/
theorem lvl_1 (f : Cert.Spec.Act 32 112 112 128)
    (hfeat : ∀ n h w ch, (W20 m c main_v31 : FVec Ideal S32x112x112x128 .bf16) (ix4 n h w ch) = f n h w ch) :
    (W23 m c main_v38 : FVec Ideal S_ .f32) ix0 = (show EReal from (W22 m c main_v21 : FVec Ideal S_ .f32) ix0) + Cert.Spec.l1K 3136 f Cert.Spec.total1 := by
  unfold W23
  rw [Glue.mean_1 (W22 m c)]
  refine congrArg (fun s => (show EReal from (W22 m c main_v21 : FVec Ideal S_ .f32) ix0) + s) ?_
  unfold Cert.Spec.l1K
  refine congrArg (fun s => Ideal.div (0 + s) (Ideal.ofBits .f32 0x4BC40000#32)) ?_
  refine Finset.sum_congr rfl fun n _ => ?_
  rw [W22_self m c]
  unfold out6
  refine (Reg6.value (U21 m) c n (0 : Fin 8) (0 : Fin 128)).trans ?_
  show @Eq EReal _ _
  unfold Cert.Spec.l1PartK Cert.Spec.eabs
  refine Finset.sum_congr rfl fun q _ => Finset.sum_congr rfl fun k _ => ?_
  rw [rows_1 m c f hfeat, rows_1 m c f hfeat]

end Cert.KernelIdeal.Run

end
-- ==== Proof.KI.Reg11Value.lean ====
import proofs.«143011_g2000502688546152_pallasbulk_1201_3_alg».proof.Proof.KI.Reg11
import proofs.«143011_g2000502688546152_pallasbulk_1201_3_alg».proof.Proof.KI.L1Sums
import Idealize.ShloMosaic.Lib.Pipeline.Value
import Idealize.ShloMosaic.Lib.ValueIdx
import Idealize.ShloMosaic.Lib.ValueLayout
import Idealize.ShloMosaic.PureOps.Ideal.Laws

/-! # Region 11 at the ideal values: the result array, index by index

Every entry (a, b) of image n's (8, 128) result tile is the same number: the sum over the 1568 × 512 feature rows of
|x[n] − x[n + 16]|, where |d| on the extended reals is max d (−d).  The steps: the body's arithmetic at an index (the
carried tile plus the tile's sum); where a tile's element sits in the array; the carried tile after the last row tile
of an image, as the sum of its 14 tiles' sums; the rows of the 14 tiles regrouped as the 1568 rows. -/

set_option maxRecDepth 16384

noncomputable section

namespace Cert.KernelIdeal.Reg11

open Idealize.ShloMosaic Idealize.ShloMosaic.TcCoe Idealize.SL.Sem
open Idealize.ShloMosaic.Pipeline (Dat)
open Idealize.ShloMosaic.ValueIdx
open Cert.KernelIdeal.Gen

/-! ## The body's arithmetic at an index -/

/-- The zero tile reads 0. -/
theorem zero_apply (j : S1x8x128.Idx) : (k11_pay1 (F := Ideal)) j = 0 := by
  unfold k11_pay1
  show (broadcast S1x8x128 (Scalar.ofBits (F := Ideal) .f32 0x00000000#32)) j = 0
  rw [broadcast_apply]
  exact Ideal.ofBits_zero_f32

/-- The carried tile plus the sum, over the tile's 112 rows and 512 lanes, of |x − y|. -/
theorem addDist_apply (x y : Vec Ideal S1x112x512 .bf16) (acc : Vec Ideal S1x8x128 .f32) (j : S1x8x128.Idx) :
    k11_pay2 x y acc j = acc j + ∑ r : Fin 112, ∑ k : Fin 512,
      max (x (ix3 (0 : Fin 1) r k) - y (ix3 (0 : Fin 1) r k)) (-(x (ix3 (0 : Fin 1) r k) - y (ix3 (0 : Fin 1) r k))) := by
  unfold k11_pay2
  dsimp only
  rw [addf_apply, shapeCast_self, broadcast_apply]
  congr 1
  unfold extractAt
  refine (shapeCast_apply _ _ _ (ix1 (0 : Fin 1)) rfl).trans ?_
  refine (Ideal.multiReduction_add_total _ _ _ (fun b => by match b with | ⟨0, _⟩ => rfl) _ _ _).trans ?_
  rw [L1Sums.sum_tile]
  refine Finset.sum_congr rfl fun r _ => Finset.sum_congr rfl fun k _ => ?_
  have habs : ∀ (v : FVec Ideal S1x112x512 .f32) (i : S1x112x512.Idx), absf v i = max (v i) (-(v i)) := fun _ _ => rfl
  rw [shapeCast_abc_1abc_apply, habs, subf_apply, extf_apply, extf_apply, shapeCast_self, shapeCast_self]

variable (V : (c : Dev nD) → (b : Ref sig .tc) → Buf (Elt Ideal) ((c : Thread nD τ).loc b))

/-- The feature array both input windows read. -/
abbrev feat (c : Dev nD) : S32x1568x512.Idx → EReal := V c (Pipeline.arrRef spec11 0)

/-- The two inputs' tiles at a grid position, as functions into the extended reals. -/
abbrev tileX (c : Dev nD) (t : Fin cfg11.N) : S1x112x512.Idx → EReal := tile V c 0 t
abbrev tileY (c : Dev nD) (t : Fin cfg11.N) : S1x112x512.Idx → EReal := tile V c 1 t

/-! ## Where a tile's element sits in the array -/

/-- The tiles' positions along the grid's row-major order, decided over the grid: position t is image t / 14, row tile
    t % 14; the second input reads 16 images further; the result tile is image t / 14's. -/
theorem index_x : ∀ t : Fin cfg11.N, win11_0.index t (0 : Fin 3) = t.val / 14 ∧ win11_0.index t (1 : Fin 3) = t.val % 14 ∧ win11_0.index t (2 : Fin 3) = 0 :=
  (by decide +kernel : ∀ t : Fin grid11.N, win11_0.index t (0 : Fin 3) = t.val / 14 ∧ win11_0.index t (1 : Fin 3) = t.val % 14 ∧ win11_0.index t (2 : Fin 3) = 0)
theorem index_y : ∀ t : Fin cfg11.N, win11_1.index t (0 : Fin 3) = t.val / 14 + 16 ∧ win11_1.index t (1 : Fin 3) = t.val % 14 ∧ win11_1.index t (2 : Fin 3) = 0 :=
  (by decide +kernel : ∀ t : Fin grid11.N, win11_1.index t (0 : Fin 3) = t.val / 14 + 16 ∧ win11_1.index t (1 : Fin 3) = t.val % 14 ∧ win11_1.index t (2 : Fin 3) = 0)
theorem index_o : ∀ t : Fin cfg11.N, win11_2.index t (0 : Fin 3) = t.val / 14 ∧ win11_2.index t (1 : Fin 3) = 0 ∧ win11_2.index t (2 : Fin 3) = 0 :=
  (by decide +kernel : ∀ t : Fin grid11.N, win11_2.index t (0 : Fin 3) = t.val / 14 ∧ win11_2.index t (1 : Fin 3) = 0 ∧ win11_2.index t (2 : Fin 3) = 0)

/-- Row r, lane k of the first input's tile at position t is the array at (image, 112 · row tile + r, k). -/
theorem tile_x_apply (c : Dev nD) (t : Fin cfg11.N) (r : Fin 112) (k : Fin 512) (n : Fin 32) (p : Fin 1568)
    (hn : n.val = t.val / 14) (hp : p.val = t.val % 14 * 112 + r.val) :
    tileX V c t (ix3 (0 : Fin 1) r k) = feat V c (ix3 n p k) := by
  show V c (Pipeline.arrRef spec11 0) (((cfg11.win 0).blk t).view.emb (ix3 (0 : Fin 1) r k)) = V c (Pipeline.arrRef spec11 0) (ix3 n p k)
  obtain ⟨e0, e1, e2⟩ := index_x t
  refine congrArg _ (funext fun a => Fin.ext ?_)
  match a with
  | ⟨0, _⟩ => show win11_0.index t (0 : Fin 3) * 1 + 1 * 0 = n.val; omega
  | ⟨1, _⟩ => show win11_0.index t (1 : Fin 3) * 112 + 1 * r.val = p.val; omega
  | ⟨2, _⟩ => show win11_0.index t (2 : Fin 3) * 512 + 1 * k.val = k.val; omega

/-- The same of the second input's tile, 16 images further. -/
theorem tile_y_apply (c : Dev nD) (t : Fin cfg11.N) (r : Fin 112) (k : Fin 512) (n : Fin 32) (p : Fin 1568)
    (hn : n.val = t.val / 14 + 16) (hp : p.val = t.val % 14 * 112 + r.val) :
    tileY V c t (ix3 (0 : Fin 1) r k) = feat V c (ix3 n p k) := by
  show V c (Pipeline.arrRef spec11 1) (((cfg11.win 1).blk t).view.emb (ix3 (0 : Fin 1) r k)) = V c (Pipeline.arrRef spec11 0) (ix3 n p k)
  obtain ⟨e0, e1, e2⟩ := index_y t
  refine congrArg _ (funext fun a => Fin.ext ?_)
  match a with
  | ⟨0, _⟩ => show win11_1.index t (0 : Fin 3) * 1 + 1 * 0 = n.val; omega
  | ⟨1, _⟩ => show win11_1.index t (1 : Fin 3) * 112 + 1 * r.val = p.val; omega
  | ⟨2, _⟩ => show win11_1.index t (2 : Fin 3) * 512 + 1 * k.val = k.val; omega

/-! ## The carried tile after an image's last row tile -/

/-- The sum of |x[n] − x[n + 16]| over the tile at grid position `p` (zero past the grid). -/
def tileDist (c : Dev nD) (p : ℕ) : EReal :=
  if h : p < cfg11.N then
    ∑ r : Fin 112, ∑ k : Fin 512,
      max (tileX V c ⟨p, h⟩ (ix3 (0 : Fin 1) r k) - tileY V c ⟨p, h⟩ (ix3 (0 : Fin 1) r k))
        (-(tileX V c ⟨p, h⟩ (ix3 (0 : Fin 1) r k) - tileY V c ⟨p, h⟩ (ix3 (0 : Fin 1) r k)))
  else 0

/-- One point's work at an index: the carried entry plus the tile's sum. -/
theorem addDist_at (c : Dev nD) (t : Fin cfg11.N) (acc : Vec Ideal S1x8x128 .f32) (j : S1x8x128.Idx) :
    addDist V c t acc j = acc j + tileDist V c t.val := by
  unfold tileDist; rw [dif_pos t.isLt]
  exact addDist_apply _ _ acc j

/-- After the last row tile of image n, every entry of the carried tile is the sum of the image's 14 tiles' sums. -/
theorem running_last (c : Dev nD) (n : ℕ) (h : 14 * n + 13 < cfg11.N) (j : S1x8x128.Idx) :
    running V c (14 * n + 13) h j = ∑ s ∈ Finset.range 14, tileDist V c (14 * n + s) := by
  rw [Pipeline.eq_accAt (running V c) 14 (fun p hp => addDist V c ⟨p, hp⟩ zeroTile) (fun p hp acc => addDist V c ⟨p, hp⟩ acc)
    (fun p hp h0 => running_first V c ⟨p, hp⟩ h0) (fun p hp hs => running_next V c ⟨p + 1, hp⟩ hs) n 13 (by omega) h]
  rw [Pipeline.accAt_add_apply (fun p hp => addDist V c ⟨p, hp⟩ zeroTile) (fun p hp acc => addDist V c ⟨p, hp⟩ acc)
    (fun _ => (0 : EReal)) (fun p _ => tileDist V c p) (14 * n) 13
    (fun hb i => by show addDist V c ⟨14 * n, hb⟩ zeroTile i = 0 + tileDist V c (14 * n); rw [addDist_at]; exact congrArg (fun z => z + tileDist V c (14 * n)) (zero_apply i))
    (fun p hp acc i _ _ => addDist_at V c ⟨p, hp⟩ acc i) 13 le_rfl h j]
  exact zero_add _

/-! ## The result array -/

/-- The result array as one function of the index: at (n, a, b), the sum of image n's 14 tiles' sums. -/
def total (c : Dev nD) : S16x8x128.Idx → EReal := fun i => ∑ s ∈ Finset.range 14, tileDist V c (14 * (i 0).val + s)

/-- What the last row tile of an image writes back is that image's tile of `total`. -/
theorem flushed_eq (c : Dev nD) (t : Fin cfg11.N) (hf : (cfg11.win 2).flush t = true) :
    (dat V c).flushed 2 t = ((cfg11.win 2).blk t).view.read (Elt Ideal) (total V c) := by
  have h6 : t.val % 14 = 13 := (flush11_2 t).mp hf
  show (cfg11.win 2).cut (grid11.coords t) ((dat V c).after 2 t) = _
  rw [after_sum]
  funext y
  show running V c t.val t.isLt y = total V c (((cfg11.win 2).blk t).view.emb y)
  have e0 : ((((cfg11.win 2).blk t).view.emb y) 0).val = t.val / 14 := by
    show win11_2.index t (0 : Fin 3) * 1 + 1 * (y 0).val = t.val / 14
    have hy : (y 0).val < 1 := (y 0).isLt
    rw [(index_o t).1]; omega
  have same : ∀ (u : ℕ) (hu : u < cfg11.N), u = t.val → running V c t.val t.isLt y = running V c u hu y :=
    fun u hu e => by subst e; rfl
  have hlt : 14 * (t.val / 14) + 13 < cfg11.N := by have := t.isLt; omega
  rw [same (14 * (t.val / 14) + 13) hlt (by omega), running_last V c (t.val / 14) hlt y]
  unfold total; rw [e0]

/-- An index of the result array is in position t's tile iff each coordinate is in the tile's range on its axis. -/
theorem mem_tile_o (t : Fin cfg11.N) (i : S16x8x128.Idx) :
    i ∈ ((cfg11.win 2).blk t).view.set ↔ ∀ a : Fin 3, win11_2.index t a * S1x8x128.size a ≤ (i a).val ∧ (i a).val < win11_2.index t a * S1x8x128.size a + S1x8x128.size a := by
  show i ∈ ((View.whole (Pipeline.arrRef spec11 2)).slice (win11_2.rect t)).set ↔ _
  rw [View.set_slice_whole, Rect.mem_set_unit]
  exact Iff.rfl

/-- The whole result array after the last point. -/
theorem final (c : Dev nD) : (dat V c).arrAt 2 cfg11.N = total V c :=
  (dat V c).arrAt_eq_of_cover 2 (total V c) (flushed_eq V c) fun i => by
    have hi0 : (i 0).val < 16 := (i 0).isLt
    have hi1 : (i 1).val < 8 := (i 1).isLt
    have hi2 : (i 2).val < 128 := (i 2).isLt
    have hN : cfg11.N = 16 * 14 := N_11
    refine ⟨⟨14 * (i 0).val + 13, by rw [hN]; omega⟩, (flush11_2 _).mpr (by show (14 * (i 0).val + 13) % 14 = 13; omega), ?_⟩
    rw [mem_tile_o]
    obtain ⟨e0, e1, e2⟩ := index_o ⟨14 * (i 0).val + 13, by rw [hN]; omega⟩
    have d0 : (14 * (i 0).val + 13) / 14 = (i 0).val := by omega
    intro a
    match a with
    | ⟨0, _⟩ => show win11_2.index _ (0 : Fin 3) * 1 ≤ (i 0).val ∧ (i 0).val < win11_2.index _ (0 : Fin 3) * 1 + 1; rw [e0]; dsimp only; omega
    | ⟨1, _⟩ => show win11_2.index _ (1 : Fin 3) * 8 ≤ (i 1).val ∧ (i 1).val < win11_2.index _ (1 : Fin 3) * 8 + 8; rw [e1]; omega
    | ⟨2, _⟩ => show win11_2.index _ (2 : Fin 3) * 128 ≤ (i 2).val ∧ (i 2).val < win11_2.index _ (2 : Fin 3) * 128 + 128; rw [e2]; omega

/-- THE RESULT ARRAY after the last point: every entry of image n's tile is the sum over the 1568 × 512 feature rows of
    |x[n] − x[n + 16]| (the 14 tiles of 112 rows are the 1568 rows). -/
theorem value (c : Dev nD) (n : Fin 16) (a : Fin 8) (b : Fin 128) :
    ((dat (F := Ideal) V c).arrAt 2 cfg11.N : S16x8x128.Idx → EReal) (ix3 n a b)
      = ∑ q : Fin 1568, ∑ k : Fin 512,
          max (feat V c (ix3 (⟨n.val, by omega⟩ : Fin 32) q k) - feat V c (ix3 (⟨n.val + 16, by omega⟩ : Fin 32) q k))
            (-(feat V c (ix3 (⟨n.val, by omega⟩ : Fin 32) q k) - feat V c (ix3 (⟨n.val + 16, by omega⟩ : Fin 32) q k))) := by
  have hN : cfg11.N = 16 * 14 := N_11
  have hn : n.val < 16 := n.isLt
  rw [final]
  show ∑ s ∈ Finset.range 14, tileDist V c (14 * n.val + s) = _
  rw [Finset.sum_range]
  refine Eq.trans ?_ (L1Sums.sum_rowTiles 14 112 (fun p : Fin (14 * 112) => ∑ k : Fin 512,
    max (feat V c (ix3 (⟨n.val, by omega⟩ : Fin 32) p k) - feat V c (ix3 (⟨n.val + 16, by omega⟩ : Fin 32) p k))
      (-(feat V c (ix3 (⟨n.val, by omega⟩ : Fin 32) p k) - feat V c (ix3 (⟨n.val + 16, by omega⟩ : Fin 32) p k)))))
  refine Finset.sum_congr rfl fun s _ => ?_
  have hs : s.val < 14 := s.isLt
  have hlt : 14 * n.val + s.val < cfg11.N := by rw [hN]; omega
  unfold tileDist; rw [dif_pos hlt]
  refine Finset.sum_congr rfl fun r _ => ?_
  beta_reduce
  refine Finset.sum_congr rfl fun k _ => ?_
  have hr : r.val < 112 := r.isLt
  rw [tile_x_apply V c ⟨_, hlt⟩ r k ⟨n.val, by omega⟩ (finProdFinEquiv (s, r))
      (by show n.val = (14 * n.val + s.val) / 14; omega)
      (by show r.val + 112 * s.val = (14 * n.val + s.val) % 14 * 112 + r.val; omega),
    tile_y_apply V c ⟨_, hlt⟩ r k ⟨n.val + 16, by omega⟩ (finProdFinEquiv (s, r))
      (by show n.val + 16 = (14 * n.val + s.val) / 14 + 16; omega)
      (by show r.val + 112 * s.val = (14 * n.val + s.val) % 14 * 112 + r.val; omega)]

end Cert.KernelIdeal.Reg11

end
-- ==== Proof.KI.GlueFlat2.lean ====
/-
  The features of the third level as the sums' region finds them: the stack 32 × 56 × 56 × 256 read in rows of 512
  consecutive entries of its row-major order, 1568 rows to an image. Entry (n, q, k) is the stack's entry at position
  (n · 1568 + q) · 512 + k.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem flat_2 (V : Valuation τ sig (Elt Ideal)) (n : Fin 32) (q : Fin 1568) (k : Fin 512) :
    (StableHlo.after hostOps11 V main_v56 : FVec Ideal S32x1568x512 .bf16) (ix3 n q k)
      = Cert.Spec.flat (Cert.Spec.curry4 (V main_v55 : FVec Ideal S32x56x56x256 .bf16)) ((n.val * 1568 + q.val) * 512 + k.val) := by
  have h : StableHlo.after hostOps11 V main_v56 = shapeCast S32x1568x512 (V main_v55) shapeCasts_S32x56x56x256_S32x1568x512 := by
    after_results <;> rfl
  rw [h]
  exact Cert.Spec.flat_reshape3 _ _ n q k

end Cert.KernelIdeal.Glue

end
-- ==== Proof.KI.GlueMean2.lean ====
/-
  The mean absolute difference of the third feature level and the running total: the first entries of the sixteen
  images' tiles of sums added to 0, divided by the count, and added to the total so far.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost
import proofs.«143011_g2000502688546152_pallasbulk_1201_3_alg».proof.Proof.KI.GlueSlice

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem mean_2 (V : Valuation τ sig (Elt Ideal)) :
    (StableHlo.after hostOps12 V main_v62 : FVec Ideal S_ .f32) ix0
      = (show EReal from (V main_v38 : FVec Ideal S_ .f32) ix0) + Ideal.div (0 + ∑ n : Fin 16, (show EReal from (V main_v57 : FVec Ideal S16x8x128 .f32) (ix3 n (0 : Fin 8) (0 : Fin 128))))
          (Ideal.ofBits .f32 0x4B440000#32) := by
  have h : StableHlo.after hostOps12 V main_v62
      = addf (V main_v38)
          (Host.divf (Host.reduceAdd
              (shapeCast S16 (extractStridedSlice S16x1x1 ![0, 0, 0] (V main_v57) slices_S16x8x128_S16x1x1_0_0_0) shapeCasts_S16x1x1_S16)
              (constant (F := Ideal) S_ .f32 0x00000000#32) reducesTo_S16_S_d0 h_S_)
            (constant (F := Ideal) S_ .f32 0x4B440000#32)) := by
    after_results <;> rfl
  rw [h, addf_apply, hostDivf_apply, hostReduceAdd_apply, Cert.Spec.hostReduceAdd_all]
  simp only [constant_apply, Ideal.ofBits_zero_f32, first_of_tile]

end Cert.KernelIdeal.Glue

end
-- ==== Proof.KI.RunLvl2.lean ====
import proofs.«143011_g2000502688546152_pallasbulk_1201_3_alg».proof.Proof.KI.RunChainAt
import proofs.«143011_g2000502688546152_pallasbulk_1201_3_alg».proof.Proof.KI.Reg11Value
import proofs.«143011_g2000502688546152_pallasbulk_1201_3_alg».proof.Proof.KI.GlueFlat2
import proofs.«143011_g2000502688546152_pallasbulk_1201_3_alg».proof.Proof.KI.GlueMean2
import proofs.«143011_g2000502688546152_pallasbulk_1201_3_alg».proof.Proof.Spec.Defs
import proofs.«143011_g2000502688546152_pallasbulk_1201_3_alg».proof.Proof.Spec.FlatIdx

/-! # Feature level 2 of the batch arrangement: the mean absolute difference joins the running total

The level's features are a stack of 32 images [32, 56, 56, 256]. Read in rows of 512 consecutive entries of the row-major
order, 1568 rows to an image, they are the array the sums' region finds; the region leaves, for each of the first 16
images, the sum of |entry of image n − entry of image n + 16| in every entry of that image's tile; the host then adds
the sixteen first entries to 0, divides by the count and adds the quotient to the running total. -/

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The array the sums' region finds, entry (n, q, k): the feature stack's entry at position (n · 1568 + q) · 512 + k of
    its row-major order. -/
theorem rows_2 (f : Cert.Spec.Act 32 56 56 256)
    (hfeat : ∀ n h w ch, (W36 m c main_v55 : FVec Ideal S32x56x56x256 .bf16) (ix4 n h w ch) = f n h w ch)
    (n : Fin 32) (q : Fin 1568) (k : Fin 512) :
    Reg11.feat (U37 m) c (ix3 n q k) = Cert.Spec.flat f ((n.val * 1568 + q.val) * 512 + k.val) := by
  show (W37 m c main_v56 : FVec Ideal S32x1568x512 .bf16) (ix3 n q k) = _
  unfold W37
  rw [Glue.flat_2 (W36 m c) n q k]
  have hc : Cert.Spec.curry4 (W36 m c main_v55 : FVec Ideal S32x56x56x256 .bf16) = f :=
    funext fun n => funext fun h => funext fun w => funext fun ch => hfeat n h w ch
  rw [hc]

/-- THE LEVEL: the running total after this level's host stretch is the total before it plus the level's mean
    absolute difference in the batch arrangement. -/
theorem lvl_2 (f : Cert.Spec.Act 32 56 56 256)
    (hfeat : ∀ n h w ch, (W36 m c main_v55 : FVec Ideal S32x56x56x256 .bf16) (ix4 n h w ch) = f n h w ch) :
    (W39 m c main_v62 : FVec Ideal S_ .f32) ix0 = (show EReal from (W38 m c main_v38 : FVec Ideal S_ .f32) ix0) + Cert.Spec.l1K 1568 f Cert.Spec.total2 := by
  unfold W39
  rw [Glue.mean_2 (W38 m c)]
  refine congrArg (fun s => (show EReal from (W38 m c main_v38 : FVec Ideal S_ .f32) ix0) + s) ?_
  unfold Cert.Spec.l1K
  refine congrArg (fun s => Ideal.div (0 + s) (Ideal.ofBits .f32 0x4B440000#32)) ?_
  refine Finset.sum_congr rfl fun n _ => ?_
  rw [W38_self m c]
  unfold out11
  refine (Reg11.value (U37 m) c n (0 : Fin 8) (0 : Fin 128)).trans ?_
  show @Eq EReal _ _
  unfold Cert.Spec.l1PartK Cert.Spec.eabs
  refine Finset.sum_congr rfl fun q _ => Finset.sum_congr rfl fun k _ => ?_
  rw [rows_2 m c f hfeat, rows_2 m c f hfeat]

end Cert.KernelIdeal.Run

end
-- ==== Proof.KI.Reg16Value.lean ====
import proofs.«143011_g2000502688546152_pallasbulk_1201_3_alg».proof.Proof.KI.Reg16
import proofs.«143011_g2000502688546152_pallasbulk_1201_3_alg».proof.Proof.KI.L1Sums
import Idealize.ShloMosaic.Lib.Pipeline.Value
import Idealize.ShloMosaic.Lib.ValueIdx
import Idealize.ShloMosaic.Lib.ValueLayout
import Idealize.ShloMosaic.PureOps.Ideal.Laws

/-! # Region 16 at the ideal values: the result array, index by index

Every entry (a, b) of image n's (8, 128) result tile is the same number: the sum over the 784 × 512 feature rows of
|x[n] − x[n + 16]|, where |d| on the extended reals is max d (−d).  The steps: the body's arithmetic at an index (the
carried tile plus the tile's sum); where a tile's element sits in the array; the carried tile after the last row tile
of an image, as the sum of its 7 tiles' sums; the rows of the 7 tiles regrouped as the 784 rows. -/

set_option maxRecDepth 16384

noncomputable section

namespace Cert.KernelIdeal.Reg16

open Idealize.ShloMosaic Idealize.ShloMosaic.TcCoe Idealize.SL.Sem
open Idealize.ShloMosaic.Pipeline (Dat)
open Idealize.ShloMosaic.ValueIdx
open Cert.KernelIdeal.Gen

/-! ## The body's arithmetic at an index -/

/-- The zero tile reads 0. -/
theorem zero_apply (j : S1x8x128.Idx) : (k16_pay1 (F := Ideal)) j = 0 := by
  unfold k16_pay1
  show (broadcast S1x8x128 (Scalar.ofBits (F := Ideal) .f32 0x00000000#32)) j = 0
  rw [broadcast_apply]
  exact Ideal.ofBits_zero_f32

/-- The carried tile plus the sum, over the tile's 112 rows and 512 lanes, of |x − y|. -/
theorem addDist_apply (x y : Vec Ideal S1x112x512 .bf16) (acc : Vec Ideal S1x8x128 .f32) (j : S1x8x128.Idx) :
    k16_pay2 x y acc j = acc j + ∑ r : Fin 112, ∑ k : Fin 512,
      max (x (ix3 (0 : Fin 1) r k) - y (ix3 (0 : Fin 1) r k)) (-(x (ix3 (0 : Fin 1) r k) - y (ix3 (0 : Fin 1) r k))) := by
  unfold k16_pay2
  dsimp only
  rw [addf_apply, shapeCast_self, broadcast_apply]
  congr 1
  unfold extractAt
  refine (shapeCast_apply _ _ _ (ix1 (0 : Fin 1)) rfl).trans ?_
  refine (Ideal.multiReduction_add_total _ _ _ (fun b => by match b with | ⟨0, _⟩ => rfl) _ _ _).trans ?_
  rw [L1Sums.sum_tile]
  refine Finset.sum_congr rfl fun r _ => Finset.sum_congr rfl fun k _ => ?_
  have habs : ∀ (v : FVec Ideal S1x112x512 .f32) (i : S1x112x512.Idx), absf v i = max (v i) (-(v i)) := fun _ _ => rfl
  rw [shapeCast_abc_1abc_apply, habs, subf_apply, extf_apply, extf_apply, shapeCast_self, shapeCast_self]

variable (V : (c : Dev nD) → (b : Ref sig .tc) → Buf (Elt Ideal) ((c : Thread nD τ).loc b))

/-- The feature array both input windows read. -/
abbrev feat (c : Dev nD) : S32x784x512.Idx → EReal := V c (Pipeline.arrRef spec16 0)

/-- The two inputs' tiles at a grid position, as functions into the extended reals. -/
abbrev tileX (c : Dev nD) (t : Fin cfg16.N) : S1x112x512.Idx → EReal := tile V c 0 t
abbrev tileY (c : Dev nD) (t : Fin cfg16.N) : S1x112x512.Idx → EReal := tile V c 1 t

/-! ## Where a tile's element sits in the array -/

/-- The tiles' positions along the grid's row-major order, decided over the grid: position t is image t / 7, row tile
    t % 7; the second input reads 16 images further; the result tile is image t / 7's. -/
theorem index_x : ∀ t : Fin cfg16.N, win16_0.index t (0 : Fin 3) = t.val / 7 ∧ win16_0.index t (1 : Fin 3) = t.val % 7 ∧ win16_0.index t (2 : Fin 3) = 0 :=
  (by decide +kernel : ∀ t : Fin grid16.N, win16_0.index t (0 : Fin 3) = t.val / 7 ∧ win16_0.index t (1 : Fin 3) = t.val % 7 ∧ win16_0.index t (2 : Fin 3) = 0)
theorem index_y : ∀ t : Fin cfg16.N, win16_1.index t (0 : Fin 3) = t.val / 7 + 16 ∧ win16_1.index t (1 : Fin 3) = t.val % 7 ∧ win16_1.index t (2 : Fin 3) = 0 :=
  (by decide +kernel : ∀ t : Fin grid16.N, win16_1.index t (0 : Fin 3) = t.val / 7 + 16 ∧ win16_1.index t (1 : Fin 3) = t.val % 7 ∧ win16_1.index t (2 : Fin 3) = 0)
theorem index_o : ∀ t : Fin cfg16.N, win16_2.index t (0 : Fin 3) = t.val / 7 ∧ win16_2.index t (1 : Fin 3) = 0 ∧ win16_2.index t (2 : Fin 3) = 0 :=
  (by decide +kernel : ∀ t : Fin grid16.N, win16_2.index t (0 : Fin 3) = t.val / 7 ∧ win16_2.index t (1 : Fin 3) = 0 ∧ win16_2.index t (2 : Fin 3) = 0)

/-- Row r, lane k of the first input's tile at position t is the array at (image, 112 · row tile + r, k). -/
theorem tile_x_apply (c : Dev nD) (t : Fin cfg16.N) (r : Fin 112) (k : Fin 512) (n : Fin 32) (p : Fin 784)
    (hn : n.val = t.val / 7) (hp : p.val = t.val % 7 * 112 + r.val) :
    tileX V c t (ix3 (0 : Fin 1) r k) = feat V c (ix3 n p k) := by
  show V c (Pipeline.arrRef spec16 0) (((cfg16.win 0).blk t).view.emb (ix3 (0 : Fin 1) r k)) = V c (Pipeline.arrRef spec16 0) (ix3 n p k)
  obtain ⟨e0, e1, e2⟩ := index_x t
  refine congrArg _ (funext fun a => Fin.ext ?_)
  match a with
  | ⟨0, _⟩ => show win16_0.index t (0 : Fin 3) * 1 + 1 * 0 = n.val; omega
  | ⟨1, _⟩ => show win16_0.index t (1 : Fin 3) * 112 + 1 * r.val = p.val; omega
  | ⟨2, _⟩ => show win16_0.index t (2 : Fin 3) * 512 + 1 * k.val = k.val; omega

/-- The same of the second input's tile, 16 images further. -/
theorem tile_y_apply (c : Dev nD) (t : Fin cfg16.N) (r : Fin 112) (k : Fin 512) (n : Fin 32) (p : Fin 784)
    (hn : n.val = t.val / 7 + 16) (hp : p.val = t.val % 7 * 112 + r.val) :
    tileY V c t (ix3 (0 : Fin 1) r k) = feat V c (ix3 n p k) := by
  show V c (Pipeline.arrRef spec16 1) (((cfg16.win 1).blk t).view.emb (ix3 (0 : Fin 1) r k)) = V c (Pipeline.arrRef spec16 0) (ix3 n p k)
  obtain ⟨e0, e1, e2⟩ := index_y t
  refine congrArg _ (funext fun a => Fin.ext ?_)
  match a with
  | ⟨0, _⟩ => show win16_1.index t (0 : Fin 3) * 1 + 1 * 0 = n.val; omega
  | ⟨1, _⟩ => show win16_1.index t (1 : Fin 3) * 112 + 1 * r.val = p.val; omega
  | ⟨2, _⟩ => show win16_1.index t (2 : Fin 3) * 512 + 1 * k.val = k.val; omega

/-! ## The carried tile after an image's last row tile -/

/-- The sum of |x[n] − x[n + 16]| over the tile at grid position `p` (zero past the grid). -/
def tileDist (c : Dev nD) (p : ℕ) : EReal :=
  if h : p < cfg16.N then
    ∑ r : Fin 112, ∑ k : Fin 512,
      max (tileX V c ⟨p, h⟩ (ix3 (0 : Fin 1) r k) - tileY V c ⟨p, h⟩ (ix3 (0 : Fin 1) r k))
        (-(tileX V c ⟨p, h⟩ (ix3 (0 : Fin 1) r k) - tileY V c ⟨p, h⟩ (ix3 (0 : Fin 1) r k)))
  else 0

/-- One point's work at an index: the carried entry plus the tile's sum. -/
theorem addDist_at (c : Dev nD) (t : Fin cfg16.N) (acc : Vec Ideal S1x8x128 .f32) (j : S1x8x128.Idx) :
    addDist V c t acc j = acc j + tileDist V c t.val := by
  unfold tileDist; rw [dif_pos t.isLt]
  exact addDist_apply _ _ acc j

/-- After the last row tile of image n, every entry of the carried tile is the sum of the image's 7 tiles' sums. -/
theorem running_last (c : Dev nD) (n : ℕ) (h : 7 * n + 6 < cfg16.N) (j : S1x8x128.Idx) :
    running V c (7 * n + 6) h j = ∑ s ∈ Finset.range 7, tileDist V c (7 * n + s) := by
  rw [Pipeline.eq_accAt (running V c) 7 (fun p hp => addDist V c ⟨p, hp⟩ zeroTile) (fun p hp acc => addDist V c ⟨p, hp⟩ acc)
    (fun p hp h0 => running_first V c ⟨p, hp⟩ h0) (fun p hp hs => running_next V c ⟨p + 1, hp⟩ hs) n 6 (by omega) h]
  rw [Pipeline.accAt_add_apply (fun p hp => addDist V c ⟨p, hp⟩ zeroTile) (fun p hp acc => addDist V c ⟨p, hp⟩ acc)
    (fun _ => (0 : EReal)) (fun p _ => tileDist V c p) (7 * n) 6
    (fun hb i => by show addDist V c ⟨7 * n, hb⟩ zeroTile i = 0 + tileDist V c (7 * n); rw [addDist_at]; exact congrArg (fun z => z + tileDist V c (7 * n)) (zero_apply i))
    (fun p hp acc i _ _ => addDist_at V c ⟨p, hp⟩ acc i) 6 le_rfl h j]
  exact zero_add _

/-! ## The result array -/

/-- The result array as one function of the index: at (n, a, b), the sum of image n's 7 tiles' sums. -/
def total (c : Dev nD) : S16x8x128.Idx → EReal := fun i => ∑ s ∈ Finset.range 7, tileDist V c (7 * (i 0).val + s)

/-- What the last row tile of an image writes back is that image's tile of `total`. -/
theorem flushed_eq (c : Dev nD) (t : Fin cfg16.N) (hf : (cfg16.win 2).flush t = true) :
    (dat V c).flushed 2 t = ((cfg16.win 2).blk t).view.read (Elt Ideal) (total V c) := by
  have h6 : t.val % 7 = 6 := (flush16_2 t).mp hf
  show (cfg16.win 2).cut (grid16.coords t) ((dat V c).after 2 t) = _
  rw [after_sum]
  funext y
  show running V c t.val t.isLt y = total V c (((cfg16.win 2).blk t).view.emb y)
  have e0 : ((((cfg16.win 2).blk t).view.emb y) 0).val = t.val / 7 := by
    show win16_2.index t (0 : Fin 3) * 1 + 1 * (y 0).val = t.val / 7
    have hy : (y 0).val < 1 := (y 0).isLt
    rw [(index_o t).1]; omega
  have same : ∀ (u : ℕ) (hu : u < cfg16.N), u = t.val → running V c t.val t.isLt y = running V c u hu y :=
    fun u hu e => by subst e; rfl
  have hlt : 7 * (t.val / 7) + 6 < cfg16.N := by have := t.isLt; omega
  rw [same (7 * (t.val / 7) + 6) hlt (by omega), running_last V c (t.val / 7) hlt y]
  unfold total; rw [e0]

/-- An index of the result array is in position t's tile iff each coordinate is in the tile's range on its axis. -/
theorem mem_tile_o (t : Fin cfg16.N) (i : S16x8x128.Idx) :
    i ∈ ((cfg16.win 2).blk t).view.set ↔ ∀ a : Fin 3, win16_2.index t a * S1x8x128.size a ≤ (i a).val ∧ (i a).val < win16_2.index t a * S1x8x128.size a + S1x8x128.size a := by
  show i ∈ ((View.whole (Pipeline.arrRef spec16 2)).slice (win16_2.rect t)).set ↔ _
  rw [View.set_slice_whole, Rect.mem_set_unit]
  exact Iff.rfl

/-- The whole result array after the last point. -/
theorem final (c : Dev nD) : (dat V c).arrAt 2 cfg16.N = total V c :=
  (dat V c).arrAt_eq_of_cover 2 (total V c) (flushed_eq V c) fun i => by
    have hi0 : (i 0).val < 16 := (i 0).isLt
    have hi1 : (i 1).val < 8 := (i 1).isLt
    have hi2 : (i 2).val < 128 := (i 2).isLt
    have hN : cfg16.N = 16 * 7 := N_16
    refine ⟨⟨7 * (i 0).val + 6, by rw [hN]; omega⟩, (flush16_2 _).mpr (by show (7 * (i 0).val + 6) % 7 = 6; omega), ?_⟩
    rw [mem_tile_o]
    obtain ⟨e0, e1, e2⟩ := index_o ⟨7 * (i 0).val + 6, by rw [hN]; omega⟩
    have d0 : (7 * (i 0).val + 6) / 7 = (i 0).val := by omega
    intro a
    match a with
    | ⟨0, _⟩ => show win16_2.index _ (0 : Fin 3) * 1 ≤ (i 0).val ∧ (i 0).val < win16_2.index _ (0 : Fin 3) * 1 + 1; rw [e0]; dsimp only; omega
    | ⟨1, _⟩ => show win16_2.index _ (1 : Fin 3) * 8 ≤ (i 1).val ∧ (i 1).val < win16_2.index _ (1 : Fin 3) * 8 + 8; rw [e1]; omega
    | ⟨2, _⟩ => show win16_2.index _ (2 : Fin 3) * 128 ≤ (i 2).val ∧ (i 2).val < win16_2.index _ (2 : Fin 3) * 128 + 128; rw [e2]; omega

/-- THE RESULT ARRAY after the last point: every entry of image n's tile is the sum over the 784 × 512 feature rows of
    |x[n] − x[n + 16]| (the 7 tiles of 112 rows are the 784 rows). -/
theorem value (c : Dev nD) (n : Fin 16) (a : Fin 8) (b : Fin 128) :
    ((dat (F := Ideal) V c).arrAt 2 cfg16.N : S16x8x128.Idx → EReal) (ix3 n a b)
      = ∑ q : Fin 784, ∑ k : Fin 512,
          max (feat V c (ix3 (⟨n.val, by omega⟩ : Fin 32) q k) - feat V c (ix3 (⟨n.val + 16, by omega⟩ : Fin 32) q k))
            (-(feat V c (ix3 (⟨n.val, by omega⟩ : Fin 32) q k) - feat V c (ix3 (⟨n.val + 16, by omega⟩ : Fin 32) q k))) := by
  have hN : cfg16.N = 16 * 7 := N_16
  have hn : n.val < 16 := n.isLt
  rw [final]
  show ∑ s ∈ Finset.range 7, tileDist V c (7 * n.val + s) = _
  rw [Finset.sum_range]
  refine Eq.trans ?_ (L1Sums.sum_rowTiles 7 112 (fun p : Fin (7 * 112) => ∑ k : Fin 512,
    max (feat V c (ix3 (⟨n.val, by omega⟩ : Fin 32) p k) - feat V c (ix3 (⟨n.val + 16, by omega⟩ : Fin 32) p k))
      (-(feat V c (ix3 (⟨n.val, by omega⟩ : Fin 32) p k) - feat V c (ix3 (⟨n.val + 16, by omega⟩ : Fin 32) p k)))))
  refine Finset.sum_congr rfl fun s _ => ?_
  have hs : s.val < 7 := s.isLt
  have hlt : 7 * n.val + s.val < cfg16.N := by rw [hN]; omega
  unfold tileDist; rw [dif_pos hlt]
  refine Finset.sum_congr rfl fun r _ => ?_
  beta_reduce
  refine Finset.sum_congr rfl fun k _ => ?_
  have hr : r.val < 112 := r.isLt
  rw [tile_x_apply V c ⟨_, hlt⟩ r k ⟨n.val, by omega⟩ (finProdFinEquiv (s, r))
      (by show n.val = (7 * n.val + s.val) / 7; omega)
      (by show r.val + 112 * s.val = (7 * n.val + s.val) % 7 * 112 + r.val; omega),
    tile_y_apply V c ⟨_, hlt⟩ r k ⟨n.val + 16, by omega⟩ (finProdFinEquiv (s, r))
      (by show n.val + 16 = (7 * n.val + s.val) / 7 + 16; omega)
      (by show r.val + 112 * s.val = (7 * n.val + s.val) % 7 * 112 + r.val; omega)]

end Cert.KernelIdeal.Reg16

end
-- ==== Proof.KI.GlueFlat3.lean ====
/-
  The features of the fourth level as the sums' region finds them: the stack 32 × 28 × 28 × 512 read in rows of 512
  consecutive entries of its row-major order, 784 rows to an image. Entry (n, q, k) is the stack's entry at position
  (n · 784 + q) · 512 + k.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem flat_3 (V : Valuation τ sig (Elt Ideal)) (n : Fin 32) (q : Fin 784) (k : Fin 512) :
    (StableHlo.after hostOps16 V main_v80 : FVec Ideal S32x784x512 .bf16) (ix3 n q k)
      = Cert.Spec.flat (Cert.Spec.curry4 (V main_v79 : FVec Ideal S32x28x28x512 .bf16)) ((n.val * 784 + q.val) * 512 + k.val) := by
  have h : StableHlo.after hostOps16 V main_v80 = shapeCast S32x784x512 (V main_v79) shapeCasts_S32x28x28x512_S32x784x512 := by
    after_results <;> rfl
  rw [h]
  exact Cert.Spec.flat_reshape3 _ _ n q k

end Cert.KernelIdeal.Glue

end
-- ==== Proof.KI.GlueMean3.lean ====
/-
  The mean absolute difference of the fourth feature level and the running total: the first entries of the sixteen
  images' tiles of sums added to 0, divided by the count, and added to the total so far.
-/
import proofs.«143011_g2000502688546152_pallasbulk_1201_3_alg».proof.Proof.KI.GenRegions
import proofs.«143011_g2000502688546152_pallasbulk_1201_3_alg».proof.Proof.Spec.Glue
import proofs.«143011_g2000502688546152_pallasbulk_1201_3_alg».proof.Proof.Spec.FlatIdx
import Idealize.ShloMosaic.Lib.StableHlo.Run
import Idealize.ShloMosaic.Lib.ValueIdx
import Idealize.ShloMosaic.Lib.Pipeline.Value
import Idealize.ShloMosaic.Lib.IdealHost
import proofs.«143011_g2000502688546152_pallasbulk_1201_3_alg».proof.Proof.KI.GlueSlice

set_option maxRecDepth 1536

noncomputable section

namespace Cert.KernelIdeal.Glue

open Cert.KernelIdeal Cert.KernelIdeal.Gen

open Idealize.ShloMosaic Idealize.ShloMosaic.TcCoe Idealize.ShloMosaic.StableHlo Idealize.ShloMosaic.ValueIdx

theorem mean_3 (V : Valuation τ sig (Elt Ideal)) :
    (StableHlo.after hostOps17 V main_v86 : FVec Ideal S_ .f32) ix0
      = (show EReal from (V main_v62 : FVec Ideal S_ .f32) ix0) + Ideal.div (0 + ∑ n : Fin 16, (show EReal from (V main_v81 : FVec Ideal S16x8x128 .f32) (ix3 n (0 : Fin 8) (0 : Fin 128))))
          (Ideal.ofBits .f32 0x4AC40000#32) := by
  have h : StableHlo.after hostOps17 V main_v86
      = addf (V main_v62)
          (Host.divf (Host.reduceAdd
              (shapeCast S16 (extractStridedSlice S16x1x1 ![0, 0, 0] (V main_v81) slices_S16x8x128_S16x1x1_0_0_0) shapeCasts_S16x1x1_S16)
              (constant (F := Ideal) S_ .f32 0x00000000#32) reducesTo_S16_S_d0 h_S_)
            (constant (F := Ideal) S_ .f32 0x4AC40000#32)) := by
    after_results <;> rfl
  rw [h, addf_apply, hostDivf_apply, hostReduceAdd_apply, Cert.Spec.hostReduceAdd_all]
  simp only [constant_apply, Ideal.ofBits_zero_f32, first_of_tile]

end Cert.KernelIdeal.Glue

end
-- ==== Proof.KI.RunLvl3.lean ====
import proofs.«143011_g2000502688546152_pallasbulk_1201_3_alg».proof.Proof.KI.RunChainAt
import proofs.«143011_g2000502688546152_pallasbulk_1201_3_alg».proof.Proof.KI.Reg16Value
import proofs.«143011_g2000502688546152_pallasbulk_1201_3_alg».proof.Proof.KI.GlueFlat3
import proofs.«143011_g2000502688546152_pallasbulk_1201_3_alg».proof.Proof.KI.GlueMean3
import proofs.«143011_g2000502688546152_pallasbulk_1201_3_alg».proof.Proof.Spec.Defs
import proofs.«143011_g2000502688546152_pallasbulk_1201_3_alg».proof.Proof.Spec.FlatIdx

/-! # Feature level 3 of the batch arrangement: the mean absolute difference joins the running total

The level's features are a stack of 32 images [32, 28, 28, 512]. Read in rows of 512 consecutive entries of the row-major
order, 784 rows to an image, they are the array the sums' region finds; the region leaves, for each of the first 16
images, the sum of |entry of image n − entry of image n + 16| in every entry of that image's tile; the host then adds
the sixteen first entries to 0, divides by the count and adds the quotient to the running total. -/

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The array the sums' region finds, entry (n, q, k): the feature stack's entry at position (n · 784 + q) · 512 + k of
    its row-major order. -/
theorem rows_3 (f : Cert.Spec.Act 32 28 28 512)
    (hfeat : ∀ n h w ch, (W52 m c main_v79 : FVec Ideal S32x28x28x512 .bf16) (ix4 n h w ch) = f n h w ch)
    (n : Fin 32) (q : Fin 784) (k : Fin 512) :
    Reg16.feat (U53 m) c (ix3 n q k) = Cert.Spec.flat f ((n.val * 784 + q.val) * 512 + k.val) := by
  show (W53 m c main_v80 : FVec Ideal S32x784x512 .bf16) (ix3 n q k) = _
  unfold W53
  rw [Glue.flat_3 (W52 m c) n q k]
  have hc : Cert.Spec.curry4 (W52 m c main_v79 : FVec Ideal S32x28x28x512 .bf16) = f :=
    funext fun n => funext fun h => funext fun w => funext fun ch => hfeat n h w ch
  rw [hc]

/-- THE LEVEL: the running total after this level's host stretch is the total before it plus the level's mean
    absolute difference in the batch arrangement. -/
theorem lvl_3 (f : Cert.Spec.Act 32 28 28 512)
    (hfeat : ∀ n h w ch, (W52 m c main_v79 : FVec Ideal S32x28x28x512 .bf16) (ix4 n h w ch) = f n h w ch) :
    (W55 m c main_v86 : FVec Ideal S_ .f32) ix0 = (show EReal from (W54 m c main_v62 : FVec Ideal S_ .f32) ix0) + Cert.Spec.l1K 784 f Cert.Spec.total3 := by
  unfold W55
  rw [Glue.mean_3 (W54 m c)]
  refine congrArg (fun s => (show EReal from (W54 m c main_v62 : FVec Ideal S_ .f32) ix0) + s) ?_
  unfold Cert.Spec.l1K
  refine congrArg (fun s => Ideal.div (0 + s) (Ideal.ofBits .f32 0x4AC40000#32)) ?_
  refine Finset.sum_congr rfl fun n _ => ?_
  rw [W54_self m c]
  unfold out16
  refine (Reg16.value (U53 m) c n (0 : Fin 8) (0 : Fin 128)).trans ?_
  show @Eq EReal _ _
  unfold Cert.Spec.l1PartK Cert.Spec.eabs
  refine Finset.sum_congr rfl fun q _ => Finset.sum_congr rfl fun k _ => ?_
  rw [rows_3 m c f hfeat, rows_3 m c f hfeat]

end Cert.KernelIdeal.Run

end
-- ==== Proof.KI.RunLoss.lean ====
import proofs.«143011_g2000502688546152_pallasbulk_1201_3_alg».proof.Proof.KI.RunLvl0
import proofs.«143011_g2000502688546152_pallasbulk_1201_3_alg».proof.Proof.KI.RunLvl1
import proofs.«143011_g2000502688546152_pallasbulk_1201_3_alg».proof.Proof.KI.RunLvl2
import proofs.«143011_g2000502688546152_pallasbulk_1201_3_alg».proof.Proof.KI.RunLvl3
import proofs.«143011_g2000502688546152_pallasbulk_1201_3_alg».proof.Proof.KI.Run

/-! # The running total through the four feature levels

Each level's host stretch adds its mean absolute difference to the scalar the level before left; between two levels no
region and no host stretch writes that scalar's buffer. So the scalar the network ends with is the four levels' means
added to 0, in order. -/

set_option maxRecDepth 1536

noncomputable section

namespace Cert.KernelIdeal.Run

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The total after level 0 is still in its buffer when level 1's host stretch reads it: nothing in between writes it. -/
theorem keep_0 : W22 m c main_v21 = W11 m c main_v21 :=
  (W22_of m c main_v21 (by decide)).trans <|
    (W21_of m c main_v21 (by decide)).trans <|
    (W20_of m c main_v21 (by decide)).trans <|
    (W19_of m c main_v21 (by decide)).trans <|
    (W18_of m c main_v21 (by decide)).trans <|
    (W17_of m c main_v21 (by decide)).trans <|
    (W16_of m c main_v21 (by decide)).trans <|
    (W15_of m c main_v21 (by decide)).trans <|
    (W14_of m c main_v21 (by decide)).trans <|
    (W13_of m c main_v21 (by decide)).trans <|
    (W12_of m c main_v21 (by decide))

/-- The same for the total after level 1, up to level 2's host stretch. -/
theorem keep_1 : W38 m c main_v38 = W23 m c main_v38 :=
  (W38_of m c main_v38 (by decide)).trans <|
    (W37_of m c main_v38 (by decide)).trans <|
    (W36_of m c main_v38 (by decide)).trans <|
    (W35_of m c main_v38 (by decide)).trans <|
    (W34_of m c main_v38 (by decide)).trans <|
    (W33_of m c main_v38 (by decide)).trans <|
    (W32_of m c main_v38 (by decide)).trans <|
    (W31_of m c main_v38 (by decide)).trans <|
    (W30_of m c main_v38 (by decide)).trans <|
    (W29_of m c main_v38 (by decide)).trans <|
    (W28_of m c main_v38 (by decide)).trans <|
    (W27_of m c main_v38 (by decide)).trans <|
    (W26_of m c main_v38 (by decide)).trans <|
    (W25_of m c main_v38 (by decide)).trans <|
    (W24_of m c main_v38 (by decide))

/-- The same for the total after level 2, up to level 3's host stretch. -/
theorem keep_2 : W54 m c main_v62 = W39 m c main_v62 :=
  (W54_of m c main_v62 (by decide)).trans <|
    (W53_of m c main_v62 (by decide)).trans <|
    (W52_of m c main_v62 (by decide)).trans <|
    (W51_of m c main_v62 (by decide)).trans <|
    (W50_of m c main_v62 (by decide)).trans <|
    (W49_of m c main_v62 (by decide)).trans <|
    (W48_of m c main_v62 (by decide)).trans <|
    (W47_of m c main_v62 (by decide)).trans <|
    (W46_of m c main_v62 (by decide)).trans <|
    (W45_of m c main_v62 (by decide)).trans <|
    (W44_of m c main_v62 (by decide)).trans <|
    (W43_of m c main_v62 (by decide)).trans <|
    (W42_of m c main_v62 (by decide)).trans <|
    (W41_of m c main_v62 (by decide)).trans <|
    (W40_of m c main_v62 (by decide))

/-- THE SCALAR from the four levels' features: whatever stacks `f0 … f3` the four sums' regions' feature arrays hold,
    the network's scalar is their four mean absolute differences, in the batch arrangement, added to 0 in order. -/
theorem result_of_feats
    (f0 : Cert.Spec.Act 32 224 224 64) (f1 : Cert.Spec.Act 32 112 112 128)
    (f2 : Cert.Spec.Act 32 56 56 256) (f3 : Cert.Spec.Act 32 28 28 512)
    (h0 : ∀ n h w ch, (W8 m c main_v14 : FVec Ideal S32x224x224x64 .bf16) (ix4 n h w ch) = f0 n h w ch)
    (h1 : ∀ n h w ch, (W20 m c main_v31 : FVec Ideal S32x112x112x128 .bf16) (ix4 n h w ch) = f1 n h w ch)
    (h2 : ∀ n h w ch, (W36 m c main_v55 : FVec Ideal S32x56x56x256 .bf16) (ix4 n h w ch) = f2 n h w ch)
    (h3 : ∀ n h w ch, (W52 m c main_v79 : FVec Ideal S32x28x28x512 .bf16) (ix4 n h w ch) = f3 n h w ch) :
    (result (F := Ideal) m c : FVec Ideal S_ .f32) ix0
      = 0 + Cert.Spec.l1K 6272 f0 Cert.Spec.total0 + Cert.Spec.l1K 3136 f1 Cert.Spec.total1
          + Cert.Spec.l1K 1568 f2 Cert.Spec.total2 + Cert.Spec.l1K 784 f3 Cert.Spec.total3 := by
  unfold result
  rw [lvl_3 m c f3 h3, keep_2 m c, lvl_2 m c f2 h2, keep_1 m c, lvl_1 m c f1 h1, keep_0 m c, lvl_0 m c f0 h0]

end Cert.KernelIdeal.Run

end
-- ==== Proof.KI.RunValue.lean ====
/-
  The scalar the network leaves, at the extended reals, is the perceptual loss of its arguments in the batch
  arrangement: input and target stacked into 32 images and normalised; ten convolutions and three poolings
  applied to the stack; at each of the four feature levels the sixteen per-image sums of absolute differences
  between image n and image n + 16, added up and divided by the count; the four means added.
-/
import proofs.«143011_g2000502688546152_pallasbulk_1201_3_alg».proof.Proof.KI.RunArgs
import proofs.«143011_g2000502688546152_pallasbulk_1201_3_alg».proof.Proof.KI.RunActs
import proofs.«143011_g2000502688546152_pallasbulk_1201_3_alg».proof.Proof.KI.RunLoss

set_option maxRecDepth 1536

noncomputable section

namespace Cert.KernelIdeal.Run

open Cert.KernelIdeal Cert.KernelIdeal.Gen

open Idealize.ShloMosaic Idealize.ShloMosaic.TcCoe Idealize.ShloMosaic.ValueIdx

/-- THE VALUE: the result is the loss of the arguments, in the batch arrangement — the four levels' features are the
    network's four levels of the normalised stack, and the scalar is their four means added to 0 in order. -/
theorem result_eq (m : (ℓ : Loc nD τ sig) → Buf (Elt Ideal) ℓ) (c : Dev nD) :
    result (F := Ideal) m c ValueIdx.ix0 = Cert.Spec.lossK (args m c) :=
  result_of_feats m c
    (Cert.Spec.lvl0 (args m c).P (act_in m c)) (Cert.Spec.lvl1 (args m c).P (act_in m c))
    (Cert.Spec.lvl2 (args m c).P (act_in m c)) (Cert.Spec.lvl3 (args m c).P (act_in m c))
    (feat_0 m c) (feat_1 m c) (feat_2 m c) (feat_3 m c)

end Cert.KernelIdeal.Run

end
-- ==== Proof.RI.Reg0.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 0: a 3×3 convolution with bias and ReLU over one row tile per grid point

The grid is (image n, row tile r), 16 × 14 points. Windows 0 and 1 are the row tiles r and r+1 of ONE zero-padded
input array [16, 240, 232, 3]; window 2 is the whole kernel array [3, 3, 3, 64]; window 3 the bias [1, 64]; window 4
the output's row tile r of [16, 224, 224, 64]. The body flattens the two input tiles to rows of 232·16 pixels, appends
232 zero rows, and adds nine matrix products — one per tap (dy, dx), each a row-shifted slab against the tap's
[3, 64] matrix —, then the bias, then the maximum with zero, and keeps the first 224 columns of each row. -/

set_option maxRecDepth 16384

noncomputable section

namespace Cert.ReferenceIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The taps -/

/-- The [1, 1, 3, 64] rectangle of the kernel array at tap (dy, dx). -/
abbrev tapRect (dy dx : Nat) (h : ∀ a, ![dy, dx, 0, 0] a + S1x1x3x64.size a ≤ S3x3x3x64.size a) : Rect S3x3x3x64 :=
  Rect.unit (s := S3x3x3x64) ![dy, dx, 0, 0] S1x1x3x64.size h

/-- The whole input tile and the whole bias row, as the body loads them. -/
abbrev rIn : Rect S1x16x232x3 :=
  Rect.unit (s := S1x16x232x3) ![0, 0, 0, 0] S1x16x232x3.size inb_S1x16x232x3_S1x16x232x3_0_0_0_0
abbrev rBias : Rect S1x64 := Rect.unit (s := S1x64) ![0, 0] S1x64.size inb_S1x64_S1x64_0_0

/-! ## What the body leaves in the output window's buffer -/

/-- The output tile from the two input tiles `xa`, `xb`, the kernel array `wk` and the bias `b`: the sum of the nine
    taps' matrix products in the order (0,0), (0,1), …, (2,2), plus the bias, clamped below at zero, cut to 224 columns. -/
def out (xa xb : Vec F S1x16x232x3 .f32) (wk : Vec F S3x3x3x64 .f32) (b : Vec F S1x64 .f32) : Vec F S1x16x224x64 .f32 :=
  k0_pay1
    (k0_pay8 (k0_pay2 (View.ld xa rIn) (View.ld xb rIn)) (k0_pay3 (View.ld xa rIn) (View.ld xb rIn))
      (k0_pay4 (View.ld xa rIn) (View.ld xb rIn))
      (k0_pay5 (View.ld xa rIn) (View.ld xb rIn)
        (View.ld wk (tapRect 0 0 inb_S3x3x3x64_S1x1x3x64_0_0_0_0))
        (View.ld wk (tapRect 0 1 inb_S3x3x3x64_S1x1x3x64_0_1_0_0))
        (View.ld wk (tapRect 0 2 inb_S3x3x3x64_S1x1x3x64_0_2_0_0)))
      (k0_pay6 (View.ld xa rIn) (View.ld xb rIn))
      (k0_pay7 (View.ld wk (tapRect 1 0 inb_S3x3x3x64_S1x1x3x64_1_0_0_0)))
      (View.ld wk (tapRect 1 1 inb_S3x3x3x64_S1x1x3x64_1_1_0_0))
      (View.ld wk (tapRect 1 2 inb_S3x3x3x64_S1x1x3x64_1_2_0_0))
      (View.ld wk (tapRect 2 0 inb_S3x3x3x64_S1x1x3x64_2_0_0_0))
      (View.ld wk (tapRect 2 1 inb_S3x3x3x64_S1x1x3x64_2_1_0_0))
      (View.ld wk (tapRect 2 2 inb_S3x3x3x64_S1x1x3x64_2_2_0_0))
      (View.ld b rBias))
    (k0_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x224x64 :=
  Rect.unit (s := S1x16x224x64) ![0, 0, 0, 0] S1x16x224x64.size inb_S1x16x224x64_S1x16x224x64_0_0_0_0

theorem hz4 : (![0, 0, 0, 0] : Fin 4 → Nat) = fun _ => 0 := funext fun a => by fin_cases a <;> rfl

/-- The one store covers the output tile. -/
theorem cover_out (p : Vec F S1x16x224x64 .f32) (y : S1x16x224x64.Idx) :
    ∃ pc ∈ ([⟨rOut, p⟩] : List (View.Piece (Elt F) S1x16x224x64 .f32)), y ∈ pc.1.set :=
  View.cover_of_tiled [⟨rOut, p⟩] S1x16x224x64.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid0.Coords)
    (arg2 : Memref sig .tc .vmem S1x16x232x3 .f32) (harg2 : arg2.IsWhole)
    (arg3 : Memref sig .tc .vmem S1x16x232x3 .f32) (harg3 : arg3.IsWhole)
    (arg4 : Memref sig .tc .vmem S3x3x3x64 .f32) (harg4 : arg4.IsWhole)
    (arg5 : Memref sig .tc .vmem S1x64 .f32) (harg5 : arg5.IsWhole)
    (arg6 : Memref sig .tc .vmem S1x16x224x64 .f32) (harg6 : arg6.IsWhole)
    (xa xb : Vec F S1x16x232x3 .f32) (wk : Vec F S3x3x3x64 .f32) (b : Vec F S1x64 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc0__conv3x3_relu_kernel i arg2 harg2 arg3 harg3 arg4 harg4 arg5 harg5 arg6 harg6) K := by
  sl_unfold [cc0__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg0.N + 1)) : (dat V c).Φ t = Pipeline.ΦA spec0 c := by dsimp only [dat]
theorem owed_eq (c : Dev nD) (t : Fin (cfg0.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg0 c)
    (hA : dat'.A 0 = V c (Pipeline.arrRef spec0 0)) (hafter : ∀ t, dat'.after 0 t = iblk V c 0 t)
    (t : Fin cfg0.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg0.N) (d) : (dat V c).before 0 t d = iblk V c 0 t :=
  before_0_of V (dat V c) (A_eq V c 0) (after_0 V c) t d

theorem before_1_of {c : Dev nD} (dat' : Dat τ (Elt F) Unit ℕ (UR sig nD τ) ℕ cfg0 c)
    (hA : dat'.A 1 = V c (Pipeline.arrRef spec0 1)) (hafter : ∀ t, dat'.after 1 t = iblk V c 1 t)
    (t : Fin cfg0.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg0.N) (d) : (dat V c).before 1 t d = iblk V c 1 t :=
  before_1_of V (dat V c) (A_eq V c 1) (after_1 V c) t d

theorem before_2_of {c : Dev nD} (dat' : Dat τ (Elt F) Unit ℕ (UR sig nD τ) ℕ cfg0 c)
    (hA : dat'.A 2 = V c (Pipeline.arrRef spec0 2)) (hafter : ∀ t, dat'.after 2 t = iblk V c 2 t)
    (t : Fin cfg0.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg0.N) (d) : (dat V c).before 2 t d = iblk V c 2 t :=
  before_2_of V (dat V c) (A_eq V c 2) (after_2 V c) t d

theorem before_3_of {c : Dev nD} (dat' : Dat τ (Elt F) Unit ℕ (UR sig nD τ) ℕ cfg0 c)
    (hA : dat'.A 3 = V c (Pipeline.arrRef spec0 3)) (hafter : ∀ t, dat'.after 3 t = iblk V c 3 t)
    (t : Fin cfg0.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg0.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the four inputs' buffers hold their blocks, so the body's triple applies; the invariant and
    the debt pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W0, bigSep_W0]
  exact sound_body V c t

end Cert.ReferenceIdeal.Reg0
-- ==== Proof.RI.Rest.lean ====
import proofs.«143011_g2000502688546152_pallasbulk_1201_3_alg».proof.Proof.Gen.ReferenceIdeal.Launch
import Idealize.ShloMosaic.Lib.Pipeline.Regions

/-! # What every region of the two-stream program shares

No pallas_call of this program has a prefetched table, a semaphore of its own, or a debt to another core. Between two
items of @main a core holds every unscoped buffer whole at a valuation, and beside them only its generator register
(at some state) and the record that it owes nothing. -/

noncomputable section

namespace Cert.ReferenceIdeal.Rest

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen

variable {F : FTy → Type} [FloatOps F]

local notation "𝕄" => MT nD τ sig Unit (Elt F) ℕ (UR sig nD τ) ℕ

/-- The prefetched tables' admissible contents: there is no table. -/
abbrev adm : (p : Fin 30) → (pcfgs (F := F) p).Adm := fun p => (cfgs p).toPCfg_adm

/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 :=
  iprop((∃ r, prngReg c r) ∗ ∃ W, owes (c : Thread nD τ) (0 : CellTallies nD τ sig Unit) W)

end Cert.ReferenceIdeal.Rest

end
-- ==== Proof.RI.Seg0.lean ====
import proofs.«143011_g2000502688546152_pallasbulk_1201_3_alg».proof.Proof.RI.Reg0
import proofs.«143011_g2000502688546152_pallasbulk_1201_3_alg».proof.Proof.RI.Rest
import Idealize.ShloMosaic.Lib.Pipeline.Regions

/-! # Region 0 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec0 4)) ((dat (VW W) c).arrAt 4 cfg0.N)

theorem Wout_out (c : Dev nD) :
    Wout W c (Proc.devRef .tc (Pipeline.arrRef spec0 4)) = (dat (VW W) c).arrAt 4 cfg0.N := by
  unfold Wout; exact Function.update_self ..

theorem Wout_of_ne (c : Dev nD) (b : DevRef τ sig) (hb : b ≠ Proc.devRef .tc (Pipeline.arrRef spec0 4)) :
    Wout W c b = W c b := by
  unfold Wout; exact Function.update_of_ne hb ..

theorem Wout_of_ne_ref (c : Dev nD) (b : Ref sig .tc) (hb : b ≠ Pipeline.arrRef spec0 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec0)
    = {Pipeline.arrRef spec0 0, Pipeline.arrRef spec0 2, Pipeline.arrRef spec0 3, Pipeline.arrRef spec0 4} := by decide

/-- The pipeline's arrays at contents `G`, window by window: the input array at its two half shares, the rest whole. -/
theorem arrays_eq (c : Dev nD) (G : (w : Fin cfg0.W) → Buf (Elt F) ((cfg0.win w).arr.view.loc (c : Thread nD τ))) :
    ((dat (VW W) c).arrays G : sProp 𝕄) = iprop(
      (((c : Thread nD τ).loc (Pipeline.arrRef spec0 0)) ↦{fullShare.left} G 0)
      ∗ (((c : Thread nD τ).loc (Pipeline.arrRef spec0 1)) ↦{fullShare.right} G 1)
      ∗ (((c : Thread nD τ).loc (Pipeline.arrRef spec0 2)) ↦{fullShare} G 2)
      ∗ (((c : Thread nD τ).loc (Pipeline.arrRef spec0 3)) ↦{fullShare} G 3)
      ∗ (((c : Thread nD τ).loc (Pipeline.arrRef spec0 4)) ↦{fullShare} G 4)) := by
  have h : ((dat (VW W) c).arrays G : sProp 𝕄) = bigSep Finset.univ fun w =>
      (((c : Thread nD τ).loc (Pipeline.arrRef spec0 w)) ↦{(dat (VW W) c).share w} G w : sProp 𝕄) := by
    unfold Pipeline.Dat.arrays
    exact bigSep_congr fun w _ => by rw [(arr_whole0 w).set_eq_univ]
  rw [h, bigSep_W0, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec0 c X : sProp 𝕄) = iprop(
      (((c : Thread nD τ).loc (Pipeline.arrRef spec0 0)) ↦{fullShare} X (Pipeline.arrRef spec0 0))
      ∗ (((c : Thread nD τ).loc (Pipeline.arrRef spec0 2)) ↦{fullShare} X (Pipeline.arrRef spec0 2))
      ∗ (((c : Thread nD τ).loc (Pipeline.arrRef spec0 3)) ↦{fullShare} X (Pipeline.arrRef spec0 3))
      ∗ (((c : Thread nD τ).loc (Pipeline.arrRef spec0 4)) ↦{fullShare} X (Pipeline.arrRef spec0 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec0 c X ∗ Pipeline.unscopedRest spec0 c X) :=
  Pipeline.unscopedBufs_split₀ cfgs 0 winFacts₀0.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec0 1) = (c : Thread nD τ).loc (Pipeline.arrRef spec0 0) := rfl
theorem halves01 (c : Dev nD) :
    (((c : Thread nD τ).loc (Pipeline.arrRef spec0 0)) ↦{fullShare} VW W c (Pipeline.arrRef spec0 0) : sProp 𝕄)
      ⊣⊢ iprop((((c : Thread nD τ).loc (Pipeline.arrRef spec0 0)) ↦{fullShare.left} VW W c (Pipeline.arrRef spec0 0))
        ∗ (((c : Thread nD τ).loc (Pipeline.arrRef spec0 1)) ↦{fullShare.right} VW W c (Pipeline.arrRef spec0 1))) :=
  halves (loc_1 c) _ _ HEq.rfl

/-- An array's entry contents are what the region finds. -/
theorem arrAt_zero (c : Dev nD) (w : Fin cfg0.W) : (dat (VW W) c).arrAt w 0 = VW W c (Pipeline.arrRef spec0 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec0 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec0 c (fun b => Wout W c b) : sProp 𝕄) = iprop(
      (((c : Thread nD τ).loc (Pipeline.arrRef spec0 0)) ↦{fullShare} VW W c (Pipeline.arrRef spec0 0))
      ∗ (((c : Thread nD τ).loc (Pipeline.arrRef spec0 2)) ↦{fullShare} VW W c (Pipeline.arrRef spec0 2))
      ∗ (((c : Thread nD τ).loc (Pipeline.arrRef spec0 3)) ↦{fullShare} VW W c (Pipeline.arrRef spec0 3))
      ∗ (((c : Thread nD τ).loc (Pipeline.arrRef spec0 4)) ↦{fullShare} (dat (VW W) c).arrAt 4 cfg0.N)) := by
  rw [arrBufs_eq]
  rw [Wout_of_ne_ref W c (Pipeline.arrRef spec0 0) (by decide)]
  rw [Wout_of_ne_ref W c (Pipeline.arrRef spec0 2) (by decide)]
  rw [Wout_of_ne_ref W c (Pipeline.arrRef spec0 3) (by decide)]
  rw [Wout_out]

/-- The buffers that are no array of the region hold at the exit what they held at entry. -/
theorem rest_out (c : Dev nD) :
    (Pipeline.unscopedRest spec0 c (fun b => Wout W c b) : sProp 𝕄) = Pipeline.unscopedRest spec0 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg0.N) : sProp 𝕄) = iprop(
      (((c : Thread nD τ).loc (Pipeline.arrRef spec0 0)) ↦{fullShare.left} VW W c (Pipeline.arrRef spec0 0))
      ∗ (((c : Thread nD τ).loc (Pipeline.arrRef spec0 1)) ↦{fullShare.right} VW W c (Pipeline.arrRef spec0 1))
      ∗ (((c : Thread nD τ).loc (Pipeline.arrRef spec0 2)) ↦{fullShare} VW W c (Pipeline.arrRef spec0 2))
      ∗ (((c : Thread nD τ).loc (Pipeline.arrRef spec0 3)) ↦{fullShare} VW W c (Pipeline.arrRef spec0 3))
      ∗ (((c : Thread nD τ).loc (Pipeline.arrRef spec0 4)) ↦{fullShare} (dat (VW W) c).arrAt 4 cfg0.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg0.N) ∗ Pipeline.unscopedRest spec0 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 0 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 0 = fun c => dat (VW W) c) :
    RegionSeg (pcfgs (F := F)) adm pdats () defs₀ Variants.none L lv 0 where
  win := winFacts₀0
  block_pos := block_pos0
  stage_whole := stage_whole0
  K := PEmpty
  osem k := k.elim
  ho := Pipeline.OwnSemFacts.none _
  hbody c := by rw [hp]; exact (body_obligation (VW W) c).loose
  hwaits := Pipeline.hwaits_of_owed_zero _ _ _ _ L lv 0 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec0 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 0 c).Φ 0 = Pipeline.ΦA spec0 c := by rw [hp]; exact Φ_eq _ c 0
    rw [hΦ]; unfold Pipeline.ΦA
    iintro ⟨Hp, -, Hr⟩
    isplitl [Hr]; · iexact Hr
    iexact Hp
  hout c := by
    have hΦ : (pdats 0 c).Φ (Fin.last _) = Pipeline.ΦA spec0 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg0

end
-- ==== Proof.RI.Reg1.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 1: a 3×3 convolution with bias and ReLU over one row tile per grid point

The grid is (image n, row tile r), 16 × 14 points. Windows 0 and 1 are the row tiles r and r+1 of ONE zero-padded
input array [16, 240, 232, 3]; window 2 is the whole kernel array [3, 3, 3, 64]; window 3 the bias [1, 64]; window 4
the output's row tile r of [16, 224, 224, 64]. The body flattens the two input tiles to rows of 232·16 pixels, appends
232 zero rows, and adds nine matrix products — one per tap (dy, dx), each a row-shifted slab against the tap's
[3, 64] matrix —, then the bias, then the maximum with zero, and keeps the first 224 columns of each row. -/

set_option maxRecDepth 16384

noncomputable section

namespace Cert.ReferenceIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The taps -/

/-- The [1, 1, 3, 64] rectangle of the kernel array at tap (dy, dx). -/
abbrev tapRect (dy dx : Nat) (h : ∀ a, ![dy, dx, 0, 0] a + S1x1x3x64.size a ≤ S3x3x3x64.size a) : Rect S3x3x3x64 :=
  Rect.unit (s := S3x3x3x64) ![dy, dx, 0, 0] S1x1x3x64.size h

/-- The whole input tile and the whole bias row, as the body loads them. -/
abbrev rIn : Rect S1x16x232x3 :=
  Rect.unit (s := S1x16x232x3) ![0, 0, 0, 0] S1x16x232x3.size inb_S1x16x232x3_S1x16x232x3_0_0_0_0
abbrev rBias : Rect S1x64 := Rect.unit (s := S1x64) ![0, 0] S1x64.size inb_S1x64_S1x64_0_0

/-! ## What the body leaves in the output window's buffer -/

/-- The output tile from the two input tiles `xa`, `xb`, the kernel array `wk` and the bias `b`: the sum of the nine
    taps' matrix products in the order (0,0), (0,1), …, (2,2), plus the bias, clamped below at zero, cut to 224 columns. -/
def out (xa xb : Vec F S1x16x232x3 .f32) (wk : Vec F S3x3x3x64 .f32) (b : Vec F S1x64 .f32) : Vec F S1x16x224x64 .f32 :=
  k1_pay1
    (k1_pay8 (k1_pay2 (View.ld xa rIn) (View.ld xb rIn)) (k1_pay3 (View.ld xa rIn) (View.ld xb rIn))
      (k1_pay4 (View.ld xa rIn) (View.ld xb rIn))
      (k1_pay5 (View.ld xa rIn) (View.ld xb rIn)
        (View.ld wk (tapRect 0 0 inb_S3x3x3x64_S1x1x3x64_0_0_0_0))
        (View.ld wk (tapRect 0 1 inb_S3x3x3x64_S1x1x3x64_0_1_0_0))
        (View.ld wk (tapRect 0 2 inb_S3x3x3x64_S1x1x3x64_0_2_0_0)))
      (k1_pay6 (View.ld xa rIn) (View.ld xb rIn))
      (k1_pay7 (View.ld wk (tapRect 1 0 inb_S3x3x3x64_S1x1x3x64_1_0_0_0)))
      (View.ld wk (tapRect 1 1 inb_S3x3x3x64_S1x1x3x64_1_1_0_0))
      (View.ld wk (tapRect 1 2 inb_S3x3x3x64_S1x1x3x64_1_2_0_0))
      (View.ld wk (tapRect 2 0 inb_S3x3x3x64_S1x1x3x64_2_0_0_0))
      (View.ld wk (tapRect 2 1 inb_S3x3x3x64_S1x1x3x64_2_1_0_0))
      (View.ld wk (tapRect 2 2 inb_S3x3x3x64_S1x1x3x64_2_2_0_0))
      (View.ld b rBias))
    (k1_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x224x64 :=
  Rect.unit (s := S1x16x224x64) ![0, 0, 0, 0] S1x16x224x64.size inb_S1x16x224x64_S1x16x224x64_0_0_0_0

theorem hz4 : (![0, 0, 0, 0] : Fin 4 → Nat) = fun _ => 0 := funext fun a => by fin_cases a <;> rfl

/-- The one store covers the output tile. -/
theorem cover_out (p : Vec F S1x16x224x64 .f32) (y : S1x16x224x64.Idx) :
    ∃ pc ∈ ([⟨rOut, p⟩] : List (View.Piece (Elt F) S1x16x224x64 .f32)), y ∈ pc.1.set :=
  View.cover_of_tiled [⟨rOut, p⟩] S1x16x224x64.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid1.Coords)
    (arg2 : Memref sig .tc .vmem S1x16x232x3 .f32) (harg2 : arg2.IsWhole)
    (arg3 : Memref sig .tc .vmem S1x16x232x3 .f32) (harg3 : arg3.IsWhole)
    (arg4 : Memref sig .tc .vmem S3x3x3x64 .f32) (harg4 : arg4.IsWhole)
    (arg5 : Memref sig .tc .vmem S1x64 .f32) (harg5 : arg5.IsWhole)
    (arg6 : Memref sig .tc .vmem S1x16x224x64 .f32) (harg6 : arg6.IsWhole)
    (xa xb : Vec F S1x16x232x3 .f32) (wk : Vec F S3x3x3x64 .f32) (b : Vec F S1x64 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc1__conv3x3_relu_kernel i arg2 harg2 arg3 harg3 arg4 harg4 arg5 harg5 arg6 harg6) K := by
  sl_unfold [cc1__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg1.N + 1)) : (dat V c).Φ t = Pipeline.ΦA spec1 c := by dsimp only [dat]
theorem owed_eq (c : Dev nD) (t : Fin (cfg1.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg1 c)
    (hA : dat'.A 0 = V c (Pipeline.arrRef spec1 0)) (hafter : ∀ t, dat'.after 0 t = iblk V c 0 t)
    (t : Fin cfg1.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg1.N) (d) : (dat V c).before 0 t d = iblk V c 0 t :=
  before_0_of V (dat V c) (A_eq V c 0) (after_0 V c) t d

theorem before_1_of {c : Dev nD} (dat' : Dat τ (Elt F) Unit ℕ (UR sig nD τ) ℕ cfg1 c)
    (hA : dat'.A 1 = V c (Pipeline.arrRef spec1 1)) (hafter : ∀ t, dat'.after 1 t = iblk V c 1 t)
    (t : Fin cfg1.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg1.N) (d) : (dat V c).before 1 t d = iblk V c 1 t :=
  before_1_of V (dat V c) (A_eq V c 1) (after_1 V c) t d

theorem before_2_of {c : Dev nD} (dat' : Dat τ (Elt F) Unit ℕ (UR sig nD τ) ℕ cfg1 c)
    (hA : dat'.A 2 = V c (Pipeline.arrRef spec1 2)) (hafter : ∀ t, dat'.after 2 t = iblk V c 2 t)
    (t : Fin cfg1.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg1.N) (d) : (dat V c).before 2 t d = iblk V c 2 t :=
  before_2_of V (dat V c) (A_eq V c 2) (after_2 V c) t d

theorem before_3_of {c : Dev nD} (dat' : Dat τ (Elt F) Unit ℕ (UR sig nD τ) ℕ cfg1 c)
    (hA : dat'.A 3 = V c (Pipeline.arrRef spec1 3)) (hafter : ∀ t, dat'.after 3 t = iblk V c 3 t)
    (t : Fin cfg1.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg1.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the four inputs' buffers hold their blocks, so the body's triple applies; the invariant and
    the debt pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W1, bigSep_W1]
  exact sound_body V c t

end Cert.ReferenceIdeal.Reg1
-- ==== Proof.RI.Seg1.lean ====
import proofs.«143011_g2000502688546152_pallasbulk_1201_3_alg».proof.Proof.RI.Reg1
import proofs.«143011_g2000502688546152_pallasbulk_1201_3_alg».proof.Proof.RI.Rest
import Idealize.ShloMosaic.Lib.Pipeline.Regions

/-! # Region 1 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec1 4)) ((dat (VW W) c).arrAt 4 cfg1.N)

theorem Wout_out (c : Dev nD) :
    Wout W c (Proc.devRef .tc (Pipeline.arrRef spec1 4)) = (dat (VW W) c).arrAt 4 cfg1.N := by
  unfold Wout; exact Function.update_self ..

theorem Wout_of_ne (c : Dev nD) (b : DevRef τ sig) (hb : b ≠ Proc.devRef .tc (Pipeline.arrRef spec1 4)) :
    Wout W c b = W c b := by
  unfold Wout; exact Function.update_of_ne hb ..

theorem Wout_of_ne_ref (c : Dev nD) (b : Ref sig .tc) (hb : b ≠ Pipeline.arrRef spec1 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec1)
    = {Pipeline.arrRef spec1 0, Pipeline.arrRef spec1 2, Pipeline.arrRef spec1 3, Pipeline.arrRef spec1 4} := by decide

/-- The pipeline's arrays at contents `G`, window by window: the input array at its two half shares, the rest whole. -/
theorem arrays_eq (c : Dev nD) (G : (w : Fin cfg1.W) → Buf (Elt F) ((cfg1.win w).arr.view.loc (c : Thread nD τ))) :
    ((dat (VW W) c).arrays G : sProp 𝕄) = iprop(
      (((c : Thread nD τ).loc (Pipeline.arrRef spec1 0)) ↦{fullShare.left} G 0)
      ∗ (((c : Thread nD τ).loc (Pipeline.arrRef spec1 1)) ↦{fullShare.right} G 1)
      ∗ (((c : Thread nD τ).loc (Pipeline.arrRef spec1 2)) ↦{fullShare} G 2)
      ∗ (((c : Thread nD τ).loc (Pipeline.arrRef spec1 3)) ↦{fullShare} G 3)
      ∗ (((c : Thread nD τ).loc (Pipeline.arrRef spec1 4)) ↦{fullShare} G 4)) := by
  have h : ((dat (VW W) c).arrays G : sProp 𝕄) = bigSep Finset.univ fun w =>
      (((c : Thread nD τ).loc (Pipeline.arrRef spec1 w)) ↦{(dat (VW W) c).share w} G w : sProp 𝕄) := by
    unfold Pipeline.Dat.arrays
    exact bigSep_congr fun w _ => by rw [(arr_whole1 w).set_eq_univ]
  rw [h, bigSep_W1, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec1 c X : sProp 𝕄) = iprop(
      (((c : Thread nD τ).loc (Pipeline.arrRef spec1 0)) ↦{fullShare} X (Pipeline.arrRef spec1 0))
      ∗ (((c : Thread nD τ).loc (Pipeline.arrRef spec1 2)) ↦{fullShare} X (Pipeline.arrRef spec1 2))
      ∗ (((c : Thread nD τ).loc (Pipeline.arrRef spec1 3)) ↦{fullShare} X (Pipeline.arrRef spec1 3))
      ∗ (((c : Thread nD τ).loc (Pipeline.arrRef spec1 4)) ↦{fullShare} X (Pipeline.arrRef spec1 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) :=
  Pipeline.unscopedBufs_split₀ cfgs 1 winFacts₀1.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec1 1) = (c : Thread nD τ).loc (Pipeline.arrRef spec1 0) := rfl
theorem halves01 (c : Dev nD) :
    (((c : Thread nD τ).loc (Pipeline.arrRef spec1 0)) ↦{fullShare} VW W c (Pipeline.arrRef spec1 0) : sProp 𝕄)
      ⊣⊢ iprop((((c : Thread nD τ).loc (Pipeline.arrRef spec1 0)) ↦{fullShare.left} VW W c (Pipeline.arrRef spec1 0))
        ∗ (((c : Thread nD τ).loc (Pipeline.arrRef spec1 1)) ↦{fullShare.right} VW W c (Pipeline.arrRef spec1 1))) :=
  halves (loc_1 c) _ _ HEq.rfl

/-- An array's entry contents are what the region finds. -/
theorem arrAt_zero (c : Dev nD) (w : Fin cfg1.W) : (dat (VW W) c).arrAt w 0 = VW W c (Pipeline.arrRef spec1 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec1 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec1 c (fun b => Wout W c b) : sProp 𝕄) = iprop(
      (((c : Thread nD τ).loc (Pipeline.arrRef spec1 0)) ↦{fullShare} VW W c (Pipeline.arrRef spec1 0))
      ∗ (((c : Thread nD τ).loc (Pipeline.arrRef spec1 2)) ↦{fullShare} VW W c (Pipeline.arrRef spec1 2))
      ∗ (((c : Thread nD τ).loc (Pipeline.arrRef spec1 3)) ↦{fullShare} VW W c (Pipeline.arrRef spec1 3))
      ∗ (((c : Thread nD τ).loc (Pipeline.arrRef spec1 4)) ↦{fullShare} (dat (VW W) c).arrAt 4 cfg1.N)) := by
  rw [arrBufs_eq]
  rw [Wout_of_ne_ref W c (Pipeline.arrRef spec1 0) (by decide)]
  rw [Wout_of_ne_ref W c (Pipeline.arrRef spec1 2) (by decide)]
  rw [Wout_of_ne_ref W c (Pipeline.arrRef spec1 3) (by decide)]
  rw [Wout_out]

/-- The buffers that are no array of the region hold at the exit what they held at entry. -/
theorem rest_out (c : Dev nD) :
    (Pipeline.unscopedRest spec1 c (fun b => Wout W c b) : sProp 𝕄) = Pipeline.unscopedRest spec1 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg1.N) : sProp 𝕄) = iprop(
      (((c : Thread nD τ).loc (Pipeline.arrRef spec1 0)) ↦{fullShare.left} VW W c (Pipeline.arrRef spec1 0))
      ∗ (((c : Thread nD τ).loc (Pipeline.arrRef spec1 1)) ↦{fullShare.right} VW W c (Pipeline.arrRef spec1 1))
      ∗ (((c : Thread nD τ).loc (Pipeline.arrRef spec1 2)) ↦{fullShare} VW W c (Pipeline.arrRef spec1 2))
      ∗ (((c : Thread nD τ).loc (Pipeline.arrRef spec1 3)) ↦{fullShare} VW W c (Pipeline.arrRef spec1 3))
      ∗ (((c : Thread nD τ).loc (Pipeline.arrRef spec1 4)) ↦{fullShare} (dat (VW W) c).arrAt 4 cfg1.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg1.N) ∗ Pipeline.unscopedRest spec1 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 1 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 1 = fun c => dat (VW W) c) :
    RegionSeg (pcfgs (F := F)) adm pdats () defs₀ Variants.none L lv 1 where
  win := winFacts₀1
  block_pos := block_pos1
  stage_whole := stage_whole1
  K := PEmpty
  osem k := k.elim
  ho := Pipeline.OwnSemFacts.none _
  hbody c := by rw [hp]; exact (body_obligation (VW W) c).loose
  hwaits := Pipeline.hwaits_of_owed_zero _ _ _ _ L lv 1 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec1 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 1 c).Φ 0 = Pipeline.ΦA spec1 c := by rw [hp]; exact Φ_eq _ c 0
    rw [hΦ]; unfold Pipeline.ΦA
    iintro ⟨Hp, -, Hr⟩
    isplitl [Hr]; · iexact Hr
    iexact Hp
  hout c := by
    have hΦ : (pdats 1 c).Φ (Fin.last _) = Pipeline.ΦA spec1 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg1

end
-- ==== Proof.RI.Reg2.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 2: a 3×3 convolution with bias and ReLU over one row tile per grid point

The grid is (image n, row tile r), 16 × 14 points. Windows 0 and 1 are the row tiles r and r+1 of ONE zero-padded
input array [16, 240, 232, 64]; window 2 is the whole kernel array [3, 3, 64, 64]; window 3 the bias [1, 64]; window 4
the output's row tile r of [16, 224, 224, 64]. The body flattens the two input tiles to rows of 232·16 pixels, appends
232 zero rows, and adds nine matrix products — one per tap (dy, dx), each a row-shifted slab against the tap's
[64, 64] matrix —, then the bias, then the maximum with zero, and keeps the first 224 columns of each row. -/

set_option maxRecDepth 16384

noncomputable section

namespace Cert.ReferenceIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The taps -/

/-- The [1, 1, 64, 64] rectangle of the kernel array at tap (dy, dx). -/
abbrev tapRect (dy dx : Nat) (h : ∀ a, ![dy, dx, 0, 0] a + S1x1x64x64.size a ≤ S3x3x64x64.size a) : Rect S3x3x64x64 :=
  Rect.unit (s := S3x3x64x64) ![dy, dx, 0, 0] S1x1x64x64.size h

/-- The whole input tile and the whole bias row, as the body loads them. -/
abbrev rIn : Rect S1x16x232x64 :=
  Rect.unit (s := S1x16x232x64) ![0, 0, 0, 0] S1x16x232x64.size inb_S1x16x232x64_S1x16x232x64_0_0_0_0
abbrev rBias : Rect S1x64 := Rect.unit (s := S1x64) ![0, 0] S1x64.size inb_S1x64_S1x64_0_0

/-! ## What the body leaves in the output window's buffer -/

/-- The output tile from the two input tiles `xa`, `xb`, the kernel array `wk` and the bias `b`: the sum of the nine
    taps' matrix products in the order (0,0), (0,1), …, (2,2), plus the bias, clamped below at zero, cut to 224 columns. -/
def out (xa xb : Vec F S1x16x232x64 .f32) (wk : Vec F S3x3x64x64 .f32) (b : Vec F S1x64 .f32) : Vec F S1x16x224x64 .f32 :=
  k2_pay1
    (k2_pay8 (k2_pay2 (View.ld xa rIn) (View.ld xb rIn)) (k2_pay3 (View.ld xa rIn) (View.ld xb rIn))
      (k2_pay4 (View.ld xa rIn) (View.ld xb rIn))
      (k2_pay5 (View.ld xa rIn) (View.ld xb rIn)
        (View.ld wk (tapRect 0 0 inb_S3x3x64x64_S1x1x64x64_0_0_0_0))
        (View.ld wk (tapRect 0 1 inb_S3x3x64x64_S1x1x64x64_0_1_0_0))
        (View.ld wk (tapRect 0 2 inb_S3x3x64x64_S1x1x64x64_0_2_0_0)))
      (k2_pay6 (View.ld xa rIn) (View.ld xb rIn))
      (k2_pay7 (View.ld wk (tapRect 1 0 inb_S3x3x64x64_S1x1x64x64_1_0_0_0)))
      (View.ld wk (tapRect 1 1 inb_S3x3x64x64_S1x1x64x64_1_1_0_0))
      (View.ld wk (tapRect 1 2 inb_S3x3x64x64_S1x1x64x64_1_2_0_0))
      (View.ld wk (tapRect 2 0 inb_S3x3x64x64_S1x1x64x64_2_0_0_0))
      (View.ld wk (tapRect 2 1 inb_S3x3x64x64_S1x1x64x64_2_1_0_0))
      (View.ld wk (tapRect 2 2 inb_S3x3x64x64_S1x1x64x64_2_2_0_0))
      (View.ld b rBias))
    (k2_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x224x64 :=
  Rect.unit (s := S1x16x224x64) ![0, 0, 0, 0] S1x16x224x64.size inb_S1x16x224x64_S1x16x224x64_0_0_0_0

theorem hz4 : (![0, 0, 0, 0] : Fin 4 → Nat) = fun _ => 0 := funext fun a => by fin_cases a <;> rfl

/-- The one store covers the output tile. -/
theorem cover_out (p : Vec F S1x16x224x64 .f32) (y : S1x16x224x64.Idx) :
    ∃ pc ∈ ([⟨rOut, p⟩] : List (View.Piece (Elt F) S1x16x224x64 .f32)), y ∈ pc.1.set :=
  View.cover_of_tiled [⟨rOut, p⟩] S1x16x224x64.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid2.Coords)
    (arg2 : Memref sig .tc .vmem S1x16x232x64 .f32) (harg2 : arg2.IsWhole)
    (arg3 : Memref sig .tc .vmem S1x16x232x64 .f32) (harg3 : arg3.IsWhole)
    (arg4 : Memref sig .tc .vmem S3x3x64x64 .f32) (harg4 : arg4.IsWhole)
    (arg5 : Memref sig .tc .vmem S1x64 .f32) (harg5 : arg5.IsWhole)
    (arg6 : Memref sig .tc .vmem S1x16x224x64 .f32) (harg6 : arg6.IsWhole)
    (xa xb : Vec F S1x16x232x64 .f32) (wk : Vec F S3x3x64x64 .f32) (b : Vec F S1x64 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc2__conv3x3_relu_kernel i arg2 harg2 arg3 harg3 arg4 harg4 arg5 harg5 arg6 harg6) K := by
  sl_unfold [cc2__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg2.N + 1)) : (dat V c).Φ t = Pipeline.ΦA spec2 c := by dsimp only [dat]
theorem owed_eq (c : Dev nD) (t : Fin (cfg2.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg2 c)
    (hA : dat'.A 0 = V c (Pipeline.arrRef spec2 0)) (hafter : ∀ t, dat'.after 0 t = iblk V c 0 t)
    (t : Fin cfg2.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg2.N) (d) : (dat V c).before 0 t d = iblk V c 0 t :=
  before_0_of V (dat V c) (A_eq V c 0) (after_0 V c) t d

theorem before_1_of {c : Dev nD} (dat' : Dat τ (Elt F) Unit ℕ (UR sig nD τ) ℕ cfg2 c)
    (hA : dat'.A 1 = V c (Pipeline.arrRef spec2 1)) (hafter : ∀ t, dat'.after 1 t = iblk V c 1 t)
    (t : Fin cfg2.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg2.N) (d) : (dat V c).before 1 t d = iblk V c 1 t :=
  before_1_of V (dat V c) (A_eq V c 1) (after_1 V c) t d

theorem before_2_of {c : Dev nD} (dat' : Dat τ (Elt F) Unit ℕ (UR sig nD τ) ℕ cfg2 c)
    (hA : dat'.A 2 = V c (Pipeline.arrRef spec2 2)) (hafter : ∀ t, dat'.after 2 t = iblk V c 2 t)
    (t : Fin cfg2.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg2.N) (d) : (dat V c).before 2 t d = iblk V c 2 t :=
  before_2_of V (dat V c) (A_eq V c 2) (after_2 V c) t d

theorem before_3_of {c : Dev nD} (dat' : Dat τ (Elt F) Unit ℕ (UR sig nD τ) ℕ cfg2 c)
    (hA : dat'.A 3 = V c (Pipeline.arrRef spec2 3)) (hafter : ∀ t, dat'.after 3 t = iblk V c 3 t)
    (t : Fin cfg2.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg2.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point: the four inputs' buffers hold their blocks, so the body's triple applies; the invariant and
    the debt pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W2, bigSep_W2]
  exact sound_body V c t

end Cert.ReferenceIdeal.Reg2
-- ==== Proof.RI.Seg2.lean ====
import proofs.«143011_g2000502688546152_pallasbulk_1201_3_alg».proof.Proof.RI.Reg2
import proofs.«143011_g2000502688546152_pallasbulk_1201_3_alg».proof.Proof.RI.Rest
import Idealize.ShloMosaic.Lib.Pipeline.Regions

/-! # Region 2 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec2 4)) ((dat (VW W) c).arrAt 4 cfg2.N)

theorem Wout_out (c : Dev nD) :
    Wout W c (Proc.devRef .tc (Pipeline.arrRef spec2 4)) = (dat (VW W) c).arrAt 4 cfg2.N := by
  unfold Wout; exact Function.update_self ..

theorem Wout_of_ne (c : Dev nD) (b : DevRef τ sig) (hb : b ≠ Proc.devRef .tc (Pipeline.arrRef spec2 4)) :
    Wout W c b = W c b := by
  unfold Wout; exact Function.update_of_ne hb ..

theorem Wout_of_ne_ref (c : Dev nD) (b : Ref sig .tc) (hb : b ≠ Pipeline.arrRef spec2 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec2)
    = {Pipeline.arrRef spec2 0, Pipeline.arrRef spec2 2, Pipeline.arrRef spec2 3, Pipeline.arrRef spec2 4} := by decide

/-- The pipeline's arrays at contents `G`, window by window: the input array at its two half shares, the rest whole. -/
theorem arrays_eq (c : Dev nD) (G : (w : Fin cfg2.W) → Buf (Elt F) ((cfg2.win w).arr.view.loc (c : Thread nD τ))) :
    ((dat (VW W) c).arrays G : sProp 𝕄) = iprop(
      (((c : Thread nD τ).loc (Pipeline.arrRef spec2 0)) ↦{fullShare.left} G 0)
      ∗ (((c : Thread nD τ).loc (Pipeline.arrRef spec2 1)) ↦{fullShare.right} G 1)
      ∗ (((c : Thread nD τ).loc (Pipeline.arrRef spec2 2)) ↦{fullShare} G 2)
      ∗ (((c : Thread nD τ).loc (Pipeline.arrRef spec2 3)) ↦{fullShare} G 3)
      ∗ (((c : Thread nD τ).loc (Pipeline.arrRef spec2 4)) ↦{fullShare} G 4)) := by
  have h : ((dat (VW W) c).arrays G : sProp 𝕄) = bigSep Finset.univ fun w =>
      (((c : Thread nD τ).loc (Pipeline.arrRef spec2 w)) ↦{(dat (VW W) c).share w} G w : sProp 𝕄) := by
    unfold Pipeline.Dat.arrays
    exact bigSep_congr fun w _ => by rw [(arr_whole2 w).set_eq_univ]
  rw [h, bigSep_W2, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec2 c X : sProp 𝕄) = iprop(
      (((c : Thread nD τ).loc (Pipeline.arrRef spec2 0)) ↦{fullShare} X (Pipeline.arrRef spec2 0))
      ∗ (((c : Thread nD τ).loc (Pipeline.arrRef spec2 2)) ↦{fullShare} X (Pipeline.arrRef spec2 2))
      ∗ (((c : Thread nD τ).loc (Pipeline.arrRef spec2 3)) ↦{fullShare} X (Pipeline.arrRef spec2 3))
      ∗ (((c : Thread nD τ).loc (Pipeline.arrRef spec2 4)) ↦{fullShare} X (Pipeline.arrRef spec2 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec2 c X ∗ Pipeline.unscopedRest spec2 c X) :=
  Pipeline.unscopedBufs_split₀ cfgs 2 winFacts₀2.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec2 1) = (c : Thread nD τ).loc (Pipeline.arrRef spec2 0) := rfl
theorem halves01 (c : Dev nD) :
    (((c : Thread nD τ).loc (Pipeline.arrRef spec2 0)) ↦{fullShare} VW W c (Pipeline.arrRef spec2 0) : sProp 𝕄)
      ⊣⊢ iprop((((c : Thread nD τ).loc (Pipeline.arrRef spec2 0)) ↦{fullShare.left} VW W c (Pipeline.arrRef spec2 0))
        ∗ (((c : Thread nD τ).loc (Pipeline.arrRef spec2 1)) ↦{fullShare.right} VW W c (Pipeline.arrRef spec2 1))) :=
  halves (loc_1 c) _ _ HEq.rfl

/-- An array's entry contents are what the region finds. -/
theorem arrAt_zero (c : Dev nD) (w : Fin cfg2.W) : (dat (VW W) c).arrAt w 0 = VW W c (Pipeline.arrRef spec2 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec2 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec2 c (fun b => Wout W c b) : sProp 𝕄) = iprop(
      (((c : Thread nD τ).loc (Pipeline.arrRef spec2 0)) ↦{fullShare} VW W c (Pipeline.arrRef spec2 0))
      ∗ (((c : Thread nD τ).loc (Pipeline.arrRef spec2 2)) ↦{fullShare} VW W c (Pipeline.arrRef spec2 2))
      ∗ (((c : Thread nD τ).loc (Pipeline.arrRef spec2 3)) ↦{fullShare} VW W c (Pipeline.arrRef spec2 3))
      ∗ (((c : Thread nD τ).loc (Pipeline.arrRef spec2 4)) ↦{fullShare} (dat (VW W) c).arrAt 4 cfg2.N)) := by
  rw [arrBufs_eq]
  rw [Wout_of_ne_ref W c (Pipeline.arrRef spec2 0) (by decide)]
  rw [Wout_of_ne_ref W c (Pipeline.arrRef spec2 2) (by decide)]
  rw [Wout_of_ne_ref W c (Pipeline.arrRef spec2 3) (by decide)]
  rw [Wout_out]

/-- The buffers that are no array of the region hold at the exit what they held at entry. -/
theorem rest_out (c : Dev nD) :
    (Pipeline.unscopedRest spec2 c (fun b => Wout W c b) : sProp 𝕄) = Pipeline.unscopedRest spec2 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg2.N) : sProp 𝕄) = iprop(
      (((c : Thread nD τ).loc (Pipeline.arrRef spec2 0)) ↦{fullShare.left} VW W c (Pipeline.arrRef spec2 0))
      ∗ (((c : Thread nD τ).loc (Pipeline.arrRef spec2 1)) ↦{fullShare.right} VW W c (Pipeline.arrRef spec2 1))
      ∗ (((c : Thread nD τ).loc (Pipeline.arrRef spec2 2)) ↦{fullShare} VW W c (Pipeline.arrRef spec2 2))
      ∗ (((c : Thread nD τ).loc (Pipeline.arrRef spec2 3)) ↦{fullShare} VW W c (Pipeline.arrRef spec2 3))
      ∗ (((c : Thread nD τ).loc (Pipeline.arrRef spec2 4)) ↦{fullShare} (dat (VW W) c).arrAt 4 cfg2.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg2.N) ∗ Pipeline.unscopedRest spec2 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 2 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 2 = fun c => dat (VW W) c) :
    RegionSeg (pcfgs (F := F)) adm pdats () defs₀ Variants.none L lv 2 where
  win := winFacts₀2
  block_pos := block_pos2
  stage_whole := stage_whole2
  K := PEmpty
  osem k := k.elim
  ho := Pipeline.OwnSemFacts.none _
  hbody c := by rw [hp]; exact (body_obligation (VW W) c).loose
  hwaits := Pipeline.hwaits_of_owed_zero _ _ _ _ L lv 2 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec2 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 2 c).Φ 0 = Pipeline.ΦA spec2 c := by rw [hp]; exact Φ_eq _ c 0
    rw [hΦ]; unfold Pipeline.ΦA
    iintro ⟨Hp, -, Hr⟩
    isplitl [Hr]; · iexact Hr
    iexact Hp
  hout c := by
    have hΦ : (pdats 2 c).Φ (Fin.last _) = Pipeline.ΦA spec2 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg2

end
-- ==== Proof.RI.Reg3.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 3: a 3×3 convolution with bias and ReLU over one row tile per grid point

The grid is (image n, row tile r), 16 × 14 points. Windows 0 and 1 are the row tiles r and r+1 of ONE zero-padded
input array [16, 240, 232, 64]; window 2 is the whole kernel array [3, 3, 64, 64]; window 3 the bias [1, 64]; window 4
the output's row tile r of [16, 224, 224, 64]. The body flattens the two input tiles to rows of 232·16 pixels, appends
232 zero rows, and adds nine matrix products — one per tap (dy, dx), each a row-shifted slab against the tap's
[64, 64] matrix —, then the bias, then the maximum with zero, and keeps the first 224 columns of each row. -/

set_option maxRecDepth 16384

noncomputable section

namespace Cert.ReferenceIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The taps -/

/-- The [1, 1, 64, 64] rectangle of the kernel array at tap (dy, dx). -/
abbrev tapRect (dy dx : Nat) (h : ∀ a, ![dy, dx, 0, 0] a + S1x1x64x64.size a ≤ S3x3x64x64.size a) : Rect S3x3x64x64 :=
  Rect.unit (s := S3x3x64x64) ![dy, dx, 0, 0] S1x1x64x64.size h

/-- The whole input tile and the whole bias row, as the body loads them. -/
abbrev rIn : Rect S1x16x232x64 :=
  Rect.unit (s := S1x16x232x64) ![0, 0, 0, 0] S1x16x232x64.size inb_S1x16x232x64_S1x16x232x64_0_0_0_0
abbrev rBias : Rect S1x64 := Rect.unit (s := S1x64) ![0, 0] S1x64.size inb_S1x64_S1x64_0_0

/-! ## What the body leaves in the output window's buffer -/

/-- The output tile from the two input tiles `xa`, `xb`, the kernel array `wk` and the bias `b`: the sum of the nine
    taps' matrix products in the order (0,0), (0,1), …, (2,2), plus the bias, clamped below at zero, cut to 224 columns. -/
def out (xa xb : Vec F S1x16x232x64 .f32) (wk : Vec F S3x3x64x64 .f32) (b : Vec F S1x64 .f32) : Vec F S1x16x224x64 .f32 :=
  k3_pay1
    (k3_pay8 (k3_pay2 (View.ld xa rIn) (View.ld xb rIn)) (k3_pay3 (View.ld xa rIn) (View.ld xb rIn))
      (k3_pay4 (View.ld xa rIn) (View.ld xb rIn))
      (k3_pay5 (View.ld xa rIn) (View.ld xb rIn)
        (View.ld wk (tapRect 0 0 inb_S3x3x64x64_S1x1x64x64_0_0_0_0))
        (View.ld wk (tapRect 0 1 inb_S3x3x64x64_S1x1x64x64_0_1_0_0))
        (View.ld wk (tapRect 0 2 inb_S3x3x64x64_S1x1x64x64_0_2_0_0)))
      (k3_pay6 (View.ld xa rIn) (View.ld xb rIn))
      (k3_pay7 (View.ld wk (tapRect 1 0 inb_S3x3x64x64_S1x1x64x64_1_0_0_0)))
      (View.ld wk (tapRect 1 1 inb_S3x3x64x64_S1x1x64x64_1_1_0_0))
      (View.ld wk (tapRect 1 2 inb_S3x3x64x64_S1x1x64x64_1_2_0_0))
      (View.ld wk (tapRect 2 0 inb_S3x3x64x64_S1x1x64x64_2_0_0_0))
      (View.ld wk (tapRect 2 1 inb_S3x3x64x64_S1x1x64x64_2_1_0_0))
      (View.ld wk (tapRect 2 2 inb_S3x3x64x64_S1x1x64x64_2_2_0_0))
      (View.ld b rBias))
    (k3_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x224x64 :=
  Rect.unit (s := S1x16x224x64) ![0, 0, 0, 0] S1x16x224x64.size inb_S1x16x224x64_S1x16x224x64_0_0_0_0

theorem hz4 : (![0, 0, 0, 0] : Fin 4 → Nat) = fun _ => 0 := funext fun a => by fin_cases a <;> rfl

/-- The one store covers the output tile. -/
theorem cover_out (p : Vec F S1x16x224x64 .f32) (y : S1x16x224x64.Idx) :
    ∃ pc ∈ ([⟨rOut, p⟩] : List (View.Piece (Elt F) S1x16x224x64 .f32)), y ∈ pc.1.set :=
  View.cover_of_tiled [⟨rOut, p⟩] S1x16x224x64.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid3.Coords)
    (arg2 : Memref sig .tc .vmem S1x16x232x64 .f32) (harg2 : arg2.IsWhole)
    (arg3 : Memref sig .tc .vmem S1x16x232x64 .f32) (harg3 : arg3.IsWhole)
    (arg4 : Memref sig .tc .vmem S3x3x64x64 .f32) (harg4 : arg4.IsWhole)
    (arg5 : Memref sig .tc .vmem S1x64 .f32) (harg5 : arg5.IsWhole)
    (arg6 : Memref sig .tc .vmem S1x16x224x64 .f32) (harg6 : arg6.IsWhole)
    (xa xb : Vec F S1x16x232x64 .f32) (wk : Vec F S3x3x64x64 .f32) (b : Vec F S1x64 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc3__conv3x3_relu_kernel i arg2 harg2 arg3 harg3 arg4 harg4 arg5 harg5 arg6 harg6) K := by
  sl_unfold [cc3__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg3.N + 1)) : (dat V c).Φ t = Pipeline.ΦA spec3 c := by dsimp only [dat]
theorem owed_eq (c : Dev nD) (t : Fin (cfg3.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg3 c)
    (hA : dat'.A 0 = V c (Pipeline.arrRef spec3 0)) (hafter : ∀ t, dat'.after 0 t = iblk V c 0 t)
    (t : Fin cfg3.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg3.N) (d) : (dat V c).before 0 t d = iblk V c 0 t :=
  before_0_of V (dat V c) (A_eq V c 0) (after_0 V c) t d

theorem before_1_of {c : Dev nD} (dat' : Dat τ (Elt F) Unit ℕ (UR sig nD τ) ℕ cfg3 c)
    (hA : dat'.A 1 = V c (Pipeline.arrRef spec3 1)) (hafter : ∀ t, dat'.after 1 t = iblk V c 1 t)
    (t : Fin cfg3.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg3.N) (d) : (dat V c).before 1 t d = iblk V c 1 t :=
  before_1_of V (dat V c) (A_eq V c 1) (after_1 V c) t d

theorem before_2_of {c : Dev nD} (dat' : Dat τ (Elt F) Unit ℕ (UR sig nD τ) ℕ cfg3 c)
    (hA : dat'.A 2 = V c (Pipeline.arrRef spec3 2)) (hafter : ∀ t, dat'.after 2 t = iblk V c 2 t)
    (t : Fin cfg3.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg3.N) (d) : (dat V c).before 2 t d = iblk V c 2 t :=
  before_2_of V (dat V c) (A_eq V c 2) (after_2 V c) t d

theorem before_3_of {c : Dev nD} (dat' : Dat τ (Elt F) Unit ℕ (UR sig nD τ) ℕ cfg3 c)
    (hA : dat'.A 3 = V c (Pipeline.arrRef spec3 3)) (hafter : ∀ t, dat'.after 3 t = iblk V c 3 t)
    (t : Fin cfg3.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg3.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point: the four inputs' buffers hold their blocks, so the body's triple applies; the invariant and
    the debt pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W3, bigSep_W3]
  exact sound_body V c t

end Cert.ReferenceIdeal.Reg3
-- ==== Proof.RI.Seg3.lean ====
import proofs.«143011_g2000502688546152_pallasbulk_1201_3_alg».proof.Proof.RI.Reg3
import proofs.«143011_g2000502688546152_pallasbulk_1201_3_alg».proof.Proof.RI.Rest
import Idealize.ShloMosaic.Lib.Pipeline.Regions

/-! # Region 3 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg3

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec3 4)) ((dat (VW W) c).arrAt 4 cfg3.N)

theorem Wout_out (c : Dev nD) :
    Wout W c (Proc.devRef .tc (Pipeline.arrRef spec3 4)) = (dat (VW W) c).arrAt 4 cfg3.N := by
  unfold Wout; exact Function.update_self ..

theorem Wout_of_ne (c : Dev nD) (b : DevRef τ sig) (hb : b ≠ Proc.devRef .tc (Pipeline.arrRef spec3 4)) :
    Wout W c b = W c b := by
  unfold Wout; exact Function.update_of_ne hb ..

theorem Wout_of_ne_ref (c : Dev nD) (b : Ref sig .tc) (hb : b ≠ Pipeline.arrRef spec3 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec3)
    = {Pipeline.arrRef spec3 0, Pipeline.arrRef spec3 2, Pipeline.arrRef spec3 3, Pipeline.arrRef spec3 4} := by decide

/-- The pipeline's arrays at contents `G`, window by window: the input array at its two half shares, the rest whole. -/
theorem arrays_eq (c : Dev nD) (G : (w : Fin cfg3.W) → Buf (Elt F) ((cfg3.win w).arr.view.loc (c : Thread nD τ))) :
    ((dat (VW W) c).arrays G : sProp 𝕄) = iprop(
      (((c : Thread nD τ).loc (Pipeline.arrRef spec3 0)) ↦{fullShare.left} G 0)
      ∗ (((c : Thread nD τ).loc (Pipeline.arrRef spec3 1)) ↦{fullShare.right} G 1)
      ∗ (((c : Thread nD τ).loc (Pipeline.arrRef spec3 2)) ↦{fullShare} G 2)
      ∗ (((c : Thread nD τ).loc (Pipeline.arrRef spec3 3)) ↦{fullShare} G 3)
      ∗ (((c : Thread nD τ).loc (Pipeline.arrRef spec3 4)) ↦{fullShare} G 4)) := by
  have h : ((dat (VW W) c).arrays G : sProp 𝕄) = bigSep Finset.univ fun w =>
      (((c : Thread nD τ).loc (Pipeline.arrRef spec3 w)) ↦{(dat (VW W) c).share w} G w : sProp 𝕄) := by
    unfold Pipeline.Dat.arrays
    exact bigSep_congr fun w _ => by rw [(arr_whole3 w).set_eq_univ]
  rw [h, bigSep_W3, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec3 c X : sProp 𝕄) = iprop(
      (((c : Thread nD τ).loc (Pipeline.arrRef spec3 0)) ↦{fullShare} X (Pipeline.arrRef spec3 0))
      ∗ (((c : Thread nD τ).loc (Pipeline.arrRef spec3 2)) ↦{fullShare} X (Pipeline.arrRef spec3 2))
      ∗ (((c : Thread nD τ).loc (Pipeline.arrRef spec3 3)) ↦{fullShare} X (Pipeline.arrRef spec3 3))
      ∗ (((c : Thread nD τ).loc (Pipeline.arrRef spec3 4)) ↦{fullShare} X (Pipeline.arrRef spec3 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec3 c X ∗ Pipeline.unscopedRest spec3 c X) :=
  Pipeline.unscopedBufs_split₀ cfgs 3 winFacts₀3.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec3 1) = (c : Thread nD τ).loc (Pipeline.arrRef spec3 0) := rfl
theorem halves01 (c : Dev nD) :
    (((c : Thread nD τ).loc (Pipeline.arrRef spec3 0)) ↦{fullShare} VW W c (Pipeline.arrRef spec3 0) : sProp 𝕄)
      ⊣⊢ iprop((((c : Thread nD τ).loc (Pipeline.arrRef spec3 0)) ↦{fullShare.left} VW W c (Pipeline.arrRef spec3 0))
        ∗ (((c : Thread nD τ).loc (Pipeline.arrRef spec3 1)) ↦{fullShare.right} VW W c (Pipeline.arrRef spec3 1))) :=
  halves (loc_1 c) _ _ HEq.rfl

/-- An array's entry contents are what the region finds. -/
theorem arrAt_zero (c : Dev nD) (w : Fin cfg3.W) : (dat (VW W) c).arrAt w 0 = VW W c (Pipeline.arrRef spec3 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec3 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec3 c (fun b => Wout W c b) : sProp 𝕄) = iprop(
      (((c : Thread nD τ).loc (Pipeline.arrRef spec3 0)) ↦{fullShare} VW W c (Pipeline.arrRef spec3 0))
      ∗ (((c : Thread nD τ).loc (Pipeline.arrRef spec3 2)) ↦{fullShare} VW W c (Pipeline.arrRef spec3 2))
      ∗ (((c : Thread nD τ).loc (Pipeline.arrRef spec3 3)) ↦{fullShare} VW W c (Pipeline.arrRef spec3 3))
      ∗ (((c : Thread nD τ).loc (Pipeline.arrRef spec3 4)) ↦{fullShare} (dat (VW W) c).arrAt 4 cfg3.N)) := by
  rw [arrBufs_eq]
  rw [Wout_of_ne_ref W c (Pipeline.arrRef spec3 0) (by decide)]
  rw [Wout_of_ne_ref W c (Pipeline.arrRef spec3 2) (by decide)]
  rw [Wout_of_ne_ref W c (Pipeline.arrRef spec3 3) (by decide)]
  rw [Wout_out]

/-- The buffers that are no array of the region hold at the exit what they held at entry. -/
theorem rest_out (c : Dev nD) :
    (Pipeline.unscopedRest spec3 c (fun b => Wout W c b) : sProp 𝕄) = Pipeline.unscopedRest spec3 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg3.N) : sProp 𝕄) = iprop(
      (((c : Thread nD τ).loc (Pipeline.arrRef spec3 0)) ↦{fullShare.left} VW W c (Pipeline.arrRef spec3 0))
      ∗ (((c : Thread nD τ).loc (Pipeline.arrRef spec3 1)) ↦{fullShare.right} VW W c (Pipeline.arrRef spec3 1))
      ∗ (((c : Thread nD τ).loc (Pipeline.arrRef spec3 2)) ↦{fullShare} VW W c (Pipeline.arrRef spec3 2))
      ∗ (((c : Thread nD τ).loc (Pipeline.arrRef spec3 3)) ↦{fullShare} VW W c (Pipeline.arrRef spec3 3))
      ∗ (((c : Thread nD τ).loc (Pipeline.arrRef spec3 4)) ↦{fullShare} (dat (VW W) c).arrAt 4 cfg3.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg3.N) ∗ Pipeline.unscopedRest spec3 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 3 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 3 = fun c => dat (VW W) c) :
    RegionSeg (pcfgs (F := F)) adm pdats () defs₀ Variants.none L lv 3 where
  win := winFacts₀3
  block_pos := block_pos3
  stage_whole := stage_whole3
  K := PEmpty
  osem k := k.elim
  ho := Pipeline.OwnSemFacts.none _
  hbody c := by rw [hp]; exact (body_obligation (VW W) c).loose
  hwaits := Pipeline.hwaits_of_owed_zero _ _ _ _ L lv 3 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec3 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 3 c).Φ 0 = Pipeline.ΦA spec3 c := by rw [hp]; exact Φ_eq _ c 0
    rw [hΦ]; unfold Pipeline.ΦA
    iintro ⟨Hp, -, Hr⟩
    isplitl [Hr]; · iexact Hr
    iexact Hp
  hout c := by
    have hΦ : (pdats 3 c).Φ (Fin.last _) = Pipeline.ΦA spec3 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg3

end
-- ==== Proof.RI.Reg4Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 4: the sum of |x − y| over two [100352, 512] arrays, accumulated over a grid of 98 points into a [1, 1] array

At point t the two input windows show rows 1024t … 1024t+1023 of x and of y. The output window is the one [1, 1]
block at every point: the body zeroes it at point 0, then at every point adds the block's sum of |x − y| to what
the window holds. It is written back to the array once, after the last point. -/
-- This module: the proof data (what each window holds after the body at each point).

set_option maxRecDepth 16384

noncomputable section

namespace Cert.ReferenceIdeal.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of x the first window shows at point `t`. -/
def xrows (c : Dev nD) (t : Fin cfg4.N) : Vec F S1024x512 .f32 :=
  ((cfg4.win 0).blk t).view.read (Elt F) (V c (Pipeline.arrRef spec4 0))

/-- The rows of y the second window shows at point `t`. -/
def yrows (c : Dev nD) (t : Fin cfg4.N) : Vec F S1024x512 .f32 :=
  ((cfg4.win 1).blk t).view.read (Elt F) (V c (Pipeline.arrRef spec4 1))

/-- The zeroed accumulator of the first point. -/
def zero : Vec F S1x1 .f32 := Gen.k4_pay1

/-- One point's step: the accumulator plus the sum of |x − y| over a block of 1024 rows. -/
def step (acc : Vec F S1x1 .f32) (x y : Vec F S1024x512 .f32) : Vec F S1x1 .f32 := Gen.k4_pay2 acc x y

/-- The accumulator after point `n`: zero stepped through the blocks of points 0 … n. -/
def total (c : Dev nD) : (n : ℕ) → n < cfg4.N → Vec F S1x1 .f32
  | 0, h => step zero (xrows V c ⟨0, h⟩) (yrows V c ⟨0, h⟩)
  | n + 1, h => step (total c n (Nat.lt_of_succ_lt h)) (xrows V c ⟨n + 1, h⟩) (yrows V c ⟨n + 1, h⟩)

/-- The region's proof data: the arrays as found; after the body each input window still shows its rows and the
    output window holds the running total; the body keeps no other state. -/
def dat (c : Dev nD) : Dat τ (Elt F) Unit ℕ (UR sig nD τ) ℕ cfg4 c where
  A w := V c (Pipeline.arrRef spec4 w)
  after w t := match w with
    | ⟨0, _⟩ => xrows V c t
    | ⟨1, _⟩ => yrows V c t
    | ⟨2, _⟩ => total V c t.val t.isLt
  Φ _ := Pipeline.ΦA spec4 c
  q _ := fullShare
  owed _ := 0

theorem A_eq (c : Dev nD) (w : Fin cfg4.W) : (dat V c).A w = V c (Pipeline.arrRef spec4 w) := by
  dsimp only [dat]

theorem after_x (c : Dev nD) (t : Fin cfg4.N) : (dat V c).after 0 t = xrows V c t := by dsimp only [dat]
theorem after_y (c : Dev nD) (t : Fin cfg4.N) : (dat V c).after 1 t = yrows V c t := by dsimp only [dat]
theorem after_total (c : Dev nD) (t : Fin cfg4.N) : (dat V c).after 2 t = total V c t.val t.isLt := by dsimp only [dat]

end Cert.ReferenceIdeal.Reg4
-- ==== Proof.RI.Reg4.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg4Data
import Idealize.ShloMosaic.Lib.Pipeline.FrameBody
import Idealize.ShloMosaic.Lib.Pipeline.Value
import Idealize.ShloMosaic.Lib.Tactic

/-! # Region 4: the sum of |x − y| over two [100352, 512] arrays, accumulated over a grid of 98 points into a [1, 1] array

At point t the two input windows show rows 1024t … 1024t+1023 of x and of y. The output window is the one [1, 1]
block at every point: the body zeroes it at point 0, then at every point adds the block's sum of |x − y| to what
the window holds. It is written back to the array once, after the last point. -/
-- This module: the body's triples and the body obligation.

set_option maxRecDepth 16384

noncomputable section

namespace Cert.ReferenceIdeal.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg4.N + 1)) : (dat V c).Φ t = Pipeline.ΦA spec4 c := rfl
theorem owed_eq (c : Dev nD) (t : Fin (cfg4.N + 1)) : (dat V c).owed t = 0 := rfl
theorem q_eq (c : Dev nD) (w : Fin cfg4.W) : (dat V c).q w = fullShare := rfl

/-- The body's one condition, from the grid coordinate: "this is point 0". -/
abbrev isFirst (i : grid4.Coords) : Prop :=
  (Scalar.cmpi .ne (Scalar.extui (Scalar.cmpi .eq (BitVec.ofNat 32 (i 0).val) 0#32)) 0#32) = 1#1

/-- It holds at point 0 and at no other point of the grid. -/
theorem isFirst_iff : ∀ t : Fin cfg4.N, isFirst (grid4.coords t) ↔ t.val = 0 :=
  (by decide +kernel : ∀ t : Fin grid4.N, isFirst (grid4.coords t) ↔ t.val = 0)

theorem zeros2 : (![0, 0] : Fin 2 → ℕ) = fun _ => 0 := by
  funext a; match a with | ⟨0, _⟩ => rfl | ⟨1, _⟩ => rfl

set_option maxHeartbeats 1000000 in
/-- The body at the first point, on whole staging memrefs: the inputs' hold blocks `x`, `y`, the output's anything;
    it runs to a state where the output's holds zero stepped by the two blocks. -/
theorem body_first (c : Dev nD) (E : Set ℕ) (i : grid4.Coords) (hc : isFirst i)
    (mx : Memref sig .tc .vmem S1024x512 .f32) (hx : mx.IsWhole)
    (my : Memref sig .tc .vmem S1024x512 .f32) (hy : my.IsWhole)
    (mo : Memref sig .tc .vmem S1x1 .f32) (ho : mo.IsWhole)
    (x y : Vec F S1024x512 .f32) (K : PUnit → sProp 𝕄) :
    iprop(owns (c : Thread nD τ) mx fullShare x ∗ owns (c : Thread nD τ) my fullShare y
        ∗ (∃ d, owns (c : Thread nD τ) mo fullShare d)
        ∗ (iprop(owns (c : Thread nD τ) mx fullShare x ∗ owns (c : Thread nD τ) my fullShare y
            ∗ owns (c : Thread nD τ) mo fullShare (step zero x y)) -∗ K ⟨⟩))
      ⊢ wp frame (wpE (defs₀ (F := F)) Variants.none c none) E (cc4__l1_sum_kernel i mx hx my hy mo ho) K := by
  simp only [Gen.cc4__l1_sum_kernel_eq_skeleton]; unfold Gen.cc4__l1_sum_kernel_skel
  unfold owns
  iintro ⟨⟨%fx, %hfx, Hx⟩, ⟨%fy, %hfy, Hy⟩, ⟨%d, %fo, -, Ho⟩, Hk⟩
  subst hfx hfy
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_words
  -- the last store covers the output block: it reads that store's payload; the accumulator it loaded is what the
  -- zeroing store left; each input load reads its whole block
  rw [View.read_writes_eq_canon _ _ _ (fun y => ⟨_, List.mem_cons_self,
      View.mem_set_unit_zero (S := S1x1) zeros2 Gen.inb_S1x1_S1x1_0_0 y⟩),
    View.canon_cons_unit_zero (S := S1x1) zeros2 Gen.inb_S1x1_S1x1_0_0,
    View.readCov_unit_zero (S := S1x1) _ zeros2 Gen.inb_S1x1_S1x1_0_0]
  simp only [View.readAt_eq_ld]
  show Gen.k4_pay2 Gen.k4_pay1
      (View.ld (View.read (Elt F) mx.view fx) (Rect.unit ![0, 0] S1024x512.size Gen.inb_S1024x512_S1024x512_0_0))
      (View.ld (View.read (Elt F) my.view fy) (Rect.unit ![0, 0] S1024x512.size Gen.inb_S1024x512_S1024x512_0_0)) = _
  rw [View.ld_unit_zero (S := S1024x512) zeros2 Gen.inb_S1024x512_S1024x512_0_0,
    View.ld_unit_zero (S := S1024x512) zeros2 Gen.inb_S1024x512_S1024x512_0_0]
  rfl

set_option maxHeartbeats 1000000 in
/-- The body at a later point: the output's staging memref holds the accumulator `acc`; it runs to a state where it
    holds `acc` stepped by the two blocks. -/
theorem body_later (c : Dev nD) (E : Set ℕ) (i : grid4.Coords) (hc : ¬ isFirst i)
    (mx : Memref sig .tc .vmem S1024x512 .f32) (hx : mx.IsWhole)
    (my : Memref sig .tc .vmem S1024x512 .f32) (hy : my.IsWhole)
    (mo : Memref sig .tc .vmem S1x1 .f32) (ho : mo.IsWhole)
    (x y : Vec F S1024x512 .f32) (acc : Vec F S1x1 .f32) (K : PUnit → sProp 𝕄) :
    iprop(owns (c : Thread nD τ) mx fullShare x ∗ owns (c : Thread nD τ) my fullShare y
        ∗ owns (c : Thread nD τ) mo fullShare acc
        ∗ (iprop(owns (c : Thread nD τ) mx fullShare x ∗ owns (c : Thread nD τ) my fullShare y
            ∗ owns (c : Thread nD τ) mo fullShare (step acc x y)) -∗ K ⟨⟩))
      ⊢ wp frame (wpE (defs₀ (F := F)) Variants.none c none) E (cc4__l1_sum_kernel i mx hx my hy mo ho) K := by
  simp only [Gen.cc4__l1_sum_kernel_eq_skeleton]; unfold Gen.cc4__l1_sum_kernel_skel
  unfold owns
  iintro ⟨⟨%fx, %hfx, Hx⟩, ⟨%fy, %hfy, Hy⟩, ⟨%fo, %hfo, Ho⟩, Hk⟩
  subst hfx hfy hfo
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  -- the one store covers the output block: it reads its payload; each load reads its whole block
  rw [View.read_writes_eq_canon _ _ _ (fun y => ⟨_, List.mem_singleton_self _,
      View.mem_set_unit_zero (S := S1x1) zeros2 Gen.inb_S1x1_S1x1_0_0 y⟩),
    View.canon_unit_zero (S := S1x1) zeros2 Gen.inb_S1x1_S1x1_0_0]
  simp only [View.readAt_eq_ld]
  show Gen.k4_pay2 (View.ld (View.read (Elt F) mo.view fo) (Rect.unit ![0, 0] S1x1.size Gen.inb_S1x1_S1x1_0_0))
      (View.ld (View.read (Elt F) mx.view fx) (Rect.unit ![0, 0] S1024x512.size Gen.inb_S1024x512_S1024x512_0_0))
      (View.ld (View.read (Elt F) my.view fy) (Rect.unit ![0, 0] S1024x512.size Gen.inb_S1024x512_S1024x512_0_0)) = _
  rw [View.ld_unit_zero (S := S1x1) zeros2 Gen.inb_S1x1_S1x1_0_0,
    View.ld_unit_zero (S := S1024x512) zeros2 Gen.inb_S1024x512_S1024x512_0_0,
    View.ld_unit_zero (S := S1024x512) zeros2 Gen.inb_S1024x512_S1024x512_0_0]
  rfl

/-- Each input window's staging buffer shows the window's rows at every point, fetched there or not. -/
theorem before_x (c : Dev nD) (t : Fin cfg4.N) (d) : (dat V c).before 0 t d = xrows V c t :=
  ((dat V c).before_in_eq_fetched 0 rfl (fun _ => rfl) (fun _ _ _ => rfl)
      (fun t => by rw [after_x]; unfold Dat.blockOf xrows; rw [A_eq]; try rfl) t d).trans
    (by unfold Dat.fetched Dat.blockOf xrows; rw [A_eq]; try rfl)

theorem before_y (c : Dev nD) (t : Fin cfg4.N) (d) : (dat V c).before 1 t d = yrows V c t :=
  ((dat V c).before_in_eq_fetched 1 rfl (fun _ => rfl) (fun _ _ _ => rfl)
      (fun t => by rw [after_y]; unfold Dat.blockOf yrows; rw [A_eq]; try rfl) t d).trans
    (by unfold Dat.fetched Dat.blockOf yrows; rw [A_eq]; try rfl)

/-- The output window is written back after the last point only, so at every later point its staging buffer still
    holds the running total the point before left. -/
theorem before_total (c : Dev nD) (t : Fin cfg4.N) (ht : t.val ≠ 0) (d) :
    (dat V c).before 2 t d = total V c (t.val - 1) (Nat.lt_of_le_of_lt (Nat.sub_le _ _) t.isLt) := by
  have hlt : t.val < 98 := Nat.lt_of_lt_of_eq t.isLt (Gen.N_4 : cfg4.N = 98)
  have hfl : (cfg4.win 2).flush ⟨t.val - 1, Nat.lt_of_le_of_lt (Nat.sub_le _ _) t.isLt⟩ = false :=
    Bool.eq_false_iff.mpr fun h => by
      have h97 := (Gen.flush4_2 _).mp h
      have h97' : (t.val - 1) % 98 = 97 := h97
      omega
  rw [(dat V c).before_out_kept 2 rfl t ht hfl (fun _ => rfl) (fun _ _ => rfl) d, after_total]

/-- The running total at point 0, and at a later point from the point before. -/
theorem total_first (c : Dev nD) (t : Fin cfg4.N) (h0 : t.val = 0) :
    total V c t.val t.isLt = step zero (xrows V c t) (yrows V c t) := by
  obtain ⟨n, hn⟩ := t
  cases n with
  | zero => rfl
  | succ n => exact absurd h0 (Nat.succ_ne_zero n)

theorem total_later (c : Dev nD) (t : Fin cfg4.N) (ht : t.val ≠ 0) :
    total V c t.val t.isLt
      = step (total V c (t.val - 1) (Nat.lt_of_le_of_lt (Nat.sub_le _ _) t.isLt)) (xrows V c t) (yrows V c t) := by
  obtain ⟨n, hn⟩ := t
  cases n with
  | zero => exact absurd rfl ht
  | succ n => rfl

/-- The body at a point: the input buffers show the point's rows; at point 0 the reset branch runs, at a later
    point the output buffer holds the previous total and the adding branch runs. -/
theorem at_point (c : Dev nD) (t : Fin cfg4.N) :
    iprop((dat V c).Φ t.castSucc ∗ (dat V c).owesAt () t.castSucc
        ∗ (∃ d, owns (c : Thread nD τ) (Gen.st4_0 t) fullShare ((dat V c).before 0 t d))
        ∗ (∃ d, owns (c : Thread nD τ) (Gen.st4_1 t) fullShare ((dat V c).before 1 t d))
        ∗ (∃ d, owns (c : Thread nD τ) (Gen.st4_2 t) fullShare ((dat V c).before 2 t d)))
      ⊢ wp frame (wpE (defs₀ (F := F)) Variants.none c none) Set.univ (Gen.bodyAt4 t) (fun _ =>
        iprop((dat V c).Φ t.succ ∗ (dat V c).owesAt () t.succ
          ∗ owns (c : Thread nD τ) (Gen.st4_0 t) fullShare ((dat V c).after 0 t)
          ∗ owns (c : Thread nD τ) (Gen.st4_1 t) fullShare ((dat V c).after 1 t)
          ∗ owns (c : Thread nD τ) (Gen.st4_2 t) fullShare ((dat V c).after 2 t))) := by
  unfold Gen.bodyAt4
  simp only [before_x, before_y]
  rw [show (dat V c).Φ t.succ = (dat V c).Φ t.castSucc from rfl,
    show (dat V c).owesAt () t.succ = (dat V c).owesAt () t.castSucc from rfl, after_x, after_y, after_total]
  by_cases h0 : t.val = 0
  · rw [total_first V c t h0]
    iintro ⟨HΦ, Ho, ⟨%dx, Hx⟩, ⟨%dy, Hy⟩, ⟨%dz, Hz⟩⟩
    iapply (body_first c Set.univ _ ((isFirst_iff t).mpr h0) _ _ _ _ _ _ (xrows V c t) (yrows V c t) _)
    isplitl [Hx]; · iexact Hx
    isplitl [Hy]; · iexact Hy
    isplitl [Hz]; · iexists _; iexact Hz
    iintro ⟨Hx, Hy, Hz⟩
    isplitl [HΦ]; · iexact HΦ
    isplitl [Ho]; · iexact Ho
    isplitl [Hx]; · iexact Hx
    isplitl [Hy]; · iexact Hy
    iexact Hz
  · simp only [before_total V c t h0]
    rw [total_later V c t h0]
    iintro ⟨HΦ, Ho, ⟨%dx, Hx⟩, ⟨%dy, Hy⟩, ⟨%dz, Hz⟩⟩
    iapply (body_later c Set.univ _ (fun h => h0 ((isFirst_iff t).mp h)) _ _ _ _ _ _ (xrows V c t) (yrows V c t) _ _)
    isplitl [Hx]; · iexact Hx
    isplitl [Hy]; · iexact Hy
    isplitl [Hz]; · iexact Hz
    iintro ⟨Hx, Hy, Hz⟩
    isplitl [HΦ]; · iexact HΦ
    isplitl [Ho]; · iexact Ho
    isplitl [Hx]; · iexact Hx
    isplitl [Hy]; · iexact Hy
    iexact Hz

theorem body_obligation (c : Dev nD) : BodyObligation (dat (F := F) V c) (defs₀ (F := F)) Variants.none () Set.univ := fun t => by
  rw [Gen.bigSep_W4, Gen.bigSep_W4]
  exact at_point V c t

end Cert.ReferenceIdeal.Reg4
-- ==== Proof.RI.Seg4.lean ====
import proofs.«143011_g2000502688546152_pallasbulk_1201_3_alg».proof.Proof.RI.Reg4
import proofs.«143011_g2000502688546152_pallasbulk_1201_3_alg».proof.Proof.RI.Rest
import Idealize.ShloMosaic.Lib.Pipeline.Regions
import Idealize.ShloMosaic.Lib.Pipeline.RegionsLoop

/-! # Region 4 as a segment of @main

A mean-absolute-difference region reads two arrays of rows of 512 and adds every row's absolute differences into one [1, 1] array across the grid. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg4

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec4 2)) ((dat (VW W) c).arrAt 2 cfg4.N)

theorem Wout_out (c : Dev nD) :
    Wout W c (Proc.devRef .tc (Pipeline.arrRef spec4 2)) = (dat (VW W) c).arrAt 2 cfg4.N := by
  unfold Wout; exact Function.update_self ..

theorem Wout_of_ne (c : Dev nD) (b : DevRef τ sig) (hb : b ≠ Proc.devRef .tc (Pipeline.arrRef spec4 2)) :
    Wout W c b = W c b := by
  unfold Wout; exact Function.update_of_ne hb ..

theorem Wout_of_ne_ref (c : Dev nD) (b : Ref sig .tc) (hb : b ≠ Pipeline.arrRef spec4 2) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg4.W,
    (dat (VW W) c).arrAt w cfg4.N = Wout W c (Proc.devRef .tc (Pipeline.arrRef spec4 w))
  | 0 => by rw [Pipeline.Dat.arrAt_in _ 0 (by decide), Wout_of_ne_ref W c _ (by decide)]; exact A_eq _ c 0
  | 1 => by rw [Pipeline.Dat.arrAt_in _ 1 (by decide), Wout_of_ne_ref W c _ (by decide)]; exact A_eq _ c 1
  | 2 => (Wout_out W c).symm
  | ⟨_ + 3, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec4)) :
    Wout W c (Proc.devRef .tc b) = W c (Proc.devRef .tc b) :=
  Wout_of_ne_ref W c b fun e => hb (Finset.mem_image.mpr ⟨2, Finset.mem_univ _, e.symm⟩)

/-! ## The segment record -/

set_option backward.isDefEq.respectTransparency.types false in
/-- Region 4 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 4 = fun c => dat (VW W) c) :
    RegionSeg (pcfgs (F := F)) adm pdats () defs₀ Variants.none L lv 4 where
  win := winFacts4.to₀
  block_pos := block_pos4
  stage_whole := stage_whole4
  K := PEmpty
  osem k := k.elim
  ho := Pipeline.OwnSemFacts.none _
  hbody c := by rw [hp]; exact (body_obligation (VW W) c).loose
  hwaits := Pipeline.hwaits_of_owed_zero _ _ _ _ L lv 4 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec4 c (VW W c)
  hentry c := by
    rw [Pipeline.ownSems0_none]
    have hsplit := Pipeline.arrays_of_unscopedBufs (p := 4) (pcfgs (F := F)) adm pdats winFacts4 arr_whole4 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 4 c).Φ 0 = Pipeline.ΦA spec4 c := by rw [hp]; exact Φ_eq _ c 0
    rw [hΦ]; unfold Pipeline.ΦA
    iintro ⟨Hp, -, Hr⟩
    isplitl [Hr]; · iexact Hr
    iexact Hp
  hout c := by
    have hΦ : (pdats 4 c).Φ (Fin.last _) = Pipeline.ΦA spec4 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      winFacts4 arr_whole4 c pdats (by rw [hp]; exact (dat (VW W) c).share_full fun w => q_eq _ c w)
      (VW W c) (fun b => Wout W c b) ((pdats 4 c).arrAt · cfg4.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg4

end
-- ==== Proof.RI.Reg5Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 5: the 2×2 max pool of a [16, 224, 112, 2, 64] array into [16, 112, 112, 64]

The grid is 16 × 14. At point (n, r) the input window is rows 16r … 16r+15 of image n, a [1, 16, 112, 2, 64] block; the
body takes the maximum over the column pair (axis 3), regroups the 16 rows as 8 pairs, takes the maximum over each
row pair, and stores the [1, 8, 112, 64] result over its whole output window, rows 8r … 8r+7 of image n. Nothing is
kept between points. -/
-- This module: the proof data (what each window holds after the body at each point).

set_option maxRecDepth 16384

noncomputable section

namespace Cert.ReferenceIdeal.Reg5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of the input array the window shows at point `t`. -/
def rows (c : Dev nD) (t : Fin cfg5.N) : Vec F S1x16x112x2x64 .f32 :=
  ((cfg5.win 0).blk t).view.read (Elt F) (V c (Pipeline.arrRef spec5 0))

/-- The pooled block: column-pair maximum, then row-pair maximum, of a block of 16 rows. -/
def pooled (x : Vec F S1x16x112x2x64 .f32) : Vec F S1x8x112x64 .f32 := Gen.k5_pay1 x

/-- The region's proof data: the arrays as found; after the body the input window still shows its rows and the output
    window holds their pooled block; the body keeps no state of its own. -/
def dat (c : Dev nD) : Dat τ (Elt F) Unit ℕ (UR sig nD τ) ℕ cfg5 c where
  A w := V c (Pipeline.arrRef spec5 w)
  after w t := match w with
    | ⟨0, _⟩ => rows V c t
    | ⟨1, _⟩ => pooled (rows V c t)
  Φ _ := Pipeline.ΦA spec5 c
  q _ := fullShare
  owed _ := 0

theorem A_eq (c : Dev nD) (w : Fin cfg5.W) : (dat V c).A w = V c (Pipeline.arrRef spec5 w) := by
  dsimp only [dat]

theorem after_in (c : Dev nD) (t : Fin cfg5.N) : (dat V c).after 0 t = rows V c t := by dsimp only [dat]
theorem after_out (c : Dev nD) (t : Fin cfg5.N) : (dat V c).after 1 t = pooled (rows V c t) := by dsimp only [dat]

end Cert.ReferenceIdeal.Reg5
-- ==== Proof.RI.Reg5.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg5Data
import Idealize.ShloMosaic.Lib.Pipeline.FrameBody
import Idealize.ShloMosaic.Lib.Pipeline.Value
import Idealize.ShloMosaic.Lib.Tactic

/-! # Region 5: the 2×2 max pool of a [16, 224, 112, 2, 64] array into [16, 112, 112, 64]

The grid is 16 × 14. At point (n, r) the input window is rows 16r … 16r+15 of image n, a [1, 16, 112, 2, 64] block; the
body takes the maximum over the column pair (axis 3), regroups the 16 rows as 8 pairs, takes the maximum over each
row pair, and stores the [1, 8, 112, 64] result over its whole output window, rows 8r … 8r+7 of image n. Nothing is
kept between points. -/
-- This module: the body's triple and the body obligation.

set_option maxRecDepth 16384

noncomputable section

namespace Cert.ReferenceIdeal.Reg5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg5.N + 1)) : (dat V c).Φ t = Pipeline.ΦA spec5 c := rfl
theorem owed_eq (c : Dev nD) (t : Fin (cfg5.N + 1)) : (dat V c).owed t = 0 := rfl
theorem q_eq (c : Dev nD) (w : Fin cfg5.W) : (dat V c).q w = fullShare := rfl

set_option maxHeartbeats 1000000 in
/-- The body on whole staging memrefs: with the input's holding a block `x` and the output's holding anything, it
    runs to a state where the input's still holds `x` and the output's holds the pooled block of `x`. -/
theorem pool_body (c : Dev nD) (E : Set ℕ) (i : grid5.Coords)
    (mi : Memref sig .tc .vmem S1x16x112x2x64 .f32) (hi : mi.IsWhole)
    (mo : Memref sig .tc .vmem S1x8x112x64 .f32) (ho : mo.IsWhole)
    (x : Vec F S1x16x112x2x64 .f32) (K : PUnit → sProp 𝕄) :
    iprop(owns (c : Thread nD τ) mi fullShare x ∗ (∃ d, owns (c : Thread nD τ) mo fullShare d)
        ∗ (iprop(owns (c : Thread nD τ) mi fullShare x ∗ owns (c : Thread nD τ) mo fullShare (pooled x)) -∗ K ⟨⟩))
      ⊢ wp frame (wpE (defs₀ (F := F)) Variants.none c none) E (cc5__maxpool_kernel i mi hi mo ho) K := by
  simp only [Gen.cc5__maxpool_kernel_eq_skeleton]; unfold Gen.cc5__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have z4 : (![0, 0, 0, 0] : Fin 4 → ℕ) = fun _ => 0 := by
    funext a; match a with | ⟨0, _⟩ => rfl | ⟨1, _⟩ => rfl | ⟨2, _⟩ => rfl | ⟨3, _⟩ => rfl
  have z5 : (![0, 0, 0, 0, 0] : Fin 5 → ℕ) = fun _ => 0 := by
    funext a; match a with | ⟨0, _⟩ => rfl | ⟨1, _⟩ => rfl | ⟨2, _⟩ => rfl | ⟨3, _⟩ => rfl | ⟨4, _⟩ => rfl
  -- the one store covers the output block, so the block reads its payload; the load reads the whole input block
  rw [View.read_writes_eq_canon _ _ _ (fun y => ⟨_, List.mem_singleton_self _,
      View.mem_set_unit_zero (S := S1x8x112x64) z4 Gen.inb_S1x8x112x64_S1x8x112x64_0_0_0_0 y⟩),
    View.canon_unit_zero (S := S1x8x112x64) z4 Gen.inb_S1x8x112x64_S1x8x112x64_0_0_0_0, View.readAt_eq_ld]
  show Gen.k5_pay1 (View.ld (View.read (Elt F) mi.view f0)
    (Rect.unit ![0, 0, 0, 0, 0] S1x16x112x2x64.size Gen.inb_S1x16x112x2x64_S1x16x112x2x64_0_0_0_0_0)) = _
  rw [View.ld_unit_zero (S := S1x16x112x2x64) z5 Gen.inb_S1x16x112x2x64_S1x16x112x2x64_0_0_0_0_0]
  rfl

/-- The input window's staging buffer shows the window's rows at every point, fetched there or not. -/
theorem before_in (c : Dev nD) (t : Fin cfg5.N) (d) : (dat V c).before 0 t d = rows V c t :=
  ((dat V c).before_in_eq_fetched 0 rfl (fun _ => rfl) (fun _ _ _ => rfl)
      (fun t => by rw [after_in]; unfold Dat.blockOf rows; rw [A_eq]; try rfl) t d).trans
    (by unfold Dat.fetched Dat.blockOf rows; rw [A_eq]; try rfl)

/-- The body at a point: its input buffer shows the point's rows, so the body's triple applies; the scoped rest and
    the core's tallies pass through untouched. -/
theorem at_point (c : Dev nD) (t : Fin cfg5.N) :
    iprop((dat V c).Φ t.castSucc ∗ (dat V c).owesAt () t.castSucc
        ∗ (∃ d, owns (c : Thread nD τ) (Gen.st5_0 t) fullShare ((dat V c).before 0 t d))
        ∗ (∃ d, owns (c : Thread nD τ) (Gen.st5_1 t) fullShare ((dat V c).before 1 t d)))
      ⊢ wp frame (wpE (defs₀ (F := F)) Variants.none c none) Set.univ (Gen.bodyAt5 t) (fun _ =>
        iprop((dat V c).Φ t.succ ∗ (dat V c).owesAt () t.succ
          ∗ owns (c : Thread nD τ) (Gen.st5_0 t) fullShare ((dat V c).after 0 t)
          ∗ owns (c : Thread nD τ) (Gen.st5_1 t) fullShare ((dat V c).after 1 t))) := by
  unfold Gen.bodyAt5
  simp only [before_in]
  rw [show (dat V c).Φ t.succ = (dat V c).Φ t.castSucc from rfl,
    show (dat V c).owesAt () t.succ = (dat V c).owesAt () t.castSucc from rfl, after_in, after_out]
  iintro ⟨HΦ, Ho, ⟨%d0, Hi⟩, ⟨%d1, Hout⟩⟩
  iapply (pool_body c Set.univ _ _ _ _ _ (rows V c t) _)
  isplitl [Hi]; · iexact Hi
  isplitl [Hout]; · iexists _; iexact Hout
  iintro ⟨Hi, Hout⟩
  isplitl [HΦ]; · iexact HΦ
  isplitl [Ho]; · iexact Ho
  isplitl [Hi]; · iexact Hi
  iexact Hout

theorem body_obligation (c : Dev nD) : BodyObligation (dat (F := F) V c) (defs₀ (F := F)) Variants.none () Set.univ := fun t => by
  rw [Gen.bigSep_W5, Gen.bigSep_W5]
  exact at_point V c t

end Cert.ReferenceIdeal.Reg5
-- ==== Proof.RI.Seg5.lean ====
import proofs.«143011_g2000502688546152_pallasbulk_1201_3_alg».proof.Proof.RI.Reg5
import proofs.«143011_g2000502688546152_pallasbulk_1201_3_alg».proof.Proof.RI.Rest
import Idealize.ShloMosaic.Lib.Pipeline.Regions
import Idealize.ShloMosaic.Lib.Pipeline.RegionsLoop

/-! # Region 5 as a segment of @main

A pooling region reads one array (pairs of columns split out as an axis) and writes the pooled array. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg5

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec5 1)) ((dat (VW W) c).arrAt 1 cfg5.N)

theorem Wout_out (c : Dev nD) :
    Wout W c (Proc.devRef .tc (Pipeline.arrRef spec5 1)) = (dat (VW W) c).arrAt 1 cfg5.N := by
  unfold Wout; exact Function.update_self ..

theorem Wout_of_ne (c : Dev nD) (b : DevRef τ sig) (hb : b ≠ Proc.devRef .tc (Pipeline.arrRef spec5 1)) :
    Wout W c b = W c b := by
  unfold Wout; exact Function.update_of_ne hb ..

theorem Wout_of_ne_ref (c : Dev nD) (b : Ref sig .tc) (hb : b ≠ Pipeline.arrRef spec5 1) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg5.W,
    (dat (VW W) c).arrAt w cfg5.N = Wout W c (Proc.devRef .tc (Pipeline.arrRef spec5 w))
  | 0 => by rw [Pipeline.Dat.arrAt_in _ 0 (by decide), Wout_of_ne_ref W c _ (by decide)]; exact A_eq _ c 0
  | 1 => (Wout_out W c).symm
  | ⟨_ + 2, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec5)) :
    Wout W c (Proc.devRef .tc b) = W c (Proc.devRef .tc b) :=
  Wout_of_ne_ref W c b fun e => hb (Finset.mem_image.mpr ⟨1, Finset.mem_univ _, e.symm⟩)

/-! ## The segment record -/

set_option backward.isDefEq.respectTransparency.types false in
/-- Region 5 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 5 = fun c => dat (VW W) c) :
    RegionSeg (pcfgs (F := F)) adm pdats () defs₀ Variants.none L lv 5 where
  win := winFacts5.to₀
  block_pos := block_pos5
  stage_whole := stage_whole5
  K := PEmpty
  osem k := k.elim
  ho := Pipeline.OwnSemFacts.none _
  hbody c := by rw [hp]; exact (body_obligation (VW W) c).loose
  hwaits := Pipeline.hwaits_of_owed_zero _ _ _ _ L lv 5 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec5 c (VW W c)
  hentry c := by
    rw [Pipeline.ownSems0_none]
    have hsplit := Pipeline.arrays_of_unscopedBufs (p := 5) (pcfgs (F := F)) adm pdats winFacts5 arr_whole5 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 5 c).Φ 0 = Pipeline.ΦA spec5 c := by rw [hp]; exact Φ_eq _ c 0
    rw [hΦ]; unfold Pipeline.ΦA
    iintro ⟨Hp, -, Hr⟩
    isplitl [Hr]; · iexact Hr
    iexact Hp
  hout c := by
    have hΦ : (pdats 5 c).Φ (Fin.last _) = Pipeline.ΦA spec5 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      winFacts5 arr_whole5 c pdats (by rw [hp]; exact (dat (VW W) c).share_full fun w => q_eq _ c w)
      (VW W c) (fun b => Wout W c b) ((pdats 5 c).arrAt · cfg5.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg5

end
-- ==== Proof.RI.Reg6Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 6: the 2×2 max pool of a [16, 224, 112, 2, 64] array into [16, 112, 112, 64]

The grid is 16 × 14. At point (n, r) the input window is rows 16r … 16r+15 of image n, a [1, 16, 112, 2, 64] block; the
body takes the maximum over the column pair (axis 3), regroups the 16 rows as 8 pairs, takes the maximum over each
row pair, and stores the [1, 8, 112, 64] result over its whole output window, rows 8r … 8r+7 of image n. Nothing is
kept between points. -/
-- This module: the proof data (what each window holds after the body at each point).

set_option maxRecDepth 16384

noncomputable section

namespace Cert.ReferenceIdeal.Reg6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of the input array the window shows at point `t`. -/
def rows (c : Dev nD) (t : Fin cfg6.N) : Vec F S1x16x112x2x64 .f32 :=
  ((cfg6.win 0).blk t).view.read (Elt F) (V c (Pipeline.arrRef spec6 0))

/-- The pooled block: column-pair maximum, then row-pair maximum, of a block of 16 rows. -/
def pooled (x : Vec F S1x16x112x2x64 .f32) : Vec F S1x8x112x64 .f32 := Gen.k6_pay1 x

/-- The region's proof data: the arrays as found; after the body the input window still shows its rows and the output
    window holds their pooled block; the body keeps no state of its own. -/
def dat (c : Dev nD) : Dat τ (Elt F) Unit ℕ (UR sig nD τ) ℕ cfg6 c where
  A w := V c (Pipeline.arrRef spec6 w)
  after w t := match w with
    | ⟨0, _⟩ => rows V c t
    | ⟨1, _⟩ => pooled (rows V c t)
  Φ _ := Pipeline.ΦA spec6 c
  q _ := fullShare
  owed _ := 0

theorem A_eq (c : Dev nD) (w : Fin cfg6.W) : (dat V c).A w = V c (Pipeline.arrRef spec6 w) := by
  dsimp only [dat]

theorem after_in (c : Dev nD) (t : Fin cfg6.N) : (dat V c).after 0 t = rows V c t := by dsimp only [dat]
theorem after_out (c : Dev nD) (t : Fin cfg6.N) : (dat V c).after 1 t = pooled (rows V c t) := by dsimp only [dat]

end Cert.ReferenceIdeal.Reg6
-- ==== Proof.RI.Reg6.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg6Data
import Idealize.ShloMosaic.Lib.Pipeline.FrameBody
import Idealize.ShloMosaic.Lib.Pipeline.Value
import Idealize.ShloMosaic.Lib.Tactic

/-! # Region 6: the 2×2 max pool of a [16, 224, 112, 2, 64] array into [16, 112, 112, 64]

The grid is 16 × 14. At point (n, r) the input window is rows 16r … 16r+15 of image n, a [1, 16, 112, 2, 64] block; the
body takes the maximum over the column pair (axis 3), regroups the 16 rows as 8 pairs, takes the maximum over each
row pair, and stores the [1, 8, 112, 64] result over its whole output window, rows 8r … 8r+7 of image n. Nothing is
kept between points. -/
-- This module: the body's triple and the body obligation.

set_option maxRecDepth 16384

noncomputable section

namespace Cert.ReferenceIdeal.Reg6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg6.N + 1)) : (dat V c).Φ t = Pipeline.ΦA spec6 c := rfl
theorem owed_eq (c : Dev nD) (t : Fin (cfg6.N + 1)) : (dat V c).owed t = 0 := rfl
theorem q_eq (c : Dev nD) (w : Fin cfg6.W) : (dat V c).q w = fullShare := rfl

set_option maxHeartbeats 1000000 in
/-- The body on whole staging memrefs: with the input's holding a block `x` and the output's holding anything, it
    runs to a state where the input's still holds `x` and the output's holds the pooled block of `x`. -/
theorem pool_body (c : Dev nD) (E : Set ℕ) (i : grid6.Coords)
    (mi : Memref sig .tc .vmem S1x16x112x2x64 .f32) (hi : mi.IsWhole)
    (mo : Memref sig .tc .vmem S1x8x112x64 .f32) (ho : mo.IsWhole)
    (x : Vec F S1x16x112x2x64 .f32) (K : PUnit → sProp 𝕄) :
    iprop(owns (c : Thread nD τ) mi fullShare x ∗ (∃ d, owns (c : Thread nD τ) mo fullShare d)
        ∗ (iprop(owns (c : Thread nD τ) mi fullShare x ∗ owns (c : Thread nD τ) mo fullShare (pooled x)) -∗ K ⟨⟩))
      ⊢ wp frame (wpE (defs₀ (F := F)) Variants.none c none) E (cc6__maxpool_kernel i mi hi mo ho) K := by
  simp only [Gen.cc6__maxpool_kernel_eq_skeleton]; unfold Gen.cc6__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have z4 : (![0, 0, 0, 0] : Fin 4 → ℕ) = fun _ => 0 := by
    funext a; match a with | ⟨0, _⟩ => rfl | ⟨1, _⟩ => rfl | ⟨2, _⟩ => rfl | ⟨3, _⟩ => rfl
  have z5 : (![0, 0, 0, 0, 0] : Fin 5 → ℕ) = fun _ => 0 := by
    funext a; match a with | ⟨0, _⟩ => rfl | ⟨1, _⟩ => rfl | ⟨2, _⟩ => rfl | ⟨3, _⟩ => rfl | ⟨4, _⟩ => rfl
  -- the one store covers the output block, so the block reads its payload; the load reads the whole input block
  rw [View.read_writes_eq_canon _ _ _ (fun y => ⟨_, List.mem_singleton_self _,
      View.mem_set_unit_zero (S := S1x8x112x64) z4 Gen.inb_S1x8x112x64_S1x8x112x64_0_0_0_0 y⟩),
    View.canon_unit_zero (S := S1x8x112x64) z4 Gen.inb_S1x8x112x64_S1x8x112x64_0_0_0_0, View.readAt_eq_ld]
  show Gen.k6_pay1 (View.ld (View.read (Elt F) mi.view f0)
    (Rect.unit ![0, 0, 0, 0, 0] S1x16x112x2x64.size Gen.inb_S1x16x112x2x64_S1x16x112x2x64_0_0_0_0_0)) = _
  rw [View.ld_unit_zero (S := S1x16x112x2x64) z5 Gen.inb_S1x16x112x2x64_S1x16x112x2x64_0_0_0_0_0]
  rfl

/-- The input window's staging buffer shows the window's rows at every point, fetched there or not. -/
theorem before_in (c : Dev nD) (t : Fin cfg6.N) (d) : (dat V c).before 0 t d = rows V c t :=
  ((dat V c).before_in_eq_fetched 0 rfl (fun _ => rfl) (fun _ _ _ => rfl)
      (fun t => by rw [after_in]; unfold Dat.blockOf rows; rw [A_eq]; try rfl) t d).trans
    (by unfold Dat.fetched Dat.blockOf rows; rw [A_eq]; try rfl)

/-- The body at a point: its input buffer shows the point's rows, so the body's triple applies; the scoped rest and
    the core's tallies pass through untouched. -/
theorem at_point (c : Dev nD) (t : Fin cfg6.N) :
    iprop((dat V c).Φ t.castSucc ∗ (dat V c).owesAt () t.castSucc
        ∗ (∃ d, owns (c : Thread nD τ) (Gen.st6_0 t) fullShare ((dat V c).before 0 t d))
        ∗ (∃ d, owns (c : Thread nD τ) (Gen.st6_1 t) fullShare ((dat V c).before 1 t d)))
      ⊢ wp frame (wpE (defs₀ (F := F)) Variants.none c none) Set.univ (Gen.bodyAt6 t) (fun _ =>
        iprop((dat V c).Φ t.succ ∗ (dat V c).owesAt () t.succ
          ∗ owns (c : Thread nD τ) (Gen.st6_0 t) fullShare ((dat V c).after 0 t)
          ∗ owns (c : Thread nD τ) (Gen.st6_1 t) fullShare ((dat V c).after 1 t))) := by
  unfold Gen.bodyAt6
  simp only [before_in]
  rw [show (dat V c).Φ t.succ = (dat V c).Φ t.castSucc from rfl,
    show (dat V c).owesAt () t.succ = (dat V c).owesAt () t.castSucc from rfl, after_in, after_out]
  iintro ⟨HΦ, Ho, ⟨%d0, Hi⟩, ⟨%d1, Hout⟩⟩
  iapply (pool_body c Set.univ _ _ _ _ _ (rows V c t) _)
  isplitl [Hi]; · iexact Hi
  isplitl [Hout]; · iexists _; iexact Hout
  iintro ⟨Hi, Hout⟩
  isplitl [HΦ]; · iexact HΦ
  isplitl [Ho]; · iexact Ho
  isplitl [Hi]; · iexact Hi
  iexact Hout

theorem body_obligation (c : Dev nD) : BodyObligation (dat (F := F) V c) (defs₀ (F := F)) Variants.none () Set.univ := fun t => by
  rw [Gen.bigSep_W6, Gen.bigSep_W6]
  exact at_point V c t

end Cert.ReferenceIdeal.Reg6
-- ==== Proof.RI.Seg6.lean ====
import proofs.«143011_g2000502688546152_pallasbulk_1201_3_alg».proof.Proof.RI.Reg6
import proofs.«143011_g2000502688546152_pallasbulk_1201_3_alg».proof.Proof.RI.Rest
import Idealize.ShloMosaic.Lib.Pipeline.Regions
import Idealize.ShloMosaic.Lib.Pipeline.RegionsLoop

/-! # Region 6 as a segment of @main

A pooling region reads one array (pairs of columns split out as an axis) and writes the pooled array. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg6

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec6 1)) ((dat (VW W) c).arrAt 1 cfg6.N)

theorem Wout_out (c : Dev nD) :
    Wout W c (Proc.devRef .tc (Pipeline.arrRef spec6 1)) = (dat (VW W) c).arrAt 1 cfg6.N := by
  unfold Wout; exact Function.update_self ..

theorem Wout_of_ne (c : Dev nD) (b : DevRef τ sig) (hb : b ≠ Proc.devRef .tc (Pipeline.arrRef spec6 1)) :
    Wout W c b = W c b := by
  unfold Wout; exact Function.update_of_ne hb ..

theorem Wout_of_ne_ref (c : Dev nD) (b : Ref sig .tc) (hb : b ≠ Pipeline.arrRef spec6 1) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg6.W,
    (dat (VW W) c).arrAt w cfg6.N = Wout W c (Proc.devRef .tc (Pipeline.arrRef spec6 w))
  | 0 => by rw [Pipeline.Dat.arrAt_in _ 0 (by decide), Wout_of_ne_ref W c _ (by decide)]; exact A_eq _ c 0
  | 1 => (Wout_out W c).symm
  | ⟨_ + 2, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec6)) :
    Wout W c (Proc.devRef .tc b) = W c (Proc.devRef .tc b) :=
  Wout_of_ne_ref W c b fun e => hb (Finset.mem_image.mpr ⟨1, Finset.mem_univ _, e.symm⟩)

/-! ## The segment record -/

set_option backward.isDefEq.respectTransparency.types false in
/-- Region 6 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 6 = fun c => dat (VW W) c) :
    RegionSeg (pcfgs (F := F)) adm pdats () defs₀ Variants.none L lv 6 where
  win := winFacts6.to₀
  block_pos := block_pos6
  stage_whole := stage_whole6
  K := PEmpty
  osem k := k.elim
  ho := Pipeline.OwnSemFacts.none _
  hbody c := by rw [hp]; exact (body_obligation (VW W) c).loose
  hwaits := Pipeline.hwaits_of_owed_zero _ _ _ _ L lv 6 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec6 c (VW W c)
  hentry c := by
    rw [Pipeline.ownSems0_none]
    have hsplit := Pipeline.arrays_of_unscopedBufs (p := 6) (pcfgs (F := F)) adm pdats winFacts6 arr_whole6 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 6 c).Φ 0 = Pipeline.ΦA spec6 c := by rw [hp]; exact Φ_eq _ c 0
    rw [hΦ]; unfold Pipeline.ΦA
    iintro ⟨Hp, -, Hr⟩
    isplitl [Hr]; · iexact Hr
    iexact Hp
  hout c := by
    have hΦ : (pdats 6 c).Φ (Fin.last _) = Pipeline.ΦA spec6 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      winFacts6 arr_whole6 c pdats (by rw [hp]; exact (dat (VW W) c).share_full fun w => q_eq _ c w)
      (VW W c) (fun b => Wout W c b) ((pdats 6 c).arrAt · cfg6.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg6

end
-- ==== Proof.RI.Reg7.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 7: a 3×3 convolution with bias and ReLU over one row tile per grid point

The grid is (image n, row tile r), 16 × 7 points. Windows 0 and 1 are the row tiles r and r+1 of ONE zero-padded
input array [16, 128, 120, 64]; window 2 is the whole kernel array [3, 3, 64, 128]; window 3 the bias [1, 128]; window 4
the output's row tile r of [16, 112, 112, 128]. The body flattens the two input tiles to rows of 120·16 pixels, appends
120 zero rows, and adds nine matrix products — one per tap (dy, dx), each a row-shifted slab against the tap's
[64, 128] matrix —, then the bias, then the maximum with zero, and keeps the first 112 columns of each row. -/

set_option maxRecDepth 16384

noncomputable section

namespace Cert.ReferenceIdeal.Reg7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The taps -/

/-- The [1, 1, 64, 128] rectangle of the kernel array at tap (dy, dx). -/
abbrev tapRect (dy dx : Nat) (h : ∀ a, ![dy, dx, 0, 0] a + S1x1x64x128.size a ≤ S3x3x64x128.size a) : Rect S3x3x64x128 :=
  Rect.unit (s := S3x3x64x128) ![dy, dx, 0, 0] S1x1x64x128.size h

/-- The whole input tile and the whole bias row, as the body loads them. -/
abbrev rIn : Rect S1x16x120x64 :=
  Rect.unit (s := S1x16x120x64) ![0, 0, 0, 0] S1x16x120x64.size inb_S1x16x120x64_S1x16x120x64_0_0_0_0
abbrev rBias : Rect S1x128 := Rect.unit (s := S1x128) ![0, 0] S1x128.size inb_S1x128_S1x128_0_0

/-! ## What the body leaves in the output window's buffer -/

/-- The output tile from the two input tiles `xa`, `xb`, the kernel array `wk` and the bias `b`: the sum of the nine
    taps' matrix products in the order (0,0), (0,1), …, (2,2), plus the bias, clamped below at zero, cut to 112 columns. -/
def out (xa xb : Vec F S1x16x120x64 .f32) (wk : Vec F S3x3x64x128 .f32) (b : Vec F S1x128 .f32) : Vec F S1x16x112x128 .f32 :=
  k7_pay1
    (k7_pay8 (k7_pay2 (View.ld xa rIn) (View.ld xb rIn)) (k7_pay3 (View.ld xa rIn) (View.ld xb rIn))
      (k7_pay4 (View.ld xa rIn) (View.ld xb rIn))
      (k7_pay5 (View.ld xa rIn) (View.ld xb rIn)
        (View.ld wk (tapRect 0 0 inb_S3x3x64x128_S1x1x64x128_0_0_0_0))
        (View.ld wk (tapRect 0 1 inb_S3x3x64x128_S1x1x64x128_0_1_0_0))
        (View.ld wk (tapRect 0 2 inb_S3x3x64x128_S1x1x64x128_0_2_0_0)))
      (k7_pay6 (View.ld xa rIn) (View.ld xb rIn))
      (k7_pay7 (View.ld wk (tapRect 1 0 inb_S3x3x64x128_S1x1x64x128_1_0_0_0)))
      (View.ld wk (tapRect 1 1 inb_S3x3x64x128_S1x1x64x128_1_1_0_0))
      (View.ld wk (tapRect 1 2 inb_S3x3x64x128_S1x1x64x128_1_2_0_0))
      (View.ld wk (tapRect 2 0 inb_S3x3x64x128_S1x1x64x128_2_0_0_0))
      (View.ld wk (tapRect 2 1 inb_S3x3x64x128_S1x1x64x128_2_1_0_0))
      (View.ld wk (tapRect 2 2 inb_S3x3x64x128_S1x1x64x128_2_2_0_0))
      (View.ld b rBias))
    (k7_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec7 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg7.W) : (dat V c).A w = V c (Pipeline.arrRef spec7 w) := by
  dsimp only [dat]

theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t = iblk V c 2 t := by dsimp only [dat]
theorem after_3 (c : Dev nD) (t : Fin cfg7.N) : (dat V c).after 3 t = iblk V c 3 t := by dsimp only [dat]
theorem after_4 (c : Dev nD) (t : Fin cfg7.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x112x128 :=
  Rect.unit (s := S1x16x112x128) ![0, 0, 0, 0] S1x16x112x128.size inb_S1x16x112x128_S1x16x112x128_0_0_0_0

theorem hz4 : (![0, 0, 0, 0] : Fin 4 → Nat) = fun _ => 0 := funext fun a => by fin_cases a <;> rfl

/-- The one store covers the output tile. -/
theorem cover_out (p : Vec F S1x16x112x128 .f32) (y : S1x16x112x128.Idx) :
    ∃ pc ∈ ([⟨rOut, p⟩] : List (View.Piece (Elt F) S1x16x112x128 .f32)), y ∈ pc.1.set :=
  View.cover_of_tiled [⟨rOut, p⟩] S1x16x112x128.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid7.Coords)
    (arg2 : Memref sig .tc .vmem S1x16x120x64 .f32) (harg2 : arg2.IsWhole)
    (arg3 : Memref sig .tc .vmem S1x16x120x64 .f32) (harg3 : arg3.IsWhole)
    (arg4 : Memref sig .tc .vmem S3x3x64x128 .f32) (harg4 : arg4.IsWhole)
    (arg5 : Memref sig .tc .vmem S1x128 .f32) (harg5 : arg5.IsWhole)
    (arg6 : Memref sig .tc .vmem S1x16x112x128 .f32) (harg6 : arg6.IsWhole)
    (xa xb : Vec F S1x16x120x64 .f32) (wk : Vec F S3x3x64x128 .f32) (b : Vec F S1x128 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc7__conv3x3_relu_kernel i arg2 harg2 arg3 harg3 arg4 harg4 arg5 harg5 arg6 harg6) K := by
  sl_unfold [cc7__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg7.N + 1)) : (dat V c).Φ t = Pipeline.ΦA spec7 c := by dsimp only [dat]
theorem owed_eq (c : Dev nD) (t : Fin (cfg7.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg7 c)
    (hA : dat'.A 0 = V c (Pipeline.arrRef spec7 0)) (hafter : ∀ t, dat'.after 0 t = iblk V c 0 t)
    (t : Fin cfg7.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg7.N) (d) : (dat V c).before 0 t d = iblk V c 0 t :=
  before_0_of V (dat V c) (A_eq V c 0) (after_0 V c) t d

theorem before_1_of {c : Dev nD} (dat' : Dat τ (Elt F) Unit ℕ (UR sig nD τ) ℕ cfg7 c)
    (hA : dat'.A 1 = V c (Pipeline.arrRef spec7 1)) (hafter : ∀ t, dat'.after 1 t = iblk V c 1 t)
    (t : Fin cfg7.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg7.N) (d) : (dat V c).before 1 t d = iblk V c 1 t :=
  before_1_of V (dat V c) (A_eq V c 1) (after_1 V c) t d

theorem before_2_of {c : Dev nD} (dat' : Dat τ (Elt F) Unit ℕ (UR sig nD τ) ℕ cfg7 c)
    (hA : dat'.A 2 = V c (Pipeline.arrRef spec7 2)) (hafter : ∀ t, dat'.after 2 t = iblk V c 2 t)
    (t : Fin cfg7.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg7.N) (d) : (dat V c).before 2 t d = iblk V c 2 t :=
  before_2_of V (dat V c) (A_eq V c 2) (after_2 V c) t d

theorem before_3_of {c : Dev nD} (dat' : Dat τ (Elt F) Unit ℕ (UR sig nD τ) ℕ cfg7 c)
    (hA : dat'.A 3 = V c (Pipeline.arrRef spec7 3)) (hafter : ∀ t, dat'.after 3 t = iblk V c 3 t)
    (t : Fin cfg7.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg7.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d)))

/-- and what it returns. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t))

/-- The body at any point: the four inputs' buffers hold their blocks, so the body's triple applies; the invariant and
    the debt pass through unread. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W7, bigSep_W7]
  exact sound_body V c t

end Cert.ReferenceIdeal.Reg7
-- ==== Proof.RI.Seg7.lean ====
import proofs.«143011_g2000502688546152_pallasbulk_1201_3_alg».proof.Proof.RI.Reg7
import proofs.«143011_g2000502688546152_pallasbulk_1201_3_alg».proof.Proof.RI.Rest
import Idealize.ShloMosaic.Lib.Pipeline.Regions

/-! # Region 7 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg7

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec7 4)) ((dat (VW W) c).arrAt 4 cfg7.N)

theorem Wout_out (c : Dev nD) :
    Wout W c (Proc.devRef .tc (Pipeline.arrRef spec7 4)) = (dat (VW W) c).arrAt 4 cfg7.N := by
  unfold Wout; exact Function.update_self ..

theorem Wout_of_ne (c : Dev nD) (b : DevRef τ sig) (hb : b ≠ Proc.devRef .tc (Pipeline.arrRef spec7 4)) :
    Wout W c b = W c b := by
  unfold Wout; exact Function.update_of_ne hb ..

theorem Wout_of_ne_ref (c : Dev nD) (b : Ref sig .tc) (hb : b ≠ Pipeline.arrRef spec7 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec7)
    = {Pipeline.arrRef spec7 0, Pipeline.arrRef spec7 2, Pipeline.arrRef spec7 3, Pipeline.arrRef spec7 4} := by decide

/-- The pipeline's arrays at contents `G`, window by window: the input array at its two half shares, the rest whole. -/
theorem arrays_eq (c : Dev nD) (G : (w : Fin cfg7.W) → Buf (Elt F) ((cfg7.win w).arr.view.loc (c : Thread nD τ))) :
    ((dat (VW W) c).arrays G : sProp 𝕄) = iprop(
      (((c : Thread nD τ).loc (Pipeline.arrRef spec7 0)) ↦{fullShare.left} G 0)
      ∗ (((c : Thread nD τ).loc (Pipeline.arrRef spec7 1)) ↦{fullShare.right} G 1)
      ∗ (((c : Thread nD τ).loc (Pipeline.arrRef spec7 2)) ↦{fullShare} G 2)
      ∗ (((c : Thread nD τ).loc (Pipeline.arrRef spec7 3)) ↦{fullShare} G 3)
      ∗ (((c : Thread nD τ).loc (Pipeline.arrRef spec7 4)) ↦{fullShare} G 4)) := by
  have h : ((dat (VW W) c).arrays G : sProp 𝕄) = bigSep Finset.univ fun w =>
      (((c : Thread nD τ).loc (Pipeline.arrRef spec7 w)) ↦{(dat (VW W) c).share w} G w : sProp 𝕄) := by
    unfold Pipeline.Dat.arrays
    exact bigSep_congr fun w _ => by rw [(arr_whole7 w).set_eq_univ]
  rw [h, bigSep_W7, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec7 c X : sProp 𝕄) = iprop(
      (((c : Thread nD τ).loc (Pipeline.arrRef spec7 0)) ↦{fullShare} X (Pipeline.arrRef spec7 0))
      ∗ (((c : Thread nD τ).loc (Pipeline.arrRef spec7 2)) ↦{fullShare} X (Pipeline.arrRef spec7 2))
      ∗ (((c : Thread nD τ).loc (Pipeline.arrRef spec7 3)) ↦{fullShare} X (Pipeline.arrRef spec7 3))
      ∗ (((c : Thread nD τ).loc (Pipeline.arrRef spec7 4)) ↦{fullShare} X (Pipeline.arrRef spec7 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec7 c X ∗ Pipeline.unscopedRest spec7 c X) :=
  Pipeline.unscopedBufs_split₀ cfgs 7 winFacts₀7.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec7 1) = (c : Thread nD τ).loc (Pipeline.arrRef spec7 0) := rfl
theorem halves01 (c : Dev nD) :
    (((c : Thread nD τ).loc (Pipeline.arrRef spec7 0)) ↦{fullShare} VW W c (Pipeline.arrRef spec7 0) : sProp 𝕄)
      ⊣⊢ iprop((((c : Thread nD τ).loc (Pipeline.arrRef spec7 0)) ↦{fullShare.left} VW W c (Pipeline.arrRef spec7 0))
        ∗ (((c : Thread nD τ).loc (Pipeline.arrRef spec7 1)) ↦{fullShare.right} VW W c (Pipeline.arrRef spec7 1))) :=
  halves (loc_1 c) _ _ HEq.rfl

/-- An array's entry contents are what the region finds. -/
theorem arrAt_zero (c : Dev nD) (w : Fin cfg7.W) : (dat (VW W) c).arrAt w 0 = VW W c (Pipeline.arrRef spec7 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec7 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec7 c (fun b => Wout W c b) : sProp 𝕄) = iprop(
      (((c : Thread nD τ).loc (Pipeline.arrRef spec7 0)) ↦{fullShare} VW W c (Pipeline.arrRef spec7 0))
      ∗ (((c : Thread nD τ).loc (Pipeline.arrRef spec7 2)) ↦{fullShare} VW W c (Pipeline.arrRef spec7 2))
      ∗ (((c : Thread nD τ).loc (Pipeline.arrRef spec7 3)) ↦{fullShare} VW W c (Pipeline.arrRef spec7 3))
      ∗ (((c : Thread nD τ).loc (Pipeline.arrRef spec7 4)) ↦{fullShare} (dat (VW W) c).arrAt 4 cfg7.N)) := by
  rw [arrBufs_eq]
  rw [Wout_of_ne_ref W c (Pipeline.arrRef spec7 0) (by decide)]
  rw [Wout_of_ne_ref W c (Pipeline.arrRef spec7 2) (by decide)]
  rw [Wout_of_ne_ref W c (Pipeline.arrRef spec7 3) (by decide)]
  rw [Wout_out]

/-- The buffers that are no array of the region hold at the exit what they held at entry. -/
theorem rest_out (c : Dev nD) :
    (Pipeline.unscopedRest spec7 c (fun b => Wout W c b) : sProp 𝕄) = Pipeline.unscopedRest spec7 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg7.N) : sProp 𝕄) = iprop(
      (((c : Thread nD τ).loc (Pipeline.arrRef spec7 0)) ↦{fullShare.left} VW W c (Pipeline.arrRef spec7 0))
      ∗ (((c : Thread nD τ).loc (Pipeline.arrRef spec7 1)) ↦{fullShare.right} VW W c (Pipeline.arrRef spec7 1))
      ∗ (((c : Thread nD τ).loc (Pipeline.arrRef spec7 2)) ↦{fullShare} VW W c (Pipeline.arrRef spec7 2))
      ∗ (((c : Thread nD τ).loc (Pipeline.arrRef spec7 3)) ↦{fullShare} VW W c (Pipeline.arrRef spec7 3))
      ∗ (((c : Thread nD τ).loc (Pipeline.arrRef spec7 4)) ↦{fullShare} (dat (VW W) c).arrAt 4 cfg7.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg7.N) ∗ Pipeline.unscopedRest spec7 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 7 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 7 = fun c => dat (VW W) c) :
    RegionSeg (pcfgs (F := F)) adm pdats () defs₀ Variants.none L lv 7 where
  win := winFacts₀7
  block_pos := block_pos7
  stage_whole := stage_whole7
  K := PEmpty
  osem k := k.elim
  ho := Pipeline.OwnSemFacts.none _
  hbody c := by rw [hp]; exact (body_obligation (VW W) c).loose
  hwaits := Pipeline.hwaits_of_owed_zero _ _ _ _ L lv 7 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec7 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 7 c).Φ 0 = Pipeline.ΦA spec7 c := by rw [hp]; exact Φ_eq _ c 0
    rw [hΦ]; unfold Pipeline.ΦA
    iintro ⟨Hp, -, Hr⟩
    isplitl [Hr]; · iexact Hr
    iexact Hp
  hout c := by
    have hΦ : (pdats 7 c).Φ (Fin.last _) = Pipeline.ΦA spec7 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg7

end
-- ==== Proof.RI.Reg8.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 8: a 3×3 convolution with bias and ReLU over one row tile per grid point

The grid is (image n, row tile r), 16 × 7 points. Windows 0 and 1 are the row tiles r and r+1 of ONE zero-padded
input array [16, 128, 120, 64]; window 2 is the whole kernel array [3, 3, 64, 128]; window 3 the bias [1, 128]; window 4
the output's row tile r of [16, 112, 112, 128]. The body flattens the two input tiles to rows of 120·16 pixels, appends
120 zero rows, and adds nine matrix products — one per tap (dy, dx), each a row-shifted slab against the tap's
[64, 128] matrix —, then the bias, then the maximum with zero, and keeps the first 112 columns of each row. -/

set_option maxRecDepth 16384

noncomputable section

namespace Cert.ReferenceIdeal.Reg8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-! ## The taps -/

/-- The [1, 1, 64, 128] rectangle of the kernel array at tap (dy, dx). -/
abbrev tapRect (dy dx : Nat) (h : ∀ a, ![dy, dx, 0, 0] a + S1x1x64x128.size a ≤ S3x3x64x128.size a) : Rect S3x3x64x128 :=
  Rect.unit (s := S3x3x64x128) ![dy, dx, 0, 0] S1x1x64x128.size h

/-- The whole input tile and the whole bias row, as the body loads them. -/
abbrev rIn : Rect S1x16x120x64 :=
  Rect.unit (s := S1x16x120x64) ![0, 0, 0, 0] S1x16x120x64.size inb_S1x16x120x64_S1x16x120x64_0_0_0_0
abbrev rBias : Rect S1x128 := Rect.unit (s := S1x128) ![0, 0] S1x128.size inb_S1x128_S1x128_0_0

/-! ## What the body leaves in the output window's buffer -/

/-- The output tile from the two input tiles `xa`, `xb`, the kernel array `wk` and the bias `b`: the sum of the nine
    taps' matrix products in the order (0,0), (0,1), …, (2,2), plus the bias, clamped below at zero, cut to 112 columns. -/
def out (xa xb : Vec F S1x16x120x64 .f32) (wk : Vec F S3x3x64x128 .f32) (b : Vec F S1x128 .f32) : Vec F S1x16x112x128 .f32 :=
  k8_pay1
    (k8_pay8 (k8_pay2 (View.ld xa rIn) (View.ld xb rIn)) (k8_pay3 (View.ld xa rIn) (View.ld xb rIn))
      (k8_pay4 (View.ld xa rIn) (View.ld xb rIn))
      (k8_pay5 (View.ld xa rIn) (View.ld xb rIn)
        (View.ld wk (tapRect 0 0 inb_S3x3x64x128_S1x1x64x128_0_0_0_0))
        (View.ld wk (tapRect 0 1 inb_S3x3x64x128_S1x1x64x128_0_1_0_0))
        (View.ld wk (tapRect 0 2 inb_S3x3x64x128_S1x1x64x128_0_2_0_0)))
      (k8_pay6 (View.ld xa rIn) (View.ld xb rIn))
      (k8_pay7 (View.ld wk (tapRect 1 0 inb_S3x3x64x128_S1x1x64x128_1_0_0_0)))
      (View.ld wk (tapRect 1 1 inb_S3x3x64x128_S1x1x64x128_1_1_0_0))
      (View.ld wk (tapRect 1 2 inb_S3x3x64x128_S1x1x64x128_1_2_0_0))
      (View.ld wk (tapRect 2 0 inb_S3x3x64x128_S1x1x64x128_2_0_0_0))
      (View.ld wk (tapRect 2 1 inb_S3x3x64x128_S1x1x64x128_2_1_0_0))
      (View.ld wk (tapRect 2 2 inb_S3x3x64x128_S1x1x64x128_2_2_0_0))
      (View.ld b rBias))
    (k8_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg8 c where
  A w := V c (Pipeline.arrRef spec8 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec8 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg8.W) : (dat V c).A w = V c (Pipeline.arrRef spec8 w) := by
  dsimp only [dat]

theorem after_0 (c : Dev nD) (t : Fin cfg8.N) : (dat V c).after 0 t = iblk V c 0 t := by dsimp only [dat]
theorem after_1 (c : Dev nD) (t : Fin cfg8.N) : (dat V c).after 1 t = iblk V c 1 t := by dsimp only [dat]
theorem after_2 (c : Dev nD) (t : Fin cfg8.N) : (dat V c).after 2 t = iblk V c 2 t := by dsimp only [dat]
theorem after_3 (c : Dev nD) (t : Fin cfg8.N) : (dat V c).after 3 t = iblk V c 3 t := by dsimp only [dat]
theorem after_4 (c : Dev nD) (t : Fin cfg8.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x112x128 :=
  Rect.unit (s := S1x16x112x128) ![0, 0, 0, 0] S1x16x112x128.size inb_S1x16x112x128_S1x16x112x128_0_0_0_0

theorem hz4 : (![0, 0, 0, 0] : Fin 4 → Nat) = fun _ => 0 := funext fun a => by fin_cases a <;> rfl

/-- The one store covers the output tile. -/
theorem cover_out (p : Vec F S1x16x112x128 .f32) (y : S1x16x112x128.Idx) :
    ∃ pc ∈ ([⟨rOut, p⟩] : List (View.Piece (Elt F) S1x16x112x128 .f32)), y ∈ pc.1.set :=
  View.cover_of_tiled [⟨rOut, p⟩] S1x16x112x128.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid8.Coords)
    (arg2 : Memref sig .tc .vmem S1x16x120x64 .f32) (harg2 : arg2.IsWhole)
    (arg3 : Memref sig .tc .vmem S1x16x120x64 .f32) (harg3 : arg3.IsWhole)
    (arg4 : Memref sig .tc .vmem S3x3x64x128 .f32) (harg4 : arg4.IsWhole)
    (arg5 : Memref sig .tc .vmem S1x128 .f32) (harg5 : arg5.IsWhole)
    (arg6 : Memref sig .tc .vmem S1x16x112x128 .f32) (harg6 : arg6.IsWhole)
    (xa xb : Vec F S1x16x120x64 .f32) (wk : Vec F S3x3x64x128 .f32) (b : Vec F S1x128 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc8__conv3x3_relu_kernel i arg2 harg2 arg3 harg3 arg4 harg4 arg5 harg5 arg6 harg6) K := by
  sl_unfold [cc8__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg8.N + 1)) : (dat V c).Φ t = Pipeline.ΦA spec8 c := by dsimp only [dat]
theorem owed_eq (c : Dev nD) (t : Fin (cfg8.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg8 c)
    (hA : dat'.A 0 = V c (Pipeline.arrRef spec8 0)) (hafter : ∀ t, dat'.after 0 t = iblk V c 0 t)
    (t : Fin cfg8.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg8.N) (d) : (dat V c).before 0 t d = iblk V c 0 t :=
  before_0_of V (dat V c) (A_eq V c 0) (after_0 V c) t d

theorem before_1_of {c : Dev nD} (dat' : Dat τ (Elt F) Unit ℕ (UR sig nD τ) ℕ cfg8 c)
    (hA : dat'.A 1 = V c (Pipeline.arrRef spec8 1)) (hafter : ∀ t, dat'.after 1 t = iblk V c 1 t)
    (t : Fin cfg8.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg8.N) (d) : (dat V c).before 1 t d = iblk V c 1 t :=
  before_1_of V (dat V c) (A_eq V c 1) (after_1 V c) t d

theorem before_2_of {c : Dev nD} (dat' : Dat τ (Elt F) Unit ℕ (UR sig nD τ) ℕ cfg8 c)
    (hA : dat'.A 2 = V c (Pipeline.arrRef spec8 2)) (hafter : ∀ t, dat'.after 2 t = iblk V c 2 t)
    (t : Fin cfg8.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg8.N) (d) : (dat V c).before 2 t d = iblk V c 2 t :=
  before_2_of V (dat V c) (A_eq V c 2) (after_2 V c) t d

theorem before_3_of {c : Dev nD} (dat' : Dat τ (Elt F) Unit ℕ (UR sig nD τ) ℕ cfg8 c)
    (hA : dat'.A 3 = V c (Pipeline.arrRef spec8 3)) (hafter : ∀ t, dat'.after 3 t = iblk V c 3 t)
    (t : Fin cfg8.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg8.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d)))

/-- and what it returns. -/
def bodyPost (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t)
    ∗ owns (c : Thread nD τ) (st8_3 t) fullShare ((dat V c).after 3 t)
    ∗ owns (c : Thread nD τ) (st8_4 t) fullShare ((dat V c).after 4 t))

/-- The body at any point: the four inputs' buffers hold their blocks, so the body's triple applies; the invariant and
    the debt pass through unread. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W8, bigSep_W8]
  exact sound_body V c t

end Cert.ReferenceIdeal.Reg8
-- ==== Proof.RI.Seg8.lean ====
import proofs.«143011_g2000502688546152_pallasbulk_1201_3_alg».proof.Proof.RI.Reg8
import proofs.«143011_g2000502688546152_pallasbulk_1201_3_alg».proof.Proof.RI.Rest
import Idealize.ShloMosaic.Lib.Pipeline.Regions

/-! # Region 8 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec8 4)) ((dat (VW W) c).arrAt 4 cfg8.N)

theorem Wout_out (c : Dev nD) :
    Wout W c (Proc.devRef .tc (Pipeline.arrRef spec8 4)) = (dat (VW W) c).arrAt 4 cfg8.N := by
  unfold Wout; exact Function.update_self ..

theorem Wout_of_ne (c : Dev nD) (b : DevRef τ sig) (hb : b ≠ Proc.devRef .tc (Pipeline.arrRef spec8 4)) :
    Wout W c b = W c b := by
  unfold Wout; exact Function.update_of_ne hb ..

theorem Wout_of_ne_ref (c : Dev nD) (b : Ref sig .tc) (hb : b ≠ Pipeline.arrRef spec8 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec8)
    = {Pipeline.arrRef spec8 0, Pipeline.arrRef spec8 2, Pipeline.arrRef spec8 3, Pipeline.arrRef spec8 4} := by decide

/-- The pipeline's arrays at contents `G`, window by window: the input array at its two half shares, the rest whole. -/
theorem arrays_eq (c : Dev nD) (G : (w : Fin cfg8.W) → Buf (Elt F) ((cfg8.win w).arr.view.loc (c : Thread nD τ))) :
    ((dat (VW W) c).arrays G : sProp 𝕄) = iprop(
      (((c : Thread nD τ).loc (Pipeline.arrRef spec8 0)) ↦{fullShare.left} G 0)
      ∗ (((c : Thread nD τ).loc (Pipeline.arrRef spec8 1)) ↦{fullShare.right} G 1)
      ∗ (((c : Thread nD τ).loc (Pipeline.arrRef spec8 2)) ↦{fullShare} G 2)
      ∗ (((c : Thread nD τ).loc (Pipeline.arrRef spec8 3)) ↦{fullShare} G 3)
      ∗ (((c : Thread nD τ).loc (Pipeline.arrRef spec8 4)) ↦{fullShare} G 4)) := by
  have h : ((dat (VW W) c).arrays G : sProp 𝕄) = bigSep Finset.univ fun w =>
      (((c : Thread nD τ).loc (Pipeline.arrRef spec8 w)) ↦{(dat (VW W) c).share w} G w : sProp 𝕄) := by
    unfold Pipeline.Dat.arrays
    exact bigSep_congr fun w _ => by rw [(arr_whole8 w).set_eq_univ]
  rw [h, bigSep_W8, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec8 c X : sProp 𝕄) = iprop(
      (((c : Thread nD τ).loc (Pipeline.arrRef spec8 0)) ↦{fullShare} X (Pipeline.arrRef spec8 0))
      ∗ (((c : Thread nD τ).loc (Pipeline.arrRef spec8 2)) ↦{fullShare} X (Pipeline.arrRef spec8 2))
      ∗ (((c : Thread nD τ).loc (Pipeline.arrRef spec8 3)) ↦{fullShare} X (Pipeline.arrRef spec8 3))
      ∗ (((c : Thread nD τ).loc (Pipeline.arrRef spec8 4)) ↦{fullShare} X (Pipeline.arrRef spec8 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec8 c X ∗ Pipeline.unscopedRest spec8 c X) :=
  Pipeline.unscopedBufs_split₀ cfgs 8 winFacts₀8.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec8 1) = (c : Thread nD τ).loc (Pipeline.arrRef spec8 0) := rfl
theorem halves01 (c : Dev nD) :
    (((c : Thread nD τ).loc (Pipeline.arrRef spec8 0)) ↦{fullShare} VW W c (Pipeline.arrRef spec8 0) : sProp 𝕄)
      ⊣⊢ iprop((((c : Thread nD τ).loc (Pipeline.arrRef spec8 0)) ↦{fullShare.left} VW W c (Pipeline.arrRef spec8 0))
        ∗ (((c : Thread nD τ).loc (Pipeline.arrRef spec8 1)) ↦{fullShare.right} VW W c (Pipeline.arrRef spec8 1))) :=
  halves (loc_1 c) _ _ HEq.rfl

/-- An array's entry contents are what the region finds. -/
theorem arrAt_zero (c : Dev nD) (w : Fin cfg8.W) : (dat (VW W) c).arrAt w 0 = VW W c (Pipeline.arrRef spec8 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec8 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec8 c (fun b => Wout W c b) : sProp 𝕄) = iprop(
      (((c : Thread nD τ).loc (Pipeline.arrRef spec8 0)) ↦{fullShare} VW W c (Pipeline.arrRef spec8 0))
      ∗ (((c : Thread nD τ).loc (Pipeline.arrRef spec8 2)) ↦{fullShare} VW W c (Pipeline.arrRef spec8 2))
      ∗ (((c : Thread nD τ).loc (Pipeline.arrRef spec8 3)) ↦{fullShare} VW W c (Pipeline.arrRef spec8 3))
      ∗ (((c : Thread nD τ).loc (Pipeline.arrRef spec8 4)) ↦{fullShare} (dat (VW W) c).arrAt 4 cfg8.N)) := by
  rw [arrBufs_eq]
  rw [Wout_of_ne_ref W c (Pipeline.arrRef spec8 0) (by decide)]
  rw [Wout_of_ne_ref W c (Pipeline.arrRef spec8 2) (by decide)]
  rw [Wout_of_ne_ref W c (Pipeline.arrRef spec8 3) (by decide)]
  rw [Wout_out]

/-- The buffers that are no array of the region hold at the exit what they held at entry. -/
theorem rest_out (c : Dev nD) :
    (Pipeline.unscopedRest spec8 c (fun b => Wout W c b) : sProp 𝕄) = Pipeline.unscopedRest spec8 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg8.N) : sProp 𝕄) = iprop(
      (((c : Thread nD τ).loc (Pipeline.arrRef spec8 0)) ↦{fullShare.left} VW W c (Pipeline.arrRef spec8 0))
      ∗ (((c : Thread nD τ).loc (Pipeline.arrRef spec8 1)) ↦{fullShare.right} VW W c (Pipeline.arrRef spec8 1))
      ∗ (((c : Thread nD τ).loc (Pipeline.arrRef spec8 2)) ↦{fullShare} VW W c (Pipeline.arrRef spec8 2))
      ∗ (((c : Thread nD τ).loc (Pipeline.arrRef spec8 3)) ↦{fullShare} VW W c (Pipeline.arrRef spec8 3))
      ∗ (((c : Thread nD τ).loc (Pipeline.arrRef spec8 4)) ↦{fullShare} (dat (VW W) c).arrAt 4 cfg8.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg8.N) ∗ Pipeline.unscopedRest spec8 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 8 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 8 = fun c => dat (VW W) c) :
    RegionSeg (pcfgs (F := F)) adm pdats () defs₀ Variants.none L lv 8 where
  win := winFacts₀8
  block_pos := block_pos8
  stage_whole := stage_whole8
  K := PEmpty
  osem k := k.elim
  ho := Pipeline.OwnSemFacts.none _
  hbody c := by rw [hp]; exact (body_obligation (VW W) c).loose
  hwaits := Pipeline.hwaits_of_owed_zero _ _ _ _ L lv 8 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec8 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 8 c).Φ 0 = Pipeline.ΦA spec8 c := by rw [hp]; exact Φ_eq _ c 0
    rw [hΦ]; unfold Pipeline.ΦA
    iintro ⟨Hp, -, Hr⟩
    isplitl [Hr]; · iexact Hr
    iexact Hp
  hout c := by
    have hΦ : (pdats 8 c).Φ (Fin.last _) = Pipeline.ΦA spec8 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg8

end
-- ==== Proof.RI.Reg9.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 9: a 3×3 convolution with bias and ReLU over one row tile per grid point

The grid is (image n, row tile r), 16 × 7 points. Windows 0 and 1 are the row tiles r and r+1 of ONE zero-padded
input array [16, 128, 120, 128]; window 2 is the whole kernel array [3, 3, 128, 128]; window 3 the bias [1, 128]; window 4
the output's row tile r of [16, 112, 112, 128]. The body flattens the two input tiles to rows of 120·16 pixels, appends
120 zero rows, and adds nine matrix products — one per tap (dy, dx), each a row-shifted slab against the tap's
[128, 128] matrix —, then the bias, then the maximum with zero, and keeps the first 112 columns of each row. -/

set_option maxRecDepth 16384

noncomputable section

namespace Cert.ReferenceIdeal.Reg9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-! ## The taps -/

/-- The [1, 1, 128, 128] rectangle of the kernel array at tap (dy, dx). -/
abbrev tapRect (dy dx : Nat) (h : ∀ a, ![dy, dx, 0, 0] a + S1x1x128x128.size a ≤ S3x3x128x128.size a) : Rect S3x3x128x128 :=
  Rect.unit (s := S3x3x128x128) ![dy, dx, 0, 0] S1x1x128x128.size h

/-- The whole input tile and the whole bias row, as the body loads them. -/
abbrev rIn : Rect S1x16x120x128 :=
  Rect.unit (s := S1x16x120x128) ![0, 0, 0, 0] S1x16x120x128.size inb_S1x16x120x128_S1x16x120x128_0_0_0_0
abbrev rBias : Rect S1x128 := Rect.unit (s := S1x128) ![0, 0] S1x128.size inb_S1x128_S1x128_0_0

/-! ## What the body leaves in the output window's buffer -/

/-- The output tile from the two input tiles `xa`, `xb`, the kernel array `wk` and the bias `b`: the sum of the nine
    taps' matrix products in the order (0,0), (0,1), …, (2,2), plus the bias, clamped below at zero, cut to 112 columns. -/
def out (xa xb : Vec F S1x16x120x128 .f32) (wk : Vec F S3x3x128x128 .f32) (b : Vec F S1x128 .f32) : Vec F S1x16x112x128 .f32 :=
  k9_pay1
    (k9_pay8 (k9_pay2 (View.ld xa rIn) (View.ld xb rIn)) (k9_pay3 (View.ld xa rIn) (View.ld xb rIn))
      (k9_pay4 (View.ld xa rIn) (View.ld xb rIn))
      (k9_pay5 (View.ld xa rIn) (View.ld xb rIn)
        (View.ld wk (tapRect 0 0 inb_S3x3x128x128_S1x1x128x128_0_0_0_0))
        (View.ld wk (tapRect 0 1 inb_S3x3x128x128_S1x1x128x128_0_1_0_0))
        (View.ld wk (tapRect 0 2 inb_S3x3x128x128_S1x1x128x128_0_2_0_0)))
      (k9_pay6 (View.ld xa rIn) (View.ld xb rIn))
      (k9_pay7 (View.ld wk (tapRect 1 0 inb_S3x3x128x128_S1x1x128x128_1_0_0_0)))
      (View.ld wk (tapRect 1 1 inb_S3x3x128x128_S1x1x128x128_1_1_0_0))
      (View.ld wk (tapRect 1 2 inb_S3x3x128x128_S1x1x128x128_1_2_0_0))
      (View.ld wk (tapRect 2 0 inb_S3x3x128x128_S1x1x128x128_2_0_0_0))
      (View.ld wk (tapRect 2 1 inb_S3x3x128x128_S1x1x128x128_2_1_0_0))
      (View.ld wk (tapRect 2 2 inb_S3x3x128x128_S1x1x128x128_2_2_0_0))
      (View.ld b rBias))
    (k9_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg9 c where
  A w := V c (Pipeline.arrRef spec9 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec9 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg9.W) : (dat V c).A w = V c (Pipeline.arrRef spec9 w) := by
  dsimp only [dat]

theorem after_0 (c : Dev nD) (t : Fin cfg9.N) : (dat V c).after 0 t = iblk V c 0 t := by dsimp only [dat]
theorem after_1 (c : Dev nD) (t : Fin cfg9.N) : (dat V c).after 1 t = iblk V c 1 t := by dsimp only [dat]
theorem after_2 (c : Dev nD) (t : Fin cfg9.N) : (dat V c).after 2 t = iblk V c 2 t := by dsimp only [dat]
theorem after_3 (c : Dev nD) (t : Fin cfg9.N) : (dat V c).after 3 t = iblk V c 3 t := by dsimp only [dat]
theorem after_4 (c : Dev nD) (t : Fin cfg9.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x112x128 :=
  Rect.unit (s := S1x16x112x128) ![0, 0, 0, 0] S1x16x112x128.size inb_S1x16x112x128_S1x16x112x128_0_0_0_0

theorem hz4 : (![0, 0, 0, 0] : Fin 4 → Nat) = fun _ => 0 := funext fun a => by fin_cases a <;> rfl

/-- The one store covers the output tile. -/
theorem cover_out (p : Vec F S1x16x112x128 .f32) (y : S1x16x112x128.Idx) :
    ∃ pc ∈ ([⟨rOut, p⟩] : List (View.Piece (Elt F) S1x16x112x128 .f32)), y ∈ pc.1.set :=
  View.cover_of_tiled [⟨rOut, p⟩] S1x16x112x128.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid9.Coords)
    (arg2 : Memref sig .tc .vmem S1x16x120x128 .f32) (harg2 : arg2.IsWhole)
    (arg3 : Memref sig .tc .vmem S1x16x120x128 .f32) (harg3 : arg3.IsWhole)
    (arg4 : Memref sig .tc .vmem S3x3x128x128 .f32) (harg4 : arg4.IsWhole)
    (arg5 : Memref sig .tc .vmem S1x128 .f32) (harg5 : arg5.IsWhole)
    (arg6 : Memref sig .tc .vmem S1x16x112x128 .f32) (harg6 : arg6.IsWhole)
    (xa xb : Vec F S1x16x120x128 .f32) (wk : Vec F S3x3x128x128 .f32) (b : Vec F S1x128 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc9__conv3x3_relu_kernel i arg2 harg2 arg3 harg3 arg4 harg4 arg5 harg5 arg6 harg6) K := by
  sl_unfold [cc9__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg9.N + 1)) : (dat V c).Φ t = Pipeline.ΦA spec9 c := by dsimp only [dat]
theorem owed_eq (c : Dev nD) (t : Fin (cfg9.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg9 c)
    (hA : dat'.A 0 = V c (Pipeline.arrRef spec9 0)) (hafter : ∀ t, dat'.after 0 t = iblk V c 0 t)
    (t : Fin cfg9.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg9.N) (d) : (dat V c).before 0 t d = iblk V c 0 t :=
  before_0_of V (dat V c) (A_eq V c 0) (after_0 V c) t d

theorem before_1_of {c : Dev nD} (dat' : Dat τ (Elt F) Unit ℕ (UR sig nD τ) ℕ cfg9 c)
    (hA : dat'.A 1 = V c (Pipeline.arrRef spec9 1)) (hafter : ∀ t, dat'.after 1 t = iblk V c 1 t)
    (t : Fin cfg9.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg9.N) (d) : (dat V c).before 1 t d = iblk V c 1 t :=
  before_1_of V (dat V c) (A_eq V c 1) (after_1 V c) t d

theorem before_2_of {c : Dev nD} (dat' : Dat τ (Elt F) Unit ℕ (UR sig nD τ) ℕ cfg9 c)
    (hA : dat'.A 2 = V c (Pipeline.arrRef spec9 2)) (hafter : ∀ t, dat'.after 2 t = iblk V c 2 t)
    (t : Fin cfg9.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg9.N) (d) : (dat V c).before 2 t d = iblk V c 2 t :=
  before_2_of V (dat V c) (A_eq V c 2) (after_2 V c) t d

theorem before_3_of {c : Dev nD} (dat' : Dat τ (Elt F) Unit ℕ (UR sig nD τ) ℕ cfg9 c)
    (hA : dat'.A 3 = V c (Pipeline.arrRef spec9 3)) (hafter : ∀ t, dat'.after 3 t = iblk V c 3 t)
    (t : Fin cfg9.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg9.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d))
    ∗ (∃ d, owns (c : Thread nD τ) (st9_3 t) fullShare ((dat V c).before 3 t d))
    ∗ (∃ d, owns (c : Thread nD τ) (st9_4 t) fullShare ((dat V c).before 4 t d)))

/-- and what it returns. -/
def bodyPost (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t)
    ∗ owns (c : Thread nD τ) (st9_3 t) fullShare ((dat V c).after 3 t)
    ∗ owns (c : Thread nD τ) (st9_4 t) fullShare ((dat V c).after 4 t))

/-- The body at any point: the four inputs' buffers hold their blocks, so the body's triple applies; the invariant and
    the debt pass through unread. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W9, bigSep_W9]
  exact sound_body V c t

end Cert.ReferenceIdeal.Reg9
-- ==== Proof.RI.Seg9.lean ====
import proofs.«143011_g2000502688546152_pallasbulk_1201_3_alg».proof.Proof.RI.Reg9
import proofs.«143011_g2000502688546152_pallasbulk_1201_3_alg».proof.Proof.RI.Rest
import Idealize.ShloMosaic.Lib.Pipeline.Regions

/-! # Region 9 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg9

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec9 4)) ((dat (VW W) c).arrAt 4 cfg9.N)

theorem Wout_out (c : Dev nD) :
    Wout W c (Proc.devRef .tc (Pipeline.arrRef spec9 4)) = (dat (VW W) c).arrAt 4 cfg9.N := by
  unfold Wout; exact Function.update_self ..

theorem Wout_of_ne (c : Dev nD) (b : DevRef τ sig) (hb : b ≠ Proc.devRef .tc (Pipeline.arrRef spec9 4)) :
    Wout W c b = W c b := by
  unfold Wout; exact Function.update_of_ne hb ..

theorem Wout_of_ne_ref (c : Dev nD) (b : Ref sig .tc) (hb : b ≠ Pipeline.arrRef spec9 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec9)
    = {Pipeline.arrRef spec9 0, Pipeline.arrRef spec9 2, Pipeline.arrRef spec9 3, Pipeline.arrRef spec9 4} := by decide

/-- The pipeline's arrays at contents `G`, window by window: the input array at its two half shares, the rest whole. -/
theorem arrays_eq (c : Dev nD) (G : (w : Fin cfg9.W) → Buf (Elt F) ((cfg9.win w).arr.view.loc (c : Thread nD τ))) :
    ((dat (VW W) c).arrays G : sProp 𝕄) = iprop(
      (((c : Thread nD τ).loc (Pipeline.arrRef spec9 0)) ↦{fullShare.left} G 0)
      ∗ (((c : Thread nD τ).loc (Pipeline.arrRef spec9 1)) ↦{fullShare.right} G 1)
      ∗ (((c : Thread nD τ).loc (Pipeline.arrRef spec9 2)) ↦{fullShare} G 2)
      ∗ (((c : Thread nD τ).loc (Pipeline.arrRef spec9 3)) ↦{fullShare} G 3)
      ∗ (((c : Thread nD τ).loc (Pipeline.arrRef spec9 4)) ↦{fullShare} G 4)) := by
  have h : ((dat (VW W) c).arrays G : sProp 𝕄) = bigSep Finset.univ fun w =>
      (((c : Thread nD τ).loc (Pipeline.arrRef spec9 w)) ↦{(dat (VW W) c).share w} G w : sProp 𝕄) := by
    unfold Pipeline.Dat.arrays
    exact bigSep_congr fun w _ => by rw [(arr_whole9 w).set_eq_univ]
  rw [h, bigSep_W9, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec9 c X : sProp 𝕄) = iprop(
      (((c : Thread nD τ).loc (Pipeline.arrRef spec9 0)) ↦{fullShare} X (Pipeline.arrRef spec9 0))
      ∗ (((c : Thread nD τ).loc (Pipeline.arrRef spec9 2)) ↦{fullShare} X (Pipeline.arrRef spec9 2))
      ∗ (((c : Thread nD τ).loc (Pipeline.arrRef spec9 3)) ↦{fullShare} X (Pipeline.arrRef spec9 3))
      ∗ (((c : Thread nD τ).loc (Pipeline.arrRef spec9 4)) ↦{fullShare} X (Pipeline.arrRef spec9 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec9 c X ∗ Pipeline.unscopedRest spec9 c X) :=
  Pipeline.unscopedBufs_split₀ cfgs 9 winFacts₀9.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec9 1) = (c : Thread nD τ).loc (Pipeline.arrRef spec9 0) := rfl
theorem halves01 (c : Dev nD) :
    (((c : Thread nD τ).loc (Pipeline.arrRef spec9 0)) ↦{fullShare} VW W c (Pipeline.arrRef spec9 0) : sProp 𝕄)
      ⊣⊢ iprop((((c : Thread nD τ).loc (Pipeline.arrRef spec9 0)) ↦{fullShare.left} VW W c (Pipeline.arrRef spec9 0))
        ∗ (((c : Thread nD τ).loc (Pipeline.arrRef spec9 1)) ↦{fullShare.right} VW W c (Pipeline.arrRef spec9 1))) :=
  halves (loc_1 c) _ _ HEq.rfl

/-- An array's entry contents are what the region finds. -/
theorem arrAt_zero (c : Dev nD) (w : Fin cfg9.W) : (dat (VW W) c).arrAt w 0 = VW W c (Pipeline.arrRef spec9 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec9 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec9 c (fun b => Wout W c b) : sProp 𝕄) = iprop(
      (((c : Thread nD τ).loc (Pipeline.arrRef spec9 0)) ↦{fullShare} VW W c (Pipeline.arrRef spec9 0))
      ∗ (((c : Thread nD τ).loc (Pipeline.arrRef spec9 2)) ↦{fullShare} VW W c (Pipeline.arrRef spec9 2))
      ∗ (((c : Thread nD τ).loc (Pipeline.arrRef spec9 3)) ↦{fullShare} VW W c (Pipeline.arrRef spec9 3))
      ∗ (((c : Thread nD τ).loc (Pipeline.arrRef spec9 4)) ↦{fullShare} (dat (VW W) c).arrAt 4 cfg9.N)) := by
  rw [arrBufs_eq]
  rw [Wout_of_ne_ref W c (Pipeline.arrRef spec9 0) (by decide)]
  rw [Wout_of_ne_ref W c (Pipeline.arrRef spec9 2) (by decide)]
  rw [Wout_of_ne_ref W c (Pipeline.arrRef spec9 3) (by decide)]
  rw [Wout_out]

/-- The buffers that are no array of the region hold at the exit what they held at entry. -/
theorem rest_out (c : Dev nD) :
    (Pipeline.unscopedRest spec9 c (fun b => Wout W c b) : sProp 𝕄) = Pipeline.unscopedRest spec9 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg9.N) : sProp 𝕄) = iprop(
      (((c : Thread nD τ).loc (Pipeline.arrRef spec9 0)) ↦{fullShare.left} VW W c (Pipeline.arrRef spec9 0))
      ∗ (((c : Thread nD τ).loc (Pipeline.arrRef spec9 1)) ↦{fullShare.right} VW W c (Pipeline.arrRef spec9 1))
      ∗ (((c : Thread nD τ).loc (Pipeline.arrRef spec9 2)) ↦{fullShare} VW W c (Pipeline.arrRef spec9 2))
      ∗ (((c : Thread nD τ).loc (Pipeline.arrRef spec9 3)) ↦{fullShare} VW W c (Pipeline.arrRef spec9 3))
      ∗ (((c : Thread nD τ).loc (Pipeline.arrRef spec9 4)) ↦{fullShare} (dat (VW W) c).arrAt 4 cfg9.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg9.N) ∗ Pipeline.unscopedRest spec9 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 9 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 9 = fun c => dat (VW W) c) :
    RegionSeg (pcfgs (F := F)) adm pdats () defs₀ Variants.none L lv 9 where
  win := winFacts₀9
  block_pos := block_pos9
  stage_whole := stage_whole9
  K := PEmpty
  osem k := k.elim
  ho := Pipeline.OwnSemFacts.none _
  hbody c := by rw [hp]; exact (body_obligation (VW W) c).loose
  hwaits := Pipeline.hwaits_of_owed_zero _ _ _ _ L lv 9 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec9 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 9 c).Φ 0 = Pipeline.ΦA spec9 c := by rw [hp]; exact Φ_eq _ c 0
    rw [hΦ]; unfold Pipeline.ΦA
    iintro ⟨Hp, -, Hr⟩
    isplitl [Hr]; · iexact Hr
    iexact Hp
  hout c := by
    have hΦ : (pdats 9 c).Φ (Fin.last _) = Pipeline.ΦA spec9 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg9

end
-- ==== Proof.RI.Reg10.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 10: a 3×3 convolution with bias and ReLU over one row tile per grid point

The grid is (image n, row tile r), 16 × 7 points. Windows 0 and 1 are the row tiles r and r+1 of ONE zero-padded
input array [16, 128, 120, 128]; window 2 is the whole kernel array [3, 3, 128, 128]; window 3 the bias [1, 128]; window 4
the output's row tile r of [16, 112, 112, 128]. The body flattens the two input tiles to rows of 120·16 pixels, appends
120 zero rows, and adds nine matrix products — one per tap (dy, dx), each a row-shifted slab against the tap's
[128, 128] matrix —, then the bias, then the maximum with zero, and keeps the first 112 columns of each row. -/

set_option maxRecDepth 16384

noncomputable section

namespace Cert.ReferenceIdeal.Reg10

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-! ## The taps -/

/-- The [1, 1, 128, 128] rectangle of the kernel array at tap (dy, dx). -/
abbrev tapRect (dy dx : Nat) (h : ∀ a, ![dy, dx, 0, 0] a + S1x1x128x128.size a ≤ S3x3x128x128.size a) : Rect S3x3x128x128 :=
  Rect.unit (s := S3x3x128x128) ![dy, dx, 0, 0] S1x1x128x128.size h

/-- The whole input tile and the whole bias row, as the body loads them. -/
abbrev rIn : Rect S1x16x120x128 :=
  Rect.unit (s := S1x16x120x128) ![0, 0, 0, 0] S1x16x120x128.size inb_S1x16x120x128_S1x16x120x128_0_0_0_0
abbrev rBias : Rect S1x128 := Rect.unit (s := S1x128) ![0, 0] S1x128.size inb_S1x128_S1x128_0_0

/-! ## What the body leaves in the output window's buffer -/

/-- The output tile from the two input tiles `xa`, `xb`, the kernel array `wk` and the bias `b`: the sum of the nine
    taps' matrix products in the order (0,0), (0,1), …, (2,2), plus the bias, clamped below at zero, cut to 112 columns. -/
def out (xa xb : Vec F S1x16x120x128 .f32) (wk : Vec F S3x3x128x128 .f32) (b : Vec F S1x128 .f32) : Vec F S1x16x112x128 .f32 :=
  k10_pay1
    (k10_pay8 (k10_pay2 (View.ld xa rIn) (View.ld xb rIn)) (k10_pay3 (View.ld xa rIn) (View.ld xb rIn))
      (k10_pay4 (View.ld xa rIn) (View.ld xb rIn))
      (k10_pay5 (View.ld xa rIn) (View.ld xb rIn)
        (View.ld wk (tapRect 0 0 inb_S3x3x128x128_S1x1x128x128_0_0_0_0))
        (View.ld wk (tapRect 0 1 inb_S3x3x128x128_S1x1x128x128_0_1_0_0))
        (View.ld wk (tapRect 0 2 inb_S3x3x128x128_S1x1x128x128_0_2_0_0)))
      (k10_pay6 (View.ld xa rIn) (View.ld xb rIn))
      (k10_pay7 (View.ld wk (tapRect 1 0 inb_S3x3x128x128_S1x1x128x128_1_0_0_0)))
      (View.ld wk (tapRect 1 1 inb_S3x3x128x128_S1x1x128x128_1_1_0_0))
      (View.ld wk (tapRect 1 2 inb_S3x3x128x128_S1x1x128x128_1_2_0_0))
      (View.ld wk (tapRect 2 0 inb_S3x3x128x128_S1x1x128x128_2_0_0_0))
      (View.ld wk (tapRect 2 1 inb_S3x3x128x128_S1x1x128x128_2_1_0_0))
      (View.ld wk (tapRect 2 2 inb_S3x3x128x128_S1x1x128x128_2_2_0_0))
      (View.ld b rBias))
    (k10_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg10 c where
  A w := V c (Pipeline.arrRef spec10 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec10 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg10.W) : (dat V c).A w = V c (Pipeline.arrRef spec10 w) := by
  dsimp only [dat]

theorem after_0 (c : Dev nD) (t : Fin cfg10.N) : (dat V c).after 0 t = iblk V c 0 t := by dsimp only [dat]
theorem after_1 (c : Dev nD) (t : Fin cfg10.N) : (dat V c).after 1 t = iblk V c 1 t := by dsimp only [dat]
theorem after_2 (c : Dev nD) (t : Fin cfg10.N) : (dat V c).after 2 t = iblk V c 2 t := by dsimp only [dat]
theorem after_3 (c : Dev nD) (t : Fin cfg10.N) : (dat V c).after 3 t = iblk V c 3 t := by dsimp only [dat]
theorem after_4 (c : Dev nD) (t : Fin cfg10.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x16x112x128 :=
  Rect.unit (s := S1x16x112x128) ![0, 0, 0, 0] S1x16x112x128.size inb_S1x16x112x128_S1x16x112x128_0_0_0_0

theorem hz4 : (![0, 0, 0, 0] : Fin 4 → Nat) = fun _ => 0 := funext fun a => by fin_cases a <;> rfl

/-- The one store covers the output tile. -/
theorem cover_out (p : Vec F S1x16x112x128 .f32) (y : S1x16x112x128.Idx) :
    ∃ pc ∈ ([⟨rOut, p⟩] : List (View.Piece (Elt F) S1x16x112x128 .f32)), y ∈ pc.1.set :=
  View.cover_of_tiled [⟨rOut, p⟩] S1x16x112x128.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid10.Coords)
    (arg2 : Memref sig .tc .vmem S1x16x120x128 .f32) (harg2 : arg2.IsWhole)
    (arg3 : Memref sig .tc .vmem S1x16x120x128 .f32) (harg3 : arg3.IsWhole)
    (arg4 : Memref sig .tc .vmem S3x3x128x128 .f32) (harg4 : arg4.IsWhole)
    (arg5 : Memref sig .tc .vmem S1x128 .f32) (harg5 : arg5.IsWhole)
    (arg6 : Memref sig .tc .vmem S1x16x112x128 .f32) (harg6 : arg6.IsWhole)
    (xa xb : Vec F S1x16x120x128 .f32) (wk : Vec F S3x3x128x128 .f32) (b : Vec F S1x128 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc10__conv3x3_relu_kernel i arg2 harg2 arg3 harg3 arg4 harg4 arg5 harg5 arg6 harg6) K := by
  sl_unfold [cc10__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg10.N + 1)) : (dat V c).Φ t = Pipeline.ΦA spec10 c := by dsimp only [dat]
theorem owed_eq (c : Dev nD) (t : Fin (cfg10.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg10 c)
    (hA : dat'.A 0 = V c (Pipeline.arrRef spec10 0)) (hafter : ∀ t, dat'.after 0 t = iblk V c 0 t)
    (t : Fin cfg10.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg10.N) (d) : (dat V c).before 0 t d = iblk V c 0 t :=
  before_0_of V (dat V c) (A_eq V c 0) (after_0 V c) t d

theorem before_1_of {c : Dev nD} (dat' : Dat τ (Elt F) Unit ℕ (UR sig nD τ) ℕ cfg10 c)
    (hA : dat'.A 1 = V c (Pipeline.arrRef spec10 1)) (hafter : ∀ t, dat'.after 1 t = iblk V c 1 t)
    (t : Fin cfg10.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg10.N) (d) : (dat V c).before 1 t d = iblk V c 1 t :=
  before_1_of V (dat V c) (A_eq V c 1) (after_1 V c) t d

theorem before_2_of {c : Dev nD} (dat' : Dat τ (Elt F) Unit ℕ (UR sig nD τ) ℕ cfg10 c)
    (hA : dat'.A 2 = V c (Pipeline.arrRef spec10 2)) (hafter : ∀ t, dat'.after 2 t = iblk V c 2 t)
    (t : Fin cfg10.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg10.N) (d) : (dat V c).before 2 t d = iblk V c 2 t :=
  before_2_of V (dat V c) (A_eq V c 2) (after_2 V c) t d

theorem before_3_of {c : Dev nD} (dat' : Dat τ (Elt F) Unit ℕ (UR sig nD τ) ℕ cfg10 c)
    (hA : dat'.A 3 = V c (Pipeline.arrRef spec10 3)) (hafter : ∀ t, dat'.after 3 t = iblk V c 3 t)
    (t : Fin cfg10.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg10.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d))
    ∗ (∃ d, owns (c : Thread nD τ) (st10_4 t) fullShare ((dat V c).before 4 t d)))

/-- and what it returns. -/
def bodyPost (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t)
    ∗ owns (c : Thread nD τ) (st10_4 t) fullShare ((dat V c).after 4 t))

/-- The body at any point: the four inputs' buffers hold their blocks, so the body's triple applies; the invariant and
    the debt pass through unread. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W10, bigSep_W10]
  exact sound_body V c t

end Cert.ReferenceIdeal.Reg10
-- ==== Proof.RI.Seg10.lean ====
import proofs.«143011_g2000502688546152_pallasbulk_1201_3_alg».proof.Proof.RI.Reg10
import proofs.«143011_g2000502688546152_pallasbulk_1201_3_alg».proof.Proof.RI.Rest
import Idealize.ShloMosaic.Lib.Pipeline.Regions

/-! # Region 10 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg10

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec10 4)) ((dat (VW W) c).arrAt 4 cfg10.N)

theorem Wout_out (c : Dev nD) :
    Wout W c (Proc.devRef .tc (Pipeline.arrRef spec10 4)) = (dat (VW W) c).arrAt 4 cfg10.N := by
  unfold Wout; exact Function.update_self ..

theorem Wout_of_ne (c : Dev nD) (b : DevRef τ sig) (hb : b ≠ Proc.devRef .tc (Pipeline.arrRef spec10 4)) :
    Wout W c b = W c b := by
  unfold Wout; exact Function.update_of_ne hb ..

theorem Wout_of_ne_ref (c : Dev nD) (b : Ref sig .tc) (hb : b ≠ Pipeline.arrRef spec10 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec10)
    = {Pipeline.arrRef spec10 0, Pipeline.arrRef spec10 2, Pipeline.arrRef spec10 3, Pipeline.arrRef spec10 4} := by decide

/-- The pipeline's arrays at contents `G`, window by window: the input array at its two half shares, the rest whole. -/
theorem arrays_eq (c : Dev nD) (G : (w : Fin cfg10.W) → Buf (Elt F) ((cfg10.win w).arr.view.loc (c : Thread nD τ))) :
    ((dat (VW W) c).arrays G : sProp 𝕄) = iprop(
      (((c : Thread nD τ).loc (Pipeline.arrRef spec10 0)) ↦{fullShare.left} G 0)
      ∗ (((c : Thread nD τ).loc (Pipeline.arrRef spec10 1)) ↦{fullShare.right} G 1)
      ∗ (((c : Thread nD τ).loc (Pipeline.arrRef spec10 2)) ↦{fullShare} G 2)
      ∗ (((c : Thread nD τ).loc (Pipeline.arrRef spec10 3)) ↦{fullShare} G 3)
      ∗ (((c : Thread nD τ).loc (Pipeline.arrRef spec10 4)) ↦{fullShare} G 4)) := by
  have h : ((dat (VW W) c).arrays G : sProp 𝕄) = bigSep Finset.univ fun w =>
      (((c : Thread nD τ).loc (Pipeline.arrRef spec10 w)) ↦{(dat (VW W) c).share w} G w : sProp 𝕄) := by
    unfold Pipeline.Dat.arrays
    exact bigSep_congr fun w _ => by rw [(arr_whole10 w).set_eq_univ]
  rw [h, bigSep_W10, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec10 c X : sProp 𝕄) = iprop(
      (((c : Thread nD τ).loc (Pipeline.arrRef spec10 0)) ↦{fullShare} X (Pipeline.arrRef spec10 0))
      ∗ (((c : Thread nD τ).loc (Pipeline.arrRef spec10 2)) ↦{fullShare} X (Pipeline.arrRef spec10 2))
      ∗ (((c : Thread nD τ).loc (Pipeline.arrRef spec10 3)) ↦{fullShare} X (Pipeline.arrRef spec10 3))
      ∗ (((c : Thread nD τ).loc (Pipeline.arrRef spec10 4)) ↦{fullShare} X (Pipeline.arrRef spec10 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec10 c X ∗ Pipeline.unscopedRest spec10 c X) :=
  Pipeline.unscopedBufs_split₀ cfgs 10 winFacts₀10.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec10 1) = (c : Thread nD τ).loc (Pipeline.arrRef spec10 0) := rfl
theorem halves01 (c : Dev nD) :
    (((c : Thread nD τ).loc (Pipeline.arrRef spec10 0)) ↦{fullShare} VW W c (Pipeline.arrRef spec10 0) : sProp 𝕄)
      ⊣⊢ iprop((((c : Thread nD τ).loc (Pipeline.arrRef spec10 0)) ↦{fullShare.left} VW W c (Pipeline.arrRef spec10 0))
        ∗ (((c : Thread nD τ).loc (Pipeline.arrRef spec10 1)) ↦{fullShare.right} VW W c (Pipeline.arrRef spec10 1))) :=
  halves (loc_1 c) _ _ HEq.rfl

/-- An array's entry contents are what the region finds. -/
theorem arrAt_zero (c : Dev nD) (w : Fin cfg10.W) : (dat (VW W) c).arrAt w 0 = VW W c (Pipeline.arrRef spec10 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec10 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec10 c (fun b => Wout W c b) : sProp 𝕄) = iprop(
      (((c : Thread nD τ).loc (Pipeline.arrRef spec10 0)) ↦{fullShare} VW W c (Pipeline.arrRef spec10 0))
      ∗ (((c : Thread nD τ).loc (Pipeline.arrRef spec10 2)) ↦{fullShare} VW W c (Pipeline.arrRef spec10 2))
      ∗ (((c : Thread nD τ).loc (Pipeline.arrRef spec10 3)) ↦{fullShare} VW W c (Pipeline.arrRef spec10 3))
      ∗ (((c : Thread nD τ).loc (Pipeline.arrRef spec10 4)) ↦{fullShare} (dat (VW W) c).arrAt 4 cfg10.N)) := by
  rw [arrBufs_eq]
  rw [Wout_of_ne_ref W c (Pipeline.arrRef spec10 0) (by decide)]
  rw [Wout_of_ne_ref W c (Pipeline.arrRef spec10 2) (by decide)]
  rw [Wout_of_ne_ref W c (Pipeline.arrRef spec10 3) (by decide)]
  rw [Wout_out]

/-- The buffers that are no array of the region hold at the exit what they held at entry. -/
theorem rest_out (c : Dev nD) :
    (Pipeline.unscopedRest spec10 c (fun b => Wout W c b) : sProp 𝕄) = Pipeline.unscopedRest spec10 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg10.N) : sProp 𝕄) = iprop(
      (((c : Thread nD τ).loc (Pipeline.arrRef spec10 0)) ↦{fullShare.left} VW W c (Pipeline.arrRef spec10 0))
      ∗ (((c : Thread nD τ).loc (Pipeline.arrRef spec10 1)) ↦{fullShare.right} VW W c (Pipeline.arrRef spec10 1))
      ∗ (((c : Thread nD τ).loc (Pipeline.arrRef spec10 2)) ↦{fullShare} VW W c (Pipeline.arrRef spec10 2))
      ∗ (((c : Thread nD τ).loc (Pipeline.arrRef spec10 3)) ↦{fullShare} VW W c (Pipeline.arrRef spec10 3))
      ∗ (((c : Thread nD τ).loc (Pipeline.arrRef spec10 4)) ↦{fullShare} (dat (VW W) c).arrAt 4 cfg10.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg10.N) ∗ Pipeline.unscopedRest spec10 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 10 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 10 = fun c => dat (VW W) c) :
    RegionSeg (pcfgs (F := F)) adm pdats () defs₀ Variants.none L lv 10 where
  win := winFacts₀10
  block_pos := block_pos10
  stage_whole := stage_whole10
  K := PEmpty
  osem k := k.elim
  ho := Pipeline.OwnSemFacts.none _
  hbody c := by rw [hp]; exact (body_obligation (VW W) c).loose
  hwaits := Pipeline.hwaits_of_owed_zero _ _ _ _ L lv 10 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec10 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 10 c).Φ 0 = Pipeline.ΦA spec10 c := by rw [hp]; exact Φ_eq _ c 0
    rw [hΦ]; unfold Pipeline.ΦA
    iintro ⟨Hp, -, Hr⟩
    isplitl [Hr]; · iexact Hr
    iexact Hp
  hout c := by
    have hΦ : (pdats 10 c).Φ (Fin.last _) = Pipeline.ΦA spec10 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg10

end
-- ==== Proof.RI.Reg11Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 11: the sum of |x − y| over two [50176, 512] arrays, accumulated over a grid of 49 points into a [1, 1] array

At point t the two input windows show rows 1024t … 1024t+1023 of x and of y. The output window is the one [1, 1]
block at every point: the body zeroes it at point 0, then at every point adds the block's sum of |x − y| to what
the window holds. It is written back to the array once, after the last point. -/
-- This module: the proof data (what each window holds after the body at each point).

set_option maxRecDepth 16384

noncomputable section

namespace Cert.ReferenceIdeal.Reg11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of x the first window shows at point `t`. -/
def xrows (c : Dev nD) (t : Fin cfg11.N) : Vec F S1024x512 .f32 :=
  ((cfg11.win 0).blk t).view.read (Elt F) (V c (Pipeline.arrRef spec11 0))

/-- The rows of y the second window shows at point `t`. -/
def yrows (c : Dev nD) (t : Fin cfg11.N) : Vec F S1024x512 .f32 :=
  ((cfg11.win 1).blk t).view.read (Elt F) (V c (Pipeline.arrRef spec11 1))

/-- The zeroed accumulator of the first point. -/
def zero : Vec F S1x1 .f32 := Gen.k11_pay1

/-- One point's step: the accumulator plus the sum of |x − y| over a block of 1024 rows. -/
def step (acc : Vec F S1x1 .f32) (x y : Vec F S1024x512 .f32) : Vec F S1x1 .f32 := Gen.k11_pay2 acc x y

/-- The accumulator after point `n`: zero stepped through the blocks of points 0 … n. -/
def total (c : Dev nD) : (n : ℕ) → n < cfg11.N → Vec F S1x1 .f32
  | 0, h => step zero (xrows V c ⟨0, h⟩) (yrows V c ⟨0, h⟩)
  | n + 1, h => step (total c n (Nat.lt_of_succ_lt h)) (xrows V c ⟨n + 1, h⟩) (yrows V c ⟨n + 1, h⟩)

/-- The region's proof data: the arrays as found; after the body each input window still shows its rows and the
    output window holds the running total; the body keeps no other state. -/
def dat (c : Dev nD) : Dat τ (Elt F) Unit ℕ (UR sig nD τ) ℕ cfg11 c where
  A w := V c (Pipeline.arrRef spec11 w)
  after w t := match w with
    | ⟨0, _⟩ => xrows V c t
    | ⟨1, _⟩ => yrows V c t
    | ⟨2, _⟩ => total V c t.val t.isLt
  Φ _ := Pipeline.ΦA spec11 c
  q _ := fullShare
  owed _ := 0

theorem A_eq (c : Dev nD) (w : Fin cfg11.W) : (dat V c).A w = V c (Pipeline.arrRef spec11 w) := by
  dsimp only [dat]

theorem after_x (c : Dev nD) (t : Fin cfg11.N) : (dat V c).after 0 t = xrows V c t := by dsimp only [dat]
theorem after_y (c : Dev nD) (t : Fin cfg11.N) : (dat V c).after 1 t = yrows V c t := by dsimp only [dat]
theorem after_total (c : Dev nD) (t : Fin cfg11.N) : (dat V c).after 2 t = total V c t.val t.isLt := by dsimp only [dat]

end Cert.ReferenceIdeal.Reg11
-- ==== Proof.RI.Reg11.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg11Data
import Idealize.ShloMosaic.Lib.Pipeline.FrameBody
import Idealize.ShloMosaic.Lib.Pipeline.Value
import Idealize.ShloMosaic.Lib.Tactic

/-! # Region 11: the sum of |x − y| over two [50176, 512] arrays, accumulated over a grid of 49 points into a [1, 1] array

At point t the two input windows show rows 1024t … 1024t+1023 of x and of y. The output window is the one [1, 1]
block at every point: the body zeroes it at point 0, then at every point adds the block's sum of |x − y| to what
the window holds. It is written back to the array once, after the last point. -/
-- This module: the body's triples and the body obligation.

set_option maxRecDepth 16384

noncomputable section

namespace Cert.ReferenceIdeal.Reg11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg11.N + 1)) : (dat V c).Φ t = Pipeline.ΦA spec11 c := rfl
theorem owed_eq (c : Dev nD) (t : Fin (cfg11.N + 1)) : (dat V c).owed t = 0 := rfl
theorem q_eq (c : Dev nD) (w : Fin cfg11.W) : (dat V c).q w = fullShare := rfl

/-- The body's one condition, from the grid coordinate: "this is point 0". -/
abbrev isFirst (i : grid11.Coords) : Prop :=
  (Scalar.cmpi .ne (Scalar.extui (Scalar.cmpi .eq (BitVec.ofNat 32 (i 0).val) 0#32)) 0#32) = 1#1

/-- It holds at point 0 and at no other point of the grid. -/
theorem isFirst_iff : ∀ t : Fin cfg11.N, isFirst (grid11.coords t) ↔ t.val = 0 :=
  (by decide +kernel : ∀ t : Fin grid11.N, isFirst (grid11.coords t) ↔ t.val = 0)

theorem zeros2 : (![0, 0] : Fin 2 → ℕ) = fun _ => 0 := by
  funext a; match a with | ⟨0, _⟩ => rfl | ⟨1, _⟩ => rfl

set_option maxHeartbeats 1000000 in
/-- The body at the first point, on whole staging memrefs: the inputs' hold blocks `x`, `y`, the output's anything;
    it runs to a state where the output's holds zero stepped by the two blocks. -/
theorem body_first (c : Dev nD) (E : Set ℕ) (i : grid11.Coords) (hc : isFirst i)
    (mx : Memref sig .tc .vmem S1024x512 .f32) (hx : mx.IsWhole)
    (my : Memref sig .tc .vmem S1024x512 .f32) (hy : my.IsWhole)
    (mo : Memref sig .tc .vmem S1x1 .f32) (ho : mo.IsWhole)
    (x y : Vec F S1024x512 .f32) (K : PUnit → sProp 𝕄) :
    iprop(owns (c : Thread nD τ) mx fullShare x ∗ owns (c : Thread nD τ) my fullShare y
        ∗ (∃ d, owns (c : Thread nD τ) mo fullShare d)
        ∗ (iprop(owns (c : Thread nD τ) mx fullShare x ∗ owns (c : Thread nD τ) my fullShare y
            ∗ owns (c : Thread nD τ) mo fullShare (step zero x y)) -∗ K ⟨⟩))
      ⊢ wp frame (wpE (defs₀ (F := F)) Variants.none c none) E (cc11__l1_sum_kernel i mx hx my hy mo ho) K := by
  simp only [Gen.cc11__l1_sum_kernel_eq_skeleton]; unfold Gen.cc11__l1_sum_kernel_skel
  unfold owns
  iintro ⟨⟨%fx, %hfx, Hx⟩, ⟨%fy, %hfy, Hy⟩, ⟨%d, %fo, -, Ho⟩, Hk⟩
  subst hfx hfy
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_words
  -- the last store covers the output block: it reads that store's payload; the accumulator it loaded is what the
  -- zeroing store left; each input load reads its whole block
  rw [View.read_writes_eq_canon _ _ _ (fun y => ⟨_, List.mem_cons_self,
      View.mem_set_unit_zero (S := S1x1) zeros2 Gen.inb_S1x1_S1x1_0_0 y⟩),
    View.canon_cons_unit_zero (S := S1x1) zeros2 Gen.inb_S1x1_S1x1_0_0,
    View.readCov_unit_zero (S := S1x1) _ zeros2 Gen.inb_S1x1_S1x1_0_0]
  simp only [View.readAt_eq_ld]
  show Gen.k11_pay2 Gen.k11_pay1
      (View.ld (View.read (Elt F) mx.view fx) (Rect.unit ![0, 0] S1024x512.size Gen.inb_S1024x512_S1024x512_0_0))
      (View.ld (View.read (Elt F) my.view fy) (Rect.unit ![0, 0] S1024x512.size Gen.inb_S1024x512_S1024x512_0_0)) = _
  rw [View.ld_unit_zero (S := S1024x512) zeros2 Gen.inb_S1024x512_S1024x512_0_0,
    View.ld_unit_zero (S := S1024x512) zeros2 Gen.inb_S1024x512_S1024x512_0_0]
  rfl

set_option maxHeartbeats 1000000 in
/-- The body at a later point: the output's staging memref holds the accumulator `acc`; it runs to a state where it
    holds `acc` stepped by the two blocks. -/
theorem body_later (c : Dev nD) (E : Set ℕ) (i : grid11.Coords) (hc : ¬ isFirst i)
    (mx : Memref sig .tc .vmem S1024x512 .f32) (hx : mx.IsWhole)
    (my : Memref sig .tc .vmem S1024x512 .f32) (hy : my.IsWhole)
    (mo : Memref sig .tc .vmem S1x1 .f32) (ho : mo.IsWhole)
    (x y : Vec F S1024x512 .f32) (acc : Vec F S1x1 .f32) (K : PUnit → sProp 𝕄) :
    iprop(owns (c : Thread nD τ) mx fullShare x ∗ owns (c : Thread nD τ) my fullShare y
        ∗ owns (c : Thread nD τ) mo fullShare acc
        ∗ (iprop(owns (c : Thread nD τ) mx fullShare x ∗ owns (c : Thread nD τ) my fullShare y
            ∗ owns (c : Thread nD τ) mo fullShare (step acc x y)) -∗ K ⟨⟩))
      ⊢ wp frame (wpE (defs₀ (F := F)) Variants.none c none) E (cc11__l1_sum_kernel i mx hx my hy mo ho) K := by
  simp only [Gen.cc11__l1_sum_kernel_eq_skeleton]; unfold Gen.cc11__l1_sum_kernel_skel
  unfold owns
  iintro ⟨⟨%fx, %hfx, Hx⟩, ⟨%fy, %hfy, Hy⟩, ⟨%fo, %hfo, Ho⟩, Hk⟩
  subst hfx hfy hfo
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  -- the one store covers the output block: it reads its payload; each load reads its whole block
  rw [View.read_writes_eq_canon _ _ _ (fun y => ⟨_, List.mem_singleton_self _,
      View.mem_set_unit_zero (S := S1x1) zeros2 Gen.inb_S1x1_S1x1_0_0 y⟩),
    View.canon_unit_zero (S := S1x1) zeros2 Gen.inb_S1x1_S1x1_0_0]
  simp only [View.readAt_eq_ld]
  show Gen.k11_pay2 (View.ld (View.read (Elt F) mo.view fo) (Rect.unit ![0, 0] S1x1.size Gen.inb_S1x1_S1x1_0_0))
      (View.ld (View.read (Elt F) mx.view fx) (Rect.unit ![0, 0] S1024x512.size Gen.inb_S1024x512_S1024x512_0_0))
      (View.ld (View.read (Elt F) my.view fy) (Rect.unit ![0, 0] S1024x512.size Gen.inb_S1024x512_S1024x512_0_0)) = _
  rw [View.ld_unit_zero (S := S1x1) zeros2 Gen.inb_S1x1_S1x1_0_0,
    View.ld_unit_zero (S := S1024x512) zeros2 Gen.inb_S1024x512_S1024x512_0_0,
    View.ld_unit_zero (S := S1024x512) zeros2 Gen.inb_S1024x512_S1024x512_0_0]
  rfl

/-- Each input window's staging buffer shows the window's rows at every point, fetched there or not. -/
theorem before_x (c : Dev nD) (t : Fin cfg11.N) (d) : (dat V c).before 0 t d = xrows V c t :=
  ((dat V c).before_in_eq_fetched 0 rfl (fun _ => rfl) (fun _ _ _ => rfl)
      (fun t => by rw [after_x]; unfold Dat.blockOf xrows; rw [A_eq]; try rfl) t d).trans
    (by unfold Dat.fetched Dat.blockOf xrows; rw [A_eq]; try rfl)

theorem before_y (c : Dev nD) (t : Fin cfg11.N) (d) : (dat V c).before 1 t d = yrows V c t :=
  ((dat V c).before_in_eq_fetched 1 rfl (fun _ => rfl) (fun _ _ _ => rfl)
      (fun t => by rw [after_y]; unfold Dat.blockOf yrows; rw [A_eq]; try rfl) t d).trans
    (by unfold Dat.fetched Dat.blockOf yrows; rw [A_eq]; try rfl)

/-- The output window is written back after the last point only, so at every later point its staging buffer still
    holds the running total the point before left. -/
theorem before_total (c : Dev nD) (t : Fin cfg11.N) (ht : t.val ≠ 0) (d) :
    (dat V c).before 2 t d = total V c (t.val - 1) (Nat.lt_of_le_of_lt (Nat.sub_le _ _) t.isLt) := by
  have hlt : t.val < 49 := Nat.lt_of_lt_of_eq t.isLt (Gen.N_11 : cfg11.N = 49)
  have hfl : (cfg11.win 2).flush ⟨t.val - 1, Nat.lt_of_le_of_lt (Nat.sub_le _ _) t.isLt⟩ = false :=
    Bool.eq_false_iff.mpr fun h => by
      have h97 := (Gen.flush11_2 _).mp h
      have h97' : (t.val - 1) % 49 = 48 := h97
      omega
  rw [(dat V c).before_out_kept 2 rfl t ht hfl (fun _ => rfl) (fun _ _ => rfl) d, after_total]

/-- The running total at point 0, and at a later point from the point before. -/
theorem total_first (c : Dev nD) (t : Fin cfg11.N) (h0 : t.val = 0) :
    total V c t.val t.isLt = step zero (xrows V c t) (yrows V c t) := by
  obtain ⟨n, hn⟩ := t
  cases n with
  | zero => rfl
  | succ n => exact absurd h0 (Nat.succ_ne_zero n)

theorem total_later (c : Dev nD) (t : Fin cfg11.N) (ht : t.val ≠ 0) :
    total V c t.val t.isLt
      = step (total V c (t.val - 1) (Nat.lt_of_le_of_lt (Nat.sub_le _ _) t.isLt)) (xrows V c t) (yrows V c t) := by
  obtain ⟨n, hn⟩ := t
  cases n with
  | zero => exact absurd rfl ht
  | succ n => rfl

/-- The body at a point: the input buffers show the point's rows; at point 0 the reset branch runs, at a later
    point the output buffer holds the previous total and the adding branch runs. -/
theorem at_point (c : Dev nD) (t : Fin cfg11.N) :
    iprop((dat V c).Φ t.castSucc ∗ (dat V c).owesAt () t.castSucc
        ∗ (∃ d, owns (c : Thread nD τ) (Gen.st11_0 t) fullShare ((dat V c).before 0 t d))
        ∗ (∃ d, owns (c : Thread nD τ) (Gen.st11_1 t) fullShare ((dat V c).before 1 t d))
        ∗ (∃ d, owns (c : Thread nD τ) (Gen.st11_2 t) fullShare ((dat V c).before 2 t d)))
      ⊢ wp frame (wpE (defs₀ (F := F)) Variants.none c none) Set.univ (Gen.bodyAt11 t) (fun _ =>
        iprop((dat V c).Φ t.succ ∗ (dat V c).owesAt () t.succ
          ∗ owns (c : Thread nD τ) (Gen.st11_0 t) fullShare ((dat V c).after 0 t)
          ∗ owns (c : Thread nD τ) (Gen.st11_1 t) fullShare ((dat V c).after 1 t)
          ∗ owns (c : Thread nD τ) (Gen.st11_2 t) fullShare ((dat V c).after 2 t))) := by
  unfold Gen.bodyAt11
  simp only [before_x, before_y]
  rw [show (dat V c).Φ t.succ = (dat V c).Φ t.castSucc from rfl,
    show (dat V c).owesAt () t.succ = (dat V c).owesAt () t.castSucc from rfl, after_x, after_y, after_total]
  by_cases h0 : t.val = 0
  · rw [total_first V c t h0]
    iintro ⟨HΦ, Ho, ⟨%dx, Hx⟩, ⟨%dy, Hy⟩, ⟨%dz, Hz⟩⟩
    iapply (body_first c Set.univ _ ((isFirst_iff t).mpr h0) _ _ _ _ _ _ (xrows V c t) (yrows V c t) _)
    isplitl [Hx]; · iexact Hx
    isplitl [Hy]; · iexact Hy
    isplitl [Hz]; · iexists _; iexact Hz
    iintro ⟨Hx, Hy, Hz⟩
    isplitl [HΦ]; · iexact HΦ
    isplitl [Ho]; · iexact Ho
    isplitl [Hx]; · iexact Hx
    isplitl [Hy]; · iexact Hy
    iexact Hz
  · simp only [before_total V c t h0]
    rw [total_later V c t h0]
    iintro ⟨HΦ, Ho, ⟨%dx, Hx⟩, ⟨%dy, Hy⟩, ⟨%dz, Hz⟩⟩
    iapply (body_later c Set.univ _ (fun h => h0 ((isFirst_iff t).mp h)) _ _ _ _ _ _ (xrows V c t) (yrows V c t) _ _)
    isplitl [Hx]; · iexact Hx
    isplitl [Hy]; · iexact Hy
    isplitl [Hz]; · iexact Hz
    iintro ⟨Hx, Hy, Hz⟩
    isplitl [HΦ]; · iexact HΦ
    isplitl [Ho]; · iexact Ho
    isplitl [Hx]; · iexact Hx
    isplitl [Hy]; · iexact Hy
    iexact Hz

theorem body_obligation (c : Dev nD) : BodyObligation (dat (F := F) V c) (defs₀ (F := F)) Variants.none () Set.univ := fun t => by
  rw [Gen.bigSep_W11, Gen.bigSep_W11]
  exact at_point V c t

end Cert.ReferenceIdeal.Reg11
-- ==== Proof.RI.Seg11.lean ====
import proofs.«143011_g2000502688546152_pallasbulk_1201_3_alg».proof.Proof.RI.Reg11
import proofs.«143011_g2000502688546152_pallasbulk_1201_3_alg».proof.Proof.RI.Rest
import Idealize.ShloMosaic.Lib.Pipeline.Regions
import Idealize.ShloMosaic.Lib.Pipeline.RegionsLoop

/-! # Region 11 as a segment of @main

A mean-absolute-difference region reads two arrays of rows of 512 and adds every row's absolute differences into one [1, 1] array across the grid. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg11

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec11 2)) ((dat (VW W) c).arrAt 2 cfg11.N)

theorem Wout_out (c : Dev nD) :
    Wout W c (Proc.devRef .tc (Pipeline.arrRef spec11 2)) = (dat (VW W) c).arrAt 2 cfg11.N := by
  unfold Wout; exact Function.update_self ..

theorem Wout_of_ne (c : Dev nD) (b : DevRef τ sig) (hb : b ≠ Proc.devRef .tc (Pipeline.arrRef spec11 2)) :
    Wout W c b = W c b := by
  unfold Wout; exact Function.update_of_ne hb ..

theorem Wout_of_ne_ref (c : Dev nD) (b : Ref sig .tc) (hb : b ≠ Pipeline.arrRef spec11 2) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg11.W,
    (dat (VW W) c).arrAt w cfg11.N = Wout W c (Proc.devRef .tc (Pipeline.arrRef spec11 w))
  | 0 => by rw [Pipeline.Dat.arrAt_in _ 0 (by decide), Wout_of_ne_ref W c _ (by decide)]; exact A_eq _ c 0
  | 1 => by rw [Pipeline.Dat.arrAt_in _ 1 (by decide), Wout_of_ne_ref W c _ (by decide)]; exact A_eq _ c 1
  | 2 => (Wout_out W c).symm
  | ⟨_ + 3, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec11)) :
    Wout W c (Proc.devRef .tc b) = W c (Proc.devRef .tc b) :=
  Wout_of_ne_ref W c b fun e => hb (Finset.mem_image.mpr ⟨2, Finset.mem_univ _, e.symm⟩)

/-! ## The segment record -/

set_option backward.isDefEq.respectTransparency.types false in
/-- Region 11 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 11 = fun c => dat (VW W) c) :
    RegionSeg (pcfgs (F := F)) adm pdats () defs₀ Variants.none L lv 11 where
  win := winFacts11.to₀
  block_pos := block_pos11
  stage_whole := stage_whole11
  K := PEmpty
  osem k := k.elim
  ho := Pipeline.OwnSemFacts.none _
  hbody c := by rw [hp]; exact (body_obligation (VW W) c).loose
  hwaits := Pipeline.hwaits_of_owed_zero _ _ _ _ L lv 11 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec11 c (VW W c)
  hentry c := by
    rw [Pipeline.ownSems0_none]
    have hsplit := Pipeline.arrays_of_unscopedBufs (p := 11) (pcfgs (F := F)) adm pdats winFacts11 arr_whole11 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 11 c).Φ 0 = Pipeline.ΦA spec11 c := by rw [hp]; exact Φ_eq _ c 0
    rw [hΦ]; unfold Pipeline.ΦA
    iintro ⟨Hp, -, Hr⟩
    isplitl [Hr]; · iexact Hr
    iexact Hp
  hout c := by
    have hΦ : (pdats 11 c).Φ (Fin.last _) = Pipeline.ΦA spec11 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      winFacts11 arr_whole11 c pdats (by rw [hp]; exact (dat (VW W) c).share_full fun w => q_eq _ c w)
      (VW W c) (fun b => Wout W c b) ((pdats 11 c).arrAt · cfg11.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg11

end
-- ==== Proof.RI.Reg12Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 12: the 2×2 max pool of a [16, 112, 56, 2, 128] array into [16, 56, 56, 128]

The grid is 16 × 7. At point (n, r) the input window is rows 16r … 16r+15 of image n, a [1, 16, 56, 2, 128] block; the
body takes the maximum over the column pair (axis 3), regroups the 16 rows as 8 pairs, takes the maximum over each
row pair, and stores the [1, 8, 56, 128] result over its whole output window, rows 8r … 8r+7 of image n. Nothing is
kept between points. -/
-- This module: the proof data (what each window holds after the body at each point).

set_option maxRecDepth 16384

noncomputable section

namespace Cert.ReferenceIdeal.Reg12

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of the input array the window shows at point `t`. -/
def rows (c : Dev nD) (t : Fin cfg12.N) : Vec F S1x16x56x2x128 .f32 :=
  ((cfg12.win 0).blk t).view.read (Elt F) (V c (Pipeline.arrRef spec12 0))

/-- The pooled block: column-pair maximum, then row-pair maximum, of a block of 16 rows. -/
def pooled (x : Vec F S1x16x56x2x128 .f32) : Vec F S1x8x56x128 .f32 := Gen.k12_pay1 x

/-- The region's proof data: the arrays as found; after the body the input window still shows its rows and the output
    window holds their pooled block; the body keeps no state of its own. -/
def dat (c : Dev nD) : Dat τ (Elt F) Unit ℕ (UR sig nD τ) ℕ cfg12 c where
  A w := V c (Pipeline.arrRef spec12 w)
  after w t := match w with
    | ⟨0, _⟩ => rows V c t
    | ⟨1, _⟩ => pooled (rows V c t)
  Φ _ := Pipeline.ΦA spec12 c
  q _ := fullShare
  owed _ := 0

theorem A_eq (c : Dev nD) (w : Fin cfg12.W) : (dat V c).A w = V c (Pipeline.arrRef spec12 w) := by
  dsimp only [dat]

theorem after_in (c : Dev nD) (t : Fin cfg12.N) : (dat V c).after 0 t = rows V c t := by dsimp only [dat]
theorem after_out (c : Dev nD) (t : Fin cfg12.N) : (dat V c).after 1 t = pooled (rows V c t) := by dsimp only [dat]

end Cert.ReferenceIdeal.Reg12
-- ==== Proof.RI.Reg12.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg12Data
import Idealize.ShloMosaic.Lib.Pipeline.FrameBody
import Idealize.ShloMosaic.Lib.Pipeline.Value
import Idealize.ShloMosaic.Lib.Tactic

/-! # Region 12: the 2×2 max pool of a [16, 112, 56, 2, 128] array into [16, 56, 56, 128]

The grid is 16 × 7. At point (n, r) the input window is rows 16r … 16r+15 of image n, a [1, 16, 56, 2, 128] block; the
body takes the maximum over the column pair (axis 3), regroups the 16 rows as 8 pairs, takes the maximum over each
row pair, and stores the [1, 8, 56, 128] result over its whole output window, rows 8r … 8r+7 of image n. Nothing is
kept between points. -/
-- This module: the body's triple and the body obligation.

set_option maxRecDepth 16384

noncomputable section

namespace Cert.ReferenceIdeal.Reg12

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg12.N + 1)) : (dat V c).Φ t = Pipeline.ΦA spec12 c := rfl
theorem owed_eq (c : Dev nD) (t : Fin (cfg12.N + 1)) : (dat V c).owed t = 0 := rfl
theorem q_eq (c : Dev nD) (w : Fin cfg12.W) : (dat V c).q w = fullShare := rfl

set_option maxHeartbeats 1000000 in
/-- The body on whole staging memrefs: with the input's holding a block `x` and the output's holding anything, it
    runs to a state where the input's still holds `x` and the output's holds the pooled block of `x`. -/
theorem pool_body (c : Dev nD) (E : Set ℕ) (i : grid12.Coords)
    (mi : Memref sig .tc .vmem S1x16x56x2x128 .f32) (hi : mi.IsWhole)
    (mo : Memref sig .tc .vmem S1x8x56x128 .f32) (ho : mo.IsWhole)
    (x : Vec F S1x16x56x2x128 .f32) (K : PUnit → sProp 𝕄) :
    iprop(owns (c : Thread nD τ) mi fullShare x ∗ (∃ d, owns (c : Thread nD τ) mo fullShare d)
        ∗ (iprop(owns (c : Thread nD τ) mi fullShare x ∗ owns (c : Thread nD τ) mo fullShare (pooled x)) -∗ K ⟨⟩))
      ⊢ wp frame (wpE (defs₀ (F := F)) Variants.none c none) E (cc12__maxpool_kernel i mi hi mo ho) K := by
  simp only [Gen.cc12__maxpool_kernel_eq_skeleton]; unfold Gen.cc12__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have z4 : (![0, 0, 0, 0] : Fin 4 → ℕ) = fun _ => 0 := by
    funext a; match a with | ⟨0, _⟩ => rfl | ⟨1, _⟩ => rfl | ⟨2, _⟩ => rfl | ⟨3, _⟩ => rfl
  have z5 : (![0, 0, 0, 0, 0] : Fin 5 → ℕ) = fun _ => 0 := by
    funext a; match a with | ⟨0, _⟩ => rfl | ⟨1, _⟩ => rfl | ⟨2, _⟩ => rfl | ⟨3, _⟩ => rfl | ⟨4, _⟩ => rfl
  -- the one store covers the output block, so the block reads its payload; the load reads the whole input block
  rw [View.read_writes_eq_canon _ _ _ (fun y => ⟨_, List.mem_singleton_self _,
      View.mem_set_unit_zero (S := S1x8x56x128) z4 Gen.inb_S1x8x56x128_S1x8x56x128_0_0_0_0 y⟩),
    View.canon_unit_zero (S := S1x8x56x128) z4 Gen.inb_S1x8x56x128_S1x8x56x128_0_0_0_0, View.readAt_eq_ld]
  show Gen.k12_pay1 (View.ld (View.read (Elt F) mi.view f0)
    (Rect.unit ![0, 0, 0, 0, 0] S1x16x56x2x128.size Gen.inb_S1x16x56x2x128_S1x16x56x2x128_0_0_0_0_0)) = _
  rw [View.ld_unit_zero (S := S1x16x56x2x128) z5 Gen.inb_S1x16x56x2x128_S1x16x56x2x128_0_0_0_0_0]
  rfl

/-- The input window's staging buffer shows the window's rows at every point, fetched there or not. -/
theorem before_in (c : Dev nD) (t : Fin cfg12.N) (d) : (dat V c).before 0 t d = rows V c t :=
  ((dat V c).before_in_eq_fetched 0 rfl (fun _ => rfl) (fun _ _ _ => rfl)
      (fun t => by rw [after_in]; unfold Dat.blockOf rows; rw [A_eq]; try rfl) t d).trans
    (by unfold Dat.fetched Dat.blockOf rows; rw [A_eq]; try rfl)

/-- The body at a point: its input buffer shows the point's rows, so the body's triple applies; the scoped rest and
    the core's tallies pass through untouched. -/
theorem at_point (c : Dev nD) (t : Fin cfg12.N) :
    iprop((dat V c).Φ t.castSucc ∗ (dat V c).owesAt () t.castSucc
        ∗ (∃ d, owns (c : Thread nD τ) (Gen.st12_0 t) fullShare ((dat V c).before 0 t d))
        ∗ (∃ d, owns (c : Thread nD τ) (Gen.st12_1 t) fullShare ((dat V c).before 1 t d)))
      ⊢ wp frame (wpE (defs₀ (F := F)) Variants.none c none) Set.univ (Gen.bodyAt12 t) (fun _ =>
        iprop((dat V c).Φ t.succ ∗ (dat V c).owesAt () t.succ
          ∗ owns (c : Thread nD τ) (Gen.st12_0 t) fullShare ((dat V c).after 0 t)
          ∗ owns (c : Thread nD τ) (Gen.st12_1 t) fullShare ((dat V c).after 1 t))) := by
  unfold Gen.bodyAt12
  simp only [before_in]
  rw [show (dat V c).Φ t.succ = (dat V c).Φ t.castSucc from rfl,
    show (dat V c).owesAt () t.succ = (dat V c).owesAt () t.castSucc from rfl, after_in, after_out]
  iintro ⟨HΦ, Ho, ⟨%d0, Hi⟩, ⟨%d1, Hout⟩⟩
  iapply (pool_body c Set.univ _ _ _ _ _ (rows V c t) _)
  isplitl [Hi]; · iexact Hi
  isplitl [Hout]; · iexists _; iexact Hout
  iintro ⟨Hi, Hout⟩
  isplitl [HΦ]; · iexact HΦ
  isplitl [Ho]; · iexact Ho
  isplitl [Hi]; · iexact Hi
  iexact Hout

theorem body_obligation (c : Dev nD) : BodyObligation (dat (F := F) V c) (defs₀ (F := F)) Variants.none () Set.univ := fun t => by
  rw [Gen.bigSep_W12, Gen.bigSep_W12]
  exact at_point V c t

end Cert.ReferenceIdeal.Reg12
-- ==== Proof.RI.Seg12.lean ====
import proofs.«143011_g2000502688546152_pallasbulk_1201_3_alg».proof.Proof.RI.Reg12
import proofs.«143011_g2000502688546152_pallasbulk_1201_3_alg».proof.Proof.RI.Rest
import Idealize.ShloMosaic.Lib.Pipeline.Regions
import Idealize.ShloMosaic.Lib.Pipeline.RegionsLoop

/-! # Region 12 as a segment of @main

A pooling region reads one array (pairs of columns split out as an axis) and writes the pooled array. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg12

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec12 1)) ((dat (VW W) c).arrAt 1 cfg12.N)

theorem Wout_out (c : Dev nD) :
    Wout W c (Proc.devRef .tc (Pipeline.arrRef spec12 1)) = (dat (VW W) c).arrAt 1 cfg12.N := by
  unfold Wout; exact Function.update_self ..

theorem Wout_of_ne (c : Dev nD) (b : DevRef τ sig) (hb : b ≠ Proc.devRef .tc (Pipeline.arrRef spec12 1)) :
    Wout W c b = W c b := by
  unfold Wout; exact Function.update_of_ne hb ..

theorem Wout_of_ne_ref (c : Dev nD) (b : Ref sig .tc) (hb : b ≠ Pipeline.arrRef spec12 1) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg12.W,
    (dat (VW W) c).arrAt w cfg12.N = Wout W c (Proc.devRef .tc (Pipeline.arrRef spec12 w))
  | 0 => by rw [Pipeline.Dat.arrAt_in _ 0 (by decide), Wout_of_ne_ref W c _ (by decide)]; exact A_eq _ c 0
  | 1 => (Wout_out W c).symm
  | ⟨_ + 2, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec12)) :
    Wout W c (Proc.devRef .tc b) = W c (Proc.devRef .tc b) :=
  Wout_of_ne_ref W c b fun e => hb (Finset.mem_image.mpr ⟨1, Finset.mem_univ _, e.symm⟩)

/-! ## The segment record -/

set_option backward.isDefEq.respectTransparency.types false in
/-- Region 12 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 12 = fun c => dat (VW W) c) :
    RegionSeg (pcfgs (F := F)) adm pdats () defs₀ Variants.none L lv 12 where
  win := winFacts12.to₀
  block_pos := block_pos12
  stage_whole := stage_whole12
  K := PEmpty
  osem k := k.elim
  ho := Pipeline.OwnSemFacts.none _
  hbody c := by rw [hp]; exact (body_obligation (VW W) c).loose
  hwaits := Pipeline.hwaits_of_owed_zero _ _ _ _ L lv 12 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec12 c (VW W c)
  hentry c := by
    rw [Pipeline.ownSems0_none]
    have hsplit := Pipeline.arrays_of_unscopedBufs (p := 12) (pcfgs (F := F)) adm pdats winFacts12 arr_whole12 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 12 c).Φ 0 = Pipeline.ΦA spec12 c := by rw [hp]; exact Φ_eq _ c 0
    rw [hΦ]; unfold Pipeline.ΦA
    iintro ⟨Hp, -, Hr⟩
    isplitl [Hr]; · iexact Hr
    iexact Hp
  hout c := by
    have hΦ : (pdats 12 c).Φ (Fin.last _) = Pipeline.ΦA spec12 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      winFacts12 arr_whole12 c pdats (by rw [hp]; exact (dat (VW W) c).share_full fun w => q_eq _ c w)
      (VW W c) (fun b => Wout W c b) ((pdats 12 c).arrAt · cfg12.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg12

end
-- ==== Proof.RI.Reg13Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 13: the 2×2 max pool of a [16, 112, 56, 2, 128] array into [16, 56, 56, 128]

The grid is 16 × 7. At point (n, r) the input window is rows 16r … 16r+15 of image n, a [1, 16, 56, 2, 128] block; the
body takes the maximum over the column pair (axis 3), regroups the 16 rows as 8 pairs, takes the maximum over each
row pair, and stores the [1, 8, 56, 128] result over its whole output window, rows 8r … 8r+7 of image n. Nothing is
kept between points. -/
-- This module: the proof data (what each window holds after the body at each point).

set_option maxRecDepth 16384

noncomputable section

namespace Cert.ReferenceIdeal.Reg13

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of the input array the window shows at point `t`. -/
def rows (c : Dev nD) (t : Fin cfg13.N) : Vec F S1x16x56x2x128 .f32 :=
  ((cfg13.win 0).blk t).view.read (Elt F) (V c (Pipeline.arrRef spec13 0))

/-- The pooled block: column-pair maximum, then row-pair maximum, of a block of 16 rows. -/
def pooled (x : Vec F S1x16x56x2x128 .f32) : Vec F S1x8x56x128 .f32 := Gen.k13_pay1 x

/-- The region's proof data: the arrays as found; after the body the input window still shows its rows and the output
    window holds their pooled block; the body keeps no state of its own. -/
def dat (c : Dev nD) : Dat τ (Elt F) Unit ℕ (UR sig nD τ) ℕ cfg13 c where
  A w := V c (Pipeline.arrRef spec13 w)
  after w t := match w with
    | ⟨0, _⟩ => rows V c t
    | ⟨1, _⟩ => pooled (rows V c t)
  Φ _ := Pipeline.ΦA spec13 c
  q _ := fullShare
  owed _ := 0

theorem A_eq (c : Dev nD) (w : Fin cfg13.W) : (dat V c).A w = V c (Pipeline.arrRef spec13 w) := by
  dsimp only [dat]

theorem after_in (c : Dev nD) (t : Fin cfg13.N) : (dat V c).after 0 t = rows V c t := by dsimp only [dat]
theorem after_out (c : Dev nD) (t : Fin cfg13.N) : (dat V c).after 1 t = pooled (rows V c t) := by dsimp only [dat]

end Cert.ReferenceIdeal.Reg13
-- ==== Proof.RI.Reg13.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg13Data
import Idealize.ShloMosaic.Lib.Pipeline.FrameBody
import Idealize.ShloMosaic.Lib.Pipeline.Value
import Idealize.ShloMosaic.Lib.Tactic

/-! # Region 13: the 2×2 max pool of a [16, 112, 56, 2, 128] array into [16, 56, 56, 128]

The grid is 16 × 7. At point (n, r) the input window is rows 16r … 16r+15 of image n, a [1, 16, 56, 2, 128] block; the
body takes the maximum over the column pair (axis 3), regroups the 16 rows as 8 pairs, takes the maximum over each
row pair, and stores the [1, 8, 56, 128] result over its whole output window, rows 8r … 8r+7 of image n. Nothing is
kept between points. -/
-- This module: the body's triple and the body obligation.

set_option maxRecDepth 16384

noncomputable section

namespace Cert.ReferenceIdeal.Reg13

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg13.N + 1)) : (dat V c).Φ t = Pipeline.ΦA spec13 c := rfl
theorem owed_eq (c : Dev nD) (t : Fin (cfg13.N + 1)) : (dat V c).owed t = 0 := rfl
theorem q_eq (c : Dev nD) (w : Fin cfg13.W) : (dat V c).q w = fullShare := rfl

set_option maxHeartbeats 1000000 in
/-- The body on whole staging memrefs: with the input's holding a block `x` and the output's holding anything, it
    runs to a state where the input's still holds `x` and the output's holds the pooled block of `x`. -/
theorem pool_body (c : Dev nD) (E : Set ℕ) (i : grid13.Coords)
    (mi : Memref sig .tc .vmem S1x16x56x2x128 .f32) (hi : mi.IsWhole)
    (mo : Memref sig .tc .vmem S1x8x56x128 .f32) (ho : mo.IsWhole)
    (x : Vec F S1x16x56x2x128 .f32) (K : PUnit → sProp 𝕄) :
    iprop(owns (c : Thread nD τ) mi fullShare x ∗ (∃ d, owns (c : Thread nD τ) mo fullShare d)
        ∗ (iprop(owns (c : Thread nD τ) mi fullShare x ∗ owns (c : Thread nD τ) mo fullShare (pooled x)) -∗ K ⟨⟩))
      ⊢ wp frame (wpE (defs₀ (F := F)) Variants.none c none) E (cc13__maxpool_kernel i mi hi mo ho) K := by
  simp only [Gen.cc13__maxpool_kernel_eq_skeleton]; unfold Gen.cc13__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have z4 : (![0, 0, 0, 0] : Fin 4 → ℕ) = fun _ => 0 := by
    funext a; match a with | ⟨0, _⟩ => rfl | ⟨1, _⟩ => rfl | ⟨2, _⟩ => rfl | ⟨3, _⟩ => rfl
  have z5 : (![0, 0, 0, 0, 0] : Fin 5 → ℕ) = fun _ => 0 := by
    funext a; match a with | ⟨0, _⟩ => rfl | ⟨1, _⟩ => rfl | ⟨2, _⟩ => rfl | ⟨3, _⟩ => rfl | ⟨4, _⟩ => rfl
  -- the one store covers the output block, so the block reads its payload; the load reads the whole input block
  rw [View.read_writes_eq_canon _ _ _ (fun y => ⟨_, List.mem_singleton_self _,
      View.mem_set_unit_zero (S := S1x8x56x128) z4 Gen.inb_S1x8x56x128_S1x8x56x128_0_0_0_0 y⟩),
    View.canon_unit_zero (S := S1x8x56x128) z4 Gen.inb_S1x8x56x128_S1x8x56x128_0_0_0_0, View.readAt_eq_ld]
  show Gen.k13_pay1 (View.ld (View.read (Elt F) mi.view f0)
    (Rect.unit ![0, 0, 0, 0, 0] S1x16x56x2x128.size Gen.inb_S1x16x56x2x128_S1x16x56x2x128_0_0_0_0_0)) = _
  rw [View.ld_unit_zero (S := S1x16x56x2x128) z5 Gen.inb_S1x16x56x2x128_S1x16x56x2x128_0_0_0_0_0]
  rfl

/-- The input window's staging buffer shows the window's rows at every point, fetched there or not. -/
theorem before_in (c : Dev nD) (t : Fin cfg13.N) (d) : (dat V c).before 0 t d = rows V c t :=
  ((dat V c).before_in_eq_fetched 0 rfl (fun _ => rfl) (fun _ _ _ => rfl)
      (fun t => by rw [after_in]; unfold Dat.blockOf rows; rw [A_eq]; try rfl) t d).trans
    (by unfold Dat.fetched Dat.blockOf rows; rw [A_eq]; try rfl)

/-- The body at a point: its input buffer shows the point's rows, so the body's triple applies; the scoped rest and
    the core's tallies pass through untouched. -/
theorem at_point (c : Dev nD) (t : Fin cfg13.N) :
    iprop((dat V c).Φ t.castSucc ∗ (dat V c).owesAt () t.castSucc
        ∗ (∃ d, owns (c : Thread nD τ) (Gen.st13_0 t) fullShare ((dat V c).before 0 t d))
        ∗ (∃ d, owns (c : Thread nD τ) (Gen.st13_1 t) fullShare ((dat V c).before 1 t d)))
      ⊢ wp frame (wpE (defs₀ (F := F)) Variants.none c none) Set.univ (Gen.bodyAt13 t) (fun _ =>
        iprop((dat V c).Φ t.succ ∗ (dat V c).owesAt () t.succ
          ∗ owns (c : Thread nD τ) (Gen.st13_0 t) fullShare ((dat V c).after 0 t)
          ∗ owns (c : Thread nD τ) (Gen.st13_1 t) fullShare ((dat V c).after 1 t))) := by
  unfold Gen.bodyAt13
  simp only [before_in]
  rw [show (dat V c).Φ t.succ = (dat V c).Φ t.castSucc from rfl,
    show (dat V c).owesAt () t.succ = (dat V c).owesAt () t.castSucc from rfl, after_in, after_out]
  iintro ⟨HΦ, Ho, ⟨%d0, Hi⟩, ⟨%d1, Hout⟩⟩
  iapply (pool_body c Set.univ _ _ _ _ _ (rows V c t) _)
  isplitl [Hi]; · iexact Hi
  isplitl [Hout]; · iexists _; iexact Hout
  iintro ⟨Hi, Hout⟩
  isplitl [HΦ]; · iexact HΦ
  isplitl [Ho]; · iexact Ho
  isplitl [Hi]; · iexact Hi
  iexact Hout

theorem body_obligation (c : Dev nD) : BodyObligation (dat (F := F) V c) (defs₀ (F := F)) Variants.none () Set.univ := fun t => by
  rw [Gen.bigSep_W13, Gen.bigSep_W13]
  exact at_point V c t

end Cert.ReferenceIdeal.Reg13
-- ==== Proof.RI.Seg13.lean ====
import proofs.«143011_g2000502688546152_pallasbulk_1201_3_alg».proof.Proof.RI.Reg13
import proofs.«143011_g2000502688546152_pallasbulk_1201_3_alg».proof.Proof.RI.Rest
import Idealize.ShloMosaic.Lib.Pipeline.Regions
import Idealize.ShloMosaic.Lib.Pipeline.RegionsLoop

/-! # Region 13 as a segment of @main

A pooling region reads one array (pairs of columns split out as an axis) and writes the pooled array. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg13

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec13 1)) ((dat (VW W) c).arrAt 1 cfg13.N)

theorem Wout_out (c : Dev nD) :
    Wout W c (Proc.devRef .tc (Pipeline.arrRef spec13 1)) = (dat (VW W) c).arrAt 1 cfg13.N := by
  unfold Wout; exact Function.update_self ..

theorem Wout_of_ne (c : Dev nD) (b : DevRef τ sig) (hb : b ≠ Proc.devRef .tc (Pipeline.arrRef spec13 1)) :
    Wout W c b = W c b := by
  unfold Wout; exact Function.update_of_ne hb ..

theorem Wout_of_ne_ref (c : Dev nD) (b : Ref sig .tc) (hb : b ≠ Pipeline.arrRef spec13 1) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg13.W,
    (dat (VW W) c).arrAt w cfg13.N = Wout W c (Proc.devRef .tc (Pipeline.arrRef spec13 w))
  | 0 => by rw [Pipeline.Dat.arrAt_in _ 0 (by decide), Wout_of_ne_ref W c _ (by decide)]; exact A_eq _ c 0
  | 1 => (Wout_out W c).symm
  | ⟨_ + 2, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec13)) :
    Wout W c (Proc.devRef .tc b) = W c (Proc.devRef .tc b) :=
  Wout_of_ne_ref W c b fun e => hb (Finset.mem_image.mpr ⟨1, Finset.mem_univ _, e.symm⟩)

/-! ## The segment record -/

set_option backward.isDefEq.respectTransparency.types false in
/-- Region 13 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 13 = fun c => dat (VW W) c) :
    RegionSeg (pcfgs (F := F)) adm pdats () defs₀ Variants.none L lv 13 where
  win := winFacts13.to₀
  block_pos := block_pos13
  stage_whole := stage_whole13
  K := PEmpty
  osem k := k.elim
  ho := Pipeline.OwnSemFacts.none _
  hbody c := by rw [hp]; exact (body_obligation (VW W) c).loose
  hwaits := Pipeline.hwaits_of_owed_zero _ _ _ _ L lv 13 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec13 c (VW W c)
  hentry c := by
    rw [Pipeline.ownSems0_none]
    have hsplit := Pipeline.arrays_of_unscopedBufs (p := 13) (pcfgs (F := F)) adm pdats winFacts13 arr_whole13 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 13 c).Φ 0 = Pipeline.ΦA spec13 c := by rw [hp]; exact Φ_eq _ c 0
    rw [hΦ]; unfold Pipeline.ΦA
    iintro ⟨Hp, -, Hr⟩
    isplitl [Hr]; · iexact Hr
    iexact Hp
  hout c := by
    have hΦ : (pdats 13 c).Φ (Fin.last _) = Pipeline.ΦA spec13 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      winFacts13 arr_whole13 c pdats (by rw [hp]; exact (dat (VW W) c).share_full fun w => q_eq _ c w)
      (VW W c) (fun b => Wout W c b) ((pdats 13 c).arrAt · cfg13.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg13

end
-- ==== Proof.RI.Reg14.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 14: a 3×3 convolution with bias and ReLU over one row tile per grid point

The grid is (image n, row tile r), 16 × 4 points. Windows 0 and 1 are the row tiles r and r+1 of ONE zero-padded
input array [16, 70, 64, 128]; window 2 is the whole kernel array [3, 3, 128, 256]; window 3 the bias [1, 256]; window 4
the output's row tile r of [16, 56, 56, 256]. The body flattens the two input tiles to rows of 64·14 pixels, appends
64 zero rows, and adds nine matrix products — one per tap (dy, dx), each a row-shifted slab against the tap's
[128, 256] matrix —, then the bias, then the maximum with zero, and keeps the first 56 columns of each row. -/

set_option maxRecDepth 16384

noncomputable section

namespace Cert.ReferenceIdeal.Reg14

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg14.W) (t : Fin cfg14.N) :
    ((cfg14.win w).xblock (cfg14.grid.coords t)).Idx → Elt F (cfg14.win w).elt :=
  ((cfg14.win w).blk t).view.read (Elt F) (V c (Pipeline.arrRef spec14 w))

/-! ## The taps -/

/-- The [1, 1, 128, 256] rectangle of the kernel array at tap (dy, dx). -/
abbrev tapRect (dy dx : Nat) (h : ∀ a, ![dy, dx, 0, 0] a + S1x1x128x256.size a ≤ S3x3x128x256.size a) : Rect S3x3x128x256 :=
  Rect.unit (s := S3x3x128x256) ![dy, dx, 0, 0] S1x1x128x256.size h

/-- The whole input tile and the whole bias row, as the body loads them. -/
abbrev rIn : Rect S1x14x64x128 :=
  Rect.unit (s := S1x14x64x128) ![0, 0, 0, 0] S1x14x64x128.size inb_S1x14x64x128_S1x14x64x128_0_0_0_0
abbrev rBias : Rect S1x256 := Rect.unit (s := S1x256) ![0, 0] S1x256.size inb_S1x256_S1x256_0_0

/-! ## What the body leaves in the output window's buffer -/

/-- The output tile from the two input tiles `xa`, `xb`, the kernel array `wk` and the bias `b`: the sum of the nine
    taps' matrix products in the order (0,0), (0,1), …, (2,2), plus the bias, clamped below at zero, cut to 56 columns. -/
def out (xa xb : Vec F S1x14x64x128 .f32) (wk : Vec F S3x3x128x256 .f32) (b : Vec F S1x256 .f32) : Vec F S1x14x56x256 .f32 :=
  k14_pay1
    (k14_pay8 (k14_pay2 (View.ld xa rIn) (View.ld xb rIn)) (k14_pay3 (View.ld xa rIn) (View.ld xb rIn))
      (k14_pay4 (View.ld xa rIn) (View.ld xb rIn))
      (k14_pay5 (View.ld xa rIn) (View.ld xb rIn)
        (View.ld wk (tapRect 0 0 inb_S3x3x128x256_S1x1x128x256_0_0_0_0))
        (View.ld wk (tapRect 0 1 inb_S3x3x128x256_S1x1x128x256_0_1_0_0))
        (View.ld wk (tapRect 0 2 inb_S3x3x128x256_S1x1x128x256_0_2_0_0)))
      (k14_pay6 (View.ld xa rIn) (View.ld xb rIn))
      (k14_pay7 (View.ld wk (tapRect 1 0 inb_S3x3x128x256_S1x1x128x256_1_0_0_0)))
      (View.ld wk (tapRect 1 1 inb_S3x3x128x256_S1x1x128x256_1_1_0_0))
      (View.ld wk (tapRect 1 2 inb_S3x3x128x256_S1x1x128x256_1_2_0_0))
      (View.ld wk (tapRect 2 0 inb_S3x3x128x256_S1x1x128x256_2_0_0_0))
      (View.ld wk (tapRect 2 1 inb_S3x3x128x256_S1x1x128x256_2_1_0_0))
      (View.ld wk (tapRect 2 2 inb_S3x3x128x256_S1x1x128x256_2_2_0_0))
      (View.ld b rBias))
    (k14_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg14 c where
  A w := V c (Pipeline.arrRef spec14 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec14 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg14.W) : (dat V c).A w = V c (Pipeline.arrRef spec14 w) := by
  dsimp only [dat]

theorem after_0 (c : Dev nD) (t : Fin cfg14.N) : (dat V c).after 0 t = iblk V c 0 t := by dsimp only [dat]
theorem after_1 (c : Dev nD) (t : Fin cfg14.N) : (dat V c).after 1 t = iblk V c 1 t := by dsimp only [dat]
theorem after_2 (c : Dev nD) (t : Fin cfg14.N) : (dat V c).after 2 t = iblk V c 2 t := by dsimp only [dat]
theorem after_3 (c : Dev nD) (t : Fin cfg14.N) : (dat V c).after 3 t = iblk V c 3 t := by dsimp only [dat]
theorem after_4 (c : Dev nD) (t : Fin cfg14.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x14x56x256 :=
  Rect.unit (s := S1x14x56x256) ![0, 0, 0, 0] S1x14x56x256.size inb_S1x14x56x256_S1x14x56x256_0_0_0_0

theorem hz4 : (![0, 0, 0, 0] : Fin 4 → Nat) = fun _ => 0 := funext fun a => by fin_cases a <;> rfl

/-- The one store covers the output tile. -/
theorem cover_out (p : Vec F S1x14x56x256 .f32) (y : S1x14x56x256.Idx) :
    ∃ pc ∈ ([⟨rOut, p⟩] : List (View.Piece (Elt F) S1x14x56x256 .f32)), y ∈ pc.1.set :=
  View.cover_of_tiled [⟨rOut, p⟩] S1x14x56x256.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid14.Coords)
    (arg2 : Memref sig .tc .vmem S1x14x64x128 .f32) (harg2 : arg2.IsWhole)
    (arg3 : Memref sig .tc .vmem S1x14x64x128 .f32) (harg3 : arg3.IsWhole)
    (arg4 : Memref sig .tc .vmem S3x3x128x256 .f32) (harg4 : arg4.IsWhole)
    (arg5 : Memref sig .tc .vmem S1x256 .f32) (harg5 : arg5.IsWhole)
    (arg6 : Memref sig .tc .vmem S1x14x56x256 .f32) (harg6 : arg6.IsWhole)
    (xa xb : Vec F S1x14x64x128 .f32) (wk : Vec F S3x3x128x256 .f32) (b : Vec F S1x256 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc14__conv3x3_relu_kernel i arg2 harg2 arg3 harg3 arg4 harg4 arg5 harg5 arg6 harg6) K := by
  sl_unfold [cc14__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg14.N + 1)) : (dat V c).Φ t = Pipeline.ΦA spec14 c := by dsimp only [dat]
theorem owed_eq (c : Dev nD) (t : Fin (cfg14.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg14 c)
    (hA : dat'.A 0 = V c (Pipeline.arrRef spec14 0)) (hafter : ∀ t, dat'.after 0 t = iblk V c 0 t)
    (t : Fin cfg14.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg14.N) (d) : (dat V c).before 0 t d = iblk V c 0 t :=
  before_0_of V (dat V c) (A_eq V c 0) (after_0 V c) t d

theorem before_1_of {c : Dev nD} (dat' : Dat τ (Elt F) Unit ℕ (UR sig nD τ) ℕ cfg14 c)
    (hA : dat'.A 1 = V c (Pipeline.arrRef spec14 1)) (hafter : ∀ t, dat'.after 1 t = iblk V c 1 t)
    (t : Fin cfg14.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg14.N) (d) : (dat V c).before 1 t d = iblk V c 1 t :=
  before_1_of V (dat V c) (A_eq V c 1) (after_1 V c) t d

theorem before_2_of {c : Dev nD} (dat' : Dat τ (Elt F) Unit ℕ (UR sig nD τ) ℕ cfg14 c)
    (hA : dat'.A 2 = V c (Pipeline.arrRef spec14 2)) (hafter : ∀ t, dat'.after 2 t = iblk V c 2 t)
    (t : Fin cfg14.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg14.N) (d) : (dat V c).before 2 t d = iblk V c 2 t :=
  before_2_of V (dat V c) (A_eq V c 2) (after_2 V c) t d

theorem before_3_of {c : Dev nD} (dat' : Dat τ (Elt F) Unit ℕ (UR sig nD τ) ℕ cfg14 c)
    (hA : dat'.A 3 = V c (Pipeline.arrRef spec14 3)) (hafter : ∀ t, dat'.after 3 t = iblk V c 3 t)
    (t : Fin cfg14.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg14.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg14.N) : sProp 𝕄 :=
  iprop((dat V c).Φ t.castSucc ∗ (dat V c).owesAt () t.castSucc
    ∗ (∃ d, owns (c : Thread nD τ) (st14_0 t) fullShare ((dat V c).before 0 t d))
    ∗ (∃ d, owns (c : Thread nD τ) (st14_1 t) fullShare ((dat V c).before 1 t d))
    ∗ (∃ d, owns (c : Thread nD τ) (st14_2 t) fullShare ((dat V c).before 2 t d))
    ∗ (∃ d, owns (c : Thread nD τ) (st14_3 t) fullShare ((dat V c).before 3 t d))
    ∗ (∃ d, owns (c : Thread nD τ) (st14_4 t) fullShare ((dat V c).before 4 t d)))

/-- and what it returns. -/
def bodyPost (c : Dev nD) (t : Fin cfg14.N) : sProp 𝕄 :=
  iprop((dat V c).Φ t.succ ∗ (dat V c).owesAt () t.succ
    ∗ owns (c : Thread nD τ) (st14_0 t) fullShare ((dat V c).after 0 t)
    ∗ owns (c : Thread nD τ) (st14_1 t) fullShare ((dat V c).after 1 t)
    ∗ owns (c : Thread nD τ) (st14_2 t) fullShare ((dat V c).after 2 t)
    ∗ owns (c : Thread nD τ) (st14_3 t) fullShare ((dat V c).after 3 t)
    ∗ owns (c : Thread nD τ) (st14_4 t) fullShare ((dat V c).after 4 t))

/-- The body at any point: the four inputs' buffers hold their blocks, so the body's triple applies; the invariant and
    the debt pass through unread. -/
theorem sound_body (c : Dev nD) (t : Fin cfg14.N) :
    bodyPre V c t ⊢ wp frame (wpE (defs₀ (F := F)) Variants.none c none) Set.univ (bodyAt14 t) (fun _ => bodyPost V c t) := by
  unfold bodyPre bodyPost bodyAt14
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W14, bigSep_W14]
  exact sound_body V c t

end Cert.ReferenceIdeal.Reg14
-- ==== Proof.RI.Seg14.lean ====
import proofs.«143011_g2000502688546152_pallasbulk_1201_3_alg».proof.Proof.RI.Reg14
import proofs.«143011_g2000502688546152_pallasbulk_1201_3_alg».proof.Proof.RI.Rest
import Idealize.ShloMosaic.Lib.Pipeline.Regions

/-! # Region 14 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg14

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec14 4)) ((dat (VW W) c).arrAt 4 cfg14.N)

theorem Wout_out (c : Dev nD) :
    Wout W c (Proc.devRef .tc (Pipeline.arrRef spec14 4)) = (dat (VW W) c).arrAt 4 cfg14.N := by
  unfold Wout; exact Function.update_self ..

theorem Wout_of_ne (c : Dev nD) (b : DevRef τ sig) (hb : b ≠ Proc.devRef .tc (Pipeline.arrRef spec14 4)) :
    Wout W c b = W c b := by
  unfold Wout; exact Function.update_of_ne hb ..

theorem Wout_of_ne_ref (c : Dev nD) (b : Ref sig .tc) (hb : b ≠ Pipeline.arrRef spec14 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec14)
    = {Pipeline.arrRef spec14 0, Pipeline.arrRef spec14 2, Pipeline.arrRef spec14 3, Pipeline.arrRef spec14 4} := by decide

/-- The pipeline's arrays at contents `G`, window by window: the input array at its two half shares, the rest whole. -/
theorem arrays_eq (c : Dev nD) (G : (w : Fin cfg14.W) → Buf (Elt F) ((cfg14.win w).arr.view.loc (c : Thread nD τ))) :
    ((dat (VW W) c).arrays G : sProp 𝕄) = iprop(
      (((c : Thread nD τ).loc (Pipeline.arrRef spec14 0)) ↦{fullShare.left} G 0)
      ∗ (((c : Thread nD τ).loc (Pipeline.arrRef spec14 1)) ↦{fullShare.right} G 1)
      ∗ (((c : Thread nD τ).loc (Pipeline.arrRef spec14 2)) ↦{fullShare} G 2)
      ∗ (((c : Thread nD τ).loc (Pipeline.arrRef spec14 3)) ↦{fullShare} G 3)
      ∗ (((c : Thread nD τ).loc (Pipeline.arrRef spec14 4)) ↦{fullShare} G 4)) := by
  have h : ((dat (VW W) c).arrays G : sProp 𝕄) = bigSep Finset.univ fun w =>
      (((c : Thread nD τ).loc (Pipeline.arrRef spec14 w)) ↦{(dat (VW W) c).share w} G w : sProp 𝕄) := by
    unfold Pipeline.Dat.arrays
    exact bigSep_congr fun w _ => by rw [(arr_whole14 w).set_eq_univ]
  rw [h, bigSep_W14, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec14 c X : sProp 𝕄) = iprop(
      (((c : Thread nD τ).loc (Pipeline.arrRef spec14 0)) ↦{fullShare} X (Pipeline.arrRef spec14 0))
      ∗ (((c : Thread nD τ).loc (Pipeline.arrRef spec14 2)) ↦{fullShare} X (Pipeline.arrRef spec14 2))
      ∗ (((c : Thread nD τ).loc (Pipeline.arrRef spec14 3)) ↦{fullShare} X (Pipeline.arrRef spec14 3))
      ∗ (((c : Thread nD τ).loc (Pipeline.arrRef spec14 4)) ↦{fullShare} X (Pipeline.arrRef spec14 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec14 c X ∗ Pipeline.unscopedRest spec14 c X) :=
  Pipeline.unscopedBufs_split₀ cfgs 14 winFacts₀14.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec14 1) = (c : Thread nD τ).loc (Pipeline.arrRef spec14 0) := rfl
theorem halves01 (c : Dev nD) :
    (((c : Thread nD τ).loc (Pipeline.arrRef spec14 0)) ↦{fullShare} VW W c (Pipeline.arrRef spec14 0) : sProp 𝕄)
      ⊣⊢ iprop((((c : Thread nD τ).loc (Pipeline.arrRef spec14 0)) ↦{fullShare.left} VW W c (Pipeline.arrRef spec14 0))
        ∗ (((c : Thread nD τ).loc (Pipeline.arrRef spec14 1)) ↦{fullShare.right} VW W c (Pipeline.arrRef spec14 1))) :=
  halves (loc_1 c) _ _ HEq.rfl

/-- An array's entry contents are what the region finds. -/
theorem arrAt_zero (c : Dev nD) (w : Fin cfg14.W) : (dat (VW W) c).arrAt w 0 = VW W c (Pipeline.arrRef spec14 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec14 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec14 c (fun b => Wout W c b) : sProp 𝕄) = iprop(
      (((c : Thread nD τ).loc (Pipeline.arrRef spec14 0)) ↦{fullShare} VW W c (Pipeline.arrRef spec14 0))
      ∗ (((c : Thread nD τ).loc (Pipeline.arrRef spec14 2)) ↦{fullShare} VW W c (Pipeline.arrRef spec14 2))
      ∗ (((c : Thread nD τ).loc (Pipeline.arrRef spec14 3)) ↦{fullShare} VW W c (Pipeline.arrRef spec14 3))
      ∗ (((c : Thread nD τ).loc (Pipeline.arrRef spec14 4)) ↦{fullShare} (dat (VW W) c).arrAt 4 cfg14.N)) := by
  rw [arrBufs_eq]
  rw [Wout_of_ne_ref W c (Pipeline.arrRef spec14 0) (by decide)]
  rw [Wout_of_ne_ref W c (Pipeline.arrRef spec14 2) (by decide)]
  rw [Wout_of_ne_ref W c (Pipeline.arrRef spec14 3) (by decide)]
  rw [Wout_out]

/-- The buffers that are no array of the region hold at the exit what they held at entry. -/
theorem rest_out (c : Dev nD) :
    (Pipeline.unscopedRest spec14 c (fun b => Wout W c b) : sProp 𝕄) = Pipeline.unscopedRest spec14 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg14.N) : sProp 𝕄) = iprop(
      (((c : Thread nD τ).loc (Pipeline.arrRef spec14 0)) ↦{fullShare.left} VW W c (Pipeline.arrRef spec14 0))
      ∗ (((c : Thread nD τ).loc (Pipeline.arrRef spec14 1)) ↦{fullShare.right} VW W c (Pipeline.arrRef spec14 1))
      ∗ (((c : Thread nD τ).loc (Pipeline.arrRef spec14 2)) ↦{fullShare} VW W c (Pipeline.arrRef spec14 2))
      ∗ (((c : Thread nD τ).loc (Pipeline.arrRef spec14 3)) ↦{fullShare} VW W c (Pipeline.arrRef spec14 3))
      ∗ (((c : Thread nD τ).loc (Pipeline.arrRef spec14 4)) ↦{fullShare} (dat (VW W) c).arrAt 4 cfg14.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg14.N) ∗ Pipeline.unscopedRest spec14 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 14 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 14 = fun c => dat (VW W) c) :
    RegionSeg (pcfgs (F := F)) adm pdats () defs₀ Variants.none L lv 14 where
  win := winFacts₀14
  block_pos := block_pos14
  stage_whole := stage_whole14
  K := PEmpty
  osem k := k.elim
  ho := Pipeline.OwnSemFacts.none _
  hbody c := by rw [hp]; exact (body_obligation (VW W) c).loose
  hwaits := Pipeline.hwaits_of_owed_zero _ _ _ _ L lv 14 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec14 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 14 c).Φ 0 = Pipeline.ΦA spec14 c := by rw [hp]; exact Φ_eq _ c 0
    rw [hΦ]; unfold Pipeline.ΦA
    iintro ⟨Hp, -, Hr⟩
    isplitl [Hr]; · iexact Hr
    iexact Hp
  hout c := by
    have hΦ : (pdats 14 c).Φ (Fin.last _) = Pipeline.ΦA spec14 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg14

end
-- ==== Proof.RI.Reg15.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 15: a 3×3 convolution with bias and ReLU over one row tile per grid point

The grid is (image n, row tile r), 16 × 4 points. Windows 0 and 1 are the row tiles r and r+1 of ONE zero-padded
input array [16, 70, 64, 128]; window 2 is the whole kernel array [3, 3, 128, 256]; window 3 the bias [1, 256]; window 4
the output's row tile r of [16, 56, 56, 256]. The body flattens the two input tiles to rows of 64·14 pixels, appends
64 zero rows, and adds nine matrix products — one per tap (dy, dx), each a row-shifted slab against the tap's
[128, 256] matrix —, then the bias, then the maximum with zero, and keeps the first 56 columns of each row. -/

set_option maxRecDepth 16384

noncomputable section

namespace Cert.ReferenceIdeal.Reg15

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg15.W) (t : Fin cfg15.N) :
    ((cfg15.win w).xblock (cfg15.grid.coords t)).Idx → Elt F (cfg15.win w).elt :=
  ((cfg15.win w).blk t).view.read (Elt F) (V c (Pipeline.arrRef spec15 w))

/-! ## The taps -/

/-- The [1, 1, 128, 256] rectangle of the kernel array at tap (dy, dx). -/
abbrev tapRect (dy dx : Nat) (h : ∀ a, ![dy, dx, 0, 0] a + S1x1x128x256.size a ≤ S3x3x128x256.size a) : Rect S3x3x128x256 :=
  Rect.unit (s := S3x3x128x256) ![dy, dx, 0, 0] S1x1x128x256.size h

/-- The whole input tile and the whole bias row, as the body loads them. -/
abbrev rIn : Rect S1x14x64x128 :=
  Rect.unit (s := S1x14x64x128) ![0, 0, 0, 0] S1x14x64x128.size inb_S1x14x64x128_S1x14x64x128_0_0_0_0
abbrev rBias : Rect S1x256 := Rect.unit (s := S1x256) ![0, 0] S1x256.size inb_S1x256_S1x256_0_0

/-! ## What the body leaves in the output window's buffer -/

/-- The output tile from the two input tiles `xa`, `xb`, the kernel array `wk` and the bias `b`: the sum of the nine
    taps' matrix products in the order (0,0), (0,1), …, (2,2), plus the bias, clamped below at zero, cut to 56 columns. -/
def out (xa xb : Vec F S1x14x64x128 .f32) (wk : Vec F S3x3x128x256 .f32) (b : Vec F S1x256 .f32) : Vec F S1x14x56x256 .f32 :=
  k15_pay1
    (k15_pay8 (k15_pay2 (View.ld xa rIn) (View.ld xb rIn)) (k15_pay3 (View.ld xa rIn) (View.ld xb rIn))
      (k15_pay4 (View.ld xa rIn) (View.ld xb rIn))
      (k15_pay5 (View.ld xa rIn) (View.ld xb rIn)
        (View.ld wk (tapRect 0 0 inb_S3x3x128x256_S1x1x128x256_0_0_0_0))
        (View.ld wk (tapRect 0 1 inb_S3x3x128x256_S1x1x128x256_0_1_0_0))
        (View.ld wk (tapRect 0 2 inb_S3x3x128x256_S1x1x128x256_0_2_0_0)))
      (k15_pay6 (View.ld xa rIn) (View.ld xb rIn))
      (k15_pay7 (View.ld wk (tapRect 1 0 inb_S3x3x128x256_S1x1x128x256_1_0_0_0)))
      (View.ld wk (tapRect 1 1 inb_S3x3x128x256_S1x1x128x256_1_1_0_0))
      (View.ld wk (tapRect 1 2 inb_S3x3x128x256_S1x1x128x256_1_2_0_0))
      (View.ld wk (tapRect 2 0 inb_S3x3x128x256_S1x1x128x256_2_0_0_0))
      (View.ld wk (tapRect 2 1 inb_S3x3x128x256_S1x1x128x256_2_1_0_0))
      (View.ld wk (tapRect 2 2 inb_S3x3x128x256_S1x1x128x256_2_2_0_0))
      (View.ld b rBias))
    (k15_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg15 c where
  A w := V c (Pipeline.arrRef spec15 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec15 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg15.W) : (dat V c).A w = V c (Pipeline.arrRef spec15 w) := by
  dsimp only [dat]

theorem after_0 (c : Dev nD) (t : Fin cfg15.N) : (dat V c).after 0 t = iblk V c 0 t := by dsimp only [dat]
theorem after_1 (c : Dev nD) (t : Fin cfg15.N) : (dat V c).after 1 t = iblk V c 1 t := by dsimp only [dat]
theorem after_2 (c : Dev nD) (t : Fin cfg15.N) : (dat V c).after 2 t = iblk V c 2 t := by dsimp only [dat]
theorem after_3 (c : Dev nD) (t : Fin cfg15.N) : (dat V c).after 3 t = iblk V c 3 t := by dsimp only [dat]
theorem after_4 (c : Dev nD) (t : Fin cfg15.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x14x56x256 :=
  Rect.unit (s := S1x14x56x256) ![0, 0, 0, 0] S1x14x56x256.size inb_S1x14x56x256_S1x14x56x256_0_0_0_0

theorem hz4 : (![0, 0, 0, 0] : Fin 4 → Nat) = fun _ => 0 := funext fun a => by fin_cases a <;> rfl

/-- The one store covers the output tile. -/
theorem cover_out (p : Vec F S1x14x56x256 .f32) (y : S1x14x56x256.Idx) :
    ∃ pc ∈ ([⟨rOut, p⟩] : List (View.Piece (Elt F) S1x14x56x256 .f32)), y ∈ pc.1.set :=
  View.cover_of_tiled [⟨rOut, p⟩] S1x14x56x256.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid15.Coords)
    (arg2 : Memref sig .tc .vmem S1x14x64x128 .f32) (harg2 : arg2.IsWhole)
    (arg3 : Memref sig .tc .vmem S1x14x64x128 .f32) (harg3 : arg3.IsWhole)
    (arg4 : Memref sig .tc .vmem S3x3x128x256 .f32) (harg4 : arg4.IsWhole)
    (arg5 : Memref sig .tc .vmem S1x256 .f32) (harg5 : arg5.IsWhole)
    (arg6 : Memref sig .tc .vmem S1x14x56x256 .f32) (harg6 : arg6.IsWhole)
    (xa xb : Vec F S1x14x64x128 .f32) (wk : Vec F S3x3x128x256 .f32) (b : Vec F S1x256 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc15__conv3x3_relu_kernel i arg2 harg2 arg3 harg3 arg4 harg4 arg5 harg5 arg6 harg6) K := by
  sl_unfold [cc15__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg15.N + 1)) : (dat V c).Φ t = Pipeline.ΦA spec15 c := by dsimp only [dat]
theorem owed_eq (c : Dev nD) (t : Fin (cfg15.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg15 c)
    (hA : dat'.A 0 = V c (Pipeline.arrRef spec15 0)) (hafter : ∀ t, dat'.after 0 t = iblk V c 0 t)
    (t : Fin cfg15.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg15.N) (d) : (dat V c).before 0 t d = iblk V c 0 t :=
  before_0_of V (dat V c) (A_eq V c 0) (after_0 V c) t d

theorem before_1_of {c : Dev nD} (dat' : Dat τ (Elt F) Unit ℕ (UR sig nD τ) ℕ cfg15 c)
    (hA : dat'.A 1 = V c (Pipeline.arrRef spec15 1)) (hafter : ∀ t, dat'.after 1 t = iblk V c 1 t)
    (t : Fin cfg15.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg15.N) (d) : (dat V c).before 1 t d = iblk V c 1 t :=
  before_1_of V (dat V c) (A_eq V c 1) (after_1 V c) t d

theorem before_2_of {c : Dev nD} (dat' : Dat τ (Elt F) Unit ℕ (UR sig nD τ) ℕ cfg15 c)
    (hA : dat'.A 2 = V c (Pipeline.arrRef spec15 2)) (hafter : ∀ t, dat'.after 2 t = iblk V c 2 t)
    (t : Fin cfg15.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg15.N) (d) : (dat V c).before 2 t d = iblk V c 2 t :=
  before_2_of V (dat V c) (A_eq V c 2) (after_2 V c) t d

theorem before_3_of {c : Dev nD} (dat' : Dat τ (Elt F) Unit ℕ (UR sig nD τ) ℕ cfg15 c)
    (hA : dat'.A 3 = V c (Pipeline.arrRef spec15 3)) (hafter : ∀ t, dat'.after 3 t = iblk V c 3 t)
    (t : Fin cfg15.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg15.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg15.N) : sProp 𝕄 :=
  iprop((dat V c).Φ t.castSucc ∗ (dat V c).owesAt () t.castSucc
    ∗ (∃ d, owns (c : Thread nD τ) (st15_0 t) fullShare ((dat V c).before 0 t d))
    ∗ (∃ d, owns (c : Thread nD τ) (st15_1 t) fullShare ((dat V c).before 1 t d))
    ∗ (∃ d, owns (c : Thread nD τ) (st15_2 t) fullShare ((dat V c).before 2 t d))
    ∗ (∃ d, owns (c : Thread nD τ) (st15_3 t) fullShare ((dat V c).before 3 t d))
    ∗ (∃ d, owns (c : Thread nD τ) (st15_4 t) fullShare ((dat V c).before 4 t d)))

/-- and what it returns. -/
def bodyPost (c : Dev nD) (t : Fin cfg15.N) : sProp 𝕄 :=
  iprop((dat V c).Φ t.succ ∗ (dat V c).owesAt () t.succ
    ∗ owns (c : Thread nD τ) (st15_0 t) fullShare ((dat V c).after 0 t)
    ∗ owns (c : Thread nD τ) (st15_1 t) fullShare ((dat V c).after 1 t)
    ∗ owns (c : Thread nD τ) (st15_2 t) fullShare ((dat V c).after 2 t)
    ∗ owns (c : Thread nD τ) (st15_3 t) fullShare ((dat V c).after 3 t)
    ∗ owns (c : Thread nD τ) (st15_4 t) fullShare ((dat V c).after 4 t))

/-- The body at any point: the four inputs' buffers hold their blocks, so the body's triple applies; the invariant and
    the debt pass through unread. -/
theorem sound_body (c : Dev nD) (t : Fin cfg15.N) :
    bodyPre V c t ⊢ wp frame (wpE (defs₀ (F := F)) Variants.none c none) Set.univ (bodyAt15 t) (fun _ => bodyPost V c t) := by
  unfold bodyPre bodyPost bodyAt15
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W15, bigSep_W15]
  exact sound_body V c t

end Cert.ReferenceIdeal.Reg15
-- ==== Proof.RI.Seg15.lean ====
import proofs.«143011_g2000502688546152_pallasbulk_1201_3_alg».proof.Proof.RI.Reg15
import proofs.«143011_g2000502688546152_pallasbulk_1201_3_alg».proof.Proof.RI.Rest
import Idealize.ShloMosaic.Lib.Pipeline.Regions

/-! # Region 15 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg15

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec15 4)) ((dat (VW W) c).arrAt 4 cfg15.N)

theorem Wout_out (c : Dev nD) :
    Wout W c (Proc.devRef .tc (Pipeline.arrRef spec15 4)) = (dat (VW W) c).arrAt 4 cfg15.N := by
  unfold Wout; exact Function.update_self ..

theorem Wout_of_ne (c : Dev nD) (b : DevRef τ sig) (hb : b ≠ Proc.devRef .tc (Pipeline.arrRef spec15 4)) :
    Wout W c b = W c b := by
  unfold Wout; exact Function.update_of_ne hb ..

theorem Wout_of_ne_ref (c : Dev nD) (b : Ref sig .tc) (hb : b ≠ Pipeline.arrRef spec15 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec15)
    = {Pipeline.arrRef spec15 0, Pipeline.arrRef spec15 2, Pipeline.arrRef spec15 3, Pipeline.arrRef spec15 4} := by decide

/-- The pipeline's arrays at contents `G`, window by window: the input array at its two half shares, the rest whole. -/
theorem arrays_eq (c : Dev nD) (G : (w : Fin cfg15.W) → Buf (Elt F) ((cfg15.win w).arr.view.loc (c : Thread nD τ))) :
    ((dat (VW W) c).arrays G : sProp 𝕄) = iprop(
      (((c : Thread nD τ).loc (Pipeline.arrRef spec15 0)) ↦{fullShare.left} G 0)
      ∗ (((c : Thread nD τ).loc (Pipeline.arrRef spec15 1)) ↦{fullShare.right} G 1)
      ∗ (((c : Thread nD τ).loc (Pipeline.arrRef spec15 2)) ↦{fullShare} G 2)
      ∗ (((c : Thread nD τ).loc (Pipeline.arrRef spec15 3)) ↦{fullShare} G 3)
      ∗ (((c : Thread nD τ).loc (Pipeline.arrRef spec15 4)) ↦{fullShare} G 4)) := by
  have h : ((dat (VW W) c).arrays G : sProp 𝕄) = bigSep Finset.univ fun w =>
      (((c : Thread nD τ).loc (Pipeline.arrRef spec15 w)) ↦{(dat (VW W) c).share w} G w : sProp 𝕄) := by
    unfold Pipeline.Dat.arrays
    exact bigSep_congr fun w _ => by rw [(arr_whole15 w).set_eq_univ]
  rw [h, bigSep_W15, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec15 c X : sProp 𝕄) = iprop(
      (((c : Thread nD τ).loc (Pipeline.arrRef spec15 0)) ↦{fullShare} X (Pipeline.arrRef spec15 0))
      ∗ (((c : Thread nD τ).loc (Pipeline.arrRef spec15 2)) ↦{fullShare} X (Pipeline.arrRef spec15 2))
      ∗ (((c : Thread nD τ).loc (Pipeline.arrRef spec15 3)) ↦{fullShare} X (Pipeline.arrRef spec15 3))
      ∗ (((c : Thread nD τ).loc (Pipeline.arrRef spec15 4)) ↦{fullShare} X (Pipeline.arrRef spec15 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec15 c X ∗ Pipeline.unscopedRest spec15 c X) :=
  Pipeline.unscopedBufs_split₀ cfgs 15 winFacts₀15.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec15 1) = (c : Thread nD τ).loc (Pipeline.arrRef spec15 0) := rfl
theorem halves01 (c : Dev nD) :
    (((c : Thread nD τ).loc (Pipeline.arrRef spec15 0)) ↦{fullShare} VW W c (Pipeline.arrRef spec15 0) : sProp 𝕄)
      ⊣⊢ iprop((((c : Thread nD τ).loc (Pipeline.arrRef spec15 0)) ↦{fullShare.left} VW W c (Pipeline.arrRef spec15 0))
        ∗ (((c : Thread nD τ).loc (Pipeline.arrRef spec15 1)) ↦{fullShare.right} VW W c (Pipeline.arrRef spec15 1))) :=
  halves (loc_1 c) _ _ HEq.rfl

/-- An array's entry contents are what the region finds. -/
theorem arrAt_zero (c : Dev nD) (w : Fin cfg15.W) : (dat (VW W) c).arrAt w 0 = VW W c (Pipeline.arrRef spec15 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec15 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec15 c (fun b => Wout W c b) : sProp 𝕄) = iprop(
      (((c : Thread nD τ).loc (Pipeline.arrRef spec15 0)) ↦{fullShare} VW W c (Pipeline.arrRef spec15 0))
      ∗ (((c : Thread nD τ).loc (Pipeline.arrRef spec15 2)) ↦{fullShare} VW W c (Pipeline.arrRef spec15 2))
      ∗ (((c : Thread nD τ).loc (Pipeline.arrRef spec15 3)) ↦{fullShare} VW W c (Pipeline.arrRef spec15 3))
      ∗ (((c : Thread nD τ).loc (Pipeline.arrRef spec15 4)) ↦{fullShare} (dat (VW W) c).arrAt 4 cfg15.N)) := by
  rw [arrBufs_eq]
  rw [Wout_of_ne_ref W c (Pipeline.arrRef spec15 0) (by decide)]
  rw [Wout_of_ne_ref W c (Pipeline.arrRef spec15 2) (by decide)]
  rw [Wout_of_ne_ref W c (Pipeline.arrRef spec15 3) (by decide)]
  rw [Wout_out]

/-- The buffers that are no array of the region hold at the exit what they held at entry. -/
theorem rest_out (c : Dev nD) :
    (Pipeline.unscopedRest spec15 c (fun b => Wout W c b) : sProp 𝕄) = Pipeline.unscopedRest spec15 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg15.N) : sProp 𝕄) = iprop(
      (((c : Thread nD τ).loc (Pipeline.arrRef spec15 0)) ↦{fullShare.left} VW W c (Pipeline.arrRef spec15 0))
      ∗ (((c : Thread nD τ).loc (Pipeline.arrRef spec15 1)) ↦{fullShare.right} VW W c (Pipeline.arrRef spec15 1))
      ∗ (((c : Thread nD τ).loc (Pipeline.arrRef spec15 2)) ↦{fullShare} VW W c (Pipeline.arrRef spec15 2))
      ∗ (((c : Thread nD τ).loc (Pipeline.arrRef spec15 3)) ↦{fullShare} VW W c (Pipeline.arrRef spec15 3))
      ∗ (((c : Thread nD τ).loc (Pipeline.arrRef spec15 4)) ↦{fullShare} (dat (VW W) c).arrAt 4 cfg15.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg15.N) ∗ Pipeline.unscopedRest spec15 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 15 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 15 = fun c => dat (VW W) c) :
    RegionSeg (pcfgs (F := F)) adm pdats () defs₀ Variants.none L lv 15 where
  win := winFacts₀15
  block_pos := block_pos15
  stage_whole := stage_whole15
  K := PEmpty
  osem k := k.elim
  ho := Pipeline.OwnSemFacts.none _
  hbody c := by rw [hp]; exact (body_obligation (VW W) c).loose
  hwaits := Pipeline.hwaits_of_owed_zero _ _ _ _ L lv 15 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec15 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 15 c).Φ 0 = Pipeline.ΦA spec15 c := by rw [hp]; exact Φ_eq _ c 0
    rw [hΦ]; unfold Pipeline.ΦA
    iintro ⟨Hp, -, Hr⟩
    isplitl [Hr]; · iexact Hr
    iexact Hp
  hout c := by
    have hΦ : (pdats 15 c).Φ (Fin.last _) = Pipeline.ΦA spec15 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg15

end
-- ==== Proof.RI.Reg16.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 16: a 3×3 convolution with bias and ReLU over one row tile per grid point

The grid is (image n, row tile r), 16 × 4 points. Windows 0 and 1 are the row tiles r and r+1 of ONE zero-padded
input array [16, 70, 64, 256]; window 2 is the whole kernel array [3, 3, 256, 256]; window 3 the bias [1, 256]; window 4
the output's row tile r of [16, 56, 56, 256]. The body flattens the two input tiles to rows of 64·14 pixels, appends
64 zero rows, and adds nine matrix products — one per tap (dy, dx), each a row-shifted slab against the tap's
[256, 256] matrix —, then the bias, then the maximum with zero, and keeps the first 56 columns of each row. -/

set_option maxRecDepth 16384

noncomputable section

namespace Cert.ReferenceIdeal.Reg16

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg16.W) (t : Fin cfg16.N) :
    ((cfg16.win w).xblock (cfg16.grid.coords t)).Idx → Elt F (cfg16.win w).elt :=
  ((cfg16.win w).blk t).view.read (Elt F) (V c (Pipeline.arrRef spec16 w))

/-! ## The taps -/

/-- The [1, 1, 256, 256] rectangle of the kernel array at tap (dy, dx). -/
abbrev tapRect (dy dx : Nat) (h : ∀ a, ![dy, dx, 0, 0] a + S1x1x256x256.size a ≤ S3x3x256x256.size a) : Rect S3x3x256x256 :=
  Rect.unit (s := S3x3x256x256) ![dy, dx, 0, 0] S1x1x256x256.size h

/-- The whole input tile and the whole bias row, as the body loads them. -/
abbrev rIn : Rect S1x14x64x256 :=
  Rect.unit (s := S1x14x64x256) ![0, 0, 0, 0] S1x14x64x256.size inb_S1x14x64x256_S1x14x64x256_0_0_0_0
abbrev rBias : Rect S1x256 := Rect.unit (s := S1x256) ![0, 0] S1x256.size inb_S1x256_S1x256_0_0

/-! ## What the body leaves in the output window's buffer -/

/-- The output tile from the two input tiles `xa`, `xb`, the kernel array `wk` and the bias `b`: the sum of the nine
    taps' matrix products in the order (0,0), (0,1), …, (2,2), plus the bias, clamped below at zero, cut to 56 columns. -/
def out (xa xb : Vec F S1x14x64x256 .f32) (wk : Vec F S3x3x256x256 .f32) (b : Vec F S1x256 .f32) : Vec F S1x14x56x256 .f32 :=
  k16_pay1
    (k16_pay8 (k16_pay2 (View.ld xa rIn) (View.ld xb rIn)) (k16_pay3 (View.ld xa rIn) (View.ld xb rIn))
      (k16_pay4 (View.ld xa rIn) (View.ld xb rIn))
      (k16_pay5 (View.ld xa rIn) (View.ld xb rIn)
        (View.ld wk (tapRect 0 0 inb_S3x3x256x256_S1x1x256x256_0_0_0_0))
        (View.ld wk (tapRect 0 1 inb_S3x3x256x256_S1x1x256x256_0_1_0_0))
        (View.ld wk (tapRect 0 2 inb_S3x3x256x256_S1x1x256x256_0_2_0_0)))
      (k16_pay6 (View.ld xa rIn) (View.ld xb rIn))
      (k16_pay7 (View.ld wk (tapRect 1 0 inb_S3x3x256x256_S1x1x256x256_1_0_0_0)))
      (View.ld wk (tapRect 1 1 inb_S3x3x256x256_S1x1x256x256_1_1_0_0))
      (View.ld wk (tapRect 1 2 inb_S3x3x256x256_S1x1x256x256_1_2_0_0))
      (View.ld wk (tapRect 2 0 inb_S3x3x256x256_S1x1x256x256_2_0_0_0))
      (View.ld wk (tapRect 2 1 inb_S3x3x256x256_S1x1x256x256_2_1_0_0))
      (View.ld wk (tapRect 2 2 inb_S3x3x256x256_S1x1x256x256_2_2_0_0))
      (View.ld b rBias))
    (k16_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg16 c where
  A w := V c (Pipeline.arrRef spec16 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec16 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg16.W) : (dat V c).A w = V c (Pipeline.arrRef spec16 w) := by
  dsimp only [dat]

theorem after_0 (c : Dev nD) (t : Fin cfg16.N) : (dat V c).after 0 t = iblk V c 0 t := by dsimp only [dat]
theorem after_1 (c : Dev nD) (t : Fin cfg16.N) : (dat V c).after 1 t = iblk V c 1 t := by dsimp only [dat]
theorem after_2 (c : Dev nD) (t : Fin cfg16.N) : (dat V c).after 2 t = iblk V c 2 t := by dsimp only [dat]
theorem after_3 (c : Dev nD) (t : Fin cfg16.N) : (dat V c).after 3 t = iblk V c 3 t := by dsimp only [dat]
theorem after_4 (c : Dev nD) (t : Fin cfg16.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x14x56x256 :=
  Rect.unit (s := S1x14x56x256) ![0, 0, 0, 0] S1x14x56x256.size inb_S1x14x56x256_S1x14x56x256_0_0_0_0

theorem hz4 : (![0, 0, 0, 0] : Fin 4 → Nat) = fun _ => 0 := funext fun a => by fin_cases a <;> rfl

/-- The one store covers the output tile. -/
theorem cover_out (p : Vec F S1x14x56x256 .f32) (y : S1x14x56x256.Idx) :
    ∃ pc ∈ ([⟨rOut, p⟩] : List (View.Piece (Elt F) S1x14x56x256 .f32)), y ∈ pc.1.set :=
  View.cover_of_tiled [⟨rOut, p⟩] S1x14x56x256.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid16.Coords)
    (arg2 : Memref sig .tc .vmem S1x14x64x256 .f32) (harg2 : arg2.IsWhole)
    (arg3 : Memref sig .tc .vmem S1x14x64x256 .f32) (harg3 : arg3.IsWhole)
    (arg4 : Memref sig .tc .vmem S3x3x256x256 .f32) (harg4 : arg4.IsWhole)
    (arg5 : Memref sig .tc .vmem S1x256 .f32) (harg5 : arg5.IsWhole)
    (arg6 : Memref sig .tc .vmem S1x14x56x256 .f32) (harg6 : arg6.IsWhole)
    (xa xb : Vec F S1x14x64x256 .f32) (wk : Vec F S3x3x256x256 .f32) (b : Vec F S1x256 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc16__conv3x3_relu_kernel i arg2 harg2 arg3 harg3 arg4 harg4 arg5 harg5 arg6 harg6) K := by
  sl_unfold [cc16__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg16.N + 1)) : (dat V c).Φ t = Pipeline.ΦA spec16 c := by dsimp only [dat]
theorem owed_eq (c : Dev nD) (t : Fin (cfg16.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg16 c)
    (hA : dat'.A 0 = V c (Pipeline.arrRef spec16 0)) (hafter : ∀ t, dat'.after 0 t = iblk V c 0 t)
    (t : Fin cfg16.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg16.N) (d) : (dat V c).before 0 t d = iblk V c 0 t :=
  before_0_of V (dat V c) (A_eq V c 0) (after_0 V c) t d

theorem before_1_of {c : Dev nD} (dat' : Dat τ (Elt F) Unit ℕ (UR sig nD τ) ℕ cfg16 c)
    (hA : dat'.A 1 = V c (Pipeline.arrRef spec16 1)) (hafter : ∀ t, dat'.after 1 t = iblk V c 1 t)
    (t : Fin cfg16.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg16.N) (d) : (dat V c).before 1 t d = iblk V c 1 t :=
  before_1_of V (dat V c) (A_eq V c 1) (after_1 V c) t d

theorem before_2_of {c : Dev nD} (dat' : Dat τ (Elt F) Unit ℕ (UR sig nD τ) ℕ cfg16 c)
    (hA : dat'.A 2 = V c (Pipeline.arrRef spec16 2)) (hafter : ∀ t, dat'.after 2 t = iblk V c 2 t)
    (t : Fin cfg16.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg16.N) (d) : (dat V c).before 2 t d = iblk V c 2 t :=
  before_2_of V (dat V c) (A_eq V c 2) (after_2 V c) t d

theorem before_3_of {c : Dev nD} (dat' : Dat τ (Elt F) Unit ℕ (UR sig nD τ) ℕ cfg16 c)
    (hA : dat'.A 3 = V c (Pipeline.arrRef spec16 3)) (hafter : ∀ t, dat'.after 3 t = iblk V c 3 t)
    (t : Fin cfg16.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg16.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg16.N) : sProp 𝕄 :=
  iprop((dat V c).Φ t.castSucc ∗ (dat V c).owesAt () t.castSucc
    ∗ (∃ d, owns (c : Thread nD τ) (st16_0 t) fullShare ((dat V c).before 0 t d))
    ∗ (∃ d, owns (c : Thread nD τ) (st16_1 t) fullShare ((dat V c).before 1 t d))
    ∗ (∃ d, owns (c : Thread nD τ) (st16_2 t) fullShare ((dat V c).before 2 t d))
    ∗ (∃ d, owns (c : Thread nD τ) (st16_3 t) fullShare ((dat V c).before 3 t d))
    ∗ (∃ d, owns (c : Thread nD τ) (st16_4 t) fullShare ((dat V c).before 4 t d)))

/-- and what it returns. -/
def bodyPost (c : Dev nD) (t : Fin cfg16.N) : sProp 𝕄 :=
  iprop((dat V c).Φ t.succ ∗ (dat V c).owesAt () t.succ
    ∗ owns (c : Thread nD τ) (st16_0 t) fullShare ((dat V c).after 0 t)
    ∗ owns (c : Thread nD τ) (st16_1 t) fullShare ((dat V c).after 1 t)
    ∗ owns (c : Thread nD τ) (st16_2 t) fullShare ((dat V c).after 2 t)
    ∗ owns (c : Thread nD τ) (st16_3 t) fullShare ((dat V c).after 3 t)
    ∗ owns (c : Thread nD τ) (st16_4 t) fullShare ((dat V c).after 4 t))

/-- The body at any point: the four inputs' buffers hold their blocks, so the body's triple applies; the invariant and
    the debt pass through unread. -/
theorem sound_body (c : Dev nD) (t : Fin cfg16.N) :
    bodyPre V c t ⊢ wp frame (wpE (defs₀ (F := F)) Variants.none c none) Set.univ (bodyAt16 t) (fun _ => bodyPost V c t) := by
  unfold bodyPre bodyPost bodyAt16
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W16, bigSep_W16]
  exact sound_body V c t

end Cert.ReferenceIdeal.Reg16
-- ==== Proof.RI.Seg16.lean ====
import proofs.«143011_g2000502688546152_pallasbulk_1201_3_alg».proof.Proof.RI.Reg16
import proofs.«143011_g2000502688546152_pallasbulk_1201_3_alg».proof.Proof.RI.Rest
import Idealize.ShloMosaic.Lib.Pipeline.Regions

/-! # Region 16 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg16

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec16 4)) ((dat (VW W) c).arrAt 4 cfg16.N)

theorem Wout_out (c : Dev nD) :
    Wout W c (Proc.devRef .tc (Pipeline.arrRef spec16 4)) = (dat (VW W) c).arrAt 4 cfg16.N := by
  unfold Wout; exact Function.update_self ..

theorem Wout_of_ne (c : Dev nD) (b : DevRef τ sig) (hb : b ≠ Proc.devRef .tc (Pipeline.arrRef spec16 4)) :
    Wout W c b = W c b := by
  unfold Wout; exact Function.update_of_ne hb ..

theorem Wout_of_ne_ref (c : Dev nD) (b : Ref sig .tc) (hb : b ≠ Pipeline.arrRef spec16 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec16)
    = {Pipeline.arrRef spec16 0, Pipeline.arrRef spec16 2, Pipeline.arrRef spec16 3, Pipeline.arrRef spec16 4} := by decide

/-- The pipeline's arrays at contents `G`, window by window: the input array at its two half shares, the rest whole. -/
theorem arrays_eq (c : Dev nD) (G : (w : Fin cfg16.W) → Buf (Elt F) ((cfg16.win w).arr.view.loc (c : Thread nD τ))) :
    ((dat (VW W) c).arrays G : sProp 𝕄) = iprop(
      (((c : Thread nD τ).loc (Pipeline.arrRef spec16 0)) ↦{fullShare.left} G 0)
      ∗ (((c : Thread nD τ).loc (Pipeline.arrRef spec16 1)) ↦{fullShare.right} G 1)
      ∗ (((c : Thread nD τ).loc (Pipeline.arrRef spec16 2)) ↦{fullShare} G 2)
      ∗ (((c : Thread nD τ).loc (Pipeline.arrRef spec16 3)) ↦{fullShare} G 3)
      ∗ (((c : Thread nD τ).loc (Pipeline.arrRef spec16 4)) ↦{fullShare} G 4)) := by
  have h : ((dat (VW W) c).arrays G : sProp 𝕄) = bigSep Finset.univ fun w =>
      (((c : Thread nD τ).loc (Pipeline.arrRef spec16 w)) ↦{(dat (VW W) c).share w} G w : sProp 𝕄) := by
    unfold Pipeline.Dat.arrays
    exact bigSep_congr fun w _ => by rw [(arr_whole16 w).set_eq_univ]
  rw [h, bigSep_W16, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec16 c X : sProp 𝕄) = iprop(
      (((c : Thread nD τ).loc (Pipeline.arrRef spec16 0)) ↦{fullShare} X (Pipeline.arrRef spec16 0))
      ∗ (((c : Thread nD τ).loc (Pipeline.arrRef spec16 2)) ↦{fullShare} X (Pipeline.arrRef spec16 2))
      ∗ (((c : Thread nD τ).loc (Pipeline.arrRef spec16 3)) ↦{fullShare} X (Pipeline.arrRef spec16 3))
      ∗ (((c : Thread nD τ).loc (Pipeline.arrRef spec16 4)) ↦{fullShare} X (Pipeline.arrRef spec16 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec16 c X ∗ Pipeline.unscopedRest spec16 c X) :=
  Pipeline.unscopedBufs_split₀ cfgs 16 winFacts₀16.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec16 1) = (c : Thread nD τ).loc (Pipeline.arrRef spec16 0) := rfl
theorem halves01 (c : Dev nD) :
    (((c : Thread nD τ).loc (Pipeline.arrRef spec16 0)) ↦{fullShare} VW W c (Pipeline.arrRef spec16 0) : sProp 𝕄)
      ⊣⊢ iprop((((c : Thread nD τ).loc (Pipeline.arrRef spec16 0)) ↦{fullShare.left} VW W c (Pipeline.arrRef spec16 0))
        ∗ (((c : Thread nD τ).loc (Pipeline.arrRef spec16 1)) ↦{fullShare.right} VW W c (Pipeline.arrRef spec16 1))) :=
  halves (loc_1 c) _ _ HEq.rfl

/-- An array's entry contents are what the region finds. -/
theorem arrAt_zero (c : Dev nD) (w : Fin cfg16.W) : (dat (VW W) c).arrAt w 0 = VW W c (Pipeline.arrRef spec16 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec16 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec16 c (fun b => Wout W c b) : sProp 𝕄) = iprop(
      (((c : Thread nD τ).loc (Pipeline.arrRef spec16 0)) ↦{fullShare} VW W c (Pipeline.arrRef spec16 0))
      ∗ (((c : Thread nD τ).loc (Pipeline.arrRef spec16 2)) ↦{fullShare} VW W c (Pipeline.arrRef spec16 2))
      ∗ (((c : Thread nD τ).loc (Pipeline.arrRef spec16 3)) ↦{fullShare} VW W c (Pipeline.arrRef spec16 3))
      ∗ (((c : Thread nD τ).loc (Pipeline.arrRef spec16 4)) ↦{fullShare} (dat (VW W) c).arrAt 4 cfg16.N)) := by
  rw [arrBufs_eq]
  rw [Wout_of_ne_ref W c (Pipeline.arrRef spec16 0) (by decide)]
  rw [Wout_of_ne_ref W c (Pipeline.arrRef spec16 2) (by decide)]
  rw [Wout_of_ne_ref W c (Pipeline.arrRef spec16 3) (by decide)]
  rw [Wout_out]

/-- The buffers that are no array of the region hold at the exit what they held at entry. -/
theorem rest_out (c : Dev nD) :
    (Pipeline.unscopedRest spec16 c (fun b => Wout W c b) : sProp 𝕄) = Pipeline.unscopedRest spec16 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg16.N) : sProp 𝕄) = iprop(
      (((c : Thread nD τ).loc (Pipeline.arrRef spec16 0)) ↦{fullShare.left} VW W c (Pipeline.arrRef spec16 0))
      ∗ (((c : Thread nD τ).loc (Pipeline.arrRef spec16 1)) ↦{fullShare.right} VW W c (Pipeline.arrRef spec16 1))
      ∗ (((c : Thread nD τ).loc (Pipeline.arrRef spec16 2)) ↦{fullShare} VW W c (Pipeline.arrRef spec16 2))
      ∗ (((c : Thread nD τ).loc (Pipeline.arrRef spec16 3)) ↦{fullShare} VW W c (Pipeline.arrRef spec16 3))
      ∗ (((c : Thread nD τ).loc (Pipeline.arrRef spec16 4)) ↦{fullShare} (dat (VW W) c).arrAt 4 cfg16.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg16.N) ∗ Pipeline.unscopedRest spec16 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 16 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 16 = fun c => dat (VW W) c) :
    RegionSeg (pcfgs (F := F)) adm pdats () defs₀ Variants.none L lv 16 where
  win := winFacts₀16
  block_pos := block_pos16
  stage_whole := stage_whole16
  K := PEmpty
  osem k := k.elim
  ho := Pipeline.OwnSemFacts.none _
  hbody c := by rw [hp]; exact (body_obligation (VW W) c).loose
  hwaits := Pipeline.hwaits_of_owed_zero _ _ _ _ L lv 16 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec16 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 16 c).Φ 0 = Pipeline.ΦA spec16 c := by rw [hp]; exact Φ_eq _ c 0
    rw [hΦ]; unfold Pipeline.ΦA
    iintro ⟨Hp, -, Hr⟩
    isplitl [Hr]; · iexact Hr
    iexact Hp
  hout c := by
    have hΦ : (pdats 16 c).Φ (Fin.last _) = Pipeline.ΦA spec16 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg16

end
-- ==== Proof.RI.Reg17.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 17: a 3×3 convolution with bias and ReLU over one row tile per grid point

The grid is (image n, row tile r), 16 × 4 points. Windows 0 and 1 are the row tiles r and r+1 of ONE zero-padded
input array [16, 70, 64, 256]; window 2 is the whole kernel array [3, 3, 256, 256]; window 3 the bias [1, 256]; window 4
the output's row tile r of [16, 56, 56, 256]. The body flattens the two input tiles to rows of 64·14 pixels, appends
64 zero rows, and adds nine matrix products — one per tap (dy, dx), each a row-shifted slab against the tap's
[256, 256] matrix —, then the bias, then the maximum with zero, and keeps the first 56 columns of each row. -/

set_option maxRecDepth 16384

noncomputable section

namespace Cert.ReferenceIdeal.Reg17

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg17.W) (t : Fin cfg17.N) :
    ((cfg17.win w).xblock (cfg17.grid.coords t)).Idx → Elt F (cfg17.win w).elt :=
  ((cfg17.win w).blk t).view.read (Elt F) (V c (Pipeline.arrRef spec17 w))

/-! ## The taps -/

/-- The [1, 1, 256, 256] rectangle of the kernel array at tap (dy, dx). -/
abbrev tapRect (dy dx : Nat) (h : ∀ a, ![dy, dx, 0, 0] a + S1x1x256x256.size a ≤ S3x3x256x256.size a) : Rect S3x3x256x256 :=
  Rect.unit (s := S3x3x256x256) ![dy, dx, 0, 0] S1x1x256x256.size h

/-- The whole input tile and the whole bias row, as the body loads them. -/
abbrev rIn : Rect S1x14x64x256 :=
  Rect.unit (s := S1x14x64x256) ![0, 0, 0, 0] S1x14x64x256.size inb_S1x14x64x256_S1x14x64x256_0_0_0_0
abbrev rBias : Rect S1x256 := Rect.unit (s := S1x256) ![0, 0] S1x256.size inb_S1x256_S1x256_0_0

/-! ## What the body leaves in the output window's buffer -/

/-- The output tile from the two input tiles `xa`, `xb`, the kernel array `wk` and the bias `b`: the sum of the nine
    taps' matrix products in the order (0,0), (0,1), …, (2,2), plus the bias, clamped below at zero, cut to 56 columns. -/
def out (xa xb : Vec F S1x14x64x256 .f32) (wk : Vec F S3x3x256x256 .f32) (b : Vec F S1x256 .f32) : Vec F S1x14x56x256 .f32 :=
  k17_pay1
    (k17_pay8 (k17_pay2 (View.ld xa rIn) (View.ld xb rIn)) (k17_pay3 (View.ld xa rIn) (View.ld xb rIn))
      (k17_pay4 (View.ld xa rIn) (View.ld xb rIn))
      (k17_pay5 (View.ld xa rIn) (View.ld xb rIn)
        (View.ld wk (tapRect 0 0 inb_S3x3x256x256_S1x1x256x256_0_0_0_0))
        (View.ld wk (tapRect 0 1 inb_S3x3x256x256_S1x1x256x256_0_1_0_0))
        (View.ld wk (tapRect 0 2 inb_S3x3x256x256_S1x1x256x256_0_2_0_0)))
      (k17_pay6 (View.ld xa rIn) (View.ld xb rIn))
      (k17_pay7 (View.ld wk (tapRect 1 0 inb_S3x3x256x256_S1x1x256x256_1_0_0_0)))
      (View.ld wk (tapRect 1 1 inb_S3x3x256x256_S1x1x256x256_1_1_0_0))
      (View.ld wk (tapRect 1 2 inb_S3x3x256x256_S1x1x256x256_1_2_0_0))
      (View.ld wk (tapRect 2 0 inb_S3x3x256x256_S1x1x256x256_2_0_0_0))
      (View.ld wk (tapRect 2 1 inb_S3x3x256x256_S1x1x256x256_2_1_0_0))
      (View.ld wk (tapRect 2 2 inb_S3x3x256x256_S1x1x256x256_2_2_0_0))
      (View.ld b rBias))
    (k17_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg17 c where
  A w := V c (Pipeline.arrRef spec17 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec17 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg17.W) : (dat V c).A w = V c (Pipeline.arrRef spec17 w) := by
  dsimp only [dat]

theorem after_0 (c : Dev nD) (t : Fin cfg17.N) : (dat V c).after 0 t = iblk V c 0 t := by dsimp only [dat]
theorem after_1 (c : Dev nD) (t : Fin cfg17.N) : (dat V c).after 1 t = iblk V c 1 t := by dsimp only [dat]
theorem after_2 (c : Dev nD) (t : Fin cfg17.N) : (dat V c).after 2 t = iblk V c 2 t := by dsimp only [dat]
theorem after_3 (c : Dev nD) (t : Fin cfg17.N) : (dat V c).after 3 t = iblk V c 3 t := by dsimp only [dat]
theorem after_4 (c : Dev nD) (t : Fin cfg17.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x14x56x256 :=
  Rect.unit (s := S1x14x56x256) ![0, 0, 0, 0] S1x14x56x256.size inb_S1x14x56x256_S1x14x56x256_0_0_0_0

theorem hz4 : (![0, 0, 0, 0] : Fin 4 → Nat) = fun _ => 0 := funext fun a => by fin_cases a <;> rfl

/-- The one store covers the output tile. -/
theorem cover_out (p : Vec F S1x14x56x256 .f32) (y : S1x14x56x256.Idx) :
    ∃ pc ∈ ([⟨rOut, p⟩] : List (View.Piece (Elt F) S1x14x56x256 .f32)), y ∈ pc.1.set :=
  View.cover_of_tiled [⟨rOut, p⟩] S1x14x56x256.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid17.Coords)
    (arg2 : Memref sig .tc .vmem S1x14x64x256 .f32) (harg2 : arg2.IsWhole)
    (arg3 : Memref sig .tc .vmem S1x14x64x256 .f32) (harg3 : arg3.IsWhole)
    (arg4 : Memref sig .tc .vmem S3x3x256x256 .f32) (harg4 : arg4.IsWhole)
    (arg5 : Memref sig .tc .vmem S1x256 .f32) (harg5 : arg5.IsWhole)
    (arg6 : Memref sig .tc .vmem S1x14x56x256 .f32) (harg6 : arg6.IsWhole)
    (xa xb : Vec F S1x14x64x256 .f32) (wk : Vec F S3x3x256x256 .f32) (b : Vec F S1x256 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc17__conv3x3_relu_kernel i arg2 harg2 arg3 harg3 arg4 harg4 arg5 harg5 arg6 harg6) K := by
  sl_unfold [cc17__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg17.N + 1)) : (dat V c).Φ t = Pipeline.ΦA spec17 c := by dsimp only [dat]
theorem owed_eq (c : Dev nD) (t : Fin (cfg17.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg17 c)
    (hA : dat'.A 0 = V c (Pipeline.arrRef spec17 0)) (hafter : ∀ t, dat'.after 0 t = iblk V c 0 t)
    (t : Fin cfg17.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg17.N) (d) : (dat V c).before 0 t d = iblk V c 0 t :=
  before_0_of V (dat V c) (A_eq V c 0) (after_0 V c) t d

theorem before_1_of {c : Dev nD} (dat' : Dat τ (Elt F) Unit ℕ (UR sig nD τ) ℕ cfg17 c)
    (hA : dat'.A 1 = V c (Pipeline.arrRef spec17 1)) (hafter : ∀ t, dat'.after 1 t = iblk V c 1 t)
    (t : Fin cfg17.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg17.N) (d) : (dat V c).before 1 t d = iblk V c 1 t :=
  before_1_of V (dat V c) (A_eq V c 1) (after_1 V c) t d

theorem before_2_of {c : Dev nD} (dat' : Dat τ (Elt F) Unit ℕ (UR sig nD τ) ℕ cfg17 c)
    (hA : dat'.A 2 = V c (Pipeline.arrRef spec17 2)) (hafter : ∀ t, dat'.after 2 t = iblk V c 2 t)
    (t : Fin cfg17.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg17.N) (d) : (dat V c).before 2 t d = iblk V c 2 t :=
  before_2_of V (dat V c) (A_eq V c 2) (after_2 V c) t d

theorem before_3_of {c : Dev nD} (dat' : Dat τ (Elt F) Unit ℕ (UR sig nD τ) ℕ cfg17 c)
    (hA : dat'.A 3 = V c (Pipeline.arrRef spec17 3)) (hafter : ∀ t, dat'.after 3 t = iblk V c 3 t)
    (t : Fin cfg17.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg17.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg17.N) : sProp 𝕄 :=
  iprop((dat V c).Φ t.castSucc ∗ (dat V c).owesAt () t.castSucc
    ∗ (∃ d, owns (c : Thread nD τ) (st17_0 t) fullShare ((dat V c).before 0 t d))
    ∗ (∃ d, owns (c : Thread nD τ) (st17_1 t) fullShare ((dat V c).before 1 t d))
    ∗ (∃ d, owns (c : Thread nD τ) (st17_2 t) fullShare ((dat V c).before 2 t d))
    ∗ (∃ d, owns (c : Thread nD τ) (st17_3 t) fullShare ((dat V c).before 3 t d))
    ∗ (∃ d, owns (c : Thread nD τ) (st17_4 t) fullShare ((dat V c).before 4 t d)))

/-- and what it returns. -/
def bodyPost (c : Dev nD) (t : Fin cfg17.N) : sProp 𝕄 :=
  iprop((dat V c).Φ t.succ ∗ (dat V c).owesAt () t.succ
    ∗ owns (c : Thread nD τ) (st17_0 t) fullShare ((dat V c).after 0 t)
    ∗ owns (c : Thread nD τ) (st17_1 t) fullShare ((dat V c).after 1 t)
    ∗ owns (c : Thread nD τ) (st17_2 t) fullShare ((dat V c).after 2 t)
    ∗ owns (c : Thread nD τ) (st17_3 t) fullShare ((dat V c).after 3 t)
    ∗ owns (c : Thread nD τ) (st17_4 t) fullShare ((dat V c).after 4 t))

/-- The body at any point: the four inputs' buffers hold their blocks, so the body's triple applies; the invariant and
    the debt pass through unread. -/
theorem sound_body (c : Dev nD) (t : Fin cfg17.N) :
    bodyPre V c t ⊢ wp frame (wpE (defs₀ (F := F)) Variants.none c none) Set.univ (bodyAt17 t) (fun _ => bodyPost V c t) := by
  unfold bodyPre bodyPost bodyAt17
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W17, bigSep_W17]
  exact sound_body V c t

end Cert.ReferenceIdeal.Reg17
-- ==== Proof.RI.Seg17.lean ====
import proofs.«143011_g2000502688546152_pallasbulk_1201_3_alg».proof.Proof.RI.Reg17
import proofs.«143011_g2000502688546152_pallasbulk_1201_3_alg».proof.Proof.RI.Rest
import Idealize.ShloMosaic.Lib.Pipeline.Regions

/-! # Region 17 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg17

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec17 4)) ((dat (VW W) c).arrAt 4 cfg17.N)

theorem Wout_out (c : Dev nD) :
    Wout W c (Proc.devRef .tc (Pipeline.arrRef spec17 4)) = (dat (VW W) c).arrAt 4 cfg17.N := by
  unfold Wout; exact Function.update_self ..

theorem Wout_of_ne (c : Dev nD) (b : DevRef τ sig) (hb : b ≠ Proc.devRef .tc (Pipeline.arrRef spec17 4)) :
    Wout W c b = W c b := by
  unfold Wout; exact Function.update_of_ne hb ..

theorem Wout_of_ne_ref (c : Dev nD) (b : Ref sig .tc) (hb : b ≠ Pipeline.arrRef spec17 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec17)
    = {Pipeline.arrRef spec17 0, Pipeline.arrRef spec17 2, Pipeline.arrRef spec17 3, Pipeline.arrRef spec17 4} := by decide

/-- The pipeline's arrays at contents `G`, window by window: the input array at its two half shares, the rest whole. -/
theorem arrays_eq (c : Dev nD) (G : (w : Fin cfg17.W) → Buf (Elt F) ((cfg17.win w).arr.view.loc (c : Thread nD τ))) :
    ((dat (VW W) c).arrays G : sProp 𝕄) = iprop(
      (((c : Thread nD τ).loc (Pipeline.arrRef spec17 0)) ↦{fullShare.left} G 0)
      ∗ (((c : Thread nD τ).loc (Pipeline.arrRef spec17 1)) ↦{fullShare.right} G 1)
      ∗ (((c : Thread nD τ).loc (Pipeline.arrRef spec17 2)) ↦{fullShare} G 2)
      ∗ (((c : Thread nD τ).loc (Pipeline.arrRef spec17 3)) ↦{fullShare} G 3)
      ∗ (((c : Thread nD τ).loc (Pipeline.arrRef spec17 4)) ↦{fullShare} G 4)) := by
  have h : ((dat (VW W) c).arrays G : sProp 𝕄) = bigSep Finset.univ fun w =>
      (((c : Thread nD τ).loc (Pipeline.arrRef spec17 w)) ↦{(dat (VW W) c).share w} G w : sProp 𝕄) := by
    unfold Pipeline.Dat.arrays
    exact bigSep_congr fun w _ => by rw [(arr_whole17 w).set_eq_univ]
  rw [h, bigSep_W17, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec17 c X : sProp 𝕄) = iprop(
      (((c : Thread nD τ).loc (Pipeline.arrRef spec17 0)) ↦{fullShare} X (Pipeline.arrRef spec17 0))
      ∗ (((c : Thread nD τ).loc (Pipeline.arrRef spec17 2)) ↦{fullShare} X (Pipeline.arrRef spec17 2))
      ∗ (((c : Thread nD τ).loc (Pipeline.arrRef spec17 3)) ↦{fullShare} X (Pipeline.arrRef spec17 3))
      ∗ (((c : Thread nD τ).loc (Pipeline.arrRef spec17 4)) ↦{fullShare} X (Pipeline.arrRef spec17 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec17 c X ∗ Pipeline.unscopedRest spec17 c X) :=
  Pipeline.unscopedBufs_split₀ cfgs 17 winFacts₀17.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec17 1) = (c : Thread nD τ).loc (Pipeline.arrRef spec17 0) := rfl
theorem halves01 (c : Dev nD) :
    (((c : Thread nD τ).loc (Pipeline.arrRef spec17 0)) ↦{fullShare} VW W c (Pipeline.arrRef spec17 0) : sProp 𝕄)
      ⊣⊢ iprop((((c : Thread nD τ).loc (Pipeline.arrRef spec17 0)) ↦{fullShare.left} VW W c (Pipeline.arrRef spec17 0))
        ∗ (((c : Thread nD τ).loc (Pipeline.arrRef spec17 1)) ↦{fullShare.right} VW W c (Pipeline.arrRef spec17 1))) :=
  halves (loc_1 c) _ _ HEq.rfl

/-- An array's entry contents are what the region finds. -/
theorem arrAt_zero (c : Dev nD) (w : Fin cfg17.W) : (dat (VW W) c).arrAt w 0 = VW W c (Pipeline.arrRef spec17 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec17 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec17 c (fun b => Wout W c b) : sProp 𝕄) = iprop(
      (((c : Thread nD τ).loc (Pipeline.arrRef spec17 0)) ↦{fullShare} VW W c (Pipeline.arrRef spec17 0))
      ∗ (((c : Thread nD τ).loc (Pipeline.arrRef spec17 2)) ↦{fullShare} VW W c (Pipeline.arrRef spec17 2))
      ∗ (((c : Thread nD τ).loc (Pipeline.arrRef spec17 3)) ↦{fullShare} VW W c (Pipeline.arrRef spec17 3))
      ∗ (((c : Thread nD τ).loc (Pipeline.arrRef spec17 4)) ↦{fullShare} (dat (VW W) c).arrAt 4 cfg17.N)) := by
  rw [arrBufs_eq]
  rw [Wout_of_ne_ref W c (Pipeline.arrRef spec17 0) (by decide)]
  rw [Wout_of_ne_ref W c (Pipeline.arrRef spec17 2) (by decide)]
  rw [Wout_of_ne_ref W c (Pipeline.arrRef spec17 3) (by decide)]
  rw [Wout_out]

/-- The buffers that are no array of the region hold at the exit what they held at entry. -/
theorem rest_out (c : Dev nD) :
    (Pipeline.unscopedRest spec17 c (fun b => Wout W c b) : sProp 𝕄) = Pipeline.unscopedRest spec17 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg17.N) : sProp 𝕄) = iprop(
      (((c : Thread nD τ).loc (Pipeline.arrRef spec17 0)) ↦{fullShare.left} VW W c (Pipeline.arrRef spec17 0))
      ∗ (((c : Thread nD τ).loc (Pipeline.arrRef spec17 1)) ↦{fullShare.right} VW W c (Pipeline.arrRef spec17 1))
      ∗ (((c : Thread nD τ).loc (Pipeline.arrRef spec17 2)) ↦{fullShare} VW W c (Pipeline.arrRef spec17 2))
      ∗ (((c : Thread nD τ).loc (Pipeline.arrRef spec17 3)) ↦{fullShare} VW W c (Pipeline.arrRef spec17 3))
      ∗ (((c : Thread nD τ).loc (Pipeline.arrRef spec17 4)) ↦{fullShare} (dat (VW W) c).arrAt 4 cfg17.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg17.N) ∗ Pipeline.unscopedRest spec17 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 17 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 17 = fun c => dat (VW W) c) :
    RegionSeg (pcfgs (F := F)) adm pdats () defs₀ Variants.none L lv 17 where
  win := winFacts₀17
  block_pos := block_pos17
  stage_whole := stage_whole17
  K := PEmpty
  osem k := k.elim
  ho := Pipeline.OwnSemFacts.none _
  hbody c := by rw [hp]; exact (body_obligation (VW W) c).loose
  hwaits := Pipeline.hwaits_of_owed_zero _ _ _ _ L lv 17 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec17 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 17 c).Φ 0 = Pipeline.ΦA spec17 c := by rw [hp]; exact Φ_eq _ c 0
    rw [hΦ]; unfold Pipeline.ΦA
    iintro ⟨Hp, -, Hr⟩
    isplitl [Hr]; · iexact Hr
    iexact Hp
  hout c := by
    have hΦ : (pdats 17 c).Φ (Fin.last _) = Pipeline.ΦA spec17 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg17

end
-- ==== Proof.RI.Reg18.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 18: a 3×3 convolution with bias and ReLU over one row tile per grid point

The grid is (image n, row tile r), 16 × 4 points. Windows 0 and 1 are the row tiles r and r+1 of ONE zero-padded
input array [16, 70, 64, 256]; window 2 is the whole kernel array [3, 3, 256, 256]; window 3 the bias [1, 256]; window 4
the output's row tile r of [16, 56, 56, 256]. The body flattens the two input tiles to rows of 64·14 pixels, appends
64 zero rows, and adds nine matrix products — one per tap (dy, dx), each a row-shifted slab against the tap's
[256, 256] matrix —, then the bias, then the maximum with zero, and keeps the first 56 columns of each row. -/

set_option maxRecDepth 16384

noncomputable section

namespace Cert.ReferenceIdeal.Reg18

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg18.W) (t : Fin cfg18.N) :
    ((cfg18.win w).xblock (cfg18.grid.coords t)).Idx → Elt F (cfg18.win w).elt :=
  ((cfg18.win w).blk t).view.read (Elt F) (V c (Pipeline.arrRef spec18 w))

/-! ## The taps -/

/-- The [1, 1, 256, 256] rectangle of the kernel array at tap (dy, dx). -/
abbrev tapRect (dy dx : Nat) (h : ∀ a, ![dy, dx, 0, 0] a + S1x1x256x256.size a ≤ S3x3x256x256.size a) : Rect S3x3x256x256 :=
  Rect.unit (s := S3x3x256x256) ![dy, dx, 0, 0] S1x1x256x256.size h

/-- The whole input tile and the whole bias row, as the body loads them. -/
abbrev rIn : Rect S1x14x64x256 :=
  Rect.unit (s := S1x14x64x256) ![0, 0, 0, 0] S1x14x64x256.size inb_S1x14x64x256_S1x14x64x256_0_0_0_0
abbrev rBias : Rect S1x256 := Rect.unit (s := S1x256) ![0, 0] S1x256.size inb_S1x256_S1x256_0_0

/-! ## What the body leaves in the output window's buffer -/

/-- The output tile from the two input tiles `xa`, `xb`, the kernel array `wk` and the bias `b`: the sum of the nine
    taps' matrix products in the order (0,0), (0,1), …, (2,2), plus the bias, clamped below at zero, cut to 56 columns. -/
def out (xa xb : Vec F S1x14x64x256 .f32) (wk : Vec F S3x3x256x256 .f32) (b : Vec F S1x256 .f32) : Vec F S1x14x56x256 .f32 :=
  k18_pay1
    (k18_pay8 (k18_pay2 (View.ld xa rIn) (View.ld xb rIn)) (k18_pay3 (View.ld xa rIn) (View.ld xb rIn))
      (k18_pay4 (View.ld xa rIn) (View.ld xb rIn))
      (k18_pay5 (View.ld xa rIn) (View.ld xb rIn)
        (View.ld wk (tapRect 0 0 inb_S3x3x256x256_S1x1x256x256_0_0_0_0))
        (View.ld wk (tapRect 0 1 inb_S3x3x256x256_S1x1x256x256_0_1_0_0))
        (View.ld wk (tapRect 0 2 inb_S3x3x256x256_S1x1x256x256_0_2_0_0)))
      (k18_pay6 (View.ld xa rIn) (View.ld xb rIn))
      (k18_pay7 (View.ld wk (tapRect 1 0 inb_S3x3x256x256_S1x1x256x256_1_0_0_0)))
      (View.ld wk (tapRect 1 1 inb_S3x3x256x256_S1x1x256x256_1_1_0_0))
      (View.ld wk (tapRect 1 2 inb_S3x3x256x256_S1x1x256x256_1_2_0_0))
      (View.ld wk (tapRect 2 0 inb_S3x3x256x256_S1x1x256x256_2_0_0_0))
      (View.ld wk (tapRect 2 1 inb_S3x3x256x256_S1x1x256x256_2_1_0_0))
      (View.ld wk (tapRect 2 2 inb_S3x3x256x256_S1x1x256x256_2_2_0_0))
      (View.ld b rBias))
    (k18_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg18 c where
  A w := V c (Pipeline.arrRef spec18 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec18 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg18.W) : (dat V c).A w = V c (Pipeline.arrRef spec18 w) := by
  dsimp only [dat]

theorem after_0 (c : Dev nD) (t : Fin cfg18.N) : (dat V c).after 0 t = iblk V c 0 t := by dsimp only [dat]
theorem after_1 (c : Dev nD) (t : Fin cfg18.N) : (dat V c).after 1 t = iblk V c 1 t := by dsimp only [dat]
theorem after_2 (c : Dev nD) (t : Fin cfg18.N) : (dat V c).after 2 t = iblk V c 2 t := by dsimp only [dat]
theorem after_3 (c : Dev nD) (t : Fin cfg18.N) : (dat V c).after 3 t = iblk V c 3 t := by dsimp only [dat]
theorem after_4 (c : Dev nD) (t : Fin cfg18.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x14x56x256 :=
  Rect.unit (s := S1x14x56x256) ![0, 0, 0, 0] S1x14x56x256.size inb_S1x14x56x256_S1x14x56x256_0_0_0_0

theorem hz4 : (![0, 0, 0, 0] : Fin 4 → Nat) = fun _ => 0 := funext fun a => by fin_cases a <;> rfl

/-- The one store covers the output tile. -/
theorem cover_out (p : Vec F S1x14x56x256 .f32) (y : S1x14x56x256.Idx) :
    ∃ pc ∈ ([⟨rOut, p⟩] : List (View.Piece (Elt F) S1x14x56x256 .f32)), y ∈ pc.1.set :=
  View.cover_of_tiled [⟨rOut, p⟩] S1x14x56x256.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid18.Coords)
    (arg2 : Memref sig .tc .vmem S1x14x64x256 .f32) (harg2 : arg2.IsWhole)
    (arg3 : Memref sig .tc .vmem S1x14x64x256 .f32) (harg3 : arg3.IsWhole)
    (arg4 : Memref sig .tc .vmem S3x3x256x256 .f32) (harg4 : arg4.IsWhole)
    (arg5 : Memref sig .tc .vmem S1x256 .f32) (harg5 : arg5.IsWhole)
    (arg6 : Memref sig .tc .vmem S1x14x56x256 .f32) (harg6 : arg6.IsWhole)
    (xa xb : Vec F S1x14x64x256 .f32) (wk : Vec F S3x3x256x256 .f32) (b : Vec F S1x256 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc18__conv3x3_relu_kernel i arg2 harg2 arg3 harg3 arg4 harg4 arg5 harg5 arg6 harg6) K := by
  sl_unfold [cc18__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg18.N + 1)) : (dat V c).Φ t = Pipeline.ΦA spec18 c := by dsimp only [dat]
theorem owed_eq (c : Dev nD) (t : Fin (cfg18.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg18 c)
    (hA : dat'.A 0 = V c (Pipeline.arrRef spec18 0)) (hafter : ∀ t, dat'.after 0 t = iblk V c 0 t)
    (t : Fin cfg18.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg18.N) (d) : (dat V c).before 0 t d = iblk V c 0 t :=
  before_0_of V (dat V c) (A_eq V c 0) (after_0 V c) t d

theorem before_1_of {c : Dev nD} (dat' : Dat τ (Elt F) Unit ℕ (UR sig nD τ) ℕ cfg18 c)
    (hA : dat'.A 1 = V c (Pipeline.arrRef spec18 1)) (hafter : ∀ t, dat'.after 1 t = iblk V c 1 t)
    (t : Fin cfg18.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg18.N) (d) : (dat V c).before 1 t d = iblk V c 1 t :=
  before_1_of V (dat V c) (A_eq V c 1) (after_1 V c) t d

theorem before_2_of {c : Dev nD} (dat' : Dat τ (Elt F) Unit ℕ (UR sig nD τ) ℕ cfg18 c)
    (hA : dat'.A 2 = V c (Pipeline.arrRef spec18 2)) (hafter : ∀ t, dat'.after 2 t = iblk V c 2 t)
    (t : Fin cfg18.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg18.N) (d) : (dat V c).before 2 t d = iblk V c 2 t :=
  before_2_of V (dat V c) (A_eq V c 2) (after_2 V c) t d

theorem before_3_of {c : Dev nD} (dat' : Dat τ (Elt F) Unit ℕ (UR sig nD τ) ℕ cfg18 c)
    (hA : dat'.A 3 = V c (Pipeline.arrRef spec18 3)) (hafter : ∀ t, dat'.after 3 t = iblk V c 3 t)
    (t : Fin cfg18.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg18.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg18.N) : sProp 𝕄 :=
  iprop((dat V c).Φ t.castSucc ∗ (dat V c).owesAt () t.castSucc
    ∗ (∃ d, owns (c : Thread nD τ) (st18_0 t) fullShare ((dat V c).before 0 t d))
    ∗ (∃ d, owns (c : Thread nD τ) (st18_1 t) fullShare ((dat V c).before 1 t d))
    ∗ (∃ d, owns (c : Thread nD τ) (st18_2 t) fullShare ((dat V c).before 2 t d))
    ∗ (∃ d, owns (c : Thread nD τ) (st18_3 t) fullShare ((dat V c).before 3 t d))
    ∗ (∃ d, owns (c : Thread nD τ) (st18_4 t) fullShare ((dat V c).before 4 t d)))

/-- and what it returns. -/
def bodyPost (c : Dev nD) (t : Fin cfg18.N) : sProp 𝕄 :=
  iprop((dat V c).Φ t.succ ∗ (dat V c).owesAt () t.succ
    ∗ owns (c : Thread nD τ) (st18_0 t) fullShare ((dat V c).after 0 t)
    ∗ owns (c : Thread nD τ) (st18_1 t) fullShare ((dat V c).after 1 t)
    ∗ owns (c : Thread nD τ) (st18_2 t) fullShare ((dat V c).after 2 t)
    ∗ owns (c : Thread nD τ) (st18_3 t) fullShare ((dat V c).after 3 t)
    ∗ owns (c : Thread nD τ) (st18_4 t) fullShare ((dat V c).after 4 t))

/-- The body at any point: the four inputs' buffers hold their blocks, so the body's triple applies; the invariant and
    the debt pass through unread. -/
theorem sound_body (c : Dev nD) (t : Fin cfg18.N) :
    bodyPre V c t ⊢ wp frame (wpE (defs₀ (F := F)) Variants.none c none) Set.univ (bodyAt18 t) (fun _ => bodyPost V c t) := by
  unfold bodyPre bodyPost bodyAt18
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W18, bigSep_W18]
  exact sound_body V c t

end Cert.ReferenceIdeal.Reg18
-- ==== Proof.RI.Seg18.lean ====
import proofs.«143011_g2000502688546152_pallasbulk_1201_3_alg».proof.Proof.RI.Reg18
import proofs.«143011_g2000502688546152_pallasbulk_1201_3_alg».proof.Proof.RI.Rest
import Idealize.ShloMosaic.Lib.Pipeline.Regions

/-! # Region 18 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg18

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec18 4)) ((dat (VW W) c).arrAt 4 cfg18.N)

theorem Wout_out (c : Dev nD) :
    Wout W c (Proc.devRef .tc (Pipeline.arrRef spec18 4)) = (dat (VW W) c).arrAt 4 cfg18.N := by
  unfold Wout; exact Function.update_self ..

theorem Wout_of_ne (c : Dev nD) (b : DevRef τ sig) (hb : b ≠ Proc.devRef .tc (Pipeline.arrRef spec18 4)) :
    Wout W c b = W c b := by
  unfold Wout; exact Function.update_of_ne hb ..

theorem Wout_of_ne_ref (c : Dev nD) (b : Ref sig .tc) (hb : b ≠ Pipeline.arrRef spec18 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec18)
    = {Pipeline.arrRef spec18 0, Pipeline.arrRef spec18 2, Pipeline.arrRef spec18 3, Pipeline.arrRef spec18 4} := by decide

/-- The pipeline's arrays at contents `G`, window by window: the input array at its two half shares, the rest whole. -/
theorem arrays_eq (c : Dev nD) (G : (w : Fin cfg18.W) → Buf (Elt F) ((cfg18.win w).arr.view.loc (c : Thread nD τ))) :
    ((dat (VW W) c).arrays G : sProp 𝕄) = iprop(
      (((c : Thread nD τ).loc (Pipeline.arrRef spec18 0)) ↦{fullShare.left} G 0)
      ∗ (((c : Thread nD τ).loc (Pipeline.arrRef spec18 1)) ↦{fullShare.right} G 1)
      ∗ (((c : Thread nD τ).loc (Pipeline.arrRef spec18 2)) ↦{fullShare} G 2)
      ∗ (((c : Thread nD τ).loc (Pipeline.arrRef spec18 3)) ↦{fullShare} G 3)
      ∗ (((c : Thread nD τ).loc (Pipeline.arrRef spec18 4)) ↦{fullShare} G 4)) := by
  have h : ((dat (VW W) c).arrays G : sProp 𝕄) = bigSep Finset.univ fun w =>
      (((c : Thread nD τ).loc (Pipeline.arrRef spec18 w)) ↦{(dat (VW W) c).share w} G w : sProp 𝕄) := by
    unfold Pipeline.Dat.arrays
    exact bigSep_congr fun w _ => by rw [(arr_whole18 w).set_eq_univ]
  rw [h, bigSep_W18, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec18 c X : sProp 𝕄) = iprop(
      (((c : Thread nD τ).loc (Pipeline.arrRef spec18 0)) ↦{fullShare} X (Pipeline.arrRef spec18 0))
      ∗ (((c : Thread nD τ).loc (Pipeline.arrRef spec18 2)) ↦{fullShare} X (Pipeline.arrRef spec18 2))
      ∗ (((c : Thread nD τ).loc (Pipeline.arrRef spec18 3)) ↦{fullShare} X (Pipeline.arrRef spec18 3))
      ∗ (((c : Thread nD τ).loc (Pipeline.arrRef spec18 4)) ↦{fullShare} X (Pipeline.arrRef spec18 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec18 c X ∗ Pipeline.unscopedRest spec18 c X) :=
  Pipeline.unscopedBufs_split₀ cfgs 18 winFacts₀18.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec18 1) = (c : Thread nD τ).loc (Pipeline.arrRef spec18 0) := rfl
theorem halves01 (c : Dev nD) :
    (((c : Thread nD τ).loc (Pipeline.arrRef spec18 0)) ↦{fullShare} VW W c (Pipeline.arrRef spec18 0) : sProp 𝕄)
      ⊣⊢ iprop((((c : Thread nD τ).loc (Pipeline.arrRef spec18 0)) ↦{fullShare.left} VW W c (Pipeline.arrRef spec18 0))
        ∗ (((c : Thread nD τ).loc (Pipeline.arrRef spec18 1)) ↦{fullShare.right} VW W c (Pipeline.arrRef spec18 1))) :=
  halves (loc_1 c) _ _ HEq.rfl

/-- An array's entry contents are what the region finds. -/
theorem arrAt_zero (c : Dev nD) (w : Fin cfg18.W) : (dat (VW W) c).arrAt w 0 = VW W c (Pipeline.arrRef spec18 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec18 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec18 c (fun b => Wout W c b) : sProp 𝕄) = iprop(
      (((c : Thread nD τ).loc (Pipeline.arrRef spec18 0)) ↦{fullShare} VW W c (Pipeline.arrRef spec18 0))
      ∗ (((c : Thread nD τ).loc (Pipeline.arrRef spec18 2)) ↦{fullShare} VW W c (Pipeline.arrRef spec18 2))
      ∗ (((c : Thread nD τ).loc (Pipeline.arrRef spec18 3)) ↦{fullShare} VW W c (Pipeline.arrRef spec18 3))
      ∗ (((c : Thread nD τ).loc (Pipeline.arrRef spec18 4)) ↦{fullShare} (dat (VW W) c).arrAt 4 cfg18.N)) := by
  rw [arrBufs_eq]
  rw [Wout_of_ne_ref W c (Pipeline.arrRef spec18 0) (by decide)]
  rw [Wout_of_ne_ref W c (Pipeline.arrRef spec18 2) (by decide)]
  rw [Wout_of_ne_ref W c (Pipeline.arrRef spec18 3) (by decide)]
  rw [Wout_out]

/-- The buffers that are no array of the region hold at the exit what they held at entry. -/
theorem rest_out (c : Dev nD) :
    (Pipeline.unscopedRest spec18 c (fun b => Wout W c b) : sProp 𝕄) = Pipeline.unscopedRest spec18 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg18.N) : sProp 𝕄) = iprop(
      (((c : Thread nD τ).loc (Pipeline.arrRef spec18 0)) ↦{fullShare.left} VW W c (Pipeline.arrRef spec18 0))
      ∗ (((c : Thread nD τ).loc (Pipeline.arrRef spec18 1)) ↦{fullShare.right} VW W c (Pipeline.arrRef spec18 1))
      ∗ (((c : Thread nD τ).loc (Pipeline.arrRef spec18 2)) ↦{fullShare} VW W c (Pipeline.arrRef spec18 2))
      ∗ (((c : Thread nD τ).loc (Pipeline.arrRef spec18 3)) ↦{fullShare} VW W c (Pipeline.arrRef spec18 3))
      ∗ (((c : Thread nD τ).loc (Pipeline.arrRef spec18 4)) ↦{fullShare} (dat (VW W) c).arrAt 4 cfg18.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg18.N) ∗ Pipeline.unscopedRest spec18 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 18 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 18 = fun c => dat (VW W) c) :
    RegionSeg (pcfgs (F := F)) adm pdats () defs₀ Variants.none L lv 18 where
  win := winFacts₀18
  block_pos := block_pos18
  stage_whole := stage_whole18
  K := PEmpty
  osem k := k.elim
  ho := Pipeline.OwnSemFacts.none _
  hbody c := by rw [hp]; exact (body_obligation (VW W) c).loose
  hwaits := Pipeline.hwaits_of_owed_zero _ _ _ _ L lv 18 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec18 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 18 c).Φ 0 = Pipeline.ΦA spec18 c := by rw [hp]; exact Φ_eq _ c 0
    rw [hΦ]; unfold Pipeline.ΦA
    iintro ⟨Hp, -, Hr⟩
    isplitl [Hr]; · iexact Hr
    iexact Hp
  hout c := by
    have hΦ : (pdats 18 c).Φ (Fin.last _) = Pipeline.ΦA spec18 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg18

end
-- ==== Proof.RI.Reg19.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 19: a 3×3 convolution with bias and ReLU over one row tile per grid point

The grid is (image n, row tile r), 16 × 4 points. Windows 0 and 1 are the row tiles r and r+1 of ONE zero-padded
input array [16, 70, 64, 256]; window 2 is the whole kernel array [3, 3, 256, 256]; window 3 the bias [1, 256]; window 4
the output's row tile r of [16, 56, 56, 256]. The body flattens the two input tiles to rows of 64·14 pixels, appends
64 zero rows, and adds nine matrix products — one per tap (dy, dx), each a row-shifted slab against the tap's
[256, 256] matrix —, then the bias, then the maximum with zero, and keeps the first 56 columns of each row. -/

set_option maxRecDepth 16384

noncomputable section

namespace Cert.ReferenceIdeal.Reg19

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg19.W) (t : Fin cfg19.N) :
    ((cfg19.win w).xblock (cfg19.grid.coords t)).Idx → Elt F (cfg19.win w).elt :=
  ((cfg19.win w).blk t).view.read (Elt F) (V c (Pipeline.arrRef spec19 w))

/-! ## The taps -/

/-- The [1, 1, 256, 256] rectangle of the kernel array at tap (dy, dx). -/
abbrev tapRect (dy dx : Nat) (h : ∀ a, ![dy, dx, 0, 0] a + S1x1x256x256.size a ≤ S3x3x256x256.size a) : Rect S3x3x256x256 :=
  Rect.unit (s := S3x3x256x256) ![dy, dx, 0, 0] S1x1x256x256.size h

/-- The whole input tile and the whole bias row, as the body loads them. -/
abbrev rIn : Rect S1x14x64x256 :=
  Rect.unit (s := S1x14x64x256) ![0, 0, 0, 0] S1x14x64x256.size inb_S1x14x64x256_S1x14x64x256_0_0_0_0
abbrev rBias : Rect S1x256 := Rect.unit (s := S1x256) ![0, 0] S1x256.size inb_S1x256_S1x256_0_0

/-! ## What the body leaves in the output window's buffer -/

/-- The output tile from the two input tiles `xa`, `xb`, the kernel array `wk` and the bias `b`: the sum of the nine
    taps' matrix products in the order (0,0), (0,1), …, (2,2), plus the bias, clamped below at zero, cut to 56 columns. -/
def out (xa xb : Vec F S1x14x64x256 .f32) (wk : Vec F S3x3x256x256 .f32) (b : Vec F S1x256 .f32) : Vec F S1x14x56x256 .f32 :=
  k19_pay1
    (k19_pay8 (k19_pay2 (View.ld xa rIn) (View.ld xb rIn)) (k19_pay3 (View.ld xa rIn) (View.ld xb rIn))
      (k19_pay4 (View.ld xa rIn) (View.ld xb rIn))
      (k19_pay5 (View.ld xa rIn) (View.ld xb rIn)
        (View.ld wk (tapRect 0 0 inb_S3x3x256x256_S1x1x256x256_0_0_0_0))
        (View.ld wk (tapRect 0 1 inb_S3x3x256x256_S1x1x256x256_0_1_0_0))
        (View.ld wk (tapRect 0 2 inb_S3x3x256x256_S1x1x256x256_0_2_0_0)))
      (k19_pay6 (View.ld xa rIn) (View.ld xb rIn))
      (k19_pay7 (View.ld wk (tapRect 1 0 inb_S3x3x256x256_S1x1x256x256_1_0_0_0)))
      (View.ld wk (tapRect 1 1 inb_S3x3x256x256_S1x1x256x256_1_1_0_0))
      (View.ld wk (tapRect 1 2 inb_S3x3x256x256_S1x1x256x256_1_2_0_0))
      (View.ld wk (tapRect 2 0 inb_S3x3x256x256_S1x1x256x256_2_0_0_0))
      (View.ld wk (tapRect 2 1 inb_S3x3x256x256_S1x1x256x256_2_1_0_0))
      (View.ld wk (tapRect 2 2 inb_S3x3x256x256_S1x1x256x256_2_2_0_0))
      (View.ld b rBias))
    (k19_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg19 c where
  A w := V c (Pipeline.arrRef spec19 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec19 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg19.W) : (dat V c).A w = V c (Pipeline.arrRef spec19 w) := by
  dsimp only [dat]

theorem after_0 (c : Dev nD) (t : Fin cfg19.N) : (dat V c).after 0 t = iblk V c 0 t := by dsimp only [dat]
theorem after_1 (c : Dev nD) (t : Fin cfg19.N) : (dat V c).after 1 t = iblk V c 1 t := by dsimp only [dat]
theorem after_2 (c : Dev nD) (t : Fin cfg19.N) : (dat V c).after 2 t = iblk V c 2 t := by dsimp only [dat]
theorem after_3 (c : Dev nD) (t : Fin cfg19.N) : (dat V c).after 3 t = iblk V c 3 t := by dsimp only [dat]
theorem after_4 (c : Dev nD) (t : Fin cfg19.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x14x56x256 :=
  Rect.unit (s := S1x14x56x256) ![0, 0, 0, 0] S1x14x56x256.size inb_S1x14x56x256_S1x14x56x256_0_0_0_0

theorem hz4 : (![0, 0, 0, 0] : Fin 4 → Nat) = fun _ => 0 := funext fun a => by fin_cases a <;> rfl

/-- The one store covers the output tile. -/
theorem cover_out (p : Vec F S1x14x56x256 .f32) (y : S1x14x56x256.Idx) :
    ∃ pc ∈ ([⟨rOut, p⟩] : List (View.Piece (Elt F) S1x14x56x256 .f32)), y ∈ pc.1.set :=
  View.cover_of_tiled [⟨rOut, p⟩] S1x14x56x256.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid19.Coords)
    (arg2 : Memref sig .tc .vmem S1x14x64x256 .f32) (harg2 : arg2.IsWhole)
    (arg3 : Memref sig .tc .vmem S1x14x64x256 .f32) (harg3 : arg3.IsWhole)
    (arg4 : Memref sig .tc .vmem S3x3x256x256 .f32) (harg4 : arg4.IsWhole)
    (arg5 : Memref sig .tc .vmem S1x256 .f32) (harg5 : arg5.IsWhole)
    (arg6 : Memref sig .tc .vmem S1x14x56x256 .f32) (harg6 : arg6.IsWhole)
    (xa xb : Vec F S1x14x64x256 .f32) (wk : Vec F S3x3x256x256 .f32) (b : Vec F S1x256 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc19__conv3x3_relu_kernel i arg2 harg2 arg3 harg3 arg4 harg4 arg5 harg5 arg6 harg6) K := by
  sl_unfold [cc19__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg19.N + 1)) : (dat V c).Φ t = Pipeline.ΦA spec19 c := by dsimp only [dat]
theorem owed_eq (c : Dev nD) (t : Fin (cfg19.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg19 c)
    (hA : dat'.A 0 = V c (Pipeline.arrRef spec19 0)) (hafter : ∀ t, dat'.after 0 t = iblk V c 0 t)
    (t : Fin cfg19.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg19.N) (d) : (dat V c).before 0 t d = iblk V c 0 t :=
  before_0_of V (dat V c) (A_eq V c 0) (after_0 V c) t d

theorem before_1_of {c : Dev nD} (dat' : Dat τ (Elt F) Unit ℕ (UR sig nD τ) ℕ cfg19 c)
    (hA : dat'.A 1 = V c (Pipeline.arrRef spec19 1)) (hafter : ∀ t, dat'.after 1 t = iblk V c 1 t)
    (t : Fin cfg19.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg19.N) (d) : (dat V c).before 1 t d = iblk V c 1 t :=
  before_1_of V (dat V c) (A_eq V c 1) (after_1 V c) t d

theorem before_2_of {c : Dev nD} (dat' : Dat τ (Elt F) Unit ℕ (UR sig nD τ) ℕ cfg19 c)
    (hA : dat'.A 2 = V c (Pipeline.arrRef spec19 2)) (hafter : ∀ t, dat'.after 2 t = iblk V c 2 t)
    (t : Fin cfg19.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg19.N) (d) : (dat V c).before 2 t d = iblk V c 2 t :=
  before_2_of V (dat V c) (A_eq V c 2) (after_2 V c) t d

theorem before_3_of {c : Dev nD} (dat' : Dat τ (Elt F) Unit ℕ (UR sig nD τ) ℕ cfg19 c)
    (hA : dat'.A 3 = V c (Pipeline.arrRef spec19 3)) (hafter : ∀ t, dat'.after 3 t = iblk V c 3 t)
    (t : Fin cfg19.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg19.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg19.N) : sProp 𝕄 :=
  iprop((dat V c).Φ t.castSucc ∗ (dat V c).owesAt () t.castSucc
    ∗ (∃ d, owns (c : Thread nD τ) (st19_0 t) fullShare ((dat V c).before 0 t d))
    ∗ (∃ d, owns (c : Thread nD τ) (st19_1 t) fullShare ((dat V c).before 1 t d))
    ∗ (∃ d, owns (c : Thread nD τ) (st19_2 t) fullShare ((dat V c).before 2 t d))
    ∗ (∃ d, owns (c : Thread nD τ) (st19_3 t) fullShare ((dat V c).before 3 t d))
    ∗ (∃ d, owns (c : Thread nD τ) (st19_4 t) fullShare ((dat V c).before 4 t d)))

/-- and what it returns. -/
def bodyPost (c : Dev nD) (t : Fin cfg19.N) : sProp 𝕄 :=
  iprop((dat V c).Φ t.succ ∗ (dat V c).owesAt () t.succ
    ∗ owns (c : Thread nD τ) (st19_0 t) fullShare ((dat V c).after 0 t)
    ∗ owns (c : Thread nD τ) (st19_1 t) fullShare ((dat V c).after 1 t)
    ∗ owns (c : Thread nD τ) (st19_2 t) fullShare ((dat V c).after 2 t)
    ∗ owns (c : Thread nD τ) (st19_3 t) fullShare ((dat V c).after 3 t)
    ∗ owns (c : Thread nD τ) (st19_4 t) fullShare ((dat V c).after 4 t))

/-- The body at any point: the four inputs' buffers hold their blocks, so the body's triple applies; the invariant and
    the debt pass through unread. -/
theorem sound_body (c : Dev nD) (t : Fin cfg19.N) :
    bodyPre V c t ⊢ wp frame (wpE (defs₀ (F := F)) Variants.none c none) Set.univ (bodyAt19 t) (fun _ => bodyPost V c t) := by
  unfold bodyPre bodyPost bodyAt19
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W19, bigSep_W19]
  exact sound_body V c t

end Cert.ReferenceIdeal.Reg19
-- ==== Proof.RI.Seg19.lean ====
import proofs.«143011_g2000502688546152_pallasbulk_1201_3_alg».proof.Proof.RI.Reg19
import proofs.«143011_g2000502688546152_pallasbulk_1201_3_alg».proof.Proof.RI.Rest
import Idealize.ShloMosaic.Lib.Pipeline.Regions

/-! # Region 19 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg19

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec19 4)) ((dat (VW W) c).arrAt 4 cfg19.N)

theorem Wout_out (c : Dev nD) :
    Wout W c (Proc.devRef .tc (Pipeline.arrRef spec19 4)) = (dat (VW W) c).arrAt 4 cfg19.N := by
  unfold Wout; exact Function.update_self ..

theorem Wout_of_ne (c : Dev nD) (b : DevRef τ sig) (hb : b ≠ Proc.devRef .tc (Pipeline.arrRef spec19 4)) :
    Wout W c b = W c b := by
  unfold Wout; exact Function.update_of_ne hb ..

theorem Wout_of_ne_ref (c : Dev nD) (b : Ref sig .tc) (hb : b ≠ Pipeline.arrRef spec19 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec19)
    = {Pipeline.arrRef spec19 0, Pipeline.arrRef spec19 2, Pipeline.arrRef spec19 3, Pipeline.arrRef spec19 4} := by decide

/-- The pipeline's arrays at contents `G`, window by window: the input array at its two half shares, the rest whole. -/
theorem arrays_eq (c : Dev nD) (G : (w : Fin cfg19.W) → Buf (Elt F) ((cfg19.win w).arr.view.loc (c : Thread nD τ))) :
    ((dat (VW W) c).arrays G : sProp 𝕄) = iprop(
      (((c : Thread nD τ).loc (Pipeline.arrRef spec19 0)) ↦{fullShare.left} G 0)
      ∗ (((c : Thread nD τ).loc (Pipeline.arrRef spec19 1)) ↦{fullShare.right} G 1)
      ∗ (((c : Thread nD τ).loc (Pipeline.arrRef spec19 2)) ↦{fullShare} G 2)
      ∗ (((c : Thread nD τ).loc (Pipeline.arrRef spec19 3)) ↦{fullShare} G 3)
      ∗ (((c : Thread nD τ).loc (Pipeline.arrRef spec19 4)) ↦{fullShare} G 4)) := by
  have h : ((dat (VW W) c).arrays G : sProp 𝕄) = bigSep Finset.univ fun w =>
      (((c : Thread nD τ).loc (Pipeline.arrRef spec19 w)) ↦{(dat (VW W) c).share w} G w : sProp 𝕄) := by
    unfold Pipeline.Dat.arrays
    exact bigSep_congr fun w _ => by rw [(arr_whole19 w).set_eq_univ]
  rw [h, bigSep_W19, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec19 c X : sProp 𝕄) = iprop(
      (((c : Thread nD τ).loc (Pipeline.arrRef spec19 0)) ↦{fullShare} X (Pipeline.arrRef spec19 0))
      ∗ (((c : Thread nD τ).loc (Pipeline.arrRef spec19 2)) ↦{fullShare} X (Pipeline.arrRef spec19 2))
      ∗ (((c : Thread nD τ).loc (Pipeline.arrRef spec19 3)) ↦{fullShare} X (Pipeline.arrRef spec19 3))
      ∗ (((c : Thread nD τ).loc (Pipeline.arrRef spec19 4)) ↦{fullShare} X (Pipeline.arrRef spec19 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec19 c X ∗ Pipeline.unscopedRest spec19 c X) :=
  Pipeline.unscopedBufs_split₀ cfgs 19 winFacts₀19.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec19 1) = (c : Thread nD τ).loc (Pipeline.arrRef spec19 0) := rfl
theorem halves01 (c : Dev nD) :
    (((c : Thread nD τ).loc (Pipeline.arrRef spec19 0)) ↦{fullShare} VW W c (Pipeline.arrRef spec19 0) : sProp 𝕄)
      ⊣⊢ iprop((((c : Thread nD τ).loc (Pipeline.arrRef spec19 0)) ↦{fullShare.left} VW W c (Pipeline.arrRef spec19 0))
        ∗ (((c : Thread nD τ).loc (Pipeline.arrRef spec19 1)) ↦{fullShare.right} VW W c (Pipeline.arrRef spec19 1))) :=
  halves (loc_1 c) _ _ HEq.rfl

/-- An array's entry contents are what the region finds. -/
theorem arrAt_zero (c : Dev nD) (w : Fin cfg19.W) : (dat (VW W) c).arrAt w 0 = VW W c (Pipeline.arrRef spec19 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec19 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec19 c (fun b => Wout W c b) : sProp 𝕄) = iprop(
      (((c : Thread nD τ).loc (Pipeline.arrRef spec19 0)) ↦{fullShare} VW W c (Pipeline.arrRef spec19 0))
      ∗ (((c : Thread nD τ).loc (Pipeline.arrRef spec19 2)) ↦{fullShare} VW W c (Pipeline.arrRef spec19 2))
      ∗ (((c : Thread nD τ).loc (Pipeline.arrRef spec19 3)) ↦{fullShare} VW W c (Pipeline.arrRef spec19 3))
      ∗ (((c : Thread nD τ).loc (Pipeline.arrRef spec19 4)) ↦{fullShare} (dat (VW W) c).arrAt 4 cfg19.N)) := by
  rw [arrBufs_eq]
  rw [Wout_of_ne_ref W c (Pipeline.arrRef spec19 0) (by decide)]
  rw [Wout_of_ne_ref W c (Pipeline.arrRef spec19 2) (by decide)]
  rw [Wout_of_ne_ref W c (Pipeline.arrRef spec19 3) (by decide)]
  rw [Wout_out]

/-- The buffers that are no array of the region hold at the exit what they held at entry. -/
theorem rest_out (c : Dev nD) :
    (Pipeline.unscopedRest spec19 c (fun b => Wout W c b) : sProp 𝕄) = Pipeline.unscopedRest spec19 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg19.N) : sProp 𝕄) = iprop(
      (((c : Thread nD τ).loc (Pipeline.arrRef spec19 0)) ↦{fullShare.left} VW W c (Pipeline.arrRef spec19 0))
      ∗ (((c : Thread nD τ).loc (Pipeline.arrRef spec19 1)) ↦{fullShare.right} VW W c (Pipeline.arrRef spec19 1))
      ∗ (((c : Thread nD τ).loc (Pipeline.arrRef spec19 2)) ↦{fullShare} VW W c (Pipeline.arrRef spec19 2))
      ∗ (((c : Thread nD τ).loc (Pipeline.arrRef spec19 3)) ↦{fullShare} VW W c (Pipeline.arrRef spec19 3))
      ∗ (((c : Thread nD τ).loc (Pipeline.arrRef spec19 4)) ↦{fullShare} (dat (VW W) c).arrAt 4 cfg19.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg19.N) ∗ Pipeline.unscopedRest spec19 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 19 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 19 = fun c => dat (VW W) c) :
    RegionSeg (pcfgs (F := F)) adm pdats () defs₀ Variants.none L lv 19 where
  win := winFacts₀19
  block_pos := block_pos19
  stage_whole := stage_whole19
  K := PEmpty
  osem k := k.elim
  ho := Pipeline.OwnSemFacts.none _
  hbody c := by rw [hp]; exact (body_obligation (VW W) c).loose
  hwaits := Pipeline.hwaits_of_owed_zero _ _ _ _ L lv 19 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec19 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 19 c).Φ 0 = Pipeline.ΦA spec19 c := by rw [hp]; exact Φ_eq _ c 0
    rw [hΦ]; unfold Pipeline.ΦA
    iintro ⟨Hp, -, Hr⟩
    isplitl [Hr]; · iexact Hr
    iexact Hp
  hout c := by
    have hΦ : (pdats 19 c).Φ (Fin.last _) = Pipeline.ΦA spec19 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg19

end
-- ==== Proof.RI.Reg20Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 20: the sum of |x − y| over two [25088, 512] arrays, accumulated over a grid of 28 points into a [1, 1] array

At point t the two input windows show rows 896t … 896t+895 of x and of y. The output window is the one [1, 1]
block at every point: the body zeroes it at point 0, then at every point adds the block's sum of |x − y| to what
the window holds. It is written back to the array once, after the last point. -/
-- This module: the proof data (what each window holds after the body at each point).

set_option maxRecDepth 16384

noncomputable section

namespace Cert.ReferenceIdeal.Reg20

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of x the first window shows at point `t`. -/
def xrows (c : Dev nD) (t : Fin cfg20.N) : Vec F S896x512 .f32 :=
  ((cfg20.win 0).blk t).view.read (Elt F) (V c (Pipeline.arrRef spec20 0))

/-- The rows of y the second window shows at point `t`. -/
def yrows (c : Dev nD) (t : Fin cfg20.N) : Vec F S896x512 .f32 :=
  ((cfg20.win 1).blk t).view.read (Elt F) (V c (Pipeline.arrRef spec20 1))

/-- The zeroed accumulator of the first point. -/
def zero : Vec F S1x1 .f32 := Gen.k20_pay1

/-- One point's step: the accumulator plus the sum of |x − y| over a block of 896 rows. -/
def step (acc : Vec F S1x1 .f32) (x y : Vec F S896x512 .f32) : Vec F S1x1 .f32 := Gen.k20_pay2 acc x y

/-- The accumulator after point `n`: zero stepped through the blocks of points 0 … n. -/
def total (c : Dev nD) : (n : ℕ) → n < cfg20.N → Vec F S1x1 .f32
  | 0, h => step zero (xrows V c ⟨0, h⟩) (yrows V c ⟨0, h⟩)
  | n + 1, h => step (total c n (Nat.lt_of_succ_lt h)) (xrows V c ⟨n + 1, h⟩) (yrows V c ⟨n + 1, h⟩)

/-- The region's proof data: the arrays as found; after the body each input window still shows its rows and the
    output window holds the running total; the body keeps no other state. -/
def dat (c : Dev nD) : Dat τ (Elt F) Unit ℕ (UR sig nD τ) ℕ cfg20 c where
  A w := V c (Pipeline.arrRef spec20 w)
  after w t := match w with
    | ⟨0, _⟩ => xrows V c t
    | ⟨1, _⟩ => yrows V c t
    | ⟨2, _⟩ => total V c t.val t.isLt
  Φ _ := Pipeline.ΦA spec20 c
  q _ := fullShare
  owed _ := 0

theorem A_eq (c : Dev nD) (w : Fin cfg20.W) : (dat V c).A w = V c (Pipeline.arrRef spec20 w) := by
  dsimp only [dat]

theorem after_x (c : Dev nD) (t : Fin cfg20.N) : (dat V c).after 0 t = xrows V c t := by dsimp only [dat]
theorem after_y (c : Dev nD) (t : Fin cfg20.N) : (dat V c).after 1 t = yrows V c t := by dsimp only [dat]
theorem after_total (c : Dev nD) (t : Fin cfg20.N) : (dat V c).after 2 t = total V c t.val t.isLt := by dsimp only [dat]

end Cert.ReferenceIdeal.Reg20
-- ==== Proof.RI.Reg20.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg20Data
import Idealize.ShloMosaic.Lib.Pipeline.FrameBody
import Idealize.ShloMosaic.Lib.Pipeline.Value
import Idealize.ShloMosaic.Lib.Tactic

/-! # Region 20: the sum of |x − y| over two [25088, 512] arrays, accumulated over a grid of 28 points into a [1, 1] array

At point t the two input windows show rows 896t … 896t+895 of x and of y. The output window is the one [1, 1]
block at every point: the body zeroes it at point 0, then at every point adds the block's sum of |x − y| to what
the window holds. It is written back to the array once, after the last point. -/
-- This module: the body's triples and the body obligation.

set_option maxRecDepth 16384

noncomputable section

namespace Cert.ReferenceIdeal.Reg20

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg20.N + 1)) : (dat V c).Φ t = Pipeline.ΦA spec20 c := rfl
theorem owed_eq (c : Dev nD) (t : Fin (cfg20.N + 1)) : (dat V c).owed t = 0 := rfl
theorem q_eq (c : Dev nD) (w : Fin cfg20.W) : (dat V c).q w = fullShare := rfl

/-- The body's one condition, from the grid coordinate: "this is point 0". -/
abbrev isFirst (i : grid20.Coords) : Prop :=
  (Scalar.cmpi .ne (Scalar.extui (Scalar.cmpi .eq (BitVec.ofNat 32 (i 0).val) 0#32)) 0#32) = 1#1

/-- It holds at point 0 and at no other point of the grid. -/
theorem isFirst_iff : ∀ t : Fin cfg20.N, isFirst (grid20.coords t) ↔ t.val = 0 :=
  (by decide +kernel : ∀ t : Fin grid20.N, isFirst (grid20.coords t) ↔ t.val = 0)

theorem zeros2 : (![0, 0] : Fin 2 → ℕ) = fun _ => 0 := by
  funext a; match a with | ⟨0, _⟩ => rfl | ⟨1, _⟩ => rfl

set_option maxHeartbeats 1000000 in
/-- The body at the first point, on whole staging memrefs: the inputs' hold blocks `x`, `y`, the output's anything;
    it runs to a state where the output's holds zero stepped by the two blocks. -/
theorem body_first (c : Dev nD) (E : Set ℕ) (i : grid20.Coords) (hc : isFirst i)
    (mx : Memref sig .tc .vmem S896x512 .f32) (hx : mx.IsWhole)
    (my : Memref sig .tc .vmem S896x512 .f32) (hy : my.IsWhole)
    (mo : Memref sig .tc .vmem S1x1 .f32) (ho : mo.IsWhole)
    (x y : Vec F S896x512 .f32) (K : PUnit → sProp 𝕄) :
    iprop(owns (c : Thread nD τ) mx fullShare x ∗ owns (c : Thread nD τ) my fullShare y
        ∗ (∃ d, owns (c : Thread nD τ) mo fullShare d)
        ∗ (iprop(owns (c : Thread nD τ) mx fullShare x ∗ owns (c : Thread nD τ) my fullShare y
            ∗ owns (c : Thread nD τ) mo fullShare (step zero x y)) -∗ K ⟨⟩))
      ⊢ wp frame (wpE (defs₀ (F := F)) Variants.none c none) E (cc20__l1_sum_kernel i mx hx my hy mo ho) K := by
  simp only [Gen.cc20__l1_sum_kernel_eq_skeleton]; unfold Gen.cc20__l1_sum_kernel_skel
  unfold owns
  iintro ⟨⟨%fx, %hfx, Hx⟩, ⟨%fy, %hfy, Hy⟩, ⟨%d, %fo, -, Ho⟩, Hk⟩
  subst hfx hfy
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_words
  -- the last store covers the output block: it reads that store's payload; the accumulator it loaded is what the
  -- zeroing store left; each input load reads its whole block
  rw [View.read_writes_eq_canon _ _ _ (fun y => ⟨_, List.mem_cons_self,
      View.mem_set_unit_zero (S := S1x1) zeros2 Gen.inb_S1x1_S1x1_0_0 y⟩),
    View.canon_cons_unit_zero (S := S1x1) zeros2 Gen.inb_S1x1_S1x1_0_0,
    View.readCov_unit_zero (S := S1x1) _ zeros2 Gen.inb_S1x1_S1x1_0_0]
  simp only [View.readAt_eq_ld]
  show Gen.k20_pay2 Gen.k20_pay1
      (View.ld (View.read (Elt F) mx.view fx) (Rect.unit ![0, 0] S896x512.size Gen.inb_S896x512_S896x512_0_0))
      (View.ld (View.read (Elt F) my.view fy) (Rect.unit ![0, 0] S896x512.size Gen.inb_S896x512_S896x512_0_0)) = _
  rw [View.ld_unit_zero (S := S896x512) zeros2 Gen.inb_S896x512_S896x512_0_0,
    View.ld_unit_zero (S := S896x512) zeros2 Gen.inb_S896x512_S896x512_0_0]
  rfl

set_option maxHeartbeats 1000000 in
/-- The body at a later point: the output's staging memref holds the accumulator `acc`; it runs to a state where it
    holds `acc` stepped by the two blocks. -/
theorem body_later (c : Dev nD) (E : Set ℕ) (i : grid20.Coords) (hc : ¬ isFirst i)
    (mx : Memref sig .tc .vmem S896x512 .f32) (hx : mx.IsWhole)
    (my : Memref sig .tc .vmem S896x512 .f32) (hy : my.IsWhole)
    (mo : Memref sig .tc .vmem S1x1 .f32) (ho : mo.IsWhole)
    (x y : Vec F S896x512 .f32) (acc : Vec F S1x1 .f32) (K : PUnit → sProp 𝕄) :
    iprop(owns (c : Thread nD τ) mx fullShare x ∗ owns (c : Thread nD τ) my fullShare y
        ∗ owns (c : Thread nD τ) mo fullShare acc
        ∗ (iprop(owns (c : Thread nD τ) mx fullShare x ∗ owns (c : Thread nD τ) my fullShare y
            ∗ owns (c : Thread nD τ) mo fullShare (step acc x y)) -∗ K ⟨⟩))
      ⊢ wp frame (wpE (defs₀ (F := F)) Variants.none c none) E (cc20__l1_sum_kernel i mx hx my hy mo ho) K := by
  simp only [Gen.cc20__l1_sum_kernel_eq_skeleton]; unfold Gen.cc20__l1_sum_kernel_skel
  unfold owns
  iintro ⟨⟨%fx, %hfx, Hx⟩, ⟨%fy, %hfy, Hy⟩, ⟨%fo, %hfo, Ho⟩, Hk⟩
  subst hfx hfy hfo
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  -- the one store covers the output block: it reads its payload; each load reads its whole block
  rw [View.read_writes_eq_canon _ _ _ (fun y => ⟨_, List.mem_singleton_self _,
      View.mem_set_unit_zero (S := S1x1) zeros2 Gen.inb_S1x1_S1x1_0_0 y⟩),
    View.canon_unit_zero (S := S1x1) zeros2 Gen.inb_S1x1_S1x1_0_0]
  simp only [View.readAt_eq_ld]
  show Gen.k20_pay2 (View.ld (View.read (Elt F) mo.view fo) (Rect.unit ![0, 0] S1x1.size Gen.inb_S1x1_S1x1_0_0))
      (View.ld (View.read (Elt F) mx.view fx) (Rect.unit ![0, 0] S896x512.size Gen.inb_S896x512_S896x512_0_0))
      (View.ld (View.read (Elt F) my.view fy) (Rect.unit ![0, 0] S896x512.size Gen.inb_S896x512_S896x512_0_0)) = _
  rw [View.ld_unit_zero (S := S1x1) zeros2 Gen.inb_S1x1_S1x1_0_0,
    View.ld_unit_zero (S := S896x512) zeros2 Gen.inb_S896x512_S896x512_0_0,
    View.ld_unit_zero (S := S896x512) zeros2 Gen.inb_S896x512_S896x512_0_0]
  rfl

/-- Each input window's staging buffer shows the window's rows at every point, fetched there or not. -/
theorem before_x (c : Dev nD) (t : Fin cfg20.N) (d) : (dat V c).before 0 t d = xrows V c t :=
  ((dat V c).before_in_eq_fetched 0 rfl (fun _ => rfl) (fun _ _ _ => rfl)
      (fun t => by rw [after_x]; unfold Dat.blockOf xrows; rw [A_eq]; try rfl) t d).trans
    (by unfold Dat.fetched Dat.blockOf xrows; rw [A_eq]; try rfl)

theorem before_y (c : Dev nD) (t : Fin cfg20.N) (d) : (dat V c).before 1 t d = yrows V c t :=
  ((dat V c).before_in_eq_fetched 1 rfl (fun _ => rfl) (fun _ _ _ => rfl)
      (fun t => by rw [after_y]; unfold Dat.blockOf yrows; rw [A_eq]; try rfl) t d).trans
    (by unfold Dat.fetched Dat.blockOf yrows; rw [A_eq]; try rfl)

/-- The output window is written back after the last point only, so at every later point its staging buffer still
    holds the running total the point before left. -/
theorem before_total (c : Dev nD) (t : Fin cfg20.N) (ht : t.val ≠ 0) (d) :
    (dat V c).before 2 t d = total V c (t.val - 1) (Nat.lt_of_le_of_lt (Nat.sub_le _ _) t.isLt) := by
  have hlt : t.val < 28 := Nat.lt_of_lt_of_eq t.isLt (Gen.N_20 : cfg20.N = 28)
  have hfl : (cfg20.win 2).flush ⟨t.val - 1, Nat.lt_of_le_of_lt (Nat.sub_le _ _) t.isLt⟩ = false :=
    Bool.eq_false_iff.mpr fun h => by
      have h97 := (Gen.flush20_2 _).mp h
      have h97' : (t.val - 1) % 28 = 27 := h97
      omega
  rw [(dat V c).before_out_kept 2 rfl t ht hfl (fun _ => rfl) (fun _ _ => rfl) d, after_total]

/-- The running total at point 0, and at a later point from the point before. -/
theorem total_first (c : Dev nD) (t : Fin cfg20.N) (h0 : t.val = 0) :
    total V c t.val t.isLt = step zero (xrows V c t) (yrows V c t) := by
  obtain ⟨n, hn⟩ := t
  cases n with
  | zero => rfl
  | succ n => exact absurd h0 (Nat.succ_ne_zero n)

theorem total_later (c : Dev nD) (t : Fin cfg20.N) (ht : t.val ≠ 0) :
    total V c t.val t.isLt
      = step (total V c (t.val - 1) (Nat.lt_of_le_of_lt (Nat.sub_le _ _) t.isLt)) (xrows V c t) (yrows V c t) := by
  obtain ⟨n, hn⟩ := t
  cases n with
  | zero => exact absurd rfl ht
  | succ n => rfl

/-- The body at a point: the input buffers show the point's rows; at point 0 the reset branch runs, at a later
    point the output buffer holds the previous total and the adding branch runs. -/
theorem at_point (c : Dev nD) (t : Fin cfg20.N) :
    iprop((dat V c).Φ t.castSucc ∗ (dat V c).owesAt () t.castSucc
        ∗ (∃ d, owns (c : Thread nD τ) (Gen.st20_0 t) fullShare ((dat V c).before 0 t d))
        ∗ (∃ d, owns (c : Thread nD τ) (Gen.st20_1 t) fullShare ((dat V c).before 1 t d))
        ∗ (∃ d, owns (c : Thread nD τ) (Gen.st20_2 t) fullShare ((dat V c).before 2 t d)))
      ⊢ wp frame (wpE (defs₀ (F := F)) Variants.none c none) Set.univ (Gen.bodyAt20 t) (fun _ =>
        iprop((dat V c).Φ t.succ ∗ (dat V c).owesAt () t.succ
          ∗ owns (c : Thread nD τ) (Gen.st20_0 t) fullShare ((dat V c).after 0 t)
          ∗ owns (c : Thread nD τ) (Gen.st20_1 t) fullShare ((dat V c).after 1 t)
          ∗ owns (c : Thread nD τ) (Gen.st20_2 t) fullShare ((dat V c).after 2 t))) := by
  unfold Gen.bodyAt20
  simp only [before_x, before_y]
  rw [show (dat V c).Φ t.succ = (dat V c).Φ t.castSucc from rfl,
    show (dat V c).owesAt () t.succ = (dat V c).owesAt () t.castSucc from rfl, after_x, after_y, after_total]
  by_cases h0 : t.val = 0
  · rw [total_first V c t h0]
    iintro ⟨HΦ, Ho, ⟨%dx, Hx⟩, ⟨%dy, Hy⟩, ⟨%dz, Hz⟩⟩
    iapply (body_first c Set.univ _ ((isFirst_iff t).mpr h0) _ _ _ _ _ _ (xrows V c t) (yrows V c t) _)
    isplitl [Hx]; · iexact Hx
    isplitl [Hy]; · iexact Hy
    isplitl [Hz]; · iexists _; iexact Hz
    iintro ⟨Hx, Hy, Hz⟩
    isplitl [HΦ]; · iexact HΦ
    isplitl [Ho]; · iexact Ho
    isplitl [Hx]; · iexact Hx
    isplitl [Hy]; · iexact Hy
    iexact Hz
  · simp only [before_total V c t h0]
    rw [total_later V c t h0]
    iintro ⟨HΦ, Ho, ⟨%dx, Hx⟩, ⟨%dy, Hy⟩, ⟨%dz, Hz⟩⟩
    iapply (body_later c Set.univ _ (fun h => h0 ((isFirst_iff t).mp h)) _ _ _ _ _ _ (xrows V c t) (yrows V c t) _ _)
    isplitl [Hx]; · iexact Hx
    isplitl [Hy]; · iexact Hy
    isplitl [Hz]; · iexact Hz
    iintro ⟨Hx, Hy, Hz⟩
    isplitl [HΦ]; · iexact HΦ
    isplitl [Ho]; · iexact Ho
    isplitl [Hx]; · iexact Hx
    isplitl [Hy]; · iexact Hy
    iexact Hz

theorem body_obligation (c : Dev nD) : BodyObligation (dat (F := F) V c) (defs₀ (F := F)) Variants.none () Set.univ := fun t => by
  rw [Gen.bigSep_W20, Gen.bigSep_W20]
  exact at_point V c t

end Cert.ReferenceIdeal.Reg20
-- ==== Proof.RI.Seg20.lean ====
import proofs.«143011_g2000502688546152_pallasbulk_1201_3_alg».proof.Proof.RI.Reg20
import proofs.«143011_g2000502688546152_pallasbulk_1201_3_alg».proof.Proof.RI.Rest
import Idealize.ShloMosaic.Lib.Pipeline.Regions
import Idealize.ShloMosaic.Lib.Pipeline.RegionsLoop

/-! # Region 20 as a segment of @main

A mean-absolute-difference region reads two arrays of rows of 512 and adds every row's absolute differences into one [1, 1] array across the grid. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg20

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec20 2)) ((dat (VW W) c).arrAt 2 cfg20.N)

theorem Wout_out (c : Dev nD) :
    Wout W c (Proc.devRef .tc (Pipeline.arrRef spec20 2)) = (dat (VW W) c).arrAt 2 cfg20.N := by
  unfold Wout; exact Function.update_self ..

theorem Wout_of_ne (c : Dev nD) (b : DevRef τ sig) (hb : b ≠ Proc.devRef .tc (Pipeline.arrRef spec20 2)) :
    Wout W c b = W c b := by
  unfold Wout; exact Function.update_of_ne hb ..

theorem Wout_of_ne_ref (c : Dev nD) (b : Ref sig .tc) (hb : b ≠ Pipeline.arrRef spec20 2) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg20.W,
    (dat (VW W) c).arrAt w cfg20.N = Wout W c (Proc.devRef .tc (Pipeline.arrRef spec20 w))
  | 0 => by rw [Pipeline.Dat.arrAt_in _ 0 (by decide), Wout_of_ne_ref W c _ (by decide)]; exact A_eq _ c 0
  | 1 => by rw [Pipeline.Dat.arrAt_in _ 1 (by decide), Wout_of_ne_ref W c _ (by decide)]; exact A_eq _ c 1
  | 2 => (Wout_out W c).symm
  | ⟨_ + 3, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec20)) :
    Wout W c (Proc.devRef .tc b) = W c (Proc.devRef .tc b) :=
  Wout_of_ne_ref W c b fun e => hb (Finset.mem_image.mpr ⟨2, Finset.mem_univ _, e.symm⟩)

/-! ## The segment record -/

set_option backward.isDefEq.respectTransparency.types false in
/-- Region 20 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 20 = fun c => dat (VW W) c) :
    RegionSeg (pcfgs (F := F)) adm pdats () defs₀ Variants.none L lv 20 where
  win := winFacts20.to₀
  block_pos := block_pos20
  stage_whole := stage_whole20
  K := PEmpty
  osem k := k.elim
  ho := Pipeline.OwnSemFacts.none _
  hbody c := by rw [hp]; exact (body_obligation (VW W) c).loose
  hwaits := Pipeline.hwaits_of_owed_zero _ _ _ _ L lv 20 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec20 c (VW W c)
  hentry c := by
    rw [Pipeline.ownSems0_none]
    have hsplit := Pipeline.arrays_of_unscopedBufs (p := 20) (pcfgs (F := F)) adm pdats winFacts20 arr_whole20 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 20 c).Φ 0 = Pipeline.ΦA spec20 c := by rw [hp]; exact Φ_eq _ c 0
    rw [hΦ]; unfold Pipeline.ΦA
    iintro ⟨Hp, -, Hr⟩
    isplitl [Hr]; · iexact Hr
    iexact Hp
  hout c := by
    have hΦ : (pdats 20 c).Φ (Fin.last _) = Pipeline.ΦA spec20 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      winFacts20 arr_whole20 c pdats (by rw [hp]; exact (dat (VW W) c).share_full fun w => q_eq _ c w)
      (VW W c) (fun b => Wout W c b) ((pdats 20 c).arrAt · cfg20.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg20

end
-- ==== Proof.RI.Reg21Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 21: the 2×2 max pool of a [16, 56, 28, 2, 256] array into [16, 28, 28, 256]

The grid is 16 × 4. At point (n, r) the input window is rows 14r … 14r+13 of image n, a [1, 14, 28, 2, 256] block; the
body takes the maximum over the column pair (axis 3), regroups the 14 rows as 7 pairs, takes the maximum over each
row pair, and stores the [1, 7, 28, 256] result over its whole output window, rows 7r … 7r+6 of image n. Nothing is
kept between points. -/
-- This module: the proof data (what each window holds after the body at each point).

set_option maxRecDepth 16384

noncomputable section

namespace Cert.ReferenceIdeal.Reg21

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of the input array the window shows at point `t`. -/
def rows (c : Dev nD) (t : Fin cfg21.N) : Vec F S1x14x28x2x256 .f32 :=
  ((cfg21.win 0).blk t).view.read (Elt F) (V c (Pipeline.arrRef spec21 0))

/-- The pooled block: column-pair maximum, then row-pair maximum, of a block of 14 rows. -/
def pooled (x : Vec F S1x14x28x2x256 .f32) : Vec F S1x7x28x256 .f32 := Gen.k21_pay1 x

/-- The region's proof data: the arrays as found; after the body the input window still shows its rows and the output
    window holds their pooled block; the body keeps no state of its own. -/
def dat (c : Dev nD) : Dat τ (Elt F) Unit ℕ (UR sig nD τ) ℕ cfg21 c where
  A w := V c (Pipeline.arrRef spec21 w)
  after w t := match w with
    | ⟨0, _⟩ => rows V c t
    | ⟨1, _⟩ => pooled (rows V c t)
  Φ _ := Pipeline.ΦA spec21 c
  q _ := fullShare
  owed _ := 0

theorem A_eq (c : Dev nD) (w : Fin cfg21.W) : (dat V c).A w = V c (Pipeline.arrRef spec21 w) := by
  dsimp only [dat]

theorem after_in (c : Dev nD) (t : Fin cfg21.N) : (dat V c).after 0 t = rows V c t := by dsimp only [dat]
theorem after_out (c : Dev nD) (t : Fin cfg21.N) : (dat V c).after 1 t = pooled (rows V c t) := by dsimp only [dat]

end Cert.ReferenceIdeal.Reg21
-- ==== Proof.RI.Reg21.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg21Data
import Idealize.ShloMosaic.Lib.Pipeline.FrameBody
import Idealize.ShloMosaic.Lib.Pipeline.Value
import Idealize.ShloMosaic.Lib.Tactic

/-! # Region 21: the 2×2 max pool of a [16, 56, 28, 2, 256] array into [16, 28, 28, 256]

The grid is 16 × 4. At point (n, r) the input window is rows 14r … 14r+13 of image n, a [1, 14, 28, 2, 256] block; the
body takes the maximum over the column pair (axis 3), regroups the 14 rows as 7 pairs, takes the maximum over each
row pair, and stores the [1, 7, 28, 256] result over its whole output window, rows 7r … 7r+6 of image n. Nothing is
kept between points. -/
-- This module: the body's triple and the body obligation.

set_option maxRecDepth 16384

noncomputable section

namespace Cert.ReferenceIdeal.Reg21

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg21.N + 1)) : (dat V c).Φ t = Pipeline.ΦA spec21 c := rfl
theorem owed_eq (c : Dev nD) (t : Fin (cfg21.N + 1)) : (dat V c).owed t = 0 := rfl
theorem q_eq (c : Dev nD) (w : Fin cfg21.W) : (dat V c).q w = fullShare := rfl

set_option maxHeartbeats 1000000 in
/-- The body on whole staging memrefs: with the input's holding a block `x` and the output's holding anything, it
    runs to a state where the input's still holds `x` and the output's holds the pooled block of `x`. -/
theorem pool_body (c : Dev nD) (E : Set ℕ) (i : grid21.Coords)
    (mi : Memref sig .tc .vmem S1x14x28x2x256 .f32) (hi : mi.IsWhole)
    (mo : Memref sig .tc .vmem S1x7x28x256 .f32) (ho : mo.IsWhole)
    (x : Vec F S1x14x28x2x256 .f32) (K : PUnit → sProp 𝕄) :
    iprop(owns (c : Thread nD τ) mi fullShare x ∗ (∃ d, owns (c : Thread nD τ) mo fullShare d)
        ∗ (iprop(owns (c : Thread nD τ) mi fullShare x ∗ owns (c : Thread nD τ) mo fullShare (pooled x)) -∗ K ⟨⟩))
      ⊢ wp frame (wpE (defs₀ (F := F)) Variants.none c none) E (cc21__maxpool_kernel i mi hi mo ho) K := by
  simp only [Gen.cc21__maxpool_kernel_eq_skeleton]; unfold Gen.cc21__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have z4 : (![0, 0, 0, 0] : Fin 4 → ℕ) = fun _ => 0 := by
    funext a; match a with | ⟨0, _⟩ => rfl | ⟨1, _⟩ => rfl | ⟨2, _⟩ => rfl | ⟨3, _⟩ => rfl
  have z5 : (![0, 0, 0, 0, 0] : Fin 5 → ℕ) = fun _ => 0 := by
    funext a; match a with | ⟨0, _⟩ => rfl | ⟨1, _⟩ => rfl | ⟨2, _⟩ => rfl | ⟨3, _⟩ => rfl | ⟨4, _⟩ => rfl
  -- the one store covers the output block, so the block reads its payload; the load reads the whole input block
  rw [View.read_writes_eq_canon _ _ _ (fun y => ⟨_, List.mem_singleton_self _,
      View.mem_set_unit_zero (S := S1x7x28x256) z4 Gen.inb_S1x7x28x256_S1x7x28x256_0_0_0_0 y⟩),
    View.canon_unit_zero (S := S1x7x28x256) z4 Gen.inb_S1x7x28x256_S1x7x28x256_0_0_0_0, View.readAt_eq_ld]
  show Gen.k21_pay1 (View.ld (View.read (Elt F) mi.view f0)
    (Rect.unit ![0, 0, 0, 0, 0] S1x14x28x2x256.size Gen.inb_S1x14x28x2x256_S1x14x28x2x256_0_0_0_0_0)) = _
  rw [View.ld_unit_zero (S := S1x14x28x2x256) z5 Gen.inb_S1x14x28x2x256_S1x14x28x2x256_0_0_0_0_0]
  rfl

/-- The input window's staging buffer shows the window's rows at every point, fetched there or not. -/
theorem before_in (c : Dev nD) (t : Fin cfg21.N) (d) : (dat V c).before 0 t d = rows V c t :=
  ((dat V c).before_in_eq_fetched 0 rfl (fun _ => rfl) (fun _ _ _ => rfl)
      (fun t => by rw [after_in]; unfold Dat.blockOf rows; rw [A_eq]; try rfl) t d).trans
    (by unfold Dat.fetched Dat.blockOf rows; rw [A_eq]; try rfl)

/-- The body at a point: its input buffer shows the point's rows, so the body's triple applies; the scoped rest and
    the core's tallies pass through untouched. -/
theorem at_point (c : Dev nD) (t : Fin cfg21.N) :
    iprop((dat V c).Φ t.castSucc ∗ (dat V c).owesAt () t.castSucc
        ∗ (∃ d, owns (c : Thread nD τ) (Gen.st21_0 t) fullShare ((dat V c).before 0 t d))
        ∗ (∃ d, owns (c : Thread nD τ) (Gen.st21_1 t) fullShare ((dat V c).before 1 t d)))
      ⊢ wp frame (wpE (defs₀ (F := F)) Variants.none c none) Set.univ (Gen.bodyAt21 t) (fun _ =>
        iprop((dat V c).Φ t.succ ∗ (dat V c).owesAt () t.succ
          ∗ owns (c : Thread nD τ) (Gen.st21_0 t) fullShare ((dat V c).after 0 t)
          ∗ owns (c : Thread nD τ) (Gen.st21_1 t) fullShare ((dat V c).after 1 t))) := by
  unfold Gen.bodyAt21
  simp only [before_in]
  rw [show (dat V c).Φ t.succ = (dat V c).Φ t.castSucc from rfl,
    show (dat V c).owesAt () t.succ = (dat V c).owesAt () t.castSucc from rfl, after_in, after_out]
  iintro ⟨HΦ, Ho, ⟨%d0, Hi⟩, ⟨%d1, Hout⟩⟩
  iapply (pool_body c Set.univ _ _ _ _ _ (rows V c t) _)
  isplitl [Hi]; · iexact Hi
  isplitl [Hout]; · iexists _; iexact Hout
  iintro ⟨Hi, Hout⟩
  isplitl [HΦ]; · iexact HΦ
  isplitl [Ho]; · iexact Ho
  isplitl [Hi]; · iexact Hi
  iexact Hout

theorem body_obligation (c : Dev nD) : BodyObligation (dat (F := F) V c) (defs₀ (F := F)) Variants.none () Set.univ := fun t => by
  rw [Gen.bigSep_W21, Gen.bigSep_W21]
  exact at_point V c t

end Cert.ReferenceIdeal.Reg21
-- ==== Proof.RI.Seg21.lean ====
import proofs.«143011_g2000502688546152_pallasbulk_1201_3_alg».proof.Proof.RI.Reg21
import proofs.«143011_g2000502688546152_pallasbulk_1201_3_alg».proof.Proof.RI.Rest
import Idealize.ShloMosaic.Lib.Pipeline.Regions
import Idealize.ShloMosaic.Lib.Pipeline.RegionsLoop

/-! # Region 21 as a segment of @main

A pooling region reads one array (pairs of columns split out as an axis) and writes the pooled array. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg21

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec21 1)) ((dat (VW W) c).arrAt 1 cfg21.N)

theorem Wout_out (c : Dev nD) :
    Wout W c (Proc.devRef .tc (Pipeline.arrRef spec21 1)) = (dat (VW W) c).arrAt 1 cfg21.N := by
  unfold Wout; exact Function.update_self ..

theorem Wout_of_ne (c : Dev nD) (b : DevRef τ sig) (hb : b ≠ Proc.devRef .tc (Pipeline.arrRef spec21 1)) :
    Wout W c b = W c b := by
  unfold Wout; exact Function.update_of_ne hb ..

theorem Wout_of_ne_ref (c : Dev nD) (b : Ref sig .tc) (hb : b ≠ Pipeline.arrRef spec21 1) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg21.W,
    (dat (VW W) c).arrAt w cfg21.N = Wout W c (Proc.devRef .tc (Pipeline.arrRef spec21 w))
  | 0 => by rw [Pipeline.Dat.arrAt_in _ 0 (by decide), Wout_of_ne_ref W c _ (by decide)]; exact A_eq _ c 0
  | 1 => (Wout_out W c).symm
  | ⟨_ + 2, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec21)) :
    Wout W c (Proc.devRef .tc b) = W c (Proc.devRef .tc b) :=
  Wout_of_ne_ref W c b fun e => hb (Finset.mem_image.mpr ⟨1, Finset.mem_univ _, e.symm⟩)

/-! ## The segment record -/

set_option backward.isDefEq.respectTransparency.types false in
/-- Region 21 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 21 = fun c => dat (VW W) c) :
    RegionSeg (pcfgs (F := F)) adm pdats () defs₀ Variants.none L lv 21 where
  win := winFacts21.to₀
  block_pos := block_pos21
  stage_whole := stage_whole21
  K := PEmpty
  osem k := k.elim
  ho := Pipeline.OwnSemFacts.none _
  hbody c := by rw [hp]; exact (body_obligation (VW W) c).loose
  hwaits := Pipeline.hwaits_of_owed_zero _ _ _ _ L lv 21 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec21 c (VW W c)
  hentry c := by
    rw [Pipeline.ownSems0_none]
    have hsplit := Pipeline.arrays_of_unscopedBufs (p := 21) (pcfgs (F := F)) adm pdats winFacts21 arr_whole21 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 21 c).Φ 0 = Pipeline.ΦA spec21 c := by rw [hp]; exact Φ_eq _ c 0
    rw [hΦ]; unfold Pipeline.ΦA
    iintro ⟨Hp, -, Hr⟩
    isplitl [Hr]; · iexact Hr
    iexact Hp
  hout c := by
    have hΦ : (pdats 21 c).Φ (Fin.last _) = Pipeline.ΦA spec21 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      winFacts21 arr_whole21 c pdats (by rw [hp]; exact (dat (VW W) c).share_full fun w => q_eq _ c w)
      (VW W c) (fun b => Wout W c b) ((pdats 21 c).arrAt · cfg21.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg21

end
-- ==== Proof.RI.Reg22Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 22: the 2×2 max pool of a [16, 56, 28, 2, 256] array into [16, 28, 28, 256]

The grid is 16 × 4. At point (n, r) the input window is rows 14r … 14r+13 of image n, a [1, 14, 28, 2, 256] block; the
body takes the maximum over the column pair (axis 3), regroups the 14 rows as 7 pairs, takes the maximum over each
row pair, and stores the [1, 7, 28, 256] result over its whole output window, rows 7r … 7r+6 of image n. Nothing is
kept between points. -/
-- This module: the proof data (what each window holds after the body at each point).

set_option maxRecDepth 16384

noncomputable section

namespace Cert.ReferenceIdeal.Reg22

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of the input array the window shows at point `t`. -/
def rows (c : Dev nD) (t : Fin cfg22.N) : Vec F S1x14x28x2x256 .f32 :=
  ((cfg22.win 0).blk t).view.read (Elt F) (V c (Pipeline.arrRef spec22 0))

/-- The pooled block: column-pair maximum, then row-pair maximum, of a block of 14 rows. -/
def pooled (x : Vec F S1x14x28x2x256 .f32) : Vec F S1x7x28x256 .f32 := Gen.k22_pay1 x

/-- The region's proof data: the arrays as found; after the body the input window still shows its rows and the output
    window holds their pooled block; the body keeps no state of its own. -/
def dat (c : Dev nD) : Dat τ (Elt F) Unit ℕ (UR sig nD τ) ℕ cfg22 c where
  A w := V c (Pipeline.arrRef spec22 w)
  after w t := match w with
    | ⟨0, _⟩ => rows V c t
    | ⟨1, _⟩ => pooled (rows V c t)
  Φ _ := Pipeline.ΦA spec22 c
  q _ := fullShare
  owed _ := 0

theorem A_eq (c : Dev nD) (w : Fin cfg22.W) : (dat V c).A w = V c (Pipeline.arrRef spec22 w) := by
  dsimp only [dat]

theorem after_in (c : Dev nD) (t : Fin cfg22.N) : (dat V c).after 0 t = rows V c t := by dsimp only [dat]
theorem after_out (c : Dev nD) (t : Fin cfg22.N) : (dat V c).after 1 t = pooled (rows V c t) := by dsimp only [dat]

end Cert.ReferenceIdeal.Reg22
-- ==== Proof.RI.Reg22.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg22Data
import Idealize.ShloMosaic.Lib.Pipeline.FrameBody
import Idealize.ShloMosaic.Lib.Pipeline.Value
import Idealize.ShloMosaic.Lib.Tactic

/-! # Region 22: the 2×2 max pool of a [16, 56, 28, 2, 256] array into [16, 28, 28, 256]

The grid is 16 × 4. At point (n, r) the input window is rows 14r … 14r+13 of image n, a [1, 14, 28, 2, 256] block; the
body takes the maximum over the column pair (axis 3), regroups the 14 rows as 7 pairs, takes the maximum over each
row pair, and stores the [1, 7, 28, 256] result over its whole output window, rows 7r … 7r+6 of image n. Nothing is
kept between points. -/
-- This module: the body's triple and the body obligation.

set_option maxRecDepth 16384

noncomputable section

namespace Cert.ReferenceIdeal.Reg22

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg22.N + 1)) : (dat V c).Φ t = Pipeline.ΦA spec22 c := rfl
theorem owed_eq (c : Dev nD) (t : Fin (cfg22.N + 1)) : (dat V c).owed t = 0 := rfl
theorem q_eq (c : Dev nD) (w : Fin cfg22.W) : (dat V c).q w = fullShare := rfl

set_option maxHeartbeats 1000000 in
/-- The body on whole staging memrefs: with the input's holding a block `x` and the output's holding anything, it
    runs to a state where the input's still holds `x` and the output's holds the pooled block of `x`. -/
theorem pool_body (c : Dev nD) (E : Set ℕ) (i : grid22.Coords)
    (mi : Memref sig .tc .vmem S1x14x28x2x256 .f32) (hi : mi.IsWhole)
    (mo : Memref sig .tc .vmem S1x7x28x256 .f32) (ho : mo.IsWhole)
    (x : Vec F S1x14x28x2x256 .f32) (K : PUnit → sProp 𝕄) :
    iprop(owns (c : Thread nD τ) mi fullShare x ∗ (∃ d, owns (c : Thread nD τ) mo fullShare d)
        ∗ (iprop(owns (c : Thread nD τ) mi fullShare x ∗ owns (c : Thread nD τ) mo fullShare (pooled x)) -∗ K ⟨⟩))
      ⊢ wp frame (wpE (defs₀ (F := F)) Variants.none c none) E (cc22__maxpool_kernel i mi hi mo ho) K := by
  simp only [Gen.cc22__maxpool_kernel_eq_skeleton]; unfold Gen.cc22__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have z4 : (![0, 0, 0, 0] : Fin 4 → ℕ) = fun _ => 0 := by
    funext a; match a with | ⟨0, _⟩ => rfl | ⟨1, _⟩ => rfl | ⟨2, _⟩ => rfl | ⟨3, _⟩ => rfl
  have z5 : (![0, 0, 0, 0, 0] : Fin 5 → ℕ) = fun _ => 0 := by
    funext a; match a with | ⟨0, _⟩ => rfl | ⟨1, _⟩ => rfl | ⟨2, _⟩ => rfl | ⟨3, _⟩ => rfl | ⟨4, _⟩ => rfl
  -- the one store covers the output block, so the block reads its payload; the load reads the whole input block
  rw [View.read_writes_eq_canon _ _ _ (fun y => ⟨_, List.mem_singleton_self _,
      View.mem_set_unit_zero (S := S1x7x28x256) z4 Gen.inb_S1x7x28x256_S1x7x28x256_0_0_0_0 y⟩),
    View.canon_unit_zero (S := S1x7x28x256) z4 Gen.inb_S1x7x28x256_S1x7x28x256_0_0_0_0, View.readAt_eq_ld]
  show Gen.k22_pay1 (View.ld (View.read (Elt F) mi.view f0)
    (Rect.unit ![0, 0, 0, 0, 0] S1x14x28x2x256.size Gen.inb_S1x14x28x2x256_S1x14x28x2x256_0_0_0_0_0)) = _
  rw [View.ld_unit_zero (S := S1x14x28x2x256) z5 Gen.inb_S1x14x28x2x256_S1x14x28x2x256_0_0_0_0_0]
  rfl

/-- The input window's staging buffer shows the window's rows at every point, fetched there or not. -/
theorem before_in (c : Dev nD) (t : Fin cfg22.N) (d) : (dat V c).before 0 t d = rows V c t :=
  ((dat V c).before_in_eq_fetched 0 rfl (fun _ => rfl) (fun _ _ _ => rfl)
      (fun t => by rw [after_in]; unfold Dat.blockOf rows; rw [A_eq]; try rfl) t d).trans
    (by unfold Dat.fetched Dat.blockOf rows; rw [A_eq]; try rfl)

/-- The body at a point: its input buffer shows the point's rows, so the body's triple applies; the scoped rest and
    the core's tallies pass through untouched. -/
theorem at_point (c : Dev nD) (t : Fin cfg22.N) :
    iprop((dat V c).Φ t.castSucc ∗ (dat V c).owesAt () t.castSucc
        ∗ (∃ d, owns (c : Thread nD τ) (Gen.st22_0 t) fullShare ((dat V c).before 0 t d))
        ∗ (∃ d, owns (c : Thread nD τ) (Gen.st22_1 t) fullShare ((dat V c).before 1 t d)))
      ⊢ wp frame (wpE (defs₀ (F := F)) Variants.none c none) Set.univ (Gen.bodyAt22 t) (fun _ =>
        iprop((dat V c).Φ t.succ ∗ (dat V c).owesAt () t.succ
          ∗ owns (c : Thread nD τ) (Gen.st22_0 t) fullShare ((dat V c).after 0 t)
          ∗ owns (c : Thread nD τ) (Gen.st22_1 t) fullShare ((dat V c).after 1 t))) := by
  unfold Gen.bodyAt22
  simp only [before_in]
  rw [show (dat V c).Φ t.succ = (dat V c).Φ t.castSucc from rfl,
    show (dat V c).owesAt () t.succ = (dat V c).owesAt () t.castSucc from rfl, after_in, after_out]
  iintro ⟨HΦ, Ho, ⟨%d0, Hi⟩, ⟨%d1, Hout⟩⟩
  iapply (pool_body c Set.univ _ _ _ _ _ (rows V c t) _)
  isplitl [Hi]; · iexact Hi
  isplitl [Hout]; · iexists _; iexact Hout
  iintro ⟨Hi, Hout⟩
  isplitl [HΦ]; · iexact HΦ
  isplitl [Ho]; · iexact Ho
  isplitl [Hi]; · iexact Hi
  iexact Hout

theorem body_obligation (c : Dev nD) : BodyObligation (dat (F := F) V c) (defs₀ (F := F)) Variants.none () Set.univ := fun t => by
  rw [Gen.bigSep_W22, Gen.bigSep_W22]
  exact at_point V c t

end Cert.ReferenceIdeal.Reg22
-- ==== Proof.RI.Seg22.lean ====
import proofs.«143011_g2000502688546152_pallasbulk_1201_3_alg».proof.Proof.RI.Reg22
import proofs.«143011_g2000502688546152_pallasbulk_1201_3_alg».proof.Proof.RI.Rest
import Idealize.ShloMosaic.Lib.Pipeline.Regions
import Idealize.ShloMosaic.Lib.Pipeline.RegionsLoop

/-! # Region 22 as a segment of @main

A pooling region reads one array (pairs of columns split out as an axis) and writes the pooled array. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg22

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec22 1)) ((dat (VW W) c).arrAt 1 cfg22.N)

theorem Wout_out (c : Dev nD) :
    Wout W c (Proc.devRef .tc (Pipeline.arrRef spec22 1)) = (dat (VW W) c).arrAt 1 cfg22.N := by
  unfold Wout; exact Function.update_self ..

theorem Wout_of_ne (c : Dev nD) (b : DevRef τ sig) (hb : b ≠ Proc.devRef .tc (Pipeline.arrRef spec22 1)) :
    Wout W c b = W c b := by
  unfold Wout; exact Function.update_of_ne hb ..

theorem Wout_of_ne_ref (c : Dev nD) (b : Ref sig .tc) (hb : b ≠ Pipeline.arrRef spec22 1) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg22.W,
    (dat (VW W) c).arrAt w cfg22.N = Wout W c (Proc.devRef .tc (Pipeline.arrRef spec22 w))
  | 0 => by rw [Pipeline.Dat.arrAt_in _ 0 (by decide), Wout_of_ne_ref W c _ (by decide)]; exact A_eq _ c 0
  | 1 => (Wout_out W c).symm
  | ⟨_ + 2, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec22)) :
    Wout W c (Proc.devRef .tc b) = W c (Proc.devRef .tc b) :=
  Wout_of_ne_ref W c b fun e => hb (Finset.mem_image.mpr ⟨1, Finset.mem_univ _, e.symm⟩)

/-! ## The segment record -/

set_option backward.isDefEq.respectTransparency.types false in
/-- Region 22 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 22 = fun c => dat (VW W) c) :
    RegionSeg (pcfgs (F := F)) adm pdats () defs₀ Variants.none L lv 22 where
  win := winFacts22.to₀
  block_pos := block_pos22
  stage_whole := stage_whole22
  K := PEmpty
  osem k := k.elim
  ho := Pipeline.OwnSemFacts.none _
  hbody c := by rw [hp]; exact (body_obligation (VW W) c).loose
  hwaits := Pipeline.hwaits_of_owed_zero _ _ _ _ L lv 22 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec22 c (VW W c)
  hentry c := by
    rw [Pipeline.ownSems0_none]
    have hsplit := Pipeline.arrays_of_unscopedBufs (p := 22) (pcfgs (F := F)) adm pdats winFacts22 arr_whole22 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 22 c).Φ 0 = Pipeline.ΦA spec22 c := by rw [hp]; exact Φ_eq _ c 0
    rw [hΦ]; unfold Pipeline.ΦA
    iintro ⟨Hp, -, Hr⟩
    isplitl [Hr]; · iexact Hr
    iexact Hp
  hout c := by
    have hΦ : (pdats 22 c).Φ (Fin.last _) = Pipeline.ΦA spec22 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      winFacts22 arr_whole22 c pdats (by rw [hp]; exact (dat (VW W) c).share_full fun w => q_eq _ c w)
      (VW W c) (fun b => Wout W c b) ((pdats 22 c).arrAt · cfg22.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg22

end
-- ==== Proof.RI.Reg23.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 23: a 3×3 convolution with bias and ReLU over one row tile per grid point

The grid is (image n, row tile r), 16 × 4 points. Windows 0 and 1 are the row tiles r and r+1 of ONE zero-padded
input array [16, 35, 32, 256]; window 2 is the whole kernel array [3, 3, 256, 512]; window 3 the bias [1, 512]; window 4
the output's row tile r of [16, 28, 28, 512]. The body flattens the two input tiles to rows of 32·7 pixels, appends
32 zero rows, and adds nine matrix products — one per tap (dy, dx), each a row-shifted slab against the tap's
[256, 512] matrix —, then the bias, then the maximum with zero, and keeps the first 28 columns of each row. -/

set_option maxRecDepth 16384

noncomputable section

namespace Cert.ReferenceIdeal.Reg23

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg23.W) (t : Fin cfg23.N) :
    ((cfg23.win w).xblock (cfg23.grid.coords t)).Idx → Elt F (cfg23.win w).elt :=
  ((cfg23.win w).blk t).view.read (Elt F) (V c (Pipeline.arrRef spec23 w))

/-! ## The taps -/

/-- The [1, 1, 256, 512] rectangle of the kernel array at tap (dy, dx). -/
abbrev tapRect (dy dx : Nat) (h : ∀ a, ![dy, dx, 0, 0] a + S1x1x256x512.size a ≤ S3x3x256x512.size a) : Rect S3x3x256x512 :=
  Rect.unit (s := S3x3x256x512) ![dy, dx, 0, 0] S1x1x256x512.size h

/-- The whole input tile and the whole bias row, as the body loads them. -/
abbrev rIn : Rect S1x7x32x256 :=
  Rect.unit (s := S1x7x32x256) ![0, 0, 0, 0] S1x7x32x256.size inb_S1x7x32x256_S1x7x32x256_0_0_0_0
abbrev rBias : Rect S1x512 := Rect.unit (s := S1x512) ![0, 0] S1x512.size inb_S1x512_S1x512_0_0

/-! ## What the body leaves in the output window's buffer -/

/-- The output tile from the two input tiles `xa`, `xb`, the kernel array `wk` and the bias `b`: the sum of the nine
    taps' matrix products in the order (0,0), (0,1), …, (2,2), plus the bias, clamped below at zero, cut to 28 columns. -/
def out (xa xb : Vec F S1x7x32x256 .f32) (wk : Vec F S3x3x256x512 .f32) (b : Vec F S1x512 .f32) : Vec F S1x7x28x512 .f32 :=
  k23_pay1
    (k23_pay8 (k23_pay2 (View.ld xa rIn) (View.ld xb rIn)) (k23_pay3 (View.ld xa rIn) (View.ld xb rIn))
      (k23_pay4 (View.ld xa rIn) (View.ld xb rIn))
      (k23_pay5 (View.ld xa rIn) (View.ld xb rIn)
        (View.ld wk (tapRect 0 0 inb_S3x3x256x512_S1x1x256x512_0_0_0_0))
        (View.ld wk (tapRect 0 1 inb_S3x3x256x512_S1x1x256x512_0_1_0_0))
        (View.ld wk (tapRect 0 2 inb_S3x3x256x512_S1x1x256x512_0_2_0_0)))
      (k23_pay6 (View.ld xa rIn) (View.ld xb rIn))
      (k23_pay7 (View.ld wk (tapRect 1 0 inb_S3x3x256x512_S1x1x256x512_1_0_0_0)))
      (View.ld wk (tapRect 1 1 inb_S3x3x256x512_S1x1x256x512_1_1_0_0))
      (View.ld wk (tapRect 1 2 inb_S3x3x256x512_S1x1x256x512_1_2_0_0))
      (View.ld wk (tapRect 2 0 inb_S3x3x256x512_S1x1x256x512_2_0_0_0))
      (View.ld wk (tapRect 2 1 inb_S3x3x256x512_S1x1x256x512_2_1_0_0))
      (View.ld wk (tapRect 2 2 inb_S3x3x256x512_S1x1x256x512_2_2_0_0))
      (View.ld b rBias))
    (k23_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg23 c where
  A w := V c (Pipeline.arrRef spec23 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec23 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg23.W) : (dat V c).A w = V c (Pipeline.arrRef spec23 w) := by
  dsimp only [dat]

theorem after_0 (c : Dev nD) (t : Fin cfg23.N) : (dat V c).after 0 t = iblk V c 0 t := by dsimp only [dat]
theorem after_1 (c : Dev nD) (t : Fin cfg23.N) : (dat V c).after 1 t = iblk V c 1 t := by dsimp only [dat]
theorem after_2 (c : Dev nD) (t : Fin cfg23.N) : (dat V c).after 2 t = iblk V c 2 t := by dsimp only [dat]
theorem after_3 (c : Dev nD) (t : Fin cfg23.N) : (dat V c).after 3 t = iblk V c 3 t := by dsimp only [dat]
theorem after_4 (c : Dev nD) (t : Fin cfg23.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x7x28x512 :=
  Rect.unit (s := S1x7x28x512) ![0, 0, 0, 0] S1x7x28x512.size inb_S1x7x28x512_S1x7x28x512_0_0_0_0

theorem hz4 : (![0, 0, 0, 0] : Fin 4 → Nat) = fun _ => 0 := funext fun a => by fin_cases a <;> rfl

/-- The one store covers the output tile. -/
theorem cover_out (p : Vec F S1x7x28x512 .f32) (y : S1x7x28x512.Idx) :
    ∃ pc ∈ ([⟨rOut, p⟩] : List (View.Piece (Elt F) S1x7x28x512 .f32)), y ∈ pc.1.set :=
  View.cover_of_tiled [⟨rOut, p⟩] S1x7x28x512.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid23.Coords)
    (arg2 : Memref sig .tc .vmem S1x7x32x256 .f32) (harg2 : arg2.IsWhole)
    (arg3 : Memref sig .tc .vmem S1x7x32x256 .f32) (harg3 : arg3.IsWhole)
    (arg4 : Memref sig .tc .vmem S3x3x256x512 .f32) (harg4 : arg4.IsWhole)
    (arg5 : Memref sig .tc .vmem S1x512 .f32) (harg5 : arg5.IsWhole)
    (arg6 : Memref sig .tc .vmem S1x7x28x512 .f32) (harg6 : arg6.IsWhole)
    (xa xb : Vec F S1x7x32x256 .f32) (wk : Vec F S3x3x256x512 .f32) (b : Vec F S1x512 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc23__conv3x3_relu_kernel i arg2 harg2 arg3 harg3 arg4 harg4 arg5 harg5 arg6 harg6) K := by
  sl_unfold [cc23__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg23.N + 1)) : (dat V c).Φ t = Pipeline.ΦA spec23 c := by dsimp only [dat]
theorem owed_eq (c : Dev nD) (t : Fin (cfg23.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg23 c)
    (hA : dat'.A 0 = V c (Pipeline.arrRef spec23 0)) (hafter : ∀ t, dat'.after 0 t = iblk V c 0 t)
    (t : Fin cfg23.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg23.N) (d) : (dat V c).before 0 t d = iblk V c 0 t :=
  before_0_of V (dat V c) (A_eq V c 0) (after_0 V c) t d

theorem before_1_of {c : Dev nD} (dat' : Dat τ (Elt F) Unit ℕ (UR sig nD τ) ℕ cfg23 c)
    (hA : dat'.A 1 = V c (Pipeline.arrRef spec23 1)) (hafter : ∀ t, dat'.after 1 t = iblk V c 1 t)
    (t : Fin cfg23.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg23.N) (d) : (dat V c).before 1 t d = iblk V c 1 t :=
  before_1_of V (dat V c) (A_eq V c 1) (after_1 V c) t d

theorem before_2_of {c : Dev nD} (dat' : Dat τ (Elt F) Unit ℕ (UR sig nD τ) ℕ cfg23 c)
    (hA : dat'.A 2 = V c (Pipeline.arrRef spec23 2)) (hafter : ∀ t, dat'.after 2 t = iblk V c 2 t)
    (t : Fin cfg23.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg23.N) (d) : (dat V c).before 2 t d = iblk V c 2 t :=
  before_2_of V (dat V c) (A_eq V c 2) (after_2 V c) t d

theorem before_3_of {c : Dev nD} (dat' : Dat τ (Elt F) Unit ℕ (UR sig nD τ) ℕ cfg23 c)
    (hA : dat'.A 3 = V c (Pipeline.arrRef spec23 3)) (hafter : ∀ t, dat'.after 3 t = iblk V c 3 t)
    (t : Fin cfg23.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg23.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg23.N) : sProp 𝕄 :=
  iprop((dat V c).Φ t.castSucc ∗ (dat V c).owesAt () t.castSucc
    ∗ (∃ d, owns (c : Thread nD τ) (st23_0 t) fullShare ((dat V c).before 0 t d))
    ∗ (∃ d, owns (c : Thread nD τ) (st23_1 t) fullShare ((dat V c).before 1 t d))
    ∗ (∃ d, owns (c : Thread nD τ) (st23_2 t) fullShare ((dat V c).before 2 t d))
    ∗ (∃ d, owns (c : Thread nD τ) (st23_3 t) fullShare ((dat V c).before 3 t d))
    ∗ (∃ d, owns (c : Thread nD τ) (st23_4 t) fullShare ((dat V c).before 4 t d)))

/-- and what it returns. -/
def bodyPost (c : Dev nD) (t : Fin cfg23.N) : sProp 𝕄 :=
  iprop((dat V c).Φ t.succ ∗ (dat V c).owesAt () t.succ
    ∗ owns (c : Thread nD τ) (st23_0 t) fullShare ((dat V c).after 0 t)
    ∗ owns (c : Thread nD τ) (st23_1 t) fullShare ((dat V c).after 1 t)
    ∗ owns (c : Thread nD τ) (st23_2 t) fullShare ((dat V c).after 2 t)
    ∗ owns (c : Thread nD τ) (st23_3 t) fullShare ((dat V c).after 3 t)
    ∗ owns (c : Thread nD τ) (st23_4 t) fullShare ((dat V c).after 4 t))

/-- The body at any point: the four inputs' buffers hold their blocks, so the body's triple applies; the invariant and
    the debt pass through unread. -/
theorem sound_body (c : Dev nD) (t : Fin cfg23.N) :
    bodyPre V c t ⊢ wp frame (wpE (defs₀ (F := F)) Variants.none c none) Set.univ (bodyAt23 t) (fun _ => bodyPost V c t) := by
  unfold bodyPre bodyPost bodyAt23
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W23, bigSep_W23]
  exact sound_body V c t

end Cert.ReferenceIdeal.Reg23
-- ==== Proof.RI.Seg23.lean ====
import proofs.«143011_g2000502688546152_pallasbulk_1201_3_alg».proof.Proof.RI.Reg23
import proofs.«143011_g2000502688546152_pallasbulk_1201_3_alg».proof.Proof.RI.Rest
import Idealize.ShloMosaic.Lib.Pipeline.Regions

/-! # Region 23 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg23

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec23 4)) ((dat (VW W) c).arrAt 4 cfg23.N)

theorem Wout_out (c : Dev nD) :
    Wout W c (Proc.devRef .tc (Pipeline.arrRef spec23 4)) = (dat (VW W) c).arrAt 4 cfg23.N := by
  unfold Wout; exact Function.update_self ..

theorem Wout_of_ne (c : Dev nD) (b : DevRef τ sig) (hb : b ≠ Proc.devRef .tc (Pipeline.arrRef spec23 4)) :
    Wout W c b = W c b := by
  unfold Wout; exact Function.update_of_ne hb ..

theorem Wout_of_ne_ref (c : Dev nD) (b : Ref sig .tc) (hb : b ≠ Pipeline.arrRef spec23 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec23)
    = {Pipeline.arrRef spec23 0, Pipeline.arrRef spec23 2, Pipeline.arrRef spec23 3, Pipeline.arrRef spec23 4} := by decide

/-- The pipeline's arrays at contents `G`, window by window: the input array at its two half shares, the rest whole. -/
theorem arrays_eq (c : Dev nD) (G : (w : Fin cfg23.W) → Buf (Elt F) ((cfg23.win w).arr.view.loc (c : Thread nD τ))) :
    ((dat (VW W) c).arrays G : sProp 𝕄) = iprop(
      (((c : Thread nD τ).loc (Pipeline.arrRef spec23 0)) ↦{fullShare.left} G 0)
      ∗ (((c : Thread nD τ).loc (Pipeline.arrRef spec23 1)) ↦{fullShare.right} G 1)
      ∗ (((c : Thread nD τ).loc (Pipeline.arrRef spec23 2)) ↦{fullShare} G 2)
      ∗ (((c : Thread nD τ).loc (Pipeline.arrRef spec23 3)) ↦{fullShare} G 3)
      ∗ (((c : Thread nD τ).loc (Pipeline.arrRef spec23 4)) ↦{fullShare} G 4)) := by
  have h : ((dat (VW W) c).arrays G : sProp 𝕄) = bigSep Finset.univ fun w =>
      (((c : Thread nD τ).loc (Pipeline.arrRef spec23 w)) ↦{(dat (VW W) c).share w} G w : sProp 𝕄) := by
    unfold Pipeline.Dat.arrays
    exact bigSep_congr fun w _ => by rw [(arr_whole23 w).set_eq_univ]
  rw [h, bigSep_W23, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec23 c X : sProp 𝕄) = iprop(
      (((c : Thread nD τ).loc (Pipeline.arrRef spec23 0)) ↦{fullShare} X (Pipeline.arrRef spec23 0))
      ∗ (((c : Thread nD τ).loc (Pipeline.arrRef spec23 2)) ↦{fullShare} X (Pipeline.arrRef spec23 2))
      ∗ (((c : Thread nD τ).loc (Pipeline.arrRef spec23 3)) ↦{fullShare} X (Pipeline.arrRef spec23 3))
      ∗ (((c : Thread nD τ).loc (Pipeline.arrRef spec23 4)) ↦{fullShare} X (Pipeline.arrRef spec23 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec23 c X ∗ Pipeline.unscopedRest spec23 c X) :=
  Pipeline.unscopedBufs_split₀ cfgs 23 winFacts₀23.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec23 1) = (c : Thread nD τ).loc (Pipeline.arrRef spec23 0) := rfl
theorem halves01 (c : Dev nD) :
    (((c : Thread nD τ).loc (Pipeline.arrRef spec23 0)) ↦{fullShare} VW W c (Pipeline.arrRef spec23 0) : sProp 𝕄)
      ⊣⊢ iprop((((c : Thread nD τ).loc (Pipeline.arrRef spec23 0)) ↦{fullShare.left} VW W c (Pipeline.arrRef spec23 0))
        ∗ (((c : Thread nD τ).loc (Pipeline.arrRef spec23 1)) ↦{fullShare.right} VW W c (Pipeline.arrRef spec23 1))) :=
  halves (loc_1 c) _ _ HEq.rfl

/-- An array's entry contents are what the region finds. -/
theorem arrAt_zero (c : Dev nD) (w : Fin cfg23.W) : (dat (VW W) c).arrAt w 0 = VW W c (Pipeline.arrRef spec23 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec23 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec23 c (fun b => Wout W c b) : sProp 𝕄) = iprop(
      (((c : Thread nD τ).loc (Pipeline.arrRef spec23 0)) ↦{fullShare} VW W c (Pipeline.arrRef spec23 0))
      ∗ (((c : Thread nD τ).loc (Pipeline.arrRef spec23 2)) ↦{fullShare} VW W c (Pipeline.arrRef spec23 2))
      ∗ (((c : Thread nD τ).loc (Pipeline.arrRef spec23 3)) ↦{fullShare} VW W c (Pipeline.arrRef spec23 3))
      ∗ (((c : Thread nD τ).loc (Pipeline.arrRef spec23 4)) ↦{fullShare} (dat (VW W) c).arrAt 4 cfg23.N)) := by
  rw [arrBufs_eq]
  rw [Wout_of_ne_ref W c (Pipeline.arrRef spec23 0) (by decide)]
  rw [Wout_of_ne_ref W c (Pipeline.arrRef spec23 2) (by decide)]
  rw [Wout_of_ne_ref W c (Pipeline.arrRef spec23 3) (by decide)]
  rw [Wout_out]

/-- The buffers that are no array of the region hold at the exit what they held at entry. -/
theorem rest_out (c : Dev nD) :
    (Pipeline.unscopedRest spec23 c (fun b => Wout W c b) : sProp 𝕄) = Pipeline.unscopedRest spec23 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg23.N) : sProp 𝕄) = iprop(
      (((c : Thread nD τ).loc (Pipeline.arrRef spec23 0)) ↦{fullShare.left} VW W c (Pipeline.arrRef spec23 0))
      ∗ (((c : Thread nD τ).loc (Pipeline.arrRef spec23 1)) ↦{fullShare.right} VW W c (Pipeline.arrRef spec23 1))
      ∗ (((c : Thread nD τ).loc (Pipeline.arrRef spec23 2)) ↦{fullShare} VW W c (Pipeline.arrRef spec23 2))
      ∗ (((c : Thread nD τ).loc (Pipeline.arrRef spec23 3)) ↦{fullShare} VW W c (Pipeline.arrRef spec23 3))
      ∗ (((c : Thread nD τ).loc (Pipeline.arrRef spec23 4)) ↦{fullShare} (dat (VW W) c).arrAt 4 cfg23.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg23.N) ∗ Pipeline.unscopedRest spec23 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 23 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 23 = fun c => dat (VW W) c) :
    RegionSeg (pcfgs (F := F)) adm pdats () defs₀ Variants.none L lv 23 where
  win := winFacts₀23
  block_pos := block_pos23
  stage_whole := stage_whole23
  K := PEmpty
  osem k := k.elim
  ho := Pipeline.OwnSemFacts.none _
  hbody c := by rw [hp]; exact (body_obligation (VW W) c).loose
  hwaits := Pipeline.hwaits_of_owed_zero _ _ _ _ L lv 23 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec23 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 23 c).Φ 0 = Pipeline.ΦA spec23 c := by rw [hp]; exact Φ_eq _ c 0
    rw [hΦ]; unfold Pipeline.ΦA
    iintro ⟨Hp, -, Hr⟩
    isplitl [Hr]; · iexact Hr
    iexact Hp
  hout c := by
    have hΦ : (pdats 23 c).Φ (Fin.last _) = Pipeline.ΦA spec23 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg23

end
-- ==== Proof.RI.Reg24.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 24: a 3×3 convolution with bias and ReLU over one row tile per grid point

The grid is (image n, row tile r), 16 × 4 points. Windows 0 and 1 are the row tiles r and r+1 of ONE zero-padded
input array [16, 35, 32, 256]; window 2 is the whole kernel array [3, 3, 256, 512]; window 3 the bias [1, 512]; window 4
the output's row tile r of [16, 28, 28, 512]. The body flattens the two input tiles to rows of 32·7 pixels, appends
32 zero rows, and adds nine matrix products — one per tap (dy, dx), each a row-shifted slab against the tap's
[256, 512] matrix —, then the bias, then the maximum with zero, and keeps the first 28 columns of each row. -/

set_option maxRecDepth 16384

noncomputable section

namespace Cert.ReferenceIdeal.Reg24

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg24.W) (t : Fin cfg24.N) :
    ((cfg24.win w).xblock (cfg24.grid.coords t)).Idx → Elt F (cfg24.win w).elt :=
  ((cfg24.win w).blk t).view.read (Elt F) (V c (Pipeline.arrRef spec24 w))

/-! ## The taps -/

/-- The [1, 1, 256, 512] rectangle of the kernel array at tap (dy, dx). -/
abbrev tapRect (dy dx : Nat) (h : ∀ a, ![dy, dx, 0, 0] a + S1x1x256x512.size a ≤ S3x3x256x512.size a) : Rect S3x3x256x512 :=
  Rect.unit (s := S3x3x256x512) ![dy, dx, 0, 0] S1x1x256x512.size h

/-- The whole input tile and the whole bias row, as the body loads them. -/
abbrev rIn : Rect S1x7x32x256 :=
  Rect.unit (s := S1x7x32x256) ![0, 0, 0, 0] S1x7x32x256.size inb_S1x7x32x256_S1x7x32x256_0_0_0_0
abbrev rBias : Rect S1x512 := Rect.unit (s := S1x512) ![0, 0] S1x512.size inb_S1x512_S1x512_0_0

/-! ## What the body leaves in the output window's buffer -/

/-- The output tile from the two input tiles `xa`, `xb`, the kernel array `wk` and the bias `b`: the sum of the nine
    taps' matrix products in the order (0,0), (0,1), …, (2,2), plus the bias, clamped below at zero, cut to 28 columns. -/
def out (xa xb : Vec F S1x7x32x256 .f32) (wk : Vec F S3x3x256x512 .f32) (b : Vec F S1x512 .f32) : Vec F S1x7x28x512 .f32 :=
  k24_pay1
    (k24_pay8 (k24_pay2 (View.ld xa rIn) (View.ld xb rIn)) (k24_pay3 (View.ld xa rIn) (View.ld xb rIn))
      (k24_pay4 (View.ld xa rIn) (View.ld xb rIn))
      (k24_pay5 (View.ld xa rIn) (View.ld xb rIn)
        (View.ld wk (tapRect 0 0 inb_S3x3x256x512_S1x1x256x512_0_0_0_0))
        (View.ld wk (tapRect 0 1 inb_S3x3x256x512_S1x1x256x512_0_1_0_0))
        (View.ld wk (tapRect 0 2 inb_S3x3x256x512_S1x1x256x512_0_2_0_0)))
      (k24_pay6 (View.ld xa rIn) (View.ld xb rIn))
      (k24_pay7 (View.ld wk (tapRect 1 0 inb_S3x3x256x512_S1x1x256x512_1_0_0_0)))
      (View.ld wk (tapRect 1 1 inb_S3x3x256x512_S1x1x256x512_1_1_0_0))
      (View.ld wk (tapRect 1 2 inb_S3x3x256x512_S1x1x256x512_1_2_0_0))
      (View.ld wk (tapRect 2 0 inb_S3x3x256x512_S1x1x256x512_2_0_0_0))
      (View.ld wk (tapRect 2 1 inb_S3x3x256x512_S1x1x256x512_2_1_0_0))
      (View.ld wk (tapRect 2 2 inb_S3x3x256x512_S1x1x256x512_2_2_0_0))
      (View.ld b rBias))
    (k24_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg24 c where
  A w := V c (Pipeline.arrRef spec24 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec24 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg24.W) : (dat V c).A w = V c (Pipeline.arrRef spec24 w) := by
  dsimp only [dat]

theorem after_0 (c : Dev nD) (t : Fin cfg24.N) : (dat V c).after 0 t = iblk V c 0 t := by dsimp only [dat]
theorem after_1 (c : Dev nD) (t : Fin cfg24.N) : (dat V c).after 1 t = iblk V c 1 t := by dsimp only [dat]
theorem after_2 (c : Dev nD) (t : Fin cfg24.N) : (dat V c).after 2 t = iblk V c 2 t := by dsimp only [dat]
theorem after_3 (c : Dev nD) (t : Fin cfg24.N) : (dat V c).after 3 t = iblk V c 3 t := by dsimp only [dat]
theorem after_4 (c : Dev nD) (t : Fin cfg24.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x7x28x512 :=
  Rect.unit (s := S1x7x28x512) ![0, 0, 0, 0] S1x7x28x512.size inb_S1x7x28x512_S1x7x28x512_0_0_0_0

theorem hz4 : (![0, 0, 0, 0] : Fin 4 → Nat) = fun _ => 0 := funext fun a => by fin_cases a <;> rfl

/-- The one store covers the output tile. -/
theorem cover_out (p : Vec F S1x7x28x512 .f32) (y : S1x7x28x512.Idx) :
    ∃ pc ∈ ([⟨rOut, p⟩] : List (View.Piece (Elt F) S1x7x28x512 .f32)), y ∈ pc.1.set :=
  View.cover_of_tiled [⟨rOut, p⟩] S1x7x28x512.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid24.Coords)
    (arg2 : Memref sig .tc .vmem S1x7x32x256 .f32) (harg2 : arg2.IsWhole)
    (arg3 : Memref sig .tc .vmem S1x7x32x256 .f32) (harg3 : arg3.IsWhole)
    (arg4 : Memref sig .tc .vmem S3x3x256x512 .f32) (harg4 : arg4.IsWhole)
    (arg5 : Memref sig .tc .vmem S1x512 .f32) (harg5 : arg5.IsWhole)
    (arg6 : Memref sig .tc .vmem S1x7x28x512 .f32) (harg6 : arg6.IsWhole)
    (xa xb : Vec F S1x7x32x256 .f32) (wk : Vec F S3x3x256x512 .f32) (b : Vec F S1x512 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc24__conv3x3_relu_kernel i arg2 harg2 arg3 harg3 arg4 harg4 arg5 harg5 arg6 harg6) K := by
  sl_unfold [cc24__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg24.N + 1)) : (dat V c).Φ t = Pipeline.ΦA spec24 c := by dsimp only [dat]
theorem owed_eq (c : Dev nD) (t : Fin (cfg24.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg24 c)
    (hA : dat'.A 0 = V c (Pipeline.arrRef spec24 0)) (hafter : ∀ t, dat'.after 0 t = iblk V c 0 t)
    (t : Fin cfg24.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg24.N) (d) : (dat V c).before 0 t d = iblk V c 0 t :=
  before_0_of V (dat V c) (A_eq V c 0) (after_0 V c) t d

theorem before_1_of {c : Dev nD} (dat' : Dat τ (Elt F) Unit ℕ (UR sig nD τ) ℕ cfg24 c)
    (hA : dat'.A 1 = V c (Pipeline.arrRef spec24 1)) (hafter : ∀ t, dat'.after 1 t = iblk V c 1 t)
    (t : Fin cfg24.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg24.N) (d) : (dat V c).before 1 t d = iblk V c 1 t :=
  before_1_of V (dat V c) (A_eq V c 1) (after_1 V c) t d

theorem before_2_of {c : Dev nD} (dat' : Dat τ (Elt F) Unit ℕ (UR sig nD τ) ℕ cfg24 c)
    (hA : dat'.A 2 = V c (Pipeline.arrRef spec24 2)) (hafter : ∀ t, dat'.after 2 t = iblk V c 2 t)
    (t : Fin cfg24.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg24.N) (d) : (dat V c).before 2 t d = iblk V c 2 t :=
  before_2_of V (dat V c) (A_eq V c 2) (after_2 V c) t d

theorem before_3_of {c : Dev nD} (dat' : Dat τ (Elt F) Unit ℕ (UR sig nD τ) ℕ cfg24 c)
    (hA : dat'.A 3 = V c (Pipeline.arrRef spec24 3)) (hafter : ∀ t, dat'.after 3 t = iblk V c 3 t)
    (t : Fin cfg24.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg24.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg24.N) : sProp 𝕄 :=
  iprop((dat V c).Φ t.castSucc ∗ (dat V c).owesAt () t.castSucc
    ∗ (∃ d, owns (c : Thread nD τ) (st24_0 t) fullShare ((dat V c).before 0 t d))
    ∗ (∃ d, owns (c : Thread nD τ) (st24_1 t) fullShare ((dat V c).before 1 t d))
    ∗ (∃ d, owns (c : Thread nD τ) (st24_2 t) fullShare ((dat V c).before 2 t d))
    ∗ (∃ d, owns (c : Thread nD τ) (st24_3 t) fullShare ((dat V c).before 3 t d))
    ∗ (∃ d, owns (c : Thread nD τ) (st24_4 t) fullShare ((dat V c).before 4 t d)))

/-- and what it returns. -/
def bodyPost (c : Dev nD) (t : Fin cfg24.N) : sProp 𝕄 :=
  iprop((dat V c).Φ t.succ ∗ (dat V c).owesAt () t.succ
    ∗ owns (c : Thread nD τ) (st24_0 t) fullShare ((dat V c).after 0 t)
    ∗ owns (c : Thread nD τ) (st24_1 t) fullShare ((dat V c).after 1 t)
    ∗ owns (c : Thread nD τ) (st24_2 t) fullShare ((dat V c).after 2 t)
    ∗ owns (c : Thread nD τ) (st24_3 t) fullShare ((dat V c).after 3 t)
    ∗ owns (c : Thread nD τ) (st24_4 t) fullShare ((dat V c).after 4 t))

/-- The body at any point: the four inputs' buffers hold their blocks, so the body's triple applies; the invariant and
    the debt pass through unread. -/
theorem sound_body (c : Dev nD) (t : Fin cfg24.N) :
    bodyPre V c t ⊢ wp frame (wpE (defs₀ (F := F)) Variants.none c none) Set.univ (bodyAt24 t) (fun _ => bodyPost V c t) := by
  unfold bodyPre bodyPost bodyAt24
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W24, bigSep_W24]
  exact sound_body V c t

end Cert.ReferenceIdeal.Reg24
-- ==== Proof.RI.Seg24.lean ====
import proofs.«143011_g2000502688546152_pallasbulk_1201_3_alg».proof.Proof.RI.Reg24
import proofs.«143011_g2000502688546152_pallasbulk_1201_3_alg».proof.Proof.RI.Rest
import Idealize.ShloMosaic.Lib.Pipeline.Regions

/-! # Region 24 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg24

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec24 4)) ((dat (VW W) c).arrAt 4 cfg24.N)

theorem Wout_out (c : Dev nD) :
    Wout W c (Proc.devRef .tc (Pipeline.arrRef spec24 4)) = (dat (VW W) c).arrAt 4 cfg24.N := by
  unfold Wout; exact Function.update_self ..

theorem Wout_of_ne (c : Dev nD) (b : DevRef τ sig) (hb : b ≠ Proc.devRef .tc (Pipeline.arrRef spec24 4)) :
    Wout W c b = W c b := by
  unfold Wout; exact Function.update_of_ne hb ..

theorem Wout_of_ne_ref (c : Dev nD) (b : Ref sig .tc) (hb : b ≠ Pipeline.arrRef spec24 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec24)
    = {Pipeline.arrRef spec24 0, Pipeline.arrRef spec24 2, Pipeline.arrRef spec24 3, Pipeline.arrRef spec24 4} := by decide

/-- The pipeline's arrays at contents `G`, window by window: the input array at its two half shares, the rest whole. -/
theorem arrays_eq (c : Dev nD) (G : (w : Fin cfg24.W) → Buf (Elt F) ((cfg24.win w).arr.view.loc (c : Thread nD τ))) :
    ((dat (VW W) c).arrays G : sProp 𝕄) = iprop(
      (((c : Thread nD τ).loc (Pipeline.arrRef spec24 0)) ↦{fullShare.left} G 0)
      ∗ (((c : Thread nD τ).loc (Pipeline.arrRef spec24 1)) ↦{fullShare.right} G 1)
      ∗ (((c : Thread nD τ).loc (Pipeline.arrRef spec24 2)) ↦{fullShare} G 2)
      ∗ (((c : Thread nD τ).loc (Pipeline.arrRef spec24 3)) ↦{fullShare} G 3)
      ∗ (((c : Thread nD τ).loc (Pipeline.arrRef spec24 4)) ↦{fullShare} G 4)) := by
  have h : ((dat (VW W) c).arrays G : sProp 𝕄) = bigSep Finset.univ fun w =>
      (((c : Thread nD τ).loc (Pipeline.arrRef spec24 w)) ↦{(dat (VW W) c).share w} G w : sProp 𝕄) := by
    unfold Pipeline.Dat.arrays
    exact bigSep_congr fun w _ => by rw [(arr_whole24 w).set_eq_univ]
  rw [h, bigSep_W24, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec24 c X : sProp 𝕄) = iprop(
      (((c : Thread nD τ).loc (Pipeline.arrRef spec24 0)) ↦{fullShare} X (Pipeline.arrRef spec24 0))
      ∗ (((c : Thread nD τ).loc (Pipeline.arrRef spec24 2)) ↦{fullShare} X (Pipeline.arrRef spec24 2))
      ∗ (((c : Thread nD τ).loc (Pipeline.arrRef spec24 3)) ↦{fullShare} X (Pipeline.arrRef spec24 3))
      ∗ (((c : Thread nD τ).loc (Pipeline.arrRef spec24 4)) ↦{fullShare} X (Pipeline.arrRef spec24 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec24 c X ∗ Pipeline.unscopedRest spec24 c X) :=
  Pipeline.unscopedBufs_split₀ cfgs 24 winFacts₀24.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec24 1) = (c : Thread nD τ).loc (Pipeline.arrRef spec24 0) := rfl
theorem halves01 (c : Dev nD) :
    (((c : Thread nD τ).loc (Pipeline.arrRef spec24 0)) ↦{fullShare} VW W c (Pipeline.arrRef spec24 0) : sProp 𝕄)
      ⊣⊢ iprop((((c : Thread nD τ).loc (Pipeline.arrRef spec24 0)) ↦{fullShare.left} VW W c (Pipeline.arrRef spec24 0))
        ∗ (((c : Thread nD τ).loc (Pipeline.arrRef spec24 1)) ↦{fullShare.right} VW W c (Pipeline.arrRef spec24 1))) :=
  halves (loc_1 c) _ _ HEq.rfl

/-- An array's entry contents are what the region finds. -/
theorem arrAt_zero (c : Dev nD) (w : Fin cfg24.W) : (dat (VW W) c).arrAt w 0 = VW W c (Pipeline.arrRef spec24 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec24 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec24 c (fun b => Wout W c b) : sProp 𝕄) = iprop(
      (((c : Thread nD τ).loc (Pipeline.arrRef spec24 0)) ↦{fullShare} VW W c (Pipeline.arrRef spec24 0))
      ∗ (((c : Thread nD τ).loc (Pipeline.arrRef spec24 2)) ↦{fullShare} VW W c (Pipeline.arrRef spec24 2))
      ∗ (((c : Thread nD τ).loc (Pipeline.arrRef spec24 3)) ↦{fullShare} VW W c (Pipeline.arrRef spec24 3))
      ∗ (((c : Thread nD τ).loc (Pipeline.arrRef spec24 4)) ↦{fullShare} (dat (VW W) c).arrAt 4 cfg24.N)) := by
  rw [arrBufs_eq]
  rw [Wout_of_ne_ref W c (Pipeline.arrRef spec24 0) (by decide)]
  rw [Wout_of_ne_ref W c (Pipeline.arrRef spec24 2) (by decide)]
  rw [Wout_of_ne_ref W c (Pipeline.arrRef spec24 3) (by decide)]
  rw [Wout_out]

/-- The buffers that are no array of the region hold at the exit what they held at entry. -/
theorem rest_out (c : Dev nD) :
    (Pipeline.unscopedRest spec24 c (fun b => Wout W c b) : sProp 𝕄) = Pipeline.unscopedRest spec24 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg24.N) : sProp 𝕄) = iprop(
      (((c : Thread nD τ).loc (Pipeline.arrRef spec24 0)) ↦{fullShare.left} VW W c (Pipeline.arrRef spec24 0))
      ∗ (((c : Thread nD τ).loc (Pipeline.arrRef spec24 1)) ↦{fullShare.right} VW W c (Pipeline.arrRef spec24 1))
      ∗ (((c : Thread nD τ).loc (Pipeline.arrRef spec24 2)) ↦{fullShare} VW W c (Pipeline.arrRef spec24 2))
      ∗ (((c : Thread nD τ).loc (Pipeline.arrRef spec24 3)) ↦{fullShare} VW W c (Pipeline.arrRef spec24 3))
      ∗ (((c : Thread nD τ).loc (Pipeline.arrRef spec24 4)) ↦{fullShare} (dat (VW W) c).arrAt 4 cfg24.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg24.N) ∗ Pipeline.unscopedRest spec24 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 24 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 24 = fun c => dat (VW W) c) :
    RegionSeg (pcfgs (F := F)) adm pdats () defs₀ Variants.none L lv 24 where
  win := winFacts₀24
  block_pos := block_pos24
  stage_whole := stage_whole24
  K := PEmpty
  osem k := k.elim
  ho := Pipeline.OwnSemFacts.none _
  hbody c := by rw [hp]; exact (body_obligation (VW W) c).loose
  hwaits := Pipeline.hwaits_of_owed_zero _ _ _ _ L lv 24 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec24 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 24 c).Φ 0 = Pipeline.ΦA spec24 c := by rw [hp]; exact Φ_eq _ c 0
    rw [hΦ]; unfold Pipeline.ΦA
    iintro ⟨Hp, -, Hr⟩
    isplitl [Hr]; · iexact Hr
    iexact Hp
  hout c := by
    have hΦ : (pdats 24 c).Φ (Fin.last _) = Pipeline.ΦA spec24 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg24

end
-- ==== Proof.RI.Reg25.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 25: a 3×3 convolution with bias and ReLU over one row tile per grid point

The grid is (image n, row tile r), 16 × 4 points. Windows 0 and 1 are the row tiles r and r+1 of ONE zero-padded
input array [16, 35, 32, 512]; window 2 is the whole kernel array [3, 3, 512, 512]; window 3 the bias [1, 512]; window 4
the output's row tile r of [16, 28, 28, 512]. The body flattens the two input tiles to rows of 32·7 pixels, appends
32 zero rows, and adds nine matrix products — one per tap (dy, dx), each a row-shifted slab against the tap's
[512, 512] matrix —, then the bias, then the maximum with zero, and keeps the first 28 columns of each row. -/

set_option maxRecDepth 16384

noncomputable section

namespace Cert.ReferenceIdeal.Reg25

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg25.W) (t : Fin cfg25.N) :
    ((cfg25.win w).xblock (cfg25.grid.coords t)).Idx → Elt F (cfg25.win w).elt :=
  ((cfg25.win w).blk t).view.read (Elt F) (V c (Pipeline.arrRef spec25 w))

/-! ## The taps -/

/-- The [1, 1, 512, 512] rectangle of the kernel array at tap (dy, dx). -/
abbrev tapRect (dy dx : Nat) (h : ∀ a, ![dy, dx, 0, 0] a + S1x1x512x512.size a ≤ S3x3x512x512.size a) : Rect S3x3x512x512 :=
  Rect.unit (s := S3x3x512x512) ![dy, dx, 0, 0] S1x1x512x512.size h

/-- The whole input tile and the whole bias row, as the body loads them. -/
abbrev rIn : Rect S1x7x32x512 :=
  Rect.unit (s := S1x7x32x512) ![0, 0, 0, 0] S1x7x32x512.size inb_S1x7x32x512_S1x7x32x512_0_0_0_0
abbrev rBias : Rect S1x512 := Rect.unit (s := S1x512) ![0, 0] S1x512.size inb_S1x512_S1x512_0_0

/-! ## What the body leaves in the output window's buffer -/

/-- The output tile from the two input tiles `xa`, `xb`, the kernel array `wk` and the bias `b`: the sum of the nine
    taps' matrix products in the order (0,0), (0,1), …, (2,2), plus the bias, clamped below at zero, cut to 28 columns. -/
def out (xa xb : Vec F S1x7x32x512 .f32) (wk : Vec F S3x3x512x512 .f32) (b : Vec F S1x512 .f32) : Vec F S1x7x28x512 .f32 :=
  k25_pay1
    (k25_pay8 (k25_pay2 (View.ld xa rIn) (View.ld xb rIn)) (k25_pay3 (View.ld xa rIn) (View.ld xb rIn))
      (k25_pay4 (View.ld xa rIn) (View.ld xb rIn))
      (k25_pay5 (View.ld xa rIn) (View.ld xb rIn)
        (View.ld wk (tapRect 0 0 inb_S3x3x512x512_S1x1x512x512_0_0_0_0))
        (View.ld wk (tapRect 0 1 inb_S3x3x512x512_S1x1x512x512_0_1_0_0))
        (View.ld wk (tapRect 0 2 inb_S3x3x512x512_S1x1x512x512_0_2_0_0)))
      (k25_pay6 (View.ld xa rIn) (View.ld xb rIn))
      (k25_pay7 (View.ld wk (tapRect 1 0 inb_S3x3x512x512_S1x1x512x512_1_0_0_0)))
      (View.ld wk (tapRect 1 1 inb_S3x3x512x512_S1x1x512x512_1_1_0_0))
      (View.ld wk (tapRect 1 2 inb_S3x3x512x512_S1x1x512x512_1_2_0_0))
      (View.ld wk (tapRect 2 0 inb_S3x3x512x512_S1x1x512x512_2_0_0_0))
      (View.ld wk (tapRect 2 1 inb_S3x3x512x512_S1x1x512x512_2_1_0_0))
      (View.ld wk (tapRect 2 2 inb_S3x3x512x512_S1x1x512x512_2_2_0_0))
      (View.ld b rBias))
    (k25_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg25 c where
  A w := V c (Pipeline.arrRef spec25 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec25 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg25.W) : (dat V c).A w = V c (Pipeline.arrRef spec25 w) := by
  dsimp only [dat]

theorem after_0 (c : Dev nD) (t : Fin cfg25.N) : (dat V c).after 0 t = iblk V c 0 t := by dsimp only [dat]
theorem after_1 (c : Dev nD) (t : Fin cfg25.N) : (dat V c).after 1 t = iblk V c 1 t := by dsimp only [dat]
theorem after_2 (c : Dev nD) (t : Fin cfg25.N) : (dat V c).after 2 t = iblk V c 2 t := by dsimp only [dat]
theorem after_3 (c : Dev nD) (t : Fin cfg25.N) : (dat V c).after 3 t = iblk V c 3 t := by dsimp only [dat]
theorem after_4 (c : Dev nD) (t : Fin cfg25.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x7x28x512 :=
  Rect.unit (s := S1x7x28x512) ![0, 0, 0, 0] S1x7x28x512.size inb_S1x7x28x512_S1x7x28x512_0_0_0_0

theorem hz4 : (![0, 0, 0, 0] : Fin 4 → Nat) = fun _ => 0 := funext fun a => by fin_cases a <;> rfl

/-- The one store covers the output tile. -/
theorem cover_out (p : Vec F S1x7x28x512 .f32) (y : S1x7x28x512.Idx) :
    ∃ pc ∈ ([⟨rOut, p⟩] : List (View.Piece (Elt F) S1x7x28x512 .f32)), y ∈ pc.1.set :=
  View.cover_of_tiled [⟨rOut, p⟩] S1x7x28x512.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid25.Coords)
    (arg2 : Memref sig .tc .vmem S1x7x32x512 .f32) (harg2 : arg2.IsWhole)
    (arg3 : Memref sig .tc .vmem S1x7x32x512 .f32) (harg3 : arg3.IsWhole)
    (arg4 : Memref sig .tc .vmem S3x3x512x512 .f32) (harg4 : arg4.IsWhole)
    (arg5 : Memref sig .tc .vmem S1x512 .f32) (harg5 : arg5.IsWhole)
    (arg6 : Memref sig .tc .vmem S1x7x28x512 .f32) (harg6 : arg6.IsWhole)
    (xa xb : Vec F S1x7x32x512 .f32) (wk : Vec F S3x3x512x512 .f32) (b : Vec F S1x512 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc25__conv3x3_relu_kernel i arg2 harg2 arg3 harg3 arg4 harg4 arg5 harg5 arg6 harg6) K := by
  sl_unfold [cc25__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg25.N + 1)) : (dat V c).Φ t = Pipeline.ΦA spec25 c := by dsimp only [dat]
theorem owed_eq (c : Dev nD) (t : Fin (cfg25.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg25 c)
    (hA : dat'.A 0 = V c (Pipeline.arrRef spec25 0)) (hafter : ∀ t, dat'.after 0 t = iblk V c 0 t)
    (t : Fin cfg25.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg25.N) (d) : (dat V c).before 0 t d = iblk V c 0 t :=
  before_0_of V (dat V c) (A_eq V c 0) (after_0 V c) t d

theorem before_1_of {c : Dev nD} (dat' : Dat τ (Elt F) Unit ℕ (UR sig nD τ) ℕ cfg25 c)
    (hA : dat'.A 1 = V c (Pipeline.arrRef spec25 1)) (hafter : ∀ t, dat'.after 1 t = iblk V c 1 t)
    (t : Fin cfg25.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg25.N) (d) : (dat V c).before 1 t d = iblk V c 1 t :=
  before_1_of V (dat V c) (A_eq V c 1) (after_1 V c) t d

theorem before_2_of {c : Dev nD} (dat' : Dat τ (Elt F) Unit ℕ (UR sig nD τ) ℕ cfg25 c)
    (hA : dat'.A 2 = V c (Pipeline.arrRef spec25 2)) (hafter : ∀ t, dat'.after 2 t = iblk V c 2 t)
    (t : Fin cfg25.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg25.N) (d) : (dat V c).before 2 t d = iblk V c 2 t :=
  before_2_of V (dat V c) (A_eq V c 2) (after_2 V c) t d

theorem before_3_of {c : Dev nD} (dat' : Dat τ (Elt F) Unit ℕ (UR sig nD τ) ℕ cfg25 c)
    (hA : dat'.A 3 = V c (Pipeline.arrRef spec25 3)) (hafter : ∀ t, dat'.after 3 t = iblk V c 3 t)
    (t : Fin cfg25.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg25.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg25.N) : sProp 𝕄 :=
  iprop((dat V c).Φ t.castSucc ∗ (dat V c).owesAt () t.castSucc
    ∗ (∃ d, owns (c : Thread nD τ) (st25_0 t) fullShare ((dat V c).before 0 t d))
    ∗ (∃ d, owns (c : Thread nD τ) (st25_1 t) fullShare ((dat V c).before 1 t d))
    ∗ (∃ d, owns (c : Thread nD τ) (st25_2 t) fullShare ((dat V c).before 2 t d))
    ∗ (∃ d, owns (c : Thread nD τ) (st25_3 t) fullShare ((dat V c).before 3 t d))
    ∗ (∃ d, owns (c : Thread nD τ) (st25_4 t) fullShare ((dat V c).before 4 t d)))

/-- and what it returns. -/
def bodyPost (c : Dev nD) (t : Fin cfg25.N) : sProp 𝕄 :=
  iprop((dat V c).Φ t.succ ∗ (dat V c).owesAt () t.succ
    ∗ owns (c : Thread nD τ) (st25_0 t) fullShare ((dat V c).after 0 t)
    ∗ owns (c : Thread nD τ) (st25_1 t) fullShare ((dat V c).after 1 t)
    ∗ owns (c : Thread nD τ) (st25_2 t) fullShare ((dat V c).after 2 t)
    ∗ owns (c : Thread nD τ) (st25_3 t) fullShare ((dat V c).after 3 t)
    ∗ owns (c : Thread nD τ) (st25_4 t) fullShare ((dat V c).after 4 t))

/-- The body at any point: the four inputs' buffers hold their blocks, so the body's triple applies; the invariant and
    the debt pass through unread. -/
theorem sound_body (c : Dev nD) (t : Fin cfg25.N) :
    bodyPre V c t ⊢ wp frame (wpE (defs₀ (F := F)) Variants.none c none) Set.univ (bodyAt25 t) (fun _ => bodyPost V c t) := by
  unfold bodyPre bodyPost bodyAt25
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W25, bigSep_W25]
  exact sound_body V c t

end Cert.ReferenceIdeal.Reg25
-- ==== Proof.RI.Seg25.lean ====
import proofs.«143011_g2000502688546152_pallasbulk_1201_3_alg».proof.Proof.RI.Reg25
import proofs.«143011_g2000502688546152_pallasbulk_1201_3_alg».proof.Proof.RI.Rest
import Idealize.ShloMosaic.Lib.Pipeline.Regions

/-! # Region 25 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg25

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec25 4)) ((dat (VW W) c).arrAt 4 cfg25.N)

theorem Wout_out (c : Dev nD) :
    Wout W c (Proc.devRef .tc (Pipeline.arrRef spec25 4)) = (dat (VW W) c).arrAt 4 cfg25.N := by
  unfold Wout; exact Function.update_self ..

theorem Wout_of_ne (c : Dev nD) (b : DevRef τ sig) (hb : b ≠ Proc.devRef .tc (Pipeline.arrRef spec25 4)) :
    Wout W c b = W c b := by
  unfold Wout; exact Function.update_of_ne hb ..

theorem Wout_of_ne_ref (c : Dev nD) (b : Ref sig .tc) (hb : b ≠ Pipeline.arrRef spec25 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec25)
    = {Pipeline.arrRef spec25 0, Pipeline.arrRef spec25 2, Pipeline.arrRef spec25 3, Pipeline.arrRef spec25 4} := by decide

/-- The pipeline's arrays at contents `G`, window by window: the input array at its two half shares, the rest whole. -/
theorem arrays_eq (c : Dev nD) (G : (w : Fin cfg25.W) → Buf (Elt F) ((cfg25.win w).arr.view.loc (c : Thread nD τ))) :
    ((dat (VW W) c).arrays G : sProp 𝕄) = iprop(
      (((c : Thread nD τ).loc (Pipeline.arrRef spec25 0)) ↦{fullShare.left} G 0)
      ∗ (((c : Thread nD τ).loc (Pipeline.arrRef spec25 1)) ↦{fullShare.right} G 1)
      ∗ (((c : Thread nD τ).loc (Pipeline.arrRef spec25 2)) ↦{fullShare} G 2)
      ∗ (((c : Thread nD τ).loc (Pipeline.arrRef spec25 3)) ↦{fullShare} G 3)
      ∗ (((c : Thread nD τ).loc (Pipeline.arrRef spec25 4)) ↦{fullShare} G 4)) := by
  have h : ((dat (VW W) c).arrays G : sProp 𝕄) = bigSep Finset.univ fun w =>
      (((c : Thread nD τ).loc (Pipeline.arrRef spec25 w)) ↦{(dat (VW W) c).share w} G w : sProp 𝕄) := by
    unfold Pipeline.Dat.arrays
    exact bigSep_congr fun w _ => by rw [(arr_whole25 w).set_eq_univ]
  rw [h, bigSep_W25, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec25 c X : sProp 𝕄) = iprop(
      (((c : Thread nD τ).loc (Pipeline.arrRef spec25 0)) ↦{fullShare} X (Pipeline.arrRef spec25 0))
      ∗ (((c : Thread nD τ).loc (Pipeline.arrRef spec25 2)) ↦{fullShare} X (Pipeline.arrRef spec25 2))
      ∗ (((c : Thread nD τ).loc (Pipeline.arrRef spec25 3)) ↦{fullShare} X (Pipeline.arrRef spec25 3))
      ∗ (((c : Thread nD τ).loc (Pipeline.arrRef spec25 4)) ↦{fullShare} X (Pipeline.arrRef spec25 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec25 c X ∗ Pipeline.unscopedRest spec25 c X) :=
  Pipeline.unscopedBufs_split₀ cfgs 25 winFacts₀25.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec25 1) = (c : Thread nD τ).loc (Pipeline.arrRef spec25 0) := rfl
theorem halves01 (c : Dev nD) :
    (((c : Thread nD τ).loc (Pipeline.arrRef spec25 0)) ↦{fullShare} VW W c (Pipeline.arrRef spec25 0) : sProp 𝕄)
      ⊣⊢ iprop((((c : Thread nD τ).loc (Pipeline.arrRef spec25 0)) ↦{fullShare.left} VW W c (Pipeline.arrRef spec25 0))
        ∗ (((c : Thread nD τ).loc (Pipeline.arrRef spec25 1)) ↦{fullShare.right} VW W c (Pipeline.arrRef spec25 1))) :=
  halves (loc_1 c) _ _ HEq.rfl

/-- An array's entry contents are what the region finds. -/
theorem arrAt_zero (c : Dev nD) (w : Fin cfg25.W) : (dat (VW W) c).arrAt w 0 = VW W c (Pipeline.arrRef spec25 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec25 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec25 c (fun b => Wout W c b) : sProp 𝕄) = iprop(
      (((c : Thread nD τ).loc (Pipeline.arrRef spec25 0)) ↦{fullShare} VW W c (Pipeline.arrRef spec25 0))
      ∗ (((c : Thread nD τ).loc (Pipeline.arrRef spec25 2)) ↦{fullShare} VW W c (Pipeline.arrRef spec25 2))
      ∗ (((c : Thread nD τ).loc (Pipeline.arrRef spec25 3)) ↦{fullShare} VW W c (Pipeline.arrRef spec25 3))
      ∗ (((c : Thread nD τ).loc (Pipeline.arrRef spec25 4)) ↦{fullShare} (dat (VW W) c).arrAt 4 cfg25.N)) := by
  rw [arrBufs_eq]
  rw [Wout_of_ne_ref W c (Pipeline.arrRef spec25 0) (by decide)]
  rw [Wout_of_ne_ref W c (Pipeline.arrRef spec25 2) (by decide)]
  rw [Wout_of_ne_ref W c (Pipeline.arrRef spec25 3) (by decide)]
  rw [Wout_out]

/-- The buffers that are no array of the region hold at the exit what they held at entry. -/
theorem rest_out (c : Dev nD) :
    (Pipeline.unscopedRest spec25 c (fun b => Wout W c b) : sProp 𝕄) = Pipeline.unscopedRest spec25 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg25.N) : sProp 𝕄) = iprop(
      (((c : Thread nD τ).loc (Pipeline.arrRef spec25 0)) ↦{fullShare.left} VW W c (Pipeline.arrRef spec25 0))
      ∗ (((c : Thread nD τ).loc (Pipeline.arrRef spec25 1)) ↦{fullShare.right} VW W c (Pipeline.arrRef spec25 1))
      ∗ (((c : Thread nD τ).loc (Pipeline.arrRef spec25 2)) ↦{fullShare} VW W c (Pipeline.arrRef spec25 2))
      ∗ (((c : Thread nD τ).loc (Pipeline.arrRef spec25 3)) ↦{fullShare} VW W c (Pipeline.arrRef spec25 3))
      ∗ (((c : Thread nD τ).loc (Pipeline.arrRef spec25 4)) ↦{fullShare} (dat (VW W) c).arrAt 4 cfg25.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg25.N) ∗ Pipeline.unscopedRest spec25 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 25 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 25 = fun c => dat (VW W) c) :
    RegionSeg (pcfgs (F := F)) adm pdats () defs₀ Variants.none L lv 25 where
  win := winFacts₀25
  block_pos := block_pos25
  stage_whole := stage_whole25
  K := PEmpty
  osem k := k.elim
  ho := Pipeline.OwnSemFacts.none _
  hbody c := by rw [hp]; exact (body_obligation (VW W) c).loose
  hwaits := Pipeline.hwaits_of_owed_zero _ _ _ _ L lv 25 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec25 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 25 c).Φ 0 = Pipeline.ΦA spec25 c := by rw [hp]; exact Φ_eq _ c 0
    rw [hΦ]; unfold Pipeline.ΦA
    iintro ⟨Hp, -, Hr⟩
    isplitl [Hr]; · iexact Hr
    iexact Hp
  hout c := by
    have hΦ : (pdats 25 c).Φ (Fin.last _) = Pipeline.ΦA spec25 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg25

end
-- ==== Proof.RI.Reg26.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 26: a 3×3 convolution with bias and ReLU over one row tile per grid point

The grid is (image n, row tile r), 16 × 4 points. Windows 0 and 1 are the row tiles r and r+1 of ONE zero-padded
input array [16, 35, 32, 512]; window 2 is the whole kernel array [3, 3, 512, 512]; window 3 the bias [1, 512]; window 4
the output's row tile r of [16, 28, 28, 512]. The body flattens the two input tiles to rows of 32·7 pixels, appends
32 zero rows, and adds nine matrix products — one per tap (dy, dx), each a row-shifted slab against the tap's
[512, 512] matrix —, then the bias, then the maximum with zero, and keeps the first 28 columns of each row. -/

set_option maxRecDepth 16384

noncomputable section

namespace Cert.ReferenceIdeal.Reg26

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg26.W) (t : Fin cfg26.N) :
    ((cfg26.win w).xblock (cfg26.grid.coords t)).Idx → Elt F (cfg26.win w).elt :=
  ((cfg26.win w).blk t).view.read (Elt F) (V c (Pipeline.arrRef spec26 w))

/-! ## The taps -/

/-- The [1, 1, 512, 512] rectangle of the kernel array at tap (dy, dx). -/
abbrev tapRect (dy dx : Nat) (h : ∀ a, ![dy, dx, 0, 0] a + S1x1x512x512.size a ≤ S3x3x512x512.size a) : Rect S3x3x512x512 :=
  Rect.unit (s := S3x3x512x512) ![dy, dx, 0, 0] S1x1x512x512.size h

/-- The whole input tile and the whole bias row, as the body loads them. -/
abbrev rIn : Rect S1x7x32x512 :=
  Rect.unit (s := S1x7x32x512) ![0, 0, 0, 0] S1x7x32x512.size inb_S1x7x32x512_S1x7x32x512_0_0_0_0
abbrev rBias : Rect S1x512 := Rect.unit (s := S1x512) ![0, 0] S1x512.size inb_S1x512_S1x512_0_0

/-! ## What the body leaves in the output window's buffer -/

/-- The output tile from the two input tiles `xa`, `xb`, the kernel array `wk` and the bias `b`: the sum of the nine
    taps' matrix products in the order (0,0), (0,1), …, (2,2), plus the bias, clamped below at zero, cut to 28 columns. -/
def out (xa xb : Vec F S1x7x32x512 .f32) (wk : Vec F S3x3x512x512 .f32) (b : Vec F S1x512 .f32) : Vec F S1x7x28x512 .f32 :=
  k26_pay1
    (k26_pay8 (k26_pay2 (View.ld xa rIn) (View.ld xb rIn)) (k26_pay3 (View.ld xa rIn) (View.ld xb rIn))
      (k26_pay4 (View.ld xa rIn) (View.ld xb rIn))
      (k26_pay5 (View.ld xa rIn) (View.ld xb rIn)
        (View.ld wk (tapRect 0 0 inb_S3x3x512x512_S1x1x512x512_0_0_0_0))
        (View.ld wk (tapRect 0 1 inb_S3x3x512x512_S1x1x512x512_0_1_0_0))
        (View.ld wk (tapRect 0 2 inb_S3x3x512x512_S1x1x512x512_0_2_0_0)))
      (k26_pay6 (View.ld xa rIn) (View.ld xb rIn))
      (k26_pay7 (View.ld wk (tapRect 1 0 inb_S3x3x512x512_S1x1x512x512_1_0_0_0)))
      (View.ld wk (tapRect 1 1 inb_S3x3x512x512_S1x1x512x512_1_1_0_0))
      (View.ld wk (tapRect 1 2 inb_S3x3x512x512_S1x1x512x512_1_2_0_0))
      (View.ld wk (tapRect 2 0 inb_S3x3x512x512_S1x1x512x512_2_0_0_0))
      (View.ld wk (tapRect 2 1 inb_S3x3x512x512_S1x1x512x512_2_1_0_0))
      (View.ld wk (tapRect 2 2 inb_S3x3x512x512_S1x1x512x512_2_2_0_0))
      (View.ld b rBias))
    (k26_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg26 c where
  A w := V c (Pipeline.arrRef spec26 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec26 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg26.W) : (dat V c).A w = V c (Pipeline.arrRef spec26 w) := by
  dsimp only [dat]

theorem after_0 (c : Dev nD) (t : Fin cfg26.N) : (dat V c).after 0 t = iblk V c 0 t := by dsimp only [dat]
theorem after_1 (c : Dev nD) (t : Fin cfg26.N) : (dat V c).after 1 t = iblk V c 1 t := by dsimp only [dat]
theorem after_2 (c : Dev nD) (t : Fin cfg26.N) : (dat V c).after 2 t = iblk V c 2 t := by dsimp only [dat]
theorem after_3 (c : Dev nD) (t : Fin cfg26.N) : (dat V c).after 3 t = iblk V c 3 t := by dsimp only [dat]
theorem after_4 (c : Dev nD) (t : Fin cfg26.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x7x28x512 :=
  Rect.unit (s := S1x7x28x512) ![0, 0, 0, 0] S1x7x28x512.size inb_S1x7x28x512_S1x7x28x512_0_0_0_0

theorem hz4 : (![0, 0, 0, 0] : Fin 4 → Nat) = fun _ => 0 := funext fun a => by fin_cases a <;> rfl

/-- The one store covers the output tile. -/
theorem cover_out (p : Vec F S1x7x28x512 .f32) (y : S1x7x28x512.Idx) :
    ∃ pc ∈ ([⟨rOut, p⟩] : List (View.Piece (Elt F) S1x7x28x512 .f32)), y ∈ pc.1.set :=
  View.cover_of_tiled [⟨rOut, p⟩] S1x7x28x512.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid26.Coords)
    (arg2 : Memref sig .tc .vmem S1x7x32x512 .f32) (harg2 : arg2.IsWhole)
    (arg3 : Memref sig .tc .vmem S1x7x32x512 .f32) (harg3 : arg3.IsWhole)
    (arg4 : Memref sig .tc .vmem S3x3x512x512 .f32) (harg4 : arg4.IsWhole)
    (arg5 : Memref sig .tc .vmem S1x512 .f32) (harg5 : arg5.IsWhole)
    (arg6 : Memref sig .tc .vmem S1x7x28x512 .f32) (harg6 : arg6.IsWhole)
    (xa xb : Vec F S1x7x32x512 .f32) (wk : Vec F S3x3x512x512 .f32) (b : Vec F S1x512 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc26__conv3x3_relu_kernel i arg2 harg2 arg3 harg3 arg4 harg4 arg5 harg5 arg6 harg6) K := by
  sl_unfold [cc26__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg26.N + 1)) : (dat V c).Φ t = Pipeline.ΦA spec26 c := by dsimp only [dat]
theorem owed_eq (c : Dev nD) (t : Fin (cfg26.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg26 c)
    (hA : dat'.A 0 = V c (Pipeline.arrRef spec26 0)) (hafter : ∀ t, dat'.after 0 t = iblk V c 0 t)
    (t : Fin cfg26.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg26.N) (d) : (dat V c).before 0 t d = iblk V c 0 t :=
  before_0_of V (dat V c) (A_eq V c 0) (after_0 V c) t d

theorem before_1_of {c : Dev nD} (dat' : Dat τ (Elt F) Unit ℕ (UR sig nD τ) ℕ cfg26 c)
    (hA : dat'.A 1 = V c (Pipeline.arrRef spec26 1)) (hafter : ∀ t, dat'.after 1 t = iblk V c 1 t)
    (t : Fin cfg26.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg26.N) (d) : (dat V c).before 1 t d = iblk V c 1 t :=
  before_1_of V (dat V c) (A_eq V c 1) (after_1 V c) t d

theorem before_2_of {c : Dev nD} (dat' : Dat τ (Elt F) Unit ℕ (UR sig nD τ) ℕ cfg26 c)
    (hA : dat'.A 2 = V c (Pipeline.arrRef spec26 2)) (hafter : ∀ t, dat'.after 2 t = iblk V c 2 t)
    (t : Fin cfg26.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg26.N) (d) : (dat V c).before 2 t d = iblk V c 2 t :=
  before_2_of V (dat V c) (A_eq V c 2) (after_2 V c) t d

theorem before_3_of {c : Dev nD} (dat' : Dat τ (Elt F) Unit ℕ (UR sig nD τ) ℕ cfg26 c)
    (hA : dat'.A 3 = V c (Pipeline.arrRef spec26 3)) (hafter : ∀ t, dat'.after 3 t = iblk V c 3 t)
    (t : Fin cfg26.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg26.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg26.N) : sProp 𝕄 :=
  iprop((dat V c).Φ t.castSucc ∗ (dat V c).owesAt () t.castSucc
    ∗ (∃ d, owns (c : Thread nD τ) (st26_0 t) fullShare ((dat V c).before 0 t d))
    ∗ (∃ d, owns (c : Thread nD τ) (st26_1 t) fullShare ((dat V c).before 1 t d))
    ∗ (∃ d, owns (c : Thread nD τ) (st26_2 t) fullShare ((dat V c).before 2 t d))
    ∗ (∃ d, owns (c : Thread nD τ) (st26_3 t) fullShare ((dat V c).before 3 t d))
    ∗ (∃ d, owns (c : Thread nD τ) (st26_4 t) fullShare ((dat V c).before 4 t d)))

/-- and what it returns. -/
def bodyPost (c : Dev nD) (t : Fin cfg26.N) : sProp 𝕄 :=
  iprop((dat V c).Φ t.succ ∗ (dat V c).owesAt () t.succ
    ∗ owns (c : Thread nD τ) (st26_0 t) fullShare ((dat V c).after 0 t)
    ∗ owns (c : Thread nD τ) (st26_1 t) fullShare ((dat V c).after 1 t)
    ∗ owns (c : Thread nD τ) (st26_2 t) fullShare ((dat V c).after 2 t)
    ∗ owns (c : Thread nD τ) (st26_3 t) fullShare ((dat V c).after 3 t)
    ∗ owns (c : Thread nD τ) (st26_4 t) fullShare ((dat V c).after 4 t))

/-- The body at any point: the four inputs' buffers hold their blocks, so the body's triple applies; the invariant and
    the debt pass through unread. -/
theorem sound_body (c : Dev nD) (t : Fin cfg26.N) :
    bodyPre V c t ⊢ wp frame (wpE (defs₀ (F := F)) Variants.none c none) Set.univ (bodyAt26 t) (fun _ => bodyPost V c t) := by
  unfold bodyPre bodyPost bodyAt26
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W26, bigSep_W26]
  exact sound_body V c t

end Cert.ReferenceIdeal.Reg26
-- ==== Proof.RI.Seg26.lean ====
import proofs.«143011_g2000502688546152_pallasbulk_1201_3_alg».proof.Proof.RI.Reg26
import proofs.«143011_g2000502688546152_pallasbulk_1201_3_alg».proof.Proof.RI.Rest
import Idealize.ShloMosaic.Lib.Pipeline.Regions

/-! # Region 26 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg26

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec26 4)) ((dat (VW W) c).arrAt 4 cfg26.N)

theorem Wout_out (c : Dev nD) :
    Wout W c (Proc.devRef .tc (Pipeline.arrRef spec26 4)) = (dat (VW W) c).arrAt 4 cfg26.N := by
  unfold Wout; exact Function.update_self ..

theorem Wout_of_ne (c : Dev nD) (b : DevRef τ sig) (hb : b ≠ Proc.devRef .tc (Pipeline.arrRef spec26 4)) :
    Wout W c b = W c b := by
  unfold Wout; exact Function.update_of_ne hb ..

theorem Wout_of_ne_ref (c : Dev nD) (b : Ref sig .tc) (hb : b ≠ Pipeline.arrRef spec26 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec26)
    = {Pipeline.arrRef spec26 0, Pipeline.arrRef spec26 2, Pipeline.arrRef spec26 3, Pipeline.arrRef spec26 4} := by decide

/-- The pipeline's arrays at contents `G`, window by window: the input array at its two half shares, the rest whole. -/
theorem arrays_eq (c : Dev nD) (G : (w : Fin cfg26.W) → Buf (Elt F) ((cfg26.win w).arr.view.loc (c : Thread nD τ))) :
    ((dat (VW W) c).arrays G : sProp 𝕄) = iprop(
      (((c : Thread nD τ).loc (Pipeline.arrRef spec26 0)) ↦{fullShare.left} G 0)
      ∗ (((c : Thread nD τ).loc (Pipeline.arrRef spec26 1)) ↦{fullShare.right} G 1)
      ∗ (((c : Thread nD τ).loc (Pipeline.arrRef spec26 2)) ↦{fullShare} G 2)
      ∗ (((c : Thread nD τ).loc (Pipeline.arrRef spec26 3)) ↦{fullShare} G 3)
      ∗ (((c : Thread nD τ).loc (Pipeline.arrRef spec26 4)) ↦{fullShare} G 4)) := by
  have h : ((dat (VW W) c).arrays G : sProp 𝕄) = bigSep Finset.univ fun w =>
      (((c : Thread nD τ).loc (Pipeline.arrRef spec26 w)) ↦{(dat (VW W) c).share w} G w : sProp 𝕄) := by
    unfold Pipeline.Dat.arrays
    exact bigSep_congr fun w _ => by rw [(arr_whole26 w).set_eq_univ]
  rw [h, bigSep_W26, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec26 c X : sProp 𝕄) = iprop(
      (((c : Thread nD τ).loc (Pipeline.arrRef spec26 0)) ↦{fullShare} X (Pipeline.arrRef spec26 0))
      ∗ (((c : Thread nD τ).loc (Pipeline.arrRef spec26 2)) ↦{fullShare} X (Pipeline.arrRef spec26 2))
      ∗ (((c : Thread nD τ).loc (Pipeline.arrRef spec26 3)) ↦{fullShare} X (Pipeline.arrRef spec26 3))
      ∗ (((c : Thread nD τ).loc (Pipeline.arrRef spec26 4)) ↦{fullShare} X (Pipeline.arrRef spec26 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec26 c X ∗ Pipeline.unscopedRest spec26 c X) :=
  Pipeline.unscopedBufs_split₀ cfgs 26 winFacts₀26.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec26 1) = (c : Thread nD τ).loc (Pipeline.arrRef spec26 0) := rfl
theorem halves01 (c : Dev nD) :
    (((c : Thread nD τ).loc (Pipeline.arrRef spec26 0)) ↦{fullShare} VW W c (Pipeline.arrRef spec26 0) : sProp 𝕄)
      ⊣⊢ iprop((((c : Thread nD τ).loc (Pipeline.arrRef spec26 0)) ↦{fullShare.left} VW W c (Pipeline.arrRef spec26 0))
        ∗ (((c : Thread nD τ).loc (Pipeline.arrRef spec26 1)) ↦{fullShare.right} VW W c (Pipeline.arrRef spec26 1))) :=
  halves (loc_1 c) _ _ HEq.rfl

/-- An array's entry contents are what the region finds. -/
theorem arrAt_zero (c : Dev nD) (w : Fin cfg26.W) : (dat (VW W) c).arrAt w 0 = VW W c (Pipeline.arrRef spec26 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec26 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec26 c (fun b => Wout W c b) : sProp 𝕄) = iprop(
      (((c : Thread nD τ).loc (Pipeline.arrRef spec26 0)) ↦{fullShare} VW W c (Pipeline.arrRef spec26 0))
      ∗ (((c : Thread nD τ).loc (Pipeline.arrRef spec26 2)) ↦{fullShare} VW W c (Pipeline.arrRef spec26 2))
      ∗ (((c : Thread nD τ).loc (Pipeline.arrRef spec26 3)) ↦{fullShare} VW W c (Pipeline.arrRef spec26 3))
      ∗ (((c : Thread nD τ).loc (Pipeline.arrRef spec26 4)) ↦{fullShare} (dat (VW W) c).arrAt 4 cfg26.N)) := by
  rw [arrBufs_eq]
  rw [Wout_of_ne_ref W c (Pipeline.arrRef spec26 0) (by decide)]
  rw [Wout_of_ne_ref W c (Pipeline.arrRef spec26 2) (by decide)]
  rw [Wout_of_ne_ref W c (Pipeline.arrRef spec26 3) (by decide)]
  rw [Wout_out]

/-- The buffers that are no array of the region hold at the exit what they held at entry. -/
theorem rest_out (c : Dev nD) :
    (Pipeline.unscopedRest spec26 c (fun b => Wout W c b) : sProp 𝕄) = Pipeline.unscopedRest spec26 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg26.N) : sProp 𝕄) = iprop(
      (((c : Thread nD τ).loc (Pipeline.arrRef spec26 0)) ↦{fullShare.left} VW W c (Pipeline.arrRef spec26 0))
      ∗ (((c : Thread nD τ).loc (Pipeline.arrRef spec26 1)) ↦{fullShare.right} VW W c (Pipeline.arrRef spec26 1))
      ∗ (((c : Thread nD τ).loc (Pipeline.arrRef spec26 2)) ↦{fullShare} VW W c (Pipeline.arrRef spec26 2))
      ∗ (((c : Thread nD τ).loc (Pipeline.arrRef spec26 3)) ↦{fullShare} VW W c (Pipeline.arrRef spec26 3))
      ∗ (((c : Thread nD τ).loc (Pipeline.arrRef spec26 4)) ↦{fullShare} (dat (VW W) c).arrAt 4 cfg26.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg26.N) ∗ Pipeline.unscopedRest spec26 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 26 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 26 = fun c => dat (VW W) c) :
    RegionSeg (pcfgs (F := F)) adm pdats () defs₀ Variants.none L lv 26 where
  win := winFacts₀26
  block_pos := block_pos26
  stage_whole := stage_whole26
  K := PEmpty
  osem k := k.elim
  ho := Pipeline.OwnSemFacts.none _
  hbody c := by rw [hp]; exact (body_obligation (VW W) c).loose
  hwaits := Pipeline.hwaits_of_owed_zero _ _ _ _ L lv 26 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec26 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 26 c).Φ 0 = Pipeline.ΦA spec26 c := by rw [hp]; exact Φ_eq _ c 0
    rw [hΦ]; unfold Pipeline.ΦA
    iintro ⟨Hp, -, Hr⟩
    isplitl [Hr]; · iexact Hr
    iexact Hp
  hout c := by
    have hΦ : (pdats 26 c).Φ (Fin.last _) = Pipeline.ΦA spec26 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg26

end
-- ==== Proof.RI.Reg27.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 27: a 3×3 convolution with bias and ReLU over one row tile per grid point

The grid is (image n, row tile r), 16 × 4 points. Windows 0 and 1 are the row tiles r and r+1 of ONE zero-padded
input array [16, 35, 32, 512]; window 2 is the whole kernel array [3, 3, 512, 512]; window 3 the bias [1, 512]; window 4
the output's row tile r of [16, 28, 28, 512]. The body flattens the two input tiles to rows of 32·7 pixels, appends
32 zero rows, and adds nine matrix products — one per tap (dy, dx), each a row-shifted slab against the tap's
[512, 512] matrix —, then the bias, then the maximum with zero, and keeps the first 28 columns of each row. -/

set_option maxRecDepth 16384

noncomputable section

namespace Cert.ReferenceIdeal.Reg27

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg27.W) (t : Fin cfg27.N) :
    ((cfg27.win w).xblock (cfg27.grid.coords t)).Idx → Elt F (cfg27.win w).elt :=
  ((cfg27.win w).blk t).view.read (Elt F) (V c (Pipeline.arrRef spec27 w))

/-! ## The taps -/

/-- The [1, 1, 512, 512] rectangle of the kernel array at tap (dy, dx). -/
abbrev tapRect (dy dx : Nat) (h : ∀ a, ![dy, dx, 0, 0] a + S1x1x512x512.size a ≤ S3x3x512x512.size a) : Rect S3x3x512x512 :=
  Rect.unit (s := S3x3x512x512) ![dy, dx, 0, 0] S1x1x512x512.size h

/-- The whole input tile and the whole bias row, as the body loads them. -/
abbrev rIn : Rect S1x7x32x512 :=
  Rect.unit (s := S1x7x32x512) ![0, 0, 0, 0] S1x7x32x512.size inb_S1x7x32x512_S1x7x32x512_0_0_0_0
abbrev rBias : Rect S1x512 := Rect.unit (s := S1x512) ![0, 0] S1x512.size inb_S1x512_S1x512_0_0

/-! ## What the body leaves in the output window's buffer -/

/-- The output tile from the two input tiles `xa`, `xb`, the kernel array `wk` and the bias `b`: the sum of the nine
    taps' matrix products in the order (0,0), (0,1), …, (2,2), plus the bias, clamped below at zero, cut to 28 columns. -/
def out (xa xb : Vec F S1x7x32x512 .f32) (wk : Vec F S3x3x512x512 .f32) (b : Vec F S1x512 .f32) : Vec F S1x7x28x512 .f32 :=
  k27_pay1
    (k27_pay8 (k27_pay2 (View.ld xa rIn) (View.ld xb rIn)) (k27_pay3 (View.ld xa rIn) (View.ld xb rIn))
      (k27_pay4 (View.ld xa rIn) (View.ld xb rIn))
      (k27_pay5 (View.ld xa rIn) (View.ld xb rIn)
        (View.ld wk (tapRect 0 0 inb_S3x3x512x512_S1x1x512x512_0_0_0_0))
        (View.ld wk (tapRect 0 1 inb_S3x3x512x512_S1x1x512x512_0_1_0_0))
        (View.ld wk (tapRect 0 2 inb_S3x3x512x512_S1x1x512x512_0_2_0_0)))
      (k27_pay6 (View.ld xa rIn) (View.ld xb rIn))
      (k27_pay7 (View.ld wk (tapRect 1 0 inb_S3x3x512x512_S1x1x512x512_1_0_0_0)))
      (View.ld wk (tapRect 1 1 inb_S3x3x512x512_S1x1x512x512_1_1_0_0))
      (View.ld wk (tapRect 1 2 inb_S3x3x512x512_S1x1x512x512_1_2_0_0))
      (View.ld wk (tapRect 2 0 inb_S3x3x512x512_S1x1x512x512_2_0_0_0))
      (View.ld wk (tapRect 2 1 inb_S3x3x512x512_S1x1x512x512_2_1_0_0))
      (View.ld wk (tapRect 2 2 inb_S3x3x512x512_S1x1x512x512_2_2_0_0))
      (View.ld b rBias))
    (k27_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg27 c where
  A w := V c (Pipeline.arrRef spec27 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec27 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg27.W) : (dat V c).A w = V c (Pipeline.arrRef spec27 w) := by
  dsimp only [dat]

theorem after_0 (c : Dev nD) (t : Fin cfg27.N) : (dat V c).after 0 t = iblk V c 0 t := by dsimp only [dat]
theorem after_1 (c : Dev nD) (t : Fin cfg27.N) : (dat V c).after 1 t = iblk V c 1 t := by dsimp only [dat]
theorem after_2 (c : Dev nD) (t : Fin cfg27.N) : (dat V c).after 2 t = iblk V c 2 t := by dsimp only [dat]
theorem after_3 (c : Dev nD) (t : Fin cfg27.N) : (dat V c).after 3 t = iblk V c 3 t := by dsimp only [dat]
theorem after_4 (c : Dev nD) (t : Fin cfg27.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x7x28x512 :=
  Rect.unit (s := S1x7x28x512) ![0, 0, 0, 0] S1x7x28x512.size inb_S1x7x28x512_S1x7x28x512_0_0_0_0

theorem hz4 : (![0, 0, 0, 0] : Fin 4 → Nat) = fun _ => 0 := funext fun a => by fin_cases a <;> rfl

/-- The one store covers the output tile. -/
theorem cover_out (p : Vec F S1x7x28x512 .f32) (y : S1x7x28x512.Idx) :
    ∃ pc ∈ ([⟨rOut, p⟩] : List (View.Piece (Elt F) S1x7x28x512 .f32)), y ∈ pc.1.set :=
  View.cover_of_tiled [⟨rOut, p⟩] S1x7x28x512.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid27.Coords)
    (arg2 : Memref sig .tc .vmem S1x7x32x512 .f32) (harg2 : arg2.IsWhole)
    (arg3 : Memref sig .tc .vmem S1x7x32x512 .f32) (harg3 : arg3.IsWhole)
    (arg4 : Memref sig .tc .vmem S3x3x512x512 .f32) (harg4 : arg4.IsWhole)
    (arg5 : Memref sig .tc .vmem S1x512 .f32) (harg5 : arg5.IsWhole)
    (arg6 : Memref sig .tc .vmem S1x7x28x512 .f32) (harg6 : arg6.IsWhole)
    (xa xb : Vec F S1x7x32x512 .f32) (wk : Vec F S3x3x512x512 .f32) (b : Vec F S1x512 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc27__conv3x3_relu_kernel i arg2 harg2 arg3 harg3 arg4 harg4 arg5 harg5 arg6 harg6) K := by
  sl_unfold [cc27__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg27.N + 1)) : (dat V c).Φ t = Pipeline.ΦA spec27 c := by dsimp only [dat]
theorem owed_eq (c : Dev nD) (t : Fin (cfg27.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg27 c)
    (hA : dat'.A 0 = V c (Pipeline.arrRef spec27 0)) (hafter : ∀ t, dat'.after 0 t = iblk V c 0 t)
    (t : Fin cfg27.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg27.N) (d) : (dat V c).before 0 t d = iblk V c 0 t :=
  before_0_of V (dat V c) (A_eq V c 0) (after_0 V c) t d

theorem before_1_of {c : Dev nD} (dat' : Dat τ (Elt F) Unit ℕ (UR sig nD τ) ℕ cfg27 c)
    (hA : dat'.A 1 = V c (Pipeline.arrRef spec27 1)) (hafter : ∀ t, dat'.after 1 t = iblk V c 1 t)
    (t : Fin cfg27.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg27.N) (d) : (dat V c).before 1 t d = iblk V c 1 t :=
  before_1_of V (dat V c) (A_eq V c 1) (after_1 V c) t d

theorem before_2_of {c : Dev nD} (dat' : Dat τ (Elt F) Unit ℕ (UR sig nD τ) ℕ cfg27 c)
    (hA : dat'.A 2 = V c (Pipeline.arrRef spec27 2)) (hafter : ∀ t, dat'.after 2 t = iblk V c 2 t)
    (t : Fin cfg27.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg27.N) (d) : (dat V c).before 2 t d = iblk V c 2 t :=
  before_2_of V (dat V c) (A_eq V c 2) (after_2 V c) t d

theorem before_3_of {c : Dev nD} (dat' : Dat τ (Elt F) Unit ℕ (UR sig nD τ) ℕ cfg27 c)
    (hA : dat'.A 3 = V c (Pipeline.arrRef spec27 3)) (hafter : ∀ t, dat'.after 3 t = iblk V c 3 t)
    (t : Fin cfg27.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg27.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg27.N) : sProp 𝕄 :=
  iprop((dat V c).Φ t.castSucc ∗ (dat V c).owesAt () t.castSucc
    ∗ (∃ d, owns (c : Thread nD τ) (st27_0 t) fullShare ((dat V c).before 0 t d))
    ∗ (∃ d, owns (c : Thread nD τ) (st27_1 t) fullShare ((dat V c).before 1 t d))
    ∗ (∃ d, owns (c : Thread nD τ) (st27_2 t) fullShare ((dat V c).before 2 t d))
    ∗ (∃ d, owns (c : Thread nD τ) (st27_3 t) fullShare ((dat V c).before 3 t d))
    ∗ (∃ d, owns (c : Thread nD τ) (st27_4 t) fullShare ((dat V c).before 4 t d)))

/-- and what it returns. -/
def bodyPost (c : Dev nD) (t : Fin cfg27.N) : sProp 𝕄 :=
  iprop((dat V c).Φ t.succ ∗ (dat V c).owesAt () t.succ
    ∗ owns (c : Thread nD τ) (st27_0 t) fullShare ((dat V c).after 0 t)
    ∗ owns (c : Thread nD τ) (st27_1 t) fullShare ((dat V c).after 1 t)
    ∗ owns (c : Thread nD τ) (st27_2 t) fullShare ((dat V c).after 2 t)
    ∗ owns (c : Thread nD τ) (st27_3 t) fullShare ((dat V c).after 3 t)
    ∗ owns (c : Thread nD τ) (st27_4 t) fullShare ((dat V c).after 4 t))

/-- The body at any point: the four inputs' buffers hold their blocks, so the body's triple applies; the invariant and
    the debt pass through unread. -/
theorem sound_body (c : Dev nD) (t : Fin cfg27.N) :
    bodyPre V c t ⊢ wp frame (wpE (defs₀ (F := F)) Variants.none c none) Set.univ (bodyAt27 t) (fun _ => bodyPost V c t) := by
  unfold bodyPre bodyPost bodyAt27
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W27, bigSep_W27]
  exact sound_body V c t

end Cert.ReferenceIdeal.Reg27
-- ==== Proof.RI.Seg27.lean ====
import proofs.«143011_g2000502688546152_pallasbulk_1201_3_alg».proof.Proof.RI.Reg27
import proofs.«143011_g2000502688546152_pallasbulk_1201_3_alg».proof.Proof.RI.Rest
import Idealize.ShloMosaic.Lib.Pipeline.Regions

/-! # Region 27 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg27

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec27 4)) ((dat (VW W) c).arrAt 4 cfg27.N)

theorem Wout_out (c : Dev nD) :
    Wout W c (Proc.devRef .tc (Pipeline.arrRef spec27 4)) = (dat (VW W) c).arrAt 4 cfg27.N := by
  unfold Wout; exact Function.update_self ..

theorem Wout_of_ne (c : Dev nD) (b : DevRef τ sig) (hb : b ≠ Proc.devRef .tc (Pipeline.arrRef spec27 4)) :
    Wout W c b = W c b := by
  unfold Wout; exact Function.update_of_ne hb ..

theorem Wout_of_ne_ref (c : Dev nD) (b : Ref sig .tc) (hb : b ≠ Pipeline.arrRef spec27 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec27)
    = {Pipeline.arrRef spec27 0, Pipeline.arrRef spec27 2, Pipeline.arrRef spec27 3, Pipeline.arrRef spec27 4} := by decide

/-- The pipeline's arrays at contents `G`, window by window: the input array at its two half shares, the rest whole. -/
theorem arrays_eq (c : Dev nD) (G : (w : Fin cfg27.W) → Buf (Elt F) ((cfg27.win w).arr.view.loc (c : Thread nD τ))) :
    ((dat (VW W) c).arrays G : sProp 𝕄) = iprop(
      (((c : Thread nD τ).loc (Pipeline.arrRef spec27 0)) ↦{fullShare.left} G 0)
      ∗ (((c : Thread nD τ).loc (Pipeline.arrRef spec27 1)) ↦{fullShare.right} G 1)
      ∗ (((c : Thread nD τ).loc (Pipeline.arrRef spec27 2)) ↦{fullShare} G 2)
      ∗ (((c : Thread nD τ).loc (Pipeline.arrRef spec27 3)) ↦{fullShare} G 3)
      ∗ (((c : Thread nD τ).loc (Pipeline.arrRef spec27 4)) ↦{fullShare} G 4)) := by
  have h : ((dat (VW W) c).arrays G : sProp 𝕄) = bigSep Finset.univ fun w =>
      (((c : Thread nD τ).loc (Pipeline.arrRef spec27 w)) ↦{(dat (VW W) c).share w} G w : sProp 𝕄) := by
    unfold Pipeline.Dat.arrays
    exact bigSep_congr fun w _ => by rw [(arr_whole27 w).set_eq_univ]
  rw [h, bigSep_W27, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec27 c X : sProp 𝕄) = iprop(
      (((c : Thread nD τ).loc (Pipeline.arrRef spec27 0)) ↦{fullShare} X (Pipeline.arrRef spec27 0))
      ∗ (((c : Thread nD τ).loc (Pipeline.arrRef spec27 2)) ↦{fullShare} X (Pipeline.arrRef spec27 2))
      ∗ (((c : Thread nD τ).loc (Pipeline.arrRef spec27 3)) ↦{fullShare} X (Pipeline.arrRef spec27 3))
      ∗ (((c : Thread nD τ).loc (Pipeline.arrRef spec27 4)) ↦{fullShare} X (Pipeline.arrRef spec27 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec27 c X ∗ Pipeline.unscopedRest spec27 c X) :=
  Pipeline.unscopedBufs_split₀ cfgs 27 winFacts₀27.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec27 1) = (c : Thread nD τ).loc (Pipeline.arrRef spec27 0) := rfl
theorem halves01 (c : Dev nD) :
    (((c : Thread nD τ).loc (Pipeline.arrRef spec27 0)) ↦{fullShare} VW W c (Pipeline.arrRef spec27 0) : sProp 𝕄)
      ⊣⊢ iprop((((c : Thread nD τ).loc (Pipeline.arrRef spec27 0)) ↦{fullShare.left} VW W c (Pipeline.arrRef spec27 0))
        ∗ (((c : Thread nD τ).loc (Pipeline.arrRef spec27 1)) ↦{fullShare.right} VW W c (Pipeline.arrRef spec27 1))) :=
  halves (loc_1 c) _ _ HEq.rfl

/-- An array's entry contents are what the region finds. -/
theorem arrAt_zero (c : Dev nD) (w : Fin cfg27.W) : (dat (VW W) c).arrAt w 0 = VW W c (Pipeline.arrRef spec27 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec27 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec27 c (fun b => Wout W c b) : sProp 𝕄) = iprop(
      (((c : Thread nD τ).loc (Pipeline.arrRef spec27 0)) ↦{fullShare} VW W c (Pipeline.arrRef spec27 0))
      ∗ (((c : Thread nD τ).loc (Pipeline.arrRef spec27 2)) ↦{fullShare} VW W c (Pipeline.arrRef spec27 2))
      ∗ (((c : Thread nD τ).loc (Pipeline.arrRef spec27 3)) ↦{fullShare} VW W c (Pipeline.arrRef spec27 3))
      ∗ (((c : Thread nD τ).loc (Pipeline.arrRef spec27 4)) ↦{fullShare} (dat (VW W) c).arrAt 4 cfg27.N)) := by
  rw [arrBufs_eq]
  rw [Wout_of_ne_ref W c (Pipeline.arrRef spec27 0) (by decide)]
  rw [Wout_of_ne_ref W c (Pipeline.arrRef spec27 2) (by decide)]
  rw [Wout_of_ne_ref W c (Pipeline.arrRef spec27 3) (by decide)]
  rw [Wout_out]

/-- The buffers that are no array of the region hold at the exit what they held at entry. -/
theorem rest_out (c : Dev nD) :
    (Pipeline.unscopedRest spec27 c (fun b => Wout W c b) : sProp 𝕄) = Pipeline.unscopedRest spec27 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg27.N) : sProp 𝕄) = iprop(
      (((c : Thread nD τ).loc (Pipeline.arrRef spec27 0)) ↦{fullShare.left} VW W c (Pipeline.arrRef spec27 0))
      ∗ (((c : Thread nD τ).loc (Pipeline.arrRef spec27 1)) ↦{fullShare.right} VW W c (Pipeline.arrRef spec27 1))
      ∗ (((c : Thread nD τ).loc (Pipeline.arrRef spec27 2)) ↦{fullShare} VW W c (Pipeline.arrRef spec27 2))
      ∗ (((c : Thread nD τ).loc (Pipeline.arrRef spec27 3)) ↦{fullShare} VW W c (Pipeline.arrRef spec27 3))
      ∗ (((c : Thread nD τ).loc (Pipeline.arrRef spec27 4)) ↦{fullShare} (dat (VW W) c).arrAt 4 cfg27.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg27.N) ∗ Pipeline.unscopedRest spec27 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 27 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 27 = fun c => dat (VW W) c) :
    RegionSeg (pcfgs (F := F)) adm pdats () defs₀ Variants.none L lv 27 where
  win := winFacts₀27
  block_pos := block_pos27
  stage_whole := stage_whole27
  K := PEmpty
  osem k := k.elim
  ho := Pipeline.OwnSemFacts.none _
  hbody c := by rw [hp]; exact (body_obligation (VW W) c).loose
  hwaits := Pipeline.hwaits_of_owed_zero _ _ _ _ L lv 27 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec27 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 27 c).Φ 0 = Pipeline.ΦA spec27 c := by rw [hp]; exact Φ_eq _ c 0
    rw [hΦ]; unfold Pipeline.ΦA
    iintro ⟨Hp, -, Hr⟩
    isplitl [Hr]; · iexact Hr
    iexact Hp
  hout c := by
    have hΦ : (pdats 27 c).Φ (Fin.last _) = Pipeline.ΦA spec27 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg27

end
-- ==== Proof.RI.Reg28.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody
import Idealize.ShloMosaic.Lib.Tactic
import Idealize.ShloMosaic.Lib.Pipeline.Value

/-! # Region 28: a 3×3 convolution with bias and ReLU over one row tile per grid point

The grid is (image n, row tile r), 16 × 4 points. Windows 0 and 1 are the row tiles r and r+1 of ONE zero-padded
input array [16, 35, 32, 512]; window 2 is the whole kernel array [3, 3, 512, 512]; window 3 the bias [1, 512]; window 4
the output's row tile r of [16, 28, 28, 512]. The body flattens the two input tiles to rows of 32·7 pixels, appends
32 zero rows, and adds nine matrix products — one per tap (dy, dx), each a row-shifted slab against the tap's
[512, 512] matrix —, then the bias, then the maximum with zero, and keeps the first 28 columns of each row. -/

set_option maxRecDepth 16384

noncomputable section

namespace Cert.ReferenceIdeal.Reg28

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk (c : Dev nD) (w : Fin cfg28.W) (t : Fin cfg28.N) :
    ((cfg28.win w).xblock (cfg28.grid.coords t)).Idx → Elt F (cfg28.win w).elt :=
  ((cfg28.win w).blk t).view.read (Elt F) (V c (Pipeline.arrRef spec28 w))

/-! ## The taps -/

/-- The [1, 1, 512, 512] rectangle of the kernel array at tap (dy, dx). -/
abbrev tapRect (dy dx : Nat) (h : ∀ a, ![dy, dx, 0, 0] a + S1x1x512x512.size a ≤ S3x3x512x512.size a) : Rect S3x3x512x512 :=
  Rect.unit (s := S3x3x512x512) ![dy, dx, 0, 0] S1x1x512x512.size h

/-- The whole input tile and the whole bias row, as the body loads them. -/
abbrev rIn : Rect S1x7x32x512 :=
  Rect.unit (s := S1x7x32x512) ![0, 0, 0, 0] S1x7x32x512.size inb_S1x7x32x512_S1x7x32x512_0_0_0_0
abbrev rBias : Rect S1x512 := Rect.unit (s := S1x512) ![0, 0] S1x512.size inb_S1x512_S1x512_0_0

/-! ## What the body leaves in the output window's buffer -/

/-- The output tile from the two input tiles `xa`, `xb`, the kernel array `wk` and the bias `b`: the sum of the nine
    taps' matrix products in the order (0,0), (0,1), …, (2,2), plus the bias, clamped below at zero, cut to 28 columns. -/
def out (xa xb : Vec F S1x7x32x512 .f32) (wk : Vec F S3x3x512x512 .f32) (b : Vec F S1x512 .f32) : Vec F S1x7x28x512 .f32 :=
  k28_pay1
    (k28_pay8 (k28_pay2 (View.ld xa rIn) (View.ld xb rIn)) (k28_pay3 (View.ld xa rIn) (View.ld xb rIn))
      (k28_pay4 (View.ld xa rIn) (View.ld xb rIn))
      (k28_pay5 (View.ld xa rIn) (View.ld xb rIn)
        (View.ld wk (tapRect 0 0 inb_S3x3x512x512_S1x1x512x512_0_0_0_0))
        (View.ld wk (tapRect 0 1 inb_S3x3x512x512_S1x1x512x512_0_1_0_0))
        (View.ld wk (tapRect 0 2 inb_S3x3x512x512_S1x1x512x512_0_2_0_0)))
      (k28_pay6 (View.ld xa rIn) (View.ld xb rIn))
      (k28_pay7 (View.ld wk (tapRect 1 0 inb_S3x3x512x512_S1x1x512x512_1_0_0_0)))
      (View.ld wk (tapRect 1 1 inb_S3x3x512x512_S1x1x512x512_1_1_0_0))
      (View.ld wk (tapRect 1 2 inb_S3x3x512x512_S1x1x512x512_1_2_0_0))
      (View.ld wk (tapRect 2 0 inb_S3x3x512x512_S1x1x512x512_2_0_0_0))
      (View.ld wk (tapRect 2 1 inb_S3x3x512x512_S1x1x512x512_2_1_0_0))
      (View.ld wk (tapRect 2 2 inb_S3x3x512x512_S1x1x512x512_2_2_0_0))
      (View.ld b rBias))
    (k28_pay9 (F := F))

/-! ## The pipeline's proof data -/

/-- The proof data on core `c`: the arrays as the region finds them; after the body at point `t` each input's buffer
    at its block and the output's at `out` of the four input blocks; the scoped rest and the generator register
    untouched; nothing owed; full shares. -/
def dat (c : Dev nD) : Dat τ (Elt F) Unit ℕ (UR sig nD τ) ℕ cfg28 c where
  A w := V c (Pipeline.arrRef spec28 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec28 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg28.W) : (dat V c).A w = V c (Pipeline.arrRef spec28 w) := by
  dsimp only [dat]

theorem after_0 (c : Dev nD) (t : Fin cfg28.N) : (dat V c).after 0 t = iblk V c 0 t := by dsimp only [dat]
theorem after_1 (c : Dev nD) (t : Fin cfg28.N) : (dat V c).after 1 t = iblk V c 1 t := by dsimp only [dat]
theorem after_2 (c : Dev nD) (t : Fin cfg28.N) : (dat V c).after 2 t = iblk V c 2 t := by dsimp only [dat]
theorem after_3 (c : Dev nD) (t : Fin cfg28.N) : (dat V c).after 3 t = iblk V c 3 t := by dsimp only [dat]
theorem after_4 (c : Dev nD) (t : Fin cfg28.N) :
    (dat V c).after 4 t = out (iblk V c 0 t) (iblk V c 1 t) (iblk V c 2 t) (iblk V c 3 t) := by dsimp only [dat]

/-! ## The body's triple -/

/-- The rectangle of the one store: the whole output tile. -/
abbrev rOut : Rect S1x7x28x512 :=
  Rect.unit (s := S1x7x28x512) ![0, 0, 0, 0] S1x7x28x512.size inb_S1x7x28x512_S1x7x28x512_0_0_0_0

theorem hz4 : (![0, 0, 0, 0] : Fin 4 → Nat) = fun _ => 0 := funext fun a => by fin_cases a <;> rfl

/-- The one store covers the output tile. -/
theorem cover_out (p : Vec F S1x7x28x512 .f32) (y : S1x7x28x512.Idx) :
    ∃ pc ∈ ([⟨rOut, p⟩] : List (View.Piece (Elt F) S1x7x28x512 .f32)), y ∈ pc.1.set :=
  View.cover_of_tiled [⟨rOut, p⟩] S1x7x28x512.size (by rfl) y

set_option maxHeartbeats 1600000 in
/-- The body on whole staging memrefs — the four inputs' at contents `xa`, `xb`, `wk`, `b`, the output's at anything —
    runs to the continuation holding the inputs' as they were and the output's at `out xa xb wk b`. -/
theorem sound_kernel (c : Dev nD) (E : Set ℕ) (i : grid28.Coords)
    (arg2 : Memref sig .tc .vmem S1x7x32x512 .f32) (harg2 : arg2.IsWhole)
    (arg3 : Memref sig .tc .vmem S1x7x32x512 .f32) (harg3 : arg3.IsWhole)
    (arg4 : Memref sig .tc .vmem S3x3x512x512 .f32) (harg4 : arg4.IsWhole)
    (arg5 : Memref sig .tc .vmem S1x512 .f32) (harg5 : arg5.IsWhole)
    (arg6 : Memref sig .tc .vmem S1x7x28x512 .f32) (harg6 : arg6.IsWhole)
    (xa xb : Vec F S1x7x32x512 .f32) (wk : Vec F S3x3x512x512 .f32) (b : Vec F S1x512 .f32) (K : PUnit → sProp 𝕄) :
    iprop(owns (c : Thread nD τ) arg2 fullShare xa ∗ owns (c : Thread nD τ) arg3 fullShare xb
        ∗ owns (c : Thread nD τ) arg4 fullShare wk ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare wk ∗ owns (c : Thread nD τ) arg5 fullShare b
            ∗ owns (c : Thread nD τ) arg6 fullShare (out xa xb wk b)) -∗ K ⟨⟩))
      ⊢ wp frame (wpE (defs₀ (F := F)) Variants.none c none) E
          (cc28__conv3x3_relu_kernel i arg2 harg2 arg3 harg3 arg4 harg4 arg5 harg5 arg6 harg6) K := by
  sl_unfold [cc28__conv3x3_relu_kernel]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover_out _)).trans (View.canon_unit_zero hz4 _ _)

/-- The invariant, the debt and the shares, projected. -/
theorem Φ_eq (c : Dev nD) (t : Fin (cfg28.N + 1)) : (dat V c).Φ t = Pipeline.ΦA spec28 c := by dsimp only [dat]
theorem owed_eq (c : Dev nD) (t : Fin (cfg28.N + 1)) : (dat V c).owed t = 0 := by dsimp only [dat]
theorem q_0 (c : Dev nD) : (dat V c).q 0 = fullShare.left := by dsimp only [dat]
theorem q_1 (c : Dev nD) : (dat V c).q 1 = fullShare.right := by dsimp only [dat]
theorem q_2 (c : Dev nD) : (dat V c).q 2 = fullShare := by dsimp only [dat]
theorem q_3 (c : Dev nD) : (dat V c).q 3 = fullShare := by dsimp only [dat]
theorem q_4 (c : Dev nD) : (dat V c).q 4 = fullShare := by dsimp only [dat]

/-! ## The inputs' staging buffers hold their blocks at every point -/

/-- An input window's current staging buffer holds its block at every point, fetched there or not (the kernel array
    and the bias are fetched at the first point only and their block index never moves), for any proof data whose
    array is the region's and whose body leaves the block in place; window by window. -/
theorem before_0_of {c : Dev nD} (dat' : Dat τ (Elt F) Unit ℕ (UR sig nD τ) ℕ cfg28 c)
    (hA : dat'.A 0 = V c (Pipeline.arrRef spec28 0)) (hafter : ∀ t, dat'.after 0 t = iblk V c 0 t)
    (t : Fin cfg28.N) (d) : dat'.before 0 t d = iblk V c 0 t :=
  (dat'.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_0 (c : Dev nD) (t : Fin cfg28.N) (d) : (dat V c).before 0 t d = iblk V c 0 t :=
  before_0_of V (dat V c) (A_eq V c 0) (after_0 V c) t d

theorem before_1_of {c : Dev nD} (dat' : Dat τ (Elt F) Unit ℕ (UR sig nD τ) ℕ cfg28 c)
    (hA : dat'.A 1 = V c (Pipeline.arrRef spec28 1)) (hafter : ∀ t, dat'.after 1 t = iblk V c 1 t)
    (t : Fin cfg28.N) (d) : dat'.before 1 t d = iblk V c 1 t :=
  (dat'.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_1 (c : Dev nD) (t : Fin cfg28.N) (d) : (dat V c).before 1 t d = iblk V c 1 t :=
  before_1_of V (dat V c) (A_eq V c 1) (after_1 V c) t d

theorem before_2_of {c : Dev nD} (dat' : Dat τ (Elt F) Unit ℕ (UR sig nD τ) ℕ cfg28 c)
    (hA : dat'.A 2 = V c (Pipeline.arrRef spec28 2)) (hafter : ∀ t, dat'.after 2 t = iblk V c 2 t)
    (t : Fin cfg28.N) (d) : dat'.before 2 t d = iblk V c 2 t :=
  (dat'.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
theorem before_2 (c : Dev nD) (t : Fin cfg28.N) (d) : (dat V c).before 2 t d = iblk V c 2 t :=
  before_2_of V (dat V c) (A_eq V c 2) (after_2 V c) t d

theorem before_3_of {c : Dev nD} (dat' : Dat τ (Elt F) Unit ℕ (UR sig nD τ) ℕ cfg28 c)
    (hA : dat'.A 3 = V c (Pipeline.arrRef spec28 3)) (hafter : ∀ t, dat'.after 3 t = iblk V c 3 t)
    (t : Fin cfg28.N) (d) : dat'.before 3 t d = iblk V c 3 t :=
  (dat'.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
theorem before_3 (c : Dev nD) (t : Fin cfg28.N) (d) : (dat V c).before 3 t d = iblk V c 3 t :=
  before_3_of V (dat V c) (A_eq V c 3) (after_3 V c) t d

/-! ## The body at a grid point -/

/-- What the body is called with at point `t`: the invariant, the debt, and each window's current staging buffer. -/
def bodyPre (c : Dev nD) (t : Fin cfg28.N) : sProp 𝕄 :=
  iprop((dat V c).Φ t.castSucc ∗ (dat V c).owesAt () t.castSucc
    ∗ (∃ d, owns (c : Thread nD τ) (st28_0 t) fullShare ((dat V c).before 0 t d))
    ∗ (∃ d, owns (c : Thread nD τ) (st28_1 t) fullShare ((dat V c).before 1 t d))
    ∗ (∃ d, owns (c : Thread nD τ) (st28_2 t) fullShare ((dat V c).before 2 t d))
    ∗ (∃ d, owns (c : Thread nD τ) (st28_3 t) fullShare ((dat V c).before 3 t d))
    ∗ (∃ d, owns (c : Thread nD τ) (st28_4 t) fullShare ((dat V c).before 4 t d)))

/-- and what it returns. -/
def bodyPost (c : Dev nD) (t : Fin cfg28.N) : sProp 𝕄 :=
  iprop((dat V c).Φ t.succ ∗ (dat V c).owesAt () t.succ
    ∗ owns (c : Thread nD τ) (st28_0 t) fullShare ((dat V c).after 0 t)
    ∗ owns (c : Thread nD τ) (st28_1 t) fullShare ((dat V c).after 1 t)
    ∗ owns (c : Thread nD τ) (st28_2 t) fullShare ((dat V c).after 2 t)
    ∗ owns (c : Thread nD τ) (st28_3 t) fullShare ((dat V c).after 3 t)
    ∗ owns (c : Thread nD τ) (st28_4 t) fullShare ((dat V c).after 4 t))

/-- The body at any point: the four inputs' buffers hold their blocks, so the body's triple applies; the invariant and
    the debt pass through unread. -/
theorem sound_body (c : Dev nD) (t : Fin cfg28.N) :
    bodyPre V c t ⊢ wp frame (wpE (defs₀ (F := F)) Variants.none c none) Set.univ (bodyAt28 t) (fun _ => bodyPost V c t) := by
  unfold bodyPre bodyPost bodyAt28
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat (F := F) V c) (defs₀ (F := F)) Variants.none () Set.univ := fun t => by
  rw [bigSep_W28, bigSep_W28]
  exact sound_body V c t

end Cert.ReferenceIdeal.Reg28
-- ==== Proof.RI.Seg28.lean ====
import proofs.«143011_g2000502688546152_pallasbulk_1201_3_alg».proof.Proof.RI.Reg28
import proofs.«143011_g2000502688546152_pallasbulk_1201_3_alg».proof.Proof.RI.Rest
import Idealize.ShloMosaic.Lib.Pipeline.Regions

/-! # Region 28 as a segment of @main

A convolution region reads ONE zero-bordered input array through two windows (a row tile and the next), the kernel
array and the bias through one window each, and writes the output array through the fifth. Entered from every unscoped
buffer of the core whole at a valuation `W`, it leaves them at `Wout W`: the output array at what the pipeline's
write-backs made of it, every other buffer as found. The input array's full share is split between its two windows on
entry and joined again on exit; an input window's array is never written. -/

set_option maxRecDepth 16384
-- rewriting under the five windows' literal configuration unfolds it at every candidate instance
set_option maxHeartbeats 4000000

noncomputable section

namespace Cert.ReferenceIdeal.Reg28

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec28 4)) ((dat (VW W) c).arrAt 4 cfg28.N)

theorem Wout_out (c : Dev nD) :
    Wout W c (Proc.devRef .tc (Pipeline.arrRef spec28 4)) = (dat (VW W) c).arrAt 4 cfg28.N := by
  unfold Wout; exact Function.update_self ..

theorem Wout_of_ne (c : Dev nD) (b : DevRef τ sig) (hb : b ≠ Proc.devRef .tc (Pipeline.arrRef spec28 4)) :
    Wout W c b = W c b := by
  unfold Wout; exact Function.update_of_ne hb ..

theorem Wout_of_ne_ref (c : Dev nD) (b : Ref sig .tc) (hb : b ≠ Pipeline.arrRef spec28 4) :
    Wout W c (Proc.devRef .tc b) = W c (Proc.devRef .tc b) :=
  Wout_of_ne W c _ fun e => hb (Proc.devRef_injective _ e)

/-! ## The shares and the arrays -/

theorem share_0 (c : Dev nD) : (dat (VW W) c).share 0 = fullShare.left := by
  unfold Pipeline.Dat.share; exact (if_neg (by decide)).trans (q_0 _ c)
theorem share_1 (c : Dev nD) : (dat (VW W) c).share 1 = fullShare.right := by
  unfold Pipeline.Dat.share; exact (if_neg (by decide)).trans (q_1 _ c)
theorem share_2 (c : Dev nD) : (dat (VW W) c).share 2 = fullShare := by
  unfold Pipeline.Dat.share; exact (if_neg (by decide)).trans (q_2 _ c)
theorem share_3 (c : Dev nD) : (dat (VW W) c).share 3 = fullShare := by
  unfold Pipeline.Dat.share; exact (if_neg (by decide)).trans (q_3 _ c)
theorem share_4 (c : Dev nD) : (dat (VW W) c).share 4 = fullShare := by
  unfold Pipeline.Dat.share; exact if_pos (by decide)

/-- The distinct buffers behind the five windows: the input array (windows 0 and 1), the kernel array, the bias, the
    output array. -/
theorem image_arr : Finset.univ.image (Pipeline.arrRef spec28)
    = {Pipeline.arrRef spec28 0, Pipeline.arrRef spec28 2, Pipeline.arrRef spec28 3, Pipeline.arrRef spec28 4} := by decide

/-- The pipeline's arrays at contents `G`, window by window: the input array at its two half shares, the rest whole. -/
theorem arrays_eq (c : Dev nD) (G : (w : Fin cfg28.W) → Buf (Elt F) ((cfg28.win w).arr.view.loc (c : Thread nD τ))) :
    ((dat (VW W) c).arrays G : sProp 𝕄) = iprop(
      (((c : Thread nD τ).loc (Pipeline.arrRef spec28 0)) ↦{fullShare.left} G 0)
      ∗ (((c : Thread nD τ).loc (Pipeline.arrRef spec28 1)) ↦{fullShare.right} G 1)
      ∗ (((c : Thread nD τ).loc (Pipeline.arrRef spec28 2)) ↦{fullShare} G 2)
      ∗ (((c : Thread nD τ).loc (Pipeline.arrRef spec28 3)) ↦{fullShare} G 3)
      ∗ (((c : Thread nD τ).loc (Pipeline.arrRef spec28 4)) ↦{fullShare} G 4)) := by
  have h : ((dat (VW W) c).arrays G : sProp 𝕄) = bigSep Finset.univ fun w =>
      (((c : Thread nD τ).loc (Pipeline.arrRef spec28 w)) ↦{(dat (VW W) c).share w} G w : sProp 𝕄) := by
    unfold Pipeline.Dat.arrays
    exact bigSep_congr fun w _ => by rw [(arr_whole28 w).set_eq_univ]
  rw [h, bigSep_W28, share_0, share_1, share_2, share_3, share_4]

/-- The buffers behind the arrays, each whole at contents `X`, written out. -/
theorem arrBufs_eq (c : Dev nD) (X : (b : Ref sig .tc) → Buf (Elt F) ((c : Thread nD τ).loc b)) :
    (Pipeline.arrBufs spec28 c X : sProp 𝕄) = iprop(
      (((c : Thread nD τ).loc (Pipeline.arrRef spec28 0)) ↦{fullShare} X (Pipeline.arrRef spec28 0))
      ∗ (((c : Thread nD τ).loc (Pipeline.arrRef spec28 2)) ↦{fullShare} X (Pipeline.arrRef spec28 2))
      ∗ (((c : Thread nD τ).loc (Pipeline.arrRef spec28 3)) ↦{fullShare} X (Pipeline.arrRef spec28 3))
      ∗ (((c : Thread nD τ).loc (Pipeline.arrRef spec28 4)) ↦{fullShare} X (Pipeline.arrRef spec28 4))) := by
  unfold Pipeline.arrBufs
  rw [image_arr, bigSep_insert (by decide), bigSep_insert (by decide), bigSep_insert (by decide), bigSep_singleton]
  rfl

/-- The core's unscoped buffers at contents `X` are the buffers behind the arrays and the rest. -/
theorem split₀ (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec28 c X ∗ Pipeline.unscopedRest spec28 c X) :=
  Pipeline.unscopedBufs_split₀ cfgs 28 winFacts₀28.arr_unscoped c X

/-- One buffer whole at the full share is its two halves, the second spelt through an equal location. -/
theorem halves {ℓ₀ ℓ₁ : Loc nD τ sig} (h : ℓ₁ = ℓ₀) (f₀ : Buf (Elt F) ℓ₀) (f₁ : Buf (Elt F) ℓ₁) (hf : HEq f₁ f₀) :
    (ℓ₀ ↦{fullShare} f₀ : sProp 𝕄) ⊣⊢ iprop((ℓ₀ ↦{fullShare.left} f₀) ∗ (ℓ₁ ↦{fullShare.right} f₁)) := by
  subst h; cases hf; exact pointsTo_share (PosShare.mem_left_op_right fullShare)

/-- Windows 0 and 1 sit on one buffer, found at one contents. -/
theorem loc_1 (c : Dev nD) :
    (c : Thread nD τ).loc (Pipeline.arrRef spec28 1) = (c : Thread nD τ).loc (Pipeline.arrRef spec28 0) := rfl
theorem halves01 (c : Dev nD) :
    (((c : Thread nD τ).loc (Pipeline.arrRef spec28 0)) ↦{fullShare} VW W c (Pipeline.arrRef spec28 0) : sProp 𝕄)
      ⊣⊢ iprop((((c : Thread nD τ).loc (Pipeline.arrRef spec28 0)) ↦{fullShare.left} VW W c (Pipeline.arrRef spec28 0))
        ∗ (((c : Thread nD τ).loc (Pipeline.arrRef spec28 1)) ↦{fullShare.right} VW W c (Pipeline.arrRef spec28 1))) :=
  halves (loc_1 c) _ _ HEq.rfl

/-- An array's entry contents are what the region finds. -/
theorem arrAt_zero (c : Dev nD) (w : Fin cfg28.W) : (dat (VW W) c).arrAt w 0 = VW W c (Pipeline.arrRef spec28 w) := A_eq _ c w

/-! ## Entry and exit -/

/-- ENTRY: the core's unscoped buffers at `W` are the pipeline's arrays at their entry contents and the rest. -/
theorem entry (c : Dev nD) :
    (StableHlo.held (c : Thread nD τ) (Pipeline.ucRefs τ sig) (W c) : sProp 𝕄)
      ⊢ iprop((dat (VW W) c).arrays ((dat (VW W) c).arrAt · 0) ∗ Pipeline.unscopedRest spec28 c (VW W c)) := by
  rw [← Pipeline.unscopedBufs_held (Ix := Unit) (Name := ℕ) (U := UR sig nD τ) (Lvl := ℕ) c (W c),
    split₀ c (VW W c), arrays_eq, arrBufs_eq, arrAt_zero, arrAt_zero, arrAt_zero, arrAt_zero, arrAt_zero]
  iintro ⟨⟨H0, H2, H3, H4⟩, Hrest⟩
  ihave Hs := (halves01 W c).1 $$ H0
  icases Hs with ⟨Ha, Hb⟩
  isplitr [Hrest]
  · isplitl [Ha]; · iexact Ha
    isplitl [Hb]; · iexact Hb
    isplitl [H2]; · iexact H2
    isplitl [H3]; · iexact H3
    iexact H4
  · iexact Hrest

/-- The buffers behind the arrays at the exit contents: the inputs as found, the output array as the pipeline leaves it. -/
theorem arrBufs_out (c : Dev nD) :
    (Pipeline.arrBufs spec28 c (fun b => Wout W c b) : sProp 𝕄) = iprop(
      (((c : Thread nD τ).loc (Pipeline.arrRef spec28 0)) ↦{fullShare} VW W c (Pipeline.arrRef spec28 0))
      ∗ (((c : Thread nD τ).loc (Pipeline.arrRef spec28 2)) ↦{fullShare} VW W c (Pipeline.arrRef spec28 2))
      ∗ (((c : Thread nD τ).loc (Pipeline.arrRef spec28 3)) ↦{fullShare} VW W c (Pipeline.arrRef spec28 3))
      ∗ (((c : Thread nD τ).loc (Pipeline.arrRef spec28 4)) ↦{fullShare} (dat (VW W) c).arrAt 4 cfg28.N)) := by
  rw [arrBufs_eq]
  rw [Wout_of_ne_ref W c (Pipeline.arrRef spec28 0) (by decide)]
  rw [Wout_of_ne_ref W c (Pipeline.arrRef spec28 2) (by decide)]
  rw [Wout_of_ne_ref W c (Pipeline.arrRef spec28 3) (by decide)]
  rw [Wout_out]

/-- The buffers that are no array of the region hold at the exit what they held at entry. -/
theorem rest_out (c : Dev nD) :
    (Pipeline.unscopedRest spec28 c (fun b => Wout W c b) : sProp 𝕄) = Pipeline.unscopedRest spec28 c (VW W c) := by
  unfold Pipeline.unscopedRest
  exact bigSep_congr fun b hb => by
    dsimp only
    rw [Wout_of_ne_ref W c b fun e => (Finset.mem_sdiff.mp hb).2
      (Finset.mem_image.mpr ⟨4, Finset.mem_univ _, e.symm⟩)]

/-- The arrays at their final contents: the inputs as found, the output array as the pipeline leaves it. -/
theorem arrays_final (c : Dev nD) :
    ((dat (VW W) c).arrays ((dat (VW W) c).arrAt · cfg28.N) : sProp 𝕄) = iprop(
      (((c : Thread nD τ).loc (Pipeline.arrRef spec28 0)) ↦{fullShare.left} VW W c (Pipeline.arrRef spec28 0))
      ∗ (((c : Thread nD τ).loc (Pipeline.arrRef spec28 1)) ↦{fullShare.right} VW W c (Pipeline.arrRef spec28 1))
      ∗ (((c : Thread nD τ).loc (Pipeline.arrRef spec28 2)) ↦{fullShare} VW W c (Pipeline.arrRef spec28 2))
      ∗ (((c : Thread nD τ).loc (Pipeline.arrRef spec28 3)) ↦{fullShare} VW W c (Pipeline.arrRef spec28 3))
      ∗ (((c : Thread nD τ).loc (Pipeline.arrRef spec28 4)) ↦{fullShare} (dat (VW W) c).arrAt 4 cfg28.N)) := by
  rw [arrays_eq]
  rw [Pipeline.Dat.arrAt_in _ 0 (by decide), Pipeline.Dat.arrAt_in _ 1 (by decide), Pipeline.Dat.arrAt_in _ 2 (by decide),
    Pipeline.Dat.arrAt_in _ 3 (by decide)]
  rw [A_eq, A_eq, A_eq, A_eq]

/-- EXIT: the arrays at their final contents and the rest are the core's unscoped buffers at `Wout W`. -/
theorem exit (c : Dev nD) :
    iprop((dat (VW W) c).arrays ((dat (VW W) c).arrAt · cfg28.N) ∗ Pipeline.unscopedRest spec28 c (VW W c))
      ⊢ (StableHlo.held (c : Thread nD τ) (Pipeline.ucRefs τ sig) (Wout W c) : sProp 𝕄) := by
  rw [← Pipeline.unscopedBufs_held (Ix := Unit) (Name := ℕ) (U := UR sig nD τ) (Lvl := ℕ) c (Wout W c),
    split₀ c (fun b => Wout W c b), arrBufs_out, rest_out, arrays_final]
  iintro ⟨⟨Ha, Hb, H2, H3, H4⟩, Hrest⟩
  ihave H0 := (halves01 W c).2 $$ [Ha Hb]
  · isplitl [Ha]; · iexact Ha
    iexact Hb
  isplitr [Hrest]
  · isplitl [H0]; · iexact H0
    isplitl [H2]; · iexact H2
    isplitl [H3]; · iexact H3
    iexact H4
  · iexact Hrest

/-! ## The segment record -/

set_option backward.isDefEq.respectTransparency.types false in
/-- Region 28 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 28 = fun c => dat (VW W) c) :
    RegionSeg (pcfgs (F := F)) adm pdats () defs₀ Variants.none L lv 28 where
  win := winFacts₀28
  block_pos := block_pos28
  stage_whole := stage_whole28
  K := PEmpty
  osem k := k.elim
  ho := Pipeline.OwnSemFacts.none _
  hbody c := by rw [hp]; exact (body_obligation (VW W) c).loose
  hwaits := Pipeline.hwaits_of_owed_zero _ _ _ _ L lv 28 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec28 c (VW W c)
  hentry c := by
    rw [Pipeline.ownSems0_none, hp]
    iintro ⟨⟨Hub, Hp, HO⟩, -, -⟩
    ihave H := entry W c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 28 c).Φ 0 = Pipeline.ΦA spec28 c := by rw [hp]; exact Φ_eq _ c 0
    rw [hΦ]; unfold Pipeline.ΦA
    iintro ⟨Hp, -, Hr⟩
    isplitl [Hr]; · iexact Hr
    iexact Hp
  hout c := by
    have hΦ : (pdats 28 c).Φ (Fin.last _) = Pipeline.ΦA spec28 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    rw [hp]
    iintro ⟨Ha, HO, HY, Hrest⟩
    imodintro
    isplitl [Ha Hrest]
    · iapply exit W c; isplitl [Ha] <;> iassumption
    isplitl [HY]; · iexact HY
    unfold Pipeline.Dat.owesAt Pipeline.owesWithin
    icases HO with ⟨%T, -, HO⟩; iexists T; iexact HO

end Cert.ReferenceIdeal.Reg28

end
-- ==== Proof.RI.Reg29Data.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import Idealize.ShloMosaic.Lib.Pipeline.FrameBody

/-! # Region 29: the sum of |x − y| over two [12544, 512] arrays, accumulated over a grid of 14 points into a [1, 1] array

At point t the two input windows show rows 896t … 896t+895 of x and of y. The output window is the one [1, 1]
block at every point: the body zeroes it at point 0, then at every point adds the block's sum of |x − y| to what
the window holds. It is written back to the array once, after the last point. -/
-- This module: the proof data (what each window holds after the body at each point).

set_option maxRecDepth 16384

noncomputable section

namespace Cert.ReferenceIdeal.Reg29

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers as the region finds them
variable (V : (c : Dev nD) → (b : Ref sig .tc) → Buf (Elt F) ((c : Thread nD τ).loc b))

/-- The rows of x the first window shows at point `t`. -/
def xrows (c : Dev nD) (t : Fin cfg29.N) : Vec F S896x512 .f32 :=
  ((cfg29.win 0).blk t).view.read (Elt F) (V c (Pipeline.arrRef spec29 0))

/-- The rows of y the second window shows at point `t`. -/
def yrows (c : Dev nD) (t : Fin cfg29.N) : Vec F S896x512 .f32 :=
  ((cfg29.win 1).blk t).view.read (Elt F) (V c (Pipeline.arrRef spec29 1))

/-- The zeroed accumulator of the first point. -/
def zero : Vec F S1x1 .f32 := Gen.k29_pay1

/-- One point's step: the accumulator plus the sum of |x − y| over a block of 896 rows. -/
def step (acc : Vec F S1x1 .f32) (x y : Vec F S896x512 .f32) : Vec F S1x1 .f32 := Gen.k29_pay2 acc x y

/-- The accumulator after point `n`: zero stepped through the blocks of points 0 … n. -/
def total (c : Dev nD) : (n : ℕ) → n < cfg29.N → Vec F S1x1 .f32
  | 0, h => step zero (xrows V c ⟨0, h⟩) (yrows V c ⟨0, h⟩)
  | n + 1, h => step (total c n (Nat.lt_of_succ_lt h)) (xrows V c ⟨n + 1, h⟩) (yrows V c ⟨n + 1, h⟩)

/-- The region's proof data: the arrays as found; after the body each input window still shows its rows and the
    output window holds the running total; the body keeps no other state. -/
def dat (c : Dev nD) : Dat τ (Elt F) Unit ℕ (UR sig nD τ) ℕ cfg29 c where
  A w := V c (Pipeline.arrRef spec29 w)
  after w t := match w with
    | ⟨0, _⟩ => xrows V c t
    | ⟨1, _⟩ => yrows V c t
    | ⟨2, _⟩ => total V c t.val t.isLt
  Φ _ := Pipeline.ΦA spec29 c
  q _ := fullShare
  owed _ := 0

theorem A_eq (c : Dev nD) (w : Fin cfg29.W) : (dat V c).A w = V c (Pipeline.arrRef spec29 w) := by
  dsimp only [dat]

theorem after_x (c : Dev nD) (t : Fin cfg29.N) : (dat V c).after 0 t = xrows V c t := by dsimp only [dat]
theorem after_y (c : Dev nD) (t : Fin cfg29.N) : (dat V c).after 1 t = yrows V c t := by dsimp only [dat]
theorem after_total (c : Dev nD) (t : Fin cfg29.N) : (dat V c).after 2 t = total V c t.val t.isLt := by dsimp only [dat]

end Cert.ReferenceIdeal.Reg29
-- ==== Proof.RI.Reg29.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg29Data
import Idealize.ShloMosaic.Lib.Pipeline.FrameBody
import Idealize.ShloMosaic.Lib.Pipeline.Value
import Idealize.ShloMosaic.Lib.Tactic

/-! # Region 29: the sum of |x − y| over two [12544, 512] arrays, accumulated over a grid of 14 points into a [1, 1] array

At point t the two input windows show rows 896t … 896t+895 of x and of y. The output window is the one [1, 1]
block at every point: the body zeroes it at point 0, then at every point adds the block's sum of |x − y| to what
the window holds. It is written back to the array once, after the last point. -/
-- This module: the body's triples and the body obligation.

set_option maxRecDepth 16384

noncomputable section

namespace Cert.ReferenceIdeal.Reg29

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's own invariant is the scoped rest, untouched; nothing is owed; every window's array is held whole. -/
theorem Φ_eq (c : Dev nD) (t : Fin (cfg29.N + 1)) : (dat V c).Φ t = Pipeline.ΦA spec29 c := rfl
theorem owed_eq (c : Dev nD) (t : Fin (cfg29.N + 1)) : (dat V c).owed t = 0 := rfl
theorem q_eq (c : Dev nD) (w : Fin cfg29.W) : (dat V c).q w = fullShare := rfl

/-- The body's one condition, from the grid coordinate: "this is point 0". -/
abbrev isFirst (i : grid29.Coords) : Prop :=
  (Scalar.cmpi .ne (Scalar.extui (Scalar.cmpi .eq (BitVec.ofNat 32 (i 0).val) 0#32)) 0#32) = 1#1

/-- It holds at point 0 and at no other point of the grid. -/
theorem isFirst_iff : ∀ t : Fin cfg29.N, isFirst (grid29.coords t) ↔ t.val = 0 :=
  (by decide +kernel : ∀ t : Fin grid29.N, isFirst (grid29.coords t) ↔ t.val = 0)

theorem zeros2 : (![0, 0] : Fin 2 → ℕ) = fun _ => 0 := by
  funext a; match a with | ⟨0, _⟩ => rfl | ⟨1, _⟩ => rfl

set_option maxHeartbeats 1000000 in
/-- The body at the first point, on whole staging memrefs: the inputs' hold blocks `x`, `y`, the output's anything;
    it runs to a state where the output's holds zero stepped by the two blocks. -/
theorem body_first (c : Dev nD) (E : Set ℕ) (i : grid29.Coords) (hc : isFirst i)
    (mx : Memref sig .tc .vmem S896x512 .f32) (hx : mx.IsWhole)
    (my : Memref sig .tc .vmem S896x512 .f32) (hy : my.IsWhole)
    (mo : Memref sig .tc .vmem S1x1 .f32) (ho : mo.IsWhole)
    (x y : Vec F S896x512 .f32) (K : PUnit → sProp 𝕄) :
    iprop(owns (c : Thread nD τ) mx fullShare x ∗ owns (c : Thread nD τ) my fullShare y
        ∗ (∃ d, owns (c : Thread nD τ) mo fullShare d)
        ∗ (iprop(owns (c : Thread nD τ) mx fullShare x ∗ owns (c : Thread nD τ) my fullShare y
            ∗ owns (c : Thread nD τ) mo fullShare (step zero x y)) -∗ K ⟨⟩))
      ⊢ wp frame (wpE (defs₀ (F := F)) Variants.none c none) E (cc29__l1_sum_kernel i mx hx my hy mo ho) K := by
  simp only [Gen.cc29__l1_sum_kernel_eq_skeleton]; unfold Gen.cc29__l1_sum_kernel_skel
  unfold owns
  iintro ⟨⟨%fx, %hfx, Hx⟩, ⟨%fy, %hfy, Hy⟩, ⟨%d, %fo, -, Ho⟩, Hk⟩
  subst hfx hfy
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  sl_unfold_words
  -- the last store covers the output block: it reads that store's payload; the accumulator it loaded is what the
  -- zeroing store left; each input load reads its whole block
  rw [View.read_writes_eq_canon _ _ _ (fun y => ⟨_, List.mem_cons_self,
      View.mem_set_unit_zero (S := S1x1) zeros2 Gen.inb_S1x1_S1x1_0_0 y⟩),
    View.canon_cons_unit_zero (S := S1x1) zeros2 Gen.inb_S1x1_S1x1_0_0,
    View.readCov_unit_zero (S := S1x1) _ zeros2 Gen.inb_S1x1_S1x1_0_0]
  simp only [View.readAt_eq_ld]
  show Gen.k29_pay2 Gen.k29_pay1
      (View.ld (View.read (Elt F) mx.view fx) (Rect.unit ![0, 0] S896x512.size Gen.inb_S896x512_S896x512_0_0))
      (View.ld (View.read (Elt F) my.view fy) (Rect.unit ![0, 0] S896x512.size Gen.inb_S896x512_S896x512_0_0)) = _
  rw [View.ld_unit_zero (S := S896x512) zeros2 Gen.inb_S896x512_S896x512_0_0,
    View.ld_unit_zero (S := S896x512) zeros2 Gen.inb_S896x512_S896x512_0_0]
  rfl

set_option maxHeartbeats 1000000 in
/-- The body at a later point: the output's staging memref holds the accumulator `acc`; it runs to a state where it
    holds `acc` stepped by the two blocks. -/
theorem body_later (c : Dev nD) (E : Set ℕ) (i : grid29.Coords) (hc : ¬ isFirst i)
    (mx : Memref sig .tc .vmem S896x512 .f32) (hx : mx.IsWhole)
    (my : Memref sig .tc .vmem S896x512 .f32) (hy : my.IsWhole)
    (mo : Memref sig .tc .vmem S1x1 .f32) (ho : mo.IsWhole)
    (x y : Vec F S896x512 .f32) (acc : Vec F S1x1 .f32) (K : PUnit → sProp 𝕄) :
    iprop(owns (c : Thread nD τ) mx fullShare x ∗ owns (c : Thread nD τ) my fullShare y
        ∗ owns (c : Thread nD τ) mo fullShare acc
        ∗ (iprop(owns (c : Thread nD τ) mx fullShare x ∗ owns (c : Thread nD τ) my fullShare y
            ∗ owns (c : Thread nD τ) mo fullShare (step acc x y)) -∗ K ⟨⟩))
      ⊢ wp frame (wpE (defs₀ (F := F)) Variants.none c none) E (cc29__l1_sum_kernel i mx hx my hy mo ho) K := by
  simp only [Gen.cc29__l1_sum_kernel_eq_skeleton]; unfold Gen.cc29__l1_sum_kernel_skel
  unfold owns
  iintro ⟨⟨%fx, %hfx, Hx⟩, ⟨%fy, %hfy, Hy⟩, ⟨%fo, %hfo, Ho⟩, Hk⟩
  subst hfx hfy hfo
  sl_exec (disch := first | exact hc)
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  -- the one store covers the output block: it reads its payload; each load reads its whole block
  rw [View.read_writes_eq_canon _ _ _ (fun y => ⟨_, List.mem_singleton_self _,
      View.mem_set_unit_zero (S := S1x1) zeros2 Gen.inb_S1x1_S1x1_0_0 y⟩),
    View.canon_unit_zero (S := S1x1) zeros2 Gen.inb_S1x1_S1x1_0_0]
  simp only [View.readAt_eq_ld]
  show Gen.k29_pay2 (View.ld (View.read (Elt F) mo.view fo) (Rect.unit ![0, 0] S1x1.size Gen.inb_S1x1_S1x1_0_0))
      (View.ld (View.read (Elt F) mx.view fx) (Rect.unit ![0, 0] S896x512.size Gen.inb_S896x512_S896x512_0_0))
      (View.ld (View.read (Elt F) my.view fy) (Rect.unit ![0, 0] S896x512.size Gen.inb_S896x512_S896x512_0_0)) = _
  rw [View.ld_unit_zero (S := S1x1) zeros2 Gen.inb_S1x1_S1x1_0_0,
    View.ld_unit_zero (S := S896x512) zeros2 Gen.inb_S896x512_S896x512_0_0,
    View.ld_unit_zero (S := S896x512) zeros2 Gen.inb_S896x512_S896x512_0_0]
  rfl

/-- Each input window's staging buffer shows the window's rows at every point, fetched there or not. -/
theorem before_x (c : Dev nD) (t : Fin cfg29.N) (d) : (dat V c).before 0 t d = xrows V c t :=
  ((dat V c).before_in_eq_fetched 0 rfl (fun _ => rfl) (fun _ _ _ => rfl)
      (fun t => by rw [after_x]; unfold Dat.blockOf xrows; rw [A_eq]; try rfl) t d).trans
    (by unfold Dat.fetched Dat.blockOf xrows; rw [A_eq]; try rfl)

theorem before_y (c : Dev nD) (t : Fin cfg29.N) (d) : (dat V c).before 1 t d = yrows V c t :=
  ((dat V c).before_in_eq_fetched 1 rfl (fun _ => rfl) (fun _ _ _ => rfl)
      (fun t => by rw [after_y]; unfold Dat.blockOf yrows; rw [A_eq]; try rfl) t d).trans
    (by unfold Dat.fetched Dat.blockOf yrows; rw [A_eq]; try rfl)

/-- The output window is written back after the last point only, so at every later point its staging buffer still
    holds the running total the point before left. -/
theorem before_total (c : Dev nD) (t : Fin cfg29.N) (ht : t.val ≠ 0) (d) :
    (dat V c).before 2 t d = total V c (t.val - 1) (Nat.lt_of_le_of_lt (Nat.sub_le _ _) t.isLt) := by
  have hlt : t.val < 14 := Nat.lt_of_lt_of_eq t.isLt (Gen.N_29 : cfg29.N = 14)
  have hfl : (cfg29.win 2).flush ⟨t.val - 1, Nat.lt_of_le_of_lt (Nat.sub_le _ _) t.isLt⟩ = false :=
    Bool.eq_false_iff.mpr fun h => by
      have h97 := (Gen.flush29_2 _).mp h
      have h97' : (t.val - 1) % 14 = 13 := h97
      omega
  rw [(dat V c).before_out_kept 2 rfl t ht hfl (fun _ => rfl) (fun _ _ => rfl) d, after_total]

/-- The running total at point 0, and at a later point from the point before. -/
theorem total_first (c : Dev nD) (t : Fin cfg29.N) (h0 : t.val = 0) :
    total V c t.val t.isLt = step zero (xrows V c t) (yrows V c t) := by
  obtain ⟨n, hn⟩ := t
  cases n with
  | zero => rfl
  | succ n => exact absurd h0 (Nat.succ_ne_zero n)

theorem total_later (c : Dev nD) (t : Fin cfg29.N) (ht : t.val ≠ 0) :
    total V c t.val t.isLt
      = step (total V c (t.val - 1) (Nat.lt_of_le_of_lt (Nat.sub_le _ _) t.isLt)) (xrows V c t) (yrows V c t) := by
  obtain ⟨n, hn⟩ := t
  cases n with
  | zero => exact absurd rfl ht
  | succ n => rfl

/-- The body at a point: the input buffers show the point's rows; at point 0 the reset branch runs, at a later
    point the output buffer holds the previous total and the adding branch runs. -/
theorem at_point (c : Dev nD) (t : Fin cfg29.N) :
    iprop((dat V c).Φ t.castSucc ∗ (dat V c).owesAt () t.castSucc
        ∗ (∃ d, owns (c : Thread nD τ) (Gen.st29_0 t) fullShare ((dat V c).before 0 t d))
        ∗ (∃ d, owns (c : Thread nD τ) (Gen.st29_1 t) fullShare ((dat V c).before 1 t d))
        ∗ (∃ d, owns (c : Thread nD τ) (Gen.st29_2 t) fullShare ((dat V c).before 2 t d)))
      ⊢ wp frame (wpE (defs₀ (F := F)) Variants.none c none) Set.univ (Gen.bodyAt29 t) (fun _ =>
        iprop((dat V c).Φ t.succ ∗ (dat V c).owesAt () t.succ
          ∗ owns (c : Thread nD τ) (Gen.st29_0 t) fullShare ((dat V c).after 0 t)
          ∗ owns (c : Thread nD τ) (Gen.st29_1 t) fullShare ((dat V c).after 1 t)
          ∗ owns (c : Thread nD τ) (Gen.st29_2 t) fullShare ((dat V c).after 2 t))) := by
  unfold Gen.bodyAt29
  simp only [before_x, before_y]
  rw [show (dat V c).Φ t.succ = (dat V c).Φ t.castSucc from rfl,
    show (dat V c).owesAt () t.succ = (dat V c).owesAt () t.castSucc from rfl, after_x, after_y, after_total]
  by_cases h0 : t.val = 0
  · rw [total_first V c t h0]
    iintro ⟨HΦ, Ho, ⟨%dx, Hx⟩, ⟨%dy, Hy⟩, ⟨%dz, Hz⟩⟩
    iapply (body_first c Set.univ _ ((isFirst_iff t).mpr h0) _ _ _ _ _ _ (xrows V c t) (yrows V c t) _)
    isplitl [Hx]; · iexact Hx
    isplitl [Hy]; · iexact Hy
    isplitl [Hz]; · iexists _; iexact Hz
    iintro ⟨Hx, Hy, Hz⟩
    isplitl [HΦ]; · iexact HΦ
    isplitl [Ho]; · iexact Ho
    isplitl [Hx]; · iexact Hx
    isplitl [Hy]; · iexact Hy
    iexact Hz
  · simp only [before_total V c t h0]
    rw [total_later V c t h0]
    iintro ⟨HΦ, Ho, ⟨%dx, Hx⟩, ⟨%dy, Hy⟩, ⟨%dz, Hz⟩⟩
    iapply (body_later c Set.univ _ (fun h => h0 ((isFirst_iff t).mp h)) _ _ _ _ _ _ (xrows V c t) (yrows V c t) _ _)
    isplitl [Hx]; · iexact Hx
    isplitl [Hy]; · iexact Hy
    isplitl [Hz]; · iexact Hz
    iintro ⟨Hx, Hy, Hz⟩
    isplitl [HΦ]; · iexact HΦ
    isplitl [Ho]; · iexact Ho
    isplitl [Hx]; · iexact Hx
    isplitl [Hy]; · iexact Hy
    iexact Hz

theorem body_obligation (c : Dev nD) : BodyObligation (dat (F := F) V c) (defs₀ (F := F)) Variants.none () Set.univ := fun t => by
  rw [Gen.bigSep_W29, Gen.bigSep_W29]
  exact at_point V c t

end Cert.ReferenceIdeal.Reg29
-- ==== Proof.RI.Seg29.lean ====
import proofs.«143011_g2000502688546152_pallasbulk_1201_3_alg».proof.Proof.RI.Reg29
import proofs.«143011_g2000502688546152_pallasbulk_1201_3_alg».proof.Proof.RI.Rest
import Idealize.ShloMosaic.Lib.Pipeline.Regions
import Idealize.ShloMosaic.Lib.Pipeline.RegionsLoop

/-! # Region 29 as a segment of @main

A mean-absolute-difference region reads two arrays of rows of 512 and adds every row's absolute differences into one [1, 1] array across the grid. Its windows sit on distinct arrays. Entered from every unscoped buffer of the core whole at a valuation `W`, it
leaves them at `Wout W`: the output array at what the pipeline's write-backs made of it, every other buffer as found
(an input window's array is never written). -/

set_option maxRecDepth 16384

noncomputable section

namespace Cert.ReferenceIdeal.Reg29

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.ReferenceIdeal.Gen Cert.ReferenceIdeal.Rest

variable {F : FTy → Type} [FloatOps F]

local notation "𝕄" => MT nD τ sig Unit (Elt F) ℕ (UR sig nD τ) ℕ

-- the unscoped buffers' contents as the region finds them
variable (W : Dev nD → Valuation τ sig (Elt F))

/-- The same read at the TensorCore's references: what the region's proof data take. -/
abbrev VW : (c : Dev nD) → (b : Ref sig .tc) → Buf (Elt F) ((c : Thread nD τ).loc b) := fun c b => W c b

/-- The contents as the region leaves them: the output array rewritten, every other buffer as found. -/
def Wout (c : Dev nD) : Valuation τ sig (Elt F) :=
  Function.update (W c) (Proc.devRef .tc (Pipeline.arrRef spec29 2)) ((dat (VW W) c).arrAt 2 cfg29.N)

theorem Wout_out (c : Dev nD) :
    Wout W c (Proc.devRef .tc (Pipeline.arrRef spec29 2)) = (dat (VW W) c).arrAt 2 cfg29.N := by
  unfold Wout; exact Function.update_self ..

theorem Wout_of_ne (c : Dev nD) (b : DevRef τ sig) (hb : b ≠ Proc.devRef .tc (Pipeline.arrRef spec29 2)) :
    Wout W c b = W c b := by
  unfold Wout; exact Function.update_of_ne hb ..

theorem Wout_of_ne_ref (c : Dev nD) (b : Ref sig .tc) (hb : b ≠ Pipeline.arrRef spec29 2) :
    Wout W c (Proc.devRef .tc b) = W c (Proc.devRef .tc b) :=
  Wout_of_ne W c _ fun e => hb (Proc.devRef_injective _ e)

/-- At the exit each array holds what the pipeline leaves. -/
theorem final_arr (c : Dev nD) : ∀ w : Fin cfg29.W,
    (dat (VW W) c).arrAt w cfg29.N = Wout W c (Proc.devRef .tc (Pipeline.arrRef spec29 w))
  | 0 => by rw [Pipeline.Dat.arrAt_in _ 0 (by decide), Wout_of_ne_ref W c _ (by decide)]; exact A_eq _ c 0
  | 1 => by rw [Pipeline.Dat.arrAt_in _ 1 (by decide), Wout_of_ne_ref W c _ (by decide)]; exact A_eq _ c 1
  | 2 => (Wout_out W c).symm
  | ⟨_ + 3, h⟩ => absurd h (Nat.not_lt.2 (Nat.le_add_left _ _))

/-- At the exit every buffer that is no array of the region holds what it held at entry. -/
theorem final_rest (c : Dev nD) (b : Ref sig .tc) (hb : b ∉ Finset.univ.image (Pipeline.arrRef spec29)) :
    Wout W c (Proc.devRef .tc b) = W c (Proc.devRef .tc b) :=
  Wout_of_ne_ref W c b fun e => hb (Finset.mem_image.mpr ⟨2, Finset.mem_univ _, e.symm⟩)

/-! ## The segment record -/

set_option backward.isDefEq.respectTransparency.types false in
/-- Region 29 over the thread state: entered from every unscoped buffer at `W`, left at `Wout W`; the generator
    register into the pipeline's invariant and out; nothing owed; no semaphore of the kernel's own. -/
def seg (pdats : (p : Fin 30) → (c : Dev nD) → Dat τ (Elt F) Unit ℕ (UR sig nD τ) ℕ (cfgs p) c)
    (hp : pdats 29 = fun c => dat (VW W) c) :
    RegionSeg (pcfgs (F := F)) adm pdats () defs₀ Variants.none L lv 29 where
  win := winFacts29.to₀
  block_pos := block_pos29
  stage_whole := stage_whole29
  K := PEmpty
  osem k := k.elim
  ho := Pipeline.OwnSemFacts.none _
  hbody c := by rw [hp]; exact (body_obligation (VW W) c).loose
  hwaits := Pipeline.hwaits_of_owed_zero _ _ _ _ L lv 29 fun c t => by rw [hp]; exact owed_eq _ c t
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UR sig nD τ) (Lvl := ℕ) spec29 c (VW W c)
  hentry c := by
    rw [Pipeline.ownSems0_none]
    have hsplit := Pipeline.arrays_of_unscopedBufs (p := 29) (pcfgs (F := F)) adm pdats winFacts29 arr_whole29 c
      (by rw [hp]; exact (dat (VW W) c).share_full fun w => q_eq _ c w) (VW W c) (by rw [hp]; exact fun w => A_eq _ c w)
    rw [Pipeline.unscopedBufs_held, hp] at hsplit
    rw [hp]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitl [Hp]; · iexact Hp
    iexact Hrest
  hin c := by
    have hΦ : (pdats 29 c).Φ 0 = Pipeline.ΦA spec29 c := by rw [hp]; exact Φ_eq _ c 0
    rw [hΦ]; unfold Pipeline.ΦA
    iintro ⟨Hp, -, Hr⟩
    isplitl [Hr]; · iexact Hr
    iexact Hp
  hout c := by
    have hΦ : (pdats 29 c).Φ (Fin.last _) = Pipeline.ΦA spec29 c := by rw [hp]; exact Φ_eq _ c _
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      winFacts29 arr_whole29 c pdats (by rw [hp]; exact (dat (VW W) c).share_full fun w => q_eq _ c w)
      (VW W c) (fun b => Wout W c b) ((pdats 29 c).arrAt · cfg29.N) (by rw [hp]; exact final_arr W c) (final_rest W c)
    rw [Pipeline.unscopedBufs_held, hp] at hjoin
    rw [hp]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

end Cert.ReferenceIdeal.Reg29

end
-- ==== Proof.RI.Chain.lean ====
import proofs.«143011_g2000502688546152_pallasbulk_1201_3_alg».proof.Proof.RI.Seg0
import proofs.«143011_g2000502688546152_pallasbulk_1201_3_alg».proof.Proof.RI.Seg1
import proofs.«143011_g2000502688546152_pallasbulk_1201_3_alg».proof.Proof.RI.Seg2
import proofs.«143011_g2000502688546152_pallasbulk_1201_3_alg».proof.Proof.RI.Seg3
import proofs.«143011_g2000502688546152_pallasbulk_1201_3_alg».proof.Proof.RI.Seg4
import proofs.«143011_g2000502688546152_pallasbulk_1201_3_alg».proof.Proof.RI.Seg5
import proofs.«143011_g2000502688546152_pallasbulk_1201_3_alg».proof.Proof.RI.Seg6
import proofs.«143011_g2000502688546152_pallasbulk_1201_3_alg».proof.Proof.RI.Seg7
import proofs.«143011_g2000502688546152_pallasbulk_1201_3_alg».proof.Proof.RI.Seg8
import proofs.«143011_g2000502688546152_pallasbulk_1201_3_alg».proof.Proof.RI.Seg9
import proofs.«143011_g2000502688546152_pallasbulk_1201_3_alg».proof.Proof.RI.Seg10
import proofs.«143011_g2000502688546152_pallasbulk_1201_3_alg».proof.Proof.RI.Seg11
import proofs.«143011_g2000502688546152_pallasbulk_1201_3_alg».proof.Proof.RI.Seg12
import proofs.«143011_g2000502688546152_pallasbulk_1201_3_alg».proof.Proof.RI.Seg13
import proofs.«143011_g2000502688546152_pallasbulk_1201_3_alg».proof.Proof.RI.Seg14
import proofs.«143011_g2000502688546152_pallasbulk_1201_3_alg».proof.Proof.RI.Seg15
import proofs.«143011_g2000502688546152_pallasbulk_1201_3_alg».proof.Proof.RI.Seg16
import proofs.«143011_g2000502688546152_pallasbulk_1201_3_alg».proof.Proof.RI.Seg17
import proofs.«143011_g2000502688546152_pallasbulk_1201_3_alg».proof.Proof.RI.Seg18
import proofs.«143011_g2000502688546152_pallasbulk_1201_3_alg».proof.Proof.RI.Seg19
import proofs.«143011_g2000502688546152_pallasbulk_1201_3_alg».proof.Proof.RI.Seg20
import proofs.«143011_g2000502688546152_pallasbulk_1201_3_alg».proof.Proof.RI.Seg21
import proofs.«143011_g2000502688546152_pallasbulk_1201_3_alg».proof.Proof.RI.Seg22
import proofs.«143011_g2000502688546152_pallasbulk_1201_3_alg».proof.Proof.RI.Seg23
import proofs.«143011_g2000502688546152_pallasbulk_1201_3_alg».proof.Proof.RI.Seg24
import proofs.«143011_g2000502688546152_pallasbulk_1201_3_alg».proof.Proof.RI.Seg25
import proofs.«143011_g2000502688546152_pallasbulk_1201_3_alg».proof.Proof.RI.Seg26
import proofs.«143011_g2000502688546152_pallasbulk_1201_3_alg».proof.Proof.RI.Seg27
import proofs.«143011_g2000502688546152_pallasbulk_1201_3_alg».proof.Proof.RI.Seg28
import proofs.«143011_g2000502688546152_pallasbulk_1201_3_alg».proof.Proof.RI.Seg29
import proofs.«143011_g2000502688546152_pallasbulk_1201_3_alg».proof.Proof.RI.GenRegions

/-! # The buffers' contents between @main's items, and the regions' proof data

Between two items of @main a core holds every unscoped buffer whole at a valuation: the launch contents `W0`, then each
host stretch applied (`StableHlo.after`), then each region's output array rewritten to what the pipeline leaves
(`RegK.Wout`). These are the generated boundary valuations `Gen.VJ m outs c` at the particular choice `outs` of what
each region leaves (`VJ_eq`); region K's proof data are taken at the valuation the region is entered from (`pdats`). -/

set_option maxRecDepth 16384

noncomputable section

namespace Cert.ReferenceIdeal.Chain

open Idealize.ShloMosaic Idealize.ShloMosaic.TcCoe
open Idealize.SL Idealize.SL.Sem
open Idealize.ShloMosaic.Pipeline (Dat)
open Cert.ReferenceIdeal.Gen

variable {F : FTy → Type} [FloatOps F]
variable (m : (ℓ : Loc nD τ sig) → Buf (Elt F) ℓ)

/-! ## The valuations -/

/-- Core `c`'s buffers at launch. -/
def W0 (c : Dev nD) : Valuation τ sig (Elt F) := fun b => m (c, b)
/-- After `hostOps0`. -/
def W1 (c : Dev nD) : Valuation τ sig (Elt F) := StableHlo.after hostOps0 (W0 m c)
/-- After `hostOps0_1`. -/
def W2 (c : Dev nD) : Valuation τ sig (Elt F) := StableHlo.after hostOps0_1 (W1 m c)
/-- After region 0: `main_v15` rewritten. -/
def W3 (c : Dev nD) : Valuation τ sig (Elt F) := Reg0.Wout (W2 m) c
/-- After `hostOps1`. -/
def W4 (c : Dev nD) : Valuation τ sig (Elt F) := StableHlo.after hostOps1 (W3 m c)
/-- After `hostOps1_1`. -/
def W5 (c : Dev nD) : Valuation τ sig (Elt F) := StableHlo.after hostOps1_1 (W4 m c)
/-- After region 1: `main_v17` rewritten. -/
def W6 (c : Dev nD) : Valuation τ sig (Elt F) := Reg1.Wout (W5 m) c
/-- After `hostOps2`. -/
def W7 (c : Dev nD) : Valuation τ sig (Elt F) := StableHlo.after hostOps2 (W6 m c)
/-- After `hostOps2_1`. -/
def W8 (c : Dev nD) : Valuation τ sig (Elt F) := StableHlo.after hostOps2_1 (W7 m c)
/-- After region 2: `main_v19` rewritten. -/
def W9 (c : Dev nD) : Valuation τ sig (Elt F) := Reg2.Wout (W8 m) c
/-- After `hostOps3`. -/
def W10 (c : Dev nD) : Valuation τ sig (Elt F) := StableHlo.after hostOps3 (W9 m c)
/-- After `hostOps3_1`. -/
def W11 (c : Dev nD) : Valuation τ sig (Elt F) := StableHlo.after hostOps3_1 (W10 m c)
/-- After region 3: `main_v21` rewritten. -/
def W12 (c : Dev nD) : Valuation τ sig (Elt F) := Reg3.Wout (W11 m) c
/-- After `hostOps4`. -/
def W13 (c : Dev nD) : Valuation τ sig (Elt F) := StableHlo.after hostOps4 (W12 m c)
/-- After region 4: `main_v24` rewritten. -/
def W14 (c : Dev nD) : Valuation τ sig (Elt F) := Reg4.Wout (W13 m) c
/-- After `hostOps5`. -/
def W15 (c : Dev nD) : Valuation τ sig (Elt F) := StableHlo.after hostOps5 (W14 m c)
/-- After region 5: `main_v29` rewritten. -/
def W16 (c : Dev nD) : Valuation τ sig (Elt F) := Reg5.Wout (W15 m) c
/-- After `hostOps6`. -/
def W17 (c : Dev nD) : Valuation τ sig (Elt F) := StableHlo.after hostOps6 (W16 m c)
/-- After region 6: `main_v31` rewritten. -/
def W18 (c : Dev nD) : Valuation τ sig (Elt F) := Reg6.Wout (W17 m) c
/-- After `hostOps7`. -/
def W19 (c : Dev nD) : Valuation τ sig (Elt F) := StableHlo.after hostOps7 (W18 m c)
/-- After `hostOps7_1`. -/
def W20 (c : Dev nD) : Valuation τ sig (Elt F) := StableHlo.after hostOps7_1 (W19 m c)
/-- After region 7: `main_v33` rewritten. -/
def W21 (c : Dev nD) : Valuation τ sig (Elt F) := Reg7.Wout (W20 m) c
/-- After `hostOps8`. -/
def W22 (c : Dev nD) : Valuation τ sig (Elt F) := StableHlo.after hostOps8 (W21 m c)
/-- After `hostOps8_1`. -/
def W23 (c : Dev nD) : Valuation τ sig (Elt F) := StableHlo.after hostOps8_1 (W22 m c)
/-- After region 8: `main_v35` rewritten. -/
def W24 (c : Dev nD) : Valuation τ sig (Elt F) := Reg8.Wout (W23 m) c
/-- After `hostOps9`. -/
def W25 (c : Dev nD) : Valuation τ sig (Elt F) := StableHlo.after hostOps9 (W24 m c)
/-- After `hostOps9_1`. -/
def W26 (c : Dev nD) : Valuation τ sig (Elt F) := StableHlo.after hostOps9_1 (W25 m c)
/-- After region 9: `main_v37` rewritten. -/
def W27 (c : Dev nD) : Valuation τ sig (Elt F) := Reg9.Wout (W26 m) c
/-- After `hostOps10`. -/
def W28 (c : Dev nD) : Valuation τ sig (Elt F) := StableHlo.after hostOps10 (W27 m c)
/-- After `hostOps10_1`. -/
def W29 (c : Dev nD) : Valuation τ sig (Elt F) := StableHlo.after hostOps10_1 (W28 m c)
/-- After region 10: `main_v39` rewritten. -/
def W30 (c : Dev nD) : Valuation τ sig (Elt F) := Reg10.Wout (W29 m) c
/-- After `hostOps11`. -/
def W31 (c : Dev nD) : Valuation τ sig (Elt F) := StableHlo.after hostOps11 (W30 m c)
/-- After region 11: `main_v42` rewritten. -/
def W32 (c : Dev nD) : Valuation τ sig (Elt F) := Reg11.Wout (W31 m) c
/-- After `hostOps12`. -/
def W33 (c : Dev nD) : Valuation τ sig (Elt F) := StableHlo.after hostOps12 (W32 m c)
/-- After region 12: `main_v47` rewritten. -/
def W34 (c : Dev nD) : Valuation τ sig (Elt F) := Reg12.Wout (W33 m) c
/-- After `hostOps13`. -/
def W35 (c : Dev nD) : Valuation τ sig (Elt F) := StableHlo.after hostOps13 (W34 m c)
/-- After region 13: `main_v49` rewritten. -/
def W36 (c : Dev nD) : Valuation τ sig (Elt F) := Reg13.Wout (W35 m) c
/-- After `hostOps14`. -/
def W37 (c : Dev nD) : Valuation τ sig (Elt F) := StableHlo.after hostOps14 (W36 m c)
/-- After `hostOps14_1`. -/
def W38 (c : Dev nD) : Valuation τ sig (Elt F) := StableHlo.after hostOps14_1 (W37 m c)
/-- After region 14: `main_v51` rewritten. -/
def W39 (c : Dev nD) : Valuation τ sig (Elt F) := Reg14.Wout (W38 m) c
/-- After `hostOps15`. -/
def W40 (c : Dev nD) : Valuation τ sig (Elt F) := StableHlo.after hostOps15 (W39 m c)
/-- After `hostOps15_1`. -/
def W41 (c : Dev nD) : Valuation τ sig (Elt F) := StableHlo.after hostOps15_1 (W40 m c)
/-- After region 15: `main_v53` rewritten. -/
def W42 (c : Dev nD) : Valuation τ sig (Elt F) := Reg15.Wout (W41 m) c
/-- After `hostOps16`. -/
def W43 (c : Dev nD) : Valuation τ sig (Elt F) := StableHlo.after hostOps16 (W42 m c)
/-- After `hostOps16_1`. -/
def W44 (c : Dev nD) : Valuation τ sig (Elt F) := StableHlo.after hostOps16_1 (W43 m c)
/-- After region 16: `main_v55` rewritten. -/
def W45 (c : Dev nD) : Valuation τ sig (Elt F) := Reg16.Wout (W44 m) c
/-- After `hostOps17`. -/
def W46 (c : Dev nD) : Valuation τ sig (Elt F) := StableHlo.after hostOps17 (W45 m c)
/-- After `hostOps17_1`. -/
def W47 (c : Dev nD) : Valuation τ sig (Elt F) := StableHlo.after hostOps17_1 (W46 m c)
/-- After region 17: `main_v57` rewritten. -/
def W48 (c : Dev nD) : Valuation τ sig (Elt F) := Reg17.Wout (W47 m) c
/-- After `hostOps18`. -/
def W49 (c : Dev nD) : Valuation τ sig (Elt F) := StableHlo.after hostOps18 (W48 m c)
/-- After `hostOps18_1`. -/
def W50 (c : Dev nD) : Valuation τ sig (Elt F) := StableHlo.after hostOps18_1 (W49 m c)
/-- After region 18: `main_v59` rewritten. -/
def W51 (c : Dev nD) : Valuation τ sig (Elt F) := Reg18.Wout (W50 m) c
/-- After `hostOps19`. -/
def W52 (c : Dev nD) : Valuation τ sig (Elt F) := StableHlo.after hostOps19 (W51 m c)
/-- After `hostOps19_1`. -/
def W53 (c : Dev nD) : Valuation τ sig (Elt F) := StableHlo.after hostOps19_1 (W52 m c)
/-- After region 19: `main_v61` rewritten. -/
def W54 (c : Dev nD) : Valuation τ sig (Elt F) := Reg19.Wout (W53 m) c
/-- After `hostOps20`. -/
def W55 (c : Dev nD) : Valuation τ sig (Elt F) := StableHlo.after hostOps20 (W54 m c)
/-- After region 20: `main_v64` rewritten. -/
def W56 (c : Dev nD) : Valuation τ sig (Elt F) := Reg20.Wout (W55 m) c
/-- After `hostOps21`. -/
def W57 (c : Dev nD) : Valuation τ sig (Elt F) := StableHlo.after hostOps21 (W56 m c)
/-- After region 21: `main_v69` rewritten. -/
def W58 (c : Dev nD) : Valuation τ sig (Elt F) := Reg21.Wout (W57 m) c
/-- After `hostOps22`. -/
def W59 (c : Dev nD) : Valuation τ sig (Elt F) := StableHlo.after hostOps22 (W58 m c)
/-- After region 22: `main_v71` rewritten. -/
def W60 (c : Dev nD) : Valuation τ sig (Elt F) := Reg22.Wout (W59 m) c
/-- After `hostOps23`. -/
def W61 (c : Dev nD) : Valuation τ sig (Elt F) := StableHlo.after hostOps23 (W60 m c)
/-- After `hostOps23_1`. -/
def W62 (c : Dev nD) : Valuation τ sig (Elt F) := StableHlo.after hostOps23_1 (W61 m c)
/-- After region 23: `main_v73` rewritten. -/
def W63 (c : Dev nD) : Valuation τ sig (Elt F) := Reg23.Wout (W62 m) c
/-- After `hostOps24`. -/
def W64 (c : Dev nD) : Valuation τ sig (Elt F) := StableHlo.after hostOps24 (W63 m c)
/-- After `hostOps24_1`. -/
def W65 (c : Dev nD) : Valuation τ sig (Elt F) := StableHlo.after hostOps24_1 (W64 m c)
/-- After region 24: `main_v75` rewritten. -/
def W66 (c : Dev nD) : Valuation τ sig (Elt F) := Reg24.Wout (W65 m) c
/-- After `hostOps25`. -/
def W67 (c : Dev nD) : Valuation τ sig (Elt F) := StableHlo.after hostOps25 (W66 m c)
/-- After `hostOps25_1`. -/
def W68 (c : Dev nD) : Valuation τ sig (Elt F) := StableHlo.after hostOps25_1 (W67 m c)
/-- After region 25: `main_v77` rewritten. -/
def W69 (c : Dev nD) : Valuation τ sig (Elt F) := Reg25.Wout (W68 m) c
/-- After `hostOps26`. -/
def W70 (c : Dev nD) : Valuation τ sig (Elt F) := StableHlo.after hostOps26 (W69 m c)
/-- After `hostOps26_1`. -/
def W71 (c : Dev nD) : Valuation τ sig (Elt F) := StableHlo.after hostOps26_1 (W70 m c)
/-- After region 26: `main_v79` rewritten. -/
def W72 (c : Dev nD) : Valuation τ sig (Elt F) := Reg26.Wout (W71 m) c
/-- After `hostOps27`. -/
def W73 (c : Dev nD) : Valuation τ sig (Elt F) := StableHlo.after hostOps27 (W72 m c)
/-- After `hostOps27_1`. -/
def W74 (c : Dev nD) : Valuation τ sig (Elt F) := StableHlo.after hostOps27_1 (W73 m c)
/-- After region 27: `main_v81` rewritten. -/
def W75 (c : Dev nD) : Valuation τ sig (Elt F) := Reg27.Wout (W74 m) c
/-- After `hostOps28`. -/
def W76 (c : Dev nD) : Valuation τ sig (Elt F) := StableHlo.after hostOps28 (W75 m c)
/-- After `hostOps28_1`. -/
def W77 (c : Dev nD) : Valuation τ sig (Elt F) := StableHlo.after hostOps28_1 (W76 m c)
/-- After region 28: `main_v83` rewritten. -/
def W78 (c : Dev nD) : Valuation τ sig (Elt F) := Reg28.Wout (W77 m) c
/-- After `hostOps29`. -/
def W79 (c : Dev nD) : Valuation τ sig (Elt F) := StableHlo.after hostOps29 (W78 m c)
/-- After region 29: `main_v86` rewritten. -/
def W80 (c : Dev nD) : Valuation τ sig (Elt F) := Reg29.Wout (W79 m) c
/-- After `hostOps30`. -/
def W81 (c : Dev nD) : Valuation τ sig (Elt F) := StableHlo.after hostOps30 (W80 m c)

/-! ## What each region leaves, and the generated valuations at it -/

/-- What the regions leave in the buffers they may change: after region K (item J − 1) the valuation `WJ`. -/
def outs : Outs (F := F) := fun J r c =>
  match J with
  | 3 => W3 m c r
  | 6 => W6 m c r
  | 9 => W9 m c r
  | 12 => W12 m c r
  | 14 => W14 m c r
  | 16 => W16 m c r
  | 18 => W18 m c r
  | 21 => W21 m c r
  | 24 => W24 m c r
  | 27 => W27 m c r
  | 30 => W30 m c r
  | 32 => W32 m c r
  | 34 => W34 m c r
  | 36 => W36 m c r
  | 39 => W39 m c r
  | 42 => W42 m c r
  | 45 => W45 m c r
  | 48 => W48 m c r
  | 51 => W51 m c r
  | 54 => W54 m c r
  | 56 => W56 m c r
  | 58 => W58 m c r
  | 60 => W60 m c r
  | 63 => W63 m c r
  | 66 => W66 m c r
  | 69 => W69 m c r
  | 72 => W72 m c r
  | 75 => W75 m c r
  | 78 => W78 m c r
  | 80 => W80 m c r
  | _ => W0 m c r

theorem V0_eq (c : Dev nD) : V0 m c = W0 m c := rfl
theorem V1_eq (c : Dev nD) : V1 m c = W1 m c := by
  unfold W1; exact congrArg (StableHlo.after hostOps0) (V0_eq m c)
theorem V2_eq (c : Dev nD) : V2 m c = W2 m c := by
  unfold W2; exact congrArg (StableHlo.after hostOps0_1) (V1_eq m c)
theorem outs_3 (c : Dev nD) :
    outs m 3 main_v15 c = (Reg0.dat (Reg0.VW (W2 m)) c).arrAt 4 cfg0.N := by
  show W3 m c _ = _; unfold W3; exact Reg0.Wout_out (W2 m) c
theorem V3_eq (c : Dev nD) : V3 m (outs m) c = W3 m c := by
  have h := outs_3 m c
  unfold W3 Reg0.Wout
  rw [← h, ← V2_eq m c]
theorem V4_eq (c : Dev nD) : V4 m (outs m) c = W4 m c := by
  unfold W4; exact congrArg (StableHlo.after hostOps1) (V3_eq m c)
theorem V5_eq (c : Dev nD) : V5 m (outs m) c = W5 m c := by
  unfold W5; exact congrArg (StableHlo.after hostOps1_1) (V4_eq m c)
theorem outs_6 (c : Dev nD) :
    outs m 6 main_v17 c = (Reg1.dat (Reg1.VW (W5 m)) c).arrAt 4 cfg1.N := by
  show W6 m c _ = _; unfold W6; exact Reg1.Wout_out (W5 m) c
theorem V6_eq (c : Dev nD) : V6 m (outs m) c = W6 m c := by
  have h := outs_6 m c
  unfold W6 Reg1.Wout
  rw [← h, ← V5_eq m c]
theorem V7_eq (c : Dev nD) : V7 m (outs m) c = W7 m c := by
  unfold W7; exact congrArg (StableHlo.after hostOps2) (V6_eq m c)
theorem V8_eq (c : Dev nD) : V8 m (outs m) c = W8 m c := by
  unfold W8; exact congrArg (StableHlo.after hostOps2_1) (V7_eq m c)
theorem outs_9 (c : Dev nD) :
    outs m 9 main_v19 c = (Reg2.dat (Reg2.VW (W8 m)) c).arrAt 4 cfg2.N := by
  show W9 m c _ = _; unfold W9; exact Reg2.Wout_out (W8 m) c
theorem V9_eq (c : Dev nD) : V9 m (outs m) c = W9 m c := by
  have h := outs_9 m c
  unfold W9 Reg2.Wout
  rw [← h, ← V8_eq m c]
theorem V10_eq (c : Dev nD) : V10 m (outs m) c = W10 m c := by
  unfold W10; exact congrArg (StableHlo.after hostOps3) (V9_eq m c)
theorem V11_eq (c : Dev nD) : V11 m (outs m) c = W11 m c := by
  unfold W11; exact congrArg (StableHlo.after hostOps3_1) (V10_eq m c)
theorem outs_12 (c : Dev nD) :
    outs m 12 main_v21 c = (Reg3.dat (Reg3.VW (W11 m)) c).arrAt 4 cfg3.N := by
  show W12 m c _ = _; unfold W12; exact Reg3.Wout_out (W11 m) c
theorem V12_eq (c : Dev nD) : V12 m (outs m) c = W12 m c := by
  have h := outs_12 m c
  unfold W12 Reg3.Wout
  rw [← h, ← V11_eq m c]
theorem V13_eq (c : Dev nD) : V13 m (outs m) c = W13 m c := by
  unfold W13; exact congrArg (StableHlo.after hostOps4) (V12_eq m c)
theorem outs_14 (c : Dev nD) :
    outs m 14 main_v24 c = (Reg4.dat (Reg4.VW (W13 m)) c).arrAt 2 cfg4.N := by
  show W14 m c _ = _; unfold W14; exact Reg4.Wout_out (W13 m) c
theorem V14_eq (c : Dev nD) : V14 m (outs m) c = W14 m c := by
  have h := outs_14 m c
  unfold W14 Reg4.Wout
  rw [← h, ← V13_eq m c]
theorem V15_eq (c : Dev nD) : V15 m (outs m) c = W15 m c := by
  unfold W15; exact congrArg (StableHlo.after hostOps5) (V14_eq m c)
theorem outs_16 (c : Dev nD) :
    outs m 16 main_v29 c = (Reg5.dat (Reg5.VW (W15 m)) c).arrAt 1 cfg5.N := by
  show W16 m c _ = _; unfold W16; exact Reg5.Wout_out (W15 m) c
theorem V16_eq (c : Dev nD) : V16 m (outs m) c = W16 m c := by
  have h := outs_16 m c
  unfold W16 Reg5.Wout
  rw [← h, ← V15_eq m c]
theorem V17_eq (c : Dev nD) : V17 m (outs m) c = W17 m c := by
  unfold W17; exact congrArg (StableHlo.after hostOps6) (V16_eq m c)
theorem outs_18 (c : Dev nD) :
    outs m 18 main_v31 c = (Reg6.dat (Reg6.VW (W17 m)) c).arrAt 1 cfg6.N := by
  show W18 m c _ = _; unfold W18; exact Reg6.Wout_out (W17 m) c
theorem V18_eq (c : Dev nD) : V18 m (outs m) c = W18 m c := by
  have h := outs_18 m c
  unfold W18 Reg6.Wout
  rw [← h, ← V17_eq m c]
theorem V19_eq (c : Dev nD) : V19 m (outs m) c = W19 m c := by
  unfold W19; exact congrArg (StableHlo.after hostOps7) (V18_eq m c)
theorem V20_eq (c : Dev nD) : V20 m (outs m) c = W20 m c := by
  unfold W20; exact congrArg (StableHlo.after hostOps7_1) (V19_eq m c)
theorem outs_21 (c : Dev nD) :
    outs m 21 main_v33 c = (Reg7.dat (Reg7.VW (W20 m)) c).arrAt 4 cfg7.N := by
  show W21 m c _ = _; unfold W21; exact Reg7.Wout_out (W20 m) c
theorem V21_eq (c : Dev nD) : V21 m (outs m) c = W21 m c := by
  have h := outs_21 m c
  unfold W21 Reg7.Wout
  rw [← h, ← V20_eq m c]
theorem V22_eq (c : Dev nD) : V22 m (outs m) c = W22 m c := by
  unfold W22; exact congrArg (StableHlo.after hostOps8) (V21_eq m c)
theorem V23_eq (c : Dev nD) : V23 m (outs m) c = W23 m c := by
  unfold W23; exact congrArg (StableHlo.after hostOps8_1) (V22_eq m c)
theorem outs_24 (c : Dev nD) :
    outs m 24 main_v35 c = (Reg8.dat (Reg8.VW (W23 m)) c).arrAt 4 cfg8.N := by
  show W24 m c _ = _; unfold W24; exact Reg8.Wout_out (W23 m) c
theorem V24_eq (c : Dev nD) : V24 m (outs m) c = W24 m c := by
  have h := outs_24 m c
  unfold W24 Reg8.Wout
  rw [← h, ← V23_eq m c]
theorem V25_eq (c : Dev nD) : V25 m (outs m) c = W25 m c := by
  unfold W25; exact congrArg (StableHlo.after hostOps9) (V24_eq m c)
theorem V26_eq (c : Dev nD) : V26 m (outs m) c = W26 m c := by
  unfold W26; exact congrArg (StableHlo.after hostOps9_1) (V25_eq m c)
theorem outs_27 (c : Dev nD) :
    outs m 27 main_v37 c = (Reg9.dat (Reg9.VW (W26 m)) c).arrAt 4 cfg9.N := by
  show W27 m c _ = _; unfold W27; exact Reg9.Wout_out (W26 m) c
theorem V27_eq (c : Dev nD) : V27 m (outs m) c = W27 m c := by
  have h := outs_27 m c
  unfold W27 Reg9.Wout
  rw [← h, ← V26_eq m c]
theorem V28_eq (c : Dev nD) : V28 m (outs m) c = W28 m c := by
  unfold W28; exact congrArg (StableHlo.after hostOps10) (V27_eq m c)
theorem V29_eq (c : Dev nD) : V29 m (outs m) c = W29 m c := by
  unfold W29; exact congrArg (StableHlo.after hostOps10_1) (V28_eq m c)
theorem outs_30 (c : Dev nD) :
    outs m 30 main_v39 c = (Reg10.dat (Reg10.VW (W29 m)) c).arrAt 4 cfg10.N := by
  show W30 m c _ = _; unfold W30; exact Reg10.Wout_out (W29 m) c
theorem V30_eq (c : Dev nD) : V30 m (outs m) c = W30 m c := by
  have h := outs_30 m c
  unfold W30 Reg10.Wout
  rw [← h, ← V29_eq m c]
theorem V31_eq (c : Dev nD) : V31 m (outs m) c = W31 m c := by
  unfold W31; exact congrArg (StableHlo.after hostOps11) (V30_eq m c)
theorem outs_32 (c : Dev nD) :
    outs m 32 main_v42 c = (Reg11.dat (Reg11.VW (W31 m)) c).arrAt 2 cfg11.N := by
  show W32 m c _ = _; unfold W32; exact Reg11.Wout_out (W31 m) c
theorem V32_eq (c : Dev nD) : V32 m (outs m) c = W32 m c := by
  have h := outs_32 m c
  unfold W32 Reg11.Wout
  rw [← h, ← V31_eq m c]
theorem V33_eq (c : Dev nD) : V33 m (outs m) c = W33 m c := by
  unfold W33; exact congrArg (StableHlo.after hostOps12) (V32_eq m c)
theorem outs_34 (c : Dev nD) :
    outs m 34 main_v47 c = (Reg12.dat (Reg12.VW (W33 m)) c).arrAt 1 cfg12.N := by
  show W34 m c _ = _; unfold W34; exact Reg12.Wout_out (W33 m) c
theorem V34_eq (c : Dev nD) : V34 m (outs m) c = W34 m c := by
  have h := outs_34 m c
  unfold W34 Reg12.Wout
  rw [← h, ← V33_eq m c]
theorem V35_eq (c : Dev nD) : V35 m (outs m) c = W35 m c := by
  unfold W35; exact congrArg (StableHlo.after hostOps13) (V34_eq m c)
theorem outs_36 (c : Dev nD) :
    outs m 36 main_v49 c = (Reg13.dat (Reg13.VW (W35 m)) c).arrAt 1 cfg13.N := by
  show W36 m c _ = _; unfold W36; exact Reg13.Wout_out (W35 m) c
theorem V36_eq (c : Dev nD) : V36 m (outs m) c = W36 m c := by
  have h := outs_36 m c
  unfold W36 Reg13.Wout
  rw [← h, ← V35_eq m c]
theorem V37_eq (c : Dev nD) : V37 m (outs m) c = W37 m c := by
  unfold W37; exact congrArg (StableHlo.after hostOps14) (V36_eq m c)
theorem V38_eq (c : Dev nD) : V38 m (outs m) c = W38 m c := by
  unfold W38; exact congrArg (StableHlo.after hostOps14_1) (V37_eq m c)
theorem outs_39 (c : Dev nD) :
    outs m 39 main_v51 c = (Reg14.dat (Reg14.VW (W38 m)) c).arrAt 4 cfg14.N := by
  show W39 m c _ = _; unfold W39; exact Reg14.Wout_out (W38 m) c
theorem V39_eq (c : Dev nD) : V39 m (outs m) c = W39 m c := by
  have h := outs_39 m c
  unfold W39 Reg14.Wout
  rw [← h, ← V38_eq m c]
theorem V40_eq (c : Dev nD) : V40 m (outs m) c = W40 m c := by
  unfold W40; exact congrArg (StableHlo.after hostOps15) (V39_eq m c)
theorem V41_eq (c : Dev nD) : V41 m (outs m) c = W41 m c := by
  unfold W41; exact congrArg (StableHlo.after hostOps15_1) (V40_eq m c)
theorem outs_42 (c : Dev nD) :
    outs m 42 main_v53 c = (Reg15.dat (Reg15.VW (W41 m)) c).arrAt 4 cfg15.N := by
  show W42 m c _ = _; unfold W42; exact Reg15.Wout_out (W41 m) c
theorem V42_eq (c : Dev nD) : V42 m (outs m) c = W42 m c := by
  have h := outs_42 m c
  unfold W42 Reg15.Wout
  rw [← h, ← V41_eq m c]
theorem V43_eq (c : Dev nD) : V43 m (outs m) c = W43 m c := by
  unfold W43; exact congrArg (StableHlo.after hostOps16) (V42_eq m c)
theorem V44_eq (c : Dev nD) : V44 m (outs m) c = W44 m c := by
  unfold W44; exact congrArg (StableHlo.after hostOps16_1) (V43_eq m c)
theorem outs_45 (c : Dev nD) :
    outs m 45 main_v55 c = (Reg16.dat (Reg16.VW (W44 m)) c).arrAt 4 cfg16.N := by
  show W45 m c _ = _; unfold W45; exact Reg16.Wout_out (W44 m) c
theorem V45_eq (c : Dev nD) : V45 m (outs m) c = W45 m c := by
  have h := outs_45 m c
  unfold W45 Reg16.Wout
  rw [← h, ← V44_eq m c]
theorem V46_eq (c : Dev nD) : V46 m (outs m) c = W46 m c := by
  unfold W46; exact congrArg (StableHlo.after hostOps17) (V45_eq m c)
theorem V47_eq (c : Dev nD) : V47 m (outs m) c = W47 m c := by
  unfold W47; exact congrArg (StableHlo.after hostOps17_1) (V46_eq m c)
theorem outs_48 (c : Dev nD) :
    outs m 48 main_v57 c = (Reg17.dat (Reg17.VW (W47 m)) c).arrAt 4 cfg17.N := by
  show W48 m c _ = _; unfold W48; exact Reg17.Wout_out (W47 m) c
theorem V48_eq (c : Dev nD) : V48 m (outs m) c = W48 m c := by
  have h := outs_48 m c
  unfold W48 Reg17.Wout
  rw [← h, ← V47_eq m c]
theorem V49_eq (c : Dev nD) : V49 m (outs m) c = W49 m c := by
  unfold W49; exact congrArg (StableHlo.after hostOps18) (V48_eq m c)
theorem V50_eq (c : Dev nD) : V50 m (outs m) c = W50 m c := by
  unfold W50; exact congrArg (StableHlo.after hostOps18_1) (V49_eq m c)
theorem outs_51 (c : Dev nD) :
    outs m 51 main_v59 c = (Reg18.dat (Reg18.VW (W50 m)) c).arrAt 4 cfg18.N := by
  show W51 m c _ = _; unfold W51; exact Reg18.Wout_out (W50 m) c
theorem V51_eq (c : Dev nD) : V51 m (outs m) c = W51 m c := by
  have h := outs_51 m c
  unfold W51 Reg18.Wout
  rw [← h, ← V50_eq m c]
theorem V52_eq (c : Dev nD) : V52 m (outs m) c = W52 m c := by
  unfold W52; exact congrArg (StableHlo.after hostOps19) (V51_eq m c)
theorem V53_eq (c : Dev nD) : V53 m (outs m) c = W53 m c := by
  unfold W53; exact congrArg (StableHlo.after hostOps19_1) (V52_eq m c)
theorem outs_54 (c : Dev nD) :
    outs m 54 main_v61 c = (Reg19.dat (Reg19.VW (W53 m)) c).arrAt 4 cfg19.N := by
  show W54 m c _ = _; unfold W54; exact Reg19.Wout_out (W53 m) c
theorem V54_eq (c : Dev nD) : V54 m (outs m) c = W54 m c := by
  have h := outs_54 m c
  unfold W54 Reg19.Wout
  rw [← h, ← V53_eq m c]
theorem V55_eq (c : Dev nD) : V55 m (outs m) c = W55 m c := by
  unfold W55; exact congrArg (StableHlo.after hostOps20) (V54_eq m c)
theorem outs_56 (c : Dev nD) :
    outs m 56 main_v64 c = (Reg20.dat (Reg20.VW (W55 m)) c).arrAt 2 cfg20.N := by
  show W56 m c _ = _; unfold W56; exact Reg20.Wout_out (W55 m) c
theorem V56_eq (c : Dev nD) : V56 m (outs m) c = W56 m c := by
  have h := outs_56 m c
  unfold W56 Reg20.Wout
  rw [← h, ← V55_eq m c]
theorem V57_eq (c : Dev nD) : V57 m (outs m) c = W57 m c := by
  unfold W57; exact congrArg (StableHlo.after hostOps21) (V56_eq m c)
theorem outs_58 (c : Dev nD) :
    outs m 58 main_v69 c = (Reg21.dat (Reg21.VW (W57 m)) c).arrAt 1 cfg21.N := by
  show W58 m c _ = _; unfold W58; exact Reg21.Wout_out (W57 m) c
theorem V58_eq (c : Dev nD) : V58 m (outs m) c = W58 m c := by
  have h := outs_58 m c
  unfold W58 Reg21.Wout
  rw [← h, ← V57_eq m c]
theorem V59_eq (c : Dev nD) : V59 m (outs m) c = W59 m c := by
  unfold W59; exact congrArg (StableHlo.after hostOps22) (V58_eq m c)
theorem outs_60 (c : Dev nD) :
    outs m 60 main_v71 c = (Reg22.dat (Reg22.VW (W59 m)) c).arrAt 1 cfg22.N := by
  show W60 m c _ = _; unfold W60; exact Reg22.Wout_out (W59 m) c
theorem V60_eq (c : Dev nD) : V60 m (outs m) c = W60 m c := by
  have h := outs_60 m c
  unfold W60 Reg22.Wout
  rw [← h, ← V59_eq m c]
theorem V61_eq (c : Dev nD) : V61 m (outs m) c = W61 m c := by
  unfold W61; exact congrArg (StableHlo.after hostOps23) (V60_eq m c)
theorem V62_eq (c : Dev nD) : V62 m (outs m) c = W62 m c := by
  unfold W62; exact congrArg (StableHlo.after hostOps23_1) (V61_eq m c)
theorem outs_63 (c : Dev nD) :
    outs m 63 main_v73 c = (Reg23.dat (Reg23.VW (W62 m)) c).arrAt 4 cfg23.N := by
  show W63 m c _ = _; unfold W63; exact Reg23.Wout_out (W62 m) c
theorem V63_eq (c : Dev nD) : V63 m (outs m) c = W63 m c := by
  have h := outs_63 m c
  unfold W63 Reg23.Wout
  rw [← h, ← V62_eq m c]
theorem V64_eq (c : Dev nD) : V64 m (outs m) c = W64 m c := by
  unfold W64; exact congrArg (StableHlo.after hostOps24) (V63_eq m c)
theorem V65_eq (c : Dev nD) : V65 m (outs m) c = W65 m c := by
  unfold W65; exact congrArg (StableHlo.after hostOps24_1) (V64_eq m c)
theorem outs_66 (c : Dev nD) :
    outs m 66 main_v75 c = (Reg24.dat (Reg24.VW (W65 m)) c).arrAt 4 cfg24.N := by
  show W66 m c _ = _; unfold W66; exact Reg24.Wout_out (W65 m) c
theorem V66_eq (c : Dev nD) : V66 m (outs m) c = W66 m c := by
  have h := outs_66 m c
  unfold W66 Reg24.Wout
  rw [← h, ← V65_eq m c]
theorem V67_eq (c : Dev nD) : V67 m (outs m) c = W67 m c := by
  unfold W67; exact congrArg (StableHlo.after hostOps25) (V66_eq m c)
theorem V68_eq (c : Dev nD) : V68 m (outs m) c = W68 m c := by
  unfold W68; exact congrArg (StableHlo.after hostOps25_1) (V67_eq m c)
theorem outs_69 (c : Dev nD) :
    outs m 69 main_v77 c = (Reg25.dat (Reg25.VW (W68 m)) c).arrAt 4 cfg25.N := by
  show W69 m c _ = _; unfold W69; exact Reg25.Wout_out (W68 m) c
theorem V69_eq (c : Dev nD) : V69 m (outs m) c = W69 m c := by
  have h := outs_69 m c
  unfold W69 Reg25.Wout
  rw [← h, ← V68_eq m c]
theorem V70_eq (c : Dev nD) : V70 m (outs m) c = W70 m c := by
  unfold W70; exact congrArg (StableHlo.after hostOps26) (V69_eq m c)
theorem V71_eq (c : Dev nD) : V71 m (outs m) c = W71 m c := by
  unfold W71; exact congrArg (StableHlo.after hostOps26_1) (V70_eq m c)
theorem outs_72 (c : Dev nD) :
    outs m 72 main_v79 c = (Reg26.dat (Reg26.VW (W71 m)) c).arrAt 4 cfg26.N := by
  show W72 m c _ = _; unfold W72; exact Reg26.Wout_out (W71 m) c
theorem V72_eq (c : Dev nD) : V72 m (outs m) c = W72 m c := by
  have h := outs_72 m c
  unfold W72 Reg26.Wout
  rw [← h, ← V71_eq m c]
theorem V73_eq (c : Dev nD) : V73 m (outs m) c = W73 m c := by
  unfold W73; exact congrArg (StableHlo.after hostOps27) (V72_eq m c)
theorem V74_eq (c : Dev nD) : V74 m (outs m) c = W74 m c := by
  unfold W74; exact congrArg (StableHlo.after hostOps27_1) (V73_eq m c)
theorem outs_75 (c : Dev nD) :
    outs m 75 main_v81 c = (Reg27.dat (Reg27.VW (W74 m)) c).arrAt 4 cfg27.N := by
  show W75 m c _ = _; unfold W75; exact Reg27.Wout_out (W74 m) c
theorem V75_eq (c : Dev nD) : V75 m (outs m) c = W75 m c := by
  have h := outs_75 m c
  unfold W75 Reg27.Wout
  rw [← h, ← V74_eq m c]
theorem V76_eq (c : Dev nD) : V76 m (outs m) c = W76 m c := by
  unfold W76; exact congrArg (StableHlo.after hostOps28) (V75_eq m c)
theorem V77_eq (c : Dev nD) : V77 m (outs m) c = W77 m c := by
  unfold W77; exact congrArg (StableHlo.after hostOps28_1) (V76_eq m c)
theorem outs_78 (c : Dev nD) :
    outs m 78 main_v83 c = (Reg28.dat (Reg28.VW (W77 m)) c).arrAt 4 cfg28.N := by
  show W78 m c _ = _; unfold W78; exact Reg28.Wout_out (W77 m) c
theorem V78_eq (c : Dev nD) : V78 m (outs m) c = W78 m c := by
  have h := outs_78 m c
  unfold W78 Reg28.Wout
  rw [← h, ← V77_eq m c]
theorem V79_eq (c : Dev nD) : V79 m (outs m) c = W79 m c := by
  unfold W79; exact congrArg (StableHlo.after hostOps29) (V78_eq m c)
theorem outs_80 (c : Dev nD) :
    outs m 80 main_v86 c = (Reg29.dat (Reg29.VW (W79 m)) c).arrAt 2 cfg29.N := by
  show W80 m c _ = _; unfold W80; exact Reg29.Wout_out (W79 m) c
theorem V80_eq (c : Dev nD) : V80 m (outs m) c = W80 m c := by
  have h := outs_80 m c
  unfold W80 Reg29.Wout
  rw [← h, ← V79_eq m c]
theorem V81_eq (c : Dev nD) : V81 m (outs m) c = W81 m c := by
  unfold W81; exact congrArg (StableHlo.after hostOps30) (V80_eq m c)

/-! ## The proof data family -/

/-- Every pipeline's proof data, each at its region's entry contents (a literal `match`, so that the family at a numeral
    reduces to that region's). -/
def pdats : (p : Fin 30) → (c : Dev nD) → Dat τ (Elt F) Unit ℕ (UR sig nD τ) ℕ (cfgs p) c
  | ⟨0, _⟩ => fun c => Reg0.dat (Reg0.VW (W2 m)) c
  | ⟨1, _⟩ => fun c => Reg1.dat (Reg1.VW (W5 m)) c
  | ⟨2, _⟩ => fun c => Reg2.dat (Reg2.VW (W8 m)) c
  | ⟨3, _⟩ => fun c => Reg3.dat (Reg3.VW (W11 m)) c
  | ⟨4, _⟩ => fun c => Reg4.dat (Reg4.VW (W13 m)) c
  | ⟨5, _⟩ => fun c => Reg5.dat (Reg5.VW (W15 m)) c
  | ⟨6, _⟩ => fun c => Reg6.dat (Reg6.VW (W17 m)) c
  | ⟨7, _⟩ => fun c => Reg7.dat (Reg7.VW (W20 m)) c
  | ⟨8, _⟩ => fun c => Reg8.dat (Reg8.VW (W23 m)) c
  | ⟨9, _⟩ => fun c => Reg9.dat (Reg9.VW (W26 m)) c
  | ⟨10, _⟩ => fun c => Reg10.dat (Reg10.VW (W29 m)) c
  | ⟨11, _⟩ => fun c => Reg11.dat (Reg11.VW (W31 m)) c
  | ⟨12, _⟩ => fun c => Reg12.dat (Reg12.VW (W33 m)) c
  | ⟨13, _⟩ => fun c => Reg13.dat (Reg13.VW (W35 m)) c
  | ⟨14, _⟩ => fun c => Reg14.dat (Reg14.VW (W38 m)) c
  | ⟨15, _⟩ => fun c => Reg15.dat (Reg15.VW (W41 m)) c
  | ⟨16, _⟩ => fun c => Reg16.dat (Reg16.VW (W44 m)) c
  | ⟨17, _⟩ => fun c => Reg17.dat (Reg17.VW (W47 m)) c
  | ⟨18, _⟩ => fun c => Reg18.dat (Reg18.VW (W50 m)) c
  | ⟨19, _⟩ => fun c => Reg19.dat (Reg19.VW (W53 m)) c
  | ⟨20, _⟩ => fun c => Reg20.dat (Reg20.VW (W55 m)) c
  | ⟨21, _⟩ => fun c => Reg21.dat (Reg21.VW (W57 m)) c
  | ⟨22, _⟩ => fun c => Reg22.dat (Reg22.VW (W59 m)) c
  | ⟨23, _⟩ => fun c => Reg23.dat (Reg23.VW (W62 m)) c
  | ⟨24, _⟩ => fun c => Reg24.dat (Reg24.VW (W65 m)) c
  | ⟨25, _⟩ => fun c => Reg25.dat (Reg25.VW (W68 m)) c
  | ⟨26, _⟩ => fun c => Reg26.dat (Reg26.VW (W71 m)) c
  | ⟨27, _⟩ => fun c => Reg27.dat (Reg27.VW (W74 m)) c
  | ⟨28, _⟩ => fun c => Reg28.dat (Reg28.VW (W77 m)) c
  | ⟨29, _⟩ => fun c => Reg29.dat (Reg29.VW (W79 m)) c
  | ⟨n + 30, h⟩ => absurd h (by omega)

end Cert.ReferenceIdeal.Chain

end
-- ==== Proof.RI.RunCond.lean ====
/- The run of @main given one segment record per region: every execution terminates and every unscoped buffer of every
   core ends at the last boundary valuation. -/
import proofs.«143011_g2000502688546152_pallasbulk_1201_3_alg».proof.Proof.RI.GenRegions

/-! # The conditional run: every unscoped buffer at the last valuation

`Gen.frame_cond` ends with the argument arrays as launched. The same launch, read at every unscoped buffer, ends with
each of them at the last boundary valuation `V81 m outs c` — the arguments among them, and the program's result. -/

set_option maxRecDepth 1964

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option maxHeartbeats 4000000 in
set_option backward.isDefEq.respectTransparency.types false in
/-- THE CONDITIONAL RUN. Under `frame_cond`'s hypotheses every weakly fair execution of @main terminates and every
    final memory holds each unscoped buffer `b` of every core `c` at `V81 m outs c b`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 30) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 31 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE30 : ∀ c : Dev nD, E 30 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V20 m outs c) ∗ E 7 c) ⊢ R7.pre c)
    (hpost7 : ∀ c : Dev nD, R7.post c ⊢ iprop(StableHlo.held (c : Thread nD τ) (Pipeline.ucRefs τ sig) (V21 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V26 m outs c) ∗ E 9 c) ⊢ R9.pre c)
    (hpost9 : ∀ c : Dev nD, R9.post c ⊢ iprop(StableHlo.held (c : Thread nD τ) (Pipeline.ucRefs τ sig) (V27 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V29 m outs c) ∗ E 10 c) ⊢ R10.pre c)
    (hpost10 : ∀ c : Dev nD, R10.post c ⊢ iprop(StableHlo.held (c : Thread nD τ) (Pipeline.ucRefs τ sig) (V30 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V31 m outs c) ∗ E 11 c) ⊢ R11.pre c)
    (hpost11 : ∀ c : Dev nD, R11.post c ⊢ iprop(StableHlo.held (c : Thread nD τ) (Pipeline.ucRefs τ sig) (V32 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V33 m outs c) ∗ E 12 c) ⊢ R12.pre c)
    (hpost12 : ∀ c : Dev nD, R12.post c ⊢ iprop(StableHlo.held (c : Thread nD τ) (Pipeline.ucRefs τ sig) (V34 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V35 m outs c) ∗ E 13 c) ⊢ R13.pre c)
    (hpost13 : ∀ c : Dev nD, R13.post c ⊢ iprop(StableHlo.held (c : Thread nD τ) (Pipeline.ucRefs τ sig) (V36 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V38 m outs c) ∗ E 14 c) ⊢ R14.pre c)
    (hpost14 : ∀ c : Dev nD, R14.post c ⊢ iprop(StableHlo.held (c : Thread nD τ) (Pipeline.ucRefs τ sig) (V39 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V41 m outs c) ∗ E 15 c) ⊢ R15.pre c)
    (hpost15 : ∀ c : Dev nD, R15.post c ⊢ iprop(StableHlo.held (c : Thread nD τ) (Pipeline.ucRefs τ sig) (V42 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V44 m outs c) ∗ E 16 c) ⊢ R16.pre c)
    (hpost16 : ∀ c : Dev nD, R16.post c ⊢ iprop(StableHlo.held (c : Thread nD τ) (Pipeline.ucRefs τ sig) (V45 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V47 m outs c) ∗ E 17 c) ⊢ R17.pre c)
    (hpost17 : ∀ c : Dev nD, R17.post c ⊢ iprop(StableHlo.held (c : Thread nD τ) (Pipeline.ucRefs τ sig) (V48 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V50 m outs c) ∗ E 18 c) ⊢ R18.pre c)
    (hpost18 : ∀ c : Dev nD, R18.post c ⊢ iprop(StableHlo.held (c : Thread nD τ) (Pipeline.ucRefs τ sig) (V51 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V53 m outs c) ∗ E 19 c) ⊢ R19.pre c)
    (hpost19 : ∀ c : Dev nD, R19.post c ⊢ iprop(StableHlo.held (c : Thread nD τ) (Pipeline.ucRefs τ sig) (V54 m outs c) ∗ E 20 c))
    (R20 : RegionSeg (pcfgs (F := F)) adm pdats ι defs₀ 𝒱₀ L lv 20)
    (hpre20 : ∀ c : Dev nD, iprop(StableHlo.held (c : Thread nD τ) (Pipeline.ucRefs τ sig) (V55 m outs c) ∗ E 20 c) ⊢ R20.pre c)
    (hpost20 : ∀ c : Dev nD, R20.post c ⊢ iprop(StableHlo.held (c : Thread nD τ) (Pipeline.ucRefs τ sig) (V56 m outs c) ∗ E 21 c))
    (R21 : RegionSeg (pcfgs (F := F)) adm pdats ι defs₀ 𝒱₀ L lv 21)
    (hpre21 : ∀ c : Dev nD, iprop(StableHlo.held (c : Thread nD τ) (Pipeline.ucRefs τ sig) (V57 m outs c) ∗ E 21 c) ⊢ R21.pre c)
    (hpost21 : ∀ c : Dev nD, R21.post c ⊢ iprop(StableHlo.held (c : Thread nD τ) (Pipeline.ucRefs τ sig) (V58 m outs c) ∗ E 22 c))
    (R22 : RegionSeg (pcfgs (F := F)) adm pdats ι defs₀ 𝒱₀ L lv 22)
    (hpre22 : ∀ c : Dev nD, iprop(StableHlo.held (c : Thread nD τ) (Pipeline.ucRefs τ sig) (V59 m outs c) ∗ E 22 c) ⊢ R22.pre c)
    (hpost22 : ∀ c : Dev nD, R22.post c ⊢ iprop(StableHlo.held (c : Thread nD τ) (Pipeline.ucRefs τ sig) (V60 m outs c) ∗ E 23 c))
    (R23 : RegionSeg (pcfgs (F := F)) adm pdats ι defs₀ 𝒱₀ L lv 23)
    (hpre23 : ∀ c : Dev nD, iprop(StableHlo.held (c : Thread nD τ) (Pipeline.ucRefs τ sig) (V62 m outs c) ∗ E 23 c) ⊢ R23.pre c)
    (hpost23 : ∀ c : Dev nD, R23.post c ⊢ iprop(StableHlo.held (c : Thread nD τ) (Pipeline.ucRefs τ sig) (V63 m outs c) ∗ E 24 c))
    (R24 : RegionSeg (pcfgs (F := F)) adm pdats ι defs₀ 𝒱₀ L lv 24)
    (hpre24 : ∀ c : Dev nD, iprop(StableHlo.held (c : Thread nD τ) (Pipeline.ucRefs τ sig) (V65 m outs c) ∗ E 24 c) ⊢ R24.pre c)
    (hpost24 : ∀ c : Dev nD, R24.post c ⊢ iprop(StableHlo.held (c : Thread nD τ) (Pipeline.ucRefs τ sig) (V66 m outs c) ∗ E 25 c))
    (R25 : RegionSeg (pcfgs (F := F)) adm pdats ι defs₀ 𝒱₀ L lv 25)
    (hpre25 : ∀ c : Dev nD, iprop(StableHlo.held (c : Thread nD τ) (Pipeline.ucRefs τ sig) (V68 m outs c) ∗ E 25 c) ⊢ R25.pre c)
    (hpost25 : ∀ c : Dev nD, R25.post c ⊢ iprop(StableHlo.held (c : Thread nD τ) (Pipeline.ucRefs τ sig) (V69 m outs c) ∗ E 26 c))
    (R26 : RegionSeg (pcfgs (F := F)) adm pdats ι defs₀ 𝒱₀ L lv 26)
    (hpre26 : ∀ c : Dev nD, iprop(StableHlo.held (c : Thread nD τ) (Pipeline.ucRefs τ sig) (V71 m outs c) ∗ E 26 c) ⊢ R26.pre c)
    (hpost26 : ∀ c : Dev nD, R26.post c ⊢ iprop(StableHlo.held (c : Thread nD τ) (Pipeline.ucRefs τ sig) (V72 m outs c) ∗ E 27 c))
    (R27 : RegionSeg (pcfgs (F := F)) adm pdats ι defs₀ 𝒱₀ L lv 27)
    (hpre27 : ∀ c : Dev nD, iprop(StableHlo.held (c : Thread nD τ) (Pipeline.ucRefs τ sig) (V74 m outs c) ∗ E 27 c) ⊢ R27.pre c)
    (hpost27 : ∀ c : Dev nD, R27.post c ⊢ iprop(StableHlo.held (c : Thread nD τ) (Pipeline.ucRefs τ sig) (V75 m outs c) ∗ E 28 c))
    (R28 : RegionSeg (pcfgs (F := F)) adm pdats ι defs₀ 𝒱₀ L lv 28)
    (hpre28 : ∀ c : Dev nD, iprop(StableHlo.held (c : Thread nD τ) (Pipeline.ucRefs τ sig) (V77 m outs c) ∗ E 28 c) ⊢ R28.pre c)
    (hpost28 : ∀ c : Dev nD, R28.post c ⊢ iprop(StableHlo.held (c : Thread nD τ) (Pipeline.ucRefs τ sig) (V78 m outs c) ∗ E 29 c))
    (R29 : RegionSeg (pcfgs (F := F)) adm pdats ι defs₀ 𝒱₀ L lv 29)
    (hpre29 : ∀ c : Dev nD, iprop(StableHlo.held (c : Thread nD τ) (Pipeline.ucRefs τ sig) (V79 m outs c) ∗ E 29 c) ⊢ R29.pre c)
    (hpost29 : ∀ c : Dev nD, R29.post c ⊢ iprop(StableHlo.held (c : Thread nD τ) (Pipeline.ucRefs τ sig) (V80 m outs c) ∗ E 30 c)) :
    θ_run defs (onTc (τ := τ) (main (F := F))) ⟨m, fun _ => 0, ρ⟩ (fun r => ∀ c : Dev nD,
      ∀ b ∈ Pipeline.ucRefs τ sig, r.2.mem ((c : Thread nD τ).1, b) = V81 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19 R20 R21 R22 R23 R24 R25 R26 R27 R28 R29)
    (fun c Q => by
      rewrite [main_chain c, Seg.run_eq_chain,
        show (segs m outs 𝒱₀ L lv E ι pdats R0 R1 R2 R3 R4 R5 R6 R7 R8 R9 R10 R11 R12 R13 R14 R15 R16 R17 R18 R19 R20 R21 R22 R23 R24 R25 R26 R27 R28 R29 c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          StableHlo.seq hostOps8_1,
          Prog.lift (.customCall (Pipeline.entry 8) ()),
          StableHlo.seq hostOps9,
          StableHlo.seq hostOps9_1,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          StableHlo.seq hostOps14_1,
          Prog.lift (.customCall (Pipeline.entry 14) ()),
          StableHlo.seq hostOps15,
          StableHlo.seq hostOps15_1,
          Prog.lift (.customCall (Pipeline.entry 15) ()),
          StableHlo.seq hostOps16,
          StableHlo.seq hostOps16_1,
          Prog.lift (.customCall (Pipeline.entry 16) ()),
          StableHlo.seq hostOps17,
          StableHlo.seq hostOps17_1,
          Prog.lift (.customCall (Pipeline.entry 17) ()),
          StableHlo.seq hostOps18,
          StableHlo.seq hostOps18_1,
          Prog.lift (.customCall (Pipeline.entry 18) ()),
          StableHlo.seq hostOps19,
          StableHlo.seq hostOps19_1,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          StableHlo.seq hostOps23_1,
          Prog.lift (.customCall (Pipeline.entry 23) ()),
          StableHlo.seq hostOps24,
          StableHlo.seq hostOps24_1,
          Prog.lift (.customCall (Pipeline.entry 24) ()),
          StableHlo.seq hostOps25,
          StableHlo.seq hostOps25_1,
          Prog.lift (.customCall (Pipeline.entry 25) ()),
          StableHlo.seq hostOps26,
          StableHlo.seq hostOps26_1,
          Prog.lift (.customCall (Pipeline.entry 26) ()),
          StableHlo.seq hostOps27,
          StableHlo.seq hostOps27_1,
          Prog.lift (.customCall (Pipeline.entry 27) ()),
          StableHlo.seq hostOps28,
          StableHlo.seq hostOps28_1,
          Prog.lift (.customCall (Pipeline.entry 28) ()),
          StableHlo.seq hostOps29,
          Prog.lift (.customCall (Pipeline.entry 29) ()),
          StableHlo.seq hostOps30 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V81 m outs c))
    (hch := fun c => ⟨.rfl, .rfl, hpre0 c, hpost0 c, .rfl, hpre1 c, hpost1 c, .rfl, hpre2 c, hpost2 c, .rfl, hpre3 c, hpost3 c, hpre4 c, hpost4 c, hpre5 c, hpost5 c, hpre6 c, hpost6 c, .rfl, hpre7 c, hpost7 c, .rfl, hpre8 c, hpost8 c, .rfl, hpre9 c, hpost9 c, .rfl, hpre10 c, hpost10 c, hpre11 c, hpost11 c, hpre12 c, hpost12 c, hpre13 c, hpost13 c, .rfl, hpre14 c, hpost14 c, .rfl, hpre15 c, hpost15 c, .rfl, hpre16 c, hpost16 c, .rfl, hpre17 c, hpost17 c, .rfl, hpre18 c, hpost18 c, .rfl, hpre19 c, hpost19 c, hpre20 c, hpost20 c, hpre21 c, hpost21 c, hpre22 c, hpost22 c, .rfl, hpre23 c, hpost23 c, .rfl, hpre24 c, hpost24 c, .rfl, hpre25 c, hpost25 c, .rfl, hpre26 c, hpost26 c, .rfl, hpre27 c, hpost27 c, .rfl, hpre28 c, hpost28 c, hpre29 c, hpost29 c, sep_mono .rfl (hE30 c)⟩)
    (hinit := ?_) (QY := fun c s => ∀ b ∈ Pipeline.ucRefs τ sig, s.mem ((c : Thread nD τ).1, b) = V81 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V81 m outs c) s')
    isplitl [Hh] <;> iassumption

end Cert.ReferenceIdeal.Gen

end
-- ==== Proof.RI.RunAll.lean ====
import proofs.«143011_g2000502688546152_pallasbulk_1201_3_alg».proof.Proof.RI.Chain
import proofs.«143011_g2000502688546152_pallasbulk_1201_3_alg».proof.Proof.RI.RunCond
import Idealize.ShloMosaic.Lib.Pipeline.Kit

/-! # The run of the two-stream program

The thirty regions' records at the boundary valuations of `Chain`, and the launch: every weakly fair execution of @main
terminates, nothing faulting, and every unscoped buffer of every core ends at the last valuation `W81`. No core owes
another anything, no kernel has a semaphore of its own; beside the buffers a core carries only its generator register
and the record that it owes nothing. -/

set_option maxRecDepth 16384

noncomputable section

namespace Cert.ReferenceIdeal.RunAll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Idealize.ShloMosaic.Pipeline (Seg HostSeg)
open Cert.ReferenceIdeal.Gen Cert.ReferenceIdeal.Rest Cert.ReferenceIdeal.Chain

variable {F : FTy → Type} [FloatOps F]

local notation "𝕄" => MT nD τ sig Unit (Elt F) ℕ (UR sig nD τ) ℕ

variable (m : (ℓ : Loc nD τ sig) → Buf (Elt F) ℓ)

/-- Region 0's record: entered at `W2`, left at `W3`. -/
def seg0 : RegionSeg (pcfgs (F := F)) Rest.adm (pdats m) () defs₀ Variants.none L lv 0 := Reg0.seg (W2 m) (pdats m) rfl
/-- Region 1's record: entered at `W5`, left at `W6`. -/
def seg1 : RegionSeg (pcfgs (F := F)) Rest.adm (pdats m) () defs₀ Variants.none L lv 1 := Reg1.seg (W5 m) (pdats m) rfl
/-- Region 2's record: entered at `W8`, left at `W9`. -/
def seg2 : RegionSeg (pcfgs (F := F)) Rest.adm (pdats m) () defs₀ Variants.none L lv 2 := Reg2.seg (W8 m) (pdats m) rfl
/-- Region 3's record: entered at `W11`, left at `W12`. -/
def seg3 : RegionSeg (pcfgs (F := F)) Rest.adm (pdats m) () defs₀ Variants.none L lv 3 := Reg3.seg (W11 m) (pdats m) rfl
/-- Region 4's record: entered at `W13`, left at `W14`. -/
def seg4 : RegionSeg (pcfgs (F := F)) Rest.adm (pdats m) () defs₀ Variants.none L lv 4 := Reg4.seg (W13 m) (pdats m) rfl
/-- Region 5's record: entered at `W15`, left at `W16`. -/
def seg5 : RegionSeg (pcfgs (F := F)) Rest.adm (pdats m) () defs₀ Variants.none L lv 5 := Reg5.seg (W15 m) (pdats m) rfl
/-- Region 6's record: entered at `W17`, left at `W18`. -/
def seg6 : RegionSeg (pcfgs (F := F)) Rest.adm (pdats m) () defs₀ Variants.none L lv 6 := Reg6.seg (W17 m) (pdats m) rfl
/-- Region 7's record: entered at `W20`, left at `W21`. -/
def seg7 : RegionSeg (pcfgs (F := F)) Rest.adm (pdats m) () defs₀ Variants.none L lv 7 := Reg7.seg (W20 m) (pdats m) rfl
/-- Region 8's record: entered at `W23`, left at `W24`. -/
def seg8 : RegionSeg (pcfgs (F := F)) Rest.adm (pdats m) () defs₀ Variants.none L lv 8 := Reg8.seg (W23 m) (pdats m) rfl
/-- Region 9's record: entered at `W26`, left at `W27`. -/
def seg9 : RegionSeg (pcfgs (F := F)) Rest.adm (pdats m) () defs₀ Variants.none L lv 9 := Reg9.seg (W26 m) (pdats m) rfl
/-- Region 10's record: entered at `W29`, left at `W30`. -/
def seg10 : RegionSeg (pcfgs (F := F)) Rest.adm (pdats m) () defs₀ Variants.none L lv 10 := Reg10.seg (W29 m) (pdats m) rfl
/-- Region 11's record: entered at `W31`, left at `W32`. -/
def seg11 : RegionSeg (pcfgs (F := F)) Rest.adm (pdats m) () defs₀ Variants.none L lv 11 := Reg11.seg (W31 m) (pdats m) rfl
/-- Region 12's record: entered at `W33`, left at `W34`. -/
def seg12 : RegionSeg (pcfgs (F := F)) Rest.adm (pdats m) () defs₀ Variants.none L lv 12 := Reg12.seg (W33 m) (pdats m) rfl
/-- Region 13's record: entered at `W35`, left at `W36`. -/
def seg13 : RegionSeg (pcfgs (F := F)) Rest.adm (pdats m) () defs₀ Variants.none L lv 13 := Reg13.seg (W35 m) (pdats m) rfl
/-- Region 14's record: entered at `W38`, left at `W39`. -/
def seg14 : RegionSeg (pcfgs (F := F)) Rest.adm (pdats m) () defs₀ Variants.none L lv 14 := Reg14.seg (W38 m) (pdats m) rfl
/-- Region 15's record: entered at `W41`, left at `W42`. -/
def seg15 : RegionSeg (pcfgs (F := F)) Rest.adm (pdats m) () defs₀ Variants.none L lv 15 := Reg15.seg (W41 m) (pdats m) rfl
/-- Region 16's record: entered at `W44`, left at `W45`. -/
def seg16 : RegionSeg (pcfgs (F := F)) Rest.adm (pdats m) () defs₀ Variants.none L lv 16 := Reg16.seg (W44 m) (pdats m) rfl
/-- Region 17's record: entered at `W47`, left at `W48`. -/
def seg17 : RegionSeg (pcfgs (F := F)) Rest.adm (pdats m) () defs₀ Variants.none L lv 17 := Reg17.seg (W47 m) (pdats m) rfl
/-- Region 18's record: entered at `W50`, left at `W51`. -/
def seg18 : RegionSeg (pcfgs (F := F)) Rest.adm (pdats m) () defs₀ Variants.none L lv 18 := Reg18.seg (W50 m) (pdats m) rfl
/-- Region 19's record: entered at `W53`, left at `W54`. -/
def seg19 : RegionSeg (pcfgs (F := F)) Rest.adm (pdats m) () defs₀ Variants.none L lv 19 := Reg19.seg (W53 m) (pdats m) rfl
/-- Region 20's record: entered at `W55`, left at `W56`. -/
def seg20 : RegionSeg (pcfgs (F := F)) Rest.adm (pdats m) () defs₀ Variants.none L lv 20 := Reg20.seg (W55 m) (pdats m) rfl
/-- Region 21's record: entered at `W57`, left at `W58`. -/
def seg21 : RegionSeg (pcfgs (F := F)) Rest.adm (pdats m) () defs₀ Variants.none L lv 21 := Reg21.seg (W57 m) (pdats m) rfl
/-- Region 22's record: entered at `W59`, left at `W60`. -/
def seg22 : RegionSeg (pcfgs (F := F)) Rest.adm (pdats m) () defs₀ Variants.none L lv 22 := Reg22.seg (W59 m) (pdats m) rfl
/-- Region 23's record: entered at `W62`, left at `W63`. -/
def seg23 : RegionSeg (pcfgs (F := F)) Rest.adm (pdats m) () defs₀ Variants.none L lv 23 := Reg23.seg (W62 m) (pdats m) rfl
/-- Region 24's record: entered at `W65`, left at `W66`. -/
def seg24 : RegionSeg (pcfgs (F := F)) Rest.adm (pdats m) () defs₀ Variants.none L lv 24 := Reg24.seg (W65 m) (pdats m) rfl
/-- Region 25's record: entered at `W68`, left at `W69`. -/
def seg25 : RegionSeg (pcfgs (F := F)) Rest.adm (pdats m) () defs₀ Variants.none L lv 25 := Reg25.seg (W68 m) (pdats m) rfl
/-- Region 26's record: entered at `W71`, left at `W72`. -/
def seg26 : RegionSeg (pcfgs (F := F)) Rest.adm (pdats m) () defs₀ Variants.none L lv 26 := Reg26.seg (W71 m) (pdats m) rfl
/-- Region 27's record: entered at `W74`, left at `W75`. -/
def seg27 : RegionSeg (pcfgs (F := F)) Rest.adm (pdats m) () defs₀ Variants.none L lv 27 := Reg27.seg (W74 m) (pdats m) rfl
/-- Region 28's record: entered at `W77`, left at `W78`. -/
def seg28 : RegionSeg (pcfgs (F := F)) Rest.adm (pdats m) () defs₀ Variants.none L lv 28 := Reg28.seg (W77 m) (pdats m) rfl
/-- Region 29's record: entered at `W79`, left at `W80`. -/
def seg29 : RegionSeg (pcfgs (F := F)) Rest.adm (pdats m) () defs₀ Variants.none L lv 29 := Reg29.seg (W79 m) (pdats m) rfl

set_option maxHeartbeats 4000000 in
set_option backward.isDefEq.respectTransparency.types false in
/-- THE RUN: every execution terminates and every unscoped buffer `b` of every core `c` ends at `W81 m c b`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W81 m c b) := by
  have h := run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (seg0 m) (fun c => by rw [V2_eq m c]; exact .rfl) (fun c => by rw [V3_eq m c]; exact .rfl)
    (seg1 m) (fun c => by rw [V5_eq m c]; exact .rfl) (fun c => by rw [V6_eq m c]; exact .rfl)
    (seg2 m) (fun c => by rw [V8_eq m c]; exact .rfl) (fun c => by rw [V9_eq m c]; exact .rfl)
    (seg3 m) (fun c => by rw [V11_eq m c]; exact .rfl) (fun c => by rw [V12_eq m c]; exact .rfl)
    (seg4 m) (fun c => by rw [V13_eq m c]; exact .rfl) (fun c => by rw [V14_eq m c]; exact .rfl)
    (seg5 m) (fun c => by rw [V15_eq m c]; exact .rfl) (fun c => by rw [V16_eq m c]; exact .rfl)
    (seg6 m) (fun c => by rw [V17_eq m c]; exact .rfl) (fun c => by rw [V18_eq m c]; exact .rfl)
    (seg7 m) (fun c => by rw [V20_eq m c]; exact .rfl) (fun c => by rw [V21_eq m c]; exact .rfl)
    (seg8 m) (fun c => by rw [V23_eq m c]; exact .rfl) (fun c => by rw [V24_eq m c]; exact .rfl)
    (seg9 m) (fun c => by rw [V26_eq m c]; exact .rfl) (fun c => by rw [V27_eq m c]; exact .rfl)
    (seg10 m) (fun c => by rw [V29_eq m c]; exact .rfl) (fun c => by rw [V30_eq m c]; exact .rfl)
    (seg11 m) (fun c => by rw [V31_eq m c]; exact .rfl) (fun c => by rw [V32_eq m c]; exact .rfl)
    (seg12 m) (fun c => by rw [V33_eq m c]; exact .rfl) (fun c => by rw [V34_eq m c]; exact .rfl)
    (seg13 m) (fun c => by rw [V35_eq m c]; exact .rfl) (fun c => by rw [V36_eq m c]; exact .rfl)
    (seg14 m) (fun c => by rw [V38_eq m c]; exact .rfl) (fun c => by rw [V39_eq m c]; exact .rfl)
    (seg15 m) (fun c => by rw [V41_eq m c]; exact .rfl) (fun c => by rw [V42_eq m c]; exact .rfl)
    (seg16 m) (fun c => by rw [V44_eq m c]; exact .rfl) (fun c => by rw [V45_eq m c]; exact .rfl)
    (seg17 m) (fun c => by rw [V47_eq m c]; exact .rfl) (fun c => by rw [V48_eq m c]; exact .rfl)
    (seg18 m) (fun c => by rw [V50_eq m c]; exact .rfl) (fun c => by rw [V51_eq m c]; exact .rfl)
    (seg19 m) (fun c => by rw [V53_eq m c]; exact .rfl) (fun c => by rw [V54_eq m c]; exact .rfl)
    (seg20 m) (fun c => by rw [V55_eq m c]; exact .rfl) (fun c => by rw [V56_eq m c]; exact .rfl)
    (seg21 m) (fun c => by rw [V57_eq m c]; exact .rfl) (fun c => by rw [V58_eq m c]; exact .rfl)
    (seg22 m) (fun c => by rw [V59_eq m c]; exact .rfl) (fun c => by rw [V60_eq m c]; exact .rfl)
    (seg23 m) (fun c => by rw [V62_eq m c]; exact .rfl) (fun c => by rw [V63_eq m c]; exact .rfl)
    (seg24 m) (fun c => by rw [V65_eq m c]; exact .rfl) (fun c => by rw [V66_eq m c]; exact .rfl)
    (seg25 m) (fun c => by rw [V68_eq m c]; exact .rfl) (fun c => by rw [V69_eq m c]; exact .rfl)
    (seg26 m) (fun c => by rw [V71_eq m c]; exact .rfl) (fun c => by rw [V72_eq m c]; exact .rfl)
    (seg27 m) (fun c => by rw [V74_eq m c]; exact .rfl) (fun c => by rw [V75_eq m c]; exact .rfl)
    (seg28 m) (fun c => by rw [V77_eq m c]; exact .rfl) (fun c => by rw [V78_eq m c]; exact .rfl)
    (seg29 m) (fun c => by rw [V79_eq m c]; exact .rfl) (fun c => by rw [V80_eq m c]; exact .rfl)
  exact (θ_run defs _ _).mono (fun r hr c b hb => (hr c b hb).trans (congrFun (V81_eq m c) b)) h

end Cert.ReferenceIdeal.RunAll

end
-- ==== Proof.RI.HostLemmas.lean ====
import proofs.«143011_g2000502688546152_pallasbulk_1201_3_alg».proof.Proof.Gen.ReferenceIdeal.Launch
import proofs.«143011_g2000502688546152_pallasbulk_1201_3_alg».proof.Proof.Spec.Glue
import proofs.«143011_g2000502688546152_pallasbulk_1201_3_alg».proof.Proof.Spec.PadIdx
import proofs.«143011_g2000502688546152_pallasbulk_1201_3_alg».proof.Proof.Spec.FlatIdx
import proofs.«143011_g2000502688546152_pallasbulk_1201_3_alg».proof.Proof.Spec.ArgsOf
import Idealize.ShloMosaic.Lib.ValueIdx
import Idealize.ShloMosaic.PureOps.Ideal.Laws

/-! # Host operations read at an index, with exact arithmetic

The host stretches between the regions are layout and elementwise operations. Here each is read at an index as the
specification's function: the normalisation (transpose to channel-last, subtract the channel's mean, divide by its
deviation), the zero border (`pad` with the constant 0), and the scalar steps of a level's mean (divide the sum by the
count, add to the running total). -/

set_option maxRecDepth 16384

noncomputable section

namespace Cert.ReferenceIdeal.Host

open Idealize.ShloMosaic Idealize.ShloMosaic.ValueIdx
open Cert.ReferenceIdeal.Gen

local notation "𝕀" => Idealize.ShloMosaic.Ideal

/-- The integer constant 0 converted to a float is 0. -/
theorem zero_scalar (x : IVec S_ 32) (h : x = constantI S_ 32 0#32) (i : S_.Idx) :
    sitofp (F := 𝕀) .f32 x i = 0 := by
  subst h; simp [sitofp, constantI, FloatOps.sitofp]

/-- A one-wide (and wider, to the right and below) border of the constant 0 around each image: the bordered array at
    (n, i, j, c) is the specification's bordered image of the array. -/
theorem pad_val {N H W C Hp Wp hiH hiW : ℕ} (x : (⟨4, ![N, H, W, C]⟩ : Shape).Idx → EReal) (v : IVec S_ 32)
    (hv : v = constantI S_ 32 0#32)
    (hp : (⟨4, ![N, H, W, C]⟩ : Shape).Pads ![0, 1, 1, 0] ![0, hiH, hiW, 0] ![0, 0, 0, 0] ⟨4, ![N, Hp, Wp, C]⟩)
    (n : Fin N) (i : Fin Hp) (j : Fin Wp) (c : Fin C) :
    pad ⟨4, ![N, Hp, Wp, C]⟩ ![0, 1, 1, 0] ![0, hiH, hiW, 0] ![0, 0, 0, 0] x (sitofp (F := 𝕀) .f32 v) hp h_S_ (ix4 n i j c)
      = Cert.Spec.padAt (Cert.Spec.curry4 x) n i.val j.val c :=
  Cert.Spec.pad_border x _ hp h_S_ (zero_scalar v hv _) n i j c

/-- The literal tables of the normalisation are the specification's. -/
theorem lit0_mean (ch : Fin 3) : lit0 (S3.rowMajor (ix1 ch)) = Cert.Spec.meanBits ch := by
  fin_cases ch <;> rfl
theorem lit1_std (ch : Fin 3) : lit1 (S3.rowMajor (ix1 ch)) = Cert.Spec.stdBits ch := by
  fin_cases ch <;> rfl

/-- The normalisation: channel-first images to channel-last, each channel centred and scaled. -/
theorem norm_val (x : FVec 𝕀 S16x3x224x224 .f32) :
    Cert.Spec.curry4 (Host.divf
      (subf
        (transpose S16x224x224x3 [0, 2, 3, 1] x transposes_S16x3x224x224_S16x224x224x3_0_2_3_1)
        (broadcastInDim S16x224x224x3 ![0, 1, 2, 3] bcast_S1x1x1x3_S16x224x224x3_0_1_2_3
          (broadcastInDim S1x1x1x3 ![3] bcast_S3_S1x1x1x3_3 fun i => FloatOps.ofBits (F := 𝕀) FTy.f32 (lit0 (S3.rowMajor i)))))
      (broadcastInDim S16x224x224x3 ![0, 1, 2, 3] bcast_S1x1x1x3_S16x224x224x3_0_1_2_3
        (broadcastInDim S1x1x1x3 ![3] bcast_S3_S1x1x1x3_3 fun i => FloatOps.ofBits (F := 𝕀) FTy.f32 (lit1 (S3.rowMajor i)))) : FVec 𝕀 S16x224x224x3 .f32)
      = Cert.Spec.normalise (Cert.Spec.curryImg x) := by
  funext n h w ch
  rw [Cert.Spec.curry4_apply]
  unfold Cert.Spec.normalise
  show Ideal.div (_ - _) _ = _
  rw [Cert.Spec.transpose_0231_apply, Cert.Spec.bcast_channel_apply (by decide), Cert.Spec.bcast_channel_apply (by decide),
    lit0_mean, lit1_std, Cert.Spec.curryImg_apply]
  rfl

/-- A level's mean added to the running total: the [1, 1] sum read as a scalar, divided by the count, added. -/
theorem total_step (p : FVec 𝕀 S_ .f32) (a : FVec 𝕀 S1x1 .f32) (w : BitVec 32) :
    addf p (Host.divf (shapeCast S_ a shapeCasts_S1x1_S_) (constant S_ .f32 w)) ix0
      = p ix0 + Ideal.div (a (ix2 (0 : Fin 1) (0 : Fin 1))) (Ideal.ofBits .f32 w) := by
  show p ix0 + Ideal.div (a (Shape.reshapeEquiv _ ix0)) _ = _
  rw [Cert.Spec.reshape_11_scalar a]
  rfl

/-- The single-precision word 0 is the number 0. -/
theorem ofBits_zero : Ideal.ofBits .f32 0x00000000#32 = 0 := Ideal.ofBits_zero_f32

end Cert.ReferenceIdeal.Host

end
-- ==== Proof.RI.HostVals.lean ====
import proofs.«143011_g2000502688546152_pallasbulk_1201_3_alg».proof.Proof.Gen.ReferenceIdeal.Launch
import proofs.«143011_g2000502688546152_pallasbulk_1201_3_alg».proof.Proof.Spec.Glue
import proofs.«143011_g2000502688546152_pallasbulk_1201_3_alg».proof.Proof.Spec.PadIdx
import proofs.«143011_g2000502688546152_pallasbulk_1201_3_alg».proof.Proof.Spec.ArgsOf
import Idealize.ShloMosaic.Lib.ValueIdx
import Idealize.ShloMosaic.Lib.StableHlo.Run
import Idealize.ShloMosaic.PureOps.Ideal.Laws
import proofs.«143011_g2000502688546152_pallasbulk_1201_3_alg».proof.Proof.RI.HostLemmas
import proofs.«143011_g2000502688546152_pallasbulk_1201_3_alg».proof.Proof.Spec.FlatIdx

/-! # The host stretches' results, read at an index

One lemma per result a later region or stretch reads, over ANY contents `Vp` before the stretch: an integer constant 0; a
zero-bordered array as the specification's bordered image; an array read as rows of 512 consecutive entries of the
row-major order; an array with its columns split into pairs; a level's mean added to the running total; the two
normalised image stacks. -/

set_option maxRecDepth 16384

noncomputable section

namespace Cert.ReferenceIdeal.Host

open Idealize.ShloMosaic Idealize.ShloMosaic.TcCoe Idealize.ShloMosaic.ValueIdx Idealize.ShloMosaic.StableHlo
open Idealize.SL Idealize.SL.Sem
open Cert.ReferenceIdeal.Gen

-- the contents before the stretch: any
variable (Vp : Valuation τ sig (Elt Idealize.ShloMosaic.Ideal))

local notation "𝕀" => Idealize.ShloMosaic.Ideal

theorem const_main_c : (StableHlo.after hostOps0 Vp (Proc.devRef .tc main_c) : IVec S_ 32) = constantI S_ 32 0#32 := by
  dsimp only [hostOps0]; after_results

theorem pad_main_v14 (h0 : (Vp (Proc.devRef .tc main_c) : IVec S_ 32) = constantI S_ 32 0#32)
    (n : Fin 16) (i : Fin 240) (j : Fin 232) (ch : Fin 3) :
    (StableHlo.after hostOps0_1 Vp (Proc.devRef .tc main_v14) : FVec 𝕀 S16x240x232x3 .f32) (ix4 n i j ch)
      = Cert.Spec.padAt (Cert.Spec.curry4 (Vp (Proc.devRef .tc main_v7) : FVec 𝕀 S16x224x224x3 .f32)) n i.val j.val ch := by
  dsimp only [hostOps0_1]; after_results
  exact pad_val (hiH := 15) (hiW := 7) _ _ h0 pads_S16x224x224x3_S16x240x232x3_000_1150_170_000 n i j ch

theorem const_main_c_1 : (StableHlo.after hostOps1 Vp (Proc.devRef .tc main_c_1) : IVec S_ 32) = constantI S_ 32 0#32 := by
  dsimp only [hostOps1]; after_results

theorem pad_main_v16 (h0 : (Vp (Proc.devRef .tc main_c_1) : IVec S_ 32) = constantI S_ 32 0#32)
    (n : Fin 16) (i : Fin 240) (j : Fin 232) (ch : Fin 3) :
    (StableHlo.after hostOps1_1 Vp (Proc.devRef .tc main_v16) : FVec 𝕀 S16x240x232x3 .f32) (ix4 n i j ch)
      = Cert.Spec.padAt (Cert.Spec.curry4 (Vp (Proc.devRef .tc main_v13) : FVec 𝕀 S16x224x224x3 .f32)) n i.val j.val ch := by
  dsimp only [hostOps1_1]; after_results
  exact pad_val (hiH := 15) (hiW := 7) _ _ h0 pads_S16x224x224x3_S16x240x232x3_000_1150_170_000 n i j ch

theorem const_main_c_2 : (StableHlo.after hostOps2 Vp (Proc.devRef .tc main_c_2) : IVec S_ 32) = constantI S_ 32 0#32 := by
  dsimp only [hostOps2]; after_results

theorem pad_main_v18 (h0 : (Vp (Proc.devRef .tc main_c_2) : IVec S_ 32) = constantI S_ 32 0#32)
    (n : Fin 16) (i : Fin 240) (j : Fin 232) (ch : Fin 64) :
    (StableHlo.after hostOps2_1 Vp (Proc.devRef .tc main_v18) : FVec 𝕀 S16x240x232x64 .f32) (ix4 n i j ch)
      = Cert.Spec.padAt (Cert.Spec.curry4 (Vp (Proc.devRef .tc main_v15) : FVec 𝕀 S16x224x224x64 .f32)) n i.val j.val ch := by
  dsimp only [hostOps2_1]; after_results
  exact pad_val (hiH := 15) (hiW := 7) _ _ h0 pads_S16x224x224x64_S16x240x232x64_000_1150_170_000 n i j ch

theorem const_main_c_3 : (StableHlo.after hostOps3 Vp (Proc.devRef .tc main_c_3) : IVec S_ 32) = constantI S_ 32 0#32 := by
  dsimp only [hostOps3]; after_results

theorem pad_main_v20 (h0 : (Vp (Proc.devRef .tc main_c_3) : IVec S_ 32) = constantI S_ 32 0#32)
    (n : Fin 16) (i : Fin 240) (j : Fin 232) (ch : Fin 64) :
    (StableHlo.after hostOps3_1 Vp (Proc.devRef .tc main_v20) : FVec 𝕀 S16x240x232x64 .f32) (ix4 n i j ch)
      = Cert.Spec.padAt (Cert.Spec.curry4 (Vp (Proc.devRef .tc main_v17) : FVec 𝕀 S16x224x224x64 .f32)) n i.val j.val ch := by
  dsimp only [hostOps3_1]; after_results
  exact pad_val (hiH := 15) (hiW := 7) _ _ h0 pads_S16x224x224x64_S16x240x232x64_000_1150_170_000 n i j ch

theorem rows_main_v22 (r : Fin 100352) (k : Fin 512) :
    (StableHlo.after hostOps4 Vp (Proc.devRef .tc main_v22) : FVec 𝕀 S100352x512 .f32) (ix2 r k)
      = Cert.Spec.flat (Cert.Spec.curry4 (Vp (Proc.devRef .tc main_v19) : FVec 𝕀 S16x224x224x64 .f32)) (r.val * 512 + k.val) := by
  dsimp only [hostOps4]; after_results
  exact Cert.Spec.flat_reshape2 _ _ r k

theorem rows_main_v23 (r : Fin 100352) (k : Fin 512) :
    (StableHlo.after hostOps4 Vp (Proc.devRef .tc main_v23) : FVec 𝕀 S100352x512 .f32) (ix2 r k)
      = Cert.Spec.flat (Cert.Spec.curry4 (Vp (Proc.devRef .tc main_v21) : FVec 𝕀 S16x224x224x64 .f32)) (r.val * 512 + k.val) := by
  dsimp only [hostOps4]; after_results
  exact Cert.Spec.flat_reshape2 _ _ r k

theorem total_main_v27 :
    (StableHlo.after hostOps5 Vp (Proc.devRef .tc main_v27) : FVec 𝕀 S_ .f32) ix0
      = @HAdd.hAdd EReal EReal EReal instHAdd (Ideal.ofBits .f32 0x00000000#32)
          (Ideal.div ((Vp (Proc.devRef .tc main_v24) : FVec 𝕀 S1x1 .f32) (ix2 (0 : Fin 1) (0 : Fin 1))) (Ideal.ofBits .f32 0x4C440000#32)) := by
  dsimp only [hostOps5]; after_results
  exact total_step _ _ _

theorem pairs_main_v28 (n : Fin 16) (i : Fin 224) (j : Fin 112) (t : Fin 2) (ch : Fin 64) :
    (StableHlo.after hostOps5 Vp (Proc.devRef .tc main_v28) : FVec 𝕀 S16x224x112x2x64 .f32) (ix5 n i j t ch)
      = (Vp (Proc.devRef .tc main_v19) : FVec 𝕀 S16x224x224x64 .f32) (ix4 n i ⟨2 * j.val + t.val, by omega⟩ ch) := by
  dsimp only [hostOps5]; after_results
  exact Cert.Spec.reshape_pairs _ _ (by norm_num) n i j t ch

theorem pairs_main_v30 (n : Fin 16) (i : Fin 224) (j : Fin 112) (t : Fin 2) (ch : Fin 64) :
    (StableHlo.after hostOps6 Vp (Proc.devRef .tc main_v30) : FVec 𝕀 S16x224x112x2x64 .f32) (ix5 n i j t ch)
      = (Vp (Proc.devRef .tc main_v21) : FVec 𝕀 S16x224x224x64 .f32) (ix4 n i ⟨2 * j.val + t.val, by omega⟩ ch) := by
  dsimp only [hostOps6]; after_results
  exact Cert.Spec.reshape_pairs _ _ (by norm_num) n i j t ch

theorem const_main_c_6 : (StableHlo.after hostOps7 Vp (Proc.devRef .tc main_c_6) : IVec S_ 32) = constantI S_ 32 0#32 := by
  dsimp only [hostOps7]; after_results

theorem pad_main_v32 (h0 : (Vp (Proc.devRef .tc main_c_6) : IVec S_ 32) = constantI S_ 32 0#32)
    (n : Fin 16) (i : Fin 128) (j : Fin 120) (ch : Fin 64) :
    (StableHlo.after hostOps7_1 Vp (Proc.devRef .tc main_v32) : FVec 𝕀 S16x128x120x64 .f32) (ix4 n i j ch)
      = Cert.Spec.padAt (Cert.Spec.curry4 (Vp (Proc.devRef .tc main_v29) : FVec 𝕀 S16x112x112x64 .f32)) n i.val j.val ch := by
  dsimp only [hostOps7_1]; after_results
  exact pad_val (hiH := 15) (hiW := 7) _ _ h0 pads_S16x112x112x64_S16x128x120x64_000_1150_170_000 n i j ch

theorem const_main_c_7 : (StableHlo.after hostOps8 Vp (Proc.devRef .tc main_c_7) : IVec S_ 32) = constantI S_ 32 0#32 := by
  dsimp only [hostOps8]; after_results

theorem pad_main_v34 (h0 : (Vp (Proc.devRef .tc main_c_7) : IVec S_ 32) = constantI S_ 32 0#32)
    (n : Fin 16) (i : Fin 128) (j : Fin 120) (ch : Fin 64) :
    (StableHlo.after hostOps8_1 Vp (Proc.devRef .tc main_v34) : FVec 𝕀 S16x128x120x64 .f32) (ix4 n i j ch)
      = Cert.Spec.padAt (Cert.Spec.curry4 (Vp (Proc.devRef .tc main_v31) : FVec 𝕀 S16x112x112x64 .f32)) n i.val j.val ch := by
  dsimp only [hostOps8_1]; after_results
  exact pad_val (hiH := 15) (hiW := 7) _ _ h0 pads_S16x112x112x64_S16x128x120x64_000_1150_170_000 n i j ch

theorem const_main_c_8 : (StableHlo.after hostOps9 Vp (Proc.devRef .tc main_c_8) : IVec S_ 32) = constantI S_ 32 0#32 := by
  dsimp only [hostOps9]; after_results

theorem pad_main_v36 (h0 : (Vp (Proc.devRef .tc main_c_8) : IVec S_ 32) = constantI S_ 32 0#32)
    (n : Fin 16) (i : Fin 128) (j : Fin 120) (ch : Fin 128) :
    (StableHlo.after hostOps9_1 Vp (Proc.devRef .tc main_v36) : FVec 𝕀 S16x128x120x128 .f32) (ix4 n i j ch)
      = Cert.Spec.padAt (Cert.Spec.curry4 (Vp (Proc.devRef .tc main_v33) : FVec 𝕀 S16x112x112x128 .f32)) n i.val j.val ch := by
  dsimp only [hostOps9_1]; after_results
  exact pad_val (hiH := 15) (hiW := 7) _ _ h0 pads_S16x112x112x128_S16x128x120x128_000_1150_170_000 n i j ch

theorem const_main_c_9 : (StableHlo.after hostOps10 Vp (Proc.devRef .tc main_c_9) : IVec S_ 32) = constantI S_ 32 0#32 := by
  dsimp only [hostOps10]; after_results

theorem pad_main_v38 (h0 : (Vp (Proc.devRef .tc main_c_9) : IVec S_ 32) = constantI S_ 32 0#32)
    (n : Fin 16) (i : Fin 128) (j : Fin 120) (ch : Fin 128) :
    (StableHlo.after hostOps10_1 Vp (Proc.devRef .tc main_v38) : FVec 𝕀 S16x128x120x128 .f32) (ix4 n i j ch)
      = Cert.Spec.padAt (Cert.Spec.curry4 (Vp (Proc.devRef .tc main_v35) : FVec 𝕀 S16x112x112x128 .f32)) n i.val j.val ch := by
  dsimp only [hostOps10_1]; after_results
  exact pad_val (hiH := 15) (hiW := 7) _ _ h0 pads_S16x112x112x128_S16x128x120x128_000_1150_170_000 n i j ch

theorem rows_main_v40 (r : Fin 50176) (k : Fin 512) :
    (StableHlo.after hostOps11 Vp (Proc.devRef .tc main_v40) : FVec 𝕀 S50176x512 .f32) (ix2 r k)
      = Cert.Spec.flat (Cert.Spec.curry4 (Vp (Proc.devRef .tc main_v37) : FVec 𝕀 S16x112x112x128 .f32)) (r.val * 512 + k.val) := by
  dsimp only [hostOps11]; after_results
  exact Cert.Spec.flat_reshape2 _ _ r k

theorem rows_main_v41 (r : Fin 50176) (k : Fin 512) :
    (StableHlo.after hostOps11 Vp (Proc.devRef .tc main_v41) : FVec 𝕀 S50176x512 .f32) (ix2 r k)
      = Cert.Spec.flat (Cert.Spec.curry4 (Vp (Proc.devRef .tc main_v39) : FVec 𝕀 S16x112x112x128 .f32)) (r.val * 512 + k.val) := by
  dsimp only [hostOps11]; after_results
  exact Cert.Spec.flat_reshape2 _ _ r k

theorem total_main_v45 :
    (StableHlo.after hostOps12 Vp (Proc.devRef .tc main_v45) : FVec 𝕀 S_ .f32) ix0
      = @HAdd.hAdd EReal EReal EReal instHAdd ((Vp (Proc.devRef .tc main_v27) : FVec 𝕀 S_ .f32) ix0)
          (Ideal.div ((Vp (Proc.devRef .tc main_v42) : FVec 𝕀 S1x1 .f32) (ix2 (0 : Fin 1) (0 : Fin 1))) (Ideal.ofBits .f32 0x4BC40000#32)) := by
  dsimp only [hostOps12]; after_results
  exact total_step _ _ _

theorem pairs_main_v46 (n : Fin 16) (i : Fin 112) (j : Fin 56) (t : Fin 2) (ch : Fin 128) :
    (StableHlo.after hostOps12 Vp (Proc.devRef .tc main_v46) : FVec 𝕀 S16x112x56x2x128 .f32) (ix5 n i j t ch)
      = (Vp (Proc.devRef .tc main_v37) : FVec 𝕀 S16x112x112x128 .f32) (ix4 n i ⟨2 * j.val + t.val, by omega⟩ ch) := by
  dsimp only [hostOps12]; after_results
  exact Cert.Spec.reshape_pairs _ _ (by norm_num) n i j t ch

theorem pairs_main_v48 (n : Fin 16) (i : Fin 112) (j : Fin 56) (t : Fin 2) (ch : Fin 128) :
    (StableHlo.after hostOps13 Vp (Proc.devRef .tc main_v48) : FVec 𝕀 S16x112x56x2x128 .f32) (ix5 n i j t ch)
      = (Vp (Proc.devRef .tc main_v39) : FVec 𝕀 S16x112x112x128 .f32) (ix4 n i ⟨2 * j.val + t.val, by omega⟩ ch) := by
  dsimp only [hostOps13]; after_results
  exact Cert.Spec.reshape_pairs _ _ (by norm_num) n i j t ch

theorem const_main_c_11 : (StableHlo.after hostOps14 Vp (Proc.devRef .tc main_c_11) : IVec S_ 32) = constantI S_ 32 0#32 := by
  dsimp only [hostOps14]; after_results

theorem pad_main_v50 (h0 : (Vp (Proc.devRef .tc main_c_11) : IVec S_ 32) = constantI S_ 32 0#32)
    (n : Fin 16) (i : Fin 70) (j : Fin 64) (ch : Fin 128) :
    (StableHlo.after hostOps14_1 Vp (Proc.devRef .tc main_v50) : FVec 𝕀 S16x70x64x128 .f32) (ix4 n i j ch)
      = Cert.Spec.padAt (Cert.Spec.curry4 (Vp (Proc.devRef .tc main_v47) : FVec 𝕀 S16x56x56x128 .f32)) n i.val j.val ch := by
  dsimp only [hostOps14_1]; after_results
  exact pad_val (hiH := 13) (hiW := 7) _ _ h0 pads_S16x56x56x128_S16x70x64x128_000_1130_170_000 n i j ch

theorem const_main_c_12 : (StableHlo.after hostOps15 Vp (Proc.devRef .tc main_c_12) : IVec S_ 32) = constantI S_ 32 0#32 := by
  dsimp only [hostOps15]; after_results

theorem pad_main_v52 (h0 : (Vp (Proc.devRef .tc main_c_12) : IVec S_ 32) = constantI S_ 32 0#32)
    (n : Fin 16) (i : Fin 70) (j : Fin 64) (ch : Fin 128) :
    (StableHlo.after hostOps15_1 Vp (Proc.devRef .tc main_v52) : FVec 𝕀 S16x70x64x128 .f32) (ix4 n i j ch)
      = Cert.Spec.padAt (Cert.Spec.curry4 (Vp (Proc.devRef .tc main_v49) : FVec 𝕀 S16x56x56x128 .f32)) n i.val j.val ch := by
  dsimp only [hostOps15_1]; after_results
  exact pad_val (hiH := 13) (hiW := 7) _ _ h0 pads_S16x56x56x128_S16x70x64x128_000_1130_170_000 n i j ch

theorem const_main_c_13 : (StableHlo.after hostOps16 Vp (Proc.devRef .tc main_c_13) : IVec S_ 32) = constantI S_ 32 0#32 := by
  dsimp only [hostOps16]; after_results

theorem pad_main_v54 (h0 : (Vp (Proc.devRef .tc main_c_13) : IVec S_ 32) = constantI S_ 32 0#32)
    (n : Fin 16) (i : Fin 70) (j : Fin 64) (ch : Fin 256) :
    (StableHlo.after hostOps16_1 Vp (Proc.devRef .tc main_v54) : FVec 𝕀 S16x70x64x256 .f32) (ix4 n i j ch)
      = Cert.Spec.padAt (Cert.Spec.curry4 (Vp (Proc.devRef .tc main_v51) : FVec 𝕀 S16x56x56x256 .f32)) n i.val j.val ch := by
  dsimp only [hostOps16_1]; after_results
  exact pad_val (hiH := 13) (hiW := 7) _ _ h0 pads_S16x56x56x256_S16x70x64x256_000_1130_170_000 n i j ch

theorem const_main_c_14 : (StableHlo.after hostOps17 Vp (Proc.devRef .tc main_c_14) : IVec S_ 32) = constantI S_ 32 0#32 := by
  dsimp only [hostOps17]; after_results

theorem pad_main_v56 (h0 : (Vp (Proc.devRef .tc main_c_14) : IVec S_ 32) = constantI S_ 32 0#32)
    (n : Fin 16) (i : Fin 70) (j : Fin 64) (ch : Fin 256) :
    (StableHlo.after hostOps17_1 Vp (Proc.devRef .tc main_v56) : FVec 𝕀 S16x70x64x256 .f32) (ix4 n i j ch)
      = Cert.Spec.padAt (Cert.Spec.curry4 (Vp (Proc.devRef .tc main_v53) : FVec 𝕀 S16x56x56x256 .f32)) n i.val j.val ch := by
  dsimp only [hostOps17_1]; after_results
  exact pad_val (hiH := 13) (hiW := 7) _ _ h0 pads_S16x56x56x256_S16x70x64x256_000_1130_170_000 n i j ch

theorem const_main_c_15 : (StableHlo.after hostOps18 Vp (Proc.devRef .tc main_c_15) : IVec S_ 32) = constantI S_ 32 0#32 := by
  dsimp only [hostOps18]; after_results

theorem pad_main_v58 (h0 : (Vp (Proc.devRef .tc main_c_15) : IVec S_ 32) = constantI S_ 32 0#32)
    (n : Fin 16) (i : Fin 70) (j : Fin 64) (ch : Fin 256) :
    (StableHlo.after hostOps18_1 Vp (Proc.devRef .tc main_v58) : FVec 𝕀 S16x70x64x256 .f32) (ix4 n i j ch)
      = Cert.Spec.padAt (Cert.Spec.curry4 (Vp (Proc.devRef .tc main_v55) : FVec 𝕀 S16x56x56x256 .f32)) n i.val j.val ch := by
  dsimp only [hostOps18_1]; after_results
  exact pad_val (hiH := 13) (hiW := 7) _ _ h0 pads_S16x56x56x256_S16x70x64x256_000_1130_170_000 n i j ch

theorem const_main_c_16 : (StableHlo.after hostOps19 Vp (Proc.devRef .tc main_c_16) : IVec S_ 32) = constantI S_ 32 0#32 := by
  dsimp only [hostOps19]; after_results

theorem pad_main_v60 (h0 : (Vp (Proc.devRef .tc main_c_16) : IVec S_ 32) = constantI S_ 32 0#32)
    (n : Fin 16) (i : Fin 70) (j : Fin 64) (ch : Fin 256) :
    (StableHlo.after hostOps19_1 Vp (Proc.devRef .tc main_v60) : FVec 𝕀 S16x70x64x256 .f32) (ix4 n i j ch)
      = Cert.Spec.padAt (Cert.Spec.curry4 (Vp (Proc.devRef .tc main_v57) : FVec 𝕀 S16x56x56x256 .f32)) n i.val j.val ch := by
  dsimp only [hostOps19_1]; after_results
  exact pad_val (hiH := 13) (hiW := 7) _ _ h0 pads_S16x56x56x256_S16x70x64x256_000_1130_170_000 n i j ch

theorem rows_main_v62 (r : Fin 25088) (k : Fin 512) :
    (StableHlo.after hostOps20 Vp (Proc.devRef .tc main_v62) : FVec 𝕀 S25088x512 .f32) (ix2 r k)
      = Cert.Spec.flat (Cert.Spec.curry4 (Vp (Proc.devRef .tc main_v59) : FVec 𝕀 S16x56x56x256 .f32)) (r.val * 512 + k.val) := by
  dsimp only [hostOps20]; after_results
  exact Cert.Spec.flat_reshape2 _ _ r k

theorem rows_main_v63 (r : Fin 25088) (k : Fin 512) :
    (StableHlo.after hostOps20 Vp (Proc.devRef .tc main_v63) : FVec 𝕀 S25088x512 .f32) (ix2 r k)
      = Cert.Spec.flat (Cert.Spec.curry4 (Vp (Proc.devRef .tc main_v61) : FVec 𝕀 S16x56x56x256 .f32)) (r.val * 512 + k.val) := by
  dsimp only [hostOps20]; after_results
  exact Cert.Spec.flat_reshape2 _ _ r k

theorem total_main_v67 :
    (StableHlo.after hostOps21 Vp (Proc.devRef .tc main_v67) : FVec 𝕀 S_ .f32) ix0
      = @HAdd.hAdd EReal EReal EReal instHAdd ((Vp (Proc.devRef .tc main_v45) : FVec 𝕀 S_ .f32) ix0)
          (Ideal.div ((Vp (Proc.devRef .tc main_v64) : FVec 𝕀 S1x1 .f32) (ix2 (0 : Fin 1) (0 : Fin 1))) (Ideal.ofBits .f32 0x4B440000#32)) := by
  dsimp only [hostOps21]; after_results
  exact total_step _ _ _

theorem pairs_main_v68 (n : Fin 16) (i : Fin 56) (j : Fin 28) (t : Fin 2) (ch : Fin 256) :
    (StableHlo.after hostOps21 Vp (Proc.devRef .tc main_v68) : FVec 𝕀 S16x56x28x2x256 .f32) (ix5 n i j t ch)
      = (Vp (Proc.devRef .tc main_v59) : FVec 𝕀 S16x56x56x256 .f32) (ix4 n i ⟨2 * j.val + t.val, by omega⟩ ch) := by
  dsimp only [hostOps21]; after_results
  exact Cert.Spec.reshape_pairs _ _ (by norm_num) n i j t ch

theorem pairs_main_v70 (n : Fin 16) (i : Fin 56) (j : Fin 28) (t : Fin 2) (ch : Fin 256) :
    (StableHlo.after hostOps22 Vp (Proc.devRef .tc main_v70) : FVec 𝕀 S16x56x28x2x256 .f32) (ix5 n i j t ch)
      = (Vp (Proc.devRef .tc main_v61) : FVec 𝕀 S16x56x56x256 .f32) (ix4 n i ⟨2 * j.val + t.val, by omega⟩ ch) := by
  dsimp only [hostOps22]; after_results
  exact Cert.Spec.reshape_pairs _ _ (by norm_num) n i j t ch

theorem const_main_c_18 : (StableHlo.after hostOps23 Vp (Proc.devRef .tc main_c_18) : IVec S_ 32) = constantI S_ 32 0#32 := by
  dsimp only [hostOps23]; after_results

theorem pad_main_v72 (h0 : (Vp (Proc.devRef .tc main_c_18) : IVec S_ 32) = constantI S_ 32 0#32)
    (n : Fin 16) (i : Fin 35) (j : Fin 32) (ch : Fin 256) :
    (StableHlo.after hostOps23_1 Vp (Proc.devRef .tc main_v72) : FVec 𝕀 S16x35x32x256 .f32) (ix4 n i j ch)
      = Cert.Spec.padAt (Cert.Spec.curry4 (Vp (Proc.devRef .tc main_v69) : FVec 𝕀 S16x28x28x256 .f32)) n i.val j.val ch := by
  dsimp only [hostOps23_1]; after_results
  exact pad_val (hiH := 6) (hiW := 3) _ _ h0 pads_S16x28x28x256_S16x35x32x256_000_160_130_000 n i j ch

theorem const_main_c_19 : (StableHlo.after hostOps24 Vp (Proc.devRef .tc main_c_19) : IVec S_ 32) = constantI S_ 32 0#32 := by
  dsimp only [hostOps24]; after_results

theorem pad_main_v74 (h0 : (Vp (Proc.devRef .tc main_c_19) : IVec S_ 32) = constantI S_ 32 0#32)
    (n : Fin 16) (i : Fin 35) (j : Fin 32) (ch : Fin 256) :
    (StableHlo.after hostOps24_1 Vp (Proc.devRef .tc main_v74) : FVec 𝕀 S16x35x32x256 .f32) (ix4 n i j ch)
      = Cert.Spec.padAt (Cert.Spec.curry4 (Vp (Proc.devRef .tc main_v71) : FVec 𝕀 S16x28x28x256 .f32)) n i.val j.val ch := by
  dsimp only [hostOps24_1]; after_results
  exact pad_val (hiH := 6) (hiW := 3) _ _ h0 pads_S16x28x28x256_S16x35x32x256_000_160_130_000 n i j ch

theorem const_main_c_20 : (StableHlo.after hostOps25 Vp (Proc.devRef .tc main_c_20) : IVec S_ 32) = constantI S_ 32 0#32 := by
  dsimp only [hostOps25]; after_results

theorem pad_main_v76 (h0 : (Vp (Proc.devRef .tc main_c_20) : IVec S_ 32) = constantI S_ 32 0#32)
    (n : Fin 16) (i : Fin 35) (j : Fin 32) (ch : Fin 512) :
    (StableHlo.after hostOps25_1 Vp (Proc.devRef .tc main_v76) : FVec 𝕀 S16x35x32x512 .f32) (ix4 n i j ch)
      = Cert.Spec.padAt (Cert.Spec.curry4 (Vp (Proc.devRef .tc main_v73) : FVec 𝕀 S16x28x28x512 .f32)) n i.val j.val ch := by
  dsimp only [hostOps25_1]; after_results
  exact pad_val (hiH := 6) (hiW := 3) _ _ h0 pads_S16x28x28x512_S16x35x32x512_000_160_130_000 n i j ch

theorem const_main_c_21 : (StableHlo.after hostOps26 Vp (Proc.devRef .tc main_c_21) : IVec S_ 32) = constantI S_ 32 0#32 := by
  dsimp only [hostOps26]; after_results

theorem pad_main_v78 (h0 : (Vp (Proc.devRef .tc main_c_21) : IVec S_ 32) = constantI S_ 32 0#32)
    (n : Fin 16) (i : Fin 35) (j : Fin 32) (ch : Fin 512) :
    (StableHlo.after hostOps26_1 Vp (Proc.devRef .tc main_v78) : FVec 𝕀 S16x35x32x512 .f32) (ix4 n i j ch)
      = Cert.Spec.padAt (Cert.Spec.curry4 (Vp (Proc.devRef .tc main_v75) : FVec 𝕀 S16x28x28x512 .f32)) n i.val j.val ch := by
  dsimp only [hostOps26_1]; after_results
  exact pad_val (hiH := 6) (hiW := 3) _ _ h0 pads_S16x28x28x512_S16x35x32x512_000_160_130_000 n i j ch

theorem const_main_c_22 : (StableHlo.after hostOps27 Vp (Proc.devRef .tc main_c_22) : IVec S_ 32) = constantI S_ 32 0#32 := by
  dsimp only [hostOps27]; after_results

theorem pad_main_v80 (h0 : (Vp (Proc.devRef .tc main_c_22) : IVec S_ 32) = constantI S_ 32 0#32)
    (n : Fin 16) (i : Fin 35) (j : Fin 32) (ch : Fin 512) :
    (StableHlo.after hostOps27_1 Vp (Proc.devRef .tc main_v80) : FVec 𝕀 S16x35x32x512 .f32) (ix4 n i j ch)
      = Cert.Spec.padAt (Cert.Spec.curry4 (Vp (Proc.devRef .tc main_v77) : FVec 𝕀 S16x28x28x512 .f32)) n i.val j.val ch := by
  dsimp only [hostOps27_1]; after_results
  exact pad_val (hiH := 6) (hiW := 3) _ _ h0 pads_S16x28x28x512_S16x35x32x512_000_160_130_000 n i j ch

theorem const_main_c_23 : (StableHlo.after hostOps28 Vp (Proc.devRef .tc main_c_23) : IVec S_ 32) = constantI S_ 32 0#32 := by
  dsimp only [hostOps28]; after_results

theorem pad_main_v82 (h0 : (Vp (Proc.devRef .tc main_c_23) : IVec S_ 32) = constantI S_ 32 0#32)
    (n : Fin 16) (i : Fin 35) (j : Fin 32) (ch : Fin 512) :
    (StableHlo.after hostOps28_1 Vp (Proc.devRef .tc main_v82) : FVec 𝕀 S16x35x32x512 .f32) (ix4 n i j ch)
      = Cert.Spec.padAt (Cert.Spec.curry4 (Vp (Proc.devRef .tc main_v79) : FVec 𝕀 S16x28x28x512 .f32)) n i.val j.val ch := by
  dsimp only [hostOps28_1]; after_results
  exact pad_val (hiH := 6) (hiW := 3) _ _ h0 pads_S16x28x28x512_S16x35x32x512_000_160_130_000 n i j ch

theorem rows_main_v84 (r : Fin 12544) (k : Fin 512) :
    (StableHlo.after hostOps29 Vp (Proc.devRef .tc main_v84) : FVec 𝕀 S12544x512 .f32) (ix2 r k)
      = Cert.Spec.flat (Cert.Spec.curry4 (Vp (Proc.devRef .tc main_v81) : FVec 𝕀 S16x28x28x512 .f32)) (r.val * 512 + k.val) := by
  dsimp only [hostOps29]; after_results
  exact Cert.Spec.flat_reshape2 _ _ r k

theorem rows_main_v85 (r : Fin 12544) (k : Fin 512) :
    (StableHlo.after hostOps29 Vp (Proc.devRef .tc main_v85) : FVec 𝕀 S12544x512 .f32) (ix2 r k)
      = Cert.Spec.flat (Cert.Spec.curry4 (Vp (Proc.devRef .tc main_v83) : FVec 𝕀 S16x28x28x512 .f32)) (r.val * 512 + k.val) := by
  dsimp only [hostOps29]; after_results
  exact Cert.Spec.flat_reshape2 _ _ r k

theorem total_main_v89 :
    (StableHlo.after hostOps30 Vp (Proc.devRef .tc main_v89) : FVec 𝕀 S_ .f32) ix0
      = @HAdd.hAdd EReal EReal EReal instHAdd ((Vp (Proc.devRef .tc main_v67) : FVec 𝕀 S_ .f32) ix0)
          (Ideal.div ((Vp (Proc.devRef .tc main_v86) : FVec 𝕀 S1x1 .f32) (ix2 (0 : Fin 1) (0 : Fin 1))) (Ideal.ofBits .f32 0x4AC40000#32)) := by
  dsimp only [hostOps30]; after_results
  exact total_step _ _ _

theorem norm_main_v7 :
    Cert.Spec.curry4 (StableHlo.after hostOps0 Vp (Proc.devRef .tc main_v7) : FVec 𝕀 S16x224x224x3 .f32)
      = Cert.Spec.normalise (Cert.Spec.curryImg (Vp (Proc.devRef .tc main_arg0) : FVec 𝕀 S16x3x224x224 .f32)) := by
  dsimp only [hostOps0]; after_results
  exact norm_val _

theorem norm_main_v13 :
    Cert.Spec.curry4 (StableHlo.after hostOps0 Vp (Proc.devRef .tc main_v13) : FVec 𝕀 S16x224x224x3 .f32)
      = Cert.Spec.normalise (Cert.Spec.curryImg (Vp (Proc.devRef .tc main_arg1) : FVec 𝕀 S16x3x224x224 .f32)) := by
  dsimp only [hostOps0]; after_results
  exact norm_val _

end Cert.ReferenceIdeal.Host

end
-- ==== Proof.RI.Reg0Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·232 each, then 232 zero rows), and for each tap (dy, dx)
multiplies the rows shifted by 232·dy + dx with the tap's [3, 64] matrix. Read at row th·232 + w and column co, the nine
products add up to the 3×3 correlation at pixel (th, w), output channel co. -/

set_option maxRecDepth 16384

noncomputable section

namespace Cert.ReferenceIdeal.Reg0

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [3712, 3] by [3, 64] product into the zero accumulator, at (r, co): the sum over the 3 input channels. -/
theorem mm_apply (L : FVec Ideal S3712x3 .f32) (R : FVec Ideal S3x64 .f32) (r : Fin 3712) (co : Fin 64) :
    matmul dot_S3712x3_S3x64_S3712x64_1_0_0_1_n_n none L R (constant S3712x64 .f32 0x00000000#32) (ix2 r co)
      = ∑ ci : Fin 3, L (ix2 r ci) * R (ix2 ci co) := by
  refine (Ideal.matmul_constant_zero_apply _ _ _ _ _).trans ?_
  refine (Equiv.sum_comp (contrEquiv1 dot_S3712x3_S3x64_S3712x64_1_0_0_1_n_n 3 rfl rfl).symm _).symm.trans ?_
  refine Finset.sum_congr rfl fun ci _ => ?_
  have hl : dot_S3712x3_S3x64_S3712x64_1_0_0_1_n_n.lhsIdx (ix2 r co)
      ((contrEquiv1 dot_S3712x3_S3x64_S3712x64_1_0_0_1_n_n 3 rfl rfl).symm ci) = ix2 r ci := by
    funext a; apply Fin.ext
    match a with
    | ⟨0, _⟩ => rfl
    | ⟨1, _⟩ => exact contrEquiv1_symm_val dot_S3712x3_S3x64_S3712x64_1_0_0_1_n_n 3 rfl rfl ci
  have hr : dot_S3712x3_S3x64_S3712x64_1_0_0_1_n_n.rhsIdx (ix2 r co)
      ((contrEquiv1 dot_S3712x3_S3x64_S3712x64_1_0_0_1_n_n 3 rfl rfl).symm ci) = ix2 ci co := by
    funext a; apply Fin.ext
    match a with
    | ⟨0, _⟩ => exact contrEquiv1_symm_val dot_S3712x3_S3x64_S3712x64_1_0_0_1_n_n 3 rfl rfl ci
    | ⟨1, _⟩ => rfl
  rw [hl, hr]

/-! ## The stacked rows -/

section Slab
variable (xa xb : Vec Ideal S1x16x232x3 .f32)

/-- Pixel (hh, w') of the two tiles stacked one above the other, hh < 32. -/
def tiles (hh : Fin 32) (w' : Fin 232) (ci : Fin 3) : EReal :=
  if h : hh.val < 16 then xa (ix4 (0 : Fin 1) (⟨hh.val, h⟩ : Fin 16) w' ci)
  else xb (ix4 (0 : Fin 1) (⟨hh.val - 16, by omega⟩ : Fin 16) w' ci)

/-- Row hh·232 + w' of the first 3712 rows is pixel (hh, w') of the first tile. -/
theorem slab_lo (hh : Fin 16) (w' : Fin 232) (ci : Fin 3) (q : Fin 7656) (hq : q.val = hh.val * 232 + w'.val) :
    k0_pay2 xa xb (ix2 q ci) = xa (ix4 (0 : Fin 1) hh w' ci) := by
  unfold k0_pay2
  have hq' : q.val < 3712 := by have := hh.isLt; have := w'.isLt; omega
  refine Eq.trans (concatenate_apply_piece (0 : Fin 2) _ _ (ix2 q ci) 0 ?_ S3712x3
    (shapeCast S3712x3 (shapeCast S16x232x3 xa shapeCasts_S1x16x232x3_S16x232x3) shapeCasts_S16x232x3_S3712x3) ?_ ?_ 0 ?_
    (ix2 (⟨q.val, hq'⟩ : Fin 3712) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 3 + ci.val = q.val * 3 + ci.val
      rw [hq]
    · rw [Shape.rowMajor_val_four, Shape.rowMajor_val_three]
      show ((0 * 16 + hh.val) * 232 + w'.val) * 3 + ci.val = (hh.val * 232 + w'.val) * 3 + ci.val
      omega

/-- Row 3712 + hh·232 + w' is pixel (hh, w') of the second tile. -/
theorem slab_hi (hh : Fin 16) (w' : Fin 232) (ci : Fin 3) (q : Fin 7656) (hq : q.val = 3712 + (hh.val * 232 + w'.val)) :
    k0_pay2 xa xb (ix2 q ci) = xb (ix4 (0 : Fin 1) hh w' ci) := by
  unfold k0_pay2
  have hq' : q.val - 3712 < 3712 := by have := hh.isLt; have := w'.isLt; omega
  refine Eq.trans (concatenate_apply_piece (0 : Fin 2) _ _ (ix2 q ci) 1 ?_ S3712x3
    (shapeCast S3712x3 (shapeCast S16x232x3 xb shapeCasts_S1x16x232x3_S16x232x3) shapeCasts_S16x232x3_S3712x3) ?_ ?_ 3712 ?_
    (ix2 (⟨q.val - 3712, hq'⟩ : Fin 3712) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 3712 + (q.val - 3712) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 3 + ci.val = (q.val - 3712) * 3 + ci.val
      omega
    · rw [Shape.rowMajor_val_four, Shape.rowMajor_val_three]
      show ((0 * 16 + hh.val) * 232 + w'.val) * 3 + ci.val = (hh.val * 232 + w'.val) * 3 + ci.val
      omega

/-- Row hh·232 + w', hh < 32, of the stacked rows is pixel (hh, w') of the stacked tiles. -/
theorem slab_apply (hh : Fin 32) (w' : Fin 232) (ci : Fin 3) (q : Fin 7656) (hq : q.val = hh.val * 232 + w'.val) :
    k0_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 3712 + ((hh.val - 16) * 232 + w'.val); omega)

end Slab

/-! ## A tap's product read at an entry -/

/-- A tap matrix [1, 1, 3, 64] flattened to [3, 64], at (ci, co). -/
theorem tapmat_apply (Wt : Vec Ideal S1x1x3x64 .f32) (ci : Fin 3) (co : Fin 64) :
    (shapeCast S3x64 Wt shapeCasts_S1x1x3x64_S3x64 : FVec Ideal S3x64 .f32) (ix2 ci co) = Wt (ix4 (0 : Fin 1) (0 : Fin 1) ci co) := by
  refine shapeCast_apply _ _ _ _ ?_
  rw [Shape.rowMajor_val_four, Shape.rowMajor_val_two]
  show ((0 * 1 + 0) * 3 + ci.val) * 64 + co.val = ci.val * 64 + co.val
  omega

/-- Rows o, o+1, … of a matrix of n0 rows against a flattened tap matrix, at (r, co): the sum over the 3 input
    channels of row o + r times the tap's column co. -/
theorem tap_apply {n0 : Nat} (o : Nat) (X : FVec Ideal ⟨2, ![n0, 3]⟩ .f32)
    (h : (⟨2, ![n0, 3]⟩ : Shape).Slices ![o, 0] S3712x3) (Wt : Vec Ideal S1x1x3x64 .f32)
    (r : Fin 3712) (co : Fin 64) (hk : o + 3711 < n0) :
    matmul dot_S3712x3_S3x64_S3712x64_1_0_0_1_n_n none (extractStridedSlice S3712x3 ![o, 0] X h : FVec Ideal S3712x3 .f32)
        (shapeCast S3x64 Wt shapeCasts_S1x1x3x64_S3x64 : FVec Ideal S3x64 .f32) (constant S3712x64 .f32 0x00000000#32) (ix2 r co)
      = ∑ ci : Fin 3, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x232x3 .f32)

/-- The rows from the second on. -/
theorem pay3_apply (q : Fin 7655) (ci : Fin 3) :
    k0_pay3 xa xb (ix2 q ci) = k0_pay2 xa xb (ix2 (⟨1 + q.val, by omega⟩ : Fin 7656) ci) := by
  unfold k0_pay3
  exact slice2_axis0_apply 1 _ _ q ci _ rfl

/-- The rows from the third on. -/
theorem pay4_apply (q : Fin 7654) (ci : Fin 3) :
    k0_pay4 xa xb (ix2 q ci) = k0_pay2 xa xb (ix2 (⟨2 + q.val, by omega⟩ : Fin 7656) ci) := by
  unfold k0_pay4
  exact slice2_axis0_apply 2 _ _ q ci _ rfl

end Shift

/-! ## The accumulations -/

/-- The first three taps added onto zero. -/
theorem pay5_apply (xa xb : Vec Ideal S1x16x232x3 .f32) (w00 w01 w02 : Vec Ideal S1x1x3x64 .f32) (r : Fin 3712) (co : Fin 64) :
    k0_pay5 xa xb w00 w01 w02 (ix2 r co)
      = 0 + (∑ ci : Fin 3, k0_pay2 xa xb (ix2 (⟨0 + r.val, by omega⟩ : Fin 7656) ci) * w00 (ix4 (0 : Fin 1) (0 : Fin 1) ci co))
          + (∑ ci : Fin 3, k0_pay3 xa xb (ix2 (⟨0 + r.val, by omega⟩ : Fin 7655) ci) * w01 (ix4 (0 : Fin 1) (0 : Fin 1) ci co))
          + (∑ ci : Fin 3, k0_pay4 xa xb (ix2 (⟨0 + r.val, by omega⟩ : Fin 7654) ci) * w02 (ix4 (0 : Fin 1) (0 : Fin 1) ci co)) := by
  unfold k0_pay5
  simp only [addf_apply]
  rw [tap_apply 0 (k0_pay2 xa xb) _ w00 r co (by omega), tap_apply 0 (k0_pay3 xa xb) _ w01 r co (by omega),
    tap_apply 0 (k0_pay4 xa xb) _ w02 r co (by omega)]
  congr 3
  exact Ideal.ofBits_zero_f32

/-- The other six taps and the bias added onto what the first three left. -/
theorem pay8_apply (v7 : FVec Ideal S7656x3 .f32) (v8 : FVec Ideal S7655x3 .f32) (v9 : FVec Ideal S7654x3 .f32)
    (v25 : FVec Ideal S3712x64 .f32) (v26 : FVec Ideal S3712x3 .f32) (v28 : FVec Ideal S3x64 .f32)
    (w11 w12 w20 w21 w22 : Vec Ideal S1x1x3x64 .f32) (b : Vec Ideal S1x64 .f32) (r : Fin 3712) (co : Fin 64) :
    k0_pay8 v7 v8 v9 v25 v26 v28 w11 w12 w20 w21 w22 b (ix2 r co)
      = v25 (ix2 r co) + (∑ ci : Fin 3, v26 (ix2 r ci) * v28 (ix2 ci co))
          + (∑ ci : Fin 3, v8 (ix2 (⟨232 + r.val, by omega⟩ : Fin 7655) ci) * w11 (ix4 (0 : Fin 1) (0 : Fin 1) ci co))
          + (∑ ci : Fin 3, v9 (ix2 (⟨232 + r.val, by omega⟩ : Fin 7654) ci) * w12 (ix4 (0 : Fin 1) (0 : Fin 1) ci co))
          + (∑ ci : Fin 3, v7 (ix2 (⟨464 + r.val, by omega⟩ : Fin 7656) ci) * w20 (ix4 (0 : Fin 1) (0 : Fin 1) ci co))
          + (∑ ci : Fin 3, v8 (ix2 (⟨464 + r.val, by omega⟩ : Fin 7655) ci) * w21 (ix4 (0 : Fin 1) (0 : Fin 1) ci co))
          + (∑ ci : Fin 3, v9 (ix2 (⟨464 + r.val, by omega⟩ : Fin 7654) ci) * w22 (ix4 (0 : Fin 1) (0 : Fin 1) ci co))
          + b (ix2 (0 : Fin 1) co) := by
  unfold k0_pay8
  simp only [addf_apply]
  rw [mm_apply, tap_apply 232 v8 _ w11 r co (by omega), tap_apply 232 v9 _ w12 r co (by omega),
    tap_apply 464 v7 _ w20 r co (by omega), tap_apply 464 v8 _ w21 r co (by omega), tap_apply 464 v9 _ w22 r co (by omega),
    broadcastTo_1b_ab_apply]

/-- The fourth tap's rows and matrix. -/
theorem pay6_apply (xa xb : Vec Ideal S1x16x232x3 .f32) (r : Fin 3712) (ci : Fin 3) :
    k0_pay6 xa xb (ix2 r ci) = k0_pay2 xa xb (ix2 (⟨232 + r.val, by omega⟩ : Fin 7656) ci) := by
  unfold k0_pay6
  exact slice2_axis0_apply 232 _ _ r ci _ rfl

theorem pay7_apply (w10 : Vec Ideal S1x1x3x64 .f32) (ci : Fin 3) (co : Fin 64) :
    k0_pay7 w10 (ix2 ci co) = w10 (ix4 (0 : Fin 1) (0 : Fin 1) ci co) := by
  unfold k0_pay7
  exact tapmat_apply w10 ci co

/-- The clamp and the cut to 224 columns: entry (0, th, w, co) of the tile is row th·232 + w, column co. -/
theorem pay1_apply (v58 v59 : FVec Ideal S3712x64 .f32) (th : Fin 16) (w : Fin 224) (co : Fin 64) :
    k0_pay1 v58 v59 (ix4 (0 : Fin 1) th w co)
      = max (v58 (ix2 (⟨th.val * 232 + w.val, by omega⟩ : Fin 3712) co)) (v59 (ix2 (⟨th.val * 232 + w.val, by omega⟩ : Fin 3712) co)) := by
  unfold k0_pay1
  refine (shapeCast_abc_1abc_apply _ _ (0 : Fin 1) th w co).trans ?_
  refine (slice3_axis1_apply 0 _ _ th w co (⟨w.val, by omega⟩ : Fin 232) (by simp)).trans ?_
  refine (shapeCast_apply _ _ _ (ix2 (⟨th.val * 232 + w.val, by omega⟩ : Fin 3712) co) ?_).trans (maximumf_apply _ _ _)
  rw [Shape.rowMajor_val_two, Shape.rowMajor_val_three]
  rfl

theorem pay9_apply (j : S3712x64.Idx) : k0_pay9 (F := Ideal) j = 0 := by
  unfold k0_pay9
  exact Ideal.ofBits_zero_f32

/-! ## The body's value at an entry -/

section Entry
variable (xa xb : Vec Ideal S1x16x232x3 .f32)

/-- Row (th+dy)·232 + (w+dx) of the stacked rows is pixel (th+dy, w+dx) of the stacked tiles. -/
theorem slab_tap (th : Fin 16) (w : Fin 224) (dy dx : Fin 3) (ci : Fin 3) (q : Fin 7656)
    (hq : q.val = (th.val + dy.val) * 232 + (w.val + dx.val)) :
    k0_pay2 xa xb (ix2 q ci)
      = tiles xa xb (⟨th.val + dy.val, by omega⟩ : Fin 32) (⟨w.val + dx.val, by omega⟩ : Fin 232) ci :=
  slab_apply xa xb _ _ ci q hq

/-- The nine tap matrices as one family. -/
def taps (w00 w01 w02 w10 w11 w12 w20 w21 w22 : Vec Ideal S1x1x3x64 .f32) (dy dx : Fin 3) : Vec Ideal S1x1x3x64 .f32 :=
  ![![w00, w01, w02], ![w10, w11, w12], ![w20, w21, w22]] dy dx

/-- One output entry of the body: the 3×3 correlation of the stacked tiles with the nine tap matrices over the 3
    input channels, plus the bias, clamped below at zero. -/
theorem conv_entry (w00 w01 w02 w10 w11 w12 w20 w21 w22 : Vec Ideal S1x1x3x64 .f32) (b : Vec Ideal S1x64 .f32)
    (th : Fin 16) (w : Fin 224) (co : Fin 64) :
    k0_pay1 (k0_pay8 (k0_pay2 xa xb) (k0_pay3 xa xb) (k0_pay4 xa xb) (k0_pay5 xa xb w00 w01 w02) (k0_pay6 xa xb)
        (k0_pay7 w10) w11 w12 w20 w21 w22 b) k0_pay9 (ix4 (0 : Fin 1) th w co)
      = max ((∑ dy : Fin 3, ∑ dx : Fin 3, ∑ ci : Fin 3,
              tiles xa xb (⟨th.val + dy.val, by omega⟩ : Fin 32) (⟨w.val + dx.val, by omega⟩ : Fin 232) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 3,
      tiles xa xb (⟨th.val + dy.val, by omega⟩ : Fin 32) (⟨w.val + dx.val, by omega⟩ : Fin 232) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg0
-- ==== Proof.RI.Reg0Value.lean ====
import proofs.«143011_g2000502688546152_pallasbulk_1201_3_alg».proof.Proof.RI.Reg0
import proofs.«143011_g2000502688546152_pallasbulk_1201_3_alg».proof.Proof.RI.Reg0Pure

/-! # Region 0 at the extended reals: the output array is the 3×3 correlation, plus bias, clamped at zero

Point t = 14·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg0

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 240, 232, 3], the kernel [3, 3, 3, 64] and the bias [1, 64] as the region finds them. -/
abbrev xp (c : Dev nD) : S16x240x232x3.Idx → EReal := V c (Pipeline.arrRef spec0 0)
abbrev wk (c : Dev nD) : S3x3x3x64.Idx → EReal := V c (Pipeline.arrRef spec0 2)
abbrev bias (c : Dev nD) : S1x64.Idx → EReal := V c (Pipeline.arrRef spec0 3)

/-! ## The grid's points and the windows' block indices -/

theorem N_eq : cfg0.N = 224 := N_0

/-- The image and the row tile of point `t`. -/
def pn (t : Fin cfg0.N) : Fin 16 := ⟨t.val / 14, by have := t.isLt; have := N_eq; omega⟩
def pr (t : Fin cfg0.N) : Fin 14 := ⟨t.val % 14, Nat.mod_lt _ (by decide)⟩

/-- The five windows' block indices at every point: (n, r), (n, r + 1), the origin twice, (n, r). -/
theorem idx_facts : ∀ t : Fin cfg0.N,
    (win0_0.index t 0 = t.val / 14 ∧ win0_0.index t 1 = t.val % 14 ∧ win0_0.index t 2 = 0 ∧ win0_0.index t 3 = 0)
    ∧ (win0_1.index t 0 = t.val / 14 ∧ win0_1.index t 1 = t.val % 14 + 1 ∧ win0_1.index t 2 = 0 ∧ win0_1.index t 3 = 0)
    ∧ (win0_2.index t 0 = 0 ∧ win0_2.index t 1 = 0 ∧ win0_2.index t 2 = 0 ∧ win0_2.index t 3 = 0)
    ∧ (win0_3.index t 0 = 0 ∧ win0_3.index t 1 = 0)
    ∧ (win0_4.index t 0 = t.val / 14 ∧ win0_4.index t 1 = t.val % 14 ∧ win0_4.index t 2 = 0 ∧ win0_4.index t 3 = 0) :=
  (by decide +kernel : ∀ t : Fin grid0.N, _)

/-! ## The windows' blocks read at an index -/

/-- The first input tile at point (n, r): rows 16·r … of image n of the padded input. -/
theorem iblk0_apply (c : Dev nD) (t : Fin cfg0.N) (hh : Fin 16) (w' : Fin 232) (ci : Fin 3) :
    iblk V c 0 t (ix4 (0 : Fin 1) hh w' ci)
      = xp V c (ix4 (pn t) (⟨(pr t).val * 16 + hh.val, by have := (pr t).isLt; omega⟩ : Fin 240) w' ci) := by
  obtain ⟨⟨h0, h1, h2, h3⟩, -⟩ := idx_facts t
  unfold iblk
  rw [View.read_apply]
  show V c (Pipeline.arrRef spec0 0) _ = V c (Pipeline.arrRef spec0 0) _
  congr 1
  funext a
  apply Fin.ext
  match a with
  | ⟨0, _⟩ => show win0_0.index t 0 * 1 + 1 * 0 = t.val / 14; rw [h0]; omega
  | ⟨1, _⟩ => show win0_0.index t 1 * 16 + 1 * hh.val = t.val % 14 * 16 + hh.val; rw [h1]; omega
  | ⟨2, _⟩ => show win0_0.index t 2 * 232 + 1 * w'.val = w'.val; rw [h2]; omega
  | ⟨3, _⟩ => show win0_0.index t 3 * 3 + 1 * ci.val = ci.val; rw [h3]; omega

/-- The second input tile at point (n, r): rows 16·(r + 1) … of image n of the padded input. -/
theorem iblk1_apply (c : Dev nD) (t : Fin cfg0.N) (hh : Fin 16) (w' : Fin 232) (ci : Fin 3) :
    iblk V c 1 t (ix4 (0 : Fin 1) hh w' ci)
      = xp V c (ix4 (pn t) (⟨((pr t).val + 1) * 16 + hh.val, by have := (pr t).isLt; omega⟩ : Fin 240) w' ci) := by
  obtain ⟨-, ⟨h0, h1, h2, h3⟩, -⟩ := idx_facts t
  unfold iblk
  rw [View.read_apply]
  show V c (Pipeline.arrRef spec0 1) _ = V c (Pipeline.arrRef spec0 0) _
  congr 1
  funext a
  apply Fin.ext
  match a with
  | ⟨0, _⟩ => show win0_1.index t 0 * 1 + 1 * 0 = t.val / 14; rw [h0]; omega
  | ⟨1, _⟩ => show win0_1.index t 1 * 16 + 1 * hh.val = (t.val % 14 + 1) * 16 + hh.val; rw [h1]; omega
  | ⟨2, _⟩ => show win0_1.index t 2 * 232 + 1 * w'.val = w'.val; rw [h2]; omega
  | ⟨3, _⟩ => show win0_1.index t 3 * 3 + 1 * ci.val = ci.val; rw [h3]; omega

/-- The kernel window is the whole kernel array at every point. -/
theorem iblk2_apply (c : Dev nD) (t : Fin cfg0.N) (dy dx : Fin 3) (ci : Fin 3) (co : Fin 64) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec0 2) _ = V c (Pipeline.arrRef spec0 2) _
  congr 1
  funext a
  apply Fin.ext
  match a with
  | ⟨0, _⟩ => show win0_2.index t 0 * 3 + 1 * dy.val = dy.val; rw [h0]; omega
  | ⟨1, _⟩ => show win0_2.index t 1 * 3 + 1 * dx.val = dx.val; rw [h1]; omega
  | ⟨2, _⟩ => show win0_2.index t 2 * 3 + 1 * ci.val = ci.val; rw [h2]; omega
  | ⟨3, _⟩ => show win0_2.index t 3 * 64 + 1 * co.val = co.val; rw [h3]; omega

/-- The bias window is the whole bias row at every point. -/
theorem iblk3_apply (c : Dev nD) (t : Fin cfg0.N) (co : Fin 64) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec0 3) _ = V c (Pipeline.arrRef spec0 3) _
  congr 1
  funext a
  apply Fin.ext
  match a with
  | ⟨0, _⟩ => show win0_3.index t 0 * 1 + 1 * 0 = 0; rw [h0]
  | ⟨1, _⟩ => show win0_3.index t 1 * 64 + 1 * co.val = co.val; rw [h1]; omega

/-! ## The whole-array function and what a point writes back -/

/-- The correlation at (n, h, w, co): the sums nest dy, dx, ci. -/
def conv (c : Dev nD) (n : Fin 16) (h : Fin 224) (w : Fin 224) (co : Fin 64) : EReal :=
  max ((∑ dy : Fin 3, ∑ dx : Fin 3, ∑ ci : Fin 3,
          xp V c (ix4 n (⟨h.val + dy.val, by omega⟩ : Fin 240) (⟨w.val + dx.val, by omega⟩ : Fin 232) ci)
            * wk V c (ix4 dy dx ci co))
        + bias V c (ix2 (0 : Fin 1) co)) 0

/-- The output array the region is shown to leave. -/
def G (c : Dev nD) : Buf (Elt Ideal) ((c : Thread nD τ).loc main_v15) :=
  fun i : S16x224x224x64.Idx => conv V c (i 0) (i 1) (i 2) (i 3)

theorem G_apply (c : Dev nD) (i : S16x224x224x64.Idx) : G V c i = conv V c (i 0) (i 1) (i 2) (i 3) := rfl

theorem conv_congr (c : Dev nD) {n n' : Fin 16} {h h' : Fin 224} {w w' : Fin 224} {co co' : Fin 64}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg0.N) (hh : Fin 32) (w' : Fin 232) (ci : Fin 3) :
    tiles (iblk V c 0 t) (iblk V c 1 t) hh w' ci
      = xp V c (ix4 (pn t) (⟨(pr t).val * 16 + hh.val, by have := (pr t).isLt; omega⟩ : Fin 240) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg0.N) (dy dx : Fin 3) (ci : Fin 3) (co : Fin 64) :
    taps (View.ld (iblk V c 2 t) (tapRect 0 0 inb_S3x3x3x64_S1x1x3x64_0_0_0_0))
        (View.ld (iblk V c 2 t) (tapRect 0 1 inb_S3x3x3x64_S1x1x3x64_0_1_0_0))
        (View.ld (iblk V c 2 t) (tapRect 0 2 inb_S3x3x3x64_S1x1x3x64_0_2_0_0))
        (View.ld (iblk V c 2 t) (tapRect 1 0 inb_S3x3x3x64_S1x1x3x64_1_0_0_0))
        (View.ld (iblk V c 2 t) (tapRect 1 1 inb_S3x3x3x64_S1x1x3x64_1_1_0_0))
        (View.ld (iblk V c 2 t) (tapRect 1 2 inb_S3x3x3x64_S1x1x3x64_1_2_0_0))
        (View.ld (iblk V c 2 t) (tapRect 2 0 inb_S3x3x3x64_S1x1x3x64_2_0_0_0))
        (View.ld (iblk V c 2 t) (tapRect 2 1 inb_S3x3x3x64_S1x1x3x64_2_1_0_0))
        (View.ld (iblk V c 2 t) (tapRect 2 2 inb_S3x3x3x64_S1x1x3x64_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x232x3 .f32) (wk' : Vec Ideal S3x3x3x64 .f32) (b : Vec Ideal S1x64 .f32)
    (th : Fin 16) (w : Fin 224) (co : Fin 64) :
    out xa xb wk' b (ix4 (0 : Fin 1) th w co)
      = max ((∑ dy : Fin 3, ∑ dx : Fin 3, ∑ ci : Fin 3,
              tiles xa xb (⟨th.val + dy.val, by omega⟩ : Fin 32) (⟨w.val + dx.val, by omega⟩ : Fin 232) ci
                * taps (View.ld wk' (tapRect 0 0 inb_S3x3x3x64_S1x1x3x64_0_0_0_0))
                    (View.ld wk' (tapRect 0 1 inb_S3x3x3x64_S1x1x3x64_0_1_0_0))
                    (View.ld wk' (tapRect 0 2 inb_S3x3x3x64_S1x1x3x64_0_2_0_0))
                    (View.ld wk' (tapRect 1 0 inb_S3x3x3x64_S1x1x3x64_1_0_0_0))
                    (View.ld wk' (tapRect 1 1 inb_S3x3x3x64_S1x1x3x64_1_1_0_0))
                    (View.ld wk' (tapRect 1 2 inb_S3x3x3x64_S1x1x3x64_1_2_0_0))
                    (View.ld wk' (tapRect 2 0 inb_S3x3x3x64_S1x1x3x64_2_0_0_0))
                    (View.ld wk' (tapRect 2 1 inb_S3x3x3x64_S1x1x3x64_2_1_0_0))
                    (View.ld wk' (tapRect 2 2 inb_S3x3x3x64_S1x1x3x64_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg0.N) :
    (dat V c).flushed 4 t = ((cfg0.win 4).blk t).view.read (Elt Ideal) (G V c) := by
  show (cfg0.win 4).cut (grid0.coords t) ((dat V c).after 4 t) = _
  rw [after_4]
  funext x
  obtain ⟨u, th, w, co, rfl⟩ : ∃ (u : Fin 1) (th : Fin 16) (w : Fin 224) (co : Fin 64), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg0.win 4).blk t).view.emb (ix4 (0 : Fin 1) th w co))
      = conv V c (pn t) (⟨(pr t).val * 16 + th.val, by have := (pr t).isLt; omega⟩ : Fin 224) w co :=
    (G_apply V c _).trans (conv_congr V c
      (Fin.ext (by show win0_4.index t 0 * 1 + 1 * 0 = t.val / 14; rw [h0]; omega))
      (Fin.ext (by show win0_4.index t 1 * 16 + 1 * th.val = t.val % 14 * 16 + th.val; rw [h1]; omega))
      (Fin.ext (by show win0_4.index t 2 * 224 + 1 * w.val = w.val; rw [h2]; omega))
      (Fin.ext (by show win0_4.index t 3 * 64 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg0.N) (i : S16x224x224x64.Idx) :
    i ∈ ((cfg0.win 4).blk t).view.set ↔ (i 0 : Nat) = t.val / 14 ∧ t.val % 14 * 16 ≤ (i 1 : Nat) ∧ (i 1 : Nat) < t.val % 14 * 16 + 16 := by
  show i ∈ ((View.whole main_v15).slice (win0_4.rect t)).set ↔ _
  rw [View.set_slice_whole, Rect.mem_set_unit]
  obtain ⟨-, -, -, -, ⟨h0, h1, h2, h3⟩⟩ := idx_facts t
  have b2 : (i 2 : Nat) < 224 := (i 2).isLt
  have b3 : (i 3 : Nat) < 64 := (i 3).isLt
  have e0 : win0_4.index t 0 * win0_4.size 0 = t.val / 14 := by rw [h0]; show t.val / 14 * 1 = _; omega
  have e1 : win0_4.index t 1 * win0_4.size 1 = t.val % 14 * 16 := by rw [h1]; rfl
  have e2 : win0_4.index t 2 * win0_4.size 2 = 0 := by rw [h2]; rfl
  have e3 : win0_4.index t 3 * win0_4.size 3 = 0 := by rw [h3]; rfl
  have x0 : win0_4.xsize (grid0.coords t) 0 = 1 := rfl
  have x1 : win0_4.xsize (grid0.coords t) 1 = 16 := rfl
  have x2 : win0_4.xsize (grid0.coords t) 2 = 224 := rfl
  have x3 : win0_4.xsize (grid0.coords t) 3 = 64 := rfl
  refine ⟨fun h => ?_, fun h a => ?_⟩
  · have a0 := h 0; have a1 := h 1
    rw [e0, x0] at a0; rw [e1, x1] at a1
    exact ⟨by omega, a1⟩
  · match a with
    | ⟨0, _⟩ => show win0_4.index t 0 * win0_4.size 0 ≤ (i 0 : Nat) ∧ (i 0 : Nat) < win0_4.index t 0 * win0_4.size 0 + win0_4.xsize (grid0.coords t) 0
                rw [e0, x0]; omega
    | ⟨1, _⟩ => show win0_4.index t 1 * win0_4.size 1 ≤ (i 1 : Nat) ∧ (i 1 : Nat) < win0_4.index t 1 * win0_4.size 1 + win0_4.xsize (grid0.coords t) 1
                rw [e1, x1]; exact h.2
    | ⟨2, _⟩ => show win0_4.index t 2 * win0_4.size 2 ≤ (i 2 : Nat) ∧ (i 2 : Nat) < win0_4.index t 2 * win0_4.size 2 + win0_4.xsize (grid0.coords t) 2
                rw [e2, x2]; omega
    | ⟨3, _⟩ => show win0_4.index t 3 * win0_4.size 3 ≤ (i 3 : Nat) ∧ (i 3 : Nat) < win0_4.index t 3 * win0_4.size 3 + win0_4.xsize (grid0.coords t) 3
                rw [e3, x3]; omega

/-- Every index of the output array is in the block of the point of its image and row tile. -/
theorem cover (i : S16x224x224x64.Idx) :
    ∃ t : Fin cfg0.N, (cfg0.win 4).flush t = true ∧ i ∈ ((cfg0.win 4).blk t).view.set := by
  have b0 : (i 0 : Nat) < 16 := (i 0).isLt
  have b1 : (i 1 : Nat) < 224 := (i 1).isLt
  refine ⟨⟨(i 0 : Nat) * 14 + (i 1 : Nat) / 16, by rw [N_eq]; omega⟩, flush0_4 _, ?_⟩
  rw [mem_blk]
  dsimp only
  omega

/-- The output array after the last grid point is `G`. -/
theorem final_out (c : Dev nD) : (dat V c).arrAt 4 cfg0.N = G V c :=
  (dat V c).arrAt_eq_of_cover 4 (G V c) (fun t _ => flushed_eq V c t) cover

/-- The output array after the last grid point: at (n, h, w, co) the 3×3 correlation of the padded input with the
    kernel over the three input channels, plus the bias, clamped below at zero. The sums nest dy, dx, ci. -/
theorem out_value (c : Dev nD) (n : Fin 16) (h w : Fin 224) (co : Fin 64) :
    (dat V c).arrAt 4 cfg0.N (ix4 n h w co)
      = max ((∑ dy : Fin 3, ∑ dx : Fin 3, ∑ ci : Fin 3,
                xp V c (ix4 n (⟨h.val + dy.val, by omega⟩ : Fin 240) (⟨w.val + dx.val, by omega⟩ : Fin 232) ci)
                  * wk V c (ix4 dy dx ci co))
              + bias V c (ix2 (0 : Fin 1) co)) 0 := by
  rw [final_out]
  rfl

end Cert.ReferenceIdeal.Reg0
-- ==== Proof.RI.Val0.lean ====
import proofs.«143011_g2000502688546152_pallasbulk_1201_3_alg».proof.Proof.RI.Seg0
import proofs.«143011_g2000502688546152_pallasbulk_1201_3_alg».proof.Proof.RI.Reg0Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg0

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 224 224 3)
    (hx : ∀ (n : Fin 16) (i : Fin 240) (j : Fin 232) (ci : Fin 3),
      (W c (Proc.devRef .tc (Pipeline.arrRef spec0 0)) : FVec 𝕀 S16x240x232x3 .f32) (ix4 n i j ci) = Cert.Spec.padAt z n i.val j.val ci) :
    Cert.Spec.curry4 (Wout W c (Proc.devRef .tc (Pipeline.arrRef spec0 4)) : FVec 𝕀 S16x224x224x64 .f32)
      = Cert.Spec.convRelu z (Cert.Spec.curryW (W c (Proc.devRef .tc (Pipeline.arrRef spec0 2)) : FVec 𝕀 S3x3x3x64 .f32))
          (Cert.Spec.curryB (W c (Proc.devRef .tc (Pipeline.arrRef spec0 3)) : FVec 𝕀 S1x64 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg0

end
-- ==== Proof.RI.Reg1Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·232 each, then 232 zero rows), and for each tap (dy, dx)
multiplies the rows shifted by 232·dy + dx with the tap's [3, 64] matrix. Read at row th·232 + w and column co, the nine
products add up to the 3×3 correlation at pixel (th, w), output channel co. -/

set_option maxRecDepth 16384

noncomputable section

namespace Cert.ReferenceIdeal.Reg1

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [3712, 3] by [3, 64] product into the zero accumulator, at (r, co): the sum over the 3 input channels. -/
theorem mm_apply (L : FVec Ideal S3712x3 .f32) (R : FVec Ideal S3x64 .f32) (r : Fin 3712) (co : Fin 64) :
    matmul dot_S3712x3_S3x64_S3712x64_1_0_0_1_n_n none L R (constant S3712x64 .f32 0x00000000#32) (ix2 r co)
      = ∑ ci : Fin 3, L (ix2 r ci) * R (ix2 ci co) := by
  refine (Ideal.matmul_constant_zero_apply _ _ _ _ _).trans ?_
  refine (Equiv.sum_comp (contrEquiv1 dot_S3712x3_S3x64_S3712x64_1_0_0_1_n_n 3 rfl rfl).symm _).symm.trans ?_
  refine Finset.sum_congr rfl fun ci _ => ?_
  have hl : dot_S3712x3_S3x64_S3712x64_1_0_0_1_n_n.lhsIdx (ix2 r co)
      ((contrEquiv1 dot_S3712x3_S3x64_S3712x64_1_0_0_1_n_n 3 rfl rfl).symm ci) = ix2 r ci := by
    funext a; apply Fin.ext
    match a with
    | ⟨0, _⟩ => rfl
    | ⟨1, _⟩ => exact contrEquiv1_symm_val dot_S3712x3_S3x64_S3712x64_1_0_0_1_n_n 3 rfl rfl ci
  have hr : dot_S3712x3_S3x64_S3712x64_1_0_0_1_n_n.rhsIdx (ix2 r co)
      ((contrEquiv1 dot_S3712x3_S3x64_S3712x64_1_0_0_1_n_n 3 rfl rfl).symm ci) = ix2 ci co := by
    funext a; apply Fin.ext
    match a with
    | ⟨0, _⟩ => exact contrEquiv1_symm_val dot_S3712x3_S3x64_S3712x64_1_0_0_1_n_n 3 rfl rfl ci
    | ⟨1, _⟩ => rfl
  rw [hl, hr]

/-! ## The stacked rows -/

section Slab
variable (xa xb : Vec Ideal S1x16x232x3 .f32)

/-- Pixel (hh, w') of the two tiles stacked one above the other, hh < 32. -/
def tiles (hh : Fin 32) (w' : Fin 232) (ci : Fin 3) : EReal :=
  if h : hh.val < 16 then xa (ix4 (0 : Fin 1) (⟨hh.val, h⟩ : Fin 16) w' ci)
  else xb (ix4 (0 : Fin 1) (⟨hh.val - 16, by omega⟩ : Fin 16) w' ci)

/-- Row hh·232 + w' of the first 3712 rows is pixel (hh, w') of the first tile. -/
theorem slab_lo (hh : Fin 16) (w' : Fin 232) (ci : Fin 3) (q : Fin 7656) (hq : q.val = hh.val * 232 + w'.val) :
    k1_pay2 xa xb (ix2 q ci) = xa (ix4 (0 : Fin 1) hh w' ci) := by
  unfold k1_pay2
  have hq' : q.val < 3712 := by have := hh.isLt; have := w'.isLt; omega
  refine Eq.trans (concatenate_apply_piece (0 : Fin 2) _ _ (ix2 q ci) 0 ?_ S3712x3
    (shapeCast S3712x3 (shapeCast S16x232x3 xa shapeCasts_S1x16x232x3_S16x232x3) shapeCasts_S16x232x3_S3712x3) ?_ ?_ 0 ?_
    (ix2 (⟨q.val, hq'⟩ : Fin 3712) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 3 + ci.val = q.val * 3 + ci.val
      rw [hq]
    · rw [Shape.rowMajor_val_four, Shape.rowMajor_val_three]
      show ((0 * 16 + hh.val) * 232 + w'.val) * 3 + ci.val = (hh.val * 232 + w'.val) * 3 + ci.val
      omega

/-- Row 3712 + hh·232 + w' is pixel (hh, w') of the second tile. -/
theorem slab_hi (hh : Fin 16) (w' : Fin 232) (ci : Fin 3) (q : Fin 7656) (hq : q.val = 3712 + (hh.val * 232 + w'.val)) :
    k1_pay2 xa xb (ix2 q ci) = xb (ix4 (0 : Fin 1) hh w' ci) := by
  unfold k1_pay2
  have hq' : q.val - 3712 < 3712 := by have := hh.isLt; have := w'.isLt; omega
  refine Eq.trans (concatenate_apply_piece (0 : Fin 2) _ _ (ix2 q ci) 1 ?_ S3712x3
    (shapeCast S3712x3 (shapeCast S16x232x3 xb shapeCasts_S1x16x232x3_S16x232x3) shapeCasts_S16x232x3_S3712x3) ?_ ?_ 3712 ?_
    (ix2 (⟨q.val - 3712, hq'⟩ : Fin 3712) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 3712 + (q.val - 3712) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 3 + ci.val = (q.val - 3712) * 3 + ci.val
      omega
    · rw [Shape.rowMajor_val_four, Shape.rowMajor_val_three]
      show ((0 * 16 + hh.val) * 232 + w'.val) * 3 + ci.val = (hh.val * 232 + w'.val) * 3 + ci.val
      omega

/-- Row hh·232 + w', hh < 32, of the stacked rows is pixel (hh, w') of the stacked tiles. -/
theorem slab_apply (hh : Fin 32) (w' : Fin 232) (ci : Fin 3) (q : Fin 7656) (hq : q.val = hh.val * 232 + w'.val) :
    k1_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 3712 + ((hh.val - 16) * 232 + w'.val); omega)

end Slab

/-! ## A tap's product read at an entry -/

/-- A tap matrix [1, 1, 3, 64] flattened to [3, 64], at (ci, co). -/
theorem tapmat_apply (Wt : Vec Ideal S1x1x3x64 .f32) (ci : Fin 3) (co : Fin 64) :
    (shapeCast S3x64 Wt shapeCasts_S1x1x3x64_S3x64 : FVec Ideal S3x64 .f32) (ix2 ci co) = Wt (ix4 (0 : Fin 1) (0 : Fin 1) ci co) := by
  refine shapeCast_apply _ _ _ _ ?_
  rw [Shape.rowMajor_val_four, Shape.rowMajor_val_two]
  show ((0 * 1 + 0) * 3 + ci.val) * 64 + co.val = ci.val * 64 + co.val
  omega

/-- Rows o, o+1, … of a matrix of n0 rows against a flattened tap matrix, at (r, co): the sum over the 3 input
    channels of row o + r times the tap's column co. -/
theorem tap_apply {n0 : Nat} (o : Nat) (X : FVec Ideal ⟨2, ![n0, 3]⟩ .f32)
    (h : (⟨2, ![n0, 3]⟩ : Shape).Slices ![o, 0] S3712x3) (Wt : Vec Ideal S1x1x3x64 .f32)
    (r : Fin 3712) (co : Fin 64) (hk : o + 3711 < n0) :
    matmul dot_S3712x3_S3x64_S3712x64_1_0_0_1_n_n none (extractStridedSlice S3712x3 ![o, 0] X h : FVec Ideal S3712x3 .f32)
        (shapeCast S3x64 Wt shapeCasts_S1x1x3x64_S3x64 : FVec Ideal S3x64 .f32) (constant S3712x64 .f32 0x00000000#32) (ix2 r co)
      = ∑ ci : Fin 3, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x232x3 .f32)

/-- The rows from the second on. -/
theorem pay3_apply (q : Fin 7655) (ci : Fin 3) :
    k1_pay3 xa xb (ix2 q ci) = k1_pay2 xa xb (ix2 (⟨1 + q.val, by omega⟩ : Fin 7656) ci) := by
  unfold k1_pay3
  exact slice2_axis0_apply 1 _ _ q ci _ rfl

/-- The rows from the third on. -/
theorem pay4_apply (q : Fin 7654) (ci : Fin 3) :
    k1_pay4 xa xb (ix2 q ci) = k1_pay2 xa xb (ix2 (⟨2 + q.val, by omega⟩ : Fin 7656) ci) := by
  unfold k1_pay4
  exact slice2_axis0_apply 2 _ _ q ci _ rfl

end Shift

/-! ## The accumulations -/

/-- The first three taps added onto zero. -/
theorem pay5_apply (xa xb : Vec Ideal S1x16x232x3 .f32) (w00 w01 w02 : Vec Ideal S1x1x3x64 .f32) (r : Fin 3712) (co : Fin 64) :
    k1_pay5 xa xb w00 w01 w02 (ix2 r co)
      = 0 + (∑ ci : Fin 3, k1_pay2 xa xb (ix2 (⟨0 + r.val, by omega⟩ : Fin 7656) ci) * w00 (ix4 (0 : Fin 1) (0 : Fin 1) ci co))
          + (∑ ci : Fin 3, k1_pay3 xa xb (ix2 (⟨0 + r.val, by omega⟩ : Fin 7655) ci) * w01 (ix4 (0 : Fin 1) (0 : Fin 1) ci co))
          + (∑ ci : Fin 3, k1_pay4 xa xb (ix2 (⟨0 + r.val, by omega⟩ : Fin 7654) ci) * w02 (ix4 (0 : Fin 1) (0 : Fin 1) ci co)) := by
  unfold k1_pay5
  simp only [addf_apply]
  rw [tap_apply 0 (k1_pay2 xa xb) _ w00 r co (by omega), tap_apply 0 (k1_pay3 xa xb) _ w01 r co (by omega),
    tap_apply 0 (k1_pay4 xa xb) _ w02 r co (by omega)]
  congr 3
  exact Ideal.ofBits_zero_f32

/-- The other six taps and the bias added onto what the first three left. -/
theorem pay8_apply (v7 : FVec Ideal S7656x3 .f32) (v8 : FVec Ideal S7655x3 .f32) (v9 : FVec Ideal S7654x3 .f32)
    (v25 : FVec Ideal S3712x64 .f32) (v26 : FVec Ideal S3712x3 .f32) (v28 : FVec Ideal S3x64 .f32)
    (w11 w12 w20 w21 w22 : Vec Ideal S1x1x3x64 .f32) (b : Vec Ideal S1x64 .f32) (r : Fin 3712) (co : Fin 64) :
    k1_pay8 v7 v8 v9 v25 v26 v28 w11 w12 w20 w21 w22 b (ix2 r co)
      = v25 (ix2 r co) + (∑ ci : Fin 3, v26 (ix2 r ci) * v28 (ix2 ci co))
          + (∑ ci : Fin 3, v8 (ix2 (⟨232 + r.val, by omega⟩ : Fin 7655) ci) * w11 (ix4 (0 : Fin 1) (0 : Fin 1) ci co))
          + (∑ ci : Fin 3, v9 (ix2 (⟨232 + r.val, by omega⟩ : Fin 7654) ci) * w12 (ix4 (0 : Fin 1) (0 : Fin 1) ci co))
          + (∑ ci : Fin 3, v7 (ix2 (⟨464 + r.val, by omega⟩ : Fin 7656) ci) * w20 (ix4 (0 : Fin 1) (0 : Fin 1) ci co))
          + (∑ ci : Fin 3, v8 (ix2 (⟨464 + r.val, by omega⟩ : Fin 7655) ci) * w21 (ix4 (0 : Fin 1) (0 : Fin 1) ci co))
          + (∑ ci : Fin 3, v9 (ix2 (⟨464 + r.val, by omega⟩ : Fin 7654) ci) * w22 (ix4 (0 : Fin 1) (0 : Fin 1) ci co))
          + b (ix2 (0 : Fin 1) co) := by
  unfold k1_pay8
  simp only [addf_apply]
  rw [mm_apply, tap_apply 232 v8 _ w11 r co (by omega), tap_apply 232 v9 _ w12 r co (by omega),
    tap_apply 464 v7 _ w20 r co (by omega), tap_apply 464 v8 _ w21 r co (by omega), tap_apply 464 v9 _ w22 r co (by omega),
    broadcastTo_1b_ab_apply]

/-- The fourth tap's rows and matrix. -/
theorem pay6_apply (xa xb : Vec Ideal S1x16x232x3 .f32) (r : Fin 3712) (ci : Fin 3) :
    k1_pay6 xa xb (ix2 r ci) = k1_pay2 xa xb (ix2 (⟨232 + r.val, by omega⟩ : Fin 7656) ci) := by
  unfold k1_pay6
  exact slice2_axis0_apply 232 _ _ r ci _ rfl

theorem pay7_apply (w10 : Vec Ideal S1x1x3x64 .f32) (ci : Fin 3) (co : Fin 64) :
    k1_pay7 w10 (ix2 ci co) = w10 (ix4 (0 : Fin 1) (0 : Fin 1) ci co) := by
  unfold k1_pay7
  exact tapmat_apply w10 ci co

/-- The clamp and the cut to 224 columns: entry (0, th, w, co) of the tile is row th·232 + w, column co. -/
theorem pay1_apply (v58 v59 : FVec Ideal S3712x64 .f32) (th : Fin 16) (w : Fin 224) (co : Fin 64) :
    k1_pay1 v58 v59 (ix4 (0 : Fin 1) th w co)
      = max (v58 (ix2 (⟨th.val * 232 + w.val, by omega⟩ : Fin 3712) co)) (v59 (ix2 (⟨th.val * 232 + w.val, by omega⟩ : Fin 3712) co)) := by
  unfold k1_pay1
  refine (shapeCast_abc_1abc_apply _ _ (0 : Fin 1) th w co).trans ?_
  refine (slice3_axis1_apply 0 _ _ th w co (⟨w.val, by omega⟩ : Fin 232) (by simp)).trans ?_
  refine (shapeCast_apply _ _ _ (ix2 (⟨th.val * 232 + w.val, by omega⟩ : Fin 3712) co) ?_).trans (maximumf_apply _ _ _)
  rw [Shape.rowMajor_val_two, Shape.rowMajor_val_three]
  rfl

theorem pay9_apply (j : S3712x64.Idx) : k1_pay9 (F := Ideal) j = 0 := by
  unfold k1_pay9
  exact Ideal.ofBits_zero_f32

/-! ## The body's value at an entry -/

section Entry
variable (xa xb : Vec Ideal S1x16x232x3 .f32)

/-- Row (th+dy)·232 + (w+dx) of the stacked rows is pixel (th+dy, w+dx) of the stacked tiles. -/
theorem slab_tap (th : Fin 16) (w : Fin 224) (dy dx : Fin 3) (ci : Fin 3) (q : Fin 7656)
    (hq : q.val = (th.val + dy.val) * 232 + (w.val + dx.val)) :
    k1_pay2 xa xb (ix2 q ci)
      = tiles xa xb (⟨th.val + dy.val, by omega⟩ : Fin 32) (⟨w.val + dx.val, by omega⟩ : Fin 232) ci :=
  slab_apply xa xb _ _ ci q hq

/-- The nine tap matrices as one family. -/
def taps (w00 w01 w02 w10 w11 w12 w20 w21 w22 : Vec Ideal S1x1x3x64 .f32) (dy dx : Fin 3) : Vec Ideal S1x1x3x64 .f32 :=
  ![![w00, w01, w02], ![w10, w11, w12], ![w20, w21, w22]] dy dx

/-- One output entry of the body: the 3×3 correlation of the stacked tiles with the nine tap matrices over the 3
    input channels, plus the bias, clamped below at zero. -/
theorem conv_entry (w00 w01 w02 w10 w11 w12 w20 w21 w22 : Vec Ideal S1x1x3x64 .f32) (b : Vec Ideal S1x64 .f32)
    (th : Fin 16) (w : Fin 224) (co : Fin 64) :
    k1_pay1 (k1_pay8 (k1_pay2 xa xb) (k1_pay3 xa xb) (k1_pay4 xa xb) (k1_pay5 xa xb w00 w01 w02) (k1_pay6 xa xb)
        (k1_pay7 w10) w11 w12 w20 w21 w22 b) k1_pay9 (ix4 (0 : Fin 1) th w co)
      = max ((∑ dy : Fin 3, ∑ dx : Fin 3, ∑ ci : Fin 3,
              tiles xa xb (⟨th.val + dy.val, by omega⟩ : Fin 32) (⟨w.val + dx.val, by omega⟩ : Fin 232) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 3,
      tiles xa xb (⟨th.val + dy.val, by omega⟩ : Fin 32) (⟨w.val + dx.val, by omega⟩ : Fin 232) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg1
-- ==== Proof.RI.Reg1Value.lean ====
import proofs.«143011_g2000502688546152_pallasbulk_1201_3_alg».proof.Proof.RI.Reg1
import proofs.«143011_g2000502688546152_pallasbulk_1201_3_alg».proof.Proof.RI.Reg1Pure

/-! # Region 1 at the extended reals: the output array is the 3×3 correlation, plus bias, clamped at zero

Point t = 14·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg1

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 240, 232, 3], the kernel [3, 3, 3, 64] and the bias [1, 64] as the region finds them. -/
abbrev xp (c : Dev nD) : S16x240x232x3.Idx → EReal := V c (Pipeline.arrRef spec1 0)
abbrev wk (c : Dev nD) : S3x3x3x64.Idx → EReal := V c (Pipeline.arrRef spec1 2)
abbrev bias (c : Dev nD) : S1x64.Idx → EReal := V c (Pipeline.arrRef spec1 3)

/-! ## The grid's points and the windows' block indices -/

theorem N_eq : cfg1.N = 224 := N_1

/-- The image and the row tile of point `t`. -/
def pn (t : Fin cfg1.N) : Fin 16 := ⟨t.val / 14, by have := t.isLt; have := N_eq; omega⟩
def pr (t : Fin cfg1.N) : Fin 14 := ⟨t.val % 14, Nat.mod_lt _ (by decide)⟩

/-- The five windows' block indices at every point: (n, r), (n, r + 1), the origin twice, (n, r). -/
theorem idx_facts : ∀ t : Fin cfg1.N,
    (win1_0.index t 0 = t.val / 14 ∧ win1_0.index t 1 = t.val % 14 ∧ win1_0.index t 2 = 0 ∧ win1_0.index t 3 = 0)
    ∧ (win1_1.index t 0 = t.val / 14 ∧ win1_1.index t 1 = t.val % 14 + 1 ∧ win1_1.index t 2 = 0 ∧ win1_1.index t 3 = 0)
    ∧ (win1_2.index t 0 = 0 ∧ win1_2.index t 1 = 0 ∧ win1_2.index t 2 = 0 ∧ win1_2.index t 3 = 0)
    ∧ (win1_3.index t 0 = 0 ∧ win1_3.index t 1 = 0)
    ∧ (win1_4.index t 0 = t.val / 14 ∧ win1_4.index t 1 = t.val % 14 ∧ win1_4.index t 2 = 0 ∧ win1_4.index t 3 = 0) :=
  (by decide +kernel : ∀ t : Fin grid1.N, _)

/-! ## The windows' blocks read at an index -/

/-- The first input tile at point (n, r): rows 16·r … of image n of the padded input. -/
theorem iblk0_apply (c : Dev nD) (t : Fin cfg1.N) (hh : Fin 16) (w' : Fin 232) (ci : Fin 3) :
    iblk V c 0 t (ix4 (0 : Fin 1) hh w' ci)
      = xp V c (ix4 (pn t) (⟨(pr t).val * 16 + hh.val, by have := (pr t).isLt; omega⟩ : Fin 240) w' ci) := by
  obtain ⟨⟨h0, h1, h2, h3⟩, -⟩ := idx_facts t
  unfold iblk
  rw [View.read_apply]
  show V c (Pipeline.arrRef spec1 0) _ = V c (Pipeline.arrRef spec1 0) _
  congr 1
  funext a
  apply Fin.ext
  match a with
  | ⟨0, _⟩ => show win1_0.index t 0 * 1 + 1 * 0 = t.val / 14; rw [h0]; omega
  | ⟨1, _⟩ => show win1_0.index t 1 * 16 + 1 * hh.val = t.val % 14 * 16 + hh.val; rw [h1]; omega
  | ⟨2, _⟩ => show win1_0.index t 2 * 232 + 1 * w'.val = w'.val; rw [h2]; omega
  | ⟨3, _⟩ => show win1_0.index t 3 * 3 + 1 * ci.val = ci.val; rw [h3]; omega

/-- The second input tile at point (n, r): rows 16·(r + 1) … of image n of the padded input. -/
theorem iblk1_apply (c : Dev nD) (t : Fin cfg1.N) (hh : Fin 16) (w' : Fin 232) (ci : Fin 3) :
    iblk V c 1 t (ix4 (0 : Fin 1) hh w' ci)
      = xp V c (ix4 (pn t) (⟨((pr t).val + 1) * 16 + hh.val, by have := (pr t).isLt; omega⟩ : Fin 240) w' ci) := by
  obtain ⟨-, ⟨h0, h1, h2, h3⟩, -⟩ := idx_facts t
  unfold iblk
  rw [View.read_apply]
  show V c (Pipeline.arrRef spec1 1) _ = V c (Pipeline.arrRef spec1 0) _
  congr 1
  funext a
  apply Fin.ext
  match a with
  | ⟨0, _⟩ => show win1_1.index t 0 * 1 + 1 * 0 = t.val / 14; rw [h0]; omega
  | ⟨1, _⟩ => show win1_1.index t 1 * 16 + 1 * hh.val = (t.val % 14 + 1) * 16 + hh.val; rw [h1]; omega
  | ⟨2, _⟩ => show win1_1.index t 2 * 232 + 1 * w'.val = w'.val; rw [h2]; omega
  | ⟨3, _⟩ => show win1_1.index t 3 * 3 + 1 * ci.val = ci.val; rw [h3]; omega

/-- The kernel window is the whole kernel array at every point. -/
theorem iblk2_apply (c : Dev nD) (t : Fin cfg1.N) (dy dx : Fin 3) (ci : Fin 3) (co : Fin 64) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec1 2) _ = V c (Pipeline.arrRef spec1 2) _
  congr 1
  funext a
  apply Fin.ext
  match a with
  | ⟨0, _⟩ => show win1_2.index t 0 * 3 + 1 * dy.val = dy.val; rw [h0]; omega
  | ⟨1, _⟩ => show win1_2.index t 1 * 3 + 1 * dx.val = dx.val; rw [h1]; omega
  | ⟨2, _⟩ => show win1_2.index t 2 * 3 + 1 * ci.val = ci.val; rw [h2]; omega
  | ⟨3, _⟩ => show win1_2.index t 3 * 64 + 1 * co.val = co.val; rw [h3]; omega

/-- The bias window is the whole bias row at every point. -/
theorem iblk3_apply (c : Dev nD) (t : Fin cfg1.N) (co : Fin 64) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec1 3) _ = V c (Pipeline.arrRef spec1 3) _
  congr 1
  funext a
  apply Fin.ext
  match a with
  | ⟨0, _⟩ => show win1_3.index t 0 * 1 + 1 * 0 = 0; rw [h0]
  | ⟨1, _⟩ => show win1_3.index t 1 * 64 + 1 * co.val = co.val; rw [h1]; omega

/-! ## The whole-array function and what a point writes back -/

/-- The correlation at (n, h, w, co): the sums nest dy, dx, ci. -/
def conv (c : Dev nD) (n : Fin 16) (h : Fin 224) (w : Fin 224) (co : Fin 64) : EReal :=
  max ((∑ dy : Fin 3, ∑ dx : Fin 3, ∑ ci : Fin 3,
          xp V c (ix4 n (⟨h.val + dy.val, by omega⟩ : Fin 240) (⟨w.val + dx.val, by omega⟩ : Fin 232) ci)
            * wk V c (ix4 dy dx ci co))
        + bias V c (ix2 (0 : Fin 1) co)) 0

/-- The output array the region is shown to leave. -/
def G (c : Dev nD) : Buf (Elt Ideal) ((c : Thread nD τ).loc main_v17) :=
  fun i : S16x224x224x64.Idx => conv V c (i 0) (i 1) (i 2) (i 3)

theorem G_apply (c : Dev nD) (i : S16x224x224x64.Idx) : G V c i = conv V c (i 0) (i 1) (i 2) (i 3) := rfl

theorem conv_congr (c : Dev nD) {n n' : Fin 16} {h h' : Fin 224} {w w' : Fin 224} {co co' : Fin 64}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg1.N) (hh : Fin 32) (w' : Fin 232) (ci : Fin 3) :
    tiles (iblk V c 0 t) (iblk V c 1 t) hh w' ci
      = xp V c (ix4 (pn t) (⟨(pr t).val * 16 + hh.val, by have := (pr t).isLt; omega⟩ : Fin 240) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg1.N) (dy dx : Fin 3) (ci : Fin 3) (co : Fin 64) :
    taps (View.ld (iblk V c 2 t) (tapRect 0 0 inb_S3x3x3x64_S1x1x3x64_0_0_0_0))
        (View.ld (iblk V c 2 t) (tapRect 0 1 inb_S3x3x3x64_S1x1x3x64_0_1_0_0))
        (View.ld (iblk V c 2 t) (tapRect 0 2 inb_S3x3x3x64_S1x1x3x64_0_2_0_0))
        (View.ld (iblk V c 2 t) (tapRect 1 0 inb_S3x3x3x64_S1x1x3x64_1_0_0_0))
        (View.ld (iblk V c 2 t) (tapRect 1 1 inb_S3x3x3x64_S1x1x3x64_1_1_0_0))
        (View.ld (iblk V c 2 t) (tapRect 1 2 inb_S3x3x3x64_S1x1x3x64_1_2_0_0))
        (View.ld (iblk V c 2 t) (tapRect 2 0 inb_S3x3x3x64_S1x1x3x64_2_0_0_0))
        (View.ld (iblk V c 2 t) (tapRect 2 1 inb_S3x3x3x64_S1x1x3x64_2_1_0_0))
        (View.ld (iblk V c 2 t) (tapRect 2 2 inb_S3x3x3x64_S1x1x3x64_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x232x3 .f32) (wk' : Vec Ideal S3x3x3x64 .f32) (b : Vec Ideal S1x64 .f32)
    (th : Fin 16) (w : Fin 224) (co : Fin 64) :
    out xa xb wk' b (ix4 (0 : Fin 1) th w co)
      = max ((∑ dy : Fin 3, ∑ dx : Fin 3, ∑ ci : Fin 3,
              tiles xa xb (⟨th.val + dy.val, by omega⟩ : Fin 32) (⟨w.val + dx.val, by omega⟩ : Fin 232) ci
                * taps (View.ld wk' (tapRect 0 0 inb_S3x3x3x64_S1x1x3x64_0_0_0_0))
                    (View.ld wk' (tapRect 0 1 inb_S3x3x3x64_S1x1x3x64_0_1_0_0))
                    (View.ld wk' (tapRect 0 2 inb_S3x3x3x64_S1x1x3x64_0_2_0_0))
                    (View.ld wk' (tapRect 1 0 inb_S3x3x3x64_S1x1x3x64_1_0_0_0))
                    (View.ld wk' (tapRect 1 1 inb_S3x3x3x64_S1x1x3x64_1_1_0_0))
                    (View.ld wk' (tapRect 1 2 inb_S3x3x3x64_S1x1x3x64_1_2_0_0))
                    (View.ld wk' (tapRect 2 0 inb_S3x3x3x64_S1x1x3x64_2_0_0_0))
                    (View.ld wk' (tapRect 2 1 inb_S3x3x3x64_S1x1x3x64_2_1_0_0))
                    (View.ld wk' (tapRect 2 2 inb_S3x3x3x64_S1x1x3x64_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg1.N) :
    (dat V c).flushed 4 t = ((cfg1.win 4).blk t).view.read (Elt Ideal) (G V c) := by
  show (cfg1.win 4).cut (grid1.coords t) ((dat V c).after 4 t) = _
  rw [after_4]
  funext x
  obtain ⟨u, th, w, co, rfl⟩ : ∃ (u : Fin 1) (th : Fin 16) (w : Fin 224) (co : Fin 64), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg1.win 4).blk t).view.emb (ix4 (0 : Fin 1) th w co))
      = conv V c (pn t) (⟨(pr t).val * 16 + th.val, by have := (pr t).isLt; omega⟩ : Fin 224) w co :=
    (G_apply V c _).trans (conv_congr V c
      (Fin.ext (by show win1_4.index t 0 * 1 + 1 * 0 = t.val / 14; rw [h0]; omega))
      (Fin.ext (by show win1_4.index t 1 * 16 + 1 * th.val = t.val % 14 * 16 + th.val; rw [h1]; omega))
      (Fin.ext (by show win1_4.index t 2 * 224 + 1 * w.val = w.val; rw [h2]; omega))
      (Fin.ext (by show win1_4.index t 3 * 64 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg1.N) (i : S16x224x224x64.Idx) :
    i ∈ ((cfg1.win 4).blk t).view.set ↔ (i 0 : Nat) = t.val / 14 ∧ t.val % 14 * 16 ≤ (i 1 : Nat) ∧ (i 1 : Nat) < t.val % 14 * 16 + 16 := by
  show i ∈ ((View.whole main_v17).slice (win1_4.rect t)).set ↔ _
  rw [View.set_slice_whole, Rect.mem_set_unit]
  obtain ⟨-, -, -, -, ⟨h0, h1, h2, h3⟩⟩ := idx_facts t
  have b2 : (i 2 : Nat) < 224 := (i 2).isLt
  have b3 : (i 3 : Nat) < 64 := (i 3).isLt
  have e0 : win1_4.index t 0 * win1_4.size 0 = t.val / 14 := by rw [h0]; show t.val / 14 * 1 = _; omega
  have e1 : win1_4.index t 1 * win1_4.size 1 = t.val % 14 * 16 := by rw [h1]; rfl
  have e2 : win1_4.index t 2 * win1_4.size 2 = 0 := by rw [h2]; rfl
  have e3 : win1_4.index t 3 * win1_4.size 3 = 0 := by rw [h3]; rfl
  have x0 : win1_4.xsize (grid1.coords t) 0 = 1 := rfl
  have x1 : win1_4.xsize (grid1.coords t) 1 = 16 := rfl
  have x2 : win1_4.xsize (grid1.coords t) 2 = 224 := rfl
  have x3 : win1_4.xsize (grid1.coords t) 3 = 64 := rfl
  refine ⟨fun h => ?_, fun h a => ?_⟩
  · have a0 := h 0; have a1 := h 1
    rw [e0, x0] at a0; rw [e1, x1] at a1
    exact ⟨by omega, a1⟩
  · match a with
    | ⟨0, _⟩ => show win1_4.index t 0 * win1_4.size 0 ≤ (i 0 : Nat) ∧ (i 0 : Nat) < win1_4.index t 0 * win1_4.size 0 + win1_4.xsize (grid1.coords t) 0
                rw [e0, x0]; omega
    | ⟨1, _⟩ => show win1_4.index t 1 * win1_4.size 1 ≤ (i 1 : Nat) ∧ (i 1 : Nat) < win1_4.index t 1 * win1_4.size 1 + win1_4.xsize (grid1.coords t) 1
                rw [e1, x1]; exact h.2
    | ⟨2, _⟩ => show win1_4.index t 2 * win1_4.size 2 ≤ (i 2 : Nat) ∧ (i 2 : Nat) < win1_4.index t 2 * win1_4.size 2 + win1_4.xsize (grid1.coords t) 2
                rw [e2, x2]; omega
    | ⟨3, _⟩ => show win1_4.index t 3 * win1_4.size 3 ≤ (i 3 : Nat) ∧ (i 3 : Nat) < win1_4.index t 3 * win1_4.size 3 + win1_4.xsize (grid1.coords t) 3
                rw [e3, x3]; omega

/-- Every index of the output array is in the block of the point of its image and row tile. -/
theorem cover (i : S16x224x224x64.Idx) :
    ∃ t : Fin cfg1.N, (cfg1.win 4).flush t = true ∧ i ∈ ((cfg1.win 4).blk t).view.set := by
  have b0 : (i 0 : Nat) < 16 := (i 0).isLt
  have b1 : (i 1 : Nat) < 224 := (i 1).isLt
  refine ⟨⟨(i 0 : Nat) * 14 + (i 1 : Nat) / 16, by rw [N_eq]; omega⟩, flush1_4 _, ?_⟩
  rw [mem_blk]
  dsimp only
  omega

/-- The output array after the last grid point is `G`. -/
theorem final_out (c : Dev nD) : (dat V c).arrAt 4 cfg1.N = G V c :=
  (dat V c).arrAt_eq_of_cover 4 (G V c) (fun t _ => flushed_eq V c t) cover

/-- The output array after the last grid point: at (n, h, w, co) the 3×3 correlation of the padded input with the
    kernel over the 3 input channels, plus the bias, clamped below at zero. The sums nest dy, dx, ci. -/
theorem out_value (c : Dev nD) (n : Fin 16) (h : Fin 224) (w : Fin 224) (co : Fin 64) :
    (dat V c).arrAt 4 cfg1.N (ix4 n h w co)
      = max ((∑ dy : Fin 3, ∑ dx : Fin 3, ∑ ci : Fin 3,
                xp V c (ix4 n (⟨h.val + dy.val, by omega⟩ : Fin 240) (⟨w.val + dx.val, by omega⟩ : Fin 232) ci)
                  * wk V c (ix4 dy dx ci co))
              + bias V c (ix2 (0 : Fin 1) co)) 0 := by
  rw [final_out]
  rfl

end Cert.ReferenceIdeal.Reg1
-- ==== Proof.RI.Val1.lean ====
import proofs.«143011_g2000502688546152_pallasbulk_1201_3_alg».proof.Proof.RI.Seg1
import proofs.«143011_g2000502688546152_pallasbulk_1201_3_alg».proof.Proof.RI.Reg1Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg1

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 224 224 3)
    (hx : ∀ (n : Fin 16) (i : Fin 240) (j : Fin 232) (ci : Fin 3),
      (W c (Proc.devRef .tc (Pipeline.arrRef spec1 0)) : FVec 𝕀 S16x240x232x3 .f32) (ix4 n i j ci) = Cert.Spec.padAt z n i.val j.val ci) :
    Cert.Spec.curry4 (Wout W c (Proc.devRef .tc (Pipeline.arrRef spec1 4)) : FVec 𝕀 S16x224x224x64 .f32)
      = Cert.Spec.convRelu z (Cert.Spec.curryW (W c (Proc.devRef .tc (Pipeline.arrRef spec1 2)) : FVec 𝕀 S3x3x3x64 .f32))
          (Cert.Spec.curryB (W c (Proc.devRef .tc (Pipeline.arrRef spec1 3)) : FVec 𝕀 S1x64 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg1

end
-- ==== Proof.RI.Reg2Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·232 each, then 232 zero rows), and for each tap (dy, dx)
multiplies the rows shifted by 232·dy + dx with the tap's [64, 64] matrix. Read at row th·232 + w and column co, the nine
products add up to the 3×3 correlation at pixel (th, w), output channel co. -/

set_option maxRecDepth 16384

noncomputable section

namespace Cert.ReferenceIdeal.Reg2

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [3712, 64] by [64, 64] product into the zero accumulator, at (r, co): the sum over the 64 input channels. -/
theorem mm_apply (L : FVec Ideal S3712x64 .f32) (R : FVec Ideal S64x64 .f32) (r : Fin 3712) (co : Fin 64) :
    matmul dot_S3712x64_S64x64_S3712x64_1_0_0_1_n_n none L R (constant S3712x64 .f32 0x00000000#32) (ix2 r co)
      = ∑ ci : Fin 64, L (ix2 r ci) * R (ix2 ci co) := by
  refine (Ideal.matmul_constant_zero_apply _ _ _ _ _).trans ?_
  refine (Equiv.sum_comp (contrEquiv1 dot_S3712x64_S64x64_S3712x64_1_0_0_1_n_n 64 rfl rfl).symm _).symm.trans ?_
  refine Finset.sum_congr rfl fun ci _ => ?_
  have hl : dot_S3712x64_S64x64_S3712x64_1_0_0_1_n_n.lhsIdx (ix2 r co)
      ((contrEquiv1 dot_S3712x64_S64x64_S3712x64_1_0_0_1_n_n 64 rfl rfl).symm ci) = ix2 r ci := by
    funext a; apply Fin.ext
    match a with
    | ⟨0, _⟩ => rfl
    | ⟨1, _⟩ => exact contrEquiv1_symm_val dot_S3712x64_S64x64_S3712x64_1_0_0_1_n_n 64 rfl rfl ci
  have hr : dot_S3712x64_S64x64_S3712x64_1_0_0_1_n_n.rhsIdx (ix2 r co)
      ((contrEquiv1 dot_S3712x64_S64x64_S3712x64_1_0_0_1_n_n 64 rfl rfl).symm ci) = ix2 ci co := by
    funext a; apply Fin.ext
    match a with
    | ⟨0, _⟩ => exact contrEquiv1_symm_val dot_S3712x64_S64x64_S3712x64_1_0_0_1_n_n 64 rfl rfl ci
    | ⟨1, _⟩ => rfl
  rw [hl, hr]

/-! ## The stacked rows -/

section Slab
variable (xa xb : Vec Ideal S1x16x232x64 .f32)

/-- Pixel (hh, w') of the two tiles stacked one above the other, hh < 32. -/
def tiles (hh : Fin 32) (w' : Fin 232) (ci : Fin 64) : EReal :=
  if h : hh.val < 16 then xa (ix4 (0 : Fin 1) (⟨hh.val, h⟩ : Fin 16) w' ci)
  else xb (ix4 (0 : Fin 1) (⟨hh.val - 16, by omega⟩ : Fin 16) w' ci)

/-- Row hh·232 + w' of the first 3712 rows is pixel (hh, w') of the first tile. -/
theorem slab_lo (hh : Fin 16) (w' : Fin 232) (ci : Fin 64) (q : Fin 7656) (hq : q.val = hh.val * 232 + w'.val) :
    k2_pay2 xa xb (ix2 q ci) = xa (ix4 (0 : Fin 1) hh w' ci) := by
  unfold k2_pay2
  have hq' : q.val < 3712 := by have := hh.isLt; have := w'.isLt; omega
  refine Eq.trans (concatenate_apply_piece (0 : Fin 2) _ _ (ix2 q ci) 0 ?_ S3712x64
    (shapeCast S3712x64 (shapeCast S16x232x64 xa shapeCasts_S1x16x232x64_S16x232x64) shapeCasts_S16x232x64_S3712x64) ?_ ?_ 0 ?_
    (ix2 (⟨q.val, hq'⟩ : Fin 3712) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 64 + ci.val = q.val * 64 + ci.val
      rw [hq]
    · rw [Shape.rowMajor_val_four, Shape.rowMajor_val_three]
      show ((0 * 16 + hh.val) * 232 + w'.val) * 64 + ci.val = (hh.val * 232 + w'.val) * 64 + ci.val
      omega

/-- Row 3712 + hh·232 + w' is pixel (hh, w') of the second tile. -/
theorem slab_hi (hh : Fin 16) (w' : Fin 232) (ci : Fin 64) (q : Fin 7656) (hq : q.val = 3712 + (hh.val * 232 + w'.val)) :
    k2_pay2 xa xb (ix2 q ci) = xb (ix4 (0 : Fin 1) hh w' ci) := by
  unfold k2_pay2
  have hq' : q.val - 3712 < 3712 := by have := hh.isLt; have := w'.isLt; omega
  refine Eq.trans (concatenate_apply_piece (0 : Fin 2) _ _ (ix2 q ci) 1 ?_ S3712x64
    (shapeCast S3712x64 (shapeCast S16x232x64 xb shapeCasts_S1x16x232x64_S16x232x64) shapeCasts_S16x232x64_S3712x64) ?_ ?_ 3712 ?_
    (ix2 (⟨q.val - 3712, hq'⟩ : Fin 3712) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 3712 + (q.val - 3712) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 64 + ci.val = (q.val - 3712) * 64 + ci.val
      omega
    · rw [Shape.rowMajor_val_four, Shape.rowMajor_val_three]
      show ((0 * 16 + hh.val) * 232 + w'.val) * 64 + ci.val = (hh.val * 232 + w'.val) * 64 + ci.val
      omega

/-- Row hh·232 + w', hh < 32, of the stacked rows is pixel (hh, w') of the stacked tiles. -/
theorem slab_apply (hh : Fin 32) (w' : Fin 232) (ci : Fin 64) (q : Fin 7656) (hq : q.val = hh.val * 232 + w'.val) :
    k2_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 3712 + ((hh.val - 16) * 232 + w'.val); omega)

end Slab

/-! ## A tap's product read at an entry -/

/-- A tap matrix [1, 1, 64, 64] flattened to [64, 64], at (ci, co). -/
theorem tapmat_apply (Wt : Vec Ideal S1x1x64x64 .f32) (ci : Fin 64) (co : Fin 64) :
    (shapeCast S64x64 Wt shapeCasts_S1x1x64x64_S64x64 : FVec Ideal S64x64 .f32) (ix2 ci co) = Wt (ix4 (0 : Fin 1) (0 : Fin 1) ci co) := by
  refine shapeCast_apply _ _ _ _ ?_
  rw [Shape.rowMajor_val_four, Shape.rowMajor_val_two]
  show ((0 * 1 + 0) * 64 + ci.val) * 64 + co.val = ci.val * 64 + co.val
  omega

/-- Rows o, o+1, … of a matrix of n0 rows against a flattened tap matrix, at (r, co): the sum over the 64 input
    channels of row o + r times the tap's column co. -/
theorem tap_apply {n0 : Nat} (o : Nat) (X : FVec Ideal ⟨2, ![n0, 64]⟩ .f32)
    (h : (⟨2, ![n0, 64]⟩ : Shape).Slices ![o, 0] S3712x64) (Wt : Vec Ideal S1x1x64x64 .f32)
    (r : Fin 3712) (co : Fin 64) (hk : o + 3711 < n0) :
    matmul dot_S3712x64_S64x64_S3712x64_1_0_0_1_n_n none (extractStridedSlice S3712x64 ![o, 0] X h : FVec Ideal S3712x64 .f32)
        (shapeCast S64x64 Wt shapeCasts_S1x1x64x64_S64x64 : FVec Ideal S64x64 .f32) (constant S3712x64 .f32 0x00000000#32) (ix2 r co)
      = ∑ ci : Fin 64, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x232x64 .f32)

/-- The rows from the second on. -/
theorem pay3_apply (q : Fin 7655) (ci : Fin 64) :
    k2_pay3 xa xb (ix2 q ci) = k2_pay2 xa xb (ix2 (⟨1 + q.val, by omega⟩ : Fin 7656) ci) := by
  unfold k2_pay3
  exact slice2_axis0_apply 1 _ _ q ci _ rfl

/-- The rows from the third on. -/
theorem pay4_apply (q : Fin 7654) (ci : Fin 64) :
    k2_pay4 xa xb (ix2 q ci) = k2_pay2 xa xb (ix2 (⟨2 + q.val, by omega⟩ : Fin 7656) ci) := by
  unfold k2_pay4
  exact slice2_axis0_apply 2 _ _ q ci _ rfl

end Shift

/-! ## The accumulations -/

/-- The first three taps added onto zero. -/
theorem pay5_apply (xa xb : Vec Ideal S1x16x232x64 .f32) (w00 w01 w02 : Vec Ideal S1x1x64x64 .f32) (r : Fin 3712) (co : Fin 64) :
    k2_pay5 xa xb w00 w01 w02 (ix2 r co)
      = 0 + (∑ ci : Fin 64, k2_pay2 xa xb (ix2 (⟨0 + r.val, by omega⟩ : Fin 7656) ci) * w00 (ix4 (0 : Fin 1) (0 : Fin 1) ci co))
          + (∑ ci : Fin 64, k2_pay3 xa xb (ix2 (⟨0 + r.val, by omega⟩ : Fin 7655) ci) * w01 (ix4 (0 : Fin 1) (0 : Fin 1) ci co))
          + (∑ ci : Fin 64, k2_pay4 xa xb (ix2 (⟨0 + r.val, by omega⟩ : Fin 7654) ci) * w02 (ix4 (0 : Fin 1) (0 : Fin 1) ci co)) := by
  unfold k2_pay5
  simp only [addf_apply]
  rw [tap_apply 0 (k2_pay2 xa xb) _ w00 r co (by omega), tap_apply 0 (k2_pay3 xa xb) _ w01 r co (by omega),
    tap_apply 0 (k2_pay4 xa xb) _ w02 r co (by omega)]
  congr 3
  exact Ideal.ofBits_zero_f32

/-- The other six taps and the bias added onto what the first three left. -/
theorem pay8_apply (v7 : FVec Ideal S7656x64 .f32) (v8 : FVec Ideal S7655x64 .f32) (v9 : FVec Ideal S7654x64 .f32)
    (v25 : FVec Ideal S3712x64 .f32) (v26 : FVec Ideal S3712x64 .f32) (v28 : FVec Ideal S64x64 .f32)
    (w11 w12 w20 w21 w22 : Vec Ideal S1x1x64x64 .f32) (b : Vec Ideal S1x64 .f32) (r : Fin 3712) (co : Fin 64) :
    k2_pay8 v7 v8 v9 v25 v26 v28 w11 w12 w20 w21 w22 b (ix2 r co)
      = v25 (ix2 r co) + (∑ ci : Fin 64, v26 (ix2 r ci) * v28 (ix2 ci co))
          + (∑ ci : Fin 64, v8 (ix2 (⟨232 + r.val, by omega⟩ : Fin 7655) ci) * w11 (ix4 (0 : Fin 1) (0 : Fin 1) ci co))
          + (∑ ci : Fin 64, v9 (ix2 (⟨232 + r.val, by omega⟩ : Fin 7654) ci) * w12 (ix4 (0 : Fin 1) (0 : Fin 1) ci co))
          + (∑ ci : Fin 64, v7 (ix2 (⟨464 + r.val, by omega⟩ : Fin 7656) ci) * w20 (ix4 (0 : Fin 1) (0 : Fin 1) ci co))
          + (∑ ci : Fin 64, v8 (ix2 (⟨464 + r.val, by omega⟩ : Fin 7655) ci) * w21 (ix4 (0 : Fin 1) (0 : Fin 1) ci co))
          + (∑ ci : Fin 64, v9 (ix2 (⟨464 + r.val, by omega⟩ : Fin 7654) ci) * w22 (ix4 (0 : Fin 1) (0 : Fin 1) ci co))
          + b (ix2 (0 : Fin 1) co) := by
  unfold k2_pay8
  simp only [addf_apply]
  rw [mm_apply, tap_apply 232 v8 _ w11 r co (by omega), tap_apply 232 v9 _ w12 r co (by omega),
    tap_apply 464 v7 _ w20 r co (by omega), tap_apply 464 v8 _ w21 r co (by omega), tap_apply 464 v9 _ w22 r co (by omega),
    broadcastTo_1b_ab_apply]

/-- The fourth tap's rows and matrix. -/
theorem pay6_apply (xa xb : Vec Ideal S1x16x232x64 .f32) (r : Fin 3712) (ci : Fin 64) :
    k2_pay6 xa xb (ix2 r ci) = k2_pay2 xa xb (ix2 (⟨232 + r.val, by omega⟩ : Fin 7656) ci) := by
  unfold k2_pay6
  exact slice2_axis0_apply 232 _ _ r ci _ rfl

theorem pay7_apply (w10 : Vec Ideal S1x1x64x64 .f32) (ci : Fin 64) (co : Fin 64) :
    k2_pay7 w10 (ix2 ci co) = w10 (ix4 (0 : Fin 1) (0 : Fin 1) ci co) := by
  unfold k2_pay7
  exact tapmat_apply w10 ci co

/-- The clamp and the cut to 224 columns: entry (0, th, w, co) of the tile is row th·232 + w, column co. -/
theorem pay1_apply (v58 v59 : FVec Ideal S3712x64 .f32) (th : Fin 16) (w : Fin 224) (co : Fin 64) :
    k2_pay1 v58 v59 (ix4 (0 : Fin 1) th w co)
      = max (v58 (ix2 (⟨th.val * 232 + w.val, by omega⟩ : Fin 3712) co)) (v59 (ix2 (⟨th.val * 232 + w.val, by omega⟩ : Fin 3712) co)) := by
  unfold k2_pay1
  refine (shapeCast_abc_1abc_apply _ _ (0 : Fin 1) th w co).trans ?_
  refine (slice3_axis1_apply 0 _ _ th w co (⟨w.val, by omega⟩ : Fin 232) (by simp)).trans ?_
  refine (shapeCast_apply _ _ _ (ix2 (⟨th.val * 232 + w.val, by omega⟩ : Fin 3712) co) ?_).trans (maximumf_apply _ _ _)
  rw [Shape.rowMajor_val_two, Shape.rowMajor_val_three]
  rfl

theorem pay9_apply (j : S3712x64.Idx) : k2_pay9 (F := Ideal) j = 0 := by
  unfold k2_pay9
  exact Ideal.ofBits_zero_f32

/-! ## The body's value at an entry -/

section Entry
variable (xa xb : Vec Ideal S1x16x232x64 .f32)

/-- Row (th+dy)·232 + (w+dx) of the stacked rows is pixel (th+dy, w+dx) of the stacked tiles. -/
theorem slab_tap (th : Fin 16) (w : Fin 224) (dy dx : Fin 3) (ci : Fin 64) (q : Fin 7656)
    (hq : q.val = (th.val + dy.val) * 232 + (w.val + dx.val)) :
    k2_pay2 xa xb (ix2 q ci)
      = tiles xa xb (⟨th.val + dy.val, by omega⟩ : Fin 32) (⟨w.val + dx.val, by omega⟩ : Fin 232) ci :=
  slab_apply xa xb _ _ ci q hq

/-- The nine tap matrices as one family. -/
def taps (w00 w01 w02 w10 w11 w12 w20 w21 w22 : Vec Ideal S1x1x64x64 .f32) (dy dx : Fin 3) : Vec Ideal S1x1x64x64 .f32 :=
  ![![w00, w01, w02], ![w10, w11, w12], ![w20, w21, w22]] dy dx

/-- One output entry of the body: the 3×3 correlation of the stacked tiles with the nine tap matrices over the 64
    input channels, plus the bias, clamped below at zero. -/
theorem conv_entry (w00 w01 w02 w10 w11 w12 w20 w21 w22 : Vec Ideal S1x1x64x64 .f32) (b : Vec Ideal S1x64 .f32)
    (th : Fin 16) (w : Fin 224) (co : Fin 64) :
    k2_pay1 (k2_pay8 (k2_pay2 xa xb) (k2_pay3 xa xb) (k2_pay4 xa xb) (k2_pay5 xa xb w00 w01 w02) (k2_pay6 xa xb)
        (k2_pay7 w10) w11 w12 w20 w21 w22 b) k2_pay9 (ix4 (0 : Fin 1) th w co)
      = max ((∑ dy : Fin 3, ∑ dx : Fin 3, ∑ ci : Fin 64,
              tiles xa xb (⟨th.val + dy.val, by omega⟩ : Fin 32) (⟨w.val + dx.val, by omega⟩ : Fin 232) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 64,
      tiles xa xb (⟨th.val + dy.val, by omega⟩ : Fin 32) (⟨w.val + dx.val, by omega⟩ : Fin 232) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg2
-- ==== Proof.RI.Reg2Value.lean ====
import proofs.«143011_g2000502688546152_pallasbulk_1201_3_alg».proof.Proof.RI.Reg2
import proofs.«143011_g2000502688546152_pallasbulk_1201_3_alg».proof.Proof.RI.Reg2Pure

/-! # Region 2 at the extended reals: the output array is the 3×3 correlation, plus bias, clamped at zero

Point t = 14·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg2

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 240, 232, 64], the kernel [3, 3, 64, 64] and the bias [1, 64] as the region finds them. -/
abbrev xp (c : Dev nD) : S16x240x232x64.Idx → EReal := V c (Pipeline.arrRef spec2 0)
abbrev wk (c : Dev nD) : S3x3x64x64.Idx → EReal := V c (Pipeline.arrRef spec2 2)
abbrev bias (c : Dev nD) : S1x64.Idx → EReal := V c (Pipeline.arrRef spec2 3)

/-! ## The grid's points and the windows' block indices -/

theorem N_eq : cfg2.N = 224 := N_2

/-- The image and the row tile of point `t`. -/
def pn (t : Fin cfg2.N) : Fin 16 := ⟨t.val / 14, by have := t.isLt; have := N_eq; omega⟩
def pr (t : Fin cfg2.N) : Fin 14 := ⟨t.val % 14, Nat.mod_lt _ (by decide)⟩

/-- The five windows' block indices at every point: (n, r), (n, r + 1), the origin twice, (n, r). -/
theorem idx_facts : ∀ t : Fin cfg2.N,
    (win2_0.index t 0 = t.val / 14 ∧ win2_0.index t 1 = t.val % 14 ∧ win2_0.index t 2 = 0 ∧ win2_0.index t 3 = 0)
    ∧ (win2_1.index t 0 = t.val / 14 ∧ win2_1.index t 1 = t.val % 14 + 1 ∧ win2_1.index t 2 = 0 ∧ win2_1.index t 3 = 0)
    ∧ (win2_2.index t 0 = 0 ∧ win2_2.index t 1 = 0 ∧ win2_2.index t 2 = 0 ∧ win2_2.index t 3 = 0)
    ∧ (win2_3.index t 0 = 0 ∧ win2_3.index t 1 = 0)
    ∧ (win2_4.index t 0 = t.val / 14 ∧ win2_4.index t 1 = t.val % 14 ∧ win2_4.index t 2 = 0 ∧ win2_4.index t 3 = 0) :=
  (by decide +kernel : ∀ t : Fin grid2.N, _)

/-! ## The windows' blocks read at an index -/

/-- The first input tile at point (n, r): rows 16·r … of image n of the padded input. -/
theorem iblk0_apply (c : Dev nD) (t : Fin cfg2.N) (hh : Fin 16) (w' : Fin 232) (ci : Fin 64) :
    iblk V c 0 t (ix4 (0 : Fin 1) hh w' ci)
      = xp V c (ix4 (pn t) (⟨(pr t).val * 16 + hh.val, by have := (pr t).isLt; omega⟩ : Fin 240) w' ci) := by
  obtain ⟨⟨h0, h1, h2, h3⟩, -⟩ := idx_facts t
  unfold iblk
  rw [View.read_apply]
  show V c (Pipeline.arrRef spec2 0) _ = V c (Pipeline.arrRef spec2 0) _
  congr 1
  funext a
  apply Fin.ext
  match a with
  | ⟨0, _⟩ => show win2_0.index t 0 * 1 + 1 * 0 = t.val / 14; rw [h0]; omega
  | ⟨1, _⟩ => show win2_0.index t 1 * 16 + 1 * hh.val = t.val % 14 * 16 + hh.val; rw [h1]; omega
  | ⟨2, _⟩ => show win2_0.index t 2 * 232 + 1 * w'.val = w'.val; rw [h2]; omega
  | ⟨3, _⟩ => show win2_0.index t 3 * 64 + 1 * ci.val = ci.val; rw [h3]; omega

/-- The second input tile at point (n, r): rows 16·(r + 1) … of image n of the padded input. -/
theorem iblk1_apply (c : Dev nD) (t : Fin cfg2.N) (hh : Fin 16) (w' : Fin 232) (ci : Fin 64) :
    iblk V c 1 t (ix4 (0 : Fin 1) hh w' ci)
      = xp V c (ix4 (pn t) (⟨((pr t).val + 1) * 16 + hh.val, by have := (pr t).isLt; omega⟩ : Fin 240) w' ci) := by
  obtain ⟨-, ⟨h0, h1, h2, h3⟩, -⟩ := idx_facts t
  unfold iblk
  rw [View.read_apply]
  show V c (Pipeline.arrRef spec2 1) _ = V c (Pipeline.arrRef spec2 0) _
  congr 1
  funext a
  apply Fin.ext
  match a with
  | ⟨0, _⟩ => show win2_1.index t 0 * 1 + 1 * 0 = t.val / 14; rw [h0]; omega
  | ⟨1, _⟩ => show win2_1.index t 1 * 16 + 1 * hh.val = (t.val % 14 + 1) * 16 + hh.val; rw [h1]; omega
  | ⟨2, _⟩ => show win2_1.index t 2 * 232 + 1 * w'.val = w'.val; rw [h2]; omega
  | ⟨3, _⟩ => show win2_1.index t 3 * 64 + 1 * ci.val = ci.val; rw [h3]; omega

/-- The kernel window is the whole kernel array at every point. -/
theorem iblk2_apply (c : Dev nD) (t : Fin cfg2.N) (dy dx : Fin 3) (ci : Fin 64) (co : Fin 64) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec2 2) _ = V c (Pipeline.arrRef spec2 2) _
  congr 1
  funext a
  apply Fin.ext
  match a with
  | ⟨0, _⟩ => show win2_2.index t 0 * 3 + 1 * dy.val = dy.val; rw [h0]; omega
  | ⟨1, _⟩ => show win2_2.index t 1 * 3 + 1 * dx.val = dx.val; rw [h1]; omega
  | ⟨2, _⟩ => show win2_2.index t 2 * 64 + 1 * ci.val = ci.val; rw [h2]; omega
  | ⟨3, _⟩ => show win2_2.index t 3 * 64 + 1 * co.val = co.val; rw [h3]; omega

/-- The bias window is the whole bias row at every point. -/
theorem iblk3_apply (c : Dev nD) (t : Fin cfg2.N) (co : Fin 64) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec2 3) _ = V c (Pipeline.arrRef spec2 3) _
  congr 1
  funext a
  apply Fin.ext
  match a with
  | ⟨0, _⟩ => show win2_3.index t 0 * 1 + 1 * 0 = 0; rw [h0]
  | ⟨1, _⟩ => show win2_3.index t 1 * 64 + 1 * co.val = co.val; rw [h1]; omega

/-! ## The whole-array function and what a point writes back -/

/-- The correlation at (n, h, w, co): the sums nest dy, dx, ci. -/
def conv (c : Dev nD) (n : Fin 16) (h : Fin 224) (w : Fin 224) (co : Fin 64) : EReal :=
  max ((∑ dy : Fin 3, ∑ dx : Fin 3, ∑ ci : Fin 64,
          xp V c (ix4 n (⟨h.val + dy.val, by omega⟩ : Fin 240) (⟨w.val + dx.val, by omega⟩ : Fin 232) ci)
            * wk V c (ix4 dy dx ci co))
        + bias V c (ix2 (0 : Fin 1) co)) 0

/-- The output array the region is shown to leave. -/
def G (c : Dev nD) : Buf (Elt Ideal) ((c : Thread nD τ).loc main_v19) :=
  fun i : S16x224x224x64.Idx => conv V c (i 0) (i 1) (i 2) (i 3)

theorem G_apply (c : Dev nD) (i : S16x224x224x64.Idx) : G V c i = conv V c (i 0) (i 1) (i 2) (i 3) := rfl

theorem conv_congr (c : Dev nD) {n n' : Fin 16} {h h' : Fin 224} {w w' : Fin 224} {co co' : Fin 64}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg2.N) (hh : Fin 32) (w' : Fin 232) (ci : Fin 64) :
    tiles (iblk V c 0 t) (iblk V c 1 t) hh w' ci
      = xp V c (ix4 (pn t) (⟨(pr t).val * 16 + hh.val, by have := (pr t).isLt; omega⟩ : Fin 240) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg2.N) (dy dx : Fin 3) (ci : Fin 64) (co : Fin 64) :
    taps (View.ld (iblk V c 2 t) (tapRect 0 0 inb_S3x3x64x64_S1x1x64x64_0_0_0_0))
        (View.ld (iblk V c 2 t) (tapRect 0 1 inb_S3x3x64x64_S1x1x64x64_0_1_0_0))
        (View.ld (iblk V c 2 t) (tapRect 0 2 inb_S3x3x64x64_S1x1x64x64_0_2_0_0))
        (View.ld (iblk V c 2 t) (tapRect 1 0 inb_S3x3x64x64_S1x1x64x64_1_0_0_0))
        (View.ld (iblk V c 2 t) (tapRect 1 1 inb_S3x3x64x64_S1x1x64x64_1_1_0_0))
        (View.ld (iblk V c 2 t) (tapRect 1 2 inb_S3x3x64x64_S1x1x64x64_1_2_0_0))
        (View.ld (iblk V c 2 t) (tapRect 2 0 inb_S3x3x64x64_S1x1x64x64_2_0_0_0))
        (View.ld (iblk V c 2 t) (tapRect 2 1 inb_S3x3x64x64_S1x1x64x64_2_1_0_0))
        (View.ld (iblk V c 2 t) (tapRect 2 2 inb_S3x3x64x64_S1x1x64x64_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x232x64 .f32) (wk' : Vec Ideal S3x3x64x64 .f32) (b : Vec Ideal S1x64 .f32)
    (th : Fin 16) (w : Fin 224) (co : Fin 64) :
    out xa xb wk' b (ix4 (0 : Fin 1) th w co)
      = max ((∑ dy : Fin 3, ∑ dx : Fin 3, ∑ ci : Fin 64,
              tiles xa xb (⟨th.val + dy.val, by omega⟩ : Fin 32) (⟨w.val + dx.val, by omega⟩ : Fin 232) ci
                * taps (View.ld wk' (tapRect 0 0 inb_S3x3x64x64_S1x1x64x64_0_0_0_0))
                    (View.ld wk' (tapRect 0 1 inb_S3x3x64x64_S1x1x64x64_0_1_0_0))
                    (View.ld wk' (tapRect 0 2 inb_S3x3x64x64_S1x1x64x64_0_2_0_0))
                    (View.ld wk' (tapRect 1 0 inb_S3x3x64x64_S1x1x64x64_1_0_0_0))
                    (View.ld wk' (tapRect 1 1 inb_S3x3x64x64_S1x1x64x64_1_1_0_0))
                    (View.ld wk' (tapRect 1 2 inb_S3x3x64x64_S1x1x64x64_1_2_0_0))
                    (View.ld wk' (tapRect 2 0 inb_S3x3x64x64_S1x1x64x64_2_0_0_0))
                    (View.ld wk' (tapRect 2 1 inb_S3x3x64x64_S1x1x64x64_2_1_0_0))
                    (View.ld wk' (tapRect 2 2 inb_S3x3x64x64_S1x1x64x64_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg2.N) :
    (dat V c).flushed 4 t = ((cfg2.win 4).blk t).view.read (Elt Ideal) (G V c) := by
  show (cfg2.win 4).cut (grid2.coords t) ((dat V c).after 4 t) = _
  rw [after_4]
  funext x
  obtain ⟨u, th, w, co, rfl⟩ : ∃ (u : Fin 1) (th : Fin 16) (w : Fin 224) (co : Fin 64), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg2.win 4).blk t).view.emb (ix4 (0 : Fin 1) th w co))
      = conv V c (pn t) (⟨(pr t).val * 16 + th.val, by have := (pr t).isLt; omega⟩ : Fin 224) w co :=
    (G_apply V c _).trans (conv_congr V c
      (Fin.ext (by show win2_4.index t 0 * 1 + 1 * 0 = t.val / 14; rw [h0]; omega))
      (Fin.ext (by show win2_4.index t 1 * 16 + 1 * th.val = t.val % 14 * 16 + th.val; rw [h1]; omega))
      (Fin.ext (by show win2_4.index t 2 * 224 + 1 * w.val = w.val; rw [h2]; omega))
      (Fin.ext (by show win2_4.index t 3 * 64 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg2.N) (i : S16x224x224x64.Idx) :
    i ∈ ((cfg2.win 4).blk t).view.set ↔ (i 0 : Nat) = t.val / 14 ∧ t.val % 14 * 16 ≤ (i 1 : Nat) ∧ (i 1 : Nat) < t.val % 14 * 16 + 16 := by
  show i ∈ ((View.whole main_v19).slice (win2_4.rect t)).set ↔ _
  rw [View.set_slice_whole, Rect.mem_set_unit]
  obtain ⟨-, -, -, -, ⟨h0, h1, h2, h3⟩⟩ := idx_facts t
  have b2 : (i 2 : Nat) < 224 := (i 2).isLt
  have b3 : (i 3 : Nat) < 64 := (i 3).isLt
  have e0 : win2_4.index t 0 * win2_4.size 0 = t.val / 14 := by rw [h0]; show t.val / 14 * 1 = _; omega
  have e1 : win2_4.index t 1 * win2_4.size 1 = t.val % 14 * 16 := by rw [h1]; rfl
  have e2 : win2_4.index t 2 * win2_4.size 2 = 0 := by rw [h2]; rfl
  have e3 : win2_4.index t 3 * win2_4.size 3 = 0 := by rw [h3]; rfl
  have x0 : win2_4.xsize (grid2.coords t) 0 = 1 := rfl
  have x1 : win2_4.xsize (grid2.coords t) 1 = 16 := rfl
  have x2 : win2_4.xsize (grid2.coords t) 2 = 224 := rfl
  have x3 : win2_4.xsize (grid2.coords t) 3 = 64 := rfl
  refine ⟨fun h => ?_, fun h a => ?_⟩
  · have a0 := h 0; have a1 := h 1
    rw [e0, x0] at a0; rw [e1, x1] at a1
    exact ⟨by omega, a1⟩
  · match a with
    | ⟨0, _⟩ => show win2_4.index t 0 * win2_4.size 0 ≤ (i 0 : Nat) ∧ (i 0 : Nat) < win2_4.index t 0 * win2_4.size 0 + win2_4.xsize (grid2.coords t) 0
                rw [e0, x0]; omega
    | ⟨1, _⟩ => show win2_4.index t 1 * win2_4.size 1 ≤ (i 1 : Nat) ∧ (i 1 : Nat) < win2_4.index t 1 * win2_4.size 1 + win2_4.xsize (grid2.coords t) 1
                rw [e1, x1]; exact h.2
    | ⟨2, _⟩ => show win2_4.index t 2 * win2_4.size 2 ≤ (i 2 : Nat) ∧ (i 2 : Nat) < win2_4.index t 2 * win2_4.size 2 + win2_4.xsize (grid2.coords t) 2
                rw [e2, x2]; omega
    | ⟨3, _⟩ => show win2_4.index t 3 * win2_4.size 3 ≤ (i 3 : Nat) ∧ (i 3 : Nat) < win2_4.index t 3 * win2_4.size 3 + win2_4.xsize (grid2.coords t) 3
                rw [e3, x3]; omega

/-- Every index of the output array is in the block of the point of its image and row tile. -/
theorem cover (i : S16x224x224x64.Idx) :
    ∃ t : Fin cfg2.N, (cfg2.win 4).flush t = true ∧ i ∈ ((cfg2.win 4).blk t).view.set := by
  have b0 : (i 0 : Nat) < 16 := (i 0).isLt
  have b1 : (i 1 : Nat) < 224 := (i 1).isLt
  refine ⟨⟨(i 0 : Nat) * 14 + (i 1 : Nat) / 16, by rw [N_eq]; omega⟩, flush2_4 _, ?_⟩
  rw [mem_blk]
  dsimp only
  omega

/-- The output array after the last grid point is `G`. -/
theorem final_out (c : Dev nD) : (dat V c).arrAt 4 cfg2.N = G V c :=
  (dat V c).arrAt_eq_of_cover 4 (G V c) (fun t _ => flushed_eq V c t) cover

/-- The output array after the last grid point: at (n, h, w, co) the 3×3 correlation of the padded input with the
    kernel over the 64 input channels, plus the bias, clamped below at zero. The sums nest dy, dx, ci. -/
theorem out_value (c : Dev nD) (n : Fin 16) (h : Fin 224) (w : Fin 224) (co : Fin 64) :
    (dat V c).arrAt 4 cfg2.N (ix4 n h w co)
      = max ((∑ dy : Fin 3, ∑ dx : Fin 3, ∑ ci : Fin 64,
                xp V c (ix4 n (⟨h.val + dy.val, by omega⟩ : Fin 240) (⟨w.val + dx.val, by omega⟩ : Fin 232) ci)
                  * wk V c (ix4 dy dx ci co))
              + bias V c (ix2 (0 : Fin 1) co)) 0 := by
  rw [final_out]
  rfl

end Cert.ReferenceIdeal.Reg2
-- ==== Proof.RI.Val2.lean ====
import proofs.«143011_g2000502688546152_pallasbulk_1201_3_alg».proof.Proof.RI.Seg2
import proofs.«143011_g2000502688546152_pallasbulk_1201_3_alg».proof.Proof.RI.Reg2Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg2

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 224 224 64)
    (hx : ∀ (n : Fin 16) (i : Fin 240) (j : Fin 232) (ci : Fin 64),
      (W c (Proc.devRef .tc (Pipeline.arrRef spec2 0)) : FVec 𝕀 S16x240x232x64 .f32) (ix4 n i j ci) = Cert.Spec.padAt z n i.val j.val ci) :
    Cert.Spec.curry4 (Wout W c (Proc.devRef .tc (Pipeline.arrRef spec2 4)) : FVec 𝕀 S16x224x224x64 .f32)
      = Cert.Spec.convRelu z (Cert.Spec.curryW (W c (Proc.devRef .tc (Pipeline.arrRef spec2 2)) : FVec 𝕀 S3x3x64x64 .f32))
          (Cert.Spec.curryB (W c (Proc.devRef .tc (Pipeline.arrRef spec2 3)) : FVec 𝕀 S1x64 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg2

end
-- ==== Proof.RI.Reg3Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·232 each, then 232 zero rows), and for each tap (dy, dx)
multiplies the rows shifted by 232·dy + dx with the tap's [64, 64] matrix. Read at row th·232 + w and column co, the nine
products add up to the 3×3 correlation at pixel (th, w), output channel co. -/

set_option maxRecDepth 16384

noncomputable section

namespace Cert.ReferenceIdeal.Reg3

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [3712, 64] by [64, 64] product into the zero accumulator, at (r, co): the sum over the 64 input channels. -/
theorem mm_apply (L : FVec Ideal S3712x64 .f32) (R : FVec Ideal S64x64 .f32) (r : Fin 3712) (co : Fin 64) :
    matmul dot_S3712x64_S64x64_S3712x64_1_0_0_1_n_n none L R (constant S3712x64 .f32 0x00000000#32) (ix2 r co)
      = ∑ ci : Fin 64, L (ix2 r ci) * R (ix2 ci co) := by
  refine (Ideal.matmul_constant_zero_apply _ _ _ _ _).trans ?_
  refine (Equiv.sum_comp (contrEquiv1 dot_S3712x64_S64x64_S3712x64_1_0_0_1_n_n 64 rfl rfl).symm _).symm.trans ?_
  refine Finset.sum_congr rfl fun ci _ => ?_
  have hl : dot_S3712x64_S64x64_S3712x64_1_0_0_1_n_n.lhsIdx (ix2 r co)
      ((contrEquiv1 dot_S3712x64_S64x64_S3712x64_1_0_0_1_n_n 64 rfl rfl).symm ci) = ix2 r ci := by
    funext a; apply Fin.ext
    match a with
    | ⟨0, _⟩ => rfl
    | ⟨1, _⟩ => exact contrEquiv1_symm_val dot_S3712x64_S64x64_S3712x64_1_0_0_1_n_n 64 rfl rfl ci
  have hr : dot_S3712x64_S64x64_S3712x64_1_0_0_1_n_n.rhsIdx (ix2 r co)
      ((contrEquiv1 dot_S3712x64_S64x64_S3712x64_1_0_0_1_n_n 64 rfl rfl).symm ci) = ix2 ci co := by
    funext a; apply Fin.ext
    match a with
    | ⟨0, _⟩ => exact contrEquiv1_symm_val dot_S3712x64_S64x64_S3712x64_1_0_0_1_n_n 64 rfl rfl ci
    | ⟨1, _⟩ => rfl
  rw [hl, hr]

/-! ## The stacked rows -/

section Slab
variable (xa xb : Vec Ideal S1x16x232x64 .f32)

/-- Pixel (hh, w') of the two tiles stacked one above the other, hh < 32. -/
def tiles (hh : Fin 32) (w' : Fin 232) (ci : Fin 64) : EReal :=
  if h : hh.val < 16 then xa (ix4 (0 : Fin 1) (⟨hh.val, h⟩ : Fin 16) w' ci)
  else xb (ix4 (0 : Fin 1) (⟨hh.val - 16, by omega⟩ : Fin 16) w' ci)

/-- Row hh·232 + w' of the first 3712 rows is pixel (hh, w') of the first tile. -/
theorem slab_lo (hh : Fin 16) (w' : Fin 232) (ci : Fin 64) (q : Fin 7656) (hq : q.val = hh.val * 232 + w'.val) :
    k3_pay2 xa xb (ix2 q ci) = xa (ix4 (0 : Fin 1) hh w' ci) := by
  unfold k3_pay2
  have hq' : q.val < 3712 := by have := hh.isLt; have := w'.isLt; omega
  refine Eq.trans (concatenate_apply_piece (0 : Fin 2) _ _ (ix2 q ci) 0 ?_ S3712x64
    (shapeCast S3712x64 (shapeCast S16x232x64 xa shapeCasts_S1x16x232x64_S16x232x64) shapeCasts_S16x232x64_S3712x64) ?_ ?_ 0 ?_
    (ix2 (⟨q.val, hq'⟩ : Fin 3712) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 64 + ci.val = q.val * 64 + ci.val
      rw [hq]
    · rw [Shape.rowMajor_val_four, Shape.rowMajor_val_three]
      show ((0 * 16 + hh.val) * 232 + w'.val) * 64 + ci.val = (hh.val * 232 + w'.val) * 64 + ci.val
      omega

/-- Row 3712 + hh·232 + w' is pixel (hh, w') of the second tile. -/
theorem slab_hi (hh : Fin 16) (w' : Fin 232) (ci : Fin 64) (q : Fin 7656) (hq : q.val = 3712 + (hh.val * 232 + w'.val)) :
    k3_pay2 xa xb (ix2 q ci) = xb (ix4 (0 : Fin 1) hh w' ci) := by
  unfold k3_pay2
  have hq' : q.val - 3712 < 3712 := by have := hh.isLt; have := w'.isLt; omega
  refine Eq.trans (concatenate_apply_piece (0 : Fin 2) _ _ (ix2 q ci) 1 ?_ S3712x64
    (shapeCast S3712x64 (shapeCast S16x232x64 xb shapeCasts_S1x16x232x64_S16x232x64) shapeCasts_S16x232x64_S3712x64) ?_ ?_ 3712 ?_
    (ix2 (⟨q.val - 3712, hq'⟩ : Fin 3712) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 3712 + (q.val - 3712) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 232 + w'.val) * 64 + ci.val = (q.val - 3712) * 64 + ci.val
      omega
    · rw [Shape.rowMajor_val_four, Shape.rowMajor_val_three]
      show ((0 * 16 + hh.val) * 232 + w'.val) * 64 + ci.val = (hh.val * 232 + w'.val) * 64 + ci.val
      omega

/-- Row hh·232 + w', hh < 32, of the stacked rows is pixel (hh, w') of the stacked tiles. -/
theorem slab_apply (hh : Fin 32) (w' : Fin 232) (ci : Fin 64) (q : Fin 7656) (hq : q.val = hh.val * 232 + w'.val) :
    k3_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 3712 + ((hh.val - 16) * 232 + w'.val); omega)

end Slab

/-! ## A tap's product read at an entry -/

/-- A tap matrix [1, 1, 64, 64] flattened to [64, 64], at (ci, co). -/
theorem tapmat_apply (Wt : Vec Ideal S1x1x64x64 .f32) (ci : Fin 64) (co : Fin 64) :
    (shapeCast S64x64 Wt shapeCasts_S1x1x64x64_S64x64 : FVec Ideal S64x64 .f32) (ix2 ci co) = Wt (ix4 (0 : Fin 1) (0 : Fin 1) ci co) := by
  refine shapeCast_apply _ _ _ _ ?_
  rw [Shape.rowMajor_val_four, Shape.rowMajor_val_two]
  show ((0 * 1 + 0) * 64 + ci.val) * 64 + co.val = ci.val * 64 + co.val
  omega

/-- Rows o, o+1, … of a matrix of n0 rows against a flattened tap matrix, at (r, co): the sum over the 64 input
    channels of row o + r times the tap's column co. -/
theorem tap_apply {n0 : Nat} (o : Nat) (X : FVec Ideal ⟨2, ![n0, 64]⟩ .f32)
    (h : (⟨2, ![n0, 64]⟩ : Shape).Slices ![o, 0] S3712x64) (Wt : Vec Ideal S1x1x64x64 .f32)
    (r : Fin 3712) (co : Fin 64) (hk : o + 3711 < n0) :
    matmul dot_S3712x64_S64x64_S3712x64_1_0_0_1_n_n none (extractStridedSlice S3712x64 ![o, 0] X h : FVec Ideal S3712x64 .f32)
        (shapeCast S64x64 Wt shapeCasts_S1x1x64x64_S64x64 : FVec Ideal S64x64 .f32) (constant S3712x64 .f32 0x00000000#32) (ix2 r co)
      = ∑ ci : Fin 64, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x232x64 .f32)

/-- The rows from the second on. -/
theorem pay3_apply (q : Fin 7655) (ci : Fin 64) :
    k3_pay3 xa xb (ix2 q ci) = k3_pay2 xa xb (ix2 (⟨1 + q.val, by omega⟩ : Fin 7656) ci) := by
  unfold k3_pay3
  exact slice2_axis0_apply 1 _ _ q ci _ rfl

/-- The rows from the third on. -/
theorem pay4_apply (q : Fin 7654) (ci : Fin 64) :
    k3_pay4 xa xb (ix2 q ci) = k3_pay2 xa xb (ix2 (⟨2 + q.val, by omega⟩ : Fin 7656) ci) := by
  unfold k3_pay4
  exact slice2_axis0_apply 2 _ _ q ci _ rfl

end Shift

/-! ## The accumulations -/

/-- The first three taps added onto zero. -/
theorem pay5_apply (xa xb : Vec Ideal S1x16x232x64 .f32) (w00 w01 w02 : Vec Ideal S1x1x64x64 .f32) (r : Fin 3712) (co : Fin 64) :
    k3_pay5 xa xb w00 w01 w02 (ix2 r co)
      = 0 + (∑ ci : Fin 64, k3_pay2 xa xb (ix2 (⟨0 + r.val, by omega⟩ : Fin 7656) ci) * w00 (ix4 (0 : Fin 1) (0 : Fin 1) ci co))
          + (∑ ci : Fin 64, k3_pay3 xa xb (ix2 (⟨0 + r.val, by omega⟩ : Fin 7655) ci) * w01 (ix4 (0 : Fin 1) (0 : Fin 1) ci co))
          + (∑ ci : Fin 64, k3_pay4 xa xb (ix2 (⟨0 + r.val, by omega⟩ : Fin 7654) ci) * w02 (ix4 (0 : Fin 1) (0 : Fin 1) ci co)) := by
  unfold k3_pay5
  simp only [addf_apply]
  rw [tap_apply 0 (k3_pay2 xa xb) _ w00 r co (by omega), tap_apply 0 (k3_pay3 xa xb) _ w01 r co (by omega),
    tap_apply 0 (k3_pay4 xa xb) _ w02 r co (by omega)]
  congr 3
  exact Ideal.ofBits_zero_f32

/-- The other six taps and the bias added onto what the first three left. -/
theorem pay8_apply (v7 : FVec Ideal S7656x64 .f32) (v8 : FVec Ideal S7655x64 .f32) (v9 : FVec Ideal S7654x64 .f32)
    (v25 : FVec Ideal S3712x64 .f32) (v26 : FVec Ideal S3712x64 .f32) (v28 : FVec Ideal S64x64 .f32)
    (w11 w12 w20 w21 w22 : Vec Ideal S1x1x64x64 .f32) (b : Vec Ideal S1x64 .f32) (r : Fin 3712) (co : Fin 64) :
    k3_pay8 v7 v8 v9 v25 v26 v28 w11 w12 w20 w21 w22 b (ix2 r co)
      = v25 (ix2 r co) + (∑ ci : Fin 64, v26 (ix2 r ci) * v28 (ix2 ci co))
          + (∑ ci : Fin 64, v8 (ix2 (⟨232 + r.val, by omega⟩ : Fin 7655) ci) * w11 (ix4 (0 : Fin 1) (0 : Fin 1) ci co))
          + (∑ ci : Fin 64, v9 (ix2 (⟨232 + r.val, by omega⟩ : Fin 7654) ci) * w12 (ix4 (0 : Fin 1) (0 : Fin 1) ci co))
          + (∑ ci : Fin 64, v7 (ix2 (⟨464 + r.val, by omega⟩ : Fin 7656) ci) * w20 (ix4 (0 : Fin 1) (0 : Fin 1) ci co))
          + (∑ ci : Fin 64, v8 (ix2 (⟨464 + r.val, by omega⟩ : Fin 7655) ci) * w21 (ix4 (0 : Fin 1) (0 : Fin 1) ci co))
          + (∑ ci : Fin 64, v9 (ix2 (⟨464 + r.val, by omega⟩ : Fin 7654) ci) * w22 (ix4 (0 : Fin 1) (0 : Fin 1) ci co))
          + b (ix2 (0 : Fin 1) co) := by
  unfold k3_pay8
  simp only [addf_apply]
  rw [mm_apply, tap_apply 232 v8 _ w11 r co (by omega), tap_apply 232 v9 _ w12 r co (by omega),
    tap_apply 464 v7 _ w20 r co (by omega), tap_apply 464 v8 _ w21 r co (by omega), tap_apply 464 v9 _ w22 r co (by omega),
    broadcastTo_1b_ab_apply]

/-- The fourth tap's rows and matrix. -/
theorem pay6_apply (xa xb : Vec Ideal S1x16x232x64 .f32) (r : Fin 3712) (ci : Fin 64) :
    k3_pay6 xa xb (ix2 r ci) = k3_pay2 xa xb (ix2 (⟨232 + r.val, by omega⟩ : Fin 7656) ci) := by
  unfold k3_pay6
  exact slice2_axis0_apply 232 _ _ r ci _ rfl

theorem pay7_apply (w10 : Vec Ideal S1x1x64x64 .f32) (ci : Fin 64) (co : Fin 64) :
    k3_pay7 w10 (ix2 ci co) = w10 (ix4 (0 : Fin 1) (0 : Fin 1) ci co) := by
  unfold k3_pay7
  exact tapmat_apply w10 ci co

/-- The clamp and the cut to 224 columns: entry (0, th, w, co) of the tile is row th·232 + w, column co. -/
theorem pay1_apply (v58 v59 : FVec Ideal S3712x64 .f32) (th : Fin 16) (w : Fin 224) (co : Fin 64) :
    k3_pay1 v58 v59 (ix4 (0 : Fin 1) th w co)
      = max (v58 (ix2 (⟨th.val * 232 + w.val, by omega⟩ : Fin 3712) co)) (v59 (ix2 (⟨th.val * 232 + w.val, by omega⟩ : Fin 3712) co)) := by
  unfold k3_pay1
  refine (shapeCast_abc_1abc_apply _ _ (0 : Fin 1) th w co).trans ?_
  refine (slice3_axis1_apply 0 _ _ th w co (⟨w.val, by omega⟩ : Fin 232) (by simp)).trans ?_
  refine (shapeCast_apply _ _ _ (ix2 (⟨th.val * 232 + w.val, by omega⟩ : Fin 3712) co) ?_).trans (maximumf_apply _ _ _)
  rw [Shape.rowMajor_val_two, Shape.rowMajor_val_three]
  rfl

theorem pay9_apply (j : S3712x64.Idx) : k3_pay9 (F := Ideal) j = 0 := by
  unfold k3_pay9
  exact Ideal.ofBits_zero_f32

/-! ## The body's value at an entry -/

section Entry
variable (xa xb : Vec Ideal S1x16x232x64 .f32)

/-- Row (th+dy)·232 + (w+dx) of the stacked rows is pixel (th+dy, w+dx) of the stacked tiles. -/
theorem slab_tap (th : Fin 16) (w : Fin 224) (dy dx : Fin 3) (ci : Fin 64) (q : Fin 7656)
    (hq : q.val = (th.val + dy.val) * 232 + (w.val + dx.val)) :
    k3_pay2 xa xb (ix2 q ci)
      = tiles xa xb (⟨th.val + dy.val, by omega⟩ : Fin 32) (⟨w.val + dx.val, by omega⟩ : Fin 232) ci :=
  slab_apply xa xb _ _ ci q hq

/-- The nine tap matrices as one family. -/
def taps (w00 w01 w02 w10 w11 w12 w20 w21 w22 : Vec Ideal S1x1x64x64 .f32) (dy dx : Fin 3) : Vec Ideal S1x1x64x64 .f32 :=
  ![![w00, w01, w02], ![w10, w11, w12], ![w20, w21, w22]] dy dx

/-- One output entry of the body: the 3×3 correlation of the stacked tiles with the nine tap matrices over the 64
    input channels, plus the bias, clamped below at zero. -/
theorem conv_entry (w00 w01 w02 w10 w11 w12 w20 w21 w22 : Vec Ideal S1x1x64x64 .f32) (b : Vec Ideal S1x64 .f32)
    (th : Fin 16) (w : Fin 224) (co : Fin 64) :
    k3_pay1 (k3_pay8 (k3_pay2 xa xb) (k3_pay3 xa xb) (k3_pay4 xa xb) (k3_pay5 xa xb w00 w01 w02) (k3_pay6 xa xb)
        (k3_pay7 w10) w11 w12 w20 w21 w22 b) k3_pay9 (ix4 (0 : Fin 1) th w co)
      = max ((∑ dy : Fin 3, ∑ dx : Fin 3, ∑ ci : Fin 64,
              tiles xa xb (⟨th.val + dy.val, by omega⟩ : Fin 32) (⟨w.val + dx.val, by omega⟩ : Fin 232) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 64,
      tiles xa xb (⟨th.val + dy.val, by omega⟩ : Fin 32) (⟨w.val + dx.val, by omega⟩ : Fin 232) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg3
-- ==== Proof.RI.Reg3Value.lean ====
import proofs.«143011_g2000502688546152_pallasbulk_1201_3_alg».proof.Proof.RI.Reg3
import proofs.«143011_g2000502688546152_pallasbulk_1201_3_alg».proof.Proof.RI.Reg3Pure

/-! # Region 3 at the extended reals: the output array is the 3×3 correlation, plus bias, clamped at zero

Point t = 14·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg3

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 240, 232, 64], the kernel [3, 3, 64, 64] and the bias [1, 64] as the region finds them. -/
abbrev xp (c : Dev nD) : S16x240x232x64.Idx → EReal := V c (Pipeline.arrRef spec3 0)
abbrev wk (c : Dev nD) : S3x3x64x64.Idx → EReal := V c (Pipeline.arrRef spec3 2)
abbrev bias (c : Dev nD) : S1x64.Idx → EReal := V c (Pipeline.arrRef spec3 3)

/-! ## The grid's points and the windows' block indices -/

theorem N_eq : cfg3.N = 224 := N_3

/-- The image and the row tile of point `t`. -/
def pn (t : Fin cfg3.N) : Fin 16 := ⟨t.val / 14, by have := t.isLt; have := N_eq; omega⟩
def pr (t : Fin cfg3.N) : Fin 14 := ⟨t.val % 14, Nat.mod_lt _ (by decide)⟩

/-- The five windows' block indices at every point: (n, r), (n, r + 1), the origin twice, (n, r). -/
theorem idx_facts : ∀ t : Fin cfg3.N,
    (win3_0.index t 0 = t.val / 14 ∧ win3_0.index t 1 = t.val % 14 ∧ win3_0.index t 2 = 0 ∧ win3_0.index t 3 = 0)
    ∧ (win3_1.index t 0 = t.val / 14 ∧ win3_1.index t 1 = t.val % 14 + 1 ∧ win3_1.index t 2 = 0 ∧ win3_1.index t 3 = 0)
    ∧ (win3_2.index t 0 = 0 ∧ win3_2.index t 1 = 0 ∧ win3_2.index t 2 = 0 ∧ win3_2.index t 3 = 0)
    ∧ (win3_3.index t 0 = 0 ∧ win3_3.index t 1 = 0)
    ∧ (win3_4.index t 0 = t.val / 14 ∧ win3_4.index t 1 = t.val % 14 ∧ win3_4.index t 2 = 0 ∧ win3_4.index t 3 = 0) :=
  (by decide +kernel : ∀ t : Fin grid3.N, _)

/-! ## The windows' blocks read at an index -/

/-- The first input tile at point (n, r): rows 16·r … of image n of the padded input. -/
theorem iblk0_apply (c : Dev nD) (t : Fin cfg3.N) (hh : Fin 16) (w' : Fin 232) (ci : Fin 64) :
    iblk V c 0 t (ix4 (0 : Fin 1) hh w' ci)
      = xp V c (ix4 (pn t) (⟨(pr t).val * 16 + hh.val, by have := (pr t).isLt; omega⟩ : Fin 240) w' ci) := by
  obtain ⟨⟨h0, h1, h2, h3⟩, -⟩ := idx_facts t
  unfold iblk
  rw [View.read_apply]
  show V c (Pipeline.arrRef spec3 0) _ = V c (Pipeline.arrRef spec3 0) _
  congr 1
  funext a
  apply Fin.ext
  match a with
  | ⟨0, _⟩ => show win3_0.index t 0 * 1 + 1 * 0 = t.val / 14; rw [h0]; omega
  | ⟨1, _⟩ => show win3_0.index t 1 * 16 + 1 * hh.val = t.val % 14 * 16 + hh.val; rw [h1]; omega
  | ⟨2, _⟩ => show win3_0.index t 2 * 232 + 1 * w'.val = w'.val; rw [h2]; omega
  | ⟨3, _⟩ => show win3_0.index t 3 * 64 + 1 * ci.val = ci.val; rw [h3]; omega

/-- The second input tile at point (n, r): rows 16·(r + 1) … of image n of the padded input. -/
theorem iblk1_apply (c : Dev nD) (t : Fin cfg3.N) (hh : Fin 16) (w' : Fin 232) (ci : Fin 64) :
    iblk V c 1 t (ix4 (0 : Fin 1) hh w' ci)
      = xp V c (ix4 (pn t) (⟨((pr t).val + 1) * 16 + hh.val, by have := (pr t).isLt; omega⟩ : Fin 240) w' ci) := by
  obtain ⟨-, ⟨h0, h1, h2, h3⟩, -⟩ := idx_facts t
  unfold iblk
  rw [View.read_apply]
  show V c (Pipeline.arrRef spec3 1) _ = V c (Pipeline.arrRef spec3 0) _
  congr 1
  funext a
  apply Fin.ext
  match a with
  | ⟨0, _⟩ => show win3_1.index t 0 * 1 + 1 * 0 = t.val / 14; rw [h0]; omega
  | ⟨1, _⟩ => show win3_1.index t 1 * 16 + 1 * hh.val = (t.val % 14 + 1) * 16 + hh.val; rw [h1]; omega
  | ⟨2, _⟩ => show win3_1.index t 2 * 232 + 1 * w'.val = w'.val; rw [h2]; omega
  | ⟨3, _⟩ => show win3_1.index t 3 * 64 + 1 * ci.val = ci.val; rw [h3]; omega

/-- The kernel window is the whole kernel array at every point. -/
theorem iblk2_apply (c : Dev nD) (t : Fin cfg3.N) (dy dx : Fin 3) (ci : Fin 64) (co : Fin 64) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec3 2) _ = V c (Pipeline.arrRef spec3 2) _
  congr 1
  funext a
  apply Fin.ext
  match a with
  | ⟨0, _⟩ => show win3_2.index t 0 * 3 + 1 * dy.val = dy.val; rw [h0]; omega
  | ⟨1, _⟩ => show win3_2.index t 1 * 3 + 1 * dx.val = dx.val; rw [h1]; omega
  | ⟨2, _⟩ => show win3_2.index t 2 * 64 + 1 * ci.val = ci.val; rw [h2]; omega
  | ⟨3, _⟩ => show win3_2.index t 3 * 64 + 1 * co.val = co.val; rw [h3]; omega

/-- The bias window is the whole bias row at every point. -/
theorem iblk3_apply (c : Dev nD) (t : Fin cfg3.N) (co : Fin 64) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec3 3) _ = V c (Pipeline.arrRef spec3 3) _
  congr 1
  funext a
  apply Fin.ext
  match a with
  | ⟨0, _⟩ => show win3_3.index t 0 * 1 + 1 * 0 = 0; rw [h0]
  | ⟨1, _⟩ => show win3_3.index t 1 * 64 + 1 * co.val = co.val; rw [h1]; omega

/-! ## The whole-array function and what a point writes back -/

/-- The correlation at (n, h, w, co): the sums nest dy, dx, ci. -/
def conv (c : Dev nD) (n : Fin 16) (h : Fin 224) (w : Fin 224) (co : Fin 64) : EReal :=
  max ((∑ dy : Fin 3, ∑ dx : Fin 3, ∑ ci : Fin 64,
          xp V c (ix4 n (⟨h.val + dy.val, by omega⟩ : Fin 240) (⟨w.val + dx.val, by omega⟩ : Fin 232) ci)
            * wk V c (ix4 dy dx ci co))
        + bias V c (ix2 (0 : Fin 1) co)) 0

/-- The output array the region is shown to leave. -/
def G (c : Dev nD) : Buf (Elt Ideal) ((c : Thread nD τ).loc main_v21) :=
  fun i : S16x224x224x64.Idx => conv V c (i 0) (i 1) (i 2) (i 3)

theorem G_apply (c : Dev nD) (i : S16x224x224x64.Idx) : G V c i = conv V c (i 0) (i 1) (i 2) (i 3) := rfl

theorem conv_congr (c : Dev nD) {n n' : Fin 16} {h h' : Fin 224} {w w' : Fin 224} {co co' : Fin 64}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg3.N) (hh : Fin 32) (w' : Fin 232) (ci : Fin 64) :
    tiles (iblk V c 0 t) (iblk V c 1 t) hh w' ci
      = xp V c (ix4 (pn t) (⟨(pr t).val * 16 + hh.val, by have := (pr t).isLt; omega⟩ : Fin 240) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg3.N) (dy dx : Fin 3) (ci : Fin 64) (co : Fin 64) :
    taps (View.ld (iblk V c 2 t) (tapRect 0 0 inb_S3x3x64x64_S1x1x64x64_0_0_0_0))
        (View.ld (iblk V c 2 t) (tapRect 0 1 inb_S3x3x64x64_S1x1x64x64_0_1_0_0))
        (View.ld (iblk V c 2 t) (tapRect 0 2 inb_S3x3x64x64_S1x1x64x64_0_2_0_0))
        (View.ld (iblk V c 2 t) (tapRect 1 0 inb_S3x3x64x64_S1x1x64x64_1_0_0_0))
        (View.ld (iblk V c 2 t) (tapRect 1 1 inb_S3x3x64x64_S1x1x64x64_1_1_0_0))
        (View.ld (iblk V c 2 t) (tapRect 1 2 inb_S3x3x64x64_S1x1x64x64_1_2_0_0))
        (View.ld (iblk V c 2 t) (tapRect 2 0 inb_S3x3x64x64_S1x1x64x64_2_0_0_0))
        (View.ld (iblk V c 2 t) (tapRect 2 1 inb_S3x3x64x64_S1x1x64x64_2_1_0_0))
        (View.ld (iblk V c 2 t) (tapRect 2 2 inb_S3x3x64x64_S1x1x64x64_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x232x64 .f32) (wk' : Vec Ideal S3x3x64x64 .f32) (b : Vec Ideal S1x64 .f32)
    (th : Fin 16) (w : Fin 224) (co : Fin 64) :
    out xa xb wk' b (ix4 (0 : Fin 1) th w co)
      = max ((∑ dy : Fin 3, ∑ dx : Fin 3, ∑ ci : Fin 64,
              tiles xa xb (⟨th.val + dy.val, by omega⟩ : Fin 32) (⟨w.val + dx.val, by omega⟩ : Fin 232) ci
                * taps (View.ld wk' (tapRect 0 0 inb_S3x3x64x64_S1x1x64x64_0_0_0_0))
                    (View.ld wk' (tapRect 0 1 inb_S3x3x64x64_S1x1x64x64_0_1_0_0))
                    (View.ld wk' (tapRect 0 2 inb_S3x3x64x64_S1x1x64x64_0_2_0_0))
                    (View.ld wk' (tapRect 1 0 inb_S3x3x64x64_S1x1x64x64_1_0_0_0))
                    (View.ld wk' (tapRect 1 1 inb_S3x3x64x64_S1x1x64x64_1_1_0_0))
                    (View.ld wk' (tapRect 1 2 inb_S3x3x64x64_S1x1x64x64_1_2_0_0))
                    (View.ld wk' (tapRect 2 0 inb_S3x3x64x64_S1x1x64x64_2_0_0_0))
                    (View.ld wk' (tapRect 2 1 inb_S3x3x64x64_S1x1x64x64_2_1_0_0))
                    (View.ld wk' (tapRect 2 2 inb_S3x3x64x64_S1x1x64x64_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg3.N) :
    (dat V c).flushed 4 t = ((cfg3.win 4).blk t).view.read (Elt Ideal) (G V c) := by
  show (cfg3.win 4).cut (grid3.coords t) ((dat V c).after 4 t) = _
  rw [after_4]
  funext x
  obtain ⟨u, th, w, co, rfl⟩ : ∃ (u : Fin 1) (th : Fin 16) (w : Fin 224) (co : Fin 64), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg3.win 4).blk t).view.emb (ix4 (0 : Fin 1) th w co))
      = conv V c (pn t) (⟨(pr t).val * 16 + th.val, by have := (pr t).isLt; omega⟩ : Fin 224) w co :=
    (G_apply V c _).trans (conv_congr V c
      (Fin.ext (by show win3_4.index t 0 * 1 + 1 * 0 = t.val / 14; rw [h0]; omega))
      (Fin.ext (by show win3_4.index t 1 * 16 + 1 * th.val = t.val % 14 * 16 + th.val; rw [h1]; omega))
      (Fin.ext (by show win3_4.index t 2 * 224 + 1 * w.val = w.val; rw [h2]; omega))
      (Fin.ext (by show win3_4.index t 3 * 64 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg3.N) (i : S16x224x224x64.Idx) :
    i ∈ ((cfg3.win 4).blk t).view.set ↔ (i 0 : Nat) = t.val / 14 ∧ t.val % 14 * 16 ≤ (i 1 : Nat) ∧ (i 1 : Nat) < t.val % 14 * 16 + 16 := by
  show i ∈ ((View.whole main_v21).slice (win3_4.rect t)).set ↔ _
  rw [View.set_slice_whole, Rect.mem_set_unit]
  obtain ⟨-, -, -, -, ⟨h0, h1, h2, h3⟩⟩ := idx_facts t
  have b2 : (i 2 : Nat) < 224 := (i 2).isLt
  have b3 : (i 3 : Nat) < 64 := (i 3).isLt
  have e0 : win3_4.index t 0 * win3_4.size 0 = t.val / 14 := by rw [h0]; show t.val / 14 * 1 = _; omega
  have e1 : win3_4.index t 1 * win3_4.size 1 = t.val % 14 * 16 := by rw [h1]; rfl
  have e2 : win3_4.index t 2 * win3_4.size 2 = 0 := by rw [h2]; rfl
  have e3 : win3_4.index t 3 * win3_4.size 3 = 0 := by rw [h3]; rfl
  have x0 : win3_4.xsize (grid3.coords t) 0 = 1 := rfl
  have x1 : win3_4.xsize (grid3.coords t) 1 = 16 := rfl
  have x2 : win3_4.xsize (grid3.coords t) 2 = 224 := rfl
  have x3 : win3_4.xsize (grid3.coords t) 3 = 64 := rfl
  refine ⟨fun h => ?_, fun h a => ?_⟩
  · have a0 := h 0; have a1 := h 1
    rw [e0, x0] at a0; rw [e1, x1] at a1
    exact ⟨by omega, a1⟩
  · match a with
    | ⟨0, _⟩ => show win3_4.index t 0 * win3_4.size 0 ≤ (i 0 : Nat) ∧ (i 0 : Nat) < win3_4.index t 0 * win3_4.size 0 + win3_4.xsize (grid3.coords t) 0
                rw [e0, x0]; omega
    | ⟨1, _⟩ => show win3_4.index t 1 * win3_4.size 1 ≤ (i 1 : Nat) ∧ (i 1 : Nat) < win3_4.index t 1 * win3_4.size 1 + win3_4.xsize (grid3.coords t) 1
                rw [e1, x1]; exact h.2
    | ⟨2, _⟩ => show win3_4.index t 2 * win3_4.size 2 ≤ (i 2 : Nat) ∧ (i 2 : Nat) < win3_4.index t 2 * win3_4.size 2 + win3_4.xsize (grid3.coords t) 2
                rw [e2, x2]; omega
    | ⟨3, _⟩ => show win3_4.index t 3 * win3_4.size 3 ≤ (i 3 : Nat) ∧ (i 3 : Nat) < win3_4.index t 3 * win3_4.size 3 + win3_4.xsize (grid3.coords t) 3
                rw [e3, x3]; omega

/-- Every index of the output array is in the block of the point of its image and row tile. -/
theorem cover (i : S16x224x224x64.Idx) :
    ∃ t : Fin cfg3.N, (cfg3.win 4).flush t = true ∧ i ∈ ((cfg3.win 4).blk t).view.set := by
  have b0 : (i 0 : Nat) < 16 := (i 0).isLt
  have b1 : (i 1 : Nat) < 224 := (i 1).isLt
  refine ⟨⟨(i 0 : Nat) * 14 + (i 1 : Nat) / 16, by rw [N_eq]; omega⟩, flush3_4 _, ?_⟩
  rw [mem_blk]
  dsimp only
  omega

/-- The output array after the last grid point is `G`. -/
theorem final_out (c : Dev nD) : (dat V c).arrAt 4 cfg3.N = G V c :=
  (dat V c).arrAt_eq_of_cover 4 (G V c) (fun t _ => flushed_eq V c t) cover

/-- The output array after the last grid point: at (n, h, w, co) the 3×3 correlation of the padded input with the
    kernel over the 64 input channels, plus the bias, clamped below at zero. The sums nest dy, dx, ci. -/
theorem out_value (c : Dev nD) (n : Fin 16) (h : Fin 224) (w : Fin 224) (co : Fin 64) :
    (dat V c).arrAt 4 cfg3.N (ix4 n h w co)
      = max ((∑ dy : Fin 3, ∑ dx : Fin 3, ∑ ci : Fin 64,
                xp V c (ix4 n (⟨h.val + dy.val, by omega⟩ : Fin 240) (⟨w.val + dx.val, by omega⟩ : Fin 232) ci)
                  * wk V c (ix4 dy dx ci co))
              + bias V c (ix2 (0 : Fin 1) co)) 0 := by
  rw [final_out]
  rfl

end Cert.ReferenceIdeal.Reg3
-- ==== Proof.RI.Val3.lean ====
import proofs.«143011_g2000502688546152_pallasbulk_1201_3_alg».proof.Proof.RI.Seg3
import proofs.«143011_g2000502688546152_pallasbulk_1201_3_alg».proof.Proof.RI.Reg3Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg3

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 224 224 64)
    (hx : ∀ (n : Fin 16) (i : Fin 240) (j : Fin 232) (ci : Fin 64),
      (W c (Proc.devRef .tc (Pipeline.arrRef spec3 0)) : FVec 𝕀 S16x240x232x64 .f32) (ix4 n i j ci) = Cert.Spec.padAt z n i.val j.val ci) :
    Cert.Spec.curry4 (Wout W c (Proc.devRef .tc (Pipeline.arrRef spec3 4)) : FVec 𝕀 S16x224x224x64 .f32)
      = Cert.Spec.convRelu z (Cert.Spec.curryW (W c (Proc.devRef .tc (Pipeline.arrRef spec3 2)) : FVec 𝕀 S3x3x64x64 .f32))
          (Cert.Spec.curryB (W c (Proc.devRef .tc (Pipeline.arrRef spec3 3)) : FVec 𝕀 S1x64 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg3

end
-- ==== Proof.RI.Reg4Value.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg4Data
import Idealize.ShloMosaic.Lib.Pipeline.Value
import Idealize.ShloMosaic.Lib.ValueIdx
import Idealize.ShloMosaic.PureOps.Ideal.Laws

/-! # Region 4: the sum of |x − y| over two [100352, 512] arrays, accumulated over a grid of 98 points into a [1, 1] array

At point t the two input windows show rows 1024t … 1024t+1023 of x and of y. The output window is the one [1, 1]
block at every point: the body zeroes it at point 0, then at every point adds the block's sum of |x − y| to what
the window holds. It is written back to the array once, after the last point. -/
-- This module: the output array after the last point, at the extended reals.

set_option maxRecDepth 16384

noncomputable section

namespace Cert.ReferenceIdeal.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Idealize.ShloMosaic.Ideal

variable (VI : (c : Dev nD) → (b : Ref sig .tc) → Buf (Elt Ideal) ((c : Thread nD τ).loc b))

/-- The two input arrays as the region finds them, functions of (row, lane). -/
abbrev xs (c : Dev nD) : S100352x512.Idx → EReal := VI c (Pipeline.arrRef spec4 0)
abbrev ys (c : Dev nD) : S100352x512.Idx → EReal := VI c (Pipeline.arrRef spec4 1)

/-- The output array after the last point. -/
abbrev out (c : Dev nD) : S1x1.Idx → EReal := (dat (F := Ideal) VI c).arrAt 2 cfg4.N

/-! ## One step at the one index -/

/-- The sum of |x − y| over a block of 1024 rows of 512 lanes. -/
def blockSum (x y : Vec Ideal S1024x512 .f32) : EReal :=
  ∑ q : Fin 1024, ∑ k : Fin 512, max (x (ix2 q k) - y (ix2 q k)) (-(x (ix2 q k) - y (ix2 q k)))

/-- A step adds the block's sum to the accumulator's one element. -/
theorem step_apply (acc : Vec Ideal S1x1 .f32) (x y : Vec Ideal S1024x512 .f32) :
    (step acc x y (ix2 (0 : Fin 1) (0 : Fin 1)) : EReal) = acc (ix2 (0 : Fin 1) (0 : Fin 1)) + blockSum x y := by
  unfold step Gen.k4_pay2 blockSum
  dsimp only
  rw [addf_apply, shapeCast_self, shapeCast_self, shapeCast_self, broadcast_apply]
  congr 1
  unfold extractAt
  refine (shapeCast_apply _ _ _ (ix1 (0 : Fin 1)) ?_).trans ?_
  · rw [Shape.rowMajor_val_one, Shape.rowMajor_val_three]; rfl
  -- the reduction keeps only unit axes: it is the sum over every index of the block
  refine (multiReduction_add_total (axes := [1, 2]) _ 0x00000000#32 Gen.reduces_S1x1024x512_S1
    (fun b => by match b with | ⟨0, _⟩ => rfl) (.inl rfl) rfl (ix1 (0 : Fin 1))).trans ?_
  -- the cast that added the unit axis is a bijection of the index sets
  unfold shapeCast
  refine (Equiv.sum_comp (Shape.reshapeEquiv Gen.shapeCasts_S1024x512_S1x1024x512) _).trans ?_
  rw [sum_idx2]
  rfl

/-- The zeroed accumulator's one element is 0. -/
theorem zero_apply : (zero (F := Ideal) (ix2 (0 : Fin 1) (0 : Fin 1)) : EReal) = 0 := by
  unfold zero Gen.k4_pay1
  rw [broadcast_apply]
  exact ofBits_zero_f32

/-! ## The running total at the one index: a sum over the points -/

/-- Point `s`'s addend: its blocks' sum of |x − y| (0 past the grid, where it is never used). -/
def addend (c : Dev nD) (s : ℕ) : EReal :=
  if h : s < cfg4.N then blockSum (xrows VI c ⟨s, h⟩) (yrows VI c ⟨s, h⟩) else 0

theorem total_apply (c : Dev nD) : ∀ (n : ℕ) (h : n < cfg4.N),
    (total VI c n h (ix2 (0 : Fin 1) (0 : Fin 1)) : EReal) = ∑ s ∈ Finset.range (n + 1), addend VI c s
  | 0, h => by
    show (step zero (xrows VI c ⟨0, h⟩) (yrows VI c ⟨0, h⟩) (ix2 (0 : Fin 1) (0 : Fin 1)) : EReal) = _
    rw [step_apply, zero_apply, zero_add, Finset.sum_range_one, addend, dif_pos h]
  | n + 1, h => by
    show (step (total VI c n (Nat.lt_of_succ_lt h)) (xrows VI c ⟨n + 1, h⟩) (yrows VI c ⟨n + 1, h⟩)
      (ix2 (0 : Fin 1) (0 : Fin 1)) : EReal) = _
    rw [step_apply, total_apply c n (Nat.lt_of_succ_lt h), Finset.sum_range_succ _ (n + 1), addend, dif_pos h]

/-! ## The array after the run is the last point's total -/

theorem last_lt : 97 < cfg4.N := Nat.lt_of_lt_of_eq (by decide : 97 < 98) (Gen.N_4 : cfg4.N = 98).symm

/-- The output window is written back at the last point only, and its block is the whole [1, 1] array: after the run
    the array's element is the running total after point 97. -/
theorem out_eq (c : Dev nD) : out VI c = fun _ => (total VI c 97 last_lt (ix2 (0 : Fin 1) (0 : Fin 1)) : EReal) := by
  refine (dat (F := Ideal) VI c).arrAt_eq_of_cover 2 (fun _ => (total VI c 97 last_lt (ix2 (0 : Fin 1) (0 : Fin 1)) : EReal)) ?hG ?hcover
  case hG =>
    intro t hf
    have h97 : t.val = 97 := by
      have h1 : t.val % 98 = 97 := (Gen.flush4_2 t).mp hf
      have h2 : t.val < 98 := Nat.lt_of_lt_of_eq t.isLt (Gen.N_4 : cfg4.N = 98)
      omega
    obtain rfl : t = ⟨97, last_lt⟩ := Fin.ext h97
    funext y
    show (dat (F := Ideal) VI c).after 2 ⟨97, last_lt⟩ y = _
    rw [after_total, View.read_apply]
    show (total VI c 97 last_lt y : EReal) = total VI c 97 last_lt (ix2 (0 : Fin 1) (0 : Fin 1))
    have hy : y = ix2 (0 : Fin 1) (0 : Fin 1) :=
      Shape.idx_ext₂ (by have h : (y 0).val < 1 := (y 0).isLt; show (y 0).val = 0; omega)
        (by have h : (y 1).val < 1 := (y 1).isLt; show (y 1).val = 0; omega)
    rw [hy]
  case hcover =>
    intro i
    refine ⟨⟨97, last_lt⟩, (Gen.flush4_2 _).mpr rfl, ?_⟩
    show i ∈ ((View.whole main_v24).slice (win4_2.rect ⟨97, last_lt⟩)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-! ## The points' blocks are the rows of the arrays -/

/-- At point `t` each input window shows block (t, 0) of its array. -/
theorem idx_facts : ∀ t : Fin cfg4.N,
    win4_0.index t 0 = t.val ∧ win4_0.index t 1 = 0 ∧ win4_1.index t 0 = t.val ∧ win4_1.index t 1 = 0 :=
  (by decide +kernel : ∀ t : Fin grid4.N,
    win4_0.index t 0 = t.val ∧ win4_0.index t 1 = 0 ∧ win4_1.index t 0 = t.val ∧ win4_1.index t 1 = 0)

/-- Row `q` of point `t`'s block of x is row `q + 1024 t` of x; the same for y. -/
theorem xrows_apply (c : Dev nD) (t : Fin cfg4.N) (q : Fin 1024) (k : Fin 512) (r : Fin 100352)
    (hr : r.val = q.val + 1024 * t.val) : (xrows VI c t (ix2 q k) : EReal) = xs VI c (ix2 r k) := by
  unfold xrows
  rw [View.read_apply]
  show xs VI c (((cfg4.win 0).blk t).view.emb (ix2 q k)) = _
  congr 1
  apply Shape.idx_ext₂
  · show ((win4_0.rect t).emb (ix2 q k) 0 : ℕ) = r.val
    rw [Window.rect_emb_val, (idx_facts t).1, hr]
    show t.val * 1024 + q.val = q.val + 1024 * t.val
    omega
  · show ((win4_0.rect t).emb (ix2 q k) 1 : ℕ) = k.val
    rw [Window.rect_emb_val, (idx_facts t).2.1]
    show 0 * 512 + k.val = k.val
    omega

theorem yrows_apply (c : Dev nD) (t : Fin cfg4.N) (q : Fin 1024) (k : Fin 512) (r : Fin 100352)
    (hr : r.val = q.val + 1024 * t.val) : (yrows VI c t (ix2 q k) : EReal) = ys VI c (ix2 r k) := by
  unfold yrows
  rw [View.read_apply]
  show ys VI c (((cfg4.win 1).blk t).view.emb (ix2 q k)) = _
  congr 1
  apply Shape.idx_ext₂
  · show ((win4_1.rect t).emb (ix2 q k) 0 : ℕ) = r.val
    rw [Window.rect_emb_val, (idx_facts t).2.2.1, hr]
    show t.val * 1024 + q.val = q.val + 1024 * t.val
    omega
  · show ((win4_1.rect t).emb (ix2 q k) 1 : ℕ) = k.val
    rw [Window.rect_emb_val, (idx_facts t).2.2.2]
    show 0 * 512 + k.val = k.val
    omega

/-! ## The sum over the points' blocks is the sum over all rows -/

/-- |x − y| at (row, lane) of the two arrays. -/
def absDiff (c : Dev nD) (r : Fin 100352) (k : Fin 512) : EReal :=
  max (xs VI c (ix2 r k) - ys VI c (ix2 r k)) (-(xs VI c (ix2 r k) - ys VI c (ix2 r k)))

/-- 100352 rows are 98 blocks of 1024: a sum over the rows is the sum over the blocks of the sums over each block's rows. -/
theorem sum_rows_split {M : Type*} [AddCommMonoid M] (g : Fin 100352 → M) :
    ∑ r, g r = ∑ s : Fin 98, ∑ q : Fin 1024, g ⟨q.val + 1024 * s.val, by omega⟩ := by
  rw [← Equiv.sum_comp (finProdFinEquiv (m := 98) (n := 1024)) g, Fintype.sum_prod_type]
  rfl

theorem addend_eq (c : Dev nD) (s : Fin 98) :
    addend VI c s.val = ∑ q : Fin 1024, ∑ k : Fin 512, absDiff VI c ⟨q.val + 1024 * s.val, by omega⟩ k := by
  have hs : s.val < cfg4.N := Nat.lt_of_lt_of_eq s.isLt (Gen.N_4 : cfg4.N = 98).symm
  rw [addend, dif_pos hs]
  unfold blockSum absDiff
  refine Finset.sum_congr rfl fun q _ => Finset.sum_congr rfl fun k _ => ?_
  rw [xrows_apply VI c ⟨s.val, hs⟩ q k ⟨q.val + 1024 * s.val, by omega⟩ rfl,
    yrows_apply VI c ⟨s.val, hs⟩ q k ⟨q.val + 1024 * s.val, by omega⟩ rfl]

/-- The one element of the output: the sum over all rows and lanes of |x − y|, the absolute value of `d` being `max d (−d)`. -/
theorem out_apply (c : Dev nD) :
    out VI c (ix2 (0 : Fin 1) (0 : Fin 1))
      = ∑ r : Fin 100352, ∑ k : Fin 512,
          max (xs VI c (ix2 r k) - ys VI c (ix2 r k)) (-(xs VI c (ix2 r k) - ys VI c (ix2 r k))) := by
  rw [out_eq]
  show (total VI c 97 last_lt (ix2 (0 : Fin 1) (0 : Fin 1)) : EReal) = ∑ r : Fin 100352, ∑ k : Fin 512, absDiff VI c r k
  rw [total_apply, sum_rows_split, Finset.sum_range]
  exact Finset.sum_congr rfl fun s _ => addend_eq VI c s

end Cert.ReferenceIdeal.Reg4
-- ==== Proof.RI.Val4.lean ====
import proofs.«143011_g2000502688546152_pallasbulk_1201_3_alg».proof.Proof.RI.Seg4
import proofs.«143011_g2000502688546152_pallasbulk_1201_3_alg».proof.Proof.RI.Reg4Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg4

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the two arrays the region finds are two image stacks read as rows of 512 consecutive entries
    of the row-major order, the one entry it leaves is the sum over all rows and lanes of their absolute differences. -/
theorem value (zx zy : Cert.Spec.Act 16 224 224 64)
    (hx : ∀ (r : Fin 100352) (k : Fin 512), (W c (Proc.devRef .tc (Pipeline.arrRef spec4 0)) : FVec 𝕀 S100352x512 .f32) (ix2 r k) = Cert.Spec.flat zx (r.val * 512 + k.val))
    (hy : ∀ (r : Fin 100352) (k : Fin 512), (W c (Proc.devRef .tc (Pipeline.arrRef spec4 1)) : FVec 𝕀 S100352x512 .f32) (ix2 r k) = Cert.Spec.flat zy (r.val * 512 + k.val)) :
    (Wout W c (Proc.devRef .tc (Pipeline.arrRef spec4 2)) : FVec 𝕀 S1x1 .f32) (ix2 (0 : Fin 1) (0 : Fin 1))
      = ∑ r : Fin 100352, ∑ k : Fin 512,
          Cert.Spec.eabs (Cert.Spec.flat zx (r.val * 512 + k.val) - Cert.Spec.flat zy (r.val * 512 + k.val)) := by
  rw [Wout_out]
  refine (out_apply (VW W) c).trans ?_
  show @Eq EReal _ _
  exact Finset.sum_congr rfl fun r _ => Finset.sum_congr rfl fun k _ => by
    show max _ _ = Cert.Spec.eabs _
    unfold Cert.Spec.eabs
    rw [← hx r k, ← hy r k]

end Cert.ReferenceIdeal.Reg4

end
-- ==== Proof.RI.Reg5Value.lean ====
/-
  REGION 5, at the ideal values: the output array after the last point, index by index — the 2×2 max pooling
  of the region's own input array.
-/
import proofs.«143011_g2000502688546152_pallasbulk_1201_3_alg».proof.Proof.RI.Reg5Data
import Idealize.ShloMosaic.Lib.ValueIdx
import Idealize.ShloMosaic.Lib.Pipeline.Value
import Idealize.ShloMosaic.PureOps.Ideal.Laws

noncomputable section

namespace Cert.ReferenceIdeal.Reg5

open Cert.ReferenceIdeal Cert.ReferenceIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .f32 0xFF800000#32 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S16x112x2x64 .f32) (r : Fin 16) (j : Fin 112) (ch : Fin 64) :
    multiReduction .maximumf [2] S16x112x64 Y 0xFF800000#32 reduces_S16x112x2x64_S16x112x64 (.inl rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S8x2x112x64 .f32) (i : Fin 8) (j : Fin 112) (ch : Fin 64) :
    multiReduction .maximumf [1] S8x112x64 Z 0xFF800000#32 reduces_S8x2x112x64_S8x112x64 (.inl rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x16x112x2x64.Idx → α) (r : Fin 16) (j : Fin 112) (q : Fin 2) (ch : Fin 64) :
    shapeCast S16x112x2x64 X shapeCasts_S1x16x112x2x64_S16x112x2x64 (ix4 r j q ch) = X (ix5 (0 : Fin 1) r j q ch) := by
  refine shapeCast_apply _ _ _ _ ?_
  rw [Shape.rowMajor_val_five, Shape.rowMajor_val_four]
  show ((((0 * 16 + r.val) * 112 + j.val) * 2 + q.val) * 64 + ch.val) = (((r.val * 112 + j.val) * 2 + q.val) * 64 + ch.val)
  omega

/-- The 16 rows regrouped as 8 pairs: the even row of pair i is row 2i, -/
theorem pairRows_apply0 (W : S16x112x64.Idx → α) (i : Fin 8) (j : Fin 112) (ch : Fin 64) :
    shapeCast S8x2x112x64 W shapeCasts_S16x112x64_S8x2x112x64 (ix4 i (0 : Fin 2) j ch)
      = W (ix3 (⟨2 * i.val, by omega⟩ : Fin 16) j ch) := by
  refine shapeCast_apply _ _ _ _ ?_
  rw [Shape.rowMajor_val_three, Shape.rowMajor_val_four]
  show ((2 * i.val) * 112 + j.val) * 64 + ch.val = (((i.val * 2 + 0) * 112 + j.val) * 64 + ch.val)
  omega

/-- and the odd one row 2i + 1. -/
theorem pairRows_apply1 (W : S16x112x64.Idx → α) (i : Fin 8) (j : Fin 112) (ch : Fin 64) :
    shapeCast S8x2x112x64 W shapeCasts_S16x112x64_S8x2x112x64 (ix4 i (1 : Fin 2) j ch)
      = W (ix3 (⟨2 * i.val + 1, by omega⟩ : Fin 16) j ch) := by
  refine shapeCast_apply _ _ _ _ ?_
  rw [Shape.rowMajor_val_three, Shape.rowMajor_val_four]
  show ((2 * i.val + 1) * 112 + j.val) * 64 + ch.val = (((i.val * 2 + 1) * 112 + j.val) * 64 + ch.val)
  omega

/-- The pooled rows with the leading unit axis back. -/
theorem addLead_apply (W : S8x112x64.Idx → α) (i : Fin 8) (j : Fin 112) (ch : Fin 64) :
    shapeCast S1x8x112x64 W shapeCasts_S8x112x64_S1x8x112x64 (ix4 (0 : Fin 1) i j ch) = W (ix3 i j ch) := by
  refine shapeCast_apply _ _ _ _ ?_
  rw [Shape.rowMajor_val_three, Shape.rowMajor_val_four]
  show ((i.val * 112 + j.val) * 64 + ch.val) = (((0 * 8 + i.val) * 112 + j.val) * 64 + ch.val)
  omega

/-- The body's value at an index of the output block: the maximum over the two rows 2i, 2i+1 of the maximum
    over the column pair j. -/
theorem pay_apply (X : Vec Ideal S1x16x112x2x64 .f32) (i : Fin 8) (j : Fin 112) (ch : Fin 64) :
    k5_pay1 X (ix4 (0 : Fin 1) i j ch)
      = max (max (X (ix5 (0 : Fin 1) (⟨2 * i.val, by omega⟩ : Fin 16) j (0 : Fin 2) ch))
                 (X (ix5 (0 : Fin 1) (⟨2 * i.val, by omega⟩ : Fin 16) j (1 : Fin 2) ch)))
            (max (X (ix5 (0 : Fin 1) (⟨2 * i.val + 1, by omega⟩ : Fin 16) j (0 : Fin 2) ch))
                 (X (ix5 (0 : Fin 1) (⟨2 * i.val + 1, by omega⟩ : Fin 16) j (1 : Fin 2) ch))) := by
  unfold k5_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 16 images × 224 rows × 112 column pairs × 2 × 64 channels. -/
abbrev xin (c : Dev nD) : (⟨5, ![16, 224, 112, 2, 64]⟩ : Shape).Idx → EReal := V c (Pipeline.arrRef spec5 0)

/-- The 2×2 max pooling of an input array at (n, i, j, ch): over the rows 2i, 2i+1 the maximum of the maximum
    over the column pair j. -/
def poolAt (x : (⟨5, ![16, 224, 112, 2, 64]⟩ : Shape).Idx → EReal) (n : Fin 16) (i : Fin 112) (j : Fin 112) (ch : Fin 64) : EReal :=
  max (max (x (ix5 n (⟨2 * i.val, by omega⟩ : Fin 224) j (0 : Fin 2) ch))
           (x (ix5 n (⟨2 * i.val, by omega⟩ : Fin 224) j (1 : Fin 2) ch)))
      (max (x (ix5 n (⟨2 * i.val + 1, by omega⟩ : Fin 224) j (0 : Fin 2) ch))
           (x (ix5 n (⟨2 * i.val + 1, by omega⟩ : Fin 224) j (1 : Fin 2) ch)))

/-- The pooled array. -/
def poolArr (x : (⟨5, ![16, 224, 112, 2, 64]⟩ : Shape).Idx → EReal) : (⟨4, ![16, 112, 112, 64]⟩ : Shape).Idx → EReal :=
  fun k => poolAt x (k 0) (k 1) (k 2) (k 3)

/-- The index maps over the grid in closed form: point t is (n, r) = (t / 14, t % 14); there the input block is
    block (n, r, 0, 0, 0) of its array and the output block is block (n, r, 0, 0) of its own. -/
theorem idx_facts : ∀ t : Fin cfg5.N,
    win5_1.index t (0 : Fin 4) = t.val / 14 ∧ win5_1.index t (1 : Fin 4) = t.val % 14
    ∧ win5_1.index t (2 : Fin 4) = 0 ∧ win5_1.index t (3 : Fin 4) = 0
    ∧ win5_0.index t (0 : Fin 5) = t.val / 14 ∧ win5_0.index t (1 : Fin 5) = t.val % 14
    ∧ win5_0.index t (2 : Fin 5) = 0 ∧ win5_0.index t (3 : Fin 5) = 0 ∧ win5_0.index t (4 : Fin 5) = 0 :=
  (by decide +kernel : ∀ t : Fin grid5.N, _)

/-- The grid has 224 points. -/
theorem t_lt (t : Fin cfg5.N) : t.val < 224 := lt_of_lt_of_eq t.isLt N_5

/-- An element of the input block at point t = (n, r) sits in the input array at image n, row 16r + (its row). -/
theorem rows_apply (c : Dev nD) (t : Fin cfg5.N) (r : Fin 16) (R : Fin 224) (hR : R.val = 16 * (t.val % 14) + r.val)
    (j : Fin 112) (q : Fin 2) (ch : Fin 64) :
    rows V c t (ix5 (0 : Fin 1) r j q ch)
      = xin V c (ix5 (⟨t.val / 14, by have := t_lt t; omega⟩ : Fin 16) R j q ch) := by
  obtain ⟨o0, o1, o2, o3, i0, i1, i2, i3, i4⟩ := idx_facts t
  show xin V c (((cfg5.win 0).blk t).view.emb (ix5 (0 : Fin 1) r j q ch)) = _
  congr 1
  funext a
  apply Fin.ext
  match a with
  | ⟨0, _⟩ => show win5_0.index t (0 : Fin 5) * 1 + 1 * 0 = t.val / 14; omega
  | ⟨1, _⟩ => show win5_0.index t (1 : Fin 5) * 16 + 1 * r.val = R.val; omega
  | ⟨2, _⟩ => show win5_0.index t (2 : Fin 5) * 112 + 1 * j.val = j.val; omega
  | ⟨3, _⟩ => show win5_0.index t (3 : Fin 5) * 2 + 1 * q.val = q.val; omega
  | ⟨4, _⟩ => show win5_0.index t (4 : Fin 5) * 64 + 1 * ch.val = ch.val; omega

/-- An element of the output block at point t = (n, r) sits in the output array at image n, row 8r + (its row). -/
theorem emb_out (t : Fin cfg5.N) (i : Fin 8) (j : Fin 112) (ch : Fin 64) :
    ((cfg5.win 1).blk t).view.emb (ix4 (0 : Fin 1) i j ch)
      = ix4 (⟨t.val / 14, by have := t_lt t; omega⟩ : Fin 16) (⟨8 * (t.val % 14) + i.val, by omega⟩ : Fin 112) j ch := by
  obtain ⟨o0, o1, o2, o3, i0, i1, i2, i3, i4⟩ := idx_facts t
  funext a
  apply Fin.ext
  match a with
  | ⟨0, _⟩ => show win5_1.index t (0 : Fin 4) * 1 + 1 * 0 = t.val / 14; omega
  | ⟨1, _⟩ => show win5_1.index t (1 : Fin 4) * 8 + 1 * i.val = 8 * (t.val % 14) + i.val; omega
  | ⟨2, _⟩ => show win5_1.index t (2 : Fin 4) * 112 + 1 * j.val = j.val; omega
  | ⟨3, _⟩ => show win5_1.index t (3 : Fin 4) * 64 + 1 * ch.val = ch.val; omega

/-- What point t writes back is its block of the pooled array. -/
theorem flushed_eq (c : Dev nD) (t : Fin cfg5.N) :
    (dat (F := Ideal) V c).flushed 1 t = ((cfg5.win 1).blk t).view.read (Elt Ideal) (poolArr (xin V c)) := by
  show (cfg5.win 1).cut (grid5.coords t) ((dat V c).after 1 t) = _
  rw [after_out]
  funext y
  obtain ⟨y0, i, j, ch, rfl⟩ : ∃ (y0 : Fin 1) (i : Fin 8) (j : Fin 112) (ch : Fin 64), y = ix4 y0 i j ch :=
    ⟨y 0, y 1, y 2, y 3, eq_ix4 y⟩
  obtain rfl : y0 = 0 := Subsingleton.elim _ _
  show k5_pay1 (rows V c t) (ix4 (0 : Fin 1) i j ch)
    = poolArr (xin V c) (((cfg5.win 1).blk t).view.emb (ix4 (0 : Fin 1) i j ch))
  rw [pay_apply, emb_out,
    rows_apply V c t _ (⟨2 * (8 * (t.val % 14) + i.val), by omega⟩ : Fin 224) (by show 2 * (8 * (t.val % 14) + i.val) = 16 * (t.val % 14) + 2 * i.val; omega),
    rows_apply V c t _ (⟨2 * (8 * (t.val % 14) + i.val), by omega⟩ : Fin 224) (by show 2 * (8 * (t.val % 14) + i.val) = 16 * (t.val % 14) + 2 * i.val; omega),
    rows_apply V c t _ (⟨2 * (8 * (t.val % 14) + i.val) + 1, by omega⟩ : Fin 224) (by show 2 * (8 * (t.val % 14) + i.val) + 1 = 16 * (t.val % 14) + (2 * i.val + 1); omega),
    rows_apply V c t _ (⟨2 * (8 * (t.val % 14) + i.val) + 1, by omega⟩ : Fin 224) (by show 2 * (8 * (t.val % 14) + i.val) + 1 = 16 * (t.val % 14) + (2 * i.val + 1); omega)]
  rfl

/-- An index of the output array is in point t's block iff on each axis it lies in the block's range. -/
theorem mem_blk (t : Fin cfg5.N) (k : (⟨4, ![16, 112, 112, 64]⟩ : Shape).Idx) :
    k ∈ ((cfg5.win 1).blk t).view.set ↔ ∀ a : Fin 4, win5_1.index t a * S1x8x112x64.size a ≤ (k a).val
      ∧ (k a).val < win5_1.index t a * S1x8x112x64.size a + S1x8x112x64.size a := by
  show k ∈ ((View.whole main_v29).slice (win5_1.rect t)).set ↔ _
  rw [View.set_slice_whole, Rect.mem_set_unit]
  exact Iff.rfl

/-- The output blocks tile the output array: index (n, h, j, ch) is in the block of point (n, h / 8). -/
theorem cover (k : (⟨4, ![16, 112, 112, 64]⟩ : Shape).Idx) :
    ∃ t : Fin cfg5.N, (cfg5.win 1).flush t = true ∧ k ∈ ((cfg5.win 1).blk t).view.set := by
  have h0 : (k 0).val < 16 := (k 0).isLt
  have h1 : (k 1).val < 112 := (k 1).isLt
  have h2 : (k 2).val < 112 := (k 2).isLt
  have h3 : (k 3).val < 64 := (k 3).isLt
  have hN : cfg5.N = 224 := N_5
  obtain ⟨t, tv⟩ : ∃ t : Fin cfg5.N, t.val = (k 0).val * 14 + (k 1).val / 8 := ⟨⟨_, by omega⟩, rfl⟩
  obtain ⟨o0, o1, o2, o3, -⟩ := idx_facts t
  refine ⟨t, flush5_1 t, ?_⟩
  rw [mem_blk]
  intro a
  match a with
  | ⟨0, _⟩ => show win5_1.index t (0 : Fin 4) * 1 ≤ (k 0).val ∧ (k 0).val < win5_1.index t (0 : Fin 4) * 1 + 1; omega
  | ⟨1, _⟩ => show win5_1.index t (1 : Fin 4) * 8 ≤ (k 1).val ∧ (k 1).val < win5_1.index t (1 : Fin 4) * 8 + 8; omega
  | ⟨2, _⟩ => show win5_1.index t (2 : Fin 4) * 112 ≤ (k 2).val ∧ (k 2).val < win5_1.index t (2 : Fin 4) * 112 + 112; omega
  | ⟨3, _⟩ => show win5_1.index t (3 : Fin 4) * 64 ≤ (k 3).val ∧ (k 3).val < win5_1.index t (3 : Fin 4) * 64 + 64; omega

/-- So after the last point the output array is the pooled input array. -/
theorem final (c : Dev nD) : (dat (F := Ideal) V c).arrAt 1 cfg5.N = poolArr (xin V c) :=
  (dat V c).arrAt_eq_of_cover 1 (poolArr (xin V c)) (fun t _ => flushed_eq V c t) cover

/-- After the last point the output array [16, 112, 112, 64] is the 2×2 max pooling of the input array
    [16, 224, 112, 2, 64]: at (n, i, j, ch) the maximum over the two rows 2i, 2i+1 of the maximum over the
    column pair j. The nesting is the body's: the inner maximum is over the column pair (the first
    reduction), the outer over the row pair (the second). -/
theorem out_apply (c : Dev nD) (n : Fin 16) (i : Fin 112) (j : Fin 112) (ch : Fin 64) :
    (dat (F := Ideal) V c).arrAt 1 cfg5.N (ix4 n i j ch)
      = max (max (xin V c (ix5 n (⟨2 * i.val, by omega⟩ : Fin 224) j (0 : Fin 2) ch))
                 (xin V c (ix5 n (⟨2 * i.val, by omega⟩ : Fin 224) j (1 : Fin 2) ch)))
            (max (xin V c (ix5 n (⟨2 * i.val + 1, by omega⟩ : Fin 224) j (0 : Fin 2) ch))
                 (xin V c (ix5 n (⟨2 * i.val + 1, by omega⟩ : Fin 224) j (1 : Fin 2) ch))) := by
  rw [final]
  rfl

end Cert.ReferenceIdeal.Reg5
-- ==== Proof.RI.Val5.lean ====
import proofs.«143011_g2000502688546152_pallasbulk_1201_3_alg».proof.Proof.RI.Seg5
import proofs.«143011_g2000502688546152_pallasbulk_1201_3_alg».proof.Proof.RI.Reg5Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg5

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the array the region finds is an image stack `z` with its columns split into pairs, the
    array it leaves is `z` pooled 2×2. -/
theorem value (z : Cert.Spec.Act 16 224 224 64)
    (hs : ∀ (n : Fin 16) (i : Fin 224) (j : Fin 112) (t : Fin 2) (ch : Fin 64),
      (W c (Proc.devRef .tc (Pipeline.arrRef spec5 0)) : FVec 𝕀 S16x224x112x2x64 .f32) (ix5 n i j t ch) = z n i ⟨2 * j.val + t.val, by omega⟩ ch) :
    Cert.Spec.curry4 (Wout W c (Proc.devRef .tc (Pipeline.arrRef spec5 1)) : FVec 𝕀 S16x112x112x64 .f32)
      = (Cert.Spec.pool2x2 z : Cert.Spec.Act 16 112 112 64) := by
  funext n i j ch
  rw [Cert.Spec.curry4_apply, Wout_out]
  refine (out_apply (VW W) c n i j ch).trans ?_
  show @Eq EReal _ _
  unfold Cert.Spec.pool2x2
  exact congrArg₂ max (congrArg₂ max (hs n _ j 0 ch) (hs n _ j 1 ch)) (congrArg₂ max (hs n _ j 0 ch) (hs n _ j 1 ch))

end Cert.ReferenceIdeal.Reg5

end
-- ==== Proof.RI.Reg6Value.lean ====
/-
  REGION 6, at the ideal values: the output array after the last point, index by index — the 2×2 max pooling
  of the region's own input array.
-/
import proofs.«143011_g2000502688546152_pallasbulk_1201_3_alg».proof.Proof.RI.Reg6Data
import Idealize.ShloMosaic.Lib.ValueIdx
import Idealize.ShloMosaic.Lib.Pipeline.Value
import Idealize.ShloMosaic.PureOps.Ideal.Laws

noncomputable section

namespace Cert.ReferenceIdeal.Reg6

open Cert.ReferenceIdeal Cert.ReferenceIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .f32 0xFF800000#32 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S16x112x2x64 .f32) (r : Fin 16) (j : Fin 112) (ch : Fin 64) :
    multiReduction .maximumf [2] S16x112x64 Y 0xFF800000#32 reduces_S16x112x2x64_S16x112x64 (.inl rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S8x2x112x64 .f32) (i : Fin 8) (j : Fin 112) (ch : Fin 64) :
    multiReduction .maximumf [1] S8x112x64 Z 0xFF800000#32 reduces_S8x2x112x64_S8x112x64 (.inl rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x16x112x2x64.Idx → α) (r : Fin 16) (j : Fin 112) (q : Fin 2) (ch : Fin 64) :
    shapeCast S16x112x2x64 X shapeCasts_S1x16x112x2x64_S16x112x2x64 (ix4 r j q ch) = X (ix5 (0 : Fin 1) r j q ch) := by
  refine shapeCast_apply _ _ _ _ ?_
  rw [Shape.rowMajor_val_five, Shape.rowMajor_val_four]
  show ((((0 * 16 + r.val) * 112 + j.val) * 2 + q.val) * 64 + ch.val) = (((r.val * 112 + j.val) * 2 + q.val) * 64 + ch.val)
  omega

/-- The 16 rows regrouped as 8 pairs: the even row of pair i is row 2i, -/
theorem pairRows_apply0 (W : S16x112x64.Idx → α) (i : Fin 8) (j : Fin 112) (ch : Fin 64) :
    shapeCast S8x2x112x64 W shapeCasts_S16x112x64_S8x2x112x64 (ix4 i (0 : Fin 2) j ch)
      = W (ix3 (⟨2 * i.val, by omega⟩ : Fin 16) j ch) := by
  refine shapeCast_apply _ _ _ _ ?_
  rw [Shape.rowMajor_val_three, Shape.rowMajor_val_four]
  show ((2 * i.val) * 112 + j.val) * 64 + ch.val = (((i.val * 2 + 0) * 112 + j.val) * 64 + ch.val)
  omega

/-- and the odd one row 2i + 1. -/
theorem pairRows_apply1 (W : S16x112x64.Idx → α) (i : Fin 8) (j : Fin 112) (ch : Fin 64) :
    shapeCast S8x2x112x64 W shapeCasts_S16x112x64_S8x2x112x64 (ix4 i (1 : Fin 2) j ch)
      = W (ix3 (⟨2 * i.val + 1, by omega⟩ : Fin 16) j ch) := by
  refine shapeCast_apply _ _ _ _ ?_
  rw [Shape.rowMajor_val_three, Shape.rowMajor_val_four]
  show ((2 * i.val + 1) * 112 + j.val) * 64 + ch.val = (((i.val * 2 + 1) * 112 + j.val) * 64 + ch.val)
  omega

/-- The pooled rows with the leading unit axis back. -/
theorem addLead_apply (W : S8x112x64.Idx → α) (i : Fin 8) (j : Fin 112) (ch : Fin 64) :
    shapeCast S1x8x112x64 W shapeCasts_S8x112x64_S1x8x112x64 (ix4 (0 : Fin 1) i j ch) = W (ix3 i j ch) := by
  refine shapeCast_apply _ _ _ _ ?_
  rw [Shape.rowMajor_val_three, Shape.rowMajor_val_four]
  show ((i.val * 112 + j.val) * 64 + ch.val) = (((0 * 8 + i.val) * 112 + j.val) * 64 + ch.val)
  omega

/-- The body's value at an index of the output block: the maximum over the two rows 2i, 2i+1 of the maximum
    over the column pair j. -/
theorem pay_apply (X : Vec Ideal S1x16x112x2x64 .f32) (i : Fin 8) (j : Fin 112) (ch : Fin 64) :
    k6_pay1 X (ix4 (0 : Fin 1) i j ch)
      = max (max (X (ix5 (0 : Fin 1) (⟨2 * i.val, by omega⟩ : Fin 16) j (0 : Fin 2) ch))
                 (X (ix5 (0 : Fin 1) (⟨2 * i.val, by omega⟩ : Fin 16) j (1 : Fin 2) ch)))
            (max (X (ix5 (0 : Fin 1) (⟨2 * i.val + 1, by omega⟩ : Fin 16) j (0 : Fin 2) ch))
                 (X (ix5 (0 : Fin 1) (⟨2 * i.val + 1, by omega⟩ : Fin 16) j (1 : Fin 2) ch))) := by
  unfold k6_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 16 images × 224 rows × 112 column pairs × 2 × 64 channels. -/
abbrev xin (c : Dev nD) : (⟨5, ![16, 224, 112, 2, 64]⟩ : Shape).Idx → EReal := V c (Pipeline.arrRef spec6 0)

/-- The 2×2 max pooling of an input array at (n, i, j, ch): over the rows 2i, 2i+1 the maximum of the maximum
    over the column pair j. -/
def poolAt (x : (⟨5, ![16, 224, 112, 2, 64]⟩ : Shape).Idx → EReal) (n : Fin 16) (i : Fin 112) (j : Fin 112) (ch : Fin 64) : EReal :=
  max (max (x (ix5 n (⟨2 * i.val, by omega⟩ : Fin 224) j (0 : Fin 2) ch))
           (x (ix5 n (⟨2 * i.val, by omega⟩ : Fin 224) j (1 : Fin 2) ch)))
      (max (x (ix5 n (⟨2 * i.val + 1, by omega⟩ : Fin 224) j (0 : Fin 2) ch))
           (x (ix5 n (⟨2 * i.val + 1, by omega⟩ : Fin 224) j (1 : Fin 2) ch)))

/-- The pooled array. -/
def poolArr (x : (⟨5, ![16, 224, 112, 2, 64]⟩ : Shape).Idx → EReal) : (⟨4, ![16, 112, 112, 64]⟩ : Shape).Idx → EReal :=
  fun k => poolAt x (k 0) (k 1) (k 2) (k 3)

/-- The index maps over the grid in closed form: point t is (n, r) = (t / 14, t % 14); there the input block is
    block (n, r, 0, 0, 0) of its array and the output block is block (n, r, 0, 0) of its own. -/
theorem idx_facts : ∀ t : Fin cfg6.N,
    win6_1.index t (0 : Fin 4) = t.val / 14 ∧ win6_1.index t (1 : Fin 4) = t.val % 14
    ∧ win6_1.index t (2 : Fin 4) = 0 ∧ win6_1.index t (3 : Fin 4) = 0
    ∧ win6_0.index t (0 : Fin 5) = t.val / 14 ∧ win6_0.index t (1 : Fin 5) = t.val % 14
    ∧ win6_0.index t (2 : Fin 5) = 0 ∧ win6_0.index t (3 : Fin 5) = 0 ∧ win6_0.index t (4 : Fin 5) = 0 :=
  (by decide +kernel : ∀ t : Fin grid6.N, _)

/-- The grid has 224 points. -/
theorem t_lt (t : Fin cfg6.N) : t.val < 224 := lt_of_lt_of_eq t.isLt N_6

/-- An element of the input block at point t = (n, r) sits in the input array at image n, row 16r + (its row). -/
theorem rows_apply (c : Dev nD) (t : Fin cfg6.N) (r : Fin 16) (R : Fin 224) (hR : R.val = 16 * (t.val % 14) + r.val)
    (j : Fin 112) (q : Fin 2) (ch : Fin 64) :
    rows V c t (ix5 (0 : Fin 1) r j q ch)
      = xin V c (ix5 (⟨t.val / 14, by have := t_lt t; omega⟩ : Fin 16) R j q ch) := by
  obtain ⟨o0, o1, o2, o3, i0, i1, i2, i3, i4⟩ := idx_facts t
  show xin V c (((cfg6.win 0).blk t).view.emb (ix5 (0 : Fin 1) r j q ch)) = _
  congr 1
  funext a
  apply Fin.ext
  match a with
  | ⟨0, _⟩ => show win6_0.index t (0 : Fin 5) * 1 + 1 * 0 = t.val / 14; omega
  | ⟨1, _⟩ => show win6_0.index t (1 : Fin 5) * 16 + 1 * r.val = R.val; omega
  | ⟨2, _⟩ => show win6_0.index t (2 : Fin 5) * 112 + 1 * j.val = j.val; omega
  | ⟨3, _⟩ => show win6_0.index t (3 : Fin 5) * 2 + 1 * q.val = q.val; omega
  | ⟨4, _⟩ => show win6_0.index t (4 : Fin 5) * 64 + 1 * ch.val = ch.val; omega

/-- An element of the output block at point t = (n, r) sits in the output array at image n, row 8r + (its row). -/
theorem emb_out (t : Fin cfg6.N) (i : Fin 8) (j : Fin 112) (ch : Fin 64) :
    ((cfg6.win 1).blk t).view.emb (ix4 (0 : Fin 1) i j ch)
      = ix4 (⟨t.val / 14, by have := t_lt t; omega⟩ : Fin 16) (⟨8 * (t.val % 14) + i.val, by omega⟩ : Fin 112) j ch := by
  obtain ⟨o0, o1, o2, o3, i0, i1, i2, i3, i4⟩ := idx_facts t
  funext a
  apply Fin.ext
  match a with
  | ⟨0, _⟩ => show win6_1.index t (0 : Fin 4) * 1 + 1 * 0 = t.val / 14; omega
  | ⟨1, _⟩ => show win6_1.index t (1 : Fin 4) * 8 + 1 * i.val = 8 * (t.val % 14) + i.val; omega
  | ⟨2, _⟩ => show win6_1.index t (2 : Fin 4) * 112 + 1 * j.val = j.val; omega
  | ⟨3, _⟩ => show win6_1.index t (3 : Fin 4) * 64 + 1 * ch.val = ch.val; omega

/-- What point t writes back is its block of the pooled array. -/
theorem flushed_eq (c : Dev nD) (t : Fin cfg6.N) :
    (dat (F := Ideal) V c).flushed 1 t = ((cfg6.win 1).blk t).view.read (Elt Ideal) (poolArr (xin V c)) := by
  show (cfg6.win 1).cut (grid6.coords t) ((dat V c).after 1 t) = _
  rw [after_out]
  funext y
  obtain ⟨y0, i, j, ch, rfl⟩ : ∃ (y0 : Fin 1) (i : Fin 8) (j : Fin 112) (ch : Fin 64), y = ix4 y0 i j ch :=
    ⟨y 0, y 1, y 2, y 3, eq_ix4 y⟩
  obtain rfl : y0 = 0 := Subsingleton.elim _ _
  show k6_pay1 (rows V c t) (ix4 (0 : Fin 1) i j ch)
    = poolArr (xin V c) (((cfg6.win 1).blk t).view.emb (ix4 (0 : Fin 1) i j ch))
  rw [pay_apply, emb_out,
    rows_apply V c t _ (⟨2 * (8 * (t.val % 14) + i.val), by omega⟩ : Fin 224) (by show 2 * (8 * (t.val % 14) + i.val) = 16 * (t.val % 14) + 2 * i.val; omega),
    rows_apply V c t _ (⟨2 * (8 * (t.val % 14) + i.val), by omega⟩ : Fin 224) (by show 2 * (8 * (t.val % 14) + i.val) = 16 * (t.val % 14) + 2 * i.val; omega),
    rows_apply V c t _ (⟨2 * (8 * (t.val % 14) + i.val) + 1, by omega⟩ : Fin 224) (by show 2 * (8 * (t.val % 14) + i.val) + 1 = 16 * (t.val % 14) + (2 * i.val + 1); omega),
    rows_apply V c t _ (⟨2 * (8 * (t.val % 14) + i.val) + 1, by omega⟩ : Fin 224) (by show 2 * (8 * (t.val % 14) + i.val) + 1 = 16 * (t.val % 14) + (2 * i.val + 1); omega)]
  rfl

/-- An index of the output array is in point t's block iff on each axis it lies in the block's range. -/
theorem mem_blk (t : Fin cfg6.N) (k : (⟨4, ![16, 112, 112, 64]⟩ : Shape).Idx) :
    k ∈ ((cfg6.win 1).blk t).view.set ↔ ∀ a : Fin 4, win6_1.index t a * S1x8x112x64.size a ≤ (k a).val
      ∧ (k a).val < win6_1.index t a * S1x8x112x64.size a + S1x8x112x64.size a := by
  show k ∈ ((View.whole main_v31).slice (win6_1.rect t)).set ↔ _
  rw [View.set_slice_whole, Rect.mem_set_unit]
  exact Iff.rfl

/-- The output blocks tile the output array: index (n, h, j, ch) is in the block of point (n, h / 8). -/
theorem cover (k : (⟨4, ![16, 112, 112, 64]⟩ : Shape).Idx) :
    ∃ t : Fin cfg6.N, (cfg6.win 1).flush t = true ∧ k ∈ ((cfg6.win 1).blk t).view.set := by
  have h0 : (k 0).val < 16 := (k 0).isLt
  have h1 : (k 1).val < 112 := (k 1).isLt
  have h2 : (k 2).val < 112 := (k 2).isLt
  have h3 : (k 3).val < 64 := (k 3).isLt
  have hN : cfg6.N = 224 := N_6
  obtain ⟨t, tv⟩ : ∃ t : Fin cfg6.N, t.val = (k 0).val * 14 + (k 1).val / 8 := ⟨⟨_, by omega⟩, rfl⟩
  obtain ⟨o0, o1, o2, o3, -⟩ := idx_facts t
  refine ⟨t, flush6_1 t, ?_⟩
  rw [mem_blk]
  intro a
  match a with
  | ⟨0, _⟩ => show win6_1.index t (0 : Fin 4) * 1 ≤ (k 0).val ∧ (k 0).val < win6_1.index t (0 : Fin 4) * 1 + 1; omega
  | ⟨1, _⟩ => show win6_1.index t (1 : Fin 4) * 8 ≤ (k 1).val ∧ (k 1).val < win6_1.index t (1 : Fin 4) * 8 + 8; omega
  | ⟨2, _⟩ => show win6_1.index t (2 : Fin 4) * 112 ≤ (k 2).val ∧ (k 2).val < win6_1.index t (2 : Fin 4) * 112 + 112; omega
  | ⟨3, _⟩ => show win6_1.index t (3 : Fin 4) * 64 ≤ (k 3).val ∧ (k 3).val < win6_1.index t (3 : Fin 4) * 64 + 64; omega

/-- So after the last point the output array is the pooled input array. -/
theorem final (c : Dev nD) : (dat (F := Ideal) V c).arrAt 1 cfg6.N = poolArr (xin V c) :=
  (dat V c).arrAt_eq_of_cover 1 (poolArr (xin V c)) (fun t _ => flushed_eq V c t) cover

/-- After the last point the output array [16, 112, 112, 64] is the 2×2 max pooling of the input array
    [16, 224, 112, 2, 64]: at (n, i, j, ch) the maximum over the two rows 2i, 2i+1 of the maximum over the
    column pair j. The nesting is the body's: the inner maximum is over the column pair (the first
    reduction), the outer over the row pair (the second). -/
theorem out_apply (c : Dev nD) (n : Fin 16) (i : Fin 112) (j : Fin 112) (ch : Fin 64) :
    (dat (F := Ideal) V c).arrAt 1 cfg6.N (ix4 n i j ch)
      = max (max (xin V c (ix5 n (⟨2 * i.val, by omega⟩ : Fin 224) j (0 : Fin 2) ch))
                 (xin V c (ix5 n (⟨2 * i.val, by omega⟩ : Fin 224) j (1 : Fin 2) ch)))
            (max (xin V c (ix5 n (⟨2 * i.val + 1, by omega⟩ : Fin 224) j (0 : Fin 2) ch))
                 (xin V c (ix5 n (⟨2 * i.val + 1, by omega⟩ : Fin 224) j (1 : Fin 2) ch))) := by
  rw [final]
  rfl

end Cert.ReferenceIdeal.Reg6
-- ==== Proof.RI.Val6.lean ====
import proofs.«143011_g2000502688546152_pallasbulk_1201_3_alg».proof.Proof.RI.Seg6
import proofs.«143011_g2000502688546152_pallasbulk_1201_3_alg».proof.Proof.RI.Reg6Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg6

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the array the region finds is an image stack `z` with its columns split into pairs, the
    array it leaves is `z` pooled 2×2. -/
theorem value (z : Cert.Spec.Act 16 224 224 64)
    (hs : ∀ (n : Fin 16) (i : Fin 224) (j : Fin 112) (t : Fin 2) (ch : Fin 64),
      (W c (Proc.devRef .tc (Pipeline.arrRef spec6 0)) : FVec 𝕀 S16x224x112x2x64 .f32) (ix5 n i j t ch) = z n i ⟨2 * j.val + t.val, by omega⟩ ch) :
    Cert.Spec.curry4 (Wout W c (Proc.devRef .tc (Pipeline.arrRef spec6 1)) : FVec 𝕀 S16x112x112x64 .f32)
      = (Cert.Spec.pool2x2 z : Cert.Spec.Act 16 112 112 64) := by
  funext n i j ch
  rw [Cert.Spec.curry4_apply, Wout_out]
  refine (out_apply (VW W) c n i j ch).trans ?_
  show @Eq EReal _ _
  unfold Cert.Spec.pool2x2
  exact congrArg₂ max (congrArg₂ max (hs n _ j 0 ch) (hs n _ j 1 ch)) (congrArg₂ max (hs n _ j 0 ch) (hs n _ j 1 ch))

end Cert.ReferenceIdeal.Reg6

end
-- ==== Proof.RI.Reg7Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·120 each, then 120 zero rows), and for each tap (dy, dx)
multiplies the rows shifted by 120·dy + dx with the tap's [64, 128] matrix. Read at row th·120 + w and column co, the nine
products add up to the 3×3 correlation at pixel (th, w), output channel co. -/

set_option maxRecDepth 16384

noncomputable section

namespace Cert.ReferenceIdeal.Reg7

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [1920, 64] by [64, 128] product into the zero accumulator, at (r, co): the sum over the 64 input channels. -/
theorem mm_apply (L : FVec Ideal S1920x64 .f32) (R : FVec Ideal S64x128 .f32) (r : Fin 1920) (co : Fin 128) :
    matmul dot_S1920x64_S64x128_S1920x128_1_0_0_1_n_n none L R (constant S1920x128 .f32 0x00000000#32) (ix2 r co)
      = ∑ ci : Fin 64, L (ix2 r ci) * R (ix2 ci co) := by
  refine (Ideal.matmul_constant_zero_apply _ _ _ _ _).trans ?_
  refine (Equiv.sum_comp (contrEquiv1 dot_S1920x64_S64x128_S1920x128_1_0_0_1_n_n 64 rfl rfl).symm _).symm.trans ?_
  refine Finset.sum_congr rfl fun ci _ => ?_
  have hl : dot_S1920x64_S64x128_S1920x128_1_0_0_1_n_n.lhsIdx (ix2 r co)
      ((contrEquiv1 dot_S1920x64_S64x128_S1920x128_1_0_0_1_n_n 64 rfl rfl).symm ci) = ix2 r ci := by
    funext a; apply Fin.ext
    match a with
    | ⟨0, _⟩ => rfl
    | ⟨1, _⟩ => exact contrEquiv1_symm_val dot_S1920x64_S64x128_S1920x128_1_0_0_1_n_n 64 rfl rfl ci
  have hr : dot_S1920x64_S64x128_S1920x128_1_0_0_1_n_n.rhsIdx (ix2 r co)
      ((contrEquiv1 dot_S1920x64_S64x128_S1920x128_1_0_0_1_n_n 64 rfl rfl).symm ci) = ix2 ci co := by
    funext a; apply Fin.ext
    match a with
    | ⟨0, _⟩ => exact contrEquiv1_symm_val dot_S1920x64_S64x128_S1920x128_1_0_0_1_n_n 64 rfl rfl ci
    | ⟨1, _⟩ => rfl
  rw [hl, hr]

/-! ## The stacked rows -/

section Slab
variable (xa xb : Vec Ideal S1x16x120x64 .f32)

/-- Pixel (hh, w') of the two tiles stacked one above the other, hh < 32. -/
def tiles (hh : Fin 32) (w' : Fin 120) (ci : Fin 64) : EReal :=
  if h : hh.val < 16 then xa (ix4 (0 : Fin 1) (⟨hh.val, h⟩ : Fin 16) w' ci)
  else xb (ix4 (0 : Fin 1) (⟨hh.val - 16, by omega⟩ : Fin 16) w' ci)

/-- Row hh·120 + w' of the first 1920 rows is pixel (hh, w') of the first tile. -/
theorem slab_lo (hh : Fin 16) (w' : Fin 120) (ci : Fin 64) (q : Fin 3960) (hq : q.val = hh.val * 120 + w'.val) :
    k7_pay2 xa xb (ix2 q ci) = xa (ix4 (0 : Fin 1) hh w' ci) := by
  unfold k7_pay2
  have hq' : q.val < 1920 := by have := hh.isLt; have := w'.isLt; omega
  refine Eq.trans (concatenate_apply_piece (0 : Fin 2) _ _ (ix2 q ci) 0 ?_ S1920x64
    (shapeCast S1920x64 (shapeCast S16x120x64 xa shapeCasts_S1x16x120x64_S16x120x64) shapeCasts_S16x120x64_S1920x64) ?_ ?_ 0 ?_
    (ix2 (⟨q.val, hq'⟩ : Fin 1920) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 64 + ci.val = q.val * 64 + ci.val
      rw [hq]
    · rw [Shape.rowMajor_val_four, Shape.rowMajor_val_three]
      show ((0 * 16 + hh.val) * 120 + w'.val) * 64 + ci.val = (hh.val * 120 + w'.val) * 64 + ci.val
      omega

/-- Row 1920 + hh·120 + w' is pixel (hh, w') of the second tile. -/
theorem slab_hi (hh : Fin 16) (w' : Fin 120) (ci : Fin 64) (q : Fin 3960) (hq : q.val = 1920 + (hh.val * 120 + w'.val)) :
    k7_pay2 xa xb (ix2 q ci) = xb (ix4 (0 : Fin 1) hh w' ci) := by
  unfold k7_pay2
  have hq' : q.val - 1920 < 1920 := by have := hh.isLt; have := w'.isLt; omega
  refine Eq.trans (concatenate_apply_piece (0 : Fin 2) _ _ (ix2 q ci) 1 ?_ S1920x64
    (shapeCast S1920x64 (shapeCast S16x120x64 xb shapeCasts_S1x16x120x64_S16x120x64) shapeCasts_S16x120x64_S1920x64) ?_ ?_ 1920 ?_
    (ix2 (⟨q.val - 1920, hq'⟩ : Fin 1920) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 1920 + (q.val - 1920) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 64 + ci.val = (q.val - 1920) * 64 + ci.val
      omega
    · rw [Shape.rowMajor_val_four, Shape.rowMajor_val_three]
      show ((0 * 16 + hh.val) * 120 + w'.val) * 64 + ci.val = (hh.val * 120 + w'.val) * 64 + ci.val
      omega

/-- Row hh·120 + w', hh < 32, of the stacked rows is pixel (hh, w') of the stacked tiles. -/
theorem slab_apply (hh : Fin 32) (w' : Fin 120) (ci : Fin 64) (q : Fin 3960) (hq : q.val = hh.val * 120 + w'.val) :
    k7_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 1920 + ((hh.val - 16) * 120 + w'.val); omega)

end Slab

/-! ## A tap's product read at an entry -/

/-- A tap matrix [1, 1, 64, 128] flattened to [64, 128], at (ci, co). -/
theorem tapmat_apply (Wt : Vec Ideal S1x1x64x128 .f32) (ci : Fin 64) (co : Fin 128) :
    (shapeCast S64x128 Wt shapeCasts_S1x1x64x128_S64x128 : FVec Ideal S64x128 .f32) (ix2 ci co) = Wt (ix4 (0 : Fin 1) (0 : Fin 1) ci co) := by
  refine shapeCast_apply _ _ _ _ ?_
  rw [Shape.rowMajor_val_four, Shape.rowMajor_val_two]
  show ((0 * 1 + 0) * 64 + ci.val) * 128 + co.val = ci.val * 128 + co.val
  omega

/-- Rows o, o+1, … of a matrix of n0 rows against a flattened tap matrix, at (r, co): the sum over the 64 input
    channels of row o + r times the tap's column co. -/
theorem tap_apply {n0 : Nat} (o : Nat) (X : FVec Ideal ⟨2, ![n0, 64]⟩ .f32)
    (h : (⟨2, ![n0, 64]⟩ : Shape).Slices ![o, 0] S1920x64) (Wt : Vec Ideal S1x1x64x128 .f32)
    (r : Fin 1920) (co : Fin 128) (hk : o + 1919 < n0) :
    matmul dot_S1920x64_S64x128_S1920x128_1_0_0_1_n_n none (extractStridedSlice S1920x64 ![o, 0] X h : FVec Ideal S1920x64 .f32)
        (shapeCast S64x128 Wt shapeCasts_S1x1x64x128_S64x128 : FVec Ideal S64x128 .f32) (constant S1920x128 .f32 0x00000000#32) (ix2 r co)
      = ∑ ci : Fin 64, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x120x64 .f32)

/-- The rows from the second on. -/
theorem pay3_apply (q : Fin 3959) (ci : Fin 64) :
    k7_pay3 xa xb (ix2 q ci) = k7_pay2 xa xb (ix2 (⟨1 + q.val, by omega⟩ : Fin 3960) ci) := by
  unfold k7_pay3
  exact slice2_axis0_apply 1 _ _ q ci _ rfl

/-- The rows from the third on. -/
theorem pay4_apply (q : Fin 3958) (ci : Fin 64) :
    k7_pay4 xa xb (ix2 q ci) = k7_pay2 xa xb (ix2 (⟨2 + q.val, by omega⟩ : Fin 3960) ci) := by
  unfold k7_pay4
  exact slice2_axis0_apply 2 _ _ q ci _ rfl

end Shift

/-! ## The accumulations -/

/-- The first three taps added onto zero. -/
theorem pay5_apply (xa xb : Vec Ideal S1x16x120x64 .f32) (w00 w01 w02 : Vec Ideal S1x1x64x128 .f32) (r : Fin 1920) (co : Fin 128) :
    k7_pay5 xa xb w00 w01 w02 (ix2 r co)
      = 0 + (∑ ci : Fin 64, k7_pay2 xa xb (ix2 (⟨0 + r.val, by omega⟩ : Fin 3960) ci) * w00 (ix4 (0 : Fin 1) (0 : Fin 1) ci co))
          + (∑ ci : Fin 64, k7_pay3 xa xb (ix2 (⟨0 + r.val, by omega⟩ : Fin 3959) ci) * w01 (ix4 (0 : Fin 1) (0 : Fin 1) ci co))
          + (∑ ci : Fin 64, k7_pay4 xa xb (ix2 (⟨0 + r.val, by omega⟩ : Fin 3958) ci) * w02 (ix4 (0 : Fin 1) (0 : Fin 1) ci co)) := by
  unfold k7_pay5
  simp only [addf_apply]
  rw [tap_apply 0 (k7_pay2 xa xb) _ w00 r co (by omega), tap_apply 0 (k7_pay3 xa xb) _ w01 r co (by omega),
    tap_apply 0 (k7_pay4 xa xb) _ w02 r co (by omega)]
  congr 3
  exact Ideal.ofBits_zero_f32

/-- The other six taps and the bias added onto what the first three left. -/
theorem pay8_apply (v7 : FVec Ideal S3960x64 .f32) (v8 : FVec Ideal S3959x64 .f32) (v9 : FVec Ideal S3958x64 .f32)
    (v25 : FVec Ideal S1920x128 .f32) (v26 : FVec Ideal S1920x64 .f32) (v28 : FVec Ideal S64x128 .f32)
    (w11 w12 w20 w21 w22 : Vec Ideal S1x1x64x128 .f32) (b : Vec Ideal S1x128 .f32) (r : Fin 1920) (co : Fin 128) :
    k7_pay8 v7 v8 v9 v25 v26 v28 w11 w12 w20 w21 w22 b (ix2 r co)
      = v25 (ix2 r co) + (∑ ci : Fin 64, v26 (ix2 r ci) * v28 (ix2 ci co))
          + (∑ ci : Fin 64, v8 (ix2 (⟨120 + r.val, by omega⟩ : Fin 3959) ci) * w11 (ix4 (0 : Fin 1) (0 : Fin 1) ci co))
          + (∑ ci : Fin 64, v9 (ix2 (⟨120 + r.val, by omega⟩ : Fin 3958) ci) * w12 (ix4 (0 : Fin 1) (0 : Fin 1) ci co))
          + (∑ ci : Fin 64, v7 (ix2 (⟨240 + r.val, by omega⟩ : Fin 3960) ci) * w20 (ix4 (0 : Fin 1) (0 : Fin 1) ci co))
          + (∑ ci : Fin 64, v8 (ix2 (⟨240 + r.val, by omega⟩ : Fin 3959) ci) * w21 (ix4 (0 : Fin 1) (0 : Fin 1) ci co))
          + (∑ ci : Fin 64, v9 (ix2 (⟨240 + r.val, by omega⟩ : Fin 3958) ci) * w22 (ix4 (0 : Fin 1) (0 : Fin 1) ci co))
          + b (ix2 (0 : Fin 1) co) := by
  unfold k7_pay8
  simp only [addf_apply]
  rw [mm_apply, tap_apply 120 v8 _ w11 r co (by omega), tap_apply 120 v9 _ w12 r co (by omega),
    tap_apply 240 v7 _ w20 r co (by omega), tap_apply 240 v8 _ w21 r co (by omega), tap_apply 240 v9 _ w22 r co (by omega),
    broadcastTo_1b_ab_apply]

/-- The fourth tap's rows and matrix. -/
theorem pay6_apply (xa xb : Vec Ideal S1x16x120x64 .f32) (r : Fin 1920) (ci : Fin 64) :
    k7_pay6 xa xb (ix2 r ci) = k7_pay2 xa xb (ix2 (⟨120 + r.val, by omega⟩ : Fin 3960) ci) := by
  unfold k7_pay6
  exact slice2_axis0_apply 120 _ _ r ci _ rfl

theorem pay7_apply (w10 : Vec Ideal S1x1x64x128 .f32) (ci : Fin 64) (co : Fin 128) :
    k7_pay7 w10 (ix2 ci co) = w10 (ix4 (0 : Fin 1) (0 : Fin 1) ci co) := by
  unfold k7_pay7
  exact tapmat_apply w10 ci co

/-- The clamp and the cut to 112 columns: entry (0, th, w, co) of the tile is row th·120 + w, column co. -/
theorem pay1_apply (v58 v59 : FVec Ideal S1920x128 .f32) (th : Fin 16) (w : Fin 112) (co : Fin 128) :
    k7_pay1 v58 v59 (ix4 (0 : Fin 1) th w co)
      = max (v58 (ix2 (⟨th.val * 120 + w.val, by omega⟩ : Fin 1920) co)) (v59 (ix2 (⟨th.val * 120 + w.val, by omega⟩ : Fin 1920) co)) := by
  unfold k7_pay1
  refine (shapeCast_abc_1abc_apply _ _ (0 : Fin 1) th w co).trans ?_
  refine (slice3_axis1_apply 0 _ _ th w co (⟨w.val, by omega⟩ : Fin 120) (by simp)).trans ?_
  refine (shapeCast_apply _ _ _ (ix2 (⟨th.val * 120 + w.val, by omega⟩ : Fin 1920) co) ?_).trans (maximumf_apply _ _ _)
  rw [Shape.rowMajor_val_two, Shape.rowMajor_val_three]
  rfl

theorem pay9_apply (j : S1920x128.Idx) : k7_pay9 (F := Ideal) j = 0 := by
  unfold k7_pay9
  exact Ideal.ofBits_zero_f32

/-! ## The body's value at an entry -/

section Entry
variable (xa xb : Vec Ideal S1x16x120x64 .f32)

/-- Row (th+dy)·120 + (w+dx) of the stacked rows is pixel (th+dy, w+dx) of the stacked tiles. -/
theorem slab_tap (th : Fin 16) (w : Fin 112) (dy dx : Fin 3) (ci : Fin 64) (q : Fin 3960)
    (hq : q.val = (th.val + dy.val) * 120 + (w.val + dx.val)) :
    k7_pay2 xa xb (ix2 q ci)
      = tiles xa xb (⟨th.val + dy.val, by omega⟩ : Fin 32) (⟨w.val + dx.val, by omega⟩ : Fin 120) ci :=
  slab_apply xa xb _ _ ci q hq

/-- The nine tap matrices as one family. -/
def taps (w00 w01 w02 w10 w11 w12 w20 w21 w22 : Vec Ideal S1x1x64x128 .f32) (dy dx : Fin 3) : Vec Ideal S1x1x64x128 .f32 :=
  ![![w00, w01, w02], ![w10, w11, w12], ![w20, w21, w22]] dy dx

/-- One output entry of the body: the 3×3 correlation of the stacked tiles with the nine tap matrices over the 64
    input channels, plus the bias, clamped below at zero. -/
theorem conv_entry (w00 w01 w02 w10 w11 w12 w20 w21 w22 : Vec Ideal S1x1x64x128 .f32) (b : Vec Ideal S1x128 .f32)
    (th : Fin 16) (w : Fin 112) (co : Fin 128) :
    k7_pay1 (k7_pay8 (k7_pay2 xa xb) (k7_pay3 xa xb) (k7_pay4 xa xb) (k7_pay5 xa xb w00 w01 w02) (k7_pay6 xa xb)
        (k7_pay7 w10) w11 w12 w20 w21 w22 b) k7_pay9 (ix4 (0 : Fin 1) th w co)
      = max ((∑ dy : Fin 3, ∑ dx : Fin 3, ∑ ci : Fin 64,
              tiles xa xb (⟨th.val + dy.val, by omega⟩ : Fin 32) (⟨w.val + dx.val, by omega⟩ : Fin 120) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 64,
      tiles xa xb (⟨th.val + dy.val, by omega⟩ : Fin 32) (⟨w.val + dx.val, by omega⟩ : Fin 120) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg7
-- ==== Proof.RI.Reg7Value.lean ====
import proofs.«143011_g2000502688546152_pallasbulk_1201_3_alg».proof.Proof.RI.Reg7
import proofs.«143011_g2000502688546152_pallasbulk_1201_3_alg».proof.Proof.RI.Reg7Pure

/-! # Region 7 at the extended reals: the output array is the 3×3 correlation, plus bias, clamped at zero

Point t = 7·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg7

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 128, 120, 64], the kernel [3, 3, 64, 128] and the bias [1, 128] as the region finds them. -/
abbrev xp (c : Dev nD) : S16x128x120x64.Idx → EReal := V c (Pipeline.arrRef spec7 0)
abbrev wk (c : Dev nD) : S3x3x64x128.Idx → EReal := V c (Pipeline.arrRef spec7 2)
abbrev bias (c : Dev nD) : S1x128.Idx → EReal := V c (Pipeline.arrRef spec7 3)

/-! ## The grid's points and the windows' block indices -/

theorem N_eq : cfg7.N = 112 := N_7

/-- The image and the row tile of point `t`. -/
def pn (t : Fin cfg7.N) : Fin 16 := ⟨t.val / 7, by have := t.isLt; have := N_eq; omega⟩
def pr (t : Fin cfg7.N) : Fin 7 := ⟨t.val % 7, Nat.mod_lt _ (by decide)⟩

/-- The five windows' block indices at every point: (n, r), (n, r + 1), the origin twice, (n, r). -/
theorem idx_facts : ∀ t : Fin cfg7.N,
    (win7_0.index t 0 = t.val / 7 ∧ win7_0.index t 1 = t.val % 7 ∧ win7_0.index t 2 = 0 ∧ win7_0.index t 3 = 0)
    ∧ (win7_1.index t 0 = t.val / 7 ∧ win7_1.index t 1 = t.val % 7 + 1 ∧ win7_1.index t 2 = 0 ∧ win7_1.index t 3 = 0)
    ∧ (win7_2.index t 0 = 0 ∧ win7_2.index t 1 = 0 ∧ win7_2.index t 2 = 0 ∧ win7_2.index t 3 = 0)
    ∧ (win7_3.index t 0 = 0 ∧ win7_3.index t 1 = 0)
    ∧ (win7_4.index t 0 = t.val / 7 ∧ win7_4.index t 1 = t.val % 7 ∧ win7_4.index t 2 = 0 ∧ win7_4.index t 3 = 0) :=
  (by decide +kernel : ∀ t : Fin grid7.N, _)

/-! ## The windows' blocks read at an index -/

/-- The first input tile at point (n, r): rows 16·r … of image n of the padded input. -/
theorem iblk0_apply (c : Dev nD) (t : Fin cfg7.N) (hh : Fin 16) (w' : Fin 120) (ci : Fin 64) :
    iblk V c 0 t (ix4 (0 : Fin 1) hh w' ci)
      = xp V c (ix4 (pn t) (⟨(pr t).val * 16 + hh.val, by have := (pr t).isLt; omega⟩ : Fin 128) w' ci) := by
  obtain ⟨⟨h0, h1, h2, h3⟩, -⟩ := idx_facts t
  unfold iblk
  rw [View.read_apply]
  show V c (Pipeline.arrRef spec7 0) _ = V c (Pipeline.arrRef spec7 0) _
  congr 1
  funext a
  apply Fin.ext
  match a with
  | ⟨0, _⟩ => show win7_0.index t 0 * 1 + 1 * 0 = t.val / 7; rw [h0]; omega
  | ⟨1, _⟩ => show win7_0.index t 1 * 16 + 1 * hh.val = t.val % 7 * 16 + hh.val; rw [h1]; omega
  | ⟨2, _⟩ => show win7_0.index t 2 * 120 + 1 * w'.val = w'.val; rw [h2]; omega
  | ⟨3, _⟩ => show win7_0.index t 3 * 64 + 1 * ci.val = ci.val; rw [h3]; omega

/-- The second input tile at point (n, r): rows 16·(r + 1) … of image n of the padded input. -/
theorem iblk1_apply (c : Dev nD) (t : Fin cfg7.N) (hh : Fin 16) (w' : Fin 120) (ci : Fin 64) :
    iblk V c 1 t (ix4 (0 : Fin 1) hh w' ci)
      = xp V c (ix4 (pn t) (⟨((pr t).val + 1) * 16 + hh.val, by have := (pr t).isLt; omega⟩ : Fin 128) w' ci) := by
  obtain ⟨-, ⟨h0, h1, h2, h3⟩, -⟩ := idx_facts t
  unfold iblk
  rw [View.read_apply]
  show V c (Pipeline.arrRef spec7 1) _ = V c (Pipeline.arrRef spec7 0) _
  congr 1
  funext a
  apply Fin.ext
  match a with
  | ⟨0, _⟩ => show win7_1.index t 0 * 1 + 1 * 0 = t.val / 7; rw [h0]; omega
  | ⟨1, _⟩ => show win7_1.index t 1 * 16 + 1 * hh.val = (t.val % 7 + 1) * 16 + hh.val; rw [h1]; omega
  | ⟨2, _⟩ => show win7_1.index t 2 * 120 + 1 * w'.val = w'.val; rw [h2]; omega
  | ⟨3, _⟩ => show win7_1.index t 3 * 64 + 1 * ci.val = ci.val; rw [h3]; omega

/-- The kernel window is the whole kernel array at every point. -/
theorem iblk2_apply (c : Dev nD) (t : Fin cfg7.N) (dy dx : Fin 3) (ci : Fin 64) (co : Fin 128) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec7 2) _ = V c (Pipeline.arrRef spec7 2) _
  congr 1
  funext a
  apply Fin.ext
  match a with
  | ⟨0, _⟩ => show win7_2.index t 0 * 3 + 1 * dy.val = dy.val; rw [h0]; omega
  | ⟨1, _⟩ => show win7_2.index t 1 * 3 + 1 * dx.val = dx.val; rw [h1]; omega
  | ⟨2, _⟩ => show win7_2.index t 2 * 64 + 1 * ci.val = ci.val; rw [h2]; omega
  | ⟨3, _⟩ => show win7_2.index t 3 * 128 + 1 * co.val = co.val; rw [h3]; omega

/-- The bias window is the whole bias row at every point. -/
theorem iblk3_apply (c : Dev nD) (t : Fin cfg7.N) (co : Fin 128) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec7 3) _ = V c (Pipeline.arrRef spec7 3) _
  congr 1
  funext a
  apply Fin.ext
  match a with
  | ⟨0, _⟩ => show win7_3.index t 0 * 1 + 1 * 0 = 0; rw [h0]
  | ⟨1, _⟩ => show win7_3.index t 1 * 128 + 1 * co.val = co.val; rw [h1]; omega

/-! ## The whole-array function and what a point writes back -/

/-- The correlation at (n, h, w, co): the sums nest dy, dx, ci. -/
def conv (c : Dev nD) (n : Fin 16) (h : Fin 112) (w : Fin 112) (co : Fin 128) : EReal :=
  max ((∑ dy : Fin 3, ∑ dx : Fin 3, ∑ ci : Fin 64,
          xp V c (ix4 n (⟨h.val + dy.val, by omega⟩ : Fin 128) (⟨w.val + dx.val, by omega⟩ : Fin 120) ci)
            * wk V c (ix4 dy dx ci co))
        + bias V c (ix2 (0 : Fin 1) co)) 0

/-- The output array the region is shown to leave. -/
def G (c : Dev nD) : Buf (Elt Ideal) ((c : Thread nD τ).loc main_v33) :=
  fun i : S16x112x112x128.Idx => conv V c (i 0) (i 1) (i 2) (i 3)

theorem G_apply (c : Dev nD) (i : S16x112x112x128.Idx) : G V c i = conv V c (i 0) (i 1) (i 2) (i 3) := rfl

theorem conv_congr (c : Dev nD) {n n' : Fin 16} {h h' : Fin 112} {w w' : Fin 112} {co co' : Fin 128}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg7.N) (hh : Fin 32) (w' : Fin 120) (ci : Fin 64) :
    tiles (iblk V c 0 t) (iblk V c 1 t) hh w' ci
      = xp V c (ix4 (pn t) (⟨(pr t).val * 16 + hh.val, by have := (pr t).isLt; omega⟩ : Fin 128) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg7.N) (dy dx : Fin 3) (ci : Fin 64) (co : Fin 128) :
    taps (View.ld (iblk V c 2 t) (tapRect 0 0 inb_S3x3x64x128_S1x1x64x128_0_0_0_0))
        (View.ld (iblk V c 2 t) (tapRect 0 1 inb_S3x3x64x128_S1x1x64x128_0_1_0_0))
        (View.ld (iblk V c 2 t) (tapRect 0 2 inb_S3x3x64x128_S1x1x64x128_0_2_0_0))
        (View.ld (iblk V c 2 t) (tapRect 1 0 inb_S3x3x64x128_S1x1x64x128_1_0_0_0))
        (View.ld (iblk V c 2 t) (tapRect 1 1 inb_S3x3x64x128_S1x1x64x128_1_1_0_0))
        (View.ld (iblk V c 2 t) (tapRect 1 2 inb_S3x3x64x128_S1x1x64x128_1_2_0_0))
        (View.ld (iblk V c 2 t) (tapRect 2 0 inb_S3x3x64x128_S1x1x64x128_2_0_0_0))
        (View.ld (iblk V c 2 t) (tapRect 2 1 inb_S3x3x64x128_S1x1x64x128_2_1_0_0))
        (View.ld (iblk V c 2 t) (tapRect 2 2 inb_S3x3x64x128_S1x1x64x128_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x120x64 .f32) (wk' : Vec Ideal S3x3x64x128 .f32) (b : Vec Ideal S1x128 .f32)
    (th : Fin 16) (w : Fin 112) (co : Fin 128) :
    out xa xb wk' b (ix4 (0 : Fin 1) th w co)
      = max ((∑ dy : Fin 3, ∑ dx : Fin 3, ∑ ci : Fin 64,
              tiles xa xb (⟨th.val + dy.val, by omega⟩ : Fin 32) (⟨w.val + dx.val, by omega⟩ : Fin 120) ci
                * taps (View.ld wk' (tapRect 0 0 inb_S3x3x64x128_S1x1x64x128_0_0_0_0))
                    (View.ld wk' (tapRect 0 1 inb_S3x3x64x128_S1x1x64x128_0_1_0_0))
                    (View.ld wk' (tapRect 0 2 inb_S3x3x64x128_S1x1x64x128_0_2_0_0))
                    (View.ld wk' (tapRect 1 0 inb_S3x3x64x128_S1x1x64x128_1_0_0_0))
                    (View.ld wk' (tapRect 1 1 inb_S3x3x64x128_S1x1x64x128_1_1_0_0))
                    (View.ld wk' (tapRect 1 2 inb_S3x3x64x128_S1x1x64x128_1_2_0_0))
                    (View.ld wk' (tapRect 2 0 inb_S3x3x64x128_S1x1x64x128_2_0_0_0))
                    (View.ld wk' (tapRect 2 1 inb_S3x3x64x128_S1x1x64x128_2_1_0_0))
                    (View.ld wk' (tapRect 2 2 inb_S3x3x64x128_S1x1x64x128_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg7.N) :
    (dat V c).flushed 4 t = ((cfg7.win 4).blk t).view.read (Elt Ideal) (G V c) := by
  show (cfg7.win 4).cut (grid7.coords t) ((dat V c).after 4 t) = _
  rw [after_4]
  funext x
  obtain ⟨u, th, w, co, rfl⟩ : ∃ (u : Fin 1) (th : Fin 16) (w : Fin 112) (co : Fin 128), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg7.win 4).blk t).view.emb (ix4 (0 : Fin 1) th w co))
      = conv V c (pn t) (⟨(pr t).val * 16 + th.val, by have := (pr t).isLt; omega⟩ : Fin 112) w co :=
    (G_apply V c _).trans (conv_congr V c
      (Fin.ext (by show win7_4.index t 0 * 1 + 1 * 0 = t.val / 7; rw [h0]; omega))
      (Fin.ext (by show win7_4.index t 1 * 16 + 1 * th.val = t.val % 7 * 16 + th.val; rw [h1]; omega))
      (Fin.ext (by show win7_4.index t 2 * 112 + 1 * w.val = w.val; rw [h2]; omega))
      (Fin.ext (by show win7_4.index t 3 * 128 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg7.N) (i : S16x112x112x128.Idx) :
    i ∈ ((cfg7.win 4).blk t).view.set ↔ (i 0 : Nat) = t.val / 7 ∧ t.val % 7 * 16 ≤ (i 1 : Nat) ∧ (i 1 : Nat) < t.val % 7 * 16 + 16 := by
  show i ∈ ((View.whole main_v33).slice (win7_4.rect t)).set ↔ _
  rw [View.set_slice_whole, Rect.mem_set_unit]
  obtain ⟨-, -, -, -, ⟨h0, h1, h2, h3⟩⟩ := idx_facts t
  have b2 : (i 2 : Nat) < 112 := (i 2).isLt
  have b3 : (i 3 : Nat) < 128 := (i 3).isLt
  have e0 : win7_4.index t 0 * win7_4.size 0 = t.val / 7 := by rw [h0]; show t.val / 7 * 1 = _; omega
  have e1 : win7_4.index t 1 * win7_4.size 1 = t.val % 7 * 16 := by rw [h1]; rfl
  have e2 : win7_4.index t 2 * win7_4.size 2 = 0 := by rw [h2]; rfl
  have e3 : win7_4.index t 3 * win7_4.size 3 = 0 := by rw [h3]; rfl
  have x0 : win7_4.xsize (grid7.coords t) 0 = 1 := rfl
  have x1 : win7_4.xsize (grid7.coords t) 1 = 16 := rfl
  have x2 : win7_4.xsize (grid7.coords t) 2 = 112 := rfl
  have x3 : win7_4.xsize (grid7.coords t) 3 = 128 := rfl
  refine ⟨fun h => ?_, fun h a => ?_⟩
  · have a0 := h 0; have a1 := h 1
    rw [e0, x0] at a0; rw [e1, x1] at a1
    exact ⟨by omega, a1⟩
  · match a with
    | ⟨0, _⟩ => show win7_4.index t 0 * win7_4.size 0 ≤ (i 0 : Nat) ∧ (i 0 : Nat) < win7_4.index t 0 * win7_4.size 0 + win7_4.xsize (grid7.coords t) 0
                rw [e0, x0]; omega
    | ⟨1, _⟩ => show win7_4.index t 1 * win7_4.size 1 ≤ (i 1 : Nat) ∧ (i 1 : Nat) < win7_4.index t 1 * win7_4.size 1 + win7_4.xsize (grid7.coords t) 1
                rw [e1, x1]; exact h.2
    | ⟨2, _⟩ => show win7_4.index t 2 * win7_4.size 2 ≤ (i 2 : Nat) ∧ (i 2 : Nat) < win7_4.index t 2 * win7_4.size 2 + win7_4.xsize (grid7.coords t) 2
                rw [e2, x2]; omega
    | ⟨3, _⟩ => show win7_4.index t 3 * win7_4.size 3 ≤ (i 3 : Nat) ∧ (i 3 : Nat) < win7_4.index t 3 * win7_4.size 3 + win7_4.xsize (grid7.coords t) 3
                rw [e3, x3]; omega

/-- Every index of the output array is in the block of the point of its image and row tile. -/
theorem cover (i : S16x112x112x128.Idx) :
    ∃ t : Fin cfg7.N, (cfg7.win 4).flush t = true ∧ i ∈ ((cfg7.win 4).blk t).view.set := by
  have b0 : (i 0 : Nat) < 16 := (i 0).isLt
  have b1 : (i 1 : Nat) < 112 := (i 1).isLt
  refine ⟨⟨(i 0 : Nat) * 7 + (i 1 : Nat) / 16, by rw [N_eq]; omega⟩, flush7_4 _, ?_⟩
  rw [mem_blk]
  dsimp only
  omega

/-- The output array after the last grid point is `G`. -/
theorem final_out (c : Dev nD) : (dat V c).arrAt 4 cfg7.N = G V c :=
  (dat V c).arrAt_eq_of_cover 4 (G V c) (fun t _ => flushed_eq V c t) cover

/-- The output array after the last grid point: at (n, h, w, co) the 3×3 correlation of the padded input with the
    kernel over the 64 input channels, plus the bias, clamped below at zero. The sums nest dy, dx, ci. -/
theorem out_value (c : Dev nD) (n : Fin 16) (h : Fin 112) (w : Fin 112) (co : Fin 128) :
    (dat V c).arrAt 4 cfg7.N (ix4 n h w co)
      = max ((∑ dy : Fin 3, ∑ dx : Fin 3, ∑ ci : Fin 64,
                xp V c (ix4 n (⟨h.val + dy.val, by omega⟩ : Fin 128) (⟨w.val + dx.val, by omega⟩ : Fin 120) ci)
                  * wk V c (ix4 dy dx ci co))
              + bias V c (ix2 (0 : Fin 1) co)) 0 := by
  rw [final_out]
  rfl

end Cert.ReferenceIdeal.Reg7
-- ==== Proof.RI.Val7.lean ====
import proofs.«143011_g2000502688546152_pallasbulk_1201_3_alg».proof.Proof.RI.Seg7
import proofs.«143011_g2000502688546152_pallasbulk_1201_3_alg».proof.Proof.RI.Reg7Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg7

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 112 112 64)
    (hx : ∀ (n : Fin 16) (i : Fin 128) (j : Fin 120) (ci : Fin 64),
      (W c (Proc.devRef .tc (Pipeline.arrRef spec7 0)) : FVec 𝕀 S16x128x120x64 .f32) (ix4 n i j ci) = Cert.Spec.padAt z n i.val j.val ci) :
    Cert.Spec.curry4 (Wout W c (Proc.devRef .tc (Pipeline.arrRef spec7 4)) : FVec 𝕀 S16x112x112x128 .f32)
      = Cert.Spec.convRelu z (Cert.Spec.curryW (W c (Proc.devRef .tc (Pipeline.arrRef spec7 2)) : FVec 𝕀 S3x3x64x128 .f32))
          (Cert.Spec.curryB (W c (Proc.devRef .tc (Pipeline.arrRef spec7 3)) : FVec 𝕀 S1x128 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg7

end
-- ==== Proof.RI.Reg8Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·120 each, then 120 zero rows), and for each tap (dy, dx)
multiplies the rows shifted by 120·dy + dx with the tap's [64, 128] matrix. Read at row th·120 + w and column co, the nine
products add up to the 3×3 correlation at pixel (th, w), output channel co. -/

set_option maxRecDepth 16384

noncomputable section

namespace Cert.ReferenceIdeal.Reg8

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [1920, 64] by [64, 128] product into the zero accumulator, at (r, co): the sum over the 64 input channels. -/
theorem mm_apply (L : FVec Ideal S1920x64 .f32) (R : FVec Ideal S64x128 .f32) (r : Fin 1920) (co : Fin 128) :
    matmul dot_S1920x64_S64x128_S1920x128_1_0_0_1_n_n none L R (constant S1920x128 .f32 0x00000000#32) (ix2 r co)
      = ∑ ci : Fin 64, L (ix2 r ci) * R (ix2 ci co) := by
  refine (Ideal.matmul_constant_zero_apply _ _ _ _ _).trans ?_
  refine (Equiv.sum_comp (contrEquiv1 dot_S1920x64_S64x128_S1920x128_1_0_0_1_n_n 64 rfl rfl).symm _).symm.trans ?_
  refine Finset.sum_congr rfl fun ci _ => ?_
  have hl : dot_S1920x64_S64x128_S1920x128_1_0_0_1_n_n.lhsIdx (ix2 r co)
      ((contrEquiv1 dot_S1920x64_S64x128_S1920x128_1_0_0_1_n_n 64 rfl rfl).symm ci) = ix2 r ci := by
    funext a; apply Fin.ext
    match a with
    | ⟨0, _⟩ => rfl
    | ⟨1, _⟩ => exact contrEquiv1_symm_val dot_S1920x64_S64x128_S1920x128_1_0_0_1_n_n 64 rfl rfl ci
  have hr : dot_S1920x64_S64x128_S1920x128_1_0_0_1_n_n.rhsIdx (ix2 r co)
      ((contrEquiv1 dot_S1920x64_S64x128_S1920x128_1_0_0_1_n_n 64 rfl rfl).symm ci) = ix2 ci co := by
    funext a; apply Fin.ext
    match a with
    | ⟨0, _⟩ => exact contrEquiv1_symm_val dot_S1920x64_S64x128_S1920x128_1_0_0_1_n_n 64 rfl rfl ci
    | ⟨1, _⟩ => rfl
  rw [hl, hr]

/-! ## The stacked rows -/

section Slab
variable (xa xb : Vec Ideal S1x16x120x64 .f32)

/-- Pixel (hh, w') of the two tiles stacked one above the other, hh < 32. -/
def tiles (hh : Fin 32) (w' : Fin 120) (ci : Fin 64) : EReal :=
  if h : hh.val < 16 then xa (ix4 (0 : Fin 1) (⟨hh.val, h⟩ : Fin 16) w' ci)
  else xb (ix4 (0 : Fin 1) (⟨hh.val - 16, by omega⟩ : Fin 16) w' ci)

/-- Row hh·120 + w' of the first 1920 rows is pixel (hh, w') of the first tile. -/
theorem slab_lo (hh : Fin 16) (w' : Fin 120) (ci : Fin 64) (q : Fin 3960) (hq : q.val = hh.val * 120 + w'.val) :
    k8_pay2 xa xb (ix2 q ci) = xa (ix4 (0 : Fin 1) hh w' ci) := by
  unfold k8_pay2
  have hq' : q.val < 1920 := by have := hh.isLt; have := w'.isLt; omega
  refine Eq.trans (concatenate_apply_piece (0 : Fin 2) _ _ (ix2 q ci) 0 ?_ S1920x64
    (shapeCast S1920x64 (shapeCast S16x120x64 xa shapeCasts_S1x16x120x64_S16x120x64) shapeCasts_S16x120x64_S1920x64) ?_ ?_ 0 ?_
    (ix2 (⟨q.val, hq'⟩ : Fin 1920) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 64 + ci.val = q.val * 64 + ci.val
      rw [hq]
    · rw [Shape.rowMajor_val_four, Shape.rowMajor_val_three]
      show ((0 * 16 + hh.val) * 120 + w'.val) * 64 + ci.val = (hh.val * 120 + w'.val) * 64 + ci.val
      omega

/-- Row 1920 + hh·120 + w' is pixel (hh, w') of the second tile. -/
theorem slab_hi (hh : Fin 16) (w' : Fin 120) (ci : Fin 64) (q : Fin 3960) (hq : q.val = 1920 + (hh.val * 120 + w'.val)) :
    k8_pay2 xa xb (ix2 q ci) = xb (ix4 (0 : Fin 1) hh w' ci) := by
  unfold k8_pay2
  have hq' : q.val - 1920 < 1920 := by have := hh.isLt; have := w'.isLt; omega
  refine Eq.trans (concatenate_apply_piece (0 : Fin 2) _ _ (ix2 q ci) 1 ?_ S1920x64
    (shapeCast S1920x64 (shapeCast S16x120x64 xb shapeCasts_S1x16x120x64_S16x120x64) shapeCasts_S16x120x64_S1920x64) ?_ ?_ 1920 ?_
    (ix2 (⟨q.val - 1920, hq'⟩ : Fin 1920) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 1920 + (q.val - 1920) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 64 + ci.val = (q.val - 1920) * 64 + ci.val
      omega
    · rw [Shape.rowMajor_val_four, Shape.rowMajor_val_three]
      show ((0 * 16 + hh.val) * 120 + w'.val) * 64 + ci.val = (hh.val * 120 + w'.val) * 64 + ci.val
      omega

/-- Row hh·120 + w', hh < 32, of the stacked rows is pixel (hh, w') of the stacked tiles. -/
theorem slab_apply (hh : Fin 32) (w' : Fin 120) (ci : Fin 64) (q : Fin 3960) (hq : q.val = hh.val * 120 + w'.val) :
    k8_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 1920 + ((hh.val - 16) * 120 + w'.val); omega)

end Slab

/-! ## A tap's product read at an entry -/

/-- A tap matrix [1, 1, 64, 128] flattened to [64, 128], at (ci, co). -/
theorem tapmat_apply (Wt : Vec Ideal S1x1x64x128 .f32) (ci : Fin 64) (co : Fin 128) :
    (shapeCast S64x128 Wt shapeCasts_S1x1x64x128_S64x128 : FVec Ideal S64x128 .f32) (ix2 ci co) = Wt (ix4 (0 : Fin 1) (0 : Fin 1) ci co) := by
  refine shapeCast_apply _ _ _ _ ?_
  rw [Shape.rowMajor_val_four, Shape.rowMajor_val_two]
  show ((0 * 1 + 0) * 64 + ci.val) * 128 + co.val = ci.val * 128 + co.val
  omega

/-- Rows o, o+1, … of a matrix of n0 rows against a flattened tap matrix, at (r, co): the sum over the 64 input
    channels of row o + r times the tap's column co. -/
theorem tap_apply {n0 : Nat} (o : Nat) (X : FVec Ideal ⟨2, ![n0, 64]⟩ .f32)
    (h : (⟨2, ![n0, 64]⟩ : Shape).Slices ![o, 0] S1920x64) (Wt : Vec Ideal S1x1x64x128 .f32)
    (r : Fin 1920) (co : Fin 128) (hk : o + 1919 < n0) :
    matmul dot_S1920x64_S64x128_S1920x128_1_0_0_1_n_n none (extractStridedSlice S1920x64 ![o, 0] X h : FVec Ideal S1920x64 .f32)
        (shapeCast S64x128 Wt shapeCasts_S1x1x64x128_S64x128 : FVec Ideal S64x128 .f32) (constant S1920x128 .f32 0x00000000#32) (ix2 r co)
      = ∑ ci : Fin 64, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x120x64 .f32)

/-- The rows from the second on. -/
theorem pay3_apply (q : Fin 3959) (ci : Fin 64) :
    k8_pay3 xa xb (ix2 q ci) = k8_pay2 xa xb (ix2 (⟨1 + q.val, by omega⟩ : Fin 3960) ci) := by
  unfold k8_pay3
  exact slice2_axis0_apply 1 _ _ q ci _ rfl

/-- The rows from the third on. -/
theorem pay4_apply (q : Fin 3958) (ci : Fin 64) :
    k8_pay4 xa xb (ix2 q ci) = k8_pay2 xa xb (ix2 (⟨2 + q.val, by omega⟩ : Fin 3960) ci) := by
  unfold k8_pay4
  exact slice2_axis0_apply 2 _ _ q ci _ rfl

end Shift

/-! ## The accumulations -/

/-- The first three taps added onto zero. -/
theorem pay5_apply (xa xb : Vec Ideal S1x16x120x64 .f32) (w00 w01 w02 : Vec Ideal S1x1x64x128 .f32) (r : Fin 1920) (co : Fin 128) :
    k8_pay5 xa xb w00 w01 w02 (ix2 r co)
      = 0 + (∑ ci : Fin 64, k8_pay2 xa xb (ix2 (⟨0 + r.val, by omega⟩ : Fin 3960) ci) * w00 (ix4 (0 : Fin 1) (0 : Fin 1) ci co))
          + (∑ ci : Fin 64, k8_pay3 xa xb (ix2 (⟨0 + r.val, by omega⟩ : Fin 3959) ci) * w01 (ix4 (0 : Fin 1) (0 : Fin 1) ci co))
          + (∑ ci : Fin 64, k8_pay4 xa xb (ix2 (⟨0 + r.val, by omega⟩ : Fin 3958) ci) * w02 (ix4 (0 : Fin 1) (0 : Fin 1) ci co)) := by
  unfold k8_pay5
  simp only [addf_apply]
  rw [tap_apply 0 (k8_pay2 xa xb) _ w00 r co (by omega), tap_apply 0 (k8_pay3 xa xb) _ w01 r co (by omega),
    tap_apply 0 (k8_pay4 xa xb) _ w02 r co (by omega)]
  congr 3
  exact Ideal.ofBits_zero_f32

/-- The other six taps and the bias added onto what the first three left. -/
theorem pay8_apply (v7 : FVec Ideal S3960x64 .f32) (v8 : FVec Ideal S3959x64 .f32) (v9 : FVec Ideal S3958x64 .f32)
    (v25 : FVec Ideal S1920x128 .f32) (v26 : FVec Ideal S1920x64 .f32) (v28 : FVec Ideal S64x128 .f32)
    (w11 w12 w20 w21 w22 : Vec Ideal S1x1x64x128 .f32) (b : Vec Ideal S1x128 .f32) (r : Fin 1920) (co : Fin 128) :
    k8_pay8 v7 v8 v9 v25 v26 v28 w11 w12 w20 w21 w22 b (ix2 r co)
      = v25 (ix2 r co) + (∑ ci : Fin 64, v26 (ix2 r ci) * v28 (ix2 ci co))
          + (∑ ci : Fin 64, v8 (ix2 (⟨120 + r.val, by omega⟩ : Fin 3959) ci) * w11 (ix4 (0 : Fin 1) (0 : Fin 1) ci co))
          + (∑ ci : Fin 64, v9 (ix2 (⟨120 + r.val, by omega⟩ : Fin 3958) ci) * w12 (ix4 (0 : Fin 1) (0 : Fin 1) ci co))
          + (∑ ci : Fin 64, v7 (ix2 (⟨240 + r.val, by omega⟩ : Fin 3960) ci) * w20 (ix4 (0 : Fin 1) (0 : Fin 1) ci co))
          + (∑ ci : Fin 64, v8 (ix2 (⟨240 + r.val, by omega⟩ : Fin 3959) ci) * w21 (ix4 (0 : Fin 1) (0 : Fin 1) ci co))
          + (∑ ci : Fin 64, v9 (ix2 (⟨240 + r.val, by omega⟩ : Fin 3958) ci) * w22 (ix4 (0 : Fin 1) (0 : Fin 1) ci co))
          + b (ix2 (0 : Fin 1) co) := by
  unfold k8_pay8
  simp only [addf_apply]
  rw [mm_apply, tap_apply 120 v8 _ w11 r co (by omega), tap_apply 120 v9 _ w12 r co (by omega),
    tap_apply 240 v7 _ w20 r co (by omega), tap_apply 240 v8 _ w21 r co (by omega), tap_apply 240 v9 _ w22 r co (by omega),
    broadcastTo_1b_ab_apply]

/-- The fourth tap's rows and matrix. -/
theorem pay6_apply (xa xb : Vec Ideal S1x16x120x64 .f32) (r : Fin 1920) (ci : Fin 64) :
    k8_pay6 xa xb (ix2 r ci) = k8_pay2 xa xb (ix2 (⟨120 + r.val, by omega⟩ : Fin 3960) ci) := by
  unfold k8_pay6
  exact slice2_axis0_apply 120 _ _ r ci _ rfl

theorem pay7_apply (w10 : Vec Ideal S1x1x64x128 .f32) (ci : Fin 64) (co : Fin 128) :
    k8_pay7 w10 (ix2 ci co) = w10 (ix4 (0 : Fin 1) (0 : Fin 1) ci co) := by
  unfold k8_pay7
  exact tapmat_apply w10 ci co

/-- The clamp and the cut to 112 columns: entry (0, th, w, co) of the tile is row th·120 + w, column co. -/
theorem pay1_apply (v58 v59 : FVec Ideal S1920x128 .f32) (th : Fin 16) (w : Fin 112) (co : Fin 128) :
    k8_pay1 v58 v59 (ix4 (0 : Fin 1) th w co)
      = max (v58 (ix2 (⟨th.val * 120 + w.val, by omega⟩ : Fin 1920) co)) (v59 (ix2 (⟨th.val * 120 + w.val, by omega⟩ : Fin 1920) co)) := by
  unfold k8_pay1
  refine (shapeCast_abc_1abc_apply _ _ (0 : Fin 1) th w co).trans ?_
  refine (slice3_axis1_apply 0 _ _ th w co (⟨w.val, by omega⟩ : Fin 120) (by simp)).trans ?_
  refine (shapeCast_apply _ _ _ (ix2 (⟨th.val * 120 + w.val, by omega⟩ : Fin 1920) co) ?_).trans (maximumf_apply _ _ _)
  rw [Shape.rowMajor_val_two, Shape.rowMajor_val_three]
  rfl

theorem pay9_apply (j : S1920x128.Idx) : k8_pay9 (F := Ideal) j = 0 := by
  unfold k8_pay9
  exact Ideal.ofBits_zero_f32

/-! ## The body's value at an entry -/

section Entry
variable (xa xb : Vec Ideal S1x16x120x64 .f32)

/-- Row (th+dy)·120 + (w+dx) of the stacked rows is pixel (th+dy, w+dx) of the stacked tiles. -/
theorem slab_tap (th : Fin 16) (w : Fin 112) (dy dx : Fin 3) (ci : Fin 64) (q : Fin 3960)
    (hq : q.val = (th.val + dy.val) * 120 + (w.val + dx.val)) :
    k8_pay2 xa xb (ix2 q ci)
      = tiles xa xb (⟨th.val + dy.val, by omega⟩ : Fin 32) (⟨w.val + dx.val, by omega⟩ : Fin 120) ci :=
  slab_apply xa xb _ _ ci q hq

/-- The nine tap matrices as one family. -/
def taps (w00 w01 w02 w10 w11 w12 w20 w21 w22 : Vec Ideal S1x1x64x128 .f32) (dy dx : Fin 3) : Vec Ideal S1x1x64x128 .f32 :=
  ![![w00, w01, w02], ![w10, w11, w12], ![w20, w21, w22]] dy dx

/-- One output entry of the body: the 3×3 correlation of the stacked tiles with the nine tap matrices over the 64
    input channels, plus the bias, clamped below at zero. -/
theorem conv_entry (w00 w01 w02 w10 w11 w12 w20 w21 w22 : Vec Ideal S1x1x64x128 .f32) (b : Vec Ideal S1x128 .f32)
    (th : Fin 16) (w : Fin 112) (co : Fin 128) :
    k8_pay1 (k8_pay8 (k8_pay2 xa xb) (k8_pay3 xa xb) (k8_pay4 xa xb) (k8_pay5 xa xb w00 w01 w02) (k8_pay6 xa xb)
        (k8_pay7 w10) w11 w12 w20 w21 w22 b) k8_pay9 (ix4 (0 : Fin 1) th w co)
      = max ((∑ dy : Fin 3, ∑ dx : Fin 3, ∑ ci : Fin 64,
              tiles xa xb (⟨th.val + dy.val, by omega⟩ : Fin 32) (⟨w.val + dx.val, by omega⟩ : Fin 120) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 64,
      tiles xa xb (⟨th.val + dy.val, by omega⟩ : Fin 32) (⟨w.val + dx.val, by omega⟩ : Fin 120) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg8
-- ==== Proof.RI.Reg8Value.lean ====
import proofs.«143011_g2000502688546152_pallasbulk_1201_3_alg».proof.Proof.RI.Reg8
import proofs.«143011_g2000502688546152_pallasbulk_1201_3_alg».proof.Proof.RI.Reg8Pure

/-! # Region 8 at the extended reals: the output array is the 3×3 correlation, plus bias, clamped at zero

Point t = 7·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg8

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 128, 120, 64], the kernel [3, 3, 64, 128] and the bias [1, 128] as the region finds them. -/
abbrev xp (c : Dev nD) : S16x128x120x64.Idx → EReal := V c (Pipeline.arrRef spec8 0)
abbrev wk (c : Dev nD) : S3x3x64x128.Idx → EReal := V c (Pipeline.arrRef spec8 2)
abbrev bias (c : Dev nD) : S1x128.Idx → EReal := V c (Pipeline.arrRef spec8 3)

/-! ## The grid's points and the windows' block indices -/

theorem N_eq : cfg8.N = 112 := N_8

/-- The image and the row tile of point `t`. -/
def pn (t : Fin cfg8.N) : Fin 16 := ⟨t.val / 7, by have := t.isLt; have := N_eq; omega⟩
def pr (t : Fin cfg8.N) : Fin 7 := ⟨t.val % 7, Nat.mod_lt _ (by decide)⟩

/-- The five windows' block indices at every point: (n, r), (n, r + 1), the origin twice, (n, r). -/
theorem idx_facts : ∀ t : Fin cfg8.N,
    (win8_0.index t 0 = t.val / 7 ∧ win8_0.index t 1 = t.val % 7 ∧ win8_0.index t 2 = 0 ∧ win8_0.index t 3 = 0)
    ∧ (win8_1.index t 0 = t.val / 7 ∧ win8_1.index t 1 = t.val % 7 + 1 ∧ win8_1.index t 2 = 0 ∧ win8_1.index t 3 = 0)
    ∧ (win8_2.index t 0 = 0 ∧ win8_2.index t 1 = 0 ∧ win8_2.index t 2 = 0 ∧ win8_2.index t 3 = 0)
    ∧ (win8_3.index t 0 = 0 ∧ win8_3.index t 1 = 0)
    ∧ (win8_4.index t 0 = t.val / 7 ∧ win8_4.index t 1 = t.val % 7 ∧ win8_4.index t 2 = 0 ∧ win8_4.index t 3 = 0) :=
  (by decide +kernel : ∀ t : Fin grid8.N, _)

/-! ## The windows' blocks read at an index -/

/-- The first input tile at point (n, r): rows 16·r … of image n of the padded input. -/
theorem iblk0_apply (c : Dev nD) (t : Fin cfg8.N) (hh : Fin 16) (w' : Fin 120) (ci : Fin 64) :
    iblk V c 0 t (ix4 (0 : Fin 1) hh w' ci)
      = xp V c (ix4 (pn t) (⟨(pr t).val * 16 + hh.val, by have := (pr t).isLt; omega⟩ : Fin 128) w' ci) := by
  obtain ⟨⟨h0, h1, h2, h3⟩, -⟩ := idx_facts t
  unfold iblk
  rw [View.read_apply]
  show V c (Pipeline.arrRef spec8 0) _ = V c (Pipeline.arrRef spec8 0) _
  congr 1
  funext a
  apply Fin.ext
  match a with
  | ⟨0, _⟩ => show win8_0.index t 0 * 1 + 1 * 0 = t.val / 7; rw [h0]; omega
  | ⟨1, _⟩ => show win8_0.index t 1 * 16 + 1 * hh.val = t.val % 7 * 16 + hh.val; rw [h1]; omega
  | ⟨2, _⟩ => show win8_0.index t 2 * 120 + 1 * w'.val = w'.val; rw [h2]; omega
  | ⟨3, _⟩ => show win8_0.index t 3 * 64 + 1 * ci.val = ci.val; rw [h3]; omega

/-- The second input tile at point (n, r): rows 16·(r + 1) … of image n of the padded input. -/
theorem iblk1_apply (c : Dev nD) (t : Fin cfg8.N) (hh : Fin 16) (w' : Fin 120) (ci : Fin 64) :
    iblk V c 1 t (ix4 (0 : Fin 1) hh w' ci)
      = xp V c (ix4 (pn t) (⟨((pr t).val + 1) * 16 + hh.val, by have := (pr t).isLt; omega⟩ : Fin 128) w' ci) := by
  obtain ⟨-, ⟨h0, h1, h2, h3⟩, -⟩ := idx_facts t
  unfold iblk
  rw [View.read_apply]
  show V c (Pipeline.arrRef spec8 1) _ = V c (Pipeline.arrRef spec8 0) _
  congr 1
  funext a
  apply Fin.ext
  match a with
  | ⟨0, _⟩ => show win8_1.index t 0 * 1 + 1 * 0 = t.val / 7; rw [h0]; omega
  | ⟨1, _⟩ => show win8_1.index t 1 * 16 + 1 * hh.val = (t.val % 7 + 1) * 16 + hh.val; rw [h1]; omega
  | ⟨2, _⟩ => show win8_1.index t 2 * 120 + 1 * w'.val = w'.val; rw [h2]; omega
  | ⟨3, _⟩ => show win8_1.index t 3 * 64 + 1 * ci.val = ci.val; rw [h3]; omega

/-- The kernel window is the whole kernel array at every point. -/
theorem iblk2_apply (c : Dev nD) (t : Fin cfg8.N) (dy dx : Fin 3) (ci : Fin 64) (co : Fin 128) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec8 2) _ = V c (Pipeline.arrRef spec8 2) _
  congr 1
  funext a
  apply Fin.ext
  match a with
  | ⟨0, _⟩ => show win8_2.index t 0 * 3 + 1 * dy.val = dy.val; rw [h0]; omega
  | ⟨1, _⟩ => show win8_2.index t 1 * 3 + 1 * dx.val = dx.val; rw [h1]; omega
  | ⟨2, _⟩ => show win8_2.index t 2 * 64 + 1 * ci.val = ci.val; rw [h2]; omega
  | ⟨3, _⟩ => show win8_2.index t 3 * 128 + 1 * co.val = co.val; rw [h3]; omega

/-- The bias window is the whole bias row at every point. -/
theorem iblk3_apply (c : Dev nD) (t : Fin cfg8.N) (co : Fin 128) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec8 3) _ = V c (Pipeline.arrRef spec8 3) _
  congr 1
  funext a
  apply Fin.ext
  match a with
  | ⟨0, _⟩ => show win8_3.index t 0 * 1 + 1 * 0 = 0; rw [h0]
  | ⟨1, _⟩ => show win8_3.index t 1 * 128 + 1 * co.val = co.val; rw [h1]; omega

/-! ## The whole-array function and what a point writes back -/

/-- The correlation at (n, h, w, co): the sums nest dy, dx, ci. -/
def conv (c : Dev nD) (n : Fin 16) (h : Fin 112) (w : Fin 112) (co : Fin 128) : EReal :=
  max ((∑ dy : Fin 3, ∑ dx : Fin 3, ∑ ci : Fin 64,
          xp V c (ix4 n (⟨h.val + dy.val, by omega⟩ : Fin 128) (⟨w.val + dx.val, by omega⟩ : Fin 120) ci)
            * wk V c (ix4 dy dx ci co))
        + bias V c (ix2 (0 : Fin 1) co)) 0

/-- The output array the region is shown to leave. -/
def G (c : Dev nD) : Buf (Elt Ideal) ((c : Thread nD τ).loc main_v35) :=
  fun i : S16x112x112x128.Idx => conv V c (i 0) (i 1) (i 2) (i 3)

theorem G_apply (c : Dev nD) (i : S16x112x112x128.Idx) : G V c i = conv V c (i 0) (i 1) (i 2) (i 3) := rfl

theorem conv_congr (c : Dev nD) {n n' : Fin 16} {h h' : Fin 112} {w w' : Fin 112} {co co' : Fin 128}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg8.N) (hh : Fin 32) (w' : Fin 120) (ci : Fin 64) :
    tiles (iblk V c 0 t) (iblk V c 1 t) hh w' ci
      = xp V c (ix4 (pn t) (⟨(pr t).val * 16 + hh.val, by have := (pr t).isLt; omega⟩ : Fin 128) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg8.N) (dy dx : Fin 3) (ci : Fin 64) (co : Fin 128) :
    taps (View.ld (iblk V c 2 t) (tapRect 0 0 inb_S3x3x64x128_S1x1x64x128_0_0_0_0))
        (View.ld (iblk V c 2 t) (tapRect 0 1 inb_S3x3x64x128_S1x1x64x128_0_1_0_0))
        (View.ld (iblk V c 2 t) (tapRect 0 2 inb_S3x3x64x128_S1x1x64x128_0_2_0_0))
        (View.ld (iblk V c 2 t) (tapRect 1 0 inb_S3x3x64x128_S1x1x64x128_1_0_0_0))
        (View.ld (iblk V c 2 t) (tapRect 1 1 inb_S3x3x64x128_S1x1x64x128_1_1_0_0))
        (View.ld (iblk V c 2 t) (tapRect 1 2 inb_S3x3x64x128_S1x1x64x128_1_2_0_0))
        (View.ld (iblk V c 2 t) (tapRect 2 0 inb_S3x3x64x128_S1x1x64x128_2_0_0_0))
        (View.ld (iblk V c 2 t) (tapRect 2 1 inb_S3x3x64x128_S1x1x64x128_2_1_0_0))
        (View.ld (iblk V c 2 t) (tapRect 2 2 inb_S3x3x64x128_S1x1x64x128_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x120x64 .f32) (wk' : Vec Ideal S3x3x64x128 .f32) (b : Vec Ideal S1x128 .f32)
    (th : Fin 16) (w : Fin 112) (co : Fin 128) :
    out xa xb wk' b (ix4 (0 : Fin 1) th w co)
      = max ((∑ dy : Fin 3, ∑ dx : Fin 3, ∑ ci : Fin 64,
              tiles xa xb (⟨th.val + dy.val, by omega⟩ : Fin 32) (⟨w.val + dx.val, by omega⟩ : Fin 120) ci
                * taps (View.ld wk' (tapRect 0 0 inb_S3x3x64x128_S1x1x64x128_0_0_0_0))
                    (View.ld wk' (tapRect 0 1 inb_S3x3x64x128_S1x1x64x128_0_1_0_0))
                    (View.ld wk' (tapRect 0 2 inb_S3x3x64x128_S1x1x64x128_0_2_0_0))
                    (View.ld wk' (tapRect 1 0 inb_S3x3x64x128_S1x1x64x128_1_0_0_0))
                    (View.ld wk' (tapRect 1 1 inb_S3x3x64x128_S1x1x64x128_1_1_0_0))
                    (View.ld wk' (tapRect 1 2 inb_S3x3x64x128_S1x1x64x128_1_2_0_0))
                    (View.ld wk' (tapRect 2 0 inb_S3x3x64x128_S1x1x64x128_2_0_0_0))
                    (View.ld wk' (tapRect 2 1 inb_S3x3x64x128_S1x1x64x128_2_1_0_0))
                    (View.ld wk' (tapRect 2 2 inb_S3x3x64x128_S1x1x64x128_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg8.N) :
    (dat V c).flushed 4 t = ((cfg8.win 4).blk t).view.read (Elt Ideal) (G V c) := by
  show (cfg8.win 4).cut (grid8.coords t) ((dat V c).after 4 t) = _
  rw [after_4]
  funext x
  obtain ⟨u, th, w, co, rfl⟩ : ∃ (u : Fin 1) (th : Fin 16) (w : Fin 112) (co : Fin 128), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg8.win 4).blk t).view.emb (ix4 (0 : Fin 1) th w co))
      = conv V c (pn t) (⟨(pr t).val * 16 + th.val, by have := (pr t).isLt; omega⟩ : Fin 112) w co :=
    (G_apply V c _).trans (conv_congr V c
      (Fin.ext (by show win8_4.index t 0 * 1 + 1 * 0 = t.val / 7; rw [h0]; omega))
      (Fin.ext (by show win8_4.index t 1 * 16 + 1 * th.val = t.val % 7 * 16 + th.val; rw [h1]; omega))
      (Fin.ext (by show win8_4.index t 2 * 112 + 1 * w.val = w.val; rw [h2]; omega))
      (Fin.ext (by show win8_4.index t 3 * 128 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg8.N) (i : S16x112x112x128.Idx) :
    i ∈ ((cfg8.win 4).blk t).view.set ↔ (i 0 : Nat) = t.val / 7 ∧ t.val % 7 * 16 ≤ (i 1 : Nat) ∧ (i 1 : Nat) < t.val % 7 * 16 + 16 := by
  show i ∈ ((View.whole main_v35).slice (win8_4.rect t)).set ↔ _
  rw [View.set_slice_whole, Rect.mem_set_unit]
  obtain ⟨-, -, -, -, ⟨h0, h1, h2, h3⟩⟩ := idx_facts t
  have b2 : (i 2 : Nat) < 112 := (i 2).isLt
  have b3 : (i 3 : Nat) < 128 := (i 3).isLt
  have e0 : win8_4.index t 0 * win8_4.size 0 = t.val / 7 := by rw [h0]; show t.val / 7 * 1 = _; omega
  have e1 : win8_4.index t 1 * win8_4.size 1 = t.val % 7 * 16 := by rw [h1]; rfl
  have e2 : win8_4.index t 2 * win8_4.size 2 = 0 := by rw [h2]; rfl
  have e3 : win8_4.index t 3 * win8_4.size 3 = 0 := by rw [h3]; rfl
  have x0 : win8_4.xsize (grid8.coords t) 0 = 1 := rfl
  have x1 : win8_4.xsize (grid8.coords t) 1 = 16 := rfl
  have x2 : win8_4.xsize (grid8.coords t) 2 = 112 := rfl
  have x3 : win8_4.xsize (grid8.coords t) 3 = 128 := rfl
  refine ⟨fun h => ?_, fun h a => ?_⟩
  · have a0 := h 0; have a1 := h 1
    rw [e0, x0] at a0; rw [e1, x1] at a1
    exact ⟨by omega, a1⟩
  · match a with
    | ⟨0, _⟩ => show win8_4.index t 0 * win8_4.size 0 ≤ (i 0 : Nat) ∧ (i 0 : Nat) < win8_4.index t 0 * win8_4.size 0 + win8_4.xsize (grid8.coords t) 0
                rw [e0, x0]; omega
    | ⟨1, _⟩ => show win8_4.index t 1 * win8_4.size 1 ≤ (i 1 : Nat) ∧ (i 1 : Nat) < win8_4.index t 1 * win8_4.size 1 + win8_4.xsize (grid8.coords t) 1
                rw [e1, x1]; exact h.2
    | ⟨2, _⟩ => show win8_4.index t 2 * win8_4.size 2 ≤ (i 2 : Nat) ∧ (i 2 : Nat) < win8_4.index t 2 * win8_4.size 2 + win8_4.xsize (grid8.coords t) 2
                rw [e2, x2]; omega
    | ⟨3, _⟩ => show win8_4.index t 3 * win8_4.size 3 ≤ (i 3 : Nat) ∧ (i 3 : Nat) < win8_4.index t 3 * win8_4.size 3 + win8_4.xsize (grid8.coords t) 3
                rw [e3, x3]; omega

/-- Every index of the output array is in the block of the point of its image and row tile. -/
theorem cover (i : S16x112x112x128.Idx) :
    ∃ t : Fin cfg8.N, (cfg8.win 4).flush t = true ∧ i ∈ ((cfg8.win 4).blk t).view.set := by
  have b0 : (i 0 : Nat) < 16 := (i 0).isLt
  have b1 : (i 1 : Nat) < 112 := (i 1).isLt
  refine ⟨⟨(i 0 : Nat) * 7 + (i 1 : Nat) / 16, by rw [N_eq]; omega⟩, flush8_4 _, ?_⟩
  rw [mem_blk]
  dsimp only
  omega

/-- The output array after the last grid point is `G`. -/
theorem final_out (c : Dev nD) : (dat V c).arrAt 4 cfg8.N = G V c :=
  (dat V c).arrAt_eq_of_cover 4 (G V c) (fun t _ => flushed_eq V c t) cover

/-- The output array after the last grid point: at (n, h, w, co) the 3×3 correlation of the padded input with the
    kernel over the 64 input channels, plus the bias, clamped below at zero. The sums nest dy, dx, ci. -/
theorem out_value (c : Dev nD) (n : Fin 16) (h : Fin 112) (w : Fin 112) (co : Fin 128) :
    (dat V c).arrAt 4 cfg8.N (ix4 n h w co)
      = max ((∑ dy : Fin 3, ∑ dx : Fin 3, ∑ ci : Fin 64,
                xp V c (ix4 n (⟨h.val + dy.val, by omega⟩ : Fin 128) (⟨w.val + dx.val, by omega⟩ : Fin 120) ci)
                  * wk V c (ix4 dy dx ci co))
              + bias V c (ix2 (0 : Fin 1) co)) 0 := by
  rw [final_out]
  rfl

end Cert.ReferenceIdeal.Reg8
-- ==== Proof.RI.Val8.lean ====
import proofs.«143011_g2000502688546152_pallasbulk_1201_3_alg».proof.Proof.RI.Seg8
import proofs.«143011_g2000502688546152_pallasbulk_1201_3_alg».proof.Proof.RI.Reg8Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg8

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 112 112 64)
    (hx : ∀ (n : Fin 16) (i : Fin 128) (j : Fin 120) (ci : Fin 64),
      (W c (Proc.devRef .tc (Pipeline.arrRef spec8 0)) : FVec 𝕀 S16x128x120x64 .f32) (ix4 n i j ci) = Cert.Spec.padAt z n i.val j.val ci) :
    Cert.Spec.curry4 (Wout W c (Proc.devRef .tc (Pipeline.arrRef spec8 4)) : FVec 𝕀 S16x112x112x128 .f32)
      = Cert.Spec.convRelu z (Cert.Spec.curryW (W c (Proc.devRef .tc (Pipeline.arrRef spec8 2)) : FVec 𝕀 S3x3x64x128 .f32))
          (Cert.Spec.curryB (W c (Proc.devRef .tc (Pipeline.arrRef spec8 3)) : FVec 𝕀 S1x128 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg8

end
-- ==== Proof.RI.Reg9Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·120 each, then 120 zero rows), and for each tap (dy, dx)
multiplies the rows shifted by 120·dy + dx with the tap's [128, 128] matrix. Read at row th·120 + w and column co, the nine
products add up to the 3×3 correlation at pixel (th, w), output channel co. -/

set_option maxRecDepth 16384

noncomputable section

namespace Cert.ReferenceIdeal.Reg9

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [1920, 128] by [128, 128] product into the zero accumulator, at (r, co): the sum over the 128 input channels. -/
theorem mm_apply (L : FVec Ideal S1920x128 .f32) (R : FVec Ideal S128x128 .f32) (r : Fin 1920) (co : Fin 128) :
    matmul dot_S1920x128_S128x128_S1920x128_1_0_0_1_n_n none L R (constant S1920x128 .f32 0x00000000#32) (ix2 r co)
      = ∑ ci : Fin 128, L (ix2 r ci) * R (ix2 ci co) := by
  refine (Ideal.matmul_constant_zero_apply _ _ _ _ _).trans ?_
  refine (Equiv.sum_comp (contrEquiv1 dot_S1920x128_S128x128_S1920x128_1_0_0_1_n_n 128 rfl rfl).symm _).symm.trans ?_
  refine Finset.sum_congr rfl fun ci _ => ?_
  have hl : dot_S1920x128_S128x128_S1920x128_1_0_0_1_n_n.lhsIdx (ix2 r co)
      ((contrEquiv1 dot_S1920x128_S128x128_S1920x128_1_0_0_1_n_n 128 rfl rfl).symm ci) = ix2 r ci := by
    funext a; apply Fin.ext
    match a with
    | ⟨0, _⟩ => rfl
    | ⟨1, _⟩ => exact contrEquiv1_symm_val dot_S1920x128_S128x128_S1920x128_1_0_0_1_n_n 128 rfl rfl ci
  have hr : dot_S1920x128_S128x128_S1920x128_1_0_0_1_n_n.rhsIdx (ix2 r co)
      ((contrEquiv1 dot_S1920x128_S128x128_S1920x128_1_0_0_1_n_n 128 rfl rfl).symm ci) = ix2 ci co := by
    funext a; apply Fin.ext
    match a with
    | ⟨0, _⟩ => exact contrEquiv1_symm_val dot_S1920x128_S128x128_S1920x128_1_0_0_1_n_n 128 rfl rfl ci
    | ⟨1, _⟩ => rfl
  rw [hl, hr]

/-! ## The stacked rows -/

section Slab
variable (xa xb : Vec Ideal S1x16x120x128 .f32)

/-- Pixel (hh, w') of the two tiles stacked one above the other, hh < 32. -/
def tiles (hh : Fin 32) (w' : Fin 120) (ci : Fin 128) : EReal :=
  if h : hh.val < 16 then xa (ix4 (0 : Fin 1) (⟨hh.val, h⟩ : Fin 16) w' ci)
  else xb (ix4 (0 : Fin 1) (⟨hh.val - 16, by omega⟩ : Fin 16) w' ci)

/-- Row hh·120 + w' of the first 1920 rows is pixel (hh, w') of the first tile. -/
theorem slab_lo (hh : Fin 16) (w' : Fin 120) (ci : Fin 128) (q : Fin 3960) (hq : q.val = hh.val * 120 + w'.val) :
    k9_pay2 xa xb (ix2 q ci) = xa (ix4 (0 : Fin 1) hh w' ci) := by
  unfold k9_pay2
  have hq' : q.val < 1920 := by have := hh.isLt; have := w'.isLt; omega
  refine Eq.trans (concatenate_apply_piece (0 : Fin 2) _ _ (ix2 q ci) 0 ?_ S1920x128
    (shapeCast S1920x128 (shapeCast S16x120x128 xa shapeCasts_S1x16x120x128_S16x120x128) shapeCasts_S16x120x128_S1920x128) ?_ ?_ 0 ?_
    (ix2 (⟨q.val, hq'⟩ : Fin 1920) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 128 + ci.val = q.val * 128 + ci.val
      rw [hq]
    · rw [Shape.rowMajor_val_four, Shape.rowMajor_val_three]
      show ((0 * 16 + hh.val) * 120 + w'.val) * 128 + ci.val = (hh.val * 120 + w'.val) * 128 + ci.val
      omega

/-- Row 1920 + hh·120 + w' is pixel (hh, w') of the second tile. -/
theorem slab_hi (hh : Fin 16) (w' : Fin 120) (ci : Fin 128) (q : Fin 3960) (hq : q.val = 1920 + (hh.val * 120 + w'.val)) :
    k9_pay2 xa xb (ix2 q ci) = xb (ix4 (0 : Fin 1) hh w' ci) := by
  unfold k9_pay2
  have hq' : q.val - 1920 < 1920 := by have := hh.isLt; have := w'.isLt; omega
  refine Eq.trans (concatenate_apply_piece (0 : Fin 2) _ _ (ix2 q ci) 1 ?_ S1920x128
    (shapeCast S1920x128 (shapeCast S16x120x128 xb shapeCasts_S1x16x120x128_S16x120x128) shapeCasts_S16x120x128_S1920x128) ?_ ?_ 1920 ?_
    (ix2 (⟨q.val - 1920, hq'⟩ : Fin 1920) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 1920 + (q.val - 1920) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 128 + ci.val = (q.val - 1920) * 128 + ci.val
      omega
    · rw [Shape.rowMajor_val_four, Shape.rowMajor_val_three]
      show ((0 * 16 + hh.val) * 120 + w'.val) * 128 + ci.val = (hh.val * 120 + w'.val) * 128 + ci.val
      omega

/-- Row hh·120 + w', hh < 32, of the stacked rows is pixel (hh, w') of the stacked tiles. -/
theorem slab_apply (hh : Fin 32) (w' : Fin 120) (ci : Fin 128) (q : Fin 3960) (hq : q.val = hh.val * 120 + w'.val) :
    k9_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 1920 + ((hh.val - 16) * 120 + w'.val); omega)

end Slab

/-! ## A tap's product read at an entry -/

/-- A tap matrix [1, 1, 128, 128] flattened to [128, 128], at (ci, co). -/
theorem tapmat_apply (Wt : Vec Ideal S1x1x128x128 .f32) (ci : Fin 128) (co : Fin 128) :
    (shapeCast S128x128 Wt shapeCasts_S1x1x128x128_S128x128 : FVec Ideal S128x128 .f32) (ix2 ci co) = Wt (ix4 (0 : Fin 1) (0 : Fin 1) ci co) := by
  refine shapeCast_apply _ _ _ _ ?_
  rw [Shape.rowMajor_val_four, Shape.rowMajor_val_two]
  show ((0 * 1 + 0) * 128 + ci.val) * 128 + co.val = ci.val * 128 + co.val
  omega

/-- Rows o, o+1, … of a matrix of n0 rows against a flattened tap matrix, at (r, co): the sum over the 128 input
    channels of row o + r times the tap's column co. -/
theorem tap_apply {n0 : Nat} (o : Nat) (X : FVec Ideal ⟨2, ![n0, 128]⟩ .f32)
    (h : (⟨2, ![n0, 128]⟩ : Shape).Slices ![o, 0] S1920x128) (Wt : Vec Ideal S1x1x128x128 .f32)
    (r : Fin 1920) (co : Fin 128) (hk : o + 1919 < n0) :
    matmul dot_S1920x128_S128x128_S1920x128_1_0_0_1_n_n none (extractStridedSlice S1920x128 ![o, 0] X h : FVec Ideal S1920x128 .f32)
        (shapeCast S128x128 Wt shapeCasts_S1x1x128x128_S128x128 : FVec Ideal S128x128 .f32) (constant S1920x128 .f32 0x00000000#32) (ix2 r co)
      = ∑ ci : Fin 128, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x120x128 .f32)

/-- The rows from the second on. -/
theorem pay3_apply (q : Fin 3959) (ci : Fin 128) :
    k9_pay3 xa xb (ix2 q ci) = k9_pay2 xa xb (ix2 (⟨1 + q.val, by omega⟩ : Fin 3960) ci) := by
  unfold k9_pay3
  exact slice2_axis0_apply 1 _ _ q ci _ rfl

/-- The rows from the third on. -/
theorem pay4_apply (q : Fin 3958) (ci : Fin 128) :
    k9_pay4 xa xb (ix2 q ci) = k9_pay2 xa xb (ix2 (⟨2 + q.val, by omega⟩ : Fin 3960) ci) := by
  unfold k9_pay4
  exact slice2_axis0_apply 2 _ _ q ci _ rfl

end Shift

/-! ## The accumulations -/

/-- The first three taps added onto zero. -/
theorem pay5_apply (xa xb : Vec Ideal S1x16x120x128 .f32) (w00 w01 w02 : Vec Ideal S1x1x128x128 .f32) (r : Fin 1920) (co : Fin 128) :
    k9_pay5 xa xb w00 w01 w02 (ix2 r co)
      = 0 + (∑ ci : Fin 128, k9_pay2 xa xb (ix2 (⟨0 + r.val, by omega⟩ : Fin 3960) ci) * w00 (ix4 (0 : Fin 1) (0 : Fin 1) ci co))
          + (∑ ci : Fin 128, k9_pay3 xa xb (ix2 (⟨0 + r.val, by omega⟩ : Fin 3959) ci) * w01 (ix4 (0 : Fin 1) (0 : Fin 1) ci co))
          + (∑ ci : Fin 128, k9_pay4 xa xb (ix2 (⟨0 + r.val, by omega⟩ : Fin 3958) ci) * w02 (ix4 (0 : Fin 1) (0 : Fin 1) ci co)) := by
  unfold k9_pay5
  simp only [addf_apply]
  rw [tap_apply 0 (k9_pay2 xa xb) _ w00 r co (by omega), tap_apply 0 (k9_pay3 xa xb) _ w01 r co (by omega),
    tap_apply 0 (k9_pay4 xa xb) _ w02 r co (by omega)]
  congr 3
  exact Ideal.ofBits_zero_f32

/-- The other six taps and the bias added onto what the first three left. -/
theorem pay8_apply (v7 : FVec Ideal S3960x128 .f32) (v8 : FVec Ideal S3959x128 .f32) (v9 : FVec Ideal S3958x128 .f32)
    (v25 : FVec Ideal S1920x128 .f32) (v26 : FVec Ideal S1920x128 .f32) (v28 : FVec Ideal S128x128 .f32)
    (w11 w12 w20 w21 w22 : Vec Ideal S1x1x128x128 .f32) (b : Vec Ideal S1x128 .f32) (r : Fin 1920) (co : Fin 128) :
    k9_pay8 v7 v8 v9 v25 v26 v28 w11 w12 w20 w21 w22 b (ix2 r co)
      = v25 (ix2 r co) + (∑ ci : Fin 128, v26 (ix2 r ci) * v28 (ix2 ci co))
          + (∑ ci : Fin 128, v8 (ix2 (⟨120 + r.val, by omega⟩ : Fin 3959) ci) * w11 (ix4 (0 : Fin 1) (0 : Fin 1) ci co))
          + (∑ ci : Fin 128, v9 (ix2 (⟨120 + r.val, by omega⟩ : Fin 3958) ci) * w12 (ix4 (0 : Fin 1) (0 : Fin 1) ci co))
          + (∑ ci : Fin 128, v7 (ix2 (⟨240 + r.val, by omega⟩ : Fin 3960) ci) * w20 (ix4 (0 : Fin 1) (0 : Fin 1) ci co))
          + (∑ ci : Fin 128, v8 (ix2 (⟨240 + r.val, by omega⟩ : Fin 3959) ci) * w21 (ix4 (0 : Fin 1) (0 : Fin 1) ci co))
          + (∑ ci : Fin 128, v9 (ix2 (⟨240 + r.val, by omega⟩ : Fin 3958) ci) * w22 (ix4 (0 : Fin 1) (0 : Fin 1) ci co))
          + b (ix2 (0 : Fin 1) co) := by
  unfold k9_pay8
  simp only [addf_apply]
  rw [mm_apply, tap_apply 120 v8 _ w11 r co (by omega), tap_apply 120 v9 _ w12 r co (by omega),
    tap_apply 240 v7 _ w20 r co (by omega), tap_apply 240 v8 _ w21 r co (by omega), tap_apply 240 v9 _ w22 r co (by omega),
    broadcastTo_1b_ab_apply]

/-- The fourth tap's rows and matrix. -/
theorem pay6_apply (xa xb : Vec Ideal S1x16x120x128 .f32) (r : Fin 1920) (ci : Fin 128) :
    k9_pay6 xa xb (ix2 r ci) = k9_pay2 xa xb (ix2 (⟨120 + r.val, by omega⟩ : Fin 3960) ci) := by
  unfold k9_pay6
  exact slice2_axis0_apply 120 _ _ r ci _ rfl

theorem pay7_apply (w10 : Vec Ideal S1x1x128x128 .f32) (ci : Fin 128) (co : Fin 128) :
    k9_pay7 w10 (ix2 ci co) = w10 (ix4 (0 : Fin 1) (0 : Fin 1) ci co) := by
  unfold k9_pay7
  exact tapmat_apply w10 ci co

/-- The clamp and the cut to 112 columns: entry (0, th, w, co) of the tile is row th·120 + w, column co. -/
theorem pay1_apply (v58 v59 : FVec Ideal S1920x128 .f32) (th : Fin 16) (w : Fin 112) (co : Fin 128) :
    k9_pay1 v58 v59 (ix4 (0 : Fin 1) th w co)
      = max (v58 (ix2 (⟨th.val * 120 + w.val, by omega⟩ : Fin 1920) co)) (v59 (ix2 (⟨th.val * 120 + w.val, by omega⟩ : Fin 1920) co)) := by
  unfold k9_pay1
  refine (shapeCast_abc_1abc_apply _ _ (0 : Fin 1) th w co).trans ?_
  refine (slice3_axis1_apply 0 _ _ th w co (⟨w.val, by omega⟩ : Fin 120) (by simp)).trans ?_
  refine (shapeCast_apply _ _ _ (ix2 (⟨th.val * 120 + w.val, by omega⟩ : Fin 1920) co) ?_).trans (maximumf_apply _ _ _)
  rw [Shape.rowMajor_val_two, Shape.rowMajor_val_three]
  rfl

theorem pay9_apply (j : S1920x128.Idx) : k9_pay9 (F := Ideal) j = 0 := by
  unfold k9_pay9
  exact Ideal.ofBits_zero_f32

/-! ## The body's value at an entry -/

section Entry
variable (xa xb : Vec Ideal S1x16x120x128 .f32)

/-- Row (th+dy)·120 + (w+dx) of the stacked rows is pixel (th+dy, w+dx) of the stacked tiles. -/
theorem slab_tap (th : Fin 16) (w : Fin 112) (dy dx : Fin 3) (ci : Fin 128) (q : Fin 3960)
    (hq : q.val = (th.val + dy.val) * 120 + (w.val + dx.val)) :
    k9_pay2 xa xb (ix2 q ci)
      = tiles xa xb (⟨th.val + dy.val, by omega⟩ : Fin 32) (⟨w.val + dx.val, by omega⟩ : Fin 120) ci :=
  slab_apply xa xb _ _ ci q hq

/-- The nine tap matrices as one family. -/
def taps (w00 w01 w02 w10 w11 w12 w20 w21 w22 : Vec Ideal S1x1x128x128 .f32) (dy dx : Fin 3) : Vec Ideal S1x1x128x128 .f32 :=
  ![![w00, w01, w02], ![w10, w11, w12], ![w20, w21, w22]] dy dx

/-- One output entry of the body: the 3×3 correlation of the stacked tiles with the nine tap matrices over the 128
    input channels, plus the bias, clamped below at zero. -/
theorem conv_entry (w00 w01 w02 w10 w11 w12 w20 w21 w22 : Vec Ideal S1x1x128x128 .f32) (b : Vec Ideal S1x128 .f32)
    (th : Fin 16) (w : Fin 112) (co : Fin 128) :
    k9_pay1 (k9_pay8 (k9_pay2 xa xb) (k9_pay3 xa xb) (k9_pay4 xa xb) (k9_pay5 xa xb w00 w01 w02) (k9_pay6 xa xb)
        (k9_pay7 w10) w11 w12 w20 w21 w22 b) k9_pay9 (ix4 (0 : Fin 1) th w co)
      = max ((∑ dy : Fin 3, ∑ dx : Fin 3, ∑ ci : Fin 128,
              tiles xa xb (⟨th.val + dy.val, by omega⟩ : Fin 32) (⟨w.val + dx.val, by omega⟩ : Fin 120) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 128,
      tiles xa xb (⟨th.val + dy.val, by omega⟩ : Fin 32) (⟨w.val + dx.val, by omega⟩ : Fin 120) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg9
-- ==== Proof.RI.Reg9Value.lean ====
import proofs.«143011_g2000502688546152_pallasbulk_1201_3_alg».proof.Proof.RI.Reg9
import proofs.«143011_g2000502688546152_pallasbulk_1201_3_alg».proof.Proof.RI.Reg9Pure

/-! # Region 9 at the extended reals: the output array is the 3×3 correlation, plus bias, clamped at zero

Point t = 7·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg9

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 128, 120, 128], the kernel [3, 3, 128, 128] and the bias [1, 128] as the region finds them. -/
abbrev xp (c : Dev nD) : S16x128x120x128.Idx → EReal := V c (Pipeline.arrRef spec9 0)
abbrev wk (c : Dev nD) : S3x3x128x128.Idx → EReal := V c (Pipeline.arrRef spec9 2)
abbrev bias (c : Dev nD) : S1x128.Idx → EReal := V c (Pipeline.arrRef spec9 3)

/-! ## The grid's points and the windows' block indices -/

theorem N_eq : cfg9.N = 112 := N_9

/-- The image and the row tile of point `t`. -/
def pn (t : Fin cfg9.N) : Fin 16 := ⟨t.val / 7, by have := t.isLt; have := N_eq; omega⟩
def pr (t : Fin cfg9.N) : Fin 7 := ⟨t.val % 7, Nat.mod_lt _ (by decide)⟩

/-- The five windows' block indices at every point: (n, r), (n, r + 1), the origin twice, (n, r). -/
theorem idx_facts : ∀ t : Fin cfg9.N,
    (win9_0.index t 0 = t.val / 7 ∧ win9_0.index t 1 = t.val % 7 ∧ win9_0.index t 2 = 0 ∧ win9_0.index t 3 = 0)
    ∧ (win9_1.index t 0 = t.val / 7 ∧ win9_1.index t 1 = t.val % 7 + 1 ∧ win9_1.index t 2 = 0 ∧ win9_1.index t 3 = 0)
    ∧ (win9_2.index t 0 = 0 ∧ win9_2.index t 1 = 0 ∧ win9_2.index t 2 = 0 ∧ win9_2.index t 3 = 0)
    ∧ (win9_3.index t 0 = 0 ∧ win9_3.index t 1 = 0)
    ∧ (win9_4.index t 0 = t.val / 7 ∧ win9_4.index t 1 = t.val % 7 ∧ win9_4.index t 2 = 0 ∧ win9_4.index t 3 = 0) :=
  (by decide +kernel : ∀ t : Fin grid9.N, _)

/-! ## The windows' blocks read at an index -/

/-- The first input tile at point (n, r): rows 16·r … of image n of the padded input. -/
theorem iblk0_apply (c : Dev nD) (t : Fin cfg9.N) (hh : Fin 16) (w' : Fin 120) (ci : Fin 128) :
    iblk V c 0 t (ix4 (0 : Fin 1) hh w' ci)
      = xp V c (ix4 (pn t) (⟨(pr t).val * 16 + hh.val, by have := (pr t).isLt; omega⟩ : Fin 128) w' ci) := by
  obtain ⟨⟨h0, h1, h2, h3⟩, -⟩ := idx_facts t
  unfold iblk
  rw [View.read_apply]
  show V c (Pipeline.arrRef spec9 0) _ = V c (Pipeline.arrRef spec9 0) _
  congr 1
  funext a
  apply Fin.ext
  match a with
  | ⟨0, _⟩ => show win9_0.index t 0 * 1 + 1 * 0 = t.val / 7; rw [h0]; omega
  | ⟨1, _⟩ => show win9_0.index t 1 * 16 + 1 * hh.val = t.val % 7 * 16 + hh.val; rw [h1]; omega
  | ⟨2, _⟩ => show win9_0.index t 2 * 120 + 1 * w'.val = w'.val; rw [h2]; omega
  | ⟨3, _⟩ => show win9_0.index t 3 * 128 + 1 * ci.val = ci.val; rw [h3]; omega

/-- The second input tile at point (n, r): rows 16·(r + 1) … of image n of the padded input. -/
theorem iblk1_apply (c : Dev nD) (t : Fin cfg9.N) (hh : Fin 16) (w' : Fin 120) (ci : Fin 128) :
    iblk V c 1 t (ix4 (0 : Fin 1) hh w' ci)
      = xp V c (ix4 (pn t) (⟨((pr t).val + 1) * 16 + hh.val, by have := (pr t).isLt; omega⟩ : Fin 128) w' ci) := by
  obtain ⟨-, ⟨h0, h1, h2, h3⟩, -⟩ := idx_facts t
  unfold iblk
  rw [View.read_apply]
  show V c (Pipeline.arrRef spec9 1) _ = V c (Pipeline.arrRef spec9 0) _
  congr 1
  funext a
  apply Fin.ext
  match a with
  | ⟨0, _⟩ => show win9_1.index t 0 * 1 + 1 * 0 = t.val / 7; rw [h0]; omega
  | ⟨1, _⟩ => show win9_1.index t 1 * 16 + 1 * hh.val = (t.val % 7 + 1) * 16 + hh.val; rw [h1]; omega
  | ⟨2, _⟩ => show win9_1.index t 2 * 120 + 1 * w'.val = w'.val; rw [h2]; omega
  | ⟨3, _⟩ => show win9_1.index t 3 * 128 + 1 * ci.val = ci.val; rw [h3]; omega

/-- The kernel window is the whole kernel array at every point. -/
theorem iblk2_apply (c : Dev nD) (t : Fin cfg9.N) (dy dx : Fin 3) (ci : Fin 128) (co : Fin 128) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec9 2) _ = V c (Pipeline.arrRef spec9 2) _
  congr 1
  funext a
  apply Fin.ext
  match a with
  | ⟨0, _⟩ => show win9_2.index t 0 * 3 + 1 * dy.val = dy.val; rw [h0]; omega
  | ⟨1, _⟩ => show win9_2.index t 1 * 3 + 1 * dx.val = dx.val; rw [h1]; omega
  | ⟨2, _⟩ => show win9_2.index t 2 * 128 + 1 * ci.val = ci.val; rw [h2]; omega
  | ⟨3, _⟩ => show win9_2.index t 3 * 128 + 1 * co.val = co.val; rw [h3]; omega

/-- The bias window is the whole bias row at every point. -/
theorem iblk3_apply (c : Dev nD) (t : Fin cfg9.N) (co : Fin 128) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec9 3) _ = V c (Pipeline.arrRef spec9 3) _
  congr 1
  funext a
  apply Fin.ext
  match a with
  | ⟨0, _⟩ => show win9_3.index t 0 * 1 + 1 * 0 = 0; rw [h0]
  | ⟨1, _⟩ => show win9_3.index t 1 * 128 + 1 * co.val = co.val; rw [h1]; omega

/-! ## The whole-array function and what a point writes back -/

/-- The correlation at (n, h, w, co): the sums nest dy, dx, ci. -/
def conv (c : Dev nD) (n : Fin 16) (h : Fin 112) (w : Fin 112) (co : Fin 128) : EReal :=
  max ((∑ dy : Fin 3, ∑ dx : Fin 3, ∑ ci : Fin 128,
          xp V c (ix4 n (⟨h.val + dy.val, by omega⟩ : Fin 128) (⟨w.val + dx.val, by omega⟩ : Fin 120) ci)
            * wk V c (ix4 dy dx ci co))
        + bias V c (ix2 (0 : Fin 1) co)) 0

/-- The output array the region is shown to leave. -/
def G (c : Dev nD) : Buf (Elt Ideal) ((c : Thread nD τ).loc main_v37) :=
  fun i : S16x112x112x128.Idx => conv V c (i 0) (i 1) (i 2) (i 3)

theorem G_apply (c : Dev nD) (i : S16x112x112x128.Idx) : G V c i = conv V c (i 0) (i 1) (i 2) (i 3) := rfl

theorem conv_congr (c : Dev nD) {n n' : Fin 16} {h h' : Fin 112} {w w' : Fin 112} {co co' : Fin 128}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg9.N) (hh : Fin 32) (w' : Fin 120) (ci : Fin 128) :
    tiles (iblk V c 0 t) (iblk V c 1 t) hh w' ci
      = xp V c (ix4 (pn t) (⟨(pr t).val * 16 + hh.val, by have := (pr t).isLt; omega⟩ : Fin 128) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg9.N) (dy dx : Fin 3) (ci : Fin 128) (co : Fin 128) :
    taps (View.ld (iblk V c 2 t) (tapRect 0 0 inb_S3x3x128x128_S1x1x128x128_0_0_0_0))
        (View.ld (iblk V c 2 t) (tapRect 0 1 inb_S3x3x128x128_S1x1x128x128_0_1_0_0))
        (View.ld (iblk V c 2 t) (tapRect 0 2 inb_S3x3x128x128_S1x1x128x128_0_2_0_0))
        (View.ld (iblk V c 2 t) (tapRect 1 0 inb_S3x3x128x128_S1x1x128x128_1_0_0_0))
        (View.ld (iblk V c 2 t) (tapRect 1 1 inb_S3x3x128x128_S1x1x128x128_1_1_0_0))
        (View.ld (iblk V c 2 t) (tapRect 1 2 inb_S3x3x128x128_S1x1x128x128_1_2_0_0))
        (View.ld (iblk V c 2 t) (tapRect 2 0 inb_S3x3x128x128_S1x1x128x128_2_0_0_0))
        (View.ld (iblk V c 2 t) (tapRect 2 1 inb_S3x3x128x128_S1x1x128x128_2_1_0_0))
        (View.ld (iblk V c 2 t) (tapRect 2 2 inb_S3x3x128x128_S1x1x128x128_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x120x128 .f32) (wk' : Vec Ideal S3x3x128x128 .f32) (b : Vec Ideal S1x128 .f32)
    (th : Fin 16) (w : Fin 112) (co : Fin 128) :
    out xa xb wk' b (ix4 (0 : Fin 1) th w co)
      = max ((∑ dy : Fin 3, ∑ dx : Fin 3, ∑ ci : Fin 128,
              tiles xa xb (⟨th.val + dy.val, by omega⟩ : Fin 32) (⟨w.val + dx.val, by omega⟩ : Fin 120) ci
                * taps (View.ld wk' (tapRect 0 0 inb_S3x3x128x128_S1x1x128x128_0_0_0_0))
                    (View.ld wk' (tapRect 0 1 inb_S3x3x128x128_S1x1x128x128_0_1_0_0))
                    (View.ld wk' (tapRect 0 2 inb_S3x3x128x128_S1x1x128x128_0_2_0_0))
                    (View.ld wk' (tapRect 1 0 inb_S3x3x128x128_S1x1x128x128_1_0_0_0))
                    (View.ld wk' (tapRect 1 1 inb_S3x3x128x128_S1x1x128x128_1_1_0_0))
                    (View.ld wk' (tapRect 1 2 inb_S3x3x128x128_S1x1x128x128_1_2_0_0))
                    (View.ld wk' (tapRect 2 0 inb_S3x3x128x128_S1x1x128x128_2_0_0_0))
                    (View.ld wk' (tapRect 2 1 inb_S3x3x128x128_S1x1x128x128_2_1_0_0))
                    (View.ld wk' (tapRect 2 2 inb_S3x3x128x128_S1x1x128x128_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg9.N) :
    (dat V c).flushed 4 t = ((cfg9.win 4).blk t).view.read (Elt Ideal) (G V c) := by
  show (cfg9.win 4).cut (grid9.coords t) ((dat V c).after 4 t) = _
  rw [after_4]
  funext x
  obtain ⟨u, th, w, co, rfl⟩ : ∃ (u : Fin 1) (th : Fin 16) (w : Fin 112) (co : Fin 128), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg9.win 4).blk t).view.emb (ix4 (0 : Fin 1) th w co))
      = conv V c (pn t) (⟨(pr t).val * 16 + th.val, by have := (pr t).isLt; omega⟩ : Fin 112) w co :=
    (G_apply V c _).trans (conv_congr V c
      (Fin.ext (by show win9_4.index t 0 * 1 + 1 * 0 = t.val / 7; rw [h0]; omega))
      (Fin.ext (by show win9_4.index t 1 * 16 + 1 * th.val = t.val % 7 * 16 + th.val; rw [h1]; omega))
      (Fin.ext (by show win9_4.index t 2 * 112 + 1 * w.val = w.val; rw [h2]; omega))
      (Fin.ext (by show win9_4.index t 3 * 128 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg9.N) (i : S16x112x112x128.Idx) :
    i ∈ ((cfg9.win 4).blk t).view.set ↔ (i 0 : Nat) = t.val / 7 ∧ t.val % 7 * 16 ≤ (i 1 : Nat) ∧ (i 1 : Nat) < t.val % 7 * 16 + 16 := by
  show i ∈ ((View.whole main_v37).slice (win9_4.rect t)).set ↔ _
  rw [View.set_slice_whole, Rect.mem_set_unit]
  obtain ⟨-, -, -, -, ⟨h0, h1, h2, h3⟩⟩ := idx_facts t
  have b2 : (i 2 : Nat) < 112 := (i 2).isLt
  have b3 : (i 3 : Nat) < 128 := (i 3).isLt
  have e0 : win9_4.index t 0 * win9_4.size 0 = t.val / 7 := by rw [h0]; show t.val / 7 * 1 = _; omega
  have e1 : win9_4.index t 1 * win9_4.size 1 = t.val % 7 * 16 := by rw [h1]; rfl
  have e2 : win9_4.index t 2 * win9_4.size 2 = 0 := by rw [h2]; rfl
  have e3 : win9_4.index t 3 * win9_4.size 3 = 0 := by rw [h3]; rfl
  have x0 : win9_4.xsize (grid9.coords t) 0 = 1 := rfl
  have x1 : win9_4.xsize (grid9.coords t) 1 = 16 := rfl
  have x2 : win9_4.xsize (grid9.coords t) 2 = 112 := rfl
  have x3 : win9_4.xsize (grid9.coords t) 3 = 128 := rfl
  refine ⟨fun h => ?_, fun h a => ?_⟩
  · have a0 := h 0; have a1 := h 1
    rw [e0, x0] at a0; rw [e1, x1] at a1
    exact ⟨by omega, a1⟩
  · match a with
    | ⟨0, _⟩ => show win9_4.index t 0 * win9_4.size 0 ≤ (i 0 : Nat) ∧ (i 0 : Nat) < win9_4.index t 0 * win9_4.size 0 + win9_4.xsize (grid9.coords t) 0
                rw [e0, x0]; omega
    | ⟨1, _⟩ => show win9_4.index t 1 * win9_4.size 1 ≤ (i 1 : Nat) ∧ (i 1 : Nat) < win9_4.index t 1 * win9_4.size 1 + win9_4.xsize (grid9.coords t) 1
                rw [e1, x1]; exact h.2
    | ⟨2, _⟩ => show win9_4.index t 2 * win9_4.size 2 ≤ (i 2 : Nat) ∧ (i 2 : Nat) < win9_4.index t 2 * win9_4.size 2 + win9_4.xsize (grid9.coords t) 2
                rw [e2, x2]; omega
    | ⟨3, _⟩ => show win9_4.index t 3 * win9_4.size 3 ≤ (i 3 : Nat) ∧ (i 3 : Nat) < win9_4.index t 3 * win9_4.size 3 + win9_4.xsize (grid9.coords t) 3
                rw [e3, x3]; omega

/-- Every index of the output array is in the block of the point of its image and row tile. -/
theorem cover (i : S16x112x112x128.Idx) :
    ∃ t : Fin cfg9.N, (cfg9.win 4).flush t = true ∧ i ∈ ((cfg9.win 4).blk t).view.set := by
  have b0 : (i 0 : Nat) < 16 := (i 0).isLt
  have b1 : (i 1 : Nat) < 112 := (i 1).isLt
  refine ⟨⟨(i 0 : Nat) * 7 + (i 1 : Nat) / 16, by rw [N_eq]; omega⟩, flush9_4 _, ?_⟩
  rw [mem_blk]
  dsimp only
  omega

/-- The output array after the last grid point is `G`. -/
theorem final_out (c : Dev nD) : (dat V c).arrAt 4 cfg9.N = G V c :=
  (dat V c).arrAt_eq_of_cover 4 (G V c) (fun t _ => flushed_eq V c t) cover

/-- The output array after the last grid point: at (n, h, w, co) the 3×3 correlation of the padded input with the
    kernel over the 128 input channels, plus the bias, clamped below at zero. The sums nest dy, dx, ci. -/
theorem out_value (c : Dev nD) (n : Fin 16) (h : Fin 112) (w : Fin 112) (co : Fin 128) :
    (dat V c).arrAt 4 cfg9.N (ix4 n h w co)
      = max ((∑ dy : Fin 3, ∑ dx : Fin 3, ∑ ci : Fin 128,
                xp V c (ix4 n (⟨h.val + dy.val, by omega⟩ : Fin 128) (⟨w.val + dx.val, by omega⟩ : Fin 120) ci)
                  * wk V c (ix4 dy dx ci co))
              + bias V c (ix2 (0 : Fin 1) co)) 0 := by
  rw [final_out]
  rfl

end Cert.ReferenceIdeal.Reg9
-- ==== Proof.RI.Val9.lean ====
import proofs.«143011_g2000502688546152_pallasbulk_1201_3_alg».proof.Proof.RI.Seg9
import proofs.«143011_g2000502688546152_pallasbulk_1201_3_alg».proof.Proof.RI.Reg9Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg9

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 112 112 128)
    (hx : ∀ (n : Fin 16) (i : Fin 128) (j : Fin 120) (ci : Fin 128),
      (W c (Proc.devRef .tc (Pipeline.arrRef spec9 0)) : FVec 𝕀 S16x128x120x128 .f32) (ix4 n i j ci) = Cert.Spec.padAt z n i.val j.val ci) :
    Cert.Spec.curry4 (Wout W c (Proc.devRef .tc (Pipeline.arrRef spec9 4)) : FVec 𝕀 S16x112x112x128 .f32)
      = Cert.Spec.convRelu z (Cert.Spec.curryW (W c (Proc.devRef .tc (Pipeline.arrRef spec9 2)) : FVec 𝕀 S3x3x128x128 .f32))
          (Cert.Spec.curryB (W c (Proc.devRef .tc (Pipeline.arrRef spec9 3)) : FVec 𝕀 S1x128 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg9

end
-- ==== Proof.RI.Reg10Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (16·120 each, then 120 zero rows), and for each tap (dy, dx)
multiplies the rows shifted by 120·dy + dx with the tap's [128, 128] matrix. Read at row th·120 + w and column co, the nine
products add up to the 3×3 correlation at pixel (th, w), output channel co. -/

set_option maxRecDepth 16384

noncomputable section

namespace Cert.ReferenceIdeal.Reg10

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [1920, 128] by [128, 128] product into the zero accumulator, at (r, co): the sum over the 128 input channels. -/
theorem mm_apply (L : FVec Ideal S1920x128 .f32) (R : FVec Ideal S128x128 .f32) (r : Fin 1920) (co : Fin 128) :
    matmul dot_S1920x128_S128x128_S1920x128_1_0_0_1_n_n none L R (constant S1920x128 .f32 0x00000000#32) (ix2 r co)
      = ∑ ci : Fin 128, L (ix2 r ci) * R (ix2 ci co) := by
  refine (Ideal.matmul_constant_zero_apply _ _ _ _ _).trans ?_
  refine (Equiv.sum_comp (contrEquiv1 dot_S1920x128_S128x128_S1920x128_1_0_0_1_n_n 128 rfl rfl).symm _).symm.trans ?_
  refine Finset.sum_congr rfl fun ci _ => ?_
  have hl : dot_S1920x128_S128x128_S1920x128_1_0_0_1_n_n.lhsIdx (ix2 r co)
      ((contrEquiv1 dot_S1920x128_S128x128_S1920x128_1_0_0_1_n_n 128 rfl rfl).symm ci) = ix2 r ci := by
    funext a; apply Fin.ext
    match a with
    | ⟨0, _⟩ => rfl
    | ⟨1, _⟩ => exact contrEquiv1_symm_val dot_S1920x128_S128x128_S1920x128_1_0_0_1_n_n 128 rfl rfl ci
  have hr : dot_S1920x128_S128x128_S1920x128_1_0_0_1_n_n.rhsIdx (ix2 r co)
      ((contrEquiv1 dot_S1920x128_S128x128_S1920x128_1_0_0_1_n_n 128 rfl rfl).symm ci) = ix2 ci co := by
    funext a; apply Fin.ext
    match a with
    | ⟨0, _⟩ => exact contrEquiv1_symm_val dot_S1920x128_S128x128_S1920x128_1_0_0_1_n_n 128 rfl rfl ci
    | ⟨1, _⟩ => rfl
  rw [hl, hr]

/-! ## The stacked rows -/

section Slab
variable (xa xb : Vec Ideal S1x16x120x128 .f32)

/-- Pixel (hh, w') of the two tiles stacked one above the other, hh < 32. -/
def tiles (hh : Fin 32) (w' : Fin 120) (ci : Fin 128) : EReal :=
  if h : hh.val < 16 then xa (ix4 (0 : Fin 1) (⟨hh.val, h⟩ : Fin 16) w' ci)
  else xb (ix4 (0 : Fin 1) (⟨hh.val - 16, by omega⟩ : Fin 16) w' ci)

/-- Row hh·120 + w' of the first 1920 rows is pixel (hh, w') of the first tile. -/
theorem slab_lo (hh : Fin 16) (w' : Fin 120) (ci : Fin 128) (q : Fin 3960) (hq : q.val = hh.val * 120 + w'.val) :
    k10_pay2 xa xb (ix2 q ci) = xa (ix4 (0 : Fin 1) hh w' ci) := by
  unfold k10_pay2
  have hq' : q.val < 1920 := by have := hh.isLt; have := w'.isLt; omega
  refine Eq.trans (concatenate_apply_piece (0 : Fin 2) _ _ (ix2 q ci) 0 ?_ S1920x128
    (shapeCast S1920x128 (shapeCast S16x120x128 xa shapeCasts_S1x16x120x128_S16x120x128) shapeCasts_S16x120x128_S1920x128) ?_ ?_ 0 ?_
    (ix2 (⟨q.val, hq'⟩ : Fin 1920) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 128 + ci.val = q.val * 128 + ci.val
      rw [hq]
    · rw [Shape.rowMajor_val_four, Shape.rowMajor_val_three]
      show ((0 * 16 + hh.val) * 120 + w'.val) * 128 + ci.val = (hh.val * 120 + w'.val) * 128 + ci.val
      omega

/-- Row 1920 + hh·120 + w' is pixel (hh, w') of the second tile. -/
theorem slab_hi (hh : Fin 16) (w' : Fin 120) (ci : Fin 128) (q : Fin 3960) (hq : q.val = 1920 + (hh.val * 120 + w'.val)) :
    k10_pay2 xa xb (ix2 q ci) = xb (ix4 (0 : Fin 1) hh w' ci) := by
  unfold k10_pay2
  have hq' : q.val - 1920 < 1920 := by have := hh.isLt; have := w'.isLt; omega
  refine Eq.trans (concatenate_apply_piece (0 : Fin 2) _ _ (ix2 q ci) 1 ?_ S1920x128
    (shapeCast S1920x128 (shapeCast S16x120x128 xb shapeCasts_S1x16x120x128_S16x120x128) shapeCasts_S16x120x128_S1920x128) ?_ ?_ 1920 ?_
    (ix2 (⟨q.val - 1920, hq'⟩ : Fin 1920) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 1920 + (q.val - 1920) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 120 + w'.val) * 128 + ci.val = (q.val - 1920) * 128 + ci.val
      omega
    · rw [Shape.rowMajor_val_four, Shape.rowMajor_val_three]
      show ((0 * 16 + hh.val) * 120 + w'.val) * 128 + ci.val = (hh.val * 120 + w'.val) * 128 + ci.val
      omega

/-- Row hh·120 + w', hh < 32, of the stacked rows is pixel (hh, w') of the stacked tiles. -/
theorem slab_apply (hh : Fin 32) (w' : Fin 120) (ci : Fin 128) (q : Fin 3960) (hq : q.val = hh.val * 120 + w'.val) :
    k10_pay2 xa xb (ix2 q ci) = tiles xa xb hh w' ci := by
  unfold tiles
  split
  · rename_i h; exact slab_lo xa xb ⟨hh.val, h⟩ w' ci q hq
  · rename_i h; exact slab_hi xa xb ⟨hh.val - 16, by omega⟩ w' ci q (by show q.val = 1920 + ((hh.val - 16) * 120 + w'.val); omega)

end Slab

/-! ## A tap's product read at an entry -/

/-- A tap matrix [1, 1, 128, 128] flattened to [128, 128], at (ci, co). -/
theorem tapmat_apply (Wt : Vec Ideal S1x1x128x128 .f32) (ci : Fin 128) (co : Fin 128) :
    (shapeCast S128x128 Wt shapeCasts_S1x1x128x128_S128x128 : FVec Ideal S128x128 .f32) (ix2 ci co) = Wt (ix4 (0 : Fin 1) (0 : Fin 1) ci co) := by
  refine shapeCast_apply _ _ _ _ ?_
  rw [Shape.rowMajor_val_four, Shape.rowMajor_val_two]
  show ((0 * 1 + 0) * 128 + ci.val) * 128 + co.val = ci.val * 128 + co.val
  omega

/-- Rows o, o+1, … of a matrix of n0 rows against a flattened tap matrix, at (r, co): the sum over the 128 input
    channels of row o + r times the tap's column co. -/
theorem tap_apply {n0 : Nat} (o : Nat) (X : FVec Ideal ⟨2, ![n0, 128]⟩ .f32)
    (h : (⟨2, ![n0, 128]⟩ : Shape).Slices ![o, 0] S1920x128) (Wt : Vec Ideal S1x1x128x128 .f32)
    (r : Fin 1920) (co : Fin 128) (hk : o + 1919 < n0) :
    matmul dot_S1920x128_S128x128_S1920x128_1_0_0_1_n_n none (extractStridedSlice S1920x128 ![o, 0] X h : FVec Ideal S1920x128 .f32)
        (shapeCast S128x128 Wt shapeCasts_S1x1x128x128_S128x128 : FVec Ideal S128x128 .f32) (constant S1920x128 .f32 0x00000000#32) (ix2 r co)
      = ∑ ci : Fin 128, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x16x120x128 .f32)

/-- The rows from the second on. -/
theorem pay3_apply (q : Fin 3959) (ci : Fin 128) :
    k10_pay3 xa xb (ix2 q ci) = k10_pay2 xa xb (ix2 (⟨1 + q.val, by omega⟩ : Fin 3960) ci) := by
  unfold k10_pay3
  exact slice2_axis0_apply 1 _ _ q ci _ rfl

/-- The rows from the third on. -/
theorem pay4_apply (q : Fin 3958) (ci : Fin 128) :
    k10_pay4 xa xb (ix2 q ci) = k10_pay2 xa xb (ix2 (⟨2 + q.val, by omega⟩ : Fin 3960) ci) := by
  unfold k10_pay4
  exact slice2_axis0_apply 2 _ _ q ci _ rfl

end Shift

/-! ## The accumulations -/

/-- The first three taps added onto zero. -/
theorem pay5_apply (xa xb : Vec Ideal S1x16x120x128 .f32) (w00 w01 w02 : Vec Ideal S1x1x128x128 .f32) (r : Fin 1920) (co : Fin 128) :
    k10_pay5 xa xb w00 w01 w02 (ix2 r co)
      = 0 + (∑ ci : Fin 128, k10_pay2 xa xb (ix2 (⟨0 + r.val, by omega⟩ : Fin 3960) ci) * w00 (ix4 (0 : Fin 1) (0 : Fin 1) ci co))
          + (∑ ci : Fin 128, k10_pay3 xa xb (ix2 (⟨0 + r.val, by omega⟩ : Fin 3959) ci) * w01 (ix4 (0 : Fin 1) (0 : Fin 1) ci co))
          + (∑ ci : Fin 128, k10_pay4 xa xb (ix2 (⟨0 + r.val, by omega⟩ : Fin 3958) ci) * w02 (ix4 (0 : Fin 1) (0 : Fin 1) ci co)) := by
  unfold k10_pay5
  simp only [addf_apply]
  rw [tap_apply 0 (k10_pay2 xa xb) _ w00 r co (by omega), tap_apply 0 (k10_pay3 xa xb) _ w01 r co (by omega),
    tap_apply 0 (k10_pay4 xa xb) _ w02 r co (by omega)]
  congr 3
  exact Ideal.ofBits_zero_f32

/-- The other six taps and the bias added onto what the first three left. -/
theorem pay8_apply (v7 : FVec Ideal S3960x128 .f32) (v8 : FVec Ideal S3959x128 .f32) (v9 : FVec Ideal S3958x128 .f32)
    (v25 : FVec Ideal S1920x128 .f32) (v26 : FVec Ideal S1920x128 .f32) (v28 : FVec Ideal S128x128 .f32)
    (w11 w12 w20 w21 w22 : Vec Ideal S1x1x128x128 .f32) (b : Vec Ideal S1x128 .f32) (r : Fin 1920) (co : Fin 128) :
    k10_pay8 v7 v8 v9 v25 v26 v28 w11 w12 w20 w21 w22 b (ix2 r co)
      = v25 (ix2 r co) + (∑ ci : Fin 128, v26 (ix2 r ci) * v28 (ix2 ci co))
          + (∑ ci : Fin 128, v8 (ix2 (⟨120 + r.val, by omega⟩ : Fin 3959) ci) * w11 (ix4 (0 : Fin 1) (0 : Fin 1) ci co))
          + (∑ ci : Fin 128, v9 (ix2 (⟨120 + r.val, by omega⟩ : Fin 3958) ci) * w12 (ix4 (0 : Fin 1) (0 : Fin 1) ci co))
          + (∑ ci : Fin 128, v7 (ix2 (⟨240 + r.val, by omega⟩ : Fin 3960) ci) * w20 (ix4 (0 : Fin 1) (0 : Fin 1) ci co))
          + (∑ ci : Fin 128, v8 (ix2 (⟨240 + r.val, by omega⟩ : Fin 3959) ci) * w21 (ix4 (0 : Fin 1) (0 : Fin 1) ci co))
          + (∑ ci : Fin 128, v9 (ix2 (⟨240 + r.val, by omega⟩ : Fin 3958) ci) * w22 (ix4 (0 : Fin 1) (0 : Fin 1) ci co))
          + b (ix2 (0 : Fin 1) co) := by
  unfold k10_pay8
  simp only [addf_apply]
  rw [mm_apply, tap_apply 120 v8 _ w11 r co (by omega), tap_apply 120 v9 _ w12 r co (by omega),
    tap_apply 240 v7 _ w20 r co (by omega), tap_apply 240 v8 _ w21 r co (by omega), tap_apply 240 v9 _ w22 r co (by omega),
    broadcastTo_1b_ab_apply]

/-- The fourth tap's rows and matrix. -/
theorem pay6_apply (xa xb : Vec Ideal S1x16x120x128 .f32) (r : Fin 1920) (ci : Fin 128) :
    k10_pay6 xa xb (ix2 r ci) = k10_pay2 xa xb (ix2 (⟨120 + r.val, by omega⟩ : Fin 3960) ci) := by
  unfold k10_pay6
  exact slice2_axis0_apply 120 _ _ r ci _ rfl

theorem pay7_apply (w10 : Vec Ideal S1x1x128x128 .f32) (ci : Fin 128) (co : Fin 128) :
    k10_pay7 w10 (ix2 ci co) = w10 (ix4 (0 : Fin 1) (0 : Fin 1) ci co) := by
  unfold k10_pay7
  exact tapmat_apply w10 ci co

/-- The clamp and the cut to 112 columns: entry (0, th, w, co) of the tile is row th·120 + w, column co. -/
theorem pay1_apply (v58 v59 : FVec Ideal S1920x128 .f32) (th : Fin 16) (w : Fin 112) (co : Fin 128) :
    k10_pay1 v58 v59 (ix4 (0 : Fin 1) th w co)
      = max (v58 (ix2 (⟨th.val * 120 + w.val, by omega⟩ : Fin 1920) co)) (v59 (ix2 (⟨th.val * 120 + w.val, by omega⟩ : Fin 1920) co)) := by
  unfold k10_pay1
  refine (shapeCast_abc_1abc_apply _ _ (0 : Fin 1) th w co).trans ?_
  refine (slice3_axis1_apply 0 _ _ th w co (⟨w.val, by omega⟩ : Fin 120) (by simp)).trans ?_
  refine (shapeCast_apply _ _ _ (ix2 (⟨th.val * 120 + w.val, by omega⟩ : Fin 1920) co) ?_).trans (maximumf_apply _ _ _)
  rw [Shape.rowMajor_val_two, Shape.rowMajor_val_three]
  rfl

theorem pay9_apply (j : S1920x128.Idx) : k10_pay9 (F := Ideal) j = 0 := by
  unfold k10_pay9
  exact Ideal.ofBits_zero_f32

/-! ## The body's value at an entry -/

section Entry
variable (xa xb : Vec Ideal S1x16x120x128 .f32)

/-- Row (th+dy)·120 + (w+dx) of the stacked rows is pixel (th+dy, w+dx) of the stacked tiles. -/
theorem slab_tap (th : Fin 16) (w : Fin 112) (dy dx : Fin 3) (ci : Fin 128) (q : Fin 3960)
    (hq : q.val = (th.val + dy.val) * 120 + (w.val + dx.val)) :
    k10_pay2 xa xb (ix2 q ci)
      = tiles xa xb (⟨th.val + dy.val, by omega⟩ : Fin 32) (⟨w.val + dx.val, by omega⟩ : Fin 120) ci :=
  slab_apply xa xb _ _ ci q hq

/-- The nine tap matrices as one family. -/
def taps (w00 w01 w02 w10 w11 w12 w20 w21 w22 : Vec Ideal S1x1x128x128 .f32) (dy dx : Fin 3) : Vec Ideal S1x1x128x128 .f32 :=
  ![![w00, w01, w02], ![w10, w11, w12], ![w20, w21, w22]] dy dx

/-- One output entry of the body: the 3×3 correlation of the stacked tiles with the nine tap matrices over the 128
    input channels, plus the bias, clamped below at zero. -/
theorem conv_entry (w00 w01 w02 w10 w11 w12 w20 w21 w22 : Vec Ideal S1x1x128x128 .f32) (b : Vec Ideal S1x128 .f32)
    (th : Fin 16) (w : Fin 112) (co : Fin 128) :
    k10_pay1 (k10_pay8 (k10_pay2 xa xb) (k10_pay3 xa xb) (k10_pay4 xa xb) (k10_pay5 xa xb w00 w01 w02) (k10_pay6 xa xb)
        (k10_pay7 w10) w11 w12 w20 w21 w22 b) k10_pay9 (ix4 (0 : Fin 1) th w co)
      = max ((∑ dy : Fin 3, ∑ dx : Fin 3, ∑ ci : Fin 128,
              tiles xa xb (⟨th.val + dy.val, by omega⟩ : Fin 32) (⟨w.val + dx.val, by omega⟩ : Fin 120) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 128,
      tiles xa xb (⟨th.val + dy.val, by omega⟩ : Fin 32) (⟨w.val + dx.val, by omega⟩ : Fin 120) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg10
-- ==== Proof.RI.Reg10Value.lean ====
import proofs.«143011_g2000502688546152_pallasbulk_1201_3_alg».proof.Proof.RI.Reg10
import proofs.«143011_g2000502688546152_pallasbulk_1201_3_alg».proof.Proof.RI.Reg10Pure

/-! # Region 10 at the extended reals: the output array is the 3×3 correlation, plus bias, clamped at zero

Point t = 7·n + r of the grid writes back the output's row tile r of image n. Its two input tiles are row tiles r and
r + 1 of the padded input, so row h + dy of the padded input, h = 16·r + th, is row th + dy of the two tiles stacked. -/

set_option maxRecDepth 16384

noncomputable section

namespace Cert.ReferenceIdeal.Reg10

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 128, 120, 128], the kernel [3, 3, 128, 128] and the bias [1, 128] as the region finds them. -/
abbrev xp (c : Dev nD) : S16x128x120x128.Idx → EReal := V c (Pipeline.arrRef spec10 0)
abbrev wk (c : Dev nD) : S3x3x128x128.Idx → EReal := V c (Pipeline.arrRef spec10 2)
abbrev bias (c : Dev nD) : S1x128.Idx → EReal := V c (Pipeline.arrRef spec10 3)

/-! ## The grid's points and the windows' block indices -/

theorem N_eq : cfg10.N = 112 := N_10

/-- The image and the row tile of point `t`. -/
def pn (t : Fin cfg10.N) : Fin 16 := ⟨t.val / 7, by have := t.isLt; have := N_eq; omega⟩
def pr (t : Fin cfg10.N) : Fin 7 := ⟨t.val % 7, Nat.mod_lt _ (by decide)⟩

/-- The five windows' block indices at every point: (n, r), (n, r + 1), the origin twice, (n, r). -/
theorem idx_facts : ∀ t : Fin cfg10.N,
    (win10_0.index t 0 = t.val / 7 ∧ win10_0.index t 1 = t.val % 7 ∧ win10_0.index t 2 = 0 ∧ win10_0.index t 3 = 0)
    ∧ (win10_1.index t 0 = t.val / 7 ∧ win10_1.index t 1 = t.val % 7 + 1 ∧ win10_1.index t 2 = 0 ∧ win10_1.index t 3 = 0)
    ∧ (win10_2.index t 0 = 0 ∧ win10_2.index t 1 = 0 ∧ win10_2.index t 2 = 0 ∧ win10_2.index t 3 = 0)
    ∧ (win10_3.index t 0 = 0 ∧ win10_3.index t 1 = 0)
    ∧ (win10_4.index t 0 = t.val / 7 ∧ win10_4.index t 1 = t.val % 7 ∧ win10_4.index t 2 = 0 ∧ win10_4.index t 3 = 0) :=
  (by decide +kernel : ∀ t : Fin grid10.N, _)

/-! ## The windows' blocks read at an index -/

/-- The first input tile at point (n, r): rows 16·r … of image n of the padded input. -/
theorem iblk0_apply (c : Dev nD) (t : Fin cfg10.N) (hh : Fin 16) (w' : Fin 120) (ci : Fin 128) :
    iblk V c 0 t (ix4 (0 : Fin 1) hh w' ci)
      = xp V c (ix4 (pn t) (⟨(pr t).val * 16 + hh.val, by have := (pr t).isLt; omega⟩ : Fin 128) w' ci) := by
  obtain ⟨⟨h0, h1, h2, h3⟩, -⟩ := idx_facts t
  unfold iblk
  rw [View.read_apply]
  show V c (Pipeline.arrRef spec10 0) _ = V c (Pipeline.arrRef spec10 0) _
  congr 1
  funext a
  apply Fin.ext
  match a with
  | ⟨0, _⟩ => show win10_0.index t 0 * 1 + 1 * 0 = t.val / 7; rw [h0]; omega
  | ⟨1, _⟩ => show win10_0.index t 1 * 16 + 1 * hh.val = t.val % 7 * 16 + hh.val; rw [h1]; omega
  | ⟨2, _⟩ => show win10_0.index t 2 * 120 + 1 * w'.val = w'.val; rw [h2]; omega
  | ⟨3, _⟩ => show win10_0.index t 3 * 128 + 1 * ci.val = ci.val; rw [h3]; omega

/-- The second input tile at point (n, r): rows 16·(r + 1) … of image n of the padded input. -/
theorem iblk1_apply (c : Dev nD) (t : Fin cfg10.N) (hh : Fin 16) (w' : Fin 120) (ci : Fin 128) :
    iblk V c 1 t (ix4 (0 : Fin 1) hh w' ci)
      = xp V c (ix4 (pn t) (⟨((pr t).val + 1) * 16 + hh.val, by have := (pr t).isLt; omega⟩ : Fin 128) w' ci) := by
  obtain ⟨-, ⟨h0, h1, h2, h3⟩, -⟩ := idx_facts t
  unfold iblk
  rw [View.read_apply]
  show V c (Pipeline.arrRef spec10 1) _ = V c (Pipeline.arrRef spec10 0) _
  congr 1
  funext a
  apply Fin.ext
  match a with
  | ⟨0, _⟩ => show win10_1.index t 0 * 1 + 1 * 0 = t.val / 7; rw [h0]; omega
  | ⟨1, _⟩ => show win10_1.index t 1 * 16 + 1 * hh.val = (t.val % 7 + 1) * 16 + hh.val; rw [h1]; omega
  | ⟨2, _⟩ => show win10_1.index t 2 * 120 + 1 * w'.val = w'.val; rw [h2]; omega
  | ⟨3, _⟩ => show win10_1.index t 3 * 128 + 1 * ci.val = ci.val; rw [h3]; omega

/-- The kernel window is the whole kernel array at every point. -/
theorem iblk2_apply (c : Dev nD) (t : Fin cfg10.N) (dy dx : Fin 3) (ci : Fin 128) (co : Fin 128) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec10 2) _ = V c (Pipeline.arrRef spec10 2) _
  congr 1
  funext a
  apply Fin.ext
  match a with
  | ⟨0, _⟩ => show win10_2.index t 0 * 3 + 1 * dy.val = dy.val; rw [h0]; omega
  | ⟨1, _⟩ => show win10_2.index t 1 * 3 + 1 * dx.val = dx.val; rw [h1]; omega
  | ⟨2, _⟩ => show win10_2.index t 2 * 128 + 1 * ci.val = ci.val; rw [h2]; omega
  | ⟨3, _⟩ => show win10_2.index t 3 * 128 + 1 * co.val = co.val; rw [h3]; omega

/-- The bias window is the whole bias row at every point. -/
theorem iblk3_apply (c : Dev nD) (t : Fin cfg10.N) (co : Fin 128) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec10 3) _ = V c (Pipeline.arrRef spec10 3) _
  congr 1
  funext a
  apply Fin.ext
  match a with
  | ⟨0, _⟩ => show win10_3.index t 0 * 1 + 1 * 0 = 0; rw [h0]
  | ⟨1, _⟩ => show win10_3.index t 1 * 128 + 1 * co.val = co.val; rw [h1]; omega

/-! ## The whole-array function and what a point writes back -/

/-- The correlation at (n, h, w, co): the sums nest dy, dx, ci. -/
def conv (c : Dev nD) (n : Fin 16) (h : Fin 112) (w : Fin 112) (co : Fin 128) : EReal :=
  max ((∑ dy : Fin 3, ∑ dx : Fin 3, ∑ ci : Fin 128,
          xp V c (ix4 n (⟨h.val + dy.val, by omega⟩ : Fin 128) (⟨w.val + dx.val, by omega⟩ : Fin 120) ci)
            * wk V c (ix4 dy dx ci co))
        + bias V c (ix2 (0 : Fin 1) co)) 0

/-- The output array the region is shown to leave. -/
def G (c : Dev nD) : Buf (Elt Ideal) ((c : Thread nD τ).loc main_v39) :=
  fun i : S16x112x112x128.Idx => conv V c (i 0) (i 1) (i 2) (i 3)

theorem G_apply (c : Dev nD) (i : S16x112x112x128.Idx) : G V c i = conv V c (i 0) (i 1) (i 2) (i 3) := rfl

theorem conv_congr (c : Dev nD) {n n' : Fin 16} {h h' : Fin 112} {w w' : Fin 112} {co co' : Fin 128}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 16·r … of image n of the padded input. -/
theorem tiles_eq (c : Dev nD) (t : Fin cfg10.N) (hh : Fin 32) (w' : Fin 120) (ci : Fin 128) :
    tiles (iblk V c 0 t) (iblk V c 1 t) hh w' ci
      = xp V c (ix4 (pn t) (⟨(pr t).val * 16 + hh.val, by have := (pr t).isLt; omega⟩ : Fin 128) w' ci) := by
  unfold tiles
  split
  · rename_i h
    exact iblk0_apply V c t ⟨hh.val, h⟩ w' ci
  · rename_i h
    rw [iblk1_apply V c t ⟨hh.val - 16, by omega⟩ w' ci]
    congr 2
    apply Fin.ext
    show ((pr t).val + 1) * 16 + (hh.val - 16) = (pr t).val * 16 + hh.val
    omega

/-- The nine loaded tap matrices are the kernel array's taps. -/
theorem taps_eq (c : Dev nD) (t : Fin cfg10.N) (dy dx : Fin 3) (ci : Fin 128) (co : Fin 128) :
    taps (View.ld (iblk V c 2 t) (tapRect 0 0 inb_S3x3x128x128_S1x1x128x128_0_0_0_0))
        (View.ld (iblk V c 2 t) (tapRect 0 1 inb_S3x3x128x128_S1x1x128x128_0_1_0_0))
        (View.ld (iblk V c 2 t) (tapRect 0 2 inb_S3x3x128x128_S1x1x128x128_0_2_0_0))
        (View.ld (iblk V c 2 t) (tapRect 1 0 inb_S3x3x128x128_S1x1x128x128_1_0_0_0))
        (View.ld (iblk V c 2 t) (tapRect 1 1 inb_S3x3x128x128_S1x1x128x128_1_1_0_0))
        (View.ld (iblk V c 2 t) (tapRect 1 2 inb_S3x3x128x128_S1x1x128x128_1_2_0_0))
        (View.ld (iblk V c 2 t) (tapRect 2 0 inb_S3x3x128x128_S1x1x128x128_2_0_0_0))
        (View.ld (iblk V c 2 t) (tapRect 2 1 inb_S3x3x128x128_S1x1x128x128_2_1_0_0))
        (View.ld (iblk V c 2 t) (tapRect 2 2 inb_S3x3x128x128_S1x1x128x128_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x16x120x128 .f32) (wk' : Vec Ideal S3x3x128x128 .f32) (b : Vec Ideal S1x128 .f32)
    (th : Fin 16) (w : Fin 112) (co : Fin 128) :
    out xa xb wk' b (ix4 (0 : Fin 1) th w co)
      = max ((∑ dy : Fin 3, ∑ dx : Fin 3, ∑ ci : Fin 128,
              tiles xa xb (⟨th.val + dy.val, by omega⟩ : Fin 32) (⟨w.val + dx.val, by omega⟩ : Fin 120) ci
                * taps (View.ld wk' (tapRect 0 0 inb_S3x3x128x128_S1x1x128x128_0_0_0_0))
                    (View.ld wk' (tapRect 0 1 inb_S3x3x128x128_S1x1x128x128_0_1_0_0))
                    (View.ld wk' (tapRect 0 2 inb_S3x3x128x128_S1x1x128x128_0_2_0_0))
                    (View.ld wk' (tapRect 1 0 inb_S3x3x128x128_S1x1x128x128_1_0_0_0))
                    (View.ld wk' (tapRect 1 1 inb_S3x3x128x128_S1x1x128x128_1_1_0_0))
                    (View.ld wk' (tapRect 1 2 inb_S3x3x128x128_S1x1x128x128_1_2_0_0))
                    (View.ld wk' (tapRect 2 0 inb_S3x3x128x128_S1x1x128x128_2_0_0_0))
                    (View.ld wk' (tapRect 2 1 inb_S3x3x128x128_S1x1x128x128_2_1_0_0))
                    (View.ld wk' (tapRect 2 2 inb_S3x3x128x128_S1x1x128x128_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg10.N) :
    (dat V c).flushed 4 t = ((cfg10.win 4).blk t).view.read (Elt Ideal) (G V c) := by
  show (cfg10.win 4).cut (grid10.coords t) ((dat V c).after 4 t) = _
  rw [after_4]
  funext x
  obtain ⟨u, th, w, co, rfl⟩ : ∃ (u : Fin 1) (th : Fin 16) (w : Fin 112) (co : Fin 128), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg10.win 4).blk t).view.emb (ix4 (0 : Fin 1) th w co))
      = conv V c (pn t) (⟨(pr t).val * 16 + th.val, by have := (pr t).isLt; omega⟩ : Fin 112) w co :=
    (G_apply V c _).trans (conv_congr V c
      (Fin.ext (by show win10_4.index t 0 * 1 + 1 * 0 = t.val / 7; rw [h0]; omega))
      (Fin.ext (by show win10_4.index t 1 * 16 + 1 * th.val = t.val % 7 * 16 + th.val; rw [h1]; omega))
      (Fin.ext (by show win10_4.index t 2 * 112 + 1 * w.val = w.val; rw [h2]; omega))
      (Fin.ext (by show win10_4.index t 3 * 128 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 16 + (th.val + dy.val) = (pr t).val * 16 + th.val + dy.val
  omega

/-! ## The output's row tiles cover it -/

/-- An index of the output array is in point `t`'s block when its image and row tile are `t`'s. -/
theorem mem_blk (t : Fin cfg10.N) (i : S16x112x112x128.Idx) :
    i ∈ ((cfg10.win 4).blk t).view.set ↔ (i 0 : Nat) = t.val / 7 ∧ t.val % 7 * 16 ≤ (i 1 : Nat) ∧ (i 1 : Nat) < t.val % 7 * 16 + 16 := by
  show i ∈ ((View.whole main_v39).slice (win10_4.rect t)).set ↔ _
  rw [View.set_slice_whole, Rect.mem_set_unit]
  obtain ⟨-, -, -, -, ⟨h0, h1, h2, h3⟩⟩ := idx_facts t
  have b2 : (i 2 : Nat) < 112 := (i 2).isLt
  have b3 : (i 3 : Nat) < 128 := (i 3).isLt
  have e0 : win10_4.index t 0 * win10_4.size 0 = t.val / 7 := by rw [h0]; show t.val / 7 * 1 = _; omega
  have e1 : win10_4.index t 1 * win10_4.size 1 = t.val % 7 * 16 := by rw [h1]; rfl
  have e2 : win10_4.index t 2 * win10_4.size 2 = 0 := by rw [h2]; rfl
  have e3 : win10_4.index t 3 * win10_4.size 3 = 0 := by rw [h3]; rfl
  have x0 : win10_4.xsize (grid10.coords t) 0 = 1 := rfl
  have x1 : win10_4.xsize (grid10.coords t) 1 = 16 := rfl
  have x2 : win10_4.xsize (grid10.coords t) 2 = 112 := rfl
  have x3 : win10_4.xsize (grid10.coords t) 3 = 128 := rfl
  refine ⟨fun h => ?_, fun h a => ?_⟩
  · have a0 := h 0; have a1 := h 1
    rw [e0, x0] at a0; rw [e1, x1] at a1
    exact ⟨by omega, a1⟩
  · match a with
    | ⟨0, _⟩ => show win10_4.index t 0 * win10_4.size 0 ≤ (i 0 : Nat) ∧ (i 0 : Nat) < win10_4.index t 0 * win10_4.size 0 + win10_4.xsize (grid10.coords t) 0
                rw [e0, x0]; omega
    | ⟨1, _⟩ => show win10_4.index t 1 * win10_4.size 1 ≤ (i 1 : Nat) ∧ (i 1 : Nat) < win10_4.index t 1 * win10_4.size 1 + win10_4.xsize (grid10.coords t) 1
                rw [e1, x1]; exact h.2
    | ⟨2, _⟩ => show win10_4.index t 2 * win10_4.size 2 ≤ (i 2 : Nat) ∧ (i 2 : Nat) < win10_4.index t 2 * win10_4.size 2 + win10_4.xsize (grid10.coords t) 2
                rw [e2, x2]; omega
    | ⟨3, _⟩ => show win10_4.index t 3 * win10_4.size 3 ≤ (i 3 : Nat) ∧ (i 3 : Nat) < win10_4.index t 3 * win10_4.size 3 + win10_4.xsize (grid10.coords t) 3
                rw [e3, x3]; omega

/-- Every index of the output array is in the block of the point of its image and row tile. -/
theorem cover (i : S16x112x112x128.Idx) :
    ∃ t : Fin cfg10.N, (cfg10.win 4).flush t = true ∧ i ∈ ((cfg10.win 4).blk t).view.set := by
  have b0 : (i 0 : Nat) < 16 := (i 0).isLt
  have b1 : (i 1 : Nat) < 112 := (i 1).isLt
  refine ⟨⟨(i 0 : Nat) * 7 + (i 1 : Nat) / 16, by rw [N_eq]; omega⟩, flush10_4 _, ?_⟩
  rw [mem_blk]
  dsimp only
  omega

/-- The output array after the last grid point is `G`. -/
theorem final_out (c : Dev nD) : (dat V c).arrAt 4 cfg10.N = G V c :=
  (dat V c).arrAt_eq_of_cover 4 (G V c) (fun t _ => flushed_eq V c t) cover

/-- The output array after the last grid point: at (n, h, w, co) the 3×3 correlation of the padded input with the
    kernel over the 128 input channels, plus the bias, clamped below at zero. The sums nest dy, dx, ci. -/
theorem out_value (c : Dev nD) (n : Fin 16) (h : Fin 112) (w : Fin 112) (co : Fin 128) :
    (dat V c).arrAt 4 cfg10.N (ix4 n h w co)
      = max ((∑ dy : Fin 3, ∑ dx : Fin 3, ∑ ci : Fin 128,
                xp V c (ix4 n (⟨h.val + dy.val, by omega⟩ : Fin 128) (⟨w.val + dx.val, by omega⟩ : Fin 120) ci)
                  * wk V c (ix4 dy dx ci co))
              + bias V c (ix2 (0 : Fin 1) co)) 0 := by
  rw [final_out]
  rfl

end Cert.ReferenceIdeal.Reg10
-- ==== Proof.RI.Val10.lean ====
import proofs.«143011_g2000502688546152_pallasbulk_1201_3_alg».proof.Proof.RI.Seg10
import proofs.«143011_g2000502688546152_pallasbulk_1201_3_alg».proof.Proof.RI.Reg10Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg10

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 112 112 128)
    (hx : ∀ (n : Fin 16) (i : Fin 128) (j : Fin 120) (ci : Fin 128),
      (W c (Proc.devRef .tc (Pipeline.arrRef spec10 0)) : FVec 𝕀 S16x128x120x128 .f32) (ix4 n i j ci) = Cert.Spec.padAt z n i.val j.val ci) :
    Cert.Spec.curry4 (Wout W c (Proc.devRef .tc (Pipeline.arrRef spec10 4)) : FVec 𝕀 S16x112x112x128 .f32)
      = Cert.Spec.convRelu z (Cert.Spec.curryW (W c (Proc.devRef .tc (Pipeline.arrRef spec10 2)) : FVec 𝕀 S3x3x128x128 .f32))
          (Cert.Spec.curryB (W c (Proc.devRef .tc (Pipeline.arrRef spec10 3)) : FVec 𝕀 S1x128 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg10

end
-- ==== Proof.RI.Reg11Value.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg11Data
import Idealize.ShloMosaic.Lib.Pipeline.Value
import Idealize.ShloMosaic.Lib.ValueIdx
import Idealize.ShloMosaic.PureOps.Ideal.Laws

/-! # Region 11: the sum of |x − y| over two [50176, 512] arrays, accumulated over a grid of 49 points into a [1, 1] array

At point t the two input windows show rows 1024t … 1024t+1023 of x and of y. The output window is the one [1, 1]
block at every point: the body zeroes it at point 0, then at every point adds the block's sum of |x − y| to what
the window holds. It is written back to the array once, after the last point. -/
-- This module: the output array after the last point, at the extended reals.

set_option maxRecDepth 16384

noncomputable section

namespace Cert.ReferenceIdeal.Reg11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Idealize.ShloMosaic.Ideal

variable (VI : (c : Dev nD) → (b : Ref sig .tc) → Buf (Elt Ideal) ((c : Thread nD τ).loc b))

/-- The two input arrays as the region finds them, functions of (row, lane). -/
abbrev xs (c : Dev nD) : S50176x512.Idx → EReal := VI c (Pipeline.arrRef spec11 0)
abbrev ys (c : Dev nD) : S50176x512.Idx → EReal := VI c (Pipeline.arrRef spec11 1)

/-- The output array after the last point. -/
abbrev out (c : Dev nD) : S1x1.Idx → EReal := (dat (F := Ideal) VI c).arrAt 2 cfg11.N

/-! ## One step at the one index -/

/-- The sum of |x − y| over a block of 1024 rows of 512 lanes. -/
def blockSum (x y : Vec Ideal S1024x512 .f32) : EReal :=
  ∑ q : Fin 1024, ∑ k : Fin 512, max (x (ix2 q k) - y (ix2 q k)) (-(x (ix2 q k) - y (ix2 q k)))

/-- A step adds the block's sum to the accumulator's one element. -/
theorem step_apply (acc : Vec Ideal S1x1 .f32) (x y : Vec Ideal S1024x512 .f32) :
    (step acc x y (ix2 (0 : Fin 1) (0 : Fin 1)) : EReal) = acc (ix2 (0 : Fin 1) (0 : Fin 1)) + blockSum x y := by
  unfold step Gen.k11_pay2 blockSum
  dsimp only
  rw [addf_apply, shapeCast_self, shapeCast_self, shapeCast_self, broadcast_apply]
  congr 1
  unfold extractAt
  refine (shapeCast_apply _ _ _ (ix1 (0 : Fin 1)) ?_).trans ?_
  · rw [Shape.rowMajor_val_one, Shape.rowMajor_val_three]; rfl
  -- the reduction keeps only unit axes: it is the sum over every index of the block
  refine (multiReduction_add_total (axes := [1, 2]) _ 0x00000000#32 Gen.reduces_S1x1024x512_S1
    (fun b => by match b with | ⟨0, _⟩ => rfl) (.inl rfl) rfl (ix1 (0 : Fin 1))).trans ?_
  -- the cast that added the unit axis is a bijection of the index sets
  unfold shapeCast
  refine (Equiv.sum_comp (Shape.reshapeEquiv Gen.shapeCasts_S1024x512_S1x1024x512) _).trans ?_
  rw [sum_idx2]
  rfl

/-- The zeroed accumulator's one element is 0. -/
theorem zero_apply : (zero (F := Ideal) (ix2 (0 : Fin 1) (0 : Fin 1)) : EReal) = 0 := by
  unfold zero Gen.k11_pay1
  rw [broadcast_apply]
  exact ofBits_zero_f32

/-! ## The running total at the one index: a sum over the points -/

/-- Point `s`'s addend: its blocks' sum of |x − y| (0 past the grid, where it is never used). -/
def addend (c : Dev nD) (s : ℕ) : EReal :=
  if h : s < cfg11.N then blockSum (xrows VI c ⟨s, h⟩) (yrows VI c ⟨s, h⟩) else 0

theorem total_apply (c : Dev nD) : ∀ (n : ℕ) (h : n < cfg11.N),
    (total VI c n h (ix2 (0 : Fin 1) (0 : Fin 1)) : EReal) = ∑ s ∈ Finset.range (n + 1), addend VI c s
  | 0, h => by
    show (step zero (xrows VI c ⟨0, h⟩) (yrows VI c ⟨0, h⟩) (ix2 (0 : Fin 1) (0 : Fin 1)) : EReal) = _
    rw [step_apply, zero_apply, zero_add, Finset.sum_range_one, addend, dif_pos h]
  | n + 1, h => by
    show (step (total VI c n (Nat.lt_of_succ_lt h)) (xrows VI c ⟨n + 1, h⟩) (yrows VI c ⟨n + 1, h⟩)
      (ix2 (0 : Fin 1) (0 : Fin 1)) : EReal) = _
    rw [step_apply, total_apply c n (Nat.lt_of_succ_lt h), Finset.sum_range_succ _ (n + 1), addend, dif_pos h]

/-! ## The array after the run is the last point's total -/

theorem last_lt : 48 < cfg11.N := Nat.lt_of_lt_of_eq (by decide : 48 < 49) (Gen.N_11 : cfg11.N = 49).symm

/-- The output window is written back at the last point only, and its block is the whole [1, 1] array: after the run
    the array's element is the running total after point 48. -/
theorem out_eq (c : Dev nD) : out VI c = fun _ => (total VI c 48 last_lt (ix2 (0 : Fin 1) (0 : Fin 1)) : EReal) := by
  refine (dat (F := Ideal) VI c).arrAt_eq_of_cover 2 (fun _ => (total VI c 48 last_lt (ix2 (0 : Fin 1) (0 : Fin 1)) : EReal)) ?hG ?hcover
  case hG =>
    intro t hf
    have h97 : t.val = 48 := by
      have h1 : t.val % 49 = 48 := (Gen.flush11_2 t).mp hf
      have h2 : t.val < 49 := Nat.lt_of_lt_of_eq t.isLt (Gen.N_11 : cfg11.N = 49)
      omega
    obtain rfl : t = ⟨48, last_lt⟩ := Fin.ext h97
    funext y
    show (dat (F := Ideal) VI c).after 2 ⟨48, last_lt⟩ y = _
    rw [after_total, View.read_apply]
    show (total VI c 48 last_lt y : EReal) = total VI c 48 last_lt (ix2 (0 : Fin 1) (0 : Fin 1))
    have hy : y = ix2 (0 : Fin 1) (0 : Fin 1) :=
      Shape.idx_ext₂ (by have h : (y 0).val < 1 := (y 0).isLt; show (y 0).val = 0; omega)
        (by have h : (y 1).val < 1 := (y 1).isLt; show (y 1).val = 0; omega)
    rw [hy]
  case hcover =>
    intro i
    refine ⟨⟨48, last_lt⟩, (Gen.flush11_2 _).mpr rfl, ?_⟩
    show i ∈ ((View.whole main_v42).slice (win11_2.rect ⟨48, last_lt⟩)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-! ## The points' blocks are the rows of the arrays -/

/-- At point `t` each input window shows block (t, 0) of its array. -/
theorem idx_facts : ∀ t : Fin cfg11.N,
    win11_0.index t 0 = t.val ∧ win11_0.index t 1 = 0 ∧ win11_1.index t 0 = t.val ∧ win11_1.index t 1 = 0 :=
  (by decide +kernel : ∀ t : Fin grid11.N,
    win11_0.index t 0 = t.val ∧ win11_0.index t 1 = 0 ∧ win11_1.index t 0 = t.val ∧ win11_1.index t 1 = 0)

/-- Row `q` of point `t`'s block of x is row `q + 1024 t` of x; the same for y. -/
theorem xrows_apply (c : Dev nD) (t : Fin cfg11.N) (q : Fin 1024) (k : Fin 512) (r : Fin 50176)
    (hr : r.val = q.val + 1024 * t.val) : (xrows VI c t (ix2 q k) : EReal) = xs VI c (ix2 r k) := by
  unfold xrows
  rw [View.read_apply]
  show xs VI c (((cfg11.win 0).blk t).view.emb (ix2 q k)) = _
  congr 1
  apply Shape.idx_ext₂
  · show ((win11_0.rect t).emb (ix2 q k) 0 : ℕ) = r.val
    rw [Window.rect_emb_val, (idx_facts t).1, hr]
    show t.val * 1024 + q.val = q.val + 1024 * t.val
    omega
  · show ((win11_0.rect t).emb (ix2 q k) 1 : ℕ) = k.val
    rw [Window.rect_emb_val, (idx_facts t).2.1]
    show 0 * 512 + k.val = k.val
    omega

theorem yrows_apply (c : Dev nD) (t : Fin cfg11.N) (q : Fin 1024) (k : Fin 512) (r : Fin 50176)
    (hr : r.val = q.val + 1024 * t.val) : (yrows VI c t (ix2 q k) : EReal) = ys VI c (ix2 r k) := by
  unfold yrows
  rw [View.read_apply]
  show ys VI c (((cfg11.win 1).blk t).view.emb (ix2 q k)) = _
  congr 1
  apply Shape.idx_ext₂
  · show ((win11_1.rect t).emb (ix2 q k) 0 : ℕ) = r.val
    rw [Window.rect_emb_val, (idx_facts t).2.2.1, hr]
    show t.val * 1024 + q.val = q.val + 1024 * t.val
    omega
  · show ((win11_1.rect t).emb (ix2 q k) 1 : ℕ) = k.val
    rw [Window.rect_emb_val, (idx_facts t).2.2.2]
    show 0 * 512 + k.val = k.val
    omega

/-! ## The sum over the points' blocks is the sum over all rows -/

/-- |x − y| at (row, lane) of the two arrays. -/
def absDiff (c : Dev nD) (r : Fin 50176) (k : Fin 512) : EReal :=
  max (xs VI c (ix2 r k) - ys VI c (ix2 r k)) (-(xs VI c (ix2 r k) - ys VI c (ix2 r k)))

/-- 50176 rows are 49 blocks of 1024: a sum over the rows is the sum over the blocks of the sums over each block's rows. -/
theorem sum_rows_split {M : Type*} [AddCommMonoid M] (g : Fin 50176 → M) :
    ∑ r, g r = ∑ s : Fin 49, ∑ q : Fin 1024, g ⟨q.val + 1024 * s.val, by omega⟩ := by
  rw [← Equiv.sum_comp (finProdFinEquiv (m := 49) (n := 1024)) g, Fintype.sum_prod_type]
  rfl

theorem addend_eq (c : Dev nD) (s : Fin 49) :
    addend VI c s.val = ∑ q : Fin 1024, ∑ k : Fin 512, absDiff VI c ⟨q.val + 1024 * s.val, by omega⟩ k := by
  have hs : s.val < cfg11.N := Nat.lt_of_lt_of_eq s.isLt (Gen.N_11 : cfg11.N = 49).symm
  rw [addend, dif_pos hs]
  unfold blockSum absDiff
  refine Finset.sum_congr rfl fun q _ => Finset.sum_congr rfl fun k _ => ?_
  rw [xrows_apply VI c ⟨s.val, hs⟩ q k ⟨q.val + 1024 * s.val, by omega⟩ rfl,
    yrows_apply VI c ⟨s.val, hs⟩ q k ⟨q.val + 1024 * s.val, by omega⟩ rfl]

/-- The one element of the output: the sum over all rows and lanes of |x − y|, the absolute value of `d` being `max d (−d)`. -/
theorem out_apply (c : Dev nD) :
    out VI c (ix2 (0 : Fin 1) (0 : Fin 1))
      = ∑ r : Fin 50176, ∑ k : Fin 512,
          max (xs VI c (ix2 r k) - ys VI c (ix2 r k)) (-(xs VI c (ix2 r k) - ys VI c (ix2 r k))) := by
  rw [out_eq]
  show (total VI c 48 last_lt (ix2 (0 : Fin 1) (0 : Fin 1)) : EReal) = ∑ r : Fin 50176, ∑ k : Fin 512, absDiff VI c r k
  rw [total_apply, sum_rows_split, Finset.sum_range]
  exact Finset.sum_congr rfl fun s _ => addend_eq VI c s

end Cert.ReferenceIdeal.Reg11
-- ==== Proof.RI.Val11.lean ====
import proofs.«143011_g2000502688546152_pallasbulk_1201_3_alg».proof.Proof.RI.Seg11
import proofs.«143011_g2000502688546152_pallasbulk_1201_3_alg».proof.Proof.RI.Reg11Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg11

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the two arrays the region finds are two image stacks read as rows of 512 consecutive entries
    of the row-major order, the one entry it leaves is the sum over all rows and lanes of their absolute differences. -/
theorem value (zx zy : Cert.Spec.Act 16 112 112 128)
    (hx : ∀ (r : Fin 50176) (k : Fin 512), (W c (Proc.devRef .tc (Pipeline.arrRef spec11 0)) : FVec 𝕀 S50176x512 .f32) (ix2 r k) = Cert.Spec.flat zx (r.val * 512 + k.val))
    (hy : ∀ (r : Fin 50176) (k : Fin 512), (W c (Proc.devRef .tc (Pipeline.arrRef spec11 1)) : FVec 𝕀 S50176x512 .f32) (ix2 r k) = Cert.Spec.flat zy (r.val * 512 + k.val)) :
    (Wout W c (Proc.devRef .tc (Pipeline.arrRef spec11 2)) : FVec 𝕀 S1x1 .f32) (ix2 (0 : Fin 1) (0 : Fin 1))
      = ∑ r : Fin 50176, ∑ k : Fin 512,
          Cert.Spec.eabs (Cert.Spec.flat zx (r.val * 512 + k.val) - Cert.Spec.flat zy (r.val * 512 + k.val)) := by
  rw [Wout_out]
  refine (out_apply (VW W) c).trans ?_
  show @Eq EReal _ _
  exact Finset.sum_congr rfl fun r _ => Finset.sum_congr rfl fun k _ => by
    show max _ _ = Cert.Spec.eabs _
    unfold Cert.Spec.eabs
    rw [← hx r k, ← hy r k]

end Cert.ReferenceIdeal.Reg11

end
-- ==== Proof.RI.Reg12Value.lean ====
/-
  REGION 12, at the ideal values: the output array after the last point, index by index — the 2×2 max pooling
  of the region's own input array.
-/
import proofs.«143011_g2000502688546152_pallasbulk_1201_3_alg».proof.Proof.RI.Reg12Data
import Idealize.ShloMosaic.Lib.ValueIdx
import Idealize.ShloMosaic.Lib.Pipeline.Value
import Idealize.ShloMosaic.PureOps.Ideal.Laws

noncomputable section

namespace Cert.ReferenceIdeal.Reg12

open Cert.ReferenceIdeal Cert.ReferenceIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .f32 0xFF800000#32 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S16x56x2x128 .f32) (r : Fin 16) (j : Fin 56) (ch : Fin 128) :
    multiReduction .maximumf [2] S16x56x128 Y 0xFF800000#32 reduces_S16x56x2x128_S16x56x128 (.inl rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S8x2x56x128 .f32) (i : Fin 8) (j : Fin 56) (ch : Fin 128) :
    multiReduction .maximumf [1] S8x56x128 Z 0xFF800000#32 reduces_S8x2x56x128_S8x56x128 (.inl rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x16x56x2x128.Idx → α) (r : Fin 16) (j : Fin 56) (q : Fin 2) (ch : Fin 128) :
    shapeCast S16x56x2x128 X shapeCasts_S1x16x56x2x128_S16x56x2x128 (ix4 r j q ch) = X (ix5 (0 : Fin 1) r j q ch) := by
  refine shapeCast_apply _ _ _ _ ?_
  rw [Shape.rowMajor_val_five, Shape.rowMajor_val_four]
  show ((((0 * 16 + r.val) * 56 + j.val) * 2 + q.val) * 128 + ch.val) = (((r.val * 56 + j.val) * 2 + q.val) * 128 + ch.val)
  omega

/-- The 16 rows regrouped as 8 pairs: the even row of pair i is row 2i, -/
theorem pairRows_apply0 (W : S16x56x128.Idx → α) (i : Fin 8) (j : Fin 56) (ch : Fin 128) :
    shapeCast S8x2x56x128 W shapeCasts_S16x56x128_S8x2x56x128 (ix4 i (0 : Fin 2) j ch)
      = W (ix3 (⟨2 * i.val, by omega⟩ : Fin 16) j ch) := by
  refine shapeCast_apply _ _ _ _ ?_
  rw [Shape.rowMajor_val_three, Shape.rowMajor_val_four]
  show ((2 * i.val) * 56 + j.val) * 128 + ch.val = (((i.val * 2 + 0) * 56 + j.val) * 128 + ch.val)
  omega

/-- and the odd one row 2i + 1. -/
theorem pairRows_apply1 (W : S16x56x128.Idx → α) (i : Fin 8) (j : Fin 56) (ch : Fin 128) :
    shapeCast S8x2x56x128 W shapeCasts_S16x56x128_S8x2x56x128 (ix4 i (1 : Fin 2) j ch)
      = W (ix3 (⟨2 * i.val + 1, by omega⟩ : Fin 16) j ch) := by
  refine shapeCast_apply _ _ _ _ ?_
  rw [Shape.rowMajor_val_three, Shape.rowMajor_val_four]
  show ((2 * i.val + 1) * 56 + j.val) * 128 + ch.val = (((i.val * 2 + 1) * 56 + j.val) * 128 + ch.val)
  omega

/-- The pooled rows with the leading unit axis back. -/
theorem addLead_apply (W : S8x56x128.Idx → α) (i : Fin 8) (j : Fin 56) (ch : Fin 128) :
    shapeCast S1x8x56x128 W shapeCasts_S8x56x128_S1x8x56x128 (ix4 (0 : Fin 1) i j ch) = W (ix3 i j ch) := by
  refine shapeCast_apply _ _ _ _ ?_
  rw [Shape.rowMajor_val_three, Shape.rowMajor_val_four]
  show ((i.val * 56 + j.val) * 128 + ch.val) = (((0 * 8 + i.val) * 56 + j.val) * 128 + ch.val)
  omega

/-- The body's value at an index of the output block: the maximum over the two rows 2i, 2i+1 of the maximum
    over the column pair j. -/
theorem pay_apply (X : Vec Ideal S1x16x56x2x128 .f32) (i : Fin 8) (j : Fin 56) (ch : Fin 128) :
    k12_pay1 X (ix4 (0 : Fin 1) i j ch)
      = max (max (X (ix5 (0 : Fin 1) (⟨2 * i.val, by omega⟩ : Fin 16) j (0 : Fin 2) ch))
                 (X (ix5 (0 : Fin 1) (⟨2 * i.val, by omega⟩ : Fin 16) j (1 : Fin 2) ch)))
            (max (X (ix5 (0 : Fin 1) (⟨2 * i.val + 1, by omega⟩ : Fin 16) j (0 : Fin 2) ch))
                 (X (ix5 (0 : Fin 1) (⟨2 * i.val + 1, by omega⟩ : Fin 16) j (1 : Fin 2) ch))) := by
  unfold k12_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 16 images × 112 rows × 56 column pairs × 2 × 128 channels. -/
abbrev xin (c : Dev nD) : (⟨5, ![16, 112, 56, 2, 128]⟩ : Shape).Idx → EReal := V c (Pipeline.arrRef spec12 0)

/-- The 2×2 max pooling of an input array at (n, i, j, ch): over the rows 2i, 2i+1 the maximum of the maximum
    over the column pair j. -/
def poolAt (x : (⟨5, ![16, 112, 56, 2, 128]⟩ : Shape).Idx → EReal) (n : Fin 16) (i : Fin 56) (j : Fin 56) (ch : Fin 128) : EReal :=
  max (max (x (ix5 n (⟨2 * i.val, by omega⟩ : Fin 112) j (0 : Fin 2) ch))
           (x (ix5 n (⟨2 * i.val, by omega⟩ : Fin 112) j (1 : Fin 2) ch)))
      (max (x (ix5 n (⟨2 * i.val + 1, by omega⟩ : Fin 112) j (0 : Fin 2) ch))
           (x (ix5 n (⟨2 * i.val + 1, by omega⟩ : Fin 112) j (1 : Fin 2) ch)))

/-- The pooled array. -/
def poolArr (x : (⟨5, ![16, 112, 56, 2, 128]⟩ : Shape).Idx → EReal) : (⟨4, ![16, 56, 56, 128]⟩ : Shape).Idx → EReal :=
  fun k => poolAt x (k 0) (k 1) (k 2) (k 3)

/-- The index maps over the grid in closed form: point t is (n, r) = (t / 7, t % 7); there the input block is
    block (n, r, 0, 0, 0) of its array and the output block is block (n, r, 0, 0) of its own. -/
theorem idx_facts : ∀ t : Fin cfg12.N,
    win12_1.index t (0 : Fin 4) = t.val / 7 ∧ win12_1.index t (1 : Fin 4) = t.val % 7
    ∧ win12_1.index t (2 : Fin 4) = 0 ∧ win12_1.index t (3 : Fin 4) = 0
    ∧ win12_0.index t (0 : Fin 5) = t.val / 7 ∧ win12_0.index t (1 : Fin 5) = t.val % 7
    ∧ win12_0.index t (2 : Fin 5) = 0 ∧ win12_0.index t (3 : Fin 5) = 0 ∧ win12_0.index t (4 : Fin 5) = 0 :=
  (by decide +kernel : ∀ t : Fin grid12.N, _)

/-- The grid has 112 points. -/
theorem t_lt (t : Fin cfg12.N) : t.val < 112 := lt_of_lt_of_eq t.isLt N_12

/-- An element of the input block at point t = (n, r) sits in the input array at image n, row 16r + (its row). -/
theorem rows_apply (c : Dev nD) (t : Fin cfg12.N) (r : Fin 16) (R : Fin 112) (hR : R.val = 16 * (t.val % 7) + r.val)
    (j : Fin 56) (q : Fin 2) (ch : Fin 128) :
    rows V c t (ix5 (0 : Fin 1) r j q ch)
      = xin V c (ix5 (⟨t.val / 7, by have := t_lt t; omega⟩ : Fin 16) R j q ch) := by
  obtain ⟨o0, o1, o2, o3, i0, i1, i2, i3, i4⟩ := idx_facts t
  show xin V c (((cfg12.win 0).blk t).view.emb (ix5 (0 : Fin 1) r j q ch)) = _
  congr 1
  funext a
  apply Fin.ext
  match a with
  | ⟨0, _⟩ => show win12_0.index t (0 : Fin 5) * 1 + 1 * 0 = t.val / 7; omega
  | ⟨1, _⟩ => show win12_0.index t (1 : Fin 5) * 16 + 1 * r.val = R.val; omega
  | ⟨2, _⟩ => show win12_0.index t (2 : Fin 5) * 56 + 1 * j.val = j.val; omega
  | ⟨3, _⟩ => show win12_0.index t (3 : Fin 5) * 2 + 1 * q.val = q.val; omega
  | ⟨4, _⟩ => show win12_0.index t (4 : Fin 5) * 128 + 1 * ch.val = ch.val; omega

/-- An element of the output block at point t = (n, r) sits in the output array at image n, row 8r + (its row). -/
theorem emb_out (t : Fin cfg12.N) (i : Fin 8) (j : Fin 56) (ch : Fin 128) :
    ((cfg12.win 1).blk t).view.emb (ix4 (0 : Fin 1) i j ch)
      = ix4 (⟨t.val / 7, by have := t_lt t; omega⟩ : Fin 16) (⟨8 * (t.val % 7) + i.val, by omega⟩ : Fin 56) j ch := by
  obtain ⟨o0, o1, o2, o3, i0, i1, i2, i3, i4⟩ := idx_facts t
  funext a
  apply Fin.ext
  match a with
  | ⟨0, _⟩ => show win12_1.index t (0 : Fin 4) * 1 + 1 * 0 = t.val / 7; omega
  | ⟨1, _⟩ => show win12_1.index t (1 : Fin 4) * 8 + 1 * i.val = 8 * (t.val % 7) + i.val; omega
  | ⟨2, _⟩ => show win12_1.index t (2 : Fin 4) * 56 + 1 * j.val = j.val; omega
  | ⟨3, _⟩ => show win12_1.index t (3 : Fin 4) * 128 + 1 * ch.val = ch.val; omega

/-- What point t writes back is its block of the pooled array. -/
theorem flushed_eq (c : Dev nD) (t : Fin cfg12.N) :
    (dat (F := Ideal) V c).flushed 1 t = ((cfg12.win 1).blk t).view.read (Elt Ideal) (poolArr (xin V c)) := by
  show (cfg12.win 1).cut (grid12.coords t) ((dat V c).after 1 t) = _
  rw [after_out]
  funext y
  obtain ⟨y0, i, j, ch, rfl⟩ : ∃ (y0 : Fin 1) (i : Fin 8) (j : Fin 56) (ch : Fin 128), y = ix4 y0 i j ch :=
    ⟨y 0, y 1, y 2, y 3, eq_ix4 y⟩
  obtain rfl : y0 = 0 := Subsingleton.elim _ _
  show k12_pay1 (rows V c t) (ix4 (0 : Fin 1) i j ch)
    = poolArr (xin V c) (((cfg12.win 1).blk t).view.emb (ix4 (0 : Fin 1) i j ch))
  rw [pay_apply, emb_out,
    rows_apply V c t _ (⟨2 * (8 * (t.val % 7) + i.val), by omega⟩ : Fin 112) (by show 2 * (8 * (t.val % 7) + i.val) = 16 * (t.val % 7) + 2 * i.val; omega),
    rows_apply V c t _ (⟨2 * (8 * (t.val % 7) + i.val), by omega⟩ : Fin 112) (by show 2 * (8 * (t.val % 7) + i.val) = 16 * (t.val % 7) + 2 * i.val; omega),
    rows_apply V c t _ (⟨2 * (8 * (t.val % 7) + i.val) + 1, by omega⟩ : Fin 112) (by show 2 * (8 * (t.val % 7) + i.val) + 1 = 16 * (t.val % 7) + (2 * i.val + 1); omega),
    rows_apply V c t _ (⟨2 * (8 * (t.val % 7) + i.val) + 1, by omega⟩ : Fin 112) (by show 2 * (8 * (t.val % 7) + i.val) + 1 = 16 * (t.val % 7) + (2 * i.val + 1); omega)]
  rfl

/-- An index of the output array is in point t's block iff on each axis it lies in the block's range. -/
theorem mem_blk (t : Fin cfg12.N) (k : (⟨4, ![16, 56, 56, 128]⟩ : Shape).Idx) :
    k ∈ ((cfg12.win 1).blk t).view.set ↔ ∀ a : Fin 4, win12_1.index t a * S1x8x56x128.size a ≤ (k a).val
      ∧ (k a).val < win12_1.index t a * S1x8x56x128.size a + S1x8x56x128.size a := by
  show k ∈ ((View.whole main_v47).slice (win12_1.rect t)).set ↔ _
  rw [View.set_slice_whole, Rect.mem_set_unit]
  exact Iff.rfl

/-- The output blocks tile the output array: index (n, h, j, ch) is in the block of point (n, h / 8). -/
theorem cover (k : (⟨4, ![16, 56, 56, 128]⟩ : Shape).Idx) :
    ∃ t : Fin cfg12.N, (cfg12.win 1).flush t = true ∧ k ∈ ((cfg12.win 1).blk t).view.set := by
  have h0 : (k 0).val < 16 := (k 0).isLt
  have h1 : (k 1).val < 56 := (k 1).isLt
  have h2 : (k 2).val < 56 := (k 2).isLt
  have h3 : (k 3).val < 128 := (k 3).isLt
  have hN : cfg12.N = 112 := N_12
  obtain ⟨t, tv⟩ : ∃ t : Fin cfg12.N, t.val = (k 0).val * 7 + (k 1).val / 8 := ⟨⟨_, by omega⟩, rfl⟩
  obtain ⟨o0, o1, o2, o3, -⟩ := idx_facts t
  refine ⟨t, flush12_1 t, ?_⟩
  rw [mem_blk]
  intro a
  match a with
  | ⟨0, _⟩ => show win12_1.index t (0 : Fin 4) * 1 ≤ (k 0).val ∧ (k 0).val < win12_1.index t (0 : Fin 4) * 1 + 1; omega
  | ⟨1, _⟩ => show win12_1.index t (1 : Fin 4) * 8 ≤ (k 1).val ∧ (k 1).val < win12_1.index t (1 : Fin 4) * 8 + 8; omega
  | ⟨2, _⟩ => show win12_1.index t (2 : Fin 4) * 56 ≤ (k 2).val ∧ (k 2).val < win12_1.index t (2 : Fin 4) * 56 + 56; omega
  | ⟨3, _⟩ => show win12_1.index t (3 : Fin 4) * 128 ≤ (k 3).val ∧ (k 3).val < win12_1.index t (3 : Fin 4) * 128 + 128; omega

/-- So after the last point the output array is the pooled input array. -/
theorem final (c : Dev nD) : (dat (F := Ideal) V c).arrAt 1 cfg12.N = poolArr (xin V c) :=
  (dat V c).arrAt_eq_of_cover 1 (poolArr (xin V c)) (fun t _ => flushed_eq V c t) cover

/-- After the last point the output array [16, 56, 56, 128] is the 2×2 max pooling of the input array
    [16, 112, 56, 2, 128]: at (n, i, j, ch) the maximum over the two rows 2i, 2i+1 of the maximum over the
    column pair j. The nesting is the body's: the inner maximum is over the column pair (the first
    reduction), the outer over the row pair (the second). -/
theorem out_apply (c : Dev nD) (n : Fin 16) (i : Fin 56) (j : Fin 56) (ch : Fin 128) :
    (dat (F := Ideal) V c).arrAt 1 cfg12.N (ix4 n i j ch)
      = max (max (xin V c (ix5 n (⟨2 * i.val, by omega⟩ : Fin 112) j (0 : Fin 2) ch))
                 (xin V c (ix5 n (⟨2 * i.val, by omega⟩ : Fin 112) j (1 : Fin 2) ch)))
            (max (xin V c (ix5 n (⟨2 * i.val + 1, by omega⟩ : Fin 112) j (0 : Fin 2) ch))
                 (xin V c (ix5 n (⟨2 * i.val + 1, by omega⟩ : Fin 112) j (1 : Fin 2) ch))) := by
  rw [final]
  rfl

end Cert.ReferenceIdeal.Reg12
-- ==== Proof.RI.Val12.lean ====
import proofs.«143011_g2000502688546152_pallasbulk_1201_3_alg».proof.Proof.RI.Seg12
import proofs.«143011_g2000502688546152_pallasbulk_1201_3_alg».proof.Proof.RI.Reg12Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg12

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the array the region finds is an image stack `z` with its columns split into pairs, the
    array it leaves is `z` pooled 2×2. -/
theorem value (z : Cert.Spec.Act 16 112 112 128)
    (hs : ∀ (n : Fin 16) (i : Fin 112) (j : Fin 56) (t : Fin 2) (ch : Fin 128),
      (W c (Proc.devRef .tc (Pipeline.arrRef spec12 0)) : FVec 𝕀 S16x112x56x2x128 .f32) (ix5 n i j t ch) = z n i ⟨2 * j.val + t.val, by omega⟩ ch) :
    Cert.Spec.curry4 (Wout W c (Proc.devRef .tc (Pipeline.arrRef spec12 1)) : FVec 𝕀 S16x56x56x128 .f32)
      = (Cert.Spec.pool2x2 z : Cert.Spec.Act 16 56 56 128) := by
  funext n i j ch
  rw [Cert.Spec.curry4_apply, Wout_out]
  refine (out_apply (VW W) c n i j ch).trans ?_
  show @Eq EReal _ _
  unfold Cert.Spec.pool2x2
  exact congrArg₂ max (congrArg₂ max (hs n _ j 0 ch) (hs n _ j 1 ch)) (congrArg₂ max (hs n _ j 0 ch) (hs n _ j 1 ch))

end Cert.ReferenceIdeal.Reg12

end
-- ==== Proof.RI.Reg13Value.lean ====
/-
  REGION 13, at the ideal values: the output array after the last point, index by index — the 2×2 max pooling
  of the region's own input array.
-/
import proofs.«143011_g2000502688546152_pallasbulk_1201_3_alg».proof.Proof.RI.Reg13Data
import Idealize.ShloMosaic.Lib.ValueIdx
import Idealize.ShloMosaic.Lib.Pipeline.Value
import Idealize.ShloMosaic.PureOps.Ideal.Laws

noncomputable section

namespace Cert.ReferenceIdeal.Reg13

open Cert.ReferenceIdeal Cert.ReferenceIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .f32 0xFF800000#32 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S16x56x2x128 .f32) (r : Fin 16) (j : Fin 56) (ch : Fin 128) :
    multiReduction .maximumf [2] S16x56x128 Y 0xFF800000#32 reduces_S16x56x2x128_S16x56x128 (.inl rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S8x2x56x128 .f32) (i : Fin 8) (j : Fin 56) (ch : Fin 128) :
    multiReduction .maximumf [1] S8x56x128 Z 0xFF800000#32 reduces_S8x2x56x128_S8x56x128 (.inl rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x16x56x2x128.Idx → α) (r : Fin 16) (j : Fin 56) (q : Fin 2) (ch : Fin 128) :
    shapeCast S16x56x2x128 X shapeCasts_S1x16x56x2x128_S16x56x2x128 (ix4 r j q ch) = X (ix5 (0 : Fin 1) r j q ch) := by
  refine shapeCast_apply _ _ _ _ ?_
  rw [Shape.rowMajor_val_five, Shape.rowMajor_val_four]
  show ((((0 * 16 + r.val) * 56 + j.val) * 2 + q.val) * 128 + ch.val) = (((r.val * 56 + j.val) * 2 + q.val) * 128 + ch.val)
  omega

/-- The 16 rows regrouped as 8 pairs: the even row of pair i is row 2i, -/
theorem pairRows_apply0 (W : S16x56x128.Idx → α) (i : Fin 8) (j : Fin 56) (ch : Fin 128) :
    shapeCast S8x2x56x128 W shapeCasts_S16x56x128_S8x2x56x128 (ix4 i (0 : Fin 2) j ch)
      = W (ix3 (⟨2 * i.val, by omega⟩ : Fin 16) j ch) := by
  refine shapeCast_apply _ _ _ _ ?_
  rw [Shape.rowMajor_val_three, Shape.rowMajor_val_four]
  show ((2 * i.val) * 56 + j.val) * 128 + ch.val = (((i.val * 2 + 0) * 56 + j.val) * 128 + ch.val)
  omega

/-- and the odd one row 2i + 1. -/
theorem pairRows_apply1 (W : S16x56x128.Idx → α) (i : Fin 8) (j : Fin 56) (ch : Fin 128) :
    shapeCast S8x2x56x128 W shapeCasts_S16x56x128_S8x2x56x128 (ix4 i (1 : Fin 2) j ch)
      = W (ix3 (⟨2 * i.val + 1, by omega⟩ : Fin 16) j ch) := by
  refine shapeCast_apply _ _ _ _ ?_
  rw [Shape.rowMajor_val_three, Shape.rowMajor_val_four]
  show ((2 * i.val + 1) * 56 + j.val) * 128 + ch.val = (((i.val * 2 + 1) * 56 + j.val) * 128 + ch.val)
  omega

/-- The pooled rows with the leading unit axis back. -/
theorem addLead_apply (W : S8x56x128.Idx → α) (i : Fin 8) (j : Fin 56) (ch : Fin 128) :
    shapeCast S1x8x56x128 W shapeCasts_S8x56x128_S1x8x56x128 (ix4 (0 : Fin 1) i j ch) = W (ix3 i j ch) := by
  refine shapeCast_apply _ _ _ _ ?_
  rw [Shape.rowMajor_val_three, Shape.rowMajor_val_four]
  show ((i.val * 56 + j.val) * 128 + ch.val) = (((0 * 8 + i.val) * 56 + j.val) * 128 + ch.val)
  omega

/-- The body's value at an index of the output block: the maximum over the two rows 2i, 2i+1 of the maximum
    over the column pair j. -/
theorem pay_apply (X : Vec Ideal S1x16x56x2x128 .f32) (i : Fin 8) (j : Fin 56) (ch : Fin 128) :
    k13_pay1 X (ix4 (0 : Fin 1) i j ch)
      = max (max (X (ix5 (0 : Fin 1) (⟨2 * i.val, by omega⟩ : Fin 16) j (0 : Fin 2) ch))
                 (X (ix5 (0 : Fin 1) (⟨2 * i.val, by omega⟩ : Fin 16) j (1 : Fin 2) ch)))
            (max (X (ix5 (0 : Fin 1) (⟨2 * i.val + 1, by omega⟩ : Fin 16) j (0 : Fin 2) ch))
                 (X (ix5 (0 : Fin 1) (⟨2 * i.val + 1, by omega⟩ : Fin 16) j (1 : Fin 2) ch))) := by
  unfold k13_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 16 images × 112 rows × 56 column pairs × 2 × 128 channels. -/
abbrev xin (c : Dev nD) : (⟨5, ![16, 112, 56, 2, 128]⟩ : Shape).Idx → EReal := V c (Pipeline.arrRef spec13 0)

/-- The 2×2 max pooling of an input array at (n, i, j, ch): over the rows 2i, 2i+1 the maximum of the maximum
    over the column pair j. -/
def poolAt (x : (⟨5, ![16, 112, 56, 2, 128]⟩ : Shape).Idx → EReal) (n : Fin 16) (i : Fin 56) (j : Fin 56) (ch : Fin 128) : EReal :=
  max (max (x (ix5 n (⟨2 * i.val, by omega⟩ : Fin 112) j (0 : Fin 2) ch))
           (x (ix5 n (⟨2 * i.val, by omega⟩ : Fin 112) j (1 : Fin 2) ch)))
      (max (x (ix5 n (⟨2 * i.val + 1, by omega⟩ : Fin 112) j (0 : Fin 2) ch))
           (x (ix5 n (⟨2 * i.val + 1, by omega⟩ : Fin 112) j (1 : Fin 2) ch)))

/-- The pooled array. -/
def poolArr (x : (⟨5, ![16, 112, 56, 2, 128]⟩ : Shape).Idx → EReal) : (⟨4, ![16, 56, 56, 128]⟩ : Shape).Idx → EReal :=
  fun k => poolAt x (k 0) (k 1) (k 2) (k 3)

/-- The index maps over the grid in closed form: point t is (n, r) = (t / 7, t % 7); there the input block is
    block (n, r, 0, 0, 0) of its array and the output block is block (n, r, 0, 0) of its own. -/
theorem idx_facts : ∀ t : Fin cfg13.N,
    win13_1.index t (0 : Fin 4) = t.val / 7 ∧ win13_1.index t (1 : Fin 4) = t.val % 7
    ∧ win13_1.index t (2 : Fin 4) = 0 ∧ win13_1.index t (3 : Fin 4) = 0
    ∧ win13_0.index t (0 : Fin 5) = t.val / 7 ∧ win13_0.index t (1 : Fin 5) = t.val % 7
    ∧ win13_0.index t (2 : Fin 5) = 0 ∧ win13_0.index t (3 : Fin 5) = 0 ∧ win13_0.index t (4 : Fin 5) = 0 :=
  (by decide +kernel : ∀ t : Fin grid13.N, _)

/-- The grid has 112 points. -/
theorem t_lt (t : Fin cfg13.N) : t.val < 112 := lt_of_lt_of_eq t.isLt N_13

/-- An element of the input block at point t = (n, r) sits in the input array at image n, row 16r + (its row). -/
theorem rows_apply (c : Dev nD) (t : Fin cfg13.N) (r : Fin 16) (R : Fin 112) (hR : R.val = 16 * (t.val % 7) + r.val)
    (j : Fin 56) (q : Fin 2) (ch : Fin 128) :
    rows V c t (ix5 (0 : Fin 1) r j q ch)
      = xin V c (ix5 (⟨t.val / 7, by have := t_lt t; omega⟩ : Fin 16) R j q ch) := by
  obtain ⟨o0, o1, o2, o3, i0, i1, i2, i3, i4⟩ := idx_facts t
  show xin V c (((cfg13.win 0).blk t).view.emb (ix5 (0 : Fin 1) r j q ch)) = _
  congr 1
  funext a
  apply Fin.ext
  match a with
  | ⟨0, _⟩ => show win13_0.index t (0 : Fin 5) * 1 + 1 * 0 = t.val / 7; omega
  | ⟨1, _⟩ => show win13_0.index t (1 : Fin 5) * 16 + 1 * r.val = R.val; omega
  | ⟨2, _⟩ => show win13_0.index t (2 : Fin 5) * 56 + 1 * j.val = j.val; omega
  | ⟨3, _⟩ => show win13_0.index t (3 : Fin 5) * 2 + 1 * q.val = q.val; omega
  | ⟨4, _⟩ => show win13_0.index t (4 : Fin 5) * 128 + 1 * ch.val = ch.val; omega

/-- An element of the output block at point t = (n, r) sits in the output array at image n, row 8r + (its row). -/
theorem emb_out (t : Fin cfg13.N) (i : Fin 8) (j : Fin 56) (ch : Fin 128) :
    ((cfg13.win 1).blk t).view.emb (ix4 (0 : Fin 1) i j ch)
      = ix4 (⟨t.val / 7, by have := t_lt t; omega⟩ : Fin 16) (⟨8 * (t.val % 7) + i.val, by omega⟩ : Fin 56) j ch := by
  obtain ⟨o0, o1, o2, o3, i0, i1, i2, i3, i4⟩ := idx_facts t
  funext a
  apply Fin.ext
  match a with
  | ⟨0, _⟩ => show win13_1.index t (0 : Fin 4) * 1 + 1 * 0 = t.val / 7; omega
  | ⟨1, _⟩ => show win13_1.index t (1 : Fin 4) * 8 + 1 * i.val = 8 * (t.val % 7) + i.val; omega
  | ⟨2, _⟩ => show win13_1.index t (2 : Fin 4) * 56 + 1 * j.val = j.val; omega
  | ⟨3, _⟩ => show win13_1.index t (3 : Fin 4) * 128 + 1 * ch.val = ch.val; omega

/-- What point t writes back is its block of the pooled array. -/
theorem flushed_eq (c : Dev nD) (t : Fin cfg13.N) :
    (dat (F := Ideal) V c).flushed 1 t = ((cfg13.win 1).blk t).view.read (Elt Ideal) (poolArr (xin V c)) := by
  show (cfg13.win 1).cut (grid13.coords t) ((dat V c).after 1 t) = _
  rw [after_out]
  funext y
  obtain ⟨y0, i, j, ch, rfl⟩ : ∃ (y0 : Fin 1) (i : Fin 8) (j : Fin 56) (ch : Fin 128), y = ix4 y0 i j ch :=
    ⟨y 0, y 1, y 2, y 3, eq_ix4 y⟩
  obtain rfl : y0 = 0 := Subsingleton.elim _ _
  show k13_pay1 (rows V c t) (ix4 (0 : Fin 1) i j ch)
    = poolArr (xin V c) (((cfg13.win 1).blk t).view.emb (ix4 (0 : Fin 1) i j ch))
  rw [pay_apply, emb_out,
    rows_apply V c t _ (⟨2 * (8 * (t.val % 7) + i.val), by omega⟩ : Fin 112) (by show 2 * (8 * (t.val % 7) + i.val) = 16 * (t.val % 7) + 2 * i.val; omega),
    rows_apply V c t _ (⟨2 * (8 * (t.val % 7) + i.val), by omega⟩ : Fin 112) (by show 2 * (8 * (t.val % 7) + i.val) = 16 * (t.val % 7) + 2 * i.val; omega),
    rows_apply V c t _ (⟨2 * (8 * (t.val % 7) + i.val) + 1, by omega⟩ : Fin 112) (by show 2 * (8 * (t.val % 7) + i.val) + 1 = 16 * (t.val % 7) + (2 * i.val + 1); omega),
    rows_apply V c t _ (⟨2 * (8 * (t.val % 7) + i.val) + 1, by omega⟩ : Fin 112) (by show 2 * (8 * (t.val % 7) + i.val) + 1 = 16 * (t.val % 7) + (2 * i.val + 1); omega)]
  rfl

/-- An index of the output array is in point t's block iff on each axis it lies in the block's range. -/
theorem mem_blk (t : Fin cfg13.N) (k : (⟨4, ![16, 56, 56, 128]⟩ : Shape).Idx) :
    k ∈ ((cfg13.win 1).blk t).view.set ↔ ∀ a : Fin 4, win13_1.index t a * S1x8x56x128.size a ≤ (k a).val
      ∧ (k a).val < win13_1.index t a * S1x8x56x128.size a + S1x8x56x128.size a := by
  show k ∈ ((View.whole main_v49).slice (win13_1.rect t)).set ↔ _
  rw [View.set_slice_whole, Rect.mem_set_unit]
  exact Iff.rfl

/-- The output blocks tile the output array: index (n, h, j, ch) is in the block of point (n, h / 8). -/
theorem cover (k : (⟨4, ![16, 56, 56, 128]⟩ : Shape).Idx) :
    ∃ t : Fin cfg13.N, (cfg13.win 1).flush t = true ∧ k ∈ ((cfg13.win 1).blk t).view.set := by
  have h0 : (k 0).val < 16 := (k 0).isLt
  have h1 : (k 1).val < 56 := (k 1).isLt
  have h2 : (k 2).val < 56 := (k 2).isLt
  have h3 : (k 3).val < 128 := (k 3).isLt
  have hN : cfg13.N = 112 := N_13
  obtain ⟨t, tv⟩ : ∃ t : Fin cfg13.N, t.val = (k 0).val * 7 + (k 1).val / 8 := ⟨⟨_, by omega⟩, rfl⟩
  obtain ⟨o0, o1, o2, o3, -⟩ := idx_facts t
  refine ⟨t, flush13_1 t, ?_⟩
  rw [mem_blk]
  intro a
  match a with
  | ⟨0, _⟩ => show win13_1.index t (0 : Fin 4) * 1 ≤ (k 0).val ∧ (k 0).val < win13_1.index t (0 : Fin 4) * 1 + 1; omega
  | ⟨1, _⟩ => show win13_1.index t (1 : Fin 4) * 8 ≤ (k 1).val ∧ (k 1).val < win13_1.index t (1 : Fin 4) * 8 + 8; omega
  | ⟨2, _⟩ => show win13_1.index t (2 : Fin 4) * 56 ≤ (k 2).val ∧ (k 2).val < win13_1.index t (2 : Fin 4) * 56 + 56; omega
  | ⟨3, _⟩ => show win13_1.index t (3 : Fin 4) * 128 ≤ (k 3).val ∧ (k 3).val < win13_1.index t (3 : Fin 4) * 128 + 128; omega

/-- So after the last point the output array is the pooled input array. -/
theorem final (c : Dev nD) : (dat (F := Ideal) V c).arrAt 1 cfg13.N = poolArr (xin V c) :=
  (dat V c).arrAt_eq_of_cover 1 (poolArr (xin V c)) (fun t _ => flushed_eq V c t) cover

/-- After the last point the output array [16, 56, 56, 128] is the 2×2 max pooling of the input array
    [16, 112, 56, 2, 128]: at (n, i, j, ch) the maximum over the two rows 2i, 2i+1 of the maximum over the
    column pair j. The nesting is the body's: the inner maximum is over the column pair (the first
    reduction), the outer over the row pair (the second). -/
theorem out_apply (c : Dev nD) (n : Fin 16) (i : Fin 56) (j : Fin 56) (ch : Fin 128) :
    (dat (F := Ideal) V c).arrAt 1 cfg13.N (ix4 n i j ch)
      = max (max (xin V c (ix5 n (⟨2 * i.val, by omega⟩ : Fin 112) j (0 : Fin 2) ch))
                 (xin V c (ix5 n (⟨2 * i.val, by omega⟩ : Fin 112) j (1 : Fin 2) ch)))
            (max (xin V c (ix5 n (⟨2 * i.val + 1, by omega⟩ : Fin 112) j (0 : Fin 2) ch))
                 (xin V c (ix5 n (⟨2 * i.val + 1, by omega⟩ : Fin 112) j (1 : Fin 2) ch))) := by
  rw [final]
  rfl

end Cert.ReferenceIdeal.Reg13
-- ==== Proof.RI.Val13.lean ====
import proofs.«143011_g2000502688546152_pallasbulk_1201_3_alg».proof.Proof.RI.Seg13
import proofs.«143011_g2000502688546152_pallasbulk_1201_3_alg».proof.Proof.RI.Reg13Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg13

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the array the region finds is an image stack `z` with its columns split into pairs, the
    array it leaves is `z` pooled 2×2. -/
theorem value (z : Cert.Spec.Act 16 112 112 128)
    (hs : ∀ (n : Fin 16) (i : Fin 112) (j : Fin 56) (t : Fin 2) (ch : Fin 128),
      (W c (Proc.devRef .tc (Pipeline.arrRef spec13 0)) : FVec 𝕀 S16x112x56x2x128 .f32) (ix5 n i j t ch) = z n i ⟨2 * j.val + t.val, by omega⟩ ch) :
    Cert.Spec.curry4 (Wout W c (Proc.devRef .tc (Pipeline.arrRef spec13 1)) : FVec 𝕀 S16x56x56x128 .f32)
      = (Cert.Spec.pool2x2 z : Cert.Spec.Act 16 56 56 128) := by
  funext n i j ch
  rw [Cert.Spec.curry4_apply, Wout_out]
  refine (out_apply (VW W) c n i j ch).trans ?_
  show @Eq EReal _ _
  unfold Cert.Spec.pool2x2
  exact congrArg₂ max (congrArg₂ max (hs n _ j 0 ch) (hs n _ j 1 ch)) (congrArg₂ max (hs n _ j 0 ch) (hs n _ j 1 ch))

end Cert.ReferenceIdeal.Reg13

end
-- ==== Proof.RI.Reg14Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (14·64 each, then 64 zero rows), and for each tap (dy, dx)
multiplies the rows shifted by 64·dy + dx with the tap's [128, 256] matrix. Read at row th·64 + w and column co, the nine
products add up to the 3×3 correlation at pixel (th, w), output channel co. -/

set_option maxRecDepth 16384

noncomputable section

namespace Cert.ReferenceIdeal.Reg14

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [896, 128] by [128, 256] product into the zero accumulator, at (r, co): the sum over the 128 input channels. -/
theorem mm_apply (L : FVec Ideal S896x128 .f32) (R : FVec Ideal S128x256 .f32) (r : Fin 896) (co : Fin 256) :
    matmul dot_S896x128_S128x256_S896x256_1_0_0_1_n_n none L R (constant S896x256 .f32 0x00000000#32) (ix2 r co)
      = ∑ ci : Fin 128, L (ix2 r ci) * R (ix2 ci co) := by
  refine (Ideal.matmul_constant_zero_apply _ _ _ _ _).trans ?_
  refine (Equiv.sum_comp (contrEquiv1 dot_S896x128_S128x256_S896x256_1_0_0_1_n_n 128 rfl rfl).symm _).symm.trans ?_
  refine Finset.sum_congr rfl fun ci _ => ?_
  have hl : dot_S896x128_S128x256_S896x256_1_0_0_1_n_n.lhsIdx (ix2 r co)
      ((contrEquiv1 dot_S896x128_S128x256_S896x256_1_0_0_1_n_n 128 rfl rfl).symm ci) = ix2 r ci := by
    funext a; apply Fin.ext
    match a with
    | ⟨0, _⟩ => rfl
    | ⟨1, _⟩ => exact contrEquiv1_symm_val dot_S896x128_S128x256_S896x256_1_0_0_1_n_n 128 rfl rfl ci
  have hr : dot_S896x128_S128x256_S896x256_1_0_0_1_n_n.rhsIdx (ix2 r co)
      ((contrEquiv1 dot_S896x128_S128x256_S896x256_1_0_0_1_n_n 128 rfl rfl).symm ci) = ix2 ci co := by
    funext a; apply Fin.ext
    match a with
    | ⟨0, _⟩ => exact contrEquiv1_symm_val dot_S896x128_S128x256_S896x256_1_0_0_1_n_n 128 rfl rfl ci
    | ⟨1, _⟩ => rfl
  rw [hl, hr]

/-! ## The stacked rows -/

section Slab
variable (xa xb : Vec Ideal S1x14x64x128 .f32)

/-- Pixel (hh, w') of the two tiles stacked one above the other, hh < 28. -/
def tiles (hh : Fin 28) (w' : Fin 64) (ci : Fin 128) : EReal :=
  if h : hh.val < 14 then xa (ix4 (0 : Fin 1) (⟨hh.val, h⟩ : Fin 14) w' ci)
  else xb (ix4 (0 : Fin 1) (⟨hh.val - 14, by omega⟩ : Fin 14) w' ci)

/-- Row hh·64 + w' of the first 896 rows is pixel (hh, w') of the first tile. -/
theorem slab_lo (hh : Fin 14) (w' : Fin 64) (ci : Fin 128) (q : Fin 1856) (hq : q.val = hh.val * 64 + w'.val) :
    k14_pay2 xa xb (ix2 q ci) = xa (ix4 (0 : Fin 1) hh w' ci) := by
  unfold k14_pay2
  have hq' : q.val < 896 := by have := hh.isLt; have := w'.isLt; omega
  refine Eq.trans (concatenate_apply_piece (0 : Fin 2) _ _ (ix2 q ci) 0 ?_ S896x128
    (shapeCast S896x128 (shapeCast S14x64x128 xa shapeCasts_S1x14x64x128_S14x64x128) shapeCasts_S14x64x128_S896x128) ?_ ?_ 0 ?_
    (ix2 (⟨q.val, hq'⟩ : Fin 896) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 128 + ci.val = q.val * 128 + ci.val
      rw [hq]
    · rw [Shape.rowMajor_val_four, Shape.rowMajor_val_three]
      show ((0 * 14 + hh.val) * 64 + w'.val) * 128 + ci.val = (hh.val * 64 + w'.val) * 128 + ci.val
      omega

/-- Row 896 + hh·64 + w' is pixel (hh, w') of the second tile. -/
theorem slab_hi (hh : Fin 14) (w' : Fin 64) (ci : Fin 128) (q : Fin 1856) (hq : q.val = 896 + (hh.val * 64 + w'.val)) :
    k14_pay2 xa xb (ix2 q ci) = xb (ix4 (0 : Fin 1) hh w' ci) := by
  unfold k14_pay2
  have hq' : q.val - 896 < 896 := by have := hh.isLt; have := w'.isLt; omega
  refine Eq.trans (concatenate_apply_piece (0 : Fin 2) _ _ (ix2 q ci) 1 ?_ S896x128
    (shapeCast S896x128 (shapeCast S14x64x128 xb shapeCasts_S1x14x64x128_S14x64x128) shapeCasts_S14x64x128_S896x128) ?_ ?_ 896 ?_
    (ix2 (⟨q.val - 896, hq'⟩ : Fin 896) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 896 + (q.val - 896) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 128 + ci.val = (q.val - 896) * 128 + ci.val
      omega
    · rw [Shape.rowMajor_val_four, Shape.rowMajor_val_three]
      show ((0 * 14 + hh.val) * 64 + w'.val) * 128 + ci.val = (hh.val * 64 + w'.val) * 128 + ci.val
      omega

/-- Row hh·64 + w', hh < 28, of the stacked rows is pixel (hh, w') of the stacked tiles. -/
theorem slab_apply (hh : Fin 28) (w' : Fin 64) (ci : Fin 128) (q : Fin 1856) (hq : q.val = hh.val * 64 + w'.val) :
    k14_pay2 xa xb (ix2 q ci) = tiles xa xb hh w' ci := by
  unfold tiles
  split
  · rename_i h; exact slab_lo xa xb ⟨hh.val, h⟩ w' ci q hq
  · rename_i h; exact slab_hi xa xb ⟨hh.val - 14, by omega⟩ w' ci q (by show q.val = 896 + ((hh.val - 14) * 64 + w'.val); omega)

end Slab

/-! ## A tap's product read at an entry -/

/-- A tap matrix [1, 1, 128, 256] flattened to [128, 256], at (ci, co). -/
theorem tapmat_apply (Wt : Vec Ideal S1x1x128x256 .f32) (ci : Fin 128) (co : Fin 256) :
    (shapeCast S128x256 Wt shapeCasts_S1x1x128x256_S128x256 : FVec Ideal S128x256 .f32) (ix2 ci co) = Wt (ix4 (0 : Fin 1) (0 : Fin 1) ci co) := by
  refine shapeCast_apply _ _ _ _ ?_
  rw [Shape.rowMajor_val_four, Shape.rowMajor_val_two]
  show ((0 * 1 + 0) * 128 + ci.val) * 256 + co.val = ci.val * 256 + co.val
  omega

/-- Rows o, o+1, … of a matrix of n0 rows against a flattened tap matrix, at (r, co): the sum over the 128 input
    channels of row o + r times the tap's column co. -/
theorem tap_apply {n0 : Nat} (o : Nat) (X : FVec Ideal ⟨2, ![n0, 128]⟩ .f32)
    (h : (⟨2, ![n0, 128]⟩ : Shape).Slices ![o, 0] S896x128) (Wt : Vec Ideal S1x1x128x256 .f32)
    (r : Fin 896) (co : Fin 256) (hk : o + 895 < n0) :
    matmul dot_S896x128_S128x256_S896x256_1_0_0_1_n_n none (extractStridedSlice S896x128 ![o, 0] X h : FVec Ideal S896x128 .f32)
        (shapeCast S128x256 Wt shapeCasts_S1x1x128x256_S128x256 : FVec Ideal S128x256 .f32) (constant S896x256 .f32 0x00000000#32) (ix2 r co)
      = ∑ ci : Fin 128, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x14x64x128 .f32)

/-- The rows from the second on. -/
theorem pay3_apply (q : Fin 1855) (ci : Fin 128) :
    k14_pay3 xa xb (ix2 q ci) = k14_pay2 xa xb (ix2 (⟨1 + q.val, by omega⟩ : Fin 1856) ci) := by
  unfold k14_pay3
  exact slice2_axis0_apply 1 _ _ q ci _ rfl

/-- The rows from the third on. -/
theorem pay4_apply (q : Fin 1854) (ci : Fin 128) :
    k14_pay4 xa xb (ix2 q ci) = k14_pay2 xa xb (ix2 (⟨2 + q.val, by omega⟩ : Fin 1856) ci) := by
  unfold k14_pay4
  exact slice2_axis0_apply 2 _ _ q ci _ rfl

end Shift

/-! ## The accumulations -/

/-- The first three taps added onto zero. -/
theorem pay5_apply (xa xb : Vec Ideal S1x14x64x128 .f32) (w00 w01 w02 : Vec Ideal S1x1x128x256 .f32) (r : Fin 896) (co : Fin 256) :
    k14_pay5 xa xb w00 w01 w02 (ix2 r co)
      = 0 + (∑ ci : Fin 128, k14_pay2 xa xb (ix2 (⟨0 + r.val, by omega⟩ : Fin 1856) ci) * w00 (ix4 (0 : Fin 1) (0 : Fin 1) ci co))
          + (∑ ci : Fin 128, k14_pay3 xa xb (ix2 (⟨0 + r.val, by omega⟩ : Fin 1855) ci) * w01 (ix4 (0 : Fin 1) (0 : Fin 1) ci co))
          + (∑ ci : Fin 128, k14_pay4 xa xb (ix2 (⟨0 + r.val, by omega⟩ : Fin 1854) ci) * w02 (ix4 (0 : Fin 1) (0 : Fin 1) ci co)) := by
  unfold k14_pay5
  simp only [addf_apply]
  rw [tap_apply 0 (k14_pay2 xa xb) _ w00 r co (by omega), tap_apply 0 (k14_pay3 xa xb) _ w01 r co (by omega),
    tap_apply 0 (k14_pay4 xa xb) _ w02 r co (by omega)]
  congr 3
  exact Ideal.ofBits_zero_f32

/-- The other six taps and the bias added onto what the first three left. -/
theorem pay8_apply (v7 : FVec Ideal S1856x128 .f32) (v8 : FVec Ideal S1855x128 .f32) (v9 : FVec Ideal S1854x128 .f32)
    (v25 : FVec Ideal S896x256 .f32) (v26 : FVec Ideal S896x128 .f32) (v28 : FVec Ideal S128x256 .f32)
    (w11 w12 w20 w21 w22 : Vec Ideal S1x1x128x256 .f32) (b : Vec Ideal S1x256 .f32) (r : Fin 896) (co : Fin 256) :
    k14_pay8 v7 v8 v9 v25 v26 v28 w11 w12 w20 w21 w22 b (ix2 r co)
      = v25 (ix2 r co) + (∑ ci : Fin 128, v26 (ix2 r ci) * v28 (ix2 ci co))
          + (∑ ci : Fin 128, v8 (ix2 (⟨64 + r.val, by omega⟩ : Fin 1855) ci) * w11 (ix4 (0 : Fin 1) (0 : Fin 1) ci co))
          + (∑ ci : Fin 128, v9 (ix2 (⟨64 + r.val, by omega⟩ : Fin 1854) ci) * w12 (ix4 (0 : Fin 1) (0 : Fin 1) ci co))
          + (∑ ci : Fin 128, v7 (ix2 (⟨128 + r.val, by omega⟩ : Fin 1856) ci) * w20 (ix4 (0 : Fin 1) (0 : Fin 1) ci co))
          + (∑ ci : Fin 128, v8 (ix2 (⟨128 + r.val, by omega⟩ : Fin 1855) ci) * w21 (ix4 (0 : Fin 1) (0 : Fin 1) ci co))
          + (∑ ci : Fin 128, v9 (ix2 (⟨128 + r.val, by omega⟩ : Fin 1854) ci) * w22 (ix4 (0 : Fin 1) (0 : Fin 1) ci co))
          + b (ix2 (0 : Fin 1) co) := by
  unfold k14_pay8
  simp only [addf_apply]
  rw [mm_apply, tap_apply 64 v8 _ w11 r co (by omega), tap_apply 64 v9 _ w12 r co (by omega),
    tap_apply 128 v7 _ w20 r co (by omega), tap_apply 128 v8 _ w21 r co (by omega), tap_apply 128 v9 _ w22 r co (by omega),
    broadcastTo_1b_ab_apply]

/-- The fourth tap's rows and matrix. -/
theorem pay6_apply (xa xb : Vec Ideal S1x14x64x128 .f32) (r : Fin 896) (ci : Fin 128) :
    k14_pay6 xa xb (ix2 r ci) = k14_pay2 xa xb (ix2 (⟨64 + r.val, by omega⟩ : Fin 1856) ci) := by
  unfold k14_pay6
  exact slice2_axis0_apply 64 _ _ r ci _ rfl

theorem pay7_apply (w10 : Vec Ideal S1x1x128x256 .f32) (ci : Fin 128) (co : Fin 256) :
    k14_pay7 w10 (ix2 ci co) = w10 (ix4 (0 : Fin 1) (0 : Fin 1) ci co) := by
  unfold k14_pay7
  exact tapmat_apply w10 ci co

/-- The clamp and the cut to 56 columns: entry (0, th, w, co) of the tile is row th·64 + w, column co. -/
theorem pay1_apply (v58 v59 : FVec Ideal S896x256 .f32) (th : Fin 14) (w : Fin 56) (co : Fin 256) :
    k14_pay1 v58 v59 (ix4 (0 : Fin 1) th w co)
      = max (v58 (ix2 (⟨th.val * 64 + w.val, by omega⟩ : Fin 896) co)) (v59 (ix2 (⟨th.val * 64 + w.val, by omega⟩ : Fin 896) co)) := by
  unfold k14_pay1
  refine (shapeCast_abc_1abc_apply _ _ (0 : Fin 1) th w co).trans ?_
  refine (slice3_axis1_apply 0 _ _ th w co (⟨w.val, by omega⟩ : Fin 64) (by simp)).trans ?_
  refine (shapeCast_apply _ _ _ (ix2 (⟨th.val * 64 + w.val, by omega⟩ : Fin 896) co) ?_).trans (maximumf_apply _ _ _)
  rw [Shape.rowMajor_val_two, Shape.rowMajor_val_three]
  rfl

theorem pay9_apply (j : S896x256.Idx) : k14_pay9 (F := Ideal) j = 0 := by
  unfold k14_pay9
  exact Ideal.ofBits_zero_f32

/-! ## The body's value at an entry -/

section Entry
variable (xa xb : Vec Ideal S1x14x64x128 .f32)

/-- Row (th+dy)·64 + (w+dx) of the stacked rows is pixel (th+dy, w+dx) of the stacked tiles. -/
theorem slab_tap (th : Fin 14) (w : Fin 56) (dy dx : Fin 3) (ci : Fin 128) (q : Fin 1856)
    (hq : q.val = (th.val + dy.val) * 64 + (w.val + dx.val)) :
    k14_pay2 xa xb (ix2 q ci)
      = tiles xa xb (⟨th.val + dy.val, by omega⟩ : Fin 28) (⟨w.val + dx.val, by omega⟩ : Fin 64) ci :=
  slab_apply xa xb _ _ ci q hq

/-- The nine tap matrices as one family. -/
def taps (w00 w01 w02 w10 w11 w12 w20 w21 w22 : Vec Ideal S1x1x128x256 .f32) (dy dx : Fin 3) : Vec Ideal S1x1x128x256 .f32 :=
  ![![w00, w01, w02], ![w10, w11, w12], ![w20, w21, w22]] dy dx

/-- One output entry of the body: the 3×3 correlation of the stacked tiles with the nine tap matrices over the 128
    input channels, plus the bias, clamped below at zero. -/
theorem conv_entry (w00 w01 w02 w10 w11 w12 w20 w21 w22 : Vec Ideal S1x1x128x256 .f32) (b : Vec Ideal S1x256 .f32)
    (th : Fin 14) (w : Fin 56) (co : Fin 256) :
    k14_pay1 (k14_pay8 (k14_pay2 xa xb) (k14_pay3 xa xb) (k14_pay4 xa xb) (k14_pay5 xa xb w00 w01 w02) (k14_pay6 xa xb)
        (k14_pay7 w10) w11 w12 w20 w21 w22 b) k14_pay9 (ix4 (0 : Fin 1) th w co)
      = max ((∑ dy : Fin 3, ∑ dx : Fin 3, ∑ ci : Fin 128,
              tiles xa xb (⟨th.val + dy.val, by omega⟩ : Fin 28) (⟨w.val + dx.val, by omega⟩ : Fin 64) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 128,
      tiles xa xb (⟨th.val + dy.val, by omega⟩ : Fin 28) (⟨w.val + dx.val, by omega⟩ : Fin 64) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg14
-- ==== Proof.RI.Reg14Value.lean ====
import proofs.«143011_g2000502688546152_pallasbulk_1201_3_alg».proof.Proof.RI.Reg14
import proofs.«143011_g2000502688546152_pallasbulk_1201_3_alg».proof.Proof.RI.Reg14Pure

/-! # Region 14 at the extended reals: the output array is the 3×3 correlation, plus bias, clamped at zero

Point t = 4·n + r of the grid writes back the output's row tile r of image n. Its two input tiles are row tiles r and
r + 1 of the padded input, so row h + dy of the padded input, h = 14·r + th, is row th + dy of the two tiles stacked. -/

set_option maxRecDepth 16384

noncomputable section

namespace Cert.ReferenceIdeal.Reg14

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 70, 64, 128], the kernel [3, 3, 128, 256] and the bias [1, 256] as the region finds them. -/
abbrev xp (c : Dev nD) : S16x70x64x128.Idx → EReal := V c (Pipeline.arrRef spec14 0)
abbrev wk (c : Dev nD) : S3x3x128x256.Idx → EReal := V c (Pipeline.arrRef spec14 2)
abbrev bias (c : Dev nD) : S1x256.Idx → EReal := V c (Pipeline.arrRef spec14 3)

/-! ## The grid's points and the windows' block indices -/

theorem N_eq : cfg14.N = 64 := N_14

/-- The image and the row tile of point `t`. -/
def pn (t : Fin cfg14.N) : Fin 16 := ⟨t.val / 4, by have := t.isLt; have := N_eq; omega⟩
def pr (t : Fin cfg14.N) : Fin 4 := ⟨t.val % 4, Nat.mod_lt _ (by decide)⟩

/-- The five windows' block indices at every point: (n, r), (n, r + 1), the origin twice, (n, r). -/
theorem idx_facts : ∀ t : Fin cfg14.N,
    (win14_0.index t 0 = t.val / 4 ∧ win14_0.index t 1 = t.val % 4 ∧ win14_0.index t 2 = 0 ∧ win14_0.index t 3 = 0)
    ∧ (win14_1.index t 0 = t.val / 4 ∧ win14_1.index t 1 = t.val % 4 + 1 ∧ win14_1.index t 2 = 0 ∧ win14_1.index t 3 = 0)
    ∧ (win14_2.index t 0 = 0 ∧ win14_2.index t 1 = 0 ∧ win14_2.index t 2 = 0 ∧ win14_2.index t 3 = 0)
    ∧ (win14_3.index t 0 = 0 ∧ win14_3.index t 1 = 0)
    ∧ (win14_4.index t 0 = t.val / 4 ∧ win14_4.index t 1 = t.val % 4 ∧ win14_4.index t 2 = 0 ∧ win14_4.index t 3 = 0) :=
  (by decide +kernel : ∀ t : Fin grid14.N, _)

/-! ## The windows' blocks read at an index -/

/-- The first input tile at point (n, r): rows 14·r … of image n of the padded input. -/
theorem iblk0_apply (c : Dev nD) (t : Fin cfg14.N) (hh : Fin 14) (w' : Fin 64) (ci : Fin 128) :
    iblk V c 0 t (ix4 (0 : Fin 1) hh w' ci)
      = xp V c (ix4 (pn t) (⟨(pr t).val * 14 + hh.val, by have := (pr t).isLt; omega⟩ : Fin 70) w' ci) := by
  obtain ⟨⟨h0, h1, h2, h3⟩, -⟩ := idx_facts t
  unfold iblk
  rw [View.read_apply]
  show V c (Pipeline.arrRef spec14 0) _ = V c (Pipeline.arrRef spec14 0) _
  congr 1
  funext a
  apply Fin.ext
  match a with
  | ⟨0, _⟩ => show win14_0.index t 0 * 1 + 1 * 0 = t.val / 4; rw [h0]; omega
  | ⟨1, _⟩ => show win14_0.index t 1 * 14 + 1 * hh.val = t.val % 4 * 14 + hh.val; rw [h1]; omega
  | ⟨2, _⟩ => show win14_0.index t 2 * 64 + 1 * w'.val = w'.val; rw [h2]; omega
  | ⟨3, _⟩ => show win14_0.index t 3 * 128 + 1 * ci.val = ci.val; rw [h3]; omega

/-- The second input tile at point (n, r): rows 14·(r + 1) … of image n of the padded input. -/
theorem iblk1_apply (c : Dev nD) (t : Fin cfg14.N) (hh : Fin 14) (w' : Fin 64) (ci : Fin 128) :
    iblk V c 1 t (ix4 (0 : Fin 1) hh w' ci)
      = xp V c (ix4 (pn t) (⟨((pr t).val + 1) * 14 + hh.val, by have := (pr t).isLt; omega⟩ : Fin 70) w' ci) := by
  obtain ⟨-, ⟨h0, h1, h2, h3⟩, -⟩ := idx_facts t
  unfold iblk
  rw [View.read_apply]
  show V c (Pipeline.arrRef spec14 1) _ = V c (Pipeline.arrRef spec14 0) _
  congr 1
  funext a
  apply Fin.ext
  match a with
  | ⟨0, _⟩ => show win14_1.index t 0 * 1 + 1 * 0 = t.val / 4; rw [h0]; omega
  | ⟨1, _⟩ => show win14_1.index t 1 * 14 + 1 * hh.val = (t.val % 4 + 1) * 14 + hh.val; rw [h1]; omega
  | ⟨2, _⟩ => show win14_1.index t 2 * 64 + 1 * w'.val = w'.val; rw [h2]; omega
  | ⟨3, _⟩ => show win14_1.index t 3 * 128 + 1 * ci.val = ci.val; rw [h3]; omega

/-- The kernel window is the whole kernel array at every point. -/
theorem iblk2_apply (c : Dev nD) (t : Fin cfg14.N) (dy dx : Fin 3) (ci : Fin 128) (co : Fin 256) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec14 2) _ = V c (Pipeline.arrRef spec14 2) _
  congr 1
  funext a
  apply Fin.ext
  match a with
  | ⟨0, _⟩ => show win14_2.index t 0 * 3 + 1 * dy.val = dy.val; rw [h0]; omega
  | ⟨1, _⟩ => show win14_2.index t 1 * 3 + 1 * dx.val = dx.val; rw [h1]; omega
  | ⟨2, _⟩ => show win14_2.index t 2 * 128 + 1 * ci.val = ci.val; rw [h2]; omega
  | ⟨3, _⟩ => show win14_2.index t 3 * 256 + 1 * co.val = co.val; rw [h3]; omega

/-- The bias window is the whole bias row at every point. -/
theorem iblk3_apply (c : Dev nD) (t : Fin cfg14.N) (co : Fin 256) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec14 3) _ = V c (Pipeline.arrRef spec14 3) _
  congr 1
  funext a
  apply Fin.ext
  match a with
  | ⟨0, _⟩ => show win14_3.index t 0 * 1 + 1 * 0 = 0; rw [h0]
  | ⟨1, _⟩ => show win14_3.index t 1 * 256 + 1 * co.val = co.val; rw [h1]; omega

/-! ## The whole-array function and what a point writes back -/

/-- The correlation at (n, h, w, co): the sums nest dy, dx, ci. -/
def conv (c : Dev nD) (n : Fin 16) (h : Fin 56) (w : Fin 56) (co : Fin 256) : EReal :=
  max ((∑ dy : Fin 3, ∑ dx : Fin 3, ∑ ci : Fin 128,
          xp V c (ix4 n (⟨h.val + dy.val, by omega⟩ : Fin 70) (⟨w.val + dx.val, by omega⟩ : Fin 64) ci)
            * wk V c (ix4 dy dx ci co))
        + bias V c (ix2 (0 : Fin 1) co)) 0

/-- The output array the region is shown to leave. -/
def G (c : Dev nD) : Buf (Elt Ideal) ((c : Thread nD τ).loc main_v51) :=
  fun i : S16x56x56x256.Idx => conv V c (i 0) (i 1) (i 2) (i 3)

theorem G_apply (c : Dev nD) (i : S16x56x56x256.Idx) : G V c i = conv V c (i 0) (i 1) (i 2) (i 3) := rfl

theorem conv_congr (c : Dev nD) {n n' : Fin 16} {h h' : Fin 56} {w w' : Fin 56} {co co' : Fin 256}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 14·r … of image n of the padded input. -/
theorem tiles_eq (c : Dev nD) (t : Fin cfg14.N) (hh : Fin 28) (w' : Fin 64) (ci : Fin 128) :
    tiles (iblk V c 0 t) (iblk V c 1 t) hh w' ci
      = xp V c (ix4 (pn t) (⟨(pr t).val * 14 + hh.val, by have := (pr t).isLt; omega⟩ : Fin 70) w' ci) := by
  unfold tiles
  split
  · rename_i h
    exact iblk0_apply V c t ⟨hh.val, h⟩ w' ci
  · rename_i h
    rw [iblk1_apply V c t ⟨hh.val - 14, by omega⟩ w' ci]
    congr 2
    apply Fin.ext
    show ((pr t).val + 1) * 14 + (hh.val - 14) = (pr t).val * 14 + hh.val
    omega

/-- The nine loaded tap matrices are the kernel array's taps. -/
theorem taps_eq (c : Dev nD) (t : Fin cfg14.N) (dy dx : Fin 3) (ci : Fin 128) (co : Fin 256) :
    taps (View.ld (iblk V c 2 t) (tapRect 0 0 inb_S3x3x128x256_S1x1x128x256_0_0_0_0))
        (View.ld (iblk V c 2 t) (tapRect 0 1 inb_S3x3x128x256_S1x1x128x256_0_1_0_0))
        (View.ld (iblk V c 2 t) (tapRect 0 2 inb_S3x3x128x256_S1x1x128x256_0_2_0_0))
        (View.ld (iblk V c 2 t) (tapRect 1 0 inb_S3x3x128x256_S1x1x128x256_1_0_0_0))
        (View.ld (iblk V c 2 t) (tapRect 1 1 inb_S3x3x128x256_S1x1x128x256_1_1_0_0))
        (View.ld (iblk V c 2 t) (tapRect 1 2 inb_S3x3x128x256_S1x1x128x256_1_2_0_0))
        (View.ld (iblk V c 2 t) (tapRect 2 0 inb_S3x3x128x256_S1x1x128x256_2_0_0_0))
        (View.ld (iblk V c 2 t) (tapRect 2 1 inb_S3x3x128x256_S1x1x128x256_2_1_0_0))
        (View.ld (iblk V c 2 t) (tapRect 2 2 inb_S3x3x128x256_S1x1x128x256_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x14x64x128 .f32) (wk' : Vec Ideal S3x3x128x256 .f32) (b : Vec Ideal S1x256 .f32)
    (th : Fin 14) (w : Fin 56) (co : Fin 256) :
    out xa xb wk' b (ix4 (0 : Fin 1) th w co)
      = max ((∑ dy : Fin 3, ∑ dx : Fin 3, ∑ ci : Fin 128,
              tiles xa xb (⟨th.val + dy.val, by omega⟩ : Fin 28) (⟨w.val + dx.val, by omega⟩ : Fin 64) ci
                * taps (View.ld wk' (tapRect 0 0 inb_S3x3x128x256_S1x1x128x256_0_0_0_0))
                    (View.ld wk' (tapRect 0 1 inb_S3x3x128x256_S1x1x128x256_0_1_0_0))
                    (View.ld wk' (tapRect 0 2 inb_S3x3x128x256_S1x1x128x256_0_2_0_0))
                    (View.ld wk' (tapRect 1 0 inb_S3x3x128x256_S1x1x128x256_1_0_0_0))
                    (View.ld wk' (tapRect 1 1 inb_S3x3x128x256_S1x1x128x256_1_1_0_0))
                    (View.ld wk' (tapRect 1 2 inb_S3x3x128x256_S1x1x128x256_1_2_0_0))
                    (View.ld wk' (tapRect 2 0 inb_S3x3x128x256_S1x1x128x256_2_0_0_0))
                    (View.ld wk' (tapRect 2 1 inb_S3x3x128x256_S1x1x128x256_2_1_0_0))
                    (View.ld wk' (tapRect 2 2 inb_S3x3x128x256_S1x1x128x256_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg14.N) :
    (dat V c).flushed 4 t = ((cfg14.win 4).blk t).view.read (Elt Ideal) (G V c) := by
  show (cfg14.win 4).cut (grid14.coords t) ((dat V c).after 4 t) = _
  rw [after_4]
  funext x
  obtain ⟨u, th, w, co, rfl⟩ : ∃ (u : Fin 1) (th : Fin 14) (w : Fin 56) (co : Fin 256), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg14.win 4).blk t).view.emb (ix4 (0 : Fin 1) th w co))
      = conv V c (pn t) (⟨(pr t).val * 14 + th.val, by have := (pr t).isLt; omega⟩ : Fin 56) w co :=
    (G_apply V c _).trans (conv_congr V c
      (Fin.ext (by show win14_4.index t 0 * 1 + 1 * 0 = t.val / 4; rw [h0]; omega))
      (Fin.ext (by show win14_4.index t 1 * 14 + 1 * th.val = t.val % 4 * 14 + th.val; rw [h1]; omega))
      (Fin.ext (by show win14_4.index t 2 * 56 + 1 * w.val = w.val; rw [h2]; omega))
      (Fin.ext (by show win14_4.index t 3 * 256 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 14 + (th.val + dy.val) = (pr t).val * 14 + th.val + dy.val
  omega

/-! ## The output's row tiles cover it -/

/-- An index of the output array is in point `t`'s block when its image and row tile are `t`'s. -/
theorem mem_blk (t : Fin cfg14.N) (i : S16x56x56x256.Idx) :
    i ∈ ((cfg14.win 4).blk t).view.set ↔ (i 0 : Nat) = t.val / 4 ∧ t.val % 4 * 14 ≤ (i 1 : Nat) ∧ (i 1 : Nat) < t.val % 4 * 14 + 14 := by
  show i ∈ ((View.whole main_v51).slice (win14_4.rect t)).set ↔ _
  rw [View.set_slice_whole, Rect.mem_set_unit]
  obtain ⟨-, -, -, -, ⟨h0, h1, h2, h3⟩⟩ := idx_facts t
  have b2 : (i 2 : Nat) < 56 := (i 2).isLt
  have b3 : (i 3 : Nat) < 256 := (i 3).isLt
  have e0 : win14_4.index t 0 * win14_4.size 0 = t.val / 4 := by rw [h0]; show t.val / 4 * 1 = _; omega
  have e1 : win14_4.index t 1 * win14_4.size 1 = t.val % 4 * 14 := by rw [h1]; rfl
  have e2 : win14_4.index t 2 * win14_4.size 2 = 0 := by rw [h2]; rfl
  have e3 : win14_4.index t 3 * win14_4.size 3 = 0 := by rw [h3]; rfl
  have x0 : win14_4.xsize (grid14.coords t) 0 = 1 := rfl
  have x1 : win14_4.xsize (grid14.coords t) 1 = 14 := rfl
  have x2 : win14_4.xsize (grid14.coords t) 2 = 56 := rfl
  have x3 : win14_4.xsize (grid14.coords t) 3 = 256 := rfl
  refine ⟨fun h => ?_, fun h a => ?_⟩
  · have a0 := h 0; have a1 := h 1
    rw [e0, x0] at a0; rw [e1, x1] at a1
    exact ⟨by omega, a1⟩
  · match a with
    | ⟨0, _⟩ => show win14_4.index t 0 * win14_4.size 0 ≤ (i 0 : Nat) ∧ (i 0 : Nat) < win14_4.index t 0 * win14_4.size 0 + win14_4.xsize (grid14.coords t) 0
                rw [e0, x0]; omega
    | ⟨1, _⟩ => show win14_4.index t 1 * win14_4.size 1 ≤ (i 1 : Nat) ∧ (i 1 : Nat) < win14_4.index t 1 * win14_4.size 1 + win14_4.xsize (grid14.coords t) 1
                rw [e1, x1]; exact h.2
    | ⟨2, _⟩ => show win14_4.index t 2 * win14_4.size 2 ≤ (i 2 : Nat) ∧ (i 2 : Nat) < win14_4.index t 2 * win14_4.size 2 + win14_4.xsize (grid14.coords t) 2
                rw [e2, x2]; omega
    | ⟨3, _⟩ => show win14_4.index t 3 * win14_4.size 3 ≤ (i 3 : Nat) ∧ (i 3 : Nat) < win14_4.index t 3 * win14_4.size 3 + win14_4.xsize (grid14.coords t) 3
                rw [e3, x3]; omega

/-- Every index of the output array is in the block of the point of its image and row tile. -/
theorem cover (i : S16x56x56x256.Idx) :
    ∃ t : Fin cfg14.N, (cfg14.win 4).flush t = true ∧ i ∈ ((cfg14.win 4).blk t).view.set := by
  have b0 : (i 0 : Nat) < 16 := (i 0).isLt
  have b1 : (i 1 : Nat) < 56 := (i 1).isLt
  refine ⟨⟨(i 0 : Nat) * 4 + (i 1 : Nat) / 14, by rw [N_eq]; omega⟩, flush14_4 _, ?_⟩
  rw [mem_blk]
  dsimp only
  omega

/-- The output array after the last grid point is `G`. -/
theorem final_out (c : Dev nD) : (dat V c).arrAt 4 cfg14.N = G V c :=
  (dat V c).arrAt_eq_of_cover 4 (G V c) (fun t _ => flushed_eq V c t) cover

/-- The output array after the last grid point: at (n, h, w, co) the 3×3 correlation of the padded input with the
    kernel over the 128 input channels, plus the bias, clamped below at zero. The sums nest dy, dx, ci. -/
theorem out_value (c : Dev nD) (n : Fin 16) (h : Fin 56) (w : Fin 56) (co : Fin 256) :
    (dat V c).arrAt 4 cfg14.N (ix4 n h w co)
      = max ((∑ dy : Fin 3, ∑ dx : Fin 3, ∑ ci : Fin 128,
                xp V c (ix4 n (⟨h.val + dy.val, by omega⟩ : Fin 70) (⟨w.val + dx.val, by omega⟩ : Fin 64) ci)
                  * wk V c (ix4 dy dx ci co))
              + bias V c (ix2 (0 : Fin 1) co)) 0 := by
  rw [final_out]
  rfl

end Cert.ReferenceIdeal.Reg14
-- ==== Proof.RI.Val14.lean ====
import proofs.«143011_g2000502688546152_pallasbulk_1201_3_alg».proof.Proof.RI.Seg14
import proofs.«143011_g2000502688546152_pallasbulk_1201_3_alg».proof.Proof.RI.Reg14Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg14

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 56 56 128)
    (hx : ∀ (n : Fin 16) (i : Fin 70) (j : Fin 64) (ci : Fin 128),
      (W c (Proc.devRef .tc (Pipeline.arrRef spec14 0)) : FVec 𝕀 S16x70x64x128 .f32) (ix4 n i j ci) = Cert.Spec.padAt z n i.val j.val ci) :
    Cert.Spec.curry4 (Wout W c (Proc.devRef .tc (Pipeline.arrRef spec14 4)) : FVec 𝕀 S16x56x56x256 .f32)
      = Cert.Spec.convRelu z (Cert.Spec.curryW (W c (Proc.devRef .tc (Pipeline.arrRef spec14 2)) : FVec 𝕀 S3x3x128x256 .f32))
          (Cert.Spec.curryB (W c (Proc.devRef .tc (Pipeline.arrRef spec14 3)) : FVec 𝕀 S1x256 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg14

end
-- ==== Proof.RI.Reg15Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (14·64 each, then 64 zero rows), and for each tap (dy, dx)
multiplies the rows shifted by 64·dy + dx with the tap's [128, 256] matrix. Read at row th·64 + w and column co, the nine
products add up to the 3×3 correlation at pixel (th, w), output channel co. -/

set_option maxRecDepth 16384

noncomputable section

namespace Cert.ReferenceIdeal.Reg15

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [896, 128] by [128, 256] product into the zero accumulator, at (r, co): the sum over the 128 input channels. -/
theorem mm_apply (L : FVec Ideal S896x128 .f32) (R : FVec Ideal S128x256 .f32) (r : Fin 896) (co : Fin 256) :
    matmul dot_S896x128_S128x256_S896x256_1_0_0_1_n_n none L R (constant S896x256 .f32 0x00000000#32) (ix2 r co)
      = ∑ ci : Fin 128, L (ix2 r ci) * R (ix2 ci co) := by
  refine (Ideal.matmul_constant_zero_apply _ _ _ _ _).trans ?_
  refine (Equiv.sum_comp (contrEquiv1 dot_S896x128_S128x256_S896x256_1_0_0_1_n_n 128 rfl rfl).symm _).symm.trans ?_
  refine Finset.sum_congr rfl fun ci _ => ?_
  have hl : dot_S896x128_S128x256_S896x256_1_0_0_1_n_n.lhsIdx (ix2 r co)
      ((contrEquiv1 dot_S896x128_S128x256_S896x256_1_0_0_1_n_n 128 rfl rfl).symm ci) = ix2 r ci := by
    funext a; apply Fin.ext
    match a with
    | ⟨0, _⟩ => rfl
    | ⟨1, _⟩ => exact contrEquiv1_symm_val dot_S896x128_S128x256_S896x256_1_0_0_1_n_n 128 rfl rfl ci
  have hr : dot_S896x128_S128x256_S896x256_1_0_0_1_n_n.rhsIdx (ix2 r co)
      ((contrEquiv1 dot_S896x128_S128x256_S896x256_1_0_0_1_n_n 128 rfl rfl).symm ci) = ix2 ci co := by
    funext a; apply Fin.ext
    match a with
    | ⟨0, _⟩ => exact contrEquiv1_symm_val dot_S896x128_S128x256_S896x256_1_0_0_1_n_n 128 rfl rfl ci
    | ⟨1, _⟩ => rfl
  rw [hl, hr]

/-! ## The stacked rows -/

section Slab
variable (xa xb : Vec Ideal S1x14x64x128 .f32)

/-- Pixel (hh, w') of the two tiles stacked one above the other, hh < 28. -/
def tiles (hh : Fin 28) (w' : Fin 64) (ci : Fin 128) : EReal :=
  if h : hh.val < 14 then xa (ix4 (0 : Fin 1) (⟨hh.val, h⟩ : Fin 14) w' ci)
  else xb (ix4 (0 : Fin 1) (⟨hh.val - 14, by omega⟩ : Fin 14) w' ci)

/-- Row hh·64 + w' of the first 896 rows is pixel (hh, w') of the first tile. -/
theorem slab_lo (hh : Fin 14) (w' : Fin 64) (ci : Fin 128) (q : Fin 1856) (hq : q.val = hh.val * 64 + w'.val) :
    k15_pay2 xa xb (ix2 q ci) = xa (ix4 (0 : Fin 1) hh w' ci) := by
  unfold k15_pay2
  have hq' : q.val < 896 := by have := hh.isLt; have := w'.isLt; omega
  refine Eq.trans (concatenate_apply_piece (0 : Fin 2) _ _ (ix2 q ci) 0 ?_ S896x128
    (shapeCast S896x128 (shapeCast S14x64x128 xa shapeCasts_S1x14x64x128_S14x64x128) shapeCasts_S14x64x128_S896x128) ?_ ?_ 0 ?_
    (ix2 (⟨q.val, hq'⟩ : Fin 896) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 128 + ci.val = q.val * 128 + ci.val
      rw [hq]
    · rw [Shape.rowMajor_val_four, Shape.rowMajor_val_three]
      show ((0 * 14 + hh.val) * 64 + w'.val) * 128 + ci.val = (hh.val * 64 + w'.val) * 128 + ci.val
      omega

/-- Row 896 + hh·64 + w' is pixel (hh, w') of the second tile. -/
theorem slab_hi (hh : Fin 14) (w' : Fin 64) (ci : Fin 128) (q : Fin 1856) (hq : q.val = 896 + (hh.val * 64 + w'.val)) :
    k15_pay2 xa xb (ix2 q ci) = xb (ix4 (0 : Fin 1) hh w' ci) := by
  unfold k15_pay2
  have hq' : q.val - 896 < 896 := by have := hh.isLt; have := w'.isLt; omega
  refine Eq.trans (concatenate_apply_piece (0 : Fin 2) _ _ (ix2 q ci) 1 ?_ S896x128
    (shapeCast S896x128 (shapeCast S14x64x128 xb shapeCasts_S1x14x64x128_S14x64x128) shapeCasts_S14x64x128_S896x128) ?_ ?_ 896 ?_
    (ix2 (⟨q.val - 896, hq'⟩ : Fin 896) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 896 + (q.val - 896) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 128 + ci.val = (q.val - 896) * 128 + ci.val
      omega
    · rw [Shape.rowMajor_val_four, Shape.rowMajor_val_three]
      show ((0 * 14 + hh.val) * 64 + w'.val) * 128 + ci.val = (hh.val * 64 + w'.val) * 128 + ci.val
      omega

/-- Row hh·64 + w', hh < 28, of the stacked rows is pixel (hh, w') of the stacked tiles. -/
theorem slab_apply (hh : Fin 28) (w' : Fin 64) (ci : Fin 128) (q : Fin 1856) (hq : q.val = hh.val * 64 + w'.val) :
    k15_pay2 xa xb (ix2 q ci) = tiles xa xb hh w' ci := by
  unfold tiles
  split
  · rename_i h; exact slab_lo xa xb ⟨hh.val, h⟩ w' ci q hq
  · rename_i h; exact slab_hi xa xb ⟨hh.val - 14, by omega⟩ w' ci q (by show q.val = 896 + ((hh.val - 14) * 64 + w'.val); omega)

end Slab

/-! ## A tap's product read at an entry -/

/-- A tap matrix [1, 1, 128, 256] flattened to [128, 256], at (ci, co). -/
theorem tapmat_apply (Wt : Vec Ideal S1x1x128x256 .f32) (ci : Fin 128) (co : Fin 256) :
    (shapeCast S128x256 Wt shapeCasts_S1x1x128x256_S128x256 : FVec Ideal S128x256 .f32) (ix2 ci co) = Wt (ix4 (0 : Fin 1) (0 : Fin 1) ci co) := by
  refine shapeCast_apply _ _ _ _ ?_
  rw [Shape.rowMajor_val_four, Shape.rowMajor_val_two]
  show ((0 * 1 + 0) * 128 + ci.val) * 256 + co.val = ci.val * 256 + co.val
  omega

/-- Rows o, o+1, … of a matrix of n0 rows against a flattened tap matrix, at (r, co): the sum over the 128 input
    channels of row o + r times the tap's column co. -/
theorem tap_apply {n0 : Nat} (o : Nat) (X : FVec Ideal ⟨2, ![n0, 128]⟩ .f32)
    (h : (⟨2, ![n0, 128]⟩ : Shape).Slices ![o, 0] S896x128) (Wt : Vec Ideal S1x1x128x256 .f32)
    (r : Fin 896) (co : Fin 256) (hk : o + 895 < n0) :
    matmul dot_S896x128_S128x256_S896x256_1_0_0_1_n_n none (extractStridedSlice S896x128 ![o, 0] X h : FVec Ideal S896x128 .f32)
        (shapeCast S128x256 Wt shapeCasts_S1x1x128x256_S128x256 : FVec Ideal S128x256 .f32) (constant S896x256 .f32 0x00000000#32) (ix2 r co)
      = ∑ ci : Fin 128, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x14x64x128 .f32)

/-- The rows from the second on. -/
theorem pay3_apply (q : Fin 1855) (ci : Fin 128) :
    k15_pay3 xa xb (ix2 q ci) = k15_pay2 xa xb (ix2 (⟨1 + q.val, by omega⟩ : Fin 1856) ci) := by
  unfold k15_pay3
  exact slice2_axis0_apply 1 _ _ q ci _ rfl

/-- The rows from the third on. -/
theorem pay4_apply (q : Fin 1854) (ci : Fin 128) :
    k15_pay4 xa xb (ix2 q ci) = k15_pay2 xa xb (ix2 (⟨2 + q.val, by omega⟩ : Fin 1856) ci) := by
  unfold k15_pay4
  exact slice2_axis0_apply 2 _ _ q ci _ rfl

end Shift

/-! ## The accumulations -/

/-- The first three taps added onto zero. -/
theorem pay5_apply (xa xb : Vec Ideal S1x14x64x128 .f32) (w00 w01 w02 : Vec Ideal S1x1x128x256 .f32) (r : Fin 896) (co : Fin 256) :
    k15_pay5 xa xb w00 w01 w02 (ix2 r co)
      = 0 + (∑ ci : Fin 128, k15_pay2 xa xb (ix2 (⟨0 + r.val, by omega⟩ : Fin 1856) ci) * w00 (ix4 (0 : Fin 1) (0 : Fin 1) ci co))
          + (∑ ci : Fin 128, k15_pay3 xa xb (ix2 (⟨0 + r.val, by omega⟩ : Fin 1855) ci) * w01 (ix4 (0 : Fin 1) (0 : Fin 1) ci co))
          + (∑ ci : Fin 128, k15_pay4 xa xb (ix2 (⟨0 + r.val, by omega⟩ : Fin 1854) ci) * w02 (ix4 (0 : Fin 1) (0 : Fin 1) ci co)) := by
  unfold k15_pay5
  simp only [addf_apply]
  rw [tap_apply 0 (k15_pay2 xa xb) _ w00 r co (by omega), tap_apply 0 (k15_pay3 xa xb) _ w01 r co (by omega),
    tap_apply 0 (k15_pay4 xa xb) _ w02 r co (by omega)]
  congr 3
  exact Ideal.ofBits_zero_f32

/-- The other six taps and the bias added onto what the first three left. -/
theorem pay8_apply (v7 : FVec Ideal S1856x128 .f32) (v8 : FVec Ideal S1855x128 .f32) (v9 : FVec Ideal S1854x128 .f32)
    (v25 : FVec Ideal S896x256 .f32) (v26 : FVec Ideal S896x128 .f32) (v28 : FVec Ideal S128x256 .f32)
    (w11 w12 w20 w21 w22 : Vec Ideal S1x1x128x256 .f32) (b : Vec Ideal S1x256 .f32) (r : Fin 896) (co : Fin 256) :
    k15_pay8 v7 v8 v9 v25 v26 v28 w11 w12 w20 w21 w22 b (ix2 r co)
      = v25 (ix2 r co) + (∑ ci : Fin 128, v26 (ix2 r ci) * v28 (ix2 ci co))
          + (∑ ci : Fin 128, v8 (ix2 (⟨64 + r.val, by omega⟩ : Fin 1855) ci) * w11 (ix4 (0 : Fin 1) (0 : Fin 1) ci co))
          + (∑ ci : Fin 128, v9 (ix2 (⟨64 + r.val, by omega⟩ : Fin 1854) ci) * w12 (ix4 (0 : Fin 1) (0 : Fin 1) ci co))
          + (∑ ci : Fin 128, v7 (ix2 (⟨128 + r.val, by omega⟩ : Fin 1856) ci) * w20 (ix4 (0 : Fin 1) (0 : Fin 1) ci co))
          + (∑ ci : Fin 128, v8 (ix2 (⟨128 + r.val, by omega⟩ : Fin 1855) ci) * w21 (ix4 (0 : Fin 1) (0 : Fin 1) ci co))
          + (∑ ci : Fin 128, v9 (ix2 (⟨128 + r.val, by omega⟩ : Fin 1854) ci) * w22 (ix4 (0 : Fin 1) (0 : Fin 1) ci co))
          + b (ix2 (0 : Fin 1) co) := by
  unfold k15_pay8
  simp only [addf_apply]
  rw [mm_apply, tap_apply 64 v8 _ w11 r co (by omega), tap_apply 64 v9 _ w12 r co (by omega),
    tap_apply 128 v7 _ w20 r co (by omega), tap_apply 128 v8 _ w21 r co (by omega), tap_apply 128 v9 _ w22 r co (by omega),
    broadcastTo_1b_ab_apply]

/-- The fourth tap's rows and matrix. -/
theorem pay6_apply (xa xb : Vec Ideal S1x14x64x128 .f32) (r : Fin 896) (ci : Fin 128) :
    k15_pay6 xa xb (ix2 r ci) = k15_pay2 xa xb (ix2 (⟨64 + r.val, by omega⟩ : Fin 1856) ci) := by
  unfold k15_pay6
  exact slice2_axis0_apply 64 _ _ r ci _ rfl

theorem pay7_apply (w10 : Vec Ideal S1x1x128x256 .f32) (ci : Fin 128) (co : Fin 256) :
    k15_pay7 w10 (ix2 ci co) = w10 (ix4 (0 : Fin 1) (0 : Fin 1) ci co) := by
  unfold k15_pay7
  exact tapmat_apply w10 ci co

/-- The clamp and the cut to 56 columns: entry (0, th, w, co) of the tile is row th·64 + w, column co. -/
theorem pay1_apply (v58 v59 : FVec Ideal S896x256 .f32) (th : Fin 14) (w : Fin 56) (co : Fin 256) :
    k15_pay1 v58 v59 (ix4 (0 : Fin 1) th w co)
      = max (v58 (ix2 (⟨th.val * 64 + w.val, by omega⟩ : Fin 896) co)) (v59 (ix2 (⟨th.val * 64 + w.val, by omega⟩ : Fin 896) co)) := by
  unfold k15_pay1
  refine (shapeCast_abc_1abc_apply _ _ (0 : Fin 1) th w co).trans ?_
  refine (slice3_axis1_apply 0 _ _ th w co (⟨w.val, by omega⟩ : Fin 64) (by simp)).trans ?_
  refine (shapeCast_apply _ _ _ (ix2 (⟨th.val * 64 + w.val, by omega⟩ : Fin 896) co) ?_).trans (maximumf_apply _ _ _)
  rw [Shape.rowMajor_val_two, Shape.rowMajor_val_three]
  rfl

theorem pay9_apply (j : S896x256.Idx) : k15_pay9 (F := Ideal) j = 0 := by
  unfold k15_pay9
  exact Ideal.ofBits_zero_f32

/-! ## The body's value at an entry -/

section Entry
variable (xa xb : Vec Ideal S1x14x64x128 .f32)

/-- Row (th+dy)·64 + (w+dx) of the stacked rows is pixel (th+dy, w+dx) of the stacked tiles. -/
theorem slab_tap (th : Fin 14) (w : Fin 56) (dy dx : Fin 3) (ci : Fin 128) (q : Fin 1856)
    (hq : q.val = (th.val + dy.val) * 64 + (w.val + dx.val)) :
    k15_pay2 xa xb (ix2 q ci)
      = tiles xa xb (⟨th.val + dy.val, by omega⟩ : Fin 28) (⟨w.val + dx.val, by omega⟩ : Fin 64) ci :=
  slab_apply xa xb _ _ ci q hq

/-- The nine tap matrices as one family. -/
def taps (w00 w01 w02 w10 w11 w12 w20 w21 w22 : Vec Ideal S1x1x128x256 .f32) (dy dx : Fin 3) : Vec Ideal S1x1x128x256 .f32 :=
  ![![w00, w01, w02], ![w10, w11, w12], ![w20, w21, w22]] dy dx

/-- One output entry of the body: the 3×3 correlation of the stacked tiles with the nine tap matrices over the 128
    input channels, plus the bias, clamped below at zero. -/
theorem conv_entry (w00 w01 w02 w10 w11 w12 w20 w21 w22 : Vec Ideal S1x1x128x256 .f32) (b : Vec Ideal S1x256 .f32)
    (th : Fin 14) (w : Fin 56) (co : Fin 256) :
    k15_pay1 (k15_pay8 (k15_pay2 xa xb) (k15_pay3 xa xb) (k15_pay4 xa xb) (k15_pay5 xa xb w00 w01 w02) (k15_pay6 xa xb)
        (k15_pay7 w10) w11 w12 w20 w21 w22 b) k15_pay9 (ix4 (0 : Fin 1) th w co)
      = max ((∑ dy : Fin 3, ∑ dx : Fin 3, ∑ ci : Fin 128,
              tiles xa xb (⟨th.val + dy.val, by omega⟩ : Fin 28) (⟨w.val + dx.val, by omega⟩ : Fin 64) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 128,
      tiles xa xb (⟨th.val + dy.val, by omega⟩ : Fin 28) (⟨w.val + dx.val, by omega⟩ : Fin 64) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg15
-- ==== Proof.RI.Reg15Value.lean ====
import proofs.«143011_g2000502688546152_pallasbulk_1201_3_alg».proof.Proof.RI.Reg15
import proofs.«143011_g2000502688546152_pallasbulk_1201_3_alg».proof.Proof.RI.Reg15Pure

/-! # Region 15 at the extended reals: the output array is the 3×3 correlation, plus bias, clamped at zero

Point t = 4·n + r of the grid writes back the output's row tile r of image n. Its two input tiles are row tiles r and
r + 1 of the padded input, so row h + dy of the padded input, h = 14·r + th, is row th + dy of the two tiles stacked. -/

set_option maxRecDepth 16384

noncomputable section

namespace Cert.ReferenceIdeal.Reg15

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 70, 64, 128], the kernel [3, 3, 128, 256] and the bias [1, 256] as the region finds them. -/
abbrev xp (c : Dev nD) : S16x70x64x128.Idx → EReal := V c (Pipeline.arrRef spec15 0)
abbrev wk (c : Dev nD) : S3x3x128x256.Idx → EReal := V c (Pipeline.arrRef spec15 2)
abbrev bias (c : Dev nD) : S1x256.Idx → EReal := V c (Pipeline.arrRef spec15 3)

/-! ## The grid's points and the windows' block indices -/

theorem N_eq : cfg15.N = 64 := N_15

/-- The image and the row tile of point `t`. -/
def pn (t : Fin cfg15.N) : Fin 16 := ⟨t.val / 4, by have := t.isLt; have := N_eq; omega⟩
def pr (t : Fin cfg15.N) : Fin 4 := ⟨t.val % 4, Nat.mod_lt _ (by decide)⟩

/-- The five windows' block indices at every point: (n, r), (n, r + 1), the origin twice, (n, r). -/
theorem idx_facts : ∀ t : Fin cfg15.N,
    (win15_0.index t 0 = t.val / 4 ∧ win15_0.index t 1 = t.val % 4 ∧ win15_0.index t 2 = 0 ∧ win15_0.index t 3 = 0)
    ∧ (win15_1.index t 0 = t.val / 4 ∧ win15_1.index t 1 = t.val % 4 + 1 ∧ win15_1.index t 2 = 0 ∧ win15_1.index t 3 = 0)
    ∧ (win15_2.index t 0 = 0 ∧ win15_2.index t 1 = 0 ∧ win15_2.index t 2 = 0 ∧ win15_2.index t 3 = 0)
    ∧ (win15_3.index t 0 = 0 ∧ win15_3.index t 1 = 0)
    ∧ (win15_4.index t 0 = t.val / 4 ∧ win15_4.index t 1 = t.val % 4 ∧ win15_4.index t 2 = 0 ∧ win15_4.index t 3 = 0) :=
  (by decide +kernel : ∀ t : Fin grid15.N, _)

/-! ## The windows' blocks read at an index -/

/-- The first input tile at point (n, r): rows 14·r … of image n of the padded input. -/
theorem iblk0_apply (c : Dev nD) (t : Fin cfg15.N) (hh : Fin 14) (w' : Fin 64) (ci : Fin 128) :
    iblk V c 0 t (ix4 (0 : Fin 1) hh w' ci)
      = xp V c (ix4 (pn t) (⟨(pr t).val * 14 + hh.val, by have := (pr t).isLt; omega⟩ : Fin 70) w' ci) := by
  obtain ⟨⟨h0, h1, h2, h3⟩, -⟩ := idx_facts t
  unfold iblk
  rw [View.read_apply]
  show V c (Pipeline.arrRef spec15 0) _ = V c (Pipeline.arrRef spec15 0) _
  congr 1
  funext a
  apply Fin.ext
  match a with
  | ⟨0, _⟩ => show win15_0.index t 0 * 1 + 1 * 0 = t.val / 4; rw [h0]; omega
  | ⟨1, _⟩ => show win15_0.index t 1 * 14 + 1 * hh.val = t.val % 4 * 14 + hh.val; rw [h1]; omega
  | ⟨2, _⟩ => show win15_0.index t 2 * 64 + 1 * w'.val = w'.val; rw [h2]; omega
  | ⟨3, _⟩ => show win15_0.index t 3 * 128 + 1 * ci.val = ci.val; rw [h3]; omega

/-- The second input tile at point (n, r): rows 14·(r + 1) … of image n of the padded input. -/
theorem iblk1_apply (c : Dev nD) (t : Fin cfg15.N) (hh : Fin 14) (w' : Fin 64) (ci : Fin 128) :
    iblk V c 1 t (ix4 (0 : Fin 1) hh w' ci)
      = xp V c (ix4 (pn t) (⟨((pr t).val + 1) * 14 + hh.val, by have := (pr t).isLt; omega⟩ : Fin 70) w' ci) := by
  obtain ⟨-, ⟨h0, h1, h2, h3⟩, -⟩ := idx_facts t
  unfold iblk
  rw [View.read_apply]
  show V c (Pipeline.arrRef spec15 1) _ = V c (Pipeline.arrRef spec15 0) _
  congr 1
  funext a
  apply Fin.ext
  match a with
  | ⟨0, _⟩ => show win15_1.index t 0 * 1 + 1 * 0 = t.val / 4; rw [h0]; omega
  | ⟨1, _⟩ => show win15_1.index t 1 * 14 + 1 * hh.val = (t.val % 4 + 1) * 14 + hh.val; rw [h1]; omega
  | ⟨2, _⟩ => show win15_1.index t 2 * 64 + 1 * w'.val = w'.val; rw [h2]; omega
  | ⟨3, _⟩ => show win15_1.index t 3 * 128 + 1 * ci.val = ci.val; rw [h3]; omega

/-- The kernel window is the whole kernel array at every point. -/
theorem iblk2_apply (c : Dev nD) (t : Fin cfg15.N) (dy dx : Fin 3) (ci : Fin 128) (co : Fin 256) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec15 2) _ = V c (Pipeline.arrRef spec15 2) _
  congr 1
  funext a
  apply Fin.ext
  match a with
  | ⟨0, _⟩ => show win15_2.index t 0 * 3 + 1 * dy.val = dy.val; rw [h0]; omega
  | ⟨1, _⟩ => show win15_2.index t 1 * 3 + 1 * dx.val = dx.val; rw [h1]; omega
  | ⟨2, _⟩ => show win15_2.index t 2 * 128 + 1 * ci.val = ci.val; rw [h2]; omega
  | ⟨3, _⟩ => show win15_2.index t 3 * 256 + 1 * co.val = co.val; rw [h3]; omega

/-- The bias window is the whole bias row at every point. -/
theorem iblk3_apply (c : Dev nD) (t : Fin cfg15.N) (co : Fin 256) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec15 3) _ = V c (Pipeline.arrRef spec15 3) _
  congr 1
  funext a
  apply Fin.ext
  match a with
  | ⟨0, _⟩ => show win15_3.index t 0 * 1 + 1 * 0 = 0; rw [h0]
  | ⟨1, _⟩ => show win15_3.index t 1 * 256 + 1 * co.val = co.val; rw [h1]; omega

/-! ## The whole-array function and what a point writes back -/

/-- The correlation at (n, h, w, co): the sums nest dy, dx, ci. -/
def conv (c : Dev nD) (n : Fin 16) (h : Fin 56) (w : Fin 56) (co : Fin 256) : EReal :=
  max ((∑ dy : Fin 3, ∑ dx : Fin 3, ∑ ci : Fin 128,
          xp V c (ix4 n (⟨h.val + dy.val, by omega⟩ : Fin 70) (⟨w.val + dx.val, by omega⟩ : Fin 64) ci)
            * wk V c (ix4 dy dx ci co))
        + bias V c (ix2 (0 : Fin 1) co)) 0

/-- The output array the region is shown to leave. -/
def G (c : Dev nD) : Buf (Elt Ideal) ((c : Thread nD τ).loc main_v53) :=
  fun i : S16x56x56x256.Idx => conv V c (i 0) (i 1) (i 2) (i 3)

theorem G_apply (c : Dev nD) (i : S16x56x56x256.Idx) : G V c i = conv V c (i 0) (i 1) (i 2) (i 3) := rfl

theorem conv_congr (c : Dev nD) {n n' : Fin 16} {h h' : Fin 56} {w w' : Fin 56} {co co' : Fin 256}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 14·r … of image n of the padded input. -/
theorem tiles_eq (c : Dev nD) (t : Fin cfg15.N) (hh : Fin 28) (w' : Fin 64) (ci : Fin 128) :
    tiles (iblk V c 0 t) (iblk V c 1 t) hh w' ci
      = xp V c (ix4 (pn t) (⟨(pr t).val * 14 + hh.val, by have := (pr t).isLt; omega⟩ : Fin 70) w' ci) := by
  unfold tiles
  split
  · rename_i h
    exact iblk0_apply V c t ⟨hh.val, h⟩ w' ci
  · rename_i h
    rw [iblk1_apply V c t ⟨hh.val - 14, by omega⟩ w' ci]
    congr 2
    apply Fin.ext
    show ((pr t).val + 1) * 14 + (hh.val - 14) = (pr t).val * 14 + hh.val
    omega

/-- The nine loaded tap matrices are the kernel array's taps. -/
theorem taps_eq (c : Dev nD) (t : Fin cfg15.N) (dy dx : Fin 3) (ci : Fin 128) (co : Fin 256) :
    taps (View.ld (iblk V c 2 t) (tapRect 0 0 inb_S3x3x128x256_S1x1x128x256_0_0_0_0))
        (View.ld (iblk V c 2 t) (tapRect 0 1 inb_S3x3x128x256_S1x1x128x256_0_1_0_0))
        (View.ld (iblk V c 2 t) (tapRect 0 2 inb_S3x3x128x256_S1x1x128x256_0_2_0_0))
        (View.ld (iblk V c 2 t) (tapRect 1 0 inb_S3x3x128x256_S1x1x128x256_1_0_0_0))
        (View.ld (iblk V c 2 t) (tapRect 1 1 inb_S3x3x128x256_S1x1x128x256_1_1_0_0))
        (View.ld (iblk V c 2 t) (tapRect 1 2 inb_S3x3x128x256_S1x1x128x256_1_2_0_0))
        (View.ld (iblk V c 2 t) (tapRect 2 0 inb_S3x3x128x256_S1x1x128x256_2_0_0_0))
        (View.ld (iblk V c 2 t) (tapRect 2 1 inb_S3x3x128x256_S1x1x128x256_2_1_0_0))
        (View.ld (iblk V c 2 t) (tapRect 2 2 inb_S3x3x128x256_S1x1x128x256_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x14x64x128 .f32) (wk' : Vec Ideal S3x3x128x256 .f32) (b : Vec Ideal S1x256 .f32)
    (th : Fin 14) (w : Fin 56) (co : Fin 256) :
    out xa xb wk' b (ix4 (0 : Fin 1) th w co)
      = max ((∑ dy : Fin 3, ∑ dx : Fin 3, ∑ ci : Fin 128,
              tiles xa xb (⟨th.val + dy.val, by omega⟩ : Fin 28) (⟨w.val + dx.val, by omega⟩ : Fin 64) ci
                * taps (View.ld wk' (tapRect 0 0 inb_S3x3x128x256_S1x1x128x256_0_0_0_0))
                    (View.ld wk' (tapRect 0 1 inb_S3x3x128x256_S1x1x128x256_0_1_0_0))
                    (View.ld wk' (tapRect 0 2 inb_S3x3x128x256_S1x1x128x256_0_2_0_0))
                    (View.ld wk' (tapRect 1 0 inb_S3x3x128x256_S1x1x128x256_1_0_0_0))
                    (View.ld wk' (tapRect 1 1 inb_S3x3x128x256_S1x1x128x256_1_1_0_0))
                    (View.ld wk' (tapRect 1 2 inb_S3x3x128x256_S1x1x128x256_1_2_0_0))
                    (View.ld wk' (tapRect 2 0 inb_S3x3x128x256_S1x1x128x256_2_0_0_0))
                    (View.ld wk' (tapRect 2 1 inb_S3x3x128x256_S1x1x128x256_2_1_0_0))
                    (View.ld wk' (tapRect 2 2 inb_S3x3x128x256_S1x1x128x256_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg15.N) :
    (dat V c).flushed 4 t = ((cfg15.win 4).blk t).view.read (Elt Ideal) (G V c) := by
  show (cfg15.win 4).cut (grid15.coords t) ((dat V c).after 4 t) = _
  rw [after_4]
  funext x
  obtain ⟨u, th, w, co, rfl⟩ : ∃ (u : Fin 1) (th : Fin 14) (w : Fin 56) (co : Fin 256), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg15.win 4).blk t).view.emb (ix4 (0 : Fin 1) th w co))
      = conv V c (pn t) (⟨(pr t).val * 14 + th.val, by have := (pr t).isLt; omega⟩ : Fin 56) w co :=
    (G_apply V c _).trans (conv_congr V c
      (Fin.ext (by show win15_4.index t 0 * 1 + 1 * 0 = t.val / 4; rw [h0]; omega))
      (Fin.ext (by show win15_4.index t 1 * 14 + 1 * th.val = t.val % 4 * 14 + th.val; rw [h1]; omega))
      (Fin.ext (by show win15_4.index t 2 * 56 + 1 * w.val = w.val; rw [h2]; omega))
      (Fin.ext (by show win15_4.index t 3 * 256 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 14 + (th.val + dy.val) = (pr t).val * 14 + th.val + dy.val
  omega

/-! ## The output's row tiles cover it -/

/-- An index of the output array is in point `t`'s block when its image and row tile are `t`'s. -/
theorem mem_blk (t : Fin cfg15.N) (i : S16x56x56x256.Idx) :
    i ∈ ((cfg15.win 4).blk t).view.set ↔ (i 0 : Nat) = t.val / 4 ∧ t.val % 4 * 14 ≤ (i 1 : Nat) ∧ (i 1 : Nat) < t.val % 4 * 14 + 14 := by
  show i ∈ ((View.whole main_v53).slice (win15_4.rect t)).set ↔ _
  rw [View.set_slice_whole, Rect.mem_set_unit]
  obtain ⟨-, -, -, -, ⟨h0, h1, h2, h3⟩⟩ := idx_facts t
  have b2 : (i 2 : Nat) < 56 := (i 2).isLt
  have b3 : (i 3 : Nat) < 256 := (i 3).isLt
  have e0 : win15_4.index t 0 * win15_4.size 0 = t.val / 4 := by rw [h0]; show t.val / 4 * 1 = _; omega
  have e1 : win15_4.index t 1 * win15_4.size 1 = t.val % 4 * 14 := by rw [h1]; rfl
  have e2 : win15_4.index t 2 * win15_4.size 2 = 0 := by rw [h2]; rfl
  have e3 : win15_4.index t 3 * win15_4.size 3 = 0 := by rw [h3]; rfl
  have x0 : win15_4.xsize (grid15.coords t) 0 = 1 := rfl
  have x1 : win15_4.xsize (grid15.coords t) 1 = 14 := rfl
  have x2 : win15_4.xsize (grid15.coords t) 2 = 56 := rfl
  have x3 : win15_4.xsize (grid15.coords t) 3 = 256 := rfl
  refine ⟨fun h => ?_, fun h a => ?_⟩
  · have a0 := h 0; have a1 := h 1
    rw [e0, x0] at a0; rw [e1, x1] at a1
    exact ⟨by omega, a1⟩
  · match a with
    | ⟨0, _⟩ => show win15_4.index t 0 * win15_4.size 0 ≤ (i 0 : Nat) ∧ (i 0 : Nat) < win15_4.index t 0 * win15_4.size 0 + win15_4.xsize (grid15.coords t) 0
                rw [e0, x0]; omega
    | ⟨1, _⟩ => show win15_4.index t 1 * win15_4.size 1 ≤ (i 1 : Nat) ∧ (i 1 : Nat) < win15_4.index t 1 * win15_4.size 1 + win15_4.xsize (grid15.coords t) 1
                rw [e1, x1]; exact h.2
    | ⟨2, _⟩ => show win15_4.index t 2 * win15_4.size 2 ≤ (i 2 : Nat) ∧ (i 2 : Nat) < win15_4.index t 2 * win15_4.size 2 + win15_4.xsize (grid15.coords t) 2
                rw [e2, x2]; omega
    | ⟨3, _⟩ => show win15_4.index t 3 * win15_4.size 3 ≤ (i 3 : Nat) ∧ (i 3 : Nat) < win15_4.index t 3 * win15_4.size 3 + win15_4.xsize (grid15.coords t) 3
                rw [e3, x3]; omega

/-- Every index of the output array is in the block of the point of its image and row tile. -/
theorem cover (i : S16x56x56x256.Idx) :
    ∃ t : Fin cfg15.N, (cfg15.win 4).flush t = true ∧ i ∈ ((cfg15.win 4).blk t).view.set := by
  have b0 : (i 0 : Nat) < 16 := (i 0).isLt
  have b1 : (i 1 : Nat) < 56 := (i 1).isLt
  refine ⟨⟨(i 0 : Nat) * 4 + (i 1 : Nat) / 14, by rw [N_eq]; omega⟩, flush15_4 _, ?_⟩
  rw [mem_blk]
  dsimp only
  omega

/-- The output array after the last grid point is `G`. -/
theorem final_out (c : Dev nD) : (dat V c).arrAt 4 cfg15.N = G V c :=
  (dat V c).arrAt_eq_of_cover 4 (G V c) (fun t _ => flushed_eq V c t) cover

/-- The output array after the last grid point: at (n, h, w, co) the 3×3 correlation of the padded input with the
    kernel over the 128 input channels, plus the bias, clamped below at zero. The sums nest dy, dx, ci. -/
theorem out_value (c : Dev nD) (n : Fin 16) (h : Fin 56) (w : Fin 56) (co : Fin 256) :
    (dat V c).arrAt 4 cfg15.N (ix4 n h w co)
      = max ((∑ dy : Fin 3, ∑ dx : Fin 3, ∑ ci : Fin 128,
                xp V c (ix4 n (⟨h.val + dy.val, by omega⟩ : Fin 70) (⟨w.val + dx.val, by omega⟩ : Fin 64) ci)
                  * wk V c (ix4 dy dx ci co))
              + bias V c (ix2 (0 : Fin 1) co)) 0 := by
  rw [final_out]
  rfl

end Cert.ReferenceIdeal.Reg15
-- ==== Proof.RI.Val15.lean ====
import proofs.«143011_g2000502688546152_pallasbulk_1201_3_alg».proof.Proof.RI.Seg15
import proofs.«143011_g2000502688546152_pallasbulk_1201_3_alg».proof.Proof.RI.Reg15Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg15

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 56 56 128)
    (hx : ∀ (n : Fin 16) (i : Fin 70) (j : Fin 64) (ci : Fin 128),
      (W c (Proc.devRef .tc (Pipeline.arrRef spec15 0)) : FVec 𝕀 S16x70x64x128 .f32) (ix4 n i j ci) = Cert.Spec.padAt z n i.val j.val ci) :
    Cert.Spec.curry4 (Wout W c (Proc.devRef .tc (Pipeline.arrRef spec15 4)) : FVec 𝕀 S16x56x56x256 .f32)
      = Cert.Spec.convRelu z (Cert.Spec.curryW (W c (Proc.devRef .tc (Pipeline.arrRef spec15 2)) : FVec 𝕀 S3x3x128x256 .f32))
          (Cert.Spec.curryB (W c (Proc.devRef .tc (Pipeline.arrRef spec15 3)) : FVec 𝕀 S1x256 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg15

end
-- ==== Proof.RI.Reg16Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (14·64 each, then 64 zero rows), and for each tap (dy, dx)
multiplies the rows shifted by 64·dy + dx with the tap's [256, 256] matrix. Read at row th·64 + w and column co, the nine
products add up to the 3×3 correlation at pixel (th, w), output channel co. -/

set_option maxRecDepth 16384

noncomputable section

namespace Cert.ReferenceIdeal.Reg16

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [896, 256] by [256, 256] product into the zero accumulator, at (r, co): the sum over the 256 input channels. -/
theorem mm_apply (L : FVec Ideal S896x256 .f32) (R : FVec Ideal S256x256 .f32) (r : Fin 896) (co : Fin 256) :
    matmul dot_S896x256_S256x256_S896x256_1_0_0_1_n_n none L R (constant S896x256 .f32 0x00000000#32) (ix2 r co)
      = ∑ ci : Fin 256, L (ix2 r ci) * R (ix2 ci co) := by
  refine (Ideal.matmul_constant_zero_apply _ _ _ _ _).trans ?_
  refine (Equiv.sum_comp (contrEquiv1 dot_S896x256_S256x256_S896x256_1_0_0_1_n_n 256 rfl rfl).symm _).symm.trans ?_
  refine Finset.sum_congr rfl fun ci _ => ?_
  have hl : dot_S896x256_S256x256_S896x256_1_0_0_1_n_n.lhsIdx (ix2 r co)
      ((contrEquiv1 dot_S896x256_S256x256_S896x256_1_0_0_1_n_n 256 rfl rfl).symm ci) = ix2 r ci := by
    funext a; apply Fin.ext
    match a with
    | ⟨0, _⟩ => rfl
    | ⟨1, _⟩ => exact contrEquiv1_symm_val dot_S896x256_S256x256_S896x256_1_0_0_1_n_n 256 rfl rfl ci
  have hr : dot_S896x256_S256x256_S896x256_1_0_0_1_n_n.rhsIdx (ix2 r co)
      ((contrEquiv1 dot_S896x256_S256x256_S896x256_1_0_0_1_n_n 256 rfl rfl).symm ci) = ix2 ci co := by
    funext a; apply Fin.ext
    match a with
    | ⟨0, _⟩ => exact contrEquiv1_symm_val dot_S896x256_S256x256_S896x256_1_0_0_1_n_n 256 rfl rfl ci
    | ⟨1, _⟩ => rfl
  rw [hl, hr]

/-! ## The stacked rows -/

section Slab
variable (xa xb : Vec Ideal S1x14x64x256 .f32)

/-- Pixel (hh, w') of the two tiles stacked one above the other, hh < 28. -/
def tiles (hh : Fin 28) (w' : Fin 64) (ci : Fin 256) : EReal :=
  if h : hh.val < 14 then xa (ix4 (0 : Fin 1) (⟨hh.val, h⟩ : Fin 14) w' ci)
  else xb (ix4 (0 : Fin 1) (⟨hh.val - 14, by omega⟩ : Fin 14) w' ci)

/-- Row hh·64 + w' of the first 896 rows is pixel (hh, w') of the first tile. -/
theorem slab_lo (hh : Fin 14) (w' : Fin 64) (ci : Fin 256) (q : Fin 1856) (hq : q.val = hh.val * 64 + w'.val) :
    k16_pay2 xa xb (ix2 q ci) = xa (ix4 (0 : Fin 1) hh w' ci) := by
  unfold k16_pay2
  have hq' : q.val < 896 := by have := hh.isLt; have := w'.isLt; omega
  refine Eq.trans (concatenate_apply_piece (0 : Fin 2) _ _ (ix2 q ci) 0 ?_ S896x256
    (shapeCast S896x256 (shapeCast S14x64x256 xa shapeCasts_S1x14x64x256_S14x64x256) shapeCasts_S14x64x256_S896x256) ?_ ?_ 0 ?_
    (ix2 (⟨q.val, hq'⟩ : Fin 896) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = q.val * 256 + ci.val
      rw [hq]
    · rw [Shape.rowMajor_val_four, Shape.rowMajor_val_three]
      show ((0 * 14 + hh.val) * 64 + w'.val) * 256 + ci.val = (hh.val * 64 + w'.val) * 256 + ci.val
      omega

/-- Row 896 + hh·64 + w' is pixel (hh, w') of the second tile. -/
theorem slab_hi (hh : Fin 14) (w' : Fin 64) (ci : Fin 256) (q : Fin 1856) (hq : q.val = 896 + (hh.val * 64 + w'.val)) :
    k16_pay2 xa xb (ix2 q ci) = xb (ix4 (0 : Fin 1) hh w' ci) := by
  unfold k16_pay2
  have hq' : q.val - 896 < 896 := by have := hh.isLt; have := w'.isLt; omega
  refine Eq.trans (concatenate_apply_piece (0 : Fin 2) _ _ (ix2 q ci) 1 ?_ S896x256
    (shapeCast S896x256 (shapeCast S14x64x256 xb shapeCasts_S1x14x64x256_S14x64x256) shapeCasts_S14x64x256_S896x256) ?_ ?_ 896 ?_
    (ix2 (⟨q.val - 896, hq'⟩ : Fin 896) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 896 + (q.val - 896) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = (q.val - 896) * 256 + ci.val
      omega
    · rw [Shape.rowMajor_val_four, Shape.rowMajor_val_three]
      show ((0 * 14 + hh.val) * 64 + w'.val) * 256 + ci.val = (hh.val * 64 + w'.val) * 256 + ci.val
      omega

/-- Row hh·64 + w', hh < 28, of the stacked rows is pixel (hh, w') of the stacked tiles. -/
theorem slab_apply (hh : Fin 28) (w' : Fin 64) (ci : Fin 256) (q : Fin 1856) (hq : q.val = hh.val * 64 + w'.val) :
    k16_pay2 xa xb (ix2 q ci) = tiles xa xb hh w' ci := by
  unfold tiles
  split
  · rename_i h; exact slab_lo xa xb ⟨hh.val, h⟩ w' ci q hq
  · rename_i h; exact slab_hi xa xb ⟨hh.val - 14, by omega⟩ w' ci q (by show q.val = 896 + ((hh.val - 14) * 64 + w'.val); omega)

end Slab

/-! ## A tap's product read at an entry -/

/-- A tap matrix [1, 1, 256, 256] flattened to [256, 256], at (ci, co). -/
theorem tapmat_apply (Wt : Vec Ideal S1x1x256x256 .f32) (ci : Fin 256) (co : Fin 256) :
    (shapeCast S256x256 Wt shapeCasts_S1x1x256x256_S256x256 : FVec Ideal S256x256 .f32) (ix2 ci co) = Wt (ix4 (0 : Fin 1) (0 : Fin 1) ci co) := by
  refine shapeCast_apply _ _ _ _ ?_
  rw [Shape.rowMajor_val_four, Shape.rowMajor_val_two]
  show ((0 * 1 + 0) * 256 + ci.val) * 256 + co.val = ci.val * 256 + co.val
  omega

/-- Rows o, o+1, … of a matrix of n0 rows against a flattened tap matrix, at (r, co): the sum over the 256 input
    channels of row o + r times the tap's column co. -/
theorem tap_apply {n0 : Nat} (o : Nat) (X : FVec Ideal ⟨2, ![n0, 256]⟩ .f32)
    (h : (⟨2, ![n0, 256]⟩ : Shape).Slices ![o, 0] S896x256) (Wt : Vec Ideal S1x1x256x256 .f32)
    (r : Fin 896) (co : Fin 256) (hk : o + 895 < n0) :
    matmul dot_S896x256_S256x256_S896x256_1_0_0_1_n_n none (extractStridedSlice S896x256 ![o, 0] X h : FVec Ideal S896x256 .f32)
        (shapeCast S256x256 Wt shapeCasts_S1x1x256x256_S256x256 : FVec Ideal S256x256 .f32) (constant S896x256 .f32 0x00000000#32) (ix2 r co)
      = ∑ ci : Fin 256, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x14x64x256 .f32)

/-- The rows from the second on. -/
theorem pay3_apply (q : Fin 1855) (ci : Fin 256) :
    k16_pay3 xa xb (ix2 q ci) = k16_pay2 xa xb (ix2 (⟨1 + q.val, by omega⟩ : Fin 1856) ci) := by
  unfold k16_pay3
  exact slice2_axis0_apply 1 _ _ q ci _ rfl

/-- The rows from the third on. -/
theorem pay4_apply (q : Fin 1854) (ci : Fin 256) :
    k16_pay4 xa xb (ix2 q ci) = k16_pay2 xa xb (ix2 (⟨2 + q.val, by omega⟩ : Fin 1856) ci) := by
  unfold k16_pay4
  exact slice2_axis0_apply 2 _ _ q ci _ rfl

end Shift

/-! ## The accumulations -/

/-- The first three taps added onto zero. -/
theorem pay5_apply (xa xb : Vec Ideal S1x14x64x256 .f32) (w00 w01 w02 : Vec Ideal S1x1x256x256 .f32) (r : Fin 896) (co : Fin 256) :
    k16_pay5 xa xb w00 w01 w02 (ix2 r co)
      = 0 + (∑ ci : Fin 256, k16_pay2 xa xb (ix2 (⟨0 + r.val, by omega⟩ : Fin 1856) ci) * w00 (ix4 (0 : Fin 1) (0 : Fin 1) ci co))
          + (∑ ci : Fin 256, k16_pay3 xa xb (ix2 (⟨0 + r.val, by omega⟩ : Fin 1855) ci) * w01 (ix4 (0 : Fin 1) (0 : Fin 1) ci co))
          + (∑ ci : Fin 256, k16_pay4 xa xb (ix2 (⟨0 + r.val, by omega⟩ : Fin 1854) ci) * w02 (ix4 (0 : Fin 1) (0 : Fin 1) ci co)) := by
  unfold k16_pay5
  simp only [addf_apply]
  rw [tap_apply 0 (k16_pay2 xa xb) _ w00 r co (by omega), tap_apply 0 (k16_pay3 xa xb) _ w01 r co (by omega),
    tap_apply 0 (k16_pay4 xa xb) _ w02 r co (by omega)]
  congr 3
  exact Ideal.ofBits_zero_f32

/-- The other six taps and the bias added onto what the first three left. -/
theorem pay8_apply (v7 : FVec Ideal S1856x256 .f32) (v8 : FVec Ideal S1855x256 .f32) (v9 : FVec Ideal S1854x256 .f32)
    (v25 : FVec Ideal S896x256 .f32) (v26 : FVec Ideal S896x256 .f32) (v28 : FVec Ideal S256x256 .f32)
    (w11 w12 w20 w21 w22 : Vec Ideal S1x1x256x256 .f32) (b : Vec Ideal S1x256 .f32) (r : Fin 896) (co : Fin 256) :
    k16_pay8 v7 v8 v9 v25 v26 v28 w11 w12 w20 w21 w22 b (ix2 r co)
      = v25 (ix2 r co) + (∑ ci : Fin 256, v26 (ix2 r ci) * v28 (ix2 ci co))
          + (∑ ci : Fin 256, v8 (ix2 (⟨64 + r.val, by omega⟩ : Fin 1855) ci) * w11 (ix4 (0 : Fin 1) (0 : Fin 1) ci co))
          + (∑ ci : Fin 256, v9 (ix2 (⟨64 + r.val, by omega⟩ : Fin 1854) ci) * w12 (ix4 (0 : Fin 1) (0 : Fin 1) ci co))
          + (∑ ci : Fin 256, v7 (ix2 (⟨128 + r.val, by omega⟩ : Fin 1856) ci) * w20 (ix4 (0 : Fin 1) (0 : Fin 1) ci co))
          + (∑ ci : Fin 256, v8 (ix2 (⟨128 + r.val, by omega⟩ : Fin 1855) ci) * w21 (ix4 (0 : Fin 1) (0 : Fin 1) ci co))
          + (∑ ci : Fin 256, v9 (ix2 (⟨128 + r.val, by omega⟩ : Fin 1854) ci) * w22 (ix4 (0 : Fin 1) (0 : Fin 1) ci co))
          + b (ix2 (0 : Fin 1) co) := by
  unfold k16_pay8
  simp only [addf_apply]
  rw [mm_apply, tap_apply 64 v8 _ w11 r co (by omega), tap_apply 64 v9 _ w12 r co (by omega),
    tap_apply 128 v7 _ w20 r co (by omega), tap_apply 128 v8 _ w21 r co (by omega), tap_apply 128 v9 _ w22 r co (by omega),
    broadcastTo_1b_ab_apply]

/-- The fourth tap's rows and matrix. -/
theorem pay6_apply (xa xb : Vec Ideal S1x14x64x256 .f32) (r : Fin 896) (ci : Fin 256) :
    k16_pay6 xa xb (ix2 r ci) = k16_pay2 xa xb (ix2 (⟨64 + r.val, by omega⟩ : Fin 1856) ci) := by
  unfold k16_pay6
  exact slice2_axis0_apply 64 _ _ r ci _ rfl

theorem pay7_apply (w10 : Vec Ideal S1x1x256x256 .f32) (ci : Fin 256) (co : Fin 256) :
    k16_pay7 w10 (ix2 ci co) = w10 (ix4 (0 : Fin 1) (0 : Fin 1) ci co) := by
  unfold k16_pay7
  exact tapmat_apply w10 ci co

/-- The clamp and the cut to 56 columns: entry (0, th, w, co) of the tile is row th·64 + w, column co. -/
theorem pay1_apply (v58 v59 : FVec Ideal S896x256 .f32) (th : Fin 14) (w : Fin 56) (co : Fin 256) :
    k16_pay1 v58 v59 (ix4 (0 : Fin 1) th w co)
      = max (v58 (ix2 (⟨th.val * 64 + w.val, by omega⟩ : Fin 896) co)) (v59 (ix2 (⟨th.val * 64 + w.val, by omega⟩ : Fin 896) co)) := by
  unfold k16_pay1
  refine (shapeCast_abc_1abc_apply _ _ (0 : Fin 1) th w co).trans ?_
  refine (slice3_axis1_apply 0 _ _ th w co (⟨w.val, by omega⟩ : Fin 64) (by simp)).trans ?_
  refine (shapeCast_apply _ _ _ (ix2 (⟨th.val * 64 + w.val, by omega⟩ : Fin 896) co) ?_).trans (maximumf_apply _ _ _)
  rw [Shape.rowMajor_val_two, Shape.rowMajor_val_three]
  rfl

theorem pay9_apply (j : S896x256.Idx) : k16_pay9 (F := Ideal) j = 0 := by
  unfold k16_pay9
  exact Ideal.ofBits_zero_f32

/-! ## The body's value at an entry -/

section Entry
variable (xa xb : Vec Ideal S1x14x64x256 .f32)

/-- Row (th+dy)·64 + (w+dx) of the stacked rows is pixel (th+dy, w+dx) of the stacked tiles. -/
theorem slab_tap (th : Fin 14) (w : Fin 56) (dy dx : Fin 3) (ci : Fin 256) (q : Fin 1856)
    (hq : q.val = (th.val + dy.val) * 64 + (w.val + dx.val)) :
    k16_pay2 xa xb (ix2 q ci)
      = tiles xa xb (⟨th.val + dy.val, by omega⟩ : Fin 28) (⟨w.val + dx.val, by omega⟩ : Fin 64) ci :=
  slab_apply xa xb _ _ ci q hq

/-- The nine tap matrices as one family. -/
def taps (w00 w01 w02 w10 w11 w12 w20 w21 w22 : Vec Ideal S1x1x256x256 .f32) (dy dx : Fin 3) : Vec Ideal S1x1x256x256 .f32 :=
  ![![w00, w01, w02], ![w10, w11, w12], ![w20, w21, w22]] dy dx

/-- One output entry of the body: the 3×3 correlation of the stacked tiles with the nine tap matrices over the 256
    input channels, plus the bias, clamped below at zero. -/
theorem conv_entry (w00 w01 w02 w10 w11 w12 w20 w21 w22 : Vec Ideal S1x1x256x256 .f32) (b : Vec Ideal S1x256 .f32)
    (th : Fin 14) (w : Fin 56) (co : Fin 256) :
    k16_pay1 (k16_pay8 (k16_pay2 xa xb) (k16_pay3 xa xb) (k16_pay4 xa xb) (k16_pay5 xa xb w00 w01 w02) (k16_pay6 xa xb)
        (k16_pay7 w10) w11 w12 w20 w21 w22 b) k16_pay9 (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 256,
      tiles xa xb (⟨th.val + dy.val, by omega⟩ : Fin 28) (⟨w.val + dx.val, by omega⟩ : Fin 64) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg16
-- ==== Proof.RI.Reg16Value.lean ====
import proofs.«143011_g2000502688546152_pallasbulk_1201_3_alg».proof.Proof.RI.Reg16
import proofs.«143011_g2000502688546152_pallasbulk_1201_3_alg».proof.Proof.RI.Reg16Pure

/-! # Region 16 at the extended reals: the output array is the 3×3 correlation, plus bias, clamped at zero

Point t = 4·n + r of the grid writes back the output's row tile r of image n. Its two input tiles are row tiles r and
r + 1 of the padded input, so row h + dy of the padded input, h = 14·r + th, is row th + dy of the two tiles stacked. -/

set_option maxRecDepth 16384

noncomputable section

namespace Cert.ReferenceIdeal.Reg16

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 70, 64, 256], the kernel [3, 3, 256, 256] and the bias [1, 256] as the region finds them. -/
abbrev xp (c : Dev nD) : S16x70x64x256.Idx → EReal := V c (Pipeline.arrRef spec16 0)
abbrev wk (c : Dev nD) : S3x3x256x256.Idx → EReal := V c (Pipeline.arrRef spec16 2)
abbrev bias (c : Dev nD) : S1x256.Idx → EReal := V c (Pipeline.arrRef spec16 3)

/-! ## The grid's points and the windows' block indices -/

theorem N_eq : cfg16.N = 64 := N_16

/-- The image and the row tile of point `t`. -/
def pn (t : Fin cfg16.N) : Fin 16 := ⟨t.val / 4, by have := t.isLt; have := N_eq; omega⟩
def pr (t : Fin cfg16.N) : Fin 4 := ⟨t.val % 4, Nat.mod_lt _ (by decide)⟩

/-- The five windows' block indices at every point: (n, r), (n, r + 1), the origin twice, (n, r). -/
theorem idx_facts : ∀ t : Fin cfg16.N,
    (win16_0.index t 0 = t.val / 4 ∧ win16_0.index t 1 = t.val % 4 ∧ win16_0.index t 2 = 0 ∧ win16_0.index t 3 = 0)
    ∧ (win16_1.index t 0 = t.val / 4 ∧ win16_1.index t 1 = t.val % 4 + 1 ∧ win16_1.index t 2 = 0 ∧ win16_1.index t 3 = 0)
    ∧ (win16_2.index t 0 = 0 ∧ win16_2.index t 1 = 0 ∧ win16_2.index t 2 = 0 ∧ win16_2.index t 3 = 0)
    ∧ (win16_3.index t 0 = 0 ∧ win16_3.index t 1 = 0)
    ∧ (win16_4.index t 0 = t.val / 4 ∧ win16_4.index t 1 = t.val % 4 ∧ win16_4.index t 2 = 0 ∧ win16_4.index t 3 = 0) :=
  (by decide +kernel : ∀ t : Fin grid16.N, _)

/-! ## The windows' blocks read at an index -/

/-- The first input tile at point (n, r): rows 14·r … of image n of the padded input. -/
theorem iblk0_apply (c : Dev nD) (t : Fin cfg16.N) (hh : Fin 14) (w' : Fin 64) (ci : Fin 256) :
    iblk V c 0 t (ix4 (0 : Fin 1) hh w' ci)
      = xp V c (ix4 (pn t) (⟨(pr t).val * 14 + hh.val, by have := (pr t).isLt; omega⟩ : Fin 70) w' ci) := by
  obtain ⟨⟨h0, h1, h2, h3⟩, -⟩ := idx_facts t
  unfold iblk
  rw [View.read_apply]
  show V c (Pipeline.arrRef spec16 0) _ = V c (Pipeline.arrRef spec16 0) _
  congr 1
  funext a
  apply Fin.ext
  match a with
  | ⟨0, _⟩ => show win16_0.index t 0 * 1 + 1 * 0 = t.val / 4; rw [h0]; omega
  | ⟨1, _⟩ => show win16_0.index t 1 * 14 + 1 * hh.val = t.val % 4 * 14 + hh.val; rw [h1]; omega
  | ⟨2, _⟩ => show win16_0.index t 2 * 64 + 1 * w'.val = w'.val; rw [h2]; omega
  | ⟨3, _⟩ => show win16_0.index t 3 * 256 + 1 * ci.val = ci.val; rw [h3]; omega

/-- The second input tile at point (n, r): rows 14·(r + 1) … of image n of the padded input. -/
theorem iblk1_apply (c : Dev nD) (t : Fin cfg16.N) (hh : Fin 14) (w' : Fin 64) (ci : Fin 256) :
    iblk V c 1 t (ix4 (0 : Fin 1) hh w' ci)
      = xp V c (ix4 (pn t) (⟨((pr t).val + 1) * 14 + hh.val, by have := (pr t).isLt; omega⟩ : Fin 70) w' ci) := by
  obtain ⟨-, ⟨h0, h1, h2, h3⟩, -⟩ := idx_facts t
  unfold iblk
  rw [View.read_apply]
  show V c (Pipeline.arrRef spec16 1) _ = V c (Pipeline.arrRef spec16 0) _
  congr 1
  funext a
  apply Fin.ext
  match a with
  | ⟨0, _⟩ => show win16_1.index t 0 * 1 + 1 * 0 = t.val / 4; rw [h0]; omega
  | ⟨1, _⟩ => show win16_1.index t 1 * 14 + 1 * hh.val = (t.val % 4 + 1) * 14 + hh.val; rw [h1]; omega
  | ⟨2, _⟩ => show win16_1.index t 2 * 64 + 1 * w'.val = w'.val; rw [h2]; omega
  | ⟨3, _⟩ => show win16_1.index t 3 * 256 + 1 * ci.val = ci.val; rw [h3]; omega

/-- The kernel window is the whole kernel array at every point. -/
theorem iblk2_apply (c : Dev nD) (t : Fin cfg16.N) (dy dx : Fin 3) (ci : Fin 256) (co : Fin 256) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec16 2) _ = V c (Pipeline.arrRef spec16 2) _
  congr 1
  funext a
  apply Fin.ext
  match a with
  | ⟨0, _⟩ => show win16_2.index t 0 * 3 + 1 * dy.val = dy.val; rw [h0]; omega
  | ⟨1, _⟩ => show win16_2.index t 1 * 3 + 1 * dx.val = dx.val; rw [h1]; omega
  | ⟨2, _⟩ => show win16_2.index t 2 * 256 + 1 * ci.val = ci.val; rw [h2]; omega
  | ⟨3, _⟩ => show win16_2.index t 3 * 256 + 1 * co.val = co.val; rw [h3]; omega

/-- The bias window is the whole bias row at every point. -/
theorem iblk3_apply (c : Dev nD) (t : Fin cfg16.N) (co : Fin 256) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec16 3) _ = V c (Pipeline.arrRef spec16 3) _
  congr 1
  funext a
  apply Fin.ext
  match a with
  | ⟨0, _⟩ => show win16_3.index t 0 * 1 + 1 * 0 = 0; rw [h0]
  | ⟨1, _⟩ => show win16_3.index t 1 * 256 + 1 * co.val = co.val; rw [h1]; omega

/-! ## The whole-array function and what a point writes back -/

/-- The correlation at (n, h, w, co): the sums nest dy, dx, ci. -/
def conv (c : Dev nD) (n : Fin 16) (h : Fin 56) (w : Fin 56) (co : Fin 256) : EReal :=
  max ((∑ dy : Fin 3, ∑ dx : Fin 3, ∑ ci : Fin 256,
          xp V c (ix4 n (⟨h.val + dy.val, by omega⟩ : Fin 70) (⟨w.val + dx.val, by omega⟩ : Fin 64) ci)
            * wk V c (ix4 dy dx ci co))
        + bias V c (ix2 (0 : Fin 1) co)) 0

/-- The output array the region is shown to leave. -/
def G (c : Dev nD) : Buf (Elt Ideal) ((c : Thread nD τ).loc main_v55) :=
  fun i : S16x56x56x256.Idx => conv V c (i 0) (i 1) (i 2) (i 3)

theorem G_apply (c : Dev nD) (i : S16x56x56x256.Idx) : G V c i = conv V c (i 0) (i 1) (i 2) (i 3) := rfl

theorem conv_congr (c : Dev nD) {n n' : Fin 16} {h h' : Fin 56} {w w' : Fin 56} {co co' : Fin 256}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 14·r … of image n of the padded input. -/
theorem tiles_eq (c : Dev nD) (t : Fin cfg16.N) (hh : Fin 28) (w' : Fin 64) (ci : Fin 256) :
    tiles (iblk V c 0 t) (iblk V c 1 t) hh w' ci
      = xp V c (ix4 (pn t) (⟨(pr t).val * 14 + hh.val, by have := (pr t).isLt; omega⟩ : Fin 70) w' ci) := by
  unfold tiles
  split
  · rename_i h
    exact iblk0_apply V c t ⟨hh.val, h⟩ w' ci
  · rename_i h
    rw [iblk1_apply V c t ⟨hh.val - 14, by omega⟩ w' ci]
    congr 2
    apply Fin.ext
    show ((pr t).val + 1) * 14 + (hh.val - 14) = (pr t).val * 14 + hh.val
    omega

/-- The nine loaded tap matrices are the kernel array's taps. -/
theorem taps_eq (c : Dev nD) (t : Fin cfg16.N) (dy dx : Fin 3) (ci : Fin 256) (co : Fin 256) :
    taps (View.ld (iblk V c 2 t) (tapRect 0 0 inb_S3x3x256x256_S1x1x256x256_0_0_0_0))
        (View.ld (iblk V c 2 t) (tapRect 0 1 inb_S3x3x256x256_S1x1x256x256_0_1_0_0))
        (View.ld (iblk V c 2 t) (tapRect 0 2 inb_S3x3x256x256_S1x1x256x256_0_2_0_0))
        (View.ld (iblk V c 2 t) (tapRect 1 0 inb_S3x3x256x256_S1x1x256x256_1_0_0_0))
        (View.ld (iblk V c 2 t) (tapRect 1 1 inb_S3x3x256x256_S1x1x256x256_1_1_0_0))
        (View.ld (iblk V c 2 t) (tapRect 1 2 inb_S3x3x256x256_S1x1x256x256_1_2_0_0))
        (View.ld (iblk V c 2 t) (tapRect 2 0 inb_S3x3x256x256_S1x1x256x256_2_0_0_0))
        (View.ld (iblk V c 2 t) (tapRect 2 1 inb_S3x3x256x256_S1x1x256x256_2_1_0_0))
        (View.ld (iblk V c 2 t) (tapRect 2 2 inb_S3x3x256x256_S1x1x256x256_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x14x64x256 .f32) (wk' : Vec Ideal S3x3x256x256 .f32) (b : Vec Ideal S1x256 .f32)
    (th : Fin 14) (w : Fin 56) (co : Fin 256) :
    out xa xb wk' b (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps (View.ld wk' (tapRect 0 0 inb_S3x3x256x256_S1x1x256x256_0_0_0_0))
                    (View.ld wk' (tapRect 0 1 inb_S3x3x256x256_S1x1x256x256_0_1_0_0))
                    (View.ld wk' (tapRect 0 2 inb_S3x3x256x256_S1x1x256x256_0_2_0_0))
                    (View.ld wk' (tapRect 1 0 inb_S3x3x256x256_S1x1x256x256_1_0_0_0))
                    (View.ld wk' (tapRect 1 1 inb_S3x3x256x256_S1x1x256x256_1_1_0_0))
                    (View.ld wk' (tapRect 1 2 inb_S3x3x256x256_S1x1x256x256_1_2_0_0))
                    (View.ld wk' (tapRect 2 0 inb_S3x3x256x256_S1x1x256x256_2_0_0_0))
                    (View.ld wk' (tapRect 2 1 inb_S3x3x256x256_S1x1x256x256_2_1_0_0))
                    (View.ld wk' (tapRect 2 2 inb_S3x3x256x256_S1x1x256x256_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg16.N) :
    (dat V c).flushed 4 t = ((cfg16.win 4).blk t).view.read (Elt Ideal) (G V c) := by
  show (cfg16.win 4).cut (grid16.coords t) ((dat V c).after 4 t) = _
  rw [after_4]
  funext x
  obtain ⟨u, th, w, co, rfl⟩ : ∃ (u : Fin 1) (th : Fin 14) (w : Fin 56) (co : Fin 256), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg16.win 4).blk t).view.emb (ix4 (0 : Fin 1) th w co))
      = conv V c (pn t) (⟨(pr t).val * 14 + th.val, by have := (pr t).isLt; omega⟩ : Fin 56) w co :=
    (G_apply V c _).trans (conv_congr V c
      (Fin.ext (by show win16_4.index t 0 * 1 + 1 * 0 = t.val / 4; rw [h0]; omega))
      (Fin.ext (by show win16_4.index t 1 * 14 + 1 * th.val = t.val % 4 * 14 + th.val; rw [h1]; omega))
      (Fin.ext (by show win16_4.index t 2 * 56 + 1 * w.val = w.val; rw [h2]; omega))
      (Fin.ext (by show win16_4.index t 3 * 256 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 14 + (th.val + dy.val) = (pr t).val * 14 + th.val + dy.val
  omega

/-! ## The output's row tiles cover it -/

/-- An index of the output array is in point `t`'s block when its image and row tile are `t`'s. -/
theorem mem_blk (t : Fin cfg16.N) (i : S16x56x56x256.Idx) :
    i ∈ ((cfg16.win 4).blk t).view.set ↔ (i 0 : Nat) = t.val / 4 ∧ t.val % 4 * 14 ≤ (i 1 : Nat) ∧ (i 1 : Nat) < t.val % 4 * 14 + 14 := by
  show i ∈ ((View.whole main_v55).slice (win16_4.rect t)).set ↔ _
  rw [View.set_slice_whole, Rect.mem_set_unit]
  obtain ⟨-, -, -, -, ⟨h0, h1, h2, h3⟩⟩ := idx_facts t
  have b2 : (i 2 : Nat) < 56 := (i 2).isLt
  have b3 : (i 3 : Nat) < 256 := (i 3).isLt
  have e0 : win16_4.index t 0 * win16_4.size 0 = t.val / 4 := by rw [h0]; show t.val / 4 * 1 = _; omega
  have e1 : win16_4.index t 1 * win16_4.size 1 = t.val % 4 * 14 := by rw [h1]; rfl
  have e2 : win16_4.index t 2 * win16_4.size 2 = 0 := by rw [h2]; rfl
  have e3 : win16_4.index t 3 * win16_4.size 3 = 0 := by rw [h3]; rfl
  have x0 : win16_4.xsize (grid16.coords t) 0 = 1 := rfl
  have x1 : win16_4.xsize (grid16.coords t) 1 = 14 := rfl
  have x2 : win16_4.xsize (grid16.coords t) 2 = 56 := rfl
  have x3 : win16_4.xsize (grid16.coords t) 3 = 256 := rfl
  refine ⟨fun h => ?_, fun h a => ?_⟩
  · have a0 := h 0; have a1 := h 1
    rw [e0, x0] at a0; rw [e1, x1] at a1
    exact ⟨by omega, a1⟩
  · match a with
    | ⟨0, _⟩ => show win16_4.index t 0 * win16_4.size 0 ≤ (i 0 : Nat) ∧ (i 0 : Nat) < win16_4.index t 0 * win16_4.size 0 + win16_4.xsize (grid16.coords t) 0
                rw [e0, x0]; omega
    | ⟨1, _⟩ => show win16_4.index t 1 * win16_4.size 1 ≤ (i 1 : Nat) ∧ (i 1 : Nat) < win16_4.index t 1 * win16_4.size 1 + win16_4.xsize (grid16.coords t) 1
                rw [e1, x1]; exact h.2
    | ⟨2, _⟩ => show win16_4.index t 2 * win16_4.size 2 ≤ (i 2 : Nat) ∧ (i 2 : Nat) < win16_4.index t 2 * win16_4.size 2 + win16_4.xsize (grid16.coords t) 2
                rw [e2, x2]; omega
    | ⟨3, _⟩ => show win16_4.index t 3 * win16_4.size 3 ≤ (i 3 : Nat) ∧ (i 3 : Nat) < win16_4.index t 3 * win16_4.size 3 + win16_4.xsize (grid16.coords t) 3
                rw [e3, x3]; omega

/-- Every index of the output array is in the block of the point of its image and row tile. -/
theorem cover (i : S16x56x56x256.Idx) :
    ∃ t : Fin cfg16.N, (cfg16.win 4).flush t = true ∧ i ∈ ((cfg16.win 4).blk t).view.set := by
  have b0 : (i 0 : Nat) < 16 := (i 0).isLt
  have b1 : (i 1 : Nat) < 56 := (i 1).isLt
  refine ⟨⟨(i 0 : Nat) * 4 + (i 1 : Nat) / 14, by rw [N_eq]; omega⟩, flush16_4 _, ?_⟩
  rw [mem_blk]
  dsimp only
  omega

/-- The output array after the last grid point is `G`. -/
theorem final_out (c : Dev nD) : (dat V c).arrAt 4 cfg16.N = G V c :=
  (dat V c).arrAt_eq_of_cover 4 (G V c) (fun t _ => flushed_eq V c t) cover

/-- The output array after the last grid point: at (n, h, w, co) the 3×3 correlation of the padded input with the
    kernel over the 256 input channels, plus the bias, clamped below at zero. The sums nest dy, dx, ci. -/
theorem out_value (c : Dev nD) (n : Fin 16) (h : Fin 56) (w : Fin 56) (co : Fin 256) :
    (dat V c).arrAt 4 cfg16.N (ix4 n h w co)
      = max ((∑ dy : Fin 3, ∑ dx : Fin 3, ∑ ci : Fin 256,
                xp V c (ix4 n (⟨h.val + dy.val, by omega⟩ : Fin 70) (⟨w.val + dx.val, by omega⟩ : Fin 64) ci)
                  * wk V c (ix4 dy dx ci co))
              + bias V c (ix2 (0 : Fin 1) co)) 0 := by
  rw [final_out]
  rfl

end Cert.ReferenceIdeal.Reg16
-- ==== Proof.RI.Val16.lean ====
import proofs.«143011_g2000502688546152_pallasbulk_1201_3_alg».proof.Proof.RI.Seg16
import proofs.«143011_g2000502688546152_pallasbulk_1201_3_alg».proof.Proof.RI.Reg16Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg16

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 56 56 256)
    (hx : ∀ (n : Fin 16) (i : Fin 70) (j : Fin 64) (ci : Fin 256),
      (W c (Proc.devRef .tc (Pipeline.arrRef spec16 0)) : FVec 𝕀 S16x70x64x256 .f32) (ix4 n i j ci) = Cert.Spec.padAt z n i.val j.val ci) :
    Cert.Spec.curry4 (Wout W c (Proc.devRef .tc (Pipeline.arrRef spec16 4)) : FVec 𝕀 S16x56x56x256 .f32)
      = Cert.Spec.convRelu z (Cert.Spec.curryW (W c (Proc.devRef .tc (Pipeline.arrRef spec16 2)) : FVec 𝕀 S3x3x256x256 .f32))
          (Cert.Spec.curryB (W c (Proc.devRef .tc (Pipeline.arrRef spec16 3)) : FVec 𝕀 S1x256 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg16

end
-- ==== Proof.RI.Reg17Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (14·64 each, then 64 zero rows), and for each tap (dy, dx)
multiplies the rows shifted by 64·dy + dx with the tap's [256, 256] matrix. Read at row th·64 + w and column co, the nine
products add up to the 3×3 correlation at pixel (th, w), output channel co. -/

set_option maxRecDepth 16384

noncomputable section

namespace Cert.ReferenceIdeal.Reg17

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [896, 256] by [256, 256] product into the zero accumulator, at (r, co): the sum over the 256 input channels. -/
theorem mm_apply (L : FVec Ideal S896x256 .f32) (R : FVec Ideal S256x256 .f32) (r : Fin 896) (co : Fin 256) :
    matmul dot_S896x256_S256x256_S896x256_1_0_0_1_n_n none L R (constant S896x256 .f32 0x00000000#32) (ix2 r co)
      = ∑ ci : Fin 256, L (ix2 r ci) * R (ix2 ci co) := by
  refine (Ideal.matmul_constant_zero_apply _ _ _ _ _).trans ?_
  refine (Equiv.sum_comp (contrEquiv1 dot_S896x256_S256x256_S896x256_1_0_0_1_n_n 256 rfl rfl).symm _).symm.trans ?_
  refine Finset.sum_congr rfl fun ci _ => ?_
  have hl : dot_S896x256_S256x256_S896x256_1_0_0_1_n_n.lhsIdx (ix2 r co)
      ((contrEquiv1 dot_S896x256_S256x256_S896x256_1_0_0_1_n_n 256 rfl rfl).symm ci) = ix2 r ci := by
    funext a; apply Fin.ext
    match a with
    | ⟨0, _⟩ => rfl
    | ⟨1, _⟩ => exact contrEquiv1_symm_val dot_S896x256_S256x256_S896x256_1_0_0_1_n_n 256 rfl rfl ci
  have hr : dot_S896x256_S256x256_S896x256_1_0_0_1_n_n.rhsIdx (ix2 r co)
      ((contrEquiv1 dot_S896x256_S256x256_S896x256_1_0_0_1_n_n 256 rfl rfl).symm ci) = ix2 ci co := by
    funext a; apply Fin.ext
    match a with
    | ⟨0, _⟩ => exact contrEquiv1_symm_val dot_S896x256_S256x256_S896x256_1_0_0_1_n_n 256 rfl rfl ci
    | ⟨1, _⟩ => rfl
  rw [hl, hr]

/-! ## The stacked rows -/

section Slab
variable (xa xb : Vec Ideal S1x14x64x256 .f32)

/-- Pixel (hh, w') of the two tiles stacked one above the other, hh < 28. -/
def tiles (hh : Fin 28) (w' : Fin 64) (ci : Fin 256) : EReal :=
  if h : hh.val < 14 then xa (ix4 (0 : Fin 1) (⟨hh.val, h⟩ : Fin 14) w' ci)
  else xb (ix4 (0 : Fin 1) (⟨hh.val - 14, by omega⟩ : Fin 14) w' ci)

/-- Row hh·64 + w' of the first 896 rows is pixel (hh, w') of the first tile. -/
theorem slab_lo (hh : Fin 14) (w' : Fin 64) (ci : Fin 256) (q : Fin 1856) (hq : q.val = hh.val * 64 + w'.val) :
    k17_pay2 xa xb (ix2 q ci) = xa (ix4 (0 : Fin 1) hh w' ci) := by
  unfold k17_pay2
  have hq' : q.val < 896 := by have := hh.isLt; have := w'.isLt; omega
  refine Eq.trans (concatenate_apply_piece (0 : Fin 2) _ _ (ix2 q ci) 0 ?_ S896x256
    (shapeCast S896x256 (shapeCast S14x64x256 xa shapeCasts_S1x14x64x256_S14x64x256) shapeCasts_S14x64x256_S896x256) ?_ ?_ 0 ?_
    (ix2 (⟨q.val, hq'⟩ : Fin 896) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = q.val * 256 + ci.val
      rw [hq]
    · rw [Shape.rowMajor_val_four, Shape.rowMajor_val_three]
      show ((0 * 14 + hh.val) * 64 + w'.val) * 256 + ci.val = (hh.val * 64 + w'.val) * 256 + ci.val
      omega

/-- Row 896 + hh·64 + w' is pixel (hh, w') of the second tile. -/
theorem slab_hi (hh : Fin 14) (w' : Fin 64) (ci : Fin 256) (q : Fin 1856) (hq : q.val = 896 + (hh.val * 64 + w'.val)) :
    k17_pay2 xa xb (ix2 q ci) = xb (ix4 (0 : Fin 1) hh w' ci) := by
  unfold k17_pay2
  have hq' : q.val - 896 < 896 := by have := hh.isLt; have := w'.isLt; omega
  refine Eq.trans (concatenate_apply_piece (0 : Fin 2) _ _ (ix2 q ci) 1 ?_ S896x256
    (shapeCast S896x256 (shapeCast S14x64x256 xb shapeCasts_S1x14x64x256_S14x64x256) shapeCasts_S14x64x256_S896x256) ?_ ?_ 896 ?_
    (ix2 (⟨q.val - 896, hq'⟩ : Fin 896) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 896 + (q.val - 896) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = (q.val - 896) * 256 + ci.val
      omega
    · rw [Shape.rowMajor_val_four, Shape.rowMajor_val_three]
      show ((0 * 14 + hh.val) * 64 + w'.val) * 256 + ci.val = (hh.val * 64 + w'.val) * 256 + ci.val
      omega

/-- Row hh·64 + w', hh < 28, of the stacked rows is pixel (hh, w') of the stacked tiles. -/
theorem slab_apply (hh : Fin 28) (w' : Fin 64) (ci : Fin 256) (q : Fin 1856) (hq : q.val = hh.val * 64 + w'.val) :
    k17_pay2 xa xb (ix2 q ci) = tiles xa xb hh w' ci := by
  unfold tiles
  split
  · rename_i h; exact slab_lo xa xb ⟨hh.val, h⟩ w' ci q hq
  · rename_i h; exact slab_hi xa xb ⟨hh.val - 14, by omega⟩ w' ci q (by show q.val = 896 + ((hh.val - 14) * 64 + w'.val); omega)

end Slab

/-! ## A tap's product read at an entry -/

/-- A tap matrix [1, 1, 256, 256] flattened to [256, 256], at (ci, co). -/
theorem tapmat_apply (Wt : Vec Ideal S1x1x256x256 .f32) (ci : Fin 256) (co : Fin 256) :
    (shapeCast S256x256 Wt shapeCasts_S1x1x256x256_S256x256 : FVec Ideal S256x256 .f32) (ix2 ci co) = Wt (ix4 (0 : Fin 1) (0 : Fin 1) ci co) := by
  refine shapeCast_apply _ _ _ _ ?_
  rw [Shape.rowMajor_val_four, Shape.rowMajor_val_two]
  show ((0 * 1 + 0) * 256 + ci.val) * 256 + co.val = ci.val * 256 + co.val
  omega

/-- Rows o, o+1, … of a matrix of n0 rows against a flattened tap matrix, at (r, co): the sum over the 256 input
    channels of row o + r times the tap's column co. -/
theorem tap_apply {n0 : Nat} (o : Nat) (X : FVec Ideal ⟨2, ![n0, 256]⟩ .f32)
    (h : (⟨2, ![n0, 256]⟩ : Shape).Slices ![o, 0] S896x256) (Wt : Vec Ideal S1x1x256x256 .f32)
    (r : Fin 896) (co : Fin 256) (hk : o + 895 < n0) :
    matmul dot_S896x256_S256x256_S896x256_1_0_0_1_n_n none (extractStridedSlice S896x256 ![o, 0] X h : FVec Ideal S896x256 .f32)
        (shapeCast S256x256 Wt shapeCasts_S1x1x256x256_S256x256 : FVec Ideal S256x256 .f32) (constant S896x256 .f32 0x00000000#32) (ix2 r co)
      = ∑ ci : Fin 256, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x14x64x256 .f32)

/-- The rows from the second on. -/
theorem pay3_apply (q : Fin 1855) (ci : Fin 256) :
    k17_pay3 xa xb (ix2 q ci) = k17_pay2 xa xb (ix2 (⟨1 + q.val, by omega⟩ : Fin 1856) ci) := by
  unfold k17_pay3
  exact slice2_axis0_apply 1 _ _ q ci _ rfl

/-- The rows from the third on. -/
theorem pay4_apply (q : Fin 1854) (ci : Fin 256) :
    k17_pay4 xa xb (ix2 q ci) = k17_pay2 xa xb (ix2 (⟨2 + q.val, by omega⟩ : Fin 1856) ci) := by
  unfold k17_pay4
  exact slice2_axis0_apply 2 _ _ q ci _ rfl

end Shift

/-! ## The accumulations -/

/-- The first three taps added onto zero. -/
theorem pay5_apply (xa xb : Vec Ideal S1x14x64x256 .f32) (w00 w01 w02 : Vec Ideal S1x1x256x256 .f32) (r : Fin 896) (co : Fin 256) :
    k17_pay5 xa xb w00 w01 w02 (ix2 r co)
      = 0 + (∑ ci : Fin 256, k17_pay2 xa xb (ix2 (⟨0 + r.val, by omega⟩ : Fin 1856) ci) * w00 (ix4 (0 : Fin 1) (0 : Fin 1) ci co))
          + (∑ ci : Fin 256, k17_pay3 xa xb (ix2 (⟨0 + r.val, by omega⟩ : Fin 1855) ci) * w01 (ix4 (0 : Fin 1) (0 : Fin 1) ci co))
          + (∑ ci : Fin 256, k17_pay4 xa xb (ix2 (⟨0 + r.val, by omega⟩ : Fin 1854) ci) * w02 (ix4 (0 : Fin 1) (0 : Fin 1) ci co)) := by
  unfold k17_pay5
  simp only [addf_apply]
  rw [tap_apply 0 (k17_pay2 xa xb) _ w00 r co (by omega), tap_apply 0 (k17_pay3 xa xb) _ w01 r co (by omega),
    tap_apply 0 (k17_pay4 xa xb) _ w02 r co (by omega)]
  congr 3
  exact Ideal.ofBits_zero_f32

/-- The other six taps and the bias added onto what the first three left. -/
theorem pay8_apply (v7 : FVec Ideal S1856x256 .f32) (v8 : FVec Ideal S1855x256 .f32) (v9 : FVec Ideal S1854x256 .f32)
    (v25 : FVec Ideal S896x256 .f32) (v26 : FVec Ideal S896x256 .f32) (v28 : FVec Ideal S256x256 .f32)
    (w11 w12 w20 w21 w22 : Vec Ideal S1x1x256x256 .f32) (b : Vec Ideal S1x256 .f32) (r : Fin 896) (co : Fin 256) :
    k17_pay8 v7 v8 v9 v25 v26 v28 w11 w12 w20 w21 w22 b (ix2 r co)
      = v25 (ix2 r co) + (∑ ci : Fin 256, v26 (ix2 r ci) * v28 (ix2 ci co))
          + (∑ ci : Fin 256, v8 (ix2 (⟨64 + r.val, by omega⟩ : Fin 1855) ci) * w11 (ix4 (0 : Fin 1) (0 : Fin 1) ci co))
          + (∑ ci : Fin 256, v9 (ix2 (⟨64 + r.val, by omega⟩ : Fin 1854) ci) * w12 (ix4 (0 : Fin 1) (0 : Fin 1) ci co))
          + (∑ ci : Fin 256, v7 (ix2 (⟨128 + r.val, by omega⟩ : Fin 1856) ci) * w20 (ix4 (0 : Fin 1) (0 : Fin 1) ci co))
          + (∑ ci : Fin 256, v8 (ix2 (⟨128 + r.val, by omega⟩ : Fin 1855) ci) * w21 (ix4 (0 : Fin 1) (0 : Fin 1) ci co))
          + (∑ ci : Fin 256, v9 (ix2 (⟨128 + r.val, by omega⟩ : Fin 1854) ci) * w22 (ix4 (0 : Fin 1) (0 : Fin 1) ci co))
          + b (ix2 (0 : Fin 1) co) := by
  unfold k17_pay8
  simp only [addf_apply]
  rw [mm_apply, tap_apply 64 v8 _ w11 r co (by omega), tap_apply 64 v9 _ w12 r co (by omega),
    tap_apply 128 v7 _ w20 r co (by omega), tap_apply 128 v8 _ w21 r co (by omega), tap_apply 128 v9 _ w22 r co (by omega),
    broadcastTo_1b_ab_apply]

/-- The fourth tap's rows and matrix. -/
theorem pay6_apply (xa xb : Vec Ideal S1x14x64x256 .f32) (r : Fin 896) (ci : Fin 256) :
    k17_pay6 xa xb (ix2 r ci) = k17_pay2 xa xb (ix2 (⟨64 + r.val, by omega⟩ : Fin 1856) ci) := by
  unfold k17_pay6
  exact slice2_axis0_apply 64 _ _ r ci _ rfl

theorem pay7_apply (w10 : Vec Ideal S1x1x256x256 .f32) (ci : Fin 256) (co : Fin 256) :
    k17_pay7 w10 (ix2 ci co) = w10 (ix4 (0 : Fin 1) (0 : Fin 1) ci co) := by
  unfold k17_pay7
  exact tapmat_apply w10 ci co

/-- The clamp and the cut to 56 columns: entry (0, th, w, co) of the tile is row th·64 + w, column co. -/
theorem pay1_apply (v58 v59 : FVec Ideal S896x256 .f32) (th : Fin 14) (w : Fin 56) (co : Fin 256) :
    k17_pay1 v58 v59 (ix4 (0 : Fin 1) th w co)
      = max (v58 (ix2 (⟨th.val * 64 + w.val, by omega⟩ : Fin 896) co)) (v59 (ix2 (⟨th.val * 64 + w.val, by omega⟩ : Fin 896) co)) := by
  unfold k17_pay1
  refine (shapeCast_abc_1abc_apply _ _ (0 : Fin 1) th w co).trans ?_
  refine (slice3_axis1_apply 0 _ _ th w co (⟨w.val, by omega⟩ : Fin 64) (by simp)).trans ?_
  refine (shapeCast_apply _ _ _ (ix2 (⟨th.val * 64 + w.val, by omega⟩ : Fin 896) co) ?_).trans (maximumf_apply _ _ _)
  rw [Shape.rowMajor_val_two, Shape.rowMajor_val_three]
  rfl

theorem pay9_apply (j : S896x256.Idx) : k17_pay9 (F := Ideal) j = 0 := by
  unfold k17_pay9
  exact Ideal.ofBits_zero_f32

/-! ## The body's value at an entry -/

section Entry
variable (xa xb : Vec Ideal S1x14x64x256 .f32)

/-- Row (th+dy)·64 + (w+dx) of the stacked rows is pixel (th+dy, w+dx) of the stacked tiles. -/
theorem slab_tap (th : Fin 14) (w : Fin 56) (dy dx : Fin 3) (ci : Fin 256) (q : Fin 1856)
    (hq : q.val = (th.val + dy.val) * 64 + (w.val + dx.val)) :
    k17_pay2 xa xb (ix2 q ci)
      = tiles xa xb (⟨th.val + dy.val, by omega⟩ : Fin 28) (⟨w.val + dx.val, by omega⟩ : Fin 64) ci :=
  slab_apply xa xb _ _ ci q hq

/-- The nine tap matrices as one family. -/
def taps (w00 w01 w02 w10 w11 w12 w20 w21 w22 : Vec Ideal S1x1x256x256 .f32) (dy dx : Fin 3) : Vec Ideal S1x1x256x256 .f32 :=
  ![![w00, w01, w02], ![w10, w11, w12], ![w20, w21, w22]] dy dx

/-- One output entry of the body: the 3×3 correlation of the stacked tiles with the nine tap matrices over the 256
    input channels, plus the bias, clamped below at zero. -/
theorem conv_entry (w00 w01 w02 w10 w11 w12 w20 w21 w22 : Vec Ideal S1x1x256x256 .f32) (b : Vec Ideal S1x256 .f32)
    (th : Fin 14) (w : Fin 56) (co : Fin 256) :
    k17_pay1 (k17_pay8 (k17_pay2 xa xb) (k17_pay3 xa xb) (k17_pay4 xa xb) (k17_pay5 xa xb w00 w01 w02) (k17_pay6 xa xb)
        (k17_pay7 w10) w11 w12 w20 w21 w22 b) k17_pay9 (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 256,
      tiles xa xb (⟨th.val + dy.val, by omega⟩ : Fin 28) (⟨w.val + dx.val, by omega⟩ : Fin 64) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg17
-- ==== Proof.RI.Reg17Value.lean ====
import proofs.«143011_g2000502688546152_pallasbulk_1201_3_alg».proof.Proof.RI.Reg17
import proofs.«143011_g2000502688546152_pallasbulk_1201_3_alg».proof.Proof.RI.Reg17Pure

/-! # Region 17 at the extended reals: the output array is the 3×3 correlation, plus bias, clamped at zero

Point t = 4·n + r of the grid writes back the output's row tile r of image n. Its two input tiles are row tiles r and
r + 1 of the padded input, so row h + dy of the padded input, h = 14·r + th, is row th + dy of the two tiles stacked. -/

set_option maxRecDepth 16384

noncomputable section

namespace Cert.ReferenceIdeal.Reg17

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 70, 64, 256], the kernel [3, 3, 256, 256] and the bias [1, 256] as the region finds them. -/
abbrev xp (c : Dev nD) : S16x70x64x256.Idx → EReal := V c (Pipeline.arrRef spec17 0)
abbrev wk (c : Dev nD) : S3x3x256x256.Idx → EReal := V c (Pipeline.arrRef spec17 2)
abbrev bias (c : Dev nD) : S1x256.Idx → EReal := V c (Pipeline.arrRef spec17 3)

/-! ## The grid's points and the windows' block indices -/

theorem N_eq : cfg17.N = 64 := N_17

/-- The image and the row tile of point `t`. -/
def pn (t : Fin cfg17.N) : Fin 16 := ⟨t.val / 4, by have := t.isLt; have := N_eq; omega⟩
def pr (t : Fin cfg17.N) : Fin 4 := ⟨t.val % 4, Nat.mod_lt _ (by decide)⟩

/-- The five windows' block indices at every point: (n, r), (n, r + 1), the origin twice, (n, r). -/
theorem idx_facts : ∀ t : Fin cfg17.N,
    (win17_0.index t 0 = t.val / 4 ∧ win17_0.index t 1 = t.val % 4 ∧ win17_0.index t 2 = 0 ∧ win17_0.index t 3 = 0)
    ∧ (win17_1.index t 0 = t.val / 4 ∧ win17_1.index t 1 = t.val % 4 + 1 ∧ win17_1.index t 2 = 0 ∧ win17_1.index t 3 = 0)
    ∧ (win17_2.index t 0 = 0 ∧ win17_2.index t 1 = 0 ∧ win17_2.index t 2 = 0 ∧ win17_2.index t 3 = 0)
    ∧ (win17_3.index t 0 = 0 ∧ win17_3.index t 1 = 0)
    ∧ (win17_4.index t 0 = t.val / 4 ∧ win17_4.index t 1 = t.val % 4 ∧ win17_4.index t 2 = 0 ∧ win17_4.index t 3 = 0) :=
  (by decide +kernel : ∀ t : Fin grid17.N, _)

/-! ## The windows' blocks read at an index -/

/-- The first input tile at point (n, r): rows 14·r … of image n of the padded input. -/
theorem iblk0_apply (c : Dev nD) (t : Fin cfg17.N) (hh : Fin 14) (w' : Fin 64) (ci : Fin 256) :
    iblk V c 0 t (ix4 (0 : Fin 1) hh w' ci)
      = xp V c (ix4 (pn t) (⟨(pr t).val * 14 + hh.val, by have := (pr t).isLt; omega⟩ : Fin 70) w' ci) := by
  obtain ⟨⟨h0, h1, h2, h3⟩, -⟩ := idx_facts t
  unfold iblk
  rw [View.read_apply]
  show V c (Pipeline.arrRef spec17 0) _ = V c (Pipeline.arrRef spec17 0) _
  congr 1
  funext a
  apply Fin.ext
  match a with
  | ⟨0, _⟩ => show win17_0.index t 0 * 1 + 1 * 0 = t.val / 4; rw [h0]; omega
  | ⟨1, _⟩ => show win17_0.index t 1 * 14 + 1 * hh.val = t.val % 4 * 14 + hh.val; rw [h1]; omega
  | ⟨2, _⟩ => show win17_0.index t 2 * 64 + 1 * w'.val = w'.val; rw [h2]; omega
  | ⟨3, _⟩ => show win17_0.index t 3 * 256 + 1 * ci.val = ci.val; rw [h3]; omega

/-- The second input tile at point (n, r): rows 14·(r + 1) … of image n of the padded input. -/
theorem iblk1_apply (c : Dev nD) (t : Fin cfg17.N) (hh : Fin 14) (w' : Fin 64) (ci : Fin 256) :
    iblk V c 1 t (ix4 (0 : Fin 1) hh w' ci)
      = xp V c (ix4 (pn t) (⟨((pr t).val + 1) * 14 + hh.val, by have := (pr t).isLt; omega⟩ : Fin 70) w' ci) := by
  obtain ⟨-, ⟨h0, h1, h2, h3⟩, -⟩ := idx_facts t
  unfold iblk
  rw [View.read_apply]
  show V c (Pipeline.arrRef spec17 1) _ = V c (Pipeline.arrRef spec17 0) _
  congr 1
  funext a
  apply Fin.ext
  match a with
  | ⟨0, _⟩ => show win17_1.index t 0 * 1 + 1 * 0 = t.val / 4; rw [h0]; omega
  | ⟨1, _⟩ => show win17_1.index t 1 * 14 + 1 * hh.val = (t.val % 4 + 1) * 14 + hh.val; rw [h1]; omega
  | ⟨2, _⟩ => show win17_1.index t 2 * 64 + 1 * w'.val = w'.val; rw [h2]; omega
  | ⟨3, _⟩ => show win17_1.index t 3 * 256 + 1 * ci.val = ci.val; rw [h3]; omega

/-- The kernel window is the whole kernel array at every point. -/
theorem iblk2_apply (c : Dev nD) (t : Fin cfg17.N) (dy dx : Fin 3) (ci : Fin 256) (co : Fin 256) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec17 2) _ = V c (Pipeline.arrRef spec17 2) _
  congr 1
  funext a
  apply Fin.ext
  match a with
  | ⟨0, _⟩ => show win17_2.index t 0 * 3 + 1 * dy.val = dy.val; rw [h0]; omega
  | ⟨1, _⟩ => show win17_2.index t 1 * 3 + 1 * dx.val = dx.val; rw [h1]; omega
  | ⟨2, _⟩ => show win17_2.index t 2 * 256 + 1 * ci.val = ci.val; rw [h2]; omega
  | ⟨3, _⟩ => show win17_2.index t 3 * 256 + 1 * co.val = co.val; rw [h3]; omega

/-- The bias window is the whole bias row at every point. -/
theorem iblk3_apply (c : Dev nD) (t : Fin cfg17.N) (co : Fin 256) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec17 3) _ = V c (Pipeline.arrRef spec17 3) _
  congr 1
  funext a
  apply Fin.ext
  match a with
  | ⟨0, _⟩ => show win17_3.index t 0 * 1 + 1 * 0 = 0; rw [h0]
  | ⟨1, _⟩ => show win17_3.index t 1 * 256 + 1 * co.val = co.val; rw [h1]; omega

/-! ## The whole-array function and what a point writes back -/

/-- The correlation at (n, h, w, co): the sums nest dy, dx, ci. -/
def conv (c : Dev nD) (n : Fin 16) (h : Fin 56) (w : Fin 56) (co : Fin 256) : EReal :=
  max ((∑ dy : Fin 3, ∑ dx : Fin 3, ∑ ci : Fin 256,
          xp V c (ix4 n (⟨h.val + dy.val, by omega⟩ : Fin 70) (⟨w.val + dx.val, by omega⟩ : Fin 64) ci)
            * wk V c (ix4 dy dx ci co))
        + bias V c (ix2 (0 : Fin 1) co)) 0

/-- The output array the region is shown to leave. -/
def G (c : Dev nD) : Buf (Elt Ideal) ((c : Thread nD τ).loc main_v57) :=
  fun i : S16x56x56x256.Idx => conv V c (i 0) (i 1) (i 2) (i 3)

theorem G_apply (c : Dev nD) (i : S16x56x56x256.Idx) : G V c i = conv V c (i 0) (i 1) (i 2) (i 3) := rfl

theorem conv_congr (c : Dev nD) {n n' : Fin 16} {h h' : Fin 56} {w w' : Fin 56} {co co' : Fin 256}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 14·r … of image n of the padded input. -/
theorem tiles_eq (c : Dev nD) (t : Fin cfg17.N) (hh : Fin 28) (w' : Fin 64) (ci : Fin 256) :
    tiles (iblk V c 0 t) (iblk V c 1 t) hh w' ci
      = xp V c (ix4 (pn t) (⟨(pr t).val * 14 + hh.val, by have := (pr t).isLt; omega⟩ : Fin 70) w' ci) := by
  unfold tiles
  split
  · rename_i h
    exact iblk0_apply V c t ⟨hh.val, h⟩ w' ci
  · rename_i h
    rw [iblk1_apply V c t ⟨hh.val - 14, by omega⟩ w' ci]
    congr 2
    apply Fin.ext
    show ((pr t).val + 1) * 14 + (hh.val - 14) = (pr t).val * 14 + hh.val
    omega

/-- The nine loaded tap matrices are the kernel array's taps. -/
theorem taps_eq (c : Dev nD) (t : Fin cfg17.N) (dy dx : Fin 3) (ci : Fin 256) (co : Fin 256) :
    taps (View.ld (iblk V c 2 t) (tapRect 0 0 inb_S3x3x256x256_S1x1x256x256_0_0_0_0))
        (View.ld (iblk V c 2 t) (tapRect 0 1 inb_S3x3x256x256_S1x1x256x256_0_1_0_0))
        (View.ld (iblk V c 2 t) (tapRect 0 2 inb_S3x3x256x256_S1x1x256x256_0_2_0_0))
        (View.ld (iblk V c 2 t) (tapRect 1 0 inb_S3x3x256x256_S1x1x256x256_1_0_0_0))
        (View.ld (iblk V c 2 t) (tapRect 1 1 inb_S3x3x256x256_S1x1x256x256_1_1_0_0))
        (View.ld (iblk V c 2 t) (tapRect 1 2 inb_S3x3x256x256_S1x1x256x256_1_2_0_0))
        (View.ld (iblk V c 2 t) (tapRect 2 0 inb_S3x3x256x256_S1x1x256x256_2_0_0_0))
        (View.ld (iblk V c 2 t) (tapRect 2 1 inb_S3x3x256x256_S1x1x256x256_2_1_0_0))
        (View.ld (iblk V c 2 t) (tapRect 2 2 inb_S3x3x256x256_S1x1x256x256_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x14x64x256 .f32) (wk' : Vec Ideal S3x3x256x256 .f32) (b : Vec Ideal S1x256 .f32)
    (th : Fin 14) (w : Fin 56) (co : Fin 256) :
    out xa xb wk' b (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps (View.ld wk' (tapRect 0 0 inb_S3x3x256x256_S1x1x256x256_0_0_0_0))
                    (View.ld wk' (tapRect 0 1 inb_S3x3x256x256_S1x1x256x256_0_1_0_0))
                    (View.ld wk' (tapRect 0 2 inb_S3x3x256x256_S1x1x256x256_0_2_0_0))
                    (View.ld wk' (tapRect 1 0 inb_S3x3x256x256_S1x1x256x256_1_0_0_0))
                    (View.ld wk' (tapRect 1 1 inb_S3x3x256x256_S1x1x256x256_1_1_0_0))
                    (View.ld wk' (tapRect 1 2 inb_S3x3x256x256_S1x1x256x256_1_2_0_0))
                    (View.ld wk' (tapRect 2 0 inb_S3x3x256x256_S1x1x256x256_2_0_0_0))
                    (View.ld wk' (tapRect 2 1 inb_S3x3x256x256_S1x1x256x256_2_1_0_0))
                    (View.ld wk' (tapRect 2 2 inb_S3x3x256x256_S1x1x256x256_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg17.N) :
    (dat V c).flushed 4 t = ((cfg17.win 4).blk t).view.read (Elt Ideal) (G V c) := by
  show (cfg17.win 4).cut (grid17.coords t) ((dat V c).after 4 t) = _
  rw [after_4]
  funext x
  obtain ⟨u, th, w, co, rfl⟩ : ∃ (u : Fin 1) (th : Fin 14) (w : Fin 56) (co : Fin 256), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg17.win 4).blk t).view.emb (ix4 (0 : Fin 1) th w co))
      = conv V c (pn t) (⟨(pr t).val * 14 + th.val, by have := (pr t).isLt; omega⟩ : Fin 56) w co :=
    (G_apply V c _).trans (conv_congr V c
      (Fin.ext (by show win17_4.index t 0 * 1 + 1 * 0 = t.val / 4; rw [h0]; omega))
      (Fin.ext (by show win17_4.index t 1 * 14 + 1 * th.val = t.val % 4 * 14 + th.val; rw [h1]; omega))
      (Fin.ext (by show win17_4.index t 2 * 56 + 1 * w.val = w.val; rw [h2]; omega))
      (Fin.ext (by show win17_4.index t 3 * 256 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 14 + (th.val + dy.val) = (pr t).val * 14 + th.val + dy.val
  omega

/-! ## The output's row tiles cover it -/

/-- An index of the output array is in point `t`'s block when its image and row tile are `t`'s. -/
theorem mem_blk (t : Fin cfg17.N) (i : S16x56x56x256.Idx) :
    i ∈ ((cfg17.win 4).blk t).view.set ↔ (i 0 : Nat) = t.val / 4 ∧ t.val % 4 * 14 ≤ (i 1 : Nat) ∧ (i 1 : Nat) < t.val % 4 * 14 + 14 := by
  show i ∈ ((View.whole main_v57).slice (win17_4.rect t)).set ↔ _
  rw [View.set_slice_whole, Rect.mem_set_unit]
  obtain ⟨-, -, -, -, ⟨h0, h1, h2, h3⟩⟩ := idx_facts t
  have b2 : (i 2 : Nat) < 56 := (i 2).isLt
  have b3 : (i 3 : Nat) < 256 := (i 3).isLt
  have e0 : win17_4.index t 0 * win17_4.size 0 = t.val / 4 := by rw [h0]; show t.val / 4 * 1 = _; omega
  have e1 : win17_4.index t 1 * win17_4.size 1 = t.val % 4 * 14 := by rw [h1]; rfl
  have e2 : win17_4.index t 2 * win17_4.size 2 = 0 := by rw [h2]; rfl
  have e3 : win17_4.index t 3 * win17_4.size 3 = 0 := by rw [h3]; rfl
  have x0 : win17_4.xsize (grid17.coords t) 0 = 1 := rfl
  have x1 : win17_4.xsize (grid17.coords t) 1 = 14 := rfl
  have x2 : win17_4.xsize (grid17.coords t) 2 = 56 := rfl
  have x3 : win17_4.xsize (grid17.coords t) 3 = 256 := rfl
  refine ⟨fun h => ?_, fun h a => ?_⟩
  · have a0 := h 0; have a1 := h 1
    rw [e0, x0] at a0; rw [e1, x1] at a1
    exact ⟨by omega, a1⟩
  · match a with
    | ⟨0, _⟩ => show win17_4.index t 0 * win17_4.size 0 ≤ (i 0 : Nat) ∧ (i 0 : Nat) < win17_4.index t 0 * win17_4.size 0 + win17_4.xsize (grid17.coords t) 0
                rw [e0, x0]; omega
    | ⟨1, _⟩ => show win17_4.index t 1 * win17_4.size 1 ≤ (i 1 : Nat) ∧ (i 1 : Nat) < win17_4.index t 1 * win17_4.size 1 + win17_4.xsize (grid17.coords t) 1
                rw [e1, x1]; exact h.2
    | ⟨2, _⟩ => show win17_4.index t 2 * win17_4.size 2 ≤ (i 2 : Nat) ∧ (i 2 : Nat) < win17_4.index t 2 * win17_4.size 2 + win17_4.xsize (grid17.coords t) 2
                rw [e2, x2]; omega
    | ⟨3, _⟩ => show win17_4.index t 3 * win17_4.size 3 ≤ (i 3 : Nat) ∧ (i 3 : Nat) < win17_4.index t 3 * win17_4.size 3 + win17_4.xsize (grid17.coords t) 3
                rw [e3, x3]; omega

/-- Every index of the output array is in the block of the point of its image and row tile. -/
theorem cover (i : S16x56x56x256.Idx) :
    ∃ t : Fin cfg17.N, (cfg17.win 4).flush t = true ∧ i ∈ ((cfg17.win 4).blk t).view.set := by
  have b0 : (i 0 : Nat) < 16 := (i 0).isLt
  have b1 : (i 1 : Nat) < 56 := (i 1).isLt
  refine ⟨⟨(i 0 : Nat) * 4 + (i 1 : Nat) / 14, by rw [N_eq]; omega⟩, flush17_4 _, ?_⟩
  rw [mem_blk]
  dsimp only
  omega

/-- The output array after the last grid point is `G`. -/
theorem final_out (c : Dev nD) : (dat V c).arrAt 4 cfg17.N = G V c :=
  (dat V c).arrAt_eq_of_cover 4 (G V c) (fun t _ => flushed_eq V c t) cover

/-- The output array after the last grid point: at (n, h, w, co) the 3×3 correlation of the padded input with the
    kernel over the 256 input channels, plus the bias, clamped below at zero. The sums nest dy, dx, ci. -/
theorem out_value (c : Dev nD) (n : Fin 16) (h : Fin 56) (w : Fin 56) (co : Fin 256) :
    (dat V c).arrAt 4 cfg17.N (ix4 n h w co)
      = max ((∑ dy : Fin 3, ∑ dx : Fin 3, ∑ ci : Fin 256,
                xp V c (ix4 n (⟨h.val + dy.val, by omega⟩ : Fin 70) (⟨w.val + dx.val, by omega⟩ : Fin 64) ci)
                  * wk V c (ix4 dy dx ci co))
              + bias V c (ix2 (0 : Fin 1) co)) 0 := by
  rw [final_out]
  rfl

end Cert.ReferenceIdeal.Reg17
-- ==== Proof.RI.Val17.lean ====
import proofs.«143011_g2000502688546152_pallasbulk_1201_3_alg».proof.Proof.RI.Seg17
import proofs.«143011_g2000502688546152_pallasbulk_1201_3_alg».proof.Proof.RI.Reg17Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg17

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 56 56 256)
    (hx : ∀ (n : Fin 16) (i : Fin 70) (j : Fin 64) (ci : Fin 256),
      (W c (Proc.devRef .tc (Pipeline.arrRef spec17 0)) : FVec 𝕀 S16x70x64x256 .f32) (ix4 n i j ci) = Cert.Spec.padAt z n i.val j.val ci) :
    Cert.Spec.curry4 (Wout W c (Proc.devRef .tc (Pipeline.arrRef spec17 4)) : FVec 𝕀 S16x56x56x256 .f32)
      = Cert.Spec.convRelu z (Cert.Spec.curryW (W c (Proc.devRef .tc (Pipeline.arrRef spec17 2)) : FVec 𝕀 S3x3x256x256 .f32))
          (Cert.Spec.curryB (W c (Proc.devRef .tc (Pipeline.arrRef spec17 3)) : FVec 𝕀 S1x256 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg17

end
-- ==== Proof.RI.Reg18Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (14·64 each, then 64 zero rows), and for each tap (dy, dx)
multiplies the rows shifted by 64·dy + dx with the tap's [256, 256] matrix. Read at row th·64 + w and column co, the nine
products add up to the 3×3 correlation at pixel (th, w), output channel co. -/

set_option maxRecDepth 16384

noncomputable section

namespace Cert.ReferenceIdeal.Reg18

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [896, 256] by [256, 256] product into the zero accumulator, at (r, co): the sum over the 256 input channels. -/
theorem mm_apply (L : FVec Ideal S896x256 .f32) (R : FVec Ideal S256x256 .f32) (r : Fin 896) (co : Fin 256) :
    matmul dot_S896x256_S256x256_S896x256_1_0_0_1_n_n none L R (constant S896x256 .f32 0x00000000#32) (ix2 r co)
      = ∑ ci : Fin 256, L (ix2 r ci) * R (ix2 ci co) := by
  refine (Ideal.matmul_constant_zero_apply _ _ _ _ _).trans ?_
  refine (Equiv.sum_comp (contrEquiv1 dot_S896x256_S256x256_S896x256_1_0_0_1_n_n 256 rfl rfl).symm _).symm.trans ?_
  refine Finset.sum_congr rfl fun ci _ => ?_
  have hl : dot_S896x256_S256x256_S896x256_1_0_0_1_n_n.lhsIdx (ix2 r co)
      ((contrEquiv1 dot_S896x256_S256x256_S896x256_1_0_0_1_n_n 256 rfl rfl).symm ci) = ix2 r ci := by
    funext a; apply Fin.ext
    match a with
    | ⟨0, _⟩ => rfl
    | ⟨1, _⟩ => exact contrEquiv1_symm_val dot_S896x256_S256x256_S896x256_1_0_0_1_n_n 256 rfl rfl ci
  have hr : dot_S896x256_S256x256_S896x256_1_0_0_1_n_n.rhsIdx (ix2 r co)
      ((contrEquiv1 dot_S896x256_S256x256_S896x256_1_0_0_1_n_n 256 rfl rfl).symm ci) = ix2 ci co := by
    funext a; apply Fin.ext
    match a with
    | ⟨0, _⟩ => exact contrEquiv1_symm_val dot_S896x256_S256x256_S896x256_1_0_0_1_n_n 256 rfl rfl ci
    | ⟨1, _⟩ => rfl
  rw [hl, hr]

/-! ## The stacked rows -/

section Slab
variable (xa xb : Vec Ideal S1x14x64x256 .f32)

/-- Pixel (hh, w') of the two tiles stacked one above the other, hh < 28. -/
def tiles (hh : Fin 28) (w' : Fin 64) (ci : Fin 256) : EReal :=
  if h : hh.val < 14 then xa (ix4 (0 : Fin 1) (⟨hh.val, h⟩ : Fin 14) w' ci)
  else xb (ix4 (0 : Fin 1) (⟨hh.val - 14, by omega⟩ : Fin 14) w' ci)

/-- Row hh·64 + w' of the first 896 rows is pixel (hh, w') of the first tile. -/
theorem slab_lo (hh : Fin 14) (w' : Fin 64) (ci : Fin 256) (q : Fin 1856) (hq : q.val = hh.val * 64 + w'.val) :
    k18_pay2 xa xb (ix2 q ci) = xa (ix4 (0 : Fin 1) hh w' ci) := by
  unfold k18_pay2
  have hq' : q.val < 896 := by have := hh.isLt; have := w'.isLt; omega
  refine Eq.trans (concatenate_apply_piece (0 : Fin 2) _ _ (ix2 q ci) 0 ?_ S896x256
    (shapeCast S896x256 (shapeCast S14x64x256 xa shapeCasts_S1x14x64x256_S14x64x256) shapeCasts_S14x64x256_S896x256) ?_ ?_ 0 ?_
    (ix2 (⟨q.val, hq'⟩ : Fin 896) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = q.val * 256 + ci.val
      rw [hq]
    · rw [Shape.rowMajor_val_four, Shape.rowMajor_val_three]
      show ((0 * 14 + hh.val) * 64 + w'.val) * 256 + ci.val = (hh.val * 64 + w'.val) * 256 + ci.val
      omega

/-- Row 896 + hh·64 + w' is pixel (hh, w') of the second tile. -/
theorem slab_hi (hh : Fin 14) (w' : Fin 64) (ci : Fin 256) (q : Fin 1856) (hq : q.val = 896 + (hh.val * 64 + w'.val)) :
    k18_pay2 xa xb (ix2 q ci) = xb (ix4 (0 : Fin 1) hh w' ci) := by
  unfold k18_pay2
  have hq' : q.val - 896 < 896 := by have := hh.isLt; have := w'.isLt; omega
  refine Eq.trans (concatenate_apply_piece (0 : Fin 2) _ _ (ix2 q ci) 1 ?_ S896x256
    (shapeCast S896x256 (shapeCast S14x64x256 xb shapeCasts_S1x14x64x256_S14x64x256) shapeCasts_S14x64x256_S896x256) ?_ ?_ 896 ?_
    (ix2 (⟨q.val - 896, hq'⟩ : Fin 896) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 896 + (q.val - 896) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = (q.val - 896) * 256 + ci.val
      omega
    · rw [Shape.rowMajor_val_four, Shape.rowMajor_val_three]
      show ((0 * 14 + hh.val) * 64 + w'.val) * 256 + ci.val = (hh.val * 64 + w'.val) * 256 + ci.val
      omega

/-- Row hh·64 + w', hh < 28, of the stacked rows is pixel (hh, w') of the stacked tiles. -/
theorem slab_apply (hh : Fin 28) (w' : Fin 64) (ci : Fin 256) (q : Fin 1856) (hq : q.val = hh.val * 64 + w'.val) :
    k18_pay2 xa xb (ix2 q ci) = tiles xa xb hh w' ci := by
  unfold tiles
  split
  · rename_i h; exact slab_lo xa xb ⟨hh.val, h⟩ w' ci q hq
  · rename_i h; exact slab_hi xa xb ⟨hh.val - 14, by omega⟩ w' ci q (by show q.val = 896 + ((hh.val - 14) * 64 + w'.val); omega)

end Slab

/-! ## A tap's product read at an entry -/

/-- A tap matrix [1, 1, 256, 256] flattened to [256, 256], at (ci, co). -/
theorem tapmat_apply (Wt : Vec Ideal S1x1x256x256 .f32) (ci : Fin 256) (co : Fin 256) :
    (shapeCast S256x256 Wt shapeCasts_S1x1x256x256_S256x256 : FVec Ideal S256x256 .f32) (ix2 ci co) = Wt (ix4 (0 : Fin 1) (0 : Fin 1) ci co) := by
  refine shapeCast_apply _ _ _ _ ?_
  rw [Shape.rowMajor_val_four, Shape.rowMajor_val_two]
  show ((0 * 1 + 0) * 256 + ci.val) * 256 + co.val = ci.val * 256 + co.val
  omega

/-- Rows o, o+1, … of a matrix of n0 rows against a flattened tap matrix, at (r, co): the sum over the 256 input
    channels of row o + r times the tap's column co. -/
theorem tap_apply {n0 : Nat} (o : Nat) (X : FVec Ideal ⟨2, ![n0, 256]⟩ .f32)
    (h : (⟨2, ![n0, 256]⟩ : Shape).Slices ![o, 0] S896x256) (Wt : Vec Ideal S1x1x256x256 .f32)
    (r : Fin 896) (co : Fin 256) (hk : o + 895 < n0) :
    matmul dot_S896x256_S256x256_S896x256_1_0_0_1_n_n none (extractStridedSlice S896x256 ![o, 0] X h : FVec Ideal S896x256 .f32)
        (shapeCast S256x256 Wt shapeCasts_S1x1x256x256_S256x256 : FVec Ideal S256x256 .f32) (constant S896x256 .f32 0x00000000#32) (ix2 r co)
      = ∑ ci : Fin 256, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x14x64x256 .f32)

/-- The rows from the second on. -/
theorem pay3_apply (q : Fin 1855) (ci : Fin 256) :
    k18_pay3 xa xb (ix2 q ci) = k18_pay2 xa xb (ix2 (⟨1 + q.val, by omega⟩ : Fin 1856) ci) := by
  unfold k18_pay3
  exact slice2_axis0_apply 1 _ _ q ci _ rfl

/-- The rows from the third on. -/
theorem pay4_apply (q : Fin 1854) (ci : Fin 256) :
    k18_pay4 xa xb (ix2 q ci) = k18_pay2 xa xb (ix2 (⟨2 + q.val, by omega⟩ : Fin 1856) ci) := by
  unfold k18_pay4
  exact slice2_axis0_apply 2 _ _ q ci _ rfl

end Shift

/-! ## The accumulations -/

/-- The first three taps added onto zero. -/
theorem pay5_apply (xa xb : Vec Ideal S1x14x64x256 .f32) (w00 w01 w02 : Vec Ideal S1x1x256x256 .f32) (r : Fin 896) (co : Fin 256) :
    k18_pay5 xa xb w00 w01 w02 (ix2 r co)
      = 0 + (∑ ci : Fin 256, k18_pay2 xa xb (ix2 (⟨0 + r.val, by omega⟩ : Fin 1856) ci) * w00 (ix4 (0 : Fin 1) (0 : Fin 1) ci co))
          + (∑ ci : Fin 256, k18_pay3 xa xb (ix2 (⟨0 + r.val, by omega⟩ : Fin 1855) ci) * w01 (ix4 (0 : Fin 1) (0 : Fin 1) ci co))
          + (∑ ci : Fin 256, k18_pay4 xa xb (ix2 (⟨0 + r.val, by omega⟩ : Fin 1854) ci) * w02 (ix4 (0 : Fin 1) (0 : Fin 1) ci co)) := by
  unfold k18_pay5
  simp only [addf_apply]
  rw [tap_apply 0 (k18_pay2 xa xb) _ w00 r co (by omega), tap_apply 0 (k18_pay3 xa xb) _ w01 r co (by omega),
    tap_apply 0 (k18_pay4 xa xb) _ w02 r co (by omega)]
  congr 3
  exact Ideal.ofBits_zero_f32

/-- The other six taps and the bias added onto what the first three left. -/
theorem pay8_apply (v7 : FVec Ideal S1856x256 .f32) (v8 : FVec Ideal S1855x256 .f32) (v9 : FVec Ideal S1854x256 .f32)
    (v25 : FVec Ideal S896x256 .f32) (v26 : FVec Ideal S896x256 .f32) (v28 : FVec Ideal S256x256 .f32)
    (w11 w12 w20 w21 w22 : Vec Ideal S1x1x256x256 .f32) (b : Vec Ideal S1x256 .f32) (r : Fin 896) (co : Fin 256) :
    k18_pay8 v7 v8 v9 v25 v26 v28 w11 w12 w20 w21 w22 b (ix2 r co)
      = v25 (ix2 r co) + (∑ ci : Fin 256, v26 (ix2 r ci) * v28 (ix2 ci co))
          + (∑ ci : Fin 256, v8 (ix2 (⟨64 + r.val, by omega⟩ : Fin 1855) ci) * w11 (ix4 (0 : Fin 1) (0 : Fin 1) ci co))
          + (∑ ci : Fin 256, v9 (ix2 (⟨64 + r.val, by omega⟩ : Fin 1854) ci) * w12 (ix4 (0 : Fin 1) (0 : Fin 1) ci co))
          + (∑ ci : Fin 256, v7 (ix2 (⟨128 + r.val, by omega⟩ : Fin 1856) ci) * w20 (ix4 (0 : Fin 1) (0 : Fin 1) ci co))
          + (∑ ci : Fin 256, v8 (ix2 (⟨128 + r.val, by omega⟩ : Fin 1855) ci) * w21 (ix4 (0 : Fin 1) (0 : Fin 1) ci co))
          + (∑ ci : Fin 256, v9 (ix2 (⟨128 + r.val, by omega⟩ : Fin 1854) ci) * w22 (ix4 (0 : Fin 1) (0 : Fin 1) ci co))
          + b (ix2 (0 : Fin 1) co) := by
  unfold k18_pay8
  simp only [addf_apply]
  rw [mm_apply, tap_apply 64 v8 _ w11 r co (by omega), tap_apply 64 v9 _ w12 r co (by omega),
    tap_apply 128 v7 _ w20 r co (by omega), tap_apply 128 v8 _ w21 r co (by omega), tap_apply 128 v9 _ w22 r co (by omega),
    broadcastTo_1b_ab_apply]

/-- The fourth tap's rows and matrix. -/
theorem pay6_apply (xa xb : Vec Ideal S1x14x64x256 .f32) (r : Fin 896) (ci : Fin 256) :
    k18_pay6 xa xb (ix2 r ci) = k18_pay2 xa xb (ix2 (⟨64 + r.val, by omega⟩ : Fin 1856) ci) := by
  unfold k18_pay6
  exact slice2_axis0_apply 64 _ _ r ci _ rfl

theorem pay7_apply (w10 : Vec Ideal S1x1x256x256 .f32) (ci : Fin 256) (co : Fin 256) :
    k18_pay7 w10 (ix2 ci co) = w10 (ix4 (0 : Fin 1) (0 : Fin 1) ci co) := by
  unfold k18_pay7
  exact tapmat_apply w10 ci co

/-- The clamp and the cut to 56 columns: entry (0, th, w, co) of the tile is row th·64 + w, column co. -/
theorem pay1_apply (v58 v59 : FVec Ideal S896x256 .f32) (th : Fin 14) (w : Fin 56) (co : Fin 256) :
    k18_pay1 v58 v59 (ix4 (0 : Fin 1) th w co)
      = max (v58 (ix2 (⟨th.val * 64 + w.val, by omega⟩ : Fin 896) co)) (v59 (ix2 (⟨th.val * 64 + w.val, by omega⟩ : Fin 896) co)) := by
  unfold k18_pay1
  refine (shapeCast_abc_1abc_apply _ _ (0 : Fin 1) th w co).trans ?_
  refine (slice3_axis1_apply 0 _ _ th w co (⟨w.val, by omega⟩ : Fin 64) (by simp)).trans ?_
  refine (shapeCast_apply _ _ _ (ix2 (⟨th.val * 64 + w.val, by omega⟩ : Fin 896) co) ?_).trans (maximumf_apply _ _ _)
  rw [Shape.rowMajor_val_two, Shape.rowMajor_val_three]
  rfl

theorem pay9_apply (j : S896x256.Idx) : k18_pay9 (F := Ideal) j = 0 := by
  unfold k18_pay9
  exact Ideal.ofBits_zero_f32

/-! ## The body's value at an entry -/

section Entry
variable (xa xb : Vec Ideal S1x14x64x256 .f32)

/-- Row (th+dy)·64 + (w+dx) of the stacked rows is pixel (th+dy, w+dx) of the stacked tiles. -/
theorem slab_tap (th : Fin 14) (w : Fin 56) (dy dx : Fin 3) (ci : Fin 256) (q : Fin 1856)
    (hq : q.val = (th.val + dy.val) * 64 + (w.val + dx.val)) :
    k18_pay2 xa xb (ix2 q ci)
      = tiles xa xb (⟨th.val + dy.val, by omega⟩ : Fin 28) (⟨w.val + dx.val, by omega⟩ : Fin 64) ci :=
  slab_apply xa xb _ _ ci q hq

/-- The nine tap matrices as one family. -/
def taps (w00 w01 w02 w10 w11 w12 w20 w21 w22 : Vec Ideal S1x1x256x256 .f32) (dy dx : Fin 3) : Vec Ideal S1x1x256x256 .f32 :=
  ![![w00, w01, w02], ![w10, w11, w12], ![w20, w21, w22]] dy dx

/-- One output entry of the body: the 3×3 correlation of the stacked tiles with the nine tap matrices over the 256
    input channels, plus the bias, clamped below at zero. -/
theorem conv_entry (w00 w01 w02 w10 w11 w12 w20 w21 w22 : Vec Ideal S1x1x256x256 .f32) (b : Vec Ideal S1x256 .f32)
    (th : Fin 14) (w : Fin 56) (co : Fin 256) :
    k18_pay1 (k18_pay8 (k18_pay2 xa xb) (k18_pay3 xa xb) (k18_pay4 xa xb) (k18_pay5 xa xb w00 w01 w02) (k18_pay6 xa xb)
        (k18_pay7 w10) w11 w12 w20 w21 w22 b) k18_pay9 (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 256,
      tiles xa xb (⟨th.val + dy.val, by omega⟩ : Fin 28) (⟨w.val + dx.val, by omega⟩ : Fin 64) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg18
-- ==== Proof.RI.Reg18Value.lean ====
import proofs.«143011_g2000502688546152_pallasbulk_1201_3_alg».proof.Proof.RI.Reg18
import proofs.«143011_g2000502688546152_pallasbulk_1201_3_alg».proof.Proof.RI.Reg18Pure

/-! # Region 18 at the extended reals: the output array is the 3×3 correlation, plus bias, clamped at zero

Point t = 4·n + r of the grid writes back the output's row tile r of image n. Its two input tiles are row tiles r and
r + 1 of the padded input, so row h + dy of the padded input, h = 14·r + th, is row th + dy of the two tiles stacked. -/

set_option maxRecDepth 16384

noncomputable section

namespace Cert.ReferenceIdeal.Reg18

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 70, 64, 256], the kernel [3, 3, 256, 256] and the bias [1, 256] as the region finds them. -/
abbrev xp (c : Dev nD) : S16x70x64x256.Idx → EReal := V c (Pipeline.arrRef spec18 0)
abbrev wk (c : Dev nD) : S3x3x256x256.Idx → EReal := V c (Pipeline.arrRef spec18 2)
abbrev bias (c : Dev nD) : S1x256.Idx → EReal := V c (Pipeline.arrRef spec18 3)

/-! ## The grid's points and the windows' block indices -/

theorem N_eq : cfg18.N = 64 := N_18

/-- The image and the row tile of point `t`. -/
def pn (t : Fin cfg18.N) : Fin 16 := ⟨t.val / 4, by have := t.isLt; have := N_eq; omega⟩
def pr (t : Fin cfg18.N) : Fin 4 := ⟨t.val % 4, Nat.mod_lt _ (by decide)⟩

/-- The five windows' block indices at every point: (n, r), (n, r + 1), the origin twice, (n, r). -/
theorem idx_facts : ∀ t : Fin cfg18.N,
    (win18_0.index t 0 = t.val / 4 ∧ win18_0.index t 1 = t.val % 4 ∧ win18_0.index t 2 = 0 ∧ win18_0.index t 3 = 0)
    ∧ (win18_1.index t 0 = t.val / 4 ∧ win18_1.index t 1 = t.val % 4 + 1 ∧ win18_1.index t 2 = 0 ∧ win18_1.index t 3 = 0)
    ∧ (win18_2.index t 0 = 0 ∧ win18_2.index t 1 = 0 ∧ win18_2.index t 2 = 0 ∧ win18_2.index t 3 = 0)
    ∧ (win18_3.index t 0 = 0 ∧ win18_3.index t 1 = 0)
    ∧ (win18_4.index t 0 = t.val / 4 ∧ win18_4.index t 1 = t.val % 4 ∧ win18_4.index t 2 = 0 ∧ win18_4.index t 3 = 0) :=
  (by decide +kernel : ∀ t : Fin grid18.N, _)

/-! ## The windows' blocks read at an index -/

/-- The first input tile at point (n, r): rows 14·r … of image n of the padded input. -/
theorem iblk0_apply (c : Dev nD) (t : Fin cfg18.N) (hh : Fin 14) (w' : Fin 64) (ci : Fin 256) :
    iblk V c 0 t (ix4 (0 : Fin 1) hh w' ci)
      = xp V c (ix4 (pn t) (⟨(pr t).val * 14 + hh.val, by have := (pr t).isLt; omega⟩ : Fin 70) w' ci) := by
  obtain ⟨⟨h0, h1, h2, h3⟩, -⟩ := idx_facts t
  unfold iblk
  rw [View.read_apply]
  show V c (Pipeline.arrRef spec18 0) _ = V c (Pipeline.arrRef spec18 0) _
  congr 1
  funext a
  apply Fin.ext
  match a with
  | ⟨0, _⟩ => show win18_0.index t 0 * 1 + 1 * 0 = t.val / 4; rw [h0]; omega
  | ⟨1, _⟩ => show win18_0.index t 1 * 14 + 1 * hh.val = t.val % 4 * 14 + hh.val; rw [h1]; omega
  | ⟨2, _⟩ => show win18_0.index t 2 * 64 + 1 * w'.val = w'.val; rw [h2]; omega
  | ⟨3, _⟩ => show win18_0.index t 3 * 256 + 1 * ci.val = ci.val; rw [h3]; omega

/-- The second input tile at point (n, r): rows 14·(r + 1) … of image n of the padded input. -/
theorem iblk1_apply (c : Dev nD) (t : Fin cfg18.N) (hh : Fin 14) (w' : Fin 64) (ci : Fin 256) :
    iblk V c 1 t (ix4 (0 : Fin 1) hh w' ci)
      = xp V c (ix4 (pn t) (⟨((pr t).val + 1) * 14 + hh.val, by have := (pr t).isLt; omega⟩ : Fin 70) w' ci) := by
  obtain ⟨-, ⟨h0, h1, h2, h3⟩, -⟩ := idx_facts t
  unfold iblk
  rw [View.read_apply]
  show V c (Pipeline.arrRef spec18 1) _ = V c (Pipeline.arrRef spec18 0) _
  congr 1
  funext a
  apply Fin.ext
  match a with
  | ⟨0, _⟩ => show win18_1.index t 0 * 1 + 1 * 0 = t.val / 4; rw [h0]; omega
  | ⟨1, _⟩ => show win18_1.index t 1 * 14 + 1 * hh.val = (t.val % 4 + 1) * 14 + hh.val; rw [h1]; omega
  | ⟨2, _⟩ => show win18_1.index t 2 * 64 + 1 * w'.val = w'.val; rw [h2]; omega
  | ⟨3, _⟩ => show win18_1.index t 3 * 256 + 1 * ci.val = ci.val; rw [h3]; omega

/-- The kernel window is the whole kernel array at every point. -/
theorem iblk2_apply (c : Dev nD) (t : Fin cfg18.N) (dy dx : Fin 3) (ci : Fin 256) (co : Fin 256) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec18 2) _ = V c (Pipeline.arrRef spec18 2) _
  congr 1
  funext a
  apply Fin.ext
  match a with
  | ⟨0, _⟩ => show win18_2.index t 0 * 3 + 1 * dy.val = dy.val; rw [h0]; omega
  | ⟨1, _⟩ => show win18_2.index t 1 * 3 + 1 * dx.val = dx.val; rw [h1]; omega
  | ⟨2, _⟩ => show win18_2.index t 2 * 256 + 1 * ci.val = ci.val; rw [h2]; omega
  | ⟨3, _⟩ => show win18_2.index t 3 * 256 + 1 * co.val = co.val; rw [h3]; omega

/-- The bias window is the whole bias row at every point. -/
theorem iblk3_apply (c : Dev nD) (t : Fin cfg18.N) (co : Fin 256) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec18 3) _ = V c (Pipeline.arrRef spec18 3) _
  congr 1
  funext a
  apply Fin.ext
  match a with
  | ⟨0, _⟩ => show win18_3.index t 0 * 1 + 1 * 0 = 0; rw [h0]
  | ⟨1, _⟩ => show win18_3.index t 1 * 256 + 1 * co.val = co.val; rw [h1]; omega

/-! ## The whole-array function and what a point writes back -/

/-- The correlation at (n, h, w, co): the sums nest dy, dx, ci. -/
def conv (c : Dev nD) (n : Fin 16) (h : Fin 56) (w : Fin 56) (co : Fin 256) : EReal :=
  max ((∑ dy : Fin 3, ∑ dx : Fin 3, ∑ ci : Fin 256,
          xp V c (ix4 n (⟨h.val + dy.val, by omega⟩ : Fin 70) (⟨w.val + dx.val, by omega⟩ : Fin 64) ci)
            * wk V c (ix4 dy dx ci co))
        + bias V c (ix2 (0 : Fin 1) co)) 0

/-- The output array the region is shown to leave. -/
def G (c : Dev nD) : Buf (Elt Ideal) ((c : Thread nD τ).loc main_v59) :=
  fun i : S16x56x56x256.Idx => conv V c (i 0) (i 1) (i 2) (i 3)

theorem G_apply (c : Dev nD) (i : S16x56x56x256.Idx) : G V c i = conv V c (i 0) (i 1) (i 2) (i 3) := rfl

theorem conv_congr (c : Dev nD) {n n' : Fin 16} {h h' : Fin 56} {w w' : Fin 56} {co co' : Fin 256}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 14·r … of image n of the padded input. -/
theorem tiles_eq (c : Dev nD) (t : Fin cfg18.N) (hh : Fin 28) (w' : Fin 64) (ci : Fin 256) :
    tiles (iblk V c 0 t) (iblk V c 1 t) hh w' ci
      = xp V c (ix4 (pn t) (⟨(pr t).val * 14 + hh.val, by have := (pr t).isLt; omega⟩ : Fin 70) w' ci) := by
  unfold tiles
  split
  · rename_i h
    exact iblk0_apply V c t ⟨hh.val, h⟩ w' ci
  · rename_i h
    rw [iblk1_apply V c t ⟨hh.val - 14, by omega⟩ w' ci]
    congr 2
    apply Fin.ext
    show ((pr t).val + 1) * 14 + (hh.val - 14) = (pr t).val * 14 + hh.val
    omega

/-- The nine loaded tap matrices are the kernel array's taps. -/
theorem taps_eq (c : Dev nD) (t : Fin cfg18.N) (dy dx : Fin 3) (ci : Fin 256) (co : Fin 256) :
    taps (View.ld (iblk V c 2 t) (tapRect 0 0 inb_S3x3x256x256_S1x1x256x256_0_0_0_0))
        (View.ld (iblk V c 2 t) (tapRect 0 1 inb_S3x3x256x256_S1x1x256x256_0_1_0_0))
        (View.ld (iblk V c 2 t) (tapRect 0 2 inb_S3x3x256x256_S1x1x256x256_0_2_0_0))
        (View.ld (iblk V c 2 t) (tapRect 1 0 inb_S3x3x256x256_S1x1x256x256_1_0_0_0))
        (View.ld (iblk V c 2 t) (tapRect 1 1 inb_S3x3x256x256_S1x1x256x256_1_1_0_0))
        (View.ld (iblk V c 2 t) (tapRect 1 2 inb_S3x3x256x256_S1x1x256x256_1_2_0_0))
        (View.ld (iblk V c 2 t) (tapRect 2 0 inb_S3x3x256x256_S1x1x256x256_2_0_0_0))
        (View.ld (iblk V c 2 t) (tapRect 2 1 inb_S3x3x256x256_S1x1x256x256_2_1_0_0))
        (View.ld (iblk V c 2 t) (tapRect 2 2 inb_S3x3x256x256_S1x1x256x256_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x14x64x256 .f32) (wk' : Vec Ideal S3x3x256x256 .f32) (b : Vec Ideal S1x256 .f32)
    (th : Fin 14) (w : Fin 56) (co : Fin 256) :
    out xa xb wk' b (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps (View.ld wk' (tapRect 0 0 inb_S3x3x256x256_S1x1x256x256_0_0_0_0))
                    (View.ld wk' (tapRect 0 1 inb_S3x3x256x256_S1x1x256x256_0_1_0_0))
                    (View.ld wk' (tapRect 0 2 inb_S3x3x256x256_S1x1x256x256_0_2_0_0))
                    (View.ld wk' (tapRect 1 0 inb_S3x3x256x256_S1x1x256x256_1_0_0_0))
                    (View.ld wk' (tapRect 1 1 inb_S3x3x256x256_S1x1x256x256_1_1_0_0))
                    (View.ld wk' (tapRect 1 2 inb_S3x3x256x256_S1x1x256x256_1_2_0_0))
                    (View.ld wk' (tapRect 2 0 inb_S3x3x256x256_S1x1x256x256_2_0_0_0))
                    (View.ld wk' (tapRect 2 1 inb_S3x3x256x256_S1x1x256x256_2_1_0_0))
                    (View.ld wk' (tapRect 2 2 inb_S3x3x256x256_S1x1x256x256_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg18.N) :
    (dat V c).flushed 4 t = ((cfg18.win 4).blk t).view.read (Elt Ideal) (G V c) := by
  show (cfg18.win 4).cut (grid18.coords t) ((dat V c).after 4 t) = _
  rw [after_4]
  funext x
  obtain ⟨u, th, w, co, rfl⟩ : ∃ (u : Fin 1) (th : Fin 14) (w : Fin 56) (co : Fin 256), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg18.win 4).blk t).view.emb (ix4 (0 : Fin 1) th w co))
      = conv V c (pn t) (⟨(pr t).val * 14 + th.val, by have := (pr t).isLt; omega⟩ : Fin 56) w co :=
    (G_apply V c _).trans (conv_congr V c
      (Fin.ext (by show win18_4.index t 0 * 1 + 1 * 0 = t.val / 4; rw [h0]; omega))
      (Fin.ext (by show win18_4.index t 1 * 14 + 1 * th.val = t.val % 4 * 14 + th.val; rw [h1]; omega))
      (Fin.ext (by show win18_4.index t 2 * 56 + 1 * w.val = w.val; rw [h2]; omega))
      (Fin.ext (by show win18_4.index t 3 * 256 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 14 + (th.val + dy.val) = (pr t).val * 14 + th.val + dy.val
  omega

/-! ## The output's row tiles cover it -/

/-- An index of the output array is in point `t`'s block when its image and row tile are `t`'s. -/
theorem mem_blk (t : Fin cfg18.N) (i : S16x56x56x256.Idx) :
    i ∈ ((cfg18.win 4).blk t).view.set ↔ (i 0 : Nat) = t.val / 4 ∧ t.val % 4 * 14 ≤ (i 1 : Nat) ∧ (i 1 : Nat) < t.val % 4 * 14 + 14 := by
  show i ∈ ((View.whole main_v59).slice (win18_4.rect t)).set ↔ _
  rw [View.set_slice_whole, Rect.mem_set_unit]
  obtain ⟨-, -, -, -, ⟨h0, h1, h2, h3⟩⟩ := idx_facts t
  have b2 : (i 2 : Nat) < 56 := (i 2).isLt
  have b3 : (i 3 : Nat) < 256 := (i 3).isLt
  have e0 : win18_4.index t 0 * win18_4.size 0 = t.val / 4 := by rw [h0]; show t.val / 4 * 1 = _; omega
  have e1 : win18_4.index t 1 * win18_4.size 1 = t.val % 4 * 14 := by rw [h1]; rfl
  have e2 : win18_4.index t 2 * win18_4.size 2 = 0 := by rw [h2]; rfl
  have e3 : win18_4.index t 3 * win18_4.size 3 = 0 := by rw [h3]; rfl
  have x0 : win18_4.xsize (grid18.coords t) 0 = 1 := rfl
  have x1 : win18_4.xsize (grid18.coords t) 1 = 14 := rfl
  have x2 : win18_4.xsize (grid18.coords t) 2 = 56 := rfl
  have x3 : win18_4.xsize (grid18.coords t) 3 = 256 := rfl
  refine ⟨fun h => ?_, fun h a => ?_⟩
  · have a0 := h 0; have a1 := h 1
    rw [e0, x0] at a0; rw [e1, x1] at a1
    exact ⟨by omega, a1⟩
  · match a with
    | ⟨0, _⟩ => show win18_4.index t 0 * win18_4.size 0 ≤ (i 0 : Nat) ∧ (i 0 : Nat) < win18_4.index t 0 * win18_4.size 0 + win18_4.xsize (grid18.coords t) 0
                rw [e0, x0]; omega
    | ⟨1, _⟩ => show win18_4.index t 1 * win18_4.size 1 ≤ (i 1 : Nat) ∧ (i 1 : Nat) < win18_4.index t 1 * win18_4.size 1 + win18_4.xsize (grid18.coords t) 1
                rw [e1, x1]; exact h.2
    | ⟨2, _⟩ => show win18_4.index t 2 * win18_4.size 2 ≤ (i 2 : Nat) ∧ (i 2 : Nat) < win18_4.index t 2 * win18_4.size 2 + win18_4.xsize (grid18.coords t) 2
                rw [e2, x2]; omega
    | ⟨3, _⟩ => show win18_4.index t 3 * win18_4.size 3 ≤ (i 3 : Nat) ∧ (i 3 : Nat) < win18_4.index t 3 * win18_4.size 3 + win18_4.xsize (grid18.coords t) 3
                rw [e3, x3]; omega

/-- Every index of the output array is in the block of the point of its image and row tile. -/
theorem cover (i : S16x56x56x256.Idx) :
    ∃ t : Fin cfg18.N, (cfg18.win 4).flush t = true ∧ i ∈ ((cfg18.win 4).blk t).view.set := by
  have b0 : (i 0 : Nat) < 16 := (i 0).isLt
  have b1 : (i 1 : Nat) < 56 := (i 1).isLt
  refine ⟨⟨(i 0 : Nat) * 4 + (i 1 : Nat) / 14, by rw [N_eq]; omega⟩, flush18_4 _, ?_⟩
  rw [mem_blk]
  dsimp only
  omega

/-- The output array after the last grid point is `G`. -/
theorem final_out (c : Dev nD) : (dat V c).arrAt 4 cfg18.N = G V c :=
  (dat V c).arrAt_eq_of_cover 4 (G V c) (fun t _ => flushed_eq V c t) cover

/-- The output array after the last grid point: at (n, h, w, co) the 3×3 correlation of the padded input with the
    kernel over the 256 input channels, plus the bias, clamped below at zero. The sums nest dy, dx, ci. -/
theorem out_value (c : Dev nD) (n : Fin 16) (h : Fin 56) (w : Fin 56) (co : Fin 256) :
    (dat V c).arrAt 4 cfg18.N (ix4 n h w co)
      = max ((∑ dy : Fin 3, ∑ dx : Fin 3, ∑ ci : Fin 256,
                xp V c (ix4 n (⟨h.val + dy.val, by omega⟩ : Fin 70) (⟨w.val + dx.val, by omega⟩ : Fin 64) ci)
                  * wk V c (ix4 dy dx ci co))
              + bias V c (ix2 (0 : Fin 1) co)) 0 := by
  rw [final_out]
  rfl

end Cert.ReferenceIdeal.Reg18
-- ==== Proof.RI.Val18.lean ====
import proofs.«143011_g2000502688546152_pallasbulk_1201_3_alg».proof.Proof.RI.Seg18
import proofs.«143011_g2000502688546152_pallasbulk_1201_3_alg».proof.Proof.RI.Reg18Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg18

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 56 56 256)
    (hx : ∀ (n : Fin 16) (i : Fin 70) (j : Fin 64) (ci : Fin 256),
      (W c (Proc.devRef .tc (Pipeline.arrRef spec18 0)) : FVec 𝕀 S16x70x64x256 .f32) (ix4 n i j ci) = Cert.Spec.padAt z n i.val j.val ci) :
    Cert.Spec.curry4 (Wout W c (Proc.devRef .tc (Pipeline.arrRef spec18 4)) : FVec 𝕀 S16x56x56x256 .f32)
      = Cert.Spec.convRelu z (Cert.Spec.curryW (W c (Proc.devRef .tc (Pipeline.arrRef spec18 2)) : FVec 𝕀 S3x3x256x256 .f32))
          (Cert.Spec.curryB (W c (Proc.devRef .tc (Pipeline.arrRef spec18 3)) : FVec 𝕀 S1x256 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg18

end
-- ==== Proof.RI.Reg19Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (14·64 each, then 64 zero rows), and for each tap (dy, dx)
multiplies the rows shifted by 64·dy + dx with the tap's [256, 256] matrix. Read at row th·64 + w and column co, the nine
products add up to the 3×3 correlation at pixel (th, w), output channel co. -/

set_option maxRecDepth 16384

noncomputable section

namespace Cert.ReferenceIdeal.Reg19

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [896, 256] by [256, 256] product into the zero accumulator, at (r, co): the sum over the 256 input channels. -/
theorem mm_apply (L : FVec Ideal S896x256 .f32) (R : FVec Ideal S256x256 .f32) (r : Fin 896) (co : Fin 256) :
    matmul dot_S896x256_S256x256_S896x256_1_0_0_1_n_n none L R (constant S896x256 .f32 0x00000000#32) (ix2 r co)
      = ∑ ci : Fin 256, L (ix2 r ci) * R (ix2 ci co) := by
  refine (Ideal.matmul_constant_zero_apply _ _ _ _ _).trans ?_
  refine (Equiv.sum_comp (contrEquiv1 dot_S896x256_S256x256_S896x256_1_0_0_1_n_n 256 rfl rfl).symm _).symm.trans ?_
  refine Finset.sum_congr rfl fun ci _ => ?_
  have hl : dot_S896x256_S256x256_S896x256_1_0_0_1_n_n.lhsIdx (ix2 r co)
      ((contrEquiv1 dot_S896x256_S256x256_S896x256_1_0_0_1_n_n 256 rfl rfl).symm ci) = ix2 r ci := by
    funext a; apply Fin.ext
    match a with
    | ⟨0, _⟩ => rfl
    | ⟨1, _⟩ => exact contrEquiv1_symm_val dot_S896x256_S256x256_S896x256_1_0_0_1_n_n 256 rfl rfl ci
  have hr : dot_S896x256_S256x256_S896x256_1_0_0_1_n_n.rhsIdx (ix2 r co)
      ((contrEquiv1 dot_S896x256_S256x256_S896x256_1_0_0_1_n_n 256 rfl rfl).symm ci) = ix2 ci co := by
    funext a; apply Fin.ext
    match a with
    | ⟨0, _⟩ => exact contrEquiv1_symm_val dot_S896x256_S256x256_S896x256_1_0_0_1_n_n 256 rfl rfl ci
    | ⟨1, _⟩ => rfl
  rw [hl, hr]

/-! ## The stacked rows -/

section Slab
variable (xa xb : Vec Ideal S1x14x64x256 .f32)

/-- Pixel (hh, w') of the two tiles stacked one above the other, hh < 28. -/
def tiles (hh : Fin 28) (w' : Fin 64) (ci : Fin 256) : EReal :=
  if h : hh.val < 14 then xa (ix4 (0 : Fin 1) (⟨hh.val, h⟩ : Fin 14) w' ci)
  else xb (ix4 (0 : Fin 1) (⟨hh.val - 14, by omega⟩ : Fin 14) w' ci)

/-- Row hh·64 + w' of the first 896 rows is pixel (hh, w') of the first tile. -/
theorem slab_lo (hh : Fin 14) (w' : Fin 64) (ci : Fin 256) (q : Fin 1856) (hq : q.val = hh.val * 64 + w'.val) :
    k19_pay2 xa xb (ix2 q ci) = xa (ix4 (0 : Fin 1) hh w' ci) := by
  unfold k19_pay2
  have hq' : q.val < 896 := by have := hh.isLt; have := w'.isLt; omega
  refine Eq.trans (concatenate_apply_piece (0 : Fin 2) _ _ (ix2 q ci) 0 ?_ S896x256
    (shapeCast S896x256 (shapeCast S14x64x256 xa shapeCasts_S1x14x64x256_S14x64x256) shapeCasts_S14x64x256_S896x256) ?_ ?_ 0 ?_
    (ix2 (⟨q.val, hq'⟩ : Fin 896) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = q.val * 256 + ci.val
      rw [hq]
    · rw [Shape.rowMajor_val_four, Shape.rowMajor_val_three]
      show ((0 * 14 + hh.val) * 64 + w'.val) * 256 + ci.val = (hh.val * 64 + w'.val) * 256 + ci.val
      omega

/-- Row 896 + hh·64 + w' is pixel (hh, w') of the second tile. -/
theorem slab_hi (hh : Fin 14) (w' : Fin 64) (ci : Fin 256) (q : Fin 1856) (hq : q.val = 896 + (hh.val * 64 + w'.val)) :
    k19_pay2 xa xb (ix2 q ci) = xb (ix4 (0 : Fin 1) hh w' ci) := by
  unfold k19_pay2
  have hq' : q.val - 896 < 896 := by have := hh.isLt; have := w'.isLt; omega
  refine Eq.trans (concatenate_apply_piece (0 : Fin 2) _ _ (ix2 q ci) 1 ?_ S896x256
    (shapeCast S896x256 (shapeCast S14x64x256 xb shapeCasts_S1x14x64x256_S14x64x256) shapeCasts_S14x64x256_S896x256) ?_ ?_ 896 ?_
    (ix2 (⟨q.val - 896, hq'⟩ : Fin 896) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 896 + (q.val - 896) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 64 + w'.val) * 256 + ci.val = (q.val - 896) * 256 + ci.val
      omega
    · rw [Shape.rowMajor_val_four, Shape.rowMajor_val_three]
      show ((0 * 14 + hh.val) * 64 + w'.val) * 256 + ci.val = (hh.val * 64 + w'.val) * 256 + ci.val
      omega

/-- Row hh·64 + w', hh < 28, of the stacked rows is pixel (hh, w') of the stacked tiles. -/
theorem slab_apply (hh : Fin 28) (w' : Fin 64) (ci : Fin 256) (q : Fin 1856) (hq : q.val = hh.val * 64 + w'.val) :
    k19_pay2 xa xb (ix2 q ci) = tiles xa xb hh w' ci := by
  unfold tiles
  split
  · rename_i h; exact slab_lo xa xb ⟨hh.val, h⟩ w' ci q hq
  · rename_i h; exact slab_hi xa xb ⟨hh.val - 14, by omega⟩ w' ci q (by show q.val = 896 + ((hh.val - 14) * 64 + w'.val); omega)

end Slab

/-! ## A tap's product read at an entry -/

/-- A tap matrix [1, 1, 256, 256] flattened to [256, 256], at (ci, co). -/
theorem tapmat_apply (Wt : Vec Ideal S1x1x256x256 .f32) (ci : Fin 256) (co : Fin 256) :
    (shapeCast S256x256 Wt shapeCasts_S1x1x256x256_S256x256 : FVec Ideal S256x256 .f32) (ix2 ci co) = Wt (ix4 (0 : Fin 1) (0 : Fin 1) ci co) := by
  refine shapeCast_apply _ _ _ _ ?_
  rw [Shape.rowMajor_val_four, Shape.rowMajor_val_two]
  show ((0 * 1 + 0) * 256 + ci.val) * 256 + co.val = ci.val * 256 + co.val
  omega

/-- Rows o, o+1, … of a matrix of n0 rows against a flattened tap matrix, at (r, co): the sum over the 256 input
    channels of row o + r times the tap's column co. -/
theorem tap_apply {n0 : Nat} (o : Nat) (X : FVec Ideal ⟨2, ![n0, 256]⟩ .f32)
    (h : (⟨2, ![n0, 256]⟩ : Shape).Slices ![o, 0] S896x256) (Wt : Vec Ideal S1x1x256x256 .f32)
    (r : Fin 896) (co : Fin 256) (hk : o + 895 < n0) :
    matmul dot_S896x256_S256x256_S896x256_1_0_0_1_n_n none (extractStridedSlice S896x256 ![o, 0] X h : FVec Ideal S896x256 .f32)
        (shapeCast S256x256 Wt shapeCasts_S1x1x256x256_S256x256 : FVec Ideal S256x256 .f32) (constant S896x256 .f32 0x00000000#32) (ix2 r co)
      = ∑ ci : Fin 256, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x14x64x256 .f32)

/-- The rows from the second on. -/
theorem pay3_apply (q : Fin 1855) (ci : Fin 256) :
    k19_pay3 xa xb (ix2 q ci) = k19_pay2 xa xb (ix2 (⟨1 + q.val, by omega⟩ : Fin 1856) ci) := by
  unfold k19_pay3
  exact slice2_axis0_apply 1 _ _ q ci _ rfl

/-- The rows from the third on. -/
theorem pay4_apply (q : Fin 1854) (ci : Fin 256) :
    k19_pay4 xa xb (ix2 q ci) = k19_pay2 xa xb (ix2 (⟨2 + q.val, by omega⟩ : Fin 1856) ci) := by
  unfold k19_pay4
  exact slice2_axis0_apply 2 _ _ q ci _ rfl

end Shift

/-! ## The accumulations -/

/-- The first three taps added onto zero. -/
theorem pay5_apply (xa xb : Vec Ideal S1x14x64x256 .f32) (w00 w01 w02 : Vec Ideal S1x1x256x256 .f32) (r : Fin 896) (co : Fin 256) :
    k19_pay5 xa xb w00 w01 w02 (ix2 r co)
      = 0 + (∑ ci : Fin 256, k19_pay2 xa xb (ix2 (⟨0 + r.val, by omega⟩ : Fin 1856) ci) * w00 (ix4 (0 : Fin 1) (0 : Fin 1) ci co))
          + (∑ ci : Fin 256, k19_pay3 xa xb (ix2 (⟨0 + r.val, by omega⟩ : Fin 1855) ci) * w01 (ix4 (0 : Fin 1) (0 : Fin 1) ci co))
          + (∑ ci : Fin 256, k19_pay4 xa xb (ix2 (⟨0 + r.val, by omega⟩ : Fin 1854) ci) * w02 (ix4 (0 : Fin 1) (0 : Fin 1) ci co)) := by
  unfold k19_pay5
  simp only [addf_apply]
  rw [tap_apply 0 (k19_pay2 xa xb) _ w00 r co (by omega), tap_apply 0 (k19_pay3 xa xb) _ w01 r co (by omega),
    tap_apply 0 (k19_pay4 xa xb) _ w02 r co (by omega)]
  congr 3
  exact Ideal.ofBits_zero_f32

/-- The other six taps and the bias added onto what the first three left. -/
theorem pay8_apply (v7 : FVec Ideal S1856x256 .f32) (v8 : FVec Ideal S1855x256 .f32) (v9 : FVec Ideal S1854x256 .f32)
    (v25 : FVec Ideal S896x256 .f32) (v26 : FVec Ideal S896x256 .f32) (v28 : FVec Ideal S256x256 .f32)
    (w11 w12 w20 w21 w22 : Vec Ideal S1x1x256x256 .f32) (b : Vec Ideal S1x256 .f32) (r : Fin 896) (co : Fin 256) :
    k19_pay8 v7 v8 v9 v25 v26 v28 w11 w12 w20 w21 w22 b (ix2 r co)
      = v25 (ix2 r co) + (∑ ci : Fin 256, v26 (ix2 r ci) * v28 (ix2 ci co))
          + (∑ ci : Fin 256, v8 (ix2 (⟨64 + r.val, by omega⟩ : Fin 1855) ci) * w11 (ix4 (0 : Fin 1) (0 : Fin 1) ci co))
          + (∑ ci : Fin 256, v9 (ix2 (⟨64 + r.val, by omega⟩ : Fin 1854) ci) * w12 (ix4 (0 : Fin 1) (0 : Fin 1) ci co))
          + (∑ ci : Fin 256, v7 (ix2 (⟨128 + r.val, by omega⟩ : Fin 1856) ci) * w20 (ix4 (0 : Fin 1) (0 : Fin 1) ci co))
          + (∑ ci : Fin 256, v8 (ix2 (⟨128 + r.val, by omega⟩ : Fin 1855) ci) * w21 (ix4 (0 : Fin 1) (0 : Fin 1) ci co))
          + (∑ ci : Fin 256, v9 (ix2 (⟨128 + r.val, by omega⟩ : Fin 1854) ci) * w22 (ix4 (0 : Fin 1) (0 : Fin 1) ci co))
          + b (ix2 (0 : Fin 1) co) := by
  unfold k19_pay8
  simp only [addf_apply]
  rw [mm_apply, tap_apply 64 v8 _ w11 r co (by omega), tap_apply 64 v9 _ w12 r co (by omega),
    tap_apply 128 v7 _ w20 r co (by omega), tap_apply 128 v8 _ w21 r co (by omega), tap_apply 128 v9 _ w22 r co (by omega),
    broadcastTo_1b_ab_apply]

/-- The fourth tap's rows and matrix. -/
theorem pay6_apply (xa xb : Vec Ideal S1x14x64x256 .f32) (r : Fin 896) (ci : Fin 256) :
    k19_pay6 xa xb (ix2 r ci) = k19_pay2 xa xb (ix2 (⟨64 + r.val, by omega⟩ : Fin 1856) ci) := by
  unfold k19_pay6
  exact slice2_axis0_apply 64 _ _ r ci _ rfl

theorem pay7_apply (w10 : Vec Ideal S1x1x256x256 .f32) (ci : Fin 256) (co : Fin 256) :
    k19_pay7 w10 (ix2 ci co) = w10 (ix4 (0 : Fin 1) (0 : Fin 1) ci co) := by
  unfold k19_pay7
  exact tapmat_apply w10 ci co

/-- The clamp and the cut to 56 columns: entry (0, th, w, co) of the tile is row th·64 + w, column co. -/
theorem pay1_apply (v58 v59 : FVec Ideal S896x256 .f32) (th : Fin 14) (w : Fin 56) (co : Fin 256) :
    k19_pay1 v58 v59 (ix4 (0 : Fin 1) th w co)
      = max (v58 (ix2 (⟨th.val * 64 + w.val, by omega⟩ : Fin 896) co)) (v59 (ix2 (⟨th.val * 64 + w.val, by omega⟩ : Fin 896) co)) := by
  unfold k19_pay1
  refine (shapeCast_abc_1abc_apply _ _ (0 : Fin 1) th w co).trans ?_
  refine (slice3_axis1_apply 0 _ _ th w co (⟨w.val, by omega⟩ : Fin 64) (by simp)).trans ?_
  refine (shapeCast_apply _ _ _ (ix2 (⟨th.val * 64 + w.val, by omega⟩ : Fin 896) co) ?_).trans (maximumf_apply _ _ _)
  rw [Shape.rowMajor_val_two, Shape.rowMajor_val_three]
  rfl

theorem pay9_apply (j : S896x256.Idx) : k19_pay9 (F := Ideal) j = 0 := by
  unfold k19_pay9
  exact Ideal.ofBits_zero_f32

/-! ## The body's value at an entry -/

section Entry
variable (xa xb : Vec Ideal S1x14x64x256 .f32)

/-- Row (th+dy)·64 + (w+dx) of the stacked rows is pixel (th+dy, w+dx) of the stacked tiles. -/
theorem slab_tap (th : Fin 14) (w : Fin 56) (dy dx : Fin 3) (ci : Fin 256) (q : Fin 1856)
    (hq : q.val = (th.val + dy.val) * 64 + (w.val + dx.val)) :
    k19_pay2 xa xb (ix2 q ci)
      = tiles xa xb (⟨th.val + dy.val, by omega⟩ : Fin 28) (⟨w.val + dx.val, by omega⟩ : Fin 64) ci :=
  slab_apply xa xb _ _ ci q hq

/-- The nine tap matrices as one family. -/
def taps (w00 w01 w02 w10 w11 w12 w20 w21 w22 : Vec Ideal S1x1x256x256 .f32) (dy dx : Fin 3) : Vec Ideal S1x1x256x256 .f32 :=
  ![![w00, w01, w02], ![w10, w11, w12], ![w20, w21, w22]] dy dx

/-- One output entry of the body: the 3×3 correlation of the stacked tiles with the nine tap matrices over the 256
    input channels, plus the bias, clamped below at zero. -/
theorem conv_entry (w00 w01 w02 w10 w11 w12 w20 w21 w22 : Vec Ideal S1x1x256x256 .f32) (b : Vec Ideal S1x256 .f32)
    (th : Fin 14) (w : Fin 56) (co : Fin 256) :
    k19_pay1 (k19_pay8 (k19_pay2 xa xb) (k19_pay3 xa xb) (k19_pay4 xa xb) (k19_pay5 xa xb w00 w01 w02) (k19_pay6 xa xb)
        (k19_pay7 w10) w11 w12 w20 w21 w22 b) k19_pay9 (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 256,
      tiles xa xb (⟨th.val + dy.val, by omega⟩ : Fin 28) (⟨w.val + dx.val, by omega⟩ : Fin 64) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg19
-- ==== Proof.RI.Reg19Value.lean ====
import proofs.«143011_g2000502688546152_pallasbulk_1201_3_alg».proof.Proof.RI.Reg19
import proofs.«143011_g2000502688546152_pallasbulk_1201_3_alg».proof.Proof.RI.Reg19Pure

/-! # Region 19 at the extended reals: the output array is the 3×3 correlation, plus bias, clamped at zero

Point t = 4·n + r of the grid writes back the output's row tile r of image n. Its two input tiles are row tiles r and
r + 1 of the padded input, so row h + dy of the padded input, h = 14·r + th, is row th + dy of the two tiles stacked. -/

set_option maxRecDepth 16384

noncomputable section

namespace Cert.ReferenceIdeal.Reg19

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 70, 64, 256], the kernel [3, 3, 256, 256] and the bias [1, 256] as the region finds them. -/
abbrev xp (c : Dev nD) : S16x70x64x256.Idx → EReal := V c (Pipeline.arrRef spec19 0)
abbrev wk (c : Dev nD) : S3x3x256x256.Idx → EReal := V c (Pipeline.arrRef spec19 2)
abbrev bias (c : Dev nD) : S1x256.Idx → EReal := V c (Pipeline.arrRef spec19 3)

/-! ## The grid's points and the windows' block indices -/

theorem N_eq : cfg19.N = 64 := N_19

/-- The image and the row tile of point `t`. -/
def pn (t : Fin cfg19.N) : Fin 16 := ⟨t.val / 4, by have := t.isLt; have := N_eq; omega⟩
def pr (t : Fin cfg19.N) : Fin 4 := ⟨t.val % 4, Nat.mod_lt _ (by decide)⟩

/-- The five windows' block indices at every point: (n, r), (n, r + 1), the origin twice, (n, r). -/
theorem idx_facts : ∀ t : Fin cfg19.N,
    (win19_0.index t 0 = t.val / 4 ∧ win19_0.index t 1 = t.val % 4 ∧ win19_0.index t 2 = 0 ∧ win19_0.index t 3 = 0)
    ∧ (win19_1.index t 0 = t.val / 4 ∧ win19_1.index t 1 = t.val % 4 + 1 ∧ win19_1.index t 2 = 0 ∧ win19_1.index t 3 = 0)
    ∧ (win19_2.index t 0 = 0 ∧ win19_2.index t 1 = 0 ∧ win19_2.index t 2 = 0 ∧ win19_2.index t 3 = 0)
    ∧ (win19_3.index t 0 = 0 ∧ win19_3.index t 1 = 0)
    ∧ (win19_4.index t 0 = t.val / 4 ∧ win19_4.index t 1 = t.val % 4 ∧ win19_4.index t 2 = 0 ∧ win19_4.index t 3 = 0) :=
  (by decide +kernel : ∀ t : Fin grid19.N, _)

/-! ## The windows' blocks read at an index -/

/-- The first input tile at point (n, r): rows 14·r … of image n of the padded input. -/
theorem iblk0_apply (c : Dev nD) (t : Fin cfg19.N) (hh : Fin 14) (w' : Fin 64) (ci : Fin 256) :
    iblk V c 0 t (ix4 (0 : Fin 1) hh w' ci)
      = xp V c (ix4 (pn t) (⟨(pr t).val * 14 + hh.val, by have := (pr t).isLt; omega⟩ : Fin 70) w' ci) := by
  obtain ⟨⟨h0, h1, h2, h3⟩, -⟩ := idx_facts t
  unfold iblk
  rw [View.read_apply]
  show V c (Pipeline.arrRef spec19 0) _ = V c (Pipeline.arrRef spec19 0) _
  congr 1
  funext a
  apply Fin.ext
  match a with
  | ⟨0, _⟩ => show win19_0.index t 0 * 1 + 1 * 0 = t.val / 4; rw [h0]; omega
  | ⟨1, _⟩ => show win19_0.index t 1 * 14 + 1 * hh.val = t.val % 4 * 14 + hh.val; rw [h1]; omega
  | ⟨2, _⟩ => show win19_0.index t 2 * 64 + 1 * w'.val = w'.val; rw [h2]; omega
  | ⟨3, _⟩ => show win19_0.index t 3 * 256 + 1 * ci.val = ci.val; rw [h3]; omega

/-- The second input tile at point (n, r): rows 14·(r + 1) … of image n of the padded input. -/
theorem iblk1_apply (c : Dev nD) (t : Fin cfg19.N) (hh : Fin 14) (w' : Fin 64) (ci : Fin 256) :
    iblk V c 1 t (ix4 (0 : Fin 1) hh w' ci)
      = xp V c (ix4 (pn t) (⟨((pr t).val + 1) * 14 + hh.val, by have := (pr t).isLt; omega⟩ : Fin 70) w' ci) := by
  obtain ⟨-, ⟨h0, h1, h2, h3⟩, -⟩ := idx_facts t
  unfold iblk
  rw [View.read_apply]
  show V c (Pipeline.arrRef spec19 1) _ = V c (Pipeline.arrRef spec19 0) _
  congr 1
  funext a
  apply Fin.ext
  match a with
  | ⟨0, _⟩ => show win19_1.index t 0 * 1 + 1 * 0 = t.val / 4; rw [h0]; omega
  | ⟨1, _⟩ => show win19_1.index t 1 * 14 + 1 * hh.val = (t.val % 4 + 1) * 14 + hh.val; rw [h1]; omega
  | ⟨2, _⟩ => show win19_1.index t 2 * 64 + 1 * w'.val = w'.val; rw [h2]; omega
  | ⟨3, _⟩ => show win19_1.index t 3 * 256 + 1 * ci.val = ci.val; rw [h3]; omega

/-- The kernel window is the whole kernel array at every point. -/
theorem iblk2_apply (c : Dev nD) (t : Fin cfg19.N) (dy dx : Fin 3) (ci : Fin 256) (co : Fin 256) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec19 2) _ = V c (Pipeline.arrRef spec19 2) _
  congr 1
  funext a
  apply Fin.ext
  match a with
  | ⟨0, _⟩ => show win19_2.index t 0 * 3 + 1 * dy.val = dy.val; rw [h0]; omega
  | ⟨1, _⟩ => show win19_2.index t 1 * 3 + 1 * dx.val = dx.val; rw [h1]; omega
  | ⟨2, _⟩ => show win19_2.index t 2 * 256 + 1 * ci.val = ci.val; rw [h2]; omega
  | ⟨3, _⟩ => show win19_2.index t 3 * 256 + 1 * co.val = co.val; rw [h3]; omega

/-- The bias window is the whole bias row at every point. -/
theorem iblk3_apply (c : Dev nD) (t : Fin cfg19.N) (co : Fin 256) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec19 3) _ = V c (Pipeline.arrRef spec19 3) _
  congr 1
  funext a
  apply Fin.ext
  match a with
  | ⟨0, _⟩ => show win19_3.index t 0 * 1 + 1 * 0 = 0; rw [h0]
  | ⟨1, _⟩ => show win19_3.index t 1 * 256 + 1 * co.val = co.val; rw [h1]; omega

/-! ## The whole-array function and what a point writes back -/

/-- The correlation at (n, h, w, co): the sums nest dy, dx, ci. -/
def conv (c : Dev nD) (n : Fin 16) (h : Fin 56) (w : Fin 56) (co : Fin 256) : EReal :=
  max ((∑ dy : Fin 3, ∑ dx : Fin 3, ∑ ci : Fin 256,
          xp V c (ix4 n (⟨h.val + dy.val, by omega⟩ : Fin 70) (⟨w.val + dx.val, by omega⟩ : Fin 64) ci)
            * wk V c (ix4 dy dx ci co))
        + bias V c (ix2 (0 : Fin 1) co)) 0

/-- The output array the region is shown to leave. -/
def G (c : Dev nD) : Buf (Elt Ideal) ((c : Thread nD τ).loc main_v61) :=
  fun i : S16x56x56x256.Idx => conv V c (i 0) (i 1) (i 2) (i 3)

theorem G_apply (c : Dev nD) (i : S16x56x56x256.Idx) : G V c i = conv V c (i 0) (i 1) (i 2) (i 3) := rfl

theorem conv_congr (c : Dev nD) {n n' : Fin 16} {h h' : Fin 56} {w w' : Fin 56} {co co' : Fin 256}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 14·r … of image n of the padded input. -/
theorem tiles_eq (c : Dev nD) (t : Fin cfg19.N) (hh : Fin 28) (w' : Fin 64) (ci : Fin 256) :
    tiles (iblk V c 0 t) (iblk V c 1 t) hh w' ci
      = xp V c (ix4 (pn t) (⟨(pr t).val * 14 + hh.val, by have := (pr t).isLt; omega⟩ : Fin 70) w' ci) := by
  unfold tiles
  split
  · rename_i h
    exact iblk0_apply V c t ⟨hh.val, h⟩ w' ci
  · rename_i h
    rw [iblk1_apply V c t ⟨hh.val - 14, by omega⟩ w' ci]
    congr 2
    apply Fin.ext
    show ((pr t).val + 1) * 14 + (hh.val - 14) = (pr t).val * 14 + hh.val
    omega

/-- The nine loaded tap matrices are the kernel array's taps. -/
theorem taps_eq (c : Dev nD) (t : Fin cfg19.N) (dy dx : Fin 3) (ci : Fin 256) (co : Fin 256) :
    taps (View.ld (iblk V c 2 t) (tapRect 0 0 inb_S3x3x256x256_S1x1x256x256_0_0_0_0))
        (View.ld (iblk V c 2 t) (tapRect 0 1 inb_S3x3x256x256_S1x1x256x256_0_1_0_0))
        (View.ld (iblk V c 2 t) (tapRect 0 2 inb_S3x3x256x256_S1x1x256x256_0_2_0_0))
        (View.ld (iblk V c 2 t) (tapRect 1 0 inb_S3x3x256x256_S1x1x256x256_1_0_0_0))
        (View.ld (iblk V c 2 t) (tapRect 1 1 inb_S3x3x256x256_S1x1x256x256_1_1_0_0))
        (View.ld (iblk V c 2 t) (tapRect 1 2 inb_S3x3x256x256_S1x1x256x256_1_2_0_0))
        (View.ld (iblk V c 2 t) (tapRect 2 0 inb_S3x3x256x256_S1x1x256x256_2_0_0_0))
        (View.ld (iblk V c 2 t) (tapRect 2 1 inb_S3x3x256x256_S1x1x256x256_2_1_0_0))
        (View.ld (iblk V c 2 t) (tapRect 2 2 inb_S3x3x256x256_S1x1x256x256_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x14x64x256 .f32) (wk' : Vec Ideal S3x3x256x256 .f32) (b : Vec Ideal S1x256 .f32)
    (th : Fin 14) (w : Fin 56) (co : Fin 256) :
    out xa xb wk' b (ix4 (0 : Fin 1) th w co)
      = max ((∑ dy : Fin 3, ∑ dx : Fin 3, ∑ ci : Fin 256,
              tiles xa xb (⟨th.val + dy.val, by omega⟩ : Fin 28) (⟨w.val + dx.val, by omega⟩ : Fin 64) ci
                * taps (View.ld wk' (tapRect 0 0 inb_S3x3x256x256_S1x1x256x256_0_0_0_0))
                    (View.ld wk' (tapRect 0 1 inb_S3x3x256x256_S1x1x256x256_0_1_0_0))
                    (View.ld wk' (tapRect 0 2 inb_S3x3x256x256_S1x1x256x256_0_2_0_0))
                    (View.ld wk' (tapRect 1 0 inb_S3x3x256x256_S1x1x256x256_1_0_0_0))
                    (View.ld wk' (tapRect 1 1 inb_S3x3x256x256_S1x1x256x256_1_1_0_0))
                    (View.ld wk' (tapRect 1 2 inb_S3x3x256x256_S1x1x256x256_1_2_0_0))
                    (View.ld wk' (tapRect 2 0 inb_S3x3x256x256_S1x1x256x256_2_0_0_0))
                    (View.ld wk' (tapRect 2 1 inb_S3x3x256x256_S1x1x256x256_2_1_0_0))
                    (View.ld wk' (tapRect 2 2 inb_S3x3x256x256_S1x1x256x256_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg19.N) :
    (dat V c).flushed 4 t = ((cfg19.win 4).blk t).view.read (Elt Ideal) (G V c) := by
  show (cfg19.win 4).cut (grid19.coords t) ((dat V c).after 4 t) = _
  rw [after_4]
  funext x
  obtain ⟨u, th, w, co, rfl⟩ : ∃ (u : Fin 1) (th : Fin 14) (w : Fin 56) (co : Fin 256), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg19.win 4).blk t).view.emb (ix4 (0 : Fin 1) th w co))
      = conv V c (pn t) (⟨(pr t).val * 14 + th.val, by have := (pr t).isLt; omega⟩ : Fin 56) w co :=
    (G_apply V c _).trans (conv_congr V c
      (Fin.ext (by show win19_4.index t 0 * 1 + 1 * 0 = t.val / 4; rw [h0]; omega))
      (Fin.ext (by show win19_4.index t 1 * 14 + 1 * th.val = t.val % 4 * 14 + th.val; rw [h1]; omega))
      (Fin.ext (by show win19_4.index t 2 * 56 + 1 * w.val = w.val; rw [h2]; omega))
      (Fin.ext (by show win19_4.index t 3 * 256 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 14 + (th.val + dy.val) = (pr t).val * 14 + th.val + dy.val
  omega

/-! ## The output's row tiles cover it -/

/-- An index of the output array is in point `t`'s block when its image and row tile are `t`'s. -/
theorem mem_blk (t : Fin cfg19.N) (i : S16x56x56x256.Idx) :
    i ∈ ((cfg19.win 4).blk t).view.set ↔ (i 0 : Nat) = t.val / 4 ∧ t.val % 4 * 14 ≤ (i 1 : Nat) ∧ (i 1 : Nat) < t.val % 4 * 14 + 14 := by
  show i ∈ ((View.whole main_v61).slice (win19_4.rect t)).set ↔ _
  rw [View.set_slice_whole, Rect.mem_set_unit]
  obtain ⟨-, -, -, -, ⟨h0, h1, h2, h3⟩⟩ := idx_facts t
  have b2 : (i 2 : Nat) < 56 := (i 2).isLt
  have b3 : (i 3 : Nat) < 256 := (i 3).isLt
  have e0 : win19_4.index t 0 * win19_4.size 0 = t.val / 4 := by rw [h0]; show t.val / 4 * 1 = _; omega
  have e1 : win19_4.index t 1 * win19_4.size 1 = t.val % 4 * 14 := by rw [h1]; rfl
  have e2 : win19_4.index t 2 * win19_4.size 2 = 0 := by rw [h2]; rfl
  have e3 : win19_4.index t 3 * win19_4.size 3 = 0 := by rw [h3]; rfl
  have x0 : win19_4.xsize (grid19.coords t) 0 = 1 := rfl
  have x1 : win19_4.xsize (grid19.coords t) 1 = 14 := rfl
  have x2 : win19_4.xsize (grid19.coords t) 2 = 56 := rfl
  have x3 : win19_4.xsize (grid19.coords t) 3 = 256 := rfl
  refine ⟨fun h => ?_, fun h a => ?_⟩
  · have a0 := h 0; have a1 := h 1
    rw [e0, x0] at a0; rw [e1, x1] at a1
    exact ⟨by omega, a1⟩
  · match a with
    | ⟨0, _⟩ => show win19_4.index t 0 * win19_4.size 0 ≤ (i 0 : Nat) ∧ (i 0 : Nat) < win19_4.index t 0 * win19_4.size 0 + win19_4.xsize (grid19.coords t) 0
                rw [e0, x0]; omega
    | ⟨1, _⟩ => show win19_4.index t 1 * win19_4.size 1 ≤ (i 1 : Nat) ∧ (i 1 : Nat) < win19_4.index t 1 * win19_4.size 1 + win19_4.xsize (grid19.coords t) 1
                rw [e1, x1]; exact h.2
    | ⟨2, _⟩ => show win19_4.index t 2 * win19_4.size 2 ≤ (i 2 : Nat) ∧ (i 2 : Nat) < win19_4.index t 2 * win19_4.size 2 + win19_4.xsize (grid19.coords t) 2
                rw [e2, x2]; omega
    | ⟨3, _⟩ => show win19_4.index t 3 * win19_4.size 3 ≤ (i 3 : Nat) ∧ (i 3 : Nat) < win19_4.index t 3 * win19_4.size 3 + win19_4.xsize (grid19.coords t) 3
                rw [e3, x3]; omega

/-- Every index of the output array is in the block of the point of its image and row tile. -/
theorem cover (i : S16x56x56x256.Idx) :
    ∃ t : Fin cfg19.N, (cfg19.win 4).flush t = true ∧ i ∈ ((cfg19.win 4).blk t).view.set := by
  have b0 : (i 0 : Nat) < 16 := (i 0).isLt
  have b1 : (i 1 : Nat) < 56 := (i 1).isLt
  refine ⟨⟨(i 0 : Nat) * 4 + (i 1 : Nat) / 14, by rw [N_eq]; omega⟩, flush19_4 _, ?_⟩
  rw [mem_blk]
  dsimp only
  omega

/-- The output array after the last grid point is `G`. -/
theorem final_out (c : Dev nD) : (dat V c).arrAt 4 cfg19.N = G V c :=
  (dat V c).arrAt_eq_of_cover 4 (G V c) (fun t _ => flushed_eq V c t) cover

/-- The output array after the last grid point: at (n, h, w, co) the 3×3 correlation of the padded input with the
    kernel over the 256 input channels, plus the bias, clamped below at zero. The sums nest dy, dx, ci. -/
theorem out_value (c : Dev nD) (n : Fin 16) (h : Fin 56) (w : Fin 56) (co : Fin 256) :
    (dat V c).arrAt 4 cfg19.N (ix4 n h w co)
      = max ((∑ dy : Fin 3, ∑ dx : Fin 3, ∑ ci : Fin 256,
                xp V c (ix4 n (⟨h.val + dy.val, by omega⟩ : Fin 70) (⟨w.val + dx.val, by omega⟩ : Fin 64) ci)
                  * wk V c (ix4 dy dx ci co))
              + bias V c (ix2 (0 : Fin 1) co)) 0 := by
  rw [final_out]
  rfl

end Cert.ReferenceIdeal.Reg19
-- ==== Proof.RI.Val19.lean ====
import proofs.«143011_g2000502688546152_pallasbulk_1201_3_alg».proof.Proof.RI.Seg19
import proofs.«143011_g2000502688546152_pallasbulk_1201_3_alg».proof.Proof.RI.Reg19Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg19

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 56 56 256)
    (hx : ∀ (n : Fin 16) (i : Fin 70) (j : Fin 64) (ci : Fin 256),
      (W c (Proc.devRef .tc (Pipeline.arrRef spec19 0)) : FVec 𝕀 S16x70x64x256 .f32) (ix4 n i j ci) = Cert.Spec.padAt z n i.val j.val ci) :
    Cert.Spec.curry4 (Wout W c (Proc.devRef .tc (Pipeline.arrRef spec19 4)) : FVec 𝕀 S16x56x56x256 .f32)
      = Cert.Spec.convRelu z (Cert.Spec.curryW (W c (Proc.devRef .tc (Pipeline.arrRef spec19 2)) : FVec 𝕀 S3x3x256x256 .f32))
          (Cert.Spec.curryB (W c (Proc.devRef .tc (Pipeline.arrRef spec19 3)) : FVec 𝕀 S1x256 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg19

end
-- ==== Proof.RI.Reg20Value.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg20Data
import Idealize.ShloMosaic.Lib.Pipeline.Value
import Idealize.ShloMosaic.Lib.ValueIdx
import Idealize.ShloMosaic.PureOps.Ideal.Laws

/-! # Region 20: the sum of |x − y| over two [25088, 512] arrays, accumulated over a grid of 28 points into a [1, 1] array

At point t the two input windows show rows 896t … 896t+895 of x and of y. The output window is the one [1, 1]
block at every point: the body zeroes it at point 0, then at every point adds the block's sum of |x − y| to what
the window holds. It is written back to the array once, after the last point. -/
-- This module: the output array after the last point, at the extended reals.

set_option maxRecDepth 16384

noncomputable section

namespace Cert.ReferenceIdeal.Reg20

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Idealize.ShloMosaic.Ideal

variable (VI : (c : Dev nD) → (b : Ref sig .tc) → Buf (Elt Ideal) ((c : Thread nD τ).loc b))

/-- The two input arrays as the region finds them, functions of (row, lane). -/
abbrev xs (c : Dev nD) : S25088x512.Idx → EReal := VI c (Pipeline.arrRef spec20 0)
abbrev ys (c : Dev nD) : S25088x512.Idx → EReal := VI c (Pipeline.arrRef spec20 1)

/-- The output array after the last point. -/
abbrev out (c : Dev nD) : S1x1.Idx → EReal := (dat (F := Ideal) VI c).arrAt 2 cfg20.N

/-! ## One step at the one index -/

/-- The sum of |x − y| over a block of 896 rows of 512 lanes. -/
def blockSum (x y : Vec Ideal S896x512 .f32) : EReal :=
  ∑ q : Fin 896, ∑ k : Fin 512, max (x (ix2 q k) - y (ix2 q k)) (-(x (ix2 q k) - y (ix2 q k)))

/-- A step adds the block's sum to the accumulator's one element. -/
theorem step_apply (acc : Vec Ideal S1x1 .f32) (x y : Vec Ideal S896x512 .f32) :
    (step acc x y (ix2 (0 : Fin 1) (0 : Fin 1)) : EReal) = acc (ix2 (0 : Fin 1) (0 : Fin 1)) + blockSum x y := by
  unfold step Gen.k20_pay2 blockSum
  dsimp only
  rw [addf_apply, shapeCast_self, shapeCast_self, shapeCast_self, broadcast_apply]
  congr 1
  unfold extractAt
  refine (shapeCast_apply _ _ _ (ix1 (0 : Fin 1)) ?_).trans ?_
  · rw [Shape.rowMajor_val_one, Shape.rowMajor_val_three]; rfl
  -- the reduction keeps only unit axes: it is the sum over every index of the block
  refine (multiReduction_add_total (axes := [1, 2]) _ 0x00000000#32 Gen.reduces_S1x896x512_S1
    (fun b => by match b with | ⟨0, _⟩ => rfl) (.inl rfl) rfl (ix1 (0 : Fin 1))).trans ?_
  -- the cast that added the unit axis is a bijection of the index sets
  unfold shapeCast
  refine (Equiv.sum_comp (Shape.reshapeEquiv Gen.shapeCasts_S896x512_S1x896x512) _).trans ?_
  rw [sum_idx2]
  rfl

/-- The zeroed accumulator's one element is 0. -/
theorem zero_apply : (zero (F := Ideal) (ix2 (0 : Fin 1) (0 : Fin 1)) : EReal) = 0 := by
  unfold zero Gen.k20_pay1
  rw [broadcast_apply]
  exact ofBits_zero_f32

/-! ## The running total at the one index: a sum over the points -/

/-- Point `s`'s addend: its blocks' sum of |x − y| (0 past the grid, where it is never used). -/
def addend (c : Dev nD) (s : ℕ) : EReal :=
  if h : s < cfg20.N then blockSum (xrows VI c ⟨s, h⟩) (yrows VI c ⟨s, h⟩) else 0

theorem total_apply (c : Dev nD) : ∀ (n : ℕ) (h : n < cfg20.N),
    (total VI c n h (ix2 (0 : Fin 1) (0 : Fin 1)) : EReal) = ∑ s ∈ Finset.range (n + 1), addend VI c s
  | 0, h => by
    show (step zero (xrows VI c ⟨0, h⟩) (yrows VI c ⟨0, h⟩) (ix2 (0 : Fin 1) (0 : Fin 1)) : EReal) = _
    rw [step_apply, zero_apply, zero_add, Finset.sum_range_one, addend, dif_pos h]
  | n + 1, h => by
    show (step (total VI c n (Nat.lt_of_succ_lt h)) (xrows VI c ⟨n + 1, h⟩) (yrows VI c ⟨n + 1, h⟩)
      (ix2 (0 : Fin 1) (0 : Fin 1)) : EReal) = _
    rw [step_apply, total_apply c n (Nat.lt_of_succ_lt h), Finset.sum_range_succ _ (n + 1), addend, dif_pos h]

/-! ## The array after the run is the last point's total -/

theorem last_lt : 27 < cfg20.N := Nat.lt_of_lt_of_eq (by decide : 27 < 28) (Gen.N_20 : cfg20.N = 28).symm

/-- The output window is written back at the last point only, and its block is the whole [1, 1] array: after the run
    the array's element is the running total after point 27. -/
theorem out_eq (c : Dev nD) : out VI c = fun _ => (total VI c 27 last_lt (ix2 (0 : Fin 1) (0 : Fin 1)) : EReal) := by
  refine (dat (F := Ideal) VI c).arrAt_eq_of_cover 2 (fun _ => (total VI c 27 last_lt (ix2 (0 : Fin 1) (0 : Fin 1)) : EReal)) ?hG ?hcover
  case hG =>
    intro t hf
    have h97 : t.val = 27 := by
      have h1 : t.val % 28 = 27 := (Gen.flush20_2 t).mp hf
      have h2 : t.val < 28 := Nat.lt_of_lt_of_eq t.isLt (Gen.N_20 : cfg20.N = 28)
      omega
    obtain rfl : t = ⟨27, last_lt⟩ := Fin.ext h97
    funext y
    show (dat (F := Ideal) VI c).after 2 ⟨27, last_lt⟩ y = _
    rw [after_total, View.read_apply]
    show (total VI c 27 last_lt y : EReal) = total VI c 27 last_lt (ix2 (0 : Fin 1) (0 : Fin 1))
    have hy : y = ix2 (0 : Fin 1) (0 : Fin 1) :=
      Shape.idx_ext₂ (by have h : (y 0).val < 1 := (y 0).isLt; show (y 0).val = 0; omega)
        (by have h : (y 1).val < 1 := (y 1).isLt; show (y 1).val = 0; omega)
    rw [hy]
  case hcover =>
    intro i
    refine ⟨⟨27, last_lt⟩, (Gen.flush20_2 _).mpr rfl, ?_⟩
    show i ∈ ((View.whole main_v64).slice (win20_2.rect ⟨27, last_lt⟩)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-! ## The points' blocks are the rows of the arrays -/

/-- At point `t` each input window shows block (t, 0) of its array. -/
theorem idx_facts : ∀ t : Fin cfg20.N,
    win20_0.index t 0 = t.val ∧ win20_0.index t 1 = 0 ∧ win20_1.index t 0 = t.val ∧ win20_1.index t 1 = 0 :=
  (by decide +kernel : ∀ t : Fin grid20.N,
    win20_0.index t 0 = t.val ∧ win20_0.index t 1 = 0 ∧ win20_1.index t 0 = t.val ∧ win20_1.index t 1 = 0)

/-- Row `q` of point `t`'s block of x is row `q + 896 t` of x; the same for y. -/
theorem xrows_apply (c : Dev nD) (t : Fin cfg20.N) (q : Fin 896) (k : Fin 512) (r : Fin 25088)
    (hr : r.val = q.val + 896 * t.val) : (xrows VI c t (ix2 q k) : EReal) = xs VI c (ix2 r k) := by
  unfold xrows
  rw [View.read_apply]
  show xs VI c (((cfg20.win 0).blk t).view.emb (ix2 q k)) = _
  congr 1
  apply Shape.idx_ext₂
  · show ((win20_0.rect t).emb (ix2 q k) 0 : ℕ) = r.val
    rw [Window.rect_emb_val, (idx_facts t).1, hr]
    show t.val * 896 + q.val = q.val + 896 * t.val
    omega
  · show ((win20_0.rect t).emb (ix2 q k) 1 : ℕ) = k.val
    rw [Window.rect_emb_val, (idx_facts t).2.1]
    show 0 * 512 + k.val = k.val
    omega

theorem yrows_apply (c : Dev nD) (t : Fin cfg20.N) (q : Fin 896) (k : Fin 512) (r : Fin 25088)
    (hr : r.val = q.val + 896 * t.val) : (yrows VI c t (ix2 q k) : EReal) = ys VI c (ix2 r k) := by
  unfold yrows
  rw [View.read_apply]
  show ys VI c (((cfg20.win 1).blk t).view.emb (ix2 q k)) = _
  congr 1
  apply Shape.idx_ext₂
  · show ((win20_1.rect t).emb (ix2 q k) 0 : ℕ) = r.val
    rw [Window.rect_emb_val, (idx_facts t).2.2.1, hr]
    show t.val * 896 + q.val = q.val + 896 * t.val
    omega
  · show ((win20_1.rect t).emb (ix2 q k) 1 : ℕ) = k.val
    rw [Window.rect_emb_val, (idx_facts t).2.2.2]
    show 0 * 512 + k.val = k.val
    omega

/-! ## The sum over the points' blocks is the sum over all rows -/

/-- |x − y| at (row, lane) of the two arrays. -/
def absDiff (c : Dev nD) (r : Fin 25088) (k : Fin 512) : EReal :=
  max (xs VI c (ix2 r k) - ys VI c (ix2 r k)) (-(xs VI c (ix2 r k) - ys VI c (ix2 r k)))

/-- 25088 rows are 28 blocks of 896: a sum over the rows is the sum over the blocks of the sums over each block's rows. -/
theorem sum_rows_split {M : Type*} [AddCommMonoid M] (g : Fin 25088 → M) :
    ∑ r, g r = ∑ s : Fin 28, ∑ q : Fin 896, g ⟨q.val + 896 * s.val, by omega⟩ := by
  rw [← Equiv.sum_comp (finProdFinEquiv (m := 28) (n := 896)) g, Fintype.sum_prod_type]
  rfl

theorem addend_eq (c : Dev nD) (s : Fin 28) :
    addend VI c s.val = ∑ q : Fin 896, ∑ k : Fin 512, absDiff VI c ⟨q.val + 896 * s.val, by omega⟩ k := by
  have hs : s.val < cfg20.N := Nat.lt_of_lt_of_eq s.isLt (Gen.N_20 : cfg20.N = 28).symm
  rw [addend, dif_pos hs]
  unfold blockSum absDiff
  refine Finset.sum_congr rfl fun q _ => Finset.sum_congr rfl fun k _ => ?_
  rw [xrows_apply VI c ⟨s.val, hs⟩ q k ⟨q.val + 896 * s.val, by omega⟩ rfl,
    yrows_apply VI c ⟨s.val, hs⟩ q k ⟨q.val + 896 * s.val, by omega⟩ rfl]

/-- The one element of the output: the sum over all rows and lanes of |x − y|, the absolute value of `d` being `max d (−d)`. -/
theorem out_apply (c : Dev nD) :
    out VI c (ix2 (0 : Fin 1) (0 : Fin 1))
      = ∑ r : Fin 25088, ∑ k : Fin 512,
          max (xs VI c (ix2 r k) - ys VI c (ix2 r k)) (-(xs VI c (ix2 r k) - ys VI c (ix2 r k))) := by
  rw [out_eq]
  show (total VI c 27 last_lt (ix2 (0 : Fin 1) (0 : Fin 1)) : EReal) = ∑ r : Fin 25088, ∑ k : Fin 512, absDiff VI c r k
  rw [total_apply, sum_rows_split, Finset.sum_range]
  exact Finset.sum_congr rfl fun s _ => addend_eq VI c s

end Cert.ReferenceIdeal.Reg20
-- ==== Proof.RI.Val20.lean ====
import proofs.«143011_g2000502688546152_pallasbulk_1201_3_alg».proof.Proof.RI.Seg20
import proofs.«143011_g2000502688546152_pallasbulk_1201_3_alg».proof.Proof.RI.Reg20Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg20

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the two arrays the region finds are two image stacks read as rows of 512 consecutive entries
    of the row-major order, the one entry it leaves is the sum over all rows and lanes of their absolute differences. -/
theorem value (zx zy : Cert.Spec.Act 16 56 56 256)
    (hx : ∀ (r : Fin 25088) (k : Fin 512), (W c (Proc.devRef .tc (Pipeline.arrRef spec20 0)) : FVec 𝕀 S25088x512 .f32) (ix2 r k) = Cert.Spec.flat zx (r.val * 512 + k.val))
    (hy : ∀ (r : Fin 25088) (k : Fin 512), (W c (Proc.devRef .tc (Pipeline.arrRef spec20 1)) : FVec 𝕀 S25088x512 .f32) (ix2 r k) = Cert.Spec.flat zy (r.val * 512 + k.val)) :
    (Wout W c (Proc.devRef .tc (Pipeline.arrRef spec20 2)) : FVec 𝕀 S1x1 .f32) (ix2 (0 : Fin 1) (0 : Fin 1))
      = ∑ r : Fin 25088, ∑ k : Fin 512,
          Cert.Spec.eabs (Cert.Spec.flat zx (r.val * 512 + k.val) - Cert.Spec.flat zy (r.val * 512 + k.val)) := by
  rw [Wout_out]
  refine (out_apply (VW W) c).trans ?_
  show @Eq EReal _ _
  exact Finset.sum_congr rfl fun r _ => Finset.sum_congr rfl fun k _ => by
    show max _ _ = Cert.Spec.eabs _
    unfold Cert.Spec.eabs
    rw [← hx r k, ← hy r k]

end Cert.ReferenceIdeal.Reg20

end
-- ==== Proof.RI.Reg21Value.lean ====
/-
  REGION 21, at the ideal values: the output array after the last point, index by index — the 2×2 max pooling
  of the region's own input array.
-/
import proofs.«143011_g2000502688546152_pallasbulk_1201_3_alg».proof.Proof.RI.Reg21Data
import Idealize.ShloMosaic.Lib.ValueIdx
import Idealize.ShloMosaic.Lib.Pipeline.Value
import Idealize.ShloMosaic.PureOps.Ideal.Laws

noncomputable section

namespace Cert.ReferenceIdeal.Reg21

open Cert.ReferenceIdeal Cert.ReferenceIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .f32 0xFF800000#32 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S14x28x2x256 .f32) (r : Fin 14) (j : Fin 28) (ch : Fin 256) :
    multiReduction .maximumf [2] S14x28x256 Y 0xFF800000#32 reduces_S14x28x2x256_S14x28x256 (.inl rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S7x2x28x256 .f32) (i : Fin 7) (j : Fin 28) (ch : Fin 256) :
    multiReduction .maximumf [1] S7x28x256 Z 0xFF800000#32 reduces_S7x2x28x256_S7x28x256 (.inl rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x14x28x2x256.Idx → α) (r : Fin 14) (j : Fin 28) (q : Fin 2) (ch : Fin 256) :
    shapeCast S14x28x2x256 X shapeCasts_S1x14x28x2x256_S14x28x2x256 (ix4 r j q ch) = X (ix5 (0 : Fin 1) r j q ch) := by
  refine shapeCast_apply _ _ _ _ ?_
  rw [Shape.rowMajor_val_five, Shape.rowMajor_val_four]
  show ((((0 * 14 + r.val) * 28 + j.val) * 2 + q.val) * 256 + ch.val) = (((r.val * 28 + j.val) * 2 + q.val) * 256 + ch.val)
  omega

/-- The 14 rows regrouped as 7 pairs: the even row of pair i is row 2i, -/
theorem pairRows_apply0 (W : S14x28x256.Idx → α) (i : Fin 7) (j : Fin 28) (ch : Fin 256) :
    shapeCast S7x2x28x256 W shapeCasts_S14x28x256_S7x2x28x256 (ix4 i (0 : Fin 2) j ch)
      = W (ix3 (⟨2 * i.val, by omega⟩ : Fin 14) j ch) := by
  refine shapeCast_apply _ _ _ _ ?_
  rw [Shape.rowMajor_val_three, Shape.rowMajor_val_four]
  show ((2 * i.val) * 28 + j.val) * 256 + ch.val = (((i.val * 2 + 0) * 28 + j.val) * 256 + ch.val)
  omega

/-- and the odd one row 2i + 1. -/
theorem pairRows_apply1 (W : S14x28x256.Idx → α) (i : Fin 7) (j : Fin 28) (ch : Fin 256) :
    shapeCast S7x2x28x256 W shapeCasts_S14x28x256_S7x2x28x256 (ix4 i (1 : Fin 2) j ch)
      = W (ix3 (⟨2 * i.val + 1, by omega⟩ : Fin 14) j ch) := by
  refine shapeCast_apply _ _ _ _ ?_
  rw [Shape.rowMajor_val_three, Shape.rowMajor_val_four]
  show ((2 * i.val + 1) * 28 + j.val) * 256 + ch.val = (((i.val * 2 + 1) * 28 + j.val) * 256 + ch.val)
  omega

/-- The pooled rows with the leading unit axis back. -/
theorem addLead_apply (W : S7x28x256.Idx → α) (i : Fin 7) (j : Fin 28) (ch : Fin 256) :
    shapeCast S1x7x28x256 W shapeCasts_S7x28x256_S1x7x28x256 (ix4 (0 : Fin 1) i j ch) = W (ix3 i j ch) := by
  refine shapeCast_apply _ _ _ _ ?_
  rw [Shape.rowMajor_val_three, Shape.rowMajor_val_four]
  show ((i.val * 28 + j.val) * 256 + ch.val) = (((0 * 7 + i.val) * 28 + j.val) * 256 + ch.val)
  omega

/-- The body's value at an index of the output block: the maximum over the two rows 2i, 2i+1 of the maximum
    over the column pair j. -/
theorem pay_apply (X : Vec Ideal S1x14x28x2x256 .f32) (i : Fin 7) (j : Fin 28) (ch : Fin 256) :
    k21_pay1 X (ix4 (0 : Fin 1) i j ch)
      = max (max (X (ix5 (0 : Fin 1) (⟨2 * i.val, by omega⟩ : Fin 14) j (0 : Fin 2) ch))
                 (X (ix5 (0 : Fin 1) (⟨2 * i.val, by omega⟩ : Fin 14) j (1 : Fin 2) ch)))
            (max (X (ix5 (0 : Fin 1) (⟨2 * i.val + 1, by omega⟩ : Fin 14) j (0 : Fin 2) ch))
                 (X (ix5 (0 : Fin 1) (⟨2 * i.val + 1, by omega⟩ : Fin 14) j (1 : Fin 2) ch))) := by
  unfold k21_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 16 images × 56 rows × 28 column pairs × 2 × 256 channels. -/
abbrev xin (c : Dev nD) : (⟨5, ![16, 56, 28, 2, 256]⟩ : Shape).Idx → EReal := V c (Pipeline.arrRef spec21 0)

/-- The 2×2 max pooling of an input array at (n, i, j, ch): over the rows 2i, 2i+1 the maximum of the maximum
    over the column pair j. -/
def poolAt (x : (⟨5, ![16, 56, 28, 2, 256]⟩ : Shape).Idx → EReal) (n : Fin 16) (i : Fin 28) (j : Fin 28) (ch : Fin 256) : EReal :=
  max (max (x (ix5 n (⟨2 * i.val, by omega⟩ : Fin 56) j (0 : Fin 2) ch))
           (x (ix5 n (⟨2 * i.val, by omega⟩ : Fin 56) j (1 : Fin 2) ch)))
      (max (x (ix5 n (⟨2 * i.val + 1, by omega⟩ : Fin 56) j (0 : Fin 2) ch))
           (x (ix5 n (⟨2 * i.val + 1, by omega⟩ : Fin 56) j (1 : Fin 2) ch)))

/-- The pooled array. -/
def poolArr (x : (⟨5, ![16, 56, 28, 2, 256]⟩ : Shape).Idx → EReal) : (⟨4, ![16, 28, 28, 256]⟩ : Shape).Idx → EReal :=
  fun k => poolAt x (k 0) (k 1) (k 2) (k 3)

/-- The index maps over the grid in closed form: point t is (n, r) = (t / 4, t % 4); there the input block is
    block (n, r, 0, 0, 0) of its array and the output block is block (n, r, 0, 0) of its own. -/
theorem idx_facts : ∀ t : Fin cfg21.N,
    win21_1.index t (0 : Fin 4) = t.val / 4 ∧ win21_1.index t (1 : Fin 4) = t.val % 4
    ∧ win21_1.index t (2 : Fin 4) = 0 ∧ win21_1.index t (3 : Fin 4) = 0
    ∧ win21_0.index t (0 : Fin 5) = t.val / 4 ∧ win21_0.index t (1 : Fin 5) = t.val % 4
    ∧ win21_0.index t (2 : Fin 5) = 0 ∧ win21_0.index t (3 : Fin 5) = 0 ∧ win21_0.index t (4 : Fin 5) = 0 :=
  (by decide +kernel : ∀ t : Fin grid21.N, _)

/-- The grid has 64 points. -/
theorem t_lt (t : Fin cfg21.N) : t.val < 64 := lt_of_lt_of_eq t.isLt N_21

/-- An element of the input block at point t = (n, r) sits in the input array at image n, row 16r + (its row). -/
theorem rows_apply (c : Dev nD) (t : Fin cfg21.N) (r : Fin 14) (R : Fin 56) (hR : R.val = 14 * (t.val % 4) + r.val)
    (j : Fin 28) (q : Fin 2) (ch : Fin 256) :
    rows V c t (ix5 (0 : Fin 1) r j q ch)
      = xin V c (ix5 (⟨t.val / 4, by have := t_lt t; omega⟩ : Fin 16) R j q ch) := by
  obtain ⟨o0, o1, o2, o3, i0, i1, i2, i3, i4⟩ := idx_facts t
  show xin V c (((cfg21.win 0).blk t).view.emb (ix5 (0 : Fin 1) r j q ch)) = _
  congr 1
  funext a
  apply Fin.ext
  match a with
  | ⟨0, _⟩ => show win21_0.index t (0 : Fin 5) * 1 + 1 * 0 = t.val / 4; omega
  | ⟨1, _⟩ => show win21_0.index t (1 : Fin 5) * 14 + 1 * r.val = R.val; omega
  | ⟨2, _⟩ => show win21_0.index t (2 : Fin 5) * 28 + 1 * j.val = j.val; omega
  | ⟨3, _⟩ => show win21_0.index t (3 : Fin 5) * 2 + 1 * q.val = q.val; omega
  | ⟨4, _⟩ => show win21_0.index t (4 : Fin 5) * 256 + 1 * ch.val = ch.val; omega

/-- An element of the output block at point t = (n, r) sits in the output array at image n, row 8r + (its row). -/
theorem emb_out (t : Fin cfg21.N) (i : Fin 7) (j : Fin 28) (ch : Fin 256) :
    ((cfg21.win 1).blk t).view.emb (ix4 (0 : Fin 1) i j ch)
      = ix4 (⟨t.val / 4, by have := t_lt t; omega⟩ : Fin 16) (⟨7 * (t.val % 4) + i.val, by omega⟩ : Fin 28) j ch := by
  obtain ⟨o0, o1, o2, o3, i0, i1, i2, i3, i4⟩ := idx_facts t
  funext a
  apply Fin.ext
  match a with
  | ⟨0, _⟩ => show win21_1.index t (0 : Fin 4) * 1 + 1 * 0 = t.val / 4; omega
  | ⟨1, _⟩ => show win21_1.index t (1 : Fin 4) * 7 + 1 * i.val = 7 * (t.val % 4) + i.val; omega
  | ⟨2, _⟩ => show win21_1.index t (2 : Fin 4) * 28 + 1 * j.val = j.val; omega
  | ⟨3, _⟩ => show win21_1.index t (3 : Fin 4) * 256 + 1 * ch.val = ch.val; omega

/-- What point t writes back is its block of the pooled array. -/
theorem flushed_eq (c : Dev nD) (t : Fin cfg21.N) :
    (dat (F := Ideal) V c).flushed 1 t = ((cfg21.win 1).blk t).view.read (Elt Ideal) (poolArr (xin V c)) := by
  show (cfg21.win 1).cut (grid21.coords t) ((dat V c).after 1 t) = _
  rw [after_out]
  funext y
  obtain ⟨y0, i, j, ch, rfl⟩ : ∃ (y0 : Fin 1) (i : Fin 7) (j : Fin 28) (ch : Fin 256), y = ix4 y0 i j ch :=
    ⟨y 0, y 1, y 2, y 3, eq_ix4 y⟩
  obtain rfl : y0 = 0 := Subsingleton.elim _ _
  show k21_pay1 (rows V c t) (ix4 (0 : Fin 1) i j ch)
    = poolArr (xin V c) (((cfg21.win 1).blk t).view.emb (ix4 (0 : Fin 1) i j ch))
  rw [pay_apply, emb_out,
    rows_apply V c t _ (⟨2 * (7 * (t.val % 4) + i.val), by omega⟩ : Fin 56) (by show 2 * (7 * (t.val % 4) + i.val) = 14 * (t.val % 4) + 2 * i.val; omega),
    rows_apply V c t _ (⟨2 * (7 * (t.val % 4) + i.val), by omega⟩ : Fin 56) (by show 2 * (7 * (t.val % 4) + i.val) = 14 * (t.val % 4) + 2 * i.val; omega),
    rows_apply V c t _ (⟨2 * (7 * (t.val % 4) + i.val) + 1, by omega⟩ : Fin 56) (by show 2 * (7 * (t.val % 4) + i.val) + 1 = 14 * (t.val % 4) + (2 * i.val + 1); omega),
    rows_apply V c t _ (⟨2 * (7 * (t.val % 4) + i.val) + 1, by omega⟩ : Fin 56) (by show 2 * (7 * (t.val % 4) + i.val) + 1 = 14 * (t.val % 4) + (2 * i.val + 1); omega)]
  rfl

/-- An index of the output array is in point t's block iff on each axis it lies in the block's range. -/
theorem mem_blk (t : Fin cfg21.N) (k : (⟨4, ![16, 28, 28, 256]⟩ : Shape).Idx) :
    k ∈ ((cfg21.win 1).blk t).view.set ↔ ∀ a : Fin 4, win21_1.index t a * S1x7x28x256.size a ≤ (k a).val
      ∧ (k a).val < win21_1.index t a * S1x7x28x256.size a + S1x7x28x256.size a := by
  show k ∈ ((View.whole main_v69).slice (win21_1.rect t)).set ↔ _
  rw [View.set_slice_whole, Rect.mem_set_unit]
  exact Iff.rfl

/-- The output blocks tile the output array: index (n, h, j, ch) is in the block of point (n, h / 7). -/
theorem cover (k : (⟨4, ![16, 28, 28, 256]⟩ : Shape).Idx) :
    ∃ t : Fin cfg21.N, (cfg21.win 1).flush t = true ∧ k ∈ ((cfg21.win 1).blk t).view.set := by
  have h0 : (k 0).val < 16 := (k 0).isLt
  have h1 : (k 1).val < 28 := (k 1).isLt
  have h2 : (k 2).val < 28 := (k 2).isLt
  have h3 : (k 3).val < 256 := (k 3).isLt
  have hN : cfg21.N = 64 := N_21
  obtain ⟨t, tv⟩ : ∃ t : Fin cfg21.N, t.val = (k 0).val * 4 + (k 1).val / 7 := ⟨⟨_, by omega⟩, rfl⟩
  obtain ⟨o0, o1, o2, o3, -⟩ := idx_facts t
  refine ⟨t, flush21_1 t, ?_⟩
  rw [mem_blk]
  intro a
  match a with
  | ⟨0, _⟩ => show win21_1.index t (0 : Fin 4) * 1 ≤ (k 0).val ∧ (k 0).val < win21_1.index t (0 : Fin 4) * 1 + 1; omega
  | ⟨1, _⟩ => show win21_1.index t (1 : Fin 4) * 7 ≤ (k 1).val ∧ (k 1).val < win21_1.index t (1 : Fin 4) * 7 + 7; omega
  | ⟨2, _⟩ => show win21_1.index t (2 : Fin 4) * 28 ≤ (k 2).val ∧ (k 2).val < win21_1.index t (2 : Fin 4) * 28 + 28; omega
  | ⟨3, _⟩ => show win21_1.index t (3 : Fin 4) * 256 ≤ (k 3).val ∧ (k 3).val < win21_1.index t (3 : Fin 4) * 256 + 256; omega

/-- So after the last point the output array is the pooled input array. -/
theorem final (c : Dev nD) : (dat (F := Ideal) V c).arrAt 1 cfg21.N = poolArr (xin V c) :=
  (dat V c).arrAt_eq_of_cover 1 (poolArr (xin V c)) (fun t _ => flushed_eq V c t) cover

/-- After the last point the output array [16, 28, 28, 256] is the 2×2 max pooling of the input array
    [16, 56, 28, 2, 256]: at (n, i, j, ch) the maximum over the two rows 2i, 2i+1 of the maximum over the
    column pair j. The nesting is the body's: the inner maximum is over the column pair (the first
    reduction), the outer over the row pair (the second). -/
theorem out_apply (c : Dev nD) (n : Fin 16) (i : Fin 28) (j : Fin 28) (ch : Fin 256) :
    (dat (F := Ideal) V c).arrAt 1 cfg21.N (ix4 n i j ch)
      = max (max (xin V c (ix5 n (⟨2 * i.val, by omega⟩ : Fin 56) j (0 : Fin 2) ch))
                 (xin V c (ix5 n (⟨2 * i.val, by omega⟩ : Fin 56) j (1 : Fin 2) ch)))
            (max (xin V c (ix5 n (⟨2 * i.val + 1, by omega⟩ : Fin 56) j (0 : Fin 2) ch))
                 (xin V c (ix5 n (⟨2 * i.val + 1, by omega⟩ : Fin 56) j (1 : Fin 2) ch))) := by
  rw [final]
  rfl

end Cert.ReferenceIdeal.Reg21
-- ==== Proof.RI.Val21.lean ====
import proofs.«143011_g2000502688546152_pallasbulk_1201_3_alg».proof.Proof.RI.Seg21
import proofs.«143011_g2000502688546152_pallasbulk_1201_3_alg».proof.Proof.RI.Reg21Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg21

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the array the region finds is an image stack `z` with its columns split into pairs, the
    array it leaves is `z` pooled 2×2. -/
theorem value (z : Cert.Spec.Act 16 56 56 256)
    (hs : ∀ (n : Fin 16) (i : Fin 56) (j : Fin 28) (t : Fin 2) (ch : Fin 256),
      (W c (Proc.devRef .tc (Pipeline.arrRef spec21 0)) : FVec 𝕀 S16x56x28x2x256 .f32) (ix5 n i j t ch) = z n i ⟨2 * j.val + t.val, by omega⟩ ch) :
    Cert.Spec.curry4 (Wout W c (Proc.devRef .tc (Pipeline.arrRef spec21 1)) : FVec 𝕀 S16x28x28x256 .f32)
      = (Cert.Spec.pool2x2 z : Cert.Spec.Act 16 28 28 256) := by
  funext n i j ch
  rw [Cert.Spec.curry4_apply, Wout_out]
  refine (out_apply (VW W) c n i j ch).trans ?_
  show @Eq EReal _ _
  unfold Cert.Spec.pool2x2
  exact congrArg₂ max (congrArg₂ max (hs n _ j 0 ch) (hs n _ j 1 ch)) (congrArg₂ max (hs n _ j 0 ch) (hs n _ j 1 ch))

end Cert.ReferenceIdeal.Reg21

end
-- ==== Proof.RI.Reg22Value.lean ====
/-
  REGION 22, at the ideal values: the output array after the last point, index by index — the 2×2 max pooling
  of the region's own input array.
-/
import proofs.«143011_g2000502688546152_pallasbulk_1201_3_alg».proof.Proof.RI.Reg22Data
import Idealize.ShloMosaic.Lib.ValueIdx
import Idealize.ShloMosaic.Lib.Pipeline.Value
import Idealize.ShloMosaic.PureOps.Ideal.Laws

noncomputable section

namespace Cert.ReferenceIdeal.Reg22

open Cert.ReferenceIdeal Cert.ReferenceIdeal.Gen

open Idealize.ShloMosaic Idealize.ShloMosaic.TcCoe
open Idealize.SL Idealize.SL.Sem
open Idealize.ShloMosaic.Pipeline (Dat Cfg Window)

open Idealize.ShloMosaic.ValueIdx

/-! ## The body's value at an index, at the ideal values -/

/-- The pattern the reductions start from denotes −∞. -/
theorem ofBits_negInf : Ideal.ofBits .f32 0xFF800000#32 = ⊥ := by simp [Ideal.ofBits, Ideal.ieee]

/-- A fold of max from −∞ over two values is their maximum. -/
theorem fold_max_pair (b : EReal) (hb : b = ⊥) (f : Fin 2 → EReal) :
    (Finset.univ : Finset (Fin 2)).fold max b f = max (f 0) (f 1) := by
  subst hb
  rw [show (Finset.univ : Finset (Fin 2)) = {0, 1} from by decide,
    Finset.fold_insert (by decide), Finset.fold_singleton, max_bot_right]

/-- The maximum over a column pair: the first reduction at (r, j, ch). -/
theorem colmax_apply (Y : FVec Ideal S14x28x2x256 .f32) (r : Fin 14) (j : Fin 28) (ch : Fin 256) :
    multiReduction .maximumf [2] S14x28x256 Y 0xFF800000#32 reduces_S14x28x2x256_S14x28x256 (.inl rfl) rfl (ix3 r j ch)
      = max (Y (ix4 r j (0 : Fin 2) ch)) (Y (ix4 r j (1 : Fin 2) ch)) := by
  refine (Ideal.multiReduction_maximumf_single _ _ _ _ _ _).trans ?_
  refine (fold_max_pair _ ofBits_negInf _).trans ?_
  congr 1
  · show Y _ = Y _
    congr 1; funext c; fin_cases c <;> rfl
  · show Y _ = Y _
    congr 1; funext c; fin_cases c <;> rfl

/-- The maximum over a row pair: the second reduction at (i, j, ch). -/
theorem rowmax_apply (Z : FVec Ideal S7x2x28x256 .f32) (i : Fin 7) (j : Fin 28) (ch : Fin 256) :
    multiReduction .maximumf [1] S7x28x256 Z 0xFF800000#32 reduces_S7x2x28x256_S7x28x256 (.inl rfl) rfl (ix3 i j ch)
      = max (Z (ix4 i (0 : Fin 2) j ch)) (Z (ix4 i (1 : Fin 2) j ch)) := by
  refine (Ideal.multiReduction_maximumf_single _ _ _ _ _ _).trans ?_
  refine (fold_max_pair _ ofBits_negInf _).trans ?_
  congr 1
  · show Z _ = Z _
    congr 1; funext c; fin_cases c <;> rfl
  · show Z _ = Z _
    congr 1; funext c; fin_cases c <;> rfl

variable {α : Type}

/-- The block without its leading unit axis. -/
theorem dropLead_apply (X : S1x14x28x2x256.Idx → α) (r : Fin 14) (j : Fin 28) (q : Fin 2) (ch : Fin 256) :
    shapeCast S14x28x2x256 X shapeCasts_S1x14x28x2x256_S14x28x2x256 (ix4 r j q ch) = X (ix5 (0 : Fin 1) r j q ch) := by
  refine shapeCast_apply _ _ _ _ ?_
  rw [Shape.rowMajor_val_five, Shape.rowMajor_val_four]
  show ((((0 * 14 + r.val) * 28 + j.val) * 2 + q.val) * 256 + ch.val) = (((r.val * 28 + j.val) * 2 + q.val) * 256 + ch.val)
  omega

/-- The 14 rows regrouped as 7 pairs: the even row of pair i is row 2i, -/
theorem pairRows_apply0 (W : S14x28x256.Idx → α) (i : Fin 7) (j : Fin 28) (ch : Fin 256) :
    shapeCast S7x2x28x256 W shapeCasts_S14x28x256_S7x2x28x256 (ix4 i (0 : Fin 2) j ch)
      = W (ix3 (⟨2 * i.val, by omega⟩ : Fin 14) j ch) := by
  refine shapeCast_apply _ _ _ _ ?_
  rw [Shape.rowMajor_val_three, Shape.rowMajor_val_four]
  show ((2 * i.val) * 28 + j.val) * 256 + ch.val = (((i.val * 2 + 0) * 28 + j.val) * 256 + ch.val)
  omega

/-- and the odd one row 2i + 1. -/
theorem pairRows_apply1 (W : S14x28x256.Idx → α) (i : Fin 7) (j : Fin 28) (ch : Fin 256) :
    shapeCast S7x2x28x256 W shapeCasts_S14x28x256_S7x2x28x256 (ix4 i (1 : Fin 2) j ch)
      = W (ix3 (⟨2 * i.val + 1, by omega⟩ : Fin 14) j ch) := by
  refine shapeCast_apply _ _ _ _ ?_
  rw [Shape.rowMajor_val_three, Shape.rowMajor_val_four]
  show ((2 * i.val + 1) * 28 + j.val) * 256 + ch.val = (((i.val * 2 + 1) * 28 + j.val) * 256 + ch.val)
  omega

/-- The pooled rows with the leading unit axis back. -/
theorem addLead_apply (W : S7x28x256.Idx → α) (i : Fin 7) (j : Fin 28) (ch : Fin 256) :
    shapeCast S1x7x28x256 W shapeCasts_S7x28x256_S1x7x28x256 (ix4 (0 : Fin 1) i j ch) = W (ix3 i j ch) := by
  refine shapeCast_apply _ _ _ _ ?_
  rw [Shape.rowMajor_val_three, Shape.rowMajor_val_four]
  show ((i.val * 28 + j.val) * 256 + ch.val) = (((0 * 7 + i.val) * 28 + j.val) * 256 + ch.val)
  omega

/-- The body's value at an index of the output block: the maximum over the two rows 2i, 2i+1 of the maximum
    over the column pair j. -/
theorem pay_apply (X : Vec Ideal S1x14x28x2x256 .f32) (i : Fin 7) (j : Fin 28) (ch : Fin 256) :
    k22_pay1 X (ix4 (0 : Fin 1) i j ch)
      = max (max (X (ix5 (0 : Fin 1) (⟨2 * i.val, by omega⟩ : Fin 14) j (0 : Fin 2) ch))
                 (X (ix5 (0 : Fin 1) (⟨2 * i.val, by omega⟩ : Fin 14) j (1 : Fin 2) ch)))
            (max (X (ix5 (0 : Fin 1) (⟨2 * i.val + 1, by omega⟩ : Fin 14) j (0 : Fin 2) ch))
                 (X (ix5 (0 : Fin 1) (⟨2 * i.val + 1, by omega⟩ : Fin 14) j (1 : Fin 2) ch))) := by
  unfold k22_pay1
  dsimp only
  rw [addLead_apply, rowmax_apply, pairRows_apply0, pairRows_apply1, colmax_apply, colmax_apply,
    dropLead_apply, dropLead_apply, dropLead_apply, dropLead_apply]

/-! ## The blocks in the arrays -/

-- The buffers as the region finds them, at the ideal values.
variable (V : (c : Dev nD) → (b : Ref sig .tc) → Buf (Elt Ideal) ((c : Thread nD τ).loc b))

/-- The region's input array: 16 images × 56 rows × 28 column pairs × 2 × 256 channels. -/
abbrev xin (c : Dev nD) : (⟨5, ![16, 56, 28, 2, 256]⟩ : Shape).Idx → EReal := V c (Pipeline.arrRef spec22 0)

/-- The 2×2 max pooling of an input array at (n, i, j, ch): over the rows 2i, 2i+1 the maximum of the maximum
    over the column pair j. -/
def poolAt (x : (⟨5, ![16, 56, 28, 2, 256]⟩ : Shape).Idx → EReal) (n : Fin 16) (i : Fin 28) (j : Fin 28) (ch : Fin 256) : EReal :=
  max (max (x (ix5 n (⟨2 * i.val, by omega⟩ : Fin 56) j (0 : Fin 2) ch))
           (x (ix5 n (⟨2 * i.val, by omega⟩ : Fin 56) j (1 : Fin 2) ch)))
      (max (x (ix5 n (⟨2 * i.val + 1, by omega⟩ : Fin 56) j (0 : Fin 2) ch))
           (x (ix5 n (⟨2 * i.val + 1, by omega⟩ : Fin 56) j (1 : Fin 2) ch)))

/-- The pooled array. -/
def poolArr (x : (⟨5, ![16, 56, 28, 2, 256]⟩ : Shape).Idx → EReal) : (⟨4, ![16, 28, 28, 256]⟩ : Shape).Idx → EReal :=
  fun k => poolAt x (k 0) (k 1) (k 2) (k 3)

/-- The index maps over the grid in closed form: point t is (n, r) = (t / 4, t % 4); there the input block is
    block (n, r, 0, 0, 0) of its array and the output block is block (n, r, 0, 0) of its own. -/
theorem idx_facts : ∀ t : Fin cfg22.N,
    win22_1.index t (0 : Fin 4) = t.val / 4 ∧ win22_1.index t (1 : Fin 4) = t.val % 4
    ∧ win22_1.index t (2 : Fin 4) = 0 ∧ win22_1.index t (3 : Fin 4) = 0
    ∧ win22_0.index t (0 : Fin 5) = t.val / 4 ∧ win22_0.index t (1 : Fin 5) = t.val % 4
    ∧ win22_0.index t (2 : Fin 5) = 0 ∧ win22_0.index t (3 : Fin 5) = 0 ∧ win22_0.index t (4 : Fin 5) = 0 :=
  (by decide +kernel : ∀ t : Fin grid22.N, _)

/-- The grid has 64 points. -/
theorem t_lt (t : Fin cfg22.N) : t.val < 64 := lt_of_lt_of_eq t.isLt N_22

/-- An element of the input block at point t = (n, r) sits in the input array at image n, row 16r + (its row). -/
theorem rows_apply (c : Dev nD) (t : Fin cfg22.N) (r : Fin 14) (R : Fin 56) (hR : R.val = 14 * (t.val % 4) + r.val)
    (j : Fin 28) (q : Fin 2) (ch : Fin 256) :
    rows V c t (ix5 (0 : Fin 1) r j q ch)
      = xin V c (ix5 (⟨t.val / 4, by have := t_lt t; omega⟩ : Fin 16) R j q ch) := by
  obtain ⟨o0, o1, o2, o3, i0, i1, i2, i3, i4⟩ := idx_facts t
  show xin V c (((cfg22.win 0).blk t).view.emb (ix5 (0 : Fin 1) r j q ch)) = _
  congr 1
  funext a
  apply Fin.ext
  match a with
  | ⟨0, _⟩ => show win22_0.index t (0 : Fin 5) * 1 + 1 * 0 = t.val / 4; omega
  | ⟨1, _⟩ => show win22_0.index t (1 : Fin 5) * 14 + 1 * r.val = R.val; omega
  | ⟨2, _⟩ => show win22_0.index t (2 : Fin 5) * 28 + 1 * j.val = j.val; omega
  | ⟨3, _⟩ => show win22_0.index t (3 : Fin 5) * 2 + 1 * q.val = q.val; omega
  | ⟨4, _⟩ => show win22_0.index t (4 : Fin 5) * 256 + 1 * ch.val = ch.val; omega

/-- An element of the output block at point t = (n, r) sits in the output array at image n, row 8r + (its row). -/
theorem emb_out (t : Fin cfg22.N) (i : Fin 7) (j : Fin 28) (ch : Fin 256) :
    ((cfg22.win 1).blk t).view.emb (ix4 (0 : Fin 1) i j ch)
      = ix4 (⟨t.val / 4, by have := t_lt t; omega⟩ : Fin 16) (⟨7 * (t.val % 4) + i.val, by omega⟩ : Fin 28) j ch := by
  obtain ⟨o0, o1, o2, o3, i0, i1, i2, i3, i4⟩ := idx_facts t
  funext a
  apply Fin.ext
  match a with
  | ⟨0, _⟩ => show win22_1.index t (0 : Fin 4) * 1 + 1 * 0 = t.val / 4; omega
  | ⟨1, _⟩ => show win22_1.index t (1 : Fin 4) * 7 + 1 * i.val = 7 * (t.val % 4) + i.val; omega
  | ⟨2, _⟩ => show win22_1.index t (2 : Fin 4) * 28 + 1 * j.val = j.val; omega
  | ⟨3, _⟩ => show win22_1.index t (3 : Fin 4) * 256 + 1 * ch.val = ch.val; omega

/-- What point t writes back is its block of the pooled array. -/
theorem flushed_eq (c : Dev nD) (t : Fin cfg22.N) :
    (dat (F := Ideal) V c).flushed 1 t = ((cfg22.win 1).blk t).view.read (Elt Ideal) (poolArr (xin V c)) := by
  show (cfg22.win 1).cut (grid22.coords t) ((dat V c).after 1 t) = _
  rw [after_out]
  funext y
  obtain ⟨y0, i, j, ch, rfl⟩ : ∃ (y0 : Fin 1) (i : Fin 7) (j : Fin 28) (ch : Fin 256), y = ix4 y0 i j ch :=
    ⟨y 0, y 1, y 2, y 3, eq_ix4 y⟩
  obtain rfl : y0 = 0 := Subsingleton.elim _ _
  show k22_pay1 (rows V c t) (ix4 (0 : Fin 1) i j ch)
    = poolArr (xin V c) (((cfg22.win 1).blk t).view.emb (ix4 (0 : Fin 1) i j ch))
  rw [pay_apply, emb_out,
    rows_apply V c t _ (⟨2 * (7 * (t.val % 4) + i.val), by omega⟩ : Fin 56) (by show 2 * (7 * (t.val % 4) + i.val) = 14 * (t.val % 4) + 2 * i.val; omega),
    rows_apply V c t _ (⟨2 * (7 * (t.val % 4) + i.val), by omega⟩ : Fin 56) (by show 2 * (7 * (t.val % 4) + i.val) = 14 * (t.val % 4) + 2 * i.val; omega),
    rows_apply V c t _ (⟨2 * (7 * (t.val % 4) + i.val) + 1, by omega⟩ : Fin 56) (by show 2 * (7 * (t.val % 4) + i.val) + 1 = 14 * (t.val % 4) + (2 * i.val + 1); omega),
    rows_apply V c t _ (⟨2 * (7 * (t.val % 4) + i.val) + 1, by omega⟩ : Fin 56) (by show 2 * (7 * (t.val % 4) + i.val) + 1 = 14 * (t.val % 4) + (2 * i.val + 1); omega)]
  rfl

/-- An index of the output array is in point t's block iff on each axis it lies in the block's range. -/
theorem mem_blk (t : Fin cfg22.N) (k : (⟨4, ![16, 28, 28, 256]⟩ : Shape).Idx) :
    k ∈ ((cfg22.win 1).blk t).view.set ↔ ∀ a : Fin 4, win22_1.index t a * S1x7x28x256.size a ≤ (k a).val
      ∧ (k a).val < win22_1.index t a * S1x7x28x256.size a + S1x7x28x256.size a := by
  show k ∈ ((View.whole main_v71).slice (win22_1.rect t)).set ↔ _
  rw [View.set_slice_whole, Rect.mem_set_unit]
  exact Iff.rfl

/-- The output blocks tile the output array: index (n, h, j, ch) is in the block of point (n, h / 7). -/
theorem cover (k : (⟨4, ![16, 28, 28, 256]⟩ : Shape).Idx) :
    ∃ t : Fin cfg22.N, (cfg22.win 1).flush t = true ∧ k ∈ ((cfg22.win 1).blk t).view.set := by
  have h0 : (k 0).val < 16 := (k 0).isLt
  have h1 : (k 1).val < 28 := (k 1).isLt
  have h2 : (k 2).val < 28 := (k 2).isLt
  have h3 : (k 3).val < 256 := (k 3).isLt
  have hN : cfg22.N = 64 := N_22
  obtain ⟨t, tv⟩ : ∃ t : Fin cfg22.N, t.val = (k 0).val * 4 + (k 1).val / 7 := ⟨⟨_, by omega⟩, rfl⟩
  obtain ⟨o0, o1, o2, o3, -⟩ := idx_facts t
  refine ⟨t, flush22_1 t, ?_⟩
  rw [mem_blk]
  intro a
  match a with
  | ⟨0, _⟩ => show win22_1.index t (0 : Fin 4) * 1 ≤ (k 0).val ∧ (k 0).val < win22_1.index t (0 : Fin 4) * 1 + 1; omega
  | ⟨1, _⟩ => show win22_1.index t (1 : Fin 4) * 7 ≤ (k 1).val ∧ (k 1).val < win22_1.index t (1 : Fin 4) * 7 + 7; omega
  | ⟨2, _⟩ => show win22_1.index t (2 : Fin 4) * 28 ≤ (k 2).val ∧ (k 2).val < win22_1.index t (2 : Fin 4) * 28 + 28; omega
  | ⟨3, _⟩ => show win22_1.index t (3 : Fin 4) * 256 ≤ (k 3).val ∧ (k 3).val < win22_1.index t (3 : Fin 4) * 256 + 256; omega

/-- So after the last point the output array is the pooled input array. -/
theorem final (c : Dev nD) : (dat (F := Ideal) V c).arrAt 1 cfg22.N = poolArr (xin V c) :=
  (dat V c).arrAt_eq_of_cover 1 (poolArr (xin V c)) (fun t _ => flushed_eq V c t) cover

/-- After the last point the output array [16, 28, 28, 256] is the 2×2 max pooling of the input array
    [16, 56, 28, 2, 256]: at (n, i, j, ch) the maximum over the two rows 2i, 2i+1 of the maximum over the
    column pair j. The nesting is the body's: the inner maximum is over the column pair (the first
    reduction), the outer over the row pair (the second). -/
theorem out_apply (c : Dev nD) (n : Fin 16) (i : Fin 28) (j : Fin 28) (ch : Fin 256) :
    (dat (F := Ideal) V c).arrAt 1 cfg22.N (ix4 n i j ch)
      = max (max (xin V c (ix5 n (⟨2 * i.val, by omega⟩ : Fin 56) j (0 : Fin 2) ch))
                 (xin V c (ix5 n (⟨2 * i.val, by omega⟩ : Fin 56) j (1 : Fin 2) ch)))
            (max (xin V c (ix5 n (⟨2 * i.val + 1, by omega⟩ : Fin 56) j (0 : Fin 2) ch))
                 (xin V c (ix5 n (⟨2 * i.val + 1, by omega⟩ : Fin 56) j (1 : Fin 2) ch))) := by
  rw [final]
  rfl

end Cert.ReferenceIdeal.Reg22
-- ==== Proof.RI.Val22.lean ====
import proofs.«143011_g2000502688546152_pallasbulk_1201_3_alg».proof.Proof.RI.Seg22
import proofs.«143011_g2000502688546152_pallasbulk_1201_3_alg».proof.Proof.RI.Reg22Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg22

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the array the region finds is an image stack `z` with its columns split into pairs, the
    array it leaves is `z` pooled 2×2. -/
theorem value (z : Cert.Spec.Act 16 56 56 256)
    (hs : ∀ (n : Fin 16) (i : Fin 56) (j : Fin 28) (t : Fin 2) (ch : Fin 256),
      (W c (Proc.devRef .tc (Pipeline.arrRef spec22 0)) : FVec 𝕀 S16x56x28x2x256 .f32) (ix5 n i j t ch) = z n i ⟨2 * j.val + t.val, by omega⟩ ch) :
    Cert.Spec.curry4 (Wout W c (Proc.devRef .tc (Pipeline.arrRef spec22 1)) : FVec 𝕀 S16x28x28x256 .f32)
      = (Cert.Spec.pool2x2 z : Cert.Spec.Act 16 28 28 256) := by
  funext n i j ch
  rw [Cert.Spec.curry4_apply, Wout_out]
  refine (out_apply (VW W) c n i j ch).trans ?_
  show @Eq EReal _ _
  unfold Cert.Spec.pool2x2
  exact congrArg₂ max (congrArg₂ max (hs n _ j 0 ch) (hs n _ j 1 ch)) (congrArg₂ max (hs n _ j 0 ch) (hs n _ j 1 ch))

end Cert.ReferenceIdeal.Reg22

end
-- ==== Proof.RI.Reg23Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (7·32 each, then 32 zero rows), and for each tap (dy, dx)
multiplies the rows shifted by 32·dy + dx with the tap's [256, 512] matrix. Read at row th·32 + w and column co, the nine
products add up to the 3×3 correlation at pixel (th, w), output channel co. -/

set_option maxRecDepth 16384

noncomputable section

namespace Cert.ReferenceIdeal.Reg23

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [224, 256] by [256, 512] product into the zero accumulator, at (r, co): the sum over the 256 input channels. -/
theorem mm_apply (L : FVec Ideal S224x256 .f32) (R : FVec Ideal S256x512 .f32) (r : Fin 224) (co : Fin 512) :
    matmul dot_S224x256_S256x512_S224x512_1_0_0_1_n_n none L R (constant S224x512 .f32 0x00000000#32) (ix2 r co)
      = ∑ ci : Fin 256, L (ix2 r ci) * R (ix2 ci co) := by
  refine (Ideal.matmul_constant_zero_apply _ _ _ _ _).trans ?_
  refine (Equiv.sum_comp (contrEquiv1 dot_S224x256_S256x512_S224x512_1_0_0_1_n_n 256 rfl rfl).symm _).symm.trans ?_
  refine Finset.sum_congr rfl fun ci _ => ?_
  have hl : dot_S224x256_S256x512_S224x512_1_0_0_1_n_n.lhsIdx (ix2 r co)
      ((contrEquiv1 dot_S224x256_S256x512_S224x512_1_0_0_1_n_n 256 rfl rfl).symm ci) = ix2 r ci := by
    funext a; apply Fin.ext
    match a with
    | ⟨0, _⟩ => rfl
    | ⟨1, _⟩ => exact contrEquiv1_symm_val dot_S224x256_S256x512_S224x512_1_0_0_1_n_n 256 rfl rfl ci
  have hr : dot_S224x256_S256x512_S224x512_1_0_0_1_n_n.rhsIdx (ix2 r co)
      ((contrEquiv1 dot_S224x256_S256x512_S224x512_1_0_0_1_n_n 256 rfl rfl).symm ci) = ix2 ci co := by
    funext a; apply Fin.ext
    match a with
    | ⟨0, _⟩ => exact contrEquiv1_symm_val dot_S224x256_S256x512_S224x512_1_0_0_1_n_n 256 rfl rfl ci
    | ⟨1, _⟩ => rfl
  rw [hl, hr]

/-! ## The stacked rows -/

section Slab
variable (xa xb : Vec Ideal S1x7x32x256 .f32)

/-- Pixel (hh, w') of the two tiles stacked one above the other, hh < 14. -/
def tiles (hh : Fin 14) (w' : Fin 32) (ci : Fin 256) : EReal :=
  if h : hh.val < 7 then xa (ix4 (0 : Fin 1) (⟨hh.val, h⟩ : Fin 7) w' ci)
  else xb (ix4 (0 : Fin 1) (⟨hh.val - 7, by omega⟩ : Fin 7) w' ci)

/-- Row hh·32 + w' of the first 224 rows is pixel (hh, w') of the first tile. -/
theorem slab_lo (hh : Fin 7) (w' : Fin 32) (ci : Fin 256) (q : Fin 480) (hq : q.val = hh.val * 32 + w'.val) :
    k23_pay2 xa xb (ix2 q ci) = xa (ix4 (0 : Fin 1) hh w' ci) := by
  unfold k23_pay2
  have hq' : q.val < 224 := by have := hh.isLt; have := w'.isLt; omega
  refine Eq.trans (concatenate_apply_piece (0 : Fin 2) _ _ (ix2 q ci) 0 ?_ S224x256
    (shapeCast S224x256 (shapeCast S7x32x256 xa shapeCasts_S1x7x32x256_S7x32x256) shapeCasts_S7x32x256_S224x256) ?_ ?_ 0 ?_
    (ix2 (⟨q.val, hq'⟩ : Fin 224) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 256 + ci.val = q.val * 256 + ci.val
      rw [hq]
    · rw [Shape.rowMajor_val_four, Shape.rowMajor_val_three]
      show ((0 * 7 + hh.val) * 32 + w'.val) * 256 + ci.val = (hh.val * 32 + w'.val) * 256 + ci.val
      omega

/-- Row 224 + hh·32 + w' is pixel (hh, w') of the second tile. -/
theorem slab_hi (hh : Fin 7) (w' : Fin 32) (ci : Fin 256) (q : Fin 480) (hq : q.val = 224 + (hh.val * 32 + w'.val)) :
    k23_pay2 xa xb (ix2 q ci) = xb (ix4 (0 : Fin 1) hh w' ci) := by
  unfold k23_pay2
  have hq' : q.val - 224 < 224 := by have := hh.isLt; have := w'.isLt; omega
  refine Eq.trans (concatenate_apply_piece (0 : Fin 2) _ _ (ix2 q ci) 1 ?_ S224x256
    (shapeCast S224x256 (shapeCast S7x32x256 xb shapeCasts_S1x7x32x256_S7x32x256) shapeCasts_S7x32x256_S224x256) ?_ ?_ 224 ?_
    (ix2 (⟨q.val - 224, hq'⟩ : Fin 224) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 224 + (q.val - 224) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 256 + ci.val = (q.val - 224) * 256 + ci.val
      omega
    · rw [Shape.rowMajor_val_four, Shape.rowMajor_val_three]
      show ((0 * 7 + hh.val) * 32 + w'.val) * 256 + ci.val = (hh.val * 32 + w'.val) * 256 + ci.val
      omega

/-- Row hh·32 + w', hh < 14, of the stacked rows is pixel (hh, w') of the stacked tiles. -/
theorem slab_apply (hh : Fin 14) (w' : Fin 32) (ci : Fin 256) (q : Fin 480) (hq : q.val = hh.val * 32 + w'.val) :
    k23_pay2 xa xb (ix2 q ci) = tiles xa xb hh w' ci := by
  unfold tiles
  split
  · rename_i h; exact slab_lo xa xb ⟨hh.val, h⟩ w' ci q hq
  · rename_i h; exact slab_hi xa xb ⟨hh.val - 7, by omega⟩ w' ci q (by show q.val = 224 + ((hh.val - 7) * 32 + w'.val); omega)

end Slab

/-! ## A tap's product read at an entry -/

/-- A tap matrix [1, 1, 256, 512] flattened to [256, 512], at (ci, co). -/
theorem tapmat_apply (Wt : Vec Ideal S1x1x256x512 .f32) (ci : Fin 256) (co : Fin 512) :
    (shapeCast S256x512 Wt shapeCasts_S1x1x256x512_S256x512 : FVec Ideal S256x512 .f32) (ix2 ci co) = Wt (ix4 (0 : Fin 1) (0 : Fin 1) ci co) := by
  refine shapeCast_apply _ _ _ _ ?_
  rw [Shape.rowMajor_val_four, Shape.rowMajor_val_two]
  show ((0 * 1 + 0) * 256 + ci.val) * 512 + co.val = ci.val * 512 + co.val
  omega

/-- Rows o, o+1, … of a matrix of n0 rows against a flattened tap matrix, at (r, co): the sum over the 256 input
    channels of row o + r times the tap's column co. -/
theorem tap_apply {n0 : Nat} (o : Nat) (X : FVec Ideal ⟨2, ![n0, 256]⟩ .f32)
    (h : (⟨2, ![n0, 256]⟩ : Shape).Slices ![o, 0] S224x256) (Wt : Vec Ideal S1x1x256x512 .f32)
    (r : Fin 224) (co : Fin 512) (hk : o + 223 < n0) :
    matmul dot_S224x256_S256x512_S224x512_1_0_0_1_n_n none (extractStridedSlice S224x256 ![o, 0] X h : FVec Ideal S224x256 .f32)
        (shapeCast S256x512 Wt shapeCasts_S1x1x256x512_S256x512 : FVec Ideal S256x512 .f32) (constant S224x512 .f32 0x00000000#32) (ix2 r co)
      = ∑ ci : Fin 256, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x7x32x256 .f32)

/-- The rows from the second on. -/
theorem pay3_apply (q : Fin 479) (ci : Fin 256) :
    k23_pay3 xa xb (ix2 q ci) = k23_pay2 xa xb (ix2 (⟨1 + q.val, by omega⟩ : Fin 480) ci) := by
  unfold k23_pay3
  exact slice2_axis0_apply 1 _ _ q ci _ rfl

/-- The rows from the third on. -/
theorem pay4_apply (q : Fin 478) (ci : Fin 256) :
    k23_pay4 xa xb (ix2 q ci) = k23_pay2 xa xb (ix2 (⟨2 + q.val, by omega⟩ : Fin 480) ci) := by
  unfold k23_pay4
  exact slice2_axis0_apply 2 _ _ q ci _ rfl

end Shift

/-! ## The accumulations -/

/-- The first three taps added onto zero. -/
theorem pay5_apply (xa xb : Vec Ideal S1x7x32x256 .f32) (w00 w01 w02 : Vec Ideal S1x1x256x512 .f32) (r : Fin 224) (co : Fin 512) :
    k23_pay5 xa xb w00 w01 w02 (ix2 r co)
      = 0 + (∑ ci : Fin 256, k23_pay2 xa xb (ix2 (⟨0 + r.val, by omega⟩ : Fin 480) ci) * w00 (ix4 (0 : Fin 1) (0 : Fin 1) ci co))
          + (∑ ci : Fin 256, k23_pay3 xa xb (ix2 (⟨0 + r.val, by omega⟩ : Fin 479) ci) * w01 (ix4 (0 : Fin 1) (0 : Fin 1) ci co))
          + (∑ ci : Fin 256, k23_pay4 xa xb (ix2 (⟨0 + r.val, by omega⟩ : Fin 478) ci) * w02 (ix4 (0 : Fin 1) (0 : Fin 1) ci co)) := by
  unfold k23_pay5
  simp only [addf_apply]
  rw [tap_apply 0 (k23_pay2 xa xb) _ w00 r co (by omega), tap_apply 0 (k23_pay3 xa xb) _ w01 r co (by omega),
    tap_apply 0 (k23_pay4 xa xb) _ w02 r co (by omega)]
  congr 3
  exact Ideal.ofBits_zero_f32

/-- The other six taps and the bias added onto what the first three left. -/
theorem pay8_apply (v7 : FVec Ideal S480x256 .f32) (v8 : FVec Ideal S479x256 .f32) (v9 : FVec Ideal S478x256 .f32)
    (v25 : FVec Ideal S224x512 .f32) (v26 : FVec Ideal S224x256 .f32) (v28 : FVec Ideal S256x512 .f32)
    (w11 w12 w20 w21 w22 : Vec Ideal S1x1x256x512 .f32) (b : Vec Ideal S1x512 .f32) (r : Fin 224) (co : Fin 512) :
    k23_pay8 v7 v8 v9 v25 v26 v28 w11 w12 w20 w21 w22 b (ix2 r co)
      = v25 (ix2 r co) + (∑ ci : Fin 256, v26 (ix2 r ci) * v28 (ix2 ci co))
          + (∑ ci : Fin 256, v8 (ix2 (⟨32 + r.val, by omega⟩ : Fin 479) ci) * w11 (ix4 (0 : Fin 1) (0 : Fin 1) ci co))
          + (∑ ci : Fin 256, v9 (ix2 (⟨32 + r.val, by omega⟩ : Fin 478) ci) * w12 (ix4 (0 : Fin 1) (0 : Fin 1) ci co))
          + (∑ ci : Fin 256, v7 (ix2 (⟨64 + r.val, by omega⟩ : Fin 480) ci) * w20 (ix4 (0 : Fin 1) (0 : Fin 1) ci co))
          + (∑ ci : Fin 256, v8 (ix2 (⟨64 + r.val, by omega⟩ : Fin 479) ci) * w21 (ix4 (0 : Fin 1) (0 : Fin 1) ci co))
          + (∑ ci : Fin 256, v9 (ix2 (⟨64 + r.val, by omega⟩ : Fin 478) ci) * w22 (ix4 (0 : Fin 1) (0 : Fin 1) ci co))
          + b (ix2 (0 : Fin 1) co) := by
  unfold k23_pay8
  simp only [addf_apply]
  rw [mm_apply, tap_apply 32 v8 _ w11 r co (by omega), tap_apply 32 v9 _ w12 r co (by omega),
    tap_apply 64 v7 _ w20 r co (by omega), tap_apply 64 v8 _ w21 r co (by omega), tap_apply 64 v9 _ w22 r co (by omega),
    broadcastTo_1b_ab_apply]

/-- The fourth tap's rows and matrix. -/
theorem pay6_apply (xa xb : Vec Ideal S1x7x32x256 .f32) (r : Fin 224) (ci : Fin 256) :
    k23_pay6 xa xb (ix2 r ci) = k23_pay2 xa xb (ix2 (⟨32 + r.val, by omega⟩ : Fin 480) ci) := by
  unfold k23_pay6
  exact slice2_axis0_apply 32 _ _ r ci _ rfl

theorem pay7_apply (w10 : Vec Ideal S1x1x256x512 .f32) (ci : Fin 256) (co : Fin 512) :
    k23_pay7 w10 (ix2 ci co) = w10 (ix4 (0 : Fin 1) (0 : Fin 1) ci co) := by
  unfold k23_pay7
  exact tapmat_apply w10 ci co

/-- The clamp and the cut to 28 columns: entry (0, th, w, co) of the tile is row th·32 + w, column co. -/
theorem pay1_apply (v58 v59 : FVec Ideal S224x512 .f32) (th : Fin 7) (w : Fin 28) (co : Fin 512) :
    k23_pay1 v58 v59 (ix4 (0 : Fin 1) th w co)
      = max (v58 (ix2 (⟨th.val * 32 + w.val, by omega⟩ : Fin 224) co)) (v59 (ix2 (⟨th.val * 32 + w.val, by omega⟩ : Fin 224) co)) := by
  unfold k23_pay1
  refine (shapeCast_abc_1abc_apply _ _ (0 : Fin 1) th w co).trans ?_
  refine (slice3_axis1_apply 0 _ _ th w co (⟨w.val, by omega⟩ : Fin 32) (by simp)).trans ?_
  refine (shapeCast_apply _ _ _ (ix2 (⟨th.val * 32 + w.val, by omega⟩ : Fin 224) co) ?_).trans (maximumf_apply _ _ _)
  rw [Shape.rowMajor_val_two, Shape.rowMajor_val_three]
  rfl

theorem pay9_apply (j : S224x512.Idx) : k23_pay9 (F := Ideal) j = 0 := by
  unfold k23_pay9
  exact Ideal.ofBits_zero_f32

/-! ## The body's value at an entry -/

section Entry
variable (xa xb : Vec Ideal S1x7x32x256 .f32)

/-- Row (th+dy)·32 + (w+dx) of the stacked rows is pixel (th+dy, w+dx) of the stacked tiles. -/
theorem slab_tap (th : Fin 7) (w : Fin 28) (dy dx : Fin 3) (ci : Fin 256) (q : Fin 480)
    (hq : q.val = (th.val + dy.val) * 32 + (w.val + dx.val)) :
    k23_pay2 xa xb (ix2 q ci)
      = tiles xa xb (⟨th.val + dy.val, by omega⟩ : Fin 14) (⟨w.val + dx.val, by omega⟩ : Fin 32) ci :=
  slab_apply xa xb _ _ ci q hq

/-- The nine tap matrices as one family. -/
def taps (w00 w01 w02 w10 w11 w12 w20 w21 w22 : Vec Ideal S1x1x256x512 .f32) (dy dx : Fin 3) : Vec Ideal S1x1x256x512 .f32 :=
  ![![w00, w01, w02], ![w10, w11, w12], ![w20, w21, w22]] dy dx

/-- One output entry of the body: the 3×3 correlation of the stacked tiles with the nine tap matrices over the 256
    input channels, plus the bias, clamped below at zero. -/
theorem conv_entry (w00 w01 w02 w10 w11 w12 w20 w21 w22 : Vec Ideal S1x1x256x512 .f32) (b : Vec Ideal S1x512 .f32)
    (th : Fin 7) (w : Fin 28) (co : Fin 512) :
    k23_pay1 (k23_pay8 (k23_pay2 xa xb) (k23_pay3 xa xb) (k23_pay4 xa xb) (k23_pay5 xa xb w00 w01 w02) (k23_pay6 xa xb)
        (k23_pay7 w10) w11 w12 w20 w21 w22 b) k23_pay9 (ix4 (0 : Fin 1) th w co)
      = max ((∑ dy : Fin 3, ∑ dx : Fin 3, ∑ ci : Fin 256,
              tiles xa xb (⟨th.val + dy.val, by omega⟩ : Fin 14) (⟨w.val + dx.val, by omega⟩ : Fin 32) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 256,
      tiles xa xb (⟨th.val + dy.val, by omega⟩ : Fin 14) (⟨w.val + dx.val, by omega⟩ : Fin 32) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg23
-- ==== Proof.RI.Reg23Value.lean ====
import proofs.«143011_g2000502688546152_pallasbulk_1201_3_alg».proof.Proof.RI.Reg23
import proofs.«143011_g2000502688546152_pallasbulk_1201_3_alg».proof.Proof.RI.Reg23Pure

/-! # Region 23 at the extended reals: the output array is the 3×3 correlation, plus bias, clamped at zero

Point t = 4·n + r of the grid writes back the output's row tile r of image n. Its two input tiles are row tiles r and
r + 1 of the padded input, so row h + dy of the padded input, h = 7·r + th, is row th + dy of the two tiles stacked. -/

set_option maxRecDepth 16384

noncomputable section

namespace Cert.ReferenceIdeal.Reg23

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 35, 32, 256], the kernel [3, 3, 256, 512] and the bias [1, 512] as the region finds them. -/
abbrev xp (c : Dev nD) : S16x35x32x256.Idx → EReal := V c (Pipeline.arrRef spec23 0)
abbrev wk (c : Dev nD) : S3x3x256x512.Idx → EReal := V c (Pipeline.arrRef spec23 2)
abbrev bias (c : Dev nD) : S1x512.Idx → EReal := V c (Pipeline.arrRef spec23 3)

/-! ## The grid's points and the windows' block indices -/

theorem N_eq : cfg23.N = 64 := N_23

/-- The image and the row tile of point `t`. -/
def pn (t : Fin cfg23.N) : Fin 16 := ⟨t.val / 4, by have := t.isLt; have := N_eq; omega⟩
def pr (t : Fin cfg23.N) : Fin 4 := ⟨t.val % 4, Nat.mod_lt _ (by decide)⟩

/-- The five windows' block indices at every point: (n, r), (n, r + 1), the origin twice, (n, r). -/
theorem idx_facts : ∀ t : Fin cfg23.N,
    (win23_0.index t 0 = t.val / 4 ∧ win23_0.index t 1 = t.val % 4 ∧ win23_0.index t 2 = 0 ∧ win23_0.index t 3 = 0)
    ∧ (win23_1.index t 0 = t.val / 4 ∧ win23_1.index t 1 = t.val % 4 + 1 ∧ win23_1.index t 2 = 0 ∧ win23_1.index t 3 = 0)
    ∧ (win23_2.index t 0 = 0 ∧ win23_2.index t 1 = 0 ∧ win23_2.index t 2 = 0 ∧ win23_2.index t 3 = 0)
    ∧ (win23_3.index t 0 = 0 ∧ win23_3.index t 1 = 0)
    ∧ (win23_4.index t 0 = t.val / 4 ∧ win23_4.index t 1 = t.val % 4 ∧ win23_4.index t 2 = 0 ∧ win23_4.index t 3 = 0) :=
  (by decide +kernel : ∀ t : Fin grid23.N, _)

/-! ## The windows' blocks read at an index -/

/-- The first input tile at point (n, r): rows 7·r … of image n of the padded input. -/
theorem iblk0_apply (c : Dev nD) (t : Fin cfg23.N) (hh : Fin 7) (w' : Fin 32) (ci : Fin 256) :
    iblk V c 0 t (ix4 (0 : Fin 1) hh w' ci)
      = xp V c (ix4 (pn t) (⟨(pr t).val * 7 + hh.val, by have := (pr t).isLt; omega⟩ : Fin 35) w' ci) := by
  obtain ⟨⟨h0, h1, h2, h3⟩, -⟩ := idx_facts t
  unfold iblk
  rw [View.read_apply]
  show V c (Pipeline.arrRef spec23 0) _ = V c (Pipeline.arrRef spec23 0) _
  congr 1
  funext a
  apply Fin.ext
  match a with
  | ⟨0, _⟩ => show win23_0.index t 0 * 1 + 1 * 0 = t.val / 4; rw [h0]; omega
  | ⟨1, _⟩ => show win23_0.index t 1 * 7 + 1 * hh.val = t.val % 4 * 7 + hh.val; rw [h1]; omega
  | ⟨2, _⟩ => show win23_0.index t 2 * 32 + 1 * w'.val = w'.val; rw [h2]; omega
  | ⟨3, _⟩ => show win23_0.index t 3 * 256 + 1 * ci.val = ci.val; rw [h3]; omega

/-- The second input tile at point (n, r): rows 7·(r + 1) … of image n of the padded input. -/
theorem iblk1_apply (c : Dev nD) (t : Fin cfg23.N) (hh : Fin 7) (w' : Fin 32) (ci : Fin 256) :
    iblk V c 1 t (ix4 (0 : Fin 1) hh w' ci)
      = xp V c (ix4 (pn t) (⟨((pr t).val + 1) * 7 + hh.val, by have := (pr t).isLt; omega⟩ : Fin 35) w' ci) := by
  obtain ⟨-, ⟨h0, h1, h2, h3⟩, -⟩ := idx_facts t
  unfold iblk
  rw [View.read_apply]
  show V c (Pipeline.arrRef spec23 1) _ = V c (Pipeline.arrRef spec23 0) _
  congr 1
  funext a
  apply Fin.ext
  match a with
  | ⟨0, _⟩ => show win23_1.index t 0 * 1 + 1 * 0 = t.val / 4; rw [h0]; omega
  | ⟨1, _⟩ => show win23_1.index t 1 * 7 + 1 * hh.val = (t.val % 4 + 1) * 7 + hh.val; rw [h1]; omega
  | ⟨2, _⟩ => show win23_1.index t 2 * 32 + 1 * w'.val = w'.val; rw [h2]; omega
  | ⟨3, _⟩ => show win23_1.index t 3 * 256 + 1 * ci.val = ci.val; rw [h3]; omega

/-- The kernel window is the whole kernel array at every point. -/
theorem iblk2_apply (c : Dev nD) (t : Fin cfg23.N) (dy dx : Fin 3) (ci : Fin 256) (co : Fin 512) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec23 2) _ = V c (Pipeline.arrRef spec23 2) _
  congr 1
  funext a
  apply Fin.ext
  match a with
  | ⟨0, _⟩ => show win23_2.index t 0 * 3 + 1 * dy.val = dy.val; rw [h0]; omega
  | ⟨1, _⟩ => show win23_2.index t 1 * 3 + 1 * dx.val = dx.val; rw [h1]; omega
  | ⟨2, _⟩ => show win23_2.index t 2 * 256 + 1 * ci.val = ci.val; rw [h2]; omega
  | ⟨3, _⟩ => show win23_2.index t 3 * 512 + 1 * co.val = co.val; rw [h3]; omega

/-- The bias window is the whole bias row at every point. -/
theorem iblk3_apply (c : Dev nD) (t : Fin cfg23.N) (co : Fin 512) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec23 3) _ = V c (Pipeline.arrRef spec23 3) _
  congr 1
  funext a
  apply Fin.ext
  match a with
  | ⟨0, _⟩ => show win23_3.index t 0 * 1 + 1 * 0 = 0; rw [h0]
  | ⟨1, _⟩ => show win23_3.index t 1 * 512 + 1 * co.val = co.val; rw [h1]; omega

/-! ## The whole-array function and what a point writes back -/

/-- The correlation at (n, h, w, co): the sums nest dy, dx, ci. -/
def conv (c : Dev nD) (n : Fin 16) (h : Fin 28) (w : Fin 28) (co : Fin 512) : EReal :=
  max ((∑ dy : Fin 3, ∑ dx : Fin 3, ∑ ci : Fin 256,
          xp V c (ix4 n (⟨h.val + dy.val, by omega⟩ : Fin 35) (⟨w.val + dx.val, by omega⟩ : Fin 32) ci)
            * wk V c (ix4 dy dx ci co))
        + bias V c (ix2 (0 : Fin 1) co)) 0

/-- The output array the region is shown to leave. -/
def G (c : Dev nD) : Buf (Elt Ideal) ((c : Thread nD τ).loc main_v73) :=
  fun i : S16x28x28x512.Idx => conv V c (i 0) (i 1) (i 2) (i 3)

theorem G_apply (c : Dev nD) (i : S16x28x28x512.Idx) : G V c i = conv V c (i 0) (i 1) (i 2) (i 3) := rfl

theorem conv_congr (c : Dev nD) {n n' : Fin 16} {h h' : Fin 28} {w w' : Fin 28} {co co' : Fin 512}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 7·r … of image n of the padded input. -/
theorem tiles_eq (c : Dev nD) (t : Fin cfg23.N) (hh : Fin 14) (w' : Fin 32) (ci : Fin 256) :
    tiles (iblk V c 0 t) (iblk V c 1 t) hh w' ci
      = xp V c (ix4 (pn t) (⟨(pr t).val * 7 + hh.val, by have := (pr t).isLt; omega⟩ : Fin 35) w' ci) := by
  unfold tiles
  split
  · rename_i h
    exact iblk0_apply V c t ⟨hh.val, h⟩ w' ci
  · rename_i h
    rw [iblk1_apply V c t ⟨hh.val - 7, by omega⟩ w' ci]
    congr 2
    apply Fin.ext
    show ((pr t).val + 1) * 7 + (hh.val - 7) = (pr t).val * 7 + hh.val
    omega

/-- The nine loaded tap matrices are the kernel array's taps. -/
theorem taps_eq (c : Dev nD) (t : Fin cfg23.N) (dy dx : Fin 3) (ci : Fin 256) (co : Fin 512) :
    taps (View.ld (iblk V c 2 t) (tapRect 0 0 inb_S3x3x256x512_S1x1x256x512_0_0_0_0))
        (View.ld (iblk V c 2 t) (tapRect 0 1 inb_S3x3x256x512_S1x1x256x512_0_1_0_0))
        (View.ld (iblk V c 2 t) (tapRect 0 2 inb_S3x3x256x512_S1x1x256x512_0_2_0_0))
        (View.ld (iblk V c 2 t) (tapRect 1 0 inb_S3x3x256x512_S1x1x256x512_1_0_0_0))
        (View.ld (iblk V c 2 t) (tapRect 1 1 inb_S3x3x256x512_S1x1x256x512_1_1_0_0))
        (View.ld (iblk V c 2 t) (tapRect 1 2 inb_S3x3x256x512_S1x1x256x512_1_2_0_0))
        (View.ld (iblk V c 2 t) (tapRect 2 0 inb_S3x3x256x512_S1x1x256x512_2_0_0_0))
        (View.ld (iblk V c 2 t) (tapRect 2 1 inb_S3x3x256x512_S1x1x256x512_2_1_0_0))
        (View.ld (iblk V c 2 t) (tapRect 2 2 inb_S3x3x256x512_S1x1x256x512_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x7x32x256 .f32) (wk' : Vec Ideal S3x3x256x512 .f32) (b : Vec Ideal S1x512 .f32)
    (th : Fin 7) (w : Fin 28) (co : Fin 512) :
    out xa xb wk' b (ix4 (0 : Fin 1) th w co)
      = max ((∑ dy : Fin 3, ∑ dx : Fin 3, ∑ ci : Fin 256,
              tiles xa xb (⟨th.val + dy.val, by omega⟩ : Fin 14) (⟨w.val + dx.val, by omega⟩ : Fin 32) ci
                * taps (View.ld wk' (tapRect 0 0 inb_S3x3x256x512_S1x1x256x512_0_0_0_0))
                    (View.ld wk' (tapRect 0 1 inb_S3x3x256x512_S1x1x256x512_0_1_0_0))
                    (View.ld wk' (tapRect 0 2 inb_S3x3x256x512_S1x1x256x512_0_2_0_0))
                    (View.ld wk' (tapRect 1 0 inb_S3x3x256x512_S1x1x256x512_1_0_0_0))
                    (View.ld wk' (tapRect 1 1 inb_S3x3x256x512_S1x1x256x512_1_1_0_0))
                    (View.ld wk' (tapRect 1 2 inb_S3x3x256x512_S1x1x256x512_1_2_0_0))
                    (View.ld wk' (tapRect 2 0 inb_S3x3x256x512_S1x1x256x512_2_0_0_0))
                    (View.ld wk' (tapRect 2 1 inb_S3x3x256x512_S1x1x256x512_2_1_0_0))
                    (View.ld wk' (tapRect 2 2 inb_S3x3x256x512_S1x1x256x512_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg23.N) :
    (dat V c).flushed 4 t = ((cfg23.win 4).blk t).view.read (Elt Ideal) (G V c) := by
  show (cfg23.win 4).cut (grid23.coords t) ((dat V c).after 4 t) = _
  rw [after_4]
  funext x
  obtain ⟨u, th, w, co, rfl⟩ : ∃ (u : Fin 1) (th : Fin 7) (w : Fin 28) (co : Fin 512), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg23.win 4).blk t).view.emb (ix4 (0 : Fin 1) th w co))
      = conv V c (pn t) (⟨(pr t).val * 7 + th.val, by have := (pr t).isLt; omega⟩ : Fin 28) w co :=
    (G_apply V c _).trans (conv_congr V c
      (Fin.ext (by show win23_4.index t 0 * 1 + 1 * 0 = t.val / 4; rw [h0]; omega))
      (Fin.ext (by show win23_4.index t 1 * 7 + 1 * th.val = t.val % 4 * 7 + th.val; rw [h1]; omega))
      (Fin.ext (by show win23_4.index t 2 * 28 + 1 * w.val = w.val; rw [h2]; omega))
      (Fin.ext (by show win23_4.index t 3 * 512 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 7 + (th.val + dy.val) = (pr t).val * 7 + th.val + dy.val
  omega

/-! ## The output's row tiles cover it -/

/-- An index of the output array is in point `t`'s block when its image and row tile are `t`'s. -/
theorem mem_blk (t : Fin cfg23.N) (i : S16x28x28x512.Idx) :
    i ∈ ((cfg23.win 4).blk t).view.set ↔ (i 0 : Nat) = t.val / 4 ∧ t.val % 4 * 7 ≤ (i 1 : Nat) ∧ (i 1 : Nat) < t.val % 4 * 7 + 7 := by
  show i ∈ ((View.whole main_v73).slice (win23_4.rect t)).set ↔ _
  rw [View.set_slice_whole, Rect.mem_set_unit]
  obtain ⟨-, -, -, -, ⟨h0, h1, h2, h3⟩⟩ := idx_facts t
  have b2 : (i 2 : Nat) < 28 := (i 2).isLt
  have b3 : (i 3 : Nat) < 512 := (i 3).isLt
  have e0 : win23_4.index t 0 * win23_4.size 0 = t.val / 4 := by rw [h0]; show t.val / 4 * 1 = _; omega
  have e1 : win23_4.index t 1 * win23_4.size 1 = t.val % 4 * 7 := by rw [h1]; rfl
  have e2 : win23_4.index t 2 * win23_4.size 2 = 0 := by rw [h2]; rfl
  have e3 : win23_4.index t 3 * win23_4.size 3 = 0 := by rw [h3]; rfl
  have x0 : win23_4.xsize (grid23.coords t) 0 = 1 := rfl
  have x1 : win23_4.xsize (grid23.coords t) 1 = 7 := rfl
  have x2 : win23_4.xsize (grid23.coords t) 2 = 28 := rfl
  have x3 : win23_4.xsize (grid23.coords t) 3 = 512 := rfl
  refine ⟨fun h => ?_, fun h a => ?_⟩
  · have a0 := h 0; have a1 := h 1
    rw [e0, x0] at a0; rw [e1, x1] at a1
    exact ⟨by omega, a1⟩
  · match a with
    | ⟨0, _⟩ => show win23_4.index t 0 * win23_4.size 0 ≤ (i 0 : Nat) ∧ (i 0 : Nat) < win23_4.index t 0 * win23_4.size 0 + win23_4.xsize (grid23.coords t) 0
                rw [e0, x0]; omega
    | ⟨1, _⟩ => show win23_4.index t 1 * win23_4.size 1 ≤ (i 1 : Nat) ∧ (i 1 : Nat) < win23_4.index t 1 * win23_4.size 1 + win23_4.xsize (grid23.coords t) 1
                rw [e1, x1]; exact h.2
    | ⟨2, _⟩ => show win23_4.index t 2 * win23_4.size 2 ≤ (i 2 : Nat) ∧ (i 2 : Nat) < win23_4.index t 2 * win23_4.size 2 + win23_4.xsize (grid23.coords t) 2
                rw [e2, x2]; omega
    | ⟨3, _⟩ => show win23_4.index t 3 * win23_4.size 3 ≤ (i 3 : Nat) ∧ (i 3 : Nat) < win23_4.index t 3 * win23_4.size 3 + win23_4.xsize (grid23.coords t) 3
                rw [e3, x3]; omega

/-- Every index of the output array is in the block of the point of its image and row tile. -/
theorem cover (i : S16x28x28x512.Idx) :
    ∃ t : Fin cfg23.N, (cfg23.win 4).flush t = true ∧ i ∈ ((cfg23.win 4).blk t).view.set := by
  have b0 : (i 0 : Nat) < 16 := (i 0).isLt
  have b1 : (i 1 : Nat) < 28 := (i 1).isLt
  refine ⟨⟨(i 0 : Nat) * 4 + (i 1 : Nat) / 7, by rw [N_eq]; omega⟩, flush23_4 _, ?_⟩
  rw [mem_blk]
  dsimp only
  omega

/-- The output array after the last grid point is `G`. -/
theorem final_out (c : Dev nD) : (dat V c).arrAt 4 cfg23.N = G V c :=
  (dat V c).arrAt_eq_of_cover 4 (G V c) (fun t _ => flushed_eq V c t) cover

/-- The output array after the last grid point: at (n, h, w, co) the 3×3 correlation of the padded input with the
    kernel over the 256 input channels, plus the bias, clamped below at zero. The sums nest dy, dx, ci. -/
theorem out_value (c : Dev nD) (n : Fin 16) (h : Fin 28) (w : Fin 28) (co : Fin 512) :
    (dat V c).arrAt 4 cfg23.N (ix4 n h w co)
      = max ((∑ dy : Fin 3, ∑ dx : Fin 3, ∑ ci : Fin 256,
                xp V c (ix4 n (⟨h.val + dy.val, by omega⟩ : Fin 35) (⟨w.val + dx.val, by omega⟩ : Fin 32) ci)
                  * wk V c (ix4 dy dx ci co))
              + bias V c (ix2 (0 : Fin 1) co)) 0 := by
  rw [final_out]
  rfl

end Cert.ReferenceIdeal.Reg23
-- ==== Proof.RI.Val23.lean ====
import proofs.«143011_g2000502688546152_pallasbulk_1201_3_alg».proof.Proof.RI.Seg23
import proofs.«143011_g2000502688546152_pallasbulk_1201_3_alg».proof.Proof.RI.Reg23Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg23

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 28 28 256)
    (hx : ∀ (n : Fin 16) (i : Fin 35) (j : Fin 32) (ci : Fin 256),
      (W c (Proc.devRef .tc (Pipeline.arrRef spec23 0)) : FVec 𝕀 S16x35x32x256 .f32) (ix4 n i j ci) = Cert.Spec.padAt z n i.val j.val ci) :
    Cert.Spec.curry4 (Wout W c (Proc.devRef .tc (Pipeline.arrRef spec23 4)) : FVec 𝕀 S16x28x28x512 .f32)
      = Cert.Spec.convRelu z (Cert.Spec.curryW (W c (Proc.devRef .tc (Pipeline.arrRef spec23 2)) : FVec 𝕀 S3x3x256x512 .f32))
          (Cert.Spec.curryB (W c (Proc.devRef .tc (Pipeline.arrRef spec23 3)) : FVec 𝕀 S1x512 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg23

end
-- ==== Proof.RI.Reg24Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (7·32 each, then 32 zero rows), and for each tap (dy, dx)
multiplies the rows shifted by 32·dy + dx with the tap's [256, 512] matrix. Read at row th·32 + w and column co, the nine
products add up to the 3×3 correlation at pixel (th, w), output channel co. -/

set_option maxRecDepth 16384

noncomputable section

namespace Cert.ReferenceIdeal.Reg24

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [224, 256] by [256, 512] product into the zero accumulator, at (r, co): the sum over the 256 input channels. -/
theorem mm_apply (L : FVec Ideal S224x256 .f32) (R : FVec Ideal S256x512 .f32) (r : Fin 224) (co : Fin 512) :
    matmul dot_S224x256_S256x512_S224x512_1_0_0_1_n_n none L R (constant S224x512 .f32 0x00000000#32) (ix2 r co)
      = ∑ ci : Fin 256, L (ix2 r ci) * R (ix2 ci co) := by
  refine (Ideal.matmul_constant_zero_apply _ _ _ _ _).trans ?_
  refine (Equiv.sum_comp (contrEquiv1 dot_S224x256_S256x512_S224x512_1_0_0_1_n_n 256 rfl rfl).symm _).symm.trans ?_
  refine Finset.sum_congr rfl fun ci _ => ?_
  have hl : dot_S224x256_S256x512_S224x512_1_0_0_1_n_n.lhsIdx (ix2 r co)
      ((contrEquiv1 dot_S224x256_S256x512_S224x512_1_0_0_1_n_n 256 rfl rfl).symm ci) = ix2 r ci := by
    funext a; apply Fin.ext
    match a with
    | ⟨0, _⟩ => rfl
    | ⟨1, _⟩ => exact contrEquiv1_symm_val dot_S224x256_S256x512_S224x512_1_0_0_1_n_n 256 rfl rfl ci
  have hr : dot_S224x256_S256x512_S224x512_1_0_0_1_n_n.rhsIdx (ix2 r co)
      ((contrEquiv1 dot_S224x256_S256x512_S224x512_1_0_0_1_n_n 256 rfl rfl).symm ci) = ix2 ci co := by
    funext a; apply Fin.ext
    match a with
    | ⟨0, _⟩ => exact contrEquiv1_symm_val dot_S224x256_S256x512_S224x512_1_0_0_1_n_n 256 rfl rfl ci
    | ⟨1, _⟩ => rfl
  rw [hl, hr]

/-! ## The stacked rows -/

section Slab
variable (xa xb : Vec Ideal S1x7x32x256 .f32)

/-- Pixel (hh, w') of the two tiles stacked one above the other, hh < 14. -/
def tiles (hh : Fin 14) (w' : Fin 32) (ci : Fin 256) : EReal :=
  if h : hh.val < 7 then xa (ix4 (0 : Fin 1) (⟨hh.val, h⟩ : Fin 7) w' ci)
  else xb (ix4 (0 : Fin 1) (⟨hh.val - 7, by omega⟩ : Fin 7) w' ci)

/-- Row hh·32 + w' of the first 224 rows is pixel (hh, w') of the first tile. -/
theorem slab_lo (hh : Fin 7) (w' : Fin 32) (ci : Fin 256) (q : Fin 480) (hq : q.val = hh.val * 32 + w'.val) :
    k24_pay2 xa xb (ix2 q ci) = xa (ix4 (0 : Fin 1) hh w' ci) := by
  unfold k24_pay2
  have hq' : q.val < 224 := by have := hh.isLt; have := w'.isLt; omega
  refine Eq.trans (concatenate_apply_piece (0 : Fin 2) _ _ (ix2 q ci) 0 ?_ S224x256
    (shapeCast S224x256 (shapeCast S7x32x256 xa shapeCasts_S1x7x32x256_S7x32x256) shapeCasts_S7x32x256_S224x256) ?_ ?_ 0 ?_
    (ix2 (⟨q.val, hq'⟩ : Fin 224) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 256 + ci.val = q.val * 256 + ci.val
      rw [hq]
    · rw [Shape.rowMajor_val_four, Shape.rowMajor_val_three]
      show ((0 * 7 + hh.val) * 32 + w'.val) * 256 + ci.val = (hh.val * 32 + w'.val) * 256 + ci.val
      omega

/-- Row 224 + hh·32 + w' is pixel (hh, w') of the second tile. -/
theorem slab_hi (hh : Fin 7) (w' : Fin 32) (ci : Fin 256) (q : Fin 480) (hq : q.val = 224 + (hh.val * 32 + w'.val)) :
    k24_pay2 xa xb (ix2 q ci) = xb (ix4 (0 : Fin 1) hh w' ci) := by
  unfold k24_pay2
  have hq' : q.val - 224 < 224 := by have := hh.isLt; have := w'.isLt; omega
  refine Eq.trans (concatenate_apply_piece (0 : Fin 2) _ _ (ix2 q ci) 1 ?_ S224x256
    (shapeCast S224x256 (shapeCast S7x32x256 xb shapeCasts_S1x7x32x256_S7x32x256) shapeCasts_S7x32x256_S224x256) ?_ ?_ 224 ?_
    (ix2 (⟨q.val - 224, hq'⟩ : Fin 224) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 224 + (q.val - 224) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 256 + ci.val = (q.val - 224) * 256 + ci.val
      omega
    · rw [Shape.rowMajor_val_four, Shape.rowMajor_val_three]
      show ((0 * 7 + hh.val) * 32 + w'.val) * 256 + ci.val = (hh.val * 32 + w'.val) * 256 + ci.val
      omega

/-- Row hh·32 + w', hh < 14, of the stacked rows is pixel (hh, w') of the stacked tiles. -/
theorem slab_apply (hh : Fin 14) (w' : Fin 32) (ci : Fin 256) (q : Fin 480) (hq : q.val = hh.val * 32 + w'.val) :
    k24_pay2 xa xb (ix2 q ci) = tiles xa xb hh w' ci := by
  unfold tiles
  split
  · rename_i h; exact slab_lo xa xb ⟨hh.val, h⟩ w' ci q hq
  · rename_i h; exact slab_hi xa xb ⟨hh.val - 7, by omega⟩ w' ci q (by show q.val = 224 + ((hh.val - 7) * 32 + w'.val); omega)

end Slab

/-! ## A tap's product read at an entry -/

/-- A tap matrix [1, 1, 256, 512] flattened to [256, 512], at (ci, co). -/
theorem tapmat_apply (Wt : Vec Ideal S1x1x256x512 .f32) (ci : Fin 256) (co : Fin 512) :
    (shapeCast S256x512 Wt shapeCasts_S1x1x256x512_S256x512 : FVec Ideal S256x512 .f32) (ix2 ci co) = Wt (ix4 (0 : Fin 1) (0 : Fin 1) ci co) := by
  refine shapeCast_apply _ _ _ _ ?_
  rw [Shape.rowMajor_val_four, Shape.rowMajor_val_two]
  show ((0 * 1 + 0) * 256 + ci.val) * 512 + co.val = ci.val * 512 + co.val
  omega

/-- Rows o, o+1, … of a matrix of n0 rows against a flattened tap matrix, at (r, co): the sum over the 256 input
    channels of row o + r times the tap's column co. -/
theorem tap_apply {n0 : Nat} (o : Nat) (X : FVec Ideal ⟨2, ![n0, 256]⟩ .f32)
    (h : (⟨2, ![n0, 256]⟩ : Shape).Slices ![o, 0] S224x256) (Wt : Vec Ideal S1x1x256x512 .f32)
    (r : Fin 224) (co : Fin 512) (hk : o + 223 < n0) :
    matmul dot_S224x256_S256x512_S224x512_1_0_0_1_n_n none (extractStridedSlice S224x256 ![o, 0] X h : FVec Ideal S224x256 .f32)
        (shapeCast S256x512 Wt shapeCasts_S1x1x256x512_S256x512 : FVec Ideal S256x512 .f32) (constant S224x512 .f32 0x00000000#32) (ix2 r co)
      = ∑ ci : Fin 256, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x7x32x256 .f32)

/-- The rows from the second on. -/
theorem pay3_apply (q : Fin 479) (ci : Fin 256) :
    k24_pay3 xa xb (ix2 q ci) = k24_pay2 xa xb (ix2 (⟨1 + q.val, by omega⟩ : Fin 480) ci) := by
  unfold k24_pay3
  exact slice2_axis0_apply 1 _ _ q ci _ rfl

/-- The rows from the third on. -/
theorem pay4_apply (q : Fin 478) (ci : Fin 256) :
    k24_pay4 xa xb (ix2 q ci) = k24_pay2 xa xb (ix2 (⟨2 + q.val, by omega⟩ : Fin 480) ci) := by
  unfold k24_pay4
  exact slice2_axis0_apply 2 _ _ q ci _ rfl

end Shift

/-! ## The accumulations -/

/-- The first three taps added onto zero. -/
theorem pay5_apply (xa xb : Vec Ideal S1x7x32x256 .f32) (w00 w01 w02 : Vec Ideal S1x1x256x512 .f32) (r : Fin 224) (co : Fin 512) :
    k24_pay5 xa xb w00 w01 w02 (ix2 r co)
      = 0 + (∑ ci : Fin 256, k24_pay2 xa xb (ix2 (⟨0 + r.val, by omega⟩ : Fin 480) ci) * w00 (ix4 (0 : Fin 1) (0 : Fin 1) ci co))
          + (∑ ci : Fin 256, k24_pay3 xa xb (ix2 (⟨0 + r.val, by omega⟩ : Fin 479) ci) * w01 (ix4 (0 : Fin 1) (0 : Fin 1) ci co))
          + (∑ ci : Fin 256, k24_pay4 xa xb (ix2 (⟨0 + r.val, by omega⟩ : Fin 478) ci) * w02 (ix4 (0 : Fin 1) (0 : Fin 1) ci co)) := by
  unfold k24_pay5
  simp only [addf_apply]
  rw [tap_apply 0 (k24_pay2 xa xb) _ w00 r co (by omega), tap_apply 0 (k24_pay3 xa xb) _ w01 r co (by omega),
    tap_apply 0 (k24_pay4 xa xb) _ w02 r co (by omega)]
  congr 3
  exact Ideal.ofBits_zero_f32

/-- The other six taps and the bias added onto what the first three left. -/
theorem pay8_apply (v7 : FVec Ideal S480x256 .f32) (v8 : FVec Ideal S479x256 .f32) (v9 : FVec Ideal S478x256 .f32)
    (v25 : FVec Ideal S224x512 .f32) (v26 : FVec Ideal S224x256 .f32) (v28 : FVec Ideal S256x512 .f32)
    (w11 w12 w20 w21 w22 : Vec Ideal S1x1x256x512 .f32) (b : Vec Ideal S1x512 .f32) (r : Fin 224) (co : Fin 512) :
    k24_pay8 v7 v8 v9 v25 v26 v28 w11 w12 w20 w21 w22 b (ix2 r co)
      = v25 (ix2 r co) + (∑ ci : Fin 256, v26 (ix2 r ci) * v28 (ix2 ci co))
          + (∑ ci : Fin 256, v8 (ix2 (⟨32 + r.val, by omega⟩ : Fin 479) ci) * w11 (ix4 (0 : Fin 1) (0 : Fin 1) ci co))
          + (∑ ci : Fin 256, v9 (ix2 (⟨32 + r.val, by omega⟩ : Fin 478) ci) * w12 (ix4 (0 : Fin 1) (0 : Fin 1) ci co))
          + (∑ ci : Fin 256, v7 (ix2 (⟨64 + r.val, by omega⟩ : Fin 480) ci) * w20 (ix4 (0 : Fin 1) (0 : Fin 1) ci co))
          + (∑ ci : Fin 256, v8 (ix2 (⟨64 + r.val, by omega⟩ : Fin 479) ci) * w21 (ix4 (0 : Fin 1) (0 : Fin 1) ci co))
          + (∑ ci : Fin 256, v9 (ix2 (⟨64 + r.val, by omega⟩ : Fin 478) ci) * w22 (ix4 (0 : Fin 1) (0 : Fin 1) ci co))
          + b (ix2 (0 : Fin 1) co) := by
  unfold k24_pay8
  simp only [addf_apply]
  rw [mm_apply, tap_apply 32 v8 _ w11 r co (by omega), tap_apply 32 v9 _ w12 r co (by omega),
    tap_apply 64 v7 _ w20 r co (by omega), tap_apply 64 v8 _ w21 r co (by omega), tap_apply 64 v9 _ w22 r co (by omega),
    broadcastTo_1b_ab_apply]

/-- The fourth tap's rows and matrix. -/
theorem pay6_apply (xa xb : Vec Ideal S1x7x32x256 .f32) (r : Fin 224) (ci : Fin 256) :
    k24_pay6 xa xb (ix2 r ci) = k24_pay2 xa xb (ix2 (⟨32 + r.val, by omega⟩ : Fin 480) ci) := by
  unfold k24_pay6
  exact slice2_axis0_apply 32 _ _ r ci _ rfl

theorem pay7_apply (w10 : Vec Ideal S1x1x256x512 .f32) (ci : Fin 256) (co : Fin 512) :
    k24_pay7 w10 (ix2 ci co) = w10 (ix4 (0 : Fin 1) (0 : Fin 1) ci co) := by
  unfold k24_pay7
  exact tapmat_apply w10 ci co

/-- The clamp and the cut to 28 columns: entry (0, th, w, co) of the tile is row th·32 + w, column co. -/
theorem pay1_apply (v58 v59 : FVec Ideal S224x512 .f32) (th : Fin 7) (w : Fin 28) (co : Fin 512) :
    k24_pay1 v58 v59 (ix4 (0 : Fin 1) th w co)
      = max (v58 (ix2 (⟨th.val * 32 + w.val, by omega⟩ : Fin 224) co)) (v59 (ix2 (⟨th.val * 32 + w.val, by omega⟩ : Fin 224) co)) := by
  unfold k24_pay1
  refine (shapeCast_abc_1abc_apply _ _ (0 : Fin 1) th w co).trans ?_
  refine (slice3_axis1_apply 0 _ _ th w co (⟨w.val, by omega⟩ : Fin 32) (by simp)).trans ?_
  refine (shapeCast_apply _ _ _ (ix2 (⟨th.val * 32 + w.val, by omega⟩ : Fin 224) co) ?_).trans (maximumf_apply _ _ _)
  rw [Shape.rowMajor_val_two, Shape.rowMajor_val_three]
  rfl

theorem pay9_apply (j : S224x512.Idx) : k24_pay9 (F := Ideal) j = 0 := by
  unfold k24_pay9
  exact Ideal.ofBits_zero_f32

/-! ## The body's value at an entry -/

section Entry
variable (xa xb : Vec Ideal S1x7x32x256 .f32)

/-- Row (th+dy)·32 + (w+dx) of the stacked rows is pixel (th+dy, w+dx) of the stacked tiles. -/
theorem slab_tap (th : Fin 7) (w : Fin 28) (dy dx : Fin 3) (ci : Fin 256) (q : Fin 480)
    (hq : q.val = (th.val + dy.val) * 32 + (w.val + dx.val)) :
    k24_pay2 xa xb (ix2 q ci)
      = tiles xa xb (⟨th.val + dy.val, by omega⟩ : Fin 14) (⟨w.val + dx.val, by omega⟩ : Fin 32) ci :=
  slab_apply xa xb _ _ ci q hq

/-- The nine tap matrices as one family. -/
def taps (w00 w01 w02 w10 w11 w12 w20 w21 w22 : Vec Ideal S1x1x256x512 .f32) (dy dx : Fin 3) : Vec Ideal S1x1x256x512 .f32 :=
  ![![w00, w01, w02], ![w10, w11, w12], ![w20, w21, w22]] dy dx

/-- One output entry of the body: the 3×3 correlation of the stacked tiles with the nine tap matrices over the 256
    input channels, plus the bias, clamped below at zero. -/
theorem conv_entry (w00 w01 w02 w10 w11 w12 w20 w21 w22 : Vec Ideal S1x1x256x512 .f32) (b : Vec Ideal S1x512 .f32)
    (th : Fin 7) (w : Fin 28) (co : Fin 512) :
    k24_pay1 (k24_pay8 (k24_pay2 xa xb) (k24_pay3 xa xb) (k24_pay4 xa xb) (k24_pay5 xa xb w00 w01 w02) (k24_pay6 xa xb)
        (k24_pay7 w10) w11 w12 w20 w21 w22 b) k24_pay9 (ix4 (0 : Fin 1) th w co)
      = max ((∑ dy : Fin 3, ∑ dx : Fin 3, ∑ ci : Fin 256,
              tiles xa xb (⟨th.val + dy.val, by omega⟩ : Fin 14) (⟨w.val + dx.val, by omega⟩ : Fin 32) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 256,
      tiles xa xb (⟨th.val + dy.val, by omega⟩ : Fin 14) (⟨w.val + dx.val, by omega⟩ : Fin 32) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg24
-- ==== Proof.RI.Reg24Value.lean ====
import proofs.«143011_g2000502688546152_pallasbulk_1201_3_alg».proof.Proof.RI.Reg24
import proofs.«143011_g2000502688546152_pallasbulk_1201_3_alg».proof.Proof.RI.Reg24Pure

/-! # Region 24 at the extended reals: the output array is the 3×3 correlation, plus bias, clamped at zero

Point t = 4·n + r of the grid writes back the output's row tile r of image n. Its two input tiles are row tiles r and
r + 1 of the padded input, so row h + dy of the padded input, h = 7·r + th, is row th + dy of the two tiles stacked. -/

set_option maxRecDepth 16384

noncomputable section

namespace Cert.ReferenceIdeal.Reg24

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 35, 32, 256], the kernel [3, 3, 256, 512] and the bias [1, 512] as the region finds them. -/
abbrev xp (c : Dev nD) : S16x35x32x256.Idx → EReal := V c (Pipeline.arrRef spec24 0)
abbrev wk (c : Dev nD) : S3x3x256x512.Idx → EReal := V c (Pipeline.arrRef spec24 2)
abbrev bias (c : Dev nD) : S1x512.Idx → EReal := V c (Pipeline.arrRef spec24 3)

/-! ## The grid's points and the windows' block indices -/

theorem N_eq : cfg24.N = 64 := N_24

/-- The image and the row tile of point `t`. -/
def pn (t : Fin cfg24.N) : Fin 16 := ⟨t.val / 4, by have := t.isLt; have := N_eq; omega⟩
def pr (t : Fin cfg24.N) : Fin 4 := ⟨t.val % 4, Nat.mod_lt _ (by decide)⟩

/-- The five windows' block indices at every point: (n, r), (n, r + 1), the origin twice, (n, r). -/
theorem idx_facts : ∀ t : Fin cfg24.N,
    (win24_0.index t 0 = t.val / 4 ∧ win24_0.index t 1 = t.val % 4 ∧ win24_0.index t 2 = 0 ∧ win24_0.index t 3 = 0)
    ∧ (win24_1.index t 0 = t.val / 4 ∧ win24_1.index t 1 = t.val % 4 + 1 ∧ win24_1.index t 2 = 0 ∧ win24_1.index t 3 = 0)
    ∧ (win24_2.index t 0 = 0 ∧ win24_2.index t 1 = 0 ∧ win24_2.index t 2 = 0 ∧ win24_2.index t 3 = 0)
    ∧ (win24_3.index t 0 = 0 ∧ win24_3.index t 1 = 0)
    ∧ (win24_4.index t 0 = t.val / 4 ∧ win24_4.index t 1 = t.val % 4 ∧ win24_4.index t 2 = 0 ∧ win24_4.index t 3 = 0) :=
  (by decide +kernel : ∀ t : Fin grid24.N, _)

/-! ## The windows' blocks read at an index -/

/-- The first input tile at point (n, r): rows 7·r … of image n of the padded input. -/
theorem iblk0_apply (c : Dev nD) (t : Fin cfg24.N) (hh : Fin 7) (w' : Fin 32) (ci : Fin 256) :
    iblk V c 0 t (ix4 (0 : Fin 1) hh w' ci)
      = xp V c (ix4 (pn t) (⟨(pr t).val * 7 + hh.val, by have := (pr t).isLt; omega⟩ : Fin 35) w' ci) := by
  obtain ⟨⟨h0, h1, h2, h3⟩, -⟩ := idx_facts t
  unfold iblk
  rw [View.read_apply]
  show V c (Pipeline.arrRef spec24 0) _ = V c (Pipeline.arrRef spec24 0) _
  congr 1
  funext a
  apply Fin.ext
  match a with
  | ⟨0, _⟩ => show win24_0.index t 0 * 1 + 1 * 0 = t.val / 4; rw [h0]; omega
  | ⟨1, _⟩ => show win24_0.index t 1 * 7 + 1 * hh.val = t.val % 4 * 7 + hh.val; rw [h1]; omega
  | ⟨2, _⟩ => show win24_0.index t 2 * 32 + 1 * w'.val = w'.val; rw [h2]; omega
  | ⟨3, _⟩ => show win24_0.index t 3 * 256 + 1 * ci.val = ci.val; rw [h3]; omega

/-- The second input tile at point (n, r): rows 7·(r + 1) … of image n of the padded input. -/
theorem iblk1_apply (c : Dev nD) (t : Fin cfg24.N) (hh : Fin 7) (w' : Fin 32) (ci : Fin 256) :
    iblk V c 1 t (ix4 (0 : Fin 1) hh w' ci)
      = xp V c (ix4 (pn t) (⟨((pr t).val + 1) * 7 + hh.val, by have := (pr t).isLt; omega⟩ : Fin 35) w' ci) := by
  obtain ⟨-, ⟨h0, h1, h2, h3⟩, -⟩ := idx_facts t
  unfold iblk
  rw [View.read_apply]
  show V c (Pipeline.arrRef spec24 1) _ = V c (Pipeline.arrRef spec24 0) _
  congr 1
  funext a
  apply Fin.ext
  match a with
  | ⟨0, _⟩ => show win24_1.index t 0 * 1 + 1 * 0 = t.val / 4; rw [h0]; omega
  | ⟨1, _⟩ => show win24_1.index t 1 * 7 + 1 * hh.val = (t.val % 4 + 1) * 7 + hh.val; rw [h1]; omega
  | ⟨2, _⟩ => show win24_1.index t 2 * 32 + 1 * w'.val = w'.val; rw [h2]; omega
  | ⟨3, _⟩ => show win24_1.index t 3 * 256 + 1 * ci.val = ci.val; rw [h3]; omega

/-- The kernel window is the whole kernel array at every point. -/
theorem iblk2_apply (c : Dev nD) (t : Fin cfg24.N) (dy dx : Fin 3) (ci : Fin 256) (co : Fin 512) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec24 2) _ = V c (Pipeline.arrRef spec24 2) _
  congr 1
  funext a
  apply Fin.ext
  match a with
  | ⟨0, _⟩ => show win24_2.index t 0 * 3 + 1 * dy.val = dy.val; rw [h0]; omega
  | ⟨1, _⟩ => show win24_2.index t 1 * 3 + 1 * dx.val = dx.val; rw [h1]; omega
  | ⟨2, _⟩ => show win24_2.index t 2 * 256 + 1 * ci.val = ci.val; rw [h2]; omega
  | ⟨3, _⟩ => show win24_2.index t 3 * 512 + 1 * co.val = co.val; rw [h3]; omega

/-- The bias window is the whole bias row at every point. -/
theorem iblk3_apply (c : Dev nD) (t : Fin cfg24.N) (co : Fin 512) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec24 3) _ = V c (Pipeline.arrRef spec24 3) _
  congr 1
  funext a
  apply Fin.ext
  match a with
  | ⟨0, _⟩ => show win24_3.index t 0 * 1 + 1 * 0 = 0; rw [h0]
  | ⟨1, _⟩ => show win24_3.index t 1 * 512 + 1 * co.val = co.val; rw [h1]; omega

/-! ## The whole-array function and what a point writes back -/

/-- The correlation at (n, h, w, co): the sums nest dy, dx, ci. -/
def conv (c : Dev nD) (n : Fin 16) (h : Fin 28) (w : Fin 28) (co : Fin 512) : EReal :=
  max ((∑ dy : Fin 3, ∑ dx : Fin 3, ∑ ci : Fin 256,
          xp V c (ix4 n (⟨h.val + dy.val, by omega⟩ : Fin 35) (⟨w.val + dx.val, by omega⟩ : Fin 32) ci)
            * wk V c (ix4 dy dx ci co))
        + bias V c (ix2 (0 : Fin 1) co)) 0

/-- The output array the region is shown to leave. -/
def G (c : Dev nD) : Buf (Elt Ideal) ((c : Thread nD τ).loc main_v75) :=
  fun i : S16x28x28x512.Idx => conv V c (i 0) (i 1) (i 2) (i 3)

theorem G_apply (c : Dev nD) (i : S16x28x28x512.Idx) : G V c i = conv V c (i 0) (i 1) (i 2) (i 3) := rfl

theorem conv_congr (c : Dev nD) {n n' : Fin 16} {h h' : Fin 28} {w w' : Fin 28} {co co' : Fin 512}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 7·r … of image n of the padded input. -/
theorem tiles_eq (c : Dev nD) (t : Fin cfg24.N) (hh : Fin 14) (w' : Fin 32) (ci : Fin 256) :
    tiles (iblk V c 0 t) (iblk V c 1 t) hh w' ci
      = xp V c (ix4 (pn t) (⟨(pr t).val * 7 + hh.val, by have := (pr t).isLt; omega⟩ : Fin 35) w' ci) := by
  unfold tiles
  split
  · rename_i h
    exact iblk0_apply V c t ⟨hh.val, h⟩ w' ci
  · rename_i h
    rw [iblk1_apply V c t ⟨hh.val - 7, by omega⟩ w' ci]
    congr 2
    apply Fin.ext
    show ((pr t).val + 1) * 7 + (hh.val - 7) = (pr t).val * 7 + hh.val
    omega

/-- The nine loaded tap matrices are the kernel array's taps. -/
theorem taps_eq (c : Dev nD) (t : Fin cfg24.N) (dy dx : Fin 3) (ci : Fin 256) (co : Fin 512) :
    taps (View.ld (iblk V c 2 t) (tapRect 0 0 inb_S3x3x256x512_S1x1x256x512_0_0_0_0))
        (View.ld (iblk V c 2 t) (tapRect 0 1 inb_S3x3x256x512_S1x1x256x512_0_1_0_0))
        (View.ld (iblk V c 2 t) (tapRect 0 2 inb_S3x3x256x512_S1x1x256x512_0_2_0_0))
        (View.ld (iblk V c 2 t) (tapRect 1 0 inb_S3x3x256x512_S1x1x256x512_1_0_0_0))
        (View.ld (iblk V c 2 t) (tapRect 1 1 inb_S3x3x256x512_S1x1x256x512_1_1_0_0))
        (View.ld (iblk V c 2 t) (tapRect 1 2 inb_S3x3x256x512_S1x1x256x512_1_2_0_0))
        (View.ld (iblk V c 2 t) (tapRect 2 0 inb_S3x3x256x512_S1x1x256x512_2_0_0_0))
        (View.ld (iblk V c 2 t) (tapRect 2 1 inb_S3x3x256x512_S1x1x256x512_2_1_0_0))
        (View.ld (iblk V c 2 t) (tapRect 2 2 inb_S3x3x256x512_S1x1x256x512_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x7x32x256 .f32) (wk' : Vec Ideal S3x3x256x512 .f32) (b : Vec Ideal S1x512 .f32)
    (th : Fin 7) (w : Fin 28) (co : Fin 512) :
    out xa xb wk' b (ix4 (0 : Fin 1) th w co)
      = max ((∑ dy : Fin 3, ∑ dx : Fin 3, ∑ ci : Fin 256,
              tiles xa xb (⟨th.val + dy.val, by omega⟩ : Fin 14) (⟨w.val + dx.val, by omega⟩ : Fin 32) ci
                * taps (View.ld wk' (tapRect 0 0 inb_S3x3x256x512_S1x1x256x512_0_0_0_0))
                    (View.ld wk' (tapRect 0 1 inb_S3x3x256x512_S1x1x256x512_0_1_0_0))
                    (View.ld wk' (tapRect 0 2 inb_S3x3x256x512_S1x1x256x512_0_2_0_0))
                    (View.ld wk' (tapRect 1 0 inb_S3x3x256x512_S1x1x256x512_1_0_0_0))
                    (View.ld wk' (tapRect 1 1 inb_S3x3x256x512_S1x1x256x512_1_1_0_0))
                    (View.ld wk' (tapRect 1 2 inb_S3x3x256x512_S1x1x256x512_1_2_0_0))
                    (View.ld wk' (tapRect 2 0 inb_S3x3x256x512_S1x1x256x512_2_0_0_0))
                    (View.ld wk' (tapRect 2 1 inb_S3x3x256x512_S1x1x256x512_2_1_0_0))
                    (View.ld wk' (tapRect 2 2 inb_S3x3x256x512_S1x1x256x512_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg24.N) :
    (dat V c).flushed 4 t = ((cfg24.win 4).blk t).view.read (Elt Ideal) (G V c) := by
  show (cfg24.win 4).cut (grid24.coords t) ((dat V c).after 4 t) = _
  rw [after_4]
  funext x
  obtain ⟨u, th, w, co, rfl⟩ : ∃ (u : Fin 1) (th : Fin 7) (w : Fin 28) (co : Fin 512), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg24.win 4).blk t).view.emb (ix4 (0 : Fin 1) th w co))
      = conv V c (pn t) (⟨(pr t).val * 7 + th.val, by have := (pr t).isLt; omega⟩ : Fin 28) w co :=
    (G_apply V c _).trans (conv_congr V c
      (Fin.ext (by show win24_4.index t 0 * 1 + 1 * 0 = t.val / 4; rw [h0]; omega))
      (Fin.ext (by show win24_4.index t 1 * 7 + 1 * th.val = t.val % 4 * 7 + th.val; rw [h1]; omega))
      (Fin.ext (by show win24_4.index t 2 * 28 + 1 * w.val = w.val; rw [h2]; omega))
      (Fin.ext (by show win24_4.index t 3 * 512 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 7 + (th.val + dy.val) = (pr t).val * 7 + th.val + dy.val
  omega

/-! ## The output's row tiles cover it -/

/-- An index of the output array is in point `t`'s block when its image and row tile are `t`'s. -/
theorem mem_blk (t : Fin cfg24.N) (i : S16x28x28x512.Idx) :
    i ∈ ((cfg24.win 4).blk t).view.set ↔ (i 0 : Nat) = t.val / 4 ∧ t.val % 4 * 7 ≤ (i 1 : Nat) ∧ (i 1 : Nat) < t.val % 4 * 7 + 7 := by
  show i ∈ ((View.whole main_v75).slice (win24_4.rect t)).set ↔ _
  rw [View.set_slice_whole, Rect.mem_set_unit]
  obtain ⟨-, -, -, -, ⟨h0, h1, h2, h3⟩⟩ := idx_facts t
  have b2 : (i 2 : Nat) < 28 := (i 2).isLt
  have b3 : (i 3 : Nat) < 512 := (i 3).isLt
  have e0 : win24_4.index t 0 * win24_4.size 0 = t.val / 4 := by rw [h0]; show t.val / 4 * 1 = _; omega
  have e1 : win24_4.index t 1 * win24_4.size 1 = t.val % 4 * 7 := by rw [h1]; rfl
  have e2 : win24_4.index t 2 * win24_4.size 2 = 0 := by rw [h2]; rfl
  have e3 : win24_4.index t 3 * win24_4.size 3 = 0 := by rw [h3]; rfl
  have x0 : win24_4.xsize (grid24.coords t) 0 = 1 := rfl
  have x1 : win24_4.xsize (grid24.coords t) 1 = 7 := rfl
  have x2 : win24_4.xsize (grid24.coords t) 2 = 28 := rfl
  have x3 : win24_4.xsize (grid24.coords t) 3 = 512 := rfl
  refine ⟨fun h => ?_, fun h a => ?_⟩
  · have a0 := h 0; have a1 := h 1
    rw [e0, x0] at a0; rw [e1, x1] at a1
    exact ⟨by omega, a1⟩
  · match a with
    | ⟨0, _⟩ => show win24_4.index t 0 * win24_4.size 0 ≤ (i 0 : Nat) ∧ (i 0 : Nat) < win24_4.index t 0 * win24_4.size 0 + win24_4.xsize (grid24.coords t) 0
                rw [e0, x0]; omega
    | ⟨1, _⟩ => show win24_4.index t 1 * win24_4.size 1 ≤ (i 1 : Nat) ∧ (i 1 : Nat) < win24_4.index t 1 * win24_4.size 1 + win24_4.xsize (grid24.coords t) 1
                rw [e1, x1]; exact h.2
    | ⟨2, _⟩ => show win24_4.index t 2 * win24_4.size 2 ≤ (i 2 : Nat) ∧ (i 2 : Nat) < win24_4.index t 2 * win24_4.size 2 + win24_4.xsize (grid24.coords t) 2
                rw [e2, x2]; omega
    | ⟨3, _⟩ => show win24_4.index t 3 * win24_4.size 3 ≤ (i 3 : Nat) ∧ (i 3 : Nat) < win24_4.index t 3 * win24_4.size 3 + win24_4.xsize (grid24.coords t) 3
                rw [e3, x3]; omega

/-- Every index of the output array is in the block of the point of its image and row tile. -/
theorem cover (i : S16x28x28x512.Idx) :
    ∃ t : Fin cfg24.N, (cfg24.win 4).flush t = true ∧ i ∈ ((cfg24.win 4).blk t).view.set := by
  have b0 : (i 0 : Nat) < 16 := (i 0).isLt
  have b1 : (i 1 : Nat) < 28 := (i 1).isLt
  refine ⟨⟨(i 0 : Nat) * 4 + (i 1 : Nat) / 7, by rw [N_eq]; omega⟩, flush24_4 _, ?_⟩
  rw [mem_blk]
  dsimp only
  omega

/-- The output array after the last grid point is `G`. -/
theorem final_out (c : Dev nD) : (dat V c).arrAt 4 cfg24.N = G V c :=
  (dat V c).arrAt_eq_of_cover 4 (G V c) (fun t _ => flushed_eq V c t) cover

/-- The output array after the last grid point: at (n, h, w, co) the 3×3 correlation of the padded input with the
    kernel over the 256 input channels, plus the bias, clamped below at zero. The sums nest dy, dx, ci. -/
theorem out_value (c : Dev nD) (n : Fin 16) (h : Fin 28) (w : Fin 28) (co : Fin 512) :
    (dat V c).arrAt 4 cfg24.N (ix4 n h w co)
      = max ((∑ dy : Fin 3, ∑ dx : Fin 3, ∑ ci : Fin 256,
                xp V c (ix4 n (⟨h.val + dy.val, by omega⟩ : Fin 35) (⟨w.val + dx.val, by omega⟩ : Fin 32) ci)
                  * wk V c (ix4 dy dx ci co))
              + bias V c (ix2 (0 : Fin 1) co)) 0 := by
  rw [final_out]
  rfl

end Cert.ReferenceIdeal.Reg24
-- ==== Proof.RI.Val24.lean ====
import proofs.«143011_g2000502688546152_pallasbulk_1201_3_alg».proof.Proof.RI.Seg24
import proofs.«143011_g2000502688546152_pallasbulk_1201_3_alg».proof.Proof.RI.Reg24Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg24

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 28 28 256)
    (hx : ∀ (n : Fin 16) (i : Fin 35) (j : Fin 32) (ci : Fin 256),
      (W c (Proc.devRef .tc (Pipeline.arrRef spec24 0)) : FVec 𝕀 S16x35x32x256 .f32) (ix4 n i j ci) = Cert.Spec.padAt z n i.val j.val ci) :
    Cert.Spec.curry4 (Wout W c (Proc.devRef .tc (Pipeline.arrRef spec24 4)) : FVec 𝕀 S16x28x28x512 .f32)
      = Cert.Spec.convRelu z (Cert.Spec.curryW (W c (Proc.devRef .tc (Pipeline.arrRef spec24 2)) : FVec 𝕀 S3x3x256x512 .f32))
          (Cert.Spec.curryB (W c (Proc.devRef .tc (Pipeline.arrRef spec24 3)) : FVec 𝕀 S1x512 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg24

end
-- ==== Proof.RI.Reg25Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (7·32 each, then 32 zero rows), and for each tap (dy, dx)
multiplies the rows shifted by 32·dy + dx with the tap's [512, 512] matrix. Read at row th·32 + w and column co, the nine
products add up to the 3×3 correlation at pixel (th, w), output channel co. -/

set_option maxRecDepth 16384

noncomputable section

namespace Cert.ReferenceIdeal.Reg25

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [224, 512] by [512, 512] product into the zero accumulator, at (r, co): the sum over the 512 input channels. -/
theorem mm_apply (L : FVec Ideal S224x512 .f32) (R : FVec Ideal S512x512 .f32) (r : Fin 224) (co : Fin 512) :
    matmul dot_S224x512_S512x512_S224x512_1_0_0_1_n_n none L R (constant S224x512 .f32 0x00000000#32) (ix2 r co)
      = ∑ ci : Fin 512, L (ix2 r ci) * R (ix2 ci co) := by
  refine (Ideal.matmul_constant_zero_apply _ _ _ _ _).trans ?_
  refine (Equiv.sum_comp (contrEquiv1 dot_S224x512_S512x512_S224x512_1_0_0_1_n_n 512 rfl rfl).symm _).symm.trans ?_
  refine Finset.sum_congr rfl fun ci _ => ?_
  have hl : dot_S224x512_S512x512_S224x512_1_0_0_1_n_n.lhsIdx (ix2 r co)
      ((contrEquiv1 dot_S224x512_S512x512_S224x512_1_0_0_1_n_n 512 rfl rfl).symm ci) = ix2 r ci := by
    funext a; apply Fin.ext
    match a with
    | ⟨0, _⟩ => rfl
    | ⟨1, _⟩ => exact contrEquiv1_symm_val dot_S224x512_S512x512_S224x512_1_0_0_1_n_n 512 rfl rfl ci
  have hr : dot_S224x512_S512x512_S224x512_1_0_0_1_n_n.rhsIdx (ix2 r co)
      ((contrEquiv1 dot_S224x512_S512x512_S224x512_1_0_0_1_n_n 512 rfl rfl).symm ci) = ix2 ci co := by
    funext a; apply Fin.ext
    match a with
    | ⟨0, _⟩ => exact contrEquiv1_symm_val dot_S224x512_S512x512_S224x512_1_0_0_1_n_n 512 rfl rfl ci
    | ⟨1, _⟩ => rfl
  rw [hl, hr]

/-! ## The stacked rows -/

section Slab
variable (xa xb : Vec Ideal S1x7x32x512 .f32)

/-- Pixel (hh, w') of the two tiles stacked one above the other, hh < 14. -/
def tiles (hh : Fin 14) (w' : Fin 32) (ci : Fin 512) : EReal :=
  if h : hh.val < 7 then xa (ix4 (0 : Fin 1) (⟨hh.val, h⟩ : Fin 7) w' ci)
  else xb (ix4 (0 : Fin 1) (⟨hh.val - 7, by omega⟩ : Fin 7) w' ci)

/-- Row hh·32 + w' of the first 224 rows is pixel (hh, w') of the first tile. -/
theorem slab_lo (hh : Fin 7) (w' : Fin 32) (ci : Fin 512) (q : Fin 480) (hq : q.val = hh.val * 32 + w'.val) :
    k25_pay2 xa xb (ix2 q ci) = xa (ix4 (0 : Fin 1) hh w' ci) := by
  unfold k25_pay2
  have hq' : q.val < 224 := by have := hh.isLt; have := w'.isLt; omega
  refine Eq.trans (concatenate_apply_piece (0 : Fin 2) _ _ (ix2 q ci) 0 ?_ S224x512
    (shapeCast S224x512 (shapeCast S7x32x512 xa shapeCasts_S1x7x32x512_S7x32x512) shapeCasts_S7x32x512_S224x512) ?_ ?_ 0 ?_
    (ix2 (⟨q.val, hq'⟩ : Fin 224) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = q.val * 512 + ci.val
      rw [hq]
    · rw [Shape.rowMajor_val_four, Shape.rowMajor_val_three]
      show ((0 * 7 + hh.val) * 32 + w'.val) * 512 + ci.val = (hh.val * 32 + w'.val) * 512 + ci.val
      omega

/-- Row 224 + hh·32 + w' is pixel (hh, w') of the second tile. -/
theorem slab_hi (hh : Fin 7) (w' : Fin 32) (ci : Fin 512) (q : Fin 480) (hq : q.val = 224 + (hh.val * 32 + w'.val)) :
    k25_pay2 xa xb (ix2 q ci) = xb (ix4 (0 : Fin 1) hh w' ci) := by
  unfold k25_pay2
  have hq' : q.val - 224 < 224 := by have := hh.isLt; have := w'.isLt; omega
  refine Eq.trans (concatenate_apply_piece (0 : Fin 2) _ _ (ix2 q ci) 1 ?_ S224x512
    (shapeCast S224x512 (shapeCast S7x32x512 xb shapeCasts_S1x7x32x512_S7x32x512) shapeCasts_S7x32x512_S224x512) ?_ ?_ 224 ?_
    (ix2 (⟨q.val - 224, hq'⟩ : Fin 224) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 224 + (q.val - 224) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = (q.val - 224) * 512 + ci.val
      omega
    · rw [Shape.rowMajor_val_four, Shape.rowMajor_val_three]
      show ((0 * 7 + hh.val) * 32 + w'.val) * 512 + ci.val = (hh.val * 32 + w'.val) * 512 + ci.val
      omega

/-- Row hh·32 + w', hh < 14, of the stacked rows is pixel (hh, w') of the stacked tiles. -/
theorem slab_apply (hh : Fin 14) (w' : Fin 32) (ci : Fin 512) (q : Fin 480) (hq : q.val = hh.val * 32 + w'.val) :
    k25_pay2 xa xb (ix2 q ci) = tiles xa xb hh w' ci := by
  unfold tiles
  split
  · rename_i h; exact slab_lo xa xb ⟨hh.val, h⟩ w' ci q hq
  · rename_i h; exact slab_hi xa xb ⟨hh.val - 7, by omega⟩ w' ci q (by show q.val = 224 + ((hh.val - 7) * 32 + w'.val); omega)

end Slab

/-! ## A tap's product read at an entry -/

/-- A tap matrix [1, 1, 512, 512] flattened to [512, 512], at (ci, co). -/
theorem tapmat_apply (Wt : Vec Ideal S1x1x512x512 .f32) (ci : Fin 512) (co : Fin 512) :
    (shapeCast S512x512 Wt shapeCasts_S1x1x512x512_S512x512 : FVec Ideal S512x512 .f32) (ix2 ci co) = Wt (ix4 (0 : Fin 1) (0 : Fin 1) ci co) := by
  refine shapeCast_apply _ _ _ _ ?_
  rw [Shape.rowMajor_val_four, Shape.rowMajor_val_two]
  show ((0 * 1 + 0) * 512 + ci.val) * 512 + co.val = ci.val * 512 + co.val
  omega

/-- Rows o, o+1, … of a matrix of n0 rows against a flattened tap matrix, at (r, co): the sum over the 512 input
    channels of row o + r times the tap's column co. -/
theorem tap_apply {n0 : Nat} (o : Nat) (X : FVec Ideal ⟨2, ![n0, 512]⟩ .f32)
    (h : (⟨2, ![n0, 512]⟩ : Shape).Slices ![o, 0] S224x512) (Wt : Vec Ideal S1x1x512x512 .f32)
    (r : Fin 224) (co : Fin 512) (hk : o + 223 < n0) :
    matmul dot_S224x512_S512x512_S224x512_1_0_0_1_n_n none (extractStridedSlice S224x512 ![o, 0] X h : FVec Ideal S224x512 .f32)
        (shapeCast S512x512 Wt shapeCasts_S1x1x512x512_S512x512 : FVec Ideal S512x512 .f32) (constant S224x512 .f32 0x00000000#32) (ix2 r co)
      = ∑ ci : Fin 512, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x7x32x512 .f32)

/-- The rows from the second on. -/
theorem pay3_apply (q : Fin 479) (ci : Fin 512) :
    k25_pay3 xa xb (ix2 q ci) = k25_pay2 xa xb (ix2 (⟨1 + q.val, by omega⟩ : Fin 480) ci) := by
  unfold k25_pay3
  exact slice2_axis0_apply 1 _ _ q ci _ rfl

/-- The rows from the third on. -/
theorem pay4_apply (q : Fin 478) (ci : Fin 512) :
    k25_pay4 xa xb (ix2 q ci) = k25_pay2 xa xb (ix2 (⟨2 + q.val, by omega⟩ : Fin 480) ci) := by
  unfold k25_pay4
  exact slice2_axis0_apply 2 _ _ q ci _ rfl

end Shift

/-! ## The accumulations -/

/-- The first three taps added onto zero. -/
theorem pay5_apply (xa xb : Vec Ideal S1x7x32x512 .f32) (w00 w01 w02 : Vec Ideal S1x1x512x512 .f32) (r : Fin 224) (co : Fin 512) :
    k25_pay5 xa xb w00 w01 w02 (ix2 r co)
      = 0 + (∑ ci : Fin 512, k25_pay2 xa xb (ix2 (⟨0 + r.val, by omega⟩ : Fin 480) ci) * w00 (ix4 (0 : Fin 1) (0 : Fin 1) ci co))
          + (∑ ci : Fin 512, k25_pay3 xa xb (ix2 (⟨0 + r.val, by omega⟩ : Fin 479) ci) * w01 (ix4 (0 : Fin 1) (0 : Fin 1) ci co))
          + (∑ ci : Fin 512, k25_pay4 xa xb (ix2 (⟨0 + r.val, by omega⟩ : Fin 478) ci) * w02 (ix4 (0 : Fin 1) (0 : Fin 1) ci co)) := by
  unfold k25_pay5
  simp only [addf_apply]
  rw [tap_apply 0 (k25_pay2 xa xb) _ w00 r co (by omega), tap_apply 0 (k25_pay3 xa xb) _ w01 r co (by omega),
    tap_apply 0 (k25_pay4 xa xb) _ w02 r co (by omega)]
  congr 3
  exact Ideal.ofBits_zero_f32

/-- The other six taps and the bias added onto what the first three left. -/
theorem pay8_apply (v7 : FVec Ideal S480x512 .f32) (v8 : FVec Ideal S479x512 .f32) (v9 : FVec Ideal S478x512 .f32)
    (v25 : FVec Ideal S224x512 .f32) (v26 : FVec Ideal S224x512 .f32) (v28 : FVec Ideal S512x512 .f32)
    (w11 w12 w20 w21 w22 : Vec Ideal S1x1x512x512 .f32) (b : Vec Ideal S1x512 .f32) (r : Fin 224) (co : Fin 512) :
    k25_pay8 v7 v8 v9 v25 v26 v28 w11 w12 w20 w21 w22 b (ix2 r co)
      = v25 (ix2 r co) + (∑ ci : Fin 512, v26 (ix2 r ci) * v28 (ix2 ci co))
          + (∑ ci : Fin 512, v8 (ix2 (⟨32 + r.val, by omega⟩ : Fin 479) ci) * w11 (ix4 (0 : Fin 1) (0 : Fin 1) ci co))
          + (∑ ci : Fin 512, v9 (ix2 (⟨32 + r.val, by omega⟩ : Fin 478) ci) * w12 (ix4 (0 : Fin 1) (0 : Fin 1) ci co))
          + (∑ ci : Fin 512, v7 (ix2 (⟨64 + r.val, by omega⟩ : Fin 480) ci) * w20 (ix4 (0 : Fin 1) (0 : Fin 1) ci co))
          + (∑ ci : Fin 512, v8 (ix2 (⟨64 + r.val, by omega⟩ : Fin 479) ci) * w21 (ix4 (0 : Fin 1) (0 : Fin 1) ci co))
          + (∑ ci : Fin 512, v9 (ix2 (⟨64 + r.val, by omega⟩ : Fin 478) ci) * w22 (ix4 (0 : Fin 1) (0 : Fin 1) ci co))
          + b (ix2 (0 : Fin 1) co) := by
  unfold k25_pay8
  simp only [addf_apply]
  rw [mm_apply, tap_apply 32 v8 _ w11 r co (by omega), tap_apply 32 v9 _ w12 r co (by omega),
    tap_apply 64 v7 _ w20 r co (by omega), tap_apply 64 v8 _ w21 r co (by omega), tap_apply 64 v9 _ w22 r co (by omega),
    broadcastTo_1b_ab_apply]

/-- The fourth tap's rows and matrix. -/
theorem pay6_apply (xa xb : Vec Ideal S1x7x32x512 .f32) (r : Fin 224) (ci : Fin 512) :
    k25_pay6 xa xb (ix2 r ci) = k25_pay2 xa xb (ix2 (⟨32 + r.val, by omega⟩ : Fin 480) ci) := by
  unfold k25_pay6
  exact slice2_axis0_apply 32 _ _ r ci _ rfl

theorem pay7_apply (w10 : Vec Ideal S1x1x512x512 .f32) (ci : Fin 512) (co : Fin 512) :
    k25_pay7 w10 (ix2 ci co) = w10 (ix4 (0 : Fin 1) (0 : Fin 1) ci co) := by
  unfold k25_pay7
  exact tapmat_apply w10 ci co

/-- The clamp and the cut to 28 columns: entry (0, th, w, co) of the tile is row th·32 + w, column co. -/
theorem pay1_apply (v58 v59 : FVec Ideal S224x512 .f32) (th : Fin 7) (w : Fin 28) (co : Fin 512) :
    k25_pay1 v58 v59 (ix4 (0 : Fin 1) th w co)
      = max (v58 (ix2 (⟨th.val * 32 + w.val, by omega⟩ : Fin 224) co)) (v59 (ix2 (⟨th.val * 32 + w.val, by omega⟩ : Fin 224) co)) := by
  unfold k25_pay1
  refine (shapeCast_abc_1abc_apply _ _ (0 : Fin 1) th w co).trans ?_
  refine (slice3_axis1_apply 0 _ _ th w co (⟨w.val, by omega⟩ : Fin 32) (by simp)).trans ?_
  refine (shapeCast_apply _ _ _ (ix2 (⟨th.val * 32 + w.val, by omega⟩ : Fin 224) co) ?_).trans (maximumf_apply _ _ _)
  rw [Shape.rowMajor_val_two, Shape.rowMajor_val_three]
  rfl

theorem pay9_apply (j : S224x512.Idx) : k25_pay9 (F := Ideal) j = 0 := by
  unfold k25_pay9
  exact Ideal.ofBits_zero_f32

/-! ## The body's value at an entry -/

section Entry
variable (xa xb : Vec Ideal S1x7x32x512 .f32)

/-- Row (th+dy)·32 + (w+dx) of the stacked rows is pixel (th+dy, w+dx) of the stacked tiles. -/
theorem slab_tap (th : Fin 7) (w : Fin 28) (dy dx : Fin 3) (ci : Fin 512) (q : Fin 480)
    (hq : q.val = (th.val + dy.val) * 32 + (w.val + dx.val)) :
    k25_pay2 xa xb (ix2 q ci)
      = tiles xa xb (⟨th.val + dy.val, by omega⟩ : Fin 14) (⟨w.val + dx.val, by omega⟩ : Fin 32) ci :=
  slab_apply xa xb _ _ ci q hq

/-- The nine tap matrices as one family. -/
def taps (w00 w01 w02 w10 w11 w12 w20 w21 w22 : Vec Ideal S1x1x512x512 .f32) (dy dx : Fin 3) : Vec Ideal S1x1x512x512 .f32 :=
  ![![w00, w01, w02], ![w10, w11, w12], ![w20, w21, w22]] dy dx

/-- One output entry of the body: the 3×3 correlation of the stacked tiles with the nine tap matrices over the 512
    input channels, plus the bias, clamped below at zero. -/
theorem conv_entry (w00 w01 w02 w10 w11 w12 w20 w21 w22 : Vec Ideal S1x1x512x512 .f32) (b : Vec Ideal S1x512 .f32)
    (th : Fin 7) (w : Fin 28) (co : Fin 512) :
    k25_pay1 (k25_pay8 (k25_pay2 xa xb) (k25_pay3 xa xb) (k25_pay4 xa xb) (k25_pay5 xa xb w00 w01 w02) (k25_pay6 xa xb)
        (k25_pay7 w10) w11 w12 w20 w21 w22 b) k25_pay9 (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 512,
      tiles xa xb (⟨th.val + dy.val, by omega⟩ : Fin 14) (⟨w.val + dx.val, by omega⟩ : Fin 32) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg25
-- ==== Proof.RI.Reg25Value.lean ====
import proofs.«143011_g2000502688546152_pallasbulk_1201_3_alg».proof.Proof.RI.Reg25
import proofs.«143011_g2000502688546152_pallasbulk_1201_3_alg».proof.Proof.RI.Reg25Pure

/-! # Region 25 at the extended reals: the output array is the 3×3 correlation, plus bias, clamped at zero

Point t = 4·n + r of the grid writes back the output's row tile r of image n. Its two input tiles are row tiles r and
r + 1 of the padded input, so row h + dy of the padded input, h = 7·r + th, is row th + dy of the two tiles stacked. -/

set_option maxRecDepth 16384

noncomputable section

namespace Cert.ReferenceIdeal.Reg25

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 35, 32, 512], the kernel [3, 3, 512, 512] and the bias [1, 512] as the region finds them. -/
abbrev xp (c : Dev nD) : S16x35x32x512.Idx → EReal := V c (Pipeline.arrRef spec25 0)
abbrev wk (c : Dev nD) : S3x3x512x512.Idx → EReal := V c (Pipeline.arrRef spec25 2)
abbrev bias (c : Dev nD) : S1x512.Idx → EReal := V c (Pipeline.arrRef spec25 3)

/-! ## The grid's points and the windows' block indices -/

theorem N_eq : cfg25.N = 64 := N_25

/-- The image and the row tile of point `t`. -/
def pn (t : Fin cfg25.N) : Fin 16 := ⟨t.val / 4, by have := t.isLt; have := N_eq; omega⟩
def pr (t : Fin cfg25.N) : Fin 4 := ⟨t.val % 4, Nat.mod_lt _ (by decide)⟩

/-- The five windows' block indices at every point: (n, r), (n, r + 1), the origin twice, (n, r). -/
theorem idx_facts : ∀ t : Fin cfg25.N,
    (win25_0.index t 0 = t.val / 4 ∧ win25_0.index t 1 = t.val % 4 ∧ win25_0.index t 2 = 0 ∧ win25_0.index t 3 = 0)
    ∧ (win25_1.index t 0 = t.val / 4 ∧ win25_1.index t 1 = t.val % 4 + 1 ∧ win25_1.index t 2 = 0 ∧ win25_1.index t 3 = 0)
    ∧ (win25_2.index t 0 = 0 ∧ win25_2.index t 1 = 0 ∧ win25_2.index t 2 = 0 ∧ win25_2.index t 3 = 0)
    ∧ (win25_3.index t 0 = 0 ∧ win25_3.index t 1 = 0)
    ∧ (win25_4.index t 0 = t.val / 4 ∧ win25_4.index t 1 = t.val % 4 ∧ win25_4.index t 2 = 0 ∧ win25_4.index t 3 = 0) :=
  (by decide +kernel : ∀ t : Fin grid25.N, _)

/-! ## The windows' blocks read at an index -/

/-- The first input tile at point (n, r): rows 7·r … of image n of the padded input. -/
theorem iblk0_apply (c : Dev nD) (t : Fin cfg25.N) (hh : Fin 7) (w' : Fin 32) (ci : Fin 512) :
    iblk V c 0 t (ix4 (0 : Fin 1) hh w' ci)
      = xp V c (ix4 (pn t) (⟨(pr t).val * 7 + hh.val, by have := (pr t).isLt; omega⟩ : Fin 35) w' ci) := by
  obtain ⟨⟨h0, h1, h2, h3⟩, -⟩ := idx_facts t
  unfold iblk
  rw [View.read_apply]
  show V c (Pipeline.arrRef spec25 0) _ = V c (Pipeline.arrRef spec25 0) _
  congr 1
  funext a
  apply Fin.ext
  match a with
  | ⟨0, _⟩ => show win25_0.index t 0 * 1 + 1 * 0 = t.val / 4; rw [h0]; omega
  | ⟨1, _⟩ => show win25_0.index t 1 * 7 + 1 * hh.val = t.val % 4 * 7 + hh.val; rw [h1]; omega
  | ⟨2, _⟩ => show win25_0.index t 2 * 32 + 1 * w'.val = w'.val; rw [h2]; omega
  | ⟨3, _⟩ => show win25_0.index t 3 * 512 + 1 * ci.val = ci.val; rw [h3]; omega

/-- The second input tile at point (n, r): rows 7·(r + 1) … of image n of the padded input. -/
theorem iblk1_apply (c : Dev nD) (t : Fin cfg25.N) (hh : Fin 7) (w' : Fin 32) (ci : Fin 512) :
    iblk V c 1 t (ix4 (0 : Fin 1) hh w' ci)
      = xp V c (ix4 (pn t) (⟨((pr t).val + 1) * 7 + hh.val, by have := (pr t).isLt; omega⟩ : Fin 35) w' ci) := by
  obtain ⟨-, ⟨h0, h1, h2, h3⟩, -⟩ := idx_facts t
  unfold iblk
  rw [View.read_apply]
  show V c (Pipeline.arrRef spec25 1) _ = V c (Pipeline.arrRef spec25 0) _
  congr 1
  funext a
  apply Fin.ext
  match a with
  | ⟨0, _⟩ => show win25_1.index t 0 * 1 + 1 * 0 = t.val / 4; rw [h0]; omega
  | ⟨1, _⟩ => show win25_1.index t 1 * 7 + 1 * hh.val = (t.val % 4 + 1) * 7 + hh.val; rw [h1]; omega
  | ⟨2, _⟩ => show win25_1.index t 2 * 32 + 1 * w'.val = w'.val; rw [h2]; omega
  | ⟨3, _⟩ => show win25_1.index t 3 * 512 + 1 * ci.val = ci.val; rw [h3]; omega

/-- The kernel window is the whole kernel array at every point. -/
theorem iblk2_apply (c : Dev nD) (t : Fin cfg25.N) (dy dx : Fin 3) (ci : Fin 512) (co : Fin 512) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec25 2) _ = V c (Pipeline.arrRef spec25 2) _
  congr 1
  funext a
  apply Fin.ext
  match a with
  | ⟨0, _⟩ => show win25_2.index t 0 * 3 + 1 * dy.val = dy.val; rw [h0]; omega
  | ⟨1, _⟩ => show win25_2.index t 1 * 3 + 1 * dx.val = dx.val; rw [h1]; omega
  | ⟨2, _⟩ => show win25_2.index t 2 * 512 + 1 * ci.val = ci.val; rw [h2]; omega
  | ⟨3, _⟩ => show win25_2.index t 3 * 512 + 1 * co.val = co.val; rw [h3]; omega

/-- The bias window is the whole bias row at every point. -/
theorem iblk3_apply (c : Dev nD) (t : Fin cfg25.N) (co : Fin 512) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec25 3) _ = V c (Pipeline.arrRef spec25 3) _
  congr 1
  funext a
  apply Fin.ext
  match a with
  | ⟨0, _⟩ => show win25_3.index t 0 * 1 + 1 * 0 = 0; rw [h0]
  | ⟨1, _⟩ => show win25_3.index t 1 * 512 + 1 * co.val = co.val; rw [h1]; omega

/-! ## The whole-array function and what a point writes back -/

/-- The correlation at (n, h, w, co): the sums nest dy, dx, ci. -/
def conv (c : Dev nD) (n : Fin 16) (h : Fin 28) (w : Fin 28) (co : Fin 512) : EReal :=
  max ((∑ dy : Fin 3, ∑ dx : Fin 3, ∑ ci : Fin 512,
          xp V c (ix4 n (⟨h.val + dy.val, by omega⟩ : Fin 35) (⟨w.val + dx.val, by omega⟩ : Fin 32) ci)
            * wk V c (ix4 dy dx ci co))
        + bias V c (ix2 (0 : Fin 1) co)) 0

/-- The output array the region is shown to leave. -/
def G (c : Dev nD) : Buf (Elt Ideal) ((c : Thread nD τ).loc main_v77) :=
  fun i : S16x28x28x512.Idx => conv V c (i 0) (i 1) (i 2) (i 3)

theorem G_apply (c : Dev nD) (i : S16x28x28x512.Idx) : G V c i = conv V c (i 0) (i 1) (i 2) (i 3) := rfl

theorem conv_congr (c : Dev nD) {n n' : Fin 16} {h h' : Fin 28} {w w' : Fin 28} {co co' : Fin 512}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 7·r … of image n of the padded input. -/
theorem tiles_eq (c : Dev nD) (t : Fin cfg25.N) (hh : Fin 14) (w' : Fin 32) (ci : Fin 512) :
    tiles (iblk V c 0 t) (iblk V c 1 t) hh w' ci
      = xp V c (ix4 (pn t) (⟨(pr t).val * 7 + hh.val, by have := (pr t).isLt; omega⟩ : Fin 35) w' ci) := by
  unfold tiles
  split
  · rename_i h
    exact iblk0_apply V c t ⟨hh.val, h⟩ w' ci
  · rename_i h
    rw [iblk1_apply V c t ⟨hh.val - 7, by omega⟩ w' ci]
    congr 2
    apply Fin.ext
    show ((pr t).val + 1) * 7 + (hh.val - 7) = (pr t).val * 7 + hh.val
    omega

/-- The nine loaded tap matrices are the kernel array's taps. -/
theorem taps_eq (c : Dev nD) (t : Fin cfg25.N) (dy dx : Fin 3) (ci : Fin 512) (co : Fin 512) :
    taps (View.ld (iblk V c 2 t) (tapRect 0 0 inb_S3x3x512x512_S1x1x512x512_0_0_0_0))
        (View.ld (iblk V c 2 t) (tapRect 0 1 inb_S3x3x512x512_S1x1x512x512_0_1_0_0))
        (View.ld (iblk V c 2 t) (tapRect 0 2 inb_S3x3x512x512_S1x1x512x512_0_2_0_0))
        (View.ld (iblk V c 2 t) (tapRect 1 0 inb_S3x3x512x512_S1x1x512x512_1_0_0_0))
        (View.ld (iblk V c 2 t) (tapRect 1 1 inb_S3x3x512x512_S1x1x512x512_1_1_0_0))
        (View.ld (iblk V c 2 t) (tapRect 1 2 inb_S3x3x512x512_S1x1x512x512_1_2_0_0))
        (View.ld (iblk V c 2 t) (tapRect 2 0 inb_S3x3x512x512_S1x1x512x512_2_0_0_0))
        (View.ld (iblk V c 2 t) (tapRect 2 1 inb_S3x3x512x512_S1x1x512x512_2_1_0_0))
        (View.ld (iblk V c 2 t) (tapRect 2 2 inb_S3x3x512x512_S1x1x512x512_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x7x32x512 .f32) (wk' : Vec Ideal S3x3x512x512 .f32) (b : Vec Ideal S1x512 .f32)
    (th : Fin 7) (w : Fin 28) (co : Fin 512) :
    out xa xb wk' b (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps (View.ld wk' (tapRect 0 0 inb_S3x3x512x512_S1x1x512x512_0_0_0_0))
                    (View.ld wk' (tapRect 0 1 inb_S3x3x512x512_S1x1x512x512_0_1_0_0))
                    (View.ld wk' (tapRect 0 2 inb_S3x3x512x512_S1x1x512x512_0_2_0_0))
                    (View.ld wk' (tapRect 1 0 inb_S3x3x512x512_S1x1x512x512_1_0_0_0))
                    (View.ld wk' (tapRect 1 1 inb_S3x3x512x512_S1x1x512x512_1_1_0_0))
                    (View.ld wk' (tapRect 1 2 inb_S3x3x512x512_S1x1x512x512_1_2_0_0))
                    (View.ld wk' (tapRect 2 0 inb_S3x3x512x512_S1x1x512x512_2_0_0_0))
                    (View.ld wk' (tapRect 2 1 inb_S3x3x512x512_S1x1x512x512_2_1_0_0))
                    (View.ld wk' (tapRect 2 2 inb_S3x3x512x512_S1x1x512x512_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg25.N) :
    (dat V c).flushed 4 t = ((cfg25.win 4).blk t).view.read (Elt Ideal) (G V c) := by
  show (cfg25.win 4).cut (grid25.coords t) ((dat V c).after 4 t) = _
  rw [after_4]
  funext x
  obtain ⟨u, th, w, co, rfl⟩ : ∃ (u : Fin 1) (th : Fin 7) (w : Fin 28) (co : Fin 512), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg25.win 4).blk t).view.emb (ix4 (0 : Fin 1) th w co))
      = conv V c (pn t) (⟨(pr t).val * 7 + th.val, by have := (pr t).isLt; omega⟩ : Fin 28) w co :=
    (G_apply V c _).trans (conv_congr V c
      (Fin.ext (by show win25_4.index t 0 * 1 + 1 * 0 = t.val / 4; rw [h0]; omega))
      (Fin.ext (by show win25_4.index t 1 * 7 + 1 * th.val = t.val % 4 * 7 + th.val; rw [h1]; omega))
      (Fin.ext (by show win25_4.index t 2 * 28 + 1 * w.val = w.val; rw [h2]; omega))
      (Fin.ext (by show win25_4.index t 3 * 512 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 7 + (th.val + dy.val) = (pr t).val * 7 + th.val + dy.val
  omega

/-! ## The output's row tiles cover it -/

/-- An index of the output array is in point `t`'s block when its image and row tile are `t`'s. -/
theorem mem_blk (t : Fin cfg25.N) (i : S16x28x28x512.Idx) :
    i ∈ ((cfg25.win 4).blk t).view.set ↔ (i 0 : Nat) = t.val / 4 ∧ t.val % 4 * 7 ≤ (i 1 : Nat) ∧ (i 1 : Nat) < t.val % 4 * 7 + 7 := by
  show i ∈ ((View.whole main_v77).slice (win25_4.rect t)).set ↔ _
  rw [View.set_slice_whole, Rect.mem_set_unit]
  obtain ⟨-, -, -, -, ⟨h0, h1, h2, h3⟩⟩ := idx_facts t
  have b2 : (i 2 : Nat) < 28 := (i 2).isLt
  have b3 : (i 3 : Nat) < 512 := (i 3).isLt
  have e0 : win25_4.index t 0 * win25_4.size 0 = t.val / 4 := by rw [h0]; show t.val / 4 * 1 = _; omega
  have e1 : win25_4.index t 1 * win25_4.size 1 = t.val % 4 * 7 := by rw [h1]; rfl
  have e2 : win25_4.index t 2 * win25_4.size 2 = 0 := by rw [h2]; rfl
  have e3 : win25_4.index t 3 * win25_4.size 3 = 0 := by rw [h3]; rfl
  have x0 : win25_4.xsize (grid25.coords t) 0 = 1 := rfl
  have x1 : win25_4.xsize (grid25.coords t) 1 = 7 := rfl
  have x2 : win25_4.xsize (grid25.coords t) 2 = 28 := rfl
  have x3 : win25_4.xsize (grid25.coords t) 3 = 512 := rfl
  refine ⟨fun h => ?_, fun h a => ?_⟩
  · have a0 := h 0; have a1 := h 1
    rw [e0, x0] at a0; rw [e1, x1] at a1
    exact ⟨by omega, a1⟩
  · match a with
    | ⟨0, _⟩ => show win25_4.index t 0 * win25_4.size 0 ≤ (i 0 : Nat) ∧ (i 0 : Nat) < win25_4.index t 0 * win25_4.size 0 + win25_4.xsize (grid25.coords t) 0
                rw [e0, x0]; omega
    | ⟨1, _⟩ => show win25_4.index t 1 * win25_4.size 1 ≤ (i 1 : Nat) ∧ (i 1 : Nat) < win25_4.index t 1 * win25_4.size 1 + win25_4.xsize (grid25.coords t) 1
                rw [e1, x1]; exact h.2
    | ⟨2, _⟩ => show win25_4.index t 2 * win25_4.size 2 ≤ (i 2 : Nat) ∧ (i 2 : Nat) < win25_4.index t 2 * win25_4.size 2 + win25_4.xsize (grid25.coords t) 2
                rw [e2, x2]; omega
    | ⟨3, _⟩ => show win25_4.index t 3 * win25_4.size 3 ≤ (i 3 : Nat) ∧ (i 3 : Nat) < win25_4.index t 3 * win25_4.size 3 + win25_4.xsize (grid25.coords t) 3
                rw [e3, x3]; omega

/-- Every index of the output array is in the block of the point of its image and row tile. -/
theorem cover (i : S16x28x28x512.Idx) :
    ∃ t : Fin cfg25.N, (cfg25.win 4).flush t = true ∧ i ∈ ((cfg25.win 4).blk t).view.set := by
  have b0 : (i 0 : Nat) < 16 := (i 0).isLt
  have b1 : (i 1 : Nat) < 28 := (i 1).isLt
  refine ⟨⟨(i 0 : Nat) * 4 + (i 1 : Nat) / 7, by rw [N_eq]; omega⟩, flush25_4 _, ?_⟩
  rw [mem_blk]
  dsimp only
  omega

/-- The output array after the last grid point is `G`. -/
theorem final_out (c : Dev nD) : (dat V c).arrAt 4 cfg25.N = G V c :=
  (dat V c).arrAt_eq_of_cover 4 (G V c) (fun t _ => flushed_eq V c t) cover

/-- The output array after the last grid point: at (n, h, w, co) the 3×3 correlation of the padded input with the
    kernel over the 512 input channels, plus the bias, clamped below at zero. The sums nest dy, dx, ci. -/
theorem out_value (c : Dev nD) (n : Fin 16) (h : Fin 28) (w : Fin 28) (co : Fin 512) :
    (dat V c).arrAt 4 cfg25.N (ix4 n h w co)
      = max ((∑ dy : Fin 3, ∑ dx : Fin 3, ∑ ci : Fin 512,
                xp V c (ix4 n (⟨h.val + dy.val, by omega⟩ : Fin 35) (⟨w.val + dx.val, by omega⟩ : Fin 32) ci)
                  * wk V c (ix4 dy dx ci co))
              + bias V c (ix2 (0 : Fin 1) co)) 0 := by
  rw [final_out]
  rfl

end Cert.ReferenceIdeal.Reg25
-- ==== Proof.RI.Val25.lean ====
import proofs.«143011_g2000502688546152_pallasbulk_1201_3_alg».proof.Proof.RI.Seg25
import proofs.«143011_g2000502688546152_pallasbulk_1201_3_alg».proof.Proof.RI.Reg25Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg25

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 28 28 512)
    (hx : ∀ (n : Fin 16) (i : Fin 35) (j : Fin 32) (ci : Fin 512),
      (W c (Proc.devRef .tc (Pipeline.arrRef spec25 0)) : FVec 𝕀 S16x35x32x512 .f32) (ix4 n i j ci) = Cert.Spec.padAt z n i.val j.val ci) :
    Cert.Spec.curry4 (Wout W c (Proc.devRef .tc (Pipeline.arrRef spec25 4)) : FVec 𝕀 S16x28x28x512 .f32)
      = Cert.Spec.convRelu z (Cert.Spec.curryW (W c (Proc.devRef .tc (Pipeline.arrRef spec25 2)) : FVec 𝕀 S3x3x512x512 .f32))
          (Cert.Spec.curryB (W c (Proc.devRef .tc (Pipeline.arrRef spec25 3)) : FVec 𝕀 S1x512 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg25

end
-- ==== Proof.RI.Reg26Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (7·32 each, then 32 zero rows), and for each tap (dy, dx)
multiplies the rows shifted by 32·dy + dx with the tap's [512, 512] matrix. Read at row th·32 + w and column co, the nine
products add up to the 3×3 correlation at pixel (th, w), output channel co. -/

set_option maxRecDepth 16384

noncomputable section

namespace Cert.ReferenceIdeal.Reg26

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [224, 512] by [512, 512] product into the zero accumulator, at (r, co): the sum over the 512 input channels. -/
theorem mm_apply (L : FVec Ideal S224x512 .f32) (R : FVec Ideal S512x512 .f32) (r : Fin 224) (co : Fin 512) :
    matmul dot_S224x512_S512x512_S224x512_1_0_0_1_n_n none L R (constant S224x512 .f32 0x00000000#32) (ix2 r co)
      = ∑ ci : Fin 512, L (ix2 r ci) * R (ix2 ci co) := by
  refine (Ideal.matmul_constant_zero_apply _ _ _ _ _).trans ?_
  refine (Equiv.sum_comp (contrEquiv1 dot_S224x512_S512x512_S224x512_1_0_0_1_n_n 512 rfl rfl).symm _).symm.trans ?_
  refine Finset.sum_congr rfl fun ci _ => ?_
  have hl : dot_S224x512_S512x512_S224x512_1_0_0_1_n_n.lhsIdx (ix2 r co)
      ((contrEquiv1 dot_S224x512_S512x512_S224x512_1_0_0_1_n_n 512 rfl rfl).symm ci) = ix2 r ci := by
    funext a; apply Fin.ext
    match a with
    | ⟨0, _⟩ => rfl
    | ⟨1, _⟩ => exact contrEquiv1_symm_val dot_S224x512_S512x512_S224x512_1_0_0_1_n_n 512 rfl rfl ci
  have hr : dot_S224x512_S512x512_S224x512_1_0_0_1_n_n.rhsIdx (ix2 r co)
      ((contrEquiv1 dot_S224x512_S512x512_S224x512_1_0_0_1_n_n 512 rfl rfl).symm ci) = ix2 ci co := by
    funext a; apply Fin.ext
    match a with
    | ⟨0, _⟩ => exact contrEquiv1_symm_val dot_S224x512_S512x512_S224x512_1_0_0_1_n_n 512 rfl rfl ci
    | ⟨1, _⟩ => rfl
  rw [hl, hr]

/-! ## The stacked rows -/

section Slab
variable (xa xb : Vec Ideal S1x7x32x512 .f32)

/-- Pixel (hh, w') of the two tiles stacked one above the other, hh < 14. -/
def tiles (hh : Fin 14) (w' : Fin 32) (ci : Fin 512) : EReal :=
  if h : hh.val < 7 then xa (ix4 (0 : Fin 1) (⟨hh.val, h⟩ : Fin 7) w' ci)
  else xb (ix4 (0 : Fin 1) (⟨hh.val - 7, by omega⟩ : Fin 7) w' ci)

/-- Row hh·32 + w' of the first 224 rows is pixel (hh, w') of the first tile. -/
theorem slab_lo (hh : Fin 7) (w' : Fin 32) (ci : Fin 512) (q : Fin 480) (hq : q.val = hh.val * 32 + w'.val) :
    k26_pay2 xa xb (ix2 q ci) = xa (ix4 (0 : Fin 1) hh w' ci) := by
  unfold k26_pay2
  have hq' : q.val < 224 := by have := hh.isLt; have := w'.isLt; omega
  refine Eq.trans (concatenate_apply_piece (0 : Fin 2) _ _ (ix2 q ci) 0 ?_ S224x512
    (shapeCast S224x512 (shapeCast S7x32x512 xa shapeCasts_S1x7x32x512_S7x32x512) shapeCasts_S7x32x512_S224x512) ?_ ?_ 0 ?_
    (ix2 (⟨q.val, hq'⟩ : Fin 224) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = q.val * 512 + ci.val
      rw [hq]
    · rw [Shape.rowMajor_val_four, Shape.rowMajor_val_three]
      show ((0 * 7 + hh.val) * 32 + w'.val) * 512 + ci.val = (hh.val * 32 + w'.val) * 512 + ci.val
      omega

/-- Row 224 + hh·32 + w' is pixel (hh, w') of the second tile. -/
theorem slab_hi (hh : Fin 7) (w' : Fin 32) (ci : Fin 512) (q : Fin 480) (hq : q.val = 224 + (hh.val * 32 + w'.val)) :
    k26_pay2 xa xb (ix2 q ci) = xb (ix4 (0 : Fin 1) hh w' ci) := by
  unfold k26_pay2
  have hq' : q.val - 224 < 224 := by have := hh.isLt; have := w'.isLt; omega
  refine Eq.trans (concatenate_apply_piece (0 : Fin 2) _ _ (ix2 q ci) 1 ?_ S224x512
    (shapeCast S224x512 (shapeCast S7x32x512 xb shapeCasts_S1x7x32x512_S7x32x512) shapeCasts_S7x32x512_S224x512) ?_ ?_ 224 ?_
    (ix2 (⟨q.val - 224, hq'⟩ : Fin 224) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 224 + (q.val - 224) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = (q.val - 224) * 512 + ci.val
      omega
    · rw [Shape.rowMajor_val_four, Shape.rowMajor_val_three]
      show ((0 * 7 + hh.val) * 32 + w'.val) * 512 + ci.val = (hh.val * 32 + w'.val) * 512 + ci.val
      omega

/-- Row hh·32 + w', hh < 14, of the stacked rows is pixel (hh, w') of the stacked tiles. -/
theorem slab_apply (hh : Fin 14) (w' : Fin 32) (ci : Fin 512) (q : Fin 480) (hq : q.val = hh.val * 32 + w'.val) :
    k26_pay2 xa xb (ix2 q ci) = tiles xa xb hh w' ci := by
  unfold tiles
  split
  · rename_i h; exact slab_lo xa xb ⟨hh.val, h⟩ w' ci q hq
  · rename_i h; exact slab_hi xa xb ⟨hh.val - 7, by omega⟩ w' ci q (by show q.val = 224 + ((hh.val - 7) * 32 + w'.val); omega)

end Slab

/-! ## A tap's product read at an entry -/

/-- A tap matrix [1, 1, 512, 512] flattened to [512, 512], at (ci, co). -/
theorem tapmat_apply (Wt : Vec Ideal S1x1x512x512 .f32) (ci : Fin 512) (co : Fin 512) :
    (shapeCast S512x512 Wt shapeCasts_S1x1x512x512_S512x512 : FVec Ideal S512x512 .f32) (ix2 ci co) = Wt (ix4 (0 : Fin 1) (0 : Fin 1) ci co) := by
  refine shapeCast_apply _ _ _ _ ?_
  rw [Shape.rowMajor_val_four, Shape.rowMajor_val_two]
  show ((0 * 1 + 0) * 512 + ci.val) * 512 + co.val = ci.val * 512 + co.val
  omega

/-- Rows o, o+1, … of a matrix of n0 rows against a flattened tap matrix, at (r, co): the sum over the 512 input
    channels of row o + r times the tap's column co. -/
theorem tap_apply {n0 : Nat} (o : Nat) (X : FVec Ideal ⟨2, ![n0, 512]⟩ .f32)
    (h : (⟨2, ![n0, 512]⟩ : Shape).Slices ![o, 0] S224x512) (Wt : Vec Ideal S1x1x512x512 .f32)
    (r : Fin 224) (co : Fin 512) (hk : o + 223 < n0) :
    matmul dot_S224x512_S512x512_S224x512_1_0_0_1_n_n none (extractStridedSlice S224x512 ![o, 0] X h : FVec Ideal S224x512 .f32)
        (shapeCast S512x512 Wt shapeCasts_S1x1x512x512_S512x512 : FVec Ideal S512x512 .f32) (constant S224x512 .f32 0x00000000#32) (ix2 r co)
      = ∑ ci : Fin 512, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x7x32x512 .f32)

/-- The rows from the second on. -/
theorem pay3_apply (q : Fin 479) (ci : Fin 512) :
    k26_pay3 xa xb (ix2 q ci) = k26_pay2 xa xb (ix2 (⟨1 + q.val, by omega⟩ : Fin 480) ci) := by
  unfold k26_pay3
  exact slice2_axis0_apply 1 _ _ q ci _ rfl

/-- The rows from the third on. -/
theorem pay4_apply (q : Fin 478) (ci : Fin 512) :
    k26_pay4 xa xb (ix2 q ci) = k26_pay2 xa xb (ix2 (⟨2 + q.val, by omega⟩ : Fin 480) ci) := by
  unfold k26_pay4
  exact slice2_axis0_apply 2 _ _ q ci _ rfl

end Shift

/-! ## The accumulations -/

/-- The first three taps added onto zero. -/
theorem pay5_apply (xa xb : Vec Ideal S1x7x32x512 .f32) (w00 w01 w02 : Vec Ideal S1x1x512x512 .f32) (r : Fin 224) (co : Fin 512) :
    k26_pay5 xa xb w00 w01 w02 (ix2 r co)
      = 0 + (∑ ci : Fin 512, k26_pay2 xa xb (ix2 (⟨0 + r.val, by omega⟩ : Fin 480) ci) * w00 (ix4 (0 : Fin 1) (0 : Fin 1) ci co))
          + (∑ ci : Fin 512, k26_pay3 xa xb (ix2 (⟨0 + r.val, by omega⟩ : Fin 479) ci) * w01 (ix4 (0 : Fin 1) (0 : Fin 1) ci co))
          + (∑ ci : Fin 512, k26_pay4 xa xb (ix2 (⟨0 + r.val, by omega⟩ : Fin 478) ci) * w02 (ix4 (0 : Fin 1) (0 : Fin 1) ci co)) := by
  unfold k26_pay5
  simp only [addf_apply]
  rw [tap_apply 0 (k26_pay2 xa xb) _ w00 r co (by omega), tap_apply 0 (k26_pay3 xa xb) _ w01 r co (by omega),
    tap_apply 0 (k26_pay4 xa xb) _ w02 r co (by omega)]
  congr 3
  exact Ideal.ofBits_zero_f32

/-- The other six taps and the bias added onto what the first three left. -/
theorem pay8_apply (v7 : FVec Ideal S480x512 .f32) (v8 : FVec Ideal S479x512 .f32) (v9 : FVec Ideal S478x512 .f32)
    (v25 : FVec Ideal S224x512 .f32) (v26 : FVec Ideal S224x512 .f32) (v28 : FVec Ideal S512x512 .f32)
    (w11 w12 w20 w21 w22 : Vec Ideal S1x1x512x512 .f32) (b : Vec Ideal S1x512 .f32) (r : Fin 224) (co : Fin 512) :
    k26_pay8 v7 v8 v9 v25 v26 v28 w11 w12 w20 w21 w22 b (ix2 r co)
      = v25 (ix2 r co) + (∑ ci : Fin 512, v26 (ix2 r ci) * v28 (ix2 ci co))
          + (∑ ci : Fin 512, v8 (ix2 (⟨32 + r.val, by omega⟩ : Fin 479) ci) * w11 (ix4 (0 : Fin 1) (0 : Fin 1) ci co))
          + (∑ ci : Fin 512, v9 (ix2 (⟨32 + r.val, by omega⟩ : Fin 478) ci) * w12 (ix4 (0 : Fin 1) (0 : Fin 1) ci co))
          + (∑ ci : Fin 512, v7 (ix2 (⟨64 + r.val, by omega⟩ : Fin 480) ci) * w20 (ix4 (0 : Fin 1) (0 : Fin 1) ci co))
          + (∑ ci : Fin 512, v8 (ix2 (⟨64 + r.val, by omega⟩ : Fin 479) ci) * w21 (ix4 (0 : Fin 1) (0 : Fin 1) ci co))
          + (∑ ci : Fin 512, v9 (ix2 (⟨64 + r.val, by omega⟩ : Fin 478) ci) * w22 (ix4 (0 : Fin 1) (0 : Fin 1) ci co))
          + b (ix2 (0 : Fin 1) co) := by
  unfold k26_pay8
  simp only [addf_apply]
  rw [mm_apply, tap_apply 32 v8 _ w11 r co (by omega), tap_apply 32 v9 _ w12 r co (by omega),
    tap_apply 64 v7 _ w20 r co (by omega), tap_apply 64 v8 _ w21 r co (by omega), tap_apply 64 v9 _ w22 r co (by omega),
    broadcastTo_1b_ab_apply]

/-- The fourth tap's rows and matrix. -/
theorem pay6_apply (xa xb : Vec Ideal S1x7x32x512 .f32) (r : Fin 224) (ci : Fin 512) :
    k26_pay6 xa xb (ix2 r ci) = k26_pay2 xa xb (ix2 (⟨32 + r.val, by omega⟩ : Fin 480) ci) := by
  unfold k26_pay6
  exact slice2_axis0_apply 32 _ _ r ci _ rfl

theorem pay7_apply (w10 : Vec Ideal S1x1x512x512 .f32) (ci : Fin 512) (co : Fin 512) :
    k26_pay7 w10 (ix2 ci co) = w10 (ix4 (0 : Fin 1) (0 : Fin 1) ci co) := by
  unfold k26_pay7
  exact tapmat_apply w10 ci co

/-- The clamp and the cut to 28 columns: entry (0, th, w, co) of the tile is row th·32 + w, column co. -/
theorem pay1_apply (v58 v59 : FVec Ideal S224x512 .f32) (th : Fin 7) (w : Fin 28) (co : Fin 512) :
    k26_pay1 v58 v59 (ix4 (0 : Fin 1) th w co)
      = max (v58 (ix2 (⟨th.val * 32 + w.val, by omega⟩ : Fin 224) co)) (v59 (ix2 (⟨th.val * 32 + w.val, by omega⟩ : Fin 224) co)) := by
  unfold k26_pay1
  refine (shapeCast_abc_1abc_apply _ _ (0 : Fin 1) th w co).trans ?_
  refine (slice3_axis1_apply 0 _ _ th w co (⟨w.val, by omega⟩ : Fin 32) (by simp)).trans ?_
  refine (shapeCast_apply _ _ _ (ix2 (⟨th.val * 32 + w.val, by omega⟩ : Fin 224) co) ?_).trans (maximumf_apply _ _ _)
  rw [Shape.rowMajor_val_two, Shape.rowMajor_val_three]
  rfl

theorem pay9_apply (j : S224x512.Idx) : k26_pay9 (F := Ideal) j = 0 := by
  unfold k26_pay9
  exact Ideal.ofBits_zero_f32

/-! ## The body's value at an entry -/

section Entry
variable (xa xb : Vec Ideal S1x7x32x512 .f32)

/-- Row (th+dy)·32 + (w+dx) of the stacked rows is pixel (th+dy, w+dx) of the stacked tiles. -/
theorem slab_tap (th : Fin 7) (w : Fin 28) (dy dx : Fin 3) (ci : Fin 512) (q : Fin 480)
    (hq : q.val = (th.val + dy.val) * 32 + (w.val + dx.val)) :
    k26_pay2 xa xb (ix2 q ci)
      = tiles xa xb (⟨th.val + dy.val, by omega⟩ : Fin 14) (⟨w.val + dx.val, by omega⟩ : Fin 32) ci :=
  slab_apply xa xb _ _ ci q hq

/-- The nine tap matrices as one family. -/
def taps (w00 w01 w02 w10 w11 w12 w20 w21 w22 : Vec Ideal S1x1x512x512 .f32) (dy dx : Fin 3) : Vec Ideal S1x1x512x512 .f32 :=
  ![![w00, w01, w02], ![w10, w11, w12], ![w20, w21, w22]] dy dx

/-- One output entry of the body: the 3×3 correlation of the stacked tiles with the nine tap matrices over the 512
    input channels, plus the bias, clamped below at zero. -/
theorem conv_entry (w00 w01 w02 w10 w11 w12 w20 w21 w22 : Vec Ideal S1x1x512x512 .f32) (b : Vec Ideal S1x512 .f32)
    (th : Fin 7) (w : Fin 28) (co : Fin 512) :
    k26_pay1 (k26_pay8 (k26_pay2 xa xb) (k26_pay3 xa xb) (k26_pay4 xa xb) (k26_pay5 xa xb w00 w01 w02) (k26_pay6 xa xb)
        (k26_pay7 w10) w11 w12 w20 w21 w22 b) k26_pay9 (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 512,
      tiles xa xb (⟨th.val + dy.val, by omega⟩ : Fin 14) (⟨w.val + dx.val, by omega⟩ : Fin 32) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg26
-- ==== Proof.RI.Reg26Value.lean ====
import proofs.«143011_g2000502688546152_pallasbulk_1201_3_alg».proof.Proof.RI.Reg26
import proofs.«143011_g2000502688546152_pallasbulk_1201_3_alg».proof.Proof.RI.Reg26Pure

/-! # Region 26 at the extended reals: the output array is the 3×3 correlation, plus bias, clamped at zero

Point t = 4·n + r of the grid writes back the output's row tile r of image n. Its two input tiles are row tiles r and
r + 1 of the padded input, so row h + dy of the padded input, h = 7·r + th, is row th + dy of the two tiles stacked. -/

set_option maxRecDepth 16384

noncomputable section

namespace Cert.ReferenceIdeal.Reg26

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 35, 32, 512], the kernel [3, 3, 512, 512] and the bias [1, 512] as the region finds them. -/
abbrev xp (c : Dev nD) : S16x35x32x512.Idx → EReal := V c (Pipeline.arrRef spec26 0)
abbrev wk (c : Dev nD) : S3x3x512x512.Idx → EReal := V c (Pipeline.arrRef spec26 2)
abbrev bias (c : Dev nD) : S1x512.Idx → EReal := V c (Pipeline.arrRef spec26 3)

/-! ## The grid's points and the windows' block indices -/

theorem N_eq : cfg26.N = 64 := N_26

/-- The image and the row tile of point `t`. -/
def pn (t : Fin cfg26.N) : Fin 16 := ⟨t.val / 4, by have := t.isLt; have := N_eq; omega⟩
def pr (t : Fin cfg26.N) : Fin 4 := ⟨t.val % 4, Nat.mod_lt _ (by decide)⟩

/-- The five windows' block indices at every point: (n, r), (n, r + 1), the origin twice, (n, r). -/
theorem idx_facts : ∀ t : Fin cfg26.N,
    (win26_0.index t 0 = t.val / 4 ∧ win26_0.index t 1 = t.val % 4 ∧ win26_0.index t 2 = 0 ∧ win26_0.index t 3 = 0)
    ∧ (win26_1.index t 0 = t.val / 4 ∧ win26_1.index t 1 = t.val % 4 + 1 ∧ win26_1.index t 2 = 0 ∧ win26_1.index t 3 = 0)
    ∧ (win26_2.index t 0 = 0 ∧ win26_2.index t 1 = 0 ∧ win26_2.index t 2 = 0 ∧ win26_2.index t 3 = 0)
    ∧ (win26_3.index t 0 = 0 ∧ win26_3.index t 1 = 0)
    ∧ (win26_4.index t 0 = t.val / 4 ∧ win26_4.index t 1 = t.val % 4 ∧ win26_4.index t 2 = 0 ∧ win26_4.index t 3 = 0) :=
  (by decide +kernel : ∀ t : Fin grid26.N, _)

/-! ## The windows' blocks read at an index -/

/-- The first input tile at point (n, r): rows 7·r … of image n of the padded input. -/
theorem iblk0_apply (c : Dev nD) (t : Fin cfg26.N) (hh : Fin 7) (w' : Fin 32) (ci : Fin 512) :
    iblk V c 0 t (ix4 (0 : Fin 1) hh w' ci)
      = xp V c (ix4 (pn t) (⟨(pr t).val * 7 + hh.val, by have := (pr t).isLt; omega⟩ : Fin 35) w' ci) := by
  obtain ⟨⟨h0, h1, h2, h3⟩, -⟩ := idx_facts t
  unfold iblk
  rw [View.read_apply]
  show V c (Pipeline.arrRef spec26 0) _ = V c (Pipeline.arrRef spec26 0) _
  congr 1
  funext a
  apply Fin.ext
  match a with
  | ⟨0, _⟩ => show win26_0.index t 0 * 1 + 1 * 0 = t.val / 4; rw [h0]; omega
  | ⟨1, _⟩ => show win26_0.index t 1 * 7 + 1 * hh.val = t.val % 4 * 7 + hh.val; rw [h1]; omega
  | ⟨2, _⟩ => show win26_0.index t 2 * 32 + 1 * w'.val = w'.val; rw [h2]; omega
  | ⟨3, _⟩ => show win26_0.index t 3 * 512 + 1 * ci.val = ci.val; rw [h3]; omega

/-- The second input tile at point (n, r): rows 7·(r + 1) … of image n of the padded input. -/
theorem iblk1_apply (c : Dev nD) (t : Fin cfg26.N) (hh : Fin 7) (w' : Fin 32) (ci : Fin 512) :
    iblk V c 1 t (ix4 (0 : Fin 1) hh w' ci)
      = xp V c (ix4 (pn t) (⟨((pr t).val + 1) * 7 + hh.val, by have := (pr t).isLt; omega⟩ : Fin 35) w' ci) := by
  obtain ⟨-, ⟨h0, h1, h2, h3⟩, -⟩ := idx_facts t
  unfold iblk
  rw [View.read_apply]
  show V c (Pipeline.arrRef spec26 1) _ = V c (Pipeline.arrRef spec26 0) _
  congr 1
  funext a
  apply Fin.ext
  match a with
  | ⟨0, _⟩ => show win26_1.index t 0 * 1 + 1 * 0 = t.val / 4; rw [h0]; omega
  | ⟨1, _⟩ => show win26_1.index t 1 * 7 + 1 * hh.val = (t.val % 4 + 1) * 7 + hh.val; rw [h1]; omega
  | ⟨2, _⟩ => show win26_1.index t 2 * 32 + 1 * w'.val = w'.val; rw [h2]; omega
  | ⟨3, _⟩ => show win26_1.index t 3 * 512 + 1 * ci.val = ci.val; rw [h3]; omega

/-- The kernel window is the whole kernel array at every point. -/
theorem iblk2_apply (c : Dev nD) (t : Fin cfg26.N) (dy dx : Fin 3) (ci : Fin 512) (co : Fin 512) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec26 2) _ = V c (Pipeline.arrRef spec26 2) _
  congr 1
  funext a
  apply Fin.ext
  match a with
  | ⟨0, _⟩ => show win26_2.index t 0 * 3 + 1 * dy.val = dy.val; rw [h0]; omega
  | ⟨1, _⟩ => show win26_2.index t 1 * 3 + 1 * dx.val = dx.val; rw [h1]; omega
  | ⟨2, _⟩ => show win26_2.index t 2 * 512 + 1 * ci.val = ci.val; rw [h2]; omega
  | ⟨3, _⟩ => show win26_2.index t 3 * 512 + 1 * co.val = co.val; rw [h3]; omega

/-- The bias window is the whole bias row at every point. -/
theorem iblk3_apply (c : Dev nD) (t : Fin cfg26.N) (co : Fin 512) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec26 3) _ = V c (Pipeline.arrRef spec26 3) _
  congr 1
  funext a
  apply Fin.ext
  match a with
  | ⟨0, _⟩ => show win26_3.index t 0 * 1 + 1 * 0 = 0; rw [h0]
  | ⟨1, _⟩ => show win26_3.index t 1 * 512 + 1 * co.val = co.val; rw [h1]; omega

/-! ## The whole-array function and what a point writes back -/

/-- The correlation at (n, h, w, co): the sums nest dy, dx, ci. -/
def conv (c : Dev nD) (n : Fin 16) (h : Fin 28) (w : Fin 28) (co : Fin 512) : EReal :=
  max ((∑ dy : Fin 3, ∑ dx : Fin 3, ∑ ci : Fin 512,
          xp V c (ix4 n (⟨h.val + dy.val, by omega⟩ : Fin 35) (⟨w.val + dx.val, by omega⟩ : Fin 32) ci)
            * wk V c (ix4 dy dx ci co))
        + bias V c (ix2 (0 : Fin 1) co)) 0

/-- The output array the region is shown to leave. -/
def G (c : Dev nD) : Buf (Elt Ideal) ((c : Thread nD τ).loc main_v79) :=
  fun i : S16x28x28x512.Idx => conv V c (i 0) (i 1) (i 2) (i 3)

theorem G_apply (c : Dev nD) (i : S16x28x28x512.Idx) : G V c i = conv V c (i 0) (i 1) (i 2) (i 3) := rfl

theorem conv_congr (c : Dev nD) {n n' : Fin 16} {h h' : Fin 28} {w w' : Fin 28} {co co' : Fin 512}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 7·r … of image n of the padded input. -/
theorem tiles_eq (c : Dev nD) (t : Fin cfg26.N) (hh : Fin 14) (w' : Fin 32) (ci : Fin 512) :
    tiles (iblk V c 0 t) (iblk V c 1 t) hh w' ci
      = xp V c (ix4 (pn t) (⟨(pr t).val * 7 + hh.val, by have := (pr t).isLt; omega⟩ : Fin 35) w' ci) := by
  unfold tiles
  split
  · rename_i h
    exact iblk0_apply V c t ⟨hh.val, h⟩ w' ci
  · rename_i h
    rw [iblk1_apply V c t ⟨hh.val - 7, by omega⟩ w' ci]
    congr 2
    apply Fin.ext
    show ((pr t).val + 1) * 7 + (hh.val - 7) = (pr t).val * 7 + hh.val
    omega

/-- The nine loaded tap matrices are the kernel array's taps. -/
theorem taps_eq (c : Dev nD) (t : Fin cfg26.N) (dy dx : Fin 3) (ci : Fin 512) (co : Fin 512) :
    taps (View.ld (iblk V c 2 t) (tapRect 0 0 inb_S3x3x512x512_S1x1x512x512_0_0_0_0))
        (View.ld (iblk V c 2 t) (tapRect 0 1 inb_S3x3x512x512_S1x1x512x512_0_1_0_0))
        (View.ld (iblk V c 2 t) (tapRect 0 2 inb_S3x3x512x512_S1x1x512x512_0_2_0_0))
        (View.ld (iblk V c 2 t) (tapRect 1 0 inb_S3x3x512x512_S1x1x512x512_1_0_0_0))
        (View.ld (iblk V c 2 t) (tapRect 1 1 inb_S3x3x512x512_S1x1x512x512_1_1_0_0))
        (View.ld (iblk V c 2 t) (tapRect 1 2 inb_S3x3x512x512_S1x1x512x512_1_2_0_0))
        (View.ld (iblk V c 2 t) (tapRect 2 0 inb_S3x3x512x512_S1x1x512x512_2_0_0_0))
        (View.ld (iblk V c 2 t) (tapRect 2 1 inb_S3x3x512x512_S1x1x512x512_2_1_0_0))
        (View.ld (iblk V c 2 t) (tapRect 2 2 inb_S3x3x512x512_S1x1x512x512_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x7x32x512 .f32) (wk' : Vec Ideal S3x3x512x512 .f32) (b : Vec Ideal S1x512 .f32)
    (th : Fin 7) (w : Fin 28) (co : Fin 512) :
    out xa xb wk' b (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps (View.ld wk' (tapRect 0 0 inb_S3x3x512x512_S1x1x512x512_0_0_0_0))
                    (View.ld wk' (tapRect 0 1 inb_S3x3x512x512_S1x1x512x512_0_1_0_0))
                    (View.ld wk' (tapRect 0 2 inb_S3x3x512x512_S1x1x512x512_0_2_0_0))
                    (View.ld wk' (tapRect 1 0 inb_S3x3x512x512_S1x1x512x512_1_0_0_0))
                    (View.ld wk' (tapRect 1 1 inb_S3x3x512x512_S1x1x512x512_1_1_0_0))
                    (View.ld wk' (tapRect 1 2 inb_S3x3x512x512_S1x1x512x512_1_2_0_0))
                    (View.ld wk' (tapRect 2 0 inb_S3x3x512x512_S1x1x512x512_2_0_0_0))
                    (View.ld wk' (tapRect 2 1 inb_S3x3x512x512_S1x1x512x512_2_1_0_0))
                    (View.ld wk' (tapRect 2 2 inb_S3x3x512x512_S1x1x512x512_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg26.N) :
    (dat V c).flushed 4 t = ((cfg26.win 4).blk t).view.read (Elt Ideal) (G V c) := by
  show (cfg26.win 4).cut (grid26.coords t) ((dat V c).after 4 t) = _
  rw [after_4]
  funext x
  obtain ⟨u, th, w, co, rfl⟩ : ∃ (u : Fin 1) (th : Fin 7) (w : Fin 28) (co : Fin 512), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg26.win 4).blk t).view.emb (ix4 (0 : Fin 1) th w co))
      = conv V c (pn t) (⟨(pr t).val * 7 + th.val, by have := (pr t).isLt; omega⟩ : Fin 28) w co :=
    (G_apply V c _).trans (conv_congr V c
      (Fin.ext (by show win26_4.index t 0 * 1 + 1 * 0 = t.val / 4; rw [h0]; omega))
      (Fin.ext (by show win26_4.index t 1 * 7 + 1 * th.val = t.val % 4 * 7 + th.val; rw [h1]; omega))
      (Fin.ext (by show win26_4.index t 2 * 28 + 1 * w.val = w.val; rw [h2]; omega))
      (Fin.ext (by show win26_4.index t 3 * 512 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 7 + (th.val + dy.val) = (pr t).val * 7 + th.val + dy.val
  omega

/-! ## The output's row tiles cover it -/

/-- An index of the output array is in point `t`'s block when its image and row tile are `t`'s. -/
theorem mem_blk (t : Fin cfg26.N) (i : S16x28x28x512.Idx) :
    i ∈ ((cfg26.win 4).blk t).view.set ↔ (i 0 : Nat) = t.val / 4 ∧ t.val % 4 * 7 ≤ (i 1 : Nat) ∧ (i 1 : Nat) < t.val % 4 * 7 + 7 := by
  show i ∈ ((View.whole main_v79).slice (win26_4.rect t)).set ↔ _
  rw [View.set_slice_whole, Rect.mem_set_unit]
  obtain ⟨-, -, -, -, ⟨h0, h1, h2, h3⟩⟩ := idx_facts t
  have b2 : (i 2 : Nat) < 28 := (i 2).isLt
  have b3 : (i 3 : Nat) < 512 := (i 3).isLt
  have e0 : win26_4.index t 0 * win26_4.size 0 = t.val / 4 := by rw [h0]; show t.val / 4 * 1 = _; omega
  have e1 : win26_4.index t 1 * win26_4.size 1 = t.val % 4 * 7 := by rw [h1]; rfl
  have e2 : win26_4.index t 2 * win26_4.size 2 = 0 := by rw [h2]; rfl
  have e3 : win26_4.index t 3 * win26_4.size 3 = 0 := by rw [h3]; rfl
  have x0 : win26_4.xsize (grid26.coords t) 0 = 1 := rfl
  have x1 : win26_4.xsize (grid26.coords t) 1 = 7 := rfl
  have x2 : win26_4.xsize (grid26.coords t) 2 = 28 := rfl
  have x3 : win26_4.xsize (grid26.coords t) 3 = 512 := rfl
  refine ⟨fun h => ?_, fun h a => ?_⟩
  · have a0 := h 0; have a1 := h 1
    rw [e0, x0] at a0; rw [e1, x1] at a1
    exact ⟨by omega, a1⟩
  · match a with
    | ⟨0, _⟩ => show win26_4.index t 0 * win26_4.size 0 ≤ (i 0 : Nat) ∧ (i 0 : Nat) < win26_4.index t 0 * win26_4.size 0 + win26_4.xsize (grid26.coords t) 0
                rw [e0, x0]; omega
    | ⟨1, _⟩ => show win26_4.index t 1 * win26_4.size 1 ≤ (i 1 : Nat) ∧ (i 1 : Nat) < win26_4.index t 1 * win26_4.size 1 + win26_4.xsize (grid26.coords t) 1
                rw [e1, x1]; exact h.2
    | ⟨2, _⟩ => show win26_4.index t 2 * win26_4.size 2 ≤ (i 2 : Nat) ∧ (i 2 : Nat) < win26_4.index t 2 * win26_4.size 2 + win26_4.xsize (grid26.coords t) 2
                rw [e2, x2]; omega
    | ⟨3, _⟩ => show win26_4.index t 3 * win26_4.size 3 ≤ (i 3 : Nat) ∧ (i 3 : Nat) < win26_4.index t 3 * win26_4.size 3 + win26_4.xsize (grid26.coords t) 3
                rw [e3, x3]; omega

/-- Every index of the output array is in the block of the point of its image and row tile. -/
theorem cover (i : S16x28x28x512.Idx) :
    ∃ t : Fin cfg26.N, (cfg26.win 4).flush t = true ∧ i ∈ ((cfg26.win 4).blk t).view.set := by
  have b0 : (i 0 : Nat) < 16 := (i 0).isLt
  have b1 : (i 1 : Nat) < 28 := (i 1).isLt
  refine ⟨⟨(i 0 : Nat) * 4 + (i 1 : Nat) / 7, by rw [N_eq]; omega⟩, flush26_4 _, ?_⟩
  rw [mem_blk]
  dsimp only
  omega

/-- The output array after the last grid point is `G`. -/
theorem final_out (c : Dev nD) : (dat V c).arrAt 4 cfg26.N = G V c :=
  (dat V c).arrAt_eq_of_cover 4 (G V c) (fun t _ => flushed_eq V c t) cover

/-- The output array after the last grid point: at (n, h, w, co) the 3×3 correlation of the padded input with the
    kernel over the 512 input channels, plus the bias, clamped below at zero. The sums nest dy, dx, ci. -/
theorem out_value (c : Dev nD) (n : Fin 16) (h : Fin 28) (w : Fin 28) (co : Fin 512) :
    (dat V c).arrAt 4 cfg26.N (ix4 n h w co)
      = max ((∑ dy : Fin 3, ∑ dx : Fin 3, ∑ ci : Fin 512,
                xp V c (ix4 n (⟨h.val + dy.val, by omega⟩ : Fin 35) (⟨w.val + dx.val, by omega⟩ : Fin 32) ci)
                  * wk V c (ix4 dy dx ci co))
              + bias V c (ix2 (0 : Fin 1) co)) 0 := by
  rw [final_out]
  rfl

end Cert.ReferenceIdeal.Reg26
-- ==== Proof.RI.Val26.lean ====
import proofs.«143011_g2000502688546152_pallasbulk_1201_3_alg».proof.Proof.RI.Seg26
import proofs.«143011_g2000502688546152_pallasbulk_1201_3_alg».proof.Proof.RI.Reg26Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg26

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 28 28 512)
    (hx : ∀ (n : Fin 16) (i : Fin 35) (j : Fin 32) (ci : Fin 512),
      (W c (Proc.devRef .tc (Pipeline.arrRef spec26 0)) : FVec 𝕀 S16x35x32x512 .f32) (ix4 n i j ci) = Cert.Spec.padAt z n i.val j.val ci) :
    Cert.Spec.curry4 (Wout W c (Proc.devRef .tc (Pipeline.arrRef spec26 4)) : FVec 𝕀 S16x28x28x512 .f32)
      = Cert.Spec.convRelu z (Cert.Spec.curryW (W c (Proc.devRef .tc (Pipeline.arrRef spec26 2)) : FVec 𝕀 S3x3x512x512 .f32))
          (Cert.Spec.curryB (W c (Proc.devRef .tc (Pipeline.arrRef spec26 3)) : FVec 𝕀 S1x512 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg26

end
-- ==== Proof.RI.Reg27Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (7·32 each, then 32 zero rows), and for each tap (dy, dx)
multiplies the rows shifted by 32·dy + dx with the tap's [512, 512] matrix. Read at row th·32 + w and column co, the nine
products add up to the 3×3 correlation at pixel (th, w), output channel co. -/

set_option maxRecDepth 16384

noncomputable section

namespace Cert.ReferenceIdeal.Reg27

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [224, 512] by [512, 512] product into the zero accumulator, at (r, co): the sum over the 512 input channels. -/
theorem mm_apply (L : FVec Ideal S224x512 .f32) (R : FVec Ideal S512x512 .f32) (r : Fin 224) (co : Fin 512) :
    matmul dot_S224x512_S512x512_S224x512_1_0_0_1_n_n none L R (constant S224x512 .f32 0x00000000#32) (ix2 r co)
      = ∑ ci : Fin 512, L (ix2 r ci) * R (ix2 ci co) := by
  refine (Ideal.matmul_constant_zero_apply _ _ _ _ _).trans ?_
  refine (Equiv.sum_comp (contrEquiv1 dot_S224x512_S512x512_S224x512_1_0_0_1_n_n 512 rfl rfl).symm _).symm.trans ?_
  refine Finset.sum_congr rfl fun ci _ => ?_
  have hl : dot_S224x512_S512x512_S224x512_1_0_0_1_n_n.lhsIdx (ix2 r co)
      ((contrEquiv1 dot_S224x512_S512x512_S224x512_1_0_0_1_n_n 512 rfl rfl).symm ci) = ix2 r ci := by
    funext a; apply Fin.ext
    match a with
    | ⟨0, _⟩ => rfl
    | ⟨1, _⟩ => exact contrEquiv1_symm_val dot_S224x512_S512x512_S224x512_1_0_0_1_n_n 512 rfl rfl ci
  have hr : dot_S224x512_S512x512_S224x512_1_0_0_1_n_n.rhsIdx (ix2 r co)
      ((contrEquiv1 dot_S224x512_S512x512_S224x512_1_0_0_1_n_n 512 rfl rfl).symm ci) = ix2 ci co := by
    funext a; apply Fin.ext
    match a with
    | ⟨0, _⟩ => exact contrEquiv1_symm_val dot_S224x512_S512x512_S224x512_1_0_0_1_n_n 512 rfl rfl ci
    | ⟨1, _⟩ => rfl
  rw [hl, hr]

/-! ## The stacked rows -/

section Slab
variable (xa xb : Vec Ideal S1x7x32x512 .f32)

/-- Pixel (hh, w') of the two tiles stacked one above the other, hh < 14. -/
def tiles (hh : Fin 14) (w' : Fin 32) (ci : Fin 512) : EReal :=
  if h : hh.val < 7 then xa (ix4 (0 : Fin 1) (⟨hh.val, h⟩ : Fin 7) w' ci)
  else xb (ix4 (0 : Fin 1) (⟨hh.val - 7, by omega⟩ : Fin 7) w' ci)

/-- Row hh·32 + w' of the first 224 rows is pixel (hh, w') of the first tile. -/
theorem slab_lo (hh : Fin 7) (w' : Fin 32) (ci : Fin 512) (q : Fin 480) (hq : q.val = hh.val * 32 + w'.val) :
    k27_pay2 xa xb (ix2 q ci) = xa (ix4 (0 : Fin 1) hh w' ci) := by
  unfold k27_pay2
  have hq' : q.val < 224 := by have := hh.isLt; have := w'.isLt; omega
  refine Eq.trans (concatenate_apply_piece (0 : Fin 2) _ _ (ix2 q ci) 0 ?_ S224x512
    (shapeCast S224x512 (shapeCast S7x32x512 xa shapeCasts_S1x7x32x512_S7x32x512) shapeCasts_S7x32x512_S224x512) ?_ ?_ 0 ?_
    (ix2 (⟨q.val, hq'⟩ : Fin 224) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = q.val * 512 + ci.val
      rw [hq]
    · rw [Shape.rowMajor_val_four, Shape.rowMajor_val_three]
      show ((0 * 7 + hh.val) * 32 + w'.val) * 512 + ci.val = (hh.val * 32 + w'.val) * 512 + ci.val
      omega

/-- Row 224 + hh·32 + w' is pixel (hh, w') of the second tile. -/
theorem slab_hi (hh : Fin 7) (w' : Fin 32) (ci : Fin 512) (q : Fin 480) (hq : q.val = 224 + (hh.val * 32 + w'.val)) :
    k27_pay2 xa xb (ix2 q ci) = xb (ix4 (0 : Fin 1) hh w' ci) := by
  unfold k27_pay2
  have hq' : q.val - 224 < 224 := by have := hh.isLt; have := w'.isLt; omega
  refine Eq.trans (concatenate_apply_piece (0 : Fin 2) _ _ (ix2 q ci) 1 ?_ S224x512
    (shapeCast S224x512 (shapeCast S7x32x512 xb shapeCasts_S1x7x32x512_S7x32x512) shapeCasts_S7x32x512_S224x512) ?_ ?_ 224 ?_
    (ix2 (⟨q.val - 224, hq'⟩ : Fin 224) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 224 + (q.val - 224) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = (q.val - 224) * 512 + ci.val
      omega
    · rw [Shape.rowMajor_val_four, Shape.rowMajor_val_three]
      show ((0 * 7 + hh.val) * 32 + w'.val) * 512 + ci.val = (hh.val * 32 + w'.val) * 512 + ci.val
      omega

/-- Row hh·32 + w', hh < 14, of the stacked rows is pixel (hh, w') of the stacked tiles. -/
theorem slab_apply (hh : Fin 14) (w' : Fin 32) (ci : Fin 512) (q : Fin 480) (hq : q.val = hh.val * 32 + w'.val) :
    k27_pay2 xa xb (ix2 q ci) = tiles xa xb hh w' ci := by
  unfold tiles
  split
  · rename_i h; exact slab_lo xa xb ⟨hh.val, h⟩ w' ci q hq
  · rename_i h; exact slab_hi xa xb ⟨hh.val - 7, by omega⟩ w' ci q (by show q.val = 224 + ((hh.val - 7) * 32 + w'.val); omega)

end Slab

/-! ## A tap's product read at an entry -/

/-- A tap matrix [1, 1, 512, 512] flattened to [512, 512], at (ci, co). -/
theorem tapmat_apply (Wt : Vec Ideal S1x1x512x512 .f32) (ci : Fin 512) (co : Fin 512) :
    (shapeCast S512x512 Wt shapeCasts_S1x1x512x512_S512x512 : FVec Ideal S512x512 .f32) (ix2 ci co) = Wt (ix4 (0 : Fin 1) (0 : Fin 1) ci co) := by
  refine shapeCast_apply _ _ _ _ ?_
  rw [Shape.rowMajor_val_four, Shape.rowMajor_val_two]
  show ((0 * 1 + 0) * 512 + ci.val) * 512 + co.val = ci.val * 512 + co.val
  omega

/-- Rows o, o+1, … of a matrix of n0 rows against a flattened tap matrix, at (r, co): the sum over the 512 input
    channels of row o + r times the tap's column co. -/
theorem tap_apply {n0 : Nat} (o : Nat) (X : FVec Ideal ⟨2, ![n0, 512]⟩ .f32)
    (h : (⟨2, ![n0, 512]⟩ : Shape).Slices ![o, 0] S224x512) (Wt : Vec Ideal S1x1x512x512 .f32)
    (r : Fin 224) (co : Fin 512) (hk : o + 223 < n0) :
    matmul dot_S224x512_S512x512_S224x512_1_0_0_1_n_n none (extractStridedSlice S224x512 ![o, 0] X h : FVec Ideal S224x512 .f32)
        (shapeCast S512x512 Wt shapeCasts_S1x1x512x512_S512x512 : FVec Ideal S512x512 .f32) (constant S224x512 .f32 0x00000000#32) (ix2 r co)
      = ∑ ci : Fin 512, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x7x32x512 .f32)

/-- The rows from the second on. -/
theorem pay3_apply (q : Fin 479) (ci : Fin 512) :
    k27_pay3 xa xb (ix2 q ci) = k27_pay2 xa xb (ix2 (⟨1 + q.val, by omega⟩ : Fin 480) ci) := by
  unfold k27_pay3
  exact slice2_axis0_apply 1 _ _ q ci _ rfl

/-- The rows from the third on. -/
theorem pay4_apply (q : Fin 478) (ci : Fin 512) :
    k27_pay4 xa xb (ix2 q ci) = k27_pay2 xa xb (ix2 (⟨2 + q.val, by omega⟩ : Fin 480) ci) := by
  unfold k27_pay4
  exact slice2_axis0_apply 2 _ _ q ci _ rfl

end Shift

/-! ## The accumulations -/

/-- The first three taps added onto zero. -/
theorem pay5_apply (xa xb : Vec Ideal S1x7x32x512 .f32) (w00 w01 w02 : Vec Ideal S1x1x512x512 .f32) (r : Fin 224) (co : Fin 512) :
    k27_pay5 xa xb w00 w01 w02 (ix2 r co)
      = 0 + (∑ ci : Fin 512, k27_pay2 xa xb (ix2 (⟨0 + r.val, by omega⟩ : Fin 480) ci) * w00 (ix4 (0 : Fin 1) (0 : Fin 1) ci co))
          + (∑ ci : Fin 512, k27_pay3 xa xb (ix2 (⟨0 + r.val, by omega⟩ : Fin 479) ci) * w01 (ix4 (0 : Fin 1) (0 : Fin 1) ci co))
          + (∑ ci : Fin 512, k27_pay4 xa xb (ix2 (⟨0 + r.val, by omega⟩ : Fin 478) ci) * w02 (ix4 (0 : Fin 1) (0 : Fin 1) ci co)) := by
  unfold k27_pay5
  simp only [addf_apply]
  rw [tap_apply 0 (k27_pay2 xa xb) _ w00 r co (by omega), tap_apply 0 (k27_pay3 xa xb) _ w01 r co (by omega),
    tap_apply 0 (k27_pay4 xa xb) _ w02 r co (by omega)]
  congr 3
  exact Ideal.ofBits_zero_f32

/-- The other six taps and the bias added onto what the first three left. -/
theorem pay8_apply (v7 : FVec Ideal S480x512 .f32) (v8 : FVec Ideal S479x512 .f32) (v9 : FVec Ideal S478x512 .f32)
    (v25 : FVec Ideal S224x512 .f32) (v26 : FVec Ideal S224x512 .f32) (v28 : FVec Ideal S512x512 .f32)
    (w11 w12 w20 w21 w22 : Vec Ideal S1x1x512x512 .f32) (b : Vec Ideal S1x512 .f32) (r : Fin 224) (co : Fin 512) :
    k27_pay8 v7 v8 v9 v25 v26 v28 w11 w12 w20 w21 w22 b (ix2 r co)
      = v25 (ix2 r co) + (∑ ci : Fin 512, v26 (ix2 r ci) * v28 (ix2 ci co))
          + (∑ ci : Fin 512, v8 (ix2 (⟨32 + r.val, by omega⟩ : Fin 479) ci) * w11 (ix4 (0 : Fin 1) (0 : Fin 1) ci co))
          + (∑ ci : Fin 512, v9 (ix2 (⟨32 + r.val, by omega⟩ : Fin 478) ci) * w12 (ix4 (0 : Fin 1) (0 : Fin 1) ci co))
          + (∑ ci : Fin 512, v7 (ix2 (⟨64 + r.val, by omega⟩ : Fin 480) ci) * w20 (ix4 (0 : Fin 1) (0 : Fin 1) ci co))
          + (∑ ci : Fin 512, v8 (ix2 (⟨64 + r.val, by omega⟩ : Fin 479) ci) * w21 (ix4 (0 : Fin 1) (0 : Fin 1) ci co))
          + (∑ ci : Fin 512, v9 (ix2 (⟨64 + r.val, by omega⟩ : Fin 478) ci) * w22 (ix4 (0 : Fin 1) (0 : Fin 1) ci co))
          + b (ix2 (0 : Fin 1) co) := by
  unfold k27_pay8
  simp only [addf_apply]
  rw [mm_apply, tap_apply 32 v8 _ w11 r co (by omega), tap_apply 32 v9 _ w12 r co (by omega),
    tap_apply 64 v7 _ w20 r co (by omega), tap_apply 64 v8 _ w21 r co (by omega), tap_apply 64 v9 _ w22 r co (by omega),
    broadcastTo_1b_ab_apply]

/-- The fourth tap's rows and matrix. -/
theorem pay6_apply (xa xb : Vec Ideal S1x7x32x512 .f32) (r : Fin 224) (ci : Fin 512) :
    k27_pay6 xa xb (ix2 r ci) = k27_pay2 xa xb (ix2 (⟨32 + r.val, by omega⟩ : Fin 480) ci) := by
  unfold k27_pay6
  exact slice2_axis0_apply 32 _ _ r ci _ rfl

theorem pay7_apply (w10 : Vec Ideal S1x1x512x512 .f32) (ci : Fin 512) (co : Fin 512) :
    k27_pay7 w10 (ix2 ci co) = w10 (ix4 (0 : Fin 1) (0 : Fin 1) ci co) := by
  unfold k27_pay7
  exact tapmat_apply w10 ci co

/-- The clamp and the cut to 28 columns: entry (0, th, w, co) of the tile is row th·32 + w, column co. -/
theorem pay1_apply (v58 v59 : FVec Ideal S224x512 .f32) (th : Fin 7) (w : Fin 28) (co : Fin 512) :
    k27_pay1 v58 v59 (ix4 (0 : Fin 1) th w co)
      = max (v58 (ix2 (⟨th.val * 32 + w.val, by omega⟩ : Fin 224) co)) (v59 (ix2 (⟨th.val * 32 + w.val, by omega⟩ : Fin 224) co)) := by
  unfold k27_pay1
  refine (shapeCast_abc_1abc_apply _ _ (0 : Fin 1) th w co).trans ?_
  refine (slice3_axis1_apply 0 _ _ th w co (⟨w.val, by omega⟩ : Fin 32) (by simp)).trans ?_
  refine (shapeCast_apply _ _ _ (ix2 (⟨th.val * 32 + w.val, by omega⟩ : Fin 224) co) ?_).trans (maximumf_apply _ _ _)
  rw [Shape.rowMajor_val_two, Shape.rowMajor_val_three]
  rfl

theorem pay9_apply (j : S224x512.Idx) : k27_pay9 (F := Ideal) j = 0 := by
  unfold k27_pay9
  exact Ideal.ofBits_zero_f32

/-! ## The body's value at an entry -/

section Entry
variable (xa xb : Vec Ideal S1x7x32x512 .f32)

/-- Row (th+dy)·32 + (w+dx) of the stacked rows is pixel (th+dy, w+dx) of the stacked tiles. -/
theorem slab_tap (th : Fin 7) (w : Fin 28) (dy dx : Fin 3) (ci : Fin 512) (q : Fin 480)
    (hq : q.val = (th.val + dy.val) * 32 + (w.val + dx.val)) :
    k27_pay2 xa xb (ix2 q ci)
      = tiles xa xb (⟨th.val + dy.val, by omega⟩ : Fin 14) (⟨w.val + dx.val, by omega⟩ : Fin 32) ci :=
  slab_apply xa xb _ _ ci q hq

/-- The nine tap matrices as one family. -/
def taps (w00 w01 w02 w10 w11 w12 w20 w21 w22 : Vec Ideal S1x1x512x512 .f32) (dy dx : Fin 3) : Vec Ideal S1x1x512x512 .f32 :=
  ![![w00, w01, w02], ![w10, w11, w12], ![w20, w21, w22]] dy dx

/-- One output entry of the body: the 3×3 correlation of the stacked tiles with the nine tap matrices over the 512
    input channels, plus the bias, clamped below at zero. -/
theorem conv_entry (w00 w01 w02 w10 w11 w12 w20 w21 w22 : Vec Ideal S1x1x512x512 .f32) (b : Vec Ideal S1x512 .f32)
    (th : Fin 7) (w : Fin 28) (co : Fin 512) :
    k27_pay1 (k27_pay8 (k27_pay2 xa xb) (k27_pay3 xa xb) (k27_pay4 xa xb) (k27_pay5 xa xb w00 w01 w02) (k27_pay6 xa xb)
        (k27_pay7 w10) w11 w12 w20 w21 w22 b) k27_pay9 (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 512,
      tiles xa xb (⟨th.val + dy.val, by omega⟩ : Fin 14) (⟨w.val + dx.val, by omega⟩ : Fin 32) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg27
-- ==== Proof.RI.Reg27Value.lean ====
import proofs.«143011_g2000502688546152_pallasbulk_1201_3_alg».proof.Proof.RI.Reg27
import proofs.«143011_g2000502688546152_pallasbulk_1201_3_alg».proof.Proof.RI.Reg27Pure

/-! # Region 27 at the extended reals: the output array is the 3×3 correlation, plus bias, clamped at zero

Point t = 4·n + r of the grid writes back the output's row tile r of image n. Its two input tiles are row tiles r and
r + 1 of the padded input, so row h + dy of the padded input, h = 7·r + th, is row th + dy of the two tiles stacked. -/

set_option maxRecDepth 16384

noncomputable section

namespace Cert.ReferenceIdeal.Reg27

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 35, 32, 512], the kernel [3, 3, 512, 512] and the bias [1, 512] as the region finds them. -/
abbrev xp (c : Dev nD) : S16x35x32x512.Idx → EReal := V c (Pipeline.arrRef spec27 0)
abbrev wk (c : Dev nD) : S3x3x512x512.Idx → EReal := V c (Pipeline.arrRef spec27 2)
abbrev bias (c : Dev nD) : S1x512.Idx → EReal := V c (Pipeline.arrRef spec27 3)

/-! ## The grid's points and the windows' block indices -/

theorem N_eq : cfg27.N = 64 := N_27

/-- The image and the row tile of point `t`. -/
def pn (t : Fin cfg27.N) : Fin 16 := ⟨t.val / 4, by have := t.isLt; have := N_eq; omega⟩
def pr (t : Fin cfg27.N) : Fin 4 := ⟨t.val % 4, Nat.mod_lt _ (by decide)⟩

/-- The five windows' block indices at every point: (n, r), (n, r + 1), the origin twice, (n, r). -/
theorem idx_facts : ∀ t : Fin cfg27.N,
    (win27_0.index t 0 = t.val / 4 ∧ win27_0.index t 1 = t.val % 4 ∧ win27_0.index t 2 = 0 ∧ win27_0.index t 3 = 0)
    ∧ (win27_1.index t 0 = t.val / 4 ∧ win27_1.index t 1 = t.val % 4 + 1 ∧ win27_1.index t 2 = 0 ∧ win27_1.index t 3 = 0)
    ∧ (win27_2.index t 0 = 0 ∧ win27_2.index t 1 = 0 ∧ win27_2.index t 2 = 0 ∧ win27_2.index t 3 = 0)
    ∧ (win27_3.index t 0 = 0 ∧ win27_3.index t 1 = 0)
    ∧ (win27_4.index t 0 = t.val / 4 ∧ win27_4.index t 1 = t.val % 4 ∧ win27_4.index t 2 = 0 ∧ win27_4.index t 3 = 0) :=
  (by decide +kernel : ∀ t : Fin grid27.N, _)

/-! ## The windows' blocks read at an index -/

/-- The first input tile at point (n, r): rows 7·r … of image n of the padded input. -/
theorem iblk0_apply (c : Dev nD) (t : Fin cfg27.N) (hh : Fin 7) (w' : Fin 32) (ci : Fin 512) :
    iblk V c 0 t (ix4 (0 : Fin 1) hh w' ci)
      = xp V c (ix4 (pn t) (⟨(pr t).val * 7 + hh.val, by have := (pr t).isLt; omega⟩ : Fin 35) w' ci) := by
  obtain ⟨⟨h0, h1, h2, h3⟩, -⟩ := idx_facts t
  unfold iblk
  rw [View.read_apply]
  show V c (Pipeline.arrRef spec27 0) _ = V c (Pipeline.arrRef spec27 0) _
  congr 1
  funext a
  apply Fin.ext
  match a with
  | ⟨0, _⟩ => show win27_0.index t 0 * 1 + 1 * 0 = t.val / 4; rw [h0]; omega
  | ⟨1, _⟩ => show win27_0.index t 1 * 7 + 1 * hh.val = t.val % 4 * 7 + hh.val; rw [h1]; omega
  | ⟨2, _⟩ => show win27_0.index t 2 * 32 + 1 * w'.val = w'.val; rw [h2]; omega
  | ⟨3, _⟩ => show win27_0.index t 3 * 512 + 1 * ci.val = ci.val; rw [h3]; omega

/-- The second input tile at point (n, r): rows 7·(r + 1) … of image n of the padded input. -/
theorem iblk1_apply (c : Dev nD) (t : Fin cfg27.N) (hh : Fin 7) (w' : Fin 32) (ci : Fin 512) :
    iblk V c 1 t (ix4 (0 : Fin 1) hh w' ci)
      = xp V c (ix4 (pn t) (⟨((pr t).val + 1) * 7 + hh.val, by have := (pr t).isLt; omega⟩ : Fin 35) w' ci) := by
  obtain ⟨-, ⟨h0, h1, h2, h3⟩, -⟩ := idx_facts t
  unfold iblk
  rw [View.read_apply]
  show V c (Pipeline.arrRef spec27 1) _ = V c (Pipeline.arrRef spec27 0) _
  congr 1
  funext a
  apply Fin.ext
  match a with
  | ⟨0, _⟩ => show win27_1.index t 0 * 1 + 1 * 0 = t.val / 4; rw [h0]; omega
  | ⟨1, _⟩ => show win27_1.index t 1 * 7 + 1 * hh.val = (t.val % 4 + 1) * 7 + hh.val; rw [h1]; omega
  | ⟨2, _⟩ => show win27_1.index t 2 * 32 + 1 * w'.val = w'.val; rw [h2]; omega
  | ⟨3, _⟩ => show win27_1.index t 3 * 512 + 1 * ci.val = ci.val; rw [h3]; omega

/-- The kernel window is the whole kernel array at every point. -/
theorem iblk2_apply (c : Dev nD) (t : Fin cfg27.N) (dy dx : Fin 3) (ci : Fin 512) (co : Fin 512) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec27 2) _ = V c (Pipeline.arrRef spec27 2) _
  congr 1
  funext a
  apply Fin.ext
  match a with
  | ⟨0, _⟩ => show win27_2.index t 0 * 3 + 1 * dy.val = dy.val; rw [h0]; omega
  | ⟨1, _⟩ => show win27_2.index t 1 * 3 + 1 * dx.val = dx.val; rw [h1]; omega
  | ⟨2, _⟩ => show win27_2.index t 2 * 512 + 1 * ci.val = ci.val; rw [h2]; omega
  | ⟨3, _⟩ => show win27_2.index t 3 * 512 + 1 * co.val = co.val; rw [h3]; omega

/-- The bias window is the whole bias row at every point. -/
theorem iblk3_apply (c : Dev nD) (t : Fin cfg27.N) (co : Fin 512) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec27 3) _ = V c (Pipeline.arrRef spec27 3) _
  congr 1
  funext a
  apply Fin.ext
  match a with
  | ⟨0, _⟩ => show win27_3.index t 0 * 1 + 1 * 0 = 0; rw [h0]
  | ⟨1, _⟩ => show win27_3.index t 1 * 512 + 1 * co.val = co.val; rw [h1]; omega

/-! ## The whole-array function and what a point writes back -/

/-- The correlation at (n, h, w, co): the sums nest dy, dx, ci. -/
def conv (c : Dev nD) (n : Fin 16) (h : Fin 28) (w : Fin 28) (co : Fin 512) : EReal :=
  max ((∑ dy : Fin 3, ∑ dx : Fin 3, ∑ ci : Fin 512,
          xp V c (ix4 n (⟨h.val + dy.val, by omega⟩ : Fin 35) (⟨w.val + dx.val, by omega⟩ : Fin 32) ci)
            * wk V c (ix4 dy dx ci co))
        + bias V c (ix2 (0 : Fin 1) co)) 0

/-- The output array the region is shown to leave. -/
def G (c : Dev nD) : Buf (Elt Ideal) ((c : Thread nD τ).loc main_v81) :=
  fun i : S16x28x28x512.Idx => conv V c (i 0) (i 1) (i 2) (i 3)

theorem G_apply (c : Dev nD) (i : S16x28x28x512.Idx) : G V c i = conv V c (i 0) (i 1) (i 2) (i 3) := rfl

theorem conv_congr (c : Dev nD) {n n' : Fin 16} {h h' : Fin 28} {w w' : Fin 28} {co co' : Fin 512}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 7·r … of image n of the padded input. -/
theorem tiles_eq (c : Dev nD) (t : Fin cfg27.N) (hh : Fin 14) (w' : Fin 32) (ci : Fin 512) :
    tiles (iblk V c 0 t) (iblk V c 1 t) hh w' ci
      = xp V c (ix4 (pn t) (⟨(pr t).val * 7 + hh.val, by have := (pr t).isLt; omega⟩ : Fin 35) w' ci) := by
  unfold tiles
  split
  · rename_i h
    exact iblk0_apply V c t ⟨hh.val, h⟩ w' ci
  · rename_i h
    rw [iblk1_apply V c t ⟨hh.val - 7, by omega⟩ w' ci]
    congr 2
    apply Fin.ext
    show ((pr t).val + 1) * 7 + (hh.val - 7) = (pr t).val * 7 + hh.val
    omega

/-- The nine loaded tap matrices are the kernel array's taps. -/
theorem taps_eq (c : Dev nD) (t : Fin cfg27.N) (dy dx : Fin 3) (ci : Fin 512) (co : Fin 512) :
    taps (View.ld (iblk V c 2 t) (tapRect 0 0 inb_S3x3x512x512_S1x1x512x512_0_0_0_0))
        (View.ld (iblk V c 2 t) (tapRect 0 1 inb_S3x3x512x512_S1x1x512x512_0_1_0_0))
        (View.ld (iblk V c 2 t) (tapRect 0 2 inb_S3x3x512x512_S1x1x512x512_0_2_0_0))
        (View.ld (iblk V c 2 t) (tapRect 1 0 inb_S3x3x512x512_S1x1x512x512_1_0_0_0))
        (View.ld (iblk V c 2 t) (tapRect 1 1 inb_S3x3x512x512_S1x1x512x512_1_1_0_0))
        (View.ld (iblk V c 2 t) (tapRect 1 2 inb_S3x3x512x512_S1x1x512x512_1_2_0_0))
        (View.ld (iblk V c 2 t) (tapRect 2 0 inb_S3x3x512x512_S1x1x512x512_2_0_0_0))
        (View.ld (iblk V c 2 t) (tapRect 2 1 inb_S3x3x512x512_S1x1x512x512_2_1_0_0))
        (View.ld (iblk V c 2 t) (tapRect 2 2 inb_S3x3x512x512_S1x1x512x512_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x7x32x512 .f32) (wk' : Vec Ideal S3x3x512x512 .f32) (b : Vec Ideal S1x512 .f32)
    (th : Fin 7) (w : Fin 28) (co : Fin 512) :
    out xa xb wk' b (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps (View.ld wk' (tapRect 0 0 inb_S3x3x512x512_S1x1x512x512_0_0_0_0))
                    (View.ld wk' (tapRect 0 1 inb_S3x3x512x512_S1x1x512x512_0_1_0_0))
                    (View.ld wk' (tapRect 0 2 inb_S3x3x512x512_S1x1x512x512_0_2_0_0))
                    (View.ld wk' (tapRect 1 0 inb_S3x3x512x512_S1x1x512x512_1_0_0_0))
                    (View.ld wk' (tapRect 1 1 inb_S3x3x512x512_S1x1x512x512_1_1_0_0))
                    (View.ld wk' (tapRect 1 2 inb_S3x3x512x512_S1x1x512x512_1_2_0_0))
                    (View.ld wk' (tapRect 2 0 inb_S3x3x512x512_S1x1x512x512_2_0_0_0))
                    (View.ld wk' (tapRect 2 1 inb_S3x3x512x512_S1x1x512x512_2_1_0_0))
                    (View.ld wk' (tapRect 2 2 inb_S3x3x512x512_S1x1x512x512_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg27.N) :
    (dat V c).flushed 4 t = ((cfg27.win 4).blk t).view.read (Elt Ideal) (G V c) := by
  show (cfg27.win 4).cut (grid27.coords t) ((dat V c).after 4 t) = _
  rw [after_4]
  funext x
  obtain ⟨u, th, w, co, rfl⟩ : ∃ (u : Fin 1) (th : Fin 7) (w : Fin 28) (co : Fin 512), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg27.win 4).blk t).view.emb (ix4 (0 : Fin 1) th w co))
      = conv V c (pn t) (⟨(pr t).val * 7 + th.val, by have := (pr t).isLt; omega⟩ : Fin 28) w co :=
    (G_apply V c _).trans (conv_congr V c
      (Fin.ext (by show win27_4.index t 0 * 1 + 1 * 0 = t.val / 4; rw [h0]; omega))
      (Fin.ext (by show win27_4.index t 1 * 7 + 1 * th.val = t.val % 4 * 7 + th.val; rw [h1]; omega))
      (Fin.ext (by show win27_4.index t 2 * 28 + 1 * w.val = w.val; rw [h2]; omega))
      (Fin.ext (by show win27_4.index t 3 * 512 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 7 + (th.val + dy.val) = (pr t).val * 7 + th.val + dy.val
  omega

/-! ## The output's row tiles cover it -/

/-- An index of the output array is in point `t`'s block when its image and row tile are `t`'s. -/
theorem mem_blk (t : Fin cfg27.N) (i : S16x28x28x512.Idx) :
    i ∈ ((cfg27.win 4).blk t).view.set ↔ (i 0 : Nat) = t.val / 4 ∧ t.val % 4 * 7 ≤ (i 1 : Nat) ∧ (i 1 : Nat) < t.val % 4 * 7 + 7 := by
  show i ∈ ((View.whole main_v81).slice (win27_4.rect t)).set ↔ _
  rw [View.set_slice_whole, Rect.mem_set_unit]
  obtain ⟨-, -, -, -, ⟨h0, h1, h2, h3⟩⟩ := idx_facts t
  have b2 : (i 2 : Nat) < 28 := (i 2).isLt
  have b3 : (i 3 : Nat) < 512 := (i 3).isLt
  have e0 : win27_4.index t 0 * win27_4.size 0 = t.val / 4 := by rw [h0]; show t.val / 4 * 1 = _; omega
  have e1 : win27_4.index t 1 * win27_4.size 1 = t.val % 4 * 7 := by rw [h1]; rfl
  have e2 : win27_4.index t 2 * win27_4.size 2 = 0 := by rw [h2]; rfl
  have e3 : win27_4.index t 3 * win27_4.size 3 = 0 := by rw [h3]; rfl
  have x0 : win27_4.xsize (grid27.coords t) 0 = 1 := rfl
  have x1 : win27_4.xsize (grid27.coords t) 1 = 7 := rfl
  have x2 : win27_4.xsize (grid27.coords t) 2 = 28 := rfl
  have x3 : win27_4.xsize (grid27.coords t) 3 = 512 := rfl
  refine ⟨fun h => ?_, fun h a => ?_⟩
  · have a0 := h 0; have a1 := h 1
    rw [e0, x0] at a0; rw [e1, x1] at a1
    exact ⟨by omega, a1⟩
  · match a with
    | ⟨0, _⟩ => show win27_4.index t 0 * win27_4.size 0 ≤ (i 0 : Nat) ∧ (i 0 : Nat) < win27_4.index t 0 * win27_4.size 0 + win27_4.xsize (grid27.coords t) 0
                rw [e0, x0]; omega
    | ⟨1, _⟩ => show win27_4.index t 1 * win27_4.size 1 ≤ (i 1 : Nat) ∧ (i 1 : Nat) < win27_4.index t 1 * win27_4.size 1 + win27_4.xsize (grid27.coords t) 1
                rw [e1, x1]; exact h.2
    | ⟨2, _⟩ => show win27_4.index t 2 * win27_4.size 2 ≤ (i 2 : Nat) ∧ (i 2 : Nat) < win27_4.index t 2 * win27_4.size 2 + win27_4.xsize (grid27.coords t) 2
                rw [e2, x2]; omega
    | ⟨3, _⟩ => show win27_4.index t 3 * win27_4.size 3 ≤ (i 3 : Nat) ∧ (i 3 : Nat) < win27_4.index t 3 * win27_4.size 3 + win27_4.xsize (grid27.coords t) 3
                rw [e3, x3]; omega

/-- Every index of the output array is in the block of the point of its image and row tile. -/
theorem cover (i : S16x28x28x512.Idx) :
    ∃ t : Fin cfg27.N, (cfg27.win 4).flush t = true ∧ i ∈ ((cfg27.win 4).blk t).view.set := by
  have b0 : (i 0 : Nat) < 16 := (i 0).isLt
  have b1 : (i 1 : Nat) < 28 := (i 1).isLt
  refine ⟨⟨(i 0 : Nat) * 4 + (i 1 : Nat) / 7, by rw [N_eq]; omega⟩, flush27_4 _, ?_⟩
  rw [mem_blk]
  dsimp only
  omega

/-- The output array after the last grid point is `G`. -/
theorem final_out (c : Dev nD) : (dat V c).arrAt 4 cfg27.N = G V c :=
  (dat V c).arrAt_eq_of_cover 4 (G V c) (fun t _ => flushed_eq V c t) cover

/-- The output array after the last grid point: at (n, h, w, co) the 3×3 correlation of the padded input with the
    kernel over the 512 input channels, plus the bias, clamped below at zero. The sums nest dy, dx, ci. -/
theorem out_value (c : Dev nD) (n : Fin 16) (h : Fin 28) (w : Fin 28) (co : Fin 512) :
    (dat V c).arrAt 4 cfg27.N (ix4 n h w co)
      = max ((∑ dy : Fin 3, ∑ dx : Fin 3, ∑ ci : Fin 512,
                xp V c (ix4 n (⟨h.val + dy.val, by omega⟩ : Fin 35) (⟨w.val + dx.val, by omega⟩ : Fin 32) ci)
                  * wk V c (ix4 dy dx ci co))
              + bias V c (ix2 (0 : Fin 1) co)) 0 := by
  rw [final_out]
  rfl

end Cert.ReferenceIdeal.Reg27
-- ==== Proof.RI.Val27.lean ====
import proofs.«143011_g2000502688546152_pallasbulk_1201_3_alg».proof.Proof.RI.Seg27
import proofs.«143011_g2000502688546152_pallasbulk_1201_3_alg».proof.Proof.RI.Reg27Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg27

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 28 28 512)
    (hx : ∀ (n : Fin 16) (i : Fin 35) (j : Fin 32) (ci : Fin 512),
      (W c (Proc.devRef .tc (Pipeline.arrRef spec27 0)) : FVec 𝕀 S16x35x32x512 .f32) (ix4 n i j ci) = Cert.Spec.padAt z n i.val j.val ci) :
    Cert.Spec.curry4 (Wout W c (Proc.devRef .tc (Pipeline.arrRef spec27 4)) : FVec 𝕀 S16x28x28x512 .f32)
      = Cert.Spec.convRelu z (Cert.Spec.curryW (W c (Proc.devRef .tc (Pipeline.arrRef spec27 2)) : FVec 𝕀 S3x3x512x512 .f32))
          (Cert.Spec.curryB (W c (Proc.devRef .tc (Pipeline.arrRef spec27 3)) : FVec 𝕀 S1x512 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg27

end
-- ==== Proof.RI.Reg28Pure.lean ====
import proofs.«143011_g2000502688546152_pallasbulk_1201_3_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

/-! # Region 0's body at the extended reals, entry by entry

The body stacks the two input tiles' pixels as rows (7·32 each, then 32 zero rows), and for each tap (dy, dx)
multiplies the rows shifted by 32·dy + dx with the tap's [512, 512] matrix. Read at row th·32 + w and column co, the nine
products add up to the 3×3 correlation at pixel (th, w), output channel co. -/

set_option maxRecDepth 16384

noncomputable section

namespace Cert.ReferenceIdeal.Reg28

open Idealize.ShloMosaic Idealize.ShloMosaic.ValueIdx
open Cert.ReferenceIdeal Cert.ReferenceIdeal.Gen

/-! ## Sums -/

/-- Nine sums added one after another onto zero, then a constant: the double sum over the taps plus the constant. -/
theorem nine_add (f : Fin 3 → Fin 3 → EReal) (b : EReal) :
    (0 + f 0 0 + f 0 1 + f 0 2) + f 1 0 + f 1 1 + f 1 2 + f 2 0 + f 2 1 + f 2 2 + b
      = (∑ dy : Fin 3, ∑ dx : Fin 3, f dy dx) + b := by
  simp only [Fin.sum_univ_three, zero_add, add_assoc]

/-! ## A matrix product read at an entry -/

/-- A [224, 512] by [512, 512] product into the zero accumulator, at (r, co): the sum over the 512 input channels. -/
theorem mm_apply (L : FVec Ideal S224x512 .f32) (R : FVec Ideal S512x512 .f32) (r : Fin 224) (co : Fin 512) :
    matmul dot_S224x512_S512x512_S224x512_1_0_0_1_n_n none L R (constant S224x512 .f32 0x00000000#32) (ix2 r co)
      = ∑ ci : Fin 512, L (ix2 r ci) * R (ix2 ci co) := by
  refine (Ideal.matmul_constant_zero_apply _ _ _ _ _).trans ?_
  refine (Equiv.sum_comp (contrEquiv1 dot_S224x512_S512x512_S224x512_1_0_0_1_n_n 512 rfl rfl).symm _).symm.trans ?_
  refine Finset.sum_congr rfl fun ci _ => ?_
  have hl : dot_S224x512_S512x512_S224x512_1_0_0_1_n_n.lhsIdx (ix2 r co)
      ((contrEquiv1 dot_S224x512_S512x512_S224x512_1_0_0_1_n_n 512 rfl rfl).symm ci) = ix2 r ci := by
    funext a; apply Fin.ext
    match a with
    | ⟨0, _⟩ => rfl
    | ⟨1, _⟩ => exact contrEquiv1_symm_val dot_S224x512_S512x512_S224x512_1_0_0_1_n_n 512 rfl rfl ci
  have hr : dot_S224x512_S512x512_S224x512_1_0_0_1_n_n.rhsIdx (ix2 r co)
      ((contrEquiv1 dot_S224x512_S512x512_S224x512_1_0_0_1_n_n 512 rfl rfl).symm ci) = ix2 ci co := by
    funext a; apply Fin.ext
    match a with
    | ⟨0, _⟩ => exact contrEquiv1_symm_val dot_S224x512_S512x512_S224x512_1_0_0_1_n_n 512 rfl rfl ci
    | ⟨1, _⟩ => rfl
  rw [hl, hr]

/-! ## The stacked rows -/

section Slab
variable (xa xb : Vec Ideal S1x7x32x512 .f32)

/-- Pixel (hh, w') of the two tiles stacked one above the other, hh < 14. -/
def tiles (hh : Fin 14) (w' : Fin 32) (ci : Fin 512) : EReal :=
  if h : hh.val < 7 then xa (ix4 (0 : Fin 1) (⟨hh.val, h⟩ : Fin 7) w' ci)
  else xb (ix4 (0 : Fin 1) (⟨hh.val - 7, by omega⟩ : Fin 7) w' ci)

/-- Row hh·32 + w' of the first 224 rows is pixel (hh, w') of the first tile. -/
theorem slab_lo (hh : Fin 7) (w' : Fin 32) (ci : Fin 512) (q : Fin 480) (hq : q.val = hh.val * 32 + w'.val) :
    k28_pay2 xa xb (ix2 q ci) = xa (ix4 (0 : Fin 1) hh w' ci) := by
  unfold k28_pay2
  have hq' : q.val < 224 := by have := hh.isLt; have := w'.isLt; omega
  refine Eq.trans (concatenate_apply_piece (0 : Fin 2) _ _ (ix2 q ci) 0 ?_ S224x512
    (shapeCast S224x512 (shapeCast S7x32x512 xa shapeCasts_S1x7x32x512_S7x32x512) shapeCasts_S7x32x512_S224x512) ?_ ?_ 0 ?_
    (ix2 (⟨q.val, hq'⟩ : Fin 224) ci) ?_ ?_) ?_
  · exact Nat.zero_lt_succ _
  · rfl
  · rfl
  · rfl
  · intro b hb
    match b with
    | ⟨0, _⟩ => exact absurd rfl hb
    | ⟨1, _⟩ => rfl
  · show 0 + q.val = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = q.val * 512 + ci.val
      rw [hq]
    · rw [Shape.rowMajor_val_four, Shape.rowMajor_val_three]
      show ((0 * 7 + hh.val) * 32 + w'.val) * 512 + ci.val = (hh.val * 32 + w'.val) * 512 + ci.val
      omega

/-- Row 224 + hh·32 + w' is pixel (hh, w') of the second tile. -/
theorem slab_hi (hh : Fin 7) (w' : Fin 32) (ci : Fin 512) (q : Fin 480) (hq : q.val = 224 + (hh.val * 32 + w'.val)) :
    k28_pay2 xa xb (ix2 q ci) = xb (ix4 (0 : Fin 1) hh w' ci) := by
  unfold k28_pay2
  have hq' : q.val - 224 < 224 := by have := hh.isLt; have := w'.isLt; omega
  refine Eq.trans (concatenate_apply_piece (0 : Fin 2) _ _ (ix2 q ci) 1 ?_ S224x512
    (shapeCast S224x512 (shapeCast S7x32x512 xb shapeCasts_S1x7x32x512_S7x32x512) shapeCasts_S7x32x512_S224x512) ?_ ?_ 224 ?_
    (ix2 (⟨q.val - 224, hq'⟩ : Fin 224) ci) ?_ ?_) ?_
  · exact Nat.succ_lt_succ (Nat.zero_lt_succ _)
  · rfl
  · rfl
  · rfl
  · intro b hb
    match b with
    | ⟨0, _⟩ => exact absurd rfl hb
    | ⟨1, _⟩ => rfl
  · show 224 + (q.val - 224) = q.val; omega
  · refine (shapeCast_apply _ _ _ (ix3 hh w' ci) ?_).trans (shapeCast_apply _ _ _ (ix4 (0 : Fin 1) hh w' ci) ?_)
    · rw [Shape.rowMajor_val_three, Shape.rowMajor_val_two]
      show (hh.val * 32 + w'.val) * 512 + ci.val = (q.val - 224) * 512 + ci.val
      omega
    · rw [Shape.rowMajor_val_four, Shape.rowMajor_val_three]
      show ((0 * 7 + hh.val) * 32 + w'.val) * 512 + ci.val = (hh.val * 32 + w'.val) * 512 + ci.val
      omega

/-- Row hh·32 + w', hh < 14, of the stacked rows is pixel (hh, w') of the stacked tiles. -/
theorem slab_apply (hh : Fin 14) (w' : Fin 32) (ci : Fin 512) (q : Fin 480) (hq : q.val = hh.val * 32 + w'.val) :
    k28_pay2 xa xb (ix2 q ci) = tiles xa xb hh w' ci := by
  unfold tiles
  split
  · rename_i h; exact slab_lo xa xb ⟨hh.val, h⟩ w' ci q hq
  · rename_i h; exact slab_hi xa xb ⟨hh.val - 7, by omega⟩ w' ci q (by show q.val = 224 + ((hh.val - 7) * 32 + w'.val); omega)

end Slab

/-! ## A tap's product read at an entry -/

/-- A tap matrix [1, 1, 512, 512] flattened to [512, 512], at (ci, co). -/
theorem tapmat_apply (Wt : Vec Ideal S1x1x512x512 .f32) (ci : Fin 512) (co : Fin 512) :
    (shapeCast S512x512 Wt shapeCasts_S1x1x512x512_S512x512 : FVec Ideal S512x512 .f32) (ix2 ci co) = Wt (ix4 (0 : Fin 1) (0 : Fin 1) ci co) := by
  refine shapeCast_apply _ _ _ _ ?_
  rw [Shape.rowMajor_val_four, Shape.rowMajor_val_two]
  show ((0 * 1 + 0) * 512 + ci.val) * 512 + co.val = ci.val * 512 + co.val
  omega

/-- Rows o, o+1, … of a matrix of n0 rows against a flattened tap matrix, at (r, co): the sum over the 512 input
    channels of row o + r times the tap's column co. -/
theorem tap_apply {n0 : Nat} (o : Nat) (X : FVec Ideal ⟨2, ![n0, 512]⟩ .f32)
    (h : (⟨2, ![n0, 512]⟩ : Shape).Slices ![o, 0] S224x512) (Wt : Vec Ideal S1x1x512x512 .f32)
    (r : Fin 224) (co : Fin 512) (hk : o + 223 < n0) :
    matmul dot_S224x512_S512x512_S224x512_1_0_0_1_n_n none (extractStridedSlice S224x512 ![o, 0] X h : FVec Ideal S224x512 .f32)
        (shapeCast S512x512 Wt shapeCasts_S1x1x512x512_S512x512 : FVec Ideal S512x512 .f32) (constant S224x512 .f32 0x00000000#32) (ix2 r co)
      = ∑ ci : Fin 512, X (ix2 (⟨o + r.val, by omega⟩ : Fin n0) ci) * Wt (ix4 (0 : Fin 1) (0 : Fin 1) ci co) := by
  rw [mm_apply]
  refine Finset.sum_congr rfl fun ci _ => ?_
  rw [slice2_axis0_apply o X h r ci (⟨o + r.val, by omega⟩ : Fin n0) rfl, tapmat_apply]

/-! ## The shifted copies of the stacked rows -/

section Shift
variable (xa xb : Vec Ideal S1x7x32x512 .f32)

/-- The rows from the second on. -/
theorem pay3_apply (q : Fin 479) (ci : Fin 512) :
    k28_pay3 xa xb (ix2 q ci) = k28_pay2 xa xb (ix2 (⟨1 + q.val, by omega⟩ : Fin 480) ci) := by
  unfold k28_pay3
  exact slice2_axis0_apply 1 _ _ q ci _ rfl

/-- The rows from the third on. -/
theorem pay4_apply (q : Fin 478) (ci : Fin 512) :
    k28_pay4 xa xb (ix2 q ci) = k28_pay2 xa xb (ix2 (⟨2 + q.val, by omega⟩ : Fin 480) ci) := by
  unfold k28_pay4
  exact slice2_axis0_apply 2 _ _ q ci _ rfl

end Shift

/-! ## The accumulations -/

/-- The first three taps added onto zero. -/
theorem pay5_apply (xa xb : Vec Ideal S1x7x32x512 .f32) (w00 w01 w02 : Vec Ideal S1x1x512x512 .f32) (r : Fin 224) (co : Fin 512) :
    k28_pay5 xa xb w00 w01 w02 (ix2 r co)
      = 0 + (∑ ci : Fin 512, k28_pay2 xa xb (ix2 (⟨0 + r.val, by omega⟩ : Fin 480) ci) * w00 (ix4 (0 : Fin 1) (0 : Fin 1) ci co))
          + (∑ ci : Fin 512, k28_pay3 xa xb (ix2 (⟨0 + r.val, by omega⟩ : Fin 479) ci) * w01 (ix4 (0 : Fin 1) (0 : Fin 1) ci co))
          + (∑ ci : Fin 512, k28_pay4 xa xb (ix2 (⟨0 + r.val, by omega⟩ : Fin 478) ci) * w02 (ix4 (0 : Fin 1) (0 : Fin 1) ci co)) := by
  unfold k28_pay5
  simp only [addf_apply]
  rw [tap_apply 0 (k28_pay2 xa xb) _ w00 r co (by omega), tap_apply 0 (k28_pay3 xa xb) _ w01 r co (by omega),
    tap_apply 0 (k28_pay4 xa xb) _ w02 r co (by omega)]
  congr 3
  exact Ideal.ofBits_zero_f32

/-- The other six taps and the bias added onto what the first three left. -/
theorem pay8_apply (v7 : FVec Ideal S480x512 .f32) (v8 : FVec Ideal S479x512 .f32) (v9 : FVec Ideal S478x512 .f32)
    (v25 : FVec Ideal S224x512 .f32) (v26 : FVec Ideal S224x512 .f32) (v28 : FVec Ideal S512x512 .f32)
    (w11 w12 w20 w21 w22 : Vec Ideal S1x1x512x512 .f32) (b : Vec Ideal S1x512 .f32) (r : Fin 224) (co : Fin 512) :
    k28_pay8 v7 v8 v9 v25 v26 v28 w11 w12 w20 w21 w22 b (ix2 r co)
      = v25 (ix2 r co) + (∑ ci : Fin 512, v26 (ix2 r ci) * v28 (ix2 ci co))
          + (∑ ci : Fin 512, v8 (ix2 (⟨32 + r.val, by omega⟩ : Fin 479) ci) * w11 (ix4 (0 : Fin 1) (0 : Fin 1) ci co))
          + (∑ ci : Fin 512, v9 (ix2 (⟨32 + r.val, by omega⟩ : Fin 478) ci) * w12 (ix4 (0 : Fin 1) (0 : Fin 1) ci co))
          + (∑ ci : Fin 512, v7 (ix2 (⟨64 + r.val, by omega⟩ : Fin 480) ci) * w20 (ix4 (0 : Fin 1) (0 : Fin 1) ci co))
          + (∑ ci : Fin 512, v8 (ix2 (⟨64 + r.val, by omega⟩ : Fin 479) ci) * w21 (ix4 (0 : Fin 1) (0 : Fin 1) ci co))
          + (∑ ci : Fin 512, v9 (ix2 (⟨64 + r.val, by omega⟩ : Fin 478) ci) * w22 (ix4 (0 : Fin 1) (0 : Fin 1) ci co))
          + b (ix2 (0 : Fin 1) co) := by
  unfold k28_pay8
  simp only [addf_apply]
  rw [mm_apply, tap_apply 32 v8 _ w11 r co (by omega), tap_apply 32 v9 _ w12 r co (by omega),
    tap_apply 64 v7 _ w20 r co (by omega), tap_apply 64 v8 _ w21 r co (by omega), tap_apply 64 v9 _ w22 r co (by omega),
    broadcastTo_1b_ab_apply]

/-- The fourth tap's rows and matrix. -/
theorem pay6_apply (xa xb : Vec Ideal S1x7x32x512 .f32) (r : Fin 224) (ci : Fin 512) :
    k28_pay6 xa xb (ix2 r ci) = k28_pay2 xa xb (ix2 (⟨32 + r.val, by omega⟩ : Fin 480) ci) := by
  unfold k28_pay6
  exact slice2_axis0_apply 32 _ _ r ci _ rfl

theorem pay7_apply (w10 : Vec Ideal S1x1x512x512 .f32) (ci : Fin 512) (co : Fin 512) :
    k28_pay7 w10 (ix2 ci co) = w10 (ix4 (0 : Fin 1) (0 : Fin 1) ci co) := by
  unfold k28_pay7
  exact tapmat_apply w10 ci co

/-- The clamp and the cut to 28 columns: entry (0, th, w, co) of the tile is row th·32 + w, column co. -/
theorem pay1_apply (v58 v59 : FVec Ideal S224x512 .f32) (th : Fin 7) (w : Fin 28) (co : Fin 512) :
    k28_pay1 v58 v59 (ix4 (0 : Fin 1) th w co)
      = max (v58 (ix2 (⟨th.val * 32 + w.val, by omega⟩ : Fin 224) co)) (v59 (ix2 (⟨th.val * 32 + w.val, by omega⟩ : Fin 224) co)) := by
  unfold k28_pay1
  refine (shapeCast_abc_1abc_apply _ _ (0 : Fin 1) th w co).trans ?_
  refine (slice3_axis1_apply 0 _ _ th w co (⟨w.val, by omega⟩ : Fin 32) (by simp)).trans ?_
  refine (shapeCast_apply _ _ _ (ix2 (⟨th.val * 32 + w.val, by omega⟩ : Fin 224) co) ?_).trans (maximumf_apply _ _ _)
  rw [Shape.rowMajor_val_two, Shape.rowMajor_val_three]
  rfl

theorem pay9_apply (j : S224x512.Idx) : k28_pay9 (F := Ideal) j = 0 := by
  unfold k28_pay9
  exact Ideal.ofBits_zero_f32

/-! ## The body's value at an entry -/

section Entry
variable (xa xb : Vec Ideal S1x7x32x512 .f32)

/-- Row (th+dy)·32 + (w+dx) of the stacked rows is pixel (th+dy, w+dx) of the stacked tiles. -/
theorem slab_tap (th : Fin 7) (w : Fin 28) (dy dx : Fin 3) (ci : Fin 512) (q : Fin 480)
    (hq : q.val = (th.val + dy.val) * 32 + (w.val + dx.val)) :
    k28_pay2 xa xb (ix2 q ci)
      = tiles xa xb (⟨th.val + dy.val, by omega⟩ : Fin 14) (⟨w.val + dx.val, by omega⟩ : Fin 32) ci :=
  slab_apply xa xb _ _ ci q hq

/-- The nine tap matrices as one family. -/
def taps (w00 w01 w02 w10 w11 w12 w20 w21 w22 : Vec Ideal S1x1x512x512 .f32) (dy dx : Fin 3) : Vec Ideal S1x1x512x512 .f32 :=
  ![![w00, w01, w02], ![w10, w11, w12], ![w20, w21, w22]] dy dx

/-- One output entry of the body: the 3×3 correlation of the stacked tiles with the nine tap matrices over the 512
    input channels, plus the bias, clamped below at zero. -/
theorem conv_entry (w00 w01 w02 w10 w11 w12 w20 w21 w22 : Vec Ideal S1x1x512x512 .f32) (b : Vec Ideal S1x512 .f32)
    (th : Fin 7) (w : Fin 28) (co : Fin 512) :
    k28_pay1 (k28_pay8 (k28_pay2 xa xb) (k28_pay3 xa xb) (k28_pay4 xa xb) (k28_pay5 xa xb w00 w01 w02) (k28_pay6 xa xb)
        (k28_pay7 w10) w11 w12 w20 w21 w22 b) k28_pay9 (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps w00 w01 w02 w10 w11 w12 w20 w21 w22 dy dx (ix4 (0 : Fin 1) (0 : Fin 1) ci co))
            + b (ix2 (0 : Fin 1) co)) 0 := by
  rw [pay1_apply, pay9_apply, pay8_apply, pay5_apply]
  simp only [pay3_apply, pay4_apply, pay6_apply, pay7_apply]
  rw [← nine_add (fun dy dx => ∑ ci : Fin 512,
      tiles xa xb (⟨th.val + dy.val, by omega⟩ : Fin 14) (⟨w.val + dx.val, by omega⟩ : Fin 32) ci
        * taps w00 w01 w02 w10 w11 w12 w20 w21 w22 dy dx (ix4 (0 : Fin 1) (0 : Fin 1) ci co))]
  refine congrArg (fun x => max x 0) (congrArg (· + b (ix2 (0 : Fin 1) co)) ?_)
  iterate 9 (refine congrArg₂ (· + ·) ?_ ?_)
  · rfl
  all_goals
    refine Finset.sum_congr rfl fun ci _ => ?_
    refine congrArg₂ (· * ·) (slab_tap xa xb th w _ _ ci _ ?_) rfl
    simp only [Fin.val_zero, Fin.val_one, Fin.val_two]
    omega

end Entry

end Cert.ReferenceIdeal.Reg28
-- ==== Proof.RI.Reg28Value.lean ====
import proofs.«143011_g2000502688546152_pallasbulk_1201_3_alg».proof.Proof.RI.Reg28
import proofs.«143011_g2000502688546152_pallasbulk_1201_3_alg».proof.Proof.RI.Reg28Pure

/-! # Region 28 at the extended reals: the output array is the 3×3 correlation, plus bias, clamped at zero

Point t = 4·n + r of the grid writes back the output's row tile r of image n. Its two input tiles are row tiles r and
r + 1 of the padded input, so row h + dy of the padded input, h = 7·r + th, is row th + dy of the two tiles stacked. -/

set_option maxRecDepth 16384

noncomputable section

namespace Cert.ReferenceIdeal.Reg28

open Idealize.ShloMosaic Idealize.ShloMosaic.TcCoe Idealize.ShloMosaic.ValueIdx
open Idealize.SL Idealize.SL.Sem
open Idealize.ShloMosaic.Pipeline (Dat Cfg Window)
open Cert.ReferenceIdeal.Gen

variable (V : (c : Dev nD) → (b : Ref sig .tc) → Buf (Elt Ideal) ((c : Thread nD τ).loc b))

/-- The zero-padded input [16, 35, 32, 512], the kernel [3, 3, 512, 512] and the bias [1, 512] as the region finds them. -/
abbrev xp (c : Dev nD) : S16x35x32x512.Idx → EReal := V c (Pipeline.arrRef spec28 0)
abbrev wk (c : Dev nD) : S3x3x512x512.Idx → EReal := V c (Pipeline.arrRef spec28 2)
abbrev bias (c : Dev nD) : S1x512.Idx → EReal := V c (Pipeline.arrRef spec28 3)

/-! ## The grid's points and the windows' block indices -/

theorem N_eq : cfg28.N = 64 := N_28

/-- The image and the row tile of point `t`. -/
def pn (t : Fin cfg28.N) : Fin 16 := ⟨t.val / 4, by have := t.isLt; have := N_eq; omega⟩
def pr (t : Fin cfg28.N) : Fin 4 := ⟨t.val % 4, Nat.mod_lt _ (by decide)⟩

/-- The five windows' block indices at every point: (n, r), (n, r + 1), the origin twice, (n, r). -/
theorem idx_facts : ∀ t : Fin cfg28.N,
    (win28_0.index t 0 = t.val / 4 ∧ win28_0.index t 1 = t.val % 4 ∧ win28_0.index t 2 = 0 ∧ win28_0.index t 3 = 0)
    ∧ (win28_1.index t 0 = t.val / 4 ∧ win28_1.index t 1 = t.val % 4 + 1 ∧ win28_1.index t 2 = 0 ∧ win28_1.index t 3 = 0)
    ∧ (win28_2.index t 0 = 0 ∧ win28_2.index t 1 = 0 ∧ win28_2.index t 2 = 0 ∧ win28_2.index t 3 = 0)
    ∧ (win28_3.index t 0 = 0 ∧ win28_3.index t 1 = 0)
    ∧ (win28_4.index t 0 = t.val / 4 ∧ win28_4.index t 1 = t.val % 4 ∧ win28_4.index t 2 = 0 ∧ win28_4.index t 3 = 0) :=
  (by decide +kernel : ∀ t : Fin grid28.N, _)

/-! ## The windows' blocks read at an index -/

/-- The first input tile at point (n, r): rows 7·r … of image n of the padded input. -/
theorem iblk0_apply (c : Dev nD) (t : Fin cfg28.N) (hh : Fin 7) (w' : Fin 32) (ci : Fin 512) :
    iblk V c 0 t (ix4 (0 : Fin 1) hh w' ci)
      = xp V c (ix4 (pn t) (⟨(pr t).val * 7 + hh.val, by have := (pr t).isLt; omega⟩ : Fin 35) w' ci) := by
  obtain ⟨⟨h0, h1, h2, h3⟩, -⟩ := idx_facts t
  unfold iblk
  rw [View.read_apply]
  show V c (Pipeline.arrRef spec28 0) _ = V c (Pipeline.arrRef spec28 0) _
  congr 1
  funext a
  apply Fin.ext
  match a with
  | ⟨0, _⟩ => show win28_0.index t 0 * 1 + 1 * 0 = t.val / 4; rw [h0]; omega
  | ⟨1, _⟩ => show win28_0.index t 1 * 7 + 1 * hh.val = t.val % 4 * 7 + hh.val; rw [h1]; omega
  | ⟨2, _⟩ => show win28_0.index t 2 * 32 + 1 * w'.val = w'.val; rw [h2]; omega
  | ⟨3, _⟩ => show win28_0.index t 3 * 512 + 1 * ci.val = ci.val; rw [h3]; omega

/-- The second input tile at point (n, r): rows 7·(r + 1) … of image n of the padded input. -/
theorem iblk1_apply (c : Dev nD) (t : Fin cfg28.N) (hh : Fin 7) (w' : Fin 32) (ci : Fin 512) :
    iblk V c 1 t (ix4 (0 : Fin 1) hh w' ci)
      = xp V c (ix4 (pn t) (⟨((pr t).val + 1) * 7 + hh.val, by have := (pr t).isLt; omega⟩ : Fin 35) w' ci) := by
  obtain ⟨-, ⟨h0, h1, h2, h3⟩, -⟩ := idx_facts t
  unfold iblk
  rw [View.read_apply]
  show V c (Pipeline.arrRef spec28 1) _ = V c (Pipeline.arrRef spec28 0) _
  congr 1
  funext a
  apply Fin.ext
  match a with
  | ⟨0, _⟩ => show win28_1.index t 0 * 1 + 1 * 0 = t.val / 4; rw [h0]; omega
  | ⟨1, _⟩ => show win28_1.index t 1 * 7 + 1 * hh.val = (t.val % 4 + 1) * 7 + hh.val; rw [h1]; omega
  | ⟨2, _⟩ => show win28_1.index t 2 * 32 + 1 * w'.val = w'.val; rw [h2]; omega
  | ⟨3, _⟩ => show win28_1.index t 3 * 512 + 1 * ci.val = ci.val; rw [h3]; omega

/-- The kernel window is the whole kernel array at every point. -/
theorem iblk2_apply (c : Dev nD) (t : Fin cfg28.N) (dy dx : Fin 3) (ci : Fin 512) (co : Fin 512) :
    iblk V c 2 t (ix4 dy dx ci co) = wk V c (ix4 dy dx ci co) := by
  obtain ⟨-, -, ⟨h0, h1, h2, h3⟩, -⟩ := idx_facts t
  unfold iblk
  rw [View.read_apply]
  show V c (Pipeline.arrRef spec28 2) _ = V c (Pipeline.arrRef spec28 2) _
  congr 1
  funext a
  apply Fin.ext
  match a with
  | ⟨0, _⟩ => show win28_2.index t 0 * 3 + 1 * dy.val = dy.val; rw [h0]; omega
  | ⟨1, _⟩ => show win28_2.index t 1 * 3 + 1 * dx.val = dx.val; rw [h1]; omega
  | ⟨2, _⟩ => show win28_2.index t 2 * 512 + 1 * ci.val = ci.val; rw [h2]; omega
  | ⟨3, _⟩ => show win28_2.index t 3 * 512 + 1 * co.val = co.val; rw [h3]; omega

/-- The bias window is the whole bias row at every point. -/
theorem iblk3_apply (c : Dev nD) (t : Fin cfg28.N) (co : Fin 512) :
    iblk V c 3 t (ix2 (0 : Fin 1) co) = bias V c (ix2 (0 : Fin 1) co) := by
  obtain ⟨-, -, -, ⟨h0, h1⟩, -⟩ := idx_facts t
  unfold iblk
  rw [View.read_apply]
  show V c (Pipeline.arrRef spec28 3) _ = V c (Pipeline.arrRef spec28 3) _
  congr 1
  funext a
  apply Fin.ext
  match a with
  | ⟨0, _⟩ => show win28_3.index t 0 * 1 + 1 * 0 = 0; rw [h0]
  | ⟨1, _⟩ => show win28_3.index t 1 * 512 + 1 * co.val = co.val; rw [h1]; omega

/-! ## The whole-array function and what a point writes back -/

/-- The correlation at (n, h, w, co): the sums nest dy, dx, ci. -/
def conv (c : Dev nD) (n : Fin 16) (h : Fin 28) (w : Fin 28) (co : Fin 512) : EReal :=
  max ((∑ dy : Fin 3, ∑ dx : Fin 3, ∑ ci : Fin 512,
          xp V c (ix4 n (⟨h.val + dy.val, by omega⟩ : Fin 35) (⟨w.val + dx.val, by omega⟩ : Fin 32) ci)
            * wk V c (ix4 dy dx ci co))
        + bias V c (ix2 (0 : Fin 1) co)) 0

/-- The output array the region is shown to leave. -/
def G (c : Dev nD) : Buf (Elt Ideal) ((c : Thread nD τ).loc main_v83) :=
  fun i : S16x28x28x512.Idx => conv V c (i 0) (i 1) (i 2) (i 3)

theorem G_apply (c : Dev nD) (i : S16x28x28x512.Idx) : G V c i = conv V c (i 0) (i 1) (i 2) (i 3) := rfl

theorem conv_congr (c : Dev nD) {n n' : Fin 16} {h h' : Fin 28} {w w' : Fin 28} {co co' : Fin 512}
    (e0 : n = n') (e1 : h = h') (e2 : w = w') (e3 : co = co') : conv V c n h w co = conv V c n' h' w' co' := by
  subst e0 e1 e2 e3; rfl

theorem hz2 : (![0, 0] : Fin 2 → Nat) = fun _ => 0 := funext fun a => by fin_cases a <;> rfl

/-- The stacked tiles of point (n, r) are rows 7·r … of image n of the padded input. -/
theorem tiles_eq (c : Dev nD) (t : Fin cfg28.N) (hh : Fin 14) (w' : Fin 32) (ci : Fin 512) :
    tiles (iblk V c 0 t) (iblk V c 1 t) hh w' ci
      = xp V c (ix4 (pn t) (⟨(pr t).val * 7 + hh.val, by have := (pr t).isLt; omega⟩ : Fin 35) w' ci) := by
  unfold tiles
  split
  · rename_i h
    exact iblk0_apply V c t ⟨hh.val, h⟩ w' ci
  · rename_i h
    rw [iblk1_apply V c t ⟨hh.val - 7, by omega⟩ w' ci]
    congr 2
    apply Fin.ext
    show ((pr t).val + 1) * 7 + (hh.val - 7) = (pr t).val * 7 + hh.val
    omega

/-- The nine loaded tap matrices are the kernel array's taps. -/
theorem taps_eq (c : Dev nD) (t : Fin cfg28.N) (dy dx : Fin 3) (ci : Fin 512) (co : Fin 512) :
    taps (View.ld (iblk V c 2 t) (tapRect 0 0 inb_S3x3x512x512_S1x1x512x512_0_0_0_0))
        (View.ld (iblk V c 2 t) (tapRect 0 1 inb_S3x3x512x512_S1x1x512x512_0_1_0_0))
        (View.ld (iblk V c 2 t) (tapRect 0 2 inb_S3x3x512x512_S1x1x512x512_0_2_0_0))
        (View.ld (iblk V c 2 t) (tapRect 1 0 inb_S3x3x512x512_S1x1x512x512_1_0_0_0))
        (View.ld (iblk V c 2 t) (tapRect 1 1 inb_S3x3x512x512_S1x1x512x512_1_1_0_0))
        (View.ld (iblk V c 2 t) (tapRect 1 2 inb_S3x3x512x512_S1x1x512x512_1_2_0_0))
        (View.ld (iblk V c 2 t) (tapRect 2 0 inb_S3x3x512x512_S1x1x512x512_2_0_0_0))
        (View.ld (iblk V c 2 t) (tapRect 2 1 inb_S3x3x512x512_S1x1x512x512_2_1_0_0))
        (View.ld (iblk V c 2 t) (tapRect 2 2 inb_S3x3x512x512_S1x1x512x512_2_2_0_0))
        dy dx (ix4 (0 : Fin 1) (0 : Fin 1) ci co)
      = wk V c (ix4 dy dx ci co) := by
  rw [← iblk2_apply V c t dy dx ci co]
  fin_cases dy <;> fin_cases dx <;>
    · show iblk V c 2 t _ = iblk V c 2 t _
      congr 1
      funext a
      apply Fin.ext
      match a with
      | ⟨0, _⟩ => rfl
      | ⟨1, _⟩ => rfl
      | ⟨2, _⟩ => show 0 + 1 * ci.val = ci.val; omega
      | ⟨3, _⟩ => show 0 + 1 * co.val = co.val; omega

/-- One entry of the output tile the body leaves, from the tiles, the kernel block and the bias block. -/
theorem out_entry (xa xb : Vec Ideal S1x7x32x512 .f32) (wk' : Vec Ideal S3x3x512x512 .f32) (b : Vec Ideal S1x512 .f32)
    (th : Fin 7) (w : Fin 28) (co : Fin 512) :
    out xa xb wk' b (ix4 (0 : Fin 1) th w co)
      = max ((∑ dy : Fin 3, ∑ dx : Fin 3, ∑ ci : Fin 512,
              tiles xa xb (⟨th.val + dy.val, by omega⟩ : Fin 14) (⟨w.val + dx.val, by omega⟩ : Fin 32) ci
                * taps (View.ld wk' (tapRect 0 0 inb_S3x3x512x512_S1x1x512x512_0_0_0_0))
                    (View.ld wk' (tapRect 0 1 inb_S3x3x512x512_S1x1x512x512_0_1_0_0))
                    (View.ld wk' (tapRect 0 2 inb_S3x3x512x512_S1x1x512x512_0_2_0_0))
                    (View.ld wk' (tapRect 1 0 inb_S3x3x512x512_S1x1x512x512_1_0_0_0))
                    (View.ld wk' (tapRect 1 1 inb_S3x3x512x512_S1x1x512x512_1_1_0_0))
                    (View.ld wk' (tapRect 1 2 inb_S3x3x512x512_S1x1x512x512_1_2_0_0))
                    (View.ld wk' (tapRect 2 0 inb_S3x3x512x512_S1x1x512x512_2_0_0_0))
                    (View.ld wk' (tapRect 2 1 inb_S3x3x512x512_S1x1x512x512_2_1_0_0))
                    (View.ld wk' (tapRect 2 2 inb_S3x3x512x512_S1x1x512x512_2_2_0_0))
                    dy dx (ix4 (0 : Fin 1) (0 : Fin 1) ci co))
            + b (ix2 (0 : Fin 1) co)) 0 := by
  unfold out
  rw [View.ld_unit_zero hz4 _ xa, View.ld_unit_zero hz4 _ xb, View.ld_unit_zero hz2 _ b]
  exact conv_entry xa xb _ _ _ _ _ _ _ _ _ b th w co

/-- What point `t` = (n, r) writes back is the row tile r of image n of `G`. -/
theorem flushed_eq (c : Dev nD) (t : Fin cfg28.N) :
    (dat V c).flushed 4 t = ((cfg28.win 4).blk t).view.read (Elt Ideal) (G V c) := by
  show (cfg28.win 4).cut (grid28.coords t) ((dat V c).after 4 t) = _
  rw [after_4]
  funext x
  obtain ⟨u, th, w, co, rfl⟩ : ∃ (u : Fin 1) (th : Fin 7) (w : Fin 28) (co : Fin 512), x = ix4 u th w co :=
    ⟨x 0, x 1, x 2, x 3, eq_ix4 x⟩
  obtain rfl : u = 0 := Fin.ext (by omega)
  obtain ⟨-, -, -, -, ⟨h0, h1, h2, h3⟩⟩ := idx_facts t
  rw [View.read_apply]
  show out (iblk V c 0 t) (iblk V c 1 t) (iblk V c 2 t) (iblk V c 3 t) (ix4 (0 : Fin 1) th w co) = G V c _
  rw [out_entry]
  have hG : G V c (((cfg28.win 4).blk t).view.emb (ix4 (0 : Fin 1) th w co))
      = conv V c (pn t) (⟨(pr t).val * 7 + th.val, by have := (pr t).isLt; omega⟩ : Fin 28) w co :=
    (G_apply V c _).trans (conv_congr V c
      (Fin.ext (by show win28_4.index t 0 * 1 + 1 * 0 = t.val / 4; rw [h0]; omega))
      (Fin.ext (by show win28_4.index t 1 * 7 + 1 * th.val = t.val % 4 * 7 + th.val; rw [h1]; omega))
      (Fin.ext (by show win28_4.index t 2 * 28 + 1 * w.val = w.val; rw [h2]; omega))
      (Fin.ext (by show win28_4.index t 3 * 512 + 1 * co.val = co.val; rw [h3]; omega)))
  rw [hG]
  unfold conv
  refine congrArg (fun x => max x 0) (congrArg₂ (· + ·) ?_ (iblk3_apply V c t co))
  refine Finset.sum_congr rfl fun dy _ => Finset.sum_congr rfl fun dx _ => Finset.sum_congr rfl fun ci _ => ?_
  refine congrArg₂ (· * ·) ?_ (taps_eq V c t dy dx ci co)
  rw [tiles_eq]
  congr 2
  apply Fin.ext
  show (pr t).val * 7 + (th.val + dy.val) = (pr t).val * 7 + th.val + dy.val
  omega

/-! ## The output's row tiles cover it -/

/-- An index of the output array is in point `t`'s block when its image and row tile are `t`'s. -/
theorem mem_blk (t : Fin cfg28.N) (i : S16x28x28x512.Idx) :
    i ∈ ((cfg28.win 4).blk t).view.set ↔ (i 0 : Nat) = t.val / 4 ∧ t.val % 4 * 7 ≤ (i 1 : Nat) ∧ (i 1 : Nat) < t.val % 4 * 7 + 7 := by
  show i ∈ ((View.whole main_v83).slice (win28_4.rect t)).set ↔ _
  rw [View.set_slice_whole, Rect.mem_set_unit]
  obtain ⟨-, -, -, -, ⟨h0, h1, h2, h3⟩⟩ := idx_facts t
  have b2 : (i 2 : Nat) < 28 := (i 2).isLt
  have b3 : (i 3 : Nat) < 512 := (i 3).isLt
  have e0 : win28_4.index t 0 * win28_4.size 0 = t.val / 4 := by rw [h0]; show t.val / 4 * 1 = _; omega
  have e1 : win28_4.index t 1 * win28_4.size 1 = t.val % 4 * 7 := by rw [h1]; rfl
  have e2 : win28_4.index t 2 * win28_4.size 2 = 0 := by rw [h2]; rfl
  have e3 : win28_4.index t 3 * win28_4.size 3 = 0 := by rw [h3]; rfl
  have x0 : win28_4.xsize (grid28.coords t) 0 = 1 := rfl
  have x1 : win28_4.xsize (grid28.coords t) 1 = 7 := rfl
  have x2 : win28_4.xsize (grid28.coords t) 2 = 28 := rfl
  have x3 : win28_4.xsize (grid28.coords t) 3 = 512 := rfl
  refine ⟨fun h => ?_, fun h a => ?_⟩
  · have a0 := h 0; have a1 := h 1
    rw [e0, x0] at a0; rw [e1, x1] at a1
    exact ⟨by omega, a1⟩
  · match a with
    | ⟨0, _⟩ => show win28_4.index t 0 * win28_4.size 0 ≤ (i 0 : Nat) ∧ (i 0 : Nat) < win28_4.index t 0 * win28_4.size 0 + win28_4.xsize (grid28.coords t) 0
                rw [e0, x0]; omega
    | ⟨1, _⟩ => show win28_4.index t 1 * win28_4.size 1 ≤ (i 1 : Nat) ∧ (i 1 : Nat) < win28_4.index t 1 * win28_4.size 1 + win28_4.xsize (grid28.coords t) 1
                rw [e1, x1]; exact h.2
    | ⟨2, _⟩ => show win28_4.index t 2 * win28_4.size 2 ≤ (i 2 : Nat) ∧ (i 2 : Nat) < win28_4.index t 2 * win28_4.size 2 + win28_4.xsize (grid28.coords t) 2
                rw [e2, x2]; omega
    | ⟨3, _⟩ => show win28_4.index t 3 * win28_4.size 3 ≤ (i 3 : Nat) ∧ (i 3 : Nat) < win28_4.index t 3 * win28_4.size 3 + win28_4.xsize (grid28.coords t) 3
                rw [e3, x3]; omega

/-- Every index of the output array is in the block of the point of its image and row tile. -/
theorem cover (i : S16x28x28x512.Idx) :
    ∃ t : Fin cfg28.N, (cfg28.win 4).flush t = true ∧ i ∈ ((cfg28.win 4).blk t).view.set := by
  have b0 : (i 0 : Nat) < 16 := (i 0).isLt
  have b1 : (i 1 : Nat) < 28 := (i 1).isLt
  refine ⟨⟨(i 0 : Nat) * 4 + (i 1 : Nat) / 7, by rw [N_eq]; omega⟩, flush28_4 _, ?_⟩
  rw [mem_blk]
  dsimp only
  omega

/-- The output array after the last grid point is `G`. -/
theorem final_out (c : Dev nD) : (dat V c).arrAt 4 cfg28.N = G V c :=
  (dat V c).arrAt_eq_of_cover 4 (G V c) (fun t _ => flushed_eq V c t) cover

/-- The output array after the last grid point: at (n, h, w, co) the 3×3 correlation of the padded input with the
    kernel over the 512 input channels, plus the bias, clamped below at zero. The sums nest dy, dx, ci. -/
theorem out_value (c : Dev nD) (n : Fin 16) (h : Fin 28) (w : Fin 28) (co : Fin 512) :
    (dat V c).arrAt 4 cfg28.N (ix4 n h w co)
      = max ((∑ dy : Fin 3, ∑ dx : Fin 3, ∑ ci : Fin 512,
                xp V c (ix4 n (⟨h.val + dy.val, by omega⟩ : Fin 35) (⟨w.val + dx.val, by omega⟩ : Fin 32) ci)
                  * wk V c (ix4 dy dx ci co))
              + bias V c (ix2 (0 : Fin 1) co)) 0 := by
  rw [final_out]
  rfl

end Cert.ReferenceIdeal.Reg28
-- ==== Proof.RI.Val28.lean ====
import proofs.«143011_g2000502688546152_pallasbulk_1201_3_alg».proof.Proof.RI.Seg28
import proofs.«143011_g2000502688546152_pallasbulk_1201_3_alg».proof.Proof.RI.Reg28Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg28

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the input array the region finds is the zero-bordered form of an image stack `z`, the output
    array it leaves is the 3×3 convolution of `z` with the kernel array, plus the bias, clamped below at zero. -/
theorem value (z : Cert.Spec.Act 16 28 28 512)
    (hx : ∀ (n : Fin 16) (i : Fin 35) (j : Fin 32) (ci : Fin 512),
      (W c (Proc.devRef .tc (Pipeline.arrRef spec28 0)) : FVec 𝕀 S16x35x32x512 .f32) (ix4 n i j ci) = Cert.Spec.padAt z n i.val j.val ci) :
    Cert.Spec.curry4 (Wout W c (Proc.devRef .tc (Pipeline.arrRef spec28 4)) : FVec 𝕀 S16x28x28x512 .f32)
      = Cert.Spec.convRelu z (Cert.Spec.curryW (W c (Proc.devRef .tc (Pipeline.arrRef spec28 2)) : FVec 𝕀 S3x3x512x512 .f32))
          (Cert.Spec.curryB (W c (Proc.devRef .tc (Pipeline.arrRef spec28 3)) : FVec 𝕀 S1x512 .f32)) := by
  funext n h w co
  rw [Cert.Spec.curry4_apply, Wout_out]
  refine (out_value (VW W) c n h w co).trans ?_
  show @Eq EReal _ _
  unfold Cert.Spec.convRelu
  simp only [Cert.Spec.curryW_apply, Cert.Spec.curryB_apply]
  exact congrArg (fun s : EReal => max (s + (_ : EReal)) (0 : EReal)) (Finset.sum_congr rfl fun dy _ => Finset.sum_congr rfl fun dx _ =>
    Finset.sum_congr rfl fun ci _ => congrArg (fun t : EReal => t * (_ : EReal)) (hx n _ _ ci))

end Cert.ReferenceIdeal.Reg28

end
-- ==== Proof.RI.Reg29Value.lean ====
import proofs.«143011_g2000502688546152_pallasbulk_1201_3_alg».proof.Proof.Gen.ReferenceIdeal.Launch
import proofs.«143011_g2000502688546152_pallasbulk_1201_3_alg».proof.Proof.Gen.ReferenceIdeal.Skeleton
import proofs.«143011_g2000502688546152_pallasbulk_1201_3_alg».proof.Proof.Gen.ReferenceIdeal.Points
import proofs.«143011_g2000502688546152_pallasbulk_1201_3_alg».proof.Proof.RI.Reg29Data
import Idealize.ShloMosaic.Lib.Pipeline.Value
import Idealize.ShloMosaic.Lib.ValueIdx
import Idealize.ShloMosaic.PureOps.Ideal.Laws

/-! # Region 29: the sum of |x − y| over two [12544, 512] arrays, accumulated over a grid of 14 points into a [1, 1] array

At point t the two input windows show rows 896t … 896t+895 of x and of y. The output window is the one [1, 1]
block at every point: the body zeroes it at point 0, then at every point adds the block's sum of |x − y| to what
the window holds. It is written back to the array once, after the last point. -/
-- This module: the output array after the last point, at the extended reals.

set_option maxRecDepth 16384

noncomputable section

namespace Cert.ReferenceIdeal.Reg29

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Idealize.ShloMosaic.Ideal

variable (VI : (c : Dev nD) → (b : Ref sig .tc) → Buf (Elt Ideal) ((c : Thread nD τ).loc b))

/-- The two input arrays as the region finds them, functions of (row, lane). -/
abbrev xs (c : Dev nD) : S12544x512.Idx → EReal := VI c (Pipeline.arrRef spec29 0)
abbrev ys (c : Dev nD) : S12544x512.Idx → EReal := VI c (Pipeline.arrRef spec29 1)

/-- The output array after the last point. -/
abbrev out (c : Dev nD) : S1x1.Idx → EReal := (dat (F := Ideal) VI c).arrAt 2 cfg29.N

/-! ## One step at the one index -/

/-- The sum of |x − y| over a block of 896 rows of 512 lanes. -/
def blockSum (x y : Vec Ideal S896x512 .f32) : EReal :=
  ∑ q : Fin 896, ∑ k : Fin 512, max (x (ix2 q k) - y (ix2 q k)) (-(x (ix2 q k) - y (ix2 q k)))

/-- A step adds the block's sum to the accumulator's one element. -/
theorem step_apply (acc : Vec Ideal S1x1 .f32) (x y : Vec Ideal S896x512 .f32) :
    (step acc x y (ix2 (0 : Fin 1) (0 : Fin 1)) : EReal) = acc (ix2 (0 : Fin 1) (0 : Fin 1)) + blockSum x y := by
  unfold step Gen.k29_pay2 blockSum
  dsimp only
  rw [addf_apply, shapeCast_self, shapeCast_self, shapeCast_self, broadcast_apply]
  congr 1
  unfold extractAt
  refine (shapeCast_apply _ _ _ (ix1 (0 : Fin 1)) ?_).trans ?_
  · rw [Shape.rowMajor_val_one, Shape.rowMajor_val_three]; rfl
  -- the reduction keeps only unit axes: it is the sum over every index of the block
  refine (multiReduction_add_total (axes := [1, 2]) _ 0x00000000#32 Gen.reduces_S1x896x512_S1
    (fun b => by match b with | ⟨0, _⟩ => rfl) (.inl rfl) rfl (ix1 (0 : Fin 1))).trans ?_
  -- the cast that added the unit axis is a bijection of the index sets
  unfold shapeCast
  refine (Equiv.sum_comp (Shape.reshapeEquiv Gen.shapeCasts_S896x512_S1x896x512) _).trans ?_
  rw [sum_idx2]
  rfl

/-- The zeroed accumulator's one element is 0. -/
theorem zero_apply : (zero (F := Ideal) (ix2 (0 : Fin 1) (0 : Fin 1)) : EReal) = 0 := by
  unfold zero Gen.k29_pay1
  rw [broadcast_apply]
  exact ofBits_zero_f32

/-! ## The running total at the one index: a sum over the points -/

/-- Point `s`'s addend: its blocks' sum of |x − y| (0 past the grid, where it is never used). -/
def addend (c : Dev nD) (s : ℕ) : EReal :=
  if h : s < cfg29.N then blockSum (xrows VI c ⟨s, h⟩) (yrows VI c ⟨s, h⟩) else 0

theorem total_apply (c : Dev nD) : ∀ (n : ℕ) (h : n < cfg29.N),
    (total VI c n h (ix2 (0 : Fin 1) (0 : Fin 1)) : EReal) = ∑ s ∈ Finset.range (n + 1), addend VI c s
  | 0, h => by
    show (step zero (xrows VI c ⟨0, h⟩) (yrows VI c ⟨0, h⟩) (ix2 (0 : Fin 1) (0 : Fin 1)) : EReal) = _
    rw [step_apply, zero_apply, zero_add, Finset.sum_range_one, addend, dif_pos h]
  | n + 1, h => by
    show (step (total VI c n (Nat.lt_of_succ_lt h)) (xrows VI c ⟨n + 1, h⟩) (yrows VI c ⟨n + 1, h⟩)
      (ix2 (0 : Fin 1) (0 : Fin 1)) : EReal) = _
    rw [step_apply, total_apply c n (Nat.lt_of_succ_lt h), Finset.sum_range_succ _ (n + 1), addend, dif_pos h]

/-! ## The array after the run is the last point's total -/

theorem last_lt : 13 < cfg29.N := Nat.lt_of_lt_of_eq (by decide : 13 < 14) (Gen.N_29 : cfg29.N = 14).symm

/-- The output window is written back at the last point only, and its block is the whole [1, 1] array: after the run
    the array's element is the running total after point 13. -/
theorem out_eq (c : Dev nD) : out VI c = fun _ => (total VI c 13 last_lt (ix2 (0 : Fin 1) (0 : Fin 1)) : EReal) := by
  refine (dat (F := Ideal) VI c).arrAt_eq_of_cover 2 (fun _ => (total VI c 13 last_lt (ix2 (0 : Fin 1) (0 : Fin 1)) : EReal)) ?hG ?hcover
  case hG =>
    intro t hf
    have h97 : t.val = 13 := by
      have h1 : t.val % 14 = 13 := (Gen.flush29_2 t).mp hf
      have h2 : t.val < 14 := Nat.lt_of_lt_of_eq t.isLt (Gen.N_29 : cfg29.N = 14)
      omega
    obtain rfl : t = ⟨13, last_lt⟩ := Fin.ext h97
    funext y
    show (dat (F := Ideal) VI c).after 2 ⟨13, last_lt⟩ y = _
    rw [after_total, View.read_apply]
    show (total VI c 13 last_lt y : EReal) = total VI c 13 last_lt (ix2 (0 : Fin 1) (0 : Fin 1))
    have hy : y = ix2 (0 : Fin 1) (0 : Fin 1) :=
      Shape.idx_ext₂ (by have h : (y 0).val < 1 := (y 0).isLt; show (y 0).val = 0; omega)
        (by have h : (y 1).val < 1 := (y 1).isLt; show (y 1).val = 0; omega)
    rw [hy]
  case hcover =>
    intro i
    refine ⟨⟨13, last_lt⟩, (Gen.flush29_2 _).mpr rfl, ?_⟩
    show i ∈ ((View.whole main_v86).slice (win29_2.rect ⟨13, last_lt⟩)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-! ## The points' blocks are the rows of the arrays -/

/-- At point `t` each input window shows block (t, 0) of its array. -/
theorem idx_facts : ∀ t : Fin cfg29.N,
    win29_0.index t 0 = t.val ∧ win29_0.index t 1 = 0 ∧ win29_1.index t 0 = t.val ∧ win29_1.index t 1 = 0 :=
  (by decide +kernel : ∀ t : Fin grid29.N,
    win29_0.index t 0 = t.val ∧ win29_0.index t 1 = 0 ∧ win29_1.index t 0 = t.val ∧ win29_1.index t 1 = 0)

/-- Row `q` of point `t`'s block of x is row `q + 896 t` of x; the same for y. -/
theorem xrows_apply (c : Dev nD) (t : Fin cfg29.N) (q : Fin 896) (k : Fin 512) (r : Fin 12544)
    (hr : r.val = q.val + 896 * t.val) : (xrows VI c t (ix2 q k) : EReal) = xs VI c (ix2 r k) := by
  unfold xrows
  rw [View.read_apply]
  show xs VI c (((cfg29.win 0).blk t).view.emb (ix2 q k)) = _
  congr 1
  apply Shape.idx_ext₂
  · show ((win29_0.rect t).emb (ix2 q k) 0 : ℕ) = r.val
    rw [Window.rect_emb_val, (idx_facts t).1, hr]
    show t.val * 896 + q.val = q.val + 896 * t.val
    omega
  · show ((win29_0.rect t).emb (ix2 q k) 1 : ℕ) = k.val
    rw [Window.rect_emb_val, (idx_facts t).2.1]
    show 0 * 512 + k.val = k.val
    omega

theorem yrows_apply (c : Dev nD) (t : Fin cfg29.N) (q : Fin 896) (k : Fin 512) (r : Fin 12544)
    (hr : r.val = q.val + 896 * t.val) : (yrows VI c t (ix2 q k) : EReal) = ys VI c (ix2 r k) := by
  unfold yrows
  rw [View.read_apply]
  show ys VI c (((cfg29.win 1).blk t).view.emb (ix2 q k)) = _
  congr 1
  apply Shape.idx_ext₂
  · show ((win29_1.rect t).emb (ix2 q k) 0 : ℕ) = r.val
    rw [Window.rect_emb_val, (idx_facts t).2.2.1, hr]
    show t.val * 896 + q.val = q.val + 896 * t.val
    omega
  · show ((win29_1.rect t).emb (ix2 q k) 1 : ℕ) = k.val
    rw [Window.rect_emb_val, (idx_facts t).2.2.2]
    show 0 * 512 + k.val = k.val
    omega

/-! ## The sum over the points' blocks is the sum over all rows -/

/-- |x − y| at (row, lane) of the two arrays. -/
def absDiff (c : Dev nD) (r : Fin 12544) (k : Fin 512) : EReal :=
  max (xs VI c (ix2 r k) - ys VI c (ix2 r k)) (-(xs VI c (ix2 r k) - ys VI c (ix2 r k)))

/-- 12544 rows are 14 blocks of 896: a sum over the rows is the sum over the blocks of the sums over each block's rows. -/
theorem sum_rows_split {M : Type*} [AddCommMonoid M] (g : Fin 12544 → M) :
    ∑ r, g r = ∑ s : Fin 14, ∑ q : Fin 896, g ⟨q.val + 896 * s.val, by omega⟩ := by
  rw [← Equiv.sum_comp (finProdFinEquiv (m := 14) (n := 896)) g, Fintype.sum_prod_type]
  rfl

theorem addend_eq (c : Dev nD) (s : Fin 14) :
    addend VI c s.val = ∑ q : Fin 896, ∑ k : Fin 512, absDiff VI c ⟨q.val + 896 * s.val, by omega⟩ k := by
  have hs : s.val < cfg29.N := Nat.lt_of_lt_of_eq s.isLt (Gen.N_29 : cfg29.N = 14).symm
  rw [addend, dif_pos hs]
  unfold blockSum absDiff
  refine Finset.sum_congr rfl fun q _ => Finset.sum_congr rfl fun k _ => ?_
  rw [xrows_apply VI c ⟨s.val, hs⟩ q k ⟨q.val + 896 * s.val, by omega⟩ rfl,
    yrows_apply VI c ⟨s.val, hs⟩ q k ⟨q.val + 896 * s.val, by omega⟩ rfl]

/-- The one element of the output: the sum over all rows and lanes of |x − y|, the absolute value of `d` being `max d (−d)`. -/
theorem out_apply (c : Dev nD) :
    out VI c (ix2 (0 : Fin 1) (0 : Fin 1))
      = ∑ r : Fin 12544, ∑ k : Fin 512,
          max (xs VI c (ix2 r k) - ys VI c (ix2 r k)) (-(xs VI c (ix2 r k) - ys VI c (ix2 r k))) := by
  rw [out_eq]
  show (total VI c 13 last_lt (ix2 (0 : Fin 1) (0 : Fin 1)) : EReal) = ∑ r : Fin 12544, ∑ k : Fin 512, absDiff VI c r k
  rw [total_apply, sum_rows_split, Finset.sum_range]
  exact Finset.sum_congr rfl fun s _ => addend_eq VI c s

end Cert.ReferenceIdeal.Reg29
-- ==== Proof.RI.Val29.lean ====
import proofs.«143011_g2000502688546152_pallasbulk_1201_3_alg».proof.Proof.RI.Seg29
import proofs.«143011_g2000502688546152_pallasbulk_1201_3_alg».proof.Proof.RI.Reg29Value
import proofs.«143011_g2000502688546152_pallasbulk_1201_3_alg».proof.Proof.Spec.FlatIdx
import proofs.«143011_g2000502688546152_pallasbulk_1201_3_alg».proof.Proof.Spec.ArgsOf

set_option maxRecDepth 16384

noncomputable section

namespace Cert.ReferenceIdeal.Reg29

open Idealize.ShloMosaic Idealize.ShloMosaic.TcCoe Idealize.ShloMosaic.ValueIdx
open Idealize.SL Idealize.SL.Sem
open Cert.ReferenceIdeal.Gen

local notation "𝕀" => Idealize.ShloMosaic.Ideal

variable (W : Dev nD → Valuation τ sig (Elt 𝕀)) (c : Dev nD)

/-- THE REGION'S VALUE. If the two arrays the region finds are two image stacks read as rows of 512 consecutive entries
    of the row-major order, the one entry it leaves is the sum over all rows and lanes of their absolute differences. -/
theorem value (zx zy : Cert.Spec.Act 16 28 28 512)
    (hx : ∀ (r : Fin 12544) (k : Fin 512), (W c (Proc.devRef .tc (Pipeline.arrRef spec29 0)) : FVec 𝕀 S12544x512 .f32) (ix2 r k) = Cert.Spec.flat zx (r.val * 512 + k.val))
    (hy : ∀ (r : Fin 12544) (k : Fin 512), (W c (Proc.devRef .tc (Pipeline.arrRef spec29 1)) : FVec 𝕀 S12544x512 .f32) (ix2 r k) = Cert.Spec.flat zy (r.val * 512 + k.val)) :
    (Wout W c (Proc.devRef .tc (Pipeline.arrRef spec29 2)) : FVec 𝕀 S1x1 .f32) (ix2 (0 : Fin 1) (0 : Fin 1))
      = ∑ r : Fin 12544, ∑ k : Fin 512,
          Cert.Spec.eabs (Cert.Spec.flat zx (r.val * 512 + k.val) - Cert.Spec.flat zy (r.val * 512 + k.val)) := by
  rw [Wout_out]
  refine (out_apply (VW W) c).trans ?_
  show @Eq EReal _ _
  exact Finset.sum_congr rfl fun r _ => Finset.sum_congr rfl fun k _ => by
    show max _ _ = Cert.Spec.eabs _
    unfold Cert.Spec.eabs
    rw [← hx r k, ← hy r k]

end Cert.ReferenceIdeal.Reg29

end
-- ==== Proof.RI.Value.lean ====
import proofs.«143011_g2000502688546152_pallasbulk_1201_3_alg».proof.Proof.RI.Chain
import proofs.«143011_g2000502688546152_pallasbulk_1201_3_alg».proof.Proof.RI.HostVals
import proofs.«143011_g2000502688546152_pallasbulk_1201_3_alg».proof.Proof.RI.Val0
import proofs.«143011_g2000502688546152_pallasbulk_1201_3_alg».proof.Proof.RI.Val1
import proofs.«143011_g2000502688546152_pallasbulk_1201_3_alg».proof.Proof.RI.Val2
import proofs.«143011_g2000502688546152_pallasbulk_1201_3_alg».proof.Proof.RI.Val3
import proofs.«143011_g2000502688546152_pallasbulk_1201_3_alg».proof.Proof.RI.Val4
import proofs.«143011_g2000502688546152_pallasbulk_1201_3_alg».proof.Proof.RI.Val5
import proofs.«143011_g2000502688546152_pallasbulk_1201_3_alg».proof.Proof.RI.Val6
import proofs.«143011_g2000502688546152_pallasbulk_1201_3_alg».proof.Proof.RI.Val7
import proofs.«143011_g2000502688546152_pallasbulk_1201_3_alg».proof.Proof.RI.Val8
import proofs.«143011_g2000502688546152_pallasbulk_1201_3_alg».proof.Proof.RI.Val9
import proofs.«143011_g2000502688546152_pallasbulk_1201_3_alg».proof.Proof.RI.Val10
import proofs.«143011_g2000502688546152_pallasbulk_1201_3_alg».proof.Proof.RI.Val11
import proofs.«143011_g2000502688546152_pallasbulk_1201_3_alg».proof.Proof.RI.Val12
import proofs.«143011_g2000502688546152_pallasbulk_1201_3_alg».proof.Proof.RI.Val13
import proofs.«143011_g2000502688546152_pallasbulk_1201_3_alg».proof.Proof.RI.Val14
import proofs.«143011_g2000502688546152_pallasbulk_1201_3_alg».proof.Proof.RI.Val15
import proofs.«143011_g2000502688546152_pallasbulk_1201_3_alg».proof.Proof.RI.Val16
import proofs.«143011_g2000502688546152_pallasbulk_1201_3_alg».proof.Proof.RI.Val17
import proofs.«143011_g2000502688546152_pallasbulk_1201_3_alg».proof.Proof.RI.Val18
import proofs.«143011_g2000502688546152_pallasbulk_1201_3_alg».proof.Proof.RI.Val19
import proofs.«143011_g2000502688546152_pallasbulk_1201_3_alg».proof.Proof.RI.Val20
import proofs.«143011_g2000502688546152_pallasbulk_1201_3_alg».proof.Proof.RI.Val21
import proofs.«143011_g2000502688546152_pallasbulk_1201_3_alg».proof.Proof.RI.Val22
import proofs.«143011_g2000502688546152_pallasbulk_1201_3_alg».proof.Proof.RI.Val23
import proofs.«143011_g2000502688546152_pallasbulk_1201_3_alg».proof.Proof.RI.Val24
import proofs.«143011_g2000502688546152_pallasbulk_1201_3_alg».proof.Proof.RI.Val25
import proofs.«143011_g2000502688546152_pallasbulk_1201_3_alg».proof.Proof.RI.Val26
import proofs.«143011_g2000502688546152_pallasbulk_1201_3_alg».proof.Proof.RI.Val27
import proofs.«143011_g2000502688546152_pallasbulk_1201_3_alg».proof.Proof.RI.Val28
import proofs.«143011_g2000502688546152_pallasbulk_1201_3_alg».proof.Proof.RI.Val29
import proofs.«143011_g2000502688546152_pallasbulk_1201_3_alg».proof.Proof.Spec.ArgsOf

/-! # The result as the specification's two-stream loss

Along @main, with exact arithmetic: each buffer a later item reads is named as the specification's function of the
arguments — the normalised stacks, each convolution's and pooling's output, each level's sum of absolute differences, the
running total — from the host stretches' readings (`Host.*`) and the regions' values (`RegK.value`), a buffer no item
in between writes keeping its contents (`keep_*`). The last total is the loss. -/

set_option maxRecDepth 16384

noncomputable section

namespace Cert.ReferenceIdeal.Value

open Idealize.ShloMosaic Idealize.ShloMosaic.TcCoe Idealize.ShloMosaic.ValueIdx Idealize.ShloMosaic.StableHlo
open Idealize.SL Idealize.SL.Sem
open Cert.ReferenceIdeal.Gen Cert.ReferenceIdeal.Chain

local notation "𝕀" => Idealize.ShloMosaic.Ideal

variable (m : (ℓ : Loc nD τ sig) → Buf (Elt 𝕀) ℓ) (c : Dev nD)

/-- The arguments as the specification reads them. -/
abbrev args : Cert.Spec.Args :=
  Cert.Spec.Args.ofArrays
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))

/-! ## A buffer keeps its contents across an item that does not write it -/

theorem W1_of (r : Ref sig .tc) (h : r ∉ hostOps0_W) : W1 m c (Proc.devRef .tc r) = W0 m c (Proc.devRef .tc r) := by
  unfold W1; exact after_of_writes_sub hostOps0 _ hostOps0_writes h
theorem W2_of (r : Ref sig .tc) (h : r ∉ hostOps0_1_W) : W2 m c (Proc.devRef .tc r) = W1 m c (Proc.devRef .tc r) := by
  unfold W2; exact after_of_writes_sub hostOps0_1 _ hostOps0_1_writes h
theorem W3_of (r : Ref sig .tc) (h : r ∉ ([main_v15] : List (Ref sig .tc))) : W3 m c (Proc.devRef .tc r) = W2 m c (Proc.devRef .tc r) := by
  unfold W3; exact Reg0.Wout_of_ne_ref (W2 m) c r fun e => h (List.mem_singleton.mpr e)
theorem W4_of (r : Ref sig .tc) (h : r ∉ hostOps1_W) : W4 m c (Proc.devRef .tc r) = W3 m c (Proc.devRef .tc r) := by
  unfold W4; exact after_of_writes_sub hostOps1 _ hostOps1_writes h
theorem W5_of (r : Ref sig .tc) (h : r ∉ hostOps1_1_W) : W5 m c (Proc.devRef .tc r) = W4 m c (Proc.devRef .tc r) := by
  unfold W5; exact after_of_writes_sub hostOps1_1 _ hostOps1_1_writes h
theorem W6_of (r : Ref sig .tc) (h : r ∉ ([main_v17] : List (Ref sig .tc))) : W6 m c (Proc.devRef .tc r) = W5 m c (Proc.devRef .tc r) := by
  unfold W6; exact Reg1.Wout_of_ne_ref (W5 m) c r fun e => h (List.mem_singleton.mpr e)
theorem W7_of (r : Ref sig .tc) (h : r ∉ hostOps2_W) : W7 m c (Proc.devRef .tc r) = W6 m c (Proc.devRef .tc r) := by
  unfold W7; exact after_of_writes_sub hostOps2 _ hostOps2_writes h
theorem W8_of (r : Ref sig .tc) (h : r ∉ hostOps2_1_W) : W8 m c (Proc.devRef .tc r) = W7 m c (Proc.devRef .tc r) := by
  unfold W8; exact after_of_writes_sub hostOps2_1 _ hostOps2_1_writes h
theorem W9_of (r : Ref sig .tc) (h : r ∉ ([main_v19] : List (Ref sig .tc))) : W9 m c (Proc.devRef .tc r) = W8 m c (Proc.devRef .tc r) := by
  unfold W9; exact Reg2.Wout_of_ne_ref (W8 m) c r fun e => h (List.mem_singleton.mpr e)
theorem W10_of (r : Ref sig .tc) (h : r ∉ hostOps3_W) : W10 m c (Proc.devRef .tc r) = W9 m c (Proc.devRef .tc r) := by
  unfold W10; exact after_of_writes_sub hostOps3 _ hostOps3_writes h
theorem W11_of (r : Ref sig .tc) (h : r ∉ hostOps3_1_W) : W11 m c (Proc.devRef .tc r) = W10 m c (Proc.devRef .tc r) := by
  unfold W11; exact after_of_writes_sub hostOps3_1 _ hostOps3_1_writes h
theorem W12_of (r : Ref sig .tc) (h : r ∉ ([main_v21] : List (Ref sig .tc))) : W12 m c (Proc.devRef .tc r) = W11 m c (Proc.devRef .tc r) := by
  unfold W12; exact Reg3.Wout_of_ne_ref (W11 m) c r fun e => h (List.mem_singleton.mpr e)
theorem W13_of (r : Ref sig .tc) (h : r ∉ hostOps4_W) : W13 m c (Proc.devRef .tc r) = W12 m c (Proc.devRef .tc r) := by
  unfold W13; exact after_of_writes_sub hostOps4 _ hostOps4_writes h
theorem W14_of (r : Ref sig .tc) (h : r ∉ ([main_v24] : List (Ref sig .tc))) : W14 m c (Proc.devRef .tc r) = W13 m c (Proc.devRef .tc r) := by
  unfold W14; exact Reg4.Wout_of_ne_ref (W13 m) c r fun e => h (List.mem_singleton.mpr e)
theorem W15_of (r : Ref sig .tc) (h : r ∉ hostOps5_W) : W15 m c (Proc.devRef .tc r) = W14 m c (Proc.devRef .tc r) := by
  unfold W15; exact after_of_writes_sub hostOps5 _ hostOps5_writes h
theorem W16_of (r : Ref sig .tc) (h : r ∉ ([main_v29] : List (Ref sig .tc))) : W16 m c (Proc.devRef .tc r) = W15 m c (Proc.devRef .tc r) := by
  unfold W16; exact Reg5.Wout_of_ne_ref (W15 m) c r fun e => h (List.mem_singleton.mpr e)
theorem W17_of (r : Ref sig .tc) (h : r ∉ hostOps6_W) : W17 m c (Proc.devRef .tc r) = W16 m c (Proc.devRef .tc r) := by
  unfold W17; exact after_of_writes_sub hostOps6 _ hostOps6_writes h
theorem W18_of (r : Ref sig .tc) (h : r ∉ ([main_v31] : List (Ref sig .tc))) : W18 m c (Proc.devRef .tc r) = W17 m c (Proc.devRef .tc r) := by
  unfold W18; exact Reg6.Wout_of_ne_ref (W17 m) c r fun e => h (List.mem_singleton.mpr e)
theorem W19_of (r : Ref sig .tc) (h : r ∉ hostOps7_W) : W19 m c (Proc.devRef .tc r) = W18 m c (Proc.devRef .tc r) := by
  unfold W19; exact after_of_writes_sub hostOps7 _ hostOps7_writes h
theorem W20_of (r : Ref sig .tc) (h : r ∉ hostOps7_1_W) : W20 m c (Proc.devRef .tc r) = W19 m c (Proc.devRef .tc r) := by
  unfold W20; exact after_of_writes_sub hostOps7_1 _ hostOps7_1_writes h
theorem W21_of (r : Ref sig .tc) (h : r ∉ ([main_v33] : List (Ref sig .tc))) : W21 m c (Proc.devRef .tc r) = W20 m c (Proc.devRef .tc r) := by
  unfold W21; exact Reg7.Wout_of_ne_ref (W20 m) c r fun e => h (List.mem_singleton.mpr e)
theorem W22_of (r : Ref sig .tc) (h : r ∉ hostOps8_W) : W22 m c (Proc.devRef .tc r) = W21 m c (Proc.devRef .tc r) := by
  unfold W22; exact after_of_writes_sub hostOps8 _ hostOps8_writes h
theorem W23_of (r : Ref sig .tc) (h : r ∉ hostOps8_1_W) : W23 m c (Proc.devRef .tc r) = W22 m c (Proc.devRef .tc r) := by
  unfold W23; exact after_of_writes_sub hostOps8_1 _ hostOps8_1_writes h
theorem W24_of (r : Ref sig .tc) (h : r ∉ ([main_v35] : List (Ref sig .tc))) : W24 m c (Proc.devRef .tc r) = W23 m c (Proc.devRef .tc r) := by
  unfold W24; exact Reg8.Wout_of_ne_ref (W23 m) c r fun e => h (List.mem_singleton.mpr e)
theorem W25_of (r : Ref sig .tc) (h : r ∉ hostOps9_W) : W25 m c (Proc.devRef .tc r) = W24 m c (Proc.devRef .tc r) := by
  unfold W25; exact after_of_writes_sub hostOps9 _ hostOps9_writes h
theorem W26_of (r : Ref sig .tc) (h : r ∉ hostOps9_1_W) : W26 m c (Proc.devRef .tc r) = W25 m c (Proc.devRef .tc r) := by
  unfold W26; exact after_of_writes_sub hostOps9_1 _ hostOps9_1_writes h
theorem W27_of (r : Ref sig .tc) (h : r ∉ ([main_v37] : List (Ref sig .tc))) : W27 m c (Proc.devRef .tc r) = W26 m c (Proc.devRef .tc r) := by
  unfold W27; exact Reg9.Wout_of_ne_ref (W26 m) c r fun e => h (List.mem_singleton.mpr e)
theorem W28_of (r : Ref sig .tc) (h : r ∉ hostOps10_W) : W28 m c (Proc.devRef .tc r) = W27 m c (Proc.devRef .tc r) := by
  unfold W28; exact after_of_writes_sub hostOps10 _ hostOps10_writes h
theorem W29_of (r : Ref sig .tc) (h : r ∉ hostOps10_1_W) : W29 m c (Proc.devRef .tc r) = W28 m c (Proc.devRef .tc r) := by
  unfold W29; exact after_of_writes_sub hostOps10_1 _ hostOps10_1_writes h
theorem W30_of (r : Ref sig .tc) (h : r ∉ ([main_v39] : List (Ref sig .tc))) : W30 m c (Proc.devRef .tc r) = W29 m c (Proc.devRef .tc r) := by
  unfold W30; exact Reg10.Wout_of_ne_ref (W29 m) c r fun e => h (List.mem_singleton.mpr e)
theorem W31_of (r : Ref sig .tc) (h : r ∉ hostOps11_W) : W31 m c (Proc.devRef .tc r) = W30 m c (Proc.devRef .tc r) := by
  unfold W31; exact after_of_writes_sub hostOps11 _ hostOps11_writes h
theorem W32_of (r : Ref sig .tc) (h : r ∉ ([main_v42] : List (Ref sig .tc))) : W32 m c (Proc.devRef .tc r) = W31 m c (Proc.devRef .tc r) := by
  unfold W32; exact Reg11.Wout_of_ne_ref (W31 m) c r fun e => h (List.mem_singleton.mpr e)
theorem W33_of (r : Ref sig .tc) (h : r ∉ hostOps12_W) : W33 m c (Proc.devRef .tc r) = W32 m c (Proc.devRef .tc r) := by
  unfold W33; exact after_of_writes_sub hostOps12 _ hostOps12_writes h
theorem W34_of (r : Ref sig .tc) (h : r ∉ ([main_v47] : List (Ref sig .tc))) : W34 m c (Proc.devRef .tc r) = W33 m c (Proc.devRef .tc r) := by
  unfold W34; exact Reg12.Wout_of_ne_ref (W33 m) c r fun e => h (List.mem_singleton.mpr e)
theorem W35_of (r : Ref sig .tc) (h : r ∉ hostOps13_W) : W35 m c (Proc.devRef .tc r) = W34 m c (Proc.devRef .tc r) := by
  unfold W35; exact after_of_writes_sub hostOps13 _ hostOps13_writes h
theorem W36_of (r : Ref sig .tc) (h : r ∉ ([main_v49] : List (Ref sig .tc))) : W36 m c (Proc.devRef .tc r) = W35 m c (Proc.devRef .tc r) := by
  unfold W36; exact Reg13.Wout_of_ne_ref (W35 m) c r fun e => h (List.mem_singleton.mpr e)
theorem W37_of (r : Ref sig .tc) (h : r ∉ hostOps14_W) : W37 m c (Proc.devRef .tc r) = W36 m c (Proc.devRef .tc r) := by
  unfold W37; exact after_of_writes_sub hostOps14 _ hostOps14_writes h
theorem W38_of (r : Ref sig .tc) (h : r ∉ hostOps14_1_W) : W38 m c (Proc.devRef .tc r) = W37 m c (Proc.devRef .tc r) := by
  unfold W38; exact after_of_writes_sub hostOps14_1 _ hostOps14_1_writes h
theorem W39_of (r : Ref sig .tc) (h : r ∉ ([main_v51] : List (Ref sig .tc))) : W39 m c (Proc.devRef .tc r) = W38 m c (Proc.devRef .tc r) := by
  unfold W39; exact Reg14.Wout_of_ne_ref (W38 m) c r fun e => h (List.mem_singleton.mpr e)
theorem W40_of (r : Ref sig .tc) (h : r ∉ hostOps15_W) : W40 m c (Proc.devRef .tc r) = W39 m c (Proc.devRef .tc r) := by
  unfold W40; exact after_of_writes_sub hostOps15 _ hostOps15_writes h
theorem W41_of (r : Ref sig .tc) (h : r ∉ hostOps15_1_W) : W41 m c (Proc.devRef .tc r) = W40 m c (Proc.devRef .tc r) := by
  unfold W41; exact after_of_writes_sub hostOps15_1 _ hostOps15_1_writes h
theorem W42_of (r : Ref sig .tc) (h : r ∉ ([main_v53] : List (Ref sig .tc))) : W42 m c (Proc.devRef .tc r) = W41 m c (Proc.devRef .tc r) := by
  unfold W42; exact Reg15.Wout_of_ne_ref (W41 m) c r fun e => h (List.mem_singleton.mpr e)
theorem W43_of (r : Ref sig .tc) (h : r ∉ hostOps16_W) : W43 m c (Proc.devRef .tc r) = W42 m c (Proc.devRef .tc r) := by
  unfold W43; exact after_of_writes_sub hostOps16 _ hostOps16_writes h
theorem W44_of (r : Ref sig .tc) (h : r ∉ hostOps16_1_W) : W44 m c (Proc.devRef .tc r) = W43 m c (Proc.devRef .tc r) := by
  unfold W44; exact after_of_writes_sub hostOps16_1 _ hostOps16_1_writes h
theorem W45_of (r : Ref sig .tc) (h : r ∉ ([main_v55] : List (Ref sig .tc))) : W45 m c (Proc.devRef .tc r) = W44 m c (Proc.devRef .tc r) := by
  unfold W45; exact Reg16.Wout_of_ne_ref (W44 m) c r fun e => h (List.mem_singleton.mpr e)
theorem W46_of (r : Ref sig .tc) (h : r ∉ hostOps17_W) : W46 m c (Proc.devRef .tc r) = W45 m c (Proc.devRef .tc r) := by
  unfold W46; exact after_of_writes_sub hostOps17 _ hostOps17_writes h
theorem W47_of (r : Ref sig .tc) (h : r ∉ hostOps17_1_W) : W47 m c (Proc.devRef .tc r) = W46 m c (Proc.devRef .tc r) := by
  unfold W47; exact after_of_writes_sub hostOps17_1 _ hostOps17_1_writes h
theorem W48_of (r : Ref sig .tc) (h : r ∉ ([main_v57] : List (Ref sig .tc))) : W48 m c (Proc.devRef .tc r) = W47 m c (Proc.devRef .tc r) := by
  unfold W48; exact Reg17.Wout_of_ne_ref (W47 m) c r fun e => h (List.mem_singleton.mpr e)
theorem W49_of (r : Ref sig .tc) (h : r ∉ hostOps18_W) : W49 m c (Proc.devRef .tc r) = W48 m c (Proc.devRef .tc r) := by
  unfold W49; exact after_of_writes_sub hostOps18 _ hostOps18_writes h
theorem W50_of (r : Ref sig .tc) (h : r ∉ hostOps18_1_W) : W50 m c (Proc.devRef .tc r) = W49 m c (Proc.devRef .tc r) := by
  unfold W50; exact after_of_writes_sub hostOps18_1 _ hostOps18_1_writes h
theorem W51_of (r : Ref sig .tc) (h : r ∉ ([main_v59] : List (Ref sig .tc))) : W51 m c (Proc.devRef .tc r) = W50 m c (Proc.devRef .tc r) := by
  unfold W51; exact Reg18.Wout_of_ne_ref (W50 m) c r fun e => h (List.mem_singleton.mpr e)
theorem W52_of (r : Ref sig .tc) (h : r ∉ hostOps19_W) : W52 m c (Proc.devRef .tc r) = W51 m c (Proc.devRef .tc r) := by
  unfold W52; exact after_of_writes_sub hostOps19 _ hostOps19_writes h
theorem W53_of (r : Ref sig .tc) (h : r ∉ hostOps19_1_W) : W53 m c (Proc.devRef .tc r) = W52 m c (Proc.devRef .tc r) := by
  unfold W53; exact after_of_writes_sub hostOps19_1 _ hostOps19_1_writes h
theorem W54_of (r : Ref sig .tc) (h : r ∉ ([main_v61] : List (Ref sig .tc))) : W54 m c (Proc.devRef .tc r) = W53 m c (Proc.devRef .tc r) := by
  unfold W54; exact Reg19.Wout_of_ne_ref (W53 m) c r fun e => h (List.mem_singleton.mpr e)
theorem W55_of (r : Ref sig .tc) (h : r ∉ hostOps20_W) : W55 m c (Proc.devRef .tc r) = W54 m c (Proc.devRef .tc r) := by
  unfold W55; exact after_of_writes_sub hostOps20 _ hostOps20_writes h
theorem W56_of (r : Ref sig .tc) (h : r ∉ ([main_v64] : List (Ref sig .tc))) : W56 m c (Proc.devRef .tc r) = W55 m c (Proc.devRef .tc r) := by
  unfold W56; exact Reg20.Wout_of_ne_ref (W55 m) c r fun e => h (List.mem_singleton.mpr e)
theorem W57_of (r : Ref sig .tc) (h : r ∉ hostOps21_W) : W57 m c (Proc.devRef .tc r) = W56 m c (Proc.devRef .tc r) := by
  unfold W57; exact after_of_writes_sub hostOps21 _ hostOps21_writes h
theorem W58_of (r : Ref sig .tc) (h : r ∉ ([main_v69] : List (Ref sig .tc))) : W58 m c (Proc.devRef .tc r) = W57 m c (Proc.devRef .tc r) := by
  unfold W58; exact Reg21.Wout_of_ne_ref (W57 m) c r fun e => h (List.mem_singleton.mpr e)
theorem W59_of (r : Ref sig .tc) (h : r ∉ hostOps22_W) : W59 m c (Proc.devRef .tc r) = W58 m c (Proc.devRef .tc r) := by
  unfold W59; exact after_of_writes_sub hostOps22 _ hostOps22_writes h
theorem W60_of (r : Ref sig .tc) (h : r ∉ ([main_v71] : List (Ref sig .tc))) : W60 m c (Proc.devRef .tc r) = W59 m c (Proc.devRef .tc r) := by
  unfold W60; exact Reg22.Wout_of_ne_ref (W59 m) c r fun e => h (List.mem_singleton.mpr e)
theorem W61_of (r : Ref sig .tc) (h : r ∉ hostOps23_W) : W61 m c (Proc.devRef .tc r) = W60 m c (Proc.devRef .tc r) := by
  unfold W61; exact after_of_writes_sub hostOps23 _ hostOps23_writes h
theorem W62_of (r : Ref sig .tc) (h : r ∉ hostOps23_1_W) : W62 m c (Proc.devRef .tc r) = W61 m c (Proc.devRef .tc r) := by
  unfold W62; exact after_of_writes_sub hostOps23_1 _ hostOps23_1_writes h
theorem W63_of (r : Ref sig .tc) (h : r ∉ ([main_v73] : List (Ref sig .tc))) : W63 m c (Proc.devRef .tc r) = W62 m c (Proc.devRef .tc r) := by
  unfold W63; exact Reg23.Wout_of_ne_ref (W62 m) c r fun e => h (List.mem_singleton.mpr e)
theorem W64_of (r : Ref sig .tc) (h : r ∉ hostOps24_W) : W64 m c (Proc.devRef .tc r) = W63 m c (Proc.devRef .tc r) := by
  unfold W64; exact after_of_writes_sub hostOps24 _ hostOps24_writes h
theorem W65_of (r : Ref sig .tc) (h : r ∉ hostOps24_1_W) : W65 m c (Proc.devRef .tc r) = W64 m c (Proc.devRef .tc r) := by
  unfold W65; exact after_of_writes_sub hostOps24_1 _ hostOps24_1_writes h
theorem W66_of (r : Ref sig .tc) (h : r ∉ ([main_v75] : List (Ref sig .tc))) : W66 m c (Proc.devRef .tc r) = W65 m c (Proc.devRef .tc r) := by
  unfold W66; exact Reg24.Wout_of_ne_ref (W65 m) c r fun e => h (List.mem_singleton.mpr e)
theorem W67_of (r : Ref sig .tc) (h : r ∉ hostOps25_W) : W67 m c (Proc.devRef .tc r) = W66 m c (Proc.devRef .tc r) := by
  unfold W67; exact after_of_writes_sub hostOps25 _ hostOps25_writes h
theorem W68_of (r : Ref sig .tc) (h : r ∉ hostOps25_1_W) : W68 m c (Proc.devRef .tc r) = W67 m c (Proc.devRef .tc r) := by
  unfold W68; exact after_of_writes_sub hostOps25_1 _ hostOps25_1_writes h
theorem W69_of (r : Ref sig .tc) (h : r ∉ ([main_v77] : List (Ref sig .tc))) : W69 m c (Proc.devRef .tc r) = W68 m c (Proc.devRef .tc r) := by
  unfold W69; exact Reg25.Wout_of_ne_ref (W68 m) c r fun e => h (List.mem_singleton.mpr e)
theorem W70_of (r : Ref sig .tc) (h : r ∉ hostOps26_W) : W70 m c (Proc.devRef .tc r) = W69 m c (Proc.devRef .tc r) := by
  unfold W70; exact after_of_writes_sub hostOps26 _ hostOps26_writes h
theorem W71_of (r : Ref sig .tc) (h : r ∉ hostOps26_1_W) : W71 m c (Proc.devRef .tc r) = W70 m c (Proc.devRef .tc r) := by
  unfold W71; exact after_of_writes_sub hostOps26_1 _ hostOps26_1_writes h
theorem W72_of (r : Ref sig .tc) (h : r ∉ ([main_v79] : List (Ref sig .tc))) : W72 m c (Proc.devRef .tc r) = W71 m c (Proc.devRef .tc r) := by
  unfold W72; exact Reg26.Wout_of_ne_ref (W71 m) c r fun e => h (List.mem_singleton.mpr e)
theorem W73_of (r : Ref sig .tc) (h : r ∉ hostOps27_W) : W73 m c (Proc.devRef .tc r) = W72 m c (Proc.devRef .tc r) := by
  unfold W73; exact after_of_writes_sub hostOps27 _ hostOps27_writes h
theorem W74_of (r : Ref sig .tc) (h : r ∉ hostOps27_1_W) : W74 m c (Proc.devRef .tc r) = W73 m c (Proc.devRef .tc r) := by
  unfold W74; exact after_of_writes_sub hostOps27_1 _ hostOps27_1_writes h
theorem W75_of (r : Ref sig .tc) (h : r ∉ ([main_v81] : List (Ref sig .tc))) : W75 m c (Proc.devRef .tc r) = W74 m c (Proc.devRef .tc r) := by
  unfold W75; exact Reg27.Wout_of_ne_ref (W74 m) c r fun e => h (List.mem_singleton.mpr e)
theorem W76_of (r : Ref sig .tc) (h : r ∉ hostOps28_W) : W76 m c (Proc.devRef .tc r) = W75 m c (Proc.devRef .tc r) := by
  unfold W76; exact after_of_writes_sub hostOps28 _ hostOps28_writes h
theorem W77_of (r : Ref sig .tc) (h : r ∉ hostOps28_1_W) : W77 m c (Proc.devRef .tc r) = W76 m c (Proc.devRef .tc r) := by
  unfold W77; exact after_of_writes_sub hostOps28_1 _ hostOps28_1_writes h
theorem W78_of (r : Ref sig .tc) (h : r ∉ ([main_v83] : List (Ref sig .tc))) : W78 m c (Proc.devRef .tc r) = W77 m c (Proc.devRef .tc r) := by
  unfold W78; exact Reg28.Wout_of_ne_ref (W77 m) c r fun e => h (List.mem_singleton.mpr e)
theorem W79_of (r : Ref sig .tc) (h : r ∉ hostOps29_W) : W79 m c (Proc.devRef .tc r) = W78 m c (Proc.devRef .tc r) := by
  unfold W79; exact after_of_writes_sub hostOps29 _ hostOps29_writes h
theorem W80_of (r : Ref sig .tc) (h : r ∉ ([main_v86] : List (Ref sig .tc))) : W80 m c (Proc.devRef .tc r) = W79 m c (Proc.devRef .tc r) := by
  unfold W80; exact Reg29.Wout_of_ne_ref (W79 m) c r fun e => h (List.mem_singleton.mpr e)
theorem W81_of (r : Ref sig .tc) (h : r ∉ hostOps30_W) : W81 m c (Proc.devRef .tc r) = W80 m c (Proc.devRef .tc r) := by
  unfold W81; exact after_of_writes_sub hostOps30 _ hostOps30_writes h
theorem keep_main_arg2_2 : W2 m c (Proc.devRef .tc main_arg2) = W0 m c (Proc.devRef .tc main_arg2) := by
  rw [W2_of m c main_arg2 (by decide),
    W1_of m c main_arg2 (by decide)]
theorem keep_main_arg3_2 : W2 m c (Proc.devRef .tc main_arg3) = W0 m c (Proc.devRef .tc main_arg3) := by
  rw [W2_of m c main_arg3 (by decide),
    W1_of m c main_arg3 (by decide)]
theorem keep_main_v13_4 : W4 m c (Proc.devRef .tc main_v13) = W1 m c (Proc.devRef .tc main_v13) := by
  rw [W4_of m c main_v13 (by decide),
    W3_of m c main_v13 (by decide),
    W2_of m c main_v13 (by decide)]
theorem keep_main_arg2_5 : W5 m c (Proc.devRef .tc main_arg2) = W0 m c (Proc.devRef .tc main_arg2) := by
  rw [W5_of m c main_arg2 (by decide),
    W4_of m c main_arg2 (by decide),
    W3_of m c main_arg2 (by decide),
    W2_of m c main_arg2 (by decide),
    W1_of m c main_arg2 (by decide)]
theorem keep_main_arg3_5 : W5 m c (Proc.devRef .tc main_arg3) = W0 m c (Proc.devRef .tc main_arg3) := by
  rw [W5_of m c main_arg3 (by decide),
    W4_of m c main_arg3 (by decide),
    W3_of m c main_arg3 (by decide),
    W2_of m c main_arg3 (by decide),
    W1_of m c main_arg3 (by decide)]
theorem keep_main_v15_7 : W7 m c (Proc.devRef .tc main_v15) = W3 m c (Proc.devRef .tc main_v15) := by
  rw [W7_of m c main_v15 (by decide),
    W6_of m c main_v15 (by decide),
    W5_of m c main_v15 (by decide),
    W4_of m c main_v15 (by decide)]
theorem keep_main_arg4_8 : W8 m c (Proc.devRef .tc main_arg4) = W0 m c (Proc.devRef .tc main_arg4) := by
  rw [W8_of m c main_arg4 (by decide),
    W7_of m c main_arg4 (by decide),
    W6_of m c main_arg4 (by decide),
    W5_of m c main_arg4 (by decide),
    W4_of m c main_arg4 (by decide),
    W3_of m c main_arg4 (by decide),
    W2_of m c main_arg4 (by decide),
    W1_of m c main_arg4 (by decide)]
theorem keep_main_arg5_8 : W8 m c (Proc.devRef .tc main_arg5) = W0 m c (Proc.devRef .tc main_arg5) := by
  rw [W8_of m c main_arg5 (by decide),
    W7_of m c main_arg5 (by decide),
    W6_of m c main_arg5 (by decide),
    W5_of m c main_arg5 (by decide),
    W4_of m c main_arg5 (by decide),
    W3_of m c main_arg5 (by decide),
    W2_of m c main_arg5 (by decide),
    W1_of m c main_arg5 (by decide)]
theorem keep_main_v17_10 : W10 m c (Proc.devRef .tc main_v17) = W6 m c (Proc.devRef .tc main_v17) := by
  rw [W10_of m c main_v17 (by decide),
    W9_of m c main_v17 (by decide),
    W8_of m c main_v17 (by decide),
    W7_of m c main_v17 (by decide)]
theorem keep_main_arg4_11 : W11 m c (Proc.devRef .tc main_arg4) = W0 m c (Proc.devRef .tc main_arg4) := by
  rw [W11_of m c main_arg4 (by decide),
    W10_of m c main_arg4 (by decide),
    W9_of m c main_arg4 (by decide),
    W8_of m c main_arg4 (by decide),
    W7_of m c main_arg4 (by decide),
    W6_of m c main_arg4 (by decide),
    W5_of m c main_arg4 (by decide),
    W4_of m c main_arg4 (by decide),
    W3_of m c main_arg4 (by decide),
    W2_of m c main_arg4 (by decide),
    W1_of m c main_arg4 (by decide)]
theorem keep_main_arg5_11 : W11 m c (Proc.devRef .tc main_arg5) = W0 m c (Proc.devRef .tc main_arg5) := by
  rw [W11_of m c main_arg5 (by decide),
    W10_of m c main_arg5 (by decide),
    W9_of m c main_arg5 (by decide),
    W8_of m c main_arg5 (by decide),
    W7_of m c main_arg5 (by decide),
    W6_of m c main_arg5 (by decide),
    W5_of m c main_arg5 (by decide),
    W4_of m c main_arg5 (by decide),
    W3_of m c main_arg5 (by decide),
    W2_of m c main_arg5 (by decide),
    W1_of m c main_arg5 (by decide)]
theorem keep_main_v19_12 : W12 m c (Proc.devRef .tc main_v19) = W9 m c (Proc.devRef .tc main_v19) := by
  rw [W12_of m c main_v19 (by decide),
    W11_of m c main_v19 (by decide),
    W10_of m c main_v19 (by decide)]
theorem keep_main_v19_14 : W14 m c (Proc.devRef .tc main_v19) = W9 m c (Proc.devRef .tc main_v19) := by
  rw [W14_of m c main_v19 (by decide),
    W13_of m c main_v19 (by decide),
    W12_of m c main_v19 (by decide),
    W11_of m c main_v19 (by decide),
    W10_of m c main_v19 (by decide)]
theorem keep_main_v21_16 : W16 m c (Proc.devRef .tc main_v21) = W12 m c (Proc.devRef .tc main_v21) := by
  rw [W16_of m c main_v21 (by decide),
    W15_of m c main_v21 (by decide),
    W14_of m c main_v21 (by decide),
    W13_of m c main_v21 (by decide)]
theorem keep_main_v29_19 : W19 m c (Proc.devRef .tc main_v29) = W16 m c (Proc.devRef .tc main_v29) := by
  rw [W19_of m c main_v29 (by decide),
    W18_of m c main_v29 (by decide),
    W17_of m c main_v29 (by decide)]
theorem keep_main_arg6_20 : W20 m c (Proc.devRef .tc main_arg6) = W0 m c (Proc.devRef .tc main_arg6) := by
  rw [W20_of m c main_arg6 (by decide),
    W19_of m c main_arg6 (by decide),
    W18_of m c main_arg6 (by decide),
    W17_of m c main_arg6 (by decide),
    W16_of m c main_arg6 (by decide),
    W15_of m c main_arg6 (by decide),
    W14_of m c main_arg6 (by decide),
    W13_of m c main_arg6 (by decide),
    W12_of m c main_arg6 (by decide),
    W11_of m c main_arg6 (by decide),
    W10_of m c main_arg6 (by decide),
    W9_of m c main_arg6 (by decide),
    W8_of m c main_arg6 (by decide),
    W7_of m c main_arg6 (by decide),
    W6_of m c main_arg6 (by decide),
    W5_of m c main_arg6 (by decide),
    W4_of m c main_arg6 (by decide),
    W3_of m c main_arg6 (by decide),
    W2_of m c main_arg6 (by decide),
    W1_of m c main_arg6 (by decide)]
theorem keep_main_arg7_20 : W20 m c (Proc.devRef .tc main_arg7) = W0 m c (Proc.devRef .tc main_arg7) := by
  rw [W20_of m c main_arg7 (by decide),
    W19_of m c main_arg7 (by decide),
    W18_of m c main_arg7 (by decide),
    W17_of m c main_arg7 (by decide),
    W16_of m c main_arg7 (by decide),
    W15_of m c main_arg7 (by decide),
    W14_of m c main_arg7 (by decide),
    W13_of m c main_arg7 (by decide),
    W12_of m c main_arg7 (by decide),
    W11_of m c main_arg7 (by decide),
    W10_of m c main_arg7 (by decide),
    W9_of m c main_arg7 (by decide),
    W8_of m c main_arg7 (by decide),
    W7_of m c main_arg7 (by decide),
    W6_of m c main_arg7 (by decide),
    W5_of m c main_arg7 (by decide),
    W4_of m c main_arg7 (by decide),
    W3_of m c main_arg7 (by decide),
    W2_of m c main_arg7 (by decide),
    W1_of m c main_arg7 (by decide)]
theorem keep_main_v31_22 : W22 m c (Proc.devRef .tc main_v31) = W18 m c (Proc.devRef .tc main_v31) := by
  rw [W22_of m c main_v31 (by decide),
    W21_of m c main_v31 (by decide),
    W20_of m c main_v31 (by decide),
    W19_of m c main_v31 (by decide)]
theorem keep_main_arg6_23 : W23 m c (Proc.devRef .tc main_arg6) = W0 m c (Proc.devRef .tc main_arg6) := by
  rw [W23_of m c main_arg6 (by decide),
    W22_of m c main_arg6 (by decide),
    W21_of m c main_arg6 (by decide),
    W20_of m c main_arg6 (by decide),
    W19_of m c main_arg6 (by decide),
    W18_of m c main_arg6 (by decide),
    W17_of m c main_arg6 (by decide),
    W16_of m c main_arg6 (by decide),
    W15_of m c main_arg6 (by decide),
    W14_of m c main_arg6 (by decide),
    W13_of m c main_arg6 (by decide),
    W12_of m c main_arg6 (by decide),
    W11_of m c main_arg6 (by decide),
    W10_of m c main_arg6 (by decide),
    W9_of m c main_arg6 (by decide),
    W8_of m c main_arg6 (by decide),
    W7_of m c main_arg6 (by decide),
    W6_of m c main_arg6 (by decide),
    W5_of m c main_arg6 (by decide),
    W4_of m c main_arg6 (by decide),
    W3_of m c main_arg6 (by decide),
    W2_of m c main_arg6 (by decide),
    W1_of m c main_arg6 (by decide)]
theorem keep_main_arg7_23 : W23 m c (Proc.devRef .tc main_arg7) = W0 m c (Proc.devRef .tc main_arg7) := by
  rw [W23_of m c main_arg7 (by decide),
    W22_of m c main_arg7 (by decide),
    W21_of m c main_arg7 (by decide),
    W20_of m c main_arg7 (by decide),
    W19_of m c main_arg7 (by decide),
    W18_of m c main_arg7 (by decide),
    W17_of m c main_arg7 (by decide),
    W16_of m c main_arg7 (by decide),
    W15_of m c main_arg7 (by decide),
    W14_of m c main_arg7 (by decide),
    W13_of m c main_arg7 (by decide),
    W12_of m c main_arg7 (by decide),
    W11_of m c main_arg7 (by decide),
    W10_of m c main_arg7 (by decide),
    W9_of m c main_arg7 (by decide),
    W8_of m c main_arg7 (by decide),
    W7_of m c main_arg7 (by decide),
    W6_of m c main_arg7 (by decide),
    W5_of m c main_arg7 (by decide),
    W4_of m c main_arg7 (by decide),
    W3_of m c main_arg7 (by decide),
    W2_of m c main_arg7 (by decide),
    W1_of m c main_arg7 (by decide)]
theorem keep_main_v33_25 : W25 m c (Proc.devRef .tc main_v33) = W21 m c (Proc.devRef .tc main_v33) := by
  rw [W25_of m c main_v33 (by decide),
    W24_of m c main_v33 (by decide),
    W23_of m c main_v33 (by decide),
    W22_of m c main_v33 (by decide)]
theorem keep_main_arg8_26 : W26 m c (Proc.devRef .tc main_arg8) = W0 m c (Proc.devRef .tc main_arg8) := by
  rw [W26_of m c main_arg8 (by decide),
    W25_of m c main_arg8 (by decide),
    W24_of m c main_arg8 (by decide),
    W23_of m c main_arg8 (by decide),
    W22_of m c main_arg8 (by decide),
    W21_of m c main_arg8 (by decide),
    W20_of m c main_arg8 (by decide),
    W19_of m c main_arg8 (by decide),
    W18_of m c main_arg8 (by decide),
    W17_of m c main_arg8 (by decide),
    W16_of m c main_arg8 (by decide),
    W15_of m c main_arg8 (by decide),
    W14_of m c main_arg8 (by decide),
    W13_of m c main_arg8 (by decide),
    W12_of m c main_arg8 (by decide),
    W11_of m c main_arg8 (by decide),
    W10_of m c main_arg8 (by decide),
    W9_of m c main_arg8 (by decide),
    W8_of m c main_arg8 (by decide),
    W7_of m c main_arg8 (by decide),
    W6_of m c main_arg8 (by decide),
    W5_of m c main_arg8 (by decide),
    W4_of m c main_arg8 (by decide),
    W3_of m c main_arg8 (by decide),
    W2_of m c main_arg8 (by decide),
    W1_of m c main_arg8 (by decide)]
theorem keep_main_arg9_26 : W26 m c (Proc.devRef .tc main_arg9) = W0 m c (Proc.devRef .tc main_arg9) := by
  rw [W26_of m c main_arg9 (by decide),
    W25_of m c main_arg9 (by decide),
    W24_of m c main_arg9 (by decide),
    W23_of m c main_arg9 (by decide),
    W22_of m c main_arg9 (by decide),
    W21_of m c main_arg9 (by decide),
    W20_of m c main_arg9 (by decide),
    W19_of m c main_arg9 (by decide),
    W18_of m c main_arg9 (by decide),
    W17_of m c main_arg9 (by decide),
    W16_of m c main_arg9 (by decide),
    W15_of m c main_arg9 (by decide),
    W14_of m c main_arg9 (by decide),
    W13_of m c main_arg9 (by decide),
    W12_of m c main_arg9 (by decide),
    W11_of m c main_arg9 (by decide),
    W10_of m c main_arg9 (by decide),
    W9_of m c main_arg9 (by decide),
    W8_of m c main_arg9 (by decide),
    W7_of m c main_arg9 (by decide),
    W6_of m c main_arg9 (by decide),
    W5_of m c main_arg9 (by decide),
    W4_of m c main_arg9 (by decide),
    W3_of m c main_arg9 (by decide),
    W2_of m c main_arg9 (by decide),
    W1_of m c main_arg9 (by decide)]
theorem keep_main_v35_28 : W28 m c (Proc.devRef .tc main_v35) = W24 m c (Proc.devRef .tc main_v35) := by
  rw [W28_of m c main_v35 (by decide),
    W27_of m c main_v35 (by decide),
    W26_of m c main_v35 (by decide),
    W25_of m c main_v35 (by decide)]
theorem keep_main_arg8_29 : W29 m c (Proc.devRef .tc main_arg8) = W0 m c (Proc.devRef .tc main_arg8) := by
  rw [W29_of m c main_arg8 (by decide),
    W28_of m c main_arg8 (by decide),
    W27_of m c main_arg8 (by decide),
    W26_of m c main_arg8 (by decide),
    W25_of m c main_arg8 (by decide),
    W24_of m c main_arg8 (by decide),
    W23_of m c main_arg8 (by decide),
    W22_of m c main_arg8 (by decide),
    W21_of m c main_arg8 (by decide),
    W20_of m c main_arg8 (by decide),
    W19_of m c main_arg8 (by decide),
    W18_of m c main_arg8 (by decide),
    W17_of m c main_arg8 (by decide),
    W16_of m c main_arg8 (by decide),
    W15_of m c main_arg8 (by decide),
    W14_of m c main_arg8 (by decide),
    W13_of m c main_arg8 (by decide),
    W12_of m c main_arg8 (by decide),
    W11_of m c main_arg8 (by decide),
    W10_of m c main_arg8 (by decide),
    W9_of m c main_arg8 (by decide),
    W8_of m c main_arg8 (by decide),
    W7_of m c main_arg8 (by decide),
    W6_of m c main_arg8 (by decide),
    W5_of m c main_arg8 (by decide),
    W4_of m c main_arg8 (by decide),
    W3_of m c main_arg8 (by decide),
    W2_of m c main_arg8 (by decide),
    W1_of m c main_arg8 (by decide)]
theorem keep_main_arg9_29 : W29 m c (Proc.devRef .tc main_arg9) = W0 m c (Proc.devRef .tc main_arg9) := by
  rw [W29_of m c main_arg9 (by decide),
    W28_of m c main_arg9 (by decide),
    W27_of m c main_arg9 (by decide),
    W26_of m c main_arg9 (by decide),
    W25_of m c main_arg9 (by decide),
    W24_of m c main_arg9 (by decide),
    W23_of m c main_arg9 (by decide),
    W22_of m c main_arg9 (by decide),
    W21_of m c main_arg9 (by decide),
    W20_of m c main_arg9 (by decide),
    W19_of m c main_arg9 (by decide),
    W18_of m c main_arg9 (by decide),
    W17_of m c main_arg9 (by decide),
    W16_of m c main_arg9 (by decide),
    W15_of m c main_arg9 (by decide),
    W14_of m c main_arg9 (by decide),
    W13_of m c main_arg9 (by decide),
    W12_of m c main_arg9 (by decide),
    W11_of m c main_arg9 (by decide),
    W10_of m c main_arg9 (by decide),
    W9_of m c main_arg9 (by decide),
    W8_of m c main_arg9 (by decide),
    W7_of m c main_arg9 (by decide),
    W6_of m c main_arg9 (by decide),
    W5_of m c main_arg9 (by decide),
    W4_of m c main_arg9 (by decide),
    W3_of m c main_arg9 (by decide),
    W2_of m c main_arg9 (by decide),
    W1_of m c main_arg9 (by decide)]
theorem keep_main_v37_30 : W30 m c (Proc.devRef .tc main_v37) = W27 m c (Proc.devRef .tc main_v37) := by
  rw [W30_of m c main_v37 (by decide),
    W29_of m c main_v37 (by decide),
    W28_of m c main_v37 (by decide)]
theorem keep_main_v27_32 : W32 m c (Proc.devRef .tc main_v27) = W15 m c (Proc.devRef .tc main_v27) := by
  rw [W32_of m c main_v27 (by decide),
    W31_of m c main_v27 (by decide),
    W30_of m c main_v27 (by decide),
    W29_of m c main_v27 (by decide),
    W28_of m c main_v27 (by decide),
    W27_of m c main_v27 (by decide),
    W26_of m c main_v27 (by decide),
    W25_of m c main_v27 (by decide),
    W24_of m c main_v27 (by decide),
    W23_of m c main_v27 (by decide),
    W22_of m c main_v27 (by decide),
    W21_of m c main_v27 (by decide),
    W20_of m c main_v27 (by decide),
    W19_of m c main_v27 (by decide),
    W18_of m c main_v27 (by decide),
    W17_of m c main_v27 (by decide),
    W16_of m c main_v27 (by decide)]
theorem keep_main_v37_32 : W32 m c (Proc.devRef .tc main_v37) = W27 m c (Proc.devRef .tc main_v37) := by
  rw [W32_of m c main_v37 (by decide),
    W31_of m c main_v37 (by decide),
    W30_of m c main_v37 (by decide),
    W29_of m c main_v37 (by decide),
    W28_of m c main_v37 (by decide)]
theorem keep_main_v39_34 : W34 m c (Proc.devRef .tc main_v39) = W30 m c (Proc.devRef .tc main_v39) := by
  rw [W34_of m c main_v39 (by decide),
    W33_of m c main_v39 (by decide),
    W32_of m c main_v39 (by decide),
    W31_of m c main_v39 (by decide)]
theorem keep_main_v47_37 : W37 m c (Proc.devRef .tc main_v47) = W34 m c (Proc.devRef .tc main_v47) := by
  rw [W37_of m c main_v47 (by decide),
    W36_of m c main_v47 (by decide),
    W35_of m c main_v47 (by decide)]
theorem keep_main_arg10_38 : W38 m c (Proc.devRef .tc main_arg10) = W0 m c (Proc.devRef .tc main_arg10) := by
  rw [W38_of m c main_arg10 (by decide),
    W37_of m c main_arg10 (by decide),
    W36_of m c main_arg10 (by decide),
    W35_of m c main_arg10 (by decide),
    W34_of m c main_arg10 (by decide),
    W33_of m c main_arg10 (by decide),
    W32_of m c main_arg10 (by decide),
    W31_of m c main_arg10 (by decide),
    W30_of m c main_arg10 (by decide),
    W29_of m c main_arg10 (by decide),
    W28_of m c main_arg10 (by decide),
    W27_of m c main_arg10 (by decide),
    W26_of m c main_arg10 (by decide),
    W25_of m c main_arg10 (by decide),
    W24_of m c main_arg10 (by decide),
    W23_of m c main_arg10 (by decide),
    W22_of m c main_arg10 (by decide),
    W21_of m c main_arg10 (by decide),
    W20_of m c main_arg10 (by decide),
    W19_of m c main_arg10 (by decide),
    W18_of m c main_arg10 (by decide),
    W17_of m c main_arg10 (by decide),
    W16_of m c main_arg10 (by decide),
    W15_of m c main_arg10 (by decide),
    W14_of m c main_arg10 (by decide),
    W13_of m c main_arg10 (by decide),
    W12_of m c main_arg10 (by decide),
    W11_of m c main_arg10 (by decide),
    W10_of m c main_arg10 (by decide),
    W9_of m c main_arg10 (by decide),
    W8_of m c main_arg10 (by decide),
    W7_of m c main_arg10 (by decide),
    W6_of m c main_arg10 (by decide),
    W5_of m c main_arg10 (by decide),
    W4_of m c main_arg10 (by decide),
    W3_of m c main_arg10 (by decide),
    W2_of m c main_arg10 (by decide),
    W1_of m c main_arg10 (by decide)]
theorem keep_main_arg11_38 : W38 m c (Proc.devRef .tc main_arg11) = W0 m c (Proc.devRef .tc main_arg11) := by
  rw [W38_of m c main_arg11 (by decide),
    W37_of m c main_arg11 (by decide),
    W36_of m c main_arg11 (by decide),
    W35_of m c main_arg11 (by decide),
    W34_of m c main_arg11 (by decide),
    W33_of m c main_arg11 (by decide),
    W32_of m c main_arg11 (by decide),
    W31_of m c main_arg11 (by decide),
    W30_of m c main_arg11 (by decide),
    W29_of m c main_arg11 (by decide),
    W28_of m c main_arg11 (by decide),
    W27_of m c main_arg11 (by decide),
    W26_of m c main_arg11 (by decide),
    W25_of m c main_arg11 (by decide),
    W24_of m c main_arg11 (by decide),
    W23_of m c main_arg11 (by decide),
    W22_of m c main_arg11 (by decide),
    W21_of m c main_arg11 (by decide),
    W20_of m c main_arg11 (by decide),
    W19_of m c main_arg11 (by decide),
    W18_of m c main_arg11 (by decide),
    W17_of m c main_arg11 (by decide),
    W16_of m c main_arg11 (by decide),
    W15_of m c main_arg11 (by decide),
    W14_of m c main_arg11 (by decide),
    W13_of m c main_arg11 (by decide),
    W12_of m c main_arg11 (by decide),
    W11_of m c main_arg11 (by decide),
    W10_of m c main_arg11 (by decide),
    W9_of m c main_arg11 (by decide),
    W8_of m c main_arg11 (by decide),
    W7_of m c main_arg11 (by decide),
    W6_of m c main_arg11 (by decide),
    W5_of m c main_arg11 (by decide),
    W4_of m c main_arg11 (by decide),
    W3_of m c main_arg11 (by decide),
    W2_of m c main_arg11 (by decide),
    W1_of m c main_arg11 (by decide)]
theorem keep_main_v49_40 : W40 m c (Proc.devRef .tc main_v49) = W36 m c (Proc.devRef .tc main_v49) := by
  rw [W40_of m c main_v49 (by decide),
    W39_of m c main_v49 (by decide),
    W38_of m c main_v49 (by decide),
    W37_of m c main_v49 (by decide)]
theorem keep_main_arg10_41 : W41 m c (Proc.devRef .tc main_arg10) = W0 m c (Proc.devRef .tc main_arg10) := by
  rw [W41_of m c main_arg10 (by decide),
    W40_of m c main_arg10 (by decide),
    W39_of m c main_arg10 (by decide),
    W38_of m c main_arg10 (by decide),
    W37_of m c main_arg10 (by decide),
    W36_of m c main_arg10 (by decide),
    W35_of m c main_arg10 (by decide),
    W34_of m c main_arg10 (by decide),
    W33_of m c main_arg10 (by decide),
    W32_of m c main_arg10 (by decide),
    W31_of m c main_arg10 (by decide),
    W30_of m c main_arg10 (by decide),
    W29_of m c main_arg10 (by decide),
    W28_of m c main_arg10 (by decide),
    W27_of m c main_arg10 (by decide),
    W26_of m c main_arg10 (by decide),
    W25_of m c main_arg10 (by decide),
    W24_of m c main_arg10 (by decide),
    W23_of m c main_arg10 (by decide),
    W22_of m c main_arg10 (by decide),
    W21_of m c main_arg10 (by decide),
    W20_of m c main_arg10 (by decide),
    W19_of m c main_arg10 (by decide),
    W18_of m c main_arg10 (by decide),
    W17_of m c main_arg10 (by decide),
    W16_of m c main_arg10 (by decide),
    W15_of m c main_arg10 (by decide),
    W14_of m c main_arg10 (by decide),
    W13_of m c main_arg10 (by decide),
    W12_of m c main_arg10 (by decide),
    W11_of m c main_arg10 (by decide),
    W10_of m c main_arg10 (by decide),
    W9_of m c main_arg10 (by decide),
    W8_of m c main_arg10 (by decide),
    W7_of m c main_arg10 (by decide),
    W6_of m c main_arg10 (by decide),
    W5_of m c main_arg10 (by decide),
    W4_of m c main_arg10 (by decide),
    W3_of m c main_arg10 (by decide),
    W2_of m c main_arg10 (by decide),
    W1_of m c main_arg10 (by decide)]
theorem keep_main_arg11_41 : W41 m c (Proc.devRef .tc main_arg11) = W0 m c (Proc.devRef .tc main_arg11) := by
  rw [W41_of m c main_arg11 (by decide),
    W40_of m c main_arg11 (by decide),
    W39_of m c main_arg11 (by decide),
    W38_of m c main_arg11 (by decide),
    W37_of m c main_arg11 (by decide),
    W36_of m c main_arg11 (by decide),
    W35_of m c main_arg11 (by decide),
    W34_of m c main_arg11 (by decide),
    W33_of m c main_arg11 (by decide),
    W32_of m c main_arg11 (by decide),
    W31_of m c main_arg11 (by decide),
    W30_of m c main_arg11 (by decide),
    W29_of m c main_arg11 (by decide),
    W28_of m c main_arg11 (by decide),
    W27_of m c main_arg11 (by decide),
    W26_of m c main_arg11 (by decide),
    W25_of m c main_arg11 (by decide),
    W24_of m c main_arg11 (by decide),
    W23_of m c main_arg11 (by decide),
    W22_of m c main_arg11 (by decide),
    W21_of m c main_arg11 (by decide),
    W20_of m c main_arg11 (by decide),
    W19_of m c main_arg11 (by decide),
    W18_of m c main_arg11 (by decide),
    W17_of m c main_arg11 (by decide),
    W16_of m c main_arg11 (by decide),
    W15_of m c main_arg11 (by decide),
    W14_of m c main_arg11 (by decide),
    W13_of m c main_arg11 (by decide),
    W12_of m c main_arg11 (by decide),
    W11_of m c main_arg11 (by decide),
    W10_of m c main_arg11 (by decide),
    W9_of m c main_arg11 (by decide),
    W8_of m c main_arg11 (by decide),
    W7_of m c main_arg11 (by decide),
    W6_of m c main_arg11 (by decide),
    W5_of m c main_arg11 (by decide),
    W4_of m c main_arg11 (by decide),
    W3_of m c main_arg11 (by decide),
    W2_of m c main_arg11 (by decide),
    W1_of m c main_arg11 (by decide)]
theorem keep_main_v51_43 : W43 m c (Proc.devRef .tc main_v51) = W39 m c (Proc.devRef .tc main_v51) := by
  rw [W43_of m c main_v51 (by decide),
    W42_of m c main_v51 (by decide),
    W41_of m c main_v51 (by decide),
    W40_of m c main_v51 (by decide)]
theorem keep_main_arg12_44 : W44 m c (Proc.devRef .tc main_arg12) = W0 m c (Proc.devRef .tc main_arg12) := by
  rw [W44_of m c main_arg12 (by decide),
    W43_of m c main_arg12 (by decide),
    W42_of m c main_arg12 (by decide),
    W41_of m c main_arg12 (by decide),
    W40_of m c main_arg12 (by decide),
    W39_of m c main_arg12 (by decide),
    W38_of m c main_arg12 (by decide),
    W37_of m c main_arg12 (by decide),
    W36_of m c main_arg12 (by decide),
    W35_of m c main_arg12 (by decide),
    W34_of m c main_arg12 (by decide),
    W33_of m c main_arg12 (by decide),
    W32_of m c main_arg12 (by decide),
    W31_of m c main_arg12 (by decide),
    W30_of m c main_arg12 (by decide),
    W29_of m c main_arg12 (by decide),
    W28_of m c main_arg12 (by decide),
    W27_of m c main_arg12 (by decide),
    W26_of m c main_arg12 (by decide),
    W25_of m c main_arg12 (by decide),
    W24_of m c main_arg12 (by decide),
    W23_of m c main_arg12 (by decide),
    W22_of m c main_arg12 (by decide),
    W21_of m c main_arg12 (by decide),
    W20_of m c main_arg12 (by decide),
    W19_of m c main_arg12 (by decide),
    W18_of m c main_arg12 (by decide),
    W17_of m c main_arg12 (by decide),
    W16_of m c main_arg12 (by decide),
    W15_of m c main_arg12 (by decide),
    W14_of m c main_arg12 (by decide),
    W13_of m c main_arg12 (by decide),
    W12_of m c main_arg12 (by decide),
    W11_of m c main_arg12 (by decide),
    W10_of m c main_arg12 (by decide),
    W9_of m c main_arg12 (by decide),
    W8_of m c main_arg12 (by decide),
    W7_of m c main_arg12 (by decide),
    W6_of m c main_arg12 (by decide),
    W5_of m c main_arg12 (by decide),
    W4_of m c main_arg12 (by decide),
    W3_of m c main_arg12 (by decide),
    W2_of m c main_arg12 (by decide),
    W1_of m c main_arg12 (by decide)]
theorem keep_main_arg13_44 : W44 m c (Proc.devRef .tc main_arg13) = W0 m c (Proc.devRef .tc main_arg13) := by
  rw [W44_of m c main_arg13 (by decide),
    W43_of m c main_arg13 (by decide),
    W42_of m c main_arg13 (by decide),
    W41_of m c main_arg13 (by decide),
    W40_of m c main_arg13 (by decide),
    W39_of m c main_arg13 (by decide),
    W38_of m c main_arg13 (by decide),
    W37_of m c main_arg13 (by decide),
    W36_of m c main_arg13 (by decide),
    W35_of m c main_arg13 (by decide),
    W34_of m c main_arg13 (by decide),
    W33_of m c main_arg13 (by decide),
    W32_of m c main_arg13 (by decide),
    W31_of m c main_arg13 (by decide),
    W30_of m c main_arg13 (by decide),
    W29_of m c main_arg13 (by decide),
    W28_of m c main_arg13 (by decide),
    W27_of m c main_arg13 (by decide),
    W26_of m c main_arg13 (by decide),
    W25_of m c main_arg13 (by decide),
    W24_of m c main_arg13 (by decide),
    W23_of m c main_arg13 (by decide),
    W22_of m c main_arg13 (by decide),
    W21_of m c main_arg13 (by decide),
    W20_of m c main_arg13 (by decide),
    W19_of m c main_arg13 (by decide),
    W18_of m c main_arg13 (by decide),
    W17_of m c main_arg13 (by decide),
    W16_of m c main_arg13 (by decide),
    W15_of m c main_arg13 (by decide),
    W14_of m c main_arg13 (by decide),
    W13_of m c main_arg13 (by decide),
    W12_of m c main_arg13 (by decide),
    W11_of m c main_arg13 (by decide),
    W10_of m c main_arg13 (by decide),
    W9_of m c main_arg13 (by decide),
    W8_of m c main_arg13 (by decide),
    W7_of m c main_arg13 (by decide),
    W6_of m c main_arg13 (by decide),
    W5_of m c main_arg13 (by decide),
    W4_of m c main_arg13 (by decide),
    W3_of m c main_arg13 (by decide),
    W2_of m c main_arg13 (by decide),
    W1_of m c main_arg13 (by decide)]
theorem keep_main_v53_46 : W46 m c (Proc.devRef .tc main_v53) = W42 m c (Proc.devRef .tc main_v53) := by
  rw [W46_of m c main_v53 (by decide),
    W45_of m c main_v53 (by decide),
    W44_of m c main_v53 (by decide),
    W43_of m c main_v53 (by decide)]
theorem keep_main_arg12_47 : W47 m c (Proc.devRef .tc main_arg12) = W0 m c (Proc.devRef .tc main_arg12) := by
  rw [W47_of m c main_arg12 (by decide),
    W46_of m c main_arg12 (by decide),
    W45_of m c main_arg12 (by decide),
    W44_of m c main_arg12 (by decide),
    W43_of m c main_arg12 (by decide),
    W42_of m c main_arg12 (by decide),
    W41_of m c main_arg12 (by decide),
    W40_of m c main_arg12 (by decide),
    W39_of m c main_arg12 (by decide),
    W38_of m c main_arg12 (by decide),
    W37_of m c main_arg12 (by decide),
    W36_of m c main_arg12 (by decide),
    W35_of m c main_arg12 (by decide),
    W34_of m c main_arg12 (by decide),
    W33_of m c main_arg12 (by decide),
    W32_of m c main_arg12 (by decide),
    W31_of m c main_arg12 (by decide),
    W30_of m c main_arg12 (by decide),
    W29_of m c main_arg12 (by decide),
    W28_of m c main_arg12 (by decide),
    W27_of m c main_arg12 (by decide),
    W26_of m c main_arg12 (by decide),
    W25_of m c main_arg12 (by decide),
    W24_of m c main_arg12 (by decide),
    W23_of m c main_arg12 (by decide),
    W22_of m c main_arg12 (by decide),
    W21_of m c main_arg12 (by decide),
    W20_of m c main_arg12 (by decide),
    W19_of m c main_arg12 (by decide),
    W18_of m c main_arg12 (by decide),
    W17_of m c main_arg12 (by decide),
    W16_of m c main_arg12 (by decide),
    W15_of m c main_arg12 (by decide),
    W14_of m c main_arg12 (by decide),
    W13_of m c main_arg12 (by decide),
    W12_of m c main_arg12 (by decide),
    W11_of m c main_arg12 (by decide),
    W10_of m c main_arg12 (by decide),
    W9_of m c main_arg12 (by decide),
    W8_of m c main_arg12 (by decide),
    W7_of m c main_arg12 (by decide),
    W6_of m c main_arg12 (by decide),
    W5_of m c main_arg12 (by decide),
    W4_of m c main_arg12 (by decide),
    W3_of m c main_arg12 (by decide),
    W2_of m c main_arg12 (by decide),
    W1_of m c main_arg12 (by decide)]
theorem keep_main_arg13_47 : W47 m c (Proc.devRef .tc main_arg13) = W0 m c (Proc.devRef .tc main_arg13) := by
  rw [W47_of m c main_arg13 (by decide),
    W46_of m c main_arg13 (by decide),
    W45_of m c main_arg13 (by decide),
    W44_of m c main_arg13 (by decide),
    W43_of m c main_arg13 (by decide),
    W42_of m c main_arg13 (by decide),
    W41_of m c main_arg13 (by decide),
    W40_of m c main_arg13 (by decide),
    W39_of m c main_arg13 (by decide),
    W38_of m c main_arg13 (by decide),
    W37_of m c main_arg13 (by decide),
    W36_of m c main_arg13 (by decide),
    W35_of m c main_arg13 (by decide),
    W34_of m c main_arg13 (by decide),
    W33_of m c main_arg13 (by decide),
    W32_of m c main_arg13 (by decide),
    W31_of m c main_arg13 (by decide),
    W30_of m c main_arg13 (by decide),
    W29_of m c main_arg13 (by decide),
    W28_of m c main_arg13 (by decide),
    W27_of m c main_arg13 (by decide),
    W26_of m c main_arg13 (by decide),
    W25_of m c main_arg13 (by decide),
    W24_of m c main_arg13 (by decide),
    W23_of m c main_arg13 (by decide),
    W22_of m c main_arg13 (by decide),
    W21_of m c main_arg13 (by decide),
    W20_of m c main_arg13 (by decide),
    W19_of m c main_arg13 (by decide),
    W18_of m c main_arg13 (by decide),
    W17_of m c main_arg13 (by decide),
    W16_of m c main_arg13 (by decide),
    W15_of m c main_arg13 (by decide),
    W14_of m c main_arg13 (by decide),
    W13_of m c main_arg13 (by decide),
    W12_of m c main_arg13 (by decide),
    W11_of m c main_arg13 (by decide),
    W10_of m c main_arg13 (by decide),
    W9_of m c main_arg13 (by decide),
    W8_of m c main_arg13 (by decide),
    W7_of m c main_arg13 (by decide),
    W6_of m c main_arg13 (by decide),
    W5_of m c main_arg13 (by decide),
    W4_of m c main_arg13 (by decide),
    W3_of m c main_arg13 (by decide),
    W2_of m c main_arg13 (by decide),
    W1_of m c main_arg13 (by decide)]
theorem keep_main_v55_49 : W49 m c (Proc.devRef .tc main_v55) = W45 m c (Proc.devRef .tc main_v55) := by
  rw [W49_of m c main_v55 (by decide),
    W48_of m c main_v55 (by decide),
    W47_of m c main_v55 (by decide),
    W46_of m c main_v55 (by decide)]
theorem keep_main_arg14_50 : W50 m c (Proc.devRef .tc main_arg14) = W0 m c (Proc.devRef .tc main_arg14) := by
  rw [W50_of m c main_arg14 (by decide),
    W49_of m c main_arg14 (by decide),
    W48_of m c main_arg14 (by decide),
    W47_of m c main_arg14 (by decide),
    W46_of m c main_arg14 (by decide),
    W45_of m c main_arg14 (by decide),
    W44_of m c main_arg14 (by decide),
    W43_of m c main_arg14 (by decide),
    W42_of m c main_arg14 (by decide),
    W41_of m c main_arg14 (by decide),
    W40_of m c main_arg14 (by decide),
    W39_of m c main_arg14 (by decide),
    W38_of m c main_arg14 (by decide),
    W37_of m c main_arg14 (by decide),
    W36_of m c main_arg14 (by decide),
    W35_of m c main_arg14 (by decide),
    W34_of m c main_arg14 (by decide),
    W33_of m c main_arg14 (by decide),
    W32_of m c main_arg14 (by decide),
    W31_of m c main_arg14 (by decide),
    W30_of m c main_arg14 (by decide),
    W29_of m c main_arg14 (by decide),
    W28_of m c main_arg14 (by decide),
    W27_of m c main_arg14 (by decide),
    W26_of m c main_arg14 (by decide),
    W25_of m c main_arg14 (by decide),
    W24_of m c main_arg14 (by decide),
    W23_of m c main_arg14 (by decide),
    W22_of m c main_arg14 (by decide),
    W21_of m c main_arg14 (by decide),
    W20_of m c main_arg14 (by decide),
    W19_of m c main_arg14 (by decide),
    W18_of m c main_arg14 (by decide),
    W17_of m c main_arg14 (by decide),
    W16_of m c main_arg14 (by decide),
    W15_of m c main_arg14 (by decide),
    W14_of m c main_arg14 (by decide),
    W13_of m c main_arg14 (by decide),
    W12_of m c main_arg14 (by decide),
    W11_of m c main_arg14 (by decide),
    W10_of m c main_arg14 (by decide),
    W9_of m c main_arg14 (by decide),
    W8_of m c main_arg14 (by decide),
    W7_of m c main_arg14 (by decide),
    W6_of m c main_arg14 (by decide),
    W5_of m c main_arg14 (by decide),
    W4_of m c main_arg14 (by decide),
    W3_of m c main_arg14 (by decide),
    W2_of m c main_arg14 (by decide),
    W1_of m c main_arg14 (by decide)]
theorem keep_main_arg15_50 : W50 m c (Proc.devRef .tc main_arg15) = W0 m c (Proc.devRef .tc main_arg15) := by
  rw [W50_of m c main_arg15 (by decide),
    W49_of m c main_arg15 (by decide),
    W48_of m c main_arg15 (by decide),
    W47_of m c main_arg15 (by decide),
    W46_of m c main_arg15 (by decide),
    W45_of m c main_arg15 (by decide),
    W44_of m c main_arg15 (by decide),
    W43_of m c main_arg15 (by decide),
    W42_of m c main_arg15 (by decide),
    W41_of m c main_arg15 (by decide),
    W40_of m c main_arg15 (by decide),
    W39_of m c main_arg15 (by decide),
    W38_of m c main_arg15 (by decide),
    W37_of m c main_arg15 (by decide),
    W36_of m c main_arg15 (by decide),
    W35_of m c main_arg15 (by decide),
    W34_of m c main_arg15 (by decide),
    W33_of m c main_arg15 (by decide),
    W32_of m c main_arg15 (by decide),
    W31_of m c main_arg15 (by decide),
    W30_of m c main_arg15 (by decide),
    W29_of m c main_arg15 (by decide),
    W28_of m c main_arg15 (by decide),
    W27_of m c main_arg15 (by decide),
    W26_of m c main_arg15 (by decide),
    W25_of m c main_arg15 (by decide),
    W24_of m c main_arg15 (by decide),
    W23_of m c main_arg15 (by decide),
    W22_of m c main_arg15 (by decide),
    W21_of m c main_arg15 (by decide),
    W20_of m c main_arg15 (by decide),
    W19_of m c main_arg15 (by decide),
    W18_of m c main_arg15 (by decide),
    W17_of m c main_arg15 (by decide),
    W16_of m c main_arg15 (by decide),
    W15_of m c main_arg15 (by decide),
    W14_of m c main_arg15 (by decide),
    W13_of m c main_arg15 (by decide),
    W12_of m c main_arg15 (by decide),
    W11_of m c main_arg15 (by decide),
    W10_of m c main_arg15 (by decide),
    W9_of m c main_arg15 (by decide),
    W8_of m c main_arg15 (by decide),
    W7_of m c main_arg15 (by decide),
    W6_of m c main_arg15 (by decide),
    W5_of m c main_arg15 (by decide),
    W4_of m c main_arg15 (by decide),
    W3_of m c main_arg15 (by decide),
    W2_of m c main_arg15 (by decide),
    W1_of m c main_arg15 (by decide)]
theorem keep_main_v57_52 : W52 m c (Proc.devRef .tc main_v57) = W48 m c (Proc.devRef .tc main_v57) := by
  rw [W52_of m c main_v57 (by decide),
    W51_of m c main_v57 (by decide),
    W50_of m c main_v57 (by decide),
    W49_of m c main_v57 (by decide)]
theorem keep_main_arg14_53 : W53 m c (Proc.devRef .tc main_arg14) = W0 m c (Proc.devRef .tc main_arg14) := by
  rw [W53_of m c main_arg14 (by decide),
    W52_of m c main_arg14 (by decide),
    W51_of m c main_arg14 (by decide),
    W50_of m c main_arg14 (by decide),
    W49_of m c main_arg14 (by decide),
    W48_of m c main_arg14 (by decide),
    W47_of m c main_arg14 (by decide),
    W46_of m c main_arg14 (by decide),
    W45_of m c main_arg14 (by decide),
    W44_of m c main_arg14 (by decide),
    W43_of m c main_arg14 (by decide),
    W42_of m c main_arg14 (by decide),
    W41_of m c main_arg14 (by decide),
    W40_of m c main_arg14 (by decide),
    W39_of m c main_arg14 (by decide),
    W38_of m c main_arg14 (by decide),
    W37_of m c main_arg14 (by decide),
    W36_of m c main_arg14 (by decide),
    W35_of m c main_arg14 (by decide),
    W34_of m c main_arg14 (by decide),
    W33_of m c main_arg14 (by decide),
    W32_of m c main_arg14 (by decide),
    W31_of m c main_arg14 (by decide),
    W30_of m c main_arg14 (by decide),
    W29_of m c main_arg14 (by decide),
    W28_of m c main_arg14 (by decide),
    W27_of m c main_arg14 (by decide),
    W26_of m c main_arg14 (by decide),
    W25_of m c main_arg14 (by decide),
    W24_of m c main_arg14 (by decide),
    W23_of m c main_arg14 (by decide),
    W22_of m c main_arg14 (by decide),
    W21_of m c main_arg14 (by decide),
    W20_of m c main_arg14 (by decide),
    W19_of m c main_arg14 (by decide),
    W18_of m c main_arg14 (by decide),
    W17_of m c main_arg14 (by decide),
    W16_of m c main_arg14 (by decide),
    W15_of m c main_arg14 (by decide),
    W14_of m c main_arg14 (by decide),
    W13_of m c main_arg14 (by decide),
    W12_of m c main_arg14 (by decide),
    W11_of m c main_arg14 (by decide),
    W10_of m c main_arg14 (by decide),
    W9_of m c main_arg14 (by decide),
    W8_of m c main_arg14 (by decide),
    W7_of m c main_arg14 (by decide),
    W6_of m c main_arg14 (by decide),
    W5_of m c main_arg14 (by decide),
    W4_of m c main_arg14 (by decide),
    W3_of m c main_arg14 (by decide),
    W2_of m c main_arg14 (by decide),
    W1_of m c main_arg14 (by decide)]
theorem keep_main_arg15_53 : W53 m c (Proc.devRef .tc main_arg15) = W0 m c (Proc.devRef .tc main_arg15) := by
  rw [W53_of m c main_arg15 (by decide),
    W52_of m c main_arg15 (by decide),
    W51_of m c main_arg15 (by decide),
    W50_of m c main_arg15 (by decide),
    W49_of m c main_arg15 (by decide),
    W48_of m c main_arg15 (by decide),
    W47_of m c main_arg15 (by decide),
    W46_of m c main_arg15 (by decide),
    W45_of m c main_arg15 (by decide),
    W44_of m c main_arg15 (by decide),
    W43_of m c main_arg15 (by decide),
    W42_of m c main_arg15 (by decide),
    W41_of m c main_arg15 (by decide),
    W40_of m c main_arg15 (by decide),
    W39_of m c main_arg15 (by decide),
    W38_of m c main_arg15 (by decide),
    W37_of m c main_arg15 (by decide),
    W36_of m c main_arg15 (by decide),
    W35_of m c main_arg15 (by decide),
    W34_of m c main_arg15 (by decide),
    W33_of m c main_arg15 (by decide),
    W32_of m c main_arg15 (by decide),
    W31_of m c main_arg15 (by decide),
    W30_of m c main_arg15 (by decide),
    W29_of m c main_arg15 (by decide),
    W28_of m c main_arg15 (by decide),
    W27_of m c main_arg15 (by decide),
    W26_of m c main_arg15 (by decide),
    W25_of m c main_arg15 (by decide),
    W24_of m c main_arg15 (by decide),
    W23_of m c main_arg15 (by decide),
    W22_of m c main_arg15 (by decide),
    W21_of m c main_arg15 (by decide),
    W20_of m c main_arg15 (by decide),
    W19_of m c main_arg15 (by decide),
    W18_of m c main_arg15 (by decide),
    W17_of m c main_arg15 (by decide),
    W16_of m c main_arg15 (by decide),
    W15_of m c main_arg15 (by decide),
    W14_of m c main_arg15 (by decide),
    W13_of m c main_arg15 (by decide),
    W12_of m c main_arg15 (by decide),
    W11_of m c main_arg15 (by decide),
    W10_of m c main_arg15 (by decide),
    W9_of m c main_arg15 (by decide),
    W8_of m c main_arg15 (by decide),
    W7_of m c main_arg15 (by decide),
    W6_of m c main_arg15 (by decide),
    W5_of m c main_arg15 (by decide),
    W4_of m c main_arg15 (by decide),
    W3_of m c main_arg15 (by decide),
    W2_of m c main_arg15 (by decide),
    W1_of m c main_arg15 (by decide)]
theorem keep_main_v59_54 : W54 m c (Proc.devRef .tc main_v59) = W51 m c (Proc.devRef .tc main_v59) := by
  rw [W54_of m c main_v59 (by decide),
    W53_of m c main_v59 (by decide),
    W52_of m c main_v59 (by decide)]
theorem keep_main_v45_56 : W56 m c (Proc.devRef .tc main_v45) = W33 m c (Proc.devRef .tc main_v45) := by
  rw [W56_of m c main_v45 (by decide),
    W55_of m c main_v45 (by decide),
    W54_of m c main_v45 (by decide),
    W53_of m c main_v45 (by decide),
    W52_of m c main_v45 (by decide),
    W51_of m c main_v45 (by decide),
    W50_of m c main_v45 (by decide),
    W49_of m c main_v45 (by decide),
    W48_of m c main_v45 (by decide),
    W47_of m c main_v45 (by decide),
    W46_of m c main_v45 (by decide),
    W45_of m c main_v45 (by decide),
    W44_of m c main_v45 (by decide),
    W43_of m c main_v45 (by decide),
    W42_of m c main_v45 (by decide),
    W41_of m c main_v45 (by decide),
    W40_of m c main_v45 (by decide),
    W39_of m c main_v45 (by decide),
    W38_of m c main_v45 (by decide),
    W37_of m c main_v45 (by decide),
    W36_of m c main_v45 (by decide),
    W35_of m c main_v45 (by decide),
    W34_of m c main_v45 (by decide)]
theorem keep_main_v59_56 : W56 m c (Proc.devRef .tc main_v59) = W51 m c (Proc.devRef .tc main_v59) := by
  rw [W56_of m c main_v59 (by decide),
    W55_of m c main_v59 (by decide),
    W54_of m c main_v59 (by decide),
    W53_of m c main_v59 (by decide),
    W52_of m c main_v59 (by decide)]
theorem keep_main_v61_58 : W58 m c (Proc.devRef .tc main_v61) = W54 m c (Proc.devRef .tc main_v61) := by
  rw [W58_of m c main_v61 (by decide),
    W57_of m c main_v61 (by decide),
    W56_of m c main_v61 (by decide),
    W55_of m c main_v61 (by decide)]
theorem keep_main_v69_61 : W61 m c (Proc.devRef .tc main_v69) = W58 m c (Proc.devRef .tc main_v69) := by
  rw [W61_of m c main_v69 (by decide),
    W60_of m c main_v69 (by decide),
    W59_of m c main_v69 (by decide)]
theorem keep_main_arg16_62 : W62 m c (Proc.devRef .tc main_arg16) = W0 m c (Proc.devRef .tc main_arg16) := by
  rw [W62_of m c main_arg16 (by decide),
    W61_of m c main_arg16 (by decide),
    W60_of m c main_arg16 (by decide),
    W59_of m c main_arg16 (by decide),
    W58_of m c main_arg16 (by decide),
    W57_of m c main_arg16 (by decide),
    W56_of m c main_arg16 (by decide),
    W55_of m c main_arg16 (by decide),
    W54_of m c main_arg16 (by decide),
    W53_of m c main_arg16 (by decide),
    W52_of m c main_arg16 (by decide),
    W51_of m c main_arg16 (by decide),
    W50_of m c main_arg16 (by decide),
    W49_of m c main_arg16 (by decide),
    W48_of m c main_arg16 (by decide),
    W47_of m c main_arg16 (by decide),
    W46_of m c main_arg16 (by decide),
    W45_of m c main_arg16 (by decide),
    W44_of m c main_arg16 (by decide),
    W43_of m c main_arg16 (by decide),
    W42_of m c main_arg16 (by decide),
    W41_of m c main_arg16 (by decide),
    W40_of m c main_arg16 (by decide),
    W39_of m c main_arg16 (by decide),
    W38_of m c main_arg16 (by decide),
    W37_of m c main_arg16 (by decide),
    W36_of m c main_arg16 (by decide),
    W35_of m c main_arg16 (by decide),
    W34_of m c main_arg16 (by decide),
    W33_of m c main_arg16 (by decide),
    W32_of m c main_arg16 (by decide),
    W31_of m c main_arg16 (by decide),
    W30_of m c main_arg16 (by decide),
    W29_of m c main_arg16 (by decide),
    W28_of m c main_arg16 (by decide),
    W27_of m c main_arg16 (by decide),
    W26_of m c main_arg16 (by decide),
    W25_of m c main_arg16 (by decide),
    W24_of m c main_arg16 (by decide),
    W23_of m c main_arg16 (by decide),
    W22_of m c main_arg16 (by decide),
    W21_of m c main_arg16 (by decide),
    W20_of m c main_arg16 (by decide),
    W19_of m c main_arg16 (by decide),
    W18_of m c main_arg16 (by decide),
    W17_of m c main_arg16 (by decide),
    W16_of m c main_arg16 (by decide),
    W15_of m c main_arg16 (by decide),
    W14_of m c main_arg16 (by decide),
    W13_of m c main_arg16 (by decide),
    W12_of m c main_arg16 (by decide),
    W11_of m c main_arg16 (by decide),
    W10_of m c main_arg16 (by decide),
    W9_of m c main_arg16 (by decide),
    W8_of m c main_arg16 (by decide),
    W7_of m c main_arg16 (by decide),
    W6_of m c main_arg16 (by decide),
    W5_of m c main_arg16 (by decide),
    W4_of m c main_arg16 (by decide),
    W3_of m c main_arg16 (by decide),
    W2_of m c main_arg16 (by decide),
    W1_of m c main_arg16 (by decide)]
theorem keep_main_arg17_62 : W62 m c (Proc.devRef .tc main_arg17) = W0 m c (Proc.devRef .tc main_arg17) := by
  rw [W62_of m c main_arg17 (by decide),
    W61_of m c main_arg17 (by decide),
    W60_of m c main_arg17 (by decide),
    W59_of m c main_arg17 (by decide),
    W58_of m c main_arg17 (by decide),
    W57_of m c main_arg17 (by decide),
    W56_of m c main_arg17 (by decide),
    W55_of m c main_arg17 (by decide),
    W54_of m c main_arg17 (by decide),
    W53_of m c main_arg17 (by decide),
    W52_of m c main_arg17 (by decide),
    W51_of m c main_arg17 (by decide),
    W50_of m c main_arg17 (by decide),
    W49_of m c main_arg17 (by decide),
    W48_of m c main_arg17 (by decide),
    W47_of m c main_arg17 (by decide),
    W46_of m c main_arg17 (by decide),
    W45_of m c main_arg17 (by decide),
    W44_of m c main_arg17 (by decide),
    W43_of m c main_arg17 (by decide),
    W42_of m c main_arg17 (by decide),
    W41_of m c main_arg17 (by decide),
    W40_of m c main_arg17 (by decide),
    W39_of m c main_arg17 (by decide),
    W38_of m c main_arg17 (by decide),
    W37_of m c main_arg17 (by decide),
    W36_of m c main_arg17 (by decide),
    W35_of m c main_arg17 (by decide),
    W34_of m c main_arg17 (by decide),
    W33_of m c main_arg17 (by decide),
    W32_of m c main_arg17 (by decide),
    W31_of m c main_arg17 (by decide),
    W30_of m c main_arg17 (by decide),
    W29_of m c main_arg17 (by decide),
    W28_of m c main_arg17 (by decide),
    W27_of m c main_arg17 (by decide),
    W26_of m c main_arg17 (by decide),
    W25_of m c main_arg17 (by decide),
    W24_of m c main_arg17 (by decide),
    W23_of m c main_arg17 (by decide),
    W22_of m c main_arg17 (by decide),
    W21_of m c main_arg17 (by decide),
    W20_of m c main_arg17 (by decide),
    W19_of m c main_arg17 (by decide),
    W18_of m c main_arg17 (by decide),
    W17_of m c main_arg17 (by decide),
    W16_of m c main_arg17 (by decide),
    W15_of m c main_arg17 (by decide),
    W14_of m c main_arg17 (by decide),
    W13_of m c main_arg17 (by decide),
    W12_of m c main_arg17 (by decide),
    W11_of m c main_arg17 (by decide),
    W10_of m c main_arg17 (by decide),
    W9_of m c main_arg17 (by decide),
    W8_of m c main_arg17 (by decide),
    W7_of m c main_arg17 (by decide),
    W6_of m c main_arg17 (by decide),
    W5_of m c main_arg17 (by decide),
    W4_of m c main_arg17 (by decide),
    W3_of m c main_arg17 (by decide),
    W2_of m c main_arg17 (by decide),
    W1_of m c main_arg17 (by decide)]
theorem keep_main_v71_64 : W64 m c (Proc.devRef .tc main_v71) = W60 m c (Proc.devRef .tc main_v71) := by
  rw [W64_of m c main_v71 (by decide),
    W63_of m c main_v71 (by decide),
    W62_of m c main_v71 (by decide),
    W61_of m c main_v71 (by decide)]
theorem keep_main_arg16_65 : W65 m c (Proc.devRef .tc main_arg16) = W0 m c (Proc.devRef .tc main_arg16) := by
  rw [W65_of m c main_arg16 (by decide),
    W64_of m c main_arg16 (by decide),
    W63_of m c main_arg16 (by decide),
    W62_of m c main_arg16 (by decide),
    W61_of m c main_arg16 (by decide),
    W60_of m c main_arg16 (by decide),
    W59_of m c main_arg16 (by decide),
    W58_of m c main_arg16 (by decide),
    W57_of m c main_arg16 (by decide),
    W56_of m c main_arg16 (by decide),
    W55_of m c main_arg16 (by decide),
    W54_of m c main_arg16 (by decide),
    W53_of m c main_arg16 (by decide),
    W52_of m c main_arg16 (by decide),
    W51_of m c main_arg16 (by decide),
    W50_of m c main_arg16 (by decide),
    W49_of m c main_arg16 (by decide),
    W48_of m c main_arg16 (by decide),
    W47_of m c main_arg16 (by decide),
    W46_of m c main_arg16 (by decide),
    W45_of m c main_arg16 (by decide),
    W44_of m c main_arg16 (by decide),
    W43_of m c main_arg16 (by decide),
    W42_of m c main_arg16 (by decide),
    W41_of m c main_arg16 (by decide),
    W40_of m c main_arg16 (by decide),
    W39_of m c main_arg16 (by decide),
    W38_of m c main_arg16 (by decide),
    W37_of m c main_arg16 (by decide),
    W36_of m c main_arg16 (by decide),
    W35_of m c main_arg16 (by decide),
    W34_of m c main_arg16 (by decide),
    W33_of m c main_arg16 (by decide),
    W32_of m c main_arg16 (by decide),
    W31_of m c main_arg16 (by decide),
    W30_of m c main_arg16 (by decide),
    W29_of m c main_arg16 (by decide),
    W28_of m c main_arg16 (by decide),
    W27_of m c main_arg16 (by decide),
    W26_of m c main_arg16 (by decide),
    W25_of m c main_arg16 (by decide),
    W24_of m c main_arg16 (by decide),
    W23_of m c main_arg16 (by decide),
    W22_of m c main_arg16 (by decide),
    W21_of m c main_arg16 (by decide),
    W20_of m c main_arg16 (by decide),
    W19_of m c main_arg16 (by decide),
    W18_of m c main_arg16 (by decide),
    W17_of m c main_arg16 (by decide),
    W16_of m c main_arg16 (by decide),
    W15_of m c main_arg16 (by decide),
    W14_of m c main_arg16 (by decide),
    W13_of m c main_arg16 (by decide),
    W12_of m c main_arg16 (by decide),
    W11_of m c main_arg16 (by decide),
    W10_of m c main_arg16 (by decide),
    W9_of m c main_arg16 (by decide),
    W8_of m c main_arg16 (by decide),
    W7_of m c main_arg16 (by decide),
    W6_of m c main_arg16 (by decide),
    W5_of m c main_arg16 (by decide),
    W4_of m c main_arg16 (by decide),
    W3_of m c main_arg16 (by decide),
    W2_of m c main_arg16 (by decide),
    W1_of m c main_arg16 (by decide)]
theorem keep_main_arg17_65 : W65 m c (Proc.devRef .tc main_arg17) = W0 m c (Proc.devRef .tc main_arg17) := by
  rw [W65_of m c main_arg17 (by decide),
    W64_of m c main_arg17 (by decide),
    W63_of m c main_arg17 (by decide),
    W62_of m c main_arg17 (by decide),
    W61_of m c main_arg17 (by decide),
    W60_of m c main_arg17 (by decide),
    W59_of m c main_arg17 (by decide),
    W58_of m c main_arg17 (by decide),
    W57_of m c main_arg17 (by decide),
    W56_of m c main_arg17 (by decide),
    W55_of m c main_arg17 (by decide),
    W54_of m c main_arg17 (by decide),
    W53_of m c main_arg17 (by decide),
    W52_of m c main_arg17 (by decide),
    W51_of m c main_arg17 (by decide),
    W50_of m c main_arg17 (by decide),
    W49_of m c main_arg17 (by decide),
    W48_of m c main_arg17 (by decide),
    W47_of m c main_arg17 (by decide),
    W46_of m c main_arg17 (by decide),
    W45_of m c main_arg17 (by decide),
    W44_of m c main_arg17 (by decide),
    W43_of m c main_arg17 (by decide),
    W42_of m c main_arg17 (by decide),
    W41_of m c main_arg17 (by decide),
    W40_of m c main_arg17 (by decide),
    W39_of m c main_arg17 (by decide),
    W38_of m c main_arg17 (by decide),
    W37_of m c main_arg17 (by decide),
    W36_of m c main_arg17 (by decide),
    W35_of m c main_arg17 (by decide),
    W34_of m c main_arg17 (by decide),
    W33_of m c main_arg17 (by decide),
    W32_of m c main_arg17 (by decide),
    W31_of m c main_arg17 (by decide),
    W30_of m c main_arg17 (by decide),
    W29_of m c main_arg17 (by decide),
    W28_of m c main_arg17 (by decide),
    W27_of m c main_arg17 (by decide),
    W26_of m c main_arg17 (by decide),
    W25_of m c main_arg17 (by decide),
    W24_of m c main_arg17 (by decide),
    W23_of m c main_arg17 (by decide),
    W22_of m c main_arg17 (by decide),
    W21_of m c main_arg17 (by decide),
    W20_of m c main_arg17 (by decide),
    W19_of m c main_arg17 (by decide),
    W18_of m c main_arg17 (by decide),
    W17_of m c main_arg17 (by decide),
    W16_of m c main_arg17 (by decide),
    W15_of m c main_arg17 (by decide),
    W14_of m c main_arg17 (by decide),
    W13_of m c main_arg17 (by decide),
    W12_of m c main_arg17 (by decide),
    W11_of m c main_arg17 (by decide),
    W10_of m c main_arg17 (by decide),
    W9_of m c main_arg17 (by decide),
    W8_of m c main_arg17 (by decide),
    W7_of m c main_arg17 (by decide),
    W6_of m c main_arg17 (by decide),
    W5_of m c main_arg17 (by decide),
    W4_of m c main_arg17 (by decide),
    W3_of m c main_arg17 (by decide),
    W2_of m c main_arg17 (by decide),
    W1_of m c main_arg17 (by decide)]
theorem keep_main_v73_67 : W67 m c (Proc.devRef .tc main_v73) = W63 m c (Proc.devRef .tc main_v73) := by
  rw [W67_of m c main_v73 (by decide),
    W66_of m c main_v73 (by decide),
    W65_of m c main_v73 (by decide),
    W64_of m c main_v73 (by decide)]
theorem keep_main_arg18_68 : W68 m c (Proc.devRef .tc main_arg18) = W0 m c (Proc.devRef .tc main_arg18) := by
  rw [W68_of m c main_arg18 (by decide),
    W67_of m c main_arg18 (by decide),
    W66_of m c main_arg18 (by decide),
    W65_of m c main_arg18 (by decide),
    W64_of m c main_arg18 (by decide),
    W63_of m c main_arg18 (by decide),
    W62_of m c main_arg18 (by decide),
    W61_of m c main_arg18 (by decide),
    W60_of m c main_arg18 (by decide),
    W59_of m c main_arg18 (by decide),
    W58_of m c main_arg18 (by decide),
    W57_of m c main_arg18 (by decide),
    W56_of m c main_arg18 (by decide),
    W55_of m c main_arg18 (by decide),
    W54_of m c main_arg18 (by decide),
    W53_of m c main_arg18 (by decide),
    W52_of m c main_arg18 (by decide),
    W51_of m c main_arg18 (by decide),
    W50_of m c main_arg18 (by decide),
    W49_of m c main_arg18 (by decide),
    W48_of m c main_arg18 (by decide),
    W47_of m c main_arg18 (by decide),
    W46_of m c main_arg18 (by decide),
    W45_of m c main_arg18 (by decide),
    W44_of m c main_arg18 (by decide),
    W43_of m c main_arg18 (by decide),
    W42_of m c main_arg18 (by decide),
    W41_of m c main_arg18 (by decide),
    W40_of m c main_arg18 (by decide),
    W39_of m c main_arg18 (by decide),
    W38_of m c main_arg18 (by decide),
    W37_of m c main_arg18 (by decide),
    W36_of m c main_arg18 (by decide),
    W35_of m c main_arg18 (by decide),
    W34_of m c main_arg18 (by decide),
    W33_of m c main_arg18 (by decide),
    W32_of m c main_arg18 (by decide),
    W31_of m c main_arg18 (by decide),
    W30_of m c main_arg18 (by decide),
    W29_of m c main_arg18 (by decide),
    W28_of m c main_arg18 (by decide),
    W27_of m c main_arg18 (by decide),
    W26_of m c main_arg18 (by decide),
    W25_of m c main_arg18 (by decide),
    W24_of m c main_arg18 (by decide),
    W23_of m c main_arg18 (by decide),
    W22_of m c main_arg18 (by decide),
    W21_of m c main_arg18 (by decide),
    W20_of m c main_arg18 (by decide),
    W19_of m c main_arg18 (by decide),
    W18_of m c main_arg18 (by decide),
    W17_of m c main_arg18 (by decide),
    W16_of m c main_arg18 (by decide),
    W15_of m c main_arg18 (by decide),
    W14_of m c main_arg18 (by decide),
    W13_of m c main_arg18 (by decide),
    W12_of m c main_arg18 (by decide),
    W11_of m c main_arg18 (by decide),
    W10_of m c main_arg18 (by decide),
    W9_of m c main_arg18 (by decide),
    W8_of m c main_arg18 (by decide),
    W7_of m c main_arg18 (by decide),
    W6_of m c main_arg18 (by decide),
    W5_of m c main_arg18 (by decide),
    W4_of m c main_arg18 (by decide),
    W3_of m c main_arg18 (by decide),
    W2_of m c main_arg18 (by decide),
    W1_of m c main_arg18 (by decide)]
theorem keep_main_arg19_68 : W68 m c (Proc.devRef .tc main_arg19) = W0 m c (Proc.devRef .tc main_arg19) := by
  rw [W68_of m c main_arg19 (by decide),
    W67_of m c main_arg19 (by decide),
    W66_of m c main_arg19 (by decide),
    W65_of m c main_arg19 (by decide),
    W64_of m c main_arg19 (by decide),
    W63_of m c main_arg19 (by decide),
    W62_of m c main_arg19 (by decide),
    W61_of m c main_arg19 (by decide),
    W60_of m c main_arg19 (by decide),
    W59_of m c main_arg19 (by decide),
    W58_of m c main_arg19 (by decide),
    W57_of m c main_arg19 (by decide),
    W56_of m c main_arg19 (by decide),
    W55_of m c main_arg19 (by decide),
    W54_of m c main_arg19 (by decide),
    W53_of m c main_arg19 (by decide),
    W52_of m c main_arg19 (by decide),
    W51_of m c main_arg19 (by decide),
    W50_of m c main_arg19 (by decide),
    W49_of m c main_arg19 (by decide),
    W48_of m c main_arg19 (by decide),
    W47_of m c main_arg19 (by decide),
    W46_of m c main_arg19 (by decide),
    W45_of m c main_arg19 (by decide),
    W44_of m c main_arg19 (by decide),
    W43_of m c main_arg19 (by decide),
    W42_of m c main_arg19 (by decide),
    W41_of m c main_arg19 (by decide),
    W40_of m c main_arg19 (by decide),
    W39_of m c main_arg19 (by decide),
    W38_of m c main_arg19 (by decide),
    W37_of m c main_arg19 (by decide),
    W36_of m c main_arg19 (by decide),
    W35_of m c main_arg19 (by decide),
    W34_of m c main_arg19 (by decide),
    W33_of m c main_arg19 (by decide),
    W32_of m c main_arg19 (by decide),
    W31_of m c main_arg19 (by decide),
    W30_of m c main_arg19 (by decide),
    W29_of m c main_arg19 (by decide),
    W28_of m c main_arg19 (by decide),
    W27_of m c main_arg19 (by decide),
    W26_of m c main_arg19 (by decide),
    W25_of m c main_arg19 (by decide),
    W24_of m c main_arg19 (by decide),
    W23_of m c main_arg19 (by decide),
    W22_of m c main_arg19 (by decide),
    W21_of m c main_arg19 (by decide),
    W20_of m c main_arg19 (by decide),
    W19_of m c main_arg19 (by decide),
    W18_of m c main_arg19 (by decide),
    W17_of m c main_arg19 (by decide),
    W16_of m c main_arg19 (by decide),
    W15_of m c main_arg19 (by decide),
    W14_of m c main_arg19 (by decide),
    W13_of m c main_arg19 (by decide),
    W12_of m c main_arg19 (by decide),
    W11_of m c main_arg19 (by decide),
    W10_of m c main_arg19 (by decide),
    W9_of m c main_arg19 (by decide),
    W8_of m c main_arg19 (by decide),
    W7_of m c main_arg19 (by decide),
    W6_of m c main_arg19 (by decide),
    W5_of m c main_arg19 (by decide),
    W4_of m c main_arg19 (by decide),
    W3_of m c main_arg19 (by decide),
    W2_of m c main_arg19 (by decide),
    W1_of m c main_arg19 (by decide)]
theorem keep_main_v75_70 : W70 m c (Proc.devRef .tc main_v75) = W66 m c (Proc.devRef .tc main_v75) := by
  rw [W70_of m c main_v75 (by decide),
    W69_of m c main_v75 (by decide),
    W68_of m c main_v75 (by decide),
    W67_of m c main_v75 (by decide)]
theorem keep_main_arg18_71 : W71 m c (Proc.devRef .tc main_arg18) = W0 m c (Proc.devRef .tc main_arg18) := by
  rw [W71_of m c main_arg18 (by decide),
    W70_of m c main_arg18 (by decide),
    W69_of m c main_arg18 (by decide),
    W68_of m c main_arg18 (by decide),
    W67_of m c main_arg18 (by decide),
    W66_of m c main_arg18 (by decide),
    W65_of m c main_arg18 (by decide),
    W64_of m c main_arg18 (by decide),
    W63_of m c main_arg18 (by decide),
    W62_of m c main_arg18 (by decide),
    W61_of m c main_arg18 (by decide),
    W60_of m c main_arg18 (by decide),
    W59_of m c main_arg18 (by decide),
    W58_of m c main_arg18 (by decide),
    W57_of m c main_arg18 (by decide),
    W56_of m c main_arg18 (by decide),
    W55_of m c main_arg18 (by decide),
    W54_of m c main_arg18 (by decide),
    W53_of m c main_arg18 (by decide),
    W52_of m c main_arg18 (by decide),
    W51_of m c main_arg18 (by decide),
    W50_of m c main_arg18 (by decide),
    W49_of m c main_arg18 (by decide),
    W48_of m c main_arg18 (by decide),
    W47_of m c main_arg18 (by decide),
    W46_of m c main_arg18 (by decide),
    W45_of m c main_arg18 (by decide),
    W44_of m c main_arg18 (by decide),
    W43_of m c main_arg18 (by decide),
    W42_of m c main_arg18 (by decide),
    W41_of m c main_arg18 (by decide),
    W40_of m c main_arg18 (by decide),
    W39_of m c main_arg18 (by decide),
    W38_of m c main_arg18 (by decide),
    W37_of m c main_arg18 (by decide),
    W36_of m c main_arg18 (by decide),
    W35_of m c main_arg18 (by decide),
    W34_of m c main_arg18 (by decide),
    W33_of m c main_arg18 (by decide),
    W32_of m c main_arg18 (by decide),
    W31_of m c main_arg18 (by decide),
    W30_of m c main_arg18 (by decide),
    W29_of m c main_arg18 (by decide),
    W28_of m c main_arg18 (by decide),
    W27_of m c main_arg18 (by decide),
    W26_of m c main_arg18 (by decide),
    W25_of m c main_arg18 (by decide),
    W24_of m c main_arg18 (by decide),
    W23_of m c main_arg18 (by decide),
    W22_of m c main_arg18 (by decide),
    W21_of m c main_arg18 (by decide),
    W20_of m c main_arg18 (by decide),
    W19_of m c main_arg18 (by decide),
    W18_of m c main_arg18 (by decide),
    W17_of m c main_arg18 (by decide),
    W16_of m c main_arg18 (by decide),
    W15_of m c main_arg18 (by decide),
    W14_of m c main_arg18 (by decide),
    W13_of m c main_arg18 (by decide),
    W12_of m c main_arg18 (by decide),
    W11_of m c main_arg18 (by decide),
    W10_of m c main_arg18 (by decide),
    W9_of m c main_arg18 (by decide),
    W8_of m c main_arg18 (by decide),
    W7_of m c main_arg18 (by decide),
    W6_of m c main_arg18 (by decide),
    W5_of m c main_arg18 (by decide),
    W4_of m c main_arg18 (by decide),
    W3_of m c main_arg18 (by decide),
    W2_of m c main_arg18 (by decide),
    W1_of m c main_arg18 (by decide)]
theorem keep_main_arg19_71 : W71 m c (Proc.devRef .tc main_arg19) = W0 m c (Proc.devRef .tc main_arg19) := by
  rw [W71_of m c main_arg19 (by decide),
    W70_of m c main_arg19 (by decide),
    W69_of m c main_arg19 (by decide),
    W68_of m c main_arg19 (by decide),
    W67_of m c main_arg19 (by decide),
    W66_of m c main_arg19 (by decide),
    W65_of m c main_arg19 (by decide),
    W64_of m c main_arg19 (by decide),
    W63_of m c main_arg19 (by decide),
    W62_of m c main_arg19 (by decide),
    W61_of m c main_arg19 (by decide),
    W60_of m c main_arg19 (by decide),
    W59_of m c main_arg19 (by decide),
    W58_of m c main_arg19 (by decide),
    W57_of m c main_arg19 (by decide),
    W56_of m c main_arg19 (by decide),
    W55_of m c main_arg19 (by decide),
    W54_of m c main_arg19 (by decide),
    W53_of m c main_arg19 (by decide),
    W52_of m c main_arg19 (by decide),
    W51_of m c main_arg19 (by decide),
    W50_of m c main_arg19 (by decide),
    W49_of m c main_arg19 (by decide),
    W48_of m c main_arg19 (by decide),
    W47_of m c main_arg19 (by decide),
    W46_of m c main_arg19 (by decide),
    W45_of m c main_arg19 (by decide),
    W44_of m c main_arg19 (by decide),
    W43_of m c main_arg19 (by decide),
    W42_of m c main_arg19 (by decide),
    W41_of m c main_arg19 (by decide),
    W40_of m c main_arg19 (by decide),
    W39_of m c main_arg19 (by decide),
    W38_of m c main_arg19 (by decide),
    W37_of m c main_arg19 (by decide),
    W36_of m c main_arg19 (by decide),
    W35_of m c main_arg19 (by decide),
    W34_of m c main_arg19 (by decide),
    W33_of m c main_arg19 (by decide),
    W32_of m c main_arg19 (by decide),
    W31_of m c main_arg19 (by decide),
    W30_of m c main_arg19 (by decide),
    W29_of m c main_arg19 (by decide),
    W28_of m c main_arg19 (by decide),
    W27_of m c main_arg19 (by decide),
    W26_of m c main_arg19 (by decide),
    W25_of m c main_arg19 (by decide),
    W24_of m c main_arg19 (by decide),
    W23_of m c main_arg19 (by decide),
    W22_of m c main_arg19 (by decide),
    W21_of m c main_arg19 (by decide),
    W20_of m c main_arg19 (by decide),
    W19_of m c main_arg19 (by decide),
    W18_of m c main_arg19 (by decide),
    W17_of m c main_arg19 (by decide),
    W16_of m c main_arg19 (by decide),
    W15_of m c main_arg19 (by decide),
    W14_of m c main_arg19 (by decide),
    W13_of m c main_arg19 (by decide),
    W12_of m c main_arg19 (by decide),
    W11_of m c main_arg19 (by decide),
    W10_of m c main_arg19 (by decide),
    W9_of m c main_arg19 (by decide),
    W8_of m c main_arg19 (by decide),
    W7_of m c main_arg19 (by decide),
    W6_of m c main_arg19 (by decide),
    W5_of m c main_arg19 (by decide),
    W4_of m c main_arg19 (by decide),
    W3_of m c main_arg19 (by decide),
    W2_of m c main_arg19 (by decide),
    W1_of m c main_arg19 (by decide)]
theorem keep_main_v77_73 : W73 m c (Proc.devRef .tc main_v77) = W69 m c (Proc.devRef .tc main_v77) := by
  rw [W73_of m c main_v77 (by decide),
    W72_of m c main_v77 (by decide),
    W71_of m c main_v77 (by decide),
    W70_of m c main_v77 (by decide)]
theorem keep_main_arg20_74 : W74 m c (Proc.devRef .tc main_arg20) = W0 m c (Proc.devRef .tc main_arg20) := by
  rw [W74_of m c main_arg20 (by decide),
    W73_of m c main_arg20 (by decide),
    W72_of m c main_arg20 (by decide),
    W71_of m c main_arg20 (by decide),
    W70_of m c main_arg20 (by decide),
    W69_of m c main_arg20 (by decide),
    W68_of m c main_arg20 (by decide),
    W67_of m c main_arg20 (by decide),
    W66_of m c main_arg20 (by decide),
    W65_of m c main_arg20 (by decide),
    W64_of m c main_arg20 (by decide),
    W63_of m c main_arg20 (by decide),
    W62_of m c main_arg20 (by decide),
    W61_of m c main_arg20 (by decide),
    W60_of m c main_arg20 (by decide),
    W59_of m c main_arg20 (by decide),
    W58_of m c main_arg20 (by decide),
    W57_of m c main_arg20 (by decide),
    W56_of m c main_arg20 (by decide),
    W55_of m c main_arg20 (by decide),
    W54_of m c main_arg20 (by decide),
    W53_of m c main_arg20 (by decide),
    W52_of m c main_arg20 (by decide),
    W51_of m c main_arg20 (by decide),
    W50_of m c main_arg20 (by decide),
    W49_of m c main_arg20 (by decide),
    W48_of m c main_arg20 (by decide),
    W47_of m c main_arg20 (by decide),
    W46_of m c main_arg20 (by decide),
    W45_of m c main_arg20 (by decide),
    W44_of m c main_arg20 (by decide),
    W43_of m c main_arg20 (by decide),
    W42_of m c main_arg20 (by decide),
    W41_of m c main_arg20 (by decide),
    W40_of m c main_arg20 (by decide),
    W39_of m c main_arg20 (by decide),
    W38_of m c main_arg20 (by decide),
    W37_of m c main_arg20 (by decide),
    W36_of m c main_arg20 (by decide),
    W35_of m c main_arg20 (by decide),
    W34_of m c main_arg20 (by decide),
    W33_of m c main_arg20 (by decide),
    W32_of m c main_arg20 (by decide),
    W31_of m c main_arg20 (by decide),
    W30_of m c main_arg20 (by decide),
    W29_of m c main_arg20 (by decide),
    W28_of m c main_arg20 (by decide),
    W27_of m c main_arg20 (by decide),
    W26_of m c main_arg20 (by decide),
    W25_of m c main_arg20 (by decide),
    W24_of m c main_arg20 (by decide),
    W23_of m c main_arg20 (by decide),
    W22_of m c main_arg20 (by decide),
    W21_of m c main_arg20 (by decide),
    W20_of m c main_arg20 (by decide),
    W19_of m c main_arg20 (by decide),
    W18_of m c main_arg20 (by decide),
    W17_of m c main_arg20 (by decide),
    W16_of m c main_arg20 (by decide),
    W15_of m c main_arg20 (by decide),
    W14_of m c main_arg20 (by decide),
    W13_of m c main_arg20 (by decide),
    W12_of m c main_arg20 (by decide),
    W11_of m c main_arg20 (by decide),
    W10_of m c main_arg20 (by decide),
    W9_of m c main_arg20 (by decide),
    W8_of m c main_arg20 (by decide),
    W7_of m c main_arg20 (by decide),
    W6_of m c main_arg20 (by decide),
    W5_of m c main_arg20 (by decide),
    W4_of m c main_arg20 (by decide),
    W3_of m c main_arg20 (by decide),
    W2_of m c main_arg20 (by decide),
    W1_of m c main_arg20 (by decide)]
theorem keep_main_arg21_74 : W74 m c (Proc.devRef .tc main_arg21) = W0 m c (Proc.devRef .tc main_arg21) := by
  rw [W74_of m c main_arg21 (by decide),
    W73_of m c main_arg21 (by decide),
    W72_of m c main_arg21 (by decide),
    W71_of m c main_arg21 (by decide),
    W70_of m c main_arg21 (by decide),
    W69_of m c main_arg21 (by decide),
    W68_of m c main_arg21 (by decide),
    W67_of m c main_arg21 (by decide),
    W66_of m c main_arg21 (by decide),
    W65_of m c main_arg21 (by decide),
    W64_of m c main_arg21 (by decide),
    W63_of m c main_arg21 (by decide),
    W62_of m c main_arg21 (by decide),
    W61_of m c main_arg21 (by decide),
    W60_of m c main_arg21 (by decide),
    W59_of m c main_arg21 (by decide),
    W58_of m c main_arg21 (by decide),
    W57_of m c main_arg21 (by decide),
    W56_of m c main_arg21 (by decide),
    W55_of m c main_arg21 (by decide),
    W54_of m c main_arg21 (by decide),
    W53_of m c main_arg21 (by decide),
    W52_of m c main_arg21 (by decide),
    W51_of m c main_arg21 (by decide),
    W50_of m c main_arg21 (by decide),
    W49_of m c main_arg21 (by decide),
    W48_of m c main_arg21 (by decide),
    W47_of m c main_arg21 (by decide),
    W46_of m c main_arg21 (by decide),
    W45_of m c main_arg21 (by decide),
    W44_of m c main_arg21 (by decide),
    W43_of m c main_arg21 (by decide),
    W42_of m c main_arg21 (by decide),
    W41_of m c main_arg21 (by decide),
    W40_of m c main_arg21 (by decide),
    W39_of m c main_arg21 (by decide),
    W38_of m c main_arg21 (by decide),
    W37_of m c main_arg21 (by decide),
    W36_of m c main_arg21 (by decide),
    W35_of m c main_arg21 (by decide),
    W34_of m c main_arg21 (by decide),
    W33_of m c main_arg21 (by decide),
    W32_of m c main_arg21 (by decide),
    W31_of m c main_arg21 (by decide),
    W30_of m c main_arg21 (by decide),
    W29_of m c main_arg21 (by decide),
    W28_of m c main_arg21 (by decide),
    W27_of m c main_arg21 (by decide),
    W26_of m c main_arg21 (by decide),
    W25_of m c main_arg21 (by decide),
    W24_of m c main_arg21 (by decide),
    W23_of m c main_arg21 (by decide),
    W22_of m c main_arg21 (by decide),
    W21_of m c main_arg21 (by decide),
    W20_of m c main_arg21 (by decide),
    W19_of m c main_arg21 (by decide),
    W18_of m c main_arg21 (by decide),
    W17_of m c main_arg21 (by decide),
    W16_of m c main_arg21 (by decide),
    W15_of m c main_arg21 (by decide),
    W14_of m c main_arg21 (by decide),
    W13_of m c main_arg21 (by decide),
    W12_of m c main_arg21 (by decide),
    W11_of m c main_arg21 (by decide),
    W10_of m c main_arg21 (by decide),
    W9_of m c main_arg21 (by decide),
    W8_of m c main_arg21 (by decide),
    W7_of m c main_arg21 (by decide),
    W6_of m c main_arg21 (by decide),
    W5_of m c main_arg21 (by decide),
    W4_of m c main_arg21 (by decide),
    W3_of m c main_arg21 (by decide),
    W2_of m c main_arg21 (by decide),
    W1_of m c main_arg21 (by decide)]
theorem keep_main_v79_76 : W76 m c (Proc.devRef .tc main_v79) = W72 m c (Proc.devRef .tc main_v79) := by
  rw [W76_of m c main_v79 (by decide),
    W75_of m c main_v79 (by decide),
    W74_of m c main_v79 (by decide),
    W73_of m c main_v79 (by decide)]
theorem keep_main_arg20_77 : W77 m c (Proc.devRef .tc main_arg20) = W0 m c (Proc.devRef .tc main_arg20) := by
  rw [W77_of m c main_arg20 (by decide),
    W76_of m c main_arg20 (by decide),
    W75_of m c main_arg20 (by decide),
    W74_of m c main_arg20 (by decide),
    W73_of m c main_arg20 (by decide),
    W72_of m c main_arg20 (by decide),
    W71_of m c main_arg20 (by decide),
    W70_of m c main_arg20 (by decide),
    W69_of m c main_arg20 (by decide),
    W68_of m c main_arg20 (by decide),
    W67_of m c main_arg20 (by decide),
    W66_of m c main_arg20 (by decide),
    W65_of m c main_arg20 (by decide),
    W64_of m c main_arg20 (by decide),
    W63_of m c main_arg20 (by decide),
    W62_of m c main_arg20 (by decide),
    W61_of m c main_arg20 (by decide),
    W60_of m c main_arg20 (by decide),
    W59_of m c main_arg20 (by decide),
    W58_of m c main_arg20 (by decide),
    W57_of m c main_arg20 (by decide),
    W56_of m c main_arg20 (by decide),
    W55_of m c main_arg20 (by decide),
    W54_of m c main_arg20 (by decide),
    W53_of m c main_arg20 (by decide),
    W52_of m c main_arg20 (by decide),
    W51_of m c main_arg20 (by decide),
    W50_of m c main_arg20 (by decide),
    W49_of m c main_arg20 (by decide),
    W48_of m c main_arg20 (by decide),
    W47_of m c main_arg20 (by decide),
    W46_of m c main_arg20 (by decide),
    W45_of m c main_arg20 (by decide),
    W44_of m c main_arg20 (by decide),
    W43_of m c main_arg20 (by decide),
    W42_of m c main_arg20 (by decide),
    W41_of m c main_arg20 (by decide),
    W40_of m c main_arg20 (by decide),
    W39_of m c main_arg20 (by decide),
    W38_of m c main_arg20 (by decide),
    W37_of m c main_arg20 (by decide),
    W36_of m c main_arg20 (by decide),
    W35_of m c main_arg20 (by decide),
    W34_of m c main_arg20 (by decide),
    W33_of m c main_arg20 (by decide),
    W32_of m c main_arg20 (by decide),
    W31_of m c main_arg20 (by decide),
    W30_of m c main_arg20 (by decide),
    W29_of m c main_arg20 (by decide),
    W28_of m c main_arg20 (by decide),
    W27_of m c main_arg20 (by decide),
    W26_of m c main_arg20 (by decide),
    W25_of m c main_arg20 (by decide),
    W24_of m c main_arg20 (by decide),
    W23_of m c main_arg20 (by decide),
    W22_of m c main_arg20 (by decide),
    W21_of m c main_arg20 (by decide),
    W20_of m c main_arg20 (by decide),
    W19_of m c main_arg20 (by decide),
    W18_of m c main_arg20 (by decide),
    W17_of m c main_arg20 (by decide),
    W16_of m c main_arg20 (by decide),
    W15_of m c main_arg20 (by decide),
    W14_of m c main_arg20 (by decide),
    W13_of m c main_arg20 (by decide),
    W12_of m c main_arg20 (by decide),
    W11_of m c main_arg20 (by decide),
    W10_of m c main_arg20 (by decide),
    W9_of m c main_arg20 (by decide),
    W8_of m c main_arg20 (by decide),
    W7_of m c main_arg20 (by decide),
    W6_of m c main_arg20 (by decide),
    W5_of m c main_arg20 (by decide),
    W4_of m c main_arg20 (by decide),
    W3_of m c main_arg20 (by decide),
    W2_of m c main_arg20 (by decide),
    W1_of m c main_arg20 (by decide)]
theorem keep_main_arg21_77 : W77 m c (Proc.devRef .tc main_arg21) = W0 m c (Proc.devRef .tc main_arg21) := by
  rw [W77_of m c main_arg21 (by decide),
    W76_of m c main_arg21 (by decide),
    W75_of m c main_arg21 (by decide),
    W74_of m c main_arg21 (by decide),
    W73_of m c main_arg21 (by decide),
    W72_of m c main_arg21 (by decide),
    W71_of m c main_arg21 (by decide),
    W70_of m c main_arg21 (by decide),
    W69_of m c main_arg21 (by decide),
    W68_of m c main_arg21 (by decide),
    W67_of m c main_arg21 (by decide),
    W66_of m c main_arg21 (by decide),
    W65_of m c main_arg21 (by decide),
    W64_of m c main_arg21 (by decide),
    W63_of m c main_arg21 (by decide),
    W62_of m c main_arg21 (by decide),
    W61_of m c main_arg21 (by decide),
    W60_of m c main_arg21 (by decide),
    W59_of m c main_arg21 (by decide),
    W58_of m c main_arg21 (by decide),
    W57_of m c main_arg21 (by decide),
    W56_of m c main_arg21 (by decide),
    W55_of m c main_arg21 (by decide),
    W54_of m c main_arg21 (by decide),
    W53_of m c main_arg21 (by decide),
    W52_of m c main_arg21 (by decide),
    W51_of m c main_arg21 (by decide),
    W50_of m c main_arg21 (by decide),
    W49_of m c main_arg21 (by decide),
    W48_of m c main_arg21 (by decide),
    W47_of m c main_arg21 (by decide),
    W46_of m c main_arg21 (by decide),
    W45_of m c main_arg21 (by decide),
    W44_of m c main_arg21 (by decide),
    W43_of m c main_arg21 (by decide),
    W42_of m c main_arg21 (by decide),
    W41_of m c main_arg21 (by decide),
    W40_of m c main_arg21 (by decide),
    W39_of m c main_arg21 (by decide),
    W38_of m c main_arg21 (by decide),
    W37_of m c main_arg21 (by decide),
    W36_of m c main_arg21 (by decide),
    W35_of m c main_arg21 (by decide),
    W34_of m c main_arg21 (by decide),
    W33_of m c main_arg21 (by decide),
    W32_of m c main_arg21 (by decide),
    W31_of m c main_arg21 (by decide),
    W30_of m c main_arg21 (by decide),
    W29_of m c main_arg21 (by decide),
    W28_of m c main_arg21 (by decide),
    W27_of m c main_arg21 (by decide),
    W26_of m c main_arg21 (by decide),
    W25_of m c main_arg21 (by decide),
    W24_of m c main_arg21 (by decide),
    W23_of m c main_arg21 (by decide),
    W22_of m c main_arg21 (by decide),
    W21_of m c main_arg21 (by decide),
    W20_of m c main_arg21 (by decide),
    W19_of m c main_arg21 (by decide),
    W18_of m c main_arg21 (by decide),
    W17_of m c main_arg21 (by decide),
    W16_of m c main_arg21 (by decide),
    W15_of m c main_arg21 (by decide),
    W14_of m c main_arg21 (by decide),
    W13_of m c main_arg21 (by decide),
    W12_of m c main_arg21 (by decide),
    W11_of m c main_arg21 (by decide),
    W10_of m c main_arg21 (by decide),
    W9_of m c main_arg21 (by decide),
    W8_of m c main_arg21 (by decide),
    W7_of m c main_arg21 (by decide),
    W6_of m c main_arg21 (by decide),
    W5_of m c main_arg21 (by decide),
    W4_of m c main_arg21 (by decide),
    W3_of m c main_arg21 (by decide),
    W2_of m c main_arg21 (by decide),
    W1_of m c main_arg21 (by decide)]
theorem keep_main_v81_78 : W78 m c (Proc.devRef .tc main_v81) = W75 m c (Proc.devRef .tc main_v81) := by
  rw [W78_of m c main_v81 (by decide),
    W77_of m c main_v81 (by decide),
    W76_of m c main_v81 (by decide)]
theorem keep_main_v67_80 : W80 m c (Proc.devRef .tc main_v67) = W57 m c (Proc.devRef .tc main_v67) := by
  rw [W80_of m c main_v67 (by decide),
    W79_of m c main_v67 (by decide),
    W78_of m c main_v67 (by decide),
    W77_of m c main_v67 (by decide),
    W76_of m c main_v67 (by decide),
    W75_of m c main_v67 (by decide),
    W74_of m c main_v67 (by decide),
    W73_of m c main_v67 (by decide),
    W72_of m c main_v67 (by decide),
    W71_of m c main_v67 (by decide),
    W70_of m c main_v67 (by decide),
    W69_of m c main_v67 (by decide),
    W68_of m c main_v67 (by decide),
    W67_of m c main_v67 (by decide),
    W66_of m c main_v67 (by decide),
    W65_of m c main_v67 (by decide),
    W64_of m c main_v67 (by decide),
    W63_of m c main_v67 (by decide),
    W62_of m c main_v67 (by decide),
    W61_of m c main_v67 (by decide),
    W60_of m c main_v67 (by decide),
    W59_of m c main_v67 (by decide),
    W58_of m c main_v67 (by decide)]

/-! ## The specification's intermediate values, named by the buffer that holds them -/

abbrev z_main_v7 : Cert.Spec.Act 16 224 224 3 := Cert.Spec.normalise (args m c).inp
abbrev z_main_v13 : Cert.Spec.Act 16 224 224 3 := Cert.Spec.normalise (args m c).tgt
abbrev z_main_v15 : Cert.Spec.Act 16 224 224 64 := Cert.Spec.convRelu (z_main_v7 m c) (args m c).P.w00 (args m c).P.b00
abbrev z_main_v17 : Cert.Spec.Act 16 224 224 64 := Cert.Spec.convRelu (z_main_v13 m c) (args m c).P.w00 (args m c).P.b00
abbrev z_main_v19 : Cert.Spec.Act 16 224 224 64 := Cert.Spec.convRelu (z_main_v15 m c) (args m c).P.w01 (args m c).P.b01
abbrev z_main_v21 : Cert.Spec.Act 16 224 224 64 := Cert.Spec.convRelu (z_main_v17 m c) (args m c).P.w01 (args m c).P.b01
abbrev z_main_v29 : Cert.Spec.Act 16 112 112 64 := Cert.Spec.pool2x2 (z_main_v19 m c)
abbrev z_main_v31 : Cert.Spec.Act 16 112 112 64 := Cert.Spec.pool2x2 (z_main_v21 m c)
abbrev z_main_v33 : Cert.Spec.Act 16 112 112 128 := Cert.Spec.convRelu (z_main_v29 m c) (args m c).P.w10 (args m c).P.b10
abbrev z_main_v35 : Cert.Spec.Act 16 112 112 128 := Cert.Spec.convRelu (z_main_v31 m c) (args m c).P.w10 (args m c).P.b10
abbrev z_main_v37 : Cert.Spec.Act 16 112 112 128 := Cert.Spec.convRelu (z_main_v33 m c) (args m c).P.w11 (args m c).P.b11
abbrev z_main_v39 : Cert.Spec.Act 16 112 112 128 := Cert.Spec.convRelu (z_main_v35 m c) (args m c).P.w11 (args m c).P.b11
abbrev z_main_v47 : Cert.Spec.Act 16 56 56 128 := Cert.Spec.pool2x2 (z_main_v37 m c)
abbrev z_main_v49 : Cert.Spec.Act 16 56 56 128 := Cert.Spec.pool2x2 (z_main_v39 m c)
abbrev z_main_v51 : Cert.Spec.Act 16 56 56 256 := Cert.Spec.convRelu (z_main_v47 m c) (args m c).P.w20 (args m c).P.b20
abbrev z_main_v53 : Cert.Spec.Act 16 56 56 256 := Cert.Spec.convRelu (z_main_v49 m c) (args m c).P.w20 (args m c).P.b20
abbrev z_main_v55 : Cert.Spec.Act 16 56 56 256 := Cert.Spec.convRelu (z_main_v51 m c) (args m c).P.w21 (args m c).P.b21
abbrev z_main_v57 : Cert.Spec.Act 16 56 56 256 := Cert.Spec.convRelu (z_main_v53 m c) (args m c).P.w21 (args m c).P.b21
abbrev z_main_v59 : Cert.Spec.Act 16 56 56 256 := Cert.Spec.convRelu (z_main_v55 m c) (args m c).P.w22 (args m c).P.b22
abbrev z_main_v61 : Cert.Spec.Act 16 56 56 256 := Cert.Spec.convRelu (z_main_v57 m c) (args m c).P.w22 (args m c).P.b22
abbrev z_main_v69 : Cert.Spec.Act 16 28 28 256 := Cert.Spec.pool2x2 (z_main_v59 m c)
abbrev z_main_v71 : Cert.Spec.Act 16 28 28 256 := Cert.Spec.pool2x2 (z_main_v61 m c)
abbrev z_main_v73 : Cert.Spec.Act 16 28 28 512 := Cert.Spec.convRelu (z_main_v69 m c) (args m c).P.w30 (args m c).P.b30
abbrev z_main_v75 : Cert.Spec.Act 16 28 28 512 := Cert.Spec.convRelu (z_main_v71 m c) (args m c).P.w30 (args m c).P.b30
abbrev z_main_v77 : Cert.Spec.Act 16 28 28 512 := Cert.Spec.convRelu (z_main_v73 m c) (args m c).P.w31 (args m c).P.b31
abbrev z_main_v79 : Cert.Spec.Act 16 28 28 512 := Cert.Spec.convRelu (z_main_v75 m c) (args m c).P.w31 (args m c).P.b31
abbrev z_main_v81 : Cert.Spec.Act 16 28 28 512 := Cert.Spec.convRelu (z_main_v77 m c) (args m c).P.w32 (args m c).P.b32
abbrev z_main_v83 : Cert.Spec.Act 16 28 28 512 := Cert.Spec.convRelu (z_main_v79 m c) (args m c).P.w32 (args m c).P.b32

/-! ## The buffers, named -/

theorem c_main_c : (W1 m c (Proc.devRef .tc main_c) : IVec S_ 32) = constantI S_ 32 0#32 := by
  unfold W1; exact Host.const_main_c _
theorem act_main_v7 : Cert.Spec.curry4 (W1 m c (Proc.devRef .tc main_v7) : FVec 𝕀 S16x224x224x3 .f32) = z_main_v7 m c := by
  unfold W1; exact Host.norm_main_v7 (W0 m c)
theorem act_main_v13 : Cert.Spec.curry4 (W1 m c (Proc.devRef .tc main_v13) : FVec 𝕀 S16x224x224x3 .f32) = z_main_v13 m c := by
  unfold W1; exact Host.norm_main_v13 (W0 m c)
theorem pad_main_v14 (n : Fin 16) (i : Fin 240) (j : Fin 232) (ch : Fin 3) :
    (W2 m c (Proc.devRef .tc main_v14) : FVec 𝕀 S16x240x232x3 .f32) (ix4 n i j ch) = Cert.Spec.padAt (z_main_v7 m c) n i.val j.val ch := by
  unfold W2
  rw [Host.pad_main_v14 (W1 m c) (by exact c_main_c m c) n i j ch, act_main_v7 m c]
theorem act_main_v15 : Cert.Spec.curry4 (W3 m c (Proc.devRef .tc main_v15) : FVec 𝕀 S16x224x224x64 .f32) = z_main_v15 m c := by
  unfold W3
  refine (Reg0.value (W2 m) c (z_main_v7 m c) (fun n i j ci => pad_main_v14 m c n i j ci)).trans ?_
  show Cert.Spec.convRelu _ (Cert.Spec.curryW (W2 m c (Proc.devRef .tc main_arg2) : FVec 𝕀 S3x3x3x64 .f32)) (Cert.Spec.curryB (W2 m c (Proc.devRef .tc main_arg3) : FVec 𝕀 S1x64 .f32)) = _
  rw [keep_main_arg2_2 m c, keep_main_arg3_2 m c]
  rfl
theorem c_main_c_1 : (W4 m c (Proc.devRef .tc main_c_1) : IVec S_ 32) = constantI S_ 32 0#32 := by
  unfold W4; exact Host.const_main_c_1 _
theorem pad_main_v16 (n : Fin 16) (i : Fin 240) (j : Fin 232) (ch : Fin 3) :
    (W5 m c (Proc.devRef .tc main_v16) : FVec 𝕀 S16x240x232x3 .f32) (ix4 n i j ch) = Cert.Spec.padAt (z_main_v13 m c) n i.val j.val ch := by
  unfold W5
  rw [Host.pad_main_v16 (W4 m c) (by exact c_main_c_1 m c) n i j ch, keep_main_v13_4 m c, act_main_v13 m c]
theorem act_main_v17 : Cert.Spec.curry4 (W6 m c (Proc.devRef .tc main_v17) : FVec 𝕀 S16x224x224x64 .f32) = z_main_v17 m c := by
  unfold W6
  refine (Reg1.value (W5 m) c (z_main_v13 m c) (fun n i j ci => pad_main_v16 m c n i j ci)).trans ?_
  show Cert.Spec.convRelu _ (Cert.Spec.curryW (W5 m c (Proc.devRef .tc main_arg2) : FVec 𝕀 S3x3x3x64 .f32)) (Cert.Spec.curryB (W5 m c (Proc.devRef .tc main_arg3) : FVec 𝕀 S1x64 .f32)) = _
  rw [keep_main_arg2_5 m c, keep_main_arg3_5 m c]
  rfl
theorem c_main_c_2 : (W7 m c (Proc.devRef .tc main_c_2) : IVec S_ 32) = constantI S_ 32 0#32 := by
  unfold W7; exact Host.const_main_c_2 _
theorem pad_main_v18 (n : Fin 16) (i : Fin 240) (j : Fin 232) (ch : Fin 64) :
    (W8 m c (Proc.devRef .tc main_v18) : FVec 𝕀 S16x240x232x64 .f32) (ix4 n i j ch) = Cert.Spec.padAt (z_main_v15 m c) n i.val j.val ch := by
  unfold W8
  rw [Host.pad_main_v18 (W7 m c) (by exact c_main_c_2 m c) n i j ch, keep_main_v15_7 m c, act_main_v15 m c]
theorem act_main_v19 : Cert.Spec.curry4 (W9 m c (Proc.devRef .tc main_v19) : FVec 𝕀 S16x224x224x64 .f32) = z_main_v19 m c := by
  unfold W9
  refine (Reg2.value (W8 m) c (z_main_v15 m c) (fun n i j ci => pad_main_v18 m c n i j ci)).trans ?_
  show Cert.Spec.convRelu _ (Cert.Spec.curryW (W8 m c (Proc.devRef .tc main_arg4) : FVec 𝕀 S3x3x64x64 .f32)) (Cert.Spec.curryB (W8 m c (Proc.devRef .tc main_arg5) : FVec 𝕀 S1x64 .f32)) = _
  rw [keep_main_arg4_8 m c, keep_main_arg5_8 m c]
  rfl
theorem c_main_c_3 : (W10 m c (Proc.devRef .tc main_c_3) : IVec S_ 32) = constantI S_ 32 0#32 := by
  unfold W10; exact Host.const_main_c_3 _
theorem pad_main_v20 (n : Fin 16) (i : Fin 240) (j : Fin 232) (ch : Fin 64) :
    (W11 m c (Proc.devRef .tc main_v20) : FVec 𝕀 S16x240x232x64 .f32) (ix4 n i j ch) = Cert.Spec.padAt (z_main_v17 m c) n i.val j.val ch := by
  unfold W11
  rw [Host.pad_main_v20 (W10 m c) (by exact c_main_c_3 m c) n i j ch, keep_main_v17_10 m c, act_main_v17 m c]
theorem act_main_v21 : Cert.Spec.curry4 (W12 m c (Proc.devRef .tc main_v21) : FVec 𝕀 S16x224x224x64 .f32) = z_main_v21 m c := by
  unfold W12
  refine (Reg3.value (W11 m) c (z_main_v17 m c) (fun n i j ci => pad_main_v20 m c n i j ci)).trans ?_
  show Cert.Spec.convRelu _ (Cert.Spec.curryW (W11 m c (Proc.devRef .tc main_arg4) : FVec 𝕀 S3x3x64x64 .f32)) (Cert.Spec.curryB (W11 m c (Proc.devRef .tc main_arg5) : FVec 𝕀 S1x64 .f32)) = _
  rw [keep_main_arg4_11 m c, keep_main_arg5_11 m c]
  rfl
theorem rows_main_v22 (r : Fin 100352) (k : Fin 512) :
    (W13 m c (Proc.devRef .tc main_v22) : FVec 𝕀 S100352x512 .f32) (ix2 r k) = Cert.Spec.flat (z_main_v19 m c) (r.val * 512 + k.val) := by
  unfold W13
  rw [Host.rows_main_v22 (W12 m c) r k, keep_main_v19_12 m c, act_main_v19 m c]
theorem rows_main_v23 (r : Fin 100352) (k : Fin 512) :
    (W13 m c (Proc.devRef .tc main_v23) : FVec 𝕀 S100352x512 .f32) (ix2 r k) = Cert.Spec.flat (z_main_v21 m c) (r.val * 512 + k.val) := by
  unfold W13
  rw [Host.rows_main_v23 (W12 m c) r k, act_main_v21 m c]
theorem l1_main_v24 : (W14 m c (Proc.devRef .tc main_v24) : FVec 𝕀 S1x1 .f32) (ix2 (0 : Fin 1) (0 : Fin 1))
      = ∑ r : Fin 100352, ∑ k : Fin 512, Cert.Spec.eabs (Cert.Spec.flat (z_main_v19 m c) (r.val * 512 + k.val) - Cert.Spec.flat (z_main_v21 m c) (r.val * 512 + k.val)) := by
  unfold W14
  exact Reg4.value (W13 m) c (z_main_v19 m c) (z_main_v21 m c)
    (fun r k => by exact rows_main_v22 m c r k) (fun r k => by exact rows_main_v23 m c r k)
theorem tot_main_v27 : @Eq EReal ((W15 m c (Proc.devRef .tc main_v27) : FVec 𝕀 S_ .f32) ix0) (0 + Ideal.div (∑ r : Fin 100352, ∑ k : Fin 512, Cert.Spec.eabs (Cert.Spec.flat (z_main_v19 m c) (r.val * 512 + k.val) - Cert.Spec.flat (z_main_v21 m c) (r.val * 512 + k.val))) (Ideal.ofBits .f32 0x4C440000#32)) := by
  unfold W15
  rw [Host.total_main_v27 (W14 m c), l1_main_v24 m c, Host.ofBits_zero]
theorem pairs_main_v28 (n : Fin 16) (i : Fin 224) (j : Fin 112) (t : Fin 2) (ch : Fin 64) :
    (W15 m c (Proc.devRef .tc main_v28) : FVec 𝕀 S16x224x112x2x64 .f32) (ix5 n i j t ch) = (z_main_v19 m c) n i ⟨2 * j.val + t.val, by omega⟩ ch := by
  unfold W15
  rw [Host.pairs_main_v28 (W14 m c) n i j t ch, keep_main_v19_14 m c]
  exact congrFun (congrFun (congrFun (congrFun (act_main_v19 m c) n) i) _) ch
theorem act_main_v29 : Cert.Spec.curry4 (W16 m c (Proc.devRef .tc main_v29) : FVec 𝕀 S16x112x112x64 .f32) = z_main_v29 m c := by
  unfold W16
  exact Reg5.value (W15 m) c (z_main_v19 m c) (fun n i j t ch => pairs_main_v28 m c n i j t ch)
theorem pairs_main_v30 (n : Fin 16) (i : Fin 224) (j : Fin 112) (t : Fin 2) (ch : Fin 64) :
    (W17 m c (Proc.devRef .tc main_v30) : FVec 𝕀 S16x224x112x2x64 .f32) (ix5 n i j t ch) = (z_main_v21 m c) n i ⟨2 * j.val + t.val, by omega⟩ ch := by
  unfold W17
  rw [Host.pairs_main_v30 (W16 m c) n i j t ch, keep_main_v21_16 m c]
  exact congrFun (congrFun (congrFun (congrFun (act_main_v21 m c) n) i) _) ch
theorem act_main_v31 : Cert.Spec.curry4 (W18 m c (Proc.devRef .tc main_v31) : FVec 𝕀 S16x112x112x64 .f32) = z_main_v31 m c := by
  unfold W18
  exact Reg6.value (W17 m) c (z_main_v21 m c) (fun n i j t ch => pairs_main_v30 m c n i j t ch)
theorem c_main_c_6 : (W19 m c (Proc.devRef .tc main_c_6) : IVec S_ 32) = constantI S_ 32 0#32 := by
  unfold W19; exact Host.const_main_c_6 _
theorem pad_main_v32 (n : Fin 16) (i : Fin 128) (j : Fin 120) (ch : Fin 64) :
    (W20 m c (Proc.devRef .tc main_v32) : FVec 𝕀 S16x128x120x64 .f32) (ix4 n i j ch) = Cert.Spec.padAt (z_main_v29 m c) n i.val j.val ch := by
  unfold W20
  rw [Host.pad_main_v32 (W19 m c) (by exact c_main_c_6 m c) n i j ch, keep_main_v29_19 m c, act_main_v29 m c]
theorem act_main_v33 : Cert.Spec.curry4 (W21 m c (Proc.devRef .tc main_v33) : FVec 𝕀 S16x112x112x128 .f32) = z_main_v33 m c := by
  unfold W21
  refine (Reg7.value (W20 m) c (z_main_v29 m c) (fun n i j ci => pad_main_v32 m c n i j ci)).trans ?_
  show Cert.Spec.convRelu _ (Cert.Spec.curryW (W20 m c (Proc.devRef .tc main_arg6) : FVec 𝕀 S3x3x64x128 .f32)) (Cert.Spec.curryB (W20 m c (Proc.devRef .tc main_arg7) : FVec 𝕀 S1x128 .f32)) = _
  rw [keep_main_arg6_20 m c, keep_main_arg7_20 m c]
  rfl
theorem c_main_c_7 : (W22 m c (Proc.devRef .tc main_c_7) : IVec S_ 32) = constantI S_ 32 0#32 := by
  unfold W22; exact Host.const_main_c_7 _
theorem pad_main_v34 (n : Fin 16) (i : Fin 128) (j : Fin 120) (ch : Fin 64) :
    (W23 m c (Proc.devRef .tc main_v34) : FVec 𝕀 S16x128x120x64 .f32) (ix4 n i j ch) = Cert.Spec.padAt (z_main_v31 m c) n i.val j.val ch := by
  unfold W23
  rw [Host.pad_main_v34 (W22 m c) (by exact c_main_c_7 m c) n i j ch, keep_main_v31_22 m c, act_main_v31 m c]
theorem act_main_v35 : Cert.Spec.curry4 (W24 m c (Proc.devRef .tc main_v35) : FVec 𝕀 S16x112x112x128 .f32) = z_main_v35 m c := by
  unfold W24
  refine (Reg8.value (W23 m) c (z_main_v31 m c) (fun n i j ci => pad_main_v34 m c n i j ci)).trans ?_
  show Cert.Spec.convRelu _ (Cert.Spec.curryW (W23 m c (Proc.devRef .tc main_arg6) : FVec 𝕀 S3x3x64x128 .f32)) (Cert.Spec.curryB (W23 m c (Proc.devRef .tc main_arg7) : FVec 𝕀 S1x128 .f32)) = _
  rw [keep_main_arg6_23 m c, keep_main_arg7_23 m c]
  rfl
theorem c_main_c_8 : (W25 m c (Proc.devRef .tc main_c_8) : IVec S_ 32) = constantI S_ 32 0#32 := by
  unfold W25; exact Host.const_main_c_8 _
theorem pad_main_v36 (n : Fin 16) (i : Fin 128) (j : Fin 120) (ch : Fin 128) :
    (W26 m c (Proc.devRef .tc main_v36) : FVec 𝕀 S16x128x120x128 .f32) (ix4 n i j ch) = Cert.Spec.padAt (z_main_v33 m c) n i.val j.val ch := by
  unfold W26
  rw [Host.pad_main_v36 (W25 m c) (by exact c_main_c_8 m c) n i j ch, keep_main_v33_25 m c, act_main_v33 m c]
theorem act_main_v37 : Cert.Spec.curry4 (W27 m c (Proc.devRef .tc main_v37) : FVec 𝕀 S16x112x112x128 .f32) = z_main_v37 m c := by
  unfold W27
  refine (Reg9.value (W26 m) c (z_main_v33 m c) (fun n i j ci => pad_main_v36 m c n i j ci)).trans ?_
  show Cert.Spec.convRelu _ (Cert.Spec.curryW (W26 m c (Proc.devRef .tc main_arg8) : FVec 𝕀 S3x3x128x128 .f32)) (Cert.Spec.curryB (W26 m c (Proc.devRef .tc main_arg9) : FVec 𝕀 S1x128 .f32)) = _
  rw [keep_main_arg8_26 m c, keep_main_arg9_26 m c]
  rfl
theorem c_main_c_9 : (W28 m c (Proc.devRef .tc main_c_9) : IVec S_ 32) = constantI S_ 32 0#32 := by
  unfold W28; exact Host.const_main_c_9 _
theorem pad_main_v38 (n : Fin 16) (i : Fin 128) (j : Fin 120) (ch : Fin 128) :
    (W29 m c (Proc.devRef .tc main_v38) : FVec 𝕀 S16x128x120x128 .f32) (ix4 n i j ch) = Cert.Spec.padAt (z_main_v35 m c) n i.val j.val ch := by
  unfold W29
  rw [Host.pad_main_v38 (W28 m c) (by exact c_main_c_9 m c) n i j ch, keep_main_v35_28 m c, act_main_v35 m c]
theorem act_main_v39 : Cert.Spec.curry4 (W30 m c (Proc.devRef .tc main_v39) : FVec 𝕀 S16x112x112x128 .f32) = z_main_v39 m c := by
  unfold W30
  refine (Reg10.value (W29 m) c (z_main_v35 m c) (fun n i j ci => pad_main_v38 m c n i j ci)).trans ?_
  show Cert.Spec.convRelu _ (Cert.Spec.curryW (W29 m c (Proc.devRef .tc main_arg8) : FVec 𝕀 S3x3x128x128 .f32)) (Cert.Spec.curryB (W29 m c (Proc.devRef .tc main_arg9) : FVec 𝕀 S1x128 .f32)) = _
  rw [keep_main_arg8_29 m c, keep_main_arg9_29 m c]
  rfl
theorem rows_main_v40 (r : Fin 50176) (k : Fin 512) :
    (W31 m c (Proc.devRef .tc main_v40) : FVec 𝕀 S50176x512 .f32) (ix2 r k) = Cert.Spec.flat (z_main_v37 m c) (r.val * 512 + k.val) := by
  unfold W31
  rw [Host.rows_main_v40 (W30 m c) r k, keep_main_v37_30 m c, act_main_v37 m c]
theorem rows_main_v41 (r : Fin 50176) (k : Fin 512) :
    (W31 m c (Proc.devRef .tc main_v41) : FVec 𝕀 S50176x512 .f32) (ix2 r k) = Cert.Spec.flat (z_main_v39 m c) (r.val * 512 + k.val) := by
  unfold W31
  rw [Host.rows_main_v41 (W30 m c) r k, act_main_v39 m c]
theorem l1_main_v42 : (W32 m c (Proc.devRef .tc main_v42) : FVec 𝕀 S1x1 .f32) (ix2 (0 : Fin 1) (0 : Fin 1))
      = ∑ r : Fin 50176, ∑ k : Fin 512, Cert.Spec.eabs (Cert.Spec.flat (z_main_v37 m c) (r.val * 512 + k.val) - Cert.Spec.flat (z_main_v39 m c) (r.val * 512 + k.val)) := by
  unfold W32
  exact Reg11.value (W31 m) c (z_main_v37 m c) (z_main_v39 m c)
    (fun r k => by exact rows_main_v40 m c r k) (fun r k => by exact rows_main_v41 m c r k)
theorem tot_main_v45 : @Eq EReal ((W33 m c (Proc.devRef .tc main_v45) : FVec 𝕀 S_ .f32) ix0) ((0 + Ideal.div (∑ r : Fin 100352, ∑ k : Fin 512, Cert.Spec.eabs (Cert.Spec.flat (z_main_v19 m c) (r.val * 512 + k.val) - Cert.Spec.flat (z_main_v21 m c) (r.val * 512 + k.val))) (Ideal.ofBits .f32 0x4C440000#32)) + Ideal.div (∑ r : Fin 50176, ∑ k : Fin 512, Cert.Spec.eabs (Cert.Spec.flat (z_main_v37 m c) (r.val * 512 + k.val) - Cert.Spec.flat (z_main_v39 m c) (r.val * 512 + k.val))) (Ideal.ofBits .f32 0x4BC40000#32)) := by
  unfold W33
  rw [Host.total_main_v45 (W32 m c), l1_main_v42 m c, keep_main_v27_32 m c, tot_main_v27 m c]
theorem pairs_main_v46 (n : Fin 16) (i : Fin 112) (j : Fin 56) (t : Fin 2) (ch : Fin 128) :
    (W33 m c (Proc.devRef .tc main_v46) : FVec 𝕀 S16x112x56x2x128 .f32) (ix5 n i j t ch) = (z_main_v37 m c) n i ⟨2 * j.val + t.val, by omega⟩ ch := by
  unfold W33
  rw [Host.pairs_main_v46 (W32 m c) n i j t ch, keep_main_v37_32 m c]
  exact congrFun (congrFun (congrFun (congrFun (act_main_v37 m c) n) i) _) ch
theorem act_main_v47 : Cert.Spec.curry4 (W34 m c (Proc.devRef .tc main_v47) : FVec 𝕀 S16x56x56x128 .f32) = z_main_v47 m c := by
  unfold W34
  exact Reg12.value (W33 m) c (z_main_v37 m c) (fun n i j t ch => pairs_main_v46 m c n i j t ch)
theorem pairs_main_v48 (n : Fin 16) (i : Fin 112) (j : Fin 56) (t : Fin 2) (ch : Fin 128) :
    (W35 m c (Proc.devRef .tc main_v48) : FVec 𝕀 S16x112x56x2x128 .f32) (ix5 n i j t ch) = (z_main_v39 m c) n i ⟨2 * j.val + t.val, by omega⟩ ch := by
  unfold W35
  rw [Host.pairs_main_v48 (W34 m c) n i j t ch, keep_main_v39_34 m c]
  exact congrFun (congrFun (congrFun (congrFun (act_main_v39 m c) n) i) _) ch
theorem act_main_v49 : Cert.Spec.curry4 (W36 m c (Proc.devRef .tc main_v49) : FVec 𝕀 S16x56x56x128 .f32) = z_main_v49 m c := by
  unfold W36
  exact Reg13.value (W35 m) c (z_main_v39 m c) (fun n i j t ch => pairs_main_v48 m c n i j t ch)
theorem c_main_c_11 : (W37 m c (Proc.devRef .tc main_c_11) : IVec S_ 32) = constantI S_ 32 0#32 := by
  unfold W37; exact Host.const_main_c_11 _
theorem pad_main_v50 (n : Fin 16) (i : Fin 70) (j : Fin 64) (ch : Fin 128) :
    (W38 m c (Proc.devRef .tc main_v50) : FVec 𝕀 S16x70x64x128 .f32) (ix4 n i j ch) = Cert.Spec.padAt (z_main_v47 m c) n i.val j.val ch := by
  unfold W38
  rw [Host.pad_main_v50 (W37 m c) (by exact c_main_c_11 m c) n i j ch, keep_main_v47_37 m c, act_main_v47 m c]
theorem act_main_v51 : Cert.Spec.curry4 (W39 m c (Proc.devRef .tc main_v51) : FVec 𝕀 S16x56x56x256 .f32) = z_main_v51 m c := by
  unfold W39
  refine (Reg14.value (W38 m) c (z_main_v47 m c) (fun n i j ci => pad_main_v50 m c n i j ci)).trans ?_
  show Cert.Spec.convRelu _ (Cert.Spec.curryW (W38 m c (Proc.devRef .tc main_arg10) : FVec 𝕀 S3x3x128x256 .f32)) (Cert.Spec.curryB (W38 m c (Proc.devRef .tc main_arg11) : FVec 𝕀 S1x256 .f32)) = _
  rw [keep_main_arg10_38 m c, keep_main_arg11_38 m c]
  rfl
theorem c_main_c_12 : (W40 m c (Proc.devRef .tc main_c_12) : IVec S_ 32) = constantI S_ 32 0#32 := by
  unfold W40; exact Host.const_main_c_12 _
theorem pad_main_v52 (n : Fin 16) (i : Fin 70) (j : Fin 64) (ch : Fin 128) :
    (W41 m c (Proc.devRef .tc main_v52) : FVec 𝕀 S16x70x64x128 .f32) (ix4 n i j ch) = Cert.Spec.padAt (z_main_v49 m c) n i.val j.val ch := by
  unfold W41
  rw [Host.pad_main_v52 (W40 m c) (by exact c_main_c_12 m c) n i j ch, keep_main_v49_40 m c, act_main_v49 m c]
theorem act_main_v53 : Cert.Spec.curry4 (W42 m c (Proc.devRef .tc main_v53) : FVec 𝕀 S16x56x56x256 .f32) = z_main_v53 m c := by
  unfold W42
  refine (Reg15.value (W41 m) c (z_main_v49 m c) (fun n i j ci => pad_main_v52 m c n i j ci)).trans ?_
  show Cert.Spec.convRelu _ (Cert.Spec.curryW (W41 m c (Proc.devRef .tc main_arg10) : FVec 𝕀 S3x3x128x256 .f32)) (Cert.Spec.curryB (W41 m c (Proc.devRef .tc main_arg11) : FVec 𝕀 S1x256 .f32)) = _
  rw [keep_main_arg10_41 m c, keep_main_arg11_41 m c]
  rfl
theorem c_main_c_13 : (W43 m c (Proc.devRef .tc main_c_13) : IVec S_ 32) = constantI S_ 32 0#32 := by
  unfold W43; exact Host.const_main_c_13 _
theorem pad_main_v54 (n : Fin 16) (i : Fin 70) (j : Fin 64) (ch : Fin 256) :
    (W44 m c (Proc.devRef .tc main_v54) : FVec 𝕀 S16x70x64x256 .f32) (ix4 n i j ch) = Cert.Spec.padAt (z_main_v51 m c) n i.val j.val ch := by
  unfold W44
  rw [Host.pad_main_v54 (W43 m c) (by exact c_main_c_13 m c) n i j ch, keep_main_v51_43 m c, act_main_v51 m c]
theorem act_main_v55 : Cert.Spec.curry4 (W45 m c (Proc.devRef .tc main_v55) : FVec 𝕀 S16x56x56x256 .f32) = z_main_v55 m c := by
  unfold W45
  refine (Reg16.value (W44 m) c (z_main_v51 m c) (fun n i j ci => pad_main_v54 m c n i j ci)).trans ?_
  show Cert.Spec.convRelu _ (Cert.Spec.curryW (W44 m c (Proc.devRef .tc main_arg12) : FVec 𝕀 S3x3x256x256 .f32)) (Cert.Spec.curryB (W44 m c (Proc.devRef .tc main_arg13) : FVec 𝕀 S1x256 .f32)) = _
  rw [keep_main_arg12_44 m c, keep_main_arg13_44 m c]
  rfl
theorem c_main_c_14 : (W46 m c (Proc.devRef .tc main_c_14) : IVec S_ 32) = constantI S_ 32 0#32 := by
  unfold W46; exact Host.const_main_c_14 _
theorem pad_main_v56 (n : Fin 16) (i : Fin 70) (j : Fin 64) (ch : Fin 256) :
    (W47 m c (Proc.devRef .tc main_v56) : FVec 𝕀 S16x70x64x256 .f32) (ix4 n i j ch) = Cert.Spec.padAt (z_main_v53 m c) n i.val j.val ch := by
  unfold W47
  rw [Host.pad_main_v56 (W46 m c) (by exact c_main_c_14 m c) n i j ch, keep_main_v53_46 m c, act_main_v53 m c]
theorem act_main_v57 : Cert.Spec.curry4 (W48 m c (Proc.devRef .tc main_v57) : FVec 𝕀 S16x56x56x256 .f32) = z_main_v57 m c := by
  unfold W48
  refine (Reg17.value (W47 m) c (z_main_v53 m c) (fun n i j ci => pad_main_v56 m c n i j ci)).trans ?_
  show Cert.Spec.convRelu _ (Cert.Spec.curryW (W47 m c (Proc.devRef .tc main_arg12) : FVec 𝕀 S3x3x256x256 .f32)) (Cert.Spec.curryB (W47 m c (Proc.devRef .tc main_arg13) : FVec 𝕀 S1x256 .f32)) = _
  rw [keep_main_arg12_47 m c, keep_main_arg13_47 m c]
  rfl
theorem c_main_c_15 : (W49 m c (Proc.devRef .tc main_c_15) : IVec S_ 32) = constantI S_ 32 0#32 := by
  unfold W49; exact Host.const_main_c_15 _
theorem pad_main_v58 (n : Fin 16) (i : Fin 70) (j : Fin 64) (ch : Fin 256) :
    (W50 m c (Proc.devRef .tc main_v58) : FVec 𝕀 S16x70x64x256 .f32) (ix4 n i j ch) = Cert.Spec.padAt (z_main_v55 m c) n i.val j.val ch := by
  unfold W50
  rw [Host.pad_main_v58 (W49 m c) (by exact c_main_c_15 m c) n i j ch, keep_main_v55_49 m c, act_main_v55 m c]
theorem act_main_v59 : Cert.Spec.curry4 (W51 m c (Proc.devRef .tc main_v59) : FVec 𝕀 S16x56x56x256 .f32) = z_main_v59 m c := by
  unfold W51
  refine (Reg18.value (W50 m) c (z_main_v55 m c) (fun n i j ci => pad_main_v58 m c n i j ci)).trans ?_
  show Cert.Spec.convRelu _ (Cert.Spec.curryW (W50 m c (Proc.devRef .tc main_arg14) : FVec 𝕀 S3x3x256x256 .f32)) (Cert.Spec.curryB (W50 m c (Proc.devRef .tc main_arg15) : FVec 𝕀 S1x256 .f32)) = _
  rw [keep_main_arg14_50 m c, keep_main_arg15_50 m c]
  rfl
theorem c_main_c_16 : (W52 m c (Proc.devRef .tc main_c_16) : IVec S_ 32) = constantI S_ 32 0#32 := by
  unfold W52; exact Host.const_main_c_16 _
theorem pad_main_v60 (n : Fin 16) (i : Fin 70) (j : Fin 64) (ch : Fin 256) :
    (W53 m c (Proc.devRef .tc main_v60) : FVec 𝕀 S16x70x64x256 .f32) (ix4 n i j ch) = Cert.Spec.padAt (z_main_v57 m c) n i.val j.val ch := by
  unfold W53
  rw [Host.pad_main_v60 (W52 m c) (by exact c_main_c_16 m c) n i j ch, keep_main_v57_52 m c, act_main_v57 m c]
theorem act_main_v61 : Cert.Spec.curry4 (W54 m c (Proc.devRef .tc main_v61) : FVec 𝕀 S16x56x56x256 .f32) = z_main_v61 m c := by
  unfold W54
  refine (Reg19.value (W53 m) c (z_main_v57 m c) (fun n i j ci => pad_main_v60 m c n i j ci)).trans ?_
  show Cert.Spec.convRelu _ (Cert.Spec.curryW (W53 m c (Proc.devRef .tc main_arg14) : FVec 𝕀 S3x3x256x256 .f32)) (Cert.Spec.curryB (W53 m c (Proc.devRef .tc main_arg15) : FVec 𝕀 S1x256 .f32)) = _
  rw [keep_main_arg14_53 m c, keep_main_arg15_53 m c]
  rfl
theorem rows_main_v62 (r : Fin 25088) (k : Fin 512) :
    (W55 m c (Proc.devRef .tc main_v62) : FVec 𝕀 S25088x512 .f32) (ix2 r k) = Cert.Spec.flat (z_main_v59 m c) (r.val * 512 + k.val) := by
  unfold W55
  rw [Host.rows_main_v62 (W54 m c) r k, keep_main_v59_54 m c, act_main_v59 m c]
theorem rows_main_v63 (r : Fin 25088) (k : Fin 512) :
    (W55 m c (Proc.devRef .tc main_v63) : FVec 𝕀 S25088x512 .f32) (ix2 r k) = Cert.Spec.flat (z_main_v61 m c) (r.val * 512 + k.val) := by
  unfold W55
  rw [Host.rows_main_v63 (W54 m c) r k, act_main_v61 m c]
theorem l1_main_v64 : (W56 m c (Proc.devRef .tc main_v64) : FVec 𝕀 S1x1 .f32) (ix2 (0 : Fin 1) (0 : Fin 1))
      = ∑ r : Fin 25088, ∑ k : Fin 512, Cert.Spec.eabs (Cert.Spec.flat (z_main_v59 m c) (r.val * 512 + k.val) - Cert.Spec.flat (z_main_v61 m c) (r.val * 512 + k.val)) := by
  unfold W56
  exact Reg20.value (W55 m) c (z_main_v59 m c) (z_main_v61 m c)
    (fun r k => by exact rows_main_v62 m c r k) (fun r k => by exact rows_main_v63 m c r k)
theorem tot_main_v67 : @Eq EReal ((W57 m c (Proc.devRef .tc main_v67) : FVec 𝕀 S_ .f32) ix0) (((0 + Ideal.div (∑ r : Fin 100352, ∑ k : Fin 512, Cert.Spec.eabs (Cert.Spec.flat (z_main_v19 m c) (r.val * 512 + k.val) - Cert.Spec.flat (z_main_v21 m c) (r.val * 512 + k.val))) (Ideal.ofBits .f32 0x4C440000#32)) + Ideal.div (∑ r : Fin 50176, ∑ k : Fin 512, Cert.Spec.eabs (Cert.Spec.flat (z_main_v37 m c) (r.val * 512 + k.val) - Cert.Spec.flat (z_main_v39 m c) (r.val * 512 + k.val))) (Ideal.ofBits .f32 0x4BC40000#32)) + Ideal.div (∑ r : Fin 25088, ∑ k : Fin 512, Cert.Spec.eabs (Cert.Spec.flat (z_main_v59 m c) (r.val * 512 + k.val) - Cert.Spec.flat (z_main_v61 m c) (r.val * 512 + k.val))) (Ideal.ofBits .f32 0x4B440000#32)) := by
  unfold W57
  rw [Host.total_main_v67 (W56 m c), l1_main_v64 m c, keep_main_v45_56 m c, tot_main_v45 m c]
theorem pairs_main_v68 (n : Fin 16) (i : Fin 56) (j : Fin 28) (t : Fin 2) (ch : Fin 256) :
    (W57 m c (Proc.devRef .tc main_v68) : FVec 𝕀 S16x56x28x2x256 .f32) (ix5 n i j t ch) = (z_main_v59 m c) n i ⟨2 * j.val + t.val, by omega⟩ ch := by
  unfold W57
  rw [Host.pairs_main_v68 (W56 m c) n i j t ch, keep_main_v59_56 m c]
  exact congrFun (congrFun (congrFun (congrFun (act_main_v59 m c) n) i) _) ch
theorem act_main_v69 : Cert.Spec.curry4 (W58 m c (Proc.devRef .tc main_v69) : FVec 𝕀 S16x28x28x256 .f32) = z_main_v69 m c := by
  unfold W58
  exact Reg21.value (W57 m) c (z_main_v59 m c) (fun n i j t ch => pairs_main_v68 m c n i j t ch)
theorem pairs_main_v70 (n : Fin 16) (i : Fin 56) (j : Fin 28) (t : Fin 2) (ch : Fin 256) :
    (W59 m c (Proc.devRef .tc main_v70) : FVec 𝕀 S16x56x28x2x256 .f32) (ix5 n i j t ch) = (z_main_v61 m c) n i ⟨2 * j.val + t.val, by omega⟩ ch := by
  unfold W59
  rw [Host.pairs_main_v70 (W58 m c) n i j t ch, keep_main_v61_58 m c]
  exact congrFun (congrFun (congrFun (congrFun (act_main_v61 m c) n) i) _) ch
theorem act_main_v71 : Cert.Spec.curry4 (W60 m c (Proc.devRef .tc main_v71) : FVec 𝕀 S16x28x28x256 .f32) = z_main_v71 m c := by
  unfold W60
  exact Reg22.value (W59 m) c (z_main_v61 m c) (fun n i j t ch => pairs_main_v70 m c n i j t ch)
theorem c_main_c_18 : (W61 m c (Proc.devRef .tc main_c_18) : IVec S_ 32) = constantI S_ 32 0#32 := by
  unfold W61; exact Host.const_main_c_18 _
theorem pad_main_v72 (n : Fin 16) (i : Fin 35) (j : Fin 32) (ch : Fin 256) :
    (W62 m c (Proc.devRef .tc main_v72) : FVec 𝕀 S16x35x32x256 .f32) (ix4 n i j ch) = Cert.Spec.padAt (z_main_v69 m c) n i.val j.val ch := by
  unfold W62
  rw [Host.pad_main_v72 (W61 m c) (by exact c_main_c_18 m c) n i j ch, keep_main_v69_61 m c, act_main_v69 m c]
theorem act_main_v73 : Cert.Spec.curry4 (W63 m c (Proc.devRef .tc main_v73) : FVec 𝕀 S16x28x28x512 .f32) = z_main_v73 m c := by
  unfold W63
  refine (Reg23.value (W62 m) c (z_main_v69 m c) (fun n i j ci => pad_main_v72 m c n i j ci)).trans ?_
  show Cert.Spec.convRelu _ (Cert.Spec.curryW (W62 m c (Proc.devRef .tc main_arg16) : FVec 𝕀 S3x3x256x512 .f32)) (Cert.Spec.curryB (W62 m c (Proc.devRef .tc main_arg17) : FVec 𝕀 S1x512 .f32)) = _
  rw [keep_main_arg16_62 m c, keep_main_arg17_62 m c]
  rfl
theorem c_main_c_19 : (W64 m c (Proc.devRef .tc main_c_19) : IVec S_ 32) = constantI S_ 32 0#32 := by
  unfold W64; exact Host.const_main_c_19 _
theorem pad_main_v74 (n : Fin 16) (i : Fin 35) (j : Fin 32) (ch : Fin 256) :
    (W65 m c (Proc.devRef .tc main_v74) : FVec 𝕀 S16x35x32x256 .f32) (ix4 n i j ch) = Cert.Spec.padAt (z_main_v71 m c) n i.val j.val ch := by
  unfold W65
  rw [Host.pad_main_v74 (W64 m c) (by exact c_main_c_19 m c) n i j ch, keep_main_v71_64 m c, act_main_v71 m c]
theorem act_main_v75 : Cert.Spec.curry4 (W66 m c (Proc.devRef .tc main_v75) : FVec 𝕀 S16x28x28x512 .f32) = z_main_v75 m c := by
  unfold W66
  refine (Reg24.value (W65 m) c (z_main_v71 m c) (fun n i j ci => pad_main_v74 m c n i j ci)).trans ?_
  show Cert.Spec.convRelu _ (Cert.Spec.curryW (W65 m c (Proc.devRef .tc main_arg16) : FVec 𝕀 S3x3x256x512 .f32)) (Cert.Spec.curryB (W65 m c (Proc.devRef .tc main_arg17) : FVec 𝕀 S1x512 .f32)) = _
  rw [keep_main_arg16_65 m c, keep_main_arg17_65 m c]
  rfl
theorem c_main_c_20 : (W67 m c (Proc.devRef .tc main_c_20) : IVec S_ 32) = constantI S_ 32 0#32 := by
  unfold W67; exact Host.const_main_c_20 _
theorem pad_main_v76 (n : Fin 16) (i : Fin 35) (j : Fin 32) (ch : Fin 512) :
    (W68 m c (Proc.devRef .tc main_v76) : FVec 𝕀 S16x35x32x512 .f32) (ix4 n i j ch) = Cert.Spec.padAt (z_main_v73 m c) n i.val j.val ch := by
  unfold W68
  rw [Host.pad_main_v76 (W67 m c) (by exact c_main_c_20 m c) n i j ch, keep_main_v73_67 m c, act_main_v73 m c]
theorem act_main_v77 : Cert.Spec.curry4 (W69 m c (Proc.devRef .tc main_v77) : FVec 𝕀 S16x28x28x512 .f32) = z_main_v77 m c := by
  unfold W69
  refine (Reg25.value (W68 m) c (z_main_v73 m c) (fun n i j ci => pad_main_v76 m c n i j ci)).trans ?_
  show Cert.Spec.convRelu _ (Cert.Spec.curryW (W68 m c (Proc.devRef .tc main_arg18) : FVec 𝕀 S3x3x512x512 .f32)) (Cert.Spec.curryB (W68 m c (Proc.devRef .tc main_arg19) : FVec 𝕀 S1x512 .f32)) = _
  rw [keep_main_arg18_68 m c, keep_main_arg19_68 m c]
  rfl
theorem c_main_c_21 : (W70 m c (Proc.devRef .tc main_c_21) : IVec S_ 32) = constantI S_ 32 0#32 := by
  unfold W70; exact Host.const_main_c_21 _
theorem pad_main_v78 (n : Fin 16) (i : Fin 35) (j : Fin 32) (ch : Fin 512) :
    (W71 m c (Proc.devRef .tc main_v78) : FVec 𝕀 S16x35x32x512 .f32) (ix4 n i j ch) = Cert.Spec.padAt (z_main_v75 m c) n i.val j.val ch := by
  unfold W71
  rw [Host.pad_main_v78 (W70 m c) (by exact c_main_c_21 m c) n i j ch, keep_main_v75_70 m c, act_main_v75 m c]
theorem act_main_v79 : Cert.Spec.curry4 (W72 m c (Proc.devRef .tc main_v79) : FVec 𝕀 S16x28x28x512 .f32) = z_main_v79 m c := by
  unfold W72
  refine (Reg26.value (W71 m) c (z_main_v75 m c) (fun n i j ci => pad_main_v78 m c n i j ci)).trans ?_
  show Cert.Spec.convRelu _ (Cert.Spec.curryW (W71 m c (Proc.devRef .tc main_arg18) : FVec 𝕀 S3x3x512x512 .f32)) (Cert.Spec.curryB (W71 m c (Proc.devRef .tc main_arg19) : FVec 𝕀 S1x512 .f32)) = _
  rw [keep_main_arg18_71 m c, keep_main_arg19_71 m c]
  rfl
theorem c_main_c_22 : (W73 m c (Proc.devRef .tc main_c_22) : IVec S_ 32) = constantI S_ 32 0#32 := by
  unfold W73; exact Host.const_main_c_22 _
theorem pad_main_v80 (n : Fin 16) (i : Fin 35) (j : Fin 32) (ch : Fin 512) :
    (W74 m c (Proc.devRef .tc main_v80) : FVec 𝕀 S16x35x32x512 .f32) (ix4 n i j ch) = Cert.Spec.padAt (z_main_v77 m c) n i.val j.val ch := by
  unfold W74
  rw [Host.pad_main_v80 (W73 m c) (by exact c_main_c_22 m c) n i j ch, keep_main_v77_73 m c, act_main_v77 m c]
theorem act_main_v81 : Cert.Spec.curry4 (W75 m c (Proc.devRef .tc main_v81) : FVec 𝕀 S16x28x28x512 .f32) = z_main_v81 m c := by
  unfold W75
  refine (Reg27.value (W74 m) c (z_main_v77 m c) (fun n i j ci => pad_main_v80 m c n i j ci)).trans ?_
  show Cert.Spec.convRelu _ (Cert.Spec.curryW (W74 m c (Proc.devRef .tc main_arg20) : FVec 𝕀 S3x3x512x512 .f32)) (Cert.Spec.curryB (W74 m c (Proc.devRef .tc main_arg21) : FVec 𝕀 S1x512 .f32)) = _
  rw [keep_main_arg20_74 m c, keep_main_arg21_74 m c]
  rfl
theorem c_main_c_23 : (W76 m c (Proc.devRef .tc main_c_23) : IVec S_ 32) = constantI S_ 32 0#32 := by
  unfold W76; exact Host.const_main_c_23 _
theorem pad_main_v82 (n : Fin 16) (i : Fin 35) (j : Fin 32) (ch : Fin 512) :
    (W77 m c (Proc.devRef .tc main_v82) : FVec 𝕀 S16x35x32x512 .f32) (ix4 n i j ch) = Cert.Spec.padAt (z_main_v79 m c) n i.val j.val ch := by
  unfold W77
  rw [Host.pad_main_v82 (W76 m c) (by exact c_main_c_23 m c) n i j ch, keep_main_v79_76 m c, act_main_v79 m c]
theorem act_main_v83 : Cert.Spec.curry4 (W78 m c (Proc.devRef .tc main_v83) : FVec 𝕀 S16x28x28x512 .f32) = z_main_v83 m c := by
  unfold W78
  refine (Reg28.value (W77 m) c (z_main_v79 m c) (fun n i j ci => pad_main_v82 m c n i j ci)).trans ?_
  show Cert.Spec.convRelu _ (Cert.Spec.curryW (W77 m c (Proc.devRef .tc main_arg20) : FVec 𝕀 S3x3x512x512 .f32)) (Cert.Spec.curryB (W77 m c (Proc.devRef .tc main_arg21) : FVec 𝕀 S1x512 .f32)) = _
  rw [keep_main_arg20_77 m c, keep_main_arg21_77 m c]
  rfl
theorem rows_main_v84 (r : Fin 12544) (k : Fin 512) :
    (W79 m c (Proc.devRef .tc main_v84) : FVec 𝕀 S12544x512 .f32) (ix2 r k) = Cert.Spec.flat (z_main_v81 m c) (r.val * 512 + k.val) := by
  unfold W79
  rw [Host.rows_main_v84 (W78 m c) r k, keep_main_v81_78 m c, act_main_v81 m c]
theorem rows_main_v85 (r : Fin 12544) (k : Fin 512) :
    (W79 m c (Proc.devRef .tc main_v85) : FVec 𝕀 S12544x512 .f32) (ix2 r k) = Cert.Spec.flat (z_main_v83 m c) (r.val * 512 + k.val) := by
  unfold W79
  rw [Host.rows_main_v85 (W78 m c) r k, act_main_v83 m c]
theorem l1_main_v86 : (W80 m c (Proc.devRef .tc main_v86) : FVec 𝕀 S1x1 .f32) (ix2 (0 : Fin 1) (0 : Fin 1))
      = ∑ r : Fin 12544, ∑ k : Fin 512, Cert.Spec.eabs (Cert.Spec.flat (z_main_v81 m c) (r.val * 512 + k.val) - Cert.Spec.flat (z_main_v83 m c) (r.val * 512 + k.val)) := by
  unfold W80
  exact Reg29.value (W79 m) c (z_main_v81 m c) (z_main_v83 m c)
    (fun r k => by exact rows_main_v84 m c r k) (fun r k => by exact rows_main_v85 m c r k)
theorem tot_main_v89 : @Eq EReal ((W81 m c (Proc.devRef .tc main_v89) : FVec 𝕀 S_ .f32) ix0) ((((0 + Ideal.div (∑ r : Fin 100352, ∑ k : Fin 512, Cert.Spec.eabs (Cert.Spec.flat (z_main_v19 m c) (r.val * 512 + k.val) - Cert.Spec.flat (z_main_v21 m c) (r.val * 512 + k.val))) (Ideal.ofBits .f32 0x4C440000#32)) + Ideal.div (∑ r : Fin 50176, ∑ k : Fin 512, Cert.Spec.eabs (Cert.Spec.flat (z_main_v37 m c) (r.val * 512 + k.val) - Cert.Spec.flat (z_main_v39 m c) (r.val * 512 + k.val))) (Ideal.ofBits .f32 0x4BC40000#32)) + Ideal.div (∑ r : Fin 25088, ∑ k : Fin 512, Cert.Spec.eabs (Cert.Spec.flat (z_main_v59 m c) (r.val * 512 + k.val) - Cert.Spec.flat (z_main_v61 m c) (r.val * 512 + k.val))) (Ideal.ofBits .f32 0x4B440000#32)) + Ideal.div (∑ r : Fin 12544, ∑ k : Fin 512, Cert.Spec.eabs (Cert.Spec.flat (z_main_v81 m c) (r.val * 512 + k.val) - Cert.Spec.flat (z_main_v83 m c) (r.val * 512 + k.val))) (Ideal.ofBits .f32 0x4AC40000#32)) := by
  unfold W81
  rw [Host.total_main_v89 (W80 m c), l1_main_v86 m c, keep_main_v67_80 m c, tot_main_v67 m c]

/-- THE VALUE: the result's one entry is the specification's two-stream loss of the arguments. -/
theorem result_eq : @Eq EReal ((W81 m c (Proc.devRef .tc main_v89) : FVec 𝕀 S_ .f32) ix0) (Cert.Spec.lossR (args m c)) := by
  rw [tot_main_v89 m c]
  rfl

end Cert.ReferenceIdeal.Value

end
-- ==== Proof.RI.Run.lean ====
import proofs.«143011_g2000502688546152_pallasbulk_1201_3_alg».proof.Proof.RI.RunAll
import proofs.«143011_g2000502688546152_pallasbulk_1201_3_alg».proof.Proof.RI.Value

/-! # The two-stream program's run: its frame, its result, and the result as the specification's loss

The program carries the input and the target separately through ten convolutions and three poolings each, takes the mean
absolute difference at four levels, and adds the four. Here: the arguments as the specification reads them (`args`),
the result buffer as a function of the launch memory (`result`), the run (`run`: every execution ends with the
result buffer at `result` and every argument as launched), the frame (`frame`), and the result's one entry as the
specification's two-stream loss of the arguments (`result_eq`). -/

set_option maxRecDepth 16384

noncomputable section

namespace Cert.ReferenceIdeal.Run

open Idealize.ShloMosaic Idealize.ShloMosaic.TcCoe Idealize.ShloMosaic.ValueIdx
open Idealize.SL Idealize.SL.Sem
open Cert.ReferenceIdeal.Gen Cert.ReferenceIdeal.Chain

variable {F : FTy → Type} [FloatOps F]

/-- The arguments as the specification reads them: the two image stacks entry by entry, each kernel array at
    (row tap, column tap, input channel, output channel), each bias at its channel. -/
abbrev args (m : (ℓ : Loc nD τ sig) → Buf (Elt Idealize.ShloMosaic.Ideal) ℓ) (c : Dev nD) : Cert.Spec.Args :=
  Cert.ReferenceIdeal.Value.args m c

variable (m : (ℓ : Loc nD τ sig) → Buf (Elt F) ℓ)

/-- The result buffer after the run, as a function of the launch memory: the last valuation at the result. -/
def result (c : Dev nD) : Buf (Elt F) ((c.tc : Thread nD τ).loc main_v89) :=
  W81 m c (Proc.devRef .tc main_v89)

theorem W81_main_arg0 (c : Dev nD) : W81 m c (Proc.devRef .tc main_arg0) = m ((c.tc : Thread nD τ).loc main_arg0) :=
  (congrFun (V81_eq m c) _).symm.trans (V81_main_arg0 m (outs m) c)
theorem W81_main_arg1 (c : Dev nD) : W81 m c (Proc.devRef .tc main_arg1) = m ((c.tc : Thread nD τ).loc main_arg1) :=
  (congrFun (V81_eq m c) _).symm.trans (V81_main_arg1 m (outs m) c)
theorem W81_main_arg2 (c : Dev nD) : W81 m c (Proc.devRef .tc main_arg2) = m ((c.tc : Thread nD τ).loc main_arg2) :=
  (congrFun (V81_eq m c) _).symm.trans (V81_main_arg2 m (outs m) c)
theorem W81_main_arg3 (c : Dev nD) : W81 m c (Proc.devRef .tc main_arg3) = m ((c.tc : Thread nD τ).loc main_arg3) :=
  (congrFun (V81_eq m c) _).symm.trans (V81_main_arg3 m (outs m) c)
theorem W81_main_arg4 (c : Dev nD) : W81 m c (Proc.devRef .tc main_arg4) = m ((c.tc : Thread nD τ).loc main_arg4) :=
  (congrFun (V81_eq m c) _).symm.trans (V81_main_arg4 m (outs m) c)
theorem W81_main_arg5 (c : Dev nD) : W81 m c (Proc.devRef .tc main_arg5) = m ((c.tc : Thread nD τ).loc main_arg5) :=
  (congrFun (V81_eq m c) _).symm.trans (V81_main_arg5 m (outs m) c)
theorem W81_main_arg6 (c : Dev nD) : W81 m c (Proc.devRef .tc main_arg6) = m ((c.tc : Thread nD τ).loc main_arg6) :=
  (congrFun (V81_eq m c) _).symm.trans (V81_main_arg6 m (outs m) c)
theorem W81_main_arg7 (c : Dev nD) : W81 m c (Proc.devRef .tc main_arg7) = m ((c.tc : Thread nD τ).loc main_arg7) :=
  (congrFun (V81_eq m c) _).symm.trans (V81_main_arg7 m (outs m) c)
theorem W81_main_arg8 (c : Dev nD) : W81 m c (Proc.devRef .tc main_arg8) = m ((c.tc : Thread nD τ).loc main_arg8) :=
  (congrFun (V81_eq m c) _).symm.trans (V81_main_arg8 m (outs m) c)
theorem W81_main_arg9 (c : Dev nD) : W81 m c (Proc.devRef .tc main_arg9) = m ((c.tc : Thread nD τ).loc main_arg9) :=
  (congrFun (V81_eq m c) _).symm.trans (V81_main_arg9 m (outs m) c)
theorem W81_main_arg10 (c : Dev nD) : W81 m c (Proc.devRef .tc main_arg10) = m ((c.tc : Thread nD τ).loc main_arg10) :=
  (congrFun (V81_eq m c) _).symm.trans (V81_main_arg10 m (outs m) c)
theorem W81_main_arg11 (c : Dev nD) : W81 m c (Proc.devRef .tc main_arg11) = m ((c.tc : Thread nD τ).loc main_arg11) :=
  (congrFun (V81_eq m c) _).symm.trans (V81_main_arg11 m (outs m) c)
theorem W81_main_arg12 (c : Dev nD) : W81 m c (Proc.devRef .tc main_arg12) = m ((c.tc : Thread nD τ).loc main_arg12) :=
  (congrFun (V81_eq m c) _).symm.trans (V81_main_arg12 m (outs m) c)
theorem W81_main_arg13 (c : Dev nD) : W81 m c (Proc.devRef .tc main_arg13) = m ((c.tc : Thread nD τ).loc main_arg13) :=
  (congrFun (V81_eq m c) _).symm.trans (V81_main_arg13 m (outs m) c)
theorem W81_main_arg14 (c : Dev nD) : W81 m c (Proc.devRef .tc main_arg14) = m ((c.tc : Thread nD τ).loc main_arg14) :=
  (congrFun (V81_eq m c) _).symm.trans (V81_main_arg14 m (outs m) c)
theorem W81_main_arg15 (c : Dev nD) : W81 m c (Proc.devRef .tc main_arg15) = m ((c.tc : Thread nD τ).loc main_arg15) :=
  (congrFun (V81_eq m c) _).symm.trans (V81_main_arg15 m (outs m) c)
theorem W81_main_arg16 (c : Dev nD) : W81 m c (Proc.devRef .tc main_arg16) = m ((c.tc : Thread nD τ).loc main_arg16) :=
  (congrFun (V81_eq m c) _).symm.trans (V81_main_arg16 m (outs m) c)
theorem W81_main_arg17 (c : Dev nD) : W81 m c (Proc.devRef .tc main_arg17) = m ((c.tc : Thread nD τ).loc main_arg17) :=
  (congrFun (V81_eq m c) _).symm.trans (V81_main_arg17 m (outs m) c)
theorem W81_main_arg18 (c : Dev nD) : W81 m c (Proc.devRef .tc main_arg18) = m ((c.tc : Thread nD τ).loc main_arg18) :=
  (congrFun (V81_eq m c) _).symm.trans (V81_main_arg18 m (outs m) c)
theorem W81_main_arg19 (c : Dev nD) : W81 m c (Proc.devRef .tc main_arg19) = m ((c.tc : Thread nD τ).loc main_arg19) :=
  (congrFun (V81_eq m c) _).symm.trans (V81_main_arg19 m (outs m) c)
theorem W81_main_arg20 (c : Dev nD) : W81 m c (Proc.devRef .tc main_arg20) = m ((c.tc : Thread nD τ).loc main_arg20) :=
  (congrFun (V81_eq m c) _).symm.trans (V81_main_arg20 m (outs m) c)
theorem W81_main_arg21 (c : Dev nD) : W81 m c (Proc.devRef .tc main_arg21) = m ((c.tc : Thread nD τ).loc main_arg21) :=
  (congrFun (V81_eq m c) _).symm.trans (V81_main_arg21 m (outs m) c)

/-- THE RUN: every weakly fair execution terminates, nothing faulting; the result buffer ends at `result m c` and every
    argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v89) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨h c (Proc.devRef .tc main_v89) (Finset.mem_filter.mpr ⟨StableHlo.devRef_mem_tcRefs main_v89, by decide⟩),
      (h c (Proc.devRef .tc main_arg0) (Finset.mem_filter.mpr ⟨StableHlo.devRef_mem_tcRefs main_arg0, by decide⟩)).trans (W81_main_arg0 m c),
      (h c (Proc.devRef .tc main_arg1) (Finset.mem_filter.mpr ⟨StableHlo.devRef_mem_tcRefs main_arg1, by decide⟩)).trans (W81_main_arg1 m c),
      (h c (Proc.devRef .tc main_arg2) (Finset.mem_filter.mpr ⟨StableHlo.devRef_mem_tcRefs main_arg2, by decide⟩)).trans (W81_main_arg2 m c),
      (h c (Proc.devRef .tc main_arg3) (Finset.mem_filter.mpr ⟨StableHlo.devRef_mem_tcRefs main_arg3, by decide⟩)).trans (W81_main_arg3 m c),
      (h c (Proc.devRef .tc main_arg4) (Finset.mem_filter.mpr ⟨StableHlo.devRef_mem_tcRefs main_arg4, by decide⟩)).trans (W81_main_arg4 m c),
      (h c (Proc.devRef .tc main_arg5) (Finset.mem_filter.mpr ⟨StableHlo.devRef_mem_tcRefs main_arg5, by decide⟩)).trans (W81_main_arg5 m c),
      (h c (Proc.devRef .tc main_arg6) (Finset.mem_filter.mpr ⟨StableHlo.devRef_mem_tcRefs main_arg6, by decide⟩)).trans (W81_main_arg6 m c),
      (h c (Proc.devRef .tc main_arg7) (Finset.mem_filter.mpr ⟨StableHlo.devRef_mem_tcRefs main_arg7, by decide⟩)).trans (W81_main_arg7 m c),
      (h c (Proc.devRef .tc main_arg8) (Finset.mem_filter.mpr ⟨StableHlo.devRef_mem_tcRefs main_arg8, by decide⟩)).trans (W81_main_arg8 m c),
      (h c (Proc.devRef .tc main_arg9) (Finset.mem_filter.mpr ⟨StableHlo.devRef_mem_tcRefs main_arg9, by decide⟩)).trans (W81_main_arg9 m c),
      (h c (Proc.devRef .tc main_arg10) (Finset.mem_filter.mpr ⟨StableHlo.devRef_mem_tcRefs main_arg10, by decide⟩)).trans (W81_main_arg10 m c),
      (h c (Proc.devRef .tc main_arg11) (Finset.mem_filter.mpr ⟨StableHlo.devRef_mem_tcRefs main_arg11, by decide⟩)).trans (W81_main_arg11 m c),
      (h c (Proc.devRef .tc main_arg12) (Finset.mem_filter.mpr ⟨StableHlo.devRef_mem_tcRefs main_arg12, by decide⟩)).trans (W81_main_arg12 m c),
      (h c (Proc.devRef .tc main_arg13) (Finset.mem_filter.mpr ⟨StableHlo.devRef_mem_tcRefs main_arg13, by decide⟩)).trans (W81_main_arg13 m c),
      (h c (Proc.devRef .tc main_arg14) (Finset.mem_filter.mpr ⟨StableHlo.devRef_mem_tcRefs main_arg14, by decide⟩)).trans (W81_main_arg14 m c),
      (h c (Proc.devRef .tc main_arg15) (Finset.mem_filter.mpr ⟨StableHlo.devRef_mem_tcRefs main_arg15, by decide⟩)).trans (W81_main_arg15 m c),
      (h c (Proc.devRef .tc main_arg16) (Finset.mem_filter.mpr ⟨StableHlo.devRef_mem_tcRefs main_arg16, by decide⟩)).trans (W81_main_arg16 m c),
      (h c (Proc.devRef .tc main_arg17) (Finset.mem_filter.mpr ⟨StableHlo.devRef_mem_tcRefs main_arg17, by decide⟩)).trans (W81_main_arg17 m c),
      (h c (Proc.devRef .tc main_arg18) (Finset.mem_filter.mpr ⟨StableHlo.devRef_mem_tcRefs main_arg18, by decide⟩)).trans (W81_main_arg18 m c),
      (h c (Proc.devRef .tc main_arg19) (Finset.mem_filter.mpr ⟨StableHlo.devRef_mem_tcRefs main_arg19, by decide⟩)).trans (W81_main_arg19 m c),
      (h c (Proc.devRef .tc main_arg20) (Finset.mem_filter.mpr ⟨StableHlo.devRef_mem_tcRefs main_arg20, by decide⟩)).trans (W81_main_arg20 m c),
      (h c (Proc.devRef .tc main_arg21) (Finset.mem_filter.mpr ⟨StableHlo.devRef_mem_tcRefs main_arg21, by decide⟩)).trans (W81_main_arg21 m c)⟩)
    (Cert.ReferenceIdeal.RunAll.run_all m ρ)

/-- THE FRAME: every weakly fair execution terminates, nothing faulting, every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => (h c).2) (run m ρ)

/-- THE VALUE: with exact arithmetic the result's one entry is the two-stream loss of the arguments. -/
theorem result_eq (m : (ℓ : Loc nD τ sig) → Buf (Elt Idealize.ShloMosaic.Ideal) ℓ) (c : Dev nD) :
    result (F := Idealize.ShloMosaic.Ideal) m c ix0 = Cert.Spec.lossR (args m c) :=
  Cert.ReferenceIdeal.Value.result_eq m c

end Cert.ReferenceIdeal.Run

end
-- ==== Proof.Spec.Bridge.lean ====
/-
  The two arrangements give the same loss. Every layer acts on each image by itself, so stacking input and target into one
  batch of 32 commutes with normalisation, convolution and pooling; the 32-stack read in the row-major order is the first
  stack below the half-way position and the second stack from it on; and the sixteen per-image partial sums of rows of 512
  are one sum over all rows regrouped. Only associativity and commutativity of + on the extended reals are used:
  no finiteness of the inputs is needed.
-/
import proofs.«143011_g2000502688546152_pallasbulk_1201_3_alg».proof.Proof.Spec.Flat

noncomputable section

open scoped BigOperators

namespace Cert.Spec

open Idealize.ShloMosaic

/-- A single image as a stack of one. -/
def one {H W C : ℕ} (f : Fin H → Fin W → Fin C → EReal) : Act 1 H W C := fun _ => f

/-- A map applied image by image commutes with stacking. -/
theorem cat_map {α β : Type} (F : α → β) (x y : Fin 16 → α) :
    (fun n => F (cat x y n)) = cat (fun n => F (x n)) (fun n => F (y n)) := by
  funext n
  have hn32 := n.isLt
  by_cases hn : n.val < 16
  · rw [cat_lo x y n ⟨n.val, hn⟩ rfl, cat_lo _ _ n ⟨n.val, hn⟩ rfl]
  · rw [cat_hi x y n ⟨n.val - 16, by omega⟩ (by simp only; omega),
      cat_hi _ _ n ⟨n.val - 16, by omega⟩ (by simp only; omega)]

/-- Normalisation commutes with stacking. -/
theorem normalise_cat {H W : ℕ} (x y : Fin 16 → Fin 3 → Fin H → Fin W → EReal) :
    normalise (cat x y) = cat (normalise x) (normalise y) :=
  cat_map (fun img => normalise (fun _ : Fin 1 => img) 0) x y

/-- Convolution with ReLU commutes with stacking. -/
theorem convRelu_cat {H W Cin Cout : ℕ} (x y : Act 16 H W Cin) (w : Wt Cin Cout) (b : Fin Cout → EReal) :
    convRelu (cat x y : Act 32 H W Cin) w b = cat (convRelu x w b) (convRelu y w b) :=
  cat_map (fun img => convRelu (one img) w b 0) x y

/-- Pooling commutes with stacking. -/
theorem pool2x2_cat {H W C : ℕ} (x y : Act 16 H W C) :
    pool2x2 (cat x y : Act 32 H W C) = cat (pool2x2 x) (pool2x2 y) :=
  cat_map (fun img => pool2x2 (one img) 0) x y

theorem feat0_cat (P : Weights) (x y : Act 16 224 224 3) :
    feat0 P (cat x y : Act 32 224 224 3) = cat (feat0 P x) (feat0 P y) := by
  unfold feat0
  rw [convRelu_cat, convRelu_cat]

theorem feat1_cat (P : Weights) (x y : Act 16 224 224 64) :
    feat1 P (cat x y : Act 32 224 224 64) = cat (feat1 P x) (feat1 P y) := by
  unfold feat1
  rw [pool2x2_cat, convRelu_cat, convRelu_cat]

theorem feat2_cat (P : Weights) (x y : Act 16 112 112 128) :
    feat2 P (cat x y : Act 32 112 112 128) = cat (feat2 P x) (feat2 P y) := by
  unfold feat2
  rw [pool2x2_cat, convRelu_cat, convRelu_cat, convRelu_cat]

theorem feat3_cat (P : Weights) (x y : Act 16 56 56 256) :
    feat3 P (cat x y : Act 32 56 56 256) = cat (feat3 P x) (feat3 P y) := by
  unfold feat3
  rw [pool2x2_cat, convRelu_cat, convRelu_cat, convRelu_cat]

theorem lvl0_cat (P : Weights) (x y : Act 16 224 224 3) :
    lvl0 P (cat x y : Act 32 224 224 3) = cat (lvl0 P x) (lvl0 P y) := feat0_cat P x y

theorem lvl1_cat (P : Weights) (x y : Act 16 224 224 3) :
    lvl1 P (cat x y : Act 32 224 224 3) = cat (lvl1 P x) (lvl1 P y) := by
  unfold lvl1; rw [lvl0_cat, feat1_cat]

theorem lvl2_cat (P : Weights) (x y : Act 16 224 224 3) :
    lvl2 P (cat x y : Act 32 224 224 3) = cat (lvl2 P x) (lvl2 P y) := by
  unfold lvl2; rw [lvl1_cat, feat2_cat]

theorem lvl3_cat (P : Weights) (x y : Act 16 224 224 3) :
    lvl3 P (cat x y : Act 32 224 224 3) = cat (lvl3 P x) (lvl3 P y) := by
  unfold lvl3; rw [lvl2_cat, feat3_cat]

/-- One feature level: the sixteen per-image partial sums over the stack of 32 are the one sum over all rows of the two
    streams, when an image is Q rows of 512 entries and there are M = 16·Q rows in all. -/
theorem l1K_cat {H W C : ℕ} (Q M : ℕ) (hM : M = 16 * Q) (hQ : Q * 512 = C * (W * H)) (x y : Act 16 H W C)
    (total : BitVec 32) : l1K Q (cat x y : Act 32 H W C) total = l1R M x y total := by
  subst hM
  unfold l1K l1R
  rw [zero_add]
  congr 1
  have e := sum_rows Q (fun r => ∑ k : Fin 512, eabs (flat x (r * 512 + k.val) - flat y (r * 512 + k.val)))
  rw [e]
  refine Finset.sum_congr rfl fun n _ => ?_
  unfold l1PartK
  refine Finset.sum_congr rfl fun q _ => Finset.sum_congr rfl fun k _ => ?_
  have hS : C * (W * (H * 16)) = 512 * (Q * 16) := by
    have : C * (W * (H * 16)) = C * (W * H) * 16 := by ring
    rw [this, ← hQ]; ring
  have hp : (n.val * Q + q.val) * 512 + k.val < C * (W * (H * 16)) := by
    rw [hS]; exact lt_mul_of (lt_mul_of n.isLt q.isLt) k.isLt
  have hs : ((n.val + 16) * Q + q.val) * 512 + k.val = (n.val * Q + q.val) * 512 + k.val + C * (W * (H * 16)) := by
    rw [hS]; ring
  rw [flat_cat_lo x y _ hp, hs, flat_cat_hi x y _ hp]

/-- The loss in the batch arrangement is the loss in the two-stream arrangement. -/
theorem lossK_eq_lossR (A : Args) : lossK A = lossR A := by
  unfold lossK lossR
  simp only []
  rw [normalise_cat, lvl0_cat, lvl1_cat, lvl2_cat, lvl3_cat]
  rw [l1K_cat 6272 100352 (by norm_num) (by norm_num), l1K_cat 3136 50176 (by norm_num) (by norm_num),
    l1K_cat 1568 25088 (by norm_num) (by norm_num), l1K_cat 784 12544 (by norm_num) (by norm_num)]

end Cert.Spec

end
-- ==== Proof.Claims.lean ====
/-
  The five conjuncts of the claim, assembled.

  Each of the three programs is a chain of host operations around TensorCore regions (17 for the kernel, 30 for the
  reference). Its run theorem says: every weakly fair execution ends, faults nowhere, leaves the 22 argument arrays as
  launched, and leaves in the result buffer a named scalar `result m c`. The frames are those runs with the result
  forgotten. The word-level kernel and its idealization are one text in two namespaces, so their frames are one proof
  read at two instances; the idealization's ledger is empty, so there is nothing to preserve.

  At the ideal instance the kernel's scalar is `lossK` of the arguments — one batch of 32 images (input ++ target)
  through normalisation, the ten convolution + ReLU layers, the three 2×2 poolings, and per level the sum over the 16
  image pairs of the per-image sums of |a − b|, divided by the level's element count — and the reference's is `lossR`:
  the two streams of 16 kept apart, one running sum per level. The two are equal on the extended reals because every
  layer acts image by image (so it commutes with concatenating the batches), the folded convolution is the same finite
  sum taken in another order, and a sum of per-image sums is the whole sum: only commutativity and associativity of +.
-/
import proofs.«143011_g2000502688546152_pallasbulk_1201_3_alg».proof.Defs
import proofs.«143011_g2000502688546152_pallasbulk_1201_3_alg».proof.Proof.Gen.Kernel
import proofs.«143011_g2000502688546152_pallasbulk_1201_3_alg».proof.Proof.Gen.KernelIdeal
import proofs.«143011_g2000502688546152_pallasbulk_1201_3_alg».proof.Proof.Gen.ReferenceIdeal
import proofs.«143011_g2000502688546152_pallasbulk_1201_3_alg».proof.Proof.Gen.Pre_finite_inputs
import proofs.«143011_g2000502688546152_pallasbulk_1201_3_alg».proof.Proof.K.Run
import proofs.«143011_g2000502688546152_pallasbulk_1201_3_alg».proof.Proof.KI.Run
import proofs.«143011_g2000502688546152_pallasbulk_1201_3_alg».proof.Proof.KI.RunValue
import proofs.«143011_g2000502688546152_pallasbulk_1201_3_alg».proof.Proof.RI.Run
import proofs.«143011_g2000502688546152_pallasbulk_1201_3_alg».proof.Proof.Spec.Bridge
import proofs.«143011_g2000502688546152_pallasbulk_1201_3_alg».proof.Proof.Spec.ArgsOf

noncomputable section

namespace Cert.Proof.Claims

open Idealize.ShloMosaic Idealize.ShloMosaic.TcCoe Idealize.SL.Sem

/-- The word-level kernel runs to the end and leaves its arguments as launched. -/
theorem frame_kernel : Cert.frame_Kernel (hKernel := Cert.Kernel.Gen.facts) (hPre_finite_inputs := Cert.Pre_finite_inputs.Gen.facts) :=
  fun m ρ _ => Cert.Kernel.Run.frame (F := Bits) m ρ

/-- The idealized kernel runs to the end and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The idealized reference runs to the end and leaves its arguments as launched. -/
theorem frame_referenceIdeal : Cert.frame_ReferenceIdeal (hReferenceIdeal := Cert.ReferenceIdeal.Gen.facts) (hPre_finite_inputs := Cert.Pre_finite_inputs.Gen.facts) :=
  fun m ρ _ => Cert.ReferenceIdeal.Run.frame (F := Ideal) m ρ

/-- The ideal pass rewrote nothing in this kernel. -/
theorem preserves : Cert.preserves_Kernel_KernelIdeal := trivial

/-- Equal argument arrays give equal argument records. -/
theorem ofArrays_congr
    {a0 b0 : (⟨4, ![16, 3, 224, 224]⟩ : Shape).Idx → EReal}
    {a1 b1 : (⟨4, ![16, 3, 224, 224]⟩ : Shape).Idx → EReal}
    {a2 b2 : (⟨4, ![3, 3, 3, 64]⟩ : Shape).Idx → EReal}
    {a3 b3 : (⟨2, ![1, 64]⟩ : Shape).Idx → EReal}
    {a4 b4 : (⟨4, ![3, 3, 64, 64]⟩ : Shape).Idx → EReal}
    {a5 b5 : (⟨2, ![1, 64]⟩ : Shape).Idx → EReal}
    {a6 b6 : (⟨4, ![3, 3, 64, 128]⟩ : Shape).Idx → EReal}
    {a7 b7 : (⟨2, ![1, 128]⟩ : Shape).Idx → EReal}
    {a8 b8 : (⟨4, ![3, 3, 128, 128]⟩ : Shape).Idx → EReal}
    {a9 b9 : (⟨2, ![1, 128]⟩ : Shape).Idx → EReal}
    {a10 b10 : (⟨4, ![3, 3, 128, 256]⟩ : Shape).Idx → EReal}
    {a11 b11 : (⟨2, ![1, 256]⟩ : Shape).Idx → EReal}
    {a12 b12 : (⟨4, ![3, 3, 256, 256]⟩ : Shape).Idx → EReal}
    {a13 b13 : (⟨2, ![1, 256]⟩ : Shape).Idx → EReal}
    {a14 b14 : (⟨4, ![3, 3, 256, 256]⟩ : Shape).Idx → EReal}
    {a15 b15 : (⟨2, ![1, 256]⟩ : Shape).Idx → EReal}
    {a16 b16 : (⟨4, ![3, 3, 256, 512]⟩ : Shape).Idx → EReal}
    {a17 b17 : (⟨2, ![1, 512]⟩ : Shape).Idx → EReal}
    {a18 b18 : (⟨4, ![3, 3, 512, 512]⟩ : Shape).Idx → EReal}
    {a19 b19 : (⟨2, ![1, 512]⟩ : Shape).Idx → EReal}
    {a20 b20 : (⟨4, ![3, 3, 512, 512]⟩ : Shape).Idx → EReal}
    {a21 b21 : (⟨2, ![1, 512]⟩ : Shape).Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) :
    Cert.Spec.Args.ofArrays a0 a1 a2 a3 a4 a5 a6 a7 a8 a9 a10 a11 a12 a13 a14 a15 a16 a17 a18 a19 a20 a21 = Cert.Spec.Args.ofArrays b0 b1 b2 b3 b4 b5 b6 b7 b8 b9 b10 b11 b12 b13 b14 b15 b16 b17 b18 b19 b20 b21 := by
  subst h0 h1 h2 h3 h4 h5 h6 h7 h8 h9 h10 h11 h12 h13 h14 h15 h16 h17 h18 h19 h20 h21
  rfl

/-- Memories that agree on the 22 argument buffers give the two programs the same arguments as index functions.
    (Each equation is stated at the plain function type of its array, so that each side is read on its own.) -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : @Eq ((⟨4, ![16, 3, 224, 224]⟩ : Shape).Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0)))
    (h1 : @Eq ((⟨4, ![16, 3, 224, 224]⟩ : Shape).Idx → EReal) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1)))
    (h2 : @Eq ((⟨4, ![3, 3, 3, 64]⟩ : Shape).Idx → EReal) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2)))
    (h3 : @Eq ((⟨2, ![1, 64]⟩ : Shape).Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)))
    (h4 : @Eq ((⟨4, ![3, 3, 64, 64]⟩ : Shape).Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)))
    (h5 : @Eq ((⟨2, ![1, 64]⟩ : Shape).Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)))
    (h6 : @Eq ((⟨4, ![3, 3, 64, 128]⟩ : Shape).Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)))
    (h7 : @Eq ((⟨2, ![1, 128]⟩ : Shape).Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)))
    (h8 : @Eq ((⟨4, ![3, 3, 128, 128]⟩ : Shape).Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)))
    (h9 : @Eq ((⟨2, ![1, 128]⟩ : Shape).Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9)))
    (h10 : @Eq ((⟨4, ![3, 3, 128, 256]⟩ : Shape).Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10)))
    (h11 : @Eq ((⟨2, ![1, 256]⟩ : Shape).Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11)))
    (h12 : @Eq ((⟨4, ![3, 3, 256, 256]⟩ : Shape).Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12)))
    (h13 : @Eq ((⟨2, ![1, 256]⟩ : Shape).Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13)))
    (h14 : @Eq ((⟨4, ![3, 3, 256, 256]⟩ : Shape).Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14)))
    (h15 : @Eq ((⟨2, ![1, 256]⟩ : Shape).Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15)))
    (h16 : @Eq ((⟨4, ![3, 3, 256, 512]⟩ : Shape).Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16)))
    (h17 : @Eq ((⟨2, ![1, 512]⟩ : Shape).Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17)))
    (h18 : @Eq ((⟨4, ![3, 3, 512, 512]⟩ : Shape).Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18)))
    (h19 : @Eq ((⟨2, ![1, 512]⟩ : Shape).Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19)))
    (h20 : @Eq ((⟨4, ![3, 3, 512, 512]⟩ : Shape).Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20)))
    (h21 : @Eq ((⟨2, ![1, 512]⟩ : Shape).Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))) :
    Cert.ReferenceIdeal.Run.args m' c = Cert.KernelIdeal.Run.args m c :=
  ofArrays_congr h0 h1 h2 h3 h4 h5 h6 h7 h8 h9 h10 h11 h12 h13 h14 h15 h16 h17 h18 h19 h20 h21

/-- The two scalars are equal: each is its program's loss of the arguments, the arguments are the same, and the two
    losses are equal on the extended reals. -/
theorem result_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : @Eq ((⟨4, ![16, 3, 224, 224]⟩ : Shape).Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0)))
    (h1 : @Eq ((⟨4, ![16, 3, 224, 224]⟩ : Shape).Idx → EReal) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1)))
    (h2 : @Eq ((⟨4, ![3, 3, 3, 64]⟩ : Shape).Idx → EReal) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2)))
    (h3 : @Eq ((⟨2, ![1, 64]⟩ : Shape).Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)))
    (h4 : @Eq ((⟨4, ![3, 3, 64, 64]⟩ : Shape).Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)))
    (h5 : @Eq ((⟨2, ![1, 64]⟩ : Shape).Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)))
    (h6 : @Eq ((⟨4, ![3, 3, 64, 128]⟩ : Shape).Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)))
    (h7 : @Eq ((⟨2, ![1, 128]⟩ : Shape).Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)))
    (h8 : @Eq ((⟨4, ![3, 3, 128, 128]⟩ : Shape).Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)))
    (h9 : @Eq ((⟨2, ![1, 128]⟩ : Shape).Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9)))
    (h10 : @Eq ((⟨4, ![3, 3, 128, 256]⟩ : Shape).Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10)))
    (h11 : @Eq ((⟨2, ![1, 256]⟩ : Shape).Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11)))
    (h12 : @Eq ((⟨4, ![3, 3, 256, 256]⟩ : Shape).Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12)))
    (h13 : @Eq ((⟨2, ![1, 256]⟩ : Shape).Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13)))
    (h14 : @Eq ((⟨4, ![3, 3, 256, 256]⟩ : Shape).Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14)))
    (h15 : @Eq ((⟨2, ![1, 256]⟩ : Shape).Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15)))
    (h16 : @Eq ((⟨4, ![3, 3, 256, 512]⟩ : Shape).Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16)))
    (h17 : @Eq ((⟨2, ![1, 512]⟩ : Shape).Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17)))
    (h18 : @Eq ((⟨4, ![3, 3, 512, 512]⟩ : Shape).Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18)))
    (h19 : @Eq ((⟨2, ![1, 512]⟩ : Shape).Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19)))
    (h20 : @Eq ((⟨4, ![3, 3, 512, 512]⟩ : Shape).Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20)))
    (h21 : @Eq ((⟨2, ![1, 512]⟩ : Shape).Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))) :
    @Eq EReal (Cert.ReferenceIdeal.Run.result (F := Ideal) m' c ValueIdx.ix0) (Cert.KernelIdeal.Run.result (F := Ideal) m c ValueIdx.ix0) := by
  rw [Cert.ReferenceIdeal.Run.result_eq, Cert.KernelIdeal.Run.result_eq, Cert.Spec.lossK_eq_lossR,
    args_agree m m' c h0 h1 h2 h3 h4 h5 h6 h7 h8 h9 h10 h11 h12 h13 h14 h15 h16 h17 h18 h19 h20 h21]

/-- The two result buffers, each a single extended real, are equal. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : @Eq ((⟨4, ![16, 3, 224, 224]⟩ : Shape).Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0)))
    (h1 : @Eq ((⟨4, ![16, 3, 224, 224]⟩ : Shape).Idx → EReal) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1)))
    (h2 : @Eq ((⟨4, ![3, 3, 3, 64]⟩ : Shape).Idx → EReal) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2)))
    (h3 : @Eq ((⟨2, ![1, 64]⟩ : Shape).Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)))
    (h4 : @Eq ((⟨4, ![3, 3, 64, 64]⟩ : Shape).Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)))
    (h5 : @Eq ((⟨2, ![1, 64]⟩ : Shape).Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)))
    (h6 : @Eq ((⟨4, ![3, 3, 64, 128]⟩ : Shape).Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)))
    (h7 : @Eq ((⟨2, ![1, 128]⟩ : Shape).Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)))
    (h8 : @Eq ((⟨4, ![3, 3, 128, 128]⟩ : Shape).Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)))
    (h9 : @Eq ((⟨2, ![1, 128]⟩ : Shape).Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9)))
    (h10 : @Eq ((⟨4, ![3, 3, 128, 256]⟩ : Shape).Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10)))
    (h11 : @Eq ((⟨2, ![1, 256]⟩ : Shape).Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11)))
    (h12 : @Eq ((⟨4, ![3, 3, 256, 256]⟩ : Shape).Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12)))
    (h13 : @Eq ((⟨2, ![1, 256]⟩ : Shape).Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13)))
    (h14 : @Eq ((⟨4, ![3, 3, 256, 256]⟩ : Shape).Idx → EReal) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14)))
    (h15 : @Eq ((⟨2, ![1, 256]⟩ : Shape).Idx → EReal) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15)))
    (h16 : @Eq ((⟨4, ![3, 3, 256, 512]⟩ : Shape).Idx → EReal) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16)))
    (h17 : @Eq ((⟨2, ![1, 512]⟩ : Shape).Idx → EReal) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17)))
    (h18 : @Eq ((⟨4, ![3, 3, 512, 512]⟩ : Shape).Idx → EReal) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18)))
    (h19 : @Eq ((⟨2, ![1, 512]⟩ : Shape).Idx → EReal) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19)))
    (h20 : @Eq ((⟨4, ![3, 3, 512, 512]⟩ : Shape).Idx → EReal) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20)))
    (h21 : @Eq ((⟨2, ![1, 512]⟩ : Shape).Idx → EReal) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))) :
    @Eq ((⟨0, ![]⟩ : Shape).Idx → EReal) (Cert.ReferenceIdeal.Run.result (F := Ideal) m' c) (Cert.KernelIdeal.Run.result (F := Ideal) m c) := by
  funext i
  rw [ValueIdx.eq_ix0 i]
  exact result_at m m' c h0 h1 h2 h3 h4 h5 h6 h7 h8 h9 h10 h11 h12 h13 h14 h15 h16 h17 h18 h19 h20 h21

/-- The two idealized programs, run from memories that agree on the arguments, both end, with the same scalar and
    with their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.result (F := Ideal) m c, Cert.KernelIdeal.Run.run (F := Ideal) m ρ, ?_⟩
  refine (θ_run (Cert.ReferenceIdeal.defs (F := Ideal)) _ _).mono (fun r hr c => ?_) (Cert.ReferenceIdeal.Run.run (F := Ideal) m' ρ')
  obtain ⟨h0, h1, h2, h3, h4, h5, h6, h7, h8, h9, h10, h11, h12, h13, h14, h15, h16, h17, h18, h19, h20, h21⟩ := hagree c
  -- the chain  final contents = the reference's scalar = the kernel's scalar,  taken at the plain type of a
  -- one-element array so that each buffer is read on its own program's side
  exact ⟨@Eq.trans ((⟨0, ![]⟩ : Shape).Idx → EReal) _ (Cert.ReferenceIdeal.Run.result (F := Ideal) m' c) _ (hr c).1
      (result_agree m m' c h0 h1 h2 h3 h4 h5 h6 h7 h8 h9 h10 h11 h12 h13 h14 h15 h16 h17 h18 h19 h20 h21), (hr c).2⟩

end Cert.Proof.Claims

end
-- ==== Proof.lean ====
/-
  The certificate of a VGG16-features perceptual loss kernel against its reference.

  Both programs take an input batch and a target batch of 16 images [16, 3, 224, 224] and the weights and biases of ten
  3×3 convolutions, and return one scalar: with z the images in channel-last layout, normalised channel by channel as
  (z − mean) / std, four feature levels are computed — level 0: two convolution + ReLU layers at 224×224; levels 1–3:
  a 2×2 max pooling followed by two, three and three convolution + ReLU layers at 112, 56 and 28 — and the loss is
  0 + Σ over the four levels of (Σ over all entries of |feature(input) − feature(target)|) / (number of entries).

  The kernel runs the 32 images as one batch (input ++ target), tiles each convolution by rows with the padded width
  rounded to 16, folds the three vertical taps into one contraction where the input-channel count is a multiple of 128, and
  sums |a − b| image pair by image pair before adding the 16 partial sums. The reference runs the two streams
  separately, with the padded width rounded to 8, nine taps, and one running sum per level. Read on the extended
  reals these are the same finite sums in another order, so the two scalars agree (`Claims.algebraic`); each program
  runs to its end without a fault and leaves its 22 argument arrays as they were (`Claims.frame_*`); and the
  idealization changed nothing in the kernel's text, so there is nothing to preserve.
-/
import proofs.«143011_g2000502688546152_pallasbulk_1201_3_alg».proof.Defs
import proofs.«143011_g2000502688546152_pallasbulk_1201_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
